-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![4, 1024, 2, 128]⟩ ⟨4, ![4, 4096, 2, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![4, 1024, 2, 128]⟩ ⟨4, ![4, 4096, 2, 128]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v105) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x256x1024 : Shape := ⟨3, ![4, 256, 1024]⟩
abbrev S1024x1024 : Shape := ⟨2, ![1024, 1024]⟩
abbrev S4x1024x2x128 : Shape := ⟨4, ![4, 1024, 2, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x2x128 : S_.BroadcastsInDim S4x1024x2x128 (![] : Fin 0 → Fin S4x1024x2x128.rank)
  reducesTo_S4x1024x2x128_S_d0_1_2_3 : S4x1024x2x128.ReducesTo [0, 1, 2, 3] S_

variable [Facts]

def fn_part1 {F : FTy → Type} [FloatOps F] (main_arg4 : FVec F S4x1024x2x128 .f32) (main_v13 : IVec S_ 1) (main_v16 : IVec S4x1024x2x128 1) : IVec S_ 1 :=
  let main_c_5 : IVec S_ 1 := constantI S_ 1 1#1
  let main_v17 : IVec S_ 1 := (fun x v => Host.reduce IntOp.andi x v reducesTo_S4x1024x2x128_S_d0_1_2_3 h_S_) main_v16 main_c_5
  let main_v18 : IVec S_ 1 := andi main_v13 main_v17
  let main_v19 : FVec F S4x1024x2x128 .f32 := Host.absf main_arg4
  let main_cst_6 : FVec F S_ .f32 := constant S_ .f32 0x7F800000#32
  let main_v20 : FVec F S4x1024x2x128 .f32 := broadcastInDim S4x1024x2x128 ![] bcast_S_S4x1024x2x128 main_cst_6
  let main_v21 : IVec S4x1024x2x128 1 := cmpf .olt main_v19 main_v20
  let main_c_7 : IVec S_ 1 := constantI S_ 1 1#1
  let main_v22 : IVec S_ 1 := (fun x v => Host.reduce IntOp.andi x v reducesTo_S4x1024x2x128_S_d0_1_2_3 h_S_) main_v21 main_c_7
  let main_v23 : IVec S_ 1 := andi main_v18 main_v22
  main_v23

def fn {F : FTy → Type} [FloatOps F] (main_arg0 : FVec F S4x256x1024 .f32) (main_arg1 : FVec F S1024x1024 .f32) (main_arg2 : FVec F S1024x1024 .f32) (main_arg3 : FVec F S4x1024x2x128 .f32) (main_arg4 : FVec F S4x1024x2x128 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4x1024x2x128 .f32 := Host.absf main_arg3
  let main_cst_4 : FVec F S_ .f32 := constant S_ .f32 0x7F800000#32
  let main_v15 : FVec F S4x1024x2x128 .f32 := broadcastInDim S4x1024x2x128 ![] bcast_S_S4x1024x2x128 main_cst_4
  let main_v16 : IVec S4x1024x2x128 1 := cmpf .olt main_v14 main_v15
  fn_part1 (F := F) main_arg4 main_v13 main_v16
-- ==== Pre_finite_inputs_ReferenceIdeal.lean ====
abbrev S4x256x1024 : Shape := ⟨3, ![4, 256, 1024]⟩
abbrev S1024x1024 : Shape := ⟨2, ![1024, 1024]⟩
abbrev S4x4096x2x128 : Shape := ⟨4, ![4, 4096, 2, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x4096x2x128 : S_.BroadcastsInDim S4x4096x2x128 (![] : Fin 0 → Fin S4x4096x2x128.rank)
  reducesTo_S4x4096x2x128_S_d0_1_2_3 : S4x4096x2x128.ReducesTo [0, 1, 2, 3] S_

variable [Facts]

def fn_part1 {F : FTy → Type} [FloatOps F] (main_arg4 : FVec F S4x4096x2x128 .f32) (main_v13 : IVec S_ 1) (main_v16 : IVec S4x4096x2x128 1) : IVec S_ 1 :=
  let main_c_5 : IVec S_ 1 := constantI S_ 1 1#1
  let main_v17 : IVec S_ 1 := (fun x v => Host.reduce IntOp.andi x v reducesTo_S4x4096x2x128_S_d0_1_2_3 h_S_) main_v16 main_c_5
  let main_v18 : IVec S_ 1 := andi main_v13 main_v17
  let main_v19 : FVec F S4x4096x2x128 .f32 := Host.absf main_arg4
  let main_cst_6 : FVec F S_ .f32 := constant S_ .f32 0x7F800000#32
  let main_v20 : FVec F S4x4096x2x128 .f32 := broadcastInDim S4x4096x2x128 ![] bcast_S_S4x4096x2x128 main_cst_6
  let main_v21 : IVec S4x4096x2x128 1 := cmpf .olt main_v19 main_v20
  let main_c_7 : IVec S_ 1 := constantI S_ 1 1#1
  let main_v22 : IVec S_ 1 := (fun x v => Host.reduce IntOp.andi x v reducesTo_S4x4096x2x128_S_d0_1_2_3 h_S_) main_v21 main_c_7
  let main_v23 : IVec S_ 1 := andi main_v18 main_v22
  main_v23

def fn {F : FTy → Type} [FloatOps F] (main_arg0 : FVec F S4x256x1024 .f32) (main_arg1 : FVec F S1024x1024 .f32) (main_arg2 : FVec F S1024x1024 .f32) (main_arg3 : FVec F S4x4096x2x128 .f32) (main_arg4 : FVec F S4x4096x2x128 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4x4096x2x128 .f32 := Host.absf main_arg3
  let main_cst_4 : FVec F S_ .f32 := constant S_ .f32 0x7F800000#32
  let main_v15 : FVec F S4x4096x2x128 .f32 := broadcastInDim S4x4096x2x128 ![] bcast_S_S4x4096x2x128 main_cst_4
  let main_v16 : IVec S4x4096x2x128 1 := cmpf .olt main_v14 main_v15
  fn_part1 (F := F) main_arg4 main_v13 main_v16
-- ==== Kernel.lean ====
abbrev S4x256x1024 : Shape := ⟨3, ![4, 256, 1024]⟩
abbrev S1024x1024 : Shape := ⟨2, ![1024, 1024]⟩
abbrev S4x1024x2x128 : Shape := ⟨4, ![4, 1024, 2, 128]⟩
abbrev S32x128x256 : Shape := ⟨3, ![32, 128, 256]⟩
abbrev S32x1x256 : Shape := ⟨3, ![32, 1, 256]⟩
abbrev S3x8x128x256 : Shape := ⟨4, ![3, 8, 128, 256]⟩
abbrev S3x8x1x256 : Shape := ⟨4, ![3, 8, 1, 256]⟩
abbrev S32x256x128 : Shape := ⟨3, ![32, 256, 128]⟩
abbrev S2x8x1024x128 : Shape := ⟨4, ![2, 8, 1024, 128]⟩
abbrev S1024x256 : Shape := ⟨2, ![1024, 256]⟩
abbrev S3 : Shape := ⟨1, ![3]⟩
abbrev S4 : Shape := ⟨1, ![4]⟩
abbrev S_ : Shape := ⟨0, ![]⟩
abbrev S1 : Shape := ⟨1, ![1]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S1x256x1024 : Shape := ⟨3, ![1, 256, 1024]⟩
abbrev S256x1024 : Shape := ⟨2, ![256, 1024]⟩
abbrev S256x128 : Shape := ⟨2, ![256, 128]⟩
abbrev S1x256x128 : Shape := ⟨3, ![1, 256, 128]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S1x1x256 : Shape := ⟨3, ![1, 1, 256]⟩
abbrev S1x4x128x256 : Shape := ⟨4, ![1, 4, 128, 256]⟩
abbrev S4x128x256 : Shape := ⟨3, ![4, 128, 256]⟩
abbrev S1x4x1x256 : Shape := ⟨4, ![1, 4, 1, 256]⟩
abbrev S4x1x256 : Shape := ⟨3, ![4, 1, 256]⟩
abbrev S1x1x1x256 : Shape := ⟨4, ![1, 1, 1, 256]⟩
abbrev S1x1x128x256 : Shape := ⟨4, ![1, 1, 128, 256]⟩
abbrev S128x1024 : Shape := ⟨2, ![128, 1024]⟩
abbrev S1x128x1024 : Shape := ⟨3, ![1, 128, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x1024x2x128, .f32⟩
  | .hbm, ⟨4, _⟩ => ⟨S4x1024x2x128, .f32⟩
  | .hbm, ⟨5, _⟩ => ⟨S4x256x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S4x256x1024, .f32⟩
  | .local _ .vmem, ⟨4, _⟩ => ⟨S32x128x256, .bf16⟩
  | .local _ .vmem, ⟨5, _⟩ => ⟨S32x1x256, .f32⟩
  | .local _ .vmem, ⟨6, _⟩ => ⟨S3x8x128x256, .bf16⟩
  | .local _ .vmem, ⟨7, _⟩ => ⟨S3x8x1x256, .f32⟩
  | .local _ .vmem, ⟨8, _⟩ => ⟨S32x256x128, .bf16⟩
  | .local _ .vmem, ⟨9, _⟩ => ⟨S2x8x1024x128, .f32⟩
  | .local _ .vmem, ⟨10, _⟩ => ⟨S1024x256, .bf16⟩
  | .local _ .vmem, ⟨11, _⟩ => ⟨S1024x1024, .bf16⟩
  | .local _ .vmem, ⟨12, _⟩ => ⟨S1024x1024, .bf16⟩
  | .local _ .vmem, ⟨13, _⟩ => ⟨S2x8x1024x128, .bf16⟩
  | .local _ .vmem, ⟨14, _⟩ => ⟨S4x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch23 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) (c0_i32_167 : BitVec 32) : Fin 4 → Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_166 : BitVec 32 := 2#32
  let v139 : BitVec 32 := Scalar.muli v2 c2_i32_166
  let v140 : BitVec 32 := Scalar.addi v139 c0_i32_167
  let c0_i32_176 : BitVec 32 := 0#32
  let c0_i32_177 : BitVec 32 := 0#32
  ![0, v140.toNat, 0, 0]
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_178 : BitVec 32 := 0#32
  let c0_i32_174 : BitVec 32 := 0#32
  let c0_i32_179 : BitVec 32 := 0#32
  ![v2.toNat, 0, 0, 0]
def k0_off4 (d0 : Dev nD) (c0_i32_169 : BitVec 32) : Fin 4 → Nat :=
  let c1_i32_181 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_168 : BitVec 32 := 2#32
  let v141 : BitVec 32 := Scalar.muli v2 c2_i32_168
  let v142 : BitVec 32 := Scalar.addi v141 c0_i32_169
  let c0_i32_182 : BitVec 32 := 0#32
  let c0_i32_183 : BitVec 32 := 0#32
  ![1, v142.toNat, 0, 0]
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_190 : BitVec 32 := 0#32
  let c1_i32_186 : BitVec 32 := 1#32
  let c0_i32_191 : BitVec 32 := 0#32
  ![v2.toNat, 0, 1, 0]
def k0_off6 (d0 : Dev nD) (c0_i32_199 : BitVec 32) : Fin 4 → Nat :=
  let c0_200 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_198 : BitVec 32 := 2#32
  let v171 : BitVec 32 := Scalar.muli v2 c2_i32_198
  let v172 : BitVec 32 := Scalar.addi v171 c0_i32_199
  let v173 : Index := Scalar.indexCast v172
  let c0_201 : Index := 0#32
  let c0_202 : Index := 0#32
  ![0, v173.toNat, 0, 0]
def k0_off7 (d0 : Dev nD) (c0_i32_209 : BitVec 32) : Fin 4 → Nat :=
  let c1 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_208 : BitVec 32 := 2#32
  let v183 : BitVec 32 := Scalar.muli v2 c2_i32_208
  let v184 : BitVec 32 := Scalar.addi v183 c0_i32_209
  let v185 : Index := Scalar.indexCast v184
  let c0_210 : Index := 0#32
  let c0_211 : Index := 0#32
  ![1, v185.toNat, 0, 0]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v219 : Index := Scalar.indexCast v2
  let c0_237 : Index := 0#32
  let c0_238 : Index := 0#32
  ![v219.toNat, 0, 0]
def k0_off9 (d0 : Dev nD) (c0_i32_242 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v229 : BitVec 32 := Scalar.muli v2 c8_i32
  let v230 : BitVec 32 := Scalar.addi v229 c0_i32_242
  let v231 : Index := Scalar.indexCast v230
  let c0_243 : Index := 0#32
  let c0_244 : Index := 0#32
  ![v231.toNat, 0, 0]
@[reducible] def k0_t1_loop : Scf.Loop 32 :=
  let c0_i32_273 : BitVec 32 := 0#32
  let c8_i32_274 : BitVec 32 := 8#32
  let v291 : BitVec 32 := Scalar.addi c0_i32_273 c8_i32_274
  let c1_i32_275 : BitVec 32 := 1#32
  ⟨c0_i32_273, v291, c1_i32_275⟩
def k0_off10 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_1440 : BitVec 32 := 8#32
  let v1543 : BitVec 32 := Scalar.muli v2 c8_i32_1440
  let c0_i32_273 : BitVec 32 := 0#32
  let c1_i32_275 : BitVec 32 := 1#32
  let arg30 : BitVec 32 := Scf.iv c0_i32_273 c1_i32_275 k0_t1
  let v1544 : BitVec 32 := Scalar.addi v1543 arg30
  let v1564 : Index := Scalar.indexCast v1544
  let c0_1449 : Index := 0#32
  let c0_1450 : Index := 0#32
  ![v1564.toNat, 0, 0]
def k0_off11 (d0 : Dev nD) (k0_t1 : Fin k0_t1_loop.trips) : Fin 4 → Nat :=
  let c0_1451 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1441 : BitVec 32 := 2#32
  let v1545 : BitVec 32 := Scalar.muli v2 c2_i32_1441
  let c0_i32_273 : BitVec 32 := 0#32
  let c1_i32_275 : BitVec 32 := 1#32
  let arg30 : BitVec 32 := Scf.iv c0_i32_273 c1_i32_275 k0_t1
  let c0_i32_1443 : BitVec 32 := 0#32
  let v1547 : BitVec 1 := Scalar.cmpi .sgt arg30 c0_i32_1443
  let v1548 : BitVec 32 := Scalar.extui v1547
  let c0_i32_1444 : BitVec 32 := 0#32
  let v1549 : BitVec 1 := Scalar.cmpi .slt arg30 c0_i32_1444
  let v1550 : BitVec 32 := Scalar.extui v1549
  let v1551 : BitVec 32 := Scalar.subi v1548 v1550
  let c4_i32_1442 : BitVec 32 := 4#32
  let c0_i32_1445 : BitVec 32 := 0#32
  let v1552 : BitVec 1 := Scalar.cmpi .sgt c4_i32_1442 c0_i32_1445
  let v1553 : BitVec 32 := Scalar.extui v1552
  let c0_i32_1446 : BitVec 32 := 0#32
  let v1554 : BitVec 1 := Scalar.cmpi .slt c4_i32_1442 c0_i32_1446
  let v1555 : BitVec 32 := Scalar.extui v1554
  let v1556 : BitVec 32 := Scalar.subi v1553 v1555
  let v1557 : BitVec 1 := Scalar.cmpi .ne v1551 v1556
  let v1558 : BitVec 32 := Scalar.remsi arg30 c4_i32_1442
  let c0_i32_1447 : BitVec 32 := 0#32
  let v1559 : BitVec 1 := Scalar.cmpi .ne v1558 c0_i32_1447
  let v1560 : BitVec 1 := Scalar.andi v1557 v1559
  let v1546 : BitVec 32 := Scalar.divsi arg30 c4_i32_1442
  let c1_i32_1448 : BitVec 32 := 1#32
  let v1561 : BitVec 32 := Scalar.subi v1546 c1_i32_1448
  let v1562 : BitVec 32 := Scalar.select v1560 v1561 v1546
  let v1563 : BitVec 32 := Scalar.addi v1545 v1562
  let v1567 : Index := Scalar.indexCast v1563
  let c0_1452 : Index := 0#32
  let c0_1453 : Index := 0#32
  ![0, v1567.toNat, 0, 0]
def k0_off12 (d0 : Dev nD) (k0_t1 : Fin k0_t1_loop.trips) : Fin 4 → Nat :=
  let c1_1454 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1441 : BitVec 32 := 2#32
  let v1545 : BitVec 32 := Scalar.muli v2 c2_i32_1441
  let c0_i32_273 : BitVec 32 := 0#32
  let c1_i32_275 : BitVec 32 := 1#32
  let arg30 : BitVec 32 := Scf.iv c0_i32_273 c1_i32_275 k0_t1
  let c0_i32_1443 : BitVec 32 := 0#32
  let v1547 : BitVec 1 := Scalar.cmpi .sgt arg30 c0_i32_1443
  let v1548 : BitVec 32 := Scalar.extui v1547
  let c0_i32_1444 : BitVec 32 := 0#32
  let v1549 : BitVec 1 := Scalar.cmpi .slt arg30 c0_i32_1444
  let v1550 : BitVec 32 := Scalar.extui v1549
  let v1551 : BitVec 32 := Scalar.subi v1548 v1550
  let c4_i32_1442 : BitVec 32 := 4#32
  let c0_i32_1445 : BitVec 32 := 0#32
  let v1552 : BitVec 1 := Scalar.cmpi .sgt c4_i32_1442 c0_i32_1445
  let v1553 : BitVec 32 := Scalar.extui v1552
  let c0_i32_1446 : BitVec 32 := 0#32
  let v1554 : BitVec 1 := Scalar.cmpi .slt c4_i32_1442 c0_i32_1446
  let v1555 : BitVec 32 := Scalar.extui v1554
  let v1556 : BitVec 32 := Scalar.subi v1553 v1555
  let v1557 : BitVec 1 := Scalar.cmpi .ne v1551 v1556
  let v1558 : BitVec 32 := Scalar.remsi arg30 c4_i32_1442
  let c0_i32_1447 : BitVec 32 := 0#32
  let v1559 : BitVec 1 := Scalar.cmpi .ne v1558 c0_i32_1447
  let v1560 : BitVec 1 := Scalar.andi v1557 v1559
  let v1546 : BitVec 32 := Scalar.divsi arg30 c4_i32_1442
  let c1_i32_1448 : BitVec 32 := 1#32
  let v1561 : BitVec 32 := Scalar.subi v1546 c1_i32_1448
  let v1562 : BitVec 32 := Scalar.select v1560 v1561 v1546
  let v1563 : BitVec 32 := Scalar.addi v1545 v1562
  let v1570 : Index := Scalar.indexCast v1563
  let c0_1455 : Index := 0#32
  let c0_1456 : Index := 0#32
  ![1, v1570.toNat, 0, 0]
def k0_off13 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_1440 : BitVec 32 := 8#32
  let v1543 : BitVec 32 := Scalar.muli v2 c8_i32_1440
  let c0_i32_273 : BitVec 32 := 0#32
  let c1_i32_275 : BitVec 32 := 1#32
  let arg30 : BitVec 32 := Scf.iv c0_i32_273 c1_i32_275 k0_t1
  let v1544 : BitVec 32 := Scalar.addi v1543 arg30
  let v1584 : Index := Scalar.indexCast v1544
  let c0_1464 : Index := 0#32
  let c0_1465 : Index := 0#32
  ![v1584.toNat, 0, 0]
def k0_off14 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_1440 : BitVec 32 := 8#32
  let v1543 : BitVec 32 := Scalar.muli v2 c8_i32_1440
  let c0_i32_273 : BitVec 32 := 0#32
  let c1_i32_275 : BitVec 32 := 1#32
  let arg30 : BitVec 32 := Scf.iv c0_i32_273 c1_i32_275 k0_t1
  let v1544 : BitVec 32 := Scalar.addi v1543 arg30
  let v1588 : Index := Scalar.indexCast v1544
  let c0_1466 : Index := 0#32
  let c0_1467 : Index := 0#32
  ![v1588.toNat, 0, 0]
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_278 : BitVec 32 := 8#32
  let v292 : BitVec 32 := Scalar.muli v2 c8_i32_278
  let c0_i32_288 : BitVec 32 := 0#32
  let c0_i32_289 : BitVec 32 := 0#32
  ![v292.toNat, 0, 0]
def k0_dev3 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_283 : BitVec 32 := 1#32
  let v294 : BitVec 32 := Scalar.muli v25 c1_i32_283
  let v295 : BitVec 32 := Scalar.addi c0_i32_284 v294
  v295.toNat
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_279 : BitVec 32 := 8#32
  let v293 : BitVec 32 := Scalar.muli v2 c8_i32_279
  let c0_i32_298 : BitVec 32 := 0#32
  let c0_i32_299 : BitVec 32 := 0#32
  ![v293.toNat, 0, 0]
def k0_dev4 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_293 : BitVec 32 := 1#32
  let v303 : BitVec 32 := Scalar.muli v25 c1_i32_293
  let v304 : BitVec 32 := Scalar.addi c0_i32_294 v303
  v304.toNat
def k0_off17 (d0 : Dev nD) (c2_i32_300 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  ![v322.toNat]
def k0_off18 (d0 : Dev nD) (c2_i32_300 : BitVec 32) (c0_i32_308 : BitVec 32) : Fin 4 → Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c2_i32_307 : BitVec 32 := 2#32
  let v323 : BitVec 32 := Scalar.muli v322 c2_i32_307
  let v324 : BitVec 32 := Scalar.addi v323 c0_i32_308
  let c0_i32_317 : BitVec 32 := 0#32
  let c0_i32_318 : BitVec 32 := 0#32
  ![0, v324.toNat, 0, 0]
def k0_off19 (d0 : Dev nD) (c2_i32_300 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c0_i32_319 : BitVec 32 := 0#32
  let c0_i32_315 : BitVec 32 := 0#32
  let c0_i32_320 : BitVec 32 := 0#32
  ![v322.toNat, 0, 0, 0]
def k0_off20 (d0 : Dev nD) (c2_i32_300 : BitVec 32) (c0_i32_310 : BitVec 32) : Fin 4 → Nat :=
  let c1_i32_322 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c2_i32_309 : BitVec 32 := 2#32
  let v325 : BitVec 32 := Scalar.muli v322 c2_i32_309
  let v326 : BitVec 32 := Scalar.addi v325 c0_i32_310
  let c0_i32_323 : BitVec 32 := 0#32
  let c0_i32_324 : BitVec 32 := 0#32
  ![1, v326.toNat, 0, 0]
def k0_off21 (d0 : Dev nD) (c2_i32_300 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c0_i32_331 : BitVec 32 := 0#32
  let c1_i32_327 : BitVec 32 := 1#32
  let c0_i32_332 : BitVec 32 := 0#32
  ![v322.toNat, 0, 1, 0]
def k0_off22 (d0 : Dev nD) (c2_i32_300 : BitVec 32) (c0_i32_340 : BitVec 32) : Fin 4 → Nat :=
  let c0_341 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c2_i32_339 : BitVec 32 := 2#32
  let v355 : BitVec 32 := Scalar.muli v322 c2_i32_339
  let v356 : BitVec 32 := Scalar.addi v355 c0_i32_340
  let v357 : Index := Scalar.indexCast v356
  let c0_342 : Index := 0#32
  let c0_343 : Index := 0#32
  ![0, v357.toNat, 0, 0]
def k0_off23 (d0 : Dev nD) (c2_i32_300 : BitVec 32) (c0_i32_350 : BitVec 32) : Fin 4 → Nat :=
  let c1_351 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c2_i32_349 : BitVec 32 := 2#32
  let v367 : BitVec 32 := Scalar.muli v322 c2_i32_349
  let v368 : BitVec 32 := Scalar.addi v367 c0_i32_350
  let v369 : Index := Scalar.indexCast v368
  let c0_352 : Index := 0#32
  let c0_353 : Index := 0#32
  ![1, v369.toNat, 0, 0]
def k0_off24 (d0 : Dev nD) (c2_i32_300 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let v403 : Index := Scalar.indexCast v322
  let c0_379 : Index := 0#32
  let c0_380 : Index := 0#32
  ![v403.toNat, 0, 0]
def k0_off25 (d0 : Dev nD) (c2_i32_300 : BitVec 32) (c0_i32_386 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c8_i32_385 : BitVec 32 := 8#32
  let v413 : BitVec 32 := Scalar.muli v322 c8_i32_385
  let v414 : BitVec 32 := Scalar.addi v413 c0_i32_386
  let v415 : Index := Scalar.indexCast v414
  let c0_387 : Index := 0#32
  let c0_388 : Index := 0#32
  ![v415.toNat, 0, 0]
@[reducible] def k0_t2_loop : Scf.Loop 32 :=
  let c0_i32_417 : BitVec 32 := 0#32
  let c8_i32_418 : BitVec 32 := 8#32
  let v475 : BitVec 32 := Scalar.addi c0_i32_417 c8_i32_418
  let c1_i32_419 : BitVec 32 := 1#32
  ⟨c0_i32_417, v475, c1_i32_419⟩
def k0_off26 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_300 : BitVec 32 := 2#32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c8_i32_1440 : BitVec 32 := 8#32
  let v1543 : BitVec 32 := Scalar.muli v322 c8_i32_1440
  let c0_i32_417 : BitVec 32 := 0#32
  let c1_i32_419 : BitVec 32 := 1#32
  let arg30 : BitVec 32 := Scf.iv c0_i32_417 c1_i32_419 k0_t2
  let v1544 : BitVec 32 := Scalar.addi v1543 arg30
  let v1564 : Index := Scalar.indexCast v1544
  let c0_1449 : Index := 0#32
  let c0_1450 : Index := 0#32
  ![v1564.toNat, 0, 0]
def k0_off27 (d0 : Dev nD) (k0_t2 : Fin k0_t2_loop.trips) : Fin 4 → Nat :=
  let c0_1451 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_300 : BitVec 32 := 2#32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c2_i32_1441 : BitVec 32 := 2#32
  let v1545 : BitVec 32 := Scalar.muli v322 c2_i32_1441
  let c0_i32_417 : BitVec 32 := 0#32
  let c1_i32_419 : BitVec 32 := 1#32
  let arg30 : BitVec 32 := Scf.iv c0_i32_417 c1_i32_419 k0_t2
  let c0_i32_1443 : BitVec 32 := 0#32
  let v1547 : BitVec 1 := Scalar.cmpi .sgt arg30 c0_i32_1443
  let v1548 : BitVec 32 := Scalar.extui v1547
  let c0_i32_1444 : BitVec 32 := 0#32
  let v1549 : BitVec 1 := Scalar.cmpi .slt arg30 c0_i32_1444
  let v1550 : BitVec 32 := Scalar.extui v1549
  let v1551 : BitVec 32 := Scalar.subi v1548 v1550
  let c4_i32_1442 : BitVec 32 := 4#32
  let c0_i32_1445 : BitVec 32 := 0#32
  let v1552 : BitVec 1 := Scalar.cmpi .sgt c4_i32_1442 c0_i32_1445
  let v1553 : BitVec 32 := Scalar.extui v1552
  let c0_i32_1446 : BitVec 32 := 0#32
  let v1554 : BitVec 1 := Scalar.cmpi .slt c4_i32_1442 c0_i32_1446
  let v1555 : BitVec 32 := Scalar.extui v1554
  let v1556 : BitVec 32 := Scalar.subi v1553 v1555
  let v1557 : BitVec 1 := Scalar.cmpi .ne v1551 v1556
  let v1558 : BitVec 32 := Scalar.remsi arg30 c4_i32_1442
  let c0_i32_1447 : BitVec 32 := 0#32
  let v1559 : BitVec 1 := Scalar.cmpi .ne v1558 c0_i32_1447
  let v1560 : BitVec 1 := Scalar.andi v1557 v1559
  let v1546 : BitVec 32 := Scalar.divsi arg30 c4_i32_1442
  let c1_i32_1448 : BitVec 32 := 1#32
  let v1561 : BitVec 32 := Scalar.subi v1546 c1_i32_1448
  let v1562 : BitVec 32 := Scalar.select v1560 v1561 v1546
  let v1563 : BitVec 32 := Scalar.addi v1545 v1562
  let v1567 : Index := Scalar.indexCast v1563
  let c0_1452 : Index := 0#32
  let c0_1453 : Index := 0#32
  ![0, v1567.toNat, 0, 0]
def k0_off28 (d0 : Dev nD) (k0_t2 : Fin k0_t2_loop.trips) : Fin 4 → Nat :=
  let c1_1454 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_300 : BitVec 32 := 2#32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c2_i32_1441 : BitVec 32 := 2#32
  let v1545 : BitVec 32 := Scalar.muli v322 c2_i32_1441
  let c0_i32_417 : BitVec 32 := 0#32
  let c1_i32_419 : BitVec 32 := 1#32
  let arg30 : BitVec 32 := Scf.iv c0_i32_417 c1_i32_419 k0_t2
  let c0_i32_1443 : BitVec 32 := 0#32
  let v1547 : BitVec 1 := Scalar.cmpi .sgt arg30 c0_i32_1443
  let v1548 : BitVec 32 := Scalar.extui v1547
  let c0_i32_1444 : BitVec 32 := 0#32
  let v1549 : BitVec 1 := Scalar.cmpi .slt arg30 c0_i32_1444
  let v1550 : BitVec 32 := Scalar.extui v1549
  let v1551 : BitVec 32 := Scalar.subi v1548 v1550
  let c4_i32_1442 : BitVec 32 := 4#32
  let c0_i32_1445 : BitVec 32 := 0#32
  let v1552 : BitVec 1 := Scalar.cmpi .sgt c4_i32_1442 c0_i32_1445
  let v1553 : BitVec 32 := Scalar.extui v1552
  let c0_i32_1446 : BitVec 32 := 0#32
  let v1554 : BitVec 1 := Scalar.cmpi .slt c4_i32_1442 c0_i32_1446
  let v1555 : BitVec 32 := Scalar.extui v1554
  let v1556 : BitVec 32 := Scalar.subi v1553 v1555
  let v1557 : BitVec 1 := Scalar.cmpi .ne v1551 v1556
  let v1558 : BitVec 32 := Scalar.remsi arg30 c4_i32_1442
  let c0_i32_1447 : BitVec 32 := 0#32
  let v1559 : BitVec 1 := Scalar.cmpi .ne v1558 c0_i32_1447
  let v1560 : BitVec 1 := Scalar.andi v1557 v1559
  let v1546 : BitVec 32 := Scalar.divsi arg30 c4_i32_1442
  let c1_i32_1448 : BitVec 32 := 1#32
  let v1561 : BitVec 32 := Scalar.subi v1546 c1_i32_1448
  let v1562 : BitVec 32 := Scalar.select v1560 v1561 v1546
  let v1563 : BitVec 32 := Scalar.addi v1545 v1562
  let v1570 : Index := Scalar.indexCast v1563
  let c0_1455 : Index := 0#32
  let c0_1456 : Index := 0#32
  ![1, v1570.toNat, 0, 0]
def k0_off29 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_300 : BitVec 32 := 2#32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c8_i32_1440 : BitVec 32 := 8#32
  let v1543 : BitVec 32 := Scalar.muli v322 c8_i32_1440
  let c0_i32_417 : BitVec 32 := 0#32
  let c1_i32_419 : BitVec 32 := 1#32
  let arg30 : BitVec 32 := Scf.iv c0_i32_417 c1_i32_419 k0_t2
  let v1544 : BitVec 32 := Scalar.addi v1543 arg30
  let v1584 : Index := Scalar.indexCast v1544
  let c0_1464 : Index := 0#32
  let c0_1465 : Index := 0#32
  ![v1584.toNat, 0, 0]
def k0_off30 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_300 : BitVec 32 := 2#32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c8_i32_1440 : BitVec 32 := 8#32
  let v1543 : BitVec 32 := Scalar.muli v322 c8_i32_1440
  let c0_i32_417 : BitVec 32 := 0#32
  let c1_i32_419 : BitVec 32 := 1#32
  let arg30 : BitVec 32 := Scf.iv c0_i32_417 c1_i32_419 k0_t2
  let v1544 : BitVec 32 := Scalar.addi v1543 arg30
  let v1588 : Index := Scalar.indexCast v1544
  let c0_1466 : Index := 0#32
  let c0_1467 : Index := 0#32
  ![v1588.toNat, 0, 0]
def k0_off31 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_300 : BitVec 32 := 2#32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c8_i32_421 : BitVec 32 := 8#32
  let v476 : BitVec 32 := Scalar.muli v322 c8_i32_421
  let c4_i32_422 : BitVec 32 := 4#32
  let v477 : BitVec 32 := Scalar.addi v476 c4_i32_422
  let c0_i32_433 : BitVec 32 := 0#32
  let c0_i32_434 : BitVec 32 := 0#32
  ![v477.toNat, 0, 0]
def k0_dev5 (d0 : Dev nD) : Nat :=
  let c0_i32_429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_428 : BitVec 32 := 1#32
  let v480 : BitVec 32 := Scalar.muli v14 c1_i32_428
  let v481 : BitVec 32 := Scalar.addi c0_i32_429 v480
  v481.toNat
def k0_off32 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_300 : BitVec 32 := 2#32
  let v312 : BitVec 32 := Scalar.addi v2 c2_i32_300
  let c4_i32_301 : BitVec 32 := 4#32
  let c0_i32_302 : BitVec 32 := 0#32
  let v313 : BitVec 1 := Scalar.cmpi .eq c4_i32_301 c0_i32_302
  let c1_i32_303 : BitVec 32 := 1#32
  let v314 : BitVec 32 := Scalar.select v313 c1_i32_303 c4_i32_301
  let v315 : BitVec 32 := Scalar.remsi v312 v314
  let c0_i32_305 : BitVec 32 := 0#32
  let v317 : BitVec 1 := Scalar.cmpi .slt v315 c0_i32_305
  let c0_i32_306 : BitVec 32 := 0#32
  let v318 : BitVec 1 := Scalar.cmpi .slt v314 c0_i32_306
  let v319 : BitVec 1 := Scalar.xori v317 v318
  let c0_i32_304 : BitVec 32 := 0#32
  let v316 : BitVec 1 := Scalar.cmpi .ne v315 c0_i32_304
  let v320 : BitVec 1 := Scalar.andi v319 v316
  let v321 : BitVec 32 := Scalar.addi v315 v314
  let v322 : BitVec 32 := Scalar.select v320 v321 v315
  let c8_i32_423 : BitVec 32 := 8#32
  let v478 : BitVec 32 := Scalar.muli v322 c8_i32_423
  let c4_i32_424 : BitVec 32 := 4#32
  let v479 : BitVec 32 := Scalar.addi v478 c4_i32_424
  let c0_i32_443 : BitVec 32 := 0#32
  let c0_i32_444 : BitVec 32 := 0#32
  ![v479.toNat, 0, 0]
def k0_dev6 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_438 : BitVec 32 := 1#32
  let v489 : BitVec 32 := Scalar.muli v14 c1_i32_438
  let v490 : BitVec 32 := Scalar.addi c0_i32_439 v489
  v490.toNat
@[reducible] def k0_t3_loop : Scf.Loop 32 :=
  let c0_i32_562 : BitVec 32 := 0#32
  let c8_i32_563 : BitVec 32 := 8#32
  let v661 : BitVec 32 := Scalar.addi c0_i32_562 c8_i32_563
  let c1_i32_564 : BitVec 32 := 1#32
  ⟨c0_i32_562, v661, c1_i32_564⟩
def k0_off33 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_445 : BitVec 32 := 3#32
  let v498 : BitVec 32 := Scalar.addi v2 c3_i32_445
  let c4_i32_446 : BitVec 32 := 4#32
  let c0_i32_447 : BitVec 32 := 0#32
  let v499 : BitVec 1 := Scalar.cmpi .eq c4_i32_446 c0_i32_447
  let c1_i32_448 : BitVec 32 := 1#32
  let v500 : BitVec 32 := Scalar.select v499 c1_i32_448 c4_i32_446
  let v501 : BitVec 32 := Scalar.remsi v498 v500
  let c0_i32_450 : BitVec 32 := 0#32
  let v503 : BitVec 1 := Scalar.cmpi .slt v501 c0_i32_450
  let c0_i32_451 : BitVec 32 := 0#32
  let v504 : BitVec 1 := Scalar.cmpi .slt v500 c0_i32_451
  let v505 : BitVec 1 := Scalar.xori v503 v504
  let c0_i32_449 : BitVec 32 := 0#32
  let v502 : BitVec 1 := Scalar.cmpi .ne v501 c0_i32_449
  let v506 : BitVec 1 := Scalar.andi v505 v502
  let v507 : BitVec 32 := Scalar.addi v501 v500
  let v508 : BitVec 32 := Scalar.select v506 v507 v501
  let c8_i32_1440 : BitVec 32 := 8#32
  let v1543 : BitVec 32 := Scalar.muli v508 c8_i32_1440
  let c0_i32_562 : BitVec 32 := 0#32
  let c1_i32_564 : BitVec 32 := 1#32
  let arg30 : BitVec 32 := Scf.iv c0_i32_562 c1_i32_564 k0_t3
  let v1544 : BitVec 32 := Scalar.addi v1543 arg30
  let v1564 : Index := Scalar.indexCast v1544
  let c0_1449 : Index := 0#32
  let c0_1450 : Index := 0#32
  ![v1564.toNat, 0, 0]
def k0_off34 (d0 : Dev nD) (k0_t3 : Fin k0_t3_loop.trips) : Fin 4 → Nat :=
  let c0_1451 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_445 : BitVec 32 := 3#32
  let v498 : BitVec 32 := Scalar.addi v2 c3_i32_445
  let c4_i32_446 : BitVec 32 := 4#32
  let c0_i32_447 : BitVec 32 := 0#32
  let v499 : BitVec 1 := Scalar.cmpi .eq c4_i32_446 c0_i32_447
  let c1_i32_448 : BitVec 32 := 1#32
  let v500 : BitVec 32 := Scalar.select v499 c1_i32_448 c4_i32_446
  let v501 : BitVec 32 := Scalar.remsi v498 v500
  let c0_i32_450 : BitVec 32 := 0#32
  let v503 : BitVec 1 := Scalar.cmpi .slt v501 c0_i32_450
  let c0_i32_451 : BitVec 32 := 0#32
  let v504 : BitVec 1 := Scalar.cmpi .slt v500 c0_i32_451
  let v505 : BitVec 1 := Scalar.xori v503 v504
  let c0_i32_449 : BitVec 32 := 0#32
  let v502 : BitVec 1 := Scalar.cmpi .ne v501 c0_i32_449
  let v506 : BitVec 1 := Scalar.andi v505 v502
  let v507 : BitVec 32 := Scalar.addi v501 v500
  let v508 : BitVec 32 := Scalar.select v506 v507 v501
  let c2_i32_1441 : BitVec 32 := 2#32
  let v1545 : BitVec 32 := Scalar.muli v508 c2_i32_1441
  let c0_i32_562 : BitVec 32 := 0#32
  let c1_i32_564 : BitVec 32 := 1#32
  let arg30 : BitVec 32 := Scf.iv c0_i32_562 c1_i32_564 k0_t3
  let c0_i32_1443 : BitVec 32 := 0#32
  let v1547 : BitVec 1 := Scalar.cmpi .sgt arg30 c0_i32_1443
  let v1548 : BitVec 32 := Scalar.extui v1547
  let c0_i32_1444 : BitVec 32 := 0#32
  let v1549 : BitVec 1 := Scalar.cmpi .slt arg30 c0_i32_1444
  let v1550 : BitVec 32 := Scalar.extui v1549
  let v1551 : BitVec 32 := Scalar.subi v1548 v1550
  let c4_i32_1442 : BitVec 32 := 4#32
  let c0_i32_1445 : BitVec 32 := 0#32
  let v1552 : BitVec 1 := Scalar.cmpi .sgt c4_i32_1442 c0_i32_1445
  let v1553 : BitVec 32 := Scalar.extui v1552
  let c0_i32_1446 : BitVec 32 := 0#32
  let v1554 : BitVec 1 := Scalar.cmpi .slt c4_i32_1442 c0_i32_1446
  let v1555 : BitVec 32 := Scalar.extui v1554
  let v1556 : BitVec 32 := Scalar.subi v1553 v1555
  let v1557 : BitVec 1 := Scalar.cmpi .ne v1551 v1556
  let v1558 : BitVec 32 := Scalar.remsi arg30 c4_i32_1442
  let c0_i32_1447 : BitVec 32 := 0#32
  let v1559 : BitVec 1 := Scalar.cmpi .ne v1558 c0_i32_1447
  let v1560 : BitVec 1 := Scalar.andi v1557 v1559
  let v1546 : BitVec 32 := Scalar.divsi arg30 c4_i32_1442
  let c1_i32_1448 : BitVec 32 := 1#32
  let v1561 : BitVec 32 := Scalar.subi v1546 c1_i32_1448
  let v1562 : BitVec 32 := Scalar.select v1560 v1561 v1546
  let v1563 : BitVec 32 := Scalar.addi v1545 v1562
  let v1567 : Index := Scalar.indexCast v1563
  let c0_1452 : Index := 0#32
  let c0_1453 : Index := 0#32
  ![0, v1567.toNat, 0, 0]
def k0_off35 (d0 : Dev nD) (k0_t3 : Fin k0_t3_loop.trips) : Fin 4 → Nat :=
  let c1_1454 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_445 : BitVec 32 := 3#32
  let v498 : BitVec 32 := Scalar.addi v2 c3_i32_445
  let c4_i32_446 : BitVec 32 := 4#32
  let c0_i32_447 : BitVec 32 := 0#32
  let v499 : BitVec 1 := Scalar.cmpi .eq c4_i32_446 c0_i32_447
  let c1_i32_448 : BitVec 32 := 1#32
  let v500 : BitVec 32 := Scalar.select v499 c1_i32_448 c4_i32_446
  let v501 : BitVec 32 := Scalar.remsi v498 v500
  let c0_i32_450 : BitVec 32 := 0#32
  let v503 : BitVec 1 := Scalar.cmpi .slt v501 c0_i32_450
  let c0_i32_451 : BitVec 32 := 0#32
  let v504 : BitVec 1 := Scalar.cmpi .slt v500 c0_i32_451
  let v505 : BitVec 1 := Scalar.xori v503 v504
  let c0_i32_449 : BitVec 32 := 0#32
  let v502 : BitVec 1 := Scalar.cmpi .ne v501 c0_i32_449
  let v506 : BitVec 1 := Scalar.andi v505 v502
  let v507 : BitVec 32 := Scalar.addi v501 v500
  let v508 : BitVec 32 := Scalar.select v506 v507 v501
  let c2_i32_1441 : BitVec 32 := 2#32
  let v1545 : BitVec 32 := Scalar.muli v508 c2_i32_1441
  let c0_i32_562 : BitVec 32 := 0#32
  let c1_i32_564 : BitVec 32 := 1#32
  let arg30 : BitVec 32 := Scf.iv c0_i32_562 c1_i32_564 k0_t3
  let c0_i32_1443 : BitVec 32 := 0#32
  let v1547 : BitVec 1 := Scalar.cmpi .sgt arg30 c0_i32_1443
  let v1548 : BitVec 32 := Scalar.extui v1547
  let c0_i32_1444 : BitVec 32 := 0#32
  let v1549 : BitVec 1 := Scalar.cmpi .slt arg30 c0_i32_1444
  let v1550 : BitVec 32 := Scalar.extui v1549
  let v1551 : BitVec 32 := Scalar.subi v1548 v1550
  let c4_i32_1442 : BitVec 32 := 4#32
  let c0_i32_1445 : BitVec 32 := 0#32
  let v1552 : BitVec 1 := Scalar.cmpi .sgt c4_i32_1442 c0_i32_1445
  let v1553 : BitVec 32 := Scalar.extui v1552
  let c0_i32_1446 : BitVec 32 := 0#32
  let v1554 : BitVec 1 := Scalar.cmpi .slt c4_i32_1442 c0_i32_1446
  let v1555 : BitVec 32 := Scalar.extui v1554
  let v1556 : BitVec 32 := Scalar.subi v1553 v1555
  let v1557 : BitVec 1 := Scalar.cmpi .ne v1551 v1556
  let v1558 : BitVec 32 := Scalar.remsi arg30 c4_i32_1442
  let c0_i32_1447 : BitVec 32 := 0#32
  let v1559 : BitVec 1 := Scalar.cmpi .ne v1558 c0_i32_1447
  let v1560 : BitVec 1 := Scalar.andi v1557 v1559
  let v1546 : BitVec 32 := Scalar.divsi arg30 c4_i32_1442
  let c1_i32_1448 : BitVec 32 := 1#32
  let v1561 : BitVec 32 := Scalar.subi v1546 c1_i32_1448
  let v1562 : BitVec 32 := Scalar.select v1560 v1561 v1546
  let v1563 : BitVec 32 := Scalar.addi v1545 v1562
  let v1570 : Index := Scalar.indexCast v1563
  let c0_1455 : Index := 0#32
  let c0_1456 : Index := 0#32
  ![1, v1570.toNat, 0, 0]
def k0_off36 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_445 : BitVec 32 := 3#32
  let v498 : BitVec 32 := Scalar.addi v2 c3_i32_445
  let c4_i32_446 : BitVec 32 := 4#32
  let c0_i32_447 : BitVec 32 := 0#32
  let v499 : BitVec 1 := Scalar.cmpi .eq c4_i32_446 c0_i32_447
  let c1_i32_448 : BitVec 32 := 1#32
  let v500 : BitVec 32 := Scalar.select v499 c1_i32_448 c4_i32_446
  let v501 : BitVec 32 := Scalar.remsi v498 v500
  let c0_i32_450 : BitVec 32 := 0#32
  let v503 : BitVec 1 := Scalar.cmpi .slt v501 c0_i32_450
  let c0_i32_451 : BitVec 32 := 0#32
  let v504 : BitVec 1 := Scalar.cmpi .slt v500 c0_i32_451
  let v505 : BitVec 1 := Scalar.xori v503 v504
  let c0_i32_449 : BitVec 32 := 0#32
  let v502 : BitVec 1 := Scalar.cmpi .ne v501 c0_i32_449
  let v506 : BitVec 1 := Scalar.andi v505 v502
  let v507 : BitVec 32 := Scalar.addi v501 v500
  let v508 : BitVec 32 := Scalar.select v506 v507 v501
  let c8_i32_1440 : BitVec 32 := 8#32
  let v1543 : BitVec 32 := Scalar.muli v508 c8_i32_1440
  let c0_i32_562 : BitVec 32 := 0#32
  let c1_i32_564 : BitVec 32 := 1#32
  let arg30 : BitVec 32 := Scf.iv c0_i32_562 c1_i32_564 k0_t3
  let v1544 : BitVec 32 := Scalar.addi v1543 arg30
  let v1584 : Index := Scalar.indexCast v1544
  let c0_1464 : Index := 0#32
  let c0_1465 : Index := 0#32
  ![v1584.toNat, 0, 0]
def k0_off37 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_445 : BitVec 32 := 3#32
  let v498 : BitVec 32 := Scalar.addi v2 c3_i32_445
  let c4_i32_446 : BitVec 32 := 4#32
  let c0_i32_447 : BitVec 32 := 0#32
  let v499 : BitVec 1 := Scalar.cmpi .eq c4_i32_446 c0_i32_447
  let c1_i32_448 : BitVec 32 := 1#32
  let v500 : BitVec 32 := Scalar.select v499 c1_i32_448 c4_i32_446
  let v501 : BitVec 32 := Scalar.remsi v498 v500
  let c0_i32_450 : BitVec 32 := 0#32
  let v503 : BitVec 1 := Scalar.cmpi .slt v501 c0_i32_450
  let c0_i32_451 : BitVec 32 := 0#32
  let v504 : BitVec 1 := Scalar.cmpi .slt v500 c0_i32_451
  let v505 : BitVec 1 := Scalar.xori v503 v504
  let c0_i32_449 : BitVec 32 := 0#32
  let v502 : BitVec 1 := Scalar.cmpi .ne v501 c0_i32_449
  let v506 : BitVec 1 := Scalar.andi v505 v502
  let v507 : BitVec 32 := Scalar.addi v501 v500
  let v508 : BitVec 32 := Scalar.select v506 v507 v501
  let c8_i32_1440 : BitVec 32 := 8#32
  let v1543 : BitVec 32 := Scalar.muli v508 c8_i32_1440
  let c0_i32_562 : BitVec 32 := 0#32
  let c1_i32_564 : BitVec 32 := 1#32
  let arg30 : BitVec 32 := Scf.iv c0_i32_562 c1_i32_564 k0_t3
  let v1544 : BitVec 32 := Scalar.addi v1543 arg30
  let v1588 : Index := Scalar.indexCast v1544
  let c0_1466 : Index := 0#32
  let c0_1467 : Index := 0#32
  ![v1588.toNat, 0, 0]
@[reducible] def k0_t4_loop : Scf.Loop 32 :=
  let c0_i32_613 : BitVec 32 := 0#32
  let c4_i32_614 : BitVec 32 := 4#32
  let v699 : BitVec 32 := Scalar.addi c0_i32_613 c4_i32_614
  let c1_i32_615 : BitVec 32 := 1#32
  ⟨c0_i32_613, v699, c1_i32_615⟩
def k0_off38 (k0_t4 : Fin k0_t4_loop.trips) : Fin 4 → Nat :=
  let c0_1442 : Index := 0#32
  let c0_i32_1440 : BitVec 32 := 0#32
  let c0_i32_613 : BitVec 32 := 0#32
  let c1_i32_615 : BitVec 32 := 1#32
  let arg30 : BitVec 32 := Scf.iv c0_i32_613 c1_i32_615 k0_t4
  let v1543 : BitVec 32 := Scalar.addi c0_i32_1440 arg30
  let v1546 : Index := Scalar.indexCast v1543
  let c0_1443 : Index := 0#32
  let c0_1444 : Index := 0#32
  ![0, v1546.toNat, 0, 0]
def k0_off39 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_604 : BitVec 32 := 4#32
  let v686 : BitVec 32 := Scalar.addi v2 c4_i32_604
  let c0_i32_605 : BitVec 32 := 0#32
  let v687 : BitVec 32 := Scalar.subi v686 c0_i32_605
  let c1_i32_606 : BitVec 32 := 1#32
  let v688 : BitVec 32 := Scalar.subi v687 c1_i32_606
  let c4_i32_607 : BitVec 32 := 4#32
  let c0_i32_608 : BitVec 32 := 0#32
  let v689 : BitVec 1 := Scalar.cmpi .eq c4_i32_607 c0_i32_608
  let c1_i32_609 : BitVec 32 := 1#32
  let v690 : BitVec 32 := Scalar.select v689 c1_i32_609 c4_i32_607
  let v691 : BitVec 32 := Scalar.remsi v688 v690
  let c0_i32_611 : BitVec 32 := 0#32
  let v693 : BitVec 1 := Scalar.cmpi .slt v691 c0_i32_611
  let c0_i32_612 : BitVec 32 := 0#32
  let v694 : BitVec 1 := Scalar.cmpi .slt v690 c0_i32_612
  let v695 : BitVec 1 := Scalar.xori v693 v694
  let c0_i32_610 : BitVec 32 := 0#32
  let v692 : BitVec 1 := Scalar.cmpi .ne v691 c0_i32_610
  let v696 : BitVec 1 := Scalar.andi v695 v692
  let v697 : BitVec 32 := Scalar.addi v691 v690
  let v698 : BitVec 32 := Scalar.select v696 v697 v691
  let c8_i32_1441 : BitVec 32 := 8#32
  let v1544 : BitVec 32 := Scalar.muli v698 c8_i32_1441
  let c0_i32_1440 : BitVec 32 := 0#32
  let c0_i32_613 : BitVec 32 := 0#32
  let c1_i32_615 : BitVec 32 := 1#32
  let arg30 : BitVec 32 := Scf.iv c0_i32_613 c1_i32_615 k0_t4
  let v1543 : BitVec 32 := Scalar.addi c0_i32_1440 arg30
  let v1545 : BitVec 32 := Scalar.addi v1544 v1543
  let v1549 : Index := Scalar.indexCast v1545
  let c0_1445 : Index := 0#32
  let c0_1446 : Index := 0#32
  ![v1549.toNat, 0, 0]
def k0_off40 (k0_t4 : Fin k0_t4_loop.trips) : Fin 4 → Nat :=
  let c0_1450 : Index := 0#32
  let c0_i32_1440 : BitVec 32 := 0#32
  let c0_i32_613 : BitVec 32 := 0#32
  let c1_i32_615 : BitVec 32 := 1#32
  let arg30 : BitVec 32 := Scf.iv c0_i32_613 c1_i32_615 k0_t4
  let v1543 : BitVec 32 := Scalar.addi c0_i32_1440 arg30
  let v1557 : Index := Scalar.indexCast v1543
  let c0_1451 : Index := 0#32
  let c0_1452 : Index := 0#32
  ![0, v1557.toNat, 0, 0]
def k0_off41 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_604 : BitVec 32 := 4#32
  let v686 : BitVec 32 := Scalar.addi v2 c4_i32_604
  let c0_i32_605 : BitVec 32 := 0#32
  let v687 : BitVec 32 := Scalar.subi v686 c0_i32_605
  let c1_i32_606 : BitVec 32 := 1#32
  let v688 : BitVec 32 := Scalar.subi v687 c1_i32_606
  let c4_i32_607 : BitVec 32 := 4#32
  let c0_i32_608 : BitVec 32 := 0#32
  let v689 : BitVec 1 := Scalar.cmpi .eq c4_i32_607 c0_i32_608
  let c1_i32_609 : BitVec 32 := 1#32
  let v690 : BitVec 32 := Scalar.select v689 c1_i32_609 c4_i32_607
  let v691 : BitVec 32 := Scalar.remsi v688 v690
  let c0_i32_611 : BitVec 32 := 0#32
  let v693 : BitVec 1 := Scalar.cmpi .slt v691 c0_i32_611
  let c0_i32_612 : BitVec 32 := 0#32
  let v694 : BitVec 1 := Scalar.cmpi .slt v690 c0_i32_612
  let v695 : BitVec 1 := Scalar.xori v693 v694
  let c0_i32_610 : BitVec 32 := 0#32
  let v692 : BitVec 1 := Scalar.cmpi .ne v691 c0_i32_610
  let v696 : BitVec 1 := Scalar.andi v695 v692
  let v697 : BitVec 32 := Scalar.addi v691 v690
  let v698 : BitVec 32 := Scalar.select v696 v697 v691
  let c8_i32_1441 : BitVec 32 := 8#32
  let v1544 : BitVec 32 := Scalar.muli v698 c8_i32_1441
  let c0_i32_1440 : BitVec 32 := 0#32
  let c0_i32_613 : BitVec 32 := 0#32
  let c1_i32_615 : BitVec 32 := 1#32
  let arg30 : BitVec 32 := Scf.iv c0_i32_613 c1_i32_615 k0_t4
  let v1543 : BitVec 32 := Scalar.addi c0_i32_1440 arg30
  let v1545 : BitVec 32 := Scalar.addi v1544 v1543
  let v1560 : Index := Scalar.indexCast v1545
  let c0_1453 : Index := 0#32
  let c0_1454 : Index := 0#32
  ![v1560.toNat, 0, 0]
@[reducible] def k0_t5_loop : Scf.Loop 32 :=
  let c0_i32_663 : BitVec 32 := 0#32
  let c4_i32_664 : BitVec 32 := 4#32
  let v736 : BitVec 32 := Scalar.addi c0_i32_663 c4_i32_664
  let c1_i32_665 : BitVec 32 := 1#32
  ⟨c0_i32_663, v736, c1_i32_665⟩
def k0_off42 (k0_t5 : Fin k0_t5_loop.trips) : Fin 4 → Nat :=
  let c0_1442 : Index := 0#32
  let c4_i32_1440 : BitVec 32 := 4#32
  let c0_i32_663 : BitVec 32 := 0#32
  let c1_i32_665 : BitVec 32 := 1#32
  let arg30 : BitVec 32 := Scf.iv c0_i32_663 c1_i32_665 k0_t5
  let v1543 : BitVec 32 := Scalar.addi c4_i32_1440 arg30
  let v1546 : Index := Scalar.indexCast v1543
  let c0_1443 : Index := 0#32
  let c0_1444 : Index := 0#32
  ![0, v1546.toNat, 0, 0]
def k0_off43 (d0 : Dev nD) (k0_t5 : Fin k0_t5_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_655 : BitVec 32 := 0#32
  let v724 : BitVec 32 := Scalar.addi v2 c0_i32_655
  let c3_i32_656 : BitVec 32 := 3#32
  let v725 : BitVec 32 := Scalar.addi v724 c3_i32_656
  let c4_i32_657 : BitVec 32 := 4#32
  let c0_i32_658 : BitVec 32 := 0#32
  let v726 : BitVec 1 := Scalar.cmpi .eq c4_i32_657 c0_i32_658
  let c1_i32_659 : BitVec 32 := 1#32
  let v727 : BitVec 32 := Scalar.select v726 c1_i32_659 c4_i32_657
  let v728 : BitVec 32 := Scalar.remsi v725 v727
  let c0_i32_661 : BitVec 32 := 0#32
  let v730 : BitVec 1 := Scalar.cmpi .slt v728 c0_i32_661
  let c0_i32_662 : BitVec 32 := 0#32
  let v731 : BitVec 1 := Scalar.cmpi .slt v727 c0_i32_662
  let v732 : BitVec 1 := Scalar.xori v730 v731
  let c0_i32_660 : BitVec 32 := 0#32
  let v729 : BitVec 1 := Scalar.cmpi .ne v728 c0_i32_660
  let v733 : BitVec 1 := Scalar.andi v732 v729
  let v734 : BitVec 32 := Scalar.addi v728 v727
  let v735 : BitVec 32 := Scalar.select v733 v734 v728
  let c8_i32_1441 : BitVec 32 := 8#32
  let v1544 : BitVec 32 := Scalar.muli v735 c8_i32_1441
  let c4_i32_1440 : BitVec 32 := 4#32
  let c0_i32_663 : BitVec 32 := 0#32
  let c1_i32_665 : BitVec 32 := 1#32
  let arg30 : BitVec 32 := Scf.iv c0_i32_663 c1_i32_665 k0_t5
  let v1543 : BitVec 32 := Scalar.addi c4_i32_1440 arg30
  let v1545 : BitVec 32 := Scalar.addi v1544 v1543
  let v1549 : Index := Scalar.indexCast v1545
  let c0_1445 : Index := 0#32
  let c0_1446 : Index := 0#32
  ![v1549.toNat, 0, 0]
def k0_off44 (k0_t5 : Fin k0_t5_loop.trips) : Fin 4 → Nat :=
  let c0_1450 : Index := 0#32
  let c4_i32_1440 : BitVec 32 := 4#32
  let c0_i32_663 : BitVec 32 := 0#32
  let c1_i32_665 : BitVec 32 := 1#32
  let arg30 : BitVec 32 := Scf.iv c0_i32_663 c1_i32_665 k0_t5
  let v1543 : BitVec 32 := Scalar.addi c4_i32_1440 arg30
  let v1557 : Index := Scalar.indexCast v1543
  let c0_1451 : Index := 0#32
  let c0_1452 : Index := 0#32
  ![0, v1557.toNat, 0, 0]
def k0_off45 (d0 : Dev nD) (k0_t5 : Fin k0_t5_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_655 : BitVec 32 := 0#32
  let v724 : BitVec 32 := Scalar.addi v2 c0_i32_655
  let c3_i32_656 : BitVec 32 := 3#32
  let v725 : BitVec 32 := Scalar.addi v724 c3_i32_656
  let c4_i32_657 : BitVec 32 := 4#32
  let c0_i32_658 : BitVec 32 := 0#32
  let v726 : BitVec 1 := Scalar.cmpi .eq c4_i32_657 c0_i32_658
  let c1_i32_659 : BitVec 32 := 1#32
  let v727 : BitVec 32 := Scalar.select v726 c1_i32_659 c4_i32_657
  let v728 : BitVec 32 := Scalar.remsi v725 v727
  let c0_i32_661 : BitVec 32 := 0#32
  let v730 : BitVec 1 := Scalar.cmpi .slt v728 c0_i32_661
  let c0_i32_662 : BitVec 32 := 0#32
  let v731 : BitVec 1 := Scalar.cmpi .slt v727 c0_i32_662
  let v732 : BitVec 1 := Scalar.xori v730 v731
  let c0_i32_660 : BitVec 32 := 0#32
  let v729 : BitVec 1 := Scalar.cmpi .ne v728 c0_i32_660
  let v733 : BitVec 1 := Scalar.andi v732 v729
  let v734 : BitVec 32 := Scalar.addi v728 v727
  let v735 : BitVec 32 := Scalar.select v733 v734 v728
  let c8_i32_1441 : BitVec 32 := 8#32
  let v1544 : BitVec 32 := Scalar.muli v735 c8_i32_1441
  let c4_i32_1440 : BitVec 32 := 4#32
  let c0_i32_663 : BitVec 32 := 0#32
  let c1_i32_665 : BitVec 32 := 1#32
  let arg30 : BitVec 32 := Scf.iv c0_i32_663 c1_i32_665 k0_t5
  let v1543 : BitVec 32 := Scalar.addi c4_i32_1440 arg30
  let v1545 : BitVec 32 := Scalar.addi v1544 v1543
  let v1560 : Index := Scalar.indexCast v1545
  let c0_1453 : Index := 0#32
  let c0_1454 : Index := 0#32
  ![v1560.toNat, 0, 0]
def k0_dev7 (d0 : Dev nD) : Nat :=
  let c0_i32_672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_671 : BitVec 32 := 1#32
  let v737 : BitVec 32 := Scalar.muli v25 c1_i32_671
  let v738 : BitVec 32 := Scalar.addi c0_i32_672 v737
  v738.toNat
def k0_dev8 (d0 : Dev nD) : Nat :=
  let c0_i32_684 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_683 : BitVec 32 := 1#32
  let v747 : BitVec 32 := Scalar.muli v14 c1_i32_683
  let v748 : BitVec 32 := Scalar.addi c0_i32_684 v747
  v748.toNat
def k0_dev9 (d0 : Dev nD) : Nat :=
  let c0_i32_696 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_695 : BitVec 32 := 1#32
  let v757 : BitVec 32 := Scalar.muli v25 c1_i32_695
  let v758 : BitVec 32 := Scalar.addi c0_i32_696 v757
  v758.toNat
def k0_dev10 (d0 : Dev nD) : Nat :=
  let c0_i32_708 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_707 : BitVec 32 := 1#32
  let v767 : BitVec 32 := Scalar.muli v14 c1_i32_707
  let v768 : BitVec 32 := Scalar.addi c0_i32_708 v767
  v768.toNat
@[reducible] def k0_t6_loop : Scf.Loop 32 :=
  let c0_i32_832 : BitVec 32 := 0#32
  let c8_i32_833 : BitVec 32 := 8#32
  let v940 : BitVec 32 := Scalar.addi c0_i32_832 c8_i32_833
  let c1_i32_834 : BitVec 32 := 1#32
  ⟨c0_i32_832, v940, c1_i32_834⟩
def k0_off46 (d0 : Dev nD) (k0_t6 : Fin k0_t6_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_715 : BitVec 32 := 1#32
  let v777 : BitVec 32 := Scalar.addi v2 c1_i32_715
  let c4_i32_716 : BitVec 32 := 4#32
  let c0_i32_717 : BitVec 32 := 0#32
  let v778 : BitVec 1 := Scalar.cmpi .eq c4_i32_716 c0_i32_717
  let c1_i32_718 : BitVec 32 := 1#32
  let v779 : BitVec 32 := Scalar.select v778 c1_i32_718 c4_i32_716
  let v780 : BitVec 32 := Scalar.remsi v777 v779
  let c0_i32_720 : BitVec 32 := 0#32
  let v782 : BitVec 1 := Scalar.cmpi .slt v780 c0_i32_720
  let c0_i32_721 : BitVec 32 := 0#32
  let v783 : BitVec 1 := Scalar.cmpi .slt v779 c0_i32_721
  let v784 : BitVec 1 := Scalar.xori v782 v783
  let c0_i32_719 : BitVec 32 := 0#32
  let v781 : BitVec 1 := Scalar.cmpi .ne v780 c0_i32_719
  let v785 : BitVec 1 := Scalar.andi v784 v781
  let v786 : BitVec 32 := Scalar.addi v780 v779
  let v787 : BitVec 32 := Scalar.select v785 v786 v780
  let c8_i32_1440 : BitVec 32 := 8#32
  let v1543 : BitVec 32 := Scalar.muli v787 c8_i32_1440
  let c0_i32_832 : BitVec 32 := 0#32
  let c1_i32_834 : BitVec 32 := 1#32
  let arg30 : BitVec 32 := Scf.iv c0_i32_832 c1_i32_834 k0_t6
  let v1544 : BitVec 32 := Scalar.addi v1543 arg30
  let v1564 : Index := Scalar.indexCast v1544
  let c0_1449 : Index := 0#32
  let c0_1450 : Index := 0#32
  ![v1564.toNat, 0, 0]
def k0_off47 (d0 : Dev nD) (k0_t6 : Fin k0_t6_loop.trips) : Fin 4 → Nat :=
  let c0_1451 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_715 : BitVec 32 := 1#32
  let v777 : BitVec 32 := Scalar.addi v2 c1_i32_715
  let c4_i32_716 : BitVec 32 := 4#32
  let c0_i32_717 : BitVec 32 := 0#32
  let v778 : BitVec 1 := Scalar.cmpi .eq c4_i32_716 c0_i32_717
  let c1_i32_718 : BitVec 32 := 1#32
  let v779 : BitVec 32 := Scalar.select v778 c1_i32_718 c4_i32_716
  let v780 : BitVec 32 := Scalar.remsi v777 v779
  let c0_i32_720 : BitVec 32 := 0#32
  let v782 : BitVec 1 := Scalar.cmpi .slt v780 c0_i32_720
  let c0_i32_721 : BitVec 32 := 0#32
  let v783 : BitVec 1 := Scalar.cmpi .slt v779 c0_i32_721
  let v784 : BitVec 1 := Scalar.xori v782 v783
  let c0_i32_719 : BitVec 32 := 0#32
  let v781 : BitVec 1 := Scalar.cmpi .ne v780 c0_i32_719
  let v785 : BitVec 1 := Scalar.andi v784 v781
  let v786 : BitVec 32 := Scalar.addi v780 v779
  let v787 : BitVec 32 := Scalar.select v785 v786 v780
  let c2_i32_1441 : BitVec 32 := 2#32
  let v1545 : BitVec 32 := Scalar.muli v787 c2_i32_1441
  let c0_i32_832 : BitVec 32 := 0#32
  let c1_i32_834 : BitVec 32 := 1#32
  let arg30 : BitVec 32 := Scf.iv c0_i32_832 c1_i32_834 k0_t6
  let c0_i32_1443 : BitVec 32 := 0#32
  let v1547 : BitVec 1 := Scalar.cmpi .sgt arg30 c0_i32_1443
  let v1548 : BitVec 32 := Scalar.extui v1547
  let c0_i32_1444 : BitVec 32 := 0#32
  let v1549 : BitVec 1 := Scalar.cmpi .slt arg30 c0_i32_1444
  let v1550 : BitVec 32 := Scalar.extui v1549
  let v1551 : BitVec 32 := Scalar.subi v1548 v1550
  let c4_i32_1442 : BitVec 32 := 4#32
  let c0_i32_1445 : BitVec 32 := 0#32
  let v1552 : BitVec 1 := Scalar.cmpi .sgt c4_i32_1442 c0_i32_1445
  let v1553 : BitVec 32 := Scalar.extui v1552
  let c0_i32_1446 : BitVec 32 := 0#32
  let v1554 : BitVec 1 := Scalar.cmpi .slt c4_i32_1442 c0_i32_1446
  let v1555 : BitVec 32 := Scalar.extui v1554
  let v1556 : BitVec 32 := Scalar.subi v1553 v1555
  let v1557 : BitVec 1 := Scalar.cmpi .ne v1551 v1556
  let v1558 : BitVec 32 := Scalar.remsi arg30 c4_i32_1442
  let c0_i32_1447 : BitVec 32 := 0#32
  let v1559 : BitVec 1 := Scalar.cmpi .ne v1558 c0_i32_1447
  let v1560 : BitVec 1 := Scalar.andi v1557 v1559
  let v1546 : BitVec 32 := Scalar.divsi arg30 c4_i32_1442
  let c1_i32_1448 : BitVec 32 := 1#32
  let v1561 : BitVec 32 := Scalar.subi v1546 c1_i32_1448
  let v1562 : BitVec 32 := Scalar.select v1560 v1561 v1546
  let v1563 : BitVec 32 := Scalar.addi v1545 v1562
  let v1567 : Index := Scalar.indexCast v1563
  let c0_1452 : Index := 0#32
  let c0_1453 : Index := 0#32
  ![0, v1567.toNat, 0, 0]
def k0_off48 (d0 : Dev nD) (k0_t6 : Fin k0_t6_loop.trips) : Fin 4 → Nat :=
  let c1_1454 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_715 : BitVec 32 := 1#32
  let v777 : BitVec 32 := Scalar.addi v2 c1_i32_715
  let c4_i32_716 : BitVec 32 := 4#32
  let c0_i32_717 : BitVec 32 := 0#32
  let v778 : BitVec 1 := Scalar.cmpi .eq c4_i32_716 c0_i32_717
  let c1_i32_718 : BitVec 32 := 1#32
  let v779 : BitVec 32 := Scalar.select v778 c1_i32_718 c4_i32_716
  let v780 : BitVec 32 := Scalar.remsi v777 v779
  let c0_i32_720 : BitVec 32 := 0#32
  let v782 : BitVec 1 := Scalar.cmpi .slt v780 c0_i32_720
  let c0_i32_721 : BitVec 32 := 0#32
  let v783 : BitVec 1 := Scalar.cmpi .slt v779 c0_i32_721
  let v784 : BitVec 1 := Scalar.xori v782 v783
  let c0_i32_719 : BitVec 32 := 0#32
  let v781 : BitVec 1 := Scalar.cmpi .ne v780 c0_i32_719
  let v785 : BitVec 1 := Scalar.andi v784 v781
  let v786 : BitVec 32 := Scalar.addi v780 v779
  let v787 : BitVec 32 := Scalar.select v785 v786 v780
  let c2_i32_1441 : BitVec 32 := 2#32
  let v1545 : BitVec 32 := Scalar.muli v787 c2_i32_1441
  let c0_i32_832 : BitVec 32 := 0#32
  let c1_i32_834 : BitVec 32 := 1#32
  let arg30 : BitVec 32 := Scf.iv c0_i32_832 c1_i32_834 k0_t6
  let c0_i32_1443 : BitVec 32 := 0#32
  let v1547 : BitVec 1 := Scalar.cmpi .sgt arg30 c0_i32_1443
  let v1548 : BitVec 32 := Scalar.extui v1547
  let c0_i32_1444 : BitVec 32 := 0#32
  let v1549 : BitVec 1 := Scalar.cmpi .slt arg30 c0_i32_1444
  let v1550 : BitVec 32 := Scalar.extui v1549
  let v1551 : BitVec 32 := Scalar.subi v1548 v1550
  let c4_i32_1442 : BitVec 32 := 4#32
  let c0_i32_1445 : BitVec 32 := 0#32
  let v1552 : BitVec 1 := Scalar.cmpi .sgt c4_i32_1442 c0_i32_1445
  let v1553 : BitVec 32 := Scalar.extui v1552
  let c0_i32_1446 : BitVec 32 := 0#32
  let v1554 : BitVec 1 := Scalar.cmpi .slt c4_i32_1442 c0_i32_1446
  let v1555 : BitVec 32 := Scalar.extui v1554
  let v1556 : BitVec 32 := Scalar.subi v1553 v1555
  let v1557 : BitVec 1 := Scalar.cmpi .ne v1551 v1556
  let v1558 : BitVec 32 := Scalar.remsi arg30 c4_i32_1442
  let c0_i32_1447 : BitVec 32 := 0#32
  let v1559 : BitVec 1 := Scalar.cmpi .ne v1558 c0_i32_1447
  let v1560 : BitVec 1 := Scalar.andi v1557 v1559
  let v1546 : BitVec 32 := Scalar.divsi arg30 c4_i32_1442
  let c1_i32_1448 : BitVec 32 := 1#32
  let v1561 : BitVec 32 := Scalar.subi v1546 c1_i32_1448
  let v1562 : BitVec 32 := Scalar.select v1560 v1561 v1546
  let v1563 : BitVec 32 := Scalar.addi v1545 v1562
  let v1570 : Index := Scalar.indexCast v1563
  let c0_1455 : Index := 0#32
  let c0_1456 : Index := 0#32
  ![1, v1570.toNat, 0, 0]
def k0_off49 (d0 : Dev nD) (k0_t6 : Fin k0_t6_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_715 : BitVec 32 := 1#32
  let v777 : BitVec 32 := Scalar.addi v2 c1_i32_715
  let c4_i32_716 : BitVec 32 := 4#32
  let c0_i32_717 : BitVec 32 := 0#32
  let v778 : BitVec 1 := Scalar.cmpi .eq c4_i32_716 c0_i32_717
  let c1_i32_718 : BitVec 32 := 1#32
  let v779 : BitVec 32 := Scalar.select v778 c1_i32_718 c4_i32_716
  let v780 : BitVec 32 := Scalar.remsi v777 v779
  let c0_i32_720 : BitVec 32 := 0#32
  let v782 : BitVec 1 := Scalar.cmpi .slt v780 c0_i32_720
  let c0_i32_721 : BitVec 32 := 0#32
  let v783 : BitVec 1 := Scalar.cmpi .slt v779 c0_i32_721
  let v784 : BitVec 1 := Scalar.xori v782 v783
  let c0_i32_719 : BitVec 32 := 0#32
  let v781 : BitVec 1 := Scalar.cmpi .ne v780 c0_i32_719
  let v785 : BitVec 1 := Scalar.andi v784 v781
  let v786 : BitVec 32 := Scalar.addi v780 v779
  let v787 : BitVec 32 := Scalar.select v785 v786 v780
  let c8_i32_1440 : BitVec 32 := 8#32
  let v1543 : BitVec 32 := Scalar.muli v787 c8_i32_1440
  let c0_i32_832 : BitVec 32 := 0#32
  let c1_i32_834 : BitVec 32 := 1#32
  let arg30 : BitVec 32 := Scf.iv c0_i32_832 c1_i32_834 k0_t6
  let v1544 : BitVec 32 := Scalar.addi v1543 arg30
  let v1584 : Index := Scalar.indexCast v1544
  let c0_1464 : Index := 0#32
  let c0_1465 : Index := 0#32
  ![v1584.toNat, 0, 0]
def k0_off50 (d0 : Dev nD) (k0_t6 : Fin k0_t6_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_715 : BitVec 32 := 1#32
  let v777 : BitVec 32 := Scalar.addi v2 c1_i32_715
  let c4_i32_716 : BitVec 32 := 4#32
  let c0_i32_717 : BitVec 32 := 0#32
  let v778 : BitVec 1 := Scalar.cmpi .eq c4_i32_716 c0_i32_717
  let c1_i32_718 : BitVec 32 := 1#32
  let v779 : BitVec 32 := Scalar.select v778 c1_i32_718 c4_i32_716
  let v780 : BitVec 32 := Scalar.remsi v777 v779
  let c0_i32_720 : BitVec 32 := 0#32
  let v782 : BitVec 1 := Scalar.cmpi .slt v780 c0_i32_720
  let c0_i32_721 : BitVec 32 := 0#32
  let v783 : BitVec 1 := Scalar.cmpi .slt v779 c0_i32_721
  let v784 : BitVec 1 := Scalar.xori v782 v783
  let c0_i32_719 : BitVec 32 := 0#32
  let v781 : BitVec 1 := Scalar.cmpi .ne v780 c0_i32_719
  let v785 : BitVec 1 := Scalar.andi v784 v781
  let v786 : BitVec 32 := Scalar.addi v780 v779
  let v787 : BitVec 32 := Scalar.select v785 v786 v780
  let c8_i32_1440 : BitVec 32 := 8#32
  let v1543 : BitVec 32 := Scalar.muli v787 c8_i32_1440
  let c0_i32_832 : BitVec 32 := 0#32
  let c1_i32_834 : BitVec 32 := 1#32
  let arg30 : BitVec 32 := Scf.iv c0_i32_832 c1_i32_834 k0_t6
  let v1544 : BitVec 32 := Scalar.addi v1543 arg30
  let v1588 : Index := Scalar.indexCast v1544
  let c0_1466 : Index := 0#32
  let c0_1467 : Index := 0#32
  ![v1588.toNat, 0, 0]
@[reducible] def k0_t7_loop : Scf.Loop 32 :=
  let c0_i32_891 : BitVec 32 := 0#32
  let c4_i32_892 : BitVec 32 := 4#32
  let v982 : BitVec 32 := Scalar.addi c0_i32_891 c4_i32_892
  let c1_i32_893 : BitVec 32 := 1#32
  ⟨c0_i32_891, v982, c1_i32_893⟩
def k0_off51 (k0_t7 : Fin k0_t7_loop.trips) : Fin 4 → Nat :=
  let c1_1442 : Index := 1#32
  let c0_i32_1440 : BitVec 32 := 0#32
  let c0_i32_891 : BitVec 32 := 0#32
  let c1_i32_893 : BitVec 32 := 1#32
  let arg30 : BitVec 32 := Scf.iv c0_i32_891 c1_i32_893 k0_t7
  let v1543 : BitVec 32 := Scalar.addi c0_i32_1440 arg30
  let v1546 : Index := Scalar.indexCast v1543
  let c0_1443 : Index := 0#32
  let c0_1444 : Index := 0#32
  ![1, v1546.toNat, 0, 0]
def k0_off52 (d0 : Dev nD) (k0_t7 : Fin k0_t7_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_882 : BitVec 32 := 4#32
  let v969 : BitVec 32 := Scalar.addi v2 c4_i32_882
  let c1_i32_883 : BitVec 32 := 1#32
  let v970 : BitVec 32 := Scalar.subi v969 c1_i32_883
  let c1_i32_884 : BitVec 32 := 1#32
  let v971 : BitVec 32 := Scalar.subi v970 c1_i32_884
  let c4_i32_885 : BitVec 32 := 4#32
  let c0_i32_886 : BitVec 32 := 0#32
  let v972 : BitVec 1 := Scalar.cmpi .eq c4_i32_885 c0_i32_886
  let c1_i32_887 : BitVec 32 := 1#32
  let v973 : BitVec 32 := Scalar.select v972 c1_i32_887 c4_i32_885
  let v974 : BitVec 32 := Scalar.remsi v971 v973
  let c0_i32_889 : BitVec 32 := 0#32
  let v976 : BitVec 1 := Scalar.cmpi .slt v974 c0_i32_889
  let c0_i32_890 : BitVec 32 := 0#32
  let v977 : BitVec 1 := Scalar.cmpi .slt v973 c0_i32_890
  let v978 : BitVec 1 := Scalar.xori v976 v977
  let c0_i32_888 : BitVec 32 := 0#32
  let v975 : BitVec 1 := Scalar.cmpi .ne v974 c0_i32_888
  let v979 : BitVec 1 := Scalar.andi v978 v975
  let v980 : BitVec 32 := Scalar.addi v974 v973
  let v981 : BitVec 32 := Scalar.select v979 v980 v974
  let c8_i32_1441 : BitVec 32 := 8#32
  let v1544 : BitVec 32 := Scalar.muli v981 c8_i32_1441
  let c0_i32_1440 : BitVec 32 := 0#32
  let c0_i32_891 : BitVec 32 := 0#32
  let c1_i32_893 : BitVec 32 := 1#32
  let arg30 : BitVec 32 := Scf.iv c0_i32_891 c1_i32_893 k0_t7
  let v1543 : BitVec 32 := Scalar.addi c0_i32_1440 arg30
  let v1545 : BitVec 32 := Scalar.addi v1544 v1543
  let v1549 : Index := Scalar.indexCast v1545
  let c0_1445 : Index := 0#32
  let c0_1446 : Index := 0#32
  ![v1549.toNat, 0, 0]
def k0_off53 (k0_t7 : Fin k0_t7_loop.trips) : Fin 4 → Nat :=
  let c1_1450 : Index := 1#32
  let c0_i32_1440 : BitVec 32 := 0#32
  let c0_i32_891 : BitVec 32 := 0#32
  let c1_i32_893 : BitVec 32 := 1#32
  let arg30 : BitVec 32 := Scf.iv c0_i32_891 c1_i32_893 k0_t7
  let v1543 : BitVec 32 := Scalar.addi c0_i32_1440 arg30
  let v1557 : Index := Scalar.indexCast v1543
  let c0_1451 : Index := 0#32
  let c0_1452 : Index := 0#32
  ![1, v1557.toNat, 0, 0]
def k0_off54 (d0 : Dev nD) (k0_t7 : Fin k0_t7_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_882 : BitVec 32 := 4#32
  let v969 : BitVec 32 := Scalar.addi v2 c4_i32_882
  let c1_i32_883 : BitVec 32 := 1#32
  let v970 : BitVec 32 := Scalar.subi v969 c1_i32_883
  let c1_i32_884 : BitVec 32 := 1#32
  let v971 : BitVec 32 := Scalar.subi v970 c1_i32_884
  let c4_i32_885 : BitVec 32 := 4#32
  let c0_i32_886 : BitVec 32 := 0#32
  let v972 : BitVec 1 := Scalar.cmpi .eq c4_i32_885 c0_i32_886
  let c1_i32_887 : BitVec 32 := 1#32
  let v973 : BitVec 32 := Scalar.select v972 c1_i32_887 c4_i32_885
  let v974 : BitVec 32 := Scalar.remsi v971 v973
  let c0_i32_889 : BitVec 32 := 0#32
  let v976 : BitVec 1 := Scalar.cmpi .slt v974 c0_i32_889
  let c0_i32_890 : BitVec 32 := 0#32
  let v977 : BitVec 1 := Scalar.cmpi .slt v973 c0_i32_890
  let v978 : BitVec 1 := Scalar.xori v976 v977
  let c0_i32_888 : BitVec 32 := 0#32
  let v975 : BitVec 1 := Scalar.cmpi .ne v974 c0_i32_888
  let v979 : BitVec 1 := Scalar.andi v978 v975
  let v980 : BitVec 32 := Scalar.addi v974 v973
  let v981 : BitVec 32 := Scalar.select v979 v980 v974
  let c8_i32_1441 : BitVec 32 := 8#32
  let v1544 : BitVec 32 := Scalar.muli v981 c8_i32_1441
  let c0_i32_1440 : BitVec 32 := 0#32
  let c0_i32_891 : BitVec 32 := 0#32
  let c1_i32_893 : BitVec 32 := 1#32
  let arg30 : BitVec 32 := Scf.iv c0_i32_891 c1_i32_893 k0_t7
  let v1543 : BitVec 32 := Scalar.addi c0_i32_1440 arg30
  let v1545 : BitVec 32 := Scalar.addi v1544 v1543
  let v1560 : Index := Scalar.indexCast v1545
  let c0_1453 : Index := 0#32
  let c0_1454 : Index := 0#32
  ![v1560.toNat, 0, 0]
@[reducible] def k0_t8_loop : Scf.Loop 32 :=
  let c0_i32_949 : BitVec 32 := 0#32
  let c4_i32_950 : BitVec 32 := 4#32
  let v1023 : BitVec 32 := Scalar.addi c0_i32_949 c4_i32_950
  let c1_i32_951 : BitVec 32 := 1#32
  ⟨c0_i32_949, v1023, c1_i32_951⟩
def k0_off55 (k0_t8 : Fin k0_t8_loop.trips) : Fin 4 → Nat :=
  let c1_1442 : Index := 1#32
  let c4_i32_1440 : BitVec 32 := 4#32
  let c0_i32_949 : BitVec 32 := 0#32
  let c1_i32_951 : BitVec 32 := 1#32
  let arg30 : BitVec 32 := Scf.iv c0_i32_949 c1_i32_951 k0_t8
  let v1543 : BitVec 32 := Scalar.addi c4_i32_1440 arg30
  let v1546 : Index := Scalar.indexCast v1543
  let c0_1443 : Index := 0#32
  let c0_1444 : Index := 0#32
  ![1, v1546.toNat, 0, 0]
def k0_off56 (d0 : Dev nD) (k0_t8 : Fin k0_t8_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_941 : BitVec 32 := 1#32
  let v1011 : BitVec 32 := Scalar.addi v2 c1_i32_941
  let c3_i32_942 : BitVec 32 := 3#32
  let v1012 : BitVec 32 := Scalar.addi v1011 c3_i32_942
  let c4_i32_943 : BitVec 32 := 4#32
  let c0_i32_944 : BitVec 32 := 0#32
  let v1013 : BitVec 1 := Scalar.cmpi .eq c4_i32_943 c0_i32_944
  let c1_i32_945 : BitVec 32 := 1#32
  let v1014 : BitVec 32 := Scalar.select v1013 c1_i32_945 c4_i32_943
  let v1015 : BitVec 32 := Scalar.remsi v1012 v1014
  let c0_i32_947 : BitVec 32 := 0#32
  let v1017 : BitVec 1 := Scalar.cmpi .slt v1015 c0_i32_947
  let c0_i32_948 : BitVec 32 := 0#32
  let v1018 : BitVec 1 := Scalar.cmpi .slt v1014 c0_i32_948
  let v1019 : BitVec 1 := Scalar.xori v1017 v1018
  let c0_i32_946 : BitVec 32 := 0#32
  let v1016 : BitVec 1 := Scalar.cmpi .ne v1015 c0_i32_946
  let v1020 : BitVec 1 := Scalar.andi v1019 v1016
  let v1021 : BitVec 32 := Scalar.addi v1015 v1014
  let v1022 : BitVec 32 := Scalar.select v1020 v1021 v1015
  let c8_i32_1441 : BitVec 32 := 8#32
  let v1544 : BitVec 32 := Scalar.muli v1022 c8_i32_1441
  let c4_i32_1440 : BitVec 32 := 4#32
  let c0_i32_949 : BitVec 32 := 0#32
  let c1_i32_951 : BitVec 32 := 1#32
  let arg30 : BitVec 32 := Scf.iv c0_i32_949 c1_i32_951 k0_t8
  let v1543 : BitVec 32 := Scalar.addi c4_i32_1440 arg30
  let v1545 : BitVec 32 := Scalar.addi v1544 v1543
  let v1549 : Index := Scalar.indexCast v1545
  let c0_1445 : Index := 0#32
  let c0_1446 : Index := 0#32
  ![v1549.toNat, 0, 0]
def k0_off57 (k0_t8 : Fin k0_t8_loop.trips) : Fin 4 → Nat :=
  let c1_1450 : Index := 1#32
  let c4_i32_1440 : BitVec 32 := 4#32
  let c0_i32_949 : BitVec 32 := 0#32
  let c1_i32_951 : BitVec 32 := 1#32
  let arg30 : BitVec 32 := Scf.iv c0_i32_949 c1_i32_951 k0_t8
  let v1543 : BitVec 32 := Scalar.addi c4_i32_1440 arg30
  let v1557 : Index := Scalar.indexCast v1543
  let c0_1451 : Index := 0#32
  let c0_1452 : Index := 0#32
  ![1, v1557.toNat, 0, 0]
def k0_off58 (d0 : Dev nD) (k0_t8 : Fin k0_t8_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_941 : BitVec 32 := 1#32
  let v1011 : BitVec 32 := Scalar.addi v2 c1_i32_941
  let c3_i32_942 : BitVec 32 := 3#32
  let v1012 : BitVec 32 := Scalar.addi v1011 c3_i32_942
  let c4_i32_943 : BitVec 32 := 4#32
  let c0_i32_944 : BitVec 32 := 0#32
  let v1013 : BitVec 1 := Scalar.cmpi .eq c4_i32_943 c0_i32_944
  let c1_i32_945 : BitVec 32 := 1#32
  let v1014 : BitVec 32 := Scalar.select v1013 c1_i32_945 c4_i32_943
  let v1015 : BitVec 32 := Scalar.remsi v1012 v1014
  let c0_i32_947 : BitVec 32 := 0#32
  let v1017 : BitVec 1 := Scalar.cmpi .slt v1015 c0_i32_947
  let c0_i32_948 : BitVec 32 := 0#32
  let v1018 : BitVec 1 := Scalar.cmpi .slt v1014 c0_i32_948
  let v1019 : BitVec 1 := Scalar.xori v1017 v1018
  let c0_i32_946 : BitVec 32 := 0#32
  let v1016 : BitVec 1 := Scalar.cmpi .ne v1015 c0_i32_946
  let v1020 : BitVec 1 := Scalar.andi v1019 v1016
  let v1021 : BitVec 32 := Scalar.addi v1015 v1014
  let v1022 : BitVec 32 := Scalar.select v1020 v1021 v1015
  let c8_i32_1441 : BitVec 32 := 8#32
  let v1544 : BitVec 32 := Scalar.muli v1022 c8_i32_1441
  let c4_i32_1440 : BitVec 32 := 4#32
  let c0_i32_949 : BitVec 32 := 0#32
  let c1_i32_951 : BitVec 32 := 1#32
  let arg30 : BitVec 32 := Scf.iv c0_i32_949 c1_i32_951 k0_t8
  let v1543 : BitVec 32 := Scalar.addi c4_i32_1440 arg30
  let v1545 : BitVec 32 := Scalar.addi v1544 v1543
  let v1560 : Index := Scalar.indexCast v1545
  let c0_1453 : Index := 0#32
  let c0_1454 : Index := 0#32
  ![v1560.toNat, 0, 0]
def k0_dev11 (d0 : Dev nD) : Nat :=
  let c0_i32_958 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_957 : BitVec 32 := 1#32
  let v1024 : BitVec 32 := Scalar.muli v25 c1_i32_957
  let v1025 : BitVec 32 := Scalar.addi c0_i32_958 v1024
  v1025.toNat
def k0_dev12 (d0 : Dev nD) : Nat :=
  let c0_i32_970 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_969 : BitVec 32 := 1#32
  let v1034 : BitVec 32 := Scalar.muli v14 c1_i32_969
  let v1035 : BitVec 32 := Scalar.addi c0_i32_970 v1034
  v1035.toNat
def k0_dev13 (d0 : Dev nD) : Nat :=
  let c0_i32_982 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_981 : BitVec 32 := 1#32
  let v1044 : BitVec 32 := Scalar.muli v25 c1_i32_981
  let v1045 : BitVec 32 := Scalar.addi c0_i32_982 v1044
  v1045.toNat
def k0_dev14 (d0 : Dev nD) : Nat :=
  let c0_i32_994 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_993 : BitVec 32 := 1#32
  let v1054 : BitVec 32 := Scalar.muli v14 c1_i32_993
  let v1055 : BitVec 32 := Scalar.addi c0_i32_994 v1054
  v1055.toNat
@[reducible] def k0_t9_loop : Scf.Loop 32 :=
  let c0_i32_1056 : BitVec 32 := 0#32
  let c4_i32_1057 : BitVec 32 := 4#32
  let v1105 : BitVec 32 := Scalar.addi c0_i32_1056 c4_i32_1057
  let c1_i32_1058 : BitVec 32 := 1#32
  ⟨c0_i32_1056, v1105, c1_i32_1058⟩
def k0_off59 (k0_t9 : Fin k0_t9_loop.trips) : Fin 4 → Nat :=
  let c2_1442 : Index := 2#32
  let c0_i32_1440 : BitVec 32 := 0#32
  let c0_i32_1056 : BitVec 32 := 0#32
  let c1_i32_1058 : BitVec 32 := 1#32
  let arg30 : BitVec 32 := Scf.iv c0_i32_1056 c1_i32_1058 k0_t9
  let v1543 : BitVec 32 := Scalar.addi c0_i32_1440 arg30
  let v1546 : Index := Scalar.indexCast v1543
  let c0_1443 : Index := 0#32
  let c0_1444 : Index := 0#32
  ![2, v1546.toNat, 0, 0]
def k0_off60 (d0 : Dev nD) (k0_t9 : Fin k0_t9_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1047 : BitVec 32 := 4#32
  let v1092 : BitVec 32 := Scalar.addi v2 c4_i32_1047
  let c2_i32_1048 : BitVec 32 := 2#32
  let v1093 : BitVec 32 := Scalar.subi v1092 c2_i32_1048
  let c1_i32_1049 : BitVec 32 := 1#32
  let v1094 : BitVec 32 := Scalar.subi v1093 c1_i32_1049
  let c4_i32_1050 : BitVec 32 := 4#32
  let c0_i32_1051 : BitVec 32 := 0#32
  let v1095 : BitVec 1 := Scalar.cmpi .eq c4_i32_1050 c0_i32_1051
  let c1_i32_1052 : BitVec 32 := 1#32
  let v1096 : BitVec 32 := Scalar.select v1095 c1_i32_1052 c4_i32_1050
  let v1097 : BitVec 32 := Scalar.remsi v1094 v1096
  let c0_i32_1054 : BitVec 32 := 0#32
  let v1099 : BitVec 1 := Scalar.cmpi .slt v1097 c0_i32_1054
  let c0_i32_1055 : BitVec 32 := 0#32
  let v1100 : BitVec 1 := Scalar.cmpi .slt v1096 c0_i32_1055
  let v1101 : BitVec 1 := Scalar.xori v1099 v1100
  let c0_i32_1053 : BitVec 32 := 0#32
  let v1098 : BitVec 1 := Scalar.cmpi .ne v1097 c0_i32_1053
  let v1102 : BitVec 1 := Scalar.andi v1101 v1098
  let v1103 : BitVec 32 := Scalar.addi v1097 v1096
  let v1104 : BitVec 32 := Scalar.select v1102 v1103 v1097
  let c8_i32_1441 : BitVec 32 := 8#32
  let v1544 : BitVec 32 := Scalar.muli v1104 c8_i32_1441
  let c0_i32_1440 : BitVec 32 := 0#32
  let c0_i32_1056 : BitVec 32 := 0#32
  let c1_i32_1058 : BitVec 32 := 1#32
  let arg30 : BitVec 32 := Scf.iv c0_i32_1056 c1_i32_1058 k0_t9
  let v1543 : BitVec 32 := Scalar.addi c0_i32_1440 arg30
  let v1545 : BitVec 32 := Scalar.addi v1544 v1543
  let v1549 : Index := Scalar.indexCast v1545
  let c0_1445 : Index := 0#32
  let c0_1446 : Index := 0#32
  ![v1549.toNat, 0, 0]
def k0_off61 (k0_t9 : Fin k0_t9_loop.trips) : Fin 4 → Nat :=
  let c2_1450 : Index := 2#32
  let c0_i32_1440 : BitVec 32 := 0#32
  let c0_i32_1056 : BitVec 32 := 0#32
  let c1_i32_1058 : BitVec 32 := 1#32
  let arg30 : BitVec 32 := Scf.iv c0_i32_1056 c1_i32_1058 k0_t9
  let v1543 : BitVec 32 := Scalar.addi c0_i32_1440 arg30
  let v1557 : Index := Scalar.indexCast v1543
  let c0_1451 : Index := 0#32
  let c0_1452 : Index := 0#32
  ![2, v1557.toNat, 0, 0]
def k0_off62 (d0 : Dev nD) (k0_t9 : Fin k0_t9_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1047 : BitVec 32 := 4#32
  let v1092 : BitVec 32 := Scalar.addi v2 c4_i32_1047
  let c2_i32_1048 : BitVec 32 := 2#32
  let v1093 : BitVec 32 := Scalar.subi v1092 c2_i32_1048
  let c1_i32_1049 : BitVec 32 := 1#32
  let v1094 : BitVec 32 := Scalar.subi v1093 c1_i32_1049
  let c4_i32_1050 : BitVec 32 := 4#32
  let c0_i32_1051 : BitVec 32 := 0#32
  let v1095 : BitVec 1 := Scalar.cmpi .eq c4_i32_1050 c0_i32_1051
  let c1_i32_1052 : BitVec 32 := 1#32
  let v1096 : BitVec 32 := Scalar.select v1095 c1_i32_1052 c4_i32_1050
  let v1097 : BitVec 32 := Scalar.remsi v1094 v1096
  let c0_i32_1054 : BitVec 32 := 0#32
  let v1099 : BitVec 1 := Scalar.cmpi .slt v1097 c0_i32_1054
  let c0_i32_1055 : BitVec 32 := 0#32
  let v1100 : BitVec 1 := Scalar.cmpi .slt v1096 c0_i32_1055
  let v1101 : BitVec 1 := Scalar.xori v1099 v1100
  let c0_i32_1053 : BitVec 32 := 0#32
  let v1098 : BitVec 1 := Scalar.cmpi .ne v1097 c0_i32_1053
  let v1102 : BitVec 1 := Scalar.andi v1101 v1098
  let v1103 : BitVec 32 := Scalar.addi v1097 v1096
  let v1104 : BitVec 32 := Scalar.select v1102 v1103 v1097
  let c8_i32_1441 : BitVec 32 := 8#32
  let v1544 : BitVec 32 := Scalar.muli v1104 c8_i32_1441
  let c0_i32_1440 : BitVec 32 := 0#32
  let c0_i32_1056 : BitVec 32 := 0#32
  let c1_i32_1058 : BitVec 32 := 1#32
  let arg30 : BitVec 32 := Scf.iv c0_i32_1056 c1_i32_1058 k0_t9
  let v1543 : BitVec 32 := Scalar.addi c0_i32_1440 arg30
  let v1545 : BitVec 32 := Scalar.addi v1544 v1543
  let v1560 : Index := Scalar.indexCast v1545
  let c0_1453 : Index := 0#32
  let c0_1454 : Index := 0#32
  ![v1560.toNat, 0, 0]
@[reducible] def k0_t10_loop : Scf.Loop 32 :=
  let c0_i32_1114 : BitVec 32 := 0#32
  let c4_i32_1115 : BitVec 32 := 4#32
  let v1146 : BitVec 32 := Scalar.addi c0_i32_1114 c4_i32_1115
  let c1_i32_1116 : BitVec 32 := 1#32
  ⟨c0_i32_1114, v1146, c1_i32_1116⟩
def k0_off63 (k0_t10 : Fin k0_t10_loop.trips) : Fin 4 → Nat :=
  let c2_1442 : Index := 2#32
  let c4_i32_1440 : BitVec 32 := 4#32
  let c0_i32_1114 : BitVec 32 := 0#32
  let c1_i32_1116 : BitVec 32 := 1#32
  let arg30 : BitVec 32 := Scf.iv c0_i32_1114 c1_i32_1116 k0_t10
  let v1543 : BitVec 32 := Scalar.addi c4_i32_1440 arg30
  let v1546 : Index := Scalar.indexCast v1543
  let c0_1443 : Index := 0#32
  let c0_1444 : Index := 0#32
  ![2, v1546.toNat, 0, 0]
def k0_off64 (d0 : Dev nD) (k0_t10 : Fin k0_t10_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1106 : BitVec 32 := 2#32
  let v1134 : BitVec 32 := Scalar.addi v2 c2_i32_1106
  let c3_i32_1107 : BitVec 32 := 3#32
  let v1135 : BitVec 32 := Scalar.addi v1134 c3_i32_1107
  let c4_i32_1108 : BitVec 32 := 4#32
  let c0_i32_1109 : BitVec 32 := 0#32
  let v1136 : BitVec 1 := Scalar.cmpi .eq c4_i32_1108 c0_i32_1109
  let c1_i32_1110 : BitVec 32 := 1#32
  let v1137 : BitVec 32 := Scalar.select v1136 c1_i32_1110 c4_i32_1108
  let v1138 : BitVec 32 := Scalar.remsi v1135 v1137
  let c0_i32_1112 : BitVec 32 := 0#32
  let v1140 : BitVec 1 := Scalar.cmpi .slt v1138 c0_i32_1112
  let c0_i32_1113 : BitVec 32 := 0#32
  let v1141 : BitVec 1 := Scalar.cmpi .slt v1137 c0_i32_1113
  let v1142 : BitVec 1 := Scalar.xori v1140 v1141
  let c0_i32_1111 : BitVec 32 := 0#32
  let v1139 : BitVec 1 := Scalar.cmpi .ne v1138 c0_i32_1111
  let v1143 : BitVec 1 := Scalar.andi v1142 v1139
  let v1144 : BitVec 32 := Scalar.addi v1138 v1137
  let v1145 : BitVec 32 := Scalar.select v1143 v1144 v1138
  let c8_i32_1441 : BitVec 32 := 8#32
  let v1544 : BitVec 32 := Scalar.muli v1145 c8_i32_1441
  let c4_i32_1440 : BitVec 32 := 4#32
  let c0_i32_1114 : BitVec 32 := 0#32
  let c1_i32_1116 : BitVec 32 := 1#32
  let arg30 : BitVec 32 := Scf.iv c0_i32_1114 c1_i32_1116 k0_t10
  let v1543 : BitVec 32 := Scalar.addi c4_i32_1440 arg30
  let v1545 : BitVec 32 := Scalar.addi v1544 v1543
  let v1549 : Index := Scalar.indexCast v1545
  let c0_1445 : Index := 0#32
  let c0_1446 : Index := 0#32
  ![v1549.toNat, 0, 0]
def k0_off65 (k0_t10 : Fin k0_t10_loop.trips) : Fin 4 → Nat :=
  let c2_1450 : Index := 2#32
  let c4_i32_1440 : BitVec 32 := 4#32
  let c0_i32_1114 : BitVec 32 := 0#32
  let c1_i32_1116 : BitVec 32 := 1#32
  let arg30 : BitVec 32 := Scf.iv c0_i32_1114 c1_i32_1116 k0_t10
  let v1543 : BitVec 32 := Scalar.addi c4_i32_1440 arg30
  let v1557 : Index := Scalar.indexCast v1543
  let c0_1451 : Index := 0#32
  let c0_1452 : Index := 0#32
  ![2, v1557.toNat, 0, 0]
def k0_off66 (d0 : Dev nD) (k0_t10 : Fin k0_t10_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1106 : BitVec 32 := 2#32
  let v1134 : BitVec 32 := Scalar.addi v2 c2_i32_1106
  let c3_i32_1107 : BitVec 32 := 3#32
  let v1135 : BitVec 32 := Scalar.addi v1134 c3_i32_1107
  let c4_i32_1108 : BitVec 32 := 4#32
  let c0_i32_1109 : BitVec 32 := 0#32
  let v1136 : BitVec 1 := Scalar.cmpi .eq c4_i32_1108 c0_i32_1109
  let c1_i32_1110 : BitVec 32 := 1#32
  let v1137 : BitVec 32 := Scalar.select v1136 c1_i32_1110 c4_i32_1108
  let v1138 : BitVec 32 := Scalar.remsi v1135 v1137
  let c0_i32_1112 : BitVec 32 := 0#32
  let v1140 : BitVec 1 := Scalar.cmpi .slt v1138 c0_i32_1112
  let c0_i32_1113 : BitVec 32 := 0#32
  let v1141 : BitVec 1 := Scalar.cmpi .slt v1137 c0_i32_1113
  let v1142 : BitVec 1 := Scalar.xori v1140 v1141
  let c0_i32_1111 : BitVec 32 := 0#32
  let v1139 : BitVec 1 := Scalar.cmpi .ne v1138 c0_i32_1111
  let v1143 : BitVec 1 := Scalar.andi v1142 v1139
  let v1144 : BitVec 32 := Scalar.addi v1138 v1137
  let v1145 : BitVec 32 := Scalar.select v1143 v1144 v1138
  let c8_i32_1441 : BitVec 32 := 8#32
  let v1544 : BitVec 32 := Scalar.muli v1145 c8_i32_1441
  let c4_i32_1440 : BitVec 32 := 4#32
  let c0_i32_1114 : BitVec 32 := 0#32
  let c1_i32_1116 : BitVec 32 := 1#32
  let arg30 : BitVec 32 := Scf.iv c0_i32_1114 c1_i32_1116 k0_t10
  let v1543 : BitVec 32 := Scalar.addi c4_i32_1440 arg30
  let v1545 : BitVec 32 := Scalar.addi v1544 v1543
  let v1560 : Index := Scalar.indexCast v1545
  let c0_1453 : Index := 0#32
  let c0_1454 : Index := 0#32
  ![v1560.toNat, 0, 0]
def k0_off67 (d0 : Dev nD) (c0_i32_1235 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1118 : BitVec 32 := 1#32
  let v1147 : BitVec 32 := Scalar.addi v2 c1_i32_1118
  let c4_i32_1119 : BitVec 32 := 4#32
  let c0_i32_1120 : BitVec 32 := 0#32
  let v1148 : BitVec 1 := Scalar.cmpi .eq c4_i32_1119 c0_i32_1120
  let c1_i32_1121 : BitVec 32 := 1#32
  let v1149 : BitVec 32 := Scalar.select v1148 c1_i32_1121 c4_i32_1119
  let v1150 : BitVec 32 := Scalar.remsi v1147 v1149
  let c0_i32_1123 : BitVec 32 := 0#32
  let v1152 : BitVec 1 := Scalar.cmpi .slt v1150 c0_i32_1123
  let c0_i32_1124 : BitVec 32 := 0#32
  let v1153 : BitVec 1 := Scalar.cmpi .slt v1149 c0_i32_1124
  let v1154 : BitVec 1 := Scalar.xori v1152 v1153
  let c0_i32_1122 : BitVec 32 := 0#32
  let v1151 : BitVec 1 := Scalar.cmpi .ne v1150 c0_i32_1122
  let v1155 : BitVec 1 := Scalar.andi v1154 v1151
  let v1156 : BitVec 32 := Scalar.addi v1150 v1149
  let v1157 : BitVec 32 := Scalar.select v1155 v1156 v1150
  let c4_i32_1234 : BitVec 32 := 4#32
  let v1306 : BitVec 32 := Scalar.addi v1157 c4_i32_1234
  let v1307 : BitVec 32 := Scalar.subi v1306 c0_i32_1235
  let c4_i32_1236 : BitVec 32 := 4#32
  let c0_i32_1237 : BitVec 32 := 0#32
  let v1308 : BitVec 1 := Scalar.cmpi .eq c4_i32_1236 c0_i32_1237
  let c1_i32_1238 : BitVec 32 := 1#32
  let v1309 : BitVec 32 := Scalar.select v1308 c1_i32_1238 c4_i32_1236
  let v1310 : BitVec 32 := Scalar.remsi v1307 v1309
  let c0_i32_1240 : BitVec 32 := 0#32
  let v1312 : BitVec 1 := Scalar.cmpi .slt v1310 c0_i32_1240
  let c0_i32_1241 : BitVec 32 := 0#32
  let v1313 : BitVec 1 := Scalar.cmpi .slt v1309 c0_i32_1241
  let v1314 : BitVec 1 := Scalar.xori v1312 v1313
  let c0_i32_1239 : BitVec 32 := 0#32
  let v1311 : BitVec 1 := Scalar.cmpi .ne v1310 c0_i32_1239
  let v1315 : BitVec 1 := Scalar.andi v1314 v1311
  let v1316 : BitVec 32 := Scalar.addi v1310 v1309
  let v1317 : BitVec 32 := Scalar.select v1315 v1316 v1310
  let c0_i32_1253 : BitVec 32 := 0#32
  let c0_i32_1254 : BitVec 32 := 0#32
  ![v1317.toNat, 0, 0]
def k0_dev15 (d0 : Dev nD) : Nat :=
  let c0_i32_1252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1251 : BitVec 32 := 1#32
  let v1329 : BitVec 32 := Scalar.muli v25 c1_i32_1251
  let v1330 : BitVec 32 := Scalar.addi c0_i32_1252 v1329
  v1330.toNat
def k0_off68 (d0 : Dev nD) (c0_i32_1242 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1118 : BitVec 32 := 1#32
  let v1147 : BitVec 32 := Scalar.addi v2 c1_i32_1118
  let c4_i32_1119 : BitVec 32 := 4#32
  let c0_i32_1120 : BitVec 32 := 0#32
  let v1148 : BitVec 1 := Scalar.cmpi .eq c4_i32_1119 c0_i32_1120
  let c1_i32_1121 : BitVec 32 := 1#32
  let v1149 : BitVec 32 := Scalar.select v1148 c1_i32_1121 c4_i32_1119
  let v1150 : BitVec 32 := Scalar.remsi v1147 v1149
  let c0_i32_1123 : BitVec 32 := 0#32
  let v1152 : BitVec 1 := Scalar.cmpi .slt v1150 c0_i32_1123
  let c0_i32_1124 : BitVec 32 := 0#32
  let v1153 : BitVec 1 := Scalar.cmpi .slt v1149 c0_i32_1124
  let v1154 : BitVec 1 := Scalar.xori v1152 v1153
  let c0_i32_1122 : BitVec 32 := 0#32
  let v1151 : BitVec 1 := Scalar.cmpi .ne v1150 c0_i32_1122
  let v1155 : BitVec 1 := Scalar.andi v1154 v1151
  let v1156 : BitVec 32 := Scalar.addi v1150 v1149
  let v1157 : BitVec 32 := Scalar.select v1155 v1156 v1150
  let v1318 : BitVec 32 := Scalar.addi v1157 c0_i32_1242
  let c4_i32_1243 : BitVec 32 := 4#32
  let c0_i32_1244 : BitVec 32 := 0#32
  let v1319 : BitVec 1 := Scalar.cmpi .eq c4_i32_1243 c0_i32_1244
  let c1_i32_1245 : BitVec 32 := 1#32
  let v1320 : BitVec 32 := Scalar.select v1319 c1_i32_1245 c4_i32_1243
  let v1321 : BitVec 32 := Scalar.remsi v1318 v1320
  let c0_i32_1247 : BitVec 32 := 0#32
  let v1323 : BitVec 1 := Scalar.cmpi .slt v1321 c0_i32_1247
  let c0_i32_1248 : BitVec 32 := 0#32
  let v1324 : BitVec 1 := Scalar.cmpi .slt v1320 c0_i32_1248
  let v1325 : BitVec 1 := Scalar.xori v1323 v1324
  let c0_i32_1246 : BitVec 32 := 0#32
  let v1322 : BitVec 1 := Scalar.cmpi .ne v1321 c0_i32_1246
  let v1326 : BitVec 1 := Scalar.andi v1325 v1322
  let v1327 : BitVec 32 := Scalar.addi v1321 v1320
  let v1328 : BitVec 32 := Scalar.select v1326 v1327 v1321
  let c128_i32 : BitVec 32 := 128#32
  let c0_i32_1261 : BitVec 32 := 0#32
  ![v1328.toNat, 128, 0]
def k0_dev16 (d0 : Dev nD) : Nat :=
  let c0_i32_1260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1259 : BitVec 32 := 1#32
  let v1339 : BitVec 32 := Scalar.muli v14 c1_i32_1259
  let v1340 : BitVec 32 := Scalar.addi c0_i32_1260 v1339
  v1340.toNat
def k0_dev17 (d0 : Dev nD) : Nat :=
  let c0_i32_1312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1311 : BitVec 32 := 1#32
  let v1400 : BitVec 32 := Scalar.muli v25 c1_i32_1311
  let v1401 : BitVec 32 := Scalar.addi c0_i32_1312 v1400
  v1401.toNat
def k0_dev18 (d0 : Dev nD) : Nat :=
  let c0_i32_1320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1319 : BitVec 32 := 1#32
  let v1410 : BitVec 32 := Scalar.muli v14 c1_i32_1319
  let v1411 : BitVec 32 := Scalar.addi c0_i32_1320 v1410
  v1411.toNat
def k0_dev19 (d0 : Dev nD) : Nat :=
  let c0_i32_1373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1372 : BitVec 32 := 1#32
  let v1471 : BitVec 32 := Scalar.muli v25 c1_i32_1372
  let v1472 : BitVec 32 := Scalar.addi c0_i32_1373 v1471
  v1472.toNat
def k0_dev20 (d0 : Dev nD) : Nat :=
  let c0_i32_1381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1380 : BitVec 32 := 1#32
  let v1481 : BitVec 32 := Scalar.muli v14 c1_i32_1380
  let v1482 : BitVec 32 := Scalar.addi c0_i32_1381 v1481
  v1482.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S4_S1_0 : ∀ a, (![0] : Fin 1 → Nat) a + S1.size a ≤ S4.size a
  squeezes_S1_S_ : S1.Squeezes S_
  inb_S2x8x1024x128_S1x1x1024x128_0_0_0_0 : ∀ a, (![0, 0, 0, 0] : Fin 4 → Nat) a + S1x1x1024x128.size a ≤ S2x8x1024x128.size a
  squeezes_S1x1x1024x128_S1024x128 : S1x1x1024x128.Squeezes S1024x128
  inb_S4x1024x2x128_S1x1024x1x128_0_0_0_0 : ∀ a, (![0, 0, 0, 0] : Fin 4 → Nat) a + S1x1024x1x128.size a ≤ S4x1024x2x128.size a
  squeezes_S1x1024x1x128_S1024x128 : S1x1024x1x128.Squeezes S1024x128
  inb_S2x8x1024x128_S1x1x1024x128_1_0_0_0 : ∀ a, (![1, 0, 0, 0] : Fin 4 → Nat) a + S1x1x1024x128.size a ≤ S2x8x1024x128.size a
  inb_S2x8x1024x128_S1x1x1024x128_0_1_0_0 : ∀ a, (![0, 1, 0, 0] : Fin 4 → Nat) a + S1x1x1024x128.size a ≤ S2x8x1024x128.size a
  inb_S4x1024x2x128_S1x1024x1x128_0_0_1_0 : ∀ a, (![0, 0, 1, 0] : Fin 4 → Nat) a + S1x1024x1x128.size a ≤ S4x1024x2x128.size a
  inb_S2x8x1024x128_S1x1x1024x128_1_1_0_0 : ∀ a, (![1, 1, 0, 0] : Fin 4 → Nat) a + S1x1x1024x128.size a ≤ S2x8x1024x128.size a
  inb_S4_S1_1 : ∀ a, (![1] : Fin 1 → Nat) a + S1.size a ≤ S4.size a
  inb_S2x8x1024x128_S1x1x1024x128_0_2_0_0 : ∀ a, (![0, 2, 0, 0] : Fin 4 → Nat) a + S1x1x1024x128.size a ≤ S2x8x1024x128.size a
  inb_S4x1024x2x128_S1x1024x1x128_1_0_0_0 : ∀ a, (![1, 0, 0, 0] : Fin 4 → Nat) a + S1x1024x1x128.size a ≤ S4x1024x2x128.size a
  inb_S2x8x1024x128_S1x1x1024x128_1_2_0_0 : ∀ a, (![1, 2, 0, 0] : Fin 4 → Nat) a + S1x1x1024x128.size a ≤ S2x8x1024x128.size a
  inb_S2x8x1024x128_S1x1x1024x128_0_3_0_0 : ∀ a, (![0, 3, 0, 0] : Fin 4 → Nat) a + S1x1x1024x128.size a ≤ S2x8x1024x128.size a
  inb_S4x1024x2x128_S1x1024x1x128_1_0_1_0 : ∀ a, (![1, 0, 1, 0] : Fin 4 → Nat) a + S1x1024x1x128.size a ≤ S4x1024x2x128.size a
  inb_S2x8x1024x128_S1x1x1024x128_1_3_0_0 : ∀ a, (![1, 3, 0, 0] : Fin 4 → Nat) a + S1x1x1024x128.size a ≤ S2x8x1024x128.size a
  inb_S4_S1_2 : ∀ a, (![2] : Fin 1 → Nat) a + S1.size a ≤ S4.size a
  inb_S2x8x1024x128_S1x1x1024x128_0_4_0_0 : ∀ a, (![0, 4, 0, 0] : Fin 4 → Nat) a + S1x1x1024x128.size a ≤ S2x8x1024x128.size a
  inb_S4x1024x2x128_S1x1024x1x128_2_0_0_0 : ∀ a, (![2, 0, 0, 0] : Fin 4 → Nat) a + S1x1024x1x128.size a ≤ S4x1024x2x128.size a
  inb_S2x8x1024x128_S1x1x1024x128_1_4_0_0 : ∀ a, (![1, 4, 0, 0] : Fin 4 → Nat) a + S1x1x1024x128.size a ≤ S2x8x1024x128.size a
  inb_S2x8x1024x128_S1x1x1024x128_0_5_0_0 : ∀ a, (![0, 5, 0, 0] : Fin 4 → Nat) a + S1x1x1024x128.size a ≤ S2x8x1024x128.size a
  inb_S4x1024x2x128_S1x1024x1x128_2_0_1_0 : ∀ a, (![2, 0, 1, 0] : Fin 4 → Nat) a + S1x1024x1x128.size a ≤ S4x1024x2x128.size a
  inb_S2x8x1024x128_S1x1x1024x128_1_5_0_0 : ∀ a, (![1, 5, 0, 0] : Fin 4 → Nat) a + S1x1x1024x128.size a ≤ S2x8x1024x128.size a
  inb_S4_S1_3 : ∀ a, (![3] : Fin 1 → Nat) a + S1.size a ≤ S4.size a
  inb_S2x8x1024x128_S1x1x1024x128_0_6_0_0 : ∀ a, (![0, 6, 0, 0] : Fin 4 → Nat) a + S1x1x1024x128.size a ≤ S2x8x1024x128.size a
  inb_S4x1024x2x128_S1x1024x1x128_3_0_0_0 : ∀ a, (![3, 0, 0, 0] : Fin 4 → Nat) a + S1x1024x1x128.size a ≤ S4x1024x2x128.size a
  inb_S2x8x1024x128_S1x1x1024x128_1_6_0_0 : ∀ a, (![1, 6, 0, 0] : Fin 4 → Nat) a + S1x1x1024x128.size a ≤ S2x8x1024x128.size a
  inb_S2x8x1024x128_S1x1x1024x128_0_7_0_0 : ∀ a, (![0, 7, 0, 0] : Fin 4 → Nat) a + S1x1x1024x128.size a ≤ S2x8x1024x128.size a
  inb_S4x1024x2x128_S1x1024x1x128_3_0_1_0 : ∀ a, (![3, 0, 1, 0] : Fin 4 → Nat) a + S1x1024x1x128.size a ≤ S4x1024x2x128.size a
  inb_S2x8x1024x128_S1x1x1024x128_1_7_0_0 : ∀ a, (![1, 7, 0, 0] : Fin 4 → Nat) a + S1x1x1024x128.size a ≤ S2x8x1024x128.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  h_S1x1x1024x128 : 0 < S1x1x1024x128.numel
  shapeCasts_S1x1x1024x128_S1024x128 : S1x1x1024x128.ShapeCasts S1024x128
  shapeCasts_S1024x128_S1x1x1024x128 : S1024x128.ShapeCasts S1x1x1024x128
  h_S1x256x1024 : 0 < S1x256x1024.numel
  shapeCasts_S1x256x1024_S256x1024 : S1x256x1024.ShapeCasts S256x1024
  slices_S256x1024_o0_0_S256x128 : S256x1024.Slices ![0, 0] S256x128
  h_S1x256x128 : 0 < S1x256x128.numel
  shapeCasts_S1x256x128_S256x128 : S1x256x128.ShapeCasts S256x128
  shapeCasts_S256x128_S1x256x128 : S256x128.ShapeCasts S1x256x128
  slices_S256x1024_o0_128_S256x128 : S256x1024.Slices ![0, 128] S256x128
  slices_S256x1024_o0_256_S256x128 : S256x1024.Slices ![0, 256] S256x128
  slices_S256x1024_o0_384_S256x128 : S256x1024.Slices ![0, 384] S256x128
  slices_S256x1024_o0_512_S256x128 : S256x1024.Slices ![0, 512] S256x128
  slices_S256x1024_o0_640_S256x128 : S256x1024.Slices ![0, 640] S256x128
  slices_S256x1024_o0_768_S256x128 : S256x1024.Slices ![0, 768] S256x128
  slices_S256x1024_o0_896_S256x128 : S256x1024.Slices ![0, 896] S256x128
  reduces_S1024x256_S256 : S1024x256.Reduces [0] S256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  h_S1x128x256 : 0 < S1x128x256.numel
  shapeCasts_S1x128x256_S128x256 : S1x128x256.ShapeCasts S128x256
  shapeCasts_S128x256_S1x128x256 : S128x256.ShapeCasts S1x128x256
  h_S1x1x256 : 0 < S1x1x256.numel
  shapeCasts_S1x1x256_S1x256 : S1x1x256.ShapeCasts S1x256
  shapeCasts_S1x256_S1x1x256 : S1x256.ShapeCasts S1x1x256
  hamt_2 : (2#32 : BitVec 32).msb = false
  inb_S3_S1_0 : ∀ a, (![0] : Fin 1 → Nat) a + S1.size a ≤ S3.size a
  inb_S3x8x128x256_S1x4x128x256_0_0_0_0 : ∀ a, (![0, 0, 0, 0] : Fin 4 → Nat) a + S1x4x128x256.size a ≤ S3x8x128x256.size a
  squeezes_S1x4x128x256_S4x128x256 : S1x4x128x256.Squeezes S4x128x256
  wordsbf16_S3x8x128x256_S1x4x128x256_0_0_0_0 : (Rect.unit (s := S3x8x128x256) ![0, 0, 0, 0] S1x4x128x256.size inb_S3x8x128x256_S1x4x128x256_0_0_0_0).WholeWords (EltTy.packing .bf16)
  inb_S3x8x1x256_S1x4x1x256_0_0_0_0 : ∀ a, (![0, 0, 0, 0] : Fin 4 → Nat) a + S1x4x1x256.size a ≤ S3x8x1x256.size a
  squeezes_S1x4x1x256_S4x1x256 : S1x4x1x256.Squeezes S4x1x256
  inb_S3x8x128x256_S1x4x128x256_0_4_0_0 : ∀ a, (![0, 4, 0, 0] : Fin 4 → Nat) a + S1x4x128x256.size a ≤ S3x8x128x256.size a
  wordsbf16_S3x8x128x256_S1x4x128x256_0_4_0_0 : (Rect.unit (s := S3x8x128x256) ![0, 4, 0, 0] S1x4x128x256.size inb_S3x8x128x256_S1x4x128x256_0_4_0_0).WholeWords (EltTy.packing .bf16)
  inb_S3x8x1x256_S1x4x1x256_0_4_0_0 : ∀ a, (![0, 4, 0, 0] : Fin 4 → Nat) a + S1x4x1x256.size a ≤ S3x8x1x256.size a
  h_S1x1x1x256 : 0 < S1x1x1x256.numel
  shapeCasts_S1x1x1x256_S1x256 : S1x1x1x256.ShapeCasts S1x256
  shapeCasts_S1x256_S1x1x1x256 : S1x256.ShapeCasts S1x1x1x256
  h_S1x1x128x256 : 0 < S1x1x128x256.numel
  shapeCasts_S1x1x128x256_S128x256 : S1x1x128x256.ShapeCasts S128x256
  shapeCasts_S128x256_S1x1x128x256 : S128x256.ShapeCasts S1x1x128x256
  inb_S3_S1_1 : ∀ a, (![1] : Fin 1 → Nat) a + S1.size a ≤ S3.size a
  inb_S3x8x128x256_S1x4x128x256_1_0_0_0 : ∀ a, (![1, 0, 0, 0] : Fin 4 → Nat) a + S1x4x128x256.size a ≤ S3x8x128x256.size a
  wordsbf16_S3x8x128x256_S1x4x128x256_1_0_0_0 : (Rect.unit (s := S3x8x128x256) ![1, 0, 0, 0] S1x4x128x256.size inb_S3x8x128x256_S1x4x128x256_1_0_0_0).WholeWords (EltTy.packing .bf16)
  inb_S3x8x128x256_S1x4x128x256_1_4_0_0 : ∀ a, (![1, 4, 0, 0] : Fin 4 → Nat) a + S1x4x128x256.size a ≤ S3x8x128x256.size a
  wordsbf16_S3x8x128x256_S1x4x128x256_1_4_0_0 : (Rect.unit (s := S3x8x128x256) ![1, 4, 0, 0] S1x4x128x256.size inb_S3x8x128x256_S1x4x128x256_1_4_0_0).WholeWords (EltTy.packing .bf16)
  inb_S3x8x1x256_S1x4x1x256_1_0_0_0 : ∀ a, (![1, 0, 0, 0] : Fin 4 → Nat) a + S1x4x1x256.size a ≤ S3x8x1x256.size a
  inb_S3x8x1x256_S1x4x1x256_1_4_0_0 : ∀ a, (![1, 4, 0, 0] : Fin 4 → Nat) a + S1x4x1x256.size a ≤ S3x8x1x256.size a
  inb_S3_S1_2 : ∀ a, (![2] : Fin 1 → Nat) a + S1.size a ≤ S3.size a
  inb_S3x8x128x256_S1x4x128x256_2_0_0_0 : ∀ a, (![2, 0, 0, 0] : Fin 4 → Nat) a + S1x4x128x256.size a ≤ S3x8x128x256.size a
  wordsbf16_S3x8x128x256_S1x4x128x256_2_0_0_0 : (Rect.unit (s := S3x8x128x256) ![2, 0, 0, 0] S1x4x128x256.size inb_S3x8x128x256_S1x4x128x256_2_0_0_0).WholeWords (EltTy.packing .bf16)
  inb_S3x8x128x256_S1x4x128x256_2_4_0_0 : ∀ a, (![2, 4, 0, 0] : Fin 4 → Nat) a + S1x4x128x256.size a ≤ S3x8x128x256.size a
  wordsbf16_S3x8x128x256_S1x4x128x256_2_4_0_0 : (Rect.unit (s := S3x8x128x256) ![2, 4, 0, 0] S1x4x128x256.size inb_S3x8x128x256_S1x4x128x256_2_4_0_0).WholeWords (EltTy.packing .bf16)
  inb_S3x8x1x256_S1x4x1x256_2_0_0_0 : ∀ a, (![2, 0, 0, 0] : Fin 4 → Nat) a + S1x4x1x256.size a ≤ S3x8x1x256.size a
  inb_S3x8x1x256_S1x4x1x256_2_4_0_0 : ∀ a, (![2, 4, 0, 0] : Fin 4 → Nat) a + S1x4x1x256.size a ≤ S3x8x1x256.size a
  inb_S3x8x128x256_S1x1x128x256_2_0_0_0 : ∀ a, (![2, 0, 0, 0] : Fin 4 → Nat) a + S1x1x128x256.size a ≤ S3x8x128x256.size a
  inb_S3x8x1x256_S1x1x1x256_2_0_0_0 : ∀ a, (![2, 0, 0, 0] : Fin 4 → Nat) a + S1x1x1x256.size a ≤ S3x8x1x256.size a
  broadcasts_S1x256_S128x256 : S1x256.Broadcasts S128x256
  inb_S1024x1024_S128x1024_0_0 : ∀ a, (![0, 0] : Fin 2 → Nat) a + S128x1024.size a ≤ S1024x1024.size a
  h_S128x1024 : 0 < S128x1024.numel
  shapeCasts_S256x1024_S1x256x1024 : S256x1024.ShapeCasts S1x256x1024
  inb_S3x8x128x256_S1x1x128x256_2_1_0_0 : ∀ a, (![2, 1, 0, 0] : Fin 4 → Nat) a + S1x1x128x256.size a ≤ S3x8x128x256.size a
  inb_S3x8x1x256_S1x1x1x256_2_1_0_0 : ∀ a, (![2, 1, 0, 0] : Fin 4 → Nat) a + S1x1x1x256.size a ≤ S3x8x1x256.size a
  inb_S1024x1024_S128x1024_128_0 : ∀ a, (![128, 0] : Fin 2 → Nat) a + S128x1024.size a ≤ S1024x1024.size a
  inb_S3x8x128x256_S1x1x128x256_2_2_0_0 : ∀ a, (![2, 2, 0, 0] : Fin 4 → Nat) a + S1x1x128x256.size a ≤ S3x8x128x256.size a
  inb_S3x8x1x256_S1x1x1x256_2_2_0_0 : ∀ a, (![2, 2, 0, 0] : Fin 4 → Nat) a + S1x1x1x256.size a ≤ S3x8x1x256.size a
  inb_S1024x1024_S128x1024_256_0 : ∀ a, (![256, 0] : Fin 2 → Nat) a + S128x1024.size a ≤ S1024x1024.size a
  inb_S3x8x128x256_S1x1x128x256_2_3_0_0 : ∀ a, (![2, 3, 0, 0] : Fin 4 → Nat) a + S1x1x128x256.size a ≤ S3x8x128x256.size a
  inb_S3x8x1x256_S1x1x1x256_2_3_0_0 : ∀ a, (![2, 3, 0, 0] : Fin 4 → Nat) a + S1x1x1x256.size a ≤ S3x8x1x256.size a
  inb_S1024x1024_S128x1024_384_0 : ∀ a, (![384, 0] : Fin 2 → Nat) a + S128x1024.size a ≤ S1024x1024.size a
  inb_S3x8x128x256_S1x1x128x256_2_4_0_0 : ∀ a, (![2, 4, 0, 0] : Fin 4 → Nat) a + S1x1x128x256.size a ≤ S3x8x128x256.size a
  inb_S3x8x1x256_S1x1x1x256_2_4_0_0 : ∀ a, (![2, 4, 0, 0] : Fin 4 → Nat) a + S1x1x1x256.size a ≤ S3x8x1x256.size a
  inb_S1024x1024_S128x1024_512_0 : ∀ a, (![512, 0] : Fin 2 → Nat) a + S128x1024.size a ≤ S1024x1024.size a
  inb_S3x8x128x256_S1x1x128x256_2_5_0_0 : ∀ a, (![2, 5, 0, 0] : Fin 4 → Nat) a + S1x1x128x256.size a ≤ S3x8x128x256.size a
  inb_S3x8x1x256_S1x1x1x256_2_5_0_0 : ∀ a, (![2, 5, 0, 0] : Fin 4 → Nat) a + S1x1x1x256.size a ≤ S3x8x1x256.size a
  inb_S1024x1024_S128x1024_640_0 : ∀ a, (![640, 0] : Fin 2 → Nat) a + S128x1024.size a ≤ S1024x1024.size a
  inb_S3x8x128x256_S1x1x128x256_2_6_0_0 : ∀ a, (![2, 6, 0, 0] : Fin 4 → Nat) a + S1x1x128x256.size a ≤ S3x8x128x256.size a
  inb_S3x8x1x256_S1x1x1x256_2_6_0_0 : ∀ a, (![2, 6, 0, 0] : Fin 4 → Nat) a + S1x1x1x256.size a ≤ S3x8x1x256.size a
  inb_S1024x1024_S128x1024_768_0 : ∀ a, (![768, 0] : Fin 2 → Nat) a + S128x1024.size a ≤ S1024x1024.size a
  inb_S3x8x128x256_S1x1x128x256_2_7_0_0 : ∀ a, (![2, 7, 0, 0] : Fin 4 → Nat) a + S1x1x128x256.size a ≤ S3x8x128x256.size a
  inb_S3x8x1x256_S1x1x1x256_2_7_0_0 : ∀ a, (![2, 7, 0, 0] : Fin 4 → Nat) a + S1x1x1x256.size a ≤ S3x8x1x256.size a
  inb_S1024x1024_S128x1024_896_0 : ∀ a, (![896, 0] : Fin 2 → Nat) a + S128x1024.size a ≤ S1024x1024.size a
  squeezes_S1x128x1024_S128x1024 : S1x128x1024.Squeezes S128x1024
  inb_S4x256x1024_S1x256x1024_0_0_0 : ∀ a, (![0, 0, 0] : Fin 3 → Nat) a + S1x256x1024.size a ≤ S4x256x1024.size a
  inb_S4x256x1024_S1x256x1024_1_0_0 : ∀ a, (![1, 0, 0] : Fin 3 → Nat) a + S1x256x1024.size a ≤ S4x256x1024.size a
  inb_S4x256x1024_S1x256x1024_2_0_0 : ∀ a, (![2, 0, 0] : Fin 3 → Nat) a + S1x256x1024.size a ≤ S4x256x1024.size a
  inb_S4x256x1024_S1x256x1024_3_0_0 : ∀ a, (![3, 0, 0] : Fin 3 → Nat) a + S1x256x1024.size a ≤ S4x256x1024.size a
  dot_S256x1024_S1024x1024_S256x1024_1_0_0_1_n_n_wf : DotDims.WF S256x1024 S1024x1024 S256x1024 [1] [0] [0] [1] [] []
  dot_S1024x128_S256x128_S1024x256_1_1_0_0_n_n_wf : DotDims.WF S1024x128 S256x128 S1024x256 [1] [1] [0] [0] [] []
  dot_S1024x128_S1024x256_S128x256_0_0_1_1_n_n_wf : DotDims.WF S1024x128 S1024x256 S128x256 [0] [0] [1] [1] [] []
  dot_S128x256_S128x1024_S256x1024_0_0_1_1_n_n_wf : DotDims.WF S128x256 S128x1024 S256x1024 [0] [0] [1] [1] [] []
  hcc0_scratch10 : 4 + S3.numel ≤ 44
  hcc0_scratch11 : 7 + S3.numel ≤ 44
  hcc0_scratch12 : 10 + S3.numel ≤ 44
  hcc0_scratch13 : 13 + S3.numel ≤ 44
  hcc0_scratch14 : 16 + S3.numel ≤ 44
  hcc0_scratch15 : 19 + S3.numel ≤ 44
  hcc0_scratch16 : 22 + S3.numel ≤ 44
  hcc0_scratch17 : 25 + S3.numel ≤ 44
  hcc0_scratch18 : 28 + S3.numel ≤ 44
  hcc0_scratch19 : 31 + S3.numel ≤ 44
  hcc0_scratch20 : 34 + S3.numel ≤ 44
  hcc0_scratch21 : 37 + S3.numel ≤ 44
  hcc0_scratch22 : 40 + S4.numel ≤ 44
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1.size a ≤ S4.size a
  k0_off2_inb : ∀ d0 : Dev nD, ∀ (r : Fin 2), ∀ a, (k0_off2 d0 (BitVec.ofNat 32 r.val)) a + S1x1x1024x128.size a ≤ S2x8x1024x128.size a
  k0_off3_inb : ∀ d0 : Dev nD, ∀ a, (k0_off3 d0) a + S1x1024x1x128.size a ≤ S4x1024x2x128.size a
  k0_off4_inb : ∀ d0 : Dev nD, ∀ (r : Fin 2), ∀ a, (k0_off4 d0 (BitVec.ofNat 32 r.val)) a + S1x1x1024x128.size a ≤ S2x8x1024x128.size a
  k0_off5_inb : ∀ d0 : Dev nD, ∀ a, (k0_off5 d0) a + S1x1024x1x128.size a ≤ S4x1024x2x128.size a
  k0_off6_inb : ∀ d0 : Dev nD, ∀ (r : Fin 2), ∀ a, (k0_off6 d0 (BitVec.ofNat 32 r.val)) a + S1x1x1024x128.size a ≤ S2x8x1024x128.size a
  k0_off6_packedbf16 : ∀ d0 : Dev nD, ∀ (r : Fin 2), (Rect.unit (s := S2x8x1024x128) (k0_off6 d0 (BitVec.ofNat 32 r.val)) S1x1x1024x128.size (k0_off6_inb d0 r)).PackedRows (EltTy.packing .bf16)
  k0_off7_inb : ∀ d0 : Dev nD, ∀ (r : Fin 2), ∀ a, (k0_off7 d0 (BitVec.ofNat 32 r.val)) a + S1x1x1024x128.size a ≤ S2x8x1024x128.size a
  k0_off7_packedbf16 : ∀ d0 : Dev nD, ∀ (r : Fin 2), (Rect.unit (s := S2x8x1024x128) (k0_off7 d0 (BitVec.ofNat 32 r.val)) S1x1x1024x128.size (k0_off7_inb d0 r)).PackedRows (EltTy.packing .bf16)
  k0_off8_inb : ∀ d0 : Dev nD, ∀ a, (k0_off8 d0) a + S1x256x1024.size a ≤ S4x256x1024.size a
  k0_off9_inb : ∀ d0 : Dev nD, ∀ (r : Fin 8), ∀ a, (k0_off9 d0 (BitVec.ofNat 32 r.val)) a + S1x256x128.size a ≤ S32x256x128.size a
  k0_off9_packedbf16 : ∀ d0 : Dev nD, ∀ (r : Fin 8), (Rect.unit (s := S32x256x128) (k0_off9 d0 (BitVec.ofNat 32 r.val)) S1x256x128.size (k0_off9_inb d0 r)).PackedRows (EltTy.packing .bf16)
  k0_t1_ok : k0_t1_loop.OK
  k0_off10_inb : ∀ (d0 : Dev nD) (k0_t1 : Fin k0_t1_loop.trips), ∀ a, (k0_off10 d0 k0_t1) a + S1x256x128.size a ≤ S32x256x128.size a
  k0_off11_inb : ∀ (d0 : Dev nD) (k0_t1 : Fin k0_t1_loop.trips), ∀ a, (k0_off11 d0 k0_t1) a + S1x1x1024x128.size a ≤ S2x8x1024x128.size a
  k0_off12_inb : ∀ (d0 : Dev nD) (k0_t1 : Fin k0_t1_loop.trips), ∀ a, (k0_off12 d0 k0_t1) a + S1x1x1024x128.size a ≤ S2x8x1024x128.size a
  k0_off13_inb : ∀ (d0 : Dev nD) (k0_t1 : Fin k0_t1_loop.trips), ∀ a, (k0_off13 d0 k0_t1) a + S1x128x256.size a ≤ S32x128x256.size a
  k0_off13_packedbf16 : ∀ (d0 : Dev nD) (k0_t1 : Fin k0_t1_loop.trips), (Rect.unit (s := S32x128x256) (k0_off13 d0 k0_t1) S1x128x256.size (k0_off13_inb d0 k0_t1)).PackedRows (EltTy.packing .bf16)
  k0_off14_inb : ∀ (d0 : Dev nD) (k0_t1 : Fin k0_t1_loop.trips), ∀ a, (k0_off14 d0 k0_t1) a + S1x1x256.size a ≤ S32x1x256.size a
  k0_off15_inb : ∀ d0 : Dev nD, ∀ a, (k0_off15 d0) a + S4x128x256.size a ≤ S32x128x256.size a
  k0_off15_wordsbf16 : ∀ d0 : Dev nD, (Rect.unit (s := S32x128x256) (k0_off15 d0) S4x128x256.size (k0_off15_inb d0)).WholeWords (EltTy.packing .bf16)
  k0_dev3_lt : ∀ d0 : Dev nD, (k0_dev3 d0) < nD
  k0_off16_inb : ∀ d0 : Dev nD, ∀ a, (k0_off16 d0) a + S4x1x256.size a ≤ S32x1x256.size a
  k0_dev4_lt : ∀ d0 : Dev nD, (k0_dev4 d0) < nD
  k0_off17_inb : ∀ d0 : Dev nD, ∀ (r : Fin 3), ∀ a, (k0_off17 d0 (BitVec.ofNat 32 (1 + r.val))) a + S1.size a ≤ S4.size a
  k0_off18_inb : ∀ d0 : Dev nD, ∀ (r₁ : Fin 3) (r₂ : Fin 2), ∀ a, (k0_off18 d0 (BitVec.ofNat 32 (1 + r₁.val)) (BitVec.ofNat 32 r₂.val)) a + S1x1x1024x128.size a ≤ S2x8x1024x128.size a
  k0_off19_inb : ∀ d0 : Dev nD, ∀ (r : Fin 3), ∀ a, (k0_off19 d0 (BitVec.ofNat 32 (1 + r.val))) a + S1x1024x1x128.size a ≤ S4x1024x2x128.size a
  k0_off20_inb : ∀ d0 : Dev nD, ∀ (r₁ : Fin 3) (r₂ : Fin 2), ∀ a, (k0_off20 d0 (BitVec.ofNat 32 (1 + r₁.val)) (BitVec.ofNat 32 r₂.val)) a + S1x1x1024x128.size a ≤ S2x8x1024x128.size a
  k0_off21_inb : ∀ d0 : Dev nD, ∀ (r : Fin 3), ∀ a, (k0_off21 d0 (BitVec.ofNat 32 (1 + r.val))) a + S1x1024x1x128.size a ≤ S4x1024x2x128.size a
  k0_off22_inb : ∀ d0 : Dev nD, ∀ (r₁ : Fin 3) (r₂ : Fin 2), ∀ a, (k0_off22 d0 (BitVec.ofNat 32 (1 + r₁.val)) (BitVec.ofNat 32 r₂.val)) a + S1x1x1024x128.size a ≤ S2x8x1024x128.size a
  k0_off22_packedbf16 : ∀ d0 : Dev nD, ∀ (r₁ : Fin 3) (r₂ : Fin 2), (Rect.unit (s := S2x8x1024x128) (k0_off22 d0 (BitVec.ofNat 32 (1 + r₁.val)) (BitVec.ofNat 32 r₂.val)) S1x1x1024x128.size (k0_off22_inb d0 r₁ r₂)).PackedRows (EltTy.packing .bf16)
  k0_off23_inb : ∀ d0 : Dev nD, ∀ (r₁ : Fin 3) (r₂ : Fin 2), ∀ a, (k0_off23 d0 (BitVec.ofNat 32 (1 + r₁.val)) (BitVec.ofNat 32 r₂.val)) a + S1x1x1024x128.size a ≤ S2x8x1024x128.size a
  k0_off23_packedbf16 : ∀ d0 : Dev nD, ∀ (r₁ : Fin 3) (r₂ : Fin 2), (Rect.unit (s := S2x8x1024x128) (k0_off23 d0 (BitVec.ofNat 32 (1 + r₁.val)) (BitVec.ofNat 32 r₂.val)) S1x1x1024x128.size (k0_off23_inb d0 r₁ r₂)).PackedRows (EltTy.packing .bf16)
  k0_off24_inb : ∀ d0 : Dev nD, ∀ (r : Fin 3), ∀ a, (k0_off24 d0 (BitVec.ofNat 32 (1 + r.val))) a + S1x256x1024.size a ≤ S4x256x1024.size a
  k0_off25_inb : ∀ d0 : Dev nD, ∀ (r₁ : Fin 3) (r₂ : Fin 8), ∀ a, (k0_off25 d0 (BitVec.ofNat 32 (1 + r₁.val)) (BitVec.ofNat 32 r₂.val)) a + S1x256x128.size a ≤ S32x256x128.size a
  k0_off25_packedbf16 : ∀ d0 : Dev nD, ∀ (r₁ : Fin 3) (r₂ : Fin 8), (Rect.unit (s := S32x256x128) (k0_off25 d0 (BitVec.ofNat 32 (1 + r₁.val)) (BitVec.ofNat 32 r₂.val)) S1x256x128.size (k0_off25_inb d0 r₁ r₂)).PackedRows (EltTy.packing .bf16)
  k0_t2_ok : k0_t2_loop.OK
  k0_off26_inb : ∀ (d0 : Dev nD) (k0_t2 : Fin k0_t2_loop.trips), ∀ a, (k0_off26 d0 k0_t2) a + S1x256x128.size a ≤ S32x256x128.size a
  k0_off27_inb : ∀ (d0 : Dev nD) (k0_t2 : Fin k0_t2_loop.trips), ∀ a, (k0_off27 d0 k0_t2) a + S1x1x1024x128.size a ≤ S2x8x1024x128.size a
  k0_off28_inb : ∀ (d0 : Dev nD) (k0_t2 : Fin k0_t2_loop.trips), ∀ a, (k0_off28 d0 k0_t2) a + S1x1x1024x128.size a ≤ S2x8x1024x128.size a
  k0_off29_inb : ∀ (d0 : Dev nD) (k0_t2 : Fin k0_t2_loop.trips), ∀ a, (k0_off29 d0 k0_t2) a + S1x128x256.size a ≤ S32x128x256.size a
  k0_off29_packedbf16 : ∀ (d0 : Dev nD) (k0_t2 : Fin k0_t2_loop.trips), (Rect.unit (s := S32x128x256) (k0_off29 d0 k0_t2) S1x128x256.size (k0_off29_inb d0 k0_t2)).PackedRows (EltTy.packing .bf16)
  k0_off30_inb : ∀ (d0 : Dev nD) (k0_t2 : Fin k0_t2_loop.trips), ∀ a, (k0_off30 d0 k0_t2) a + S1x1x256.size a ≤ S32x1x256.size a
  k0_off31_inb : ∀ d0 : Dev nD, ∀ a, (k0_off31 d0) a + S4x128x256.size a ≤ S32x128x256.size a
  k0_off31_wordsbf16 : ∀ d0 : Dev nD, (Rect.unit (s := S32x128x256) (k0_off31 d0) S4x128x256.size (k0_off31_inb d0)).WholeWords (EltTy.packing .bf16)
  k0_dev5_lt : ∀ d0 : Dev nD, (k0_dev5 d0) < nD
  k0_off32_inb : ∀ d0 : Dev nD, ∀ a, (k0_off32 d0) a + S4x1x256.size a ≤ S32x1x256.size a
  k0_dev6_lt : ∀ d0 : Dev nD, (k0_dev6 d0) < nD
  k0_t3_ok : k0_t3_loop.OK
  k0_off33_inb : ∀ (d0 : Dev nD) (k0_t3 : Fin k0_t3_loop.trips), ∀ a, (k0_off33 d0 k0_t3) a + S1x256x128.size a ≤ S32x256x128.size a
  k0_off34_inb : ∀ (d0 : Dev nD) (k0_t3 : Fin k0_t3_loop.trips), ∀ a, (k0_off34 d0 k0_t3) a + S1x1x1024x128.size a ≤ S2x8x1024x128.size a
  k0_off35_inb : ∀ (d0 : Dev nD) (k0_t3 : Fin k0_t3_loop.trips), ∀ a, (k0_off35 d0 k0_t3) a + S1x1x1024x128.size a ≤ S2x8x1024x128.size a
  k0_off36_inb : ∀ (d0 : Dev nD) (k0_t3 : Fin k0_t3_loop.trips), ∀ a, (k0_off36 d0 k0_t3) a + S1x128x256.size a ≤ S32x128x256.size a
  k0_off36_packedbf16 : ∀ (d0 : Dev nD) (k0_t3 : Fin k0_t3_loop.trips), (Rect.unit (s := S32x128x256) (k0_off36 d0 k0_t3) S1x128x256.size (k0_off36_inb d0 k0_t3)).PackedRows (EltTy.packing .bf16)
  k0_off37_inb : ∀ (d0 : Dev nD) (k0_t3 : Fin k0_t3_loop.trips), ∀ a, (k0_off37 d0 k0_t3) a + S1x1x256.size a ≤ S32x1x256.size a
  k0_t4_ok : k0_t4_loop.OK
  k0_off38_inb : ∀ k0_t4 : Fin k0_t4_loop.trips, ∀ a, (k0_off38 k0_t4) a + S1x1x1x256.size a ≤ S3x8x1x256.size a
  k0_off39_inb : ∀ (d0 : Dev nD) (k0_t4 : Fin k0_t4_loop.trips), ∀ a, (k0_off39 d0 k0_t4) a + S1x1x256.size a ≤ S32x1x256.size a
  k0_off40_inb : ∀ k0_t4 : Fin k0_t4_loop.trips, ∀ a, (k0_off40 k0_t4) a + S1x1x128x256.size a ≤ S3x8x128x256.size a
  k0_off41_inb : ∀ (d0 : Dev nD) (k0_t4 : Fin k0_t4_loop.trips), ∀ a, (k0_off41 d0 k0_t4) a + S1x128x256.size a ≤ S32x128x256.size a
  k0_off40_packedbf16 : ∀ k0_t4 : Fin k0_t4_loop.trips, (Rect.unit (s := S3x8x128x256) (k0_off40 k0_t4) S1x1x128x256.size (k0_off40_inb k0_t4)).PackedRows (EltTy.packing .bf16)
  k0_t5_ok : k0_t5_loop.OK
  k0_off42_inb : ∀ k0_t5 : Fin k0_t5_loop.trips, ∀ a, (k0_off42 k0_t5) a + S1x1x1x256.size a ≤ S3x8x1x256.size a
  k0_off43_inb : ∀ (d0 : Dev nD) (k0_t5 : Fin k0_t5_loop.trips), ∀ a, (k0_off43 d0 k0_t5) a + S1x1x256.size a ≤ S32x1x256.size a
  k0_off44_inb : ∀ k0_t5 : Fin k0_t5_loop.trips, ∀ a, (k0_off44 k0_t5) a + S1x1x128x256.size a ≤ S3x8x128x256.size a
  k0_off45_inb : ∀ (d0 : Dev nD) (k0_t5 : Fin k0_t5_loop.trips), ∀ a, (k0_off45 d0 k0_t5) a + S1x128x256.size a ≤ S32x128x256.size a
  k0_off44_packedbf16 : ∀ k0_t5 : Fin k0_t5_loop.trips, (Rect.unit (s := S3x8x128x256) (k0_off44 k0_t5) S1x1x128x256.size (k0_off44_inb k0_t5)).PackedRows (EltTy.packing .bf16)
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_t6_ok : k0_t6_loop.OK
  k0_off46_inb : ∀ (d0 : Dev nD) (k0_t6 : Fin k0_t6_loop.trips), ∀ a, (k0_off46 d0 k0_t6) a + S1x256x128.size a ≤ S32x256x128.size a
  k0_off47_inb : ∀ (d0 : Dev nD) (k0_t6 : Fin k0_t6_loop.trips), ∀ a, (k0_off47 d0 k0_t6) a + S1x1x1024x128.size a ≤ S2x8x1024x128.size a
  k0_off48_inb : ∀ (d0 : Dev nD) (k0_t6 : Fin k0_t6_loop.trips), ∀ a, (k0_off48 d0 k0_t6) a + S1x1x1024x128.size a ≤ S2x8x1024x128.size a
  k0_off49_inb : ∀ (d0 : Dev nD) (k0_t6 : Fin k0_t6_loop.trips), ∀ a, (k0_off49 d0 k0_t6) a + S1x128x256.size a ≤ S32x128x256.size a
  k0_off49_packedbf16 : ∀ (d0 : Dev nD) (k0_t6 : Fin k0_t6_loop.trips), (Rect.unit (s := S32x128x256) (k0_off49 d0 k0_t6) S1x128x256.size (k0_off49_inb d0 k0_t6)).PackedRows (EltTy.packing .bf16)
  k0_off50_inb : ∀ (d0 : Dev nD) (k0_t6 : Fin k0_t6_loop.trips), ∀ a, (k0_off50 d0 k0_t6) a + S1x1x256.size a ≤ S32x1x256.size a
  k0_t7_ok : k0_t7_loop.OK
  k0_off51_inb : ∀ k0_t7 : Fin k0_t7_loop.trips, ∀ a, (k0_off51 k0_t7) a + S1x1x1x256.size a ≤ S3x8x1x256.size a
  k0_off52_inb : ∀ (d0 : Dev nD) (k0_t7 : Fin k0_t7_loop.trips), ∀ a, (k0_off52 d0 k0_t7) a + S1x1x256.size a ≤ S32x1x256.size a
  k0_off53_inb : ∀ k0_t7 : Fin k0_t7_loop.trips, ∀ a, (k0_off53 k0_t7) a + S1x1x128x256.size a ≤ S3x8x128x256.size a
  k0_off54_inb : ∀ (d0 : Dev nD) (k0_t7 : Fin k0_t7_loop.trips), ∀ a, (k0_off54 d0 k0_t7) a + S1x128x256.size a ≤ S32x128x256.size a
  k0_off53_packedbf16 : ∀ k0_t7 : Fin k0_t7_loop.trips, (Rect.unit (s := S3x8x128x256) (k0_off53 k0_t7) S1x1x128x256.size (k0_off53_inb k0_t7)).PackedRows (EltTy.packing .bf16)
  k0_t8_ok : k0_t8_loop.OK
  k0_off55_inb : ∀ k0_t8 : Fin k0_t8_loop.trips, ∀ a, (k0_off55 k0_t8) a + S1x1x1x256.size a ≤ S3x8x1x256.size a
  k0_off56_inb : ∀ (d0 : Dev nD) (k0_t8 : Fin k0_t8_loop.trips), ∀ a, (k0_off56 d0 k0_t8) a + S1x1x256.size a ≤ S32x1x256.size a
  k0_off57_inb : ∀ k0_t8 : Fin k0_t8_loop.trips, ∀ a, (k0_off57 k0_t8) a + S1x1x128x256.size a ≤ S3x8x128x256.size a
  k0_off58_inb : ∀ (d0 : Dev nD) (k0_t8 : Fin k0_t8_loop.trips), ∀ a, (k0_off58 d0 k0_t8) a + S1x128x256.size a ≤ S32x128x256.size a
  k0_off57_packedbf16 : ∀ k0_t8 : Fin k0_t8_loop.trips, (Rect.unit (s := S3x8x128x256) (k0_off57 k0_t8) S1x1x128x256.size (k0_off57_inb k0_t8)).PackedRows (EltTy.packing .bf16)
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_t9_ok : k0_t9_loop.OK
  k0_off59_inb : ∀ k0_t9 : Fin k0_t9_loop.trips, ∀ a, (k0_off59 k0_t9) a + S1x1x1x256.size a ≤ S3x8x1x256.size a
  k0_off60_inb : ∀ (d0 : Dev nD) (k0_t9 : Fin k0_t9_loop.trips), ∀ a, (k0_off60 d0 k0_t9) a + S1x1x256.size a ≤ S32x1x256.size a
  k0_off61_inb : ∀ k0_t9 : Fin k0_t9_loop.trips, ∀ a, (k0_off61 k0_t9) a + S1x1x128x256.size a ≤ S3x8x128x256.size a
  k0_off62_inb : ∀ (d0 : Dev nD) (k0_t9 : Fin k0_t9_loop.trips), ∀ a, (k0_off62 d0 k0_t9) a + S1x128x256.size a ≤ S32x128x256.size a
  k0_off61_packedbf16 : ∀ k0_t9 : Fin k0_t9_loop.trips, (Rect.unit (s := S3x8x128x256) (k0_off61 k0_t9) S1x1x128x256.size (k0_off61_inb k0_t9)).PackedRows (EltTy.packing .bf16)
  k0_t10_ok : k0_t10_loop.OK
  k0_off63_inb : ∀ k0_t10 : Fin k0_t10_loop.trips, ∀ a, (k0_off63 k0_t10) a + S1x1x1x256.size a ≤ S3x8x1x256.size a
  k0_off64_inb : ∀ (d0 : Dev nD) (k0_t10 : Fin k0_t10_loop.trips), ∀ a, (k0_off64 d0 k0_t10) a + S1x1x256.size a ≤ S32x1x256.size a
  k0_off65_inb : ∀ k0_t10 : Fin k0_t10_loop.trips, ∀ a, (k0_off65 k0_t10) a + S1x1x128x256.size a ≤ S3x8x128x256.size a
  k0_off66_inb : ∀ (d0 : Dev nD) (k0_t10 : Fin k0_t10_loop.trips), ∀ a, (k0_off66 d0 k0_t10) a + S1x128x256.size a ≤ S32x128x256.size a
  k0_off65_packedbf16 : ∀ k0_t10 : Fin k0_t10_loop.trips, (Rect.unit (s := S3x8x128x256) (k0_off65 k0_t10) S1x1x128x256.size (k0_off65_inb k0_t10)).PackedRows (EltTy.packing .bf16)
  k0_off24_packedbf16 : ∀ d0 : Dev nD, ∀ (r : Fin 3), (Rect.unit (s := S4x256x1024) (k0_off24 d0 (BitVec.ofNat 32 (1 + r.val))) S1x256x1024.size (k0_off24_inb d0 r)).PackedRows (EltTy.packing .bf16)
  k0_off67_inb : ∀ d0 : Dev nD, ∀ (r : Fin 3), ∀ a, (k0_off67 d0 (BitVec.ofNat 32 r.val)) a + S1x128x1024.size a ≤ S4x256x1024.size a
  k0_off67_wordsbf16 : ∀ d0 : Dev nD, ∀ (r : Fin 3), (Rect.unit (s := S4x256x1024) (k0_off67 d0 (BitVec.ofNat 32 r.val)) S1x128x1024.size (k0_off67_inb d0 r)).WholeWords (EltTy.packing .bf16)
  k0_dev15_lt : ∀ d0 : Dev nD, (k0_dev15 d0) < nD
  k0_off68_inb : ∀ d0 : Dev nD, ∀ (r : Fin 3), ∀ a, (k0_off68 d0 (BitVec.ofNat 32 r.val)) a + S1x128x1024.size a ≤ S4x256x1024.size a
  k0_off68_wordsbf16 : ∀ d0 : Dev nD, ∀ (r : Fin 3), (Rect.unit (s := S4x256x1024) (k0_off68 d0 (BitVec.ofNat 32 r.val)) S1x128x1024.size (k0_off68_inb d0 r)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch10 : DmaSems sig S3 := SemArray.consecutive 4 S3 hcc0_scratch10
abbrev cc0_scratch11 : DmaSems sig S3 := SemArray.consecutive 7 S3 hcc0_scratch11
abbrev cc0_scratch12 : DmaSems sig S3 := SemArray.consecutive 10 S3 hcc0_scratch12
abbrev cc0_scratch13 : DmaSems sig S3 := SemArray.consecutive 13 S3 hcc0_scratch13
abbrev cc0_scratch14 : DmaSems sig S3 := SemArray.consecutive 16 S3 hcc0_scratch14
abbrev cc0_scratch15 : DmaSems sig S3 := SemArray.consecutive 19 S3 hcc0_scratch15
abbrev cc0_scratch16 : DmaSems sig S3 := SemArray.consecutive 22 S3 hcc0_scratch16
abbrev cc0_scratch17 : DmaSems sig S3 := SemArray.consecutive 25 S3 hcc0_scratch17
abbrev cc0_scratch18 : DmaSems sig S3 := SemArray.consecutive 28 S3 hcc0_scratch18
abbrev cc0_scratch19 : DmaSems sig S3 := SemArray.consecutive 31 S3 hcc0_scratch19
abbrev cc0_scratch20 : DmaSems sig S3 := SemArray.consecutive 34 S3 hcc0_scratch20
abbrev cc0_scratch21 : DmaSems sig S3 := SemArray.consecutive 37 S3 hcc0_scratch21
abbrev cc0_scratch22 : DmaSems sig S4 := SemArray.consecutive 40 S4 hcc0_scratch22
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S1024x128_S256x128_S1024x256_1_1_0_0_n_n : DotDims S1024x128 S256x128 S1024x256 where
  lhsContracting := [1]
  rhsContracting := [1]
  lhsNonContracting := [0]
  rhsNonContracting := [0]
  lhsBatch := []
  rhsBatch := []
  wf := dot_S1024x128_S256x128_S1024x256_1_1_0_0_n_n_wf
def dot_S1024x128_S1024x256_S128x256_0_0_1_1_n_n : DotDims S1024x128 S1024x256 S128x256 where
  lhsContracting := [0]
  rhsContracting := [0]
  lhsNonContracting := [1]
  rhsNonContracting := [1]
  lhsBatch := []
  rhsBatch := []
  wf := dot_S1024x128_S1024x256_S128x256_0_0_1_1_n_n_wf
def dot_S128x256_S128x1024_S256x1024_0_0_1_1_n_n : DotDims S128x256 S128x1024 S256x1024 where
  lhsContracting := [0]
  rhsContracting := [0]
  lhsNonContracting := [1]
  rhsNonContracting := [1]
  lhsBatch := []
  rhsBatch := []
  wf := dot_S128x256_S128x1024_S256x1024_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x256x1024 : Shape := ⟨3, ![4, 256, 1024]⟩
abbrev S1024x1024 : Shape := ⟨2, ![1024, 1024]⟩
abbrev S4x4096x2x128 : Shape := ⟨4, ![4, 4096, 2, 128]⟩
abbrev S4x256x8x128 : Shape := ⟨4, ![4, 256, 8, 128]⟩
abbrev S4x4096x2x4x128 : Shape := ⟨5, ![4, 4096, 2, 4, 128]⟩
abbrev S4x4096x8x128 : Shape := ⟨4, ![4, 4096, 8, 128]⟩
abbrev S_ : Shape := ⟨0, ![]⟩
abbrev S4x8x256x1 : Shape := ⟨4, ![4, 8, 256, 1]⟩
abbrev S4x1024x8x128 : Shape := ⟨4, ![4, 1024, 8, 128]⟩
abbrev S4x8x256x1024 : Shape := ⟨4, ![4, 8, 256, 1024]⟩
abbrev S4x8x256 : Shape := ⟨3, ![4, 8, 256]⟩
abbrev S4x256x8x1 : Shape := ⟨4, ![4, 256, 8, 1]⟩
abbrev S4x8x128x256 : Shape := ⟨4, ![4, 8, 128, 256]⟩

abbrev nBuf : Space → Nat
  | .hbm => 126
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x4096x2x128, .f32⟩
  | .hbm, ⟨4, _⟩ => ⟨S4x4096x2x128, .f32⟩
  | .hbm, ⟨5, _⟩ => ⟨S4x256x1024, .f32⟩
  | .hbm, ⟨6, _⟩ => ⟨S4x256x8x128, .f32⟩
  | .hbm, ⟨7, _⟩ => ⟨S4x4096x2x4x128, .f32⟩
  | .hbm, ⟨8, _⟩ => ⟨S4x4096x8x128, .f32⟩
  | .hbm, ⟨9, _⟩ => ⟨S4x4096x2x4x128, .f32⟩
  | .hbm, ⟨10, _⟩ => ⟨S4x4096x8x128, .f32⟩
  | .hbm, ⟨11, _⟩ => ⟨S_, .f32⟩
  | .hbm, ⟨12, _⟩ => ⟨S4x256x8x128, .f32⟩
  | .hbm, ⟨13, _⟩ => ⟨S_, .f32⟩
  | .hbm, ⟨14, _⟩ => ⟨S4x8x256x1, .f32⟩
  | .hbm, ⟨15, _⟩ => ⟨S_, .f32⟩
  | .hbm, ⟨16, _⟩ => ⟨S4x8x256x1, .f32⟩
  | .hbm, ⟨17, _⟩ => ⟨S4x1024x8x128, .f32⟩
  | .hbm, ⟨18, _⟩ => ⟨S4x1024x8x128, .f32⟩
  | .hbm, ⟨19, _⟩ => ⟨S4x8x256x1024, .f32⟩
  | .hbm, ⟨20, _⟩ => ⟨S_, .f32⟩
  | .hbm, ⟨21, _⟩ => ⟨S4x8x256x1024, .f32⟩
  | .hbm, ⟨22, _⟩ => ⟨S4x8x256x1024, .f32⟩
  | .hbm, ⟨23, _⟩ => ⟨S_, .f32⟩
  | .hbm, ⟨24, _⟩ => ⟨S4x8x256, .f32⟩
  | .hbm, ⟨25, _⟩ => ⟨S4x8x256x1, .f32⟩
  | .hbm, ⟨26, _⟩ => ⟨S4x8x256x1, .f32⟩
  | .hbm, ⟨27, _⟩ => ⟨S4x8x256x1, .f32⟩
  | .hbm, ⟨28, _⟩ => ⟨S4x8x256x1, .f32⟩
  | .hbm, ⟨29, _⟩ => ⟨S4x8x256x1024, .f32⟩
  | .hbm, ⟨30, _⟩ => ⟨S4x8x256x1024, .f32⟩
  | .hbm, ⟨31, _⟩ => ⟨S4x8x256x1024, .f32⟩
  | .hbm, ⟨32, _⟩ => ⟨S4x8x256x1, .f32⟩
  | .hbm, ⟨33, _⟩ => ⟨S_, .f32⟩
  | .hbm, ⟨34, _⟩ => ⟨S4x8x256, .f32⟩
  | .hbm, ⟨35, _⟩ => ⟨S4x8x256x1, .f32⟩
  | .hbm, ⟨36, _⟩ => ⟨S4x8x256x1, .f32⟩
  | .hbm, ⟨37, _⟩ => ⟨S4x256x8x1, .f32⟩
  | .hbm, ⟨38, _⟩ => ⟨S4x256x8x128, .f32⟩
  | .hbm, ⟨39, _⟩ => ⟨S4x256x8x128, .f32⟩
  | .hbm, ⟨40, _⟩ => ⟨S4x8x128x256, .f32⟩
  | .hbm, ⟨41, _⟩ => ⟨S4x256x8x128, .f32⟩
  | .hbm, ⟨42, _⟩ => ⟨S4x256x8x128, .f32⟩
  | .hbm, ⟨43, _⟩ => ⟨S4x1024x8x128, .f32⟩
  | .hbm, ⟨44, _⟩ => ⟨S4x1024x8x128, .f32⟩
  | .hbm, ⟨45, _⟩ => ⟨S4x8x256x1024, .f32⟩
  | .hbm, ⟨46, _⟩ => ⟨S_, .f32⟩
  | .hbm, ⟨47, _⟩ => ⟨S4x8x256x1024, .f32⟩
  | .hbm, ⟨48, _⟩ => ⟨S4x8x256x1024, .f32⟩
  | .hbm, ⟨49, _⟩ => ⟨S_, .f32⟩
  | .hbm, ⟨50, _⟩ => ⟨S4x8x256, .f32⟩
  | .hbm, ⟨51, _⟩ => ⟨S4x8x256x1, .f32⟩
  | .hbm, ⟨52, _⟩ => ⟨S4x8x256x1, .f32⟩
  | .hbm, ⟨53, _⟩ => ⟨S4x8x256x1, .f32⟩
  | .hbm, ⟨54, _⟩ => ⟨S4x8x256x1, .f32⟩
  | .hbm, ⟨55, _⟩ => ⟨S4x8x256x1024, .f32⟩
  | .hbm, ⟨56, _⟩ => ⟨S4x8x256x1024, .f32⟩
  | .hbm, ⟨57, _⟩ => ⟨S4x8x256x1024, .f32⟩
  | .hbm, ⟨58, _⟩ => ⟨S4x8x256x1, .f32⟩
  | .hbm, ⟨59, _⟩ => ⟨S_, .f32⟩
  | .hbm, ⟨60, _⟩ => ⟨S4x8x256, .f32⟩
  | .hbm, ⟨61, _⟩ => ⟨S4x8x256x1, .f32⟩
  | .hbm, ⟨62, _⟩ => ⟨S4x8x256x1, .f32⟩
  | .hbm, ⟨63, _⟩ => ⟨S4x256x8x1, .f32⟩
  | .hbm, ⟨64, _⟩ => ⟨S4x256x8x128, .f32⟩
  | .hbm, ⟨65, _⟩ => ⟨S4x256x8x128, .f32⟩
  | .hbm, ⟨66, _⟩ => ⟨S4x8x128x256, .f32⟩
  | .hbm, ⟨67, _⟩ => ⟨S4x256x8x128, .f32⟩
  | .hbm, ⟨68, _⟩ => ⟨S4x256x8x128, .f32⟩
  | .hbm, ⟨69, _⟩ => ⟨S4x1024x8x128, .f32⟩
  | .hbm, ⟨70, _⟩ => ⟨S4x1024x8x128, .f32⟩
  | .hbm, ⟨71, _⟩ => ⟨S4x8x256x1024, .f32⟩
  | .hbm, ⟨72, _⟩ => ⟨S_, .f32⟩
  | .hbm, ⟨73, _⟩ => ⟨S4x8x256x1024, .f32⟩
  | .hbm, ⟨74, _⟩ => ⟨S4x8x256x1024, .f32⟩
  | .hbm, ⟨75, _⟩ => ⟨S_, .f32⟩
  | .hbm, ⟨76, _⟩ => ⟨S4x8x256, .f32⟩
  | .hbm, ⟨77, _⟩ => ⟨S4x8x256x1, .f32⟩
  | .hbm, ⟨78, _⟩ => ⟨S4x8x256x1, .f32⟩
  | .hbm, ⟨79, _⟩ => ⟨S4x8x256x1, .f32⟩
  | .hbm, ⟨80, _⟩ => ⟨S4x8x256x1, .f32⟩
  | .hbm, ⟨81, _⟩ => ⟨S4x8x256x1024, .f32⟩
  | .hbm, ⟨82, _⟩ => ⟨S4x8x256x1024, .f32⟩
  | .hbm, ⟨83, _⟩ => ⟨S4x8x256x1024, .f32⟩
  | .hbm, ⟨84, _⟩ => ⟨S4x8x256x1, .f32⟩
  | .hbm, ⟨85, _⟩ => ⟨S_, .f32⟩
  | .hbm, ⟨86, _⟩ => ⟨S4x8x256, .f32⟩
  | .hbm, ⟨87, _⟩ => ⟨S4x8x256x1, .f32⟩
  | .hbm, ⟨88, _⟩ => ⟨S4x8x256x1, .f32⟩
  | .hbm, ⟨89, _⟩ => ⟨S4x256x8x1, .f32⟩
  | .hbm, ⟨90, _⟩ => ⟨S4x256x8x128, .f32⟩
  | .hbm, ⟨91, _⟩ => ⟨S4x256x8x128, .f32⟩
  | .hbm, ⟨92, _⟩ => ⟨S4x8x128x256, .f32⟩
  | .hbm, ⟨93, _⟩ => ⟨S4x256x8x128, .f32⟩
  | .hbm, ⟨94, _⟩ => ⟨S4x256x8x128, .f32⟩
  | .hbm, ⟨95, _⟩ => ⟨S4x1024x8x128, .f32⟩
  | .hbm, ⟨96, _⟩ => ⟨S4x1024x8x128, .f32⟩
  | .hbm, ⟨97, _⟩ => ⟨S4x8x256x1024, .f32⟩
  | .hbm, ⟨98, _⟩ => ⟨S_, .f32⟩
  | .hbm, ⟨99, _⟩ => ⟨S4x8x256x1024, .f32⟩
  | .hbm, ⟨100, _⟩ => ⟨S4x8x256x1024, .f32⟩
  | .hbm, ⟨101, _⟩ => ⟨S_, .f32⟩
  | .hbm, ⟨102, _⟩ => ⟨S4x8x256, .f32⟩
  | .hbm, ⟨103, _⟩ => ⟨S4x8x256x1, .f32⟩
  | .hbm, ⟨104, _⟩ => ⟨S4x8x256x1, .f32⟩
  | .hbm, ⟨105, _⟩ => ⟨S4x8x256x1, .f32⟩
  | .hbm, ⟨106, _⟩ => ⟨S4x8x256x1, .f32⟩
  | .hbm, ⟨107, _⟩ => ⟨S4x8x256x1024, .f32⟩
  | .hbm, ⟨108, _⟩ => ⟨S4x8x256x1024, .f32⟩
  | .hbm, ⟨109, _⟩ => ⟨S4x8x256x1024, .f32⟩
  | .hbm, ⟨110, _⟩ => ⟨S4x8x256x1, .f32⟩
  | .hbm, ⟨111, _⟩ => ⟨S_, .f32⟩
  | .hbm, ⟨112, _⟩ => ⟨S4x8x256, .f32⟩
  | .hbm, ⟨113, _⟩ => ⟨S4x8x256x1, .f32⟩
  | .hbm, ⟨114, _⟩ => ⟨S4x8x256x1, .f32⟩
  | .hbm, ⟨115, _⟩ => ⟨S4x256x8x1, .f32⟩
  | .hbm, ⟨116, _⟩ => ⟨S4x256x8x128, .f32⟩
  | .hbm, ⟨117, _⟩ => ⟨S4x256x8x128, .f32⟩
  | .hbm, ⟨118, _⟩ => ⟨S4x8x128x256, .f32⟩
  | .hbm, ⟨119, _⟩ => ⟨S4x256x8x128, .f32⟩
  | .hbm, ⟨120, _⟩ => ⟨S4x256x8x128, .f32⟩
  | .hbm, ⟨121, _⟩ => ⟨S4x256x8x1, .f32⟩
  | .hbm, ⟨122, _⟩ => ⟨S4x256x8x128, .f32⟩
  | .hbm, ⟨123, _⟩ => ⟨S4x256x8x128, .f32⟩
  | .hbm, ⟨124, _⟩ => ⟨S4x256x1024, .f32⟩
  | .hbm, ⟨125, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]

class Facts₀ : Prop where
  shapeCasts_S4x256x1024_S4x256x8x128 : S4x256x1024.ShapeCasts S4x256x8x128
  bcast_S4x4096x2x128_S4x4096x2x4x128_0_1_2_4 : S4x4096x2x128.BroadcastsInDim S4x4096x2x4x128 (![0, 1, 2, 4] : Fin 4 → Fin S4x4096x2x4x128.rank)
  shapeCasts_S4x4096x2x4x128_S4x4096x8x128 : S4x4096x2x4x128.ShapeCasts S4x4096x8x128
  bcast_S_S4x256x8x128 : S_.BroadcastsInDim S4x256x8x128 (![] : Fin 0 → Fin S4x256x8x128.rank)
  bcast_S_S4x8x256x1 : S_.BroadcastsInDim S4x8x256x1 (![] : Fin 0 → Fin S4x8x256x1.rank)
  slices_S4x4096x8x128_S4x1024x8x128_0_0_0_0 : S4x4096x8x128.Slices ![0, 0, 0, 0] S4x1024x8x128
  bcast_S_S4x8x256x1024 : S_.BroadcastsInDim S4x8x256x1024 (![] : Fin 0 → Fin S4x8x256x1024.rank)
  reducesTo_S4x8x256x1024_S4x8x256_d3 : S4x8x256x1024.ReducesTo [3] S4x8x256
  h_S_ : 0 < S_.numel
  bcast_S4x8x256_S4x8x256x1_0_1_2 : S4x8x256.BroadcastsInDim S4x8x256x1 (![0, 1, 2] : Fin 3 → Fin S4x8x256x1.rank)
  bcast_S4x8x256x1_S4x8x256x1024_0_1_2_3 : S4x8x256x1.BroadcastsInDim S4x8x256x1024 (![0, 1, 2, 3] : Fin 4 → Fin S4x8x256x1024.rank)
  transposes_S4x8x256x1_S4x256x8x1_0_2_1_3 : S4x8x256x1.Transposes [0, 2, 1, 3] S4x256x8x1
  bcast_S4x256x8x1_S4x256x8x128_0_1_2_3 : S4x256x8x1.BroadcastsInDim S4x256x8x128 (![0, 1, 2, 3] : Fin 4 → Fin S4x256x8x128.rank)
  transposes_S4x8x128x256_S4x256x8x128_0_3_1_2 : S4x8x128x256.Transposes [0, 3, 1, 2] S4x256x8x128
  slices_S4x4096x8x128_S4x1024x8x128_0_1024_0_0 : S4x4096x8x128.Slices ![0, 1024, 0, 0] S4x1024x8x128
  slices_S4x4096x8x128_S4x1024x8x128_0_2048_0_0 : S4x4096x8x128.Slices ![0, 2048, 0, 0] S4x1024x8x128
  slices_S4x4096x8x128_S4x1024x8x128_0_3072_0_0 : S4x4096x8x128.Slices ![0, 3072, 0, 0] S4x1024x8x128
  shapeCasts_S4x256x8x128_S4x256x1024 : S4x256x8x128.ShapeCasts S4x256x1024
  dot_S4x256x1024_S1024x1024_S4x256x1024_2_0_01_1_n_n_wf : DotDims.WF S4x256x1024 S1024x1024 S4x256x1024 [2] [0] [0, 1] [1] [] []
  dot_S4x256x8x128_S4x1024x8x128_S4x8x256x1024_3_3_1_1_02_02_wf : DotDims.WF S4x256x8x128 S4x1024x8x128 S4x8x256x1024 [3] [3] [1] [1] [0, 2] [0, 2]
  dot_S4x1024x8x128_S4x8x256x1024_S4x8x128x256_1_3_3_2_02_01_wf : DotDims.WF S4x1024x8x128 S4x8x256x1024 S4x8x128x256 [1] [3] [3] [2] [0, 2] [0, 1]

variable [Facts₀]

def dot_S4x256x1024_S1024x1024_S4x256x1024_2_0_01_1_n_n : DotDims S4x256x1024 S1024x1024 S4x256x1024 where
  lhsContracting := [2]
  rhsContracting := [0]
  lhsNonContracting := [0, 1]
  rhsNonContracting := [1]
  lhsBatch := []
  rhsBatch := []
  wf := dot_S4x256x1024_S1024x1024_S4x256x1024_2_0_01_1_n_n_wf
def dot_S4x256x8x128_S4x1024x8x128_S4x8x256x1024_3_3_1_1_02_02 : DotDims S4x256x8x128 S4x1024x8x128 S4x8x256x1024 where
  lhsContracting := [3]
  rhsContracting := [3]
  lhsNonContracting := [1]
  rhsNonContracting := [1]
  lhsBatch := [0, 2]
  rhsBatch := [0, 2]
  wf := dot_S4x256x8x128_S4x1024x8x128_S4x8x256x1024_3_3_1_1_02_02_wf
def dot_S4x1024x8x128_S4x8x256x1024_S4x8x128x256_1_3_3_2_02_01 : DotDims S4x1024x8x128 S4x8x256x1024 S4x8x128x256 where
  lhsContracting := [1]
  rhsContracting := [3]
  lhsNonContracting := [3]
  rhsNonContracting := [2]
  lhsBatch := [0, 2]
  rhsBatch := [0, 1]
  wf := dot_S4x1024x8x128_S4x8x256x1024_S4x8x128x256_1_3_3_2_02_01_wf

class Facts : Prop extends Facts₀ where

variable [Facts]
-- ==== Proof.Spec.lean ====
/-
  Cross attention with grouped keys and values, over the extended reals: the one function both programs compute.

  For a batch `b`, a query row `i`, a head `h` and a key row `j`, the score is
  `s = (Σ_d q[b,i,h·128+d] · K[b,j,h/4,d]) · scale` with `q = x · Wq`; the head's output at coordinate `d` is
  `(Σ_j V[b,j,h/4,d] · exp s) / (Σ_j exp s)` — the softmax-weighted mean of the value rows, with no shift by a row
  maximum — and the result is the heads' outputs, laid side by side, times `Wo`.
-/
import Idealize.ShloMosaic.PureOps.Ideal
import Idealize.ShloMosaic.Lib.ValueIdx

noncomputable section

open scoped BigOperators

namespace Cert.Attn

open Idealize.ShloMosaic Idealize.ShloMosaic.ValueIdx

/-- The shapes of the whole arrays. -/
abbrev SX : Shape := ⟨3, ![4, 256, 1024]⟩
abbrev SW : Shape := ⟨2, ![1024, 1024]⟩
abbrev SKV : Shape := ⟨4, ![4, 4096, 2, 128]⟩
/-- One device's quarter of the key rows. -/
abbrev SKVb : Shape := ⟨4, ![4, 1024, 2, 128]⟩

/-- The softmax scale, the one binary32 pattern both programs carry. -/
def scale : EReal := Ideal.ofBits .f32 0x3DB504F3#32

/-- Column `h·128 + d` of the 1024 projected columns: head `h`, coordinate `d`. -/
def hd (h : Fin 8) (d : Fin 128) : Fin 1024 := ⟨h.val * 128 + d.val, by omega⟩
/-- The head of a projected column, and its coordinate inside the head. -/
def headOf (n : Fin 1024) : Fin 8 := ⟨n.val / 128, by omega⟩
def coordOf (n : Fin 1024) : Fin 128 := ⟨n.val % 128, Nat.mod_lt _ (by decide)⟩
/-- Four query heads share one key/value head. -/
def kvh (h : Fin 8) : Fin 2 := ⟨h.val / 4, by omega⟩

theorem hd_headOf_coordOf (n : Fin 1024) : hd (headOf n) (coordOf n) = n :=
  Fin.ext (by simp only [hd, headOf, coordOf]; omega)
theorem headOf_hd (h : Fin 8) (d : Fin 128) : headOf (hd h d) = h :=
  Fin.ext (by simp only [hd, headOf]; omega)
theorem coordOf_hd (h : Fin 8) (d : Fin 128) : coordOf (hd h d) = d :=
  Fin.ext (by simp only [hd, coordOf]; omega)

section
variable (x : SX.Idx → EReal) (wq wo : SW.Idx → EReal) (k v : SKV.Idx → EReal)

/-- The projected queries `x · Wq`. -/
def qproj (b : Fin 4) (i : Fin 256) (n : Fin 1024) : EReal := ∑ e : Fin 1024, x (ix3 b i e) * wq (ix2 e n)

/-- The score of key row `j` for query row `i` of head `h`. -/
def score (b : Fin 4) (h : Fin 8) (i : Fin 256) (j : Fin 4096) : EReal :=
  (∑ d : Fin 128, qproj x wq b i (hd h d) * k (ix4 b j (kvh h) d)) * scale

/-- The softmax denominator and numerator, unshifted. -/
def den (b : Fin 4) (h : Fin 8) (i : Fin 256) : EReal := ∑ j : Fin 4096, Ideal.exp (score x wq k b h i j)
def num (b : Fin 4) (h : Fin 8) (i : Fin 256) (d : Fin 128) : EReal :=
  ∑ j : Fin 4096, v (ix4 b j (kvh h) d) * Ideal.exp (score x wq k b h i j)

/-- The attention output, heads side by side. -/
def att (b : Fin 4) (i : Fin 256) (n : Fin 1024) : EReal :=
  Ideal.div (num x wq k v b (headOf n) i (coordOf n)) (den x wq k b (headOf n) i)

/-- The result: the attention output times `Wo`. -/
def G : SX.Idx → EReal := fun t => ∑ n : Fin 1024, att x wq k v (t 0) (t 1) n * wo (ix2 n (t 2))

end

/-- Every entry is a real number. -/
def AllReal {S : Shape} (a : S.Idx → EReal) : Prop := ∀ i, ∃ r : ℝ, a i = (r : EReal)

/-- Device `c`'s quarter of the key (or value) rows: rows `c·1024 … c·1024 + 1023`. -/
def quarter (c : Fin 4) (k : SKV.Idx → EReal) : SKVb.Idx → EReal :=
  fun t => k (ix4 (t 0) ⟨c.val * 1024 + (t 1).val, by have := (t 1).isLt; have := c.isLt; simp only [Matrix.cons_val_one, Matrix.cons_val_zero] at *; omega⟩ (t 2) (t 3))

end Cert.Attn

end
-- ==== Proof.Assembly.lean ====
/-
  The assembly: the certificate's five conjuncts from
  (1) the word-level kernel's frame,
  (2) the idealized kernel's run with its result named by the attention function of the WHOLE arrays
      (each device holding a copy of x, Wq, Wo and its quarter of the key and value rows),
  (3) the reference's frame and its run with the same function as result, for real-valued arguments,
  (4) that the precondition makes every argument real-valued, and that a device's block is its quarter.
  The idealized kernel's frame is (2) with the value dropped; the algebraic conjunct pairs (2) with (3).
-/
import proofs.«900754_g7700000000000755_dist_attn_cross_gqa_kvseq_b4_sq256_skv1024_d1024_hq8_dh128_v7x_i4_f32_1_alg».proof.Defs
import proofs.«900754_g7700000000000755_dist_attn_cross_gqa_kvseq_b4_sq256_skv1024_d1024_hq8_dh128_v7x_i4_f32_1_alg».proof.Proof.Spec
import Idealize.ShloMosaic.Lib.Layout

noncomputable section

namespace Cert.Proof.Assembly

open Idealize.ShloMosaic Idealize.SL.Sem Cert.Attn

variable [hKernel : Cert.Kernel.Facts] [hKernelIdeal : Cert.KernelIdeal.Facts] [hReferenceIdeal : Cert.ReferenceIdeal.Facts]
  [hPK : Cert.Pre_finite_inputs_Kernel.Facts] [hPR : Cert.Pre_finite_inputs_ReferenceIdeal.Facts]

/-- The idealized kernel's run: whatever the devices' buffers hold, every weakly fair execution ends with device `c`'s
    result at `Kout m c`, a function of the launch memory alone, and the arguments unchanged. -/
def KernelRun (Kout : ((ℓ : Loc Cert.KernelIdeal.nD Cert.KernelIdeal.τ Cert.KernelIdeal.sig) → Buf (Elt Ideal) ℓ) → (c : Dev Cert.KernelIdeal.nD) → Buf (Elt Ideal) ((c.tc : Thread Cert.KernelIdeal.nD Cert.KernelIdeal.τ).loc Cert.KernelIdeal.main_v1)) : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Kout m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

/-- The kernel's value: where the devices hold copies of real-valued `x wq wo` and the quarters of real-valued `k v`,
    every device's result is the attention function of the whole arrays. -/
def KernelValue (Kout : ((ℓ : Loc Cert.KernelIdeal.nD Cert.KernelIdeal.τ Cert.KernelIdeal.sig) → Buf (Elt Ideal) ℓ) → (c : Dev Cert.KernelIdeal.nD) → Buf (Elt Ideal) ((c.tc : Thread Cert.KernelIdeal.nD Cert.KernelIdeal.τ).loc Cert.KernelIdeal.main_v1)) : Prop :=
  ∀ (m : (ℓ : Loc Cert.KernelIdeal.nD Cert.KernelIdeal.τ Cert.KernelIdeal.sig) → Buf (Elt Ideal) ℓ)
    (x : SX.Idx → EReal) (wq wo : SW.Idx → EReal) (k v : SKV.Idx → EReal),
    AllReal x → AllReal wq → AllReal wo → AllReal k → AllReal v →
    (∀ c : Dev Cert.KernelIdeal.nD, m ((c.tc : Thread Cert.KernelIdeal.nD Cert.KernelIdeal.τ).loc Cert.KernelIdeal.main_arg0) = x ∧ m ((c.tc : Thread Cert.KernelIdeal.nD Cert.KernelIdeal.τ).loc Cert.KernelIdeal.main_arg1) = wq ∧ m ((c.tc : Thread Cert.KernelIdeal.nD Cert.KernelIdeal.τ).loc Cert.KernelIdeal.main_arg2) = wo
      ∧ m ((c.tc : Thread Cert.KernelIdeal.nD Cert.KernelIdeal.τ).loc Cert.KernelIdeal.main_arg3) = quarter c k ∧ m ((c.tc : Thread Cert.KernelIdeal.nD Cert.KernelIdeal.τ).loc Cert.KernelIdeal.main_arg4) = quarter c v) →
    ∀ c : Dev Cert.KernelIdeal.nD, Kout m c = G x wq wo k v

/-- The reference's run, with values. -/
def RefRun : Prop :=
  ∀ (m' : (ℓ : Loc Cert.ReferenceIdeal.nD Cert.ReferenceIdeal.τ Cert.ReferenceIdeal.sig) → Buf (Elt Ideal) ℓ) (g' : Dev Cert.ReferenceIdeal.nD → PrngReg),
    AllReal (m' (((0 : Dev Cert.ReferenceIdeal.nD).tc : Thread Cert.ReferenceIdeal.nD Cert.ReferenceIdeal.τ).loc Cert.ReferenceIdeal.main_arg0)) → AllReal (m' (((0 : Dev Cert.ReferenceIdeal.nD).tc : Thread Cert.ReferenceIdeal.nD Cert.ReferenceIdeal.τ).loc Cert.ReferenceIdeal.main_arg1)) → AllReal (m' (((0 : Dev Cert.ReferenceIdeal.nD).tc : Thread Cert.ReferenceIdeal.nD Cert.ReferenceIdeal.τ).loc Cert.ReferenceIdeal.main_arg2))
    → AllReal (m' (((0 : Dev Cert.ReferenceIdeal.nD).tc : Thread Cert.ReferenceIdeal.nD Cert.ReferenceIdeal.τ).loc Cert.ReferenceIdeal.main_arg3)) → AllReal (m' (((0 : Dev Cert.ReferenceIdeal.nD).tc : Thread Cert.ReferenceIdeal.nD Cert.ReferenceIdeal.τ).loc Cert.ReferenceIdeal.main_arg4)) →
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v105) = G (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
      ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

/-- The precondition makes each device's five argument buffers real-valued. -/
def ArgsReal : Prop :=
  ∀ (m : (ℓ : Loc Cert.KernelIdeal.nD Cert.KernelIdeal.τ Cert.KernelIdeal.sig) → Buf (Elt Ideal) ℓ), Cert.Pre_KernelIdeal m → ∀ c : Dev Cert.KernelIdeal.nD,
    AllReal (m ((c.tc : Thread Cert.KernelIdeal.nD Cert.KernelIdeal.τ).loc Cert.KernelIdeal.main_arg0)) ∧ AllReal (m ((c.tc : Thread Cert.KernelIdeal.nD Cert.KernelIdeal.τ).loc Cert.KernelIdeal.main_arg1)) ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3)) ∧ AllReal (m ((c.tc : Thread Cert.KernelIdeal.nD Cert.KernelIdeal.τ).loc Cert.KernelIdeal.main_arg4))

/-- A device's block of the key (value) rows is its quarter. -/
def BlockIsQuarter : Prop :=
  ∀ (c : Dev Cert.KernelIdeal.nD) (k : SKV.Idx → EReal), Layout.block ⟨4, ![4, 1024, 2, 128]⟩ ⟨4, ![4, 4096, 2, 128]⟩ 1 4 c k = quarter c k

theorem claim_parts (hB : Cert.frame_Kernel)
    (Kout : ((ℓ : Loc Cert.KernelIdeal.nD Cert.KernelIdeal.τ Cert.KernelIdeal.sig) → Buf (Elt Ideal) ℓ) → (c : Dev Cert.KernelIdeal.nD) → Buf (Elt Ideal) ((c.tc : Thread Cert.KernelIdeal.nD Cert.KernelIdeal.τ).loc Cert.KernelIdeal.main_v1))
    (hK : KernelRun Kout) (hV : KernelValue Kout) (hRf : Cert.frame_ReferenceIdeal) (hR : RefRun)
    (hA : ArgsReal) (hQ : BlockIsQuarter) (hW : ∀ k : SKV.Idx → EReal, (∀ c : Fin 4, AllReal (quarter c k)) → AllReal k) :
    Cert.frame_Kernel ∧ Cert.frame_KernelIdeal ∧ Cert.frame_ReferenceIdeal ∧ Cert.preserves_Kernel_KernelIdeal ∧ Cert.algebraic_KernelIdeal_ReferenceIdeal := by
  refine ⟨hB, fun m g _ => (θ_run _ _ _).mono (fun _ h c => (h c).2) (hK m g), hRf, trivial, ?_⟩
  intro m g m' g' hpre hagree
  have hreal := hA m hpre
  have h0 : AllReal (m' (((0 : Dev Cert.ReferenceIdeal.nD).tc : Thread Cert.ReferenceIdeal.nD Cert.ReferenceIdeal.τ).loc Cert.ReferenceIdeal.main_arg0)) := by rw [← (hagree 0).1]; exact (hreal 0).1
  have h1 : AllReal (m' (((0 : Dev Cert.ReferenceIdeal.nD).tc : Thread Cert.ReferenceIdeal.nD Cert.ReferenceIdeal.τ).loc Cert.ReferenceIdeal.main_arg1)) := by rw [← (hagree 0).2.1]; exact (hreal 0).2.1
  have h2 : AllReal (m' (((0 : Dev Cert.ReferenceIdeal.nD).tc : Thread Cert.ReferenceIdeal.nD Cert.ReferenceIdeal.τ).loc Cert.ReferenceIdeal.main_arg2)) := by rw [← (hagree 0).2.2.1]; exact (hreal 0).2.2.1
  have h3 : AllReal (m' (((0 : Dev Cert.ReferenceIdeal.nD).tc : Thread Cert.ReferenceIdeal.nD Cert.ReferenceIdeal.τ).loc Cert.ReferenceIdeal.main_arg3)) := hW _ fun c => by rw [← hQ c, ← (hagree c).2.2.2.1]; exact (hreal c).2.2.2.1
  have h4 : AllReal (m' (((0 : Dev Cert.ReferenceIdeal.nD).tc : Thread Cert.ReferenceIdeal.nD Cert.ReferenceIdeal.τ).loc Cert.ReferenceIdeal.main_arg4)) := hW _ fun c => by rw [← hQ c, ← (hagree c).2.2.2.2]; exact (hreal c).2.2.2.2
  have hval := hV m _ _ _ _ _ h0 h1 h2 h3 h4 fun c => ⟨(hagree c).1, (hagree c).2.1, (hagree c).2.2.1, by rw [(hagree c).2.2.2.1, hQ], by rw [(hagree c).2.2.2.2, hQ]⟩
  refine ⟨G (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)), ?_, hR m' g' h0 h1 h2 h3 h4⟩
  exact (θ_run _ _ _).mono (fun _ h c => ⟨(h c).1.trans (hval c), (h c).2⟩) (hK m g)

end Cert.Proof.Assembly

end
-- ==== Proof.RefRun.lean ====
/-
  The reference program's run, read back: the frame of the one-device reference is its run with the
  result dropped.
-/
import proofs.«900754_g7700000000000755_dist_attn_cross_gqa_kvseq_b4_sq256_skv1024_d1024_hq8_dh128_v7x_i4_f32_1_alg».proof.Defs
import proofs.«900754_g7700000000000755_dist_attn_cross_gqa_kvseq_b4_sq256_skv1024_d1024_hq8_dh128_v7x_i4_f32_1_alg».proof.Proof.Gen.ReferenceIdeal
import proofs.«900754_g7700000000000755_dist_attn_cross_gqa_kvseq_b4_sq256_skv1024_d1024_hq8_dh128_v7x_i4_f32_1_alg».proof.Proof.Gen.ReferenceIdeal.Run
import proofs.«900754_g7700000000000755_dist_attn_cross_gqa_kvseq_b4_sq256_skv1024_d1024_hq8_dh128_v7x_i4_f32_1_alg».proof.Proof.Gen.ReferenceIdeal.Read
import proofs.«900754_g7700000000000755_dist_attn_cross_gqa_kvseq_b4_sq256_skv1024_d1024_hq8_dh128_v7x_i4_f32_1_alg».proof.Proof.Gen.Pre_finite_inputs_ReferenceIdeal

noncomputable section

open Idealize.ShloMosaic Idealize.ShloMosaic.TcCoe Idealize.SL.Sem

namespace Cert.Proof.Ref

end Cert.Proof.Ref

end
-- ==== Proof.Softmax.lean ====
/-
  The streaming form of softmax attention, over the reals.

  A softmax-weighted mean over 4096 key rows can be accumulated block by block: after block `t` one
  holds the partial sums taken with every weight multiplied by `exp (-M t)`, where `M t` is any real
  shift, and moving to the next block multiplies what was accumulated by `exp (M t - M (t+1))`.  At the
  end both the numerator and the denominator carry the same positive factor `exp (-M 3)`, which cancels
  in the quotient.  This file proves that cancellation, the two regroupings of finite sums the shapes
  need (4096 = 4 · 1024 key rows, 1024 = 8 · 128 projected columns), and the closure facts saying that
  the quantities built from real inputs are real.
-/
import proofs.«900754_g7700000000000755_dist_attn_cross_gqa_kvseq_b4_sq256_skv1024_d1024_hq8_dh128_v7x_i4_f32_1_alg».proof.Proof.Spec
import Idealize.ShloMosaic.PureOps.Ideal
import Mathlib.Data.EReal.Operations
import Mathlib.Data.EReal.Inv
import Mathlib.Analysis.SpecialFunctions.Exp
import Mathlib.Algebra.BigOperators.Fin
import Mathlib.Data.Finset.Lattice.Fold
import Mathlib.Tactic.FieldSimp
import Mathlib.Tactic.Ring
import Mathlib.Tactic.LinearCombination

noncomputable section

open scoped BigOperators

namespace Cert.Attn

open Idealize.ShloMosaic Idealize.ShloMosaic.ValueIdx

/-! ### Regrouping finite sums -/

/-- Key row `r` of block `t`. -/
def row (t : Fin 4) (r : Fin 1024) : Fin 4096 := ⟨t.val * 1024 + r.val, by omega⟩

/-- A key row is a block and a row inside the block. -/
def rowEquiv : Fin 4 × Fin 1024 ≃ Fin 4096 where
  toFun p := row p.1 p.2
  invFun j := (⟨j.val / 1024, by omega⟩, ⟨j.val % 1024, Nat.mod_lt _ (by decide)⟩)
  left_inv p := by
    obtain ⟨t, r⟩ := p
    refine Prod.ext (Fin.ext ?_) (Fin.ext ?_) <;> simp only [row] <;> omega
  right_inv j := Fin.ext (by simp only [row]; omega)

/-- A projected column is a head and a coordinate inside the head. -/
def hdEquiv : Fin 8 × Fin 128 ≃ Fin 1024 where
  toFun p := hd p.1 p.2
  invFun n := (headOf n, coordOf n)
  left_inv p := Prod.ext (headOf_hd p.1 p.2) (coordOf_hd p.1 p.2)
  right_inv n := hd_headOf_coordOf n

theorem sum_rows {M : Type*} [AddCommMonoid M] (f : Fin 4096 → M) :
    ∑ j : Fin 4096, f j = ∑ t : Fin 4, ∑ r : Fin 1024, f (row t r) := by
  rw [← Fintype.sum_prod_type' (f := fun t r => f (row t r))]
  exact (Fintype.sum_equiv rowEquiv (fun p => f (row p.1 p.2)) f (fun _ => rfl)).symm

theorem sum_hd {M : Type*} [AddCommMonoid M] (f : Fin 1024 → M) :
    ∑ n : Fin 1024, f n = ∑ h : Fin 8, ∑ d : Fin 128, f (hd h d) := by
  rw [← Fintype.sum_prod_type' (f := fun h d => f (hd h d))]
  exact (Fintype.sum_equiv hdEquiv (fun p => f (hd p.1 p.2)) f (fun _ => rfl)).symm

/-! ### Reals inside the extended reals -/

/-- The inclusion of the reals commutes with finite sums. -/
theorem coe_sum {ι : Type*} (a : Finset ι) (f : ι → ℝ) :
    ((∑ i ∈ a, f i : ℝ) : EReal) = ∑ i ∈ a, (f i : EReal) := by
  classical
  induction a using Finset.induction_on with
  | empty => simp
  | insert i a hi ih => rw [Finset.sum_insert hi, Finset.sum_insert hi, EReal.coe_add, ih]

theorem add_real {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

theorem mul_real {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

theorem sub_real {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

theorem exp_real {x : EReal} (hx : ∃ r : ℝ, x = (r : EReal)) : ∃ r : ℝ, Ideal.exp x = (r : EReal) := by
  obtain ⟨a, rfl⟩ := hx
  exact ⟨Real.exp a, rfl⟩

theorem max_real2 {x y : EReal} (hx : ∃ r : ℝ, x = (r : EReal)) (hy : ∃ r : ℝ, y = (r : EReal)) :
    ∃ r : ℝ, max x y = (r : EReal) := by
  rcases max_choice x y with h | h <;> rw [h] <;> assumption

theorem sum_real {ι : Type*} [Fintype ι] (f : ι → EReal) (hf : ∀ i, ∃ r : ℝ, f i = (r : EReal)) :
    ∃ r : ℝ, ∑ i, f i = (r : EReal) := by
  choose g hg using hf
  exact ⟨∑ i, g i, by rw [coe_sum]; exact Finset.sum_congr rfl (fun i _ => hg i)⟩

/-- A real divided, as extended reals, by a nonzero real is a real. -/
theorem div_real {x y : EReal} (hx : ∃ r : ℝ, x = (r : EReal)) (hy : ∃ r : ℝ, y = (r : EReal) ∧ r ≠ 0) :
    ∃ r : ℝ, Ideal.div x y = (r : EReal) := by
  obtain ⟨a, rfl⟩ := hx; obtain ⟨b, rfl, hb⟩ := hy
  exact ⟨a * (1 / b), by rw [Ideal.div_coe hb, EReal.coe_mul]⟩

/-- a running maximum of finitely many reals, started from ⊥ over a nonempty family, is a real -/
theorem max_real {ι : Type*} [Fintype ι] [Nonempty ι] (f : ι → EReal) (hf : ∀ i, ∃ r : ℝ, f i = (r : EReal)) :
    ∃ r : ℝ, (Finset.univ.sup f) = (r : EReal) := by
  obtain ⟨i, -, hi⟩ := Finset.exists_mem_eq_sup Finset.univ Finset.univ_nonempty f
  rw [hi]; exact hf i

/-- The running maximum of a list of reals started from a real is a real. -/
theorem foldl_max_real_of_real (l : List EReal) (hl : ∀ x ∈ l, ∃ r : ℝ, x = (r : EReal)) (a : EReal)
    (ha : ∃ r : ℝ, a = (r : EReal)) : ∃ r : ℝ, l.foldl max a = (r : EReal) := by
  induction l generalizing a with
  | nil => exact ha
  | cons x l ih =>
    rw [List.foldl_cons]
    exact ih (fun y hy => hl y (List.mem_cons_of_mem _ hy)) _ (max_real2 ha (hl x List.mem_cons_self))

/-- The running maximum of a nonempty list of reals started from `⊥` is a real. -/
theorem foldl_max_real (l : List EReal) (hne : l ≠ []) (hl : ∀ x ∈ l, ∃ r : ℝ, x = (r : EReal)) :
    ∃ r : ℝ, l.foldl max ⊥ = (r : EReal) := by
  cases l with
  | nil => exact absurd rfl hne
  | cons x l =>
    rw [List.foldl_cons, max_eq_right bot_le]
    exact foldl_max_real_of_real l (fun y hy => hl y (List.mem_cons_of_mem _ hy)) x (hl x List.mem_cons_self)

/-! ### The streaming recurrence -/

section
variable (s w : Fin 4096 → EReal) (M : Fin 4 → EReal)
/-- The shifted weight of key row `r` of block `t`. -/
def P (t : Fin 4) (r : Fin 1024) : EReal := Ideal.exp (s (row t r) - M t)
def L0 : EReal := (0 : EReal) * Ideal.exp ((⊥ : EReal) - M 0) + ∑ r : Fin 1024, P s M 0 r
def L1 : EReal := L0 s M * Ideal.exp (M 0 - M 1) + ∑ r : Fin 1024, P s M 1 r
def L2 : EReal := L1 s M * Ideal.exp (M 1 - M 2) + ∑ r : Fin 1024, P s M 2 r
def L3 : EReal := L2 s M * Ideal.exp (M 2 - M 3) + ∑ r : Fin 1024, P s M 3 r
def O0 : EReal := (0 : EReal) * Ideal.exp ((⊥ : EReal) - M 0) + ∑ r : Fin 1024, w (row 0 r) * P s M 0 r
def O1 : EReal := O0 s w M * Ideal.exp (M 0 - M 1) + ∑ r : Fin 1024, w (row 1 r) * P s M 1 r
def O2 : EReal := O1 s w M * Ideal.exp (M 1 - M 2) + ∑ r : Fin 1024, w (row 2 r) * P s M 2 r
def O3 : EReal := O2 s w M * Ideal.exp (M 2 - M 3) + ∑ r : Fin 1024, w (row 3 r) * P s M 3 r
end

section
variable (sr wr : Fin 4096 → ℝ) (Mr : Fin 4 → ℝ)

/-- A shifted weight is the unshifted one times `exp (-M t)`. -/
theorem P_coe (t : Fin 4) (r : Fin 1024) :
    P (fun j => (sr j : EReal)) (fun t => (Mr t : EReal)) t r
      = ((Real.exp (-Mr t) * Real.exp (sr (row t r)) : ℝ) : EReal) := by
  simp only [P]
  rw [← EReal.coe_sub, Ideal.exp_coe, sub_eq_neg_add, Real.exp_add]

/-- The shifted weights of a block sum to `exp (-M t)` times the block's unshifted sum. -/
theorem sumP_coe (t : Fin 4) :
    ∑ r : Fin 1024, P (fun j => (sr j : EReal)) (fun t => (Mr t : EReal)) t r
      = ((Real.exp (-Mr t) * ∑ r : Fin 1024, Real.exp (sr (row t r)) : ℝ) : EReal) := by
  simp only [P_coe]
  rw [← coe_sum, Finset.mul_sum]

theorem sumWP_coe (t : Fin 4) :
    ∑ r : Fin 1024, (wr (row t r) : EReal) * P (fun j => (sr j : EReal)) (fun t => (Mr t : EReal)) t r
      = ((Real.exp (-Mr t) * ∑ r : Fin 1024, wr (row t r) * Real.exp (sr (row t r)) : ℝ) : EReal) := by
  simp only [P_coe, ← EReal.coe_mul]
  rw [← coe_sum, Finset.mul_sum]
  congr 1
  exact Finset.sum_congr rfl (fun r _ => by ring)

end

/-- One step of the recurrence: rescaling what was accumulated under the shift `a` to the shift `b`
    and adding a block taken under the shift `b` gives the longer sum under the shift `b`. -/
theorem step (a b X Y : ℝ) :
    ((Real.exp (-a) * X : ℝ) : EReal) * Ideal.exp ((a : EReal) - (b : EReal)) + ((Real.exp (-b) * Y : ℝ) : EReal)
      = ((Real.exp (-b) * (X + Y) : ℝ) : EReal) := by
  rw [← EReal.coe_sub, Ideal.exp_coe, ← EReal.coe_mul, ← EReal.coe_add]
  congr 1
  have h : Real.exp (-a) * Real.exp (a - b) = Real.exp (-b) := by
    rw [← Real.exp_add]; congr 1; ring
  linear_combination X * h

/-- Four steps, started from nothing: the whole sum under the last shift. -/
theorem chain (Mr X : Fin 4 → ℝ) :
    ((((0 : EReal) * Ideal.exp ((⊥ : EReal) - (Mr 0 : EReal)) + ((Real.exp (-Mr 0) * X 0 : ℝ) : EReal))
          * Ideal.exp ((Mr 0 : EReal) - (Mr 1 : EReal)) + ((Real.exp (-Mr 1) * X 1 : ℝ) : EReal))
        * Ideal.exp ((Mr 1 : EReal) - (Mr 2 : EReal)) + ((Real.exp (-Mr 2) * X 2 : ℝ) : EReal))
      * Ideal.exp ((Mr 2 : EReal) - (Mr 3 : EReal)) + ((Real.exp (-Mr 3) * X 3 : ℝ) : EReal)
      = ((Real.exp (-Mr 3) * (X 0 + X 1 + X 2 + X 3) : ℝ) : EReal) := by
  rw [EReal.bot_sub, Ideal.exp_bot, mul_zero, zero_add, step, step, step]

theorem L3_coe (sr : Fin 4096 → ℝ) (Mr : Fin 4 → ℝ) :
    L3 (fun j => (sr j : EReal)) (fun t => (Mr t : EReal))
      = ((Real.exp (-Mr 3) * ∑ j : Fin 4096, Real.exp (sr j) : ℝ) : EReal) := by
  rw [sum_rows (fun j => Real.exp (sr j)), Fin.sum_univ_four]
  simp only [L3, L2, L1, L0, sumP_coe]
  exact chain Mr (fun t => ∑ r : Fin 1024, Real.exp (sr (row t r)))

theorem O3_coe (sr wr : Fin 4096 → ℝ) (Mr : Fin 4 → ℝ) :
    O3 (fun j => (sr j : EReal)) (fun j => (wr j : EReal)) (fun t => (Mr t : EReal))
      = ((Real.exp (-Mr 3) * ∑ j : Fin 4096, wr j * Real.exp (sr j) : ℝ) : EReal) := by
  rw [sum_rows (fun j => wr j * Real.exp (sr j)), Fin.sum_univ_four]
  simp only [O3, O2, O1, O0, sumWP_coe]
  exact chain Mr (fun t => ∑ r : Fin 1024, wr (row t r) * Real.exp (sr (row t r)))

/-- The streaming recurrence computes the softmax-weighted mean: the common factor `exp (-M 3)` of the
    accumulated numerator and denominator cancels in the quotient. -/
theorem online (s w : Fin 4096 → EReal) (M : Fin 4 → EReal) (hs : ∀ j, ∃ r : ℝ, s j = (r : EReal))
    (hw : ∀ j, ∃ r : ℝ, w j = (r : EReal)) (hM : ∀ t, ∃ r : ℝ, M t = (r : EReal)) :
    Ideal.div (O3 s w M) (L3 s M)
      = Ideal.div (∑ j : Fin 4096, w j * Ideal.exp (s j)) (∑ j : Fin 4096, Ideal.exp (s j)) := by
  choose sr hsr using hs
  choose wr hwr using hw
  choose Mr hMr using hM
  obtain rfl : s = fun j => (sr j : EReal) := funext hsr
  obtain rfl : w = fun j => (wr j : EReal) := funext hwr
  obtain rfl : M = fun t => (Mr t : EReal) := funext hMr
  rw [L3_coe, O3_coe]
  simp only [Ideal.exp_coe, ← EReal.coe_mul]
  rw [← coe_sum, ← coe_sum]
  have hD : 0 < ∑ j : Fin 4096, Real.exp (sr j) :=
    Finset.sum_pos (fun j _ => Real.exp_pos _) Finset.univ_nonempty
  have he : 0 < Real.exp (-Mr 3) := Real.exp_pos _
  rw [Ideal.div_coe (mul_pos he hD).ne', Ideal.div_coe hD.ne', ← EReal.coe_mul, ← EReal.coe_mul]
  congr 1
  field_simp

/-! ### The scale inside or outside the contraction, and closure of the specification -/

/-- Scaling the projected query before the contraction with a key row, or scaling the contraction. -/
theorem scale_in (q k : Fin 128 → EReal) (c : EReal) (hq : ∀ d, ∃ r : ℝ, q d = (r : EReal))
    (hk : ∀ d, ∃ r : ℝ, k d = (r : EReal)) (hc : ∃ r : ℝ, c = (r : EReal)) :
    ∑ d, (q d * c) * k d = (∑ d, q d * k d) * c := by
  choose qr hqr using hq
  choose kr hkr using hk
  obtain ⟨cr, rfl⟩ := hc
  obtain rfl : q = fun d => (qr d : EReal) := funext hqr
  obtain rfl : k = fun d => (kr d : EReal) := funext hkr
  simp only [← EReal.coe_mul]
  rw [← coe_sum, ← coe_sum, ← EReal.coe_mul, Finset.sum_mul]
  congr 1
  exact Finset.sum_congr rfl (fun d _ => by ring)

/-- The softmax scale is a finite binary32 pattern: its exponent field is neither all ones nor zero. -/
theorem scale_real : ∃ r : ℝ, scale = (r : EReal) := by
  simp only [scale, Ideal.ofBits, Ideal.ieee]
  rw [if_neg (by decide), if_neg (by decide)]
  exact ⟨_, rfl⟩

theorem qproj_real {x : SX.Idx → EReal} {wq : SW.Idx → EReal} (hx : AllReal x) (hwq : AllReal wq)
    (b : Fin 4) (i : Fin 256) (n : Fin 1024) : ∃ r : ℝ, qproj x wq b i n = (r : EReal) :=
  sum_real _ (fun e => mul_real (hx (ix3 b i e)) (hwq (ix2 e n)))

theorem score_real {x : SX.Idx → EReal} {wq : SW.Idx → EReal} {k : SKV.Idx → EReal} (hx : AllReal x)
    (hwq : AllReal wq) (hk : AllReal k) (b : Fin 4) (h : Fin 8) (i : Fin 256) (j : Fin 4096) :
    ∃ r : ℝ, score x wq k b h i j = (r : EReal) :=
  mul_real (sum_real _ (fun d => mul_real (qproj_real hx hwq b i (hd h d)) (hk (ix4 b j (kvh h) d)))) scale_real

/-- The recurrence run on the scores of one query row and one head, weighted by one coordinate of the
    value rows, gives that coordinate of the head's attention output, whatever real shifts are used. -/
theorem online_att {x : SX.Idx → EReal} {wq : SW.Idx → EReal} {k v : SKV.Idx → EReal} (hx : AllReal x)
    (hwq : AllReal wq) (hk : AllReal k) (hv : AllReal v) (b : Fin 4) (h : Fin 8) (i : Fin 256) (d : Fin 128)
    (M : Fin 4 → EReal) (hM : ∀ t, ∃ r : ℝ, M t = (r : EReal)) :
    Ideal.div (O3 (fun j => score x wq k b h i j) (fun j => v (ix4 b j (kvh h) d)) M)
        (L3 (fun j => score x wq k b h i j) M)
      = Ideal.div (num x wq k v b h i d) (den x wq k b h i) :=
  online _ _ M (fun j => score_real hx hwq hk b h i j) (fun j => hv (ix4 b j (kvh h) d)) hM

end Cert.Attn

end
-- ==== Proof.RefValue.lean ====
/-
  The one-device reference program's value: its result array is the attention function `Cert.Attn.G` of its five
  argument arrays, whenever those hold real numbers.

  The program projects the queries (`x · Wq`), cuts the 1024 projected columns into 8 heads of 128 coordinates
  (column h·128 + d is head h, coordinate d), and repeats each of the 2 key and value heads four times, so that query
  head h reads key/value head h / 4. It then walks the 4096 key rows in four blocks of 1024 rows. With s(j) the scaled
  score of key row j and M(t) the largest score met up to and including block t (M(−1) = −∞), block t turns the running
  denominator l and the running numerator o into

      l ← l · exp (M(t−1) − M(t)) + Σ_r exp (s(t·1024 + r) − M(t))
      o ← o · exp (M(t−1) − M(t)) + Σ_r V(t·1024 + r) · exp (s(t·1024 + r) − M(t))

  starting from l = o = 0. Each M(t) is a maximum of finitely many real scores, hence a real number, and for real
  shifts the final quotient o / l is the unshifted quotient (Σ_j V(j) · exp s(j)) / (Σ_j exp s(j)): every factor
  exp (−M(t)) cancels (`Cert.Attn.online`). The heads are then laid side by side again and multiplied by `Wo`.

  The text below reads each stage of the program at an index with explicit coordinates: first the projections and the
  repeated heads, then the four blocks one after the other (for each: the slice of key rows, the scores, the block's
  maximum, the running maximum, the rescaling factor, the shifted exponentials, the running denominator and the
  running numerator), and last the quotient, the merge of the heads and the output projection.
-/
import proofs.«900754_g7700000000000755_dist_attn_cross_gqa_kvseq_b4_sq256_skv1024_d1024_hq8_dh128_v7x_i4_f32_1_alg».proof.Proof.RefRun
import proofs.«900754_g7700000000000755_dist_attn_cross_gqa_kvseq_b4_sq256_skv1024_d1024_hq8_dh128_v7x_i4_f32_1_alg».proof.Proof.Spec
import proofs.«900754_g7700000000000755_dist_attn_cross_gqa_kvseq_b4_sq256_skv1024_d1024_hq8_dh128_v7x_i4_f32_1_alg».proof.Proof.Softmax

noncomputable section

open scoped BigOperators
open Idealize.ShloMosaic Idealize.ShloMosaic.TcCoe Idealize.SL.Sem Idealize.ShloMosaic.ValueIdx

namespace Cert.Proof.Ref

open Cert.ReferenceIdeal Cert.ReferenceIdeal.Gen Cert.ReferenceIdeal.Read Cert.Attn

/-! ## The program's stages, read at an index -/

namespace Stage
/-- The literal every running maximum starts from is −∞. -/
theorem negInf : Ideal.ofBits .f32 0xFF800000#32 = (⊥ : EReal) := by simp [Ideal.ofBits, Ideal.ieee]

local macro "ix4rfl" : tactic =>
  `(tactic| (funext a; match a with | ⟨0, _⟩ => rfl | ⟨1, _⟩ => rfl | ⟨2, _⟩ => rfl | ⟨3, _⟩ => rfl))
local macro "ix3rfl" : tactic =>
  `(tactic| (funext a; match a with | ⟨0, _⟩ => rfl | ⟨1, _⟩ => rfl | ⟨2, _⟩ => rfl))

section
variable (x : SX.Idx → EReal) (wq wo : SW.Idx → EReal) (k v : SKV.Idx → EReal)

theorem idx_v1 (b : Fin 4) (i : Fin 256) (h : Fin 8) (d : Fin 128) :
    idx_main_v1 (ix4 b i h d) = ix3 b i (hd h d) := by
  have := b.isLt; have := i.isLt; have := h.isLt; have := d.isLt
  funext a
  match a with
  | ⟨0, _⟩ => exact Fin.ext (show (((b.val * 256 + i.val) * 8 + h.val) * 128 + d.val) / 262144 = b.val by omega)
  | ⟨1, _⟩ => exact Fin.ext (show (((b.val * 256 + i.val) * 8 + h.val) * 128 + d.val) / 1024 % 256 = i.val by omega)
  | ⟨2, _⟩ => exact Fin.ext (show (((b.val * 256 + i.val) * 8 + h.val) * 128 + d.val) % 1024 = h.val * 128 + d.val by omega)

theorem q_at (b : Fin 4) (i : Fin 256) (h : Fin 8) (d : Fin 128) :
    val_main_v1 (F := Ideal) x wq (ix4 b i h d) = qproj x wq b i (hd h d) := by
  rw [val_main_v1_apply, idx_v1, val_main_v0_apply]
  refine Finset.sum_congr rfl fun e _ => ?_
  congr 2
  · ix3rfl
  · funext a; match a with | ⟨0, _⟩ => rfl | ⟨1, _⟩ => rfl

theorem idx_v3 (b : Fin 4) (j : Fin 4096) (h : Fin 8) (d : Fin 128) :
    idx_main_v2 (idx_main_v3 (ix4 b j h d)) = ix4 b j (kvh h) d := by
  have := b.isLt; have := j.isLt; have := h.isLt; have := d.isLt
  funext a
  match a with
  | ⟨0, _⟩ => exact Fin.ext (show (((b.val * 4096 + j.val) * 8 + h.val) * 128 + d.val) / 4194304 = b.val by omega)
  | ⟨1, _⟩ => exact Fin.ext (show (((b.val * 4096 + j.val) * 8 + h.val) * 128 + d.val) / 1024 % 4096 = j.val by omega)
  | ⟨2, _⟩ => exact Fin.ext (show (((b.val * 4096 + j.val) * 8 + h.val) * 128 + d.val) / 512 % 2 = h.val / 4 by omega)
  | ⟨3, _⟩ => exact Fin.ext (show (((b.val * 4096 + j.val) * 8 + h.val) * 128 + d.val) % 128 = d.val by omega)

theorem idx_v5 (b : Fin 4) (j : Fin 4096) (h : Fin 8) (d : Fin 128) :
    idx_main_v4 (idx_main_v5 (ix4 b j h d)) = ix4 b j (kvh h) d := by
  have := b.isLt; have := j.isLt; have := h.isLt; have := d.isLt
  funext a
  match a with
  | ⟨0, _⟩ => exact Fin.ext (show (((b.val * 4096 + j.val) * 8 + h.val) * 128 + d.val) / 4194304 = b.val by omega)
  | ⟨1, _⟩ => exact Fin.ext (show (((b.val * 4096 + j.val) * 8 + h.val) * 128 + d.val) / 1024 % 4096 = j.val by omega)
  | ⟨2, _⟩ => exact Fin.ext (show (((b.val * 4096 + j.val) * 8 + h.val) * 128 + d.val) / 512 % 2 = h.val / 4 by omega)
  | ⟨3, _⟩ => exact Fin.ext (show (((b.val * 4096 + j.val) * 8 + h.val) * 128 + d.val) % 128 = d.val by omega)

theorem k8_at (b : Fin 4) (j : Fin 4096) (h : Fin 8) (d : Fin 128) :
    val_main_v3 (F := Ideal) k (ix4 b j h d) = k (ix4 b j (kvh h) d) := by
  rw [val_main_v3_apply, val_main_v2_apply, idx_v3]

theorem v8_at (b : Fin 4) (j : Fin 4096) (h : Fin 8) (d : Fin 128) :
    val_main_v5 (F := Ideal) v (ix4 b j h d) = v (ix4 b j (kvh h) d) := by
  rw [val_main_v5_apply, val_main_v4_apply, idx_v5]

theorem lift_ix (hr : S4x8x256x1024.Reduces [3] S4x8x256) (b : Fin 4) (h : Fin 8) (i : Fin 256) (r : Fin 1024) :
    hr.lift (ix3 b h i) r = ix4 b h i r := by
  funext a; apply Fin.ext
  match a with | ⟨0, _⟩ => rfl | ⟨1, _⟩ => rfl | ⟨2, _⟩ => rfl | ⟨3, _⟩ => rfl

/-- The largest score of query row i, head h, among the 1024 key rows of block t. -/
def bm (t : Fin 4) (b : Fin 4) (h : Fin 8) (i : Fin 256) : EReal :=
  Finset.univ.sup fun r : Fin 1024 => score x wq k b h i (row t r)

/-- The running maxima after each of the four blocks. -/
def Mrun (b : Fin 4) (h : Fin 8) (i : Fin 256) : Fin 4 → EReal :=
  ![bm x wq k 0 b h i,
    max (bm x wq k 0 b h i) (bm x wq k 1 b h i),
    max (max (bm x wq k 0 b h i) (bm x wq k 1 b h i)) (bm x wq k 2 b h i),
    max (max (max (bm x wq k 0 b h i) (bm x wq k 1 b h i)) (bm x wq k 2 b h i)) (bm x wq k 3 b h i)]

/-- A maximum-reduce over the key rows of a block, from −∞, is the supremum of the block's scores. -/
theorem max_reduce (S : S4x8x256x1024.Idx → EReal) (f : Fin 1024 → EReal) (b : Fin 4) (h : Fin 8) (i : Fin 256)
    (hS : ∀ r, S (ix4 b h i r) = f r) :
    Host.reduce (FloatOps.maximumf (F := Ideal) (φ := .f32)) S (constant (F := Ideal) S_ .f32 0xFF800000#32)
      reducesTo_S4x8x256x1024_S4x8x256_d3 h_S_ (ix3 b h i) = Finset.univ.sup f := by
  have hr : S4x8x256x1024.Reduces [3] S4x8x256 := by decide
  rw [Host.reduce_eq_fold_single FloatOps.maximumf _ _ reducesTo_S4x8x256x1024_S4x8x256_d3 hr h_S_]
  show (Finset.univ : Finset (Fin 1024)).fold max (Ideal.ofBits .f32 0xFF800000#32) _ = _
  rw [negInf]
  exact congrArg (fun g => Finset.fold max (⊥ : EReal) g (Finset.univ : Finset (Fin 1024)))
    (funext fun r => (congrArg S (lift_ix hr b h i r)).trans (hS r))

/-! ### Block 0: key rows 0 … 1023 -/

theorem i9 (b : Fin 4) (r : Fin 1024) (h : Fin 8) (d : Fin 128) : idx_main_v9 (ix4 b r h d) = ix4 b (row 0 r) h d := by
  funext a
  match a with
  | ⟨0, _⟩ => rfl
  | ⟨1, _⟩ => exact Fin.ext (show r.val = 0 * 1024 + r.val by omega)
  | ⟨2, _⟩ => rfl
  | ⟨3, _⟩ => rfl
theorem i10 (b : Fin 4) (r : Fin 1024) (h : Fin 8) (d : Fin 128) : idx_main_v10 (ix4 b r h d) = ix4 b (row 0 r) h d := by
  funext a
  match a with
  | ⟨0, _⟩ => rfl
  | ⟨1, _⟩ => exact Fin.ext (show r.val = 0 * 1024 + r.val by omega)
  | ⟨2, _⟩ => rfl
  | ⟨3, _⟩ => rfl
theorem il11 (b : Fin 4) (h : Fin 8) (i : Fin 256) (r : Fin 1024) (d : Fin 128) : lidx_main_v11 (ix4 b h i r) d = ix4 b i h d := by ix4rfl
theorem ir11 (b : Fin 4) (h : Fin 8) (i : Fin 256) (r : Fin 1024) (d : Fin 128) : ridx_main_v11 (ix4 b h i r) d = ix4 b r h d := by ix4rfl
theorem i15 (b : Fin 4) (h : Fin 8) (i : Fin 256) : idx_main_v15 (ix4 b h i 0) = ix3 b h i := by ix3rfl
theorem i19 (b : Fin 4) (h : Fin 8) (i : Fin 256) (r : Fin 1024) : idx_main_v19 (ix4 b h i r) = ix4 b h i 0 := by ix4rfl
theorem i23 (b : Fin 4) (h : Fin 8) (i : Fin 256) (r : Fin 1024) : idx_main_v23 (ix3 b h i) r = ix4 b h i r := by ix4rfl
theorem i24 (b : Fin 4) (h : Fin 8) (i : Fin 256) : idx_main_v24 (ix4 b h i 0) = ix3 b h i := by ix3rfl
theorem i26 (b : Fin 4) (i : Fin 256) (h : Fin 8) : idx_main_v26 (ix4 b i h 0) = ix4 b h i 0 := by ix4rfl
theorem i27 (b : Fin 4) (i : Fin 256) (h : Fin 8) (d : Fin 128) : idx_main_v27 (ix4 b i h d) = ix4 b i h 0 := by ix4rfl
theorem il29 (b : Fin 4) (h : Fin 8) (d : Fin 128) (i : Fin 256) (r : Fin 1024) : lidx_main_v29 (ix4 b h d i) r = ix4 b r h d := by ix4rfl
theorem ir29 (b : Fin 4) (h : Fin 8) (d : Fin 128) (i : Fin 256) (r : Fin 1024) : ridx_main_v29 (ix4 b h d i) r = ix4 b h i r := by ix4rfl
theorem i30 (b : Fin 4) (i : Fin 256) (h : Fin 8) (d : Fin 128) : idx_main_v30 (ix4 b i h d) = ix4 b h d i := by ix4rfl

theorem ks0_at (b : Fin 4) (r : Fin 1024) (h : Fin 8) (d : Fin 128) :
    val_main_v9 (F := Ideal) k (ix4 b r h d) = k (ix4 b (row 0 r) (kvh h) d) := by
  rw [val_main_v9_apply, i9, k8_at]
theorem vs0_at (b : Fin 4) (r : Fin 1024) (h : Fin 8) (d : Fin 128) :
    val_main_v10 (F := Ideal) v (ix4 b r h d) = v (ix4 b (row 0 r) (kvh h) d) := by
  rw [val_main_v10_apply, i10, v8_at]

theorem s0_at (b : Fin 4) (h : Fin 8) (i : Fin 256) (r : Fin 1024) :
    val_main_v13 (F := Ideal) x wq k (ix4 b h i r) = score x wq k b h i (row 0 r) := by
  rw [val_main_v13_apply, val_main_v11_apply, val_main_v12_apply, val_main_cst_2_apply]
  unfold score
  refine congrArg (· * scale) (Finset.sum_congr rfl fun d _ => ?_)
  rw [il11, ir11, q_at, ks0_at]

theorem M0_at (b : Fin 4) (h : Fin 8) (i : Fin 256) :
    val_main_v16 (F := Ideal) x wq k (ix4 b h i 0) = Mrun x wq k b h i 0 := by
  rw [val_main_v16_apply, val_main_v7_apply, val_main_cst_0_apply, val_main_v15_apply, i15]
  unfold val_main_v14 val_main_cst_3
  rw [max_reduce _ _ b h i (s0_at x wq k b h i)]
  simp only [Ideal.maximumf_def, Ideal.ofBits_def, negInf, max_bot_left]
  rfl

theorem a0_at (b : Fin 4) (h : Fin 8) (i : Fin 256) :
    val_main_v18 (F := Ideal) x wq k (ix4 b h i 0) = Ideal.exp ((⊥ : EReal) - Mrun x wq k b h i 0) := by
  rw [val_main_v18_apply, val_main_v17_apply, val_main_v7_apply, val_main_cst_0_apply, M0_at]
  simp only [Ideal.hostUnary_exp_def, Ideal.subf_def, Ideal.ofBits_def, negInf]

theorem p0_at (b : Fin 4) (h : Fin 8) (i : Fin 256) (r : Fin 1024) :
    val_main_v21 (F := Ideal) x wq k (ix4 b h i r)
      = Ideal.exp (score x wq k b h i (row 0 r) - Mrun x wq k b h i 0) := by
  rw [val_main_v21_apply, val_main_v20_apply, s0_at, val_main_v19_apply, i19, M0_at]
  simp only [Ideal.hostUnary_exp_def, Ideal.subf_def]

theorem l0_at (b : Fin 4) (h : Fin 8) (i : Fin 256) :
    val_main_v25 (F := Ideal) x wq k (ix4 b h i 0) = L0 (score x wq k b h i) (Mrun x wq k b h i) := by
  rw [val_main_v25_apply, val_main_v22_apply, val_main_v8_apply, val_main_cst_1_apply, a0_at, val_main_v24_apply, i24,
    val_main_v23_apply, val_main_cst_4_apply]
  simp only [Ideal.addf_def, Ideal.mulf_def, Ideal.ofBits_def, Ideal.ofBits_zero_f32, zero_add]
  unfold L0 P
  refine congrArg (_ + ·) (Finset.sum_congr rfl fun r _ => ?_)
  rw [i23, p0_at]

theorem o0_at (b : Fin 4) (i : Fin 256) (h : Fin 8) (d : Fin 128) :
    val_main_v31 (F := Ideal) x wq k v (ix4 b i h d)
      = O0 (score x wq k b h i) (fun j => v (ix4 b j (kvh h) d)) (Mrun x wq k b h i) := by
  rw [val_main_v31_apply, val_main_v28_apply, val_main_v6_apply, val_main_cst_apply, val_main_v27_apply, i27,
    val_main_v26_apply, i26, a0_at, val_main_v30_apply, i30, val_main_v29_apply]
  simp only [Ideal.addf_def, Ideal.mulf_def, Ideal.ofBits_def, Ideal.ofBits_zero_f32]
  unfold O0 P
  refine congrArg (_ + ·) (Finset.sum_congr rfl fun r _ => ?_)
  rw [il29, ir29, vs0_at, p0_at]

/-! ### Block 1: key rows 1024 … 2047 -/

theorem i32 (b : Fin 4) (r : Fin 1024) (h : Fin 8) (d : Fin 128) : idx_main_v32 (ix4 b r h d) = ix4 b (row 1 r) h d := by
  funext a
  match a with
  | ⟨0, _⟩ => rfl
  | ⟨1, _⟩ => exact Fin.ext (show 1024 + r.val = 1 * 1024 + r.val by omega)
  | ⟨2, _⟩ => rfl
  | ⟨3, _⟩ => rfl
theorem i33 (b : Fin 4) (r : Fin 1024) (h : Fin 8) (d : Fin 128) : idx_main_v33 (ix4 b r h d) = ix4 b (row 1 r) h d := by
  funext a
  match a with
  | ⟨0, _⟩ => rfl
  | ⟨1, _⟩ => exact Fin.ext (show 1024 + r.val = 1 * 1024 + r.val by omega)
  | ⟨2, _⟩ => rfl
  | ⟨3, _⟩ => rfl
theorem il34 (b : Fin 4) (h : Fin 8) (i : Fin 256) (r : Fin 1024) (d : Fin 128) : lidx_main_v34 (ix4 b h i r) d = ix4 b i h d := by ix4rfl
theorem ir34 (b : Fin 4) (h : Fin 8) (i : Fin 256) (r : Fin 1024) (d : Fin 128) : ridx_main_v34 (ix4 b h i r) d = ix4 b r h d := by ix4rfl
theorem i38 (b : Fin 4) (h : Fin 8) (i : Fin 256) : idx_main_v38 (ix4 b h i 0) = ix3 b h i := by ix3rfl
theorem i42 (b : Fin 4) (h : Fin 8) (i : Fin 256) (r : Fin 1024) : idx_main_v42 (ix4 b h i r) = ix4 b h i 0 := by ix4rfl
theorem i46 (b : Fin 4) (h : Fin 8) (i : Fin 256) (r : Fin 1024) : idx_main_v46 (ix3 b h i) r = ix4 b h i r := by ix4rfl
theorem i47 (b : Fin 4) (h : Fin 8) (i : Fin 256) : idx_main_v47 (ix4 b h i 0) = ix3 b h i := by ix3rfl
theorem i49 (b : Fin 4) (i : Fin 256) (h : Fin 8) : idx_main_v49 (ix4 b i h 0) = ix4 b h i 0 := by ix4rfl
theorem i50 (b : Fin 4) (i : Fin 256) (h : Fin 8) (d : Fin 128) : idx_main_v50 (ix4 b i h d) = ix4 b i h 0 := by ix4rfl
theorem il52 (b : Fin 4) (h : Fin 8) (d : Fin 128) (i : Fin 256) (r : Fin 1024) : lidx_main_v52 (ix4 b h d i) r = ix4 b r h d := by ix4rfl
theorem ir52 (b : Fin 4) (h : Fin 8) (d : Fin 128) (i : Fin 256) (r : Fin 1024) : ridx_main_v52 (ix4 b h d i) r = ix4 b h i r := by ix4rfl
theorem i53 (b : Fin 4) (i : Fin 256) (h : Fin 8) (d : Fin 128) : idx_main_v53 (ix4 b i h d) = ix4 b h d i := by ix4rfl

theorem ks1_at (b : Fin 4) (r : Fin 1024) (h : Fin 8) (d : Fin 128) :
    val_main_v32 (F := Ideal) k (ix4 b r h d) = k (ix4 b (row 1 r) (kvh h) d) := by
  rw [val_main_v32_apply, i32, k8_at]
theorem vs1_at (b : Fin 4) (r : Fin 1024) (h : Fin 8) (d : Fin 128) :
    val_main_v33 (F := Ideal) v (ix4 b r h d) = v (ix4 b (row 1 r) (kvh h) d) := by
  rw [val_main_v33_apply, i33, v8_at]

theorem s1_at (b : Fin 4) (h : Fin 8) (i : Fin 256) (r : Fin 1024) :
    val_main_v36 (F := Ideal) x wq k (ix4 b h i r) = score x wq k b h i (row 1 r) := by
  rw [val_main_v36_apply, val_main_v34_apply, val_main_v35_apply, val_main_cst_5_apply]
  unfold score
  refine congrArg (· * scale) (Finset.sum_congr rfl fun d _ => ?_)
  rw [il34, ir34, q_at, ks1_at]

theorem M1_at (b : Fin 4) (h : Fin 8) (i : Fin 256) :
    val_main_v39 (F := Ideal) x wq k (ix4 b h i 0) = Mrun x wq k b h i 1 := by
  rw [val_main_v39_apply, M0_at, val_main_v38_apply, i38]
  unfold val_main_v37 val_main_cst_6
  rw [max_reduce _ _ b h i (s1_at x wq k b h i)]
  rfl

theorem a1_at (b : Fin 4) (h : Fin 8) (i : Fin 256) :
    val_main_v41 (F := Ideal) x wq k (ix4 b h i 0)
      = Ideal.exp (Mrun x wq k b h i 0 - Mrun x wq k b h i 1) := by
  rw [val_main_v41_apply, val_main_v40_apply, M0_at, M1_at]
  simp only [Ideal.hostUnary_exp_def, Ideal.subf_def]

theorem p1_at (b : Fin 4) (h : Fin 8) (i : Fin 256) (r : Fin 1024) :
    val_main_v44 (F := Ideal) x wq k (ix4 b h i r)
      = Ideal.exp (score x wq k b h i (row 1 r) - Mrun x wq k b h i 1) := by
  rw [val_main_v44_apply, val_main_v43_apply, s1_at, val_main_v42_apply, i42, M1_at]
  simp only [Ideal.hostUnary_exp_def, Ideal.subf_def]

theorem l1_at (b : Fin 4) (h : Fin 8) (i : Fin 256) :
    val_main_v48 (F := Ideal) x wq k (ix4 b h i 0) = L1 (score x wq k b h i) (Mrun x wq k b h i) := by
  rw [val_main_v48_apply, val_main_v45_apply, l0_at, a1_at, val_main_v47_apply, i47, val_main_v46_apply,
    val_main_cst_7_apply]
  simp only [Ideal.addf_def, Ideal.mulf_def, Ideal.ofBits_def, Ideal.ofBits_zero_f32, zero_add]
  unfold L1 P
  refine congrArg (_ + ·) (Finset.sum_congr rfl fun r _ => ?_)
  rw [i46, p1_at]

theorem o1_at (b : Fin 4) (i : Fin 256) (h : Fin 8) (d : Fin 128) :
    val_main_v54 (F := Ideal) x wq k v (ix4 b i h d)
      = O1 (score x wq k b h i) (fun j => v (ix4 b j (kvh h) d)) (Mrun x wq k b h i) := by
  rw [val_main_v54_apply, val_main_v51_apply, o0_at, val_main_v50_apply, i50, val_main_v49_apply, i49, a1_at,
    val_main_v53_apply, i53, val_main_v52_apply]
  simp only [Ideal.addf_def, Ideal.mulf_def]
  unfold O1 P
  refine congrArg (_ + ·) (Finset.sum_congr rfl fun r _ => ?_)
  rw [il52, ir52, vs1_at, p1_at]

/-! ### Block 2: key rows 2048 … 3071 -/

theorem i55 (b : Fin 4) (r : Fin 1024) (h : Fin 8) (d : Fin 128) : idx_main_v55 (ix4 b r h d) = ix4 b (row 2 r) h d := by
  funext a
  match a with
  | ⟨0, _⟩ => rfl
  | ⟨1, _⟩ => exact Fin.ext (show 2048 + r.val = 2 * 1024 + r.val by omega)
  | ⟨2, _⟩ => rfl
  | ⟨3, _⟩ => rfl
theorem i56 (b : Fin 4) (r : Fin 1024) (h : Fin 8) (d : Fin 128) : idx_main_v56 (ix4 b r h d) = ix4 b (row 2 r) h d := by
  funext a
  match a with
  | ⟨0, _⟩ => rfl
  | ⟨1, _⟩ => exact Fin.ext (show 2048 + r.val = 2 * 1024 + r.val by omega)
  | ⟨2, _⟩ => rfl
  | ⟨3, _⟩ => rfl
theorem il57 (b : Fin 4) (h : Fin 8) (i : Fin 256) (r : Fin 1024) (d : Fin 128) : lidx_main_v57 (ix4 b h i r) d = ix4 b i h d := by ix4rfl
theorem ir57 (b : Fin 4) (h : Fin 8) (i : Fin 256) (r : Fin 1024) (d : Fin 128) : ridx_main_v57 (ix4 b h i r) d = ix4 b r h d := by ix4rfl
theorem i61 (b : Fin 4) (h : Fin 8) (i : Fin 256) : idx_main_v61 (ix4 b h i 0) = ix3 b h i := by ix3rfl
theorem i65 (b : Fin 4) (h : Fin 8) (i : Fin 256) (r : Fin 1024) : idx_main_v65 (ix4 b h i r) = ix4 b h i 0 := by ix4rfl
theorem i69 (b : Fin 4) (h : Fin 8) (i : Fin 256) (r : Fin 1024) : idx_main_v69 (ix3 b h i) r = ix4 b h i r := by ix4rfl
theorem i70 (b : Fin 4) (h : Fin 8) (i : Fin 256) : idx_main_v70 (ix4 b h i 0) = ix3 b h i := by ix3rfl
theorem i72 (b : Fin 4) (i : Fin 256) (h : Fin 8) : idx_main_v72 (ix4 b i h 0) = ix4 b h i 0 := by ix4rfl
theorem i73 (b : Fin 4) (i : Fin 256) (h : Fin 8) (d : Fin 128) : idx_main_v73 (ix4 b i h d) = ix4 b i h 0 := by ix4rfl
theorem il75 (b : Fin 4) (h : Fin 8) (d : Fin 128) (i : Fin 256) (r : Fin 1024) : lidx_main_v75 (ix4 b h d i) r = ix4 b r h d := by ix4rfl
theorem ir75 (b : Fin 4) (h : Fin 8) (d : Fin 128) (i : Fin 256) (r : Fin 1024) : ridx_main_v75 (ix4 b h d i) r = ix4 b h i r := by ix4rfl
theorem i76 (b : Fin 4) (i : Fin 256) (h : Fin 8) (d : Fin 128) : idx_main_v76 (ix4 b i h d) = ix4 b h d i := by ix4rfl

theorem ks2_at (b : Fin 4) (r : Fin 1024) (h : Fin 8) (d : Fin 128) :
    val_main_v55 (F := Ideal) k (ix4 b r h d) = k (ix4 b (row 2 r) (kvh h) d) := by
  rw [val_main_v55_apply, i55, k8_at]
theorem vs2_at (b : Fin 4) (r : Fin 1024) (h : Fin 8) (d : Fin 128) :
    val_main_v56 (F := Ideal) v (ix4 b r h d) = v (ix4 b (row 2 r) (kvh h) d) := by
  rw [val_main_v56_apply, i56, v8_at]

theorem s2_at (b : Fin 4) (h : Fin 8) (i : Fin 256) (r : Fin 1024) :
    val_main_v59 (F := Ideal) x wq k (ix4 b h i r) = score x wq k b h i (row 2 r) := by
  rw [val_main_v59_apply, val_main_v57_apply, val_main_v58_apply, val_main_cst_8_apply]
  unfold score
  refine congrArg (· * scale) (Finset.sum_congr rfl fun d _ => ?_)
  rw [il57, ir57, q_at, ks2_at]

theorem M2_at (b : Fin 4) (h : Fin 8) (i : Fin 256) :
    val_main_v62 (F := Ideal) x wq k (ix4 b h i 0) = Mrun x wq k b h i 2 := by
  rw [val_main_v62_apply, M1_at, val_main_v61_apply, i61]
  unfold val_main_v60 val_main_cst_9
  rw [max_reduce _ _ b h i (s2_at x wq k b h i)]
  rfl

theorem a2_at (b : Fin 4) (h : Fin 8) (i : Fin 256) :
    val_main_v64 (F := Ideal) x wq k (ix4 b h i 0)
      = Ideal.exp (Mrun x wq k b h i 1 - Mrun x wq k b h i 2) := by
  rw [val_main_v64_apply, val_main_v63_apply, M1_at, M2_at]
  simp only [Ideal.hostUnary_exp_def, Ideal.subf_def]

theorem p2_at (b : Fin 4) (h : Fin 8) (i : Fin 256) (r : Fin 1024) :
    val_main_v67 (F := Ideal) x wq k (ix4 b h i r)
      = Ideal.exp (score x wq k b h i (row 2 r) - Mrun x wq k b h i 2) := by
  rw [val_main_v67_apply, val_main_v66_apply, s2_at, val_main_v65_apply, i65, M2_at]
  simp only [Ideal.hostUnary_exp_def, Ideal.subf_def]

theorem l2_at (b : Fin 4) (h : Fin 8) (i : Fin 256) :
    val_main_v71 (F := Ideal) x wq k (ix4 b h i 0) = L2 (score x wq k b h i) (Mrun x wq k b h i) := by
  rw [val_main_v71_apply, val_main_v68_apply, l1_at, a2_at, val_main_v70_apply, i70, val_main_v69_apply,
    val_main_cst_10_apply]
  simp only [Ideal.addf_def, Ideal.mulf_def, Ideal.ofBits_def, Ideal.ofBits_zero_f32, zero_add]
  unfold L2 P
  refine congrArg (_ + ·) (Finset.sum_congr rfl fun r _ => ?_)
  rw [i69, p2_at]

theorem o2_at (b : Fin 4) (i : Fin 256) (h : Fin 8) (d : Fin 128) :
    val_main_v77 (F := Ideal) x wq k v (ix4 b i h d)
      = O2 (score x wq k b h i) (fun j => v (ix4 b j (kvh h) d)) (Mrun x wq k b h i) := by
  rw [val_main_v77_apply, val_main_v74_apply, o1_at, val_main_v73_apply, i73, val_main_v72_apply, i72, a2_at,
    val_main_v76_apply, i76, val_main_v75_apply]
  simp only [Ideal.addf_def, Ideal.mulf_def]
  unfold O2 P
  refine congrArg (_ + ·) (Finset.sum_congr rfl fun r _ => ?_)
  rw [il75, ir75, vs2_at, p2_at]

/-! ### Block 3: key rows 3072 … 4095 -/

theorem i78 (b : Fin 4) (r : Fin 1024) (h : Fin 8) (d : Fin 128) : idx_main_v78 (ix4 b r h d) = ix4 b (row 3 r) h d := by
  funext a
  match a with
  | ⟨0, _⟩ => rfl
  | ⟨1, _⟩ => exact Fin.ext (show 3072 + r.val = 3 * 1024 + r.val by omega)
  | ⟨2, _⟩ => rfl
  | ⟨3, _⟩ => rfl
theorem i79 (b : Fin 4) (r : Fin 1024) (h : Fin 8) (d : Fin 128) : idx_main_v79 (ix4 b r h d) = ix4 b (row 3 r) h d := by
  funext a
  match a with
  | ⟨0, _⟩ => rfl
  | ⟨1, _⟩ => exact Fin.ext (show 3072 + r.val = 3 * 1024 + r.val by omega)
  | ⟨2, _⟩ => rfl
  | ⟨3, _⟩ => rfl
theorem il80 (b : Fin 4) (h : Fin 8) (i : Fin 256) (r : Fin 1024) (d : Fin 128) : lidx_main_v80 (ix4 b h i r) d = ix4 b i h d := by ix4rfl
theorem ir80 (b : Fin 4) (h : Fin 8) (i : Fin 256) (r : Fin 1024) (d : Fin 128) : ridx_main_v80 (ix4 b h i r) d = ix4 b r h d := by ix4rfl
theorem i84 (b : Fin 4) (h : Fin 8) (i : Fin 256) : idx_main_v84 (ix4 b h i 0) = ix3 b h i := by ix3rfl
theorem i88 (b : Fin 4) (h : Fin 8) (i : Fin 256) (r : Fin 1024) : idx_main_v88 (ix4 b h i r) = ix4 b h i 0 := by ix4rfl
theorem i92 (b : Fin 4) (h : Fin 8) (i : Fin 256) (r : Fin 1024) : idx_main_v92 (ix3 b h i) r = ix4 b h i r := by ix4rfl
theorem i93 (b : Fin 4) (h : Fin 8) (i : Fin 256) : idx_main_v93 (ix4 b h i 0) = ix3 b h i := by ix3rfl
theorem i95 (b : Fin 4) (i : Fin 256) (h : Fin 8) : idx_main_v95 (ix4 b i h 0) = ix4 b h i 0 := by ix4rfl
theorem i96 (b : Fin 4) (i : Fin 256) (h : Fin 8) (d : Fin 128) : idx_main_v96 (ix4 b i h d) = ix4 b i h 0 := by ix4rfl
theorem il98 (b : Fin 4) (h : Fin 8) (d : Fin 128) (i : Fin 256) (r : Fin 1024) : lidx_main_v98 (ix4 b h d i) r = ix4 b r h d := by ix4rfl
theorem ir98 (b : Fin 4) (h : Fin 8) (d : Fin 128) (i : Fin 256) (r : Fin 1024) : ridx_main_v98 (ix4 b h d i) r = ix4 b h i r := by ix4rfl
theorem i99 (b : Fin 4) (i : Fin 256) (h : Fin 8) (d : Fin 128) : idx_main_v99 (ix4 b i h d) = ix4 b h d i := by ix4rfl

theorem ks3_at (b : Fin 4) (r : Fin 1024) (h : Fin 8) (d : Fin 128) :
    val_main_v78 (F := Ideal) k (ix4 b r h d) = k (ix4 b (row 3 r) (kvh h) d) := by
  rw [val_main_v78_apply, i78, k8_at]
theorem vs3_at (b : Fin 4) (r : Fin 1024) (h : Fin 8) (d : Fin 128) :
    val_main_v79 (F := Ideal) v (ix4 b r h d) = v (ix4 b (row 3 r) (kvh h) d) := by
  rw [val_main_v79_apply, i79, v8_at]

theorem s3_at (b : Fin 4) (h : Fin 8) (i : Fin 256) (r : Fin 1024) :
    val_main_v82 (F := Ideal) x wq k (ix4 b h i r) = score x wq k b h i (row 3 r) := by
  rw [val_main_v82_apply, val_main_v80_apply, val_main_v81_apply, val_main_cst_11_apply]
  unfold score
  refine congrArg (· * scale) (Finset.sum_congr rfl fun d _ => ?_)
  rw [il80, ir80, q_at, ks3_at]

theorem M3_at (b : Fin 4) (h : Fin 8) (i : Fin 256) :
    val_main_v85 (F := Ideal) x wq k (ix4 b h i 0) = Mrun x wq k b h i 3 := by
  rw [val_main_v85_apply, M2_at, val_main_v84_apply, i84]
  unfold val_main_v83 val_main_cst_12
  rw [max_reduce _ _ b h i (s3_at x wq k b h i)]
  rfl

theorem a3_at (b : Fin 4) (h : Fin 8) (i : Fin 256) :
    val_main_v87 (F := Ideal) x wq k (ix4 b h i 0)
      = Ideal.exp (Mrun x wq k b h i 2 - Mrun x wq k b h i 3) := by
  rw [val_main_v87_apply, val_main_v86_apply, M2_at, M3_at]
  simp only [Ideal.hostUnary_exp_def, Ideal.subf_def]

theorem p3_at (b : Fin 4) (h : Fin 8) (i : Fin 256) (r : Fin 1024) :
    val_main_v90 (F := Ideal) x wq k (ix4 b h i r)
      = Ideal.exp (score x wq k b h i (row 3 r) - Mrun x wq k b h i 3) := by
  rw [val_main_v90_apply, val_main_v89_apply, s3_at, val_main_v88_apply, i88, M3_at]
  simp only [Ideal.hostUnary_exp_def, Ideal.subf_def]

theorem l3_at (b : Fin 4) (h : Fin 8) (i : Fin 256) :
    val_main_v94 (F := Ideal) x wq k (ix4 b h i 0) = L3 (score x wq k b h i) (Mrun x wq k b h i) := by
  rw [val_main_v94_apply, val_main_v91_apply, l2_at, a3_at, val_main_v93_apply, i93, val_main_v92_apply,
    val_main_cst_13_apply]
  simp only [Ideal.addf_def, Ideal.mulf_def, Ideal.ofBits_def, Ideal.ofBits_zero_f32, zero_add]
  unfold L3 P
  refine congrArg (_ + ·) (Finset.sum_congr rfl fun r _ => ?_)
  rw [i92, p3_at]

theorem o3_at (b : Fin 4) (i : Fin 256) (h : Fin 8) (d : Fin 128) :
    val_main_v100 (F := Ideal) x wq k v (ix4 b i h d)
      = O3 (score x wq k b h i) (fun j => v (ix4 b j (kvh h) d)) (Mrun x wq k b h i) := by
  rw [val_main_v100_apply, val_main_v97_apply, o2_at, val_main_v96_apply, i96, val_main_v95_apply, i95, a3_at,
    val_main_v99_apply, i99, val_main_v98_apply]
  simp only [Ideal.addf_def, Ideal.mulf_def]
  unfold O3 P
  refine congrArg (_ + ·) (Finset.sum_congr rfl fun r _ => ?_)
  rw [il98, ir98, vs3_at, p3_at]

/-! ### The quotient, the heads side by side, and the output projection -/

theorem i101 (b : Fin 4) (i : Fin 256) (h : Fin 8) : idx_main_v101 (ix4 b i h 0) = ix4 b h i 0 := by ix4rfl
theorem i102 (b : Fin 4) (i : Fin 256) (h : Fin 8) (d : Fin 128) : idx_main_v102 (ix4 b i h d) = ix4 b i h 0 := by ix4rfl

/-- Every running maximum is a real number: a maximum of finitely many real scores. -/
theorem Mrun_real (hx : AllReal x) (hwq : AllReal wq) (hk : AllReal k) (b : Fin 4) (h : Fin 8) (i : Fin 256)
    (t : Fin 4) : ∃ r : ℝ, Mrun x wq k b h i t = (r : EReal) := by
  have hb : ∀ t, ∃ r : ℝ, bm x wq k t b h i = (r : EReal) :=
    fun t => max_real _ (fun r => score_real hx hwq hk b h i (row t r))
  match t with
  | ⟨0, _⟩ => exact hb 0
  | ⟨1, _⟩ => exact max_real2 (hb 0) (hb 1)
  | ⟨2, _⟩ => exact max_real2 (max_real2 (hb 0) (hb 1)) (hb 2)
  | ⟨3, _⟩ => exact max_real2 (max_real2 (max_real2 (hb 0) (hb 1)) (hb 2)) (hb 3)

/-- The streamed numerator over the streamed denominator is the unshifted softmax mean of the value rows. -/
theorem att_at (hx : AllReal x) (hwq : AllReal wq) (hk : AllReal k) (hv : AllReal v)
    (b : Fin 4) (i : Fin 256) (h : Fin 8) (d : Fin 128) :
    val_main_v103 (F := Ideal) x wq k v (ix4 b i h d) = att x wq k v b i (hd h d) := by
  rw [val_main_v103_apply, o3_at, val_main_v102_apply, i102, val_main_v101_apply, i101, l3_at]
  simp only [Ideal.hostDivf_def]
  rw [online _ _ _ (fun j => score_real hx hwq hk b h i j) (fun j => hv (ix4 b j (kvh h) d))
    (Mrun_real x wq k hx hwq hk b h i)]
  unfold att num den
  rw [headOf_hd, coordOf_hd]

theorem idx_v104 (b : Fin 4) (i : Fin 256) (n : Fin 1024) :
    idx_main_v104 (ix3 b i n) = ix4 b i (headOf n) (coordOf n) := by
  have := b.isLt; have := i.isLt; have := n.isLt
  funext a
  match a with
  | ⟨0, _⟩ => exact Fin.ext (show ((b.val * 256 + i.val) * 1024 + n.val) / 262144 = b.val by omega)
  | ⟨1, _⟩ => exact Fin.ext (show ((b.val * 256 + i.val) * 1024 + n.val) / 1024 % 256 = i.val by omega)
  | ⟨2, _⟩ => exact Fin.ext (show ((b.val * 256 + i.val) * 1024 + n.val) / 128 % 8 = n.val / 128 by omega)
  | ⟨3, _⟩ => exact Fin.ext (show ((b.val * 256 + i.val) * 1024 + n.val) % 128 = n.val % 128 by omega)

/-- The reference's composed term is the specification's function of the five arrays. -/
theorem result_eq (hx : AllReal x) (hwq : AllReal wq) (hk : AllReal k) (hv : AllReal v) :
    val_main_v105 (F := Ideal) x wq wo k v = G x wq wo k v := by
  funext t
  obtain ⟨b, i, c, rfl⟩ : ∃ (b : Fin 4) (i : Fin 256) (c : Fin 1024), t = ix3 b i c := ⟨t 0, t 1, t 2, eq_ix3 t⟩
  rw [val_main_v105_apply]
  show _ = ∑ n : Fin 1024, att x wq k v b i n * wo (ix2 n c)
  refine Finset.sum_congr rfl fun n _ => ?_
  rw [show lidx_main_v105 (ix3 b i c) n = ix3 b i n from by ix3rfl,
    show ridx_main_v105 (ix3 b i c) n = ix2 n c from by
      funext a; match a with | ⟨0, _⟩ => rfl | ⟨1, _⟩ => rfl,
    val_main_v104_apply, idx_v104, att_at x wq k v hx hwq hk hv, hd_headOf_coordOf]

end

end Stage

/-! ## The two claims about the reference -/

/-- the reference's frame: its run with the result dropped -/
theorem frame : Cert.frame_ReferenceIdeal := fun m ρ _ =>
  (θ_run Cert.ReferenceIdeal.defs _ _).mono (fun _ h c => (h c).2) (Cert.ReferenceIdeal.Value.run (F := Ideal) m ρ)

/-- the reference's run with its result named by the specification, for real-valued arguments -/
theorem run (m' : (ℓ : Loc Cert.ReferenceIdeal.nD Cert.ReferenceIdeal.τ Cert.ReferenceIdeal.sig) → Buf (Elt Ideal) ℓ)
    (g' : Dev Cert.ReferenceIdeal.nD → PrngReg)
    (h0 : Cert.Attn.AllReal (m' (((0 : Dev Cert.ReferenceIdeal.nD).tc : Thread Cert.ReferenceIdeal.nD Cert.ReferenceIdeal.τ).loc Cert.ReferenceIdeal.main_arg0)))
    (h1 : Cert.Attn.AllReal (m' (((0 : Dev Cert.ReferenceIdeal.nD).tc : Thread Cert.ReferenceIdeal.nD Cert.ReferenceIdeal.τ).loc Cert.ReferenceIdeal.main_arg1)))
    (h2 : Cert.Attn.AllReal (m' (((0 : Dev Cert.ReferenceIdeal.nD).tc : Thread Cert.ReferenceIdeal.nD Cert.ReferenceIdeal.τ).loc Cert.ReferenceIdeal.main_arg2)))
    (h3 : Cert.Attn.AllReal (m' (((0 : Dev Cert.ReferenceIdeal.nD).tc : Thread Cert.ReferenceIdeal.nD Cert.ReferenceIdeal.τ).loc Cert.ReferenceIdeal.main_arg3)))
    (h4 : Cert.Attn.AllReal (m' (((0 : Dev Cert.ReferenceIdeal.nD).tc : Thread Cert.ReferenceIdeal.nD Cert.ReferenceIdeal.τ).loc Cert.ReferenceIdeal.main_arg4))) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v105)
        = Cert.Attn.G (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
            (m' (((0 : Dev Cert.ReferenceIdeal.nD).tc : Thread Cert.ReferenceIdeal.nD Cert.ReferenceIdeal.τ).loc Cert.ReferenceIdeal.main_arg2))
            (m' (((0 : Dev Cert.ReferenceIdeal.nD).tc : Thread Cert.ReferenceIdeal.nD Cert.ReferenceIdeal.τ).loc Cert.ReferenceIdeal.main_arg3))
            (m' (((0 : Dev Cert.ReferenceIdeal.nD).tc : Thread Cert.ReferenceIdeal.nD Cert.ReferenceIdeal.τ).loc Cert.ReferenceIdeal.main_arg4))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
      ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)) :=
  (θ_run Cert.ReferenceIdeal.defs _ _).mono
    (fun _ h => ⟨((h 0).1.trans (Cert.ReferenceIdeal.Read.val_main_v105_eq m' 0)).trans (Stage.result_eq _ _ _ _ _ h0 h1 h3 h4), (h 0).2⟩)
    (Cert.ReferenceIdeal.Value.run (F := Ideal) m' g')

end Cert.Proof.Ref
end
-- ==== Proof.Finite.lean ====
import proofs.«900754_g7700000000000755_dist_attn_cross_gqa_kvseq_b4_sq256_skv1024_d1024_hq8_dh128_v7x_i4_f32_1_alg».proof.Defs
import proofs.«900754_g7700000000000755_dist_attn_cross_gqa_kvseq_b4_sq256_skv1024_d1024_hq8_dh128_v7x_i4_f32_1_alg».proof.Proof.Gen.Pre_finite_inputs_Kernel
import proofs.«900754_g7700000000000755_dist_attn_cross_gqa_kvseq_b4_sq256_skv1024_d1024_hq8_dh128_v7x_i4_f32_1_alg».proof.Proof.Gen.KernelIdeal
import proofs.«900754_g7700000000000755_dist_attn_cross_gqa_kvseq_b4_sq256_skv1024_d1024_hq8_dh128_v7x_i4_f32_1_alg».proof.Proof.Spec
import Idealize.ShloMosaic.Lib.Layout
import Idealize.ShloMosaic.Lib.ReduceAll

/-
  Finiteness of the kernel's inputs, and the block layout of the key and value rows.

  The precondition says that, on every device, the conjunction over the five argument buffers of
  "every entry x has |x| < +∞" is true.  Over the extended reals |x| = max x (-x), and
  max x (-x) < ⊤ excludes exactly ⊤ and ⊥: every entry is a real number.

  A device's buffer of key (or value) rows is the block of the whole array that starts c · 1024
  rows in; the four blocks cover the 4096 rows, so reality of the four quarters is reality of the whole.
-/

noncomputable section

namespace Cert.Proof.Fin

open Idealize.ShloMosaic Idealize.SL.Sem Idealize.ShloMosaic.ValueIdx
open Cert.Attn

/-- The binary32 pattern of +∞ is read as ⊤. -/
theorem inf_pattern : Ideal.ofBits .f32 0x7F800000#32 = (⊤ : EReal) := by
  simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |x| < +∞ coming out true makes x real. -/
theorem real_of_mask (x : Ideal .f32)
    (h : FloatOps.cmpf .olt (FloatOps.hostAbsf x) (FloatOps.ofBits (F := Ideal) .f32 0x7F800000#32) = 1#1) :
    ∃ r : ℝ, (x : EReal) = (r : EReal) := by
  change Ideal.cmp .olt (max (x : EReal) (-(x : EReal))) (Ideal.ofBits .f32 0x7F800000#32) = 1#1 at h
  rw [inf_pattern] at h
  refine real_of_abs_lt_top x ?_
  by_contra hn
  simp [Ideal.cmp, hn] at h

/-- The result of a reduction over all axes has a single index. -/
instance : Subsingleton Cert.Pre_finite_inputs_Kernel.S_.Idx := ⟨fun a b => funext fun d => d.elim0⟩

/-- One buffer: the conjunction over all entries of |x| < +∞ coming out true makes every entry real. -/
theorem allReal_of_all {S : Shape} {axes : List (Fin S.rank)} (a : FVec Ideal S .f32)
    (hb : Cert.Pre_finite_inputs_Kernel.S_.BroadcastsInDim S (![] : Fin 0 → Fin S.rank))
    (hr : S.ReducesTo axes Cert.Pre_finite_inputs_Kernel.S_)
    (hu : 0 < Cert.Pre_finite_inputs_Kernel.S_.numel)
    (init : IVec Cert.Pre_finite_inputs_Kernel.S_ 1)
    (h : Host.reduce IntOp.andi
          (cmpf .olt (Host.absf a) (broadcastInDim S ![] hb (constant Cert.Pre_finite_inputs_Kernel.S_ .f32 0x7F800000#32)))
          init hr hu ix0 = 1#1) :
    AllReal (S := S) a := by
  intro i
  have hi := Host.reduce_andi_all _ init hr hu ix0 h i
  exact real_of_mask (a i) hi

/-! ### The five argument buffers of a device -/

/-- On every device, each of the five argument buffers holds only real numbers: the precondition's mask is the
    conjunction of the five "all entries have |x| < +∞", nested to the left in the order of the arguments. -/
theorem kernel_args_real [hP : Cert.Pre_finite_inputs_Kernel.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (S := SX) (m ((c.tc : Thread Cert.KernelIdeal.nD Cert.KernelIdeal.τ).loc Cert.KernelIdeal.main_arg0))
    ∧ AllReal (S := SW) (m ((c.tc : Thread Cert.KernelIdeal.nD Cert.KernelIdeal.τ).loc Cert.KernelIdeal.main_arg1))
    ∧ AllReal (S := SW) (m ((c.tc : Thread Cert.KernelIdeal.nD Cert.KernelIdeal.τ).loc Cert.KernelIdeal.main_arg2))
    ∧ AllReal (S := SKVb) (m ((c.tc : Thread Cert.KernelIdeal.nD Cert.KernelIdeal.τ).loc Cert.KernelIdeal.main_arg3))
    ∧ AllReal (S := SKVb) (m ((c.tc : Thread Cert.KernelIdeal.nD Cert.KernelIdeal.τ).loc Cert.KernelIdeal.main_arg4)) := by
  have h0 := congrFun (h c) ix0
  dsimp only [Cert.Pre_finite_inputs_Kernel.fn, Cert.Pre_finite_inputs_Kernel.fn_part1, andi] at h0
  rw [IntOp.andi_eq_one, IntOp.andi_eq_one, IntOp.andi_eq_one, IntOp.andi_eq_one] at h0
  obtain ⟨⟨⟨⟨e0, e1⟩, e2⟩, e3⟩, e4⟩ := h0
  exact ⟨allReal_of_all _ _ _ _ _ e0, allReal_of_all _ _ _ _ _ e1, allReal_of_all _ _ _ _ _ e2,
    allReal_of_all _ _ _ _ _ e3, allReal_of_all _ _ _ _ _ e4⟩

/-! ### The block layout -/

/-- Device c's block of the whole key (or value) array, cut along the rows into four, is its quarter:
    rows c · 1024 … c · 1024 + 1023, the other three coordinates unchanged. -/
theorem block_eq_quarter (c : Fin 4) (k : SKV.Idx → EReal) :
    Layout.block ⟨4, ![4, 1024, 2, 128]⟩ ⟨4, ![4, 4096, 2, 128]⟩ 1 4 c k = quarter c k := by
  funext t
  show k _ = k _
  congr 1
  funext b
  apply Fin.ext
  rw [Layout.Tiles.idx_val]
  match b with
  | ⟨0, _⟩ => rfl
  | ⟨1, _⟩ => rfl
  | ⟨2, _⟩ => rfl
  | ⟨3, _⟩ => rfl

/-- The four quarters cover the rows: row j lies in quarter j / 1024 at place j % 1024.  So an array
    whose four quarters hold only real numbers holds only real numbers. -/
theorem allReal_of_quarters (k : SKV.Idx → EReal) (h : ∀ c : Fin 4, AllReal (quarter c k)) : AllReal k := by
  intro i
  have h1 : (i 1).val < 4096 := (i 1).isLt
  obtain ⟨r, hr⟩ := h ⟨(i 1).val / 1024, by omega⟩
    (ix4 (i 0) (⟨(i 1).val % 1024, Nat.mod_lt _ (by decide)⟩ : Fin 1024) (i 2) (i 3))
  refine ⟨r, ?_⟩
  rw [← hr]
  show k i = k _
  congr 1
  funext b
  match b with
  | ⟨0, _⟩ => rfl
  | ⟨1, _⟩ => exact Fin.ext (by show (i 1).val = (i 1).val / 1024 * 1024 + (i 1).val % 1024; omega)
  | ⟨2, _⟩ => rfl
  | ⟨3, _⟩ => rfl

end Cert.Proof.Fin

end
-- ==== Proof.Ring.lean ====
/- The ring of four devices. Successor and predecessor on the ring; which of the two each printed
   device chain names; and, for every printed offsets chain that has no generated closed form, the
   chain as a vector literal over the device's number and the loop trip or the word it is passed.

   The batches met below, for a device numbered `c`: the four attention batches are `c`, `(c + 2) % 4`,
   `(c + 3) % 4` and `(c + 1) % 4`; the partial sums merged after hop `h` come from batch `(c + 3 - h) % 4` on the
   way to the successor and `(c + h + 3) % 4` on the way to the predecessor; the finished block is `(c + 1) % 4`, and
   at hop `h` of the gathering the blocks `(c + 1 + 4 - h) % 4` and `(c + 1 + h) % 4` travel. -/
import proofs.«900754_g7700000000000755_dist_attn_cross_gqa_kvseq_b4_sq256_skv1024_d1024_hq8_dh128_v7x_i4_f32_1_alg».proof.KernelIdeal
import proofs.«900754_g7700000000000755_dist_attn_cross_gqa_kvseq_b4_sq256_skv1024_d1024_hq8_dh128_v7x_i4_f32_1_alg».proof.Proof.Gen.KernelIdeal

set_option Elab.async false

namespace Cert.KernelIdeal.Ring

open Idealize.ShloMosaic

/-! ## Successor and predecessor -/

/-- The next device on the ring. -/
def nxt (c : Dev nD) : Dev nD := ⟨(c.val + 1) % 4, Nat.mod_lt _ (by decide)⟩

/-- The previous device on the ring: three steps forward. -/
def prv (c : Dev nD) : Dev nD := ⟨(c.val + 3) % 4, Nat.mod_lt _ (by decide)⟩

@[simp] theorem nxt_val (c : Dev nD) : (nxt c).val = (c.val + 1) % 4 := rfl
@[simp] theorem prv_val (c : Dev nD) : (prv c).val = (c.val + 3) % 4 := rfl

/-- One step forward then three more is a full turn. -/
theorem prv_nxt (c : Dev nD) : prv (nxt c) = c := by revert c; decide
theorem nxt_prv (c : Dev nD) : nxt (prv c) = c := by revert c; decide
/-- On four devices the two neighbours differ (they are two steps apart). -/
theorem nxt_ne_prv (c : Dev nD) : nxt c ≠ prv c := by revert c; decide
theorem nxt_ne_self (c : Dev nD) : nxt c ≠ c := by revert c; decide
theorem prv_ne_self (c : Dev nD) : prv c ≠ c := by revert c; decide
/-- Two steps forward and two steps back meet: the device opposite. -/
theorem nxt_nxt_eq_prv_prv (c : Dev nD) : nxt (nxt c) = prv (prv c) := by revert c; decide
theorem nxt_nxt_val (c : Dev nD) : (nxt (nxt c)).val = (c.val + 2) % 4 := by revert c; decide
theorem nxt_nxt_ne_self (c : Dev nD) : nxt (nxt c) ≠ c := by revert c; decide

/-- The ring as a permutation of the devices. -/
def ring : Dev nD ≃ Dev nD := ⟨nxt, prv, prv_nxt, nxt_prv⟩

/-! ## The device chains

Each chain computes `(c + 1) mod 4` or `(c + 4 - 1) mod 4` in 32-bit words with a floored remainder; on four
devices nothing wraps, so its value is the successor's or the predecessor's number. -/

theorem dev1_val : ∀ c : Dev nD, k0_dev1 c = (c.val + 3) % 4 := by decide +kernel
theorem dev2_val : ∀ c : Dev nD, k0_dev2 c = (c.val + 1) % 4 := by decide +kernel
theorem dev3_val : ∀ c : Dev nD, k0_dev3 c = (c.val + 1) % 4 := by decide +kernel
theorem dev4_val : ∀ c : Dev nD, k0_dev4 c = (c.val + 1) % 4 := by decide +kernel
theorem dev5_val : ∀ c : Dev nD, k0_dev5 c = (c.val + 3) % 4 := by decide +kernel
theorem dev6_val : ∀ c : Dev nD, k0_dev6 c = (c.val + 3) % 4 := by decide +kernel
theorem dev7_val : ∀ c : Dev nD, k0_dev7 c = (c.val + 1) % 4 := by decide +kernel
theorem dev8_val : ∀ c : Dev nD, k0_dev8 c = (c.val + 3) % 4 := by decide +kernel
theorem dev9_val : ∀ c : Dev nD, k0_dev9 c = (c.val + 1) % 4 := by decide +kernel
theorem dev10_val : ∀ c : Dev nD, k0_dev10 c = (c.val + 3) % 4 := by decide +kernel
theorem dev11_val : ∀ c : Dev nD, k0_dev11 c = (c.val + 1) % 4 := by decide +kernel
theorem dev12_val : ∀ c : Dev nD, k0_dev12 c = (c.val + 3) % 4 := by decide +kernel
theorem dev13_val : ∀ c : Dev nD, k0_dev13 c = (c.val + 1) % 4 := by decide +kernel
theorem dev14_val : ∀ c : Dev nD, k0_dev14 c = (c.val + 3) % 4 := by decide +kernel
theorem dev15_val : ∀ c : Dev nD, k0_dev15 c = (c.val + 1) % 4 := by decide +kernel
theorem dev16_val : ∀ c : Dev nD, k0_dev16 c = (c.val + 3) % 4 := by decide +kernel
theorem dev17_val : ∀ c : Dev nD, k0_dev17 c = (c.val + 1) % 4 := by decide +kernel
theorem dev18_val : ∀ c : Dev nD, k0_dev18 c = (c.val + 3) % 4 := by decide +kernel
theorem dev19_val : ∀ c : Dev nD, k0_dev19 c = (c.val + 1) % 4 := by decide +kernel
theorem dev20_val : ∀ c : Dev nD, k0_dev20 c = (c.val + 3) % 4 := by decide +kernel

/-- The first barrier signal goes to the predecessor, the second to the successor. -/
@[sl_canon] theorem dev1_eq (c : Dev nD) : (⟨k0_dev1 c, Gen.k0_dev1_lt c⟩ : Dev nD) = prv c := Fin.ext (dev1_val c)
@[sl_canon] theorem dev2_eq (c : Dev nD) : (⟨k0_dev2 c, Gen.k0_dev2_lt c⟩ : Dev nD) = nxt c := Fin.ext (dev2_val c)
/-- Hop 0: the two copies to the successor, then the two to the predecessor. -/
@[sl_canon] theorem dev3_eq (c : Dev nD) : (⟨k0_dev3 c, Gen.k0_dev3_lt c⟩ : Dev nD) = nxt c := Fin.ext (dev3_val c)
@[sl_canon] theorem dev4_eq (c : Dev nD) : (⟨k0_dev4 c, Gen.k0_dev4_lt c⟩ : Dev nD) = nxt c := Fin.ext (dev4_val c)
@[sl_canon] theorem dev5_eq (c : Dev nD) : (⟨k0_dev5 c, Gen.k0_dev5_lt c⟩ : Dev nD) = prv c := Fin.ext (dev5_val c)
@[sl_canon] theorem dev6_eq (c : Dev nD) : (⟨k0_dev6 c, Gen.k0_dev6_lt c⟩ : Dev nD) = prv c := Fin.ext (dev6_val c)
/-- Hops 1 and 2, and the three hops of the gathering: successor and predecessor in turn. -/
@[sl_canon] theorem dev7_eq (c : Dev nD) : (⟨k0_dev7 c, Gen.k0_dev7_lt c⟩ : Dev nD) = nxt c := Fin.ext (dev7_val c)
@[sl_canon] theorem dev8_eq (c : Dev nD) : (⟨k0_dev8 c, Gen.k0_dev8_lt c⟩ : Dev nD) = prv c := Fin.ext (dev8_val c)
@[sl_canon] theorem dev9_eq (c : Dev nD) : (⟨k0_dev9 c, Gen.k0_dev9_lt c⟩ : Dev nD) = nxt c := Fin.ext (dev9_val c)
@[sl_canon] theorem dev10_eq (c : Dev nD) : (⟨k0_dev10 c, Gen.k0_dev10_lt c⟩ : Dev nD) = prv c := Fin.ext (dev10_val c)
@[sl_canon] theorem dev11_eq (c : Dev nD) : (⟨k0_dev11 c, Gen.k0_dev11_lt c⟩ : Dev nD) = nxt c := Fin.ext (dev11_val c)
@[sl_canon] theorem dev12_eq (c : Dev nD) : (⟨k0_dev12 c, Gen.k0_dev12_lt c⟩ : Dev nD) = prv c := Fin.ext (dev12_val c)
@[sl_canon] theorem dev13_eq (c : Dev nD) : (⟨k0_dev13 c, Gen.k0_dev13_lt c⟩ : Dev nD) = nxt c := Fin.ext (dev13_val c)
@[sl_canon] theorem dev14_eq (c : Dev nD) : (⟨k0_dev14 c, Gen.k0_dev14_lt c⟩ : Dev nD) = prv c := Fin.ext (dev14_val c)
@[sl_canon] theorem dev15_eq (c : Dev nD) : (⟨k0_dev15 c, Gen.k0_dev15_lt c⟩ : Dev nD) = nxt c := Fin.ext (dev15_val c)
@[sl_canon] theorem dev16_eq (c : Dev nD) : (⟨k0_dev16 c, Gen.k0_dev16_lt c⟩ : Dev nD) = prv c := Fin.ext (dev16_val c)
@[sl_canon] theorem dev17_eq (c : Dev nD) : (⟨k0_dev17 c, Gen.k0_dev17_lt c⟩ : Dev nD) = nxt c := Fin.ext (dev17_val c)
@[sl_canon] theorem dev18_eq (c : Dev nD) : (⟨k0_dev18 c, Gen.k0_dev18_lt c⟩ : Dev nD) = prv c := Fin.ext (dev18_val c)
@[sl_canon] theorem dev19_eq (c : Dev nD) : (⟨k0_dev19 c, Gen.k0_dev19_lt c⟩ : Dev nD) = nxt c := Fin.ext (dev19_val c)
@[sl_canon] theorem dev20_eq (c : Dev nD) : (⟨k0_dev20 c, Gen.k0_dev20_lt c⟩ : Dev nD) = prv c := Fin.ext (dev20_val c)

/-! ## The offsets chains in closed form

A chain over a loop trip is checked at every device and trip; a chain over a word is checked at the words the
program passes, spelt as the generated in-bounds facts spell them. -/

/-! ### The first batch (the device's own): the key and value planes of query head `t`, which shares
key-value head `t / 4` of batch `c` -/

theorem off11_eq : ∀ (c : Dev nD) (t : Fin k0_t1_loop.trips), k0_off11 c t = ![0, 2 * c.val + t.val / 4, 0, 0] := by decide +kernel
theorem off12_eq : ∀ (c : Dev nD) (t : Fin k0_t1_loop.trips), k0_off12 c t = ![1, 2 * c.val + t.val / 4, 0, 0] := by decide +kernel

/-! ### The later batches' set-up, one text for the three batches `(c + w) % 4`, `w = 1, 2, 3` -/

theorem off17_eq : ∀ (c : Dev nD) (r : Fin 3), k0_off17 c (BitVec.ofNat 32 (1 + r.val)) = ![(c.val + (1 + r.val)) % 4] := by decide +kernel
theorem off18_eq : ∀ (c : Dev nD) (r₁ : Fin 3) (r₂ : Fin 2), k0_off18 c (BitVec.ofNat 32 (1 + r₁.val)) (BitVec.ofNat 32 r₂.val) = ![0, 2 * ((c.val + (1 + r₁.val)) % 4) + r₂.val, 0, 0] := by decide +kernel
theorem off19_eq : ∀ (c : Dev nD) (r : Fin 3), k0_off19 c (BitVec.ofNat 32 (1 + r.val)) = ![(c.val + (1 + r.val)) % 4, 0, 0, 0] := by decide +kernel
theorem off20_eq : ∀ (c : Dev nD) (r₁ : Fin 3) (r₂ : Fin 2), k0_off20 c (BitVec.ofNat 32 (1 + r₁.val)) (BitVec.ofNat 32 r₂.val) = ![1, 2 * ((c.val + (1 + r₁.val)) % 4) + r₂.val, 0, 0] := by decide +kernel
theorem off21_eq : ∀ (c : Dev nD) (r : Fin 3), k0_off21 c (BitVec.ofNat 32 (1 + r.val)) = ![(c.val + (1 + r.val)) % 4, 0, 1, 0] := by decide +kernel
theorem off22_eq : ∀ (c : Dev nD) (r₁ : Fin 3) (r₂ : Fin 2), k0_off22 c (BitVec.ofNat 32 (1 + r₁.val)) (BitVec.ofNat 32 r₂.val) = ![0, 2 * ((c.val + (1 + r₁.val)) % 4) + r₂.val, 0, 0] := by decide +kernel
theorem off23_eq : ∀ (c : Dev nD) (r₁ : Fin 3) (r₂ : Fin 2), k0_off23 c (BitVec.ofNat 32 (1 + r₁.val)) (BitVec.ofNat 32 r₂.val) = ![1, 2 * ((c.val + (1 + r₁.val)) % 4) + r₂.val, 0, 0] := by decide +kernel
theorem off24_eq : ∀ (c : Dev nD) (r : Fin 3), k0_off24 c (BitVec.ofNat 32 (1 + r.val)) = ![(c.val + (1 + r.val)) % 4, 0, 0] := by decide +kernel
theorem off25_eq : ∀ (c : Dev nD) (r₁ : Fin 3) (r₂ : Fin 8), k0_off25 c (BitVec.ofNat 32 (1 + r₁.val)) (BitVec.ofNat 32 r₂.val) = ![8 * ((c.val + (1 + r₁.val)) % 4) + r₂.val, 0, 0] := by decide +kernel

/-! ### The second batch, `(c + 2) % 4`: its heads' loop, and the upper four heads sent to the predecessor -/

theorem off26_eq : ∀ (c : Dev nD) (t : Fin k0_t2_loop.trips), k0_off26 c t = ![8 * ((c.val + 2) % 4) + t.val, 0, 0] := by decide +kernel
theorem off27_eq : ∀ (c : Dev nD) (t : Fin k0_t2_loop.trips), k0_off27 c t = ![0, 2 * ((c.val + 2) % 4) + t.val / 4, 0, 0] := by decide +kernel
theorem off28_eq : ∀ (c : Dev nD) (t : Fin k0_t2_loop.trips), k0_off28 c t = ![1, 2 * ((c.val + 2) % 4) + t.val / 4, 0, 0] := by decide +kernel
theorem off29_eq : ∀ (c : Dev nD) (t : Fin k0_t2_loop.trips), k0_off29 c t = ![8 * ((c.val + 2) % 4) + t.val, 0, 0] := by decide +kernel
theorem off30_eq : ∀ (c : Dev nD) (t : Fin k0_t2_loop.trips), k0_off30 c t = ![8 * ((c.val + 2) % 4) + t.val, 0, 0] := by decide +kernel
theorem off31_eq : ∀ c : Dev nD, k0_off31 c = ![8 * ((c.val + 2) % 4) + 4, 0, 0] := by decide +kernel
theorem off32_eq : ∀ c : Dev nD, k0_off32 c = ![8 * ((c.val + 2) % 4) + 4, 0, 0] := by decide +kernel

/-! ### The third batch, `(c + 3) % 4` -/

theorem off33_eq : ∀ (c : Dev nD) (t : Fin k0_t3_loop.trips), k0_off33 c t = ![8 * ((c.val + 3) % 4) + t.val, 0, 0] := by decide +kernel
theorem off34_eq : ∀ (c : Dev nD) (t : Fin k0_t3_loop.trips), k0_off34 c t = ![0, 2 * ((c.val + 3) % 4) + t.val / 4, 0, 0] := by decide +kernel
theorem off35_eq : ∀ (c : Dev nD) (t : Fin k0_t3_loop.trips), k0_off35 c t = ![1, 2 * ((c.val + 3) % 4) + t.val / 4, 0, 0] := by decide +kernel
theorem off36_eq : ∀ (c : Dev nD) (t : Fin k0_t3_loop.trips), k0_off36 c t = ![8 * ((c.val + 3) % 4) + t.val, 0, 0] := by decide +kernel
theorem off37_eq : ∀ (c : Dev nD) (t : Fin k0_t3_loop.trips), k0_off37 c t = ![8 * ((c.val + 3) % 4) + t.val, 0, 0] := by decide +kernel

/-! ### The merges after hop 0: both directions add batch `(c + 3) % 4`, the lower four heads for the
successor's stream, the upper four for the predecessor's -/

theorem off39_eq : ∀ (c : Dev nD) (t : Fin k0_t4_loop.trips), k0_off39 c t = ![8 * ((c.val + 3) % 4) + t.val, 0, 0] := by decide +kernel
theorem off41_eq : ∀ (c : Dev nD) (t : Fin k0_t4_loop.trips), k0_off41 c t = ![8 * ((c.val + 3) % 4) + t.val, 0, 0] := by decide +kernel
theorem off43_eq : ∀ (c : Dev nD) (t : Fin k0_t5_loop.trips), k0_off43 c t = ![8 * ((c.val + 3) % 4) + (t.val + 4), 0, 0] := by decide +kernel
theorem off45_eq : ∀ (c : Dev nD) (t : Fin k0_t5_loop.trips), k0_off45 c t = ![8 * ((c.val + 3) % 4) + (t.val + 4), 0, 0] := by decide +kernel

/-! ### The fourth batch, `(c + 1) % 4` -/

theorem off46_eq : ∀ (c : Dev nD) (t : Fin k0_t6_loop.trips), k0_off46 c t = ![8 * ((c.val + 1) % 4) + t.val, 0, 0] := by decide +kernel
theorem off47_eq : ∀ (c : Dev nD) (t : Fin k0_t6_loop.trips), k0_off47 c t = ![0, 2 * ((c.val + 1) % 4) + t.val / 4, 0, 0] := by decide +kernel
theorem off48_eq : ∀ (c : Dev nD) (t : Fin k0_t6_loop.trips), k0_off48 c t = ![1, 2 * ((c.val + 1) % 4) + t.val / 4, 0, 0] := by decide +kernel
theorem off49_eq : ∀ (c : Dev nD) (t : Fin k0_t6_loop.trips), k0_off49 c t = ![8 * ((c.val + 1) % 4) + t.val, 0, 0] := by decide +kernel
theorem off50_eq : ∀ (c : Dev nD) (t : Fin k0_t6_loop.trips), k0_off50 c t = ![8 * ((c.val + 1) % 4) + t.val, 0, 0] := by decide +kernel

/-! ### The merges after hop 1: batch `(c + 2) % 4` for the successor's stream, the device's own batch for the
predecessor's -/

theorem off52_eq : ∀ (c : Dev nD) (t : Fin k0_t7_loop.trips), k0_off52 c t = ![8 * ((c.val + 2) % 4) + t.val, 0, 0] := by decide +kernel
theorem off54_eq : ∀ (c : Dev nD) (t : Fin k0_t7_loop.trips), k0_off54 c t = ![8 * ((c.val + 2) % 4) + t.val, 0, 0] := by decide +kernel
theorem off56_eq : ∀ (c : Dev nD) (t : Fin k0_t8_loop.trips), k0_off56 c t = ![8 * c.val + (t.val + 4), 0, 0] := by decide +kernel
theorem off58_eq : ∀ (c : Dev nD) (t : Fin k0_t8_loop.trips), k0_off58 c t = ![8 * c.val + (t.val + 4), 0, 0] := by decide +kernel

/-! ### The merges after hop 2: both directions add batch `(c + 1) % 4`, which is then complete -/

theorem off60_eq : ∀ (c : Dev nD) (t : Fin k0_t9_loop.trips), k0_off60 c t = ![8 * ((c.val + 1) % 4) + t.val, 0, 0] := by decide +kernel
theorem off62_eq : ∀ (c : Dev nD) (t : Fin k0_t9_loop.trips), k0_off62 c t = ![8 * ((c.val + 1) % 4) + t.val, 0, 0] := by decide +kernel
theorem off64_eq : ∀ (c : Dev nD) (t : Fin k0_t10_loop.trips), k0_off64 c t = ![8 * ((c.val + 1) % 4) + (t.val + 4), 0, 0] := by decide +kernel
theorem off66_eq : ∀ (c : Dev nD) (t : Fin k0_t10_loop.trips), k0_off66 c t = ![8 * ((c.val + 1) % 4) + (t.val + 4), 0, 0] := by decide +kernel

/-! ### The gathering: at hop `r` the upper half-rows of block `(c + 1 + 4 - r) % 4` go to the successor and the
lower half-rows (from row 128) of block `(c + 1 + r) % 4` to the predecessor -/

theorem off67_eq : ∀ (c : Dev nD) (r : Fin 3), k0_off67 c (BitVec.ofNat 32 r.val) = ![(c.val + 5 - r.val) % 4, 0, 0] := by decide +kernel
theorem off68_eq : ∀ (c : Dev nD) (r : Fin 3), k0_off68 c (BitVec.ofNat 32 r.val) = ![(c.val + 1 + r.val) % 4, 128, 0] := by decide +kernel

/-! ## The closed forms as instances

The same closed forms, attached to each chain where the program applies it: at the device and trip for a chain
over a loop, at each literal word for a chain over a word. -/

instance closedOff_k0_off11 (c : Dev nD) (t : Fin k0_t1_loop.trips) : ClosedOff (k0_off11 c t) := ⟨![0, 2 * c.val + t.val / 4, 0, 0], off11_eq c t⟩
instance closedOff_k0_off12 (c : Dev nD) (t : Fin k0_t1_loop.trips) : ClosedOff (k0_off12 c t) := ⟨![1, 2 * c.val + t.val / 4, 0, 0], off12_eq c t⟩

instance closedOff_k0_off17_1 (c : Dev nD) : ClosedOff (k0_off17 c (BitVec.ofNat 32 1)) := ⟨![(c.val + 1) % 4], off17_eq c ⟨0, by decide⟩⟩
instance closedOff_k0_off17_2 (c : Dev nD) : ClosedOff (k0_off17 c (BitVec.ofNat 32 2)) := ⟨![(c.val + 2) % 4], off17_eq c ⟨1, by decide⟩⟩
instance closedOff_k0_off17_3 (c : Dev nD) : ClosedOff (k0_off17 c (BitVec.ofNat 32 3)) := ⟨![(c.val + 3) % 4], off17_eq c ⟨2, by decide⟩⟩

instance closedOff_k0_off18_1_0 (c : Dev nD) : ClosedOff (k0_off18 c (BitVec.ofNat 32 1) (BitVec.ofNat 32 0)) := ⟨![0, 2 * ((c.val + 1) % 4) + 0, 0, 0], off18_eq c ⟨0, by decide⟩ ⟨0, by decide⟩⟩
instance closedOff_k0_off18_1_1 (c : Dev nD) : ClosedOff (k0_off18 c (BitVec.ofNat 32 1) (BitVec.ofNat 32 1)) := ⟨![0, 2 * ((c.val + 1) % 4) + 1, 0, 0], off18_eq c ⟨0, by decide⟩ ⟨1, by decide⟩⟩
instance closedOff_k0_off18_2_0 (c : Dev nD) : ClosedOff (k0_off18 c (BitVec.ofNat 32 2) (BitVec.ofNat 32 0)) := ⟨![0, 2 * ((c.val + 2) % 4) + 0, 0, 0], off18_eq c ⟨1, by decide⟩ ⟨0, by decide⟩⟩
instance closedOff_k0_off18_2_1 (c : Dev nD) : ClosedOff (k0_off18 c (BitVec.ofNat 32 2) (BitVec.ofNat 32 1)) := ⟨![0, 2 * ((c.val + 2) % 4) + 1, 0, 0], off18_eq c ⟨1, by decide⟩ ⟨1, by decide⟩⟩
instance closedOff_k0_off18_3_0 (c : Dev nD) : ClosedOff (k0_off18 c (BitVec.ofNat 32 3) (BitVec.ofNat 32 0)) := ⟨![0, 2 * ((c.val + 3) % 4) + 0, 0, 0], off18_eq c ⟨2, by decide⟩ ⟨0, by decide⟩⟩
instance closedOff_k0_off18_3_1 (c : Dev nD) : ClosedOff (k0_off18 c (BitVec.ofNat 32 3) (BitVec.ofNat 32 1)) := ⟨![0, 2 * ((c.val + 3) % 4) + 1, 0, 0], off18_eq c ⟨2, by decide⟩ ⟨1, by decide⟩⟩

instance closedOff_k0_off19_1 (c : Dev nD) : ClosedOff (k0_off19 c (BitVec.ofNat 32 1)) := ⟨![(c.val + 1) % 4, 0, 0, 0], off19_eq c ⟨0, by decide⟩⟩
instance closedOff_k0_off19_2 (c : Dev nD) : ClosedOff (k0_off19 c (BitVec.ofNat 32 2)) := ⟨![(c.val + 2) % 4, 0, 0, 0], off19_eq c ⟨1, by decide⟩⟩
instance closedOff_k0_off19_3 (c : Dev nD) : ClosedOff (k0_off19 c (BitVec.ofNat 32 3)) := ⟨![(c.val + 3) % 4, 0, 0, 0], off19_eq c ⟨2, by decide⟩⟩

instance closedOff_k0_off20_1_0 (c : Dev nD) : ClosedOff (k0_off20 c (BitVec.ofNat 32 1) (BitVec.ofNat 32 0)) := ⟨![1, 2 * ((c.val + 1) % 4) + 0, 0, 0], off20_eq c ⟨0, by decide⟩ ⟨0, by decide⟩⟩
instance closedOff_k0_off20_1_1 (c : Dev nD) : ClosedOff (k0_off20 c (BitVec.ofNat 32 1) (BitVec.ofNat 32 1)) := ⟨![1, 2 * ((c.val + 1) % 4) + 1, 0, 0], off20_eq c ⟨0, by decide⟩ ⟨1, by decide⟩⟩
instance closedOff_k0_off20_2_0 (c : Dev nD) : ClosedOff (k0_off20 c (BitVec.ofNat 32 2) (BitVec.ofNat 32 0)) := ⟨![1, 2 * ((c.val + 2) % 4) + 0, 0, 0], off20_eq c ⟨1, by decide⟩ ⟨0, by decide⟩⟩
instance closedOff_k0_off20_2_1 (c : Dev nD) : ClosedOff (k0_off20 c (BitVec.ofNat 32 2) (BitVec.ofNat 32 1)) := ⟨![1, 2 * ((c.val + 2) % 4) + 1, 0, 0], off20_eq c ⟨1, by decide⟩ ⟨1, by decide⟩⟩
instance closedOff_k0_off20_3_0 (c : Dev nD) : ClosedOff (k0_off20 c (BitVec.ofNat 32 3) (BitVec.ofNat 32 0)) := ⟨![1, 2 * ((c.val + 3) % 4) + 0, 0, 0], off20_eq c ⟨2, by decide⟩ ⟨0, by decide⟩⟩
instance closedOff_k0_off20_3_1 (c : Dev nD) : ClosedOff (k0_off20 c (BitVec.ofNat 32 3) (BitVec.ofNat 32 1)) := ⟨![1, 2 * ((c.val + 3) % 4) + 1, 0, 0], off20_eq c ⟨2, by decide⟩ ⟨1, by decide⟩⟩

instance closedOff_k0_off21_1 (c : Dev nD) : ClosedOff (k0_off21 c (BitVec.ofNat 32 1)) := ⟨![(c.val + 1) % 4, 0, 1, 0], off21_eq c ⟨0, by decide⟩⟩
instance closedOff_k0_off21_2 (c : Dev nD) : ClosedOff (k0_off21 c (BitVec.ofNat 32 2)) := ⟨![(c.val + 2) % 4, 0, 1, 0], off21_eq c ⟨1, by decide⟩⟩
instance closedOff_k0_off21_3 (c : Dev nD) : ClosedOff (k0_off21 c (BitVec.ofNat 32 3)) := ⟨![(c.val + 3) % 4, 0, 1, 0], off21_eq c ⟨2, by decide⟩⟩

instance closedOff_k0_off22_1_0 (c : Dev nD) : ClosedOff (k0_off22 c (BitVec.ofNat 32 1) (BitVec.ofNat 32 0)) := ⟨![0, 2 * ((c.val + 1) % 4) + 0, 0, 0], off22_eq c ⟨0, by decide⟩ ⟨0, by decide⟩⟩
instance closedOff_k0_off22_1_1 (c : Dev nD) : ClosedOff (k0_off22 c (BitVec.ofNat 32 1) (BitVec.ofNat 32 1)) := ⟨![0, 2 * ((c.val + 1) % 4) + 1, 0, 0], off22_eq c ⟨0, by decide⟩ ⟨1, by decide⟩⟩
instance closedOff_k0_off22_2_0 (c : Dev nD) : ClosedOff (k0_off22 c (BitVec.ofNat 32 2) (BitVec.ofNat 32 0)) := ⟨![0, 2 * ((c.val + 2) % 4) + 0, 0, 0], off22_eq c ⟨1, by decide⟩ ⟨0, by decide⟩⟩
instance closedOff_k0_off22_2_1 (c : Dev nD) : ClosedOff (k0_off22 c (BitVec.ofNat 32 2) (BitVec.ofNat 32 1)) := ⟨![0, 2 * ((c.val + 2) % 4) + 1, 0, 0], off22_eq c ⟨1, by decide⟩ ⟨1, by decide⟩⟩
instance closedOff_k0_off22_3_0 (c : Dev nD) : ClosedOff (k0_off22 c (BitVec.ofNat 32 3) (BitVec.ofNat 32 0)) := ⟨![0, 2 * ((c.val + 3) % 4) + 0, 0, 0], off22_eq c ⟨2, by decide⟩ ⟨0, by decide⟩⟩
instance closedOff_k0_off22_3_1 (c : Dev nD) : ClosedOff (k0_off22 c (BitVec.ofNat 32 3) (BitVec.ofNat 32 1)) := ⟨![0, 2 * ((c.val + 3) % 4) + 1, 0, 0], off22_eq c ⟨2, by decide⟩ ⟨1, by decide⟩⟩

instance closedOff_k0_off23_1_0 (c : Dev nD) : ClosedOff (k0_off23 c (BitVec.ofNat 32 1) (BitVec.ofNat 32 0)) := ⟨![1, 2 * ((c.val + 1) % 4) + 0, 0, 0], off23_eq c ⟨0, by decide⟩ ⟨0, by decide⟩⟩
instance closedOff_k0_off23_1_1 (c : Dev nD) : ClosedOff (k0_off23 c (BitVec.ofNat 32 1) (BitVec.ofNat 32 1)) := ⟨![1, 2 * ((c.val + 1) % 4) + 1, 0, 0], off23_eq c ⟨0, by decide⟩ ⟨1, by decide⟩⟩
instance closedOff_k0_off23_2_0 (c : Dev nD) : ClosedOff (k0_off23 c (BitVec.ofNat 32 2) (BitVec.ofNat 32 0)) := ⟨![1, 2 * ((c.val + 2) % 4) + 0, 0, 0], off23_eq c ⟨1, by decide⟩ ⟨0, by decide⟩⟩
instance closedOff_k0_off23_2_1 (c : Dev nD) : ClosedOff (k0_off23 c (BitVec.ofNat 32 2) (BitVec.ofNat 32 1)) := ⟨![1, 2 * ((c.val + 2) % 4) + 1, 0, 0], off23_eq c ⟨1, by decide⟩ ⟨1, by decide⟩⟩
instance closedOff_k0_off23_3_0 (c : Dev nD) : ClosedOff (k0_off23 c (BitVec.ofNat 32 3) (BitVec.ofNat 32 0)) := ⟨![1, 2 * ((c.val + 3) % 4) + 0, 0, 0], off23_eq c ⟨2, by decide⟩ ⟨0, by decide⟩⟩
instance closedOff_k0_off23_3_1 (c : Dev nD) : ClosedOff (k0_off23 c (BitVec.ofNat 32 3) (BitVec.ofNat 32 1)) := ⟨![1, 2 * ((c.val + 3) % 4) + 1, 0, 0], off23_eq c ⟨2, by decide⟩ ⟨1, by decide⟩⟩

instance closedOff_k0_off24_1 (c : Dev nD) : ClosedOff (k0_off24 c (BitVec.ofNat 32 1)) := ⟨![(c.val + 1) % 4, 0, 0], off24_eq c ⟨0, by decide⟩⟩
instance closedOff_k0_off24_2 (c : Dev nD) : ClosedOff (k0_off24 c (BitVec.ofNat 32 2)) := ⟨![(c.val + 2) % 4, 0, 0], off24_eq c ⟨1, by decide⟩⟩
instance closedOff_k0_off24_3 (c : Dev nD) : ClosedOff (k0_off24 c (BitVec.ofNat 32 3)) := ⟨![(c.val + 3) % 4, 0, 0], off24_eq c ⟨2, by decide⟩⟩

instance closedOff_k0_off25_1_0 (c : Dev nD) : ClosedOff (k0_off25 c (BitVec.ofNat 32 1) (BitVec.ofNat 32 0)) := ⟨![8 * ((c.val + 1) % 4) + 0, 0, 0], off25_eq c ⟨0, by decide⟩ ⟨0, by decide⟩⟩
instance closedOff_k0_off25_1_1 (c : Dev nD) : ClosedOff (k0_off25 c (BitVec.ofNat 32 1) (BitVec.ofNat 32 1)) := ⟨![8 * ((c.val + 1) % 4) + 1, 0, 0], off25_eq c ⟨0, by decide⟩ ⟨1, by decide⟩⟩
instance closedOff_k0_off25_1_2 (c : Dev nD) : ClosedOff (k0_off25 c (BitVec.ofNat 32 1) (BitVec.ofNat 32 2)) := ⟨![8 * ((c.val + 1) % 4) + 2, 0, 0], off25_eq c ⟨0, by decide⟩ ⟨2, by decide⟩⟩
instance closedOff_k0_off25_1_3 (c : Dev nD) : ClosedOff (k0_off25 c (BitVec.ofNat 32 1) (BitVec.ofNat 32 3)) := ⟨![8 * ((c.val + 1) % 4) + 3, 0, 0], off25_eq c ⟨0, by decide⟩ ⟨3, by decide⟩⟩
instance closedOff_k0_off25_1_4 (c : Dev nD) : ClosedOff (k0_off25 c (BitVec.ofNat 32 1) (BitVec.ofNat 32 4)) := ⟨![8 * ((c.val + 1) % 4) + 4, 0, 0], off25_eq c ⟨0, by decide⟩ ⟨4, by decide⟩⟩
instance closedOff_k0_off25_1_5 (c : Dev nD) : ClosedOff (k0_off25 c (BitVec.ofNat 32 1) (BitVec.ofNat 32 5)) := ⟨![8 * ((c.val + 1) % 4) + 5, 0, 0], off25_eq c ⟨0, by decide⟩ ⟨5, by decide⟩⟩
instance closedOff_k0_off25_1_6 (c : Dev nD) : ClosedOff (k0_off25 c (BitVec.ofNat 32 1) (BitVec.ofNat 32 6)) := ⟨![8 * ((c.val + 1) % 4) + 6, 0, 0], off25_eq c ⟨0, by decide⟩ ⟨6, by decide⟩⟩
instance closedOff_k0_off25_1_7 (c : Dev nD) : ClosedOff (k0_off25 c (BitVec.ofNat 32 1) (BitVec.ofNat 32 7)) := ⟨![8 * ((c.val + 1) % 4) + 7, 0, 0], off25_eq c ⟨0, by decide⟩ ⟨7, by decide⟩⟩
instance closedOff_k0_off25_2_0 (c : Dev nD) : ClosedOff (k0_off25 c (BitVec.ofNat 32 2) (BitVec.ofNat 32 0)) := ⟨![8 * ((c.val + 2) % 4) + 0, 0, 0], off25_eq c ⟨1, by decide⟩ ⟨0, by decide⟩⟩
instance closedOff_k0_off25_2_1 (c : Dev nD) : ClosedOff (k0_off25 c (BitVec.ofNat 32 2) (BitVec.ofNat 32 1)) := ⟨![8 * ((c.val + 2) % 4) + 1, 0, 0], off25_eq c ⟨1, by decide⟩ ⟨1, by decide⟩⟩
instance closedOff_k0_off25_2_2 (c : Dev nD) : ClosedOff (k0_off25 c (BitVec.ofNat 32 2) (BitVec.ofNat 32 2)) := ⟨![8 * ((c.val + 2) % 4) + 2, 0, 0], off25_eq c ⟨1, by decide⟩ ⟨2, by decide⟩⟩
instance closedOff_k0_off25_2_3 (c : Dev nD) : ClosedOff (k0_off25 c (BitVec.ofNat 32 2) (BitVec.ofNat 32 3)) := ⟨![8 * ((c.val + 2) % 4) + 3, 0, 0], off25_eq c ⟨1, by decide⟩ ⟨3, by decide⟩⟩
instance closedOff_k0_off25_2_4 (c : Dev nD) : ClosedOff (k0_off25 c (BitVec.ofNat 32 2) (BitVec.ofNat 32 4)) := ⟨![8 * ((c.val + 2) % 4) + 4, 0, 0], off25_eq c ⟨1, by decide⟩ ⟨4, by decide⟩⟩
instance closedOff_k0_off25_2_5 (c : Dev nD) : ClosedOff (k0_off25 c (BitVec.ofNat 32 2) (BitVec.ofNat 32 5)) := ⟨![8 * ((c.val + 2) % 4) + 5, 0, 0], off25_eq c ⟨1, by decide⟩ ⟨5, by decide⟩⟩
instance closedOff_k0_off25_2_6 (c : Dev nD) : ClosedOff (k0_off25 c (BitVec.ofNat 32 2) (BitVec.ofNat 32 6)) := ⟨![8 * ((c.val + 2) % 4) + 6, 0, 0], off25_eq c ⟨1, by decide⟩ ⟨6, by decide⟩⟩
instance closedOff_k0_off25_2_7 (c : Dev nD) : ClosedOff (k0_off25 c (BitVec.ofNat 32 2) (BitVec.ofNat 32 7)) := ⟨![8 * ((c.val + 2) % 4) + 7, 0, 0], off25_eq c ⟨1, by decide⟩ ⟨7, by decide⟩⟩
instance closedOff_k0_off25_3_0 (c : Dev nD) : ClosedOff (k0_off25 c (BitVec.ofNat 32 3) (BitVec.ofNat 32 0)) := ⟨![8 * ((c.val + 3) % 4) + 0, 0, 0], off25_eq c ⟨2, by decide⟩ ⟨0, by decide⟩⟩
instance closedOff_k0_off25_3_1 (c : Dev nD) : ClosedOff (k0_off25 c (BitVec.ofNat 32 3) (BitVec.ofNat 32 1)) := ⟨![8 * ((c.val + 3) % 4) + 1, 0, 0], off25_eq c ⟨2, by decide⟩ ⟨1, by decide⟩⟩
instance closedOff_k0_off25_3_2 (c : Dev nD) : ClosedOff (k0_off25 c (BitVec.ofNat 32 3) (BitVec.ofNat 32 2)) := ⟨![8 * ((c.val + 3) % 4) + 2, 0, 0], off25_eq c ⟨2, by decide⟩ ⟨2, by decide⟩⟩
instance closedOff_k0_off25_3_3 (c : Dev nD) : ClosedOff (k0_off25 c (BitVec.ofNat 32 3) (BitVec.ofNat 32 3)) := ⟨![8 * ((c.val + 3) % 4) + 3, 0, 0], off25_eq c ⟨2, by decide⟩ ⟨3, by decide⟩⟩
instance closedOff_k0_off25_3_4 (c : Dev nD) : ClosedOff (k0_off25 c (BitVec.ofNat 32 3) (BitVec.ofNat 32 4)) := ⟨![8 * ((c.val + 3) % 4) + 4, 0, 0], off25_eq c ⟨2, by decide⟩ ⟨4, by decide⟩⟩
instance closedOff_k0_off25_3_5 (c : Dev nD) : ClosedOff (k0_off25 c (BitVec.ofNat 32 3) (BitVec.ofNat 32 5)) := ⟨![8 * ((c.val + 3) % 4) + 5, 0, 0], off25_eq c ⟨2, by decide⟩ ⟨5, by decide⟩⟩
instance closedOff_k0_off25_3_6 (c : Dev nD) : ClosedOff (k0_off25 c (BitVec.ofNat 32 3) (BitVec.ofNat 32 6)) := ⟨![8 * ((c.val + 3) % 4) + 6, 0, 0], off25_eq c ⟨2, by decide⟩ ⟨6, by decide⟩⟩
instance closedOff_k0_off25_3_7 (c : Dev nD) : ClosedOff (k0_off25 c (BitVec.ofNat 32 3) (BitVec.ofNat 32 7)) := ⟨![8 * ((c.val + 3) % 4) + 7, 0, 0], off25_eq c ⟨2, by decide⟩ ⟨7, by decide⟩⟩

instance closedOff_k0_off26 (c : Dev nD) (t : Fin k0_t2_loop.trips) : ClosedOff (k0_off26 c t) := ⟨![8 * ((c.val + 2) % 4) + t.val, 0, 0], off26_eq c t⟩
instance closedOff_k0_off27 (c : Dev nD) (t : Fin k0_t2_loop.trips) : ClosedOff (k0_off27 c t) := ⟨![0, 2 * ((c.val + 2) % 4) + t.val / 4, 0, 0], off27_eq c t⟩
instance closedOff_k0_off28 (c : Dev nD) (t : Fin k0_t2_loop.trips) : ClosedOff (k0_off28 c t) := ⟨![1, 2 * ((c.val + 2) % 4) + t.val / 4, 0, 0], off28_eq c t⟩
instance closedOff_k0_off29 (c : Dev nD) (t : Fin k0_t2_loop.trips) : ClosedOff (k0_off29 c t) := ⟨![8 * ((c.val + 2) % 4) + t.val, 0, 0], off29_eq c t⟩
instance closedOff_k0_off30 (c : Dev nD) (t : Fin k0_t2_loop.trips) : ClosedOff (k0_off30 c t) := ⟨![8 * ((c.val + 2) % 4) + t.val, 0, 0], off30_eq c t⟩
instance closedOff_k0_off31 (c : Dev nD) : ClosedOff (k0_off31 c) := ⟨![8 * ((c.val + 2) % 4) + 4, 0, 0], off31_eq c⟩
instance closedOff_k0_off32 (c : Dev nD) : ClosedOff (k0_off32 c) := ⟨![8 * ((c.val + 2) % 4) + 4, 0, 0], off32_eq c⟩

instance closedOff_k0_off33 (c : Dev nD) (t : Fin k0_t3_loop.trips) : ClosedOff (k0_off33 c t) := ⟨![8 * ((c.val + 3) % 4) + t.val, 0, 0], off33_eq c t⟩
instance closedOff_k0_off34 (c : Dev nD) (t : Fin k0_t3_loop.trips) : ClosedOff (k0_off34 c t) := ⟨![0, 2 * ((c.val + 3) % 4) + t.val / 4, 0, 0], off34_eq c t⟩
instance closedOff_k0_off35 (c : Dev nD) (t : Fin k0_t3_loop.trips) : ClosedOff (k0_off35 c t) := ⟨![1, 2 * ((c.val + 3) % 4) + t.val / 4, 0, 0], off35_eq c t⟩
instance closedOff_k0_off36 (c : Dev nD) (t : Fin k0_t3_loop.trips) : ClosedOff (k0_off36 c t) := ⟨![8 * ((c.val + 3) % 4) + t.val, 0, 0], off36_eq c t⟩
instance closedOff_k0_off37 (c : Dev nD) (t : Fin k0_t3_loop.trips) : ClosedOff (k0_off37 c t) := ⟨![8 * ((c.val + 3) % 4) + t.val, 0, 0], off37_eq c t⟩

instance closedOff_k0_off39 (c : Dev nD) (t : Fin k0_t4_loop.trips) : ClosedOff (k0_off39 c t) := ⟨![8 * ((c.val + 3) % 4) + t.val, 0, 0], off39_eq c t⟩
instance closedOff_k0_off41 (c : Dev nD) (t : Fin k0_t4_loop.trips) : ClosedOff (k0_off41 c t) := ⟨![8 * ((c.val + 3) % 4) + t.val, 0, 0], off41_eq c t⟩
instance closedOff_k0_off43 (c : Dev nD) (t : Fin k0_t5_loop.trips) : ClosedOff (k0_off43 c t) := ⟨![8 * ((c.val + 3) % 4) + (t.val + 4), 0, 0], off43_eq c t⟩
instance closedOff_k0_off45 (c : Dev nD) (t : Fin k0_t5_loop.trips) : ClosedOff (k0_off45 c t) := ⟨![8 * ((c.val + 3) % 4) + (t.val + 4), 0, 0], off45_eq c t⟩

instance closedOff_k0_off46 (c : Dev nD) (t : Fin k0_t6_loop.trips) : ClosedOff (k0_off46 c t) := ⟨![8 * ((c.val + 1) % 4) + t.val, 0, 0], off46_eq c t⟩
instance closedOff_k0_off47 (c : Dev nD) (t : Fin k0_t6_loop.trips) : ClosedOff (k0_off47 c t) := ⟨![0, 2 * ((c.val + 1) % 4) + t.val / 4, 0, 0], off47_eq c t⟩
instance closedOff_k0_off48 (c : Dev nD) (t : Fin k0_t6_loop.trips) : ClosedOff (k0_off48 c t) := ⟨![1, 2 * ((c.val + 1) % 4) + t.val / 4, 0, 0], off48_eq c t⟩
instance closedOff_k0_off49 (c : Dev nD) (t : Fin k0_t6_loop.trips) : ClosedOff (k0_off49 c t) := ⟨![8 * ((c.val + 1) % 4) + t.val, 0, 0], off49_eq c t⟩
instance closedOff_k0_off50 (c : Dev nD) (t : Fin k0_t6_loop.trips) : ClosedOff (k0_off50 c t) := ⟨![8 * ((c.val + 1) % 4) + t.val, 0, 0], off50_eq c t⟩

instance closedOff_k0_off52 (c : Dev nD) (t : Fin k0_t7_loop.trips) : ClosedOff (k0_off52 c t) := ⟨![8 * ((c.val + 2) % 4) + t.val, 0, 0], off52_eq c t⟩
instance closedOff_k0_off54 (c : Dev nD) (t : Fin k0_t7_loop.trips) : ClosedOff (k0_off54 c t) := ⟨![8 * ((c.val + 2) % 4) + t.val, 0, 0], off54_eq c t⟩
instance closedOff_k0_off56 (c : Dev nD) (t : Fin k0_t8_loop.trips) : ClosedOff (k0_off56 c t) := ⟨![8 * c.val + (t.val + 4), 0, 0], off56_eq c t⟩
instance closedOff_k0_off58 (c : Dev nD) (t : Fin k0_t8_loop.trips) : ClosedOff (k0_off58 c t) := ⟨![8 * c.val + (t.val + 4), 0, 0], off58_eq c t⟩

instance closedOff_k0_off60 (c : Dev nD) (t : Fin k0_t9_loop.trips) : ClosedOff (k0_off60 c t) := ⟨![8 * ((c.val + 1) % 4) + t.val, 0, 0], off60_eq c t⟩
instance closedOff_k0_off62 (c : Dev nD) (t : Fin k0_t9_loop.trips) : ClosedOff (k0_off62 c t) := ⟨![8 * ((c.val + 1) % 4) + t.val, 0, 0], off62_eq c t⟩
instance closedOff_k0_off64 (c : Dev nD) (t : Fin k0_t10_loop.trips) : ClosedOff (k0_off64 c t) := ⟨![8 * ((c.val + 1) % 4) + (t.val + 4), 0, 0], off64_eq c t⟩
instance closedOff_k0_off66 (c : Dev nD) (t : Fin k0_t10_loop.trips) : ClosedOff (k0_off66 c t) := ⟨![8 * ((c.val + 1) % 4) + (t.val + 4), 0, 0], off66_eq c t⟩

/-- The gathering's blocks at each hop, with the remainder worked out: towards the successor the blocks
    `c + 1`, `c`, `c + 3` (mod 4) in turn, towards the predecessor `c + 1`, `c + 2`, `c + 3`. -/
theorem off67_at0 : ∀ c : Dev nD, k0_off67 c (BitVec.ofNat 32 0) = ![(c.val + 1) % 4, 0, 0] := by decide +kernel
theorem off67_at1 : ∀ c : Dev nD, k0_off67 c (BitVec.ofNat 32 1) = ![c.val, 0, 0] := by decide +kernel
theorem off67_at2 : ∀ c : Dev nD, k0_off67 c (BitVec.ofNat 32 2) = ![(c.val + 3) % 4, 0, 0] := by decide +kernel
theorem off68_at0 : ∀ c : Dev nD, k0_off68 c (BitVec.ofNat 32 0) = ![(c.val + 1) % 4, 128, 0] := by decide +kernel
theorem off68_at1 : ∀ c : Dev nD, k0_off68 c (BitVec.ofNat 32 1) = ![(c.val + 2) % 4, 128, 0] := by decide +kernel
theorem off68_at2 : ∀ c : Dev nD, k0_off68 c (BitVec.ofNat 32 2) = ![(c.val + 3) % 4, 128, 0] := by decide +kernel

instance closedOff_k0_off67_0 (c : Dev nD) : ClosedOff (k0_off67 c (BitVec.ofNat 32 0)) := ⟨![(c.val + 1) % 4, 0, 0], off67_at0 c⟩
instance closedOff_k0_off67_1 (c : Dev nD) : ClosedOff (k0_off67 c (BitVec.ofNat 32 1)) := ⟨![c.val, 0, 0], off67_at1 c⟩
instance closedOff_k0_off67_2 (c : Dev nD) : ClosedOff (k0_off67 c (BitVec.ofNat 32 2)) := ⟨![(c.val + 3) % 4, 0, 0], off67_at2 c⟩
instance closedOff_k0_off68_0 (c : Dev nD) : ClosedOff (k0_off68 c (BitVec.ofNat 32 0)) := ⟨![(c.val + 1) % 4, 128, 0], off68_at0 c⟩
instance closedOff_k0_off68_1 (c : Dev nD) : ClosedOff (k0_off68 c (BitVec.ofNat 32 1)) := ⟨![(c.val + 2) % 4, 128, 0], off68_at1 c⟩
instance closedOff_k0_off68_2 (c : Dev nD) : ClosedOff (k0_off68 c (BitVec.ofNat 32 2)) := ⟨![(c.val + 3) % 4, 128, 0], off68_at2 c⟩

end Cert.KernelIdeal.Ring
-- ==== Proof.Sched.lean ====
/-
  The ring protocol of the attention kernel as a schedule of rounds.

  Device `c` (its neighbours `prv c = c − 1`, `nxt c = c + 1` modulo 4) owns, besides the runtime's barrier semaphore,
  thirty-six DMA cells: for each of the three hops and each of the six transfer kinds — the numerator block, the
  denominator rows and the result rows, travelling right (to `nxt`) or left (to `prv`) — a SEND cell, credited by the
  read-out of `c`'s own transfer, and a RECEIVE cell, credited by the landing of the neighbour's. Every cell has one round.
  The barrier cell's round has two duties of one unit, one per neighbour: with its unit a neighbour hands `c` the nine
  landing slices `c`'s transfers towards it will write, and the fact that it stands at round 0 of the nine receive cells
  those transfers credit. A receive duty hands the landing slice back to its owner at the sender's contents; a send duty
  hands the source slice back.
-/
import proofs.«900754_g7700000000000755_dist_attn_cross_gqa_kvseq_b4_sq256_skv1024_d1024_hq8_dh128_v7x_i4_f32_1_alg».proof.KernelIdeal
import proofs.«900754_g7700000000000755_dist_attn_cross_gqa_kvseq_b4_sq256_skv1024_d1024_hq8_dh128_v7x_i4_f32_1_alg».proof.Proof.Gen.KernelIdeal
import proofs.«900754_g7700000000000755_dist_attn_cross_gqa_kvseq_b4_sq256_skv1024_d1024_hq8_dh128_v7x_i4_f32_1_alg».proof.Proof.Gen.KernelIdeal.Launch
import proofs.«900754_g7700000000000755_dist_attn_cross_gqa_kvseq_b4_sq256_skv1024_d1024_hq8_dh128_v7x_i4_f32_1_alg».proof.Proof.Ring
import Idealize.ShloMosaic.Lib.Pipeline.Launch
import Idealize.ShloMosaic.Lib.Pipeline.Kit

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the ring's, and the transfers' counters, side by side -/

abbrev UB : Type := URounds (GSem nD τ sig) Bool
/-- The counters sit in the right factor, where the transfers' invariants look for them. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The buffers the ring moves, and their slices -/

/-- The per-device partial numerators and denominators (32 batch·head entries), the ring's three hop stages, the gathered result. -/
abbrev locO : Memref sig .tc .vmem S32x128x256 .bf16 := Memref.whole cc0_scratch0
abbrev locL : Memref sig .tc .vmem S32x1x256 .f32 := Memref.whole cc0_scratch1
abbrev rsO : Memref sig .tc .vmem S3x8x128x256 .bf16 := Memref.whole cc0_scratch2
abbrev rsL : Memref sig .tc .vmem S3x8x1x256 .f32 := Memref.whole cc0_scratch3
abbrev agB : Memref sig .tc .vmem S4x256x1024 .bf16 := Memref.whole cc0_scratch23

/-- Hop `h`'s landing slice of the numerators: heads 0–3 (from the left neighbour) or 4–7 (from the right one). -/
def dstO : Fin 3 → Bool → Memref sig .tc .vmem S4x128x256 .bf16
  | 0, false => (rsO.slice (Rect.unit (s := S3x8x128x256) ![0, 0, 0, 0] S1x4x128x256.size inb_S3x8x128x256_S1x4x128x256_0_0_0_0) (fun _ => rfl)).squeeze S4x128x256 squeezes_S1x4x128x256_S4x128x256
  | 0, true => (rsO.slice (Rect.unit (s := S3x8x128x256) ![0, 4, 0, 0] S1x4x128x256.size inb_S3x8x128x256_S1x4x128x256_0_4_0_0) (fun _ => rfl)).squeeze S4x128x256 squeezes_S1x4x128x256_S4x128x256
  | 1, false => (rsO.slice (Rect.unit (s := S3x8x128x256) ![1, 0, 0, 0] S1x4x128x256.size inb_S3x8x128x256_S1x4x128x256_1_0_0_0) (fun _ => rfl)).squeeze S4x128x256 squeezes_S1x4x128x256_S4x128x256
  | 1, true => (rsO.slice (Rect.unit (s := S3x8x128x256) ![1, 4, 0, 0] S1x4x128x256.size inb_S3x8x128x256_S1x4x128x256_1_4_0_0) (fun _ => rfl)).squeeze S4x128x256 squeezes_S1x4x128x256_S4x128x256
  | 2, false => (rsO.slice (Rect.unit (s := S3x8x128x256) ![2, 0, 0, 0] S1x4x128x256.size inb_S3x8x128x256_S1x4x128x256_2_0_0_0) (fun _ => rfl)).squeeze S4x128x256 squeezes_S1x4x128x256_S4x128x256
  | 2, true => (rsO.slice (Rect.unit (s := S3x8x128x256) ![2, 4, 0, 0] S1x4x128x256.size inb_S3x8x128x256_S1x4x128x256_2_4_0_0) (fun _ => rfl)).squeeze S4x128x256 squeezes_S1x4x128x256_S4x128x256
/-- and of the denominators. -/
def dstL : Fin 3 → Bool → Memref sig .tc .vmem S4x1x256 .f32
  | 0, false => (rsL.slice (Rect.unit (s := S3x8x1x256) ![0, 0, 0, 0] S1x4x1x256.size inb_S3x8x1x256_S1x4x1x256_0_0_0_0) (fun _ => rfl)).squeeze S4x1x256 squeezes_S1x4x1x256_S4x1x256
  | 0, true => (rsL.slice (Rect.unit (s := S3x8x1x256) ![0, 4, 0, 0] S1x4x1x256.size inb_S3x8x1x256_S1x4x1x256_0_4_0_0) (fun _ => rfl)).squeeze S4x1x256 squeezes_S1x4x1x256_S4x1x256
  | 1, false => (rsL.slice (Rect.unit (s := S3x8x1x256) ![1, 0, 0, 0] S1x4x1x256.size inb_S3x8x1x256_S1x4x1x256_1_0_0_0) (fun _ => rfl)).squeeze S4x1x256 squeezes_S1x4x1x256_S4x1x256
  | 1, true => (rsL.slice (Rect.unit (s := S3x8x1x256) ![1, 4, 0, 0] S1x4x1x256.size inb_S3x8x1x256_S1x4x1x256_1_4_0_0) (fun _ => rfl)).squeeze S4x1x256 squeezes_S1x4x1x256_S4x1x256
  | 2, false => (rsL.slice (Rect.unit (s := S3x8x1x256) ![2, 0, 0, 0] S1x4x1x256.size inb_S3x8x1x256_S1x4x1x256_2_0_0_0) (fun _ => rfl)).squeeze S4x1x256 squeezes_S1x4x1x256_S4x1x256
  | 2, true => (rsL.slice (Rect.unit (s := S3x8x1x256) ![2, 4, 0, 0] S1x4x1x256.size inb_S3x8x1x256_S1x4x1x256_2_4_0_0) (fun _ => rfl)).squeeze S4x1x256 squeezes_S1x4x1x256_S4x1x256

/-- What device `c` sends at hop `h`: at hop 0 its own partial sums of batch `c` (heads 0–3, to the right) or of batch
    `c + 2` (heads 4–7, to the left); afterwards the previous hop's landing slice, merged. -/
def srcO (c : Dev nD) : Fin 3 → Bool → Memref sig .tc .vmem S4x128x256 .bf16
  | 0, false => locO.slice (Rect.unit (s := S32x128x256) (k0_off15 c) S4x128x256.size (k0_off15_inb c)) (fun _ => rfl)
  | 0, true => locO.slice (Rect.unit (s := S32x128x256) (k0_off31 c) S4x128x256.size (k0_off31_inb c)) (fun _ => rfl)
  | 1, l => dstO 0 l
  | 2, l => dstO 1 l
def srcL (c : Dev nD) : Fin 3 → Bool → Memref sig .tc .vmem S4x1x256 .f32
  | 0, false => locL.slice (Rect.unit (s := S32x1x256) (k0_off16 c) S4x1x256.size (k0_off16_inb c)) (fun _ => rfl)
  | 0, true => locL.slice (Rect.unit (s := S32x1x256) (k0_off32 c) S4x1x256.size (k0_off32_inb c)) (fun _ => rfl)
  | 1, l => dstL 0 l
  | 2, l => dstL 1 l

/-- The half block of result rows device `c` forwards at hop `h` of the all-gather, spelt on the SENDER's position: the same
    expression names the source on `c` and the landing slice on the neighbour. -/
def agS (c : Dev nD) : Fin 3 → Bool → Memref sig .tc .vmem S128x1024 .bf16
  | 0, false => (agB.slice (Rect.unit (s := S4x256x1024) (k0_off67 c 0#32) S1x128x1024.size (k0_off67_inb c 0)) (fun _ => rfl)).squeeze S128x1024 squeezes_S1x128x1024_S128x1024
  | 1, false => (agB.slice (Rect.unit (s := S4x256x1024) (k0_off67 c 1#32) S1x128x1024.size (k0_off67_inb c 1)) (fun _ => rfl)).squeeze S128x1024 squeezes_S1x128x1024_S128x1024
  | 2, false => (agB.slice (Rect.unit (s := S4x256x1024) (k0_off67 c 2#32) S1x128x1024.size (k0_off67_inb c 2)) (fun _ => rfl)).squeeze S128x1024 squeezes_S1x128x1024_S128x1024
  | 0, true => (agB.slice (Rect.unit (s := S4x256x1024) (k0_off68 c 0#32) S1x128x1024.size (k0_off68_inb c 0)) (fun _ => rfl)).squeeze S128x1024 squeezes_S1x128x1024_S128x1024
  | 1, true => (agB.slice (Rect.unit (s := S4x256x1024) (k0_off68 c 1#32) S1x128x1024.size (k0_off68_inb c 1)) (fun _ => rfl)).squeeze S128x1024 squeezes_S1x128x1024_S128x1024
  | 2, true => (agB.slice (Rect.unit (s := S4x256x1024) (k0_off68 c 2#32) S1x128x1024.size (k0_off68_inb c 2)) (fun _ => rfl)).squeeze S128x1024 squeezes_S1x128x1024_S128x1024

/-! ## The cells -/

/-- The runtime's barrier semaphore of collective id 0. -/
abbrev barS : Sem sig := (SemArray.scalar (sig.barrier 0 rfl) : Sems sig S_).sem

/-- Element `h` of a three-element array of DMA semaphores, as the kernel slices it. -/
def elt3 (A : DmaSems sig S3) : Fin 3 → DmaSem sig
  | 0 => ((A.slice (Rect.unit (s := S3) ![0] S1.size inb_S3_S1_0)).squeeze S_ squeezes_S1_S_).sem
  | 1 => ((A.slice (Rect.unit (s := S3) ![1] S1.size inb_S3_S1_1)).squeeze S_ squeezes_S1_S_).sem
  | 2 => ((A.slice (Rect.unit (s := S3) ![2] S1.size inb_S3_S1_2)).squeeze S_ squeezes_S1_S_).sem

/-- The six transfer kinds: numerators, denominators, result rows; to the right (`false`) or to the left (`true`). -/
inductive Kind | o | l | g
  deriving DecidableEq

instance : Fintype Kind := ⟨{.o, .l, .g}, fun x => by cases x <;> decide⟩

/-- The send and receive semaphores of a kind, direction and hop. -/
def sendSem : Kind → Bool → Fin 3 → DmaSem sig
  | .o, false => elt3 cc0_scratch10 | .l, false => elt3 cc0_scratch12 | .g, false => elt3 cc0_scratch14
  | .o, true => elt3 cc0_scratch16 | .l, true => elt3 cc0_scratch18 | .g, true => elt3 cc0_scratch20
def recvSem : Kind → Bool → Fin 3 → DmaSem sig
  | .o, false => elt3 cc0_scratch11 | .l, false => elt3 cc0_scratch13 | .g, false => elt3 cc0_scratch15
  | .o, true => elt3 cc0_scratch17 | .l, true => elt3 cc0_scratch19 | .g, true => elt3 cc0_scratch21

abbrev barCell (c : Dev nD) : GSem nD τ sig := ((c : Thread nD τ), .reg barS)
abbrev sendCell (c : Dev nD) (k : Kind) (l : Bool) (h : Fin 3) : GSem nD τ sig := ((c : Thread nD τ), .dma (sendSem k l h))
abbrev recvCell (c : Dev nD) (k : Kind) (l : Bool) (h : Fin 3) : GSem nD τ sig := ((c : Thread nD τ), .dma (recvSem k l h))

/-- The device a transfer in direction `l` goes to, and the one it comes from. -/
def toDev (c : Dev nD) : Bool → Dev nD | false => nxt c | true => prv c
def fromDev (c : Dev nD) : Bool → Dev nD | false => prv c | true => nxt c

/-! ## The values the ring carries -/

/-- What each device sends at each hop: the contents of its source slice when it enqueues the transfer — a function of
    the launch memory alone, which the body's run identifies. -/
structure Vals (F : FTy → Type) [FloatOps F] where
  o : Dev nD → Fin 3 → Bool → S4x128x256.Idx → Elt F .bf16
  l : Dev nD → Fin 3 → Bool → S4x1x256.Idx → Elt F .f32
  g : Dev nD → Fin 3 → Bool → S128x1024.Idx → Elt F .bf16

variable (V : Vals F)

/-- A slice held at some contents that read, through the slice, as `w`. -/
def heldAs {sp : Space} {s : Shape} {e : EltTy} (c : Dev nD) (mr : Memref sig .tc sp s e) (w : s.Idx → Elt F e) : sProp 𝕄 :=
  iprop(∃ f : Buf (Elt F) (mr.view.loc (c : Thread nD τ)), (mr.view.loc (c : Thread nD τ) ↦[mr.view.set]{fullShare} f) ∗ ⌜mr.view.read (Elt F) f = w⌝)
/-- A slice held at some contents. -/
def held {sp : Space} {s : Shape} {e : EltTy} (c : Dev nD) (mr : Memref sig .tc sp s e) : sProp 𝕄 :=
  iprop(∃ f : Buf (Elt F) (mr.view.loc (c : Thread nD τ)), mr.view.loc (c : Thread nD τ) ↦[mr.view.set]{fullShare} f)

/-- What a receive duty hands device `c`: its landing slice at what the sender sent. -/
def recvPay (c : Dev nD) : Kind → Bool → Fin 3 → sProp 𝕄
  | .o, l, h => heldAs c (dstO h l) (V.o (fromDev c l) h l)
  | .l, l, h => heldAs c (dstL h l) (V.l (fromDev c l) h l)
  | .g, l, h => heldAs c (agS (fromDev c l) h l) (V.g (fromDev c l) h l)
/-- What a send duty hands device `c`: its source slice, as it was. -/
def sendPay (c : Dev nD) : Kind → Bool → Fin 3 → sProp 𝕄
  | .o, l, h => heldAs c (srcO c h l) (V.o c h l)
  | .l, l, h => heldAs c (srcL c h l) (V.l c h l)
  | .g, l, h => heldAs c (agS c h l) (V.g c h l)

/-- The landing slices of device `n` that a transfer in direction `l` from device `c` writes, one per kind and hop, each at
    some contents, and that `n` stands at round 0 of the receive cells those transfers credit. -/
def landing (c n : Dev nD) (l : Bool) (h : Fin 3) : sProp 𝕄 :=
  iprop(held n (dstO h l) ∗ held n (dstL h l) ∗ held n (agS c h l)
    ∗ reached ER (recvCell n .o l h) 0 ∗ reached ER (recvCell n .l l h) 0 ∗ reached ER (recvCell n .g l h) 0)
/-- What neighbour `n = toDev c l`'s barrier signal hands `c`: everything `c`'s transfers in direction `l` need of `n`. -/
def barPay (c : Dev nD) (l : Bool) : sProp 𝕄 :=
  iprop(landing c (toDev c l) l 0 ∗ landing c (toDev c l) l 1 ∗ landing c (toDev c l) l 2)

/-! ## The schedule -/

abbrev IsBar (g : GSem nD τ sig) : Prop := g.1.2 = .tc ∧ g.2 = .reg barS

/-- The units a transfer of a kind credits. -/
def amt : Kind → ℕ
  | .o => (dstO 0 false).view.dmaCredit | .l => (dstL 0 false).view.dmaCredit | .g => (agS (0 : Dev nD) 0 false).view.dmaCredit

/-- A transfer cell's role: kind, direction, hop, and whether it is the send cell (else the receive cell). -/
abbrev Role : Type := Kind × Bool × Fin 3 × Bool
def roleSem : Role → DmaSem sig
  | (k, l, h, true) => sendSem k l h
  | (k, l, h, false) => recvSem k l h

open Classical in
/-- Which transfer a DMA cell belongs to, if any. -/
def cellRole (sm : SemLoc sig) : Option Role :=
  if h : ∃ x : Role, sm = .dma (roleSem x) then some (Classical.choose h) else none

/-- One round, round 0, per cell: the barrier cell's two unit duties (`false`: paid by `nxt c`, handing what `c`'s
    right-going transfers need; `true`: by `prv c`, for the left-going ones); a transfer cell's one duty `false`. -/
def ringRd : Rounds.Schedule (GSem nD τ sig) Bool 𝕄 where
  duties g r := if r = 0 ∧ IsBar g then Finset.univ else if r = 0 ∧ g.1.2 = .tc ∧ (cellRole g.2).isSome then {false} else ∅
  unitless _ := False
  amount g _ _ := match cellRole g.2 with | some x => amt x.1 | none => 1
  payload g _ d :=
    if g.2 = .reg barS then barPay g.1.1 d
    else match cellRole g.2 with
      | some (k, l, h, true) => sendPay V g.1.1 k l h
      | some (k, l, h, false) => recvPay V g.1.1 k l h
      | none => iprop(emp)
  amount_pos g _ _ _ := by
    cases h : cellRole g.2 with
    | none => exact Nat.one_pos
    | some x =>
      obtain ⟨k, l, hh, b⟩ := x
      cases k
      · exact View.dmaCredit_pos (dstO 0 false).view (by decide)
      · exact View.dmaCredit_pos (dstL 0 false).view (by decide)
      · exact View.dmaCredit_pos (agS (0 : Dev nD) 0 false).view (by decide)

end Cert.KernelIdeal.Proto

end
-- ==== Proof.Data.lean ====
/-
  What a device's body starts from and ends with, what it owes, and the order of its payments.

  Device `c` pays, in program order: its unit on `prv c`'s barrier cell, its unit on `nxt c`'s, then its eighteen transfers —
  hop 0's numerators and denominators to the right, then to the left; hops 1 and 2 numerators right, left, denominators
  right, left; the all-gather's three hops right, left. A cell's level is the place of its transfer in that order (barrier
  cells below all transfers, staging and local-copy cells below those): a device waiting on a cell still owes only later
  transfers' receive credits.
-/
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Gen.KernelIdeal.Frame

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The payments, in program order -/

/-- One payment of a device: its unit on a neighbour's barrier cell (`true`: the left neighbour's), or a transfer. -/
inductive Pay
  | bar (l : Bool)
  | xfer (k : Kind) (l : Bool) (h : Fin 3)
  deriving DecidableEq

/-- A device's payments in the order its body makes them. -/
def prog : List Pay :=
  [.bar true, .bar false,
   .xfer .o false 0, .xfer .l false 0, .xfer .o true 0, .xfer .l true 0,
   .xfer .o false 1, .xfer .o true 1, .xfer .l false 1, .xfer .l true 1,
   .xfer .o false 2, .xfer .o true 2, .xfer .l false 2, .xfer .l true 2,
   .xfer .g false 0, .xfer .g true 0, .xfer .g false 1, .xfer .g true 1, .xfer .g false 2, .xfer .g true 2]

/-- The cell a payment of device `c` credits, and by how much. -/
def payCell (c : Dev nD) : Pay → GSem nD τ sig
  | .bar l => barCell (toDev c l)
  | .xfer k l h => recvCell (toDev c l) k l h
def payAmt : Pay → ℕ
  | .bar _ => 1
  | .xfer k _ _ => amt k

/-- What device `c` owes with the payments `ps` still to make, the next one outermost. -/
def owedOf (c : Dev nD) : List Pay → CellTallies nD τ sig Unit
  | [] => 0
  | p :: ps => owedOf c ps + tallyAt (payCell c p) () (payAmt p)

/-- What device `c` owes at launch. -/
def O₀ (c : Dev nD) : CellTallies nD τ sig Unit := owedOf c prog

/-! ## The levels -/

def L (g : GSem nD τ sig) : Finset Unit := if g.1.2 = .tc then {()} else ∅

/-- The place of a transfer in program order, from 2. -/
def place : Kind → Bool → Fin 3 → ℕ
  | .o, false, 0 => 2 | .l, false, 0 => 3 | .o, true, 0 => 4 | .l, true, 0 => 5
  | .o, false, 1 => 6 | .o, true, 1 => 7 | .l, false, 1 => 8 | .l, true, 1 => 9
  | .o, false, 2 => 10 | .o, true, 2 => 11 | .l, false, 2 => 12 | .l, true, 2 => 13
  | .g, false, 0 => 14 | .g, true, 0 => 15 | .g, false, 1 => 16 | .g, true, 1 => 17 | .g, false, 2 => 18 | .g, true, 2 => 19

/-- Barrier cells at 1, a transfer's send and receive cells at its place, everything else (staging cells, local-copy cells) at 0. -/
def lv (g : GSem nD τ sig) (_ : Unit) : ℕ :=
  if g.2 = .reg barS then 1 else match cellRole g.2 with | some (k, l, h, _) => place k l h | none => 0

/-! ## The ghost state of a body -/

/-- The cells' names as the launch allocated them: per device, its barrier cell (`none`) and its thirty-six transfer cells. -/
abbrev Names : Type := Dev nD × Option Role → ℕ

/-- The transfers: kind, direction, hop. -/
abbrev Xfer : Type := Kind × Bool × Fin 3

variable (V : Vals F)

/-- The invariants device `c`'s body opens: its own cells', both neighbours' barrier cells', and the receive cells' of the
    neighbours its transfers credit. -/
def invs (K : Names) (c : Dev nD) : sProp 𝕄 :=
  iprop(cellInv ER (ringRd V) (K (c, none)) (barCell c)
    ∗ (bigSep Finset.univ fun x : Xfer => iprop(cellInv ER (ringRd V) (K (c, some (x.1, x.2.1, x.2.2, true))) (sendCell c x.1 x.2.1 x.2.2)
        ∗ cellInv ER (ringRd V) (K (c, some (x.1, x.2.1, x.2.2, false))) (recvCell c x.1 x.2.1 x.2.2)
        ∗ cellInv ER (ringRd V) (K (toDev c x.2.1, some (x.1, x.2.1, x.2.2, false))) (recvCell (toDev c x.2.1) x.1 x.2.1 x.2.2)))
    ∗ cellInv ER (ringRd V) (K (nxt c, none)) (barCell (nxt c)) ∗ cellInv ER (ringRd V) (K (prv c, none)) (barCell (prv c)))

/-- The ring's ghost state device `c` starts from: the invariants; its position at round 0 of each of its cells; round 0
    reached at its own transfer cells and at both neighbours' barrier cells; and the duty tokens it pays with — `prv c`'s
    barrier duty `false` (it is `prv c`'s right neighbour), `nxt c`'s barrier duty `true`, each transfer's send duty on its own
    cell and receive duty on the neighbour's. -/
def ghost (K : Names) (c : Dev nD) : sProp 𝕄 :=
  iprop(invs V K c
    ∗ atPos ER (barCell c) 0 ∅ 0
    ∗ (bigSep Finset.univ fun x : Xfer => iprop(atPos ER (sendCell c x.1 x.2.1 x.2.2) 0 ∅ 0 ∗ atPos ER (recvCell c x.1 x.2.1 x.2.2) 0 ∅ 0))
    ∗ (bigSep Finset.univ fun x : Xfer => iprop(reached ER (sendCell c x.1 x.2.1 x.2.2) 0 ∗ reached ER (recvCell c x.1 x.2.1 x.2.2) 0))
    ∗ reached ER (barCell (nxt c)) 0 ∗ reached ER (barCell (prv c)) 0
    ∗ dutyTok ER (barCell (prv c)) 0 false ∗ dutyTok ER (barCell (nxt c)) 0 true
    ∗ (bigSep Finset.univ fun x : Xfer => iprop(dutyTok ER (sendCell c x.1 x.2.1 x.2.2) 0 false
        ∗ dutyTok ER (recvCell (toDev c x.2.1) x.1 x.2.1 x.2.2) 0 false)))

/-- The four local-copy semaphores, which stay in the device's hands. -/
def copySem : Fin 4 → DmaSem sig
  | 0 => ((cc0_scratch22.slice (Rect.unit (s := S4) ![0] S1.size inb_S4_S1_0)).squeeze S_ squeezes_S1_S_).sem
  | 1 => ((cc0_scratch22.slice (Rect.unit (s := S4) ![1] S1.size inb_S4_S1_1)).squeeze S_ squeezes_S1_S_).sem
  | 2 => ((cc0_scratch22.slice (Rect.unit (s := S4) ![2] S1.size inb_S4_S1_2)).squeeze S_ squeezes_S1_S_).sem
  | 3 => ((cc0_scratch22.slice (Rect.unit (s := S4) ![3] S1.size inb_S4_S1_3)).squeeze S_ squeezes_S1_S_).sem
def copySems0 (c : Dev nD) : sProp 𝕄 := bigSep Finset.univ fun b : Fin 4 => semVal (((c : Thread nD τ), .dma (copySem b)) : GSem nD τ sig) 0

variable (m : (ℓ : Loc nD τ sig) → Buf (Elt F) ℓ)

/-- The device's quarter of the key rows and of the value rows, in its unstaged arrays, as launched: the local copies
    read them, and the body hands them back as they were. -/
def hbm (c : Dev nD) : sProp 𝕄 :=
  iprop((((c : Thread nD τ).loc main_arg3) ↦{fullShare} m ((c : Thread nD τ).loc main_arg3))
    ∗ (((c : Thread nD τ).loc main_arg4) ↦{fullShare} m ((c : Thread nD τ).loc main_arg4)))

/-- What device `c`'s body starts from besides its buffers: the ghost state at some names, the credit dealt at launch —
    its barrier cell's two units and each receive cell's transfer —, the level facts, and its local-copy semaphores at zero. -/
def start (c : Dev nD) : sProp 𝕄 :=
  iprop((∃ K, ghost V K c) ∗ cred (tallyAt (barCell c) () 2)
    ∗ (bigSep Finset.univ fun x : Xfer => cred (tallyAt (recvCell c x.1 x.2.1 x.2.2) () (amt x.1)))
    ∗ levAts L lv ∗ copySems0 c ∗ hbm m c)

/-- The eleven scratch buffers, each whole at some contents. -/
def scratch (c : Dev nD) : sProp 𝕄 := Pipeline.scopedRest (Ix := Unit) (Name := ℕ) (U := UU) (Lvl := ℕ) (Val := Elt F) spec0 c

def Φ₀ (c : Dev nD) : sProp 𝕄 := iprop(start V m c ∗ scratch c)
/-- After the point: the scratch buffers at some contents, every transfer cell closed and every own semaphore at zero. -/
def Φ₁ (c : Dev nD) : sProp 𝕄 :=
  iprop(scratch c ∗ copySems0 c ∗ hbm m c
    ∗ bigSep Finset.univ fun x : Xfer => iprop(semVal (sendCell c x.1 x.2.1 x.2.2) 0 ∗ semVal (recvCell c x.1 x.2.1 x.2.2) 0))

/-! ## The pipeline's proof data -/

variable (ρ : Dev nD → PrngReg)

/-- The memory at launch. -/
def s₀ : MemSt nD τ sig (Elt F) := ⟨m, fun _ => 0, ρ⟩

/-- The result block of each device, as a function of the launch memory. -/
abbrev OutFn (F : FTy → Type) [FloatOps F] : Type :=
  ((ℓ : Loc nD τ sig) → Buf (Elt F) ℓ) → (c : Dev nD) → (cc0_stg3_0 : Ref sig .tc).ty.Contents (Elt F)

variable (Kout : OutFn F)

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => Kout m c
  Φ t := match t with
    | ⟨0, _⟩ => Φ₀ V m c
    | ⟨_ + 1, _⟩ => Φ₁ m c
  q _ := fullShare
  owed t := match t with
    | ⟨0, _⟩ => O₀ c
    | ⟨_ + 1, _⟩ => 0

abbrev 𝒱₀ : Variants := Variants.none

/-- The body obligation the launch takes as given. -/
def BodyOK : Prop := ∀ c : Dev nD, BodyObligation (dats (F := F) V m Kout 0 c) (defs₀ (F := F)) 𝒱₀ () Set.univ

end Cert.KernelIdeal.Proto

end
-- ==== Proof.KFun.lean ====
/-
  The kernel as a pure function of the launch memory, and its value.

  Device `c` runs four flash steps (batches `c`, `c + 2`, `c + 3`, `c + 1`), each giving for every head the unnormalised
  softmax numerators and denominators over the device's own 1024 key rows; the partial sums of batch `b` then travel a
  ring — heads 0–3 from device `b` to the right, heads 4–7 from device `b + 2` to the left — every device adding its own to
  what it receives, so that after three hops device `c` holds the full sums of batch `c + 1`; it normalises them, multiplies
  by its `Wo` head by head, and the finished blocks are gathered by forwarding half blocks both ways round the ring.
  Everything is written with the program's own payload functions, so that a run of the program meets these terms.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.Gen.KernelIdeal.Skeleton
import proofs.«900754_g7700000000000755_dist_attn_cross_gqa_kvseq_b4_sq256_skv1024_d1024_hq8_dh128_v7x_i4_f32_1_alg».proof.Proof.Spec

noncomputable section

open scoped BigOperators

namespace Cert.KernelIdeal.KFun

open Cert.KernelIdeal Cert.KernelIdeal.Gen Cert.KernelIdeal.Ring Cert.KernelIdeal.Proto
open Idealize.ShloMosaic Idealize.ShloMosaic.TcCoe Idealize.ShloMosaic.ValueIdx Idealize.SL.Sem

variable {F : FTy → Type} [FloatOps F]

/-! ## A device's arrays -/

section
variable (m : (ℓ : Loc nD τ sig) → Buf (Elt F) ℓ)

/-- Device `c`'s copies of `x`, `Wq`, `Wo` and its quarters of the key and value rows, as launched. -/
def X (c : Dev nD) : Vec F S4x256x1024 .f32 := m ((c : Thread nD τ).loc main_arg0)
def WQ (c : Dev nD) : Vec F S1024x1024 .f32 := m ((c : Thread nD τ).loc main_arg1)
def WO (c : Dev nD) : Vec F S1024x1024 .f32 := m ((c : Thread nD τ).loc main_arg2)
def KQ (c : Dev nD) : Vec F S4x1024x2x128 .f32 := m ((c : Thread nD τ).loc main_arg3)
def VQ (c : Dev nD) : Vec F S4x1024x2x128 .f32 := m ((c : Thread nD τ).loc main_arg4)

/-- The two weight matrices in the narrow format. -/
def wqb (c : Dev nD) : FVec F S1024x1024 .bf16 := k0_pay21 (WQ m c)
def wob (c : Dev nD) : FVec F S1024x1024 .bf16 := k0_pay22 (WO m c)

/-- Batch `b` of `x` as a one-batch tile. -/
def xblk (c : Dev nD) (b : Fin 4) : Vec F S1x256x1024 .f32 :=
  fun t => X m c (ix3 b (⟨(t 1).val, (t 1).isLt⟩ : Fin 256) (⟨(t 2).val, (t 2).isLt⟩ : Fin 1024))

/-- The key rows, and the value rows, of batch `b` and key/value head `g`, as a tile, and narrowed. -/
def kslice (c : Dev nD) (b : Fin 4) (g : Fin 2) : Vec F S1x1x1024x128 .f32 :=
  fun t => KQ m c (ix4 b (⟨(t 2).val, (t 2).isLt⟩ : Fin 1024) g (⟨(t 3).val, (t 3).isLt⟩ : Fin 128))
def vslice (c : Dev nD) (b : Fin 4) (g : Fin 2) : Vec F S1x1x1024x128 .f32 :=
  fun t => VQ m c (ix4 b (⟨(t 2).val, (t 2).isLt⟩ : Fin 1024) g (⟨(t 3).val, (t 3).isLt⟩ : Fin 128))
def kh (c : Dev nD) (b : Fin 4) (g : Fin 2) : FVec F S1x1x1024x128 .bf16 := k0_pay25 (kslice m c b g)
def vh (c : Dev nD) (b : Fin 4) (g : Fin 2) : FVec F S1x1x1024x128 .bf16 := k0_pay25 (vslice m c b g)

/-- The projected and scaled queries of batch `b`, and head `h`'s 128 columns of them as a tile. -/
def qb (c : Dev nD) (b : Fin 4) : FVec F S256x1024 .f32 := k0_pay28 (xblk m c b) (wqb m c)
def q2 (c : Dev nD) (b : Fin 4) : Fin 8 → FVec F S1x256x128 .bf16
  | 0 => k0_pay29 (xblk m c b) (wqb m c)
  | 1 => k0_pay30 (xblk m c b) (wqb m c)
  | 2 => k0_pay32 (k0_pay31 (xblk m c b) (wqb m c))
  | 3 => k0_pay33 (qb m c b)
  | 4 => k0_pay34 (qb m c b)
  | 5 => k0_pay35 (qb m c b)
  | 6 => k0_pay36 (qb m c b)
  | 7 => k0_pay37 (qb m c b)

/-! ## One flash step: batch `b`, head `h`, over the device's own 1024 key rows -/

/-- The weights in the narrow format, the row of their sums, and the value rows contracted with them. -/
def ew (c : Dev nD) (b : Fin 4) (h : Fin 8) : FVec F S1024x256 .bf16 := k0_pay8 (q2 m c b h) (kh m c b (Cert.Attn.kvh h))
def lrow (c : Dev nD) (b : Fin 4) (h : Fin 8) : FVec F S1x1x256 .f32 := k0_pay39 (k0_pay7 (q2 m c b h) (kh m c b (Cert.Attn.kvh h)))
def ot (c : Dev nD) (b : Fin 4) (h : Fin 8) : FVec F S1x128x256 .bf16 := k0_pay38 (k0_pay5 (vh m c b (Cert.Attn.kvh h))) (ew m c b h)

/-! ## The ring -/

/-- The batch whose local partial sums device `c` adds at hop `h` of direction `l`. -/
def mergeBatch : ℕ → Bool → Dev nD → Dev nD
  | 0, _, c => prv c
  | 1, false, c => nxt (nxt c)
  | 1, true, c => c
  | _, _, c => nxt c

/-- The head a slot `k` of a direction's half stands for: heads 0–3 travel right, 4–7 left. -/
def headAt (l : Bool) (k : Fin 4) : Fin 8 := if l then ⟨k.val + 4, by omega⟩ else ⟨k.val, by omega⟩

/-- What device `c` holds in direction `l`'s half after `h` merges (what it sends at hop `h`; after three, the full
    sums of batch `c + 1`): numerators at slot `k`, coordinate `d`, query row `i`. Received plus local, in that order. -/
def voC : ℕ → Dev nD → Bool → Fin 4 → Fin 128 → Fin 256 → F .bf16
  | 0, c, false, k, d, i => ot m c c (headAt false k) (ix3 0 d i)
  | 0, c, true, k, d, i => ot m c (nxt (nxt c)) (headAt true k) (ix3 0 d i)
  | h + 1, c, l, k, d, i =>
      k0_pay76 (fun s : S1x1x128x256.Idx => voC h (fromDev c l) l k (⟨(s 2).val, (s 2).isLt⟩ : Fin 128) (⟨(s 3).val, (s 3).isLt⟩ : Fin 256))
        (ot m c (mergeBatch h l c) (headAt l k)) (ix4 0 0 d i)
/-- and denominators. -/
def vlC : ℕ → Dev nD → Bool → Fin 4 → Fin 256 → F .f32
  | 0, c, false, k, i => lrow m c c (headAt false k) (ix3 0 0 i)
  | 0, c, true, k, i => lrow m c (nxt (nxt c)) (headAt true k) (ix3 0 0 i)
  | h + 1, c, l, k, i =>
      k0_pay75 (fun s : S1x1x1x256.Idx => vlC h (fromDev c l) l k (⟨(s 3).val, (s 3).isLt⟩ : Fin 256))
        (lrow m c (mergeBatch h l c) (headAt l k)) (ix4 0 0 0 i)

/-- The full sums of batch `c + 1` on device `c`, head `k`, as the tiles the output stage loads. -/
def rsO (c : Dev nD) (k : Fin 8) : Vec F S1x1x128x256 .bf16 :=
  fun s => voC m 3 c (decide (4 ≤ k.val)) ⟨k.val % 4, Nat.mod_lt _ (by decide)⟩ (⟨(s 2).val, (s 2).isLt⟩ : Fin 128) (⟨(s 3).val, (s 3).isLt⟩ : Fin 256)
def rsL (c : Dev nD) (k : Fin 8) : Vec F S1x1x1x256 .f32 :=
  fun s => vlC m 3 c (decide (4 ≤ k.val)) ⟨k.val % 4, Nat.mod_lt _ (by decide)⟩ (⟨(s 3).val, (s 3).isLt⟩ : Fin 256)

/-- Head `k`'s 128 rows of the narrowed `Wo`. -/
def woRows (c : Dev nD) (k : Fin 8) : Vec F S128x1024 .bf16 :=
  fun s => wob m c (ix2 (Cert.Attn.hd k (⟨(s 0).val, (s 0).isLt⟩ : Fin 128)) (⟨(s 1).val, (s 1).isLt⟩ : Fin 1024))

/-! ## The output stage and the gathering -/

/-- The eight heads' terms accumulated from the left. -/
def acc0 (c : Dev nD) : FVec F S1x256x1024 .f32 := k0_pay104 (rsO m c 0) (rsL m c 0) (woRows m c 0)
def acc1 (c : Dev nD) : FVec F S1x256x1024 .f32 := k0_pay105 (rsO m c 1) (rsL m c 1) (woRows m c 1) (acc0 m c)
def acc2 (c : Dev nD) : FVec F S1x256x1024 .f32 := k0_pay107 (k0_pay106 (rsO m c 2) (rsL m c 2) (woRows m c 2) (acc1 m c))
def acc3 (c : Dev nD) : FVec F S1x256x1024 .f32 := k0_pay108 (rsO m c 3) (rsL m c 3) (woRows m c 3) (acc2 m c)
def acc4 (c : Dev nD) : FVec F S1x256x1024 .f32 := k0_pay110 (k0_pay109 (rsO m c 4) (rsL m c 4) (woRows m c 4)) (acc3 m c)
def acc5 (c : Dev nD) : FVec F S1x256x1024 .f32 := k0_pay111 (rsO m c 5) (rsL m c 5) (woRows m c 5) (acc4 m c)
def acc6 (c : Dev nD) : FVec F S1x256x1024 .f32 := k0_pay114 (k0_pay112 (rsO m c 6)) (k0_pay113 (rsL m c 6)) (woRows m c 6) (acc5 m c)
def acc7 (c : Dev nD) : FVec F S1x256x1024 .f32 := k0_pay115 (rsO m c 7) (rsL m c 7) (woRows m c 7) (acc6 m c)

/-- Device `c`'s own finished block (batch `c + 1`) in the narrow format. -/
def agbOwn (c : Dev nD) : FVec F S1x256x1024 .bf16 := k0_pay117 (k0_pay116 (acc7 m c))

/-- What device `c` forwards at hop `h` of the gathering in direction `l`: a half block (rows 0–127 to the right, 128–255
    to the left), its own at hop 0, afterwards what it received the hop before. -/
def vgC : ℕ → Dev nD → Bool → Fin 128 → Fin 1024 → F .bf16
  | 0, c, false, i, n => agbOwn m c (ix3 0 (⟨i.val, by omega⟩ : Fin 256) n)
  | 0, c, true, i, n => agbOwn m c (ix3 0 (⟨128 + i.val, by omega⟩ : Fin 256) n)
  | h + 1, c, l, i, n => vgC h (fromDev c l) l i n

/-- The schedule's values. -/
def V : Vals F where
  o c h l := fun t => voC m h.val c l (⟨(t 0).val, (t 0).isLt⟩ : Fin 4) (⟨(t 1).val, (t 1).isLt⟩ : Fin 128) (⟨(t 2).val, (t 2).isLt⟩ : Fin 256)
  l c h l := fun t => vlC m h.val c l (⟨(t 0).val, (t 0).isLt⟩ : Fin 4) (⟨(t 2).val, (t 2).isLt⟩ : Fin 256)
  g c h l := fun t => vgC m h.val c l (⟨(t 0).val, (t 0).isLt⟩ : Fin 128) (⟨(t 1).val, (t 1).isLt⟩ : Fin 1024)

/-- Block `b` of the gathered result on device `c` at the end: its own block, or the upper half received from the left
    neighbour (the right-going chain, hop `c − b`) and the lower half from the right neighbour (the left-going chain, hop
    `b − c − 2`). -/
def agbFin (c : Dev nD) (b : Fin 4) : Vec F S1x256x1024 .bf16 :=
  fun s =>
    if b = nxt c then agbOwn m c (ix3 0 (⟨(s 1).val, (s 1).isLt⟩ : Fin 256) (⟨(s 2).val, (s 2).isLt⟩ : Fin 1024))
    else if h : (s 1).val < 128 then vgC m ((c.val + 4 - b.val) % 4) (prv c) false ⟨(s 1).val, h⟩ (⟨(s 2).val, (s 2).isLt⟩ : Fin 1024)
    else vgC m ((b.val + 6 - c.val) % 4) (nxt c) true ⟨(s 1).val - 128, by have := (s 1).isLt; simp at this; omega⟩ (⟨(s 2).val, (s 2).isLt⟩ : Fin 1024)

/-- The device's whole result block. -/
def Kout : OutFn F := fun m c t =>
  let i : Fin 256 := ⟨(t 1).val, (t 1).isLt⟩
  let n : Fin 1024 := ⟨(t 2).val, (t 2).isLt⟩
  match (⟨(t 0).val, (t 0).isLt⟩ : Fin 4) with
  | 0 => k0_pay1 (k0_pay118 (agbFin m c 0)) (ix3 0 i n)
  | 1 => k0_pay2 (agbFin m c 1) (ix3 0 i n)
  | 2 => k0_pay3 (agbFin m c 2) (ix3 0 i n)
  | 3 => k0_pay4 (agbFin m c 3) (ix3 0 i n)

end

/-! ## The payloads' copies agree

The program forms the same tiles in each of its four flash steps, through payloads whose text differs only in how
the steps were cut; each is, as a function, one of the forms used above. -/

theorem pay24_pay23 (v : Vec F S1x1x1024x128 .f32) : k0_pay24 (k0_pay23 v) = k0_pay25 v := rfl
theorem pay48_eq (x : Vec F S1x256x1024 .f32) (w : Vec F S1024x1024 .bf16) : k0_pay48 x w = k0_pay32 (k0_pay31 x w) := rfl
theorem pay50_pay49 (x : Vec F S1x256x1024 .f32) (w : Vec F S1024x1024 .bf16) : k0_pay50 (k0_pay49 x w) = k0_pay33 (k0_pay28 x w) := rfl
theorem pay64_pay63 (x : Vec F S1x256x1024 .f32) (w : Vec F S1024x1024 .bf16) : k0_pay64 (k0_pay63 x) w = k0_pay28 x w := rfl
theorem pay65_pay63 (x : Vec F S1x256x1024 .f32) (w : Vec F S1024x1024 .bf16) : k0_pay65 (k0_pay63 x) w = k0_pay29 x w := rfl
theorem pay66_pay63 (x : Vec F S1x256x1024 .f32) (w : Vec F S1024x1024 .bf16) : k0_pay66 (k0_pay63 x) w = k0_pay30 x w := rfl
theorem pay67_pay63 (x : Vec F S1x256x1024 .f32) (w : Vec F S1024x1024 .bf16) : k0_pay67 (k0_pay63 x) w = k0_pay32 (k0_pay31 x w) := rfl
theorem pay68_pay63 (x : Vec F S1x256x1024 .f32) (w : Vec F S1024x1024 .bf16) : k0_pay68 (k0_pay63 x) w = k0_pay33 (k0_pay28 x w) := rfl
theorem pay86_eq (x : Vec F S1x256x1024 .f32) (w : Vec F S1024x1024 .bf16) : k0_pay86 (k0_pay28 x w) = k0_pay30 x w := rfl
theorem pay87_eq (x : Vec F S1x256x1024 .f32) (w : Vec F S1024x1024 .bf16) : k0_pay87 (k0_pay28 x w) = k0_pay32 (k0_pay31 x w) := rfl
theorem pay91_pay90 (x : Vec F S1x256x1024 .f32) (w : Vec F S1024x1024 .bf16) : k0_pay91 (k0_pay90 (k0_pay28 x w)) = k0_pay35 (k0_pay28 x w) := rfl
theorem pay55_pay54 (x : Vec F S1x256x1024 .f32) (w : Vec F S1024x1024 .bf16) : k0_pay55 (k0_pay54 (k0_pay28 x w)) = k0_pay37 (k0_pay28 x w) := rfl

end Cert.KernelIdeal.KFun

end
-- ==== Proof.KSpec.lean ====
/-
  What the four-device kernel computes, index by index over the extended reals, from EACH device's own buffers:
  device `c` forms, for every batch and head, the unnormalised softmax numerator and denominator over ITS quarter of
  the key rows (the scale applied to the projected queries before the head contraction); the quarters' sums travel a
  ring — heads 0–3 one way, heads 4–7 the other — each device adding its own to what it receives; the device that ends
  with batch `b` (device `b − 1`) divides, multiplies by ITS `Wo` head by head, accumulating the eight terms from the left;
  an all-gather then hands every device all four batches.
-/
import proofs.«900754_g7700000000000755_dist_attn_cross_gqa_kvseq_b4_sq256_skv1024_d1024_hq8_dh128_v7x_i4_f32_1_alg».proof.Proof.Spec

noncomputable section

open scoped BigOperators

namespace Cert.Attn

open Idealize.ShloMosaic Idealize.ShloMosaic.ValueIdx

/-- One device's argument buffers: its copies of `x`, `Wq`, `Wo` and its quarters of the key and value rows. -/
structure DevIn where
  x : SX.Idx → EReal
  wq : SW.Idx → EReal
  wo : SW.Idx → EReal
  k : SKVb.Idx → EReal
  v : SKVb.Idx → EReal

section
variable (I : Fin 4 → DevIn)

/-- Device `c`'s scaled projected queries. -/
def kq (c : Fin 4) (b : Fin 4) (i : Fin 256) (n : Fin 1024) : EReal :=
  (∑ e : Fin 1024, (I c).x (ix3 b i e) * (I c).wq (ix2 e n)) * scale
/-- Device `c`'s score of its local key row `j`. -/
def kst (c : Fin 4) (b : Fin 4) (h : Fin 8) (j : Fin 1024) (i : Fin 256) : EReal :=
  ∑ d : Fin 128, (I c).k (ix4 b j (kvh h) d) * kq I c b i (hd h d)
/-- Device `c`'s part of the denominator and of the numerator. -/
def kl (c : Fin 4) (b : Fin 4) (h : Fin 8) (i : Fin 256) : EReal := ∑ j : Fin 1024, Ideal.exp (kst I c b h j i)
def ko (c : Fin 4) (b : Fin 4) (h : Fin 8) (d : Fin 128) (i : Fin 256) : EReal :=
  ∑ j : Fin 1024, (I c).v (ix4 b j (kvh h) d) * Ideal.exp (kst I c b h j i)

/-- The `t`-th device on the ring path of batch `b`, head `h`: heads 0–3 visit `b, b+1, b+2, b+3`, heads 4–7 visit
    `b+2, b+1, b, b+3`; the last, `b + 3 = b − 1`, is where the batch ends. -/
def ringDev (b : Fin 4) (h : Fin 8) (t : Fin 4) : Fin 4 :=
  if h.val < 4 then b + t else (if t = 0 then b + 2 else if t = 1 then b + 1 else if t = 2 then b else b + 3)

/-- The ring's sums, associated as the hops add them: what arrives, plus the receiver's own. -/
def ringL (b : Fin 4) (h : Fin 8) (i : Fin 256) : EReal :=
  ((kl I (ringDev b h 0) b h i + kl I (ringDev b h 1) b h i) + kl I (ringDev b h 2) b h i) + kl I (ringDev b h 3) b h i
def ringO (b : Fin 4) (h : Fin 8) (d : Fin 128) (i : Fin 256) : EReal :=
  ((ko I (ringDev b h 0) b h d i + ko I (ringDev b h 1) b h d i) + ko I (ringDev b h 2) b h d i) + ko I (ringDev b h 3) b h d i

/-- Head `h`'s term of batch `b`'s result, formed on device `b + 3` with its `Wo`. -/
def kterm (b : Fin 4) (i : Fin 256) (n : Fin 1024) (h : Fin 8) : EReal :=
  ∑ d : Fin 128, Ideal.div (ringO I b h d i) (ringL I b h i) * (I (b + 3)).wo (ix2 (hd h d) n)

/-- The eight terms accumulated from the left, starting from head 0's. -/
def kout (b : Fin 4) (i : Fin 256) (n : Fin 1024) : EReal :=
  ((((((kterm I b i n 0 + kterm I b i n 1) + kterm I b i n 2) + kterm I b i n 3) + kterm I b i n 4) + kterm I b i n 5) + kterm I b i n 6) + kterm I b i n 7

/-- The array every device ends with. -/
def Gk : SX.Idx → EReal := fun t => kout I (t 0) (t 1) (t 2)

end

end Cert.Attn

end
-- ==== Proof.KValue.lean ====
/-
  The four-device formula equals the specification.

  When every device holds the same `x`, `Wq`, `Wo` and its own quarter of the key and value rows, device `c`'s
  scores are the specification's scores of key rows `c·1024 … c·1024 + 1023` (the scale may be applied to the
  projected query before the contraction over a head's coordinates, or after it), so its partial denominator and
  numerator are the block-`c` parts of the specification's.  The ring visits each device exactly once, in an
  order that depends on the batch and the head; addition is commutative and associative, so the ring's sums are the
  whole denominator and numerator.  Finally the eight heads' terms, each a sum over the head's 128 coordinates,
  add up to the sum over all 1024 projected columns.
-/
import proofs.«900754_g7700000000000755_dist_attn_cross_gqa_kvseq_b4_sq256_skv1024_d1024_hq8_dh128_v7x_i4_f32_1_alg».proof.Proof.KSpec
import proofs.«900754_g7700000000000755_dist_attn_cross_gqa_kvseq_b4_sq256_skv1024_d1024_hq8_dh128_v7x_i4_f32_1_alg».proof.Proof.Softmax
import Mathlib.Algebra.BigOperators.Fin
import Mathlib.Algebra.BigOperators.Group.Finset.Basic
import Mathlib.Data.Fintype.EquivFin

noncomputable section

open scoped BigOperators

namespace Cert.Attn

open Idealize.ShloMosaic Idealize.ShloMosaic.ValueIdx

/-- Local key row `j` of device `c`'s quarter is key row `c·1024 + j` of the whole array. -/
theorem quarter_ix4 (c : Fin 4) (k : SKV.Idx → EReal) (b : Fin 4) (j : Fin 1024) (g : Fin 2) (d : Fin 128) :
    quarter c k (ix4 b j g d) = k (ix4 b (row c j) g d) := rfl

/-! ### The ring visits every device once -/

theorem ringDev_bijective : ∀ (b : Fin 4) (h : Fin 8), Function.Bijective (ringDev b h) := by decide

/-- Four summands taken in the ring's order, associated from the left, are the sum over the devices. -/
theorem ring_sum {A : Type*} [AddCommMonoid A] (F : Fin 4 → A) (b : Fin 4) (h : Fin 8) :
    ((F (ringDev b h 0) + F (ringDev b h 1)) + F (ringDev b h 2)) + F (ringDev b h 3) = ∑ c : Fin 4, F c := by
  rw [← (ringDev_bijective b h).sum_comp F, Fin.sum_univ_four]

/-! ### Device by device -/

section
variable {I : Fin 4 → DevIn} {x : SX.Idx → EReal} {wq wo : SW.Idx → EReal} {k v : SKV.Idx → EReal}
variable (hx : AllReal x) (hwq : AllReal wq) (hk : AllReal k)
variable (hI : ∀ c : Fin 4, (I c).x = x ∧ (I c).wq = wq ∧ (I c).wo = wo ∧ (I c).k = quarter c k ∧ (I c).v = quarter c v)

include hI in
/-- Every device's scaled queries are the projected queries times the scale. -/
theorem kq_eq (c b : Fin 4) (i : Fin 256) (n : Fin 1024) : kq I c b i n = qproj x wq b i n * scale := by
  obtain ⟨h1, h2, -, -, -⟩ := hI c
  unfold kq qproj
  rw [h1, h2]

include hx hwq hk hI in
/-- Device `c`'s score of its local key row `j` is the score of key row `c·1024 + j`. -/
theorem kst_eq (c b : Fin 4) (h : Fin 8) (j : Fin 1024) (i : Fin 256) :
    kst I c b h j i = score x wq k b h i (row c j) := by
  obtain ⟨-, -, -, h4, -⟩ := hI c
  unfold kst score
  simp only [kq_eq hI, h4, quarter_ix4]
  rw [← scale_in (fun d => qproj x wq b i (hd h d)) (fun d => k (ix4 b (row c j) (kvh h) d)) scale
    (fun d => qproj_real hx hwq b i (hd h d)) (fun d => hk _) scale_real]
  exact Finset.sum_congr rfl (fun d _ => mul_comm _ _)

include hx hwq hk hI in
theorem kl_eq (c b : Fin 4) (h : Fin 8) (i : Fin 256) :
    kl I c b h i = ∑ j : Fin 1024, Ideal.exp (score x wq k b h i (row c j)) := by
  unfold kl
  simp only [kst_eq hx hwq hk hI]

include hx hwq hk hI in
theorem ko_eq (c b : Fin 4) (h : Fin 8) (d : Fin 128) (i : Fin 256) :
    ko I c b h d i = ∑ j : Fin 1024, v (ix4 b (row c j) (kvh h) d) * Ideal.exp (score x wq k b h i (row c j)) := by
  obtain ⟨-, -, -, -, h5⟩ := hI c
  unfold ko
  simp only [kst_eq hx hwq hk hI, h5, quarter_ix4]

/-! ### Around the ring -/

include hx hwq hk hI in
theorem ringL_eq (b : Fin 4) (h : Fin 8) (i : Fin 256) : ringL I b h i = den x wq k b h i := by
  unfold ringL den
  refine (ring_sum (fun c => kl I c b h i) b h).trans ?_
  rw [sum_rows (fun j => Ideal.exp (score x wq k b h i j))]
  exact Finset.sum_congr rfl (fun c _ => kl_eq hx hwq hk hI c b h i)

include hx hwq hk hI in
theorem ringO_eq (b : Fin 4) (h : Fin 8) (d : Fin 128) (i : Fin 256) : ringO I b h d i = num x wq k v b h i d := by
  unfold ringO num
  refine (ring_sum (fun c => ko I c b h d i) b h).trans ?_
  rw [sum_rows (fun j => v (ix4 b j (kvh h) d) * Ideal.exp (score x wq k b h i j))]
  exact Finset.sum_congr rfl (fun c _ => ko_eq hx hwq hk hI c b h d i)

/-! ### Head by head -/

/-- The attention output at column `h·128 + d` is head `h`'s quotient at coordinate `d`. -/
theorem att_hd (x : SX.Idx → EReal) (wq : SW.Idx → EReal) (k v : SKV.Idx → EReal) (b : Fin 4) (i : Fin 256)
    (h : Fin 8) (d : Fin 128) :
    att x wq k v b i (hd h d) = Ideal.div (num x wq k v b h i d) (den x wq k b h i) := by
  unfold att
  rw [headOf_hd, coordOf_hd]

include hx hwq hk hI in
theorem kterm_eq (b : Fin 4) (i : Fin 256) (n : Fin 1024) (h : Fin 8) :
    kterm I b i n h = ∑ d : Fin 128, att x wq k v b i (hd h d) * wo (ix2 (hd h d) n) := by
  obtain ⟨-, -, h3, -, -⟩ := hI (b + 3)
  unfold kterm
  simp only [ringO_eq hx hwq hk hI, ringL_eq hx hwq hk hI, h3, att_hd]

include hx hwq hk hI in
theorem kout_eq (b : Fin 4) (i : Fin 256) (n : Fin 1024) :
    kout I b i n = ∑ m : Fin 1024, att x wq k v b i m * wo (ix2 m n) := by
  rw [sum_hd (fun m => att x wq k v b i m * wo (ix2 m n)), Fin.sum_univ_eight]
  unfold kout
  simp only [kterm_eq hx hwq hk hI]

end

/-- With consistent copies of the shared arrays and each device holding its quarter of the key and value rows,
    the array every device ends with is the specification's result. -/
theorem Gk_eq_G (I : Fin 4 → DevIn) (x : SX.Idx → EReal) (wq wo : SW.Idx → EReal) (k v : SKV.Idx → EReal)
    (hx : AllReal x) (hwq : AllReal wq) (hwo : AllReal wo) (hk : AllReal k) (hv : AllReal v)
    (hI : ∀ c : Fin 4, (I c).x = x ∧ (I c).wq = wq ∧ (I c).wo = wo ∧ (I c).k = quarter c k ∧ (I c).v = quarter c v) :
    Gk I = G x wq wo k v := by
  funext t
  exact kout_eq hx hwq hk hI (t 0) (t 1) (t 2)

end Cert.Attn

end
-- ==== Proof.PayFlash.lean ====
/-
  The flash loop's and the merge hops' payloads, read at an index over the extended reals.

  One flash step takes a block of 256 query rows `q` (already projected and scaled), the device's 1024 key rows `kk` and
  value rows for one head, and forms: the weights `e(j, i) = exp (Σ_d kk(j, d) · q(i, d))`; their sums down the key
  rows; and the value rows contracted with the weights over the key rows, `Σ_j v(j, d) · e(j, i)`.  A merge hop adds
  what a device received to its own row of sums and to its own block of weighted value sums.  Changes of format are
  the identity on extended reals, and the reshapes only add or drop unit axes, so each payload at an index is the
  plain arithmetic above at the matching coordinates of its arguments.
-/
import proofs.«900754_g7700000000000755_dist_attn_cross_gqa_kvseq_b4_sq256_skv1024_d1024_hq8_dh128_v7x_i4_f32_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayFlash

open Cert.KernelIdeal Cert.KernelIdeal.Gen Idealize.ShloMosaic Idealize.ShloMosaic.ValueIdx Idealize.SL.Sem

/-! ### Shape casts that add or drop unit axes, read at an index -/

section Layout
variable {α : Type}

/-- A `[1, 1, a, b]` array cast to `[a, b]` reads, at `(i, j)`, the operand at `(0, 0, i, j)`. -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

/-- A `[1, 1, 1, a]` array cast to `[1, a]` reads, at `(u, i)`, the operand at `(0, 0, 0, i)`. -/
theorem cast_111a_1a {a : ℕ} (x : (⟨4, ![1, 1, 1, a]⟩ : Shape).Idx → α)
    (h : (⟨4, ![1, 1, 1, a]⟩ : Shape).ShapeCasts ⟨2, ![1, a]⟩) (u : Fin 1) (i : Fin a) :
    shapeCast ⟨2, ![1, a]⟩ x h (ix2 u i) = x (ix4 (0 : Fin 1) (0 : Fin 1) (0 : Fin 1) i) :=
  shapeCast_apply x h _ _ (by
    have hu : u.val = 0 := by omega
    rw [Shape.rowMajor_val_four, Shape.rowMajor_val_two]
    show ((0 * 1 + 0) * 1 + 0) * a + i.val = u.val * a + i.val
    simp [hu])

/-- A `[1, a]` array cast to `[1, 1, 1, a]` reads, at `(u, v, w, i)`, the operand at `(0, i)`. -/
theorem cast_1a_111a {a : ℕ} (x : (⟨2, ![1, a]⟩ : Shape).Idx → α)
    (h : (⟨2, ![1, a]⟩ : Shape).ShapeCasts ⟨4, ![1, 1, 1, a]⟩) (u v w : Fin 1) (i : Fin a) :
    shapeCast ⟨4, ![1, 1, 1, a]⟩ x h (ix4 u v w i) = x (ix2 (0 : Fin 1) i) :=
  shapeCast_apply x h _ _ (by
    have hu : u.val = 0 := by omega
    have hv : v.val = 0 := by omega
    have hw : w.val = 0 := by omega
    rw [Shape.rowMajor_val_four, Shape.rowMajor_val_two]
    show 0 * a + i.val = ((u.val * 1 + v.val) * 1 + w.val) * a + i.val
    simp [hu, hv, hw])

end Layout

/-- The exponential of a vector, read at an index. -/
theorem exp_apply {s : Shape} {φ : FTy} (a : FVec Ideal s φ) (i : s.Idx) : exp a i = Ideal.exp (a i) := rfl

/-! ### The two contractions of the flash loop, read at an index -/

theorem lhsA_0 (o : S1024x256.Idx) (q : dot_S1024x128_S256x128_S1024x256_1_1_0_0_n_n.contr.Idx) :
    (dot_S1024x128_S256x128_S1024x256_1_1_0_0_n_n.lhsIdx o q 0).val = (o 0).val := by
  unfold DotDims.lhsIdx
  rw [dif_neg (show ¬(0 : Fin S1024x128.rank) ∈ dot_S1024x128_S256x128_S1024x256_1_1_0_0_n_n.lhsBatch by decide), dif_pos (show (0 : Fin S1024x128.rank) ∈ dot_S1024x128_S256x128_S1024x256_1_1_0_0_n_n.lhsNonContracting by decide)]
  rfl
theorem lhsA_1 (o : S1024x256.Idx) (q : dot_S1024x128_S256x128_S1024x256_1_1_0_0_n_n.contr.Idx) :
    (dot_S1024x128_S256x128_S1024x256_1_1_0_0_n_n.lhsIdx o q 1).val = (q ⟨0, by decide⟩).val :=
  dot_S1024x128_S256x128_S1024x256_1_1_0_0_n_n.lhsIdx_val_of_single rfl o q
theorem rhsA_0 (o : S1024x256.Idx) (q : dot_S1024x128_S256x128_S1024x256_1_1_0_0_n_n.contr.Idx) :
    (dot_S1024x128_S256x128_S1024x256_1_1_0_0_n_n.rhsIdx o q 0).val = (o 1).val := by
  unfold DotDims.rhsIdx
  rw [dif_neg (show ¬(0 : Fin S256x128.rank) ∈ dot_S1024x128_S256x128_S1024x256_1_1_0_0_n_n.rhsBatch by decide), dif_pos (show (0 : Fin S256x128.rank) ∈ dot_S1024x128_S256x128_S1024x256_1_1_0_0_n_n.rhsNonContracting by decide)]
  rfl
theorem rhsA_1 (o : S1024x256.Idx) (q : dot_S1024x128_S256x128_S1024x256_1_1_0_0_n_n.contr.Idx) :
    (dot_S1024x128_S256x128_S1024x256_1_1_0_0_n_n.rhsIdx o q 1).val = (q ⟨0, by decide⟩).val :=
  dot_S1024x128_S256x128_S1024x256_1_1_0_0_n_n.rhsIdx_val_of_single rfl o q

/-- Key rows times query rows, contracted over a head's 128 coordinates, into the zero accumulator. -/
theorem matmulA_apply (l : FVec Ideal S1024x128 .bf16) (r : FVec Ideal S256x128 .bf16) (j : Fin 1024) (i : Fin 256) :
    matmul dot_S1024x128_S256x128_S1024x256_1_1_0_0_n_n none l r (constant (F := Ideal) S1024x256 .f32 0x00000000#32) (ix2 j i)
      = ∑ d : Fin 128, l (ix2 j d) * r (ix2 i d) := by
  simp only [matmul]
  rw [Ideal.matmul_constant_zero_apply, ← Equiv.sum_comp (contrEquiv1 dot_S1024x128_S256x128_S1024x256_1_1_0_0_n_n 128 rfl rfl).symm]
  refine Finset.sum_congr rfl fun k _ => ?_
  have hk := contrEquiv1_symm_val dot_S1024x128_S256x128_S1024x256_1_1_0_0_n_n 128 rfl rfl k
  have el : dot_S1024x128_S256x128_S1024x256_1_1_0_0_n_n.lhsIdx (ix2 j i) ((contrEquiv1 dot_S1024x128_S256x128_S1024x256_1_1_0_0_n_n 128 rfl rfl).symm k) = ix2 j k := funext fun a => Fin.ext (by
    match a with
    | ⟨0, _⟩ => exact lhsA_0 _ _
    | ⟨1, _⟩ => exact (lhsA_1 _ _).trans hk)
  have er : dot_S1024x128_S256x128_S1024x256_1_1_0_0_n_n.rhsIdx (ix2 j i) ((contrEquiv1 dot_S1024x128_S256x128_S1024x256_1_1_0_0_n_n 128 rfl rfl).symm k) = ix2 i k := funext fun a => Fin.ext (by
    match a with
    | ⟨0, _⟩ => exact rhsA_0 _ _
    | ⟨1, _⟩ => exact (rhsA_1 _ _).trans hk)
  rw [el, er]

theorem lhsB_0 (o : S128x256.Idx) (q : dot_S1024x128_S1024x256_S128x256_0_0_1_1_n_n.contr.Idx) :
    (dot_S1024x128_S1024x256_S128x256_0_0_1_1_n_n.lhsIdx o q 0).val = (q ⟨0, by decide⟩).val :=
  dot_S1024x128_S1024x256_S128x256_0_0_1_1_n_n.lhsIdx_val_of_single rfl o q
theorem lhsB_1 (o : S128x256.Idx) (q : dot_S1024x128_S1024x256_S128x256_0_0_1_1_n_n.contr.Idx) :
    (dot_S1024x128_S1024x256_S128x256_0_0_1_1_n_n.lhsIdx o q 1).val = (o 0).val := by
  unfold DotDims.lhsIdx
  rw [dif_neg (show ¬(1 : Fin S1024x128.rank) ∈ dot_S1024x128_S1024x256_S128x256_0_0_1_1_n_n.lhsBatch by decide), dif_pos (show (1 : Fin S1024x128.rank) ∈ dot_S1024x128_S1024x256_S128x256_0_0_1_1_n_n.lhsNonContracting by decide)]
  rfl
theorem rhsB_0 (o : S128x256.Idx) (q : dot_S1024x128_S1024x256_S128x256_0_0_1_1_n_n.contr.Idx) :
    (dot_S1024x128_S1024x256_S128x256_0_0_1_1_n_n.rhsIdx o q 0).val = (q ⟨0, by decide⟩).val :=
  dot_S1024x128_S1024x256_S128x256_0_0_1_1_n_n.rhsIdx_val_of_single rfl o q
theorem rhsB_1 (o : S128x256.Idx) (q : dot_S1024x128_S1024x256_S128x256_0_0_1_1_n_n.contr.Idx) :
    (dot_S1024x128_S1024x256_S128x256_0_0_1_1_n_n.rhsIdx o q 1).val = (o 1).val := by
  unfold DotDims.rhsIdx
  rw [dif_neg (show ¬(1 : Fin S1024x256.rank) ∈ dot_S1024x128_S1024x256_S128x256_0_0_1_1_n_n.rhsBatch by decide), dif_pos (show (1 : Fin S1024x256.rank) ∈ dot_S1024x128_S1024x256_S128x256_0_0_1_1_n_n.rhsNonContracting by decide)]
  rfl

/-- Value rows against weight rows, contracted over the 1024 local key rows, into the zero accumulator. -/
theorem matmulB_apply (l : FVec Ideal S1024x128 .bf16) (r : FVec Ideal S1024x256 .bf16) (d : Fin 128) (i : Fin 256) :
    matmul dot_S1024x128_S1024x256_S128x256_0_0_1_1_n_n none l r (constant (F := Ideal) S128x256 .f32 0x00000000#32) (ix2 d i)
      = ∑ j : Fin 1024, l (ix2 j d) * r (ix2 j i) := by
  simp only [matmul]
  rw [Ideal.matmul_constant_zero_apply, ← Equiv.sum_comp (contrEquiv1 dot_S1024x128_S1024x256_S128x256_0_0_1_1_n_n 1024 rfl rfl).symm]
  refine Finset.sum_congr rfl fun k _ => ?_
  have hk := contrEquiv1_symm_val dot_S1024x128_S1024x256_S128x256_0_0_1_1_n_n 1024 rfl rfl k
  have el : dot_S1024x128_S1024x256_S128x256_0_0_1_1_n_n.lhsIdx (ix2 d i) ((contrEquiv1 dot_S1024x128_S1024x256_S128x256_0_0_1_1_n_n 1024 rfl rfl).symm k) = ix2 k d := funext fun a => Fin.ext (by
    match a with
    | ⟨0, _⟩ => exact (lhsB_0 _ _).trans hk
    | ⟨1, _⟩ => exact lhsB_1 _ _)
  have er : dot_S1024x128_S1024x256_S128x256_0_0_1_1_n_n.rhsIdx (ix2 d i) ((contrEquiv1 dot_S1024x128_S1024x256_S128x256_0_0_1_1_n_n 1024 rfl rfl).symm k) = ix2 k i := funext fun a => Fin.ext (by
    match a with
    | ⟨0, _⟩ => exact (rhsB_0 _ _).trans hk
    | ⟨1, _⟩ => exact rhsB_1 _ _)
  rw [el, er]

/-- The sum down the 1024 rows of a `[1024, 256]` array, read at a column. -/
theorem colsum_apply (src : FVec Ideal S1024x256 .f32) (h : S1024x256.Reduces [0] S256) (hφ : FKind.Formats .f32)
    (hacc : (0x00000000#32 : BitVec 32) = 0x00000000#32) (i : Fin 256) :
    multiReduction (F := Ideal) .add [0] S256 src 0x00000000#32 h hφ hacc (ix1 i) = ∑ j : Fin 1024, src (ix2 j i) := by
  refine (Ideal.multiReduction_add_single src 0x00000000#32 h hφ hacc (ix1 i)).trans ?_
  refine Finset.sum_congr rfl fun j _ => congrArg src (funext fun a => Fin.ext ?_)
  rw [Shape.Reduces.lift_val]
  match a with
  | ⟨0, _⟩ => rfl
  | ⟨1, _⟩ => rfl

/-! ### The flash loop's payloads -/

/-- The value rows with their two unit axes dropped. -/
theorem pay5_apply (v : Vec Ideal S1x1x1024x128 .bf16) (j : Fin 1024) (d : Fin 128) :
    k0_pay5 (F := Ideal) v (ix2 j d) = v (ix4 0 0 j d) := by
  unfold k0_pay5
  exact cast_11ab_ab v _ j d

/-- The unshifted weight of local key row `j` for query row `i`: the exponential of their contraction. -/
theorem pay6_apply (q : Vec Ideal S1x256x128 .bf16) (kk : Vec Ideal S1x1x1024x128 .bf16) (j : Fin 1024) (i : Fin 256) :
    k0_pay6 (F := Ideal) q kk (ix2 j i) = Ideal.exp (∑ d : Fin 128, kk (ix4 0 0 j d) * q (ix3 0 i d)) := by
  unfold k0_pay6
  rw [exp_apply, matmulA_apply]
  simp only [cast_11ab_ab, shapeCast_1ab_ab_apply]

/-- The weights summed down the local key rows. -/
theorem pay7_apply (q : Vec Ideal S1x256x128 .bf16) (kk : Vec Ideal S1x1x1024x128 .bf16) (u : Fin 1) (i : Fin 256) :
    k0_pay7 (F := Ideal) q kk (ix2 u i) = ∑ j : Fin 1024, k0_pay6 (F := Ideal) q kk (ix2 j i) := by
  unfold k0_pay7
  rw [shapeCast_a_1a_apply]
  exact colsum_apply _ _ _ _ i

/-- The weights again, in the narrower format: the same numbers. -/
theorem pay8_apply (q : Vec Ideal S1x256x128 .bf16) (kk : Vec Ideal S1x1x1024x128 .bf16) (j : Fin 1024) (i : Fin 256) :
    k0_pay8 (F := Ideal) q kk (ix2 j i) = k0_pay6 (F := Ideal) q kk (ix2 j i) := by
  unfold k0_pay8
  rw [shapeCast_self]
  rfl

/-- The value rows contracted with the weights over the local key rows. -/
theorem pay38_apply (vv : FVec Ideal S1024x128 .bf16) (e : Vec Ideal S1024x256 .bf16) (u : Fin 1) (d : Fin 128) (i : Fin 256) :
    k0_pay38 (F := Ideal) vv e (ix3 u d i) = ∑ j : Fin 1024, vv (ix2 j d) * e (ix2 j i) := by
  unfold k0_pay38
  rw [shapeCast_ab_1ab_apply, truncf_apply, matmulB_apply]

/-- The row of sums with one more unit axis. -/
theorem pay39_apply (l : FVec Ideal S1x256 .f32) (u v : Fin 1) (i : Fin 256) :
    k0_pay39 (F := Ideal) l (ix3 u v i) = l (ix2 0 i) := by
  obtain rfl : v = 0 := Subsingleton.elim _ _
  unfold k0_pay39
  exact shapeCast_ab_1ab_apply l _ u 0 i

/-! ### The merge hops' payloads -/

/-- What arrived plus the local row of sums. -/
theorem pay75_apply (a : Vec Ideal S1x1x1x256 .f32) (b : Vec Ideal S1x1x256 .f32) (u v w : Fin 1) (i : Fin 256) :
    k0_pay75 (F := Ideal) a b (ix4 u v w i) = a (ix4 0 0 0 i) + b (ix3 0 0 i) := by
  unfold k0_pay75
  rw [cast_1a_111a, addf_apply, cast_111a_1a, shapeCast_1ab_ab_apply]

/-- What arrived plus the local block of weighted value sums. -/
theorem pay76_apply (a : Vec Ideal S1x1x128x256 .bf16) (b : Vec Ideal S1x128x256 .bf16) (u v : Fin 1) (d : Fin 128) (i : Fin 256) :
    k0_pay76 (F := Ideal) a b (ix4 u v d i) = a (ix4 0 0 d i) + b (ix3 0 d i) := by
  unfold k0_pay76
  rw [cast_ab_11ab, addf_apply, cast_11ab_ab, shapeCast_1ab_ab_apply]

/-- The row sums written out. -/
theorem pay7_apply_exp (q : Vec Ideal S1x256x128 .bf16) (kk : Vec Ideal S1x1x1024x128 .bf16) (u : Fin 1) (i : Fin 256) :
    k0_pay7 (F := Ideal) q kk (ix2 u i)
      = ∑ j : Fin 1024, Ideal.exp (∑ d : Fin 128, kk (ix4 0 0 j d) * q (ix3 0 i d)) := by
  rw [pay7_apply]
  simp only [pay6_apply]

/-- The narrow weights written out. -/
theorem pay8_apply_exp (q : Vec Ideal S1x256x128 .bf16) (kk : Vec Ideal S1x1x1024x128 .bf16) (j : Fin 1024) (i : Fin 256) :
    k0_pay8 (F := Ideal) q kk (ix2 j i) = Ideal.exp (∑ d : Fin 128, kk (ix4 0 0 j d) * q (ix3 0 i d)) := by
  rw [pay8_apply, pay6_apply]

/-! ### The unrolled copies

The program repeats the flash step for each of its four batches and the merge step for each hop; every repetition's
payload is, as a function of its arguments, the first one's. -/

theorem pay9_eq : @k0_pay9 = @k0_pay5 := rfl
theorem pay10_eq : @k0_pay10 = @k0_pay6 := rfl
theorem pay11_eq : @k0_pay11 = @k0_pay7 := rfl
theorem pay12_eq : @k0_pay12 = @k0_pay8 := rfl
theorem pay13_eq : @k0_pay13 = @k0_pay5 := rfl
theorem pay14_eq : @k0_pay14 = @k0_pay6 := rfl
theorem pay15_eq : @k0_pay15 = @k0_pay7 := rfl
theorem pay16_eq : @k0_pay16 = @k0_pay8 := rfl
theorem pay17_eq : @k0_pay17 = @k0_pay5 := rfl
theorem pay18_eq : @k0_pay18 = @k0_pay6 := rfl
theorem pay19_eq : @k0_pay19 = @k0_pay7 := rfl
theorem pay20_eq : @k0_pay20 = @k0_pay8 := rfl
theorem pay56_eq : @k0_pay56 = @k0_pay38 := rfl
theorem pay57_eq : @k0_pay57 = @k0_pay39 := rfl
theorem pay73_eq : @k0_pay73 = @k0_pay38 := rfl
theorem pay74_eq : @k0_pay74 = @k0_pay39 := rfl
theorem pay94_eq : @k0_pay94 = @k0_pay38 := rfl
theorem pay95_eq : @k0_pay95 = @k0_pay39 := rfl
theorem pay77_eq : @k0_pay77 = @k0_pay75 := rfl
theorem pay78_eq : @k0_pay78 = @k0_pay76 := rfl
theorem pay96_eq : @k0_pay96 = @k0_pay75 := rfl
theorem pay97_eq : @k0_pay97 = @k0_pay76 := rfl
theorem pay98_eq : @k0_pay98 = @k0_pay75 := rfl
theorem pay99_eq : @k0_pay99 = @k0_pay76 := rfl
theorem pay100_eq : @k0_pay100 = @k0_pay75 := rfl
theorem pay101_eq : @k0_pay101 = @k0_pay76 := rfl
theorem pay102_eq : @k0_pay102 = @k0_pay75 := rfl
theorem pay103_eq : @k0_pay103 = @k0_pay76 := rfl

end Cert.KernelIdeal.PayFlash

end
-- ==== Proof.PayProj.lean ====
import proofs.«900754_g7700000000000755_dist_attn_cross_gqa_kvseq_b4_sq256_skv1024_d1024_hq8_dh128_v7x_i4_f32_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-
  The kernel's pure values read at an index, over the extended reals.

  At the ideal values a change of format is the identity, a shape cast that adds or drops unit axes re-indexes,
  a column slice shifts the column, and a product into the zero accumulator is the bare sum over the contracted
  coordinate.  So: the narrowed weights and key/value tiles are the tiles themselves; the projected queries at
  (i, n) are (Σ_e x[0, i, e] · Wq[e, n]) · scale, and head h's slice at (i, d) is that at column h · 128 + d;
  an output term at (i, n) is Σ_d (o[d, i] / l[i]) · Wo[d, n], added onto the terms of the earlier heads.
  Payloads that are the same function as an earlier one are proved equal to it, once.
-/

noncomputable section

open scoped BigOperators

namespace Cert.KernelIdeal.PayProj

open Cert.KernelIdeal Cert.KernelIdeal.Gen Idealize.ShloMosaic Idealize.ShloMosaic.ValueIdx Idealize.SL.Sem

/-! ## Two leading unit axes dropped or added by a shape cast -/

section Layout
variable {α : Type}

/-- A [1, 1, a, b] array viewed as [a, b] reads, at (i, j), the operand at (0, 0, i, j): the two row-major positions agree. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array viewed as [1, 1, a, b] reads, at (u, u', i, j), the operand at (i, j), whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

/-- A [1, 1, 1, a] array viewed as [1, a] reads, at (u, i), the operand at (0, 0, 0, i). -/
theorem shapeCast_111a_1a_apply {a : ℕ} (x : (⟨4, ![1, 1, 1, a]⟩ : Shape).Idx → α)
    (h : (⟨4, ![1, 1, 1, a]⟩ : Shape).ShapeCasts ⟨2, ![1, a]⟩) (u : Fin 1) (i : Fin a) :
    shapeCast ⟨2, ![1, a]⟩ x h (ix2 u i) = x (ix4 (0 : Fin 1) (0 : Fin 1) (0 : Fin 1) i) :=
  shapeCast_apply x h _ _ (by
    have hu : u.val = 0 := by omega
    rw [Shape.rowMajor_val_four, Shape.rowMajor_val_two]
    show ((0 * 1 + 0) * 1 + 0) * a + i.val = u.val * a + i.val
    rw [hu])

end Layout

/-! ## The casts to the narrower format: the identity on the values -/

/-- The query weights narrowed: the same entries. -/
theorem pay21_apply (w : FVec Ideal S1024x1024 .f32) (j : S1024x1024.Idx) : k0_pay21 (F := Ideal) w j = w j := by
  unfold k0_pay21
  rw [shapeCast_self, truncf_apply, shapeCast_self]

/-- The output weights narrowed: the same entries. -/
theorem pay22_apply (w : FVec Ideal S1024x1024 .f32) (j : S1024x1024.Idx) : k0_pay22 (F := Ideal) w j = w j := by
  unfold k0_pay22
  rw [shapeCast_self, truncf_apply, shapeCast_self]

/-- A key (or value) tile narrowed and viewed as a matrix: row j, coordinate d of the tile. -/
theorem pay23_apply (v : FVec Ideal S1x1x1024x128 .f32) (j : Fin 1024) (d : Fin 128) :
    k0_pay23 (F := Ideal) v (ix2 j d) = v (ix4 (0 : Fin 1) (0 : Fin 1) j d) := by
  unfold k0_pay23
  rw [truncf_apply, shapeCast_11ab_ab_apply]

/-- The matrix viewed as a tile again. -/
theorem pay24_apply (v : FVec Ideal S1024x128 .bf16) (u u' : Fin 1) (j : Fin 1024) (d : Fin 128) :
    k0_pay24 (F := Ideal) v (ix4 u u' j d) = v (ix2 j d) := by
  unfold k0_pay24
  rw [shapeCast_ab_11ab_apply]

/-- A key (or value) tile narrowed, through the matrix view and back: the same tile. -/
theorem pay25_apply (v : FVec Ideal S1x1x1024x128 .f32) (u u' : Fin 1) (j : Fin 1024) (d : Fin 128) :
    k0_pay25 (F := Ideal) v (ix4 u u' j d) = v (ix4 (0 : Fin 1) (0 : Fin 1) j d) := by
  unfold k0_pay25
  rw [shapeCast_ab_11ab_apply, truncf_apply, shapeCast_11ab_ab_apply]

theorem pay26_eq : @k0_pay26 = @k0_pay25 := rfl
theorem pay27_eq : @k0_pay27 = @k0_pay25 := rfl
theorem pay40_eq : @k0_pay40 = @k0_pay25 := rfl
theorem pay41_eq : @k0_pay41 = @k0_pay25 := rfl
theorem pay42_eq : @k0_pay42 = @k0_pay25 := rfl
theorem pay43_eq : @k0_pay43 = @k0_pay23 := rfl
theorem pay44_eq : @k0_pay44 = @k0_pay24 := rfl
theorem pay58_eq : @k0_pay58 = @k0_pay25 := rfl
theorem pay59_eq : @k0_pay59 = @k0_pay23 := rfl
theorem pay60_eq : @k0_pay60 = @k0_pay24 := rfl
theorem pay61_eq : @k0_pay61 = @k0_pay25 := rfl
theorem pay62_eq : @k0_pay62 = @k0_pay25 := rfl
theorem pay79_eq : @k0_pay79 = @k0_pay25 := rfl
theorem pay80_eq : @k0_pay80 = @k0_pay25 := rfl
theorem pay81_eq : @k0_pay81 = @k0_pay23 := rfl
theorem pay82_eq : @k0_pay82 = @k0_pay24 := rfl
theorem pay83_eq : @k0_pay83 = @k0_pay25 := rfl

/-! ## The query projection -/

/-! The operand indices of the projection's product ([256, 1024] times [1024, 1024], the left operand's columns against
    the right operand's rows), one coordinate at a time. -/

theorem lhs_q_0 (j : S256x1024.Idx) (q : dot_S256x1024_S1024x1024_S256x1024_1_0_0_1_n_n.contr.Idx) :
    (dot_S256x1024_S1024x1024_S256x1024_1_0_0_1_n_n.lhsIdx j q 0).val = (j 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_q_1 (j : S256x1024.Idx) (q : dot_S256x1024_S1024x1024_S256x1024_1_0_0_1_n_n.contr.Idx) :
    (dot_S256x1024_S1024x1024_S256x1024_1_0_0_1_n_n.lhsIdx j q 1).val = (q ⟨0, by decide⟩).val :=
  dot_S256x1024_S1024x1024_S256x1024_1_0_0_1_n_n.lhsIdx_val_of_single rfl j q
theorem rhs_q_0 (j : S256x1024.Idx) (q : dot_S256x1024_S1024x1024_S256x1024_1_0_0_1_n_n.contr.Idx) :
    (dot_S256x1024_S1024x1024_S256x1024_1_0_0_1_n_n.rhsIdx j q 0).val = (q ⟨0, by decide⟩).val :=
  dot_S256x1024_S1024x1024_S256x1024_1_0_0_1_n_n.rhsIdx_val_of_single rfl j q
theorem rhs_q_1 (j : S256x1024.Idx) (q : dot_S256x1024_S1024x1024_S256x1024_1_0_0_1_n_n.contr.Idx) :
    (dot_S256x1024_S1024x1024_S256x1024_1_0_0_1_n_n.rhsIdx j q 1).val = (j 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product into the zero accumulator, at row i and column n: the sum over the 1024 shared coordinates. -/
theorem qdot_apply (xb : FVec Ideal S256x1024 .bf16) (w : FVec Ideal S1024x1024 .bf16) (i : Fin 256) (n : Fin 1024) :
    FloatOps.matmul dot_S256x1024_S1024x1024_S256x1024_1_0_0_1_n_n none xb w (constant (F := Ideal) S256x1024 .f32 0x00000000#32) (ix2 i n)
      = ∑ e : Fin 1024, xb (ix2 i e) * w (ix2 e n) := by
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 i n) ((contrEquiv1 dot_S256x1024_S1024x1024_S256x1024_1_0_0_1_n_n 1024 rfl rfl).symm k) = ix2 i k := funext fun a => Fin.ext (by
    match a with
    | ⟨0, _⟩ => exact lhs_q_0 _ _
    | ⟨1, _⟩ => exact (lhs_q_1 _ _).trans hk)
  have er : dot_S256x1024_S1024x1024_S256x1024_1_0_0_1_n_n.rhsIdx (ix2 i n) ((contrEquiv1 dot_S256x1024_S1024x1024_S256x1024_1_0_0_1_n_n 1024 rfl rfl).symm k) = ix2 k n := funext fun a => Fin.ext (by
    match a with
    | ⟨0, _⟩ => exact (rhs_q_0 _ _).trans hk
    | ⟨1, _⟩ => exact rhs_q_1 _ _)
  rw [el, er]

/-- The projected and scaled queries of one batch at row i, column n:
    (Σ_e x[0, i, e] · Wq[e, n]) · scale. -/
theorem pay28_apply (x : FVec Ideal S1x256x1024 .f32) (w : FVec Ideal S1024x1024 .bf16) (i : Fin 256) (n : Fin 1024) :
    k0_pay28 (F := Ideal) x w (ix2 i n)
      = (∑ e : Fin 1024, x (ix3 (0 : Fin 1) i e) * w (ix2 e n)) * Ideal.ofBits .f32 0x3DB504F3#32 := by
  unfold k0_pay28
  rw [mulf_apply, broadcast_apply]
  show FloatOps.matmul _ none _ w (constant (F := Ideal) S256x1024 .f32 0x00000000#32) (ix2 i n) * _ = _
  rw [qdot_apply]
  refine congrArg (· * _) (Finset.sum_congr rfl fun e _ => ?_)
  rw [truncf_apply, shapeCast_1ab_ab_apply]

theorem pay45_eq : @k0_pay45 = @k0_pay28 := rfl
theorem pay84_eq : @k0_pay84 = @k0_pay28 := rfl

/-- One batch of the inputs narrowed and viewed as a matrix. -/
theorem pay63_apply (x : FVec Ideal S1x256x1024 .f32) (i : Fin 256) (e : Fin 1024) :
    k0_pay63 (F := Ideal) x (ix2 i e) = x (ix3 (0 : Fin 1) i e) := by
  unfold k0_pay63
  rw [truncf_apply, shapeCast_1ab_ab_apply]

/-- The projection from the already narrowed inputs. -/
theorem pay64_apply (xb : FVec Ideal S256x1024 .bf16) (w : FVec Ideal S1024x1024 .bf16) (i : Fin 256) (n : Fin 1024) :
    k0_pay64 (F := Ideal) xb w (ix2 i n)
      = (∑ e : Fin 1024, xb (ix2 i e) * w (ix2 e n)) * Ideal.ofBits .f32 0x3DB504F3#32 := by
  unfold k0_pay64
  rw [mulf_apply, broadcast_apply]
  show FloatOps.matmul _ none xb w (constant (F := Ideal) S256x1024 .f32 0x00000000#32) (ix2 i n) * _ = _
  rw [qdot_apply]
  rfl

/-! ### The head slices: columns o … o + 127 of the projected queries, narrowed, as a [1, 256, 128] tile -/

/-- The slice of a [256, 1024] array from column o, narrowed and viewed as a tile, at (u, i, d): the array at (i, k), k = o + d. -/
theorem headSlice_apply (o : Nat) (v : FVec Ideal S256x1024 .f32) (h : S256x1024.Slices ![0, o] S256x128)
    (h' : S256x128.ShapeCasts S1x256x128) (u : Fin 1) (i : Fin 256) (d : Fin 128) (k : Fin 1024) (hk : k.val = o + d.val) :
    shapeCast S1x256x128 (truncf (F := Ideal) .bf16 (extractStridedSlice S256x128 ![0, o] v h) bitsLt_bf16_f32) h' (ix3 u i d)
      = v (ix2 i k) := by
  rw [shapeCast_ab_1ab_apply, truncf_apply, slice2_axis1_apply o v h i d k hk]

/-- The same without the tile view. -/
theorem headSlice2_apply (o : Nat) (v : FVec Ideal S256x1024 .f32) (h : S256x1024.Slices ![0, o] S256x128)
    (i : Fin 256) (d : Fin 128) (k : Fin 1024) (hk : k.val = o + d.val) :
    truncf (F := Ideal) .bf16 (extractStridedSlice S256x128 ![0, o] v h) bitsLt_bf16_f32 (ix2 i d) = v (ix2 i k) := by
  rw [truncf_apply, slice2_axis1_apply o v h i d k hk]

/-! ### The head slices of the projected queries, by payload

  Head h of the projected queries is columns h · 128 … h · 128 + 127; each lemma reads a slice at (i, d) as the
  projected queries at (i, k) with k = h · 128 + d (the column is a parameter k with its value as a hypothesis, so
  that it can be named however the caller names head h's column d). -/

/-- Head 0 of the first batch's projection. -/
theorem pay29_apply (x : FVec Ideal S1x256x1024 .f32) (w : FVec Ideal S1024x1024 .bf16) (u : Fin 1) (i : Fin 256) (d : Fin 128)
    (k : Fin 1024) (hk : k.val = 0 + d.val) :
    k0_pay29 (F := Ideal) x w (ix3 u i d)
      = (∑ e : Fin 1024, x (ix3 (0 : Fin 1) i e) * w (ix2 e k)) * Ideal.ofBits .f32 0x3DB504F3#32 := by
  unfold k0_pay29
  rw [headSlice_apply 0 _ _ _ u i d k hk, pay28_apply]

/-- Head 1. -/
theorem pay30_apply (x : FVec Ideal S1x256x1024 .f32) (w : FVec Ideal S1024x1024 .bf16) (u : Fin 1) (i : Fin 256) (d : Fin 128)
    (k : Fin 1024) (hk : k.val = 128 + d.val) :
    k0_pay30 (F := Ideal) x w (ix3 u i d)
      = (∑ e : Fin 1024, x (ix3 (0 : Fin 1) i e) * w (ix2 e k)) * Ideal.ofBits .f32 0x3DB504F3#32 := by
  unfold k0_pay30
  rw [headSlice_apply 128 _ _ _ u i d k hk, pay28_apply]

/-- Head 2, left as a matrix. -/
theorem pay31_apply (x : FVec Ideal S1x256x1024 .f32) (w : FVec Ideal S1024x1024 .bf16) (i : Fin 256) (d : Fin 128)
    (k : Fin 1024) (hk : k.val = 256 + d.val) :
    k0_pay31 (F := Ideal) x w (ix2 i d)
      = (∑ e : Fin 1024, x (ix3 (0 : Fin 1) i e) * w (ix2 e k)) * Ideal.ofBits .f32 0x3DB504F3#32 := by
  unfold k0_pay31
  rw [headSlice2_apply 256 _ _ i d k hk, pay28_apply]

/-- A head's matrix viewed as a tile. -/
theorem pay32_apply (v : FVec Ideal S256x128 .bf16) (u : Fin 1) (i : Fin 256) (d : Fin 128) :
    k0_pay32 (F := Ideal) v (ix3 u i d) = v (ix2 i d) := by
  unfold k0_pay32
  rw [shapeCast_ab_1ab_apply]

/-- Heads 3 to 7, from the projected queries as a value. -/
theorem pay33_apply (v : FVec Ideal S256x1024 .f32) (u : Fin 1) (i : Fin 256) (d : Fin 128) (k : Fin 1024) (hk : k.val = 384 + d.val) :
    k0_pay33 (F := Ideal) v (ix3 u i d) = v (ix2 i k) := by
  unfold k0_pay33
  rw [headSlice_apply 384 _ _ _ u i d k hk]
theorem pay34_apply (v : FVec Ideal S256x1024 .f32) (u : Fin 1) (i : Fin 256) (d : Fin 128) (k : Fin 1024) (hk : k.val = 512 + d.val) :
    k0_pay34 (F := Ideal) v (ix3 u i d) = v (ix2 i k) := by
  unfold k0_pay34
  rw [headSlice_apply 512 _ _ _ u i d k hk]
theorem pay35_apply (v : FVec Ideal S256x1024 .f32) (u : Fin 1) (i : Fin 256) (d : Fin 128) (k : Fin 1024) (hk : k.val = 640 + d.val) :
    k0_pay35 (F := Ideal) v (ix3 u i d) = v (ix2 i k) := by
  unfold k0_pay35
  rw [headSlice_apply 640 _ _ _ u i d k hk]
theorem pay36_apply (v : FVec Ideal S256x1024 .f32) (u : Fin 1) (i : Fin 256) (d : Fin 128) (k : Fin 1024) (hk : k.val = 768 + d.val) :
    k0_pay36 (F := Ideal) v (ix3 u i d) = v (ix2 i k) := by
  unfold k0_pay36
  rw [headSlice_apply 768 _ _ _ u i d k hk]
theorem pay37_apply (v : FVec Ideal S256x1024 .f32) (u : Fin 1) (i : Fin 256) (d : Fin 128) (k : Fin 1024) (hk : k.val = 896 + d.val) :
    k0_pay37 (F := Ideal) v (ix3 u i d) = v (ix2 i k) := by
  unfold k0_pay37
  rw [headSlice_apply 896 _ _ _ u i d k hk]

/-! The second batch: heads 0, 1 as the first batch's; head 2 as a tile, head 3 as a matrix; heads 4 to 6 as the first
    batch's 4 to 6, head 7 as a matrix. -/
theorem pay46_eq : @k0_pay46 = @k0_pay29 := rfl
theorem pay47_eq : @k0_pay47 = @k0_pay30 := rfl

theorem pay48_apply (x : FVec Ideal S1x256x1024 .f32) (w : FVec Ideal S1024x1024 .bf16) (u : Fin 1) (i : Fin 256) (d : Fin 128)
    (k : Fin 1024) (hk : k.val = 256 + d.val) :
    k0_pay48 (F := Ideal) x w (ix3 u i d)
      = (∑ e : Fin 1024, x (ix3 (0 : Fin 1) i e) * w (ix2 e k)) * Ideal.ofBits .f32 0x3DB504F3#32 := by
  unfold k0_pay48
  rw [headSlice_apply 256 _ _ _ u i d k hk, pay45_eq, pay28_apply]

theorem pay49_apply (x : FVec Ideal S1x256x1024 .f32) (w : FVec Ideal S1024x1024 .bf16) (i : Fin 256) (d : Fin 128)
    (k : Fin 1024) (hk : k.val = 384 + d.val) :
    k0_pay49 (F := Ideal) x w (ix2 i d)
      = (∑ e : Fin 1024, x (ix3 (0 : Fin 1) i e) * w (ix2 e k)) * Ideal.ofBits .f32 0x3DB504F3#32 := by
  unfold k0_pay49
  rw [headSlice2_apply 384 _ _ i d k hk, pay45_eq, pay28_apply]

theorem pay50_eq : @k0_pay50 = @k0_pay32 := rfl
theorem pay51_eq : @k0_pay51 = @k0_pay34 := rfl
theorem pay52_eq : @k0_pay52 = @k0_pay35 := rfl
theorem pay53_eq : @k0_pay53 = @k0_pay36 := rfl

theorem pay54_apply (v : FVec Ideal S256x1024 .f32) (i : Fin 256) (d : Fin 128) (k : Fin 1024) (hk : k.val = 896 + d.val) :
    k0_pay54 (F := Ideal) v (ix2 i d) = v (ix2 i k) := by
  unfold k0_pay54
  rw [headSlice2_apply 896 _ _ i d k hk]

theorem pay55_eq : @k0_pay55 = @k0_pay32 := rfl

/-! The third batch: heads 0 to 3 from the narrowed inputs, heads 4 to 7 as the first batch's. -/
theorem pay65_apply (xb : FVec Ideal S256x1024 .bf16) (w : FVec Ideal S1024x1024 .bf16) (u : Fin 1) (i : Fin 256) (d : Fin 128)
    (k : Fin 1024) (hk : k.val = 0 + d.val) :
    k0_pay65 (F := Ideal) xb w (ix3 u i d)
      = (∑ e : Fin 1024, xb (ix2 i e) * w (ix2 e k)) * Ideal.ofBits .f32 0x3DB504F3#32 := by
  unfold k0_pay65
  rw [headSlice_apply 0 _ _ _ u i d k hk, pay64_apply]
theorem pay66_apply (xb : FVec Ideal S256x1024 .bf16) (w : FVec Ideal S1024x1024 .bf16) (u : Fin 1) (i : Fin 256) (d : Fin 128)
    (k : Fin 1024) (hk : k.val = 128 + d.val) :
    k0_pay66 (F := Ideal) xb w (ix3 u i d)
      = (∑ e : Fin 1024, xb (ix2 i e) * w (ix2 e k)) * Ideal.ofBits .f32 0x3DB504F3#32 := by
  unfold k0_pay66
  rw [headSlice_apply 128 _ _ _ u i d k hk, pay64_apply]
theorem pay67_apply (xb : FVec Ideal S256x1024 .bf16) (w : FVec Ideal S1024x1024 .bf16) (u : Fin 1) (i : Fin 256) (d : Fin 128)
    (k : Fin 1024) (hk : k.val = 256 + d.val) :
    k0_pay67 (F := Ideal) xb w (ix3 u i d)
      = (∑ e : Fin 1024, xb (ix2 i e) * w (ix2 e k)) * Ideal.ofBits .f32 0x3DB504F3#32 := by
  unfold k0_pay67
  rw [headSlice_apply 256 _ _ _ u i d k hk, pay64_apply]
theorem pay68_apply (xb : FVec Ideal S256x1024 .bf16) (w : FVec Ideal S1024x1024 .bf16) (u : Fin 1) (i : Fin 256) (d : Fin 128)
    (k : Fin 1024) (hk : k.val = 384 + d.val) :
    k0_pay68 (F := Ideal) xb w (ix3 u i d)
      = (∑ e : Fin 1024, xb (ix2 i e) * w (ix2 e k)) * Ideal.ofBits .f32 0x3DB504F3#32 := by
  unfold k0_pay68
  rw [headSlice_apply 384 _ _ _ u i d k hk, pay64_apply]

theorem pay69_eq : @k0_pay69 = @k0_pay34 := rfl
theorem pay70_eq : @k0_pay70 = @k0_pay35 := rfl
theorem pay71_eq : @k0_pay71 = @k0_pay36 := rfl
theorem pay72_eq : @k0_pay72 = @k0_pay37 := rfl

/-! The fourth batch: head 0 as the first batch's; heads 1 and 2 from the value; heads 3, 4, 6, 7 as the first batch's 3, 4, 6, 7;
    head 5 as a matrix. -/
theorem pay85_eq : @k0_pay85 = @k0_pay29 := rfl

theorem pay86_apply (v : FVec Ideal S256x1024 .f32) (u : Fin 1) (i : Fin 256) (d : Fin 128) (k : Fin 1024) (hk : k.val = 128 + d.val) :
    k0_pay86 (F := Ideal) v (ix3 u i d) = v (ix2 i k) := by
  unfold k0_pay86
  rw [headSlice_apply 128 _ _ _ u i d k hk]
theorem pay87_apply (v : FVec Ideal S256x1024 .f32) (u : Fin 1) (i : Fin 256) (d : Fin 128) (k : Fin 1024) (hk : k.val = 256 + d.val) :
    k0_pay87 (F := Ideal) v (ix3 u i d) = v (ix2 i k) := by
  unfold k0_pay87
  rw [headSlice_apply 256 _ _ _ u i d k hk]

theorem pay88_eq : @k0_pay88 = @k0_pay33 := rfl
theorem pay89_eq : @k0_pay89 = @k0_pay34 := rfl

theorem pay90_apply (v : FVec Ideal S256x1024 .f32) (i : Fin 256) (d : Fin 128) (k : Fin 1024) (hk : k.val = 640 + d.val) :
    k0_pay90 (F := Ideal) v (ix2 i d) = v (ix2 i k) := by
  unfold k0_pay90
  rw [headSlice2_apply 640 _ _ i d k hk]

theorem pay91_eq : @k0_pay91 = @k0_pay32 := rfl
theorem pay92_eq : @k0_pay92 = @k0_pay36 := rfl
theorem pay93_eq : @k0_pay93 = @k0_pay37 := rfl

/-! ## The output terms -/

/-! The operand indices of an output term's product ([128, 256] against [128, 1024], both contracted along their
    rows: the transposed left operand times the right one), one coordinate at a time. -/

theorem lhs_o_0 (j : S256x1024.Idx) (q : dot_S128x256_S128x1024_S256x1024_0_0_1_1_n_n.contr.Idx) :
    (dot_S128x256_S128x1024_S256x1024_0_0_1_1_n_n.lhsIdx j q 0).val = (q ⟨0, by decide⟩).val :=
  dot_S128x256_S128x1024_S256x1024_0_0_1_1_n_n.lhsIdx_val_of_single rfl j q
theorem lhs_o_1 (j : S256x1024.Idx) (q : dot_S128x256_S128x1024_S256x1024_0_0_1_1_n_n.contr.Idx) :
    (dot_S128x256_S128x1024_S256x1024_0_0_1_1_n_n.lhsIdx j q 1).val = (j 0).val := by
  unfold DotDims.lhsIdx
  rw [dif_neg (show ¬(1 : Fin S128x256.rank) ∈ dot_S128x256_S128x1024_S256x1024_0_0_1_1_n_n.lhsBatch by decide), dif_pos (show (1 : Fin S128x256.rank) ∈ dot_S128x256_S128x1024_S256x1024_0_0_1_1_n_n.lhsNonContracting by decide)]
  rfl
theorem rhs_o_0 (j : S256x1024.Idx) (q : dot_S128x256_S128x1024_S256x1024_0_0_1_1_n_n.contr.Idx) :
    (dot_S128x256_S128x1024_S256x1024_0_0_1_1_n_n.rhsIdx j q 0).val = (q ⟨0, by decide⟩).val :=
  dot_S128x256_S128x1024_S256x1024_0_0_1_1_n_n.rhsIdx_val_of_single rfl j q
theorem rhs_o_1 (j : S256x1024.Idx) (q : dot_S128x256_S128x1024_S256x1024_0_0_1_1_n_n.contr.Idx) :
    (dot_S128x256_S128x1024_S256x1024_0_0_1_1_n_n.rhsIdx j q 1).val = (j 1).val := by
  unfold DotDims.rhsIdx
  rw [dif_neg (show ¬(1 : Fin S128x1024.rank) ∈ dot_S128x256_S128x1024_S256x1024_0_0_1_1_n_n.rhsBatch by decide), dif_pos (show (1 : Fin S128x1024.rank) ∈ dot_S128x256_S128x1024_S256x1024_0_0_1_1_n_n.rhsNonContracting by decide)]
  rfl

/-- The product into the zero accumulator, at row i and column n: the sum over the 128 coordinates of the head. -/
theorem odot_apply (ob : FVec Ideal S128x256 .bf16) (wo : FVec Ideal S128x1024 .bf16) (i : Fin 256) (n : Fin 1024) :
    FloatOps.matmul dot_S128x256_S128x1024_S256x1024_0_0_1_1_n_n none ob wo (constant (F := Ideal) S256x1024 .f32 0x00000000#32) (ix2 i n)
      = ∑ d : Fin 128, ob (ix2 d i) * wo (ix2 d n) := by
  rw [Ideal.matmul_constant_zero_apply, ← Equiv.sum_comp (contrEquiv1 dot_S128x256_S128x1024_S256x1024_0_0_1_1_n_n 128 rfl rfl).symm]
  refine Finset.sum_congr rfl fun k _ => ?_
  have hk := contrEquiv1_symm_val dot_S128x256_S128x1024_S256x1024_0_0_1_1_n_n 128 rfl rfl k
  have el : dot_S128x256_S128x1024_S256x1024_0_0_1_1_n_n.lhsIdx (ix2 i n) ((contrEquiv1 dot_S128x256_S128x1024_S256x1024_0_0_1_1_n_n 128 rfl rfl).symm k) = ix2 k i := funext fun a => Fin.ext (by
    match a with
    | ⟨0, _⟩ => exact (lhs_o_0 _ _).trans hk
    | ⟨1, _⟩ => exact lhs_o_1 _ _)
  have er : dot_S128x256_S128x1024_S256x1024_0_0_1_1_n_n.rhsIdx (ix2 i n) ((contrEquiv1 dot_S128x256_S128x1024_S256x1024_0_0_1_1_n_n 128 rfl rfl).symm k) = ix2 k n := funext fun a => Fin.ext (by
    match a with
    | ⟨0, _⟩ => exact (rhs_o_0 _ _).trans hk
    | ⟨1, _⟩ => exact rhs_o_1 _ _)
  rw [el, er]

/-- The accumulated head output widened and viewed as a matrix: coordinate d, query row i. -/
theorem pay112_apply (o : FVec Ideal S1x1x128x256 .bf16) (d : Fin 128) (i : Fin 256) :
    k0_pay112 (F := Ideal) o (ix2 d i) = o (ix4 (0 : Fin 1) (0 : Fin 1) d i) := by
  unfold k0_pay112
  rw [extf_apply, shapeCast_11ab_ab_apply]

/-- The softmax denominators of the 256 query rows, repeated over the 128 coordinates. -/
theorem pay113_apply (l : FVec Ideal S1x1x1x256 .f32) (d : Fin 128) (i : Fin 256) :
    k0_pay113 (F := Ideal) l (ix2 d i) = l (ix4 (0 : Fin 1) (0 : Fin 1) (0 : Fin 1) i) := by
  unfold k0_pay113
  rw [broadcastTo_1b_ab_apply, shapeCast_111a_1a_apply]

/-- The normalised head output o / l at coordinate d, query row i. -/
theorem normalised_apply (o : FVec Ideal S1x1x128x256 .bf16) (l : FVec Ideal S1x1x1x256 .f32)
    (h1 : S1x1x128x256.ShapeCasts S128x256) (h2 : S1x1x1x256.ShapeCasts S1x256) (h3 : S1x256.Broadcasts S128x256)
    (d : Fin 128) (i : Fin 256) :
    truncf (F := Ideal) .bf16 (divf (extf (F := Ideal) .f32 (shapeCast S128x256 o h1) bitsLt_bf16_f32)
        (broadcastTo S128x256 (shapeCast S1x256 l h2) h3)) bitsLt_bf16_f32 (ix2 d i)
      = Ideal.div (o (ix4 (0 : Fin 1) (0 : Fin 1) d i)) (l (ix4 (0 : Fin 1) (0 : Fin 1) (0 : Fin 1) i)) := by
  rw [truncf_apply, divf_apply, extf_apply, shapeCast_11ab_ab_apply, broadcastTo_1b_ab_apply, shapeCast_111a_1a_apply]

/-- The first output term of a batch at query row i, output column n:
    Σ_d (o[0,0,d,i] / l[0,0,0,i]) · Wo[d, n], the head's 128 rows of Wo. -/
theorem pay104_apply (o : FVec Ideal S1x1x128x256 .bf16) (l : FVec Ideal S1x1x1x256 .f32) (wo : FVec Ideal S128x1024 .bf16)
    (u : Fin 1) (i : Fin 256) (n : Fin 1024) :
    k0_pay104 (F := Ideal) o l wo (ix3 u i n)
      = ∑ d : Fin 128, Ideal.div (o (ix4 (0 : Fin 1) (0 : Fin 1) d i)) (l (ix4 (0 : Fin 1) (0 : Fin 1) (0 : Fin 1) i)) * wo (ix2 d n) := by
  unfold k0_pay104
  rw [shapeCast_ab_1ab_apply]
  show FloatOps.matmul _ none _ wo (constant (F := Ideal) S256x1024 .f32 0x00000000#32) (ix2 i n) = _
  rw [odot_apply]
  refine Finset.sum_congr rfl fun d _ => ?_
  rw [normalised_apply]

/-- The same without the tile view. -/
theorem pay109_apply (o : FVec Ideal S1x1x128x256 .bf16) (l : FVec Ideal S1x1x1x256 .f32) (wo : FVec Ideal S128x1024 .bf16)
    (i : Fin 256) (n : Fin 1024) :
    k0_pay109 (F := Ideal) o l wo (ix2 i n)
      = ∑ d : Fin 128, Ideal.div (o (ix4 (0 : Fin 1) (0 : Fin 1) d i)) (l (ix4 (0 : Fin 1) (0 : Fin 1) (0 : Fin 1) i)) * wo (ix2 d n) := by
  unfold k0_pay109
  show FloatOps.matmul _ none _ wo (constant (F := Ideal) S256x1024 .f32 0x00000000#32) (ix2 i n) = _
  rw [odot_apply]
  refine Finset.sum_congr rfl fun d _ => ?_
  rw [normalised_apply]

/-- A later output term, added onto what the earlier heads gave. -/
theorem pay105_apply (o : FVec Ideal S1x1x128x256 .bf16) (l : FVec Ideal S1x1x1x256 .f32) (wo : FVec Ideal S128x1024 .bf16)
    (acc : FVec Ideal S1x256x1024 .f32) (u : Fin 1) (i : Fin 256) (n : Fin 1024) :
    k0_pay105 (F := Ideal) o l wo acc (ix3 u i n)
      = acc (ix3 (0 : Fin 1) i n)
        + ∑ d : Fin 128, Ideal.div (o (ix4 (0 : Fin 1) (0 : Fin 1) d i)) (l (ix4 (0 : Fin 1) (0 : Fin 1) (0 : Fin 1) i)) * wo (ix2 d n) := by
  unfold k0_pay105
  rw [shapeCast_ab_1ab_apply, addf_apply, shapeCast_1ab_ab_apply]
  show _ + FloatOps.matmul _ none _ wo (constant (F := Ideal) S256x1024 .f32 0x00000000#32) (ix2 i n) = _
  rw [odot_apply]
  refine congrArg (_ + ·) (Finset.sum_congr rfl fun d _ => ?_)
  rw [normalised_apply]

/-- The same, left as a matrix. -/
theorem pay106_apply (o : FVec Ideal S1x1x128x256 .bf16) (l : FVec Ideal S1x1x1x256 .f32) (wo : FVec Ideal S128x1024 .bf16)
    (acc : FVec Ideal S1x256x1024 .f32) (i : Fin 256) (n : Fin 1024) :
    k0_pay106 (F := Ideal) o l wo acc (ix2 i n)
      = acc (ix3 (0 : Fin 1) i n)
        + ∑ d : Fin 128, Ideal.div (o (ix4 (0 : Fin 1) (0 : Fin 1) d i)) (l (ix4 (0 : Fin 1) (0 : Fin 1) (0 : Fin 1) i)) * wo (ix2 d n) := by
  unfold k0_pay106
  rw [addf_apply, shapeCast_1ab_ab_apply]
  show _ + FloatOps.matmul _ none _ wo (constant (F := Ideal) S256x1024 .f32 0x00000000#32) (ix2 i n) = _
  rw [odot_apply]
  refine congrArg (_ + ·) (Finset.sum_congr rfl fun d _ => ?_)
  rw [normalised_apply]

/-- A matrix viewed as a one-batch tile. -/
theorem pay107_apply (v : FVec Ideal S256x1024 .f32) (u : Fin 1) (i : Fin 256) (n : Fin 1024) :
    k0_pay107 (F := Ideal) v (ix3 u i n) = v (ix2 i n) := by
  unfold k0_pay107
  rw [shapeCast_ab_1ab_apply]

theorem pay108_eq : @k0_pay108 = @k0_pay105 := rfl
theorem pay111_eq : @k0_pay111 = @k0_pay105 := rfl
theorem pay115_eq : @k0_pay115 = @k0_pay105 := rfl

/-- A term computed apart, added onto the accumulated output. -/
theorem pay110_apply (t : FVec Ideal S256x1024 .f32) (acc : FVec Ideal S1x256x1024 .f32) (u : Fin 1) (i : Fin 256) (n : Fin 1024) :
    k0_pay110 (F := Ideal) t acc (ix3 u i n) = acc (ix3 (0 : Fin 1) i n) + t (ix2 i n) := by
  unfold k0_pay110
  rw [shapeCast_ab_1ab_apply, addf_apply, shapeCast_1ab_ab_apply]

/-- An output term from the head output and the denominators already laid out as matrices. -/
theorem pay114_apply (om lm : FVec Ideal S128x256 .f32) (wo : FVec Ideal S128x1024 .bf16)
    (acc : FVec Ideal S1x256x1024 .f32) (u : Fin 1) (i : Fin 256) (n : Fin 1024) :
    k0_pay114 (F := Ideal) om lm wo acc (ix3 u i n)
      = acc (ix3 (0 : Fin 1) i n) + ∑ d : Fin 128, Ideal.div (om (ix2 d i)) (lm (ix2 d i)) * wo (ix2 d n) := by
  unfold k0_pay114
  rw [shapeCast_ab_1ab_apply, addf_apply, shapeCast_1ab_ab_apply]
  show _ + FloatOps.matmul _ none _ wo (constant (F := Ideal) S256x1024 .f32 0x00000000#32) (ix2 i n) = _
  rw [odot_apply]
  refine congrArg (_ + ·) (Finset.sum_congr rfl fun d _ => ?_)
  rw [truncf_apply, divf_apply]

/-! ### The result narrowed, and widened again -/

theorem pay116_apply (v : FVec Ideal S1x256x1024 .f32) (i : Fin 256) (n : Fin 1024) :
    k0_pay116 (F := Ideal) v (ix2 i n) = v (ix3 (0 : Fin 1) i n) := by
  unfold k0_pay116
  rw [truncf_apply, shapeCast_1ab_ab_apply]

theorem pay117_apply (v : FVec Ideal S256x1024 .bf16) (u : Fin 1) (i : Fin 256) (n : Fin 1024) :
    k0_pay117 (F := Ideal) v (ix3 u i n) = v (ix2 i n) := by
  unfold k0_pay117
  rw [shapeCast_ab_1ab_apply]

theorem pay118_apply (v : FVec Ideal S1x256x1024 .bf16) (i : Fin 256) (n : Fin 1024) :
    k0_pay118 (F := Ideal) v (ix2 i n) = v (ix3 (0 : Fin 1) i n) := by
  unfold k0_pay118
  rw [extf_apply, shapeCast_1ab_ab_apply]

theorem pay1_apply (v : FVec Ideal S256x1024 .f32) (u : Fin 1) (i : Fin 256) (n : Fin 1024) :
    k0_pay1 (F := Ideal) v (ix3 u i n) = v (ix2 i n) := by
  unfold k0_pay1
  rw [shapeCast_ab_1ab_apply]

/-- A narrowed one-batch tile widened: the same tile. -/
theorem pay2_apply (v : FVec Ideal S1x256x1024 .bf16) (u : Fin 1) (i : Fin 256) (n : Fin 1024) :
    k0_pay2 (F := Ideal) v (ix3 u i n) = v (ix3 (0 : Fin 1) i n) := by
  unfold k0_pay2
  rw [shapeCast_ab_1ab_apply, extf_apply, shapeCast_1ab_ab_apply]

theorem pay3_eq : @k0_pay3 = @k0_pay2 := rfl
theorem pay4_eq : @k0_pay4 = @k0_pay2 := rfl

end Cert.KernelIdeal.PayProj

end
-- ==== Proof.KFunValue.lean ====
/-
  The value of the kernel's pure function over the extended reals: index by index it is the four-device formula of
  the devices' buffers, hence, with consistent copies and each device holding its quarter of the key and value rows, the
  attention function of the whole arrays.
-/
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.KSpec
import proofs.«900754_g7700000000000755_dist_attn_cross_gqa_kvseq_b4_sq256_skv1024_d1024_hq8_dh128_v7x_i4_f32_1_alg».proof.Proof.KValue
import proofs.«900754_g7700000000000755_dist_attn_cross_gqa_kvseq_b4_sq256_skv1024_d1024_hq8_dh128_v7x_i4_f32_1_alg».proof.Proof.PayFlash
import proofs.«900754_g7700000000000755_dist_attn_cross_gqa_kvseq_b4_sq256_skv1024_d1024_hq8_dh128_v7x_i4_f32_1_alg».proof.Proof.PayProj
import proofs.«900754_g7700000000000755_dist_attn_cross_gqa_kvseq_b4_sq256_skv1024_d1024_hq8_dh128_v7x_i4_f32_1_alg».proof.Proof.Assembly

noncomputable section

open scoped BigOperators

namespace Cert.KernelIdeal.KFun

open Cert.KernelIdeal Cert.KernelIdeal.Gen Cert.KernelIdeal.Ring Cert.KernelIdeal.Proto
open Cert.KernelIdeal.PayProj Cert.KernelIdeal.PayFlash
open Idealize.ShloMosaic Idealize.ShloMosaic.TcCoe Idealize.ShloMosaic.ValueIdx Idealize.SL.Sem

/-! ## The value, over the extended reals -/

section Value
open Cert.Attn (DevIn kq kst kl ko ringDev ringL ringO kterm kout Gk kvh)

variable (m : (ℓ : Loc nD τ sig) → Buf (Elt Ideal) ℓ)

/-- The devices' buffers as the index-level formula takes them. -/
def devIn (c : Fin 4) : DevIn := ⟨X m c, WQ m c, WO m c, KQ m c, VQ m c⟩

theorem qb_apply (c : Dev nD) (b : Fin 4) (i : Fin 256) (n : Fin 1024) :
    qb m c b (ix2 i n) = kq (devIn m) c b i n := by
  unfold qb kq
  rw [pay28_apply]
  refine congrArg (· * _) (Finset.sum_congr rfl fun e _ => ?_)
  show X m c (ix3 b i e) * wqb m c (ix2 e n) = _
  unfold wqb
  rw [pay21_apply]
  rfl

theorem q2_apply (c : Dev nD) (b : Fin 4) (h : Fin 8) (u : Fin 1) (i : Fin 256) (d : Fin 128) :
    q2 m c b h (ix3 u i d) = kq (devIn m) c b i (Cert.Attn.hd h d) := by
  have key : ∀ k : Fin 1024, (∑ e : Fin 1024, xblk m c b (ix3 (0 : Fin 1) i e) * wqb m c (ix2 e k)) * Ideal.ofBits .f32 0x3DB504F3#32
      = kq (devIn m) c b i k := fun k => by
    rw [← qb_apply]; unfold qb; rw [pay28_apply]
  match h with
  | 0 => rw [q2, pay29_apply _ _ u i d (Cert.Attn.hd 0 d) (by simp [Cert.Attn.hd]), key]
  | 1 => rw [q2, pay30_apply _ _ u i d (Cert.Attn.hd 1 d) (by simp [Cert.Attn.hd]), key]
  | 2 => rw [q2, pay32_apply, pay31_apply _ _ i d (Cert.Attn.hd 2 d) (by simp [Cert.Attn.hd]), key]
  | 3 => rw [q2, pay33_apply _ u i d (Cert.Attn.hd 3 d) (by simp [Cert.Attn.hd]), qb_apply]
  | 4 => rw [q2, pay34_apply _ u i d (Cert.Attn.hd 4 d) (by simp [Cert.Attn.hd]), qb_apply]
  | 5 => rw [q2, pay35_apply _ u i d (Cert.Attn.hd 5 d) (by simp [Cert.Attn.hd]), qb_apply]
  | 6 => rw [q2, pay36_apply _ u i d (Cert.Attn.hd 6 d) (by simp [Cert.Attn.hd]), qb_apply]
  | 7 => rw [q2, pay37_apply _ u i d (Cert.Attn.hd 7 d) (by simp [Cert.Attn.hd]), qb_apply]

theorem kh_apply (c : Dev nD) (b : Fin 4) (g : Fin 2) (u u' : Fin 1) (j : Fin 1024) (d : Fin 128) :
    kh m c b g (ix4 u u' j d) = KQ m c (ix4 b j g d) := by
  unfold kh; rw [pay25_apply]; rfl
theorem vh_apply (c : Dev nD) (b : Fin 4) (g : Fin 2) (u u' : Fin 1) (j : Fin 1024) (d : Fin 128) :
    vh m c b g (ix4 u u' j d) = VQ m c (ix4 b j g d) := by
  unfold vh; rw [pay25_apply]; rfl

theorem ew_apply (c : Dev nD) (b : Fin 4) (h : Fin 8) (j : Fin 1024) (i : Fin 256) :
    ew m c b h (ix2 j i) = Ideal.exp (kst (devIn m) c b h j i) := by
  unfold ew kst
  rw [pay8_apply_exp]
  refine congrArg Ideal.exp (Finset.sum_congr rfl fun d _ => ?_)
  rw [kh_apply, q2_apply]
  rfl

theorem ot_apply (c : Dev nD) (b : Fin 4) (h : Fin 8) (u : Fin 1) (d : Fin 128) (i : Fin 256) :
    ot m c b h (ix3 u d i) = ko (devIn m) c b h d i := by
  unfold ot ko
  rw [pay38_apply]
  refine Finset.sum_congr rfl fun j _ => ?_
  rw [pay5_apply, vh_apply, ew_apply]
  rfl

theorem lrow_apply (c : Dev nD) (b : Fin 4) (h : Fin 8) (u v : Fin 1) (i : Fin 256) :
    lrow m c b h (ix3 u v i) = kl (devIn m) c b h i := by
  unfold lrow kl
  rw [pay39_apply, pay7_apply]
  refine Finset.sum_congr rfl fun j _ => ?_
  have := ew_apply m c b h j i
  unfold ew at this
  rw [pay8_apply] at this
  exact this

end Value

/-! ### Round the ring -/

section Ring4
open Cert.Attn (DevIn kq kst kl ko ringDev ringL ringO kterm kout Gk kvh)

variable (m : (ℓ : Loc nD τ sig) → Buf (Elt Ideal) ℓ)

/-- One merge: what was received plus the device's own partial sums. -/
theorem voC_succ (h : ℕ) (c : Dev nD) (l : Bool) (k : Fin 4) (d : Fin 128) (i : Fin 256) :
    voC m (h + 1) c l k d i = voC m h (fromDev c l) l k d i + ot m c (mergeBatch h l c) (headAt l k) (ix3 0 d i) := by
  rw [voC, pay76_apply]
theorem vlC_succ (h : ℕ) (c : Dev nD) (l : Bool) (k : Fin 4) (i : Fin 256) :
    vlC m (h + 1) c l k i = vlC m h (fromDev c l) l k i + lrow m c (mergeBatch h l c) (headAt l k) (ix3 0 0 i) := by
  rw [vlC, pay75_apply]

/-- The devices a batch's partial sums visit, seen from the device they end on: going right they started three
    steps back; going left, three steps on. -/
theorem ring_right : ∀ (c : Dev nD) (k : Fin 4),
    ringDev (nxt c) (headAt false k) 0 = prv (prv (prv c)) ∧ ringDev (nxt c) (headAt false k) 1 = prv (prv c)
      ∧ ringDev (nxt c) (headAt false k) 2 = prv c ∧ ringDev (nxt c) (headAt false k) 3 = c
      ∧ prv (prv (prv c)) = nxt c ∧ nxt (nxt (prv c)) = nxt c := by decide
theorem ring_left : ∀ (c : Dev nD) (k : Fin 4),
    ringDev (nxt c) (headAt true k) 0 = nxt (nxt (nxt c)) ∧ ringDev (nxt c) (headAt true k) 1 = nxt (nxt c)
      ∧ ringDev (nxt c) (headAt true k) 2 = nxt c ∧ ringDev (nxt c) (headAt true k) 3 = c
      ∧ nxt (nxt (nxt (nxt (nxt c)))) = nxt c ∧ prv (nxt (nxt c)) = nxt c := by decide

/-- After three merges device `c` holds the ring's sums of batch `c + 1`. -/
theorem voC_three (c : Dev nD) (l : Bool) (k : Fin 4) (d : Fin 128) (i : Fin 256) :
    voC m 3 c l k d i = ringO (devIn m) (nxt c) (headAt l k) d i := by
  unfold ringO
  cases l
  · obtain ⟨e0, e1, e2, e3, e4, e5⟩ := ring_right c k
    rw [e0, e1, e2, e3, voC_succ, voC_succ, voC_succ]
    simp only [fromDev, mergeBatch, voC, ot_apply, e4, e5]
  · obtain ⟨e0, e1, e2, e3, e4, e5⟩ := ring_left c k
    rw [e0, e1, e2, e3, voC_succ, voC_succ, voC_succ]
    simp only [fromDev, mergeBatch, voC, ot_apply, e4, e5]
theorem vlC_three (c : Dev nD) (l : Bool) (k : Fin 4) (i : Fin 256) :
    vlC m 3 c l k i = ringL (devIn m) (nxt c) (headAt l k) i := by
  unfold ringL
  cases l
  · obtain ⟨e0, e1, e2, e3, e4, e5⟩ := ring_right c k
    rw [e0, e1, e2, e3, vlC_succ, vlC_succ, vlC_succ]
    simp only [fromDev, mergeBatch, vlC, lrow_apply, e4, e5]
  · obtain ⟨e0, e1, e2, e3, e4, e5⟩ := ring_left c k
    rw [e0, e1, e2, e3, vlC_succ, vlC_succ, vlC_succ]
    simp only [fromDev, mergeBatch, vlC, lrow_apply, e4, e5]

theorem headAt_split : ∀ k : Fin 8, headAt (decide (4 ≤ k.val)) ⟨k.val % 4, Nat.mod_lt _ (by decide)⟩ = k := by decide

theorem rsO_apply (c : Dev nD) (k : Fin 8) (u u' : Fin 1) (d : Fin 128) (i : Fin 256) :
    rsO m c k (ix4 u u' d i) = ringO (devIn m) (nxt c) k d i := by
  show voC m 3 c _ _ d i = _
  rw [voC_three, headAt_split]
theorem rsL_apply (c : Dev nD) (k : Fin 8) (u u' u'' : Fin 1) (i : Fin 256) :
    rsL m c k (ix4 u u' u'' i) = ringL (devIn m) (nxt c) k i := by
  show vlC m 3 c _ _ i = _
  rw [vlC_three, headAt_split]

end Ring4

/-! ### The output stage and the gathering -/

section Out
open Cert.Attn (DevIn kq kst kl ko ringDev ringL ringO kterm kout Gk kvh)

variable (m : (ℓ : Loc nD τ sig) → Buf (Elt Ideal) ℓ)

theorem nxt_add_three : ∀ c : Dev nD, (nxt c : Fin 4) + 3 = c := by decide

/-- Head `k`'s term of batch `c + 1`, from the tiles the output stage loads on device `c`. -/
theorem term_apply (c : Dev nD) (k : Fin 8) (i : Fin 256) (n : Fin 1024) :
    (∑ d : Fin 128, Ideal.div (rsO m c k (ix4 (0 : Fin 1) (0 : Fin 1) d i)) (rsL m c k (ix4 (0 : Fin 1) (0 : Fin 1) (0 : Fin 1) i))
        * woRows m c k (ix2 d n)) = kterm (devIn m) (nxt c) i n k := by
  unfold kterm
  refine Finset.sum_congr rfl fun d _ => ?_
  rw [rsO_apply, rsL_apply, nxt_add_three]
  show _ * wob m c (ix2 (Cert.Attn.hd k d) n) = _
  unfold wob
  rw [pay22_apply]
  rfl

theorem acc7_apply (c : Dev nD) (u : Fin 1) (i : Fin 256) (n : Fin 1024) :
    acc7 m c (ix3 u i n) = kout (devIn m) (nxt c) i n := by
  unfold kout acc7
  rw [pay115_eq, pay105_apply, term_apply]
  unfold acc6
  rw [pay114_apply]
  simp only [pay112_apply, pay113_apply]
  rw [term_apply]
  unfold acc5
  rw [pay111_eq, pay105_apply, term_apply]
  unfold acc4
  rw [pay110_apply, pay109_apply, term_apply]
  unfold acc3
  rw [pay108_eq, pay105_apply, term_apply]
  unfold acc2
  rw [pay107_apply, pay106_apply, term_apply]
  unfold acc1
  rw [pay105_apply, term_apply]
  unfold acc0
  rw [pay104_apply, term_apply]

theorem agbOwn_apply (c : Dev nD) (u : Fin 1) (i : Fin 256) (n : Fin 1024) :
    agbOwn m c (ix3 u i n) = kout (devIn m) (nxt c) i n := by
  unfold agbOwn
  rw [pay117_apply, pay116_apply, acc7_apply]

/-- The device a forwarded half block started from, `h` hops back. -/
def back : ℕ → Bool → Dev nD → Dev nD
  | 0, _, c => c
  | h + 1, l, c => back h l (fromDev c l)

theorem vgC_apply (h : ℕ) (c : Dev nD) (l : Bool) (i : Fin 128) (n : Fin 1024) :
    vgC m h c l i n = kout (devIn m) (nxt (back h l c))
      (if l then (⟨128 + i.val, by omega⟩ : Fin 256) else (⟨i.val, by omega⟩ : Fin 256)) n := by
  induction h generalizing c with
  | zero => cases l <;> rw [vgC, agbOwn_apply] <;> rfl
  | succ h ih => rw [vgC, ih]; rfl

theorem back_right : ∀ c b : Dev nD, b ≠ nxt c → nxt (back ((c.val + 4 - b.val) % 4) false (prv c)) = b := by decide
theorem back_left : ∀ c b : Dev nD, b ≠ nxt c → nxt (back ((b.val + 6 - c.val) % 4) true (nxt c)) = b := by decide

/-- Every block of the gathered result is that batch's output, on every device. -/
theorem agbFin_apply (c : Dev nD) (b : Fin 4) (u : Fin 1) (i : Fin 256) (n : Fin 1024) :
    agbFin m c b (ix3 u i n) = kout (devIn m) b i n := by
  unfold agbFin
  by_cases hb : b = nxt c
  · rw [if_pos hb, agbOwn_apply, hb]
  · rw [if_neg hb]
    by_cases hi : i.val < 128
    · rw [dif_pos (show ((ix3 u i n) 1).val < 128 from hi), vgC_apply, back_right c b hb]
      rfl
    · rw [dif_neg (show ¬((ix3 u i n) 1).val < 128 from hi), vgC_apply, back_left c b hb]
      refine congrArg (fun r => kout (devIn m) b r n) (Fin.ext ?_)
      show 128 + (i.val - 128) = i.val
      omega

/-- The kernel's result block is the index-level formula of the devices' buffers. -/
theorem Kout_eq_Gk (c : Dev nD) : Kout (F := Ideal) m c = Gk (devIn m) := by
  funext t
  obtain ⟨b, i, n, rfl⟩ : ∃ (b : Fin 4) (i : Fin 256) (n : Fin 1024), t = ix3 b i n := ⟨t 0, t 1, t 2, eq_ix3 t⟩
  show _ = kout (devIn m) b i n
  match b with
  | 0 => show k0_pay1 (k0_pay118 (agbFin m c 0)) (ix3 0 i n) = _; rw [pay1_apply, pay118_apply, agbFin_apply]
  | 1 => show k0_pay2 (agbFin m c 1) (ix3 0 i n) = _; rw [pay2_apply, agbFin_apply]
  | 2 => show k0_pay3 (agbFin m c 2) (ix3 0 i n) = _; rw [pay3_eq, pay2_apply, agbFin_apply]
  | 3 => show k0_pay4 (agbFin m c 3) (ix3 0 i n) = _; rw [pay4_eq, pay2_apply, agbFin_apply]

/-- With consistent copies of the shared arrays and each device holding its quarter of the key and value rows, every
    device's result is the attention function of the whole arrays. -/
theorem kernelValue : Cert.Proof.Assembly.KernelValue (Kout (F := Ideal)) := by
  intro m x wq wo k v hx hwq hwo hk hv hI c
  rw [Kout_eq_Gk]
  exact Cert.Attn.Gk_eq_G (devIn m) x wq wo k v hx hwq hwo hk hv hI

end Out

/-- info: 'Cert.KernelIdeal.KFun.Kout_eq_Gk' depends on axioms: [propext, Classical.choice, Quot.sound] -/
#guard_msgs in #print axioms Kout_eq_Gk
/-- info: 'Cert.KernelIdeal.KFun.kernelValue' depends on axioms: [propext, Classical.choice, Quot.sound] -/
#guard_msgs in #print axioms kernelValue

end Cert.KernelIdeal.KFun

end
-- ==== Proof.SchedTab.lean ====
/-
  The ring schedule's tables: the thirty-six transfer cells of a device are pairwise distinct and distinct from the
  barrier cell, so each cell's role is read off its semaphore; and with that, cell by cell, the one round's duties, their
  amounts, the round's total, the payloads, and the payloads of a whole round as one assertion.
-/
import proofs.«900754_g7700000000000755_dist_attn_cross_gqa_kvseq_b4_sq256_skv1024_d1024_hq8_dh128_v7x_i4_f32_1_alg».proof.Proof.Sched

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The transfer semaphores are pairwise distinct -/

/-- Thirty-six roles, thirty-six semaphores: twelve arrays of three, laid one after another. -/
theorem roleSem_injective : Function.Injective (roleSem : Role → DmaSem sig) := by decide +kernel

/-- They are the semaphores numbered 4 to 39. -/
theorem roleSem_range : ∀ x : Role, 4 ≤ (roleSem x).val ∧ (roleSem x).val < 40 := by decide +kernel

theorem sendSem_inj {k k' : Kind} {l l' : Bool} {h h' : Fin 3} (e : sendSem k l h = sendSem k' l' h') : k = k' ∧ l = l' ∧ h = h' := by
  have := @roleSem_injective (k, l, h, true) (k', l', h', true) e
  simp only [Prod.mk.injEq, and_true] at this
  exact this
theorem recvSem_inj {k k' : Kind} {l l' : Bool} {h h' : Fin 3} (e : recvSem k l h = recvSem k' l' h') : k = k' ∧ l = l' ∧ h = h' := by
  have := @roleSem_injective (k, l, h, false) (k', l', h', false) e
  simp only [Prod.mk.injEq, and_true] at this
  exact this
theorem sendSem_ne_recvSem (k k' : Kind) (l l' : Bool) (h h' : Fin 3) : sendSem k l h ≠ recvSem k' l' h' := fun e => by
  have := @roleSem_injective (k, l, h, true) (k', l', h', false) e
  simp only [Prod.mk.injEq, Bool.true_eq_false, and_false] at this

/-! ## A cell's role -/

theorem cellRole_sem (x : Role) : cellRole (.dma (roleSem x)) = some x := by
  have hx : ∃ y : Role, (SemLoc.dma (roleSem x) : SemLoc sig) = .dma (roleSem y) := ⟨x, rfl⟩
  unfold cellRole
  rw [dif_pos hx]
  exact congrArg some (roleSem_injective (SemLoc.dma.inj (Classical.choose_spec hx))).symm

theorem cellRole_send (k : Kind) (l : Bool) (h : Fin 3) : cellRole (.dma (sendSem k l h)) = some (k, l, h, true) := cellRole_sem (k, l, h, true)
theorem cellRole_recv (k : Kind) (l : Bool) (h : Fin 3) : cellRole (.dma (recvSem k l h)) = some (k, l, h, false) := cellRole_sem (k, l, h, false)

/-- A regular semaphore is no transfer cell. -/
theorem cellRole_reg (s : Sem sig) : cellRole (.reg s) = none := by
  unfold cellRole; exact dif_neg (fun ⟨_, h⟩ => by cases h)
/-- Nor is a DMA semaphore other than the thirty-six. -/
theorem cellRole_other (q : DmaSem sig) (hq : ∀ x, q ≠ roleSem x) : cellRole (.dma q) = none := by
  unfold cellRole; exact dif_neg (fun ⟨x, h⟩ => hq x (SemLoc.dma.inj h))
/-- In particular those numbered below 4 or from 40 on. -/
theorem cellRole_lt (q : DmaSem sig) (hq : q.val < 4) : cellRole (.dma q) = none :=
  cellRole_other q fun x e => by have := (roleSem_range x).1; rw [← e] at this; omega
theorem cellRole_ge (q : DmaSem sig) (hq : 40 ≤ q.val) : cellRole (.dma q) = none :=
  cellRole_other q fun x e => by have := (roleSem_range x).2; rw [← e] at this; omega

theorem send_ne_bar (k : Kind) (l : Bool) (h : Fin 3) : (SemLoc.dma (sendSem k l h) : SemLoc sig) ≠ .reg barS := fun e => by cases e
theorem recv_ne_bar (k : Kind) (l : Bool) (h : Fin 3) : (SemLoc.dma (recvSem k l h) : SemLoc sig) ≠ .reg barS := fun e => by cases e
theorem send_ne_recv (k k' : Kind) (l l' : Bool) (h h' : Fin 3) : (SemLoc.dma (sendSem k l h) : SemLoc sig) ≠ .dma (recvSem k' l' h') :=
  fun e => sendSem_ne_recvSem k k' l l' h h' (SemLoc.dma.inj e)
theorem recv_ne_send (k k' : Kind) (l l' : Bool) (h h' : Fin 3) : (SemLoc.dma (recvSem k l h) : SemLoc sig) ≠ .dma (sendSem k' l' h') :=
  fun e => sendSem_ne_recvSem k' k l' l h' h (SemLoc.dma.inj e).symm
theorem not_bar_send (c : Dev nD) (k : Kind) (l : Bool) (h : Fin 3) : ¬ IsBar (sendCell c k l h) := fun hb => send_ne_bar k l h hb.2
theorem not_bar_recv (c : Dev nD) (k : Kind) (l : Bool) (h : Fin 3) : ¬ IsBar (recvCell c k l h) := fun hb => recv_ne_bar k l h hb.2

variable (V : Vals F)

/-! ## The one round's duties -/

@[sl_rounds] theorem duties_bar (c : Dev nD) : (ringRd V).duties (barCell c) 0 = Finset.univ := by
  dsimp only [ringRd]; exact if_pos ⟨rfl, rfl, rfl⟩
@[sl_rounds] theorem duties_send (c : Dev nD) (k : Kind) (l : Bool) (h : Fin 3) : (ringRd V).duties (sendCell c k l h) 0 = {false} := by
  dsimp only [ringRd]
  rw [if_neg (fun hb => send_ne_bar k l h hb.2.2), if_pos ⟨rfl, rfl, by rw [cellRole_send]; rfl⟩]
@[sl_rounds] theorem duties_recv (c : Dev nD) (k : Kind) (l : Bool) (h : Fin 3) : (ringRd V).duties (recvCell c k l h) 0 = {false} := by
  dsimp only [ringRd]
  rw [if_neg (fun hb => recv_ne_bar k l h hb.2.2), if_pos ⟨rfl, rfl, by rw [cellRole_recv]; rfl⟩]
/-- No cell has a second round. -/
theorem duties_later (g : GSem nD τ sig) : ∀ r, 1 ≤ r → (ringRd V).duties g r = ∅ := fun r hr => by
  dsimp only [ringRd]
  rw [if_neg (fun hb => absurd hb.1 (by omega)), if_neg (fun hb => absurd hb.1 (by omega))]

/-! ## Amounts, and a round's total -/

@[sl_rounds] theorem amount_bar (c : Dev nD) (d : Bool) : (ringRd V).amount (barCell c) 0 d = 1 := by
  dsimp only [ringRd]; rw [cellRole_reg]
@[sl_rounds] theorem amount_send (c : Dev nD) (k : Kind) (l : Bool) (h : Fin 3) (d : Bool) : (ringRd V).amount (sendCell c k l h) 0 d = amt k := by
  dsimp only [ringRd]; rw [cellRole_send]
@[sl_rounds] theorem amount_recv (c : Dev nD) (k : Kind) (l : Bool) (h : Fin 3) (d : Bool) : (ringRd V).amount (recvCell c k l h) 0 d = amt k := by
  dsimp only [ringRd]; rw [cellRole_recv]

/-- Two neighbours, a unit each. -/
@[sl_rounds] theorem expect_bar (c : Dev nD) : (ringRd V).expect (barCell c) 0 = 2 := by
  unfold Schedule.expect Schedule.amountOf
  rw [duties_bar, Finset.sum_congr rfl fun d _ => amount_bar V c d]
  rfl
@[sl_rounds] theorem expect_send (c : Dev nD) (k : Kind) (l : Bool) (h : Fin 3) : (ringRd V).expect (sendCell c k l h) 0 = amt k := by
  unfold Schedule.expect Schedule.amountOf
  rw [duties_send, Finset.sum_singleton, amount_send]
@[sl_rounds] theorem expect_recv (c : Dev nD) (k : Kind) (l : Bool) (h : Fin 3) : (ringRd V).expect (recvCell c k l h) 0 = amt k := by
  unfold Schedule.expect Schedule.amountOf
  rw [duties_recv, Finset.sum_singleton, amount_recv]

/-! ## Payloads -/

@[sl_rounds] theorem payload_bar (c : Dev nD) (d : Bool) : (ringRd V).payload (barCell c) 0 d = barPay c d := by
  dsimp only [ringRd]; exact if_pos rfl
@[sl_rounds] theorem payload_send (c : Dev nD) (k : Kind) (l : Bool) (h : Fin 3) (d : Bool) : (ringRd V).payload (sendCell c k l h) 0 d = sendPay V c k l h := by
  dsimp only [ringRd]; rw [if_neg (send_ne_bar k l h), cellRole_send]
@[sl_rounds] theorem payload_recv (c : Dev nD) (k : Kind) (l : Bool) (h : Fin 3) (d : Bool) : (ringRd V).payload (recvCell c k l h) 0 d = recvPay V c k l h := by
  dsimp only [ringRd]; rw [if_neg (recv_ne_bar k l h), cellRole_recv]

/-- The barrier cell's whole round: what the successor hands over, and what the predecessor does. -/
theorem rest_bar (c : Dev nD) : bigSep ((ringRd V).duties (barCell c) 0 \ ∅) (fun d => (ringRd V).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (c : Dev nD) (k : Kind) (l : Bool) (h : Fin 3) : bigSep ((ringRd V).duties (sendCell c k l h) 0 \ ∅) (fun d => (ringRd V).payload (sendCell c k l h) 0 d) = sendPay V c k l h := by
  rw [Finset.sdiff_empty, duties_send, bigSep_singleton, payload_send]
theorem rest_recv (c : Dev nD) (k : Kind) (l : Bool) (h : Fin 3) : bigSep ((ringRd V).duties (recvCell c k l h) 0 \ ∅) (fun d => (ringRd V).payload (recvCell c k l h) 0 d) = recvPay V c k l h := by
  rw [Finset.sdiff_empty, duties_recv, bigSep_singleton, payload_recv]

/-! ## Every payload can be kept in a cell's invariant -/

instance held_storable {sp : Space} {s : Shape} {e : EltTy} (c : Dev nD) (mr : Memref sig .tc sp s e) : BI.Storable (upEmb : UEmb _ 𝕄) (held (F := F) c mr) := by
  unfold held; infer_instance
instance heldAs_storable {sp : Space} {s : Shape} {e : EltTy} (c : Dev nD) (mr : Memref sig .tc sp s e) (w : s.Idx → Elt F e) : BI.Storable (upEmb : UEmb _ 𝕄) (heldAs c mr w) := by
  unfold heldAs; infer_instance
instance landing_storable (c n : Dev nD) (l : Bool) (h : Fin 3) : BI.Storable (upEmb : UEmb _ 𝕄) (landing (F := F) c n l h) := by
  unfold landing; infer_instance
instance barPay_storable (c : Dev nD) (l : Bool) : BI.Storable (upEmb : UEmb _ 𝕄) (barPay (F := F) c l) := by
  unfold barPay; infer_instance
instance sendPay_storable (c : Dev nD) (k : Kind) (l : Bool) (h : Fin 3) : BI.Storable (upEmb : UEmb _ 𝕄) (sendPay V c k l h) := by
  cases k <;> (simp only [sendPay]; infer_instance)
instance recvPay_storable (c : Dev nD) (k : Kind) (l : Bool) (h : Fin 3) : BI.Storable (upEmb : UEmb _ 𝕄) (recvPay V c k l h) := by
  cases k <;> (simp only [recvPay]; infer_instance)

instance ringRd_payload_storable (g : GSem nD τ sig) (r : ℕ) (d : Bool) : BI.Storable (upEmb : UEmb _ 𝕄) ((ringRd V).payload g r d) := by
  dsimp only [ringRd]
  split
  · infer_instance
  · split <;> infer_instance

/-! ## What a landing credits

A transfer credits by its destination's buffer, shape and element type alone, so every hop and direction of a kind
credits alike, whichever DMA semaphore it completes on. -/

theorem amt_dstO (h : Fin 3) (l : Bool) (q : DmaSem sig) : (dstO h l).view.amount (.dma q) = amt .o := by
  fin_cases h <;> cases l <;> rfl
theorem amt_dstL (h : Fin 3) (l : Bool) (q : DmaSem sig) : (dstL h l).view.amount (.dma q) = amt .l := by
  fin_cases h <;> cases l <;> rfl
theorem amt_agS (c : Dev nD) (h : Fin 3) (l : Bool) (q : DmaSem sig) : (agS c h l).view.amount (.dma q) = amt .g := by
  fin_cases h <;> cases l <;> rfl
theorem amt_pos (k : Kind) : 0 < amt k := by
  cases k
  · exact View.dmaCredit_pos (dstO 0 false).view (by decide)
  · exact View.dmaCredit_pos (dstL 0 false).view (by decide)
  · exact View.dmaCredit_pos (agS (0 : Dev nD) 0 false).view (by decide)

end Cert.KernelIdeal.Proto

end
-- ==== Proof.KLaunch.lean ====
/-
  The launch of the four-device attention kernel, given each device's body.

  Every device owns its barrier cell and thirty-six transfer cells: a send and a receive cell for each of the three hops
  of the numerators, the denominators and the result rows, in both directions. At launch each cell's round state, its
  owner's position and the fact that round 0 is reached are minted, with the duty tokens: two for a barrier cell, one
  for a transfer cell. With every counter at zero each cell's invariant is allocated; the invariants and the round-0
  facts are shared with all devices, and the tokens are dealt to the devices that PAY the duties: a barrier cell's
  `false` token to the device after it on the ring, its `true` token to the device before it, a receive cell's
  token to the device whose transfer lands there. What the devices owe, summed over the devices, is what their cells
  are paid — a barrier cell's two units and each receive cell's transfer — and that is the credit a device is dealt
  for its own waits. A cell's level is the place of its transfer in the program's order of payments (barrier cells
  below all transfers, staging and local-copy cells below those), so a device waiting on a cell owes only cells above
  it. The two unstaged argument arrays travel to the body and back as they were; the result array ends at the
  write-back of the device's block, the three staged arguments as launched.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.Gen.KernelIdeal.Launch
import proofs.«900754_g7700000000000755_dist_attn_cross_gqa_kvseq_b4_sq256_skv1024_d1024_hq8_dh128_v7x_i4_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells of a device, indexed -/

/-- A transfer cell of a device: the transfer, and whether it is the send cell. -/
abbrev XB : Type := Xfer × Bool
/-- A device's ring cells: its barrier cell, or a transfer cell. -/
abbrev CI : Type := Unit ⊕ XB

def xcell (c : Dev nD) (y : XB) : GSem nD τ sig := ((c : Thread nD τ), .dma (roleSem (y.1.1, y.1.2.1, y.1.2.2, y.2)))

def kcell (ck : Dev nD × CI) : GSem nD τ sig := match ck.2 with
  | .inl _ => barCell ck.1
  | .inr y => xcell ck.1 y

theorem xcell_true (c : Dev nD) (x : Xfer) : xcell c (x, true) = sendCell c x.1 x.2.1 x.2.2 := rfl
theorem xcell_false (c : Dev nD) (x : Xfer) : xcell c (x, false) = recvCell c x.1 x.2.1 x.2.2 := rfl

/-- The kernel's own semaphores: the thirty-six transfer semaphores and the four local-copy semaphores. -/
def osem : XB ⊕ Fin 4 → SemLoc sig
  | .inl y => .dma (roleSem (y.1.1, y.1.2.1, y.1.2.2, y.2))
  | .inr j => .dma (copySem j)

theorem ownSemFacts : Pipeline.OwnSemFacts cfg0.spec osem := by decide

theorem xb_ext {y y' : XB} (h : ((y.1.1, y.1.2.1, y.1.2.2, y.2) : Role) = (y'.1.1, y'.1.2.1, y'.1.2.2, y'.2)) : y = y' := by
  obtain ⟨⟨k, l, hh⟩, b⟩ := y; obtain ⟨⟨k', l', hh'⟩, b'⟩ := y'
  simp only [Prod.mk.injEq] at h ⊢
  exact ⟨⟨h.1, h.2.1, h.2.2.1⟩, h.2.2.2⟩

theorem xcell_inj {c c' : Dev nD} {y y' : XB} (h : xcell c y = xcell c' y') : c = c' ∧ y = y' := by
  have h1 : c = c' := congrArg (fun g : GSem nD τ sig => g.1.1) h
  have h2 : (SemLoc.dma (roleSem (y.1.1, y.1.2.1, y.1.2.2, y.2)) : SemLoc sig) = .dma (roleSem (y'.1.1, y'.1.2.1, y'.1.2.2, y'.2)) :=
    congrArg Prod.snd h
  exact ⟨h1, xb_ext (roleSem_injective (SemLoc.dma.inj h2))⟩

theorem xcell_ne_bar (c c' : Dev nD) (y : XB) : xcell c y ≠ barCell c' := fun h => by
  have h2 : (SemLoc.dma (roleSem (y.1.1, y.1.2.1, y.1.2.2, y.2)) : SemLoc sig) = .reg barS := congrArg Prod.snd h
  cases h2

theorem bar_inj {c c' : Dev nD} (h : barCell c = barCell c') : c = c' := congrArg (fun g : GSem nD τ sig => g.1.1) h

theorem kcell_injective : Function.Injective (kcell : Dev nD × CI → GSem nD τ sig) := by
  rintro ⟨c, k⟩ ⟨c', k'⟩ h
  rcases k with u | y <;> rcases k' with u' | y'
  · have := bar_inj (show barCell c = barCell c' from h); subst this; rfl
  · exact absurd (show barCell c = xcell c' y' from h).symm (xcell_ne_bar _ _ _)
  · exact absurd (show xcell c y = barCell c' from h) (xcell_ne_bar _ _ _)
  · obtain ⟨h1, h2⟩ := xcell_inj (show xcell c y = xcell c' y' from h); subst h1; subst h2; rfl

def ringCells : Finset (GSem nD τ sig) := Finset.univ.map ⟨kcell, kcell_injective⟩

/-- The duty tokens minted for a device's own cells: its barrier cell's two, each transfer cell's one. -/
abbrev TI : Type := Bool ⊕ XB
def tokOf (cj : Dev nD × TI) : GSem nD τ sig × ℕ × Bool := match cj.2 with
  | .inl d => (barCell cj.1, 0, d)
  | .inr y => (xcell cj.1 y, 0, false)

theorem tokOf_injective : Function.Injective (tokOf : Dev nD × TI → GSem nD τ sig × ℕ × Bool) := by
  rintro ⟨c, j⟩ ⟨c', j'⟩ h
  rcases j with d | y <;> rcases j' with d' | y'
  · have h1 : barCell c = barCell c' := congrArg (fun x : GSem nD τ sig × ℕ × Bool => x.1) h
    have h2 : d = d' := congrArg (fun x : GSem nD τ sig × ℕ × Bool => x.2.2) h
    have := bar_inj h1; subst this; subst h2; rfl
  · exact absurd (congrArg (fun x : GSem nD τ sig × ℕ × Bool => x.1) h).symm (xcell_ne_bar _ _ _)
  · exact absurd (congrArg (fun x : GSem nD τ sig × ℕ × Bool => x.1) h) (xcell_ne_bar _ _ _)
  · obtain ⟨h1, h2⟩ := xcell_inj (show xcell c y = xcell c' y' from congrArg (fun x : GSem nD τ sig × ℕ × Bool => x.1) h)
    subst h1; subst h2; rfl

def ringToks : Finset (GSem nD τ sig × ℕ × Bool) := Finset.univ.map ⟨tokOf, tokOf_injective⟩

/-- The launch element: the pipeline library's cells, the ring's cells and tokens, and the counters' unit. -/
def u₀ : UU :=
  (initOf (Pipeline.cells cfgs cellOf_inj) (Pipeline.launchToks cfgs cellOf_inj), (initOf ringCells ringToks, 1))

variable (V : Vals F)

/-- The duty tokens of device `c`'s own cells. -/
def toks (c : Dev nD) : sProp 𝕄 :=
  bigSep Finset.univ fun j : TI => dutyTok ER (tokOf (c, j)).1 (tokOf (c, j)).2.1 (tokOf (c, j)).2.2

/-- What the launch element deals device `c`. -/
def G (c : Dev nD) : sProp 𝕄 :=
  iprop((bigSep Finset.univ fun k : CI => roundState ER (ringRd V) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop((∃ K, ghost V K c) ∗ copySems0 c)

theorem fund_ring : BI.own (ER (initOf ringCells ringToks)) ⊢ (|==> bigSep Finset.univ (G V) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd V) ringCells ringToks) $$ HX with ⟨Hst, Hr, Hat, Htok⟩
  imodintro
  ihave Hst' := (Entails.of_eq (hX fun g => roundState ER (ringRd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the invariants allocated per device -/

theorem ownSems0_eq (c : Dev nD) : (Pipeline.ownSems0 (Ix := Unit) (Name := ℕ) (U := UU) (Lvl := ℕ) (Val := Elt F) (τ := τ) osem c : sProp 𝕄)
    = iprop((bigSep Finset.univ fun y : XB => semVal (xcell c y) 0) ∗ copySems0 c) := by
  unfold Pipeline.ownSems0; rw [bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_CI (Φ : CI → sProp 𝕄) : bigSep Finset.univ Φ = iprop(Φ (.inl ()) ∗ bigSep Finset.univ fun y : XB => Φ (.inr y)) := by
  rw [bigSep_univ_sum, bigSep_univ_of_subsingleton ()]; rfl

theorem sems0_eq (c : Dev nD) : iprop(semVal (barCell c) 0 ∗ bigSep Finset.univ fun y : XB => semVal (xcell c y) 0)
    = (bigSep Finset.univ fun k : CI => semVal (kcell (c, k)) 0 : sProp 𝕄) := by rw [bigSep_CI]; rfl

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : CI => iprop(∃ κ : ℕ, cellInv ER (ringRd V) κ (kcell (c, k))))
          ∗ (bigSep Finset.univ fun k : CI => iprop(atPos ER (kcell (c, k)) 0 ∅ 0 ∗ reached ER (kcell (c, k)) 0)) ∗ toks c ∗ copySems0 c) := by
  rw [ownSems0_eq, unscopedSems0_eq]
  unfold G
  iintro ⟨⟨Hx, Hcp⟩, Hb, Hst, Hat, Htok⟩
  ihave Hv := (Entails.of_eq (sems0_eq (F := F) c)) $$ [Hb Hx]
  · isplitl [Hb] <;> iassumption
  imod (show iprop((bigSep Finset.univ fun k : CI => semVal (kcell (c, k)) 0) ∗ bigSep Finset.univ fun k : CI => roundState ER (ringRd V) (kcell (c, k)) 0)
      ⊢ (|={Set.univ}=> bigSep Finset.univ fun k : CI => iprop(∃ κ : ℕ, cellInv ER (ringRd V) κ (kcell (c, k))) : sProp 𝕄) from by
        rw [← bigSep_sep']
        exact (bigSep_mono fun k _ => (Rounds.body_intro ER (ringRd V) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hcp

/-! ## Regrouping: invariants and reached rounds shared, tokens dealt around the ring -/

theorem bigSep_bool (Φ : Bool → sProp 𝕄) : bigSep Finset.univ Φ = iprop(Φ true ∗ Φ false) :=
  bigSep_univ_eq_bigSepL [true, false] (by decide) (by decide) Φ

theorem bigSep_XB (Φ : XB → sProp 𝕄) : bigSep Finset.univ Φ = bigSep Finset.univ fun x : Xfer => iprop(Φ (x, true) ∗ Φ (x, false)) := by
  rw [bigSep_univ_prod]; exact bigSep_congr fun x _ => bigSep_bool _

/-- The neighbour map of a direction, as a bijection of the devices. -/
def toDevE : Bool → Dev nD ≃ Dev nD
  | false => ring
  | true => ring.symm
theorem toDevE_apply (l : Bool) (c : Dev nD) : toDevE l c = toDev c l := by cases l <;> rfl

/-- The launch's names, as the body's ghost state indexes them. -/
def ci : Option Role → CI
  | none => .inl ()
  | some (k, l, h, b) => .inr ((k, l, h), b)
def namesOf (κ : Dev nD × CI → ℕ) : Names := fun p => κ (p.1, ci p.2)

def records (κ : Dev nD × CI → ℕ) : sProp 𝕄 :=
  iprop((bigSep Finset.univ fun ck : Dev nD × CI => cellInv ER (ringRd V) (κ ck) (kcell ck))
    ∗ bigSep Finset.univ fun ck : Dev nD × CI => reached ER (kcell ck) 0)

instance records_persistent (κ : Dev nD × CI → ℕ) : BI.Persistent (records V κ) := by unfold records; infer_instance

theorem inv_at (κ : Dev nD × CI → ℕ) (ck : Dev nD × CI) : records V κ ⊢ cellInv ER (ringRd V) (κ ck) (kcell ck) :=
  (show records V κ ⊢ (bigSep Finset.univ fun ck : Dev nD × CI => cellInv ER (ringRd V) (κ ck) (kcell ck) : sProp 𝕄) from by
    unfold records; iintro ⟨H, -⟩; iexact H).trans (bigSep_elim (Finset.mem_univ ck))
theorem reached_at (κ : Dev nD × CI → ℕ) (ck : Dev nD × CI) : records V κ ⊢ reached ER (kcell ck) 0 :=
  (show records V κ ⊢ (bigSep Finset.univ fun ck : Dev nD × CI => reached ER (kcell ck) 0 : sProp 𝕄) from by
    unfold records; iintro ⟨-, H⟩; iexact H).trans (bigSep_elim (Finset.mem_univ ck))

/-- The tokens of the duties device `c` pays. -/
def payToks (c : Dev nD) : sProp 𝕄 :=
  iprop(dutyTok ER (barCell (prv c)) 0 false ∗ dutyTok ER (barCell (nxt c)) 0 true
    ∗ (bigSep Finset.univ fun x : Xfer => iprop(dutyTok ER (sendCell c x.1 x.2.1 x.2.2) 0 false
        ∗ dutyTok ER (recvCell (toDev c x.2.1) x.1 x.2.1 x.2.2) 0 false)))

/-- What stays with device `c`: its positions at its own cells, and the tokens it pays with. -/
def linear (c : Dev nD) : sProp 𝕄 :=
  iprop((atPos ER (barCell c) 0 ∅ 0
      ∗ (bigSep Finset.univ fun x : Xfer => iprop(atPos ER (sendCell c x.1 x.2.1 x.2.2) 0 ∅ 0 ∗ atPos ER (recvCell c x.1 x.2.1 x.2.2) 0 ∅ 0)))
    ∗ payToks c)

theorem invs_intro (κ : Dev nD × CI → ℕ) (c : Dev nD) : records V κ ⊢ invs V (namesOf κ) c := by
  have hx : records V κ ⊢ (bigSep Finset.univ fun x : Xfer => iprop(cellInv ER (ringRd V) (namesOf κ (c, some (x.1, x.2.1, x.2.2, true))) (sendCell c x.1 x.2.1 x.2.2)
        ∗ cellInv ER (ringRd V) (namesOf κ (c, some (x.1, x.2.1, x.2.2, false))) (recvCell c x.1 x.2.1 x.2.2)
        ∗ cellInv ER (ringRd V) (namesOf κ (toDev c x.2.1, some (x.1, x.2.1, x.2.2, false))) (recvCell (toDev c x.2.1) x.1 x.2.1 x.2.2)) : sProp 𝕄) :=
    bigSep_intro_persistent fun x _ => by
      iintro #H
      isplitr; · iapply (inv_at V κ (c, .inr (x, true))); iexact H
      isplitr; · iapply (inv_at V κ (c, .inr (x, false))); iexact H
      iapply (inv_at V κ (toDev c x.2.1, .inr (x, false))); iexact H
  unfold invs
  iintro #HR
  isplitr; · iapply (inv_at V κ (c, .inl ())); iexact HR
  isplitr; · iapply hx; iexact HR
  isplitr; · iapply (inv_at V κ (nxt c, .inl ())); iexact HR
  iapply (inv_at V κ (prv c, .inl ())); iexact HR

theorem reached_intro (κ : Dev nD × CI → ℕ) (c : Dev nD) :
    records V κ ⊢ (bigSep Finset.univ fun x : Xfer => iprop(reached ER (sendCell c x.1 x.2.1 x.2.2) 0 ∗ reached ER (recvCell c x.1 x.2.1 x.2.2) 0) : sProp 𝕄) :=
  bigSep_intro_persistent fun x _ => by
    iintro #H
    isplitr; · iapply (reached_at V κ (c, .inr (x, true))); iexact H
    iapply (reached_at V κ (c, .inr (x, false))); iexact H

theorem ghost_intro (κ : Dev nD × CI → ℕ) (c : Dev nD) : iprop(records V κ ∗ linear c) ⊢ (∃ K, ghost V K c : sProp 𝕄) := by
  unfold linear payToks
  iintro ⟨#HR, ⟨HaB, HaX⟩, HtP, HtN, HtX⟩
  iexists (namesOf κ)
  unfold ghost
  isplitr; · iapply (invs_intro V κ c); iexact HR
  isplitl [HaB]; · iexact HaB
  isplitl [HaX]; · iexact HaX
  isplitr; · iapply (reached_intro V κ c); iexact HR
  isplitr; · iapply (reached_at V κ (nxt c, .inl ())); iexact HR
  isplitr; · iapply (reached_at V κ (prv c, .inl ())); iexact HR
  isplitl [HtP]; · iexact HtP
  isplitl [HtN]; · iexact HtN
  iexact HtX

theorem toks_eq (c : Dev nD) : (toks c : sProp 𝕄)
    = iprop((dutyTok ER (barCell c) 0 true ∗ dutyTok ER (barCell c) 0 false)
      ∗ bigSep Finset.univ fun x : Xfer => iprop(dutyTok ER (sendCell c x.1 x.2.1 x.2.2) 0 false ∗ dutyTok ER (recvCell c x.1 x.2.1 x.2.2) 0 false)) := by
  unfold toks; rw [bigSep_univ_sum, bigSep_bool, bigSep_XB]; rfl

/-- A family over (device, transfer) summed over the devices is the same family read at each transfer's target device. -/
theorem recv_around (R : Dev nD → Xfer → sProp 𝕄) :
    (bigSep Finset.univ fun c : Dev nD => bigSep Finset.univ fun x : Xfer => R c x)
      = bigSep Finset.univ fun c : Dev nD => bigSep Finset.univ fun x : Xfer => R (toDev c x.2.1) x := by
  rw [bigSep_univ_comm (fun (c : Dev nD) (x : Xfer) => R c x), bigSep_univ_comm (fun (c : Dev nD) (x : Xfer) => R (toDev c x.2.1) x)]
  exact bigSep_congr fun x _ => by
    rw [bigSep_univ_equiv (toDevE x.2.1) (fun c => R c x)]
    exact bigSep_congr fun c _ => by rw [toDevE_apply]

/-- The tokens dealt around the ring: a barrier cell's `false` token to the device after it, its `true` token to the device
    before it, each receive token to the device that sends to the cell. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  rw [bigSep_sep', bigSep_sep', bigSep_sep', bigSep_sep',
    bigSep_congr (s := Finset.univ) (fun (c : Dev nD) _ => bigSep_sep' Finset.univ
      (fun x : Xfer => (dutyTok ER (sendCell c x.1 x.2.1 x.2.2) 0 false : sProp 𝕄)) (fun x : Xfer => dutyTok ER (recvCell c x.1 x.2.1 x.2.2) 0 false)),
    bigSep_congr (s := Finset.univ) (fun (c : Dev nD) _ => bigSep_sep' Finset.univ
      (fun x : Xfer => (dutyTok ER (sendCell c x.1 x.2.1 x.2.2) 0 false : sProp 𝕄)) (fun x : Xfer => dutyTok ER (recvCell (toDev c x.2.1) x.1 x.2.1 x.2.2) 0 false)),
    bigSep_sep', bigSep_sep',
    bigSep_univ_equiv ring.symm (fun c : Dev nD => (dutyTok ER (barCell c) 0 false : sProp 𝕄)),
    bigSep_univ_equiv ring (fun c : Dev nD => (dutyTok ER (barCell c) 0 true : sProp 𝕄)),
    recv_around (fun c x => (dutyTok ER (recvCell c x.1 x.2.1 x.2.2) 0 false : sProp 𝕄))]
  iintro ⟨⟨HT, HF⟩, HS, HR⟩
  isplitl [HF]; · iexact HF
  isplitl [HT]; · iexact HT
  isplitl [HS]; · iexact HS
  iexact HR

theorem atPos_own (c : Dev nD) : (bigSep Finset.univ fun k : CI => (atPos ER (kcell (c, k)) 0 ∅ 0 : sProp 𝕄))
    = iprop(atPos ER (barCell c) 0 ∅ 0
      ∗ bigSep Finset.univ fun x : Xfer => iprop(atPos ER (sendCell c x.1 x.2.1 x.2.2) 0 ∅ 0 ∗ atPos ER (recvCell c x.1 x.2.1 x.2.2) 0 ∅ 0)) := by
  rw [bigSep_CI, bigSep_XB]; rfl

theorem linear_sum :
    iprop(((bigSep Finset.univ fun c : Dev nD => iprop(atPos ER (barCell c) 0 ∅ 0
          ∗ bigSep Finset.univ fun x : Xfer => iprop(atPos ER (sendCell c x.1 x.2.1 x.2.2) 0 ∅ 0 ∗ atPos ER (recvCell c x.1 x.2.1 x.2.2) 0 ∅ 0)))
        ∗ bigSep Finset.univ fun c : Dev nD => payToks c) ∗ bigSep Finset.univ fun c : Dev nD => copySems0 c)
      = (bigSep Finset.univ fun c : Dev nD => iprop(linear c ∗ copySems0 c) : sProp 𝕄) := by
  unfold linear; conv_rhs => rw [bigSep_sep', bigSep_sep']

theorem regroup :
    (bigSep Finset.univ fun c : Dev nD => iprop((bigSep Finset.univ fun k : CI => iprop(∃ κ : ℕ, cellInv ER (ringRd V) κ (kcell (c, k))))
          ∗ (bigSep Finset.univ fun k : CI => iprop(atPos ER (kcell (c, k)) 0 ∅ 0 ∗ reached ER (kcell (c, k)) 0)) ∗ toks c ∗ copySems0 c) : sProp 𝕄)
      ⊢ bigSep Finset.univ (G' V) := by
  rw [bigSep_sep', bigSep_sep', bigSep_sep', ← bigSep_univ_prod (fun ck : Dev nD × CI => iprop(∃ κ : ℕ, cellInv ER (ringRd V) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)),
    bigSep_congr (s := Finset.univ) (fun (c : Dev nD) _ => atPos_own (F := F) c)]
  iintro ⟨HI, ⟨Hat, #HR⟩, Htok, Hcp⟩
  ihave HK := (BI.bigSep_exists_pi Finset.univ (fun (ck : Dev nD × CI) (κ : ℕ) => (cellInv ER (ringRd V) κ (kcell ck) : sProp 𝕄))) $$ HI
  icases HK with ⟨%κ, #HI⟩
  ihave Htk := (toks_around (F := F)) $$ Htok
  iapply (bigSep_with_persistent (R := records V κ) (Φ := fun c : Dev nD => iprop(linear c ∗ copySems0 c)) fun c _ => by
    unfold G'
    iintro ⟨#HR, HL, HC⟩
    isplitl [HL]
    · iapply (ghost_intro V κ c); isplitr; · iexact HR
      iexact HL
    iexact HC)
  isplitr
  · unfold records; isplitl; · iexact HI
    iexact HR
  · iapply (Entails.of_eq (linear_sum (F := F)))
    isplitl [Hat Htk]
    · isplitl [Hat] <;> iassumption
    iexact Hcp

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The launch credit -/

/-- The cell a payment credits, named on the device that is paid. -/
def cellAt (c : Dev nD) : Pay → GSem nD τ sig
  | .bar _ => barCell c
  | .xfer k l h => recvCell c k l h
/-- What device `c`'s cells are paid by the payments `ps` of the devices that pay it. -/
def paidOf (c : Dev nD) : List Pay → CellTallies nD τ sig Unit
  | [] => 0
  | p :: ps => tallyAt (cellAt c p) () (payAmt p) + paidOf c ps

theorem payCell_eq (d : Dev nD) (p : Pay) : payCell d p = cellAt (toDevE (match p with | .bar l => l | .xfer _ l _ => l) d) p := by
  cases p with
  | bar l => rw [toDevE_apply]; rfl
  | xfer k l h => rw [toDevE_apply]; rfl

/-- Summed over the devices, what they owe is what they are paid. -/
theorem sum_owedOf (ps : List Pay) : (∑ d : Dev nD, owedOf d ps) = ∑ c : Dev nD, paidOf c ps := by
  induction ps with
  | nil => rfl
  | cons p ps ih =>
    simp only [owedOf, paidOf, Finset.sum_add_distrib, ih]
    rw [add_comm]
    congr 1
    exact Fintype.sum_equiv (toDevE (match p with | .bar l => l | .xfer _ l _ => l)) _ _ (fun d => by rw [payCell_eq])

theorem paidOf_own (c : Dev nD) (ps : List Pay) (g : GSem nD τ sig) (h : paidOf c ps g ≠ 0) : g.1 = (c : Thread nD τ) := by
  induction ps with
  | nil => exact absurd rfl h
  | cons p ps ih =>
    by_cases hg : g = cellAt c p
    · rw [hg]; cases p <;> rfl
    · refine ih ?_
      intro h0
      apply h
      show tallyAt (cellAt c p) () (payAmt p) g + paidOf c ps g = 0
      rw [h0, tallyAt_ne_cell hg, add_zero]

theorem cred_paidOf (c : Dev nD) (ps : List Pay) :
    (cred (paidOf c ps) : sProp 𝕄) ⊢ bigSepL ps fun p => cred (tallyAt (cellAt c p) () (payAmt p)) := by
  induction ps with
  | nil =>
    show (cred (0 : CellTallies nD τ sig Unit) : sProp 𝕄) ⊢ (emp : sProp 𝕄)
    rw [cred_zero]
  | cons p ps ih =>
    rw [bigSepL_cons]
    show cred (tallyAt (cellAt c p) () (payAmt p) + paidOf c ps) ⊢ _
    exact (cred_add _ _).1.trans (sep_mono_right ih)

/-- The transfers in the order of the program. -/
def progXfers : List Xfer :=
  [(.o, false, 0), (.l, false, 0), (.o, true, 0), (.l, true, 0),
   (.o, false, 1), (.o, true, 1), (.l, false, 1), (.l, true, 1),
   (.o, false, 2), (.o, true, 2), (.l, false, 2), (.l, true, 2),
   (.g, false, 0), (.g, true, 0), (.g, false, 1), (.g, true, 1), (.g, false, 2), (.g, true, 2)]

theorem creds (c : Dev nD) :
    (Pipeline.launchCred O₀ c : sProp 𝕄)
      ⊢ iprop(cred (tallyAt (barCell c) () 2) ∗ bigSep Finset.univ fun x : Xfer => cred (tallyAt (recvCell c x.1 x.2.1 x.2.2) () (amt x.1))) := by
  rw [Pipeline.launchCred_of_sum O₀ (fun c => paidOf c prog) (sum_owedOf prog) (fun d g h => paidOf_own d prog g h) c,
    bigSep_univ_eq_bigSepL progXfers (by decide) (by decide)]
  refine (cred_paidOf c prog).trans ?_
  show iprop(cred (tallyAt (barCell c) () 1) ∗ cred (tallyAt (barCell c) () 1) ∗ bigSepL progXfers fun x => cred (tallyAt (recvCell c x.1 x.2.1 x.2.2) () (amt x.1))) ⊢ _
  iintro ⟨H1, H2, HX⟩
  isplitl [H1 H2]
  · rw [← tallyAt_add (barCell c) () 1 1]
    iapply (cred_add _ _).2
    isplitl [H1] <;> iassumption
  iexact HX

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- The level of the cell a payment credits: a barrier cell's 1, a transfer's place. -/
def payLv : Pay → ℕ
  | .bar _ => 1
  | .xfer k l h => place k l h

theorem lv_bar (c : Dev nD) : lv (barCell c) () = 1 := if_pos rfl
theorem lv_recv (c : Dev nD) (k : Kind) (l : Bool) (h : Fin 3) : lv (recvCell c k l h) () = place k l h := by
  unfold lv; rw [if_neg (recv_ne_bar k l h)]; dsimp only; rw [cellRole_recv]
theorem lv_send (c : Dev nD) (k : Kind) (l : Bool) (h : Fin 3) : lv (sendCell c k l h) () = place k l h := by
  unfold lv; rw [if_neg (send_ne_bar k l h)]; dsimp only; rw [cellRole_send]
theorem lv_low (c : Dev nD) (q : DmaSem sig) (hq : cellRole (.dma q) = none) : lv ((c : Thread nD τ), .dma q) () = 0 := by
  unfold lv; rw [if_neg (fun h => by cases h)]; dsimp only; rw [hq]

theorem lv_payCell (c : Dev nD) (p : Pay) : lv (payCell c p) () = payLv p := by
  cases p with
  | bar l => exact lv_bar _
  | xfer k l h => exact lv_recv _ k l h
theorem L_payCell (c : Dev nD) (p : Pay) : L (payCell c p) = {()} := by cases p <;> exact if_pos rfl

theorem payLv_pos (p : Pay) : 0 < payLv p := by
  cases p with
  | bar l => exact Nat.one_pos
  | xfer k l h => revert k l h; decide

/-- A device that still owes the payments `ps` owes only the cells they credit. -/
theorem owedOf_pos {c : Dev nD} {ps : List Pay} {g : GSem nD τ sig} {i : Unit} (h : 0 < owedOf c ps g i) : ∃ p ∈ ps, g = payCell c p := by
  induction ps with
  | nil => exact absurd h (Nat.lt_irrefl 0)
  | cons p ps ih =>
    have h' : 0 < (owedOf c ps + tallyAt (payCell c p) () (payAmt p)) g i := h
    rcases Pipeline.add_pos_cases h' with h1 | h1
    · obtain ⟨q, hq, e⟩ := ih h1; exact ⟨q, List.mem_cons_of_mem _ hq, e⟩
    · exact ⟨p, List.mem_cons_self, (Pipeline.tallyAt_pos h1).1⟩

/-- A device may wait on a cell of its own that sits below every cell it still owes. -/
theorem mayWait_below (c : Dev nD) (s : SemLoc sig) (ps : List Pay) (hlow : ∀ p ∈ ps, lv ((c : Thread nD τ), s) () < payLv p) :
    (levAts L lv : sProp 𝕄) ⊢ MayWait (c : Thread nD τ) s () (owedOf c ps) :=
  Pipeline.mayWait_of_levAts (by rw [L_tc]; exact Finset.mem_singleton_self ()) fun g i hg => by
    obtain ⟨p, hp, rfl⟩ := owedOf_pos hg
    exact ⟨by rw [L_payCell]; exact Finset.mem_singleton_self _, by rw [lv_payCell]; exact hlow p hp⟩

/-- At its barrier wait a device owes only its transfers' receive credits. -/
theorem mayWait_bar (c : Dev nD) : (levAts L lv : sProp 𝕄) ⊢ MayWait (c : Thread nD τ) (.reg barS) () (owedOf c (prog.drop 2)) :=
  mayWait_below c _ _ (by rw [show lv ((c : Thread nD τ), .reg barS) () = 1 from lv_bar c]; decide)

/-- At the waits of a transfer — on its send cell or on its receive cell — a device owes only later transfers. -/
theorem mayWait_send (c : Dev nD) (k : Kind) (l : Bool) (h : Fin 3) :
    (levAts L lv : sProp 𝕄) ⊢ MayWait (c : Thread nD τ) (.dma (sendSem k l h)) () (owedOf c (prog.drop (place k l h + 1))) :=
  mayWait_below c _ _ (by rw [show lv ((c : Thread nD τ), .dma (sendSem k l h)) () = place k l h from lv_send c k l h]; revert k l h; decide)
theorem mayWait_recv (c : Dev nD) (k : Kind) (l : Bool) (h : Fin 3) :
    (levAts L lv : sProp 𝕄) ⊢ MayWait (c : Thread nD τ) (.dma (recvSem k l h)) () (owedOf c (prog.drop (place k l h + 1))) :=
  mayWait_below c _ _ (by rw [show lv ((c : Thread nD τ), .dma (recvSem k l h)) () = place k l h from lv_recv c k l h]; revert k l h; decide)

/-- On a staging or local-copy semaphore a device may wait whatever it still owes. -/
theorem mayWait_low (c : Dev nD) (q : DmaSem sig) (hq : cellRole (.dma q) = none) (ps : List Pay) :
    (levAts L lv : sProp 𝕄) ⊢ MayWait (c : Thread nD τ) (.dma q) () (owedOf c ps) :=
  mayWait_below c _ _ (fun p _ => by rw [lv_low c q hq]; exact payLv_pos p)

/-! ## The theorem's side conditions -/

variable (m : (ℓ : Loc nD τ sig) → Buf (Elt F) ℓ) (ρ : Dev nD → PrngReg) (Kout : OutFn F)

theorem share_eq (c : Dev nD) (w : Fin cfg0.W) : (dats V m Kout 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' V c)
      ⊢ |={Set.univ}=> iprop(start V m c ∗ emp) := by
  rw [Pipeline.unscopedRestP_none, unscopedRest0_eq]
  unfold G'
  iintro ⟨Hh, Hlev, Hcr, -, HG, Hcp⟩
  ihave Hc := (creds (F := F) c) $$ Hcr
  icases Hc with ⟨H2, HX⟩
  imodintro
  unfold start hbm
  isplitl
  · isplitl [HG]; · iexact HG
    isplitl [H2]; · iexact H2
    isplitl [HX]; · iexact HX
    isplitl [Hlev]; · iexact Hlev
    isplitl [Hcp]; · iexact Hcp
    iexact Hh
  · iempintro

theorem phi0_intro (c : Dev nD) :
    iprop(start V m c ∗ Pipeline.prefHeld Pipeline.Prefetch.none c (fun _ => fullShare.right) (fun k => k.elim0) ∗ Pipeline.scopedRest cfg0.spec c)
      ⊢ (dats V m Kout 0 c).Φ 0 := by
  rw [show (dats V m Kout 0 c).Φ 0 = Φ₀ V m c from rfl]
  unfold Φ₀ scratch
  iintro ⟨Hs, -, Hr⟩
  isplitl [Hs]; · iexact Hs
  iexact Hr

theorem phi1_exit (c : Dev nD) :
    (dats V m Kout 0 c).Φ (Fin.last cfg0.N) ⊢ iprop(hbm m c ∗ Pipeline.ownSems0 osem c ∗ Pipeline.scopedRest cfg0.spec c) := by
  rw [show (dats V m Kout 0 c).Φ (Fin.last cfg0.N) = Φ₁ m c from rfl, ownSems0_eq, bigSep_XB]
  unfold Φ₁ scratch
  iintro ⟨Hr, Hcp, Hh, HX⟩
  isplitl [Hh]; · iexact Hh
  isplitl [HX Hcp]
  · isplitl [HX]; · iexact HX
    iexact Hcp
  iexact Hr

theorem waits (c : Dev nD) : (levAts L lv : sProp 𝕄) ⊢ Pipeline.cellsWaits cfgs (dats V m Kout) () 0 c :=
  Pipeline.cellsWaits_intro cfgs (dats V m Kout) () 0 c fun w s t => by
    have hq : cellRole (.dma ((cfg0.win w).sem s)) = none := cellRole_lt _ (by fin_cases w <;> fin_cases s <;> decide)
    rcases t with ⟨_ | _, ht⟩
    · exact mayWait_low c _ hq prog
    · show _ ⊢ MayWait _ _ _ (0 : CellTallies nD τ sig Unit)
      rw [MayWait_zero]; iintro -; iempintro

/-! ## The result array after the one grid point -/

/-- The result window's block is the whole array, written back once: the array ends at what the body left in the block. -/
theorem arrAt_result (c : Dev nD) : (dats V m Kout 0 c).arrAt 3 cfg0.N = Kout m c := by
  have h := (dats V m Kout 0 c).arrAt_succ 3 t0_0
  rw [flush0_3 t0_0, if_pos rfl] at h
  have hN : cfg0.N = t0_0.val + 1 := by decide
  rw [hN, h]
  have hread : ∀ X : (main_v1 : Ref sig .tc).ty.Contents (Elt F), ((cfg0.win 3).blk t0_0).view.read (Elt F) X = X := fun X =>
    Memref.read_access_unit_zero (Elt F) main_v1 (off := fun a => 0 * S4x256x1024.size a) (by funext a; exact Nat.zero_mul _) _ X
  have hcut : (dats V m Kout 0 c).flushed 3 t0_0 = Kout m c := by
    funext j; rfl
  exact (hread _).symm.trans ((View.read_write_univ _ _).trans hcut)

/-! ## The run -/

set_option maxRecDepth 8000 in
/-- At the compiled mesh of four devices, for any float values, from any memory with zero counters, given the body of each
    device: every weakly fair execution of @main — the four kernels handshaking on the barrier semaphore, reducing and
    gathering around the ring — terminates, and every final state has each device's result array at the write-back of
    its block and the five argument arrays as launched. -/
theorem run_main (hbody : BodyOK V m Kout) :
    θ_run defs (onTc (τ := τ) (main (F := F))) ⟨m, fun _ => 0, ρ⟩ (fun r => ∀ c : Dev nD,
      r.2.mem ((c : Thread nD τ).loc main_v1) = (dats V m Kout 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Pipeline.θ_run_region_owing_glob_pf (fun p => (cfgs p).toPCfg) (fun p => (cfgs p).toPCfg_adm) (dats V m Kout) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq V m Kout)
    (hdistinct := winFacts0.arr_inj)
    (O₀ := O₀) (howed₀ := fun _ => rfl) (howedN := fun _ => rfl)
    (L := L) (lv := lv) (hL := L_of_ne) (hwaits := waits V m Kout)
    (G := G V) (G' := G' V) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_ring V) $$ HR with HG
      imodintro
      isplitl [HP] <;> iassumption)
    (hglob := glob V)
    (hA := fun _ _ => rfl) (hpf := fun _ k => k.elim0)
    (X := start V m) (Y := hbm m) (Z := fun _ => iprop(emp))
    (hX := start_intro V m ρ) (hin := phi0_intro V m Kout) (hout := phi1_exit V m Kout)
    (QY := fun c s => s.mem ((c : Thread nD τ).loc main_arg3) = m ((c : Thread nD τ).loc main_arg3)
      ∧ s.mem ((c : Thread nD τ).loc main_arg4) = m ((c : Thread nD τ).loc main_arg4))
    (hY := fun c s' => by
      unfold hbm
      iintro ⟨⟨H3, H4⟩, -, HSI⟩
      icombine HSI H3 gives %h3
      icombine HSI H4 gives %h4
      imodintro
      isplitr; · ipureintro; exact ⟨Buf.eq_of_forall_mem_univ h3, Buf.eq_of_forall_mem_univ h4⟩
      iexact HSI)
    (hQ := fun s h c => ⟨(h c).1 3,
      ((h c).1 0).trans ((dats V m Kout 0 c).arrAt_in 0 rfl _),
      ((h c).1 1).trans ((dats V m Kout 0 c).arrAt_in 1 rfl _),
      ((h c).1 2).trans ((dats V m Kout 0 c).arrAt_in 2 rfl _),
      (h c).2.2.1, (h c).2.2.2⟩)

end Cert.KernelIdeal.Proto

end
-- ==== Proof.Unfold.lean ====
/-
  The eighteen transfers of a device listed in program order, and a conjunction over all of them written out.
-/
import proofs.«900754_g7700000000000755_dist_attn_cross_gqa_kvseq_b4_sq256_skv1024_d1024_hq8_dh128_v7x_i4_f32_1_alg».proof.Proof.Data

noncomputable section

namespace Cert.KernelIdeal.Proto

open Cert.KernelIdeal Cert.KernelIdeal.Gen Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The transfers in the order the body enqueues them. -/
def xfers : List Xfer := [(.o, false, 0), (.l, false, 0), (.o, true, 0), (.l, true, 0), (.o, false, 1), (.o, true, 1), (.l, false, 1), (.l, true, 1), (.o, false, 2), (.o, true, 2), (.l, false, 2), (.l, true, 2), (.g, false, 0), (.g, true, 0), (.g, false, 1), (.g, true, 1), (.g, false, 2), (.g, true, 2)]

omit [FloatOps F] in
theorem bigSep_xfer (Φ : Xfer → sProp 𝕄) :
    bigSep Finset.univ Φ = iprop(Φ ((.o, false, 0) : Xfer) ∗ Φ ((.l, false, 0) : Xfer) ∗ Φ ((.o, true, 0) : Xfer) ∗ Φ ((.l, true, 0) : Xfer) ∗ Φ ((.o, false, 1) : Xfer) ∗ Φ ((.o, true, 1) : Xfer) ∗ Φ ((.l, false, 1) : Xfer) ∗ Φ ((.l, true, 1) : Xfer) ∗ Φ ((.o, false, 2) : Xfer) ∗ Φ ((.o, true, 2) : Xfer) ∗ Φ ((.l, false, 2) : Xfer) ∗ Φ ((.l, true, 2) : Xfer) ∗ Φ ((.g, false, 0) : Xfer) ∗ Φ ((.g, true, 0) : Xfer) ∗ Φ ((.g, false, 1) : Xfer) ∗ Φ ((.g, true, 1) : Xfer) ∗ Φ ((.g, false, 2) : Xfer) ∗ Φ ((.g, true, 2) : Xfer)) :=
  bigSep_univ_eq_bigSepL xfers (by decide) (by decide) Φ

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.KernelIdeal.Proto

end
-- ==== Proof.TailProg.lean ====
import proofs.«900754_g7700000000000755_dist_attn_cross_gqa_kvseq_b4_sq256_skv1024_d1024_hq8_dh128_v7x_i4_f32_1_alg».proof.Proof.Gen.KernelIdeal.Skeleton

noncomputable section

namespace Cert.KernelIdeal.Proto

open Cert.KernelIdeal Cert.KernelIdeal.Gen
open Idealize.ShloMosaic Idealize.SL.Sem

variable {F : FTy → Type} [FloatOps F]

/-- The body from the end of its last merge loop on: the eight output terms, the own block's copy, the gathering's three hops, the four final copies. -/
noncomputable def tailProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 v25 v1157 : BitVec 32) :
    Prog (TpuEff nD τ sig (Elt F) Λ₀ .tc) PUnit := do
  let v1203 : FVec F S256x1024 .f32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v1157 -- statements 2461–2520 of 3174: their part
  let v1235 : FVec F S256x1024 .f32 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v1157 v1203 -- statements 2521–2580 of 3174: their part
  let ⟨v1264, v1267⟩ : Σ' (v1264 : FVec F S128x256 .f32), FVec F S128x256 .f32 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v1157 v1235 -- statements 2581–2640 of 3174: their part
  let v1301 : FVec F S256x1024 .bf16 ← k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v1157 v1264 v1267 -- statements 2641–2700 of 3174: their part
  k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v25 v1157 v1301 -- statements 2701–2760 of 3174: their part
  k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 -- statements 2761–2820 of 3174: their part
  let ⟨v1391, v1392, v1393, v1396⟩ : Σ' (v1391 : BitVec 32) (v1392 : BitVec 32) (v1393 : BitVec 1), BitVec 1 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1157 -- statements 2821–2880 of 3174: their part
  let ⟨v1426, c0_i32_1335⟩ : Σ' (v1426 : BitVec 32), BitVec 32 ← k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1391 v1392 v1393 v1396 -- statements 2881–2940 of 3174: their part
  let ⟨v1451, v1452, v1453, v1456⟩ : Σ' (v1451 : BitVec 32) (v1452 : BitVec 32) (v1453 : BitVec 1), BitVec 1 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1157 v1426 c0_i32_1335 -- statements 2941–3000 of 3174: their part
  k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1157 v1451 v1452 v1453 v1456 -- statements 3001–3060 of 3174: their part
  k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 -- statements 3061–3120 of 3174: their part
  let v1513 : DmaSems sig S1 := arg27.slice (Rect.unit (s := S3) ![2] S1.size inb_S3_S1_2) -- (%1513 = tpu.memref_slice %arg27[%c2_i32_1408] : memref<3x!tpu.dma_semaphore, #tpu.memory_space<semaphore_mem>> -> memref<1x!tpu.dma_semaphore, #tpu.memory_space<semaphore_mem>>  @ kernel:223), the view bound again for this window
  let v1514 : DmaSems sig S_ := v1513.squeeze S_ squeezes_S1_S_         -- (%1514 = tpu.memref_squeeze %1513 : memref<1x!tpu.dma_semaphore, #tpu.memory_space<semaphore_mem>> -> memref<!tpu.dma_semaphore, #tpu.memory_space<semaphore_mem>>  @ kernel:223), the view bound again for this window
  let v1515 : Memref sig .tc .vmem S1x128x1024 .bf16 := arg29.slice (Rect.unit (s := S4x256x1024) (k0_off68 d0 2#32) S1x128x1024.size (k0_off68_inb d0 2)) (fun _ => rfl) -- (%1515 = tpu.memref_slice %arg29[%1470, %c128_i32_1412, %c0_i32_1413] : memref<4x256x1024xbf16, #tpu.memory_space<vmem>> -> memref<1x128x1024xbf16, #tpu.memory_space<vmem>>  @ kernel:223), the view bound again for this window
  let v1516 : Memref sig .tc .vmem S128x1024 .bf16 := v1515.squeeze S128x1024 squeezes_S1x128x1024_S128x1024 -- (%1516 = tpu.memref_squeeze %1515 : memref<1x128x1024xbf16, #tpu.memory_space<vmem>> -> memref<128x1024xbf16, #tpu.memory_space<vmem>>  @ kernel:223), the view bound again for this window
  let v1517 : Memref sig .tc .vmem S1x128x1024 .bf16 := arg29.slice (Rect.unit (s := S4x256x1024) (k0_off68 d0 2#32) S1x128x1024.size (k0_off68_inb d0 2)) (fun _ => rfl) -- (%1517 = tpu.memref_slice %arg29[%1470, %c128_i32_1414, %c0_i32_1415] : memref<4x256x1024xbf16, #tpu.memory_space<vmem>> -> memref<1x128x1024xbf16, #tpu.memory_space<vmem>>  @ kernel:223), the view bound again for this window
  let v1518 : Memref sig .tc .vmem S128x1024 .bf16 := v1517.squeeze S128x1024 squeezes_S1x128x1024_S128x1024 -- (%1518 = tpu.memref_squeeze %1517 : memref<1x128x1024xbf16, #tpu.memory_space<vmem>> -> memref<128x1024xbf16, #tpu.memory_space<vmem>>  @ kernel:223), the view bound again for this window
  Prog.lift (.waitDma2 v1514.sem v1518 v1516 ((harg29.wordExact_slice rfl _ (k0_off68_wordsbf16 d0 2)).reshape _ _) ((harg29.wordExact_slice rfl _ (k0_off68_wordsbf16 d0 2)).reshape _ _)) -- tpu.wait_dma2 semaphore(%1514 : memref<!tpu.dma_semaphore, #tpu.memory_space<semaphore_mem>>) src(%1518 : memref<128x1024xbf16, #tpu.memory_space<vmem>>) dst(%1516 : memref<128x1024xbf16, #tpu.memory_space<vmem>>) device_id(%1512)  @ kernel:223
  let v1519 : Vec F S1x256x1024 .bf16 ← Prog.lift (.load arg29 (Rect.unit (s := S4x256x1024) ![0, 0, 0] S1x256x1024.size inb_S4x256x1024_S1x256x1024_0_0_0).toLoadRect (View.loadsAt_vmem h_S1x256x1024)) -- %1519 = vector.load %arg29[%c0_1416, %c0_1417, %c0_1418] : memref<4x256x1024xbf16, #tpu.memory_space<vmem>>, vector<1x256x1024xbf16>  @ kernel:225
  let v1521 : FVec F S256x1024 .f32 ← pure (k0_pay118 v1519)
  let v1522 : Vec F S1x256x1024 .f32 ← Prog.lift (.load arg5 (Rect.unit (s := S4x256x1024) ![0, 0, 0] S1x256x1024.size inb_S4x256x1024_S1x256x1024_0_0_0).toLoadRect (View.loadsAt_vmem h_S1x256x1024)) -- %1522 = vector.load %arg5[%c0_1419, %c0_1420, %c0_1421] : memref<4x256x1024xf32, #tpu.memory_space<vmem>>, vector<1x256x1024xf32>  @ kernel:225
  -- %1523 = vector.shape_cast %1522 : vector<1x256x1024xf32> to vector<256x1024xf32>  @ kernel:225  — not in the skeleton
  Prog.lift (.store arg5 (Rect.unit (s := S4x256x1024) ![0, 0, 0] S1x256x1024.size inb_S4x256x1024_S1x256x1024_0_0_0) (k0_pay1 v1521) Finset.univ (View.stores_vmem_bits_univ h_S1x256x1024 rfl) (.inl rfl)) -- tpu.vector_store %arg5[%c0_1419, %c0_1420, %c0_1421], %1524 {strides = array<i32>} : memref<4x256x1024xf32, #tpu.memory_space<vmem>>, vector<1x256x1024xf32>,  @ kernel:225
  let v1525 : Vec F S1x256x1024 .bf16 ← Prog.lift (.load arg29 (Rect.unit (s := S4x256x1024) ![1, 0, 0] S1x256x1024.size inb_S4x256x1024_S1x256x1024_1_0_0).toLoadRect (View.loadsAt_vmem h_S1x256x1024)) -- %1525 = vector.load %arg29[%c1_1422, %c0_1423, %c0_1424] : memref<4x256x1024xbf16, #tpu.memory_space<vmem>>, vector<1x256x1024xbf16>  @ kernel:225
  let v1528 : Vec F S1x256x1024 .f32 ← Prog.lift (.load arg5 (Rect.unit (s := S4x256x1024) ![1, 0, 0] S1x256x1024.size inb_S4x256x1024_S1x256x1024_1_0_0).toLoadRect (View.loadsAt_vmem h_S1x256x1024)) -- %1528 = vector.load %arg5[%c1_1425, %c0_1426, %c0_1427] : memref<4x256x1024xf32, #tpu.memory_space<vmem>>, vector<1x256x1024xf32>  @ kernel:225
  -- %1529 = vector.shape_cast %1528 : vector<1x256x1024xf32> to vector<256x1024xf32>  @ kernel:225  — not in the skeleton
  Prog.lift (.store arg5 (Rect.unit (s := S4x256x1024) ![1, 0, 0] S1x256x1024.size inb_S4x256x1024_S1x256x1024_1_0_0) (k0_pay2 v1525) Finset.univ (View.stores_vmem_bits_univ h_S1x256x1024 rfl) (.inl rfl)) -- tpu.vector_store %arg5[%c1_1425, %c0_1426, %c0_1427], %1530 {strides = array<i32>} : memref<4x256x1024xf32, #tpu.memory_space<vmem>>, vector<1x256x1024xf32>,  @ kernel:225
  let v1531 : Vec F S1x256x1024 .bf16 ← Prog.lift (.load arg29 (Rect.unit (s := S4x256x1024) ![2, 0, 0] S1x256x1024.size inb_S4x256x1024_S1x256x1024_2_0_0).toLoadRect (View.loadsAt_vmem h_S1x256x1024)) -- %1531 = vector.load %arg29[%c2_1428, %c0_1429, %c0_1430] : memref<4x256x1024xbf16, #tpu.memory_space<vmem>>, vector<1x256x1024xbf16>  @ kernel:225
  let v1534 : Vec F S1x256x1024 .f32 ← Prog.lift (.load arg5 (Rect.unit (s := S4x256x1024) ![2, 0, 0] S1x256x1024.size inb_S4x256x1024_S1x256x1024_2_0_0).toLoadRect (View.loadsAt_vmem h_S1x256x1024)) -- %1534 = vector.load %arg5[%c2_1431, %c0_1432, %c0_1433] : memref<4x256x1024xf32, #tpu.memory_space<vmem>>, vector<1x256x1024xf32>  @ kernel:225
  -- %1535 = vector.shape_cast %1534 : vector<1x256x1024xf32> to vector<256x1024xf32>  @ kernel:225  — not in the skeleton
  Prog.lift (.store arg5 (Rect.unit (s := S4x256x1024) ![2, 0, 0] S1x256x1024.size inb_S4x256x1024_S1x256x1024_2_0_0) (k0_pay3 v1531) Finset.univ (View.stores_vmem_bits_univ h_S1x256x1024 rfl) (.inl rfl)) -- tpu.vector_store %arg5[%c2_1431, %c0_1432, %c0_1433], %1536 {strides = array<i32>} : memref<4x256x1024xf32, #tpu.memory_space<vmem>>, vector<1x256x1024xf32>,  @ kernel:225
  let v1537 : Vec F S1x256x1024 .bf16 ← Prog.lift (.load arg29 (Rect.unit (s := S4x256x1024) ![3, 0, 0] S1x256x1024.size inb_S4x256x1024_S1x256x1024_3_0_0).toLoadRect (View.loadsAt_vmem h_S1x256x1024)) -- %1537 = vector.load %arg29[%c3_1434, %c0_1435, %c0_1436] : memref<4x256x1024xbf16, #tpu.memory_space<vmem>>, vector<1x256x1024xbf16>  @ kernel:225
  let v1540 : Vec F S1x256x1024 .f32 ← Prog.lift (.load arg5 (Rect.unit (s := S4x256x1024) ![3, 0, 0] S1x256x1024.size inb_S4x256x1024_S1x256x1024_3_0_0).toLoadRect (View.loadsAt_vmem h_S1x256x1024)) -- %1540 = vector.load %arg5[%c3_1437, %c0_1438, %c0_1439] : memref<4x256x1024xf32, #tpu.memory_space<vmem>>, vector<1x256x1024xf32>  @ kernel:225
  -- %1541 = vector.shape_cast %1540 : vector<1x256x1024xf32> to vector<256x1024xf32>  @ kernel:225  — not in the skeleton
  Prog.lift (.store arg5 (Rect.unit (s := S4x256x1024) ![3, 0, 0] S1x256x1024.size inb_S4x256x1024_S1x256x1024_3_0_0) (k0_pay4 v1537) Finset.univ (View.stores_vmem_bits_univ h_S1x256x1024 rfl) (.inl rfl)) -- tpu.vector_store %arg5[%c3_1437, %c0_1438, %c0_1439], %1542 {strides = array<i32>} : memref<4x256x1024xf32, #tpu.memory_space<vmem>>, vector<1x256x1024xf32>,  @ kernel:225
  pure ⟨⟩                                                               -- func.return

end Cert.KernelIdeal.Proto

end
-- ==== Proof.Segs.lean ====
import proofs.«900754_g7700000000000755_dist_attn_cross_gqa_kvseq_b4_sq256_skv1024_d1024_hq8_dh128_v7x_i4_f32_1_alg».proof.Proof.Gen.KernelIdeal.Skeleton
import proofs.«900754_g7700000000000755_dist_attn_cross_gqa_kvseq_b4_sq256_skv1024_d1024_hq8_dh128_v7x_i4_f32_1_alg».proof.Proof.TailProg

set_option maxRecDepth 65536

noncomputable section

namespace Cert.KernelIdeal.Proto

open Cert.KernelIdeal Cert.KernelIdeal.Gen
open Idealize.ShloMosaic Idealize.SL.Sem

variable {F : FTy → Type} [FloatOps F]

/-- Parts of the kernel's body, in order: A. -/
noncomputable def segAProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) :
    Prog (TpuEff nD τ sig (Elt F) Λ₀ .tc) (Σ' (d0 : Dev nD) (v2 : BitVec 32) (v14 : BitVec 32) (v25 : BitVec 32) (v26 : Sems sig S_), FVec F S256x1024 .f32) := do
  let ⟨d0, v2, v14, v25, v26⟩ : Σ' (d0 : Dev nD) (v2 : BitVec 32) (v14 : BitVec 32) (v25 : BitVec 32), Sems sig S_ ← k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
  k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
  k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
  k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
  k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
  k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2
  let v176 : FVec F S1024x128 .bf16 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2
  k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v176
  let ⟨v226, v244, v245, c2_i32_250⟩ : Σ' (v226 : FVec F S256x1024 .f32) (v244 : FVec F S256x128 .bf16) (v245 : BitVec 32), BitVec 32 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2
  k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v226 v244 v245 c2_i32_250
  pure ⟨d0, v2, v14, v25, v26, v226⟩

/-- Parts of the kernel's body, in order: B. -/
noncomputable def segBProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v25 : BitVec 32) (v26 : Sems sig S_) (v226 : FVec F S256x1024 .f32) :
    Prog (TpuEff nD τ sig (Elt F) Λ₀ .tc) (PUnit) := do
  k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226
  let v322 : BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2
  let v368 : BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v322
  let v396 : FVec F S1024x128 .bf16 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v322 v368
  let ⟨v410, v436, c8_i32_397⟩ : Σ' (v410 : FVec F S256x1024 .f32) (v436 : FVec F S256x128 .bf16), BitVec 32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v322 v396
  let v468 : FVec F S256x128 .bf16 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v322 v410 v436 c8_i32_397
  let ⟨v498, c4_i32_446, c0_i32_447⟩ : Σ' (v498 : BitVec 32) (c4_i32_446 : BitVec 32), BitVec 32 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468
  let v508 : BitVec 32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v498 c4_i32_446 c0_i32_447
  let ⟨v558, v560⟩ : Σ' (v558 : FVec F S1024x128 .bf16), BitVec 32 ← k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508
  let v592 : FVec F S256x1024 .bf16 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v558 v560
  let v596 : FVec F S256x1024 .f32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v592
  k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596
  pure ⟨⟩

/-- Parts of the kernel's body, in order: C. -/
noncomputable def segCProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v25 : BitVec 32) :
    Prog (TpuEff nD τ sig (Elt F) Λ₀ .tc) (Σ' (v787 : BitVec 32), BitVec 32) := do
  k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v25
  k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14
  let ⟨v735, c0_i32_663, c4_i32_664⟩ : Σ' (v735 : BitVec 32) (c0_i32_663 : BitVec 32), BitVec 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14
  k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664
  let ⟨v787, v790⟩ : Σ' (v787 : BitVec 32), BitVec 32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14
  pure ⟨v787, v790⟩

/-- Parts of the kernel's body, in order: D. -/
noncomputable def segDProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v25 : BitVec 32) (v787 : BitVec 32) (v790 : BitVec 32) :
    Prog (TpuEff nD τ sig (Elt F) Λ₀ .tc) (Σ' (v1014 : BitVec 32) (v1015 : BitVec 32), BitVec 1) := do
  k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v790
  let ⟨v849, c2_i32_779⟩ : Σ' (v849 : FVec F S1024x128 .bf16), BitVec 32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787
  let ⟨v875, v883⟩ : Σ' (v875 : FVec F S256x1024 .f32), FVec F S1x256x128 .bf16 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v849 c2_i32_779
  let v917 : FVec F S256x128 .bf16 ← k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v883
  k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917
  let v970 : BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 v2 v25
  k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970
  let ⟨v1014, v1015, v1020⟩ : Σ' (v1014 : BitVec 32) (v1015 : BitVec 32), BitVec 1 ← k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 v2 v14
  pure ⟨v1014, v1015, v1020⟩

/-- Parts of the kernel's body, in order: E. -/
noncomputable def segEProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v25 : BitVec 32) (v1014 : BitVec 32) (v1015 : BitVec 32) (v1020 : BitVec 1) :
    Prog (TpuEff nD τ sig (Elt F) Λ₀ .tc) (BitVec 32) := do
  let v1044 : BitVec 32 ← k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020
  k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1044
  let v1092 : BitVec 32 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 v2 v25
  k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092
  let ⟨v1137, v1138, v1139, v1140, v1141⟩ : Σ' (v1137 : BitVec 32) (v1138 : BitVec 32) (v1139 : BitVec 1) (v1140 : BitVec 1), BitVec 1 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 v2 v14
  let v1157 : BitVec 32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141
  pure v1157

/-- The body is its six segments in sequence (the last one, `tailProg`, from the call of `k0_part46` to the return). -/
theorem body_split (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) :
    cc0_body_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 = (do
      let ⟨d0, v2, v14, v25, v26, v226⟩ ← segAProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
      segBProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v25 v26 v226
      let ⟨v787, v790⟩ ← segCProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v25
      let ⟨v1014, v1015, v1020⟩ ← segDProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v25 v787 v790
      let v1157 ← segEProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v25 v1014 v1015 v1020
      tailProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1157) := by
  unfold cc0_body_skel
  rw [k0_part57_eq_skeleton]
  unfold k0_part57_skel segAProg segBProg segCProg segDProg segEProg tailProg
  simp only [Prog.bind_assoc, bind_assoc, pure_bind]

end Cert.KernelIdeal.Proto

end
-- ==== Proof.Split.lean ====
/-
  Splitting the ring's scratch buffers into the slices the protocol moves, and joining them again.
-/
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Ring

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A points-to over two disjoint element sets is the two points-tos, as an equation. -/
theorem pts_union {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-- Carving a subset out of a points-to, as an equation. -/
theorem pts_split {ℓ : Loc nD τ sig} {I S : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  BI.equiv_iff.mp ⟨(pointsTo_split_subset h).1, (pointsTo_split_subset h).2⟩

/-- Two disjoint element sets, each held at contents of its own, are held together at some contents. -/
theorem pts_join_ex {ℓ : Loc nD τ sig} {I J : Finset (Idx ℓ)} {q : PosShare TreeShare} (h : Disjoint I J) :
    iprop((∃ f : Buf (Elt F) ℓ, ℓ ↦[I]{q} f) ∗ (∃ g : Buf (Elt F) ℓ, ℓ ↦[J]{q} g)) ⊢ (iprop(∃ f : Buf (Elt F) ℓ, ℓ ↦[I ∪ J]{q} f) : sProp 𝕄) := by
  iintro ⟨⟨%f, Hf⟩, ⟨%g, Hg⟩⟩
  iexists (J.piecewise g f)
  iapply (pointsTo_join h)
  isplitl [Hf]
  · iexact Hf
  · iexact Hg

/-! ## The numerator stages: three stages of eight heads, cut into six blocks of four heads -/

/-- Membership in one of the six blocks: stage `a`, heads `b` to `b + 3`. -/
theorem mem_rO (a b : ℕ) (inb : ∀ x, (![a, b, 0, 0] : Fin 4 → ℕ) x + S1x4x128x256.size x ≤ S3x8x128x256.size x) (i : S3x8x128x256.Idx) :
    i ∈ (Rect.unit (s := S3x8x128x256) ![a, b, 0, 0] S1x4x128x256.size inb).set ↔ (i 0 : ℕ) = a ∧ b ≤ (i 1 : ℕ) ∧ (i 1 : ℕ) < b + 4 := by
  rw [Rect.mem_set_unit]
  have h2 : (i 2 : ℕ) < 128 := (i 2).isLt
  have h3 : (i 3 : ℕ) < 256 := (i 3).isLt
  constructor
  · intro h
    have e0 := h 0
    have e1 := h 1
    change (a ≤ (i 0 : ℕ) ∧ (i 0 : ℕ) < a + 1) at e0
    change (b ≤ (i 1 : ℕ) ∧ (i 1 : ℕ) < b + 4) at e1
    omega
  · rintro ⟨e0, e1, e1'⟩ x
    fin_cases x
    · change (a ≤ (i 0 : ℕ) ∧ (i 0 : ℕ) < a + 1); omega
    · change (b ≤ (i 1 : ℕ) ∧ (i 1 : ℕ) < b + 4); omega
    · change (0 ≤ (i 2 : ℕ) ∧ (i 2 : ℕ) < 0 + 128); omega
    · change (0 ≤ (i 3 : ℕ) ∧ (i 3 : ℕ) < 0 + 256); omega

abbrev rO00 : Rect S3x8x128x256 := Rect.unit (s := S3x8x128x256) ![0, 0, 0, 0] S1x4x128x256.size inb_S3x8x128x256_S1x4x128x256_0_0_0_0
abbrev rO04 : Rect S3x8x128x256 := Rect.unit (s := S3x8x128x256) ![0, 4, 0, 0] S1x4x128x256.size inb_S3x8x128x256_S1x4x128x256_0_4_0_0
abbrev rO10 : Rect S3x8x128x256 := Rect.unit (s := S3x8x128x256) ![1, 0, 0, 0] S1x4x128x256.size inb_S3x8x128x256_S1x4x128x256_1_0_0_0
abbrev rO14 : Rect S3x8x128x256 := Rect.unit (s := S3x8x128x256) ![1, 4, 0, 0] S1x4x128x256.size inb_S3x8x128x256_S1x4x128x256_1_4_0_0
abbrev rO20 : Rect S3x8x128x256 := Rect.unit (s := S3x8x128x256) ![2, 0, 0, 0] S1x4x128x256.size inb_S3x8x128x256_S1x4x128x256_2_0_0_0
abbrev rO24 : Rect S3x8x128x256 := Rect.unit (s := S3x8x128x256) ![2, 4, 0, 0] S1x4x128x256.size inb_S3x8x128x256_S1x4x128x256_2_4_0_0

theorem dstO_set_0f : (dstO 0 false).view.set = rO00.set := by
  unfold dstO; simp only [Memref.view_squeeze, Memref.view_slice, Memref.view_whole, View.set_reshape, View.set_slice_whole]
theorem dstO_set_0t : (dstO 0 true).view.set = rO04.set := by
  unfold dstO; simp only [Memref.view_squeeze, Memref.view_slice, Memref.view_whole, View.set_reshape, View.set_slice_whole]
theorem dstO_set_1f : (dstO 1 false).view.set = rO10.set := by
  unfold dstO; simp only [Memref.view_squeeze, Memref.view_slice, Memref.view_whole, View.set_reshape, View.set_slice_whole]
theorem dstO_set_1t : (dstO 1 true).view.set = rO14.set := by
  unfold dstO; simp only [Memref.view_squeeze, Memref.view_slice, Memref.view_whole, View.set_reshape, View.set_slice_whole]
theorem dstO_set_2f : (dstO 2 false).view.set = rO20.set := by
  unfold dstO; simp only [Memref.view_squeeze, Memref.view_slice, Memref.view_whole, View.set_reshape, View.set_slice_whole]
theorem dstO_set_2t : (dstO 2 true).view.set = rO24.set := by
  unfold dstO; simp only [Memref.view_squeeze, Memref.view_slice, Memref.view_whole, View.set_reshape, View.set_slice_whole]

/-- The six blocks cover the buffer: a stage is 0, 1 or 2 and a head is below 4 or not. -/
theorem rsO_cover : (Finset.univ : Finset S3x8x128x256.Idx) = rO00.set ∪ (rO04.set ∪ (rO10.set ∪ (rO14.set ∪ (rO20.set ∪ rO24.set)))) := by
  ext i
  have h0 : (i 0 : ℕ) < 3 := (i 0).isLt
  have h1 : (i 1 : ℕ) < 8 := (i 1).isLt
  simp only [Finset.mem_univ, true_iff, Finset.mem_union, mem_rO]
  omega

theorem rsO_disj1 : Disjoint rO00.set (rO04.set ∪ (rO10.set ∪ (rO14.set ∪ (rO20.set ∪ rO24.set)))) :=
  Finset.disjoint_left.mpr fun i hi hj => by simp only [Finset.mem_union, mem_rO] at hi hj; omega
theorem rsO_disj2 : Disjoint rO04.set (rO10.set ∪ (rO14.set ∪ (rO20.set ∪ rO24.set))) :=
  Finset.disjoint_left.mpr fun i hi hj => by simp only [Finset.mem_union, mem_rO] at hi hj; omega
theorem rsO_disj3 : Disjoint rO10.set (rO14.set ∪ (rO20.set ∪ rO24.set)) :=
  Finset.disjoint_left.mpr fun i hi hj => by simp only [Finset.mem_union, mem_rO] at hi hj; omega
theorem rsO_disj4 : Disjoint rO14.set (rO20.set ∪ rO24.set) :=
  Finset.disjoint_left.mpr fun i hi hj => by simp only [Finset.mem_union, mem_rO] at hi hj; omega
theorem rsO_disj5 : Disjoint rO20.set rO24.set :=
  Finset.disjoint_left.mpr fun i hi hj => by simp only [mem_rO] at hi hj; omega

/-- The numerator stages of device `c`, whole, are its six landing slices, each at the same contents. -/
theorem rsO_split_eq (c : Dev nD) (f : Buf (Elt F) ((c : Thread nD τ).loc cc0_scratch2)) :
    ((c : Thread nD τ).loc cc0_scratch2 ↦{fullShare} f : sProp 𝕄) =
      iprop(((dstO 0 false).view.loc (c : Thread nD τ) ↦[(dstO 0 false).view.set]{fullShare} f)
        ∗ ((dstO 0 true).view.loc (c : Thread nD τ) ↦[(dstO 0 true).view.set]{fullShare} f)
        ∗ ((dstO 1 false).view.loc (c : Thread nD τ) ↦[(dstO 1 false).view.set]{fullShare} f)
        ∗ ((dstO 1 true).view.loc (c : Thread nD τ) ↦[(dstO 1 true).view.set]{fullShare} f)
        ∗ ((dstO 2 false).view.loc (c : Thread nD τ) ↦[(dstO 2 false).view.set]{fullShare} f)
        ∗ ((dstO 2 true).view.loc (c : Thread nD τ) ↦[(dstO 2 true).view.set]{fullShare} f)) := by
  show ((c : Thread nD τ).loc cc0_scratch2 ↦[Finset.univ]{fullShare} f : sProp 𝕄) =
      iprop(((c : Thread nD τ).loc cc0_scratch2 ↦[(dstO 0 false).view.set]{fullShare} f)
        ∗ ((c : Thread nD τ).loc cc0_scratch2 ↦[(dstO 0 true).view.set]{fullShare} f)
        ∗ ((c : Thread nD τ).loc cc0_scratch2 ↦[(dstO 1 false).view.set]{fullShare} f)
        ∗ ((c : Thread nD τ).loc cc0_scratch2 ↦[(dstO 1 true).view.set]{fullShare} f)
        ∗ ((c : Thread nD τ).loc cc0_scratch2 ↦[(dstO 2 false).view.set]{fullShare} f)
        ∗ ((c : Thread nD τ).loc cc0_scratch2 ↦[(dstO 2 true).view.set]{fullShare} f))
  rw [dstO_set_0f, dstO_set_0t, dstO_set_1f, dstO_set_1t, dstO_set_2f, dstO_set_2t]
  have hc : (Finset.univ : Finset (Idx ((c : Thread nD τ).loc cc0_scratch2))) = rO00.set ∪ (rO04.set ∪ (rO10.set ∪ (rO14.set ∪ (rO20.set ∪ rO24.set)))) := rsO_cover
  rw [hc, pts_union rsO_disj1, pts_union rsO_disj2, pts_union rsO_disj3, pts_union rsO_disj4, pts_union rsO_disj5]

theorem rsO_split (c : Dev nD) (f : Buf (Elt F) ((c : Thread nD τ).loc cc0_scratch2)) :
    ((c : Thread nD τ).loc cc0_scratch2 ↦{fullShare} f : sProp 𝕄) ⊣⊢
      iprop(((dstO 0 false).view.loc (c : Thread nD τ) ↦[(dstO 0 false).view.set]{fullShare} f)
        ∗ ((dstO 0 true).view.loc (c : Thread nD τ) ↦[(dstO 0 true).view.set]{fullShare} f)
        ∗ ((dstO 1 false).view.loc (c : Thread nD τ) ↦[(dstO 1 false).view.set]{fullShare} f)
        ∗ ((dstO 1 true).view.loc (c : Thread nD τ) ↦[(dstO 1 true).view.set]{fullShare} f)
        ∗ ((dstO 2 false).view.loc (c : Thread nD τ) ↦[(dstO 2 false).view.set]{fullShare} f)
        ∗ ((dstO 2 true).view.loc (c : Thread nD τ) ↦[(dstO 2 true).view.set]{fullShare} f)) :=
  BiEntails.of_eq (rsO_split_eq c f)
/-! ## The denominator stages, cut the same way -/

/-- Membership in one of the six blocks: stage `a`, heads `b` to `b + 3`. -/
theorem mem_rL (a b : ℕ) (inb : ∀ x, (![a, b, 0, 0] : Fin 4 → ℕ) x + S1x4x1x256.size x ≤ S3x8x1x256.size x) (i : S3x8x1x256.Idx) :
    i ∈ (Rect.unit (s := S3x8x1x256) ![a, b, 0, 0] S1x4x1x256.size inb).set ↔ (i 0 : ℕ) = a ∧ b ≤ (i 1 : ℕ) ∧ (i 1 : ℕ) < b + 4 := by
  rw [Rect.mem_set_unit]
  have h2 : (i 2 : ℕ) < 1 := (i 2).isLt
  have h3 : (i 3 : ℕ) < 256 := (i 3).isLt
  constructor
  · intro h
    have e0 := h 0
    have e1 := h 1
    change (a ≤ (i 0 : ℕ) ∧ (i 0 : ℕ) < a + 1) at e0
    change (b ≤ (i 1 : ℕ) ∧ (i 1 : ℕ) < b + 4) at e1
    omega
  · rintro ⟨e0, e1, e1'⟩ x
    fin_cases x
    · change (a ≤ (i 0 : ℕ) ∧ (i 0 : ℕ) < a + 1); omega
    · change (b ≤ (i 1 : ℕ) ∧ (i 1 : ℕ) < b + 4); omega
    · change (0 ≤ (i 2 : ℕ) ∧ (i 2 : ℕ) < 0 + 1); omega
    · change (0 ≤ (i 3 : ℕ) ∧ (i 3 : ℕ) < 0 + 256); omega

abbrev rL00 : Rect S3x8x1x256 := Rect.unit (s := S3x8x1x256) ![0, 0, 0, 0] S1x4x1x256.size inb_S3x8x1x256_S1x4x1x256_0_0_0_0
abbrev rL04 : Rect S3x8x1x256 := Rect.unit (s := S3x8x1x256) ![0, 4, 0, 0] S1x4x1x256.size inb_S3x8x1x256_S1x4x1x256_0_4_0_0
abbrev rL10 : Rect S3x8x1x256 := Rect.unit (s := S3x8x1x256) ![1, 0, 0, 0] S1x4x1x256.size inb_S3x8x1x256_S1x4x1x256_1_0_0_0
abbrev rL14 : Rect S3x8x1x256 := Rect.unit (s := S3x8x1x256) ![1, 4, 0, 0] S1x4x1x256.size inb_S3x8x1x256_S1x4x1x256_1_4_0_0
abbrev rL20 : Rect S3x8x1x256 := Rect.unit (s := S3x8x1x256) ![2, 0, 0, 0] S1x4x1x256.size inb_S3x8x1x256_S1x4x1x256_2_0_0_0
abbrev rL24 : Rect S3x8x1x256 := Rect.unit (s := S3x8x1x256) ![2, 4, 0, 0] S1x4x1x256.size inb_S3x8x1x256_S1x4x1x256_2_4_0_0

theorem dstL_set_0f : (dstL 0 false).view.set = rL00.set := by
  unfold dstL; simp only [Memref.view_squeeze, Memref.view_slice, Memref.view_whole, View.set_reshape, View.set_slice_whole]
theorem dstL_set_0t : (dstL 0 true).view.set = rL04.set := by
  unfold dstL; simp only [Memref.view_squeeze, Memref.view_slice, Memref.view_whole, View.set_reshape, View.set_slice_whole]
theorem dstL_set_1f : (dstL 1 false).view.set = rL10.set := by
  unfold dstL; simp only [Memref.view_squeeze, Memref.view_slice, Memref.view_whole, View.set_reshape, View.set_slice_whole]
theorem dstL_set_1t : (dstL 1 true).view.set = rL14.set := by
  unfold dstL; simp only [Memref.view_squeeze, Memref.view_slice, Memref.view_whole, View.set_reshape, View.set_slice_whole]
theorem dstL_set_2f : (dstL 2 false).view.set = rL20.set := by
  unfold dstL; simp only [Memref.view_squeeze, Memref.view_slice, Memref.view_whole, View.set_reshape, View.set_slice_whole]
theorem dstL_set_2t : (dstL 2 true).view.set = rL24.set := by
  unfold dstL; simp only [Memref.view_squeeze, Memref.view_slice, Memref.view_whole, View.set_reshape, View.set_slice_whole]

/-- The six blocks cover the buffer: a stage is 0, 1 or 2 and a head is below 4 or not. -/
theorem rsL_cover : (Finset.univ : Finset S3x8x1x256.Idx) = rL00.set ∪ (rL04.set ∪ (rL10.set ∪ (rL14.set ∪ (rL20.set ∪ rL24.set)))) := by
  ext i
  have h0 : (i 0 : ℕ) < 3 := (i 0).isLt
  have h1 : (i 1 : ℕ) < 8 := (i 1).isLt
  simp only [Finset.mem_univ, true_iff, Finset.mem_union, mem_rL]
  omega

theorem rsL_disj1 : Disjoint rL00.set (rL04.set ∪ (rL10.set ∪ (rL14.set ∪ (rL20.set ∪ rL24.set)))) :=
  Finset.disjoint_left.mpr fun i hi hj => by simp only [Finset.mem_union, mem_rL] at hi hj; omega
theorem rsL_disj2 : Disjoint rL04.set (rL10.set ∪ (rL14.set ∪ (rL20.set ∪ rL24.set))) :=
  Finset.disjoint_left.mpr fun i hi hj => by simp only [Finset.mem_union, mem_rL] at hi hj; omega
theorem rsL_disj3 : Disjoint rL10.set (rL14.set ∪ (rL20.set ∪ rL24.set)) :=
  Finset.disjoint_left.mpr fun i hi hj => by simp only [Finset.mem_union, mem_rL] at hi hj; omega
theorem rsL_disj4 : Disjoint rL14.set (rL20.set ∪ rL24.set) :=
  Finset.disjoint_left.mpr fun i hi hj => by simp only [Finset.mem_union, mem_rL] at hi hj; omega
theorem rsL_disj5 : Disjoint rL20.set rL24.set :=
  Finset.disjoint_left.mpr fun i hi hj => by simp only [mem_rL] at hi hj; omega

/-- The denominator stages of device `c`, whole, are its six landing slices, each at the same contents. -/
theorem rsL_split_eq (c : Dev nD) (f : Buf (Elt F) ((c : Thread nD τ).loc cc0_scratch3)) :
    ((c : Thread nD τ).loc cc0_scratch3 ↦{fullShare} f : sProp 𝕄) =
      iprop(((dstL 0 false).view.loc (c : Thread nD τ) ↦[(dstL 0 false).view.set]{fullShare} f)
        ∗ ((dstL 0 true).view.loc (c : Thread nD τ) ↦[(dstL 0 true).view.set]{fullShare} f)
        ∗ ((dstL 1 false).view.loc (c : Thread nD τ) ↦[(dstL 1 false).view.set]{fullShare} f)
        ∗ ((dstL 1 true).view.loc (c : Thread nD τ) ↦[(dstL 1 true).view.set]{fullShare} f)
        ∗ ((dstL 2 false).view.loc (c : Thread nD τ) ↦[(dstL 2 false).view.set]{fullShare} f)
        ∗ ((dstL 2 true).view.loc (c : Thread nD τ) ↦[(dstL 2 true).view.set]{fullShare} f)) := by
  show ((c : Thread nD τ).loc cc0_scratch3 ↦[Finset.univ]{fullShare} f : sProp 𝕄) =
      iprop(((c : Thread nD τ).loc cc0_scratch3 ↦[(dstL 0 false).view.set]{fullShare} f)
        ∗ ((c : Thread nD τ).loc cc0_scratch3 ↦[(dstL 0 true).view.set]{fullShare} f)
        ∗ ((c : Thread nD τ).loc cc0_scratch3 ↦[(dstL 1 false).view.set]{fullShare} f)
        ∗ ((c : Thread nD τ).loc cc0_scratch3 ↦[(dstL 1 true).view.set]{fullShare} f)
        ∗ ((c : Thread nD τ).loc cc0_scratch3 ↦[(dstL 2 false).view.set]{fullShare} f)
        ∗ ((c : Thread nD τ).loc cc0_scratch3 ↦[(dstL 2 true).view.set]{fullShare} f))
  rw [dstL_set_0f, dstL_set_0t, dstL_set_1f, dstL_set_1t, dstL_set_2f, dstL_set_2t]
  have hc : (Finset.univ : Finset (Idx ((c : Thread nD τ).loc cc0_scratch3))) = rL00.set ∪ (rL04.set ∪ (rL10.set ∪ (rL14.set ∪ (rL20.set ∪ rL24.set)))) := rsL_cover
  rw [hc, pts_union rsL_disj1, pts_union rsL_disj2, pts_union rsL_disj3, pts_union rsL_disj4, pts_union rsL_disj5]

theorem rsL_split (c : Dev nD) (f : Buf (Elt F) ((c : Thread nD τ).loc cc0_scratch3)) :
    ((c : Thread nD τ).loc cc0_scratch3 ↦{fullShare} f : sProp 𝕄) ⊣⊢
      iprop(((dstL 0 false).view.loc (c : Thread nD τ) ↦[(dstL 0 false).view.set]{fullShare} f)
        ∗ ((dstL 0 true).view.loc (c : Thread nD τ) ↦[(dstL 0 true).view.set]{fullShare} f)
        ∗ ((dstL 1 false).view.loc (c : Thread nD τ) ↦[(dstL 1 false).view.set]{fullShare} f)
        ∗ ((dstL 1 true).view.loc (c : Thread nD τ) ↦[(dstL 1 true).view.set]{fullShare} f)
        ∗ ((dstL 2 false).view.loc (c : Thread nD τ) ↦[(dstL 2 false).view.set]{fullShare} f)
        ∗ ((dstL 2 true).view.loc (c : Thread nD τ) ↦[(dstL 2 true).view.set]{fullShare} f)) :=
  BiEntails.of_eq (rsL_split_eq c f)

/-! ## The gathered result: four blocks of 256 rows, cut into eight half blocks of 128 rows -/

/-- Membership in a half block: block `a`, rows `b` to `b + 127`; the offsets may be given by any chain equal to `![a, b, 0]`. -/
theorem mem_rG {off : Fin 3 → ℕ} {inb : ∀ x, off x + S1x128x1024.size x ≤ S4x256x1024.size x} (a b : ℕ) (hoff : off = ![a, b, 0]) (i : S4x256x1024.Idx) :
    i ∈ (Rect.unit (s := S4x256x1024) off S1x128x1024.size inb).set ↔ (i 0 : ℕ) = a ∧ b ≤ (i 1 : ℕ) ∧ (i 1 : ℕ) < b + 128 := by
  subst hoff
  rw [Rect.mem_set_unit]
  have h2 : (i 2 : ℕ) < 1024 := (i 2).isLt
  constructor
  · intro h
    have e0 := h 0
    have e1 := h 1
    change (a ≤ (i 0 : ℕ) ∧ (i 0 : ℕ) < a + 1) at e0
    change (b ≤ (i 1 : ℕ) ∧ (i 1 : ℕ) < b + 128) at e1
    omega
  · rintro ⟨e0, e1, e1'⟩ x
    fin_cases x
    · change (a ≤ (i 0 : ℕ) ∧ (i 0 : ℕ) < a + 1); omega
    · change (b ≤ (i 1 : ℕ) ∧ (i 1 : ℕ) < b + 128); omega
    · change (0 ≤ (i 2 : ℕ) ∧ (i 2 : ℕ) < 0 + 1024); omega

abbrev rG0f (d : Dev nD) : Rect S4x256x1024 := Rect.unit (s := S4x256x1024) (k0_off67 d 0#32) S1x128x1024.size (k0_off67_inb d 0)
abbrev rG1f (d : Dev nD) : Rect S4x256x1024 := Rect.unit (s := S4x256x1024) (k0_off67 d 1#32) S1x128x1024.size (k0_off67_inb d 1)
abbrev rG2f (d : Dev nD) : Rect S4x256x1024 := Rect.unit (s := S4x256x1024) (k0_off67 d 2#32) S1x128x1024.size (k0_off67_inb d 2)
abbrev rG0t (d : Dev nD) : Rect S4x256x1024 := Rect.unit (s := S4x256x1024) (k0_off68 d 0#32) S1x128x1024.size (k0_off68_inb d 0)
abbrev rG1t (d : Dev nD) : Rect S4x256x1024 := Rect.unit (s := S4x256x1024) (k0_off68 d 1#32) S1x128x1024.size (k0_off68_inb d 1)
abbrev rG2t (d : Dev nD) : Rect S4x256x1024 := Rect.unit (s := S4x256x1024) (k0_off68 d 2#32) S1x128x1024.size (k0_off68_inb d 2)

theorem agS_set_0f (d : Dev nD) : (agS d 0 false).view.set = (rG0f d).set := by
  unfold agS; simp only [Memref.view_squeeze, Memref.view_slice, Memref.view_whole, View.set_reshape, View.set_slice_whole]
theorem agS_set_1f (d : Dev nD) : (agS d 1 false).view.set = (rG1f d).set := by
  unfold agS; simp only [Memref.view_squeeze, Memref.view_slice, Memref.view_whole, View.set_reshape, View.set_slice_whole]
theorem agS_set_2f (d : Dev nD) : (agS d 2 false).view.set = (rG2f d).set := by
  unfold agS; simp only [Memref.view_squeeze, Memref.view_slice, Memref.view_whole, View.set_reshape, View.set_slice_whole]
theorem agS_set_0t (d : Dev nD) : (agS d 0 true).view.set = (rG0t d).set := by
  unfold agS; simp only [Memref.view_squeeze, Memref.view_slice, Memref.view_whole, View.set_reshape, View.set_slice_whole]
theorem agS_set_1t (d : Dev nD) : (agS d 1 true).view.set = (rG1t d).set := by
  unfold agS; simp only [Memref.view_squeeze, Memref.view_slice, Memref.view_whole, View.set_reshape, View.set_slice_whole]
theorem agS_set_2t (d : Dev nD) : (agS d 2 true).view.set = (rG2t d).set := by
  unfold agS; simp only [Memref.view_squeeze, Memref.view_slice, Memref.view_whole, View.set_reshape, View.set_slice_whole]

/-- Which rows of which block each forwarded half block is, on the sender's numbering. -/
theorem mem_rG0f (d : Dev nD) (i : S4x256x1024.Idx) : i ∈ (rG0f d).set ↔ (i 0 : ℕ) = (d.val + 1) % 4 ∧ 0 ≤ (i 1 : ℕ) ∧ (i 1 : ℕ) < 0 + 128 :=
  mem_rG _ _ (off67_at0 d) i
theorem mem_rG1f (d : Dev nD) (i : S4x256x1024.Idx) : i ∈ (rG1f d).set ↔ (i 0 : ℕ) = d.val ∧ 0 ≤ (i 1 : ℕ) ∧ (i 1 : ℕ) < 0 + 128 :=
  mem_rG _ _ (off67_at1 d) i
theorem mem_rG2f (d : Dev nD) (i : S4x256x1024.Idx) : i ∈ (rG2f d).set ↔ (i 0 : ℕ) = (d.val + 3) % 4 ∧ 0 ≤ (i 1 : ℕ) ∧ (i 1 : ℕ) < 0 + 128 :=
  mem_rG _ _ (off67_at2 d) i
theorem mem_rG0t (d : Dev nD) (i : S4x256x1024.Idx) : i ∈ (rG0t d).set ↔ (i 0 : ℕ) = (d.val + 1) % 4 ∧ 128 ≤ (i 1 : ℕ) ∧ (i 1 : ℕ) < 128 + 128 :=
  mem_rG _ _ (off68_at0 d) i
theorem mem_rG1t (d : Dev nD) (i : S4x256x1024.Idx) : i ∈ (rG1t d).set ↔ (i 0 : ℕ) = (d.val + 2) % 4 ∧ 128 ≤ (i 1 : ℕ) ∧ (i 1 : ℕ) < 128 + 128 :=
  mem_rG _ _ (off68_at1 d) i
theorem mem_rG2t (d : Dev nD) (i : S4x256x1024.Idx) : i ∈ (rG2t d).set ↔ (i 0 : ℕ) = (d.val + 3) % 4 ∧ 128 ≤ (i 1 : ℕ) ∧ (i 1 : ℕ) < 128 + 128 :=
  mem_rG _ _ (off68_at2 d) i

section AgB
variable (c : Dev nD)

/-- On device `c`: the upper halves its predecessor forwards are those of blocks `c`, `c - 1`, `c - 2`; the lower halves its
    successor forwards those of blocks `c + 2`, `c + 3`, `c`; with both halves of its own block `c + 1`, every half block once. -/
theorem agB_cover : (Finset.univ : Finset S4x256x1024.Idx) =
    (rG0f (prv c)).set ∪ ((rG1f (prv c)).set ∪ ((rG2f (prv c)).set ∪ ((rG0t (nxt c)).set ∪ ((rG1t (nxt c)).set ∪ ((rG2t (nxt c)).set
      ∪ ((rG0f c).set ∪ (rG0t c).set)))))) := by
  ext i
  have hc : c.val < 4 := c.isLt
  have h0 : (i 0 : ℕ) < 4 := (i 0).isLt
  have h1 : (i 1 : ℕ) < 256 := (i 1).isLt
  simp only [Finset.mem_univ, true_iff, Finset.mem_union, mem_rG0f, mem_rG1f, mem_rG2f, mem_rG0t, mem_rG1t, mem_rG2t, prv_val, nxt_val]
  omega

theorem agB_disj1 : Disjoint (rG0f (prv c)).set ((rG1f (prv c)).set ∪ ((rG2f (prv c)).set ∪ ((rG0t (nxt c)).set ∪ ((rG1t (nxt c)).set ∪ ((rG2t (nxt c)).set
      ∪ ((rG0f c).set ∪ (rG0t c).set)))))) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj2 : Disjoint (rG1f (prv c)).set ((rG2f (prv c)).set ∪ ((rG0t (nxt c)).set ∪ ((rG1t (nxt c)).set ∪ ((rG2t (nxt c)).set
      ∪ ((rG0f c).set ∪ (rG0t c).set))))) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj3 : Disjoint (rG2f (prv c)).set ((rG0t (nxt c)).set ∪ ((rG1t (nxt c)).set ∪ ((rG2t (nxt c)).set ∪ ((rG0f c).set ∪ (rG0t c).set)))) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj4 : Disjoint (rG0t (nxt c)).set ((rG1t (nxt c)).set ∪ ((rG2t (nxt c)).set ∪ ((rG0f c).set ∪ (rG0t c).set))) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj5 : Disjoint (rG1t (nxt c)).set ((rG2t (nxt c)).set ∪ ((rG0f c).set ∪ (rG0t c).set)) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj6 : Disjoint (rG2t (nxt c)).set ((rG0f c).set ∪ (rG0t c).set) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj7 : Disjoint (rG0f c).set (rG0t c).set :=
  Finset.disjoint_left.mpr fun i hi hj => by
    simp only [mem_rG0f, mem_rG0t] at hi hj; omega

end AgB

/-- The gathered result of device `c`, whole, is the eight half blocks, each at the same contents. -/
theorem agB_split_eq (c : Dev nD) (f : Buf (Elt F) ((c : Thread nD τ).loc cc0_scratch23)) :
    ((c : Thread nD τ).loc cc0_scratch23 ↦{fullShare} f : sProp 𝕄) =
      iprop(((agS (prv c) 0 false).view.loc (c : Thread nD τ) ↦[(agS (prv c) 0 false).view.set]{fullShare} f)
        ∗ ((agS (prv c) 1 false).view.loc (c : Thread nD τ) ↦[(agS (prv c) 1 false).view.set]{fullShare} f)
        ∗ ((agS (prv c) 2 false).view.loc (c : Thread nD τ) ↦[(agS (prv c) 2 false).view.set]{fullShare} f)
        ∗ ((agS (nxt c) 0 true).view.loc (c : Thread nD τ) ↦[(agS (nxt c) 0 true).view.set]{fullShare} f)
        ∗ ((agS (nxt c) 1 true).view.loc (c : Thread nD τ) ↦[(agS (nxt c) 1 true).view.set]{fullShare} f)
        ∗ ((agS (nxt c) 2 true).view.loc (c : Thread nD τ) ↦[(agS (nxt c) 2 true).view.set]{fullShare} f)
        ∗ ((agS c 0 false).view.loc (c : Thread nD τ) ↦[(agS c 0 false).view.set]{fullShare} f)
        ∗ ((agS c 0 true).view.loc (c : Thread nD τ) ↦[(agS c 0 true).view.set]{fullShare} f)) := by
  show ((c : Thread nD τ).loc cc0_scratch23 ↦[Finset.univ]{fullShare} f : sProp 𝕄) =
      iprop(((c : Thread nD τ).loc cc0_scratch23 ↦[(agS (prv c) 0 false).view.set]{fullShare} f)
        ∗ ((c : Thread nD τ).loc cc0_scratch23 ↦[(agS (prv c) 1 false).view.set]{fullShare} f)
        ∗ ((c : Thread nD τ).loc cc0_scratch23 ↦[(agS (prv c) 2 false).view.set]{fullShare} f)
        ∗ ((c : Thread nD τ).loc cc0_scratch23 ↦[(agS (nxt c) 0 true).view.set]{fullShare} f)
        ∗ ((c : Thread nD τ).loc cc0_scratch23 ↦[(agS (nxt c) 1 true).view.set]{fullShare} f)
        ∗ ((c : Thread nD τ).loc cc0_scratch23 ↦[(agS (nxt c) 2 true).view.set]{fullShare} f)
        ∗ ((c : Thread nD τ).loc cc0_scratch23 ↦[(agS c 0 false).view.set]{fullShare} f)
        ∗ ((c : Thread nD τ).loc cc0_scratch23 ↦[(agS c 0 true).view.set]{fullShare} f))
  have hc : (Finset.univ : Finset (Idx ((c : Thread nD τ).loc cc0_scratch23))) = _ := agB_cover c
  rw [agS_set_0f (prv c), agS_set_1f (prv c), agS_set_2f (prv c), agS_set_0t (nxt c), agS_set_1t (nxt c), agS_set_2t (nxt c), agS_set_0f c, agS_set_0t c, hc, pts_union (agB_disj1 c), pts_union (agB_disj2 c), pts_union (agB_disj3 c), pts_union (agB_disj4 c), pts_union (agB_disj5 c),
    pts_union (agB_disj6 c), pts_union (agB_disj7 c)]

theorem agB_split (c : Dev nD) (f : Buf (Elt F) ((c : Thread nD τ).loc cc0_scratch23)) :
    ((c : Thread nD τ).loc cc0_scratch23 ↦{fullShare} f : sProp 𝕄) ⊣⊢
      iprop(((agS (prv c) 0 false).view.loc (c : Thread nD τ) ↦[(agS (prv c) 0 false).view.set]{fullShare} f)
        ∗ ((agS (prv c) 1 false).view.loc (c : Thread nD τ) ↦[(agS (prv c) 1 false).view.set]{fullShare} f)
        ∗ ((agS (prv c) 2 false).view.loc (c : Thread nD τ) ↦[(agS (prv c) 2 false).view.set]{fullShare} f)
        ∗ ((agS (nxt c) 0 true).view.loc (c : Thread nD τ) ↦[(agS (nxt c) 0 true).view.set]{fullShare} f)
        ∗ ((agS (nxt c) 1 true).view.loc (c : Thread nD τ) ↦[(agS (nxt c) 1 true).view.set]{fullShare} f)
        ∗ ((agS (nxt c) 2 true).view.loc (c : Thread nD τ) ↦[(agS (nxt c) 2 true).view.set]{fullShare} f)
        ∗ ((agS c 0 false).view.loc (c : Thread nD τ) ↦[(agS c 0 false).view.set]{fullShare} f)
        ∗ ((agS c 0 true).view.loc (c : Thread nD τ) ↦[(agS c 0 true).view.set]{fullShare} f)) :=
  BiEntails.of_eq (agB_split_eq c f)

/-! ## Joining the slices again, each at contents of its own -/

theorem rsO_join (c : Dev nD) :
    iprop(held c (dstO 0 false) ∗ held c (dstO 0 true) ∗ held c (dstO 1 false) ∗ held c (dstO 1 true) ∗ held c (dstO 2 false) ∗ held c (dstO 2 true))
      ⊢ (iprop(∃ f : Buf (Elt F) ((c : Thread nD τ).loc cc0_scratch2), (c : Thread nD τ).loc cc0_scratch2 ↦{fullShare} f) : sProp 𝕄) := by
  show iprop((∃ f : Buf (Elt F) ((c : Thread nD τ).loc cc0_scratch2), (c : Thread nD τ).loc cc0_scratch2 ↦[(dstO 0 false).view.set]{fullShare} f)
        ∗ (∃ f : Buf (Elt F) ((c : Thread nD τ).loc cc0_scratch2), (c : Thread nD τ).loc cc0_scratch2 ↦[(dstO 0 true).view.set]{fullShare} f)
        ∗ (∃ f : Buf (Elt F) ((c : Thread nD τ).loc cc0_scratch2), (c : Thread nD τ).loc cc0_scratch2 ↦[(dstO 1 false).view.set]{fullShare} f)
        ∗ (∃ f : Buf (Elt F) ((c : Thread nD τ).loc cc0_scratch2), (c : Thread nD τ).loc cc0_scratch2 ↦[(dstO 1 true).view.set]{fullShare} f)
        ∗ (∃ f : Buf (Elt F) ((c : Thread nD τ).loc cc0_scratch2), (c : Thread nD τ).loc cc0_scratch2 ↦[(dstO 2 false).view.set]{fullShare} f)
        ∗ (∃ f : Buf (Elt F) ((c : Thread nD τ).loc cc0_scratch2), (c : Thread nD τ).loc cc0_scratch2 ↦[(dstO 2 true).view.set]{fullShare} f))
      ⊢ (iprop(∃ f : Buf (Elt F) ((c : Thread nD τ).loc cc0_scratch2), (c : Thread nD τ).loc cc0_scratch2 ↦[Finset.univ]{fullShare} f) : sProp 𝕄)
  have hc : (Finset.univ : Finset (Idx ((c : Thread nD τ).loc cc0_scratch2))) = rO00.set ∪ (rO04.set ∪ (rO10.set ∪ (rO14.set ∪ (rO20.set ∪ rO24.set)))) := rsO_cover
  rw [dstO_set_0f, dstO_set_0t, dstO_set_1f, dstO_set_1t, dstO_set_2f, dstO_set_2t, hc]
  exact (sep_mono_right (sep_mono_right (sep_mono_right (sep_mono_right (pts_join_ex rsO_disj5))))).trans
    ((sep_mono_right (sep_mono_right (sep_mono_right (pts_join_ex rsO_disj4)))).trans
    ((sep_mono_right (sep_mono_right (pts_join_ex rsO_disj3))).trans
    ((sep_mono_right (pts_join_ex rsO_disj2)).trans (pts_join_ex rsO_disj1))))

theorem rsL_join (c : Dev nD) :
    iprop(held c (dstL 0 false) ∗ held c (dstL 0 true) ∗ held c (dstL 1 false) ∗ held c (dstL 1 true) ∗ held c (dstL 2 false) ∗ held c (dstL 2 true))
      ⊢ (iprop(∃ f : Buf (Elt F) ((c : Thread nD τ).loc cc0_scratch3), (c : Thread nD τ).loc cc0_scratch3 ↦{fullShare} f) : sProp 𝕄) := by
  show iprop((∃ f : Buf (Elt F) ((c : Thread nD τ).loc cc0_scratch3), (c : Thread nD τ).loc cc0_scratch3 ↦[(dstL 0 false).view.set]{fullShare} f)
        ∗ (∃ f : Buf (Elt F) ((c : Thread nD τ).loc cc0_scratch3), (c : Thread nD τ).loc cc0_scratch3 ↦[(dstL 0 true).view.set]{fullShare} f)
        ∗ (∃ f : Buf (Elt F) ((c : Thread nD τ).loc cc0_scratch3), (c : Thread nD τ).loc cc0_scratch3 ↦[(dstL 1 false).view.set]{fullShare} f)
        ∗ (∃ f : Buf (Elt F) ((c : Thread nD τ).loc cc0_scratch3), (c : Thread nD τ).loc cc0_scratch3 ↦[(dstL 1 true).view.set]{fullShare} f)
        ∗ (∃ f : Buf (Elt F) ((c : Thread nD τ).loc cc0_scratch3), (c : Thread nD τ).loc cc0_scratch3 ↦[(dstL 2 false).view.set]{fullShare} f)
        ∗ (∃ f : Buf (Elt F) ((c : Thread nD τ).loc cc0_scratch3), (c : Thread nD τ).loc cc0_scratch3 ↦[(dstL 2 true).view.set]{fullShare} f))
      ⊢ (iprop(∃ f : Buf (Elt F) ((c : Thread nD τ).loc cc0_scratch3), (c : Thread nD τ).loc cc0_scratch3 ↦[Finset.univ]{fullShare} f) : sProp 𝕄)
  have hc : (Finset.univ : Finset (Idx ((c : Thread nD τ).loc cc0_scratch3))) = rL00.set ∪ (rL04.set ∪ (rL10.set ∪ (rL14.set ∪ (rL20.set ∪ rL24.set)))) := rsL_cover
  rw [dstL_set_0f, dstL_set_0t, dstL_set_1f, dstL_set_1t, dstL_set_2f, dstL_set_2t, hc]
  exact (sep_mono_right (sep_mono_right (sep_mono_right (sep_mono_right (pts_join_ex rsL_disj5))))).trans
    ((sep_mono_right (sep_mono_right (sep_mono_right (pts_join_ex rsL_disj4)))).trans
    ((sep_mono_right (sep_mono_right (pts_join_ex rsL_disj3))).trans
    ((sep_mono_right (pts_join_ex rsL_disj2)).trans (pts_join_ex rsL_disj1))))

theorem agB_join (c : Dev nD) :
    iprop(held c (agS (prv c) 0 false) ∗ held c (agS (prv c) 1 false) ∗ held c (agS (prv c) 2 false)
        ∗ held c (agS (nxt c) 0 true) ∗ held c (agS (nxt c) 1 true) ∗ held c (agS (nxt c) 2 true) ∗ held c (agS c 0 false) ∗ held c (agS c 0 true))
      ⊢ (iprop(∃ f : Buf (Elt F) ((c : Thread nD τ).loc cc0_scratch23), (c : Thread nD τ).loc cc0_scratch23 ↦{fullShare} f) : sProp 𝕄) := by
  show iprop((∃ f : Buf (Elt F) ((c : Thread nD τ).loc cc0_scratch23), (c : Thread nD τ).loc cc0_scratch23 ↦[(agS (prv c) 0 false).view.set]{fullShare} f)
        ∗ (∃ f : Buf (Elt F) ((c : Thread nD τ).loc cc0_scratch23), (c : Thread nD τ).loc cc0_scratch23 ↦[(agS (prv c) 1 false).view.set]{fullShare} f)
        ∗ (∃ f : Buf (Elt F) ((c : Thread nD τ).loc cc0_scratch23), (c : Thread nD τ).loc cc0_scratch23 ↦[(agS (prv c) 2 false).view.set]{fullShare} f)
        ∗ (∃ f : Buf (Elt F) ((c : Thread nD τ).loc cc0_scratch23), (c : Thread nD τ).loc cc0_scratch23 ↦[(agS (nxt c) 0 true).view.set]{fullShare} f)
        ∗ (∃ f : Buf (Elt F) ((c : Thread nD τ).loc cc0_scratch23), (c : Thread nD τ).loc cc0_scratch23 ↦[(agS (nxt c) 1 true).view.set]{fullShare} f)
        ∗ (∃ f : Buf (Elt F) ((c : Thread nD τ).loc cc0_scratch23), (c : Thread nD τ).loc cc0_scratch23 ↦[(agS (nxt c) 2 true).view.set]{fullShare} f)
        ∗ (∃ f : Buf (Elt F) ((c : Thread nD τ).loc cc0_scratch23), (c : Thread nD τ).loc cc0_scratch23 ↦[(agS c 0 false).view.set]{fullShare} f)
        ∗ (∃ f : Buf (Elt F) ((c : Thread nD τ).loc cc0_scratch23), (c : Thread nD τ).loc cc0_scratch23 ↦[(agS c 0 true).view.set]{fullShare} f))
      ⊢ (iprop(∃ f : Buf (Elt F) ((c : Thread nD τ).loc cc0_scratch23), (c : Thread nD τ).loc cc0_scratch23 ↦[Finset.univ]{fullShare} f) : sProp 𝕄)
  have hc : (Finset.univ : Finset (Idx ((c : Thread nD τ).loc cc0_scratch23))) = _ := agB_cover c
  rw [agS_set_0f (prv c), agS_set_1f (prv c), agS_set_2f (prv c), agS_set_0t (nxt c), agS_set_1t (nxt c), agS_set_2t (nxt c), agS_set_0f c, agS_set_0t c, hc]
  have s7 := pts_join_ex (F := F) (ℓ := (c : Thread nD τ).loc cc0_scratch23) (q := fullShare) (agB_disj7 c)
  have s6 := (sep_mono_right s7).trans (pts_join_ex (F := F) (ℓ := (c : Thread nD τ).loc cc0_scratch23) (q := fullShare) (agB_disj6 c))
  have s5 := (sep_mono_right s6).trans (pts_join_ex (F := F) (ℓ := (c : Thread nD τ).loc cc0_scratch23) (q := fullShare) (agB_disj5 c))
  have s4 := (sep_mono_right s5).trans (pts_join_ex (F := F) (ℓ := (c : Thread nD τ).loc cc0_scratch23) (q := fullShare) (agB_disj4 c))
  have s3 := (sep_mono_right s4).trans (pts_join_ex (F := F) (ℓ := (c : Thread nD τ).loc cc0_scratch23) (q := fullShare) (agB_disj3 c))
  have s2 := (sep_mono_right s3).trans (pts_join_ex (F := F) (ℓ := (c : Thread nD τ).loc cc0_scratch23) (q := fullShare) (agB_disj2 c))
  exact (sep_mono_right s2).trans (pts_join_ex (F := F) (ℓ := (c : Thread nD τ).loc cc0_scratch23) (q := fullShare) (agB_disj1 c))

/-! ## The partial sums: the two blocks of four heads a device sends at hop 0, and the rest -/

/-- Membership in a block of four of the 32 batch·head rows, from row `a`; the offsets may be given by any chain equal to `![a, 0, 0]`. -/
theorem mem_rSO {off : Fin 3 → ℕ} {inb : ∀ x, off x + S4x128x256.size x ≤ S32x128x256.size x} (a : ℕ) (hoff : off = ![a, 0, 0]) (i : S32x128x256.Idx) :
    i ∈ (Rect.unit (s := S32x128x256) off S4x128x256.size inb).set ↔ a ≤ (i 0 : ℕ) ∧ (i 0 : ℕ) < a + 4 := by
  subst hoff
  rw [Rect.mem_set_unit]
  have h1 : (i 1 : ℕ) < 128 := (i 1).isLt
  have h2 : (i 2 : ℕ) < 256 := (i 2).isLt
  constructor
  · intro h
    exact h 0
  · intro e x
    fin_cases x
    · exact e
    · change (0 ≤ (i 1 : ℕ) ∧ (i 1 : ℕ) < 0 + 128); omega
    · change (0 ≤ (i 2 : ℕ) ∧ (i 2 : ℕ) < 0 + 256); omega
theorem mem_rSL {off : Fin 3 → ℕ} {inb : ∀ x, off x + S4x1x256.size x ≤ S32x1x256.size x} (a : ℕ) (hoff : off = ![a, 0, 0]) (i : S32x1x256.Idx) :
    i ∈ (Rect.unit (s := S32x1x256) off S4x1x256.size inb).set ↔ a ≤ (i 0 : ℕ) ∧ (i 0 : ℕ) < a + 4 := by
  subst hoff
  rw [Rect.mem_set_unit]
  have h1 : (i 1 : ℕ) < 1 := (i 1).isLt
  have h2 : (i 2 : ℕ) < 256 := (i 2).isLt
  constructor
  · intro h
    exact h 0
  · intro e x
    fin_cases x
    · exact e
    · change (0 ≤ (i 1 : ℕ) ∧ (i 1 : ℕ) < 0 + 1); omega
    · change (0 ≤ (i 2 : ℕ) ∧ (i 2 : ℕ) < 0 + 256); omega

abbrev rSOf (c : Dev nD) : Rect S32x128x256 := Rect.unit (s := S32x128x256) (k0_off15 c) S4x128x256.size (k0_off15_inb c)
abbrev rSOt (c : Dev nD) : Rect S32x128x256 := Rect.unit (s := S32x128x256) (k0_off31 c) S4x128x256.size (k0_off31_inb c)
abbrev rSLf (c : Dev nD) : Rect S32x1x256 := Rect.unit (s := S32x1x256) (k0_off16 c) S4x1x256.size (k0_off16_inb c)
abbrev rSLt (c : Dev nD) : Rect S32x1x256 := Rect.unit (s := S32x1x256) (k0_off32 c) S4x1x256.size (k0_off32_inb c)

theorem srcO_set_f (c : Dev nD) : (srcO c 0 false).view.set = (rSOf c).set := by
  unfold srcO; simp only [Memref.view_slice, Memref.view_whole, View.set_slice_whole]
theorem srcO_set_t (c : Dev nD) : (srcO c 0 true).view.set = (rSOt c).set := by
  unfold srcO; simp only [Memref.view_slice, Memref.view_whole, View.set_slice_whole]
theorem srcL_set_f (c : Dev nD) : (srcL c 0 false).view.set = (rSLf c).set := by
  unfold srcL; simp only [Memref.view_slice, Memref.view_whole, View.set_slice_whole]
theorem srcL_set_t (c : Dev nD) : (srcL c 0 true).view.set = (rSLt c).set := by
  unfold srcL; simp only [Memref.view_slice, Memref.view_whole, View.set_slice_whole]

/-- To the successor go heads 0 to 3 of the device's own batch, rows `8c` to `8c + 3`; to the predecessor heads 4 to 7 of the batch
    two further on, rows `8 ((c + 2) mod 4) + 4` to `+ 7`. -/
theorem mem_rSOf (c : Dev nD) (i : S32x128x256.Idx) : i ∈ (rSOf c).set ↔ 8 * c.val ≤ (i 0 : ℕ) ∧ (i 0 : ℕ) < 8 * c.val + 4 := mem_rSO _ (k0_off15_eq c) i
theorem mem_rSOt (c : Dev nD) (i : S32x128x256.Idx) : i ∈ (rSOt c).set ↔ 8 * ((c.val + 2) % 4) + 4 ≤ (i 0 : ℕ) ∧ (i 0 : ℕ) < 8 * ((c.val + 2) % 4) + 4 + 4 := mem_rSO _ (off31_eq c) i
theorem mem_rSLf (c : Dev nD) (i : S32x1x256.Idx) : i ∈ (rSLf c).set ↔ 8 * c.val ≤ (i 0 : ℕ) ∧ (i 0 : ℕ) < 8 * c.val + 4 := mem_rSL _ (k0_off16_eq c) i
theorem mem_rSLt (c : Dev nD) (i : S32x1x256.Idx) : i ∈ (rSLt c).set ↔ 8 * ((c.val + 2) % 4) + 4 ≤ (i 0 : ℕ) ∧ (i 0 : ℕ) < 8 * ((c.val + 2) % 4) + 4 + 4 := mem_rSL _ (off32_eq c) i

theorem rSO_disj (c : Dev nD) : Disjoint (rSOf c).set (rSOt c).set :=
  Finset.disjoint_left.mpr fun i hi hj => by
    have hc : c.val < 4 := c.isLt
    simp only [mem_rSOf, mem_rSOt] at hi hj; omega
theorem rSL_disj (c : Dev nD) : Disjoint (rSLf c).set (rSLt c).set :=
  Finset.disjoint_left.mpr fun i hi hj => by
    have hc : c.val < 4 := c.isLt
    simp only [mem_rSLf, mem_rSLt] at hi hj; omega

/-- The numerators' partial sums of device `c`, whole, are the two blocks it sends at hop 0 and the rest. -/
theorem locO_lend_eq (c : Dev nD) (f : Buf (Elt F) ((c : Thread nD τ).loc cc0_scratch0)) :
    ((c : Thread nD τ).loc cc0_scratch0 ↦{fullShare} f : sProp 𝕄) =
      iprop(((srcO c 0 false).view.loc (c : Thread nD τ) ↦[(srcO c 0 false).view.set]{fullShare} f)
        ∗ ((srcO c 0 true).view.loc (c : Thread nD τ) ↦[(srcO c 0 true).view.set]{fullShare} f)
        ∗ ((c : Thread nD τ).loc cc0_scratch0 ↦[Finset.univ \ ((srcO c 0 false).view.set ∪ (srcO c 0 true).view.set)]{fullShare} f)) := by
  show ((c : Thread nD τ).loc cc0_scratch0 ↦[Finset.univ]{fullShare} f : sProp 𝕄) =
      iprop(((c : Thread nD τ).loc cc0_scratch0 ↦[(srcO c 0 false).view.set]{fullShare} f)
        ∗ ((c : Thread nD τ).loc cc0_scratch0 ↦[(srcO c 0 true).view.set]{fullShare} f)
        ∗ ((c : Thread nD τ).loc cc0_scratch0 ↦[Finset.univ \ ((srcO c 0 false).view.set ∪ (srcO c 0 true).view.set)]{fullShare} f))
  rw [srcO_set_f, srcO_set_t]
  have h2 : (rSOt c).set ⊆ Finset.univ \ (rSOf c).set := fun i hi =>
    Finset.mem_sdiff.mpr ⟨Finset.mem_univ i, fun hf => Finset.disjoint_left.mp (rSO_disj c) hf hi⟩
  have h3 : (Finset.univ \ (rSOf c).set) \ (rSOt c).set = Finset.univ \ ((rSOf c).set ∪ (rSOt c).set) := by
    ext i; simp only [Finset.mem_sdiff, Finset.mem_union, Finset.mem_univ, true_and, not_or]
  rw [pts_split (ℓ := (c : Thread nD τ).loc cc0_scratch0) (Finset.subset_univ (rSOf c).set),
    pts_split (ℓ := (c : Thread nD τ).loc cc0_scratch0) (I := (rSOt c).set) (S := Finset.univ \ (rSOf c).set) h2, h3]

theorem locO_lend (c : Dev nD) (f : Buf (Elt F) ((c : Thread nD τ).loc cc0_scratch0)) :
    ((c : Thread nD τ).loc cc0_scratch0 ↦{fullShare} f : sProp 𝕄) ⊣⊢
      iprop(((srcO c 0 false).view.loc (c : Thread nD τ) ↦[(srcO c 0 false).view.set]{fullShare} f)
        ∗ ((srcO c 0 true).view.loc (c : Thread nD τ) ↦[(srcO c 0 true).view.set]{fullShare} f)
        ∗ ((c : Thread nD τ).loc cc0_scratch0 ↦[Finset.univ \ ((srcO c 0 false).view.set ∪ (srcO c 0 true).view.set)]{fullShare} f)) :=
  BiEntails.of_eq (locO_lend_eq c f)

/-- And the denominators' partial sums. -/
theorem locL_lend_eq (c : Dev nD) (f : Buf (Elt F) ((c : Thread nD τ).loc cc0_scratch1)) :
    ((c : Thread nD τ).loc cc0_scratch1 ↦{fullShare} f : sProp 𝕄) =
      iprop(((srcL c 0 false).view.loc (c : Thread nD τ) ↦[(srcL c 0 false).view.set]{fullShare} f)
        ∗ ((srcL c 0 true).view.loc (c : Thread nD τ) ↦[(srcL c 0 true).view.set]{fullShare} f)
        ∗ ((c : Thread nD τ).loc cc0_scratch1 ↦[Finset.univ \ ((srcL c 0 false).view.set ∪ (srcL c 0 true).view.set)]{fullShare} f)) := by
  show ((c : Thread nD τ).loc cc0_scratch1 ↦[Finset.univ]{fullShare} f : sProp 𝕄) =
      iprop(((c : Thread nD τ).loc cc0_scratch1 ↦[(srcL c 0 false).view.set]{fullShare} f)
        ∗ ((c : Thread nD τ).loc cc0_scratch1 ↦[(srcL c 0 true).view.set]{fullShare} f)
        ∗ ((c : Thread nD τ).loc cc0_scratch1 ↦[Finset.univ \ ((srcL c 0 false).view.set ∪ (srcL c 0 true).view.set)]{fullShare} f))
  rw [srcL_set_f, srcL_set_t]
  have h2 : (rSLt c).set ⊆ Finset.univ \ (rSLf c).set := fun i hi =>
    Finset.mem_sdiff.mpr ⟨Finset.mem_univ i, fun hf => Finset.disjoint_left.mp (rSL_disj c) hf hi⟩
  have h3 : (Finset.univ \ (rSLf c).set) \ (rSLt c).set = Finset.univ \ ((rSLf c).set ∪ (rSLt c).set) := by
    ext i; simp only [Finset.mem_sdiff, Finset.mem_union, Finset.mem_univ, true_and, not_or]
  rw [pts_split (ℓ := (c : Thread nD τ).loc cc0_scratch1) (Finset.subset_univ (rSLf c).set),
    pts_split (ℓ := (c : Thread nD τ).loc cc0_scratch1) (I := (rSLt c).set) (S := Finset.univ \ (rSLf c).set) h2, h3]

theorem locL_lend (c : Dev nD) (f : Buf (Elt F) ((c : Thread nD τ).loc cc0_scratch1)) :
    ((c : Thread nD τ).loc cc0_scratch1 ↦{fullShare} f : sProp 𝕄) ⊣⊢
      iprop(((srcL c 0 false).view.loc (c : Thread nD τ) ↦[(srcL c 0 false).view.set]{fullShare} f)
        ∗ ((srcL c 0 true).view.loc (c : Thread nD τ) ↦[(srcL c 0 true).view.set]{fullShare} f)
        ∗ ((c : Thread nD τ).loc cc0_scratch1 ↦[Finset.univ \ ((srcL c 0 false).view.set ∪ (srcL c 0 true).view.set)]{fullShare} f)) :=
  BiEntails.of_eq (locL_lend_eq c f)

end Cert.KernelIdeal.Proto

end
-- ==== Proof.LocSplit.lean ====
/-
  The partial sums cut by batch: a device's 32 batch·head rows are four batch blocks of eight rows, numbered from the
  device's own batch, and each block is two half blocks of four heads. The flash loops write a block a row at a time, hop 0
  lends two half blocks, each merge loop reads one half block.
-/
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Ring
import proofs.«900754_g7700000000000755_dist_attn_cross_gqa_kvseq_b4_sq256_skv1024_d1024_hq8_dh128_v7x_i4_f32_1_alg».proof.Proof.Split

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Rows -/

/-- The first row of block `j` of device `c`: batch `(c + j) mod 4`. -/
def blkRow (c : Dev nD) (j : Fin 4) : ℕ := 8 * ((c.val + j.val) % 4)
/-- The first row of its half `hb`: heads 0 to 3, or 4 to 7. -/
def halfRow (c : Dev nD) (j : Fin 4) (hb : Bool) : ℕ := blkRow c j + (if hb then 4 else 0)

theorem blkRow_le (c : Dev nD) (j : Fin 4) : blkRow c j + 8 ≤ 32 := by
  unfold blkRow; have := Nat.mod_lt (c.val + j.val) (by decide : 0 < 4); omega
@[simp] theorem halfRow_false (c : Dev nD) (j : Fin 4) : halfRow c j false = blkRow c j := by simp [halfRow]
@[simp] theorem halfRow_true (c : Dev nD) (j : Fin 4) : halfRow c j true = blkRow c j + 4 := by simp [halfRow]
theorem halfRow_le (c : Dev nD) (j : Fin 4) (hb : Bool) : halfRow c j hb + 4 ≤ 32 := by
  have := blkRow_le c j; cases hb <;> simp only [halfRow_false, halfRow_true] <;> omega

/-! ## The numerators' partial sums -/

/-- Eight rows of the numerators. -/
abbrev SBlkO : Shape := ⟨3, ![8, 128, 256]⟩

theorem blkO_inb (r : ℕ) (hr : r + 8 ≤ 32) : ∀ a, (![r, 0, 0] : Fin 3 → ℕ) a + SBlkO.size a ≤ S32x128x256.size a := by
  intro a
  fin_cases a
  · change r + 8 ≤ 32; exact hr
  · change 0 + 128 ≤ 128; omega
  · change 0 + 256 ≤ 256; omega
theorem halfO_inb (r : ℕ) (hr : r + 4 ≤ 32) : ∀ a, (![r, 0, 0] : Fin 3 → ℕ) a + S4x128x256.size a ≤ S32x128x256.size a := by
  intro a
  fin_cases a
  · change r + 4 ≤ 32; exact hr
  · change 0 + 128 ≤ 128; omega
  · change 0 + 256 ≤ 256; omega

/-- Block `j` of device `c`: the eight heads of batch `(c + j) mod 4`. -/
def locBlkO (c : Dev nD) (j : Fin 4) : Memref sig .tc .vmem SBlkO .bf16 :=
  locO.slice (Rect.unit (s := S32x128x256) ![blkRow c j, 0, 0] SBlkO.size (blkO_inb _ (blkRow_le c j))) (fun _ => rfl)
/-- Its half `hb`. -/
def locHalfO (c : Dev nD) (j : Fin 4) (hb : Bool) : Memref sig .tc .vmem S4x128x256 .bf16 :=
  locO.slice (Rect.unit (s := S32x128x256) ![halfRow c j hb, 0, 0] S4x128x256.size (halfO_inb _ (halfRow_le c j hb))) (fun _ => rfl)

/-- Slices of one memref at equal offsets are one memref. -/
theorem slice_unit_congr {sp : Space} {s : Shape} {e : EltTy} (m : Memref sig .tc sp s e) {off off' size : Fin s.rank → ℕ}
    (inb : ∀ a, off a + size a ≤ s.size a) (inb' : ∀ a, off' a + size a ≤ s.size a) (h : off = off') :
    m.slice (Rect.unit off size inb) (fun _ => rfl) = m.slice (Rect.unit off' size inb') (fun _ => rfl) := by
  subst h; rfl

/-- The lower half of the own block is what hop 0 sends to the successor; the upper half of the block two further on what it
    sends to the predecessor. -/
theorem locHalfO_0f (c : Dev nD) : locHalfO c 0 false = srcO c 0 false := by
  unfold locHalfO srcO
  refine slice_unit_congr locO _ _ ?_
  rw [k0_off15_eq c]
  have hc : c.val < 4 := c.isLt
  simp only [halfRow_false, blkRow, Fin.val_zero, Nat.add_zero, Nat.mod_eq_of_lt hc]
theorem locHalfO_2t (c : Dev nD) : locHalfO c 2 true = srcO c 0 true := by
  unfold locHalfO srcO
  refine slice_unit_congr locO _ _ ?_
  rw [off31_eq c]
  simp only [halfRow_true, blkRow]
  rfl

theorem locBlkO_set (c : Dev nD) (j : Fin 4) : (locBlkO c j).view.set = (Rect.unit (s := S32x128x256) ![blkRow c j, 0, 0] SBlkO.size (blkO_inb _ (blkRow_le c j))).set := by
  unfold locBlkO; simp only [Memref.view_slice, Memref.view_whole, View.set_slice_whole]
theorem locHalfO_set (c : Dev nD) (j : Fin 4) (hb : Bool) : (locHalfO c j hb).view.set = (Rect.unit (s := S32x128x256) ![halfRow c j hb, 0, 0] S4x128x256.size (halfO_inb _ (halfRow_le c j hb))).set := by
  unfold locHalfO; simp only [Memref.view_slice, Memref.view_whole, View.set_slice_whole]

/-- A block is its eight rows, a half its four. -/
theorem mem_blkO (r : ℕ) (inb : ∀ a, (![r, 0, 0] : Fin 3 → ℕ) a + SBlkO.size a ≤ S32x128x256.size a) (i : S32x128x256.Idx) :
    i ∈ (Rect.unit (s := S32x128x256) ![r, 0, 0] SBlkO.size inb).set ↔ r ≤ (i 0 : ℕ) ∧ (i 0 : ℕ) < r + 8 := by
  rw [Rect.mem_set_unit]
  have h1 : (i 1 : ℕ) < 128 := (i 1).isLt
  have h2 : (i 2 : ℕ) < 256 := (i 2).isLt
  constructor
  · intro h
    exact h 0
  · intro e x
    fin_cases x
    · exact e
    · change (0 ≤ (i 1 : ℕ) ∧ (i 1 : ℕ) < 0 + 128); omega
    · change (0 ≤ (i 2 : ℕ) ∧ (i 2 : ℕ) < 0 + 256); omega
theorem mem_halfO (r : ℕ) (inb : ∀ a, (![r, 0, 0] : Fin 3 → ℕ) a + S4x128x256.size a ≤ S32x128x256.size a) (i : S32x128x256.Idx) :
    i ∈ (Rect.unit (s := S32x128x256) ![r, 0, 0] S4x128x256.size inb).set ↔ r ≤ (i 0 : ℕ) ∧ (i 0 : ℕ) < r + 4 :=
  mem_rSO r rfl i

abbrev rBO (c : Dev nD) (j : Fin 4) : Rect S32x128x256 := Rect.unit (s := S32x128x256) ![blkRow c j, 0, 0] SBlkO.size (blkO_inb _ (blkRow_le c j))
abbrev rHO (c : Dev nD) (j : Fin 4) (hb : Bool) : Rect S32x128x256 := Rect.unit (s := S32x128x256) ![halfRow c j hb, 0, 0] S4x128x256.size (halfO_inb _ (halfRow_le c j hb))

theorem mem_rBO (c : Dev nD) (j : Fin 4) (i : S32x128x256.Idx) : i ∈ (rBO c j).set ↔ blkRow c j ≤ (i 0 : ℕ) ∧ (i 0 : ℕ) < blkRow c j + 8 := mem_blkO _ _ i
theorem mem_rHO (c : Dev nD) (j : Fin 4) (hb : Bool) (i : S32x128x256.Idx) : i ∈ (rHO c j hb).set ↔ halfRow c j hb ≤ (i 0 : ℕ) ∧ (i 0 : ℕ) < halfRow c j hb + 4 := mem_halfO _ _ i

theorem blkRow_0 (c : Dev nD) : blkRow c 0 = 8 * c.val := by
  have hc : c.val < 4 := c.isLt
  simp only [blkRow, Fin.val_zero, Nat.add_zero, Nat.mod_eq_of_lt hc]
theorem blkRow_1 (c : Dev nD) : blkRow c 1 = 8 * ((c.val + 1) % 4) := rfl
theorem blkRow_2 (c : Dev nD) : blkRow c 2 = 8 * ((c.val + 2) % 4) := rfl
theorem blkRow_3 (c : Dev nD) : blkRow c 3 = 8 * ((c.val + 3) % 4) := rfl

section LocO
variable (c : Dev nD)

/-- The four blocks cover the 32 rows: `j ↦ (c + j) mod 4` runs through the four batches. -/
theorem locO_cover : (Finset.univ : Finset S32x128x256.Idx) = (rBO c 0).set ∪ ((rBO c 1).set ∪ ((rBO c 2).set ∪ (rBO c 3).set)) := by
  ext i
  have hc : c.val < 4 := c.isLt
  have h0 : (i 0 : ℕ) < 32 := (i 0).isLt
  simp only [Finset.mem_univ, true_iff, Finset.mem_union, mem_rBO, blkRow_0, blkRow_1, blkRow_2, blkRow_3]
  omega
theorem locO_disj1 : Disjoint (rBO c 0).set ((rBO c 1).set ∪ ((rBO c 2).set ∪ (rBO c 3).set)) :=
  Finset.disjoint_left.mpr fun i hi hj => by
    have hc : c.val < 4 := c.isLt
    simp only [Finset.mem_union, mem_rBO, blkRow_0, blkRow_1, blkRow_2, blkRow_3] at hi hj; omega
theorem locO_disj2 : Disjoint (rBO c 1).set ((rBO c 2).set ∪ (rBO c 3).set) :=
  Finset.disjoint_left.mpr fun i hi hj => by
    have hc : c.val < 4 := c.isLt
    simp only [Finset.mem_union, mem_rBO, blkRow_1, blkRow_2, blkRow_3] at hi hj; omega
theorem locO_disj3 : Disjoint (rBO c 2).set (rBO c 3).set :=
  Finset.disjoint_left.mpr fun i hi hj => by
    have hc : c.val < 4 := c.isLt
    simp only [mem_rBO, blkRow_2, blkRow_3] at hi hj; omega

/-- A block is its two halves. -/
theorem blkO_halves_set (j : Fin 4) : (rBO c j).set = (rHO c j false).set ∪ (rHO c j true).set := by
  ext i
  simp only [Finset.mem_union, mem_rBO, mem_rHO, halfRow_false, halfRow_true]
  omega
theorem blkO_halves_disj (j : Fin 4) : Disjoint (rHO c j false).set (rHO c j true).set :=
  Finset.disjoint_left.mpr fun i hi hj => by
    simp only [mem_rHO, halfRow_false, halfRow_true] at hi hj; omega

/-- The numerators' partial sums, whole, are the four batch blocks, each at the same contents. -/
theorem locO_blocks_eq (f : Buf (Elt F) ((c : Thread nD τ).loc cc0_scratch0)) :
    ((c : Thread nD τ).loc cc0_scratch0 ↦{fullShare} f : sProp 𝕄) =
      iprop(((locBlkO c 0).view.loc (c : Thread nD τ) ↦[(locBlkO c 0).view.set]{fullShare} f)
        ∗ ((locBlkO c 1).view.loc (c : Thread nD τ) ↦[(locBlkO c 1).view.set]{fullShare} f)
        ∗ ((locBlkO c 2).view.loc (c : Thread nD τ) ↦[(locBlkO c 2).view.set]{fullShare} f)
        ∗ ((locBlkO c 3).view.loc (c : Thread nD τ) ↦[(locBlkO c 3).view.set]{fullShare} f)) := by
  show ((c : Thread nD τ).loc cc0_scratch0 ↦[Finset.univ]{fullShare} f : sProp 𝕄) =
      iprop(((c : Thread nD τ).loc cc0_scratch0 ↦[(locBlkO c 0).view.set]{fullShare} f)
        ∗ ((c : Thread nD τ).loc cc0_scratch0 ↦[(locBlkO c 1).view.set]{fullShare} f)
        ∗ ((c : Thread nD τ).loc cc0_scratch0 ↦[(locBlkO c 2).view.set]{fullShare} f)
        ∗ ((c : Thread nD τ).loc cc0_scratch0 ↦[(locBlkO c 3).view.set]{fullShare} f))
  have hc : (Finset.univ : Finset (Idx ((c : Thread nD τ).loc cc0_scratch0))) = _ := locO_cover c
  rw [locBlkO_set c 0, locBlkO_set c 1, locBlkO_set c 2, locBlkO_set c 3, hc, pts_union (locO_disj1 c), pts_union (locO_disj2 c), pts_union (locO_disj3 c)]
theorem locO_blocks (f : Buf (Elt F) ((c : Thread nD τ).loc cc0_scratch0)) :
    ((c : Thread nD τ).loc cc0_scratch0 ↦{fullShare} f : sProp 𝕄) ⊣⊢
      iprop(((locBlkO c 0).view.loc (c : Thread nD τ) ↦[(locBlkO c 0).view.set]{fullShare} f)
        ∗ ((locBlkO c 1).view.loc (c : Thread nD τ) ↦[(locBlkO c 1).view.set]{fullShare} f)
        ∗ ((locBlkO c 2).view.loc (c : Thread nD τ) ↦[(locBlkO c 2).view.set]{fullShare} f)
        ∗ ((locBlkO c 3).view.loc (c : Thread nD τ) ↦[(locBlkO c 3).view.set]{fullShare} f)) :=
  BiEntails.of_eq (locO_blocks_eq c f)

/-- A block at some contents is its two halves at the same contents. -/
theorem locO_halves_eq (j : Fin 4) (f : Buf (Elt F) ((c : Thread nD τ).loc cc0_scratch0)) :
    ((locBlkO c j).view.loc (c : Thread nD τ) ↦[(locBlkO c j).view.set]{fullShare} f : sProp 𝕄) =
      iprop(((locHalfO c j false).view.loc (c : Thread nD τ) ↦[(locHalfO c j false).view.set]{fullShare} f)
        ∗ ((locHalfO c j true).view.loc (c : Thread nD τ) ↦[(locHalfO c j true).view.set]{fullShare} f)) := by
  show ((c : Thread nD τ).loc cc0_scratch0 ↦[(locBlkO c j).view.set]{fullShare} f : sProp 𝕄) =
      iprop(((c : Thread nD τ).loc cc0_scratch0 ↦[(locHalfO c j false).view.set]{fullShare} f)
        ∗ ((c : Thread nD τ).loc cc0_scratch0 ↦[(locHalfO c j true).view.set]{fullShare} f))
  have e : (rBO c j).set = (rHO c j false).set ∪ (rHO c j true).set := blkO_halves_set c j
  rw [locBlkO_set c j, locHalfO_set c j false, locHalfO_set c j true, e, pts_union (blkO_halves_disj c j)]
theorem locO_halves (j : Fin 4) (f : Buf (Elt F) ((c : Thread nD τ).loc cc0_scratch0)) :
    ((locBlkO c j).view.loc (c : Thread nD τ) ↦[(locBlkO c j).view.set]{fullShare} f : sProp 𝕄) ⊣⊢
      iprop(((locHalfO c j false).view.loc (c : Thread nD τ) ↦[(locHalfO c j false).view.set]{fullShare} f)
        ∗ ((locHalfO c j true).view.loc (c : Thread nD τ) ↦[(locHalfO c j true).view.set]{fullShare} f)) :=
  BiEntails.of_eq (locO_halves_eq c j f)

/-! ### Joining again, each part at contents of its own -/

theorem halfO_pair_join (j : Fin 4) : iprop(held c (locHalfO c j false) ∗ held c (locHalfO c j true)) ⊢ held (F := F) c (locBlkO c j) := by
  show iprop((∃ f : Buf (Elt F) ((c : Thread nD τ).loc cc0_scratch0), (c : Thread nD τ).loc cc0_scratch0 ↦[(locHalfO c j false).view.set]{fullShare} f)
        ∗ (∃ g : Buf (Elt F) ((c : Thread nD τ).loc cc0_scratch0), (c : Thread nD τ).loc cc0_scratch0 ↦[(locHalfO c j true).view.set]{fullShare} g))
      ⊢ (iprop(∃ f : Buf (Elt F) ((c : Thread nD τ).loc cc0_scratch0), (c : Thread nD τ).loc cc0_scratch0 ↦[(locBlkO c j).view.set]{fullShare} f) : sProp 𝕄)
  have e : (rBO c j).set = (rHO c j false).set ∪ (rHO c j true).set := blkO_halves_set c j
  rw [locBlkO_set c j, locHalfO_set c j false, locHalfO_set c j true, e]
  exact pts_join_ex (F := F) (ℓ := (c : Thread nD τ).loc cc0_scratch0) (q := fullShare) (blkO_halves_disj c j)

theorem blocksO_join : iprop(held c (locBlkO c 0) ∗ held c (locBlkO c 1) ∗ held c (locBlkO c 2) ∗ held c (locBlkO c 3))
      ⊢ (iprop(∃ f : Buf (Elt F) ((c : Thread nD τ).loc cc0_scratch0), (c : Thread nD τ).loc cc0_scratch0 ↦{fullShare} f) : sProp 𝕄) := by
  show iprop((∃ f : Buf (Elt F) ((c : Thread nD τ).loc cc0_scratch0), (c : Thread nD τ).loc cc0_scratch0 ↦[(locBlkO c 0).view.set]{fullShare} f)
        ∗ (∃ f : Buf (Elt F) ((c : Thread nD τ).loc cc0_scratch0), (c : Thread nD τ).loc cc0_scratch0 ↦[(locBlkO c 1).view.set]{fullShare} f)
        ∗ (∃ f : Buf (Elt F) ((c : Thread nD τ).loc cc0_scratch0), (c : Thread nD τ).loc cc0_scratch0 ↦[(locBlkO c 2).view.set]{fullShare} f)
        ∗ (∃ f : Buf (Elt F) ((c : Thread nD τ).loc cc0_scratch0), (c : Thread nD τ).loc cc0_scratch0 ↦[(locBlkO c 3).view.set]{fullShare} f))
      ⊢ (iprop(∃ f : Buf (Elt F) ((c : Thread nD τ).loc cc0_scratch0), (c : Thread nD τ).loc cc0_scratch0 ↦[Finset.univ]{fullShare} f) : sProp 𝕄)
  have hc : (Finset.univ : Finset (Idx ((c : Thread nD τ).loc cc0_scratch0))) = _ := locO_cover c
  rw [locBlkO_set c 0, locBlkO_set c 1, locBlkO_set c 2, locBlkO_set c 3, hc]
  have s3 := pts_join_ex (F := F) (ℓ := (c : Thread nD τ).loc cc0_scratch0) (q := fullShare) (locO_disj3 c)
  have s2 := (sep_mono_right s3).trans (pts_join_ex (F := F) (ℓ := (c : Thread nD τ).loc cc0_scratch0) (q := fullShare) (locO_disj2 c))
  exact (sep_mono_right s2).trans (pts_join_ex (F := F) (ℓ := (c : Thread nD τ).loc cc0_scratch0) (q := fullShare) (locO_disj1 c))

theorem halvesO_join : iprop(held c (locHalfO c 0 false) ∗ held c (locHalfO c 0 true) ∗ held c (locHalfO c 1 false) ∗ held c (locHalfO c 1 true)
        ∗ held c (locHalfO c 2 false) ∗ held c (locHalfO c 2 true) ∗ held c (locHalfO c 3 false) ∗ held c (locHalfO c 3 true))
      ⊢ (iprop(∃ f : Buf (Elt F) ((c : Thread nD τ).loc cc0_scratch0), (c : Thread nD τ).loc cc0_scratch0 ↦{fullShare} f) : sProp 𝕄) := by
  iintro ⟨A0, B0, A1, B1, A2, B2, A3, B3⟩
  iapply (blocksO_join c)
  isplitl [A0 B0]
  · iapply (halfO_pair_join c 0); isplitl [A0]; · iexact A0
    iexact B0
  isplitl [A1 B1]
  · iapply (halfO_pair_join c 1); isplitl [A1]; · iexact A1
    iexact B1
  isplitl [A2 B2]
  · iapply (halfO_pair_join c 2); isplitl [A2]; · iexact A2
    iexact B2
  iapply (halfO_pair_join c 3); isplitl [A3]; · iexact A3
  iexact B3

end LocO

/-! ## The denominators' partial sums, cut the same way -/

/-- Eight rows of the denominators. -/
abbrev SBlkL : Shape := ⟨3, ![8, 1, 256]⟩

theorem blkL_inb (r : ℕ) (hr : r + 8 ≤ 32) : ∀ a, (![r, 0, 0] : Fin 3 → ℕ) a + SBlkL.size a ≤ S32x1x256.size a := by
  intro a
  fin_cases a
  · change r + 8 ≤ 32; exact hr
  · change 0 + 1 ≤ 1; omega
  · change 0 + 256 ≤ 256; omega
theorem halfL_inb (r : ℕ) (hr : r + 4 ≤ 32) : ∀ a, (![r, 0, 0] : Fin 3 → ℕ) a + S4x1x256.size a ≤ S32x1x256.size a := by
  intro a
  fin_cases a
  · change r + 4 ≤ 32; exact hr
  · change 0 + 1 ≤ 1; omega
  · change 0 + 256 ≤ 256; omega

/-- Block `j` of device `c`: the eight heads of batch `(c + j) mod 4`. -/
def locBlkL (c : Dev nD) (j : Fin 4) : Memref sig .tc .vmem SBlkL .f32 :=
  locL.slice (Rect.unit (s := S32x1x256) ![blkRow c j, 0, 0] SBlkL.size (blkL_inb _ (blkRow_le c j))) (fun _ => rfl)
/-- Its half `hb`. -/
def locHalfL (c : Dev nD) (j : Fin 4) (hb : Bool) : Memref sig .tc .vmem S4x1x256 .f32 :=
  locL.slice (Rect.unit (s := S32x1x256) ![halfRow c j hb, 0, 0] S4x1x256.size (halfL_inb _ (halfRow_le c j hb))) (fun _ => rfl)

/-- The lower half of the own block is what hop 0 sends to the successor; the upper half of the block two further on what it
    sends to the predecessor. -/
theorem locHalfL_0f (c : Dev nD) : locHalfL c 0 false = srcL c 0 false := by
  unfold locHalfL srcL
  refine slice_unit_congr locL _ _ ?_
  rw [k0_off16_eq c]
  have hc : c.val < 4 := c.isLt
  simp only [halfRow_false, blkRow, Fin.val_zero, Nat.add_zero, Nat.mod_eq_of_lt hc]
theorem locHalfL_2t (c : Dev nD) : locHalfL c 2 true = srcL c 0 true := by
  unfold locHalfL srcL
  refine slice_unit_congr locL _ _ ?_
  rw [off32_eq c]
  simp only [halfRow_true, blkRow]
  rfl

theorem locBlkL_set (c : Dev nD) (j : Fin 4) : (locBlkL c j).view.set = (Rect.unit (s := S32x1x256) ![blkRow c j, 0, 0] SBlkL.size (blkL_inb _ (blkRow_le c j))).set := by
  unfold locBlkL; simp only [Memref.view_slice, Memref.view_whole, View.set_slice_whole]
theorem locHalfL_set (c : Dev nD) (j : Fin 4) (hb : Bool) : (locHalfL c j hb).view.set = (Rect.unit (s := S32x1x256) ![halfRow c j hb, 0, 0] S4x1x256.size (halfL_inb _ (halfRow_le c j hb))).set := by
  unfold locHalfL; simp only [Memref.view_slice, Memref.view_whole, View.set_slice_whole]

/-- A block is its eight rows, a half its four. -/
theorem mem_blkL (r : ℕ) (inb : ∀ a, (![r, 0, 0] : Fin 3 → ℕ) a + SBlkL.size a ≤ S32x1x256.size a) (i : S32x1x256.Idx) :
    i ∈ (Rect.unit (s := S32x1x256) ![r, 0, 0] SBlkL.size inb).set ↔ r ≤ (i 0 : ℕ) ∧ (i 0 : ℕ) < r + 8 := by
  rw [Rect.mem_set_unit]
  have h1 : (i 1 : ℕ) < 1 := (i 1).isLt
  have h2 : (i 2 : ℕ) < 256 := (i 2).isLt
  constructor
  · intro h
    exact h 0
  · intro e x
    fin_cases x
    · exact e
    · change (0 ≤ (i 1 : ℕ) ∧ (i 1 : ℕ) < 0 + 1); omega
    · change (0 ≤ (i 2 : ℕ) ∧ (i 2 : ℕ) < 0 + 256); omega
theorem mem_halfL (r : ℕ) (inb : ∀ a, (![r, 0, 0] : Fin 3 → ℕ) a + S4x1x256.size a ≤ S32x1x256.size a) (i : S32x1x256.Idx) :
    i ∈ (Rect.unit (s := S32x1x256) ![r, 0, 0] S4x1x256.size inb).set ↔ r ≤ (i 0 : ℕ) ∧ (i 0 : ℕ) < r + 4 :=
  mem_rSL r rfl i

abbrev rBL (c : Dev nD) (j : Fin 4) : Rect S32x1x256 := Rect.unit (s := S32x1x256) ![blkRow c j, 0, 0] SBlkL.size (blkL_inb _ (blkRow_le c j))
abbrev rHL (c : Dev nD) (j : Fin 4) (hb : Bool) : Rect S32x1x256 := Rect.unit (s := S32x1x256) ![halfRow c j hb, 0, 0] S4x1x256.size (halfL_inb _ (halfRow_le c j hb))

theorem mem_rBL (c : Dev nD) (j : Fin 4) (i : S32x1x256.Idx) : i ∈ (rBL c j).set ↔ blkRow c j ≤ (i 0 : ℕ) ∧ (i 0 : ℕ) < blkRow c j + 8 := mem_blkL _ _ i
theorem mem_rHL (c : Dev nD) (j : Fin 4) (hb : Bool) (i : S32x1x256.Idx) : i ∈ (rHL c j hb).set ↔ halfRow c j hb ≤ (i 0 : ℕ) ∧ (i 0 : ℕ) < halfRow c j hb + 4 := mem_halfL _ _ i

section LocL
variable (c : Dev nD)

/-- The four blocks cover the 32 rows: `j ↦ (c + j) mod 4` runs through the four batches. -/
theorem locL_cover : (Finset.univ : Finset S32x1x256.Idx) = (rBL c 0).set ∪ ((rBL c 1).set ∪ ((rBL c 2).set ∪ (rBL c 3).set)) := by
  ext i
  have hc : c.val < 4 := c.isLt
  have h0 : (i 0 : ℕ) < 32 := (i 0).isLt
  simp only [Finset.mem_univ, true_iff, Finset.mem_union, mem_rBL, blkRow_0, blkRow_1, blkRow_2, blkRow_3]
  omega
theorem locL_disj1 : Disjoint (rBL c 0).set ((rBL c 1).set ∪ ((rBL c 2).set ∪ (rBL c 3).set)) :=
  Finset.disjoint_left.mpr fun i hi hj => by
    have hc : c.val < 4 := c.isLt
    simp only [Finset.mem_union, mem_rBL, blkRow_0, blkRow_1, blkRow_2, blkRow_3] at hi hj; omega
theorem locL_disj2 : Disjoint (rBL c 1).set ((rBL c 2).set ∪ (rBL c 3).set) :=
  Finset.disjoint_left.mpr fun i hi hj => by
    have hc : c.val < 4 := c.isLt
    simp only [Finset.mem_union, mem_rBL, blkRow_1, blkRow_2, blkRow_3] at hi hj; omega
theorem locL_disj3 : Disjoint (rBL c 2).set (rBL c 3).set :=
  Finset.disjoint_left.mpr fun i hi hj => by
    have hc : c.val < 4 := c.isLt
    simp only [mem_rBL, blkRow_2, blkRow_3] at hi hj; omega

/-- A block is its two halves. -/
theorem blkL_halves_set (j : Fin 4) : (rBL c j).set = (rHL c j false).set ∪ (rHL c j true).set := by
  ext i
  simp only [Finset.mem_union, mem_rBL, mem_rHL, halfRow_false, halfRow_true]
  omega
theorem blkL_halves_disj (j : Fin 4) : Disjoint (rHL c j false).set (rHL c j true).set :=
  Finset.disjoint_left.mpr fun i hi hj => by
    simp only [mem_rHL, halfRow_false, halfRow_true] at hi hj; omega

/-- The denominators' partial sums, whole, are the four batch blocks, each at the same contents. -/
theorem locL_blocks_eq (f : Buf (Elt F) ((c : Thread nD τ).loc cc0_scratch1)) :
    ((c : Thread nD τ).loc cc0_scratch1 ↦{fullShare} f : sProp 𝕄) =
      iprop(((locBlkL c 0).view.loc (c : Thread nD τ) ↦[(locBlkL c 0).view.set]{fullShare} f)
        ∗ ((locBlkL c 1).view.loc (c : Thread nD τ) ↦[(locBlkL c 1).view.set]{fullShare} f)
        ∗ ((locBlkL c 2).view.loc (c : Thread nD τ) ↦[(locBlkL c 2).view.set]{fullShare} f)
        ∗ ((locBlkL c 3).view.loc (c : Thread nD τ) ↦[(locBlkL c 3).view.set]{fullShare} f)) := by
  show ((c : Thread nD τ).loc cc0_scratch1 ↦[Finset.univ]{fullShare} f : sProp 𝕄) =
      iprop(((c : Thread nD τ).loc cc0_scratch1 ↦[(locBlkL c 0).view.set]{fullShare} f)
        ∗ ((c : Thread nD τ).loc cc0_scratch1 ↦[(locBlkL c 1).view.set]{fullShare} f)
        ∗ ((c : Thread nD τ).loc cc0_scratch1 ↦[(locBlkL c 2).view.set]{fullShare} f)
        ∗ ((c : Thread nD τ).loc cc0_scratch1 ↦[(locBlkL c 3).view.set]{fullShare} f))
  have hc : (Finset.univ : Finset (Idx ((c : Thread nD τ).loc cc0_scratch1))) = _ := locL_cover c
  rw [locBlkL_set c 0, locBlkL_set c 1, locBlkL_set c 2, locBlkL_set c 3, hc, pts_union (locL_disj1 c), pts_union (locL_disj2 c), pts_union (locL_disj3 c)]
theorem locL_blocks (f : Buf (Elt F) ((c : Thread nD τ).loc cc0_scratch1)) :
    ((c : Thread nD τ).loc cc0_scratch1 ↦{fullShare} f : sProp 𝕄) ⊣⊢
      iprop(((locBlkL c 0).view.loc (c : Thread nD τ) ↦[(locBlkL c 0).view.set]{fullShare} f)
        ∗ ((locBlkL c 1).view.loc (c : Thread nD τ) ↦[(locBlkL c 1).view.set]{fullShare} f)
        ∗ ((locBlkL c 2).view.loc (c : Thread nD τ) ↦[(locBlkL c 2).view.set]{fullShare} f)
        ∗ ((locBlkL c 3).view.loc (c : Thread nD τ) ↦[(locBlkL c 3).view.set]{fullShare} f)) :=
  BiEntails.of_eq (locL_blocks_eq c f)

/-- A block at some contents is its two halves at the same contents. -/
theorem locL_halves_eq (j : Fin 4) (f : Buf (Elt F) ((c : Thread nD τ).loc cc0_scratch1)) :
    ((locBlkL c j).view.loc (c : Thread nD τ) ↦[(locBlkL c j).view.set]{fullShare} f : sProp 𝕄) =
      iprop(((locHalfL c j false).view.loc (c : Thread nD τ) ↦[(locHalfL c j false).view.set]{fullShare} f)
        ∗ ((locHalfL c j true).view.loc (c : Thread nD τ) ↦[(locHalfL c j true).view.set]{fullShare} f)) := by
  show ((c : Thread nD τ).loc cc0_scratch1 ↦[(locBlkL c j).view.set]{fullShare} f : sProp 𝕄) =
      iprop(((c : Thread nD τ).loc cc0_scratch1 ↦[(locHalfL c j false).view.set]{fullShare} f)
        ∗ ((c : Thread nD τ).loc cc0_scratch1 ↦[(locHalfL c j true).view.set]{fullShare} f))
  have e : (rBL c j).set = (rHL c j false).set ∪ (rHL c j true).set := blkL_halves_set c j
  rw [locBlkL_set c j, locHalfL_set c j false, locHalfL_set c j true, e, pts_union (blkL_halves_disj c j)]
theorem locL_halves (j : Fin 4) (f : Buf (Elt F) ((c : Thread nD τ).loc cc0_scratch1)) :
    ((locBlkL c j).view.loc (c : Thread nD τ) ↦[(locBlkL c j).view.set]{fullShare} f : sProp 𝕄) ⊣⊢
      iprop(((locHalfL c j false).view.loc (c : Thread nD τ) ↦[(locHalfL c j false).view.set]{fullShare} f)
        ∗ ((locHalfL c j true).view.loc (c : Thread nD τ) ↦[(locHalfL c j true).view.set]{fullShare} f)) :=
  BiEntails.of_eq (locL_halves_eq c j f)

/-! ### Joining again, each part at contents of its own -/

theorem halfL_pair_join (j : Fin 4) : iprop(held c (locHalfL c j false) ∗ held c (locHalfL c j true)) ⊢ held (F := F) c (locBlkL c j) := by
  show iprop((∃ f : Buf (Elt F) ((c : Thread nD τ).loc cc0_scratch1), (c : Thread nD τ).loc cc0_scratch1 ↦[(locHalfL c j false).view.set]{fullShare} f)
        ∗ (∃ g : Buf (Elt F) ((c : Thread nD τ).loc cc0_scratch1), (c : Thread nD τ).loc cc0_scratch1 ↦[(locHalfL c j true).view.set]{fullShare} g))
      ⊢ (iprop(∃ f : Buf (Elt F) ((c : Thread nD τ).loc cc0_scratch1), (c : Thread nD τ).loc cc0_scratch1 ↦[(locBlkL c j).view.set]{fullShare} f) : sProp 𝕄)
  have e : (rBL c j).set = (rHL c j false).set ∪ (rHL c j true).set := blkL_halves_set c j
  rw [locBlkL_set c j, locHalfL_set c j false, locHalfL_set c j true, e]
  exact pts_join_ex (F := F) (ℓ := (c : Thread nD τ).loc cc0_scratch1) (q := fullShare) (blkL_halves_disj c j)

theorem blocksL_join : iprop(held c (locBlkL c 0) ∗ held c (locBlkL c 1) ∗ held c (locBlkL c 2) ∗ held c (locBlkL c 3))
      ⊢ (iprop(∃ f : Buf (Elt F) ((c : Thread nD τ).loc cc0_scratch1), (c : Thread nD τ).loc cc0_scratch1 ↦{fullShare} f) : sProp 𝕄) := by
  show iprop((∃ f : Buf (Elt F) ((c : Thread nD τ).loc cc0_scratch1), (c : Thread nD τ).loc cc0_scratch1 ↦[(locBlkL c 0).view.set]{fullShare} f)
        ∗ (∃ f : Buf (Elt F) ((c : Thread nD τ).loc cc0_scratch1), (c : Thread nD τ).loc cc0_scratch1 ↦[(locBlkL c 1).view.set]{fullShare} f)
        ∗ (∃ f : Buf (Elt F) ((c : Thread nD τ).loc cc0_scratch1), (c : Thread nD τ).loc cc0_scratch1 ↦[(locBlkL c 2).view.set]{fullShare} f)
        ∗ (∃ f : Buf (Elt F) ((c : Thread nD τ).loc cc0_scratch1), (c : Thread nD τ).loc cc0_scratch1 ↦[(locBlkL c 3).view.set]{fullShare} f))
      ⊢ (iprop(∃ f : Buf (Elt F) ((c : Thread nD τ).loc cc0_scratch1), (c : Thread nD τ).loc cc0_scratch1 ↦[Finset.univ]{fullShare} f) : sProp 𝕄)
  have hc : (Finset.univ : Finset (Idx ((c : Thread nD τ).loc cc0_scratch1))) = _ := locL_cover c
  rw [locBlkL_set c 0, locBlkL_set c 1, locBlkL_set c 2, locBlkL_set c 3, hc]
  have s3 := pts_join_ex (F := F) (ℓ := (c : Thread nD τ).loc cc0_scratch1) (q := fullShare) (locL_disj3 c)
  have s2 := (sep_mono_right s3).trans (pts_join_ex (F := F) (ℓ := (c : Thread nD τ).loc cc0_scratch1) (q := fullShare) (locL_disj2 c))
  exact (sep_mono_right s2).trans (pts_join_ex (F := F) (ℓ := (c : Thread nD τ).loc cc0_scratch1) (q := fullShare) (locL_disj1 c))

theorem halvesL_join : iprop(held c (locHalfL c 0 false) ∗ held c (locHalfL c 0 true) ∗ held c (locHalfL c 1 false) ∗ held c (locHalfL c 1 true)
        ∗ held c (locHalfL c 2 false) ∗ held c (locHalfL c 2 true) ∗ held c (locHalfL c 3 false) ∗ held c (locHalfL c 3 true))
      ⊢ (iprop(∃ f : Buf (Elt F) ((c : Thread nD τ).loc cc0_scratch1), (c : Thread nD τ).loc cc0_scratch1 ↦{fullShare} f) : sProp 𝕄) := by
  iintro ⟨A0, B0, A1, B1, A2, B2, A3, B3⟩
  iapply (blocksL_join c)
  isplitl [A0 B0]
  · iapply (halfL_pair_join c 0); isplitl [A0]; · iexact A0
    iexact B0
  isplitl [A1 B1]
  · iapply (halfL_pair_join c 1); isplitl [A1]; · iexact A1
    iexact B1
  isplitl [A2 B2]
  · iapply (halfL_pair_join c 2); isplitl [A2]; · iexact A2
    iexact B2
  iapply (halfL_pair_join c 3); isplitl [A3]; · iexact A3
  iexact B3

end LocL

end Cert.KernelIdeal.Proto

end
-- ==== Proof.Within.lean ====
/-
  Where the output phase reads and writes the ring's buffers, against the slices a device holds: each head's block of the
  last stage lies in the landing slice that holds it; the device's own result block is its two halves; and the eight
  half blocks of the gathered result, held at contents of their own, are the whole buffer at contents that read the same.
-/
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Split
import proofs.«900754_g7700000000000755_dist_attn_cross_gqa_kvseq_b4_sq256_skv1024_d1024_hq8_dh128_v7x_i4_f32_1_alg».proof.Proof.Ring
import proofs.«900754_g7700000000000755_dist_attn_cross_gqa_kvseq_b4_sq256_skv1024_d1024_hq8_dh128_v7x_i4_f32_1_alg».proof.Proof.Gen.KernelIdeal

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The last stage's heads, one at a time -/

/-- A whole buffer's view places an index set at itself. -/
theorem setOn_whole (b : Ref sig .tc) (M : Finset b.ty.shape.Idx) : (View.whole b : View sig .tc b.space b.ty.shape b.ty.elt).setOn M = M :=
  Finset.map_refl

/-- One head's block lies in the block of four heads that holds it. -/
theorem unit1_sub_rO (a b k : ℕ) (inb1 : ∀ x, (![a, k, 0, 0] : Fin 4 → ℕ) x + S1x1x128x256.size x ≤ S3x8x128x256.size x)
    (inb4 : ∀ x, (![a, b, 0, 0] : Fin 4 → ℕ) x + S1x4x128x256.size x ≤ S3x8x128x256.size x) (hk : b ≤ k ∧ k < b + 4) :
    (Rect.unit (s := S3x8x128x256) ![a, k, 0, 0] S1x1x128x256.size inb1).set ⊆ (Rect.unit (s := S3x8x128x256) ![a, b, 0, 0] S1x4x128x256.size inb4).set := by
  intro i hi
  rw [mem_rO]
  rw [Rect.mem_set_unit] at hi
  have e0 := hi 0
  have e1 := hi 1
  change (a ≤ (i 0 : ℕ) ∧ (i 0 : ℕ) < a + 1) at e0
  change (k ≤ (i 1 : ℕ) ∧ (i 1 : ℕ) < k + 1) at e1
  omega
theorem unit1_sub_rL (a b k : ℕ) (inb1 : ∀ x, (![a, k, 0, 0] : Fin 4 → ℕ) x + S1x1x1x256.size x ≤ S3x8x1x256.size x)
    (inb4 : ∀ x, (![a, b, 0, 0] : Fin 4 → ℕ) x + S1x4x1x256.size x ≤ S3x8x1x256.size x) (hk : b ≤ k ∧ k < b + 4) :
    (Rect.unit (s := S3x8x1x256) ![a, k, 0, 0] S1x1x1x256.size inb1).set ⊆ (Rect.unit (s := S3x8x1x256) ![a, b, 0, 0] S1x4x1x256.size inb4).set := by
  intro i hi
  rw [mem_rL]
  rw [Rect.mem_set_unit] at hi
  have e0 := hi 0
  have e1 := hi 1
  change (a ≤ (i 0 : ℕ) ∧ (i 0 : ℕ) < a + 1) at e0
  change (k ≤ (i 1 : ℕ) ∧ (i 1 : ℕ) < k + 1) at e1
  omega

/-- The same through the whole buffer's memref, as an access's set and as the placed index set, against any set equal to the block of four. -/
theorem rsO_access_sub (a b k : ℕ) (inb1 : ∀ x, (![a, k, 0, 0] : Fin 4 → ℕ) x + S1x1x128x256.size x ≤ S3x8x128x256.size x)
    (inb4 : ∀ x, (![a, b, 0, 0] : Fin 4 → ℕ) x + S1x4x128x256.size x ≤ S3x8x128x256.size x) (hk : b ≤ k ∧ k < b + 4)
    {S : Finset S3x8x128x256.Idx} (hS : S = (Rect.unit (s := S3x8x128x256) ![a, b, 0, 0] S1x4x128x256.size inb4).set) :
    ((Memref.whole cc0_scratch2 : Memref sig .tc .vmem S3x8x128x256 .bf16).access (Rect.unit (s := S3x8x128x256) ![a, k, 0, 0] S1x1x128x256.size inb1)).set ⊆ S := by
  subst hS
  show ((View.whole cc0_scratch2).slice _).set ⊆ _
  rw [View.set_slice_whole]
  exact unit1_sub_rO a b k inb1 inb4 hk
theorem rsO_setOn_sub (a b k : ℕ) (inb1 : ∀ x, (![a, k, 0, 0] : Fin 4 → ℕ) x + S1x1x128x256.size x ≤ S3x8x128x256.size x)
    (inb4 : ∀ x, (![a, b, 0, 0] : Fin 4 → ℕ) x + S1x4x128x256.size x ≤ S3x8x128x256.size x) (hk : b ≤ k ∧ k < b + 4)
    {S : Finset S3x8x128x256.Idx} (hS : S = (Rect.unit (s := S3x8x128x256) ![a, b, 0, 0] S1x4x128x256.size inb4).set) :
    (Memref.whole cc0_scratch2 : Memref sig .tc .vmem S3x8x128x256 .bf16).view.setOn (Rect.unit (s := S3x8x128x256) ![a, k, 0, 0] S1x1x128x256.size inb1).set ⊆ S := by
  subst hS
  show (View.whole cc0_scratch2).setOn _ ⊆ _
  rw [setOn_whole]
  exact unit1_sub_rO a b k inb1 inb4 hk
theorem rsL_access_sub (a b k : ℕ) (inb1 : ∀ x, (![a, k, 0, 0] : Fin 4 → ℕ) x + S1x1x1x256.size x ≤ S3x8x1x256.size x)
    (inb4 : ∀ x, (![a, b, 0, 0] : Fin 4 → ℕ) x + S1x4x1x256.size x ≤ S3x8x1x256.size x) (hk : b ≤ k ∧ k < b + 4)
    {S : Finset S3x8x1x256.Idx} (hS : S = (Rect.unit (s := S3x8x1x256) ![a, b, 0, 0] S1x4x1x256.size inb4).set) :
    ((Memref.whole cc0_scratch3 : Memref sig .tc .vmem S3x8x1x256 .f32).access (Rect.unit (s := S3x8x1x256) ![a, k, 0, 0] S1x1x1x256.size inb1)).set ⊆ S := by
  subst hS
  show ((View.whole cc0_scratch3).slice _).set ⊆ _
  rw [View.set_slice_whole]
  exact unit1_sub_rL a b k inb1 inb4 hk
theorem rsL_setOn_sub (a b k : ℕ) (inb1 : ∀ x, (![a, k, 0, 0] : Fin 4 → ℕ) x + S1x1x1x256.size x ≤ S3x8x1x256.size x)
    (inb4 : ∀ x, (![a, b, 0, 0] : Fin 4 → ℕ) x + S1x4x1x256.size x ≤ S3x8x1x256.size x) (hk : b ≤ k ∧ k < b + 4)
    {S : Finset S3x8x1x256.Idx} (hS : S = (Rect.unit (s := S3x8x1x256) ![a, b, 0, 0] S1x4x1x256.size inb4).set) :
    (Memref.whole cc0_scratch3 : Memref sig .tc .vmem S3x8x1x256 .f32).view.setOn (Rect.unit (s := S3x8x1x256) ![a, k, 0, 0] S1x1x1x256.size inb1).set ⊆ S := by
  subst hS
  show (View.whole cc0_scratch3).setOn _ ⊆ _
  rw [setOn_whole]
  exact unit1_sub_rL a b k inb1 inb4 hk

/-! ### The numerators of stage 2: heads 0 to 3 in the slice that came from the left, heads 4 to 7 in the one from the right -/

theorem rsO2_within_0 : ((Memref.whole cc0_scratch2 : Memref sig .tc .vmem S3x8x128x256 .bf16).access (Rect.unit (s := S3x8x128x256) ![2, 0, 0, 0] S1x1x128x256.size inb_S3x8x128x256_S1x1x128x256_2_0_0_0)).set ⊆ (dstO 2 false).view.set :=
  rsO_access_sub 2 0 0 _ _ (by omega) dstO_set_2f
theorem rsO2_within_1 : ((Memref.whole cc0_scratch2 : Memref sig .tc .vmem S3x8x128x256 .bf16).access (Rect.unit (s := S3x8x128x256) ![2, 1, 0, 0] S1x1x128x256.size inb_S3x8x128x256_S1x1x128x256_2_1_0_0)).set ⊆ (dstO 2 false).view.set :=
  rsO_access_sub 2 0 1 _ _ (by omega) dstO_set_2f
theorem rsO2_within_2 : ((Memref.whole cc0_scratch2 : Memref sig .tc .vmem S3x8x128x256 .bf16).access (Rect.unit (s := S3x8x128x256) ![2, 2, 0, 0] S1x1x128x256.size inb_S3x8x128x256_S1x1x128x256_2_2_0_0)).set ⊆ (dstO 2 false).view.set :=
  rsO_access_sub 2 0 2 _ _ (by omega) dstO_set_2f
theorem rsO2_within_3 : ((Memref.whole cc0_scratch2 : Memref sig .tc .vmem S3x8x128x256 .bf16).access (Rect.unit (s := S3x8x128x256) ![2, 3, 0, 0] S1x1x128x256.size inb_S3x8x128x256_S1x1x128x256_2_3_0_0)).set ⊆ (dstO 2 false).view.set :=
  rsO_access_sub 2 0 3 _ _ (by omega) dstO_set_2f
theorem rsO2_within_4 : ((Memref.whole cc0_scratch2 : Memref sig .tc .vmem S3x8x128x256 .bf16).access (Rect.unit (s := S3x8x128x256) ![2, 4, 0, 0] S1x1x128x256.size inb_S3x8x128x256_S1x1x128x256_2_4_0_0)).set ⊆ (dstO 2 true).view.set :=
  rsO_access_sub 2 4 4 _ _ (by omega) dstO_set_2t
theorem rsO2_within_5 : ((Memref.whole cc0_scratch2 : Memref sig .tc .vmem S3x8x128x256 .bf16).access (Rect.unit (s := S3x8x128x256) ![2, 5, 0, 0] S1x1x128x256.size inb_S3x8x128x256_S1x1x128x256_2_5_0_0)).set ⊆ (dstO 2 true).view.set :=
  rsO_access_sub 2 4 5 _ _ (by omega) dstO_set_2t
theorem rsO2_within_6 : ((Memref.whole cc0_scratch2 : Memref sig .tc .vmem S3x8x128x256 .bf16).access (Rect.unit (s := S3x8x128x256) ![2, 6, 0, 0] S1x1x128x256.size inb_S3x8x128x256_S1x1x128x256_2_6_0_0)).set ⊆ (dstO 2 true).view.set :=
  rsO_access_sub 2 4 6 _ _ (by omega) dstO_set_2t
theorem rsO2_within_7 : ((Memref.whole cc0_scratch2 : Memref sig .tc .vmem S3x8x128x256 .bf16).access (Rect.unit (s := S3x8x128x256) ![2, 7, 0, 0] S1x1x128x256.size inb_S3x8x128x256_S1x1x128x256_2_7_0_0)).set ⊆ (dstO 2 true).view.set :=
  rsO_access_sub 2 4 7 _ _ (by omega) dstO_set_2t

theorem rsO2_withinOn_0 : (Memref.whole cc0_scratch2 : Memref sig .tc .vmem S3x8x128x256 .bf16).view.setOn (Rect.unit (s := S3x8x128x256) ![2, 0, 0, 0] S1x1x128x256.size inb_S3x8x128x256_S1x1x128x256_2_0_0_0).set ⊆ (dstO 2 false).view.set :=
  rsO_setOn_sub 2 0 0 _ _ (by omega) dstO_set_2f
theorem rsO2_withinOn_1 : (Memref.whole cc0_scratch2 : Memref sig .tc .vmem S3x8x128x256 .bf16).view.setOn (Rect.unit (s := S3x8x128x256) ![2, 1, 0, 0] S1x1x128x256.size inb_S3x8x128x256_S1x1x128x256_2_1_0_0).set ⊆ (dstO 2 false).view.set :=
  rsO_setOn_sub 2 0 1 _ _ (by omega) dstO_set_2f
theorem rsO2_withinOn_2 : (Memref.whole cc0_scratch2 : Memref sig .tc .vmem S3x8x128x256 .bf16).view.setOn (Rect.unit (s := S3x8x128x256) ![2, 2, 0, 0] S1x1x128x256.size inb_S3x8x128x256_S1x1x128x256_2_2_0_0).set ⊆ (dstO 2 false).view.set :=
  rsO_setOn_sub 2 0 2 _ _ (by omega) dstO_set_2f
theorem rsO2_withinOn_3 : (Memref.whole cc0_scratch2 : Memref sig .tc .vmem S3x8x128x256 .bf16).view.setOn (Rect.unit (s := S3x8x128x256) ![2, 3, 0, 0] S1x1x128x256.size inb_S3x8x128x256_S1x1x128x256_2_3_0_0).set ⊆ (dstO 2 false).view.set :=
  rsO_setOn_sub 2 0 3 _ _ (by omega) dstO_set_2f
theorem rsO2_withinOn_4 : (Memref.whole cc0_scratch2 : Memref sig .tc .vmem S3x8x128x256 .bf16).view.setOn (Rect.unit (s := S3x8x128x256) ![2, 4, 0, 0] S1x1x128x256.size inb_S3x8x128x256_S1x1x128x256_2_4_0_0).set ⊆ (dstO 2 true).view.set :=
  rsO_setOn_sub 2 4 4 _ _ (by omega) dstO_set_2t
theorem rsO2_withinOn_5 : (Memref.whole cc0_scratch2 : Memref sig .tc .vmem S3x8x128x256 .bf16).view.setOn (Rect.unit (s := S3x8x128x256) ![2, 5, 0, 0] S1x1x128x256.size inb_S3x8x128x256_S1x1x128x256_2_5_0_0).set ⊆ (dstO 2 true).view.set :=
  rsO_setOn_sub 2 4 5 _ _ (by omega) dstO_set_2t
theorem rsO2_withinOn_6 : (Memref.whole cc0_scratch2 : Memref sig .tc .vmem S3x8x128x256 .bf16).view.setOn (Rect.unit (s := S3x8x128x256) ![2, 6, 0, 0] S1x1x128x256.size inb_S3x8x128x256_S1x1x128x256_2_6_0_0).set ⊆ (dstO 2 true).view.set :=
  rsO_setOn_sub 2 4 6 _ _ (by omega) dstO_set_2t
theorem rsO2_withinOn_7 : (Memref.whole cc0_scratch2 : Memref sig .tc .vmem S3x8x128x256 .bf16).view.setOn (Rect.unit (s := S3x8x128x256) ![2, 7, 0, 0] S1x1x128x256.size inb_S3x8x128x256_S1x1x128x256_2_7_0_0).set ⊆ (dstO 2 true).view.set :=
  rsO_setOn_sub 2 4 7 _ _ (by omega) dstO_set_2t

/-! ### The denominators of stage 2 -/

theorem rsL2_within_0 : ((Memref.whole cc0_scratch3 : Memref sig .tc .vmem S3x8x1x256 .f32).access (Rect.unit (s := S3x8x1x256) ![2, 0, 0, 0] S1x1x1x256.size inb_S3x8x1x256_S1x1x1x256_2_0_0_0)).set ⊆ (dstL 2 false).view.set :=
  rsL_access_sub 2 0 0 _ _ (by omega) dstL_set_2f
theorem rsL2_within_1 : ((Memref.whole cc0_scratch3 : Memref sig .tc .vmem S3x8x1x256 .f32).access (Rect.unit (s := S3x8x1x256) ![2, 1, 0, 0] S1x1x1x256.size inb_S3x8x1x256_S1x1x1x256_2_1_0_0)).set ⊆ (dstL 2 false).view.set :=
  rsL_access_sub 2 0 1 _ _ (by omega) dstL_set_2f
theorem rsL2_within_2 : ((Memref.whole cc0_scratch3 : Memref sig .tc .vmem S3x8x1x256 .f32).access (Rect.unit (s := S3x8x1x256) ![2, 2, 0, 0] S1x1x1x256.size inb_S3x8x1x256_S1x1x1x256_2_2_0_0)).set ⊆ (dstL 2 false).view.set :=
  rsL_access_sub 2 0 2 _ _ (by omega) dstL_set_2f
theorem rsL2_within_3 : ((Memref.whole cc0_scratch3 : Memref sig .tc .vmem S3x8x1x256 .f32).access (Rect.unit (s := S3x8x1x256) ![2, 3, 0, 0] S1x1x1x256.size inb_S3x8x1x256_S1x1x1x256_2_3_0_0)).set ⊆ (dstL 2 false).view.set :=
  rsL_access_sub 2 0 3 _ _ (by omega) dstL_set_2f
theorem rsL2_within_4 : ((Memref.whole cc0_scratch3 : Memref sig .tc .vmem S3x8x1x256 .f32).access (Rect.unit (s := S3x8x1x256) ![2, 4, 0, 0] S1x1x1x256.size inb_S3x8x1x256_S1x1x1x256_2_4_0_0)).set ⊆ (dstL 2 true).view.set :=
  rsL_access_sub 2 4 4 _ _ (by omega) dstL_set_2t
theorem rsL2_within_5 : ((Memref.whole cc0_scratch3 : Memref sig .tc .vmem S3x8x1x256 .f32).access (Rect.unit (s := S3x8x1x256) ![2, 5, 0, 0] S1x1x1x256.size inb_S3x8x1x256_S1x1x1x256_2_5_0_0)).set ⊆ (dstL 2 true).view.set :=
  rsL_access_sub 2 4 5 _ _ (by omega) dstL_set_2t
theorem rsL2_within_6 : ((Memref.whole cc0_scratch3 : Memref sig .tc .vmem S3x8x1x256 .f32).access (Rect.unit (s := S3x8x1x256) ![2, 6, 0, 0] S1x1x1x256.size inb_S3x8x1x256_S1x1x1x256_2_6_0_0)).set ⊆ (dstL 2 true).view.set :=
  rsL_access_sub 2 4 6 _ _ (by omega) dstL_set_2t
theorem rsL2_within_7 : ((Memref.whole cc0_scratch3 : Memref sig .tc .vmem S3x8x1x256 .f32).access (Rect.unit (s := S3x8x1x256) ![2, 7, 0, 0] S1x1x1x256.size inb_S3x8x1x256_S1x1x1x256_2_7_0_0)).set ⊆ (dstL 2 true).view.set :=
  rsL_access_sub 2 4 7 _ _ (by omega) dstL_set_2t

theorem rsL2_withinOn_0 : (Memref.whole cc0_scratch3 : Memref sig .tc .vmem S3x8x1x256 .f32).view.setOn (Rect.unit (s := S3x8x1x256) ![2, 0, 0, 0] S1x1x1x256.size inb_S3x8x1x256_S1x1x1x256_2_0_0_0).set ⊆ (dstL 2 false).view.set :=
  rsL_setOn_sub 2 0 0 _ _ (by omega) dstL_set_2f
theorem rsL2_withinOn_1 : (Memref.whole cc0_scratch3 : Memref sig .tc .vmem S3x8x1x256 .f32).view.setOn (Rect.unit (s := S3x8x1x256) ![2, 1, 0, 0] S1x1x1x256.size inb_S3x8x1x256_S1x1x1x256_2_1_0_0).set ⊆ (dstL 2 false).view.set :=
  rsL_setOn_sub 2 0 1 _ _ (by omega) dstL_set_2f
theorem rsL2_withinOn_2 : (Memref.whole cc0_scratch3 : Memref sig .tc .vmem S3x8x1x256 .f32).view.setOn (Rect.unit (s := S3x8x1x256) ![2, 2, 0, 0] S1x1x1x256.size inb_S3x8x1x256_S1x1x1x256_2_2_0_0).set ⊆ (dstL 2 false).view.set :=
  rsL_setOn_sub 2 0 2 _ _ (by omega) dstL_set_2f
theorem rsL2_withinOn_3 : (Memref.whole cc0_scratch3 : Memref sig .tc .vmem S3x8x1x256 .f32).view.setOn (Rect.unit (s := S3x8x1x256) ![2, 3, 0, 0] S1x1x1x256.size inb_S3x8x1x256_S1x1x1x256_2_3_0_0).set ⊆ (dstL 2 false).view.set :=
  rsL_setOn_sub 2 0 3 _ _ (by omega) dstL_set_2f
theorem rsL2_withinOn_4 : (Memref.whole cc0_scratch3 : Memref sig .tc .vmem S3x8x1x256 .f32).view.setOn (Rect.unit (s := S3x8x1x256) ![2, 4, 0, 0] S1x1x1x256.size inb_S3x8x1x256_S1x1x1x256_2_4_0_0).set ⊆ (dstL 2 true).view.set :=
  rsL_setOn_sub 2 4 4 _ _ (by omega) dstL_set_2t
theorem rsL2_withinOn_5 : (Memref.whole cc0_scratch3 : Memref sig .tc .vmem S3x8x1x256 .f32).view.setOn (Rect.unit (s := S3x8x1x256) ![2, 5, 0, 0] S1x1x1x256.size inb_S3x8x1x256_S1x1x1x256_2_5_0_0).set ⊆ (dstL 2 true).view.set :=
  rsL_setOn_sub 2 4 5 _ _ (by omega) dstL_set_2t
theorem rsL2_withinOn_6 : (Memref.whole cc0_scratch3 : Memref sig .tc .vmem S3x8x1x256 .f32).view.setOn (Rect.unit (s := S3x8x1x256) ![2, 6, 0, 0] S1x1x1x256.size inb_S3x8x1x256_S1x1x1x256_2_6_0_0).set ⊆ (dstL 2 true).view.set :=
  rsL_setOn_sub 2 4 6 _ _ (by omega) dstL_set_2t
theorem rsL2_withinOn_7 : (Memref.whole cc0_scratch3 : Memref sig .tc .vmem S3x8x1x256 .f32).view.setOn (Rect.unit (s := S3x8x1x256) ![2, 7, 0, 0] S1x1x1x256.size inb_S3x8x1x256_S1x1x1x256_2_7_0_0).set ⊆ (dstL 2 true).view.set :=
  rsL_setOn_sub 2 4 7 _ _ (by omega) dstL_set_2t

/-! ## The device's own result block -/

/-- Membership in a whole block of 256 rows; the offsets may be given by any chain equal to `![a, 0, 0]`. -/
theorem mem_rB {off : Fin 3 → ℕ} {inb : ∀ x, off x + S1x256x1024.size x ≤ S4x256x1024.size x} (a : ℕ) (hoff : off = ![a, 0, 0]) (i : S4x256x1024.Idx) :
    i ∈ (Rect.unit (s := S4x256x1024) off S1x256x1024.size inb).set ↔ (i 0 : ℕ) = a := by
  subst hoff
  rw [Rect.mem_set_unit]
  have h1 : (i 1 : ℕ) < 256 := (i 1).isLt
  have h2 : (i 2 : ℕ) < 1024 := (i 2).isLt
  constructor
  · intro h
    have e0 := h 0
    change (a ≤ (i 0 : ℕ) ∧ (i 0 : ℕ) < a + 1) at e0
    omega
  · intro e x
    fin_cases x
    · change (a ≤ (i 0 : ℕ) ∧ (i 0 : ℕ) < a + 1); omega
    · change (0 ≤ (i 1 : ℕ) ∧ (i 1 : ℕ) < 0 + 256); omega
    · change (0 ≤ (i 2 : ℕ) ∧ (i 2 : ℕ) < 0 + 1024); omega

/-- The block device `c` computes itself, block `c + 1`, as the program's store addresses it. -/
abbrev rOwn (c : Dev nD) : Rect S4x256x1024 := Rect.unit (s := S4x256x1024) (k0_off24 c 1#32) S1x256x1024.size (k0_off24_inb c 0)

theorem mem_rOwn (c : Dev nD) (i : S4x256x1024.Idx) : i ∈ (rOwn c).set ↔ (i 0 : ℕ) = (c.val + 1) % 4 :=
  mem_rB _ (off24_eq c ⟨0, by decide⟩) i

/-- Its two halves make it. -/
theorem own_block_set (c : Dev nD) : (rG0f c).set ∪ (rG0t c).set = (rOwn c).set := by
  ext i
  have h1 : (i 1 : ℕ) < 256 := (i 1).isLt
  simp only [Finset.mem_union, mem_rG0f, mem_rG0t, mem_rOwn]
  omega

/-- The two halves of the own block, at one contents, are the block: join before the store, split after it. -/
theorem own_block_eq (c : Dev nD) (f : Buf (Elt F) ((c : Thread nD τ).loc cc0_scratch23)) :
    (iprop(((agS c 0 false).view.loc (c : Thread nD τ) ↦[(agS c 0 false).view.set]{fullShare} f)
        ∗ ((agS c 0 true).view.loc (c : Thread nD τ) ↦[(agS c 0 true).view.set]{fullShare} f)) : sProp 𝕄)
      = ((c : Thread nD τ).loc cc0_scratch23 ↦[(rOwn c).set]{fullShare} f) := by
  show (iprop(((c : Thread nD τ).loc cc0_scratch23 ↦[(agS c 0 false).view.set]{fullShare} f)
        ∗ ((c : Thread nD τ).loc cc0_scratch23 ↦[(agS c 0 true).view.set]{fullShare} f)) : sProp 𝕄)
      = ((c : Thread nD τ).loc cc0_scratch23 ↦[(rOwn c).set]{fullShare} f)
  rw [agS_set_0f c, agS_set_0t c, ← pts_union (agB_disj7 c)]
  have e : (rG0f c).set ∪ (rG0t c).set = (rOwn c).set := own_block_set c
  rw [e]

/-- The store's rectangle, through the whole buffer's memref, is that block. -/
theorem own_within (c : Dev nD) : ((Memref.whole cc0_scratch23 : Memref sig .tc .vmem S4x256x1024 .bf16).access (rOwn c)).set ⊆ (rOwn c).set := by
  show ((View.whole cc0_scratch23).slice _).set ⊆ _
  rw [View.set_slice_whole]
theorem own_withinOn (c : Dev nD) : (Memref.whole cc0_scratch23 : Memref sig .tc .vmem S4x256x1024 .bf16).view.setOn (rOwn c).set ⊆ (rOwn c).set := by
  show (View.whole cc0_scratch23).setOn _ ⊆ _
  rw [setOn_whole]

/-! ## The gathered result, glued

Eight sets, each disjoint from the union of the later ones, each held at contents of its own: held together at the
contents that take, at an element, the value of the set it lies in. -/

section Glue
variable {ℓ : Loc nD τ sig} (K2 K3 K4 K5 K6 K7 K8 : Finset (Idx ℓ)) (f1 f2 f3 f4 f5 f6 f7 f8 : Buf (Elt F) ℓ)

/-- The glued contents: on the last set the last contents, and so on outwards. -/
def glue8 : Buf (Elt F) ℓ :=
  (K2 ∪ (K3 ∪ (K4 ∪ (K5 ∪ (K6 ∪ (K7 ∪ K8)))))).piecewise
    ((K3 ∪ (K4 ∪ (K5 ∪ (K6 ∪ (K7 ∪ K8))))).piecewise
      ((K4 ∪ (K5 ∪ (K6 ∪ (K7 ∪ K8)))).piecewise
        ((K5 ∪ (K6 ∪ (K7 ∪ K8))).piecewise
          ((K6 ∪ (K7 ∪ K8)).piecewise
            ((K7 ∪ K8).piecewise (K8.piecewise f8 f7) f6) f5) f4) f3) f2) f1

variable {K1 : Finset (Idx ℓ)} {K2 K3 K4 K5 K6 K7 K8}
  (d1 : Disjoint K1 (K2 ∪ (K3 ∪ (K4 ∪ (K5 ∪ (K6 ∪ (K7 ∪ K8)))))))
  (d2 : Disjoint K2 (K3 ∪ (K4 ∪ (K5 ∪ (K6 ∪ (K7 ∪ K8))))))
  (d3 : Disjoint K3 (K4 ∪ (K5 ∪ (K6 ∪ (K7 ∪ K8)))))
  (d4 : Disjoint K4 (K5 ∪ (K6 ∪ (K7 ∪ K8))))
  (d5 : Disjoint K5 (K6 ∪ (K7 ∪ K8)))
  (d6 : Disjoint K6 (K7 ∪ K8))
  (d7 : Disjoint K7 K8)

include d1 d2 d3 d4 d5 d6 d7 in
theorem pts_glue8 {q : PosShare TreeShare} :
    iprop((ℓ ↦[K1]{q} f1) ∗ (ℓ ↦[K2]{q} f2) ∗ (ℓ ↦[K3]{q} f3) ∗ (ℓ ↦[K4]{q} f4) ∗ (ℓ ↦[K5]{q} f5) ∗ (ℓ ↦[K6]{q} f6) ∗ (ℓ ↦[K7]{q} f7) ∗ (ℓ ↦[K8]{q} f8))
      ⊢ (ℓ ↦[K1 ∪ (K2 ∪ (K3 ∪ (K4 ∪ (K5 ∪ (K6 ∪ (K7 ∪ K8))))))]{q} glue8 K2 K3 K4 K5 K6 K7 K8 f1 f2 f3 f4 f5 f6 f7 f8 : sProp 𝕄) := by
  have s7 := pointsTo_join (Val := Elt F) (Ix := Unit) (Name := ℕ) (U := UU) (Lvl := ℕ) (q := q) (f := f7) (g := f8) d7
  have s6 := (sep_mono_right s7).trans (pointsTo_join (Val := Elt F) (Ix := Unit) (Name := ℕ) (U := UU) (Lvl := ℕ) (q := q) (f := f6) d6)
  have s5 := (sep_mono_right s6).trans (pointsTo_join (Val := Elt F) (Ix := Unit) (Name := ℕ) (U := UU) (Lvl := ℕ) (q := q) (f := f5) d5)
  have s4 := (sep_mono_right s5).trans (pointsTo_join (Val := Elt F) (Ix := Unit) (Name := ℕ) (U := UU) (Lvl := ℕ) (q := q) (f := f4) d4)
  have s3 := (sep_mono_right s4).trans (pointsTo_join (Val := Elt F) (Ix := Unit) (Name := ℕ) (U := UU) (Lvl := ℕ) (q := q) (f := f3) d3)
  have s2 := (sep_mono_right s3).trans (pointsTo_join (Val := Elt F) (Ix := Unit) (Name := ℕ) (U := UU) (Lvl := ℕ) (q := q) (f := f2) d2)
  exact (sep_mono_right s2).trans (pointsTo_join (Val := Elt F) (Ix := Unit) (Name := ℕ) (U := UU) (Lvl := ℕ) (q := q) (f := f1) d1)

/-! The glued contents agree with each set's own contents on that set. -/

include d1 in
theorem glue8_1 {i : Idx ℓ} (hi : i ∈ K1) : glue8 K2 K3 K4 K5 K6 K7 K8 f1 f2 f3 f4 f5 f6 f7 f8 i = f1 i := by
  unfold glue8
  rw [Finset.piecewise_eq_of_notMem _ _ _ (Finset.disjoint_left.mp d1 hi)]
include d2 in
theorem glue8_2 {i : Idx ℓ} (hi : i ∈ K2) : glue8 K2 K3 K4 K5 K6 K7 K8 f1 f2 f3 f4 f5 f6 f7 f8 i = f2 i := by
  unfold glue8
  rw [Finset.piecewise_eq_of_mem _ _ _ (Finset.mem_union_left _ hi), Finset.piecewise_eq_of_notMem _ _ _ (Finset.disjoint_left.mp d2 hi)]
include d3 in
theorem glue8_3 {i : Idx ℓ} (hi : i ∈ K3) : glue8 K2 K3 K4 K5 K6 K7 K8 f1 f2 f3 f4 f5 f6 f7 f8 i = f3 i := by
  unfold glue8
  have m3 : i ∈ K3 ∪ (K4 ∪ (K5 ∪ (K6 ∪ (K7 ∪ K8)))) := Finset.mem_union_left _ hi
  rw [Finset.piecewise_eq_of_mem _ _ _ (Finset.mem_union_right _ m3), Finset.piecewise_eq_of_mem _ _ _ m3,
    Finset.piecewise_eq_of_notMem _ _ _ (Finset.disjoint_left.mp d3 hi)]
include d4 in
theorem glue8_4 {i : Idx ℓ} (hi : i ∈ K4) : glue8 K2 K3 K4 K5 K6 K7 K8 f1 f2 f3 f4 f5 f6 f7 f8 i = f4 i := by
  unfold glue8
  have m4 : i ∈ K4 ∪ (K5 ∪ (K6 ∪ (K7 ∪ K8))) := Finset.mem_union_left _ hi
  have m3 : i ∈ K3 ∪ (K4 ∪ (K5 ∪ (K6 ∪ (K7 ∪ K8)))) := Finset.mem_union_right _ m4
  rw [Finset.piecewise_eq_of_mem _ _ _ (Finset.mem_union_right _ m3), Finset.piecewise_eq_of_mem _ _ _ m3, Finset.piecewise_eq_of_mem _ _ _ m4,
    Finset.piecewise_eq_of_notMem _ _ _ (Finset.disjoint_left.mp d4 hi)]
include d5 in
theorem glue8_5 {i : Idx ℓ} (hi : i ∈ K5) : glue8 K2 K3 K4 K5 K6 K7 K8 f1 f2 f3 f4 f5 f6 f7 f8 i = f5 i := by
  unfold glue8
  have m5 : i ∈ K5 ∪ (K6 ∪ (K7 ∪ K8)) := Finset.mem_union_left _ hi
  have m4 : i ∈ K4 ∪ (K5 ∪ (K6 ∪ (K7 ∪ K8))) := Finset.mem_union_right _ m5
  have m3 : i ∈ K3 ∪ (K4 ∪ (K5 ∪ (K6 ∪ (K7 ∪ K8)))) := Finset.mem_union_right _ m4
  rw [Finset.piecewise_eq_of_mem _ _ _ (Finset.mem_union_right _ m3), Finset.piecewise_eq_of_mem _ _ _ m3, Finset.piecewise_eq_of_mem _ _ _ m4,
    Finset.piecewise_eq_of_mem _ _ _ m5, Finset.piecewise_eq_of_notMem _ _ _ (Finset.disjoint_left.mp d5 hi)]
include d6 in
theorem glue8_6 {i : Idx ℓ} (hi : i ∈ K6) : glue8 K2 K3 K4 K5 K6 K7 K8 f1 f2 f3 f4 f5 f6 f7 f8 i = f6 i := by
  unfold glue8
  have m6 : i ∈ K6 ∪ (K7 ∪ K8) := Finset.mem_union_left _ hi
  have m5 : i ∈ K5 ∪ (K6 ∪ (K7 ∪ K8)) := Finset.mem_union_right _ m6
  have m4 : i ∈ K4 ∪ (K5 ∪ (K6 ∪ (K7 ∪ K8))) := Finset.mem_union_right _ m5
  have m3 : i ∈ K3 ∪ (K4 ∪ (K5 ∪ (K6 ∪ (K7 ∪ K8)))) := Finset.mem_union_right _ m4
  rw [Finset.piecewise_eq_of_mem _ _ _ (Finset.mem_union_right _ m3), Finset.piecewise_eq_of_mem _ _ _ m3, Finset.piecewise_eq_of_mem _ _ _ m4,
    Finset.piecewise_eq_of_mem _ _ _ m5, Finset.piecewise_eq_of_mem _ _ _ m6, Finset.piecewise_eq_of_notMem _ _ _ (Finset.disjoint_left.mp d6 hi)]
include d7 in
theorem glue8_7 {i : Idx ℓ} (hi : i ∈ K7) : glue8 K2 K3 K4 K5 K6 K7 K8 f1 f2 f3 f4 f5 f6 f7 f8 i = f7 i := by
  unfold glue8
  have m7 : i ∈ K7 ∪ K8 := Finset.mem_union_left _ hi
  have m6 : i ∈ K6 ∪ (K7 ∪ K8) := Finset.mem_union_right _ m7
  have m5 : i ∈ K5 ∪ (K6 ∪ (K7 ∪ K8)) := Finset.mem_union_right _ m6
  have m4 : i ∈ K4 ∪ (K5 ∪ (K6 ∪ (K7 ∪ K8))) := Finset.mem_union_right _ m5
  have m3 : i ∈ K3 ∪ (K4 ∪ (K5 ∪ (K6 ∪ (K7 ∪ K8)))) := Finset.mem_union_right _ m4
  rw [Finset.piecewise_eq_of_mem _ _ _ (Finset.mem_union_right _ m3), Finset.piecewise_eq_of_mem _ _ _ m3, Finset.piecewise_eq_of_mem _ _ _ m4,
    Finset.piecewise_eq_of_mem _ _ _ m5, Finset.piecewise_eq_of_mem _ _ _ m6, Finset.piecewise_eq_of_mem _ _ _ m7,
    Finset.piecewise_eq_of_notMem _ _ _ (Finset.disjoint_left.mp d7 hi)]
theorem glue8_8 {i : Idx ℓ} (hi : i ∈ K8) : glue8 K2 K3 K4 K5 K6 K7 K8 f1 f2 f3 f4 f5 f6 f7 f8 i = f8 i := by
  unfold glue8
  have m7 : i ∈ K7 ∪ K8 := Finset.mem_union_right _ hi
  have m6 : i ∈ K6 ∪ (K7 ∪ K8) := Finset.mem_union_right _ m7
  have m5 : i ∈ K5 ∪ (K6 ∪ (K7 ∪ K8)) := Finset.mem_union_right _ m6
  have m4 : i ∈ K4 ∪ (K5 ∪ (K6 ∪ (K7 ∪ K8))) := Finset.mem_union_right _ m5
  have m3 : i ∈ K3 ∪ (K4 ∪ (K5 ∪ (K6 ∪ (K7 ∪ K8)))) := Finset.mem_union_right _ m4
  rw [Finset.piecewise_eq_of_mem _ _ _ (Finset.mem_union_right _ m3), Finset.piecewise_eq_of_mem _ _ _ m3, Finset.piecewise_eq_of_mem _ _ _ m4,
    Finset.piecewise_eq_of_mem _ _ _ m5, Finset.piecewise_eq_of_mem _ _ _ m6, Finset.piecewise_eq_of_mem _ _ _ m7, Finset.piecewise_eq_of_mem _ _ _ hi]

end Glue

/-! ### The gathered result of device `c` -/

section AgGlue
variable (c : Dev nD) (f1 f2 f3 f4 f5 f6 f7 f8 : Buf (Elt F) ((c : Thread nD τ).loc cc0_scratch23))

/-- The gathered result's contents glued from its eight half blocks', in the order of the split. -/
def agGlue : Buf (Elt F) ((c : Thread nD τ).loc cc0_scratch23) :=
  glue8 (ℓ := (c : Thread nD τ).loc cc0_scratch23) (rG1f (prv c)).set (rG2f (prv c)).set (rG0t (nxt c)).set (rG1t (nxt c)).set (rG2t (nxt c)).set (rG0f c).set (rG0t c).set
    f1 f2 f3 f4 f5 f6 f7 f8

/-- The eight half blocks, each at contents of its own, are the whole buffer at the glued contents. -/
theorem agB_glue :
    iprop(((agS (prv c) 0 false).view.loc (c : Thread nD τ) ↦[(agS (prv c) 0 false).view.set]{fullShare} f1)
        ∗ ((agS (prv c) 1 false).view.loc (c : Thread nD τ) ↦[(agS (prv c) 1 false).view.set]{fullShare} f2)
        ∗ ((agS (prv c) 2 false).view.loc (c : Thread nD τ) ↦[(agS (prv c) 2 false).view.set]{fullShare} f3)
        ∗ ((agS (nxt c) 0 true).view.loc (c : Thread nD τ) ↦[(agS (nxt c) 0 true).view.set]{fullShare} f4)
        ∗ ((agS (nxt c) 1 true).view.loc (c : Thread nD τ) ↦[(agS (nxt c) 1 true).view.set]{fullShare} f5)
        ∗ ((agS (nxt c) 2 true).view.loc (c : Thread nD τ) ↦[(agS (nxt c) 2 true).view.set]{fullShare} f6)
        ∗ ((agS c 0 false).view.loc (c : Thread nD τ) ↦[(agS c 0 false).view.set]{fullShare} f7)
        ∗ ((agS c 0 true).view.loc (c : Thread nD τ) ↦[(agS c 0 true).view.set]{fullShare} f8))
      ⊢ ((c : Thread nD τ).loc cc0_scratch23 ↦{fullShare} agGlue c f1 f2 f3 f4 f5 f6 f7 f8 : sProp 𝕄) := by
  show iprop(((c : Thread nD τ).loc cc0_scratch23 ↦[(agS (prv c) 0 false).view.set]{fullShare} f1)
        ∗ ((c : Thread nD τ).loc cc0_scratch23 ↦[(agS (prv c) 1 false).view.set]{fullShare} f2)
        ∗ ((c : Thread nD τ).loc cc0_scratch23 ↦[(agS (prv c) 2 false).view.set]{fullShare} f3)
        ∗ ((c : Thread nD τ).loc cc0_scratch23 ↦[(agS (nxt c) 0 true).view.set]{fullShare} f4)
        ∗ ((c : Thread nD τ).loc cc0_scratch23 ↦[(agS (nxt c) 1 true).view.set]{fullShare} f5)
        ∗ ((c : Thread nD τ).loc cc0_scratch23 ↦[(agS (nxt c) 2 true).view.set]{fullShare} f6)
        ∗ ((c : Thread nD τ).loc cc0_scratch23 ↦[(agS c 0 false).view.set]{fullShare} f7)
        ∗ ((c : Thread nD τ).loc cc0_scratch23 ↦[(agS c 0 true).view.set]{fullShare} f8))
      ⊢ ((c : Thread nD τ).loc cc0_scratch23 ↦[Finset.univ]{fullShare} agGlue c f1 f2 f3 f4 f5 f6 f7 f8 : sProp 𝕄)
  have hc : (Finset.univ : Finset (Idx ((c : Thread nD τ).loc cc0_scratch23))) = _ := agB_cover c
  rw [agS_set_0f (prv c), agS_set_1f (prv c), agS_set_2f (prv c), agS_set_0t (nxt c), agS_set_1t (nxt c), agS_set_2t (nxt c), agS_set_0f c, agS_set_0t c, hc]
  exact pts_glue8 (F := F) (ℓ := (c : Thread nD τ).loc cc0_scratch23) f1 f2 f3 f4 f5 f6 f7 f8
    (agB_disj1 c) (agB_disj2 c) (agB_disj3 c) (agB_disj4 c) (agB_disj5 c) (agB_disj6 c) (agB_disj7 c)

/-! Each half block reads from the glued contents what it read from its own. -/

theorem agGlue_read_1 : (agS (prv c) 0 false).view.read (Elt F) (agGlue c f1 f2 f3 f4 f5 f6 f7 f8) = (agS (prv c) 0 false).view.read (Elt F) f1 :=
  (agS (prv c) 0 false).view.read_congr fun i hi => glue8_1 (F := F) (ℓ := (c : Thread nD τ).loc cc0_scratch23) f1 f2 f3 f4 f5 f6 f7 f8 (agB_disj1 c) (agS_set_0f (prv c) ▸ hi)
theorem agGlue_read_2 : (agS (prv c) 1 false).view.read (Elt F) (agGlue c f1 f2 f3 f4 f5 f6 f7 f8) = (agS (prv c) 1 false).view.read (Elt F) f2 :=
  (agS (prv c) 1 false).view.read_congr fun i hi => glue8_2 (F := F) (ℓ := (c : Thread nD τ).loc cc0_scratch23) f1 f2 f3 f4 f5 f6 f7 f8 (agB_disj2 c) (agS_set_1f (prv c) ▸ hi)
theorem agGlue_read_3 : (agS (prv c) 2 false).view.read (Elt F) (agGlue c f1 f2 f3 f4 f5 f6 f7 f8) = (agS (prv c) 2 false).view.read (Elt F) f3 :=
  (agS (prv c) 2 false).view.read_congr fun i hi => glue8_3 (F := F) (ℓ := (c : Thread nD τ).loc cc0_scratch23) f1 f2 f3 f4 f5 f6 f7 f8 (agB_disj3 c) (agS_set_2f (prv c) ▸ hi)
theorem agGlue_read_4 : (agS (nxt c) 0 true).view.read (Elt F) (agGlue c f1 f2 f3 f4 f5 f6 f7 f8) = (agS (nxt c) 0 true).view.read (Elt F) f4 :=
  (agS (nxt c) 0 true).view.read_congr fun i hi => glue8_4 (F := F) (ℓ := (c : Thread nD τ).loc cc0_scratch23) f1 f2 f3 f4 f5 f6 f7 f8 (agB_disj4 c) (agS_set_0t (nxt c) ▸ hi)
theorem agGlue_read_5 : (agS (nxt c) 1 true).view.read (Elt F) (agGlue c f1 f2 f3 f4 f5 f6 f7 f8) = (agS (nxt c) 1 true).view.read (Elt F) f5 :=
  (agS (nxt c) 1 true).view.read_congr fun i hi => glue8_5 (F := F) (ℓ := (c : Thread nD τ).loc cc0_scratch23) f1 f2 f3 f4 f5 f6 f7 f8 (agB_disj5 c) (agS_set_1t (nxt c) ▸ hi)
theorem agGlue_read_6 : (agS (nxt c) 2 true).view.read (Elt F) (agGlue c f1 f2 f3 f4 f5 f6 f7 f8) = (agS (nxt c) 2 true).view.read (Elt F) f6 :=
  (agS (nxt c) 2 true).view.read_congr fun i hi => glue8_6 (F := F) (ℓ := (c : Thread nD τ).loc cc0_scratch23) f1 f2 f3 f4 f5 f6 f7 f8 (agB_disj6 c) (agS_set_2t (nxt c) ▸ hi)
theorem agGlue_read_7 : (agS c 0 false).view.read (Elt F) (agGlue c f1 f2 f3 f4 f5 f6 f7 f8) = (agS c 0 false).view.read (Elt F) f7 :=
  (agS c 0 false).view.read_congr fun i hi => glue8_7 (F := F) (ℓ := (c : Thread nD τ).loc cc0_scratch23) f1 f2 f3 f4 f5 f6 f7 f8 (agB_disj7 c) (agS_set_0f c ▸ hi)
theorem agGlue_read_8 : (agS c 0 true).view.read (Elt F) (agGlue c f1 f2 f3 f4 f5 f6 f7 f8) = (agS c 0 true).view.read (Elt F) f8 :=
  (agS c 0 true).view.read_congr fun i hi => glue8_8 (F := F) (ℓ := (c : Thread nD τ).loc cc0_scratch23) f1 f2 f3 f4 f5 f6 f7 f8 (agS_set_0t c ▸ hi)

end AgGlue

end Cert.KernelIdeal.Proto

end
-- ==== Proof.Exit.lean ====
/-
  The exit: from the slices and parts a device holds at the end of its body back to its scratch buffers whole, each at
  some contents, and to what the body hands back.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.Split
import proofs.«900754_g7700000000000755_dist_attn_cross_gqa_kvseq_b4_sq256_skv1024_d1024_hq8_dh128_v7x_i4_f32_1_alg».proof.Proof.Unfold
import proofs.«900754_g7700000000000755_dist_attn_cross_gqa_kvseq_b4_sq256_skv1024_d1024_hq8_dh128_v7x_i4_f32_1_alg».proof.Proof.Gen.KernelIdeal.Launch

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Forgetting the contents; a whole buffer through its memref -/

/-- A slice held at known contents is held at some contents. -/
theorem heldAs_held {sp : Space} {s : Shape} {e : EltTy} (c : Dev nD) (mr : Memref sig .tc sp s e) (w : s.Idx → Elt F e) :
    heldAs c mr w ⊢ held c mr := by
  unfold heldAs held
  iintro ⟨%f, H, %hw⟩
  iexists f
  iexact H

/-- A whole buffer's points-to, spelt through the whole buffer's memref: every element, at the same location. -/
theorem whole_pts (c : Dev nD) (b : Ref sig .tc) (f : Buf (Elt F) ((c : Thread nD τ).loc b)) :
    ((c : Thread nD τ).loc b ↦{fullShare} f : sProp 𝕄)
      = ((Memref.whole b).view.loc (c : Thread nD τ) ↦[(Memref.whole b).view.set]{fullShare} f) := by
  show ((c : Thread nD τ).loc b ↦[Finset.univ]{fullShare} f : sProp 𝕄) = ((c : Thread nD τ).loc b ↦[(View.whole b).set]{fullShare} f)
  rw [View.set_whole]
/-- The same at some contents: a whole buffer's memref held is the buffer whole at some contents. -/
theorem held_whole (c : Dev nD) (b : Ref sig .tc) :
    held (F := F) c (Memref.whole b) = iprop(∃ f : Buf (Elt F) ((c : Thread nD τ).loc b), (c : Thread nD τ).loc b ↦{fullShare} f) := by
  show iprop(∃ f : Buf (Elt F) ((c : Thread nD τ).loc b), (c : Thread nD τ).loc b ↦[(View.whole b).set]{fullShare} f) = _
  rw [View.set_whole]
theorem whole_ex (c : Dev nD) (b : Ref sig .tc) :
    (iprop(∃ f : Buf (Elt F) ((c : Thread nD τ).loc b), (Memref.whole b).view.loc (c : Thread nD τ) ↦[(Memref.whole b).view.set]{fullShare} f) : sProp 𝕄)
      = iprop(∃ f : Buf (Elt F) ((c : Thread nD τ).loc b), (c : Thread nD τ).loc b ↦{fullShare} f) :=
  held_whole c b

/-! ## The partial sums joined again -/

/-- Two disjoint element sets and everything else, each at contents of its own, make the whole buffer at some contents. -/
theorem pts_join3_ex {ℓ : Loc nD τ sig} {A B : Finset (Idx ℓ)} {q : PosShare TreeShare} (h : Disjoint A B) :
    iprop((∃ f : Buf (Elt F) ℓ, ℓ ↦[A]{q} f) ∗ (∃ g : Buf (Elt F) ℓ, ℓ ↦[B]{q} g) ∗ (∃ k : Buf (Elt F) ℓ, ℓ ↦[Finset.univ \ (A ∪ B)]{q} k))
      ⊢ (iprop(∃ f : Buf (Elt F) ℓ, ℓ ↦{q} f) : sProp 𝕄) := by
  have d2 : Disjoint B (Finset.univ \ (A ∪ B)) :=
    Finset.disjoint_left.mpr fun i hb hr => (Finset.mem_sdiff.mp hr).2 (Finset.mem_union_right _ hb)
  have d1 : Disjoint A (B ∪ (Finset.univ \ (A ∪ B))) :=
    Finset.disjoint_union_right.mpr ⟨h, Finset.disjoint_left.mpr fun i ha hr => (Finset.mem_sdiff.mp hr).2 (Finset.mem_union_left _ ha)⟩
  have e : A ∪ (B ∪ (Finset.univ \ (A ∪ B))) = Finset.univ := by
    ext i
    simp only [Finset.mem_union, Finset.mem_sdiff, Finset.mem_univ, true_and, iff_true]
    tauto
  exact ((sep_mono_right (pts_join_ex (F := F) (ℓ := ℓ) (q := q) d2)).trans (pts_join_ex (F := F) (ℓ := ℓ) (q := q) d1)).trans (Entails.of_eq (by rw [e]))

theorem locO_join (c : Dev nD) :
    iprop(held c (srcO c 0 false) ∗ held c (srcO c 0 true)
        ∗ (∃ k : Buf (Elt F) ((c : Thread nD τ).loc cc0_scratch0), (c : Thread nD τ).loc cc0_scratch0 ↦[Finset.univ \ ((srcO c 0 false).view.set ∪ (srcO c 0 true).view.set)]{fullShare} k))
      ⊢ (iprop(∃ f : Buf (Elt F) ((c : Thread nD τ).loc cc0_scratch0), (c : Thread nD τ).loc cc0_scratch0 ↦{fullShare} f) : sProp 𝕄) := by
  show iprop((∃ f : Buf (Elt F) ((c : Thread nD τ).loc cc0_scratch0), (c : Thread nD τ).loc cc0_scratch0 ↦[(srcO c 0 false).view.set]{fullShare} f)
        ∗ (∃ g : Buf (Elt F) ((c : Thread nD τ).loc cc0_scratch0), (c : Thread nD τ).loc cc0_scratch0 ↦[(srcO c 0 true).view.set]{fullShare} g)
        ∗ (∃ k : Buf (Elt F) ((c : Thread nD τ).loc cc0_scratch0), (c : Thread nD τ).loc cc0_scratch0 ↦[Finset.univ \ ((srcO c 0 false).view.set ∪ (srcO c 0 true).view.set)]{fullShare} k))
      ⊢ (iprop(∃ f : Buf (Elt F) ((c : Thread nD τ).loc cc0_scratch0), (c : Thread nD τ).loc cc0_scratch0 ↦{fullShare} f) : sProp 𝕄)
  rw [srcO_set_f, srcO_set_t]
  exact pts_join3_ex (F := F) (ℓ := (c : Thread nD τ).loc cc0_scratch0) (q := fullShare) (rSO_disj c)

theorem locL_join (c : Dev nD) :
    iprop(held c (srcL c 0 false) ∗ held c (srcL c 0 true)
        ∗ (∃ k : Buf (Elt F) ((c : Thread nD τ).loc cc0_scratch1), (c : Thread nD τ).loc cc0_scratch1 ↦[Finset.univ \ ((srcL c 0 false).view.set ∪ (srcL c 0 true).view.set)]{fullShare} k))
      ⊢ (iprop(∃ f : Buf (Elt F) ((c : Thread nD τ).loc cc0_scratch1), (c : Thread nD τ).loc cc0_scratch1 ↦{fullShare} f) : sProp 𝕄) := by
  show iprop((∃ f : Buf (Elt F) ((c : Thread nD τ).loc cc0_scratch1), (c : Thread nD τ).loc cc0_scratch1 ↦[(srcL c 0 false).view.set]{fullShare} f)
        ∗ (∃ g : Buf (Elt F) ((c : Thread nD τ).loc cc0_scratch1), (c : Thread nD τ).loc cc0_scratch1 ↦[(srcL c 0 true).view.set]{fullShare} g)
        ∗ (∃ k : Buf (Elt F) ((c : Thread nD τ).loc cc0_scratch1), (c : Thread nD τ).loc cc0_scratch1 ↦[Finset.univ \ ((srcL c 0 false).view.set ∪ (srcL c 0 true).view.set)]{fullShare} k))
      ⊢ (iprop(∃ f : Buf (Elt F) ((c : Thread nD τ).loc cc0_scratch1), (c : Thread nD τ).loc cc0_scratch1 ↦{fullShare} f) : sProp 𝕄)
  rw [srcL_set_f, srcL_set_t]
  exact pts_join3_ex (F := F) (ℓ := (c : Thread nD τ).loc cc0_scratch1) (q := fullShare) (rSL_disj c)

/-! ## The eleven scratch buffers -/

/-- A scratch buffer whole at some contents. -/
abbrev wholeEx (c : Dev nD) (b : Ref sig .tc) : sProp 𝕄 :=
  iprop(∃ f : Buf (Elt F) ((c : Thread nD τ).loc b), (c : Thread nD τ).loc b ↦{fullShare} f)

/-- The scratch buffers from what the device holds at the end: the partial sums and the six other buffers whole, the three
    ring buffers as the protocol's slices; one group per buffer, in the buffers' order. -/
theorem scratch_intro (c : Dev nD) :
    iprop(wholeEx c cc0_scratch0 ∗ wholeEx c cc0_scratch1
        ∗ (held c (dstO 0 false) ∗ held c (dstO 0 true) ∗ held c (dstO 1 false) ∗ held c (dstO 1 true) ∗ held c (dstO 2 false) ∗ held c (dstO 2 true))
        ∗ (held c (dstL 0 false) ∗ held c (dstL 0 true) ∗ held c (dstL 1 false) ∗ held c (dstL 1 true) ∗ held c (dstL 2 false) ∗ held c (dstL 2 true))
        ∗ wholeEx c cc0_scratch4 ∗ wholeEx c cc0_scratch5 ∗ wholeEx c cc0_scratch6 ∗ wholeEx c cc0_scratch7 ∗ wholeEx c cc0_scratch8 ∗ wholeEx c cc0_scratch9
        ∗ (held c (agS (prv c) 0 false) ∗ held c (agS (prv c) 1 false) ∗ held c (agS (prv c) 2 false)
            ∗ held c (agS (nxt c) 0 true) ∗ held c (agS (nxt c) 1 true) ∗ held c (agS (nxt c) 2 true) ∗ held c (agS c 0 false) ∗ held c (agS c 0 true)))
      ⊢ scratch (F := F) c := by
  unfold scratch
  rw [scopedRest0_eq]
  exact sep_mono_right (sep_mono_right (BI.sep_mono (rsO_join c) (BI.sep_mono (rsL_join c)
    (sep_mono_right (sep_mono_right (sep_mono_right (sep_mono_right (sep_mono_right (sep_mono_right (agB_join c))))))))))

/-- The same with the partial sums as the two lent blocks and the rest, each at contents of its own. -/
theorem scratch_intro_lent (c : Dev nD) :
    iprop((held c (srcO c 0 false) ∗ held c (srcO c 0 true)
            ∗ (∃ k : Buf (Elt F) ((c : Thread nD τ).loc cc0_scratch0), (c : Thread nD τ).loc cc0_scratch0 ↦[Finset.univ \ ((srcO c 0 false).view.set ∪ (srcO c 0 true).view.set)]{fullShare} k))
        ∗ (held c (srcL c 0 false) ∗ held c (srcL c 0 true)
            ∗ (∃ k : Buf (Elt F) ((c : Thread nD τ).loc cc0_scratch1), (c : Thread nD τ).loc cc0_scratch1 ↦[Finset.univ \ ((srcL c 0 false).view.set ∪ (srcL c 0 true).view.set)]{fullShare} k))
        ∗ (held c (dstO 0 false) ∗ held c (dstO 0 true) ∗ held c (dstO 1 false) ∗ held c (dstO 1 true) ∗ held c (dstO 2 false) ∗ held c (dstO 2 true))
        ∗ (held c (dstL 0 false) ∗ held c (dstL 0 true) ∗ held c (dstL 1 false) ∗ held c (dstL 1 true) ∗ held c (dstL 2 false) ∗ held c (dstL 2 true))
        ∗ wholeEx c cc0_scratch4 ∗ wholeEx c cc0_scratch5 ∗ wholeEx c cc0_scratch6 ∗ wholeEx c cc0_scratch7 ∗ wholeEx c cc0_scratch8 ∗ wholeEx c cc0_scratch9
        ∗ (held c (agS (prv c) 0 false) ∗ held c (agS (prv c) 1 false) ∗ held c (agS (prv c) 2 false)
            ∗ held c (agS (nxt c) 0 true) ∗ held c (agS (nxt c) 1 true) ∗ held c (agS (nxt c) 2 true) ∗ held c (agS c 0 false) ∗ held c (agS c 0 true)))
      ⊢ scratch (F := F) c :=
  (BI.sep_mono (locO_join c) (sep_mono_left (locL_join c))).trans (scratch_intro c)

/-- The same with every slice a factor of its own: twenty-eight factors, the buffers' order, no grouping. -/
theorem scratch_intro_flat (c : Dev nD) :
    iprop(wholeEx c cc0_scratch0 ∗ wholeEx c cc0_scratch1
        ∗ held c (dstO 0 false) ∗ held c (dstO 0 true) ∗ held c (dstO 1 false) ∗ held c (dstO 1 true) ∗ held c (dstO 2 false) ∗ held c (dstO 2 true)
        ∗ held c (dstL 0 false) ∗ held c (dstL 0 true) ∗ held c (dstL 1 false) ∗ held c (dstL 1 true) ∗ held c (dstL 2 false) ∗ held c (dstL 2 true)
        ∗ wholeEx c cc0_scratch4 ∗ wholeEx c cc0_scratch5 ∗ wholeEx c cc0_scratch6 ∗ wholeEx c cc0_scratch7 ∗ wholeEx c cc0_scratch8 ∗ wholeEx c cc0_scratch9
        ∗ held c (agS (prv c) 0 false) ∗ held c (agS (prv c) 1 false) ∗ held c (agS (prv c) 2 false)
        ∗ held c (agS (nxt c) 0 true) ∗ held c (agS (nxt c) 1 true) ∗ held c (agS (nxt c) 2 true) ∗ held c (agS c 0 false) ∗ held c (agS c 0 true))
      ⊢ scratch (F := F) c := by
  iintro ⟨A0, A1, O1, O2, O3, O4, O5, O6, L1, L2, L3, L4, L5, L6, A4, A5, A6, A7, A8, A9, G1, G2, G3, G4, G5, G6, G7, G8⟩
  iapply (scratch_intro c)
  isplitl [A0]; · iexact A0
  isplitl [A1]; · iexact A1
  isplitl [O1 O2 O3 O4 O5 O6]
  · isplitl [O1]; · iexact O1
    isplitl [O2]; · iexact O2
    isplitl [O3]; · iexact O3
    isplitl [O4]; · iexact O4
    isplitl [O5]; · iexact O5
    iexact O6
  isplitl [L1 L2 L3 L4 L5 L6]
  · isplitl [L1]; · iexact L1
    isplitl [L2]; · iexact L2
    isplitl [L3]; · iexact L3
    isplitl [L4]; · iexact L4
    isplitl [L5]; · iexact L5
    iexact L6
  isplitl [A4]; · iexact A4
  isplitl [A5]; · iexact A5
  isplitl [A6]; · iexact A6
  isplitl [A7]; · iexact A7
  isplitl [A8]; · iexact A8
  isplitl [A9]; · iexact A9
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

/-! ## What the body hands back -/

variable (m : (ℓ : Loc nD τ sig) → Buf (Elt F) ℓ)

theorem phi1_intro (c : Dev nD) :
    iprop(scratch c ∗ copySems0 c ∗ hbm m c
        ∗ bigSep Finset.univ fun x : Xfer => iprop(semVal (sendCell c x.1 x.2.1 x.2.2) 0 ∗ semVal (recvCell c x.1 x.2.1 x.2.2) 0))
      ⊢ Φ₁ m c := by
  unfold Φ₁; exact .rfl

/-- The same with the eighteen transfers' semaphores written out, in the order the body enqueues the transfers. -/
theorem phi1_intro_list (c : Dev nD) :
    iprop(scratch c ∗ copySems0 c ∗ hbm m c
        ∗ ((semVal (sendCell c .o false 0) 0 ∗ semVal (recvCell c .o false 0) 0) ∗ (semVal (sendCell c .l false 0) 0 ∗ semVal (recvCell c .l false 0) 0)
          ∗ (semVal (sendCell c .o true 0) 0 ∗ semVal (recvCell c .o true 0) 0) ∗ (semVal (sendCell c .l true 0) 0 ∗ semVal (recvCell c .l true 0) 0)
          ∗ (semVal (sendCell c .o false 1) 0 ∗ semVal (recvCell c .o false 1) 0) ∗ (semVal (sendCell c .o true 1) 0 ∗ semVal (recvCell c .o true 1) 0)
          ∗ (semVal (sendCell c .l false 1) 0 ∗ semVal (recvCell c .l false 1) 0) ∗ (semVal (sendCell c .l true 1) 0 ∗ semVal (recvCell c .l true 1) 0)
          ∗ (semVal (sendCell c .o false 2) 0 ∗ semVal (recvCell c .o false 2) 0) ∗ (semVal (sendCell c .o true 2) 0 ∗ semVal (recvCell c .o true 2) 0)
          ∗ (semVal (sendCell c .l false 2) 0 ∗ semVal (recvCell c .l false 2) 0) ∗ (semVal (sendCell c .l true 2) 0 ∗ semVal (recvCell c .l true 2) 0)
          ∗ (semVal (sendCell c .g false 0) 0 ∗ semVal (recvCell c .g false 0) 0) ∗ (semVal (sendCell c .g true 0) 0 ∗ semVal (recvCell c .g true 0) 0)
          ∗ (semVal (sendCell c .g false 1) 0 ∗ semVal (recvCell c .g false 1) 0) ∗ (semVal (sendCell c .g true 1) 0 ∗ semVal (recvCell c .g true 1) 0)
          ∗ (semVal (sendCell c .g false 2) 0 ∗ semVal (recvCell c .g false 2) 0) ∗ (semVal (sendCell c .g true 2) 0 ∗ semVal (recvCell c .g true 2) 0)))
      ⊢ Φ₁ m c := by
  unfold Φ₁
  rw [bigSep_xfer]

end Cert.KernelIdeal.Proto

end
-- ==== Proof.KvSplit.lean ====
/-
  The key and value planes: the buffer the sixteen local copies fill, cut into the sixteen planes they write, one per
  copy, in the order the copies are issued.
-/
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Split

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The buffer of key planes (first axis 0) and value planes (first axis 1), eight of each: two per batch. -/
abbrev kvB : Memref sig .tc .vmem S2x8x1024x128 .f32 := Memref.whole cc0_scratch5

/-- Plane `r` of the keys (`a = 0`) or of the values (`a = 1`), as a local copy names its destination. -/
def kvS : Fin 2 → Fin 8 → Memref sig .tc .vmem S1024x128 .f32
  | 0, 0 => (kvB.slice (Rect.unit (s := S2x8x1024x128) ![0, 0, 0, 0] S1x1x1024x128.size inb_S2x8x1024x128_S1x1x1024x128_0_0_0_0) (fun _ => rfl)).squeeze S1024x128 squeezes_S1x1x1024x128_S1024x128
  | 1, 0 => (kvB.slice (Rect.unit (s := S2x8x1024x128) ![1, 0, 0, 0] S1x1x1024x128.size inb_S2x8x1024x128_S1x1x1024x128_1_0_0_0) (fun _ => rfl)).squeeze S1024x128 squeezes_S1x1x1024x128_S1024x128
  | 0, 1 => (kvB.slice (Rect.unit (s := S2x8x1024x128) ![0, 1, 0, 0] S1x1x1024x128.size inb_S2x8x1024x128_S1x1x1024x128_0_1_0_0) (fun _ => rfl)).squeeze S1024x128 squeezes_S1x1x1024x128_S1024x128
  | 1, 1 => (kvB.slice (Rect.unit (s := S2x8x1024x128) ![1, 1, 0, 0] S1x1x1024x128.size inb_S2x8x1024x128_S1x1x1024x128_1_1_0_0) (fun _ => rfl)).squeeze S1024x128 squeezes_S1x1x1024x128_S1024x128
  | 0, 2 => (kvB.slice (Rect.unit (s := S2x8x1024x128) ![0, 2, 0, 0] S1x1x1024x128.size inb_S2x8x1024x128_S1x1x1024x128_0_2_0_0) (fun _ => rfl)).squeeze S1024x128 squeezes_S1x1x1024x128_S1024x128
  | 1, 2 => (kvB.slice (Rect.unit (s := S2x8x1024x128) ![1, 2, 0, 0] S1x1x1024x128.size inb_S2x8x1024x128_S1x1x1024x128_1_2_0_0) (fun _ => rfl)).squeeze S1024x128 squeezes_S1x1x1024x128_S1024x128
  | 0, 3 => (kvB.slice (Rect.unit (s := S2x8x1024x128) ![0, 3, 0, 0] S1x1x1024x128.size inb_S2x8x1024x128_S1x1x1024x128_0_3_0_0) (fun _ => rfl)).squeeze S1024x128 squeezes_S1x1x1024x128_S1024x128
  | 1, 3 => (kvB.slice (Rect.unit (s := S2x8x1024x128) ![1, 3, 0, 0] S1x1x1024x128.size inb_S2x8x1024x128_S1x1x1024x128_1_3_0_0) (fun _ => rfl)).squeeze S1024x128 squeezes_S1x1x1024x128_S1024x128
  | 0, 4 => (kvB.slice (Rect.unit (s := S2x8x1024x128) ![0, 4, 0, 0] S1x1x1024x128.size inb_S2x8x1024x128_S1x1x1024x128_0_4_0_0) (fun _ => rfl)).squeeze S1024x128 squeezes_S1x1x1024x128_S1024x128
  | 1, 4 => (kvB.slice (Rect.unit (s := S2x8x1024x128) ![1, 4, 0, 0] S1x1x1024x128.size inb_S2x8x1024x128_S1x1x1024x128_1_4_0_0) (fun _ => rfl)).squeeze S1024x128 squeezes_S1x1x1024x128_S1024x128
  | 0, 5 => (kvB.slice (Rect.unit (s := S2x8x1024x128) ![0, 5, 0, 0] S1x1x1024x128.size inb_S2x8x1024x128_S1x1x1024x128_0_5_0_0) (fun _ => rfl)).squeeze S1024x128 squeezes_S1x1x1024x128_S1024x128
  | 1, 5 => (kvB.slice (Rect.unit (s := S2x8x1024x128) ![1, 5, 0, 0] S1x1x1024x128.size inb_S2x8x1024x128_S1x1x1024x128_1_5_0_0) (fun _ => rfl)).squeeze S1024x128 squeezes_S1x1x1024x128_S1024x128
  | 0, 6 => (kvB.slice (Rect.unit (s := S2x8x1024x128) ![0, 6, 0, 0] S1x1x1024x128.size inb_S2x8x1024x128_S1x1x1024x128_0_6_0_0) (fun _ => rfl)).squeeze S1024x128 squeezes_S1x1x1024x128_S1024x128
  | 1, 6 => (kvB.slice (Rect.unit (s := S2x8x1024x128) ![1, 6, 0, 0] S1x1x1024x128.size inb_S2x8x1024x128_S1x1x1024x128_1_6_0_0) (fun _ => rfl)).squeeze S1024x128 squeezes_S1x1x1024x128_S1024x128
  | 0, 7 => (kvB.slice (Rect.unit (s := S2x8x1024x128) ![0, 7, 0, 0] S1x1x1024x128.size inb_S2x8x1024x128_S1x1x1024x128_0_7_0_0) (fun _ => rfl)).squeeze S1024x128 squeezes_S1x1x1024x128_S1024x128
  | 1, 7 => (kvB.slice (Rect.unit (s := S2x8x1024x128) ![1, 7, 0, 0] S1x1x1024x128.size inb_S2x8x1024x128_S1x1x1024x128_1_7_0_0) (fun _ => rfl)).squeeze S1024x128 squeezes_S1x1x1024x128_S1024x128

/-! ## The planes as rectangles -/

theorem kv_inb (a r : ℕ) (h : a < 2 ∧ r < 8) : ∀ x, (![a, r, 0, 0] : Fin 4 → ℕ) x + S1x1x1024x128.size x ≤ S2x8x1024x128.size x := by
  intro x
  fin_cases x
  · change a + 1 ≤ 2; omega
  · change r + 1 ≤ 8; omega
  · change 0 + 1024 ≤ 1024; omega
  · change 0 + 128 ≤ 128; omega

/-- Plane `(a, r)` as a rectangle of the buffer. -/
abbrev kvR (a r : ℕ) (h : a < 2 ∧ r < 8 := by decide) : Rect S2x8x1024x128 := Rect.unit (s := S2x8x1024x128) ![a, r, 0, 0] S1x1x1024x128.size (kv_inb a r h)

theorem mem_kvR (a r : ℕ) (h : a < 2 ∧ r < 8) (i : S2x8x1024x128.Idx) : i ∈ (kvR a r h).set ↔ (i 0 : ℕ) = a ∧ (i 1 : ℕ) = r := by
  rw [Rect.mem_set_unit]
  have h2 : (i 2 : ℕ) < 1024 := (i 2).isLt
  have h3 : (i 3 : ℕ) < 128 := (i 3).isLt
  constructor
  · intro hh
    have e0 := hh 0
    have e1 := hh 1
    change (a ≤ (i 0 : ℕ) ∧ (i 0 : ℕ) < a + 1) at e0
    change (r ≤ (i 1 : ℕ) ∧ (i 1 : ℕ) < r + 1) at e1
    omega
  · rintro ⟨e0, e1⟩ x
    fin_cases x
    · change (a ≤ (i 0 : ℕ) ∧ (i 0 : ℕ) < a + 1); omega
    · change (r ≤ (i 1 : ℕ) ∧ (i 1 : ℕ) < r + 1); omega
    · change (0 ≤ (i 2 : ℕ) ∧ (i 2 : ℕ) < 0 + 1024); omega
    · change (0 ≤ (i 3 : ℕ) ∧ (i 3 : ℕ) < 0 + 128); omega

theorem kvS_set_0_0 : (kvS 0 0).view.set = (kvR 0 0).set := by
  unfold kvS; simp only [Memref.view_squeeze, Memref.view_slice, Memref.view_whole, View.set_reshape, View.set_slice_whole]
theorem kvS_set_1_0 : (kvS 1 0).view.set = (kvR 1 0).set := by
  unfold kvS; simp only [Memref.view_squeeze, Memref.view_slice, Memref.view_whole, View.set_reshape, View.set_slice_whole]
theorem kvS_set_0_1 : (kvS 0 1).view.set = (kvR 0 1).set := by
  unfold kvS; simp only [Memref.view_squeeze, Memref.view_slice, Memref.view_whole, View.set_reshape, View.set_slice_whole]
theorem kvS_set_1_1 : (kvS 1 1).view.set = (kvR 1 1).set := by
  unfold kvS; simp only [Memref.view_squeeze, Memref.view_slice, Memref.view_whole, View.set_reshape, View.set_slice_whole]
theorem kvS_set_0_2 : (kvS 0 2).view.set = (kvR 0 2).set := by
  unfold kvS; simp only [Memref.view_squeeze, Memref.view_slice, Memref.view_whole, View.set_reshape, View.set_slice_whole]
theorem kvS_set_1_2 : (kvS 1 2).view.set = (kvR 1 2).set := by
  unfold kvS; simp only [Memref.view_squeeze, Memref.view_slice, Memref.view_whole, View.set_reshape, View.set_slice_whole]
theorem kvS_set_0_3 : (kvS 0 3).view.set = (kvR 0 3).set := by
  unfold kvS; simp only [Memref.view_squeeze, Memref.view_slice, Memref.view_whole, View.set_reshape, View.set_slice_whole]
theorem kvS_set_1_3 : (kvS 1 3).view.set = (kvR 1 3).set := by
  unfold kvS; simp only [Memref.view_squeeze, Memref.view_slice, Memref.view_whole, View.set_reshape, View.set_slice_whole]
theorem kvS_set_0_4 : (kvS 0 4).view.set = (kvR 0 4).set := by
  unfold kvS; simp only [Memref.view_squeeze, Memref.view_slice, Memref.view_whole, View.set_reshape, View.set_slice_whole]
theorem kvS_set_1_4 : (kvS 1 4).view.set = (kvR 1 4).set := by
  unfold kvS; simp only [Memref.view_squeeze, Memref.view_slice, Memref.view_whole, View.set_reshape, View.set_slice_whole]
theorem kvS_set_0_5 : (kvS 0 5).view.set = (kvR 0 5).set := by
  unfold kvS; simp only [Memref.view_squeeze, Memref.view_slice, Memref.view_whole, View.set_reshape, View.set_slice_whole]
theorem kvS_set_1_5 : (kvS 1 5).view.set = (kvR 1 5).set := by
  unfold kvS; simp only [Memref.view_squeeze, Memref.view_slice, Memref.view_whole, View.set_reshape, View.set_slice_whole]
theorem kvS_set_0_6 : (kvS 0 6).view.set = (kvR 0 6).set := by
  unfold kvS; simp only [Memref.view_squeeze, Memref.view_slice, Memref.view_whole, View.set_reshape, View.set_slice_whole]
theorem kvS_set_1_6 : (kvS 1 6).view.set = (kvR 1 6).set := by
  unfold kvS; simp only [Memref.view_squeeze, Memref.view_slice, Memref.view_whole, View.set_reshape, View.set_slice_whole]
theorem kvS_set_0_7 : (kvS 0 7).view.set = (kvR 0 7).set := by
  unfold kvS; simp only [Memref.view_squeeze, Memref.view_slice, Memref.view_whole, View.set_reshape, View.set_slice_whole]
theorem kvS_set_1_7 : (kvS 1 7).view.set = (kvR 1 7).set := by
  unfold kvS; simp only [Memref.view_squeeze, Memref.view_slice, Memref.view_whole, View.set_reshape, View.set_slice_whole]

/-! ## The sixteen planes cover the buffer, in the order the copies are issued: plane by plane, keys then values -/

abbrev kvT16 : Finset S2x8x1024x128.Idx := (kvR 1 7).set
abbrev kvT15 : Finset S2x8x1024x128.Idx := (kvR 0 7).set ∪ kvT16
abbrev kvT14 : Finset S2x8x1024x128.Idx := (kvR 1 6).set ∪ kvT15
abbrev kvT13 : Finset S2x8x1024x128.Idx := (kvR 0 6).set ∪ kvT14
abbrev kvT12 : Finset S2x8x1024x128.Idx := (kvR 1 5).set ∪ kvT13
abbrev kvT11 : Finset S2x8x1024x128.Idx := (kvR 0 5).set ∪ kvT12
abbrev kvT10 : Finset S2x8x1024x128.Idx := (kvR 1 4).set ∪ kvT11
abbrev kvT9 : Finset S2x8x1024x128.Idx := (kvR 0 4).set ∪ kvT10
abbrev kvT8 : Finset S2x8x1024x128.Idx := (kvR 1 3).set ∪ kvT9
abbrev kvT7 : Finset S2x8x1024x128.Idx := (kvR 0 3).set ∪ kvT8
abbrev kvT6 : Finset S2x8x1024x128.Idx := (kvR 1 2).set ∪ kvT7
abbrev kvT5 : Finset S2x8x1024x128.Idx := (kvR 0 2).set ∪ kvT6
abbrev kvT4 : Finset S2x8x1024x128.Idx := (kvR 1 1).set ∪ kvT5
abbrev kvT3 : Finset S2x8x1024x128.Idx := (kvR 0 1).set ∪ kvT4
abbrev kvT2 : Finset S2x8x1024x128.Idx := (kvR 1 0).set ∪ kvT3
abbrev kvT1 : Finset S2x8x1024x128.Idx := (kvR 0 0).set ∪ kvT2

theorem kv_cover : (Finset.univ : Finset S2x8x1024x128.Idx) = kvT1 := by
  ext i
  have h0 : (i 0 : ℕ) < 2 := (i 0).isLt
  have h1 : (i 1 : ℕ) < 8 := (i 1).isLt
  simp only [Finset.mem_univ, true_iff, Finset.mem_union, mem_kvR]
  omega

theorem kv_disj1 : Disjoint (kvR 0 0).set kvT2 := Finset.disjoint_left.mpr fun i hi hj => by simp only [Finset.mem_union, mem_kvR] at hi hj; omega
theorem kv_disj2 : Disjoint (kvR 1 0).set kvT3 := Finset.disjoint_left.mpr fun i hi hj => by simp only [Finset.mem_union, mem_kvR] at hi hj; omega
theorem kv_disj3 : Disjoint (kvR 0 1).set kvT4 := Finset.disjoint_left.mpr fun i hi hj => by simp only [Finset.mem_union, mem_kvR] at hi hj; omega
theorem kv_disj4 : Disjoint (kvR 1 1).set kvT5 := Finset.disjoint_left.mpr fun i hi hj => by simp only [Finset.mem_union, mem_kvR] at hi hj; omega
theorem kv_disj5 : Disjoint (kvR 0 2).set kvT6 := Finset.disjoint_left.mpr fun i hi hj => by simp only [Finset.mem_union, mem_kvR] at hi hj; omega
theorem kv_disj6 : Disjoint (kvR 1 2).set kvT7 := Finset.disjoint_left.mpr fun i hi hj => by simp only [Finset.mem_union, mem_kvR] at hi hj; omega
theorem kv_disj7 : Disjoint (kvR 0 3).set kvT8 := Finset.disjoint_left.mpr fun i hi hj => by simp only [Finset.mem_union, mem_kvR] at hi hj; omega
theorem kv_disj8 : Disjoint (kvR 1 3).set kvT9 := Finset.disjoint_left.mpr fun i hi hj => by simp only [Finset.mem_union, mem_kvR] at hi hj; omega
theorem kv_disj9 : Disjoint (kvR 0 4).set kvT10 := Finset.disjoint_left.mpr fun i hi hj => by simp only [Finset.mem_union, mem_kvR] at hi hj; omega
theorem kv_disj10 : Disjoint (kvR 1 4).set kvT11 := Finset.disjoint_left.mpr fun i hi hj => by simp only [Finset.mem_union, mem_kvR] at hi hj; omega
theorem kv_disj11 : Disjoint (kvR 0 5).set kvT12 := Finset.disjoint_left.mpr fun i hi hj => by simp only [Finset.mem_union, mem_kvR] at hi hj; omega
theorem kv_disj12 : Disjoint (kvR 1 5).set kvT13 := Finset.disjoint_left.mpr fun i hi hj => by simp only [Finset.mem_union, mem_kvR] at hi hj; omega
theorem kv_disj13 : Disjoint (kvR 0 6).set kvT14 := Finset.disjoint_left.mpr fun i hi hj => by simp only [Finset.mem_union, mem_kvR] at hi hj; omega
theorem kv_disj14 : Disjoint (kvR 1 6).set kvT15 := Finset.disjoint_left.mpr fun i hi hj => by simp only [Finset.mem_union, mem_kvR] at hi hj; omega
theorem kv_disj15 : Disjoint (kvR 0 7).set kvT16 := Finset.disjoint_left.mpr fun i hi hj => by simp only [mem_kvR] at hi hj; omega

/-! ## The split and the join -/

/-- The key and value buffer of device `c`, whole, is its sixteen planes, each at the same contents. -/
theorem kv_split_eq (c : Dev nD) (f : Buf (Elt F) ((c : Thread nD τ).loc cc0_scratch5)) :
    ((c : Thread nD τ).loc cc0_scratch5 ↦{fullShare} f : sProp 𝕄) =
      iprop(((kvS 0 0).view.loc (c : Thread nD τ) ↦[(kvS 0 0).view.set]{fullShare} f) ∗ ((kvS 1 0).view.loc (c : Thread nD τ) ↦[(kvS 1 0).view.set]{fullShare} f)
        ∗ ((kvS 0 1).view.loc (c : Thread nD τ) ↦[(kvS 0 1).view.set]{fullShare} f) ∗ ((kvS 1 1).view.loc (c : Thread nD τ) ↦[(kvS 1 1).view.set]{fullShare} f)
        ∗ ((kvS 0 2).view.loc (c : Thread nD τ) ↦[(kvS 0 2).view.set]{fullShare} f) ∗ ((kvS 1 2).view.loc (c : Thread nD τ) ↦[(kvS 1 2).view.set]{fullShare} f)
        ∗ ((kvS 0 3).view.loc (c : Thread nD τ) ↦[(kvS 0 3).view.set]{fullShare} f) ∗ ((kvS 1 3).view.loc (c : Thread nD τ) ↦[(kvS 1 3).view.set]{fullShare} f)
        ∗ ((kvS 0 4).view.loc (c : Thread nD τ) ↦[(kvS 0 4).view.set]{fullShare} f) ∗ ((kvS 1 4).view.loc (c : Thread nD τ) ↦[(kvS 1 4).view.set]{fullShare} f)
        ∗ ((kvS 0 5).view.loc (c : Thread nD τ) ↦[(kvS 0 5).view.set]{fullShare} f) ∗ ((kvS 1 5).view.loc (c : Thread nD τ) ↦[(kvS 1 5).view.set]{fullShare} f)
        ∗ ((kvS 0 6).view.loc (c : Thread nD τ) ↦[(kvS 0 6).view.set]{fullShare} f) ∗ ((kvS 1 6).view.loc (c : Thread nD τ) ↦[(kvS 1 6).view.set]{fullShare} f)
        ∗ ((kvS 0 7).view.loc (c : Thread nD τ) ↦[(kvS 0 7).view.set]{fullShare} f) ∗ ((kvS 1 7).view.loc (c : Thread nD τ) ↦[(kvS 1 7).view.set]{fullShare} f)) := by
  show ((c : Thread nD τ).loc cc0_scratch5 ↦[Finset.univ]{fullShare} f : sProp 𝕄) =
      iprop(((c : Thread nD τ).loc cc0_scratch5 ↦[(kvS 0 0).view.set]{fullShare} f) ∗ ((c : Thread nD τ).loc cc0_scratch5 ↦[(kvS 1 0).view.set]{fullShare} f)
        ∗ ((c : Thread nD τ).loc cc0_scratch5 ↦[(kvS 0 1).view.set]{fullShare} f) ∗ ((c : Thread nD τ).loc cc0_scratch5 ↦[(kvS 1 1).view.set]{fullShare} f)
        ∗ ((c : Thread nD τ).loc cc0_scratch5 ↦[(kvS 0 2).view.set]{fullShare} f) ∗ ((c : Thread nD τ).loc cc0_scratch5 ↦[(kvS 1 2).view.set]{fullShare} f)
        ∗ ((c : Thread nD τ).loc cc0_scratch5 ↦[(kvS 0 3).view.set]{fullShare} f) ∗ ((c : Thread nD τ).loc cc0_scratch5 ↦[(kvS 1 3).view.set]{fullShare} f)
        ∗ ((c : Thread nD τ).loc cc0_scratch5 ↦[(kvS 0 4).view.set]{fullShare} f) ∗ ((c : Thread nD τ).loc cc0_scratch5 ↦[(kvS 1 4).view.set]{fullShare} f)
        ∗ ((c : Thread nD τ).loc cc0_scratch5 ↦[(kvS 0 5).view.set]{fullShare} f) ∗ ((c : Thread nD τ).loc cc0_scratch5 ↦[(kvS 1 5).view.set]{fullShare} f)
        ∗ ((c : Thread nD τ).loc cc0_scratch5 ↦[(kvS 0 6).view.set]{fullShare} f) ∗ ((c : Thread nD τ).loc cc0_scratch5 ↦[(kvS 1 6).view.set]{fullShare} f)
        ∗ ((c : Thread nD τ).loc cc0_scratch5 ↦[(kvS 0 7).view.set]{fullShare} f) ∗ ((c : Thread nD τ).loc cc0_scratch5 ↦[(kvS 1 7).view.set]{fullShare} f))
  have hc : (Finset.univ : Finset (Idx ((c : Thread nD τ).loc cc0_scratch5))) = kvT1 := kv_cover
  rw [kvS_set_0_0, kvS_set_1_0, kvS_set_0_1, kvS_set_1_1, kvS_set_0_2, kvS_set_1_2, kvS_set_0_3, kvS_set_1_3, kvS_set_0_4, kvS_set_1_4, kvS_set_0_5, kvS_set_1_5,
    kvS_set_0_6, kvS_set_1_6, kvS_set_0_7, kvS_set_1_7, hc,
    pts_union kv_disj1, pts_union kv_disj2, pts_union kv_disj3, pts_union kv_disj4, pts_union kv_disj5, pts_union kv_disj6, pts_union kv_disj7, pts_union kv_disj8,
    pts_union kv_disj9, pts_union kv_disj10, pts_union kv_disj11, pts_union kv_disj12, pts_union kv_disj13, pts_union kv_disj14, pts_union kv_disj15]

theorem kv_split (c : Dev nD) (f : Buf (Elt F) ((c : Thread nD τ).loc cc0_scratch5)) :
    ((c : Thread nD τ).loc cc0_scratch5 ↦{fullShare} f : sProp 𝕄) ⊣⊢
      iprop(((kvS 0 0).view.loc (c : Thread nD τ) ↦[(kvS 0 0).view.set]{fullShare} f) ∗ ((kvS 1 0).view.loc (c : Thread nD τ) ↦[(kvS 1 0).view.set]{fullShare} f)
        ∗ ((kvS 0 1).view.loc (c : Thread nD τ) ↦[(kvS 0 1).view.set]{fullShare} f) ∗ ((kvS 1 1).view.loc (c : Thread nD τ) ↦[(kvS 1 1).view.set]{fullShare} f)
        ∗ ((kvS 0 2).view.loc (c : Thread nD τ) ↦[(kvS 0 2).view.set]{fullShare} f) ∗ ((kvS 1 2).view.loc (c : Thread nD τ) ↦[(kvS 1 2).view.set]{fullShare} f)
        ∗ ((kvS 0 3).view.loc (c : Thread nD τ) ↦[(kvS 0 3).view.set]{fullShare} f) ∗ ((kvS 1 3).view.loc (c : Thread nD τ) ↦[(kvS 1 3).view.set]{fullShare} f)
        ∗ ((kvS 0 4).view.loc (c : Thread nD τ) ↦[(kvS 0 4).view.set]{fullShare} f) ∗ ((kvS 1 4).view.loc (c : Thread nD τ) ↦[(kvS 1 4).view.set]{fullShare} f)
        ∗ ((kvS 0 5).view.loc (c : Thread nD τ) ↦[(kvS 0 5).view.set]{fullShare} f) ∗ ((kvS 1 5).view.loc (c : Thread nD τ) ↦[(kvS 1 5).view.set]{fullShare} f)
        ∗ ((kvS 0 6).view.loc (c : Thread nD τ) ↦[(kvS 0 6).view.set]{fullShare} f) ∗ ((kvS 1 6).view.loc (c : Thread nD τ) ↦[(kvS 1 6).view.set]{fullShare} f)
        ∗ ((kvS 0 7).view.loc (c : Thread nD τ) ↦[(kvS 0 7).view.set]{fullShare} f) ∗ ((kvS 1 7).view.loc (c : Thread nD τ) ↦[(kvS 1 7).view.set]{fullShare} f)) :=
  BiEntails.of_eq (kv_split_eq c f)

/-- A plane held at some contents, over the buffer's own location and the plane's rectangle. -/
theorem held_kvS_0_0 (c : Dev nD) : held (F := F) c (kvS 0 0) = iprop(∃ f : Buf (Elt F) ((c : Thread nD τ).loc cc0_scratch5), (c : Thread nD τ).loc cc0_scratch5 ↦[(kvR 0 0).set]{fullShare} f) := by
  show iprop(∃ f : Buf (Elt F) ((c : Thread nD τ).loc cc0_scratch5), (c : Thread nD τ).loc cc0_scratch5 ↦[(kvS 0 0).view.set]{fullShare} f) = _
  rw [kvS_set_0_0]
theorem held_kvS_1_0 (c : Dev nD) : held (F := F) c (kvS 1 0) = iprop(∃ f : Buf (Elt F) ((c : Thread nD τ).loc cc0_scratch5), (c : Thread nD τ).loc cc0_scratch5 ↦[(kvR 1 0).set]{fullShare} f) := by
  show iprop(∃ f : Buf (Elt F) ((c : Thread nD τ).loc cc0_scratch5), (c : Thread nD τ).loc cc0_scratch5 ↦[(kvS 1 0).view.set]{fullShare} f) = _
  rw [kvS_set_1_0]
theorem held_kvS_0_1 (c : Dev nD) : held (F := F) c (kvS 0 1) = iprop(∃ f : Buf (Elt F) ((c : Thread nD τ).loc cc0_scratch5), (c : Thread nD τ).loc cc0_scratch5 ↦[(kvR 0 1).set]{fullShare} f) := by
  show iprop(∃ f : Buf (Elt F) ((c : Thread nD τ).loc cc0_scratch5), (c : Thread nD τ).loc cc0_scratch5 ↦[(kvS 0 1).view.set]{fullShare} f) = _
  rw [kvS_set_0_1]
theorem held_kvS_1_1 (c : Dev nD) : held (F := F) c (kvS 1 1) = iprop(∃ f : Buf (Elt F) ((c : Thread nD τ).loc cc0_scratch5), (c : Thread nD τ).loc cc0_scratch5 ↦[(kvR 1 1).set]{fullShare} f) := by
  show iprop(∃ f : Buf (Elt F) ((c : Thread nD τ).loc cc0_scratch5), (c : Thread nD τ).loc cc0_scratch5 ↦[(kvS 1 1).view.set]{fullShare} f) = _
  rw [kvS_set_1_1]
theorem held_kvS_0_2 (c : Dev nD) : held (F := F) c (kvS 0 2) = iprop(∃ f : Buf (Elt F) ((c : Thread nD τ).loc cc0_scratch5), (c : Thread nD τ).loc cc0_scratch5 ↦[(kvR 0 2).set]{fullShare} f) := by
  show iprop(∃ f : Buf (Elt F) ((c : Thread nD τ).loc cc0_scratch5), (c : Thread nD τ).loc cc0_scratch5 ↦[(kvS 0 2).view.set]{fullShare} f) = _
  rw [kvS_set_0_2]
theorem held_kvS_1_2 (c : Dev nD) : held (F := F) c (kvS 1 2) = iprop(∃ f : Buf (Elt F) ((c : Thread nD τ).loc cc0_scratch5), (c : Thread nD τ).loc cc0_scratch5 ↦[(kvR 1 2).set]{fullShare} f) := by
  show iprop(∃ f : Buf (Elt F) ((c : Thread nD τ).loc cc0_scratch5), (c : Thread nD τ).loc cc0_scratch5 ↦[(kvS 1 2).view.set]{fullShare} f) = _
  rw [kvS_set_1_2]
theorem held_kvS_0_3 (c : Dev nD) : held (F := F) c (kvS 0 3) = iprop(∃ f : Buf (Elt F) ((c : Thread nD τ).loc cc0_scratch5), (c : Thread nD τ).loc cc0_scratch5 ↦[(kvR 0 3).set]{fullShare} f) := by
  show iprop(∃ f : Buf (Elt F) ((c : Thread nD τ).loc cc0_scratch5), (c : Thread nD τ).loc cc0_scratch5 ↦[(kvS 0 3).view.set]{fullShare} f) = _
  rw [kvS_set_0_3]
theorem held_kvS_1_3 (c : Dev nD) : held (F := F) c (kvS 1 3) = iprop(∃ f : Buf (Elt F) ((c : Thread nD τ).loc cc0_scratch5), (c : Thread nD τ).loc cc0_scratch5 ↦[(kvR 1 3).set]{fullShare} f) := by
  show iprop(∃ f : Buf (Elt F) ((c : Thread nD τ).loc cc0_scratch5), (c : Thread nD τ).loc cc0_scratch5 ↦[(kvS 1 3).view.set]{fullShare} f) = _
  rw [kvS_set_1_3]
theorem held_kvS_0_4 (c : Dev nD) : held (F := F) c (kvS 0 4) = iprop(∃ f : Buf (Elt F) ((c : Thread nD τ).loc cc0_scratch5), (c : Thread nD τ).loc cc0_scratch5 ↦[(kvR 0 4).set]{fullShare} f) := by
  show iprop(∃ f : Buf (Elt F) ((c : Thread nD τ).loc cc0_scratch5), (c : Thread nD τ).loc cc0_scratch5 ↦[(kvS 0 4).view.set]{fullShare} f) = _
  rw [kvS_set_0_4]
theorem held_kvS_1_4 (c : Dev nD) : held (F := F) c (kvS 1 4) = iprop(∃ f : Buf (Elt F) ((c : Thread nD τ).loc cc0_scratch5), (c : Thread nD τ).loc cc0_scratch5 ↦[(kvR 1 4).set]{fullShare} f) := by
  show iprop(∃ f : Buf (Elt F) ((c : Thread nD τ).loc cc0_scratch5), (c : Thread nD τ).loc cc0_scratch5 ↦[(kvS 1 4).view.set]{fullShare} f) = _
  rw [kvS_set_1_4]
theorem held_kvS_0_5 (c : Dev nD) : held (F := F) c (kvS 0 5) = iprop(∃ f : Buf (Elt F) ((c : Thread nD τ).loc cc0_scratch5), (c : Thread nD τ).loc cc0_scratch5 ↦[(kvR 0 5).set]{fullShare} f) := by
  show iprop(∃ f : Buf (Elt F) ((c : Thread nD τ).loc cc0_scratch5), (c : Thread nD τ).loc cc0_scratch5 ↦[(kvS 0 5).view.set]{fullShare} f) = _
  rw [kvS_set_0_5]
theorem held_kvS_1_5 (c : Dev nD) : held (F := F) c (kvS 1 5) = iprop(∃ f : Buf (Elt F) ((c : Thread nD τ).loc cc0_scratch5), (c : Thread nD τ).loc cc0_scratch5 ↦[(kvR 1 5).set]{fullShare} f) := by
  show iprop(∃ f : Buf (Elt F) ((c : Thread nD τ).loc cc0_scratch5), (c : Thread nD τ).loc cc0_scratch5 ↦[(kvS 1 5).view.set]{fullShare} f) = _
  rw [kvS_set_1_5]
theorem held_kvS_0_6 (c : Dev nD) : held (F := F) c (kvS 0 6) = iprop(∃ f : Buf (Elt F) ((c : Thread nD τ).loc cc0_scratch5), (c : Thread nD τ).loc cc0_scratch5 ↦[(kvR 0 6).set]{fullShare} f) := by
  show iprop(∃ f : Buf (Elt F) ((c : Thread nD τ).loc cc0_scratch5), (c : Thread nD τ).loc cc0_scratch5 ↦[(kvS 0 6).view.set]{fullShare} f) = _
  rw [kvS_set_0_6]
theorem held_kvS_1_6 (c : Dev nD) : held (F := F) c (kvS 1 6) = iprop(∃ f : Buf (Elt F) ((c : Thread nD τ).loc cc0_scratch5), (c : Thread nD τ).loc cc0_scratch5 ↦[(kvR 1 6).set]{fullShare} f) := by
  show iprop(∃ f : Buf (Elt F) ((c : Thread nD τ).loc cc0_scratch5), (c : Thread nD τ).loc cc0_scratch5 ↦[(kvS 1 6).view.set]{fullShare} f) = _
  rw [kvS_set_1_6]
theorem held_kvS_0_7 (c : Dev nD) : held (F := F) c (kvS 0 7) = iprop(∃ f : Buf (Elt F) ((c : Thread nD τ).loc cc0_scratch5), (c : Thread nD τ).loc cc0_scratch5 ↦[(kvR 0 7).set]{fullShare} f) := by
  show iprop(∃ f : Buf (Elt F) ((c : Thread nD τ).loc cc0_scratch5), (c : Thread nD τ).loc cc0_scratch5 ↦[(kvS 0 7).view.set]{fullShare} f) = _
  rw [kvS_set_0_7]
theorem held_kvS_1_7 (c : Dev nD) : held (F := F) c (kvS 1 7) = iprop(∃ f : Buf (Elt F) ((c : Thread nD τ).loc cc0_scratch5), (c : Thread nD τ).loc cc0_scratch5 ↦[(kvR 1 7).set]{fullShare} f) := by
  show iprop(∃ f : Buf (Elt F) ((c : Thread nD τ).loc cc0_scratch5), (c : Thread nD τ).loc cc0_scratch5 ↦[(kvS 1 7).view.set]{fullShare} f) = _
  rw [kvS_set_1_7]

/-- The sixteen planes, each at contents of its own, are the buffer whole at some contents. -/
theorem kv_join (c : Dev nD) :
    iprop(held c (kvS 0 0) ∗ held c (kvS 1 0) ∗ held c (kvS 0 1) ∗ held c (kvS 1 1) ∗ held c (kvS 0 2) ∗ held c (kvS 1 2) ∗ held c (kvS 0 3) ∗ held c (kvS 1 3)
        ∗ held c (kvS 0 4) ∗ held c (kvS 1 4) ∗ held c (kvS 0 5) ∗ held c (kvS 1 5) ∗ held c (kvS 0 6) ∗ held c (kvS 1 6) ∗ held c (kvS 0 7) ∗ held c (kvS 1 7))
      ⊢ (iprop(∃ f : Buf (Elt F) ((c : Thread nD τ).loc cc0_scratch5), (c : Thread nD τ).loc cc0_scratch5 ↦{fullShare} f) : sProp 𝕄) := by
  rw [held_kvS_0_0, held_kvS_1_0, held_kvS_0_1, held_kvS_1_1, held_kvS_0_2, held_kvS_1_2, held_kvS_0_3, held_kvS_1_3, held_kvS_0_4, held_kvS_1_4, held_kvS_0_5, held_kvS_1_5,
    held_kvS_0_6, held_kvS_1_6, held_kvS_0_7, held_kvS_1_7]
  have hc : (Finset.univ : Finset (Idx ((c : Thread nD τ).loc cc0_scratch5))) = kvT1 := kv_cover
  show _ ⊢ (iprop(∃ f : Buf (Elt F) ((c : Thread nD τ).loc cc0_scratch5), (c : Thread nD τ).loc cc0_scratch5 ↦[Finset.univ]{fullShare} f) : sProp 𝕄)
  rw [hc]
  have s15 := pts_join_ex (F := F) (ℓ := (c : Thread nD τ).loc cc0_scratch5) (q := fullShare) kv_disj15
  have s14 := (sep_mono_right s15).trans (pts_join_ex (F := F) (ℓ := (c : Thread nD τ).loc cc0_scratch5) (q := fullShare) kv_disj14)
  have s13 := (sep_mono_right s14).trans (pts_join_ex (F := F) (ℓ := (c : Thread nD τ).loc cc0_scratch5) (q := fullShare) kv_disj13)
  have s12 := (sep_mono_right s13).trans (pts_join_ex (F := F) (ℓ := (c : Thread nD τ).loc cc0_scratch5) (q := fullShare) kv_disj12)
  have s11 := (sep_mono_right s12).trans (pts_join_ex (F := F) (ℓ := (c : Thread nD τ).loc cc0_scratch5) (q := fullShare) kv_disj11)
  have s10 := (sep_mono_right s11).trans (pts_join_ex (F := F) (ℓ := (c : Thread nD τ).loc cc0_scratch5) (q := fullShare) kv_disj10)
  have s9 := (sep_mono_right s10).trans (pts_join_ex (F := F) (ℓ := (c : Thread nD τ).loc cc0_scratch5) (q := fullShare) kv_disj9)
  have s8 := (sep_mono_right s9).trans (pts_join_ex (F := F) (ℓ := (c : Thread nD τ).loc cc0_scratch5) (q := fullShare) kv_disj8)
  have s7 := (sep_mono_right s8).trans (pts_join_ex (F := F) (ℓ := (c : Thread nD τ).loc cc0_scratch5) (q := fullShare) kv_disj7)
  have s6 := (sep_mono_right s7).trans (pts_join_ex (F := F) (ℓ := (c : Thread nD τ).loc cc0_scratch5) (q := fullShare) kv_disj6)
  have s5 := (sep_mono_right s6).trans (pts_join_ex (F := F) (ℓ := (c : Thread nD τ).loc cc0_scratch5) (q := fullShare) kv_disj5)
  have s4 := (sep_mono_right s5).trans (pts_join_ex (F := F) (ℓ := (c : Thread nD τ).loc cc0_scratch5) (q := fullShare) kv_disj4)
  have s3 := (sep_mono_right s4).trans (pts_join_ex (F := F) (ℓ := (c : Thread nD τ).loc cc0_scratch5) (q := fullShare) kv_disj3)
  have s2 := (sep_mono_right s3).trans (pts_join_ex (F := F) (ℓ := (c : Thread nD τ).loc cc0_scratch5) (q := fullShare) kv_disj2)
  exact (sep_mono_right s2).trans (pts_join_ex (F := F) (ℓ := (c : Thread nD τ).loc cc0_scratch5) (q := fullShare) kv_disj1)

end Cert.KernelIdeal.Proto

end
-- ==== Proof.HbmSplit.lean ====
/-
  The unstaged key and value rows, each cut into the eight planes the local copies read: one plane per batch and head,
  in the order the copies are issued.
-/
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Split

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! The unstaged key rows, cut into the eight planes the local copies read: batch `b`, head `g`. -/

abbrev hbK : Memref sig .tc .hbm S4x1024x2x128 .f32 := Memref.whole main_arg3

def hbKS : Fin 4 → Fin 2 → Memref sig .tc .hbm S1024x128 .f32
  | 0, 0 => (hbK.slice (Rect.unit (s := S4x1024x2x128) ![0, 0, 0, 0] S1x1024x1x128.size inb_S4x1024x2x128_S1x1024x1x128_0_0_0_0) (fun _ => rfl)).squeeze S1024x128 squeezes_S1x1024x1x128_S1024x128
  | 0, 1 => (hbK.slice (Rect.unit (s := S4x1024x2x128) ![0, 0, 1, 0] S1x1024x1x128.size inb_S4x1024x2x128_S1x1024x1x128_0_0_1_0) (fun _ => rfl)).squeeze S1024x128 squeezes_S1x1024x1x128_S1024x128
  | 1, 0 => (hbK.slice (Rect.unit (s := S4x1024x2x128) ![1, 0, 0, 0] S1x1024x1x128.size inb_S4x1024x2x128_S1x1024x1x128_1_0_0_0) (fun _ => rfl)).squeeze S1024x128 squeezes_S1x1024x1x128_S1024x128
  | 1, 1 => (hbK.slice (Rect.unit (s := S4x1024x2x128) ![1, 0, 1, 0] S1x1024x1x128.size inb_S4x1024x2x128_S1x1024x1x128_1_0_1_0) (fun _ => rfl)).squeeze S1024x128 squeezes_S1x1024x1x128_S1024x128
  | 2, 0 => (hbK.slice (Rect.unit (s := S4x1024x2x128) ![2, 0, 0, 0] S1x1024x1x128.size inb_S4x1024x2x128_S1x1024x1x128_2_0_0_0) (fun _ => rfl)).squeeze S1024x128 squeezes_S1x1024x1x128_S1024x128
  | 2, 1 => (hbK.slice (Rect.unit (s := S4x1024x2x128) ![2, 0, 1, 0] S1x1024x1x128.size inb_S4x1024x2x128_S1x1024x1x128_2_0_1_0) (fun _ => rfl)).squeeze S1024x128 squeezes_S1x1024x1x128_S1024x128
  | 3, 0 => (hbK.slice (Rect.unit (s := S4x1024x2x128) ![3, 0, 0, 0] S1x1024x1x128.size inb_S4x1024x2x128_S1x1024x1x128_3_0_0_0) (fun _ => rfl)).squeeze S1024x128 squeezes_S1x1024x1x128_S1024x128
  | 3, 1 => (hbK.slice (Rect.unit (s := S4x1024x2x128) ![3, 0, 1, 0] S1x1024x1x128.size inb_S4x1024x2x128_S1x1024x1x128_3_0_1_0) (fun _ => rfl)).squeeze S1024x128 squeezes_S1x1024x1x128_S1024x128

theorem hb_inb (b g : ℕ) (h : b < 4 ∧ g < 2) : ∀ x, (![b, 0, g, 0] : Fin 4 → ℕ) x + S1x1024x1x128.size x ≤ S4x1024x2x128.size x := by
  intro x
  fin_cases x
  · change b + 1 ≤ 4; omega
  · change 0 + 1024 ≤ 1024; omega
  · change g + 1 ≤ 2; omega
  · change 0 + 128 ≤ 128; omega

abbrev hbR (b g : ℕ) (h : b < 4 ∧ g < 2 := by decide) : Rect S4x1024x2x128 := Rect.unit (s := S4x1024x2x128) ![b, 0, g, 0] S1x1024x1x128.size (hb_inb b g h)

theorem mem_hbR (b g : ℕ) (h : b < 4 ∧ g < 2) (i : S4x1024x2x128.Idx) : i ∈ (hbR b g h).set ↔ (i 0 : ℕ) = b ∧ (i 2 : ℕ) = g := by
  rw [Rect.mem_set_unit]
  have h1 : (i 1 : ℕ) < 1024 := (i 1).isLt
  have h3 : (i 3 : ℕ) < 128 := (i 3).isLt
  constructor
  · intro hh
    have e0 := hh 0
    have e2 := hh 2
    change (b ≤ (i 0 : ℕ) ∧ (i 0 : ℕ) < b + 1) at e0
    change (g ≤ (i 2 : ℕ) ∧ (i 2 : ℕ) < g + 1) at e2
    omega
  · rintro ⟨e0, e2⟩ x
    fin_cases x
    · change (b ≤ (i 0 : ℕ) ∧ (i 0 : ℕ) < b + 1); omega
    · change (0 ≤ (i 1 : ℕ) ∧ (i 1 : ℕ) < 0 + 1024); omega
    · change (g ≤ (i 2 : ℕ) ∧ (i 2 : ℕ) < g + 1); omega
    · change (0 ≤ (i 3 : ℕ) ∧ (i 3 : ℕ) < 0 + 128); omega

theorem hbKS_set_0_0 : (hbKS 0 0).view.set = (hbR 0 0).set := by
  unfold hbKS; simp only [Memref.view_squeeze, Memref.view_slice, Memref.view_whole, View.set_reshape, View.set_slice_whole]
theorem hbKS_set_0_1 : (hbKS 0 1).view.set = (hbR 0 1).set := by
  unfold hbKS; simp only [Memref.view_squeeze, Memref.view_slice, Memref.view_whole, View.set_reshape, View.set_slice_whole]
theorem hbKS_set_1_0 : (hbKS 1 0).view.set = (hbR 1 0).set := by
  unfold hbKS; simp only [Memref.view_squeeze, Memref.view_slice, Memref.view_whole, View.set_reshape, View.set_slice_whole]
theorem hbKS_set_1_1 : (hbKS 1 1).view.set = (hbR 1 1).set := by
  unfold hbKS; simp only [Memref.view_squeeze, Memref.view_slice, Memref.view_whole, View.set_reshape, View.set_slice_whole]
theorem hbKS_set_2_0 : (hbKS 2 0).view.set = (hbR 2 0).set := by
  unfold hbKS; simp only [Memref.view_squeeze, Memref.view_slice, Memref.view_whole, View.set_reshape, View.set_slice_whole]
theorem hbKS_set_2_1 : (hbKS 2 1).view.set = (hbR 2 1).set := by
  unfold hbKS; simp only [Memref.view_squeeze, Memref.view_slice, Memref.view_whole, View.set_reshape, View.set_slice_whole]
theorem hbKS_set_3_0 : (hbKS 3 0).view.set = (hbR 3 0).set := by
  unfold hbKS; simp only [Memref.view_squeeze, Memref.view_slice, Memref.view_whole, View.set_reshape, View.set_slice_whole]
theorem hbKS_set_3_1 : (hbKS 3 1).view.set = (hbR 3 1).set := by
  unfold hbKS; simp only [Memref.view_squeeze, Memref.view_slice, Memref.view_whole, View.set_reshape, View.set_slice_whole]

abbrev hbT8 : Finset S4x1024x2x128.Idx := (hbR 3 1).set
abbrev hbT7 : Finset S4x1024x2x128.Idx := (hbR 3 0).set ∪ hbT8
abbrev hbT6 : Finset S4x1024x2x128.Idx := (hbR 2 1).set ∪ hbT7
abbrev hbT5 : Finset S4x1024x2x128.Idx := (hbR 2 0).set ∪ hbT6
abbrev hbT4 : Finset S4x1024x2x128.Idx := (hbR 1 1).set ∪ hbT5
abbrev hbT3 : Finset S4x1024x2x128.Idx := (hbR 1 0).set ∪ hbT4
abbrev hbT2 : Finset S4x1024x2x128.Idx := (hbR 0 1).set ∪ hbT3
abbrev hbT1 : Finset S4x1024x2x128.Idx := (hbR 0 0).set ∪ hbT2

theorem hb_cover : (Finset.univ : Finset S4x1024x2x128.Idx) = hbT1 := by
  ext i
  have h0 : (i 0 : ℕ) < 4 := (i 0).isLt
  have h2 : (i 2 : ℕ) < 2 := (i 2).isLt
  simp only [Finset.mem_univ, true_iff, Finset.mem_union, mem_hbR]
  omega
theorem hb_disj1 : Disjoint (hbR 0 0).set hbT2 := Finset.disjoint_left.mpr fun i hi hj => by simp only [Finset.mem_union, mem_hbR] at hi hj; omega
theorem hb_disj2 : Disjoint (hbR 0 1).set hbT3 := Finset.disjoint_left.mpr fun i hi hj => by simp only [Finset.mem_union, mem_hbR] at hi hj; omega
theorem hb_disj3 : Disjoint (hbR 1 0).set hbT4 := Finset.disjoint_left.mpr fun i hi hj => by simp only [Finset.mem_union, mem_hbR] at hi hj; omega
theorem hb_disj4 : Disjoint (hbR 1 1).set hbT5 := Finset.disjoint_left.mpr fun i hi hj => by simp only [Finset.mem_union, mem_hbR] at hi hj; omega
theorem hb_disj5 : Disjoint (hbR 2 0).set hbT6 := Finset.disjoint_left.mpr fun i hi hj => by simp only [Finset.mem_union, mem_hbR] at hi hj; omega
theorem hb_disj6 : Disjoint (hbR 2 1).set hbT7 := Finset.disjoint_left.mpr fun i hi hj => by simp only [Finset.mem_union, mem_hbR] at hi hj; omega
theorem hb_disj7 : Disjoint (hbR 3 0).set hbT8 := Finset.disjoint_left.mpr fun i hi hj => by simp only [mem_hbR] at hi hj; omega

/-- The key rows of device `c`, whole, are the eight planes, each at the same contents. -/
theorem hbK_split_eq (c : Dev nD) (f : Buf (Elt F) ((c : Thread nD τ).loc main_arg3)) :
    ((c : Thread nD τ).loc main_arg3 ↦{fullShare} f : sProp 𝕄) =
      iprop(((hbKS 0 0).view.loc (c : Thread nD τ) ↦[(hbKS 0 0).view.set]{fullShare} f) ∗ ((hbKS 0 1).view.loc (c : Thread nD τ) ↦[(hbKS 0 1).view.set]{fullShare} f)
        ∗ ((hbKS 1 0).view.loc (c : Thread nD τ) ↦[(hbKS 1 0).view.set]{fullShare} f) ∗ ((hbKS 1 1).view.loc (c : Thread nD τ) ↦[(hbKS 1 1).view.set]{fullShare} f)
        ∗ ((hbKS 2 0).view.loc (c : Thread nD τ) ↦[(hbKS 2 0).view.set]{fullShare} f) ∗ ((hbKS 2 1).view.loc (c : Thread nD τ) ↦[(hbKS 2 1).view.set]{fullShare} f)
        ∗ ((hbKS 3 0).view.loc (c : Thread nD τ) ↦[(hbKS 3 0).view.set]{fullShare} f) ∗ ((hbKS 3 1).view.loc (c : Thread nD τ) ↦[(hbKS 3 1).view.set]{fullShare} f)) := by
  show ((c : Thread nD τ).loc main_arg3 ↦[Finset.univ]{fullShare} f : sProp 𝕄) =
      iprop(((c : Thread nD τ).loc main_arg3 ↦[(hbKS 0 0).view.set]{fullShare} f) ∗ ((c : Thread nD τ).loc main_arg3 ↦[(hbKS 0 1).view.set]{fullShare} f)
        ∗ ((c : Thread nD τ).loc main_arg3 ↦[(hbKS 1 0).view.set]{fullShare} f) ∗ ((c : Thread nD τ).loc main_arg3 ↦[(hbKS 1 1).view.set]{fullShare} f)
        ∗ ((c : Thread nD τ).loc main_arg3 ↦[(hbKS 2 0).view.set]{fullShare} f) ∗ ((c : Thread nD τ).loc main_arg3 ↦[(hbKS 2 1).view.set]{fullShare} f)
        ∗ ((c : Thread nD τ).loc main_arg3 ↦[(hbKS 3 0).view.set]{fullShare} f) ∗ ((c : Thread nD τ).loc main_arg3 ↦[(hbKS 3 1).view.set]{fullShare} f))
  have hc : (Finset.univ : Finset (Idx ((c : Thread nD τ).loc main_arg3))) = hbT1 := hb_cover
  rw [hbKS_set_0_0, hbKS_set_0_1, hbKS_set_1_0, hbKS_set_1_1, hbKS_set_2_0, hbKS_set_2_1, hbKS_set_3_0, hbKS_set_3_1, hc,
    pts_union hb_disj1, pts_union hb_disj2, pts_union hb_disj3, pts_union hb_disj4, pts_union hb_disj5, pts_union hb_disj6, pts_union hb_disj7]

/-! The unstaged value rows, cut into the eight planes the local copies read: batch `b`, head `g`. -/

abbrev hbV : Memref sig .tc .hbm S4x1024x2x128 .f32 := Memref.whole main_arg4

def hbVS : Fin 4 → Fin 2 → Memref sig .tc .hbm S1024x128 .f32
  | 0, 0 => (hbV.slice (Rect.unit (s := S4x1024x2x128) ![0, 0, 0, 0] S1x1024x1x128.size inb_S4x1024x2x128_S1x1024x1x128_0_0_0_0) (fun _ => rfl)).squeeze S1024x128 squeezes_S1x1024x1x128_S1024x128
  | 0, 1 => (hbV.slice (Rect.unit (s := S4x1024x2x128) ![0, 0, 1, 0] S1x1024x1x128.size inb_S4x1024x2x128_S1x1024x1x128_0_0_1_0) (fun _ => rfl)).squeeze S1024x128 squeezes_S1x1024x1x128_S1024x128
  | 1, 0 => (hbV.slice (Rect.unit (s := S4x1024x2x128) ![1, 0, 0, 0] S1x1024x1x128.size inb_S4x1024x2x128_S1x1024x1x128_1_0_0_0) (fun _ => rfl)).squeeze S1024x128 squeezes_S1x1024x1x128_S1024x128
  | 1, 1 => (hbV.slice (Rect.unit (s := S4x1024x2x128) ![1, 0, 1, 0] S1x1024x1x128.size inb_S4x1024x2x128_S1x1024x1x128_1_0_1_0) (fun _ => rfl)).squeeze S1024x128 squeezes_S1x1024x1x128_S1024x128
  | 2, 0 => (hbV.slice (Rect.unit (s := S4x1024x2x128) ![2, 0, 0, 0] S1x1024x1x128.size inb_S4x1024x2x128_S1x1024x1x128_2_0_0_0) (fun _ => rfl)).squeeze S1024x128 squeezes_S1x1024x1x128_S1024x128
  | 2, 1 => (hbV.slice (Rect.unit (s := S4x1024x2x128) ![2, 0, 1, 0] S1x1024x1x128.size inb_S4x1024x2x128_S1x1024x1x128_2_0_1_0) (fun _ => rfl)).squeeze S1024x128 squeezes_S1x1024x1x128_S1024x128
  | 3, 0 => (hbV.slice (Rect.unit (s := S4x1024x2x128) ![3, 0, 0, 0] S1x1024x1x128.size inb_S4x1024x2x128_S1x1024x1x128_3_0_0_0) (fun _ => rfl)).squeeze S1024x128 squeezes_S1x1024x1x128_S1024x128
  | 3, 1 => (hbV.slice (Rect.unit (s := S4x1024x2x128) ![3, 0, 1, 0] S1x1024x1x128.size inb_S4x1024x2x128_S1x1024x1x128_3_0_1_0) (fun _ => rfl)).squeeze S1024x128 squeezes_S1x1024x1x128_S1024x128

theorem hbVS_set_0_0 : (hbVS 0 0).view.set = (hbR 0 0).set := by
  unfold hbVS; simp only [Memref.view_squeeze, Memref.view_slice, Memref.view_whole, View.set_reshape, View.set_slice_whole]
theorem hbVS_set_0_1 : (hbVS 0 1).view.set = (hbR 0 1).set := by
  unfold hbVS; simp only [Memref.view_squeeze, Memref.view_slice, Memref.view_whole, View.set_reshape, View.set_slice_whole]
theorem hbVS_set_1_0 : (hbVS 1 0).view.set = (hbR 1 0).set := by
  unfold hbVS; simp only [Memref.view_squeeze, Memref.view_slice, Memref.view_whole, View.set_reshape, View.set_slice_whole]
theorem hbVS_set_1_1 : (hbVS 1 1).view.set = (hbR 1 1).set := by
  unfold hbVS; simp only [Memref.view_squeeze, Memref.view_slice, Memref.view_whole, View.set_reshape, View.set_slice_whole]
theorem hbVS_set_2_0 : (hbVS 2 0).view.set = (hbR 2 0).set := by
  unfold hbVS; simp only [Memref.view_squeeze, Memref.view_slice, Memref.view_whole, View.set_reshape, View.set_slice_whole]
theorem hbVS_set_2_1 : (hbVS 2 1).view.set = (hbR 2 1).set := by
  unfold hbVS; simp only [Memref.view_squeeze, Memref.view_slice, Memref.view_whole, View.set_reshape, View.set_slice_whole]
theorem hbVS_set_3_0 : (hbVS 3 0).view.set = (hbR 3 0).set := by
  unfold hbVS; simp only [Memref.view_squeeze, Memref.view_slice, Memref.view_whole, View.set_reshape, View.set_slice_whole]
theorem hbVS_set_3_1 : (hbVS 3 1).view.set = (hbR 3 1).set := by
  unfold hbVS; simp only [Memref.view_squeeze, Memref.view_slice, Memref.view_whole, View.set_reshape, View.set_slice_whole]

/-- The value rows of device `c`, whole, are the eight planes, each at the same contents. -/
theorem hbV_split_eq (c : Dev nD) (f : Buf (Elt F) ((c : Thread nD τ).loc main_arg4)) :
    ((c : Thread nD τ).loc main_arg4 ↦{fullShare} f : sProp 𝕄) =
      iprop(((hbVS 0 0).view.loc (c : Thread nD τ) ↦[(hbVS 0 0).view.set]{fullShare} f) ∗ ((hbVS 0 1).view.loc (c : Thread nD τ) ↦[(hbVS 0 1).view.set]{fullShare} f)
        ∗ ((hbVS 1 0).view.loc (c : Thread nD τ) ↦[(hbVS 1 0).view.set]{fullShare} f) ∗ ((hbVS 1 1).view.loc (c : Thread nD τ) ↦[(hbVS 1 1).view.set]{fullShare} f)
        ∗ ((hbVS 2 0).view.loc (c : Thread nD τ) ↦[(hbVS 2 0).view.set]{fullShare} f) ∗ ((hbVS 2 1).view.loc (c : Thread nD τ) ↦[(hbVS 2 1).view.set]{fullShare} f)
        ∗ ((hbVS 3 0).view.loc (c : Thread nD τ) ↦[(hbVS 3 0).view.set]{fullShare} f) ∗ ((hbVS 3 1).view.loc (c : Thread nD τ) ↦[(hbVS 3 1).view.set]{fullShare} f)) := by
  show ((c : Thread nD τ).loc main_arg4 ↦[Finset.univ]{fullShare} f : sProp 𝕄) =
      iprop(((c : Thread nD τ).loc main_arg4 ↦[(hbVS 0 0).view.set]{fullShare} f) ∗ ((c : Thread nD τ).loc main_arg4 ↦[(hbVS 0 1).view.set]{fullShare} f)
        ∗ ((c : Thread nD τ).loc main_arg4 ↦[(hbVS 1 0).view.set]{fullShare} f) ∗ ((c : Thread nD τ).loc main_arg4 ↦[(hbVS 1 1).view.set]{fullShare} f)
        ∗ ((c : Thread nD τ).loc main_arg4 ↦[(hbVS 2 0).view.set]{fullShare} f) ∗ ((c : Thread nD τ).loc main_arg4 ↦[(hbVS 2 1).view.set]{fullShare} f)
        ∗ ((c : Thread nD τ).loc main_arg4 ↦[(hbVS 3 0).view.set]{fullShare} f) ∗ ((c : Thread nD τ).loc main_arg4 ↦[(hbVS 3 1).view.set]{fullShare} f))
  have hc : (Finset.univ : Finset (Idx ((c : Thread nD τ).loc main_arg4))) = hbT1 := hb_cover
  rw [hbVS_set_0_0, hbVS_set_0_1, hbVS_set_1_0, hbVS_set_1_1, hbVS_set_2_0, hbVS_set_2_1, hbVS_set_3_0, hbVS_set_3_1, hc,
    pts_union hb_disj1, pts_union hb_disj2, pts_union hb_disj3, pts_union hb_disj4, pts_union hb_disj5, pts_union hb_disj6, pts_union hb_disj7]

end Cert.KernelIdeal.Proto

end
-- ==== Proof.KvRel.lean ====
/-
  The local copies, named from the device's side. A device issues its sixteen copies by batch number, but waits for
  them and reads the planes by its own numbering: its `j`-th flash batch is batch `(c + j) mod 4`. Here are the copy
  semaphores, the key and value planes and the source planes in that numbering, spelt as the waits spell them, and their
  equations to the issue's spelling.
-/
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Ring
import proofs.«900754_g7700000000000755_dist_attn_cross_gqa_kvseq_b4_sq256_skv1024_d1024_hq8_dh128_v7x_i4_f32_1_alg».proof.Proof.Split
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.KvSplit
import proofs.«900754_g7700000000000755_dist_attn_cross_gqa_kvseq_b4_sq256_skv1024_d1024_hq8_dh128_v7x_i4_f32_1_alg».proof.Proof.HbmSplit
import proofs.«900754_g7700000000000755_dist_attn_cross_gqa_kvseq_b4_sq256_skv1024_d1024_hq8_dh128_v7x_i4_f32_1_alg».proof.Proof.Data

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The device's own numbering -/

/-- The copy semaphore of the device's `j`-th flash batch. -/
def csemD (c : Dev nD) : Fin 4 → DmaSem sig
  | 0 => ((cc0_scratch22.slice (Rect.unit (s := S4) (k0_off1 c) S1.size (k0_off1_inb c))).squeeze S_ squeezes_S1_S_).sem
  | 1 => ((cc0_scratch22.slice (Rect.unit (s := S4) (k0_off17 c 1#32) S1.size (k0_off17_inb c 0))).squeeze S_ squeezes_S1_S_).sem
  | 2 => ((cc0_scratch22.slice (Rect.unit (s := S4) (k0_off17 c 2#32) S1.size (k0_off17_inb c 1))).squeeze S_ squeezes_S1_S_).sem
  | 3 => ((cc0_scratch22.slice (Rect.unit (s := S4) (k0_off17 c 3#32) S1.size (k0_off17_inb c 2))).squeeze S_ squeezes_S1_S_).sem

/-- The key (`a = 0`) or value (`a = 1`) plane of head `g` of the device's `j`-th flash batch. -/
def kvD (c : Dev nD) : Fin 4 → Fin 2 → Fin 2 → Memref sig .tc .vmem S1024x128 .f32
  | 0, 0, 0 => (kvB.slice (Rect.unit (s := S2x8x1024x128) (k0_off2 c 0#32) S1x1x1024x128.size (k0_off2_inb c 0)) (fun _ => rfl)).squeeze S1024x128 squeezes_S1x1x1024x128_S1024x128
  | 0, 0, 1 => (kvB.slice (Rect.unit (s := S2x8x1024x128) (k0_off2 c 1#32) S1x1x1024x128.size (k0_off2_inb c 1)) (fun _ => rfl)).squeeze S1024x128 squeezes_S1x1x1024x128_S1024x128
  | 0, 1, 0 => (kvB.slice (Rect.unit (s := S2x8x1024x128) (k0_off4 c 0#32) S1x1x1024x128.size (k0_off4_inb c 0)) (fun _ => rfl)).squeeze S1024x128 squeezes_S1x1x1024x128_S1024x128
  | 0, 1, 1 => (kvB.slice (Rect.unit (s := S2x8x1024x128) (k0_off4 c 1#32) S1x1x1024x128.size (k0_off4_inb c 1)) (fun _ => rfl)).squeeze S1024x128 squeezes_S1x1x1024x128_S1024x128
  | 1, 0, 0 => (kvB.slice (Rect.unit (s := S2x8x1024x128) (k0_off18 c 1#32 0#32) S1x1x1024x128.size (k0_off18_inb c 0 0)) (fun _ => rfl)).squeeze S1024x128 squeezes_S1x1x1024x128_S1024x128
  | 1, 0, 1 => (kvB.slice (Rect.unit (s := S2x8x1024x128) (k0_off18 c 1#32 1#32) S1x1x1024x128.size (k0_off18_inb c 0 1)) (fun _ => rfl)).squeeze S1024x128 squeezes_S1x1x1024x128_S1024x128
  | 1, 1, 0 => (kvB.slice (Rect.unit (s := S2x8x1024x128) (k0_off20 c 1#32 0#32) S1x1x1024x128.size (k0_off20_inb c 0 0)) (fun _ => rfl)).squeeze S1024x128 squeezes_S1x1x1024x128_S1024x128
  | 1, 1, 1 => (kvB.slice (Rect.unit (s := S2x8x1024x128) (k0_off20 c 1#32 1#32) S1x1x1024x128.size (k0_off20_inb c 0 1)) (fun _ => rfl)).squeeze S1024x128 squeezes_S1x1x1024x128_S1024x128
  | 2, 0, 0 => (kvB.slice (Rect.unit (s := S2x8x1024x128) (k0_off18 c 2#32 0#32) S1x1x1024x128.size (k0_off18_inb c 1 0)) (fun _ => rfl)).squeeze S1024x128 squeezes_S1x1x1024x128_S1024x128
  | 2, 0, 1 => (kvB.slice (Rect.unit (s := S2x8x1024x128) (k0_off18 c 2#32 1#32) S1x1x1024x128.size (k0_off18_inb c 1 1)) (fun _ => rfl)).squeeze S1024x128 squeezes_S1x1x1024x128_S1024x128
  | 2, 1, 0 => (kvB.slice (Rect.unit (s := S2x8x1024x128) (k0_off20 c 2#32 0#32) S1x1x1024x128.size (k0_off20_inb c 1 0)) (fun _ => rfl)).squeeze S1024x128 squeezes_S1x1x1024x128_S1024x128
  | 2, 1, 1 => (kvB.slice (Rect.unit (s := S2x8x1024x128) (k0_off20 c 2#32 1#32) S1x1x1024x128.size (k0_off20_inb c 1 1)) (fun _ => rfl)).squeeze S1024x128 squeezes_S1x1x1024x128_S1024x128
  | 3, 0, 0 => (kvB.slice (Rect.unit (s := S2x8x1024x128) (k0_off18 c 3#32 0#32) S1x1x1024x128.size (k0_off18_inb c 2 0)) (fun _ => rfl)).squeeze S1024x128 squeezes_S1x1x1024x128_S1024x128
  | 3, 0, 1 => (kvB.slice (Rect.unit (s := S2x8x1024x128) (k0_off18 c 3#32 1#32) S1x1x1024x128.size (k0_off18_inb c 2 1)) (fun _ => rfl)).squeeze S1024x128 squeezes_S1x1x1024x128_S1024x128
  | 3, 1, 0 => (kvB.slice (Rect.unit (s := S2x8x1024x128) (k0_off20 c 3#32 0#32) S1x1x1024x128.size (k0_off20_inb c 2 0)) (fun _ => rfl)).squeeze S1024x128 squeezes_S1x1x1024x128_S1024x128
  | 3, 1, 1 => (kvB.slice (Rect.unit (s := S2x8x1024x128) (k0_off20 c 3#32 1#32) S1x1x1024x128.size (k0_off20_inb c 2 1)) (fun _ => rfl)).squeeze S1024x128 squeezes_S1x1x1024x128_S1024x128

/-- The key rows' source plane of head `g` of the device's `j`-th flash batch, and the value rows'. -/
def hbKD (c : Dev nD) : Fin 4 → Fin 2 → Memref sig .tc .hbm S1024x128 .f32
  | 0, 0 => (hbK.slice (Rect.unit (s := S4x1024x2x128) (k0_off3 c) S1x1024x1x128.size (k0_off3_inb c)) (fun _ => rfl)).squeeze S1024x128 squeezes_S1x1024x1x128_S1024x128
  | 0, 1 => (hbK.slice (Rect.unit (s := S4x1024x2x128) (k0_off5 c) S1x1024x1x128.size (k0_off5_inb c)) (fun _ => rfl)).squeeze S1024x128 squeezes_S1x1024x1x128_S1024x128
  | 1, 0 => (hbK.slice (Rect.unit (s := S4x1024x2x128) (k0_off19 c 1#32) S1x1024x1x128.size (k0_off19_inb c 0)) (fun _ => rfl)).squeeze S1024x128 squeezes_S1x1024x1x128_S1024x128
  | 1, 1 => (hbK.slice (Rect.unit (s := S4x1024x2x128) (k0_off21 c 1#32) S1x1024x1x128.size (k0_off21_inb c 0)) (fun _ => rfl)).squeeze S1024x128 squeezes_S1x1024x1x128_S1024x128
  | 2, 0 => (hbK.slice (Rect.unit (s := S4x1024x2x128) (k0_off19 c 2#32) S1x1024x1x128.size (k0_off19_inb c 1)) (fun _ => rfl)).squeeze S1024x128 squeezes_S1x1024x1x128_S1024x128
  | 2, 1 => (hbK.slice (Rect.unit (s := S4x1024x2x128) (k0_off21 c 2#32) S1x1024x1x128.size (k0_off21_inb c 1)) (fun _ => rfl)).squeeze S1024x128 squeezes_S1x1024x1x128_S1024x128
  | 3, 0 => (hbK.slice (Rect.unit (s := S4x1024x2x128) (k0_off19 c 3#32) S1x1024x1x128.size (k0_off19_inb c 2)) (fun _ => rfl)).squeeze S1024x128 squeezes_S1x1024x1x128_S1024x128
  | 3, 1 => (hbK.slice (Rect.unit (s := S4x1024x2x128) (k0_off21 c 3#32) S1x1024x1x128.size (k0_off21_inb c 2)) (fun _ => rfl)).squeeze S1024x128 squeezes_S1x1024x1x128_S1024x128
def hbVD (c : Dev nD) : Fin 4 → Fin 2 → Memref sig .tc .hbm S1024x128 .f32
  | 0, 0 => (hbV.slice (Rect.unit (s := S4x1024x2x128) (k0_off3 c) S1x1024x1x128.size (k0_off3_inb c)) (fun _ => rfl)).squeeze S1024x128 squeezes_S1x1024x1x128_S1024x128
  | 0, 1 => (hbV.slice (Rect.unit (s := S4x1024x2x128) (k0_off5 c) S1x1024x1x128.size (k0_off5_inb c)) (fun _ => rfl)).squeeze S1024x128 squeezes_S1x1024x1x128_S1024x128
  | 1, 0 => (hbV.slice (Rect.unit (s := S4x1024x2x128) (k0_off19 c 1#32) S1x1024x1x128.size (k0_off19_inb c 0)) (fun _ => rfl)).squeeze S1024x128 squeezes_S1x1024x1x128_S1024x128
  | 1, 1 => (hbV.slice (Rect.unit (s := S4x1024x2x128) (k0_off21 c 1#32) S1x1024x1x128.size (k0_off21_inb c 0)) (fun _ => rfl)).squeeze S1024x128 squeezes_S1x1024x1x128_S1024x128
  | 2, 0 => (hbV.slice (Rect.unit (s := S4x1024x2x128) (k0_off19 c 2#32) S1x1024x1x128.size (k0_off19_inb c 1)) (fun _ => rfl)).squeeze S1024x128 squeezes_S1x1024x1x128_S1024x128
  | 2, 1 => (hbV.slice (Rect.unit (s := S4x1024x2x128) (k0_off21 c 2#32) S1x1024x1x128.size (k0_off21_inb c 1)) (fun _ => rfl)).squeeze S1024x128 squeezes_S1x1024x1x128_S1024x128
  | 3, 0 => (hbV.slice (Rect.unit (s := S4x1024x2x128) (k0_off19 c 3#32) S1x1024x1x128.size (k0_off19_inb c 2)) (fun _ => rfl)).squeeze S1024x128 squeezes_S1x1024x1x128_S1024x128
  | 3, 1 => (hbV.slice (Rect.unit (s := S4x1024x2x128) (k0_off21 c 3#32) S1x1024x1x128.size (k0_off21_inb c 2)) (fun _ => rfl)).squeeze S1024x128 squeezes_S1x1024x1x128_S1024x128

/-! ## The semaphores are the issue's, permuted -/

/-- The `j`-th batch's semaphore is copy semaphore `(c + j) mod 4`, the 41st DMA semaphore onwards. -/
theorem csemD_val : ∀ (c : Dev nD) (j : Fin 4), (csemD c j).val = 40 + (c.val + j.val) % 4 := by decide +kernel
theorem copySem_val : ∀ b : Fin 4, (copySem b).val = 40 + b.val := by decide +kernel
theorem csemD_eq (c : Dev nD) (j : Fin 4) (b : Fin 4) (hb : b.val = (c.val + j.val) % 4) : csemD c j = copySem b :=
  Fin.ext (by rw [csemD_val, copySem_val, hb])

/-! ## The planes are the issue's, permuted -/

/-- The batch the device's `j`-th flash batch is, and the plane its head `g` has in the buffer. -/
def bIdx (c : Dev nD) (j : Fin 4) : Fin 4 := ⟨(c.val + j.val) % 4, Nat.mod_lt _ (by decide)⟩
def rIdx (c : Dev nD) (j : Fin 4) (g : Fin 2) : Fin 8 := ⟨2 * ((c.val + j.val) % 4) + g.val, by have := Nat.mod_lt (c.val + j.val) (by decide : 0 < 4); have := g.isLt; omega⟩

theorem csemD_eq_copySem (c : Dev nD) (j : Fin 4) : csemD c j = copySem (bIdx c j) := csemD_eq c j _ rfl

/-- Device by device, batch by batch: the offsets the waits compute are the literal offsets of the issue. -/
theorem kvD_eq (c : Dev nD) (j : Fin 4) (a g : Fin 2) : kvD c j a g = kvS a (rIdx c j g) := by
  fin_cases c <;> fin_cases j <;> fin_cases a <;> fin_cases g <;>
    exact congrArg (fun m => Memref.squeeze m S1024x128 squeezes_S1x1x1024x128_S1024x128) (slice_unit_congr kvB _ _ (by decide +kernel))
theorem hbKD_eq (c : Dev nD) (j : Fin 4) (g : Fin 2) : hbKD c j g = hbKS (bIdx c j) g := by
  fin_cases c <;> fin_cases j <;> fin_cases g <;>
    exact congrArg (fun m => Memref.squeeze m S1024x128 squeezes_S1x1024x1x128_S1024x128) (slice_unit_congr hbK _ _ (by decide +kernel))
theorem hbVD_eq (c : Dev nD) (j : Fin 4) (g : Fin 2) : hbVD c j g = hbVS (bIdx c j) g := by
  fin_cases c <;> fin_cases j <;> fin_cases g <;>
    exact congrArg (fun m => Memref.squeeze m S1024x128 squeezes_S1x1024x1x128_S1024x128) (slice_unit_congr hbV _ _ (by decide +kernel))

/-! ## The four batches, re-numbered -/

/-- A plane of the key and value buffer at given offsets. -/
def kvPl (off : Fin 4 → ℕ) (inb : ∀ x, off x + S1x1x1024x128.size x ≤ S2x8x1024x128.size x) : Memref sig .tc .vmem S1024x128 .f32 :=
  (kvB.slice (Rect.unit (s := S2x8x1024x128) off S1x1x1024x128.size inb) (fun _ => rfl)).squeeze S1024x128 squeezes_S1x1x1024x128_S1024x128

/-- The rows a local copy carries. -/
abbrev CpVal (F : FTy → Type) [FloatOps F] : Type := (Rect.whole S1024x128).shape.Idx → Elt F .f32

variable (c : Dev nD) (f5 : Buf (Elt F) ((c : Thread nD τ).loc cc0_scratch5)) (m : (ℓ : Loc nD τ sig) → Buf (Elt F) ℓ)

/-- What a finished local copy delivers: its plane at the rows written over the old contents, and the share `q` of the source it read with. -/
def cpDeliv (q : PosShare TreeShare) (off : Fin 4 → ℕ) (inb : ∀ x, off x + S1x1x1024x128.size x ≤ S2x8x1024x128.size x) (src : Memref sig .tc .hbm S1024x128 .f32) (v : CpVal F) : sProp 𝕄 :=
  iprop(((kvPl off inb).view.loc (c : Thread nD τ) ↦[(kvPl off inb).view.set]{fullShare} (kvPl off inb).view.writes (Elt F) f5 [⟨Rect.whole S1024x128, v⟩])
    ∗ (src.view.loc (c : Thread nD τ) ↦[src.view.set]{q} m (src.view.loc (c : Thread nD τ))))

theorem cpDeliv_congr {q : PosShare TreeShare} {off off' : Fin 4 → ℕ} {inb inb'} {src src' : Memref sig .tc .hbm S1024x128 .f32} {v v' : CpVal F}
    (h : off = off') (hs : src = src') (hv : v = v') : cpDeliv c f5 m q off inb src v = cpDeliv c f5 m q off' inb' src' v' := by
  subst h; subst hs; subst hv; rfl

/-- A batch of four copies on one semaphore, all issued, none waited for. The first three read their source with half
    the share (the other half stays with the device); the fourth, the last of its source array's use in the batch, with all of it. -/
def cpBatch (sem : DmaSem sig) (D0 D1 D2 D3 : sProp 𝕄) : sProp 𝕄 :=
  Transfers.Batched countersEmb (c : Thread nD τ) (SemLoc.dma sem) default 16384 4 [D0, D1, D2, D3] 0

theorem cpBatch_congr {sem sem' : DmaSem sig} {D0 D1 D2 D3 D0' D1' D2' D3' : sProp 𝕄} (hs : sem = sem') (h0 : D0 = D0') (h1 : D1 = D1') (h2 : D2 = D2') (h3 : D3 = D3') :
    cpBatch (F := F) c sem D0 D1 D2 D3 = cpBatch c sem' D0' D1' D2' D3' := by
  subst hs; subst h0; subst h1; subst h2; subst h3; rfl

variable (vals : Fin 16 → CpVal F)

/-- Batch `b` as issued: semaphore `b`, the key and value planes `2b`, `2b + 1`, from batch `b`'s source planes, the values in issue order. -/
def batL : Fin 4 → sProp 𝕄
  | 0 => cpBatch c (copySem 0)
      (cpDeliv c f5 m fullShare.right ![0, 0, 0, 0] inb_S2x8x1024x128_S1x1x1024x128_0_0_0_0 (hbKS 0 0) (vals 0)) (cpDeliv c f5 m fullShare.right ![1, 0, 0, 0] inb_S2x8x1024x128_S1x1x1024x128_1_0_0_0 (hbVS 0 0) (vals 1))
      (cpDeliv c f5 m fullShare.right ![0, 1, 0, 0] inb_S2x8x1024x128_S1x1x1024x128_0_1_0_0 (hbKS 0 1) (vals 2)) (cpDeliv c f5 m fullShare ![1, 1, 0, 0] inb_S2x8x1024x128_S1x1x1024x128_1_1_0_0 (hbVS 0 1) (vals 3))
  | 1 => cpBatch c (copySem 1)
      (cpDeliv c f5 m fullShare.right ![0, 2, 0, 0] inb_S2x8x1024x128_S1x1x1024x128_0_2_0_0 (hbKS 1 0) (vals 4)) (cpDeliv c f5 m fullShare.right ![1, 2, 0, 0] inb_S2x8x1024x128_S1x1x1024x128_1_2_0_0 (hbVS 1 0) (vals 5))
      (cpDeliv c f5 m fullShare.right ![0, 3, 0, 0] inb_S2x8x1024x128_S1x1x1024x128_0_3_0_0 (hbKS 1 1) (vals 6)) (cpDeliv c f5 m fullShare ![1, 3, 0, 0] inb_S2x8x1024x128_S1x1x1024x128_1_3_0_0 (hbVS 1 1) (vals 7))
  | 2 => cpBatch c (copySem 2)
      (cpDeliv c f5 m fullShare.right ![0, 4, 0, 0] inb_S2x8x1024x128_S1x1x1024x128_0_4_0_0 (hbKS 2 0) (vals 8)) (cpDeliv c f5 m fullShare.right ![1, 4, 0, 0] inb_S2x8x1024x128_S1x1x1024x128_1_4_0_0 (hbVS 2 0) (vals 9))
      (cpDeliv c f5 m fullShare.right ![0, 5, 0, 0] inb_S2x8x1024x128_S1x1x1024x128_0_5_0_0 (hbKS 2 1) (vals 10)) (cpDeliv c f5 m fullShare ![1, 5, 0, 0] inb_S2x8x1024x128_S1x1x1024x128_1_5_0_0 (hbVS 2 1) (vals 11))
  | 3 => cpBatch c (copySem 3)
      (cpDeliv c f5 m fullShare.right ![0, 6, 0, 0] inb_S2x8x1024x128_S1x1x1024x128_0_6_0_0 (hbKS 3 0) (vals 12)) (cpDeliv c f5 m fullShare.right ![1, 6, 0, 0] inb_S2x8x1024x128_S1x1x1024x128_1_6_0_0 (hbVS 3 0) (vals 13))
      (cpDeliv c f5 m fullShare.right ![0, 7, 0, 0] inb_S2x8x1024x128_S1x1x1024x128_0_7_0_0 (hbKS 3 1) (vals 14)) (cpDeliv c f5 m fullShare ![1, 7, 0, 0] inb_S2x8x1024x128_S1x1x1024x128_1_7_0_0 (hbVS 3 1) (vals 15))

/-- Which issued copy the `i`-th copy of the device's `j`-th batch is. -/
def vIdx (j : Fin 4) (i : Fin 4) : Fin 16 := ⟨4 * ((c.val + j.val) % 4) + i.val, by have := Nat.mod_lt (c.val + j.val) (by decide : 0 < 4); have := i.isLt; omega⟩

/-- The device's `j`-th batch, as its waits name it. -/
def batD : Fin 4 → sProp 𝕄
  | 0 => cpBatch c (csemD c 0)
      (cpDeliv c f5 m fullShare.right (k0_off2 c 0#32) (k0_off2_inb c 0) (hbKD c 0 0) (vals (vIdx c 0 0))) (cpDeliv c f5 m fullShare.right (k0_off4 c 0#32) (k0_off4_inb c 0) (hbVD c 0 0) (vals (vIdx c 0 1)))
      (cpDeliv c f5 m fullShare.right (k0_off2 c 1#32) (k0_off2_inb c 1) (hbKD c 0 1) (vals (vIdx c 0 2))) (cpDeliv c f5 m fullShare (k0_off4 c 1#32) (k0_off4_inb c 1) (hbVD c 0 1) (vals (vIdx c 0 3)))
  | 1 => cpBatch c (csemD c 1)
      (cpDeliv c f5 m fullShare.right (k0_off18 c 1#32 0#32) (k0_off18_inb c 0 0) (hbKD c 1 0) (vals (vIdx c 1 0))) (cpDeliv c f5 m fullShare.right (k0_off20 c 1#32 0#32) (k0_off20_inb c 0 0) (hbVD c 1 0) (vals (vIdx c 1 1)))
      (cpDeliv c f5 m fullShare.right (k0_off18 c 1#32 1#32) (k0_off18_inb c 0 1) (hbKD c 1 1) (vals (vIdx c 1 2))) (cpDeliv c f5 m fullShare (k0_off20 c 1#32 1#32) (k0_off20_inb c 0 1) (hbVD c 1 1) (vals (vIdx c 1 3)))
  | 2 => cpBatch c (csemD c 2)
      (cpDeliv c f5 m fullShare.right (k0_off18 c 2#32 0#32) (k0_off18_inb c 1 0) (hbKD c 2 0) (vals (vIdx c 2 0))) (cpDeliv c f5 m fullShare.right (k0_off20 c 2#32 0#32) (k0_off20_inb c 1 0) (hbVD c 2 0) (vals (vIdx c 2 1)))
      (cpDeliv c f5 m fullShare.right (k0_off18 c 2#32 1#32) (k0_off18_inb c 1 1) (hbKD c 2 1) (vals (vIdx c 2 2))) (cpDeliv c f5 m fullShare (k0_off20 c 2#32 1#32) (k0_off20_inb c 1 1) (hbVD c 2 1) (vals (vIdx c 2 3)))
  | 3 => cpBatch c (csemD c 3)
      (cpDeliv c f5 m fullShare.right (k0_off18 c 3#32 0#32) (k0_off18_inb c 2 0) (hbKD c 3 0) (vals (vIdx c 3 0))) (cpDeliv c f5 m fullShare.right (k0_off20 c 3#32 0#32) (k0_off20_inb c 2 0) (hbVD c 3 0) (vals (vIdx c 3 1)))
      (cpDeliv c f5 m fullShare.right (k0_off18 c 3#32 1#32) (k0_off18_inb c 2 1) (hbKD c 3 1) (vals (vIdx c 3 2))) (cpDeliv c f5 m fullShare (k0_off20 c 3#32 1#32) (k0_off20_inb c 2 1) (hbVD c 3 1) (vals (vIdx c 3 3)))

/-- The device's `j`-th batch is issued batch `(c + j) mod 4`. -/
theorem batD_eq (j : Fin 4) : batD c f5 m vals j = batL c f5 m vals (bIdx c j) := by
  fin_cases c <;> fin_cases j <;>
    exact cpBatch_congr _ (csemD_eq_copySem _ _)
      (cpDeliv_congr _ _ _ (by decide +kernel) (hbKD_eq _ _ _) rfl) (cpDeliv_congr _ _ _ (by decide +kernel) (hbVD_eq _ _ _) rfl)
      (cpDeliv_congr _ _ _ (by decide +kernel) (hbKD_eq _ _ _) rfl) (cpDeliv_congr _ _ _ (by decide +kernel) (hbVD_eq _ _ _) rfl)

/-- The four batches as issued are the four batches as the device numbers them: a rotation by the device's number. -/
theorem batches_rel :
    iprop(batL c f5 m vals 0 ∗ batL c f5 m vals 1 ∗ batL c f5 m vals 2 ∗ batL c f5 m vals 3)
      ⊢ iprop(batD c f5 m vals 0 ∗ batD c f5 m vals 1 ∗ batD c f5 m vals 2 ∗ batD c f5 m vals 3) := by
  rw [batD_eq, batD_eq, batD_eq, batD_eq]
  iintro ⟨H0, H1, H2, H3⟩
  fin_cases c
  · isplitl [H0]; · iexact H0
    isplitl [H1]; · iexact H1
    isplitl [H2]; · iexact H2
    iexact H3
  · isplitl [H1]; · iexact H1
    isplitl [H2]; · iexact H2
    isplitl [H3]; · iexact H3
    iexact H0
  · isplitl [H2]; · iexact H2
    isplitl [H3]; · iexact H3
    isplitl [H0]; · iexact H0
    iexact H1
  · isplitl [H3]; · iexact H3
    isplitl [H0]; · iexact H0
    isplitl [H1]; · iexact H1
    iexact H2

end Cert.KernelIdeal.Proto

end
-- ==== Proof.TailSpec.lean ====
/-
  The cut between the body's merge steps and its tail, and what the body owes at its end.

  At the cut device `c` has made every payment but the gathering's six transfers; the twelve transfers of the reduction
  are closed. It holds: the staged arguments as it found them; the result block's buffer with block `q = c + 1` at the first
  output term; the projected `Wo`; the last hop's landing slices of the numerators and denominators at what its
  neighbours sent; the two halves of its own block of the gathered result; and, for each of the six transfers to come,
  its two positions, the two duty tokens it pays with, the credit of its own receive cell, and the neighbour's landing
  slice. At the end it hands back the scratch buffers, every semaphore of its own at zero, the two unstaged arrays as
  they were, the staged arguments as it found them and the result block.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.Within
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.Gen.KernelIdeal.Frame
import proofs.«900754_g7700000000000755_dist_attn_cross_gqa_kvseq_b4_sq256_skv1024_d1024_hq8_dh128_v7x_i4_f32_1_alg».proof.Proof.Gen.KernelIdeal.Points

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A whole buffer at contents `f`, spelt through the whole buffer's memref. -/
abbrev wholeAt (c : Dev nD) (b : Ref sig .tc) (f : Buf (Elt F) ((c : Thread nD τ).loc b)) : sProp 𝕄 :=
  (Memref.whole b).view.loc (c : Thread nD τ) ↦[(Memref.whole b).view.set]{fullShare} f

/-- The gathering's six payments, in the program's order. -/
def gProg : List Pay := [.xfer .g false 0, .xfer .g true 0, .xfer .g false 1, .xfer .g true 1, .xfer .g false 2, .xfer .g true 2]

/-- What device `c` holds of the gathering's transfer in direction `l` at hop `h` before it enqueues it: its positions at the
    transfer's two cells, the tokens of the two duties it pays, the credit of its own receive cell, the neighbour's landing
    slice at some contents, and that round 0 of the two cells it pays is reached. -/
def gXfer (c : Dev nD) (l : Bool) (h : Fin 3) : sProp 𝕄 :=
  iprop(atPos ER (sendCell c .g l h) 0 ∅ 0 ∗ atPos ER (recvCell c .g l h) 0 ∅ 0
    ∗ dutyTok ER (sendCell c .g l h) 0 false ∗ dutyTok ER (recvCell (toDev c l) .g l h) 0 false
    ∗ cred (tallyAt (recvCell c .g l h) () (amt .g))
    ∗ held (toDev c l) (agS c h l)
    ∗ reached ER (sendCell c .g l h) 0 ∗ reached ER (recvCell (toDev c l) .g l h) 0)

/-- The two cells of a closed transfer, their counters at zero. -/
def closedX (c : Dev nD) (k : Kind) (l : Bool) (h : Fin 3) : sProp 𝕄 :=
  iprop(semVal (sendCell c k l h) 0 ∗ semVal (recvCell c k l h) 0)

variable (m : (ℓ : Loc nD τ sig) → Buf (Elt F) ℓ)

/-- What device `c` holds at the cut, at the names `K` and with the waits `W` recorded. -/
def AtTail (c : Dev nD) (K : Names) (W : Waits sig Unit) : sProp 𝕄 :=
  iprop(invs (KFun.V m) K c ∗ levAts L lv
    ∗ owes (c : Thread nD τ) (owedOf c gProg) W
    ∗ (gXfer c false 0 ∗ gXfer c true 0 ∗ gXfer c false 1 ∗ gXfer c true 1 ∗ gXfer c false 2 ∗ gXfer c true 2)
    ∗ (closedX c .o false 0 ∗ closedX c .l false 0 ∗ closedX c .o true 0 ∗ closedX c .l true 0
      ∗ closedX c .o false 1 ∗ closedX c .o true 1 ∗ closedX c .l false 1 ∗ closedX c .l true 1
      ∗ closedX c .o false 2 ∗ closedX c .o true 2 ∗ closedX c .l false 2 ∗ closedX c .l true 2)
    ∗ copySems0 c ∗ hbm m c
    -- the staged arguments, as the body found them
    ∗ wholeAt c cc0_stg0_0 ((dats (KFun.V m) m KFun.Kout 0 c).after 0 t0_0)
    ∗ wholeAt c cc0_stg1_0 ((dats (KFun.V m) m KFun.Kout 0 c).after 1 t0_0)
    ∗ wholeAt c cc0_stg2_0 ((dats (KFun.V m) m KFun.Kout 0 c).after 2 t0_0)
    -- the result block's buffer: block q = c + 1 at the first output term
    ∗ (∃ g3 : Buf (Elt F) ((c : Thread nD τ).loc cc0_stg3_0), wholeAt c cc0_stg3_0 g3
        ∗ ⌜((Memref.whole cc0_stg3_0 : Memref sig .tc .vmem S4x256x1024 .f32).access (rOwn c)).read (Elt F) g3 = KFun.acc0 m c⌝)
    -- the other scratch buffers that are held whole
    ∗ wholeEx c cc0_scratch4 ∗ wholeEx c cc0_scratch5 ∗ wholeEx c cc0_scratch6 ∗ wholeEx c cc0_scratch7
    ∗ wholeAt c cc0_scratch8 (KFun.wob m c) ∗ wholeEx c cc0_scratch9
    -- the partial sums, by half blocks
    ∗ (held c (locHalfO c 0 false) ∗ held c (locHalfO c 0 true) ∗ held c (locHalfO c 1 false) ∗ held c (locHalfO c 1 true)
      ∗ held c (locHalfO c 2 false) ∗ held c (locHalfO c 2 true) ∗ held c (locHalfO c 3 false) ∗ held c (locHalfO c 3 true))
    ∗ (held c (locHalfL c 0 false) ∗ held c (locHalfL c 0 true) ∗ held c (locHalfL c 1 false) ∗ held c (locHalfL c 1 true)
      ∗ held c (locHalfL c 2 false) ∗ held c (locHalfL c 2 true) ∗ held c (locHalfL c 3 false) ∗ held c (locHalfL c 3 true))
    -- the ring's landing slices: the last hop's at what the neighbours sent, the earlier hops' at some contents
    ∗ heldAs c (dstO 2 false) (fun t => KFun.voC m 3 c false (⟨(t 0).val, (t 0).isLt⟩ : Fin 4) (⟨(t 1).val, (t 1).isLt⟩ : Fin 128) (⟨(t 2).val, (t 2).isLt⟩ : Fin 256))
    ∗ heldAs c (dstO 2 true) (fun t => KFun.voC m 3 c true (⟨(t 0).val, (t 0).isLt⟩ : Fin 4) (⟨(t 1).val, (t 1).isLt⟩ : Fin 128) (⟨(t 2).val, (t 2).isLt⟩ : Fin 256))
    ∗ held c (dstO 0 false) ∗ held c (dstO 0 true) ∗ held c (dstO 1 false) ∗ held c (dstO 1 true)
    ∗ heldAs c (dstL 2 false) (fun t => KFun.vlC m 3 c false (⟨(t 0).val, (t 0).isLt⟩ : Fin 4) (⟨(t 2).val, (t 2).isLt⟩ : Fin 256))
    ∗ heldAs c (dstL 2 true) (fun t => KFun.vlC m 3 c true (⟨(t 0).val, (t 0).isLt⟩ : Fin 4) (⟨(t 2).val, (t 2).isLt⟩ : Fin 256))
    ∗ held c (dstL 0 false) ∗ held c (dstL 0 true) ∗ held c (dstL 1 false) ∗ held c (dstL 1 true)
    -- the two halves of the own block of the gathered result, at one contents
    ∗ (∃ f : Buf (Elt F) ((c : Thread nD τ).loc cc0_scratch23),
        ((agS c 0 false).view.loc (c : Thread nD τ) ↦[(agS c 0 false).view.set]{fullShare} f)
        ∗ ((agS c 0 true).view.loc (c : Thread nD τ) ↦[(agS c 0 true).view.set]{fullShare} f)))

/-- What the body hands back at its end. -/
def bodyPost (c : Dev nD) : sProp 𝕄 :=
  iprop(Φ₁ m c ∗ (dats (KFun.V m) m KFun.Kout 0 c).owesAt () t0_0.succ
    ∗ (∃ f, ⌜f = (dats (KFun.V m) m KFun.Kout 0 c).after 0 t0_0⌝ ∗ (c : Thread nD τ).loc cc0_stg0_0 ↦{fullShare} f)
    ∗ (∃ f, ⌜f = (dats (KFun.V m) m KFun.Kout 0 c).after 1 t0_0⌝ ∗ (c : Thread nD τ).loc cc0_stg1_0 ↦{fullShare} f)
    ∗ (∃ f, ⌜f = (dats (KFun.V m) m KFun.Kout 0 c).after 2 t0_0⌝ ∗ (c : Thread nD τ).loc cc0_stg2_0 ↦{fullShare} f)
    ∗ ∃ f, ⌜f = (dats (KFun.V m) m KFun.Kout 0 c).after 3 t0_0⌝ ∗ (c : Thread nD τ).loc cc0_stg3_0 ↦{fullShare} f)

end Cert.KernelIdeal.Proto

end
-- ==== Proof.Cut15.lean ====
/-
  The cut before the body's first flash loop.

  At the cut device `c` has paid its two barrier units (handing its neighbours its landing slices of the ring's stage
  buffers and six half blocks of the gathered result) and nothing else; all eighteen transfers are untouched. It holds: the
  barrier cell's credit and position; the staged arguments as it found them; the projected weights; the projected queries
  of batch `c`, heads 0–6, stored (head 7 is the cut's first statement); the key and value planes of batch `c`
  copied and cast; the sixteen local copies issued, batch `c`'s waited for, the other three in flight; the per-device
  partial sums' buffers as four blocks each, at any contents; the two halves of its own block of the gathered result.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.Within
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.KvRel
import proofs.«900754_g7700000000000755_dist_attn_cross_gqa_kvseq_b4_sq256_skv1024_d1024_hq8_dh128_v7x_i4_f32_1_alg».proof.Proof.TailSpec
import proofs.«900754_g7700000000000755_dist_attn_cross_gqa_kvseq_b4_sq256_skv1024_d1024_hq8_dh128_v7x_i4_f32_1_alg».proof.Proof.Gen.KernelIdeal.Frame
import proofs.«900754_g7700000000000755_dist_attn_cross_gqa_kvseq_b4_sq256_skv1024_d1024_hq8_dh128_v7x_i4_f32_1_alg».proof.Proof.Gen.KernelIdeal.Points

noncomputable section

namespace Cert.KernelIdeal.Proto

open Cert.KernelIdeal Cert.KernelIdeal.Gen Cert.KernelIdeal.Ring

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What device `c` holds of a transfer it has not enqueued and whose landing slice at the neighbour it has not been
    handed yet: its positions at the transfer's two cells, the tokens of the two duties it pays, the credit of its own
    receive cell, and that round 0 of its own two cells is reached. -/
def freshX (c : Dev nD) (k : Kind) (l : Bool) (h : Fin 3) : sProp 𝕄 :=
  iprop(atPos ER (sendCell c k l h) 0 ∅ 0 ∗ atPos ER (recvCell c k l h) 0 ∅ 0
    ∗ dutyTok ER (sendCell c k l h) 0 false ∗ dutyTok ER (recvCell (toDev c l) k l h) 0 false
    ∗ cred (tallyAt (recvCell c k l h) () (amt k))
    ∗ reached ER (sendCell c k l h) 0 ∗ reached ER (recvCell c k l h) 0)

variable (m : (ℓ : Loc nD τ sig) → Buf (Elt F) ℓ)

/-- The index words the earlier parts hand on: the barrier semaphore and the projected queries of batch `c`. (The three
    position words enter the later parts only through the generated offset chains, which are functions of the device.) -/
def words15 (c : Dev nD) (v26 : Sems sig S_) (v226 : FVec F S256x1024 .f32) : Prop :=
  v26 = SemArray.scalar (sig.barrier 0 rfl) ∧ v226 = KFun.qb m c c

/-- The device's batches 3 and 1 in flight, under names of their own: they are waited for after batch 2. -/
def later3 (c : Dev nD) (f5 : Buf (Elt F) ((c : Thread nD τ).loc cc0_scratch5)) (vals : Fin 16 → CpVal F) : sProp 𝕄 := batD c f5 m vals 3
def later1 (c : Dev nD) (f5 : Buf (Elt F) ((c : Thread nD τ).loc cc0_scratch5)) (vals : Fin 16 → CpVal F) : sProp 𝕄 := batD c f5 m vals 1

/-- The local copies at the cut: batch `c` (the device's batch 0) waited for — its four planes at any contents
    (their rows are cast already), the parts of its source planes its copies took, its semaphore at zero —; the device's batches 1, 2, 3 in flight. The
    sources' shares are the run's: a copy reads with the right half (the last of a batch with the whole), the left half stays. -/
def kvCut15 (c : Dev nD) : sProp 𝕄 :=
  iprop(∃ (f5 : Buf (Elt F) ((c : Thread nD τ).loc cc0_scratch5)) (vals : Fin 16 → CpVal F),
    ⌜∀ (j : Fin 4) (g : Fin 2), vals (vIdx c j ⟨2 * g.val, by omega⟩) = (hbKD c j g).view.read (Elt F) (m ((hbKD c j g).view.loc (c : Thread nD τ)))
        ∧ vals (vIdx c j ⟨2 * g.val + 1, by omega⟩) = (hbVD c j g).view.read (Elt F) (m ((hbVD c j g).view.loc (c : Thread nD τ)))⌝
    ∗ (batD c f5 m vals 2 ∗ later3 m c f5 vals ∗ later1 m c f5 vals)
    -- the device's batch 0, waited for: its four planes (the casts have read them; nothing reads them again) and what its
    -- copies took of their source planes
    ∗ (held c (kvD c 0 0 0) ∗ held c (kvD c 0 1 0) ∗ held c (kvD c 0 0 1) ∗ held c (kvD c 0 1 1))
    ∗ (((hbKD c 0 0).view.loc (c : Thread nD τ) ↦[(hbKD c 0 0).view.set]{fullShare.right} m ((hbKD c 0 0).view.loc (c : Thread nD τ)))
      ∗ ((hbVD c 0 0).view.loc (c : Thread nD τ) ↦[(hbVD c 0 0).view.set]{fullShare.right} m ((hbVD c 0 0).view.loc (c : Thread nD τ)))
      ∗ ((hbKD c 0 1).view.loc (c : Thread nD τ) ↦[(hbKD c 0 1).view.set]{fullShare.right} m ((hbKD c 0 1).view.loc (c : Thread nD τ)))
      ∗ ((hbVD c 0 1).view.loc (c : Thread nD τ) ↦[(hbVD c 0 1).view.set]{fullShare} m ((hbVD c 0 1).view.loc (c : Thread nD τ))))
    ∗ semVal (((c : Thread nD τ), .dma (csemD c 0)) : GSem nD τ sig) 0
    -- the halves of the source planes the copies did not take
    ∗ (bigSep Finset.univ fun j : Fin 4 =>
        iprop(((hbKD c j 0).view.loc (c : Thread nD τ) ↦[(hbKD c j 0).view.set]{fullShare.left} m ((hbKD c j 0).view.loc (c : Thread nD τ)))
          ∗ ((hbVD c j 0).view.loc (c : Thread nD τ) ↦[(hbVD c j 0).view.set]{fullShare.left} m ((hbVD c j 0).view.loc (c : Thread nD τ)))
          ∗ ((hbKD c j 1).view.loc (c : Thread nD τ) ↦[(hbKD c j 1).view.set]{fullShare.left} m ((hbKD c j 1).view.loc (c : Thread nD τ))))))

/-- What device `c` holds at the cut, at the names `K` and with the waits `W` recorded. -/
def At15 (c : Dev nD) (K : Names) (W : Waits sig Unit) (v26 : Sems sig S_) (v226 : FVec F S256x1024 .f32) : sProp 𝕄 :=
  iprop(invs (KFun.V m) K c ∗ levAts L lv
    ∗ ⌜words15 m c v26 v226⌝
    ∗ owes (c : Thread nD τ) (owedOf c (prog.drop 2)) W
    -- the barrier cell: both neighbours' units are owed to it
    ∗ cred (tallyAt (barCell c) () 2) ∗ atPos ER (barCell c) 0 ∅ 0
    -- the eighteen transfers, none enqueued
    ∗ (bigSep Finset.univ fun x : Xfer => freshX c x.1 x.2.1 x.2.2)
    -- the staged arguments, as the body found them, and the result block's buffer
    ∗ wholeAt c cc0_stg0_0 ((dats (KFun.V m) m KFun.Kout 0 c).after 0 t0_0)
    ∗ wholeAt c cc0_stg1_0 ((dats (KFun.V m) m KFun.Kout 0 c).after 1 t0_0)
    ∗ wholeAt c cc0_stg2_0 ((dats (KFun.V m) m KFun.Kout 0 c).after 2 t0_0)
    ∗ wholeEx c cc0_stg3_0
    -- the projected queries: batch c's heads 0–6 stored
    ∗ (∃ f4 : Buf (Elt F) ((c : Thread nD τ).loc cc0_scratch4), wholeAt c cc0_scratch4 f4
        ∗ ⌜∀ (h : Fin 8), h.val < 7 → ∀ (i : Fin 256) (d : Fin 128),
            f4 (ix3 (⟨8 * c.val + h.val, by have := c.isLt; have : c.val < 4 := c.isLt; omega⟩ : Fin 32) i d) = KFun.q2 m c c h (ix3 0 i d)⌝)
    ∗ wholeEx c cc0_scratch6
    ∗ wholeAt c cc0_scratch7 (KFun.wqb m c) ∗ wholeAt c cc0_scratch8 (KFun.wob m c)
    -- the narrowed key and value planes: batch c's four cast
    ∗ (∃ f9 : Buf (Elt F) ((c : Thread nD τ).loc cc0_scratch9), wholeAt c cc0_scratch9 f9
        ∗ ⌜∀ (g : Fin 2) (j : Fin 1024) (d : Fin 128),
            f9 (ix4 (0 : Fin 2) (⟨2 * c.val + g.val, by have : c.val < 4 := c.isLt; omega⟩ : Fin 8) j d) = KFun.kh m c c g (ix4 0 0 j d)
            ∧ f9 (ix4 (1 : Fin 2) (⟨2 * c.val + g.val, by have : c.val < 4 := c.isLt; omega⟩ : Fin 8) j d) = KFun.vh m c c g (ix4 0 0 j d)⌝)
    -- the local copies
    ∗ kvCut15 m c
    -- the partial sums' buffers, by blocks
    ∗ (bigSep Finset.univ fun j : Fin 4 => held c (locBlkO c j))
    ∗ (bigSep Finset.univ fun j : Fin 4 => held c (locBlkL c j))
    -- the two halves of the own block of the gathered result, at one contents
    ∗ (∃ f : Buf (Elt F) ((c : Thread nD τ).loc cc0_scratch23),
        ((agS c 0 false).view.loc (c : Thread nD τ) ↦[(agS c 0 false).view.set]{fullShare} f)
        ∗ ((agS c 0 true).view.loc (c : Thread nD τ) ↦[(agS c 0 true).view.set]{fullShare} f)))

end Cert.KernelIdeal.Proto

end
-- ==== Proof.Cut27.lean ====
/-
  The cut before the first merge.

  Device c has paid both barrier units and enqueued the four copies of hop 0 (numerators and denominators, to the right
  and to the left); it has waited for its barrier. It holds: both positions and both credits of each of those four
  copies, none waited for yet; for each of the four copies of hop 1, its two positions, the two duty tokens it pays with,
  the credit of its own receive cell and the neighbour's landing slice; the two halves of block 3 (batch c − 1) of its
  partial numerators and of its partial denominators, at the rows the flash step of that batch computed; and whatever
  else it holds, which the steps up to the next cut do not touch (R).
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.LocSplit

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

namespace C27

/-- A copy under way, not yet waited for: the device's positions at its two cells and the credit of both. -/
def sentX (c : Dev nD) (k : Kind) (l : Bool) (h : Fin 3) : sProp 𝕄 :=
  iprop(atPos ER (sendCell c k l h) 0 ∅ 0 ∗ atPos ER (recvCell c k l h) 0 ∅ 0
    ∗ cred (tallyAt (sendCell c k l h) () (amt k)) ∗ cred (tallyAt (recvCell c k l h) () (amt k)))

/-- What device c holds of the numerators' copy in direction l at hop h before it enqueues it: its positions at the copy's
    two cells, the tokens of the two duties it pays, the credit of its own receive cell, the neighbour's landing slice at
    some contents, and that round 0 of the two cells it pays is reached. -/
def freshO (c : Dev nD) (l : Bool) (h : Fin 3) : sProp 𝕄 :=
  iprop(atPos ER (sendCell c .o l h) 0 ∅ 0 ∗ atPos ER (recvCell c .o l h) 0 ∅ 0
    ∗ dutyTok ER (sendCell c .o l h) 0 false ∗ dutyTok ER (recvCell (toDev c l) .o l h) 0 false
    ∗ cred (tallyAt (recvCell c .o l h) () (amt .o))
    ∗ held (toDev c l) (dstO h l)
    ∗ reached ER (sendCell c .o l h) 0 ∗ reached ER (recvCell (toDev c l) .o l h) 0)
/-- The same for the denominators' copy. -/
def freshL (c : Dev nD) (l : Bool) (h : Fin 3) : sProp 𝕄 :=
  iprop(atPos ER (sendCell c .l l h) 0 ∅ 0 ∗ atPos ER (recvCell c .l l h) 0 ∅ 0
    ∗ dutyTok ER (sendCell c .l l h) 0 false ∗ dutyTok ER (recvCell (toDev c l) .l l h) 0 false
    ∗ cred (tallyAt (recvCell c .l l h) () (amt .l))
    ∗ held (toDev c l) (dstL h l)
    ∗ reached ER (sendCell c .l l h) 0 ∗ reached ER (recvCell (toDev c l) .l l h) 0)

/-- Block 3 of the partial numerators (batch c − 1) as its two halves, at one contents whose eight rows are that batch's
    flash outputs, head by head. -/
def blk3O (c : Dev nD) : sProp 𝕄 :=
  iprop(∃ f : Buf (Elt F) ((c : Thread nD τ).loc cc0_scratch0),
    ((locHalfO c 3 false).view.loc (c : Thread nD τ) ↦[(locHalfO c 3 false).view.set]{fullShare} f)
    ∗ ((locHalfO c 3 true).view.loc (c : Thread nD τ) ↦[(locHalfO c 3 true).view.set]{fullShare} f)
    ∗ ⌜∀ (k : Fin 8) (d : Fin 128) (i : Fin 256),
        f (ix3 (⟨8 * ((c.val + 3) % 4) + k.val, by omega⟩ : Fin 32) d i) = KFun.ot m c (prv c) k (ix3 0 d i)⌝)
/-- and of the partial denominators. -/
def blk3L (c : Dev nD) : sProp 𝕄 :=
  iprop(∃ f : Buf (Elt F) ((c : Thread nD τ).loc cc0_scratch1),
    ((locHalfL c 3 false).view.loc (c : Thread nD τ) ↦[(locHalfL c 3 false).view.set]{fullShare} f)
    ∗ ((locHalfL c 3 true).view.loc (c : Thread nD τ) ↦[(locHalfL c 3 true).view.set]{fullShare} f)
    ∗ ⌜∀ (k : Fin 8) (i : Fin 256),
        f (ix3 (⟨8 * ((c.val + 3) % 4) + k.val, by omega⟩ : Fin 32) (0 : Fin 1) i) = KFun.lrow m c (prv c) k (ix3 0 0 i)⌝)

/-- The two cells of a closed copy, their counters at zero. -/
def closedX (c : Dev nD) (k : Kind) (l : Bool) (h : Fin 3) : sProp 𝕄 :=
  iprop(semVal (sendCell c k l h) 0 ∗ semVal (recvCell c k l h) 0)

end C27

open C27 in
/-- What device c holds at the cut, at the names K and with the waits W recorded; R is what it holds besides and the steps
    to the next cut leave alone; d0, v2, v14, v25 are the index words the earlier steps hand on (d0 is the device). -/
def At27 (c : Dev nD) (K : Names) (W : Waits sig Unit) (R : sProp 𝕄) (d0 : Dev nD) (v2 v14 v25 : BitVec 32) : sProp 𝕄 :=
  iprop(⌜d0 = c⌝ ∗ invs (KFun.V m) K c ∗ levAts L lv
    ∗ owes (c : Thread nD τ) (owedOf c (prog.drop 6)) W
    ∗ (sentX c .o false 0 ∗ sentX c .l false 0 ∗ sentX c .o true 0 ∗ sentX c .l true 0)
    ∗ (freshO c false 1 ∗ freshO c true 1 ∗ freshL c false 1 ∗ freshL c true 1)
    ∗ blk3O m c ∗ blk3L m c
    ∗ R)

open C27 in
/-- What the steps from that cut to the next leave, at the waits W' and with the same R: the four copies of hop 0 closed, their
    four source half blocks back as they were sent; the landing slices of hop 0 merged with block 3's rows and sent on,
    so the four copies of hop 1 are under way; block 3's halves as they were. The two words r are what the steps hand on. -/
def Post32 (c : Dev nD) (K : Names) (W' : Waits sig Unit) (R : sProp 𝕄) (r : Σ' (_ : BitVec 32), BitVec 32) : sProp 𝕄 :=
  iprop(invs (KFun.V m) K c ∗ levAts L lv
    ∗ owes (c : Thread nD τ) (owedOf c (prog.drop 10)) W'
    ∗ (closedX c .o false 0 ∗ closedX c .l false 0 ∗ closedX c .o true 0 ∗ closedX c .l true 0)
    ∗ (sentX c .o false 1 ∗ sentX c .o true 1 ∗ sentX c .l false 1 ∗ sentX c .l true 1)
    ∗ (sendPay (KFun.V m) c .o false 0 ∗ sendPay (KFun.V m) c .l false 0 ∗ sendPay (KFun.V m) c .o true 0 ∗ sendPay (KFun.V m) c .l true 0)
    ∗ blk3O m c ∗ blk3L m c
    ∗ R)

end Cert.KernelIdeal.Proto

end
-- ==== Proof.Rest27.lean ====
/-
  What device `c` holds at the cut after its third flash loop besides what the next steps touch.

  The barrier is waited for; the neighbours' landing slices of the last hop and of the gathering are in hand; the
  transfers of hop 2 and of the gathering are untouched; the staged arguments, the projected weights and the work buffers
  are whole; of the sixteen local copies the device's batches 0, 2, 3 are waited for and batch 1 is in flight; of the
  partial sums, the halves lent to the hop-0 copies are away, the other half of block 0 (batch `c`, heads 4–7) and of
  block 2 (batch `c + 2`, heads 0–3) hold their flash outputs, block 1 is untouched.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.Within
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.KvRel
import proofs.«900754_g7700000000000755_dist_attn_cross_gqa_kvseq_b4_sq256_skv1024_d1024_hq8_dh128_v7x_i4_f32_1_alg».proof.Proof.TailSpec
import proofs.«900754_g7700000000000755_dist_attn_cross_gqa_kvseq_b4_sq256_skv1024_d1024_hq8_dh128_v7x_i4_f32_1_alg».proof.Proof.Cut15
import proofs.«900754_g7700000000000755_dist_attn_cross_gqa_kvseq_b4_sq256_skv1024_d1024_hq8_dh128_v7x_i4_f32_1_alg».proof.Proof.Cut27
import proofs.«900754_g7700000000000755_dist_attn_cross_gqa_kvseq_b4_sq256_skv1024_d1024_hq8_dh128_v7x_i4_f32_1_alg».proof.Proof.Gen.KernelIdeal.Frame
import proofs.«900754_g7700000000000755_dist_attn_cross_gqa_kvseq_b4_sq256_skv1024_d1024_hq8_dh128_v7x_i4_f32_1_alg».proof.Proof.Gen.KernelIdeal.Points

noncomputable section

namespace Cert.KernelIdeal.Proto

open Cert.KernelIdeal Cert.KernelIdeal.Gen Cert.KernelIdeal.Ring

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device's batch `j` of local copies waited for: its four planes at any contents (their rows are cast), what its
    copies took of their source planes, its semaphore at zero. -/
def drained (c : Dev nD) (j : Fin 4) : sProp 𝕄 :=
  iprop((held c (kvD c j 0 0) ∗ held c (kvD c j 1 0) ∗ held c (kvD c j 0 1) ∗ held c (kvD c j 1 1))
    ∗ (((hbKD c j 0).view.loc (c : Thread nD τ) ↦[(hbKD c j 0).view.set]{fullShare.right} m ((hbKD c j 0).view.loc (c : Thread nD τ)))
      ∗ ((hbVD c j 0).view.loc (c : Thread nD τ) ↦[(hbVD c j 0).view.set]{fullShare.right} m ((hbVD c j 0).view.loc (c : Thread nD τ)))
      ∗ ((hbKD c j 1).view.loc (c : Thread nD τ) ↦[(hbKD c j 1).view.set]{fullShare.right} m ((hbKD c j 1).view.loc (c : Thread nD τ)))
      ∗ ((hbVD c j 1).view.loc (c : Thread nD τ) ↦[(hbVD c j 1).view.set]{fullShare} m ((hbVD c j 1).view.loc (c : Thread nD τ))))
    ∗ semVal (((c : Thread nD τ), .dma (csemD c j)) : GSem nD τ sig) 0)

/-- The neighbours' landing slices still in hand: the last hop's and the gathering's, with round 0 of their receive cells reached. -/
def nbrSlices (c : Dev nD) : sProp 𝕄 :=
  iprop(held (nxt c) (dstO 2 false) ∗ held (nxt c) (dstL 2 false) ∗ held (prv c) (dstO 2 true) ∗ held (prv c) (dstL 2 true)
    ∗ held (nxt c) (agS c 0 false) ∗ held (nxt c) (agS c 1 false) ∗ held (nxt c) (agS c 2 false)
    ∗ held (prv c) (agS c 0 true) ∗ held (prv c) (agS c 1 true) ∗ held (prv c) (agS c 2 true)
    ∗ reached ER (recvCell (nxt c) .o false 2) 0 ∗ reached ER (recvCell (nxt c) .l false 2) 0
    ∗ reached ER (recvCell (prv c) .o true 2) 0 ∗ reached ER (recvCell (prv c) .l true 2) 0
    ∗ reached ER (recvCell (nxt c) .g false 0) 0 ∗ reached ER (recvCell (nxt c) .g false 1) 0 ∗ reached ER (recvCell (nxt c) .g false 2) 0
    ∗ reached ER (recvCell (prv c) .g true 0) 0 ∗ reached ER (recvCell (prv c) .g true 1) 0 ∗ reached ER (recvCell (prv c) .g true 2) 0)

/-- Half `hb` of block `j` of the partial numerators at contents whose four rows are the flash outputs of batch `b`, heads
    `hb·4 … hb·4 + 3`; and of the partial denominators. -/
def halfRowsO (c : Dev nD) (j : Fin 4) (hb : Bool) (b : Fin 4) : sProp 𝕄 :=
  iprop(∃ f : Buf (Elt F) ((c : Thread nD τ).loc cc0_scratch0),
    ((locHalfO c j hb).view.loc (c : Thread nD τ) ↦[(locHalfO c j hb).view.set]{fullShare} f)
    ∗ ⌜∀ (k : Fin 4) (d : Fin 128) (i : Fin 256),
        f (ix3 (⟨halfRow c j hb + k.val, by have := halfRow_le c j hb; omega⟩ : Fin 32) d i) = KFun.ot m c b (KFun.headAt hb k) (ix3 0 d i)⌝)
def halfRowsL (c : Dev nD) (j : Fin 4) (hb : Bool) (b : Fin 4) : sProp 𝕄 :=
  iprop(∃ f : Buf (Elt F) ((c : Thread nD τ).loc cc0_scratch1),
    ((locHalfL c j hb).view.loc (c : Thread nD τ) ↦[(locHalfL c j hb).view.set]{fullShare} f)
    ∗ ⌜∀ (k : Fin 4) (i : Fin 256),
        f (ix3 (⟨halfRow c j hb + k.val, by have := halfRow_le c j hb; omega⟩ : Fin 32) (0 : Fin 1) i) = KFun.lrow m c b (KFun.headAt hb k) (ix3 0 0 i)⌝)

/-- The rest of the state at the cut. -/
def Rest27 (c : Dev nD) : sProp 𝕄 :=
  iprop(atPos ER (barCell c) 1 ∅ 0
    -- hop 2 and the gathering: untouched
    ∗ (freshX c .o false 2 ∗ freshX c .o true 2 ∗ freshX c .l false 2 ∗ freshX c .l true 2)
    ∗ (freshX c .g false 0 ∗ freshX c .g true 0 ∗ freshX c .g false 1 ∗ freshX c .g true 1 ∗ freshX c .g false 2 ∗ freshX c .g true 2)
    ∗ nbrSlices c
    -- the staged arguments, the result block's buffer, the projected weights, the work buffers
    ∗ wholeAt c cc0_stg0_0 ((dats (KFun.V m) m KFun.Kout 0 c).after 0 t0_0)
    ∗ wholeAt c cc0_stg1_0 ((dats (KFun.V m) m KFun.Kout 0 c).after 1 t0_0)
    ∗ wholeAt c cc0_stg2_0 ((dats (KFun.V m) m KFun.Kout 0 c).after 2 t0_0)
    ∗ wholeEx c cc0_stg3_0
    ∗ wholeAt c cc0_scratch7 (KFun.wqb m c) ∗ wholeAt c cc0_scratch8 (KFun.wob m c)
    ∗ (∃ f : Buf (Elt F) ((c : Thread nD τ).loc cc0_scratch4), wholeAt c cc0_scratch4 f)
    ∗ (∃ f : Buf (Elt F) ((c : Thread nD τ).loc cc0_scratch6), wholeAt c cc0_scratch6 f)
    ∗ (∃ f : Buf (Elt F) ((c : Thread nD τ).loc cc0_scratch9), wholeAt c cc0_scratch9 f)
    -- the local copies: batch 1 in flight, the others waited for, and the halves of the source planes the copies did not take
    ∗ (∃ (f5 : Buf (Elt F) ((c : Thread nD τ).loc cc0_scratch5)) (vals : Fin 16 → CpVal F),
        ⌜∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))⌝
        ∗ later1 m c f5 vals)
    ∗ drained m c 0 ∗ drained m c 2 ∗ drained m c 3
    ∗ (bigSep Finset.univ fun j : Fin 4 =>
        iprop(((hbKD c j 0).view.loc (c : Thread nD τ) ↦[(hbKD c j 0).view.set]{fullShare.left} m ((hbKD c j 0).view.loc (c : Thread nD τ)))
          ∗ ((hbVD c j 0).view.loc (c : Thread nD τ) ↦[(hbVD c j 0).view.set]{fullShare.left} m ((hbVD c j 0).view.loc (c : Thread nD τ)))
          ∗ ((hbKD c j 1).view.loc (c : Thread nD τ) ↦[(hbKD c j 1).view.set]{fullShare.left} m ((hbKD c j 1).view.loc (c : Thread nD τ)))))
    -- the partial sums: the halves not lent, and block 1
    ∗ halfRowsO m c 0 true c ∗ halfRowsL m c 0 true c
    ∗ halfRowsO m c 2 false (nxt (nxt c)) ∗ halfRowsL m c 2 false (nxt (nxt c))
    ∗ held c (locBlkO c 1) ∗ held c (locBlkL c 1)
    -- the two halves of the own block of the gathered result, at one contents
    ∗ (∃ f : Buf (Elt F) ((c : Thread nD τ).loc cc0_scratch23),
        ((agS c 0 false).view.loc (c : Thread nD τ) ↦[(agS c 0 false).view.set]{fullShare} f)
        ∗ ((agS c 0 true).view.loc (c : Thread nD τ) ↦[(agS c 0 true).view.set]{fullShare} f)))

end Cert.KernelIdeal.Proto

end
-- ==== Proof.Cut40.lean ====
/-
  The cut before the last merge of the reduction's second hop.

  At the cut device `c` has made its two barrier payments and the eight transfers of hops 0 and 1, all closed; the four
  transfers of hop 2 and the gathering's six are still to come. The right-going half of hop 1 is merged (it is what hop 2
  sends to the right); the left-going half is received and not yet merged. The device's own landing slices of hop 2 are
  with its neighbours until their transfers land.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.Within
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.Gen.KernelIdeal.Frame
import proofs.«900754_g7700000000000755_dist_attn_cross_gqa_kvseq_b4_sq256_skv1024_d1024_hq8_dh128_v7x_i4_f32_1_alg».proof.Proof.Gen.KernelIdeal.Points
import proofs.«900754_g7700000000000755_dist_attn_cross_gqa_kvseq_b4_sq256_skv1024_d1024_hq8_dh128_v7x_i4_f32_1_alg».proof.Proof.TailSpec

noncomputable section

namespace Cert.KernelIdeal.Proto

open Cert.KernelIdeal Cert.KernelIdeal.Gen Cert.KernelIdeal.Ring

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What device `c` holds of the numerators' transfer in direction `l` at hop `h` before it enqueues it: its positions
    at the transfer's two cells, the tokens of the two duties it pays, the credit of its own receive cell, the neighbour's
    landing slice at some contents, and that round 0 of the two cells it pays is reached. -/
def oXfer (c : Dev nD) (l : Bool) (h : Fin 3) : sProp 𝕄 :=
  iprop(atPos ER (sendCell c .o l h) 0 ∅ 0 ∗ atPos ER (recvCell c .o l h) 0 ∅ 0
    ∗ dutyTok ER (sendCell c .o l h) 0 false ∗ dutyTok ER (recvCell (toDev c l) .o l h) 0 false
    ∗ cred (tallyAt (recvCell c .o l h) () (amt .o))
    ∗ held (toDev c l) (dstO h l)
    ∗ reached ER (sendCell c .o l h) 0 ∗ reached ER (recvCell (toDev c l) .o l h) 0)
/-- The same of the denominators' transfer. -/
def lXfer (c : Dev nD) (l : Bool) (h : Fin 3) : sProp 𝕄 :=
  iprop(atPos ER (sendCell c .l l h) 0 ∅ 0 ∗ atPos ER (recvCell c .l l h) 0 ∅ 0
    ∗ dutyTok ER (sendCell c .l l h) 0 false ∗ dutyTok ER (recvCell (toDev c l) .l l h) 0 false
    ∗ cred (tallyAt (recvCell c .l l h) () (amt .l))
    ∗ held (toDev c l) (dstL h l)
    ∗ reached ER (sendCell c .l l h) 0 ∗ reached ER (recvCell (toDev c l) .l l h) 0)

variable (m : (ℓ : Loc nD τ sig) → Buf (Elt F) ℓ)

/-- The device's own partial numerators of batch `b`, heads 0–3 (`hb = false`) or 4–7, as a half block reads. -/
def halfOt (c b : Dev nD) (hb : Bool) : S4x128x256.Idx → Elt F .bf16 :=
  fun t => KFun.ot m c b (KFun.headAt hb (⟨(t 0).val, (t 0).isLt⟩ : Fin 4)) (ix3 0 (⟨(t 1).val, (t 1).isLt⟩ : Fin 128) (⟨(t 2).val, (t 2).isLt⟩ : Fin 256))
/-- and its partial denominators. -/
def halfLr (c b : Dev nD) (hb : Bool) : S4x1x256.Idx → Elt F .f32 :=
  fun t => KFun.lrow m c b (KFun.headAt hb (⟨(t 0).val, (t 0).isLt⟩ : Fin 4)) (ix3 0 0 (⟨(t 2).val, (t 2).isLt⟩ : Fin 256))

/-- What device `c` holds before the last merge of hop 1, at the names `K` and with the waits `W` recorded. -/
def At40 (c : Dev nD) (K : Names) (W : Waits sig Unit) : sProp 𝕄 :=
  iprop(invs (KFun.V m) K c ∗ levAts L lv
    ∗ owes (c : Thread nD τ) (owedOf c (prog.drop 10)) W
    ∗ (oXfer c false 2 ∗ oXfer c true 2 ∗ lXfer c false 2 ∗ lXfer c true 2)
    ∗ (gXfer c false 0 ∗ gXfer c true 0 ∗ gXfer c false 1 ∗ gXfer c true 1 ∗ gXfer c false 2 ∗ gXfer c true 2)
    ∗ (closedX c .o false 0 ∗ closedX c .l false 0 ∗ closedX c .o true 0 ∗ closedX c .l true 0
      ∗ closedX c .o false 1 ∗ closedX c .o true 1 ∗ closedX c .l false 1 ∗ closedX c .l true 1)
    ∗ copySems0 c ∗ hbm m c
    -- the staged arguments, as the body found them; the result block's buffer at some contents
    ∗ wholeAt c cc0_stg0_0 ((dats (KFun.V m) m KFun.Kout 0 c).after 0 t0_0)
    ∗ wholeAt c cc0_stg1_0 ((dats (KFun.V m) m KFun.Kout 0 c).after 1 t0_0)
    ∗ wholeAt c cc0_stg2_0 ((dats (KFun.V m) m KFun.Kout 0 c).after 2 t0_0)
    ∗ wholeEx c cc0_stg3_0
    -- the other scratch buffers that are held whole
    ∗ wholeEx c cc0_scratch4 ∗ wholeEx c cc0_scratch5 ∗ wholeEx c cc0_scratch6 ∗ wholeEx c cc0_scratch7
    ∗ wholeAt c cc0_scratch8 (KFun.wob m c) ∗ wholeEx c cc0_scratch9
    -- the partial sums, by half blocks: those the three merges to come read, at the device's own partial sums of
    -- batches c (heads 4–7) and c + 1 (all heads); the others at some contents
    ∗ (held c (locHalfO c 0 false) ∗ heldAs c (locHalfO c 0 true) (halfOt m c c true)
      ∗ heldAs c (locHalfO c 1 false) (halfOt m c (nxt c) false) ∗ heldAs c (locHalfO c 1 true) (halfOt m c (nxt c) true)
      ∗ held c (locHalfO c 2 false) ∗ held c (locHalfO c 2 true) ∗ held c (locHalfO c 3 false) ∗ held c (locHalfO c 3 true))
    ∗ (held c (locHalfL c 0 false) ∗ heldAs c (locHalfL c 0 true) (halfLr m c c true)
      ∗ heldAs c (locHalfL c 1 false) (halfLr m c (nxt c) false) ∗ heldAs c (locHalfL c 1 true) (halfLr m c (nxt c) true)
      ∗ held c (locHalfL c 2 false) ∗ held c (locHalfL c 2 true) ∗ held c (locHalfL c 3 false) ∗ held c (locHalfL c 3 true))
    -- the ring's landing slices: hop 0's back at some contents; hop 1's right-going half merged (what hop 2 sends),
    -- its left-going half as the right neighbour sent it
    ∗ held c (dstO 0 false) ∗ held c (dstO 0 true)
    ∗ heldAs c (dstO 1 false) ((KFun.V m).o c 2 false) ∗ heldAs c (dstO 1 true) ((KFun.V m).o (nxt c) 1 true)
    ∗ held c (dstL 0 false) ∗ held c (dstL 0 true)
    ∗ heldAs c (dstL 1 false) ((KFun.V m).l c 2 false) ∗ heldAs c (dstL 1 true) ((KFun.V m).l (nxt c) 1 true)
    -- the two halves of the own block of the gathered result, at one contents
    ∗ (∃ f : Buf (Elt F) ((c : Thread nD τ).loc cc0_scratch23),
        ((agS c 0 false).view.loc (c : Thread nD τ) ↦[(agS c 0 false).view.set]{fullShare} f)
        ∗ ((agS c 0 true).view.loc (c : Thread nD τ) ↦[(agS c 0 true).view.set]{fullShare} f)))

end Cert.KernelIdeal.Proto
end
-- ==== Proof.Cut32.lean ====
/-
  The cut before the flash step of the last batch.
  At the cut device `c` has made its two barrier payments, the four transfers of hop 0, all closed, and the four of hop 1,
  enqueued and not yet waited for: their sources, the landing slices of hop 0, are with the engine. The four transfers of
  hop 2 and the gathering's six are still to come. Three of the four batches of local copies are drained; the batch the
  coming flash step reads, `c + 1`, is in flight. The partial sums of batches `c`, `c + 2`, `c + 3` are computed, those of
  batch `c + 1` are not. The state is stated in two parts: what the steps to the next cut use, and the rest, which they
  leave alone and the next cut lists again.
-/
import proofs.«900754_g7700000000000755_dist_attn_cross_gqa_kvseq_b4_sq256_skv1024_d1024_hq8_dh128_v7x_i4_f32_1_alg».proof.Proof.TailSpec
import proofs.«900754_g7700000000000755_dist_attn_cross_gqa_kvseq_b4_sq256_skv1024_d1024_hq8_dh128_v7x_i4_f32_1_alg».proof.Proof.Cut40
import proofs.«900754_g7700000000000755_dist_attn_cross_gqa_kvseq_b4_sq256_skv1024_d1024_hq8_dh128_v7x_i4_f32_1_alg».proof.Proof.KvRel
import proofs.«900754_g7700000000000755_dist_attn_cross_gqa_kvseq_b4_sq256_skv1024_d1024_hq8_dh128_v7x_i4_f32_1_alg».proof.Proof.Rest27

noncomputable section

namespace Cert.KernelIdeal.Proto

open Cert.KernelIdeal Cert.KernelIdeal.Gen Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

namespace C32

/-- A transfer under way, not yet waited for: the device's positions at its two cells and the credit of both. -/
def sentX (c : Dev nD) (k : Kind) (l : Bool) (h : Fin 3) : sProp 𝕄 :=
  iprop(atPos ER (sendCell c k l h) 0 ∅ 0 ∗ atPos ER (recvCell c k l h) 0 ∅ 0
    ∗ cred (tallyAt (sendCell c k l h) () (amt k)) ∗ cred (tallyAt (recvCell c k l h) () (amt k)))

variable (m : (ℓ : Loc nD τ sig) → Buf (Elt F) ℓ)

/-- The halves of the source planes the copies did not take. -/
def leftHalves (c : Dev nD) : sProp 𝕄 :=
  bigSep Finset.univ fun j : Fin 4 =>
    iprop(((hbKD c j 0).view.loc (c : Thread nD τ) ↦[(hbKD c j 0).view.set]{fullShare.left} m ((hbKD c j 0).view.loc (c : Thread nD τ)))
      ∗ ((hbVD c j 0).view.loc (c : Thread nD τ) ↦[(hbVD c j 0).view.set]{fullShare.left} m ((hbVD c j 0).view.loc (c : Thread nD τ)))
      ∗ ((hbKD c j 1).view.loc (c : Thread nD τ) ↦[(hbKD c j 1).view.set]{fullShare.left} m ((hbKD c j 1).view.loc (c : Thread nD τ))))

/-- The local copies at the cut: the device's batch 1 (batch `c + 1`) in flight, carrying the launch memory's key rows and
    value rows; its batches 0, 2 and 3 waited for; the halves of the source planes the copies did not take. -/
def kvCut32 (c : Dev nD) : sProp 𝕄 :=
  iprop((∃ (f5 : Buf (Elt F) ((c : Thread nD τ).loc cc0_scratch5)) (vals : Fin 16 → CpVal F),
        ⌜∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))⌝
        ∗ later1 m c f5 vals)
    ∗ drained m c 0 ∗ drained m c 2 ∗ drained m c 3
    ∗ leftHalves m c)

/-- The local copies once all four batches are waited for. -/
def kvDone (c : Dev nD) : sProp 𝕄 :=
  iprop(drained m c 0 ∗ drained m c 1 ∗ drained m c 2 ∗ drained m c 3 ∗ leftHalves m c)

end C32

open C32

variable (m : (ℓ : Loc nD τ sig) → Buf (Elt F) ℓ)

/-- What the steps from this cut to the next use, at the names `K` and with the waits `W` recorded: the four transfers of
    hop 1 under way; the local copies; the staged activations and the projected `Wq` the projection reads; the buffers of
    the projected queries, of the exponentials and of the narrowed planes, at some contents; the block of the partial sums
    the flash step writes, at some contents, and the half blocks the merge of hop 1 reads, at the device's own partial sums
    of batch `c + 2`, heads 0–3. -/
def Foot32 (c : Dev nD) (K : Names) (W : Waits sig Unit) : sProp 𝕄 :=
  iprop(invs (KFun.V m) K c ∗ levAts L lv
    ∗ owes (c : Thread nD τ) (owedOf c (prog.drop 10)) W
    ∗ (sentX c .o false 1 ∗ sentX c .o true 1 ∗ sentX c .l false 1 ∗ sentX c .l true 1)
    ∗ kvCut32 m c
    ∗ wholeAt c cc0_stg0_0 ((dats (KFun.V m) m KFun.Kout 0 c).after 0 t0_0)
    ∗ (∃ f : Buf (Elt F) ((c : Thread nD τ).loc cc0_scratch4), wholeAt c cc0_scratch4 f)
    ∗ (∃ f : Buf (Elt F) ((c : Thread nD τ).loc cc0_scratch6), wholeAt c cc0_scratch6 f)
    ∗ wholeAt c cc0_scratch7 (KFun.wqb m c)
    ∗ (∃ f : Buf (Elt F) ((c : Thread nD τ).loc cc0_scratch9), wholeAt c cc0_scratch9 f)
    ∗ held c (locBlkO c 1) ∗ held c (locBlkL c 1)
    ∗ halfRowsO m c 2 false (nxt (nxt c)) ∗ halfRowsL m c 2 false (nxt (nxt c)))

/-- What device `c` holds besides, untouched until the next cut: the transfers to come, the closed ones, the other staged
    arguments and the result block's buffer, the projected `Wo`, the other half blocks of the partial sums, and the two
    halves of its own block of the gathered result. -/
def Rest32 (c : Dev nD) : sProp 𝕄 :=
  iprop((oXfer c false 2 ∗ oXfer c true 2 ∗ lXfer c false 2 ∗ lXfer c true 2)
    ∗ (gXfer c false 0 ∗ gXfer c true 0 ∗ gXfer c false 1 ∗ gXfer c true 1 ∗ gXfer c false 2 ∗ gXfer c true 2)
    ∗ (closedX c .o false 0 ∗ closedX c .l false 0 ∗ closedX c .o true 0 ∗ closedX c .l true 0)
    ∗ wholeAt c cc0_stg1_0 ((dats (KFun.V m) m KFun.Kout 0 c).after 1 t0_0)
    ∗ wholeAt c cc0_stg2_0 ((dats (KFun.V m) m KFun.Kout 0 c).after 2 t0_0)
    ∗ wholeEx c cc0_stg3_0
    ∗ wholeAt c cc0_scratch8 (KFun.wob m c)
    ∗ (held c (locHalfO c 0 false) ∗ heldAs c (locHalfO c 0 true) (halfOt m c c true)
      ∗ held c (locHalfO c 2 true) ∗ held c (locHalfO c 3 false) ∗ held c (locHalfO c 3 true))
    ∗ (held c (locHalfL c 0 false) ∗ heldAs c (locHalfL c 0 true) (halfLr m c c true)
      ∗ held c (locHalfL c 2 true) ∗ held c (locHalfL c 3 false) ∗ held c (locHalfL c 3 true))
    ∗ (∃ f : Buf (Elt F) ((c : Thread nD τ).loc cc0_scratch23),
        ((agS c 0 false).view.loc (c : Thread nD τ) ↦[(agS c 0 false).view.set]{fullShare} f)
        ∗ ((agS c 0 true).view.loc (c : Thread nD τ) ↦[(agS c 0 true).view.set]{fullShare} f)))

/-- What device `c` holds at the cut; `R` is what it holds besides and the steps to the next cut leave alone (`Rest32`
    for the whole state); `d0` is the device, as the earlier steps hand it on. -/
def At32 (c : Dev nD) (K : Names) (W : Waits sig Unit) (R : sProp 𝕄) (d0 : Dev nD) : sProp 𝕄 :=
  iprop(⌜d0 = c⌝ ∗ Foot32 m c K W ∗ R)

end Cert.KernelIdeal.Proto

end
-- ==== Proof.OpSend.lean ====
/-
  The send rule at the ring's cells.

  A device's transfer of one kind, in one direction, at one hop: it hands in its source slice (whose contents read as the
  value the schedule names), the neighbour's landing slice at whatever it holds, the send duty's token on its own cell and
  the receive duty's on the neighbour's, with round 0 reached at both, and pays the receive credit off what it owes.  The
  send duty's payload is the source slice as it was; the receive duty's is the landing slice overwritten everywhere by what
  the source read as, which therefore reads as the same value, and the neighbour receives from the device it came from.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import Idealize.ShloMosaic.Lib.Rounds
import Idealize.ShloMosaic.Lib.Pipeline.Launch
import Idealize.ShloMosaic.Lib.Pipeline.Kit

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A transfer's receiver gets it from the device that sent it. -/
theorem fromDev_toDev (c : Dev nD) (l : Bool) : fromDev (toDev c l) l = c := by
  cases l
  · exact prv_nxt c
  · exact nxt_prv c

variable (V : Vals F)

/-- The send rule at the ring's cells, for a transfer of kind `kd` in direction `l` at hop `h`, whatever its source and
    landing slices are: given that the schedule's payloads of the two cells are the source slice held at `w` and the landing
    slice held at `w`, and that the source reads as `w`, the enqueue hands in the source, the landing slice at any contents,
    the two duties' tokens and rounds, and the receive credit off what the device owes; the send cell's credit comes back. -/
theorem wp_send_gen (kd : Kind) {s : Shape} {e : EltTy} (c : Dev nD) (l : Bool) (h : Fin 3)
    (src dst : Memref sig .tc .vmem s e) (w : s.Idx → Elt F e)
    (hN : dst.view.amount (.dma (recvSem kd l h)) = amt kd)
    (hps : sendPay V c kd l h = heldAs c src w)
    (hpr : recvPay V (toDev c l) kd l h = heldAs (toDev c l) dst w)
    {hsc : (dst : Memref sig (Dev.tc (toDev c l) : Thread nD τ).2.kind .vmem s e).view.ref.isScScratch = false}
    {hsrc : src.view.WordExact} {hdst : dst.view.WordExact}
    {hsem : DmaTarget.Typed .vmem (.dma (recvSem kd l h)) (.remote (Dev.tc (toDev c l) : Thread nD τ) dst (.dma (sendSem kd l h)) hsc)}
    {α : Type} {Q : α → sProp 𝕄} {k : PUnit → Prog (TpuEff nD τ sig (Elt F) Λ₀ .tc) α}
    (fs : Buf (Elt F) (src.view.loc (c : Thread nD τ))) (hfs : src.view.read (Elt F) fs = w)
    (ps : List Pay) (W : Waits sig Unit) (κ₁ κ₂ : ℕ) :
    iprop(cellInv ER (ringRd V) κ₁ (sendCell c kd l h) ∗ cellInv ER (ringRd V) κ₂ (recvCell (toDev c l) kd l h)
        ∗ (src.view.loc (c : Thread nD τ) ↦[src.view.set]{fullShare} fs) ∗ held (F := F) (toDev c l) dst
        ∗ owes (c : Thread nD τ) (owedOf c (.xfer kd l h :: ps)) W
        ∗ dutyTok ER (sendCell c kd l h) 0 false ∗ reached ER (sendCell c kd l h) 0
        ∗ dutyTok ER (recvCell (toDev c l) kd l h) 0 false ∗ reached ER (recvCell (toDev c l) kd l h) 0)
      ⊢ iprop(((cred (tallyAt (sendCell c kd l h) () (amt kd)) ∗ owes (c : Thread nD τ) (owedOf c ps) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (toDev c l) : Thread nD τ) dst (.dma (sendSem kd l h)) hsc) (.dma (recvSem kd l h)) hsrc hdst hsem) k) Q) := by
  unfold held
  iintro ⟨Hg₁, Hg₂, Hsrc, ⟨%fd, Hdst⟩, HL, Ht₁, Hr₁, Ht₂, Hr₂⟩
  iapply (Rounds.wp_send_pointsTo 𝒱₀ ER (ringRd V) (c : Thread nD τ) none
    (c' := (Dev.tc (toDev c l) : Thread nD τ)) (src := src) (dst := dst) (q := fullShare) (fs := fs) (fd := fd)
    (κ₁ := κ₁) (κ₂ := κ₂) (r₁ := 0) (r₂ := 0) (d₁ := false) (d₂ := false)
    (by rw [duties_send]; exact Finset.mem_singleton_self _) (by rw [duties_recv]; exact Finset.mem_singleton_self _)
    () () (amt kd) hN (amount_send V c kd l h false) (amount_recv V (toDev c l) kd l h false)
    (owedOf c ps) rfl (W := W)
    (by
      rw [payload_send, hps]
      unfold heldAs
      iintro H
      iexists fs
      isplitl [H]
      · iexact H
      · ipureintro; exact hfs)
    (by
      rw [payload_recv, hpr]
      unfold heldAs
      iintro H
      iexists _
      isplitl [H]
      · iexact H
      · ipureintro; rw [View.read_write_univ]; exact hfs))
  iframe
  iexact HL

/-- The numerator block's transfer. -/
theorem wp_send_o (c n : Dev nD) (l : Bool) (h : Fin 3) (hn : n = toDev c l)
    {hsc : ((dstO h l : Memref sig (Dev.tc n : Thread nD τ).2.kind .vmem S4x128x256 .bf16)).view.ref.isScScratch = false}
    {hsrc : (srcO c h l).view.WordExact} {hdst : (dstO h l).view.WordExact}
    {hsem : DmaTarget.Typed .vmem (.dma (recvSem .o l h)) (.remote (Dev.tc n : Thread nD τ) (dstO h l) (.dma (sendSem .o l h)) hsc)}
    {α : Type} {Q : α → sProp 𝕄} {k : PUnit → Prog (TpuEff nD τ sig (Elt F) Λ₀ .tc) α}
    (fs : Buf (Elt F) ((srcO c h l).view.loc (c : Thread nD τ))) (hfs : (srcO c h l).view.read (Elt F) fs = V.o c h l)
    (ps : List Pay) (W : Waits sig Unit) (κ₁ κ₂ : ℕ) :
    iprop(cellInv ER (ringRd V) κ₁ (sendCell c .o l h) ∗ cellInv ER (ringRd V) κ₂ (recvCell (toDev c l) .o l h)
        ∗ ((srcO c h l).view.loc (c : Thread nD τ) ↦[(srcO c h l).view.set]{fullShare} fs) ∗ held (F := F) (toDev c l) (dstO h l)
        ∗ owes (c : Thread nD τ) (owedOf c (.xfer .o l h :: ps)) W
        ∗ dutyTok ER (sendCell c .o l h) 0 false ∗ reached ER (sendCell c .o l h) 0
        ∗ dutyTok ER (recvCell (toDev c l) .o l h) 0 false ∗ reached ER (recvCell (toDev c l) .o l h) 0)
      ⊢ iprop(((cred (tallyAt (sendCell c .o l h) () (amt .o)) ∗ owes (c : Thread nD τ) (owedOf c ps) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcO c h l) (.remote (Dev.tc n : Thread nD τ) (dstO h l) (.dma (sendSem .o l h)) hsc) (.dma (recvSem .o l h)) hsrc hdst hsem) k) Q) := by
  subst hn
  exact wp_send_gen V .o c l h (srcO c h l) (dstO h l) (V.o c h l) (amt_dstO h l _) rfl
    (by show heldAs _ _ (V.o (fromDev (toDev c l) l) h l) = _; rw [fromDev_toDev]) fs hfs ps W κ₁ κ₂

/-- The denominator rows' transfer. -/
theorem wp_send_l (c n : Dev nD) (l : Bool) (h : Fin 3) (hn : n = toDev c l)
    {hsc : ((dstL h l : Memref sig (Dev.tc n : Thread nD τ).2.kind .vmem S4x1x256 .f32)).view.ref.isScScratch = false}
    {hsrc : (srcL c h l).view.WordExact} {hdst : (dstL h l).view.WordExact}
    {hsem : DmaTarget.Typed .vmem (.dma (recvSem .l l h)) (.remote (Dev.tc n : Thread nD τ) (dstL h l) (.dma (sendSem .l l h)) hsc)}
    {α : Type} {Q : α → sProp 𝕄} {k : PUnit → Prog (TpuEff nD τ sig (Elt F) Λ₀ .tc) α}
    (fs : Buf (Elt F) ((srcL c h l).view.loc (c : Thread nD τ))) (hfs : (srcL c h l).view.read (Elt F) fs = V.l c h l)
    (ps : List Pay) (W : Waits sig Unit) (κ₁ κ₂ : ℕ) :
    iprop(cellInv ER (ringRd V) κ₁ (sendCell c .l l h) ∗ cellInv ER (ringRd V) κ₂ (recvCell (toDev c l) .l l h)
        ∗ ((srcL c h l).view.loc (c : Thread nD τ) ↦[(srcL c h l).view.set]{fullShare} fs) ∗ held (F := F) (toDev c l) (dstL h l)
        ∗ owes (c : Thread nD τ) (owedOf c (.xfer .l l h :: ps)) W
        ∗ dutyTok ER (sendCell c .l l h) 0 false ∗ reached ER (sendCell c .l l h) 0
        ∗ dutyTok ER (recvCell (toDev c l) .l l h) 0 false ∗ reached ER (recvCell (toDev c l) .l l h) 0)
      ⊢ iprop(((cred (tallyAt (sendCell c .l l h) () (amt .l)) ∗ owes (c : Thread nD τ) (owedOf c ps) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcL c h l) (.remote (Dev.tc n : Thread nD τ) (dstL h l) (.dma (sendSem .l l h)) hsc) (.dma (recvSem .l l h)) hsrc hdst hsem) k) Q) := by
  subst hn
  exact wp_send_gen V .l c l h (srcL c h l) (dstL h l) (V.l c h l) (amt_dstL h l _) rfl
    (by show heldAs _ _ (V.l (fromDev (toDev c l) l) h l) = _; rw [fromDev_toDev]) fs hfs ps W κ₁ κ₂

/-- The result rows' transfer: the landing slice on the neighbour is named by the same expression as the source. -/
theorem wp_send_g (c n : Dev nD) (l : Bool) (h : Fin 3) (hn : n = toDev c l)
    {hsc : ((agS c h l : Memref sig (Dev.tc n : Thread nD τ).2.kind .vmem S128x1024 .bf16)).view.ref.isScScratch = false}
    {hsrc : (agS c h l).view.WordExact} {hdst : (agS c h l).view.WordExact}
    {hsem : DmaTarget.Typed .vmem (.dma (recvSem .g l h)) (.remote (Dev.tc n : Thread nD τ) (agS c h l) (.dma (sendSem .g l h)) hsc)}
    {α : Type} {Q : α → sProp 𝕄} {k : PUnit → Prog (TpuEff nD τ sig (Elt F) Λ₀ .tc) α}
    (fs : Buf (Elt F) ((agS c h l).view.loc (c : Thread nD τ))) (hfs : (agS c h l).view.read (Elt F) fs = V.g c h l)
    (ps : List Pay) (W : Waits sig Unit) (κ₁ κ₂ : ℕ) :
    iprop(cellInv ER (ringRd V) κ₁ (sendCell c .g l h) ∗ cellInv ER (ringRd V) κ₂ (recvCell (toDev c l) .g l h)
        ∗ ((agS c h l).view.loc (c : Thread nD τ) ↦[(agS c h l).view.set]{fullShare} fs) ∗ held (F := F) (toDev c l) (agS c h l)
        ∗ owes (c : Thread nD τ) (owedOf c (.xfer .g l h :: ps)) W
        ∗ dutyTok ER (sendCell c .g l h) 0 false ∗ reached ER (sendCell c .g l h) 0
        ∗ dutyTok ER (recvCell (toDev c l) .g l h) 0 false ∗ reached ER (recvCell (toDev c l) .g l h) 0)
      ⊢ iprop(((cred (tallyAt (sendCell c .g l h) () (amt .g)) ∗ owes (c : Thread nD τ) (owedOf c ps) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (agS c h l) (.remote (Dev.tc n : Thread nD τ) (agS c h l) (.dma (sendSem .g l h)) hsc) (.dma (recvSem .g l h)) hsrc hdst hsem) k) Q) := by
  subst hn
  exact wp_send_gen V .g c l h (agS c h l) (agS c h l) (V.g c h l) (amt_agS c h l _) rfl
    (by show heldAs _ (agS (fromDev (toDev c l) l) h l) (V.g (fromDev (toDev c l) l) h l) = _; rw [fromDev_toDev]) fs hfs ps W κ₁ κ₂

/-- info: 'Cert.KernelIdeal.Proto.wp_send_o' depends on axioms: [propext, Classical.choice, Quot.sound] -/
#guard_msgs in #print axioms wp_send_o
/-- info: 'Cert.KernelIdeal.Proto.wp_send_l' depends on axioms: [propext, Classical.choice, Quot.sound] -/
#guard_msgs in #print axioms wp_send_l
/-- info: 'Cert.KernelIdeal.Proto.wp_send_g' depends on axioms: [propext, Classical.choice, Quot.sound] -/
#guard_msgs in #print axioms wp_send_g

end Cert.KernelIdeal.Proto

end
-- ==== Proof.OpWait.lean ====
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import Idealize.ShloMosaic.Lib.Pipeline.Launch
import Idealize.ShloMosaic.Lib.Pipeline.Kit
import Idealize.ShloMosaic.Lib.Tactic

/-
  The ring protocol's steps on the barrier cell and on the transfer cells' waits, each as one rule at our cells.

  A device signals one unit to each neighbour's barrier cell and waits for two on its own: seen from the neighbour in
  direction l, the signaller is the neighbour in direction !l, so its unit pays that cell's duty !l, and the hand-over is
  what the neighbour's transfers towards the signaller will write. A wait on a transfer cell takes the whole of the
  cell's one round — the transfer's amount — and returns the slice the duty hands back; the cell has no later round, so
  it closes there with its counter at zero.
-/

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The barrier signals, the barrier wait and the transfer waits, each as one rule at our cells -/

/-- Going to a neighbour and coming back the other way is staying. -/
theorem toDev_toDev_not (c : Dev nD) (l : Bool) : toDev (toDev c l) (!l) = c := by
  cases l
  · exact prv_nxt c
  · exact nxt_prv c

/-- What a device owes before a payment is what it owes after it and the payment. -/
theorem owedOf_cons (c : Dev nD) (p : Pay) (ps : List Pay) :
    owedOf c (p :: ps) = owedOf c ps + tallyAt (payCell c p) () (payAmt p) := rfl

/-- A program's barrier signal of one unit and its barrier wait for two are the operations the rules below are stated for. -/
theorem semSignalWord_one_eq {Λ : Labels} {p : Proc τ} (n : Dev nD) (s : Sem sig) (h : (1#32 : BitVec 32).msb = false) :
    (semSignalWord (nD := nD) (τ := τ) (Val := Elt F) (Λ := Λ) (p := p) n s 1#32 h) = .op (.semSignal (n, p) s 1) .ret := rfl
theorem semWaitWord_two_eq {Λ : Labels} {p : Proc τ} (s : Sem sig) (h : (2#32 : BitVec 32).msb = false) :
    (semWaitWord (nD := nD) (τ := τ) (Val := Elt F) (Λ := Λ) (p := p) s 2#32 h) = .op (.semWait s 2) .ret := rfl

/-- The hand-over of the unit device c pays on its neighbour's barrier cell, spelt at c: for each hop, c's three landing
    slices for the transfers coming from that neighbour, and c at round 0 of the three receive cells they credit. -/
theorem barPay_back (c : Dev nD) (l : Bool) :
    barPay (F := F) (toDev c l) (!l)
      = iprop(landing (F := F) (toDev c l) c (!l) 0 ∗ landing (F := F) (toDev c l) c (!l) 1 ∗ landing (F := F) (toDev c l) c (!l) 2) := by
  unfold barPay
  rw [toDev_toDev_not]

section Rules

variable (V : Vals F)

/-- Device c's unit on the barrier cell of its neighbour n in direction l. Seen from n, c is the neighbour in the
    opposite direction, so the unit pays n's duty !l, and hands n what n's transfers towards c will need of c. -/
theorem wp_sig (c n : Dev nD) (l : Bool) (hn : n = toDev c l) (ps : List Pay) (W : Waits sig Unit) (κ : ℕ) {a : ℕ} (ha : a = 1)
    {α : Type} {Q : α → sProp 𝕄} {k : PUnit → Prog (TpuEff nD τ sig (Elt F) Λ₀ .tc) α} :
    iprop(cellInv ER (ringRd V) κ (barCell n) ∗ owes (c : Thread nD τ) (owedOf c (.bar l :: ps)) W
        ∗ dutyTok ER (barCell n) 0 (!l) ∗ barPay (F := F) n (!l) ∗ reached ER (barCell n) 0)
      ⊢ iprop((owes (c : Thread nD τ) (owedOf c ps) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  iintro ⟨HI, HO, Ht, Hp, Hr⟩
  iapply (Rounds.wp_signal 𝒱₀ ER (ringRd V) (c : Thread nD τ) none (dst := (toDev c l : Thread nD τ)) (κ := κ)
      (d := !l) (by rw [duties_bar]; exact Finset.mem_univ _) (amount_bar V (toDev c l) (!l)) () (owedOf c ps) (owedOf_cons c (.bar l) ps))
  isplitl [HI]; · iexact HI
  isplitl [HO]; · iexact HO
  isplitl [Ht]; · iexact Ht
  isplitl [Hp]; · rw [payload_bar]; iexact Hp
  iexact Hr

/-- The wait for both neighbours' units on the own barrier cell: it is the whole of the cell's one round, and both
    neighbours' hand-overs come back with it. -/
theorem wp_bar_wait (c : Dev nD) (ps : List Pay) (W : Waits sig Unit) (κ : ℕ) {a : ℕ} (ha : a = 2)
    {α : Type} {Q : α → sProp 𝕄} {k : PUnit → Prog (TpuEff nD τ sig (Elt F) Λ₀ .tc) α} :
    iprop(cellInv ER (ringRd V) κ (barCell c) ∗ cred (tallyAt (barCell c) () 2) ∗ owes (c : Thread nD τ) (owedOf c ps) W
        ∗ MayWait (c : Thread nD τ) (.reg barS) () (owedOf c ps) ∗ atPos ER (barCell c) 0 ∅ 0)
      ⊢ iprop(((owes (c : Thread nD τ) (owedOf c ps) (insert (SemLoc.reg barS, ()) W) ∗ atPos ER (barCell c) (0 + 1) ∅ 0
              ∗ barPay (F := F) c false ∗ barPay (F := F) c true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨HI, Hc, HO, Hm, Hat⟩ Hk
  iapply (Rounds.wp_wait_rest_token 𝒱₀ ER (ringRd V) (c : Thread nD τ) none (κ := κ)
      (wpE_semWait_eq 𝒱₀ (c : Thread nD τ) none Set.univ) (Set.mem_univ _) () (O := owedOf c ps) (W := W) (R := 0) (m := 0) (T := ∅)
      (show 0 + 2 = _ from (expect_bar V c).symm)) $$ [HI Hc HO Hm Hat]
  · isplitl [HI]; · iexact HI
    isplitl [Hc]; · iexact Hc
    isplitl [HO]; · iexact HO
    isplitl [Hm]; · iexact Hm
    iexact Hat
  iintro ⟨HO, Hat, -, Hpay⟩
  ihave Hp := (Entails.of_eq (rest_bar V c)) $$ Hpay
  icases Hp with ⟨Hp0, Hp1⟩
  iapply Hk
  isplitl [HO]; · iexact HO
  isplitl [Hat]; · iexact Hat
  isplitl [Hp0]; · iexact Hp0
  iexact Hp1

/-- The wait on a send cell: the transfer's read-out is the whole of the cell's one round; the source slice comes back
    as it was, and the cell, which has no later round, closes with its counter at zero. The wait names some source and
    destination views; only the destination's credit counts, and it is the kind's amount. -/
theorem wp_wait_send (c : Dev nD) (k : Kind) (l : Bool) (h : Fin 3) (O : CellTallies nD τ sig Unit) (W : Waits sig Unit) (κ : ℕ)
    {sp sp' : Space} {s s' : Shape} {e e' : EltTy} {src : Memref sig .tc sp' s' e'} {κ' : Idealize.ShloMosaic.Kind} {dst : Memref sig κ' sp s e}
    {hsrc : src.view.WordExact} {hdst : dst.view.WordExact} (hamt : dst.view.dmaCredit = amt k) {sem : DmaSem sig} (hs : sem = sendSem k l h)
    {α : Type} {Q : α → sProp 𝕄} {kk : PUnit → Prog (TpuEff nD τ sig (Elt F) Λ₀ .tc) α} :
    iprop(cellInv ER (ringRd V) κ (sendCell c k l h) ∗ cred (tallyAt (sendCell c k l h) () (amt k)) ∗ owes (c : Thread nD τ) O W
        ∗ MayWait (c : Thread nD τ) (.dma (sendSem k l h)) () O ∗ atPos ER (sendCell c k l h) 0 ∅ 0)
      ⊢ iprop(((owes (c : Thread nD τ) O (insert (SemLoc.dma (sendSem k l h), ()) W) ∗ sendPay V c k l h ∗ semVal (sendCell c k l h) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  subst hs
  iintro ⟨#HI, Hc, HO, Hm, Hat⟩ Hk
  iapply (Rounds.wp_wait_rest_token 𝒱₀ ER (ringRd V) (c : Thread nD τ) none (κ := κ)
      (wpE_waitDma2_eq 𝒱₀ (c : Thread nD τ) none Set.univ) (Set.mem_univ _) () (O := O) (W := W) (R := 0) (m := 0) (T := ∅)
      (by rw [Nat.zero_add, expect_send, hamt])) $$ [Hc HO Hm Hat]
  · isplitr; · iexact HI
    isplitl [Hc]; · rw [hamt]; iexact Hc
    isplitl [HO]; · iexact HO
    isplitl [Hm]; · iexact Hm
    iexact Hat
  iintro ⟨HO, Hat, -, Hpay⟩
  ihave Hp := (Entails.of_eq (rest_send V c k l h)) $$ Hpay
  imod (Rounds.cell_close ER (ringRd V) (Set.mem_univ κ) (fun hu => hu) (R := 0 + 1) (duties_later V (sendCell c k l h))) $$ [Hat] with Hz
  · isplitr; · iexact HI
    iexact Hat
  iapply Hk
  isplitl [HO]; · iexact HO
  isplitl [Hp]; · iexact Hp
  iexact Hz

/-- The wait on a receive cell: the neighbour's transfer has landed, the landing slice comes back at what the neighbour
    sent, and the cell closes with its counter at zero. -/
theorem wp_wait_recv (c : Dev nD) (k : Kind) (l : Bool) (h : Fin 3) (O : CellTallies nD τ sig Unit) (W : Waits sig Unit) (κ : ℕ)
    {sp sp' : Space} {s s' : Shape} {e e' : EltTy} {src : Memref sig .tc sp' s' e'} {κ' : Idealize.ShloMosaic.Kind} {dst : Memref sig κ' sp s e}
    {hsrc : src.view.WordExact} {hdst : dst.view.WordExact} (hamt : dst.view.dmaCredit = amt k) {sem : DmaSem sig} (hs : sem = recvSem k l h)
    {α : Type} {Q : α → sProp 𝕄} {kk : PUnit → Prog (TpuEff nD τ sig (Elt F) Λ₀ .tc) α} :
    iprop(cellInv ER (ringRd V) κ (recvCell c k l h) ∗ cred (tallyAt (recvCell c k l h) () (amt k)) ∗ owes (c : Thread nD τ) O W
        ∗ MayWait (c : Thread nD τ) (.dma (recvSem k l h)) () O ∗ atPos ER (recvCell c k l h) 0 ∅ 0)
      ⊢ iprop(((owes (c : Thread nD τ) O (insert (SemLoc.dma (recvSem k l h), ()) W) ∗ recvPay V c k l h ∗ semVal (recvCell c k l h) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  subst hs
  iintro ⟨#HI, Hc, HO, Hm, Hat⟩ Hk
  iapply (Rounds.wp_wait_rest_token 𝒱₀ ER (ringRd V) (c : Thread nD τ) none (κ := κ)
      (wpE_waitDma2_eq 𝒱₀ (c : Thread nD τ) none Set.univ) (Set.mem_univ _) () (O := O) (W := W) (R := 0) (m := 0) (T := ∅)
      (by rw [Nat.zero_add, expect_recv, hamt])) $$ [Hc HO Hm Hat]
  · isplitr; · iexact HI
    isplitl [Hc]; · rw [hamt]; iexact Hc
    isplitl [HO]; · iexact HO
    isplitl [Hm]; · iexact Hm
    iexact Hat
  iintro ⟨HO, Hat, -, Hpay⟩
  ihave Hp := (Entails.of_eq (rest_recv V c k l h)) $$ Hpay
  imod (Rounds.cell_close ER (ringRd V) (Set.mem_univ κ) (fun hu => hu) (R := 0 + 1) (duties_later V (recvCell c k l h))) $$ [Hat] with Hz
  · isplitr; · iexact HI
    iexact Hat
  iapply Hk
  isplitl [HO]; · iexact HO
  isplitl [Hp]; · iexact Hp
  iexact Hz

end Rules

end Cert.KernelIdeal.Proto

end

/-- info: 'Cert.KernelIdeal.Proto.wp_sig' depends on axioms: [propext, Classical.choice, Quot.sound] -/
#guard_msgs in #print axioms Cert.KernelIdeal.Proto.wp_sig
/-- info: 'Cert.KernelIdeal.Proto.wp_bar_wait' depends on axioms: [propext, Classical.choice, Quot.sound] -/
#guard_msgs in #print axioms Cert.KernelIdeal.Proto.wp_bar_wait
/-- info: 'Cert.KernelIdeal.Proto.wp_wait_send' depends on axioms: [propext, Classical.choice, Quot.sound] -/
#guard_msgs in #print axioms Cert.KernelIdeal.Proto.wp_wait_send
/-- info: 'Cert.KernelIdeal.Proto.wp_wait_recv' depends on axioms: [propext, Classical.choice, Quot.sound] -/
#guard_msgs in #print axioms Cert.KernelIdeal.Proto.wp_wait_recv
-- ==== Proof.LoopsV.lean ====
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Gen.KernelIdeal.Skeleton
import Idealize.ShloMosaic.Lib.Exec
import Idealize.ShloMosaic.Lib.Tactic
import Idealize.ShloMosaic.Lib.Pipeline.Kit
import proofs.«900754_g7700000000000755_dist_attn_cross_gqa_kvseq_b4_sq256_skv1024_d1024_hq8_dh128_v7x_i4_f32_1_alg».proof.Proof.LocSplit

set_option maxRecDepth 8192
set_option maxHeartbeats 4000000

noncomputable section

namespace Cert.KernelIdeal.LoopsV
open Cert.KernelIdeal Cert.KernelIdeal.Gen Cert.KernelIdeal.Proto

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ Cert.KernelIdeal.Proto.UU ℕ

/-- The class of invariants of `k0_part15`'s counted loop `k0_t1_loop` (`scf.for %arg30 =
   %c0_i32_273 to %291 step %c1_i32_275 : i32 {`), trip `k0_t1`, carrying `Unit`, region
   `Gen.k0_t1_body`. Classifier: LISTED — every store at a `Rect.unit` through a memref parameter of
   the region, nothing carried, no transfer or conditional inside: the invariant is the pieces of
   the trips before `k`; not affine (the closed form of `k0_off13` is not over the trip alone), so a
   frame cannot place those pieces and must find the memref written covered by a whole-block store
   of the same case. The region loads back what it stores into `arg12` (an accumulation): each
   trip's pieces are stated as functions of the contents it finds there. One trip calls the parts
   `k0_part1`. Per trip it STORES through arg12 at ![0, 0]; arg6 at (k0_off13 d0 k0_t1); arg7 at
   (k0_off14 d0 k0_t1). It LOADS through arg10 at (k0_off10 d0 k0_t1); arg15 at (k0_off11 d0 k0_t1);
   arg15 at (k0_off12 d0 k0_t1); arg12 at ![0, 0]; arg6 at (k0_off13 d0 k0_t1); arg7 at (k0_off14 d0
   k0_t1). GENERATED below: `Gen.loopInv_k0_t1` (`@[sl_loop]`), at the frame kit's algebra — a run
   at that algebra (the generated frame's, or a hand proof's over `MT nD τ sig Unit (Elt F) ℕ (UR
   sig nD τ) ℕ`) goes through the loop with nothing more to state; a proof at another algebra
   instances the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226)

/-! ### `k0_t1_loop`: the generated invariant (classifier: listed) -/

/-- One trip's resources: what the region reads (arg10, arg15) at its contents, what it writes
   (locO, locL, arg12) at any. -/
abbrev TripS_k0_t1 (c : Dev nD) (arg10 : Memref sig .tc .vmem S32x256x128 .bf16) (arg15 : Memref sig .tc .vmem S2x8x1024x128 .bf16) (arg12 : Memref sig .tc .vmem S1024x256 .bf16) (X_arg10 : BufTy.Contents (Elt F) arg10.view.ty) (X_arg15 : BufTy.Contents (Elt F) arg15.view.ty) (f_arg6 : BufTy.Contents (Elt F) locO.view.ty) (f_arg7 : BufTy.Contents (Elt F) locL.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ ((locBlkO c 0).view.loc (c : Thread nD τ) ↦[(locBlkO c 0).view.set]{fullShare} f_arg6) ∗ ((locBlkL c 0).view.loc (c : Thread nD τ) ↦[(locBlkL c 0).view.set]{fullShare} f_arg7) ∗ (arg12.view.loc (c : Thread nD τ) ↦[arg12.view.set]{fullShare} f_arg12))

/-- ONE TRIP of `k0_t1_loop` at a symbolic `k`, run by `sl_exec` (its rectangles where the program's
   in-range evidence puts them, their places unread): the pieces it writes into locO, locL, arg12
   are the run's own finds — the witnesses `sl_close` assigns handing the buffers to the
   continuation, as functions of the contents the trip finds in the memrefs it writes (the region
   loads some of them back). `@[irreducible]`: cited, never unfolded. -/
@[irreducible] def tripS_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (k : Fin k0_t1_loop.trips) :
    Σ' (L_arg6 : (BufTy.Contents (Elt F) locO.view.ty → BufTy.Contents (Elt F) locL.view.ty → BufTy.Contents (Elt F) arg12.view.ty → List (View.Piece (Elt F) S32x128x256 .bf16))) (L_arg7 : (BufTy.Contents (Elt F) locO.view.ty → BufTy.Contents (Elt F) locL.view.ty → BufTy.Contents (Elt F) arg12.view.ty → List (View.Piece (Elt F) S32x1x256 .f32))) , { L_arg12 : (BufTy.Contents (Elt F) locO.view.ty → BufTy.Contents (Elt F) locL.view.ty → BufTy.Contents (Elt F) arg12.view.ty → List (View.Piece (Elt F) S1024x256 .bf16)) // ∀ (E : Set ℕ) (f_arg6 : BufTy.Contents (Elt F) locO.view.ty) (f_arg7 : BufTy.Contents (Elt F) locL.view.ty) (f_arg12 : BufTy.Contents (Elt F) arg12.view.ty),
      TripS_k0_t1 (F := F) c arg10 arg15 arg12 X_arg10 X_arg15 f_arg6 f_arg7 f_arg12
      ⊢ wp frame (wpE (defs₀ (F := F)) 𝒱 (c : Thread nD τ) bd) E (k0_t1_body (F := F) arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 k PUnit.unit)
          (fun _ => TripS_k0_t1 (F := F) c arg10 arg15 arg12 X_arg10 X_arg15 (locO.view.writes (Elt F) f_arg6 (L_arg6 f_arg6 f_arg7 f_arg12)) (locL.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t1_abs.2.1
  have hS_arg6_k := hS_arg6 k
  have hS_arg7_k := hS_arg7 k
  refine ⟨fun f_arg6 f_arg7 f_arg12 => [⟨Rect.unit (s := S32x128x256) (k0_off13 d0 k) S1x128x256.size (k0_off13_inb d0 k), (k0_pay38 (k0_pay5 (View.readAt (Elt F) arg15.view (Rect.unit (s := S2x8x1024x128) (k0_off12 d0 k) S1x1x1024x128.size (k0_off12_inb d0 k)).toLoadRect X_arg15)) (arg12.view.readCov [⟨Rect.unit (s := S1024x256) ![0, 0] S1024x256.size inb_S1024x256_S1024x256_0_0, (k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15))⟩] (Rect.unit (s := S1024x256) ![0, 0] S1024x256.size inb_S1024x256_S1024x256_0_0).toLoadRect))⟩], fun f_arg6 f_arg7 f_arg12 => [⟨Rect.unit (s := S32x1x256) (k0_off14 d0 k) S1x1x256.size (k0_off14_inb d0 k), (k0_pay39 (k0_pay7 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))⟩], fun f_arg6 f_arg7 f_arg12 => [⟨Rect.unit (s := S1024x256) ![0, 0] S1024x256.size inb_S1024x256_S1024x256_0_0, (k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15))⟩], fun E f_arg6 f_arg7 f_arg12 => ?run⟩
  case run =>
    unfold k0_t1_body
    iintro ⟨HR_arg10, HR_arg15, HW_arg6, HW_arg7, HW_arg12⟩
    sl_exec
    iapply (wp_store 𝒱 (c : Thread nD τ) bd E (m := locO) (r := Rect.unit (s := S32x128x256) (k0_off13 d0 k) S1x128x256.size (k0_off13_inb d0 k)) (Mk := Finset.univ) hS_arg6_k) $$ [HW_arg6]
    · iexact HW_arg6
    iintro HW_arg6
    sl_exec
    iapply (wp_store 𝒱 (c : Thread nD τ) bd E (m := locL) (r := Rect.unit (s := S32x1x256) (k0_off14 d0 k) S1x1x256.size (k0_off14_inb d0 k)) (Mk := Finset.univ) hS_arg7_k) $$ [HW_arg7]
    · iexact HW_arg7
    iintro HW_arg7
    simp only [Prog.pure_eq_ret]
    rw [wp_ret]; imodintro
    isplitl [HR_arg10]; · iexact HR_arg10
    isplitl [HR_arg15]; · iexact HR_arg15
    isplitl [HW_arg6]; · iexact HW_arg6
    isplitl [HW_arg7]; · iexact HW_arg7
    iexact HW_arg12

/-- The trip's piece lists (plain projections of `trip_…`, for the recursion below to cite without
   its proof), at the contents the trip finds in the written memrefs. -/
abbrev tripLS_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (k : Fin k0_t1_loop.trips) (f_arg6 : BufTy.Contents (Elt F) locO.view.ty) (f_arg7 : BufTy.Contents (Elt F) locL.view.ty) (f_arg12 : BufTy.Contents (Elt F) arg12.view.ty) : List (View.Piece (Elt F) S32x128x256 .bf16) × List (View.Piece (Elt F) S32x1x256 .f32) × List (View.Piece (Elt F) S1024x256 .bf16) :=
  ((tripS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k).1 f_arg6 f_arg7 f_arg12, (tripS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k).2.1 f_arg6 f_arg7 f_arg12, (tripS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k).2.2.1 f_arg6 f_arg7 f_arg12)

/-- Trip k's pieces, spelt: per written memref the rectangle of its one store and what is stored, a loaded value read off what the memref holds then. -/
theorem tripLS_k0_t1_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (k : Fin k0_t1_loop.trips) (f_arg6 : BufTy.Contents (Elt F) locO.view.ty) (f_arg7 : BufTy.Contents (Elt F) locL.view.ty) (f_arg12 : BufTy.Contents (Elt F) arg12.view.ty) :
    tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k f_arg6 f_arg7 f_arg12 = ([⟨Rect.unit (s := S32x128x256) (k0_off13 d0 k) S1x128x256.size (k0_off13_inb d0 k), (k0_pay38 (k0_pay5 (View.readAt (Elt F) arg15.view (Rect.unit (s := S2x8x1024x128) (k0_off12 d0 k) S1x1x1024x128.size (k0_off12_inb d0 k)).toLoadRect X_arg15)) (arg12.view.readCov [⟨Rect.unit (s := S1024x256) ![0, 0] S1024x256.size inb_S1024x256_S1024x256_0_0, (k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15))⟩] (Rect.unit (s := S1024x256) ![0, 0] S1024x256.size inb_S1024x256_S1024x256_0_0).toLoadRect))⟩], [⟨Rect.unit (s := S32x1x256) (k0_off14 d0 k) S1x1x256.size (k0_off14_inb d0 k), (k0_pay39 (k0_pay7 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))⟩], [⟨Rect.unit (s := S1024x256) ![0, 0] S1024x256.size inb_S1024x256_S1024x256_0_0, (k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15))⟩]) := by
  unfold tripLS_k0_t1 tripS_k0_t1
  rfl

/-- Trip `k`'s contribution to the state the recursion `pbS_k0_t1` below carries (`prev`): its pieces
   in front, per written memref; past the last trip, `prev` itself. -/
@[irreducible] def pbS_k0_t1Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t1_loop.trips then
    ((tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 ⟨k, h⟩ (locO.view.writes (Elt F) G_arg6 prev.1) (locL.view.writes (Elt F) G_arg7 prev.2.1) (arg12.view.writes (Elt F) G_arg12 prev.2.2)).1 ++ prev.1, (tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 ⟨k, h⟩ (locO.view.writes (Elt F) G_arg6 prev.1) (locL.view.writes (Elt F) G_arg7 prev.2.1) (arg12.view.writes (Elt F) G_arg12 prev.2.2)).2.1 ++ prev.2.1, (tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 ⟨k, h⟩ (locO.view.writes (Elt F) G_arg6 prev.1) (locL.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pbS_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pbS_k0_t1Step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k (pbS_k0_t1 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k)

theorem pbS_k0_t1_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t1_loop.trips) :
    pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 (k.val + 1)
      = ((tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k (locO.view.writes (Elt F) G_arg6 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).1) (locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.1) (arg12.view.writes (Elt F) G_arg12 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.2)).1 ++ (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).1, (tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k (locO.view.writes (Elt F) G_arg6 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).1) (locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.1) (arg12.view.writes (Elt F) G_arg12 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.2)).2.1 ++ (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.1, (tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k (locO.view.writes (Elt F) G_arg6 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).1) (locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.1) (arg12.view.writes (Elt F) G_arg12 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.2)).2.2 ++ (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.2) := by
  rw [pbS_k0_t1.eq_2]; unfold pbS_k0_t1Step; exact dif_pos k.isLt

/-- THE INVARIANT before trip `k`: arg10, arg15 read at `X_·`; locO, locL, arg12 holding the pieces
   of the trips before `k` written over the contents at loop entry `G_·` (stated `∃ f, … ∗ ⌜f = …⌝`,
   so that a hypothesis of any contents matches and the equation is what is proved). -/
abbrev invS_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, ((locBlkO c 0).view.loc (c : Thread nD τ) ↦[(locBlkO c 0).view.set]{fullShare} f) ∗ ⌜f = locO.view.writes (Elt F) G_arg6 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k).1⌝) ∗ (∃ f, ((locBlkL c 0).view.loc (c : Thread nD τ) ↦[(locBlkL c 0).view.set]{fullShare} f) ∗ ⌜f = locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k).2.1⌝) ∗ (∃ f, (arg12.view.loc (c : Thread nD τ) ↦[arg12.view.set]{fullShare} f) ∗ ⌜f = arg12.view.writes (Elt F) G_arg12 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k).2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInvS_k0_t1 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) :
    LoopInvTy_k0_t1 (F := F) Unit ℕ Cert.KernelIdeal.Proto.UU ℕ 𝒱 c bd E arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 where
  inv := invS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((tripS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pbS_k0_t1_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part21`'s counted loop `k0_t2_loop` (`scf.for %arg30 =
   %c0_i32_417 to %475 step %c1_i32_419 : i32 {`), trip `k0_t2`, carrying `Unit`, region
   `Gen.k0_t2_body`. Classifier: LISTED — every store at a `Rect.unit` through a memref parameter of
   the region, nothing carried, no transfer or conditional inside: the invariant is the pieces of
   the trips before `k`; not affine (a store whose offsets chain `k0_off29` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part2`. Per trip it STORES
   through arg12 at ![0, 0]; arg6 at (k0_off29 d0 k0_t2) (NO closed form stated); arg7 at (k0_off30
   d0 k0_t2) (NO closed form stated). It LOADS through arg10 at (k0_off26 d0 k0_t2); arg15 at
   (k0_off27 d0 k0_t2); arg15 at (k0_off28 d0 k0_t2); arg12 at ![0, 0]; arg6 at (k0_off29 d0 k0_t2);
   arg7 at (k0_off30 d0 k0_t2). GENERATED below: `Gen.loopInv_k0_t2` (`@[sl_loop]`), at the frame
   kit's algebra — a run at that algebra (the generated frame's, or a hand proof's over `MT nD τ sig
   Unit (Elt F) ℕ Cert.KernelIdeal.Proto.UU ℕ`) goes through the loop with nothing more to state; a proof at
   another algebra instances the class itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468)

/-! ### `k0_t2_loop`: the generated invariant (classifier: listed) -/

/-- One trip's resources: what the region reads (arg10, arg15) at its contents, what it writes
   (locO, locL, arg12) at any. -/
abbrev TripS_k0_t2 (c : Dev nD) (arg10 : Memref sig .tc .vmem S32x256x128 .bf16) (arg15 : Memref sig .tc .vmem S2x8x1024x128 .bf16) (arg12 : Memref sig .tc .vmem S1024x256 .bf16) (X_arg10 : BufTy.Contents (Elt F) arg10.view.ty) (X_arg15 : BufTy.Contents (Elt F) arg15.view.ty) (f_arg6 : BufTy.Contents (Elt F) locO.view.ty) (f_arg7 : BufTy.Contents (Elt F) locL.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ ((locBlkO c 2).view.loc (c : Thread nD τ) ↦[(locBlkO c 2).view.set]{fullShare} f_arg6) ∗ ((locBlkL c 2).view.loc (c : Thread nD τ) ↦[(locBlkL c 2).view.set]{fullShare} f_arg7) ∗ (arg12.view.loc (c : Thread nD τ) ↦[arg12.view.set]{fullShare} f_arg12))

/-- ONE TRIP of `k0_t2_loop` at a symbolic `k`, run by `sl_exec` (its rectangles where the program's
   in-range evidence puts them, their places unread): the pieces it writes into locO, locL, arg12
   are the run's own finds — the witnesses `sl_close` assigns handing the buffers to the
   continuation, as functions of the contents the trip finds in the memrefs it writes (the region
   loads some of them back). `@[irreducible]`: cited, never unfolded. -/
@[irreducible] def tripS_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (k : Fin k0_t2_loop.trips) :
    Σ' (L_arg6 : (BufTy.Contents (Elt F) locO.view.ty → BufTy.Contents (Elt F) locL.view.ty → BufTy.Contents (Elt F) arg12.view.ty → List (View.Piece (Elt F) S32x128x256 .bf16))) (L_arg7 : (BufTy.Contents (Elt F) locO.view.ty → BufTy.Contents (Elt F) locL.view.ty → BufTy.Contents (Elt F) arg12.view.ty → List (View.Piece (Elt F) S32x1x256 .f32))) , { L_arg12 : (BufTy.Contents (Elt F) locO.view.ty → BufTy.Contents (Elt F) locL.view.ty → BufTy.Contents (Elt F) arg12.view.ty → List (View.Piece (Elt F) S1024x256 .bf16)) // ∀ (E : Set ℕ) (f_arg6 : BufTy.Contents (Elt F) locO.view.ty) (f_arg7 : BufTy.Contents (Elt F) locL.view.ty) (f_arg12 : BufTy.Contents (Elt F) arg12.view.ty),
      TripS_k0_t2 (F := F) c arg10 arg15 arg12 X_arg10 X_arg15 f_arg6 f_arg7 f_arg12
      ⊢ wp frame (wpE (defs₀ (F := F)) 𝒱 (c : Thread nD τ) bd) E (k0_t2_body (F := F) arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 k PUnit.unit)
          (fun _ => TripS_k0_t2 (F := F) c arg10 arg15 arg12 X_arg10 X_arg15 (locO.view.writes (Elt F) f_arg6 (L_arg6 f_arg6 f_arg7 f_arg12)) (locL.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t2_abs.2.1
  have hS_arg6_k := hS_arg6 k
  have hS_arg7_k := hS_arg7 k
  refine ⟨fun f_arg6 f_arg7 f_arg12 => [⟨Rect.unit (s := S32x128x256) (k0_off29 d0 k) S1x128x256.size (k0_off29_inb d0 k), (k0_pay56 (k0_pay9 (View.readAt (Elt F) arg15.view (Rect.unit (s := S2x8x1024x128) (k0_off28 d0 k) S1x1x1024x128.size (k0_off28_inb d0 k)).toLoadRect X_arg15)) (arg12.view.readCov [⟨Rect.unit (s := S1024x256) ![0, 0] S1024x256.size inb_S1024x256_S1024x256_0_0, (k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15))⟩] (Rect.unit (s := S1024x256) ![0, 0] S1024x256.size inb_S1024x256_S1024x256_0_0).toLoadRect))⟩], fun f_arg6 f_arg7 f_arg12 => [⟨Rect.unit (s := S32x1x256) (k0_off30 d0 k) S1x1x256.size (k0_off30_inb d0 k), (k0_pay57 (k0_pay11 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))⟩], fun f_arg6 f_arg7 f_arg12 => [⟨Rect.unit (s := S1024x256) ![0, 0] S1024x256.size inb_S1024x256_S1024x256_0_0, (k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15))⟩], fun E f_arg6 f_arg7 f_arg12 => ?run⟩
  case run =>
    unfold k0_t2_body
    iintro ⟨HR_arg10, HR_arg15, HW_arg6, HW_arg7, HW_arg12⟩
    sl_exec
    iapply (wp_store 𝒱 (c : Thread nD τ) bd E (m := locO) (r := Rect.unit (s := S32x128x256) (k0_off29 d0 k) S1x128x256.size (k0_off29_inb d0 k)) (Mk := Finset.univ) hS_arg6_k) $$ [HW_arg6]
    · iexact HW_arg6
    iintro HW_arg6
    sl_exec
    iapply (wp_store 𝒱 (c : Thread nD τ) bd E (m := locL) (r := Rect.unit (s := S32x1x256) (k0_off30 d0 k) S1x1x256.size (k0_off30_inb d0 k)) (Mk := Finset.univ) hS_arg7_k) $$ [HW_arg7]
    · iexact HW_arg7
    iintro HW_arg7
    simp only [Prog.pure_eq_ret]
    rw [wp_ret]; imodintro
    isplitl [HR_arg10]; · iexact HR_arg10
    isplitl [HR_arg15]; · iexact HR_arg15
    isplitl [HW_arg6]; · iexact HW_arg6
    isplitl [HW_arg7]; · iexact HW_arg7
    iexact HW_arg12

/-- The trip's piece lists (plain projections of `trip_…`, for the recursion below to cite without
   its proof), at the contents the trip finds in the written memrefs. -/
abbrev tripLS_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (k : Fin k0_t2_loop.trips) (f_arg6 : BufTy.Contents (Elt F) locO.view.ty) (f_arg7 : BufTy.Contents (Elt F) locL.view.ty) (f_arg12 : BufTy.Contents (Elt F) arg12.view.ty) : List (View.Piece (Elt F) S32x128x256 .bf16) × List (View.Piece (Elt F) S32x1x256 .f32) × List (View.Piece (Elt F) S1024x256 .bf16) :=
  ((tripS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k).1 f_arg6 f_arg7 f_arg12, (tripS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k).2.1 f_arg6 f_arg7 f_arg12, (tripS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k).2.2.1 f_arg6 f_arg7 f_arg12)

/-- Trip k's pieces, spelt: per written memref the rectangle of its one store and what is stored, a loaded value read off what the memref holds then. -/
theorem tripLS_k0_t2_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (k : Fin k0_t2_loop.trips) (f_arg6 : BufTy.Contents (Elt F) locO.view.ty) (f_arg7 : BufTy.Contents (Elt F) locL.view.ty) (f_arg12 : BufTy.Contents (Elt F) arg12.view.ty) :
    tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k f_arg6 f_arg7 f_arg12 = ([⟨Rect.unit (s := S32x128x256) (k0_off29 d0 k) S1x128x256.size (k0_off29_inb d0 k), (k0_pay56 (k0_pay9 (View.readAt (Elt F) arg15.view (Rect.unit (s := S2x8x1024x128) (k0_off28 d0 k) S1x1x1024x128.size (k0_off28_inb d0 k)).toLoadRect X_arg15)) (arg12.view.readCov [⟨Rect.unit (s := S1024x256) ![0, 0] S1024x256.size inb_S1024x256_S1024x256_0_0, (k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15))⟩] (Rect.unit (s := S1024x256) ![0, 0] S1024x256.size inb_S1024x256_S1024x256_0_0).toLoadRect))⟩], [⟨Rect.unit (s := S32x1x256) (k0_off30 d0 k) S1x1x256.size (k0_off30_inb d0 k), (k0_pay57 (k0_pay11 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))⟩], [⟨Rect.unit (s := S1024x256) ![0, 0] S1024x256.size inb_S1024x256_S1024x256_0_0, (k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15))⟩]) := by
  unfold tripLS_k0_t2 tripS_k0_t2
  rfl

/-- Trip `k`'s contribution to the state the recursion `pbS_k0_t2` below carries (`prev`): its pieces
   in front, per written memref; past the last trip, `prev` itself. -/
@[irreducible] def pbS_k0_t2Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t2_loop.trips then
    ((tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 ⟨k, h⟩ (locO.view.writes (Elt F) G_arg6 prev.1) (locL.view.writes (Elt F) G_arg7 prev.2.1) (arg12.view.writes (Elt F) G_arg12 prev.2.2)).1 ++ prev.1, (tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 ⟨k, h⟩ (locO.view.writes (Elt F) G_arg6 prev.1) (locL.view.writes (Elt F) G_arg7 prev.2.1) (arg12.view.writes (Elt F) G_arg12 prev.2.2)).2.1 ++ prev.2.1, (tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 ⟨k, h⟩ (locO.view.writes (Elt F) G_arg6 prev.1) (locL.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pbS_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pbS_k0_t2Step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k (pbS_k0_t2 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k)

theorem pbS_k0_t2_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t2_loop.trips) :
    pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 (k.val + 1)
      = ((tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k (locO.view.writes (Elt F) G_arg6 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).1) (locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.1) (arg12.view.writes (Elt F) G_arg12 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.2)).1 ++ (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).1, (tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k (locO.view.writes (Elt F) G_arg6 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).1) (locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.1) (arg12.view.writes (Elt F) G_arg12 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.2)).2.1 ++ (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.1, (tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k (locO.view.writes (Elt F) G_arg6 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).1) (locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.1) (arg12.view.writes (Elt F) G_arg12 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.2)).2.2 ++ (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.2) := by
  rw [pbS_k0_t2.eq_2]; unfold pbS_k0_t2Step; exact dif_pos k.isLt

/-- THE INVARIANT before trip `k`: arg10, arg15 read at `X_·`; locO, locL, arg12 holding the pieces
   of the trips before `k` written over the contents at loop entry `G_·` (stated `∃ f, … ∗ ⌜f = …⌝`,
   so that a hypothesis of any contents matches and the equation is what is proved). -/
abbrev invS_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, ((locBlkO c 2).view.loc (c : Thread nD τ) ↦[(locBlkO c 2).view.set]{fullShare} f) ∗ ⌜f = locO.view.writes (Elt F) G_arg6 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k).1⌝) ∗ (∃ f, ((locBlkL c 2).view.loc (c : Thread nD τ) ↦[(locBlkL c 2).view.set]{fullShare} f) ∗ ⌜f = locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k).2.1⌝) ∗ (∃ f, (arg12.view.loc (c : Thread nD τ) ↦[arg12.view.set]{fullShare} f) ∗ ⌜f = arg12.view.writes (Elt F) G_arg12 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k).2.2⌝))

set_option warn.classDefReducibility false in
/-- THE LOOP BY ITS INVARIANT — generated (`@[sl_loop]`: `sl_exec` finds it meeting `k0_t2_loop`,
   fixing `X_· G_·` against the context; after the loop each written memref holds `writes G (pb …
   trips)`). -/
@[sl_loop] def loopInvS_k0_t2 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) :
    LoopInvTy_k0_t2 (F := F) Unit ℕ Cert.KernelIdeal.Proto.UU ℕ 𝒱 c bd E arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 where
  inv := invS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((tripS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pbS_k0_t2_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part26`'s counted loop `k0_t3_loop` (`scf.for %arg30 =
   %c0_i32_562 to %661 step %c1_i32_564 : i32 {`), trip `k0_t3`, carrying `Unit`, region
   `Gen.k0_t3_body`. Classifier: LISTED — every store at a `Rect.unit` through a memref parameter of
   the region, nothing carried, no transfer or conditional inside: the invariant is the pieces of
   the trips before `k`; not affine (a store whose offsets chain `k0_off36` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part3`. Per trip it STORES
   through arg12 at ![0, 0]; arg6 at (k0_off36 d0 k0_t3) (NO closed form stated); arg7 at (k0_off37
   d0 k0_t3) (NO closed form stated). It LOADS through arg10 at (k0_off33 d0 k0_t3); arg15 at
   (k0_off34 d0 k0_t3); arg15 at (k0_off35 d0 k0_t3); arg12 at ![0, 0]; arg6 at (k0_off36 d0 k0_t3);
   arg7 at (k0_off37 d0 k0_t3). GENERATED below: `Gen.loopInv_k0_t3` (`@[sl_loop]`), at the frame
   kit's algebra — a run at that algebra (the generated frame's, or a hand proof's over `MT nD τ sig
   Unit (Elt F) ℕ Cert.KernelIdeal.Proto.UU ℕ`) goes through the loop with nothing more to state; a proof at
   another algebra instances the class itself, after this one. -/
abbrev LoopInvTy_k0_t3 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) :=
  Idealize.ShloMosaic.LoopInv (M := MT nD τ sig Ix (Elt F) Name U Lvl) Idealize.ShloMosaic.frame (wpE defs₀ 𝒱 (c : Thread nD τ) bd) E
    k0_t3_loop.lb k0_t3_loop.ub k0_t3_loop.st k0_t3_ok () (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596)

/-! ### `k0_t3_loop`: the generated invariant (classifier: listed) -/

/-- One trip's resources: what the region reads (arg10, arg15) at its contents, what it writes
   (locO, locL, arg12) at any. -/
abbrev TripS_k0_t3 (c : Dev nD) (arg10 : Memref sig .tc .vmem S32x256x128 .bf16) (arg15 : Memref sig .tc .vmem S2x8x1024x128 .bf16) (arg12 : Memref sig .tc .vmem S1024x256 .bf16) (X_arg10 : BufTy.Contents (Elt F) arg10.view.ty) (X_arg15 : BufTy.Contents (Elt F) arg15.view.ty) (f_arg6 : BufTy.Contents (Elt F) locO.view.ty) (f_arg7 : BufTy.Contents (Elt F) locL.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ ((locBlkO c 3).view.loc (c : Thread nD τ) ↦[(locBlkO c 3).view.set]{fullShare} f_arg6) ∗ ((locBlkL c 3).view.loc (c : Thread nD τ) ↦[(locBlkL c 3).view.set]{fullShare} f_arg7) ∗ (arg12.view.loc (c : Thread nD τ) ↦[arg12.view.set]{fullShare} f_arg12))

/-- ONE TRIP of `k0_t3_loop` at a symbolic `k`, run by `sl_exec` (its rectangles where the program's
   in-range evidence puts them, their places unread): the pieces it writes into locO, locL, arg12
   are the run's own finds — the witnesses `sl_close` assigns handing the buffers to the
   continuation, as functions of the contents the trip finds in the memrefs it writes (the region
   loads some of them back). `@[irreducible]`: cited, never unfolded. -/
@[irreducible] def tripS_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (k : Fin k0_t3_loop.trips) :
    Σ' (L_arg6 : (BufTy.Contents (Elt F) locO.view.ty → BufTy.Contents (Elt F) locL.view.ty → BufTy.Contents (Elt F) arg12.view.ty → List (View.Piece (Elt F) S32x128x256 .bf16))) (L_arg7 : (BufTy.Contents (Elt F) locO.view.ty → BufTy.Contents (Elt F) locL.view.ty → BufTy.Contents (Elt F) arg12.view.ty → List (View.Piece (Elt F) S32x1x256 .f32))) , { L_arg12 : (BufTy.Contents (Elt F) locO.view.ty → BufTy.Contents (Elt F) locL.view.ty → BufTy.Contents (Elt F) arg12.view.ty → List (View.Piece (Elt F) S1024x256 .bf16)) // ∀ (E : Set ℕ) (f_arg6 : BufTy.Contents (Elt F) locO.view.ty) (f_arg7 : BufTy.Contents (Elt F) locL.view.ty) (f_arg12 : BufTy.Contents (Elt F) arg12.view.ty),
      TripS_k0_t3 (F := F) c arg10 arg15 arg12 X_arg10 X_arg15 f_arg6 f_arg7 f_arg12
      ⊢ wp frame (wpE (defs₀ (F := F)) 𝒱 (c : Thread nD τ) bd) E (k0_t3_body (F := F) arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 k PUnit.unit)
          (fun _ => TripS_k0_t3 (F := F) c arg10 arg15 arg12 X_arg10 X_arg15 (locO.view.writes (Elt F) f_arg6 (L_arg6 f_arg6 f_arg7 f_arg12)) (locL.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t3_abs.2.1
  have hS_arg6_k := hS_arg6 k
  have hS_arg7_k := hS_arg7 k
  refine ⟨fun f_arg6 f_arg7 f_arg12 => [⟨Rect.unit (s := S32x128x256) (k0_off36 d0 k) S1x128x256.size (k0_off36_inb d0 k), (k0_pay73 (k0_pay13 (View.readAt (Elt F) arg15.view (Rect.unit (s := S2x8x1024x128) (k0_off35 d0 k) S1x1x1024x128.size (k0_off35_inb d0 k)).toLoadRect X_arg15)) (arg12.view.readCov [⟨Rect.unit (s := S1024x256) ![0, 0] S1024x256.size inb_S1024x256_S1024x256_0_0, (k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15))⟩] (Rect.unit (s := S1024x256) ![0, 0] S1024x256.size inb_S1024x256_S1024x256_0_0).toLoadRect))⟩], fun f_arg6 f_arg7 f_arg12 => [⟨Rect.unit (s := S32x1x256) (k0_off37 d0 k) S1x1x256.size (k0_off37_inb d0 k), (k0_pay74 (k0_pay15 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))⟩], fun f_arg6 f_arg7 f_arg12 => [⟨Rect.unit (s := S1024x256) ![0, 0] S1024x256.size inb_S1024x256_S1024x256_0_0, (k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15))⟩], fun E f_arg6 f_arg7 f_arg12 => ?run⟩
  case run =>
    unfold k0_t3_body
    iintro ⟨HR_arg10, HR_arg15, HW_arg6, HW_arg7, HW_arg12⟩
    sl_exec
    iapply (wp_store 𝒱 (c : Thread nD τ) bd E (m := locO) (r := Rect.unit (s := S32x128x256) (k0_off36 d0 k) S1x128x256.size (k0_off36_inb d0 k)) (Mk := Finset.univ) hS_arg6_k) $$ [HW_arg6]
    · iexact HW_arg6
    iintro HW_arg6
    sl_exec
    iapply (wp_store 𝒱 (c : Thread nD τ) bd E (m := locL) (r := Rect.unit (s := S32x1x256) (k0_off37 d0 k) S1x1x256.size (k0_off37_inb d0 k)) (Mk := Finset.univ) hS_arg7_k) $$ [HW_arg7]
    · iexact HW_arg7
    iintro HW_arg7
    simp only [Prog.pure_eq_ret]
    rw [wp_ret]; imodintro
    isplitl [HR_arg10]; · iexact HR_arg10
    isplitl [HR_arg15]; · iexact HR_arg15
    isplitl [HW_arg6]; · iexact HW_arg6
    isplitl [HW_arg7]; · iexact HW_arg7
    iexact HW_arg12

/-- The trip's piece lists (plain projections of `trip_…`, for the recursion below to cite without
   its proof), at the contents the trip finds in the written memrefs. -/
abbrev tripLS_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (k : Fin k0_t3_loop.trips) (f_arg6 : BufTy.Contents (Elt F) locO.view.ty) (f_arg7 : BufTy.Contents (Elt F) locL.view.ty) (f_arg12 : BufTy.Contents (Elt F) arg12.view.ty) : List (View.Piece (Elt F) S32x128x256 .bf16) × List (View.Piece (Elt F) S32x1x256 .f32) × List (View.Piece (Elt F) S1024x256 .bf16) :=
  ((tripS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k).1 f_arg6 f_arg7 f_arg12, (tripS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k).2.1 f_arg6 f_arg7 f_arg12, (tripS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k).2.2.1 f_arg6 f_arg7 f_arg12)

/-- Trip k's pieces, spelt: per written memref the rectangle of its one store and what is stored, a loaded value read off what the memref holds then. -/
theorem tripLS_k0_t3_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (k : Fin k0_t3_loop.trips) (f_arg6 : BufTy.Contents (Elt F) locO.view.ty) (f_arg7 : BufTy.Contents (Elt F) locL.view.ty) (f_arg12 : BufTy.Contents (Elt F) arg12.view.ty) :
    tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k f_arg6 f_arg7 f_arg12 = ([⟨Rect.unit (s := S32x128x256) (k0_off36 d0 k) S1x128x256.size (k0_off36_inb d0 k), (k0_pay73 (k0_pay13 (View.readAt (Elt F) arg15.view (Rect.unit (s := S2x8x1024x128) (k0_off35 d0 k) S1x1x1024x128.size (k0_off35_inb d0 k)).toLoadRect X_arg15)) (arg12.view.readCov [⟨Rect.unit (s := S1024x256) ![0, 0] S1024x256.size inb_S1024x256_S1024x256_0_0, (k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15))⟩] (Rect.unit (s := S1024x256) ![0, 0] S1024x256.size inb_S1024x256_S1024x256_0_0).toLoadRect))⟩], [⟨Rect.unit (s := S32x1x256) (k0_off37 d0 k) S1x1x256.size (k0_off37_inb d0 k), (k0_pay74 (k0_pay15 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))⟩], [⟨Rect.unit (s := S1024x256) ![0, 0] S1024x256.size inb_S1024x256_S1024x256_0_0, (k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15))⟩]) := by
  unfold tripLS_k0_t3 tripS_k0_t3
  rfl

/-- Trip `k`'s contribution to the state the recursion `pbS_k0_t3` below carries (`prev`): its pieces
   in front, per written memref; past the last trip, `prev` itself. -/
@[irreducible] def pbS_k0_t3Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t3_loop.trips then
    ((tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 ⟨k, h⟩ (locO.view.writes (Elt F) G_arg6 prev.1) (locL.view.writes (Elt F) G_arg7 prev.2.1) (arg12.view.writes (Elt F) G_arg12 prev.2.2)).1 ++ prev.1, (tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 ⟨k, h⟩ (locO.view.writes (Elt F) G_arg6 prev.1) (locL.view.writes (Elt F) G_arg7 prev.2.1) (arg12.view.writes (Elt F) G_arg12 prev.2.2)).2.1 ++ prev.2.1, (tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 ⟨k, h⟩ (locO.view.writes (Elt F) G_arg6 prev.1) (locL.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pbS_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pbS_k0_t3Step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k (pbS_k0_t3 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k)

theorem pbS_k0_t3_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t3_loop.trips) :
    pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 (k.val + 1)
      = ((tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k (locO.view.writes (Elt F) G_arg6 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).1) (locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.1) (arg12.view.writes (Elt F) G_arg12 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.2)).1 ++ (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).1, (tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k (locO.view.writes (Elt F) G_arg6 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).1) (locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.1) (arg12.view.writes (Elt F) G_arg12 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.2)).2.1 ++ (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.1, (tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k (locO.view.writes (Elt F) G_arg6 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).1) (locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.1) (arg12.view.writes (Elt F) G_arg12 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.2)).2.2 ++ (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.2) := by
  rw [pbS_k0_t3.eq_2]; unfold pbS_k0_t3Step; exact dif_pos k.isLt

/-- THE INVARIANT before trip `k`: arg10, arg15 read at `X_·`; locO, locL, arg12 holding the pieces
   of the trips before `k` written over the contents at loop entry `G_·` (stated `∃ f, … ∗ ⌜f = …⌝`,
   so that a hypothesis of any contents matches and the equation is what is proved). -/
abbrev invS_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, ((locBlkO c 3).view.loc (c : Thread nD τ) ↦[(locBlkO c 3).view.set]{fullShare} f) ∗ ⌜f = locO.view.writes (Elt F) G_arg6 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k).1⌝) ∗ (∃ f, ((locBlkL c 3).view.loc (c : Thread nD τ) ↦[(locBlkL c 3).view.set]{fullShare} f) ∗ ⌜f = locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k).2.1⌝) ∗ (∃ f, (arg12.view.loc (c : Thread nD τ) ↦[arg12.view.set]{fullShare} f) ∗ ⌜f = arg12.view.writes (Elt F) G_arg12 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k).2.2⌝))

set_option warn.classDefReducibility false in
/-- THE LOOP BY ITS INVARIANT — generated (`@[sl_loop]`: `sl_exec` finds it meeting `k0_t3_loop`,
   fixing `X_· G_·` against the context; after the loop each written memref holds `writes G (pb …
   trips)`). -/
@[sl_loop] def loopInvS_k0_t3 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) :
    LoopInvTy_k0_t3 (F := F) Unit ℕ Cert.KernelIdeal.Proto.UU ℕ 𝒱 c bd E arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 where
  inv := invS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((tripS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pbS_k0_t3_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part36`'s counted loop `k0_t6_loop` (`scf.for %arg30 =
   %c0_i32_832 to %940 step %c1_i32_834 : i32 {`), trip `k0_t6`, carrying `Unit`, region
   `Gen.k0_t6_body`. Classifier: LISTED — every store at a `Rect.unit` through a memref parameter of
   the region, nothing carried, no transfer or conditional inside: the invariant is the pieces of
   the trips before `k`; not affine (a store whose offsets chain `k0_off49` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part4`. Per trip it STORES
   through arg12 at ![0, 0]; arg6 at (k0_off49 d0 k0_t6) (NO closed form stated); arg7 at (k0_off50
   d0 k0_t6) (NO closed form stated). It LOADS through arg10 at (k0_off46 d0 k0_t6); arg15 at
   (k0_off47 d0 k0_t6); arg15 at (k0_off48 d0 k0_t6); arg12 at ![0, 0]; arg6 at (k0_off49 d0 k0_t6);
   arg7 at (k0_off50 d0 k0_t6). GENERATED below: `Gen.loopInv_k0_t6` (`@[sl_loop]`), at the frame
   kit's algebra — a run at that algebra (the generated frame's, or a hand proof's over `MT nD τ sig
   Unit (Elt F) ℕ Cert.KernelIdeal.Proto.UU ℕ`) goes through the loop with nothing more to state; a proof at
   another algebra instances the class itself, after this one. -/
abbrev LoopInvTy_k0_t6 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) :=
  Idealize.ShloMosaic.LoopInv (M := MT nD τ sig Ix (Elt F) Name U Lvl) Idealize.ShloMosaic.frame (wpE defs₀ 𝒱 (c : Thread nD τ) bd) E
    k0_t6_loop.lb k0_t6_loop.ub k0_t6_loop.st k0_t6_ok () (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917)

/-! ### `k0_t6_loop`: the generated invariant (classifier: listed) -/

/-- One trip's resources: what the region reads (arg10, arg15) at its contents, what it writes
   (locO, locL, arg12) at any. -/
abbrev TripS_k0_t6 (c : Dev nD) (arg10 : Memref sig .tc .vmem S32x256x128 .bf16) (arg15 : Memref sig .tc .vmem S2x8x1024x128 .bf16) (arg12 : Memref sig .tc .vmem S1024x256 .bf16) (X_arg10 : BufTy.Contents (Elt F) arg10.view.ty) (X_arg15 : BufTy.Contents (Elt F) arg15.view.ty) (f_arg6 : BufTy.Contents (Elt F) locO.view.ty) (f_arg7 : BufTy.Contents (Elt F) locL.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ ((locBlkO c 1).view.loc (c : Thread nD τ) ↦[(locBlkO c 1).view.set]{fullShare} f_arg6) ∗ ((locBlkL c 1).view.loc (c : Thread nD τ) ↦[(locBlkL c 1).view.set]{fullShare} f_arg7) ∗ (arg12.view.loc (c : Thread nD τ) ↦[arg12.view.set]{fullShare} f_arg12))

/-- ONE TRIP of `k0_t6_loop` at a symbolic `k`, run by `sl_exec` (its rectangles where the program's
   in-range evidence puts them, their places unread): the pieces it writes into locO, locL, arg12
   are the run's own finds — the witnesses `sl_close` assigns handing the buffers to the
   continuation, as functions of the contents the trip finds in the memrefs it writes (the region
   loads some of them back). `@[irreducible]`: cited, never unfolded. -/
@[irreducible] def tripS_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (k : Fin k0_t6_loop.trips) :
    Σ' (L_arg6 : (BufTy.Contents (Elt F) locO.view.ty → BufTy.Contents (Elt F) locL.view.ty → BufTy.Contents (Elt F) arg12.view.ty → List (View.Piece (Elt F) S32x128x256 .bf16))) (L_arg7 : (BufTy.Contents (Elt F) locO.view.ty → BufTy.Contents (Elt F) locL.view.ty → BufTy.Contents (Elt F) arg12.view.ty → List (View.Piece (Elt F) S32x1x256 .f32))) , { L_arg12 : (BufTy.Contents (Elt F) locO.view.ty → BufTy.Contents (Elt F) locL.view.ty → BufTy.Contents (Elt F) arg12.view.ty → List (View.Piece (Elt F) S1024x256 .bf16)) // ∀ (E : Set ℕ) (f_arg6 : BufTy.Contents (Elt F) locO.view.ty) (f_arg7 : BufTy.Contents (Elt F) locL.view.ty) (f_arg12 : BufTy.Contents (Elt F) arg12.view.ty),
      TripS_k0_t6 (F := F) c arg10 arg15 arg12 X_arg10 X_arg15 f_arg6 f_arg7 f_arg12
      ⊢ wp frame (wpE (defs₀ (F := F)) 𝒱 (c : Thread nD τ) bd) E (k0_t6_body (F := F) arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 k PUnit.unit)
          (fun _ => TripS_k0_t6 (F := F) c arg10 arg15 arg12 X_arg10 X_arg15 (locO.view.writes (Elt F) f_arg6 (L_arg6 f_arg6 f_arg7 f_arg12)) (locL.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t6_abs.2.1
  have hS_arg6_k := hS_arg6 k
  have hS_arg7_k := hS_arg7 k
  refine ⟨fun f_arg6 f_arg7 f_arg12 => [⟨Rect.unit (s := S32x128x256) (k0_off49 d0 k) S1x128x256.size (k0_off49_inb d0 k), (k0_pay94 (k0_pay17 (View.readAt (Elt F) arg15.view (Rect.unit (s := S2x8x1024x128) (k0_off48 d0 k) S1x1x1024x128.size (k0_off48_inb d0 k)).toLoadRect X_arg15)) (arg12.view.readCov [⟨Rect.unit (s := S1024x256) ![0, 0] S1024x256.size inb_S1024x256_S1024x256_0_0, (k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15))⟩] (Rect.unit (s := S1024x256) ![0, 0] S1024x256.size inb_S1024x256_S1024x256_0_0).toLoadRect))⟩], fun f_arg6 f_arg7 f_arg12 => [⟨Rect.unit (s := S32x1x256) (k0_off50 d0 k) S1x1x256.size (k0_off50_inb d0 k), (k0_pay95 (k0_pay19 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))⟩], fun f_arg6 f_arg7 f_arg12 => [⟨Rect.unit (s := S1024x256) ![0, 0] S1024x256.size inb_S1024x256_S1024x256_0_0, (k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15))⟩], fun E f_arg6 f_arg7 f_arg12 => ?run⟩
  case run =>
    unfold k0_t6_body
    iintro ⟨HR_arg10, HR_arg15, HW_arg6, HW_arg7, HW_arg12⟩
    sl_exec
    iapply (wp_store 𝒱 (c : Thread nD τ) bd E (m := locO) (r := Rect.unit (s := S32x128x256) (k0_off49 d0 k) S1x128x256.size (k0_off49_inb d0 k)) (Mk := Finset.univ) hS_arg6_k) $$ [HW_arg6]
    · iexact HW_arg6
    iintro HW_arg6
    sl_exec
    iapply (wp_store 𝒱 (c : Thread nD τ) bd E (m := locL) (r := Rect.unit (s := S32x1x256) (k0_off50 d0 k) S1x1x256.size (k0_off50_inb d0 k)) (Mk := Finset.univ) hS_arg7_k) $$ [HW_arg7]
    · iexact HW_arg7
    iintro HW_arg7
    simp only [Prog.pure_eq_ret]
    rw [wp_ret]; imodintro
    isplitl [HR_arg10]; · iexact HR_arg10
    isplitl [HR_arg15]; · iexact HR_arg15
    isplitl [HW_arg6]; · iexact HW_arg6
    isplitl [HW_arg7]; · iexact HW_arg7
    iexact HW_arg12

/-- The trip's piece lists (plain projections of `trip_…`, for the recursion below to cite without
   its proof), at the contents the trip finds in the written memrefs. -/
abbrev tripLS_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (k : Fin k0_t6_loop.trips) (f_arg6 : BufTy.Contents (Elt F) locO.view.ty) (f_arg7 : BufTy.Contents (Elt F) locL.view.ty) (f_arg12 : BufTy.Contents (Elt F) arg12.view.ty) : List (View.Piece (Elt F) S32x128x256 .bf16) × List (View.Piece (Elt F) S32x1x256 .f32) × List (View.Piece (Elt F) S1024x256 .bf16) :=
  ((tripS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k).1 f_arg6 f_arg7 f_arg12, (tripS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k).2.1 f_arg6 f_arg7 f_arg12, (tripS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k).2.2.1 f_arg6 f_arg7 f_arg12)

/-- Trip k's pieces, spelt: per written memref the rectangle of its one store and what is stored, a loaded value read off what the memref holds then. -/
theorem tripLS_k0_t6_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (k : Fin k0_t6_loop.trips) (f_arg6 : BufTy.Contents (Elt F) locO.view.ty) (f_arg7 : BufTy.Contents (Elt F) locL.view.ty) (f_arg12 : BufTy.Contents (Elt F) arg12.view.ty) :
    tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k f_arg6 f_arg7 f_arg12 = ([⟨Rect.unit (s := S32x128x256) (k0_off49 d0 k) S1x128x256.size (k0_off49_inb d0 k), (k0_pay94 (k0_pay17 (View.readAt (Elt F) arg15.view (Rect.unit (s := S2x8x1024x128) (k0_off48 d0 k) S1x1x1024x128.size (k0_off48_inb d0 k)).toLoadRect X_arg15)) (arg12.view.readCov [⟨Rect.unit (s := S1024x256) ![0, 0] S1024x256.size inb_S1024x256_S1024x256_0_0, (k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15))⟩] (Rect.unit (s := S1024x256) ![0, 0] S1024x256.size inb_S1024x256_S1024x256_0_0).toLoadRect))⟩], [⟨Rect.unit (s := S32x1x256) (k0_off50 d0 k) S1x1x256.size (k0_off50_inb d0 k), (k0_pay95 (k0_pay19 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))⟩], [⟨Rect.unit (s := S1024x256) ![0, 0] S1024x256.size inb_S1024x256_S1024x256_0_0, (k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15))⟩]) := by
  unfold tripLS_k0_t6 tripS_k0_t6
  rfl

/-- Trip `k`'s contribution to the state the recursion `pbS_k0_t6` below carries (`prev`): its pieces
   in front, per written memref; past the last trip, `prev` itself. -/
@[irreducible] def pbS_k0_t6Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t6_loop.trips then
    ((tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 ⟨k, h⟩ (locO.view.writes (Elt F) G_arg6 prev.1) (locL.view.writes (Elt F) G_arg7 prev.2.1) (arg12.view.writes (Elt F) G_arg12 prev.2.2)).1 ++ prev.1, (tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 ⟨k, h⟩ (locO.view.writes (Elt F) G_arg6 prev.1) (locL.view.writes (Elt F) G_arg7 prev.2.1) (arg12.view.writes (Elt F) G_arg12 prev.2.2)).2.1 ++ prev.2.1, (tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 ⟨k, h⟩ (locO.view.writes (Elt F) G_arg6 prev.1) (locL.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pbS_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pbS_k0_t6Step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k (pbS_k0_t6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k)

theorem pbS_k0_t6_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t6_loop.trips) :
    pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 (k.val + 1)
      = ((tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k (locO.view.writes (Elt F) G_arg6 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).1) (locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.1) (arg12.view.writes (Elt F) G_arg12 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.2)).1 ++ (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).1, (tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k (locO.view.writes (Elt F) G_arg6 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).1) (locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.1) (arg12.view.writes (Elt F) G_arg12 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.2)).2.1 ++ (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.1, (tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k (locO.view.writes (Elt F) G_arg6 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).1) (locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.1) (arg12.view.writes (Elt F) G_arg12 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.2)).2.2 ++ (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.2) := by
  rw [pbS_k0_t6.eq_2]; unfold pbS_k0_t6Step; exact dif_pos k.isLt

/-- THE INVARIANT before trip `k`: arg10, arg15 read at `X_·`; locO, locL, arg12 holding the pieces
   of the trips before `k` written over the contents at loop entry `G_·` (stated `∃ f, … ∗ ⌜f = …⌝`,
   so that a hypothesis of any contents matches and the equation is what is proved). -/
abbrev invS_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, ((locBlkO c 1).view.loc (c : Thread nD τ) ↦[(locBlkO c 1).view.set]{fullShare} f) ∗ ⌜f = locO.view.writes (Elt F) G_arg6 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k).1⌝) ∗ (∃ f, ((locBlkL c 1).view.loc (c : Thread nD τ) ↦[(locBlkL c 1).view.set]{fullShare} f) ∗ ⌜f = locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k).2.1⌝) ∗ (∃ f, (arg12.view.loc (c : Thread nD τ) ↦[arg12.view.set]{fullShare} f) ∗ ⌜f = arg12.view.writes (Elt F) G_arg12 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k).2.2⌝))

set_option warn.classDefReducibility false in
/-- THE LOOP BY ITS INVARIANT — generated (`@[sl_loop]`: `sl_exec` finds it meeting `k0_t6_loop`,
   fixing `X_· G_·` against the context; after the loop each written memref holds `writes G (pb …
   trips)`). -/
@[sl_loop] def loopInvS_k0_t6 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) :
    LoopInvTy_k0_t6 (F := F) Unit ℕ Cert.KernelIdeal.Proto.UU ℕ 𝒱 c bd E arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 where
  inv := invS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((tripS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pbS_k0_t6_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part28`'s counted loop `k0_t4_loop` (`scf.for %arg30 =
   %c0_i32_613 to %699 step %c1_i32_615 : i32 {`), trip `k0_t4`, carrying `Unit`, region
   `Gen.k0_t4_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off38 k0_t4); arg8 at
   (k0_off40 k0_t4). It LOADS through arg9 at (k0_off38 k0_t4); arg7 at (k0_off39 d0 k0_t4); arg8 at
   (k0_off40 k0_t4); arg6 at (k0_off41 d0 k0_t4). GENERATED below: `Gen.loopInv_k0_t4`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t4 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) :=
  Idealize.ShloMosaic.LoopInv (M := MT nD τ sig Ix (Elt F) Name U Lvl) Idealize.ShloMosaic.frame (wpE defs₀ 𝒱 (c : Thread nD τ) bd) E
    k0_t4_loop.lb k0_t4_loop.ub k0_t4_loop.st k0_t4_ok () (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14)

/-! ### `k0_t4_loop`: the generated invariant (classifier: affine) -/

/-- One trip's resources: what the region reads (locO, locL) at its contents, what it writes (rsO,
   rsL) at any. -/
abbrev TripS_k0_t4 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 3 false).view.loc (c : Thread nD τ) ↦[(locHalfO c 3 false).view.set]{fullShare} X_arg6) ∗ ((locHalfL c 3 false).view.loc (c : Thread nD τ) ↦[(locHalfL c 3 false).view.set]{fullShare} X_arg7) ∗ ((dstO 0 false).view.loc (c : Thread nD τ) ↦[(dstO 0 false).view.set]{fullShare} f_arg8) ∗ ((dstL 0 false).view.loc (c : Thread nD τ) ↦[(dstL 0 false).view.set]{fullShare} f_arg9))

/-- ONE TRIP of `k0_t4_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (k : Fin k0_t4_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t4 (F := F) c X_arg6 X_arg7 f_arg8 f_arg9
      ⊢ wp frame (wpE (defs₀ (F := F)) 𝒱 (c : Thread nD τ) bd) E (k0_t4_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v2 v14 k PUnit.unit)
          (fun _ => TripS_k0_t4 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t4_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off40 k) S1x1x128x256.size (k0_off40_inb k), (k0_pay76 (View.readAt (Elt F) rsO.view (Rect.unit (s := S3x8x128x256) (k0_off40 k) S1x1x128x256.size (k0_off40_inb k)).toLoadRect f_arg8) (View.readAt (Elt F) locO.view (Rect.unit (s := S32x128x256) (k0_off41 d0 k) S1x128x256.size (k0_off41_inb d0 k)).toLoadRect X_arg6))⟩], fun f_arg8 f_arg9 => [⟨Rect.unit (s := S3x8x1x256) (k0_off38 k) S1x1x1x256.size (k0_off38_inb k), (k0_pay75 (View.readAt (Elt F) rsL.view (Rect.unit (s := S3x8x1x256) (k0_off38 k) S1x1x1x256.size (k0_off38_inb k)).toLoadRect f_arg9) (View.readAt (Elt F) locL.view (Rect.unit (s := S32x1x256) (k0_off39 d0 k) S1x1x256.size (k0_off39_inb d0 k)).toLoadRect X_arg7))⟩], fun E f_arg8 f_arg9 => ?run⟩
  case run =>
    unfold k0_t4_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (k : Fin k0_t4_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k).1 f_arg8 f_arg9, (tripS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t4_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (k : Fin k0_t4_loop.trips) (f_arg8 : BufTy.Contents (Elt F) rsO.view.ty) (f_arg9 : BufTy.Contents (Elt F) rsL.view.ty) :
    tripLS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k f_arg8 f_arg9 = ([⟨Rect.unit (s := S3x8x128x256) (k0_off40 k) S1x1x128x256.size (k0_off40_inb k), (k0_pay76 (View.readAt (Elt F) rsO.view (Rect.unit (s := S3x8x128x256) (k0_off40 k) S1x1x128x256.size (k0_off40_inb k)).toLoadRect f_arg8) (View.readAt (Elt F) locO.view (Rect.unit (s := S32x128x256) (k0_off41 d0 k) S1x128x256.size (k0_off41_inb d0 k)).toLoadRect X_arg6))⟩], [⟨Rect.unit (s := S3x8x1x256) (k0_off38 k) S1x1x1x256.size (k0_off38_inb k), (k0_pay75 (View.readAt (Elt F) rsL.view (Rect.unit (s := S3x8x1x256) (k0_off38 k) S1x1x1x256.size (k0_off38_inb k)).toLoadRect f_arg9) (View.readAt (Elt F) locL.view (Rect.unit (s := S32x1x256) (k0_off39 d0 k) S1x1x256.size (k0_off39_inb d0 k)).toLoadRect X_arg7))⟩]) := by
  unfold tripLS_k0_t4 tripS_k0_t4
  rfl

/-- Trip `k`'s contribution to the state the recursion `pbS_k0_t4` below carries (`prev`): its pieces
   in front, per written memref; past the last trip, `prev` itself. -/
@[irreducible] def pbS_k0_t4Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t4_loop.trips then
    ((tripLS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t4Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k (pbS_k0_t4 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k)

theorem pbS_k0_t4_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t4_loop.trips) :
    pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 (k.val + 1)
      = ((tripLS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1) (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2)).1 ++ (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1, (tripLS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1) (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2)).2 ++ (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2) := by
  rw [pbS_k0_t4.eq_2]; unfold pbS_k0_t4Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 3 false).view.loc (c : Thread nD τ) ↦[(locHalfO c 3 false).view.set]{fullShare} X_arg6) ∗ ((locHalfL c 3 false).view.loc (c : Thread nD τ) ↦[(locHalfL c 3 false).view.set]{fullShare} X_arg7) ∗ (∃ f, ((dstO 0 false).view.loc (c : Thread nD τ) ↦[(dstO 0 false).view.set]{fullShare} f) ∗ ⌜f = rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k).1⌝) ∗ (∃ f, ((dstL 0 false).view.loc (c : Thread nD τ) ↦[(dstL 0 false).view.set]{fullShare} f) ∗ ⌜f = rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t4_loop`,
   fixing `X_· G_·` against the context; after the loop each written memref holds `writes G (pb …
   trips)`). -/
@[sl_loop] def loopInvS_k0_t4 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t4 (F := F) Unit ℕ Cert.KernelIdeal.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v2 v14 where
  inv := invS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t4_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part30`'s counted loop `k0_t5_loop` (`scf.for %arg30 =
   %c0_i32_663 to %736 step %c1_i32_665 : i32 {`), trip `k0_t5`, carrying `Unit`, region
   `Gen.k0_t5_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off42 k0_t5); arg8 at
   (k0_off44 k0_t5). It LOADS through arg9 at (k0_off42 k0_t5); arg7 at (k0_off43 d0 k0_t5); arg8 at
   (k0_off44 k0_t5); arg6 at (k0_off45 d0 k0_t5). GENERATED below: `Gen.loopInv_k0_t5`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t5 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) :=
  Idealize.ShloMosaic.LoopInv (M := MT nD τ sig Ix (Elt F) Name U Lvl) Idealize.ShloMosaic.frame (wpE defs₀ 𝒱 (c : Thread nD τ) bd) E
    k0_t5_loop.lb k0_t5_loop.ub k0_t5_loop.st k0_t5_ok () (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664)

/-! ### `k0_t5_loop`: the generated invariant (classifier: affine) -/

/-- One trip's resources: what the region reads (locO, locL) at its contents, what it writes (rsO,
   rsL) at any. -/
abbrev TripS_k0_t5 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 3 true).view.loc (c : Thread nD τ) ↦[(locHalfO c 3 true).view.set]{fullShare} X_arg6) ∗ ((locHalfL c 3 true).view.loc (c : Thread nD τ) ↦[(locHalfL c 3 true).view.set]{fullShare} X_arg7) ∗ ((dstO 0 true).view.loc (c : Thread nD τ) ↦[(dstO 0 true).view.set]{fullShare} f_arg8) ∗ ((dstL 0 true).view.loc (c : Thread nD τ) ↦[(dstL 0 true).view.set]{fullShare} f_arg9))

/-- ONE TRIP of `k0_t5_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (k : Fin k0_t5_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t5 (F := F) c X_arg6 X_arg7 f_arg8 f_arg9
      ⊢ wp frame (wpE (defs₀ (F := F)) 𝒱 (c : Thread nD τ) bd) E (k0_t5_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 k PUnit.unit)
          (fun _ => TripS_k0_t5 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t5_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off44 k) S1x1x128x256.size (k0_off44_inb k), (k0_pay78 (View.readAt (Elt F) rsO.view (Rect.unit (s := S3x8x128x256) (k0_off44 k) S1x1x128x256.size (k0_off44_inb k)).toLoadRect f_arg8) (View.readAt (Elt F) locO.view (Rect.unit (s := S32x128x256) (k0_off45 d0 k) S1x128x256.size (k0_off45_inb d0 k)).toLoadRect X_arg6))⟩], fun f_arg8 f_arg9 => [⟨Rect.unit (s := S3x8x1x256) (k0_off42 k) S1x1x1x256.size (k0_off42_inb k), (k0_pay77 (View.readAt (Elt F) rsL.view (Rect.unit (s := S3x8x1x256) (k0_off42 k) S1x1x1x256.size (k0_off42_inb k)).toLoadRect f_arg9) (View.readAt (Elt F) locL.view (Rect.unit (s := S32x1x256) (k0_off43 d0 k) S1x1x256.size (k0_off43_inb d0 k)).toLoadRect X_arg7))⟩], fun E f_arg8 f_arg9 => ?run⟩
  case run =>
    unfold k0_t5_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (k : Fin k0_t5_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k).1 f_arg8 f_arg9, (tripS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t5_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (k : Fin k0_t5_loop.trips) (f_arg8 : BufTy.Contents (Elt F) rsO.view.ty) (f_arg9 : BufTy.Contents (Elt F) rsL.view.ty) :
    tripLS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k f_arg8 f_arg9 = ([⟨Rect.unit (s := S3x8x128x256) (k0_off44 k) S1x1x128x256.size (k0_off44_inb k), (k0_pay78 (View.readAt (Elt F) rsO.view (Rect.unit (s := S3x8x128x256) (k0_off44 k) S1x1x128x256.size (k0_off44_inb k)).toLoadRect f_arg8) (View.readAt (Elt F) locO.view (Rect.unit (s := S32x128x256) (k0_off45 d0 k) S1x128x256.size (k0_off45_inb d0 k)).toLoadRect X_arg6))⟩], [⟨Rect.unit (s := S3x8x1x256) (k0_off42 k) S1x1x1x256.size (k0_off42_inb k), (k0_pay77 (View.readAt (Elt F) rsL.view (Rect.unit (s := S3x8x1x256) (k0_off42 k) S1x1x1x256.size (k0_off42_inb k)).toLoadRect f_arg9) (View.readAt (Elt F) locL.view (Rect.unit (s := S32x1x256) (k0_off43 d0 k) S1x1x256.size (k0_off43_inb d0 k)).toLoadRect X_arg7))⟩]) := by
  unfold tripLS_k0_t5 tripS_k0_t5
  rfl

/-- Trip `k`'s contribution to the state the recursion `pbS_k0_t5` below carries (`prev`): its pieces
   in front, per written memref; past the last trip, `prev` itself. -/
@[irreducible] def pbS_k0_t5Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t5_loop.trips then
    ((tripLS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t5Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k (pbS_k0_t5 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k)

theorem pbS_k0_t5_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t5_loop.trips) :
    pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 (k.val + 1)
      = ((tripLS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1) (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2)).1 ++ (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1, (tripLS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1) (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2)).2 ++ (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2) := by
  rw [pbS_k0_t5.eq_2]; unfold pbS_k0_t5Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 3 true).view.loc (c : Thread nD τ) ↦[(locHalfO c 3 true).view.set]{fullShare} X_arg6) ∗ ((locHalfL c 3 true).view.loc (c : Thread nD τ) ↦[(locHalfL c 3 true).view.set]{fullShare} X_arg7) ∗ (∃ f, ((dstO 0 true).view.loc (c : Thread nD τ) ↦[(dstO 0 true).view.set]{fullShare} f) ∗ ⌜f = rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k).1⌝) ∗ (∃ f, ((dstL 0 true).view.loc (c : Thread nD τ) ↦[(dstL 0 true).view.set]{fullShare} f) ∗ ⌜f = rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t5_loop`,
   fixing `X_· G_·` against the context; after the loop each written memref holds `writes G (pb …
   trips)`). -/
@[sl_loop] def loopInvS_k0_t5 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t5 (F := F) Unit ℕ Cert.KernelIdeal.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 where
  inv := invS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t5_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part38`'s counted loop `k0_t7_loop` (`scf.for %arg30 =
   %c0_i32_891 to %982 step %c1_i32_893 : i32 {`), trip `k0_t7`, carrying `Unit`, region
   `Gen.k0_t7_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off51 k0_t7); arg8 at
   (k0_off53 k0_t7). It LOADS through arg9 at (k0_off51 k0_t7); arg7 at (k0_off52 d0 k0_t7); arg8 at
   (k0_off53 k0_t7); arg6 at (k0_off54 d0 k0_t7). GENERATED below: `Gen.loopInv_k0_t7`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t7 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) :=
  Idealize.ShloMosaic.LoopInv (M := MT nD τ sig Ix (Elt F) Name U Lvl) Idealize.ShloMosaic.frame (wpE defs₀ 𝒱 (c : Thread nD τ) bd) E
    k0_t7_loop.lb k0_t7_loop.ub k0_t7_loop.st k0_t7_ok () (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970)

/-! ### `k0_t7_loop`: the generated invariant (classifier: affine) -/

/-- One trip's resources: what the region reads (locO, locL) at its contents, what it writes (rsO,
   rsL) at any. -/
abbrev TripS_k0_t7 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 2 false).view.loc (c : Thread nD τ) ↦[(locHalfO c 2 false).view.set]{fullShare} X_arg6) ∗ ((locHalfL c 2 false).view.loc (c : Thread nD τ) ↦[(locHalfL c 2 false).view.set]{fullShare} X_arg7) ∗ ((dstO 1 false).view.loc (c : Thread nD τ) ↦[(dstO 1 false).view.set]{fullShare} f_arg8) ∗ ((dstL 1 false).view.loc (c : Thread nD τ) ↦[(dstL 1 false).view.set]{fullShare} f_arg9))

/-- ONE TRIP of `k0_t7_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (k : Fin k0_t7_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t7 (F := F) c X_arg6 X_arg7 f_arg8 f_arg9
      ⊢ wp frame (wpE (defs₀ (F := F)) 𝒱 (c : Thread nD τ) bd) E (k0_t7_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v970 k PUnit.unit)
          (fun _ => TripS_k0_t7 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t7_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off53 k) S1x1x128x256.size (k0_off53_inb k), (k0_pay97 (View.readAt (Elt F) rsO.view (Rect.unit (s := S3x8x128x256) (k0_off53 k) S1x1x128x256.size (k0_off53_inb k)).toLoadRect f_arg8) (View.readAt (Elt F) locO.view (Rect.unit (s := S32x128x256) (k0_off54 d0 k) S1x128x256.size (k0_off54_inb d0 k)).toLoadRect X_arg6))⟩], fun f_arg8 f_arg9 => [⟨Rect.unit (s := S3x8x1x256) (k0_off51 k) S1x1x1x256.size (k0_off51_inb k), (k0_pay96 (View.readAt (Elt F) rsL.view (Rect.unit (s := S3x8x1x256) (k0_off51 k) S1x1x1x256.size (k0_off51_inb k)).toLoadRect f_arg9) (View.readAt (Elt F) locL.view (Rect.unit (s := S32x1x256) (k0_off52 d0 k) S1x1x256.size (k0_off52_inb d0 k)).toLoadRect X_arg7))⟩], fun E f_arg8 f_arg9 => ?run⟩
  case run =>
    unfold k0_t7_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (k : Fin k0_t7_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k).1 f_arg8 f_arg9, (tripS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t7_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (k : Fin k0_t7_loop.trips) (f_arg8 : BufTy.Contents (Elt F) rsO.view.ty) (f_arg9 : BufTy.Contents (Elt F) rsL.view.ty) :
    tripLS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k f_arg8 f_arg9 = ([⟨Rect.unit (s := S3x8x128x256) (k0_off53 k) S1x1x128x256.size (k0_off53_inb k), (k0_pay97 (View.readAt (Elt F) rsO.view (Rect.unit (s := S3x8x128x256) (k0_off53 k) S1x1x128x256.size (k0_off53_inb k)).toLoadRect f_arg8) (View.readAt (Elt F) locO.view (Rect.unit (s := S32x128x256) (k0_off54 d0 k) S1x128x256.size (k0_off54_inb d0 k)).toLoadRect X_arg6))⟩], [⟨Rect.unit (s := S3x8x1x256) (k0_off51 k) S1x1x1x256.size (k0_off51_inb k), (k0_pay96 (View.readAt (Elt F) rsL.view (Rect.unit (s := S3x8x1x256) (k0_off51 k) S1x1x1x256.size (k0_off51_inb k)).toLoadRect f_arg9) (View.readAt (Elt F) locL.view (Rect.unit (s := S32x1x256) (k0_off52 d0 k) S1x1x256.size (k0_off52_inb d0 k)).toLoadRect X_arg7))⟩]) := by
  unfold tripLS_k0_t7 tripS_k0_t7
  rfl

/-- Trip `k`'s contribution to the state the recursion `pbS_k0_t7` below carries (`prev`): its pieces
   in front, per written memref; past the last trip, `prev` itself. -/
@[irreducible] def pbS_k0_t7Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t7_loop.trips then
    ((tripLS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t7Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k (pbS_k0_t7 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k)

theorem pbS_k0_t7_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t7_loop.trips) :
    pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 (k.val + 1)
      = ((tripLS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1) (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2)).1 ++ (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1, (tripLS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1) (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2)).2 ++ (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2) := by
  rw [pbS_k0_t7.eq_2]; unfold pbS_k0_t7Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 2 false).view.loc (c : Thread nD τ) ↦[(locHalfO c 2 false).view.set]{fullShare} X_arg6) ∗ ((locHalfL c 2 false).view.loc (c : Thread nD τ) ↦[(locHalfL c 2 false).view.set]{fullShare} X_arg7) ∗ (∃ f, ((dstO 1 false).view.loc (c : Thread nD τ) ↦[(dstO 1 false).view.set]{fullShare} f) ∗ ⌜f = rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k).1⌝) ∗ (∃ f, ((dstL 1 false).view.loc (c : Thread nD τ) ↦[(dstL 1 false).view.set]{fullShare} f) ∗ ⌜f = rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t7_loop`,
   fixing `X_· G_·` against the context; after the loop each written memref holds `writes G (pb …
   trips)`). -/
@[sl_loop] def loopInvS_k0_t7 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t7 (F := F) Unit ℕ Cert.KernelIdeal.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v970 where
  inv := invS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t7_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part40`'s counted loop `k0_t8_loop` (`scf.for %arg30 =
   %c0_i32_949 to %1023 step %c1_i32_951 : i32 {`), trip `k0_t8`, carrying `Unit`, region
   `Gen.k0_t8_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off55 k0_t8); arg8 at
   (k0_off57 k0_t8). It LOADS through arg9 at (k0_off55 k0_t8); arg7 at (k0_off56 d0 k0_t8); arg8 at
   (k0_off57 k0_t8); arg6 at (k0_off58 d0 k0_t8). GENERATED below: `Gen.loopInv_k0_t8`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t8 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) :=
  Idealize.ShloMosaic.LoopInv (M := MT nD τ sig Ix (Elt F) Name U Lvl) Idealize.ShloMosaic.frame (wpE defs₀ 𝒱 (c : Thread nD τ) bd) E
    k0_t8_loop.lb k0_t8_loop.ub k0_t8_loop.st k0_t8_ok () (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020)

/-! ### `k0_t8_loop`: the generated invariant (classifier: affine) -/

/-- One trip's resources: what the region reads (locO, locL) at its contents, what it writes (rsO,
   rsL) at any. -/
abbrev TripS_k0_t8 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 0 true).view.loc (c : Thread nD τ) ↦[(locHalfO c 0 true).view.set]{fullShare} X_arg6) ∗ ((locHalfL c 0 true).view.loc (c : Thread nD τ) ↦[(locHalfL c 0 true).view.set]{fullShare} X_arg7) ∗ ((dstO 1 true).view.loc (c : Thread nD τ) ↦[(dstO 1 true).view.set]{fullShare} f_arg8) ∗ ((dstL 1 true).view.loc (c : Thread nD τ) ↦[(dstL 1 true).view.set]{fullShare} f_arg9))

/-- ONE TRIP of `k0_t8_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (k : Fin k0_t8_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t8 (F := F) c X_arg6 X_arg7 f_arg8 f_arg9
      ⊢ wp frame (wpE (defs₀ (F := F)) 𝒱 (c : Thread nD τ) bd) E (k0_t8_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 k PUnit.unit)
          (fun _ => TripS_k0_t8 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t8_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off57 k) S1x1x128x256.size (k0_off57_inb k), (k0_pay99 (View.readAt (Elt F) rsO.view (Rect.unit (s := S3x8x128x256) (k0_off57 k) S1x1x128x256.size (k0_off57_inb k)).toLoadRect f_arg8) (View.readAt (Elt F) locO.view (Rect.unit (s := S32x128x256) (k0_off58 d0 k) S1x128x256.size (k0_off58_inb d0 k)).toLoadRect X_arg6))⟩], fun f_arg8 f_arg9 => [⟨Rect.unit (s := S3x8x1x256) (k0_off55 k) S1x1x1x256.size (k0_off55_inb k), (k0_pay98 (View.readAt (Elt F) rsL.view (Rect.unit (s := S3x8x1x256) (k0_off55 k) S1x1x1x256.size (k0_off55_inb k)).toLoadRect f_arg9) (View.readAt (Elt F) locL.view (Rect.unit (s := S32x1x256) (k0_off56 d0 k) S1x1x256.size (k0_off56_inb d0 k)).toLoadRect X_arg7))⟩], fun E f_arg8 f_arg9 => ?run⟩
  case run =>
    unfold k0_t8_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (k : Fin k0_t8_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k).1 f_arg8 f_arg9, (tripS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t8_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (k : Fin k0_t8_loop.trips) (f_arg8 : BufTy.Contents (Elt F) rsO.view.ty) (f_arg9 : BufTy.Contents (Elt F) rsL.view.ty) :
    tripLS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k f_arg8 f_arg9 = ([⟨Rect.unit (s := S3x8x128x256) (k0_off57 k) S1x1x128x256.size (k0_off57_inb k), (k0_pay99 (View.readAt (Elt F) rsO.view (Rect.unit (s := S3x8x128x256) (k0_off57 k) S1x1x128x256.size (k0_off57_inb k)).toLoadRect f_arg8) (View.readAt (Elt F) locO.view (Rect.unit (s := S32x128x256) (k0_off58 d0 k) S1x128x256.size (k0_off58_inb d0 k)).toLoadRect X_arg6))⟩], [⟨Rect.unit (s := S3x8x1x256) (k0_off55 k) S1x1x1x256.size (k0_off55_inb k), (k0_pay98 (View.readAt (Elt F) rsL.view (Rect.unit (s := S3x8x1x256) (k0_off55 k) S1x1x1x256.size (k0_off55_inb k)).toLoadRect f_arg9) (View.readAt (Elt F) locL.view (Rect.unit (s := S32x1x256) (k0_off56 d0 k) S1x1x256.size (k0_off56_inb d0 k)).toLoadRect X_arg7))⟩]) := by
  unfold tripLS_k0_t8 tripS_k0_t8
  rfl

/-- Trip `k`'s contribution to the state the recursion `pbS_k0_t8` below carries (`prev`): its pieces
   in front, per written memref; past the last trip, `prev` itself. -/
@[irreducible] def pbS_k0_t8Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t8_loop.trips then
    ((tripLS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t8Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k (pbS_k0_t8 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k)

theorem pbS_k0_t8_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t8_loop.trips) :
    pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 (k.val + 1)
      = ((tripLS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1) (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2)).1 ++ (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1, (tripLS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1) (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2)).2 ++ (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2) := by
  rw [pbS_k0_t8.eq_2]; unfold pbS_k0_t8Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 0 true).view.loc (c : Thread nD τ) ↦[(locHalfO c 0 true).view.set]{fullShare} X_arg6) ∗ ((locHalfL c 0 true).view.loc (c : Thread nD τ) ↦[(locHalfL c 0 true).view.set]{fullShare} X_arg7) ∗ (∃ f, ((dstO 1 true).view.loc (c : Thread nD τ) ↦[(dstO 1 true).view.set]{fullShare} f) ∗ ⌜f = rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k).1⌝) ∗ (∃ f, ((dstL 1 true).view.loc (c : Thread nD τ) ↦[(dstL 1 true).view.set]{fullShare} f) ∗ ⌜f = rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t8_loop`,
   fixing `X_· G_·` against the context; after the loop each written memref holds `writes G (pb …
   trips)`). -/
@[sl_loop] def loopInvS_k0_t8 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t8 (F := F) Unit ℕ Cert.KernelIdeal.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 where
  inv := invS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t8_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part43`'s counted loop `k0_t9_loop` (`scf.for %arg30 =
   %c0_i32_1056 to %1105 step %c1_i32_1058 : i32 {`), trip `k0_t9`, carrying `Unit`, region
   `Gen.k0_t9_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off59 k0_t9); arg8 at
   (k0_off61 k0_t9). It LOADS through arg9 at (k0_off59 k0_t9); arg7 at (k0_off60 d0 k0_t9); arg8 at
   (k0_off61 k0_t9); arg6 at (k0_off62 d0 k0_t9). GENERATED below: `Gen.loopInv_k0_t9`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t9 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) :=
  Idealize.ShloMosaic.LoopInv (M := MT nD τ sig Ix (Elt F) Name U Lvl) Idealize.ShloMosaic.frame (wpE defs₀ 𝒱 (c : Thread nD τ) bd) E
    k0_t9_loop.lb k0_t9_loop.ub k0_t9_loop.st k0_t9_ok () (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092)

/-! ### `k0_t9_loop`: the generated invariant (classifier: affine) -/

/-- One trip's resources: what the region reads (locO, locL) at its contents, what it writes (rsO,
   rsL) at any. -/
abbrev TripS_k0_t9 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 1 false).view.loc (c : Thread nD τ) ↦[(locHalfO c 1 false).view.set]{fullShare} X_arg6) ∗ ((locHalfL c 1 false).view.loc (c : Thread nD τ) ↦[(locHalfL c 1 false).view.set]{fullShare} X_arg7) ∗ ((dstO 2 false).view.loc (c : Thread nD τ) ↦[(dstO 2 false).view.set]{fullShare} f_arg8) ∗ ((dstL 2 false).view.loc (c : Thread nD τ) ↦[(dstL 2 false).view.set]{fullShare} f_arg9))

/-- ONE TRIP of `k0_t9_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (k : Fin k0_t9_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t9 (F := F) c X_arg6 X_arg7 f_arg8 f_arg9
      ⊢ wp frame (wpE (defs₀ (F := F)) 𝒱 (c : Thread nD τ) bd) E (k0_t9_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v1092 k PUnit.unit)
          (fun _ => TripS_k0_t9 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t9_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off61 k) S1x1x128x256.size (k0_off61_inb k), (k0_pay101 (View.readAt (Elt F) rsO.view (Rect.unit (s := S3x8x128x256) (k0_off61 k) S1x1x128x256.size (k0_off61_inb k)).toLoadRect f_arg8) (View.readAt (Elt F) locO.view (Rect.unit (s := S32x128x256) (k0_off62 d0 k) S1x128x256.size (k0_off62_inb d0 k)).toLoadRect X_arg6))⟩], fun f_arg8 f_arg9 => [⟨Rect.unit (s := S3x8x1x256) (k0_off59 k) S1x1x1x256.size (k0_off59_inb k), (k0_pay100 (View.readAt (Elt F) rsL.view (Rect.unit (s := S3x8x1x256) (k0_off59 k) S1x1x1x256.size (k0_off59_inb k)).toLoadRect f_arg9) (View.readAt (Elt F) locL.view (Rect.unit (s := S32x1x256) (k0_off60 d0 k) S1x1x256.size (k0_off60_inb d0 k)).toLoadRect X_arg7))⟩], fun E f_arg8 f_arg9 => ?run⟩
  case run =>
    unfold k0_t9_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (k : Fin k0_t9_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k).1 f_arg8 f_arg9, (tripS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t9_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (k : Fin k0_t9_loop.trips) (f_arg8 : BufTy.Contents (Elt F) rsO.view.ty) (f_arg9 : BufTy.Contents (Elt F) rsL.view.ty) :
    tripLS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k f_arg8 f_arg9 = ([⟨Rect.unit (s := S3x8x128x256) (k0_off61 k) S1x1x128x256.size (k0_off61_inb k), (k0_pay101 (View.readAt (Elt F) rsO.view (Rect.unit (s := S3x8x128x256) (k0_off61 k) S1x1x128x256.size (k0_off61_inb k)).toLoadRect f_arg8) (View.readAt (Elt F) locO.view (Rect.unit (s := S32x128x256) (k0_off62 d0 k) S1x128x256.size (k0_off62_inb d0 k)).toLoadRect X_arg6))⟩], [⟨Rect.unit (s := S3x8x1x256) (k0_off59 k) S1x1x1x256.size (k0_off59_inb k), (k0_pay100 (View.readAt (Elt F) rsL.view (Rect.unit (s := S3x8x1x256) (k0_off59 k) S1x1x1x256.size (k0_off59_inb k)).toLoadRect f_arg9) (View.readAt (Elt F) locL.view (Rect.unit (s := S32x1x256) (k0_off60 d0 k) S1x1x256.size (k0_off60_inb d0 k)).toLoadRect X_arg7))⟩]) := by
  unfold tripLS_k0_t9 tripS_k0_t9
  rfl

/-- Trip `k`'s contribution to the state the recursion `pbS_k0_t9` below carries (`prev`): its pieces
   in front, per written memref; past the last trip, `prev` itself. -/
@[irreducible] def pbS_k0_t9Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t9_loop.trips then
    ((tripLS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t9Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k (pbS_k0_t9 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k)

theorem pbS_k0_t9_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t9_loop.trips) :
    pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 (k.val + 1)
      = ((tripLS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1) (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2)).1 ++ (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1, (tripLS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1) (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2)).2 ++ (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2) := by
  rw [pbS_k0_t9.eq_2]; unfold pbS_k0_t9Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 1 false).view.loc (c : Thread nD τ) ↦[(locHalfO c 1 false).view.set]{fullShare} X_arg6) ∗ ((locHalfL c 1 false).view.loc (c : Thread nD τ) ↦[(locHalfL c 1 false).view.set]{fullShare} X_arg7) ∗ (∃ f, ((dstO 2 false).view.loc (c : Thread nD τ) ↦[(dstO 2 false).view.set]{fullShare} f) ∗ ⌜f = rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k).1⌝) ∗ (∃ f, ((dstL 2 false).view.loc (c : Thread nD τ) ↦[(dstL 2 false).view.set]{fullShare} f) ∗ ⌜f = rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t9_loop`,
   fixing `X_· G_·` against the context; after the loop each written memref holds `writes G (pb …
   trips)`). -/
@[sl_loop] def loopInvS_k0_t9 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t9 (F := F) Unit ℕ Cert.KernelIdeal.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v1092 where
  inv := invS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t9_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part45`'s counted loop `k0_t10_loop` (`scf.for %arg30 =
   %c0_i32_1114 to %1146 step %c1_i32_1116 : i32 {`), trip `k0_t10`, carrying `Unit`, region
   `Gen.k0_t10_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off63 k0_t10); arg8 at
   (k0_off65 k0_t10). It LOADS through arg9 at (k0_off63 k0_t10); arg7 at (k0_off64 d0 k0_t10); arg8
   at (k0_off65 k0_t10); arg6 at (k0_off66 d0 k0_t10). GENERATED below: `Gen.loopInv_k0_t10`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t10 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) :=
  Idealize.ShloMosaic.LoopInv (M := MT nD τ sig Ix (Elt F) Name U Lvl) Idealize.ShloMosaic.frame (wpE defs₀ 𝒱 (c : Thread nD τ) bd) E
    k0_t10_loop.lb k0_t10_loop.ub k0_t10_loop.st k0_t10_ok () (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141)

/-! ### `k0_t10_loop`: the generated invariant (classifier: affine) -/

/-- One trip's resources: what the region reads (locO, locL) at its contents, what it writes (rsO,
   rsL) at any. -/
abbrev TripS_k0_t10 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 1 true).view.loc (c : Thread nD τ) ↦[(locHalfO c 1 true).view.set]{fullShare} X_arg6) ∗ ((locHalfL c 1 true).view.loc (c : Thread nD τ) ↦[(locHalfL c 1 true).view.set]{fullShare} X_arg7) ∗ ((dstO 2 true).view.loc (c : Thread nD τ) ↦[(dstO 2 true).view.set]{fullShare} f_arg8) ∗ ((dstL 2 true).view.loc (c : Thread nD τ) ↦[(dstL 2 true).view.set]{fullShare} f_arg9))

/-- ONE TRIP of `k0_t10_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (k : Fin k0_t10_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t10 (F := F) c X_arg6 X_arg7 f_arg8 f_arg9
      ⊢ wp frame (wpE (defs₀ (F := F)) 𝒱 (c : Thread nD τ) bd) E (k0_t10_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 k PUnit.unit)
          (fun _ => TripS_k0_t10 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t10_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off65 k) S1x1x128x256.size (k0_off65_inb k), (k0_pay103 (View.readAt (Elt F) rsO.view (Rect.unit (s := S3x8x128x256) (k0_off65 k) S1x1x128x256.size (k0_off65_inb k)).toLoadRect f_arg8) (View.readAt (Elt F) locO.view (Rect.unit (s := S32x128x256) (k0_off66 d0 k) S1x128x256.size (k0_off66_inb d0 k)).toLoadRect X_arg6))⟩], fun f_arg8 f_arg9 => [⟨Rect.unit (s := S3x8x1x256) (k0_off63 k) S1x1x1x256.size (k0_off63_inb k), (k0_pay102 (View.readAt (Elt F) rsL.view (Rect.unit (s := S3x8x1x256) (k0_off63 k) S1x1x1x256.size (k0_off63_inb k)).toLoadRect f_arg9) (View.readAt (Elt F) locL.view (Rect.unit (s := S32x1x256) (k0_off64 d0 k) S1x1x256.size (k0_off64_inb d0 k)).toLoadRect X_arg7))⟩], fun E f_arg8 f_arg9 => ?run⟩
  case run =>
    unfold k0_t10_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (k : Fin k0_t10_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k).1 f_arg8 f_arg9, (tripS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t10_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (k : Fin k0_t10_loop.trips) (f_arg8 : BufTy.Contents (Elt F) rsO.view.ty) (f_arg9 : BufTy.Contents (Elt F) rsL.view.ty) :
    tripLS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k f_arg8 f_arg9 = ([⟨Rect.unit (s := S3x8x128x256) (k0_off65 k) S1x1x128x256.size (k0_off65_inb k), (k0_pay103 (View.readAt (Elt F) rsO.view (Rect.unit (s := S3x8x128x256) (k0_off65 k) S1x1x128x256.size (k0_off65_inb k)).toLoadRect f_arg8) (View.readAt (Elt F) locO.view (Rect.unit (s := S32x128x256) (k0_off66 d0 k) S1x128x256.size (k0_off66_inb d0 k)).toLoadRect X_arg6))⟩], [⟨Rect.unit (s := S3x8x1x256) (k0_off63 k) S1x1x1x256.size (k0_off63_inb k), (k0_pay102 (View.readAt (Elt F) rsL.view (Rect.unit (s := S3x8x1x256) (k0_off63 k) S1x1x1x256.size (k0_off63_inb k)).toLoadRect f_arg9) (View.readAt (Elt F) locL.view (Rect.unit (s := S32x1x256) (k0_off64 d0 k) S1x1x256.size (k0_off64_inb d0 k)).toLoadRect X_arg7))⟩]) := by
  unfold tripLS_k0_t10 tripS_k0_t10
  rfl

/-- Trip `k`'s contribution to the state the recursion `pbS_k0_t10` below carries (`prev`): its
   pieces in front, per written memref; past the last trip, `prev` itself. -/
@[irreducible] def pbS_k0_t10Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t10_loop.trips then
    ((tripLS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t10Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k (pbS_k0_t10 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k)

theorem pbS_k0_t10_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t10_loop.trips) :
    pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 (k.val + 1)
      = ((tripLS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1) (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2)).1 ++ (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1, (tripLS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1) (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2)).2 ++ (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2) := by
  rw [pbS_k0_t10.eq_2]; unfold pbS_k0_t10Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 1 true).view.loc (c : Thread nD τ) ↦[(locHalfO c 1 true).view.set]{fullShare} X_arg6) ∗ ((locHalfL c 1 true).view.loc (c : Thread nD τ) ↦[(locHalfL c 1 true).view.set]{fullShare} X_arg7) ∗ (∃ f, ((dstO 2 true).view.loc (c : Thread nD τ) ↦[(dstO 2 true).view.set]{fullShare} f) ∗ ⌜f = rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k).1⌝) ∗ (∃ f, ((dstL 2 true).view.loc (c : Thread nD τ) ↦[(dstL 2 true).view.set]{fullShare} f) ∗ ⌜f = rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t10_loop`,
   fixing `X_· G_·` against the context; after the loop each written memref holds `writes G (pb …
   trips)`). -/
@[sl_loop] def loopInvS_k0_t10 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t10 (F := F) Unit ℕ Cert.KernelIdeal.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 where
  inv := invS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t10_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

end Cert.KernelIdeal.LoopsV

end
-- ==== Proof.LoopsVFacts.lean ====
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Split
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.Ring

/-
  Where each loop's rows lie.

  A flash loop of batch b writes, at trip k, row 8 b + k of the partial numerators and of the partial denominators: a row
  of block b. A merge loop of hop h and direction l reads, at trip k, one row of a half block of them, and reads and writes
  row k (or k + 4) of stage h of the landing slices. Each fact below says that the rectangle a trip goes through lies in
  the slice the device holds then.
-/

noncomputable section

namespace Cert.KernelIdeal.LoopsV
open Cert.KernelIdeal Cert.KernelIdeal.Gen Cert.KernelIdeal.Ring Cert.KernelIdeal.Proto

open Idealize.ShloMosaic Idealize.ShloMosaic.TcCoe
open Idealize.SL.Sem

/-! ## One row within a set of rows -/

/-- A one-row rectangle of the partial numerators lies in any set holding that whole row. -/
theorem rowO_within {S : Finset S32x128x256.Idx} (off : Fin 3 → ℕ) (inb : ∀ a, off a + S1x128x256.size a ≤ S32x128x256.size a)
    (row : ℕ) (hoff : off = ![row, 0, 0]) (hS : ∀ i : S32x128x256.Idx, (i 0 : ℕ) = row → i ∈ S) :
    (locO.access (Rect.unit (s := S32x128x256) off S1x128x256.size inb)).set ⊆ S := by
  show ((View.whole cc0_scratch0).slice _).set ⊆ _
  rw [View.set_slice_whole]
  intro i hi
  have e0 := (Rect.mem_set_unit.mp hi) 0
  subst hoff
  change (row ≤ (i 0 : ℕ) ∧ (i 0 : ℕ) < row + 1) at e0
  exact hS i (by omega)

/-- The same for the partial denominators. -/
theorem rowL_within {S : Finset S32x1x256.Idx} (off : Fin 3 → ℕ) (inb : ∀ a, off a + S1x1x256.size a ≤ S32x1x256.size a)
    (row : ℕ) (hoff : off = ![row, 0, 0]) (hS : ∀ i : S32x1x256.Idx, (i 0 : ℕ) = row → i ∈ S) :
    (locL.access (Rect.unit (s := S32x1x256) off S1x1x256.size inb)).set ⊆ S := by
  show ((View.whole cc0_scratch1).slice _).set ⊆ _
  rw [View.set_slice_whole]
  intro i hi
  have e0 := (Rect.mem_set_unit.mp hi) 0
  subst hoff
  change (row ≤ (i 0 : ℕ) ∧ (i 0 : ℕ) < row + 1) at e0
  exact hS i (by omega)

/-- One head of one stage of the numerators' landing slices lies in any set holding that head of that stage. -/
theorem rowRO_within {S : Finset S3x8x128x256.Idx} (off : Fin 4 → ℕ) (inb : ∀ a, off a + S1x1x128x256.size a ≤ S3x8x128x256.size a)
    (a b : ℕ) (hoff : off = ![a, b, 0, 0]) (hS : ∀ i : S3x8x128x256.Idx, (i 0 : ℕ) = a → (i 1 : ℕ) = b → i ∈ S) :
    (rsO.access (Rect.unit (s := S3x8x128x256) off S1x1x128x256.size inb)).set ⊆ S := by
  show ((View.whole cc0_scratch2).slice _).set ⊆ _
  rw [View.set_slice_whole]
  intro i hi
  have e0 := (Rect.mem_set_unit.mp hi) 0
  have e1 := (Rect.mem_set_unit.mp hi) 1
  subst hoff
  change (a ≤ (i 0 : ℕ) ∧ (i 0 : ℕ) < a + 1) at e0
  change (b ≤ (i 1 : ℕ) ∧ (i 1 : ℕ) < b + 1) at e1
  exact hS i (by omega) (by omega)

/-- The same for the denominators' landing slices. -/
theorem rowRL_within {S : Finset S3x8x1x256.Idx} (off : Fin 4 → ℕ) (inb : ∀ a, off a + S1x1x1x256.size a ≤ S3x8x1x256.size a)
    (a b : ℕ) (hoff : off = ![a, b, 0, 0]) (hS : ∀ i : S3x8x1x256.Idx, (i 0 : ℕ) = a → (i 1 : ℕ) = b → i ∈ S) :
    (rsL.access (Rect.unit (s := S3x8x1x256) off S1x1x1x256.size inb)).set ⊆ S := by
  show ((View.whole cc0_scratch3).slice _).set ⊆ _
  rw [View.set_slice_whole]
  intro i hi
  have e0 := (Rect.mem_set_unit.mp hi) 0
  have e1 := (Rect.mem_set_unit.mp hi) 1
  subst hoff
  change (a ≤ (i 0 : ℕ) ∧ (i 0 : ℕ) < a + 1) at e0
  change (b ≤ (i 1 : ℕ) ∧ (i 1 : ℕ) < b + 1) at e1
  exact hS i (by omega) (by omega)

/-! ## The flash loops: trip k's row of batch b lies in block b -/

theorem t1_arg6_within (c : Dev nD) : ∀ k : Fin k0_t1_loop.trips, (locO.access (Rect.unit (s := S32x128x256) (k0_off13 c k) S1x128x256.size (k0_off13_inb c k))).set ⊆ (locBlkO c 0).view.set := fun k => by
  have hk : k.val < 8 := Nat.lt_of_lt_of_le k.isLt k0_t1_abs.2.1
  rw [locBlkO_set]
  refine rowO_within _ _ _ (k0_off13_eq c k) fun i hi => (mem_blkO _ _ i).mpr ?_
  have hb : blkRow c 0 = 8 * ((c.val + 0) % 4) := rfl
  have hc : c.val < 4 := c.isLt
  omega
theorem t1_arg7_within (c : Dev nD) : ∀ k : Fin k0_t1_loop.trips, (locL.access (Rect.unit (s := S32x1x256) (k0_off14 c k) S1x1x256.size (k0_off14_inb c k))).set ⊆ (locBlkL c 0).view.set := fun k => by
  have hk : k.val < 8 := Nat.lt_of_lt_of_le k.isLt k0_t1_abs.2.1
  rw [locBlkL_set]
  refine rowL_within _ _ _ (k0_off14_eq c k) fun i hi => (mem_blkL _ _ i).mpr ?_
  have hb : blkRow c 0 = 8 * ((c.val + 0) % 4) := rfl
  have hc : c.val < 4 := c.isLt
  omega

theorem t2_arg6_within (c : Dev nD) : ∀ k : Fin k0_t2_loop.trips, (locO.access (Rect.unit (s := S32x128x256) (k0_off29 c k) S1x128x256.size (k0_off29_inb c k))).set ⊆ (locBlkO c 2).view.set := fun k => by
  have hk : k.val < 8 := Nat.lt_of_lt_of_le k.isLt k0_t2_abs.2.1
  rw [locBlkO_set]
  refine rowO_within _ _ _ (off29_eq c k) fun i hi => (mem_blkO _ _ i).mpr ?_
  have hb : blkRow c 2 = 8 * ((c.val + 2) % 4) := rfl
  have hc : c.val < 4 := c.isLt
  omega
theorem t2_arg7_within (c : Dev nD) : ∀ k : Fin k0_t2_loop.trips, (locL.access (Rect.unit (s := S32x1x256) (k0_off30 c k) S1x1x256.size (k0_off30_inb c k))).set ⊆ (locBlkL c 2).view.set := fun k => by
  have hk : k.val < 8 := Nat.lt_of_lt_of_le k.isLt k0_t2_abs.2.1
  rw [locBlkL_set]
  refine rowL_within _ _ _ (off30_eq c k) fun i hi => (mem_blkL _ _ i).mpr ?_
  have hb : blkRow c 2 = 8 * ((c.val + 2) % 4) := rfl
  have hc : c.val < 4 := c.isLt
  omega

theorem t3_arg6_within (c : Dev nD) : ∀ k : Fin k0_t3_loop.trips, (locO.access (Rect.unit (s := S32x128x256) (k0_off36 c k) S1x128x256.size (k0_off36_inb c k))).set ⊆ (locBlkO c 3).view.set := fun k => by
  have hk : k.val < 8 := Nat.lt_of_lt_of_le k.isLt k0_t3_abs.2.1
  rw [locBlkO_set]
  refine rowO_within _ _ _ (off36_eq c k) fun i hi => (mem_blkO _ _ i).mpr ?_
  have hb : blkRow c 3 = 8 * ((c.val + 3) % 4) := rfl
  have hc : c.val < 4 := c.isLt
  omega
theorem t3_arg7_within (c : Dev nD) : ∀ k : Fin k0_t3_loop.trips, (locL.access (Rect.unit (s := S32x1x256) (k0_off37 c k) S1x1x256.size (k0_off37_inb c k))).set ⊆ (locBlkL c 3).view.set := fun k => by
  have hk : k.val < 8 := Nat.lt_of_lt_of_le k.isLt k0_t3_abs.2.1
  rw [locBlkL_set]
  refine rowL_within _ _ _ (off37_eq c k) fun i hi => (mem_blkL _ _ i).mpr ?_
  have hb : blkRow c 3 = 8 * ((c.val + 3) % 4) := rfl
  have hc : c.val < 4 := c.isLt
  omega

theorem t6_arg6_within (c : Dev nD) : ∀ k : Fin k0_t6_loop.trips, (locO.access (Rect.unit (s := S32x128x256) (k0_off49 c k) S1x128x256.size (k0_off49_inb c k))).set ⊆ (locBlkO c 1).view.set := fun k => by
  have hk : k.val < 8 := Nat.lt_of_lt_of_le k.isLt k0_t6_abs.2.1
  rw [locBlkO_set]
  refine rowO_within _ _ _ (off49_eq c k) fun i hi => (mem_blkO _ _ i).mpr ?_
  have hb : blkRow c 1 = 8 * ((c.val + 1) % 4) := rfl
  have hc : c.val < 4 := c.isLt
  omega
theorem t6_arg7_within (c : Dev nD) : ∀ k : Fin k0_t6_loop.trips, (locL.access (Rect.unit (s := S32x1x256) (k0_off50 c k) S1x1x256.size (k0_off50_inb c k))).set ⊆ (locBlkL c 1).view.set := fun k => by
  have hk : k.val < 8 := Nat.lt_of_lt_of_le k.isLt k0_t6_abs.2.1
  rw [locBlkL_set]
  refine rowL_within _ _ _ (off50_eq c k) fun i hi => (mem_blkL _ _ i).mpr ?_
  have hb : blkRow c 1 = 8 * ((c.val + 1) % 4) := rfl
  have hc : c.val < 4 := c.isLt
  omega

/-! ## The merge loops: trip k's row of the half block it reads, and its head of the landing slice it merges into -/

theorem t4_arg6_within (c : Dev nD) : ∀ k : Fin k0_t4_loop.trips, (locO.access (Rect.unit (s := S32x128x256) (k0_off41 c k) S1x128x256.size (k0_off41_inb c k))).set ⊆ (locHalfO c 3 false).view.set := fun k => by
  have hk : k.val < 4 := Nat.lt_of_lt_of_le k.isLt k0_t4_abs.2.1
  rw [locHalfO_set]
  refine rowO_within _ _ _ (off41_eq c k) fun i hi => (mem_halfO _ _ i).mpr ?_
  have hb : halfRow c 3 false = 8 * ((c.val + 3) % 4) + 0 := rfl
  have hc : c.val < 4 := c.isLt
  omega
theorem t4_arg7_within (c : Dev nD) : ∀ k : Fin k0_t4_loop.trips, (locL.access (Rect.unit (s := S32x1x256) (k0_off39 c k) S1x1x256.size (k0_off39_inb c k))).set ⊆ (locHalfL c 3 false).view.set := fun k => by
  have hk : k.val < 4 := Nat.lt_of_lt_of_le k.isLt k0_t4_abs.2.1
  rw [locHalfL_set]
  refine rowL_within _ _ _ (off39_eq c k) fun i hi => (mem_halfL _ _ i).mpr ?_
  have hb : halfRow c 3 false = 8 * ((c.val + 3) % 4) + 0 := rfl
  have hc : c.val < 4 := c.isLt
  omega
theorem t4_arg8_within : ∀ k : Fin k0_t4_loop.trips, (rsO.access (Rect.unit (s := S3x8x128x256) (k0_off40 k) S1x1x128x256.size (k0_off40_inb k))).set ⊆ (dstO 0 false).view.set := fun k => by
  have hk : k.val < 4 := Nat.lt_of_lt_of_le k.isLt k0_t4_abs.2.1
  rw [dstO_set_0f]
  refine rowRO_within _ _ _ _ (k0_off40_eq k) fun i h0 h1 => (mem_rO _ _ _ i).mpr ?_
  omega
theorem t4_arg9_within : ∀ k : Fin k0_t4_loop.trips, (rsL.access (Rect.unit (s := S3x8x1x256) (k0_off38 k) S1x1x1x256.size (k0_off38_inb k))).set ⊆ (dstL 0 false).view.set := fun k => by
  have hk : k.val < 4 := Nat.lt_of_lt_of_le k.isLt k0_t4_abs.2.1
  rw [dstL_set_0f]
  refine rowRL_within _ _ _ _ (k0_off38_eq k) fun i h0 h1 => (mem_rL _ _ _ i).mpr ?_
  omega

theorem t5_arg6_within (c : Dev nD) : ∀ k : Fin k0_t5_loop.trips, (locO.access (Rect.unit (s := S32x128x256) (k0_off45 c k) S1x128x256.size (k0_off45_inb c k))).set ⊆ (locHalfO c 3 true).view.set := fun k => by
  have hk : k.val < 4 := Nat.lt_of_lt_of_le k.isLt k0_t5_abs.2.1
  rw [locHalfO_set]
  refine rowO_within _ _ _ (off45_eq c k) fun i hi => (mem_halfO _ _ i).mpr ?_
  have hb : halfRow c 3 true = 8 * ((c.val + 3) % 4) + 4 := rfl
  have hc : c.val < 4 := c.isLt
  omega
theorem t5_arg7_within (c : Dev nD) : ∀ k : Fin k0_t5_loop.trips, (locL.access (Rect.unit (s := S32x1x256) (k0_off43 c k) S1x1x256.size (k0_off43_inb c k))).set ⊆ (locHalfL c 3 true).view.set := fun k => by
  have hk : k.val < 4 := Nat.lt_of_lt_of_le k.isLt k0_t5_abs.2.1
  rw [locHalfL_set]
  refine rowL_within _ _ _ (off43_eq c k) fun i hi => (mem_halfL _ _ i).mpr ?_
  have hb : halfRow c 3 true = 8 * ((c.val + 3) % 4) + 4 := rfl
  have hc : c.val < 4 := c.isLt
  omega
theorem t5_arg8_within : ∀ k : Fin k0_t5_loop.trips, (rsO.access (Rect.unit (s := S3x8x128x256) (k0_off44 k) S1x1x128x256.size (k0_off44_inb k))).set ⊆ (dstO 0 true).view.set := fun k => by
  have hk : k.val < 4 := Nat.lt_of_lt_of_le k.isLt k0_t5_abs.2.1
  rw [dstO_set_0t]
  refine rowRO_within _ _ _ _ (k0_off44_eq k) fun i h0 h1 => (mem_rO _ _ _ i).mpr ?_
  omega
theorem t5_arg9_within : ∀ k : Fin k0_t5_loop.trips, (rsL.access (Rect.unit (s := S3x8x1x256) (k0_off42 k) S1x1x1x256.size (k0_off42_inb k))).set ⊆ (dstL 0 true).view.set := fun k => by
  have hk : k.val < 4 := Nat.lt_of_lt_of_le k.isLt k0_t5_abs.2.1
  rw [dstL_set_0t]
  refine rowRL_within _ _ _ _ (k0_off42_eq k) fun i h0 h1 => (mem_rL _ _ _ i).mpr ?_
  omega

theorem t7_arg6_within (c : Dev nD) : ∀ k : Fin k0_t7_loop.trips, (locO.access (Rect.unit (s := S32x128x256) (k0_off54 c k) S1x128x256.size (k0_off54_inb c k))).set ⊆ (locHalfO c 2 false).view.set := fun k => by
  have hk : k.val < 4 := Nat.lt_of_lt_of_le k.isLt k0_t7_abs.2.1
  rw [locHalfO_set]
  refine rowO_within _ _ _ (off54_eq c k) fun i hi => (mem_halfO _ _ i).mpr ?_
  have hb : halfRow c 2 false = 8 * ((c.val + 2) % 4) + 0 := rfl
  have hc : c.val < 4 := c.isLt
  omega
theorem t7_arg7_within (c : Dev nD) : ∀ k : Fin k0_t7_loop.trips, (locL.access (Rect.unit (s := S32x1x256) (k0_off52 c k) S1x1x256.size (k0_off52_inb c k))).set ⊆ (locHalfL c 2 false).view.set := fun k => by
  have hk : k.val < 4 := Nat.lt_of_lt_of_le k.isLt k0_t7_abs.2.1
  rw [locHalfL_set]
  refine rowL_within _ _ _ (off52_eq c k) fun i hi => (mem_halfL _ _ i).mpr ?_
  have hb : halfRow c 2 false = 8 * ((c.val + 2) % 4) + 0 := rfl
  have hc : c.val < 4 := c.isLt
  omega
theorem t7_arg8_within : ∀ k : Fin k0_t7_loop.trips, (rsO.access (Rect.unit (s := S3x8x128x256) (k0_off53 k) S1x1x128x256.size (k0_off53_inb k))).set ⊆ (dstO 1 false).view.set := fun k => by
  have hk : k.val < 4 := Nat.lt_of_lt_of_le k.isLt k0_t7_abs.2.1
  rw [dstO_set_1f]
  refine rowRO_within _ _ _ _ (k0_off53_eq k) fun i h0 h1 => (mem_rO _ _ _ i).mpr ?_
  omega
theorem t7_arg9_within : ∀ k : Fin k0_t7_loop.trips, (rsL.access (Rect.unit (s := S3x8x1x256) (k0_off51 k) S1x1x1x256.size (k0_off51_inb k))).set ⊆ (dstL 1 false).view.set := fun k => by
  have hk : k.val < 4 := Nat.lt_of_lt_of_le k.isLt k0_t7_abs.2.1
  rw [dstL_set_1f]
  refine rowRL_within _ _ _ _ (k0_off51_eq k) fun i h0 h1 => (mem_rL _ _ _ i).mpr ?_
  omega

theorem t8_arg6_within (c : Dev nD) : ∀ k : Fin k0_t8_loop.trips, (locO.access (Rect.unit (s := S32x128x256) (k0_off58 c k) S1x128x256.size (k0_off58_inb c k))).set ⊆ (locHalfO c 0 true).view.set := fun k => by
  have hk : k.val < 4 := Nat.lt_of_lt_of_le k.isLt k0_t8_abs.2.1
  rw [locHalfO_set]
  refine rowO_within _ _ _ (off58_eq c k) fun i hi => (mem_halfO _ _ i).mpr ?_
  have hb : halfRow c 0 true = 8 * ((c.val + 0) % 4) + 4 := rfl
  have hc : c.val < 4 := c.isLt
  omega
theorem t8_arg7_within (c : Dev nD) : ∀ k : Fin k0_t8_loop.trips, (locL.access (Rect.unit (s := S32x1x256) (k0_off56 c k) S1x1x256.size (k0_off56_inb c k))).set ⊆ (locHalfL c 0 true).view.set := fun k => by
  have hk : k.val < 4 := Nat.lt_of_lt_of_le k.isLt k0_t8_abs.2.1
  rw [locHalfL_set]
  refine rowL_within _ _ _ (off56_eq c k) fun i hi => (mem_halfL _ _ i).mpr ?_
  have hb : halfRow c 0 true = 8 * ((c.val + 0) % 4) + 4 := rfl
  have hc : c.val < 4 := c.isLt
  omega
theorem t8_arg8_within : ∀ k : Fin k0_t8_loop.trips, (rsO.access (Rect.unit (s := S3x8x128x256) (k0_off57 k) S1x1x128x256.size (k0_off57_inb k))).set ⊆ (dstO 1 true).view.set := fun k => by
  have hk : k.val < 4 := Nat.lt_of_lt_of_le k.isLt k0_t8_abs.2.1
  rw [dstO_set_1t]
  refine rowRO_within _ _ _ _ (k0_off57_eq k) fun i h0 h1 => (mem_rO _ _ _ i).mpr ?_
  omega
theorem t8_arg9_within : ∀ k : Fin k0_t8_loop.trips, (rsL.access (Rect.unit (s := S3x8x1x256) (k0_off55 k) S1x1x1x256.size (k0_off55_inb k))).set ⊆ (dstL 1 true).view.set := fun k => by
  have hk : k.val < 4 := Nat.lt_of_lt_of_le k.isLt k0_t8_abs.2.1
  rw [dstL_set_1t]
  refine rowRL_within _ _ _ _ (k0_off55_eq k) fun i h0 h1 => (mem_rL _ _ _ i).mpr ?_
  omega

theorem t9_arg6_within (c : Dev nD) : ∀ k : Fin k0_t9_loop.trips, (locO.access (Rect.unit (s := S32x128x256) (k0_off62 c k) S1x128x256.size (k0_off62_inb c k))).set ⊆ (locHalfO c 1 false).view.set := fun k => by
  have hk : k.val < 4 := Nat.lt_of_lt_of_le k.isLt k0_t9_abs.2.1
  rw [locHalfO_set]
  refine rowO_within _ _ _ (off62_eq c k) fun i hi => (mem_halfO _ _ i).mpr ?_
  have hb : halfRow c 1 false = 8 * ((c.val + 1) % 4) + 0 := rfl
  have hc : c.val < 4 := c.isLt
  omega
theorem t9_arg7_within (c : Dev nD) : ∀ k : Fin k0_t9_loop.trips, (locL.access (Rect.unit (s := S32x1x256) (k0_off60 c k) S1x1x256.size (k0_off60_inb c k))).set ⊆ (locHalfL c 1 false).view.set := fun k => by
  have hk : k.val < 4 := Nat.lt_of_lt_of_le k.isLt k0_t9_abs.2.1
  rw [locHalfL_set]
  refine rowL_within _ _ _ (off60_eq c k) fun i hi => (mem_halfL _ _ i).mpr ?_
  have hb : halfRow c 1 false = 8 * ((c.val + 1) % 4) + 0 := rfl
  have hc : c.val < 4 := c.isLt
  omega
theorem t9_arg8_within : ∀ k : Fin k0_t9_loop.trips, (rsO.access (Rect.unit (s := S3x8x128x256) (k0_off61 k) S1x1x128x256.size (k0_off61_inb k))).set ⊆ (dstO 2 false).view.set := fun k => by
  have hk : k.val < 4 := Nat.lt_of_lt_of_le k.isLt k0_t9_abs.2.1
  rw [dstO_set_2f]
  refine rowRO_within _ _ _ _ (k0_off61_eq k) fun i h0 h1 => (mem_rO _ _ _ i).mpr ?_
  omega
theorem t9_arg9_within : ∀ k : Fin k0_t9_loop.trips, (rsL.access (Rect.unit (s := S3x8x1x256) (k0_off59 k) S1x1x1x256.size (k0_off59_inb k))).set ⊆ (dstL 2 false).view.set := fun k => by
  have hk : k.val < 4 := Nat.lt_of_lt_of_le k.isLt k0_t9_abs.2.1
  rw [dstL_set_2f]
  refine rowRL_within _ _ _ _ (k0_off59_eq k) fun i h0 h1 => (mem_rL _ _ _ i).mpr ?_
  omega

theorem t10_arg6_within (c : Dev nD) : ∀ k : Fin k0_t10_loop.trips, (locO.access (Rect.unit (s := S32x128x256) (k0_off66 c k) S1x128x256.size (k0_off66_inb c k))).set ⊆ (locHalfO c 1 true).view.set := fun k => by
  have hk : k.val < 4 := Nat.lt_of_lt_of_le k.isLt k0_t10_abs.2.1
  rw [locHalfO_set]
  refine rowO_within _ _ _ (off66_eq c k) fun i hi => (mem_halfO _ _ i).mpr ?_
  have hb : halfRow c 1 true = 8 * ((c.val + 1) % 4) + 4 := rfl
  have hc : c.val < 4 := c.isLt
  omega
theorem t10_arg7_within (c : Dev nD) : ∀ k : Fin k0_t10_loop.trips, (locL.access (Rect.unit (s := S32x1x256) (k0_off64 c k) S1x1x256.size (k0_off64_inb c k))).set ⊆ (locHalfL c 1 true).view.set := fun k => by
  have hk : k.val < 4 := Nat.lt_of_lt_of_le k.isLt k0_t10_abs.2.1
  rw [locHalfL_set]
  refine rowL_within _ _ _ (off64_eq c k) fun i hi => (mem_halfL _ _ i).mpr ?_
  have hb : halfRow c 1 true = 8 * ((c.val + 1) % 4) + 4 := rfl
  have hc : c.val < 4 := c.isLt
  omega
theorem t10_arg8_within : ∀ k : Fin k0_t10_loop.trips, (rsO.access (Rect.unit (s := S3x8x128x256) (k0_off65 k) S1x1x128x256.size (k0_off65_inb k))).set ⊆ (dstO 2 true).view.set := fun k => by
  have hk : k.val < 4 := Nat.lt_of_lt_of_le k.isLt k0_t10_abs.2.1
  rw [dstO_set_2t]
  refine rowRO_within _ _ _ _ (k0_off65_eq k) fun i h0 h1 => (mem_rO _ _ _ i).mpr ?_
  omega
theorem t10_arg9_within : ∀ k : Fin k0_t10_loop.trips, (rsL.access (Rect.unit (s := S3x8x1x256) (k0_off63 k) S1x1x1x256.size (k0_off63_inb k))).set ⊆ (dstL 2 true).view.set := fun k => by
  have hk : k.val < 4 := Nat.lt_of_lt_of_le k.isLt k0_t10_abs.2.1
  rw [dstL_set_2t]
  refine rowRL_within _ _ _ _ (k0_off63_eq k) fun i h0 h1 => (mem_rL _ _ _ i).mpr ?_
  omega

end Cert.KernelIdeal.LoopsV

end
-- ==== Proof.Bridge.lean ====
/-
  From what a buffer holds, row by row, to the values the schedule names.

  The ring's slices are rectangles of whole buffers with unit axes dropped, so a slice read at an index is the buffer
  read at the index shifted by the rectangle's offsets.  The values `V` are defined slot by slot: at hop 0 a slot is
  a row of the device's own partial sums; afterwards it is the received slot merged with the local row; a forwarded half
  block is what was received.  Hence: if the rows of a buffer read as those terms, the slice reads as `V`.
-/
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Ring
import proofs.«900754_g7700000000000755_dist_attn_cross_gqa_kvseq_b4_sq256_skv1024_d1024_hq8_dh128_v7x_i4_f32_1_alg».proof.Proof.Split
import Idealize.ShloMosaic.Lib.ValueIdx
import Idealize.ShloMosaic.Lib.ValueLayout
import Idealize.ShloMosaic.Lib.Pipeline.Value

noncomputable section

namespace Cert.KernelIdeal.KFun

open Cert.KernelIdeal Cert.KernelIdeal.Gen Cert.KernelIdeal.Ring Cert.KernelIdeal.Proto
open Idealize.ShloMosaic Idealize.ShloMosaic.TcCoe Idealize.ShloMosaic.ValueIdx Idealize.SL.Sem

variable {F : FTy → Type} [FloatOps F]

/-! ## A slice read at an index -/

/-- Four heads of one hop of the numerators' stage buffer: slot `k`, coordinate `d`, query row `i` of the slice is
    the buffer at hop `a`, head `b + k`. -/
theorem rsO_slice_read (a b : ℕ) (inb : ∀ x, (![a, b, 0, 0] : Fin 4 → ℕ) x + S1x4x128x256.size x ≤ S3x8x128x256.size x)
    (hq : S1x4x128x256.Squeezes S4x128x256) (c : Dev nD) (f : Buf (Elt F) ((c : Thread nD τ).loc cc0_scratch2))
    (k : Fin 4) (d : Fin 128) (i : Fin 256) :
    ((Proto.rsO.slice (Rect.unit (s := S3x8x128x256) ![a, b, 0, 0] S1x4x128x256.size inb) (fun _ => rfl)).squeeze S4x128x256 hq).view.read (Elt F) f (ix3 k d i)
      = f (ix4 (⟨a, by have := inb 0; simp at this; omega⟩ : Fin 3) (⟨b + k.val, by have := inb 1; simp at this; omega⟩ : Fin 8) d i) := by
  rw [Memref.read_squeeze_slice (hc := (by decide : S1x4x128x256.ShapeCasts S4x128x256)), shapeCast_1abc_abc_apply, View.readAt_apply, View.read_apply]
  show f _ = f _
  refine congrArg f (funext fun x => Fin.ext ?_)
  match x with
  | ⟨0, _⟩ => show a + 1 * 0 = a; omega
  | ⟨1, _⟩ => show b + 1 * k.val = b + k.val; omega
  | ⟨2, _⟩ => show 0 + 1 * d.val = d.val; omega
  | ⟨3, _⟩ => show 0 + 1 * i.val = i.val; omega

/-- The same for the denominators' stage buffer. -/
theorem rsL_slice_read (a b : ℕ) (inb : ∀ x, (![a, b, 0, 0] : Fin 4 → ℕ) x + S1x4x1x256.size x ≤ S3x8x1x256.size x)
    (hq : S1x4x1x256.Squeezes S4x1x256) (c : Dev nD) (f : Buf (Elt F) ((c : Thread nD τ).loc cc0_scratch3))
    (k : Fin 4) (u : Fin 1) (i : Fin 256) :
    ((Proto.rsL.slice (Rect.unit (s := S3x8x1x256) ![a, b, 0, 0] S1x4x1x256.size inb) (fun _ => rfl)).squeeze S4x1x256 hq).view.read (Elt F) f (ix3 k u i)
      = f (ix4 (⟨a, by have := inb 0; simp at this; omega⟩ : Fin 3) (⟨b + k.val, by have := inb 1; simp at this; omega⟩ : Fin 8) u i) := by
  rw [Memref.read_squeeze_slice (hc := (by decide : S1x4x1x256.ShapeCasts S4x1x256)), shapeCast_1abc_abc_apply, View.readAt_apply, View.read_apply]
  show f _ = f _
  refine congrArg f (funext fun x => Fin.ext ?_)
  match x with
  | ⟨0, _⟩ => show a + 1 * 0 = a; omega
  | ⟨1, _⟩ => show b + 1 * k.val = b + k.val; omega
  | ⟨2, _⟩ => show 0 + 1 * u.val = u.val; omega
  | ⟨3, _⟩ => show 0 + 1 * i.val = i.val; omega

/-- Four rows of the device's own numerators from row `a`. -/
theorem locO_slice_read (off : Fin 3 → ℕ) (a : ℕ) (hoff : off = ![a, 0, 0]) (inb : ∀ x, off x + S4x128x256.size x ≤ S32x128x256.size x)
    (c : Dev nD) (f : Buf (Elt F) ((c : Thread nD τ).loc cc0_scratch0)) (k : Fin 4) (d : Fin 128) (i : Fin 256) :
    (locO.slice (Rect.unit (s := S32x128x256) off S4x128x256.size inb) (fun _ => rfl)).view.read (Elt F) f (ix3 k d i)
      = f (ix3 (⟨a + k.val, by subst hoff; have := inb 0; simp at this; omega⟩ : Fin 32) d i) := by
  subst hoff
  rw [View.read_apply]
  show f _ = f _
  refine congrArg f (funext fun x => Fin.ext ?_)
  match x with
  | ⟨0, _⟩ => show a + 1 * k.val = a + k.val; omega
  | ⟨1, _⟩ => show 0 + 1 * d.val = d.val; omega
  | ⟨2, _⟩ => show 0 + 1 * i.val = i.val; omega

/-- and of its denominators. -/
theorem locL_slice_read (off : Fin 3 → ℕ) (a : ℕ) (hoff : off = ![a, 0, 0]) (inb : ∀ x, off x + S4x1x256.size x ≤ S32x1x256.size x)
    (c : Dev nD) (f : Buf (Elt F) ((c : Thread nD τ).loc cc0_scratch1)) (k : Fin 4) (u : Fin 1) (i : Fin 256) :
    (locL.slice (Rect.unit (s := S32x1x256) off S4x1x256.size inb) (fun _ => rfl)).view.read (Elt F) f (ix3 k u i)
      = f (ix3 (⟨a + k.val, by subst hoff; have := inb 0; simp at this; omega⟩ : Fin 32) u i) := by
  subst hoff
  rw [View.read_apply]
  show f _ = f _
  refine congrArg f (funext fun x => Fin.ext ?_)
  match x with
  | ⟨0, _⟩ => show a + 1 * k.val = a + k.val; omega
  | ⟨1, _⟩ => show 0 + 1 * u.val = u.val; omega
  | ⟨2, _⟩ => show 0 + 1 * i.val = i.val; omega

/-- A half block of the gathered result: row `r`, column `n` of the slice is block `a`, row `b + r`. -/
theorem agB_slice_read (off : Fin 3 → ℕ) (a b : ℕ) (hoff : off = ![a, b, 0]) (inb : ∀ x, off x + S1x128x1024.size x ≤ S4x256x1024.size x)
    (hq : S1x128x1024.Squeezes S128x1024) (c : Dev nD) (f : Buf (Elt F) ((c : Thread nD τ).loc cc0_scratch23))
    (r : Fin 128) (n : Fin 1024) :
    ((agB.slice (Rect.unit (s := S4x256x1024) off S1x128x1024.size inb) (fun _ => rfl)).squeeze S128x1024 hq).view.read (Elt F) f (ix2 r n)
      = f (ix3 (⟨a, by subst hoff; have := inb 0; simp at this; omega⟩ : Fin 4) (⟨b + r.val, by subst hoff; have := inb 1; simp at this; omega⟩ : Fin 256) n) := by
  subst hoff
  rw [Memref.read_squeeze_slice (hc := (by decide : S1x128x1024.ShapeCasts S128x1024)), shapeCast_1ab_ab_apply, View.readAt_apply, View.read_apply]
  show f _ = f _
  refine congrArg f (funext fun x => Fin.ext ?_)
  match x with
  | ⟨0, _⟩ => show a + 1 * 0 = a; omega
  | ⟨1, _⟩ => show b + 1 * r.val = b + r.val; omega
  | ⟨2, _⟩ => show 0 + 1 * n.val = n.val; omega

/-! ### The ring's slices, one by one -/

section Instances
variable (c : Dev nD)

theorem dstO_read_0f (f : Buf (Elt F) ((c : Thread nD τ).loc cc0_scratch2)) (k : Fin 4) (d : Fin 128) (i : Fin 256) :
    (dstO 0 false).view.read (Elt F) f (ix3 k d i) = f (ix4 (0 : Fin 3) (headAt false k) d i) :=
  (rsO_slice_read 0 0 inb_S3x8x128x256_S1x4x128x256_0_0_0_0 squeezes_S1x4x128x256_S4x128x256 c f k d i).trans (congrArg f (funext fun x => Fin.ext (by
    match x with | ⟨0, _⟩ => rfl | ⟨1, _⟩ => exact Nat.zero_add _ | ⟨2, _⟩ => rfl | ⟨3, _⟩ => rfl)))
theorem dstO_read_0t (f : Buf (Elt F) ((c : Thread nD τ).loc cc0_scratch2)) (k : Fin 4) (d : Fin 128) (i : Fin 256) :
    (dstO 0 true).view.read (Elt F) f (ix3 k d i) = f (ix4 (0 : Fin 3) (headAt true k) d i) :=
  (rsO_slice_read 0 4 inb_S3x8x128x256_S1x4x128x256_0_4_0_0 squeezes_S1x4x128x256_S4x128x256 c f k d i).trans (congrArg f (funext fun x => Fin.ext (by
    match x with | ⟨0, _⟩ => rfl | ⟨1, _⟩ => exact Nat.add_comm _ _ | ⟨2, _⟩ => rfl | ⟨3, _⟩ => rfl)))
theorem dstO_read_1f (f : Buf (Elt F) ((c : Thread nD τ).loc cc0_scratch2)) (k : Fin 4) (d : Fin 128) (i : Fin 256) :
    (dstO 1 false).view.read (Elt F) f (ix3 k d i) = f (ix4 (1 : Fin 3) (headAt false k) d i) :=
  (rsO_slice_read 1 0 inb_S3x8x128x256_S1x4x128x256_1_0_0_0 squeezes_S1x4x128x256_S4x128x256 c f k d i).trans (congrArg f (funext fun x => Fin.ext (by
    match x with | ⟨0, _⟩ => rfl | ⟨1, _⟩ => exact Nat.zero_add _ | ⟨2, _⟩ => rfl | ⟨3, _⟩ => rfl)))
theorem dstO_read_1t (f : Buf (Elt F) ((c : Thread nD τ).loc cc0_scratch2)) (k : Fin 4) (d : Fin 128) (i : Fin 256) :
    (dstO 1 true).view.read (Elt F) f (ix3 k d i) = f (ix4 (1 : Fin 3) (headAt true k) d i) :=
  (rsO_slice_read 1 4 inb_S3x8x128x256_S1x4x128x256_1_4_0_0 squeezes_S1x4x128x256_S4x128x256 c f k d i).trans (congrArg f (funext fun x => Fin.ext (by
    match x with | ⟨0, _⟩ => rfl | ⟨1, _⟩ => exact Nat.add_comm _ _ | ⟨2, _⟩ => rfl | ⟨3, _⟩ => rfl)))
theorem dstO_read_2f (f : Buf (Elt F) ((c : Thread nD τ).loc cc0_scratch2)) (k : Fin 4) (d : Fin 128) (i : Fin 256) :
    (dstO 2 false).view.read (Elt F) f (ix3 k d i) = f (ix4 (2 : Fin 3) (headAt false k) d i) :=
  (rsO_slice_read 2 0 inb_S3x8x128x256_S1x4x128x256_2_0_0_0 squeezes_S1x4x128x256_S4x128x256 c f k d i).trans (congrArg f (funext fun x => Fin.ext (by
    match x with | ⟨0, _⟩ => rfl | ⟨1, _⟩ => exact Nat.zero_add _ | ⟨2, _⟩ => rfl | ⟨3, _⟩ => rfl)))
theorem dstO_read_2t (f : Buf (Elt F) ((c : Thread nD τ).loc cc0_scratch2)) (k : Fin 4) (d : Fin 128) (i : Fin 256) :
    (dstO 2 true).view.read (Elt F) f (ix3 k d i) = f (ix4 (2 : Fin 3) (headAt true k) d i) :=
  (rsO_slice_read 2 4 inb_S3x8x128x256_S1x4x128x256_2_4_0_0 squeezes_S1x4x128x256_S4x128x256 c f k d i).trans (congrArg f (funext fun x => Fin.ext (by
    match x with | ⟨0, _⟩ => rfl | ⟨1, _⟩ => exact Nat.add_comm _ _ | ⟨2, _⟩ => rfl | ⟨3, _⟩ => rfl)))

theorem dstL_read_0f (f : Buf (Elt F) ((c : Thread nD τ).loc cc0_scratch3)) (k : Fin 4) (u : Fin 1) (i : Fin 256) :
    (dstL 0 false).view.read (Elt F) f (ix3 k u i) = f (ix4 (0 : Fin 3) (headAt false k) u i) :=
  (rsL_slice_read 0 0 inb_S3x8x1x256_S1x4x1x256_0_0_0_0 squeezes_S1x4x1x256_S4x1x256 c f k u i).trans (congrArg f (funext fun x => Fin.ext (by
    match x with | ⟨0, _⟩ => rfl | ⟨1, _⟩ => exact Nat.zero_add _ | ⟨2, _⟩ => rfl | ⟨3, _⟩ => rfl)))
theorem dstL_read_0t (f : Buf (Elt F) ((c : Thread nD τ).loc cc0_scratch3)) (k : Fin 4) (u : Fin 1) (i : Fin 256) :
    (dstL 0 true).view.read (Elt F) f (ix3 k u i) = f (ix4 (0 : Fin 3) (headAt true k) u i) :=
  (rsL_slice_read 0 4 inb_S3x8x1x256_S1x4x1x256_0_4_0_0 squeezes_S1x4x1x256_S4x1x256 c f k u i).trans (congrArg f (funext fun x => Fin.ext (by
    match x with | ⟨0, _⟩ => rfl | ⟨1, _⟩ => exact Nat.add_comm _ _ | ⟨2, _⟩ => rfl | ⟨3, _⟩ => rfl)))
theorem dstL_read_1f (f : Buf (Elt F) ((c : Thread nD τ).loc cc0_scratch3)) (k : Fin 4) (u : Fin 1) (i : Fin 256) :
    (dstL 1 false).view.read (Elt F) f (ix3 k u i) = f (ix4 (1 : Fin 3) (headAt false k) u i) :=
  (rsL_slice_read 1 0 inb_S3x8x1x256_S1x4x1x256_1_0_0_0 squeezes_S1x4x1x256_S4x1x256 c f k u i).trans (congrArg f (funext fun x => Fin.ext (by
    match x with | ⟨0, _⟩ => rfl | ⟨1, _⟩ => exact Nat.zero_add _ | ⟨2, _⟩ => rfl | ⟨3, _⟩ => rfl)))
theorem dstL_read_1t (f : Buf (Elt F) ((c : Thread nD τ).loc cc0_scratch3)) (k : Fin 4) (u : Fin 1) (i : Fin 256) :
    (dstL 1 true).view.read (Elt F) f (ix3 k u i) = f (ix4 (1 : Fin 3) (headAt true k) u i) :=
  (rsL_slice_read 1 4 inb_S3x8x1x256_S1x4x1x256_1_4_0_0 squeezes_S1x4x1x256_S4x1x256 c f k u i).trans (congrArg f (funext fun x => Fin.ext (by
    match x with | ⟨0, _⟩ => rfl | ⟨1, _⟩ => exact Nat.add_comm _ _ | ⟨2, _⟩ => rfl | ⟨3, _⟩ => rfl)))
theorem dstL_read_2f (f : Buf (Elt F) ((c : Thread nD τ).loc cc0_scratch3)) (k : Fin 4) (u : Fin 1) (i : Fin 256) :
    (dstL 2 false).view.read (Elt F) f (ix3 k u i) = f (ix4 (2 : Fin 3) (headAt false k) u i) :=
  (rsL_slice_read 2 0 inb_S3x8x1x256_S1x4x1x256_2_0_0_0 squeezes_S1x4x1x256_S4x1x256 c f k u i).trans (congrArg f (funext fun x => Fin.ext (by
    match x with | ⟨0, _⟩ => rfl | ⟨1, _⟩ => exact Nat.zero_add _ | ⟨2, _⟩ => rfl | ⟨3, _⟩ => rfl)))
theorem dstL_read_2t (f : Buf (Elt F) ((c : Thread nD τ).loc cc0_scratch3)) (k : Fin 4) (u : Fin 1) (i : Fin 256) :
    (dstL 2 true).view.read (Elt F) f (ix3 k u i) = f (ix4 (2 : Fin 3) (headAt true k) u i) :=
  (rsL_slice_read 2 4 inb_S3x8x1x256_S1x4x1x256_2_4_0_0 squeezes_S1x4x1x256_S4x1x256 c f k u i).trans (congrArg f (funext fun x => Fin.ext (by
    match x with | ⟨0, _⟩ => rfl | ⟨1, _⟩ => exact Nat.add_comm _ _ | ⟨2, _⟩ => rfl | ⟨3, _⟩ => rfl)))

/-- The rows of its own partial sums a device sends first: batch `c`, heads 0–3, and batch `c + 2`, heads 4–7. -/
theorem srcO_read_0f (f : Buf (Elt F) ((c : Thread nD τ).loc cc0_scratch0)) (k : Fin 4) (d : Fin 128) (i : Fin 256) :
    (srcO c 0 false).view.read (Elt F) f (ix3 k d i)
      = f (ix3 (⟨8 * c.val + k.val, by have h : c.val < 4 := c.isLt; omega⟩ : Fin 32) d i) :=
  locO_slice_read (k0_off15 c) (8 * c.val) (k0_off15_eq c) (k0_off15_inb c) c f k d i
theorem srcO_read_0t (f : Buf (Elt F) ((c : Thread nD τ).loc cc0_scratch0)) (k : Fin 4) (d : Fin 128) (i : Fin 256) :
    (srcO c 0 true).view.read (Elt F) f (ix3 k d i)
      = f (ix3 (⟨8 * ((c.val + 2) % 4) + 4 + k.val, by omega⟩ : Fin 32) d i) :=
  locO_slice_read (k0_off31 c) (8 * ((c.val + 2) % 4) + 4) (off31_eq c) (k0_off31_inb c) c f k d i
theorem srcL_read_0f (f : Buf (Elt F) ((c : Thread nD τ).loc cc0_scratch1)) (k : Fin 4) (u : Fin 1) (i : Fin 256) :
    (srcL c 0 false).view.read (Elt F) f (ix3 k u i)
      = f (ix3 (⟨8 * c.val + k.val, by have h : c.val < 4 := c.isLt; omega⟩ : Fin 32) u i) :=
  locL_slice_read (k0_off16 c) (8 * c.val) (k0_off16_eq c) (k0_off16_inb c) c f k u i
theorem srcL_read_0t (f : Buf (Elt F) ((c : Thread nD τ).loc cc0_scratch1)) (k : Fin 4) (u : Fin 1) (i : Fin 256) :
    (srcL c 0 true).view.read (Elt F) f (ix3 k u i)
      = f (ix3 (⟨8 * ((c.val + 2) % 4) + 4 + k.val, by omega⟩ : Fin 32) u i) :=
  locL_slice_read (k0_off32 c) (8 * ((c.val + 2) % 4) + 4) (off32_eq c) (k0_off32_inb c) c f k u i

/-- The half blocks of the gathering, named on the sender `c'`: to the right, rows 0–127 of block `c' + 1 − h`; to the
    left, rows 128–255 of block `c' + 1 + h`. -/
theorem agS_read_0f (c' : Dev nD) (f : Buf (Elt F) ((c : Thread nD τ).loc cc0_scratch23)) (r : Fin 128) (n : Fin 1024) :
    (agS c' 0 false).view.read (Elt F) f (ix2 r n) = f (ix3 (⟨(c'.val + 1) % 4, by omega⟩ : Fin 4) (⟨0 + r.val, by omega⟩ : Fin 256) n) :=
  agB_slice_read (k0_off67 c' 0#32) ((c'.val + 1) % 4) 0 (off67_at0 c') (k0_off67_inb c' 0) squeezes_S1x128x1024_S128x1024 c f r n
theorem agS_read_1f (c' : Dev nD) (f : Buf (Elt F) ((c : Thread nD τ).loc cc0_scratch23)) (r : Fin 128) (n : Fin 1024) :
    (agS c' 1 false).view.read (Elt F) f (ix2 r n) = f (ix3 (⟨c'.val, c'.isLt⟩ : Fin 4) (⟨0 + r.val, by omega⟩ : Fin 256) n) :=
  agB_slice_read (k0_off67 c' 1#32) c'.val 0 (off67_at1 c') (k0_off67_inb c' 1) squeezes_S1x128x1024_S128x1024 c f r n
theorem agS_read_2f (c' : Dev nD) (f : Buf (Elt F) ((c : Thread nD τ).loc cc0_scratch23)) (r : Fin 128) (n : Fin 1024) :
    (agS c' 2 false).view.read (Elt F) f (ix2 r n) = f (ix3 (⟨(c'.val + 3) % 4, by omega⟩ : Fin 4) (⟨0 + r.val, by omega⟩ : Fin 256) n) :=
  agB_slice_read (k0_off67 c' 2#32) ((c'.val + 3) % 4) 0 (off67_at2 c') (k0_off67_inb c' 2) squeezes_S1x128x1024_S128x1024 c f r n
theorem agS_read_0t (c' : Dev nD) (f : Buf (Elt F) ((c : Thread nD τ).loc cc0_scratch23)) (r : Fin 128) (n : Fin 1024) :
    (agS c' 0 true).view.read (Elt F) f (ix2 r n) = f (ix3 (⟨(c'.val + 1) % 4, by omega⟩ : Fin 4) (⟨128 + r.val, by omega⟩ : Fin 256) n) :=
  agB_slice_read (k0_off68 c' 0#32) ((c'.val + 1) % 4) 128 (off68_at0 c') (k0_off68_inb c' 0) squeezes_S1x128x1024_S128x1024 c f r n
theorem agS_read_1t (c' : Dev nD) (f : Buf (Elt F) ((c : Thread nD τ).loc cc0_scratch23)) (r : Fin 128) (n : Fin 1024) :
    (agS c' 1 true).view.read (Elt F) f (ix2 r n) = f (ix3 (⟨(c'.val + 2) % 4, by omega⟩ : Fin 4) (⟨128 + r.val, by omega⟩ : Fin 256) n) :=
  agB_slice_read (k0_off68 c' 1#32) ((c'.val + 2) % 4) 128 (off68_at1 c') (k0_off68_inb c' 1) squeezes_S1x128x1024_S128x1024 c f r n
theorem agS_read_2t (c' : Dev nD) (f : Buf (Elt F) ((c : Thread nD τ).loc cc0_scratch23)) (r : Fin 128) (n : Fin 1024) :
    (agS c' 2 true).view.read (Elt F) f (ix2 r n) = f (ix3 (⟨(c'.val + 3) % 4, by omega⟩ : Fin 4) (⟨128 + r.val, by omega⟩ : Fin 256) n) :=
  agB_slice_read (k0_off68 c' 2#32) ((c'.val + 3) % 4) 128 (off68_at2 c') (k0_off68_inb c' 2) squeezes_S1x128x1024_S128x1024 c f r n

end Instances

/-! ## The schedule's values, slot by slot -/

section Slots
variable (m : (ℓ : Loc nD τ sig) → Buf (Elt F) ℓ) (c : Dev nD)

/-- Hop 0 sends rows of the device's own partial sums. -/
theorem Vo_zero_false (k : Fin 4) (d : Fin 128) (i : Fin 256) :
    (V m).o c 0 false (ix3 k d i) = ot m c c (headAt false k) (ix3 0 d i) := rfl
theorem Vo_zero_true (k : Fin 4) (d : Fin 128) (i : Fin 256) :
    (V m).o c 0 true (ix3 k d i) = ot m c (nxt (nxt c)) (headAt true k) (ix3 0 d i) := rfl
theorem Vl_zero_false (k : Fin 4) (u : Fin 1) (i : Fin 256) :
    (V m).l c 0 false (ix3 k u i) = lrow m c c (headAt false k) (ix3 0 0 i) := rfl
theorem Vl_zero_true (k : Fin 4) (u : Fin 1) (i : Fin 256) :
    (V m).l c 0 true (ix3 k u i) = lrow m c (nxt (nxt c)) (headAt true k) (ix3 0 0 i) := rfl

/-- A later hop sends the received slot merged with the local row. -/
theorem Vo_succ (h : Fin 2) (l : Bool) (k : Fin 4) (d : Fin 128) (i : Fin 256) :
    (V m).o c h.succ l (ix3 k d i)
      = k0_pay76 (fun s : S1x1x128x256.Idx => (V m).o (fromDev c l) h.castSucc l (ix3 k (⟨(s 2).val, (s 2).isLt⟩ : Fin 128) (⟨(s 3).val, (s 3).isLt⟩ : Fin 256)))
          (ot m c (mergeBatch h.val l c) (headAt l k)) (ix4 0 0 d i) := by
  match h with
  | 0 => rfl
  | 1 => rfl
theorem Vl_succ (h : Fin 2) (l : Bool) (k : Fin 4) (u : Fin 1) (i : Fin 256) :
    (V m).l c h.succ l (ix3 k u i)
      = k0_pay75 (fun s : S1x1x1x256.Idx => (V m).l (fromDev c l) h.castSucc l (ix3 k (0 : Fin 1) (⟨(s 3).val, (s 3).isLt⟩ : Fin 256)))
          (lrow m c (mergeBatch h.val l c) (headAt l k)) (ix4 0 0 0 i) := by
  match h with
  | 0 => rfl
  | 1 => rfl

/-- The gathering: a device's own half blocks first, then what it received. -/
theorem Vg_zero_false (r : Fin 128) (n : Fin 1024) :
    (V m).g c 0 false (ix2 r n) = agbOwn m c (ix3 0 (⟨r.val, by omega⟩ : Fin 256) n) := rfl
theorem Vg_zero_true (r : Fin 128) (n : Fin 1024) :
    (V m).g c 0 true (ix2 r n) = agbOwn m c (ix3 0 (⟨128 + r.val, by omega⟩ : Fin 256) n) := rfl
theorem Vg_succ (h : Fin 2) (l : Bool) : (V m).g c h.succ l = (V m).g (fromDev c l) h.castSucc l := by
  match h with
  | 0 => rfl
  | 1 => rfl

/-! ## From rows to slices -/

/-- Hop 0, to the right: the rows of batch `c`, heads 0–3. -/
theorem vo0_false_of_rows (f : Buf (Elt F) ((c : Thread nD τ).loc cc0_scratch0))
    (hrows : ∀ (k : Fin 4) (d : Fin 128) (i : Fin 256),
      f (ix3 (⟨8 * c.val + k.val, by have h : c.val < 4 := c.isLt; omega⟩ : Fin 32) d i) = ot m c c (headAt false k) (ix3 0 d i)) :
    (srcO c 0 false).view.read (Elt F) f = (V m).o c 0 false := by
  funext t
  obtain ⟨k, d, i, rfl⟩ : ∃ (k : Fin 4) (d : Fin 128) (i : Fin 256), t = ix3 k d i := ⟨t 0, t 1, t 2, eq_ix3 t⟩
  rw [srcO_read_0f, hrows, Vo_zero_false]
/-- Hop 0, to the left: the rows of batch `c + 2`, heads 4–7. -/
theorem vo0_true_of_rows (f : Buf (Elt F) ((c : Thread nD τ).loc cc0_scratch0))
    (hrows : ∀ (k : Fin 4) (d : Fin 128) (i : Fin 256),
      f (ix3 (⟨8 * ((c.val + 2) % 4) + 4 + k.val, by omega⟩ : Fin 32) d i) = ot m c (nxt (nxt c)) (headAt true k) (ix3 0 d i)) :
    (srcO c 0 true).view.read (Elt F) f = (V m).o c 0 true := by
  funext t
  obtain ⟨k, d, i, rfl⟩ : ∃ (k : Fin 4) (d : Fin 128) (i : Fin 256), t = ix3 k d i := ⟨t 0, t 1, t 2, eq_ix3 t⟩
  rw [srcO_read_0t, hrows, Vo_zero_true]
theorem vl0_false_of_rows (f : Buf (Elt F) ((c : Thread nD τ).loc cc0_scratch1))
    (hrows : ∀ (k : Fin 4) (i : Fin 256),
      f (ix3 (⟨8 * c.val + k.val, by have h : c.val < 4 := c.isLt; omega⟩ : Fin 32) (0 : Fin 1) i) = lrow m c c (headAt false k) (ix3 0 0 i)) :
    (srcL c 0 false).view.read (Elt F) f = (V m).l c 0 false := by
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  rw [srcL_read_0f, hrows, Vl_zero_false]
theorem vl0_true_of_rows (f : Buf (Elt F) ((c : Thread nD τ).loc cc0_scratch1))
    (hrows : ∀ (k : Fin 4) (i : Fin 256),
      f (ix3 (⟨8 * ((c.val + 2) % 4) + 4 + k.val, by omega⟩ : Fin 32) (0 : Fin 1) i) = lrow m c (nxt (nxt c)) (headAt true k) (ix3 0 0 i)) :
    (srcL c 0 true).view.read (Elt F) f = (V m).l c 0 true := by
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  rw [srcL_read_0t, hrows, Vl_zero_true]

/-- Hops 1 and 2: the source is the previous hop's landing slice after the merge; if each of its slots reads as the
    received slot merged with the local row, it reads as the value sent. -/
theorem vo_succ_of_slots (h : Fin 2) (l : Bool) (f : Buf (Elt F) ((srcO c h.succ l).view.loc (c : Thread nD τ)))
    (hs : ∀ (k : Fin 4) (d : Fin 128) (i : Fin 256), (srcO c h.succ l).view.read (Elt F) f (ix3 k d i)
      = k0_pay76 (fun s : S1x1x128x256.Idx => (V m).o (fromDev c l) h.castSucc l (ix3 k (⟨(s 2).val, (s 2).isLt⟩ : Fin 128) (⟨(s 3).val, (s 3).isLt⟩ : Fin 256)))
          (ot m c (mergeBatch h.val l c) (headAt l k)) (ix4 0 0 d i)) :
    (srcO c h.succ l).view.read (Elt F) f = (V m).o c h.succ l := by
  funext t
  obtain ⟨k, d, i, rfl⟩ : ∃ (k : Fin 4) (d : Fin 128) (i : Fin 256), t = ix3 k d i := ⟨t 0, t 1, t 2, eq_ix3 t⟩
  rw [hs, Vo_succ]
theorem vl_succ_of_slots (h : Fin 2) (l : Bool) (f : Buf (Elt F) ((srcL c h.succ l).view.loc (c : Thread nD τ)))
    (hs : ∀ (k : Fin 4) (i : Fin 256), (srcL c h.succ l).view.read (Elt F) f (ix3 k (0 : Fin 1) i)
      = k0_pay75 (fun s : S1x1x1x256.Idx => (V m).l (fromDev c l) h.castSucc l (ix3 k (0 : Fin 1) (⟨(s 3).val, (s 3).isLt⟩ : Fin 256)))
          (lrow m c (mergeBatch h.val l c) (headAt l k)) (ix4 0 0 0 i)) :
    (srcL c h.succ l).view.read (Elt F) f = (V m).l c h.succ l := by
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  rw [hs, Vl_succ]

/-- The gathering's first hop: the halves of the device's own finished block. -/
theorem vg0_false_of_rows (f : Buf (Elt F) ((c : Thread nD τ).loc cc0_scratch23))
    (hrows : ∀ (r : Fin 128) (n : Fin 1024),
      f (ix3 (⟨(c.val + 1) % 4, by omega⟩ : Fin 4) (⟨0 + r.val, by omega⟩ : Fin 256) n) = agbOwn m c (ix3 0 (⟨r.val, by omega⟩ : Fin 256) n)) :
    (agS c 0 false).view.read (Elt F) f = (V m).g c 0 false := by
  funext t
  obtain ⟨r, n, rfl⟩ : ∃ (r : Fin 128) (n : Fin 1024), t = ix2 r n := ⟨t 0, t 1, eq_ix2 t⟩
  rw [agS_read_0f, hrows, Vg_zero_false]
theorem vg0_true_of_rows (f : Buf (Elt F) ((c : Thread nD τ).loc cc0_scratch23))
    (hrows : ∀ (r : Fin 128) (n : Fin 1024),
      f (ix3 (⟨(c.val + 1) % 4, by omega⟩ : Fin 4) (⟨128 + r.val, by omega⟩ : Fin 256) n) = agbOwn m c (ix3 0 (⟨128 + r.val, by omega⟩ : Fin 256) n)) :
    (agS c 0 true).view.read (Elt F) f = (V m).g c 0 true := by
  funext t
  obtain ⟨r, n, rfl⟩ : ∃ (r : Fin 128) (n : Fin 1024), t = ix2 r n := ⟨t 0, t 1, eq_ix2 t⟩
  rw [agS_read_0t, hrows, Vg_zero_true]

end Slots

/-! ## A merge, from its three facts -/

section Merge
variable (m : (ℓ : Loc nD τ sig) → Buf (Elt F) ℓ) (c : Dev nD)

/-- The landing slice before the merge reads as what the neighbour sent; the local rows are the device's own partial sums;
    after the merge each slot reads as the one merged with the other: then the slice reads as the value sent next. -/
theorem vo_succ_of_merge (h : Fin 2) (l : Bool) (f₀ f : Buf (Elt F) ((srcO c h.succ l).view.loc (c : Thread nD τ)))
    (loc : Fin 4 → Vec F S1x128x256 .bf16)
    (hrecv : (srcO c h.succ l).view.read (Elt F) f₀ = (V m).o (fromDev c l) h.castSucc l)
    (hloc : ∀ k : Fin 4, loc k = ot m c (mergeBatch h.val l c) (headAt l k))
    (hmerge : ∀ (k : Fin 4) (d : Fin 128) (i : Fin 256), (srcO c h.succ l).view.read (Elt F) f (ix3 k d i)
      = k0_pay76 (fun s : S1x1x128x256.Idx => (srcO c h.succ l).view.read (Elt F) f₀ (ix3 k (⟨(s 2).val, (s 2).isLt⟩ : Fin 128) (⟨(s 3).val, (s 3).isLt⟩ : Fin 256)))
          (loc k) (ix4 0 0 d i)) :
    (srcO c h.succ l).view.read (Elt F) f = (V m).o c h.succ l :=
  vo_succ_of_slots m c h l f fun k d i => by rw [hmerge, hrecv, hloc]
theorem vl_succ_of_merge (h : Fin 2) (l : Bool) (f₀ f : Buf (Elt F) ((srcL c h.succ l).view.loc (c : Thread nD τ)))
    (loc : Fin 4 → Vec F S1x1x256 .f32)
    (hrecv : (srcL c h.succ l).view.read (Elt F) f₀ = (V m).l (fromDev c l) h.castSucc l)
    (hloc : ∀ k : Fin 4, loc k = lrow m c (mergeBatch h.val l c) (headAt l k))
    (hmerge : ∀ (k : Fin 4) (i : Fin 256), (srcL c h.succ l).view.read (Elt F) f (ix3 k (0 : Fin 1) i)
      = k0_pay75 (fun s : S1x1x1x256.Idx => (srcL c h.succ l).view.read (Elt F) f₀ (ix3 k (0 : Fin 1) (⟨(s 3).val, (s 3).isLt⟩ : Fin 256)))
          (loc k) (ix4 0 0 0 i)) :
    (srcL c h.succ l).view.read (Elt F) f = (V m).l c h.succ l :=
  vl_succ_of_slots m c h l f fun k i => by rw [hmerge, hrecv, hloc]

end Merge

/-! ## Forwarded half blocks, and the gathered result -/

section Gather
variable (m : (ℓ : Loc nD τ sig) → Buf (Elt F) ℓ) (c : Dev nD)

/-- The block a half block received from the left at hop `h` belongs to (`c − h`), and from the right (`c + 2 + h`). -/
def blockR (h : Fin 3) : Fin 4 := ⟨(c.val + 4 - h.val) % 4, Nat.mod_lt _ (by decide)⟩
def blockL (h : Fin 3) : Fin 4 := ⟨(c.val + 2 + h.val) % 4, Nat.mod_lt _ (by decide)⟩

/-- A buffer read at two spellings of one index. -/
theorem ix3_congr {α : Type} (g : (⟨3, ![4, 256, 1024]⟩ : Shape).Idx → α) {a a' : Fin 4} {b b' : Fin 256} (n : Fin 1024)
    (ha : a.val = a'.val) (hb : b.val = b'.val) : g (ix3 a b n) = g (ix3 a' b' n) := by
  obtain rfl := Fin.ext ha
  obtain rfl := Fin.ext hb
  rfl

section
variable (f : Buf (Elt F) ((c : Thread nD τ).loc cc0_scratch23)) (r : Fin 128) (n : Fin 1024)

/-- What the left neighbour sent at hop `h` lies in the upper half of block `c − h` of device `c`'s buffer. -/
theorem recvR_read_0 : (agS (prv c) 0 false).view.read (Elt F) f (ix2 r n) = f (ix3 (blockR c 0) (⟨r.val, by omega⟩ : Fin 256) n) := by
  have hc : c.val < 4 := c.isLt
  exact (agS_read_0f c (prv c) f r n).trans (ix3_congr f n (by show ((c.val + 3) % 4 + 1) % 4 = (c.val + 4 - 0) % 4; omega) (Nat.zero_add _))
theorem recvR_read_1 : (agS (prv c) 1 false).view.read (Elt F) f (ix2 r n) = f (ix3 (blockR c 1) (⟨r.val, by omega⟩ : Fin 256) n) := by
  have hc : c.val < 4 := c.isLt
  exact (agS_read_1f c (prv c) f r n).trans (ix3_congr f n (by show (c.val + 3) % 4 = (c.val + 4 - 1) % 4; omega) (Nat.zero_add _))
theorem recvR_read_2 : (agS (prv c) 2 false).view.read (Elt F) f (ix2 r n) = f (ix3 (blockR c 2) (⟨r.val, by omega⟩ : Fin 256) n) := by
  have hc : c.val < 4 := c.isLt
  exact (agS_read_2f c (prv c) f r n).trans (ix3_congr f n (by show ((c.val + 3) % 4 + 3) % 4 = (c.val + 4 - 2) % 4; omega) (Nat.zero_add _))
/-- What the right neighbour sent at hop `h` lies in the lower half of block `c + 2 + h`. -/
theorem recvL_read_0 : (agS (nxt c) 0 true).view.read (Elt F) f (ix2 r n) = f (ix3 (blockL c 0) (⟨128 + r.val, by omega⟩ : Fin 256) n) := by
  have hc : c.val < 4 := c.isLt
  exact (agS_read_0t c (nxt c) f r n).trans (ix3_congr f n (by show ((c.val + 1) % 4 + 1) % 4 = (c.val + 2 + 0) % 4; omega) rfl)
theorem recvL_read_1 : (agS (nxt c) 1 true).view.read (Elt F) f (ix2 r n) = f (ix3 (blockL c 1) (⟨128 + r.val, by omega⟩ : Fin 256) n) := by
  have hc : c.val < 4 := c.isLt
  exact (agS_read_1t c (nxt c) f r n).trans (ix3_congr f n (by show ((c.val + 1) % 4 + 2) % 4 = (c.val + 2 + 1) % 4; omega) rfl)
theorem recvL_read_2 : (agS (nxt c) 2 true).view.read (Elt F) f (ix2 r n) = f (ix3 (blockL c 2) (⟨128 + r.val, by omega⟩ : Fin 256) n) := by
  have hc : c.val < 4 := c.isLt
  exact (agS_read_2t c (nxt c) f r n).trans (ix3_congr f n (by show ((c.val + 1) % 4 + 3) % 4 = (c.val + 2 + 2) % 4; omega) rfl)

/-- What a device forwards at hops 1 and 2 is the half block it received the hop before: the same rows of its buffer. -/
theorem fwdR_read_1 : (agS c 1 false).view.read (Elt F) f (ix2 r n) = (agS (prv c) 0 false).view.read (Elt F) f (ix2 r n) := by
  have hc : c.val < 4 := c.isLt
  exact (agS_read_1f c c f r n).trans ((agS_read_0f c (prv c) f r n).trans
    (ix3_congr f n (by show ((c.val + 3) % 4 + 1) % 4 = c.val; omega) rfl)).symm
theorem fwdR_read_2 : (agS c 2 false).view.read (Elt F) f (ix2 r n) = (agS (prv c) 1 false).view.read (Elt F) f (ix2 r n) :=
  (agS_read_2f c c f r n).trans (agS_read_1f c (prv c) f r n).symm
theorem fwdL_read_1 : (agS c 1 true).view.read (Elt F) f (ix2 r n) = (agS (nxt c) 0 true).view.read (Elt F) f (ix2 r n) := by
  have hc : c.val < 4 := c.isLt
  exact (agS_read_1t c c f r n).trans ((agS_read_0t c (nxt c) f r n).trans
    (ix3_congr f n (by show ((c.val + 1) % 4 + 1) % 4 = (c.val + 2) % 4; omega) rfl)).symm
theorem fwdL_read_2 : (agS c 2 true).view.read (Elt F) f (ix2 r n) = (agS (nxt c) 1 true).view.read (Elt F) f (ix2 r n) := by
  have hc : c.val < 4 := c.isLt
  exact (agS_read_2t c c f r n).trans ((agS_read_1t c (nxt c) f r n).trans
    (ix3_congr f n (by show ((c.val + 1) % 4 + 2) % 4 = (c.val + 3) % 4; omega) rfl)).symm

end
/-- So the forwarded slice reads as the value sent, given that the slice it was received into reads as the sender's. -/
theorem vg1_false_of_read (f : Buf (Elt F) ((c : Thread nD τ).loc cc0_scratch23))
    (hr : (agS (prv c) 0 false).view.read (Elt F) f = (V m).g (prv c) 0 false) :
    (agS c 1 false).view.read (Elt F) f = (V m).g c 1 false := by
  funext t
  obtain ⟨r, n, rfl⟩ : ∃ (r : Fin 128) (n : Fin 1024), t = ix2 r n := ⟨t 0, t 1, eq_ix2 t⟩
  rw [fwdR_read_1, hr]; rfl
theorem vg2_false_of_read (f : Buf (Elt F) ((c : Thread nD τ).loc cc0_scratch23))
    (hr : (agS (prv c) 1 false).view.read (Elt F) f = (V m).g (prv c) 1 false) :
    (agS c 2 false).view.read (Elt F) f = (V m).g c 2 false := by
  funext t
  obtain ⟨r, n, rfl⟩ : ∃ (r : Fin 128) (n : Fin 1024), t = ix2 r n := ⟨t 0, t 1, eq_ix2 t⟩
  rw [fwdR_read_2, hr]; rfl
theorem vg1_true_of_read (f : Buf (Elt F) ((c : Thread nD τ).loc cc0_scratch23))
    (hr : (agS (nxt c) 0 true).view.read (Elt F) f = (V m).g (nxt c) 0 true) :
    (agS c 1 true).view.read (Elt F) f = (V m).g c 1 true := by
  funext t
  obtain ⟨r, n, rfl⟩ : ∃ (r : Fin 128) (n : Fin 1024), t = ix2 r n := ⟨t 0, t 1, eq_ix2 t⟩
  rw [fwdL_read_1, hr]; rfl
theorem vg2_true_of_read (f : Buf (Elt F) ((c : Thread nD τ).loc cc0_scratch23))
    (hr : (agS (nxt c) 1 true).view.read (Elt F) f = (V m).g (nxt c) 1 true) :
    (agS c 2 true).view.read (Elt F) f = (V m).g c 2 true := by
  funext t
  obtain ⟨r, n, rfl⟩ : ∃ (r : Fin 128) (n : Fin 1024), t = ix2 r n := ⟨t 0, t 1, eq_ix2 t⟩
  rw [fwdL_read_2, hr]; rfl

theorem hop_right : ∀ c b : Dev nD, b ≠ nxt c → ∃ h : Fin 3, h.val = (c.val + 4 - b.val) % 4 ∧ blockR c h = b := by decide
theorem hop_left : ∀ c b : Dev nD, b ≠ nxt c → ∃ h : Fin 3, h.val = (b.val + 6 - c.val) % 4 ∧ blockL c h = b := by decide

/-- The gathered buffer at the end, block by block: its own block, and the six half blocks as received. -/
theorem agbFin_of_buffer (f : Buf (Elt F) ((c : Thread nD τ).loc cc0_scratch23))
    (hown : ∀ (i : Fin 256) (n : Fin 1024), f (ix3 (nxt c) i n) = agbOwn m c (ix3 0 i n))
    (hr0 : (agS (prv c) 0 false).view.read (Elt F) f = (V m).g (prv c) 0 false)
    (hr1 : (agS (prv c) 1 false).view.read (Elt F) f = (V m).g (prv c) 1 false)
    (hr2 : (agS (prv c) 2 false).view.read (Elt F) f = (V m).g (prv c) 2 false)
    (hl0 : (agS (nxt c) 0 true).view.read (Elt F) f = (V m).g (nxt c) 0 true)
    (hl1 : (agS (nxt c) 1 true).view.read (Elt F) f = (V m).g (nxt c) 1 true)
    (hl2 : (agS (nxt c) 2 true).view.read (Elt F) f = (V m).g (nxt c) 2 true)
    (b : Fin 4) (u : Fin 1) (i : Fin 256) (n : Fin 1024) :
    f (ix3 b i n) = agbFin m c b (ix3 u i n) := by
  unfold agbFin
  by_cases hb : b = nxt c
  · rw [if_pos hb, hb]; exact hown i n
  · rw [if_neg hb]
    by_cases hi : i.val < 128
    · rw [dif_pos (show ((ix3 u i n) 1).val < 128 from hi)]
      obtain ⟨h, hh, rfl⟩ := hop_right c b hb
      rw [← hh]
      match h with
      | 0 => exact (recvR_read_0 c f ⟨i.val, hi⟩ n).symm.trans (congrFun hr0 (ix2 (⟨i.val, hi⟩ : Fin 128) n))
      | 1 => exact (recvR_read_1 c f ⟨i.val, hi⟩ n).symm.trans (congrFun hr1 (ix2 (⟨i.val, hi⟩ : Fin 128) n))
      | 2 => exact (recvR_read_2 c f ⟨i.val, hi⟩ n).symm.trans (congrFun hr2 (ix2 (⟨i.val, hi⟩ : Fin 128) n))
    · rw [dif_neg (show ¬((ix3 u i n) 1).val < 128 from hi)]
      obtain ⟨h, hh, rfl⟩ := hop_left c b hb
      rw [← hh]
      have hi' : i.val - 128 < 128 := by have := i.isLt; omega
      rw [ix3_congr f (a := blockL c h) (a' := blockL c h) (b := i) (b' := (⟨128 + (⟨i.val - 128, hi'⟩ : Fin 128).val, by omega⟩ : Fin 256)) n rfl
        (by show i.val = 128 + (i.val - 128); omega)]
      match h with
      | 0 => exact (recvL_read_0 c f ⟨i.val - 128, hi'⟩ n).symm.trans (congrFun hl0 (ix2 (⟨i.val - 128, hi'⟩ : Fin 128) n))
      | 1 => exact (recvL_read_1 c f ⟨i.val - 128, hi'⟩ n).symm.trans (congrFun hl1 (ix2 (⟨i.val - 128, hi'⟩ : Fin 128) n))
      | 2 => exact (recvL_read_2 c f ⟨i.val - 128, hi'⟩ n).symm.trans (congrFun hl2 (ix2 (⟨i.val - 128, hi'⟩ : Fin 128) n))

/-- The device's result block from its four stored blocks. -/
theorem kout_of_blocks (g : (cc0_stg3_0 : Ref sig .tc).ty.Contents (Elt F))
    (h0 : ∀ (i : Fin 256) (n : Fin 1024), g (ix3 (0 : Fin 4) i n) = k0_pay1 (k0_pay118 (agbFin m c 0)) (ix3 0 i n))
    (h1 : ∀ (i : Fin 256) (n : Fin 1024), g (ix3 (1 : Fin 4) i n) = k0_pay2 (agbFin m c 1) (ix3 0 i n))
    (h2 : ∀ (i : Fin 256) (n : Fin 1024), g (ix3 (2 : Fin 4) i n) = k0_pay3 (agbFin m c 2) (ix3 0 i n))
    (h3 : ∀ (i : Fin 256) (n : Fin 1024), g (ix3 (3 : Fin 4) i n) = k0_pay4 (agbFin m c 3) (ix3 0 i n)) :
    g = Kout m c := by
  funext t
  obtain ⟨b, i, n, rfl⟩ : ∃ (b : Fin 4) (i : Fin 256) (n : Fin 1024), t = ix3 b i n := ⟨t 0, t 1, t 2, eq_ix3 t⟩
  match b with
  | 0 => exact h0 i n
  | 1 => exact h1 i n
  | 2 => exact h2 i n
  | 3 => exact h3 i n

end Gather

/-- info: 'Cert.KernelIdeal.KFun.agbFin_of_buffer' depends on axioms: [propext, Classical.choice, Quot.sound] -/
#guard_msgs in #print axioms agbFin_of_buffer
/-- info: 'Cert.KernelIdeal.KFun.vo_succ_of_merge' depends on axioms: [propext, Classical.choice, Quot.sound] -/
#guard_msgs in #print axioms vo_succ_of_merge

end Cert.KernelIdeal.KFun

end
-- ==== Proof.BodyC.lean ====
/-
  The kernel body from the cut before the first merge to the cut before the third flash step.

  Device c waits for its four right-going copies of hop 0 (the source half blocks come back, the landing slices of the
  numerators and denominators arrive at what its left neighbour sent), adds block 3's heads 0 to 3 into them, waits for the
  four left-going ones and adds heads 4 to 7, and sends the four merged slices on as hop 1. Everything else it holds is a
  frame. What the merged slices read, as the next hop's sources, is taken as four hypotheses.
-/
import proofs.«900754_g7700000000000755_dist_attn_cross_gqa_kvseq_b4_sq256_skv1024_d1024_hq8_dh128_v7x_i4_f32_1_alg».proof.Proof.Cut27
import proofs.«900754_g7700000000000755_dist_attn_cross_gqa_kvseq_b4_sq256_skv1024_d1024_hq8_dh128_v7x_i4_f32_1_alg».proof.Proof.Segs
import proofs.«900754_g7700000000000755_dist_attn_cross_gqa_kvseq_b4_sq256_skv1024_d1024_hq8_dh128_v7x_i4_f32_1_alg».proof.Proof.Unfold
import proofs.«900754_g7700000000000755_dist_attn_cross_gqa_kvseq_b4_sq256_skv1024_d1024_hq8_dh128_v7x_i4_f32_1_alg».proof.Proof.OpSend
import proofs.«900754_g7700000000000755_dist_attn_cross_gqa_kvseq_b4_sq256_skv1024_d1024_hq8_dh128_v7x_i4_f32_1_alg».proof.Proof.OpWait
import proofs.«900754_g7700000000000755_dist_attn_cross_gqa_kvseq_b4_sq256_skv1024_d1024_hq8_dh128_v7x_i4_f32_1_alg».proof.Proof.KLaunch
import proofs.«900754_g7700000000000755_dist_attn_cross_gqa_kvseq_b4_sq256_skv1024_d1024_hq8_dh128_v7x_i4_f32_1_alg».proof.Proof.LoopsV
import proofs.«900754_g7700000000000755_dist_attn_cross_gqa_kvseq_b4_sq256_skv1024_d1024_hq8_dh128_v7x_i4_f32_1_alg».proof.Proof.LoopsVFacts
import proofs.«900754_g7700000000000755_dist_attn_cross_gqa_kvseq_b4_sq256_skv1024_d1024_hq8_dh128_v7x_i4_f32_1_alg».proof.Proof.Bridge
import proofs.«900754_g7700000000000755_dist_attn_cross_gqa_kvseq_b4_sq256_skv1024_d1024_hq8_dh128_v7x_i4_f32_1_alg».proof.Proof.Gen.KernelIdeal.Points
import Idealize.ShloMosaic.Lib.Tactic

set_option maxRecDepth 16384

noncomputable section

namespace Cert.KernelIdeal.Proto

open Cert.KernelIdeal Cert.KernelIdeal.Gen Cert.KernelIdeal.Ring
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
local notation "𝕄" => MT nD τ sig Unit (Elt F) ℕ UU ℕ

/-- The invariants a body opens are persistent. -/
instance invs_persistent (V : Vals F) (K : Names) (c : Dev nD) : BI.Persistent (invs V K c : sProp 𝕄) := by
  unfold invs; infer_instance

set_option maxHeartbeats 40000000 in
/-- From the cut before the first merge to the cut before the third flash step: the eight waits of hop 0, the two merges of
    block 3's rows into the landing slices, and the four copies of hop 1. The four hypotheses are the values of the merged
    slices: that each, read as the next hop's source, is what the schedule says the device sends then. -/
theorem segC_ok (m : (ℓ : Loc nD τ sig) → Buf (Elt F) ℓ) (c : Dev nD) (K : Names) (W : Waits sig Unit) (R : sProp 𝕄) (d0 : Dev nD) (v2 v14 v25 : BitVec 32)

    (hmO4 : ∀ (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3)), (∀ (k : Fin 8) (d : Fin 128) (i : Fin 256), fO3 (ix3 (⟨8 * ((c.val + 3) % 4) + k.val, by omega⟩ : Fin 32) d i) = KFun.ot m c (prv c) k (ix3 0 d i)) → (dstO 0 false).view.read (Elt F) f8 = (KFun.V m).o (fromDev c false) 0 false →
      (srcO c 1 false).view.read (Elt F) (rsO.view.writes (Elt F) f8 (LoopsV.pbS_k0_t4 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 k0_t4_loop.trips).1) = (KFun.V m).o c 1 false)
    (hmL4 : ∀ (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3)), (∀ (k : Fin 8) (i : Fin 256), fL3 (ix3 (⟨8 * ((c.val + 3) % 4) + k.val, by omega⟩ : Fin 32) (0 : Fin 1) i) = KFun.lrow m c (prv c) k (ix3 0 0 i)) → (dstL 0 false).view.read (Elt F) f9 = (KFun.V m).l (fromDev c false) 0 false →
      (srcL c 1 false).view.read (Elt F) (rsL.view.writes (Elt F) f9 (LoopsV.pbS_k0_t4 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 k0_t4_loop.trips).2) = (KFun.V m).l c 1 false)
    (hmO5 : ∀ (w : BitVec 32) (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3)), (∀ (k : Fin 8) (d : Fin 128) (i : Fin 256), fO3 (ix3 (⟨8 * ((c.val + 3) % 4) + k.val, by omega⟩ : Fin 32) d i) = KFun.ot m c (prv c) k (ix3 0 d i)) → (dstO 0 true).view.read (Elt F) f8 = (KFun.V m).o (fromDev c true) 0 true →
      (srcO c 1 true).view.read (Elt F) (rsO.view.writes (Elt F) f8 (LoopsV.pbS_k0_t5 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 k0_t5_loop.trips).1) = (KFun.V m).o c 1 true)
    (hmL5 : ∀ (w : BitVec 32) (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3)), (∀ (k : Fin 8) (i : Fin 256), fL3 (ix3 (⟨8 * ((c.val + 3) % 4) + k.val, by omega⟩ : Fin 32) (0 : Fin 1) i) = KFun.lrow m c (prv c) k (ix3 0 0 i)) → (dstL 0 true).view.read (Elt F) f9 = (KFun.V m).l (fromDev c true) 0 true →
      (srcL c 1 true).view.read (Elt F) (rsL.view.writes (Elt F) f9 (LoopsV.pbS_k0_t5 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 k0_t5_loop.trips).2) = (KFun.V m).l c 1 true) :
    At27 m c K W R d0 v2 v14 v25 ⊢ wp frame (wpE (defs₀ (F := F)) 𝒱₀ (c : Thread nD τ) none) Set.univ
      (segCProg (F := F) (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) d0 v2 v14 v25) (fun r => iprop(∃ W', Post32 m c K W' R r)) := by

  unfold At27 C27.sentX C27.freshO C27.freshL C27.blk3O C27.blk3L
  iintro ⟨%hd0, #Hinv, #Hlev, HO, ⟨⟨Has_o0R, Har_o0R, Hcs_o0R, Hcr_o0R⟩, ⟨Has_l0R, Har_l0R, Hcs_l0R, Hcr_l0R⟩, ⟨Has_o0L, Har_o0L, Hcs_o0L, Hcr_o0L⟩, ⟨Has_l0L, Har_l0L, Hcs_l0L, Hcr_l0L⟩⟩, ⟨⟨Has_o1R, Har_o1R, Hts_o1R, Htn_o1R, Hc_o1R, Hd_o1R, #Hrs_o1R, #Hrn_o1R⟩, ⟨Has_o1L, Har_o1L, Hts_o1L, Htn_o1L, Hc_o1L, Hd_o1L, #Hrs_o1L, #Hrn_o1L⟩, ⟨Has_l1R, Har_l1R, Hts_l1R, Htn_l1R, Hc_l1R, Hd_l1R, #Hrs_l1R, #Hrn_l1R⟩, ⟨Has_l1L, Har_l1L, Hts_l1L, Htn_l1L, Hc_l1L, Hd_l1L, #Hrs_l1L, #Hrn_l1L⟩⟩, ⟨%fO3, HhO3f, HhO3t, %hrowsO⟩, ⟨%fL3, HhL3f, HhL3t, %hrowsL⟩, HR⟩
  have hd0' := hd0.symm
  subst hd0'
  -- the invariants of the cells this stretch opens, one by one
  ihave Hparts := (show invs (KFun.V m) K c ⊢ _ from by unfold invs; simp only [bigSep_xfer]; exact BI.Entails.refl _) $$ Hinv
  icases Hparts with ⟨#HIb, ⟨⟨#HIs_o0R, #HIr_o0R, #HIn_o0R⟩, ⟨#HIs_l0R, #HIr_l0R, #HIn_l0R⟩, ⟨#HIs_o0L, #HIr_o0L, #HIn_o0L⟩, ⟨#HIs_l0L, #HIr_l0L, #HIn_l0L⟩, ⟨#HIs_o1R, #HIr_o1R, #HIn_o1R⟩, ⟨#HIs_o1L, #HIr_o1L, #HIn_o1L⟩, ⟨#HIs_l1R, #HIr_l1R, #HIn_l1R⟩, ⟨#HIs_l1L, #HIr_l1L, #HIn_l1L⟩, ⟨#HIs_o2R, #HIr_o2R, #HIn_o2R⟩, ⟨#HIs_o2L, #HIr_o2L, #HIn_o2L⟩, ⟨#HIs_l2R, #HIr_l2R, #HIn_l2R⟩, ⟨#HIs_l2L, #HIr_l2L, #HIn_l2L⟩, ⟨#HIs_g0R, #HIr_g0R, #HIn_g0R⟩, ⟨#HIs_g0L, #HIr_g0L, #HIn_g0L⟩, ⟨#HIs_g1R, #HIr_g1R, #HIn_g1R⟩, ⟨#HIs_g1L, #HIr_g1L, #HIn_g1L⟩, ⟨#HIs_g2R, #HIr_g2R, #HIn_g2R⟩, ⟨#HIs_g2L, #HIr_g2L, #HIn_g2L⟩⟩, #HIbn, #HIbp⟩
  unfold segCProg
  simp only [k0_part27_eq_skeleton, k0_part28_eq_skeleton, k0_part29_eq_skeleton, k0_part30_eq_skeleton, k0_part31_eq_skeleton]
  unfold k0_part27_skel k0_part28_skel k0_part29_skel k0_part30_skel k0_part31_skel
  simp only [Prog.lift, Prog.bind_op, Prog.bind_ret, Prog.pure_eq_ret, Prog.bind_assoc]

  -- the wait on the send cell of the numerators' copy, hop 0, to the right
  iapply (wp_wait_send (KFun.V m) c .o false 0 (owedOf c (prog.drop 6)) _ _ (by rfl) rfl) $$ [Hcs_o0R HO Has_o0R]
  · isplitr; · iexact HIs_o0R
    isplitl [Hcs_o0R]; · iexact Hcs_o0R
    isplitl [HO]; · iexact HO
    isplitr
    · iapply (mayWait_below c (.dma (sendSem .o false 0)) (prog.drop 6) (by rw [show lv ((c : Thread nD τ), .dma (sendSem .o false 0)) () = place .o false 0 from lv_send c .o false 0]; decide))
      iexact Hlev
    iexact Has_o0R
  iintro ⟨HO, Hsrc_o0R, Hzs_o0R⟩

  -- the wait on the receive cell of the numerators' copy, hop 0, to the right
  iapply (wp_wait_recv (KFun.V m) c .o false 0 (owedOf c (prog.drop 6)) _ _ (by rfl) rfl) $$ [Hcr_o0R HO Har_o0R]
  · isplitr; · iexact HIr_o0R
    isplitl [Hcr_o0R]; · iexact Hcr_o0R
    isplitl [HO]; · iexact HO
    isplitr
    · iapply (mayWait_below c (.dma (recvSem .o false 0)) (prog.drop 6) (by rw [show lv ((c : Thread nD τ), .dma (recvSem .o false 0)) () = place .o false 0 from lv_recv c .o false 0]; decide))
      iexact Hlev
    iexact Har_o0R
  iintro ⟨HO, Hrcv_o0R, Hzr_o0R⟩

  -- the wait on the send cell of the denominators' copy, hop 0, to the right
  iapply (wp_wait_send (KFun.V m) c .l false 0 (owedOf c (prog.drop 6)) _ _ (by rfl) rfl) $$ [Hcs_l0R HO Has_l0R]
  · isplitr; · iexact HIs_l0R
    isplitl [Hcs_l0R]; · iexact Hcs_l0R
    isplitl [HO]; · iexact HO
    isplitr
    · iapply (mayWait_below c (.dma (sendSem .l false 0)) (prog.drop 6) (by rw [show lv ((c : Thread nD τ), .dma (sendSem .l false 0)) () = place .l false 0 from lv_send c .l false 0]; decide))
      iexact Hlev
    iexact Has_l0R
  iintro ⟨HO, Hsrc_l0R, Hzs_l0R⟩

  -- the wait on the receive cell of the denominators' copy, hop 0, to the right
  iapply (wp_wait_recv (KFun.V m) c .l false 0 (owedOf c (prog.drop 6)) _ _ (by rfl) rfl) $$ [Hcr_l0R HO Har_l0R]
  · isplitr; · iexact HIr_l0R
    isplitl [Hcr_l0R]; · iexact Hcr_l0R
    isplitl [HO]; · iexact HO
    isplitr
    · iapply (mayWait_below c (.dma (recvSem .l false 0)) (prog.drop 6) (by rw [show lv ((c : Thread nD τ), .dma (recvSem .l false 0)) () = place .l false 0 from lv_recv c .l false 0]; decide))
      iexact Hlev
    iexact Har_l0R
  iintro ⟨HO, Hrcv_l0R, Hzr_l0R⟩

  -- the first merge: the landing slices of hop 0, from the left neighbour, take block 3's heads 0 to 3
  simp only [recvPay, heldAs]
  icases Hrcv_o0R with ⟨%f8, H8, %hf8⟩
  icases Hrcv_l0R with ⟨%f9, H9, %hf9⟩
  have h6 := LoopsV.t4_arg6_within c
  have h7 := LoopsV.t4_arg7_within c
  have h8 := LoopsV.t4_arg8_within
  have h9 := LoopsV.t4_arg9_within
  sl_exec

  -- the wait on the send cell of the numerators' copy, hop 0, to the left
  iapply (wp_wait_send (KFun.V m) c .o true 0 (owedOf c (prog.drop 6)) _ _ (by rfl) rfl) $$ [Hcs_o0L HO Has_o0L]
  · isplitr; · iexact HIs_o0L
    isplitl [Hcs_o0L]; · iexact Hcs_o0L
    isplitl [HO]; · iexact HO
    isplitr
    · iapply (mayWait_below c (.dma (sendSem .o true 0)) (prog.drop 6) (by rw [show lv ((c : Thread nD τ), .dma (sendSem .o true 0)) () = place .o true 0 from lv_send c .o true 0]; decide))
      iexact Hlev
    iexact Has_o0L
  iintro ⟨HO, Hsrc_o0L, Hzs_o0L⟩

  -- the wait on the receive cell of the numerators' copy, hop 0, to the left
  iapply (wp_wait_recv (KFun.V m) c .o true 0 (owedOf c (prog.drop 6)) _ _ (by rfl) rfl) $$ [Hcr_o0L HO Har_o0L]
  · isplitr; · iexact HIr_o0L
    isplitl [Hcr_o0L]; · iexact Hcr_o0L
    isplitl [HO]; · iexact HO
    isplitr
    · iapply (mayWait_below c (.dma (recvSem .o true 0)) (prog.drop 6) (by rw [show lv ((c : Thread nD τ), .dma (recvSem .o true 0)) () = place .o true 0 from lv_recv c .o true 0]; decide))
      iexact Hlev
    iexact Har_o0L
  iintro ⟨HO, Hrcv_o0L, Hzr_o0L⟩

  -- the wait on the send cell of the denominators' copy, hop 0, to the left
  iapply (wp_wait_send (KFun.V m) c .l true 0 (owedOf c (prog.drop 6)) _ _ (by rfl) rfl) $$ [Hcs_l0L HO Has_l0L]
  · isplitr; · iexact HIs_l0L
    isplitl [Hcs_l0L]; · iexact Hcs_l0L
    isplitl [HO]; · iexact HO
    isplitr
    · iapply (mayWait_below c (.dma (sendSem .l true 0)) (prog.drop 6) (by rw [show lv ((c : Thread nD τ), .dma (sendSem .l true 0)) () = place .l true 0 from lv_send c .l true 0]; decide))
      iexact Hlev
    iexact Has_l0L
  iintro ⟨HO, Hsrc_l0L, Hzs_l0L⟩

  -- the wait on the receive cell of the denominators' copy, hop 0, to the left
  iapply (wp_wait_recv (KFun.V m) c .l true 0 (owedOf c (prog.drop 6)) _ _ (by rfl) rfl) $$ [Hcr_l0L HO Har_l0L]
  · isplitr; · iexact HIr_l0L
    isplitl [Hcr_l0L]; · iexact Hcr_l0L
    isplitl [HO]; · iexact HO
    isplitr
    · iapply (mayWait_below c (.dma (recvSem .l true 0)) (prog.drop 6) (by rw [show lv ((c : Thread nD τ), .dma (recvSem .l true 0)) () = place .l true 0 from lv_recv c .l true 0]; decide))
      iexact Hlev
    iexact Har_l0L
  iintro ⟨HO, Hrcv_l0L, Hzr_l0L⟩

  -- the second merge: the landing slices of hop 0, from the right neighbour, take block 3's heads 4 to 7
  simp only [recvPay, heldAs]
  icases Hrcv_o0L with ⟨%f8', H8', %hf8'⟩
  icases Hrcv_l0L with ⟨%f9', H9', %hf9'⟩
  have h6' := LoopsV.t5_arg6_within c
  have h7' := LoopsV.t5_arg7_within c
  have h8' := LoopsV.t5_arg8_within
  have h9' := LoopsV.t5_arg9_within
  sl_exec

  have hfs_o1R := hmO4 fO3 fL3 f8 f9 hrowsO hf8
  have hfs_l1R := hmL4 fO3 fL3 f8 f9 hrowsL hf9
  have hfs_o1L := fun w => hmO5 w fO3 fL3 f8' f9' hrowsO hf8'
  have hfs_l1L := fun w => hmL5 w fO3 fL3 f8' f9' hrowsL hf9'

  -- the numerators' copy of hop 1, to the right: the merged landing slice of hop 0 goes on
  iapply (wp_send_o (KFun.V m) c (⟨k0_dev7 c, k0_dev7_lt c⟩ : Dev nD) false 1 (dev7_eq c) _ hfs_o1R (prog.drop 7) _ _ _) $$ [H8 Hd_o1R HO Hts_o1R Htn_o1R]
  · isplitr; · iexact HIs_o1R
    isplitr; · iexact HIn_o1R
    isplitl [H8]; · iexact H8
    isplitl [Hd_o1R]; · iexact Hd_o1R
    isplitl [HO]; · iexact HO
    isplitl [Hts_o1R]; · iexact Hts_o1R
    isplitr; · iexact Hrs_o1R
    isplitl [Htn_o1R]; · iexact Htn_o1R
    iexact Hrn_o1R
  iintro ⟨Hcs_o1R, HO⟩

  -- the numerators' copy of hop 1, to the left: the merged landing slice of hop 0 goes on
  iapply (wp_send_o (KFun.V m) c (⟨k0_dev8 c, k0_dev8_lt c⟩ : Dev nD) true 1 (dev8_eq c) _ (hfs_o1L _) (prog.drop 8) _ _ _) $$ [H8' Hd_o1L HO Hts_o1L Htn_o1L]
  · isplitr; · iexact HIs_o1L
    isplitr; · iexact HIn_o1L
    isplitl [H8']; · iexact H8'
    isplitl [Hd_o1L]; · iexact Hd_o1L
    isplitl [HO]; · iexact HO
    isplitl [Hts_o1L]; · iexact Hts_o1L
    isplitr; · iexact Hrs_o1L
    isplitl [Htn_o1L]; · iexact Htn_o1L
    iexact Hrn_o1L
  iintro ⟨Hcs_o1L, HO⟩

  -- the denominators' copy of hop 1, to the right: the merged landing slice of hop 0 goes on
  iapply (wp_send_l (KFun.V m) c (⟨k0_dev9 c, k0_dev9_lt c⟩ : Dev nD) false 1 (dev9_eq c) _ hfs_l1R (prog.drop 9) _ _ _) $$ [H9 Hd_l1R HO Hts_l1R Htn_l1R]
  · isplitr; · iexact HIs_l1R
    isplitr; · iexact HIn_l1R
    isplitl [H9]; · iexact H9
    isplitl [Hd_l1R]; · iexact Hd_l1R
    isplitl [HO]; · iexact HO
    isplitl [Hts_l1R]; · iexact Hts_l1R
    isplitr; · iexact Hrs_l1R
    isplitl [Htn_l1R]; · iexact Htn_l1R
    iexact Hrn_l1R
  iintro ⟨Hcs_l1R, HO⟩

  -- the denominators' copy of hop 1, to the left: the merged landing slice of hop 0 goes on
  iapply (wp_send_l (KFun.V m) c (⟨k0_dev10 c, k0_dev10_lt c⟩ : Dev nD) true 1 (dev10_eq c) _ (hfs_l1L _) (prog.drop 10) _ _ _) $$ [H9' Hd_l1L HO Hts_l1L Htn_l1L]
  · isplitr; · iexact HIs_l1L
    isplitr; · iexact HIn_l1L
    isplitl [H9']; · iexact H9'
    isplitl [Hd_l1L]; · iexact Hd_l1L
    isplitl [HO]; · iexact HO
    isplitl [Hts_l1L]; · iexact Hts_l1L
    isplitr; · iexact Hrs_l1L
    isplitl [Htn_l1L]; · iexact Htn_l1L
    iexact Hrn_l1L
  iintro ⟨Hcs_l1L, HO⟩

  -- the state at the next cut
  rw [wp_ret]; imodintro
  iexists _
  unfold Post32 C27.closedX C27.sentX C27.blk3O C27.blk3L
  isplitr; · iexact Hinv
  isplitr; · iexact Hlev
  isplitl [HO]; · iexact HO
  isplitl [Hzs_o0R Hzr_o0R Hzs_l0R Hzr_l0R Hzs_o0L Hzr_o0L Hzs_l0L Hzr_l0L]
  · isplitl [Hzs_o0R Hzr_o0R]
    · isplitl [Hzs_o0R]; · iexact Hzs_o0R
      iexact Hzr_o0R
    isplitl [Hzs_l0R Hzr_l0R]
    · isplitl [Hzs_l0R]; · iexact Hzs_l0R
      iexact Hzr_l0R
    isplitl [Hzs_o0L Hzr_o0L]
    · isplitl [Hzs_o0L]; · iexact Hzs_o0L
      iexact Hzr_o0L
    isplitl [Hzs_l0L]; · iexact Hzs_l0L
    iexact Hzr_l0L
  isplitl [Has_o1R Har_o1R Hcs_o1R Hc_o1R Has_o1L Har_o1L Hcs_o1L Hc_o1L Has_l1R Har_l1R Hcs_l1R Hc_l1R Has_l1L Har_l1L Hcs_l1L Hc_l1L]
  · isplitl [Has_o1R Har_o1R Hcs_o1R Hc_o1R]
    · isplitl [Has_o1R]; · iexact Has_o1R
      isplitl [Har_o1R]; · iexact Har_o1R
      isplitl [Hcs_o1R]; · iexact Hcs_o1R
      iexact Hc_o1R
    isplitl [Has_o1L Har_o1L Hcs_o1L Hc_o1L]
    · isplitl [Has_o1L]; · iexact Has_o1L
      isplitl [Har_o1L]; · iexact Har_o1L
      isplitl [Hcs_o1L]; · iexact Hcs_o1L
      iexact Hc_o1L
    isplitl [Has_l1R Har_l1R Hcs_l1R Hc_l1R]
    · isplitl [Has_l1R]; · iexact Has_l1R
      isplitl [Har_l1R]; · iexact Har_l1R
      isplitl [Hcs_l1R]; · iexact Hcs_l1R
      iexact Hc_l1R
    · isplitl [Has_l1L]; · iexact Has_l1L
      isplitl [Har_l1L]; · iexact Har_l1L
      isplitl [Hcs_l1L]; · iexact Hcs_l1L
      iexact Hc_l1L
  isplitl [Hsrc_o0R Hsrc_l0R Hsrc_o0L Hsrc_l0L]
  · isplitl [Hsrc_o0R]; · iexact Hsrc_o0R
    isplitl [Hsrc_l0R]; · iexact Hsrc_l0R
    isplitl [Hsrc_o0L]; · iexact Hsrc_o0L
    iexact Hsrc_l0L
  isplitl [HhO3f HhO3t]
  · iexists fO3
    isplitl [HhO3f]; · iexact HhO3f
    isplitl [HhO3t]; · iexact HhO3t
    ipureintro; exact hrowsO
  isplitl [HhL3f HhL3t]
  · iexists fL3
    isplitl [HhL3f]; · iexact HhL3f
    isplitl [HhL3t]; · iexact HhL3t
    ipureintro; exact hrowsL
  iexact HR

end Cert.KernelIdeal.Proto
end
-- ==== Proof.LoopsVRead.lean ====
import proofs.«900754_g7700000000000755_dist_attn_cross_gqa_kvseq_b4_sq256_skv1024_d1024_hq8_dh128_v7x_i4_f32_1_alg».proof.Proof.LoopsV
import proofs.«900754_g7700000000000755_dist_attn_cross_gqa_kvseq_b4_sq256_skv1024_d1024_hq8_dh128_v7x_i4_f32_1_alg».proof.Proof.Ring
import Idealize.ShloMosaic.Lib.Pipeline.Value

set_option maxRecDepth 8192
set_option maxHeartbeats 1000000

noncomputable section

namespace Cert.KernelIdeal.LoopsV
open Cert.KernelIdeal Cert.KernelIdeal.Gen Cert.KernelIdeal.Ring Cert.KernelIdeal.Proto

open Idealize.ShloMosaic Idealize.ShloMosaic.TcCoe
open Idealize.SL.Sem

variable {F : FTy → Type} [FloatOps F]

/-- Which pieces the first m trips have laid down. -/
theorem family_mem {s : Shape} {e : EltTy} {Val : EltTy → Type} (n : ℕ) (piece : Fin n → View.Piece Val s e) (L : ℕ → List (View.Piece Val s e))
    (h0 : L 0 = []) (hs : ∀ k : Fin n, L (k.val + 1) = piece k :: L k.val) :
    ∀ m, m ≤ n → ∀ p, p ∈ L m → ∃ k : Fin n, k.val < m ∧ p = piece k := by
  intro m
  induction m with
  | zero =>
    intro _ p hp
    rw [h0] at hp
    exact absurd hp List.not_mem_nil
  | succ m ih =>
    intro hm p hp
    rw [hs ⟨m, hm⟩, List.mem_cons] at hp
    rcases hp with rfl | hp
    · exact ⟨⟨m, hm⟩, Nat.lt_succ_self m, rfl⟩
    · obtain ⟨k, hk, rfl⟩ := ih (Nat.le_of_succ_le hm) p hp
      exact ⟨k, Nat.lt_succ_of_lt hk, rfl⟩

/-- Pieces laid down one a trip, the last in front, their rectangles pairwise apart: through trip j's rectangle the
    written contents read trip j's payload, whatever was there before. -/
theorem read_writes_family {κ : Idealize.ShloMosaic.Kind} {sp : Space} {s : Shape} {e : EltTy} {Val : EltTy → Type}
    (v : View sig κ sp s e) (f : v.ty.Contents Val) (n : ℕ) (piece : Fin n → View.Piece Val s e) (L : ℕ → List (View.Piece Val s e))
    (h0 : L 0 = []) (hs : ∀ k : Fin n, L (k.val + 1) = piece k :: L k.val)
    (hsep : ∀ k k' : Fin n, k ≠ k' → Disjoint (piece k).1.set (piece k').1.set)
    (j : Fin n) (x : (piece j).1.shape.Idx) :
    v.read Val (v.writes Val f (L n)) ((piece j).1.emb x) = (piece j).2 x := by
  have hmem : ∀ m, m ≤ n → ∀ p, p ∈ L m ↔ ∃ k : Fin n, k.val < m ∧ p = piece k := by
    intro m
    induction m with
    | zero =>
      intro _ p
      rw [h0]
      exact ⟨fun h => absurd h List.not_mem_nil, fun ⟨k, hk, _⟩ => absurd hk (Nat.not_lt_zero _)⟩
    | succ m ih =>
      intro hm p
      rw [hs ⟨m, hm⟩, List.mem_cons, ih (Nat.le_of_succ_le hm)]
      constructor
      · rintro (rfl | ⟨k, hk, rfl⟩)
        · exact ⟨⟨m, hm⟩, Nat.lt_succ_self m, rfl⟩
        · exact ⟨k, Nat.lt_succ_of_lt hk, rfl⟩
      · rintro ⟨k, hk, rfl⟩
        rcases Nat.lt_succ_iff_lt_or_eq.mp hk with h | h
        · exact Or.inr ⟨k, h, rfl⟩
        · exact Or.inl (congrArg piece (Fin.ext h))
  refine View.read_writes_of_unique v f (piece j) x (L n) ((hmem n le_rfl _).mpr ⟨j, j.isLt, rfl⟩) fun q hq hx => ?_
  obtain ⟨k', _, rfl⟩ := (hmem n le_rfl q).mp hq
  by_contra hne
  have hk : j ≠ k' := fun h => hne (by rw [h])
  have hx0 : (piece j).1.emb x ∈ (piece j).1.set := by
    rw [← Rect.map_emb_univ]; exact Finset.mem_map_of_mem _ (Finset.mem_univ x)
  exact Finset.disjoint_left.mp (hsep j k' hk) hx0 hx

/-- What trip k stores into the partial numerators. -/
def payS_k0_t1_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t1_loop.trips) : (Rect.unit (s := S32x128x256) (k0_off13 d0 k) S1x128x256.size (k0_off13_inb d0 k)).shape.Idx → Elt F .bf16 :=
  (k0_pay38 (k0_pay5 (View.readAt (Elt F) arg15.view (Rect.unit (s := S2x8x1024x128) (k0_off12 d0 k) S1x1x1024x128.size (k0_off12_inb d0 k)).toLoadRect X_arg15)) (arg12.view.readCov [⟨Rect.unit (s := S1024x256) ![0, 0] S1024x256.size inb_S1024x256_S1024x256_0_0, (k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15))⟩] (Rect.unit (s := S1024x256) ![0, 0] S1024x256.size inb_S1024x256_S1024x256_0_0).toLoadRect))

theorem pbS_k0_t1_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 0 = ([], [], []) := rfl

/-- Trip k lays its piece in front of the earlier trips'. -/
theorem pbS_k0_t1_arg6_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t1_loop.trips) :
    (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 (k.val + 1)).1 = (⟨Rect.unit (s := S32x128x256) (k0_off13 d0 k) S1x128x256.size (k0_off13_inb d0 k), (payS_k0_t1_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k)⟩ : View.Piece (Elt F) S32x128x256 .bf16) :: (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).1 := by
  rw [pbS_k0_t1_succ, tripLS_k0_t1_eq]
  rfl

attribute [irreducible] payS_k0_t1_arg6

/-- The same, the exponentials read back being the ones just stored. -/
theorem payS_k0_t1_arg6_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t1_loop.trips) :
    payS_k0_t1_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k = (k0_pay38 (k0_pay5 (View.readAt (Elt F) arg15.view (Rect.unit (s := S2x8x1024x128) (k0_off12 d0 k) S1x1x1024x128.size (k0_off12_inb d0 k)).toLoadRect X_arg15)) ((k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))) := by
  unfold payS_k0_t1_arg6
  rw [View.readCov_cons_toLoadRect]

/-- Two trips' rectangles are apart. -/
theorem apart_k0_t1_arg6 (d0 : Dev nD) (k k' : Fin k0_t1_loop.trips) (hk : k ≠ k') : Disjoint (Rect.unit (s := S32x128x256) (k0_off13 d0 k) S1x128x256.size (k0_off13_inb d0 k)).set (Rect.unit (s := S32x128x256) (k0_off13 d0 k') S1x128x256.size (k0_off13_inb d0 k')).set := by
  refine Rect.unit_disjoint 0 ?_
  have hne : k.val ≠ k'.val := fun h => hk (Fin.ext h)
  have e := congrFun (k0_off13_eq d0 k) 0
  have e' := congrFun (k0_off13_eq d0 k') 0
  simp only [Matrix.cons_val_zero] at e e'
  have hs : S1x128x256.size 0 = 1 := rfl
  rw [e, e', hs]
  omega

/-- After the loop, through trip j's rectangle the memref reads what trip j stored there (no other trip touches it, and
    nothing of what it held before is read). -/
theorem readS_k0_t1_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t1_loop.trips) (x : (Rect.unit (s := S32x128x256) (k0_off13 d0 j) S1x128x256.size (k0_off13_inb d0 j)).shape.Idx) :
    locO.view.read (Elt F) (locO.view.writes (Elt F) G_arg6 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k0_t1_loop.trips).1) ((Rect.unit (s := S32x128x256) (k0_off13 d0 j) S1x128x256.size (k0_off13_inb d0 j)).emb x)
      = ((payS_k0_t1_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 j)) x :=
  read_writes_family locO.view G_arg6 k0_t1_loop.trips (fun k => (⟨Rect.unit (s := S32x128x256) (k0_off13 d0 k) S1x128x256.size (k0_off13_inb d0 k), (payS_k0_t1_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k)⟩ : View.Piece (Elt F) S32x128x256 .bf16)) (fun n => (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 n).1)
    (congrArg (fun t => t.1) (pbS_k0_t1_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12)) (pbS_k0_t1_arg6_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12) (fun k k' hk => apart_k0_t1_arg6 d0 k k' hk) j x

/-- Trip k lays its piece in front of the earlier trips'. -/
theorem pbS_k0_t1_arg7_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t1_loop.trips) :
    (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 (k.val + 1)).2.1 = (⟨Rect.unit (s := S32x1x256) (k0_off14 d0 k) S1x1x256.size (k0_off14_inb d0 k), (k0_pay39 (k0_pay7 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))⟩ : View.Piece (Elt F) S32x1x256 .f32) :: (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.1 := by
  rw [pbS_k0_t1_succ, tripLS_k0_t1_eq]
  rfl

/-- Two trips' rectangles are apart. -/
theorem apart_k0_t1_arg7 (d0 : Dev nD) (k k' : Fin k0_t1_loop.trips) (hk : k ≠ k') : Disjoint (Rect.unit (s := S32x1x256) (k0_off14 d0 k) S1x1x256.size (k0_off14_inb d0 k)).set (Rect.unit (s := S32x1x256) (k0_off14 d0 k') S1x1x256.size (k0_off14_inb d0 k')).set := by
  refine Rect.unit_disjoint 0 ?_
  have hne : k.val ≠ k'.val := fun h => hk (Fin.ext h)
  have e := congrFun (k0_off14_eq d0 k) 0
  have e' := congrFun (k0_off14_eq d0 k') 0
  simp only [Matrix.cons_val_zero] at e e'
  have hs : S1x1x256.size 0 = 1 := rfl
  rw [e, e', hs]
  omega

/-- After the loop, through trip j's rectangle the memref reads what trip j stored there (no other trip touches it, and
    nothing of what it held before is read). -/
theorem readS_k0_t1_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t1_loop.trips) (x : (Rect.unit (s := S32x1x256) (k0_off14 d0 j) S1x1x256.size (k0_off14_inb d0 j)).shape.Idx) :
    locL.view.read (Elt F) (locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k0_t1_loop.trips).2.1) ((Rect.unit (s := S32x1x256) (k0_off14 d0 j) S1x1x256.size (k0_off14_inb d0 j)).emb x)
      = ((k0_pay39 (k0_pay7 (View.readAt (Elt F) arg10.view (Rect.unit (s := S32x256x128) (k0_off10 d0 j) S1x256x128.size (k0_off10_inb d0 j)).toLoadRect X_arg10) (View.readAt (Elt F) arg15.view (Rect.unit (s := S2x8x1024x128) (k0_off11 d0 j) S1x1x1024x128.size (k0_off11_inb d0 j)).toLoadRect X_arg15)))) x :=
  read_writes_family locL.view G_arg7 k0_t1_loop.trips (fun k => (⟨Rect.unit (s := S32x1x256) (k0_off14 d0 k) S1x1x256.size (k0_off14_inb d0 k), (k0_pay39 (k0_pay7 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))⟩ : View.Piece (Elt F) S32x1x256 .f32)) (fun n => (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 n).2.1)
    (congrArg (fun t => t.2.1) (pbS_k0_t1_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12)) (pbS_k0_t1_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12) (fun k k' hk => apart_k0_t1_arg7 d0 k k' hk) j x

/-- Before trip j the earlier trips have not touched trip j's rectangle. -/
theorem before_k0_t1_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t1_loop.trips) :
    View.readAt (Elt F) locL.view (Rect.unit (s := S32x1x256) (k0_off14 d0 j) S1x1x256.size (k0_off14_inb d0 j)).toLoadRect (locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 j.val).2.1)
      = View.readAt (Elt F) locL.view (Rect.unit (s := S32x1x256) (k0_off14 d0 j) S1x1x256.size (k0_off14_inb d0 j)).toLoadRect G_arg7 :=
  View.readAt_writes_of_forall_not_mem locL.view G_arg7 _ _ fun y p hp hy => by
    obtain ⟨k, hkj, rfl⟩ := family_mem k0_t1_loop.trips (fun k => (⟨Rect.unit (s := S32x1x256) (k0_off14 d0 k) S1x1x256.size (k0_off14_inb d0 k), (k0_pay39 (k0_pay7 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))⟩ : View.Piece (Elt F) S32x1x256 .f32)) (fun n => (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 n).2.1)
      (congrArg (fun t => t.2.1) (pbS_k0_t1_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12)) (pbS_k0_t1_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12) j.val (Nat.le_of_lt j.isLt) p hp
    have hne : k ≠ j := fun h => by subst h; exact Nat.lt_irrefl _ hkj
    exact Finset.disjoint_left.mp (apart_k0_t1_arg7 d0 k j hne) hy ((Rect.unit (s := S32x1x256) (k0_off14 d0 j) S1x1x256.size (k0_off14_inb d0 j)).toLoadRect.idx_mem y)

/-- What trip k stores into the partial numerators. -/
def payS_k0_t2_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t2_loop.trips) : (Rect.unit (s := S32x128x256) (k0_off29 d0 k) S1x128x256.size (k0_off29_inb d0 k)).shape.Idx → Elt F .bf16 :=
  (k0_pay56 (k0_pay9 (View.readAt (Elt F) arg15.view (Rect.unit (s := S2x8x1024x128) (k0_off28 d0 k) S1x1x1024x128.size (k0_off28_inb d0 k)).toLoadRect X_arg15)) (arg12.view.readCov [⟨Rect.unit (s := S1024x256) ![0, 0] S1024x256.size inb_S1024x256_S1024x256_0_0, (k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15))⟩] (Rect.unit (s := S1024x256) ![0, 0] S1024x256.size inb_S1024x256_S1024x256_0_0).toLoadRect))

theorem pbS_k0_t2_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 0 = ([], [], []) := rfl

/-- Trip k lays its piece in front of the earlier trips'. -/
theorem pbS_k0_t2_arg6_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t2_loop.trips) :
    (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 (k.val + 1)).1 = (⟨Rect.unit (s := S32x128x256) (k0_off29 d0 k) S1x128x256.size (k0_off29_inb d0 k), (payS_k0_t2_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k)⟩ : View.Piece (Elt F) S32x128x256 .bf16) :: (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).1 := by
  rw [pbS_k0_t2_succ, tripLS_k0_t2_eq]
  rfl

attribute [irreducible] payS_k0_t2_arg6

/-- The same, the exponentials read back being the ones just stored. -/
theorem payS_k0_t2_arg6_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t2_loop.trips) :
    payS_k0_t2_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k = (k0_pay56 (k0_pay9 (View.readAt (Elt F) arg15.view (Rect.unit (s := S2x8x1024x128) (k0_off28 d0 k) S1x1x1024x128.size (k0_off28_inb d0 k)).toLoadRect X_arg15)) ((k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))) := by
  unfold payS_k0_t2_arg6
  rw [View.readCov_cons_toLoadRect]

/-- Two trips' rectangles are apart. -/
theorem apart_k0_t2_arg6 (d0 : Dev nD) (k k' : Fin k0_t2_loop.trips) (hk : k ≠ k') : Disjoint (Rect.unit (s := S32x128x256) (k0_off29 d0 k) S1x128x256.size (k0_off29_inb d0 k)).set (Rect.unit (s := S32x128x256) (k0_off29 d0 k') S1x128x256.size (k0_off29_inb d0 k')).set := by
  refine Rect.unit_disjoint 0 ?_
  have hne : k.val ≠ k'.val := fun h => hk (Fin.ext h)
  have e := congrFun (off29_eq d0 k) 0
  have e' := congrFun (off29_eq d0 k') 0
  simp only [Matrix.cons_val_zero] at e e'
  have hs : S1x128x256.size 0 = 1 := rfl
  rw [e, e', hs]
  omega

/-- After the loop, through trip j's rectangle the memref reads what trip j stored there (no other trip touches it, and
    nothing of what it held before is read). -/
theorem readS_k0_t2_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t2_loop.trips) (x : (Rect.unit (s := S32x128x256) (k0_off29 d0 j) S1x128x256.size (k0_off29_inb d0 j)).shape.Idx) :
    locO.view.read (Elt F) (locO.view.writes (Elt F) G_arg6 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k0_t2_loop.trips).1) ((Rect.unit (s := S32x128x256) (k0_off29 d0 j) S1x128x256.size (k0_off29_inb d0 j)).emb x)
      = ((payS_k0_t2_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 j)) x :=
  read_writes_family locO.view G_arg6 k0_t2_loop.trips (fun k => (⟨Rect.unit (s := S32x128x256) (k0_off29 d0 k) S1x128x256.size (k0_off29_inb d0 k), (payS_k0_t2_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k)⟩ : View.Piece (Elt F) S32x128x256 .bf16)) (fun n => (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 n).1)
    (congrArg (fun t => t.1) (pbS_k0_t2_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12)) (pbS_k0_t2_arg6_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12) (fun k k' hk => apart_k0_t2_arg6 d0 k k' hk) j x

/-- Trip k lays its piece in front of the earlier trips'. -/
theorem pbS_k0_t2_arg7_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t2_loop.trips) :
    (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 (k.val + 1)).2.1 = (⟨Rect.unit (s := S32x1x256) (k0_off30 d0 k) S1x1x256.size (k0_off30_inb d0 k), (k0_pay57 (k0_pay11 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))⟩ : View.Piece (Elt F) S32x1x256 .f32) :: (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.1 := by
  rw [pbS_k0_t2_succ, tripLS_k0_t2_eq]
  rfl

/-- Two trips' rectangles are apart. -/
theorem apart_k0_t2_arg7 (d0 : Dev nD) (k k' : Fin k0_t2_loop.trips) (hk : k ≠ k') : Disjoint (Rect.unit (s := S32x1x256) (k0_off30 d0 k) S1x1x256.size (k0_off30_inb d0 k)).set (Rect.unit (s := S32x1x256) (k0_off30 d0 k') S1x1x256.size (k0_off30_inb d0 k')).set := by
  refine Rect.unit_disjoint 0 ?_
  have hne : k.val ≠ k'.val := fun h => hk (Fin.ext h)
  have e := congrFun (off30_eq d0 k) 0
  have e' := congrFun (off30_eq d0 k') 0
  simp only [Matrix.cons_val_zero] at e e'
  have hs : S1x1x256.size 0 = 1 := rfl
  rw [e, e', hs]
  omega

/-- After the loop, through trip j's rectangle the memref reads what trip j stored there (no other trip touches it, and
    nothing of what it held before is read). -/
theorem readS_k0_t2_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t2_loop.trips) (x : (Rect.unit (s := S32x1x256) (k0_off30 d0 j) S1x1x256.size (k0_off30_inb d0 j)).shape.Idx) :
    locL.view.read (Elt F) (locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k0_t2_loop.trips).2.1) ((Rect.unit (s := S32x1x256) (k0_off30 d0 j) S1x1x256.size (k0_off30_inb d0 j)).emb x)
      = ((k0_pay57 (k0_pay11 (View.readAt (Elt F) arg10.view (Rect.unit (s := S32x256x128) (k0_off26 d0 j) S1x256x128.size (k0_off26_inb d0 j)).toLoadRect X_arg10) (View.readAt (Elt F) arg15.view (Rect.unit (s := S2x8x1024x128) (k0_off27 d0 j) S1x1x1024x128.size (k0_off27_inb d0 j)).toLoadRect X_arg15)))) x :=
  read_writes_family locL.view G_arg7 k0_t2_loop.trips (fun k => (⟨Rect.unit (s := S32x1x256) (k0_off30 d0 k) S1x1x256.size (k0_off30_inb d0 k), (k0_pay57 (k0_pay11 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))⟩ : View.Piece (Elt F) S32x1x256 .f32)) (fun n => (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 n).2.1)
    (congrArg (fun t => t.2.1) (pbS_k0_t2_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12)) (pbS_k0_t2_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12) (fun k k' hk => apart_k0_t2_arg7 d0 k k' hk) j x

/-- Before trip j the earlier trips have not touched trip j's rectangle. -/
theorem before_k0_t2_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t2_loop.trips) :
    View.readAt (Elt F) locL.view (Rect.unit (s := S32x1x256) (k0_off30 d0 j) S1x1x256.size (k0_off30_inb d0 j)).toLoadRect (locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 j.val).2.1)
      = View.readAt (Elt F) locL.view (Rect.unit (s := S32x1x256) (k0_off30 d0 j) S1x1x256.size (k0_off30_inb d0 j)).toLoadRect G_arg7 :=
  View.readAt_writes_of_forall_not_mem locL.view G_arg7 _ _ fun y p hp hy => by
    obtain ⟨k, hkj, rfl⟩ := family_mem k0_t2_loop.trips (fun k => (⟨Rect.unit (s := S32x1x256) (k0_off30 d0 k) S1x1x256.size (k0_off30_inb d0 k), (k0_pay57 (k0_pay11 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))⟩ : View.Piece (Elt F) S32x1x256 .f32)) (fun n => (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 n).2.1)
      (congrArg (fun t => t.2.1) (pbS_k0_t2_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12)) (pbS_k0_t2_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12) j.val (Nat.le_of_lt j.isLt) p hp
    have hne : k ≠ j := fun h => by subst h; exact Nat.lt_irrefl _ hkj
    exact Finset.disjoint_left.mp (apart_k0_t2_arg7 d0 k j hne) hy ((Rect.unit (s := S32x1x256) (k0_off30 d0 j) S1x1x256.size (k0_off30_inb d0 j)).toLoadRect.idx_mem y)

/-- What trip k stores into the partial numerators. -/
def payS_k0_t3_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t3_loop.trips) : (Rect.unit (s := S32x128x256) (k0_off36 d0 k) S1x128x256.size (k0_off36_inb d0 k)).shape.Idx → Elt F .bf16 :=
  (k0_pay73 (k0_pay13 (View.readAt (Elt F) arg15.view (Rect.unit (s := S2x8x1024x128) (k0_off35 d0 k) S1x1x1024x128.size (k0_off35_inb d0 k)).toLoadRect X_arg15)) (arg12.view.readCov [⟨Rect.unit (s := S1024x256) ![0, 0] S1024x256.size inb_S1024x256_S1024x256_0_0, (k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15))⟩] (Rect.unit (s := S1024x256) ![0, 0] S1024x256.size inb_S1024x256_S1024x256_0_0).toLoadRect))

theorem pbS_k0_t3_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 0 = ([], [], []) := rfl

/-- Trip k lays its piece in front of the earlier trips'. -/
theorem pbS_k0_t3_arg6_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t3_loop.trips) :
    (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 (k.val + 1)).1 = (⟨Rect.unit (s := S32x128x256) (k0_off36 d0 k) S1x128x256.size (k0_off36_inb d0 k), (payS_k0_t3_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k)⟩ : View.Piece (Elt F) S32x128x256 .bf16) :: (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).1 := by
  rw [pbS_k0_t3_succ, tripLS_k0_t3_eq]
  rfl

attribute [irreducible] payS_k0_t3_arg6

/-- The same, the exponentials read back being the ones just stored. -/
theorem payS_k0_t3_arg6_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t3_loop.trips) :
    payS_k0_t3_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k = (k0_pay73 (k0_pay13 (View.readAt (Elt F) arg15.view (Rect.unit (s := S2x8x1024x128) (k0_off35 d0 k) S1x1x1024x128.size (k0_off35_inb d0 k)).toLoadRect X_arg15)) ((k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))) := by
  unfold payS_k0_t3_arg6
  rw [View.readCov_cons_toLoadRect]

/-- Two trips' rectangles are apart. -/
theorem apart_k0_t3_arg6 (d0 : Dev nD) (k k' : Fin k0_t3_loop.trips) (hk : k ≠ k') : Disjoint (Rect.unit (s := S32x128x256) (k0_off36 d0 k) S1x128x256.size (k0_off36_inb d0 k)).set (Rect.unit (s := S32x128x256) (k0_off36 d0 k') S1x128x256.size (k0_off36_inb d0 k')).set := by
  refine Rect.unit_disjoint 0 ?_
  have hne : k.val ≠ k'.val := fun h => hk (Fin.ext h)
  have e := congrFun (off36_eq d0 k) 0
  have e' := congrFun (off36_eq d0 k') 0
  simp only [Matrix.cons_val_zero] at e e'
  have hs : S1x128x256.size 0 = 1 := rfl
  rw [e, e', hs]
  omega

/-- After the loop, through trip j's rectangle the memref reads what trip j stored there (no other trip touches it, and
    nothing of what it held before is read). -/
theorem readS_k0_t3_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t3_loop.trips) (x : (Rect.unit (s := S32x128x256) (k0_off36 d0 j) S1x128x256.size (k0_off36_inb d0 j)).shape.Idx) :
    locO.view.read (Elt F) (locO.view.writes (Elt F) G_arg6 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k0_t3_loop.trips).1) ((Rect.unit (s := S32x128x256) (k0_off36 d0 j) S1x128x256.size (k0_off36_inb d0 j)).emb x)
      = ((payS_k0_t3_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 j)) x :=
  read_writes_family locO.view G_arg6 k0_t3_loop.trips (fun k => (⟨Rect.unit (s := S32x128x256) (k0_off36 d0 k) S1x128x256.size (k0_off36_inb d0 k), (payS_k0_t3_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k)⟩ : View.Piece (Elt F) S32x128x256 .bf16)) (fun n => (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 n).1)
    (congrArg (fun t => t.1) (pbS_k0_t3_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12)) (pbS_k0_t3_arg6_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12) (fun k k' hk => apart_k0_t3_arg6 d0 k k' hk) j x

/-- Trip k lays its piece in front of the earlier trips'. -/
theorem pbS_k0_t3_arg7_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t3_loop.trips) :
    (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 (k.val + 1)).2.1 = (⟨Rect.unit (s := S32x1x256) (k0_off37 d0 k) S1x1x256.size (k0_off37_inb d0 k), (k0_pay74 (k0_pay15 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))⟩ : View.Piece (Elt F) S32x1x256 .f32) :: (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.1 := by
  rw [pbS_k0_t3_succ, tripLS_k0_t3_eq]
  rfl

/-- Two trips' rectangles are apart. -/
theorem apart_k0_t3_arg7 (d0 : Dev nD) (k k' : Fin k0_t3_loop.trips) (hk : k ≠ k') : Disjoint (Rect.unit (s := S32x1x256) (k0_off37 d0 k) S1x1x256.size (k0_off37_inb d0 k)).set (Rect.unit (s := S32x1x256) (k0_off37 d0 k') S1x1x256.size (k0_off37_inb d0 k')).set := by
  refine Rect.unit_disjoint 0 ?_
  have hne : k.val ≠ k'.val := fun h => hk (Fin.ext h)
  have e := congrFun (off37_eq d0 k) 0
  have e' := congrFun (off37_eq d0 k') 0
  simp only [Matrix.cons_val_zero] at e e'
  have hs : S1x1x256.size 0 = 1 := rfl
  rw [e, e', hs]
  omega

/-- After the loop, through trip j's rectangle the memref reads what trip j stored there (no other trip touches it, and
    nothing of what it held before is read). -/
theorem readS_k0_t3_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t3_loop.trips) (x : (Rect.unit (s := S32x1x256) (k0_off37 d0 j) S1x1x256.size (k0_off37_inb d0 j)).shape.Idx) :
    locL.view.read (Elt F) (locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k0_t3_loop.trips).2.1) ((Rect.unit (s := S32x1x256) (k0_off37 d0 j) S1x1x256.size (k0_off37_inb d0 j)).emb x)
      = ((k0_pay74 (k0_pay15 (View.readAt (Elt F) arg10.view (Rect.unit (s := S32x256x128) (k0_off33 d0 j) S1x256x128.size (k0_off33_inb d0 j)).toLoadRect X_arg10) (View.readAt (Elt F) arg15.view (Rect.unit (s := S2x8x1024x128) (k0_off34 d0 j) S1x1x1024x128.size (k0_off34_inb d0 j)).toLoadRect X_arg15)))) x :=
  read_writes_family locL.view G_arg7 k0_t3_loop.trips (fun k => (⟨Rect.unit (s := S32x1x256) (k0_off37 d0 k) S1x1x256.size (k0_off37_inb d0 k), (k0_pay74 (k0_pay15 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))⟩ : View.Piece (Elt F) S32x1x256 .f32)) (fun n => (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 n).2.1)
    (congrArg (fun t => t.2.1) (pbS_k0_t3_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12)) (pbS_k0_t3_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12) (fun k k' hk => apart_k0_t3_arg7 d0 k k' hk) j x

/-- Before trip j the earlier trips have not touched trip j's rectangle. -/
theorem before_k0_t3_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t3_loop.trips) :
    View.readAt (Elt F) locL.view (Rect.unit (s := S32x1x256) (k0_off37 d0 j) S1x1x256.size (k0_off37_inb d0 j)).toLoadRect (locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 j.val).2.1)
      = View.readAt (Elt F) locL.view (Rect.unit (s := S32x1x256) (k0_off37 d0 j) S1x1x256.size (k0_off37_inb d0 j)).toLoadRect G_arg7 :=
  View.readAt_writes_of_forall_not_mem locL.view G_arg7 _ _ fun y p hp hy => by
    obtain ⟨k, hkj, rfl⟩ := family_mem k0_t3_loop.trips (fun k => (⟨Rect.unit (s := S32x1x256) (k0_off37 d0 k) S1x1x256.size (k0_off37_inb d0 k), (k0_pay74 (k0_pay15 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))⟩ : View.Piece (Elt F) S32x1x256 .f32)) (fun n => (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 n).2.1)
      (congrArg (fun t => t.2.1) (pbS_k0_t3_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12)) (pbS_k0_t3_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12) j.val (Nat.le_of_lt j.isLt) p hp
    have hne : k ≠ j := fun h => by subst h; exact Nat.lt_irrefl _ hkj
    exact Finset.disjoint_left.mp (apart_k0_t3_arg7 d0 k j hne) hy ((Rect.unit (s := S32x1x256) (k0_off37 d0 j) S1x1x256.size (k0_off37_inb d0 j)).toLoadRect.idx_mem y)

/-- What trip k stores into the partial numerators. -/
def payS_k0_t6_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t6_loop.trips) : (Rect.unit (s := S32x128x256) (k0_off49 d0 k) S1x128x256.size (k0_off49_inb d0 k)).shape.Idx → Elt F .bf16 :=
  (k0_pay94 (k0_pay17 (View.readAt (Elt F) arg15.view (Rect.unit (s := S2x8x1024x128) (k0_off48 d0 k) S1x1x1024x128.size (k0_off48_inb d0 k)).toLoadRect X_arg15)) (arg12.view.readCov [⟨Rect.unit (s := S1024x256) ![0, 0] S1024x256.size inb_S1024x256_S1024x256_0_0, (k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15))⟩] (Rect.unit (s := S1024x256) ![0, 0] S1024x256.size inb_S1024x256_S1024x256_0_0).toLoadRect))

theorem pbS_k0_t6_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 0 = ([], [], []) := rfl

/-- Trip k lays its piece in front of the earlier trips'. -/
theorem pbS_k0_t6_arg6_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t6_loop.trips) :
    (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 (k.val + 1)).1 = (⟨Rect.unit (s := S32x128x256) (k0_off49 d0 k) S1x128x256.size (k0_off49_inb d0 k), (payS_k0_t6_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k)⟩ : View.Piece (Elt F) S32x128x256 .bf16) :: (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).1 := by
  rw [pbS_k0_t6_succ, tripLS_k0_t6_eq]
  rfl

attribute [irreducible] payS_k0_t6_arg6

/-- The same, the exponentials read back being the ones just stored. -/
theorem payS_k0_t6_arg6_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t6_loop.trips) :
    payS_k0_t6_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k = (k0_pay94 (k0_pay17 (View.readAt (Elt F) arg15.view (Rect.unit (s := S2x8x1024x128) (k0_off48 d0 k) S1x1x1024x128.size (k0_off48_inb d0 k)).toLoadRect X_arg15)) ((k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))) := by
  unfold payS_k0_t6_arg6
  rw [View.readCov_cons_toLoadRect]

/-- Two trips' rectangles are apart. -/
theorem apart_k0_t6_arg6 (d0 : Dev nD) (k k' : Fin k0_t6_loop.trips) (hk : k ≠ k') : Disjoint (Rect.unit (s := S32x128x256) (k0_off49 d0 k) S1x128x256.size (k0_off49_inb d0 k)).set (Rect.unit (s := S32x128x256) (k0_off49 d0 k') S1x128x256.size (k0_off49_inb d0 k')).set := by
  refine Rect.unit_disjoint 0 ?_
  have hne : k.val ≠ k'.val := fun h => hk (Fin.ext h)
  have e := congrFun (off49_eq d0 k) 0
  have e' := congrFun (off49_eq d0 k') 0
  simp only [Matrix.cons_val_zero] at e e'
  have hs : S1x128x256.size 0 = 1 := rfl
  rw [e, e', hs]
  omega

/-- After the loop, through trip j's rectangle the memref reads what trip j stored there (no other trip touches it, and
    nothing of what it held before is read). -/
theorem readS_k0_t6_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t6_loop.trips) (x : (Rect.unit (s := S32x128x256) (k0_off49 d0 j) S1x128x256.size (k0_off49_inb d0 j)).shape.Idx) :
    locO.view.read (Elt F) (locO.view.writes (Elt F) G_arg6 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k0_t6_loop.trips).1) ((Rect.unit (s := S32x128x256) (k0_off49 d0 j) S1x128x256.size (k0_off49_inb d0 j)).emb x)
      = ((payS_k0_t6_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 j)) x :=
  read_writes_family locO.view G_arg6 k0_t6_loop.trips (fun k => (⟨Rect.unit (s := S32x128x256) (k0_off49 d0 k) S1x128x256.size (k0_off49_inb d0 k), (payS_k0_t6_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k)⟩ : View.Piece (Elt F) S32x128x256 .bf16)) (fun n => (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 n).1)
    (congrArg (fun t => t.1) (pbS_k0_t6_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12)) (pbS_k0_t6_arg6_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12) (fun k k' hk => apart_k0_t6_arg6 d0 k k' hk) j x

/-- Trip k lays its piece in front of the earlier trips'. -/
theorem pbS_k0_t6_arg7_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t6_loop.trips) :
    (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 (k.val + 1)).2.1 = (⟨Rect.unit (s := S32x1x256) (k0_off50 d0 k) S1x1x256.size (k0_off50_inb d0 k), (k0_pay95 (k0_pay19 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))⟩ : View.Piece (Elt F) S32x1x256 .f32) :: (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.1 := by
  rw [pbS_k0_t6_succ, tripLS_k0_t6_eq]
  rfl

/-- Two trips' rectangles are apart. -/
theorem apart_k0_t6_arg7 (d0 : Dev nD) (k k' : Fin k0_t6_loop.trips) (hk : k ≠ k') : Disjoint (Rect.unit (s := S32x1x256) (k0_off50 d0 k) S1x1x256.size (k0_off50_inb d0 k)).set (Rect.unit (s := S32x1x256) (k0_off50 d0 k') S1x1x256.size (k0_off50_inb d0 k')).set := by
  refine Rect.unit_disjoint 0 ?_
  have hne : k.val ≠ k'.val := fun h => hk (Fin.ext h)
  have e := congrFun (off50_eq d0 k) 0
  have e' := congrFun (off50_eq d0 k') 0
  simp only [Matrix.cons_val_zero] at e e'
  have hs : S1x1x256.size 0 = 1 := rfl
  rw [e, e', hs]
  omega

/-- After the loop, through trip j's rectangle the memref reads what trip j stored there (no other trip touches it, and
    nothing of what it held before is read). -/
theorem readS_k0_t6_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t6_loop.trips) (x : (Rect.unit (s := S32x1x256) (k0_off50 d0 j) S1x1x256.size (k0_off50_inb d0 j)).shape.Idx) :
    locL.view.read (Elt F) (locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k0_t6_loop.trips).2.1) ((Rect.unit (s := S32x1x256) (k0_off50 d0 j) S1x1x256.size (k0_off50_inb d0 j)).emb x)
      = ((k0_pay95 (k0_pay19 (View.readAt (Elt F) arg10.view (Rect.unit (s := S32x256x128) (k0_off46 d0 j) S1x256x128.size (k0_off46_inb d0 j)).toLoadRect X_arg10) (View.readAt (Elt F) arg15.view (Rect.unit (s := S2x8x1024x128) (k0_off47 d0 j) S1x1x1024x128.size (k0_off47_inb d0 j)).toLoadRect X_arg15)))) x :=
  read_writes_family locL.view G_arg7 k0_t6_loop.trips (fun k => (⟨Rect.unit (s := S32x1x256) (k0_off50 d0 k) S1x1x256.size (k0_off50_inb d0 k), (k0_pay95 (k0_pay19 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))⟩ : View.Piece (Elt F) S32x1x256 .f32)) (fun n => (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 n).2.1)
    (congrArg (fun t => t.2.1) (pbS_k0_t6_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12)) (pbS_k0_t6_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12) (fun k k' hk => apart_k0_t6_arg7 d0 k k' hk) j x

/-- Before trip j the earlier trips have not touched trip j's rectangle. -/
theorem before_k0_t6_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t6_loop.trips) :
    View.readAt (Elt F) locL.view (Rect.unit (s := S32x1x256) (k0_off50 d0 j) S1x1x256.size (k0_off50_inb d0 j)).toLoadRect (locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 j.val).2.1)
      = View.readAt (Elt F) locL.view (Rect.unit (s := S32x1x256) (k0_off50 d0 j) S1x1x256.size (k0_off50_inb d0 j)).toLoadRect G_arg7 :=
  View.readAt_writes_of_forall_not_mem locL.view G_arg7 _ _ fun y p hp hy => by
    obtain ⟨k, hkj, rfl⟩ := family_mem k0_t6_loop.trips (fun k => (⟨Rect.unit (s := S32x1x256) (k0_off50 d0 k) S1x1x256.size (k0_off50_inb d0 k), (k0_pay95 (k0_pay19 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))⟩ : View.Piece (Elt F) S32x1x256 .f32)) (fun n => (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 n).2.1)
      (congrArg (fun t => t.2.1) (pbS_k0_t6_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12)) (pbS_k0_t6_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12) j.val (Nat.le_of_lt j.isLt) p hp
    have hne : k ≠ j := fun h => by subst h; exact Nat.lt_irrefl _ hkj
    exact Finset.disjoint_left.mp (apart_k0_t6_arg7 d0 k j hne) hy ((Rect.unit (s := S32x1x256) (k0_off50 d0 j) S1x1x256.size (k0_off50_inb d0 j)).toLoadRect.idx_mem y)

theorem pbS_k0_t4_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 0 = ([], []) := rfl

/-- Trip k lays its piece in front of the earlier trips'. -/
theorem pbS_k0_t4_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t4_loop.trips) :
    (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 (k.val + 1)).1 = (⟨Rect.unit (s := S3x8x128x256) (k0_off40 k) S1x1x128x256.size (k0_off40_inb k), (k0_pay76 (View.readAt (Elt F) rsO.view (Rect.unit (s := S3x8x128x256) (k0_off40 k) S1x1x128x256.size (k0_off40_inb k)).toLoadRect (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1)) (View.readAt (Elt F) locO.view (Rect.unit (s := S32x128x256) (k0_off41 d0 k) S1x128x256.size (k0_off41_inb d0 k)).toLoadRect X_arg6))⟩ : View.Piece (Elt F) S3x8x128x256 .bf16) :: (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1 := by
  rw [pbS_k0_t4_succ, tripLS_k0_t4_eq]
  rfl

/-- Two trips' rectangles are apart. -/
theorem apart_k0_t4_arg8 (k k' : Fin k0_t4_loop.trips) (hk : k ≠ k') : Disjoint (Rect.unit (s := S3x8x128x256) (k0_off40 k) S1x1x128x256.size (k0_off40_inb k)).set (Rect.unit (s := S3x8x128x256) (k0_off40 k') S1x1x128x256.size (k0_off40_inb k')).set := by
  refine Rect.unit_disjoint 1 ?_
  have hne : k.val ≠ k'.val := fun h => hk (Fin.ext h)
  have e := congrFun (k0_off40_eq k) 1
  have e' := congrFun (k0_off40_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t4_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t4_loop.trips) (x : (Rect.unit (s := S3x8x128x256) (k0_off40 j) S1x1x128x256.size (k0_off40_inb j)).shape.Idx) :
    rsO.view.read (Elt F) (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k0_t4_loop.trips).1) ((Rect.unit (s := S3x8x128x256) (k0_off40 j) S1x1x128x256.size (k0_off40_inb j)).emb x)
      = ((k0_pay76 (View.readAt (Elt F) rsO.view (Rect.unit (s := S3x8x128x256) (k0_off40 j) S1x1x128x256.size (k0_off40_inb j)).toLoadRect (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 j.val).1)) (View.readAt (Elt F) locO.view (Rect.unit (s := S32x128x256) (k0_off41 d0 j) S1x128x256.size (k0_off41_inb d0 j)).toLoadRect X_arg6))) x :=
  read_writes_family rsO.view G_arg8 k0_t4_loop.trips (fun k => (⟨Rect.unit (s := S3x8x128x256) (k0_off40 k) S1x1x128x256.size (k0_off40_inb k), (k0_pay76 (View.readAt (Elt F) rsO.view (Rect.unit (s := S3x8x128x256) (k0_off40 k) S1x1x128x256.size (k0_off40_inb k)).toLoadRect (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1)) (View.readAt (Elt F) locO.view (Rect.unit (s := S32x128x256) (k0_off41 d0 k) S1x128x256.size (k0_off41_inb d0 k)).toLoadRect X_arg6))⟩ : View.Piece (Elt F) S3x8x128x256 .bf16)) (fun n => (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 n).1)
    (congrArg (fun t => t.1) (pbS_k0_t4_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9)) (pbS_k0_t4_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9) (fun k k' hk => apart_k0_t4_arg8 k k' hk) j x

/-- Before trip j the earlier trips have not touched trip j's rectangle. -/
theorem before_k0_t4_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t4_loop.trips) :
    View.readAt (Elt F) rsO.view (Rect.unit (s := S3x8x128x256) (k0_off40 j) S1x1x128x256.size (k0_off40_inb j)).toLoadRect (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 j.val).1)
      = View.readAt (Elt F) rsO.view (Rect.unit (s := S3x8x128x256) (k0_off40 j) S1x1x128x256.size (k0_off40_inb j)).toLoadRect G_arg8 :=
  View.readAt_writes_of_forall_not_mem rsO.view G_arg8 _ _ fun y p hp hy => by
    obtain ⟨k, hkj, rfl⟩ := family_mem k0_t4_loop.trips (fun k => (⟨Rect.unit (s := S3x8x128x256) (k0_off40 k) S1x1x128x256.size (k0_off40_inb k), (k0_pay76 (View.readAt (Elt F) rsO.view (Rect.unit (s := S3x8x128x256) (k0_off40 k) S1x1x128x256.size (k0_off40_inb k)).toLoadRect (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1)) (View.readAt (Elt F) locO.view (Rect.unit (s := S32x128x256) (k0_off41 d0 k) S1x128x256.size (k0_off41_inb d0 k)).toLoadRect X_arg6))⟩ : View.Piece (Elt F) S3x8x128x256 .bf16)) (fun n => (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 n).1)
      (congrArg (fun t => t.1) (pbS_k0_t4_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9)) (pbS_k0_t4_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t4_arg8 k j hne) hy ((Rect.unit (s := S3x8x128x256) (k0_off40 j) S1x1x128x256.size (k0_off40_inb j)).toLoadRect.idx_mem y)

/-- Trip k lays its piece in front of the earlier trips'. -/
theorem pbS_k0_t4_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t4_loop.trips) :
    (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 (k.val + 1)).2 = (⟨Rect.unit (s := S3x8x1x256) (k0_off38 k) S1x1x1x256.size (k0_off38_inb k), (k0_pay75 (View.readAt (Elt F) rsL.view (Rect.unit (s := S3x8x1x256) (k0_off38 k) S1x1x1x256.size (k0_off38_inb k)).toLoadRect (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2)) (View.readAt (Elt F) locL.view (Rect.unit (s := S32x1x256) (k0_off39 d0 k) S1x1x256.size (k0_off39_inb d0 k)).toLoadRect X_arg7))⟩ : View.Piece (Elt F) S3x8x1x256 .f32) :: (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2 := by
  rw [pbS_k0_t4_succ, tripLS_k0_t4_eq]
  rfl

/-- Two trips' rectangles are apart. -/
theorem apart_k0_t4_arg9 (k k' : Fin k0_t4_loop.trips) (hk : k ≠ k') : Disjoint (Rect.unit (s := S3x8x1x256) (k0_off38 k) S1x1x1x256.size (k0_off38_inb k)).set (Rect.unit (s := S3x8x1x256) (k0_off38 k') S1x1x1x256.size (k0_off38_inb k')).set := by
  refine Rect.unit_disjoint 1 ?_
  have hne : k.val ≠ k'.val := fun h => hk (Fin.ext h)
  have e := congrFun (k0_off38_eq k) 1
  have e' := congrFun (k0_off38_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t4_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t4_loop.trips) (x : (Rect.unit (s := S3x8x1x256) (k0_off38 j) S1x1x1x256.size (k0_off38_inb j)).shape.Idx) :
    rsL.view.read (Elt F) (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k0_t4_loop.trips).2) ((Rect.unit (s := S3x8x1x256) (k0_off38 j) S1x1x1x256.size (k0_off38_inb j)).emb x)
      = ((k0_pay75 (View.readAt (Elt F) rsL.view (Rect.unit (s := S3x8x1x256) (k0_off38 j) S1x1x1x256.size (k0_off38_inb j)).toLoadRect (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 j.val).2)) (View.readAt (Elt F) locL.view (Rect.unit (s := S32x1x256) (k0_off39 d0 j) S1x1x256.size (k0_off39_inb d0 j)).toLoadRect X_arg7))) x :=
  read_writes_family rsL.view G_arg9 k0_t4_loop.trips (fun k => (⟨Rect.unit (s := S3x8x1x256) (k0_off38 k) S1x1x1x256.size (k0_off38_inb k), (k0_pay75 (View.readAt (Elt F) rsL.view (Rect.unit (s := S3x8x1x256) (k0_off38 k) S1x1x1x256.size (k0_off38_inb k)).toLoadRect (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2)) (View.readAt (Elt F) locL.view (Rect.unit (s := S32x1x256) (k0_off39 d0 k) S1x1x256.size (k0_off39_inb d0 k)).toLoadRect X_arg7))⟩ : View.Piece (Elt F) S3x8x1x256 .f32)) (fun n => (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 n).2)
    (congrArg (fun t => t.2) (pbS_k0_t4_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9)) (pbS_k0_t4_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9) (fun k k' hk => apart_k0_t4_arg9 k k' hk) j x

/-- Before trip j the earlier trips have not touched trip j's rectangle. -/
theorem before_k0_t4_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t4_loop.trips) :
    View.readAt (Elt F) rsL.view (Rect.unit (s := S3x8x1x256) (k0_off38 j) S1x1x1x256.size (k0_off38_inb j)).toLoadRect (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 j.val).2)
      = View.readAt (Elt F) rsL.view (Rect.unit (s := S3x8x1x256) (k0_off38 j) S1x1x1x256.size (k0_off38_inb j)).toLoadRect G_arg9 :=
  View.readAt_writes_of_forall_not_mem rsL.view G_arg9 _ _ fun y p hp hy => by
    obtain ⟨k, hkj, rfl⟩ := family_mem k0_t4_loop.trips (fun k => (⟨Rect.unit (s := S3x8x1x256) (k0_off38 k) S1x1x1x256.size (k0_off38_inb k), (k0_pay75 (View.readAt (Elt F) rsL.view (Rect.unit (s := S3x8x1x256) (k0_off38 k) S1x1x1x256.size (k0_off38_inb k)).toLoadRect (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2)) (View.readAt (Elt F) locL.view (Rect.unit (s := S32x1x256) (k0_off39 d0 k) S1x1x256.size (k0_off39_inb d0 k)).toLoadRect X_arg7))⟩ : View.Piece (Elt F) S3x8x1x256 .f32)) (fun n => (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 n).2)
      (congrArg (fun t => t.2) (pbS_k0_t4_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9)) (pbS_k0_t4_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t4_arg9 k j hne) hy ((Rect.unit (s := S3x8x1x256) (k0_off38 j) S1x1x1x256.size (k0_off38_inb j)).toLoadRect.idx_mem y)

theorem pbS_k0_t5_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 0 = ([], []) := rfl

/-- Trip k lays its piece in front of the earlier trips'. -/
theorem pbS_k0_t5_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t5_loop.trips) :
    (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 (k.val + 1)).1 = (⟨Rect.unit (s := S3x8x128x256) (k0_off44 k) S1x1x128x256.size (k0_off44_inb k), (k0_pay78 (View.readAt (Elt F) rsO.view (Rect.unit (s := S3x8x128x256) (k0_off44 k) S1x1x128x256.size (k0_off44_inb k)).toLoadRect (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1)) (View.readAt (Elt F) locO.view (Rect.unit (s := S32x128x256) (k0_off45 d0 k) S1x128x256.size (k0_off45_inb d0 k)).toLoadRect X_arg6))⟩ : View.Piece (Elt F) S3x8x128x256 .bf16) :: (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1 := by
  rw [pbS_k0_t5_succ, tripLS_k0_t5_eq]
  rfl

/-- Two trips' rectangles are apart. -/
theorem apart_k0_t5_arg8 (k k' : Fin k0_t5_loop.trips) (hk : k ≠ k') : Disjoint (Rect.unit (s := S3x8x128x256) (k0_off44 k) S1x1x128x256.size (k0_off44_inb k)).set (Rect.unit (s := S3x8x128x256) (k0_off44 k') S1x1x128x256.size (k0_off44_inb k')).set := by
  refine Rect.unit_disjoint 1 ?_
  have hne : k.val ≠ k'.val := fun h => hk (Fin.ext h)
  have e := congrFun (k0_off44_eq k) 1
  have e' := congrFun (k0_off44_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t5_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t5_loop.trips) (x : (Rect.unit (s := S3x8x128x256) (k0_off44 j) S1x1x128x256.size (k0_off44_inb j)).shape.Idx) :
    rsO.view.read (Elt F) (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k0_t5_loop.trips).1) ((Rect.unit (s := S3x8x128x256) (k0_off44 j) S1x1x128x256.size (k0_off44_inb j)).emb x)
      = ((k0_pay78 (View.readAt (Elt F) rsO.view (Rect.unit (s := S3x8x128x256) (k0_off44 j) S1x1x128x256.size (k0_off44_inb j)).toLoadRect (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 j.val).1)) (View.readAt (Elt F) locO.view (Rect.unit (s := S32x128x256) (k0_off45 d0 j) S1x128x256.size (k0_off45_inb d0 j)).toLoadRect X_arg6))) x :=
  read_writes_family rsO.view G_arg8 k0_t5_loop.trips (fun k => (⟨Rect.unit (s := S3x8x128x256) (k0_off44 k) S1x1x128x256.size (k0_off44_inb k), (k0_pay78 (View.readAt (Elt F) rsO.view (Rect.unit (s := S3x8x128x256) (k0_off44 k) S1x1x128x256.size (k0_off44_inb k)).toLoadRect (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1)) (View.readAt (Elt F) locO.view (Rect.unit (s := S32x128x256) (k0_off45 d0 k) S1x128x256.size (k0_off45_inb d0 k)).toLoadRect X_arg6))⟩ : View.Piece (Elt F) S3x8x128x256 .bf16)) (fun n => (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 n).1)
    (congrArg (fun t => t.1) (pbS_k0_t5_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9)) (pbS_k0_t5_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9) (fun k k' hk => apart_k0_t5_arg8 k k' hk) j x

/-- Before trip j the earlier trips have not touched trip j's rectangle. -/
theorem before_k0_t5_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t5_loop.trips) :
    View.readAt (Elt F) rsO.view (Rect.unit (s := S3x8x128x256) (k0_off44 j) S1x1x128x256.size (k0_off44_inb j)).toLoadRect (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 j.val).1)
      = View.readAt (Elt F) rsO.view (Rect.unit (s := S3x8x128x256) (k0_off44 j) S1x1x128x256.size (k0_off44_inb j)).toLoadRect G_arg8 :=
  View.readAt_writes_of_forall_not_mem rsO.view G_arg8 _ _ fun y p hp hy => by
    obtain ⟨k, hkj, rfl⟩ := family_mem k0_t5_loop.trips (fun k => (⟨Rect.unit (s := S3x8x128x256) (k0_off44 k) S1x1x128x256.size (k0_off44_inb k), (k0_pay78 (View.readAt (Elt F) rsO.view (Rect.unit (s := S3x8x128x256) (k0_off44 k) S1x1x128x256.size (k0_off44_inb k)).toLoadRect (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1)) (View.readAt (Elt F) locO.view (Rect.unit (s := S32x128x256) (k0_off45 d0 k) S1x128x256.size (k0_off45_inb d0 k)).toLoadRect X_arg6))⟩ : View.Piece (Elt F) S3x8x128x256 .bf16)) (fun n => (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 n).1)
      (congrArg (fun t => t.1) (pbS_k0_t5_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9)) (pbS_k0_t5_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t5_arg8 k j hne) hy ((Rect.unit (s := S3x8x128x256) (k0_off44 j) S1x1x128x256.size (k0_off44_inb j)).toLoadRect.idx_mem y)

/-- Trip k lays its piece in front of the earlier trips'. -/
theorem pbS_k0_t5_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t5_loop.trips) :
    (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 (k.val + 1)).2 = (⟨Rect.unit (s := S3x8x1x256) (k0_off42 k) S1x1x1x256.size (k0_off42_inb k), (k0_pay77 (View.readAt (Elt F) rsL.view (Rect.unit (s := S3x8x1x256) (k0_off42 k) S1x1x1x256.size (k0_off42_inb k)).toLoadRect (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2)) (View.readAt (Elt F) locL.view (Rect.unit (s := S32x1x256) (k0_off43 d0 k) S1x1x256.size (k0_off43_inb d0 k)).toLoadRect X_arg7))⟩ : View.Piece (Elt F) S3x8x1x256 .f32) :: (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2 := by
  rw [pbS_k0_t5_succ, tripLS_k0_t5_eq]
  rfl

/-- Two trips' rectangles are apart. -/
theorem apart_k0_t5_arg9 (k k' : Fin k0_t5_loop.trips) (hk : k ≠ k') : Disjoint (Rect.unit (s := S3x8x1x256) (k0_off42 k) S1x1x1x256.size (k0_off42_inb k)).set (Rect.unit (s := S3x8x1x256) (k0_off42 k') S1x1x1x256.size (k0_off42_inb k')).set := by
  refine Rect.unit_disjoint 1 ?_
  have hne : k.val ≠ k'.val := fun h => hk (Fin.ext h)
  have e := congrFun (k0_off42_eq k) 1
  have e' := congrFun (k0_off42_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t5_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t5_loop.trips) (x : (Rect.unit (s := S3x8x1x256) (k0_off42 j) S1x1x1x256.size (k0_off42_inb j)).shape.Idx) :
    rsL.view.read (Elt F) (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k0_t5_loop.trips).2) ((Rect.unit (s := S3x8x1x256) (k0_off42 j) S1x1x1x256.size (k0_off42_inb j)).emb x)
      = ((k0_pay77 (View.readAt (Elt F) rsL.view (Rect.unit (s := S3x8x1x256) (k0_off42 j) S1x1x1x256.size (k0_off42_inb j)).toLoadRect (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 j.val).2)) (View.readAt (Elt F) locL.view (Rect.unit (s := S32x1x256) (k0_off43 d0 j) S1x1x256.size (k0_off43_inb d0 j)).toLoadRect X_arg7))) x :=
  read_writes_family rsL.view G_arg9 k0_t5_loop.trips (fun k => (⟨Rect.unit (s := S3x8x1x256) (k0_off42 k) S1x1x1x256.size (k0_off42_inb k), (k0_pay77 (View.readAt (Elt F) rsL.view (Rect.unit (s := S3x8x1x256) (k0_off42 k) S1x1x1x256.size (k0_off42_inb k)).toLoadRect (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2)) (View.readAt (Elt F) locL.view (Rect.unit (s := S32x1x256) (k0_off43 d0 k) S1x1x256.size (k0_off43_inb d0 k)).toLoadRect X_arg7))⟩ : View.Piece (Elt F) S3x8x1x256 .f32)) (fun n => (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 n).2)
    (congrArg (fun t => t.2) (pbS_k0_t5_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9)) (pbS_k0_t5_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9) (fun k k' hk => apart_k0_t5_arg9 k k' hk) j x

/-- Before trip j the earlier trips have not touched trip j's rectangle. -/
theorem before_k0_t5_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t5_loop.trips) :
    View.readAt (Elt F) rsL.view (Rect.unit (s := S3x8x1x256) (k0_off42 j) S1x1x1x256.size (k0_off42_inb j)).toLoadRect (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 j.val).2)
      = View.readAt (Elt F) rsL.view (Rect.unit (s := S3x8x1x256) (k0_off42 j) S1x1x1x256.size (k0_off42_inb j)).toLoadRect G_arg9 :=
  View.readAt_writes_of_forall_not_mem rsL.view G_arg9 _ _ fun y p hp hy => by
    obtain ⟨k, hkj, rfl⟩ := family_mem k0_t5_loop.trips (fun k => (⟨Rect.unit (s := S3x8x1x256) (k0_off42 k) S1x1x1x256.size (k0_off42_inb k), (k0_pay77 (View.readAt (Elt F) rsL.view (Rect.unit (s := S3x8x1x256) (k0_off42 k) S1x1x1x256.size (k0_off42_inb k)).toLoadRect (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2)) (View.readAt (Elt F) locL.view (Rect.unit (s := S32x1x256) (k0_off43 d0 k) S1x1x256.size (k0_off43_inb d0 k)).toLoadRect X_arg7))⟩ : View.Piece (Elt F) S3x8x1x256 .f32)) (fun n => (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 n).2)
      (congrArg (fun t => t.2) (pbS_k0_t5_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9)) (pbS_k0_t5_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t5_arg9 k j hne) hy ((Rect.unit (s := S3x8x1x256) (k0_off42 j) S1x1x1x256.size (k0_off42_inb j)).toLoadRect.idx_mem y)

theorem pbS_k0_t7_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 0 = ([], []) := rfl

/-- Trip k lays its piece in front of the earlier trips'. -/
theorem pbS_k0_t7_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t7_loop.trips) :
    (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 (k.val + 1)).1 = (⟨Rect.unit (s := S3x8x128x256) (k0_off53 k) S1x1x128x256.size (k0_off53_inb k), (k0_pay97 (View.readAt (Elt F) rsO.view (Rect.unit (s := S3x8x128x256) (k0_off53 k) S1x1x128x256.size (k0_off53_inb k)).toLoadRect (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1)) (View.readAt (Elt F) locO.view (Rect.unit (s := S32x128x256) (k0_off54 d0 k) S1x128x256.size (k0_off54_inb d0 k)).toLoadRect X_arg6))⟩ : View.Piece (Elt F) S3x8x128x256 .bf16) :: (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1 := by
  rw [pbS_k0_t7_succ, tripLS_k0_t7_eq]
  rfl

/-- Two trips' rectangles are apart. -/
theorem apart_k0_t7_arg8 (k k' : Fin k0_t7_loop.trips) (hk : k ≠ k') : Disjoint (Rect.unit (s := S3x8x128x256) (k0_off53 k) S1x1x128x256.size (k0_off53_inb k)).set (Rect.unit (s := S3x8x128x256) (k0_off53 k') S1x1x128x256.size (k0_off53_inb k')).set := by
  refine Rect.unit_disjoint 1 ?_
  have hne : k.val ≠ k'.val := fun h => hk (Fin.ext h)
  have e := congrFun (k0_off53_eq k) 1
  have e' := congrFun (k0_off53_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t7_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t7_loop.trips) (x : (Rect.unit (s := S3x8x128x256) (k0_off53 j) S1x1x128x256.size (k0_off53_inb j)).shape.Idx) :
    rsO.view.read (Elt F) (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k0_t7_loop.trips).1) ((Rect.unit (s := S3x8x128x256) (k0_off53 j) S1x1x128x256.size (k0_off53_inb j)).emb x)
      = ((k0_pay97 (View.readAt (Elt F) rsO.view (Rect.unit (s := S3x8x128x256) (k0_off53 j) S1x1x128x256.size (k0_off53_inb j)).toLoadRect (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 j.val).1)) (View.readAt (Elt F) locO.view (Rect.unit (s := S32x128x256) (k0_off54 d0 j) S1x128x256.size (k0_off54_inb d0 j)).toLoadRect X_arg6))) x :=
  read_writes_family rsO.view G_arg8 k0_t7_loop.trips (fun k => (⟨Rect.unit (s := S3x8x128x256) (k0_off53 k) S1x1x128x256.size (k0_off53_inb k), (k0_pay97 (View.readAt (Elt F) rsO.view (Rect.unit (s := S3x8x128x256) (k0_off53 k) S1x1x128x256.size (k0_off53_inb k)).toLoadRect (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1)) (View.readAt (Elt F) locO.view (Rect.unit (s := S32x128x256) (k0_off54 d0 k) S1x128x256.size (k0_off54_inb d0 k)).toLoadRect X_arg6))⟩ : View.Piece (Elt F) S3x8x128x256 .bf16)) (fun n => (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 n).1)
    (congrArg (fun t => t.1) (pbS_k0_t7_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9)) (pbS_k0_t7_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9) (fun k k' hk => apart_k0_t7_arg8 k k' hk) j x

/-- Before trip j the earlier trips have not touched trip j's rectangle. -/
theorem before_k0_t7_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t7_loop.trips) :
    View.readAt (Elt F) rsO.view (Rect.unit (s := S3x8x128x256) (k0_off53 j) S1x1x128x256.size (k0_off53_inb j)).toLoadRect (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 j.val).1)
      = View.readAt (Elt F) rsO.view (Rect.unit (s := S3x8x128x256) (k0_off53 j) S1x1x128x256.size (k0_off53_inb j)).toLoadRect G_arg8 :=
  View.readAt_writes_of_forall_not_mem rsO.view G_arg8 _ _ fun y p hp hy => by
    obtain ⟨k, hkj, rfl⟩ := family_mem k0_t7_loop.trips (fun k => (⟨Rect.unit (s := S3x8x128x256) (k0_off53 k) S1x1x128x256.size (k0_off53_inb k), (k0_pay97 (View.readAt (Elt F) rsO.view (Rect.unit (s := S3x8x128x256) (k0_off53 k) S1x1x128x256.size (k0_off53_inb k)).toLoadRect (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1)) (View.readAt (Elt F) locO.view (Rect.unit (s := S32x128x256) (k0_off54 d0 k) S1x128x256.size (k0_off54_inb d0 k)).toLoadRect X_arg6))⟩ : View.Piece (Elt F) S3x8x128x256 .bf16)) (fun n => (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 n).1)
      (congrArg (fun t => t.1) (pbS_k0_t7_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9)) (pbS_k0_t7_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t7_arg8 k j hne) hy ((Rect.unit (s := S3x8x128x256) (k0_off53 j) S1x1x128x256.size (k0_off53_inb j)).toLoadRect.idx_mem y)

/-- Trip k lays its piece in front of the earlier trips'. -/
theorem pbS_k0_t7_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t7_loop.trips) :
    (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 (k.val + 1)).2 = (⟨Rect.unit (s := S3x8x1x256) (k0_off51 k) S1x1x1x256.size (k0_off51_inb k), (k0_pay96 (View.readAt (Elt F) rsL.view (Rect.unit (s := S3x8x1x256) (k0_off51 k) S1x1x1x256.size (k0_off51_inb k)).toLoadRect (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2)) (View.readAt (Elt F) locL.view (Rect.unit (s := S32x1x256) (k0_off52 d0 k) S1x1x256.size (k0_off52_inb d0 k)).toLoadRect X_arg7))⟩ : View.Piece (Elt F) S3x8x1x256 .f32) :: (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2 := by
  rw [pbS_k0_t7_succ, tripLS_k0_t7_eq]
  rfl

/-- Two trips' rectangles are apart. -/
theorem apart_k0_t7_arg9 (k k' : Fin k0_t7_loop.trips) (hk : k ≠ k') : Disjoint (Rect.unit (s := S3x8x1x256) (k0_off51 k) S1x1x1x256.size (k0_off51_inb k)).set (Rect.unit (s := S3x8x1x256) (k0_off51 k') S1x1x1x256.size (k0_off51_inb k')).set := by
  refine Rect.unit_disjoint 1 ?_
  have hne : k.val ≠ k'.val := fun h => hk (Fin.ext h)
  have e := congrFun (k0_off51_eq k) 1
  have e' := congrFun (k0_off51_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t7_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t7_loop.trips) (x : (Rect.unit (s := S3x8x1x256) (k0_off51 j) S1x1x1x256.size (k0_off51_inb j)).shape.Idx) :
    rsL.view.read (Elt F) (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k0_t7_loop.trips).2) ((Rect.unit (s := S3x8x1x256) (k0_off51 j) S1x1x1x256.size (k0_off51_inb j)).emb x)
      = ((k0_pay96 (View.readAt (Elt F) rsL.view (Rect.unit (s := S3x8x1x256) (k0_off51 j) S1x1x1x256.size (k0_off51_inb j)).toLoadRect (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 j.val).2)) (View.readAt (Elt F) locL.view (Rect.unit (s := S32x1x256) (k0_off52 d0 j) S1x1x256.size (k0_off52_inb d0 j)).toLoadRect X_arg7))) x :=
  read_writes_family rsL.view G_arg9 k0_t7_loop.trips (fun k => (⟨Rect.unit (s := S3x8x1x256) (k0_off51 k) S1x1x1x256.size (k0_off51_inb k), (k0_pay96 (View.readAt (Elt F) rsL.view (Rect.unit (s := S3x8x1x256) (k0_off51 k) S1x1x1x256.size (k0_off51_inb k)).toLoadRect (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2)) (View.readAt (Elt F) locL.view (Rect.unit (s := S32x1x256) (k0_off52 d0 k) S1x1x256.size (k0_off52_inb d0 k)).toLoadRect X_arg7))⟩ : View.Piece (Elt F) S3x8x1x256 .f32)) (fun n => (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 n).2)
    (congrArg (fun t => t.2) (pbS_k0_t7_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9)) (pbS_k0_t7_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9) (fun k k' hk => apart_k0_t7_arg9 k k' hk) j x

/-- Before trip j the earlier trips have not touched trip j's rectangle. -/
theorem before_k0_t7_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t7_loop.trips) :
    View.readAt (Elt F) rsL.view (Rect.unit (s := S3x8x1x256) (k0_off51 j) S1x1x1x256.size (k0_off51_inb j)).toLoadRect (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 j.val).2)
      = View.readAt (Elt F) rsL.view (Rect.unit (s := S3x8x1x256) (k0_off51 j) S1x1x1x256.size (k0_off51_inb j)).toLoadRect G_arg9 :=
  View.readAt_writes_of_forall_not_mem rsL.view G_arg9 _ _ fun y p hp hy => by
    obtain ⟨k, hkj, rfl⟩ := family_mem k0_t7_loop.trips (fun k => (⟨Rect.unit (s := S3x8x1x256) (k0_off51 k) S1x1x1x256.size (k0_off51_inb k), (k0_pay96 (View.readAt (Elt F) rsL.view (Rect.unit (s := S3x8x1x256) (k0_off51 k) S1x1x1x256.size (k0_off51_inb k)).toLoadRect (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2)) (View.readAt (Elt F) locL.view (Rect.unit (s := S32x1x256) (k0_off52 d0 k) S1x1x256.size (k0_off52_inb d0 k)).toLoadRect X_arg7))⟩ : View.Piece (Elt F) S3x8x1x256 .f32)) (fun n => (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 n).2)
      (congrArg (fun t => t.2) (pbS_k0_t7_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9)) (pbS_k0_t7_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t7_arg9 k j hne) hy ((Rect.unit (s := S3x8x1x256) (k0_off51 j) S1x1x1x256.size (k0_off51_inb j)).toLoadRect.idx_mem y)

theorem pbS_k0_t8_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 0 = ([], []) := rfl

/-- Trip k lays its piece in front of the earlier trips'. -/
theorem pbS_k0_t8_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t8_loop.trips) :
    (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 (k.val + 1)).1 = (⟨Rect.unit (s := S3x8x128x256) (k0_off57 k) S1x1x128x256.size (k0_off57_inb k), (k0_pay99 (View.readAt (Elt F) rsO.view (Rect.unit (s := S3x8x128x256) (k0_off57 k) S1x1x128x256.size (k0_off57_inb k)).toLoadRect (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1)) (View.readAt (Elt F) locO.view (Rect.unit (s := S32x128x256) (k0_off58 d0 k) S1x128x256.size (k0_off58_inb d0 k)).toLoadRect X_arg6))⟩ : View.Piece (Elt F) S3x8x128x256 .bf16) :: (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1 := by
  rw [pbS_k0_t8_succ, tripLS_k0_t8_eq]
  rfl

/-- Two trips' rectangles are apart. -/
theorem apart_k0_t8_arg8 (k k' : Fin k0_t8_loop.trips) (hk : k ≠ k') : Disjoint (Rect.unit (s := S3x8x128x256) (k0_off57 k) S1x1x128x256.size (k0_off57_inb k)).set (Rect.unit (s := S3x8x128x256) (k0_off57 k') S1x1x128x256.size (k0_off57_inb k')).set := by
  refine Rect.unit_disjoint 1 ?_
  have hne : k.val ≠ k'.val := fun h => hk (Fin.ext h)
  have e := congrFun (k0_off57_eq k) 1
  have e' := congrFun (k0_off57_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t8_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t8_loop.trips) (x : (Rect.unit (s := S3x8x128x256) (k0_off57 j) S1x1x128x256.size (k0_off57_inb j)).shape.Idx) :
    rsO.view.read (Elt F) (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k0_t8_loop.trips).1) ((Rect.unit (s := S3x8x128x256) (k0_off57 j) S1x1x128x256.size (k0_off57_inb j)).emb x)
      = ((k0_pay99 (View.readAt (Elt F) rsO.view (Rect.unit (s := S3x8x128x256) (k0_off57 j) S1x1x128x256.size (k0_off57_inb j)).toLoadRect (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 j.val).1)) (View.readAt (Elt F) locO.view (Rect.unit (s := S32x128x256) (k0_off58 d0 j) S1x128x256.size (k0_off58_inb d0 j)).toLoadRect X_arg6))) x :=
  read_writes_family rsO.view G_arg8 k0_t8_loop.trips (fun k => (⟨Rect.unit (s := S3x8x128x256) (k0_off57 k) S1x1x128x256.size (k0_off57_inb k), (k0_pay99 (View.readAt (Elt F) rsO.view (Rect.unit (s := S3x8x128x256) (k0_off57 k) S1x1x128x256.size (k0_off57_inb k)).toLoadRect (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1)) (View.readAt (Elt F) locO.view (Rect.unit (s := S32x128x256) (k0_off58 d0 k) S1x128x256.size (k0_off58_inb d0 k)).toLoadRect X_arg6))⟩ : View.Piece (Elt F) S3x8x128x256 .bf16)) (fun n => (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).1)
    (congrArg (fun t => t.1) (pbS_k0_t8_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9)) (pbS_k0_t8_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9) (fun k k' hk => apart_k0_t8_arg8 k k' hk) j x

/-- Before trip j the earlier trips have not touched trip j's rectangle. -/
theorem before_k0_t8_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t8_loop.trips) :
    View.readAt (Elt F) rsO.view (Rect.unit (s := S3x8x128x256) (k0_off57 j) S1x1x128x256.size (k0_off57_inb j)).toLoadRect (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 j.val).1)
      = View.readAt (Elt F) rsO.view (Rect.unit (s := S3x8x128x256) (k0_off57 j) S1x1x128x256.size (k0_off57_inb j)).toLoadRect G_arg8 :=
  View.readAt_writes_of_forall_not_mem rsO.view G_arg8 _ _ fun y p hp hy => by
    obtain ⟨k, hkj, rfl⟩ := family_mem k0_t8_loop.trips (fun k => (⟨Rect.unit (s := S3x8x128x256) (k0_off57 k) S1x1x128x256.size (k0_off57_inb k), (k0_pay99 (View.readAt (Elt F) rsO.view (Rect.unit (s := S3x8x128x256) (k0_off57 k) S1x1x128x256.size (k0_off57_inb k)).toLoadRect (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1)) (View.readAt (Elt F) locO.view (Rect.unit (s := S32x128x256) (k0_off58 d0 k) S1x128x256.size (k0_off58_inb d0 k)).toLoadRect X_arg6))⟩ : View.Piece (Elt F) S3x8x128x256 .bf16)) (fun n => (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).1)
      (congrArg (fun t => t.1) (pbS_k0_t8_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9)) (pbS_k0_t8_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t8_arg8 k j hne) hy ((Rect.unit (s := S3x8x128x256) (k0_off57 j) S1x1x128x256.size (k0_off57_inb j)).toLoadRect.idx_mem y)

/-- Trip k lays its piece in front of the earlier trips'. -/
theorem pbS_k0_t8_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t8_loop.trips) :
    (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 (k.val + 1)).2 = (⟨Rect.unit (s := S3x8x1x256) (k0_off55 k) S1x1x1x256.size (k0_off55_inb k), (k0_pay98 (View.readAt (Elt F) rsL.view (Rect.unit (s := S3x8x1x256) (k0_off55 k) S1x1x1x256.size (k0_off55_inb k)).toLoadRect (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2)) (View.readAt (Elt F) locL.view (Rect.unit (s := S32x1x256) (k0_off56 d0 k) S1x1x256.size (k0_off56_inb d0 k)).toLoadRect X_arg7))⟩ : View.Piece (Elt F) S3x8x1x256 .f32) :: (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2 := by
  rw [pbS_k0_t8_succ, tripLS_k0_t8_eq]
  rfl

/-- Two trips' rectangles are apart. -/
theorem apart_k0_t8_arg9 (k k' : Fin k0_t8_loop.trips) (hk : k ≠ k') : Disjoint (Rect.unit (s := S3x8x1x256) (k0_off55 k) S1x1x1x256.size (k0_off55_inb k)).set (Rect.unit (s := S3x8x1x256) (k0_off55 k') S1x1x1x256.size (k0_off55_inb k')).set := by
  refine Rect.unit_disjoint 1 ?_
  have hne : k.val ≠ k'.val := fun h => hk (Fin.ext h)
  have e := congrFun (k0_off55_eq k) 1
  have e' := congrFun (k0_off55_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t8_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t8_loop.trips) (x : (Rect.unit (s := S3x8x1x256) (k0_off55 j) S1x1x1x256.size (k0_off55_inb j)).shape.Idx) :
    rsL.view.read (Elt F) (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k0_t8_loop.trips).2) ((Rect.unit (s := S3x8x1x256) (k0_off55 j) S1x1x1x256.size (k0_off55_inb j)).emb x)
      = ((k0_pay98 (View.readAt (Elt F) rsL.view (Rect.unit (s := S3x8x1x256) (k0_off55 j) S1x1x1x256.size (k0_off55_inb j)).toLoadRect (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 j.val).2)) (View.readAt (Elt F) locL.view (Rect.unit (s := S32x1x256) (k0_off56 d0 j) S1x1x256.size (k0_off56_inb d0 j)).toLoadRect X_arg7))) x :=
  read_writes_family rsL.view G_arg9 k0_t8_loop.trips (fun k => (⟨Rect.unit (s := S3x8x1x256) (k0_off55 k) S1x1x1x256.size (k0_off55_inb k), (k0_pay98 (View.readAt (Elt F) rsL.view (Rect.unit (s := S3x8x1x256) (k0_off55 k) S1x1x1x256.size (k0_off55_inb k)).toLoadRect (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2)) (View.readAt (Elt F) locL.view (Rect.unit (s := S32x1x256) (k0_off56 d0 k) S1x1x256.size (k0_off56_inb d0 k)).toLoadRect X_arg7))⟩ : View.Piece (Elt F) S3x8x1x256 .f32)) (fun n => (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).2)
    (congrArg (fun t => t.2) (pbS_k0_t8_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9)) (pbS_k0_t8_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9) (fun k k' hk => apart_k0_t8_arg9 k k' hk) j x

/-- Before trip j the earlier trips have not touched trip j's rectangle. -/
theorem before_k0_t8_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t8_loop.trips) :
    View.readAt (Elt F) rsL.view (Rect.unit (s := S3x8x1x256) (k0_off55 j) S1x1x1x256.size (k0_off55_inb j)).toLoadRect (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 j.val).2)
      = View.readAt (Elt F) rsL.view (Rect.unit (s := S3x8x1x256) (k0_off55 j) S1x1x1x256.size (k0_off55_inb j)).toLoadRect G_arg9 :=
  View.readAt_writes_of_forall_not_mem rsL.view G_arg9 _ _ fun y p hp hy => by
    obtain ⟨k, hkj, rfl⟩ := family_mem k0_t8_loop.trips (fun k => (⟨Rect.unit (s := S3x8x1x256) (k0_off55 k) S1x1x1x256.size (k0_off55_inb k), (k0_pay98 (View.readAt (Elt F) rsL.view (Rect.unit (s := S3x8x1x256) (k0_off55 k) S1x1x1x256.size (k0_off55_inb k)).toLoadRect (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2)) (View.readAt (Elt F) locL.view (Rect.unit (s := S32x1x256) (k0_off56 d0 k) S1x1x256.size (k0_off56_inb d0 k)).toLoadRect X_arg7))⟩ : View.Piece (Elt F) S3x8x1x256 .f32)) (fun n => (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).2)
      (congrArg (fun t => t.2) (pbS_k0_t8_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9)) (pbS_k0_t8_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t8_arg9 k j hne) hy ((Rect.unit (s := S3x8x1x256) (k0_off55 j) S1x1x1x256.size (k0_off55_inb j)).toLoadRect.idx_mem y)

theorem pbS_k0_t9_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 0 = ([], []) := rfl

/-- Trip k lays its piece in front of the earlier trips'. -/
theorem pbS_k0_t9_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t9_loop.trips) :
    (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 (k.val + 1)).1 = (⟨Rect.unit (s := S3x8x128x256) (k0_off61 k) S1x1x128x256.size (k0_off61_inb k), (k0_pay101 (View.readAt (Elt F) rsO.view (Rect.unit (s := S3x8x128x256) (k0_off61 k) S1x1x128x256.size (k0_off61_inb k)).toLoadRect (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1)) (View.readAt (Elt F) locO.view (Rect.unit (s := S32x128x256) (k0_off62 d0 k) S1x128x256.size (k0_off62_inb d0 k)).toLoadRect X_arg6))⟩ : View.Piece (Elt F) S3x8x128x256 .bf16) :: (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1 := by
  rw [pbS_k0_t9_succ, tripLS_k0_t9_eq]
  rfl

/-- Two trips' rectangles are apart. -/
theorem apart_k0_t9_arg8 (k k' : Fin k0_t9_loop.trips) (hk : k ≠ k') : Disjoint (Rect.unit (s := S3x8x128x256) (k0_off61 k) S1x1x128x256.size (k0_off61_inb k)).set (Rect.unit (s := S3x8x128x256) (k0_off61 k') S1x1x128x256.size (k0_off61_inb k')).set := by
  refine Rect.unit_disjoint 1 ?_
  have hne : k.val ≠ k'.val := fun h => hk (Fin.ext h)
  have e := congrFun (k0_off61_eq k) 1
  have e' := congrFun (k0_off61_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t9_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t9_loop.trips) (x : (Rect.unit (s := S3x8x128x256) (k0_off61 j) S1x1x128x256.size (k0_off61_inb j)).shape.Idx) :
    rsO.view.read (Elt F) (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k0_t9_loop.trips).1) ((Rect.unit (s := S3x8x128x256) (k0_off61 j) S1x1x128x256.size (k0_off61_inb j)).emb x)
      = ((k0_pay101 (View.readAt (Elt F) rsO.view (Rect.unit (s := S3x8x128x256) (k0_off61 j) S1x1x128x256.size (k0_off61_inb j)).toLoadRect (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 j.val).1)) (View.readAt (Elt F) locO.view (Rect.unit (s := S32x128x256) (k0_off62 d0 j) S1x128x256.size (k0_off62_inb d0 j)).toLoadRect X_arg6))) x :=
  read_writes_family rsO.view G_arg8 k0_t9_loop.trips (fun k => (⟨Rect.unit (s := S3x8x128x256) (k0_off61 k) S1x1x128x256.size (k0_off61_inb k), (k0_pay101 (View.readAt (Elt F) rsO.view (Rect.unit (s := S3x8x128x256) (k0_off61 k) S1x1x128x256.size (k0_off61_inb k)).toLoadRect (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1)) (View.readAt (Elt F) locO.view (Rect.unit (s := S32x128x256) (k0_off62 d0 k) S1x128x256.size (k0_off62_inb d0 k)).toLoadRect X_arg6))⟩ : View.Piece (Elt F) S3x8x128x256 .bf16)) (fun n => (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).1)
    (congrArg (fun t => t.1) (pbS_k0_t9_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9)) (pbS_k0_t9_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9) (fun k k' hk => apart_k0_t9_arg8 k k' hk) j x

/-- Before trip j the earlier trips have not touched trip j's rectangle. -/
theorem before_k0_t9_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t9_loop.trips) :
    View.readAt (Elt F) rsO.view (Rect.unit (s := S3x8x128x256) (k0_off61 j) S1x1x128x256.size (k0_off61_inb j)).toLoadRect (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 j.val).1)
      = View.readAt (Elt F) rsO.view (Rect.unit (s := S3x8x128x256) (k0_off61 j) S1x1x128x256.size (k0_off61_inb j)).toLoadRect G_arg8 :=
  View.readAt_writes_of_forall_not_mem rsO.view G_arg8 _ _ fun y p hp hy => by
    obtain ⟨k, hkj, rfl⟩ := family_mem k0_t9_loop.trips (fun k => (⟨Rect.unit (s := S3x8x128x256) (k0_off61 k) S1x1x128x256.size (k0_off61_inb k), (k0_pay101 (View.readAt (Elt F) rsO.view (Rect.unit (s := S3x8x128x256) (k0_off61 k) S1x1x128x256.size (k0_off61_inb k)).toLoadRect (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1)) (View.readAt (Elt F) locO.view (Rect.unit (s := S32x128x256) (k0_off62 d0 k) S1x128x256.size (k0_off62_inb d0 k)).toLoadRect X_arg6))⟩ : View.Piece (Elt F) S3x8x128x256 .bf16)) (fun n => (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).1)
      (congrArg (fun t => t.1) (pbS_k0_t9_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9)) (pbS_k0_t9_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t9_arg8 k j hne) hy ((Rect.unit (s := S3x8x128x256) (k0_off61 j) S1x1x128x256.size (k0_off61_inb j)).toLoadRect.idx_mem y)

/-- Trip k lays its piece in front of the earlier trips'. -/
theorem pbS_k0_t9_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t9_loop.trips) :
    (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 (k.val + 1)).2 = (⟨Rect.unit (s := S3x8x1x256) (k0_off59 k) S1x1x1x256.size (k0_off59_inb k), (k0_pay100 (View.readAt (Elt F) rsL.view (Rect.unit (s := S3x8x1x256) (k0_off59 k) S1x1x1x256.size (k0_off59_inb k)).toLoadRect (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2)) (View.readAt (Elt F) locL.view (Rect.unit (s := S32x1x256) (k0_off60 d0 k) S1x1x256.size (k0_off60_inb d0 k)).toLoadRect X_arg7))⟩ : View.Piece (Elt F) S3x8x1x256 .f32) :: (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2 := by
  rw [pbS_k0_t9_succ, tripLS_k0_t9_eq]
  rfl

/-- Two trips' rectangles are apart. -/
theorem apart_k0_t9_arg9 (k k' : Fin k0_t9_loop.trips) (hk : k ≠ k') : Disjoint (Rect.unit (s := S3x8x1x256) (k0_off59 k) S1x1x1x256.size (k0_off59_inb k)).set (Rect.unit (s := S3x8x1x256) (k0_off59 k') S1x1x1x256.size (k0_off59_inb k')).set := by
  refine Rect.unit_disjoint 1 ?_
  have hne : k.val ≠ k'.val := fun h => hk (Fin.ext h)
  have e := congrFun (k0_off59_eq k) 1
  have e' := congrFun (k0_off59_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t9_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t9_loop.trips) (x : (Rect.unit (s := S3x8x1x256) (k0_off59 j) S1x1x1x256.size (k0_off59_inb j)).shape.Idx) :
    rsL.view.read (Elt F) (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k0_t9_loop.trips).2) ((Rect.unit (s := S3x8x1x256) (k0_off59 j) S1x1x1x256.size (k0_off59_inb j)).emb x)
      = ((k0_pay100 (View.readAt (Elt F) rsL.view (Rect.unit (s := S3x8x1x256) (k0_off59 j) S1x1x1x256.size (k0_off59_inb j)).toLoadRect (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 j.val).2)) (View.readAt (Elt F) locL.view (Rect.unit (s := S32x1x256) (k0_off60 d0 j) S1x1x256.size (k0_off60_inb d0 j)).toLoadRect X_arg7))) x :=
  read_writes_family rsL.view G_arg9 k0_t9_loop.trips (fun k => (⟨Rect.unit (s := S3x8x1x256) (k0_off59 k) S1x1x1x256.size (k0_off59_inb k), (k0_pay100 (View.readAt (Elt F) rsL.view (Rect.unit (s := S3x8x1x256) (k0_off59 k) S1x1x1x256.size (k0_off59_inb k)).toLoadRect (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2)) (View.readAt (Elt F) locL.view (Rect.unit (s := S32x1x256) (k0_off60 d0 k) S1x1x256.size (k0_off60_inb d0 k)).toLoadRect X_arg7))⟩ : View.Piece (Elt F) S3x8x1x256 .f32)) (fun n => (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).2)
    (congrArg (fun t => t.2) (pbS_k0_t9_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9)) (pbS_k0_t9_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9) (fun k k' hk => apart_k0_t9_arg9 k k' hk) j x

/-- Before trip j the earlier trips have not touched trip j's rectangle. -/
theorem before_k0_t9_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t9_loop.trips) :
    View.readAt (Elt F) rsL.view (Rect.unit (s := S3x8x1x256) (k0_off59 j) S1x1x1x256.size (k0_off59_inb j)).toLoadRect (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 j.val).2)
      = View.readAt (Elt F) rsL.view (Rect.unit (s := S3x8x1x256) (k0_off59 j) S1x1x1x256.size (k0_off59_inb j)).toLoadRect G_arg9 :=
  View.readAt_writes_of_forall_not_mem rsL.view G_arg9 _ _ fun y p hp hy => by
    obtain ⟨k, hkj, rfl⟩ := family_mem k0_t9_loop.trips (fun k => (⟨Rect.unit (s := S3x8x1x256) (k0_off59 k) S1x1x1x256.size (k0_off59_inb k), (k0_pay100 (View.readAt (Elt F) rsL.view (Rect.unit (s := S3x8x1x256) (k0_off59 k) S1x1x1x256.size (k0_off59_inb k)).toLoadRect (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2)) (View.readAt (Elt F) locL.view (Rect.unit (s := S32x1x256) (k0_off60 d0 k) S1x1x256.size (k0_off60_inb d0 k)).toLoadRect X_arg7))⟩ : View.Piece (Elt F) S3x8x1x256 .f32)) (fun n => (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).2)
      (congrArg (fun t => t.2) (pbS_k0_t9_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9)) (pbS_k0_t9_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t9_arg9 k j hne) hy ((Rect.unit (s := S3x8x1x256) (k0_off59 j) S1x1x1x256.size (k0_off59_inb j)).toLoadRect.idx_mem y)

theorem pbS_k0_t10_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 0 = ([], []) := rfl

/-- Trip k lays its piece in front of the earlier trips'. -/
theorem pbS_k0_t10_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t10_loop.trips) :
    (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 (k.val + 1)).1 = (⟨Rect.unit (s := S3x8x128x256) (k0_off65 k) S1x1x128x256.size (k0_off65_inb k), (k0_pay103 (View.readAt (Elt F) rsO.view (Rect.unit (s := S3x8x128x256) (k0_off65 k) S1x1x128x256.size (k0_off65_inb k)).toLoadRect (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1)) (View.readAt (Elt F) locO.view (Rect.unit (s := S32x128x256) (k0_off66 d0 k) S1x128x256.size (k0_off66_inb d0 k)).toLoadRect X_arg6))⟩ : View.Piece (Elt F) S3x8x128x256 .bf16) :: (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1 := by
  rw [pbS_k0_t10_succ, tripLS_k0_t10_eq]
  rfl

/-- Two trips' rectangles are apart. -/
theorem apart_k0_t10_arg8 (k k' : Fin k0_t10_loop.trips) (hk : k ≠ k') : Disjoint (Rect.unit (s := S3x8x128x256) (k0_off65 k) S1x1x128x256.size (k0_off65_inb k)).set (Rect.unit (s := S3x8x128x256) (k0_off65 k') S1x1x128x256.size (k0_off65_inb k')).set := by
  refine Rect.unit_disjoint 1 ?_
  have hne : k.val ≠ k'.val := fun h => hk (Fin.ext h)
  have e := congrFun (k0_off65_eq k) 1
  have e' := congrFun (k0_off65_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t10_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t10_loop.trips) (x : (Rect.unit (s := S3x8x128x256) (k0_off65 j) S1x1x128x256.size (k0_off65_inb j)).shape.Idx) :
    rsO.view.read (Elt F) (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k0_t10_loop.trips).1) ((Rect.unit (s := S3x8x128x256) (k0_off65 j) S1x1x128x256.size (k0_off65_inb j)).emb x)
      = ((k0_pay103 (View.readAt (Elt F) rsO.view (Rect.unit (s := S3x8x128x256) (k0_off65 j) S1x1x128x256.size (k0_off65_inb j)).toLoadRect (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 j.val).1)) (View.readAt (Elt F) locO.view (Rect.unit (s := S32x128x256) (k0_off66 d0 j) S1x128x256.size (k0_off66_inb d0 j)).toLoadRect X_arg6))) x :=
  read_writes_family rsO.view G_arg8 k0_t10_loop.trips (fun k => (⟨Rect.unit (s := S3x8x128x256) (k0_off65 k) S1x1x128x256.size (k0_off65_inb k), (k0_pay103 (View.readAt (Elt F) rsO.view (Rect.unit (s := S3x8x128x256) (k0_off65 k) S1x1x128x256.size (k0_off65_inb k)).toLoadRect (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1)) (View.readAt (Elt F) locO.view (Rect.unit (s := S32x128x256) (k0_off66 d0 k) S1x128x256.size (k0_off66_inb d0 k)).toLoadRect X_arg6))⟩ : View.Piece (Elt F) S3x8x128x256 .bf16)) (fun n => (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).1)
    (congrArg (fun t => t.1) (pbS_k0_t10_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9)) (pbS_k0_t10_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9) (fun k k' hk => apart_k0_t10_arg8 k k' hk) j x

/-- Before trip j the earlier trips have not touched trip j's rectangle. -/
theorem before_k0_t10_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t10_loop.trips) :
    View.readAt (Elt F) rsO.view (Rect.unit (s := S3x8x128x256) (k0_off65 j) S1x1x128x256.size (k0_off65_inb j)).toLoadRect (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 j.val).1)
      = View.readAt (Elt F) rsO.view (Rect.unit (s := S3x8x128x256) (k0_off65 j) S1x1x128x256.size (k0_off65_inb j)).toLoadRect G_arg8 :=
  View.readAt_writes_of_forall_not_mem rsO.view G_arg8 _ _ fun y p hp hy => by
    obtain ⟨k, hkj, rfl⟩ := family_mem k0_t10_loop.trips (fun k => (⟨Rect.unit (s := S3x8x128x256) (k0_off65 k) S1x1x128x256.size (k0_off65_inb k), (k0_pay103 (View.readAt (Elt F) rsO.view (Rect.unit (s := S3x8x128x256) (k0_off65 k) S1x1x128x256.size (k0_off65_inb k)).toLoadRect (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1)) (View.readAt (Elt F) locO.view (Rect.unit (s := S32x128x256) (k0_off66 d0 k) S1x128x256.size (k0_off66_inb d0 k)).toLoadRect X_arg6))⟩ : View.Piece (Elt F) S3x8x128x256 .bf16)) (fun n => (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).1)
      (congrArg (fun t => t.1) (pbS_k0_t10_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9)) (pbS_k0_t10_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t10_arg8 k j hne) hy ((Rect.unit (s := S3x8x128x256) (k0_off65 j) S1x1x128x256.size (k0_off65_inb j)).toLoadRect.idx_mem y)

/-- Trip k lays its piece in front of the earlier trips'. -/
theorem pbS_k0_t10_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t10_loop.trips) :
    (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 (k.val + 1)).2 = (⟨Rect.unit (s := S3x8x1x256) (k0_off63 k) S1x1x1x256.size (k0_off63_inb k), (k0_pay102 (View.readAt (Elt F) rsL.view (Rect.unit (s := S3x8x1x256) (k0_off63 k) S1x1x1x256.size (k0_off63_inb k)).toLoadRect (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2)) (View.readAt (Elt F) locL.view (Rect.unit (s := S32x1x256) (k0_off64 d0 k) S1x1x256.size (k0_off64_inb d0 k)).toLoadRect X_arg7))⟩ : View.Piece (Elt F) S3x8x1x256 .f32) :: (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2 := by
  rw [pbS_k0_t10_succ, tripLS_k0_t10_eq]
  rfl

/-- Two trips' rectangles are apart. -/
theorem apart_k0_t10_arg9 (k k' : Fin k0_t10_loop.trips) (hk : k ≠ k') : Disjoint (Rect.unit (s := S3x8x1x256) (k0_off63 k) S1x1x1x256.size (k0_off63_inb k)).set (Rect.unit (s := S3x8x1x256) (k0_off63 k') S1x1x1x256.size (k0_off63_inb k')).set := by
  refine Rect.unit_disjoint 1 ?_
  have hne : k.val ≠ k'.val := fun h => hk (Fin.ext h)
  have e := congrFun (k0_off63_eq k) 1
  have e' := congrFun (k0_off63_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t10_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t10_loop.trips) (x : (Rect.unit (s := S3x8x1x256) (k0_off63 j) S1x1x1x256.size (k0_off63_inb j)).shape.Idx) :
    rsL.view.read (Elt F) (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k0_t10_loop.trips).2) ((Rect.unit (s := S3x8x1x256) (k0_off63 j) S1x1x1x256.size (k0_off63_inb j)).emb x)
      = ((k0_pay102 (View.readAt (Elt F) rsL.view (Rect.unit (s := S3x8x1x256) (k0_off63 j) S1x1x1x256.size (k0_off63_inb j)).toLoadRect (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 j.val).2)) (View.readAt (Elt F) locL.view (Rect.unit (s := S32x1x256) (k0_off64 d0 j) S1x1x256.size (k0_off64_inb d0 j)).toLoadRect X_arg7))) x :=
  read_writes_family rsL.view G_arg9 k0_t10_loop.trips (fun k => (⟨Rect.unit (s := S3x8x1x256) (k0_off63 k) S1x1x1x256.size (k0_off63_inb k), (k0_pay102 (View.readAt (Elt F) rsL.view (Rect.unit (s := S3x8x1x256) (k0_off63 k) S1x1x1x256.size (k0_off63_inb k)).toLoadRect (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2)) (View.readAt (Elt F) locL.view (Rect.unit (s := S32x1x256) (k0_off64 d0 k) S1x1x256.size (k0_off64_inb d0 k)).toLoadRect X_arg7))⟩ : View.Piece (Elt F) S3x8x1x256 .f32)) (fun n => (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).2)
    (congrArg (fun t => t.2) (pbS_k0_t10_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9)) (pbS_k0_t10_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9) (fun k k' hk => apart_k0_t10_arg9 k k' hk) j x

/-- Before trip j the earlier trips have not touched trip j's rectangle. -/
theorem before_k0_t10_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t10_loop.trips) :
    View.readAt (Elt F) rsL.view (Rect.unit (s := S3x8x1x256) (k0_off63 j) S1x1x1x256.size (k0_off63_inb j)).toLoadRect (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 j.val).2)
      = View.readAt (Elt F) rsL.view (Rect.unit (s := S3x8x1x256) (k0_off63 j) S1x1x1x256.size (k0_off63_inb j)).toLoadRect G_arg9 :=
  View.readAt_writes_of_forall_not_mem rsL.view G_arg9 _ _ fun y p hp hy => by
    obtain ⟨k, hkj, rfl⟩ := family_mem k0_t10_loop.trips (fun k => (⟨Rect.unit (s := S3x8x1x256) (k0_off63 k) S1x1x1x256.size (k0_off63_inb k), (k0_pay102 (View.readAt (Elt F) rsL.view (Rect.unit (s := S3x8x1x256) (k0_off63 k) S1x1x1x256.size (k0_off63_inb k)).toLoadRect (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2)) (View.readAt (Elt F) locL.view (Rect.unit (s := S32x1x256) (k0_off64 d0 k) S1x1x256.size (k0_off64_inb d0 k)).toLoadRect X_arg7))⟩ : View.Piece (Elt F) S3x8x1x256 .f32)) (fun n => (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).2)
      (congrArg (fun t => t.2) (pbS_k0_t10_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9)) (pbS_k0_t10_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t10_arg9 k j hne) hy ((Rect.unit (s := S3x8x1x256) (k0_off63 j) S1x1x1x256.size (k0_off63_inb j)).toLoadRect.idx_mem y)

end Cert.KernelIdeal.LoopsV

end
-- ==== Proof.MergeC.lean ====
/-
  What the two first merges leave, and their stretch of the body without side conditions.

  After the four trips of a merge loop, slot k of the landing slice reads the payload of trip k: the slot as it arrived,
  merged with row k of the device's own half block (no other trip touches the slot, and before trip k none had). Read as
  the next hop's source, and given what arrived and what the half block holds, that is the value the schedule sends at
  hop 1. With the four values in hand the segment's theorem has no hypothesis left.
-/
import proofs.«900754_g7700000000000755_dist_attn_cross_gqa_kvseq_b4_sq256_skv1024_d1024_hq8_dh128_v7x_i4_f32_1_alg».proof.Proof.BodyC
import proofs.«900754_g7700000000000755_dist_attn_cross_gqa_kvseq_b4_sq256_skv1024_d1024_hq8_dh128_v7x_i4_f32_1_alg».proof.Proof.LoopsVRead
import proofs.«900754_g7700000000000755_dist_attn_cross_gqa_kvseq_b4_sq256_skv1024_d1024_hq8_dh128_v7x_i4_f32_1_alg».proof.Proof.LoopsVFacts
import proofs.«900754_g7700000000000755_dist_attn_cross_gqa_kvseq_b4_sq256_skv1024_d1024_hq8_dh128_v7x_i4_f32_1_alg».proof.Proof.Bridge

set_option maxRecDepth 8192

noncomputable section

namespace Cert.KernelIdeal.Proto
open Cert.KernelIdeal Cert.KernelIdeal.Gen Cert.KernelIdeal.Ring Cert.KernelIdeal.KFun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

theorem t4_trips : k0_t4_loop.trips = 4 := by decide
theorem t5_trips : k0_t5_loop.trips = 4 := by decide

/-- The first merge, numerators: the merged landing slice, read as hop 1's source, is what the schedule sends then. -/
theorem mergeO4_value (m : (ℓ : Loc nD τ sig) → Buf (Elt F) ℓ) (c : Dev nD) (v2 v14 : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 8) (d : Fin 128) (i : Fin 256), fO3 (ix3 (⟨8 * ((c.val + 3) % 4) + k.val, by omega⟩ : Fin 32) d i) = KFun.ot m c (prv c) k (ix3 0 d i))
    (hrecv : (dstO 0 false).view.read (Elt F) f8 = (KFun.V m).o (fromDev c false) 0 false) :
    (srcO c 1 false).view.read (Elt F) (rsO.view.writes (Elt F) f8 (LoopsV.pbS_k0_t4 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 k0_t4_loop.trips).1) = (KFun.V m).o c 1 false := by
  refine vo_succ_of_merge m c 0 false f8 _ (fun k t => fO3 (ix3 (⟨8 * ((c.val + 3) % 4) + (headAt false k).val, by have := (headAt false k).isLt; omega⟩ : Fin 32) (⟨(t 1).val, (t 1).isLt⟩ : Fin 128) (⟨(t 2).val, (t 2).isLt⟩ : Fin 256))) hrecv ?_ ?_
  · intro k
    funext t
    obtain ⟨u, d, i, rfl⟩ : ∃ (u : Fin 1) (d : Fin 128) (i : Fin 256), t = ix3 u d i := ⟨t 0, t 1, t 2, eq_ix3 t⟩
    obtain rfl : u = 0 := Subsingleton.elim _ _
    exact hrows (headAt false k) d i
  · intro k d i
    refine (dstO_read_0f c _ k d i).trans ?_
    have hj : k.val < k0_t4_loop.trips := by rw [t4_trips]; exact k.isLt
    have hidx : ∀ (d : Fin 128) (i : Fin 256), (Rect.unit (s := S3x8x128x256) (k0_off40 ⟨k.val, hj⟩) S1x1x128x256.size (k0_off40_inb ⟨k.val, hj⟩)).emb (ix4 (0 : Fin 1) (0 : Fin 1) d i) = ix4 (0 : Fin 3) (headAt false k) d i := by
      intro d i
      funext a
      refine Fin.ext ?_
      rw [Rect.emb_apply]
      simp only [Rect.off_unit, Rect.stride_unit, Nat.one_mul, k0_off40_eq]
      match a with
      | ⟨0, _⟩ => rfl
      | ⟨1, _⟩ => show k.val + 0 = (headAt false k).val; rfl
      | ⟨2, _⟩ => show 0 + d.val = d.val; omega
      | ⟨3, _⟩ => show 0 + i.val = i.val; omega
    have hidx6 : ∀ (d : Fin 128) (i : Fin 256), (Rect.unit (s := S32x128x256) (k0_off41 c ⟨k.val, hj⟩) S1x128x256.size (k0_off41_inb c ⟨k.val, hj⟩)).emb (ix3 (0 : Fin 1) d i) = ix3 (⟨8 * ((c.val + 3) % 4) + (headAt false k).val, by have := (headAt false k).isLt; omega⟩ : Fin 32) d i := by
      intro d i
      funext a
      refine Fin.ext ?_
      rw [Rect.emb_apply]
      simp only [Rect.off_unit, Rect.stride_unit, Nat.one_mul, off41_eq]
      match a with
      | ⟨0, _⟩ => show 8 * ((c.val + 3) % 4) + k.val + 0 = 8 * ((c.val + 3) % 4) + (headAt false k).val; rfl
      | ⟨1, _⟩ => show 0 + d.val = d.val; omega
      | ⟨2, _⟩ => show 0 + i.val = i.val; omega
    rw [← hidx]
    refine (LoopsV.readS_k0_t4_arg8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 ⟨k.val, hj⟩ (ix4 (0 : Fin 1) (0 : Fin 1) d i)).trans ?_
    rw [LoopsV.before_k0_t4_arg8]
    have hA : View.readAt (Elt F) rsO.view (Rect.unit (s := S3x8x128x256) (k0_off40 ⟨k.val, hj⟩) S1x1x128x256.size (k0_off40_inb ⟨k.val, hj⟩)).toLoadRect f8
        = fun s : S1x1x128x256.Idx => (srcO c (Fin.succ (0 : Fin 2)) false).view.read (Elt F) f8 (ix3 k (⟨(s 2).val, (s 2).isLt⟩ : Fin 128) (⟨(s 3).val, (s 3).isLt⟩ : Fin 256)) := by
      funext s
      obtain ⟨u, v, d', i', rfl⟩ : ∃ (u v : Fin 1) (d' : Fin 128) (i' : Fin 256), s = ix4 u v d' i' := ⟨s 0, s 1, s 2, s 3, eq_ix4 s⟩
      obtain rfl : u = 0 := Subsingleton.elim _ _
      obtain rfl : v = 0 := Subsingleton.elim _ _
      refine Eq.trans ?_ (dstO_read_0f c f8 k d' i').symm
      exact congrArg f8 (hidx d' i')
    have hB : View.readAt (Elt F) locO.view (Rect.unit (s := S32x128x256) (k0_off41 c ⟨k.val, hj⟩) S1x128x256.size (k0_off41_inb c ⟨k.val, hj⟩)).toLoadRect fO3
        = fun t : S1x128x256.Idx => fO3 (ix3 (⟨8 * ((c.val + 3) % 4) + (headAt false k).val, by have := (headAt false k).isLt; omega⟩ : Fin 32) (⟨(t 1).val, (t 1).isLt⟩ : Fin 128) (⟨(t 2).val, (t 2).isLt⟩ : Fin 256)) := by
      funext t
      obtain ⟨u, d', i', rfl⟩ : ∃ (u : Fin 1) (d' : Fin 128) (i' : Fin 256), t = ix3 u d' i' := ⟨t 0, t 1, t 2, eq_ix3 t⟩
      obtain rfl : u = 0 := Subsingleton.elim _ _
      exact congrArg fO3 (hidx6 d' i')
    rw [hA, hB]
    all_goals rfl

/-- The first merge, denominators. -/
theorem mergeL4_value (m : (ℓ : Loc nD τ sig) → Buf (Elt F) ℓ) (c : Dev nD) (v2 v14 : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 8) (i : Fin 256), fL3 (ix3 (⟨8 * ((c.val + 3) % 4) + k.val, by omega⟩ : Fin 32) (0 : Fin 1) i) = KFun.lrow m c (prv c) k (ix3 0 0 i))
    (hrecv : (dstL 0 false).view.read (Elt F) f9 = (KFun.V m).l (fromDev c false) 0 false) :
    (srcL c 1 false).view.read (Elt F) (rsL.view.writes (Elt F) f9 (LoopsV.pbS_k0_t4 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 k0_t4_loop.trips).2) = (KFun.V m).l c 1 false := by
  refine vl_succ_of_merge m c 0 false f9 _ (fun k t => fL3 (ix3 (⟨8 * ((c.val + 3) % 4) + (headAt false k).val, by have := (headAt false k).isLt; omega⟩ : Fin 32) (0 : Fin 1) (⟨(t 2).val, (t 2).isLt⟩ : Fin 256))) hrecv ?_ ?_
  · intro k
    funext t
    obtain ⟨u, v, i, rfl⟩ : ∃ (u v : Fin 1) (i : Fin 256), t = ix3 u v i := ⟨t 0, t 1, t 2, eq_ix3 t⟩
    obtain rfl : u = 0 := Subsingleton.elim _ _
    obtain rfl : v = 0 := Subsingleton.elim _ _
    exact hrows (headAt false k) i
  · intro k i
    refine (dstL_read_0f c _ k 0 i).trans ?_
    have hj : k.val < k0_t4_loop.trips := by rw [t4_trips]; exact k.isLt
    have hidx : ∀ (i : Fin 256), (Rect.unit (s := S3x8x1x256) (k0_off38 ⟨k.val, hj⟩) S1x1x1x256.size (k0_off38_inb ⟨k.val, hj⟩)).emb (ix4 (0 : Fin 1) (0 : Fin 1) (0 : Fin 1) i) = ix4 (0 : Fin 3) (headAt false k) (0 : Fin 1) i := by
      intro i
      funext a
      refine Fin.ext ?_
      rw [Rect.emb_apply]
      simp only [Rect.off_unit, Rect.stride_unit, Nat.one_mul, k0_off38_eq]
      match a with
      | ⟨0, _⟩ => rfl
      | ⟨1, _⟩ => show k.val + 0 = (headAt false k).val; rfl
      | ⟨2, _⟩ => rfl
      | ⟨3, _⟩ => show 0 + i.val = i.val; omega
    have hidx7 : ∀ (i : Fin 256), (Rect.unit (s := S32x1x256) (k0_off39 c ⟨k.val, hj⟩) S1x1x256.size (k0_off39_inb c ⟨k.val, hj⟩)).emb (ix3 (0 : Fin 1) (0 : Fin 1) i) = ix3 (⟨8 * ((c.val + 3) % 4) + (headAt false k).val, by have := (headAt false k).isLt; omega⟩ : Fin 32) (0 : Fin 1) i := by
      intro i
      funext a
      refine Fin.ext ?_
      rw [Rect.emb_apply]
      simp only [Rect.off_unit, Rect.stride_unit, Nat.one_mul, off39_eq]
      match a with
      | ⟨0, _⟩ => show 8 * ((c.val + 3) % 4) + k.val + 0 = 8 * ((c.val + 3) % 4) + (headAt false k).val; rfl
      | ⟨1, _⟩ => rfl
      | ⟨2, _⟩ => show 0 + i.val = i.val; omega
    rw [← hidx]
    refine (LoopsV.readS_k0_t4_arg9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 ⟨k.val, hj⟩ (ix4 (0 : Fin 1) (0 : Fin 1) (0 : Fin 1) i)).trans ?_
    rw [LoopsV.before_k0_t4_arg9]
    have hA : View.readAt (Elt F) rsL.view (Rect.unit (s := S3x8x1x256) (k0_off38 ⟨k.val, hj⟩) S1x1x1x256.size (k0_off38_inb ⟨k.val, hj⟩)).toLoadRect f9
        = fun s : S1x1x1x256.Idx => (srcL c (Fin.succ (0 : Fin 2)) false).view.read (Elt F) f9 (ix3 k (0 : Fin 1) (⟨(s 3).val, (s 3).isLt⟩ : Fin 256)) := by
      funext s
      obtain ⟨u, v, w, i', rfl⟩ : ∃ (u v w : Fin 1) (i' : Fin 256), s = ix4 u v w i' := ⟨s 0, s 1, s 2, s 3, eq_ix4 s⟩
      obtain rfl : u = 0 := Subsingleton.elim _ _
      obtain rfl : v = 0 := Subsingleton.elim _ _
      obtain rfl : w = 0 := Subsingleton.elim _ _
      refine Eq.trans ?_ (dstL_read_0f c f9 k 0 i').symm
      exact congrArg f9 (hidx i')
    have hB : View.readAt (Elt F) locL.view (Rect.unit (s := S32x1x256) (k0_off39 c ⟨k.val, hj⟩) S1x1x256.size (k0_off39_inb c ⟨k.val, hj⟩)).toLoadRect fL3
        = fun t : S1x1x256.Idx => fL3 (ix3 (⟨8 * ((c.val + 3) % 4) + (headAt false k).val, by have := (headAt false k).isLt; omega⟩ : Fin 32) (0 : Fin 1) (⟨(t 2).val, (t 2).isLt⟩ : Fin 256)) := by
      funext t
      obtain ⟨u, v, i', rfl⟩ : ∃ (u v : Fin 1) (i' : Fin 256), t = ix3 u v i' := ⟨t 0, t 1, t 2, eq_ix3 t⟩
      obtain rfl : u = 0 := Subsingleton.elim _ _
      obtain rfl : v = 0 := Subsingleton.elim _ _
      exact congrArg fL3 (hidx7 i')
    rw [hA, hB]
    all_goals rfl
/-- The second merge, numerators: the merged landing slice, read as hop 1's source, is what the schedule sends then. -/
theorem mergeO5_value (m : (ℓ : Loc nD τ sig) → Buf (Elt F) ℓ) (c : Dev nD) (v14 v25 w : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 8) (d : Fin 128) (i : Fin 256), fO3 (ix3 (⟨8 * ((c.val + 3) % 4) + k.val, by omega⟩ : Fin 32) d i) = KFun.ot m c (prv c) k (ix3 0 d i))
    (hrecv : (dstO 0 true).view.read (Elt F) f8 = (KFun.V m).o (fromDev c true) 0 true) :
    (srcO c 1 true).view.read (Elt F) (rsO.view.writes (Elt F) f8 (LoopsV.pbS_k0_t5 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 k0_t5_loop.trips).1) = (KFun.V m).o c 1 true := by
  refine vo_succ_of_merge m c 0 true f8 _ (fun k t => fO3 (ix3 (⟨8 * ((c.val + 3) % 4) + (headAt true k).val, by have := (headAt true k).isLt; omega⟩ : Fin 32) (⟨(t 1).val, (t 1).isLt⟩ : Fin 128) (⟨(t 2).val, (t 2).isLt⟩ : Fin 256))) hrecv ?_ ?_
  · intro k
    funext t
    obtain ⟨u, d, i, rfl⟩ : ∃ (u : Fin 1) (d : Fin 128) (i : Fin 256), t = ix3 u d i := ⟨t 0, t 1, t 2, eq_ix3 t⟩
    obtain rfl : u = 0 := Subsingleton.elim _ _
    exact hrows (headAt true k) d i
  · intro k d i
    refine (dstO_read_0t c _ k d i).trans ?_
    have hj : k.val < k0_t5_loop.trips := by rw [t5_trips]; exact k.isLt
    have hidx : ∀ (d : Fin 128) (i : Fin 256), (Rect.unit (s := S3x8x128x256) (k0_off44 ⟨k.val, hj⟩) S1x1x128x256.size (k0_off44_inb ⟨k.val, hj⟩)).emb (ix4 (0 : Fin 1) (0 : Fin 1) d i) = ix4 (0 : Fin 3) (headAt true k) d i := by
      intro d i
      funext a
      refine Fin.ext ?_
      rw [Rect.emb_apply]
      simp only [Rect.off_unit, Rect.stride_unit, Nat.one_mul, k0_off44_eq]
      match a with
      | ⟨0, _⟩ => rfl
      | ⟨1, _⟩ => show k.val + 4 + 0 = (headAt true k).val; rfl
      | ⟨2, _⟩ => show 0 + d.val = d.val; omega
      | ⟨3, _⟩ => show 0 + i.val = i.val; omega
    have hidx6 : ∀ (d : Fin 128) (i : Fin 256), (Rect.unit (s := S32x128x256) (k0_off45 c ⟨k.val, hj⟩) S1x128x256.size (k0_off45_inb c ⟨k.val, hj⟩)).emb (ix3 (0 : Fin 1) d i) = ix3 (⟨8 * ((c.val + 3) % 4) + (headAt true k).val, by have := (headAt true k).isLt; omega⟩ : Fin 32) d i := by
      intro d i
      funext a
      refine Fin.ext ?_
      rw [Rect.emb_apply]
      simp only [Rect.off_unit, Rect.stride_unit, Nat.one_mul, off45_eq]
      match a with
      | ⟨0, _⟩ => show 8 * ((c.val + 3) % 4) + (k.val + 4) + 0 = 8 * ((c.val + 3) % 4) + (headAt true k).val; rfl
      | ⟨1, _⟩ => show 0 + d.val = d.val; omega
      | ⟨2, _⟩ => show 0 + i.val = i.val; omega
    rw [← hidx]
    refine (LoopsV.readS_k0_t5_arg8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 ⟨k.val, hj⟩ (ix4 (0 : Fin 1) (0 : Fin 1) d i)).trans ?_
    rw [LoopsV.before_k0_t5_arg8]
    have hA : View.readAt (Elt F) rsO.view (Rect.unit (s := S3x8x128x256) (k0_off44 ⟨k.val, hj⟩) S1x1x128x256.size (k0_off44_inb ⟨k.val, hj⟩)).toLoadRect f8
        = fun s : S1x1x128x256.Idx => (srcO c (Fin.succ (0 : Fin 2)) true).view.read (Elt F) f8 (ix3 k (⟨(s 2).val, (s 2).isLt⟩ : Fin 128) (⟨(s 3).val, (s 3).isLt⟩ : Fin 256)) := by
      funext s
      obtain ⟨u, v, d', i', rfl⟩ : ∃ (u v : Fin 1) (d' : Fin 128) (i' : Fin 256), s = ix4 u v d' i' := ⟨s 0, s 1, s 2, s 3, eq_ix4 s⟩
      obtain rfl : u = 0 := Subsingleton.elim _ _
      obtain rfl : v = 0 := Subsingleton.elim _ _
      refine Eq.trans ?_ (dstO_read_0t c f8 k d' i').symm
      exact congrArg f8 (hidx d' i')
    have hB : View.readAt (Elt F) locO.view (Rect.unit (s := S32x128x256) (k0_off45 c ⟨k.val, hj⟩) S1x128x256.size (k0_off45_inb c ⟨k.val, hj⟩)).toLoadRect fO3
        = fun t : S1x128x256.Idx => fO3 (ix3 (⟨8 * ((c.val + 3) % 4) + (headAt true k).val, by have := (headAt true k).isLt; omega⟩ : Fin 32) (⟨(t 1).val, (t 1).isLt⟩ : Fin 128) (⟨(t 2).val, (t 2).isLt⟩ : Fin 256)) := by
      funext t
      obtain ⟨u, d', i', rfl⟩ : ∃ (u : Fin 1) (d' : Fin 128) (i' : Fin 256), t = ix3 u d' i' := ⟨t 0, t 1, t 2, eq_ix3 t⟩
      obtain rfl : u = 0 := Subsingleton.elim _ _
      exact congrArg fO3 (hidx6 d' i')
    rw [hA, hB]
    all_goals rfl

/-- The second merge, denominators. -/
theorem mergeL5_value (m : (ℓ : Loc nD τ sig) → Buf (Elt F) ℓ) (c : Dev nD) (v14 v25 w : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 8) (i : Fin 256), fL3 (ix3 (⟨8 * ((c.val + 3) % 4) + k.val, by omega⟩ : Fin 32) (0 : Fin 1) i) = KFun.lrow m c (prv c) k (ix3 0 0 i))
    (hrecv : (dstL 0 true).view.read (Elt F) f9 = (KFun.V m).l (fromDev c true) 0 true) :
    (srcL c 1 true).view.read (Elt F) (rsL.view.writes (Elt F) f9 (LoopsV.pbS_k0_t5 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 k0_t5_loop.trips).2) = (KFun.V m).l c 1 true := by
  refine vl_succ_of_merge m c 0 true f9 _ (fun k t => fL3 (ix3 (⟨8 * ((c.val + 3) % 4) + (headAt true k).val, by have := (headAt true k).isLt; omega⟩ : Fin 32) (0 : Fin 1) (⟨(t 2).val, (t 2).isLt⟩ : Fin 256))) hrecv ?_ ?_
  · intro k
    funext t
    obtain ⟨u, v, i, rfl⟩ : ∃ (u v : Fin 1) (i : Fin 256), t = ix3 u v i := ⟨t 0, t 1, t 2, eq_ix3 t⟩
    obtain rfl : u = 0 := Subsingleton.elim _ _
    obtain rfl : v = 0 := Subsingleton.elim _ _
    exact hrows (headAt true k) i
  · intro k i
    refine (dstL_read_0t c _ k 0 i).trans ?_
    have hj : k.val < k0_t5_loop.trips := by rw [t5_trips]; exact k.isLt
    have hidx : ∀ (i : Fin 256), (Rect.unit (s := S3x8x1x256) (k0_off42 ⟨k.val, hj⟩) S1x1x1x256.size (k0_off42_inb ⟨k.val, hj⟩)).emb (ix4 (0 : Fin 1) (0 : Fin 1) (0 : Fin 1) i) = ix4 (0 : Fin 3) (headAt true k) (0 : Fin 1) i := by
      intro i
      funext a
      refine Fin.ext ?_
      rw [Rect.emb_apply]
      simp only [Rect.off_unit, Rect.stride_unit, Nat.one_mul, k0_off42_eq]
      match a with
      | ⟨0, _⟩ => rfl
      | ⟨1, _⟩ => show k.val + 4 + 0 = (headAt true k).val; rfl
      | ⟨2, _⟩ => rfl
      | ⟨3, _⟩ => show 0 + i.val = i.val; omega
    have hidx7 : ∀ (i : Fin 256), (Rect.unit (s := S32x1x256) (k0_off43 c ⟨k.val, hj⟩) S1x1x256.size (k0_off43_inb c ⟨k.val, hj⟩)).emb (ix3 (0 : Fin 1) (0 : Fin 1) i) = ix3 (⟨8 * ((c.val + 3) % 4) + (headAt true k).val, by have := (headAt true k).isLt; omega⟩ : Fin 32) (0 : Fin 1) i := by
      intro i
      funext a
      refine Fin.ext ?_
      rw [Rect.emb_apply]
      simp only [Rect.off_unit, Rect.stride_unit, Nat.one_mul, off43_eq]
      match a with
      | ⟨0, _⟩ => show 8 * ((c.val + 3) % 4) + (k.val + 4) + 0 = 8 * ((c.val + 3) % 4) + (headAt true k).val; rfl
      | ⟨1, _⟩ => rfl
      | ⟨2, _⟩ => show 0 + i.val = i.val; omega
    rw [← hidx]
    refine (LoopsV.readS_k0_t5_arg9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 ⟨k.val, hj⟩ (ix4 (0 : Fin 1) (0 : Fin 1) (0 : Fin 1) i)).trans ?_
    rw [LoopsV.before_k0_t5_arg9]
    have hA : View.readAt (Elt F) rsL.view (Rect.unit (s := S3x8x1x256) (k0_off42 ⟨k.val, hj⟩) S1x1x1x256.size (k0_off42_inb ⟨k.val, hj⟩)).toLoadRect f9
        = fun s : S1x1x1x256.Idx => (srcL c (Fin.succ (0 : Fin 2)) true).view.read (Elt F) f9 (ix3 k (0 : Fin 1) (⟨(s 3).val, (s 3).isLt⟩ : Fin 256)) := by
      funext s
      obtain ⟨u, v, w, i', rfl⟩ : ∃ (u v w : Fin 1) (i' : Fin 256), s = ix4 u v w i' := ⟨s 0, s 1, s 2, s 3, eq_ix4 s⟩
      obtain rfl : u = 0 := Subsingleton.elim _ _
      obtain rfl : v = 0 := Subsingleton.elim _ _
      obtain rfl : w = 0 := Subsingleton.elim _ _
      refine Eq.trans ?_ (dstL_read_0t c f9 k 0 i').symm
      exact congrArg f9 (hidx i')
    have hB : View.readAt (Elt F) locL.view (Rect.unit (s := S32x1x256) (k0_off43 c ⟨k.val, hj⟩) S1x1x256.size (k0_off43_inb c ⟨k.val, hj⟩)).toLoadRect fL3
        = fun t : S1x1x256.Idx => fL3 (ix3 (⟨8 * ((c.val + 3) % 4) + (headAt true k).val, by have := (headAt true k).isLt; omega⟩ : Fin 32) (0 : Fin 1) (⟨(t 2).val, (t 2).isLt⟩ : Fin 256)) := by
      funext t
      obtain ⟨u, v, i', rfl⟩ : ∃ (u v : Fin 1) (i' : Fin 256), t = ix3 u v i' := ⟨t 0, t 1, t 2, eq_ix3 t⟩
      obtain rfl : u = 0 := Subsingleton.elim _ _
      obtain rfl : v = 0 := Subsingleton.elim _ _
      exact congrArg fL3 (hidx7 i')
    rw [hA, hB]
    all_goals rfl

/-- From the cut before the first merge to the cut before the third flash step, with the merged slices' values in hand. -/
theorem segC (m : (ℓ : Loc nD τ sig) → Buf (Elt F) ℓ) (c : Dev nD) (K : Names) (W : Waits sig Unit) (R : sProp (MT nD τ sig Unit (Elt F) ℕ UU ℕ)) (d0 : Dev nD) (v2 v14 v25 : BitVec 32) :
    At27 m c K W R d0 v2 v14 v25 ⊢ wp frame (wpE (defs₀ (F := F)) 𝒱₀ (c : Thread nD τ) none) Set.univ
      (segCProg (F := F) (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) d0 v2 v14 v25) (fun r => iprop(∃ W', Post32 m c K W' R r)) :=
  segC_ok m c K W R d0 v2 v14 v25
    (fun fO3 fL3 f8 f9 h1 h2 => mergeO4_value m c v2 v14 fO3 fL3 f8 f9 h1 h2)
    (fun fO3 fL3 f8 f9 h1 h2 => mergeL4_value m c v2 v14 fO3 fL3 f8 f9 h1 h2)
    (fun w fO3 fL3 f8 f9 h1 h2 => mergeO5_value m c v14 v25 w fO3 fL3 f8 f9 h1 h2)
    (fun w fO3 fL3 f8 f9 h1 h2 => mergeL5_value m c v14 v25 w fO3 fL3 f8 f9 h1 h2)

end Cert.KernelIdeal.Proto

end
-- ==== Proof.SchedAuto.lean ====
/-
  The ring schedule's tables spelt all the way down to points-to facts and reached rounds.

  A barrier payload is eighteen leaves: for each of the three hops the neighbour's three landing slices, each at some
  contents, and the fact that the neighbour stands at round 0 of the three receive cells the transfers credit. Written as
  one flat chain, with the device a landing slice lies on named outright: for the unit a device `c` pays on its left
  neighbour's cell the slices lie on `c` itself (`nxt (prv c) = c`), likewise for its right neighbour's. What a device owes
  is the sum of its remaining payments' tallies, each credited cell named outright. A slice held at contents that read
  as `w` is the slice held at the one buffer that is `w` on the slice: a points-to over the slice sees nothing else.
-/
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.Data

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem sep_assoc_eq (P Q R : sProp 𝕄) : iprop((P ∗ Q) ∗ R) = iprop(P ∗ Q ∗ R) :=
  BI.Entails.antisymm BI.sep_assoc BI.sep_assoc'

/-! ## The barrier payloads a device HANDS OVER, the landing slices on the device itself -/

/-- With its unit on its left neighbour's barrier cell device `c` hands over its own landing slices of the right-going
    transfers, each at some contents, and that it stands at round 0 of the receive cells they credit. -/
@[sl_rounds] theorem barPay_prv_false (c : Dev nD) : barPay (F := F) (prv c) false = iprop(
    (∃ f, (dstO 0 false).view.loc (c : Thread nD τ) ↦[(dstO 0 false).view.set]{fullShare} f)
      ∗ (∃ f, (dstL 0 false).view.loc (c : Thread nD τ) ↦[(dstL 0 false).view.set]{fullShare} f)
      ∗ (∃ f, (agS (prv c) 0 false).view.loc (c : Thread nD τ) ↦[(agS (prv c) 0 false).view.set]{fullShare} f)
      ∗ reached ER (recvCell c .o false 0) 0 ∗ reached ER (recvCell c .l false 0) 0 ∗ reached ER (recvCell c .g false 0) 0
      ∗ (∃ f, (dstO 1 false).view.loc (c : Thread nD τ) ↦[(dstO 1 false).view.set]{fullShare} f)
      ∗ (∃ f, (dstL 1 false).view.loc (c : Thread nD τ) ↦[(dstL 1 false).view.set]{fullShare} f)
      ∗ (∃ f, (agS (prv c) 1 false).view.loc (c : Thread nD τ) ↦[(agS (prv c) 1 false).view.set]{fullShare} f)
      ∗ reached ER (recvCell c .o false 1) 0 ∗ reached ER (recvCell c .l false 1) 0 ∗ reached ER (recvCell c .g false 1) 0
      ∗ (∃ f, (dstO 2 false).view.loc (c : Thread nD τ) ↦[(dstO 2 false).view.set]{fullShare} f)
      ∗ (∃ f, (dstL 2 false).view.loc (c : Thread nD τ) ↦[(dstL 2 false).view.set]{fullShare} f)
      ∗ (∃ f, (agS (prv c) 2 false).view.loc (c : Thread nD τ) ↦[(agS (prv c) 2 false).view.set]{fullShare} f)
      ∗ reached ER (recvCell c .o false 2) 0 ∗ reached ER (recvCell c .l false 2) 0 ∗ reached ER (recvCell c .g false 2) 0) := by
  unfold barPay landing held
  rw [show toDev (prv c) false = c from nxt_prv c]
  simp only [sep_assoc_eq]

/-- With its unit on its right neighbour's barrier cell: its landing slices of the left-going transfers. -/
@[sl_rounds] theorem barPay_nxt_true (c : Dev nD) : barPay (F := F) (nxt c) true = iprop(
    (∃ f, (dstO 0 true).view.loc (c : Thread nD τ) ↦[(dstO 0 true).view.set]{fullShare} f)
      ∗ (∃ f, (dstL 0 true).view.loc (c : Thread nD τ) ↦[(dstL 0 true).view.set]{fullShare} f)
      ∗ (∃ f, (agS (nxt c) 0 true).view.loc (c : Thread nD τ) ↦[(agS (nxt c) 0 true).view.set]{fullShare} f)
      ∗ reached ER (recvCell c .o true 0) 0 ∗ reached ER (recvCell c .l true 0) 0 ∗ reached ER (recvCell c .g true 0) 0
      ∗ (∃ f, (dstO 1 true).view.loc (c : Thread nD τ) ↦[(dstO 1 true).view.set]{fullShare} f)
      ∗ (∃ f, (dstL 1 true).view.loc (c : Thread nD τ) ↦[(dstL 1 true).view.set]{fullShare} f)
      ∗ (∃ f, (agS (nxt c) 1 true).view.loc (c : Thread nD τ) ↦[(agS (nxt c) 1 true).view.set]{fullShare} f)
      ∗ reached ER (recvCell c .o true 1) 0 ∗ reached ER (recvCell c .l true 1) 0 ∗ reached ER (recvCell c .g true 1) 0
      ∗ (∃ f, (dstO 2 true).view.loc (c : Thread nD τ) ↦[(dstO 2 true).view.set]{fullShare} f)
      ∗ (∃ f, (dstL 2 true).view.loc (c : Thread nD τ) ↦[(dstL 2 true).view.set]{fullShare} f)
      ∗ (∃ f, (agS (nxt c) 2 true).view.loc (c : Thread nD τ) ↦[(agS (nxt c) 2 true).view.set]{fullShare} f)
      ∗ reached ER (recvCell c .o true 2) 0 ∗ reached ER (recvCell c .l true 2) 0 ∗ reached ER (recvCell c .g true 2) 0) := by
  unfold barPay landing held
  rw [show toDev (nxt c) true = c from prv_nxt c]
  simp only [sep_assoc_eq]

/-! ## The barrier payloads a device RECEIVES with its barrier wait, the landing slices on its neighbours

These two are stated for any device and are kept apart from the two above: read at `prv c` or at `nxt c` they name the
device the slices lie on as `nxt (prv c)` or `prv (nxt c)`, not as `c`. -/

theorem barPay_false (c : Dev nD) : barPay (F := F) c false = iprop(
    (∃ f, (dstO 0 false).view.loc ((nxt c : Dev nD) : Thread nD τ) ↦[(dstO 0 false).view.set]{fullShare} f)
      ∗ (∃ f, (dstL 0 false).view.loc ((nxt c : Dev nD) : Thread nD τ) ↦[(dstL 0 false).view.set]{fullShare} f)
      ∗ (∃ f, (agS c 0 false).view.loc ((nxt c : Dev nD) : Thread nD τ) ↦[(agS c 0 false).view.set]{fullShare} f)
      ∗ reached ER (recvCell (nxt c) .o false 0) 0 ∗ reached ER (recvCell (nxt c) .l false 0) 0 ∗ reached ER (recvCell (nxt c) .g false 0) 0
      ∗ (∃ f, (dstO 1 false).view.loc ((nxt c : Dev nD) : Thread nD τ) ↦[(dstO 1 false).view.set]{fullShare} f)
      ∗ (∃ f, (dstL 1 false).view.loc ((nxt c : Dev nD) : Thread nD τ) ↦[(dstL 1 false).view.set]{fullShare} f)
      ∗ (∃ f, (agS c 1 false).view.loc ((nxt c : Dev nD) : Thread nD τ) ↦[(agS c 1 false).view.set]{fullShare} f)
      ∗ reached ER (recvCell (nxt c) .o false 1) 0 ∗ reached ER (recvCell (nxt c) .l false 1) 0 ∗ reached ER (recvCell (nxt c) .g false 1) 0
      ∗ (∃ f, (dstO 2 false).view.loc ((nxt c : Dev nD) : Thread nD τ) ↦[(dstO 2 false).view.set]{fullShare} f)
      ∗ (∃ f, (dstL 2 false).view.loc ((nxt c : Dev nD) : Thread nD τ) ↦[(dstL 2 false).view.set]{fullShare} f)
      ∗ (∃ f, (agS c 2 false).view.loc ((nxt c : Dev nD) : Thread nD τ) ↦[(agS c 2 false).view.set]{fullShare} f)
      ∗ reached ER (recvCell (nxt c) .o false 2) 0 ∗ reached ER (recvCell (nxt c) .l false 2) 0 ∗ reached ER (recvCell (nxt c) .g false 2) 0) := by
  unfold barPay landing held
  simp only [sep_assoc_eq]
  rfl

theorem barPay_true (c : Dev nD) : barPay (F := F) c true = iprop(
    (∃ f, (dstO 0 true).view.loc ((prv c : Dev nD) : Thread nD τ) ↦[(dstO 0 true).view.set]{fullShare} f)
      ∗ (∃ f, (dstL 0 true).view.loc ((prv c : Dev nD) : Thread nD τ) ↦[(dstL 0 true).view.set]{fullShare} f)
      ∗ (∃ f, (agS c 0 true).view.loc ((prv c : Dev nD) : Thread nD τ) ↦[(agS c 0 true).view.set]{fullShare} f)
      ∗ reached ER (recvCell (prv c) .o true 0) 0 ∗ reached ER (recvCell (prv c) .l true 0) 0 ∗ reached ER (recvCell (prv c) .g true 0) 0
      ∗ (∃ f, (dstO 1 true).view.loc ((prv c : Dev nD) : Thread nD τ) ↦[(dstO 1 true).view.set]{fullShare} f)
      ∗ (∃ f, (dstL 1 true).view.loc ((prv c : Dev nD) : Thread nD τ) ↦[(dstL 1 true).view.set]{fullShare} f)
      ∗ (∃ f, (agS c 1 true).view.loc ((prv c : Dev nD) : Thread nD τ) ↦[(agS c 1 true).view.set]{fullShare} f)
      ∗ reached ER (recvCell (prv c) .o true 1) 0 ∗ reached ER (recvCell (prv c) .l true 1) 0 ∗ reached ER (recvCell (prv c) .g true 1) 0
      ∗ (∃ f, (dstO 2 true).view.loc ((prv c : Dev nD) : Thread nD τ) ↦[(dstO 2 true).view.set]{fullShare} f)
      ∗ (∃ f, (dstL 2 true).view.loc ((prv c : Dev nD) : Thread nD τ) ↦[(dstL 2 true).view.set]{fullShare} f)
      ∗ (∃ f, (agS c 2 true).view.loc ((prv c : Dev nD) : Thread nD τ) ↦[(agS c 2 true).view.set]{fullShare} f)
      ∗ reached ER (recvCell (prv c) .o true 2) 0 ∗ reached ER (recvCell (prv c) .l true 2) 0 ∗ reached ER (recvCell (prv c) .g true 2) 0) := by
  unfold barPay landing held
  simp only [sep_assoc_eq]
  rfl

/-- The payloads of the barrier round, both duties. -/
theorem barPay_both (c : Dev nD) : (bigSep Finset.univ fun d : Bool => barPay (F := F) c d) = iprop(barPay c true ∗ barPay c false) :=
  bigSep_univ_eq_bigSepL [true, false] (by decide) (by decide) _

/-! ## What a device owes, as a sum of tallies -/

theorem owedOf_bar_true (c : Dev nD) (ps : List Pay) : owedOf c (.bar true :: ps) = owedOf c ps + tallyAt (barCell (prv c)) () 1 := rfl
theorem owedOf_bar_false (c : Dev nD) (ps : List Pay) : owedOf c (.bar false :: ps) = owedOf c ps + tallyAt (barCell (nxt c)) () 1 := rfl
theorem owedOf_xfer_false (c : Dev nD) (k : Kind) (h : Fin 3) (ps : List Pay) :
    owedOf c (.xfer k false h :: ps) = owedOf c ps + tallyAt (recvCell (nxt c) k false h) () (amt k) := rfl
theorem owedOf_xfer_true (c : Dev nD) (k : Kind) (h : Fin 3) (ps : List Pay) :
    owedOf c (.xfer k true h :: ps) = owedOf c ps + tallyAt (recvCell (prv c) k true h) () (amt k) := rfl

/-- What device `c` owes at launch, payment by payment (the first payment last), each credited cell named outright. -/
theorem owedOf_prog (c : Dev nD) : owedOf c prog = (0
      + tallyAt (recvCell (prv c) .g true 2) () (amt .g)
      + tallyAt (recvCell (nxt c) .g false 2) () (amt .g)
      + tallyAt (recvCell (prv c) .g true 1) () (amt .g)
      + tallyAt (recvCell (nxt c) .g false 1) () (amt .g)
      + tallyAt (recvCell (prv c) .g true 0) () (amt .g)
      + tallyAt (recvCell (nxt c) .g false 0) () (amt .g)
      + tallyAt (recvCell (prv c) .l true 2) () (amt .l)
      + tallyAt (recvCell (nxt c) .l false 2) () (amt .l)
      + tallyAt (recvCell (prv c) .o true 2) () (amt .o)
      + tallyAt (recvCell (nxt c) .o false 2) () (amt .o)
      + tallyAt (recvCell (prv c) .l true 1) () (amt .l)
      + tallyAt (recvCell (nxt c) .l false 1) () (amt .l)
      + tallyAt (recvCell (prv c) .o true 1) () (amt .o)
      + tallyAt (recvCell (nxt c) .o false 1) () (amt .o)
      + tallyAt (recvCell (prv c) .l true 0) () (amt .l)
      + tallyAt (recvCell (prv c) .o true 0) () (amt .o)
      + tallyAt (recvCell (nxt c) .l false 0) () (amt .l)
      + tallyAt (recvCell (nxt c) .o false 0) () (amt .o)
      + tallyAt (barCell (nxt c)) () 1
      + tallyAt (barCell (prv c)) () 1 : CellTallies nD τ sig Unit) := rfl

/-! ## A slice held at contents that read as `w` -/

/-- A filler for the part of a buffer a slice does not see. -/
def filler (T : BufTy) : T.Contents (Elt F) := fun _ => Classical.arbitrary _

/-- A slice held at contents that read as `w` is the slice held at the buffer that is `w` on the slice (and the filler
    elsewhere): a points-to over the slice's own elements sees nothing else. -/
theorem heldAs_eq {sp : Space} {s : Shape} {e : EltTy} (c : Dev nD) (mr : Memref sig .tc sp s e) (w : s.Idx → Elt F e) :
    heldAs c mr w = (mr.view.loc (c : Thread nD τ) ↦[mr.view.set]{fullShare} mr.view.write (Elt F) (filler mr.view.ty) w Finset.univ : sProp 𝕄) := by
  have h1 : heldAs c mr w ⊢ (mr.view.loc (c : Thread nD τ) ↦[mr.view.set]{fullShare} mr.view.write (Elt F) (filler mr.view.ty) w Finset.univ : sProp 𝕄) := by
    unfold heldAs
    iintro ⟨%f, H, %hf⟩
    rw [show (mr.view.loc (c : Thread nD τ) ↦[mr.view.set]{fullShare} mr.view.write (Elt F) (filler mr.view.ty) w Finset.univ : sProp 𝕄)
        = (mr.view.loc (c : Thread nD τ) ↦[mr.view.set]{fullShare} f) from pointsTo_congr fun i hi => by
      obtain ⟨x, -, rfl⟩ := Finset.mem_map.mp hi
      rw [View.write_emb_of_mem _ _ (Finset.mem_univ _), ← hf, View.read_apply, cast_cast, cast_eq]]
    iexact H
  have h2 : (mr.view.loc (c : Thread nD τ) ↦[mr.view.set]{fullShare} mr.view.write (Elt F) (filler mr.view.ty) w Finset.univ : sProp 𝕄) ⊢ heldAs c mr w := by
    unfold heldAs
    iintro H
    iexists _
    isplitl [H]; · iexact H
    ipureintro; exact View.read_write_univ _ _
  exact BI.Entails.antisymm h1 h2

end Cert.KernelIdeal.Proto

end
-- ==== Proof.BodyE.lean ====
/-
  The body's segment from the last merge of the reduction's second hop to its first output term.

  From the cut before that merge (`At40`) the device: adds its own partial sums of batch `c` (heads 4–7) to the left-going
  half it received at hop 1; sends both merged halves on at hop 2 — numerators and denominators, to the right and to the left —
  and waits for the four transfers at their send and receive cells; adds its partial sums of batch `c + 1` to the two halves
  received at hop 2, which then hold the full sums of batch `c + 1` over the four devices; and stores head 0's term of the
  projection into block `c + 1` of the result buffer. It ends in the state the tail starts from (`AtTail`).

  What the merges and the first term compute is taken as four equations between values (`Merge8`, `Merge9`, `Merge10`,
  `Acc0`), stated over the contents the three loops leave; the protocol and the ownership are proved here.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.SchedAuto
import proofs.«900754_g7700000000000755_dist_attn_cross_gqa_kvseq_b4_sq256_skv1024_d1024_hq8_dh128_v7x_i4_f32_1_alg».proof.Proof.Unfold
import proofs.«900754_g7700000000000755_dist_attn_cross_gqa_kvseq_b4_sq256_skv1024_d1024_hq8_dh128_v7x_i4_f32_1_alg».proof.Proof.Split
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.Within
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.OpSend
import proofs.«900754_g7700000000000755_dist_attn_cross_gqa_kvseq_b4_sq256_skv1024_d1024_hq8_dh128_v7x_i4_f32_1_alg».proof.Proof.OpWait
import proofs.«900754_g7700000000000755_dist_attn_cross_gqa_kvseq_b4_sq256_skv1024_d1024_hq8_dh128_v7x_i4_f32_1_alg».proof.Proof.KLaunch
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.Bridge
import proofs.«900754_g7700000000000755_dist_attn_cross_gqa_kvseq_b4_sq256_skv1024_d1024_hq8_dh128_v7x_i4_f32_1_alg».proof.Proof.LoopsV
import proofs.«900754_g7700000000000755_dist_attn_cross_gqa_kvseq_b4_sq256_skv1024_d1024_hq8_dh128_v7x_i4_f32_1_alg».proof.Proof.LoopsVFacts
import proofs.«900754_g7700000000000755_dist_attn_cross_gqa_kvseq_b4_sq256_skv1024_d1024_hq8_dh128_v7x_i4_f32_1_alg».proof.Proof.Gen.KernelIdeal.Skeleton
import proofs.«900754_g7700000000000755_dist_attn_cross_gqa_kvseq_b4_sq256_skv1024_d1024_hq8_dh128_v7x_i4_f32_1_alg».proof.Proof.Gen.KernelIdeal.Loops
import proofs.«900754_g7700000000000755_dist_attn_cross_gqa_kvseq_b4_sq256_skv1024_d1024_hq8_dh128_v7x_i4_f32_1_alg».proof.Proof.Gen.KernelIdeal.Points
import proofs.«900754_g7700000000000755_dist_attn_cross_gqa_kvseq_b4_sq256_skv1024_d1024_hq8_dh128_v7x_i4_f32_1_alg».proof.Proof.Gen.KernelIdeal.Frame
import proofs.«900754_g7700000000000755_dist_attn_cross_gqa_kvseq_b4_sq256_skv1024_d1024_hq8_dh128_v7x_i4_f32_1_alg».proof.Proof.Segs
import proofs.«900754_g7700000000000755_dist_attn_cross_gqa_kvseq_b4_sq256_skv1024_d1024_hq8_dh128_v7x_i4_f32_1_alg».proof.Proof.TailSpec
import proofs.«900754_g7700000000000755_dist_attn_cross_gqa_kvseq_b4_sq256_skv1024_d1024_hq8_dh128_v7x_i4_f32_1_alg».proof.Proof.Cut40
import Idealize.ShloMosaic.Lib.Tactic

set_option maxRecDepth 16384

noncomputable section

namespace Cert.KernelIdeal.Proto

open Cert.KernelIdeal Cert.KernelIdeal.Gen Cert.KernelIdeal.Ring
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- The merge of hop 1's left-going half, as values: with the half block of the device's own partial sums of batch `c`
    (heads 4–7) and the landing slice as the right neighbour sent it, the slice after the four trips reads as what hop 2
    sends to the left. -/
def Merge8 (m : (ℓ : Loc nD τ sig) → Buf (Elt F) ℓ) (c : Dev nD) (v14 v25 v1014 v1015 : BitVec 32) (v1020 : BitVec 1) : Prop :=
  ∀ (h6 : ∀ k : Fin k0_t8_loop.trips, (locO.access (Rect.unit (s := S32x128x256) (k0_off58 c k) S1x128x256.size (k0_off58_inb c k))).set ⊆ (locHalfO c 0 true).view.set) (h7 : ∀ k : Fin k0_t8_loop.trips, (locL.access (Rect.unit (s := S32x1x256) (k0_off56 c k) S1x1x256.size (k0_off56_inb c k))).set ⊆ (locHalfL c 0 true).view.set) (h8 : ∀ k : Fin k0_t8_loop.trips, (rsO.access (Rect.unit (s := S3x8x128x256) (k0_off57 k) S1x1x128x256.size (k0_off57_inb k))).set ⊆ (dstO 1 true).view.set) (h9 : ∀ k : Fin k0_t8_loop.trips, (rsL.access (Rect.unit (s := S3x8x1x256) (k0_off55 k) S1x1x1x256.size (k0_off55_inb k))).set ⊆ (dstL 1 true).view.set) (X6 : BufTy.Contents (Elt F) locO.view.ty) (X7 : BufTy.Contents (Elt F) locL.view.ty) (G8 : BufTy.Contents (Elt F) rsO.view.ty) (G9 : BufTy.Contents (Elt F) rsL.view.ty),
    (locHalfO c 0 true).view.read (Elt F) X6 = halfOt m c c true → (locHalfL c 0 true).view.read (Elt F) X7 = halfLr m c c true →
    (dstO 1 true).view.read (Elt F) G8 = (KFun.V m).o (nxt c) 1 true → (dstL 1 true).view.read (Elt F) G9 = (KFun.V m).l (nxt c) 1 true →
    (dstO 1 true).view.read (Elt F) (rsO.view.writes (Elt F) G8 (LoopsV.pbS_k0_t8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 k0_t8_loop.trips).1) = (KFun.V m).o c 2 true
    ∧ (dstL 1 true).view.read (Elt F) (rsL.view.writes (Elt F) G9 (LoopsV.pbS_k0_t8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 k0_t8_loop.trips).2) = (KFun.V m).l c 2 true

/-- The merge of hop 2's right-going half: the slice after the four trips reads as the full sums of batch `c + 1`, heads 0–3. -/
def Merge9 (m : (ℓ : Loc nD τ sig) → Buf (Elt F) ℓ) (c : Dev nD) (v14 : BitVec 32) : Prop :=
  ∀ (w : BitVec 32) (h6 : ∀ k : Fin k0_t9_loop.trips, (locO.access (Rect.unit (s := S32x128x256) (k0_off62 c k) S1x128x256.size (k0_off62_inb c k))).set ⊆ (locHalfO c 1 false).view.set) (h7 : ∀ k : Fin k0_t9_loop.trips, (locL.access (Rect.unit (s := S32x1x256) (k0_off60 c k) S1x1x256.size (k0_off60_inb c k))).set ⊆ (locHalfL c 1 false).view.set) (h8 : ∀ k : Fin k0_t9_loop.trips, (rsO.access (Rect.unit (s := S3x8x128x256) (k0_off61 k) S1x1x128x256.size (k0_off61_inb k))).set ⊆ (dstO 2 false).view.set) (h9 : ∀ k : Fin k0_t9_loop.trips, (rsL.access (Rect.unit (s := S3x8x1x256) (k0_off59 k) S1x1x1x256.size (k0_off59_inb k))).set ⊆ (dstL 2 false).view.set) (X6 : BufTy.Contents (Elt F) locO.view.ty) (X7 : BufTy.Contents (Elt F) locL.view.ty) (G8 : BufTy.Contents (Elt F) rsO.view.ty) (G9 : BufTy.Contents (Elt F) rsL.view.ty),
    (locHalfO c 1 false).view.read (Elt F) X6 = halfOt m c (nxt c) false → (locHalfL c 1 false).view.read (Elt F) X7 = halfLr m c (nxt c) false →
    (dstO 2 false).view.read (Elt F) G8 = (KFun.V m).o (prv c) 2 false → (dstL 2 false).view.read (Elt F) G9 = (KFun.V m).l (prv c) 2 false →
    (dstO 2 false).view.read (Elt F) (rsO.view.writes (Elt F) G8 (LoopsV.pbS_k0_t9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 k0_t9_loop.trips).1) = (fun t => KFun.voC m 3 c false (⟨(t 0).val, (t 0).isLt⟩ : Fin 4) (⟨(t 1).val, (t 1).isLt⟩ : Fin 128) (⟨(t 2).val, (t 2).isLt⟩ : Fin 256))
    ∧ (dstL 2 false).view.read (Elt F) (rsL.view.writes (Elt F) G9 (LoopsV.pbS_k0_t9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 k0_t9_loop.trips).2) = (fun t => KFun.vlC m 3 c false (⟨(t 0).val, (t 0).isLt⟩ : Fin 4) (⟨(t 2).val, (t 2).isLt⟩ : Fin 256))

/-- The merge of hop 2's left-going half: heads 4–7 of the same. -/
def Merge10 (m : (ℓ : Loc nD τ sig) → Buf (Elt F) ℓ) (c : Dev nD) (v2 : BitVec 32) : Prop :=
  ∀ (w1 w2 : BitVec 32) (b1 b2 b3 : BitVec 1) (h6 : ∀ k : Fin k0_t10_loop.trips, (locO.access (Rect.unit (s := S32x128x256) (k0_off66 c k) S1x128x256.size (k0_off66_inb c k))).set ⊆ (locHalfO c 1 true).view.set) (h7 : ∀ k : Fin k0_t10_loop.trips, (locL.access (Rect.unit (s := S32x1x256) (k0_off64 c k) S1x1x256.size (k0_off64_inb c k))).set ⊆ (locHalfL c 1 true).view.set) (h8 : ∀ k : Fin k0_t10_loop.trips, (rsO.access (Rect.unit (s := S3x8x128x256) (k0_off65 k) S1x1x128x256.size (k0_off65_inb k))).set ⊆ (dstO 2 true).view.set) (h9 : ∀ k : Fin k0_t10_loop.trips, (rsL.access (Rect.unit (s := S3x8x1x256) (k0_off63 k) S1x1x1x256.size (k0_off63_inb k))).set ⊆ (dstL 2 true).view.set) (X6 : BufTy.Contents (Elt F) locO.view.ty) (X7 : BufTy.Contents (Elt F) locL.view.ty) (G8 : BufTy.Contents (Elt F) rsO.view.ty) (G9 : BufTy.Contents (Elt F) rsL.view.ty),
    (locHalfO c 1 true).view.read (Elt F) X6 = halfOt m c (nxt c) true → (locHalfL c 1 true).view.read (Elt F) X7 = halfLr m c (nxt c) true →
    (dstO 2 true).view.read (Elt F) G8 = (KFun.V m).o (nxt c) 2 true → (dstL 2 true).view.read (Elt F) G9 = (KFun.V m).l (nxt c) 2 true →
    (dstO 2 true).view.read (Elt F) (rsO.view.writes (Elt F) G8 (LoopsV.pbS_k0_t10 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 k0_t10_loop.trips).1) = (fun t => KFun.voC m 3 c true (⟨(t 0).val, (t 0).isLt⟩ : Fin 4) (⟨(t 1).val, (t 1).isLt⟩ : Fin 128) (⟨(t 2).val, (t 2).isLt⟩ : Fin 256))
    ∧ (dstL 2 true).view.read (Elt F) (rsL.view.writes (Elt F) G9 (LoopsV.pbS_k0_t10 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 k0_t10_loop.trips).2) = (fun t => KFun.vlC m 3 c true (⟨(t 0).val, (t 0).isLt⟩ : Fin 4) (⟨(t 2).val, (t 2).isLt⟩ : Fin 256))

/-- The first output term, as a value: with the right-going half of the full sums in place, the result block `c + 1`
    after the store reads as head 0's term. -/
def Acc0 (m : (ℓ : Loc nD τ sig) → Buf (Elt F) ℓ) (c : Dev nD) : Prop :=
  ∀ (go : BufTy.Contents (Elt F) rsO.view.ty) (gl : BufTy.Contents (Elt F) rsL.view.ty) (g3 : Buf (Elt F) ((c : Thread nD τ).loc cc0_stg3_0)),
    (dstO 2 false).view.read (Elt F) go = (fun t => KFun.voC m 3 c false (⟨(t 0).val, (t 0).isLt⟩ : Fin 4) (⟨(t 1).val, (t 1).isLt⟩ : Fin 128) (⟨(t 2).val, (t 2).isLt⟩ : Fin 256)) → (dstL 2 false).view.read (Elt F) gl = (fun t => KFun.vlC m 3 c false (⟨(t 0).val, (t 0).isLt⟩ : Fin 4) (⟨(t 2).val, (t 2).isLt⟩ : Fin 256)) →
    ((Memref.whole cc0_stg3_0 : Memref sig .tc .vmem S4x256x1024 .f32).access (rOwn c)).read (Elt F) ((Memref.whole cc0_stg3_0 : Memref sig .tc .vmem S4x256x1024 .f32).view.writes (Elt F) g3 [⟨Rect.unit (s := S4x256x1024) (k0_off24 c 1#32) S1x256x1024.size (k0_off24_inb c 0), k0_pay104 (View.readAt (Elt F) (Memref.whole cc0_scratch2 : Memref sig .tc .vmem S3x8x128x256 .bf16).view (Rect.unit (s := S3x8x128x256) ![2, 0, 0, 0] S1x1x128x256.size inb_S3x8x128x256_S1x1x128x256_2_0_0_0).toLoadRect go) (View.readAt (Elt F) (Memref.whole cc0_scratch3 : Memref sig .tc .vmem S3x8x1x256 .f32).view (Rect.unit (s := S3x8x1x256) ![2, 0, 0, 0] S1x1x1x256.size inb_S3x8x1x256_S1x1x1x256_2_0_0_0).toLoadRect gl) (View.readAt (Elt F) (Memref.whole cc0_scratch8 : Memref sig .tc .vmem S1024x1024 .bf16).view (Rect.unit (s := S1024x1024) ![0, 0] S128x1024.size inb_S1024x1024_S128x1024_0_0).toLoadRect (KFun.wob m c))⟩]) = KFun.acc0 m c

set_option maxHeartbeats 40000000 in
/-- The segment, from the cut before the last merge of hop 1 to the cut before the second output term. -/
theorem segE_ok (m : (ℓ : Loc nD τ sig) → Buf (Elt F) ℓ) (c : Dev nD) (K : Names) (W : Waits sig Unit)
    (v2 v14 v25 v1014 v1015 : BitVec 32) (v1020 : BitVec 1)
    (hM8 : Merge8 m c v14 v25 v1014 v1015 v1020) (hM9 : Merge9 m c v14) (hM10 : Merge10 m c v2) (hAcc : Acc0 m c) :
    At40 m c K W ⊢ wp frame (wpE (defs₀ (F := F)) 𝒱₀ (c : Thread nD τ) none) Set.univ
      (segEProg (F := F) (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v1014 v1015 v1020)
      (fun _ => iprop(∃ W', AtTail m c K W')) := by
  unfold At40 oXfer lXfer invs held heldAs
  simp only [bigSep_xfer]
  iintro ⟨⟨#HIb, ⟨⟨#HIs_o0R, #HIr_o0R, #HIn_o0R⟩, ⟨#HIs_l0R, #HIr_l0R, #HIn_l0R⟩, ⟨#HIs_o0L, #HIr_o0L, #HIn_o0L⟩, ⟨#HIs_l0L, #HIr_l0L, #HIn_l0L⟩, ⟨#HIs_o1R, #HIr_o1R, #HIn_o1R⟩, ⟨#HIs_o1L, #HIr_o1L, #HIn_o1L⟩, ⟨#HIs_l1R, #HIr_l1R, #HIn_l1R⟩, ⟨#HIs_l1L, #HIr_l1L, #HIn_l1L⟩, ⟨#HIs_o2R, #HIr_o2R, #HIn_o2R⟩, ⟨#HIs_o2L, #HIr_o2L, #HIn_o2L⟩, ⟨#HIs_l2R, #HIr_l2R, #HIn_l2R⟩, ⟨#HIs_l2L, #HIr_l2L, #HIn_l2L⟩, ⟨#HIs_g0R, #HIr_g0R, #HIn_g0R⟩, ⟨#HIs_g0L, #HIr_g0L, #HIn_g0L⟩, ⟨#HIs_g1R, #HIr_g1R, #HIn_g1R⟩, ⟨#HIs_g1L, #HIr_g1L, #HIn_g1L⟩, ⟨#HIs_g2R, #HIr_g2R, #HIn_g2R⟩, ⟨#HIs_g2L, #HIr_g2L, #HIn_g2L⟩⟩, #HIbn, #HIbp⟩, #Hlev, HO, ⟨⟨Has_o2R, Har_o2R, Hts_o2R, Htn_o2R, Hc_o2R, Hn_o2R, #Hrs_o2R, #Hrn_o2R⟩, ⟨Has_o2L, Har_o2L, Hts_o2L, Htn_o2L, Hc_o2L, Hn_o2L, #Hrs_o2L, #Hrn_o2L⟩, ⟨Has_l2R, Har_l2R, Hts_l2R, Htn_l2R, Hc_l2R, Hn_l2R, #Hrs_l2R, #Hrn_l2R⟩, ⟨Has_l2L, Har_l2L, Hts_l2L, Htn_l2L, Hc_l2L, Hn_l2L, #Hrs_l2L, #Hrn_l2L⟩⟩, HG, HC, Hcs, Hhbm, Hx, Hwq, Hwo, ⟨%g3, Hout⟩, Hs4, Hs5, Hs6, Hs7, Hs8, Hs9, ⟨HhO0f, ⟨%X6a, HhO0t, %hX6a⟩, ⟨%X6b, HhO1f, %hX6b⟩, ⟨%X6c, HhO1t, %hX6c⟩, HhO2f, HhO2t, HhO3f, HhO3t⟩, ⟨HhL0f, ⟨%X7a, HhL0t, %hX7a⟩, ⟨%X7b, HhL1f, %hX7b⟩, ⟨%X7c, HhL1t, %hX7c⟩, HhL2f, HhL2t, HhL3f, HhL3t⟩, Hd_o0R, Hd_o0L, ⟨%fo1R, Hd_o1R, %ho1R⟩, ⟨%fo1L, Hd_o1L, %ho1L⟩, Hd_l0R, Hd_l0L, ⟨%fl1R, Hd_l1R, %hl1R⟩, ⟨%fl1L, Hd_l1L, %hl1L⟩, ⟨%f23, Hg_ownR, Hg_ownL⟩⟩
  ihave Hout := (Entails.of_eq (whole_pts (F := F) c cc0_stg3_0 g3)) $$ Hout
  have h8_6 := LoopsV.t8_arg6_within c
  have h8_7 := LoopsV.t8_arg7_within c
  have h8_8 := LoopsV.t8_arg8_within
  have h8_9 := LoopsV.t8_arg9_within
  have h9_6 := LoopsV.t9_arg6_within c
  have h9_7 := LoopsV.t9_arg7_within c
  have h9_8 := LoopsV.t9_arg8_within
  have h9_9 := LoopsV.t9_arg9_within
  have h10_6 := LoopsV.t10_arg6_within c
  have h10_7 := LoopsV.t10_arg7_within c
  have h10_8 := LoopsV.t10_arg8_within
  have h10_9 := LoopsV.t10_arg9_within
  rw [show prog.drop 10 = Pay.xfer .o false 2 :: .xfer .o true 2 :: .xfer .l false 2 :: .xfer .l true 2 :: gProg from rfl]
  unfold segEProg
  sl_exec
  iapply (wp_send_o (KFun.V m) c _ false 2 (dev11_eq c) fo1R ho1R (.xfer .o true 2 :: .xfer .l false 2 :: .xfer .l true 2 :: gProg) W (K (c, some (.o, false, 2, true))) (K (toDev c false, some (.o, false, 2, false)))) $$ [HO Hd_o1R Hn_o2R Hts_o2R Htn_o2R]
  · isplitr; · iexact HIs_o2R
    isplitr; · iexact HIn_o2R
    isplitl [Hd_o1R]; · iexact Hd_o1R
    isplitl [Hn_o2R]; · (unfold held; iexact Hn_o2R)
    isplitl [HO]; · iexact HO
    isplitl [Hts_o2R]; · iexact Hts_o2R
    isplitr; · iexact Hrs_o2R
    isplitl [Htn_o2R]; · iexact Htn_o2R
    iexact Hrn_o2R
  iintro ⟨Hcs_o2R, HO⟩
  sl_exec
  have hv8 := hM8 h8_6 h8_7 h8_8 h8_9 X6a X7a fo1L fl1L hX6a hX7a ho1L hl1L
  generalize hgo1L : rsO.view.writes (Elt F) fo1L _ = go1L
  generalize hgl1L : rsL.view.writes (Elt F) fl1L _ = gl1L
  have hv_o2L : (srcO c 2 true).view.read (Elt F) go1L = (KFun.V m).o c 2 true := by rw [← hgo1L]; exact hv8.1
  have hv_l2L : (srcL c 2 true).view.read (Elt F) gl1L = (KFun.V m).l c 2 true := by rw [← hgl1L]; exact hv8.2
  clear hgo1L hgl1L hv8
  iapply (wp_send_o (KFun.V m) c _ true 2 (dev12_eq c) go1L hv_o2L (.xfer .l false 2 :: .xfer .l true 2 :: gProg) W (K (c, some (.o, true, 2, true))) (K (toDev c true, some (.o, true, 2, false)))) $$ [HO Hd_o1L Hn_o2L Hts_o2L Htn_o2L]
  · isplitr; · iexact HIs_o2L
    isplitr; · iexact HIn_o2L
    isplitl [Hd_o1L]; · iexact Hd_o1L
    isplitl [Hn_o2L]; · (unfold held; iexact Hn_o2L)
    isplitl [HO]; · iexact HO
    isplitl [Hts_o2L]; · iexact Hts_o2L
    isplitr; · iexact Hrs_o2L
    isplitl [Htn_o2L]; · iexact Htn_o2L
    iexact Hrn_o2L
  iintro ⟨Hcs_o2L, HO⟩
  sl_exec
  iapply (wp_send_l (KFun.V m) c _ false 2 (dev13_eq c) fl1R hl1R (.xfer .l true 2 :: gProg) W (K (c, some (.l, false, 2, true))) (K (toDev c false, some (.l, false, 2, false)))) $$ [HO Hd_l1R Hn_l2R Hts_l2R Htn_l2R]
  · isplitr; · iexact HIs_l2R
    isplitr; · iexact HIn_l2R
    isplitl [Hd_l1R]; · iexact Hd_l1R
    isplitl [Hn_l2R]; · (unfold held; iexact Hn_l2R)
    isplitl [HO]; · iexact HO
    isplitl [Hts_l2R]; · iexact Hts_l2R
    isplitr; · iexact Hrs_l2R
    isplitl [Htn_l2R]; · iexact Htn_l2R
    iexact Hrn_l2R
  iintro ⟨Hcs_l2R, HO⟩
  sl_exec
  iapply (wp_send_l (KFun.V m) c _ true 2 (dev14_eq c) gl1L hv_l2L gProg W (K (c, some (.l, true, 2, true))) (K (toDev c true, some (.l, true, 2, false)))) $$ [HO Hd_l1L Hn_l2L Hts_l2L Htn_l2L]
  · isplitr; · iexact HIs_l2L
    isplitr; · iexact HIn_l2L
    isplitl [Hd_l1L]; · iexact Hd_l1L
    isplitl [Hn_l2L]; · (unfold held; iexact Hn_l2L)
    isplitl [HO]; · iexact HO
    isplitl [Hts_l2L]; · iexact Hts_l2L
    isplitr; · iexact Hrs_l2L
    isplitl [Htn_l2L]; · iexact Htn_l2L
    iexact Hrn_l2L
  iintro ⟨Hcs_l2L, HO⟩
  sl_exec
  iapply (wp_wait_send (KFun.V m) c .o false 2 (owedOf c gProg) _ (K (c, some (.o, false, 2, true))) (show (dstO 1 false).view.dmaCredit = amt .o from rfl) rfl) $$ [Hcs_o2R HO Has_o2R]
  · isplitr; · iexact HIs_o2R
    isplitl [Hcs_o2R]; · iexact Hcs_o2R
    isplitl [HO]; · iexact HO
    isplitr
    · iapply (mayWait_below c _ gProg (by rw [show lv ((c : Thread nD τ), .dma (sendSem .o false 2)) () = place .o false 2 from lv_send c .o false 2]; decide))
      iexact Hlev
    iexact Has_o2R
  iintro ⟨HO, Hp, Hzs_o2R⟩
  ihave Hp2 := (Entails.of_eq (show sendPay (KFun.V m) c .o false 2 = iprop(∃ f : Buf (Elt F) ((dstO 1 false).view.loc (c : Thread nD τ)), ((dstO 1 false).view.loc (c : Thread nD τ) ↦[(dstO 1 false).view.set]{fullShare} f) ∗ ⌜(dstO 1 false).view.read (Elt F) f = (KFun.V m).o c 2 false⌝) from rfl)) $$ Hp
  icases Hp2 with ⟨%fo1R', Hd_o1R, %ho1R'⟩
  sl_exec
  iapply (wp_wait_recv (KFun.V m) c .o false 2 (owedOf c gProg) _ (K (c, some (.o, false, 2, false))) (show (dstO 2 false).view.dmaCredit = amt .o from rfl) rfl) $$ [Hc_o2R HO Har_o2R]
  · isplitr; · iexact HIr_o2R
    isplitl [Hc_o2R]; · iexact Hc_o2R
    isplitl [HO]; · iexact HO
    isplitr
    · iapply (mayWait_below c _ gProg (by rw [show lv ((c : Thread nD τ), .dma (recvSem .o false 2)) () = place .o false 2 from lv_recv c .o false 2]; decide))
      iexact Hlev
    iexact Har_o2R
  iintro ⟨HO, Hp, Hzr_o2R⟩
  ihave Hp2 := (Entails.of_eq (show recvPay (KFun.V m) c .o false 2 = iprop(∃ f : Buf (Elt F) ((dstO 2 false).view.loc (c : Thread nD τ)), ((dstO 2 false).view.loc (c : Thread nD τ) ↦[(dstO 2 false).view.set]{fullShare} f) ∗ ⌜(dstO 2 false).view.read (Elt F) f = (KFun.V m).o (prv c) 2 false⌝) from rfl)) $$ Hp
  icases Hp2 with ⟨%fo2R, Hd_o2R, %ho2R⟩
  sl_exec
  iapply (wp_wait_send (KFun.V m) c .l false 2 (owedOf c gProg) _ (K (c, some (.l, false, 2, true))) (show (dstL 1 false).view.dmaCredit = amt .l from rfl) rfl) $$ [Hcs_l2R HO Has_l2R]
  · isplitr; · iexact HIs_l2R
    isplitl [Hcs_l2R]; · iexact Hcs_l2R
    isplitl [HO]; · iexact HO
    isplitr
    · iapply (mayWait_below c _ gProg (by rw [show lv ((c : Thread nD τ), .dma (sendSem .l false 2)) () = place .l false 2 from lv_send c .l false 2]; decide))
      iexact Hlev
    iexact Has_l2R
  iintro ⟨HO, Hp, Hzs_l2R⟩
  ihave Hp2 := (Entails.of_eq (show sendPay (KFun.V m) c .l false 2 = iprop(∃ f : Buf (Elt F) ((dstL 1 false).view.loc (c : Thread nD τ)), ((dstL 1 false).view.loc (c : Thread nD τ) ↦[(dstL 1 false).view.set]{fullShare} f) ∗ ⌜(dstL 1 false).view.read (Elt F) f = (KFun.V m).l c 2 false⌝) from rfl)) $$ Hp
  icases Hp2 with ⟨%fl1R', Hd_l1R, %hl1R'⟩
  sl_exec
  iapply (wp_wait_recv (KFun.V m) c .l false 2 (owedOf c gProg) _ (K (c, some (.l, false, 2, false))) (show (dstL 2 false).view.dmaCredit = amt .l from rfl) rfl) $$ [Hc_l2R HO Har_l2R]
  · isplitr; · iexact HIr_l2R
    isplitl [Hc_l2R]; · iexact Hc_l2R
    isplitl [HO]; · iexact HO
    isplitr
    · iapply (mayWait_below c _ gProg (by rw [show lv ((c : Thread nD τ), .dma (recvSem .l false 2)) () = place .l false 2 from lv_recv c .l false 2]; decide))
      iexact Hlev
    iexact Har_l2R
  iintro ⟨HO, Hp, Hzr_l2R⟩
  ihave Hp2 := (Entails.of_eq (show recvPay (KFun.V m) c .l false 2 = iprop(∃ f : Buf (Elt F) ((dstL 2 false).view.loc (c : Thread nD τ)), ((dstL 2 false).view.loc (c : Thread nD τ) ↦[(dstL 2 false).view.set]{fullShare} f) ∗ ⌜(dstL 2 false).view.read (Elt F) f = (KFun.V m).l (prv c) 2 false⌝) from rfl)) $$ Hp
  icases Hp2 with ⟨%fl2R, Hd_l2R, %hl2R⟩
  sl_exec
  generalize hgo2R : rsO.view.writes (Elt F) fo2R _ = go2R
  generalize hgl2R : rsL.view.writes (Elt F) fl2R _ = gl2R
  have hv_o3R : (dstO 2 false).view.read (Elt F) go2R = (fun t => KFun.voC m 3 c false (⟨(t 0).val, (t 0).isLt⟩ : Fin 4) (⟨(t 1).val, (t 1).isLt⟩ : Fin 128) (⟨(t 2).val, (t 2).isLt⟩ : Fin 256)) := by rw [← hgo2R]; exact (hM9 _ h9_6 h9_7 h9_8 h9_9 X6b X7b fo2R fl2R hX6b hX7b ho2R hl2R).1
  have hv_l3R : (dstL 2 false).view.read (Elt F) gl2R = (fun t => KFun.vlC m 3 c false (⟨(t 0).val, (t 0).isLt⟩ : Fin 4) (⟨(t 2).val, (t 2).isLt⟩ : Fin 256)) := by rw [← hgl2R]; exact (hM9 _ h9_6 h9_7 h9_8 h9_9 X6b X7b fo2R fl2R hX6b hX7b ho2R hl2R).2
  clear hgo2R hgl2R
  iapply (wp_wait_send (KFun.V m) c .o true 2 (owedOf c gProg) _ (K (c, some (.o, true, 2, true))) (show (dstO 1 true).view.dmaCredit = amt .o from rfl) rfl) $$ [Hcs_o2L HO Has_o2L]
  · isplitr; · iexact HIs_o2L
    isplitl [Hcs_o2L]; · iexact Hcs_o2L
    isplitl [HO]; · iexact HO
    isplitr
    · iapply (mayWait_below c _ gProg (by rw [show lv ((c : Thread nD τ), .dma (sendSem .o true 2)) () = place .o true 2 from lv_send c .o true 2]; decide))
      iexact Hlev
    iexact Has_o2L
  iintro ⟨HO, Hp, Hzs_o2L⟩
  ihave Hp2 := (Entails.of_eq (show sendPay (KFun.V m) c .o true 2 = iprop(∃ f : Buf (Elt F) ((dstO 1 true).view.loc (c : Thread nD τ)), ((dstO 1 true).view.loc (c : Thread nD τ) ↦[(dstO 1 true).view.set]{fullShare} f) ∗ ⌜(dstO 1 true).view.read (Elt F) f = (KFun.V m).o c 2 true⌝) from rfl)) $$ Hp
  icases Hp2 with ⟨%fo1L', Hd_o1L, %ho1L'⟩
  sl_exec
  iapply (wp_wait_recv (KFun.V m) c .o true 2 (owedOf c gProg) _ (K (c, some (.o, true, 2, false))) (show (dstO 2 true).view.dmaCredit = amt .o from rfl) rfl) $$ [Hc_o2L HO Har_o2L]
  · isplitr; · iexact HIr_o2L
    isplitl [Hc_o2L]; · iexact Hc_o2L
    isplitl [HO]; · iexact HO
    isplitr
    · iapply (mayWait_below c _ gProg (by rw [show lv ((c : Thread nD τ), .dma (recvSem .o true 2)) () = place .o true 2 from lv_recv c .o true 2]; decide))
      iexact Hlev
    iexact Har_o2L
  iintro ⟨HO, Hp, Hzr_o2L⟩
  ihave Hp2 := (Entails.of_eq (show recvPay (KFun.V m) c .o true 2 = iprop(∃ f : Buf (Elt F) ((dstO 2 true).view.loc (c : Thread nD τ)), ((dstO 2 true).view.loc (c : Thread nD τ) ↦[(dstO 2 true).view.set]{fullShare} f) ∗ ⌜(dstO 2 true).view.read (Elt F) f = (KFun.V m).o (nxt c) 2 true⌝) from rfl)) $$ Hp
  icases Hp2 with ⟨%fo2L, Hd_o2L, %ho2L⟩
  sl_exec
  iapply (wp_wait_send (KFun.V m) c .l true 2 (owedOf c gProg) _ (K (c, some (.l, true, 2, true))) (show (dstL 1 true).view.dmaCredit = amt .l from rfl) rfl) $$ [Hcs_l2L HO Has_l2L]
  · isplitr; · iexact HIs_l2L
    isplitl [Hcs_l2L]; · iexact Hcs_l2L
    isplitl [HO]; · iexact HO
    isplitr
    · iapply (mayWait_below c _ gProg (by rw [show lv ((c : Thread nD τ), .dma (sendSem .l true 2)) () = place .l true 2 from lv_send c .l true 2]; decide))
      iexact Hlev
    iexact Has_l2L
  iintro ⟨HO, Hp, Hzs_l2L⟩
  ihave Hp2 := (Entails.of_eq (show sendPay (KFun.V m) c .l true 2 = iprop(∃ f : Buf (Elt F) ((dstL 1 true).view.loc (c : Thread nD τ)), ((dstL 1 true).view.loc (c : Thread nD τ) ↦[(dstL 1 true).view.set]{fullShare} f) ∗ ⌜(dstL 1 true).view.read (Elt F) f = (KFun.V m).l c 2 true⌝) from rfl)) $$ Hp
  icases Hp2 with ⟨%fl1L', Hd_l1L, %hl1L'⟩
  sl_exec
  iapply (wp_wait_recv (KFun.V m) c .l true 2 (owedOf c gProg) _ (K (c, some (.l, true, 2, false))) (show (dstL 2 true).view.dmaCredit = amt .l from rfl) rfl) $$ [Hc_l2L HO Har_l2L]
  · isplitr; · iexact HIr_l2L
    isplitl [Hc_l2L]; · iexact Hc_l2L
    isplitl [HO]; · iexact HO
    isplitr
    · iapply (mayWait_below c _ gProg (by rw [show lv ((c : Thread nD τ), .dma (recvSem .l true 2)) () = place .l true 2 from lv_recv c .l true 2]; decide))
      iexact Hlev
    iexact Har_l2L
  iintro ⟨HO, Hp, Hzr_l2L⟩
  ihave Hp2 := (Entails.of_eq (show recvPay (KFun.V m) c .l true 2 = iprop(∃ f : Buf (Elt F) ((dstL 2 true).view.loc (c : Thread nD τ)), ((dstL 2 true).view.loc (c : Thread nD τ) ↦[(dstL 2 true).view.set]{fullShare} f) ∗ ⌜(dstL 2 true).view.read (Elt F) f = (KFun.V m).l (nxt c) 2 true⌝) from rfl)) $$ Hp
  icases Hp2 with ⟨%fl2L, Hd_l2L, %hl2L⟩
  sl_exec
  generalize hgo2L : rsO.view.writes (Elt F) fo2L _ = go2L
  generalize hgl2L : rsL.view.writes (Elt F) fl2L _ = gl2L
  have hv_o3L : (dstO 2 true).view.read (Elt F) go2L = (fun t => KFun.voC m 3 c true (⟨(t 0).val, (t 0).isLt⟩ : Fin 4) (⟨(t 1).val, (t 1).isLt⟩ : Fin 128) (⟨(t 2).val, (t 2).isLt⟩ : Fin 256)) := by rw [← hgo2L]; exact (hM10 _ _ _ _ _ h10_6 h10_7 h10_8 h10_9 X6c X7c fo2L fl2L hX6c hX7c ho2L hl2L).1
  have hv_l3L : (dstL 2 true).view.read (Elt F) gl2L = (fun t => KFun.vlC m 3 c true (⟨(t 0).val, (t 0).isLt⟩ : Fin 4) (⟨(t 2).val, (t 2).isLt⟩ : Fin 256)) := by rw [← hgl2L]; exact (hM10 _ _ _ _ _ h10_6 h10_7 h10_8 h10_9 X6c X7c fo2L fl2L hX6c hX7c ho2L hl2L).2
  clear hgo2L hgl2L
  have hv_acc := hAcc go2R gl2R g3 hv_o3R hv_l3R
  rw [wp_ret]
  imodintro
  iexists _
  unfold AtTail
  isplitr
  · unfold invs
    simp only [bigSep_xfer]
    isplitr
    · iexact HIb
    isplitr
    · isplitr
      · isplitr; · iexact HIs_o0R
        isplitr; · iexact HIr_o0R
        iexact HIn_o0R
      isplitr
      · isplitr; · iexact HIs_l0R
        isplitr; · iexact HIr_l0R
        iexact HIn_l0R
      isplitr
      · isplitr; · iexact HIs_o0L
        isplitr; · iexact HIr_o0L
        iexact HIn_o0L
      isplitr
      · isplitr; · iexact HIs_l0L
        isplitr; · iexact HIr_l0L
        iexact HIn_l0L
      isplitr
      · isplitr; · iexact HIs_o1R
        isplitr; · iexact HIr_o1R
        iexact HIn_o1R
      isplitr
      · isplitr; · iexact HIs_o1L
        isplitr; · iexact HIr_o1L
        iexact HIn_o1L
      isplitr
      · isplitr; · iexact HIs_l1R
        isplitr; · iexact HIr_l1R
        iexact HIn_l1R
      isplitr
      · isplitr; · iexact HIs_l1L
        isplitr; · iexact HIr_l1L
        iexact HIn_l1L
      isplitr
      · isplitr; · iexact HIs_o2R
        isplitr; · iexact HIr_o2R
        iexact HIn_o2R
      isplitr
      · isplitr; · iexact HIs_o2L
        isplitr; · iexact HIr_o2L
        iexact HIn_o2L
      isplitr
      · isplitr; · iexact HIs_l2R
        isplitr; · iexact HIr_l2R
        iexact HIn_l2R
      isplitr
      · isplitr; · iexact HIs_l2L
        isplitr; · iexact HIr_l2L
        iexact HIn_l2L
      isplitr
      · isplitr; · iexact HIs_g0R
        isplitr; · iexact HIr_g0R
        iexact HIn_g0R
      isplitr
      · isplitr; · iexact HIs_g0L
        isplitr; · iexact HIr_g0L
        iexact HIn_g0L
      isplitr
      · isplitr; · iexact HIs_g1R
        isplitr; · iexact HIr_g1R
        iexact HIn_g1R
      isplitr
      · isplitr; · iexact HIs_g1L
        isplitr; · iexact HIr_g1L
        iexact HIn_g1L
      isplitr
      · isplitr; · iexact HIs_g2R
        isplitr; · iexact HIr_g2R
        iexact HIn_g2R
      isplitr; · iexact HIs_g2L
      isplitr; · iexact HIr_g2L
      iexact HIn_g2L
    isplitr; · iexact HIbn
    iexact HIbp
  isplitr; · iexact Hlev
  isplitl [HO]; · iexact HO
  isplitl [HG]; · iexact HG
  isplitl [HC Hzs_o2R Hzr_o2R Hzs_o2L Hzr_o2L Hzs_l2R Hzr_l2R Hzs_l2L Hzr_l2L]
  · icases HC with ⟨C1, C2, C3, C4, C5, C6, C7, C8⟩
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    unfold closedX
    isplitl [Hzs_o2R Hzr_o2R]
    · isplitl [Hzs_o2R]; · iexact Hzs_o2R
      iexact Hzr_o2R
    isplitl [Hzs_o2L Hzr_o2L]
    · isplitl [Hzs_o2L]; · iexact Hzs_o2L
      iexact Hzr_o2L
    isplitl [Hzs_l2R Hzr_l2R]
    · isplitl [Hzs_l2R]; · iexact Hzs_l2R
      iexact Hzr_l2R
    isplitl [Hzs_l2L]; · iexact Hzs_l2L
    iexact Hzr_l2L
  isplitl [Hcs]; · iexact Hcs
  isplitl [Hhbm]; · iexact Hhbm
  isplitl [Hx]; · iexact Hx
  isplitl [Hwq]; · iexact Hwq
  isplitl [Hwo]; · iexact Hwo
  isplitl [Hout]
  · iexists _
    isplitl [Hout]; · iexact Hout
    ipureintro
    exact hv_acc
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  unfold held heldAs
  isplitl [HhO0f HhO0t HhO1f HhO1t HhO2f HhO2t HhO3f HhO3t]
  · isplitl [HhO0f]; · iexact HhO0f
    isplitl [HhO0t]; · (iexists _; iexact HhO0t)
    isplitl [HhO1f]; · (iexists _; iexact HhO1f)
    isplitl [HhO1t]; · (iexists _; iexact HhO1t)
    isplitl [HhO2f]; · iexact HhO2f
    isplitl [HhO2t]; · iexact HhO2t
    isplitl [HhO3f]; · iexact HhO3f
    iexact HhO3t
  isplitl [HhL0f HhL0t HhL1f HhL1t HhL2f HhL2t HhL3f HhL3t]
  · isplitl [HhL0f]; · iexact HhL0f
    isplitl [HhL0t]; · (iexists _; iexact HhL0t)
    isplitl [HhL1f]; · (iexists _; iexact HhL1f)
    isplitl [HhL1t]; · (iexists _; iexact HhL1t)
    isplitl [HhL2f]; · iexact HhL2f
    isplitl [HhL2t]; · iexact HhL2t
    isplitl [HhL3f]; · iexact HhL3f
    iexact HhL3t
  isplitl [Hd_o2R]
  · iexists _
    isplitl [Hd_o2R]; · iexact Hd_o2R
    ipureintro
    exact hv_o3R
  isplitl [Hd_o2L]
  · iexists _
    isplitl [Hd_o2L]; · iexact Hd_o2L
    ipureintro
    exact hv_o3L
  isplitl [Hd_o0R]; · iexact Hd_o0R
  isplitl [Hd_o0L]; · iexact Hd_o0L
  isplitl [Hd_o1R]; · (iexists _; iexact Hd_o1R)
  isplitl [Hd_o1L]; · (iexists _; iexact Hd_o1L)
  isplitl [Hd_l2R]
  · iexists _
    isplitl [Hd_l2R]; · iexact Hd_l2R
    ipureintro
    exact hv_l3R
  isplitl [Hd_l2L]
  · iexists _
    isplitl [Hd_l2L]; · iexact Hd_l2L
    ipureintro
    exact hv_l3L
  isplitl [Hd_l0R]; · iexact Hd_l0R
  isplitl [Hd_l0L]; · iexact Hd_l0L
  isplitl [Hd_l1R]; · (iexists _; iexact Hd_l1R)
  isplitl [Hd_l1L]; · (iexists _; iexact Hd_l1L)
  iexists f23
  isplitl [Hg_ownR]; · iexact Hg_ownR
  iexact Hg_ownL

end Cert.KernelIdeal.Proto
end
-- ==== Proof.BodyEVal.lean ====
/-
  The values of the body's segment from the last merge of the reduction's second hop to its first output term.

  A merge loop adds, slot by slot, the device's own partial sums to a landing slice: each trip reads its slot, adds the local
  rows, and stores the slot back. The slots are pairwise apart, so a trip reads what the loop found in its slot, and after
  the loop each slot holds that plus the local rows. Read through the landing slice this is the value the schedule names:
  what hop 2 sends (after the merge of hop 1) or the full sums over the four devices (after the merges of hop 2). The first
  output term is head 0's projection of those sums.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.SchedAuto
import proofs.«900754_g7700000000000755_dist_attn_cross_gqa_kvseq_b4_sq256_skv1024_d1024_hq8_dh128_v7x_i4_f32_1_alg».proof.Proof.Unfold
import proofs.«900754_g7700000000000755_dist_attn_cross_gqa_kvseq_b4_sq256_skv1024_d1024_hq8_dh128_v7x_i4_f32_1_alg».proof.Proof.Split
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.Within
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.OpSend
import proofs.«900754_g7700000000000755_dist_attn_cross_gqa_kvseq_b4_sq256_skv1024_d1024_hq8_dh128_v7x_i4_f32_1_alg».proof.Proof.OpWait
import proofs.«900754_g7700000000000755_dist_attn_cross_gqa_kvseq_b4_sq256_skv1024_d1024_hq8_dh128_v7x_i4_f32_1_alg».proof.Proof.KLaunch
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.Bridge
import proofs.«900754_g7700000000000755_dist_attn_cross_gqa_kvseq_b4_sq256_skv1024_d1024_hq8_dh128_v7x_i4_f32_1_alg».proof.Proof.LoopsV
import proofs.«900754_g7700000000000755_dist_attn_cross_gqa_kvseq_b4_sq256_skv1024_d1024_hq8_dh128_v7x_i4_f32_1_alg».proof.Proof.LoopsVFacts
import proofs.«900754_g7700000000000755_dist_attn_cross_gqa_kvseq_b4_sq256_skv1024_d1024_hq8_dh128_v7x_i4_f32_1_alg».proof.Proof.Gen.KernelIdeal.Skeleton
import proofs.«900754_g7700000000000755_dist_attn_cross_gqa_kvseq_b4_sq256_skv1024_d1024_hq8_dh128_v7x_i4_f32_1_alg».proof.Proof.Gen.KernelIdeal.Loops
import proofs.«900754_g7700000000000755_dist_attn_cross_gqa_kvseq_b4_sq256_skv1024_d1024_hq8_dh128_v7x_i4_f32_1_alg».proof.Proof.Gen.KernelIdeal.Points
import proofs.«900754_g7700000000000755_dist_attn_cross_gqa_kvseq_b4_sq256_skv1024_d1024_hq8_dh128_v7x_i4_f32_1_alg».proof.Proof.Gen.KernelIdeal.Frame
import proofs.«900754_g7700000000000755_dist_attn_cross_gqa_kvseq_b4_sq256_skv1024_d1024_hq8_dh128_v7x_i4_f32_1_alg».proof.Proof.Segs
import proofs.«900754_g7700000000000755_dist_attn_cross_gqa_kvseq_b4_sq256_skv1024_d1024_hq8_dh128_v7x_i4_f32_1_alg».proof.Proof.TailSpec
import proofs.«900754_g7700000000000755_dist_attn_cross_gqa_kvseq_b4_sq256_skv1024_d1024_hq8_dh128_v7x_i4_f32_1_alg».proof.Proof.Cut40
import proofs.«900754_g7700000000000755_dist_attn_cross_gqa_kvseq_b4_sq256_skv1024_d1024_hq8_dh128_v7x_i4_f32_1_alg».proof.Proof.Ring
import proofs.«900754_g7700000000000755_dist_attn_cross_gqa_kvseq_b4_sq256_skv1024_d1024_hq8_dh128_v7x_i4_f32_1_alg».proof.Proof.BodyE
import Idealize.ShloMosaic.Lib.Tactic

set_option maxRecDepth 16384

noncomputable section

namespace Cert.KernelIdeal.Proto

open Cert.KernelIdeal Cert.KernelIdeal.Gen Cert.KernelIdeal.Ring
open Idealize.ShloMosaic Idealize.ShloMosaic.TcCoe Idealize.ShloMosaic.Tactic Idealize.ShloMosaic.ValueIdx Cert.KernelIdeal.KFun
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

namespace SegE

/-- Pieces laid down one a trip, the last in front, each trip's payload computed from what its own rectangle holds when the
    trip runs, the rectangles pairwise apart. No earlier trip has touched a trip's rectangle, so each payload is computed
    from the first contents; and through trip `j`'s rectangle the written contents read trip `j`'s payload. -/
theorem read_writes_rmw {κ : Idealize.ShloMosaic.Kind} {sp : Space} {s : Shape} {e : EltTy} {Val : EltTy → Type}
    (v : View sig κ sp s e) (G : v.ty.Contents Val) (n : ℕ)
    (pieceOf : Fin n → v.ty.Contents Val → View.Piece Val s e) (L : ℕ → List (View.Piece Val s e))
    (h0 : L 0 = []) (hs : ∀ k : Fin n, L (k.val + 1) = pieceOf k (v.writes Val G (L k.val)) :: L k.val)
    (hloc : ∀ (k : Fin n) (f : v.ty.Contents Val), (∀ y ∈ (pieceOf k G).1.set, v.read Val f y = v.read Val G y) → pieceOf k f = pieceOf k G)
    (hsep : ∀ k k' : Fin n, k ≠ k' → Disjoint (pieceOf k G).1.set (pieceOf k' G).1.set)
    (j : Fin n) (x : (pieceOf j G).1.shape.Idx) :
    v.read Val (v.writes Val G (L n)) ((pieceOf j G).1.emb x) = (pieceOf j G).2 x := by
  have hmem : ∀ m, m ≤ n → ∀ p, p ∈ L m ↔ ∃ k : Fin n, k.val < m ∧ p = pieceOf k G := by
    intro m
    induction m with
    | zero =>
      intro _ p
      rw [h0]
      exact ⟨fun h => absurd h List.not_mem_nil, fun ⟨k, hk, _⟩ => absurd hk (Nat.not_lt_zero _)⟩
    | succ m ih =>
      intro hm p
      have hm' : m ≤ n := Nat.le_of_succ_le hm
      have hhead : pieceOf ⟨m, hm⟩ (v.writes Val G (L m)) = pieceOf ⟨m, hm⟩ G := by
        refine hloc ⟨m, hm⟩ _ fun y hy => ?_
        refine View.read_writes_apply_of_forall_not_mem v G y (L m) fun q hq hyq => ?_
        obtain ⟨k, hk, rfl⟩ := (ih hm' q).mp hq
        have hne : (⟨m, hm⟩ : Fin n) ≠ k := fun h => by
          have : m = k.val := congrArg Fin.val h
          omega
        exact Finset.disjoint_left.mp (hsep ⟨m, hm⟩ k hne) hy hyq
      rw [hs ⟨m, hm⟩, hhead, List.mem_cons, ih hm']
      constructor
      · rintro (rfl | ⟨k, hk, rfl⟩)
        · exact ⟨⟨m, hm⟩, Nat.lt_succ_self m, rfl⟩
        · exact ⟨k, Nat.lt_succ_of_lt hk, rfl⟩
      · rintro ⟨k, hk, rfl⟩
        rcases Nat.lt_succ_iff_lt_or_eq.mp hk with h | h
        · exact Or.inr ⟨k, h, rfl⟩
        · exact Or.inl (congrArg (fun k => pieceOf k G) (Fin.ext h))
  refine View.read_writes_of_unique v G (pieceOf j G) x (L n) ((hmem n le_rfl _).mpr ⟨j, j.isLt, rfl⟩) fun q hq hx => ?_
  obtain ⟨k', _, rfl⟩ := (hmem n le_rfl q).mp hq
  by_contra hne
  have hk : j ≠ k' := fun h => hne (by rw [h])
  have hx0 : (pieceOf j G).1.emb x ∈ (pieceOf j G).1.set := by
    rw [← Rect.map_emb_univ]; exact Finset.mem_map_of_mem _ (Finset.mem_univ x)
  exact Finset.disjoint_left.mp (hsep j k' hk) hx0 hx

/-- After the loop, the numerators' slot of trip `k` reads as the slot the loop found there plus the local rows: the trips'
    slots are pairwise apart, so no other trip touches it. -/
theorem slotO_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t8_loop.trips) :
    View.readAt (Elt F) rsO.view (Rect.unit (s := S3x8x128x256) (k0_off57 k) S1x1x128x256.size (k0_off57_inb k)).toLoadRect (rsO.view.writes (Elt F) G_arg8 (LoopsV.pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k0_t8_loop.trips).1)
      = k0_pay99 (View.readAt (Elt F) rsO.view (Rect.unit (s := S3x8x128x256) (k0_off57 k) S1x1x128x256.size (k0_off57_inb k)).toLoadRect G_arg8) (View.readAt (Elt F) locO.view (Rect.unit (s := S32x128x256) (k0_off58 d0 k) S1x128x256.size (k0_off58_inb d0 k)).toLoadRect X_arg6) := by
  funext x
  exact read_writes_rmw rsO.view G_arg8 k0_t8_loop.trips
    (fun k f => ⟨(Rect.unit (s := S3x8x128x256) (k0_off57 k) S1x1x128x256.size (k0_off57_inb k)), k0_pay99 (View.readAt (Elt F) rsO.view (Rect.unit (s := S3x8x128x256) (k0_off57 k) S1x1x128x256.size (k0_off57_inb k)).toLoadRect f) (View.readAt (Elt F) locO.view (Rect.unit (s := S32x128x256) (k0_off58 d0 k) S1x128x256.size (k0_off58_inb d0 k)).toLoadRect X_arg6)⟩)
    (fun n => (LoopsV.pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).1) rfl
    (fun k => by rw [LoopsV.pbS_k0_t8_succ, LoopsV.tripLS_k0_t8_eq]; rfl)
    (fun k f h => by
      have e : View.readAt (Elt F) rsO.view (Rect.unit (s := S3x8x128x256) (k0_off57 k) S1x1x128x256.size (k0_off57_inb k)).toLoadRect f = View.readAt (Elt F) rsO.view (Rect.unit (s := S3x8x128x256) (k0_off57 k) S1x1x128x256.size (k0_off57_inb k)).toLoadRect G_arg8 :=
        funext fun x => h _ ((Rect.unit (s := S3x8x128x256) (k0_off57 k) S1x1x128x256.size (k0_off57_inb k)).toLoadRect.idx_mem x)
      beta_reduce
      rw [e])
    (fun k k' hk => Rect.unit_disjoint (inb := k0_off57_inb k) (inb' := k0_off57_inb k') 1 (by
      have hne : k.val ≠ k'.val := fun h => hk (Fin.ext h)
      have e := congrFun (k0_off57_eq k) 1
      have e' := congrFun (k0_off57_eq k') 1
      simp only [Matrix.cons_val_one, Matrix.cons_val_zero, Matrix.head_cons] at e e'
      have hs : S1x1x128x256.size 1 = 1 := rfl
      rw [e, e', hs]
      omega)) k x
/-- The same of the denominators' slot. -/
theorem slotL_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t8_loop.trips) :
    View.readAt (Elt F) rsL.view (Rect.unit (s := S3x8x1x256) (k0_off55 k) S1x1x1x256.size (k0_off55_inb k)).toLoadRect (rsL.view.writes (Elt F) G_arg9 (LoopsV.pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k0_t8_loop.trips).2)
      = k0_pay98 (View.readAt (Elt F) rsL.view (Rect.unit (s := S3x8x1x256) (k0_off55 k) S1x1x1x256.size (k0_off55_inb k)).toLoadRect G_arg9) (View.readAt (Elt F) locL.view (Rect.unit (s := S32x1x256) (k0_off56 d0 k) S1x1x256.size (k0_off56_inb d0 k)).toLoadRect X_arg7) := by
  funext x
  exact read_writes_rmw rsL.view G_arg9 k0_t8_loop.trips
    (fun k f => ⟨(Rect.unit (s := S3x8x1x256) (k0_off55 k) S1x1x1x256.size (k0_off55_inb k)), k0_pay98 (View.readAt (Elt F) rsL.view (Rect.unit (s := S3x8x1x256) (k0_off55 k) S1x1x1x256.size (k0_off55_inb k)).toLoadRect f) (View.readAt (Elt F) locL.view (Rect.unit (s := S32x1x256) (k0_off56 d0 k) S1x1x256.size (k0_off56_inb d0 k)).toLoadRect X_arg7)⟩)
    (fun n => (LoopsV.pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).2) rfl
    (fun k => by rw [LoopsV.pbS_k0_t8_succ, LoopsV.tripLS_k0_t8_eq]; rfl)
    (fun k f h => by
      have e : View.readAt (Elt F) rsL.view (Rect.unit (s := S3x8x1x256) (k0_off55 k) S1x1x1x256.size (k0_off55_inb k)).toLoadRect f = View.readAt (Elt F) rsL.view (Rect.unit (s := S3x8x1x256) (k0_off55 k) S1x1x1x256.size (k0_off55_inb k)).toLoadRect G_arg9 :=
        funext fun x => h _ ((Rect.unit (s := S3x8x1x256) (k0_off55 k) S1x1x1x256.size (k0_off55_inb k)).toLoadRect.idx_mem x)
      beta_reduce
      rw [e])
    (fun k k' hk => Rect.unit_disjoint (inb := k0_off55_inb k) (inb' := k0_off55_inb k') 1 (by
      have hne : k.val ≠ k'.val := fun h => hk (Fin.ext h)
      have e := congrFun (k0_off55_eq k) 1
      have e' := congrFun (k0_off55_eq k') 1
      simp only [Matrix.cons_val_one, Matrix.cons_val_zero, Matrix.head_cons] at e e'
      have hs : S1x1x1x256.size 1 = 1 := rfl
      rw [e, e', hs]
      omega)) k x

/-- After the loop, the numerators' slot of trip `k` reads as the slot the loop found there plus the local rows: the trips'
    slots are pairwise apart, so no other trip touches it. -/
theorem slotO_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t9_loop.trips) :
    View.readAt (Elt F) rsO.view (Rect.unit (s := S3x8x128x256) (k0_off61 k) S1x1x128x256.size (k0_off61_inb k)).toLoadRect (rsO.view.writes (Elt F) G_arg8 (LoopsV.pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k0_t9_loop.trips).1)
      = k0_pay101 (View.readAt (Elt F) rsO.view (Rect.unit (s := S3x8x128x256) (k0_off61 k) S1x1x128x256.size (k0_off61_inb k)).toLoadRect G_arg8) (View.readAt (Elt F) locO.view (Rect.unit (s := S32x128x256) (k0_off62 d0 k) S1x128x256.size (k0_off62_inb d0 k)).toLoadRect X_arg6) := by
  funext x
  exact read_writes_rmw rsO.view G_arg8 k0_t9_loop.trips
    (fun k f => ⟨(Rect.unit (s := S3x8x128x256) (k0_off61 k) S1x1x128x256.size (k0_off61_inb k)), k0_pay101 (View.readAt (Elt F) rsO.view (Rect.unit (s := S3x8x128x256) (k0_off61 k) S1x1x128x256.size (k0_off61_inb k)).toLoadRect f) (View.readAt (Elt F) locO.view (Rect.unit (s := S32x128x256) (k0_off62 d0 k) S1x128x256.size (k0_off62_inb d0 k)).toLoadRect X_arg6)⟩)
    (fun n => (LoopsV.pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).1) rfl
    (fun k => by rw [LoopsV.pbS_k0_t9_succ, LoopsV.tripLS_k0_t9_eq]; rfl)
    (fun k f h => by
      have e : View.readAt (Elt F) rsO.view (Rect.unit (s := S3x8x128x256) (k0_off61 k) S1x1x128x256.size (k0_off61_inb k)).toLoadRect f = View.readAt (Elt F) rsO.view (Rect.unit (s := S3x8x128x256) (k0_off61 k) S1x1x128x256.size (k0_off61_inb k)).toLoadRect G_arg8 :=
        funext fun x => h _ ((Rect.unit (s := S3x8x128x256) (k0_off61 k) S1x1x128x256.size (k0_off61_inb k)).toLoadRect.idx_mem x)
      beta_reduce
      rw [e])
    (fun k k' hk => Rect.unit_disjoint (inb := k0_off61_inb k) (inb' := k0_off61_inb k') 1 (by
      have hne : k.val ≠ k'.val := fun h => hk (Fin.ext h)
      have e := congrFun (k0_off61_eq k) 1
      have e' := congrFun (k0_off61_eq k') 1
      simp only [Matrix.cons_val_one, Matrix.cons_val_zero, Matrix.head_cons] at e e'
      have hs : S1x1x128x256.size 1 = 1 := rfl
      rw [e, e', hs]
      omega)) k x
/-- The same of the denominators' slot. -/
theorem slotL_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t9_loop.trips) :
    View.readAt (Elt F) rsL.view (Rect.unit (s := S3x8x1x256) (k0_off59 k) S1x1x1x256.size (k0_off59_inb k)).toLoadRect (rsL.view.writes (Elt F) G_arg9 (LoopsV.pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k0_t9_loop.trips).2)
      = k0_pay100 (View.readAt (Elt F) rsL.view (Rect.unit (s := S3x8x1x256) (k0_off59 k) S1x1x1x256.size (k0_off59_inb k)).toLoadRect G_arg9) (View.readAt (Elt F) locL.view (Rect.unit (s := S32x1x256) (k0_off60 d0 k) S1x1x256.size (k0_off60_inb d0 k)).toLoadRect X_arg7) := by
  funext x
  exact read_writes_rmw rsL.view G_arg9 k0_t9_loop.trips
    (fun k f => ⟨(Rect.unit (s := S3x8x1x256) (k0_off59 k) S1x1x1x256.size (k0_off59_inb k)), k0_pay100 (View.readAt (Elt F) rsL.view (Rect.unit (s := S3x8x1x256) (k0_off59 k) S1x1x1x256.size (k0_off59_inb k)).toLoadRect f) (View.readAt (Elt F) locL.view (Rect.unit (s := S32x1x256) (k0_off60 d0 k) S1x1x256.size (k0_off60_inb d0 k)).toLoadRect X_arg7)⟩)
    (fun n => (LoopsV.pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).2) rfl
    (fun k => by rw [LoopsV.pbS_k0_t9_succ, LoopsV.tripLS_k0_t9_eq]; rfl)
    (fun k f h => by
      have e : View.readAt (Elt F) rsL.view (Rect.unit (s := S3x8x1x256) (k0_off59 k) S1x1x1x256.size (k0_off59_inb k)).toLoadRect f = View.readAt (Elt F) rsL.view (Rect.unit (s := S3x8x1x256) (k0_off59 k) S1x1x1x256.size (k0_off59_inb k)).toLoadRect G_arg9 :=
        funext fun x => h _ ((Rect.unit (s := S3x8x1x256) (k0_off59 k) S1x1x1x256.size (k0_off59_inb k)).toLoadRect.idx_mem x)
      beta_reduce
      rw [e])
    (fun k k' hk => Rect.unit_disjoint (inb := k0_off59_inb k) (inb' := k0_off59_inb k') 1 (by
      have hne : k.val ≠ k'.val := fun h => hk (Fin.ext h)
      have e := congrFun (k0_off59_eq k) 1
      have e' := congrFun (k0_off59_eq k') 1
      simp only [Matrix.cons_val_one, Matrix.cons_val_zero, Matrix.head_cons] at e e'
      have hs : S1x1x1x256.size 1 = 1 := rfl
      rw [e, e', hs]
      omega)) k x

/-- After the loop, the numerators' slot of trip `k` reads as the slot the loop found there plus the local rows: the trips'
    slots are pairwise apart, so no other trip touches it. -/
theorem slotO_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t10_loop.trips) :
    View.readAt (Elt F) rsO.view (Rect.unit (s := S3x8x128x256) (k0_off65 k) S1x1x128x256.size (k0_off65_inb k)).toLoadRect (rsO.view.writes (Elt F) G_arg8 (LoopsV.pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k0_t10_loop.trips).1)
      = k0_pay103 (View.readAt (Elt F) rsO.view (Rect.unit (s := S3x8x128x256) (k0_off65 k) S1x1x128x256.size (k0_off65_inb k)).toLoadRect G_arg8) (View.readAt (Elt F) locO.view (Rect.unit (s := S32x128x256) (k0_off66 d0 k) S1x128x256.size (k0_off66_inb d0 k)).toLoadRect X_arg6) := by
  funext x
  exact read_writes_rmw rsO.view G_arg8 k0_t10_loop.trips
    (fun k f => ⟨(Rect.unit (s := S3x8x128x256) (k0_off65 k) S1x1x128x256.size (k0_off65_inb k)), k0_pay103 (View.readAt (Elt F) rsO.view (Rect.unit (s := S3x8x128x256) (k0_off65 k) S1x1x128x256.size (k0_off65_inb k)).toLoadRect f) (View.readAt (Elt F) locO.view (Rect.unit (s := S32x128x256) (k0_off66 d0 k) S1x128x256.size (k0_off66_inb d0 k)).toLoadRect X_arg6)⟩)
    (fun n => (LoopsV.pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).1) rfl
    (fun k => by rw [LoopsV.pbS_k0_t10_succ, LoopsV.tripLS_k0_t10_eq]; rfl)
    (fun k f h => by
      have e : View.readAt (Elt F) rsO.view (Rect.unit (s := S3x8x128x256) (k0_off65 k) S1x1x128x256.size (k0_off65_inb k)).toLoadRect f = View.readAt (Elt F) rsO.view (Rect.unit (s := S3x8x128x256) (k0_off65 k) S1x1x128x256.size (k0_off65_inb k)).toLoadRect G_arg8 :=
        funext fun x => h _ ((Rect.unit (s := S3x8x128x256) (k0_off65 k) S1x1x128x256.size (k0_off65_inb k)).toLoadRect.idx_mem x)
      beta_reduce
      rw [e])
    (fun k k' hk => Rect.unit_disjoint (inb := k0_off65_inb k) (inb' := k0_off65_inb k') 1 (by
      have hne : k.val ≠ k'.val := fun h => hk (Fin.ext h)
      have e := congrFun (k0_off65_eq k) 1
      have e' := congrFun (k0_off65_eq k') 1
      simp only [Matrix.cons_val_one, Matrix.cons_val_zero, Matrix.head_cons] at e e'
      have hs : S1x1x128x256.size 1 = 1 := rfl
      rw [e, e', hs]
      omega)) k x
/-- The same of the denominators' slot. -/
theorem slotL_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t10_loop.trips) :
    View.readAt (Elt F) rsL.view (Rect.unit (s := S3x8x1x256) (k0_off63 k) S1x1x1x256.size (k0_off63_inb k)).toLoadRect (rsL.view.writes (Elt F) G_arg9 (LoopsV.pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k0_t10_loop.trips).2)
      = k0_pay102 (View.readAt (Elt F) rsL.view (Rect.unit (s := S3x8x1x256) (k0_off63 k) S1x1x1x256.size (k0_off63_inb k)).toLoadRect G_arg9) (View.readAt (Elt F) locL.view (Rect.unit (s := S32x1x256) (k0_off64 d0 k) S1x1x256.size (k0_off64_inb d0 k)).toLoadRect X_arg7) := by
  funext x
  exact read_writes_rmw rsL.view G_arg9 k0_t10_loop.trips
    (fun k f => ⟨(Rect.unit (s := S3x8x1x256) (k0_off63 k) S1x1x1x256.size (k0_off63_inb k)), k0_pay102 (View.readAt (Elt F) rsL.view (Rect.unit (s := S3x8x1x256) (k0_off63 k) S1x1x1x256.size (k0_off63_inb k)).toLoadRect f) (View.readAt (Elt F) locL.view (Rect.unit (s := S32x1x256) (k0_off64 d0 k) S1x1x256.size (k0_off64_inb d0 k)).toLoadRect X_arg7)⟩)
    (fun n => (LoopsV.pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).2) rfl
    (fun k => by rw [LoopsV.pbS_k0_t10_succ, LoopsV.tripLS_k0_t10_eq]; rfl)
    (fun k f h => by
      have e : View.readAt (Elt F) rsL.view (Rect.unit (s := S3x8x1x256) (k0_off63 k) S1x1x1x256.size (k0_off63_inb k)).toLoadRect f = View.readAt (Elt F) rsL.view (Rect.unit (s := S3x8x1x256) (k0_off63 k) S1x1x1x256.size (k0_off63_inb k)).toLoadRect G_arg9 :=
        funext fun x => h _ ((Rect.unit (s := S3x8x1x256) (k0_off63 k) S1x1x1x256.size (k0_off63_inb k)).toLoadRect.idx_mem x)
      beta_reduce
      rw [e])
    (fun k k' hk => Rect.unit_disjoint (inb := k0_off63_inb k) (inb' := k0_off63_inb k') 1 (by
      have hne : k.val ≠ k'.val := fun h => hk (Fin.ext h)
      have e := congrFun (k0_off63_eq k) 1
      have e' := congrFun (k0_off63_eq k') 1
      simp only [Matrix.cons_val_one, Matrix.cons_val_zero, Matrix.head_cons] at e e'
      have hs : S1x1x1x256.size 1 = 1 := rfl
      rw [e, e', hs]
      omega)) k x

section Rows
variable (c : Dev nD)

/-- One head's tile of the ring's numerators, read at the whole buffer: stage `a`, slot `b`. -/
theorem rsO_row_read (off : Fin 4 → ℕ) (a b : ℕ) (hoff : off = ![a, b, 0, 0]) (inb : ∀ x, off x + S1x1x128x256.size x ≤ S3x8x128x256.size x)
    (f : Buf (Elt F) ((c : Thread nD τ).loc cc0_scratch2)) (s : S1x1x128x256.Idx) :
    View.readAt (Elt F) rsO.view (Rect.unit (s := S3x8x128x256) off S1x1x128x256.size inb).toLoadRect f s
      = f (ix4 (⟨a, by subst hoff; have := inb 0; simp at this; omega⟩ : Fin 3) (⟨b, by subst hoff; have := inb 1; simp at this; omega⟩ : Fin 8)
          (⟨(s 2).val, (s 2).isLt⟩ : Fin 128) (⟨(s 3).val, (s 3).isLt⟩ : Fin 256)) := by
  subst hoff
  rw [View.readAt_apply, View.read_apply]
  show f _ = f _
  refine congrArg f (funext fun x => Fin.ext ?_)
  have h0 : (s 0).val < 1 := (s 0).isLt
  have h1 : (s 1).val < 1 := (s 1).isLt
  match x with
  | ⟨0, _⟩ => show a + 1 * (s 0).val = a; omega
  | ⟨1, _⟩ => show b + 1 * (s 1).val = b; omega
  | ⟨2, _⟩ => show 0 + 1 * (s 2).val = (s 2).val; omega
  | ⟨3, _⟩ => show 0 + 1 * (s 3).val = (s 3).val; omega

/-- One head's row of the ring's denominators. -/
theorem rsL_row_read (off : Fin 4 → ℕ) (a b : ℕ) (hoff : off = ![a, b, 0, 0]) (inb : ∀ x, off x + S1x1x1x256.size x ≤ S3x8x1x256.size x)
    (f : Buf (Elt F) ((c : Thread nD τ).loc cc0_scratch3)) (s : S1x1x1x256.Idx) :
    View.readAt (Elt F) rsL.view (Rect.unit (s := S3x8x1x256) off S1x1x1x256.size inb).toLoadRect f s
      = f (ix4 (⟨a, by subst hoff; have := inb 0; simp at this; omega⟩ : Fin 3) (⟨b, by subst hoff; have := inb 1; simp at this; omega⟩ : Fin 8)
          (0 : Fin 1) (⟨(s 3).val, (s 3).isLt⟩ : Fin 256)) := by
  subst hoff
  rw [View.readAt_apply, View.read_apply]
  show f _ = f _
  refine congrArg f (funext fun x => Fin.ext ?_)
  have h0 : (s 0).val < 1 := (s 0).isLt
  have h1 : (s 1).val < 1 := (s 1).isLt
  have h2 : (s 2).val < 1 := (s 2).isLt
  match x with
  | ⟨0, _⟩ => show a + 1 * (s 0).val = a; omega
  | ⟨1, _⟩ => show b + 1 * (s 1).val = b; omega
  | ⟨2, _⟩ => show 0 + 1 * (s 2).val = 0; omega
  | ⟨3, _⟩ => show 0 + 1 * (s 3).val = (s 3).val; omega

/-- One head's tile of the device's own numerators, read at the whole buffer: row `a`. -/
theorem locO_row_read (off : Fin 3 → ℕ) (a : ℕ) (hoff : off = ![a, 0, 0]) (inb : ∀ x, off x + S1x128x256.size x ≤ S32x128x256.size x)
    (f : Buf (Elt F) ((c : Thread nD τ).loc cc0_scratch0)) (s : S1x128x256.Idx) :
    View.readAt (Elt F) locO.view (Rect.unit (s := S32x128x256) off S1x128x256.size inb).toLoadRect f s
      = f (ix3 (⟨a, by subst hoff; have := inb 0; simp at this; omega⟩ : Fin 32) (⟨(s 1).val, (s 1).isLt⟩ : Fin 128) (⟨(s 2).val, (s 2).isLt⟩ : Fin 256)) := by
  subst hoff
  rw [View.readAt_apply, View.read_apply]
  show f _ = f _
  refine congrArg f (funext fun x => Fin.ext ?_)
  have h0 : (s 0).val < 1 := (s 0).isLt
  match x with
  | ⟨0, _⟩ => show a + 1 * (s 0).val = a; omega
  | ⟨1, _⟩ => show 0 + 1 * (s 1).val = (s 1).val; omega
  | ⟨2, _⟩ => show 0 + 1 * (s 2).val = (s 2).val; omega

/-- and of its denominators. -/
theorem locL_row_read (off : Fin 3 → ℕ) (a : ℕ) (hoff : off = ![a, 0, 0]) (inb : ∀ x, off x + S1x1x256.size x ≤ S32x1x256.size x)
    (f : Buf (Elt F) ((c : Thread nD τ).loc cc0_scratch1)) (s : S1x1x256.Idx) :
    View.readAt (Elt F) locL.view (Rect.unit (s := S32x1x256) off S1x1x256.size inb).toLoadRect f s
      = f (ix3 (⟨a, by subst hoff; have := inb 0; simp at this; omega⟩ : Fin 32) (0 : Fin 1) (⟨(s 2).val, (s 2).isLt⟩ : Fin 256)) := by
  subst hoff
  rw [View.readAt_apply, View.read_apply]
  show f _ = f _
  refine congrArg f (funext fun x => Fin.ext ?_)
  have h0 : (s 0).val < 1 := (s 0).isLt
  have h1 : (s 1).val < 1 := (s 1).isLt
  match x with
  | ⟨0, _⟩ => show a + 1 * (s 0).val = a; omega
  | ⟨1, _⟩ => show 0 + 1 * (s 1).val = 0; omega
  | ⟨2, _⟩ => show 0 + 1 * (s 2).val = (s 2).val; omega

end Rows

section Halves
variable (c : Dev nD)
/-- A half block of the device's own numerators, read at the whole buffer. -/
theorem halfO_read (j : Fin 4) (hb : Bool) (f : Buf (Elt F) ((c : Thread nD τ).loc cc0_scratch0)) (k : Fin 4) (d : Fin 128) (i : Fin 256) :
    (locHalfO c j hb).view.read (Elt F) f (ix3 k d i)
      = f (ix3 (⟨halfRow c j hb + k.val, by have := halfRow_le c j hb; omega⟩ : Fin 32) d i) :=
  locO_slice_read ![halfRow c j hb, 0, 0] (halfRow c j hb) rfl (halfO_inb _ (halfRow_le c j hb)) c f k d i
/-- and of its denominators. -/
theorem halfL_read (j : Fin 4) (hb : Bool) (f : Buf (Elt F) ((c : Thread nD τ).loc cc0_scratch1)) (k : Fin 4) (u : Fin 1) (i : Fin 256) :
    (locHalfL c j hb).view.read (Elt F) f (ix3 k u i)
      = f (ix3 (⟨halfRow c j hb + k.val, by have := halfRow_le c j hb; omega⟩ : Fin 32) u i) :=
  locL_slice_read ![halfRow c j hb, 0, 0] (halfRow c j hb) rfl (halfL_inb _ (halfRow_le c j hb)) c f k u i
end Halves

theorem trips8 : k0_t8_loop.trips = 4 := by decide +kernel

section M8
variable (m : (ℓ : Loc nD τ sig) → Buf (Elt F) ℓ) (c : Dev nD)

theorem merge8_o (v14 v25 v1014 v1015 : BitVec 32) (v1020 : BitVec 1)
    (h6 : ∀ k : Fin k0_t8_loop.trips, (locO.access (Rect.unit (s := S32x128x256) (k0_off58 c k) S1x128x256.size (k0_off58_inb c k))).set ⊆ (locHalfO c 0 true).view.set) (h7 : ∀ k : Fin k0_t8_loop.trips, (locL.access (Rect.unit (s := S32x1x256) (k0_off56 c k) S1x1x256.size (k0_off56_inb c k))).set ⊆ (locHalfL c 0 true).view.set) (h8 : ∀ k : Fin k0_t8_loop.trips, (rsO.access (Rect.unit (s := S3x8x128x256) (k0_off57 k) S1x1x128x256.size (k0_off57_inb k))).set ⊆ (dstO 1 true).view.set) (h9 : ∀ k : Fin k0_t8_loop.trips, (rsL.access (Rect.unit (s := S3x8x1x256) (k0_off55 k) S1x1x1x256.size (k0_off55_inb k))).set ⊆ (dstL 1 true).view.set) (X6 : BufTy.Contents (Elt F) locO.view.ty) (X7 : BufTy.Contents (Elt F) locL.view.ty) (G8 : BufTy.Contents (Elt F) rsO.view.ty) (G9 : BufTy.Contents (Elt F) rsL.view.ty)
    (hX6 : (locHalfO c 0 true).view.read (Elt F) X6 = halfOt m c (c) true)
    (hG8 : (dstO 1 true).view.read (Elt F) G8 = (KFun.V m).o (nxt c) 1 true) :
    (dstO 1 true).view.read (Elt F) (rsO.view.writes (Elt F) G8 (LoopsV.pbS_k0_t8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 k0_t8_loop.trips).1) = (KFun.V m).o c 2 true := by
  refine vo_succ_of_slots m c 1 true _ fun k d i => ?_
  have hk : k.val < k0_t8_loop.trips := by rw [trips8]; exact k.isLt
  have hc : c.val < 4 := c.isLt
  have hslot := congrFun (slotO_t8 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 ⟨k.val, hk⟩) (ix4 0 0 d i)
  rw [rsO_row_read c _ 1 (k.val + 4) (k0_off57_eq ⟨k.val, hk⟩)] at hslot
  have ha : View.readAt (Elt F) rsO.view (Rect.unit (s := S3x8x128x256) (k0_off57 ⟨k.val, hk⟩) S1x1x128x256.size (k0_off57_inb ⟨k.val, hk⟩)).toLoadRect G8
      = fun s : S1x1x128x256.Idx => (KFun.V m).o (fromDev c true) (1 : Fin 2).castSucc true (ix3 k (⟨(s 2).val, (s 2).isLt⟩ : Fin 128) (⟨(s 3).val, (s 3).isLt⟩ : Fin 256)) := by
    funext s
    rw [rsO_row_read c _ 1 (k.val + 4) (k0_off57_eq ⟨k.val, hk⟩)]
    have := congrFun hG8 (ix3 k (⟨(s 2).val, (s 2).isLt⟩ : Fin 128) (⟨(s 3).val, (s 3).isLt⟩ : Fin 256))
    rw [dstO_read_1t c] at this
    exact this
  have hb : View.readAt (Elt F) locO.view (Rect.unit (s := S32x128x256) (k0_off58 c ⟨k.val, hk⟩) S1x128x256.size (k0_off58_inb c ⟨k.val, hk⟩)).toLoadRect X6
      = ot m c (mergeBatch 1 true c) (headAt true k) := by
    funext s
    rw [locO_row_read c _ (8 * c.val + (k.val + 4)) (off58_eq c ⟨k.val, hk⟩)]
    have := congrFun hX6 (ix3 k (⟨(s 1).val, (s 1).isLt⟩ : Fin 128) (⟨(s 2).val, (s 2).isLt⟩ : Fin 256))
    rw [halfO_read c] at this
    have e : halfRow c 0 true = 8 * ((c.val + 0) % 4) + 4 := rfl
    have e2 : (⟨halfRow c 0 true + k.val, by have := halfRow_le c 0 true; omega⟩ : Fin 32) = ⟨8 * c.val + (k.val + 4), by omega⟩ := Fin.ext (by show halfRow c 0 true + k.val = 8 * c.val + (k.val + 4); omega)
    rw [e2] at this
    refine this.trans ?_
    show ot m c (c) (headAt true k) _ = ot m c (c) (headAt true k) s
    refine congrArg _ (funext fun x => Fin.ext ?_)
    have h0 : (s 0).val < 1 := (s 0).isLt
    match x with
    | ⟨0, _⟩ => show 0 = (s 0).val; omega
    | ⟨1, _⟩ => rfl
    | ⟨2, _⟩ => rfl
  rw [ha, hb] at hslot
  show (dstO 1 true).view.read (Elt F) _ (ix3 k d i) = _
  rw [dstO_read_1t c]
  exact hslot

theorem merge8_l (v14 v25 v1014 v1015 : BitVec 32) (v1020 : BitVec 1)
    (h6 : ∀ k : Fin k0_t8_loop.trips, (locO.access (Rect.unit (s := S32x128x256) (k0_off58 c k) S1x128x256.size (k0_off58_inb c k))).set ⊆ (locHalfO c 0 true).view.set) (h7 : ∀ k : Fin k0_t8_loop.trips, (locL.access (Rect.unit (s := S32x1x256) (k0_off56 c k) S1x1x256.size (k0_off56_inb c k))).set ⊆ (locHalfL c 0 true).view.set) (h8 : ∀ k : Fin k0_t8_loop.trips, (rsO.access (Rect.unit (s := S3x8x128x256) (k0_off57 k) S1x1x128x256.size (k0_off57_inb k))).set ⊆ (dstO 1 true).view.set) (h9 : ∀ k : Fin k0_t8_loop.trips, (rsL.access (Rect.unit (s := S3x8x1x256) (k0_off55 k) S1x1x1x256.size (k0_off55_inb k))).set ⊆ (dstL 1 true).view.set) (X6 : BufTy.Contents (Elt F) locO.view.ty) (X7 : BufTy.Contents (Elt F) locL.view.ty) (G8 : BufTy.Contents (Elt F) rsO.view.ty) (G9 : BufTy.Contents (Elt F) rsL.view.ty)
    (hX7 : (locHalfL c 0 true).view.read (Elt F) X7 = halfLr m c (c) true)
    (hG9 : (dstL 1 true).view.read (Elt F) G9 = (KFun.V m).l (nxt c) 1 true) :
    (dstL 1 true).view.read (Elt F) (rsL.view.writes (Elt F) G9 (LoopsV.pbS_k0_t8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 k0_t8_loop.trips).2) = (KFun.V m).l c 2 true := by
  refine vl_succ_of_slots m c 1 true _ fun k i => ?_
  have hk : k.val < k0_t8_loop.trips := by rw [trips8]; exact k.isLt
  have hc : c.val < 4 := c.isLt
  have hslot := congrFun (slotL_t8 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 ⟨k.val, hk⟩) (ix4 0 0 0 i)
  rw [rsL_row_read c _ 1 (k.val + 4) (k0_off55_eq ⟨k.val, hk⟩)] at hslot
  have ha : View.readAt (Elt F) rsL.view (Rect.unit (s := S3x8x1x256) (k0_off55 ⟨k.val, hk⟩) S1x1x1x256.size (k0_off55_inb ⟨k.val, hk⟩)).toLoadRect G9
      = fun s : S1x1x1x256.Idx => (KFun.V m).l (fromDev c true) (1 : Fin 2).castSucc true (ix3 k (0 : Fin 1) (⟨(s 3).val, (s 3).isLt⟩ : Fin 256)) := by
    funext s
    rw [rsL_row_read c _ 1 (k.val + 4) (k0_off55_eq ⟨k.val, hk⟩)]
    have := congrFun hG9 (ix3 k (0 : Fin 1) (⟨(s 3).val, (s 3).isLt⟩ : Fin 256))
    rw [dstL_read_1t c] at this
    exact this
  have hb : View.readAt (Elt F) locL.view (Rect.unit (s := S32x1x256) (k0_off56 c ⟨k.val, hk⟩) S1x1x256.size (k0_off56_inb c ⟨k.val, hk⟩)).toLoadRect X7
      = lrow m c (mergeBatch 1 true c) (headAt true k) := by
    funext s
    rw [locL_row_read c _ (8 * c.val + (k.val + 4)) (off56_eq c ⟨k.val, hk⟩)]
    have := congrFun hX7 (ix3 k (0 : Fin 1) (⟨(s 2).val, (s 2).isLt⟩ : Fin 256))
    rw [halfL_read c] at this
    have e : halfRow c 0 true = 8 * ((c.val + 0) % 4) + 4 := rfl
    have e2 : (⟨halfRow c 0 true + k.val, by have := halfRow_le c 0 true; omega⟩ : Fin 32) = ⟨8 * c.val + (k.val + 4), by omega⟩ := Fin.ext (by show halfRow c 0 true + k.val = 8 * c.val + (k.val + 4); omega)
    rw [e2] at this
    refine this.trans ?_
    show lrow m c (c) (headAt true k) _ = lrow m c (c) (headAt true k) s
    refine congrArg _ (funext fun x => Fin.ext ?_)
    have h0 : (s 0).val < 1 := (s 0).isLt
    have h1 : (s 1).val < 1 := (s 1).isLt
    match x with
    | ⟨0, _⟩ => show 0 = (s 0).val; omega
    | ⟨1, _⟩ => show 0 = (s 1).val; omega
    | ⟨2, _⟩ => rfl
  rw [ha, hb] at hslot
  show (dstL 1 true).view.read (Elt F) _ (ix3 k (0 : Fin 1) i) = _
  rw [dstL_read_1t c]
  exact hslot

end M8

theorem trips9 : k0_t9_loop.trips = 4 := by decide +kernel

section M9
variable (m : (ℓ : Loc nD τ sig) → Buf (Elt F) ℓ) (c : Dev nD)

theorem merge9_o (v14 w : BitVec 32)
    (h6 : ∀ k : Fin k0_t9_loop.trips, (locO.access (Rect.unit (s := S32x128x256) (k0_off62 c k) S1x128x256.size (k0_off62_inb c k))).set ⊆ (locHalfO c 1 false).view.set) (h7 : ∀ k : Fin k0_t9_loop.trips, (locL.access (Rect.unit (s := S32x1x256) (k0_off60 c k) S1x1x256.size (k0_off60_inb c k))).set ⊆ (locHalfL c 1 false).view.set) (h8 : ∀ k : Fin k0_t9_loop.trips, (rsO.access (Rect.unit (s := S3x8x128x256) (k0_off61 k) S1x1x128x256.size (k0_off61_inb k))).set ⊆ (dstO 2 false).view.set) (h9 : ∀ k : Fin k0_t9_loop.trips, (rsL.access (Rect.unit (s := S3x8x1x256) (k0_off59 k) S1x1x1x256.size (k0_off59_inb k))).set ⊆ (dstL 2 false).view.set) (X6 : BufTy.Contents (Elt F) locO.view.ty) (X7 : BufTy.Contents (Elt F) locL.view.ty) (G8 : BufTy.Contents (Elt F) rsO.view.ty) (G9 : BufTy.Contents (Elt F) rsL.view.ty)
    (hX6 : (locHalfO c 1 false).view.read (Elt F) X6 = halfOt m c (nxt c) false)
    (hG8 : (dstO 2 false).view.read (Elt F) G8 = (KFun.V m).o (prv c) 2 false) :
    (dstO 2 false).view.read (Elt F) (rsO.view.writes (Elt F) G8 (LoopsV.pbS_k0_t9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 k0_t9_loop.trips).1) = (fun t => KFun.voC m 3 c false (⟨(t 0).val, (t 0).isLt⟩ : Fin 4) (⟨(t 1).val, (t 1).isLt⟩ : Fin 128) (⟨(t 2).val, (t 2).isLt⟩ : Fin 256)) := by
  funext t
  obtain ⟨k, d, i, rfl⟩ : ∃ (k : Fin 4) (d : Fin 128) (i : Fin 256), t = ix3 k d i := ⟨t 0, t 1, t 2, eq_ix3 t⟩
  show _ = k0_pay76 (fun s : S1x1x128x256.Idx => voC m 2 (fromDev c false) false k (⟨(s 2).val, (s 2).isLt⟩ : Fin 128) (⟨(s 3).val, (s 3).isLt⟩ : Fin 256)) (ot m c (mergeBatch 2 false c) (headAt false k)) (ix4 0 0 d i)
  have hk : k.val < k0_t9_loop.trips := by rw [trips9]; exact k.isLt
  have hc : c.val < 4 := c.isLt
  have hslot := congrFun (slotO_t9 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 ⟨k.val, hk⟩) (ix4 0 0 d i)
  rw [rsO_row_read c _ 2 (k.val) (k0_off61_eq ⟨k.val, hk⟩)] at hslot
  have ha : View.readAt (Elt F) rsO.view (Rect.unit (s := S3x8x128x256) (k0_off61 ⟨k.val, hk⟩) S1x1x128x256.size (k0_off61_inb ⟨k.val, hk⟩)).toLoadRect G8
      = fun s : S1x1x128x256.Idx => voC m 2 (fromDev c false) false k (⟨(s 2).val, (s 2).isLt⟩ : Fin 128) (⟨(s 3).val, (s 3).isLt⟩ : Fin 256) := by
    funext s
    rw [rsO_row_read c _ 2 (k.val) (k0_off61_eq ⟨k.val, hk⟩)]
    have := congrFun hG8 (ix3 k (⟨(s 2).val, (s 2).isLt⟩ : Fin 128) (⟨(s 3).val, (s 3).isLt⟩ : Fin 256))
    rw [dstO_read_2f c] at this
    exact this
  have hb : View.readAt (Elt F) locO.view (Rect.unit (s := S32x128x256) (k0_off62 c ⟨k.val, hk⟩) S1x128x256.size (k0_off62_inb c ⟨k.val, hk⟩)).toLoadRect X6
      = ot m c (mergeBatch 2 false c) (headAt false k) := by
    funext s
    rw [locO_row_read c _ (8 * ((c.val + 1) % 4) + k.val) (off62_eq c ⟨k.val, hk⟩)]
    have := congrFun hX6 (ix3 k (⟨(s 1).val, (s 1).isLt⟩ : Fin 128) (⟨(s 2).val, (s 2).isLt⟩ : Fin 256))
    rw [halfO_read c] at this
    have e : halfRow c 1 false = 8 * ((c.val + 1) % 4) + 0 := rfl
    have e2 : (⟨halfRow c 1 false + k.val, by have := halfRow_le c 1 false; omega⟩ : Fin 32) = ⟨8 * ((c.val + 1) % 4) + k.val, by omega⟩ := Fin.ext (by show halfRow c 1 false + k.val = 8 * ((c.val + 1) % 4) + k.val; omega)
    rw [e2] at this
    refine this.trans ?_
    show ot m c (nxt c) (headAt false k) _ = ot m c (nxt c) (headAt false k) s
    refine congrArg _ (funext fun x => Fin.ext ?_)
    have h0 : (s 0).val < 1 := (s 0).isLt
    match x with
    | ⟨0, _⟩ => show 0 = (s 0).val; omega
    | ⟨1, _⟩ => rfl
    | ⟨2, _⟩ => rfl
  rw [ha, hb] at hslot
  show (dstO 2 false).view.read (Elt F) _ (ix3 k d i) = _
  rw [dstO_read_2f c]
  exact hslot

theorem merge9_l (v14 w : BitVec 32)
    (h6 : ∀ k : Fin k0_t9_loop.trips, (locO.access (Rect.unit (s := S32x128x256) (k0_off62 c k) S1x128x256.size (k0_off62_inb c k))).set ⊆ (locHalfO c 1 false).view.set) (h7 : ∀ k : Fin k0_t9_loop.trips, (locL.access (Rect.unit (s := S32x1x256) (k0_off60 c k) S1x1x256.size (k0_off60_inb c k))).set ⊆ (locHalfL c 1 false).view.set) (h8 : ∀ k : Fin k0_t9_loop.trips, (rsO.access (Rect.unit (s := S3x8x128x256) (k0_off61 k) S1x1x128x256.size (k0_off61_inb k))).set ⊆ (dstO 2 false).view.set) (h9 : ∀ k : Fin k0_t9_loop.trips, (rsL.access (Rect.unit (s := S3x8x1x256) (k0_off59 k) S1x1x1x256.size (k0_off59_inb k))).set ⊆ (dstL 2 false).view.set) (X6 : BufTy.Contents (Elt F) locO.view.ty) (X7 : BufTy.Contents (Elt F) locL.view.ty) (G8 : BufTy.Contents (Elt F) rsO.view.ty) (G9 : BufTy.Contents (Elt F) rsL.view.ty)
    (hX7 : (locHalfL c 1 false).view.read (Elt F) X7 = halfLr m c (nxt c) false)
    (hG9 : (dstL 2 false).view.read (Elt F) G9 = (KFun.V m).l (prv c) 2 false) :
    (dstL 2 false).view.read (Elt F) (rsL.view.writes (Elt F) G9 (LoopsV.pbS_k0_t9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 k0_t9_loop.trips).2) = (fun t => KFun.vlC m 3 c false (⟨(t 0).val, (t 0).isLt⟩ : Fin 4) (⟨(t 2).val, (t 2).isLt⟩ : Fin 256)) := by
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  show _ = k0_pay75 (fun s : S1x1x1x256.Idx => vlC m 2 (fromDev c false) false k (⟨(s 3).val, (s 3).isLt⟩ : Fin 256)) (lrow m c (mergeBatch 2 false c) (headAt false k)) (ix4 0 0 0 i)
  have hk : k.val < k0_t9_loop.trips := by rw [trips9]; exact k.isLt
  have hc : c.val < 4 := c.isLt
  have hslot := congrFun (slotL_t9 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 ⟨k.val, hk⟩) (ix4 0 0 0 i)
  rw [rsL_row_read c _ 2 (k.val) (k0_off59_eq ⟨k.val, hk⟩)] at hslot
  have ha : View.readAt (Elt F) rsL.view (Rect.unit (s := S3x8x1x256) (k0_off59 ⟨k.val, hk⟩) S1x1x1x256.size (k0_off59_inb ⟨k.val, hk⟩)).toLoadRect G9
      = fun s : S1x1x1x256.Idx => vlC m 2 (fromDev c false) false k (⟨(s 3).val, (s 3).isLt⟩ : Fin 256) := by
    funext s
    rw [rsL_row_read c _ 2 (k.val) (k0_off59_eq ⟨k.val, hk⟩)]
    have := congrFun hG9 (ix3 k (0 : Fin 1) (⟨(s 3).val, (s 3).isLt⟩ : Fin 256))
    rw [dstL_read_2f c] at this
    exact this
  have hb : View.readAt (Elt F) locL.view (Rect.unit (s := S32x1x256) (k0_off60 c ⟨k.val, hk⟩) S1x1x256.size (k0_off60_inb c ⟨k.val, hk⟩)).toLoadRect X7
      = lrow m c (mergeBatch 2 false c) (headAt false k) := by
    funext s
    rw [locL_row_read c _ (8 * ((c.val + 1) % 4) + k.val) (off60_eq c ⟨k.val, hk⟩)]
    have := congrFun hX7 (ix3 k (0 : Fin 1) (⟨(s 2).val, (s 2).isLt⟩ : Fin 256))
    rw [halfL_read c] at this
    have e : halfRow c 1 false = 8 * ((c.val + 1) % 4) + 0 := rfl
    have e2 : (⟨halfRow c 1 false + k.val, by have := halfRow_le c 1 false; omega⟩ : Fin 32) = ⟨8 * ((c.val + 1) % 4) + k.val, by omega⟩ := Fin.ext (by show halfRow c 1 false + k.val = 8 * ((c.val + 1) % 4) + k.val; omega)
    rw [e2] at this
    refine this.trans ?_
    show lrow m c (nxt c) (headAt false k) _ = lrow m c (nxt c) (headAt false k) s
    refine congrArg _ (funext fun x => Fin.ext ?_)
    have h0 : (s 0).val < 1 := (s 0).isLt
    have h1 : (s 1).val < 1 := (s 1).isLt
    match x with
    | ⟨0, _⟩ => show 0 = (s 0).val; omega
    | ⟨1, _⟩ => show 0 = (s 1).val; omega
    | ⟨2, _⟩ => rfl
  rw [ha, hb] at hslot
  show (dstL 2 false).view.read (Elt F) _ (ix3 k (0 : Fin 1) i) = _
  rw [dstL_read_2f c]
  exact hslot

end M9

theorem trips10 : k0_t10_loop.trips = 4 := by decide +kernel

section M10
variable (m : (ℓ : Loc nD τ sig) → Buf (Elt F) ℓ) (c : Dev nD)

theorem merge10_o (v2 w1 w2 : BitVec 32) (b1 b2 b3 : BitVec 1)
    (h6 : ∀ k : Fin k0_t10_loop.trips, (locO.access (Rect.unit (s := S32x128x256) (k0_off66 c k) S1x128x256.size (k0_off66_inb c k))).set ⊆ (locHalfO c 1 true).view.set) (h7 : ∀ k : Fin k0_t10_loop.trips, (locL.access (Rect.unit (s := S32x1x256) (k0_off64 c k) S1x1x256.size (k0_off64_inb c k))).set ⊆ (locHalfL c 1 true).view.set) (h8 : ∀ k : Fin k0_t10_loop.trips, (rsO.access (Rect.unit (s := S3x8x128x256) (k0_off65 k) S1x1x128x256.size (k0_off65_inb k))).set ⊆ (dstO 2 true).view.set) (h9 : ∀ k : Fin k0_t10_loop.trips, (rsL.access (Rect.unit (s := S3x8x1x256) (k0_off63 k) S1x1x1x256.size (k0_off63_inb k))).set ⊆ (dstL 2 true).view.set) (X6 : BufTy.Contents (Elt F) locO.view.ty) (X7 : BufTy.Contents (Elt F) locL.view.ty) (G8 : BufTy.Contents (Elt F) rsO.view.ty) (G9 : BufTy.Contents (Elt F) rsL.view.ty)
    (hX6 : (locHalfO c 1 true).view.read (Elt F) X6 = halfOt m c (nxt c) true)
    (hG8 : (dstO 2 true).view.read (Elt F) G8 = (KFun.V m).o (nxt c) 2 true) :
    (dstO 2 true).view.read (Elt F) (rsO.view.writes (Elt F) G8 (LoopsV.pbS_k0_t10 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 k0_t10_loop.trips).1) = (fun t => KFun.voC m 3 c true (⟨(t 0).val, (t 0).isLt⟩ : Fin 4) (⟨(t 1).val, (t 1).isLt⟩ : Fin 128) (⟨(t 2).val, (t 2).isLt⟩ : Fin 256)) := by
  funext t
  obtain ⟨k, d, i, rfl⟩ : ∃ (k : Fin 4) (d : Fin 128) (i : Fin 256), t = ix3 k d i := ⟨t 0, t 1, t 2, eq_ix3 t⟩
  show _ = k0_pay76 (fun s : S1x1x128x256.Idx => voC m 2 (fromDev c true) true k (⟨(s 2).val, (s 2).isLt⟩ : Fin 128) (⟨(s 3).val, (s 3).isLt⟩ : Fin 256)) (ot m c (mergeBatch 2 true c) (headAt true k)) (ix4 0 0 d i)
  have hk : k.val < k0_t10_loop.trips := by rw [trips10]; exact k.isLt
  have hc : c.val < 4 := c.isLt
  have hslot := congrFun (slotO_t10 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 ⟨k.val, hk⟩) (ix4 0 0 d i)
  rw [rsO_row_read c _ 2 (k.val + 4) (k0_off65_eq ⟨k.val, hk⟩)] at hslot
  have ha : View.readAt (Elt F) rsO.view (Rect.unit (s := S3x8x128x256) (k0_off65 ⟨k.val, hk⟩) S1x1x128x256.size (k0_off65_inb ⟨k.val, hk⟩)).toLoadRect G8
      = fun s : S1x1x128x256.Idx => voC m 2 (fromDev c true) true k (⟨(s 2).val, (s 2).isLt⟩ : Fin 128) (⟨(s 3).val, (s 3).isLt⟩ : Fin 256) := by
    funext s
    rw [rsO_row_read c _ 2 (k.val + 4) (k0_off65_eq ⟨k.val, hk⟩)]
    have := congrFun hG8 (ix3 k (⟨(s 2).val, (s 2).isLt⟩ : Fin 128) (⟨(s 3).val, (s 3).isLt⟩ : Fin 256))
    rw [dstO_read_2t c] at this
    exact this
  have hb : View.readAt (Elt F) locO.view (Rect.unit (s := S32x128x256) (k0_off66 c ⟨k.val, hk⟩) S1x128x256.size (k0_off66_inb c ⟨k.val, hk⟩)).toLoadRect X6
      = ot m c (mergeBatch 2 true c) (headAt true k) := by
    funext s
    rw [locO_row_read c _ (8 * ((c.val + 1) % 4) + (k.val + 4)) (off66_eq c ⟨k.val, hk⟩)]
    have := congrFun hX6 (ix3 k (⟨(s 1).val, (s 1).isLt⟩ : Fin 128) (⟨(s 2).val, (s 2).isLt⟩ : Fin 256))
    rw [halfO_read c] at this
    have e : halfRow c 1 true = 8 * ((c.val + 1) % 4) + 4 := rfl
    have e2 : (⟨halfRow c 1 true + k.val, by have := halfRow_le c 1 true; omega⟩ : Fin 32) = ⟨8 * ((c.val + 1) % 4) + (k.val + 4), by omega⟩ := Fin.ext (by show halfRow c 1 true + k.val = 8 * ((c.val + 1) % 4) + (k.val + 4); omega)
    rw [e2] at this
    refine this.trans ?_
    show ot m c (nxt c) (headAt true k) _ = ot m c (nxt c) (headAt true k) s
    refine congrArg _ (funext fun x => Fin.ext ?_)
    have h0 : (s 0).val < 1 := (s 0).isLt
    match x with
    | ⟨0, _⟩ => show 0 = (s 0).val; omega
    | ⟨1, _⟩ => rfl
    | ⟨2, _⟩ => rfl
  rw [ha, hb] at hslot
  show (dstO 2 true).view.read (Elt F) _ (ix3 k d i) = _
  rw [dstO_read_2t c]
  exact hslot

theorem merge10_l (v2 w1 w2 : BitVec 32) (b1 b2 b3 : BitVec 1)
    (h6 : ∀ k : Fin k0_t10_loop.trips, (locO.access (Rect.unit (s := S32x128x256) (k0_off66 c k) S1x128x256.size (k0_off66_inb c k))).set ⊆ (locHalfO c 1 true).view.set) (h7 : ∀ k : Fin k0_t10_loop.trips, (locL.access (Rect.unit (s := S32x1x256) (k0_off64 c k) S1x1x256.size (k0_off64_inb c k))).set ⊆ (locHalfL c 1 true).view.set) (h8 : ∀ k : Fin k0_t10_loop.trips, (rsO.access (Rect.unit (s := S3x8x128x256) (k0_off65 k) S1x1x128x256.size (k0_off65_inb k))).set ⊆ (dstO 2 true).view.set) (h9 : ∀ k : Fin k0_t10_loop.trips, (rsL.access (Rect.unit (s := S3x8x1x256) (k0_off63 k) S1x1x1x256.size (k0_off63_inb k))).set ⊆ (dstL 2 true).view.set) (X6 : BufTy.Contents (Elt F) locO.view.ty) (X7 : BufTy.Contents (Elt F) locL.view.ty) (G8 : BufTy.Contents (Elt F) rsO.view.ty) (G9 : BufTy.Contents (Elt F) rsL.view.ty)
    (hX7 : (locHalfL c 1 true).view.read (Elt F) X7 = halfLr m c (nxt c) true)
    (hG9 : (dstL 2 true).view.read (Elt F) G9 = (KFun.V m).l (nxt c) 2 true) :
    (dstL 2 true).view.read (Elt F) (rsL.view.writes (Elt F) G9 (LoopsV.pbS_k0_t10 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 k0_t10_loop.trips).2) = (fun t => KFun.vlC m 3 c true (⟨(t 0).val, (t 0).isLt⟩ : Fin 4) (⟨(t 2).val, (t 2).isLt⟩ : Fin 256)) := by
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  show _ = k0_pay75 (fun s : S1x1x1x256.Idx => vlC m 2 (fromDev c true) true k (⟨(s 3).val, (s 3).isLt⟩ : Fin 256)) (lrow m c (mergeBatch 2 true c) (headAt true k)) (ix4 0 0 0 i)
  have hk : k.val < k0_t10_loop.trips := by rw [trips10]; exact k.isLt
  have hc : c.val < 4 := c.isLt
  have hslot := congrFun (slotL_t10 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 ⟨k.val, hk⟩) (ix4 0 0 0 i)
  rw [rsL_row_read c _ 2 (k.val + 4) (k0_off63_eq ⟨k.val, hk⟩)] at hslot
  have ha : View.readAt (Elt F) rsL.view (Rect.unit (s := S3x8x1x256) (k0_off63 ⟨k.val, hk⟩) S1x1x1x256.size (k0_off63_inb ⟨k.val, hk⟩)).toLoadRect G9
      = fun s : S1x1x1x256.Idx => vlC m 2 (fromDev c true) true k (⟨(s 3).val, (s 3).isLt⟩ : Fin 256) := by
    funext s
    rw [rsL_row_read c _ 2 (k.val + 4) (k0_off63_eq ⟨k.val, hk⟩)]
    have := congrFun hG9 (ix3 k (0 : Fin 1) (⟨(s 3).val, (s 3).isLt⟩ : Fin 256))
    rw [dstL_read_2t c] at this
    exact this
  have hb : View.readAt (Elt F) locL.view (Rect.unit (s := S32x1x256) (k0_off64 c ⟨k.val, hk⟩) S1x1x256.size (k0_off64_inb c ⟨k.val, hk⟩)).toLoadRect X7
      = lrow m c (mergeBatch 2 true c) (headAt true k) := by
    funext s
    rw [locL_row_read c _ (8 * ((c.val + 1) % 4) + (k.val + 4)) (off64_eq c ⟨k.val, hk⟩)]
    have := congrFun hX7 (ix3 k (0 : Fin 1) (⟨(s 2).val, (s 2).isLt⟩ : Fin 256))
    rw [halfL_read c] at this
    have e : halfRow c 1 true = 8 * ((c.val + 1) % 4) + 4 := rfl
    have e2 : (⟨halfRow c 1 true + k.val, by have := halfRow_le c 1 true; omega⟩ : Fin 32) = ⟨8 * ((c.val + 1) % 4) + (k.val + 4), by omega⟩ := Fin.ext (by show halfRow c 1 true + k.val = 8 * ((c.val + 1) % 4) + (k.val + 4); omega)
    rw [e2] at this
    refine this.trans ?_
    show lrow m c (nxt c) (headAt true k) _ = lrow m c (nxt c) (headAt true k) s
    refine congrArg _ (funext fun x => Fin.ext ?_)
    have h0 : (s 0).val < 1 := (s 0).isLt
    have h1 : (s 1).val < 1 := (s 1).isLt
    match x with
    | ⟨0, _⟩ => show 0 = (s 0).val; omega
    | ⟨1, _⟩ => show 0 = (s 1).val; omega
    | ⟨2, _⟩ => rfl
  rw [ha, hb] at hslot
  show (dstL 2 true).view.read (Elt F) _ (ix3 k (0 : Fin 1) i) = _
  rw [dstL_read_2t c]
  exact hslot

end M10

section Acc
variable (m : (ℓ : Loc nD τ sig) → Buf (Elt F) ℓ) (c : Dev nD)

theorem acc0_ok : Acc0 m c := by
  intro go gl g3 hO hL
  show ((Memref.whole cc0_stg3_0 : Memref sig .tc .vmem S4x256x1024 .f32).view.slice (rOwn c)).read (Elt F) _ = _
  rw [View.writes_singleton, View.read_write_univ]
  show k0_pay104 _ _ _ = k0_pay104 (KFun.rsO m c 0) (KFun.rsL m c 0) (KFun.woRows m c 0)
  have hA : View.readAt (Elt F) (Memref.whole cc0_scratch2 : Memref sig .tc .vmem S3x8x128x256 .bf16).view (Rect.unit (s := S3x8x128x256) ![2, 0, 0, 0] S1x1x128x256.size inb_S3x8x128x256_S1x1x128x256_2_0_0_0).toLoadRect go = KFun.rsO m c 0 := by
    funext s
    rw [rsO_row_read c _ 2 0 rfl]
    have := congrFun hO (ix3 (0 : Fin 4) (⟨(s 2).val, (s 2).isLt⟩ : Fin 128) (⟨(s 3).val, (s 3).isLt⟩ : Fin 256))
    rw [dstO_read_2f c] at this
    exact this
  have hB : View.readAt (Elt F) (Memref.whole cc0_scratch3 : Memref sig .tc .vmem S3x8x1x256 .f32).view (Rect.unit (s := S3x8x1x256) ![2, 0, 0, 0] S1x1x1x256.size inb_S3x8x1x256_S1x1x1x256_2_0_0_0).toLoadRect gl = KFun.rsL m c 0 := by
    funext s
    rw [rsL_row_read c _ 2 0 rfl]
    have := congrFun hL (ix3 (0 : Fin 4) (0 : Fin 1) (⟨(s 3).val, (s 3).isLt⟩ : Fin 256))
    rw [dstL_read_2f c] at this
    exact this
  have hC : View.readAt (Elt F) (Memref.whole cc0_scratch8 : Memref sig .tc .vmem S1024x1024 .bf16).view (Rect.unit (s := S1024x1024) ![0, 0] S128x1024.size inb_S1024x1024_S128x1024_0_0).toLoadRect (KFun.wob m c) = KFun.woRows m c 0 := by
    funext s
    rw [View.readAt_apply, View.read_apply]
    show (KFun.wob m c) _ = (KFun.wob m c) _
    refine congrArg _ (funext fun x => Fin.ext ?_)
    match x with
    | ⟨0, _⟩ => show 0 + 1 * (s 0).val = 0 * 128 + (s 0).val; omega
    | ⟨1, _⟩ => show 0 + 1 * (s 1).val = (s 1).val; omega
  rw [hA, hB, hC]

end Acc

end SegE

section Closed
variable (m : (ℓ : Loc nD τ sig) → Buf (Elt F) ℓ) (c : Dev nD)

theorem merge8_ok (v14 v25 v1014 v1015 : BitVec 32) (v1020 : BitVec 1) : Merge8 m c v14 v25 v1014 v1015 v1020 :=
  fun h6 h7 h8 h9 X6 X7 G8 G9 hX6 hX7 hG8 hG9 =>
    ⟨SegE.merge8_o m c v14 v25 v1014 v1015 v1020 h6 h7 h8 h9 X6 X7 G8 G9 hX6 hG8,
     SegE.merge8_l m c v14 v25 v1014 v1015 v1020 h6 h7 h8 h9 X6 X7 G8 G9 hX7 hG9⟩

theorem merge9_ok (v14 : BitVec 32) : Merge9 m c v14 :=
  fun w h6 h7 h8 h9 X6 X7 G8 G9 hX6 hX7 hG8 hG9 =>
    ⟨SegE.merge9_o m c v14 w h6 h7 h8 h9 X6 X7 G8 G9 hX6 hG8,
     SegE.merge9_l m c v14 w h6 h7 h8 h9 X6 X7 G8 G9 hX7 hG9⟩

theorem merge10_ok (v2 : BitVec 32) : Merge10 m c v2 :=
  fun w1 w2 b1 b2 b3 h6 h7 h8 h9 X6 X7 G8 G9 hX6 hX7 hG8 hG9 =>
    ⟨SegE.merge10_o m c v2 w1 w2 b1 b2 b3 h6 h7 h8 h9 X6 X7 G8 G9 hX6 hG8,
     SegE.merge10_l m c v2 w1 w2 b1 b2 b3 h6 h7 h8 h9 X6 X7 G8 G9 hX7 hG9⟩

/-- The segment with its values: from the cut before the last merge of hop 1 to the cut before the second output term. -/
theorem segE_closed (K : Names) (W : Waits sig Unit) (v2 v14 v25 v1014 v1015 : BitVec 32) (v1020 : BitVec 1) :
    At40 m c K W ⊢ wp frame (wpE (defs₀ (F := F)) 𝒱₀ (c : Thread nD τ) none) Set.univ
      (segEProg (F := F) (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v1014 v1015 v1020)
      (fun _ => iprop(∃ W', AtTail m c K W')) :=
  segE_ok m c K W v2 v14 v25 v1014 v1015 v1020 (merge8_ok m c v14 v25 v1014 v1015 v1020) (merge9_ok m c v14) (merge10_ok m c v2) (SegE.acc0_ok m c)

end Closed

end Cert.KernelIdeal.Proto
end
-- ==== Proof.BodyOf.lean ====
/-
  The body obligation of a device from the six segments of its body: each segment runs from the state at one cut to the
  state at the next; the body is their sequence (Segs.body_split), so the weakest preconditions nest.
-/
import proofs.«900754_g7700000000000755_dist_attn_cross_gqa_kvseq_b4_sq256_skv1024_d1024_hq8_dh128_v7x_i4_f32_1_alg».proof.Proof.Segs
import proofs.«900754_g7700000000000755_dist_attn_cross_gqa_kvseq_b4_sq256_skv1024_d1024_hq8_dh128_v7x_i4_f32_1_alg».proof.Proof.Cut15
import proofs.«900754_g7700000000000755_dist_attn_cross_gqa_kvseq_b4_sq256_skv1024_d1024_hq8_dh128_v7x_i4_f32_1_alg».proof.Proof.Cut27
import proofs.«900754_g7700000000000755_dist_attn_cross_gqa_kvseq_b4_sq256_skv1024_d1024_hq8_dh128_v7x_i4_f32_1_alg».proof.Proof.Rest27
import proofs.«900754_g7700000000000755_dist_attn_cross_gqa_kvseq_b4_sq256_skv1024_d1024_hq8_dh128_v7x_i4_f32_1_alg».proof.Proof.Cut32
import proofs.«900754_g7700000000000755_dist_attn_cross_gqa_kvseq_b4_sq256_skv1024_d1024_hq8_dh128_v7x_i4_f32_1_alg».proof.Proof.Cut40
import proofs.«900754_g7700000000000755_dist_attn_cross_gqa_kvseq_b4_sq256_skv1024_d1024_hq8_dh128_v7x_i4_f32_1_alg».proof.Proof.TailSpec
import proofs.«900754_g7700000000000755_dist_attn_cross_gqa_kvseq_b4_sq256_skv1024_d1024_hq8_dh128_v7x_i4_f32_1_alg».proof.Proof.MergeC
import proofs.«900754_g7700000000000755_dist_attn_cross_gqa_kvseq_b4_sq256_skv1024_d1024_hq8_dh128_v7x_i4_f32_1_alg».proof.Proof.BodyEVal
import proofs.«900754_g7700000000000755_dist_attn_cross_gqa_kvseq_b4_sq256_skv1024_d1024_hq8_dh128_v7x_i4_f32_1_alg».proof.Proof.Gen.KernelIdeal.Points
import proofs.«900754_g7700000000000755_dist_attn_cross_gqa_kvseq_b4_sq256_skv1024_d1024_hq8_dh128_v7x_i4_f32_1_alg».proof.Proof.Gen.KernelIdeal.Launch
import Idealize.ShloMosaic.Lib.Tactic

set_option maxRecDepth 65536

noncomputable section

namespace Cert.KernelIdeal.Proto

open Cert.KernelIdeal Cert.KernelIdeal.Gen Cert.KernelIdeal.Ring
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

set_option maxHeartbeats 4000000 in
/-- The six segments in sequence. -/
theorem body_of_segments (m : (ℓ : Loc nD τ sig) → Buf (Elt F) ℓ) (c : Dev nD) (K : Names) (W : Waits sig Unit)
    (At0 : sProp 𝕄) (Post : PUnit → sProp 𝕄)
    (hA : At0 ⊢ wp frame (wpE (defs₀ (F := F)) 𝒱₀ (c : Thread nD τ) none) Set.univ (segAProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _)) (fun r => iprop(∃ W', At15 m c K W' r.2.2.2.2.1 r.2.2.2.2.2 ∗ ⌜r.1 = c⌝)))
    (hB : ∀ W v2 v14 v25 v26 v226, At15 m c K W v26 v226 ⊢ wp frame (wpE (defs₀ (F := F)) 𝒱₀ (c : Thread nD τ) none) Set.univ (segBProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v26 v226) (fun _ => iprop(∃ W', At27 m c K W' (Rest27 m c) c v2 v14 v25)))
    (h32 : ∀ W r, Post32 m c K W (Rest27 m c) r ⊢ At32 m c K W (Rest32 m c) c)
    (hD : ∀ W v2 v14 v25 v787 v790, At32 m c K W (Rest32 m c) c ⊢ wp frame (wpE (defs₀ (F := F)) 𝒱₀ (c : Thread nD τ) none) Set.univ (segDProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v787 v790) (fun _ => iprop(∃ W', At40 m c K W')))
    (hT : ∀ W v14 v25 v1157, AtTail m c K W ⊢ wp frame (wpE (defs₀ (F := F)) 𝒱₀ (c : Thread nD τ) none) Set.univ (tailProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1157) (Post)) :
    At0 ⊢ wp frame (wpE (defs₀ (F := F)) 𝒱₀ (c : Thread nD τ) none) Set.univ (cc0_body_skel (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _)) (Post) := by
  rw [body_split]
  simp only [wp_bind]
  refine hA.trans (wp_mono _ _ _ fun rA => ?_)
  iintro ⟨%W1, H, %hr⟩
  obtain ⟨d0, v2, v14, v25, v26, v226⟩ := rA
  subst hr
  iapply ((hB W1 v2 v14 v25 v26 v226).trans (wp_mono _ _ _ fun _ => ?_)) $$ H
  iintro ⟨%W2, H⟩
  iapply ((segC (F := F) m _ K W2 (Rest27 m _) _ v2 v14 v25).trans (wp_mono _ _ _ fun rC => ?_)) $$ H
  iintro ⟨%W3, H⟩
  iapply (((h32 W3 rC).trans (hD W3 v2 v14 v25 rC.1 rC.2)).trans (wp_mono _ _ _ fun rD => ?_)) $$ H
  iintro ⟨%W4, H⟩
  iapply ((segE_closed (F := F) m _ K W4 v2 v14 v25 rD.1 rD.2.1 rD.2.2).trans (wp_mono _ _ _ fun rE => ?_)) $$ H
  iintro ⟨%W5, H⟩
  iapply (hT W5 v14 v25 rE) $$ H

end Cert.KernelIdeal.Proto

end
-- ==== Proof.Regroup32.lean ====
/-
  From what the steps up to the third flash step leave to the state that step starts from.

  Nothing is computed here: the four copies of hop 1 under way, the local copies and the buffers the third flash step uses
  are picked out of what is held; everything else stays aside. A half block held at contents whose rows are known reads,
  through its own view, as those rows; a whole buffer held through its memref's view is the buffer held whole.
-/
import proofs.«900754_g7700000000000755_dist_attn_cross_gqa_kvseq_b4_sq256_skv1024_d1024_hq8_dh128_v7x_i4_f32_1_alg».proof.Proof.Cut27
import proofs.«900754_g7700000000000755_dist_attn_cross_gqa_kvseq_b4_sq256_skv1024_d1024_hq8_dh128_v7x_i4_f32_1_alg».proof.Proof.Cut32
import proofs.«900754_g7700000000000755_dist_attn_cross_gqa_kvseq_b4_sq256_skv1024_d1024_hq8_dh128_v7x_i4_f32_1_alg».proof.Proof.Rest27
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.Bridge

set_option maxRecDepth 8192

noncomputable section

namespace Cert.KernelIdeal.Proto

open Cert.KernelIdeal Cert.KernelIdeal.Gen Cert.KernelIdeal.Ring
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- A half block of the partial numerators held at contents whose four rows are known reads, through its own view, as those rows. -/
theorem halfRowsO_heldAs (c : Dev nD) (j : Fin 4) (hb : Bool) (b : Fin 4) :
    halfRowsO m c j hb b ⊢ heldAs (F := F) c (locHalfO c j hb) (halfOt m c b hb) := by
  unfold halfRowsO heldAs
  iintro ⟨%f, H, %hr⟩
  iexists f
  isplitl [H]; · iexact H
  ipureintro
  funext t
  obtain ⟨k, d, i, rfl⟩ : ∃ (k : Fin 4) (d : Fin 128) (i : Fin 256), t = ix3 k d i := ⟨t 0, t 1, t 2, eq_ix3 t⟩
  unfold locHalfO
  rw [KFun.locO_slice_read _ (halfRow c j hb) rfl]
  exact hr k d i

/-- and of the partial denominators. -/
theorem halfRowsL_heldAs (c : Dev nD) (j : Fin 4) (hb : Bool) (b : Fin 4) :
    halfRowsL m c j hb b ⊢ heldAs (F := F) c (locHalfL c j hb) (halfLr m c b hb) := by
  unfold halfRowsL heldAs
  iintro ⟨%f, H, %hr⟩
  iexists f
  isplitl [H]; · iexact H
  ipureintro
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  unfold locHalfL
  rw [KFun.locL_slice_read _ (halfRow c j hb) rfl]
  exact hr k i

/-- A copy not yet enqueued, with the neighbour's landing slice and that round 0 of the neighbour's receive cell is reached. -/
theorem oXfer_of (c : Dev nD) (l : Bool) (h : Fin 3) :
    iprop(freshX c .o l h ∗ held (F := F) (toDev c l) (dstO h l) ∗ reached ER (recvCell (toDev c l) .o l h) 0) ⊢ (oXfer c l h : sProp 𝕄) := by
  unfold freshX oXfer
  iintro ⟨⟨H1, H2, H3, H4, H5, #H6, #H7⟩, Hd, #Hr⟩
  isplitl [H1]; · iexact H1
  isplitl [H2]; · iexact H2
  isplitl [H3]; · iexact H3
  isplitl [H4]; · iexact H4
  isplitl [H5]; · iexact H5
  isplitl [Hd]; · iexact Hd
  isplitr; · iexact H6
  iexact Hr
theorem lXfer_of (c : Dev nD) (l : Bool) (h : Fin 3) :
    iprop(freshX c .l l h ∗ held (F := F) (toDev c l) (dstL h l) ∗ reached ER (recvCell (toDev c l) .l l h) 0) ⊢ (lXfer c l h : sProp 𝕄) := by
  unfold freshX lXfer
  iintro ⟨⟨H1, H2, H3, H4, H5, #H6, #H7⟩, Hd, #Hr⟩
  isplitl [H1]; · iexact H1
  isplitl [H2]; · iexact H2
  isplitl [H3]; · iexact H3
  isplitl [H4]; · iexact H4
  isplitl [H5]; · iexact H5
  isplitl [Hd]; · iexact Hd
  isplitr; · iexact H6
  iexact Hr
theorem gXfer_of (c : Dev nD) (l : Bool) (h : Fin 3) :
    iprop(freshX c .g l h ∗ held (F := F) (toDev c l) (agS c h l) ∗ reached ER (recvCell (toDev c l) .g l h) 0) ⊢ (gXfer c l h : sProp 𝕄) := by
  unfold freshX gXfer
  iintro ⟨⟨H1, H2, H3, H4, H5, #H6, #H7⟩, Hd, #Hr⟩
  isplitl [H1]; · iexact H1
  isplitl [H2]; · iexact H2
  isplitl [H3]; · iexact H3
  isplitl [H4]; · iexact H4
  isplitl [H5]; · iexact H5
  isplitl [Hd]; · iexact Hd
  isplitr; · iexact H6
  iexact Hr

/-- A source half block back from its copy, at whatever it holds. -/
theorem held_of_sendPayO (c : Dev nD) (l : Bool) : sendPay (KFun.V m) c .o l 0 ⊢ held (F := F) c (srcO c 0 l) := by
  simp only [sendPay, heldAs, held]
  iintro ⟨%f, H, %_⟩
  iexists f; iexact H
theorem held_of_sendPayL (c : Dev nD) (l : Bool) : sendPay (KFun.V m) c .l l 0 ⊢ held (F := F) c (srcL c 0 l) := by
  simp only [sendPay, heldAs, held]
  iintro ⟨%f, H, %_⟩
  iexists f; iexact H

set_option maxHeartbeats 4000000 in
/-- What the steps up to the third flash step leave, with the rest of the state at the cut before the first merge as its
    frame, is the state the third flash step starts from, with the rest of the state at that cut as its frame. Nothing is
    computed: the pieces are regrouped; of the barrier cell nothing is kept. -/
theorem post32_at32 (c : Dev nD) (K : Names) (W : Waits sig Unit) (r : Σ' (_ : BitVec 32), BitVec 32) :
    Post32 m c K W (Rest27 m c) r ⊢ At32 m c K W (Rest32 m c) c := by
  unfold Post32 Rest27 At32 Foot32 Rest32 C32.kvCut32 C32.leftHalves C27.sentX C32.sentX C27.closedX closedX C27.blk3O C27.blk3L nbrSlices
  iintro ⟨Hinv, Hlev, HO, ⟨Hz1, Hz2, Hz3, Hz4⟩, ⟨Hs1, Hs2, Hs3, Hs4⟩, ⟨Hsp1, Hsp2, Hsp3, Hsp4⟩, ⟨%fO3, HbOf, HbOt, %hrO3⟩, ⟨%fL3, HbLf, HbLt, %hrL3⟩, ⟨Hbar, ⟨Fo2R, Fo2L, Fl2R, Fl2L⟩, ⟨Fg0R, Fg0L, Fg1R, Fg1L, Fg2R, Fg2L⟩, ⟨HnO2R, HnL2R, HnO2L, HnL2L, HnG0R, HnG1R, HnG2R, HnG0L, HnG1L, HnG2L, #HqO2R, #HqL2R, #HqO2L, #HqL2L, #HqG0R, #HqG1R, #HqG2R, #HqG0L, #HqG1L, #HqG2L⟩, Hg0, Hg1, Hg2, Hg3, H7, H8, H4, H6, H9, Hkv1, Hd0, Hd2, Hd3, HLH, HrO0t, HrL0t, HrO2f, HrL2f, HB1O, HB1L, Hag⟩⟩
  iclear Hbar
  isplitr; · ipureintro; rfl
  isplitl [Hinv Hlev HO Hs1 Hs2 Hs3 Hs4 Hkv1 Hd0 Hd2 Hd3 HLH Hg0 H4 H6 H7 H9 HB1O HB1L HrO2f HrL2f]
  · isplitl [Hinv]; · iexact Hinv
    isplitl [Hlev]; · iexact Hlev
    isplitl [HO]; · iexact HO
    isplitl [Hs1 Hs2 Hs3 Hs4]
    · isplitl [Hs1]; · iexact Hs1
      isplitl [Hs2]; · iexact Hs2
      isplitl [Hs3]; · iexact Hs3
      iexact Hs4
    isplitl [Hkv1 Hd0 Hd2 Hd3 HLH]
    · isplitl [Hkv1]; · iexact Hkv1
      isplitl [Hd0]; · iexact Hd0
      isplitl [Hd2]; · iexact Hd2
      isplitl [Hd3]; · iexact Hd3
      iexact HLH
    isplitl [Hg0]; · iexact Hg0
    isplitl [H4]; · iexact H4
    isplitl [H6]; · iexact H6
    isplitl [H7]; · iexact H7
    isplitl [H9]; · iexact H9
    isplitl [HB1O]; · iexact HB1O
    isplitl [HB1L]; · iexact HB1L
    isplitl [HrO2f]; · iexact HrO2f
    iexact HrL2f
  · isplitl [Fo2R HnO2R Fo2L HnO2L Fl2R HnL2R Fl2L HnL2L]
    · isplitl [Fo2R HnO2R]
      · iapply (oXfer_of (F := F) c false 2) $$ [Fo2R HnO2R]
        · isplitl [Fo2R]; · iexact Fo2R
          isplitl [HnO2R]; · iexact HnO2R
          iexact HqO2R
      isplitl [Fo2L HnO2L]
      · iapply (oXfer_of (F := F) c true 2) $$ [Fo2L HnO2L]
        · isplitl [Fo2L]; · iexact Fo2L
          isplitl [HnO2L]; · iexact HnO2L
          iexact HqO2L
      isplitl [Fl2R HnL2R]
      · iapply (lXfer_of (F := F) c false 2) $$ [Fl2R HnL2R]
        · isplitl [Fl2R]; · iexact Fl2R
          isplitl [HnL2R]; · iexact HnL2R
          iexact HqL2R
      iapply (lXfer_of (F := F) c true 2) $$ [Fl2L HnL2L]
      · isplitl [Fl2L]; · iexact Fl2L
        isplitl [HnL2L]; · iexact HnL2L
        iexact HqL2L
    isplitl [Fg0R HnG0R Fg0L HnG0L Fg1R HnG1R Fg1L HnG1L Fg2R HnG2R Fg2L HnG2L]
    · isplitl [Fg0R HnG0R]
      · iapply (gXfer_of (F := F) c false 0) $$ [Fg0R HnG0R]
        · isplitl [Fg0R]; · iexact Fg0R
          isplitl [HnG0R]; · iexact HnG0R
          iexact HqG0R
      isplitl [Fg0L HnG0L]
      · iapply (gXfer_of (F := F) c true 0) $$ [Fg0L HnG0L]
        · isplitl [Fg0L]; · iexact Fg0L
          isplitl [HnG0L]; · iexact HnG0L
          iexact HqG0L
      isplitl [Fg1R HnG1R]
      · iapply (gXfer_of (F := F) c false 1) $$ [Fg1R HnG1R]
        · isplitl [Fg1R]; · iexact Fg1R
          isplitl [HnG1R]; · iexact HnG1R
          iexact HqG1R
      isplitl [Fg1L HnG1L]
      · iapply (gXfer_of (F := F) c true 1) $$ [Fg1L HnG1L]
        · isplitl [Fg1L]; · iexact Fg1L
          isplitl [HnG1L]; · iexact HnG1L
          iexact HqG1L
      isplitl [Fg2R HnG2R]
      · iapply (gXfer_of (F := F) c false 2) $$ [Fg2R HnG2R]
        · isplitl [Fg2R]; · iexact Fg2R
          isplitl [HnG2R]; · iexact HnG2R
          iexact HqG2R
      iapply (gXfer_of (F := F) c true 2) $$ [Fg2L HnG2L]
      · isplitl [Fg2L]; · iexact Fg2L
        isplitl [HnG2L]; · iexact HnG2L
        iexact HqG2L
    isplitl [Hz1 Hz2 Hz3 Hz4]
    · isplitl [Hz1]; · iexact Hz1
      isplitl [Hz2]; · iexact Hz2
      isplitl [Hz3]; · iexact Hz3
      iexact Hz4
    isplitl [Hg1]; · iexact Hg1
    isplitl [Hg2]; · iexact Hg2
    isplitl [Hg3]; · iexact Hg3
    isplitl [H8]; · iexact H8
    isplitl [Hsp1 HrO0t Hsp3 HbOf HbOt]
    · isplitl [Hsp1]
      · rw [locHalfO_0f]; iapply (held_of_sendPayO m c false) $$ Hsp1
      isplitl [HrO0t]; · iapply (halfRowsO_heldAs m c 0 true c) $$ HrO0t
      isplitl [Hsp3]
      · rw [locHalfO_2t]; iapply (held_of_sendPayO m c true) $$ Hsp3
      isplitl [HbOf]; · (unfold held; iexists fO3; iexact HbOf)
      unfold held; iexists fO3; iexact HbOt
    isplitl [Hsp2 HrL0t Hsp4 HbLf HbLt]
    · isplitl [Hsp2]
      · rw [locHalfL_0f]; iapply (held_of_sendPayL m c false) $$ Hsp2
      isplitl [HrL0t]; · iapply (halfRowsL_heldAs m c 0 true c) $$ HrL0t
      isplitl [Hsp4]
      · rw [locHalfL_2t]; iapply (held_of_sendPayL m c true) $$ Hsp4
      isplitl [HbLf]; · (unfold held; iexists fL3; iexact HbLf)
      unfold held; iexists fL3; iexact HbLt
    iexact Hag

end Cert.KernelIdeal.Proto

end
-- ==== Proof.BodyD.lean ====
/-
  The steps between the cut before the flash step of the last batch and the cut before the last merge of hop 1.
  Device `c` waits for the four local copies of batch `c + 1`, narrows its key and value planes, projects its queries and
  stores their eight heads, runs the flash loop over the heads, which writes block 1 of the partial sums; it then waits
  for hop 1's right-going transfers on their send and receive cells, merges what arrived with its own partial sums of
  batch `c + 2`, heads 0–3, and waits for hop 1's left-going transfers. The proof steps the program at a symbolic device
  from the state at the first cut; the eight waits on the transfers' cells are applied one by one, each closing its cell.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.Unfold
import proofs.«900754_g7700000000000755_dist_attn_cross_gqa_kvseq_b4_sq256_skv1024_d1024_hq8_dh128_v7x_i4_f32_1_alg».proof.Proof.Split
import proofs.«900754_g7700000000000755_dist_attn_cross_gqa_kvseq_b4_sq256_skv1024_d1024_hq8_dh128_v7x_i4_f32_1_alg».proof.Proof.OpWait
import proofs.«900754_g7700000000000755_dist_attn_cross_gqa_kvseq_b4_sq256_skv1024_d1024_hq8_dh128_v7x_i4_f32_1_alg».proof.Proof.KLaunch
import proofs.«900754_g7700000000000755_dist_attn_cross_gqa_kvseq_b4_sq256_skv1024_d1024_hq8_dh128_v7x_i4_f32_1_alg».proof.Proof.LoopsV
import proofs.«900754_g7700000000000755_dist_attn_cross_gqa_kvseq_b4_sq256_skv1024_d1024_hq8_dh128_v7x_i4_f32_1_alg».proof.Proof.LoopsVFacts
import proofs.«900754_g7700000000000755_dist_attn_cross_gqa_kvseq_b4_sq256_skv1024_d1024_hq8_dh128_v7x_i4_f32_1_alg».proof.Proof.KvRel
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.KvSplit
import proofs.«900754_g7700000000000755_dist_attn_cross_gqa_kvseq_b4_sq256_skv1024_d1024_hq8_dh128_v7x_i4_f32_1_alg».proof.Proof.HbmSplit
import proofs.«900754_g7700000000000755_dist_attn_cross_gqa_kvseq_b4_sq256_skv1024_d1024_hq8_dh128_v7x_i4_f32_1_alg».proof.Proof.Within
import proofs.«900754_g7700000000000755_dist_attn_cross_gqa_kvseq_b4_sq256_skv1024_d1024_hq8_dh128_v7x_i4_f32_1_alg».proof.Proof.Ring
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.Segs
import proofs.«900754_g7700000000000755_dist_attn_cross_gqa_kvseq_b4_sq256_skv1024_d1024_hq8_dh128_v7x_i4_f32_1_alg».proof.Proof.TailSpec
import proofs.«900754_g7700000000000755_dist_attn_cross_gqa_kvseq_b4_sq256_skv1024_d1024_hq8_dh128_v7x_i4_f32_1_alg».proof.Proof.Cut40
import proofs.«900754_g7700000000000755_dist_attn_cross_gqa_kvseq_b4_sq256_skv1024_d1024_hq8_dh128_v7x_i4_f32_1_alg».proof.Proof.Cut32
import proofs.«900754_g7700000000000755_dist_attn_cross_gqa_kvseq_b4_sq256_skv1024_d1024_hq8_dh128_v7x_i4_f32_1_alg».proof.Proof.Gen.KernelIdeal.Skeleton
import proofs.«900754_g7700000000000755_dist_attn_cross_gqa_kvseq_b4_sq256_skv1024_d1024_hq8_dh128_v7x_i4_f32_1_alg».proof.Proof.Gen.KernelIdeal.Loops
import proofs.«900754_g7700000000000755_dist_attn_cross_gqa_kvseq_b4_sq256_skv1024_d1024_hq8_dh128_v7x_i4_f32_1_alg».proof.Proof.Gen.KernelIdeal.Points
import Idealize.ShloMosaic.Lib.Tactic
import Idealize.ShloMosaic.Lib.Pipeline.Value

set_option maxRecDepth 16384

noncomputable section

namespace Cert.KernelIdeal.Proto

open Cert.KernelIdeal Cert.KernelIdeal.Gen Cert.KernelIdeal.Ring
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open C32

variable {F : FTy → Type} [FloatOps F]
local notation "𝕄" => MT nD τ sig Unit (Elt F) ℕ UU ℕ

omit [FloatOps F] in
instance invs_persistent (V : Vals F) (K : Names) (c : Dev nD) : BI.Persistent (invs V K c : sProp 𝕄) := by
  unfold invs; infer_instance

/-- The invariants of the eight cells of hop 1's transfers, out of the device's invariants. -/
theorem invs_hop1 (V : Vals F) (K : Names) (c : Dev nD) :
    (invs V K c : sProp 𝕄) ⊢ iprop(cellInv ER (ringRd V) (K (c, some (.o, false, 1, true))) (sendCell c .o false 1)
      ∗ cellInv ER (ringRd V) (K (c, some (.o, false, 1, false))) (recvCell c .o false 1)
      ∗ cellInv ER (ringRd V) (K (c, some (.o, true, 1, true))) (sendCell c .o true 1)
      ∗ cellInv ER (ringRd V) (K (c, some (.o, true, 1, false))) (recvCell c .o true 1)
      ∗ cellInv ER (ringRd V) (K (c, some (.l, false, 1, true))) (sendCell c .l false 1)
      ∗ cellInv ER (ringRd V) (K (c, some (.l, false, 1, false))) (recvCell c .l false 1)
      ∗ cellInv ER (ringRd V) (K (c, some (.l, true, 1, true))) (sendCell c .l true 1)
      ∗ cellInv ER (ringRd V) (K (c, some (.l, true, 1, false))) (recvCell c .l true 1)) := by
  unfold invs
  simp only [bigSep_xfer]
  iintro ⟨-, ⟨-, -, -, -, ⟨#A1, #A2, -⟩, ⟨#B1, #B2, -⟩, ⟨#C1, #C2, -⟩, ⟨#D1, #D2, -⟩, -⟩, -⟩
  isplitl []; · iexact A1
  isplitl []; · iexact A2
  isplitl []; · iexact B1
  isplitl []; · iexact B2
  isplitl []; · iexact C1
  isplitl []; · iexact C2
  isplitl []; · iexact D1
  iexact D2

/-! ## The contents the steps leave, as terms of what they read -/

section Mirror
variable (m : (ℓ : Loc nD τ sig) → Buf (Elt F) ℓ) (c : Dev nD)

/-- The projected and scaled queries of batch `c + 1`, all heads, and head 0's narrowed rows. -/
def xqD :=
  k0_pay84 (F := F) (View.readAt (Elt F) (Memref.whole cc0_stg0_0).view (Rect.unit (s := S4x256x1024) (k0_off24 c 1#32) S1x256x1024.size (k0_off24_inb c 0)).toLoadRect ((dats (KFun.V m) m KFun.Kout 0 c).after 0 t0_0))
    (View.readAt (Elt F) (Memref.whole cc0_scratch7).view (Rect.unit (s := S1024x1024) ![0, 0] S1024x1024.size inb_S1024x1024_S1024x1024_0_0).toLoadRect (KFun.wqb m c))
def xq0D :=
  k0_pay85 (F := F) (View.readAt (Elt F) (Memref.whole cc0_stg0_0).view (Rect.unit (s := S4x256x1024) (k0_off24 c 1#32) S1x256x1024.size (k0_off24_inb c 0)).toLoadRect ((dats (KFun.V m) m KFun.Kout 0 c).after 0 t0_0))
    (View.readAt (Elt F) (Memref.whole cc0_scratch7).view (Rect.unit (s := S1024x1024) ![0, 0] S1024x1024.size inb_S1024x1024_S1024x1024_0_0).toLoadRect (KFun.wqb m c))

/-- The buffer of the projected queries after the eight head stores of batch `c + 1`. -/
def q2D (f4 : Buf (Elt F) ((c : Thread nD τ).loc cc0_scratch4)) :=
  (Memref.whole cc0_scratch4).view.writes (Elt F) f4
    [⟨Rect.unit (s := S32x256x128) (k0_off25 c 1#32 7#32) S1x256x128.size (k0_off25_inb c 0 7), k0_pay93 (xqD m c)⟩,
     ⟨Rect.unit (s := S32x256x128) (k0_off25 c 1#32 6#32) S1x256x128.size (k0_off25_inb c 0 6), k0_pay92 (xqD m c)⟩,
     ⟨Rect.unit (s := S32x256x128) (k0_off25 c 1#32 5#32) S1x256x128.size (k0_off25_inb c 0 5), k0_pay91 (k0_pay90 (xqD m c))⟩,
     ⟨Rect.unit (s := S32x256x128) (k0_off25 c 1#32 4#32) S1x256x128.size (k0_off25_inb c 0 4), k0_pay89 (xqD m c)⟩,
     ⟨Rect.unit (s := S32x256x128) (k0_off25 c 1#32 3#32) S1x256x128.size (k0_off25_inb c 0 3), k0_pay88 (xqD m c)⟩,
     ⟨Rect.unit (s := S32x256x128) (k0_off25 c 1#32 2#32) S1x256x128.size (k0_off25_inb c 0 2), k0_pay87 (xqD m c)⟩,
     ⟨Rect.unit (s := S32x256x128) (k0_off25 c 1#32 1#32) S1x256x128.size (k0_off25_inb c 0 1), k0_pay86 (xqD m c)⟩,
     ⟨Rect.unit (s := S32x256x128) (k0_off25 c 1#32 0#32) S1x256x128.size (k0_off25_inb c 0 0), xq0D m c⟩]

/-- A plane of the key and value buffer as a load through the whole buffer reads it after the copy that filled it. -/
def kvReadD (ro : Fin 4 → ℕ) (rinb : ∀ x, ro x + S1x1x1024x128.size x ≤ S2x8x1024x128.size x)
    (po : Fin 4 → ℕ) (pinb : ∀ x, po x + S1x1x1024x128.size x ≤ S2x8x1024x128.size x) (v : CpVal F) :=
  View.readAt (Elt F) (Memref.whole cc0_scratch5).view (Rect.unit (s := S2x8x1024x128) ro S1x1x1024x128.size rinb).toLoadRect
    ((kvPl po pinb).view.writes (Elt F) (kvPl po pinb).view.junk [⟨Rect.whole S1024x128, v⟩])

/-- The buffer of the narrowed planes after the four casts of batch `c + 1`. -/
def kvbD (f9 : Buf (Elt F) ((c : Thread nD τ).loc cc0_scratch9)) (vals : Fin 16 → CpVal F) :=
  (Memref.whole cc0_scratch9).view.writes (Elt F) f9
    [⟨Rect.unit (s := S2x8x1024x128) (k0_off23 c 1#32 1#32) S1x1x1024x128.size (k0_off23_inb c 0 1), k0_pay83 (kvReadD (k0_off23 c 1#32 1#32) (k0_off23_inb c 0 1) (k0_off20 c 1#32 1#32) (k0_off20_inb c 0 1) (vals (vIdx c 1 3)))⟩,
     ⟨Rect.unit (s := S2x8x1024x128) (k0_off22 c 1#32 1#32) S1x1x1024x128.size (k0_off22_inb c 0 1), k0_pay82 (k0_pay81 (kvReadD (k0_off22 c 1#32 1#32) (k0_off22_inb c 0 1) (k0_off18 c 1#32 1#32) (k0_off18_inb c 0 1) (vals (vIdx c 1 2))))⟩,
     ⟨Rect.unit (s := S2x8x1024x128) (k0_off23 c 1#32 0#32) S1x1x1024x128.size (k0_off23_inb c 0 0), k0_pay80 (kvReadD (k0_off23 c 1#32 0#32) (k0_off23_inb c 0 0) (k0_off20 c 1#32 0#32) (k0_off20_inb c 0 0) (vals (vIdx c 1 1)))⟩,
     ⟨Rect.unit (s := S2x8x1024x128) (k0_off22 c 1#32 0#32) S1x1x1024x128.size (k0_off22_inb c 0 0), k0_pay79 (kvReadD (k0_off22 c 1#32 0#32) (k0_off22_inb c 0 0) (k0_off18 c 1#32 0#32) (k0_off18_inb c 0 0) (vals (vIdx c 1 0)))⟩]

/-- What the flash step of batch `c + 1` leaves in the partial sums' buffers. -/
def flashD (v787 : BitVec 32) (f4 : Buf (Elt F) ((c : Thread nD τ).loc cc0_scratch4)) (f9 : Buf (Elt F) ((c : Thread nD τ).loc cc0_scratch9))
    (f6 : Buf (Elt F) ((c : Thread nD τ).loc cc0_scratch6)) (fo1 : Buf (Elt F) ((c : Thread nD τ).loc cc0_scratch0)) (fl1 : Buf (Elt F) ((c : Thread nD τ).loc cc0_scratch1))
    (vals : Fin 16 → CpVal F) :=
  LoopsV.pbS_k0_t6 (F := F) 𝒱₀ c none (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.isWhole_whole _) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v787 (xqD m c) (k0_pay90 (xqD m c)) (LoopsV.t6_arg6_within c) (LoopsV.t6_arg7_within c)
    (q2D m c f4) (kvbD c f9 vals) fo1 fl1 f6 (Scf.trips k0_t6_loop.lb k0_t6_loop.ub k0_t6_loop.st)

/-- What the merge of hop 1's right-going half leaves in its landing slices. -/
def mergeD (v14 v970 : BitVec 32) (fo2 : Buf (Elt F) ((c : Thread nD τ).loc cc0_scratch0)) (fl2 : Buf (Elt F) ((c : Thread nD τ).loc cc0_scratch1))
    (fro : Buf (Elt F) ((c : Thread nD τ).loc cc0_scratch2)) (frl : Buf (Elt F) ((c : Thread nD τ).loc cc0_scratch3)) :=
  LoopsV.pbS_k0_t7 (F := F) 𝒱₀ c none (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v970 (LoopsV.t7_arg6_within c) (LoopsV.t7_arg7_within c) LoopsV.t7_arg8_within LoopsV.t7_arg9_within
    fo2 fl2 fro frl (Scf.trips k0_t7_loop.lb k0_t7_loop.ub k0_t7_loop.st)

/-- The value equations the steps' results satisfy: the flash step's rows are the device's partial sums of batch `c + 1`,
    and the merged landing slices are what the schedule sends at hop 2. -/
structure ValsD : Prop where
  flashO : ∀ (v787 : BitVec 32) (f4 : Buf (Elt F) ((c : Thread nD τ).loc cc0_scratch4)) (f9 : Buf (Elt F) ((c : Thread nD τ).loc cc0_scratch9))
      (f6 : Buf (Elt F) ((c : Thread nD τ).loc cc0_scratch6)) (fo1 : Buf (Elt F) ((c : Thread nD τ).loc cc0_scratch0)) (fl1 : Buf (Elt F) ((c : Thread nD τ).loc cc0_scratch1))
      (vals : Fin 16 → CpVal F),
      (∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))) →
      ∀ hb : Bool, (locHalfO c 1 hb).view.read (Elt F) (locO.view.writes (Elt F) fo1 (flashD m c v787 f4 f9 f6 fo1 fl1 vals).1) = halfOt m c (nxt c) hb
  flashL : ∀ (v787 : BitVec 32) (f4 : Buf (Elt F) ((c : Thread nD τ).loc cc0_scratch4)) (f9 : Buf (Elt F) ((c : Thread nD τ).loc cc0_scratch9))
      (f6 : Buf (Elt F) ((c : Thread nD τ).loc cc0_scratch6)) (fo1 : Buf (Elt F) ((c : Thread nD τ).loc cc0_scratch0)) (fl1 : Buf (Elt F) ((c : Thread nD τ).loc cc0_scratch1))
      (vals : Fin 16 → CpVal F),
      (∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))) →
      ∀ hb : Bool, (locHalfL c 1 hb).view.read (Elt F) (locL.view.writes (Elt F) fl1 (flashD m c v787 f4 f9 f6 fo1 fl1 vals).2.1) = halfLr m c (nxt c) hb
  mergeO : ∀ (v14 v970 : BitVec 32) (fo2 : Buf (Elt F) ((c : Thread nD τ).loc cc0_scratch0)) (fl2 : Buf (Elt F) ((c : Thread nD τ).loc cc0_scratch1))
      (fro : Buf (Elt F) ((c : Thread nD τ).loc cc0_scratch2)) (frl : Buf (Elt F) ((c : Thread nD τ).loc cc0_scratch3)),
      (dstO 1 false).view.read (Elt F) fro = (KFun.V m).o (fromDev c false) 1 false →
      (∀ (k : Fin 4) (d : Fin 128) (i : Fin 256),
        fo2 (ix3 (⟨halfRow c 2 false + k.val, by have := halfRow_le c 2 false; omega⟩ : Fin 32) d i) = KFun.ot m c (nxt (nxt c)) (KFun.headAt false k) (ix3 0 d i)) →
      (dstO 1 false).view.read (Elt F) (rsO.view.writes (Elt F) fro (mergeD c v14 v970 fo2 fl2 fro frl).1) = (KFun.V m).o c 2 false
  mergeL : ∀ (v14 v970 : BitVec 32) (fo2 : Buf (Elt F) ((c : Thread nD τ).loc cc0_scratch0)) (fl2 : Buf (Elt F) ((c : Thread nD τ).loc cc0_scratch1))
      (fro : Buf (Elt F) ((c : Thread nD τ).loc cc0_scratch2)) (frl : Buf (Elt F) ((c : Thread nD τ).loc cc0_scratch3)),
      (dstL 1 false).view.read (Elt F) frl = (KFun.V m).l (fromDev c false) 1 false →
      (∀ (k : Fin 4) (i : Fin 256),
        fl2 (ix3 (⟨halfRow c 2 false + k.val, by have := halfRow_le c 2 false; omega⟩ : Fin 32) (0 : Fin 1) i) = KFun.lrow m c (nxt (nxt c)) (KFun.headAt false k) (ix3 0 0 i)) →
      (dstL 1 false).view.read (Elt F) (rsL.view.writes (Elt F) frl (mergeD c v14 v970 fo2 fl2 fro frl).2) = (KFun.V m).l c 2 false

end Mirror

/-- What the steps from the cut before the last flash step leave of what they use, at the names `K` and with the waits `W`
    recorded: hop 1's four transfers closed, the local copies all waited for, the work buffers at some contents, block 1
    of the partial sums at the device's own partial sums of batch `c + 1`, hop 0's landing slices back, hop 1's
    right-going half merged and its left-going half as the right neighbour sent it. -/
def FootD40 (m : (ℓ : Loc nD τ sig) → Buf (Elt F) ℓ) (c : Dev nD) (K : Names) (W : Waits sig Unit) : sProp 𝕄 :=
  iprop(invs (KFun.V m) K c ∗ levAts L lv
    ∗ owes (c : Thread nD τ) (owedOf c (prog.drop 10)) W
    ∗ (closedX c .o false 1 ∗ closedX c .o true 1 ∗ closedX c .l false 1 ∗ closedX c .l true 1)
    ∗ kvDone m c
    ∗ wholeAt c cc0_stg0_0 ((dats (KFun.V m) m KFun.Kout 0 c).after 0 t0_0)
    ∗ wholeEx c cc0_scratch4 ∗ wholeEx c cc0_scratch6 ∗ wholeEx c cc0_scratch7 ∗ wholeEx c cc0_scratch9
    ∗ (heldAs c (locHalfO c 1 false) (halfOt m c (nxt c) false) ∗ heldAs c (locHalfO c 1 true) (halfOt m c (nxt c) true) ∗ held c (locHalfO c 2 false))
    ∗ (heldAs c (locHalfL c 1 false) (halfLr m c (nxt c) false) ∗ heldAs c (locHalfL c 1 true) (halfLr m c (nxt c) true) ∗ held c (locHalfL c 2 false))
    ∗ (held c (dstO 0 false) ∗ held c (dstO 0 true) ∗ heldAs c (dstO 1 false) ((KFun.V m).o c 2 false) ∗ heldAs c (dstO 1 true) ((KFun.V m).o (nxt c) 1 true))
    ∗ (held c (dstL 0 false) ∗ held c (dstL 0 true) ∗ heldAs c (dstL 1 false) ((KFun.V m).l c 2 false) ∗ heldAs c (dstL 1 true) ((KFun.V m).l (nxt c) 1 true)))

/-- The two parts of the state after the steps, and the joined plane buffers, are the state at the next cut. -/
theorem foot40_at40 (m : (ℓ : Loc nD τ sig) → Buf (Elt F) ℓ) (c : Dev nD) (K : Names) (W : Waits sig Unit)
    (hjoin : (kvDone m c : sProp 𝕄) ⊢ iprop(wholeEx c cc0_scratch5 ∗ copySems0 c ∗ hbm m c)) :
    iprop(FootD40 m c K W ∗ Rest32 m c) ⊢ At40 m c K W := by
  unfold FootD40 Rest32 At40
  iintro ⟨⟨HI, HL, HO, ⟨Hc_o1R, Hc_o1L, Hc_l1R, Hc_l1L⟩, Hkv, Hx, H4, H6, H7, H9, ⟨HO1f, HO1t, HO2f⟩, ⟨HL1f, HL1t, HL2f⟩, ⟨HdO0f, HdO0t, HdO1f, HdO1t⟩, ⟨HdL0f, HdL0t, HdL1f, HdL1t⟩⟩, ⟨Hhop2, Hg, ⟨Hc_o0R, Hc_l0R, Hc_o0L, Hc_l0L⟩, Hstg1, Hstg2, Hstg3, H8, ⟨HO0f, HO0t, HO2t, HO3f, HO3t⟩, ⟨HL0f, HL0t, HL2t, HL3f, HL3t⟩, Hag⟩⟩
  ihave Hj := hjoin $$ Hkv
  icases Hj with ⟨H5, Hcs, Hhbm⟩
  isplitl [HI]; · iexact HI
  isplitl [HL]; · iexact HL
  isplitl [HO]; · iexact HO
  isplitl [Hhop2]; · iexact Hhop2
  isplitl [Hg]; · iexact Hg
  isplitl [Hc_o0R Hc_l0R Hc_o0L Hc_l0L Hc_o1R Hc_o1L Hc_l1R Hc_l1L]
  · isplitl [Hc_o0R]; · iexact Hc_o0R
    isplitl [Hc_l0R]; · iexact Hc_l0R
    isplitl [Hc_o0L]; · iexact Hc_o0L
    isplitl [Hc_l0L]; · iexact Hc_l0L
    isplitl [Hc_o1R]; · iexact Hc_o1R
    isplitl [Hc_o1L]; · iexact Hc_o1L
    isplitl [Hc_l1R]; · iexact Hc_l1R
    iexact Hc_l1L
  isplitl [Hcs]; · iexact Hcs
  isplitl [Hhbm]; · iexact Hhbm
  isplitl [Hx]; · iexact Hx
  isplitl [Hstg1]; · iexact Hstg1
  isplitl [Hstg2]; · iexact Hstg2
  isplitl [Hstg3]; · iexact Hstg3
  isplitl [H4]; · iexact H4
  isplitl [H5]; · iexact H5
  isplitl [H6]; · iexact H6
  isplitl [H7]; · iexact H7
  isplitl [H8]; · iexact H8
  isplitl [H9]; · iexact H9
  isplitl [HO0f HO0t HO1f HO1t HO2f HO2t HO3f HO3t]
  · isplitl [HO0f]; · iexact HO0f
    isplitl [HO0t]; · iexact HO0t
    isplitl [HO1f]; · iexact HO1f
    isplitl [HO1t]; · iexact HO1t
    isplitl [HO2f]; · iexact HO2f
    isplitl [HO2t]; · iexact HO2t
    isplitl [HO3f]; · iexact HO3f
    iexact HO3t
  isplitl [HL0f HL0t HL1f HL1t HL2f HL2t HL3f HL3t]
  · isplitl [HL0f]; · iexact HL0f
    isplitl [HL0t]; · iexact HL0t
    isplitl [HL1f]; · iexact HL1f
    isplitl [HL1t]; · iexact HL1t
    isplitl [HL2f]; · iexact HL2f
    isplitl [HL2t]; · iexact HL2t
    isplitl [HL3f]; · iexact HL3f
    iexact HL3t
  isplitl [HdO0f]; · iexact HdO0f
  isplitl [HdO0t]; · iexact HdO0t
  isplitl [HdO1f]; · iexact HdO1f
  isplitl [HdO1t]; · iexact HdO1t
  isplitl [HdL0f]; · iexact HdL0f
  isplitl [HdL0t]; · iexact HdL0t
  isplitl [HdL1f]; · iexact HdL1f
  isplitl [HdL1t]; · iexact HdL1t
  iexact Hag

set_option maxHeartbeats 40000000 in
/-- The steps, from the first cut's state with any frame `R`, leave `FootD40` and the frame. -/
theorem segD_run (m : (ℓ : Loc nD τ sig) → Buf (Elt F) ℓ) (c : Dev nD) (K : Names) (W : Waits sig Unit) (R : sProp 𝕄)
    (d0 : Dev nD) (v2 v14 v25 v787 v790 : BitVec 32) (hv : ValsD m c) :
    At32 m c K W R d0
      ⊢ wp frame (wpE (defs₀ (F := F)) 𝒱₀ (c : Thread nD τ) none) Set.univ
          (segDProg (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) d0 v2 v14 v25 v787 v790)
          (fun _ => iprop(∃ W', FootD40 m c K W' ∗ R)) := by
  unfold At32 Foot32 C32.sentX C32.kvCut32 later1 held halfRowsO halfRowsL
  iintro ⟨%hd0, ⟨#HI, #HL, HO, ⟨⟨Has_o1R, Har_o1R, Hcs_o1R, Hcr_o1R⟩, ⟨Has_o1L, Har_o1L, Hcs_o1L, Hcr_o1L⟩, ⟨Has_l1R, Har_l1R, Hcs_l1R, Hcr_l1R⟩, ⟨Has_l1L, Har_l1L, Hcs_l1L, Hcr_l1L⟩⟩, ⟨⟨%f5, %vals, %hvals, Hbat⟩, Hd0, Hd2, Hd3, Hlh⟩, Hx, ⟨%f4, Hs4⟩, ⟨%f6, Hs6⟩, Hs7, ⟨%f9, Hs9⟩, ⟨%fo1, HbO1⟩, ⟨%fl1, HbL1⟩, ⟨%fo2, HhO2, %hfo2⟩, ⟨%fl2, HhL2, %hfl2⟩⟩, HR⟩
  subst d0
  ihave Hc := (invs_hop1 (KFun.V m) K c) $$ HI
  icases Hc with ⟨#HIs_o1R, #HIr_o1R, #HIs_o1L, #HIr_o1L, #HIs_l1R, #HIr_l1R, #HIs_l1L, #HIr_l1L⟩
  unfold batD cpBatch cpDeliv kvPl
  have hmw : (levAts L lv : sProp 𝕄) ⊢ MayWait (c : Thread nD τ) (.dma (csemD c 1)) () (owedOf c (prog.drop 10)) :=
    mayWait_low c (csemD c 1) (cellRole_ge _ (by rw [csemD_val]; omega)) _
  have h6 := LoopsV.t6_arg6_within c
  have h7 := LoopsV.t6_arg7_within c
  have h76 := LoopsV.t7_arg6_within c
  have h77 := LoopsV.t7_arg7_within c
  have h78 := LoopsV.t7_arg8_within
  have h79 := LoopsV.t7_arg9_within
  unfold segDProg
  sl_exec
  iapply (wp_wait_send (KFun.V m) c .o false 1 (owedOf c (prog.drop 10)) _ (K (c, some (.o, false, 1, true))) (hamt := by rfl) (hs := by rfl)) $$ [HO Hcs_o1R Has_o1R]
  · isplitr; · iexact HIs_o1R
    isplitl [Hcs_o1R]; · iexact Hcs_o1R
    isplitl [HO]; · iexact HO
    isplitr; · iapply (mayWait_below c (.dma (sendSem .o false 1)) (prog.drop 10) (by rw [show lv ((c : Thread nD τ), .dma (sendSem .o false 1)) () = place .o false 1 from lv_send c .o false 1]; decide)) $$ HL
    iexact Has_o1R
  iintro ⟨HO, Hps_o1R, Hzs_o1R⟩
  sl_exec
  iapply (wp_wait_recv (KFun.V m) c .o false 1 (owedOf c (prog.drop 10)) _ (K (c, some (.o, false, 1, false))) (hamt := by rfl) (hs := by rfl)) $$ [HO Hcr_o1R Har_o1R]
  · isplitr; · iexact HIr_o1R
    isplitl [Hcr_o1R]; · iexact Hcr_o1R
    isplitl [HO]; · iexact HO
    isplitr; · iapply (mayWait_below c (.dma (recvSem .o false 1)) (prog.drop 10) (by rw [show lv ((c : Thread nD τ), .dma (recvSem .o false 1)) () = place .o false 1 from lv_recv c .o false 1]; decide)) $$ HL
    iexact Har_o1R
  iintro ⟨HO, Hpr_o1R, Hzr_o1R⟩
  sl_exec
  iapply (wp_wait_send (KFun.V m) c .l false 1 (owedOf c (prog.drop 10)) _ (K (c, some (.l, false, 1, true))) (hamt := by rfl) (hs := by rfl)) $$ [HO Hcs_l1R Has_l1R]
  · isplitr; · iexact HIs_l1R
    isplitl [Hcs_l1R]; · iexact Hcs_l1R
    isplitl [HO]; · iexact HO
    isplitr; · iapply (mayWait_below c (.dma (sendSem .l false 1)) (prog.drop 10) (by rw [show lv ((c : Thread nD τ), .dma (sendSem .l false 1)) () = place .l false 1 from lv_send c .l false 1]; decide)) $$ HL
    iexact Has_l1R
  iintro ⟨HO, Hps_l1R, Hzs_l1R⟩
  sl_exec
  iapply (wp_wait_recv (KFun.V m) c .l false 1 (owedOf c (prog.drop 10)) _ (K (c, some (.l, false, 1, false))) (hamt := by rfl) (hs := by rfl)) $$ [HO Hcr_l1R Har_l1R]
  · isplitr; · iexact HIr_l1R
    isplitl [Hcr_l1R]; · iexact Hcr_l1R
    isplitl [HO]; · iexact HO
    isplitr; · iapply (mayWait_below c (.dma (recvSem .l false 1)) (prog.drop 10) (by rw [show lv ((c : Thread nD τ), .dma (recvSem .l false 1)) () = place .l false 1 from lv_recv c .l false 1]; decide)) $$ HL
    iexact Har_l1R
  iintro ⟨HO, Hpr_l1R, Hzr_l1R⟩
  ihave Hq_o1R := (Entails.of_eq (show recvPay (KFun.V m) c .o false 1 = iprop(∃ f : Buf (Elt F) ((dstO 1 false).view.loc (c : Thread nD τ)), ((dstO 1 false).view.loc (c : Thread nD τ) ↦[(dstO 1 false).view.set]{fullShare} f) ∗ ⌜(dstO 1 false).view.read (Elt F) f = (KFun.V m).o (fromDev c false) 1 false⌝) from rfl)) $$ Hpr_o1R
  icases Hq_o1R with ⟨%fr_o1R, Hd_o1R, %hfr_o1R⟩
  ihave Hq_l1R := (Entails.of_eq (show recvPay (KFun.V m) c .l false 1 = iprop(∃ f : Buf (Elt F) ((dstL 1 false).view.loc (c : Thread nD τ)), ((dstL 1 false).view.loc (c : Thread nD τ) ↦[(dstL 1 false).view.set]{fullShare} f) ∗ ⌜(dstL 1 false).view.read (Elt F) f = (KFun.V m).l (fromDev c false) 1 false⌝) from rfl)) $$ Hpr_l1R
  icases Hq_l1R with ⟨%fr_l1R, Hd_l1R, %hfr_l1R⟩
  sl_exec
  iapply (wp_wait_send (KFun.V m) c .o true 1 (owedOf c (prog.drop 10)) _ (K (c, some (.o, true, 1, true))) (hamt := by rfl) (hs := by rfl)) $$ [HO Hcs_o1L Has_o1L]
  · isplitr; · iexact HIs_o1L
    isplitl [Hcs_o1L]; · iexact Hcs_o1L
    isplitl [HO]; · iexact HO
    isplitr; · iapply (mayWait_below c (.dma (sendSem .o true 1)) (prog.drop 10) (by rw [show lv ((c : Thread nD τ), .dma (sendSem .o true 1)) () = place .o true 1 from lv_send c .o true 1]; decide)) $$ HL
    iexact Has_o1L
  iintro ⟨HO, Hps_o1L, Hzs_o1L⟩
  sl_exec
  iapply (wp_wait_recv (KFun.V m) c .o true 1 (owedOf c (prog.drop 10)) _ (K (c, some (.o, true, 1, false))) (hamt := by rfl) (hs := by rfl)) $$ [HO Hcr_o1L Har_o1L]
  · isplitr; · iexact HIr_o1L
    isplitl [Hcr_o1L]; · iexact Hcr_o1L
    isplitl [HO]; · iexact HO
    isplitr; · iapply (mayWait_below c (.dma (recvSem .o true 1)) (prog.drop 10) (by rw [show lv ((c : Thread nD τ), .dma (recvSem .o true 1)) () = place .o true 1 from lv_recv c .o true 1]; decide)) $$ HL
    iexact Har_o1L
  iintro ⟨HO, Hpr_o1L, Hzr_o1L⟩
  sl_exec
  iapply (wp_wait_send (KFun.V m) c .l true 1 (owedOf c (prog.drop 10)) _ (K (c, some (.l, true, 1, true))) (hamt := by rfl) (hs := by rfl)) $$ [HO Hcs_l1L Has_l1L]
  · isplitr; · iexact HIs_l1L
    isplitl [Hcs_l1L]; · iexact Hcs_l1L
    isplitl [HO]; · iexact HO
    isplitr; · iapply (mayWait_below c (.dma (sendSem .l true 1)) (prog.drop 10) (by rw [show lv ((c : Thread nD τ), .dma (sendSem .l true 1)) () = place .l true 1 from lv_send c .l true 1]; decide)) $$ HL
    iexact Has_l1L
  iintro ⟨HO, Hps_l1L, Hzs_l1L⟩
  sl_exec
  iapply (wp_wait_recv (KFun.V m) c .l true 1 (owedOf c (prog.drop 10)) _ (K (c, some (.l, true, 1, false))) (hamt := by rfl) (hs := by rfl)) $$ [HO Hcr_l1L Har_l1L]
  · isplitr; · iexact HIr_l1L
    isplitl [Hcr_l1L]; · iexact Hcr_l1L
    isplitl [HO]; · iexact HO
    isplitr; · iapply (mayWait_below c (.dma (recvSem .l true 1)) (prog.drop 10) (by rw [show lv ((c : Thread nD τ), .dma (recvSem .l true 1)) () = place .l true 1 from lv_recv c .l true 1]; decide)) $$ HL
    iexact Har_l1L
  iintro ⟨HO, Hpr_l1L, Hzr_l1L⟩
  sl_exec
  rw [wp_ret]; imodintro
  ihave Hqs_o1R := (Entails.of_eq (show sendPay (KFun.V m) c .o false 1 = iprop(∃ f : Buf (Elt F) ((dstO 0 false).view.loc (c : Thread nD τ)), ((dstO 0 false).view.loc (c : Thread nD τ) ↦[(dstO 0 false).view.set]{fullShare} f) ∗ ⌜(dstO 0 false).view.read (Elt F) f = (KFun.V m).o c 1 false⌝) from rfl)) $$ Hps_o1R
  icases Hqs_o1R with ⟨%fs_o1R, Hds_o1R, %hfs_o1R⟩
  ihave Hqs_o1L := (Entails.of_eq (show sendPay (KFun.V m) c .o true 1 = iprop(∃ f : Buf (Elt F) ((dstO 0 true).view.loc (c : Thread nD τ)), ((dstO 0 true).view.loc (c : Thread nD τ) ↦[(dstO 0 true).view.set]{fullShare} f) ∗ ⌜(dstO 0 true).view.read (Elt F) f = (KFun.V m).o c 1 true⌝) from rfl)) $$ Hps_o1L
  icases Hqs_o1L with ⟨%fs_o1L, Hds_o1L, %hfs_o1L⟩
  ihave Hqs_l1R := (Entails.of_eq (show sendPay (KFun.V m) c .l false 1 = iprop(∃ f : Buf (Elt F) ((dstL 0 false).view.loc (c : Thread nD τ)), ((dstL 0 false).view.loc (c : Thread nD τ) ↦[(dstL 0 false).view.set]{fullShare} f) ∗ ⌜(dstL 0 false).view.read (Elt F) f = (KFun.V m).l c 1 false⌝) from rfl)) $$ Hps_l1R
  icases Hqs_l1R with ⟨%fs_l1R, Hds_l1R, %hfs_l1R⟩
  ihave Hqs_l1L := (Entails.of_eq (show sendPay (KFun.V m) c .l true 1 = iprop(∃ f : Buf (Elt F) ((dstL 0 true).view.loc (c : Thread nD τ)), ((dstL 0 true).view.loc (c : Thread nD τ) ↦[(dstL 0 true).view.set]{fullShare} f) ∗ ⌜(dstL 0 true).view.read (Elt F) f = (KFun.V m).l c 1 true⌝) from rfl)) $$ Hps_l1L
  icases Hqs_l1L with ⟨%fs_l1L, Hds_l1L, %hfs_l1L⟩
  ihave Hq_o1L := (Entails.of_eq (show recvPay (KFun.V m) c .o true 1 = iprop(∃ f : Buf (Elt F) ((dstO 1 true).view.loc (c : Thread nD τ)), ((dstO 1 true).view.loc (c : Thread nD τ) ↦[(dstO 1 true).view.set]{fullShare} f) ∗ ⌜(dstO 1 true).view.read (Elt F) f = (KFun.V m).o (fromDev c true) 1 true⌝) from rfl)) $$ Hpr_o1L
  icases Hq_o1L with ⟨%fr_o1L, Hd_o1L, %hfr_o1L⟩
  ihave Hq_l1L := (Entails.of_eq (show recvPay (KFun.V m) c .l true 1 = iprop(∃ f : Buf (Elt F) ((dstL 1 true).view.loc (c : Thread nD τ)), ((dstL 1 true).view.loc (c : Thread nD τ) ↦[(dstL 1 true).view.set]{fullShare} f) ∗ ⌜(dstL 1 true).view.read (Elt F) f = (KFun.V m).l (fromDev c true) 1 true⌝) from rfl)) $$ Hpr_l1L
  icases Hq_l1L with ⟨%fr_l1L, Hd_l1L, %hfr_l1L⟩
  ihave Hs4 := (Entails.of_eq (whole_pts (F := F) c cc0_scratch4 _).symm) $$ Hs4
  ihave Hs6 := (Entails.of_eq (whole_pts (F := F) c cc0_scratch6 _).symm) $$ Hs6
  ihave Hs7 := (Entails.of_eq (whole_pts (F := F) c cc0_scratch7 _).symm) $$ Hs7
  ihave Hs9 := (Entails.of_eq (whole_pts (F := F) c cc0_scratch9 _).symm) $$ Hs9
  ihave HspO := (Entails.of_eq (locO_halves_eq (F := F) c 1 _)) $$ HbO1
  icases HspO with ⟨HhO1f, HhO1t⟩
  ihave HspL := (Entails.of_eq (locL_halves_eq (F := F) c 1 _)) $$ HbL1
  icases HspL with ⟨HhL1f, HhL1t⟩
  iexists _
  unfold FootD40 closedX C32.kvDone drained held heldAs
  isplitr [HR]
  · isplitr; · iexact HI
    isplitr; · iexact HL
    isplitl [HO]; · iexact HO
    isplitl [Hzs_o1R Hzr_o1R Hzs_o1L Hzr_o1L Hzs_l1R Hzr_l1R Hzs_l1L Hzr_l1L]
    · isplitl [Hzs_o1R Hzr_o1R]; · (isplitl [Hzs_o1R]; · iexact Hzs_o1R
                                    iexact Hzr_o1R)
      isplitl [Hzs_o1L Hzr_o1L]; · (isplitl [Hzs_o1L]; · iexact Hzs_o1L
                                    iexact Hzr_o1L)
      isplitl [Hzs_l1R Hzr_l1R]; · (isplitl [Hzs_l1R]; · iexact Hzs_l1R
                                    iexact Hzr_l1R)
      isplitl [Hzs_l1L]; · iexact Hzs_l1L
      iexact Hzr_l1L
    isplitl [Hd0 Hd2 Hd3 Hlh Hbat Hbat_dst0 Hbat_src0 Hbat_dst1 Hbat_src1 Hbat_dst2 Hbat_src2 Hbat_dst3 Hbat_src3]
    · isplitl [Hd0]; · iexact Hd0
      isplitl [Hbat Hbat_dst0 Hbat_src0 Hbat_dst1 Hbat_src1 Hbat_dst2 Hbat_src2 Hbat_dst3 Hbat_src3]
      · isplitl [Hbat_dst0 Hbat_dst1 Hbat_dst2 Hbat_dst3]
        · isplitl [Hbat_dst0]; · (iexists _; iexact Hbat_dst0)
          isplitl [Hbat_dst1]; · (iexists _; iexact Hbat_dst1)
          isplitl [Hbat_dst2]; · (iexists _; iexact Hbat_dst2)
          iexists _; iexact Hbat_dst3
        isplitl [Hbat_src0 Hbat_src1 Hbat_src2 Hbat_src3]
        · isplitl [Hbat_src0]; · iexact Hbat_src0
          isplitl [Hbat_src1]; · iexact Hbat_src1
          isplitl [Hbat_src2]; · iexact Hbat_src2
          iexact Hbat_src3
        iexact Hbat
      isplitl [Hd2]; · iexact Hd2
      isplitl [Hd3]; · iexact Hd3
      iexact Hlh
    isplitl [Hx]; · iexact Hx
    isplitl [Hs4]; · (iexists _; iexact Hs4)
    isplitl [Hs6]; · (iexists _; iexact Hs6)
    isplitl [Hs7]; · (iexists _; iexact Hs7)
    isplitl [Hs9]; · (iexists _; iexact Hs9)
    isplitl [HhO1f HhO1t HhO2]
    · isplitl [HhO1f]
      · iexists _
        isplitl [HhO1f]; · iexact HhO1f
        ipureintro; exact hv.flashO v787 f4 f9 f6 fo1 fl1 vals hvals false
      isplitl [HhO1t]
      · iexists _
        isplitl [HhO1t]; · iexact HhO1t
        ipureintro; exact hv.flashO v787 f4 f9 f6 fo1 fl1 vals hvals true
      iexists _; iexact HhO2
    isplitl [HhL1f HhL1t HhL2]
    · isplitl [HhL1f]
      · iexists _
        isplitl [HhL1f]; · iexact HhL1f
        ipureintro; exact hv.flashL v787 f4 f9 f6 fo1 fl1 vals hvals false
      isplitl [HhL1t]
      · iexists _
        isplitl [HhL1t]; · iexact HhL1t
        ipureintro; exact hv.flashL v787 f4 f9 f6 fo1 fl1 vals hvals true
      iexists _; iexact HhL2
    isplitl [Hds_o1R Hds_o1L Hd_o1R Hd_o1L]
    · isplitl [Hds_o1R]; · (iexists _; iexact Hds_o1R)
      isplitl [Hds_o1L]; · (iexists _; iexact Hds_o1L)
      isplitl [Hd_o1R]
      · iexists _
        isplitl [Hd_o1R]; · iexact Hd_o1R
        ipureintro; exact hv.mergeO v14 _ fo2 fl2 fr_o1R fr_l1R hfr_o1R hfo2
      iexists _
      isplitl [Hd_o1L]; · iexact Hd_o1L
      ipureintro; exact hfr_o1L
    · isplitl [Hds_l1R]; · (iexists _; iexact Hds_l1R)
      isplitl [Hds_l1L]; · (iexists _; iexact Hds_l1L)
      isplitl [Hd_l1R]
      · iexists _
        isplitl [Hd_l1R]; · iexact Hd_l1R
        ipureintro; exact hv.mergeL v14 _ fo2 fl2 fr_o1R fr_l1R hfr_l1R hfl2
      iexists _
      isplitl [Hd_l1L]; · iexact Hd_l1L
      ipureintro; exact hfr_l1L
  · iexact HR

/-- From the cut before the last flash step to the cut before the last merge of hop 1, given the value equations of the
    steps' results and that the drained local copies join into their buffers. -/
theorem segD_ok' (m : (ℓ : Loc nD τ sig) → Buf (Elt F) ℓ) (c : Dev nD) (K : Names) (hv : ValsD m c)
    (hjoin : (kvDone m c : sProp 𝕄) ⊢ iprop(wholeEx c cc0_scratch5 ∗ copySems0 c ∗ hbm m c))
    (W : Waits sig Unit) (v2 v14 v25 v787 v790 : BitVec 32) :
    At32 m c K W (Rest32 m c) c
      ⊢ wp frame (wpE (defs₀ (F := F)) 𝒱₀ (c : Thread nD τ) none) Set.univ
          (segDProg (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v787 v790)
          (fun _ => iprop(∃ W', At40 m c K W')) :=
  (segD_run m c K W (Rest32 m c) c v2 v14 v25 v787 v790 hv).trans (wp_mono _ _ _ fun _ => by
    iintro ⟨%W', H⟩
    iexists W'
    iapply (foot40_at40 m c K W' hjoin) $$ H)

end Cert.KernelIdeal.Proto
end

/-- info: 'Cert.KernelIdeal.Proto.segD_run' depends on axioms: [propext, Classical.choice, Quot.sound] -/
#guard_msgs in #print axioms Cert.KernelIdeal.Proto.segD_run
/-- info: 'Cert.KernelIdeal.Proto.segD_ok'' depends on axioms: [propext, Classical.choice, Quot.sound] -/
#guard_msgs in #print axioms Cert.KernelIdeal.Proto.segD_ok'
-- ==== Proof.KvJoin.lean ====
/-
  The local copies at the exit: the four drained batches and the kept halves of the source planes, in the device's
  numbering, give back the key and value buffer whole, the copy semaphores at zero and the unstaged arrays as launched.
-/
import proofs.«900754_g7700000000000755_dist_attn_cross_gqa_kvseq_b4_sq256_skv1024_d1024_hq8_dh128_v7x_i4_f32_1_alg».proof.Proof.Cut32
import proofs.«900754_g7700000000000755_dist_attn_cross_gqa_kvseq_b4_sq256_skv1024_d1024_hq8_dh128_v7x_i4_f32_1_alg».proof.Proof.Rest27
import proofs.«900754_g7700000000000755_dist_attn_cross_gqa_kvseq_b4_sq256_skv1024_d1024_hq8_dh128_v7x_i4_f32_1_alg».proof.Proof.KvRel
import proofs.«900754_g7700000000000755_dist_attn_cross_gqa_kvseq_b4_sq256_skv1024_d1024_hq8_dh128_v7x_i4_f32_1_alg».proof.Proof.KvSplit
import proofs.«900754_g7700000000000755_dist_attn_cross_gqa_kvseq_b4_sq256_skv1024_d1024_hq8_dh128_v7x_i4_f32_1_alg».proof.Proof.HbmSplit
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.Data

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open C32

variable {F : FTy → Type} [FloatOps F]

local notation "𝕄" => MT nD τ sig Unit (Elt F) ℕ UU ℕ

variable (c : Dev nD) (m : (ℓ : Loc nD τ sig) → Buf (Elt F) ℓ)

/-! ## The kept halves of the source planes, in both numberings -/

/-- A source plane held with share `q` at the launch contents. -/
def srcPt (q : PosShare TreeShare) (src : Memref sig .tc .hbm S1024x128 .f32) : sProp 𝕄 :=
  src.view.loc (c : Thread nD τ) ↦[src.view.set]{q} m (src.view.loc (c : Thread nD τ))

/-- The kept halves of batch `b`'s source planes, as issued; and of the device's `j`-th batch. -/
def keptL (b : Fin 4) : sProp 𝕄 := iprop(srcPt c m fullShare.left (hbKS b 0) ∗ srcPt c m fullShare.left (hbVS b 0) ∗ srcPt c m fullShare.left (hbKS b 1))
def keptD (j : Fin 4) : sProp 𝕄 := iprop(srcPt c m fullShare.left (hbKD c j 0) ∗ srcPt c m fullShare.left (hbVD c j 0) ∗ srcPt c m fullShare.left (hbKD c j 1))

theorem keptD_eq (j : Fin 4) : keptD c m j = keptL c m (bIdx c j) := by
  unfold keptD keptL; rw [hbKD_eq, hbVD_eq, hbKD_eq]

theorem leftHalves_eq : leftHalves m c = iprop(keptD c m 0 ∗ keptD c m 1 ∗ keptD c m 2 ∗ keptD c m 3) := by
  unfold leftHalves
  rw [bigSep_fin4]
  rfl

theorem kept_rot : iprop(keptD c m 0 ∗ keptD c m 1 ∗ keptD c m 2 ∗ keptD c m 3) ⊢ iprop(keptL c m 0 ∗ keptL c m 1 ∗ keptL c m 2 ∗ keptL c m 3) := by
  rw [keptD_eq, keptD_eq, keptD_eq, keptD_eq]
  iintro ⟨H0, H1, H2, H3⟩
  fin_cases c
  · isplitl [H0]; · iexact H0
    isplitl [H1]; · iexact H1
    isplitl [H2]; · iexact H2
    iexact H3
  · isplitl [H3]; · iexact H3
    isplitl [H0]; · iexact H0
    isplitl [H1]; · iexact H1
    iexact H2
  · isplitl [H2]; · iexact H2
    isplitl [H3]; · iexact H3
    isplitl [H0]; · iexact H0
    iexact H1
  · isplitl [H1]; · iexact H1
    isplitl [H2]; · iexact H2
    isplitl [H3]; · iexact H3
    iexact H0

/-- And the other way: the kept halves as issued are the kept halves in the device's numbering. -/
theorem kept_unrot : iprop(keptL c m 0 ∗ keptL c m 1 ∗ keptL c m 2 ∗ keptL c m 3) ⊢ iprop(keptD c m 0 ∗ keptD c m 1 ∗ keptD c m 2 ∗ keptD c m 3) := by
  rw [keptD_eq, keptD_eq, keptD_eq, keptD_eq]
  iintro ⟨H0, H1, H2, H3⟩
  fin_cases c
  · isplitl [H0]; · iexact H0
    isplitl [H1]; · iexact H1
    isplitl [H2]; · iexact H2
    iexact H3
  · isplitl [H1]; · iexact H1
    isplitl [H2]; · iexact H2
    isplitl [H3]; · iexact H3
    iexact H0
  · isplitl [H2]; · iexact H2
    isplitl [H3]; · iexact H3
    isplitl [H0]; · iexact H0
    iexact H1
  · isplitl [H3]; · iexact H3
    isplitl [H0]; · iexact H0
    isplitl [H1]; · iexact H1
    iexact H2

/-- The two halves of a share make it. -/
theorem srcPt_halves (src : Memref sig .tc .hbm S1024x128 .f32) :
    iprop(srcPt c m fullShare.left src ∗ srcPt c m fullShare.right src) ⊢ srcPt (F := F) c m fullShare src :=
  (pointsTo_share (PosShare.mem_left_op_right fullShare)).2

/-! ## A drained batch, in both numberings -/

/-- Batch `b` of the local copies waited for, as issued: its four planes at any contents, what its copies took of their
    source planes, its semaphore at zero. -/
def drainedL (b : Fin 4) : sProp 𝕄 :=
  iprop((held c (kvS 0 ⟨2 * b.val + 0, by omega⟩) ∗ held c (kvS 1 ⟨2 * b.val + 0, by omega⟩) ∗ held c (kvS 0 ⟨2 * b.val + 1, by omega⟩) ∗ held c (kvS 1 ⟨2 * b.val + 1, by omega⟩))
    ∗ (srcPt c m fullShare.right (hbKS b 0) ∗ srcPt c m fullShare.right (hbVS b 0) ∗ srcPt c m fullShare.right (hbKS b 1) ∗ srcPt c m fullShare (hbVS b 1))
    ∗ semVal (((c : Thread nD τ), .dma (copySem b)) : GSem nD τ sig) 0)

theorem drained_eq (j : Fin 4) : drained m c j = drainedL c m (bIdx c j) := by
  unfold drained drainedL srcPt
  rw [kvD_eq, kvD_eq, kvD_eq, kvD_eq, hbKD_eq, hbVD_eq, hbKD_eq, hbVD_eq, csemD_eq_copySem]
  rfl

/-- The four drained batches in the device's numbering are the four as issued, rotated. -/
theorem drained_rot :
    iprop(drained m c 0 ∗ drained m c 1 ∗ drained m c 2 ∗ drained m c 3) ⊢ iprop(drainedL c m 0 ∗ drainedL c m 1 ∗ drainedL c m 2 ∗ drainedL c m 3) := by
  rw [drained_eq, drained_eq, drained_eq, drained_eq]
  iintro ⟨H0, H1, H2, H3⟩
  fin_cases c
  · isplitl [H0]; · iexact H0
    isplitl [H1]; · iexact H1
    isplitl [H2]; · iexact H2
    iexact H3
  · isplitl [H3]; · iexact H3
    isplitl [H0]; · iexact H0
    isplitl [H1]; · iexact H1
    iexact H2
  · isplitl [H2]; · iexact H2
    isplitl [H3]; · iexact H3
    isplitl [H0]; · iexact H0
    iexact H1
  · isplitl [H1]; · iexact H1
    isplitl [H2]; · iexact H2
    isplitl [H3]; · iexact H3
    iexact H0

/-- A drained batch with its kept halves: its four planes held, its four source planes whole again, its semaphore at zero. -/
theorem drainedL_open (b : Fin 4) :
    iprop(drainedL c m b ∗ keptL c m b)
      ⊢ iprop((held c (kvS 0 ⟨2 * b.val + 0, by omega⟩) ∗ held c (kvS 1 ⟨2 * b.val + 0, by omega⟩) ∗ held c (kvS 0 ⟨2 * b.val + 1, by omega⟩) ∗ held c (kvS 1 ⟨2 * b.val + 1, by omega⟩))
          ∗ (srcPt c m fullShare (hbKS b 0) ∗ srcPt c m fullShare (hbKS b 1)) ∗ (srcPt c m fullShare (hbVS b 0) ∗ srcPt c m fullShare (hbVS b 1))
          ∗ semVal (((c : Thread nD τ), .dma (copySem b)) : GSem nD τ sig) 0) := by
  unfold drainedL keptL
  iintro ⟨⟨P, ⟨K0r, V0r, K1r, V1f⟩, Hsem⟩, K0l, V0l, K1l⟩
  isplitl [P]; · iexact P
  isplitl [K0l K0r K1l K1r]
  · isplitl [K0l K0r]
    · iapply (srcPt_halves c m _); isplitl [K0l]; · iexact K0l
      iexact K0r
    · iapply (srcPt_halves c m _); isplitl [K1l]; · iexact K1l
      iexact K1r
  isplitl [V0l V0r V1f]
  · isplitl [V0l V0r]
    · iapply (srcPt_halves c m _); isplitl [V0l]; · iexact V0l
      iexact V0r
    · iexact V1f
  iexact Hsem

/-! ## The join -/

theorem lit_join :
    iprop(drainedL c m 0 ∗ drainedL c m 1 ∗ drainedL c m 2 ∗ drainedL c m 3 ∗ keptL c m 0 ∗ keptL c m 1 ∗ keptL c m 2 ∗ keptL c m 3)
      ⊢ iprop(wholeEx c cc0_scratch5 ∗ copySems0 c ∗ hbm m c) := by
  iintro ⟨B0, B1, B2, B3, Kp0, Kp1, Kp2, Kp3⟩
  ihave R0 := (drainedL_open c m 0) $$ [B0 Kp0]
  · isplitl [B0]; · iexact B0
    iexact Kp0
  icases R0 with ⟨⟨P00, P10, P01, P11⟩, ⟨K00, K01⟩, ⟨V00, V01⟩, S0⟩
  ihave R1 := (drainedL_open c m 1) $$ [B1 Kp1]
  · isplitl [B1]; · iexact B1
    iexact Kp1
  icases R1 with ⟨⟨P02, P12, P03, P13⟩, ⟨K10, K11⟩, ⟨V10, V11⟩, S1⟩
  ihave R2 := (drainedL_open c m 2) $$ [B2 Kp2]
  · isplitl [B2]; · iexact B2
    iexact Kp2
  icases R2 with ⟨⟨P04, P14, P05, P15⟩, ⟨K20, K21⟩, ⟨V20, V21⟩, S2⟩
  ihave R3 := (drainedL_open c m 3) $$ [B3 Kp3]
  · isplitl [B3]; · iexact B3
    iexact Kp3
  icases R3 with ⟨⟨P06, P16, P07, P17⟩, ⟨K30, K31⟩, ⟨V30, V31⟩, S3⟩
  isplitl [P00 P10 P01 P11 P02 P12 P03 P13 P04 P14 P05 P15 P06 P16 P07 P17]
  · iapply (kv_join c)
    isplitl [P00]; · iexact P00
    isplitl [P10]; · iexact P10
    isplitl [P01]; · iexact P01
    isplitl [P11]; · iexact P11
    isplitl [P02]; · iexact P02
    isplitl [P12]; · iexact P12
    isplitl [P03]; · iexact P03
    isplitl [P13]; · iexact P13
    isplitl [P04]; · iexact P04
    isplitl [P14]; · iexact P14
    isplitl [P05]; · iexact P05
    isplitl [P15]; · iexact P15
    isplitl [P06]; · iexact P06
    isplitl [P16]; · iexact P16
    isplitl [P07]; · iexact P07
    iexact P17
  isplitl [S0 S1 S2 S3]
  · unfold copySems0
    rw [bigSep_fin4]
    isplitl [S0]; · iexact S0
    isplitl [S1]; · iexact S1
    isplitl [S2]; · iexact S2
    iexact S3
  unfold hbm
  isplitl [K00 K01 K10 K11 K20 K21 K30 K31]
  · rw [hbK_split_eq c (m ((c : Thread nD τ).loc main_arg3))]
    unfold srcPt
    isplitl [K00]; · iexact K00
    isplitl [K01]; · iexact K01
    isplitl [K10]; · iexact K10
    isplitl [K11]; · iexact K11
    isplitl [K20]; · iexact K20
    isplitl [K21]; · iexact K21
    isplitl [K30]; · iexact K30
    iexact K31
  · rw [hbV_split_eq c (m ((c : Thread nD τ).loc main_arg4))]
    unfold srcPt
    isplitl [V00]; · iexact V00
    isplitl [V01]; · iexact V01
    isplitl [V10]; · iexact V10
    isplitl [V11]; · iexact V11
    isplitl [V20]; · iexact V20
    isplitl [V21]; · iexact V21
    isplitl [V30]; · iexact V30
    iexact V31

/-- All four batches drained: the key and value buffer, the copy semaphores and the unstaged arrays are back. -/
theorem kvDone_join : kvDone m c ⊢ iprop(wholeEx c cc0_scratch5 ∗ copySems0 c ∗ hbm m c) := by
  unfold kvDone
  iintro ⟨D0, D1, D2, D3, LH⟩
  ihave DL := (drained_rot c m) $$ [D0 D1 D2 D3]
  · isplitl [D0]; · iexact D0
    isplitl [D1]; · iexact D1
    isplitl [D2]; · iexact D2
    iexact D3
  icases DL with ⟨B0, B1, B2, B3⟩
  ihave KL := ((Entails.of_eq (leftHalves_eq c m)).trans (kept_rot c m)) $$ LH
  icases KL with ⟨Kp0, Kp1, Kp2, Kp3⟩
  iapply (lit_join c m)
  isplitl [B0]; · iexact B0
  isplitl [B1]; · iexact B1
  isplitl [B2]; · iexact B2
  isplitl [B3]; · iexact B3
  isplitl [Kp0]; · iexact Kp0
  isplitl [Kp1]; · iexact Kp1
  isplitl [Kp2]; · iexact Kp2
  iexact Kp3

end Cert.KernelIdeal.Proto

end
-- ==== Proof.ValsDProof.lean ====
/-
  What the merge of hop 1's right-going half leaves, and the two merge equations of the steps' results.

  After the four trips of the merge loop, slot k of the landing slice reads the payload of trip k: the slot as it arrived,
  merged with row k of the device's own half block of batch `c + 2` (no other trip touches the slot, and before trip k
  none had). Read as hop 2's source, and given what arrived and what the half block holds, that is the value the
  schedule sends at hop 2.
-/
import proofs.«900754_g7700000000000755_dist_attn_cross_gqa_kvseq_b4_sq256_skv1024_d1024_hq8_dh128_v7x_i4_f32_1_alg».proof.Proof.LoopsVRead
import proofs.«900754_g7700000000000755_dist_attn_cross_gqa_kvseq_b4_sq256_skv1024_d1024_hq8_dh128_v7x_i4_f32_1_alg».proof.Proof.LoopsVFacts
import proofs.«900754_g7700000000000755_dist_attn_cross_gqa_kvseq_b4_sq256_skv1024_d1024_hq8_dh128_v7x_i4_f32_1_alg».proof.Proof.Bridge
import proofs.«900754_g7700000000000755_dist_attn_cross_gqa_kvseq_b4_sq256_skv1024_d1024_hq8_dh128_v7x_i4_f32_1_alg».proof.Proof.BodyD
import proofs.«900754_g7700000000000755_dist_attn_cross_gqa_kvseq_b4_sq256_skv1024_d1024_hq8_dh128_v7x_i4_f32_1_alg».proof.Proof.KvJoin

set_option maxRecDepth 8192

noncomputable section

namespace Cert.KernelIdeal.Proto

open Cert.KernelIdeal Cert.KernelIdeal.Gen Cert.KernelIdeal.Ring Cert.KernelIdeal.KFun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem t7_trips : k0_t7_loop.trips = 4 := by decide

/-- The merge of hop 1's right-going half, numerators: the merged landing slice, read as hop 2's source, is what the schedule sends then. -/
theorem mergeO7_value (m : (ℓ : Loc nD τ sig) → Buf (Elt F) ℓ) (c : Dev nD) (v14 v970 : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 4) (d : Fin 128) (i : Fin 256), fO3 (ix3 (⟨8 * ((c.val + 2) % 4) + (headAt false k).val, by have := (headAt false k).isLt; omega⟩ : Fin 32) d i) = KFun.ot m c (nxt (nxt c)) (headAt false k) (ix3 0 d i))
    (hrecv : (dstO 1 false).view.read (Elt F) f8 = (KFun.V m).o (fromDev c false) 1 false) :
    (srcO c 2 false).view.read (Elt F) (rsO.view.writes (Elt F) f8 (LoopsV.pbS_k0_t7 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v970 (LoopsV.t7_arg6_within c) (LoopsV.t7_arg7_within c) LoopsV.t7_arg8_within LoopsV.t7_arg9_within fO3 fL3 f8 f9 k0_t7_loop.trips).1) = (KFun.V m).o c 2 false := by
  refine vo_succ_of_merge m c 1 false f8 _ (fun k t => fO3 (ix3 (⟨8 * ((c.val + 2) % 4) + (headAt false k).val, by have := (headAt false k).isLt; omega⟩ : Fin 32) (⟨(t 1).val, (t 1).isLt⟩ : Fin 128) (⟨(t 2).val, (t 2).isLt⟩ : Fin 256))) hrecv ?_ ?_
  · intro k
    funext t
    obtain ⟨u, d, i, rfl⟩ : ∃ (u : Fin 1) (d : Fin 128) (i : Fin 256), t = ix3 u d i := ⟨t 0, t 1, t 2, eq_ix3 t⟩
    obtain rfl : u = 0 := Subsingleton.elim _ _
    exact hrows k d i
  · intro k d i
    refine (dstO_read_1f c _ k d i).trans ?_
    have hj : k.val < k0_t7_loop.trips := by rw [t7_trips]; exact k.isLt
    have hidx : ∀ (d : Fin 128) (i : Fin 256), (Rect.unit (s := S3x8x128x256) (k0_off53 ⟨k.val, hj⟩) S1x1x128x256.size (k0_off53_inb ⟨k.val, hj⟩)).emb (ix4 (0 : Fin 1) (0 : Fin 1) d i) = ix4 (1 : Fin 3) (headAt false k) d i := by
      intro d i
      funext a
      refine Fin.ext ?_
      rw [Rect.emb_apply]
      simp only [Rect.off_unit, Rect.stride_unit, Nat.one_mul, k0_off53_eq]
      match a with
      | ⟨0, _⟩ => rfl
      | ⟨1, _⟩ => show k.val + 0 = (headAt false k).val; rfl
      | ⟨2, _⟩ => show 0 + d.val = d.val; omega
      | ⟨3, _⟩ => show 0 + i.val = i.val; omega
    have hidx6 : ∀ (d : Fin 128) (i : Fin 256), (Rect.unit (s := S32x128x256) (k0_off54 c ⟨k.val, hj⟩) S1x128x256.size (k0_off54_inb c ⟨k.val, hj⟩)).emb (ix3 (0 : Fin 1) d i) = ix3 (⟨8 * ((c.val + 2) % 4) + (headAt false k).val, by have := (headAt false k).isLt; omega⟩ : Fin 32) d i := by
      intro d i
      funext a
      refine Fin.ext ?_
      rw [Rect.emb_apply]
      simp only [Rect.off_unit, Rect.stride_unit, Nat.one_mul, off54_eq]
      match a with
      | ⟨0, _⟩ => show 8 * ((c.val + 2) % 4) + k.val + 0 = 8 * ((c.val + 2) % 4) + (headAt false k).val; rfl
      | ⟨1, _⟩ => show 0 + d.val = d.val; omega
      | ⟨2, _⟩ => show 0 + i.val = i.val; omega
    rw [← hidx]
    refine (LoopsV.readS_k0_t7_arg8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v970 (LoopsV.t7_arg6_within c) (LoopsV.t7_arg7_within c) LoopsV.t7_arg8_within LoopsV.t7_arg9_within fO3 fL3 f8 f9 ⟨k.val, hj⟩ (ix4 (0 : Fin 1) (0 : Fin 1) d i)).trans ?_
    rw [LoopsV.before_k0_t7_arg8]
    have hA : View.readAt (Elt F) rsO.view (Rect.unit (s := S3x8x128x256) (k0_off53 ⟨k.val, hj⟩) S1x1x128x256.size (k0_off53_inb ⟨k.val, hj⟩)).toLoadRect f8
        = fun s : S1x1x128x256.Idx => (srcO c (Fin.succ (1 : Fin 2)) false).view.read (Elt F) f8 (ix3 k (⟨(s 2).val, (s 2).isLt⟩ : Fin 128) (⟨(s 3).val, (s 3).isLt⟩ : Fin 256)) := by
      funext s
      obtain ⟨u, v, d', i', rfl⟩ : ∃ (u v : Fin 1) (d' : Fin 128) (i' : Fin 256), s = ix4 u v d' i' := ⟨s 0, s 1, s 2, s 3, eq_ix4 s⟩
      obtain rfl : u = 0 := Subsingleton.elim _ _
      obtain rfl : v = 0 := Subsingleton.elim _ _
      refine Eq.trans ?_ (dstO_read_1f c f8 k d' i').symm
      exact congrArg f8 (hidx d' i')
    have hB : View.readAt (Elt F) locO.view (Rect.unit (s := S32x128x256) (k0_off54 c ⟨k.val, hj⟩) S1x128x256.size (k0_off54_inb c ⟨k.val, hj⟩)).toLoadRect fO3
        = fun t : S1x128x256.Idx => fO3 (ix3 (⟨8 * ((c.val + 2) % 4) + (headAt false k).val, by have := (headAt false k).isLt; omega⟩ : Fin 32) (⟨(t 1).val, (t 1).isLt⟩ : Fin 128) (⟨(t 2).val, (t 2).isLt⟩ : Fin 256)) := by
      funext t
      obtain ⟨u, d', i', rfl⟩ : ∃ (u : Fin 1) (d' : Fin 128) (i' : Fin 256), t = ix3 u d' i' := ⟨t 0, t 1, t 2, eq_ix3 t⟩
      obtain rfl : u = 0 := Subsingleton.elim _ _
      exact congrArg fO3 (hidx6 d' i')
    rw [hA, hB]
    all_goals rfl

/-- The merge of hop 1's right-going half, denominators. -/
theorem mergeL7_value (m : (ℓ : Loc nD τ sig) → Buf (Elt F) ℓ) (c : Dev nD) (v14 v970 : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 4) (i : Fin 256), fL3 (ix3 (⟨8 * ((c.val + 2) % 4) + (headAt false k).val, by have := (headAt false k).isLt; omega⟩ : Fin 32) (0 : Fin 1) i) = KFun.lrow m c (nxt (nxt c)) (headAt false k) (ix3 0 0 i))
    (hrecv : (dstL 1 false).view.read (Elt F) f9 = (KFun.V m).l (fromDev c false) 1 false) :
    (srcL c 2 false).view.read (Elt F) (rsL.view.writes (Elt F) f9 (LoopsV.pbS_k0_t7 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v970 (LoopsV.t7_arg6_within c) (LoopsV.t7_arg7_within c) LoopsV.t7_arg8_within LoopsV.t7_arg9_within fO3 fL3 f8 f9 k0_t7_loop.trips).2) = (KFun.V m).l c 2 false := by
  refine vl_succ_of_merge m c 1 false f9 _ (fun k t => fL3 (ix3 (⟨8 * ((c.val + 2) % 4) + (headAt false k).val, by have := (headAt false k).isLt; omega⟩ : Fin 32) (0 : Fin 1) (⟨(t 2).val, (t 2).isLt⟩ : Fin 256))) hrecv ?_ ?_
  · intro k
    funext t
    obtain ⟨u, v, i, rfl⟩ : ∃ (u v : Fin 1) (i : Fin 256), t = ix3 u v i := ⟨t 0, t 1, t 2, eq_ix3 t⟩
    obtain rfl : u = 0 := Subsingleton.elim _ _
    obtain rfl : v = 0 := Subsingleton.elim _ _
    exact hrows k i
  · intro k i
    refine (dstL_read_1f c _ k 0 i).trans ?_
    have hj : k.val < k0_t7_loop.trips := by rw [t7_trips]; exact k.isLt
    have hidx : ∀ (i : Fin 256), (Rect.unit (s := S3x8x1x256) (k0_off51 ⟨k.val, hj⟩) S1x1x1x256.size (k0_off51_inb ⟨k.val, hj⟩)).emb (ix4 (0 : Fin 1) (0 : Fin 1) (0 : Fin 1) i) = ix4 (1 : Fin 3) (headAt false k) (0 : Fin 1) i := by
      intro i
      funext a
      refine Fin.ext ?_
      rw [Rect.emb_apply]
      simp only [Rect.off_unit, Rect.stride_unit, Nat.one_mul, k0_off51_eq]
      match a with
      | ⟨0, _⟩ => rfl
      | ⟨1, _⟩ => show k.val + 0 = (headAt false k).val; rfl
      | ⟨2, _⟩ => rfl
      | ⟨3, _⟩ => show 0 + i.val = i.val; omega
    have hidx7 : ∀ (i : Fin 256), (Rect.unit (s := S32x1x256) (k0_off52 c ⟨k.val, hj⟩) S1x1x256.size (k0_off52_inb c ⟨k.val, hj⟩)).emb (ix3 (0 : Fin 1) (0 : Fin 1) i) = ix3 (⟨8 * ((c.val + 2) % 4) + (headAt false k).val, by have := (headAt false k).isLt; omega⟩ : Fin 32) (0 : Fin 1) i := by
      intro i
      funext a
      refine Fin.ext ?_
      rw [Rect.emb_apply]
      simp only [Rect.off_unit, Rect.stride_unit, Nat.one_mul, off52_eq]
      match a with
      | ⟨0, _⟩ => show 8 * ((c.val + 2) % 4) + k.val + 0 = 8 * ((c.val + 2) % 4) + (headAt false k).val; rfl
      | ⟨1, _⟩ => rfl
      | ⟨2, _⟩ => show 0 + i.val = i.val; omega
    rw [← hidx]
    refine (LoopsV.readS_k0_t7_arg9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v970 (LoopsV.t7_arg6_within c) (LoopsV.t7_arg7_within c) LoopsV.t7_arg8_within LoopsV.t7_arg9_within fO3 fL3 f8 f9 ⟨k.val, hj⟩ (ix4 (0 : Fin 1) (0 : Fin 1) (0 : Fin 1) i)).trans ?_
    rw [LoopsV.before_k0_t7_arg9]
    have hA : View.readAt (Elt F) rsL.view (Rect.unit (s := S3x8x1x256) (k0_off51 ⟨k.val, hj⟩) S1x1x1x256.size (k0_off51_inb ⟨k.val, hj⟩)).toLoadRect f9
        = fun s : S1x1x1x256.Idx => (srcL c (Fin.succ (1 : Fin 2)) false).view.read (Elt F) f9 (ix3 k (0 : Fin 1) (⟨(s 3).val, (s 3).isLt⟩ : Fin 256)) := by
      funext s
      obtain ⟨u, v, w, i', rfl⟩ : ∃ (u v w : Fin 1) (i' : Fin 256), s = ix4 u v w i' := ⟨s 0, s 1, s 2, s 3, eq_ix4 s⟩
      obtain rfl : u = 0 := Subsingleton.elim _ _
      obtain rfl : v = 0 := Subsingleton.elim _ _
      obtain rfl : w = 0 := Subsingleton.elim _ _
      refine Eq.trans ?_ (dstL_read_1f c f9 k 0 i').symm
      exact congrArg f9 (hidx i')
    have hB : View.readAt (Elt F) locL.view (Rect.unit (s := S32x1x256) (k0_off52 c ⟨k.val, hj⟩) S1x1x256.size (k0_off52_inb c ⟨k.val, hj⟩)).toLoadRect fL3
        = fun t : S1x1x256.Idx => fL3 (ix3 (⟨8 * ((c.val + 2) % 4) + (headAt false k).val, by have := (headAt false k).isLt; omega⟩ : Fin 32) (0 : Fin 1) (⟨(t 2).val, (t 2).isLt⟩ : Fin 256)) := by
      funext t
      obtain ⟨u, v, i', rfl⟩ : ∃ (u v : Fin 1) (i' : Fin 256), t = ix3 u v i' := ⟨t 0, t 1, t 2, eq_ix3 t⟩
      obtain rfl : u = 0 := Subsingleton.elim _ _
      obtain rfl : v = 0 := Subsingleton.elim _ _
      exact congrArg fL3 (hidx7 i')
    rw [hA, hB]
    all_goals rfl

/-- The merged numerators' slice is what the schedule sends at hop 2, as the steps' result states it. -/
theorem valsD_mergeO (m : (ℓ : Loc nD τ sig) → Buf (Elt F) ℓ) (c : Dev nD) :
    ∀ (v14 v970 : BitVec 32) (fo2 : Buf (Elt F) ((c : Thread nD τ).loc cc0_scratch0)) (fl2 : Buf (Elt F) ((c : Thread nD τ).loc cc0_scratch1))
      (fro : Buf (Elt F) ((c : Thread nD τ).loc cc0_scratch2)) (frl : Buf (Elt F) ((c : Thread nD τ).loc cc0_scratch3)),
      (dstO 1 false).view.read (Elt F) fro = (KFun.V m).o (fromDev c false) 1 false →
      (∀ (k : Fin 4) (d : Fin 128) (i : Fin 256),
        fo2 (ix3 (⟨halfRow c 2 false + k.val, by have := halfRow_le c 2 false; omega⟩ : Fin 32) d i) = KFun.ot m c (nxt (nxt c)) (KFun.headAt false k) (ix3 0 d i)) →
      (dstO 1 false).view.read (Elt F) (rsO.view.writes (Elt F) fro (mergeD c v14 v970 fo2 fl2 fro frl).1) = (KFun.V m).o c 2 false := by
  intro v14 v970 fo2 fl2 fro frl hrecv hrows
  have e : ∀ k : Fin 4, (⟨halfRow c 2 false + k.val, by have := halfRow_le c 2 false; omega⟩ : Fin 32)
      = ⟨8 * ((c.val + 2) % 4) + (headAt false k).val, by have := (headAt false k).isLt; omega⟩ := fun k =>
    Fin.ext (by show 8 * ((c.val + 2) % 4) + 0 + k.val = 8 * ((c.val + 2) % 4) + k.val; omega)
  exact mergeO7_value m c v14 v970 fo2 fl2 fro frl
    (fun k d i => (congrArg (fun r => fo2 (ix3 r d i)) (e k)).symm.trans (hrows k d i)) hrecv

/-- The merged denominators' slice likewise. -/
theorem valsD_mergeL (m : (ℓ : Loc nD τ sig) → Buf (Elt F) ℓ) (c : Dev nD) :
    ∀ (v14 v970 : BitVec 32) (fo2 : Buf (Elt F) ((c : Thread nD τ).loc cc0_scratch0)) (fl2 : Buf (Elt F) ((c : Thread nD τ).loc cc0_scratch1))
      (fro : Buf (Elt F) ((c : Thread nD τ).loc cc0_scratch2)) (frl : Buf (Elt F) ((c : Thread nD τ).loc cc0_scratch3)),
      (dstL 1 false).view.read (Elt F) frl = (KFun.V m).l (fromDev c false) 1 false →
      (∀ (k : Fin 4) (i : Fin 256),
        fl2 (ix3 (⟨halfRow c 2 false + k.val, by have := halfRow_le c 2 false; omega⟩ : Fin 32) (0 : Fin 1) i) = KFun.lrow m c (nxt (nxt c)) (KFun.headAt false k) (ix3 0 0 i)) →
      (dstL 1 false).view.read (Elt F) (rsL.view.writes (Elt F) frl (mergeD c v14 v970 fo2 fl2 fro frl).2) = (KFun.V m).l c 2 false := by
  intro v14 v970 fo2 fl2 fro frl hrecv hrows
  have e : ∀ k : Fin 4, (⟨halfRow c 2 false + k.val, by have := halfRow_le c 2 false; omega⟩ : Fin 32)
      = ⟨8 * ((c.val + 2) % 4) + (headAt false k).val, by have := (headAt false k).isLt; omega⟩ := fun k =>
    Fin.ext (by show 8 * ((c.val + 2) % 4) + 0 + k.val = 8 * ((c.val + 2) % 4) + k.val; omega)
  exact mergeL7_value m c v14 v970 fo2 fl2 fro frl
    (fun k i => (congrArg (fun r => fl2 (ix3 r (0 : Fin 1) i)) (e k)).symm.trans (hrows k i)) hrecv

/-- The steps between the cut before the last flash step and the cut before the last merge of hop 1, given the value
    equations of their results: the drained local copies join into their buffers. -/
theorem segD_ok (m : (ℓ : Loc nD τ sig) → Buf (Elt F) ℓ) (c : Dev nD) (K : Names) (hv : ValsD m c) :
    ∀ (W : Waits sig Unit) (v2 v14 v25 v787 v790 : BitVec 32),
      At32 m c K W (Rest32 m c) c
        ⊢ wp frame (wpE (defs₀ (F := F)) 𝒱₀ (c : Thread nD τ) none) Set.univ
            (segDProg (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v787 v790)
            (fun _ => iprop(∃ W', At40 m c K W')) :=
  fun W v2 v14 v25 v787 v790 => segD_ok' m c K hv (kvDone_join c m) W v2 v14 v25 v787 v790

end Cert.KernelIdeal.Proto

end

/-- info: 'Cert.KernelIdeal.Proto.valsD_mergeO' depends on axioms: [propext, Classical.choice, Quot.sound] -/
#guard_msgs in #print axioms Cert.KernelIdeal.Proto.valsD_mergeO
/-- info: 'Cert.KernelIdeal.Proto.valsD_mergeL' depends on axioms: [propext, Classical.choice, Quot.sound] -/
#guard_msgs in #print axioms Cert.KernelIdeal.Proto.valsD_mergeL

/-- info: 'Cert.KernelIdeal.Proto.segD_ok' depends on axioms: [propext, Classical.choice, Quot.sound] -/
#guard_msgs in #print axioms Cert.KernelIdeal.Proto.segD_ok
-- ==== Proof.LoopsUU.lean ====
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.Gen.KernelIdeal.Skeleton
import Idealize.ShloMosaic.Lib.Exec
import Idealize.ShloMosaic.Lib.Tactic
import Idealize.ShloMosaic.Lib.Pipeline.Kit

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.LoopsUU
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ Cert.KernelIdeal.Proto.UU ℕ
/-! ## `cc0_body` -/

/-- The class of invariants of `k0_part15`'s counted loop `k0_t1_loop` (`scf.for %arg30 =
   %c0_i32_273 to %291 step %c1_i32_275 : i32 {`), trip `k0_t1`, carrying `Unit`, region
   `Gen.k0_t1_body`. Classifier: LISTED — every store at a `Rect.unit` through a memref parameter of
   the region, nothing carried, no transfer or conditional inside: the invariant is the pieces of
   the trips before `k`; not affine (the closed form of `k0_off13` is not over the trip alone), so a
   frame cannot place those pieces and must find the memref written covered by a whole-block store
   of the same case. The region loads back what it stores into `arg12` (an accumulation): each
   trip's pieces are stated as functions of the contents it finds there. One trip calls the parts
   `k0_part1`. Per trip it STORES through arg12 at ![0, 0]; arg6 at (k0_off13 d0 k0_t1); arg7 at
   (k0_off14 d0 k0_t1). It LOADS through arg10 at (k0_off10 d0 k0_t1); arg15 at (k0_off11 d0 k0_t1);
   arg15 at (k0_off12 d0 k0_t1); arg12 at ![0, 0]; arg6 at (k0_off13 d0 k0_t1); arg7 at (k0_off14 d0
   k0_t1). GENERATED below: `Gen.loopInv_k0_t1` (`@[sl_loop]`), at the frame kit's algebra — a run
   at that algebra (the generated frame's, or a hand proof's over `MT nD τ sig Unit (Elt F) ℕ (UR
   sig nD τ) ℕ`) goes through the loop with nothing more to state; a proof at another algebra
   instances the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226)

/-! ### `k0_t1_loop`: the generated invariant (classifier: listed) -/

/-- One trip's resources: what the region reads (arg10, arg15) at its contents, what it writes
   (arg6, arg7, arg12) at any. -/
abbrev Trip_k0_t1 (c : Dev nD) (arg10 : Memref sig .tc .vmem S32x256x128 .bf16) (arg15 : Memref sig .tc .vmem S2x8x1024x128 .bf16) (arg6 : Memref sig .tc .vmem S32x128x256 .bf16) (arg7 : Memref sig .tc .vmem S32x1x256 .f32) (arg12 : Memref sig .tc .vmem S1024x256 .bf16) (X_arg10 : BufTy.Contents (Elt F) arg10.view.ty) (X_arg15 : BufTy.Contents (Elt F) arg15.view.ty) (f_arg6 : BufTy.Contents (Elt F) arg6.view.ty) (f_arg7 : BufTy.Contents (Elt F) arg7.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ (arg6.view.loc (c : Thread nD τ) ↦[arg6.view.set]{fullShare} f_arg6) ∗ (arg7.view.loc (c : Thread nD τ) ↦[arg7.view.set]{fullShare} f_arg7) ∗ (arg12.view.loc (c : Thread nD τ) ↦[arg12.view.set]{fullShare} f_arg12))

/-- ONE TRIP of `k0_t1_loop` at a symbolic `k`, run by `sl_exec` (its rectangles where the program's
   in-range evidence puts them, their places unread): the pieces it writes into arg6, arg7, arg12
   are the run's own finds — the witnesses `sl_close` assigns handing the buffers to the
   continuation, as functions of the contents the trip finds in the memrefs it writes (the region
   loads some of them back). `@[irreducible]`: cited, never unfolded. -/
@[irreducible] def trip_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (k : Fin k0_t1_loop.trips) :
    Σ' (L_arg6 : (BufTy.Contents (Elt F) arg6.view.ty → BufTy.Contents (Elt F) arg7.view.ty → BufTy.Contents (Elt F) arg12.view.ty → List (View.Piece (Elt F) S32x128x256 .bf16))) (L_arg7 : (BufTy.Contents (Elt F) arg6.view.ty → BufTy.Contents (Elt F) arg7.view.ty → BufTy.Contents (Elt F) arg12.view.ty → List (View.Piece (Elt F) S32x1x256 .f32))) , { L_arg12 : (BufTy.Contents (Elt F) arg6.view.ty → BufTy.Contents (Elt F) arg7.view.ty → BufTy.Contents (Elt F) arg12.view.ty → List (View.Piece (Elt F) S1024x256 .bf16)) // ∀ (E : Set ℕ) (f_arg6 : BufTy.Contents (Elt F) arg6.view.ty) (f_arg7 : BufTy.Contents (Elt F) arg7.view.ty) (f_arg12 : BufTy.Contents (Elt F) arg12.view.ty),
      Trip_k0_t1 (F := F) c arg10 arg15 arg6 arg7 arg12 X_arg10 X_arg15 f_arg6 f_arg7 f_arg12
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 k PUnit.unit)
          (fun _ => Trip_k0_t1 (F := F) c arg10 arg15 arg6 arg7 arg12 X_arg10 X_arg15 (arg6.view.writes (Elt F) f_arg6 (L_arg6 f_arg6 f_arg7 f_arg12)) (arg7.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t1_abs.2.1
  refine ⟨?_, ?_, ?_, fun E f_arg6 f_arg7 f_arg12 => ?run⟩
  case run =>
    unfold k0_t1_body
    iintro ⟨HR_arg10, HR_arg15, HW_arg6, HW_arg7, HW_arg12⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (k : Fin k0_t1_loop.trips) (f_arg6 : BufTy.Contents (Elt F) arg6.view.ty) (f_arg7 : BufTy.Contents (Elt F) arg7.view.ty) (f_arg12 : BufTy.Contents (Elt F) arg12.view.ty) : List (View.Piece (Elt F) S32x128x256 .bf16) × List (View.Piece (Elt F) S32x1x256 .f32) × List (View.Piece (Elt F) S1024x256 .bf16) :=
  ((trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k).1 f_arg6 f_arg7 f_arg12, (trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k).2.1 f_arg6 f_arg7 f_arg12, (trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k).2.2.1 f_arg6 f_arg7 f_arg12)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t1_loop.trips then
    ((tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 ⟨k, h⟩ (arg6.view.writes (Elt F) G_arg6 prev.1) (arg7.view.writes (Elt F) G_arg7 prev.2.1) (arg12.view.writes (Elt F) G_arg12 prev.2.2)).1 ++ prev.1, (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 ⟨k, h⟩ (arg6.view.writes (Elt F) G_arg6 prev.1) (arg7.view.writes (Elt F) G_arg7 prev.2.1) (arg12.view.writes (Elt F) G_arg12 prev.2.2)).2.1 ++ prev.2.1, (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 ⟨k, h⟩ (arg6.view.writes (Elt F) G_arg6 prev.1) (arg7.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pb_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pb_k0_t1Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k (pb_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k)

theorem pb_k0_t1_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : Fin k0_t1_loop.trips) :
    pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 (k.val + 1)
      = ((tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k (arg6.view.writes (Elt F) G_arg6 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).1) (arg7.view.writes (Elt F) G_arg7 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.1) (arg12.view.writes (Elt F) G_arg12 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.2)).1 ++ (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).1, (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k (arg6.view.writes (Elt F) G_arg6 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).1) (arg7.view.writes (Elt F) G_arg7 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.1) (arg12.view.writes (Elt F) G_arg12 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.2)).2.1 ++ (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.1, (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k (arg6.view.writes (Elt F) G_arg6 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).1) (arg7.view.writes (Elt F) G_arg7 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.1) (arg12.view.writes (Elt F) G_arg12 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.2)).2.2 ++ (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.2) := by
  rw [pb_k0_t1.eq_2]; unfold pb_k0_t1Step; exact dif_pos k.isLt

/-- THE INVARIANT before trip `k`: arg10, arg15 read at `X_·`; arg6, arg7, arg12 holding the pieces
   of the trips before `k` written over the contents at loop entry `G_·` (stated `∃ f, … ∗ ⌜f = …⌝`,
   so that a hypothesis of any contents matches and the equation is what is proved). -/
abbrev inv_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, (arg6.view.loc (c : Thread nD τ) ↦[arg6.view.set]{fullShare} f) ∗ ⌜f = arg6.view.writes (Elt F) G_arg6 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k).1⌝) ∗ (∃ f, (arg7.view.loc (c : Thread nD τ) ↦[arg7.view.set]{fullShare} f) ∗ ⌜f = arg7.view.writes (Elt F) G_arg7 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k).2.1⌝) ∗ (∃ f, (arg12.view.loc (c : Thread nD τ) ↦[arg12.view.set]{fullShare} f) ∗ ⌜f = arg12.view.writes (Elt F) G_arg12 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k).2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) :
    LoopInvTy_k0_t1 (F := F) Unit ℕ Cert.KernelIdeal.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 where
  inv := inv_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pb_k0_t1_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part21`'s counted loop `k0_t2_loop` (`scf.for %arg30 =
   %c0_i32_417 to %475 step %c1_i32_419 : i32 {`), trip `k0_t2`, carrying `Unit`, region
   `Gen.k0_t2_body`. Classifier: LISTED — every store at a `Rect.unit` through a memref parameter of
   the region, nothing carried, no transfer or conditional inside: the invariant is the pieces of
   the trips before `k`; not affine (a store whose offsets chain `k0_off29` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part2`. Per trip it STORES
   through arg12 at ![0, 0]; arg6 at (k0_off29 d0 k0_t2) (NO closed form stated); arg7 at (k0_off30
   d0 k0_t2) (NO closed form stated). It LOADS through arg10 at (k0_off26 d0 k0_t2); arg15 at
   (k0_off27 d0 k0_t2); arg15 at (k0_off28 d0 k0_t2); arg12 at ![0, 0]; arg6 at (k0_off29 d0 k0_t2);
   arg7 at (k0_off30 d0 k0_t2). GENERATED below: `Gen.loopInv_k0_t2` (`@[sl_loop]`), at the frame
   kit's algebra — a run at that algebra (the generated frame's, or a hand proof's over `MT nD τ sig
   Unit (Elt F) ℕ Cert.KernelIdeal.Proto.UU ℕ`) goes through the loop with nothing more to state; a proof at
   another algebra instances the class itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468)

/-! ### `k0_t2_loop`: the generated invariant (classifier: listed) -/

/-- One trip's resources: what the region reads (arg10, arg15) at its contents, what it writes
   (arg6, arg7, arg12) at any. -/
abbrev Trip_k0_t2 (c : Dev nD) (arg10 : Memref sig .tc .vmem S32x256x128 .bf16) (arg15 : Memref sig .tc .vmem S2x8x1024x128 .bf16) (arg6 : Memref sig .tc .vmem S32x128x256 .bf16) (arg7 : Memref sig .tc .vmem S32x1x256 .f32) (arg12 : Memref sig .tc .vmem S1024x256 .bf16) (X_arg10 : BufTy.Contents (Elt F) arg10.view.ty) (X_arg15 : BufTy.Contents (Elt F) arg15.view.ty) (f_arg6 : BufTy.Contents (Elt F) arg6.view.ty) (f_arg7 : BufTy.Contents (Elt F) arg7.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ (arg6.view.loc (c : Thread nD τ) ↦[arg6.view.set]{fullShare} f_arg6) ∗ (arg7.view.loc (c : Thread nD τ) ↦[arg7.view.set]{fullShare} f_arg7) ∗ (arg12.view.loc (c : Thread nD τ) ↦[arg12.view.set]{fullShare} f_arg12))

/-- ONE TRIP of `k0_t2_loop` at a symbolic `k`, run by `sl_exec` (its rectangles where the program's
   in-range evidence puts them, their places unread): the pieces it writes into arg6, arg7, arg12
   are the run's own finds — the witnesses `sl_close` assigns handing the buffers to the
   continuation, as functions of the contents the trip finds in the memrefs it writes (the region
   loads some of them back). `@[irreducible]`: cited, never unfolded. -/
@[irreducible] def trip_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (k : Fin k0_t2_loop.trips) :
    Σ' (L_arg6 : (BufTy.Contents (Elt F) arg6.view.ty → BufTy.Contents (Elt F) arg7.view.ty → BufTy.Contents (Elt F) arg12.view.ty → List (View.Piece (Elt F) S32x128x256 .bf16))) (L_arg7 : (BufTy.Contents (Elt F) arg6.view.ty → BufTy.Contents (Elt F) arg7.view.ty → BufTy.Contents (Elt F) arg12.view.ty → List (View.Piece (Elt F) S32x1x256 .f32))) , { L_arg12 : (BufTy.Contents (Elt F) arg6.view.ty → BufTy.Contents (Elt F) arg7.view.ty → BufTy.Contents (Elt F) arg12.view.ty → List (View.Piece (Elt F) S1024x256 .bf16)) // ∀ (E : Set ℕ) (f_arg6 : BufTy.Contents (Elt F) arg6.view.ty) (f_arg7 : BufTy.Contents (Elt F) arg7.view.ty) (f_arg12 : BufTy.Contents (Elt F) arg12.view.ty),
      Trip_k0_t2 (F := F) c arg10 arg15 arg6 arg7 arg12 X_arg10 X_arg15 f_arg6 f_arg7 f_arg12
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 k PUnit.unit)
          (fun _ => Trip_k0_t2 (F := F) c arg10 arg15 arg6 arg7 arg12 X_arg10 X_arg15 (arg6.view.writes (Elt F) f_arg6 (L_arg6 f_arg6 f_arg7 f_arg12)) (arg7.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t2_abs.2.1
  refine ⟨?_, ?_, ?_, fun E f_arg6 f_arg7 f_arg12 => ?run⟩
  case run =>
    unfold k0_t2_body
    iintro ⟨HR_arg10, HR_arg15, HW_arg6, HW_arg7, HW_arg12⟩
    sl_exec
    sl_step
    sl_close

/-- The trip's piece lists (plain projections of `trip_…`, for the recursion below to cite without
   its proof), at the contents the trip finds in the written memrefs. -/
abbrev tripL_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (k : Fin k0_t2_loop.trips) (f_arg6 : BufTy.Contents (Elt F) arg6.view.ty) (f_arg7 : BufTy.Contents (Elt F) arg7.view.ty) (f_arg12 : BufTy.Contents (Elt F) arg12.view.ty) : List (View.Piece (Elt F) S32x128x256 .bf16) × List (View.Piece (Elt F) S32x1x256 .f32) × List (View.Piece (Elt F) S1024x256 .bf16) :=
  ((trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k).1 f_arg6 f_arg7 f_arg12, (trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k).2.1 f_arg6 f_arg7 f_arg12, (trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k).2.2.1 f_arg6 f_arg7 f_arg12)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t2_loop.trips then
    ((tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 ⟨k, h⟩ (arg6.view.writes (Elt F) G_arg6 prev.1) (arg7.view.writes (Elt F) G_arg7 prev.2.1) (arg12.view.writes (Elt F) G_arg12 prev.2.2)).1 ++ prev.1, (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 ⟨k, h⟩ (arg6.view.writes (Elt F) G_arg6 prev.1) (arg7.view.writes (Elt F) G_arg7 prev.2.1) (arg12.view.writes (Elt F) G_arg12 prev.2.2)).2.1 ++ prev.2.1, (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 ⟨k, h⟩ (arg6.view.writes (Elt F) G_arg6 prev.1) (arg7.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pb_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pb_k0_t2Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k (pb_k0_t2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k)

theorem pb_k0_t2_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : Fin k0_t2_loop.trips) :
    pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 (k.val + 1)
      = ((tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k (arg6.view.writes (Elt F) G_arg6 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).1) (arg7.view.writes (Elt F) G_arg7 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.1) (arg12.view.writes (Elt F) G_arg12 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.2)).1 ++ (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).1, (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k (arg6.view.writes (Elt F) G_arg6 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).1) (arg7.view.writes (Elt F) G_arg7 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.1) (arg12.view.writes (Elt F) G_arg12 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.2)).2.1 ++ (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.1, (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k (arg6.view.writes (Elt F) G_arg6 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).1) (arg7.view.writes (Elt F) G_arg7 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.1) (arg12.view.writes (Elt F) G_arg12 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.2)).2.2 ++ (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.2) := by
  rw [pb_k0_t2.eq_2]; unfold pb_k0_t2Step; exact dif_pos k.isLt

/-- THE INVARIANT before trip `k`: arg10, arg15 read at `X_·`; arg6, arg7, arg12 holding the pieces
   of the trips before `k` written over the contents at loop entry `G_·` (stated `∃ f, … ∗ ⌜f = …⌝`,
   so that a hypothesis of any contents matches and the equation is what is proved). -/
abbrev inv_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, (arg6.view.loc (c : Thread nD τ) ↦[arg6.view.set]{fullShare} f) ∗ ⌜f = arg6.view.writes (Elt F) G_arg6 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k).1⌝) ∗ (∃ f, (arg7.view.loc (c : Thread nD τ) ↦[arg7.view.set]{fullShare} f) ∗ ⌜f = arg7.view.writes (Elt F) G_arg7 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k).2.1⌝) ∗ (∃ f, (arg12.view.loc (c : Thread nD τ) ↦[arg12.view.set]{fullShare} f) ∗ ⌜f = arg12.view.writes (Elt F) G_arg12 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k).2.2⌝))

set_option warn.classDefReducibility false in
/-- THE LOOP BY ITS INVARIANT — generated (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) :
    LoopInvTy_k0_t2 (F := F) Unit ℕ Cert.KernelIdeal.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 where
  inv := inv_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pb_k0_t2_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part26`'s counted loop `k0_t3_loop` (`scf.for %arg30 =
   %c0_i32_562 to %661 step %c1_i32_564 : i32 {`), trip `k0_t3`, carrying `Unit`, region
   `Gen.k0_t3_body`. Classifier: LISTED — every store at a `Rect.unit` through a memref parameter of
   the region, nothing carried, no transfer or conditional inside: the invariant is the pieces of
   the trips before `k`; not affine (a store whose offsets chain `k0_off36` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part3`. Per trip it STORES
   through arg12 at ![0, 0]; arg6 at (k0_off36 d0 k0_t3) (NO closed form stated); arg7 at (k0_off37
   d0 k0_t3) (NO closed form stated). It LOADS through arg10 at (k0_off33 d0 k0_t3); arg15 at
   (k0_off34 d0 k0_t3); arg15 at (k0_off35 d0 k0_t3); arg12 at ![0, 0]; arg6 at (k0_off36 d0 k0_t3);
   arg7 at (k0_off37 d0 k0_t3). GENERATED below: `Gen.loopInv_k0_t3` (`@[sl_loop]`), at the frame
   kit's algebra — a run at that algebra (the generated frame's, or a hand proof's over `MT nD τ sig
   Unit (Elt F) ℕ Cert.KernelIdeal.Proto.UU ℕ`) goes through the loop with nothing more to state; a proof at
   another algebra instances the class itself, after this one. -/
abbrev LoopInvTy_k0_t3 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) :=
  Idealize.ShloMosaic.LoopInv (M := MT nD τ sig Ix (Elt F) Name U Lvl) Idealize.ShloMosaic.frame (wpE defs₀ 𝒱 (c : Thread nD τ) bd) E
    k0_t3_loop.lb k0_t3_loop.ub k0_t3_loop.st k0_t3_ok () (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596)

/-! ### `k0_t3_loop`: the generated invariant (classifier: listed) -/

/-- One trip's resources: what the region reads (arg10, arg15) at its contents, what it writes
   (arg6, arg7, arg12) at any. -/
abbrev Trip_k0_t3 (c : Dev nD) (arg10 : Memref sig .tc .vmem S32x256x128 .bf16) (arg15 : Memref sig .tc .vmem S2x8x1024x128 .bf16) (arg6 : Memref sig .tc .vmem S32x128x256 .bf16) (arg7 : Memref sig .tc .vmem S32x1x256 .f32) (arg12 : Memref sig .tc .vmem S1024x256 .bf16) (X_arg10 : BufTy.Contents (Elt F) arg10.view.ty) (X_arg15 : BufTy.Contents (Elt F) arg15.view.ty) (f_arg6 : BufTy.Contents (Elt F) arg6.view.ty) (f_arg7 : BufTy.Contents (Elt F) arg7.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ (arg6.view.loc (c : Thread nD τ) ↦[arg6.view.set]{fullShare} f_arg6) ∗ (arg7.view.loc (c : Thread nD τ) ↦[arg7.view.set]{fullShare} f_arg7) ∗ (arg12.view.loc (c : Thread nD τ) ↦[arg12.view.set]{fullShare} f_arg12))

/-- ONE TRIP of `k0_t3_loop` at a symbolic `k`, run by `sl_exec` (its rectangles where the program's
   in-range evidence puts them, their places unread): the pieces it writes into arg6, arg7, arg12
   are the run's own finds — the witnesses `sl_close` assigns handing the buffers to the
   continuation, as functions of the contents the trip finds in the memrefs it writes (the region
   loads some of them back). `@[irreducible]`: cited, never unfolded. -/
@[irreducible] def trip_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (k : Fin k0_t3_loop.trips) :
    Σ' (L_arg6 : (BufTy.Contents (Elt F) arg6.view.ty → BufTy.Contents (Elt F) arg7.view.ty → BufTy.Contents (Elt F) arg12.view.ty → List (View.Piece (Elt F) S32x128x256 .bf16))) (L_arg7 : (BufTy.Contents (Elt F) arg6.view.ty → BufTy.Contents (Elt F) arg7.view.ty → BufTy.Contents (Elt F) arg12.view.ty → List (View.Piece (Elt F) S32x1x256 .f32))) , { L_arg12 : (BufTy.Contents (Elt F) arg6.view.ty → BufTy.Contents (Elt F) arg7.view.ty → BufTy.Contents (Elt F) arg12.view.ty → List (View.Piece (Elt F) S1024x256 .bf16)) // ∀ (E : Set ℕ) (f_arg6 : BufTy.Contents (Elt F) arg6.view.ty) (f_arg7 : BufTy.Contents (Elt F) arg7.view.ty) (f_arg12 : BufTy.Contents (Elt F) arg12.view.ty),
      Trip_k0_t3 (F := F) c arg10 arg15 arg6 arg7 arg12 X_arg10 X_arg15 f_arg6 f_arg7 f_arg12
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 k PUnit.unit)
          (fun _ => Trip_k0_t3 (F := F) c arg10 arg15 arg6 arg7 arg12 X_arg10 X_arg15 (arg6.view.writes (Elt F) f_arg6 (L_arg6 f_arg6 f_arg7 f_arg12)) (arg7.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t3_abs.2.1
  refine ⟨?_, ?_, ?_, fun E f_arg6 f_arg7 f_arg12 => ?run⟩
  case run =>
    unfold k0_t3_body
    iintro ⟨HR_arg10, HR_arg15, HW_arg6, HW_arg7, HW_arg12⟩
    sl_exec
    sl_step
    sl_close

/-- The trip's piece lists (plain projections of `trip_…`, for the recursion below to cite without
   its proof), at the contents the trip finds in the written memrefs. -/
abbrev tripL_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (k : Fin k0_t3_loop.trips) (f_arg6 : BufTy.Contents (Elt F) arg6.view.ty) (f_arg7 : BufTy.Contents (Elt F) arg7.view.ty) (f_arg12 : BufTy.Contents (Elt F) arg12.view.ty) : List (View.Piece (Elt F) S32x128x256 .bf16) × List (View.Piece (Elt F) S32x1x256 .f32) × List (View.Piece (Elt F) S1024x256 .bf16) :=
  ((trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k).1 f_arg6 f_arg7 f_arg12, (trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k).2.1 f_arg6 f_arg7 f_arg12, (trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k).2.2.1 f_arg6 f_arg7 f_arg12)

/-- Trip `k`'s contribution to the state the recursion `pb_k0_t3` below carries (`prev`): its pieces
   in front, per written memref; past the last trip, `prev` itself. -/
@[irreducible] def pb_k0_t3Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t3_loop.trips then
    ((tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 ⟨k, h⟩ (arg6.view.writes (Elt F) G_arg6 prev.1) (arg7.view.writes (Elt F) G_arg7 prev.2.1) (arg12.view.writes (Elt F) G_arg12 prev.2.2)).1 ++ prev.1, (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 ⟨k, h⟩ (arg6.view.writes (Elt F) G_arg6 prev.1) (arg7.view.writes (Elt F) G_arg7 prev.2.1) (arg12.view.writes (Elt F) G_arg12 prev.2.2)).2.1 ++ prev.2.1, (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 ⟨k, h⟩ (arg6.view.writes (Elt F) G_arg6 prev.1) (arg7.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pb_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pb_k0_t3Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k (pb_k0_t3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k)

theorem pb_k0_t3_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : Fin k0_t3_loop.trips) :
    pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 (k.val + 1)
      = ((tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k (arg6.view.writes (Elt F) G_arg6 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).1) (arg7.view.writes (Elt F) G_arg7 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.1) (arg12.view.writes (Elt F) G_arg12 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.2)).1 ++ (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).1, (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k (arg6.view.writes (Elt F) G_arg6 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).1) (arg7.view.writes (Elt F) G_arg7 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.1) (arg12.view.writes (Elt F) G_arg12 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.2)).2.1 ++ (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.1, (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k (arg6.view.writes (Elt F) G_arg6 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).1) (arg7.view.writes (Elt F) G_arg7 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.1) (arg12.view.writes (Elt F) G_arg12 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.2)).2.2 ++ (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.2) := by
  rw [pb_k0_t3.eq_2]; unfold pb_k0_t3Step; exact dif_pos k.isLt

/-- THE INVARIANT before trip `k`: arg10, arg15 read at `X_·`; arg6, arg7, arg12 holding the pieces
   of the trips before `k` written over the contents at loop entry `G_·` (stated `∃ f, … ∗ ⌜f = …⌝`,
   so that a hypothesis of any contents matches and the equation is what is proved). -/
abbrev inv_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, (arg6.view.loc (c : Thread nD τ) ↦[arg6.view.set]{fullShare} f) ∗ ⌜f = arg6.view.writes (Elt F) G_arg6 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k).1⌝) ∗ (∃ f, (arg7.view.loc (c : Thread nD τ) ↦[arg7.view.set]{fullShare} f) ∗ ⌜f = arg7.view.writes (Elt F) G_arg7 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k).2.1⌝) ∗ (∃ f, (arg12.view.loc (c : Thread nD τ) ↦[arg12.view.set]{fullShare} f) ∗ ⌜f = arg12.view.writes (Elt F) G_arg12 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k).2.2⌝))

set_option warn.classDefReducibility false in
/-- THE LOOP BY ITS INVARIANT — generated (`@[sl_loop]`: `sl_exec` finds it meeting `k0_t3_loop`,
   fixing `X_· G_·` against the context; after the loop each written memref holds `writes G (pb …
   trips)`). -/
@[sl_loop] def loopInv_k0_t3 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) :
    LoopInvTy_k0_t3 (F := F) Unit ℕ Cert.KernelIdeal.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 where
  inv := inv_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pb_k0_t3_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part28`'s counted loop `k0_t4_loop` (`scf.for %arg30 =
   %c0_i32_613 to %699 step %c1_i32_615 : i32 {`), trip `k0_t4`, carrying `Unit`, region
   `Gen.k0_t4_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off38 k0_t4); arg8 at
   (k0_off40 k0_t4). It LOADS through arg9 at (k0_off38 k0_t4); arg7 at (k0_off39 d0 k0_t4); arg8 at
   (k0_off40 k0_t4); arg6 at (k0_off41 d0 k0_t4). GENERATED below: `Gen.loopInv_k0_t4`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t4 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) :=
  Idealize.ShloMosaic.LoopInv (M := MT nD τ sig Ix (Elt F) Name U Lvl) Idealize.ShloMosaic.frame (wpE defs₀ 𝒱 (c : Thread nD τ) bd) E
    k0_t4_loop.lb k0_t4_loop.ub k0_t4_loop.st k0_t4_ok () (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14)

/-! ### `k0_t4_loop`: the generated invariant (classifier: affine) -/

/-- One trip's resources: what the region reads (arg6, arg7) at its contents, what it writes (arg8,
   arg9) at any. -/
abbrev Trip_k0_t4 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t4_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (k : Fin k0_t4_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t4 (F := F) c arg6 arg7 arg8 arg9 X_arg6 X_arg7 f_arg8 f_arg9
      ⊢ wp frame (wpE (defs₀ (F := F)) 𝒱 (c : Thread nD τ) bd) E (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 k PUnit.unit)
          (fun _ => Trip_k0_t4 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t4_abs.2.1
  refine ⟨?_, ?_, fun E f_arg8 f_arg9 => ?run⟩
  case run =>
    unfold k0_t4_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (k : Fin k0_t4_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 k).1 f_arg8 f_arg9, (trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 k).2.1 f_arg8 f_arg9)

/-- Trip `k`'s contribution to the state the recursion `pb_k0_t4` below carries (`prev`): its pieces
   in front, per written memref; past the last trip, `prev` itself. -/
@[irreducible] def pb_k0_t4Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t4_loop.trips then
    ((tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 ⟨k, h⟩ (arg8.view.writes (Elt F) G_arg8 prev.1) (arg9.view.writes (Elt F) G_arg9 prev.2)).1 ++ prev.1, (tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t4Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k (pb_k0_t4 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k)

theorem pb_k0_t4_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t4_loop.trips) :
    pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 (k.val + 1)
      = ((tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 k (arg8.view.writes (Elt F) G_arg8 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).1) (arg9.view.writes (Elt F) G_arg9 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).2)).1 ++ (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).1, (tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 k (arg8.view.writes (Elt F) G_arg8 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).1) (arg9.view.writes (Elt F) G_arg9 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).2)).2 ++ (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).2) := by
  rw [pb_k0_t4.eq_2]; unfold pb_k0_t4Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k).1⌝) ∗ (∃ f, (arg9.view.loc (c : Thread nD τ) ↦[arg9.view.set]{fullShare} f) ∗ ⌜f = arg9.view.writes (Elt F) G_arg9 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k).2⌝))

set_option warn.classDefReducibility false in
/-- THE LOOP BY ITS INVARIANT — generated (`@[sl_loop]`: `sl_exec` finds it meeting `k0_t4_loop`,
   fixing `X_· G_·` against the context; after the loop each written memref holds `writes G (pb …
   trips)`). -/
@[sl_loop] def loopInv_k0_t4 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t4 (F := F) Unit ℕ Cert.KernelIdeal.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 where
  inv := inv_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t4_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part30`'s counted loop `k0_t5_loop` (`scf.for %arg30 =
   %c0_i32_663 to %736 step %c1_i32_665 : i32 {`), trip `k0_t5`, carrying `Unit`, region
   `Gen.k0_t5_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off42 k0_t5); arg8 at
   (k0_off44 k0_t5). It LOADS through arg9 at (k0_off42 k0_t5); arg7 at (k0_off43 d0 k0_t5); arg8 at
   (k0_off44 k0_t5); arg6 at (k0_off45 d0 k0_t5). GENERATED below: `Gen.loopInv_k0_t5`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t5 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) :=
  Idealize.ShloMosaic.LoopInv (M := MT nD τ sig Ix (Elt F) Name U Lvl) Idealize.ShloMosaic.frame (wpE defs₀ 𝒱 (c : Thread nD τ) bd) E
    k0_t5_loop.lb k0_t5_loop.ub k0_t5_loop.st k0_t5_ok () (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664)

/-! ### `k0_t5_loop`: the generated invariant (classifier: affine) -/

/-- One trip's resources: what the region reads (arg6, arg7) at its contents, what it writes (arg8,
   arg9) at any. -/
abbrev Trip_k0_t5 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t5_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (k : Fin k0_t5_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t5 (F := F) c arg6 arg7 arg8 arg9 X_arg6 X_arg7 f_arg8 f_arg9
      ⊢ wp frame (wpE (defs₀ (F := F)) 𝒱 (c : Thread nD τ) bd) E (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 k PUnit.unit)
          (fun _ => Trip_k0_t5 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t5_abs.2.1
  refine ⟨?_, ?_, fun E f_arg8 f_arg9 => ?run⟩
  case run =>
    unfold k0_t5_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (k : Fin k0_t5_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 k).1 f_arg8 f_arg9, (trip_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 k).2.1 f_arg8 f_arg9)

/-- Trip `k`'s contribution to the state the recursion `pb_k0_t5` below carries (`prev`): its pieces
   in front, per written memref; past the last trip, `prev` itself. -/
@[irreducible] def pb_k0_t5Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t5_loop.trips then
    ((tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 ⟨k, h⟩ (arg8.view.writes (Elt F) G_arg8 prev.1) (arg9.view.writes (Elt F) G_arg9 prev.2)).1 ++ prev.1, (tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t5Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k (pb_k0_t5 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k)

theorem pb_k0_t5_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t5_loop.trips) :
    pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 (k.val + 1)
      = ((tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 k (arg8.view.writes (Elt F) G_arg8 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).1) (arg9.view.writes (Elt F) G_arg9 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).2)).1 ++ (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).1, (tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 k (arg8.view.writes (Elt F) G_arg8 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).1) (arg9.view.writes (Elt F) G_arg9 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).2)).2 ++ (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).2) := by
  rw [pb_k0_t5.eq_2]; unfold pb_k0_t5Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k).1⌝) ∗ (∃ f, (arg9.view.loc (c : Thread nD τ) ↦[arg9.view.set]{fullShare} f) ∗ ⌜f = arg9.view.writes (Elt F) G_arg9 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k).2⌝))

set_option warn.classDefReducibility false in
/-- THE LOOP BY ITS INVARIANT — generated (`@[sl_loop]`: `sl_exec` finds it meeting `k0_t5_loop`,
   fixing `X_· G_·` against the context; after the loop each written memref holds `writes G (pb …
   trips)`). -/
@[sl_loop] def loopInv_k0_t5 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t5 (F := F) Unit ℕ Cert.KernelIdeal.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 where
  inv := inv_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t5_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part36`'s counted loop `k0_t6_loop` (`scf.for %arg30 =
   %c0_i32_832 to %940 step %c1_i32_834 : i32 {`), trip `k0_t6`, carrying `Unit`, region
   `Gen.k0_t6_body`. Classifier: LISTED — every store at a `Rect.unit` through a memref parameter of
   the region, nothing carried, no transfer or conditional inside: the invariant is the pieces of
   the trips before `k`; not affine (a store whose offsets chain `k0_off49` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part4`. Per trip it STORES
   through arg12 at ![0, 0]; arg6 at (k0_off49 d0 k0_t6) (NO closed form stated); arg7 at (k0_off50
   d0 k0_t6) (NO closed form stated). It LOADS through arg10 at (k0_off46 d0 k0_t6); arg15 at
   (k0_off47 d0 k0_t6); arg15 at (k0_off48 d0 k0_t6); arg12 at ![0, 0]; arg6 at (k0_off49 d0 k0_t6);
   arg7 at (k0_off50 d0 k0_t6). GENERATED below: `Gen.loopInv_k0_t6` (`@[sl_loop]`), at the frame
   kit's algebra — a run at that algebra (the generated frame's, or a hand proof's over `MT nD τ sig
   Unit (Elt F) ℕ Cert.KernelIdeal.Proto.UU ℕ`) goes through the loop with nothing more to state; a proof at
   another algebra instances the class itself, after this one. -/
abbrev LoopInvTy_k0_t6 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) :=
  Idealize.ShloMosaic.LoopInv (M := MT nD τ sig Ix (Elt F) Name U Lvl) Idealize.ShloMosaic.frame (wpE defs₀ 𝒱 (c : Thread nD τ) bd) E
    k0_t6_loop.lb k0_t6_loop.ub k0_t6_loop.st k0_t6_ok () (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917)

/-! ### `k0_t6_loop`: the generated invariant (classifier: listed) -/

/-- One trip's resources: what the region reads (arg10, arg15) at its contents, what it writes
   (arg6, arg7, arg12) at any. -/
abbrev Trip_k0_t6 (c : Dev nD) (arg10 : Memref sig .tc .vmem S32x256x128 .bf16) (arg15 : Memref sig .tc .vmem S2x8x1024x128 .bf16) (arg6 : Memref sig .tc .vmem S32x128x256 .bf16) (arg7 : Memref sig .tc .vmem S32x1x256 .f32) (arg12 : Memref sig .tc .vmem S1024x256 .bf16) (X_arg10 : BufTy.Contents (Elt F) arg10.view.ty) (X_arg15 : BufTy.Contents (Elt F) arg15.view.ty) (f_arg6 : BufTy.Contents (Elt F) arg6.view.ty) (f_arg7 : BufTy.Contents (Elt F) arg7.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ (arg6.view.loc (c : Thread nD τ) ↦[arg6.view.set]{fullShare} f_arg6) ∗ (arg7.view.loc (c : Thread nD τ) ↦[arg7.view.set]{fullShare} f_arg7) ∗ (arg12.view.loc (c : Thread nD τ) ↦[arg12.view.set]{fullShare} f_arg12))

/-- ONE TRIP of `k0_t6_loop` at a symbolic `k`, run by `sl_exec` (its rectangles where the program's
   in-range evidence puts them, their places unread): the pieces it writes into arg6, arg7, arg12
   are the run's own finds — the witnesses `sl_close` assigns handing the buffers to the
   continuation, as functions of the contents the trip finds in the memrefs it writes (the region
   loads some of them back). `@[irreducible]`: cited, never unfolded. -/
@[irreducible] def trip_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (k : Fin k0_t6_loop.trips) :
    Σ' (L_arg6 : (BufTy.Contents (Elt F) arg6.view.ty → BufTy.Contents (Elt F) arg7.view.ty → BufTy.Contents (Elt F) arg12.view.ty → List (View.Piece (Elt F) S32x128x256 .bf16))) (L_arg7 : (BufTy.Contents (Elt F) arg6.view.ty → BufTy.Contents (Elt F) arg7.view.ty → BufTy.Contents (Elt F) arg12.view.ty → List (View.Piece (Elt F) S32x1x256 .f32))) , { L_arg12 : (BufTy.Contents (Elt F) arg6.view.ty → BufTy.Contents (Elt F) arg7.view.ty → BufTy.Contents (Elt F) arg12.view.ty → List (View.Piece (Elt F) S1024x256 .bf16)) // ∀ (E : Set ℕ) (f_arg6 : BufTy.Contents (Elt F) arg6.view.ty) (f_arg7 : BufTy.Contents (Elt F) arg7.view.ty) (f_arg12 : BufTy.Contents (Elt F) arg12.view.ty),
      Trip_k0_t6 (F := F) c arg10 arg15 arg6 arg7 arg12 X_arg10 X_arg15 f_arg6 f_arg7 f_arg12
      ⊢ wp frame (wpE (defs₀ (F := F)) 𝒱 (c : Thread nD τ) bd) E (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 k PUnit.unit)
          (fun _ => Trip_k0_t6 (F := F) c arg10 arg15 arg6 arg7 arg12 X_arg10 X_arg15 (arg6.view.writes (Elt F) f_arg6 (L_arg6 f_arg6 f_arg7 f_arg12)) (arg7.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t6_abs.2.1
  refine ⟨?_, ?_, ?_, fun E f_arg6 f_arg7 f_arg12 => ?run⟩
  case run =>
    unfold k0_t6_body
    iintro ⟨HR_arg10, HR_arg15, HW_arg6, HW_arg7, HW_arg12⟩
    sl_exec
    sl_step
    sl_close

/-- The trip's piece lists (plain projections of `trip_…`, for the recursion below to cite without
   its proof), at the contents the trip finds in the written memrefs. -/
abbrev tripL_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (k : Fin k0_t6_loop.trips) (f_arg6 : BufTy.Contents (Elt F) arg6.view.ty) (f_arg7 : BufTy.Contents (Elt F) arg7.view.ty) (f_arg12 : BufTy.Contents (Elt F) arg12.view.ty) : List (View.Piece (Elt F) S32x128x256 .bf16) × List (View.Piece (Elt F) S32x1x256 .f32) × List (View.Piece (Elt F) S1024x256 .bf16) :=
  ((trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k).1 f_arg6 f_arg7 f_arg12, (trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k).2.1 f_arg6 f_arg7 f_arg12, (trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k).2.2.1 f_arg6 f_arg7 f_arg12)

/-- Trip `k`'s contribution to the state the recursion `pb_k0_t6` below carries (`prev`): its pieces
   in front, per written memref; past the last trip, `prev` itself. -/
@[irreducible] def pb_k0_t6Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t6_loop.trips then
    ((tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 ⟨k, h⟩ (arg6.view.writes (Elt F) G_arg6 prev.1) (arg7.view.writes (Elt F) G_arg7 prev.2.1) (arg12.view.writes (Elt F) G_arg12 prev.2.2)).1 ++ prev.1, (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 ⟨k, h⟩ (arg6.view.writes (Elt F) G_arg6 prev.1) (arg7.view.writes (Elt F) G_arg7 prev.2.1) (arg12.view.writes (Elt F) G_arg12 prev.2.2)).2.1 ++ prev.2.1, (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 ⟨k, h⟩ (arg6.view.writes (Elt F) G_arg6 prev.1) (arg7.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pb_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pb_k0_t6Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k (pb_k0_t6 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k)

theorem pb_k0_t6_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : Fin k0_t6_loop.trips) :
    pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 (k.val + 1)
      = ((tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k (arg6.view.writes (Elt F) G_arg6 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).1) (arg7.view.writes (Elt F) G_arg7 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.1) (arg12.view.writes (Elt F) G_arg12 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.2)).1 ++ (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).1, (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k (arg6.view.writes (Elt F) G_arg6 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).1) (arg7.view.writes (Elt F) G_arg7 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.1) (arg12.view.writes (Elt F) G_arg12 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.2)).2.1 ++ (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.1, (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k (arg6.view.writes (Elt F) G_arg6 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).1) (arg7.view.writes (Elt F) G_arg7 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.1) (arg12.view.writes (Elt F) G_arg12 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.2)).2.2 ++ (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.2) := by
  rw [pb_k0_t6.eq_2]; unfold pb_k0_t6Step; exact dif_pos k.isLt

/-- THE INVARIANT before trip `k`: arg10, arg15 read at `X_·`; arg6, arg7, arg12 holding the pieces
   of the trips before `k` written over the contents at loop entry `G_·` (stated `∃ f, … ∗ ⌜f = …⌝`,
   so that a hypothesis of any contents matches and the equation is what is proved). -/
abbrev inv_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, (arg6.view.loc (c : Thread nD τ) ↦[arg6.view.set]{fullShare} f) ∗ ⌜f = arg6.view.writes (Elt F) G_arg6 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k).1⌝) ∗ (∃ f, (arg7.view.loc (c : Thread nD τ) ↦[arg7.view.set]{fullShare} f) ∗ ⌜f = arg7.view.writes (Elt F) G_arg7 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k).2.1⌝) ∗ (∃ f, (arg12.view.loc (c : Thread nD τ) ↦[arg12.view.set]{fullShare} f) ∗ ⌜f = arg12.view.writes (Elt F) G_arg12 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k).2.2⌝))

set_option warn.classDefReducibility false in
/-- THE LOOP BY ITS INVARIANT — generated (`@[sl_loop]`: `sl_exec` finds it meeting `k0_t6_loop`,
   fixing `X_· G_·` against the context; after the loop each written memref holds `writes G (pb …
   trips)`). -/
@[sl_loop] def loopInv_k0_t6 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) :
    LoopInvTy_k0_t6 (F := F) Unit ℕ Cert.KernelIdeal.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 where
  inv := inv_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pb_k0_t6_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part38`'s counted loop `k0_t7_loop` (`scf.for %arg30 =
   %c0_i32_891 to %982 step %c1_i32_893 : i32 {`), trip `k0_t7`, carrying `Unit`, region
   `Gen.k0_t7_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off51 k0_t7); arg8 at
   (k0_off53 k0_t7). It LOADS through arg9 at (k0_off51 k0_t7); arg7 at (k0_off52 d0 k0_t7); arg8 at
   (k0_off53 k0_t7); arg6 at (k0_off54 d0 k0_t7). GENERATED below: `Gen.loopInv_k0_t7`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t7 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) :=
  Idealize.ShloMosaic.LoopInv (M := MT nD τ sig Ix (Elt F) Name U Lvl) Idealize.ShloMosaic.frame (wpE defs₀ 𝒱 (c : Thread nD τ) bd) E
    k0_t7_loop.lb k0_t7_loop.ub k0_t7_loop.st k0_t7_ok () (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970)

/-! ### `k0_t7_loop`: the generated invariant (classifier: affine) -/

/-- One trip's resources: what the region reads (arg6, arg7) at its contents, what it writes (arg8,
   arg9) at any. -/
abbrev Trip_k0_t7 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t7_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (k : Fin k0_t7_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t7 (F := F) c arg6 arg7 arg8 arg9 X_arg6 X_arg7 f_arg8 f_arg9
      ⊢ wp frame (wpE (defs₀ (F := F)) 𝒱 (c : Thread nD τ) bd) E (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 k PUnit.unit)
          (fun _ => Trip_k0_t7 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t7_abs.2.1
  refine ⟨?_, ?_, fun E f_arg8 f_arg9 => ?run⟩
  case run =>
    unfold k0_t7_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (k : Fin k0_t7_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 k).1 f_arg8 f_arg9, (trip_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 k).2.1 f_arg8 f_arg9)

/-- Trip `k`'s contribution to the state the recursion `pb_k0_t7` below carries (`prev`): its pieces
   in front, per written memref; past the last trip, `prev` itself. -/
@[irreducible] def pb_k0_t7Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t7_loop.trips then
    ((tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 ⟨k, h⟩ (arg8.view.writes (Elt F) G_arg8 prev.1) (arg9.view.writes (Elt F) G_arg9 prev.2)).1 ++ prev.1, (tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t7Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k (pb_k0_t7 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k)

theorem pb_k0_t7_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t7_loop.trips) :
    pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 (k.val + 1)
      = ((tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 k (arg8.view.writes (Elt F) G_arg8 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).1) (arg9.view.writes (Elt F) G_arg9 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).2)).1 ++ (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).1, (tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 k (arg8.view.writes (Elt F) G_arg8 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).1) (arg9.view.writes (Elt F) G_arg9 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).2)).2 ++ (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).2) := by
  rw [pb_k0_t7.eq_2]; unfold pb_k0_t7Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k).1⌝) ∗ (∃ f, (arg9.view.loc (c : Thread nD τ) ↦[arg9.view.set]{fullShare} f) ∗ ⌜f = arg9.view.writes (Elt F) G_arg9 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k).2⌝))

set_option warn.classDefReducibility false in
/-- THE LOOP BY ITS INVARIANT — generated (`@[sl_loop]`: `sl_exec` finds it meeting `k0_t7_loop`,
   fixing `X_· G_·` against the context; after the loop each written memref holds `writes G (pb …
   trips)`). -/
@[sl_loop] def loopInv_k0_t7 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t7 (F := F) Unit ℕ Cert.KernelIdeal.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 where
  inv := inv_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t7_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part40`'s counted loop `k0_t8_loop` (`scf.for %arg30 =
   %c0_i32_949 to %1023 step %c1_i32_951 : i32 {`), trip `k0_t8`, carrying `Unit`, region
   `Gen.k0_t8_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off55 k0_t8); arg8 at
   (k0_off57 k0_t8). It LOADS through arg9 at (k0_off55 k0_t8); arg7 at (k0_off56 d0 k0_t8); arg8 at
   (k0_off57 k0_t8); arg6 at (k0_off58 d0 k0_t8). GENERATED below: `Gen.loopInv_k0_t8`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t8 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) :=
  Idealize.ShloMosaic.LoopInv (M := MT nD τ sig Ix (Elt F) Name U Lvl) Idealize.ShloMosaic.frame (wpE defs₀ 𝒱 (c : Thread nD τ) bd) E
    k0_t8_loop.lb k0_t8_loop.ub k0_t8_loop.st k0_t8_ok () (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020)

/-! ### `k0_t8_loop`: the generated invariant (classifier: affine) -/

/-- One trip's resources: what the region reads (arg6, arg7) at its contents, what it writes (arg8,
   arg9) at any. -/
abbrev Trip_k0_t8 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t8_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (k : Fin k0_t8_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t8 (F := F) c arg6 arg7 arg8 arg9 X_arg6 X_arg7 f_arg8 f_arg9
      ⊢ wp frame (wpE (defs₀ (F := F)) 𝒱 (c : Thread nD τ) bd) E (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 k PUnit.unit)
          (fun _ => Trip_k0_t8 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t8_abs.2.1
  refine ⟨?_, ?_, fun E f_arg8 f_arg9 => ?run⟩
  case run =>
    unfold k0_t8_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (k : Fin k0_t8_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 k).1 f_arg8 f_arg9, (trip_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 k).2.1 f_arg8 f_arg9)

/-- Trip `k`'s contribution to the state the recursion `pb_k0_t8` below carries (`prev`): its pieces
   in front, per written memref; past the last trip, `prev` itself. -/
@[irreducible] def pb_k0_t8Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t8_loop.trips then
    ((tripL_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 ⟨k, h⟩ (arg8.view.writes (Elt F) G_arg8 prev.1) (arg9.view.writes (Elt F) G_arg9 prev.2)).1 ++ prev.1, (tripL_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t8Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k (pb_k0_t8 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k)

theorem pb_k0_t8_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t8_loop.trips) :
    pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 (k.val + 1)
      = ((tripL_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 k (arg8.view.writes (Elt F) G_arg8 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).1) (arg9.view.writes (Elt F) G_arg9 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).2)).1 ++ (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).1, (tripL_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 k (arg8.view.writes (Elt F) G_arg8 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).1) (arg9.view.writes (Elt F) G_arg9 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).2)).2 ++ (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).2) := by
  rw [pb_k0_t8.eq_2]; unfold pb_k0_t8Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k).1⌝) ∗ (∃ f, (arg9.view.loc (c : Thread nD τ) ↦[arg9.view.set]{fullShare} f) ∗ ⌜f = arg9.view.writes (Elt F) G_arg9 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k).2⌝))

set_option warn.classDefReducibility false in
/-- THE LOOP BY ITS INVARIANT — generated (`@[sl_loop]`: `sl_exec` finds it meeting `k0_t8_loop`,
   fixing `X_· G_·` against the context; after the loop each written memref holds `writes G (pb …
   trips)`). -/
@[sl_loop] def loopInv_k0_t8 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t8 (F := F) Unit ℕ Cert.KernelIdeal.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 where
  inv := inv_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t8_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part43`'s counted loop `k0_t9_loop` (`scf.for %arg30 =
   %c0_i32_1056 to %1105 step %c1_i32_1058 : i32 {`), trip `k0_t9`, carrying `Unit`, region
   `Gen.k0_t9_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off59 k0_t9); arg8 at
   (k0_off61 k0_t9). It LOADS through arg9 at (k0_off59 k0_t9); arg7 at (k0_off60 d0 k0_t9); arg8 at
   (k0_off61 k0_t9); arg6 at (k0_off62 d0 k0_t9). GENERATED below: `Gen.loopInv_k0_t9`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t9 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) :=
  Idealize.ShloMosaic.LoopInv (M := MT nD τ sig Ix (Elt F) Name U Lvl) Idealize.ShloMosaic.frame (wpE defs₀ 𝒱 (c : Thread nD τ) bd) E
    k0_t9_loop.lb k0_t9_loop.ub k0_t9_loop.st k0_t9_ok () (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092)

/-! ### `k0_t9_loop`: the generated invariant (classifier: affine) -/

/-- One trip's resources: what the region reads (arg6, arg7) at its contents, what it writes (arg8,
   arg9) at any. -/
abbrev Trip_k0_t9 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t9_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (k : Fin k0_t9_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t9 (F := F) c arg6 arg7 arg8 arg9 X_arg6 X_arg7 f_arg8 f_arg9
      ⊢ wp frame (wpE (defs₀ (F := F)) 𝒱 (c : Thread nD τ) bd) E (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 k PUnit.unit)
          (fun _ => Trip_k0_t9 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t9_abs.2.1
  refine ⟨?_, ?_, fun E f_arg8 f_arg9 => ?run⟩
  case run =>
    unfold k0_t9_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (k : Fin k0_t9_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 k).1 f_arg8 f_arg9, (trip_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 k).2.1 f_arg8 f_arg9)

/-- Trip `k`'s contribution to the state the recursion `pb_k0_t9` below carries (`prev`): its pieces
   in front, per written memref; past the last trip, `prev` itself. -/
@[irreducible] def pb_k0_t9Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t9_loop.trips then
    ((tripL_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 ⟨k, h⟩ (arg8.view.writes (Elt F) G_arg8 prev.1) (arg9.view.writes (Elt F) G_arg9 prev.2)).1 ++ prev.1, (tripL_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t9Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k (pb_k0_t9 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k)

theorem pb_k0_t9_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t9_loop.trips) :
    pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 (k.val + 1)
      = ((tripL_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 k (arg8.view.writes (Elt F) G_arg8 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).1) (arg9.view.writes (Elt F) G_arg9 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).2)).1 ++ (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).1, (tripL_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 k (arg8.view.writes (Elt F) G_arg8 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).1) (arg9.view.writes (Elt F) G_arg9 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).2)).2 ++ (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).2) := by
  rw [pb_k0_t9.eq_2]; unfold pb_k0_t9Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k).1⌝) ∗ (∃ f, (arg9.view.loc (c : Thread nD τ) ↦[arg9.view.set]{fullShare} f) ∗ ⌜f = arg9.view.writes (Elt F) G_arg9 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k).2⌝))

set_option warn.classDefReducibility false in
/-- THE LOOP BY ITS INVARIANT — generated (`@[sl_loop]`: `sl_exec` finds it meeting `k0_t9_loop`,
   fixing `X_· G_·` against the context; after the loop each written memref holds `writes G (pb …
   trips)`). -/
@[sl_loop] def loopInv_k0_t9 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t9 (F := F) Unit ℕ Cert.KernelIdeal.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 where
  inv := inv_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t9_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part45`'s counted loop `k0_t10_loop` (`scf.for %arg30 =
   %c0_i32_1114 to %1146 step %c1_i32_1116 : i32 {`), trip `k0_t10`, carrying `Unit`, region
   `Gen.k0_t10_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off63 k0_t10); arg8 at
   (k0_off65 k0_t10). It LOADS through arg9 at (k0_off63 k0_t10); arg7 at (k0_off64 d0 k0_t10); arg8
   at (k0_off65 k0_t10); arg6 at (k0_off66 d0 k0_t10). GENERATED below: `Gen.loopInv_k0_t10`
   (`@[sl_loop]`), at the frame kit's algebra — a run at that algebra (the generated frame's, or a
   hand proof's over `MT nD τ sig Unit (Elt F) ℕ Cert.KernelIdeal.Proto.UU ℕ`) goes through the loop with
   nothing more to state; a proof at another algebra instances the class itself, after this one. -/
abbrev LoopInvTy_k0_t10 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) :=
  Idealize.ShloMosaic.LoopInv (M := MT nD τ sig Ix (Elt F) Name U Lvl) Idealize.ShloMosaic.frame (wpE defs₀ 𝒱 (c : Thread nD τ) bd) E
    k0_t10_loop.lb k0_t10_loop.ub k0_t10_loop.st k0_t10_ok () (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141)

/-! ### `k0_t10_loop`: the generated invariant (classifier: affine) -/

/-- One trip's resources: what the region reads (arg6, arg7) at its contents, what it writes (arg8,
   arg9) at any. -/
abbrev Trip_k0_t10 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t10_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (k : Fin k0_t10_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t10 (F := F) c arg6 arg7 arg8 arg9 X_arg6 X_arg7 f_arg8 f_arg9
      ⊢ wp frame (wpE (defs₀ (F := F)) 𝒱 (c : Thread nD τ) bd) E (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 k PUnit.unit)
          (fun _ => Trip_k0_t10 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t10_abs.2.1
  refine ⟨?_, ?_, fun E f_arg8 f_arg9 => ?run⟩
  case run =>
    unfold k0_t10_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (k : Fin k0_t10_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 k).1 f_arg8 f_arg9, (trip_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 k).2.1 f_arg8 f_arg9)

/-- Trip `k`'s contribution to the state the recursion `pb_k0_t10` below carries (`prev`): its
   pieces in front, per written memref; past the last trip, `prev` itself. -/
@[irreducible] def pb_k0_t10Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t10_loop.trips then
    ((tripL_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 ⟨k, h⟩ (arg8.view.writes (Elt F) G_arg8 prev.1) (arg9.view.writes (Elt F) G_arg9 prev.2)).1 ++ prev.1, (tripL_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t10Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k (pb_k0_t10 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k)

theorem pb_k0_t10_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t10_loop.trips) :
    pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 (k.val + 1)
      = ((tripL_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 k (arg8.view.writes (Elt F) G_arg8 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).1) (arg9.view.writes (Elt F) G_arg9 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).2)).1 ++ (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).1, (tripL_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 k (arg8.view.writes (Elt F) G_arg8 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).1) (arg9.view.writes (Elt F) G_arg9 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).2)).2 ++ (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).2) := by
  rw [pb_k0_t10.eq_2]; unfold pb_k0_t10Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k).1⌝) ∗ (∃ f, (arg9.view.loc (c : Thread nD τ) ↦[arg9.view.set]{fullShare} f) ∗ ⌜f = arg9.view.writes (Elt F) G_arg9 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k).2⌝))

set_option warn.classDefReducibility false in
/-- THE LOOP BY ITS INVARIANT — generated (`@[sl_loop]`: `sl_exec` finds it meeting `k0_t10_loop`,
   fixing `X_· G_·` against the context; after the loop each written memref holds `writes G (pb …
   trips)`). -/
@[sl_loop] def loopInv_k0_t10 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t10 (F := F) Unit ℕ Cert.KernelIdeal.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 where
  inv := inv_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t10_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

end Cert.KernelIdeal.LoopsUU

end
-- ==== Proof.ProjRows.lean ====
/-
  The projected queries and the narrowed key and value planes of a batch, read back from the buffers they are stored into.

  Before a batch's flash steps the body stores the eight head slices of the batch's projected, scaled and narrowed queries
  into eight consecutive rows of the query buffer, and the narrowed copies of the batch's two key planes and two value
  planes into four planes of the narrowed key/value buffer. The rows, and the planes, are pairwise apart, so each reads
  what was stored into it, whatever the buffers held before. The stored tiles are the same functions of the batch's tile
  of `x` and of the narrowed weights in each of the four batches, under names that differ from batch to batch.
-/
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.Bridge
import proofs.«900754_g7700000000000755_dist_attn_cross_gqa_kvseq_b4_sq256_skv1024_d1024_hq8_dh128_v7x_i4_f32_1_alg».proof.Proof.Ring
import Idealize.ShloMosaic.Lib.WritesUnit

set_option maxRecDepth 16384

noncomputable section

namespace Cert.KernelIdeal.Proto.Rows

open Cert.KernelIdeal Cert.KernelIdeal.Gen Cert.KernelIdeal.Ring Cert.KernelIdeal.Proto
open Idealize.ShloMosaic Idealize.ShloMosaic.TcCoe Idealize.ShloMosaic.ValueIdx
open Idealize.SL.Sem

variable {F : FTy → Type} [FloatOps F]

section Q2
variable (c : Dev nD)

set_option maxHeartbeats 4000000 in
/-- Eight one-row tiles written at rows `r … r + 7` of the query buffer, the last written in front: row `r + h` of the
    written contents reads tile `h`, whatever the buffer held before. -/
theorem q2_rows_read (r : ℕ) (hr : r + 8 ≤ 32)
    (o0 o1 o2 o3 o4 o5 o6 o7 : Fin 3 → ℕ)
    (i0 : ∀ a, o0 a + S1x256x128.size a ≤ S32x256x128.size a) (i1 : ∀ a, o1 a + S1x256x128.size a ≤ S32x256x128.size a) (i2 : ∀ a, o2 a + S1x256x128.size a ≤ S32x256x128.size a) (i3 : ∀ a, o3 a + S1x256x128.size a ≤ S32x256x128.size a) (i4 : ∀ a, o4 a + S1x256x128.size a ≤ S32x256x128.size a) (i5 : ∀ a, o5 a + S1x256x128.size a ≤ S32x256x128.size a) (i6 : ∀ a, o6 a + S1x256x128.size a ≤ S32x256x128.size a) (i7 : ∀ a, o7 a + S1x256x128.size a ≤ S32x256x128.size a)
    (e0 : o0 = ![r + 0, 0, 0]) (e1 : o1 = ![r + 1, 0, 0]) (e2 : o2 = ![r + 2, 0, 0]) (e3 : o3 = ![r + 3, 0, 0]) (e4 : o4 = ![r + 4, 0, 0]) (e5 : o5 = ![r + 5, 0, 0]) (e6 : o6 = ![r + 6, 0, 0]) (e7 : o7 = ![r + 7, 0, 0])
    (f4 : Buf (Elt F) ((c : Thread nD τ).loc cc0_scratch4))
    (P0 P1 P2 P3 P4 P5 P6 P7 : S1x256x128.Idx → Elt F .bf16) (i : Fin 256) (d : Fin 128) :
    ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 0, by omega⟩ : Fin 32) i d) = P0 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 1, by omega⟩ : Fin 32) i d) = P1 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 2, by omega⟩ : Fin 32) i d) = P2 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 3, by omega⟩ : Fin 32) i d) = P3 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 4, by omega⟩ : Fin 32) i d) = P4 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 5, by omega⟩ : Fin 32) i d) = P5 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 6, by omega⟩ : Fin 32) i d) = P6 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 7, by omega⟩ : Fin 32) i d) = P7 (ix3 0 i d) := by
  refine ⟨?_, ?_, ?_, ?_, ?_, ?_, ?_, ?_⟩
  · refine Eq.trans (congrFun (View.read_whole (Val := Elt F) cc0_scratch4 _).symm (ix3 (⟨r + 0, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 0 < r + 7; omega))]
    rw [View.read_writes_cons_unit_of_not_mem _ _ i6 _ _ _ e6 0 (Or.inl (by show r + 0 < r + 6; omega))]
    rw [View.read_writes_cons_unit_of_not_mem _ _ i5 _ _ _ e5 0 (Or.inl (by show r + 0 < r + 5; omega))]
    rw [View.read_writes_cons_unit_of_not_mem _ _ i4 _ _ _ e4 0 (Or.inl (by show r + 0 < r + 4; omega))]
    rw [View.read_writes_cons_unit_of_not_mem _ _ i3 _ _ _ e3 0 (Or.inl (by show r + 0 < r + 3; omega))]
    rw [View.read_writes_cons_unit_of_not_mem _ _ i2 _ _ _ e2 0 (Or.inl (by show r + 0 < r + 2; omega))]
    rw [View.read_writes_cons_unit_of_not_mem _ _ i1 _ _ _ e1 0 (Or.inl (by show r + 0 < r + 1; omega))]
    exact View.read_writes_cons_unit_of_mem (s := S32x256x128) (Memref.whole cc0_scratch4 : Memref sig .tc .vmem S32x256x128 .bf16).view f4 i0 P0 _ (ix3 (⟨r + 0, by omega⟩ : Fin 32) i d) (ix3 0 i d) e0 (fun a => by
      match a with
      | ⟨0, _⟩ => show r + 0 = r + 0 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 1, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 1 < r + 7; omega))]
    rw [View.read_writes_cons_unit_of_not_mem _ _ i6 _ _ _ e6 0 (Or.inl (by show r + 1 < r + 6; omega))]
    rw [View.read_writes_cons_unit_of_not_mem _ _ i5 _ _ _ e5 0 (Or.inl (by show r + 1 < r + 5; omega))]
    rw [View.read_writes_cons_unit_of_not_mem _ _ i4 _ _ _ e4 0 (Or.inl (by show r + 1 < r + 4; omega))]
    rw [View.read_writes_cons_unit_of_not_mem _ _ i3 _ _ _ e3 0 (Or.inl (by show r + 1 < r + 3; omega))]
    rw [View.read_writes_cons_unit_of_not_mem _ _ i2 _ _ _ e2 0 (Or.inl (by show r + 1 < r + 2; omega))]
    exact View.read_writes_cons_unit_of_mem (s := S32x256x128) (Memref.whole cc0_scratch4 : Memref sig .tc .vmem S32x256x128 .bf16).view f4 i1 P1 _ (ix3 (⟨r + 1, by omega⟩ : Fin 32) i d) (ix3 0 i d) e1 (fun a => by
      match a with
      | ⟨0, _⟩ => show r + 1 = r + 1 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 2, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 2 < r + 7; omega))]
    rw [View.read_writes_cons_unit_of_not_mem _ _ i6 _ _ _ e6 0 (Or.inl (by show r + 2 < r + 6; omega))]
    rw [View.read_writes_cons_unit_of_not_mem _ _ i5 _ _ _ e5 0 (Or.inl (by show r + 2 < r + 5; omega))]
    rw [View.read_writes_cons_unit_of_not_mem _ _ i4 _ _ _ e4 0 (Or.inl (by show r + 2 < r + 4; omega))]
    rw [View.read_writes_cons_unit_of_not_mem _ _ i3 _ _ _ e3 0 (Or.inl (by show r + 2 < r + 3; omega))]
    exact View.read_writes_cons_unit_of_mem (s := S32x256x128) (Memref.whole cc0_scratch4 : Memref sig .tc .vmem S32x256x128 .bf16).view f4 i2 P2 _ (ix3 (⟨r + 2, by omega⟩ : Fin 32) i d) (ix3 0 i d) e2 (fun a => by
      match a with
      | ⟨0, _⟩ => show r + 2 = r + 2 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 3, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 3 < r + 7; omega))]
    rw [View.read_writes_cons_unit_of_not_mem _ _ i6 _ _ _ e6 0 (Or.inl (by show r + 3 < r + 6; omega))]
    rw [View.read_writes_cons_unit_of_not_mem _ _ i5 _ _ _ e5 0 (Or.inl (by show r + 3 < r + 5; omega))]
    rw [View.read_writes_cons_unit_of_not_mem _ _ i4 _ _ _ e4 0 (Or.inl (by show r + 3 < r + 4; omega))]
    exact View.read_writes_cons_unit_of_mem (s := S32x256x128) (Memref.whole cc0_scratch4 : Memref sig .tc .vmem S32x256x128 .bf16).view f4 i3 P3 _ (ix3 (⟨r + 3, by omega⟩ : Fin 32) i d) (ix3 0 i d) e3 (fun a => by
      match a with
      | ⟨0, _⟩ => show r + 3 = r + 3 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 4, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 4 < r + 7; omega))]
    rw [View.read_writes_cons_unit_of_not_mem _ _ i6 _ _ _ e6 0 (Or.inl (by show r + 4 < r + 6; omega))]
    rw [View.read_writes_cons_unit_of_not_mem _ _ i5 _ _ _ e5 0 (Or.inl (by show r + 4 < r + 5; omega))]
    exact View.read_writes_cons_unit_of_mem (s := S32x256x128) (Memref.whole cc0_scratch4 : Memref sig .tc .vmem S32x256x128 .bf16).view f4 i4 P4 _ (ix3 (⟨r + 4, by omega⟩ : Fin 32) i d) (ix3 0 i d) e4 (fun a => by
      match a with
      | ⟨0, _⟩ => show r + 4 = r + 4 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 5, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 5 < r + 7; omega))]
    rw [View.read_writes_cons_unit_of_not_mem _ _ i6 _ _ _ e6 0 (Or.inl (by show r + 5 < r + 6; omega))]
    exact View.read_writes_cons_unit_of_mem (s := S32x256x128) (Memref.whole cc0_scratch4 : Memref sig .tc .vmem S32x256x128 .bf16).view f4 i5 P5 _ (ix3 (⟨r + 5, by omega⟩ : Fin 32) i d) (ix3 0 i d) e5 (fun a => by
      match a with
      | ⟨0, _⟩ => show r + 5 = r + 5 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 6, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 6 < r + 7; omega))]
    exact View.read_writes_cons_unit_of_mem (s := S32x256x128) (Memref.whole cc0_scratch4 : Memref sig .tc .vmem S32x256x128 .bf16).view f4 i6 P6 _ (ix3 (⟨r + 6, by omega⟩ : Fin 32) i d) (ix3 0 i d) e6 (fun a => by
      match a with
      | ⟨0, _⟩ => show r + 6 = r + 6 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 7, by omega⟩ : Fin 32) i d)) ?_
    show (Memref.whole cc0_scratch4 : Memref sig .tc .vmem S32x256x128 .bf16).view.read (Elt F) _ _ = _

    exact View.read_writes_cons_unit_of_mem (s := S32x256x128) (Memref.whole cc0_scratch4 : Memref sig .tc .vmem S32x256x128 .bf16).view f4 i7 P7 _ (ix3 (⟨r + 7, by omega⟩ : Fin 32) i d) (ix3 0 i d) e7 (fun a => by
      match a with
      | ⟨0, _⟩ => show r + 7 = r + 7 + 0; omega
      | ⟨1, _⟩ => show i.val = 0 + i.val; omega
      | ⟨2, _⟩ => show d.val = 0 + d.val; omega)

end Q2

section KVB
variable (c : Dev nD)

set_option maxHeartbeats 4000000 in
/-- Four one-plane tiles written into the narrowed key/value buffer — the keys' and the values' planes `p` and `p + 1`, the
    last written in front: each plane of the written contents reads its tile, whatever the buffer held before. -/
theorem kvb_planes_read (p : ℕ) (hp : p + 2 ≤ 8)
    (oV1 oK1 oV0 oK0 : Fin 4 → ℕ)
    (iV1 : ∀ a, oV1 a + S1x1x1024x128.size a ≤ S2x8x1024x128.size a) (iK1 : ∀ a, oK1 a + S1x1x1024x128.size a ≤ S2x8x1024x128.size a)
    (iV0 : ∀ a, oV0 a + S1x1x1024x128.size a ≤ S2x8x1024x128.size a) (iK0 : ∀ a, oK0 a + S1x1x1024x128.size a ≤ S2x8x1024x128.size a)
    (eV1 : oV1 = ![1, p + 1, 0, 0]) (eK1 : oK1 = ![0, p + 1, 0, 0]) (eV0 : oV0 = ![1, p + 0, 0, 0]) (eK0 : oK0 = ![0, p + 0, 0, 0])
    (f9 : Buf (Elt F) ((c : Thread nD τ).loc cc0_scratch9))
    (PV1 PK1 PV0 PK0 : S1x1x1024x128.Idx → Elt F .bf16) (j : Fin 1024) (d : Fin 128) :
    ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (0 : Fin 2) (⟨p + 0, by omega⟩ : Fin 8) j d) = PK0 (ix4 0 0 j d)
    ∧ ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (1 : Fin 2) (⟨p + 0, by omega⟩ : Fin 8) j d) = PV0 (ix4 0 0 j d)
    ∧ ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (0 : Fin 2) (⟨p + 1, by omega⟩ : Fin 8) j d) = PK1 (ix4 0 0 j d)
    ∧ ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (1 : Fin 2) (⟨p + 1, by omega⟩ : Fin 8) j d) = PV1 (ix4 0 0 j d) := by
  have hit : ∀ (a g : ℕ) (ha : a < 2) (hg : p + g < 8), ∀ x : Fin 4, ((ix4 (⟨a, ha⟩ : Fin 2) (⟨p + g, hg⟩ : Fin 8) j d) x).val = (![a, p + g, 0, 0] : Fin 4 → ℕ) x + ((ix4 (0 : Fin 1) (0 : Fin 1) j d) x).val := fun a g ha hg x => by
    match x with
    | ⟨0, _⟩ => show a = a + 0; omega
    | ⟨1, _⟩ => show p + g = p + g + 0; omega
    | ⟨2, _⟩ => show j.val = 0 + j.val; omega
    | ⟨3, _⟩ => show d.val = 0 + d.val; omega
  refine ⟨?_, ?_, ?_, ?_⟩
  · refine Eq.trans (congrFun (View.read_whole (Val := Elt F) cc0_scratch9 _).symm (ix4 (0 : Fin 2) (⟨p + 0, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 0 (Or.inl (by show 0 < 1; omega))]
    rw [View.read_writes_cons_unit_of_not_mem _ _ iK1 _ _ _ eK1 1 (Or.inl (by show p + 0 < p + 1; omega))]
    rw [View.read_writes_cons_unit_of_not_mem _ _ iV0 _ _ _ eV0 0 (Or.inl (by show 0 < 1; omega))]
    exact View.read_writes_cons_unit_of_mem (s := S2x8x1024x128) (Memref.whole cc0_scratch9 : Memref sig .tc .vmem S2x8x1024x128 .bf16).view f9 iK0 PK0 _ (ix4 (0 : Fin 2) (⟨p + 0, by omega⟩ : Fin 8) j d) (ix4 0 0 j d) eK0 (hit 0 0 (by omega) (by omega))
  · refine Eq.trans (congrFun (View.read_whole (Val := Elt F) cc0_scratch9 _).symm (ix4 (1 : Fin 2) (⟨p + 0, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 1 (Or.inl (by show p + 0 < p + 1; omega))]
    rw [View.read_writes_cons_unit_of_not_mem _ _ iK1 _ _ _ eK1 1 (Or.inl (by show p + 0 < p + 1; omega))]
    exact View.read_writes_cons_unit_of_mem (s := S2x8x1024x128) (Memref.whole cc0_scratch9 : Memref sig .tc .vmem S2x8x1024x128 .bf16).view f9 iV0 PV0 _ (ix4 (1 : Fin 2) (⟨p + 0, by omega⟩ : Fin 8) j d) (ix4 0 0 j d) eV0 (hit 1 0 (by omega) (by omega))
  · refine Eq.trans (congrFun (View.read_whole (Val := Elt F) cc0_scratch9 _).symm (ix4 (0 : Fin 2) (⟨p + 1, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 0 (Or.inl (by show 0 < 1; omega))]
    exact View.read_writes_cons_unit_of_mem (s := S2x8x1024x128) (Memref.whole cc0_scratch9 : Memref sig .tc .vmem S2x8x1024x128 .bf16).view f9 iK1 PK1 _ (ix4 (0 : Fin 2) (⟨p + 1, by omega⟩ : Fin 8) j d) (ix4 0 0 j d) eK1 (hit 0 1 (by omega) (by omega))
  · refine Eq.trans (congrFun (View.read_whole (Val := Elt F) cc0_scratch9 _).symm (ix4 (1 : Fin 2) (⟨p + 1, by omega⟩ : Fin 8) j d)) ?_
    show (Memref.whole cc0_scratch9 : Memref sig .tc .vmem S2x8x1024x128 .bf16).view.read (Elt F) _ _ = _
    exact View.read_writes_cons_unit_of_mem (s := S2x8x1024x128) (Memref.whole cc0_scratch9 : Memref sig .tc .vmem S2x8x1024x128 .bf16).view f9 iV1 PV1 _ (ix4 (1 : Fin 2) (⟨p + 1, by omega⟩ : Fin 8) j d) (ix4 0 0 j d) eV1 (hit 1 1 (by omega) (by omega))

end KVB

section Pay
variable (x : Vec F S1x256x1024 .f32) (w : Vec F S1024x1024 .bf16) (v : Vec F S1x1x1024x128 .f32)

/-! The narrowing of a key or value plane is written once per store; the copies are one function. -/
theorem kv_pay24 : k0_pay24 (k0_pay23 v) = k0_pay25 v := rfl
theorem kv_pay26 : k0_pay26 v = k0_pay25 v := rfl
theorem kv_pay27 : k0_pay27 v = k0_pay25 v := rfl
theorem kv_pay40 : k0_pay40 v = k0_pay25 v := rfl
theorem kv_pay41 : k0_pay41 v = k0_pay25 v := rfl
theorem kv_pay42 : k0_pay42 v = k0_pay25 v := rfl
theorem kv_pay44 : k0_pay44 (k0_pay43 v) = k0_pay25 v := rfl
theorem kv_pay58 : k0_pay58 v = k0_pay25 v := rfl
theorem kv_pay60 : k0_pay60 (k0_pay59 v) = k0_pay25 v := rfl
theorem kv_pay61 : k0_pay61 v = k0_pay25 v := rfl
theorem kv_pay62 : k0_pay62 v = k0_pay25 v := rfl
theorem kv_pay79 : k0_pay79 v = k0_pay25 v := rfl
theorem kv_pay80 : k0_pay80 v = k0_pay25 v := rfl
theorem kv_pay82 : k0_pay82 (k0_pay81 v) = k0_pay25 v := rfl
theorem kv_pay83 : k0_pay83 v = k0_pay25 v := rfl

/-! The eight head slices of the projected queries, batch by batch: the copies are the first batch's functions. -/
theorem q_pay45 : k0_pay45 x w = k0_pay28 x w := rfl
theorem q_pay46 : k0_pay46 x w = k0_pay29 x w := rfl
theorem q_pay47 : k0_pay47 x w = k0_pay30 x w := rfl
theorem q_pay48 : k0_pay48 x w = k0_pay32 (k0_pay31 x w) := rfl
theorem q_pay50 : k0_pay50 (k0_pay49 x w) = k0_pay33 (k0_pay28 x w) := rfl
theorem q_pay51 : k0_pay51 (k0_pay45 x w) = k0_pay34 (k0_pay28 x w) := rfl
theorem q_pay52 : k0_pay52 (k0_pay45 x w) = k0_pay35 (k0_pay28 x w) := rfl
theorem q_pay53 : k0_pay53 (k0_pay45 x w) = k0_pay36 (k0_pay28 x w) := rfl
theorem q_pay55 : k0_pay55 (k0_pay54 (k0_pay45 x w)) = k0_pay37 (k0_pay28 x w) := rfl
theorem q_pay64 : k0_pay64 (k0_pay63 x) w = k0_pay28 x w := rfl
theorem q_pay65 : k0_pay65 (k0_pay63 x) w = k0_pay29 x w := rfl
theorem q_pay66 : k0_pay66 (k0_pay63 x) w = k0_pay30 x w := rfl
theorem q_pay67 : k0_pay67 (k0_pay63 x) w = k0_pay32 (k0_pay31 x w) := rfl
theorem q_pay68 : k0_pay68 (k0_pay63 x) w = k0_pay33 (k0_pay28 x w) := rfl
theorem q_pay69 : k0_pay69 (k0_pay64 (k0_pay63 x) w) = k0_pay34 (k0_pay28 x w) := rfl
theorem q_pay70 : k0_pay70 (k0_pay64 (k0_pay63 x) w) = k0_pay35 (k0_pay28 x w) := rfl
theorem q_pay71 : k0_pay71 (k0_pay64 (k0_pay63 x) w) = k0_pay36 (k0_pay28 x w) := rfl
theorem q_pay72 : k0_pay72 (k0_pay64 (k0_pay63 x) w) = k0_pay37 (k0_pay28 x w) := rfl
theorem q_pay84 : k0_pay84 x w = k0_pay28 x w := rfl
theorem q_pay85 : k0_pay85 x w = k0_pay29 x w := rfl
theorem q_pay86 : k0_pay86 (k0_pay84 x w) = k0_pay30 x w := rfl
theorem q_pay87 : k0_pay87 (k0_pay84 x w) = k0_pay32 (k0_pay31 x w) := rfl
theorem q_pay88 : k0_pay88 (k0_pay84 x w) = k0_pay33 (k0_pay28 x w) := rfl
theorem q_pay89 : k0_pay89 (k0_pay84 x w) = k0_pay34 (k0_pay28 x w) := rfl
theorem q_pay91 : k0_pay91 (k0_pay90 (k0_pay84 x w)) = k0_pay35 (k0_pay28 x w) := rfl
theorem q_pay92 : k0_pay92 (k0_pay84 x w) = k0_pay36 (k0_pay28 x w) := rfl
theorem q_pay93 : k0_pay93 (k0_pay84 x w) = k0_pay37 (k0_pay28 x w) := rfl

end Pay

section At
variable (m : (ℓ : Loc nD τ sig) → Buf (Elt F) ℓ) (c : Dev nD)

/-- The query rows of a batch, from the eight stored tiles: with tile `h` the batch's projected, scaled and narrowed
    queries of head `h`, row `r + h` of the query buffer reads them. -/
theorem q2rows_at (B : Fin 4) (r : ℕ) (hr : r + 8 ≤ 32)
    (o0 o1 o2 o3 o4 o5 o6 o7 : Fin 3 → ℕ)
    (i0 : ∀ a, o0 a + S1x256x128.size a ≤ S32x256x128.size a) (i1 : ∀ a, o1 a + S1x256x128.size a ≤ S32x256x128.size a) (i2 : ∀ a, o2 a + S1x256x128.size a ≤ S32x256x128.size a) (i3 : ∀ a, o3 a + S1x256x128.size a ≤ S32x256x128.size a) (i4 : ∀ a, o4 a + S1x256x128.size a ≤ S32x256x128.size a) (i5 : ∀ a, o5 a + S1x256x128.size a ≤ S32x256x128.size a) (i6 : ∀ a, o6 a + S1x256x128.size a ≤ S32x256x128.size a) (i7 : ∀ a, o7 a + S1x256x128.size a ≤ S32x256x128.size a)
    (e0 : o0 = ![r + 0, 0, 0]) (e1 : o1 = ![r + 1, 0, 0]) (e2 : o2 = ![r + 2, 0, 0]) (e3 : o3 = ![r + 3, 0, 0]) (e4 : o4 = ![r + 4, 0, 0]) (e5 : o5 = ![r + 5, 0, 0]) (e6 : o6 = ![r + 6, 0, 0]) (e7 : o7 = ![r + 7, 0, 0])
    (f4 : Buf (Elt F) ((c : Thread nD τ).loc cc0_scratch4))
    (P0 P1 P2 P3 P4 P5 P6 P7 : S1x256x128.Idx → Elt F .bf16)
    (hP0 : P0 = KFun.q2 m c B 0) (hP1 : P1 = KFun.q2 m c B 1) (hP2 : P2 = KFun.q2 m c B 2) (hP3 : P3 = KFun.q2 m c B 3) (hP4 : P4 = KFun.q2 m c B 4) (hP5 : P5 = KFun.q2 m c B 5) (hP6 : P6 = KFun.q2 m c B 6) (hP7 : P7 = KFun.q2 m c B 7)
    (h : Fin 8) (i : Fin 256) (d : Fin 128) :
    ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + h.val, by have := h.isLt; omega⟩ : Fin 32) i d)
      = KFun.q2 m c B h (ix3 0 i d) := by
  obtain ⟨a0, a1, a2, a3, a4, a5, a6, a7⟩ := q2_rows_read c r hr o0 o1 o2 o3 o4 o5 o6 o7 i0 i1 i2 i3 i4 i5 i6 i7 e0 e1 e2 e3 e4 e5 e6 e7 f4 P0 P1 P2 P3 P4 P5 P6 P7 i d
  match h with
  | ⟨0, _⟩ => exact a0.trans (congrFun hP0 _)
  | ⟨1, _⟩ => exact a1.trans (congrFun hP1 _)
  | ⟨2, _⟩ => exact a2.trans (congrFun hP2 _)
  | ⟨3, _⟩ => exact a3.trans (congrFun hP3 _)
  | ⟨4, _⟩ => exact a4.trans (congrFun hP4 _)
  | ⟨5, _⟩ => exact a5.trans (congrFun hP5 _)
  | ⟨6, _⟩ => exact a6.trans (congrFun hP6 _)
  | ⟨7, _⟩ => exact a7.trans (congrFun hP7 _)

/-- The narrowed key and value planes of a batch, from the four stored tiles. -/
theorem kvrows_at (B : Fin 4) (p : ℕ) (hp : p + 2 ≤ 8)
    (oV1 oK1 oV0 oK0 : Fin 4 → ℕ)
    (iV1 : ∀ a, oV1 a + S1x1x1024x128.size a ≤ S2x8x1024x128.size a) (iK1 : ∀ a, oK1 a + S1x1x1024x128.size a ≤ S2x8x1024x128.size a)
    (iV0 : ∀ a, oV0 a + S1x1x1024x128.size a ≤ S2x8x1024x128.size a) (iK0 : ∀ a, oK0 a + S1x1x1024x128.size a ≤ S2x8x1024x128.size a)
    (eV1 : oV1 = ![1, p + 1, 0, 0]) (eK1 : oK1 = ![0, p + 1, 0, 0]) (eV0 : oV0 = ![1, p + 0, 0, 0]) (eK0 : oK0 = ![0, p + 0, 0, 0])
    (f9 : Buf (Elt F) ((c : Thread nD τ).loc cc0_scratch9))
    (PV1 PK1 PV0 PK0 : S1x1x1024x128.Idx → Elt F .bf16)
    (hK0 : PK0 = KFun.kh m c B 0) (hV0 : PV0 = KFun.vh m c B 0) (hK1 : PK1 = KFun.kh m c B 1) (hV1 : PV1 = KFun.vh m c B 1)
    (g : Fin 2) (j : Fin 1024) (d : Fin 128) :
    ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (0 : Fin 2) (⟨p + g.val, by have := g.isLt; omega⟩ : Fin 8) j d) = KFun.kh m c B g (ix4 0 0 j d)
    ∧ ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (1 : Fin 2) (⟨p + g.val, by have := g.isLt; omega⟩ : Fin 8) j d) = KFun.vh m c B g (ix4 0 0 j d) := by
  obtain ⟨aK0, aV0, aK1, aV1⟩ := kvb_planes_read c p hp oV1 oK1 oV0 oK0 iV1 iK1 iV0 iK0 eV1 eK1 eV0 eK0 f9 PV1 PK1 PV0 PK0 j d
  match g with
  | ⟨0, _⟩ => exact ⟨aK0.trans (congrFun hK0 _), aV0.trans (congrFun hV0 _)⟩
  | ⟨1, _⟩ => exact ⟨aK1.trans (congrFun hK1 _), aV1.trans (congrFun hV1 _)⟩

/-- The batch's tile of `x` as the projection loads it from the staged array: block `b`, all rows and columns. -/
theorem xblk_of_load (b : Fin 4) (off : Fin 3 → ℕ) (hoff : off = ![b.val, 0, 0]) (inb : ∀ a, off a + S1x256x1024.size a ≤ S4x256x1024.size a)
    (g0 : Buf (Elt F) ((c : Thread nD τ).loc cc0_stg0_0))
    (hg0 : ∀ (b' : Fin 4) (i : Fin 256) (n : Fin 1024), g0 (ix3 b' i n) = KFun.X m c (ix3 b' i n)) :
    View.readAt (Elt F) (Memref.whole cc0_stg0_0 : Memref sig .tc .vmem S4x256x1024 .f32).view (Rect.unit (s := S4x256x1024) off S1x256x1024.size inb).toLoadRect g0
      = KFun.xblk m c b := by
  subst hoff
  funext s
  rw [View.readAt_apply, View.read_apply]
  show g0 _ = KFun.X m c _
  refine (congrArg g0 (funext fun x => Fin.ext ?_)).trans (hg0 b (⟨(s 1).val, (s 1).isLt⟩ : Fin 256) (⟨(s 2).val, (s 2).isLt⟩ : Fin 1024))
  have h0 : (s 0).val < 1 := (s 0).isLt
  match x with
  | ⟨0, _⟩ => show b.val + 1 * (s 0).val = b.val; omega
  | ⟨1, _⟩ => show 0 + 1 * (s 1).val = (s 1).val; omega
  | ⟨2, _⟩ => show 0 + 1 * (s 2).val = (s 2).val; omega

/-- A key plane, and a value plane, as the narrowing loads it from the copied rows: batch `b`, key/value head `g`. -/
theorem kslice_of_load (b : Fin 4) (g : Fin 2) (off : Fin 4 → ℕ) (hoff : off = ![0, 2 * b.val + g.val, 0, 0]) (inb : ∀ a, off a + S1x1x1024x128.size a ≤ S2x8x1024x128.size a)
    (f5 : Buf (Elt F) ((c : Thread nD τ).loc cc0_scratch5))
    (hf5 : ∀ (j : Fin 1024) (d : Fin 128), f5 (ix4 (0 : Fin 2) (⟨2 * b.val + g.val, by have := b.isLt; have := g.isLt; omega⟩ : Fin 8) j d) = KFun.KQ m c (ix4 b j g d)) :
    View.readAt (Elt F) (Memref.whole cc0_scratch5 : Memref sig .tc .vmem S2x8x1024x128 .f32).view (Rect.unit (s := S2x8x1024x128) off S1x1x1024x128.size inb).toLoadRect f5
      = KFun.kslice m c b g := by
  subst hoff
  funext s
  rw [View.readAt_apply, View.read_apply]
  show f5 _ = KFun.KQ m c _
  refine (congrArg f5 (funext fun x => Fin.ext ?_)).trans (hf5 (⟨(s 2).val, (s 2).isLt⟩ : Fin 1024) (⟨(s 3).val, (s 3).isLt⟩ : Fin 128))
  have h0 : (s 0).val < 1 := (s 0).isLt
  have h1 : (s 1).val < 1 := (s 1).isLt
  match x with
  | ⟨0, _⟩ => show 0 + 1 * (s 0).val = 0; omega
  | ⟨1, _⟩ => show 2 * b.val + g.val + 1 * (s 1).val = 2 * b.val + g.val; omega
  | ⟨2, _⟩ => show 0 + 1 * (s 2).val = (s 2).val; omega
  | ⟨3, _⟩ => show 0 + 1 * (s 3).val = (s 3).val; omega
theorem vslice_of_load (b : Fin 4) (g : Fin 2) (off : Fin 4 → ℕ) (hoff : off = ![1, 2 * b.val + g.val, 0, 0]) (inb : ∀ a, off a + S1x1x1024x128.size a ≤ S2x8x1024x128.size a)
    (f5 : Buf (Elt F) ((c : Thread nD τ).loc cc0_scratch5))
    (hf5 : ∀ (j : Fin 1024) (d : Fin 128), f5 (ix4 (1 : Fin 2) (⟨2 * b.val + g.val, by have := b.isLt; have := g.isLt; omega⟩ : Fin 8) j d) = KFun.VQ m c (ix4 b j g d)) :
    View.readAt (Elt F) (Memref.whole cc0_scratch5 : Memref sig .tc .vmem S2x8x1024x128 .f32).view (Rect.unit (s := S2x8x1024x128) off S1x1x1024x128.size inb).toLoadRect f5
      = KFun.vslice m c b g := by
  subst hoff
  funext s
  rw [View.readAt_apply, View.read_apply]
  show f5 _ = KFun.VQ m c _
  refine (congrArg f5 (funext fun x => Fin.ext ?_)).trans (hf5 (⟨(s 2).val, (s 2).isLt⟩ : Fin 1024) (⟨(s 3).val, (s 3).isLt⟩ : Fin 128))
  have h0 : (s 0).val < 1 := (s 0).isLt
  have h1 : (s 1).val < 1 := (s 1).isLt
  match x with
  | ⟨0, _⟩ => show 1 + 1 * (s 0).val = 1; omega
  | ⟨1, _⟩ => show 2 * b.val + g.val + 1 * (s 1).val = 2 * b.val + g.val; omega
  | ⟨2, _⟩ => show 0 + 1 * (s 2).val = (s 2).val; omega
  | ⟨3, _⟩ => show 0 + 1 * (s 3).val = (s 3).val; omega

end At

end Cert.KernelIdeal.Proto.Rows
end
-- ==== Proof.BodyA.lean ====
/-
  The first stretch of a device's body, from its start to the first flash loop: the two barrier units, the sixteen local
  copies issued, the weights projected, the device's own batch of key and value planes waited for and narrowed, its
  queries projected and seven heads of them stored.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.Unfold
import proofs.«900754_g7700000000000755_dist_attn_cross_gqa_kvseq_b4_sq256_skv1024_d1024_hq8_dh128_v7x_i4_f32_1_alg».proof.Proof.Split
import proofs.«900754_g7700000000000755_dist_attn_cross_gqa_kvseq_b4_sq256_skv1024_d1024_hq8_dh128_v7x_i4_f32_1_alg».proof.Proof.OpSend
import proofs.«900754_g7700000000000755_dist_attn_cross_gqa_kvseq_b4_sq256_skv1024_d1024_hq8_dh128_v7x_i4_f32_1_alg».proof.Proof.OpWait
import proofs.«900754_g7700000000000755_dist_attn_cross_gqa_kvseq_b4_sq256_skv1024_d1024_hq8_dh128_v7x_i4_f32_1_alg».proof.Proof.LoopsUU
import proofs.«900754_g7700000000000755_dist_attn_cross_gqa_kvseq_b4_sq256_skv1024_d1024_hq8_dh128_v7x_i4_f32_1_alg».proof.Proof.KvSplit
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.HbmSplit
import proofs.«900754_g7700000000000755_dist_attn_cross_gqa_kvseq_b4_sq256_skv1024_d1024_hq8_dh128_v7x_i4_f32_1_alg».proof.Proof.KvRel
import proofs.«900754_g7700000000000755_dist_attn_cross_gqa_kvseq_b4_sq256_skv1024_d1024_hq8_dh128_v7x_i4_f32_1_alg».proof.Proof.KvJoin
import proofs.«900754_g7700000000000755_dist_attn_cross_gqa_kvseq_b4_sq256_skv1024_d1024_hq8_dh128_v7x_i4_f32_1_alg».proof.Proof.KLaunch
import proofs.«900754_g7700000000000755_dist_attn_cross_gqa_kvseq_b4_sq256_skv1024_d1024_hq8_dh128_v7x_i4_f32_1_alg».proof.Proof.Segs
import proofs.«900754_g7700000000000755_dist_attn_cross_gqa_kvseq_b4_sq256_skv1024_d1024_hq8_dh128_v7x_i4_f32_1_alg».proof.Proof.Cut15
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.ProjRows
import proofs.«900754_g7700000000000755_dist_attn_cross_gqa_kvseq_b4_sq256_skv1024_d1024_hq8_dh128_v7x_i4_f32_1_alg».proof.Proof.Gen.KernelIdeal.Skeleton
import proofs.«900754_g7700000000000755_dist_attn_cross_gqa_kvseq_b4_sq256_skv1024_d1024_hq8_dh128_v7x_i4_f32_1_alg».proof.Proof.Gen.KernelIdeal.Loops
import proofs.«900754_g7700000000000755_dist_attn_cross_gqa_kvseq_b4_sq256_skv1024_d1024_hq8_dh128_v7x_i4_f32_1_alg».proof.Proof.Gen.KernelIdeal.Points
import proofs.«900754_g7700000000000755_dist_attn_cross_gqa_kvseq_b4_sq256_skv1024_d1024_hq8_dh128_v7x_i4_f32_1_alg».proof.Proof.Gen.KernelIdeal.Frame
import Idealize.ShloMosaic.Lib.WritesUnit
import Idealize.ShloMosaic.Lib.Pipeline.Value
import Idealize.ShloMosaic.Lib.Tactic

set_option maxRecDepth 16384

noncomputable section

namespace Cert.KernelIdeal.Proto

open Cert.KernelIdeal Cert.KernelIdeal.Gen Cert.KernelIdeal.Ring
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open C32

variable {F : FTy → Type} [FloatOps F]
local notation "𝕄" => MT nD τ sig Unit (Elt F) ℕ UU ℕ

/-- What device `c` hands its left neighbour with its barrier unit: its right-going landing slices and its standing at their receive cells. -/
@[sl_rounds] theorem payload_barP (V : Vals F) (c : Dev nD) : (ringRd V).payload (barCell (prv c)) 0 false = (iprop(((∃ f : Buf (Elt F) ((dstO 0 false).view.loc (c : Thread nD τ)), (dstO 0 false).view.loc (c : Thread nD τ) ↦[(dstO 0 false).view.set]{fullShare} f) ∗ (∃ f : Buf (Elt F) ((dstL 0 false).view.loc (c : Thread nD τ)), (dstL 0 false).view.loc (c : Thread nD τ) ↦[(dstL 0 false).view.set]{fullShare} f) ∗ (∃ f : Buf (Elt F) ((agS (prv c) 0 false).view.loc (c : Thread nD τ)), (agS (prv c) 0 false).view.loc (c : Thread nD τ) ↦[(agS (prv c) 0 false).view.set]{fullShare} f) ∗ reached ER (recvCell (c) .o false 0) 0 ∗ reached ER (recvCell (c) .l false 0) 0 ∗ reached ER (recvCell (c) .g false 0) 0) ∗ ((∃ f : Buf (Elt F) ((dstO 1 false).view.loc (c : Thread nD τ)), (dstO 1 false).view.loc (c : Thread nD τ) ↦[(dstO 1 false).view.set]{fullShare} f) ∗ (∃ f : Buf (Elt F) ((dstL 1 false).view.loc (c : Thread nD τ)), (dstL 1 false).view.loc (c : Thread nD τ) ↦[(dstL 1 false).view.set]{fullShare} f) ∗ (∃ f : Buf (Elt F) ((agS (prv c) 1 false).view.loc (c : Thread nD τ)), (agS (prv c) 1 false).view.loc (c : Thread nD τ) ↦[(agS (prv c) 1 false).view.set]{fullShare} f) ∗ reached ER (recvCell (c) .o false 1) 0 ∗ reached ER (recvCell (c) .l false 1) 0 ∗ reached ER (recvCell (c) .g false 1) 0) ∗ ((∃ f : Buf (Elt F) ((dstO 2 false).view.loc (c : Thread nD τ)), (dstO 2 false).view.loc (c : Thread nD τ) ↦[(dstO 2 false).view.set]{fullShare} f) ∗ (∃ f : Buf (Elt F) ((dstL 2 false).view.loc (c : Thread nD τ)), (dstL 2 false).view.loc (c : Thread nD τ) ↦[(dstL 2 false).view.set]{fullShare} f) ∗ (∃ f : Buf (Elt F) ((agS (prv c) 2 false).view.loc (c : Thread nD τ)), (agS (prv c) 2 false).view.loc (c : Thread nD τ) ↦[(agS (prv c) 2 false).view.set]{fullShare} f) ∗ reached ER (recvCell (c) .o false 2) 0 ∗ reached ER (recvCell (c) .l false 2) 0 ∗ reached ER (recvCell (c) .g false 2) 0)) : sProp 𝕄) := by
  rw [payload_bar]; unfold barPay landing held; simp only [toDev]; rw [nxt_prv]
@[sl_rounds] theorem payload_barN (V : Vals F) (c : Dev nD) : (ringRd V).payload (barCell (nxt c)) 0 true = (iprop(((∃ f : Buf (Elt F) ((dstO 0 true).view.loc (c : Thread nD τ)), (dstO 0 true).view.loc (c : Thread nD τ) ↦[(dstO 0 true).view.set]{fullShare} f) ∗ (∃ f : Buf (Elt F) ((dstL 0 true).view.loc (c : Thread nD τ)), (dstL 0 true).view.loc (c : Thread nD τ) ↦[(dstL 0 true).view.set]{fullShare} f) ∗ (∃ f : Buf (Elt F) ((agS (nxt c) 0 true).view.loc (c : Thread nD τ)), (agS (nxt c) 0 true).view.loc (c : Thread nD τ) ↦[(agS (nxt c) 0 true).view.set]{fullShare} f) ∗ reached ER (recvCell (c) .o true 0) 0 ∗ reached ER (recvCell (c) .l true 0) 0 ∗ reached ER (recvCell (c) .g true 0) 0) ∗ ((∃ f : Buf (Elt F) ((dstO 1 true).view.loc (c : Thread nD τ)), (dstO 1 true).view.loc (c : Thread nD τ) ↦[(dstO 1 true).view.set]{fullShare} f) ∗ (∃ f : Buf (Elt F) ((dstL 1 true).view.loc (c : Thread nD τ)), (dstL 1 true).view.loc (c : Thread nD τ) ↦[(dstL 1 true).view.set]{fullShare} f) ∗ (∃ f : Buf (Elt F) ((agS (nxt c) 1 true).view.loc (c : Thread nD τ)), (agS (nxt c) 1 true).view.loc (c : Thread nD τ) ↦[(agS (nxt c) 1 true).view.set]{fullShare} f) ∗ reached ER (recvCell (c) .o true 1) 0 ∗ reached ER (recvCell (c) .l true 1) 0 ∗ reached ER (recvCell (c) .g true 1) 0) ∗ ((∃ f : Buf (Elt F) ((dstO 2 true).view.loc (c : Thread nD τ)), (dstO 2 true).view.loc (c : Thread nD τ) ↦[(dstO 2 true).view.set]{fullShare} f) ∗ (∃ f : Buf (Elt F) ((dstL 2 true).view.loc (c : Thread nD τ)), (dstL 2 true).view.loc (c : Thread nD τ) ↦[(dstL 2 true).view.set]{fullShare} f) ∗ (∃ f : Buf (Elt F) ((agS (nxt c) 2 true).view.loc (c : Thread nD τ)), (agS (nxt c) 2 true).view.loc (c : Thread nD τ) ↦[(agS (nxt c) 2 true).view.set]{fullShare} f) ∗ reached ER (recvCell (c) .o true 2) 0 ∗ reached ER (recvCell (c) .l true 2) 0 ∗ reached ER (recvCell (c) .g true 2) 0)) : sProp 𝕄) := by
  rw [payload_bar]; unfold barPay landing held; simp only [toDev]; rw [prv_nxt]

/-! ## Value facts: what the program's reads and stores are, in the kernel function's terms -/

section Values
variable (V : Vals F) (m : (ℓ : Loc nD τ sig) → Buf (Elt F) ℓ) (Kout : OutFn F)

/-- A staged input window holds its block of the launch memory before the body as after it. -/
theorem dats_before0 (c : Dev nD) (t : Fin cfg0.N) (d) : (dats (F := F) V m Kout 0 c).before 0 t d = (dats V m Kout 0 c).after 0 t :=
  ((dats V m Kout 0 c).before_in_eq_fetched 0 rfl (fun _ => rfl) (fun _ _ _ => rfl) (fun t => by unfold Dat.blockOf; rfl) t d).trans
    (by unfold Dat.fetched Dat.blockOf; rfl)
theorem dats_before1 (c : Dev nD) (t : Fin cfg0.N) (d) : (dats (F := F) V m Kout 0 c).before 1 t d = (dats V m Kout 0 c).after 1 t :=
  ((dats V m Kout 0 c).before_in_eq_fetched 1 rfl (fun _ => rfl) (fun _ _ _ => rfl) (fun t => by unfold Dat.blockOf; rfl) t d).trans
    (by unfold Dat.fetched Dat.blockOf; rfl)
theorem dats_before2 (c : Dev nD) (t : Fin cfg0.N) (d) : (dats (F := F) V m Kout 0 c).before 2 t d = (dats V m Kout 0 c).after 2 t :=
  ((dats V m Kout 0 c).before_in_eq_fetched 2 rfl (fun _ => rfl) (fun _ _ _ => rfl) (fun t => by unfold Dat.blockOf; rfl) t d).trans
    (by unfold Dat.fetched Dat.blockOf; rfl)

/-! ## The staged blocks are the launch arrays -/

theorem iblk0_eq (c : Dev nD) : iblk (F := F) m c 0 t0_0 = KFun.X m c := by
  funext x
  unfold iblk KFun.X
  rw [View.read_apply]
  have he : ((cfg0.win 0).blk t0_0).view.emb x = x := by
    funext a
    apply Fin.ext
    fin_cases a
    · first | rfl | (show 0 + 1 * (x 0).val = (x 0).val; omega) | (simp; done)
    · first | rfl | (show 0 + 1 * (x 1).val = (x 1).val; omega) | (simp; done)
    · first | rfl | (show 0 + 1 * (x 2).val = (x 2).val; omega) | (simp; done)
  rw [he]
  rfl
theorem iblk1_eq (c : Dev nD) : iblk (F := F) m c 1 t0_0 = KFun.WQ m c := by
  funext x
  unfold iblk KFun.WQ
  rw [View.read_apply]
  have he : ((cfg0.win 1).blk t0_0).view.emb x = x := by
    funext a
    apply Fin.ext
    fin_cases a
    · first | rfl | (show 0 + 1 * (x 0).val = (x 0).val; omega) | (simp; done)
    · first | rfl | (show 0 + 1 * (x 1).val = (x 1).val; omega) | (simp; done)
  rw [he]
  rfl
theorem iblk2_eq (c : Dev nD) : iblk (F := F) m c 2 t0_0 = KFun.WO m c := by
  funext x
  unfold iblk KFun.WO
  rw [View.read_apply]
  have he : ((cfg0.win 2).blk t0_0).view.emb x = x := by
    funext a
    apply Fin.ext
    fin_cases a
    · first | rfl | (show 0 + 1 * (x 0).val = (x 0).val; omega) | (simp; done)
    · first | rfl | (show 0 + 1 * (x 1).val = (x 1).val; omega) | (simp; done)
  rw [he]
  rfl

theorem hz2 : (![0, 0] : Fin 2 → ℕ) = fun _ => 0 := funext fun a => by fin_cases a <;> rfl

/-! ## What the projection reads -/

/-- The projected `Wq` read back whole. -/
theorem run_wq (c : Dev nD) :
    ((Memref.whole cc0_scratch7 : Memref sig .tc .vmem S1024x1024 .bf16).view.readCov (Val := Elt F)
        [⟨Rect.unit (s := S1024x1024) ![0, 0] S1024x1024.size inb_S1024x1024_S1024x1024_0_0,
          k0_pay21 (View.readAt (Elt F) (Memref.whole cc0_stg1_0 : Memref sig .tc .vmem S1024x1024 .f32).view (Rect.unit (s := S1024x1024) ![0, 0] S1024x1024.size inb_S1024x1024_S1024x1024_0_0).toLoadRect
            ((dats (F := F) V m Kout 0 c).after 1 t0_0))⟩]
        (Rect.unit (s := S1024x1024) ![0, 0] S1024x1024.size inb_S1024x1024_S1024x1024_0_0).toLoadRect : FVec F S1024x1024 .bf16)
      = KFun.wqb m c := by
  refine (View.readCov_unit_zero (Val := Elt F) (Memref.whole cc0_scratch7 : Memref sig .tc .vmem S1024x1024 .bf16).view hz2 inb_S1024x1024_S1024x1024_0_0 _).trans ?_
  unfold KFun.wqb
  congr 1
  have e : (dats (F := F) V m Kout 0 c).after 1 t0_0 = iblk m c 1 t0_0 := rfl
  rw [e, iblk1_eq]
  exact Memref.readAt_unit_zero (Elt F) cc0_stg1_0 hz2 _ _

/-- The activations of batch `c`. -/
theorem run_x (c : Dev nD) :
    View.readAt (Elt F) (Memref.whole cc0_stg0_0 : Memref sig .tc .vmem S4x256x1024 .f32).view (Rect.unit (s := S4x256x1024) (k0_off8 c) S1x256x1024.size (k0_off8_inb c)).toLoadRect
        ((dats (F := F) V m Kout 0 c).after 0 t0_0) = KFun.xblk m c c := by
  have e : (dats (F := F) V m Kout 0 c).after 0 t0_0 = iblk m c 0 t0_0 := rfl
  rw [e, iblk0_eq]
  funext t
  rw [View.readAt_rect, View.read_apply]
  unfold KFun.xblk
  have he : ((Memref.whole cc0_stg0_0 : Memref sig .tc .vmem S4x256x1024 .f32).view.slice (Rect.unit (s := S4x256x1024) (k0_off8 c) S1x256x1024.size (k0_off8_inb c))).emb t
      = ix3 c (⟨(t 1).val, (t 1).isLt⟩ : Fin 256) (⟨(t 2).val, (t 2).isLt⟩ : Fin 1024) := by
    funext a
    apply Fin.ext
    have h0 : (t 0).val < 1 := (t 0).isLt
    fin_cases a
    · have h8 : k0_off8 c 0 = c.val := congrFun (k0_off8_eq c) 0
      show (k0_off8 c) 0 + 1 * (t 0).val = c.val
      omega
    · have h8 : k0_off8 c 1 = 0 := congrFun (k0_off8_eq c) 1
      show (k0_off8 c) 1 + 1 * (t 1).val = (t 1).val
      omega
    · have h8 : k0_off8 c 2 = 0 := congrFun (k0_off8_eq c) 2
      show (k0_off8 c) 2 + 1 * (t 2).val = (t 2).val
      omega
  rw [he]
  rfl

/-! ## The projected weights -/

theorem read_wq (c : Dev nD) :
    View.readAt (Elt F) (Memref.whole cc0_stg1_0 : Memref sig .tc .vmem S1024x1024 .f32).view (Rect.unit (s := S1024x1024) ![0, 0] S1024x1024.size inb_S1024x1024_S1024x1024_0_0).toLoadRect
        ((dats (F := F) V m Kout 0 c).after 1 t0_0) = KFun.WQ m c := by
  have e : (dats (F := F) V m Kout 0 c).after 1 t0_0 = iblk m c 1 t0_0 := rfl
  rw [e, iblk1_eq]
  exact Memref.readAt_unit_zero (Elt F) cc0_stg1_0 hz2 _ _
theorem read_wo (c : Dev nD) :
    View.readAt (Elt F) (Memref.whole cc0_stg2_0 : Memref sig .tc .vmem S1024x1024 .f32).view (Rect.unit (s := S1024x1024) ![0, 0] S1024x1024.size inb_S1024x1024_S1024x1024_0_0).toLoadRect
        ((dats (F := F) V m Kout 0 c).after 2 t0_0) = KFun.WO m c := by
  have e : (dats (F := F) V m Kout 0 c).after 2 t0_0 = iblk m c 2 t0_0 := rfl
  rw [e, iblk2_eq]
  exact Memref.readAt_unit_zero (Elt F) cc0_stg2_0 hz2 _ _

/-- One store through the whole buffer leaves its payload, whatever was there. -/
theorem run_s7 (c : Dev nD) (f7 : Buf (Elt F) ((c : Thread nD τ).loc cc0_scratch7)) :
    (Memref.whole cc0_scratch7 : Memref sig .tc .vmem S1024x1024 .bf16).view.writes (Elt F) f7
        [⟨Rect.unit (s := S1024x1024) ![0, 0] S1024x1024.size inb_S1024x1024_S1024x1024_0_0,
          k0_pay21 (View.readAt (Elt F) (Memref.whole cc0_stg1_0 : Memref sig .tc .vmem S1024x1024 .f32).view (Rect.unit (s := S1024x1024) ![0, 0] S1024x1024.size inb_S1024x1024_S1024x1024_0_0).toLoadRect
            ((dats (F := F) V m Kout 0 c).after 1 t0_0))⟩]
      = KFun.wqb m c := by
  rw [View.writes_singleton, read_wq]
  exact Memref.write_access_unit_zero_univ (Elt F) cc0_scratch7 hz2 _ f7 _
theorem run_s8 (c : Dev nD) (f8 : Buf (Elt F) ((c : Thread nD τ).loc cc0_scratch8)) :
    (Memref.whole cc0_scratch8 : Memref sig .tc .vmem S1024x1024 .bf16).view.writes (Elt F) f8
        [⟨Rect.unit (s := S1024x1024) ![0, 0] S1024x1024.size inb_S1024x1024_S1024x1024_0_0,
          k0_pay22 (View.readAt (Elt F) (Memref.whole cc0_stg2_0 : Memref sig .tc .vmem S1024x1024 .f32).view (Rect.unit (s := S1024x1024) ![0, 0] S1024x1024.size inb_S1024x1024_S1024x1024_0_0).toLoadRect
            ((dats (F := F) V m Kout 0 c).after 2 t0_0))⟩]
      = KFun.wob m c := by
  rw [View.writes_singleton, read_wo]
  exact Memref.write_access_unit_zero_univ (Elt F) cc0_scratch8 hz2 _ f8 _

section Q2
variable (c : Dev nD) (f4 : Buf (Elt F) ((c : Thread nD τ).loc cc0_scratch4)) (xr : Vec F S1x256x1024 .f32) (wq : FVec F S1024x1024 .bf16)

/-- The seven stores of the projected queries, newest first. -/
def q2Pieces : List (View.Piece (Elt F) S32x256x128 .bf16) :=
  [⟨Rect.unit (s := S32x256x128) (k0_off9 c 6#32) S1x256x128.size (k0_off9_inb c 6), k0_pay36 (k0_pay28 xr wq)⟩,
   ⟨Rect.unit (s := S32x256x128) (k0_off9 c 5#32) S1x256x128.size (k0_off9_inb c 5), k0_pay35 (k0_pay28 xr wq)⟩,
   ⟨Rect.unit (s := S32x256x128) (k0_off9 c 4#32) S1x256x128.size (k0_off9_inb c 4), k0_pay34 (k0_pay28 xr wq)⟩,
   ⟨Rect.unit (s := S32x256x128) (k0_off9 c 3#32) S1x256x128.size (k0_off9_inb c 3), k0_pay33 (k0_pay28 xr wq)⟩,
   ⟨Rect.unit (s := S32x256x128) (k0_off9 c 2#32) S1x256x128.size (k0_off9_inb c 2), k0_pay32 (k0_pay31 xr wq)⟩,
   ⟨Rect.unit (s := S32x256x128) (k0_off9 c 1#32) S1x256x128.size (k0_off9_inb c 1), k0_pay30 xr wq⟩,
   ⟨Rect.unit (s := S32x256x128) (k0_off9 c 0#32) S1x256x128.size (k0_off9_inb c 0), k0_pay29 xr wq⟩]

set_option maxHeartbeats 4000000 in
/-- A store of a later head leaves an earlier head's rows alone; a head's own store leaves its payload there. -/
theorem q2_skip (j : Fin 8) (w : (Rect.unit (s := S32x256x128) (k0_off9 c (BitVec.ofNat 32 j.val)) S1x256x128.size (k0_off9_inb c j)).shape.Idx → Elt F .bf16)
    (L : List (View.Piece (Elt F) S32x256x128 .bf16)) (k : ℕ) (hk : k < j.val) (hk32 : 8 * c.val + k < 32) (i : Fin 256) (d : Fin 128) :
    ((Memref.whole cc0_scratch4 : Memref sig .tc .vmem S32x256x128 .bf16).view.writes (Elt F) f4
        ((⟨Rect.unit (s := S32x256x128) (k0_off9 c (BitVec.ofNat 32 j.val)) S1x256x128.size (k0_off9_inb c j), w⟩ : View.Piece (Elt F) S32x256x128 .bf16) :: L))
        (ix3 (⟨8 * c.val + k, hk32⟩ : Fin 32) i d)
      = ((Memref.whole cc0_scratch4 : Memref sig .tc .vmem S32x256x128 .bf16).view.writes (Elt F) f4 L) (ix3 (⟨8 * c.val + k, hk32⟩ : Fin 32) i d) :=
  View.read_writes_cons_unit_of_not_mem (Memref.whole cc0_scratch4 : Memref sig .tc .vmem S32x256x128 .bf16).view f4 _ w L
    (ix3 (⟨8 * c.val + k, hk32⟩ : Fin 32) i d) (k0_off9_eq c j) 0 (Or.inl (by show 8 * c.val + k < 8 * c.val + j.val; omega))

set_option maxHeartbeats 4000000 in
theorem q2_hit (j : Fin 8) (w : (Rect.unit (s := S32x256x128) (k0_off9 c (BitVec.ofNat 32 j.val)) S1x256x128.size (k0_off9_inb c j)).shape.Idx → Elt F .bf16)
    (L : List (View.Piece (Elt F) S32x256x128 .bf16)) (hk32 : 8 * c.val + j.val < 32) (i : Fin 256) (d : Fin 128) :
    ((Memref.whole cc0_scratch4 : Memref sig .tc .vmem S32x256x128 .bf16).view.writes (Elt F) f4
        ((⟨Rect.unit (s := S32x256x128) (k0_off9 c (BitVec.ofNat 32 j.val)) S1x256x128.size (k0_off9_inb c j), w⟩ : View.Piece (Elt F) S32x256x128 .bf16) :: L))
        (ix3 (⟨8 * c.val + j.val, hk32⟩ : Fin 32) i d)
      = w (ix3 0 i d) :=
  View.read_writes_cons_unit_of_mem (Memref.whole cc0_scratch4 : Memref sig .tc .vmem S32x256x128 .bf16).view f4 _ w L
    (ix3 (⟨8 * c.val + j.val, hk32⟩ : Fin 32) i d) (ix3 0 i d) (k0_off9_eq c j) (fun a => by
      fin_cases a
      · show 8 * c.val + j.val = 8 * c.val + j.val + 0; omega
      · show i.val = 0 + i.val; omega
      · show d.val = 0 + d.val; omega)

end Q2

section Q2rows
variable (c : Dev nD) (f4 : Buf (Elt F) ((c : Thread nD τ).loc cc0_scratch4)) (xr : Vec F S1x256x1024 .f32) (wq : FVec F S1024x1024 .bf16)

set_option maxHeartbeats 16000000 in
/-- After the seven stores, head `h`'s rows of batch `c` hold the projected queries of that head. -/
theorem q2_rows (hx : xr = KFun.xblk m c c) (hw : wq = KFun.wqb m c) (h : Fin 8) (hh : h.val < 7) (i : Fin 256) (d : Fin 128) :
    ((Memref.whole cc0_scratch4 : Memref sig .tc .vmem S32x256x128 .bf16).view.writes (Elt F) f4 (q2Pieces c xr wq))
      (ix3 (⟨8 * c.val + h.val, by have : c.val < 4 := c.isLt; omega⟩ : Fin 32) i d) = KFun.q2 m c c h (ix3 0 i d) := by
  subst hx; subst hw
  have hc : c.val < 4 := c.isLt
  unfold q2Pieces
  fin_cases h
  · exact (q2_skip c f4 6 _ _ 0 (by decide) (by omega) i d).trans ((q2_skip c f4 5 _ _ 0 (by decide) (by omega) i d).trans ((q2_skip c f4 4 _ _ 0 (by decide) (by omega) i d).trans
      ((q2_skip c f4 3 _ _ 0 (by decide) (by omega) i d).trans ((q2_skip c f4 2 _ _ 0 (by decide) (by omega) i d).trans ((q2_skip c f4 1 _ _ 0 (by decide) (by omega) i d).trans
        (q2_hit c f4 0 _ _ (by omega) i d))))))
  · exact (q2_skip c f4 6 _ _ 1 (by decide) (by omega) i d).trans ((q2_skip c f4 5 _ _ 1 (by decide) (by omega) i d).trans ((q2_skip c f4 4 _ _ 1 (by decide) (by omega) i d).trans
      ((q2_skip c f4 3 _ _ 1 (by decide) (by omega) i d).trans ((q2_skip c f4 2 _ _ 1 (by decide) (by omega) i d).trans
        (q2_hit c f4 1 _ _ (by omega) i d)))))
  · exact (q2_skip c f4 6 _ _ 2 (by decide) (by omega) i d).trans ((q2_skip c f4 5 _ _ 2 (by decide) (by omega) i d).trans ((q2_skip c f4 4 _ _ 2 (by decide) (by omega) i d).trans
      ((q2_skip c f4 3 _ _ 2 (by decide) (by omega) i d).trans
        (q2_hit c f4 2 _ _ (by omega) i d))))
  · exact (q2_skip c f4 6 _ _ 3 (by decide) (by omega) i d).trans ((q2_skip c f4 5 _ _ 3 (by decide) (by omega) i d).trans ((q2_skip c f4 4 _ _ 3 (by decide) (by omega) i d).trans
        (q2_hit c f4 3 _ _ (by omega) i d)))
  · exact (q2_skip c f4 6 _ _ 4 (by decide) (by omega) i d).trans ((q2_skip c f4 5 _ _ 4 (by decide) (by omega) i d).trans
        (q2_hit c f4 4 _ _ (by omega) i d))
  · exact (q2_skip c f4 6 _ _ 5 (by decide) (by omega) i d).trans
        (q2_hit c f4 5 _ _ (by omega) i d)
  · exact q2_hit c f4 6 _ _ (by omega) i d
  · exact absurd hh (by decide)

end Q2rows

/-! ## The rows the sixteen copies carry -/

/-- The rows of the sixteen copies, in issue order: the launch memory read through the source planes. -/
def cpVals (c : Dev nD) : Fin 16 → CpVal F :=
  ![ReadAs.same.apply (View.read (Elt F) (hbKS 0 0).view (m ((c : Thread nD τ).loc main_arg3))), ReadAs.same.apply (View.read (Elt F) (hbVS 0 0).view (m ((c : Thread nD τ).loc main_arg4))),
    ReadAs.same.apply (View.read (Elt F) (hbKS 0 1).view (m ((c : Thread nD τ).loc main_arg3))), ReadAs.same.apply (View.read (Elt F) (hbVS 0 1).view (m ((c : Thread nD τ).loc main_arg4))),
    ReadAs.same.apply (View.read (Elt F) (hbKS 1 0).view (m ((c : Thread nD τ).loc main_arg3))), ReadAs.same.apply (View.read (Elt F) (hbVS 1 0).view (m ((c : Thread nD τ).loc main_arg4))),
    ReadAs.same.apply (View.read (Elt F) (hbKS 1 1).view (m ((c : Thread nD τ).loc main_arg3))), ReadAs.same.apply (View.read (Elt F) (hbVS 1 1).view (m ((c : Thread nD τ).loc main_arg4))),
    ReadAs.same.apply (View.read (Elt F) (hbKS 2 0).view (m ((c : Thread nD τ).loc main_arg3))), ReadAs.same.apply (View.read (Elt F) (hbVS 2 0).view (m ((c : Thread nD τ).loc main_arg4))),
    ReadAs.same.apply (View.read (Elt F) (hbKS 2 1).view (m ((c : Thread nD τ).loc main_arg3))), ReadAs.same.apply (View.read (Elt F) (hbVS 2 1).view (m ((c : Thread nD τ).loc main_arg4))),
    ReadAs.same.apply (View.read (Elt F) (hbKS 3 0).view (m ((c : Thread nD τ).loc main_arg3))), ReadAs.same.apply (View.read (Elt F) (hbVS 3 0).view (m ((c : Thread nD τ).loc main_arg4))),
    ReadAs.same.apply (View.read (Elt F) (hbKS 3 1).view (m ((c : Thread nD τ).loc main_arg3))), ReadAs.same.apply (View.read (Elt F) (hbVS 3 1).view (m ((c : Thread nD τ).loc main_arg4)))]

theorem cpVals_ok (c : Dev nD) (j : Fin 4) (g : Fin 2) :
    cpVals (F := F) m c (vIdx c j ⟨2 * g.val, by omega⟩) = (hbKD c j g).view.read (Elt F) (m ((hbKD c j g).view.loc (c : Thread nD τ)))
      ∧ cpVals (F := F) m c (vIdx c j ⟨2 * g.val + 1, by omega⟩) = (hbVD c j g).view.read (Elt F) (m ((hbVD c j g).view.loc (c : Thread nD τ))) := by
  have hK := congrArg (fun M : Memref sig .tc .hbm S1024x128 .f32 => M.view.read (Elt F) (m (M.view.loc (c : Thread nD τ)))) (hbKD_eq c j g)
  have hV := congrArg (fun M : Memref sig .tc .hbm S1024x128 .f32 => M.view.read (Elt F) (m (M.view.loc (c : Thread nD τ)))) (hbVD_eq c j g)
  refine ⟨Eq.trans ?_ hK.symm, Eq.trans ?_ hV.symm⟩
  · fin_cases c <;> fin_cases j <;> fin_cases g <;> rfl
  · fin_cases c <;> fin_cases j <;> fin_cases g <;> rfl

/-- A plane of the key and value buffer read through the whole buffer, from what a local copy left in it. -/
def kvRead (offR : Fin 4 → ℕ) (inbR : ∀ x, offR x + S1x1x1024x128.size x ≤ S2x8x1024x128.size x)
    (offP : Fin 4 → ℕ) (inbP : ∀ x, offP x + S1x1x1024x128.size x ≤ S2x8x1024x128.size x) (v : CpVal F) : Vec F S1x1x1024x128 .f32 :=
  View.readAt (Elt F) (Memref.whole cc0_scratch5 : Memref sig .tc .vmem S2x8x1024x128 .f32).view (Rect.unit (s := S2x8x1024x128) offR S1x1x1024x128.size inbR).toLoadRect
    ((kvPl offP inbP).view.writes (Elt F) (kvPl offP inbP).view.junk [⟨Rect.whole S1024x128, v⟩])

/-- The four stores that narrow the planes of batch `c`, newest first. -/
def kvbPieces (c : Dev nD) (vals : Fin 16 → CpVal F) : List (View.Piece (Elt F) S2x8x1024x128 .bf16) :=
  [⟨Rect.unit (s := S2x8x1024x128) (k0_off7 c 1#32) S1x1x1024x128.size (k0_off7_inb c 1), k0_pay27 (kvRead (k0_off7 c 1#32) (k0_off7_inb c 1) (k0_off4 c 1#32) (k0_off4_inb c 1) (vals (vIdx c 0 3)))⟩,
   ⟨Rect.unit (s := S2x8x1024x128) (k0_off6 c 1#32) S1x1x1024x128.size (k0_off6_inb c 1), k0_pay26 (kvRead (k0_off6 c 1#32) (k0_off6_inb c 1) (k0_off2 c 1#32) (k0_off2_inb c 1) (vals (vIdx c 0 2)))⟩,
   ⟨Rect.unit (s := S2x8x1024x128) (k0_off7 c 0#32) S1x1x1024x128.size (k0_off7_inb c 0), k0_pay25 (kvRead (k0_off7 c 0#32) (k0_off7_inb c 0) (k0_off4 c 0#32) (k0_off4_inb c 0) (vals (vIdx c 0 1)))⟩,
   ⟨Rect.unit (s := S2x8x1024x128) (k0_off6 c 0#32) S1x1x1024x128.size (k0_off6_inb c 0), k0_pay24 (k0_pay23 (kvRead (k0_off6 c 0#32) (k0_off6_inb c 0) (k0_off2 c 0#32) (k0_off2_inb c 0) (vals (vIdx c 0 0))))⟩]

/-- A plane read through the whole buffer, from what a copy of rows `v` left in it, reshaped to the plane: the rows. -/
theorem planeA_read (off : Fin 4 → ℕ) (inb inb' : ∀ x, off x + S1x1x1024x128.size x ≤ S2x8x1024x128.size x) (v : CpVal F) :
    shapeCast S1024x128
        (View.readAt (Elt F) (Memref.whole cc0_scratch5 : Memref sig .tc .vmem S2x8x1024x128 .f32).view (Rect.unit (s := S2x8x1024x128) off S1x1x1024x128.size inb).toLoadRect
          ((kvPl off inb').view.writes (Elt F) (kvPl off inb').view.junk [⟨Rect.whole S1024x128, v⟩]))
        shapeCasts_S1x1x1024x128_S1024x128 = v := by
  have h1 := View.read_writes_whole (Val := Elt F) (kvPl off inb').view (kvPl off inb').view.junk v
  exact (Memref.read_squeeze_slice (Val := Elt F) kvB (Rect.unit (s := S2x8x1024x128) off S1x1x1024x128.size inb) (fun _ => rfl) squeezes_S1x1x1024x128_S1024x128 shapeCasts_S1x1x1024x128_S1024x128 _).symm.trans h1

/-- The key rows of batch `c`, head 0, as the copy read them from the launch memory, are the kernel function's key slice reshaped. -/
theorem ksrc0 (c : Dev nD) :
    shapeCast S1024x128 (KFun.kslice m c c 0) shapeCasts_S1x1x1024x128_S1024x128
      = (hbKD c 0 0).view.read (Elt F) (m ((hbKD c 0 0).view.loc (c : Thread nD τ))) := by
  have e := Memref.read_squeeze_slice (Val := Elt F) hbK (Rect.unit (s := S4x1024x2x128) (k0_off3 c) S1x1024x1x128.size (k0_off3_inb c)) (fun _ => rfl)
    squeezes_S1x1024x1x128_S1024x128 (show S1x1024x1x128.ShapeCasts S1024x128 from by decide) (m ((c : Thread nD τ).loc main_arg3))
  refine Eq.trans ?_ e.symm
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.kslice KFun.KQ
  rw [View.readAt_rect, View.read_apply]
  have he : (hbK.view.slice (Rect.unit (s := S4x1024x2x128) (k0_off3 c) S1x1024x1x128.size (k0_off3_inb c))).emb
        (ix4 (0 : Fin 1) (⟨(y 0).val, hy0⟩ : Fin 1024) (0 : Fin 1) (⟨(y 1).val, hy1⟩ : Fin 128))
      = ix4 c (⟨(y 0).val, hy0⟩ : Fin 1024) (0 : Fin 2) (⟨(y 1).val, hy1⟩ : Fin 128) := by
    funext a
    apply Fin.ext
    fin_cases a
    · have h3 : k0_off3 c 0 = c.val := congrFun (k0_off3_eq c) 0
      show k0_off3 c 0 + 1 * 0 = c.val
      omega
    · have h3 : k0_off3 c 1 = 0 := congrFun (k0_off3_eq c) 1
      show k0_off3 c 1 + 1 * (y 0).val = (y 0).val
      omega
    · have h3 : k0_off3 c 2 = 0 := congrFun (k0_off3_eq c) 2
      show k0_off3 c 2 + 1 * 0 = 0
      omega
    · have h3 : k0_off3 c 3 = 0 := congrFun (k0_off3_eq c) 3
      show k0_off3 c 3 + 1 * (y 1).val = (y 1).val
      omega
  rw [he]
  rfl

theorem ksrc1 (c : Dev nD) :
    shapeCast S1024x128 (KFun.kslice m c c 1) shapeCasts_S1x1x1024x128_S1024x128
      = (hbKD c 0 1).view.read (Elt F) (m ((hbKD c 0 1).view.loc (c : Thread nD τ))) := by
  have e := Memref.read_squeeze_slice (Val := Elt F) hbK (Rect.unit (s := S4x1024x2x128) (k0_off5 c) S1x1024x1x128.size (k0_off5_inb c)) (fun _ => rfl)
    squeezes_S1x1024x1x128_S1024x128 (show S1x1024x1x128.ShapeCasts S1024x128 from by decide) (m ((c : Thread nD τ).loc main_arg3))
  refine Eq.trans ?_ e.symm
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.kslice KFun.KQ
  rw [View.readAt_rect, View.read_apply]
  have he : (hbK.view.slice (Rect.unit (s := S4x1024x2x128) (k0_off5 c) S1x1024x1x128.size (k0_off5_inb c))).emb
        (ix4 (0 : Fin 1) (⟨(y 0).val, hy0⟩ : Fin 1024) (0 : Fin 1) (⟨(y 1).val, hy1⟩ : Fin 128))
      = ix4 c (⟨(y 0).val, hy0⟩ : Fin 1024) (1 : Fin 2) (⟨(y 1).val, hy1⟩ : Fin 128) := by
    funext a
    apply Fin.ext
    fin_cases a
    · have h3 : k0_off5 c 0 = c.val := congrFun (k0_off5_eq c) 0
      show k0_off5 c 0 + 1 * 0 = c.val
      omega
    · have h3 : k0_off5 c 1 = 0 := congrFun (k0_off5_eq c) 1
      show k0_off5 c 1 + 1 * (y 0).val = (y 0).val
      omega
    · have h3 : k0_off5 c 2 = 1 := congrFun (k0_off5_eq c) 2
      show k0_off5 c 2 + 1 * 0 = 1
      omega
    · have h3 : k0_off5 c 3 = 0 := congrFun (k0_off5_eq c) 3
      show k0_off5 c 3 + 1 * (y 1).val = (y 1).val
      omega
  rw [he]
  rfl

/-- The same for the value rows. -/
theorem vsrc0 (c : Dev nD) :
    shapeCast S1024x128 (KFun.vslice m c c 0) shapeCasts_S1x1x1024x128_S1024x128
      = (hbVD c 0 0).view.read (Elt F) (m ((hbVD c 0 0).view.loc (c : Thread nD τ))) := by
  have e := Memref.read_squeeze_slice (Val := Elt F) hbV (Rect.unit (s := S4x1024x2x128) (k0_off3 c) S1x1024x1x128.size (k0_off3_inb c)) (fun _ => rfl)
    squeezes_S1x1024x1x128_S1024x128 (show S1x1024x1x128.ShapeCasts S1024x128 from by decide) (m ((c : Thread nD τ).loc main_arg4))
  refine Eq.trans ?_ e.symm
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.vslice KFun.VQ
  rw [View.readAt_rect, View.read_apply]
  have he : (hbV.view.slice (Rect.unit (s := S4x1024x2x128) (k0_off3 c) S1x1024x1x128.size (k0_off3_inb c))).emb
        (ix4 (0 : Fin 1) (⟨(y 0).val, hy0⟩ : Fin 1024) (0 : Fin 1) (⟨(y 1).val, hy1⟩ : Fin 128))
      = ix4 c (⟨(y 0).val, hy0⟩ : Fin 1024) (0 : Fin 2) (⟨(y 1).val, hy1⟩ : Fin 128) := by
    funext a
    apply Fin.ext
    fin_cases a
    · have h3 : k0_off3 c 0 = c.val := congrFun (k0_off3_eq c) 0
      show k0_off3 c 0 + 1 * 0 = c.val
      omega
    · have h3 : k0_off3 c 1 = 0 := congrFun (k0_off3_eq c) 1
      show k0_off3 c 1 + 1 * (y 0).val = (y 0).val
      omega
    · have h3 : k0_off3 c 2 = 0 := congrFun (k0_off3_eq c) 2
      show k0_off3 c 2 + 1 * 0 = 0
      omega
    · have h3 : k0_off3 c 3 = 0 := congrFun (k0_off3_eq c) 3
      show k0_off3 c 3 + 1 * (y 1).val = (y 1).val
      omega
  rw [he]
  rfl

theorem vsrc1 (c : Dev nD) :
    shapeCast S1024x128 (KFun.vslice m c c 1) shapeCasts_S1x1x1024x128_S1024x128
      = (hbVD c 0 1).view.read (Elt F) (m ((hbVD c 0 1).view.loc (c : Thread nD τ))) := by
  have e := Memref.read_squeeze_slice (Val := Elt F) hbV (Rect.unit (s := S4x1024x2x128) (k0_off5 c) S1x1024x1x128.size (k0_off5_inb c)) (fun _ => rfl)
    squeezes_S1x1024x1x128_S1024x128 (show S1x1024x1x128.ShapeCasts S1024x128 from by decide) (m ((c : Thread nD τ).loc main_arg4))
  refine Eq.trans ?_ e.symm
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.vslice KFun.VQ
  rw [View.readAt_rect, View.read_apply]
  have he : (hbV.view.slice (Rect.unit (s := S4x1024x2x128) (k0_off5 c) S1x1024x1x128.size (k0_off5_inb c))).emb
        (ix4 (0 : Fin 1) (⟨(y 0).val, hy0⟩ : Fin 1024) (0 : Fin 1) (⟨(y 1).val, hy1⟩ : Fin 128))
      = ix4 c (⟨(y 0).val, hy0⟩ : Fin 1024) (1 : Fin 2) (⟨(y 1).val, hy1⟩ : Fin 128) := by
    funext a
    apply Fin.ext
    fin_cases a
    · have h3 : k0_off5 c 0 = c.val := congrFun (k0_off5_eq c) 0
      show k0_off5 c 0 + 1 * 0 = c.val
      omega
    · have h3 : k0_off5 c 1 = 0 := congrFun (k0_off5_eq c) 1
      show k0_off5 c 1 + 1 * (y 0).val = (y 0).val
      omega
    · have h3 : k0_off5 c 2 = 1 := congrFun (k0_off5_eq c) 2
      show k0_off5 c 2 + 1 * 0 = 1
      omega
    · have h3 : k0_off5 c 3 = 0 := congrFun (k0_off5_eq c) 3
      show k0_off5 c 3 + 1 * (y 1).val = (y 1).val
      omega
  rw [he]
  rfl

/-- The narrowing of a plane's rows depends on them only through their reshaping to the plane. -/
theorem payA25_congr (x y : Vec F S1x1x1024x128 .f32)
    (h : shapeCast S1024x128 x shapeCasts_S1x1x1024x128_S1024x128 = shapeCast S1024x128 y shapeCasts_S1x1x1024x128_S1024x128) : k0_pay25 x = k0_pay25 y := by
  unfold k0_pay25
  rw [h]

/-- What the narrowing stores of batch `c` write: the kernel function's narrowed key and value planes. -/
theorem kh_run (c : Dev nD) (g : Fin 2) (offR offP : Fin 4 → ℕ) (inbR : ∀ x, offR x + S1x1x1024x128.size x ≤ S2x8x1024x128.size x)
    (inbP : ∀ x, offP x + S1x1x1024x128.size x ≤ S2x8x1024x128.size x) (hRP : offR = offP) :
    k0_pay25 (kvRead offR inbR offP inbP (cpVals (F := F) m c (vIdx c 0 ⟨2 * g.val, by omega⟩))) = KFun.kh m c c g := by
  subst hRP
  unfold KFun.kh
  apply payA25_congr
  unfold kvRead
  rw [planeA_read]
  rw [(cpVals_ok m c 0 g).1]
  fin_cases g
  · exact (ksrc0 m c).symm
  · exact (ksrc1 m c).symm
theorem vh_run (c : Dev nD) (g : Fin 2) (offR offP : Fin 4 → ℕ) (inbR : ∀ x, offR x + S1x1x1024x128.size x ≤ S2x8x1024x128.size x)
    (inbP : ∀ x, offP x + S1x1x1024x128.size x ≤ S2x8x1024x128.size x) (hRP : offR = offP) :
    k0_pay25 (kvRead offR inbR offP inbP (cpVals (F := F) m c (vIdx c 0 ⟨2 * g.val + 1, by omega⟩))) = KFun.vh m c c g := by
  subst hRP
  unfold KFun.vh
  apply payA25_congr
  unfold kvRead
  rw [planeA_read]
  rw [(cpVals_ok m c 0 g).2]
  fin_cases g
  · exact (vsrc0 m c).symm
  · exact (vsrc1 m c).symm

/-- After the four narrowing stores the planes of batch `c` in the narrowed buffer are the kernel function's. -/
theorem kvb_rows (c : Dev nD) (f9 : Buf (Elt F) ((c : Thread nD τ).loc cc0_scratch9)) (g : Fin 2) (j : Fin 1024) (d : Fin 128) :
    ((Memref.whole cc0_scratch9 : Memref sig .tc .vmem S2x8x1024x128 .bf16).view.writes (Elt F) f9 (kvbPieces c (cpVals (F := F) m c)))
        (ix4 (0 : Fin 2) (⟨2 * c.val + g.val, by have : c.val < 4 := c.isLt; omega⟩ : Fin 8) j d) = KFun.kh m c c g (ix4 0 0 j d)
      ∧ ((Memref.whole cc0_scratch9 : Memref sig .tc .vmem S2x8x1024x128 .bf16).view.writes (Elt F) f9 (kvbPieces c (cpVals (F := F) m c)))
        (ix4 (1 : Fin 2) (⟨2 * c.val + g.val, by have : c.val < 4 := c.isLt; omega⟩ : Fin 8) j d) = KFun.vh m c c g (ix4 0 0 j d) := by
  have hc : c.val < 4 := c.isLt
  exact Rows.kvrows_at m c c (2 * c.val) (by omega) (k0_off7 c 1#32) (k0_off6 c 1#32) (k0_off7 c 0#32) (k0_off6 c 0#32)
    (k0_off7_inb c 1) (k0_off6_inb c 1) (k0_off7_inb c 0) (k0_off6_inb c 0)
    (k0_off7_eq c 1) (k0_off6_eq c 1) (k0_off7_eq c 0) (k0_off6_eq c 0) f9 _ _ _ _
    (kh_run m c 0 _ _ _ _ ((k0_off6_eq c 0).trans (k0_off2_eq c 0).symm))
    (vh_run m c 0 _ _ _ _ ((k0_off7_eq c 0).trans (k0_off4_eq c 0).symm))
    (kh_run m c 1 _ _ _ _ ((k0_off6_eq c 1).trans (k0_off2_eq c 1).symm))
    (vh_run m c 1 _ _ _ _ ((k0_off7_eq c 1).trans (k0_off4_eq c 1).symm)) g j d

end Values

/-! ## The stretch -/

section Main
variable (m : (ℓ : Loc nD τ sig) → Buf (Elt F) ℓ)

/-- What device `c`'s body starts from, at the names `K` and with the waits `W` recorded: the ring's ghost state, the credit
    dealt at launch, the level facts, the local-copy semaphores at zero, the unstaged arrays, the scratch buffers, what it
    owes, and the four staged windows. -/
def At0 (c : Dev nD) (K : Names) (W : Waits sig Unit) : sProp 𝕄 :=
  iprop(((ghost (KFun.V m) K c ∗ cred (tallyAt (barCell c) () 2)
        ∗ (bigSep Finset.univ fun x : Xfer => cred (tallyAt (recvCell c x.1 x.2.1 x.2.2) () (amt x.1)))
        ∗ levAts L lv ∗ copySems0 c ∗ hbm m c) ∗ scratch c)
    ∗ owes (c : Thread nD τ) (O₀ c) W
    ∗ (∃ d f, ⌜f = (dats (KFun.V m) m KFun.Kout 0 c).before 0 t0_0 d⌝ ∗ (c : Thread nD τ).loc cc0_stg0_0 ↦{fullShare} f)
    ∗ (∃ d f, ⌜f = (dats (KFun.V m) m KFun.Kout 0 c).before 1 t0_0 d⌝ ∗ (c : Thread nD τ).loc cc0_stg1_0 ↦{fullShare} f)
    ∗ (∃ d f, ⌜f = (dats (KFun.V m) m KFun.Kout 0 c).before 2 t0_0 d⌝ ∗ (c : Thread nD τ).loc cc0_stg2_0 ↦{fullShare} f)
    ∗ (∃ d f, ⌜f = (dats (KFun.V m) m KFun.Kout 0 c).before 3 t0_0 d⌝ ∗ (c : Thread nD τ).loc cc0_stg3_0 ↦{fullShare} f))

set_option maxHeartbeats 40000000 in
/-- From the body's start to the first flash loop. -/
theorem segA_ok (c : Dev nD) (K : Names) (W : Waits sig Unit) :
    At0 m c K W ⊢ wp frame (wpE (defs₀ (F := F)) 𝒱₀ (c : Thread nD τ) none) Set.univ
      (segAProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _))
      (fun r => iprop(∃ W', At15 m c K W' r.2.2.2.2.1 r.2.2.2.2.2 ∗ ⌜r.1 = c⌝)) := by
  unfold At0 scratch ghost invs copySems0 hbm
  rw [Gen.scopedRest0_eq]
  simp only [bigSep_xfer, bigSep_fin4]
  rw [show copySem 0 = ((cc0_scratch22.slice (Rect.unit (s := S4) ![0] S1.size inb_S4_S1_0)).squeeze S_ squeezes_S1_S_).sem from rfl]
  rw [show copySem 1 = ((cc0_scratch22.slice (Rect.unit (s := S4) ![1] S1.size inb_S4_S1_1)).squeeze S_ squeezes_S1_S_).sem from rfl]
  rw [show copySem 2 = ((cc0_scratch22.slice (Rect.unit (s := S4) ![2] S1.size inb_S4_S1_2)).squeeze S_ squeezes_S1_S_).sem from rfl]
  rw [show copySem 3 = ((cc0_scratch22.slice (Rect.unit (s := S4) ![3] S1.size inb_S4_S1_3)).squeeze S_ squeezes_S1_S_).sem from rfl]
  unfold O₀ prog
  iintro ⟨⟨⟨⟨⟨#HIb, ⟨⟨#HIs_o0R, #HIr_o0R, #HIn_o0R⟩, ⟨#HIs_l0R, #HIr_l0R, #HIn_l0R⟩, ⟨#HIs_o0L, #HIr_o0L, #HIn_o0L⟩, ⟨#HIs_l0L, #HIr_l0L, #HIn_l0L⟩, ⟨#HIs_o1R, #HIr_o1R, #HIn_o1R⟩, ⟨#HIs_o1L, #HIr_o1L, #HIn_o1L⟩, ⟨#HIs_l1R, #HIr_l1R, #HIn_l1R⟩, ⟨#HIs_l1L, #HIr_l1L, #HIn_l1L⟩, ⟨#HIs_o2R, #HIr_o2R, #HIn_o2R⟩, ⟨#HIs_o2L, #HIr_o2L, #HIn_o2L⟩, ⟨#HIs_l2R, #HIr_l2R, #HIn_l2R⟩, ⟨#HIs_l2L, #HIr_l2L, #HIn_l2L⟩, ⟨#HIs_g0R, #HIr_g0R, #HIn_g0R⟩, ⟨#HIs_g0L, #HIr_g0L, #HIn_g0L⟩, ⟨#HIs_g1R, #HIr_g1R, #HIn_g1R⟩, ⟨#HIs_g1L, #HIr_g1L, #HIn_g1L⟩, ⟨#HIs_g2R, #HIr_g2R, #HIn_g2R⟩, ⟨#HIs_g2L, #HIr_g2L, #HIn_g2L⟩⟩, #HIbn, #HIbp⟩, HaB, ⟨⟨Has_o0R, Har_o0R⟩, ⟨Has_l0R, Har_l0R⟩, ⟨Has_o0L, Har_o0L⟩, ⟨Has_l0L, Har_l0L⟩, ⟨Has_o1R, Har_o1R⟩, ⟨Has_o1L, Har_o1L⟩, ⟨Has_l1R, Har_l1R⟩, ⟨Has_l1L, Har_l1L⟩, ⟨Has_o2R, Har_o2R⟩, ⟨Has_o2L, Har_o2L⟩, ⟨Has_l2R, Har_l2R⟩, ⟨Has_l2L, Har_l2L⟩, ⟨Has_g0R, Har_g0R⟩, ⟨Has_g0L, Har_g0L⟩, ⟨Has_g1R, Har_g1R⟩, ⟨Has_g1L, Har_g1L⟩, ⟨Has_g2R, Har_g2R⟩, ⟨Has_g2L, Har_g2L⟩⟩, ⟨⟨#Hrs_o0R, #Hrr_o0R⟩, ⟨#Hrs_l0R, #Hrr_l0R⟩, ⟨#Hrs_o0L, #Hrr_o0L⟩, ⟨#Hrs_l0L, #Hrr_l0L⟩, ⟨#Hrs_o1R, #Hrr_o1R⟩, ⟨#Hrs_o1L, #Hrr_o1L⟩, ⟨#Hrs_l1R, #Hrr_l1R⟩, ⟨#Hrs_l1L, #Hrr_l1L⟩, ⟨#Hrs_o2R, #Hrr_o2R⟩, ⟨#Hrs_o2L, #Hrr_o2L⟩, ⟨#Hrs_l2R, #Hrr_l2R⟩, ⟨#Hrs_l2L, #Hrr_l2L⟩, ⟨#Hrs_g0R, #Hrr_g0R⟩, ⟨#Hrs_g0L, #Hrr_g0L⟩, ⟨#Hrs_g1R, #Hrr_g1R⟩, ⟨#Hrs_g1L, #Hrr_g1L⟩, ⟨#Hrs_g2R, #Hrr_g2R⟩, ⟨#Hrs_g2L, #Hrr_g2L⟩⟩, #HrBn, #HrBp, HtBp, HtBn, ⟨⟨Hts_o0R, Htn_o0R⟩, ⟨Hts_l0R, Htn_l0R⟩, ⟨Hts_o0L, Htn_o0L⟩, ⟨Hts_l0L, Htn_l0L⟩, ⟨Hts_o1R, Htn_o1R⟩, ⟨Hts_o1L, Htn_o1L⟩, ⟨Hts_l1R, Htn_l1R⟩, ⟨Hts_l1L, Htn_l1L⟩, ⟨Hts_o2R, Htn_o2R⟩, ⟨Hts_o2L, Htn_o2L⟩, ⟨Hts_l2R, Htn_l2R⟩, ⟨Hts_l2L, Htn_l2L⟩, ⟨Hts_g0R, Htn_g0R⟩, ⟨Hts_g0L, Htn_g0L⟩, ⟨Hts_g1R, Htn_g1R⟩, ⟨Hts_g1L, Htn_g1L⟩, ⟨Hts_g2R, Htn_g2R⟩, ⟨Hts_g2L, Htn_g2L⟩⟩⟩, HcB, ⟨Hc_o0R, Hc_l0R, Hc_o0L, Hc_l0L, Hc_o1R, Hc_o1L, Hc_l1R, Hc_l1L, Hc_o2R, Hc_o2L, Hc_l2R, Hc_l2L, Hc_g0R, Hc_g0L, Hc_g1R, Hc_g1L, Hc_g2R, Hc_g2L⟩, #Hlev, ⟨Hcs0, Hcs1, Hcs2, Hcs3⟩, ⟨Hk3, Hk4⟩⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f23, Hs23⟩⟩, HO, ⟨%d0, %g0, %hg0, Hx⟩, ⟨%d1, %g1, %hg1, Hwq⟩, ⟨%d2, %g2, %hg2, Hwo⟩, ⟨%d3, %g3, %hg3, Hout⟩⟩
  rw [dats_before0 (KFun.V m) m KFun.Kout c t0_0 d0] at hg0
  rw [dats_before1 (KFun.V m) m KFun.Kout c t0_0 d1] at hg1
  rw [dats_before2 (KFun.V m) m KFun.Kout c t0_0 d2] at hg2
  subst hg0; subst hg1; subst hg2
  have _plan0 : Transfers.BatchOf (c : Thread nD τ) (SemLoc.dma (sig := sig) ((cc0_scratch22.slice (Rect.unit (s := S4) ![0] S1.size inb_S4_S1_0)).squeeze S_ squeezes_S1_S_).sem) 4 (windows := true) := trivial
  have _plan1 : Transfers.BatchOf (c : Thread nD τ) (SemLoc.dma (sig := sig) ((cc0_scratch22.slice (Rect.unit (s := S4) ![1] S1.size inb_S4_S1_1)).squeeze S_ squeezes_S1_S_).sem) 4 (windows := true) := trivial
  have _plan2 : Transfers.BatchOf (c : Thread nD τ) (SemLoc.dma (sig := sig) ((cc0_scratch22.slice (Rect.unit (s := S4) ![2] S1.size inb_S4_S1_2)).squeeze S_ squeezes_S1_S_).sem) 4 (windows := true) := trivial
  have _plan3 : Transfers.BatchOf (c : Thread nD τ) (SemLoc.dma (sig := sig) ((cc0_scratch22.slice (Rect.unit (s := S4) ![3] S1.size inb_S4_S1_3)).squeeze S_ squeezes_S1_S_).sem) 4 (windows := true) := trivial
  ihave Hsp0 := (Entails.of_eq (locO_blocks_eq (F := F) c f0)) $$ Hs0
  icases Hsp0 with ⟨HbO0, HbO1, HbO2, HbO3⟩
  ihave Hsp1 := (Entails.of_eq (locL_blocks_eq (F := F) c f1)) $$ Hs1
  icases Hsp1 with ⟨HbL0, HbL1, HbL2, HbL3⟩
  ihave Hs4 := (Entails.of_eq (whole_pts (F := F) c cc0_scratch4 f4)) $$ Hs4
  ihave Hsp5 := (Entails.of_eq (kv_split_eq (F := F) c f5)) $$ Hs5
  icases Hsp5 with ⟨Hkv_0_0, Hkv_1_0, Hkv_0_1, Hkv_1_1, Hkv_0_2, Hkv_1_2, Hkv_0_3, Hkv_1_3, Hkv_0_4, Hkv_1_4, Hkv_0_5, Hkv_1_5, Hkv_0_6, Hkv_1_6, Hkv_0_7, Hkv_1_7⟩
  ihave Hs6 := (Entails.of_eq (whole_pts (F := F) c cc0_scratch6 f6)) $$ Hs6
  ihave Hs7 := (Entails.of_eq (whole_pts (F := F) c cc0_scratch7 f7)) $$ Hs7
  ihave Hs8 := (Entails.of_eq (whole_pts (F := F) c cc0_scratch8 f8)) $$ Hs8
  ihave Hs9 := (Entails.of_eq (whole_pts (F := F) c cc0_scratch9 f9)) $$ Hs9
  ihave Hx := (Entails.of_eq (whole_pts (F := F) c cc0_stg0_0 _)) $$ Hx
  ihave Hwq := (Entails.of_eq (whole_pts (F := F) c cc0_stg1_0 _)) $$ Hwq
  ihave Hwo := (Entails.of_eq (whole_pts (F := F) c cc0_stg2_0 _)) $$ Hwo
  ihave Hout := (Entails.of_eq (whole_pts (F := F) c cc0_stg3_0 g3)) $$ Hout
  ihave HspK := (Entails.of_eq (hbK_split_eq (F := F) c _)) $$ Hk3
  icases HspK with ⟨HK00, HK01, HK10, HK11, HK20, HK21, HK30, HK31⟩
  ihave HspV := (Entails.of_eq (hbV_split_eq (F := F) c _)) $$ Hk4
  icases HspV with ⟨HV00, HV01, HV10, HV11, HV20, HV21, HV30, HV31⟩
  ihave Hsp2 := (Entails.of_eq (rsO_split_eq (F := F) c f2)) $$ Hs2
  icases Hsp2 with ⟨Hd_o0R, Hd_o0L, Hd_o1R, Hd_o1L, Hd_o2R, Hd_o2L⟩
  ihave Hsp3 := (Entails.of_eq (rsL_split_eq (F := F) c f3)) $$ Hs3
  icases Hsp3 with ⟨Hd_l0R, Hd_l0L, Hd_l1R, Hd_l1L, Hd_l2R, Hd_l2L⟩
  ihave Hsp23 := (Entails.of_eq (agB_split_eq (F := F) c f23)) $$ Hs23
  icases Hsp23 with ⟨Hd_g0R, Hd_g1R, Hd_g2R, Hd_g0L, Hd_g1L, Hd_g2L, Hg_ownR, Hg_ownL⟩
  unfold segAProg
  sl_exec
  iapply (wp_sig (KFun.V m) c (prv c) true rfl _ W (K (prv c, none)) (a := (1#32).toNat) (by decide)) $$ [HO HtBp Hd_o0R Hd_l0R Hd_g0R Hd_o1R Hd_l1R Hd_g1R Hd_o2R Hd_l2R Hd_g2R]
  · isplitr; · iexact HIbp
    isplitl [HO]; · iexact HO
    isplitl [HtBp]; · iexact HtBp
    isplitr [] -- the hand-over, then the neighbour's round
    · rw [show barPay (F := F) (prv c) (!true) = _ from barPay_back c true]
      unfold landing held
      simp only [toDev, Bool.not_true, Bool.not_false]
      isplitl [Hd_o0R Hd_l0R Hd_g0R]
      · isplitl [Hd_o0R]; · (iexists _; iexact Hd_o0R)
        isplitl [Hd_l0R]; · (iexists _; iexact Hd_l0R)
        isplitl [Hd_g0R]; · (iexists _; iexact Hd_g0R)
        isplitr; · iexact Hrr_o0R
        isplitr; · iexact Hrr_l0R
        iexact Hrr_g0R
      isplitl [Hd_o1R Hd_l1R Hd_g1R]
      · isplitl [Hd_o1R]; · (iexists _; iexact Hd_o1R)
        isplitl [Hd_l1R]; · (iexists _; iexact Hd_l1R)
        isplitl [Hd_g1R]; · (iexists _; iexact Hd_g1R)
        isplitr; · iexact Hrr_o1R
        isplitr; · iexact Hrr_l1R
        iexact Hrr_g1R
      · isplitl [Hd_o2R]; · (iexists _; iexact Hd_o2R)
        isplitl [Hd_l2R]; · (iexists _; iexact Hd_l2R)
        isplitl [Hd_g2R]; · (iexists _; iexact Hd_g2R)
        isplitr; · iexact Hrr_o2R
        isplitr; · iexact Hrr_l2R
        iexact Hrr_g2R
    · iexact HrBp
  iintro HO
  sl_exec
  iapply (wp_sig (KFun.V m) c (nxt c) false rfl _ W (K (nxt c, none)) (a := (1#32).toNat) (by decide)) $$ [HO HtBn Hd_o0L Hd_l0L Hd_g0L Hd_o1L Hd_l1L Hd_g1L Hd_o2L Hd_l2L Hd_g2L]
  · isplitr; · iexact HIbn
    isplitl [HO]; · iexact HO
    isplitl [HtBn]; · iexact HtBn
    isplitr [] -- the hand-over, then the neighbour's round
    · rw [show barPay (F := F) (nxt c) (!false) = _ from barPay_back c false]
      unfold landing held
      simp only [toDev, Bool.not_true, Bool.not_false]
      isplitl [Hd_o0L Hd_l0L Hd_g0L]
      · isplitl [Hd_o0L]; · (iexists _; iexact Hd_o0L)
        isplitl [Hd_l0L]; · (iexists _; iexact Hd_l0L)
        isplitl [Hd_g0L]; · (iexists _; iexact Hd_g0L)
        isplitr; · iexact Hrr_o0L
        isplitr; · iexact Hrr_l0L
        iexact Hrr_g0L
      isplitl [Hd_o1L Hd_l1L Hd_g1L]
      · isplitl [Hd_o1L]; · (iexists _; iexact Hd_o1L)
        isplitl [Hd_l1L]; · (iexists _; iexact Hd_l1L)
        isplitl [Hd_g1L]; · (iexists _; iexact Hd_g1L)
        isplitr; · iexact Hrr_o1L
        isplitr; · iexact Hrr_l1L
        iexact Hrr_g1L
      · isplitl [Hd_o2L]; · (iexists _; iexact Hd_o2L)
        isplitl [Hd_l2L]; · (iexists _; iexact Hd_l2L)
        isplitl [Hd_g2L]; · (iexists _; iexact Hd_g2L)
        isplitr; · iexact Hrr_o2L
        isplitr; · iexact Hrr_l2L
        iexact Hrr_g2L
    · iexact HrBn
  iintro HO
  sl_exec
  ihave HD := (batches_rel (F := F) c f5 m ![segA_ok.sl.dma0 m c, segA_ok.sl.dma1 m c, segA_ok.sl.dma2 m c, segA_ok.sl.dma3 m c, segA_ok.sl.dma4 m c, segA_ok.sl.dma5 m c, segA_ok.sl.dma6 m c, segA_ok.sl.dma7 m c,
      segA_ok.sl.dma8 m c, segA_ok.sl.dma9 m c, segA_ok.sl.dma10 m c, segA_ok.sl.dma11 m c, segA_ok.sl.dma12 m c, segA_ok.sl.dma13 m c, segA_ok.sl.dma14 m c, segA_ok.sl.dma15 m c]) $$ [Hcs0 Hcs1 Hcs2 Hcs3]
  · simp only [batL, cpBatch, cpDeliv, kvPl]
    isplitl [Hcs0]; · iexact Hcs0
    isplitl [Hcs1]; · iexact Hcs1
    isplitl [Hcs2]; · iexact Hcs2
    iexact Hcs3
  icases HD with ⟨HcsD0, HcsD1, HcsD2, HcsD3⟩
  unfold batD cpBatch cpDeliv kvPl
  have hq0 : cellRole (.dma (csemD c 0)) = none := cellRole_ge _ (by rw [csemD_val]; omega)
  have hmw0 : (levAts L lv : sProp 𝕄) ⊢ MayWait (c : Thread nD τ) (.dma (csemD c 0)) () (owedOf c (prog.drop 2)) :=
    mayWait_low (F := F) c (csemD c 0) hq0 _
  sl_exec
  sl_step
  iexists (insert (SemLoc.dma (csemD c 0), default) (insert (SemLoc.dma (csemD c 0), default)
    (insert (SemLoc.dma (csemD c 0), default) (insert (SemLoc.dma (csemD c 0), default) W))))
  isplitr []
  swap
  · ipureintro; rfl
  unfold At15
  -- the invariants
  isplitr [HO HcB HaB Has_o0R Har_o0R Has_l0R Har_l0R Has_o0L Har_o0L Has_l0L Har_l0L Has_o1R Har_o1R Has_o1L Har_o1L Has_l1R Har_l1R Has_l1L Har_l1L Has_o2R Har_o2R Has_o2L Har_o2L Has_l2R Har_l2R Has_l2L Har_l2L Has_g0R Har_g0R Has_g0L Har_g0L Has_g1R Har_g1R Has_g1L Har_g1L Has_g2R Har_g2R Has_g2L Har_g2L Hts_o0R Htn_o0R Hts_l0R Htn_l0R Hts_o0L Htn_o0L Hts_l0L Htn_l0L Hts_o1R Htn_o1R Hts_o1L Htn_o1L Hts_l1R Htn_l1R Hts_l1L Htn_l1L Hts_o2R Htn_o2R Hts_o2L Htn_o2L Hts_l2R Htn_l2R Hts_l2L Htn_l2L Hts_g0R Htn_g0R Hts_g0L Htn_g0L Hts_g1R Htn_g1R Hts_g1L Htn_g1L Hts_g2R Htn_g2R Hts_g2L Htn_g2L Hc_o0R Hc_l0R Hc_o0L Hc_l0L Hc_o1R Hc_o1L Hc_l1R Hc_l1L Hc_o2R Hc_o2L Hc_l2R Hc_l2L Hc_g0R Hc_g0L Hc_g1R Hc_g1L Hc_g2R Hc_g2L HbO0 HbO1 HbO2 HbO3 HbL0 HbL1 HbL2 HbL3 Hs4 Hs6 Hs7 Hs8 Hs9 Hx Hwq Hwo Hout Hg_ownR Hg_ownL HK00 HV00 HK01 HK10 HV10 HK11 HK20 HV20 HK21 HK30 HV30 HK31 HcsD1 HcsD2 HcsD3 HcsD0_dst0 HcsD0_src0 HcsD0_dst1 HcsD0_src1 HcsD0_dst2 HcsD0_src2 HcsD0_dst3 HcsD0_src3 HcsD0]
  · unfold invs
    simp only [bigSep_xfer]
    repeat' (first | iassumption | isplitl [])
  -- the level facts
  isplitr [HO HcB HaB Has_o0R Har_o0R Has_l0R Har_l0R Has_o0L Har_o0L Has_l0L Har_l0L Has_o1R Har_o1R Has_o1L Har_o1L Has_l1R Har_l1R Has_l1L Har_l1L Has_o2R Har_o2R Has_o2L Har_o2L Has_l2R Har_l2R Has_l2L Har_l2L Has_g0R Har_g0R Has_g0L Har_g0L Has_g1R Har_g1R Has_g1L Har_g1L Has_g2R Har_g2R Has_g2L Har_g2L Hts_o0R Htn_o0R Hts_l0R Htn_l0R Hts_o0L Htn_o0L Hts_l0L Htn_l0L Hts_o1R Htn_o1R Hts_o1L Htn_o1L Hts_l1R Htn_l1R Hts_l1L Htn_l1L Hts_o2R Htn_o2R Hts_o2L Htn_o2L Hts_l2R Htn_l2R Hts_l2L Htn_l2L Hts_g0R Htn_g0R Hts_g0L Htn_g0L Hts_g1R Htn_g1R Hts_g1L Htn_g1L Hts_g2R Htn_g2R Hts_g2L Htn_g2L Hc_o0R Hc_l0R Hc_o0L Hc_l0L Hc_o1R Hc_o1L Hc_l1R Hc_l1L Hc_o2R Hc_o2L Hc_l2R Hc_l2L Hc_g0R Hc_g0L Hc_g1R Hc_g1L Hc_g2R Hc_g2L HbO0 HbO1 HbO2 HbO3 HbL0 HbL1 HbL2 HbL3 Hs4 Hs6 Hs7 Hs8 Hs9 Hx Hwq Hwo Hout Hg_ownR Hg_ownL HK00 HV00 HK01 HK10 HV10 HK11 HK20 HV20 HK21 HK30 HV30 HK31 HcsD1 HcsD2 HcsD3 HcsD0_dst0 HcsD0_src0 HcsD0_dst1 HcsD0_src1 HcsD0_dst2 HcsD0_src2 HcsD0_dst3 HcsD0_src3 HcsD0]
  · iassumption
  -- the words
  isplitr [HO HcB HaB Has_o0R Har_o0R Has_l0R Har_l0R Has_o0L Har_o0L Has_l0L Har_l0L Has_o1R Har_o1R Has_o1L Har_o1L Has_l1R Har_l1R Has_l1L Har_l1L Has_o2R Har_o2R Has_o2L Har_o2L Has_l2R Har_l2R Has_l2L Har_l2L Has_g0R Har_g0R Has_g0L Har_g0L Has_g1R Har_g1R Has_g1L Har_g1L Has_g2R Har_g2R Has_g2L Har_g2L Hts_o0R Htn_o0R Hts_l0R Htn_l0R Hts_o0L Htn_o0L Hts_l0L Htn_l0L Hts_o1R Htn_o1R Hts_o1L Htn_o1L Hts_l1R Htn_l1R Hts_l1L Htn_l1L Hts_o2R Htn_o2R Hts_o2L Htn_o2L Hts_l2R Htn_l2R Hts_l2L Htn_l2L Hts_g0R Htn_g0R Hts_g0L Htn_g0L Hts_g1R Htn_g1R Hts_g1L Htn_g1L Hts_g2R Htn_g2R Hts_g2L Htn_g2L Hc_o0R Hc_l0R Hc_o0L Hc_l0L Hc_o1R Hc_o1L Hc_l1R Hc_l1L Hc_o2R Hc_o2L Hc_l2R Hc_l2L Hc_g0R Hc_g0L Hc_g1R Hc_g1L Hc_g2R Hc_g2L HbO0 HbO1 HbO2 HbO3 HbL0 HbL1 HbL2 HbL3 Hs4 Hs6 Hs7 Hs8 Hs9 Hx Hwq Hwo Hout Hg_ownR Hg_ownL HK00 HV00 HK01 HK10 HV10 HK11 HK20 HV20 HK21 HK30 HV30 HK31 HcsD1 HcsD2 HcsD3 HcsD0_dst0 HcsD0_src0 HcsD0_dst1 HcsD0_src1 HcsD0_dst2 HcsD0_src2 HcsD0_dst3 HcsD0_src3 HcsD0]
  · ipureintro
    exact ⟨rfl, congrArg₂ k0_pay28 (run_x (KFun.V m) m KFun.Kout c) (run_wq (KFun.V m) m KFun.Kout c)⟩
  -- what it owes, the barrier cell
  isplitl [HO]
  · iexact HO
  isplitl [HcB]
  · iexact HcB
  isplitl [HaB]
  · iexact HaB
  -- the eighteen transfers
  isplitl [Has_o0R Har_o0R Has_l0R Har_l0R Has_o0L Har_o0L Has_l0L Har_l0L Has_o1R Har_o1R Has_o1L Har_o1L Has_l1R Har_l1R Has_l1L Har_l1L Has_o2R Har_o2R Has_o2L Har_o2L Has_l2R Har_l2R Has_l2L Har_l2L Has_g0R Har_g0R Has_g0L Har_g0L Has_g1R Har_g1R Has_g1L Har_g1L Has_g2R Har_g2R Has_g2L Har_g2L Hts_o0R Htn_o0R Hts_l0R Htn_l0R Hts_o0L Htn_o0L Hts_l0L Htn_l0L Hts_o1R Htn_o1R Hts_o1L Htn_o1L Hts_l1R Htn_l1R Hts_l1L Htn_l1L Hts_o2R Htn_o2R Hts_o2L Htn_o2L Hts_l2R Htn_l2R Hts_l2L Htn_l2L Hts_g0R Htn_g0R Hts_g0L Htn_g0L Hts_g1R Htn_g1R Hts_g1L Htn_g1L Hts_g2R Htn_g2R Hts_g2L Htn_g2L Hc_o0R Hc_l0R Hc_o0L Hc_l0L Hc_o1R Hc_o1L Hc_l1R Hc_l1L Hc_o2R Hc_o2L Hc_l2R Hc_l2L Hc_g0R Hc_g0L Hc_g1R Hc_g1L Hc_g2R Hc_g2L]
  · simp only [bigSep_xfer, freshX]
    iframe ∗
    repeat' (first | iassumption | isplitl [])
  -- the staged arguments
  isplitl [Hx]
  · iexact Hx
  isplitl [Hwq]
  · iexact Hwq
  isplitl [Hwo]
  · iexact Hwo
  isplitl [Hout]
  · unfold wholeEx; rw [← whole_ex c cc0_stg3_0]; iexists _; iexact Hout
  -- the projected queries
  isplitl [Hs4]
  · iexists _
    isplitl [Hs4]
    · iexact Hs4
    · ipureintro
      intro h hh i d
      exact q2_rows m c f4 _ _ (run_x (KFun.V m) m KFun.Kout c) (run_wq (KFun.V m) m KFun.Kout c) h hh i d
  isplitl [Hs6]
  · unfold wholeEx; rw [← whole_ex c cc0_scratch6]; iexists _; iexact Hs6
  isplitl [Hs7]
  · rw [← run_s7 (KFun.V m) m KFun.Kout c f7]; iexact Hs7
  isplitl [Hs8]
  · rw [← run_s8 (KFun.V m) m KFun.Kout c f8]; iexact Hs8
  isplitl [Hs9]
  · iexists _
    isplitl [Hs9]
    · iexact Hs9
    · ipureintro
      intro g j d
      exact kvb_rows m c f9 g j d
  -- the local copies
  isplitl [HcsD1 HcsD2 HcsD3 HcsD0_dst0 HcsD0_src0 HcsD0_dst1 HcsD0_src1 HcsD0_dst2 HcsD0_src2 HcsD0_dst3 HcsD0_src3 HcsD0 HK00 HV00 HK01 HK10 HV10 HK11 HK20 HV20 HK21 HK30 HV30 HK31]
  · unfold kvCut15 later3 later1
    iexists f5
    iexists ![segA_ok.sl.dma0 m c, segA_ok.sl.dma1 m c, segA_ok.sl.dma2 m c, segA_ok.sl.dma3 m c, segA_ok.sl.dma4 m c, segA_ok.sl.dma5 m c, segA_ok.sl.dma6 m c, segA_ok.sl.dma7 m c,
      segA_ok.sl.dma8 m c, segA_ok.sl.dma9 m c, segA_ok.sl.dma10 m c, segA_ok.sl.dma11 m c, segA_ok.sl.dma12 m c, segA_ok.sl.dma13 m c, segA_ok.sl.dma14 m c, segA_ok.sl.dma15 m c]
    isplitr [HcsD1 HcsD2 HcsD3 HcsD0_dst0 HcsD0_src0 HcsD0_dst1 HcsD0_src1 HcsD0_dst2 HcsD0_src2 HcsD0_dst3 HcsD0_src3 HcsD0 HK00 HV00 HK01 HK10 HV10 HK11 HK20 HV20 HK21 HK30 HV30 HK31]
    · ipureintro
      intro j g
      exact cpVals_ok m c j g
    isplitl [HcsD1 HcsD2 HcsD3]
    · unfold batD cpBatch cpDeliv kvPl
      isplitl [HcsD2]; · iexact HcsD2
      isplitl [HcsD3]; · iexact HcsD3
      iexact HcsD1
    isplitl [HcsD0_dst0 HcsD0_dst1 HcsD0_dst2 HcsD0_dst3]
    · unfold held kvD
      isplitl [HcsD0_dst0]; · (iexists _; iexact HcsD0_dst0)
      isplitl [HcsD0_dst1]; · (iexists _; iexact HcsD0_dst1)
      isplitl [HcsD0_dst2]; · (iexists _; iexact HcsD0_dst2)
      iexists _; iexact HcsD0_dst3
    isplitl [HcsD0_src0 HcsD0_src1 HcsD0_src2 HcsD0_src3]
    · isplitl [HcsD0_src0]; · iexact HcsD0_src0
      isplitl [HcsD0_src1]; · iexact HcsD0_src1
      isplitl [HcsD0_src2]; · iexact HcsD0_src2
      iexact HcsD0_src3
    isplitl [HcsD0]
    · iexact HcsD0
    ihave KD := (kept_unrot c m) $$ [HK00 HV00 HK01 HK10 HV10 HK11 HK20 HV20 HK21 HK30 HV30 HK31]
    · unfold keptL srcPt hbKS hbVS hbK hbV
      isplitl [HK00 HV00 HK01]
      · isplitl [HK00]; · iexact HK00
        isplitl [HV00]; · iexact HV00
        iexact HK01
      isplitl [HK10 HV10 HK11]
      · isplitl [HK10]; · iexact HK10
        isplitl [HV10]; · iexact HV10
        iexact HK11
      isplitl [HK20 HV20 HK21]
      · isplitl [HK20]; · iexact HK20
        isplitl [HV20]; · iexact HV20
        iexact HK21
      isplitl [HK30]; · iexact HK30
      isplitl [HV30]; · iexact HV30
      iexact HK31
    unfold keptD srcPt
    rw [bigSep_fin4]
    iexact KD
  -- the partial sums' buffers, by blocks
  isplitl [HbO0 HbO1 HbO2 HbO3]
  · rw [bigSep_fin4]; unfold held
    isplitl [HbO0]; · (iexists _; iexact HbO0)
    isplitl [HbO1]; · (iexists _; iexact HbO1)
    isplitl [HbO2]; · (iexists _; iexact HbO2)
    iexists _; iexact HbO3
  isplitl [HbL0 HbL1 HbL2 HbL3]
  · rw [bigSep_fin4]; unfold held
    isplitl [HbL0]; · (iexists _; iexact HbL0)
    isplitl [HbL1]; · (iexists _; iexact HbL1)
    isplitl [HbL2]; · (iexists _; iexact HbL2)
    iexists _; iexact HbL3
  -- the own halves
  iexists f23
  isplitl [Hg_ownR]; · iexact Hg_ownR
  iexact Hg_ownL

end Main

end Cert.KernelIdeal.Proto
end
-- ==== Proof.OpCopy.lean ====
/-
  The sixteen local copies of the key and value planes, as four batches of four on the four copy semaphores.

  Batch `b` copies, for the two key/value heads `g`, the device's key rows and value rows of batch `b` into planes
  `2b + g` of the key half and of the value half of the plane buffer: four transfers of one plane's credit on semaphore
  `b`, all started before any is waited for.  The machine credits a transfer in instalments, so only the wait that brings
  the units consumed to four planes' worth knows every transfer has landed: the first three waits of a batch return
  nothing, the fourth returns the four planes at the copied contents, the four source planes, and the semaphore at zero.
  The batches are held as a family over the batch index, so that a wait at an index computed from the device's position
  takes its batch out and leaves the rest.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.KvSplit
import proofs.«900754_g7700000000000755_dist_attn_cross_gqa_kvseq_b4_sq256_skv1024_d1024_hq8_dh128_v7x_i4_f32_1_alg».proof.Proof.Ring
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.KLaunch
import Idealize.ShloMosaic.Lib.Batch

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores, the sources and the destinations, uniformly in the batch -/

theorem copy_inb (b : Fin 4) : ∀ a, (![b.val] : Fin 1 → ℕ) a + S1.size a ≤ S4.size a := by
  intro a; fin_cases a; show b.val + 1 ≤ 4; omega

/-- Copy semaphore `b`, as the program slices the array of four. -/
def copySemAt (b : Fin 4) : DmaSem sig :=
  ((cc0_scratch22.slice (Rect.unit (s := S4) ![b.val] S1.size (copy_inb b))).squeeze S_ squeezes_S1_S_).sem

theorem copySemAt_lit (b : Fin 4) : copySemAt b = copySem b := by
  fin_cases b <;> rfl

/-- The slice at any offsets that are the literal `b`. -/
theorem copySemAt_of_off (off : Fin 1 → ℕ) (inb : ∀ a, off a + S1.size a ≤ S4.size a) (b : Fin 4) (h : off = ![b.val]) :
    ((cc0_scratch22.slice (Rect.unit (s := S4) off S1.size inb)).squeeze S_ squeezes_S1_S_).sem = copySemAt b := by
  subst h; rfl

/-- The first flash step waits on the semaphore of the device's own number. -/
theorem copySemAt_dev (c : Dev nD) :
    ((cc0_scratch22.slice (Rect.unit (s := S4) (k0_off1 c) S1.size (k0_off1_inb c))).squeeze S_ squeezes_S1_S_).sem = copySemAt c :=
  copySemAt_of_off _ _ c (k0_off1_eq c)
/-- The later ones on that of the batch `c + 1 + r`. -/
theorem copySemAt_dev' (c : Dev nD) (r : Fin 3) :
    ((cc0_scratch22.slice (Rect.unit (s := S4) (k0_off17 c (BitVec.ofNat 32 (1 + r.val))) S1.size (k0_off17_inb c r))).squeeze S_ squeezes_S1_S_).sem
      = copySemAt ⟨(c.val + (1 + r.val)) % 4, Nat.mod_lt _ (by decide)⟩ :=
  copySemAt_of_off _ _ _ (off17_eq c r)

theorem cellRole_copy (b : Fin 4) : cellRole (.dma (copySemAt b)) = none := by
  fin_cases b <;> exact cellRole_ge _ (by decide)

theorem src_inb (b : Fin 4) (g : Fin 2) : ∀ x, (![b.val, 0, g.val, 0] : Fin 4 → ℕ) x + S1x1024x1x128.size x ≤ S4x1024x2x128.size x := by
  intro x
  fin_cases x
  · show b.val + 1 ≤ 4; omega
  · show 0 + 1024 ≤ 1024; omega
  · show g.val + 1 ≤ 2; omega
  · show 0 + 128 ≤ 128; omega

/-- The device's key rows, and value rows, of batch `b` and key/value head `g`: the source of a copy. -/
def kSrc (b : Fin 4) (g : Fin 2) : Memref sig .tc .hbm S1024x128 .f32 :=
  ((Memref.whole main_arg3).slice (Rect.unit (s := S4x1024x2x128) ![b.val, 0, g.val, 0] S1x1024x1x128.size (src_inb b g)) (fun _ => rfl)).squeeze S1024x128 squeezes_S1x1024x1x128_S1024x128
def vSrc (b : Fin 4) (g : Fin 2) : Memref sig .tc .hbm S1024x128 .f32 :=
  ((Memref.whole main_arg4).slice (Rect.unit (s := S4x1024x2x128) ![b.val, 0, g.val, 0] S1x1024x1x128.size (src_inb b g)) (fun _ => rfl)).squeeze S1024x128 squeezes_S1x1024x1x128_S1024x128

/-- Plane `2b + g` of the keys (`a = 0`) or of the values (`a = 1`): the destination of a copy. -/
def kvAt (a : Fin 2) (b : Fin 4) (g : Fin 2) : Memref sig .tc .vmem S1024x128 .f32 :=
  (kvB.slice (kvR a.val (2 * b.val + g.val) ⟨a.isLt, by omega⟩) (fun _ => rfl)).squeeze S1024x128 squeezes_S1x1x1024x128_S1024x128

theorem kvAt_lit (a : Fin 2) (b : Fin 4) (g : Fin 2) : kvAt a b g = kvS a ⟨2 * b.val + g.val, by omega⟩ := by
  fin_cases a <;> fin_cases b <;> fin_cases g <;> rfl

/-- The four transfers of batch `b` in the order they are issued: keys then values of head 0, keys then values of head 1. -/
def cpSrc (b : Fin 4) : Fin 4 → Memref sig .tc .hbm S1024x128 .f32
  | 0 => kSrc b 0 | 1 => vSrc b 0 | 2 => kSrc b 1 | 3 => vSrc b 1
def cpDst (b : Fin 4) : Fin 4 → Memref sig .tc .vmem S1024x128 .f32
  | 0 => kvAt 0 b 0 | 1 => kvAt 1 b 0 | 2 => kvAt 0 b 1 | 3 => kvAt 1 b 1

/-- One plane's credit. -/
def amtKV : ℕ := (kvS 0 0).view.dmaCredit

theorem amt_cpDst (b j : Fin 4) (q : DmaSem sig) : (cpDst b j).view.amount (.dma q) = amtKV := by
  fin_cases b <;> fin_cases j <;> rfl
theorem amtKV_pos : 0 < amtKV := View.dmaCredit_pos (kvS 0 0).view (by decide)

/-- A plane's credit does not depend on where the plane lies. -/
theorem amt_kv_any (off : Fin 4 → ℕ) (inb : ∀ x, off x + S1x1x1024x128.size x ≤ S2x8x1024x128.size x) :
    ((kvB.slice (Rect.unit (s := S2x8x1024x128) off S1x1x1024x128.size inb) (fun _ => rfl)).squeeze S1024x128 squeezes_S1x1x1024x128_S1024x128).view.dmaCredit = amtKV := rfl

/-! ## A batch as a resource -/

section Batch
variable (m : (ℓ : Loc nD τ sig) → Buf (Elt F) ℓ) (c : Dev nD)

/-- The counters' copy in the algebra. -/
abbrev ECn : UEmb Counters (MT nD τ sig Unit (Elt F) ℕ UU ℕ) := countersEmb

/-- What transfer `j` of batch `b` delivers: its destination plane at contents that read as the source plane of the launch
    memory, and the source plane back. -/
def copyDeliv (b j : Fin 4) : sProp 𝕄 :=
  iprop((∃ fd : Buf (Elt F) ((cpDst b j).view.loc (c : Thread nD τ)),
      ((cpDst b j).view.loc (c : Thread nD τ) ↦[(cpDst b j).view.set]{fullShare} fd)
        ∗ ⌜(cpDst b j).view.read (Elt F) fd = (cpSrc b j).view.read (Elt F) (m ((cpSrc b j).view.loc (c : Thread nD τ)))⌝)
    ∗ ((cpSrc b j).view.loc (c : Thread nD τ) ↦[(cpSrc b j).view.set]{fullShare} m ((cpSrc b j).view.loc (c : Thread nD τ))))

instance copyDeliv_storable (b j : Fin 4) : Storable (upEmb : UEmb _ 𝕄) (copyDeliv m c b j) := by
  unfold copyDeliv; infer_instance

/-- Batch `b` with its first `k` transfers issued and `u` units consumed by waits. -/
def batchAt (b : Fin 4) (k u : ℕ) : sProp 𝕄 :=
  Transfers.Batch (ECn (F := F)) (c : Thread nD τ) (.dma (copySemAt b)) () amtKV (copyDeliv m c b) k u

/-- Batch `b` between its four issues and its four waits. -/
def batchRes (b : Fin 4) : sProp 𝕄 := batchAt m c b 4 0

/-- The batch allocated from its semaphore at zero, nothing issued. -/
theorem batch_open (b : Fin 4) {E : Set ℕ} :
    (semVal (((c : Thread nD τ), .dma (copySemAt b)) : GSem nD τ sig) 0 : sProp 𝕄) ⊢ |={E}=> batchAt m c b 0 0 :=
  Transfers.batch_alloc' (Lvl := ℕ) (ECn (F := F)) (c : Thread nD τ) () amtKV (copyDeliv m c b) (sm := .dma (copySemAt b)) (E := E)

/-- Issue `j` of batch `b`: the source plane as launched and the destination plane at any contents go in. -/
theorem wp_copy_issue (b j : Fin 4)
    {hsrc : (cpSrc b j).view.WordExact} {hdst : (cpDst b j).view.WordExact}
    {hsem : DmaTarget.Typed (nD := nD) (τ := τ) (p := .tc) .hbm (.dma (copySemAt b)) (.here (cpDst b j))}
    {α : Type} {Q : α → sProp 𝕄} {k : PUnit → Prog (TpuEff nD τ sig (Elt F) Λ₀ .tc) α}
    (fd : Buf (Elt F) ((cpDst b j).view.loc (c : Thread nD τ))) (u : ℕ) (hu : u ≤ j.val * amtKV) :
    iprop(((cpSrc b j).view.loc (c : Thread nD τ) ↦[(cpSrc b j).view.set]{fullShare} m ((cpSrc b j).view.loc (c : Thread nD τ)))
        ∗ ((cpDst b j).view.loc (c : Thread nD τ) ↦[(cpDst b j).view.set]{fullShare} fd) ∗ batchAt m c b j.val u)
      ⊢ iprop((batchAt m c b (j.val + 1) u -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cpSrc b j) (.here (cpDst b j)) (.dma (copySemAt b)) hsrc hdst hsem) k) Q) :=
  Transfers.wp_dmaBatch (ECn (F := F)) 𝒱₀ (c : Thread nD τ) none (src := cpSrc b j) (dst := cpDst b j) () amtKV
    (amt_cpDst b j _) subset_rfl (D := copyDeliv m c b) (j := j.val) (u := u) j.isLt hu (by
      unfold copyDeliv
      iintro ⟨Hd, Hs⟩
      isplitl [Hd]
      · iexists _
        isplitl [Hd]
        · iexact Hd
        · ipureintro; rw [View.read_write_univ]
      · iexact Hs)

/-- A wait of batch `b` that is not its last: nothing comes back. The semaphore may be spelt at any offsets that are `b`. -/
theorem wp_copy_wait (b : Fin 4) {sem : DmaSem sig} (hs : sem = copySemAt b)
    {sp sp' : Space} {s s' : Shape} {e e' : EltTy} {srcw : Memref sig .tc sp' s' e'} {κ' : Idealize.ShloMosaic.Kind} {dstw : Memref sig κ' sp s e}
    {hsrc : srcw.view.WordExact} {hdst : dstw.view.WordExact} (hamt : dstw.view.dmaCredit = amtKV)
    (u : ℕ) (hu : u + amtKV < amtKV * 4) (O : CellTallies nD τ sig Unit) (W : Waits sig Unit)
    {α : Type} {Q : α → sProp 𝕄} {k : PUnit → Prog (TpuEff nD τ sig (Elt F) Λ₀ .tc) α} :
    iprop(batchAt m c b 4 u ∗ owes (c : Thread nD τ) O W ∗ MayWait (c : Thread nD τ) (.dma (copySemAt b)) () O)
      ⊢ iprop(((batchAt m c b 4 (u + amtKV) ∗ owes (c : Thread nD τ) O (insert (SemLoc.dma (copySemAt b), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hs
  exact Transfers.wp_waitBatchO (ECn (F := F)) 𝒱₀ (c : Thread nD τ) none () hamt (D := copyDeliv m c b) (u := u) hu (O := O) (W := W)

/-- The last wait of batch `b`: the four deliveries, the semaphore at zero. -/
theorem wp_copy_wait_last (b : Fin 4) {sem : DmaSem sig} (hs : sem = copySemAt b)
    {sp sp' : Space} {s s' : Shape} {e e' : EltTy} {srcw : Memref sig .tc sp' s' e'} {κ' : Idealize.ShloMosaic.Kind} {dstw : Memref sig κ' sp s e}
    {hsrc : srcw.view.WordExact} {hdst : dstw.view.WordExact} (hamt : dstw.view.dmaCredit = amtKV)
    (u : ℕ) (hu : u + amtKV = amtKV * 4) (O : CellTallies nD τ sig Unit) (W : Waits sig Unit)
    {α : Type} {Q : α → sProp 𝕄} {k : PUnit → Prog (TpuEff nD τ sig (Elt F) Λ₀ .tc) α} :
    iprop(batchAt m c b 4 u ∗ owes (c : Thread nD τ) O W ∗ MayWait (c : Thread nD τ) (.dma (copySemAt b)) () O)
      ⊢ iprop(((bigSep Finset.univ (copyDeliv m c b) ∗ semVal (((c : Thread nD τ), .dma (copySemAt b)) : GSem nD τ sig) 0
              ∗ owes (c : Thread nD τ) O (insert (SemLoc.dma (copySemAt b), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hs
  exact Transfers.wp_waitBatchLastO (ECn (F := F)) 𝒱₀ (c : Thread nD τ) none () hamt amtKV_pos (D := copyDeliv m c b) (u := u) hu (O := O) (W := W)

/-- A copy semaphore is below every payment: a device may wait on it whatever it still owes. -/
theorem mayWait_copy (b : Fin 4) (ps : List Pay) :
    (levAts L lv : sProp 𝕄) ⊢ MayWait (c : Thread nD τ) (.dma (copySemAt b)) () (owedOf c ps) :=
  mayWait_low c (copySemAt b) (cellRole_copy b) ps

/-- The last wait's four deliveries, one by one. -/
theorem copyDeliv_four (b : Fin 4) :
    bigSep Finset.univ (copyDeliv m c b)
      ⊢ iprop(copyDeliv m c b 0 ∗ copyDeliv m c b 1 ∗ copyDeliv m c b 2 ∗ copyDeliv m c b 3) := by
  rw [Idealize.SL.BI.bigSep_univ_eq_bigSepL [0, 1, 2, 3] (by decide) (by decide) _]
  exact .rfl

end Batch

/-! ## The four batches as a family -/

section Family
variable (m : (ℓ : Loc nD τ sig) → Buf (Elt F) ℓ) (c : Dev nD)

/-- After the sixteen issues: the four batches, issued at the literal indices, as one family over the batch index. -/
theorem batches_join :
    iprop(batchRes m c 0 ∗ batchRes m c 1 ∗ batchRes m c 2 ∗ batchRes m c 3) ⊢ bigSep Finset.univ (batchRes m c) := by
  rw [Idealize.SL.BI.bigSep_univ_eq_bigSepL [0, 1, 2, 3] (by decide) (by decide) _]
  exact .rfl

/-- One batch out of the family at any index, the rest kept. -/
theorem batches_take (S : Finset (Fin 4)) (b : Fin 4) (hb : b ∈ S) :
    bigSep S (batchRes m c) = iprop(batchRes m c b ∗ bigSep (S.erase b) (batchRes m c)) :=
  BI.bigSep_erase (Φ := batchRes m c) hb

/-- The batches in the order device `c` waits for them: `c`, `c + 2`, `c + 3`, `c + 1` are the four indices. -/
theorem univ_flash : ∀ c : Dev nD, (Finset.univ : Finset (Fin 4)) = insert c (insert (nxt (nxt c)) (insert (prv c) {nxt c})) := by decide
theorem flash_distinct : ∀ c : Dev nD,
    c ∉ insert (nxt (nxt c)) (insert (prv c) ({nxt c} : Finset (Fin 4))) ∧ nxt (nxt c) ∉ insert (prv c) ({nxt c} : Finset (Fin 4))
      ∧ prv c ∉ ({nxt c} : Finset (Fin 4)) := by decide

/-- The family split at the four positions of device `c`. -/
theorem batches_flash :
    bigSep Finset.univ (batchRes m c)
      = iprop(batchRes m c c ∗ batchRes m c (nxt (nxt c)) ∗ batchRes m c (prv c) ∗ batchRes m c (nxt c)) := by
  obtain ⟨h1, h2, h3⟩ := flash_distinct c
  rw [univ_flash c, bigSep_insert h1, bigSep_insert h2, bigSep_insert h3, bigSep_singleton]
  rfl

/-- The positions as the program computes them for the later flash steps: `c + 1 + r`. -/
theorem flash_pos : ∀ c : Dev nD,
    (⟨(c.val + (1 + 1)) % 4, Nat.mod_lt _ (by decide)⟩ : Fin 4) = nxt (nxt c)
      ∧ (⟨(c.val + (1 + 2)) % 4, Nat.mod_lt _ (by decide)⟩ : Fin 4) = prv c
      ∧ (⟨(c.val + (1 + 0)) % 4, Nat.mod_lt _ (by decide)⟩ : Fin 4) = nxt c := by decide

end Family

/-- info: 'Cert.KernelIdeal.Proto.wp_copy_wait_last' depends on axioms: [propext, Classical.choice, Quot.sound] -/
#guard_msgs in #print axioms wp_copy_wait_last
/-- info: 'Cert.KernelIdeal.Proto.wp_copy_issue' depends on axioms: [propext, Classical.choice, Quot.sound] -/
#guard_msgs in #print axioms wp_copy_issue

end Cert.KernelIdeal.Proto

end
-- ==== Proof.BodyBLemmas.lean ====
/-
  The half blocks the hop-0 copies send, spelt as the copies' sources: the lower half of a device's own block and the upper
  half of the block two further on are, as sets of elements of the partial-sum buffers, the source slices of the copies to
  the right and to the left.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.Sched
import proofs.«900754_g7700000000000755_dist_attn_cross_gqa_kvseq_b4_sq256_skv1024_d1024_hq8_dh128_v7x_i4_f32_1_alg».proof.Proof.LocSplit

noncomputable section

namespace Cert.KernelIdeal.Proto

open Cert.KernelIdeal Cert.KernelIdeal.Gen Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

omit [FloatOps F] in
theorem set_heq_of_eq {sp : Space} {S : Shape} {e : EltTy} {mr mr' : Memref sig .tc sp S e} (h : mr = mr') : HEq mr.view.set mr'.view.set := by
  subst h; rfl

omit [FloatOps F] in
/-- The half blocks hop 0 sends, spelt as the copies' sources. -/
theorem halfO_0f_pts (c : Dev nD) (f : Buf (Elt F) ((c : Thread nD τ).loc cc0_scratch0)) :
    (((locHalfO c 0 false).view.loc (c : Thread nD τ) ↦[(locHalfO c 0 false).view.set]{fullShare} f : sProp 𝕄))
      = ((srcO c 0 false).view.loc (c : Thread nD τ) ↦[(srcO c 0 false).view.set]{fullShare} f) := by
  show (((c : Thread nD τ).loc cc0_scratch0 ↦[(locHalfO c 0 false).view.set]{fullShare} f : sProp 𝕄))
      = ((c : Thread nD τ).loc cc0_scratch0 ↦[(srcO c 0 false).view.set]{fullShare} f)
  have hs : ((locHalfO c 0 false).view.set : Finset (Idx ((c : Thread nD τ).loc cc0_scratch0))) = (srcO c 0 false).view.set :=
    eq_of_heq (set_heq_of_eq (locHalfO_0f c))
  rw [hs]
omit [FloatOps F] in
theorem halfO_2t_pts (c : Dev nD) (f : Buf (Elt F) ((c : Thread nD τ).loc cc0_scratch0)) :
    (((locHalfO c 2 true).view.loc (c : Thread nD τ) ↦[(locHalfO c 2 true).view.set]{fullShare} f : sProp 𝕄))
      = ((srcO c 0 true).view.loc (c : Thread nD τ) ↦[(srcO c 0 true).view.set]{fullShare} f) := by
  show (((c : Thread nD τ).loc cc0_scratch0 ↦[(locHalfO c 2 true).view.set]{fullShare} f : sProp 𝕄))
      = ((c : Thread nD τ).loc cc0_scratch0 ↦[(srcO c 0 true).view.set]{fullShare} f)
  have hs : ((locHalfO c 2 true).view.set : Finset (Idx ((c : Thread nD τ).loc cc0_scratch0))) = (srcO c 0 true).view.set :=
    eq_of_heq (set_heq_of_eq (locHalfO_2t c))
  rw [hs]
omit [FloatOps F] in
theorem halfL_0f_pts (c : Dev nD) (f : Buf (Elt F) ((c : Thread nD τ).loc cc0_scratch1)) :
    (((locHalfL c 0 false).view.loc (c : Thread nD τ) ↦[(locHalfL c 0 false).view.set]{fullShare} f : sProp 𝕄))
      = ((srcL c 0 false).view.loc (c : Thread nD τ) ↦[(srcL c 0 false).view.set]{fullShare} f) := by
  show (((c : Thread nD τ).loc cc0_scratch1 ↦[(locHalfL c 0 false).view.set]{fullShare} f : sProp 𝕄))
      = ((c : Thread nD τ).loc cc0_scratch1 ↦[(srcL c 0 false).view.set]{fullShare} f)
  have hs : ((locHalfL c 0 false).view.set : Finset (Idx ((c : Thread nD τ).loc cc0_scratch1))) = (srcL c 0 false).view.set :=
    eq_of_heq (set_heq_of_eq (locHalfL_0f c))
  rw [hs]
omit [FloatOps F] in
theorem halfL_2t_pts (c : Dev nD) (f : Buf (Elt F) ((c : Thread nD τ).loc cc0_scratch1)) :
    (((locHalfL c 2 true).view.loc (c : Thread nD τ) ↦[(locHalfL c 2 true).view.set]{fullShare} f : sProp 𝕄))
      = ((srcL c 0 true).view.loc (c : Thread nD τ) ↦[(srcL c 0 true).view.set]{fullShare} f) := by
  show (((c : Thread nD τ).loc cc0_scratch1 ↦[(locHalfL c 2 true).view.set]{fullShare} f : sProp 𝕄))
      = ((c : Thread nD τ).loc cc0_scratch1 ↦[(srcL c 0 true).view.set]{fullShare} f)
  have hs : ((locHalfL c 2 true).view.set : Finset (Idx ((c : Thread nD τ).loc cc0_scratch1))) = (srcL c 0 true).view.set :=
    eq_of_heq (set_heq_of_eq (locHalfL_2t c))
  rw [hs]

end Cert.KernelIdeal.Proto

end
-- ==== Proof.ProjRowsB.lean ====
/-
  The read-backs of ProjRows with older pieces under a batch's own: the query buffer and the narrowed key/value buffer keep the
  earlier batches' tiles in the list of writes, and a batch's rows, and planes, read the batch's own tiles all the same. Then,
  batch by batch, the query rows from the tiles the body stores, and what the projection loads.
-/
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.Bridge
import proofs.«900754_g7700000000000755_dist_attn_cross_gqa_kvseq_b4_sq256_skv1024_d1024_hq8_dh128_v7x_i4_f32_1_alg».proof.Proof.Ring
import proofs.«900754_g7700000000000755_dist_attn_cross_gqa_kvseq_b4_sq256_skv1024_d1024_hq8_dh128_v7x_i4_f32_1_alg».proof.Proof.ProjRows
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.KvRel
import proofs.«900754_g7700000000000755_dist_attn_cross_gqa_kvseq_b4_sq256_skv1024_d1024_hq8_dh128_v7x_i4_f32_1_alg».proof.Proof.Gen.KernelIdeal.Frame
import proofs.«900754_g7700000000000755_dist_attn_cross_gqa_kvseq_b4_sq256_skv1024_d1024_hq8_dh128_v7x_i4_f32_1_alg».proof.Proof.Gen.KernelIdeal.Points
import Idealize.ShloMosaic.Lib.WritesUnit

set_option maxRecDepth 16384

noncomputable section

namespace Cert.KernelIdeal.Proto.Rows

open Cert.KernelIdeal Cert.KernelIdeal.Gen Cert.KernelIdeal.Ring Cert.KernelIdeal.Proto
open Idealize.ShloMosaic Idealize.ShloMosaic.TcCoe Idealize.ShloMosaic.ValueIdx
open Idealize.SL.Sem

variable {F : FTy → Type} [FloatOps F]

section Q2
variable (c : Dev nD)

set_option maxHeartbeats 4000000 in
/-- Eight one-row tiles written at rows `r … r + 7` of the query buffer, the last written in front: row `r + h` of the
    written contents reads tile `h`, whatever the buffer held before. -/
theorem q2_rows_read_rest (r : ℕ) (hr : r + 8 ≤ 32)
    (o0 o1 o2 o3 o4 o5 o6 o7 : Fin 3 → ℕ)
    (i0 : ∀ a, o0 a + S1x256x128.size a ≤ S32x256x128.size a) (i1 : ∀ a, o1 a + S1x256x128.size a ≤ S32x256x128.size a) (i2 : ∀ a, o2 a + S1x256x128.size a ≤ S32x256x128.size a) (i3 : ∀ a, o3 a + S1x256x128.size a ≤ S32x256x128.size a) (i4 : ∀ a, o4 a + S1x256x128.size a ≤ S32x256x128.size a) (i5 : ∀ a, o5 a + S1x256x128.size a ≤ S32x256x128.size a) (i6 : ∀ a, o6 a + S1x256x128.size a ≤ S32x256x128.size a) (i7 : ∀ a, o7 a + S1x256x128.size a ≤ S32x256x128.size a)
    (e0 : o0 = ![r + 0, 0, 0]) (e1 : o1 = ![r + 1, 0, 0]) (e2 : o2 = ![r + 2, 0, 0]) (e3 : o3 = ![r + 3, 0, 0]) (e4 : o4 = ![r + 4, 0, 0]) (e5 : o5 = ![r + 5, 0, 0]) (e6 : o6 = ![r + 6, 0, 0]) (e7 : o7 = ![r + 7, 0, 0])
    (f4 : Buf (Elt F) ((c : Thread nD τ).loc cc0_scratch4)) (rest : List (View.Piece (Elt F) S32x256x128 .bf16))
    (P0 P1 P2 P3 P4 P5 P6 P7 : S1x256x128.Idx → Elt F .bf16) (i : Fin 256) (d : Fin 128) :
    ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 0, by omega⟩ : Fin 32) i d) = P0 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 1, by omega⟩ : Fin 32) i d) = P1 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 2, by omega⟩ : Fin 32) i d) = P2 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 3, by omega⟩ : Fin 32) i d) = P3 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 4, by omega⟩ : Fin 32) i d) = P4 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 5, by omega⟩ : Fin 32) i d) = P5 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 6, by omega⟩ : Fin 32) i d) = P6 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 7, by omega⟩ : Fin 32) i d) = P7 (ix3 0 i d) := by
  refine ⟨?_, ?_, ?_, ?_, ?_, ?_, ?_, ?_⟩
  · refine Eq.trans (congrFun (View.read_whole (Val := Elt F) cc0_scratch4 _).symm (ix3 (⟨r + 0, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 0 < r + 7; omega))]
    rw [View.read_writes_cons_unit_of_not_mem _ _ i6 _ _ _ e6 0 (Or.inl (by show r + 0 < r + 6; omega))]
    rw [View.read_writes_cons_unit_of_not_mem _ _ i5 _ _ _ e5 0 (Or.inl (by show r + 0 < r + 5; omega))]
    rw [View.read_writes_cons_unit_of_not_mem _ _ i4 _ _ _ e4 0 (Or.inl (by show r + 0 < r + 4; omega))]
    rw [View.read_writes_cons_unit_of_not_mem _ _ i3 _ _ _ e3 0 (Or.inl (by show r + 0 < r + 3; omega))]
    rw [View.read_writes_cons_unit_of_not_mem _ _ i2 _ _ _ e2 0 (Or.inl (by show r + 0 < r + 2; omega))]
    rw [View.read_writes_cons_unit_of_not_mem _ _ i1 _ _ _ e1 0 (Or.inl (by show r + 0 < r + 1; omega))]
    exact View.read_writes_cons_unit_of_mem (s := S32x256x128) (Memref.whole cc0_scratch4 : Memref sig .tc .vmem S32x256x128 .bf16).view f4 i0 P0 _ (ix3 (⟨r + 0, by omega⟩ : Fin 32) i d) (ix3 0 i d) e0 (fun a => by
      match a with
      | ⟨0, _⟩ => show r + 0 = r + 0 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 1, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 1 < r + 7; omega))]
    rw [View.read_writes_cons_unit_of_not_mem _ _ i6 _ _ _ e6 0 (Or.inl (by show r + 1 < r + 6; omega))]
    rw [View.read_writes_cons_unit_of_not_mem _ _ i5 _ _ _ e5 0 (Or.inl (by show r + 1 < r + 5; omega))]
    rw [View.read_writes_cons_unit_of_not_mem _ _ i4 _ _ _ e4 0 (Or.inl (by show r + 1 < r + 4; omega))]
    rw [View.read_writes_cons_unit_of_not_mem _ _ i3 _ _ _ e3 0 (Or.inl (by show r + 1 < r + 3; omega))]
    rw [View.read_writes_cons_unit_of_not_mem _ _ i2 _ _ _ e2 0 (Or.inl (by show r + 1 < r + 2; omega))]
    exact View.read_writes_cons_unit_of_mem (s := S32x256x128) (Memref.whole cc0_scratch4 : Memref sig .tc .vmem S32x256x128 .bf16).view f4 i1 P1 _ (ix3 (⟨r + 1, by omega⟩ : Fin 32) i d) (ix3 0 i d) e1 (fun a => by
      match a with
      | ⟨0, _⟩ => show r + 1 = r + 1 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 2, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 2 < r + 7; omega))]
    rw [View.read_writes_cons_unit_of_not_mem _ _ i6 _ _ _ e6 0 (Or.inl (by show r + 2 < r + 6; omega))]
    rw [View.read_writes_cons_unit_of_not_mem _ _ i5 _ _ _ e5 0 (Or.inl (by show r + 2 < r + 5; omega))]
    rw [View.read_writes_cons_unit_of_not_mem _ _ i4 _ _ _ e4 0 (Or.inl (by show r + 2 < r + 4; omega))]
    rw [View.read_writes_cons_unit_of_not_mem _ _ i3 _ _ _ e3 0 (Or.inl (by show r + 2 < r + 3; omega))]
    exact View.read_writes_cons_unit_of_mem (s := S32x256x128) (Memref.whole cc0_scratch4 : Memref sig .tc .vmem S32x256x128 .bf16).view f4 i2 P2 _ (ix3 (⟨r + 2, by omega⟩ : Fin 32) i d) (ix3 0 i d) e2 (fun a => by
      match a with
      | ⟨0, _⟩ => show r + 2 = r + 2 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 3, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 3 < r + 7; omega))]
    rw [View.read_writes_cons_unit_of_not_mem _ _ i6 _ _ _ e6 0 (Or.inl (by show r + 3 < r + 6; omega))]
    rw [View.read_writes_cons_unit_of_not_mem _ _ i5 _ _ _ e5 0 (Or.inl (by show r + 3 < r + 5; omega))]
    rw [View.read_writes_cons_unit_of_not_mem _ _ i4 _ _ _ e4 0 (Or.inl (by show r + 3 < r + 4; omega))]
    exact View.read_writes_cons_unit_of_mem (s := S32x256x128) (Memref.whole cc0_scratch4 : Memref sig .tc .vmem S32x256x128 .bf16).view f4 i3 P3 _ (ix3 (⟨r + 3, by omega⟩ : Fin 32) i d) (ix3 0 i d) e3 (fun a => by
      match a with
      | ⟨0, _⟩ => show r + 3 = r + 3 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 4, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 4 < r + 7; omega))]
    rw [View.read_writes_cons_unit_of_not_mem _ _ i6 _ _ _ e6 0 (Or.inl (by show r + 4 < r + 6; omega))]
    rw [View.read_writes_cons_unit_of_not_mem _ _ i5 _ _ _ e5 0 (Or.inl (by show r + 4 < r + 5; omega))]
    exact View.read_writes_cons_unit_of_mem (s := S32x256x128) (Memref.whole cc0_scratch4 : Memref sig .tc .vmem S32x256x128 .bf16).view f4 i4 P4 _ (ix3 (⟨r + 4, by omega⟩ : Fin 32) i d) (ix3 0 i d) e4 (fun a => by
      match a with
      | ⟨0, _⟩ => show r + 4 = r + 4 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 5, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 5 < r + 7; omega))]
    rw [View.read_writes_cons_unit_of_not_mem _ _ i6 _ _ _ e6 0 (Or.inl (by show r + 5 < r + 6; omega))]
    exact View.read_writes_cons_unit_of_mem (s := S32x256x128) (Memref.whole cc0_scratch4 : Memref sig .tc .vmem S32x256x128 .bf16).view f4 i5 P5 _ (ix3 (⟨r + 5, by omega⟩ : Fin 32) i d) (ix3 0 i d) e5 (fun a => by
      match a with
      | ⟨0, _⟩ => show r + 5 = r + 5 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 6, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 6 < r + 7; omega))]
    exact View.read_writes_cons_unit_of_mem (s := S32x256x128) (Memref.whole cc0_scratch4 : Memref sig .tc .vmem S32x256x128 .bf16).view f4 i6 P6 _ (ix3 (⟨r + 6, by omega⟩ : Fin 32) i d) (ix3 0 i d) e6 (fun a => by
      match a with
      | ⟨0, _⟩ => show r + 6 = r + 6 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 7, by omega⟩ : Fin 32) i d)) ?_
    show (Memref.whole cc0_scratch4 : Memref sig .tc .vmem S32x256x128 .bf16).view.read (Elt F) _ _ = _

    exact View.read_writes_cons_unit_of_mem (s := S32x256x128) (Memref.whole cc0_scratch4 : Memref sig .tc .vmem S32x256x128 .bf16).view f4 i7 P7 _ (ix3 (⟨r + 7, by omega⟩ : Fin 32) i d) (ix3 0 i d) e7 (fun a => by
      match a with
      | ⟨0, _⟩ => show r + 7 = r + 7 + 0; omega
      | ⟨1, _⟩ => show i.val = 0 + i.val; omega
      | ⟨2, _⟩ => show d.val = 0 + d.val; omega)

end Q2

section KVB
variable (c : Dev nD)

set_option maxHeartbeats 4000000 in
/-- Four one-plane tiles written into the narrowed key/value buffer — the keys' and the values' planes `p` and `p + 1`, the
    last written in front: each plane of the written contents reads its tile, whatever the buffer held before. -/
theorem kvb_planes_read_rest (p : ℕ) (hp : p + 2 ≤ 8)
    (oV1 oK1 oV0 oK0 : Fin 4 → ℕ)
    (iV1 : ∀ a, oV1 a + S1x1x1024x128.size a ≤ S2x8x1024x128.size a) (iK1 : ∀ a, oK1 a + S1x1x1024x128.size a ≤ S2x8x1024x128.size a)
    (iV0 : ∀ a, oV0 a + S1x1x1024x128.size a ≤ S2x8x1024x128.size a) (iK0 : ∀ a, oK0 a + S1x1x1024x128.size a ≤ S2x8x1024x128.size a)
    (eV1 : oV1 = ![1, p + 1, 0, 0]) (eK1 : oK1 = ![0, p + 1, 0, 0]) (eV0 : oV0 = ![1, p + 0, 0, 0]) (eK0 : oK0 = ![0, p + 0, 0, 0])
    (f9 : Buf (Elt F) ((c : Thread nD τ).loc cc0_scratch9)) (rest : List (View.Piece (Elt F) S2x8x1024x128 .bf16))
    (PV1 PK1 PV0 PK0 : S1x1x1024x128.Idx → Elt F .bf16) (j : Fin 1024) (d : Fin 128) :
    ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (0 : Fin 2) (⟨p + 0, by omega⟩ : Fin 8) j d) = PK0 (ix4 0 0 j d)
    ∧ ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (1 : Fin 2) (⟨p + 0, by omega⟩ : Fin 8) j d) = PV0 (ix4 0 0 j d)
    ∧ ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (0 : Fin 2) (⟨p + 1, by omega⟩ : Fin 8) j d) = PK1 (ix4 0 0 j d)
    ∧ ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (1 : Fin 2) (⟨p + 1, by omega⟩ : Fin 8) j d) = PV1 (ix4 0 0 j d) := by
  have hit : ∀ (a g : ℕ) (ha : a < 2) (hg : p + g < 8), ∀ x : Fin 4, ((ix4 (⟨a, ha⟩ : Fin 2) (⟨p + g, hg⟩ : Fin 8) j d) x).val = (![a, p + g, 0, 0] : Fin 4 → ℕ) x + ((ix4 (0 : Fin 1) (0 : Fin 1) j d) x).val := fun a g ha hg x => by
    match x with
    | ⟨0, _⟩ => show a = a + 0; omega
    | ⟨1, _⟩ => show p + g = p + g + 0; omega
    | ⟨2, _⟩ => show j.val = 0 + j.val; omega
    | ⟨3, _⟩ => show d.val = 0 + d.val; omega
  refine ⟨?_, ?_, ?_, ?_⟩
  · refine Eq.trans (congrFun (View.read_whole (Val := Elt F) cc0_scratch9 _).symm (ix4 (0 : Fin 2) (⟨p + 0, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 0 (Or.inl (by show 0 < 1; omega))]
    rw [View.read_writes_cons_unit_of_not_mem _ _ iK1 _ _ _ eK1 1 (Or.inl (by show p + 0 < p + 1; omega))]
    rw [View.read_writes_cons_unit_of_not_mem _ _ iV0 _ _ _ eV0 0 (Or.inl (by show 0 < 1; omega))]
    exact View.read_writes_cons_unit_of_mem (s := S2x8x1024x128) (Memref.whole cc0_scratch9 : Memref sig .tc .vmem S2x8x1024x128 .bf16).view f9 iK0 PK0 _ (ix4 (0 : Fin 2) (⟨p + 0, by omega⟩ : Fin 8) j d) (ix4 0 0 j d) eK0 (hit 0 0 (by omega) (by omega))
  · refine Eq.trans (congrFun (View.read_whole (Val := Elt F) cc0_scratch9 _).symm (ix4 (1 : Fin 2) (⟨p + 0, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 1 (Or.inl (by show p + 0 < p + 1; omega))]
    rw [View.read_writes_cons_unit_of_not_mem _ _ iK1 _ _ _ eK1 1 (Or.inl (by show p + 0 < p + 1; omega))]
    exact View.read_writes_cons_unit_of_mem (s := S2x8x1024x128) (Memref.whole cc0_scratch9 : Memref sig .tc .vmem S2x8x1024x128 .bf16).view f9 iV0 PV0 _ (ix4 (1 : Fin 2) (⟨p + 0, by omega⟩ : Fin 8) j d) (ix4 0 0 j d) eV0 (hit 1 0 (by omega) (by omega))
  · refine Eq.trans (congrFun (View.read_whole (Val := Elt F) cc0_scratch9 _).symm (ix4 (0 : Fin 2) (⟨p + 1, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 0 (Or.inl (by show 0 < 1; omega))]
    exact View.read_writes_cons_unit_of_mem (s := S2x8x1024x128) (Memref.whole cc0_scratch9 : Memref sig .tc .vmem S2x8x1024x128 .bf16).view f9 iK1 PK1 _ (ix4 (0 : Fin 2) (⟨p + 1, by omega⟩ : Fin 8) j d) (ix4 0 0 j d) eK1 (hit 0 1 (by omega) (by omega))
  · refine Eq.trans (congrFun (View.read_whole (Val := Elt F) cc0_scratch9 _).symm (ix4 (1 : Fin 2) (⟨p + 1, by omega⟩ : Fin 8) j d)) ?_
    show (Memref.whole cc0_scratch9 : Memref sig .tc .vmem S2x8x1024x128 .bf16).view.read (Elt F) _ _ = _
    exact View.read_writes_cons_unit_of_mem (s := S2x8x1024x128) (Memref.whole cc0_scratch9 : Memref sig .tc .vmem S2x8x1024x128 .bf16).view f9 iV1 PV1 _ (ix4 (1 : Fin 2) (⟨p + 1, by omega⟩ : Fin 8) j d) (ix4 0 0 j d) eV1 (hit 1 1 (by omega) (by omega))

end KVB

section At
variable (m : (ℓ : Loc nD τ sig) → Buf (Elt F) ℓ) (c : Dev nD)

/-- The query rows of a batch, from the eight stored tiles: with tile `h` the batch's projected, scaled and narrowed
    queries of head `h`, row `r + h` of the query buffer reads them. -/
theorem q2rows_rest (B : Fin 4) (r : ℕ) (hr : r + 8 ≤ 32)
    (o0 o1 o2 o3 o4 o5 o6 o7 : Fin 3 → ℕ)
    (i0 : ∀ a, o0 a + S1x256x128.size a ≤ S32x256x128.size a) (i1 : ∀ a, o1 a + S1x256x128.size a ≤ S32x256x128.size a) (i2 : ∀ a, o2 a + S1x256x128.size a ≤ S32x256x128.size a) (i3 : ∀ a, o3 a + S1x256x128.size a ≤ S32x256x128.size a) (i4 : ∀ a, o4 a + S1x256x128.size a ≤ S32x256x128.size a) (i5 : ∀ a, o5 a + S1x256x128.size a ≤ S32x256x128.size a) (i6 : ∀ a, o6 a + S1x256x128.size a ≤ S32x256x128.size a) (i7 : ∀ a, o7 a + S1x256x128.size a ≤ S32x256x128.size a)
    (e0 : o0 = ![r + 0, 0, 0]) (e1 : o1 = ![r + 1, 0, 0]) (e2 : o2 = ![r + 2, 0, 0]) (e3 : o3 = ![r + 3, 0, 0]) (e4 : o4 = ![r + 4, 0, 0]) (e5 : o5 = ![r + 5, 0, 0]) (e6 : o6 = ![r + 6, 0, 0]) (e7 : o7 = ![r + 7, 0, 0])
    (f4 : Buf (Elt F) ((c : Thread nD τ).loc cc0_scratch4)) (rest : List (View.Piece (Elt F) S32x256x128 .bf16))
    (P0 P1 P2 P3 P4 P5 P6 P7 : S1x256x128.Idx → Elt F .bf16)
    (hP0 : P0 = KFun.q2 m c B 0) (hP1 : P1 = KFun.q2 m c B 1) (hP2 : P2 = KFun.q2 m c B 2) (hP3 : P3 = KFun.q2 m c B 3) (hP4 : P4 = KFun.q2 m c B 4) (hP5 : P5 = KFun.q2 m c B 5) (hP6 : P6 = KFun.q2 m c B 6) (hP7 : P7 = KFun.q2 m c B 7)
    (h : Fin 8) (i : Fin 256) (d : Fin 128) :
    ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + h.val, by have := h.isLt; omega⟩ : Fin 32) i d)
      = KFun.q2 m c B h (ix3 0 i d) := by
  obtain ⟨a0, a1, a2, a3, a4, a5, a6, a7⟩ := q2_rows_read_rest c r hr o0 o1 o2 o3 o4 o5 o6 o7 i0 i1 i2 i3 i4 i5 i6 i7 e0 e1 e2 e3 e4 e5 e6 e7 f4 rest P0 P1 P2 P3 P4 P5 P6 P7 i d
  match h with
  | ⟨0, _⟩ => exact a0.trans (congrFun hP0 _)
  | ⟨1, _⟩ => exact a1.trans (congrFun hP1 _)
  | ⟨2, _⟩ => exact a2.trans (congrFun hP2 _)
  | ⟨3, _⟩ => exact a3.trans (congrFun hP3 _)
  | ⟨4, _⟩ => exact a4.trans (congrFun hP4 _)
  | ⟨5, _⟩ => exact a5.trans (congrFun hP5 _)
  | ⟨6, _⟩ => exact a6.trans (congrFun hP6 _)
  | ⟨7, _⟩ => exact a7.trans (congrFun hP7 _)

/-- The narrowed key and value planes of a batch, from the four stored tiles. -/
theorem kvrows_rest (B : Fin 4) (p : ℕ) (hp : p + 2 ≤ 8)
    (oV1 oK1 oV0 oK0 : Fin 4 → ℕ)
    (iV1 : ∀ a, oV1 a + S1x1x1024x128.size a ≤ S2x8x1024x128.size a) (iK1 : ∀ a, oK1 a + S1x1x1024x128.size a ≤ S2x8x1024x128.size a)
    (iV0 : ∀ a, oV0 a + S1x1x1024x128.size a ≤ S2x8x1024x128.size a) (iK0 : ∀ a, oK0 a + S1x1x1024x128.size a ≤ S2x8x1024x128.size a)
    (eV1 : oV1 = ![1, p + 1, 0, 0]) (eK1 : oK1 = ![0, p + 1, 0, 0]) (eV0 : oV0 = ![1, p + 0, 0, 0]) (eK0 : oK0 = ![0, p + 0, 0, 0])
    (f9 : Buf (Elt F) ((c : Thread nD τ).loc cc0_scratch9)) (rest : List (View.Piece (Elt F) S2x8x1024x128 .bf16))
    (PV1 PK1 PV0 PK0 : S1x1x1024x128.Idx → Elt F .bf16)
    (hK0 : PK0 = KFun.kh m c B 0) (hV0 : PV0 = KFun.vh m c B 0) (hK1 : PK1 = KFun.kh m c B 1) (hV1 : PV1 = KFun.vh m c B 1)
    (g : Fin 2) (j : Fin 1024) (d : Fin 128) :
    ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (0 : Fin 2) (⟨p + g.val, by have := g.isLt; omega⟩ : Fin 8) j d) = KFun.kh m c B g (ix4 0 0 j d)
    ∧ ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (1 : Fin 2) (⟨p + g.val, by have := g.isLt; omega⟩ : Fin 8) j d) = KFun.vh m c B g (ix4 0 0 j d) := by
  obtain ⟨aK0, aV0, aK1, aV1⟩ := kvb_planes_read_rest c p hp oV1 oK1 oV0 oK0 iV1 iK1 iV0 iK0 eV1 eK1 eV0 eK0 f9 rest PV1 PK1 PV0 PK0 j d
  match g with
  | ⟨0, _⟩ => exact ⟨aK0.trans (congrFun hK0 _), aV0.trans (congrFun hV0 _)⟩
  | ⟨1, _⟩ => exact ⟨aK1.trans (congrFun hK1 _), aV1.trans (congrFun hV1 _)⟩

end At

section Last
variable (m : (ℓ : Loc nD τ sig) → Buf (Elt F) ℓ) (c : Dev nD)

/-- The query rows of a batch when only head 7's tile is written over contents whose rows `r … r + 6` already hold heads
    0–6. -/
theorem q2rows_last (B : Fin 4) (r : ℕ) (hr : r + 8 ≤ 32)
    (o7 : Fin 3 → ℕ) (i7 : ∀ a, o7 a + S1x256x128.size a ≤ S32x256x128.size a) (e7 : o7 = ![r + 7, 0, 0])
    (f4 : Buf (Elt F) ((c : Thread nD τ).loc cc0_scratch4)) (rest : List (View.Piece (Elt F) S32x256x128 .bf16)) (hrest : rest = [])
    (P7 : S1x256x128.Idx → Elt F .bf16) (hP7 : P7 = KFun.q2 m c B 7)
    (hq2 : ∀ (h : Fin 8), h.val < 7 → ∀ (i : Fin 256) (d : Fin 128),
      f4 (ix3 (⟨r + h.val, by omega⟩ : Fin 32) i d) = KFun.q2 m c B h (ix3 0 i d))
    (h : Fin 8) (i : Fin 256) (d : Fin 128) :
    ((Memref.whole cc0_scratch4 : Memref sig .tc .vmem S32x256x128 .bf16).view.writes (Elt F) f4 (⟨Rect.unit (s := S32x256x128) o7 S1x256x128.size i7, P7⟩ :: rest)) (ix3 (⟨r + h.val, by have := h.isLt; omega⟩ : Fin 32) i d)
      = KFun.q2 m c B h (ix3 0 i d) := by
  subst hrest
  refine Eq.trans (congrFun (View.read_whole (Val := Elt F) cc0_scratch4 _).symm (ix3 (⟨r + h.val, by have := h.isLt; omega⟩ : Fin 32) i d)) ?_
  show (Memref.whole cc0_scratch4 : Memref sig .tc .vmem S32x256x128 .bf16).view.read (Elt F) _ _ = _
  by_cases h7 : h.val < 7
  · rw [View.read_writes_cons_unit_of_not_mem _ _ i7 _ _ _ e7 0 (Or.inl (by show r + h.val < r + 7; omega))]
    exact hq2 h h7 i d
  · have e : h = 7 := Fin.ext (by have := h.isLt; show h.val = 7; omega)
    subst e
    exact (View.read_writes_cons_unit_of_mem (s := S32x256x128) (Memref.whole cc0_scratch4 : Memref sig .tc .vmem S32x256x128 .bf16).view f4 i7 P7 [] (ix3 (⟨r + 7, by omega⟩ : Fin 32) i d) (ix3 0 i d) e7 (fun a => by
      match a with
      | ⟨0, _⟩ => show r + 7 = r + 7 + 0; omega
      | ⟨1, _⟩ => show i.val = 0 + i.val; omega
      | ⟨2, _⟩ => show d.val = 0 + d.val; omega)).trans (congrFun hP7 _)

end Last

section Batches
variable (m : (ℓ : Loc nD τ sig) → Buf (Elt F) ℓ) (c : Dev nD)

set_option maxHeartbeats 4000000 in
/-- The query rows of batch `c + 2` from its eight stored tiles, whatever lies under them. -/
theorem q2rows_w2 (f4 : Buf (Elt F) ((c : Thread nD τ).loc cc0_scratch4)) (rest : List (View.Piece (Elt F) S32x256x128 .bf16))
    (X : Vec F S1x256x1024 .f32) (Wq : Vec F S1024x1024 .bf16) (r1 : FVec F S256x1024 .f32) (r2 : FVec F S256x128 .bf16) (r3 : FVec F S256x128 .bf16)
    (hX : X = KFun.xblk m c (nxt (nxt c))) (hW : Wq = KFun.wqb m c) (hr1 : r1 = k0_pay45 X Wq) (hr2 : r2 = k0_pay49 X Wq) (hr3 : r3 = k0_pay54 r1)
    (h : Fin 8) (i : Fin 256) (d : Fin 128) :
    ((Memref.whole cc0_scratch4 : Memref sig .tc .vmem S32x256x128 .bf16).view.writes (Elt F) f4 (⟨Rect.unit (s := S32x256x128) (k0_off25 c 2#32 7#32) S1x256x128.size (k0_off25_inb c 1 7), k0_pay55 r3⟩ :: ⟨Rect.unit (s := S32x256x128) (k0_off25 c 2#32 6#32) S1x256x128.size (k0_off25_inb c 1 6), k0_pay53 r1⟩ :: ⟨Rect.unit (s := S32x256x128) (k0_off25 c 2#32 5#32) S1x256x128.size (k0_off25_inb c 1 5), k0_pay52 r1⟩ :: ⟨Rect.unit (s := S32x256x128) (k0_off25 c 2#32 4#32) S1x256x128.size (k0_off25_inb c 1 4), k0_pay51 r1⟩ :: ⟨Rect.unit (s := S32x256x128) (k0_off25 c 2#32 3#32) S1x256x128.size (k0_off25_inb c 1 3), k0_pay50 r2⟩ :: ⟨Rect.unit (s := S32x256x128) (k0_off25 c 2#32 2#32) S1x256x128.size (k0_off25_inb c 1 2), k0_pay48 X Wq⟩ :: ⟨Rect.unit (s := S32x256x128) (k0_off25 c 2#32 1#32) S1x256x128.size (k0_off25_inb c 1 1), k0_pay47 X Wq⟩ :: ⟨Rect.unit (s := S32x256x128) (k0_off25 c 2#32 0#32) S1x256x128.size (k0_off25_inb c 1 0), k0_pay46 X Wq⟩ :: rest))
        (ix3 (⟨8 * ((c.val + 2) % 4) + h.val, by have := h.isLt; omega⟩ : Fin 32) i d)
      = KFun.q2 m c (nxt (nxt c)) h (ix3 0 i d) := by
  subst_vars
  exact q2rows_rest m c (nxt (nxt c)) (8 * ((c.val + 2) % 4)) (by omega) _ _ _ _ _ _ _ _ _ _ _ _ _ _ _ _
    (off25_eq c 1 0) (off25_eq c 1 1) (off25_eq c 1 2) (off25_eq c 1 3) (off25_eq c 1 4) (off25_eq c 1 5) (off25_eq c 1 6) (off25_eq c 1 7) f4 rest _ _ _ _ _ _ _ _
    rfl rfl rfl rfl rfl rfl rfl rfl h i d

set_option maxHeartbeats 4000000 in
/-- The query rows of batch `c + 3`. -/
theorem q2rows_w3 (f4 : Buf (Elt F) ((c : Thread nD τ).loc cc0_scratch4)) (rest : List (View.Piece (Elt F) S32x256x128 .bf16))
    (X : Vec F S1x256x1024 .f32) (Wq : Vec F S1024x1024 .bf16) (r5 : FVec F S256x1024 .bf16) (r6 : FVec F S256x1024 .f32)
    (hX : X = KFun.xblk m c (prv c)) (hW : Wq = KFun.wqb m c) (hr5 : r5 = k0_pay63 X) (hr6 : r6 = k0_pay64 r5 Wq)
    (h : Fin 8) (i : Fin 256) (d : Fin 128) :
    ((Memref.whole cc0_scratch4 : Memref sig .tc .vmem S32x256x128 .bf16).view.writes (Elt F) f4 (⟨Rect.unit (s := S32x256x128) (k0_off25 c 3#32 7#32) S1x256x128.size (k0_off25_inb c 2 7), k0_pay72 r6⟩ :: ⟨Rect.unit (s := S32x256x128) (k0_off25 c 3#32 6#32) S1x256x128.size (k0_off25_inb c 2 6), k0_pay71 r6⟩ :: ⟨Rect.unit (s := S32x256x128) (k0_off25 c 3#32 5#32) S1x256x128.size (k0_off25_inb c 2 5), k0_pay70 r6⟩ :: ⟨Rect.unit (s := S32x256x128) (k0_off25 c 3#32 4#32) S1x256x128.size (k0_off25_inb c 2 4), k0_pay69 r6⟩ :: ⟨Rect.unit (s := S32x256x128) (k0_off25 c 3#32 3#32) S1x256x128.size (k0_off25_inb c 2 3), k0_pay68 r5 Wq⟩ :: ⟨Rect.unit (s := S32x256x128) (k0_off25 c 3#32 2#32) S1x256x128.size (k0_off25_inb c 2 2), k0_pay67 r5 Wq⟩ :: ⟨Rect.unit (s := S32x256x128) (k0_off25 c 3#32 1#32) S1x256x128.size (k0_off25_inb c 2 1), k0_pay66 r5 Wq⟩ :: ⟨Rect.unit (s := S32x256x128) (k0_off25 c 3#32 0#32) S1x256x128.size (k0_off25_inb c 2 0), k0_pay65 r5 Wq⟩ :: rest))
        (ix3 (⟨8 * ((c.val + 3) % 4) + h.val, by have := h.isLt; omega⟩ : Fin 32) i d)
      = KFun.q2 m c (prv c) h (ix3 0 i d) := by
  subst_vars
  exact q2rows_rest m c (prv c) (8 * ((c.val + 3) % 4)) (by omega) _ _ _ _ _ _ _ _ _ _ _ _ _ _ _ _
    (off25_eq c 2 0) (off25_eq c 2 1) (off25_eq c 2 2) (off25_eq c 2 3) (off25_eq c 2 4) (off25_eq c 2 5) (off25_eq c 2 6) (off25_eq c 2 7) f4 rest _ _ _ _ _ _ _ _
    rfl rfl rfl rfl rfl rfl rfl rfl h i d

set_option maxHeartbeats 4000000 in
/-- The query rows of batch `c + 1`. -/
theorem q2rows_w1 (f4 : Buf (Elt F) ((c : Thread nD τ).loc cc0_scratch4)) (rest : List (View.Piece (Elt F) S32x256x128 .bf16))
    (X : Vec F S1x256x1024 .f32) (Wq : Vec F S1024x1024 .bf16) (r1 : FVec F S256x1024 .f32) (r2 : FVec F S256x128 .bf16) (P0 : FVec F S1x256x128 .bf16)
    (hX : X = KFun.xblk m c (nxt c)) (hW : Wq = KFun.wqb m c) (hr1 : r1 = k0_pay84 X Wq) (hr2 : r2 = k0_pay90 r1) (hP0 : P0 = k0_pay85 X Wq)
    (h : Fin 8) (i : Fin 256) (d : Fin 128) :
    ((Memref.whole cc0_scratch4 : Memref sig .tc .vmem S32x256x128 .bf16).view.writes (Elt F) f4 (⟨Rect.unit (s := S32x256x128) (k0_off25 c 1#32 7#32) S1x256x128.size (k0_off25_inb c 0 7), k0_pay93 r1⟩ :: ⟨Rect.unit (s := S32x256x128) (k0_off25 c 1#32 6#32) S1x256x128.size (k0_off25_inb c 0 6), k0_pay92 r1⟩ :: ⟨Rect.unit (s := S32x256x128) (k0_off25 c 1#32 5#32) S1x256x128.size (k0_off25_inb c 0 5), k0_pay91 r2⟩ :: ⟨Rect.unit (s := S32x256x128) (k0_off25 c 1#32 4#32) S1x256x128.size (k0_off25_inb c 0 4), k0_pay89 r1⟩ :: ⟨Rect.unit (s := S32x256x128) (k0_off25 c 1#32 3#32) S1x256x128.size (k0_off25_inb c 0 3), k0_pay88 r1⟩ :: ⟨Rect.unit (s := S32x256x128) (k0_off25 c 1#32 2#32) S1x256x128.size (k0_off25_inb c 0 2), k0_pay87 r1⟩ :: ⟨Rect.unit (s := S32x256x128) (k0_off25 c 1#32 1#32) S1x256x128.size (k0_off25_inb c 0 1), k0_pay86 r1⟩ :: ⟨Rect.unit (s := S32x256x128) (k0_off25 c 1#32 0#32) S1x256x128.size (k0_off25_inb c 0 0), P0⟩ :: rest))
        (ix3 (⟨8 * ((c.val + 1) % 4) + h.val, by have := h.isLt; omega⟩ : Fin 32) i d)
      = KFun.q2 m c (nxt c) h (ix3 0 i d) := by
  subst_vars
  exact q2rows_rest m c (nxt c) (8 * ((c.val + 1) % 4)) (by omega) _ _ _ _ _ _ _ _ _ _ _ _ _ _ _ _
    (off25_eq c 0 0) (off25_eq c 0 1) (off25_eq c 0 2) (off25_eq c 0 3) (off25_eq c 0 4) (off25_eq c 0 5) (off25_eq c 0 6) (off25_eq c 0 7) f4 rest _ _ _ _ _ _ _ _
    rfl rfl rfl rfl rfl rfl rfl rfl h i d

end Batches

section Loads
variable (m : (ℓ : Loc nD τ sig) → Buf (Elt F) ℓ) (c : Dev nD)

theorem nxt_val : ∀ c : Dev nD, (nxt c).val = (c.val + 1) % 4 := by decide
theorem nxt2_val : ∀ c : Dev nD, (nxt (nxt c)).val = (c.val + 2) % 4 := by decide
theorem prv_val : ∀ c : Dev nD, (prv c).val = (c.val + 3) % 4 := by decide

/-- The offsets of the three later batches' tiles of `x`, by the batch. -/
theorem off24_w1 : k0_off24 c 1#32 = ![(nxt c).val, 0, 0] := (off24_eq c 0).trans (by rw [nxt_val]; rfl)
theorem off24_w2 : k0_off24 c 2#32 = ![(nxt (nxt c)).val, 0, 0] := (off24_eq c 1).trans (by rw [nxt2_val]; rfl)
theorem off24_w3 : k0_off24 c 3#32 = ![(prv c).val, 0, 0] := (off24_eq c 2).trans (by rw [prv_val]; rfl)

/-- The narrowed query weights as the projection loads them: the whole buffer. -/
theorem wqb_load (w : Buf (Elt F) ((c : Thread nD τ).loc cc0_scratch7)) :
    View.readAt (Elt F) (Memref.whole cc0_scratch7 : Memref sig .tc .vmem S1024x1024 .bf16).view (Rect.unit (s := S1024x1024) ![0, 0] S1024x1024.size inb_S1024x1024_S1024x1024_0_0).toLoadRect w = w := by
  funext s
  rw [View.readAt_apply, View.read_apply]
  show w _ = w _
  refine congrArg w (funext fun x => Fin.ext ?_)
  match x with
  | ⟨0, _⟩ => show 0 + 1 * (s 0).val = (s 0).val; omega
  | ⟨1, _⟩ => show 0 + 1 * (s 1).val = (s 1).val; omega

/-- The staged `x` is the launch memory's. -/
theorem stage0_eq (b' : Fin 4) (i : Fin 256) (n : Fin 1024) :
    ((dats (KFun.V m) m KFun.Kout 0 c).after 0 t0_0) (ix3 b' i n) = KFun.X m c (ix3 b' i n) := by
  show ((cfg0.win 0).blk t0_0).view.read (Elt F) (m ((c : Thread nD τ).loc main_arg0)) (ix3 b' i n) = m ((c : Thread nD τ).loc main_arg0) (ix3 b' i n)
  rw [View.read_apply]
  show (m ((c : Thread nD τ).loc main_arg0)) _ = (m ((c : Thread nD τ).loc main_arg0)) _
  refine congrArg _ (funext fun a => Fin.ext ?_)
  match a with
  | ⟨0, _⟩ => show 0 + 1 * b'.val = b'.val; omega
  | ⟨1, _⟩ => show 0 + 1 * i.val = i.val; omega
  | ⟨2, _⟩ => show 0 + 1 * n.val = n.val; omega

end Loads

section KVBatches
variable (m : (ℓ : Loc nD τ sig) → Buf (Elt F) ℓ) (c : Dev nD)

set_option maxHeartbeats 4000000 in
/-- The narrowed key and value planes of batch `c + 2` from its four stored tiles, whatever lies under them. -/
theorem kvrows_w2 (f9 : Buf (Elt F) ((c : Thread nD τ).loc cc0_scratch9)) (rest : List (View.Piece (Elt F) S2x8x1024x128 .bf16))
    (vK0 vV0 vK1 vV1 : Vec F S1x1x1024x128 .f32) (rV1 : FVec F S1024x128 .bf16)
    (hK0 : vK0 = KFun.kslice m c (nxt (nxt c)) 0) (hV0 : vV0 = KFun.vslice m c (nxt (nxt c)) 0)
    (hK1 : vK1 = KFun.kslice m c (nxt (nxt c)) 1) (hV1 : vV1 = KFun.vslice m c (nxt (nxt c)) 1) (hrV1 : rV1 = k0_pay43 vV1)
    (g : Fin 2) (j : Fin 1024) (d : Fin 128) :
    ((Memref.whole cc0_scratch9 : Memref sig .tc .vmem S2x8x1024x128 .bf16).view.writes (Elt F) f9 (⟨Rect.unit (s := S2x8x1024x128) (k0_off23 c 2#32 1#32) S1x1x1024x128.size (k0_off23_inb c 1 1), k0_pay44 rV1⟩ :: ⟨Rect.unit (s := S2x8x1024x128) (k0_off22 c 2#32 1#32) S1x1x1024x128.size (k0_off22_inb c 1 1), k0_pay42 vK1⟩ :: ⟨Rect.unit (s := S2x8x1024x128) (k0_off23 c 2#32 0#32) S1x1x1024x128.size (k0_off23_inb c 1 0), k0_pay41 vV0⟩ :: ⟨Rect.unit (s := S2x8x1024x128) (k0_off22 c 2#32 0#32) S1x1x1024x128.size (k0_off22_inb c 1 0), k0_pay40 vK0⟩ :: rest))
        (ix4 (0 : Fin 2) (⟨2 * ((c.val + 2) % 4) + g.val, by have := g.isLt; omega⟩ : Fin 8) j d) = KFun.kh m c (nxt (nxt c)) g (ix4 0 0 j d)
    ∧ ((Memref.whole cc0_scratch9 : Memref sig .tc .vmem S2x8x1024x128 .bf16).view.writes (Elt F) f9 (⟨Rect.unit (s := S2x8x1024x128) (k0_off23 c 2#32 1#32) S1x1x1024x128.size (k0_off23_inb c 1 1), k0_pay44 rV1⟩ :: ⟨Rect.unit (s := S2x8x1024x128) (k0_off22 c 2#32 1#32) S1x1x1024x128.size (k0_off22_inb c 1 1), k0_pay42 vK1⟩ :: ⟨Rect.unit (s := S2x8x1024x128) (k0_off23 c 2#32 0#32) S1x1x1024x128.size (k0_off23_inb c 1 0), k0_pay41 vV0⟩ :: ⟨Rect.unit (s := S2x8x1024x128) (k0_off22 c 2#32 0#32) S1x1x1024x128.size (k0_off22_inb c 1 0), k0_pay40 vK0⟩ :: rest))
        (ix4 (1 : Fin 2) (⟨2 * ((c.val + 2) % 4) + g.val, by have := g.isLt; omega⟩ : Fin 8) j d) = KFun.vh m c (nxt (nxt c)) g (ix4 0 0 j d) := by
  subst_vars
  exact kvrows_rest m c (nxt (nxt c)) (2 * ((c.val + 2) % 4)) (by omega) _ _ _ _ _ _ _ _
    (off23_eq c 1 1) (off22_eq c 1 1) (off23_eq c 1 0) (off22_eq c 1 0) f9 rest _ _ _ _ rfl rfl rfl rfl g j d

set_option maxHeartbeats 4000000 in
/-- The narrowed key and value planes of batch `c + 3`. -/
theorem kvrows_w3 (f9 : Buf (Elt F) ((c : Thread nD τ).loc cc0_scratch9)) (rest : List (View.Piece (Elt F) S2x8x1024x128 .bf16))
    (vK0 vV0 vK1 vV1 : Vec F S1x1x1024x128 .f32) (rV0 : FVec F S1024x128 .bf16)
    (hK0 : vK0 = KFun.kslice m c (prv c) 0) (hV0 : vV0 = KFun.vslice m c (prv c) 0)
    (hK1 : vK1 = KFun.kslice m c (prv c) 1) (hV1 : vV1 = KFun.vslice m c (prv c) 1) (hrV0 : rV0 = k0_pay59 vV0)
    (g : Fin 2) (j : Fin 1024) (d : Fin 128) :
    ((Memref.whole cc0_scratch9 : Memref sig .tc .vmem S2x8x1024x128 .bf16).view.writes (Elt F) f9 (⟨Rect.unit (s := S2x8x1024x128) (k0_off23 c 3#32 1#32) S1x1x1024x128.size (k0_off23_inb c 2 1), k0_pay62 vV1⟩ :: ⟨Rect.unit (s := S2x8x1024x128) (k0_off22 c 3#32 1#32) S1x1x1024x128.size (k0_off22_inb c 2 1), k0_pay61 vK1⟩ :: ⟨Rect.unit (s := S2x8x1024x128) (k0_off23 c 3#32 0#32) S1x1x1024x128.size (k0_off23_inb c 2 0), k0_pay60 rV0⟩ :: ⟨Rect.unit (s := S2x8x1024x128) (k0_off22 c 3#32 0#32) S1x1x1024x128.size (k0_off22_inb c 2 0), k0_pay58 vK0⟩ :: rest))
        (ix4 (0 : Fin 2) (⟨2 * ((c.val + 3) % 4) + g.val, by have := g.isLt; omega⟩ : Fin 8) j d) = KFun.kh m c (prv c) g (ix4 0 0 j d)
    ∧ ((Memref.whole cc0_scratch9 : Memref sig .tc .vmem S2x8x1024x128 .bf16).view.writes (Elt F) f9 (⟨Rect.unit (s := S2x8x1024x128) (k0_off23 c 3#32 1#32) S1x1x1024x128.size (k0_off23_inb c 2 1), k0_pay62 vV1⟩ :: ⟨Rect.unit (s := S2x8x1024x128) (k0_off22 c 3#32 1#32) S1x1x1024x128.size (k0_off22_inb c 2 1), k0_pay61 vK1⟩ :: ⟨Rect.unit (s := S2x8x1024x128) (k0_off23 c 3#32 0#32) S1x1x1024x128.size (k0_off23_inb c 2 0), k0_pay60 rV0⟩ :: ⟨Rect.unit (s := S2x8x1024x128) (k0_off22 c 3#32 0#32) S1x1x1024x128.size (k0_off22_inb c 2 0), k0_pay58 vK0⟩ :: rest))
        (ix4 (1 : Fin 2) (⟨2 * ((c.val + 3) % 4) + g.val, by have := g.isLt; omega⟩ : Fin 8) j d) = KFun.vh m c (prv c) g (ix4 0 0 j d) := by
  subst_vars
  exact kvrows_rest m c (prv c) (2 * ((c.val + 3) % 4)) (by omega) _ _ _ _ _ _ _ _
    (off23_eq c 2 1) (off22_eq c 2 1) (off23_eq c 2 0) (off22_eq c 2 0) f9 rest _ _ _ _ rfl rfl rfl rfl g j d

set_option maxHeartbeats 4000000 in
/-- The narrowed key and value planes of batch `c + 1`. -/
theorem kvrows_w1 (f9 : Buf (Elt F) ((c : Thread nD τ).loc cc0_scratch9)) (rest : List (View.Piece (Elt F) S2x8x1024x128 .bf16))
    (vK0 vV0 vK1 vV1 : Vec F S1x1x1024x128 .f32) (rK1 : FVec F S1024x128 .bf16)
    (hK0 : vK0 = KFun.kslice m c (nxt c) 0) (hV0 : vV0 = KFun.vslice m c (nxt c) 0)
    (hK1 : vK1 = KFun.kslice m c (nxt c) 1) (hV1 : vV1 = KFun.vslice m c (nxt c) 1) (hrK1 : rK1 = k0_pay81 vK1)
    (g : Fin 2) (j : Fin 1024) (d : Fin 128) :
    ((Memref.whole cc0_scratch9 : Memref sig .tc .vmem S2x8x1024x128 .bf16).view.writes (Elt F) f9 (⟨Rect.unit (s := S2x8x1024x128) (k0_off23 c 1#32 1#32) S1x1x1024x128.size (k0_off23_inb c 0 1), k0_pay83 vV1⟩ :: ⟨Rect.unit (s := S2x8x1024x128) (k0_off22 c 1#32 1#32) S1x1x1024x128.size (k0_off22_inb c 0 1), k0_pay82 rK1⟩ :: ⟨Rect.unit (s := S2x8x1024x128) (k0_off23 c 1#32 0#32) S1x1x1024x128.size (k0_off23_inb c 0 0), k0_pay80 vV0⟩ :: ⟨Rect.unit (s := S2x8x1024x128) (k0_off22 c 1#32 0#32) S1x1x1024x128.size (k0_off22_inb c 0 0), k0_pay79 vK0⟩ :: rest))
        (ix4 (0 : Fin 2) (⟨2 * ((c.val + 1) % 4) + g.val, by have := g.isLt; omega⟩ : Fin 8) j d) = KFun.kh m c (nxt c) g (ix4 0 0 j d)
    ∧ ((Memref.whole cc0_scratch9 : Memref sig .tc .vmem S2x8x1024x128 .bf16).view.writes (Elt F) f9 (⟨Rect.unit (s := S2x8x1024x128) (k0_off23 c 1#32 1#32) S1x1x1024x128.size (k0_off23_inb c 0 1), k0_pay83 vV1⟩ :: ⟨Rect.unit (s := S2x8x1024x128) (k0_off22 c 1#32 1#32) S1x1x1024x128.size (k0_off22_inb c 0 1), k0_pay82 rK1⟩ :: ⟨Rect.unit (s := S2x8x1024x128) (k0_off23 c 1#32 0#32) S1x1x1024x128.size (k0_off23_inb c 0 0), k0_pay80 vV0⟩ :: ⟨Rect.unit (s := S2x8x1024x128) (k0_off22 c 1#32 0#32) S1x1x1024x128.size (k0_off22_inb c 0 0), k0_pay79 vK0⟩ :: rest))
        (ix4 (1 : Fin 2) (⟨2 * ((c.val + 1) % 4) + g.val, by have := g.isLt; omega⟩ : Fin 8) j d) = KFun.vh m c (nxt c) g (ix4 0 0 j d) := by
  subst_vars
  exact kvrows_rest m c (nxt c) (2 * ((c.val + 1) % 4)) (by omega) _ _ _ _ _ _ _ _
    (off23_eq c 0 1) (off22_eq c 0 1) (off23_eq c 0 0) (off22_eq c 0 0) f9 rest _ _ _ _ rfl rfl rfl rfl g j d

end KVBatches

section KVBatchesP
variable (m : (ℓ : Loc nD τ sig) → Buf (Elt F) ℓ) (c : Dev nD)

/-- The batches by their distance from the device's own. -/
theorem bIdx_one : ∀ c : Dev nD, bIdx c 1 = nxt c := by decide
theorem bIdx_two : ∀ c : Dev nD, bIdx c 2 = nxt (nxt c) := by decide
theorem bIdx_three : ∀ c : Dev nD, bIdx c 3 = prv c := by decide
theorem bIdx_zero : ∀ c : Dev nD, bIdx c 0 = c := by decide

set_option maxHeartbeats 4000000 in
/-- The same of batch `c + 2` from the narrowed planes' values. -/
theorem kvrows_w2p (f9 : Buf (Elt F) ((c : Thread nD τ).loc cc0_scratch9)) (rest : List (View.Piece (Elt F) S2x8x1024x128 .bf16))
    (vK0 vV0 vK1 vV1 : Vec F S1x1x1024x128 .f32) (rV1 : FVec F S1024x128 .bf16)
    (hK0 : k0_pay25 vK0 = KFun.kh m c (nxt (nxt c)) 0) (hV0 : k0_pay25 vV0 = KFun.vh m c (nxt (nxt c)) 0)
    (hK1 : k0_pay25 vK1 = KFun.kh m c (nxt (nxt c)) 1) (hV1 : k0_pay25 vV1 = KFun.vh m c (nxt (nxt c)) 1) (hrV1 : rV1 = k0_pay43 vV1)
    (g : Fin 2) (j : Fin 1024) (d : Fin 128) :
    ((Memref.whole cc0_scratch9 : Memref sig .tc .vmem S2x8x1024x128 .bf16).view.writes (Elt F) f9 (⟨Rect.unit (s := S2x8x1024x128) (k0_off23 c 2#32 1#32) S1x1x1024x128.size (k0_off23_inb c 1 1), k0_pay44 rV1⟩ :: ⟨Rect.unit (s := S2x8x1024x128) (k0_off22 c 2#32 1#32) S1x1x1024x128.size (k0_off22_inb c 1 1), k0_pay42 vK1⟩ :: ⟨Rect.unit (s := S2x8x1024x128) (k0_off23 c 2#32 0#32) S1x1x1024x128.size (k0_off23_inb c 1 0), k0_pay41 vV0⟩ :: ⟨Rect.unit (s := S2x8x1024x128) (k0_off22 c 2#32 0#32) S1x1x1024x128.size (k0_off22_inb c 1 0), k0_pay40 vK0⟩ :: rest))
        (ix4 (0 : Fin 2) (⟨2 * ((c.val + 2) % 4) + g.val, by have := g.isLt; omega⟩ : Fin 8) j d) = KFun.kh m c (nxt (nxt c)) g (ix4 0 0 j d)
    ∧ ((Memref.whole cc0_scratch9 : Memref sig .tc .vmem S2x8x1024x128 .bf16).view.writes (Elt F) f9 (⟨Rect.unit (s := S2x8x1024x128) (k0_off23 c 2#32 1#32) S1x1x1024x128.size (k0_off23_inb c 1 1), k0_pay44 rV1⟩ :: ⟨Rect.unit (s := S2x8x1024x128) (k0_off22 c 2#32 1#32) S1x1x1024x128.size (k0_off22_inb c 1 1), k0_pay42 vK1⟩ :: ⟨Rect.unit (s := S2x8x1024x128) (k0_off23 c 2#32 0#32) S1x1x1024x128.size (k0_off23_inb c 1 0), k0_pay41 vV0⟩ :: ⟨Rect.unit (s := S2x8x1024x128) (k0_off22 c 2#32 0#32) S1x1x1024x128.size (k0_off22_inb c 1 0), k0_pay40 vK0⟩ :: rest))
        (ix4 (1 : Fin 2) (⟨2 * ((c.val + 2) % 4) + g.val, by have := g.isLt; omega⟩ : Fin 8) j d) = KFun.vh m c (nxt (nxt c)) g (ix4 0 0 j d) := by
  subst hrV1
  exact kvrows_rest m c (nxt (nxt c)) (2 * ((c.val + 2) % 4)) (by omega) _ _ _ _ _ _ _ _
    (off23_eq c 1 1) (off22_eq c 1 1) (off23_eq c 1 0) (off22_eq c 1 0) f9 rest _ _ _ _
    ((kv_pay40 vK0).trans hK0) ((kv_pay41 vV0).trans hV0) ((kv_pay42 vK1).trans hK1) ((kv_pay44 vV1).trans hV1) g j d

set_option maxHeartbeats 4000000 in
/-- The same of batch `c + 3`. -/
theorem kvrows_w3p (f9 : Buf (Elt F) ((c : Thread nD τ).loc cc0_scratch9)) (rest : List (View.Piece (Elt F) S2x8x1024x128 .bf16))
    (vK0 vV0 vK1 vV1 : Vec F S1x1x1024x128 .f32) (rV0 : FVec F S1024x128 .bf16)
    (hK0 : k0_pay25 vK0 = KFun.kh m c (prv c) 0) (hV0 : k0_pay25 vV0 = KFun.vh m c (prv c) 0)
    (hK1 : k0_pay25 vK1 = KFun.kh m c (prv c) 1) (hV1 : k0_pay25 vV1 = KFun.vh m c (prv c) 1) (hrV0 : rV0 = k0_pay59 vV0)
    (g : Fin 2) (j : Fin 1024) (d : Fin 128) :
    ((Memref.whole cc0_scratch9 : Memref sig .tc .vmem S2x8x1024x128 .bf16).view.writes (Elt F) f9 (⟨Rect.unit (s := S2x8x1024x128) (k0_off23 c 3#32 1#32) S1x1x1024x128.size (k0_off23_inb c 2 1), k0_pay62 vV1⟩ :: ⟨Rect.unit (s := S2x8x1024x128) (k0_off22 c 3#32 1#32) S1x1x1024x128.size (k0_off22_inb c 2 1), k0_pay61 vK1⟩ :: ⟨Rect.unit (s := S2x8x1024x128) (k0_off23 c 3#32 0#32) S1x1x1024x128.size (k0_off23_inb c 2 0), k0_pay60 rV0⟩ :: ⟨Rect.unit (s := S2x8x1024x128) (k0_off22 c 3#32 0#32) S1x1x1024x128.size (k0_off22_inb c 2 0), k0_pay58 vK0⟩ :: rest))
        (ix4 (0 : Fin 2) (⟨2 * ((c.val + 3) % 4) + g.val, by have := g.isLt; omega⟩ : Fin 8) j d) = KFun.kh m c (prv c) g (ix4 0 0 j d)
    ∧ ((Memref.whole cc0_scratch9 : Memref sig .tc .vmem S2x8x1024x128 .bf16).view.writes (Elt F) f9 (⟨Rect.unit (s := S2x8x1024x128) (k0_off23 c 3#32 1#32) S1x1x1024x128.size (k0_off23_inb c 2 1), k0_pay62 vV1⟩ :: ⟨Rect.unit (s := S2x8x1024x128) (k0_off22 c 3#32 1#32) S1x1x1024x128.size (k0_off22_inb c 2 1), k0_pay61 vK1⟩ :: ⟨Rect.unit (s := S2x8x1024x128) (k0_off23 c 3#32 0#32) S1x1x1024x128.size (k0_off23_inb c 2 0), k0_pay60 rV0⟩ :: ⟨Rect.unit (s := S2x8x1024x128) (k0_off22 c 3#32 0#32) S1x1x1024x128.size (k0_off22_inb c 2 0), k0_pay58 vK0⟩ :: rest))
        (ix4 (1 : Fin 2) (⟨2 * ((c.val + 3) % 4) + g.val, by have := g.isLt; omega⟩ : Fin 8) j d) = KFun.vh m c (prv c) g (ix4 0 0 j d) := by
  subst hrV0
  exact kvrows_rest m c (prv c) (2 * ((c.val + 3) % 4)) (by omega) _ _ _ _ _ _ _ _
    (off23_eq c 2 1) (off22_eq c 2 1) (off23_eq c 2 0) (off22_eq c 2 0) f9 rest _ _ _ _
    ((kv_pay58 vK0).trans hK0) ((kv_pay60 vV0).trans hV0) ((kv_pay61 vK1).trans hK1) ((kv_pay62 vV1).trans hV1) g j d

set_option maxHeartbeats 4000000 in
/-- The same of batch `c + 1`. -/
theorem kvrows_w1p (f9 : Buf (Elt F) ((c : Thread nD τ).loc cc0_scratch9)) (rest : List (View.Piece (Elt F) S2x8x1024x128 .bf16))
    (vK0 vV0 vK1 vV1 : Vec F S1x1x1024x128 .f32) (rK1 : FVec F S1024x128 .bf16)
    (hK0 : k0_pay25 vK0 = KFun.kh m c (nxt c) 0) (hV0 : k0_pay25 vV0 = KFun.vh m c (nxt c) 0)
    (hK1 : k0_pay25 vK1 = KFun.kh m c (nxt c) 1) (hV1 : k0_pay25 vV1 = KFun.vh m c (nxt c) 1) (hrK1 : rK1 = k0_pay81 vK1)
    (g : Fin 2) (j : Fin 1024) (d : Fin 128) :
    ((Memref.whole cc0_scratch9 : Memref sig .tc .vmem S2x8x1024x128 .bf16).view.writes (Elt F) f9 (⟨Rect.unit (s := S2x8x1024x128) (k0_off23 c 1#32 1#32) S1x1x1024x128.size (k0_off23_inb c 0 1), k0_pay83 vV1⟩ :: ⟨Rect.unit (s := S2x8x1024x128) (k0_off22 c 1#32 1#32) S1x1x1024x128.size (k0_off22_inb c 0 1), k0_pay82 rK1⟩ :: ⟨Rect.unit (s := S2x8x1024x128) (k0_off23 c 1#32 0#32) S1x1x1024x128.size (k0_off23_inb c 0 0), k0_pay80 vV0⟩ :: ⟨Rect.unit (s := S2x8x1024x128) (k0_off22 c 1#32 0#32) S1x1x1024x128.size (k0_off22_inb c 0 0), k0_pay79 vK0⟩ :: rest))
        (ix4 (0 : Fin 2) (⟨2 * ((c.val + 1) % 4) + g.val, by have := g.isLt; omega⟩ : Fin 8) j d) = KFun.kh m c (nxt c) g (ix4 0 0 j d)
    ∧ ((Memref.whole cc0_scratch9 : Memref sig .tc .vmem S2x8x1024x128 .bf16).view.writes (Elt F) f9 (⟨Rect.unit (s := S2x8x1024x128) (k0_off23 c 1#32 1#32) S1x1x1024x128.size (k0_off23_inb c 0 1), k0_pay83 vV1⟩ :: ⟨Rect.unit (s := S2x8x1024x128) (k0_off22 c 1#32 1#32) S1x1x1024x128.size (k0_off22_inb c 0 1), k0_pay82 rK1⟩ :: ⟨Rect.unit (s := S2x8x1024x128) (k0_off23 c 1#32 0#32) S1x1x1024x128.size (k0_off23_inb c 0 0), k0_pay80 vV0⟩ :: ⟨Rect.unit (s := S2x8x1024x128) (k0_off22 c 1#32 0#32) S1x1x1024x128.size (k0_off22_inb c 0 0), k0_pay79 vK0⟩ :: rest))
        (ix4 (1 : Fin 2) (⟨2 * ((c.val + 1) % 4) + g.val, by have := g.isLt; omega⟩ : Fin 8) j d) = KFun.vh m c (nxt c) g (ix4 0 0 j d) := by
  subst hrK1
  exact kvrows_rest m c (nxt c) (2 * ((c.val + 1) % 4)) (by omega) _ _ _ _ _ _ _ _
    (off23_eq c 0 1) (off22_eq c 0 1) (off23_eq c 0 0) (off22_eq c 0 0) f9 rest _ _ _ _
    ((kv_pay79 vK0).trans hK0) ((kv_pay80 vV0).trans hV0) ((kv_pay82 vK1).trans hK1) ((kv_pay83 vV1).trans hV1) g j d

end KVBatchesP

end Cert.KernelIdeal.Proto.Rows
end
-- ==== Proof.KvRead.lean ====
/-
  What the narrowing of a batch's key and value planes reads: a plane read through the whole buffer after a local copy
  wrote it is the rows the copy carried, and those rows are the launch memory's key rows, or value rows, of the batch.
-/
import proofs.«900754_g7700000000000755_dist_attn_cross_gqa_kvseq_b4_sq256_skv1024_d1024_hq8_dh128_v7x_i4_f32_1_alg».proof.Proof.KvRel
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.ProjRows
import Idealize.ShloMosaic.Lib.Pipeline.Value

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A plane read through the whole buffer, from what a copy of rows `v` left in it, reshaped to the plane: the rows. -/
theorem plane_read (off : Fin 4 → ℕ) (inb inb' : ∀ x, off x + S1x1x1024x128.size x ≤ S2x8x1024x128.size x) (v : CpVal F) :
    shapeCast S1024x128
        (View.readAt (Elt F) (Memref.whole cc0_scratch5 : Memref sig .tc .vmem S2x8x1024x128 .f32).view (Rect.unit (s := S2x8x1024x128) off S1x1x1024x128.size inb).toLoadRect
          ((kvPl off inb').view.writes (Elt F) (kvPl off inb').view.junk [⟨Rect.whole S1024x128, v⟩]))
        shapeCasts_S1x1x1024x128_S1024x128 = v := by
  have h1 := View.read_writes_whole (Val := Elt F) (kvPl off inb').view (kvPl off inb').view.junk v
  exact (Memref.read_squeeze_slice (Val := Elt F) kvB (Rect.unit (s := S2x8x1024x128) off S1x1x1024x128.size inb) (fun _ => rfl) squeezes_S1x1x1024x128_S1024x128 shapeCasts_S1x1x1024x128_S1024x128 _).symm.trans h1

/-- The key rows of batch `b`, head `g`, read from the launch memory through the source plane's rectangle and reshaped
    to the plane, are the kernel function's key slice reshaped. -/
theorem ksrc_rect (c : Dev nD) (b : Fin 4) (g : Fin 2) :
    shapeCast S1024x128 (KFun.kslice m c b g) shapeCasts_S1x1x1024x128_S1024x128
      = shapeCast S1024x128
          (View.readAt (Elt F) hbK.view (Rect.unit (s := S4x1024x2x128) ![b.val, 0, g.val, 0] S1x1024x1x128.size (hb_inb b.val g.val ⟨b.isLt, g.isLt⟩)).toLoadRect (m ((c : Thread nD τ).loc main_arg3)))
          (show S1x1024x1x128.ShapeCasts S1024x128 from by decide) := by
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.kslice KFun.KQ
  rw [View.readAt_rect, View.read_apply]
  have he : (hbK.view.slice (Rect.unit (s := S4x1024x2x128) ![b.val, 0, g.val, 0] S1x1024x1x128.size (hb_inb b.val g.val ⟨b.isLt, g.isLt⟩))).emb
        (ix4 (0 : Fin 1) (⟨(y 0).val, hy0⟩ : Fin 1024) (0 : Fin 1) (⟨(y 1).val, hy1⟩ : Fin 128))
      = ix4 b (⟨(y 0).val, hy0⟩ : Fin 1024) g (⟨(y 1).val, hy1⟩ : Fin 128) := by
    funext a
    apply Fin.ext
    fin_cases a
    · show b.val + 1 * 0 = b.val
      omega
    · show 0 + 1 * (y 0).val = (y 0).val
      omega
    · show g.val + 1 * 0 = g.val
      omega
    · show 0 + 1 * (y 1).val = (y 1).val
      omega
  rw [he]
  rfl
/-- The same for the value rows. -/
theorem vsrc_rect (c : Dev nD) (b : Fin 4) (g : Fin 2) :
    shapeCast S1024x128 (KFun.vslice m c b g) shapeCasts_S1x1x1024x128_S1024x128
      = shapeCast S1024x128
          (View.readAt (Elt F) hbV.view (Rect.unit (s := S4x1024x2x128) ![b.val, 0, g.val, 0] S1x1024x1x128.size (hb_inb b.val g.val ⟨b.isLt, g.isLt⟩)).toLoadRect (m ((c : Thread nD τ).loc main_arg4)))
          (show S1x1024x1x128.ShapeCasts S1024x128 from by decide) := by
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.vslice KFun.VQ
  rw [View.readAt_rect, View.read_apply]
  have he : (hbV.view.slice (Rect.unit (s := S4x1024x2x128) ![b.val, 0, g.val, 0] S1x1024x1x128.size (hb_inb b.val g.val ⟨b.isLt, g.isLt⟩))).emb
        (ix4 (0 : Fin 1) (⟨(y 0).val, hy0⟩ : Fin 1024) (0 : Fin 1) (⟨(y 1).val, hy1⟩ : Fin 128))
      = ix4 b (⟨(y 0).val, hy0⟩ : Fin 1024) g (⟨(y 1).val, hy1⟩ : Fin 128) := by
    funext a
    apply Fin.ext
    fin_cases a
    · show b.val + 1 * 0 = b.val
      omega
    · show 0 + 1 * (y 0).val = (y 0).val
      omega
    · show g.val + 1 * 0 = g.val
      omega
    · show 0 + 1 * (y 1).val = (y 1).val
      omega
  rw [he]
  rfl

/-- A source plane as issued reads the launch memory through its rectangle, reshaped. -/
theorem hbKS_read (c : Dev nD) (b : Fin 4) (g : Fin 2) :
    (hbKS b g).view.read (Elt F) (m ((hbKS b g).view.loc (c : Thread nD τ)))
      = shapeCast S1024x128
          (View.readAt (Elt F) hbK.view (Rect.unit (s := S4x1024x2x128) ![b.val, 0, g.val, 0] S1x1024x1x128.size (hb_inb b.val g.val ⟨b.isLt, g.isLt⟩)).toLoadRect (m ((c : Thread nD τ).loc main_arg3)))
          (show S1x1024x1x128.ShapeCasts S1024x128 from by decide) := by
  fin_cases b <;> fin_cases g <;> rfl
theorem hbVS_read (c : Dev nD) (b : Fin 4) (g : Fin 2) :
    (hbVS b g).view.read (Elt F) (m ((hbVS b g).view.loc (c : Thread nD τ)))
      = shapeCast S1024x128
          (View.readAt (Elt F) hbV.view (Rect.unit (s := S4x1024x2x128) ![b.val, 0, g.val, 0] S1x1024x1x128.size (hb_inb b.val g.val ⟨b.isLt, g.isLt⟩)).toLoadRect (m ((c : Thread nD τ).loc main_arg4)))
          (show S1x1024x1x128.ShapeCasts S1024x128 from by decide) := by
  fin_cases b <;> fin_cases g <;> rfl

/-- The launch memory read through the source plane of the device's `j`-th batch, head `g`, is the kernel function's key
    slice of batch `(c + j) mod 4`, reshaped to the plane; and the value slice. -/
theorem ksrc (c : Dev nD) (j : Fin 4) (g : Fin 2) :
    (hbKD c j g).view.read (Elt F) (m ((hbKD c j g).view.loc (c : Thread nD τ)))
      = shapeCast S1024x128 (KFun.kslice m c (bIdx c j) g) shapeCasts_S1x1x1024x128_S1024x128 := by
  have h := congrArg (fun M : Memref sig .tc .hbm S1024x128 .f32 => M.view.read (Elt F) (m (M.view.loc (c : Thread nD τ)))) (hbKD_eq c j g)
  exact h.trans ((hbKS_read m c (bIdx c j) g).trans (ksrc_rect m c (bIdx c j) g).symm)
theorem vsrc (c : Dev nD) (j : Fin 4) (g : Fin 2) :
    (hbVD c j g).view.read (Elt F) (m ((hbVD c j g).view.loc (c : Thread nD τ)))
      = shapeCast S1024x128 (KFun.vslice m c (bIdx c j) g) shapeCasts_S1x1x1024x128_S1024x128 := by
  have h := congrArg (fun M : Memref sig .tc .hbm S1024x128 .f32 => M.view.read (Elt F) (m (M.view.loc (c : Thread nD τ)))) (hbVD_eq c j g)
  exact h.trans ((hbVS_read m c (bIdx c j) g).trans (vsrc_rect m c (bIdx c j) g).symm)

/-- The narrowing of a plane's rows depends on them only through their reshaping to the plane. -/
theorem pay25_congr (x y : Vec F S1x1x1024x128 .f32)
    (h : shapeCast S1024x128 x shapeCasts_S1x1x1024x128_S1024x128 = shapeCast S1024x128 y shapeCasts_S1x1x1024x128_S1024x128) : k0_pay25 x = k0_pay25 y := by
  unfold k0_pay25
  rw [h]

/-- So: narrowing a plane read through the whole buffer, after a copy that carried the launch rows of the device's `j`-th
    batch, gives the kernel function's narrowed plane of batch `(c + j) mod 4`. -/
theorem kh_of_copy (c : Dev nD) (j : Fin 4) (g : Fin 2) (offR offP : Fin 4 → ℕ) (inbR : ∀ x, offR x + S1x1x1024x128.size x ≤ S2x8x1024x128.size x)
    (inbP : ∀ x, offP x + S1x1x1024x128.size x ≤ S2x8x1024x128.size x) (hRP : offR = offP) (v : CpVal F)
    (hv : v = (hbKD c j g).view.read (Elt F) (m ((hbKD c j g).view.loc (c : Thread nD τ)))) :
    k0_pay25 (View.readAt (Elt F) (Memref.whole cc0_scratch5 : Memref sig .tc .vmem S2x8x1024x128 .f32).view (Rect.unit (s := S2x8x1024x128) offR S1x1x1024x128.size inbR).toLoadRect
        ((kvPl offP inbP).view.writes (Elt F) (kvPl offP inbP).view.junk [⟨Rect.whole S1024x128, v⟩]))
      = KFun.kh m c (bIdx c j) g := by
  subst hRP
  unfold KFun.kh
  apply pay25_congr
  rw [plane_read, hv, ksrc]
theorem vh_of_copy (c : Dev nD) (j : Fin 4) (g : Fin 2) (offR offP : Fin 4 → ℕ) (inbR : ∀ x, offR x + S1x1x1024x128.size x ≤ S2x8x1024x128.size x)
    (inbP : ∀ x, offP x + S1x1x1024x128.size x ≤ S2x8x1024x128.size x) (hRP : offR = offP) (v : CpVal F)
    (hv : v = (hbVD c j g).view.read (Elt F) (m ((hbVD c j g).view.loc (c : Thread nD τ)))) :
    k0_pay25 (View.readAt (Elt F) (Memref.whole cc0_scratch5 : Memref sig .tc .vmem S2x8x1024x128 .f32).view (Rect.unit (s := S2x8x1024x128) offR S1x1x1024x128.size inbR).toLoadRect
        ((kvPl offP inbP).view.writes (Elt F) (kvPl offP inbP).view.junk [⟨Rect.whole S1024x128, v⟩]))
      = KFun.vh m c (bIdx c j) g := by
  subst hRP
  unfold KFun.vh
  apply pay25_congr
  rw [plane_read, hv, vsrc]

end Cert.KernelIdeal.Proto

end
-- ==== Proof.FlashRows.lean ====
/-
  The rows of a block of the partial sums after its flash step.

  A flash step of batch b runs eight trips, one a head; trip k reads head k's rows of the projected queries and the narrowed
  key and value planes of the head's group, and stores one row of the block of the partial numerators and one of the
  partial denominators. After the step, whatever the block held before, its row k is that head's output: the trips'
  rows are apart, and the exponentials a trip reads back are the ones it has just stored.
-/
import proofs.«900754_g7700000000000755_dist_attn_cross_gqa_kvseq_b4_sq256_skv1024_d1024_hq8_dh128_v7x_i4_f32_1_alg».proof.Proof.LoopsVRead
import proofs.«900754_g7700000000000755_dist_attn_cross_gqa_kvseq_b4_sq256_skv1024_d1024_hq8_dh128_v7x_i4_f32_1_alg».proof.Proof.LoopsVFacts
import proofs.«900754_g7700000000000755_dist_attn_cross_gqa_kvseq_b4_sq256_skv1024_d1024_hq8_dh128_v7x_i4_f32_1_alg».proof.Proof.Bridge

set_option maxRecDepth 8192

noncomputable section

namespace Cert.KernelIdeal.Proto
open Cert.KernelIdeal Cert.KernelIdeal.Gen Cert.KernelIdeal.Ring Cert.KernelIdeal.KFun
open Idealize.ShloMosaic Idealize.ShloMosaic.TcCoe
open Idealize.SL.Sem
open Idealize.ShloMosaic.ValueIdx
variable {F : FTy → Type} [FloatOps F]

/-- The kernel's buffers of the projected queries, of the exponentials, and of the narrowed key and value planes. -/
abbrev q2M : Memref sig .tc .vmem S32x256x128 .bf16 := Memref.whole cc0_scratch4
abbrev ptM : Memref sig .tc .vmem S1024x256 .bf16 := Memref.whole cc0_scratch6
abbrev kvbM : Memref sig .tc .vmem S2x8x1024x128 .bf16 := Memref.whole cc0_scratch9

theorem t1_trips : k0_t1_loop.trips = 8 := by decide

/-- After the flash step of batch c (the device's own), the rows of its block of the partial numerators are that batch's outputs, head by head,
    given that the projected queries' rows and the narrowed key and value planes it reads are that batch's. -/
theorem flashO1_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v2 : BitVec 32) (v25 : BitVec 32) (v26 : Sems sig S_) (v226 : FVec F S256x1024 .f32) (hS_arg6 : ∀ k : Fin k0_t1_loop.trips, (locO.access (Rect.unit (s := S32x128x256) (k0_off13 c k) S1x128x256.size (k0_off13_inb c k))).set ⊆ (locBlkO c 0).view.set) (hS_arg7 : ∀ k : Fin k0_t1_loop.trips, (locL.access (Rect.unit (s := S32x1x256) (k0_off14 c k) S1x1x256.size (k0_off14_inb c k))).set ⊆ (locBlkL c 0).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * c.val + h.val, by have hc : c.val < 4 := c.isLt; omega⟩ : Fin 32) i d) = KFun.q2 m c c h (ix3 0 i d)) (hkv : ∀ (g : Fin 2) (j : Fin 1024) (d : Fin 128), X_arg15 (ix4 (0 : Fin 2) (⟨2 * c.val + g.val, by have hc : c.val < 4 := c.isLt; omega⟩ : Fin 8) j d) = KFun.kh m c c g (ix4 0 0 j d) ∧ X_arg15 (ix4 (1 : Fin 2) (⟨2 * c.val + g.val, by have hc : c.val < 4 := c.isLt; omega⟩ : Fin 8) j d) = KFun.vh m c c g (ix4 0 0 j d))
    (k : Fin 8) (d : Fin 128) (i : Fin 256) :
    (locO.view.writes (Elt F) G_arg6 (LoopsV.pbS_k0_t1 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v25 v26 v226 hS_arg6 hS_arg7 X_arg10 X_arg15 G_arg6 G_arg7 G_arg12 k0_t1_loop.trips).1) (ix3 (⟨8 * c.val + k.val, by have hc : c.val < 4 := c.isLt; omega⟩ : Fin 32) d i)
      = KFun.ot m c c k (ix3 0 d i) := by
  have hj : k.val < k0_t1_loop.trips := by rw [t1_trips]; exact k.isLt

  have hidx : ∀ (d : Fin 128) (i : Fin 256), (Rect.unit (s := S32x128x256) (k0_off13 c ⟨k.val, hj⟩) S1x128x256.size (k0_off13_inb c ⟨k.val, hj⟩)).emb (ix3 (0 : Fin 1) d i) = ix3 (⟨8 * c.val + k.val, by have hc : c.val < 4 := c.isLt; omega⟩ : Fin 32) d i := by
    intro d i
    funext a
    refine Fin.ext ?_
    rw [Rect.emb_apply]
    simp only [Rect.off_unit, Rect.stride_unit, Nat.one_mul, k0_off13_eq]
    match a with
    | ⟨0, _⟩ => show 8 * c.val + k.val + 0 = 8 * c.val + k.val; rfl
    | ⟨1, _⟩ => show 0 + d.val = d.val; omega
    | ⟨2, _⟩ => show 0 + i.val = i.val; omega
  rw [← hidx d i]
  refine (LoopsV.readS_k0_t1_arg6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v25 v26 v226 hS_arg6 hS_arg7 X_arg10 X_arg15 G_arg6 G_arg7 G_arg12 ⟨k.val, hj⟩ (ix3 (0 : Fin 1) d i)).trans ?_
  rw [LoopsV.payS_k0_t1_arg6_eq]

  have hi10 : ∀ (i : Fin 256) (d : Fin 128), (Rect.unit (s := S32x256x128) (k0_off10 c ⟨k.val, hj⟩) S1x256x128.size (k0_off10_inb c ⟨k.val, hj⟩)).emb (ix3 (0 : Fin 1) i d) = ix3 (⟨8 * c.val + k.val, by have hc : c.val < 4 := c.isLt; omega⟩ : Fin 32) i d := by
    intro i d
    funext a
    refine Fin.ext ?_
    rw [Rect.emb_apply]
    simp only [Rect.off_unit, Rect.stride_unit, Nat.one_mul, k0_off10_eq]
    match a with
    | ⟨0, _⟩ => show 8 * c.val + k.val + 0 = 8 * c.val + k.val; rfl
    | ⟨1, _⟩ => show 0 + i.val = i.val; omega
    | ⟨2, _⟩ => show 0 + d.val = d.val; omega
  have hi11 : ∀ (j : Fin 1024) (d : Fin 128), (Rect.unit (s := S2x8x1024x128) (k0_off11 c ⟨k.val, hj⟩) S1x1x1024x128.size (k0_off11_inb c ⟨k.val, hj⟩)).emb (ix4 (0 : Fin 1) (0 : Fin 1) j d) = ix4 (0 : Fin 2) (⟨2 * c.val + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off11_eq]
    match a with
    | ⟨0, _⟩ => rfl
    | ⟨1, _⟩ => show 2 * c.val + k.val / 4 + 0 = 2 * c.val + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off10 c ⟨k.val, hj⟩) S1x256x128.size (k0_off10_inb c ⟨k.val, hj⟩)).toLoadRect X_arg10 = KFun.q2 m c c k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off11 c ⟨k.val, hj⟩) S1x1x1024x128.size (k0_off11_inb c ⟨k.val, hj⟩)).toLoadRect X_arg15 = KFun.kh m c c (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1

  have hi12 : ∀ (j : Fin 1024) (d : Fin 128), (Rect.unit (s := S2x8x1024x128) (k0_off12 c ⟨k.val, hj⟩) S1x1x1024x128.size (k0_off12_inb c ⟨k.val, hj⟩)).emb (ix4 (0 : Fin 1) (0 : Fin 1) j d) = ix4 (1 : Fin 2) (⟨2 * c.val + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off12_eq]
    match a with
    | ⟨0, _⟩ => rfl
    | ⟨1, _⟩ => show 2 * c.val + k.val / 4 + 0 = 2 * c.val + (Cert.Attn.kvh k).val; rfl
    | ⟨2, _⟩ => show 0 + j.val = j.val; omega
    | ⟨3, _⟩ => show 0 + d.val = d.val; omega
  have hV : View.readAt (Elt F) kvbM.view (Rect.unit (s := S2x8x1024x128) (k0_off12 c ⟨k.val, hj⟩) S1x1x1024x128.size (k0_off12_inb c ⟨k.val, hj⟩)).toLoadRect X_arg15 = KFun.vh m c c (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi12 j' d')).trans (hkv (Cert.Attn.kvh k) j' d').2
  rw [hQ, hK, hV]
  rfl

/-- and the rows of its block of the partial denominators are that batch's row sums. -/
theorem flashL1_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v2 : BitVec 32) (v25 : BitVec 32) (v26 : Sems sig S_) (v226 : FVec F S256x1024 .f32) (hS_arg6 : ∀ k : Fin k0_t1_loop.trips, (locO.access (Rect.unit (s := S32x128x256) (k0_off13 c k) S1x128x256.size (k0_off13_inb c k))).set ⊆ (locBlkO c 0).view.set) (hS_arg7 : ∀ k : Fin k0_t1_loop.trips, (locL.access (Rect.unit (s := S32x1x256) (k0_off14 c k) S1x1x256.size (k0_off14_inb c k))).set ⊆ (locBlkL c 0).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * c.val + h.val, by have hc : c.val < 4 := c.isLt; omega⟩ : Fin 32) i d) = KFun.q2 m c c h (ix3 0 i d)) (hkv : ∀ (g : Fin 2) (j : Fin 1024) (d : Fin 128), X_arg15 (ix4 (0 : Fin 2) (⟨2 * c.val + g.val, by have hc : c.val < 4 := c.isLt; omega⟩ : Fin 8) j d) = KFun.kh m c c g (ix4 0 0 j d) ∧ X_arg15 (ix4 (1 : Fin 2) (⟨2 * c.val + g.val, by have hc : c.val < 4 := c.isLt; omega⟩ : Fin 8) j d) = KFun.vh m c c g (ix4 0 0 j d))
    (k : Fin 8) (i : Fin 256) :
    (locL.view.writes (Elt F) G_arg7 (LoopsV.pbS_k0_t1 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v25 v26 v226 hS_arg6 hS_arg7 X_arg10 X_arg15 G_arg6 G_arg7 G_arg12 k0_t1_loop.trips).2.1) (ix3 (⟨8 * c.val + k.val, by have hc : c.val < 4 := c.isLt; omega⟩ : Fin 32) (0 : Fin 1) i)
      = KFun.lrow m c c k (ix3 0 0 i) := by
  have hj : k.val < k0_t1_loop.trips := by rw [t1_trips]; exact k.isLt
  have hidx : (Rect.unit (s := S32x1x256) (k0_off14 c ⟨k.val, hj⟩) S1x1x256.size (k0_off14_inb c ⟨k.val, hj⟩)).emb (ix3 (0 : Fin 1) (0 : Fin 1) i) = ix3 (⟨8 * c.val + k.val, by have hc : c.val < 4 := c.isLt; omega⟩ : Fin 32) (0 : Fin 1) i := by
    funext a
    refine Fin.ext ?_
    rw [Rect.emb_apply]
    simp only [Rect.off_unit, Rect.stride_unit, Nat.one_mul, k0_off14_eq]
    match a with
    | ⟨0, _⟩ => show 8 * c.val + k.val + 0 = 8 * c.val + k.val; rfl
    | ⟨1, _⟩ => rfl
    | ⟨2, _⟩ => show 0 + i.val = i.val; omega
  rw [← hidx]
  refine (LoopsV.readS_k0_t1_arg7 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v25 v26 v226 hS_arg6 hS_arg7 X_arg10 X_arg15 G_arg6 G_arg7 G_arg12 ⟨k.val, hj⟩ (ix3 (0 : Fin 1) (0 : Fin 1) i)).trans ?_

  have hi10 : ∀ (i : Fin 256) (d : Fin 128), (Rect.unit (s := S32x256x128) (k0_off10 c ⟨k.val, hj⟩) S1x256x128.size (k0_off10_inb c ⟨k.val, hj⟩)).emb (ix3 (0 : Fin 1) i d) = ix3 (⟨8 * c.val + k.val, by have hc : c.val < 4 := c.isLt; omega⟩ : Fin 32) i d := by
    intro i d
    funext a
    refine Fin.ext ?_
    rw [Rect.emb_apply]
    simp only [Rect.off_unit, Rect.stride_unit, Nat.one_mul, k0_off10_eq]
    match a with
    | ⟨0, _⟩ => show 8 * c.val + k.val + 0 = 8 * c.val + k.val; rfl
    | ⟨1, _⟩ => show 0 + i.val = i.val; omega
    | ⟨2, _⟩ => show 0 + d.val = d.val; omega
  have hi11 : ∀ (j : Fin 1024) (d : Fin 128), (Rect.unit (s := S2x8x1024x128) (k0_off11 c ⟨k.val, hj⟩) S1x1x1024x128.size (k0_off11_inb c ⟨k.val, hj⟩)).emb (ix4 (0 : Fin 1) (0 : Fin 1) j d) = ix4 (0 : Fin 2) (⟨2 * c.val + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off11_eq]
    match a with
    | ⟨0, _⟩ => rfl
    | ⟨1, _⟩ => show 2 * c.val + k.val / 4 + 0 = 2 * c.val + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off10 c ⟨k.val, hj⟩) S1x256x128.size (k0_off10_inb c ⟨k.val, hj⟩)).toLoadRect X_arg10 = KFun.q2 m c c k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off11 c ⟨k.val, hj⟩) S1x1x1024x128.size (k0_off11_inb c ⟨k.val, hj⟩)).toLoadRect X_arg15 = KFun.kh m c c (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1
  rw [hQ, hK]
  rfl

theorem t2_trips : k0_t2_loop.trips = 8 := by decide

/-- After the flash step of batch c + 2, the rows of its block of the partial numerators are that batch's outputs, head by head,
    given that the projected queries' rows and the narrowed key and value planes it reads are that batch's. -/
theorem flashO2_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v2 : BitVec 32) (v14 : BitVec 32) (v322 : BitVec 32) (v468 : FVec F S256x128 .bf16) (hS_arg6 : ∀ k : Fin k0_t2_loop.trips, (locO.access (Rect.unit (s := S32x128x256) (k0_off29 c k) S1x128x256.size (k0_off29_inb c k))).set ⊆ (locBlkO c 2).view.set) (hS_arg7 : ∀ k : Fin k0_t2_loop.trips, (locL.access (Rect.unit (s := S32x1x256) (k0_off30 c k) S1x1x256.size (k0_off30_inb c k))).set ⊆ (locBlkL c 2).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 2) % 4) + h.val, by have hc : c.val < 4 := c.isLt; omega⟩ : Fin 32) i d) = KFun.q2 m c (nxt (nxt c)) h (ix3 0 i d)) (hkv : ∀ (g : Fin 2) (j : Fin 1024) (d : Fin 128), X_arg15 (ix4 (0 : Fin 2) (⟨2 * ((c.val + 2) % 4) + g.val, by have hc : c.val < 4 := c.isLt; omega⟩ : Fin 8) j d) = KFun.kh m c (nxt (nxt c)) g (ix4 0 0 j d) ∧ X_arg15 (ix4 (1 : Fin 2) (⟨2 * ((c.val + 2) % 4) + g.val, by have hc : c.val < 4 := c.isLt; omega⟩ : Fin 8) j d) = KFun.vh m c (nxt (nxt c)) g (ix4 0 0 j d))
    (k : Fin 8) (d : Fin 128) (i : Fin 256) :
    (locO.view.writes (Elt F) G_arg6 (LoopsV.pbS_k0_t2 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v14 v322 v468 hS_arg6 hS_arg7 X_arg10 X_arg15 G_arg6 G_arg7 G_arg12 k0_t2_loop.trips).1) (ix3 (⟨8 * ((c.val + 2) % 4) + k.val, by have hc : c.val < 4 := c.isLt; omega⟩ : Fin 32) d i)
      = KFun.ot m c (nxt (nxt c)) k (ix3 0 d i) := by
  have hj : k.val < k0_t2_loop.trips := by rw [t2_trips]; exact k.isLt

  have hidx : ∀ (d : Fin 128) (i : Fin 256), (Rect.unit (s := S32x128x256) (k0_off29 c ⟨k.val, hj⟩) S1x128x256.size (k0_off29_inb c ⟨k.val, hj⟩)).emb (ix3 (0 : Fin 1) d i) = ix3 (⟨8 * ((c.val + 2) % 4) + k.val, by have hc : c.val < 4 := c.isLt; omega⟩ : Fin 32) d i := by
    intro d i
    funext a
    refine Fin.ext ?_
    rw [Rect.emb_apply]
    simp only [Rect.off_unit, Rect.stride_unit, Nat.one_mul, off29_eq]
    match a with
    | ⟨0, _⟩ => show 8 * ((c.val + 2) % 4) + k.val + 0 = 8 * ((c.val + 2) % 4) + k.val; rfl
    | ⟨1, _⟩ => show 0 + d.val = d.val; omega
    | ⟨2, _⟩ => show 0 + i.val = i.val; omega
  rw [← hidx d i]
  refine (LoopsV.readS_k0_t2_arg6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v14 v322 v468 hS_arg6 hS_arg7 X_arg10 X_arg15 G_arg6 G_arg7 G_arg12 ⟨k.val, hj⟩ (ix3 (0 : Fin 1) d i)).trans ?_
  rw [LoopsV.payS_k0_t2_arg6_eq]

  have hi10 : ∀ (i : Fin 256) (d : Fin 128), (Rect.unit (s := S32x256x128) (k0_off26 c ⟨k.val, hj⟩) S1x256x128.size (k0_off26_inb c ⟨k.val, hj⟩)).emb (ix3 (0 : Fin 1) i d) = ix3 (⟨8 * ((c.val + 2) % 4) + k.val, by have hc : c.val < 4 := c.isLt; omega⟩ : Fin 32) i d := by
    intro i d
    funext a
    refine Fin.ext ?_
    rw [Rect.emb_apply]
    simp only [Rect.off_unit, Rect.stride_unit, Nat.one_mul, off26_eq]
    match a with
    | ⟨0, _⟩ => show 8 * ((c.val + 2) % 4) + k.val + 0 = 8 * ((c.val + 2) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off27 c ⟨k.val, hj⟩) S1x1x1024x128.size (k0_off27_inb c ⟨k.val, hj⟩)).emb (ix4 (0 : Fin 1) (0 : Fin 1) j d) = ix4 (0 : Fin 2) (⟨2 * ((c.val + 2) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off27_eq]
    match a with
    | ⟨0, _⟩ => rfl
    | ⟨1, _⟩ => show 2 * ((c.val + 2) % 4) + k.val / 4 + 0 = 2 * ((c.val + 2) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off26 c ⟨k.val, hj⟩) S1x256x128.size (k0_off26_inb c ⟨k.val, hj⟩)).toLoadRect X_arg10 = KFun.q2 m c (nxt (nxt c)) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off27 c ⟨k.val, hj⟩) S1x1x1024x128.size (k0_off27_inb c ⟨k.val, hj⟩)).toLoadRect X_arg15 = KFun.kh m c (nxt (nxt c)) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1

  have hi12 : ∀ (j : Fin 1024) (d : Fin 128), (Rect.unit (s := S2x8x1024x128) (k0_off28 c ⟨k.val, hj⟩) S1x1x1024x128.size (k0_off28_inb c ⟨k.val, hj⟩)).emb (ix4 (0 : Fin 1) (0 : Fin 1) j d) = ix4 (1 : Fin 2) (⟨2 * ((c.val + 2) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off28_eq]
    match a with
    | ⟨0, _⟩ => rfl
    | ⟨1, _⟩ => show 2 * ((c.val + 2) % 4) + k.val / 4 + 0 = 2 * ((c.val + 2) % 4) + (Cert.Attn.kvh k).val; rfl
    | ⟨2, _⟩ => show 0 + j.val = j.val; omega
    | ⟨3, _⟩ => show 0 + d.val = d.val; omega
  have hV : View.readAt (Elt F) kvbM.view (Rect.unit (s := S2x8x1024x128) (k0_off28 c ⟨k.val, hj⟩) S1x1x1024x128.size (k0_off28_inb c ⟨k.val, hj⟩)).toLoadRect X_arg15 = KFun.vh m c (nxt (nxt c)) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi12 j' d')).trans (hkv (Cert.Attn.kvh k) j' d').2
  rw [hQ, hK, hV]
  rfl

/-- and the rows of its block of the partial denominators are that batch's row sums. -/
theorem flashL2_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v2 : BitVec 32) (v14 : BitVec 32) (v322 : BitVec 32) (v468 : FVec F S256x128 .bf16) (hS_arg6 : ∀ k : Fin k0_t2_loop.trips, (locO.access (Rect.unit (s := S32x128x256) (k0_off29 c k) S1x128x256.size (k0_off29_inb c k))).set ⊆ (locBlkO c 2).view.set) (hS_arg7 : ∀ k : Fin k0_t2_loop.trips, (locL.access (Rect.unit (s := S32x1x256) (k0_off30 c k) S1x1x256.size (k0_off30_inb c k))).set ⊆ (locBlkL c 2).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 2) % 4) + h.val, by have hc : c.val < 4 := c.isLt; omega⟩ : Fin 32) i d) = KFun.q2 m c (nxt (nxt c)) h (ix3 0 i d)) (hkv : ∀ (g : Fin 2) (j : Fin 1024) (d : Fin 128), X_arg15 (ix4 (0 : Fin 2) (⟨2 * ((c.val + 2) % 4) + g.val, by have hc : c.val < 4 := c.isLt; omega⟩ : Fin 8) j d) = KFun.kh m c (nxt (nxt c)) g (ix4 0 0 j d) ∧ X_arg15 (ix4 (1 : Fin 2) (⟨2 * ((c.val + 2) % 4) + g.val, by have hc : c.val < 4 := c.isLt; omega⟩ : Fin 8) j d) = KFun.vh m c (nxt (nxt c)) g (ix4 0 0 j d))
    (k : Fin 8) (i : Fin 256) :
    (locL.view.writes (Elt F) G_arg7 (LoopsV.pbS_k0_t2 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v14 v322 v468 hS_arg6 hS_arg7 X_arg10 X_arg15 G_arg6 G_arg7 G_arg12 k0_t2_loop.trips).2.1) (ix3 (⟨8 * ((c.val + 2) % 4) + k.val, by have hc : c.val < 4 := c.isLt; omega⟩ : Fin 32) (0 : Fin 1) i)
      = KFun.lrow m c (nxt (nxt c)) k (ix3 0 0 i) := by
  have hj : k.val < k0_t2_loop.trips := by rw [t2_trips]; exact k.isLt
  have hidx : (Rect.unit (s := S32x1x256) (k0_off30 c ⟨k.val, hj⟩) S1x1x256.size (k0_off30_inb c ⟨k.val, hj⟩)).emb (ix3 (0 : Fin 1) (0 : Fin 1) i) = ix3 (⟨8 * ((c.val + 2) % 4) + k.val, by have hc : c.val < 4 := c.isLt; omega⟩ : Fin 32) (0 : Fin 1) i := by
    funext a
    refine Fin.ext ?_
    rw [Rect.emb_apply]
    simp only [Rect.off_unit, Rect.stride_unit, Nat.one_mul, off30_eq]
    match a with
    | ⟨0, _⟩ => show 8 * ((c.val + 2) % 4) + k.val + 0 = 8 * ((c.val + 2) % 4) + k.val; rfl
    | ⟨1, _⟩ => rfl
    | ⟨2, _⟩ => show 0 + i.val = i.val; omega
  rw [← hidx]
  refine (LoopsV.readS_k0_t2_arg7 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v14 v322 v468 hS_arg6 hS_arg7 X_arg10 X_arg15 G_arg6 G_arg7 G_arg12 ⟨k.val, hj⟩ (ix3 (0 : Fin 1) (0 : Fin 1) i)).trans ?_

  have hi10 : ∀ (i : Fin 256) (d : Fin 128), (Rect.unit (s := S32x256x128) (k0_off26 c ⟨k.val, hj⟩) S1x256x128.size (k0_off26_inb c ⟨k.val, hj⟩)).emb (ix3 (0 : Fin 1) i d) = ix3 (⟨8 * ((c.val + 2) % 4) + k.val, by have hc : c.val < 4 := c.isLt; omega⟩ : Fin 32) i d := by
    intro i d
    funext a
    refine Fin.ext ?_
    rw [Rect.emb_apply]
    simp only [Rect.off_unit, Rect.stride_unit, Nat.one_mul, off26_eq]
    match a with
    | ⟨0, _⟩ => show 8 * ((c.val + 2) % 4) + k.val + 0 = 8 * ((c.val + 2) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off27 c ⟨k.val, hj⟩) S1x1x1024x128.size (k0_off27_inb c ⟨k.val, hj⟩)).emb (ix4 (0 : Fin 1) (0 : Fin 1) j d) = ix4 (0 : Fin 2) (⟨2 * ((c.val + 2) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off27_eq]
    match a with
    | ⟨0, _⟩ => rfl
    | ⟨1, _⟩ => show 2 * ((c.val + 2) % 4) + k.val / 4 + 0 = 2 * ((c.val + 2) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off26 c ⟨k.val, hj⟩) S1x256x128.size (k0_off26_inb c ⟨k.val, hj⟩)).toLoadRect X_arg10 = KFun.q2 m c (nxt (nxt c)) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off27 c ⟨k.val, hj⟩) S1x1x1024x128.size (k0_off27_inb c ⟨k.val, hj⟩)).toLoadRect X_arg15 = KFun.kh m c (nxt (nxt c)) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1
  rw [hQ, hK]
  rfl

theorem t3_trips : k0_t3_loop.trips = 8 := by decide

/-- After the flash step of batch c + 3, the rows of its block of the partial numerators are that batch's outputs, head by head,
    given that the projected queries' rows and the narrowed key and value planes it reads are that batch's. -/
theorem flashO3_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v508 : BitVec 32) (v596 : FVec F S256x1024 .f32) (hS_arg6 : ∀ k : Fin k0_t3_loop.trips, (locO.access (Rect.unit (s := S32x128x256) (k0_off36 c k) S1x128x256.size (k0_off36_inb c k))).set ⊆ (locBlkO c 3).view.set) (hS_arg7 : ∀ k : Fin k0_t3_loop.trips, (locL.access (Rect.unit (s := S32x1x256) (k0_off37 c k) S1x1x256.size (k0_off37_inb c k))).set ⊆ (locBlkL c 3).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 3) % 4) + h.val, by have hc : c.val < 4 := c.isLt; omega⟩ : Fin 32) i d) = KFun.q2 m c (prv c) h (ix3 0 i d)) (hkv : ∀ (g : Fin 2) (j : Fin 1024) (d : Fin 128), X_arg15 (ix4 (0 : Fin 2) (⟨2 * ((c.val + 3) % 4) + g.val, by have hc : c.val < 4 := c.isLt; omega⟩ : Fin 8) j d) = KFun.kh m c (prv c) g (ix4 0 0 j d) ∧ X_arg15 (ix4 (1 : Fin 2) (⟨2 * ((c.val + 3) % 4) + g.val, by have hc : c.val < 4 := c.isLt; omega⟩ : Fin 8) j d) = KFun.vh m c (prv c) g (ix4 0 0 j d))
    (k : Fin 8) (d : Fin 128) (i : Fin 256) :
    (locO.view.writes (Elt F) G_arg6 (LoopsV.pbS_k0_t3 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v508 v596 hS_arg6 hS_arg7 X_arg10 X_arg15 G_arg6 G_arg7 G_arg12 k0_t3_loop.trips).1) (ix3 (⟨8 * ((c.val + 3) % 4) + k.val, by have hc : c.val < 4 := c.isLt; omega⟩ : Fin 32) d i)
      = KFun.ot m c (prv c) k (ix3 0 d i) := by
  have hj : k.val < k0_t3_loop.trips := by rw [t3_trips]; exact k.isLt

  have hidx : ∀ (d : Fin 128) (i : Fin 256), (Rect.unit (s := S32x128x256) (k0_off36 c ⟨k.val, hj⟩) S1x128x256.size (k0_off36_inb c ⟨k.val, hj⟩)).emb (ix3 (0 : Fin 1) d i) = ix3 (⟨8 * ((c.val + 3) % 4) + k.val, by have hc : c.val < 4 := c.isLt; omega⟩ : Fin 32) d i := by
    intro d i
    funext a
    refine Fin.ext ?_
    rw [Rect.emb_apply]
    simp only [Rect.off_unit, Rect.stride_unit, Nat.one_mul, off36_eq]
    match a with
    | ⟨0, _⟩ => show 8 * ((c.val + 3) % 4) + k.val + 0 = 8 * ((c.val + 3) % 4) + k.val; rfl
    | ⟨1, _⟩ => show 0 + d.val = d.val; omega
    | ⟨2, _⟩ => show 0 + i.val = i.val; omega
  rw [← hidx d i]
  refine (LoopsV.readS_k0_t3_arg6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v508 v596 hS_arg6 hS_arg7 X_arg10 X_arg15 G_arg6 G_arg7 G_arg12 ⟨k.val, hj⟩ (ix3 (0 : Fin 1) d i)).trans ?_
  rw [LoopsV.payS_k0_t3_arg6_eq]

  have hi10 : ∀ (i : Fin 256) (d : Fin 128), (Rect.unit (s := S32x256x128) (k0_off33 c ⟨k.val, hj⟩) S1x256x128.size (k0_off33_inb c ⟨k.val, hj⟩)).emb (ix3 (0 : Fin 1) i d) = ix3 (⟨8 * ((c.val + 3) % 4) + k.val, by have hc : c.val < 4 := c.isLt; omega⟩ : Fin 32) i d := by
    intro i d
    funext a
    refine Fin.ext ?_
    rw [Rect.emb_apply]
    simp only [Rect.off_unit, Rect.stride_unit, Nat.one_mul, off33_eq]
    match a with
    | ⟨0, _⟩ => show 8 * ((c.val + 3) % 4) + k.val + 0 = 8 * ((c.val + 3) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off34 c ⟨k.val, hj⟩) S1x1x1024x128.size (k0_off34_inb c ⟨k.val, hj⟩)).emb (ix4 (0 : Fin 1) (0 : Fin 1) j d) = ix4 (0 : Fin 2) (⟨2 * ((c.val + 3) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off34_eq]
    match a with
    | ⟨0, _⟩ => rfl
    | ⟨1, _⟩ => show 2 * ((c.val + 3) % 4) + k.val / 4 + 0 = 2 * ((c.val + 3) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off33 c ⟨k.val, hj⟩) S1x256x128.size (k0_off33_inb c ⟨k.val, hj⟩)).toLoadRect X_arg10 = KFun.q2 m c (prv c) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off34 c ⟨k.val, hj⟩) S1x1x1024x128.size (k0_off34_inb c ⟨k.val, hj⟩)).toLoadRect X_arg15 = KFun.kh m c (prv c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1

  have hi12 : ∀ (j : Fin 1024) (d : Fin 128), (Rect.unit (s := S2x8x1024x128) (k0_off35 c ⟨k.val, hj⟩) S1x1x1024x128.size (k0_off35_inb c ⟨k.val, hj⟩)).emb (ix4 (0 : Fin 1) (0 : Fin 1) j d) = ix4 (1 : Fin 2) (⟨2 * ((c.val + 3) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off35_eq]
    match a with
    | ⟨0, _⟩ => rfl
    | ⟨1, _⟩ => show 2 * ((c.val + 3) % 4) + k.val / 4 + 0 = 2 * ((c.val + 3) % 4) + (Cert.Attn.kvh k).val; rfl
    | ⟨2, _⟩ => show 0 + j.val = j.val; omega
    | ⟨3, _⟩ => show 0 + d.val = d.val; omega
  have hV : View.readAt (Elt F) kvbM.view (Rect.unit (s := S2x8x1024x128) (k0_off35 c ⟨k.val, hj⟩) S1x1x1024x128.size (k0_off35_inb c ⟨k.val, hj⟩)).toLoadRect X_arg15 = KFun.vh m c (prv c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi12 j' d')).trans (hkv (Cert.Attn.kvh k) j' d').2
  rw [hQ, hK, hV]
  rfl

/-- and the rows of its block of the partial denominators are that batch's row sums. -/
theorem flashL3_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v508 : BitVec 32) (v596 : FVec F S256x1024 .f32) (hS_arg6 : ∀ k : Fin k0_t3_loop.trips, (locO.access (Rect.unit (s := S32x128x256) (k0_off36 c k) S1x128x256.size (k0_off36_inb c k))).set ⊆ (locBlkO c 3).view.set) (hS_arg7 : ∀ k : Fin k0_t3_loop.trips, (locL.access (Rect.unit (s := S32x1x256) (k0_off37 c k) S1x1x256.size (k0_off37_inb c k))).set ⊆ (locBlkL c 3).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 3) % 4) + h.val, by have hc : c.val < 4 := c.isLt; omega⟩ : Fin 32) i d) = KFun.q2 m c (prv c) h (ix3 0 i d)) (hkv : ∀ (g : Fin 2) (j : Fin 1024) (d : Fin 128), X_arg15 (ix4 (0 : Fin 2) (⟨2 * ((c.val + 3) % 4) + g.val, by have hc : c.val < 4 := c.isLt; omega⟩ : Fin 8) j d) = KFun.kh m c (prv c) g (ix4 0 0 j d) ∧ X_arg15 (ix4 (1 : Fin 2) (⟨2 * ((c.val + 3) % 4) + g.val, by have hc : c.val < 4 := c.isLt; omega⟩ : Fin 8) j d) = KFun.vh m c (prv c) g (ix4 0 0 j d))
    (k : Fin 8) (i : Fin 256) :
    (locL.view.writes (Elt F) G_arg7 (LoopsV.pbS_k0_t3 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v508 v596 hS_arg6 hS_arg7 X_arg10 X_arg15 G_arg6 G_arg7 G_arg12 k0_t3_loop.trips).2.1) (ix3 (⟨8 * ((c.val + 3) % 4) + k.val, by have hc : c.val < 4 := c.isLt; omega⟩ : Fin 32) (0 : Fin 1) i)
      = KFun.lrow m c (prv c) k (ix3 0 0 i) := by
  have hj : k.val < k0_t3_loop.trips := by rw [t3_trips]; exact k.isLt
  have hidx : (Rect.unit (s := S32x1x256) (k0_off37 c ⟨k.val, hj⟩) S1x1x256.size (k0_off37_inb c ⟨k.val, hj⟩)).emb (ix3 (0 : Fin 1) (0 : Fin 1) i) = ix3 (⟨8 * ((c.val + 3) % 4) + k.val, by have hc : c.val < 4 := c.isLt; omega⟩ : Fin 32) (0 : Fin 1) i := by
    funext a
    refine Fin.ext ?_
    rw [Rect.emb_apply]
    simp only [Rect.off_unit, Rect.stride_unit, Nat.one_mul, off37_eq]
    match a with
    | ⟨0, _⟩ => show 8 * ((c.val + 3) % 4) + k.val + 0 = 8 * ((c.val + 3) % 4) + k.val; rfl
    | ⟨1, _⟩ => rfl
    | ⟨2, _⟩ => show 0 + i.val = i.val; omega
  rw [← hidx]
  refine (LoopsV.readS_k0_t3_arg7 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v508 v596 hS_arg6 hS_arg7 X_arg10 X_arg15 G_arg6 G_arg7 G_arg12 ⟨k.val, hj⟩ (ix3 (0 : Fin 1) (0 : Fin 1) i)).trans ?_

  have hi10 : ∀ (i : Fin 256) (d : Fin 128), (Rect.unit (s := S32x256x128) (k0_off33 c ⟨k.val, hj⟩) S1x256x128.size (k0_off33_inb c ⟨k.val, hj⟩)).emb (ix3 (0 : Fin 1) i d) = ix3 (⟨8 * ((c.val + 3) % 4) + k.val, by have hc : c.val < 4 := c.isLt; omega⟩ : Fin 32) i d := by
    intro i d
    funext a
    refine Fin.ext ?_
    rw [Rect.emb_apply]
    simp only [Rect.off_unit, Rect.stride_unit, Nat.one_mul, off33_eq]
    match a with
    | ⟨0, _⟩ => show 8 * ((c.val + 3) % 4) + k.val + 0 = 8 * ((c.val + 3) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off34 c ⟨k.val, hj⟩) S1x1x1024x128.size (k0_off34_inb c ⟨k.val, hj⟩)).emb (ix4 (0 : Fin 1) (0 : Fin 1) j d) = ix4 (0 : Fin 2) (⟨2 * ((c.val + 3) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off34_eq]
    match a with
    | ⟨0, _⟩ => rfl
    | ⟨1, _⟩ => show 2 * ((c.val + 3) % 4) + k.val / 4 + 0 = 2 * ((c.val + 3) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off33 c ⟨k.val, hj⟩) S1x256x128.size (k0_off33_inb c ⟨k.val, hj⟩)).toLoadRect X_arg10 = KFun.q2 m c (prv c) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off34 c ⟨k.val, hj⟩) S1x1x1024x128.size (k0_off34_inb c ⟨k.val, hj⟩)).toLoadRect X_arg15 = KFun.kh m c (prv c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1
  rw [hQ, hK]
  rfl

theorem t6_trips : k0_t6_loop.trips = 8 := by decide

/-- After the flash step of batch c + 1, the rows of its block of the partial numerators are that batch's outputs, head by head,
    given that the projected queries' rows and the narrowed key and value planes it reads are that batch's. -/
theorem flashO6_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v787 : BitVec 32) (v875 : FVec F S256x1024 .f32) (v917 : FVec F S256x128 .bf16) (hS_arg6 : ∀ k : Fin k0_t6_loop.trips, (locO.access (Rect.unit (s := S32x128x256) (k0_off49 c k) S1x128x256.size (k0_off49_inb c k))).set ⊆ (locBlkO c 1).view.set) (hS_arg7 : ∀ k : Fin k0_t6_loop.trips, (locL.access (Rect.unit (s := S32x1x256) (k0_off50 c k) S1x1x256.size (k0_off50_inb c k))).set ⊆ (locBlkL c 1).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 1) % 4) + h.val, by have hc : c.val < 4 := c.isLt; omega⟩ : Fin 32) i d) = KFun.q2 m c (nxt c) h (ix3 0 i d)) (hkv : ∀ (g : Fin 2) (j : Fin 1024) (d : Fin 128), X_arg15 (ix4 (0 : Fin 2) (⟨2 * ((c.val + 1) % 4) + g.val, by have hc : c.val < 4 := c.isLt; omega⟩ : Fin 8) j d) = KFun.kh m c (nxt c) g (ix4 0 0 j d) ∧ X_arg15 (ix4 (1 : Fin 2) (⟨2 * ((c.val + 1) % 4) + g.val, by have hc : c.val < 4 := c.isLt; omega⟩ : Fin 8) j d) = KFun.vh m c (nxt c) g (ix4 0 0 j d))
    (k : Fin 8) (d : Fin 128) (i : Fin 256) :
    (locO.view.writes (Elt F) G_arg6 (LoopsV.pbS_k0_t6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v787 v875 v917 hS_arg6 hS_arg7 X_arg10 X_arg15 G_arg6 G_arg7 G_arg12 k0_t6_loop.trips).1) (ix3 (⟨8 * ((c.val + 1) % 4) + k.val, by have hc : c.val < 4 := c.isLt; omega⟩ : Fin 32) d i)
      = KFun.ot m c (nxt c) k (ix3 0 d i) := by
  have hj : k.val < k0_t6_loop.trips := by rw [t6_trips]; exact k.isLt

  have hidx : ∀ (d : Fin 128) (i : Fin 256), (Rect.unit (s := S32x128x256) (k0_off49 c ⟨k.val, hj⟩) S1x128x256.size (k0_off49_inb c ⟨k.val, hj⟩)).emb (ix3 (0 : Fin 1) d i) = ix3 (⟨8 * ((c.val + 1) % 4) + k.val, by have hc : c.val < 4 := c.isLt; omega⟩ : Fin 32) d i := by
    intro d i
    funext a
    refine Fin.ext ?_
    rw [Rect.emb_apply]
    simp only [Rect.off_unit, Rect.stride_unit, Nat.one_mul, off49_eq]
    match a with
    | ⟨0, _⟩ => show 8 * ((c.val + 1) % 4) + k.val + 0 = 8 * ((c.val + 1) % 4) + k.val; rfl
    | ⟨1, _⟩ => show 0 + d.val = d.val; omega
    | ⟨2, _⟩ => show 0 + i.val = i.val; omega
  rw [← hidx d i]
  refine (LoopsV.readS_k0_t6_arg6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v787 v875 v917 hS_arg6 hS_arg7 X_arg10 X_arg15 G_arg6 G_arg7 G_arg12 ⟨k.val, hj⟩ (ix3 (0 : Fin 1) d i)).trans ?_
  rw [LoopsV.payS_k0_t6_arg6_eq]

  have hi10 : ∀ (i : Fin 256) (d : Fin 128), (Rect.unit (s := S32x256x128) (k0_off46 c ⟨k.val, hj⟩) S1x256x128.size (k0_off46_inb c ⟨k.val, hj⟩)).emb (ix3 (0 : Fin 1) i d) = ix3 (⟨8 * ((c.val + 1) % 4) + k.val, by have hc : c.val < 4 := c.isLt; omega⟩ : Fin 32) i d := by
    intro i d
    funext a
    refine Fin.ext ?_
    rw [Rect.emb_apply]
    simp only [Rect.off_unit, Rect.stride_unit, Nat.one_mul, off46_eq]
    match a with
    | ⟨0, _⟩ => show 8 * ((c.val + 1) % 4) + k.val + 0 = 8 * ((c.val + 1) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off47 c ⟨k.val, hj⟩) S1x1x1024x128.size (k0_off47_inb c ⟨k.val, hj⟩)).emb (ix4 (0 : Fin 1) (0 : Fin 1) j d) = ix4 (0 : Fin 2) (⟨2 * ((c.val + 1) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off47_eq]
    match a with
    | ⟨0, _⟩ => rfl
    | ⟨1, _⟩ => show 2 * ((c.val + 1) % 4) + k.val / 4 + 0 = 2 * ((c.val + 1) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off46 c ⟨k.val, hj⟩) S1x256x128.size (k0_off46_inb c ⟨k.val, hj⟩)).toLoadRect X_arg10 = KFun.q2 m c (nxt c) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off47 c ⟨k.val, hj⟩) S1x1x1024x128.size (k0_off47_inb c ⟨k.val, hj⟩)).toLoadRect X_arg15 = KFun.kh m c (nxt c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1

  have hi12 : ∀ (j : Fin 1024) (d : Fin 128), (Rect.unit (s := S2x8x1024x128) (k0_off48 c ⟨k.val, hj⟩) S1x1x1024x128.size (k0_off48_inb c ⟨k.val, hj⟩)).emb (ix4 (0 : Fin 1) (0 : Fin 1) j d) = ix4 (1 : Fin 2) (⟨2 * ((c.val + 1) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off48_eq]
    match a with
    | ⟨0, _⟩ => rfl
    | ⟨1, _⟩ => show 2 * ((c.val + 1) % 4) + k.val / 4 + 0 = 2 * ((c.val + 1) % 4) + (Cert.Attn.kvh k).val; rfl
    | ⟨2, _⟩ => show 0 + j.val = j.val; omega
    | ⟨3, _⟩ => show 0 + d.val = d.val; omega
  have hV : View.readAt (Elt F) kvbM.view (Rect.unit (s := S2x8x1024x128) (k0_off48 c ⟨k.val, hj⟩) S1x1x1024x128.size (k0_off48_inb c ⟨k.val, hj⟩)).toLoadRect X_arg15 = KFun.vh m c (nxt c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi12 j' d')).trans (hkv (Cert.Attn.kvh k) j' d').2
  rw [hQ, hK, hV]
  rfl

/-- and the rows of its block of the partial denominators are that batch's row sums. -/
theorem flashL6_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v787 : BitVec 32) (v875 : FVec F S256x1024 .f32) (v917 : FVec F S256x128 .bf16) (hS_arg6 : ∀ k : Fin k0_t6_loop.trips, (locO.access (Rect.unit (s := S32x128x256) (k0_off49 c k) S1x128x256.size (k0_off49_inb c k))).set ⊆ (locBlkO c 1).view.set) (hS_arg7 : ∀ k : Fin k0_t6_loop.trips, (locL.access (Rect.unit (s := S32x1x256) (k0_off50 c k) S1x1x256.size (k0_off50_inb c k))).set ⊆ (locBlkL c 1).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 1) % 4) + h.val, by have hc : c.val < 4 := c.isLt; omega⟩ : Fin 32) i d) = KFun.q2 m c (nxt c) h (ix3 0 i d)) (hkv : ∀ (g : Fin 2) (j : Fin 1024) (d : Fin 128), X_arg15 (ix4 (0 : Fin 2) (⟨2 * ((c.val + 1) % 4) + g.val, by have hc : c.val < 4 := c.isLt; omega⟩ : Fin 8) j d) = KFun.kh m c (nxt c) g (ix4 0 0 j d) ∧ X_arg15 (ix4 (1 : Fin 2) (⟨2 * ((c.val + 1) % 4) + g.val, by have hc : c.val < 4 := c.isLt; omega⟩ : Fin 8) j d) = KFun.vh m c (nxt c) g (ix4 0 0 j d))
    (k : Fin 8) (i : Fin 256) :
    (locL.view.writes (Elt F) G_arg7 (LoopsV.pbS_k0_t6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v787 v875 v917 hS_arg6 hS_arg7 X_arg10 X_arg15 G_arg6 G_arg7 G_arg12 k0_t6_loop.trips).2.1) (ix3 (⟨8 * ((c.val + 1) % 4) + k.val, by have hc : c.val < 4 := c.isLt; omega⟩ : Fin 32) (0 : Fin 1) i)
      = KFun.lrow m c (nxt c) k (ix3 0 0 i) := by
  have hj : k.val < k0_t6_loop.trips := by rw [t6_trips]; exact k.isLt
  have hidx : (Rect.unit (s := S32x1x256) (k0_off50 c ⟨k.val, hj⟩) S1x1x256.size (k0_off50_inb c ⟨k.val, hj⟩)).emb (ix3 (0 : Fin 1) (0 : Fin 1) i) = ix3 (⟨8 * ((c.val + 1) % 4) + k.val, by have hc : c.val < 4 := c.isLt; omega⟩ : Fin 32) (0 : Fin 1) i := by
    funext a
    refine Fin.ext ?_
    rw [Rect.emb_apply]
    simp only [Rect.off_unit, Rect.stride_unit, Nat.one_mul, off50_eq]
    match a with
    | ⟨0, _⟩ => show 8 * ((c.val + 1) % 4) + k.val + 0 = 8 * ((c.val + 1) % 4) + k.val; rfl
    | ⟨1, _⟩ => rfl
    | ⟨2, _⟩ => show 0 + i.val = i.val; omega
  rw [← hidx]
  refine (LoopsV.readS_k0_t6_arg7 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v787 v875 v917 hS_arg6 hS_arg7 X_arg10 X_arg15 G_arg6 G_arg7 G_arg12 ⟨k.val, hj⟩ (ix3 (0 : Fin 1) (0 : Fin 1) i)).trans ?_

  have hi10 : ∀ (i : Fin 256) (d : Fin 128), (Rect.unit (s := S32x256x128) (k0_off46 c ⟨k.val, hj⟩) S1x256x128.size (k0_off46_inb c ⟨k.val, hj⟩)).emb (ix3 (0 : Fin 1) i d) = ix3 (⟨8 * ((c.val + 1) % 4) + k.val, by have hc : c.val < 4 := c.isLt; omega⟩ : Fin 32) i d := by
    intro i d
    funext a
    refine Fin.ext ?_
    rw [Rect.emb_apply]
    simp only [Rect.off_unit, Rect.stride_unit, Nat.one_mul, off46_eq]
    match a with
    | ⟨0, _⟩ => show 8 * ((c.val + 1) % 4) + k.val + 0 = 8 * ((c.val + 1) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off47 c ⟨k.val, hj⟩) S1x1x1024x128.size (k0_off47_inb c ⟨k.val, hj⟩)).emb (ix4 (0 : Fin 1) (0 : Fin 1) j d) = ix4 (0 : Fin 2) (⟨2 * ((c.val + 1) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off47_eq]
    match a with
    | ⟨0, _⟩ => rfl
    | ⟨1, _⟩ => show 2 * ((c.val + 1) % 4) + k.val / 4 + 0 = 2 * ((c.val + 1) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off46 c ⟨k.val, hj⟩) S1x256x128.size (k0_off46_inb c ⟨k.val, hj⟩)).toLoadRect X_arg10 = KFun.q2 m c (nxt c) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off47 c ⟨k.val, hj⟩) S1x1x1024x128.size (k0_off47_inb c ⟨k.val, hj⟩)).toLoadRect X_arg15 = KFun.kh m c (nxt c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1
  rw [hQ, hK]
  rfl

end Cert.KernelIdeal.Proto

end
-- ==== Proof.BodyB.lean ====
/-
  The body from its first flash loop to its third, on device `c`.

  The device stores the last head of batch `c`'s projected queries and runs the flash step of batch `c`; waits for the
  barrier, which hands it its neighbours' landing slices; sends the lower half of block 0 of its partial sums (batch `c`,
  heads 0–3) to the right; waits for the local copies of batch `c + 2`, narrows its key and value planes, projects its
  queries and runs its flash step; sends the upper half of block 2 (batch `c + 2`, heads 4–7) to the left; and does the
  same for batch `c + 3` (block 3).  The rows a flash step leaves in a block are that batch's flash outputs head by head
  — from what the projection and the narrowing stored —, so the halves sent read as the values the schedule names for
  hop 0, and the halves kept carry their rows to the later merges.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.SchedAuto
import proofs.«900754_g7700000000000755_dist_attn_cross_gqa_kvseq_b4_sq256_skv1024_d1024_hq8_dh128_v7x_i4_f32_1_alg».proof.Proof.Unfold
import proofs.«900754_g7700000000000755_dist_attn_cross_gqa_kvseq_b4_sq256_skv1024_d1024_hq8_dh128_v7x_i4_f32_1_alg».proof.Proof.Split
import proofs.«900754_g7700000000000755_dist_attn_cross_gqa_kvseq_b4_sq256_skv1024_d1024_hq8_dh128_v7x_i4_f32_1_alg».proof.Proof.OpSend
import proofs.«900754_g7700000000000755_dist_attn_cross_gqa_kvseq_b4_sq256_skv1024_d1024_hq8_dh128_v7x_i4_f32_1_alg».proof.Proof.OpWait
import proofs.«900754_g7700000000000755_dist_attn_cross_gqa_kvseq_b4_sq256_skv1024_d1024_hq8_dh128_v7x_i4_f32_1_alg».proof.Proof.OpCopy
import proofs.«900754_g7700000000000755_dist_attn_cross_gqa_kvseq_b4_sq256_skv1024_d1024_hq8_dh128_v7x_i4_f32_1_alg».proof.Proof.LoopsUU
import proofs.«900754_g7700000000000755_dist_attn_cross_gqa_kvseq_b4_sq256_skv1024_d1024_hq8_dh128_v7x_i4_f32_1_alg».proof.Proof.LoopsV
import proofs.«900754_g7700000000000755_dist_attn_cross_gqa_kvseq_b4_sq256_skv1024_d1024_hq8_dh128_v7x_i4_f32_1_alg».proof.Proof.LoopsVFacts
import proofs.«900754_g7700000000000755_dist_attn_cross_gqa_kvseq_b4_sq256_skv1024_d1024_hq8_dh128_v7x_i4_f32_1_alg».proof.Proof.KvSplit
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.HbmSplit
import proofs.«900754_g7700000000000755_dist_attn_cross_gqa_kvseq_b4_sq256_skv1024_d1024_hq8_dh128_v7x_i4_f32_1_alg».proof.Proof.Within
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.Bridge
import proofs.«900754_g7700000000000755_dist_attn_cross_gqa_kvseq_b4_sq256_skv1024_d1024_hq8_dh128_v7x_i4_f32_1_alg».proof.Proof.Segs
import proofs.«900754_g7700000000000755_dist_attn_cross_gqa_kvseq_b4_sq256_skv1024_d1024_hq8_dh128_v7x_i4_f32_1_alg».proof.Proof.KvRel
import proofs.«900754_g7700000000000755_dist_attn_cross_gqa_kvseq_b4_sq256_skv1024_d1024_hq8_dh128_v7x_i4_f32_1_alg».proof.Proof.TailSpec
import proofs.«900754_g7700000000000755_dist_attn_cross_gqa_kvseq_b4_sq256_skv1024_d1024_hq8_dh128_v7x_i4_f32_1_alg».proof.Proof.Cut15
import proofs.«900754_g7700000000000755_dist_attn_cross_gqa_kvseq_b4_sq256_skv1024_d1024_hq8_dh128_v7x_i4_f32_1_alg».proof.Proof.Cut27
import proofs.«900754_g7700000000000755_dist_attn_cross_gqa_kvseq_b4_sq256_skv1024_d1024_hq8_dh128_v7x_i4_f32_1_alg».proof.Proof.Rest27
import proofs.«900754_g7700000000000755_dist_attn_cross_gqa_kvseq_b4_sq256_skv1024_d1024_hq8_dh128_v7x_i4_f32_1_alg».proof.Proof.BodyBLemmas
import proofs.«900754_g7700000000000755_dist_attn_cross_gqa_kvseq_b4_sq256_skv1024_d1024_hq8_dh128_v7x_i4_f32_1_alg».proof.Proof.ProjRows
import proofs.«900754_g7700000000000755_dist_attn_cross_gqa_kvseq_b4_sq256_skv1024_d1024_hq8_dh128_v7x_i4_f32_1_alg».proof.Proof.ProjRowsB
import proofs.«900754_g7700000000000755_dist_attn_cross_gqa_kvseq_b4_sq256_skv1024_d1024_hq8_dh128_v7x_i4_f32_1_alg».proof.Proof.KvRead
import Idealize.ShloMosaic.Lib.WritesUnit
import proofs.«900754_g7700000000000755_dist_attn_cross_gqa_kvseq_b4_sq256_skv1024_d1024_hq8_dh128_v7x_i4_f32_1_alg».proof.Proof.FlashRows
import proofs.«900754_g7700000000000755_dist_attn_cross_gqa_kvseq_b4_sq256_skv1024_d1024_hq8_dh128_v7x_i4_f32_1_alg».proof.Proof.Gen.KernelIdeal.Skeleton
import proofs.«900754_g7700000000000755_dist_attn_cross_gqa_kvseq_b4_sq256_skv1024_d1024_hq8_dh128_v7x_i4_f32_1_alg».proof.Proof.Gen.KernelIdeal.Loops
import proofs.«900754_g7700000000000755_dist_attn_cross_gqa_kvseq_b4_sq256_skv1024_d1024_hq8_dh128_v7x_i4_f32_1_alg».proof.Proof.Gen.KernelIdeal.Points
import Idealize.ShloMosaic.Lib.Tactic

set_option maxRecDepth 16384

noncomputable section

namespace Cert.KernelIdeal.Proto

open Cert.KernelIdeal Cert.KernelIdeal.Gen Cert.KernelIdeal.Ring
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

omit [FloatOps F] in
/-- A fact about a block's contents travels with the block. -/
theorem blkO_fact (c : Dev nD) (j : Fin 4) (f : Buf (Elt F) ((c : Thread nD τ).loc cc0_scratch0))
    (P : Buf (Elt F) ((c : Thread nD τ).loc cc0_scratch0) → Prop) (h : P f) :
    ((locBlkO c j).view.loc (c : Thread nD τ) ↦[(locBlkO c j).view.set]{fullShare} f : sProp 𝕄)
      ⊢ iprop(∃ T : Buf (Elt F) ((c : Thread nD τ).loc cc0_scratch0), ((locBlkO c j).view.loc (c : Thread nD τ) ↦[(locBlkO c j).view.set]{fullShare} T) ∗ ⌜P T⌝) := by
  iintro H
  iexists f
  isplitl [H]
  · iexact H
  · ipureintro; exact h
omit [FloatOps F] in
theorem blkL_fact (c : Dev nD) (j : Fin 4) (f : Buf (Elt F) ((c : Thread nD τ).loc cc0_scratch1))
    (P : Buf (Elt F) ((c : Thread nD τ).loc cc0_scratch1) → Prop) (h : P f) :
    ((locBlkL c j).view.loc (c : Thread nD τ) ↦[(locBlkL c j).view.set]{fullShare} f : sProp 𝕄)
      ⊢ iprop(∃ T : Buf (Elt F) ((c : Thread nD τ).loc cc0_scratch1), ((locBlkL c j).view.loc (c : Thread nD τ) ↦[(locBlkL c j).view.set]{fullShare} T) ∗ ⌜P T⌝) := by
  iintro H
  iexists f
  isplitl [H]
  · iexact H
  · ipureintro; exact h

/-- Batch `c`'s query rows once head 7 is stored: heads 0–6 as they were, head 7 from the projected queries. -/
theorem q2rows_c (m : (ℓ : Loc nD τ sig) → Buf (Elt F) ℓ) (c : Dev nD) (f4 : Buf (Elt F) ((c : Thread nD τ).loc cc0_scratch4))
    (v226 : FVec F S256x1024 .f32) (hv226 : v226 = KFun.qb m c c)
    (hq2 : ∀ (h : Fin 8), h.val < 7 → ∀ (i : Fin 256) (d : Fin 128),
        f4 (ix3 (⟨8 * c.val + h.val, by have : c.val < 4 := c.isLt; omega⟩ : Fin 32) i d) = KFun.q2 m c c h (ix3 0 i d))
    (h : Fin 8) (i : Fin 256) (d : Fin 128) :
    ((Memref.whole cc0_scratch4 : Memref sig .tc .vmem S32x256x128 .bf16).view.writes (Elt F) f4
        [⟨Rect.unit (s := S32x256x128) (k0_off9 c 7#32) S1x256x128.size (k0_off9_inb c 7), k0_pay37 v226⟩])
      (ix3 (⟨8 * c.val + h.val, by have hc : c.val < 4 := c.isLt; omega⟩ : Fin 32) i d) = KFun.q2 m c c h (ix3 0 i d) := by
  have hc : c.val < 4 := c.isLt
  refine Eq.trans (congrFun (View.read_whole (Val := Elt F) cc0_scratch4 _).symm (ix3 (⟨8 * c.val + h.val, by omega⟩ : Fin 32) i d)) ?_
  show (Memref.whole cc0_scratch4 : Memref sig .tc .vmem S32x256x128 .bf16).view.read (Elt F) _ _ = _
  by_cases h7 : h.val = 7
  · have hh : h = 7 := Fin.ext h7
    subst hh
    refine Eq.trans (View.read_writes_cons_unit_of_mem (s := S32x256x128) (off := k0_off9 c 7#32) (off' := ![8 * c.val + (7 : Fin 8).val, 0, 0])
      (Memref.whole cc0_scratch4 : Memref sig .tc .vmem S32x256x128 .bf16).view f4 (k0_off9_inb c 7) (k0_pay37 v226) []
      (ix3 (⟨8 * c.val + (7 : Fin 8).val, by omega⟩ : Fin 32) i d) (ix3 0 i d) (k0_off9_eq c 7) (fun a => by
        match a with
        | ⟨0, _⟩ => show 8 * c.val + 7 = 8 * c.val + 7 + 0; rfl
        | ⟨1, _⟩ => show i.val = 0 + i.val; omega
        | ⟨2, _⟩ => show d.val = 0 + d.val; omega)) ?_
    rw [hv226]
    rfl
  · refine Eq.trans (View.read_writes_cons_unit_of_not_mem (s := S32x256x128) (off := k0_off9 c 7#32) (off' := ![8 * c.val + (7 : Fin 8).val, 0, 0])
      (Memref.whole cc0_scratch4 : Memref sig .tc .vmem S32x256x128 .bf16).view f4 (k0_off9_inb c 7) (k0_pay37 v226) []
      (ix3 (⟨8 * c.val + h.val, by omega⟩ : Fin 32) i d) (k0_off9_eq c 7) 0 (Or.inl (by show 8 * c.val + h.val < 8 * c.val + 7; have := h.isLt; omega))) ?_
    rw [View.writes_nil, View.read_whole]
    exact hq2 h (by have := h.isLt; omega) i d

set_option maxHeartbeats 400000000 in
theorem segB_run (m : (ℓ : Loc nD τ sig) → Buf (Elt F) ℓ) (c : Dev nD) (K : Names) (W : Waits sig Unit) (v2 v14 v25 : BitVec 32) (v26 : Sems sig S_)
    (v226 : FVec F S256x1024 .f32) :
    At15 m c K W v26 v226
      ⊢ wp frame (wpE (defs₀ (F := F)) 𝒱₀ (c : Thread nD τ) none) Set.univ
          (segBProg (F := F) (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v26 v226)
          (fun _ => iprop(∃ W', At27 m c K W' (Rest27 m c) c v2 v14 v25)) := by
  unfold At15 kvCut15 invs freshX words15
  simp only [bigSep_xfer, bigSep_fin4]
  iintro ⟨⟨#HIb, ⟨⟨#HIs_o0R, #HIr_o0R, #HIn_o0R⟩, ⟨#HIs_l0R, #HIr_l0R, #HIn_l0R⟩, ⟨#HIs_o0L, #HIr_o0L, #HIn_o0L⟩, ⟨#HIs_l0L, #HIr_l0L, #HIn_l0L⟩, ⟨#HIs_o1R, #HIr_o1R, #HIn_o1R⟩, ⟨#HIs_o1L, #HIr_o1L, #HIn_o1L⟩, ⟨#HIs_l1R, #HIr_l1R, #HIn_l1R⟩, ⟨#HIs_l1L, #HIr_l1L, #HIn_l1L⟩, ⟨#HIs_o2R, #HIr_o2R, #HIn_o2R⟩, ⟨#HIs_o2L, #HIr_o2L, #HIn_o2L⟩, ⟨#HIs_l2R, #HIr_l2R, #HIn_l2R⟩, ⟨#HIs_l2L, #HIr_l2L, #HIn_l2L⟩, ⟨#HIs_g0R, #HIr_g0R, #HIn_g0R⟩, ⟨#HIs_g0L, #HIr_g0L, #HIn_g0L⟩, ⟨#HIs_g1R, #HIr_g1R, #HIn_g1R⟩, ⟨#HIs_g1L, #HIr_g1L, #HIn_g1L⟩, ⟨#HIs_g2R, #HIr_g2R, #HIn_g2R⟩, ⟨#HIs_g2L, #HIr_g2L, #HIn_g2L⟩⟩, #HIbn, #HIbp⟩, #Hlev, ⟨%hv26, %hv226⟩, HO, Hcb, Hatb, ⟨⟨Has_o0R, Har_o0R, Hts_o0R, Htn_o0R, Hc_o0R, #Hrs_o0R, #Hrr_o0R⟩, ⟨Has_l0R, Har_l0R, Hts_l0R, Htn_l0R, Hc_l0R, #Hrs_l0R, #Hrr_l0R⟩, ⟨Has_o0L, Har_o0L, Hts_o0L, Htn_o0L, Hc_o0L, #Hrs_o0L, #Hrr_o0L⟩, ⟨Has_l0L, Har_l0L, Hts_l0L, Htn_l0L, Hc_l0L, #Hrs_l0L, #Hrr_l0L⟩, ⟨Has_o1R, Har_o1R, Hts_o1R, Htn_o1R, Hc_o1R, #Hrs_o1R, #Hrr_o1R⟩, ⟨Has_o1L, Har_o1L, Hts_o1L, Htn_o1L, Hc_o1L, #Hrs_o1L, #Hrr_o1L⟩, ⟨Has_l1R, Har_l1R, Hts_l1R, Htn_l1R, Hc_l1R, #Hrs_l1R, #Hrr_l1R⟩, ⟨Has_l1L, Har_l1L, Hts_l1L, Htn_l1L, Hc_l1L, #Hrs_l1L, #Hrr_l1L⟩, ⟨Has_o2R, Har_o2R, Hts_o2R, Htn_o2R, Hc_o2R, #Hrs_o2R, #Hrr_o2R⟩, ⟨Has_o2L, Har_o2L, Hts_o2L, Htn_o2L, Hc_o2L, #Hrs_o2L, #Hrr_o2L⟩, ⟨Has_l2R, Har_l2R, Hts_l2R, Htn_l2R, Hc_l2R, #Hrs_l2R, #Hrr_l2R⟩, ⟨Has_l2L, Har_l2L, Hts_l2L, Htn_l2L, Hc_l2L, #Hrs_l2L, #Hrr_l2L⟩, ⟨Has_g0R, Har_g0R, Hts_g0R, Htn_g0R, Hc_g0R, #Hrs_g0R, #Hrr_g0R⟩, ⟨Has_g0L, Har_g0L, Hts_g0L, Htn_g0L, Hc_g0L, #Hrs_g0L, #Hrr_g0L⟩, ⟨Has_g1R, Har_g1R, Hts_g1R, Htn_g1R, Hc_g1R, #Hrs_g1R, #Hrr_g1R⟩, ⟨Has_g1L, Har_g1L, Hts_g1L, Htn_g1L, Hc_g1L, #Hrs_g1L, #Hrr_g1L⟩, ⟨Has_g2R, Har_g2R, Hts_g2R, Htn_g2R, Hc_g2R, #Hrs_g2R, #Hrr_g2R⟩, ⟨Has_g2L, Har_g2L, Hts_g2L, Htn_g2L, Hc_g2L, #Hrs_g2L, #Hrr_g2L⟩⟩, Hx, Hwq, Hwo, ⟨%g3, Hout⟩, ⟨%f4, Hq2, %hq2⟩, ⟨%f6, Hpt⟩, Hwqb, Hwob, ⟨%f9, Hkvb, %hkvb⟩, ⟨%f5, %vals, %hvals, ⟨Hbat2, Hbat3, Hbat1⟩, ⟨Hkv00, Hkv10, Hkv01, Hkv11⟩, ⟨HsK00, HsV00, HsK01, HsV01⟩, Hcs0, Hkept⟩, ⟨HbO0, HbO1, HbO2, HbO3⟩, ⟨HbL0, HbL1, HbL2, HbL3⟩, ⟨%f23, Hg_ownR, Hg_ownL⟩⟩
  subst hv26
  unfold held
  icases HbO0 with ⟨%fO0, HbO0⟩
  icases HbL0 with ⟨%fL0, HbL0⟩
  icases HbO2 with ⟨%fO2, HbO2⟩
  icases HbL2 with ⟨%fL2, HbL2⟩
  icases HbO3 with ⟨%fO3, HbO3⟩
  icases HbL3 with ⟨%fL3, HbL3⟩
  ihave Hpt := (Entails.of_eq (whole_pts (F := F) c cc0_scratch6 f6)) $$ Hpt
  have h6 := LoopsV.t1_arg6_within c
  have h7 := LoopsV.t1_arg7_within c
  unfold segBProg
  sl_exec
  ihave HbO0' := (blkO_fact (F := F) c 0 _ (fun T => ∀ (k : Fin 8) (d : Fin 128) (i : Fin 256), T (ix3 (⟨8 * c.val + k.val, by have hc : c.val < 4 := c.isLt; omega⟩ : Fin 32) d i) = KFun.ot m c c k (ix3 0 d i))
    (by
      intro k d i
      apply flashO1_rows
      · exact fun h i d => q2rows_c m c f4 v226 hv226 hq2 h i d
      · exact hkvb)) $$ HbO0
  icases HbO0' with ⟨%TO0, HbO0, %hTO0⟩
  ihave HbL0' := (blkL_fact (F := F) c 0 _ (fun T => ∀ (k : Fin 8) (i : Fin 256), T (ix3 (⟨8 * c.val + k.val, by have hc : c.val < 4 := c.isLt; omega⟩ : Fin 32) (0 : Fin 1) i) = KFun.lrow m c c k (ix3 0 0 i))
    (by
      intro k i
      apply flashL1_rows
      · exact fun h i d => q2rows_c m c f4 v226 hv226 hq2 h i d
      · exact hkvb)) $$ HbL0
  icases HbL0' with ⟨%TL0, HbL0, %hTL0⟩
  iapply (wp_bar_wait (KFun.V m) c (prog.drop 2) W (K (c, none)) (a := (2#32).toNat) (by decide)) $$ [Hcb HO Hatb]
  · isplitr; · iexact HIb
    isplitl [Hcb]; · iexact Hcb
    isplitl [HO]; · iexact HO
    isplitr
    · iapply (mayWait_bar c); iexact Hlev
    · iexact Hatb
  iintro ⟨HO, Hatb, HpF, HpT⟩
  ihave HqF := (Entails.of_eq (barPay_false (F := F) c)) $$ HpF
  ihave HqT := (Entails.of_eq (barPay_true (F := F) c)) $$ HpT
  icases HqF with ⟨HnO0, HnL0, HnG0, #HnrO0, #HnrL0, #HnrG0, HnO1, HnL1, HnG1, #HnrO1, #HnrL1, #HnrG1, HnO2, HnL2, HnG2, #HnrO2, #HnrL2, #HnrG2⟩
  icases HqT with ⟨HpO0, HpL0, HpG0, #HprO0, #HprL0, #HprG0, HpO1, HpL1, HpG1, #HprO1, #HprL1, #HprG1, HpO2, HpL2, HpG2, #HprO2, #HprL2, #HprG2⟩
  sl_exec
  -- the numerators' first copy to the right: cut block 0 into its halves, lend the first
  ihave Hh := (Entails.of_eq (locO_halves_eq (F := F) c 0 _)) $$ HbO0
  icases Hh with ⟨HhO0f, HhO0t⟩
  ihave HsO := (Entails.of_eq (halfO_0f_pts (F := F) c _)) $$ HhO0f
  iapply (wp_send_o (KFun.V m) c _ false 0 (dev3_eq c) _ (KFun.vo0_false_of_rows m c TO0 (fun k d i => hTO0 ⟨k.val, by omega⟩ d i)) (prog.drop 3) _ (K (c, some (.o, false, 0, true))) (K (toDev c false, some (.o, false, 0, false)))) $$ [HsO HnO0 HO Hts_o0R Htn_o0R]
  · isplitr; · iexact HIs_o0R
    isplitr; · iexact HIn_o0R
    isplitl [HsO]; · iexact HsO
    isplitl [HnO0]; · (unfold held; iexact HnO0)
    isplitl [HO]; · iexact HO
    isplitl [Hts_o0R]; · iexact Hts_o0R
    isplitr; · iexact Hrs_o0R
    isplitl [Htn_o0R]; · iexact Htn_o0R
    iexact HnrO0
  iintro ⟨Hcs_o0R, HO⟩
  sl_exec
  -- the denominators' likewise
  ihave Hh := (Entails.of_eq (locL_halves_eq (F := F) c 0 _)) $$ HbL0
  icases Hh with ⟨HhL0f, HhL0t⟩
  ihave HsL := (Entails.of_eq (halfL_0f_pts (F := F) c _)) $$ HhL0f
  iapply (wp_send_l (KFun.V m) c _ false 0 (dev4_eq c) _ (KFun.vl0_false_of_rows m c TL0 (fun k i => hTL0 ⟨k.val, by omega⟩ i)) (prog.drop 4) _ (K (c, some (.l, false, 0, true))) (K (toDev c false, some (.l, false, 0, false)))) $$ [HsL HnL0 HO Hts_l0R Htn_l0R]
  · isplitr; · iexact HIs_l0R
    isplitr; · iexact HIn_l0R
    isplitl [HsL]; · iexact HsL
    isplitl [HnL0]; · (unfold held; iexact HnL0)
    isplitl [HO]; · iexact HO
    isplitl [Hts_l0R]; · iexact Hts_l0R
    isplitr; · iexact Hrs_l0R
    isplitl [Htn_l0R]; · iexact Htn_l0R
    iexact HnrL0
  iintro ⟨Hcs_l0R, HO⟩
  -- batch c + 2: its four waits, its casts, its projection, its flash loop
  unfold batD cpBatch cpDeliv kvPl
  have hmw2 := mayWait_low (F := F) c (csemD c 2) (cellRole_ge _ (by rw [csemD_val]; omega)) (prog.drop 4)
  unfold csemD at hmw2 ⊢
  have h6b := LoopsV.t2_arg6_within c
  have h7b := LoopsV.t2_arg7_within c
  sl_exec
  ihave HbO2' := (blkO_fact (F := F) c 2 _ (fun T => ∀ (k : Fin 8) (d : Fin 128) (i : Fin 256), T (ix3 (⟨8 * ((c.val + 2) % 4) + k.val, by have hc : c.val < 4 := c.isLt; omega⟩ : Fin 32) d i) = KFun.ot m c (nxt (nxt c)) k (ix3 0 d i))
    (by
      intro k d i
      apply flashO2_rows
      · intro h i d
        exact Rows.q2rows_w2 m c f4 _ _ _ _ _ _ (Rows.xblk_of_load m c (nxt (nxt c)) _ (Rows.off24_w2 c) _ _ (Rows.stage0_eq m c)) (Rows.wqb_load c _) rfl rfl rfl h i d
      · intro g j d
        refine Rows.kvrows_w2p m c f9 _ _ _ _ _ _ ?_ ?_ ?_ ?_ rfl g j d
        · rw [← Rows.bIdx_two c]; exact kh_of_copy m c 2 0 _ _ _ _ ((off22_eq c 1 0).trans (off18_eq c 1 0).symm) _ (hvals 2 0).1
        · rw [← Rows.bIdx_two c]; exact vh_of_copy m c 2 0 _ _ _ _ ((off23_eq c 1 0).trans (off20_eq c 1 0).symm) _ (hvals 2 0).2
        · rw [← Rows.bIdx_two c]; exact kh_of_copy m c 2 1 _ _ _ _ ((off22_eq c 1 1).trans (off18_eq c 1 1).symm) _ (hvals 2 1).1
        · rw [← Rows.bIdx_two c]; exact vh_of_copy m c 2 1 _ _ _ _ ((off23_eq c 1 1).trans (off20_eq c 1 1).symm) _ (hvals 2 1).2)) $$ HbO2
  icases HbO2' with ⟨%TO2, HbO2, %hTO2⟩
  ihave HbL2' := (blkL_fact (F := F) c 2 _ (fun T => ∀ (k : Fin 8) (i : Fin 256), T (ix3 (⟨8 * ((c.val + 2) % 4) + k.val, by have hc : c.val < 4 := c.isLt; omega⟩ : Fin 32) (0 : Fin 1) i) = KFun.lrow m c (nxt (nxt c)) k (ix3 0 0 i))
    (by
      intro k i
      apply flashL2_rows
      · intro h i d
        exact Rows.q2rows_w2 m c f4 _ _ _ _ _ _ (Rows.xblk_of_load m c (nxt (nxt c)) _ (Rows.off24_w2 c) _ _ (Rows.stage0_eq m c)) (Rows.wqb_load c _) rfl rfl rfl h i d
      · intro g j d
        refine Rows.kvrows_w2p m c f9 _ _ _ _ _ _ ?_ ?_ ?_ ?_ rfl g j d
        · rw [← Rows.bIdx_two c]; exact kh_of_copy m c 2 0 _ _ _ _ ((off22_eq c 1 0).trans (off18_eq c 1 0).symm) _ (hvals 2 0).1
        · rw [← Rows.bIdx_two c]; exact vh_of_copy m c 2 0 _ _ _ _ ((off23_eq c 1 0).trans (off20_eq c 1 0).symm) _ (hvals 2 0).2
        · rw [← Rows.bIdx_two c]; exact kh_of_copy m c 2 1 _ _ _ _ ((off22_eq c 1 1).trans (off18_eq c 1 1).symm) _ (hvals 2 1).1
        · rw [← Rows.bIdx_two c]; exact vh_of_copy m c 2 1 _ _ _ _ ((off23_eq c 1 1).trans (off20_eq c 1 1).symm) _ (hvals 2 1).2)) $$ HbL2
  icases HbL2' with ⟨%TL2, HbL2, %hTL2⟩
  -- the numerators' first copy to the left: cut block 2 into its halves, lend the second
  ihave Hh := (Entails.of_eq (locO_halves_eq (F := F) c 2 _)) $$ HbO2
  icases Hh with ⟨HhO2f, HhO2t⟩
  ihave HsO := (Entails.of_eq (halfO_2t_pts (F := F) c _)) $$ HhO2t
  iapply (wp_send_o (KFun.V m) c _ true 0 (dev5_eq c) _ (KFun.vo0_true_of_rows m c TO2 (fun k d i => (congrArg (fun r => TO2 (ix3 r d i)) (Fin.ext (by show 8 * ((c.val + 2) % 4) + 4 + k.val = 8 * ((c.val + 2) % 4) + (k.val + 4); omega))).trans (hTO2 ⟨k.val + 4, by omega⟩ d i))) (prog.drop 5) _ (K (c, some (.o, true, 0, true))) (K (toDev c true, some (.o, true, 0, false)))) $$ [HsO HpO0 HO Hts_o0L Htn_o0L]
  · isplitr; · iexact HIs_o0L
    isplitr; · iexact HIn_o0L
    isplitl [HsO]; · iexact HsO
    isplitl [HpO0]; · (unfold held; iexact HpO0)
    isplitl [HO]; · iexact HO
    isplitl [Hts_o0L]; · iexact Hts_o0L
    isplitr; · iexact Hrs_o0L
    isplitl [Htn_o0L]; · iexact Htn_o0L
    iexact HprO0
  iintro ⟨Hcs_o0L, HO⟩
  sl_exec
  ihave Hh := (Entails.of_eq (locL_halves_eq (F := F) c 2 _)) $$ HbL2
  icases Hh with ⟨HhL2f, HhL2t⟩
  ihave HsL := (Entails.of_eq (halfL_2t_pts (F := F) c _)) $$ HhL2t
  iapply (wp_send_l (KFun.V m) c _ true 0 (dev6_eq c) _ (KFun.vl0_true_of_rows m c TL2 (fun k i => (congrArg (fun r => TL2 (ix3 r (0 : Fin 1) i)) (Fin.ext (by show 8 * ((c.val + 2) % 4) + 4 + k.val = 8 * ((c.val + 2) % 4) + (k.val + 4); omega))).trans (hTL2 ⟨k.val + 4, by omega⟩ i))) (prog.drop 6) _ (K (c, some (.l, true, 0, true))) (K (toDev c true, some (.l, true, 0, false)))) $$ [HsL HpL0 HO Hts_l0L Htn_l0L]
  · isplitr; · iexact HIs_l0L
    isplitr; · iexact HIn_l0L
    isplitl [HsL]; · iexact HsL
    isplitl [HpL0]; · (unfold held; iexact HpL0)
    isplitl [HO]; · iexact HO
    isplitl [Hts_l0L]; · iexact Hts_l0L
    isplitr; · iexact Hrs_l0L
    isplitl [Htn_l0L]; · iexact Htn_l0L
    iexact HprL0
  iintro ⟨Hcs_l0L, HO⟩
  -- batch c + 3: its four waits, its casts, its projection, its flash loop
  unfold later3 batD cpBatch cpDeliv kvPl
  have hmw3 := mayWait_low (F := F) c (csemD c 3) (cellRole_ge _ (by rw [csemD_val]; omega)) (prog.drop 6)
  unfold csemD at hmw3 ⊢
  have h6c := LoopsV.t3_arg6_within c
  have h7c := LoopsV.t3_arg7_within c
  sl_exec
  ihave HbO3' := (blkO_fact (F := F) c 3 _ (fun T => ∀ (k : Fin 8) (d : Fin 128) (i : Fin 256), T (ix3 (⟨8 * ((c.val + 3) % 4) + k.val, by have hc : c.val < 4 := c.isLt; omega⟩ : Fin 32) d i) = KFun.ot m c (prv c) k (ix3 0 d i))
    (by
      intro k d i
      apply flashO3_rows
      · intro h i d
        exact Rows.q2rows_w3 m c f4 _ _ _ _ _ (Rows.xblk_of_load m c (prv c) _ (Rows.off24_w3 c) _ _ (Rows.stage0_eq m c)) (Rows.wqb_load c _) rfl rfl h i d
      · intro g j d
        refine Rows.kvrows_w3p m c f9 _ _ _ _ _ _ ?_ ?_ ?_ ?_ rfl g j d
        · rw [← Rows.bIdx_three c]; exact kh_of_copy m c 3 0 _ _ _ _ ((off22_eq c 2 0).trans (off18_eq c 2 0).symm) _ (hvals 3 0).1
        · rw [← Rows.bIdx_three c]; exact vh_of_copy m c 3 0 _ _ _ _ ((off23_eq c 2 0).trans (off20_eq c 2 0).symm) _ (hvals 3 0).2
        · rw [← Rows.bIdx_three c]; exact kh_of_copy m c 3 1 _ _ _ _ ((off22_eq c 2 1).trans (off18_eq c 2 1).symm) _ (hvals 3 1).1
        · rw [← Rows.bIdx_three c]; exact vh_of_copy m c 3 1 _ _ _ _ ((off23_eq c 2 1).trans (off20_eq c 2 1).symm) _ (hvals 3 1).2)) $$ HbO3
  icases HbO3' with ⟨%TO3, HbO3, %hTO3⟩
  ihave HbL3' := (blkL_fact (F := F) c 3 _ (fun T => ∀ (k : Fin 8) (i : Fin 256), T (ix3 (⟨8 * ((c.val + 3) % 4) + k.val, by have hc : c.val < 4 := c.isLt; omega⟩ : Fin 32) (0 : Fin 1) i) = KFun.lrow m c (prv c) k (ix3 0 0 i))
    (by
      intro k i
      apply flashL3_rows
      · intro h i d
        exact Rows.q2rows_w3 m c f4 _ _ _ _ _ (Rows.xblk_of_load m c (prv c) _ (Rows.off24_w3 c) _ _ (Rows.stage0_eq m c)) (Rows.wqb_load c _) rfl rfl h i d
      · intro g j d
        refine Rows.kvrows_w3p m c f9 _ _ _ _ _ _ ?_ ?_ ?_ ?_ rfl g j d
        · rw [← Rows.bIdx_three c]; exact kh_of_copy m c 3 0 _ _ _ _ ((off22_eq c 2 0).trans (off18_eq c 2 0).symm) _ (hvals 3 0).1
        · rw [← Rows.bIdx_three c]; exact vh_of_copy m c 3 0 _ _ _ _ ((off23_eq c 2 0).trans (off20_eq c 2 0).symm) _ (hvals 3 0).2
        · rw [← Rows.bIdx_three c]; exact kh_of_copy m c 3 1 _ _ _ _ ((off22_eq c 2 1).trans (off18_eq c 2 1).symm) _ (hvals 3 1).1
        · rw [← Rows.bIdx_three c]; exact vh_of_copy m c 3 1 _ _ _ _ ((off23_eq c 2 1).trans (off20_eq c 2 1).symm) _ (hvals 3 1).2)) $$ HbL3
  icases HbL3' with ⟨%TL3, HbL3, %hTL3⟩
  sl_step
  ihave Hh3 := (Entails.of_eq (locO_halves_eq (F := F) c 3 _)) $$ HbO3
  icases Hh3 with ⟨HhO3f, HhO3t⟩
  ihave Hh3 := (Entails.of_eq (locL_halves_eq (F := F) c 3 _)) $$ HbL3
  icases Hh3 with ⟨HhL3f, HhL3t⟩
  iexists _
  unfold At27 C27.sentX C27.freshO C27.freshL C27.blk3O C27.blk3L Rest27 drained nbrSlices halfRowsO halfRowsL freshX held csemD invs
  simp only [bigSep_fin4, bigSep_xfer]
  isplitr
  · ipureintro; trivial
  isplitr
  · isplitr
    · iexact HIb
    isplitr
    · isplitr
      · isplitr
        · iexact HIs_o0R
        isplitr
        · iexact HIr_o0R
        iexact HIn_o0R
      isplitr
      · isplitr
        · iexact HIs_l0R
        isplitr
        · iexact HIr_l0R
        iexact HIn_l0R
      isplitr
      · isplitr
        · iexact HIs_o0L
        isplitr
        · iexact HIr_o0L
        iexact HIn_o0L
      isplitr
      · isplitr
        · iexact HIs_l0L
        isplitr
        · iexact HIr_l0L
        iexact HIn_l0L
      isplitr
      · isplitr
        · iexact HIs_o1R
        isplitr
        · iexact HIr_o1R
        iexact HIn_o1R
      isplitr
      · isplitr
        · iexact HIs_o1L
        isplitr
        · iexact HIr_o1L
        iexact HIn_o1L
      isplitr
      · isplitr
        · iexact HIs_l1R
        isplitr
        · iexact HIr_l1R
        iexact HIn_l1R
      isplitr
      · isplitr
        · iexact HIs_l1L
        isplitr
        · iexact HIr_l1L
        iexact HIn_l1L
      isplitr
      · isplitr
        · iexact HIs_o2R
        isplitr
        · iexact HIr_o2R
        iexact HIn_o2R
      isplitr
      · isplitr
        · iexact HIs_o2L
        isplitr
        · iexact HIr_o2L
        iexact HIn_o2L
      isplitr
      · isplitr
        · iexact HIs_l2R
        isplitr
        · iexact HIr_l2R
        iexact HIn_l2R
      isplitr
      · isplitr
        · iexact HIs_l2L
        isplitr
        · iexact HIr_l2L
        iexact HIn_l2L
      isplitr
      · isplitr
        · iexact HIs_g0R
        isplitr
        · iexact HIr_g0R
        iexact HIn_g0R
      isplitr
      · isplitr
        · iexact HIs_g0L
        isplitr
        · iexact HIr_g0L
        iexact HIn_g0L
      isplitr
      · isplitr
        · iexact HIs_g1R
        isplitr
        · iexact HIr_g1R
        iexact HIn_g1R
      isplitr
      · isplitr
        · iexact HIs_g1L
        isplitr
        · iexact HIr_g1L
        iexact HIn_g1L
      isplitr
      · isplitr
        · iexact HIs_g2R
        isplitr
        · iexact HIr_g2R
        iexact HIn_g2R
      isplitr
      · iexact HIs_g2L
      isplitr
      · iexact HIr_g2L
      iexact HIn_g2L
    isplitr
    · iexact HIbn
    iexact HIbp
  isplitr
  · iexact Hlev
  isplitl [HO]
  · iexact HO
  isplitl [Has_o0R Har_o0R Hcs_o0R Hc_o0R Has_l0R Har_l0R Hcs_l0R Hc_l0R Has_o0L Har_o0L Hcs_o0L Hc_o0L Has_l0L Har_l0L Hcs_l0L Hc_l0L]
  · isplitl [Has_o0R Har_o0R Hcs_o0R Hc_o0R]
    · isplitl [Has_o0R]
      · iexact Has_o0R
      isplitl [Har_o0R]
      · iexact Har_o0R
      isplitl [Hcs_o0R]
      · iexact Hcs_o0R
      iexact Hc_o0R
    isplitl [Has_l0R Har_l0R Hcs_l0R Hc_l0R]
    · isplitl [Has_l0R]
      · iexact Has_l0R
      isplitl [Har_l0R]
      · iexact Har_l0R
      isplitl [Hcs_l0R]
      · iexact Hcs_l0R
      iexact Hc_l0R
    isplitl [Has_o0L Har_o0L Hcs_o0L Hc_o0L]
    · isplitl [Has_o0L]
      · iexact Has_o0L
      isplitl [Har_o0L]
      · iexact Har_o0L
      isplitl [Hcs_o0L]
      · iexact Hcs_o0L
      iexact Hc_o0L
    isplitl [Has_l0L]
    · iexact Has_l0L
    isplitl [Har_l0L]
    · iexact Har_l0L
    isplitl [Hcs_l0L]
    · iexact Hcs_l0L
    iexact Hc_l0L
  isplitl [Has_o1R Har_o1R Hts_o1R Htn_o1R Hc_o1R HnO1 Has_o1L Har_o1L Hts_o1L Htn_o1L Hc_o1L HpO1 Has_l1R Har_l1R Hts_l1R Htn_l1R Hc_l1R HnL1 Has_l1L Har_l1L Hts_l1L Htn_l1L Hc_l1L HpL1]
  · isplitl [Has_o1R Har_o1R Hts_o1R Htn_o1R Hc_o1R HnO1]
    · isplitl [Has_o1R]
      · iexact Has_o1R
      isplitl [Har_o1R]
      · iexact Har_o1R
      isplitl [Hts_o1R]
      · iexact Hts_o1R
      isplitl [Htn_o1R]
      · iexact Htn_o1R
      isplitl [Hc_o1R]
      · iexact Hc_o1R
      isplitl [HnO1]
      · iexact HnO1
      isplitr
      · iexact Hrs_o1R
      iexact HnrO1
    isplitl [Has_o1L Har_o1L Hts_o1L Htn_o1L Hc_o1L HpO1]
    · isplitl [Has_o1L]
      · iexact Has_o1L
      isplitl [Har_o1L]
      · iexact Har_o1L
      isplitl [Hts_o1L]
      · iexact Hts_o1L
      isplitl [Htn_o1L]
      · iexact Htn_o1L
      isplitl [Hc_o1L]
      · iexact Hc_o1L
      isplitl [HpO1]
      · iexact HpO1
      isplitr
      · iexact Hrs_o1L
      iexact HprO1
    isplitl [Has_l1R Har_l1R Hts_l1R Htn_l1R Hc_l1R HnL1]
    · isplitl [Has_l1R]
      · iexact Has_l1R
      isplitl [Har_l1R]
      · iexact Har_l1R
      isplitl [Hts_l1R]
      · iexact Hts_l1R
      isplitl [Htn_l1R]
      · iexact Htn_l1R
      isplitl [Hc_l1R]
      · iexact Hc_l1R
      isplitl [HnL1]
      · iexact HnL1
      isplitr
      · iexact Hrs_l1R
      iexact HnrL1
    isplitl [Has_l1L]
    · iexact Has_l1L
    isplitl [Har_l1L]
    · iexact Har_l1L
    isplitl [Hts_l1L]
    · iexact Hts_l1L
    isplitl [Htn_l1L]
    · iexact Htn_l1L
    isplitl [Hc_l1L]
    · iexact Hc_l1L
    isplitl [HpL1]
    · iexact HpL1
    isplitr
    · iexact Hrs_l1L
    iexact HprL1
  isplitl [HhO3f HhO3t]
  · iexists _
    isplitl [HhO3f]
    · iexact HhO3f
    isplitl [HhO3t]
    · iexact HhO3t
    · ipureintro; exact hTO3
  isplitl [HhL3f HhL3t]
  · iexists _
    isplitl [HhL3f]
    · iexact HhL3f
    isplitl [HhL3t]
    · iexact HhL3t
    · ipureintro; exact hTL3
  isplitl [Hatb]
  · iexact Hatb
  isplitl [Has_o2R Har_o2R Hts_o2R Htn_o2R Hc_o2R Has_o2L Har_o2L Hts_o2L Htn_o2L Hc_o2L Has_l2R Har_l2R Hts_l2R Htn_l2R Hc_l2R Has_l2L Har_l2L Hts_l2L Htn_l2L Hc_l2L]
  · isplitl [Has_o2R Har_o2R Hts_o2R Htn_o2R Hc_o2R]
    · isplitl [Has_o2R]
      · iexact Has_o2R
      isplitl [Har_o2R]
      · iexact Har_o2R
      isplitl [Hts_o2R]
      · iexact Hts_o2R
      isplitl [Htn_o2R]
      · iexact Htn_o2R
      isplitl [Hc_o2R]
      · iexact Hc_o2R
      isplitr
      · iexact Hrs_o2R
      iexact Hrr_o2R
    isplitl [Has_o2L Har_o2L Hts_o2L Htn_o2L Hc_o2L]
    · isplitl [Has_o2L]
      · iexact Has_o2L
      isplitl [Har_o2L]
      · iexact Har_o2L
      isplitl [Hts_o2L]
      · iexact Hts_o2L
      isplitl [Htn_o2L]
      · iexact Htn_o2L
      isplitl [Hc_o2L]
      · iexact Hc_o2L
      isplitr
      · iexact Hrs_o2L
      iexact Hrr_o2L
    isplitl [Has_l2R Har_l2R Hts_l2R Htn_l2R Hc_l2R]
    · isplitl [Has_l2R]
      · iexact Has_l2R
      isplitl [Har_l2R]
      · iexact Har_l2R
      isplitl [Hts_l2R]
      · iexact Hts_l2R
      isplitl [Htn_l2R]
      · iexact Htn_l2R
      isplitl [Hc_l2R]
      · iexact Hc_l2R
      isplitr
      · iexact Hrs_l2R
      iexact Hrr_l2R
    isplitl [Has_l2L]
    · iexact Has_l2L
    isplitl [Har_l2L]
    · iexact Har_l2L
    isplitl [Hts_l2L]
    · iexact Hts_l2L
    isplitl [Htn_l2L]
    · iexact Htn_l2L
    isplitl [Hc_l2L]
    · iexact Hc_l2L
    isplitr
    · iexact Hrs_l2L
    iexact Hrr_l2L
  isplitl [Has_g0R Har_g0R Hts_g0R Htn_g0R Hc_g0R Has_g0L Har_g0L Hts_g0L Htn_g0L Hc_g0L Has_g1R Har_g1R Hts_g1R Htn_g1R Hc_g1R Has_g1L Har_g1L Hts_g1L Htn_g1L Hc_g1L Has_g2R Har_g2R Hts_g2R Htn_g2R Hc_g2R Has_g2L Har_g2L Hts_g2L Htn_g2L Hc_g2L]
  · isplitl [Has_g0R Har_g0R Hts_g0R Htn_g0R Hc_g0R]
    · isplitl [Has_g0R]
      · iexact Has_g0R
      isplitl [Har_g0R]
      · iexact Har_g0R
      isplitl [Hts_g0R]
      · iexact Hts_g0R
      isplitl [Htn_g0R]
      · iexact Htn_g0R
      isplitl [Hc_g0R]
      · iexact Hc_g0R
      isplitr
      · iexact Hrs_g0R
      iexact Hrr_g0R
    isplitl [Has_g0L Har_g0L Hts_g0L Htn_g0L Hc_g0L]
    · isplitl [Has_g0L]
      · iexact Has_g0L
      isplitl [Har_g0L]
      · iexact Har_g0L
      isplitl [Hts_g0L]
      · iexact Hts_g0L
      isplitl [Htn_g0L]
      · iexact Htn_g0L
      isplitl [Hc_g0L]
      · iexact Hc_g0L
      isplitr
      · iexact Hrs_g0L
      iexact Hrr_g0L
    isplitl [Has_g1R Har_g1R Hts_g1R Htn_g1R Hc_g1R]
    · isplitl [Has_g1R]
      · iexact Has_g1R
      isplitl [Har_g1R]
      · iexact Har_g1R
      isplitl [Hts_g1R]
      · iexact Hts_g1R
      isplitl [Htn_g1R]
      · iexact Htn_g1R
      isplitl [Hc_g1R]
      · iexact Hc_g1R
      isplitr
      · iexact Hrs_g1R
      iexact Hrr_g1R
    isplitl [Has_g1L Har_g1L Hts_g1L Htn_g1L Hc_g1L]
    · isplitl [Has_g1L]
      · iexact Has_g1L
      isplitl [Har_g1L]
      · iexact Har_g1L
      isplitl [Hts_g1L]
      · iexact Hts_g1L
      isplitl [Htn_g1L]
      · iexact Htn_g1L
      isplitl [Hc_g1L]
      · iexact Hc_g1L
      isplitr
      · iexact Hrs_g1L
      iexact Hrr_g1L
    isplitl [Has_g2R Har_g2R Hts_g2R Htn_g2R Hc_g2R]
    · isplitl [Has_g2R]
      · iexact Has_g2R
      isplitl [Har_g2R]
      · iexact Har_g2R
      isplitl [Hts_g2R]
      · iexact Hts_g2R
      isplitl [Htn_g2R]
      · iexact Htn_g2R
      isplitl [Hc_g2R]
      · iexact Hc_g2R
      isplitr
      · iexact Hrs_g2R
      iexact Hrr_g2R
    isplitl [Has_g2L]
    · iexact Has_g2L
    isplitl [Har_g2L]
    · iexact Har_g2L
    isplitl [Hts_g2L]
    · iexact Hts_g2L
    isplitl [Htn_g2L]
    · iexact Htn_g2L
    isplitl [Hc_g2L]
    · iexact Hc_g2L
    isplitr
    · iexact Hrs_g2L
    iexact Hrr_g2L
  isplitl [HnO2 HnL2 HpO2 HpL2 HnG0 HnG1 HnG2 HpG0 HpG1 HpG2]
  · isplitl [HnO2]
    · iexact HnO2
    isplitl [HnL2]
    · iexact HnL2
    isplitl [HpO2]
    · iexact HpO2
    isplitl [HpL2]
    · iexact HpL2
    isplitl [HnG0]
    · iexact HnG0
    isplitl [HnG1]
    · iexact HnG1
    isplitl [HnG2]
    · iexact HnG2
    isplitl [HpG0]
    · iexact HpG0
    isplitl [HpG1]
    · iexact HpG1
    isplitl [HpG2]
    · iexact HpG2
    isplitr
    · iexact HnrO2
    isplitr
    · iexact HnrL2
    isplitr
    · iexact HprO2
    isplitr
    · iexact HprL2
    isplitr
    · iexact HnrG0
    isplitr
    · iexact HnrG1
    isplitr
    · iexact HnrG2
    isplitr
    · iexact HprG0
    isplitr
    · iexact HprG1
    iexact HprG2
  isplitl [Hx]
  · iexact Hx
  isplitl [Hwq]
  · iexact Hwq
  isplitl [Hwo]
  · iexact Hwo
  isplitl [Hout]
  · iexists _; iexact Hout
  isplitl [Hwqb]
  · iexact Hwqb
  isplitl [Hwob]
  · iexact Hwob
  isplitl [Hq2]
  · iexists _; iexact Hq2
  isplitl [Hpt]
  · iexists _; iexact Hpt
  isplitl [Hkvb]
  · iexists _; iexact Hkvb
  isplitl [Hbat1]
  · iexists f5, vals
    isplitr
    · ipureintro; exact hvals
    iexact Hbat1
  isplitl [Hkv00 Hkv10 Hkv01 Hkv11 HsK00 HsV00 HsK01 HsV01 Hcs0]
  · isplitl [Hkv00 Hkv10 Hkv01 Hkv11]
    · isplitl [Hkv00]
      · iexact Hkv00
      isplitl [Hkv10]
      · iexact Hkv10
      isplitl [Hkv01]
      · iexact Hkv01
      iexact Hkv11
    isplitl [HsK00 HsV00 HsK01 HsV01]
    · isplitl [HsK00]
      · iexact HsK00
      isplitl [HsV00]
      · iexact HsV00
      isplitl [HsK01]
      · iexact HsK01
      iexact HsV01
    iexact Hcs0
  isplitl [Hbat2_dst0 Hbat2_dst1 Hbat2_dst2 Hbat2_dst3 Hbat2_src0 Hbat2_src1 Hbat2_src2 Hbat2_src3 Hbat2]
  · isplitl [Hbat2_dst0 Hbat2_dst1 Hbat2_dst2 Hbat2_dst3]
    · isplitl [Hbat2_dst0]
      · iexists _; iexact Hbat2_dst0
      isplitl [Hbat2_dst1]
      · iexists _; iexact Hbat2_dst1
      isplitl [Hbat2_dst2]
      · iexists _; iexact Hbat2_dst2
      iexists _; iexact Hbat2_dst3
    isplitl [Hbat2_src0 Hbat2_src1 Hbat2_src2 Hbat2_src3]
    · isplitl [Hbat2_src0]
      · iexact Hbat2_src0
      isplitl [Hbat2_src1]
      · iexact Hbat2_src1
      isplitl [Hbat2_src2]
      · iexact Hbat2_src2
      iexact Hbat2_src3
    iexact Hbat2
  isplitl [Hbat3_dst0 Hbat3_dst1 Hbat3_dst2 Hbat3_dst3 Hbat3_src0 Hbat3_src1 Hbat3_src2 Hbat3_src3 Hbat3]
  · isplitl [Hbat3_dst0 Hbat3_dst1 Hbat3_dst2 Hbat3_dst3]
    · isplitl [Hbat3_dst0]
      · iexists _; iexact Hbat3_dst0
      isplitl [Hbat3_dst1]
      · iexists _; iexact Hbat3_dst1
      isplitl [Hbat3_dst2]
      · iexists _; iexact Hbat3_dst2
      iexists _; iexact Hbat3_dst3
    isplitl [Hbat3_src0 Hbat3_src1 Hbat3_src2 Hbat3_src3]
    · isplitl [Hbat3_src0]
      · iexact Hbat3_src0
      isplitl [Hbat3_src1]
      · iexact Hbat3_src1
      isplitl [Hbat3_src2]
      · iexact Hbat3_src2
      iexact Hbat3_src3
    iexact Hbat3
  isplitl [Hkept]
  · iexact Hkept
  isplitl [HhO0t]
  · iexists _
    isplitl [HhO0t]
    · iexact HhO0t
    · ipureintro; exact fun k d i => (congrArg (fun r => TO0 (ix3 r d i)) (Fin.ext (by show halfRow c 0 true + k.val = 8 * c.val + (k.val + 4); rw [halfRow_true, blkRow_0]; omega))).trans (hTO0 ⟨k.val + 4, by omega⟩ d i)
  isplitl [HhL0t]
  · iexists _
    isplitl [HhL0t]
    · iexact HhL0t
    · ipureintro; exact fun k i => (congrArg (fun r => TL0 (ix3 r (0 : Fin 1) i)) (Fin.ext (by show halfRow c 0 true + k.val = 8 * c.val + (k.val + 4); rw [halfRow_true, blkRow_0]; omega))).trans (hTL0 ⟨k.val + 4, by omega⟩ i)
  isplitl [HhO2f]
  · iexists _
    isplitl [HhO2f]
    · iexact HhO2f
    · ipureintro; exact fun k d i => (congrArg (fun r => TO2 (ix3 r d i)) (Fin.ext (by show halfRow c 2 false + k.val = 8 * ((c.val + 2) % 4) + k.val; rw [halfRow_false, blkRow_2]))).trans (hTO2 ⟨k.val, by omega⟩ d i)
  isplitl [HhL2f]
  · iexists _
    isplitl [HhL2f]
    · iexact HhL2f
    · ipureintro; exact fun k i => (congrArg (fun r => TL2 (ix3 r (0 : Fin 1) i)) (Fin.ext (by show halfRow c 2 false + k.val = 8 * ((c.val + 2) % 4) + k.val; rw [halfRow_false, blkRow_2]))).trans (hTL2 ⟨k.val, by omega⟩ i)
  isplitl [HbO1]
  · iexact HbO1
  isplitl [HbL1]
  · iexact HbL1
  iexists f23
  isplitl [Hg_ownR]
  · iexact Hg_ownR
  · iexact Hg_ownL

/-- Segment B of the body: from the cut before the first flash loop to the cut after the third. -/
theorem segB_ok (m : (ℓ : Loc nD τ sig) → Buf (Elt F) ℓ) (c : Dev nD) (K : Names) :
    ∀ (W : Waits sig Unit) (v2 v14 v25 : BitVec 32) (v26 : Sems sig S_) (v226 : FVec F S256x1024 .f32),
      At15 m c K W v26 v226 ⊢ wp frame (wpE (defs₀ (F := F)) 𝒱₀ (c : Thread nD τ) none) Set.univ
        (segBProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v26 v226)
        (fun _ => iprop(∃ W', At27 m c K W' (Rest27 m c) c v2 v14 v25)) :=
  fun W v2 v14 v25 v26 v226 => segB_run m c K W v2 v14 v25 v26 v226

/-- info: 'Cert.KernelIdeal.Proto.segB_ok' depends on axioms: [propext, Classical.choice, Quot.sound] -/
#guard_msgs in #print axioms segB_ok

end Cert.KernelIdeal.Proto
end
-- ==== Proof.TailVal.lean ====
/-
  Values the body's tail reads: a head's rows of the narrowed output weights, a head's tile of the full sums, and the
  device's own block of the gathered result after it is written.
-/
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.Bridge
import proofs.«900754_g7700000000000755_dist_attn_cross_gqa_kvseq_b4_sq256_skv1024_d1024_hq8_dh128_v7x_i4_f32_1_alg».proof.Proof.Within
import Idealize.ShloMosaic.Lib.WritesUnit

set_option maxRecDepth 16384

noncomputable section

namespace Cert.KernelIdeal.KFun

open Cert.KernelIdeal Cert.KernelIdeal.Gen Cert.KernelIdeal.Ring Cert.KernelIdeal.Proto
open Idealize.ShloMosaic Idealize.ShloMosaic.TcCoe Idealize.ShloMosaic.ValueIdx Idealize.SL.Sem

variable {F : FTy → Type} [FloatOps F]

section Rows
variable (c : Dev nD)

/-- One head's tile of the ring's numerators, read at the whole buffer: stage `a`, slot `b`. -/
theorem rsO_tile_read (off : Fin 4 → ℕ) (a b : ℕ) (hoff : off = ![a, b, 0, 0]) (inb : ∀ x, off x + S1x1x128x256.size x ≤ S3x8x128x256.size x)
    (f : Buf (Elt F) ((c : Thread nD τ).loc cc0_scratch2)) (s : S1x1x128x256.Idx) :
    View.readAt (Elt F) (Memref.whole cc0_scratch2 : Memref sig .tc .vmem S3x8x128x256 .bf16).view (Rect.unit (s := S3x8x128x256) off S1x1x128x256.size inb).toLoadRect f s
      = f (ix4 (⟨a, by subst hoff; have := inb 0; simp at this; omega⟩ : Fin 3) (⟨b, by subst hoff; have := inb 1; simp at this; omega⟩ : Fin 8)
          (⟨(s 2).val, (s 2).isLt⟩ : Fin 128) (⟨(s 3).val, (s 3).isLt⟩ : Fin 256)) := by
  subst hoff
  rw [View.readAt_apply, View.read_apply]
  show f _ = f _
  refine congrArg f (funext fun x => Fin.ext ?_)
  have h0 : (s 0).val < 1 := (s 0).isLt
  have h1 : (s 1).val < 1 := (s 1).isLt
  match x with
  | ⟨0, _⟩ => show a + 1 * (s 0).val = a; omega
  | ⟨1, _⟩ => show b + 1 * (s 1).val = b; omega
  | ⟨2, _⟩ => show 0 + 1 * (s 2).val = (s 2).val; omega
  | ⟨3, _⟩ => show 0 + 1 * (s 3).val = (s 3).val; omega

/-- One head's row of the ring's denominators. -/
theorem rsL_tile_read (off : Fin 4 → ℕ) (a b : ℕ) (hoff : off = ![a, b, 0, 0]) (inb : ∀ x, off x + S1x1x1x256.size x ≤ S3x8x1x256.size x)
    (f : Buf (Elt F) ((c : Thread nD τ).loc cc0_scratch3)) (s : S1x1x1x256.Idx) :
    View.readAt (Elt F) (Memref.whole cc0_scratch3 : Memref sig .tc .vmem S3x8x1x256 .f32).view (Rect.unit (s := S3x8x1x256) off S1x1x1x256.size inb).toLoadRect f s
      = f (ix4 (⟨a, by subst hoff; have := inb 0; simp at this; omega⟩ : Fin 3) (⟨b, by subst hoff; have := inb 1; simp at this; omega⟩ : Fin 8)
          (0 : Fin 1) (⟨(s 3).val, (s 3).isLt⟩ : Fin 256)) := by
  subst hoff
  rw [View.readAt_apply, View.read_apply]
  show f _ = f _
  refine congrArg f (funext fun x => Fin.ext ?_)
  have h0 : (s 0).val < 1 := (s 0).isLt
  have h1 : (s 1).val < 1 := (s 1).isLt
  have h2 : (s 2).val < 1 := (s 2).isLt
  match x with
  | ⟨0, _⟩ => show a + 1 * (s 0).val = a; omega
  | ⟨1, _⟩ => show b + 1 * (s 1).val = b; omega
  | ⟨2, _⟩ => show 0 + 1 * (s 2).val = 0; omega
  | ⟨3, _⟩ => show 0 + 1 * (s 3).val = (s 3).val; omega

end Rows

section Tail
variable (m : (ℓ : Loc nD τ sig) → Buf (Elt F) ℓ) (c : Dev nD)

/-! ### A head's 128 rows of the narrowed output weights -/

theorem woRows_load_1 :
    View.read (Elt F) ((Memref.whole cc0_scratch8 : Memref sig .tc .vmem S1024x1024 .bf16).access (Rect.unit (s := S1024x1024) ![128, 0] S128x1024.size inb_S1024x1024_S128x1024_128_0)) (wob m c)
      = woRows m c 1 := by
  funext s
  rw [View.read_apply]
  show (wob m c) _ = (wob m c) _
  refine congrArg _ (funext fun x => Fin.ext ?_)
  match x with
  | ⟨0, _⟩ => show 128 + 1 * (s 0).val = 1 * 128 + (s 0).val; omega
  | ⟨1, _⟩ => show 0 + 1 * (s 1).val = (s 1).val; omega

theorem woRows_load_2 :
    View.read (Elt F) ((Memref.whole cc0_scratch8 : Memref sig .tc .vmem S1024x1024 .bf16).access (Rect.unit (s := S1024x1024) ![256, 0] S128x1024.size inb_S1024x1024_S128x1024_256_0)) (wob m c)
      = woRows m c 2 := by
  funext s
  rw [View.read_apply]
  show (wob m c) _ = (wob m c) _
  refine congrArg _ (funext fun x => Fin.ext ?_)
  match x with
  | ⟨0, _⟩ => show 256 + 1 * (s 0).val = 2 * 128 + (s 0).val; omega
  | ⟨1, _⟩ => show 0 + 1 * (s 1).val = (s 1).val; omega

theorem woRows_load_3 :
    View.read (Elt F) ((Memref.whole cc0_scratch8 : Memref sig .tc .vmem S1024x1024 .bf16).access (Rect.unit (s := S1024x1024) ![384, 0] S128x1024.size inb_S1024x1024_S128x1024_384_0)) (wob m c)
      = woRows m c 3 := by
  funext s
  rw [View.read_apply]
  show (wob m c) _ = (wob m c) _
  refine congrArg _ (funext fun x => Fin.ext ?_)
  match x with
  | ⟨0, _⟩ => show 384 + 1 * (s 0).val = 3 * 128 + (s 0).val; omega
  | ⟨1, _⟩ => show 0 + 1 * (s 1).val = (s 1).val; omega

theorem woRows_load_4 :
    View.read (Elt F) ((Memref.whole cc0_scratch8 : Memref sig .tc .vmem S1024x1024 .bf16).access (Rect.unit (s := S1024x1024) ![512, 0] S128x1024.size inb_S1024x1024_S128x1024_512_0)) (wob m c)
      = woRows m c 4 := by
  funext s
  rw [View.read_apply]
  show (wob m c) _ = (wob m c) _
  refine congrArg _ (funext fun x => Fin.ext ?_)
  match x with
  | ⟨0, _⟩ => show 512 + 1 * (s 0).val = 4 * 128 + (s 0).val; omega
  | ⟨1, _⟩ => show 0 + 1 * (s 1).val = (s 1).val; omega

theorem woRows_load_5 :
    View.read (Elt F) ((Memref.whole cc0_scratch8 : Memref sig .tc .vmem S1024x1024 .bf16).access (Rect.unit (s := S1024x1024) ![640, 0] S128x1024.size inb_S1024x1024_S128x1024_640_0)) (wob m c)
      = woRows m c 5 := by
  funext s
  rw [View.read_apply]
  show (wob m c) _ = (wob m c) _
  refine congrArg _ (funext fun x => Fin.ext ?_)
  match x with
  | ⟨0, _⟩ => show 640 + 1 * (s 0).val = 5 * 128 + (s 0).val; omega
  | ⟨1, _⟩ => show 0 + 1 * (s 1).val = (s 1).val; omega

theorem woRows_load_6 :
    View.read (Elt F) ((Memref.whole cc0_scratch8 : Memref sig .tc .vmem S1024x1024 .bf16).access (Rect.unit (s := S1024x1024) ![768, 0] S128x1024.size inb_S1024x1024_S128x1024_768_0)) (wob m c)
      = woRows m c 6 := by
  funext s
  rw [View.read_apply]
  show (wob m c) _ = (wob m c) _
  refine congrArg _ (funext fun x => Fin.ext ?_)
  match x with
  | ⟨0, _⟩ => show 768 + 1 * (s 0).val = 6 * 128 + (s 0).val; omega
  | ⟨1, _⟩ => show 0 + 1 * (s 1).val = (s 1).val; omega

theorem woRows_load_7 :
    View.read (Elt F) ((Memref.whole cc0_scratch8 : Memref sig .tc .vmem S1024x1024 .bf16).access (Rect.unit (s := S1024x1024) ![896, 0] S128x1024.size inb_S1024x1024_S128x1024_896_0)) (wob m c)
      = woRows m c 7 := by
  funext s
  rw [View.read_apply]
  show (wob m c) _ = (wob m c) _
  refine congrArg _ (funext fun x => Fin.ext ?_)
  match x with
  | ⟨0, _⟩ => show 896 + 1 * (s 0).val = 7 * 128 + (s 0).val; omega
  | ⟨1, _⟩ => show 0 + 1 * (s 1).val = (s 1).val; omega

/-! ### A head's tile of the full sums -/

theorem rsO_load_1 (f : Buf (Elt F) ((c : Thread nD τ).loc cc0_scratch2))
    (hf : (dstO 2 false).view.read (Elt F) f = fun t => voC m 3 c false (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 1, 0, 0] S1x1x128x256.size inb_S3x8x128x256_S1x1x128x256_2_1_0_0).toLoadRect f
      = rsO m c 1 := by
  funext s
  rw [rsO_tile_read c _ 2 1 rfl]
  have := congrFun hf (ix3 (1 : Fin 4) (⟨(s 2).val, (s 2).isLt⟩ : Fin 128) (⟨(s 3).val, (s 3).isLt⟩ : Fin 256))
  rw [dstO_read_2f c] at this
  exact this
theorem rsL_load_1 (f : Buf (Elt F) ((c : Thread nD τ).loc cc0_scratch3))
    (hf : (dstL 2 false).view.read (Elt F) f = fun t => vlC m 3 c false (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 1, 0, 0] S1x1x1x256.size inb_S3x8x1x256_S1x1x1x256_2_1_0_0).toLoadRect f
      = rsL m c 1 := by
  funext s
  rw [rsL_tile_read c _ 2 1 rfl]
  have := congrFun hf (ix3 (1 : Fin 4) (0 : Fin 1) (⟨(s 3).val, (s 3).isLt⟩ : Fin 256))
  rw [dstL_read_2f c] at this
  exact this

theorem rsO_load_2 (f : Buf (Elt F) ((c : Thread nD τ).loc cc0_scratch2))
    (hf : (dstO 2 false).view.read (Elt F) f = fun t => voC m 3 c false (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 2, 0, 0] S1x1x128x256.size inb_S3x8x128x256_S1x1x128x256_2_2_0_0).toLoadRect f
      = rsO m c 2 := by
  funext s
  rw [rsO_tile_read c _ 2 2 rfl]
  have := congrFun hf (ix3 (2 : Fin 4) (⟨(s 2).val, (s 2).isLt⟩ : Fin 128) (⟨(s 3).val, (s 3).isLt⟩ : Fin 256))
  rw [dstO_read_2f c] at this
  exact this
theorem rsL_load_2 (f : Buf (Elt F) ((c : Thread nD τ).loc cc0_scratch3))
    (hf : (dstL 2 false).view.read (Elt F) f = fun t => vlC m 3 c false (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 2, 0, 0] S1x1x1x256.size inb_S3x8x1x256_S1x1x1x256_2_2_0_0).toLoadRect f
      = rsL m c 2 := by
  funext s
  rw [rsL_tile_read c _ 2 2 rfl]
  have := congrFun hf (ix3 (2 : Fin 4) (0 : Fin 1) (⟨(s 3).val, (s 3).isLt⟩ : Fin 256))
  rw [dstL_read_2f c] at this
  exact this

theorem rsO_load_3 (f : Buf (Elt F) ((c : Thread nD τ).loc cc0_scratch2))
    (hf : (dstO 2 false).view.read (Elt F) f = fun t => voC m 3 c false (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 3, 0, 0] S1x1x128x256.size inb_S3x8x128x256_S1x1x128x256_2_3_0_0).toLoadRect f
      = rsO m c 3 := by
  funext s
  rw [rsO_tile_read c _ 2 3 rfl]
  have := congrFun hf (ix3 (3 : Fin 4) (⟨(s 2).val, (s 2).isLt⟩ : Fin 128) (⟨(s 3).val, (s 3).isLt⟩ : Fin 256))
  rw [dstO_read_2f c] at this
  exact this
theorem rsL_load_3 (f : Buf (Elt F) ((c : Thread nD τ).loc cc0_scratch3))
    (hf : (dstL 2 false).view.read (Elt F) f = fun t => vlC m 3 c false (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 3, 0, 0] S1x1x1x256.size inb_S3x8x1x256_S1x1x1x256_2_3_0_0).toLoadRect f
      = rsL m c 3 := by
  funext s
  rw [rsL_tile_read c _ 2 3 rfl]
  have := congrFun hf (ix3 (3 : Fin 4) (0 : Fin 1) (⟨(s 3).val, (s 3).isLt⟩ : Fin 256))
  rw [dstL_read_2f c] at this
  exact this

theorem rsO_load_4 (f : Buf (Elt F) ((c : Thread nD τ).loc cc0_scratch2))
    (hf : (dstO 2 true).view.read (Elt F) f = fun t => voC m 3 c true (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 4, 0, 0] S1x1x128x256.size inb_S3x8x128x256_S1x1x128x256_2_4_0_0).toLoadRect f
      = rsO m c 4 := by
  funext s
  rw [rsO_tile_read c _ 2 4 rfl]
  have := congrFun hf (ix3 (0 : Fin 4) (⟨(s 2).val, (s 2).isLt⟩ : Fin 128) (⟨(s 3).val, (s 3).isLt⟩ : Fin 256))
  rw [dstO_read_2t c] at this
  exact this
theorem rsL_load_4 (f : Buf (Elt F) ((c : Thread nD τ).loc cc0_scratch3))
    (hf : (dstL 2 true).view.read (Elt F) f = fun t => vlC m 3 c true (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 4, 0, 0] S1x1x1x256.size inb_S3x8x1x256_S1x1x1x256_2_4_0_0).toLoadRect f
      = rsL m c 4 := by
  funext s
  rw [rsL_tile_read c _ 2 4 rfl]
  have := congrFun hf (ix3 (0 : Fin 4) (0 : Fin 1) (⟨(s 3).val, (s 3).isLt⟩ : Fin 256))
  rw [dstL_read_2t c] at this
  exact this

theorem rsO_load_5 (f : Buf (Elt F) ((c : Thread nD τ).loc cc0_scratch2))
    (hf : (dstO 2 true).view.read (Elt F) f = fun t => voC m 3 c true (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 5, 0, 0] S1x1x128x256.size inb_S3x8x128x256_S1x1x128x256_2_5_0_0).toLoadRect f
      = rsO m c 5 := by
  funext s
  rw [rsO_tile_read c _ 2 5 rfl]
  have := congrFun hf (ix3 (1 : Fin 4) (⟨(s 2).val, (s 2).isLt⟩ : Fin 128) (⟨(s 3).val, (s 3).isLt⟩ : Fin 256))
  rw [dstO_read_2t c] at this
  exact this
theorem rsL_load_5 (f : Buf (Elt F) ((c : Thread nD τ).loc cc0_scratch3))
    (hf : (dstL 2 true).view.read (Elt F) f = fun t => vlC m 3 c true (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 5, 0, 0] S1x1x1x256.size inb_S3x8x1x256_S1x1x1x256_2_5_0_0).toLoadRect f
      = rsL m c 5 := by
  funext s
  rw [rsL_tile_read c _ 2 5 rfl]
  have := congrFun hf (ix3 (1 : Fin 4) (0 : Fin 1) (⟨(s 3).val, (s 3).isLt⟩ : Fin 256))
  rw [dstL_read_2t c] at this
  exact this

theorem rsO_load_6 (f : Buf (Elt F) ((c : Thread nD τ).loc cc0_scratch2))
    (hf : (dstO 2 true).view.read (Elt F) f = fun t => voC m 3 c true (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 6, 0, 0] S1x1x128x256.size inb_S3x8x128x256_S1x1x128x256_2_6_0_0).toLoadRect f
      = rsO m c 6 := by
  funext s
  rw [rsO_tile_read c _ 2 6 rfl]
  have := congrFun hf (ix3 (2 : Fin 4) (⟨(s 2).val, (s 2).isLt⟩ : Fin 128) (⟨(s 3).val, (s 3).isLt⟩ : Fin 256))
  rw [dstO_read_2t c] at this
  exact this
theorem rsL_load_6 (f : Buf (Elt F) ((c : Thread nD τ).loc cc0_scratch3))
    (hf : (dstL 2 true).view.read (Elt F) f = fun t => vlC m 3 c true (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 6, 0, 0] S1x1x1x256.size inb_S3x8x1x256_S1x1x1x256_2_6_0_0).toLoadRect f
      = rsL m c 6 := by
  funext s
  rw [rsL_tile_read c _ 2 6 rfl]
  have := congrFun hf (ix3 (2 : Fin 4) (0 : Fin 1) (⟨(s 3).val, (s 3).isLt⟩ : Fin 256))
  rw [dstL_read_2t c] at this
  exact this

theorem rsO_load_7 (f : Buf (Elt F) ((c : Thread nD τ).loc cc0_scratch2))
    (hf : (dstO 2 true).view.read (Elt F) f = fun t => voC m 3 c true (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 7, 0, 0] S1x1x128x256.size inb_S3x8x128x256_S1x1x128x256_2_7_0_0).toLoadRect f
      = rsO m c 7 := by
  funext s
  rw [rsO_tile_read c _ 2 7 rfl]
  have := congrFun hf (ix3 (3 : Fin 4) (⟨(s 2).val, (s 2).isLt⟩ : Fin 128) (⟨(s 3).val, (s 3).isLt⟩ : Fin 256))
  rw [dstO_read_2t c] at this
  exact this
theorem rsL_load_7 (f : Buf (Elt F) ((c : Thread nD τ).loc cc0_scratch3))
    (hf : (dstL 2 true).view.read (Elt F) f = fun t => vlC m 3 c true (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 7, 0, 0] S1x1x1x256.size inb_S3x8x1x256_S1x1x1x256_2_7_0_0).toLoadRect f
      = rsL m c 7 := by
  funext s
  rw [rsL_tile_read c _ 2 7 rfl]
  have := congrFun hf (ix3 (3 : Fin 4) (0 : Fin 1) (⟨(s 3).val, (s 3).isLt⟩ : Fin 256))
  rw [dstL_read_2t c] at this
  exact this

/-! ### The device's own block of the gathered result, once written -/

theorem own_rows (fg : Buf (Elt F) ((c : Thread nD τ).loc cc0_scratch23)) (P : Vec F S1x256x1024 .bf16) (i : Fin 256) (n : Fin 1024) :
    ((agB.slice (rOwn c) (fun _ => rfl) : Memref sig .tc .vmem S1x256x1024 .bf16).view.write (Elt F) fg P Finset.univ)
        (ix3 (⟨(c.val + 1) % 4, Nat.mod_lt _ (by decide)⟩ : Fin 4) i n)
      = P (ix3 0 i n) := by
  refine Eq.trans (congrFun (View.read_whole (Val := Elt F) cc0_scratch23 _).symm (ix3 (⟨(c.val + 1) % 4, Nat.mod_lt _ (by decide)⟩ : Fin 4) i n)) ?_
  show agB.view.read (Elt F) (agB.view.writes (Elt F) fg [⟨rOwn c, P⟩]) _ = _
  exact View.read_writes_cons_unit_of_mem (s := S4x256x1024) agB.view fg (k0_off24_inb c 0) P [] (ix3 (⟨(c.val + 1) % 4, Nat.mod_lt _ (by decide)⟩ : Fin 4) i n) (ix3 0 i n) (off24_eq c 0) (fun a => by
    match a with
    | ⟨0, _⟩ => show (c.val + 1) % 4 = (c.val + (1 + 0)) % 4 + 0; omega
    | ⟨1, _⟩ => show i.val = 0 + i.val; omega
    | ⟨2, _⟩ => show n.val = 0 + n.val; omega)

end Tail

/-! ### The result block at the end -/

section Kout
variable (m : (ℓ : Loc nD τ sig) → Buf (Elt F) ℓ) (c : Dev nD)

/-- A block of the gathered result as the final copies load it. -/
theorem agb_block_load (G : Buf (Elt F) ((c : Thread nD τ).loc cc0_scratch23))
    (hG : ∀ (b : Fin 4) (u : Fin 1) (i : Fin 256) (n : Fin 1024), G (ix3 b i n) = agbFin m c b (ix3 u i n))
    (b : Fin 4) (off : Fin 3 → ℕ) (hoff : off = ![b.val, 0, 0]) (inb : ∀ a, off a + S1x256x1024.size a ≤ S4x256x1024.size a) :
    View.readAt (Elt F) (Memref.whole cc0_scratch23 : Memref sig .tc .vmem S4x256x1024 .bf16).view (Rect.unit (s := S4x256x1024) off S1x256x1024.size inb).toLoadRect G
      = agbFin m c b := by
  subst hoff
  funext s
  rw [View.readAt_apply, View.read_apply]
  show G _ = _
  have h0 : (s 0).val < 1 := (s 0).isLt
  refine (congrArg G (funext fun x => Fin.ext ?_)).trans ((hG b (s 0) (⟨(s 1).val, (s 1).isLt⟩ : Fin 256) (⟨(s 2).val, (s 2).isLt⟩ : Fin 1024)).trans (congrArg _ (eq_ix3 s).symm))
  match x with
  | ⟨0, _⟩ => show b.val + 1 * (s 0).val = b.val; omega
  | ⟨1, _⟩ => show 0 + 1 * (s 1).val = (s 1).val; omega
  | ⟨2, _⟩ => show 0 + 1 * (s 2).val = (s 2).val; omega

set_option maxHeartbeats 4000000 in
/-- The four final copies cover the result buffer block by block, so after them it is the device's result block, whatever
    it held before. -/
theorem kout_final (g3 : Buf (Elt F) ((c : Thread nD τ).loc cc0_stg3_0)) (G : Buf (Elt F) ((c : Thread nD τ).loc cc0_scratch23))
    (rest : List (View.Piece (Elt F) S4x256x1024 .f32))
    (hG : ∀ (b : Fin 4) (u : Fin 1) (i : Fin 256) (n : Fin 1024), G (ix3 b i n) = agbFin m c b (ix3 u i n)) :
    (Memref.whole cc0_stg3_0 : Memref sig .tc .vmem S4x256x1024 .f32).view.writes (Elt F) g3
        (⟨(Rect.unit (s := S4x256x1024) ![3, 0, 0] S1x256x1024.size inb_S4x256x1024_S1x256x1024_3_0_0), k0_pay4 (View.readAt (Elt F) (Memref.whole cc0_scratch23 : Memref sig .tc .vmem S4x256x1024 .bf16).view (Rect.unit (s := S4x256x1024) ![3, 0, 0] S1x256x1024.size inb_S4x256x1024_S1x256x1024_3_0_0).toLoadRect G)⟩ :: ⟨(Rect.unit (s := S4x256x1024) ![2, 0, 0] S1x256x1024.size inb_S4x256x1024_S1x256x1024_2_0_0), k0_pay3 (View.readAt (Elt F) (Memref.whole cc0_scratch23 : Memref sig .tc .vmem S4x256x1024 .bf16).view (Rect.unit (s := S4x256x1024) ![2, 0, 0] S1x256x1024.size inb_S4x256x1024_S1x256x1024_2_0_0).toLoadRect G)⟩ :: ⟨(Rect.unit (s := S4x256x1024) ![1, 0, 0] S1x256x1024.size inb_S4x256x1024_S1x256x1024_1_0_0), k0_pay2 (View.readAt (Elt F) (Memref.whole cc0_scratch23 : Memref sig .tc .vmem S4x256x1024 .bf16).view (Rect.unit (s := S4x256x1024) ![1, 0, 0] S1x256x1024.size inb_S4x256x1024_S1x256x1024_1_0_0).toLoadRect G)⟩ :: ⟨(Rect.unit (s := S4x256x1024) ![0, 0, 0] S1x256x1024.size inb_S4x256x1024_S1x256x1024_0_0_0), k0_pay1 (k0_pay118 (View.readAt (Elt F) (Memref.whole cc0_scratch23 : Memref sig .tc .vmem S4x256x1024 .bf16).view (Rect.unit (s := S4x256x1024) ![0, 0, 0] S1x256x1024.size inb_S4x256x1024_S1x256x1024_0_0_0).toLoadRect G))⟩ :: rest)
      = Kout m c := by
  have hx : ∀ (b : Fin 4) (i : Fin 256) (n : Fin 1024), ∀ a : Fin 3, ((ix3 b i n) a).val = (![b.val, 0, 0] : Fin 3 → ℕ) a + ((ix3 (0 : Fin 1) i n) a).val := fun b i n a => by
    match a with
    | ⟨0, _⟩ => show b.val = b.val + 0; omega
    | ⟨1, _⟩ => show i.val = 0 + i.val; omega
    | ⟨2, _⟩ => show n.val = 0 + n.val; omega
  refine kout_of_blocks m c _ ?_ ?_ ?_ ?_
  · intro i n
    refine Eq.trans (congrFun (View.read_whole (Val := Elt F) cc0_stg3_0 _).symm (ix3 (0 : Fin 4) i n)) ?_
    show (Memref.whole cc0_stg3_0 : Memref sig .tc .vmem S4x256x1024 .f32).view.read (Elt F) _ _ = _
    rw [View.read_writes_cons_unit_of_not_mem _ _ inb_S4x256x1024_S1x256x1024_3_0_0 _ _ _ rfl 0 (Or.inl (by show 0 < 3; omega))]
    rw [View.read_writes_cons_unit_of_not_mem _ _ inb_S4x256x1024_S1x256x1024_2_0_0 _ _ _ rfl 0 (Or.inl (by show 0 < 2; omega))]
    rw [View.read_writes_cons_unit_of_not_mem _ _ inb_S4x256x1024_S1x256x1024_1_0_0 _ _ _ rfl 0 (Or.inl (by show 0 < 1; omega))]
    refine (View.read_writes_cons_unit_of_mem (s := S4x256x1024) (Memref.whole cc0_stg3_0 : Memref sig .tc .vmem S4x256x1024 .f32).view g3 inb_S4x256x1024_S1x256x1024_0_0_0 (k0_pay1 (k0_pay118 (View.readAt (Elt F) (Memref.whole cc0_scratch23 : Memref sig .tc .vmem S4x256x1024 .bf16).view (Rect.unit (s := S4x256x1024) ![0, 0, 0] S1x256x1024.size inb_S4x256x1024_S1x256x1024_0_0_0).toLoadRect G))) _ (ix3 (0 : Fin 4) i n) (ix3 0 i n) rfl (hx 0 i n)).trans ?_
    rw [agb_block_load m c G hG 0 ![0, 0, 0] rfl inb_S4x256x1024_S1x256x1024_0_0_0]
  · intro i n
    refine Eq.trans (congrFun (View.read_whole (Val := Elt F) cc0_stg3_0 _).symm (ix3 (1 : Fin 4) i n)) ?_
    show (Memref.whole cc0_stg3_0 : Memref sig .tc .vmem S4x256x1024 .f32).view.read (Elt F) _ _ = _
    rw [View.read_writes_cons_unit_of_not_mem _ _ inb_S4x256x1024_S1x256x1024_3_0_0 _ _ _ rfl 0 (Or.inl (by show 1 < 3; omega))]
    rw [View.read_writes_cons_unit_of_not_mem _ _ inb_S4x256x1024_S1x256x1024_2_0_0 _ _ _ rfl 0 (Or.inl (by show 1 < 2; omega))]
    refine (View.read_writes_cons_unit_of_mem (s := S4x256x1024) (Memref.whole cc0_stg3_0 : Memref sig .tc .vmem S4x256x1024 .f32).view g3 inb_S4x256x1024_S1x256x1024_1_0_0 (k0_pay2 (View.readAt (Elt F) (Memref.whole cc0_scratch23 : Memref sig .tc .vmem S4x256x1024 .bf16).view (Rect.unit (s := S4x256x1024) ![1, 0, 0] S1x256x1024.size inb_S4x256x1024_S1x256x1024_1_0_0).toLoadRect G)) _ (ix3 (1 : Fin 4) i n) (ix3 0 i n) rfl (hx 1 i n)).trans ?_
    rw [agb_block_load m c G hG 1 ![1, 0, 0] rfl inb_S4x256x1024_S1x256x1024_1_0_0]
  · intro i n
    refine Eq.trans (congrFun (View.read_whole (Val := Elt F) cc0_stg3_0 _).symm (ix3 (2 : Fin 4) i n)) ?_
    show (Memref.whole cc0_stg3_0 : Memref sig .tc .vmem S4x256x1024 .f32).view.read (Elt F) _ _ = _
    rw [View.read_writes_cons_unit_of_not_mem _ _ inb_S4x256x1024_S1x256x1024_3_0_0 _ _ _ rfl 0 (Or.inl (by show 2 < 3; omega))]
    refine (View.read_writes_cons_unit_of_mem (s := S4x256x1024) (Memref.whole cc0_stg3_0 : Memref sig .tc .vmem S4x256x1024 .f32).view g3 inb_S4x256x1024_S1x256x1024_2_0_0 (k0_pay3 (View.readAt (Elt F) (Memref.whole cc0_scratch23 : Memref sig .tc .vmem S4x256x1024 .bf16).view (Rect.unit (s := S4x256x1024) ![2, 0, 0] S1x256x1024.size inb_S4x256x1024_S1x256x1024_2_0_0).toLoadRect G)) _ (ix3 (2 : Fin 4) i n) (ix3 0 i n) rfl (hx 2 i n)).trans ?_
    rw [agb_block_load m c G hG 2 ![2, 0, 0] rfl inb_S4x256x1024_S1x256x1024_2_0_0]
  · intro i n
    refine Eq.trans (congrFun (View.read_whole (Val := Elt F) cc0_stg3_0 _).symm (ix3 (3 : Fin 4) i n)) ?_
    show (Memref.whole cc0_stg3_0 : Memref sig .tc .vmem S4x256x1024 .f32).view.read (Elt F) _ _ = _

    refine (View.read_writes_cons_unit_of_mem (s := S4x256x1024) (Memref.whole cc0_stg3_0 : Memref sig .tc .vmem S4x256x1024 .f32).view g3 inb_S4x256x1024_S1x256x1024_3_0_0 (k0_pay4 (View.readAt (Elt F) (Memref.whole cc0_scratch23 : Memref sig .tc .vmem S4x256x1024 .bf16).view (Rect.unit (s := S4x256x1024) ![3, 0, 0] S1x256x1024.size inb_S4x256x1024_S1x256x1024_3_0_0).toLoadRect G)) _ (ix3 (3 : Fin 4) i n) (ix3 0 i n) rfl (hx 3 i n)).trans ?_
    rw [agb_block_load m c G hG 3 ![3, 0, 0] rfl inb_S4x256x1024_S1x256x1024_3_0_0]

end Kout

end Cert.KernelIdeal.KFun
end
-- ==== Proof.BodyTail.lean ====
/-
  The body's tail: from the end of the last merge step to the return.

  From the cut (`AtTail`) device `c` adds the seven remaining heads' terms to block `c + 1` of the result buffer — each term
  reads a head's tile of the full sums out of the last hop's landing slices, which it holds as slices, and 128 rows of the
  narrowed `Wo` —, narrows the finished block into its own block of the gathered result (held as two halves: joined for the
  store, split again for the sends), and gathers: at each of three hops it sends its right neighbour the upper half it
  holds and its left neighbour the lower half — its own at hop 0, afterwards what it received the hop before, which is
  the same slice read on its own position — and waits for the two read-outs and the two arrivals; what it waits on sits
  below everything it still owes. The eight half blocks then make the gathered result whole, the four final copies widen
  it block by block into the result buffer, and the device hands back what the body owes: the scratch buffers, every
  semaphore of its own at zero, nothing owed, the staged arguments as it found them and its result block.
-/
import proofs.«900754_g7700000000000755_dist_attn_cross_gqa_kvseq_b4_sq256_skv1024_d1024_hq8_dh128_v7x_i4_f32_1_alg».proof.Proof.TailProg
import proofs.«900754_g7700000000000755_dist_attn_cross_gqa_kvseq_b4_sq256_skv1024_d1024_hq8_dh128_v7x_i4_f32_1_alg».proof.Proof.TailSpec
import proofs.«900754_g7700000000000755_dist_attn_cross_gqa_kvseq_b4_sq256_skv1024_d1024_hq8_dh128_v7x_i4_f32_1_alg».proof.Proof.TailVal
import proofs.«900754_g7700000000000755_dist_attn_cross_gqa_kvseq_b4_sq256_skv1024_d1024_hq8_dh128_v7x_i4_f32_1_alg».proof.Proof.KLaunch
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.OpSend
import proofs.«900754_g7700000000000755_dist_attn_cross_gqa_kvseq_b4_sq256_skv1024_d1024_hq8_dh128_v7x_i4_f32_1_alg».proof.Proof.OpWait
import proofs.«900754_g7700000000000755_dist_attn_cross_gqa_kvseq_b4_sq256_skv1024_d1024_hq8_dh128_v7x_i4_f32_1_alg».proof.Proof.Within
import proofs.«900754_g7700000000000755_dist_attn_cross_gqa_kvseq_b4_sq256_skv1024_d1024_hq8_dh128_v7x_i4_f32_1_alg».proof.Proof.Exit
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.Bridge
import proofs.«900754_g7700000000000755_dist_attn_cross_gqa_kvseq_b4_sq256_skv1024_d1024_hq8_dh128_v7x_i4_f32_1_alg».proof.Proof.LocSplit
import proofs.«900754_g7700000000000755_dist_attn_cross_gqa_kvseq_b4_sq256_skv1024_d1024_hq8_dh128_v7x_i4_f32_1_alg».proof.Proof.Split
import proofs.«900754_g7700000000000755_dist_attn_cross_gqa_kvseq_b4_sq256_skv1024_d1024_hq8_dh128_v7x_i4_f32_1_alg».proof.Proof.Gen.KernelIdeal.Skeleton
import proofs.«900754_g7700000000000755_dist_attn_cross_gqa_kvseq_b4_sq256_skv1024_d1024_hq8_dh128_v7x_i4_f32_1_alg».proof.Proof.Gen.KernelIdeal.Points
import proofs.«900754_g7700000000000755_dist_attn_cross_gqa_kvseq_b4_sq256_skv1024_d1024_hq8_dh128_v7x_i4_f32_1_alg».proof.Proof.Gen.KernelIdeal.Frame
import Idealize.ShloMosaic.Lib.Tactic

set_option maxRecDepth 16384

noncomputable section

namespace Cert.KernelIdeal.Proto

open Cert.KernelIdeal Cert.KernelIdeal.Gen Cert.KernelIdeal.Ring

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells' invariants, the own block, the forwarded slices -/

instance invs_persistent (V : Vals F) (K : Names) (c : Dev nD) : BI.Persistent (invs (F := F) V K c) := by unfold invs; infer_instance

theorem invs_cells (V : Vals F) (K : Names) (c : Dev nD) (k : Kind) (l : Bool) (h : Fin 3) :
    invs V K c ⊢ iprop(cellInv ER (ringRd V) (K (c, some (k, l, h, true))) (sendCell c k l h)
      ∗ cellInv ER (ringRd V) (K (c, some (k, l, h, false))) (recvCell c k l h)
      ∗ cellInv ER (ringRd V) (K (toDev c l, some (k, l, h, false))) (recvCell (toDev c l) k l h)) :=
  (show invs V K c ⊢ (bigSep Finset.univ fun x : Xfer => iprop(cellInv ER (ringRd V) (K (c, some (x.1, x.2.1, x.2.2, true))) (sendCell c x.1 x.2.1 x.2.2)
        ∗ cellInv ER (ringRd V) (K (c, some (x.1, x.2.1, x.2.2, false))) (recvCell c x.1 x.2.1 x.2.2)
        ∗ cellInv ER (ringRd V) (K (toDev c x.2.1, some (x.1, x.2.1, x.2.2, false))) (recvCell (toDev c x.2.1) x.1 x.2.1 x.2.2)) : sProp 𝕄) from by
    unfold invs; iintro ⟨-, H, -⟩; iexact H).trans (bigSep_elim (Finset.mem_univ ((k, l, h) : Xfer)))

/-- The own block through the memref of its rectangle: the same elements. -/
theorem own_spell (c : Dev nD) (X : Buf (Elt F) ((c : Thread nD τ).loc cc0_scratch23)) :
    ((c : Thread nD τ).loc cc0_scratch23 ↦[(rOwn c).set]{fullShare} X : sProp 𝕄)
      = ((agB.slice (rOwn c) (fun _ => rfl) : Memref sig .tc .vmem S1x256x1024 .bf16).view.loc (c : Thread nD τ)
          ↦[(agB.slice (rOwn c) (fun _ => rfl) : Memref sig .tc .vmem S1x256x1024 .bf16).view.set]{fullShare} X) := by
  have hset : ((agB.slice (rOwn c) (fun _ => rfl) : Memref sig .tc .vmem S1x256x1024 .bf16)).view.set = (rOwn c).set := View.set_slice_whole _ _
  rw [hset]

/-! The slice a device receives at one hop is the slice it sends at the next, spelt on its neighbour's position. -/
theorem agS_fwd_R0 (c : Dev nD) : agS (prv c) 0 false = agS c 1 false := by
  have h : k0_off67 (prv c) 0#32 = k0_off67 c 1#32 := by revert c; decide +kernel
  show (agB.slice (Rect.unit (s := S4x256x1024) (k0_off67 (prv c) 0#32) S1x128x1024.size (k0_off67_inb (prv c) 0)) (fun _ => rfl)).squeeze S128x1024 squeezes_S1x128x1024_S128x1024
    = (agB.slice (Rect.unit (s := S4x256x1024) (k0_off67 c 1#32) S1x128x1024.size (k0_off67_inb c 1)) (fun _ => rfl)).squeeze S128x1024 squeezes_S1x128x1024_S128x1024
  rw [slice_unit_congr agB _ _ h]
theorem agS_fwd_R1 (c : Dev nD) : agS (prv c) 1 false = agS c 2 false := by
  have h : k0_off67 (prv c) 1#32 = k0_off67 c 2#32 := by revert c; decide +kernel
  show (agB.slice (Rect.unit (s := S4x256x1024) (k0_off67 (prv c) 1#32) S1x128x1024.size (k0_off67_inb (prv c) 1)) (fun _ => rfl)).squeeze S128x1024 squeezes_S1x128x1024_S128x1024
    = (agB.slice (Rect.unit (s := S4x256x1024) (k0_off67 c 2#32) S1x128x1024.size (k0_off67_inb c 2)) (fun _ => rfl)).squeeze S128x1024 squeezes_S1x128x1024_S128x1024
  rw [slice_unit_congr agB _ _ h]
theorem agS_fwd_L0 (c : Dev nD) : agS (nxt c) 0 true = agS c 1 true := by
  have h : k0_off68 (nxt c) 0#32 = k0_off68 c 1#32 := by revert c; decide +kernel
  show (agB.slice (Rect.unit (s := S4x256x1024) (k0_off68 (nxt c) 0#32) S1x128x1024.size (k0_off68_inb (nxt c) 0)) (fun _ => rfl)).squeeze S128x1024 squeezes_S1x128x1024_S128x1024
    = (agB.slice (Rect.unit (s := S4x256x1024) (k0_off68 c 1#32) S1x128x1024.size (k0_off68_inb c 1)) (fun _ => rfl)).squeeze S128x1024 squeezes_S1x128x1024_S128x1024
  rw [slice_unit_congr agB _ _ h]
theorem agS_fwd_L1 (c : Dev nD) : agS (nxt c) 1 true = agS c 2 true := by
  have h : k0_off68 (nxt c) 1#32 = k0_off68 c 2#32 := by revert c; decide +kernel
  show (agB.slice (Rect.unit (s := S4x256x1024) (k0_off68 (nxt c) 1#32) S1x128x1024.size (k0_off68_inb (nxt c) 1)) (fun _ => rfl)).squeeze S128x1024 squeezes_S1x128x1024_S128x1024
    = (agB.slice (Rect.unit (s := S4x256x1024) (k0_off68 c 2#32) S1x128x1024.size (k0_off68_inb c 2)) (fun _ => rfl)).squeeze S128x1024 squeezes_S1x128x1024_S128x1024
  rw [slice_unit_congr agB _ _ h]

/-! ## One step of the gathering: a send, the wait for its read-out, the wait for the neighbour's arrival -/

/-- What the two waits of an enqueued gathering transfer need: the two positions and the two credits. -/
def gSent (c : Dev nD) (l : Bool) (h : Fin 3) : sProp 𝕄 :=
  iprop(atPos ER (sendCell c .g l h) 0 ∅ 0 ∗ cred (tallyAt (sendCell c .g l h) () (amt .g))
    ∗ atPos ER (recvCell c .g l h) 0 ∅ 0 ∗ cred (tallyAt (recvCell c .g l h) () (amt .g)))

/-- A gathering transfer enqueued: the source slice and the neighbour's landing slice go, the send cell's credit comes. -/
theorem tail_send (V : Vals F) (K : Names) (c n : Dev nD) (l : Bool) (h : Fin 3) (hn : n = toDev c l)
    {hsc : ((agS c h l : Memref sig (Dev.tc n : Thread nD τ).2.kind .vmem S128x1024 .bf16)).view.ref.isScScratch = false}
    {hsrc : (agS c h l).view.WordExact} {hdst : (agS c h l).view.WordExact}
    {hsem : DmaTarget.Typed .vmem (.dma (recvSem .g l h)) (.remote (Dev.tc n : Thread nD τ) (agS c h l) (.dma (sendSem .g l h)) hsc)}
    {α : Type} {Q : α → sProp 𝕄} {k : PUnit → Prog (TpuEff nD τ sig (Elt F) Λ₀ .tc) α}
    (fs : Buf (Elt F) ((agS c h l).view.loc (c : Thread nD τ))) (hfs : (agS c h l).view.read (Elt F) fs = V.g c h l)
    (ps : List Pay) (W : Waits sig Unit) :
    iprop(invs V K c ∗ ((agS c h l).view.loc (c : Thread nD τ) ↦[(agS c h l).view.set]{fullShare} fs)
        ∗ owes (c : Thread nD τ) (owedOf c (.xfer .g l h :: ps)) W ∗ gXfer c l h)
      ⊢ iprop(((gSent c l h ∗ owes (c : Thread nD τ) (owedOf c ps) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (agS c h l) (.remote (Dev.tc n : Thread nD τ) (agS c h l) (.dma (sendSem .g l h)) hsc) (.dma (recvSem .g l h)) hsrc hdst hsem) k) Q) := by
  unfold gXfer gSent
  iintro ⟨#HI, Hsrc, HO, Ats, Atr, Ts, Tn, Cr, Ld, #Rs, #Rn⟩ Hk
  ihave Hc := (invs_cells V K c .g l h) $$ HI
  icases Hc with ⟨#Is, #Ir, #In⟩
  iapply (wp_send_g V c n l h hn fs hfs ps W _ _) $$ [HO Ts Tn Ld Hsrc]
  · isplitr; · iexact Is
    isplitr; · iexact In
    isplitl [Hsrc]; · iexact Hsrc
    isplitl [Ld]; · iexact Ld
    isplitl [HO]; · iexact HO
    isplitl [Ts]; · iexact Ts
    isplitr; · iexact Rs
    isplitl [Tn]; · iexact Tn
    iexact Rn
  iintro ⟨Cs, HO⟩
  iapply Hk
  isplitl [Ats Cs Atr Cr]
  · isplitl [Ats]; · iexact Ats
    isplitl [Cs]; · iexact Cs
    isplitl [Atr]; · iexact Atr
    iexact Cr
  iexact HO

/-- The wait for the transfer's read-out: the source slice comes back as it was, the send cell closes. -/
theorem tail_wait_send (V : Vals F) (K : Names) (c : Dev nD) (l : Bool) (h : Fin 3) (ps : List Pay)
    (hlow : ∀ p ∈ ps, place .g l h < payLv p) (W : Waits sig Unit)
    {sp sp' : Space} {s s' : Shape} {e e' : EltTy} {src : Memref sig .tc sp' s' e'} {κ' : Idealize.ShloMosaic.Kind} {dst : Memref sig κ' sp s e}
    {hsrc : src.view.WordExact} {hdst : dst.view.WordExact} (hamt : dst.view.dmaCredit = amt .g) {sem : DmaSem sig} (hs : sem = sendSem .g l h)
    {α : Type} {Q : α → sProp 𝕄} {kk : PUnit → Prog (TpuEff nD τ sig (Elt F) Λ₀ .tc) α} :
    iprop(invs V K c ∗ levAts L lv ∗ owes (c : Thread nD τ) (owedOf c ps) W
        ∗ atPos ER (sendCell c .g l h) 0 ∅ 0 ∗ cred (tallyAt (sendCell c .g l h) () (amt .g)))
      ⊢ iprop(((owes (c : Thread nD τ) (owedOf c ps) (insert (SemLoc.dma (sendSem .g l h), ()) W) ∗ sendPay V c .g l h ∗ semVal (sendCell c .g l h) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  iintro ⟨#HI, #Hlev, HO, Ats, Cs⟩ Hk
  ihave Hc := (invs_cells V K c .g l h) $$ HI
  icases Hc with ⟨#Is, #Ir, #In⟩
  ihave Hm := (mayWait_below c (.dma (sendSem .g l h)) ps (by intro p hp; rw [lv_send]; exact hlow p hp)) $$ Hlev
  iapply (wp_wait_send V c .g l h _ _ _ hamt hs) $$ [Cs HO Hm Ats]
  · isplitr; · iexact Is
    isplitl [Cs]; · iexact Cs
    isplitl [HO]; · iexact HO
    isplitl [Hm]; · iexact Hm
    iexact Ats
  iexact Hk

/-- The wait for the neighbour's transfer: the landing slice comes back at what the neighbour sent, the receive cell closes. -/
theorem tail_wait_recv (V : Vals F) (K : Names) (c : Dev nD) (l : Bool) (h : Fin 3) (ps : List Pay)
    (hlow : ∀ p ∈ ps, place .g l h < payLv p) (W : Waits sig Unit)
    {sp sp' : Space} {s s' : Shape} {e e' : EltTy} {src : Memref sig .tc sp' s' e'} {κ' : Idealize.ShloMosaic.Kind} {dst : Memref sig κ' sp s e}
    {hsrc : src.view.WordExact} {hdst : dst.view.WordExact} (hamt : dst.view.dmaCredit = amt .g) {sem : DmaSem sig} (hs : sem = recvSem .g l h)
    {α : Type} {Q : α → sProp 𝕄} {kk : PUnit → Prog (TpuEff nD τ sig (Elt F) Λ₀ .tc) α} :
    iprop(invs V K c ∗ levAts L lv ∗ owes (c : Thread nD τ) (owedOf c ps) W
        ∗ atPos ER (recvCell c .g l h) 0 ∅ 0 ∗ cred (tallyAt (recvCell c .g l h) () (amt .g)))
      ⊢ iprop(((owes (c : Thread nD τ) (owedOf c ps) (insert (SemLoc.dma (recvSem .g l h), ()) W) ∗ recvPay V c .g l h ∗ semVal (recvCell c .g l h) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  iintro ⟨#HI, #Hlev, HO, Atr, Cr⟩ Hk
  ihave Hc := (invs_cells V K c .g l h) $$ HI
  icases Hc with ⟨#Is, #Ir, #In⟩
  ihave Hm := (mayWait_below c (.dma (recvSem .g l h)) ps (by intro p hp; rw [lv_recv]; exact hlow p hp)) $$ Hlev
  iapply (wp_wait_recv V c .g l h _ _ _ hamt hs) $$ [Cr HO Hm Atr]
  · isplitr; · iexact Ir
    isplitl [Cr]; · iexact Cr
    isplitl [HO]; · iexact HO
    isplitl [Hm]; · iexact Hm
    iexact Atr
  iexact Hk

/-! ## What comes in at one hop goes out at the next; what the waits hand back -/

/-- What a device receives at one hop is, read on its own position, what it sends at the next. -/
theorem fwdR0 (m : (ℓ : Loc nD τ sig) → Buf (Elt F) ℓ) (c : Dev nD) :
    recvPay (KFun.V m) c .g false 0 = heldAs c (agS c 1 false) ((KFun.V m).g c 1 false) := by
  show heldAs c (agS (prv c) 0 false) ((KFun.V m).g (prv c) 0 false) = _
  rw [agS_fwd_R0]; exact congrArg (heldAs c (agS c 1 false)) (KFun.Vg_succ m c 0 false).symm
theorem fwdR1 (m : (ℓ : Loc nD τ sig) → Buf (Elt F) ℓ) (c : Dev nD) :
    recvPay (KFun.V m) c .g false 1 = heldAs c (agS c 2 false) ((KFun.V m).g c 2 false) := by
  show heldAs c (agS (prv c) 1 false) ((KFun.V m).g (prv c) 1 false) = _
  rw [agS_fwd_R1]; exact congrArg (heldAs c (agS c 2 false)) (KFun.Vg_succ m c 1 false).symm
theorem fwdL0 (m : (ℓ : Loc nD τ sig) → Buf (Elt F) ℓ) (c : Dev nD) :
    recvPay (KFun.V m) c .g true 0 = heldAs c (agS c 1 true) ((KFun.V m).g c 1 true) := by
  show heldAs c (agS (nxt c) 0 true) ((KFun.V m).g (nxt c) 0 true) = _
  rw [agS_fwd_L0]; exact congrArg (heldAs c (agS c 1 true)) (KFun.Vg_succ m c 0 true).symm
theorem fwdL1 (m : (ℓ : Loc nD τ sig) → Buf (Elt F) ℓ) (c : Dev nD) :
    recvPay (KFun.V m) c .g true 1 = heldAs c (agS c 2 true) ((KFun.V m).g c 2 true) := by
  show heldAs c (agS (nxt c) 1 true) ((KFun.V m).g (nxt c) 1 true) = _
  rw [agS_fwd_L1]; exact congrArg (heldAs c (agS c 2 true)) (KFun.Vg_succ m c 1 true).symm

/-- A forwarded slice, handed back by its send's wait, is the slice the device received the hop before. -/
theorem back_R0 (V : Vals F) (c : Dev nD) : sendPay V c .g false 1 = heldAs c (agS (prv c) 0 false) (V.g c 1 false) := by rw [agS_fwd_R0]; rfl
theorem back_R1 (V : Vals F) (c : Dev nD) : sendPay V c .g false 2 = heldAs c (agS (prv c) 1 false) (V.g c 2 false) := by rw [agS_fwd_R1]; rfl
theorem back_L0 (V : Vals F) (c : Dev nD) : sendPay V c .g true 1 = heldAs c (agS (nxt c) 0 true) (V.g c 1 true) := by rw [agS_fwd_L0]; rfl
theorem back_L1 (V : Vals F) (c : Dev nD) : sendPay V c .g true 2 = heldAs c (agS (nxt c) 1 true) (V.g c 2 true) := by rw [agS_fwd_L1]; rfl
theorem own_f (V : Vals F) (c : Dev nD) : sendPay V c .g false 0 = heldAs c (agS c 0 false) (V.g c 0 false) := rfl
theorem own_t (V : Vals F) (c : Dev nD) : sendPay V c .g true 0 = heldAs c (agS c 0 true) (V.g c 0 true) := rfl
theorem last_R (V : Vals F) (c : Dev nD) : recvPay V c .g false 2 = heldAs c (agS (prv c) 2 false) (V.g (prv c) 2 false) := rfl
theorem last_L (V : Vals F) (c : Dev nD) : recvPay V c .g true 2 = heldAs c (agS (nxt c) 2 true) (V.g (nxt c) 2 true) := rfl

/-! ## The end: slices at contents in hand, the owes, the result window -/

/-- A slice at contents in hand is held at some contents; a whole buffer likewise. -/
theorem held_intro {sp : Space} {s : Shape} {e : EltTy} (c : Dev nD) (mr : Memref sig .tc sp s e) (f : Buf (Elt F) (mr.view.loc (c : Thread nD τ))) :
    (mr.view.loc (c : Thread nD τ) ↦[mr.view.set]{fullShare} f : sProp 𝕄) ⊢ held c mr := by
  unfold held; iintro H; iexists f; iexact H
theorem wholeEx_intro (c : Dev nD) (b : Ref sig .tc) (f : Buf (Elt F) ((c : Thread nD τ).loc b)) :
    wholeAt c b f ⊢ wholeEx (F := F) c b := by
  iintro H; iexists f; iapply (Entails.of_eq (whole_pts (F := F) c b f).symm); iexact H

/-- The owes the body hands back: nothing owed, whatever waits are recorded. -/
theorem finish_owes (m : (ℓ : Loc nD τ sig) → Buf (Elt F) ℓ) (c : Dev nD) (W' : Waits sig Unit) :
    owes (c : Thread nD τ) (owedOf c []) W' ⊢ (dats (KFun.V m) m KFun.Kout 0 c).owesAt () t0_0.succ := by
  iintro H
  iexists W'
  isplitr; · ipureintro; exact fun _ _ => Or.inl (Set.mem_univ _)
  iexact H

/-- The result window from the result block's buffer, given that it holds the device's result. -/
theorem finish_out (m : (ℓ : Loc nD τ sig) → Buf (Elt F) ℓ) (c : Dev nD) (X : Buf (Elt F) ((c : Thread nD τ).loc cc0_stg3_0))
    (hX : X = KFun.Kout m c) :
    wholeAt c cc0_stg3_0 X ⊢ (iprop(∃ f, ⌜f = (dats (KFun.V m) m KFun.Kout 0 c).after 3 t0_0⌝ ∗ (c : Thread nD τ).loc cc0_stg3_0 ↦{fullShare} f) : sProp 𝕄) := by
  subst hX
  iintro H
  iexists _
  isplitr; · ipureintro; rfl
  iapply (Entails.of_eq (whole_pts (F := F) c cc0_stg3_0 _).symm); iexact H

/-- A half of the own block at contents that read as `w` is held as `w`. -/
theorem heldAs_intro_0f (c : Dev nD) (f : Buf (Elt F) ((c : Thread nD τ).loc cc0_scratch23))
    (w : S128x1024.Idx → Elt F .bf16) (hw : (agS c 0 false).view.read (Elt F) f = w) :
    ((agS c 0 false).view.loc (c : Thread nD τ) ↦[(agS c 0 false).view.set]{fullShare} f : sProp 𝕄) ⊢ heldAs c (agS c 0 false) w := by
  unfold heldAs; iintro H; iexists f; isplitl [H]; · iexact H
  ipureintro; exact hw
theorem heldAs_intro_0t (c : Dev nD) (f : Buf (Elt F) ((c : Thread nD τ).loc cc0_scratch23))
    (w : S128x1024.Idx → Elt F .bf16) (hw : (agS c 0 true).view.read (Elt F) f = w) :
    ((agS c 0 true).view.loc (c : Thread nD τ) ↦[(agS c 0 true).view.set]{fullShare} f : sProp 𝕄) ⊢ heldAs c (agS c 0 true) w := by
  unfold heldAs; iintro H; iexists f; isplitl [H]; · iexact H
  ipureintro; exact hw

/-- The own block's rows from what its two halves read as. -/
theorem own_of_halves (m : (ℓ : Loc nD τ sig) → Buf (Elt F) ℓ) (c : Dev nD) (G : Buf (Elt F) ((c : Thread nD τ).loc cc0_scratch23))
    (h7 : (agS c 0 false).view.read (Elt F) G = (KFun.V m).g c 0 false) (h8 : (agS c 0 true).view.read (Elt F) G = (KFun.V m).g c 0 true)
    (i : Fin 256) (n : Fin 1024) : G (ix3 (nxt c) i n) = KFun.agbOwn m c (ix3 0 i n) := by
  by_cases hi : i.val < 128
  · have e := congrFun h7 (ix2 (⟨i.val, hi⟩ : Fin 128) n)
    rw [KFun.agS_read_0f c c G ⟨i.val, hi⟩ n, KFun.Vg_zero_false m c ⟨i.val, hi⟩ n] at e
    exact (KFun.ix3_congr G n (show (nxt c).val = (c.val + 1) % 4 from rfl) (show i.val = 0 + i.val by omega)).trans e
  · have hi' : i.val - 128 < 128 := by have := i.isLt; omega
    have e := congrFun h8 (ix2 (⟨i.val - 128, hi'⟩ : Fin 128) n)
    rw [KFun.agS_read_0t c c G ⟨i.val - 128, hi'⟩ n, KFun.Vg_zero_true m c ⟨i.val - 128, hi'⟩ n] at e
    refine (KFun.ix3_congr G n (show (nxt c).val = (c.val + 1) % 4 from rfl) (show i.val = 128 + (i.val - 128) by omega)).trans (e.trans ?_)
    exact congrArg (fun j : Fin 256 => KFun.agbOwn m c (ix3 0 j n)) (Fin.ext (show 128 + (i.val - 128) = i.val by omega))

/-! ## The three steps as tactics over the names in the proof below -/

set_option hygiene false in
/-- Enqueue the gathering transfer in direction `l` at hop `h` from the source `src` at contents `fs`, then run on to the next remote step. -/
local macro "gsend " l:term:max h:term:max dev:term:max fs:term:max hfs:term:max G:ident src:ident S:ident : tactic =>
  `(tactic| (
    iapply (tail_send (KFun.V m) K c _ $l $h ($dev c) $fs $hfs _ _) $$ [HO $G:ident $src:ident]
    · isplitr; · iexact HI
      isplitl [$src]; · iexact $src
      isplitl [HO]; · iexact HO
      iexact $G
    iintro ⟨$S:ident, HO⟩
    sl_exec))

set_option hygiene false in
/-- The wait for the read-out of the transfer in direction `l` at hop `h`, owing the payments `ps`. -/
local macro "gwaits " l:term:max h:term:max ps:term:max A:ident C:ident P:ident Z:ident : tactic =>
  `(tactic| (
    iapply (tail_wait_send (KFun.V m) K c $l $h $ps (by decide) _ (by rfl) (by rfl)) $$ [HO $A:ident $C:ident]
    · isplitr; · iexact HI
      isplitr; · iexact Hlev
      isplitl [HO]; · iexact HO
      isplitl [$A]; · iexact $A
      iexact $C
    iintro ⟨HO, $P:ident, $Z:ident⟩
    sl_exec))

set_option hygiene false in
/-- The wait for the neighbour's transfer in direction `l` at hop `h`. -/
local macro "gwaitr " l:term:max h:term:max ps:term:max A:ident C:ident P:ident Z:ident : tactic =>
  `(tactic| (
    iapply (tail_wait_recv (KFun.V m) K c $l $h $ps (by decide) _ (by rfl) (by rfl)) $$ [HO $A:ident $C:ident]
    · isplitr; · iexact HI
      isplitr; · iexact Hlev
      isplitl [HO]; · iexact HO
      isplitl [$A]; · iexact $A
      iexact $C
    iintro ⟨HO, $P:ident, $Z:ident⟩
    sl_exec))

/-! ## The tail -/

set_option maxRecDepth 65536 in
set_option maxHeartbeats 40000000 in
/-- From the cut to the return: device `c` finishes its block, gathers the four blocks around the ring and widens them into
    the result buffer, and hands back what the body owes. -/
theorem tail_ok (m : (ℓ : Loc nD τ sig) → Buf (Elt F) ℓ) (c : Dev nD) (K : Names) :
    ∀ (W : Waits sig Unit) (v14 v25 v1157 : BitVec 32),
      AtTail m c K W ⊢ wp frame (wpE (defs₀ (F := F)) 𝒱₀ (c : Thread nD τ) none) Set.univ
        (tailProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1157) (fun _ => bodyPost m c) := by
  intro W v14 v25 v1157
  unfold AtTail closedX heldAs gProg
  iintro ⟨#HI, #Hlev, HO, ⟨G0f, G0t, G1f, G1t, G2f, G2t⟩, Hclosed, Hcs, Hkv, Hx, Hwq, Hwo, ⟨%g3, Hout, %hg3⟩, Hs4, Hs5, Hs6, Hs7, Hs8, Hs9, HlocO, HlocL,
    ⟨%fo2f, Ho2f, %ho2f⟩, ⟨%fo2t, Ho2t, %ho2t⟩, Ho0f, Ho0t, Ho1f, Ho1t, ⟨%fl2f, Hl2f, %hl2f⟩, ⟨%fl2t, Hl2t, %hl2t⟩, Hl0f, Hl0t, Hl1f, Hl1t, ⟨%fg, Hg0f, Hg0t⟩⟩
  -- a head's tile lies inside the landing slice that holds it
  have wo0 := rsO2_within_0
  have wl0 := rsL2_within_0
  have wo0' := rsO2_withinOn_0
  have wl0' := rsL2_withinOn_0
  have wo1 := rsO2_within_1
  have wl1 := rsL2_within_1
  have wo1' := rsO2_withinOn_1
  have wl1' := rsL2_withinOn_1
  have wo2 := rsO2_within_2
  have wl2 := rsL2_within_2
  have wo2' := rsO2_withinOn_2
  have wl2' := rsL2_withinOn_2
  have wo3 := rsO2_within_3
  have wl3 := rsL2_within_3
  have wo3' := rsO2_withinOn_3
  have wl3' := rsL2_withinOn_3
  have wo4 := rsO2_within_4
  have wl4 := rsL2_within_4
  have wo4' := rsO2_withinOn_4
  have wl4' := rsL2_withinOn_4
  have wo5 := rsO2_within_5
  have wl5 := rsL2_within_5
  have wo5' := rsO2_withinOn_5
  have wl5' := rsL2_withinOn_5
  have wo6 := rsO2_within_6
  have wl6 := rsL2_within_6
  have wo6' := rsO2_withinOn_6
  have wl6' := rsL2_withinOn_6
  have wo7 := rsO2_within_7
  have wl7 := rsL2_within_7
  have wo7' := rsO2_withinOn_7
  have wl7' := rsL2_withinOn_7
  have wown := own_within c
  have wown' := own_withinOn c
  -- the own block of the gathered result: its two halves joined, read through the block's memref
  ihave Hown := (Entails.of_eq (own_block_eq (F := F) c fg)) $$ [Hg0f Hg0t]
  · isplitl [Hg0f] <;> iassumption
  ihave Hown := (Entails.of_eq (own_spell (F := F) c fg)) $$ Hown
  -- a head's 128 rows of the narrowed output weights, as the terms load them
  have hW1 := KFun.woRows_load_1 (F := F) m c
  have hW2 := KFun.woRows_load_2 (F := F) m c
  have hW3 := KFun.woRows_load_3 (F := F) m c
  have hW4 := KFun.woRows_load_4 (F := F) m c
  have hW5 := KFun.woRows_load_5 (F := F) m c
  have hW6 := KFun.woRows_load_6 (F := F) m c
  have hW7 := KFun.woRows_load_7 (F := F) m c
  unfold tailProg
  sl_exec
  -- the own block, stored, back to its two halves
  ihave Hown := (Entails.of_eq (own_spell (F := F) c _).symm) $$ Hown
  ihave Hh := (Entails.of_eq (own_block_eq (F := F) c _).symm) $$ Hown
  icases Hh with ⟨Hg0f, Hg0t⟩
  -- hop 0: the two halves of the own block
  ihave P0f := (heldAs_intro_0f c _ ((KFun.V m).g c 0 false) ?hfs0f) $$ Hg0f
  case hfs0f =>
    refine KFun.vg0_false_of_rows m c _ (fun r n => ?_)
    sl_unfold_run_names
    refine (KFun.own_rows c fg _ (⟨0 + r.val, by omega⟩ : Fin 256) n).trans ?_
    simp only [View.readCov_cons_toLoadRect,
      KFun.rsO_load_1 m c fo2f ho2f, KFun.rsO_load_2 m c fo2f ho2f, KFun.rsO_load_3 m c fo2f ho2f,
      KFun.rsO_load_4 m c fo2t ho2t, KFun.rsO_load_5 m c fo2t ho2t, KFun.rsO_load_6 m c fo2t ho2t, KFun.rsO_load_7 m c fo2t ho2t,
      KFun.rsL_load_1 m c fl2f hl2f, KFun.rsL_load_2 m c fl2f hl2f, KFun.rsL_load_3 m c fl2f hl2f,
      KFun.rsL_load_4 m c fl2t hl2t, KFun.rsL_load_5 m c fl2t hl2t, KFun.rsL_load_6 m c fl2t hl2t, KFun.rsL_load_7 m c fl2t hl2t]
    have hidx : (⟨0 + r.val, by omega⟩ : Fin 256) = ⟨r.val, by omega⟩ := Fin.ext (Nat.zero_add _)
    rw [hidx]
    rfl
  ihave P0t := (heldAs_intro_0t c _ ((KFun.V m).g c 0 true) ?hfs0t) $$ Hg0t
  case hfs0t =>
    refine KFun.vg0_true_of_rows m c _ (fun r n => ?_)
    sl_unfold_run_names
    refine (KFun.own_rows c fg _ (⟨128 + r.val, by omega⟩ : Fin 256) n).trans ?_
    simp only [View.readCov_cons_toLoadRect,
      KFun.rsO_load_1 m c fo2f ho2f, KFun.rsO_load_2 m c fo2f ho2f, KFun.rsO_load_3 m c fo2f ho2f,
      KFun.rsO_load_4 m c fo2t ho2t, KFun.rsO_load_5 m c fo2t ho2t, KFun.rsO_load_6 m c fo2t ho2t, KFun.rsO_load_7 m c fo2t ho2t,
      KFun.rsL_load_1 m c fl2f hl2f, KFun.rsL_load_2 m c fl2f hl2f, KFun.rsL_load_3 m c fl2f hl2f,
      KFun.rsL_load_4 m c fl2t hl2t, KFun.rsL_load_5 m c fl2t hl2t, KFun.rsL_load_6 m c fl2t hl2t, KFun.rsL_load_7 m c fl2t hl2t]
    rfl
  unfold heldAs
  icases P0f with ⟨%s0f, Hs0f, %hs0f⟩
  icases P0t with ⟨%s0t, Hs0t, %hs0t⟩
  gsend false 0 dev15_eq s0f hs0f G0f Hs0f S0f
  gsend true 0 dev16_eq s0t hs0t G0t Hs0t S0t
  unfold gSent
  icases S0f with ⟨As0f, Cs0f, Ar0f, Cr0f⟩
  icases S0t with ⟨As0t, Cs0t, Ar0t, Cr0t⟩
  gwaits false 0 [.xfer .g false 1, .xfer .g true 1, .xfer .g false 2, .xfer .g true 2] As0f Cs0f Ps0f Zs0f
  gwaitr false 0 [.xfer .g false 1, .xfer .g true 1, .xfer .g false 2, .xfer .g true 2] Ar0f Cr0f Pr0f Zr0f
  gwaits true 0 [.xfer .g false 1, .xfer .g true 1, .xfer .g false 2, .xfer .g true 2] As0t Cs0t Ps0t Zs0t
  gwaitr true 0 [.xfer .g false 1, .xfer .g true 1, .xfer .g false 2, .xfer .g true 2] Ar0t Cr0t Pr0t Zr0t
  -- hop 1: what came in at hop 0 goes on
  ihave Pf := (Entails.of_eq (fwdR0 m c)) $$ Pr0f
  ihave Pt := (Entails.of_eq (fwdL0 m c)) $$ Pr0t
  unfold heldAs
  icases Pf with ⟨%s1f, Hs1f, %hs1f⟩
  icases Pt with ⟨%s1t, Hs1t, %hs1t⟩
  gsend false 1 dev17_eq s1f hs1f G1f Hs1f S1f
  gsend true 1 dev18_eq s1t hs1t G1t Hs1t S1t
  unfold gSent
  icases S1f with ⟨As1f, Cs1f, Ar1f, Cr1f⟩
  icases S1t with ⟨As1t, Cs1t, Ar1t, Cr1t⟩
  gwaits false 1 [.xfer .g false 2, .xfer .g true 2] As1f Cs1f Ps1f Zs1f
  gwaitr false 1 [.xfer .g false 2, .xfer .g true 2] Ar1f Cr1f Pr1f Zr1f
  gwaits true 1 [.xfer .g false 2, .xfer .g true 2] As1t Cs1t Ps1t Zs1t
  gwaitr true 1 [.xfer .g false 2, .xfer .g true 2] Ar1t Cr1t Pr1t Zr1t
  -- hop 2
  ihave Pf := (Entails.of_eq (fwdR1 m c)) $$ Pr1f
  ihave Pt := (Entails.of_eq (fwdL1 m c)) $$ Pr1t
  unfold heldAs
  icases Pf with ⟨%s2f, Hs2f, %hs2f⟩
  icases Pt with ⟨%s2t, Hs2t, %hs2t⟩
  gsend false 2 dev19_eq s2f hs2f G2f Hs2f S2f
  gsend true 2 dev20_eq s2t hs2t G2t Hs2t S2t
  unfold gSent
  icases S2f with ⟨As2f, Cs2f, Ar2f, Cr2f⟩
  icases S2t with ⟨As2t, Cs2t, Ar2t, Cr2t⟩
  gwaits false 2 [] As2f Cs2f Ps2f Zs2f
  gwaitr false 2 [] Ar2f Cr2f Pr2f Zr2f
  gwaits true 2 [] As2t Cs2t Ps2t Zs2t
  iapply (tail_wait_recv (KFun.V m) K c true 2 [] (by decide) _ (by rfl) (by rfl)) $$ [HO Ar2t Cr2t]
  · isplitr; · iexact HI
    isplitr; · iexact Hlev
    isplitl [HO]; · iexact HO
    isplitl [Ar2t]; · iexact Ar2t
    iexact Cr2t
  iintro ⟨HO, Pr2t, Zr2t⟩
  -- the eight half blocks of the gathered result, glued
  ihave P1 := (Entails.of_eq (back_R0 (KFun.V m) c)) $$ Ps1f
  ihave P2 := (Entails.of_eq (back_R1 (KFun.V m) c)) $$ Ps2f
  ihave P3 := (Entails.of_eq (last_R (KFun.V m) c)) $$ Pr2f
  ihave P4 := (Entails.of_eq (back_L0 (KFun.V m) c)) $$ Ps1t
  ihave P5 := (Entails.of_eq (back_L1 (KFun.V m) c)) $$ Ps2t
  ihave P6 := (Entails.of_eq (last_L (KFun.V m) c)) $$ Pr2t
  ihave P7 := (Entails.of_eq (own_f (KFun.V m) c)) $$ Ps0f
  ihave P8 := (Entails.of_eq (own_t (KFun.V m) c)) $$ Ps0t
  unfold heldAs
  icases P1 with ⟨%f1, H1, %h1⟩
  icases P2 with ⟨%f2, H2, %h2⟩
  icases P3 with ⟨%f3, H3, %h3⟩
  icases P4 with ⟨%f4, H4, %h4⟩
  icases P5 with ⟨%f5, H5, %h5⟩
  icases P6 with ⟨%f6, H6, %h6⟩
  icases P7 with ⟨%f7, H7, %h7⟩
  icases P8 with ⟨%f8, H8, %h8⟩
  ihave Hag := (agB_glue (F := F) c f1 f2 f3 f4 f5 f6 f7 f8) $$ [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ihave Hag := (Entails.of_eq (whole_pts (F := F) c cc0_scratch23 _)) $$ Hag
  sl_exec
  sl_step
  unfold bodyPost
  -- the gathered result back to its eight slices; the partial sums' halves joined
  ihave Hag := (Entails.of_eq (whole_pts (F := F) c cc0_scratch23 _).symm) $$ Hag
  ihave Hag := (Entails.of_eq (agB_split_eq (F := F) c _)) $$ Hag
  icases Hag with ⟨B1, B2, B3, B4, B5, B6, B7, B8⟩
  ihave HsO := (halvesO_join (F := F) c) $$ HlocO
  ihave HsL := (halvesL_join (F := F) c) $$ HlocL
  icases Hclosed with ⟨X1, X2, X3, X4, X5, X6, X7, X8, X9, X10, X11, X12⟩
  isplitr [HO Hx Hwq Hwo Hout]
  · iapply (phi1_intro_list m c)
    isplitl [HsO HsL Ho0f Ho0t Ho1f Ho1t Ho2f Ho2t Hl0f Hl0t Hl1f Hl1t Hl2f Hl2t Hs4 Hs5 Hs6 Hs7 Hs8 Hs9 B1 B2 B3 B4 B5 B6 B7 B8]
    · iapply (scratch_intro_flat c)
      isplitl [HsO]; · iexact HsO
      isplitl [HsL]; · iexact HsL
      isplitl [Ho0f]; · iexact Ho0f
      isplitl [Ho0t]; · iexact Ho0t
      isplitl [Ho1f]; · iexact Ho1f
      isplitl [Ho1t]; · iexact Ho1t
      isplitl [Ho2f]; · (iapply (held_intro c _ _); iexact Ho2f)
      isplitl [Ho2t]; · (iapply (held_intro c _ _); iexact Ho2t)
      isplitl [Hl0f]; · iexact Hl0f
      isplitl [Hl0t]; · iexact Hl0t
      isplitl [Hl1f]; · iexact Hl1f
      isplitl [Hl1t]; · iexact Hl1t
      isplitl [Hl2f]; · (iapply (held_intro c _ _); iexact Hl2f)
      isplitl [Hl2t]; · (iapply (held_intro c _ _); iexact Hl2t)
      isplitl [Hs4]; · iexact Hs4
      isplitl [Hs5]; · iexact Hs5
      isplitl [Hs6]; · iexact Hs6
      isplitl [Hs7]; · iexact Hs7
      isplitl [Hs8]; · (iapply (wholeEx_intro c _ _); iexact Hs8)
      isplitl [Hs9]; · iexact Hs9
      isplitl [B1]; · (iapply (held_intro c _ _); iexact B1)
      isplitl [B2]; · (iapply (held_intro c _ _); iexact B2)
      isplitl [B3]; · (iapply (held_intro c _ _); iexact B3)
      isplitl [B4]; · (iapply (held_intro c _ _); iexact B4)
      isplitl [B5]; · (iapply (held_intro c _ _); iexact B5)
      isplitl [B6]; · (iapply (held_intro c _ _); iexact B6)
      isplitl [B7]; · (iapply (held_intro c _ _); iexact B7)
      iapply (held_intro c _ _); iexact B8
    isplitl [Hcs]; · iexact Hcs
    isplitl [Hkv]; · iexact Hkv
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [Zs0f Zr0f]; · (isplitl [Zs0f] <;> iassumption)
    isplitl [Zs0t Zr0t]; · (isplitl [Zs0t] <;> iassumption)
    isplitl [Zs1f Zr1f]; · (isplitl [Zs1f] <;> iassumption)
    isplitl [Zs1t Zr1t]; · (isplitl [Zs1t] <;> iassumption)
    isplitl [Zs2f Zr2f]; · (isplitl [Zs2f] <;> iassumption)
    isplitl [Zs2t] <;> iassumption
  isplitl [HO]
  · iapply (finish_owes m c _); iexact HO
  isplitl [Hx]
  · iexists _
    isplitr; · ipureintro; rfl
    iapply (Entails.of_eq (whole_pts (F := F) c cc0_stg0_0 _).symm); iexact Hx
  isplitl [Hwq]
  · iexists _
    isplitr; · ipureintro; rfl
    iapply (Entails.of_eq (whole_pts (F := F) c cc0_stg1_0 _).symm); iexact Hwq
  isplitl [Hwo]
  · iexists _
    isplitr; · ipureintro; rfl
    iapply (Entails.of_eq (whole_pts (F := F) c cc0_stg2_0 _).symm); iexact Hwo
  iapply (finish_out m c _ ?kout)
  swap
  · iexact Hout
  · sl_unfold_run_names
    exact KFun.kout_final m c g3 (agGlue c f1 f2 f3 f4 f5 f6 f7 f8) _
      (KFun.agbFin_of_buffer m c (agGlue c f1 f2 f3 f4 f5 f6 f7 f8)
        (own_of_halves m c _ ((agGlue_read_7 c f1 f2 f3 f4 f5 f6 f7 f8).trans h7) ((agGlue_read_8 c f1 f2 f3 f4 f5 f6 f7 f8).trans h8))
        ((agGlue_read_1 c f1 f2 f3 f4 f5 f6 f7 f8).trans (h1.trans (KFun.Vg_succ m c 0 false)))
        ((agGlue_read_2 c f1 f2 f3 f4 f5 f6 f7 f8).trans (h2.trans (KFun.Vg_succ m c 1 false)))
        ((agGlue_read_3 c f1 f2 f3 f4 f5 f6 f7 f8).trans h3)
        ((agGlue_read_4 c f1 f2 f3 f4 f5 f6 f7 f8).trans (h4.trans (KFun.Vg_succ m c 0 true)))
        ((agGlue_read_5 c f1 f2 f3 f4 f5 f6 f7 f8).trans (h5.trans (KFun.Vg_succ m c 1 true)))
        ((agGlue_read_6 c f1 f2 f3 f4 f5 f6 f7 f8).trans h6))

end Cert.KernelIdeal.Proto

end
-- ==== Proof.ValsDFlash.lean ====
/-
  The rows of block 1 of the partial sums after the flash step of batch c + 1, as the cut after it states them.

  Given that the projected queries' rows and the narrowed planes the step reads are that batch's, each half of the block
  reads, through its own view, as the device's own partial sums of the batch: the rows are the flash outputs, head by
  head, and a half block is four consecutive rows.
-/
import proofs.«900754_g7700000000000755_dist_attn_cross_gqa_kvseq_b4_sq256_skv1024_d1024_hq8_dh128_v7x_i4_f32_1_alg».proof.Proof.BodyD
import proofs.«900754_g7700000000000755_dist_attn_cross_gqa_kvseq_b4_sq256_skv1024_d1024_hq8_dh128_v7x_i4_f32_1_alg».proof.Proof.FlashRows
import proofs.«900754_g7700000000000755_dist_attn_cross_gqa_kvseq_b4_sq256_skv1024_d1024_hq8_dh128_v7x_i4_f32_1_alg».proof.Proof.ProjRows
import proofs.«900754_g7700000000000755_dist_attn_cross_gqa_kvseq_b4_sq256_skv1024_d1024_hq8_dh128_v7x_i4_f32_1_alg».proof.Proof.KvRead

set_option maxRecDepth 8192

noncomputable section

namespace Cert.KernelIdeal.Proto
open Cert.KernelIdeal Cert.KernelIdeal.Gen Cert.KernelIdeal.Ring Cert.KernelIdeal.KFun
open Idealize.ShloMosaic Idealize.ShloMosaic.TcCoe
open Idealize.SL.Sem
open Idealize.ShloMosaic.ValueIdx
variable {F : FTy → Type} [FloatOps F]
variable (m : (ℓ : Loc nD τ sig) → Buf (Elt F) ℓ) (c : Dev nD)

/-- The staged activations are the launch memory's. -/
theorem stg0_is_X (b' : Fin 4) (i : Fin 256) (n : Fin 1024) :
    (dats (KFun.V m) m KFun.Kout 0 c).after 0 t0_0 (ix3 b' i n) = KFun.X m c (ix3 b' i n) := by
  show iblk m c 0 t0_0 (ix3 b' i n) = _
  unfold iblk KFun.X
  rw [View.read_apply]
  show m ((c : Thread nD τ).loc main_arg0) _ = m _ _
  refine congrArg (m ((c : Thread nD τ).loc main_arg0)) (funext fun a => Fin.ext ?_)
  match a with
  | ⟨0, _⟩ => first | rfl | (show 0 + 1 * b'.val = b'.val; omega) | (show 0 * 4 + 1 * b'.val = b'.val; omega)
  | ⟨1, _⟩ => first | rfl | (show 0 + 1 * i.val = i.val; omega) | (show 0 * 256 + 1 * i.val = i.val; omega)
  | ⟨2, _⟩ => first | rfl | (show 0 + 1 * n.val = n.val; omega) | (show 0 * 1024 + 1 * n.val = n.val; omega)

/-- The projected and narrowed Wq, loaded whole, is itself. -/
theorem wqb_load :
    View.readAt (Elt F) (Memref.whole cc0_scratch7 : Memref sig .tc .vmem S1024x1024 .bf16).view (Rect.unit (s := S1024x1024) ![0, 0] S1024x1024.size inb_S1024x1024_S1024x1024_0_0).toLoadRect (KFun.wqb m c)
      = KFun.wqb m c := by
  funext t
  rw [View.readAt_apply, View.read_apply]
  show KFun.wqb m c _ = KFun.wqb m c t
  refine congrArg (KFun.wqb m c) (funext fun a => Fin.ext ?_)
  match a with
  | ⟨0, _⟩ => show 0 + 1 * (t 0).val = (t 0).val; omega
  | ⟨1, _⟩ => show 0 + 1 * (t 1).val = (t 1).val; omega

/-- The tile of the activations the projection of batch c + 1 loads. -/
theorem xblk_load1 :
    View.readAt (Elt F) (Memref.whole cc0_stg0_0 : Memref sig .tc .vmem S4x256x1024 .f32).view (Rect.unit (s := S4x256x1024) (k0_off24 c 1#32) S1x256x1024.size (k0_off24_inb c 0)).toLoadRect ((dats (KFun.V m) m KFun.Kout 0 c).after 0 t0_0)
      = KFun.xblk m c (nxt c) :=
  Rows.xblk_of_load m c (nxt c) _ (off24_eq c 0) _ _ (stg0_is_X m c)

/-- The rows of the projected queries after the eight head stores of batch c + 1. -/
theorem q2D_rows (f4 : Buf (Elt F) ((c : Thread nD τ).loc cc0_scratch4)) (h : Fin 8) (i : Fin 256) (d : Fin 128) :
    q2D m c f4 (ix3 (⟨8 * ((c.val + 1) % 4) + h.val, by have hc : c.val < 4 := c.isLt; omega⟩ : Fin 32) i d) = KFun.q2 m c (nxt c) h (ix3 0 i d) := by
  have hxq : xqD m c = k0_pay84 (KFun.xblk m c (nxt c)) (KFun.wqb m c) := by unfold xqD; rw [xblk_load1, wqb_load]
  have hxq0 : xq0D m c = k0_pay85 (KFun.xblk m c (nxt c)) (KFun.wqb m c) := by unfold xq0D; rw [xblk_load1, wqb_load]
  unfold q2D
  exact Rows.q2rows_at m c (nxt c) (8 * ((c.val + 1) % 4)) (by have hc : c.val < 4 := c.isLt; omega) _ _ _ _ _ _ _ _ _ _ _ _ _ _ _ _
    (off25_eq c 0 0) (off25_eq c 0 1) (off25_eq c 0 2) (off25_eq c 0 3) (off25_eq c 0 4) (off25_eq c 0 5) (off25_eq c 0 6) (off25_eq c 0 7) f4
    (xq0D m c) (k0_pay86 (xqD m c)) (k0_pay87 (xqD m c)) (k0_pay88 (xqD m c)) (k0_pay89 (xqD m c)) (k0_pay91 (k0_pay90 (xqD m c))) (k0_pay92 (xqD m c)) (k0_pay93 (xqD m c))
    (by rw [hxq0]; rfl) (by rw [hxq]; rfl) (by rw [hxq]; rfl) (by rw [hxq]; rfl) (by rw [hxq]; rfl) (by rw [hxq]; rfl) (by rw [hxq]; rfl) (by rw [hxq]; rfl) h i d

/-- The narrowed planes of batch c + 1 after the four casts: each cast reads the plane a local copy has just filled with the
    launch memory's rows of the batch. -/
theorem kvbD_planes (f9 : Buf (Elt F) ((c : Thread nD τ).loc cc0_scratch9)) (vals : Fin 16 → CpVal F)
    (hv : (∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))))
    (g : Fin 2) (j : Fin 1024) (d : Fin 128) :
    kvbD c f9 vals (ix4 (0 : Fin 2) (⟨2 * ((c.val + 1) % 4) + g.val, by have hc : c.val < 4 := c.isLt; omega⟩ : Fin 8) j d) = KFun.kh m c (nxt c) g (ix4 0 0 j d)
    ∧ kvbD c f9 vals (ix4 (1 : Fin 2) (⟨2 * ((c.val + 1) % 4) + g.val, by have hc : c.val < 4 := c.isLt; omega⟩ : Fin 8) j d) = KFun.vh m c (nxt c) g (ix4 0 0 j d) := by
  unfold kvbD
  exact Rows.kvrows_at m c (nxt c) (2 * ((c.val + 1) % 4)) (by have hc : c.val < 4 := c.isLt; omega) _ _ _ _ _ _ _ _
    (off23_eq c 0 1) (off22_eq c 0 1) (off23_eq c 0 0) (off22_eq c 0 0) f9 _ _ _ _
    (kh_of_copy m c 1 0 _ _ _ _ ((off22_eq c 0 0).trans (off18_eq c 0 0).symm) _ (hv 1 0).1)
    (vh_of_copy m c 1 0 _ _ _ _ ((off23_eq c 0 0).trans (off20_eq c 0 0).symm) _ (hv 1 0).2)
    (kh_of_copy m c 1 1 _ _ _ _ ((off22_eq c 0 1).trans (off18_eq c 0 1).symm) _ (hv 1 1).1)
    (vh_of_copy m c 1 1 _ _ _ _ ((off23_eq c 0 1).trans (off20_eq c 0 1).symm) _ (hv 1 1).2) g j d

/-- Row k of half hb of block 1 is row 4 hb + k of batch c + 1's rows. -/
theorem halfRow1_eq (hb : Bool) (k : Fin 4) : halfRow c 1 hb + k.val = 8 * ((c.val + 1) % 4) + (headAt hb k).val := by
  cases hb <;> simp only [halfRow, blkRow, headAt] <;> simp <;> omega

/-- The numerators' half blocks after the flash step of batch c + 1, given the rows it reads. -/
theorem valsD_flashO :
    ∀ (v787 : BitVec 32) (f4 : Buf (Elt F) ((c : Thread nD τ).loc cc0_scratch4)) (f9 : Buf (Elt F) ((c : Thread nD τ).loc cc0_scratch9))
      (f6 : Buf (Elt F) ((c : Thread nD τ).loc cc0_scratch6)) (fo1 : Buf (Elt F) ((c : Thread nD τ).loc cc0_scratch0)) (fl1 : Buf (Elt F) ((c : Thread nD τ).loc cc0_scratch1))
      (vals : Fin 16 → CpVal F),
      (∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))) →
      ∀ hb : Bool, (locHalfO c 1 hb).view.read (Elt F) (locO.view.writes (Elt F) fo1 (flashD m c v787 f4 f9 f6 fo1 fl1 vals).1) = halfOt m c (nxt c) hb := by
  intro v787 f4 f9 f6 fo1 fl1 vals hv hb
  funext t
  obtain ⟨k, d, i, rfl⟩ : ∃ (k : Fin 4) (d : Fin 128) (i : Fin 256), t = ix3 k d i := ⟨t 0, t 1, t 2, eq_ix3 t⟩
  unfold locHalfO
  rw [KFun.locO_slice_read _ (halfRow c 1 hb) rfl _ c]
  have e : (⟨halfRow c 1 hb + k.val, by have := halfRow_le c 1 hb; omega⟩ : Fin 32)
      = (⟨8 * ((c.val + 1) % 4) + (headAt hb k).val, by have hc : c.val < 4 := c.isLt; have := (headAt hb k).isLt; omega⟩ : Fin 32) := Fin.ext (halfRow1_eq c hb k)
  rw [e]
  unfold flashD
  exact flashO6_rows (F := F) m _ c _ _ _ _ _ _ _ _ _ _ _ _ _ _ _ _ _ _ _ _ _ _ _ _ _ _ _ _ _ _ _ _ _ _ _ _ _ _ _ _ _ _ _ _ _ _ _ _ _ _ _ _ _ (q2D_rows m c f4) (kvbD_planes m c f9 vals hv) (headAt hb k) d i

/-- and the denominators'. -/
theorem valsD_flashL :
    ∀ (v787 : BitVec 32) (f4 : Buf (Elt F) ((c : Thread nD τ).loc cc0_scratch4)) (f9 : Buf (Elt F) ((c : Thread nD τ).loc cc0_scratch9))
      (f6 : Buf (Elt F) ((c : Thread nD τ).loc cc0_scratch6)) (fo1 : Buf (Elt F) ((c : Thread nD τ).loc cc0_scratch0)) (fl1 : Buf (Elt F) ((c : Thread nD τ).loc cc0_scratch1))
      (vals : Fin 16 → CpVal F),
      (∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))) →
      ∀ hb : Bool, (locHalfL c 1 hb).view.read (Elt F) (locL.view.writes (Elt F) fl1 (flashD m c v787 f4 f9 f6 fo1 fl1 vals).2.1) = halfLr m c (nxt c) hb := by
  intro v787 f4 f9 f6 fo1 fl1 vals hv hb
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  unfold locHalfL
  rw [KFun.locL_slice_read _ (halfRow c 1 hb) rfl _ c]
  have e : (⟨halfRow c 1 hb + k.val, by have := halfRow_le c 1 hb; omega⟩ : Fin 32)
      = (⟨8 * ((c.val + 1) % 4) + (headAt hb k).val, by have hc : c.val < 4 := c.isLt; have := (headAt hb k).isLt; omega⟩ : Fin 32) := Fin.ext (halfRow1_eq c hb k)
  rw [e]
  unfold flashD
  exact flashL6_rows (F := F) m _ c _ _ _ _ _ _ _ _ _ _ _ _ _ _ _ _ _ _ _ _ _ _ _ _ _ _ _ _ _ _ _ _ _ _ _ _ _ _ _ _ _ _ _ _ _ _ _ _ _ _ _ _ _ (q2D_rows m c f4) (kvbD_planes m c f9 vals hv) (headAt hb k) i

end Cert.KernelIdeal.Proto

end
-- ==== Proof.Body.lean ====
/-
  The body obligation of every device.
  A device's body starts from the ring's ghost state at names it is handed, the credit dealt at launch, its scratch buffers
  and the four staged windows, owing every payment of the protocol. Opening the names and the recorded waits gives the
  first cut's state; the body is the sequence of its segments, each from one cut's state to the next, and the last leaves
  what the pipeline asks of a body.
-/
import proofs.«900754_g7700000000000755_dist_attn_cross_gqa_kvseq_b4_sq256_skv1024_d1024_hq8_dh128_v7x_i4_f32_1_alg».proof.Proof.Data
import proofs.«900754_g7700000000000755_dist_attn_cross_gqa_kvseq_b4_sq256_skv1024_d1024_hq8_dh128_v7x_i4_f32_1_alg».proof.Proof.SchedTab
import proofs.«900754_g7700000000000755_dist_attn_cross_gqa_kvseq_b4_sq256_skv1024_d1024_hq8_dh128_v7x_i4_f32_1_alg».proof.Proof.Unfold
import proofs.«900754_g7700000000000755_dist_attn_cross_gqa_kvseq_b4_sq256_skv1024_d1024_hq8_dh128_v7x_i4_f32_1_alg».proof.Proof.BodyOf
import proofs.«900754_g7700000000000755_dist_attn_cross_gqa_kvseq_b4_sq256_skv1024_d1024_hq8_dh128_v7x_i4_f32_1_alg».proof.Proof.Regroup32
import proofs.«900754_g7700000000000755_dist_attn_cross_gqa_kvseq_b4_sq256_skv1024_d1024_hq8_dh128_v7x_i4_f32_1_alg».proof.Proof.ValsDProof
import proofs.«900754_g7700000000000755_dist_attn_cross_gqa_kvseq_b4_sq256_skv1024_d1024_hq8_dh128_v7x_i4_f32_1_alg».proof.Proof.TailSpec
import proofs.«900754_g7700000000000755_dist_attn_cross_gqa_kvseq_b4_sq256_skv1024_d1024_hq8_dh128_v7x_i4_f32_1_alg».proof.Proof.BodyA
import proofs.«900754_g7700000000000755_dist_attn_cross_gqa_kvseq_b4_sq256_skv1024_d1024_hq8_dh128_v7x_i4_f32_1_alg».proof.Proof.BodyB
import proofs.«900754_g7700000000000755_dist_attn_cross_gqa_kvseq_b4_sq256_skv1024_d1024_hq8_dh128_v7x_i4_f32_1_alg».proof.Proof.BodyTail
import proofs.«900754_g7700000000000755_dist_attn_cross_gqa_kvseq_b4_sq256_skv1024_d1024_hq8_dh128_v7x_i4_f32_1_alg».proof.Proof.ValsDFlash
import proofs.«900754_g7700000000000755_dist_attn_cross_gqa_kvseq_b4_sq256_skv1024_d1024_hq8_dh128_v7x_i4_f32_1_alg».proof.Proof.Gen.KernelIdeal.Skeleton
import proofs.«900754_g7700000000000755_dist_attn_cross_gqa_kvseq_b4_sq256_skv1024_d1024_hq8_dh128_v7x_i4_f32_1_alg».proof.Proof.Gen.KernelIdeal.Points
import proofs.«900754_g7700000000000755_dist_attn_cross_gqa_kvseq_b4_sq256_skv1024_d1024_hq8_dh128_v7x_i4_f32_1_alg».proof.Proof.Gen.KernelIdeal.Launch
import Idealize.ShloMosaic.Lib.Tactic

set_option maxRecDepth 16384

noncomputable section

namespace Cert.KernelIdeal.Proto

open Cert.KernelIdeal Cert.KernelIdeal.Gen Cert.KernelIdeal.Ring
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

omit [FloatOps F] in
/-- A whole staging buffer at given contents, as a points-to of its location. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What device `c`'s body starts from, at the names `K` and with the waits `W` recorded: the ring's ghost state, the credit
    dealt at launch, the level facts, the local-copy semaphores at zero, the unstaged arrays, the scratch buffers, what it
    owes, and the four staged windows. -/
def BodyStart (m : (ℓ : Loc nD τ sig) → Buf (Elt F) ℓ) (c : Dev nD) (K : Names) (W : Waits sig Unit) : sProp 𝕄 :=
  iprop(((ghost (KFun.V m) K c ∗ cred (tallyAt (barCell c) () 2)
        ∗ (bigSep Finset.univ fun x : Xfer => cred (tallyAt (recvCell c x.1 x.2.1 x.2.2) () (amt x.1)))
        ∗ levAts L lv ∗ copySems0 c ∗ hbm m c) ∗ scratch c)
    ∗ owes (c : Thread nD τ) (O₀ c) W
    ∗ (∃ d f, ⌜f = (dats (KFun.V m) m KFun.Kout 0 c).before 0 t0_0 d⌝ ∗ (c : Thread nD τ).loc cc0_stg0_0 ↦{fullShare} f)
    ∗ (∃ d f, ⌜f = (dats (KFun.V m) m KFun.Kout 0 c).before 1 t0_0 d⌝ ∗ (c : Thread nD τ).loc cc0_stg1_0 ↦{fullShare} f)
    ∗ (∃ d f, ⌜f = (dats (KFun.V m) m KFun.Kout 0 c).before 2 t0_0 d⌝ ∗ (c : Thread nD τ).loc cc0_stg2_0 ↦{fullShare} f)
    ∗ (∃ d f, ⌜f = (dats (KFun.V m) m KFun.Kout 0 c).before 3 t0_0 d⌝ ∗ (c : Thread nD τ).loc cc0_stg3_0 ↦{fullShare} f))

set_option maxHeartbeats 4000000 in
/-- The body obligation of every device from the segments of its body. -/
theorem bodyOK_of (m : (ℓ : Loc nD τ sig) → Buf (Elt F) ℓ)
    (hA : ∀ (c : Dev nD) (K : Names) (W : Waits sig Unit), BodyStart m c K W ⊢ wp frame (wpE (defs₀ (F := F)) 𝒱₀ (c : Thread nD τ) none) Set.univ (segAProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _)) (fun r => iprop(∃ W', At15 m c K W' r.2.2.2.2.1 r.2.2.2.2.2 ∗ ⌜r.1 = c⌝)))
    (hB : ∀ (c : Dev nD) (K : Names) (W : Waits sig Unit) (v2 v14 v25 : BitVec 32) (v26 : Sems sig S_) (v226 : FVec F S256x1024 .f32), At15 m c K W v26 v226 ⊢ wp frame (wpE (defs₀ (F := F)) 𝒱₀ (c : Thread nD τ) none) Set.univ (segBProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v26 v226) (fun _ => iprop(∃ W', At27 m c K W' (Rest27 m c) c v2 v14 v25)))
    (hv : ∀ c : Dev nD, ValsD m c)
    (hT : ∀ (c : Dev nD) (K : Names) (W : Waits sig Unit) (v14 v25 v1157 : BitVec 32), AtTail m c K W ⊢ wp frame (wpE (defs₀ (F := F)) 𝒱₀ (c : Thread nD τ) none) Set.univ (tailProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1157) (fun _ => bodyPost m c)) :
    BodyOK (KFun.V m) m KFun.Kout := fun c t => by
  rw [Gen.fin_N0 t]
  rw [Gen.bigSep_W0, Gen.bigSep_W0]
  simp only [owns_whole_eq]
  show iprop(Φ₀ (KFun.V m) m c ∗ _ ∗ _) ⊢ wp frame (wpE (defs₀ (F := F)) 𝒱₀ c none) Set.univ (bodyAt0 t0_0) _
  unfold bodyAt0
  simp only [cc0_body_eq_skeleton]
  unfold Φ₀ start Dat.owesAt Pipeline.owesWithin
  rw [show (dats (KFun.V m) m KFun.Kout 0 c).owed t0_0.castSucc = O₀ c from rfl]
  iintro ⟨⟨⟨⟨%K, Hg⟩, Hcb, Hcx, Hlev, Hcs, Hhbm⟩, Hscr⟩, ⟨%W, %hW, HO⟩, Hw0, Hw1, Hw2, Hw3⟩
  iapply (body_of_segments m c K W (BodyStart m c K W) (fun _ => bodyPost m c) (hA c K W) (hB c K) (post32_at32 m c K) (segD_ok m c K (hv c)) (hT c K)) $$ [Hg Hcb Hcx Hlev Hcs Hhbm Hscr HO Hw0 Hw1 Hw2 Hw3]
  unfold BodyStart
  isplitl [Hg Hcb Hcx Hlev Hcs Hhbm Hscr]
  · isplitl [Hg Hcb Hcx Hlev Hcs Hhbm]
    · isplitl [Hg]; · iexact Hg
      isplitl [Hcb]; · iexact Hcb
      isplitl [Hcx]; · iexact Hcx
      isplitl [Hlev]; · iexact Hlev
      isplitl [Hcs]; · iexact Hcs
      iexact Hhbm
    iexact Hscr
  isplitl [HO]; · iexact HO
  isplitl [Hw0]; · iexact Hw0
  isplitl [Hw1]; · iexact Hw1
  isplitl [Hw2]; · iexact Hw2
  iexact Hw3

/-- The body obligation of every device, given the second segment. -/
theorem bodyOK_of_B (m : (ℓ : Loc nD τ sig) → Buf (Elt F) ℓ)
    (hB : ∀ (c : Dev nD) (K : Names), ∀ (W : Waits sig Unit) (v2 v14 v25 : BitVec 32) (v26 : Sems sig S_) (v226 : FVec F S256x1024 .f32), At15 m c K W v26 v226 ⊢ wp frame (wpE (defs₀ (F := F)) 𝒱₀ (c : Thread nD τ) none) Set.univ (segBProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v26 v226) (fun _ => iprop(∃ W', At27 m c K W' (Rest27 m c) c v2 v14 v25))) :
    BodyOK (KFun.V m) m KFun.Kout :=
  bodyOK_of m (fun c K W => segA_ok m c K W) (fun c K W v2 v14 v25 v26 v226 => hB c K W v2 v14 v25 v26 v226)
    (fun c => { flashO := valsD_flashO m c, flashL := valsD_flashL m c, mergeO := valsD_mergeO m c, mergeL := valsD_mergeL m c })
    (fun c K W v14 v25 v1157 => tail_ok m c K W v14 v25 v1157)

/-- The body obligation of every device. -/
theorem bodyOK (m : (ℓ : Loc nD τ sig) → Buf (Elt F) ℓ) : BodyOK (KFun.V m) m KFun.Kout :=
  bodyOK_of_B m (fun c K W v2 v14 v25 v26 v226 => segB_ok m c K W v2 v14 v25 v26 v226)

end Cert.KernelIdeal.Proto
end

/-- info: 'Cert.KernelIdeal.Proto.bodyOK_of' depends on axioms: [propext, Classical.choice, Quot.sound] -/
#guard_msgs in #print axioms Cert.KernelIdeal.Proto.bodyOK_of
/-- info: 'Cert.KernelIdeal.Proto.bodyOK_of_B' depends on axioms: [propext, Classical.choice, Quot.sound] -/
#guard_msgs in #print axioms Cert.KernelIdeal.Proto.bodyOK_of_B
/-- info: 'Cert.KernelIdeal.Proto.bodyOK' depends on axioms: [propext, Classical.choice, Quot.sound] -/
#guard_msgs in #print axioms Cert.KernelIdeal.Proto.bodyOK
-- ==== Proof.KB.Ring.lean ====
/- The ring of four devices. Successor and predecessor on the ring; which of the two each printed
   device chain names; and, for every printed offsets chain that has no generated closed form, the
   chain as a vector literal over the device's number and the loop trip or the word it is passed.

   The batches met below, for a device numbered `c`: the four attention batches are `c`, `(c + 2) % 4`,
   `(c + 3) % 4` and `(c + 1) % 4`; the partial sums merged after hop `h` come from batch `(c + 3 - h) % 4` on the
   way to the successor and `(c + h + 3) % 4` on the way to the predecessor; the finished block is `(c + 1) % 4`, and
   at hop `h` of the gathering the blocks `(c + 1 + 4 - h) % 4` and `(c + 1 + h) % 4` travel. -/
import proofs.«900754_g7700000000000755_dist_attn_cross_gqa_kvseq_b4_sq256_skv1024_d1024_hq8_dh128_v7x_i4_f32_1_alg».proof.Kernel
import proofs.«900754_g7700000000000755_dist_attn_cross_gqa_kvseq_b4_sq256_skv1024_d1024_hq8_dh128_v7x_i4_f32_1_alg».proof.Proof.Gen.Kernel

set_option Elab.async false

namespace Cert.Kernel.Ring

open Idealize.ShloMosaic

/-! ## Successor and predecessor -/

/-- The next device on the ring. -/
def nxt (c : Dev nD) : Dev nD := ⟨(c.val + 1) % 4, Nat.mod_lt _ (by decide)⟩

/-- The previous device on the ring: three steps forward. -/
def prv (c : Dev nD) : Dev nD := ⟨(c.val + 3) % 4, Nat.mod_lt _ (by decide)⟩

@[simp] theorem nxt_val (c : Dev nD) : (nxt c).val = (c.val + 1) % 4 := rfl
@[simp] theorem prv_val (c : Dev nD) : (prv c).val = (c.val + 3) % 4 := rfl

/-- One step forward then three more is a full turn. -/
theorem prv_nxt (c : Dev nD) : prv (nxt c) = c := by revert c; decide
theorem nxt_prv (c : Dev nD) : nxt (prv c) = c := by revert c; decide
/-- On four devices the two neighbours differ (they are two steps apart). -/
theorem nxt_ne_prv (c : Dev nD) : nxt c ≠ prv c := by revert c; decide
theorem nxt_ne_self (c : Dev nD) : nxt c ≠ c := by revert c; decide
theorem prv_ne_self (c : Dev nD) : prv c ≠ c := by revert c; decide
/-- Two steps forward and two steps back meet: the device opposite. -/
theorem nxt_nxt_eq_prv_prv (c : Dev nD) : nxt (nxt c) = prv (prv c) := by revert c; decide
theorem nxt_nxt_val (c : Dev nD) : (nxt (nxt c)).val = (c.val + 2) % 4 := by revert c; decide
theorem nxt_nxt_ne_self (c : Dev nD) : nxt (nxt c) ≠ c := by revert c; decide

/-- The ring as a permutation of the devices. -/
def ring : Dev nD ≃ Dev nD := ⟨nxt, prv, prv_nxt, nxt_prv⟩

/-! ## The device chains

Each chain computes `(c + 1) mod 4` or `(c + 4 - 1) mod 4` in 32-bit words with a floored remainder; on four
devices nothing wraps, so its value is the successor's or the predecessor's number. -/

theorem dev1_val : ∀ c : Dev nD, k0_dev1 c = (c.val + 3) % 4 := by decide +kernel
theorem dev2_val : ∀ c : Dev nD, k0_dev2 c = (c.val + 1) % 4 := by decide +kernel
theorem dev3_val : ∀ c : Dev nD, k0_dev3 c = (c.val + 1) % 4 := by decide +kernel
theorem dev4_val : ∀ c : Dev nD, k0_dev4 c = (c.val + 1) % 4 := by decide +kernel
theorem dev5_val : ∀ c : Dev nD, k0_dev5 c = (c.val + 3) % 4 := by decide +kernel
theorem dev6_val : ∀ c : Dev nD, k0_dev6 c = (c.val + 3) % 4 := by decide +kernel
theorem dev7_val : ∀ c : Dev nD, k0_dev7 c = (c.val + 1) % 4 := by decide +kernel
theorem dev8_val : ∀ c : Dev nD, k0_dev8 c = (c.val + 3) % 4 := by decide +kernel
theorem dev9_val : ∀ c : Dev nD, k0_dev9 c = (c.val + 1) % 4 := by decide +kernel
theorem dev10_val : ∀ c : Dev nD, k0_dev10 c = (c.val + 3) % 4 := by decide +kernel
theorem dev11_val : ∀ c : Dev nD, k0_dev11 c = (c.val + 1) % 4 := by decide +kernel
theorem dev12_val : ∀ c : Dev nD, k0_dev12 c = (c.val + 3) % 4 := by decide +kernel
theorem dev13_val : ∀ c : Dev nD, k0_dev13 c = (c.val + 1) % 4 := by decide +kernel
theorem dev14_val : ∀ c : Dev nD, k0_dev14 c = (c.val + 3) % 4 := by decide +kernel
theorem dev15_val : ∀ c : Dev nD, k0_dev15 c = (c.val + 1) % 4 := by decide +kernel
theorem dev16_val : ∀ c : Dev nD, k0_dev16 c = (c.val + 3) % 4 := by decide +kernel
theorem dev17_val : ∀ c : Dev nD, k0_dev17 c = (c.val + 1) % 4 := by decide +kernel
theorem dev18_val : ∀ c : Dev nD, k0_dev18 c = (c.val + 3) % 4 := by decide +kernel
theorem dev19_val : ∀ c : Dev nD, k0_dev19 c = (c.val + 1) % 4 := by decide +kernel
theorem dev20_val : ∀ c : Dev nD, k0_dev20 c = (c.val + 3) % 4 := by decide +kernel

/-- The first barrier signal goes to the predecessor, the second to the successor. -/
@[sl_canon] theorem dev1_eq (c : Dev nD) : (⟨k0_dev1 c, Gen.k0_dev1_lt c⟩ : Dev nD) = prv c := Fin.ext (dev1_val c)
@[sl_canon] theorem dev2_eq (c : Dev nD) : (⟨k0_dev2 c, Gen.k0_dev2_lt c⟩ : Dev nD) = nxt c := Fin.ext (dev2_val c)
/-- Hop 0: the two copies to the successor, then the two to the predecessor. -/
@[sl_canon] theorem dev3_eq (c : Dev nD) : (⟨k0_dev3 c, Gen.k0_dev3_lt c⟩ : Dev nD) = nxt c := Fin.ext (dev3_val c)
@[sl_canon] theorem dev4_eq (c : Dev nD) : (⟨k0_dev4 c, Gen.k0_dev4_lt c⟩ : Dev nD) = nxt c := Fin.ext (dev4_val c)
@[sl_canon] theorem dev5_eq (c : Dev nD) : (⟨k0_dev5 c, Gen.k0_dev5_lt c⟩ : Dev nD) = prv c := Fin.ext (dev5_val c)
@[sl_canon] theorem dev6_eq (c : Dev nD) : (⟨k0_dev6 c, Gen.k0_dev6_lt c⟩ : Dev nD) = prv c := Fin.ext (dev6_val c)
/-- Hops 1 and 2, and the three hops of the gathering: successor and predecessor in turn. -/
@[sl_canon] theorem dev7_eq (c : Dev nD) : (⟨k0_dev7 c, Gen.k0_dev7_lt c⟩ : Dev nD) = nxt c := Fin.ext (dev7_val c)
@[sl_canon] theorem dev8_eq (c : Dev nD) : (⟨k0_dev8 c, Gen.k0_dev8_lt c⟩ : Dev nD) = prv c := Fin.ext (dev8_val c)
@[sl_canon] theorem dev9_eq (c : Dev nD) : (⟨k0_dev9 c, Gen.k0_dev9_lt c⟩ : Dev nD) = nxt c := Fin.ext (dev9_val c)
@[sl_canon] theorem dev10_eq (c : Dev nD) : (⟨k0_dev10 c, Gen.k0_dev10_lt c⟩ : Dev nD) = prv c := Fin.ext (dev10_val c)
@[sl_canon] theorem dev11_eq (c : Dev nD) : (⟨k0_dev11 c, Gen.k0_dev11_lt c⟩ : Dev nD) = nxt c := Fin.ext (dev11_val c)
@[sl_canon] theorem dev12_eq (c : Dev nD) : (⟨k0_dev12 c, Gen.k0_dev12_lt c⟩ : Dev nD) = prv c := Fin.ext (dev12_val c)
@[sl_canon] theorem dev13_eq (c : Dev nD) : (⟨k0_dev13 c, Gen.k0_dev13_lt c⟩ : Dev nD) = nxt c := Fin.ext (dev13_val c)
@[sl_canon] theorem dev14_eq (c : Dev nD) : (⟨k0_dev14 c, Gen.k0_dev14_lt c⟩ : Dev nD) = prv c := Fin.ext (dev14_val c)
@[sl_canon] theorem dev15_eq (c : Dev nD) : (⟨k0_dev15 c, Gen.k0_dev15_lt c⟩ : Dev nD) = nxt c := Fin.ext (dev15_val c)
@[sl_canon] theorem dev16_eq (c : Dev nD) : (⟨k0_dev16 c, Gen.k0_dev16_lt c⟩ : Dev nD) = prv c := Fin.ext (dev16_val c)
@[sl_canon] theorem dev17_eq (c : Dev nD) : (⟨k0_dev17 c, Gen.k0_dev17_lt c⟩ : Dev nD) = nxt c := Fin.ext (dev17_val c)
@[sl_canon] theorem dev18_eq (c : Dev nD) : (⟨k0_dev18 c, Gen.k0_dev18_lt c⟩ : Dev nD) = prv c := Fin.ext (dev18_val c)
@[sl_canon] theorem dev19_eq (c : Dev nD) : (⟨k0_dev19 c, Gen.k0_dev19_lt c⟩ : Dev nD) = nxt c := Fin.ext (dev19_val c)
@[sl_canon] theorem dev20_eq (c : Dev nD) : (⟨k0_dev20 c, Gen.k0_dev20_lt c⟩ : Dev nD) = prv c := Fin.ext (dev20_val c)

/-! ## The offsets chains in closed form

A chain over a loop trip is checked at every device and trip; a chain over a word is checked at the words the
program passes, spelt as the generated in-bounds facts spell them. -/

/-! ### The first batch (the device's own): the key and value planes of query head `t`, which shares
key-value head `t / 4` of batch `c` -/

theorem off11_eq : ∀ (c : Dev nD) (t : Fin k0_t1_loop.trips), k0_off11 c t = ![0, 2 * c.val + t.val / 4, 0, 0] := by decide +kernel
theorem off12_eq : ∀ (c : Dev nD) (t : Fin k0_t1_loop.trips), k0_off12 c t = ![1, 2 * c.val + t.val / 4, 0, 0] := by decide +kernel

/-! ### The later batches' set-up, one text for the three batches `(c + w) % 4`, `w = 1, 2, 3` -/

theorem off17_eq : ∀ (c : Dev nD) (r : Fin 3), k0_off17 c (BitVec.ofNat 32 (1 + r.val)) = ![(c.val + (1 + r.val)) % 4] := by decide +kernel
theorem off18_eq : ∀ (c : Dev nD) (r₁ : Fin 3) (r₂ : Fin 2), k0_off18 c (BitVec.ofNat 32 (1 + r₁.val)) (BitVec.ofNat 32 r₂.val) = ![0, 2 * ((c.val + (1 + r₁.val)) % 4) + r₂.val, 0, 0] := by decide +kernel
theorem off19_eq : ∀ (c : Dev nD) (r : Fin 3), k0_off19 c (BitVec.ofNat 32 (1 + r.val)) = ![(c.val + (1 + r.val)) % 4, 0, 0, 0] := by decide +kernel
theorem off20_eq : ∀ (c : Dev nD) (r₁ : Fin 3) (r₂ : Fin 2), k0_off20 c (BitVec.ofNat 32 (1 + r₁.val)) (BitVec.ofNat 32 r₂.val) = ![1, 2 * ((c.val + (1 + r₁.val)) % 4) + r₂.val, 0, 0] := by decide +kernel
theorem off21_eq : ∀ (c : Dev nD) (r : Fin 3), k0_off21 c (BitVec.ofNat 32 (1 + r.val)) = ![(c.val + (1 + r.val)) % 4, 0, 1, 0] := by decide +kernel
theorem off22_eq : ∀ (c : Dev nD) (r₁ : Fin 3) (r₂ : Fin 2), k0_off22 c (BitVec.ofNat 32 (1 + r₁.val)) (BitVec.ofNat 32 r₂.val) = ![0, 2 * ((c.val + (1 + r₁.val)) % 4) + r₂.val, 0, 0] := by decide +kernel
theorem off23_eq : ∀ (c : Dev nD) (r₁ : Fin 3) (r₂ : Fin 2), k0_off23 c (BitVec.ofNat 32 (1 + r₁.val)) (BitVec.ofNat 32 r₂.val) = ![1, 2 * ((c.val + (1 + r₁.val)) % 4) + r₂.val, 0, 0] := by decide +kernel
theorem off24_eq : ∀ (c : Dev nD) (r : Fin 3), k0_off24 c (BitVec.ofNat 32 (1 + r.val)) = ![(c.val + (1 + r.val)) % 4, 0, 0] := by decide +kernel
theorem off25_eq : ∀ (c : Dev nD) (r₁ : Fin 3) (r₂ : Fin 8), k0_off25 c (BitVec.ofNat 32 (1 + r₁.val)) (BitVec.ofNat 32 r₂.val) = ![8 * ((c.val + (1 + r₁.val)) % 4) + r₂.val, 0, 0] := by decide +kernel

/-! ### The second batch, `(c + 2) % 4`: its heads' loop, and the upper four heads sent to the predecessor -/

theorem off26_eq : ∀ (c : Dev nD) (t : Fin k0_t2_loop.trips), k0_off26 c t = ![8 * ((c.val + 2) % 4) + t.val, 0, 0] := by decide +kernel
theorem off27_eq : ∀ (c : Dev nD) (t : Fin k0_t2_loop.trips), k0_off27 c t = ![0, 2 * ((c.val + 2) % 4) + t.val / 4, 0, 0] := by decide +kernel
theorem off28_eq : ∀ (c : Dev nD) (t : Fin k0_t2_loop.trips), k0_off28 c t = ![1, 2 * ((c.val + 2) % 4) + t.val / 4, 0, 0] := by decide +kernel
theorem off29_eq : ∀ (c : Dev nD) (t : Fin k0_t2_loop.trips), k0_off29 c t = ![8 * ((c.val + 2) % 4) + t.val, 0, 0] := by decide +kernel
theorem off30_eq : ∀ (c : Dev nD) (t : Fin k0_t2_loop.trips), k0_off30 c t = ![8 * ((c.val + 2) % 4) + t.val, 0, 0] := by decide +kernel
theorem off31_eq : ∀ c : Dev nD, k0_off31 c = ![8 * ((c.val + 2) % 4) + 4, 0, 0] := by decide +kernel
theorem off32_eq : ∀ c : Dev nD, k0_off32 c = ![8 * ((c.val + 2) % 4) + 4, 0, 0] := by decide +kernel

/-! ### The third batch, `(c + 3) % 4` -/

theorem off33_eq : ∀ (c : Dev nD) (t : Fin k0_t3_loop.trips), k0_off33 c t = ![8 * ((c.val + 3) % 4) + t.val, 0, 0] := by decide +kernel
theorem off34_eq : ∀ (c : Dev nD) (t : Fin k0_t3_loop.trips), k0_off34 c t = ![0, 2 * ((c.val + 3) % 4) + t.val / 4, 0, 0] := by decide +kernel
theorem off35_eq : ∀ (c : Dev nD) (t : Fin k0_t3_loop.trips), k0_off35 c t = ![1, 2 * ((c.val + 3) % 4) + t.val / 4, 0, 0] := by decide +kernel
theorem off36_eq : ∀ (c : Dev nD) (t : Fin k0_t3_loop.trips), k0_off36 c t = ![8 * ((c.val + 3) % 4) + t.val, 0, 0] := by decide +kernel
theorem off37_eq : ∀ (c : Dev nD) (t : Fin k0_t3_loop.trips), k0_off37 c t = ![8 * ((c.val + 3) % 4) + t.val, 0, 0] := by decide +kernel

/-! ### The merges after hop 0: both directions add batch `(c + 3) % 4`, the lower four heads for the
successor's stream, the upper four for the predecessor's -/

theorem off39_eq : ∀ (c : Dev nD) (t : Fin k0_t4_loop.trips), k0_off39 c t = ![8 * ((c.val + 3) % 4) + t.val, 0, 0] := by decide +kernel
theorem off41_eq : ∀ (c : Dev nD) (t : Fin k0_t4_loop.trips), k0_off41 c t = ![8 * ((c.val + 3) % 4) + t.val, 0, 0] := by decide +kernel
theorem off43_eq : ∀ (c : Dev nD) (t : Fin k0_t5_loop.trips), k0_off43 c t = ![8 * ((c.val + 3) % 4) + (t.val + 4), 0, 0] := by decide +kernel
theorem off45_eq : ∀ (c : Dev nD) (t : Fin k0_t5_loop.trips), k0_off45 c t = ![8 * ((c.val + 3) % 4) + (t.val + 4), 0, 0] := by decide +kernel

/-! ### The fourth batch, `(c + 1) % 4` -/

theorem off46_eq : ∀ (c : Dev nD) (t : Fin k0_t6_loop.trips), k0_off46 c t = ![8 * ((c.val + 1) % 4) + t.val, 0, 0] := by decide +kernel
theorem off47_eq : ∀ (c : Dev nD) (t : Fin k0_t6_loop.trips), k0_off47 c t = ![0, 2 * ((c.val + 1) % 4) + t.val / 4, 0, 0] := by decide +kernel
theorem off48_eq : ∀ (c : Dev nD) (t : Fin k0_t6_loop.trips), k0_off48 c t = ![1, 2 * ((c.val + 1) % 4) + t.val / 4, 0, 0] := by decide +kernel
theorem off49_eq : ∀ (c : Dev nD) (t : Fin k0_t6_loop.trips), k0_off49 c t = ![8 * ((c.val + 1) % 4) + t.val, 0, 0] := by decide +kernel
theorem off50_eq : ∀ (c : Dev nD) (t : Fin k0_t6_loop.trips), k0_off50 c t = ![8 * ((c.val + 1) % 4) + t.val, 0, 0] := by decide +kernel

/-! ### The merges after hop 1: batch `(c + 2) % 4` for the successor's stream, the device's own batch for the
predecessor's -/

theorem off52_eq : ∀ (c : Dev nD) (t : Fin k0_t7_loop.trips), k0_off52 c t = ![8 * ((c.val + 2) % 4) + t.val, 0, 0] := by decide +kernel
theorem off54_eq : ∀ (c : Dev nD) (t : Fin k0_t7_loop.trips), k0_off54 c t = ![8 * ((c.val + 2) % 4) + t.val, 0, 0] := by decide +kernel
theorem off56_eq : ∀ (c : Dev nD) (t : Fin k0_t8_loop.trips), k0_off56 c t = ![8 * c.val + (t.val + 4), 0, 0] := by decide +kernel
theorem off58_eq : ∀ (c : Dev nD) (t : Fin k0_t8_loop.trips), k0_off58 c t = ![8 * c.val + (t.val + 4), 0, 0] := by decide +kernel

/-! ### The merges after hop 2: both directions add batch `(c + 1) % 4`, which is then complete -/

theorem off60_eq : ∀ (c : Dev nD) (t : Fin k0_t9_loop.trips), k0_off60 c t = ![8 * ((c.val + 1) % 4) + t.val, 0, 0] := by decide +kernel
theorem off62_eq : ∀ (c : Dev nD) (t : Fin k0_t9_loop.trips), k0_off62 c t = ![8 * ((c.val + 1) % 4) + t.val, 0, 0] := by decide +kernel
theorem off64_eq : ∀ (c : Dev nD) (t : Fin k0_t10_loop.trips), k0_off64 c t = ![8 * ((c.val + 1) % 4) + (t.val + 4), 0, 0] := by decide +kernel
theorem off66_eq : ∀ (c : Dev nD) (t : Fin k0_t10_loop.trips), k0_off66 c t = ![8 * ((c.val + 1) % 4) + (t.val + 4), 0, 0] := by decide +kernel

/-! ### The gathering: at hop `r` the upper half-rows of block `(c + 1 + 4 - r) % 4` go to the successor and the
lower half-rows (from row 128) of block `(c + 1 + r) % 4` to the predecessor -/

theorem off67_eq : ∀ (c : Dev nD) (r : Fin 3), k0_off67 c (BitVec.ofNat 32 r.val) = ![(c.val + 5 - r.val) % 4, 0, 0] := by decide +kernel
theorem off68_eq : ∀ (c : Dev nD) (r : Fin 3), k0_off68 c (BitVec.ofNat 32 r.val) = ![(c.val + 1 + r.val) % 4, 128, 0] := by decide +kernel

/-! ## The closed forms as instances

The same closed forms, attached to each chain where the program applies it: at the device and trip for a chain
over a loop, at each literal word for a chain over a word. -/

instance closedOff_k0_off11 (c : Dev nD) (t : Fin k0_t1_loop.trips) : ClosedOff (k0_off11 c t) := ⟨![0, 2 * c.val + t.val / 4, 0, 0], off11_eq c t⟩
instance closedOff_k0_off12 (c : Dev nD) (t : Fin k0_t1_loop.trips) : ClosedOff (k0_off12 c t) := ⟨![1, 2 * c.val + t.val / 4, 0, 0], off12_eq c t⟩

instance closedOff_k0_off17_1 (c : Dev nD) : ClosedOff (k0_off17 c (BitVec.ofNat 32 1)) := ⟨![(c.val + 1) % 4], off17_eq c ⟨0, by decide⟩⟩
instance closedOff_k0_off17_2 (c : Dev nD) : ClosedOff (k0_off17 c (BitVec.ofNat 32 2)) := ⟨![(c.val + 2) % 4], off17_eq c ⟨1, by decide⟩⟩
instance closedOff_k0_off17_3 (c : Dev nD) : ClosedOff (k0_off17 c (BitVec.ofNat 32 3)) := ⟨![(c.val + 3) % 4], off17_eq c ⟨2, by decide⟩⟩

instance closedOff_k0_off18_1_0 (c : Dev nD) : ClosedOff (k0_off18 c (BitVec.ofNat 32 1) (BitVec.ofNat 32 0)) := ⟨![0, 2 * ((c.val + 1) % 4) + 0, 0, 0], off18_eq c ⟨0, by decide⟩ ⟨0, by decide⟩⟩
instance closedOff_k0_off18_1_1 (c : Dev nD) : ClosedOff (k0_off18 c (BitVec.ofNat 32 1) (BitVec.ofNat 32 1)) := ⟨![0, 2 * ((c.val + 1) % 4) + 1, 0, 0], off18_eq c ⟨0, by decide⟩ ⟨1, by decide⟩⟩
instance closedOff_k0_off18_2_0 (c : Dev nD) : ClosedOff (k0_off18 c (BitVec.ofNat 32 2) (BitVec.ofNat 32 0)) := ⟨![0, 2 * ((c.val + 2) % 4) + 0, 0, 0], off18_eq c ⟨1, by decide⟩ ⟨0, by decide⟩⟩
instance closedOff_k0_off18_2_1 (c : Dev nD) : ClosedOff (k0_off18 c (BitVec.ofNat 32 2) (BitVec.ofNat 32 1)) := ⟨![0, 2 * ((c.val + 2) % 4) + 1, 0, 0], off18_eq c ⟨1, by decide⟩ ⟨1, by decide⟩⟩
instance closedOff_k0_off18_3_0 (c : Dev nD) : ClosedOff (k0_off18 c (BitVec.ofNat 32 3) (BitVec.ofNat 32 0)) := ⟨![0, 2 * ((c.val + 3) % 4) + 0, 0, 0], off18_eq c ⟨2, by decide⟩ ⟨0, by decide⟩⟩
instance closedOff_k0_off18_3_1 (c : Dev nD) : ClosedOff (k0_off18 c (BitVec.ofNat 32 3) (BitVec.ofNat 32 1)) := ⟨![0, 2 * ((c.val + 3) % 4) + 1, 0, 0], off18_eq c ⟨2, by decide⟩ ⟨1, by decide⟩⟩

instance closedOff_k0_off19_1 (c : Dev nD) : ClosedOff (k0_off19 c (BitVec.ofNat 32 1)) := ⟨![(c.val + 1) % 4, 0, 0, 0], off19_eq c ⟨0, by decide⟩⟩
instance closedOff_k0_off19_2 (c : Dev nD) : ClosedOff (k0_off19 c (BitVec.ofNat 32 2)) := ⟨![(c.val + 2) % 4, 0, 0, 0], off19_eq c ⟨1, by decide⟩⟩
instance closedOff_k0_off19_3 (c : Dev nD) : ClosedOff (k0_off19 c (BitVec.ofNat 32 3)) := ⟨![(c.val + 3) % 4, 0, 0, 0], off19_eq c ⟨2, by decide⟩⟩

instance closedOff_k0_off20_1_0 (c : Dev nD) : ClosedOff (k0_off20 c (BitVec.ofNat 32 1) (BitVec.ofNat 32 0)) := ⟨![1, 2 * ((c.val + 1) % 4) + 0, 0, 0], off20_eq c ⟨0, by decide⟩ ⟨0, by decide⟩⟩
instance closedOff_k0_off20_1_1 (c : Dev nD) : ClosedOff (k0_off20 c (BitVec.ofNat 32 1) (BitVec.ofNat 32 1)) := ⟨![1, 2 * ((c.val + 1) % 4) + 1, 0, 0], off20_eq c ⟨0, by decide⟩ ⟨1, by decide⟩⟩
instance closedOff_k0_off20_2_0 (c : Dev nD) : ClosedOff (k0_off20 c (BitVec.ofNat 32 2) (BitVec.ofNat 32 0)) := ⟨![1, 2 * ((c.val + 2) % 4) + 0, 0, 0], off20_eq c ⟨1, by decide⟩ ⟨0, by decide⟩⟩
instance closedOff_k0_off20_2_1 (c : Dev nD) : ClosedOff (k0_off20 c (BitVec.ofNat 32 2) (BitVec.ofNat 32 1)) := ⟨![1, 2 * ((c.val + 2) % 4) + 1, 0, 0], off20_eq c ⟨1, by decide⟩ ⟨1, by decide⟩⟩
instance closedOff_k0_off20_3_0 (c : Dev nD) : ClosedOff (k0_off20 c (BitVec.ofNat 32 3) (BitVec.ofNat 32 0)) := ⟨![1, 2 * ((c.val + 3) % 4) + 0, 0, 0], off20_eq c ⟨2, by decide⟩ ⟨0, by decide⟩⟩
instance closedOff_k0_off20_3_1 (c : Dev nD) : ClosedOff (k0_off20 c (BitVec.ofNat 32 3) (BitVec.ofNat 32 1)) := ⟨![1, 2 * ((c.val + 3) % 4) + 1, 0, 0], off20_eq c ⟨2, by decide⟩ ⟨1, by decide⟩⟩

instance closedOff_k0_off21_1 (c : Dev nD) : ClosedOff (k0_off21 c (BitVec.ofNat 32 1)) := ⟨![(c.val + 1) % 4, 0, 1, 0], off21_eq c ⟨0, by decide⟩⟩
instance closedOff_k0_off21_2 (c : Dev nD) : ClosedOff (k0_off21 c (BitVec.ofNat 32 2)) := ⟨![(c.val + 2) % 4, 0, 1, 0], off21_eq c ⟨1, by decide⟩⟩
instance closedOff_k0_off21_3 (c : Dev nD) : ClosedOff (k0_off21 c (BitVec.ofNat 32 3)) := ⟨![(c.val + 3) % 4, 0, 1, 0], off21_eq c ⟨2, by decide⟩⟩

instance closedOff_k0_off22_1_0 (c : Dev nD) : ClosedOff (k0_off22 c (BitVec.ofNat 32 1) (BitVec.ofNat 32 0)) := ⟨![0, 2 * ((c.val + 1) % 4) + 0, 0, 0], off22_eq c ⟨0, by decide⟩ ⟨0, by decide⟩⟩
instance closedOff_k0_off22_1_1 (c : Dev nD) : ClosedOff (k0_off22 c (BitVec.ofNat 32 1) (BitVec.ofNat 32 1)) := ⟨![0, 2 * ((c.val + 1) % 4) + 1, 0, 0], off22_eq c ⟨0, by decide⟩ ⟨1, by decide⟩⟩
instance closedOff_k0_off22_2_0 (c : Dev nD) : ClosedOff (k0_off22 c (BitVec.ofNat 32 2) (BitVec.ofNat 32 0)) := ⟨![0, 2 * ((c.val + 2) % 4) + 0, 0, 0], off22_eq c ⟨1, by decide⟩ ⟨0, by decide⟩⟩
instance closedOff_k0_off22_2_1 (c : Dev nD) : ClosedOff (k0_off22 c (BitVec.ofNat 32 2) (BitVec.ofNat 32 1)) := ⟨![0, 2 * ((c.val + 2) % 4) + 1, 0, 0], off22_eq c ⟨1, by decide⟩ ⟨1, by decide⟩⟩
instance closedOff_k0_off22_3_0 (c : Dev nD) : ClosedOff (k0_off22 c (BitVec.ofNat 32 3) (BitVec.ofNat 32 0)) := ⟨![0, 2 * ((c.val + 3) % 4) + 0, 0, 0], off22_eq c ⟨2, by decide⟩ ⟨0, by decide⟩⟩
instance closedOff_k0_off22_3_1 (c : Dev nD) : ClosedOff (k0_off22 c (BitVec.ofNat 32 3) (BitVec.ofNat 32 1)) := ⟨![0, 2 * ((c.val + 3) % 4) + 1, 0, 0], off22_eq c ⟨2, by decide⟩ ⟨1, by decide⟩⟩

instance closedOff_k0_off23_1_0 (c : Dev nD) : ClosedOff (k0_off23 c (BitVec.ofNat 32 1) (BitVec.ofNat 32 0)) := ⟨![1, 2 * ((c.val + 1) % 4) + 0, 0, 0], off23_eq c ⟨0, by decide⟩ ⟨0, by decide⟩⟩
instance closedOff_k0_off23_1_1 (c : Dev nD) : ClosedOff (k0_off23 c (BitVec.ofNat 32 1) (BitVec.ofNat 32 1)) := ⟨![1, 2 * ((c.val + 1) % 4) + 1, 0, 0], off23_eq c ⟨0, by decide⟩ ⟨1, by decide⟩⟩
instance closedOff_k0_off23_2_0 (c : Dev nD) : ClosedOff (k0_off23 c (BitVec.ofNat 32 2) (BitVec.ofNat 32 0)) := ⟨![1, 2 * ((c.val + 2) % 4) + 0, 0, 0], off23_eq c ⟨1, by decide⟩ ⟨0, by decide⟩⟩
instance closedOff_k0_off23_2_1 (c : Dev nD) : ClosedOff (k0_off23 c (BitVec.ofNat 32 2) (BitVec.ofNat 32 1)) := ⟨![1, 2 * ((c.val + 2) % 4) + 1, 0, 0], off23_eq c ⟨1, by decide⟩ ⟨1, by decide⟩⟩
instance closedOff_k0_off23_3_0 (c : Dev nD) : ClosedOff (k0_off23 c (BitVec.ofNat 32 3) (BitVec.ofNat 32 0)) := ⟨![1, 2 * ((c.val + 3) % 4) + 0, 0, 0], off23_eq c ⟨2, by decide⟩ ⟨0, by decide⟩⟩
instance closedOff_k0_off23_3_1 (c : Dev nD) : ClosedOff (k0_off23 c (BitVec.ofNat 32 3) (BitVec.ofNat 32 1)) := ⟨![1, 2 * ((c.val + 3) % 4) + 1, 0, 0], off23_eq c ⟨2, by decide⟩ ⟨1, by decide⟩⟩

instance closedOff_k0_off24_1 (c : Dev nD) : ClosedOff (k0_off24 c (BitVec.ofNat 32 1)) := ⟨![(c.val + 1) % 4, 0, 0], off24_eq c ⟨0, by decide⟩⟩
instance closedOff_k0_off24_2 (c : Dev nD) : ClosedOff (k0_off24 c (BitVec.ofNat 32 2)) := ⟨![(c.val + 2) % 4, 0, 0], off24_eq c ⟨1, by decide⟩⟩
instance closedOff_k0_off24_3 (c : Dev nD) : ClosedOff (k0_off24 c (BitVec.ofNat 32 3)) := ⟨![(c.val + 3) % 4, 0, 0], off24_eq c ⟨2, by decide⟩⟩

instance closedOff_k0_off25_1_0 (c : Dev nD) : ClosedOff (k0_off25 c (BitVec.ofNat 32 1) (BitVec.ofNat 32 0)) := ⟨![8 * ((c.val + 1) % 4) + 0, 0, 0], off25_eq c ⟨0, by decide⟩ ⟨0, by decide⟩⟩
instance closedOff_k0_off25_1_1 (c : Dev nD) : ClosedOff (k0_off25 c (BitVec.ofNat 32 1) (BitVec.ofNat 32 1)) := ⟨![8 * ((c.val + 1) % 4) + 1, 0, 0], off25_eq c ⟨0, by decide⟩ ⟨1, by decide⟩⟩
instance closedOff_k0_off25_1_2 (c : Dev nD) : ClosedOff (k0_off25 c (BitVec.ofNat 32 1) (BitVec.ofNat 32 2)) := ⟨![8 * ((c.val + 1) % 4) + 2, 0, 0], off25_eq c ⟨0, by decide⟩ ⟨2, by decide⟩⟩
instance closedOff_k0_off25_1_3 (c : Dev nD) : ClosedOff (k0_off25 c (BitVec.ofNat 32 1) (BitVec.ofNat 32 3)) := ⟨![8 * ((c.val + 1) % 4) + 3, 0, 0], off25_eq c ⟨0, by decide⟩ ⟨3, by decide⟩⟩
instance closedOff_k0_off25_1_4 (c : Dev nD) : ClosedOff (k0_off25 c (BitVec.ofNat 32 1) (BitVec.ofNat 32 4)) := ⟨![8 * ((c.val + 1) % 4) + 4, 0, 0], off25_eq c ⟨0, by decide⟩ ⟨4, by decide⟩⟩
instance closedOff_k0_off25_1_5 (c : Dev nD) : ClosedOff (k0_off25 c (BitVec.ofNat 32 1) (BitVec.ofNat 32 5)) := ⟨![8 * ((c.val + 1) % 4) + 5, 0, 0], off25_eq c ⟨0, by decide⟩ ⟨5, by decide⟩⟩
instance closedOff_k0_off25_1_6 (c : Dev nD) : ClosedOff (k0_off25 c (BitVec.ofNat 32 1) (BitVec.ofNat 32 6)) := ⟨![8 * ((c.val + 1) % 4) + 6, 0, 0], off25_eq c ⟨0, by decide⟩ ⟨6, by decide⟩⟩
instance closedOff_k0_off25_1_7 (c : Dev nD) : ClosedOff (k0_off25 c (BitVec.ofNat 32 1) (BitVec.ofNat 32 7)) := ⟨![8 * ((c.val + 1) % 4) + 7, 0, 0], off25_eq c ⟨0, by decide⟩ ⟨7, by decide⟩⟩
instance closedOff_k0_off25_2_0 (c : Dev nD) : ClosedOff (k0_off25 c (BitVec.ofNat 32 2) (BitVec.ofNat 32 0)) := ⟨![8 * ((c.val + 2) % 4) + 0, 0, 0], off25_eq c ⟨1, by decide⟩ ⟨0, by decide⟩⟩
instance closedOff_k0_off25_2_1 (c : Dev nD) : ClosedOff (k0_off25 c (BitVec.ofNat 32 2) (BitVec.ofNat 32 1)) := ⟨![8 * ((c.val + 2) % 4) + 1, 0, 0], off25_eq c ⟨1, by decide⟩ ⟨1, by decide⟩⟩
instance closedOff_k0_off25_2_2 (c : Dev nD) : ClosedOff (k0_off25 c (BitVec.ofNat 32 2) (BitVec.ofNat 32 2)) := ⟨![8 * ((c.val + 2) % 4) + 2, 0, 0], off25_eq c ⟨1, by decide⟩ ⟨2, by decide⟩⟩
instance closedOff_k0_off25_2_3 (c : Dev nD) : ClosedOff (k0_off25 c (BitVec.ofNat 32 2) (BitVec.ofNat 32 3)) := ⟨![8 * ((c.val + 2) % 4) + 3, 0, 0], off25_eq c ⟨1, by decide⟩ ⟨3, by decide⟩⟩
instance closedOff_k0_off25_2_4 (c : Dev nD) : ClosedOff (k0_off25 c (BitVec.ofNat 32 2) (BitVec.ofNat 32 4)) := ⟨![8 * ((c.val + 2) % 4) + 4, 0, 0], off25_eq c ⟨1, by decide⟩ ⟨4, by decide⟩⟩
instance closedOff_k0_off25_2_5 (c : Dev nD) : ClosedOff (k0_off25 c (BitVec.ofNat 32 2) (BitVec.ofNat 32 5)) := ⟨![8 * ((c.val + 2) % 4) + 5, 0, 0], off25_eq c ⟨1, by decide⟩ ⟨5, by decide⟩⟩
instance closedOff_k0_off25_2_6 (c : Dev nD) : ClosedOff (k0_off25 c (BitVec.ofNat 32 2) (BitVec.ofNat 32 6)) := ⟨![8 * ((c.val + 2) % 4) + 6, 0, 0], off25_eq c ⟨1, by decide⟩ ⟨6, by decide⟩⟩
instance closedOff_k0_off25_2_7 (c : Dev nD) : ClosedOff (k0_off25 c (BitVec.ofNat 32 2) (BitVec.ofNat 32 7)) := ⟨![8 * ((c.val + 2) % 4) + 7, 0, 0], off25_eq c ⟨1, by decide⟩ ⟨7, by decide⟩⟩
instance closedOff_k0_off25_3_0 (c : Dev nD) : ClosedOff (k0_off25 c (BitVec.ofNat 32 3) (BitVec.ofNat 32 0)) := ⟨![8 * ((c.val + 3) % 4) + 0, 0, 0], off25_eq c ⟨2, by decide⟩ ⟨0, by decide⟩⟩
instance closedOff_k0_off25_3_1 (c : Dev nD) : ClosedOff (k0_off25 c (BitVec.ofNat 32 3) (BitVec.ofNat 32 1)) := ⟨![8 * ((c.val + 3) % 4) + 1, 0, 0], off25_eq c ⟨2, by decide⟩ ⟨1, by decide⟩⟩
instance closedOff_k0_off25_3_2 (c : Dev nD) : ClosedOff (k0_off25 c (BitVec.ofNat 32 3) (BitVec.ofNat 32 2)) := ⟨![8 * ((c.val + 3) % 4) + 2, 0, 0], off25_eq c ⟨2, by decide⟩ ⟨2, by decide⟩⟩
instance closedOff_k0_off25_3_3 (c : Dev nD) : ClosedOff (k0_off25 c (BitVec.ofNat 32 3) (BitVec.ofNat 32 3)) := ⟨![8 * ((c.val + 3) % 4) + 3, 0, 0], off25_eq c ⟨2, by decide⟩ ⟨3, by decide⟩⟩
instance closedOff_k0_off25_3_4 (c : Dev nD) : ClosedOff (k0_off25 c (BitVec.ofNat 32 3) (BitVec.ofNat 32 4)) := ⟨![8 * ((c.val + 3) % 4) + 4, 0, 0], off25_eq c ⟨2, by decide⟩ ⟨4, by decide⟩⟩
instance closedOff_k0_off25_3_5 (c : Dev nD) : ClosedOff (k0_off25 c (BitVec.ofNat 32 3) (BitVec.ofNat 32 5)) := ⟨![8 * ((c.val + 3) % 4) + 5, 0, 0], off25_eq c ⟨2, by decide⟩ ⟨5, by decide⟩⟩
instance closedOff_k0_off25_3_6 (c : Dev nD) : ClosedOff (k0_off25 c (BitVec.ofNat 32 3) (BitVec.ofNat 32 6)) := ⟨![8 * ((c.val + 3) % 4) + 6, 0, 0], off25_eq c ⟨2, by decide⟩ ⟨6, by decide⟩⟩
instance closedOff_k0_off25_3_7 (c : Dev nD) : ClosedOff (k0_off25 c (BitVec.ofNat 32 3) (BitVec.ofNat 32 7)) := ⟨![8 * ((c.val + 3) % 4) + 7, 0, 0], off25_eq c ⟨2, by decide⟩ ⟨7, by decide⟩⟩

instance closedOff_k0_off26 (c : Dev nD) (t : Fin k0_t2_loop.trips) : ClosedOff (k0_off26 c t) := ⟨![8 * ((c.val + 2) % 4) + t.val, 0, 0], off26_eq c t⟩
instance closedOff_k0_off27 (c : Dev nD) (t : Fin k0_t2_loop.trips) : ClosedOff (k0_off27 c t) := ⟨![0, 2 * ((c.val + 2) % 4) + t.val / 4, 0, 0], off27_eq c t⟩
instance closedOff_k0_off28 (c : Dev nD) (t : Fin k0_t2_loop.trips) : ClosedOff (k0_off28 c t) := ⟨![1, 2 * ((c.val + 2) % 4) + t.val / 4, 0, 0], off28_eq c t⟩
instance closedOff_k0_off29 (c : Dev nD) (t : Fin k0_t2_loop.trips) : ClosedOff (k0_off29 c t) := ⟨![8 * ((c.val + 2) % 4) + t.val, 0, 0], off29_eq c t⟩
instance closedOff_k0_off30 (c : Dev nD) (t : Fin k0_t2_loop.trips) : ClosedOff (k0_off30 c t) := ⟨![8 * ((c.val + 2) % 4) + t.val, 0, 0], off30_eq c t⟩
instance closedOff_k0_off31 (c : Dev nD) : ClosedOff (k0_off31 c) := ⟨![8 * ((c.val + 2) % 4) + 4, 0, 0], off31_eq c⟩
instance closedOff_k0_off32 (c : Dev nD) : ClosedOff (k0_off32 c) := ⟨![8 * ((c.val + 2) % 4) + 4, 0, 0], off32_eq c⟩

instance closedOff_k0_off33 (c : Dev nD) (t : Fin k0_t3_loop.trips) : ClosedOff (k0_off33 c t) := ⟨![8 * ((c.val + 3) % 4) + t.val, 0, 0], off33_eq c t⟩
instance closedOff_k0_off34 (c : Dev nD) (t : Fin k0_t3_loop.trips) : ClosedOff (k0_off34 c t) := ⟨![0, 2 * ((c.val + 3) % 4) + t.val / 4, 0, 0], off34_eq c t⟩
instance closedOff_k0_off35 (c : Dev nD) (t : Fin k0_t3_loop.trips) : ClosedOff (k0_off35 c t) := ⟨![1, 2 * ((c.val + 3) % 4) + t.val / 4, 0, 0], off35_eq c t⟩
instance closedOff_k0_off36 (c : Dev nD) (t : Fin k0_t3_loop.trips) : ClosedOff (k0_off36 c t) := ⟨![8 * ((c.val + 3) % 4) + t.val, 0, 0], off36_eq c t⟩
instance closedOff_k0_off37 (c : Dev nD) (t : Fin k0_t3_loop.trips) : ClosedOff (k0_off37 c t) := ⟨![8 * ((c.val + 3) % 4) + t.val, 0, 0], off37_eq c t⟩

instance closedOff_k0_off39 (c : Dev nD) (t : Fin k0_t4_loop.trips) : ClosedOff (k0_off39 c t) := ⟨![8 * ((c.val + 3) % 4) + t.val, 0, 0], off39_eq c t⟩
instance closedOff_k0_off41 (c : Dev nD) (t : Fin k0_t4_loop.trips) : ClosedOff (k0_off41 c t) := ⟨![8 * ((c.val + 3) % 4) + t.val, 0, 0], off41_eq c t⟩
instance closedOff_k0_off43 (c : Dev nD) (t : Fin k0_t5_loop.trips) : ClosedOff (k0_off43 c t) := ⟨![8 * ((c.val + 3) % 4) + (t.val + 4), 0, 0], off43_eq c t⟩
instance closedOff_k0_off45 (c : Dev nD) (t : Fin k0_t5_loop.trips) : ClosedOff (k0_off45 c t) := ⟨![8 * ((c.val + 3) % 4) + (t.val + 4), 0, 0], off45_eq c t⟩

instance closedOff_k0_off46 (c : Dev nD) (t : Fin k0_t6_loop.trips) : ClosedOff (k0_off46 c t) := ⟨![8 * ((c.val + 1) % 4) + t.val, 0, 0], off46_eq c t⟩
instance closedOff_k0_off47 (c : Dev nD) (t : Fin k0_t6_loop.trips) : ClosedOff (k0_off47 c t) := ⟨![0, 2 * ((c.val + 1) % 4) + t.val / 4, 0, 0], off47_eq c t⟩
instance closedOff_k0_off48 (c : Dev nD) (t : Fin k0_t6_loop.trips) : ClosedOff (k0_off48 c t) := ⟨![1, 2 * ((c.val + 1) % 4) + t.val / 4, 0, 0], off48_eq c t⟩
instance closedOff_k0_off49 (c : Dev nD) (t : Fin k0_t6_loop.trips) : ClosedOff (k0_off49 c t) := ⟨![8 * ((c.val + 1) % 4) + t.val, 0, 0], off49_eq c t⟩
instance closedOff_k0_off50 (c : Dev nD) (t : Fin k0_t6_loop.trips) : ClosedOff (k0_off50 c t) := ⟨![8 * ((c.val + 1) % 4) + t.val, 0, 0], off50_eq c t⟩

instance closedOff_k0_off52 (c : Dev nD) (t : Fin k0_t7_loop.trips) : ClosedOff (k0_off52 c t) := ⟨![8 * ((c.val + 2) % 4) + t.val, 0, 0], off52_eq c t⟩
instance closedOff_k0_off54 (c : Dev nD) (t : Fin k0_t7_loop.trips) : ClosedOff (k0_off54 c t) := ⟨![8 * ((c.val + 2) % 4) + t.val, 0, 0], off54_eq c t⟩
instance closedOff_k0_off56 (c : Dev nD) (t : Fin k0_t8_loop.trips) : ClosedOff (k0_off56 c t) := ⟨![8 * c.val + (t.val + 4), 0, 0], off56_eq c t⟩
instance closedOff_k0_off58 (c : Dev nD) (t : Fin k0_t8_loop.trips) : ClosedOff (k0_off58 c t) := ⟨![8 * c.val + (t.val + 4), 0, 0], off58_eq c t⟩

instance closedOff_k0_off60 (c : Dev nD) (t : Fin k0_t9_loop.trips) : ClosedOff (k0_off60 c t) := ⟨![8 * ((c.val + 1) % 4) + t.val, 0, 0], off60_eq c t⟩
instance closedOff_k0_off62 (c : Dev nD) (t : Fin k0_t9_loop.trips) : ClosedOff (k0_off62 c t) := ⟨![8 * ((c.val + 1) % 4) + t.val, 0, 0], off62_eq c t⟩
instance closedOff_k0_off64 (c : Dev nD) (t : Fin k0_t10_loop.trips) : ClosedOff (k0_off64 c t) := ⟨![8 * ((c.val + 1) % 4) + (t.val + 4), 0, 0], off64_eq c t⟩
instance closedOff_k0_off66 (c : Dev nD) (t : Fin k0_t10_loop.trips) : ClosedOff (k0_off66 c t) := ⟨![8 * ((c.val + 1) % 4) + (t.val + 4), 0, 0], off66_eq c t⟩

/-- The gathering's blocks at each hop, with the remainder worked out: towards the successor the blocks
    `c + 1`, `c`, `c + 3` (mod 4) in turn, towards the predecessor `c + 1`, `c + 2`, `c + 3`. -/
theorem off67_at0 : ∀ c : Dev nD, k0_off67 c (BitVec.ofNat 32 0) = ![(c.val + 1) % 4, 0, 0] := by decide +kernel
theorem off67_at1 : ∀ c : Dev nD, k0_off67 c (BitVec.ofNat 32 1) = ![c.val, 0, 0] := by decide +kernel
theorem off67_at2 : ∀ c : Dev nD, k0_off67 c (BitVec.ofNat 32 2) = ![(c.val + 3) % 4, 0, 0] := by decide +kernel
theorem off68_at0 : ∀ c : Dev nD, k0_off68 c (BitVec.ofNat 32 0) = ![(c.val + 1) % 4, 128, 0] := by decide +kernel
theorem off68_at1 : ∀ c : Dev nD, k0_off68 c (BitVec.ofNat 32 1) = ![(c.val + 2) % 4, 128, 0] := by decide +kernel
theorem off68_at2 : ∀ c : Dev nD, k0_off68 c (BitVec.ofNat 32 2) = ![(c.val + 3) % 4, 128, 0] := by decide +kernel

instance closedOff_k0_off67_0 (c : Dev nD) : ClosedOff (k0_off67 c (BitVec.ofNat 32 0)) := ⟨![(c.val + 1) % 4, 0, 0], off67_at0 c⟩
instance closedOff_k0_off67_1 (c : Dev nD) : ClosedOff (k0_off67 c (BitVec.ofNat 32 1)) := ⟨![c.val, 0, 0], off67_at1 c⟩
instance closedOff_k0_off67_2 (c : Dev nD) : ClosedOff (k0_off67 c (BitVec.ofNat 32 2)) := ⟨![(c.val + 3) % 4, 0, 0], off67_at2 c⟩
instance closedOff_k0_off68_0 (c : Dev nD) : ClosedOff (k0_off68 c (BitVec.ofNat 32 0)) := ⟨![(c.val + 1) % 4, 128, 0], off68_at0 c⟩
instance closedOff_k0_off68_1 (c : Dev nD) : ClosedOff (k0_off68 c (BitVec.ofNat 32 1)) := ⟨![(c.val + 2) % 4, 128, 0], off68_at1 c⟩
instance closedOff_k0_off68_2 (c : Dev nD) : ClosedOff (k0_off68 c (BitVec.ofNat 32 2)) := ⟨![(c.val + 3) % 4, 128, 0], off68_at2 c⟩

end Cert.Kernel.Ring
-- ==== Proof.KB.Sched.lean ====
/-
  The ring protocol of the attention kernel as a schedule of rounds.

  Device `c` (its neighbours `prv c = c − 1`, `nxt c = c + 1` modulo 4) owns, besides the runtime's barrier semaphore,
  thirty-six DMA cells: for each of the three hops and each of the six transfer kinds — the numerator block, the
  denominator rows and the result rows, travelling right (to `nxt`) or left (to `prv`) — a SEND cell, credited by the
  read-out of `c`'s own transfer, and a RECEIVE cell, credited by the landing of the neighbour's. Every cell has one round.
  The barrier cell's round has two duties of one unit, one per neighbour: with its unit a neighbour hands `c` the nine
  landing slices `c`'s transfers towards it will write, and the fact that it stands at round 0 of the nine receive cells
  those transfers credit. A receive duty hands the landing slice back to its owner at the sender's contents; a send duty
  hands the source slice back.
-/
import proofs.«900754_g7700000000000755_dist_attn_cross_gqa_kvseq_b4_sq256_skv1024_d1024_hq8_dh128_v7x_i4_f32_1_alg».proof.Kernel
import proofs.«900754_g7700000000000755_dist_attn_cross_gqa_kvseq_b4_sq256_skv1024_d1024_hq8_dh128_v7x_i4_f32_1_alg».proof.Proof.Gen.Kernel
import proofs.«900754_g7700000000000755_dist_attn_cross_gqa_kvseq_b4_sq256_skv1024_d1024_hq8_dh128_v7x_i4_f32_1_alg».proof.Proof.Gen.Kernel.Launch
import proofs.«900754_g7700000000000755_dist_attn_cross_gqa_kvseq_b4_sq256_skv1024_d1024_hq8_dh128_v7x_i4_f32_1_alg».proof.Proof.KB.Ring
import Idealize.ShloMosaic.Lib.Pipeline.Launch
import Idealize.ShloMosaic.Lib.Pipeline.Kit

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the ring's, and the transfers' counters, side by side -/

abbrev UB : Type := URounds (GSem nD τ sig) Bool
/-- The counters sit in the right factor, where the transfers' invariants look for them. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The buffers the ring moves, and their slices -/

/-- The per-device partial numerators and denominators (32 batch·head entries), the ring's three hop stages, the gathered result. -/
abbrev locO : Memref sig .tc .vmem S32x128x256 .bf16 := Memref.whole cc0_scratch0
abbrev locL : Memref sig .tc .vmem S32x1x256 .f32 := Memref.whole cc0_scratch1
abbrev rsO : Memref sig .tc .vmem S3x8x128x256 .bf16 := Memref.whole cc0_scratch2
abbrev rsL : Memref sig .tc .vmem S3x8x1x256 .f32 := Memref.whole cc0_scratch3
abbrev agB : Memref sig .tc .vmem S4x256x1024 .bf16 := Memref.whole cc0_scratch23

/-- Hop `h`'s landing slice of the numerators: heads 0–3 (from the left neighbour) or 4–7 (from the right one). -/
def dstO : Fin 3 → Bool → Memref sig .tc .vmem S4x128x256 .bf16
  | 0, false => (rsO.slice (Rect.unit (s := S3x8x128x256) ![0, 0, 0, 0] S1x4x128x256.size inb_S3x8x128x256_S1x4x128x256_0_0_0_0) (fun _ => rfl)).squeeze S4x128x256 squeezes_S1x4x128x256_S4x128x256
  | 0, true => (rsO.slice (Rect.unit (s := S3x8x128x256) ![0, 4, 0, 0] S1x4x128x256.size inb_S3x8x128x256_S1x4x128x256_0_4_0_0) (fun _ => rfl)).squeeze S4x128x256 squeezes_S1x4x128x256_S4x128x256
  | 1, false => (rsO.slice (Rect.unit (s := S3x8x128x256) ![1, 0, 0, 0] S1x4x128x256.size inb_S3x8x128x256_S1x4x128x256_1_0_0_0) (fun _ => rfl)).squeeze S4x128x256 squeezes_S1x4x128x256_S4x128x256
  | 1, true => (rsO.slice (Rect.unit (s := S3x8x128x256) ![1, 4, 0, 0] S1x4x128x256.size inb_S3x8x128x256_S1x4x128x256_1_4_0_0) (fun _ => rfl)).squeeze S4x128x256 squeezes_S1x4x128x256_S4x128x256
  | 2, false => (rsO.slice (Rect.unit (s := S3x8x128x256) ![2, 0, 0, 0] S1x4x128x256.size inb_S3x8x128x256_S1x4x128x256_2_0_0_0) (fun _ => rfl)).squeeze S4x128x256 squeezes_S1x4x128x256_S4x128x256
  | 2, true => (rsO.slice (Rect.unit (s := S3x8x128x256) ![2, 4, 0, 0] S1x4x128x256.size inb_S3x8x128x256_S1x4x128x256_2_4_0_0) (fun _ => rfl)).squeeze S4x128x256 squeezes_S1x4x128x256_S4x128x256
/-- and of the denominators. -/
def dstL : Fin 3 → Bool → Memref sig .tc .vmem S4x1x256 .f32
  | 0, false => (rsL.slice (Rect.unit (s := S3x8x1x256) ![0, 0, 0, 0] S1x4x1x256.size inb_S3x8x1x256_S1x4x1x256_0_0_0_0) (fun _ => rfl)).squeeze S4x1x256 squeezes_S1x4x1x256_S4x1x256
  | 0, true => (rsL.slice (Rect.unit (s := S3x8x1x256) ![0, 4, 0, 0] S1x4x1x256.size inb_S3x8x1x256_S1x4x1x256_0_4_0_0) (fun _ => rfl)).squeeze S4x1x256 squeezes_S1x4x1x256_S4x1x256
  | 1, false => (rsL.slice (Rect.unit (s := S3x8x1x256) ![1, 0, 0, 0] S1x4x1x256.size inb_S3x8x1x256_S1x4x1x256_1_0_0_0) (fun _ => rfl)).squeeze S4x1x256 squeezes_S1x4x1x256_S4x1x256
  | 1, true => (rsL.slice (Rect.unit (s := S3x8x1x256) ![1, 4, 0, 0] S1x4x1x256.size inb_S3x8x1x256_S1x4x1x256_1_4_0_0) (fun _ => rfl)).squeeze S4x1x256 squeezes_S1x4x1x256_S4x1x256
  | 2, false => (rsL.slice (Rect.unit (s := S3x8x1x256) ![2, 0, 0, 0] S1x4x1x256.size inb_S3x8x1x256_S1x4x1x256_2_0_0_0) (fun _ => rfl)).squeeze S4x1x256 squeezes_S1x4x1x256_S4x1x256
  | 2, true => (rsL.slice (Rect.unit (s := S3x8x1x256) ![2, 4, 0, 0] S1x4x1x256.size inb_S3x8x1x256_S1x4x1x256_2_4_0_0) (fun _ => rfl)).squeeze S4x1x256 squeezes_S1x4x1x256_S4x1x256

/-- What device `c` sends at hop `h`: at hop 0 its own partial sums of batch `c` (heads 0–3, to the right) or of batch
    `c + 2` (heads 4–7, to the left); afterwards the previous hop's landing slice, merged. -/
def srcO (c : Dev nD) : Fin 3 → Bool → Memref sig .tc .vmem S4x128x256 .bf16
  | 0, false => locO.slice (Rect.unit (s := S32x128x256) (k0_off15 c) S4x128x256.size (k0_off15_inb c)) (fun _ => rfl)
  | 0, true => locO.slice (Rect.unit (s := S32x128x256) (k0_off31 c) S4x128x256.size (k0_off31_inb c)) (fun _ => rfl)
  | 1, l => dstO 0 l
  | 2, l => dstO 1 l
def srcL (c : Dev nD) : Fin 3 → Bool → Memref sig .tc .vmem S4x1x256 .f32
  | 0, false => locL.slice (Rect.unit (s := S32x1x256) (k0_off16 c) S4x1x256.size (k0_off16_inb c)) (fun _ => rfl)
  | 0, true => locL.slice (Rect.unit (s := S32x1x256) (k0_off32 c) S4x1x256.size (k0_off32_inb c)) (fun _ => rfl)
  | 1, l => dstL 0 l
  | 2, l => dstL 1 l

/-- The half block of result rows device `c` forwards at hop `h` of the all-gather, spelt on the SENDER's position: the same
    expression names the source on `c` and the landing slice on the neighbour. -/
def agS (c : Dev nD) : Fin 3 → Bool → Memref sig .tc .vmem S128x1024 .bf16
  | 0, false => (agB.slice (Rect.unit (s := S4x256x1024) (k0_off67 c 0#32) S1x128x1024.size (k0_off67_inb c 0)) (fun _ => rfl)).squeeze S128x1024 squeezes_S1x128x1024_S128x1024
  | 1, false => (agB.slice (Rect.unit (s := S4x256x1024) (k0_off67 c 1#32) S1x128x1024.size (k0_off67_inb c 1)) (fun _ => rfl)).squeeze S128x1024 squeezes_S1x128x1024_S128x1024
  | 2, false => (agB.slice (Rect.unit (s := S4x256x1024) (k0_off67 c 2#32) S1x128x1024.size (k0_off67_inb c 2)) (fun _ => rfl)).squeeze S128x1024 squeezes_S1x128x1024_S128x1024
  | 0, true => (agB.slice (Rect.unit (s := S4x256x1024) (k0_off68 c 0#32) S1x128x1024.size (k0_off68_inb c 0)) (fun _ => rfl)).squeeze S128x1024 squeezes_S1x128x1024_S128x1024
  | 1, true => (agB.slice (Rect.unit (s := S4x256x1024) (k0_off68 c 1#32) S1x128x1024.size (k0_off68_inb c 1)) (fun _ => rfl)).squeeze S128x1024 squeezes_S1x128x1024_S128x1024
  | 2, true => (agB.slice (Rect.unit (s := S4x256x1024) (k0_off68 c 2#32) S1x128x1024.size (k0_off68_inb c 2)) (fun _ => rfl)).squeeze S128x1024 squeezes_S1x128x1024_S128x1024

/-! ## The cells -/

/-- The runtime's barrier semaphore of collective id 0. -/
abbrev barS : Sem sig := (SemArray.scalar (sig.barrier 0 rfl) : Sems sig S_).sem

/-- Element `h` of a three-element array of DMA semaphores, as the kernel slices it. -/
def elt3 (A : DmaSems sig S3) : Fin 3 → DmaSem sig
  | 0 => ((A.slice (Rect.unit (s := S3) ![0] S1.size inb_S3_S1_0)).squeeze S_ squeezes_S1_S_).sem
  | 1 => ((A.slice (Rect.unit (s := S3) ![1] S1.size inb_S3_S1_1)).squeeze S_ squeezes_S1_S_).sem
  | 2 => ((A.slice (Rect.unit (s := S3) ![2] S1.size inb_S3_S1_2)).squeeze S_ squeezes_S1_S_).sem

/-- The six transfer kinds: numerators, denominators, result rows; to the right (`false`) or to the left (`true`). -/
inductive Kind | o | l | g
  deriving DecidableEq

instance : Fintype Kind := ⟨{.o, .l, .g}, fun x => by cases x <;> decide⟩

/-- The send and receive semaphores of a kind, direction and hop. -/
def sendSem : Kind → Bool → Fin 3 → DmaSem sig
  | .o, false => elt3 cc0_scratch10 | .l, false => elt3 cc0_scratch12 | .g, false => elt3 cc0_scratch14
  | .o, true => elt3 cc0_scratch16 | .l, true => elt3 cc0_scratch18 | .g, true => elt3 cc0_scratch20
def recvSem : Kind → Bool → Fin 3 → DmaSem sig
  | .o, false => elt3 cc0_scratch11 | .l, false => elt3 cc0_scratch13 | .g, false => elt3 cc0_scratch15
  | .o, true => elt3 cc0_scratch17 | .l, true => elt3 cc0_scratch19 | .g, true => elt3 cc0_scratch21

abbrev barCell (c : Dev nD) : GSem nD τ sig := ((c : Thread nD τ), .reg barS)
abbrev sendCell (c : Dev nD) (k : Kind) (l : Bool) (h : Fin 3) : GSem nD τ sig := ((c : Thread nD τ), .dma (sendSem k l h))
abbrev recvCell (c : Dev nD) (k : Kind) (l : Bool) (h : Fin 3) : GSem nD τ sig := ((c : Thread nD τ), .dma (recvSem k l h))

/-- The device a transfer in direction `l` goes to, and the one it comes from. -/
def toDev (c : Dev nD) : Bool → Dev nD | false => nxt c | true => prv c
def fromDev (c : Dev nD) : Bool → Dev nD | false => prv c | true => nxt c

/-! ## The values the ring carries -/

/-- What each device sends at each hop: the contents of its source slice when it enqueues the transfer — a function of
    the launch memory alone, which the body's run identifies. -/
structure Vals (F : FTy → Type) [FloatOps F] where
  o : Dev nD → Fin 3 → Bool → S4x128x256.Idx → Elt F .bf16
  l : Dev nD → Fin 3 → Bool → S4x1x256.Idx → Elt F .f32
  g : Dev nD → Fin 3 → Bool → S128x1024.Idx → Elt F .bf16

variable (V : Vals F)

/-- A slice held at some contents that read, through the slice, as `w`. -/
def heldAs {sp : Space} {s : Shape} {e : EltTy} (c : Dev nD) (mr : Memref sig .tc sp s e) (w : s.Idx → Elt F e) : sProp 𝕄 :=
  iprop(∃ f : Buf (Elt F) (mr.view.loc (c : Thread nD τ)), (mr.view.loc (c : Thread nD τ) ↦[mr.view.set]{fullShare} f) ∗ ⌜mr.view.read (Elt F) f = w⌝)
/-- A slice held at some contents. -/
def held {sp : Space} {s : Shape} {e : EltTy} (c : Dev nD) (mr : Memref sig .tc sp s e) : sProp 𝕄 :=
  iprop(∃ f : Buf (Elt F) (mr.view.loc (c : Thread nD τ)), mr.view.loc (c : Thread nD τ) ↦[mr.view.set]{fullShare} f)

/-- What a receive duty hands device `c`: its landing slice at what the sender sent. -/
def recvPay (c : Dev nD) : Kind → Bool → Fin 3 → sProp 𝕄
  | .o, l, h => heldAs c (dstO h l) (V.o (fromDev c l) h l)
  | .l, l, h => heldAs c (dstL h l) (V.l (fromDev c l) h l)
  | .g, l, h => heldAs c (agS (fromDev c l) h l) (V.g (fromDev c l) h l)
/-- What a send duty hands device `c`: its source slice, as it was. -/
def sendPay (c : Dev nD) : Kind → Bool → Fin 3 → sProp 𝕄
  | .o, l, h => heldAs c (srcO c h l) (V.o c h l)
  | .l, l, h => heldAs c (srcL c h l) (V.l c h l)
  | .g, l, h => heldAs c (agS c h l) (V.g c h l)

/-- The landing slices of device `n` that a transfer in direction `l` from device `c` writes, one per kind and hop, each at
    some contents, and that `n` stands at round 0 of the receive cells those transfers credit. -/
def landing (c n : Dev nD) (l : Bool) (h : Fin 3) : sProp 𝕄 :=
  iprop(held n (dstO h l) ∗ held n (dstL h l) ∗ held n (agS c h l)
    ∗ reached ER (recvCell n .o l h) 0 ∗ reached ER (recvCell n .l l h) 0 ∗ reached ER (recvCell n .g l h) 0)
/-- What neighbour `n = toDev c l`'s barrier signal hands `c`: everything `c`'s transfers in direction `l` need of `n`. -/
def barPay (c : Dev nD) (l : Bool) : sProp 𝕄 :=
  iprop(landing c (toDev c l) l 0 ∗ landing c (toDev c l) l 1 ∗ landing c (toDev c l) l 2)

/-! ## The schedule -/

abbrev IsBar (g : GSem nD τ sig) : Prop := g.1.2 = .tc ∧ g.2 = .reg barS

/-- The units a transfer of a kind credits. -/
def amt : Kind → ℕ
  | .o => (dstO 0 false).view.dmaCredit | .l => (dstL 0 false).view.dmaCredit | .g => (agS (0 : Dev nD) 0 false).view.dmaCredit

/-- A transfer cell's role: kind, direction, hop, and whether it is the send cell (else the receive cell). -/
abbrev Role : Type := Kind × Bool × Fin 3 × Bool
def roleSem : Role → DmaSem sig
  | (k, l, h, true) => sendSem k l h
  | (k, l, h, false) => recvSem k l h

open Classical in
/-- Which transfer a DMA cell belongs to, if any. -/
def cellRole (sm : SemLoc sig) : Option Role :=
  if h : ∃ x : Role, sm = .dma (roleSem x) then some (Classical.choose h) else none

/-- One round, round 0, per cell: the barrier cell's two unit duties (`false`: paid by `nxt c`, handing what `c`'s
    right-going transfers need; `true`: by `prv c`, for the left-going ones); a transfer cell's one duty `false`. -/
def ringRd : Rounds.Schedule (GSem nD τ sig) Bool 𝕄 where
  duties g r := if r = 0 ∧ IsBar g then Finset.univ else if r = 0 ∧ g.1.2 = .tc ∧ (cellRole g.2).isSome then {false} else ∅
  unitless _ := False
  amount g _ _ := match cellRole g.2 with | some x => amt x.1 | none => 1
  payload g _ d :=
    if g.2 = .reg barS then barPay g.1.1 d
    else match cellRole g.2 with
      | some (k, l, h, true) => sendPay V g.1.1 k l h
      | some (k, l, h, false) => recvPay V g.1.1 k l h
      | none => iprop(emp)
  amount_pos g _ _ _ := by
    cases h : cellRole g.2 with
    | none => exact Nat.one_pos
    | some x =>
      obtain ⟨k, l, hh, b⟩ := x
      cases k
      · exact View.dmaCredit_pos (dstO 0 false).view (by decide)
      · exact View.dmaCredit_pos (dstL 0 false).view (by decide)
      · exact View.dmaCredit_pos (agS (0 : Dev nD) 0 false).view (by decide)

end Cert.Kernel.Proto

end
-- ==== Proof.KB.Data.lean ====
/-
  What a device's body starts from and ends with, what it owes, and the order of its payments.

  Device `c` pays, in program order: its unit on `prv c`'s barrier cell, its unit on `nxt c`'s, then its eighteen transfers —
  hop 0's numerators and denominators to the right, then to the left; hops 1 and 2 numerators right, left, denominators
  right, left; the all-gather's three hops right, left. A cell's level is the place of its transfer in that order (barrier
  cells below all transfers, staging and local-copy cells below those): a device waiting on a cell still owes only later
  transfers' receive credits.
-/
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.Gen.Kernel.Frame

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The payments, in program order -/

/-- One payment of a device: its unit on a neighbour's barrier cell (`true`: the left neighbour's), or a transfer. -/
inductive Pay
  | bar (l : Bool)
  | xfer (k : Kind) (l : Bool) (h : Fin 3)
  deriving DecidableEq

/-- A device's payments in the order its body makes them. -/
def prog : List Pay :=
  [.bar true, .bar false,
   .xfer .o false 0, .xfer .l false 0, .xfer .o true 0, .xfer .l true 0,
   .xfer .o false 1, .xfer .o true 1, .xfer .l false 1, .xfer .l true 1,
   .xfer .o false 2, .xfer .o true 2, .xfer .l false 2, .xfer .l true 2,
   .xfer .g false 0, .xfer .g true 0, .xfer .g false 1, .xfer .g true 1, .xfer .g false 2, .xfer .g true 2]

/-- The cell a payment of device `c` credits, and by how much. -/
def payCell (c : Dev nD) : Pay → GSem nD τ sig
  | .bar l => barCell (toDev c l)
  | .xfer k l h => recvCell (toDev c l) k l h
def payAmt : Pay → ℕ
  | .bar _ => 1
  | .xfer k _ _ => amt k

/-- What device `c` owes with the payments `ps` still to make, the next one outermost. -/
def owedOf (c : Dev nD) : List Pay → CellTallies nD τ sig Unit
  | [] => 0
  | p :: ps => owedOf c ps + tallyAt (payCell c p) () (payAmt p)

/-- What device `c` owes at launch. -/
def O₀ (c : Dev nD) : CellTallies nD τ sig Unit := owedOf c prog

/-! ## The levels -/

def L (g : GSem nD τ sig) : Finset Unit := if g.1.2 = .tc then {()} else ∅

/-- The place of a transfer in program order, from 2. -/
def place : Kind → Bool → Fin 3 → ℕ
  | .o, false, 0 => 2 | .l, false, 0 => 3 | .o, true, 0 => 4 | .l, true, 0 => 5
  | .o, false, 1 => 6 | .o, true, 1 => 7 | .l, false, 1 => 8 | .l, true, 1 => 9
  | .o, false, 2 => 10 | .o, true, 2 => 11 | .l, false, 2 => 12 | .l, true, 2 => 13
  | .g, false, 0 => 14 | .g, true, 0 => 15 | .g, false, 1 => 16 | .g, true, 1 => 17 | .g, false, 2 => 18 | .g, true, 2 => 19

/-- Barrier cells at 1, a transfer's send and receive cells at its place, everything else (staging cells, local-copy cells) at 0. -/
def lv (g : GSem nD τ sig) (_ : Unit) : ℕ :=
  if g.2 = .reg barS then 1 else match cellRole g.2 with | some (k, l, h, _) => place k l h | none => 0

/-! ## The ghost state of a body -/

/-- The cells' names as the launch allocated them: per device, its barrier cell (`none`) and its thirty-six transfer cells. -/
abbrev Names : Type := Dev nD × Option Role → ℕ

/-- The transfers: kind, direction, hop. -/
abbrev Xfer : Type := Kind × Bool × Fin 3

variable (V : Vals F)

/-- The invariants device `c`'s body opens: its own cells', both neighbours' barrier cells', and the receive cells' of the
    neighbours its transfers credit. -/
def invs (K : Names) (c : Dev nD) : sProp 𝕄 :=
  iprop(cellInv ER (ringRd V) (K (c, none)) (barCell c)
    ∗ (bigSep Finset.univ fun x : Xfer => iprop(cellInv ER (ringRd V) (K (c, some (x.1, x.2.1, x.2.2, true))) (sendCell c x.1 x.2.1 x.2.2)
        ∗ cellInv ER (ringRd V) (K (c, some (x.1, x.2.1, x.2.2, false))) (recvCell c x.1 x.2.1 x.2.2)
        ∗ cellInv ER (ringRd V) (K (toDev c x.2.1, some (x.1, x.2.1, x.2.2, false))) (recvCell (toDev c x.2.1) x.1 x.2.1 x.2.2)))
    ∗ cellInv ER (ringRd V) (K (nxt c, none)) (barCell (nxt c)) ∗ cellInv ER (ringRd V) (K (prv c, none)) (barCell (prv c)))

/-- The ring's ghost state device `c` starts from: the invariants; its position at round 0 of each of its cells; round 0
    reached at its own transfer cells and at both neighbours' barrier cells; and the duty tokens it pays with — `prv c`'s
    barrier duty `false` (it is `prv c`'s right neighbour), `nxt c`'s barrier duty `true`, each transfer's send duty on its own
    cell and receive duty on the neighbour's. -/
def ghost (K : Names) (c : Dev nD) : sProp 𝕄 :=
  iprop(invs V K c
    ∗ atPos ER (barCell c) 0 ∅ 0
    ∗ (bigSep Finset.univ fun x : Xfer => iprop(atPos ER (sendCell c x.1 x.2.1 x.2.2) 0 ∅ 0 ∗ atPos ER (recvCell c x.1 x.2.1 x.2.2) 0 ∅ 0))
    ∗ (bigSep Finset.univ fun x : Xfer => iprop(reached ER (sendCell c x.1 x.2.1 x.2.2) 0 ∗ reached ER (recvCell c x.1 x.2.1 x.2.2) 0))
    ∗ reached ER (barCell (nxt c)) 0 ∗ reached ER (barCell (prv c)) 0
    ∗ dutyTok ER (barCell (prv c)) 0 false ∗ dutyTok ER (barCell (nxt c)) 0 true
    ∗ (bigSep Finset.univ fun x : Xfer => iprop(dutyTok ER (sendCell c x.1 x.2.1 x.2.2) 0 false
        ∗ dutyTok ER (recvCell (toDev c x.2.1) x.1 x.2.1 x.2.2) 0 false)))

/-- The four local-copy semaphores, which stay in the device's hands. -/
def copySem : Fin 4 → DmaSem sig
  | 0 => ((cc0_scratch22.slice (Rect.unit (s := S4) ![0] S1.size inb_S4_S1_0)).squeeze S_ squeezes_S1_S_).sem
  | 1 => ((cc0_scratch22.slice (Rect.unit (s := S4) ![1] S1.size inb_S4_S1_1)).squeeze S_ squeezes_S1_S_).sem
  | 2 => ((cc0_scratch22.slice (Rect.unit (s := S4) ![2] S1.size inb_S4_S1_2)).squeeze S_ squeezes_S1_S_).sem
  | 3 => ((cc0_scratch22.slice (Rect.unit (s := S4) ![3] S1.size inb_S4_S1_3)).squeeze S_ squeezes_S1_S_).sem
def copySems0 (c : Dev nD) : sProp 𝕄 := bigSep Finset.univ fun b : Fin 4 => semVal (((c : Thread nD τ), .dma (copySem b)) : GSem nD τ sig) 0

variable (m : (ℓ : Loc nD τ sig) → Buf (Elt F) ℓ)

/-- The device's quarter of the key rows and of the value rows, in its unstaged arrays, as launched: the local copies
    read them, and the body hands them back as they were. -/
def hbm (c : Dev nD) : sProp 𝕄 :=
  iprop((((c : Thread nD τ).loc main_arg3) ↦{fullShare} m ((c : Thread nD τ).loc main_arg3))
    ∗ (((c : Thread nD τ).loc main_arg4) ↦{fullShare} m ((c : Thread nD τ).loc main_arg4)))

/-- What device `c`'s body starts from besides its buffers: the ghost state at some names, the credit dealt at launch —
    its barrier cell's two units and each receive cell's transfer —, the level facts, and its local-copy semaphores at zero. -/
def start (c : Dev nD) : sProp 𝕄 :=
  iprop((∃ K, ghost V K c) ∗ cred (tallyAt (barCell c) () 2)
    ∗ (bigSep Finset.univ fun x : Xfer => cred (tallyAt (recvCell c x.1 x.2.1 x.2.2) () (amt x.1)))
    ∗ levAts L lv ∗ copySems0 c ∗ hbm m c)

/-- The eleven scratch buffers, each whole at some contents. -/
def scratch (c : Dev nD) : sProp 𝕄 := Pipeline.scopedRest (Ix := Unit) (Name := ℕ) (U := UU) (Lvl := ℕ) (Val := Elt F) spec0 c

def Φ₀ (c : Dev nD) : sProp 𝕄 := iprop(start V m c ∗ scratch c)
/-- After the point: the scratch buffers at some contents, every transfer cell closed and every own semaphore at zero. -/
def Φ₁ (c : Dev nD) : sProp 𝕄 :=
  iprop(scratch c ∗ copySems0 c ∗ hbm m c
    ∗ bigSep Finset.univ fun x : Xfer => iprop(semVal (sendCell c x.1 x.2.1 x.2.2) 0 ∗ semVal (recvCell c x.1 x.2.1 x.2.2) 0))

/-! ## The pipeline's proof data -/

variable (ρ : Dev nD → PrngReg)

/-- The memory at launch. -/
def s₀ : MemSt nD τ sig (Elt F) := ⟨m, fun _ => 0, ρ⟩

/-- The result block of each device, as a function of the launch memory. -/
abbrev OutFn (F : FTy → Type) [FloatOps F] : Type :=
  ((ℓ : Loc nD τ sig) → Buf (Elt F) ℓ) → (c : Dev nD) → (cc0_stg3_0 : Ref sig .tc).ty.Contents (Elt F)

variable (Kout : OutFn F)

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => Kout m c
  Φ t := match t with
    | ⟨0, _⟩ => Φ₀ V m c
    | ⟨_ + 1, _⟩ => Φ₁ m c
  q _ := fullShare
  owed t := match t with
    | ⟨0, _⟩ => O₀ c
    | ⟨_ + 1, _⟩ => 0

abbrev 𝒱₀ : Variants := Variants.none

/-- The body obligation the launch takes as given. -/
def BodyOK : Prop := ∀ c : Dev nD, BodyObligation (dats (F := F) V m Kout 0 c) (defs₀ (F := F)) 𝒱₀ () Set.univ

end Cert.Kernel.Proto

end
-- ==== Proof.KB.KFun.lean ====
/-
  The kernel as a pure function of the launch memory, and its value.

  Device `c` runs four flash steps (batches `c`, `c + 2`, `c + 3`, `c + 1`), each giving for every head the unnormalised
  softmax numerators and denominators over the device's own 1024 key rows; the partial sums of batch `b` then travel a
  ring — heads 0–3 from device `b` to the right, heads 4–7 from device `b + 2` to the left — every device adding its own to
  what it receives, so that after three hops device `c` holds the full sums of batch `c + 1`; it normalises them, multiplies
  by its `Wo` head by head, and the finished blocks are gathered by forwarding half blocks both ways round the ring.
  Everything is written with the program's own payload functions, so that a run of the program meets these terms.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.Gen.Kernel.Skeleton
import proofs.«900754_g7700000000000755_dist_attn_cross_gqa_kvseq_b4_sq256_skv1024_d1024_hq8_dh128_v7x_i4_f32_1_alg».proof.Proof.Spec

noncomputable section

open scoped BigOperators

namespace Cert.Kernel.KFun

open Cert.Kernel Cert.Kernel.Gen Cert.Kernel.Ring Cert.Kernel.Proto
open Idealize.ShloMosaic Idealize.ShloMosaic.TcCoe Idealize.ShloMosaic.ValueIdx Idealize.SL.Sem

variable {F : FTy → Type} [FloatOps F]

/-! ## A device's arrays -/

section
variable (m : (ℓ : Loc nD τ sig) → Buf (Elt F) ℓ)

/-- Device `c`'s copies of `x`, `Wq`, `Wo` and its quarters of the key and value rows, as launched. -/
def X (c : Dev nD) : Vec F S4x256x1024 .f32 := m ((c : Thread nD τ).loc main_arg0)
def WQ (c : Dev nD) : Vec F S1024x1024 .f32 := m ((c : Thread nD τ).loc main_arg1)
def WO (c : Dev nD) : Vec F S1024x1024 .f32 := m ((c : Thread nD τ).loc main_arg2)
def KQ (c : Dev nD) : Vec F S4x1024x2x128 .f32 := m ((c : Thread nD τ).loc main_arg3)
def VQ (c : Dev nD) : Vec F S4x1024x2x128 .f32 := m ((c : Thread nD τ).loc main_arg4)

/-- The two weight matrices in the narrow format. -/
def wqb (c : Dev nD) : FVec F S1024x1024 .bf16 := k0_pay21 (WQ m c)
def wob (c : Dev nD) : FVec F S1024x1024 .bf16 := k0_pay22 (WO m c)

/-- Batch `b` of `x` as a one-batch tile. -/
def xblk (c : Dev nD) (b : Fin 4) : Vec F S1x256x1024 .f32 :=
  fun t => X m c (ix3 b (⟨(t 1).val, (t 1).isLt⟩ : Fin 256) (⟨(t 2).val, (t 2).isLt⟩ : Fin 1024))

/-- The key rows, and the value rows, of batch `b` and key/value head `g`, as a tile, and narrowed. -/
def kslice (c : Dev nD) (b : Fin 4) (g : Fin 2) : Vec F S1x1x1024x128 .f32 :=
  fun t => KQ m c (ix4 b (⟨(t 2).val, (t 2).isLt⟩ : Fin 1024) g (⟨(t 3).val, (t 3).isLt⟩ : Fin 128))
def vslice (c : Dev nD) (b : Fin 4) (g : Fin 2) : Vec F S1x1x1024x128 .f32 :=
  fun t => VQ m c (ix4 b (⟨(t 2).val, (t 2).isLt⟩ : Fin 1024) g (⟨(t 3).val, (t 3).isLt⟩ : Fin 128))
def kh (c : Dev nD) (b : Fin 4) (g : Fin 2) : FVec F S1x1x1024x128 .bf16 := k0_pay25 (kslice m c b g)
def vh (c : Dev nD) (b : Fin 4) (g : Fin 2) : FVec F S1x1x1024x128 .bf16 := k0_pay25 (vslice m c b g)

/-- The projected and scaled queries of batch `b`, and head `h`'s 128 columns of them as a tile. -/
def qb (c : Dev nD) (b : Fin 4) : FVec F S256x1024 .f32 := k0_pay28 (xblk m c b) (wqb m c)
def q2 (c : Dev nD) (b : Fin 4) : Fin 8 → FVec F S1x256x128 .bf16
  | 0 => k0_pay29 (xblk m c b) (wqb m c)
  | 1 => k0_pay30 (xblk m c b) (wqb m c)
  | 2 => k0_pay32 (k0_pay31 (xblk m c b) (wqb m c))
  | 3 => k0_pay33 (qb m c b)
  | 4 => k0_pay34 (qb m c b)
  | 5 => k0_pay35 (qb m c b)
  | 6 => k0_pay36 (qb m c b)
  | 7 => k0_pay37 (qb m c b)

/-! ## One flash step: batch `b`, head `h`, over the device's own 1024 key rows -/

/-- The weights in the narrow format, the row of their sums, and the value rows contracted with them. -/
def ew (c : Dev nD) (b : Fin 4) (h : Fin 8) : FVec F S1024x256 .bf16 := k0_pay8 (q2 m c b h) (kh m c b (Cert.Attn.kvh h))
def lrow (c : Dev nD) (b : Fin 4) (h : Fin 8) : FVec F S1x1x256 .f32 := k0_pay39 (k0_pay7 (q2 m c b h) (kh m c b (Cert.Attn.kvh h)))
def ot (c : Dev nD) (b : Fin 4) (h : Fin 8) : FVec F S1x128x256 .bf16 := k0_pay38 (k0_pay5 (vh m c b (Cert.Attn.kvh h))) (ew m c b h)

/-! ## The ring -/

/-- The batch whose local partial sums device `c` adds at hop `h` of direction `l`. -/
def mergeBatch : ℕ → Bool → Dev nD → Dev nD
  | 0, _, c => prv c
  | 1, false, c => nxt (nxt c)
  | 1, true, c => c
  | _, _, c => nxt c

/-- The head a slot `k` of a direction's half stands for: heads 0–3 travel right, 4–7 left. -/
def headAt (l : Bool) (k : Fin 4) : Fin 8 := if l then ⟨k.val + 4, by omega⟩ else ⟨k.val, by omega⟩

/-- What device `c` holds in direction `l`'s half after `h` merges (what it sends at hop `h`; after three, the full
    sums of batch `c + 1`): numerators at slot `k`, coordinate `d`, query row `i`. Received plus local, in that order. -/
def voC : ℕ → Dev nD → Bool → Fin 4 → Fin 128 → Fin 256 → F .bf16
  | 0, c, false, k, d, i => ot m c c (headAt false k) (ix3 0 d i)
  | 0, c, true, k, d, i => ot m c (nxt (nxt c)) (headAt true k) (ix3 0 d i)
  | h + 1, c, l, k, d, i =>
      k0_pay76 (fun s : S1x1x128x256.Idx => voC h (fromDev c l) l k (⟨(s 2).val, (s 2).isLt⟩ : Fin 128) (⟨(s 3).val, (s 3).isLt⟩ : Fin 256))
        (ot m c (mergeBatch h l c) (headAt l k)) (ix4 0 0 d i)
/-- and denominators. -/
def vlC : ℕ → Dev nD → Bool → Fin 4 → Fin 256 → F .f32
  | 0, c, false, k, i => lrow m c c (headAt false k) (ix3 0 0 i)
  | 0, c, true, k, i => lrow m c (nxt (nxt c)) (headAt true k) (ix3 0 0 i)
  | h + 1, c, l, k, i =>
      k0_pay75 (fun s : S1x1x1x256.Idx => vlC h (fromDev c l) l k (⟨(s 3).val, (s 3).isLt⟩ : Fin 256))
        (lrow m c (mergeBatch h l c) (headAt l k)) (ix4 0 0 0 i)

/-- The full sums of batch `c + 1` on device `c`, head `k`, as the tiles the output stage loads. -/
def rsO (c : Dev nD) (k : Fin 8) : Vec F S1x1x128x256 .bf16 :=
  fun s => voC m 3 c (decide (4 ≤ k.val)) ⟨k.val % 4, Nat.mod_lt _ (by decide)⟩ (⟨(s 2).val, (s 2).isLt⟩ : Fin 128) (⟨(s 3).val, (s 3).isLt⟩ : Fin 256)
def rsL (c : Dev nD) (k : Fin 8) : Vec F S1x1x1x256 .f32 :=
  fun s => vlC m 3 c (decide (4 ≤ k.val)) ⟨k.val % 4, Nat.mod_lt _ (by decide)⟩ (⟨(s 3).val, (s 3).isLt⟩ : Fin 256)

/-- Head `k`'s 128 rows of the narrowed `Wo`. -/
def woRows (c : Dev nD) (k : Fin 8) : Vec F S128x1024 .bf16 :=
  fun s => wob m c (ix2 (Cert.Attn.hd k (⟨(s 0).val, (s 0).isLt⟩ : Fin 128)) (⟨(s 1).val, (s 1).isLt⟩ : Fin 1024))

/-! ## The output stage and the gathering -/

/-- The eight heads' terms accumulated from the left. -/
def acc0 (c : Dev nD) : FVec F S1x256x1024 .f32 := k0_pay104 (rsO m c 0) (rsL m c 0) (woRows m c 0)
def acc1 (c : Dev nD) : FVec F S1x256x1024 .f32 := k0_pay105 (rsO m c 1) (rsL m c 1) (woRows m c 1) (acc0 m c)
def acc2 (c : Dev nD) : FVec F S1x256x1024 .f32 := k0_pay107 (k0_pay106 (rsO m c 2) (rsL m c 2) (woRows m c 2) (acc1 m c))
def acc3 (c : Dev nD) : FVec F S1x256x1024 .f32 := k0_pay108 (rsO m c 3) (rsL m c 3) (woRows m c 3) (acc2 m c)
def acc4 (c : Dev nD) : FVec F S1x256x1024 .f32 := k0_pay110 (k0_pay109 (rsO m c 4) (rsL m c 4) (woRows m c 4)) (acc3 m c)
def acc5 (c : Dev nD) : FVec F S1x256x1024 .f32 := k0_pay111 (rsO m c 5) (rsL m c 5) (woRows m c 5) (acc4 m c)
def acc6 (c : Dev nD) : FVec F S1x256x1024 .f32 := k0_pay114 (k0_pay112 (rsO m c 6)) (k0_pay113 (rsL m c 6)) (woRows m c 6) (acc5 m c)
def acc7 (c : Dev nD) : FVec F S1x256x1024 .f32 := k0_pay115 (rsO m c 7) (rsL m c 7) (woRows m c 7) (acc6 m c)

/-- Device `c`'s own finished block (batch `c + 1`) in the narrow format. -/
def agbOwn (c : Dev nD) : FVec F S1x256x1024 .bf16 := k0_pay117 (k0_pay116 (acc7 m c))

/-- What device `c` forwards at hop `h` of the gathering in direction `l`: a half block (rows 0–127 to the right, 128–255
    to the left), its own at hop 0, afterwards what it received the hop before. -/
def vgC : ℕ → Dev nD → Bool → Fin 128 → Fin 1024 → F .bf16
  | 0, c, false, i, n => agbOwn m c (ix3 0 (⟨i.val, by omega⟩ : Fin 256) n)
  | 0, c, true, i, n => agbOwn m c (ix3 0 (⟨128 + i.val, by omega⟩ : Fin 256) n)
  | h + 1, c, l, i, n => vgC h (fromDev c l) l i n

/-- The schedule's values. -/
def V : Vals F where
  o c h l := fun t => voC m h.val c l (⟨(t 0).val, (t 0).isLt⟩ : Fin 4) (⟨(t 1).val, (t 1).isLt⟩ : Fin 128) (⟨(t 2).val, (t 2).isLt⟩ : Fin 256)
  l c h l := fun t => vlC m h.val c l (⟨(t 0).val, (t 0).isLt⟩ : Fin 4) (⟨(t 2).val, (t 2).isLt⟩ : Fin 256)
  g c h l := fun t => vgC m h.val c l (⟨(t 0).val, (t 0).isLt⟩ : Fin 128) (⟨(t 1).val, (t 1).isLt⟩ : Fin 1024)

/-- Block `b` of the gathered result on device `c` at the end: its own block, or the upper half received from the left
    neighbour (the right-going chain, hop `c − b`) and the lower half from the right neighbour (the left-going chain, hop
    `b − c − 2`). -/
def agbFin (c : Dev nD) (b : Fin 4) : Vec F S1x256x1024 .bf16 :=
  fun s =>
    if b = nxt c then agbOwn m c (ix3 0 (⟨(s 1).val, (s 1).isLt⟩ : Fin 256) (⟨(s 2).val, (s 2).isLt⟩ : Fin 1024))
    else if h : (s 1).val < 128 then vgC m ((c.val + 4 - b.val) % 4) (prv c) false ⟨(s 1).val, h⟩ (⟨(s 2).val, (s 2).isLt⟩ : Fin 1024)
    else vgC m ((b.val + 6 - c.val) % 4) (nxt c) true ⟨(s 1).val - 128, by have := (s 1).isLt; simp at this; omega⟩ (⟨(s 2).val, (s 2).isLt⟩ : Fin 1024)

/-- The device's whole result block. -/
def Kout : OutFn F := fun m c t =>
  let i : Fin 256 := ⟨(t 1).val, (t 1).isLt⟩
  let n : Fin 1024 := ⟨(t 2).val, (t 2).isLt⟩
  match (⟨(t 0).val, (t 0).isLt⟩ : Fin 4) with
  | 0 => k0_pay1 (k0_pay118 (agbFin m c 0)) (ix3 0 i n)
  | 1 => k0_pay2 (agbFin m c 1) (ix3 0 i n)
  | 2 => k0_pay3 (agbFin m c 2) (ix3 0 i n)
  | 3 => k0_pay4 (agbFin m c 3) (ix3 0 i n)

end

/-! ## The payloads' copies agree

The program forms the same tiles in each of its four flash steps, through payloads whose text differs only in how
the steps were cut; each is, as a function, one of the forms used above. -/

theorem pay24_pay23 (v : Vec F S1x1x1024x128 .f32) : k0_pay24 (k0_pay23 v) = k0_pay25 v := rfl
theorem pay48_eq (x : Vec F S1x256x1024 .f32) (w : Vec F S1024x1024 .bf16) : k0_pay48 x w = k0_pay32 (k0_pay31 x w) := rfl
theorem pay50_pay49 (x : Vec F S1x256x1024 .f32) (w : Vec F S1024x1024 .bf16) : k0_pay50 (k0_pay49 x w) = k0_pay33 (k0_pay28 x w) := rfl
theorem pay64_pay63 (x : Vec F S1x256x1024 .f32) (w : Vec F S1024x1024 .bf16) : k0_pay64 (k0_pay63 x) w = k0_pay28 x w := rfl
theorem pay65_pay63 (x : Vec F S1x256x1024 .f32) (w : Vec F S1024x1024 .bf16) : k0_pay65 (k0_pay63 x) w = k0_pay29 x w := rfl
theorem pay66_pay63 (x : Vec F S1x256x1024 .f32) (w : Vec F S1024x1024 .bf16) : k0_pay66 (k0_pay63 x) w = k0_pay30 x w := rfl
theorem pay67_pay63 (x : Vec F S1x256x1024 .f32) (w : Vec F S1024x1024 .bf16) : k0_pay67 (k0_pay63 x) w = k0_pay32 (k0_pay31 x w) := rfl
theorem pay68_pay63 (x : Vec F S1x256x1024 .f32) (w : Vec F S1024x1024 .bf16) : k0_pay68 (k0_pay63 x) w = k0_pay33 (k0_pay28 x w) := rfl
theorem pay86_eq (x : Vec F S1x256x1024 .f32) (w : Vec F S1024x1024 .bf16) : k0_pay86 (k0_pay28 x w) = k0_pay30 x w := rfl
theorem pay87_eq (x : Vec F S1x256x1024 .f32) (w : Vec F S1024x1024 .bf16) : k0_pay87 (k0_pay28 x w) = k0_pay32 (k0_pay31 x w) := rfl
theorem pay91_pay90 (x : Vec F S1x256x1024 .f32) (w : Vec F S1024x1024 .bf16) : k0_pay91 (k0_pay90 (k0_pay28 x w)) = k0_pay35 (k0_pay28 x w) := rfl
theorem pay55_pay54 (x : Vec F S1x256x1024 .f32) (w : Vec F S1024x1024 .bf16) : k0_pay55 (k0_pay54 (k0_pay28 x w)) = k0_pay37 (k0_pay28 x w) := rfl

end Cert.Kernel.KFun

end
-- ==== Proof.KB.SchedTab.lean ====
/-
  The ring schedule's tables: the thirty-six transfer cells of a device are pairwise distinct and distinct from the
  barrier cell, so each cell's role is read off its semaphore; and with that, cell by cell, the one round's duties, their
  amounts, the round's total, the payloads, and the payloads of a whole round as one assertion.
-/
import proofs.«900754_g7700000000000755_dist_attn_cross_gqa_kvseq_b4_sq256_skv1024_d1024_hq8_dh128_v7x_i4_f32_1_alg».proof.Proof.KB.Sched

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The transfer semaphores are pairwise distinct -/

/-- Thirty-six roles, thirty-six semaphores: twelve arrays of three, laid one after another. -/
theorem roleSem_injective : Function.Injective (roleSem : Role → DmaSem sig) := by decide +kernel

/-- They are the semaphores numbered 4 to 39. -/
theorem roleSem_range : ∀ x : Role, 4 ≤ (roleSem x).val ∧ (roleSem x).val < 40 := by decide +kernel

theorem sendSem_inj {k k' : Kind} {l l' : Bool} {h h' : Fin 3} (e : sendSem k l h = sendSem k' l' h') : k = k' ∧ l = l' ∧ h = h' := by
  have := @roleSem_injective (k, l, h, true) (k', l', h', true) e
  simp only [Prod.mk.injEq, and_true] at this
  exact this
theorem recvSem_inj {k k' : Kind} {l l' : Bool} {h h' : Fin 3} (e : recvSem k l h = recvSem k' l' h') : k = k' ∧ l = l' ∧ h = h' := by
  have := @roleSem_injective (k, l, h, false) (k', l', h', false) e
  simp only [Prod.mk.injEq, and_true] at this
  exact this
theorem sendSem_ne_recvSem (k k' : Kind) (l l' : Bool) (h h' : Fin 3) : sendSem k l h ≠ recvSem k' l' h' := fun e => by
  have := @roleSem_injective (k, l, h, true) (k', l', h', false) e
  simp only [Prod.mk.injEq, Bool.true_eq_false, and_false] at this

/-! ## A cell's role -/

theorem cellRole_sem (x : Role) : cellRole (.dma (roleSem x)) = some x := by
  have hx : ∃ y : Role, (SemLoc.dma (roleSem x) : SemLoc sig) = .dma (roleSem y) := ⟨x, rfl⟩
  unfold cellRole
  rw [dif_pos hx]
  exact congrArg some (roleSem_injective (SemLoc.dma.inj (Classical.choose_spec hx))).symm

theorem cellRole_send (k : Kind) (l : Bool) (h : Fin 3) : cellRole (.dma (sendSem k l h)) = some (k, l, h, true) := cellRole_sem (k, l, h, true)
theorem cellRole_recv (k : Kind) (l : Bool) (h : Fin 3) : cellRole (.dma (recvSem k l h)) = some (k, l, h, false) := cellRole_sem (k, l, h, false)

/-- A regular semaphore is no transfer cell. -/
theorem cellRole_reg (s : Sem sig) : cellRole (.reg s) = none := by
  unfold cellRole; exact dif_neg (fun ⟨_, h⟩ => by cases h)
/-- Nor is a DMA semaphore other than the thirty-six. -/
theorem cellRole_other (q : DmaSem sig) (hq : ∀ x, q ≠ roleSem x) : cellRole (.dma q) = none := by
  unfold cellRole; exact dif_neg (fun ⟨x, h⟩ => hq x (SemLoc.dma.inj h))
/-- In particular those numbered below 4 or from 40 on. -/
theorem cellRole_lt (q : DmaSem sig) (hq : q.val < 4) : cellRole (.dma q) = none :=
  cellRole_other q fun x e => by have := (roleSem_range x).1; rw [← e] at this; omega
theorem cellRole_ge (q : DmaSem sig) (hq : 40 ≤ q.val) : cellRole (.dma q) = none :=
  cellRole_other q fun x e => by have := (roleSem_range x).2; rw [← e] at this; omega

theorem send_ne_bar (k : Kind) (l : Bool) (h : Fin 3) : (SemLoc.dma (sendSem k l h) : SemLoc sig) ≠ .reg barS := fun e => by cases e
theorem recv_ne_bar (k : Kind) (l : Bool) (h : Fin 3) : (SemLoc.dma (recvSem k l h) : SemLoc sig) ≠ .reg barS := fun e => by cases e
theorem send_ne_recv (k k' : Kind) (l l' : Bool) (h h' : Fin 3) : (SemLoc.dma (sendSem k l h) : SemLoc sig) ≠ .dma (recvSem k' l' h') :=
  fun e => sendSem_ne_recvSem k k' l l' h h' (SemLoc.dma.inj e)
theorem recv_ne_send (k k' : Kind) (l l' : Bool) (h h' : Fin 3) : (SemLoc.dma (recvSem k l h) : SemLoc sig) ≠ .dma (sendSem k' l' h') :=
  fun e => sendSem_ne_recvSem k' k l' l h' h (SemLoc.dma.inj e).symm
theorem not_bar_send (c : Dev nD) (k : Kind) (l : Bool) (h : Fin 3) : ¬ IsBar (sendCell c k l h) := fun hb => send_ne_bar k l h hb.2
theorem not_bar_recv (c : Dev nD) (k : Kind) (l : Bool) (h : Fin 3) : ¬ IsBar (recvCell c k l h) := fun hb => recv_ne_bar k l h hb.2

variable (V : Vals F)

/-! ## The one round's duties -/

@[sl_rounds] theorem duties_bar (c : Dev nD) : (ringRd V).duties (barCell c) 0 = Finset.univ := by
  dsimp only [ringRd]; exact if_pos ⟨rfl, rfl, rfl⟩
@[sl_rounds] theorem duties_send (c : Dev nD) (k : Kind) (l : Bool) (h : Fin 3) : (ringRd V).duties (sendCell c k l h) 0 = {false} := by
  dsimp only [ringRd]
  rw [if_neg (fun hb => send_ne_bar k l h hb.2.2), if_pos ⟨rfl, rfl, by rw [cellRole_send]; rfl⟩]
@[sl_rounds] theorem duties_recv (c : Dev nD) (k : Kind) (l : Bool) (h : Fin 3) : (ringRd V).duties (recvCell c k l h) 0 = {false} := by
  dsimp only [ringRd]
  rw [if_neg (fun hb => recv_ne_bar k l h hb.2.2), if_pos ⟨rfl, rfl, by rw [cellRole_recv]; rfl⟩]
/-- No cell has a second round. -/
theorem duties_later (g : GSem nD τ sig) : ∀ r, 1 ≤ r → (ringRd V).duties g r = ∅ := fun r hr => by
  dsimp only [ringRd]
  rw [if_neg (fun hb => absurd hb.1 (by omega)), if_neg (fun hb => absurd hb.1 (by omega))]

/-! ## Amounts, and a round's total -/

@[sl_rounds] theorem amount_bar (c : Dev nD) (d : Bool) : (ringRd V).amount (barCell c) 0 d = 1 := by
  dsimp only [ringRd]; rw [cellRole_reg]
@[sl_rounds] theorem amount_send (c : Dev nD) (k : Kind) (l : Bool) (h : Fin 3) (d : Bool) : (ringRd V).amount (sendCell c k l h) 0 d = amt k := by
  dsimp only [ringRd]; rw [cellRole_send]
@[sl_rounds] theorem amount_recv (c : Dev nD) (k : Kind) (l : Bool) (h : Fin 3) (d : Bool) : (ringRd V).amount (recvCell c k l h) 0 d = amt k := by
  dsimp only [ringRd]; rw [cellRole_recv]

/-- Two neighbours, a unit each. -/
@[sl_rounds] theorem expect_bar (c : Dev nD) : (ringRd V).expect (barCell c) 0 = 2 := by
  unfold Schedule.expect Schedule.amountOf
  rw [duties_bar, Finset.sum_congr rfl fun d _ => amount_bar V c d]
  rfl
@[sl_rounds] theorem expect_send (c : Dev nD) (k : Kind) (l : Bool) (h : Fin 3) : (ringRd V).expect (sendCell c k l h) 0 = amt k := by
  unfold Schedule.expect Schedule.amountOf
  rw [duties_send, Finset.sum_singleton, amount_send]
@[sl_rounds] theorem expect_recv (c : Dev nD) (k : Kind) (l : Bool) (h : Fin 3) : (ringRd V).expect (recvCell c k l h) 0 = amt k := by
  unfold Schedule.expect Schedule.amountOf
  rw [duties_recv, Finset.sum_singleton, amount_recv]

/-! ## Payloads -/

@[sl_rounds] theorem payload_bar (c : Dev nD) (d : Bool) : (ringRd V).payload (barCell c) 0 d = barPay c d := by
  dsimp only [ringRd]; exact if_pos rfl
@[sl_rounds] theorem payload_send (c : Dev nD) (k : Kind) (l : Bool) (h : Fin 3) (d : Bool) : (ringRd V).payload (sendCell c k l h) 0 d = sendPay V c k l h := by
  dsimp only [ringRd]; rw [if_neg (send_ne_bar k l h), cellRole_send]
@[sl_rounds] theorem payload_recv (c : Dev nD) (k : Kind) (l : Bool) (h : Fin 3) (d : Bool) : (ringRd V).payload (recvCell c k l h) 0 d = recvPay V c k l h := by
  dsimp only [ringRd]; rw [if_neg (recv_ne_bar k l h), cellRole_recv]

/-- The barrier cell's whole round: what the successor hands over, and what the predecessor does. -/
theorem rest_bar (c : Dev nD) : bigSep ((ringRd V).duties (barCell c) 0 \ ∅) (fun d => (ringRd V).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (c : Dev nD) (k : Kind) (l : Bool) (h : Fin 3) : bigSep ((ringRd V).duties (sendCell c k l h) 0 \ ∅) (fun d => (ringRd V).payload (sendCell c k l h) 0 d) = sendPay V c k l h := by
  rw [Finset.sdiff_empty, duties_send, bigSep_singleton, payload_send]
theorem rest_recv (c : Dev nD) (k : Kind) (l : Bool) (h : Fin 3) : bigSep ((ringRd V).duties (recvCell c k l h) 0 \ ∅) (fun d => (ringRd V).payload (recvCell c k l h) 0 d) = recvPay V c k l h := by
  rw [Finset.sdiff_empty, duties_recv, bigSep_singleton, payload_recv]

/-! ## Every payload can be kept in a cell's invariant -/

instance held_storable {sp : Space} {s : Shape} {e : EltTy} (c : Dev nD) (mr : Memref sig .tc sp s e) : BI.Storable (upEmb : UEmb _ 𝕄) (held (F := F) c mr) := by
  unfold held; infer_instance
instance heldAs_storable {sp : Space} {s : Shape} {e : EltTy} (c : Dev nD) (mr : Memref sig .tc sp s e) (w : s.Idx → Elt F e) : BI.Storable (upEmb : UEmb _ 𝕄) (heldAs c mr w) := by
  unfold heldAs; infer_instance
instance landing_storable (c n : Dev nD) (l : Bool) (h : Fin 3) : BI.Storable (upEmb : UEmb _ 𝕄) (landing (F := F) c n l h) := by
  unfold landing; infer_instance
instance barPay_storable (c : Dev nD) (l : Bool) : BI.Storable (upEmb : UEmb _ 𝕄) (barPay (F := F) c l) := by
  unfold barPay; infer_instance
instance sendPay_storable (c : Dev nD) (k : Kind) (l : Bool) (h : Fin 3) : BI.Storable (upEmb : UEmb _ 𝕄) (sendPay V c k l h) := by
  cases k <;> (simp only [sendPay]; infer_instance)
instance recvPay_storable (c : Dev nD) (k : Kind) (l : Bool) (h : Fin 3) : BI.Storable (upEmb : UEmb _ 𝕄) (recvPay V c k l h) := by
  cases k <;> (simp only [recvPay]; infer_instance)

instance ringRd_payload_storable (g : GSem nD τ sig) (r : ℕ) (d : Bool) : BI.Storable (upEmb : UEmb _ 𝕄) ((ringRd V).payload g r d) := by
  dsimp only [ringRd]
  split
  · infer_instance
  · split <;> infer_instance

/-! ## What a landing credits

A transfer credits by its destination's buffer, shape and element type alone, so every hop and direction of a kind
credits alike, whichever DMA semaphore it completes on. -/

theorem amt_dstO (h : Fin 3) (l : Bool) (q : DmaSem sig) : (dstO h l).view.amount (.dma q) = amt .o := by
  fin_cases h <;> cases l <;> rfl
theorem amt_dstL (h : Fin 3) (l : Bool) (q : DmaSem sig) : (dstL h l).view.amount (.dma q) = amt .l := by
  fin_cases h <;> cases l <;> rfl
theorem amt_agS (c : Dev nD) (h : Fin 3) (l : Bool) (q : DmaSem sig) : (agS c h l).view.amount (.dma q) = amt .g := by
  fin_cases h <;> cases l <;> rfl
theorem amt_pos (k : Kind) : 0 < amt k := by
  cases k
  · exact View.dmaCredit_pos (dstO 0 false).view (by decide)
  · exact View.dmaCredit_pos (dstL 0 false).view (by decide)
  · exact View.dmaCredit_pos (agS (0 : Dev nD) 0 false).view (by decide)

end Cert.Kernel.Proto

end
-- ==== Proof.KB.KLaunch.lean ====
/-
  The launch of the four-device attention kernel, given each device's body.

  Every device owns its barrier cell and thirty-six transfer cells: a send and a receive cell for each of the three hops
  of the numerators, the denominators and the result rows, in both directions. At launch each cell's round state, its
  owner's position and the fact that round 0 is reached are minted, with the duty tokens: two for a barrier cell, one
  for a transfer cell. With every counter at zero each cell's invariant is allocated; the invariants and the round-0
  facts are shared with all devices, and the tokens are dealt to the devices that PAY the duties: a barrier cell's
  `false` token to the device after it on the ring, its `true` token to the device before it, a receive cell's
  token to the device whose transfer lands there. What the devices owe, summed over the devices, is what their cells
  are paid — a barrier cell's two units and each receive cell's transfer — and that is the credit a device is dealt
  for its own waits. A cell's level is the place of its transfer in the program's order of payments (barrier cells
  below all transfers, staging and local-copy cells below those), so a device waiting on a cell owes only cells above
  it. The two unstaged argument arrays travel to the body and back as they were; the result array ends at the
  write-back of the device's block, the three staged arguments as launched.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.Gen.Kernel.Launch
import proofs.«900754_g7700000000000755_dist_attn_cross_gqa_kvseq_b4_sq256_skv1024_d1024_hq8_dh128_v7x_i4_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells of a device, indexed -/

/-- A transfer cell of a device: the transfer, and whether it is the send cell. -/
abbrev XB : Type := Xfer × Bool
/-- A device's ring cells: its barrier cell, or a transfer cell. -/
abbrev CI : Type := Unit ⊕ XB

def xcell (c : Dev nD) (y : XB) : GSem nD τ sig := ((c : Thread nD τ), .dma (roleSem (y.1.1, y.1.2.1, y.1.2.2, y.2)))

def kcell (ck : Dev nD × CI) : GSem nD τ sig := match ck.2 with
  | .inl _ => barCell ck.1
  | .inr y => xcell ck.1 y

theorem xcell_true (c : Dev nD) (x : Xfer) : xcell c (x, true) = sendCell c x.1 x.2.1 x.2.2 := rfl
theorem xcell_false (c : Dev nD) (x : Xfer) : xcell c (x, false) = recvCell c x.1 x.2.1 x.2.2 := rfl

/-- The kernel's own semaphores: the thirty-six transfer semaphores and the four local-copy semaphores. -/
def osem : XB ⊕ Fin 4 → SemLoc sig
  | .inl y => .dma (roleSem (y.1.1, y.1.2.1, y.1.2.2, y.2))
  | .inr j => .dma (copySem j)

theorem ownSemFacts : Pipeline.OwnSemFacts cfg0.spec osem := by decide

theorem xb_ext {y y' : XB} (h : ((y.1.1, y.1.2.1, y.1.2.2, y.2) : Role) = (y'.1.1, y'.1.2.1, y'.1.2.2, y'.2)) : y = y' := by
  obtain ⟨⟨k, l, hh⟩, b⟩ := y; obtain ⟨⟨k', l', hh'⟩, b'⟩ := y'
  simp only [Prod.mk.injEq] at h ⊢
  exact ⟨⟨h.1, h.2.1, h.2.2.1⟩, h.2.2.2⟩

theorem xcell_inj {c c' : Dev nD} {y y' : XB} (h : xcell c y = xcell c' y') : c = c' ∧ y = y' := by
  have h1 : c = c' := congrArg (fun g : GSem nD τ sig => g.1.1) h
  have h2 : (SemLoc.dma (roleSem (y.1.1, y.1.2.1, y.1.2.2, y.2)) : SemLoc sig) = .dma (roleSem (y'.1.1, y'.1.2.1, y'.1.2.2, y'.2)) :=
    congrArg Prod.snd h
  exact ⟨h1, xb_ext (roleSem_injective (SemLoc.dma.inj h2))⟩

theorem xcell_ne_bar (c c' : Dev nD) (y : XB) : xcell c y ≠ barCell c' := fun h => by
  have h2 : (SemLoc.dma (roleSem (y.1.1, y.1.2.1, y.1.2.2, y.2)) : SemLoc sig) = .reg barS := congrArg Prod.snd h
  cases h2

theorem bar_inj {c c' : Dev nD} (h : barCell c = barCell c') : c = c' := congrArg (fun g : GSem nD τ sig => g.1.1) h

theorem kcell_injective : Function.Injective (kcell : Dev nD × CI → GSem nD τ sig) := by
  rintro ⟨c, k⟩ ⟨c', k'⟩ h
  rcases k with u | y <;> rcases k' with u' | y'
  · have := bar_inj (show barCell c = barCell c' from h); subst this; rfl
  · exact absurd (show barCell c = xcell c' y' from h).symm (xcell_ne_bar _ _ _)
  · exact absurd (show xcell c y = barCell c' from h) (xcell_ne_bar _ _ _)
  · obtain ⟨h1, h2⟩ := xcell_inj (show xcell c y = xcell c' y' from h); subst h1; subst h2; rfl

def ringCells : Finset (GSem nD τ sig) := Finset.univ.map ⟨kcell, kcell_injective⟩

/-- The duty tokens minted for a device's own cells: its barrier cell's two, each transfer cell's one. -/
abbrev TI : Type := Bool ⊕ XB
def tokOf (cj : Dev nD × TI) : GSem nD τ sig × ℕ × Bool := match cj.2 with
  | .inl d => (barCell cj.1, 0, d)
  | .inr y => (xcell cj.1 y, 0, false)

theorem tokOf_injective : Function.Injective (tokOf : Dev nD × TI → GSem nD τ sig × ℕ × Bool) := by
  rintro ⟨c, j⟩ ⟨c', j'⟩ h
  rcases j with d | y <;> rcases j' with d' | y'
  · have h1 : barCell c = barCell c' := congrArg (fun x : GSem nD τ sig × ℕ × Bool => x.1) h
    have h2 : d = d' := congrArg (fun x : GSem nD τ sig × ℕ × Bool => x.2.2) h
    have := bar_inj h1; subst this; subst h2; rfl
  · exact absurd (congrArg (fun x : GSem nD τ sig × ℕ × Bool => x.1) h).symm (xcell_ne_bar _ _ _)
  · exact absurd (congrArg (fun x : GSem nD τ sig × ℕ × Bool => x.1) h) (xcell_ne_bar _ _ _)
  · obtain ⟨h1, h2⟩ := xcell_inj (show xcell c y = xcell c' y' from congrArg (fun x : GSem nD τ sig × ℕ × Bool => x.1) h)
    subst h1; subst h2; rfl

def ringToks : Finset (GSem nD τ sig × ℕ × Bool) := Finset.univ.map ⟨tokOf, tokOf_injective⟩

/-- The launch element: the pipeline library's cells, the ring's cells and tokens, and the counters' unit. -/
def u₀ : UU :=
  (initOf (Pipeline.cells cfgs cellOf_inj) (Pipeline.launchToks cfgs cellOf_inj), (initOf ringCells ringToks, 1))

variable (V : Vals F)

/-- The duty tokens of device `c`'s own cells. -/
def toks (c : Dev nD) : sProp 𝕄 :=
  bigSep Finset.univ fun j : TI => dutyTok ER (tokOf (c, j)).1 (tokOf (c, j)).2.1 (tokOf (c, j)).2.2

/-- What the launch element deals device `c`. -/
def G (c : Dev nD) : sProp 𝕄 :=
  iprop((bigSep Finset.univ fun k : CI => roundState ER (ringRd V) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop((∃ K, ghost V K c) ∗ copySems0 c)

theorem fund_ring : BI.own (ER (initOf ringCells ringToks)) ⊢ (|==> bigSep Finset.univ (G V) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd V) ringCells ringToks) $$ HX with ⟨Hst, Hr, Hat, Htok⟩
  imodintro
  ihave Hst' := (Entails.of_eq (hX fun g => roundState ER (ringRd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the invariants allocated per device -/

theorem ownSems0_eq (c : Dev nD) : (Pipeline.ownSems0 (Ix := Unit) (Name := ℕ) (U := UU) (Lvl := ℕ) (Val := Elt F) (τ := τ) osem c : sProp 𝕄)
    = iprop((bigSep Finset.univ fun y : XB => semVal (xcell c y) 0) ∗ copySems0 c) := by
  unfold Pipeline.ownSems0; rw [bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_CI (Φ : CI → sProp 𝕄) : bigSep Finset.univ Φ = iprop(Φ (.inl ()) ∗ bigSep Finset.univ fun y : XB => Φ (.inr y)) := by
  rw [bigSep_univ_sum, bigSep_univ_of_subsingleton ()]; rfl

theorem sems0_eq (c : Dev nD) : iprop(semVal (barCell c) 0 ∗ bigSep Finset.univ fun y : XB => semVal (xcell c y) 0)
    = (bigSep Finset.univ fun k : CI => semVal (kcell (c, k)) 0 : sProp 𝕄) := by rw [bigSep_CI]; rfl

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : CI => iprop(∃ κ : ℕ, cellInv ER (ringRd V) κ (kcell (c, k))))
          ∗ (bigSep Finset.univ fun k : CI => iprop(atPos ER (kcell (c, k)) 0 ∅ 0 ∗ reached ER (kcell (c, k)) 0)) ∗ toks c ∗ copySems0 c) := by
  rw [ownSems0_eq, unscopedSems0_eq]
  unfold G
  iintro ⟨⟨Hx, Hcp⟩, Hb, Hst, Hat, Htok⟩
  ihave Hv := (Entails.of_eq (sems0_eq (F := F) c)) $$ [Hb Hx]
  · isplitl [Hb] <;> iassumption
  imod (show iprop((bigSep Finset.univ fun k : CI => semVal (kcell (c, k)) 0) ∗ bigSep Finset.univ fun k : CI => roundState ER (ringRd V) (kcell (c, k)) 0)
      ⊢ (|={Set.univ}=> bigSep Finset.univ fun k : CI => iprop(∃ κ : ℕ, cellInv ER (ringRd V) κ (kcell (c, k))) : sProp 𝕄) from by
        rw [← bigSep_sep']
        exact (bigSep_mono fun k _ => (Rounds.body_intro ER (ringRd V) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hcp

/-! ## Regrouping: invariants and reached rounds shared, tokens dealt around the ring -/

theorem bigSep_bool (Φ : Bool → sProp 𝕄) : bigSep Finset.univ Φ = iprop(Φ true ∗ Φ false) :=
  bigSep_univ_eq_bigSepL [true, false] (by decide) (by decide) Φ

theorem bigSep_XB (Φ : XB → sProp 𝕄) : bigSep Finset.univ Φ = bigSep Finset.univ fun x : Xfer => iprop(Φ (x, true) ∗ Φ (x, false)) := by
  rw [bigSep_univ_prod]; exact bigSep_congr fun x _ => bigSep_bool _

/-- The neighbour map of a direction, as a bijection of the devices. -/
def toDevE : Bool → Dev nD ≃ Dev nD
  | false => ring
  | true => ring.symm
theorem toDevE_apply (l : Bool) (c : Dev nD) : toDevE l c = toDev c l := by cases l <;> rfl

/-- The launch's names, as the body's ghost state indexes them. -/
def ci : Option Role → CI
  | none => .inl ()
  | some (k, l, h, b) => .inr ((k, l, h), b)
def namesOf (κ : Dev nD × CI → ℕ) : Names := fun p => κ (p.1, ci p.2)

def records (κ : Dev nD × CI → ℕ) : sProp 𝕄 :=
  iprop((bigSep Finset.univ fun ck : Dev nD × CI => cellInv ER (ringRd V) (κ ck) (kcell ck))
    ∗ bigSep Finset.univ fun ck : Dev nD × CI => reached ER (kcell ck) 0)

instance records_persistent (κ : Dev nD × CI → ℕ) : BI.Persistent (records V κ) := by unfold records; infer_instance

theorem inv_at (κ : Dev nD × CI → ℕ) (ck : Dev nD × CI) : records V κ ⊢ cellInv ER (ringRd V) (κ ck) (kcell ck) :=
  (show records V κ ⊢ (bigSep Finset.univ fun ck : Dev nD × CI => cellInv ER (ringRd V) (κ ck) (kcell ck) : sProp 𝕄) from by
    unfold records; iintro ⟨H, -⟩; iexact H).trans (bigSep_elim (Finset.mem_univ ck))
theorem reached_at (κ : Dev nD × CI → ℕ) (ck : Dev nD × CI) : records V κ ⊢ reached ER (kcell ck) 0 :=
  (show records V κ ⊢ (bigSep Finset.univ fun ck : Dev nD × CI => reached ER (kcell ck) 0 : sProp 𝕄) from by
    unfold records; iintro ⟨-, H⟩; iexact H).trans (bigSep_elim (Finset.mem_univ ck))

/-- The tokens of the duties device `c` pays. -/
def payToks (c : Dev nD) : sProp 𝕄 :=
  iprop(dutyTok ER (barCell (prv c)) 0 false ∗ dutyTok ER (barCell (nxt c)) 0 true
    ∗ (bigSep Finset.univ fun x : Xfer => iprop(dutyTok ER (sendCell c x.1 x.2.1 x.2.2) 0 false
        ∗ dutyTok ER (recvCell (toDev c x.2.1) x.1 x.2.1 x.2.2) 0 false)))

/-- What stays with device `c`: its positions at its own cells, and the tokens it pays with. -/
def linear (c : Dev nD) : sProp 𝕄 :=
  iprop((atPos ER (barCell c) 0 ∅ 0
      ∗ (bigSep Finset.univ fun x : Xfer => iprop(atPos ER (sendCell c x.1 x.2.1 x.2.2) 0 ∅ 0 ∗ atPos ER (recvCell c x.1 x.2.1 x.2.2) 0 ∅ 0)))
    ∗ payToks c)

theorem invs_intro (κ : Dev nD × CI → ℕ) (c : Dev nD) : records V κ ⊢ invs V (namesOf κ) c := by
  have hx : records V κ ⊢ (bigSep Finset.univ fun x : Xfer => iprop(cellInv ER (ringRd V) (namesOf κ (c, some (x.1, x.2.1, x.2.2, true))) (sendCell c x.1 x.2.1 x.2.2)
        ∗ cellInv ER (ringRd V) (namesOf κ (c, some (x.1, x.2.1, x.2.2, false))) (recvCell c x.1 x.2.1 x.2.2)
        ∗ cellInv ER (ringRd V) (namesOf κ (toDev c x.2.1, some (x.1, x.2.1, x.2.2, false))) (recvCell (toDev c x.2.1) x.1 x.2.1 x.2.2)) : sProp 𝕄) :=
    bigSep_intro_persistent fun x _ => by
      iintro #H
      isplitr; · iapply (inv_at V κ (c, .inr (x, true))); iexact H
      isplitr; · iapply (inv_at V κ (c, .inr (x, false))); iexact H
      iapply (inv_at V κ (toDev c x.2.1, .inr (x, false))); iexact H
  unfold invs
  iintro #HR
  isplitr; · iapply (inv_at V κ (c, .inl ())); iexact HR
  isplitr; · iapply hx; iexact HR
  isplitr; · iapply (inv_at V κ (nxt c, .inl ())); iexact HR
  iapply (inv_at V κ (prv c, .inl ())); iexact HR

theorem reached_intro (κ : Dev nD × CI → ℕ) (c : Dev nD) :
    records V κ ⊢ (bigSep Finset.univ fun x : Xfer => iprop(reached ER (sendCell c x.1 x.2.1 x.2.2) 0 ∗ reached ER (recvCell c x.1 x.2.1 x.2.2) 0) : sProp 𝕄) :=
  bigSep_intro_persistent fun x _ => by
    iintro #H
    isplitr; · iapply (reached_at V κ (c, .inr (x, true))); iexact H
    iapply (reached_at V κ (c, .inr (x, false))); iexact H

theorem ghost_intro (κ : Dev nD × CI → ℕ) (c : Dev nD) : iprop(records V κ ∗ linear c) ⊢ (∃ K, ghost V K c : sProp 𝕄) := by
  unfold linear payToks
  iintro ⟨#HR, ⟨HaB, HaX⟩, HtP, HtN, HtX⟩
  iexists (namesOf κ)
  unfold ghost
  isplitr; · iapply (invs_intro V κ c); iexact HR
  isplitl [HaB]; · iexact HaB
  isplitl [HaX]; · iexact HaX
  isplitr; · iapply (reached_intro V κ c); iexact HR
  isplitr; · iapply (reached_at V κ (nxt c, .inl ())); iexact HR
  isplitr; · iapply (reached_at V κ (prv c, .inl ())); iexact HR
  isplitl [HtP]; · iexact HtP
  isplitl [HtN]; · iexact HtN
  iexact HtX

theorem toks_eq (c : Dev nD) : (toks c : sProp 𝕄)
    = iprop((dutyTok ER (barCell c) 0 true ∗ dutyTok ER (barCell c) 0 false)
      ∗ bigSep Finset.univ fun x : Xfer => iprop(dutyTok ER (sendCell c x.1 x.2.1 x.2.2) 0 false ∗ dutyTok ER (recvCell c x.1 x.2.1 x.2.2) 0 false)) := by
  unfold toks; rw [bigSep_univ_sum, bigSep_bool, bigSep_XB]; rfl

/-- A family over (device, transfer) summed over the devices is the same family read at each transfer's target device. -/
theorem recv_around (R : Dev nD → Xfer → sProp 𝕄) :
    (bigSep Finset.univ fun c : Dev nD => bigSep Finset.univ fun x : Xfer => R c x)
      = bigSep Finset.univ fun c : Dev nD => bigSep Finset.univ fun x : Xfer => R (toDev c x.2.1) x := by
  rw [bigSep_univ_comm (fun (c : Dev nD) (x : Xfer) => R c x), bigSep_univ_comm (fun (c : Dev nD) (x : Xfer) => R (toDev c x.2.1) x)]
  exact bigSep_congr fun x _ => by
    rw [bigSep_univ_equiv (toDevE x.2.1) (fun c => R c x)]
    exact bigSep_congr fun c _ => by rw [toDevE_apply]

/-- The tokens dealt around the ring: a barrier cell's `false` token to the device after it, its `true` token to the device
    before it, each receive token to the device that sends to the cell. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  rw [bigSep_sep', bigSep_sep', bigSep_sep', bigSep_sep',
    bigSep_congr (s := Finset.univ) (fun (c : Dev nD) _ => bigSep_sep' Finset.univ
      (fun x : Xfer => (dutyTok ER (sendCell c x.1 x.2.1 x.2.2) 0 false : sProp 𝕄)) (fun x : Xfer => dutyTok ER (recvCell c x.1 x.2.1 x.2.2) 0 false)),
    bigSep_congr (s := Finset.univ) (fun (c : Dev nD) _ => bigSep_sep' Finset.univ
      (fun x : Xfer => (dutyTok ER (sendCell c x.1 x.2.1 x.2.2) 0 false : sProp 𝕄)) (fun x : Xfer => dutyTok ER (recvCell (toDev c x.2.1) x.1 x.2.1 x.2.2) 0 false)),
    bigSep_sep', bigSep_sep',
    bigSep_univ_equiv ring.symm (fun c : Dev nD => (dutyTok ER (barCell c) 0 false : sProp 𝕄)),
    bigSep_univ_equiv ring (fun c : Dev nD => (dutyTok ER (barCell c) 0 true : sProp 𝕄)),
    recv_around (fun c x => (dutyTok ER (recvCell c x.1 x.2.1 x.2.2) 0 false : sProp 𝕄))]
  iintro ⟨⟨HT, HF⟩, HS, HR⟩
  isplitl [HF]; · iexact HF
  isplitl [HT]; · iexact HT
  isplitl [HS]; · iexact HS
  iexact HR

theorem atPos_own (c : Dev nD) : (bigSep Finset.univ fun k : CI => (atPos ER (kcell (c, k)) 0 ∅ 0 : sProp 𝕄))
    = iprop(atPos ER (barCell c) 0 ∅ 0
      ∗ bigSep Finset.univ fun x : Xfer => iprop(atPos ER (sendCell c x.1 x.2.1 x.2.2) 0 ∅ 0 ∗ atPos ER (recvCell c x.1 x.2.1 x.2.2) 0 ∅ 0)) := by
  rw [bigSep_CI, bigSep_XB]; rfl

theorem linear_sum :
    iprop(((bigSep Finset.univ fun c : Dev nD => iprop(atPos ER (barCell c) 0 ∅ 0
          ∗ bigSep Finset.univ fun x : Xfer => iprop(atPos ER (sendCell c x.1 x.2.1 x.2.2) 0 ∅ 0 ∗ atPos ER (recvCell c x.1 x.2.1 x.2.2) 0 ∅ 0)))
        ∗ bigSep Finset.univ fun c : Dev nD => payToks c) ∗ bigSep Finset.univ fun c : Dev nD => copySems0 c)
      = (bigSep Finset.univ fun c : Dev nD => iprop(linear c ∗ copySems0 c) : sProp 𝕄) := by
  unfold linear; conv_rhs => rw [bigSep_sep', bigSep_sep']

theorem regroup :
    (bigSep Finset.univ fun c : Dev nD => iprop((bigSep Finset.univ fun k : CI => iprop(∃ κ : ℕ, cellInv ER (ringRd V) κ (kcell (c, k))))
          ∗ (bigSep Finset.univ fun k : CI => iprop(atPos ER (kcell (c, k)) 0 ∅ 0 ∗ reached ER (kcell (c, k)) 0)) ∗ toks c ∗ copySems0 c) : sProp 𝕄)
      ⊢ bigSep Finset.univ (G' V) := by
  rw [bigSep_sep', bigSep_sep', bigSep_sep', ← bigSep_univ_prod (fun ck : Dev nD × CI => iprop(∃ κ : ℕ, cellInv ER (ringRd V) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)),
    bigSep_congr (s := Finset.univ) (fun (c : Dev nD) _ => atPos_own (F := F) c)]
  iintro ⟨HI, ⟨Hat, #HR⟩, Htok, Hcp⟩
  ihave HK := (BI.bigSep_exists_pi Finset.univ (fun (ck : Dev nD × CI) (κ : ℕ) => (cellInv ER (ringRd V) κ (kcell ck) : sProp 𝕄))) $$ HI
  icases HK with ⟨%κ, #HI⟩
  ihave Htk := (toks_around (F := F)) $$ Htok
  iapply (bigSep_with_persistent (R := records V κ) (Φ := fun c : Dev nD => iprop(linear c ∗ copySems0 c)) fun c _ => by
    unfold G'
    iintro ⟨#HR, HL, HC⟩
    isplitl [HL]
    · iapply (ghost_intro V κ c); isplitr; · iexact HR
      iexact HL
    iexact HC)
  isplitr
  · unfold records; isplitl; · iexact HI
    iexact HR
  · iapply (Entails.of_eq (linear_sum (F := F)))
    isplitl [Hat Htk]
    · isplitl [Hat] <;> iassumption
    iexact Hcp

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The launch credit -/

/-- The cell a payment credits, named on the device that is paid. -/
def cellAt (c : Dev nD) : Pay → GSem nD τ sig
  | .bar _ => barCell c
  | .xfer k l h => recvCell c k l h
/-- What device `c`'s cells are paid by the payments `ps` of the devices that pay it. -/
def paidOf (c : Dev nD) : List Pay → CellTallies nD τ sig Unit
  | [] => 0
  | p :: ps => tallyAt (cellAt c p) () (payAmt p) + paidOf c ps

theorem payCell_eq (d : Dev nD) (p : Pay) : payCell d p = cellAt (toDevE (match p with | .bar l => l | .xfer _ l _ => l) d) p := by
  cases p with
  | bar l => rw [toDevE_apply]; rfl
  | xfer k l h => rw [toDevE_apply]; rfl

/-- Summed over the devices, what they owe is what they are paid. -/
theorem sum_owedOf (ps : List Pay) : (∑ d : Dev nD, owedOf d ps) = ∑ c : Dev nD, paidOf c ps := by
  induction ps with
  | nil => rfl
  | cons p ps ih =>
    simp only [owedOf, paidOf, Finset.sum_add_distrib, ih]
    rw [add_comm]
    congr 1
    exact Fintype.sum_equiv (toDevE (match p with | .bar l => l | .xfer _ l _ => l)) _ _ (fun d => by rw [payCell_eq])

theorem paidOf_own (c : Dev nD) (ps : List Pay) (g : GSem nD τ sig) (h : paidOf c ps g ≠ 0) : g.1 = (c : Thread nD τ) := by
  induction ps with
  | nil => exact absurd rfl h
  | cons p ps ih =>
    by_cases hg : g = cellAt c p
    · rw [hg]; cases p <;> rfl
    · refine ih ?_
      intro h0
      apply h
      show tallyAt (cellAt c p) () (payAmt p) g + paidOf c ps g = 0
      rw [h0, tallyAt_ne_cell hg, add_zero]

theorem cred_paidOf (c : Dev nD) (ps : List Pay) :
    (cred (paidOf c ps) : sProp 𝕄) ⊢ bigSepL ps fun p => cred (tallyAt (cellAt c p) () (payAmt p)) := by
  induction ps with
  | nil =>
    show (cred (0 : CellTallies nD τ sig Unit) : sProp 𝕄) ⊢ (emp : sProp 𝕄)
    rw [cred_zero]
  | cons p ps ih =>
    rw [bigSepL_cons]
    show cred (tallyAt (cellAt c p) () (payAmt p) + paidOf c ps) ⊢ _
    exact (cred_add _ _).1.trans (sep_mono_right ih)

/-- The transfers in the order of the program. -/
def progXfers : List Xfer :=
  [(.o, false, 0), (.l, false, 0), (.o, true, 0), (.l, true, 0),
   (.o, false, 1), (.o, true, 1), (.l, false, 1), (.l, true, 1),
   (.o, false, 2), (.o, true, 2), (.l, false, 2), (.l, true, 2),
   (.g, false, 0), (.g, true, 0), (.g, false, 1), (.g, true, 1), (.g, false, 2), (.g, true, 2)]

theorem creds (c : Dev nD) :
    (Pipeline.launchCred O₀ c : sProp 𝕄)
      ⊢ iprop(cred (tallyAt (barCell c) () 2) ∗ bigSep Finset.univ fun x : Xfer => cred (tallyAt (recvCell c x.1 x.2.1 x.2.2) () (amt x.1))) := by
  rw [Pipeline.launchCred_of_sum O₀ (fun c => paidOf c prog) (sum_owedOf prog) (fun d g h => paidOf_own d prog g h) c,
    bigSep_univ_eq_bigSepL progXfers (by decide) (by decide)]
  refine (cred_paidOf c prog).trans ?_
  show iprop(cred (tallyAt (barCell c) () 1) ∗ cred (tallyAt (barCell c) () 1) ∗ bigSepL progXfers fun x => cred (tallyAt (recvCell c x.1 x.2.1 x.2.2) () (amt x.1))) ⊢ _
  iintro ⟨H1, H2, HX⟩
  isplitl [H1 H2]
  · rw [← tallyAt_add (barCell c) () 1 1]
    iapply (cred_add _ _).2
    isplitl [H1] <;> iassumption
  iexact HX

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- The level of the cell a payment credits: a barrier cell's 1, a transfer's place. -/
def payLv : Pay → ℕ
  | .bar _ => 1
  | .xfer k l h => place k l h

theorem lv_bar (c : Dev nD) : lv (barCell c) () = 1 := if_pos rfl
theorem lv_recv (c : Dev nD) (k : Kind) (l : Bool) (h : Fin 3) : lv (recvCell c k l h) () = place k l h := by
  unfold lv; rw [if_neg (recv_ne_bar k l h)]; dsimp only; rw [cellRole_recv]
theorem lv_send (c : Dev nD) (k : Kind) (l : Bool) (h : Fin 3) : lv (sendCell c k l h) () = place k l h := by
  unfold lv; rw [if_neg (send_ne_bar k l h)]; dsimp only; rw [cellRole_send]
theorem lv_low (c : Dev nD) (q : DmaSem sig) (hq : cellRole (.dma q) = none) : lv ((c : Thread nD τ), .dma q) () = 0 := by
  unfold lv; rw [if_neg (fun h => by cases h)]; dsimp only; rw [hq]

theorem lv_payCell (c : Dev nD) (p : Pay) : lv (payCell c p) () = payLv p := by
  cases p with
  | bar l => exact lv_bar _
  | xfer k l h => exact lv_recv _ k l h
theorem L_payCell (c : Dev nD) (p : Pay) : L (payCell c p) = {()} := by cases p <;> exact if_pos rfl

theorem payLv_pos (p : Pay) : 0 < payLv p := by
  cases p with
  | bar l => exact Nat.one_pos
  | xfer k l h => revert k l h; decide

/-- A device that still owes the payments `ps` owes only the cells they credit. -/
theorem owedOf_pos {c : Dev nD} {ps : List Pay} {g : GSem nD τ sig} {i : Unit} (h : 0 < owedOf c ps g i) : ∃ p ∈ ps, g = payCell c p := by
  induction ps with
  | nil => exact absurd h (Nat.lt_irrefl 0)
  | cons p ps ih =>
    have h' : 0 < (owedOf c ps + tallyAt (payCell c p) () (payAmt p)) g i := h
    rcases Pipeline.add_pos_cases h' with h1 | h1
    · obtain ⟨q, hq, e⟩ := ih h1; exact ⟨q, List.mem_cons_of_mem _ hq, e⟩
    · exact ⟨p, List.mem_cons_self, (Pipeline.tallyAt_pos h1).1⟩

/-- A device may wait on a cell of its own that sits below every cell it still owes. -/
theorem mayWait_below (c : Dev nD) (s : SemLoc sig) (ps : List Pay) (hlow : ∀ p ∈ ps, lv ((c : Thread nD τ), s) () < payLv p) :
    (levAts L lv : sProp 𝕄) ⊢ MayWait (c : Thread nD τ) s () (owedOf c ps) :=
  Pipeline.mayWait_of_levAts (by rw [L_tc]; exact Finset.mem_singleton_self ()) fun g i hg => by
    obtain ⟨p, hp, rfl⟩ := owedOf_pos hg
    exact ⟨by rw [L_payCell]; exact Finset.mem_singleton_self _, by rw [lv_payCell]; exact hlow p hp⟩

/-- At its barrier wait a device owes only its transfers' receive credits. -/
theorem mayWait_bar (c : Dev nD) : (levAts L lv : sProp 𝕄) ⊢ MayWait (c : Thread nD τ) (.reg barS) () (owedOf c (prog.drop 2)) :=
  mayWait_below c _ _ (by rw [show lv ((c : Thread nD τ), .reg barS) () = 1 from lv_bar c]; decide)

/-- At the waits of a transfer — on its send cell or on its receive cell — a device owes only later transfers. -/
theorem mayWait_send (c : Dev nD) (k : Kind) (l : Bool) (h : Fin 3) :
    (levAts L lv : sProp 𝕄) ⊢ MayWait (c : Thread nD τ) (.dma (sendSem k l h)) () (owedOf c (prog.drop (place k l h + 1))) :=
  mayWait_below c _ _ (by rw [show lv ((c : Thread nD τ), .dma (sendSem k l h)) () = place k l h from lv_send c k l h]; revert k l h; decide)
theorem mayWait_recv (c : Dev nD) (k : Kind) (l : Bool) (h : Fin 3) :
    (levAts L lv : sProp 𝕄) ⊢ MayWait (c : Thread nD τ) (.dma (recvSem k l h)) () (owedOf c (prog.drop (place k l h + 1))) :=
  mayWait_below c _ _ (by rw [show lv ((c : Thread nD τ), .dma (recvSem k l h)) () = place k l h from lv_recv c k l h]; revert k l h; decide)

/-- On a staging or local-copy semaphore a device may wait whatever it still owes. -/
theorem mayWait_low (c : Dev nD) (q : DmaSem sig) (hq : cellRole (.dma q) = none) (ps : List Pay) :
    (levAts L lv : sProp 𝕄) ⊢ MayWait (c : Thread nD τ) (.dma q) () (owedOf c ps) :=
  mayWait_below c _ _ (fun p _ => by rw [lv_low c q hq]; exact payLv_pos p)

/-! ## The theorem's side conditions -/

variable (m : (ℓ : Loc nD τ sig) → Buf (Elt F) ℓ) (ρ : Dev nD → PrngReg) (Kout : OutFn F)

theorem share_eq (c : Dev nD) (w : Fin cfg0.W) : (dats V m Kout 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' V c)
      ⊢ |={Set.univ}=> iprop(start V m c ∗ emp) := by
  rw [Pipeline.unscopedRestP_none, unscopedRest0_eq]
  unfold G'
  iintro ⟨Hh, Hlev, Hcr, -, HG, Hcp⟩
  ihave Hc := (creds (F := F) c) $$ Hcr
  icases Hc with ⟨H2, HX⟩
  imodintro
  unfold start hbm
  isplitl
  · isplitl [HG]; · iexact HG
    isplitl [H2]; · iexact H2
    isplitl [HX]; · iexact HX
    isplitl [Hlev]; · iexact Hlev
    isplitl [Hcp]; · iexact Hcp
    iexact Hh
  · iempintro

theorem phi0_intro (c : Dev nD) :
    iprop(start V m c ∗ Pipeline.prefHeld Pipeline.Prefetch.none c (fun _ => fullShare.right) (fun k => k.elim0) ∗ Pipeline.scopedRest cfg0.spec c)
      ⊢ (dats V m Kout 0 c).Φ 0 := by
  rw [show (dats V m Kout 0 c).Φ 0 = Φ₀ V m c from rfl]
  unfold Φ₀ scratch
  iintro ⟨Hs, -, Hr⟩
  isplitl [Hs]; · iexact Hs
  iexact Hr

theorem phi1_exit (c : Dev nD) :
    (dats V m Kout 0 c).Φ (Fin.last cfg0.N) ⊢ iprop(hbm m c ∗ Pipeline.ownSems0 osem c ∗ Pipeline.scopedRest cfg0.spec c) := by
  rw [show (dats V m Kout 0 c).Φ (Fin.last cfg0.N) = Φ₁ m c from rfl, ownSems0_eq, bigSep_XB]
  unfold Φ₁ scratch
  iintro ⟨Hr, Hcp, Hh, HX⟩
  isplitl [Hh]; · iexact Hh
  isplitl [HX Hcp]
  · isplitl [HX]; · iexact HX
    iexact Hcp
  iexact Hr

theorem waits (c : Dev nD) : (levAts L lv : sProp 𝕄) ⊢ Pipeline.cellsWaits cfgs (dats V m Kout) () 0 c :=
  Pipeline.cellsWaits_intro cfgs (dats V m Kout) () 0 c fun w s t => by
    have hq : cellRole (.dma ((cfg0.win w).sem s)) = none := cellRole_lt _ (by fin_cases w <;> fin_cases s <;> decide)
    rcases t with ⟨_ | _, ht⟩
    · exact mayWait_low c _ hq prog
    · show _ ⊢ MayWait _ _ _ (0 : CellTallies nD τ sig Unit)
      rw [MayWait_zero]; iintro -; iempintro

/-! ## The result array after the one grid point -/

/-- The result window's block is the whole array, written back once: the array ends at what the body left in the block. -/
theorem arrAt_result (c : Dev nD) : (dats V m Kout 0 c).arrAt 3 cfg0.N = Kout m c := by
  have h := (dats V m Kout 0 c).arrAt_succ 3 t0_0
  rw [flush0_3 t0_0, if_pos rfl] at h
  have hN : cfg0.N = t0_0.val + 1 := by decide
  rw [hN, h]
  have hread : ∀ X : (main_v1 : Ref sig .tc).ty.Contents (Elt F), ((cfg0.win 3).blk t0_0).view.read (Elt F) X = X := fun X =>
    Memref.read_access_unit_zero (Elt F) main_v1 (off := fun a => 0 * S4x256x1024.size a) (by funext a; exact Nat.zero_mul _) _ X
  have hcut : (dats V m Kout 0 c).flushed 3 t0_0 = Kout m c := by
    funext j; rfl
  exact (hread _).symm.trans ((View.read_write_univ _ _).trans hcut)

/-! ## The run -/

set_option maxRecDepth 8000 in
/-- At the compiled mesh of four devices, for any float values, from any memory with zero counters, given the body of each
    device: every weakly fair execution of @main — the four kernels handshaking on the barrier semaphore, reducing and
    gathering around the ring — terminates, and every final state has each device's result array at the write-back of
    its block and the five argument arrays as launched. -/
theorem run_main (hbody : BodyOK V m Kout) :
    θ_run defs (onTc (τ := τ) (main (F := F))) ⟨m, fun _ => 0, ρ⟩ (fun r => ∀ c : Dev nD,
      r.2.mem ((c : Thread nD τ).loc main_v1) = (dats V m Kout 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Pipeline.θ_run_region_owing_glob_pf (fun p => (cfgs p).toPCfg) (fun p => (cfgs p).toPCfg_adm) (dats V m Kout) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq V m Kout)
    (hdistinct := winFacts0.arr_inj)
    (O₀ := O₀) (howed₀ := fun _ => rfl) (howedN := fun _ => rfl)
    (L := L) (lv := lv) (hL := L_of_ne) (hwaits := waits V m Kout)
    (G := G V) (G' := G' V) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_ring V) $$ HR with HG
      imodintro
      isplitl [HP] <;> iassumption)
    (hglob := glob V)
    (hA := fun _ _ => rfl) (hpf := fun _ k => k.elim0)
    (X := start V m) (Y := hbm m) (Z := fun _ => iprop(emp))
    (hX := start_intro V m ρ) (hin := phi0_intro V m Kout) (hout := phi1_exit V m Kout)
    (QY := fun c s => s.mem ((c : Thread nD τ).loc main_arg3) = m ((c : Thread nD τ).loc main_arg3)
      ∧ s.mem ((c : Thread nD τ).loc main_arg4) = m ((c : Thread nD τ).loc main_arg4))
    (hY := fun c s' => by
      unfold hbm
      iintro ⟨⟨H3, H4⟩, -, HSI⟩
      icombine HSI H3 gives %h3
      icombine HSI H4 gives %h4
      imodintro
      isplitr; · ipureintro; exact ⟨Buf.eq_of_forall_mem_univ h3, Buf.eq_of_forall_mem_univ h4⟩
      iexact HSI)
    (hQ := fun s h c => ⟨(h c).1 3,
      ((h c).1 0).trans ((dats V m Kout 0 c).arrAt_in 0 rfl _),
      ((h c).1 1).trans ((dats V m Kout 0 c).arrAt_in 1 rfl _),
      ((h c).1 2).trans ((dats V m Kout 0 c).arrAt_in 2 rfl _),
      (h c).2.2.1, (h c).2.2.2⟩)

end Cert.Kernel.Proto

end
-- ==== Proof.KB.Unfold.lean ====
/-
  The eighteen transfers of a device listed in program order, and a conjunction over all of them written out.
-/
import proofs.«900754_g7700000000000755_dist_attn_cross_gqa_kvseq_b4_sq256_skv1024_d1024_hq8_dh128_v7x_i4_f32_1_alg».proof.Proof.KB.Data

noncomputable section

namespace Cert.Kernel.Proto

open Cert.Kernel Cert.Kernel.Gen Cert.Kernel.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The transfers in the order the body enqueues them. -/
def xfers : List Xfer := [(.o, false, 0), (.l, false, 0), (.o, true, 0), (.l, true, 0), (.o, false, 1), (.o, true, 1), (.l, false, 1), (.l, true, 1), (.o, false, 2), (.o, true, 2), (.l, false, 2), (.l, true, 2), (.g, false, 0), (.g, true, 0), (.g, false, 1), (.g, true, 1), (.g, false, 2), (.g, true, 2)]

omit [FloatOps F] in
theorem bigSep_xfer (Φ : Xfer → sProp 𝕄) :
    bigSep Finset.univ Φ = iprop(Φ ((.o, false, 0) : Xfer) ∗ Φ ((.l, false, 0) : Xfer) ∗ Φ ((.o, true, 0) : Xfer) ∗ Φ ((.l, true, 0) : Xfer) ∗ Φ ((.o, false, 1) : Xfer) ∗ Φ ((.o, true, 1) : Xfer) ∗ Φ ((.l, false, 1) : Xfer) ∗ Φ ((.l, true, 1) : Xfer) ∗ Φ ((.o, false, 2) : Xfer) ∗ Φ ((.o, true, 2) : Xfer) ∗ Φ ((.l, false, 2) : Xfer) ∗ Φ ((.l, true, 2) : Xfer) ∗ Φ ((.g, false, 0) : Xfer) ∗ Φ ((.g, true, 0) : Xfer) ∗ Φ ((.g, false, 1) : Xfer) ∗ Φ ((.g, true, 1) : Xfer) ∗ Φ ((.g, false, 2) : Xfer) ∗ Φ ((.g, true, 2) : Xfer)) :=
  bigSep_univ_eq_bigSepL xfers (by decide) (by decide) Φ

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.Kernel.Proto

end
-- ==== Proof.KB.TailProg.lean ====
import proofs.«900754_g7700000000000755_dist_attn_cross_gqa_kvseq_b4_sq256_skv1024_d1024_hq8_dh128_v7x_i4_f32_1_alg».proof.Proof.Gen.Kernel.Skeleton

noncomputable section

namespace Cert.Kernel.Proto

open Cert.Kernel Cert.Kernel.Gen
open Idealize.ShloMosaic Idealize.SL.Sem

variable {F : FTy → Type} [FloatOps F]

/-- The body from the end of its last merge loop on: the eight output terms, the own block's copy, the gathering's three hops, the four final copies. -/
noncomputable def tailProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 v25 v1157 : BitVec 32) :
    Prog (TpuEff nD τ sig (Elt F) Λ₀ .tc) PUnit := do
  let v1203 : FVec F S256x1024 .f32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v1157 -- statements 2461–2520 of 3174: their part
  let v1235 : FVec F S256x1024 .f32 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v1157 v1203 -- statements 2521–2580 of 3174: their part
  let ⟨v1264, v1267⟩ : Σ' (v1264 : FVec F S128x256 .f32), FVec F S128x256 .f32 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v1157 v1235 -- statements 2581–2640 of 3174: their part
  let v1301 : FVec F S256x1024 .bf16 ← k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v1157 v1264 v1267 -- statements 2641–2700 of 3174: their part
  k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v25 v1157 v1301 -- statements 2701–2760 of 3174: their part
  k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 -- statements 2761–2820 of 3174: their part
  let ⟨v1391, v1392, v1393, v1396⟩ : Σ' (v1391 : BitVec 32) (v1392 : BitVec 32) (v1393 : BitVec 1), BitVec 1 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1157 -- statements 2821–2880 of 3174: their part
  let ⟨v1426, c0_i32_1335⟩ : Σ' (v1426 : BitVec 32), BitVec 32 ← k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1391 v1392 v1393 v1396 -- statements 2881–2940 of 3174: their part
  let ⟨v1451, v1452, v1453, v1456⟩ : Σ' (v1451 : BitVec 32) (v1452 : BitVec 32) (v1453 : BitVec 1), BitVec 1 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1157 v1426 c0_i32_1335 -- statements 2941–3000 of 3174: their part
  k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1157 v1451 v1452 v1453 v1456 -- statements 3001–3060 of 3174: their part
  k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 -- statements 3061–3120 of 3174: their part
  let v1513 : DmaSems sig S1 := arg27.slice (Rect.unit (s := S3) ![2] S1.size inb_S3_S1_2) -- (%1513 = tpu.memref_slice %arg27[%c2_i32_1408] : memref<3x!tpu.dma_semaphore, #tpu.memory_space<semaphore_mem>> -> memref<1x!tpu.dma_semaphore, #tpu.memory_space<semaphore_mem>>  @ kernel:223), the view bound again for this window
  let v1514 : DmaSems sig S_ := v1513.squeeze S_ squeezes_S1_S_         -- (%1514 = tpu.memref_squeeze %1513 : memref<1x!tpu.dma_semaphore, #tpu.memory_space<semaphore_mem>> -> memref<!tpu.dma_semaphore, #tpu.memory_space<semaphore_mem>>  @ kernel:223), the view bound again for this window
  let v1515 : Memref sig .tc .vmem S1x128x1024 .bf16 := arg29.slice (Rect.unit (s := S4x256x1024) (k0_off68 d0 2#32) S1x128x1024.size (k0_off68_inb d0 2)) (fun _ => rfl) -- (%1515 = tpu.memref_slice %arg29[%1470, %c128_i32_1412, %c0_i32_1413] : memref<4x256x1024xbf16, #tpu.memory_space<vmem>> -> memref<1x128x1024xbf16, #tpu.memory_space<vmem>>  @ kernel:223), the view bound again for this window
  let v1516 : Memref sig .tc .vmem S128x1024 .bf16 := v1515.squeeze S128x1024 squeezes_S1x128x1024_S128x1024 -- (%1516 = tpu.memref_squeeze %1515 : memref<1x128x1024xbf16, #tpu.memory_space<vmem>> -> memref<128x1024xbf16, #tpu.memory_space<vmem>>  @ kernel:223), the view bound again for this window
  let v1517 : Memref sig .tc .vmem S1x128x1024 .bf16 := arg29.slice (Rect.unit (s := S4x256x1024) (k0_off68 d0 2#32) S1x128x1024.size (k0_off68_inb d0 2)) (fun _ => rfl) -- (%1517 = tpu.memref_slice %arg29[%1470, %c128_i32_1414, %c0_i32_1415] : memref<4x256x1024xbf16, #tpu.memory_space<vmem>> -> memref<1x128x1024xbf16, #tpu.memory_space<vmem>>  @ kernel:223), the view bound again for this window
  let v1518 : Memref sig .tc .vmem S128x1024 .bf16 := v1517.squeeze S128x1024 squeezes_S1x128x1024_S128x1024 -- (%1518 = tpu.memref_squeeze %1517 : memref<1x128x1024xbf16, #tpu.memory_space<vmem>> -> memref<128x1024xbf16, #tpu.memory_space<vmem>>  @ kernel:223), the view bound again for this window
  Prog.lift (.waitDma2 v1514.sem v1518 v1516 ((harg29.wordExact_slice rfl _ (k0_off68_wordsbf16 d0 2)).reshape _ _) ((harg29.wordExact_slice rfl _ (k0_off68_wordsbf16 d0 2)).reshape _ _)) -- tpu.wait_dma2 semaphore(%1514 : memref<!tpu.dma_semaphore, #tpu.memory_space<semaphore_mem>>) src(%1518 : memref<128x1024xbf16, #tpu.memory_space<vmem>>) dst(%1516 : memref<128x1024xbf16, #tpu.memory_space<vmem>>) device_id(%1512)  @ kernel:223
  let v1519 : Vec F S1x256x1024 .bf16 ← Prog.lift (.load arg29 (Rect.unit (s := S4x256x1024) ![0, 0, 0] S1x256x1024.size inb_S4x256x1024_S1x256x1024_0_0_0).toLoadRect (View.loadsAt_vmem h_S1x256x1024)) -- %1519 = vector.load %arg29[%c0_1416, %c0_1417, %c0_1418] : memref<4x256x1024xbf16, #tpu.memory_space<vmem>>, vector<1x256x1024xbf16>  @ kernel:225
  let v1521 : FVec F S256x1024 .f32 ← pure (k0_pay118 v1519)
  let v1522 : Vec F S1x256x1024 .f32 ← Prog.lift (.load arg5 (Rect.unit (s := S4x256x1024) ![0, 0, 0] S1x256x1024.size inb_S4x256x1024_S1x256x1024_0_0_0).toLoadRect (View.loadsAt_vmem h_S1x256x1024)) -- %1522 = vector.load %arg5[%c0_1419, %c0_1420, %c0_1421] : memref<4x256x1024xf32, #tpu.memory_space<vmem>>, vector<1x256x1024xf32>  @ kernel:225
  -- %1523 = vector.shape_cast %1522 : vector<1x256x1024xf32> to vector<256x1024xf32>  @ kernel:225  — not in the skeleton
  Prog.lift (.store arg5 (Rect.unit (s := S4x256x1024) ![0, 0, 0] S1x256x1024.size inb_S4x256x1024_S1x256x1024_0_0_0) (k0_pay1 v1521) Finset.univ (View.stores_vmem_bits_univ h_S1x256x1024 rfl) (.inl rfl)) -- tpu.vector_store %arg5[%c0_1419, %c0_1420, %c0_1421], %1524 {strides = array<i32>} : memref<4x256x1024xf32, #tpu.memory_space<vmem>>, vector<1x256x1024xf32>,  @ kernel:225
  let v1525 : Vec F S1x256x1024 .bf16 ← Prog.lift (.load arg29 (Rect.unit (s := S4x256x1024) ![1, 0, 0] S1x256x1024.size inb_S4x256x1024_S1x256x1024_1_0_0).toLoadRect (View.loadsAt_vmem h_S1x256x1024)) -- %1525 = vector.load %arg29[%c1_1422, %c0_1423, %c0_1424] : memref<4x256x1024xbf16, #tpu.memory_space<vmem>>, vector<1x256x1024xbf16>  @ kernel:225
  let v1528 : Vec F S1x256x1024 .f32 ← Prog.lift (.load arg5 (Rect.unit (s := S4x256x1024) ![1, 0, 0] S1x256x1024.size inb_S4x256x1024_S1x256x1024_1_0_0).toLoadRect (View.loadsAt_vmem h_S1x256x1024)) -- %1528 = vector.load %arg5[%c1_1425, %c0_1426, %c0_1427] : memref<4x256x1024xf32, #tpu.memory_space<vmem>>, vector<1x256x1024xf32>  @ kernel:225
  -- %1529 = vector.shape_cast %1528 : vector<1x256x1024xf32> to vector<256x1024xf32>  @ kernel:225  — not in the skeleton
  Prog.lift (.store arg5 (Rect.unit (s := S4x256x1024) ![1, 0, 0] S1x256x1024.size inb_S4x256x1024_S1x256x1024_1_0_0) (k0_pay2 v1525) Finset.univ (View.stores_vmem_bits_univ h_S1x256x1024 rfl) (.inl rfl)) -- tpu.vector_store %arg5[%c1_1425, %c0_1426, %c0_1427], %1530 {strides = array<i32>} : memref<4x256x1024xf32, #tpu.memory_space<vmem>>, vector<1x256x1024xf32>,  @ kernel:225
  let v1531 : Vec F S1x256x1024 .bf16 ← Prog.lift (.load arg29 (Rect.unit (s := S4x256x1024) ![2, 0, 0] S1x256x1024.size inb_S4x256x1024_S1x256x1024_2_0_0).toLoadRect (View.loadsAt_vmem h_S1x256x1024)) -- %1531 = vector.load %arg29[%c2_1428, %c0_1429, %c0_1430] : memref<4x256x1024xbf16, #tpu.memory_space<vmem>>, vector<1x256x1024xbf16>  @ kernel:225
  let v1534 : Vec F S1x256x1024 .f32 ← Prog.lift (.load arg5 (Rect.unit (s := S4x256x1024) ![2, 0, 0] S1x256x1024.size inb_S4x256x1024_S1x256x1024_2_0_0).toLoadRect (View.loadsAt_vmem h_S1x256x1024)) -- %1534 = vector.load %arg5[%c2_1431, %c0_1432, %c0_1433] : memref<4x256x1024xf32, #tpu.memory_space<vmem>>, vector<1x256x1024xf32>  @ kernel:225
  -- %1535 = vector.shape_cast %1534 : vector<1x256x1024xf32> to vector<256x1024xf32>  @ kernel:225  — not in the skeleton
  Prog.lift (.store arg5 (Rect.unit (s := S4x256x1024) ![2, 0, 0] S1x256x1024.size inb_S4x256x1024_S1x256x1024_2_0_0) (k0_pay3 v1531) Finset.univ (View.stores_vmem_bits_univ h_S1x256x1024 rfl) (.inl rfl)) -- tpu.vector_store %arg5[%c2_1431, %c0_1432, %c0_1433], %1536 {strides = array<i32>} : memref<4x256x1024xf32, #tpu.memory_space<vmem>>, vector<1x256x1024xf32>,  @ kernel:225
  let v1537 : Vec F S1x256x1024 .bf16 ← Prog.lift (.load arg29 (Rect.unit (s := S4x256x1024) ![3, 0, 0] S1x256x1024.size inb_S4x256x1024_S1x256x1024_3_0_0).toLoadRect (View.loadsAt_vmem h_S1x256x1024)) -- %1537 = vector.load %arg29[%c3_1434, %c0_1435, %c0_1436] : memref<4x256x1024xbf16, #tpu.memory_space<vmem>>, vector<1x256x1024xbf16>  @ kernel:225
  let v1540 : Vec F S1x256x1024 .f32 ← Prog.lift (.load arg5 (Rect.unit (s := S4x256x1024) ![3, 0, 0] S1x256x1024.size inb_S4x256x1024_S1x256x1024_3_0_0).toLoadRect (View.loadsAt_vmem h_S1x256x1024)) -- %1540 = vector.load %arg5[%c3_1437, %c0_1438, %c0_1439] : memref<4x256x1024xf32, #tpu.memory_space<vmem>>, vector<1x256x1024xf32>  @ kernel:225
  -- %1541 = vector.shape_cast %1540 : vector<1x256x1024xf32> to vector<256x1024xf32>  @ kernel:225  — not in the skeleton
  Prog.lift (.store arg5 (Rect.unit (s := S4x256x1024) ![3, 0, 0] S1x256x1024.size inb_S4x256x1024_S1x256x1024_3_0_0) (k0_pay4 v1537) Finset.univ (View.stores_vmem_bits_univ h_S1x256x1024 rfl) (.inl rfl)) -- tpu.vector_store %arg5[%c3_1437, %c0_1438, %c0_1439], %1542 {strides = array<i32>} : memref<4x256x1024xf32, #tpu.memory_space<vmem>>, vector<1x256x1024xf32>,  @ kernel:225
  pure ⟨⟩                                                               -- func.return

end Cert.Kernel.Proto

end
-- ==== Proof.KB.Segs.lean ====
import proofs.«900754_g7700000000000755_dist_attn_cross_gqa_kvseq_b4_sq256_skv1024_d1024_hq8_dh128_v7x_i4_f32_1_alg».proof.Proof.Gen.Kernel.Skeleton
import proofs.«900754_g7700000000000755_dist_attn_cross_gqa_kvseq_b4_sq256_skv1024_d1024_hq8_dh128_v7x_i4_f32_1_alg».proof.Proof.KB.TailProg

set_option maxRecDepth 65536

noncomputable section

namespace Cert.Kernel.Proto

open Cert.Kernel Cert.Kernel.Gen
open Idealize.ShloMosaic Idealize.SL.Sem

variable {F : FTy → Type} [FloatOps F]

/-- Parts of the kernel's body, in order: A. -/
noncomputable def segAProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) :
    Prog (TpuEff nD τ sig (Elt F) Λ₀ .tc) (Σ' (d0 : Dev nD) (v2 : BitVec 32) (v14 : BitVec 32) (v25 : BitVec 32) (v26 : Sems sig S_), FVec F S256x1024 .f32) := do
  let ⟨d0, v2, v14, v25, v26⟩ : Σ' (d0 : Dev nD) (v2 : BitVec 32) (v14 : BitVec 32) (v25 : BitVec 32), Sems sig S_ ← k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
  k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
  k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
  k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
  k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
  k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2
  let v176 : FVec F S1024x128 .bf16 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2
  k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v176
  let ⟨v226, v244, v245, c2_i32_250⟩ : Σ' (v226 : FVec F S256x1024 .f32) (v244 : FVec F S256x128 .bf16) (v245 : BitVec 32), BitVec 32 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2
  k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v226 v244 v245 c2_i32_250
  pure ⟨d0, v2, v14, v25, v26, v226⟩

/-- Parts of the kernel's body, in order: B. -/
noncomputable def segBProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v25 : BitVec 32) (v26 : Sems sig S_) (v226 : FVec F S256x1024 .f32) :
    Prog (TpuEff nD τ sig (Elt F) Λ₀ .tc) (PUnit) := do
  k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226
  let v322 : BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2
  let v368 : BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v322
  let v396 : FVec F S1024x128 .bf16 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v322 v368
  let ⟨v410, v436, c8_i32_397⟩ : Σ' (v410 : FVec F S256x1024 .f32) (v436 : FVec F S256x128 .bf16), BitVec 32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v322 v396
  let v468 : FVec F S256x128 .bf16 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v322 v410 v436 c8_i32_397
  let ⟨v498, c4_i32_446, c0_i32_447⟩ : Σ' (v498 : BitVec 32) (c4_i32_446 : BitVec 32), BitVec 32 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468
  let v508 : BitVec 32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v498 c4_i32_446 c0_i32_447
  let ⟨v558, v560⟩ : Σ' (v558 : FVec F S1024x128 .bf16), BitVec 32 ← k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508
  let v592 : FVec F S256x1024 .bf16 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v558 v560
  let v596 : FVec F S256x1024 .f32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v592
  k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596
  pure ⟨⟩

/-- Parts of the kernel's body, in order: C. -/
noncomputable def segCProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v25 : BitVec 32) :
    Prog (TpuEff nD τ sig (Elt F) Λ₀ .tc) (Σ' (v787 : BitVec 32), BitVec 32) := do
  k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v25
  k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14
  let ⟨v735, c0_i32_663, c4_i32_664⟩ : Σ' (v735 : BitVec 32) (c0_i32_663 : BitVec 32), BitVec 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14
  k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664
  let ⟨v787, v790⟩ : Σ' (v787 : BitVec 32), BitVec 32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14
  pure ⟨v787, v790⟩

/-- Parts of the kernel's body, in order: D. -/
noncomputable def segDProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v25 : BitVec 32) (v787 : BitVec 32) (v790 : BitVec 32) :
    Prog (TpuEff nD τ sig (Elt F) Λ₀ .tc) (Σ' (v1014 : BitVec 32) (v1015 : BitVec 32), BitVec 1) := do
  k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v790
  let ⟨v849, c2_i32_779⟩ : Σ' (v849 : FVec F S1024x128 .bf16), BitVec 32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787
  let ⟨v875, v883⟩ : Σ' (v875 : FVec F S256x1024 .f32), FVec F S1x256x128 .bf16 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v849 c2_i32_779
  let v917 : FVec F S256x128 .bf16 ← k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v883
  k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917
  let v970 : BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 v2 v25
  k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970
  let ⟨v1014, v1015, v1020⟩ : Σ' (v1014 : BitVec 32) (v1015 : BitVec 32), BitVec 1 ← k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 v2 v14
  pure ⟨v1014, v1015, v1020⟩

/-- Parts of the kernel's body, in order: E. -/
noncomputable def segEProg (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v25 : BitVec 32) (v1014 : BitVec 32) (v1015 : BitVec 32) (v1020 : BitVec 1) :
    Prog (TpuEff nD τ sig (Elt F) Λ₀ .tc) (BitVec 32) := do
  let v1044 : BitVec 32 ← k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020
  k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1044
  let v1092 : BitVec 32 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 v2 v25
  k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092
  let ⟨v1137, v1138, v1139, v1140, v1141⟩ : Σ' (v1137 : BitVec 32) (v1138 : BitVec 32) (v1139 : BitVec 1) (v1140 : BitVec 1), BitVec 1 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 v2 v14
  let v1157 : BitVec 32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141
  pure v1157

/-- The body is its six segments in sequence (the last one, `tailProg`, from the call of `k0_part46` to the return). -/
theorem body_split (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) :
    cc0_body_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 = (do
      let ⟨d0, v2, v14, v25, v26, v226⟩ ← segAProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29
      segBProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v25 v26 v226
      let ⟨v787, v790⟩ ← segCProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v25
      let ⟨v1014, v1015, v1020⟩ ← segDProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v25 v787 v790
      let v1157 ← segEProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v25 v1014 v1015 v1020
      tailProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1157) := by
  unfold cc0_body_skel
  rw [k0_part57_eq_skeleton]
  unfold k0_part57_skel segAProg segBProg segCProg segDProg segEProg tailProg
  simp only [Prog.bind_assoc, bind_assoc, pure_bind]

end Cert.Kernel.Proto

end
-- ==== Proof.KB.Split.lean ====
/-
  Splitting the ring's scratch buffers into the slices the protocol moves, and joining them again.
-/
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.KB.Ring

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A points-to over two disjoint element sets is the two points-tos, as an equation. -/
theorem pts_union {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-- Carving a subset out of a points-to, as an equation. -/
theorem pts_split {ℓ : Loc nD τ sig} {I S : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  BI.equiv_iff.mp ⟨(pointsTo_split_subset h).1, (pointsTo_split_subset h).2⟩

/-- Two disjoint element sets, each held at contents of its own, are held together at some contents. -/
theorem pts_join_ex {ℓ : Loc nD τ sig} {I J : Finset (Idx ℓ)} {q : PosShare TreeShare} (h : Disjoint I J) :
    iprop((∃ f : Buf (Elt F) ℓ, ℓ ↦[I]{q} f) ∗ (∃ g : Buf (Elt F) ℓ, ℓ ↦[J]{q} g)) ⊢ (iprop(∃ f : Buf (Elt F) ℓ, ℓ ↦[I ∪ J]{q} f) : sProp 𝕄) := by
  iintro ⟨⟨%f, Hf⟩, ⟨%g, Hg⟩⟩
  iexists (J.piecewise g f)
  iapply (pointsTo_join h)
  isplitl [Hf]
  · iexact Hf
  · iexact Hg

/-! ## The numerator stages: three stages of eight heads, cut into six blocks of four heads -/

/-- Membership in one of the six blocks: stage `a`, heads `b` to `b + 3`. -/
theorem mem_rO (a b : ℕ) (inb : ∀ x, (![a, b, 0, 0] : Fin 4 → ℕ) x + S1x4x128x256.size x ≤ S3x8x128x256.size x) (i : S3x8x128x256.Idx) :
    i ∈ (Rect.unit (s := S3x8x128x256) ![a, b, 0, 0] S1x4x128x256.size inb).set ↔ (i 0 : ℕ) = a ∧ b ≤ (i 1 : ℕ) ∧ (i 1 : ℕ) < b + 4 := by
  rw [Rect.mem_set_unit]
  have h2 : (i 2 : ℕ) < 128 := (i 2).isLt
  have h3 : (i 3 : ℕ) < 256 := (i 3).isLt
  constructor
  · intro h
    have e0 := h 0
    have e1 := h 1
    change (a ≤ (i 0 : ℕ) ∧ (i 0 : ℕ) < a + 1) at e0
    change (b ≤ (i 1 : ℕ) ∧ (i 1 : ℕ) < b + 4) at e1
    omega
  · rintro ⟨e0, e1, e1'⟩ x
    fin_cases x
    · change (a ≤ (i 0 : ℕ) ∧ (i 0 : ℕ) < a + 1); omega
    · change (b ≤ (i 1 : ℕ) ∧ (i 1 : ℕ) < b + 4); omega
    · change (0 ≤ (i 2 : ℕ) ∧ (i 2 : ℕ) < 0 + 128); omega
    · change (0 ≤ (i 3 : ℕ) ∧ (i 3 : ℕ) < 0 + 256); omega

abbrev rO00 : Rect S3x8x128x256 := Rect.unit (s := S3x8x128x256) ![0, 0, 0, 0] S1x4x128x256.size inb_S3x8x128x256_S1x4x128x256_0_0_0_0
abbrev rO04 : Rect S3x8x128x256 := Rect.unit (s := S3x8x128x256) ![0, 4, 0, 0] S1x4x128x256.size inb_S3x8x128x256_S1x4x128x256_0_4_0_0
abbrev rO10 : Rect S3x8x128x256 := Rect.unit (s := S3x8x128x256) ![1, 0, 0, 0] S1x4x128x256.size inb_S3x8x128x256_S1x4x128x256_1_0_0_0
abbrev rO14 : Rect S3x8x128x256 := Rect.unit (s := S3x8x128x256) ![1, 4, 0, 0] S1x4x128x256.size inb_S3x8x128x256_S1x4x128x256_1_4_0_0
abbrev rO20 : Rect S3x8x128x256 := Rect.unit (s := S3x8x128x256) ![2, 0, 0, 0] S1x4x128x256.size inb_S3x8x128x256_S1x4x128x256_2_0_0_0
abbrev rO24 : Rect S3x8x128x256 := Rect.unit (s := S3x8x128x256) ![2, 4, 0, 0] S1x4x128x256.size inb_S3x8x128x256_S1x4x128x256_2_4_0_0

theorem dstO_set_0f : (dstO 0 false).view.set = rO00.set := by
  unfold dstO; simp only [Memref.view_squeeze, Memref.view_slice, Memref.view_whole, View.set_reshape, View.set_slice_whole]
theorem dstO_set_0t : (dstO 0 true).view.set = rO04.set := by
  unfold dstO; simp only [Memref.view_squeeze, Memref.view_slice, Memref.view_whole, View.set_reshape, View.set_slice_whole]
theorem dstO_set_1f : (dstO 1 false).view.set = rO10.set := by
  unfold dstO; simp only [Memref.view_squeeze, Memref.view_slice, Memref.view_whole, View.set_reshape, View.set_slice_whole]
theorem dstO_set_1t : (dstO 1 true).view.set = rO14.set := by
  unfold dstO; simp only [Memref.view_squeeze, Memref.view_slice, Memref.view_whole, View.set_reshape, View.set_slice_whole]
theorem dstO_set_2f : (dstO 2 false).view.set = rO20.set := by
  unfold dstO; simp only [Memref.view_squeeze, Memref.view_slice, Memref.view_whole, View.set_reshape, View.set_slice_whole]
theorem dstO_set_2t : (dstO 2 true).view.set = rO24.set := by
  unfold dstO; simp only [Memref.view_squeeze, Memref.view_slice, Memref.view_whole, View.set_reshape, View.set_slice_whole]

/-- The six blocks cover the buffer: a stage is 0, 1 or 2 and a head is below 4 or not. -/
theorem rsO_cover : (Finset.univ : Finset S3x8x128x256.Idx) = rO00.set ∪ (rO04.set ∪ (rO10.set ∪ (rO14.set ∪ (rO20.set ∪ rO24.set)))) := by
  ext i
  have h0 : (i 0 : ℕ) < 3 := (i 0).isLt
  have h1 : (i 1 : ℕ) < 8 := (i 1).isLt
  simp only [Finset.mem_univ, true_iff, Finset.mem_union, mem_rO]
  omega

theorem rsO_disj1 : Disjoint rO00.set (rO04.set ∪ (rO10.set ∪ (rO14.set ∪ (rO20.set ∪ rO24.set)))) :=
  Finset.disjoint_left.mpr fun i hi hj => by simp only [Finset.mem_union, mem_rO] at hi hj; omega
theorem rsO_disj2 : Disjoint rO04.set (rO10.set ∪ (rO14.set ∪ (rO20.set ∪ rO24.set))) :=
  Finset.disjoint_left.mpr fun i hi hj => by simp only [Finset.mem_union, mem_rO] at hi hj; omega
theorem rsO_disj3 : Disjoint rO10.set (rO14.set ∪ (rO20.set ∪ rO24.set)) :=
  Finset.disjoint_left.mpr fun i hi hj => by simp only [Finset.mem_union, mem_rO] at hi hj; omega
theorem rsO_disj4 : Disjoint rO14.set (rO20.set ∪ rO24.set) :=
  Finset.disjoint_left.mpr fun i hi hj => by simp only [Finset.mem_union, mem_rO] at hi hj; omega
theorem rsO_disj5 : Disjoint rO20.set rO24.set :=
  Finset.disjoint_left.mpr fun i hi hj => by simp only [mem_rO] at hi hj; omega

/-- The numerator stages of device `c`, whole, are its six landing slices, each at the same contents. -/
theorem rsO_split_eq (c : Dev nD) (f : Buf (Elt F) ((c : Thread nD τ).loc cc0_scratch2)) :
    ((c : Thread nD τ).loc cc0_scratch2 ↦{fullShare} f : sProp 𝕄) =
      iprop(((dstO 0 false).view.loc (c : Thread nD τ) ↦[(dstO 0 false).view.set]{fullShare} f)
        ∗ ((dstO 0 true).view.loc (c : Thread nD τ) ↦[(dstO 0 true).view.set]{fullShare} f)
        ∗ ((dstO 1 false).view.loc (c : Thread nD τ) ↦[(dstO 1 false).view.set]{fullShare} f)
        ∗ ((dstO 1 true).view.loc (c : Thread nD τ) ↦[(dstO 1 true).view.set]{fullShare} f)
        ∗ ((dstO 2 false).view.loc (c : Thread nD τ) ↦[(dstO 2 false).view.set]{fullShare} f)
        ∗ ((dstO 2 true).view.loc (c : Thread nD τ) ↦[(dstO 2 true).view.set]{fullShare} f)) := by
  show ((c : Thread nD τ).loc cc0_scratch2 ↦[Finset.univ]{fullShare} f : sProp 𝕄) =
      iprop(((c : Thread nD τ).loc cc0_scratch2 ↦[(dstO 0 false).view.set]{fullShare} f)
        ∗ ((c : Thread nD τ).loc cc0_scratch2 ↦[(dstO 0 true).view.set]{fullShare} f)
        ∗ ((c : Thread nD τ).loc cc0_scratch2 ↦[(dstO 1 false).view.set]{fullShare} f)
        ∗ ((c : Thread nD τ).loc cc0_scratch2 ↦[(dstO 1 true).view.set]{fullShare} f)
        ∗ ((c : Thread nD τ).loc cc0_scratch2 ↦[(dstO 2 false).view.set]{fullShare} f)
        ∗ ((c : Thread nD τ).loc cc0_scratch2 ↦[(dstO 2 true).view.set]{fullShare} f))
  rw [dstO_set_0f, dstO_set_0t, dstO_set_1f, dstO_set_1t, dstO_set_2f, dstO_set_2t]
  have hc : (Finset.univ : Finset (Idx ((c : Thread nD τ).loc cc0_scratch2))) = rO00.set ∪ (rO04.set ∪ (rO10.set ∪ (rO14.set ∪ (rO20.set ∪ rO24.set)))) := rsO_cover
  rw [hc, pts_union rsO_disj1, pts_union rsO_disj2, pts_union rsO_disj3, pts_union rsO_disj4, pts_union rsO_disj5]

theorem rsO_split (c : Dev nD) (f : Buf (Elt F) ((c : Thread nD τ).loc cc0_scratch2)) :
    ((c : Thread nD τ).loc cc0_scratch2 ↦{fullShare} f : sProp 𝕄) ⊣⊢
      iprop(((dstO 0 false).view.loc (c : Thread nD τ) ↦[(dstO 0 false).view.set]{fullShare} f)
        ∗ ((dstO 0 true).view.loc (c : Thread nD τ) ↦[(dstO 0 true).view.set]{fullShare} f)
        ∗ ((dstO 1 false).view.loc (c : Thread nD τ) ↦[(dstO 1 false).view.set]{fullShare} f)
        ∗ ((dstO 1 true).view.loc (c : Thread nD τ) ↦[(dstO 1 true).view.set]{fullShare} f)
        ∗ ((dstO 2 false).view.loc (c : Thread nD τ) ↦[(dstO 2 false).view.set]{fullShare} f)
        ∗ ((dstO 2 true).view.loc (c : Thread nD τ) ↦[(dstO 2 true).view.set]{fullShare} f)) :=
  BiEntails.of_eq (rsO_split_eq c f)
/-! ## The denominator stages, cut the same way -/

/-- Membership in one of the six blocks: stage `a`, heads `b` to `b + 3`. -/
theorem mem_rL (a b : ℕ) (inb : ∀ x, (![a, b, 0, 0] : Fin 4 → ℕ) x + S1x4x1x256.size x ≤ S3x8x1x256.size x) (i : S3x8x1x256.Idx) :
    i ∈ (Rect.unit (s := S3x8x1x256) ![a, b, 0, 0] S1x4x1x256.size inb).set ↔ (i 0 : ℕ) = a ∧ b ≤ (i 1 : ℕ) ∧ (i 1 : ℕ) < b + 4 := by
  rw [Rect.mem_set_unit]
  have h2 : (i 2 : ℕ) < 1 := (i 2).isLt
  have h3 : (i 3 : ℕ) < 256 := (i 3).isLt
  constructor
  · intro h
    have e0 := h 0
    have e1 := h 1
    change (a ≤ (i 0 : ℕ) ∧ (i 0 : ℕ) < a + 1) at e0
    change (b ≤ (i 1 : ℕ) ∧ (i 1 : ℕ) < b + 4) at e1
    omega
  · rintro ⟨e0, e1, e1'⟩ x
    fin_cases x
    · change (a ≤ (i 0 : ℕ) ∧ (i 0 : ℕ) < a + 1); omega
    · change (b ≤ (i 1 : ℕ) ∧ (i 1 : ℕ) < b + 4); omega
    · change (0 ≤ (i 2 : ℕ) ∧ (i 2 : ℕ) < 0 + 1); omega
    · change (0 ≤ (i 3 : ℕ) ∧ (i 3 : ℕ) < 0 + 256); omega

abbrev rL00 : Rect S3x8x1x256 := Rect.unit (s := S3x8x1x256) ![0, 0, 0, 0] S1x4x1x256.size inb_S3x8x1x256_S1x4x1x256_0_0_0_0
abbrev rL04 : Rect S3x8x1x256 := Rect.unit (s := S3x8x1x256) ![0, 4, 0, 0] S1x4x1x256.size inb_S3x8x1x256_S1x4x1x256_0_4_0_0
abbrev rL10 : Rect S3x8x1x256 := Rect.unit (s := S3x8x1x256) ![1, 0, 0, 0] S1x4x1x256.size inb_S3x8x1x256_S1x4x1x256_1_0_0_0
abbrev rL14 : Rect S3x8x1x256 := Rect.unit (s := S3x8x1x256) ![1, 4, 0, 0] S1x4x1x256.size inb_S3x8x1x256_S1x4x1x256_1_4_0_0
abbrev rL20 : Rect S3x8x1x256 := Rect.unit (s := S3x8x1x256) ![2, 0, 0, 0] S1x4x1x256.size inb_S3x8x1x256_S1x4x1x256_2_0_0_0
abbrev rL24 : Rect S3x8x1x256 := Rect.unit (s := S3x8x1x256) ![2, 4, 0, 0] S1x4x1x256.size inb_S3x8x1x256_S1x4x1x256_2_4_0_0

theorem dstL_set_0f : (dstL 0 false).view.set = rL00.set := by
  unfold dstL; simp only [Memref.view_squeeze, Memref.view_slice, Memref.view_whole, View.set_reshape, View.set_slice_whole]
theorem dstL_set_0t : (dstL 0 true).view.set = rL04.set := by
  unfold dstL; simp only [Memref.view_squeeze, Memref.view_slice, Memref.view_whole, View.set_reshape, View.set_slice_whole]
theorem dstL_set_1f : (dstL 1 false).view.set = rL10.set := by
  unfold dstL; simp only [Memref.view_squeeze, Memref.view_slice, Memref.view_whole, View.set_reshape, View.set_slice_whole]
theorem dstL_set_1t : (dstL 1 true).view.set = rL14.set := by
  unfold dstL; simp only [Memref.view_squeeze, Memref.view_slice, Memref.view_whole, View.set_reshape, View.set_slice_whole]
theorem dstL_set_2f : (dstL 2 false).view.set = rL20.set := by
  unfold dstL; simp only [Memref.view_squeeze, Memref.view_slice, Memref.view_whole, View.set_reshape, View.set_slice_whole]
theorem dstL_set_2t : (dstL 2 true).view.set = rL24.set := by
  unfold dstL; simp only [Memref.view_squeeze, Memref.view_slice, Memref.view_whole, View.set_reshape, View.set_slice_whole]

/-- The six blocks cover the buffer: a stage is 0, 1 or 2 and a head is below 4 or not. -/
theorem rsL_cover : (Finset.univ : Finset S3x8x1x256.Idx) = rL00.set ∪ (rL04.set ∪ (rL10.set ∪ (rL14.set ∪ (rL20.set ∪ rL24.set)))) := by
  ext i
  have h0 : (i 0 : ℕ) < 3 := (i 0).isLt
  have h1 : (i 1 : ℕ) < 8 := (i 1).isLt
  simp only [Finset.mem_univ, true_iff, Finset.mem_union, mem_rL]
  omega

theorem rsL_disj1 : Disjoint rL00.set (rL04.set ∪ (rL10.set ∪ (rL14.set ∪ (rL20.set ∪ rL24.set)))) :=
  Finset.disjoint_left.mpr fun i hi hj => by simp only [Finset.mem_union, mem_rL] at hi hj; omega
theorem rsL_disj2 : Disjoint rL04.set (rL10.set ∪ (rL14.set ∪ (rL20.set ∪ rL24.set))) :=
  Finset.disjoint_left.mpr fun i hi hj => by simp only [Finset.mem_union, mem_rL] at hi hj; omega
theorem rsL_disj3 : Disjoint rL10.set (rL14.set ∪ (rL20.set ∪ rL24.set)) :=
  Finset.disjoint_left.mpr fun i hi hj => by simp only [Finset.mem_union, mem_rL] at hi hj; omega
theorem rsL_disj4 : Disjoint rL14.set (rL20.set ∪ rL24.set) :=
  Finset.disjoint_left.mpr fun i hi hj => by simp only [Finset.mem_union, mem_rL] at hi hj; omega
theorem rsL_disj5 : Disjoint rL20.set rL24.set :=
  Finset.disjoint_left.mpr fun i hi hj => by simp only [mem_rL] at hi hj; omega

/-- The denominator stages of device `c`, whole, are its six landing slices, each at the same contents. -/
theorem rsL_split_eq (c : Dev nD) (f : Buf (Elt F) ((c : Thread nD τ).loc cc0_scratch3)) :
    ((c : Thread nD τ).loc cc0_scratch3 ↦{fullShare} f : sProp 𝕄) =
      iprop(((dstL 0 false).view.loc (c : Thread nD τ) ↦[(dstL 0 false).view.set]{fullShare} f)
        ∗ ((dstL 0 true).view.loc (c : Thread nD τ) ↦[(dstL 0 true).view.set]{fullShare} f)
        ∗ ((dstL 1 false).view.loc (c : Thread nD τ) ↦[(dstL 1 false).view.set]{fullShare} f)
        ∗ ((dstL 1 true).view.loc (c : Thread nD τ) ↦[(dstL 1 true).view.set]{fullShare} f)
        ∗ ((dstL 2 false).view.loc (c : Thread nD τ) ↦[(dstL 2 false).view.set]{fullShare} f)
        ∗ ((dstL 2 true).view.loc (c : Thread nD τ) ↦[(dstL 2 true).view.set]{fullShare} f)) := by
  show ((c : Thread nD τ).loc cc0_scratch3 ↦[Finset.univ]{fullShare} f : sProp 𝕄) =
      iprop(((c : Thread nD τ).loc cc0_scratch3 ↦[(dstL 0 false).view.set]{fullShare} f)
        ∗ ((c : Thread nD τ).loc cc0_scratch3 ↦[(dstL 0 true).view.set]{fullShare} f)
        ∗ ((c : Thread nD τ).loc cc0_scratch3 ↦[(dstL 1 false).view.set]{fullShare} f)
        ∗ ((c : Thread nD τ).loc cc0_scratch3 ↦[(dstL 1 true).view.set]{fullShare} f)
        ∗ ((c : Thread nD τ).loc cc0_scratch3 ↦[(dstL 2 false).view.set]{fullShare} f)
        ∗ ((c : Thread nD τ).loc cc0_scratch3 ↦[(dstL 2 true).view.set]{fullShare} f))
  rw [dstL_set_0f, dstL_set_0t, dstL_set_1f, dstL_set_1t, dstL_set_2f, dstL_set_2t]
  have hc : (Finset.univ : Finset (Idx ((c : Thread nD τ).loc cc0_scratch3))) = rL00.set ∪ (rL04.set ∪ (rL10.set ∪ (rL14.set ∪ (rL20.set ∪ rL24.set)))) := rsL_cover
  rw [hc, pts_union rsL_disj1, pts_union rsL_disj2, pts_union rsL_disj3, pts_union rsL_disj4, pts_union rsL_disj5]

theorem rsL_split (c : Dev nD) (f : Buf (Elt F) ((c : Thread nD τ).loc cc0_scratch3)) :
    ((c : Thread nD τ).loc cc0_scratch3 ↦{fullShare} f : sProp 𝕄) ⊣⊢
      iprop(((dstL 0 false).view.loc (c : Thread nD τ) ↦[(dstL 0 false).view.set]{fullShare} f)
        ∗ ((dstL 0 true).view.loc (c : Thread nD τ) ↦[(dstL 0 true).view.set]{fullShare} f)
        ∗ ((dstL 1 false).view.loc (c : Thread nD τ) ↦[(dstL 1 false).view.set]{fullShare} f)
        ∗ ((dstL 1 true).view.loc (c : Thread nD τ) ↦[(dstL 1 true).view.set]{fullShare} f)
        ∗ ((dstL 2 false).view.loc (c : Thread nD τ) ↦[(dstL 2 false).view.set]{fullShare} f)
        ∗ ((dstL 2 true).view.loc (c : Thread nD τ) ↦[(dstL 2 true).view.set]{fullShare} f)) :=
  BiEntails.of_eq (rsL_split_eq c f)

/-! ## The gathered result: four blocks of 256 rows, cut into eight half blocks of 128 rows -/

/-- Membership in a half block: block `a`, rows `b` to `b + 127`; the offsets may be given by any chain equal to `![a, b, 0]`. -/
theorem mem_rG {off : Fin 3 → ℕ} {inb : ∀ x, off x + S1x128x1024.size x ≤ S4x256x1024.size x} (a b : ℕ) (hoff : off = ![a, b, 0]) (i : S4x256x1024.Idx) :
    i ∈ (Rect.unit (s := S4x256x1024) off S1x128x1024.size inb).set ↔ (i 0 : ℕ) = a ∧ b ≤ (i 1 : ℕ) ∧ (i 1 : ℕ) < b + 128 := by
  subst hoff
  rw [Rect.mem_set_unit]
  have h2 : (i 2 : ℕ) < 1024 := (i 2).isLt
  constructor
  · intro h
    have e0 := h 0
    have e1 := h 1
    change (a ≤ (i 0 : ℕ) ∧ (i 0 : ℕ) < a + 1) at e0
    change (b ≤ (i 1 : ℕ) ∧ (i 1 : ℕ) < b + 128) at e1
    omega
  · rintro ⟨e0, e1, e1'⟩ x
    fin_cases x
    · change (a ≤ (i 0 : ℕ) ∧ (i 0 : ℕ) < a + 1); omega
    · change (b ≤ (i 1 : ℕ) ∧ (i 1 : ℕ) < b + 128); omega
    · change (0 ≤ (i 2 : ℕ) ∧ (i 2 : ℕ) < 0 + 1024); omega

abbrev rG0f (d : Dev nD) : Rect S4x256x1024 := Rect.unit (s := S4x256x1024) (k0_off67 d 0#32) S1x128x1024.size (k0_off67_inb d 0)
abbrev rG1f (d : Dev nD) : Rect S4x256x1024 := Rect.unit (s := S4x256x1024) (k0_off67 d 1#32) S1x128x1024.size (k0_off67_inb d 1)
abbrev rG2f (d : Dev nD) : Rect S4x256x1024 := Rect.unit (s := S4x256x1024) (k0_off67 d 2#32) S1x128x1024.size (k0_off67_inb d 2)
abbrev rG0t (d : Dev nD) : Rect S4x256x1024 := Rect.unit (s := S4x256x1024) (k0_off68 d 0#32) S1x128x1024.size (k0_off68_inb d 0)
abbrev rG1t (d : Dev nD) : Rect S4x256x1024 := Rect.unit (s := S4x256x1024) (k0_off68 d 1#32) S1x128x1024.size (k0_off68_inb d 1)
abbrev rG2t (d : Dev nD) : Rect S4x256x1024 := Rect.unit (s := S4x256x1024) (k0_off68 d 2#32) S1x128x1024.size (k0_off68_inb d 2)

theorem agS_set_0f (d : Dev nD) : (agS d 0 false).view.set = (rG0f d).set := by
  unfold agS; simp only [Memref.view_squeeze, Memref.view_slice, Memref.view_whole, View.set_reshape, View.set_slice_whole]
theorem agS_set_1f (d : Dev nD) : (agS d 1 false).view.set = (rG1f d).set := by
  unfold agS; simp only [Memref.view_squeeze, Memref.view_slice, Memref.view_whole, View.set_reshape, View.set_slice_whole]
theorem agS_set_2f (d : Dev nD) : (agS d 2 false).view.set = (rG2f d).set := by
  unfold agS; simp only [Memref.view_squeeze, Memref.view_slice, Memref.view_whole, View.set_reshape, View.set_slice_whole]
theorem agS_set_0t (d : Dev nD) : (agS d 0 true).view.set = (rG0t d).set := by
  unfold agS; simp only [Memref.view_squeeze, Memref.view_slice, Memref.view_whole, View.set_reshape, View.set_slice_whole]
theorem agS_set_1t (d : Dev nD) : (agS d 1 true).view.set = (rG1t d).set := by
  unfold agS; simp only [Memref.view_squeeze, Memref.view_slice, Memref.view_whole, View.set_reshape, View.set_slice_whole]
theorem agS_set_2t (d : Dev nD) : (agS d 2 true).view.set = (rG2t d).set := by
  unfold agS; simp only [Memref.view_squeeze, Memref.view_slice, Memref.view_whole, View.set_reshape, View.set_slice_whole]

/-- Which rows of which block each forwarded half block is, on the sender's numbering. -/
theorem mem_rG0f (d : Dev nD) (i : S4x256x1024.Idx) : i ∈ (rG0f d).set ↔ (i 0 : ℕ) = (d.val + 1) % 4 ∧ 0 ≤ (i 1 : ℕ) ∧ (i 1 : ℕ) < 0 + 128 :=
  mem_rG _ _ (off67_at0 d) i
theorem mem_rG1f (d : Dev nD) (i : S4x256x1024.Idx) : i ∈ (rG1f d).set ↔ (i 0 : ℕ) = d.val ∧ 0 ≤ (i 1 : ℕ) ∧ (i 1 : ℕ) < 0 + 128 :=
  mem_rG _ _ (off67_at1 d) i
theorem mem_rG2f (d : Dev nD) (i : S4x256x1024.Idx) : i ∈ (rG2f d).set ↔ (i 0 : ℕ) = (d.val + 3) % 4 ∧ 0 ≤ (i 1 : ℕ) ∧ (i 1 : ℕ) < 0 + 128 :=
  mem_rG _ _ (off67_at2 d) i
theorem mem_rG0t (d : Dev nD) (i : S4x256x1024.Idx) : i ∈ (rG0t d).set ↔ (i 0 : ℕ) = (d.val + 1) % 4 ∧ 128 ≤ (i 1 : ℕ) ∧ (i 1 : ℕ) < 128 + 128 :=
  mem_rG _ _ (off68_at0 d) i
theorem mem_rG1t (d : Dev nD) (i : S4x256x1024.Idx) : i ∈ (rG1t d).set ↔ (i 0 : ℕ) = (d.val + 2) % 4 ∧ 128 ≤ (i 1 : ℕ) ∧ (i 1 : ℕ) < 128 + 128 :=
  mem_rG _ _ (off68_at1 d) i
theorem mem_rG2t (d : Dev nD) (i : S4x256x1024.Idx) : i ∈ (rG2t d).set ↔ (i 0 : ℕ) = (d.val + 3) % 4 ∧ 128 ≤ (i 1 : ℕ) ∧ (i 1 : ℕ) < 128 + 128 :=
  mem_rG _ _ (off68_at2 d) i

section AgB
variable (c : Dev nD)

/-- On device `c`: the upper halves its predecessor forwards are those of blocks `c`, `c - 1`, `c - 2`; the lower halves its
    successor forwards those of blocks `c + 2`, `c + 3`, `c`; with both halves of its own block `c + 1`, every half block once. -/
theorem agB_cover : (Finset.univ : Finset S4x256x1024.Idx) =
    (rG0f (prv c)).set ∪ ((rG1f (prv c)).set ∪ ((rG2f (prv c)).set ∪ ((rG0t (nxt c)).set ∪ ((rG1t (nxt c)).set ∪ ((rG2t (nxt c)).set
      ∪ ((rG0f c).set ∪ (rG0t c).set)))))) := by
  ext i
  have hc : c.val < 4 := c.isLt
  have h0 : (i 0 : ℕ) < 4 := (i 0).isLt
  have h1 : (i 1 : ℕ) < 256 := (i 1).isLt
  simp only [Finset.mem_univ, true_iff, Finset.mem_union, mem_rG0f, mem_rG1f, mem_rG2f, mem_rG0t, mem_rG1t, mem_rG2t, prv_val, nxt_val]
  omega

theorem agB_disj1 : Disjoint (rG0f (prv c)).set ((rG1f (prv c)).set ∪ ((rG2f (prv c)).set ∪ ((rG0t (nxt c)).set ∪ ((rG1t (nxt c)).set ∪ ((rG2t (nxt c)).set
      ∪ ((rG0f c).set ∪ (rG0t c).set)))))) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj2 : Disjoint (rG1f (prv c)).set ((rG2f (prv c)).set ∪ ((rG0t (nxt c)).set ∪ ((rG1t (nxt c)).set ∪ ((rG2t (nxt c)).set
      ∪ ((rG0f c).set ∪ (rG0t c).set))))) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj3 : Disjoint (rG2f (prv c)).set ((rG0t (nxt c)).set ∪ ((rG1t (nxt c)).set ∪ ((rG2t (nxt c)).set ∪ ((rG0f c).set ∪ (rG0t c).set)))) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj4 : Disjoint (rG0t (nxt c)).set ((rG1t (nxt c)).set ∪ ((rG2t (nxt c)).set ∪ ((rG0f c).set ∪ (rG0t c).set))) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj5 : Disjoint (rG1t (nxt c)).set ((rG2t (nxt c)).set ∪ ((rG0f c).set ∪ (rG0t c).set)) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj6 : Disjoint (rG2t (nxt c)).set ((rG0f c).set ∪ (rG0t c).set) :=
  Finset.disjoint_left.mpr fun i hi hj => by
    have hc : c.val < 4 := c.isLt
    simp only [Finset.mem_union, mem_rG0f, mem_rG1f, mem_rG2f, mem_rG0t, mem_rG1t, mem_rG2t, prv_val, nxt_val] at hi hj; omega
theorem agB_disj7 : Disjoint (rG0f c).set (rG0t c).set :=
  Finset.disjoint_left.mpr fun i hi hj => by
    simp only [mem_rG0f, mem_rG0t] at hi hj; omega

end AgB

/-- The gathered result of device `c`, whole, is the eight half blocks, each at the same contents. -/
theorem agB_split_eq (c : Dev nD) (f : Buf (Elt F) ((c : Thread nD τ).loc cc0_scratch23)) :
    ((c : Thread nD τ).loc cc0_scratch23 ↦{fullShare} f : sProp 𝕄) =
      iprop(((agS (prv c) 0 false).view.loc (c : Thread nD τ) ↦[(agS (prv c) 0 false).view.set]{fullShare} f)
        ∗ ((agS (prv c) 1 false).view.loc (c : Thread nD τ) ↦[(agS (prv c) 1 false).view.set]{fullShare} f)
        ∗ ((agS (prv c) 2 false).view.loc (c : Thread nD τ) ↦[(agS (prv c) 2 false).view.set]{fullShare} f)
        ∗ ((agS (nxt c) 0 true).view.loc (c : Thread nD τ) ↦[(agS (nxt c) 0 true).view.set]{fullShare} f)
        ∗ ((agS (nxt c) 1 true).view.loc (c : Thread nD τ) ↦[(agS (nxt c) 1 true).view.set]{fullShare} f)
        ∗ ((agS (nxt c) 2 true).view.loc (c : Thread nD τ) ↦[(agS (nxt c) 2 true).view.set]{fullShare} f)
        ∗ ((agS c 0 false).view.loc (c : Thread nD τ) ↦[(agS c 0 false).view.set]{fullShare} f)
        ∗ ((agS c 0 true).view.loc (c : Thread nD τ) ↦[(agS c 0 true).view.set]{fullShare} f)) := by
  show ((c : Thread nD τ).loc cc0_scratch23 ↦[Finset.univ]{fullShare} f : sProp 𝕄) =
      iprop(((c : Thread nD τ).loc cc0_scratch23 ↦[(agS (prv c) 0 false).view.set]{fullShare} f)
        ∗ ((c : Thread nD τ).loc cc0_scratch23 ↦[(agS (prv c) 1 false).view.set]{fullShare} f)
        ∗ ((c : Thread nD τ).loc cc0_scratch23 ↦[(agS (prv c) 2 false).view.set]{fullShare} f)
        ∗ ((c : Thread nD τ).loc cc0_scratch23 ↦[(agS (nxt c) 0 true).view.set]{fullShare} f)
        ∗ ((c : Thread nD τ).loc cc0_scratch23 ↦[(agS (nxt c) 1 true).view.set]{fullShare} f)
        ∗ ((c : Thread nD τ).loc cc0_scratch23 ↦[(agS (nxt c) 2 true).view.set]{fullShare} f)
        ∗ ((c : Thread nD τ).loc cc0_scratch23 ↦[(agS c 0 false).view.set]{fullShare} f)
        ∗ ((c : Thread nD τ).loc cc0_scratch23 ↦[(agS c 0 true).view.set]{fullShare} f))
  have hc : (Finset.univ : Finset (Idx ((c : Thread nD τ).loc cc0_scratch23))) = _ := agB_cover c
  rw [agS_set_0f (prv c), agS_set_1f (prv c), agS_set_2f (prv c), agS_set_0t (nxt c), agS_set_1t (nxt c), agS_set_2t (nxt c), agS_set_0f c, agS_set_0t c, hc, pts_union (agB_disj1 c), pts_union (agB_disj2 c), pts_union (agB_disj3 c), pts_union (agB_disj4 c), pts_union (agB_disj5 c),
    pts_union (agB_disj6 c), pts_union (agB_disj7 c)]

theorem agB_split (c : Dev nD) (f : Buf (Elt F) ((c : Thread nD τ).loc cc0_scratch23)) :
    ((c : Thread nD τ).loc cc0_scratch23 ↦{fullShare} f : sProp 𝕄) ⊣⊢
      iprop(((agS (prv c) 0 false).view.loc (c : Thread nD τ) ↦[(agS (prv c) 0 false).view.set]{fullShare} f)
        ∗ ((agS (prv c) 1 false).view.loc (c : Thread nD τ) ↦[(agS (prv c) 1 false).view.set]{fullShare} f)
        ∗ ((agS (prv c) 2 false).view.loc (c : Thread nD τ) ↦[(agS (prv c) 2 false).view.set]{fullShare} f)
        ∗ ((agS (nxt c) 0 true).view.loc (c : Thread nD τ) ↦[(agS (nxt c) 0 true).view.set]{fullShare} f)
        ∗ ((agS (nxt c) 1 true).view.loc (c : Thread nD τ) ↦[(agS (nxt c) 1 true).view.set]{fullShare} f)
        ∗ ((agS (nxt c) 2 true).view.loc (c : Thread nD τ) ↦[(agS (nxt c) 2 true).view.set]{fullShare} f)
        ∗ ((agS c 0 false).view.loc (c : Thread nD τ) ↦[(agS c 0 false).view.set]{fullShare} f)
        ∗ ((agS c 0 true).view.loc (c : Thread nD τ) ↦[(agS c 0 true).view.set]{fullShare} f)) :=
  BiEntails.of_eq (agB_split_eq c f)

/-! ## Joining the slices again, each at contents of its own -/

theorem rsO_join (c : Dev nD) :
    iprop(held c (dstO 0 false) ∗ held c (dstO 0 true) ∗ held c (dstO 1 false) ∗ held c (dstO 1 true) ∗ held c (dstO 2 false) ∗ held c (dstO 2 true))
      ⊢ (iprop(∃ f : Buf (Elt F) ((c : Thread nD τ).loc cc0_scratch2), (c : Thread nD τ).loc cc0_scratch2 ↦{fullShare} f) : sProp 𝕄) := by
  show iprop((∃ f : Buf (Elt F) ((c : Thread nD τ).loc cc0_scratch2), (c : Thread nD τ).loc cc0_scratch2 ↦[(dstO 0 false).view.set]{fullShare} f)
        ∗ (∃ f : Buf (Elt F) ((c : Thread nD τ).loc cc0_scratch2), (c : Thread nD τ).loc cc0_scratch2 ↦[(dstO 0 true).view.set]{fullShare} f)
        ∗ (∃ f : Buf (Elt F) ((c : Thread nD τ).loc cc0_scratch2), (c : Thread nD τ).loc cc0_scratch2 ↦[(dstO 1 false).view.set]{fullShare} f)
        ∗ (∃ f : Buf (Elt F) ((c : Thread nD τ).loc cc0_scratch2), (c : Thread nD τ).loc cc0_scratch2 ↦[(dstO 1 true).view.set]{fullShare} f)
        ∗ (∃ f : Buf (Elt F) ((c : Thread nD τ).loc cc0_scratch2), (c : Thread nD τ).loc cc0_scratch2 ↦[(dstO 2 false).view.set]{fullShare} f)
        ∗ (∃ f : Buf (Elt F) ((c : Thread nD τ).loc cc0_scratch2), (c : Thread nD τ).loc cc0_scratch2 ↦[(dstO 2 true).view.set]{fullShare} f))
      ⊢ (iprop(∃ f : Buf (Elt F) ((c : Thread nD τ).loc cc0_scratch2), (c : Thread nD τ).loc cc0_scratch2 ↦[Finset.univ]{fullShare} f) : sProp 𝕄)
  have hc : (Finset.univ : Finset (Idx ((c : Thread nD τ).loc cc0_scratch2))) = rO00.set ∪ (rO04.set ∪ (rO10.set ∪ (rO14.set ∪ (rO20.set ∪ rO24.set)))) := rsO_cover
  rw [dstO_set_0f, dstO_set_0t, dstO_set_1f, dstO_set_1t, dstO_set_2f, dstO_set_2t, hc]
  exact (sep_mono_right (sep_mono_right (sep_mono_right (sep_mono_right (pts_join_ex rsO_disj5))))).trans
    ((sep_mono_right (sep_mono_right (sep_mono_right (pts_join_ex rsO_disj4)))).trans
    ((sep_mono_right (sep_mono_right (pts_join_ex rsO_disj3))).trans
    ((sep_mono_right (pts_join_ex rsO_disj2)).trans (pts_join_ex rsO_disj1))))

theorem rsL_join (c : Dev nD) :
    iprop(held c (dstL 0 false) ∗ held c (dstL 0 true) ∗ held c (dstL 1 false) ∗ held c (dstL 1 true) ∗ held c (dstL 2 false) ∗ held c (dstL 2 true))
      ⊢ (iprop(∃ f : Buf (Elt F) ((c : Thread nD τ).loc cc0_scratch3), (c : Thread nD τ).loc cc0_scratch3 ↦{fullShare} f) : sProp 𝕄) := by
  show iprop((∃ f : Buf (Elt F) ((c : Thread nD τ).loc cc0_scratch3), (c : Thread nD τ).loc cc0_scratch3 ↦[(dstL 0 false).view.set]{fullShare} f)
        ∗ (∃ f : Buf (Elt F) ((c : Thread nD τ).loc cc0_scratch3), (c : Thread nD τ).loc cc0_scratch3 ↦[(dstL 0 true).view.set]{fullShare} f)
        ∗ (∃ f : Buf (Elt F) ((c : Thread nD τ).loc cc0_scratch3), (c : Thread nD τ).loc cc0_scratch3 ↦[(dstL 1 false).view.set]{fullShare} f)
        ∗ (∃ f : Buf (Elt F) ((c : Thread nD τ).loc cc0_scratch3), (c : Thread nD τ).loc cc0_scratch3 ↦[(dstL 1 true).view.set]{fullShare} f)
        ∗ (∃ f : Buf (Elt F) ((c : Thread nD τ).loc cc0_scratch3), (c : Thread nD τ).loc cc0_scratch3 ↦[(dstL 2 false).view.set]{fullShare} f)
        ∗ (∃ f : Buf (Elt F) ((c : Thread nD τ).loc cc0_scratch3), (c : Thread nD τ).loc cc0_scratch3 ↦[(dstL 2 true).view.set]{fullShare} f))
      ⊢ (iprop(∃ f : Buf (Elt F) ((c : Thread nD τ).loc cc0_scratch3), (c : Thread nD τ).loc cc0_scratch3 ↦[Finset.univ]{fullShare} f) : sProp 𝕄)
  have hc : (Finset.univ : Finset (Idx ((c : Thread nD τ).loc cc0_scratch3))) = rL00.set ∪ (rL04.set ∪ (rL10.set ∪ (rL14.set ∪ (rL20.set ∪ rL24.set)))) := rsL_cover
  rw [dstL_set_0f, dstL_set_0t, dstL_set_1f, dstL_set_1t, dstL_set_2f, dstL_set_2t, hc]
  exact (sep_mono_right (sep_mono_right (sep_mono_right (sep_mono_right (pts_join_ex rsL_disj5))))).trans
    ((sep_mono_right (sep_mono_right (sep_mono_right (pts_join_ex rsL_disj4)))).trans
    ((sep_mono_right (sep_mono_right (pts_join_ex rsL_disj3))).trans
    ((sep_mono_right (pts_join_ex rsL_disj2)).trans (pts_join_ex rsL_disj1))))

theorem agB_join (c : Dev nD) :
    iprop(held c (agS (prv c) 0 false) ∗ held c (agS (prv c) 1 false) ∗ held c (agS (prv c) 2 false)
        ∗ held c (agS (nxt c) 0 true) ∗ held c (agS (nxt c) 1 true) ∗ held c (agS (nxt c) 2 true) ∗ held c (agS c 0 false) ∗ held c (agS c 0 true))
      ⊢ (iprop(∃ f : Buf (Elt F) ((c : Thread nD τ).loc cc0_scratch23), (c : Thread nD τ).loc cc0_scratch23 ↦{fullShare} f) : sProp 𝕄) := by
  show iprop((∃ f : Buf (Elt F) ((c : Thread nD τ).loc cc0_scratch23), (c : Thread nD τ).loc cc0_scratch23 ↦[(agS (prv c) 0 false).view.set]{fullShare} f)
        ∗ (∃ f : Buf (Elt F) ((c : Thread nD τ).loc cc0_scratch23), (c : Thread nD τ).loc cc0_scratch23 ↦[(agS (prv c) 1 false).view.set]{fullShare} f)
        ∗ (∃ f : Buf (Elt F) ((c : Thread nD τ).loc cc0_scratch23), (c : Thread nD τ).loc cc0_scratch23 ↦[(agS (prv c) 2 false).view.set]{fullShare} f)
        ∗ (∃ f : Buf (Elt F) ((c : Thread nD τ).loc cc0_scratch23), (c : Thread nD τ).loc cc0_scratch23 ↦[(agS (nxt c) 0 true).view.set]{fullShare} f)
        ∗ (∃ f : Buf (Elt F) ((c : Thread nD τ).loc cc0_scratch23), (c : Thread nD τ).loc cc0_scratch23 ↦[(agS (nxt c) 1 true).view.set]{fullShare} f)
        ∗ (∃ f : Buf (Elt F) ((c : Thread nD τ).loc cc0_scratch23), (c : Thread nD τ).loc cc0_scratch23 ↦[(agS (nxt c) 2 true).view.set]{fullShare} f)
        ∗ (∃ f : Buf (Elt F) ((c : Thread nD τ).loc cc0_scratch23), (c : Thread nD τ).loc cc0_scratch23 ↦[(agS c 0 false).view.set]{fullShare} f)
        ∗ (∃ f : Buf (Elt F) ((c : Thread nD τ).loc cc0_scratch23), (c : Thread nD τ).loc cc0_scratch23 ↦[(agS c 0 true).view.set]{fullShare} f))
      ⊢ (iprop(∃ f : Buf (Elt F) ((c : Thread nD τ).loc cc0_scratch23), (c : Thread nD τ).loc cc0_scratch23 ↦[Finset.univ]{fullShare} f) : sProp 𝕄)
  have hc : (Finset.univ : Finset (Idx ((c : Thread nD τ).loc cc0_scratch23))) = _ := agB_cover c
  rw [agS_set_0f (prv c), agS_set_1f (prv c), agS_set_2f (prv c), agS_set_0t (nxt c), agS_set_1t (nxt c), agS_set_2t (nxt c), agS_set_0f c, agS_set_0t c, hc]
  have s7 := pts_join_ex (F := F) (ℓ := (c : Thread nD τ).loc cc0_scratch23) (q := fullShare) (agB_disj7 c)
  have s6 := (sep_mono_right s7).trans (pts_join_ex (F := F) (ℓ := (c : Thread nD τ).loc cc0_scratch23) (q := fullShare) (agB_disj6 c))
  have s5 := (sep_mono_right s6).trans (pts_join_ex (F := F) (ℓ := (c : Thread nD τ).loc cc0_scratch23) (q := fullShare) (agB_disj5 c))
  have s4 := (sep_mono_right s5).trans (pts_join_ex (F := F) (ℓ := (c : Thread nD τ).loc cc0_scratch23) (q := fullShare) (agB_disj4 c))
  have s3 := (sep_mono_right s4).trans (pts_join_ex (F := F) (ℓ := (c : Thread nD τ).loc cc0_scratch23) (q := fullShare) (agB_disj3 c))
  have s2 := (sep_mono_right s3).trans (pts_join_ex (F := F) (ℓ := (c : Thread nD τ).loc cc0_scratch23) (q := fullShare) (agB_disj2 c))
  exact (sep_mono_right s2).trans (pts_join_ex (F := F) (ℓ := (c : Thread nD τ).loc cc0_scratch23) (q := fullShare) (agB_disj1 c))

/-! ## The partial sums: the two blocks of four heads a device sends at hop 0, and the rest -/

/-- Membership in a block of four of the 32 batch·head rows, from row `a`; the offsets may be given by any chain equal to `![a, 0, 0]`. -/
theorem mem_rSO {off : Fin 3 → ℕ} {inb : ∀ x, off x + S4x128x256.size x ≤ S32x128x256.size x} (a : ℕ) (hoff : off = ![a, 0, 0]) (i : S32x128x256.Idx) :
    i ∈ (Rect.unit (s := S32x128x256) off S4x128x256.size inb).set ↔ a ≤ (i 0 : ℕ) ∧ (i 0 : ℕ) < a + 4 := by
  subst hoff
  rw [Rect.mem_set_unit]
  have h1 : (i 1 : ℕ) < 128 := (i 1).isLt
  have h2 : (i 2 : ℕ) < 256 := (i 2).isLt
  constructor
  · intro h
    exact h 0
  · intro e x
    fin_cases x
    · exact e
    · change (0 ≤ (i 1 : ℕ) ∧ (i 1 : ℕ) < 0 + 128); omega
    · change (0 ≤ (i 2 : ℕ) ∧ (i 2 : ℕ) < 0 + 256); omega
theorem mem_rSL {off : Fin 3 → ℕ} {inb : ∀ x, off x + S4x1x256.size x ≤ S32x1x256.size x} (a : ℕ) (hoff : off = ![a, 0, 0]) (i : S32x1x256.Idx) :
    i ∈ (Rect.unit (s := S32x1x256) off S4x1x256.size inb).set ↔ a ≤ (i 0 : ℕ) ∧ (i 0 : ℕ) < a + 4 := by
  subst hoff
  rw [Rect.mem_set_unit]
  have h1 : (i 1 : ℕ) < 1 := (i 1).isLt
  have h2 : (i 2 : ℕ) < 256 := (i 2).isLt
  constructor
  · intro h
    exact h 0
  · intro e x
    fin_cases x
    · exact e
    · change (0 ≤ (i 1 : ℕ) ∧ (i 1 : ℕ) < 0 + 1); omega
    · change (0 ≤ (i 2 : ℕ) ∧ (i 2 : ℕ) < 0 + 256); omega

abbrev rSOf (c : Dev nD) : Rect S32x128x256 := Rect.unit (s := S32x128x256) (k0_off15 c) S4x128x256.size (k0_off15_inb c)
abbrev rSOt (c : Dev nD) : Rect S32x128x256 := Rect.unit (s := S32x128x256) (k0_off31 c) S4x128x256.size (k0_off31_inb c)
abbrev rSLf (c : Dev nD) : Rect S32x1x256 := Rect.unit (s := S32x1x256) (k0_off16 c) S4x1x256.size (k0_off16_inb c)
abbrev rSLt (c : Dev nD) : Rect S32x1x256 := Rect.unit (s := S32x1x256) (k0_off32 c) S4x1x256.size (k0_off32_inb c)

theorem srcO_set_f (c : Dev nD) : (srcO c 0 false).view.set = (rSOf c).set := by
  unfold srcO; simp only [Memref.view_slice, Memref.view_whole, View.set_slice_whole]
theorem srcO_set_t (c : Dev nD) : (srcO c 0 true).view.set = (rSOt c).set := by
  unfold srcO; simp only [Memref.view_slice, Memref.view_whole, View.set_slice_whole]
theorem srcL_set_f (c : Dev nD) : (srcL c 0 false).view.set = (rSLf c).set := by
  unfold srcL; simp only [Memref.view_slice, Memref.view_whole, View.set_slice_whole]
theorem srcL_set_t (c : Dev nD) : (srcL c 0 true).view.set = (rSLt c).set := by
  unfold srcL; simp only [Memref.view_slice, Memref.view_whole, View.set_slice_whole]

/-- To the successor go heads 0 to 3 of the device's own batch, rows `8c` to `8c + 3`; to the predecessor heads 4 to 7 of the batch
    two further on, rows `8 ((c + 2) mod 4) + 4` to `+ 7`. -/
theorem mem_rSOf (c : Dev nD) (i : S32x128x256.Idx) : i ∈ (rSOf c).set ↔ 8 * c.val ≤ (i 0 : ℕ) ∧ (i 0 : ℕ) < 8 * c.val + 4 := mem_rSO _ (k0_off15_eq c) i
theorem mem_rSOt (c : Dev nD) (i : S32x128x256.Idx) : i ∈ (rSOt c).set ↔ 8 * ((c.val + 2) % 4) + 4 ≤ (i 0 : ℕ) ∧ (i 0 : ℕ) < 8 * ((c.val + 2) % 4) + 4 + 4 := mem_rSO _ (off31_eq c) i
theorem mem_rSLf (c : Dev nD) (i : S32x1x256.Idx) : i ∈ (rSLf c).set ↔ 8 * c.val ≤ (i 0 : ℕ) ∧ (i 0 : ℕ) < 8 * c.val + 4 := mem_rSL _ (k0_off16_eq c) i
theorem mem_rSLt (c : Dev nD) (i : S32x1x256.Idx) : i ∈ (rSLt c).set ↔ 8 * ((c.val + 2) % 4) + 4 ≤ (i 0 : ℕ) ∧ (i 0 : ℕ) < 8 * ((c.val + 2) % 4) + 4 + 4 := mem_rSL _ (off32_eq c) i

theorem rSO_disj (c : Dev nD) : Disjoint (rSOf c).set (rSOt c).set :=
  Finset.disjoint_left.mpr fun i hi hj => by
    have hc : c.val < 4 := c.isLt
    simp only [mem_rSOf, mem_rSOt] at hi hj; omega
theorem rSL_disj (c : Dev nD) : Disjoint (rSLf c).set (rSLt c).set :=
  Finset.disjoint_left.mpr fun i hi hj => by
    have hc : c.val < 4 := c.isLt
    simp only [mem_rSLf, mem_rSLt] at hi hj; omega

/-- The numerators' partial sums of device `c`, whole, are the two blocks it sends at hop 0 and the rest. -/
theorem locO_lend_eq (c : Dev nD) (f : Buf (Elt F) ((c : Thread nD τ).loc cc0_scratch0)) :
    ((c : Thread nD τ).loc cc0_scratch0 ↦{fullShare} f : sProp 𝕄) =
      iprop(((srcO c 0 false).view.loc (c : Thread nD τ) ↦[(srcO c 0 false).view.set]{fullShare} f)
        ∗ ((srcO c 0 true).view.loc (c : Thread nD τ) ↦[(srcO c 0 true).view.set]{fullShare} f)
        ∗ ((c : Thread nD τ).loc cc0_scratch0 ↦[Finset.univ \ ((srcO c 0 false).view.set ∪ (srcO c 0 true).view.set)]{fullShare} f)) := by
  show ((c : Thread nD τ).loc cc0_scratch0 ↦[Finset.univ]{fullShare} f : sProp 𝕄) =
      iprop(((c : Thread nD τ).loc cc0_scratch0 ↦[(srcO c 0 false).view.set]{fullShare} f)
        ∗ ((c : Thread nD τ).loc cc0_scratch0 ↦[(srcO c 0 true).view.set]{fullShare} f)
        ∗ ((c : Thread nD τ).loc cc0_scratch0 ↦[Finset.univ \ ((srcO c 0 false).view.set ∪ (srcO c 0 true).view.set)]{fullShare} f))
  rw [srcO_set_f, srcO_set_t]
  have h2 : (rSOt c).set ⊆ Finset.univ \ (rSOf c).set := fun i hi =>
    Finset.mem_sdiff.mpr ⟨Finset.mem_univ i, fun hf => Finset.disjoint_left.mp (rSO_disj c) hf hi⟩
  have h3 : (Finset.univ \ (rSOf c).set) \ (rSOt c).set = Finset.univ \ ((rSOf c).set ∪ (rSOt c).set) := by
    ext i; simp only [Finset.mem_sdiff, Finset.mem_union, Finset.mem_univ, true_and, not_or]
  rw [pts_split (ℓ := (c : Thread nD τ).loc cc0_scratch0) (Finset.subset_univ (rSOf c).set),
    pts_split (ℓ := (c : Thread nD τ).loc cc0_scratch0) (I := (rSOt c).set) (S := Finset.univ \ (rSOf c).set) h2, h3]

theorem locO_lend (c : Dev nD) (f : Buf (Elt F) ((c : Thread nD τ).loc cc0_scratch0)) :
    ((c : Thread nD τ).loc cc0_scratch0 ↦{fullShare} f : sProp 𝕄) ⊣⊢
      iprop(((srcO c 0 false).view.loc (c : Thread nD τ) ↦[(srcO c 0 false).view.set]{fullShare} f)
        ∗ ((srcO c 0 true).view.loc (c : Thread nD τ) ↦[(srcO c 0 true).view.set]{fullShare} f)
        ∗ ((c : Thread nD τ).loc cc0_scratch0 ↦[Finset.univ \ ((srcO c 0 false).view.set ∪ (srcO c 0 true).view.set)]{fullShare} f)) :=
  BiEntails.of_eq (locO_lend_eq c f)

/-- And the denominators' partial sums. -/
theorem locL_lend_eq (c : Dev nD) (f : Buf (Elt F) ((c : Thread nD τ).loc cc0_scratch1)) :
    ((c : Thread nD τ).loc cc0_scratch1 ↦{fullShare} f : sProp 𝕄) =
      iprop(((srcL c 0 false).view.loc (c : Thread nD τ) ↦[(srcL c 0 false).view.set]{fullShare} f)
        ∗ ((srcL c 0 true).view.loc (c : Thread nD τ) ↦[(srcL c 0 true).view.set]{fullShare} f)
        ∗ ((c : Thread nD τ).loc cc0_scratch1 ↦[Finset.univ \ ((srcL c 0 false).view.set ∪ (srcL c 0 true).view.set)]{fullShare} f)) := by
  show ((c : Thread nD τ).loc cc0_scratch1 ↦[Finset.univ]{fullShare} f : sProp 𝕄) =
      iprop(((c : Thread nD τ).loc cc0_scratch1 ↦[(srcL c 0 false).view.set]{fullShare} f)
        ∗ ((c : Thread nD τ).loc cc0_scratch1 ↦[(srcL c 0 true).view.set]{fullShare} f)
        ∗ ((c : Thread nD τ).loc cc0_scratch1 ↦[Finset.univ \ ((srcL c 0 false).view.set ∪ (srcL c 0 true).view.set)]{fullShare} f))
  rw [srcL_set_f, srcL_set_t]
  have h2 : (rSLt c).set ⊆ Finset.univ \ (rSLf c).set := fun i hi =>
    Finset.mem_sdiff.mpr ⟨Finset.mem_univ i, fun hf => Finset.disjoint_left.mp (rSL_disj c) hf hi⟩
  have h3 : (Finset.univ \ (rSLf c).set) \ (rSLt c).set = Finset.univ \ ((rSLf c).set ∪ (rSLt c).set) := by
    ext i; simp only [Finset.mem_sdiff, Finset.mem_union, Finset.mem_univ, true_and, not_or]
  rw [pts_split (ℓ := (c : Thread nD τ).loc cc0_scratch1) (Finset.subset_univ (rSLf c).set),
    pts_split (ℓ := (c : Thread nD τ).loc cc0_scratch1) (I := (rSLt c).set) (S := Finset.univ \ (rSLf c).set) h2, h3]

theorem locL_lend (c : Dev nD) (f : Buf (Elt F) ((c : Thread nD τ).loc cc0_scratch1)) :
    ((c : Thread nD τ).loc cc0_scratch1 ↦{fullShare} f : sProp 𝕄) ⊣⊢
      iprop(((srcL c 0 false).view.loc (c : Thread nD τ) ↦[(srcL c 0 false).view.set]{fullShare} f)
        ∗ ((srcL c 0 true).view.loc (c : Thread nD τ) ↦[(srcL c 0 true).view.set]{fullShare} f)
        ∗ ((c : Thread nD τ).loc cc0_scratch1 ↦[Finset.univ \ ((srcL c 0 false).view.set ∪ (srcL c 0 true).view.set)]{fullShare} f)) :=
  BiEntails.of_eq (locL_lend_eq c f)

end Cert.Kernel.Proto

end
-- ==== Proof.KB.LocSplit.lean ====
/-
  The partial sums cut by batch: a device's 32 batch·head rows are four batch blocks of eight rows, numbered from the
  device's own batch, and each block is two half blocks of four heads. The flash loops write a block a row at a time, hop 0
  lends two half blocks, each merge loop reads one half block.
-/
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.KB.Ring
import proofs.«900754_g7700000000000755_dist_attn_cross_gqa_kvseq_b4_sq256_skv1024_d1024_hq8_dh128_v7x_i4_f32_1_alg».proof.Proof.KB.Split

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Rows -/

/-- The first row of block `j` of device `c`: batch `(c + j) mod 4`. -/
def blkRow (c : Dev nD) (j : Fin 4) : ℕ := 8 * ((c.val + j.val) % 4)
/-- The first row of its half `hb`: heads 0 to 3, or 4 to 7. -/
def halfRow (c : Dev nD) (j : Fin 4) (hb : Bool) : ℕ := blkRow c j + (if hb then 4 else 0)

theorem blkRow_le (c : Dev nD) (j : Fin 4) : blkRow c j + 8 ≤ 32 := by
  unfold blkRow; have := Nat.mod_lt (c.val + j.val) (by decide : 0 < 4); omega
@[simp] theorem halfRow_false (c : Dev nD) (j : Fin 4) : halfRow c j false = blkRow c j := by simp [halfRow]
@[simp] theorem halfRow_true (c : Dev nD) (j : Fin 4) : halfRow c j true = blkRow c j + 4 := by simp [halfRow]
theorem halfRow_le (c : Dev nD) (j : Fin 4) (hb : Bool) : halfRow c j hb + 4 ≤ 32 := by
  have := blkRow_le c j; cases hb <;> simp only [halfRow_false, halfRow_true] <;> omega

/-! ## The numerators' partial sums -/

/-- Eight rows of the numerators. -/
abbrev SBlkO : Shape := ⟨3, ![8, 128, 256]⟩

theorem blkO_inb (r : ℕ) (hr : r + 8 ≤ 32) : ∀ a, (![r, 0, 0] : Fin 3 → ℕ) a + SBlkO.size a ≤ S32x128x256.size a := by
  intro a
  fin_cases a
  · change r + 8 ≤ 32; exact hr
  · change 0 + 128 ≤ 128; omega
  · change 0 + 256 ≤ 256; omega
theorem halfO_inb (r : ℕ) (hr : r + 4 ≤ 32) : ∀ a, (![r, 0, 0] : Fin 3 → ℕ) a + S4x128x256.size a ≤ S32x128x256.size a := by
  intro a
  fin_cases a
  · change r + 4 ≤ 32; exact hr
  · change 0 + 128 ≤ 128; omega
  · change 0 + 256 ≤ 256; omega

/-- Block `j` of device `c`: the eight heads of batch `(c + j) mod 4`. -/
def locBlkO (c : Dev nD) (j : Fin 4) : Memref sig .tc .vmem SBlkO .bf16 :=
  locO.slice (Rect.unit (s := S32x128x256) ![blkRow c j, 0, 0] SBlkO.size (blkO_inb _ (blkRow_le c j))) (fun _ => rfl)
/-- Its half `hb`. -/
def locHalfO (c : Dev nD) (j : Fin 4) (hb : Bool) : Memref sig .tc .vmem S4x128x256 .bf16 :=
  locO.slice (Rect.unit (s := S32x128x256) ![halfRow c j hb, 0, 0] S4x128x256.size (halfO_inb _ (halfRow_le c j hb))) (fun _ => rfl)

/-- Slices of one memref at equal offsets are one memref. -/
theorem slice_unit_congr {sp : Space} {s : Shape} {e : EltTy} (m : Memref sig .tc sp s e) {off off' size : Fin s.rank → ℕ}
    (inb : ∀ a, off a + size a ≤ s.size a) (inb' : ∀ a, off' a + size a ≤ s.size a) (h : off = off') :
    m.slice (Rect.unit off size inb) (fun _ => rfl) = m.slice (Rect.unit off' size inb') (fun _ => rfl) := by
  subst h; rfl

/-- The lower half of the own block is what hop 0 sends to the successor; the upper half of the block two further on what it
    sends to the predecessor. -/
theorem locHalfO_0f (c : Dev nD) : locHalfO c 0 false = srcO c 0 false := by
  unfold locHalfO srcO
  refine slice_unit_congr locO _ _ ?_
  rw [k0_off15_eq c]
  have hc : c.val < 4 := c.isLt
  simp only [halfRow_false, blkRow, Fin.val_zero, Nat.add_zero, Nat.mod_eq_of_lt hc]
theorem locHalfO_2t (c : Dev nD) : locHalfO c 2 true = srcO c 0 true := by
  unfold locHalfO srcO
  refine slice_unit_congr locO _ _ ?_
  rw [off31_eq c]
  simp only [halfRow_true, blkRow]
  rfl

theorem locBlkO_set (c : Dev nD) (j : Fin 4) : (locBlkO c j).view.set = (Rect.unit (s := S32x128x256) ![blkRow c j, 0, 0] SBlkO.size (blkO_inb _ (blkRow_le c j))).set := by
  unfold locBlkO; simp only [Memref.view_slice, Memref.view_whole, View.set_slice_whole]
theorem locHalfO_set (c : Dev nD) (j : Fin 4) (hb : Bool) : (locHalfO c j hb).view.set = (Rect.unit (s := S32x128x256) ![halfRow c j hb, 0, 0] S4x128x256.size (halfO_inb _ (halfRow_le c j hb))).set := by
  unfold locHalfO; simp only [Memref.view_slice, Memref.view_whole, View.set_slice_whole]

/-- A block is its eight rows, a half its four. -/
theorem mem_blkO (r : ℕ) (inb : ∀ a, (![r, 0, 0] : Fin 3 → ℕ) a + SBlkO.size a ≤ S32x128x256.size a) (i : S32x128x256.Idx) :
    i ∈ (Rect.unit (s := S32x128x256) ![r, 0, 0] SBlkO.size inb).set ↔ r ≤ (i 0 : ℕ) ∧ (i 0 : ℕ) < r + 8 := by
  rw [Rect.mem_set_unit]
  have h1 : (i 1 : ℕ) < 128 := (i 1).isLt
  have h2 : (i 2 : ℕ) < 256 := (i 2).isLt
  constructor
  · intro h
    exact h 0
  · intro e x
    fin_cases x
    · exact e
    · change (0 ≤ (i 1 : ℕ) ∧ (i 1 : ℕ) < 0 + 128); omega
    · change (0 ≤ (i 2 : ℕ) ∧ (i 2 : ℕ) < 0 + 256); omega
theorem mem_halfO (r : ℕ) (inb : ∀ a, (![r, 0, 0] : Fin 3 → ℕ) a + S4x128x256.size a ≤ S32x128x256.size a) (i : S32x128x256.Idx) :
    i ∈ (Rect.unit (s := S32x128x256) ![r, 0, 0] S4x128x256.size inb).set ↔ r ≤ (i 0 : ℕ) ∧ (i 0 : ℕ) < r + 4 :=
  mem_rSO r rfl i

abbrev rBO (c : Dev nD) (j : Fin 4) : Rect S32x128x256 := Rect.unit (s := S32x128x256) ![blkRow c j, 0, 0] SBlkO.size (blkO_inb _ (blkRow_le c j))
abbrev rHO (c : Dev nD) (j : Fin 4) (hb : Bool) : Rect S32x128x256 := Rect.unit (s := S32x128x256) ![halfRow c j hb, 0, 0] S4x128x256.size (halfO_inb _ (halfRow_le c j hb))

theorem mem_rBO (c : Dev nD) (j : Fin 4) (i : S32x128x256.Idx) : i ∈ (rBO c j).set ↔ blkRow c j ≤ (i 0 : ℕ) ∧ (i 0 : ℕ) < blkRow c j + 8 := mem_blkO _ _ i
theorem mem_rHO (c : Dev nD) (j : Fin 4) (hb : Bool) (i : S32x128x256.Idx) : i ∈ (rHO c j hb).set ↔ halfRow c j hb ≤ (i 0 : ℕ) ∧ (i 0 : ℕ) < halfRow c j hb + 4 := mem_halfO _ _ i

theorem blkRow_0 (c : Dev nD) : blkRow c 0 = 8 * c.val := by
  have hc : c.val < 4 := c.isLt
  simp only [blkRow, Fin.val_zero, Nat.add_zero, Nat.mod_eq_of_lt hc]
theorem blkRow_1 (c : Dev nD) : blkRow c 1 = 8 * ((c.val + 1) % 4) := rfl
theorem blkRow_2 (c : Dev nD) : blkRow c 2 = 8 * ((c.val + 2) % 4) := rfl
theorem blkRow_3 (c : Dev nD) : blkRow c 3 = 8 * ((c.val + 3) % 4) := rfl

section LocO
variable (c : Dev nD)

/-- The four blocks cover the 32 rows: `j ↦ (c + j) mod 4` runs through the four batches. -/
theorem locO_cover : (Finset.univ : Finset S32x128x256.Idx) = (rBO c 0).set ∪ ((rBO c 1).set ∪ ((rBO c 2).set ∪ (rBO c 3).set)) := by
  ext i
  have hc : c.val < 4 := c.isLt
  have h0 : (i 0 : ℕ) < 32 := (i 0).isLt
  simp only [Finset.mem_univ, true_iff, Finset.mem_union, mem_rBO, blkRow_0, blkRow_1, blkRow_2, blkRow_3]
  omega
theorem locO_disj1 : Disjoint (rBO c 0).set ((rBO c 1).set ∪ ((rBO c 2).set ∪ (rBO c 3).set)) :=
  Finset.disjoint_left.mpr fun i hi hj => by
    have hc : c.val < 4 := c.isLt
    simp only [Finset.mem_union, mem_rBO, blkRow_0, blkRow_1, blkRow_2, blkRow_3] at hi hj; omega
theorem locO_disj2 : Disjoint (rBO c 1).set ((rBO c 2).set ∪ (rBO c 3).set) :=
  Finset.disjoint_left.mpr fun i hi hj => by
    have hc : c.val < 4 := c.isLt
    simp only [Finset.mem_union, mem_rBO, blkRow_1, blkRow_2, blkRow_3] at hi hj; omega
theorem locO_disj3 : Disjoint (rBO c 2).set (rBO c 3).set :=
  Finset.disjoint_left.mpr fun i hi hj => by
    have hc : c.val < 4 := c.isLt
    simp only [mem_rBO, blkRow_2, blkRow_3] at hi hj; omega

/-- A block is its two halves. -/
theorem blkO_halves_set (j : Fin 4) : (rBO c j).set = (rHO c j false).set ∪ (rHO c j true).set := by
  ext i
  simp only [Finset.mem_union, mem_rBO, mem_rHO, halfRow_false, halfRow_true]
  omega
theorem blkO_halves_disj (j : Fin 4) : Disjoint (rHO c j false).set (rHO c j true).set :=
  Finset.disjoint_left.mpr fun i hi hj => by
    simp only [mem_rHO, halfRow_false, halfRow_true] at hi hj; omega

/-- The numerators' partial sums, whole, are the four batch blocks, each at the same contents. -/
theorem locO_blocks_eq (f : Buf (Elt F) ((c : Thread nD τ).loc cc0_scratch0)) :
    ((c : Thread nD τ).loc cc0_scratch0 ↦{fullShare} f : sProp 𝕄) =
      iprop(((locBlkO c 0).view.loc (c : Thread nD τ) ↦[(locBlkO c 0).view.set]{fullShare} f)
        ∗ ((locBlkO c 1).view.loc (c : Thread nD τ) ↦[(locBlkO c 1).view.set]{fullShare} f)
        ∗ ((locBlkO c 2).view.loc (c : Thread nD τ) ↦[(locBlkO c 2).view.set]{fullShare} f)
        ∗ ((locBlkO c 3).view.loc (c : Thread nD τ) ↦[(locBlkO c 3).view.set]{fullShare} f)) := by
  show ((c : Thread nD τ).loc cc0_scratch0 ↦[Finset.univ]{fullShare} f : sProp 𝕄) =
      iprop(((c : Thread nD τ).loc cc0_scratch0 ↦[(locBlkO c 0).view.set]{fullShare} f)
        ∗ ((c : Thread nD τ).loc cc0_scratch0 ↦[(locBlkO c 1).view.set]{fullShare} f)
        ∗ ((c : Thread nD τ).loc cc0_scratch0 ↦[(locBlkO c 2).view.set]{fullShare} f)
        ∗ ((c : Thread nD τ).loc cc0_scratch0 ↦[(locBlkO c 3).view.set]{fullShare} f))
  have hc : (Finset.univ : Finset (Idx ((c : Thread nD τ).loc cc0_scratch0))) = _ := locO_cover c
  rw [locBlkO_set c 0, locBlkO_set c 1, locBlkO_set c 2, locBlkO_set c 3, hc, pts_union (locO_disj1 c), pts_union (locO_disj2 c), pts_union (locO_disj3 c)]
theorem locO_blocks (f : Buf (Elt F) ((c : Thread nD τ).loc cc0_scratch0)) :
    ((c : Thread nD τ).loc cc0_scratch0 ↦{fullShare} f : sProp 𝕄) ⊣⊢
      iprop(((locBlkO c 0).view.loc (c : Thread nD τ) ↦[(locBlkO c 0).view.set]{fullShare} f)
        ∗ ((locBlkO c 1).view.loc (c : Thread nD τ) ↦[(locBlkO c 1).view.set]{fullShare} f)
        ∗ ((locBlkO c 2).view.loc (c : Thread nD τ) ↦[(locBlkO c 2).view.set]{fullShare} f)
        ∗ ((locBlkO c 3).view.loc (c : Thread nD τ) ↦[(locBlkO c 3).view.set]{fullShare} f)) :=
  BiEntails.of_eq (locO_blocks_eq c f)

/-- A block at some contents is its two halves at the same contents. -/
theorem locO_halves_eq (j : Fin 4) (f : Buf (Elt F) ((c : Thread nD τ).loc cc0_scratch0)) :
    ((locBlkO c j).view.loc (c : Thread nD τ) ↦[(locBlkO c j).view.set]{fullShare} f : sProp 𝕄) =
      iprop(((locHalfO c j false).view.loc (c : Thread nD τ) ↦[(locHalfO c j false).view.set]{fullShare} f)
        ∗ ((locHalfO c j true).view.loc (c : Thread nD τ) ↦[(locHalfO c j true).view.set]{fullShare} f)) := by
  show ((c : Thread nD τ).loc cc0_scratch0 ↦[(locBlkO c j).view.set]{fullShare} f : sProp 𝕄) =
      iprop(((c : Thread nD τ).loc cc0_scratch0 ↦[(locHalfO c j false).view.set]{fullShare} f)
        ∗ ((c : Thread nD τ).loc cc0_scratch0 ↦[(locHalfO c j true).view.set]{fullShare} f))
  have e : (rBO c j).set = (rHO c j false).set ∪ (rHO c j true).set := blkO_halves_set c j
  rw [locBlkO_set c j, locHalfO_set c j false, locHalfO_set c j true, e, pts_union (blkO_halves_disj c j)]
theorem locO_halves (j : Fin 4) (f : Buf (Elt F) ((c : Thread nD τ).loc cc0_scratch0)) :
    ((locBlkO c j).view.loc (c : Thread nD τ) ↦[(locBlkO c j).view.set]{fullShare} f : sProp 𝕄) ⊣⊢
      iprop(((locHalfO c j false).view.loc (c : Thread nD τ) ↦[(locHalfO c j false).view.set]{fullShare} f)
        ∗ ((locHalfO c j true).view.loc (c : Thread nD τ) ↦[(locHalfO c j true).view.set]{fullShare} f)) :=
  BiEntails.of_eq (locO_halves_eq c j f)

/-! ### Joining again, each part at contents of its own -/

theorem halfO_pair_join (j : Fin 4) : iprop(held c (locHalfO c j false) ∗ held c (locHalfO c j true)) ⊢ held (F := F) c (locBlkO c j) := by
  show iprop((∃ f : Buf (Elt F) ((c : Thread nD τ).loc cc0_scratch0), (c : Thread nD τ).loc cc0_scratch0 ↦[(locHalfO c j false).view.set]{fullShare} f)
        ∗ (∃ g : Buf (Elt F) ((c : Thread nD τ).loc cc0_scratch0), (c : Thread nD τ).loc cc0_scratch0 ↦[(locHalfO c j true).view.set]{fullShare} g))
      ⊢ (iprop(∃ f : Buf (Elt F) ((c : Thread nD τ).loc cc0_scratch0), (c : Thread nD τ).loc cc0_scratch0 ↦[(locBlkO c j).view.set]{fullShare} f) : sProp 𝕄)
  have e : (rBO c j).set = (rHO c j false).set ∪ (rHO c j true).set := blkO_halves_set c j
  rw [locBlkO_set c j, locHalfO_set c j false, locHalfO_set c j true, e]
  exact pts_join_ex (F := F) (ℓ := (c : Thread nD τ).loc cc0_scratch0) (q := fullShare) (blkO_halves_disj c j)

theorem blocksO_join : iprop(held c (locBlkO c 0) ∗ held c (locBlkO c 1) ∗ held c (locBlkO c 2) ∗ held c (locBlkO c 3))
      ⊢ (iprop(∃ f : Buf (Elt F) ((c : Thread nD τ).loc cc0_scratch0), (c : Thread nD τ).loc cc0_scratch0 ↦{fullShare} f) : sProp 𝕄) := by
  show iprop((∃ f : Buf (Elt F) ((c : Thread nD τ).loc cc0_scratch0), (c : Thread nD τ).loc cc0_scratch0 ↦[(locBlkO c 0).view.set]{fullShare} f)
        ∗ (∃ f : Buf (Elt F) ((c : Thread nD τ).loc cc0_scratch0), (c : Thread nD τ).loc cc0_scratch0 ↦[(locBlkO c 1).view.set]{fullShare} f)
        ∗ (∃ f : Buf (Elt F) ((c : Thread nD τ).loc cc0_scratch0), (c : Thread nD τ).loc cc0_scratch0 ↦[(locBlkO c 2).view.set]{fullShare} f)
        ∗ (∃ f : Buf (Elt F) ((c : Thread nD τ).loc cc0_scratch0), (c : Thread nD τ).loc cc0_scratch0 ↦[(locBlkO c 3).view.set]{fullShare} f))
      ⊢ (iprop(∃ f : Buf (Elt F) ((c : Thread nD τ).loc cc0_scratch0), (c : Thread nD τ).loc cc0_scratch0 ↦[Finset.univ]{fullShare} f) : sProp 𝕄)
  have hc : (Finset.univ : Finset (Idx ((c : Thread nD τ).loc cc0_scratch0))) = _ := locO_cover c
  rw [locBlkO_set c 0, locBlkO_set c 1, locBlkO_set c 2, locBlkO_set c 3, hc]
  have s3 := pts_join_ex (F := F) (ℓ := (c : Thread nD τ).loc cc0_scratch0) (q := fullShare) (locO_disj3 c)
  have s2 := (sep_mono_right s3).trans (pts_join_ex (F := F) (ℓ := (c : Thread nD τ).loc cc0_scratch0) (q := fullShare) (locO_disj2 c))
  exact (sep_mono_right s2).trans (pts_join_ex (F := F) (ℓ := (c : Thread nD τ).loc cc0_scratch0) (q := fullShare) (locO_disj1 c))

theorem halvesO_join : iprop(held c (locHalfO c 0 false) ∗ held c (locHalfO c 0 true) ∗ held c (locHalfO c 1 false) ∗ held c (locHalfO c 1 true)
        ∗ held c (locHalfO c 2 false) ∗ held c (locHalfO c 2 true) ∗ held c (locHalfO c 3 false) ∗ held c (locHalfO c 3 true))
      ⊢ (iprop(∃ f : Buf (Elt F) ((c : Thread nD τ).loc cc0_scratch0), (c : Thread nD τ).loc cc0_scratch0 ↦{fullShare} f) : sProp 𝕄) := by
  iintro ⟨A0, B0, A1, B1, A2, B2, A3, B3⟩
  iapply (blocksO_join c)
  isplitl [A0 B0]
  · iapply (halfO_pair_join c 0); isplitl [A0]; · iexact A0
    iexact B0
  isplitl [A1 B1]
  · iapply (halfO_pair_join c 1); isplitl [A1]; · iexact A1
    iexact B1
  isplitl [A2 B2]
  · iapply (halfO_pair_join c 2); isplitl [A2]; · iexact A2
    iexact B2
  iapply (halfO_pair_join c 3); isplitl [A3]; · iexact A3
  iexact B3

end LocO

/-! ## The denominators' partial sums, cut the same way -/

/-- Eight rows of the denominators. -/
abbrev SBlkL : Shape := ⟨3, ![8, 1, 256]⟩

theorem blkL_inb (r : ℕ) (hr : r + 8 ≤ 32) : ∀ a, (![r, 0, 0] : Fin 3 → ℕ) a + SBlkL.size a ≤ S32x1x256.size a := by
  intro a
  fin_cases a
  · change r + 8 ≤ 32; exact hr
  · change 0 + 1 ≤ 1; omega
  · change 0 + 256 ≤ 256; omega
theorem halfL_inb (r : ℕ) (hr : r + 4 ≤ 32) : ∀ a, (![r, 0, 0] : Fin 3 → ℕ) a + S4x1x256.size a ≤ S32x1x256.size a := by
  intro a
  fin_cases a
  · change r + 4 ≤ 32; exact hr
  · change 0 + 1 ≤ 1; omega
  · change 0 + 256 ≤ 256; omega

/-- Block `j` of device `c`: the eight heads of batch `(c + j) mod 4`. -/
def locBlkL (c : Dev nD) (j : Fin 4) : Memref sig .tc .vmem SBlkL .f32 :=
  locL.slice (Rect.unit (s := S32x1x256) ![blkRow c j, 0, 0] SBlkL.size (blkL_inb _ (blkRow_le c j))) (fun _ => rfl)
/-- Its half `hb`. -/
def locHalfL (c : Dev nD) (j : Fin 4) (hb : Bool) : Memref sig .tc .vmem S4x1x256 .f32 :=
  locL.slice (Rect.unit (s := S32x1x256) ![halfRow c j hb, 0, 0] S4x1x256.size (halfL_inb _ (halfRow_le c j hb))) (fun _ => rfl)

/-- The lower half of the own block is what hop 0 sends to the successor; the upper half of the block two further on what it
    sends to the predecessor. -/
theorem locHalfL_0f (c : Dev nD) : locHalfL c 0 false = srcL c 0 false := by
  unfold locHalfL srcL
  refine slice_unit_congr locL _ _ ?_
  rw [k0_off16_eq c]
  have hc : c.val < 4 := c.isLt
  simp only [halfRow_false, blkRow, Fin.val_zero, Nat.add_zero, Nat.mod_eq_of_lt hc]
theorem locHalfL_2t (c : Dev nD) : locHalfL c 2 true = srcL c 0 true := by
  unfold locHalfL srcL
  refine slice_unit_congr locL _ _ ?_
  rw [off32_eq c]
  simp only [halfRow_true, blkRow]
  rfl

theorem locBlkL_set (c : Dev nD) (j : Fin 4) : (locBlkL c j).view.set = (Rect.unit (s := S32x1x256) ![blkRow c j, 0, 0] SBlkL.size (blkL_inb _ (blkRow_le c j))).set := by
  unfold locBlkL; simp only [Memref.view_slice, Memref.view_whole, View.set_slice_whole]
theorem locHalfL_set (c : Dev nD) (j : Fin 4) (hb : Bool) : (locHalfL c j hb).view.set = (Rect.unit (s := S32x1x256) ![halfRow c j hb, 0, 0] S4x1x256.size (halfL_inb _ (halfRow_le c j hb))).set := by
  unfold locHalfL; simp only [Memref.view_slice, Memref.view_whole, View.set_slice_whole]

/-- A block is its eight rows, a half its four. -/
theorem mem_blkL (r : ℕ) (inb : ∀ a, (![r, 0, 0] : Fin 3 → ℕ) a + SBlkL.size a ≤ S32x1x256.size a) (i : S32x1x256.Idx) :
    i ∈ (Rect.unit (s := S32x1x256) ![r, 0, 0] SBlkL.size inb).set ↔ r ≤ (i 0 : ℕ) ∧ (i 0 : ℕ) < r + 8 := by
  rw [Rect.mem_set_unit]
  have h1 : (i 1 : ℕ) < 1 := (i 1).isLt
  have h2 : (i 2 : ℕ) < 256 := (i 2).isLt
  constructor
  · intro h
    exact h 0
  · intro e x
    fin_cases x
    · exact e
    · change (0 ≤ (i 1 : ℕ) ∧ (i 1 : ℕ) < 0 + 1); omega
    · change (0 ≤ (i 2 : ℕ) ∧ (i 2 : ℕ) < 0 + 256); omega
theorem mem_halfL (r : ℕ) (inb : ∀ a, (![r, 0, 0] : Fin 3 → ℕ) a + S4x1x256.size a ≤ S32x1x256.size a) (i : S32x1x256.Idx) :
    i ∈ (Rect.unit (s := S32x1x256) ![r, 0, 0] S4x1x256.size inb).set ↔ r ≤ (i 0 : ℕ) ∧ (i 0 : ℕ) < r + 4 :=
  mem_rSL r rfl i

abbrev rBL (c : Dev nD) (j : Fin 4) : Rect S32x1x256 := Rect.unit (s := S32x1x256) ![blkRow c j, 0, 0] SBlkL.size (blkL_inb _ (blkRow_le c j))
abbrev rHL (c : Dev nD) (j : Fin 4) (hb : Bool) : Rect S32x1x256 := Rect.unit (s := S32x1x256) ![halfRow c j hb, 0, 0] S4x1x256.size (halfL_inb _ (halfRow_le c j hb))

theorem mem_rBL (c : Dev nD) (j : Fin 4) (i : S32x1x256.Idx) : i ∈ (rBL c j).set ↔ blkRow c j ≤ (i 0 : ℕ) ∧ (i 0 : ℕ) < blkRow c j + 8 := mem_blkL _ _ i
theorem mem_rHL (c : Dev nD) (j : Fin 4) (hb : Bool) (i : S32x1x256.Idx) : i ∈ (rHL c j hb).set ↔ halfRow c j hb ≤ (i 0 : ℕ) ∧ (i 0 : ℕ) < halfRow c j hb + 4 := mem_halfL _ _ i

section LocL
variable (c : Dev nD)

/-- The four blocks cover the 32 rows: `j ↦ (c + j) mod 4` runs through the four batches. -/
theorem locL_cover : (Finset.univ : Finset S32x1x256.Idx) = (rBL c 0).set ∪ ((rBL c 1).set ∪ ((rBL c 2).set ∪ (rBL c 3).set)) := by
  ext i
  have hc : c.val < 4 := c.isLt
  have h0 : (i 0 : ℕ) < 32 := (i 0).isLt
  simp only [Finset.mem_univ, true_iff, Finset.mem_union, mem_rBL, blkRow_0, blkRow_1, blkRow_2, blkRow_3]
  omega
theorem locL_disj1 : Disjoint (rBL c 0).set ((rBL c 1).set ∪ ((rBL c 2).set ∪ (rBL c 3).set)) :=
  Finset.disjoint_left.mpr fun i hi hj => by
    have hc : c.val < 4 := c.isLt
    simp only [Finset.mem_union, mem_rBL, blkRow_0, blkRow_1, blkRow_2, blkRow_3] at hi hj; omega
theorem locL_disj2 : Disjoint (rBL c 1).set ((rBL c 2).set ∪ (rBL c 3).set) :=
  Finset.disjoint_left.mpr fun i hi hj => by
    have hc : c.val < 4 := c.isLt
    simp only [Finset.mem_union, mem_rBL, blkRow_1, blkRow_2, blkRow_3] at hi hj; omega
theorem locL_disj3 : Disjoint (rBL c 2).set (rBL c 3).set :=
  Finset.disjoint_left.mpr fun i hi hj => by
    have hc : c.val < 4 := c.isLt
    simp only [mem_rBL, blkRow_2, blkRow_3] at hi hj; omega

/-- A block is its two halves. -/
theorem blkL_halves_set (j : Fin 4) : (rBL c j).set = (rHL c j false).set ∪ (rHL c j true).set := by
  ext i
  simp only [Finset.mem_union, mem_rBL, mem_rHL, halfRow_false, halfRow_true]
  omega
theorem blkL_halves_disj (j : Fin 4) : Disjoint (rHL c j false).set (rHL c j true).set :=
  Finset.disjoint_left.mpr fun i hi hj => by
    simp only [mem_rHL, halfRow_false, halfRow_true] at hi hj; omega

/-- The denominators' partial sums, whole, are the four batch blocks, each at the same contents. -/
theorem locL_blocks_eq (f : Buf (Elt F) ((c : Thread nD τ).loc cc0_scratch1)) :
    ((c : Thread nD τ).loc cc0_scratch1 ↦{fullShare} f : sProp 𝕄) =
      iprop(((locBlkL c 0).view.loc (c : Thread nD τ) ↦[(locBlkL c 0).view.set]{fullShare} f)
        ∗ ((locBlkL c 1).view.loc (c : Thread nD τ) ↦[(locBlkL c 1).view.set]{fullShare} f)
        ∗ ((locBlkL c 2).view.loc (c : Thread nD τ) ↦[(locBlkL c 2).view.set]{fullShare} f)
        ∗ ((locBlkL c 3).view.loc (c : Thread nD τ) ↦[(locBlkL c 3).view.set]{fullShare} f)) := by
  show ((c : Thread nD τ).loc cc0_scratch1 ↦[Finset.univ]{fullShare} f : sProp 𝕄) =
      iprop(((c : Thread nD τ).loc cc0_scratch1 ↦[(locBlkL c 0).view.set]{fullShare} f)
        ∗ ((c : Thread nD τ).loc cc0_scratch1 ↦[(locBlkL c 1).view.set]{fullShare} f)
        ∗ ((c : Thread nD τ).loc cc0_scratch1 ↦[(locBlkL c 2).view.set]{fullShare} f)
        ∗ ((c : Thread nD τ).loc cc0_scratch1 ↦[(locBlkL c 3).view.set]{fullShare} f))
  have hc : (Finset.univ : Finset (Idx ((c : Thread nD τ).loc cc0_scratch1))) = _ := locL_cover c
  rw [locBlkL_set c 0, locBlkL_set c 1, locBlkL_set c 2, locBlkL_set c 3, hc, pts_union (locL_disj1 c), pts_union (locL_disj2 c), pts_union (locL_disj3 c)]
theorem locL_blocks (f : Buf (Elt F) ((c : Thread nD τ).loc cc0_scratch1)) :
    ((c : Thread nD τ).loc cc0_scratch1 ↦{fullShare} f : sProp 𝕄) ⊣⊢
      iprop(((locBlkL c 0).view.loc (c : Thread nD τ) ↦[(locBlkL c 0).view.set]{fullShare} f)
        ∗ ((locBlkL c 1).view.loc (c : Thread nD τ) ↦[(locBlkL c 1).view.set]{fullShare} f)
        ∗ ((locBlkL c 2).view.loc (c : Thread nD τ) ↦[(locBlkL c 2).view.set]{fullShare} f)
        ∗ ((locBlkL c 3).view.loc (c : Thread nD τ) ↦[(locBlkL c 3).view.set]{fullShare} f)) :=
  BiEntails.of_eq (locL_blocks_eq c f)

/-- A block at some contents is its two halves at the same contents. -/
theorem locL_halves_eq (j : Fin 4) (f : Buf (Elt F) ((c : Thread nD τ).loc cc0_scratch1)) :
    ((locBlkL c j).view.loc (c : Thread nD τ) ↦[(locBlkL c j).view.set]{fullShare} f : sProp 𝕄) =
      iprop(((locHalfL c j false).view.loc (c : Thread nD τ) ↦[(locHalfL c j false).view.set]{fullShare} f)
        ∗ ((locHalfL c j true).view.loc (c : Thread nD τ) ↦[(locHalfL c j true).view.set]{fullShare} f)) := by
  show ((c : Thread nD τ).loc cc0_scratch1 ↦[(locBlkL c j).view.set]{fullShare} f : sProp 𝕄) =
      iprop(((c : Thread nD τ).loc cc0_scratch1 ↦[(locHalfL c j false).view.set]{fullShare} f)
        ∗ ((c : Thread nD τ).loc cc0_scratch1 ↦[(locHalfL c j true).view.set]{fullShare} f))
  have e : (rBL c j).set = (rHL c j false).set ∪ (rHL c j true).set := blkL_halves_set c j
  rw [locBlkL_set c j, locHalfL_set c j false, locHalfL_set c j true, e, pts_union (blkL_halves_disj c j)]
theorem locL_halves (j : Fin 4) (f : Buf (Elt F) ((c : Thread nD τ).loc cc0_scratch1)) :
    ((locBlkL c j).view.loc (c : Thread nD τ) ↦[(locBlkL c j).view.set]{fullShare} f : sProp 𝕄) ⊣⊢
      iprop(((locHalfL c j false).view.loc (c : Thread nD τ) ↦[(locHalfL c j false).view.set]{fullShare} f)
        ∗ ((locHalfL c j true).view.loc (c : Thread nD τ) ↦[(locHalfL c j true).view.set]{fullShare} f)) :=
  BiEntails.of_eq (locL_halves_eq c j f)

/-! ### Joining again, each part at contents of its own -/

theorem halfL_pair_join (j : Fin 4) : iprop(held c (locHalfL c j false) ∗ held c (locHalfL c j true)) ⊢ held (F := F) c (locBlkL c j) := by
  show iprop((∃ f : Buf (Elt F) ((c : Thread nD τ).loc cc0_scratch1), (c : Thread nD τ).loc cc0_scratch1 ↦[(locHalfL c j false).view.set]{fullShare} f)
        ∗ (∃ g : Buf (Elt F) ((c : Thread nD τ).loc cc0_scratch1), (c : Thread nD τ).loc cc0_scratch1 ↦[(locHalfL c j true).view.set]{fullShare} g))
      ⊢ (iprop(∃ f : Buf (Elt F) ((c : Thread nD τ).loc cc0_scratch1), (c : Thread nD τ).loc cc0_scratch1 ↦[(locBlkL c j).view.set]{fullShare} f) : sProp 𝕄)
  have e : (rBL c j).set = (rHL c j false).set ∪ (rHL c j true).set := blkL_halves_set c j
  rw [locBlkL_set c j, locHalfL_set c j false, locHalfL_set c j true, e]
  exact pts_join_ex (F := F) (ℓ := (c : Thread nD τ).loc cc0_scratch1) (q := fullShare) (blkL_halves_disj c j)

theorem blocksL_join : iprop(held c (locBlkL c 0) ∗ held c (locBlkL c 1) ∗ held c (locBlkL c 2) ∗ held c (locBlkL c 3))
      ⊢ (iprop(∃ f : Buf (Elt F) ((c : Thread nD τ).loc cc0_scratch1), (c : Thread nD τ).loc cc0_scratch1 ↦{fullShare} f) : sProp 𝕄) := by
  show iprop((∃ f : Buf (Elt F) ((c : Thread nD τ).loc cc0_scratch1), (c : Thread nD τ).loc cc0_scratch1 ↦[(locBlkL c 0).view.set]{fullShare} f)
        ∗ (∃ f : Buf (Elt F) ((c : Thread nD τ).loc cc0_scratch1), (c : Thread nD τ).loc cc0_scratch1 ↦[(locBlkL c 1).view.set]{fullShare} f)
        ∗ (∃ f : Buf (Elt F) ((c : Thread nD τ).loc cc0_scratch1), (c : Thread nD τ).loc cc0_scratch1 ↦[(locBlkL c 2).view.set]{fullShare} f)
        ∗ (∃ f : Buf (Elt F) ((c : Thread nD τ).loc cc0_scratch1), (c : Thread nD τ).loc cc0_scratch1 ↦[(locBlkL c 3).view.set]{fullShare} f))
      ⊢ (iprop(∃ f : Buf (Elt F) ((c : Thread nD τ).loc cc0_scratch1), (c : Thread nD τ).loc cc0_scratch1 ↦[Finset.univ]{fullShare} f) : sProp 𝕄)
  have hc : (Finset.univ : Finset (Idx ((c : Thread nD τ).loc cc0_scratch1))) = _ := locL_cover c
  rw [locBlkL_set c 0, locBlkL_set c 1, locBlkL_set c 2, locBlkL_set c 3, hc]
  have s3 := pts_join_ex (F := F) (ℓ := (c : Thread nD τ).loc cc0_scratch1) (q := fullShare) (locL_disj3 c)
  have s2 := (sep_mono_right s3).trans (pts_join_ex (F := F) (ℓ := (c : Thread nD τ).loc cc0_scratch1) (q := fullShare) (locL_disj2 c))
  exact (sep_mono_right s2).trans (pts_join_ex (F := F) (ℓ := (c : Thread nD τ).loc cc0_scratch1) (q := fullShare) (locL_disj1 c))

theorem halvesL_join : iprop(held c (locHalfL c 0 false) ∗ held c (locHalfL c 0 true) ∗ held c (locHalfL c 1 false) ∗ held c (locHalfL c 1 true)
        ∗ held c (locHalfL c 2 false) ∗ held c (locHalfL c 2 true) ∗ held c (locHalfL c 3 false) ∗ held c (locHalfL c 3 true))
      ⊢ (iprop(∃ f : Buf (Elt F) ((c : Thread nD τ).loc cc0_scratch1), (c : Thread nD τ).loc cc0_scratch1 ↦{fullShare} f) : sProp 𝕄) := by
  iintro ⟨A0, B0, A1, B1, A2, B2, A3, B3⟩
  iapply (blocksL_join c)
  isplitl [A0 B0]
  · iapply (halfL_pair_join c 0); isplitl [A0]; · iexact A0
    iexact B0
  isplitl [A1 B1]
  · iapply (halfL_pair_join c 1); isplitl [A1]; · iexact A1
    iexact B1
  isplitl [A2 B2]
  · iapply (halfL_pair_join c 2); isplitl [A2]; · iexact A2
    iexact B2
  iapply (halfL_pair_join c 3); isplitl [A3]; · iexact A3
  iexact B3

end LocL

end Cert.Kernel.Proto

end
-- ==== Proof.KB.Within.lean ====
/-
  Where the output phase reads and writes the ring's buffers, against the slices a device holds: each head's block of the
  last stage lies in the landing slice that holds it; the device's own result block is its two halves; and the eight
  half blocks of the gathered result, held at contents of their own, are the whole buffer at contents that read the same.
-/
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.KB.Split
import proofs.«900754_g7700000000000755_dist_attn_cross_gqa_kvseq_b4_sq256_skv1024_d1024_hq8_dh128_v7x_i4_f32_1_alg».proof.Proof.KB.Ring
import proofs.«900754_g7700000000000755_dist_attn_cross_gqa_kvseq_b4_sq256_skv1024_d1024_hq8_dh128_v7x_i4_f32_1_alg».proof.Proof.Gen.Kernel

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The last stage's heads, one at a time -/

/-- A whole buffer's view places an index set at itself. -/
theorem setOn_whole (b : Ref sig .tc) (M : Finset b.ty.shape.Idx) : (View.whole b : View sig .tc b.space b.ty.shape b.ty.elt).setOn M = M :=
  Finset.map_refl

/-- One head's block lies in the block of four heads that holds it. -/
theorem unit1_sub_rO (a b k : ℕ) (inb1 : ∀ x, (![a, k, 0, 0] : Fin 4 → ℕ) x + S1x1x128x256.size x ≤ S3x8x128x256.size x)
    (inb4 : ∀ x, (![a, b, 0, 0] : Fin 4 → ℕ) x + S1x4x128x256.size x ≤ S3x8x128x256.size x) (hk : b ≤ k ∧ k < b + 4) :
    (Rect.unit (s := S3x8x128x256) ![a, k, 0, 0] S1x1x128x256.size inb1).set ⊆ (Rect.unit (s := S3x8x128x256) ![a, b, 0, 0] S1x4x128x256.size inb4).set := by
  intro i hi
  rw [mem_rO]
  rw [Rect.mem_set_unit] at hi
  have e0 := hi 0
  have e1 := hi 1
  change (a ≤ (i 0 : ℕ) ∧ (i 0 : ℕ) < a + 1) at e0
  change (k ≤ (i 1 : ℕ) ∧ (i 1 : ℕ) < k + 1) at e1
  omega
theorem unit1_sub_rL (a b k : ℕ) (inb1 : ∀ x, (![a, k, 0, 0] : Fin 4 → ℕ) x + S1x1x1x256.size x ≤ S3x8x1x256.size x)
    (inb4 : ∀ x, (![a, b, 0, 0] : Fin 4 → ℕ) x + S1x4x1x256.size x ≤ S3x8x1x256.size x) (hk : b ≤ k ∧ k < b + 4) :
    (Rect.unit (s := S3x8x1x256) ![a, k, 0, 0] S1x1x1x256.size inb1).set ⊆ (Rect.unit (s := S3x8x1x256) ![a, b, 0, 0] S1x4x1x256.size inb4).set := by
  intro i hi
  rw [mem_rL]
  rw [Rect.mem_set_unit] at hi
  have e0 := hi 0
  have e1 := hi 1
  change (a ≤ (i 0 : ℕ) ∧ (i 0 : ℕ) < a + 1) at e0
  change (k ≤ (i 1 : ℕ) ∧ (i 1 : ℕ) < k + 1) at e1
  omega

/-- The same through the whole buffer's memref, as an access's set and as the placed index set, against any set equal to the block of four. -/
theorem rsO_access_sub (a b k : ℕ) (inb1 : ∀ x, (![a, k, 0, 0] : Fin 4 → ℕ) x + S1x1x128x256.size x ≤ S3x8x128x256.size x)
    (inb4 : ∀ x, (![a, b, 0, 0] : Fin 4 → ℕ) x + S1x4x128x256.size x ≤ S3x8x128x256.size x) (hk : b ≤ k ∧ k < b + 4)
    {S : Finset S3x8x128x256.Idx} (hS : S = (Rect.unit (s := S3x8x128x256) ![a, b, 0, 0] S1x4x128x256.size inb4).set) :
    ((Memref.whole cc0_scratch2 : Memref sig .tc .vmem S3x8x128x256 .bf16).access (Rect.unit (s := S3x8x128x256) ![a, k, 0, 0] S1x1x128x256.size inb1)).set ⊆ S := by
  subst hS
  show ((View.whole cc0_scratch2).slice _).set ⊆ _
  rw [View.set_slice_whole]
  exact unit1_sub_rO a b k inb1 inb4 hk
theorem rsO_setOn_sub (a b k : ℕ) (inb1 : ∀ x, (![a, k, 0, 0] : Fin 4 → ℕ) x + S1x1x128x256.size x ≤ S3x8x128x256.size x)
    (inb4 : ∀ x, (![a, b, 0, 0] : Fin 4 → ℕ) x + S1x4x128x256.size x ≤ S3x8x128x256.size x) (hk : b ≤ k ∧ k < b + 4)
    {S : Finset S3x8x128x256.Idx} (hS : S = (Rect.unit (s := S3x8x128x256) ![a, b, 0, 0] S1x4x128x256.size inb4).set) :
    (Memref.whole cc0_scratch2 : Memref sig .tc .vmem S3x8x128x256 .bf16).view.setOn (Rect.unit (s := S3x8x128x256) ![a, k, 0, 0] S1x1x128x256.size inb1).set ⊆ S := by
  subst hS
  show (View.whole cc0_scratch2).setOn _ ⊆ _
  rw [setOn_whole]
  exact unit1_sub_rO a b k inb1 inb4 hk
theorem rsL_access_sub (a b k : ℕ) (inb1 : ∀ x, (![a, k, 0, 0] : Fin 4 → ℕ) x + S1x1x1x256.size x ≤ S3x8x1x256.size x)
    (inb4 : ∀ x, (![a, b, 0, 0] : Fin 4 → ℕ) x + S1x4x1x256.size x ≤ S3x8x1x256.size x) (hk : b ≤ k ∧ k < b + 4)
    {S : Finset S3x8x1x256.Idx} (hS : S = (Rect.unit (s := S3x8x1x256) ![a, b, 0, 0] S1x4x1x256.size inb4).set) :
    ((Memref.whole cc0_scratch3 : Memref sig .tc .vmem S3x8x1x256 .f32).access (Rect.unit (s := S3x8x1x256) ![a, k, 0, 0] S1x1x1x256.size inb1)).set ⊆ S := by
  subst hS
  show ((View.whole cc0_scratch3).slice _).set ⊆ _
  rw [View.set_slice_whole]
  exact unit1_sub_rL a b k inb1 inb4 hk
theorem rsL_setOn_sub (a b k : ℕ) (inb1 : ∀ x, (![a, k, 0, 0] : Fin 4 → ℕ) x + S1x1x1x256.size x ≤ S3x8x1x256.size x)
    (inb4 : ∀ x, (![a, b, 0, 0] : Fin 4 → ℕ) x + S1x4x1x256.size x ≤ S3x8x1x256.size x) (hk : b ≤ k ∧ k < b + 4)
    {S : Finset S3x8x1x256.Idx} (hS : S = (Rect.unit (s := S3x8x1x256) ![a, b, 0, 0] S1x4x1x256.size inb4).set) :
    (Memref.whole cc0_scratch3 : Memref sig .tc .vmem S3x8x1x256 .f32).view.setOn (Rect.unit (s := S3x8x1x256) ![a, k, 0, 0] S1x1x1x256.size inb1).set ⊆ S := by
  subst hS
  show (View.whole cc0_scratch3).setOn _ ⊆ _
  rw [setOn_whole]
  exact unit1_sub_rL a b k inb1 inb4 hk

/-! ### The numerators of stage 2: heads 0 to 3 in the slice that came from the left, heads 4 to 7 in the one from the right -/

theorem rsO2_within_0 : ((Memref.whole cc0_scratch2 : Memref sig .tc .vmem S3x8x128x256 .bf16).access (Rect.unit (s := S3x8x128x256) ![2, 0, 0, 0] S1x1x128x256.size inb_S3x8x128x256_S1x1x128x256_2_0_0_0)).set ⊆ (dstO 2 false).view.set :=
  rsO_access_sub 2 0 0 _ _ (by omega) dstO_set_2f
theorem rsO2_within_1 : ((Memref.whole cc0_scratch2 : Memref sig .tc .vmem S3x8x128x256 .bf16).access (Rect.unit (s := S3x8x128x256) ![2, 1, 0, 0] S1x1x128x256.size inb_S3x8x128x256_S1x1x128x256_2_1_0_0)).set ⊆ (dstO 2 false).view.set :=
  rsO_access_sub 2 0 1 _ _ (by omega) dstO_set_2f
theorem rsO2_within_2 : ((Memref.whole cc0_scratch2 : Memref sig .tc .vmem S3x8x128x256 .bf16).access (Rect.unit (s := S3x8x128x256) ![2, 2, 0, 0] S1x1x128x256.size inb_S3x8x128x256_S1x1x128x256_2_2_0_0)).set ⊆ (dstO 2 false).view.set :=
  rsO_access_sub 2 0 2 _ _ (by omega) dstO_set_2f
theorem rsO2_within_3 : ((Memref.whole cc0_scratch2 : Memref sig .tc .vmem S3x8x128x256 .bf16).access (Rect.unit (s := S3x8x128x256) ![2, 3, 0, 0] S1x1x128x256.size inb_S3x8x128x256_S1x1x128x256_2_3_0_0)).set ⊆ (dstO 2 false).view.set :=
  rsO_access_sub 2 0 3 _ _ (by omega) dstO_set_2f
theorem rsO2_within_4 : ((Memref.whole cc0_scratch2 : Memref sig .tc .vmem S3x8x128x256 .bf16).access (Rect.unit (s := S3x8x128x256) ![2, 4, 0, 0] S1x1x128x256.size inb_S3x8x128x256_S1x1x128x256_2_4_0_0)).set ⊆ (dstO 2 true).view.set :=
  rsO_access_sub 2 4 4 _ _ (by omega) dstO_set_2t
theorem rsO2_within_5 : ((Memref.whole cc0_scratch2 : Memref sig .tc .vmem S3x8x128x256 .bf16).access (Rect.unit (s := S3x8x128x256) ![2, 5, 0, 0] S1x1x128x256.size inb_S3x8x128x256_S1x1x128x256_2_5_0_0)).set ⊆ (dstO 2 true).view.set :=
  rsO_access_sub 2 4 5 _ _ (by omega) dstO_set_2t
theorem rsO2_within_6 : ((Memref.whole cc0_scratch2 : Memref sig .tc .vmem S3x8x128x256 .bf16).access (Rect.unit (s := S3x8x128x256) ![2, 6, 0, 0] S1x1x128x256.size inb_S3x8x128x256_S1x1x128x256_2_6_0_0)).set ⊆ (dstO 2 true).view.set :=
  rsO_access_sub 2 4 6 _ _ (by omega) dstO_set_2t
theorem rsO2_within_7 : ((Memref.whole cc0_scratch2 : Memref sig .tc .vmem S3x8x128x256 .bf16).access (Rect.unit (s := S3x8x128x256) ![2, 7, 0, 0] S1x1x128x256.size inb_S3x8x128x256_S1x1x128x256_2_7_0_0)).set ⊆ (dstO 2 true).view.set :=
  rsO_access_sub 2 4 7 _ _ (by omega) dstO_set_2t

theorem rsO2_withinOn_0 : (Memref.whole cc0_scratch2 : Memref sig .tc .vmem S3x8x128x256 .bf16).view.setOn (Rect.unit (s := S3x8x128x256) ![2, 0, 0, 0] S1x1x128x256.size inb_S3x8x128x256_S1x1x128x256_2_0_0_0).set ⊆ (dstO 2 false).view.set :=
  rsO_setOn_sub 2 0 0 _ _ (by omega) dstO_set_2f
theorem rsO2_withinOn_1 : (Memref.whole cc0_scratch2 : Memref sig .tc .vmem S3x8x128x256 .bf16).view.setOn (Rect.unit (s := S3x8x128x256) ![2, 1, 0, 0] S1x1x128x256.size inb_S3x8x128x256_S1x1x128x256_2_1_0_0).set ⊆ (dstO 2 false).view.set :=
  rsO_setOn_sub 2 0 1 _ _ (by omega) dstO_set_2f
theorem rsO2_withinOn_2 : (Memref.whole cc0_scratch2 : Memref sig .tc .vmem S3x8x128x256 .bf16).view.setOn (Rect.unit (s := S3x8x128x256) ![2, 2, 0, 0] S1x1x128x256.size inb_S3x8x128x256_S1x1x128x256_2_2_0_0).set ⊆ (dstO 2 false).view.set :=
  rsO_setOn_sub 2 0 2 _ _ (by omega) dstO_set_2f
theorem rsO2_withinOn_3 : (Memref.whole cc0_scratch2 : Memref sig .tc .vmem S3x8x128x256 .bf16).view.setOn (Rect.unit (s := S3x8x128x256) ![2, 3, 0, 0] S1x1x128x256.size inb_S3x8x128x256_S1x1x128x256_2_3_0_0).set ⊆ (dstO 2 false).view.set :=
  rsO_setOn_sub 2 0 3 _ _ (by omega) dstO_set_2f
theorem rsO2_withinOn_4 : (Memref.whole cc0_scratch2 : Memref sig .tc .vmem S3x8x128x256 .bf16).view.setOn (Rect.unit (s := S3x8x128x256) ![2, 4, 0, 0] S1x1x128x256.size inb_S3x8x128x256_S1x1x128x256_2_4_0_0).set ⊆ (dstO 2 true).view.set :=
  rsO_setOn_sub 2 4 4 _ _ (by omega) dstO_set_2t
theorem rsO2_withinOn_5 : (Memref.whole cc0_scratch2 : Memref sig .tc .vmem S3x8x128x256 .bf16).view.setOn (Rect.unit (s := S3x8x128x256) ![2, 5, 0, 0] S1x1x128x256.size inb_S3x8x128x256_S1x1x128x256_2_5_0_0).set ⊆ (dstO 2 true).view.set :=
  rsO_setOn_sub 2 4 5 _ _ (by omega) dstO_set_2t
theorem rsO2_withinOn_6 : (Memref.whole cc0_scratch2 : Memref sig .tc .vmem S3x8x128x256 .bf16).view.setOn (Rect.unit (s := S3x8x128x256) ![2, 6, 0, 0] S1x1x128x256.size inb_S3x8x128x256_S1x1x128x256_2_6_0_0).set ⊆ (dstO 2 true).view.set :=
  rsO_setOn_sub 2 4 6 _ _ (by omega) dstO_set_2t
theorem rsO2_withinOn_7 : (Memref.whole cc0_scratch2 : Memref sig .tc .vmem S3x8x128x256 .bf16).view.setOn (Rect.unit (s := S3x8x128x256) ![2, 7, 0, 0] S1x1x128x256.size inb_S3x8x128x256_S1x1x128x256_2_7_0_0).set ⊆ (dstO 2 true).view.set :=
  rsO_setOn_sub 2 4 7 _ _ (by omega) dstO_set_2t

/-! ### The denominators of stage 2 -/

theorem rsL2_within_0 : ((Memref.whole cc0_scratch3 : Memref sig .tc .vmem S3x8x1x256 .f32).access (Rect.unit (s := S3x8x1x256) ![2, 0, 0, 0] S1x1x1x256.size inb_S3x8x1x256_S1x1x1x256_2_0_0_0)).set ⊆ (dstL 2 false).view.set :=
  rsL_access_sub 2 0 0 _ _ (by omega) dstL_set_2f
theorem rsL2_within_1 : ((Memref.whole cc0_scratch3 : Memref sig .tc .vmem S3x8x1x256 .f32).access (Rect.unit (s := S3x8x1x256) ![2, 1, 0, 0] S1x1x1x256.size inb_S3x8x1x256_S1x1x1x256_2_1_0_0)).set ⊆ (dstL 2 false).view.set :=
  rsL_access_sub 2 0 1 _ _ (by omega) dstL_set_2f
theorem rsL2_within_2 : ((Memref.whole cc0_scratch3 : Memref sig .tc .vmem S3x8x1x256 .f32).access (Rect.unit (s := S3x8x1x256) ![2, 2, 0, 0] S1x1x1x256.size inb_S3x8x1x256_S1x1x1x256_2_2_0_0)).set ⊆ (dstL 2 false).view.set :=
  rsL_access_sub 2 0 2 _ _ (by omega) dstL_set_2f
theorem rsL2_within_3 : ((Memref.whole cc0_scratch3 : Memref sig .tc .vmem S3x8x1x256 .f32).access (Rect.unit (s := S3x8x1x256) ![2, 3, 0, 0] S1x1x1x256.size inb_S3x8x1x256_S1x1x1x256_2_3_0_0)).set ⊆ (dstL 2 false).view.set :=
  rsL_access_sub 2 0 3 _ _ (by omega) dstL_set_2f
theorem rsL2_within_4 : ((Memref.whole cc0_scratch3 : Memref sig .tc .vmem S3x8x1x256 .f32).access (Rect.unit (s := S3x8x1x256) ![2, 4, 0, 0] S1x1x1x256.size inb_S3x8x1x256_S1x1x1x256_2_4_0_0)).set ⊆ (dstL 2 true).view.set :=
  rsL_access_sub 2 4 4 _ _ (by omega) dstL_set_2t
theorem rsL2_within_5 : ((Memref.whole cc0_scratch3 : Memref sig .tc .vmem S3x8x1x256 .f32).access (Rect.unit (s := S3x8x1x256) ![2, 5, 0, 0] S1x1x1x256.size inb_S3x8x1x256_S1x1x1x256_2_5_0_0)).set ⊆ (dstL 2 true).view.set :=
  rsL_access_sub 2 4 5 _ _ (by omega) dstL_set_2t
theorem rsL2_within_6 : ((Memref.whole cc0_scratch3 : Memref sig .tc .vmem S3x8x1x256 .f32).access (Rect.unit (s := S3x8x1x256) ![2, 6, 0, 0] S1x1x1x256.size inb_S3x8x1x256_S1x1x1x256_2_6_0_0)).set ⊆ (dstL 2 true).view.set :=
  rsL_access_sub 2 4 6 _ _ (by omega) dstL_set_2t
theorem rsL2_within_7 : ((Memref.whole cc0_scratch3 : Memref sig .tc .vmem S3x8x1x256 .f32).access (Rect.unit (s := S3x8x1x256) ![2, 7, 0, 0] S1x1x1x256.size inb_S3x8x1x256_S1x1x1x256_2_7_0_0)).set ⊆ (dstL 2 true).view.set :=
  rsL_access_sub 2 4 7 _ _ (by omega) dstL_set_2t

theorem rsL2_withinOn_0 : (Memref.whole cc0_scratch3 : Memref sig .tc .vmem S3x8x1x256 .f32).view.setOn (Rect.unit (s := S3x8x1x256) ![2, 0, 0, 0] S1x1x1x256.size inb_S3x8x1x256_S1x1x1x256_2_0_0_0).set ⊆ (dstL 2 false).view.set :=
  rsL_setOn_sub 2 0 0 _ _ (by omega) dstL_set_2f
theorem rsL2_withinOn_1 : (Memref.whole cc0_scratch3 : Memref sig .tc .vmem S3x8x1x256 .f32).view.setOn (Rect.unit (s := S3x8x1x256) ![2, 1, 0, 0] S1x1x1x256.size inb_S3x8x1x256_S1x1x1x256_2_1_0_0).set ⊆ (dstL 2 false).view.set :=
  rsL_setOn_sub 2 0 1 _ _ (by omega) dstL_set_2f
theorem rsL2_withinOn_2 : (Memref.whole cc0_scratch3 : Memref sig .tc .vmem S3x8x1x256 .f32).view.setOn (Rect.unit (s := S3x8x1x256) ![2, 2, 0, 0] S1x1x1x256.size inb_S3x8x1x256_S1x1x1x256_2_2_0_0).set ⊆ (dstL 2 false).view.set :=
  rsL_setOn_sub 2 0 2 _ _ (by omega) dstL_set_2f
theorem rsL2_withinOn_3 : (Memref.whole cc0_scratch3 : Memref sig .tc .vmem S3x8x1x256 .f32).view.setOn (Rect.unit (s := S3x8x1x256) ![2, 3, 0, 0] S1x1x1x256.size inb_S3x8x1x256_S1x1x1x256_2_3_0_0).set ⊆ (dstL 2 false).view.set :=
  rsL_setOn_sub 2 0 3 _ _ (by omega) dstL_set_2f
theorem rsL2_withinOn_4 : (Memref.whole cc0_scratch3 : Memref sig .tc .vmem S3x8x1x256 .f32).view.setOn (Rect.unit (s := S3x8x1x256) ![2, 4, 0, 0] S1x1x1x256.size inb_S3x8x1x256_S1x1x1x256_2_4_0_0).set ⊆ (dstL 2 true).view.set :=
  rsL_setOn_sub 2 4 4 _ _ (by omega) dstL_set_2t
theorem rsL2_withinOn_5 : (Memref.whole cc0_scratch3 : Memref sig .tc .vmem S3x8x1x256 .f32).view.setOn (Rect.unit (s := S3x8x1x256) ![2, 5, 0, 0] S1x1x1x256.size inb_S3x8x1x256_S1x1x1x256_2_5_0_0).set ⊆ (dstL 2 true).view.set :=
  rsL_setOn_sub 2 4 5 _ _ (by omega) dstL_set_2t
theorem rsL2_withinOn_6 : (Memref.whole cc0_scratch3 : Memref sig .tc .vmem S3x8x1x256 .f32).view.setOn (Rect.unit (s := S3x8x1x256) ![2, 6, 0, 0] S1x1x1x256.size inb_S3x8x1x256_S1x1x1x256_2_6_0_0).set ⊆ (dstL 2 true).view.set :=
  rsL_setOn_sub 2 4 6 _ _ (by omega) dstL_set_2t
theorem rsL2_withinOn_7 : (Memref.whole cc0_scratch3 : Memref sig .tc .vmem S3x8x1x256 .f32).view.setOn (Rect.unit (s := S3x8x1x256) ![2, 7, 0, 0] S1x1x1x256.size inb_S3x8x1x256_S1x1x1x256_2_7_0_0).set ⊆ (dstL 2 true).view.set :=
  rsL_setOn_sub 2 4 7 _ _ (by omega) dstL_set_2t

/-! ## The device's own result block -/

/-- Membership in a whole block of 256 rows; the offsets may be given by any chain equal to `![a, 0, 0]`. -/
theorem mem_rB {off : Fin 3 → ℕ} {inb : ∀ x, off x + S1x256x1024.size x ≤ S4x256x1024.size x} (a : ℕ) (hoff : off = ![a, 0, 0]) (i : S4x256x1024.Idx) :
    i ∈ (Rect.unit (s := S4x256x1024) off S1x256x1024.size inb).set ↔ (i 0 : ℕ) = a := by
  subst hoff
  rw [Rect.mem_set_unit]
  have h1 : (i 1 : ℕ) < 256 := (i 1).isLt
  have h2 : (i 2 : ℕ) < 1024 := (i 2).isLt
  constructor
  · intro h
    have e0 := h 0
    change (a ≤ (i 0 : ℕ) ∧ (i 0 : ℕ) < a + 1) at e0
    omega
  · intro e x
    fin_cases x
    · change (a ≤ (i 0 : ℕ) ∧ (i 0 : ℕ) < a + 1); omega
    · change (0 ≤ (i 1 : ℕ) ∧ (i 1 : ℕ) < 0 + 256); omega
    · change (0 ≤ (i 2 : ℕ) ∧ (i 2 : ℕ) < 0 + 1024); omega

/-- The block device `c` computes itself, block `c + 1`, as the program's store addresses it. -/
abbrev rOwn (c : Dev nD) : Rect S4x256x1024 := Rect.unit (s := S4x256x1024) (k0_off24 c 1#32) S1x256x1024.size (k0_off24_inb c 0)

theorem mem_rOwn (c : Dev nD) (i : S4x256x1024.Idx) : i ∈ (rOwn c).set ↔ (i 0 : ℕ) = (c.val + 1) % 4 :=
  mem_rB _ (off24_eq c ⟨0, by decide⟩) i

/-- Its two halves make it. -/
theorem own_block_set (c : Dev nD) : (rG0f c).set ∪ (rG0t c).set = (rOwn c).set := by
  ext i
  have h1 : (i 1 : ℕ) < 256 := (i 1).isLt
  simp only [Finset.mem_union, mem_rG0f, mem_rG0t, mem_rOwn]
  omega

/-- The two halves of the own block, at one contents, are the block: join before the store, split after it. -/
theorem own_block_eq (c : Dev nD) (f : Buf (Elt F) ((c : Thread nD τ).loc cc0_scratch23)) :
    (iprop(((agS c 0 false).view.loc (c : Thread nD τ) ↦[(agS c 0 false).view.set]{fullShare} f)
        ∗ ((agS c 0 true).view.loc (c : Thread nD τ) ↦[(agS c 0 true).view.set]{fullShare} f)) : sProp 𝕄)
      = ((c : Thread nD τ).loc cc0_scratch23 ↦[(rOwn c).set]{fullShare} f) := by
  show (iprop(((c : Thread nD τ).loc cc0_scratch23 ↦[(agS c 0 false).view.set]{fullShare} f)
        ∗ ((c : Thread nD τ).loc cc0_scratch23 ↦[(agS c 0 true).view.set]{fullShare} f)) : sProp 𝕄)
      = ((c : Thread nD τ).loc cc0_scratch23 ↦[(rOwn c).set]{fullShare} f)
  rw [agS_set_0f c, agS_set_0t c, ← pts_union (agB_disj7 c)]
  have e : (rG0f c).set ∪ (rG0t c).set = (rOwn c).set := own_block_set c
  rw [e]

/-- The store's rectangle, through the whole buffer's memref, is that block. -/
theorem own_within (c : Dev nD) : ((Memref.whole cc0_scratch23 : Memref sig .tc .vmem S4x256x1024 .bf16).access (rOwn c)).set ⊆ (rOwn c).set := by
  show ((View.whole cc0_scratch23).slice _).set ⊆ _
  rw [View.set_slice_whole]
theorem own_withinOn (c : Dev nD) : (Memref.whole cc0_scratch23 : Memref sig .tc .vmem S4x256x1024 .bf16).view.setOn (rOwn c).set ⊆ (rOwn c).set := by
  show (View.whole cc0_scratch23).setOn _ ⊆ _
  rw [setOn_whole]

/-! ## The gathered result, glued

Eight sets, each disjoint from the union of the later ones, each held at contents of its own: held together at the
contents that take, at an element, the value of the set it lies in. -/

section Glue
variable {ℓ : Loc nD τ sig} (K2 K3 K4 K5 K6 K7 K8 : Finset (Idx ℓ)) (f1 f2 f3 f4 f5 f6 f7 f8 : Buf (Elt F) ℓ)

/-- The glued contents: on the last set the last contents, and so on outwards. -/
def glue8 : Buf (Elt F) ℓ :=
  (K2 ∪ (K3 ∪ (K4 ∪ (K5 ∪ (K6 ∪ (K7 ∪ K8)))))).piecewise
    ((K3 ∪ (K4 ∪ (K5 ∪ (K6 ∪ (K7 ∪ K8))))).piecewise
      ((K4 ∪ (K5 ∪ (K6 ∪ (K7 ∪ K8)))).piecewise
        ((K5 ∪ (K6 ∪ (K7 ∪ K8))).piecewise
          ((K6 ∪ (K7 ∪ K8)).piecewise
            ((K7 ∪ K8).piecewise (K8.piecewise f8 f7) f6) f5) f4) f3) f2) f1

variable {K1 : Finset (Idx ℓ)} {K2 K3 K4 K5 K6 K7 K8}
  (d1 : Disjoint K1 (K2 ∪ (K3 ∪ (K4 ∪ (K5 ∪ (K6 ∪ (K7 ∪ K8)))))))
  (d2 : Disjoint K2 (K3 ∪ (K4 ∪ (K5 ∪ (K6 ∪ (K7 ∪ K8))))))
  (d3 : Disjoint K3 (K4 ∪ (K5 ∪ (K6 ∪ (K7 ∪ K8)))))
  (d4 : Disjoint K4 (K5 ∪ (K6 ∪ (K7 ∪ K8))))
  (d5 : Disjoint K5 (K6 ∪ (K7 ∪ K8)))
  (d6 : Disjoint K6 (K7 ∪ K8))
  (d7 : Disjoint K7 K8)

include d1 d2 d3 d4 d5 d6 d7 in
theorem pts_glue8 {q : PosShare TreeShare} :
    iprop((ℓ ↦[K1]{q} f1) ∗ (ℓ ↦[K2]{q} f2) ∗ (ℓ ↦[K3]{q} f3) ∗ (ℓ ↦[K4]{q} f4) ∗ (ℓ ↦[K5]{q} f5) ∗ (ℓ ↦[K6]{q} f6) ∗ (ℓ ↦[K7]{q} f7) ∗ (ℓ ↦[K8]{q} f8))
      ⊢ (ℓ ↦[K1 ∪ (K2 ∪ (K3 ∪ (K4 ∪ (K5 ∪ (K6 ∪ (K7 ∪ K8))))))]{q} glue8 K2 K3 K4 K5 K6 K7 K8 f1 f2 f3 f4 f5 f6 f7 f8 : sProp 𝕄) := by
  have s7 := pointsTo_join (Val := Elt F) (Ix := Unit) (Name := ℕ) (U := UU) (Lvl := ℕ) (q := q) (f := f7) (g := f8) d7
  have s6 := (sep_mono_right s7).trans (pointsTo_join (Val := Elt F) (Ix := Unit) (Name := ℕ) (U := UU) (Lvl := ℕ) (q := q) (f := f6) d6)
  have s5 := (sep_mono_right s6).trans (pointsTo_join (Val := Elt F) (Ix := Unit) (Name := ℕ) (U := UU) (Lvl := ℕ) (q := q) (f := f5) d5)
  have s4 := (sep_mono_right s5).trans (pointsTo_join (Val := Elt F) (Ix := Unit) (Name := ℕ) (U := UU) (Lvl := ℕ) (q := q) (f := f4) d4)
  have s3 := (sep_mono_right s4).trans (pointsTo_join (Val := Elt F) (Ix := Unit) (Name := ℕ) (U := UU) (Lvl := ℕ) (q := q) (f := f3) d3)
  have s2 := (sep_mono_right s3).trans (pointsTo_join (Val := Elt F) (Ix := Unit) (Name := ℕ) (U := UU) (Lvl := ℕ) (q := q) (f := f2) d2)
  exact (sep_mono_right s2).trans (pointsTo_join (Val := Elt F) (Ix := Unit) (Name := ℕ) (U := UU) (Lvl := ℕ) (q := q) (f := f1) d1)

/-! The glued contents agree with each set's own contents on that set. -/

include d1 in
theorem glue8_1 {i : Idx ℓ} (hi : i ∈ K1) : glue8 K2 K3 K4 K5 K6 K7 K8 f1 f2 f3 f4 f5 f6 f7 f8 i = f1 i := by
  unfold glue8
  rw [Finset.piecewise_eq_of_notMem _ _ _ (Finset.disjoint_left.mp d1 hi)]
include d2 in
theorem glue8_2 {i : Idx ℓ} (hi : i ∈ K2) : glue8 K2 K3 K4 K5 K6 K7 K8 f1 f2 f3 f4 f5 f6 f7 f8 i = f2 i := by
  unfold glue8
  rw [Finset.piecewise_eq_of_mem _ _ _ (Finset.mem_union_left _ hi), Finset.piecewise_eq_of_notMem _ _ _ (Finset.disjoint_left.mp d2 hi)]
include d3 in
theorem glue8_3 {i : Idx ℓ} (hi : i ∈ K3) : glue8 K2 K3 K4 K5 K6 K7 K8 f1 f2 f3 f4 f5 f6 f7 f8 i = f3 i := by
  unfold glue8
  have m3 : i ∈ K3 ∪ (K4 ∪ (K5 ∪ (K6 ∪ (K7 ∪ K8)))) := Finset.mem_union_left _ hi
  rw [Finset.piecewise_eq_of_mem _ _ _ (Finset.mem_union_right _ m3), Finset.piecewise_eq_of_mem _ _ _ m3,
    Finset.piecewise_eq_of_notMem _ _ _ (Finset.disjoint_left.mp d3 hi)]
include d4 in
theorem glue8_4 {i : Idx ℓ} (hi : i ∈ K4) : glue8 K2 K3 K4 K5 K6 K7 K8 f1 f2 f3 f4 f5 f6 f7 f8 i = f4 i := by
  unfold glue8
  have m4 : i ∈ K4 ∪ (K5 ∪ (K6 ∪ (K7 ∪ K8))) := Finset.mem_union_left _ hi
  have m3 : i ∈ K3 ∪ (K4 ∪ (K5 ∪ (K6 ∪ (K7 ∪ K8)))) := Finset.mem_union_right _ m4
  rw [Finset.piecewise_eq_of_mem _ _ _ (Finset.mem_union_right _ m3), Finset.piecewise_eq_of_mem _ _ _ m3, Finset.piecewise_eq_of_mem _ _ _ m4,
    Finset.piecewise_eq_of_notMem _ _ _ (Finset.disjoint_left.mp d4 hi)]
include d5 in
theorem glue8_5 {i : Idx ℓ} (hi : i ∈ K5) : glue8 K2 K3 K4 K5 K6 K7 K8 f1 f2 f3 f4 f5 f6 f7 f8 i = f5 i := by
  unfold glue8
  have m5 : i ∈ K5 ∪ (K6 ∪ (K7 ∪ K8)) := Finset.mem_union_left _ hi
  have m4 : i ∈ K4 ∪ (K5 ∪ (K6 ∪ (K7 ∪ K8))) := Finset.mem_union_right _ m5
  have m3 : i ∈ K3 ∪ (K4 ∪ (K5 ∪ (K6 ∪ (K7 ∪ K8)))) := Finset.mem_union_right _ m4
  rw [Finset.piecewise_eq_of_mem _ _ _ (Finset.mem_union_right _ m3), Finset.piecewise_eq_of_mem _ _ _ m3, Finset.piecewise_eq_of_mem _ _ _ m4,
    Finset.piecewise_eq_of_mem _ _ _ m5, Finset.piecewise_eq_of_notMem _ _ _ (Finset.disjoint_left.mp d5 hi)]
include d6 in
theorem glue8_6 {i : Idx ℓ} (hi : i ∈ K6) : glue8 K2 K3 K4 K5 K6 K7 K8 f1 f2 f3 f4 f5 f6 f7 f8 i = f6 i := by
  unfold glue8
  have m6 : i ∈ K6 ∪ (K7 ∪ K8) := Finset.mem_union_left _ hi
  have m5 : i ∈ K5 ∪ (K6 ∪ (K7 ∪ K8)) := Finset.mem_union_right _ m6
  have m4 : i ∈ K4 ∪ (K5 ∪ (K6 ∪ (K7 ∪ K8))) := Finset.mem_union_right _ m5
  have m3 : i ∈ K3 ∪ (K4 ∪ (K5 ∪ (K6 ∪ (K7 ∪ K8)))) := Finset.mem_union_right _ m4
  rw [Finset.piecewise_eq_of_mem _ _ _ (Finset.mem_union_right _ m3), Finset.piecewise_eq_of_mem _ _ _ m3, Finset.piecewise_eq_of_mem _ _ _ m4,
    Finset.piecewise_eq_of_mem _ _ _ m5, Finset.piecewise_eq_of_mem _ _ _ m6, Finset.piecewise_eq_of_notMem _ _ _ (Finset.disjoint_left.mp d6 hi)]
include d7 in
theorem glue8_7 {i : Idx ℓ} (hi : i ∈ K7) : glue8 K2 K3 K4 K5 K6 K7 K8 f1 f2 f3 f4 f5 f6 f7 f8 i = f7 i := by
  unfold glue8
  have m7 : i ∈ K7 ∪ K8 := Finset.mem_union_left _ hi
  have m6 : i ∈ K6 ∪ (K7 ∪ K8) := Finset.mem_union_right _ m7
  have m5 : i ∈ K5 ∪ (K6 ∪ (K7 ∪ K8)) := Finset.mem_union_right _ m6
  have m4 : i ∈ K4 ∪ (K5 ∪ (K6 ∪ (K7 ∪ K8))) := Finset.mem_union_right _ m5
  have m3 : i ∈ K3 ∪ (K4 ∪ (K5 ∪ (K6 ∪ (K7 ∪ K8)))) := Finset.mem_union_right _ m4
  rw [Finset.piecewise_eq_of_mem _ _ _ (Finset.mem_union_right _ m3), Finset.piecewise_eq_of_mem _ _ _ m3, Finset.piecewise_eq_of_mem _ _ _ m4,
    Finset.piecewise_eq_of_mem _ _ _ m5, Finset.piecewise_eq_of_mem _ _ _ m6, Finset.piecewise_eq_of_mem _ _ _ m7,
    Finset.piecewise_eq_of_notMem _ _ _ (Finset.disjoint_left.mp d7 hi)]
theorem glue8_8 {i : Idx ℓ} (hi : i ∈ K8) : glue8 K2 K3 K4 K5 K6 K7 K8 f1 f2 f3 f4 f5 f6 f7 f8 i = f8 i := by
  unfold glue8
  have m7 : i ∈ K7 ∪ K8 := Finset.mem_union_right _ hi
  have m6 : i ∈ K6 ∪ (K7 ∪ K8) := Finset.mem_union_right _ m7
  have m5 : i ∈ K5 ∪ (K6 ∪ (K7 ∪ K8)) := Finset.mem_union_right _ m6
  have m4 : i ∈ K4 ∪ (K5 ∪ (K6 ∪ (K7 ∪ K8))) := Finset.mem_union_right _ m5
  have m3 : i ∈ K3 ∪ (K4 ∪ (K5 ∪ (K6 ∪ (K7 ∪ K8)))) := Finset.mem_union_right _ m4
  rw [Finset.piecewise_eq_of_mem _ _ _ (Finset.mem_union_right _ m3), Finset.piecewise_eq_of_mem _ _ _ m3, Finset.piecewise_eq_of_mem _ _ _ m4,
    Finset.piecewise_eq_of_mem _ _ _ m5, Finset.piecewise_eq_of_mem _ _ _ m6, Finset.piecewise_eq_of_mem _ _ _ m7, Finset.piecewise_eq_of_mem _ _ _ hi]

end Glue

/-! ### The gathered result of device `c` -/

section AgGlue
variable (c : Dev nD) (f1 f2 f3 f4 f5 f6 f7 f8 : Buf (Elt F) ((c : Thread nD τ).loc cc0_scratch23))

/-- The gathered result's contents glued from its eight half blocks', in the order of the split. -/
def agGlue : Buf (Elt F) ((c : Thread nD τ).loc cc0_scratch23) :=
  glue8 (ℓ := (c : Thread nD τ).loc cc0_scratch23) (rG1f (prv c)).set (rG2f (prv c)).set (rG0t (nxt c)).set (rG1t (nxt c)).set (rG2t (nxt c)).set (rG0f c).set (rG0t c).set
    f1 f2 f3 f4 f5 f6 f7 f8

/-- The eight half blocks, each at contents of its own, are the whole buffer at the glued contents. -/
theorem agB_glue :
    iprop(((agS (prv c) 0 false).view.loc (c : Thread nD τ) ↦[(agS (prv c) 0 false).view.set]{fullShare} f1)
        ∗ ((agS (prv c) 1 false).view.loc (c : Thread nD τ) ↦[(agS (prv c) 1 false).view.set]{fullShare} f2)
        ∗ ((agS (prv c) 2 false).view.loc (c : Thread nD τ) ↦[(agS (prv c) 2 false).view.set]{fullShare} f3)
        ∗ ((agS (nxt c) 0 true).view.loc (c : Thread nD τ) ↦[(agS (nxt c) 0 true).view.set]{fullShare} f4)
        ∗ ((agS (nxt c) 1 true).view.loc (c : Thread nD τ) ↦[(agS (nxt c) 1 true).view.set]{fullShare} f5)
        ∗ ((agS (nxt c) 2 true).view.loc (c : Thread nD τ) ↦[(agS (nxt c) 2 true).view.set]{fullShare} f6)
        ∗ ((agS c 0 false).view.loc (c : Thread nD τ) ↦[(agS c 0 false).view.set]{fullShare} f7)
        ∗ ((agS c 0 true).view.loc (c : Thread nD τ) ↦[(agS c 0 true).view.set]{fullShare} f8))
      ⊢ ((c : Thread nD τ).loc cc0_scratch23 ↦{fullShare} agGlue c f1 f2 f3 f4 f5 f6 f7 f8 : sProp 𝕄) := by
  show iprop(((c : Thread nD τ).loc cc0_scratch23 ↦[(agS (prv c) 0 false).view.set]{fullShare} f1)
        ∗ ((c : Thread nD τ).loc cc0_scratch23 ↦[(agS (prv c) 1 false).view.set]{fullShare} f2)
        ∗ ((c : Thread nD τ).loc cc0_scratch23 ↦[(agS (prv c) 2 false).view.set]{fullShare} f3)
        ∗ ((c : Thread nD τ).loc cc0_scratch23 ↦[(agS (nxt c) 0 true).view.set]{fullShare} f4)
        ∗ ((c : Thread nD τ).loc cc0_scratch23 ↦[(agS (nxt c) 1 true).view.set]{fullShare} f5)
        ∗ ((c : Thread nD τ).loc cc0_scratch23 ↦[(agS (nxt c) 2 true).view.set]{fullShare} f6)
        ∗ ((c : Thread nD τ).loc cc0_scratch23 ↦[(agS c 0 false).view.set]{fullShare} f7)
        ∗ ((c : Thread nD τ).loc cc0_scratch23 ↦[(agS c 0 true).view.set]{fullShare} f8))
      ⊢ ((c : Thread nD τ).loc cc0_scratch23 ↦[Finset.univ]{fullShare} agGlue c f1 f2 f3 f4 f5 f6 f7 f8 : sProp 𝕄)
  have hc : (Finset.univ : Finset (Idx ((c : Thread nD τ).loc cc0_scratch23))) = _ := agB_cover c
  rw [agS_set_0f (prv c), agS_set_1f (prv c), agS_set_2f (prv c), agS_set_0t (nxt c), agS_set_1t (nxt c), agS_set_2t (nxt c), agS_set_0f c, agS_set_0t c, hc]
  exact pts_glue8 (F := F) (ℓ := (c : Thread nD τ).loc cc0_scratch23) f1 f2 f3 f4 f5 f6 f7 f8
    (agB_disj1 c) (agB_disj2 c) (agB_disj3 c) (agB_disj4 c) (agB_disj5 c) (agB_disj6 c) (agB_disj7 c)

/-! Each half block reads from the glued contents what it read from its own. -/

theorem agGlue_read_1 : (agS (prv c) 0 false).view.read (Elt F) (agGlue c f1 f2 f3 f4 f5 f6 f7 f8) = (agS (prv c) 0 false).view.read (Elt F) f1 :=
  (agS (prv c) 0 false).view.read_congr fun i hi => glue8_1 (F := F) (ℓ := (c : Thread nD τ).loc cc0_scratch23) f1 f2 f3 f4 f5 f6 f7 f8 (agB_disj1 c) (agS_set_0f (prv c) ▸ hi)
theorem agGlue_read_2 : (agS (prv c) 1 false).view.read (Elt F) (agGlue c f1 f2 f3 f4 f5 f6 f7 f8) = (agS (prv c) 1 false).view.read (Elt F) f2 :=
  (agS (prv c) 1 false).view.read_congr fun i hi => glue8_2 (F := F) (ℓ := (c : Thread nD τ).loc cc0_scratch23) f1 f2 f3 f4 f5 f6 f7 f8 (agB_disj2 c) (agS_set_1f (prv c) ▸ hi)
theorem agGlue_read_3 : (agS (prv c) 2 false).view.read (Elt F) (agGlue c f1 f2 f3 f4 f5 f6 f7 f8) = (agS (prv c) 2 false).view.read (Elt F) f3 :=
  (agS (prv c) 2 false).view.read_congr fun i hi => glue8_3 (F := F) (ℓ := (c : Thread nD τ).loc cc0_scratch23) f1 f2 f3 f4 f5 f6 f7 f8 (agB_disj3 c) (agS_set_2f (prv c) ▸ hi)
theorem agGlue_read_4 : (agS (nxt c) 0 true).view.read (Elt F) (agGlue c f1 f2 f3 f4 f5 f6 f7 f8) = (agS (nxt c) 0 true).view.read (Elt F) f4 :=
  (agS (nxt c) 0 true).view.read_congr fun i hi => glue8_4 (F := F) (ℓ := (c : Thread nD τ).loc cc0_scratch23) f1 f2 f3 f4 f5 f6 f7 f8 (agB_disj4 c) (agS_set_0t (nxt c) ▸ hi)
theorem agGlue_read_5 : (agS (nxt c) 1 true).view.read (Elt F) (agGlue c f1 f2 f3 f4 f5 f6 f7 f8) = (agS (nxt c) 1 true).view.read (Elt F) f5 :=
  (agS (nxt c) 1 true).view.read_congr fun i hi => glue8_5 (F := F) (ℓ := (c : Thread nD τ).loc cc0_scratch23) f1 f2 f3 f4 f5 f6 f7 f8 (agB_disj5 c) (agS_set_1t (nxt c) ▸ hi)
theorem agGlue_read_6 : (agS (nxt c) 2 true).view.read (Elt F) (agGlue c f1 f2 f3 f4 f5 f6 f7 f8) = (agS (nxt c) 2 true).view.read (Elt F) f6 :=
  (agS (nxt c) 2 true).view.read_congr fun i hi => glue8_6 (F := F) (ℓ := (c : Thread nD τ).loc cc0_scratch23) f1 f2 f3 f4 f5 f6 f7 f8 (agB_disj6 c) (agS_set_2t (nxt c) ▸ hi)
theorem agGlue_read_7 : (agS c 0 false).view.read (Elt F) (agGlue c f1 f2 f3 f4 f5 f6 f7 f8) = (agS c 0 false).view.read (Elt F) f7 :=
  (agS c 0 false).view.read_congr fun i hi => glue8_7 (F := F) (ℓ := (c : Thread nD τ).loc cc0_scratch23) f1 f2 f3 f4 f5 f6 f7 f8 (agB_disj7 c) (agS_set_0f c ▸ hi)
theorem agGlue_read_8 : (agS c 0 true).view.read (Elt F) (agGlue c f1 f2 f3 f4 f5 f6 f7 f8) = (agS c 0 true).view.read (Elt F) f8 :=
  (agS c 0 true).view.read_congr fun i hi => glue8_8 (F := F) (ℓ := (c : Thread nD τ).loc cc0_scratch23) f1 f2 f3 f4 f5 f6 f7 f8 (agS_set_0t c ▸ hi)

end AgGlue

end Cert.Kernel.Proto

end
-- ==== Proof.KB.Exit.lean ====
/-
  The exit: from the slices and parts a device holds at the end of its body back to its scratch buffers whole, each at
  some contents, and to what the body hands back.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.Split
import proofs.«900754_g7700000000000755_dist_attn_cross_gqa_kvseq_b4_sq256_skv1024_d1024_hq8_dh128_v7x_i4_f32_1_alg».proof.Proof.KB.Unfold
import proofs.«900754_g7700000000000755_dist_attn_cross_gqa_kvseq_b4_sq256_skv1024_d1024_hq8_dh128_v7x_i4_f32_1_alg».proof.Proof.Gen.Kernel.Launch

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Forgetting the contents; a whole buffer through its memref -/

/-- A slice held at known contents is held at some contents. -/
theorem heldAs_held {sp : Space} {s : Shape} {e : EltTy} (c : Dev nD) (mr : Memref sig .tc sp s e) (w : s.Idx → Elt F e) :
    heldAs c mr w ⊢ held c mr := by
  unfold heldAs held
  iintro ⟨%f, H, %hw⟩
  iexists f
  iexact H

/-- A whole buffer's points-to, spelt through the whole buffer's memref: every element, at the same location. -/
theorem whole_pts (c : Dev nD) (b : Ref sig .tc) (f : Buf (Elt F) ((c : Thread nD τ).loc b)) :
    ((c : Thread nD τ).loc b ↦{fullShare} f : sProp 𝕄)
      = ((Memref.whole b).view.loc (c : Thread nD τ) ↦[(Memref.whole b).view.set]{fullShare} f) := by
  show ((c : Thread nD τ).loc b ↦[Finset.univ]{fullShare} f : sProp 𝕄) = ((c : Thread nD τ).loc b ↦[(View.whole b).set]{fullShare} f)
  rw [View.set_whole]
/-- The same at some contents: a whole buffer's memref held is the buffer whole at some contents. -/
theorem held_whole (c : Dev nD) (b : Ref sig .tc) :
    held (F := F) c (Memref.whole b) = iprop(∃ f : Buf (Elt F) ((c : Thread nD τ).loc b), (c : Thread nD τ).loc b ↦{fullShare} f) := by
  show iprop(∃ f : Buf (Elt F) ((c : Thread nD τ).loc b), (c : Thread nD τ).loc b ↦[(View.whole b).set]{fullShare} f) = _
  rw [View.set_whole]
theorem whole_ex (c : Dev nD) (b : Ref sig .tc) :
    (iprop(∃ f : Buf (Elt F) ((c : Thread nD τ).loc b), (Memref.whole b).view.loc (c : Thread nD τ) ↦[(Memref.whole b).view.set]{fullShare} f) : sProp 𝕄)
      = iprop(∃ f : Buf (Elt F) ((c : Thread nD τ).loc b), (c : Thread nD τ).loc b ↦{fullShare} f) :=
  held_whole c b

/-! ## The partial sums joined again -/

/-- Two disjoint element sets and everything else, each at contents of its own, make the whole buffer at some contents. -/
theorem pts_join3_ex {ℓ : Loc nD τ sig} {A B : Finset (Idx ℓ)} {q : PosShare TreeShare} (h : Disjoint A B) :
    iprop((∃ f : Buf (Elt F) ℓ, ℓ ↦[A]{q} f) ∗ (∃ g : Buf (Elt F) ℓ, ℓ ↦[B]{q} g) ∗ (∃ k : Buf (Elt F) ℓ, ℓ ↦[Finset.univ \ (A ∪ B)]{q} k))
      ⊢ (iprop(∃ f : Buf (Elt F) ℓ, ℓ ↦{q} f) : sProp 𝕄) := by
  have d2 : Disjoint B (Finset.univ \ (A ∪ B)) :=
    Finset.disjoint_left.mpr fun i hb hr => (Finset.mem_sdiff.mp hr).2 (Finset.mem_union_right _ hb)
  have d1 : Disjoint A (B ∪ (Finset.univ \ (A ∪ B))) :=
    Finset.disjoint_union_right.mpr ⟨h, Finset.disjoint_left.mpr fun i ha hr => (Finset.mem_sdiff.mp hr).2 (Finset.mem_union_left _ ha)⟩
  have e : A ∪ (B ∪ (Finset.univ \ (A ∪ B))) = Finset.univ := by
    ext i
    simp only [Finset.mem_union, Finset.mem_sdiff, Finset.mem_univ, true_and, iff_true]
    tauto
  exact ((sep_mono_right (pts_join_ex (F := F) (ℓ := ℓ) (q := q) d2)).trans (pts_join_ex (F := F) (ℓ := ℓ) (q := q) d1)).trans (Entails.of_eq (by rw [e]))

theorem locO_join (c : Dev nD) :
    iprop(held c (srcO c 0 false) ∗ held c (srcO c 0 true)
        ∗ (∃ k : Buf (Elt F) ((c : Thread nD τ).loc cc0_scratch0), (c : Thread nD τ).loc cc0_scratch0 ↦[Finset.univ \ ((srcO c 0 false).view.set ∪ (srcO c 0 true).view.set)]{fullShare} k))
      ⊢ (iprop(∃ f : Buf (Elt F) ((c : Thread nD τ).loc cc0_scratch0), (c : Thread nD τ).loc cc0_scratch0 ↦{fullShare} f) : sProp 𝕄) := by
  show iprop((∃ f : Buf (Elt F) ((c : Thread nD τ).loc cc0_scratch0), (c : Thread nD τ).loc cc0_scratch0 ↦[(srcO c 0 false).view.set]{fullShare} f)
        ∗ (∃ g : Buf (Elt F) ((c : Thread nD τ).loc cc0_scratch0), (c : Thread nD τ).loc cc0_scratch0 ↦[(srcO c 0 true).view.set]{fullShare} g)
        ∗ (∃ k : Buf (Elt F) ((c : Thread nD τ).loc cc0_scratch0), (c : Thread nD τ).loc cc0_scratch0 ↦[Finset.univ \ ((srcO c 0 false).view.set ∪ (srcO c 0 true).view.set)]{fullShare} k))
      ⊢ (iprop(∃ f : Buf (Elt F) ((c : Thread nD τ).loc cc0_scratch0), (c : Thread nD τ).loc cc0_scratch0 ↦{fullShare} f) : sProp 𝕄)
  rw [srcO_set_f, srcO_set_t]
  exact pts_join3_ex (F := F) (ℓ := (c : Thread nD τ).loc cc0_scratch0) (q := fullShare) (rSO_disj c)

theorem locL_join (c : Dev nD) :
    iprop(held c (srcL c 0 false) ∗ held c (srcL c 0 true)
        ∗ (∃ k : Buf (Elt F) ((c : Thread nD τ).loc cc0_scratch1), (c : Thread nD τ).loc cc0_scratch1 ↦[Finset.univ \ ((srcL c 0 false).view.set ∪ (srcL c 0 true).view.set)]{fullShare} k))
      ⊢ (iprop(∃ f : Buf (Elt F) ((c : Thread nD τ).loc cc0_scratch1), (c : Thread nD τ).loc cc0_scratch1 ↦{fullShare} f) : sProp 𝕄) := by
  show iprop((∃ f : Buf (Elt F) ((c : Thread nD τ).loc cc0_scratch1), (c : Thread nD τ).loc cc0_scratch1 ↦[(srcL c 0 false).view.set]{fullShare} f)
        ∗ (∃ g : Buf (Elt F) ((c : Thread nD τ).loc cc0_scratch1), (c : Thread nD τ).loc cc0_scratch1 ↦[(srcL c 0 true).view.set]{fullShare} g)
        ∗ (∃ k : Buf (Elt F) ((c : Thread nD τ).loc cc0_scratch1), (c : Thread nD τ).loc cc0_scratch1 ↦[Finset.univ \ ((srcL c 0 false).view.set ∪ (srcL c 0 true).view.set)]{fullShare} k))
      ⊢ (iprop(∃ f : Buf (Elt F) ((c : Thread nD τ).loc cc0_scratch1), (c : Thread nD τ).loc cc0_scratch1 ↦{fullShare} f) : sProp 𝕄)
  rw [srcL_set_f, srcL_set_t]
  exact pts_join3_ex (F := F) (ℓ := (c : Thread nD τ).loc cc0_scratch1) (q := fullShare) (rSL_disj c)

/-! ## The eleven scratch buffers -/

/-- A scratch buffer whole at some contents. -/
abbrev wholeEx (c : Dev nD) (b : Ref sig .tc) : sProp 𝕄 :=
  iprop(∃ f : Buf (Elt F) ((c : Thread nD τ).loc b), (c : Thread nD τ).loc b ↦{fullShare} f)

/-- The scratch buffers from what the device holds at the end: the partial sums and the six other buffers whole, the three
    ring buffers as the protocol's slices; one group per buffer, in the buffers' order. -/
theorem scratch_intro (c : Dev nD) :
    iprop(wholeEx c cc0_scratch0 ∗ wholeEx c cc0_scratch1
        ∗ (held c (dstO 0 false) ∗ held c (dstO 0 true) ∗ held c (dstO 1 false) ∗ held c (dstO 1 true) ∗ held c (dstO 2 false) ∗ held c (dstO 2 true))
        ∗ (held c (dstL 0 false) ∗ held c (dstL 0 true) ∗ held c (dstL 1 false) ∗ held c (dstL 1 true) ∗ held c (dstL 2 false) ∗ held c (dstL 2 true))
        ∗ wholeEx c cc0_scratch4 ∗ wholeEx c cc0_scratch5 ∗ wholeEx c cc0_scratch6 ∗ wholeEx c cc0_scratch7 ∗ wholeEx c cc0_scratch8 ∗ wholeEx c cc0_scratch9
        ∗ (held c (agS (prv c) 0 false) ∗ held c (agS (prv c) 1 false) ∗ held c (agS (prv c) 2 false)
            ∗ held c (agS (nxt c) 0 true) ∗ held c (agS (nxt c) 1 true) ∗ held c (agS (nxt c) 2 true) ∗ held c (agS c 0 false) ∗ held c (agS c 0 true)))
      ⊢ scratch (F := F) c := by
  unfold scratch
  rw [scopedRest0_eq]
  exact sep_mono_right (sep_mono_right (BI.sep_mono (rsO_join c) (BI.sep_mono (rsL_join c)
    (sep_mono_right (sep_mono_right (sep_mono_right (sep_mono_right (sep_mono_right (sep_mono_right (agB_join c))))))))))

/-- The same with the partial sums as the two lent blocks and the rest, each at contents of its own. -/
theorem scratch_intro_lent (c : Dev nD) :
    iprop((held c (srcO c 0 false) ∗ held c (srcO c 0 true)
            ∗ (∃ k : Buf (Elt F) ((c : Thread nD τ).loc cc0_scratch0), (c : Thread nD τ).loc cc0_scratch0 ↦[Finset.univ \ ((srcO c 0 false).view.set ∪ (srcO c 0 true).view.set)]{fullShare} k))
        ∗ (held c (srcL c 0 false) ∗ held c (srcL c 0 true)
            ∗ (∃ k : Buf (Elt F) ((c : Thread nD τ).loc cc0_scratch1), (c : Thread nD τ).loc cc0_scratch1 ↦[Finset.univ \ ((srcL c 0 false).view.set ∪ (srcL c 0 true).view.set)]{fullShare} k))
        ∗ (held c (dstO 0 false) ∗ held c (dstO 0 true) ∗ held c (dstO 1 false) ∗ held c (dstO 1 true) ∗ held c (dstO 2 false) ∗ held c (dstO 2 true))
        ∗ (held c (dstL 0 false) ∗ held c (dstL 0 true) ∗ held c (dstL 1 false) ∗ held c (dstL 1 true) ∗ held c (dstL 2 false) ∗ held c (dstL 2 true))
        ∗ wholeEx c cc0_scratch4 ∗ wholeEx c cc0_scratch5 ∗ wholeEx c cc0_scratch6 ∗ wholeEx c cc0_scratch7 ∗ wholeEx c cc0_scratch8 ∗ wholeEx c cc0_scratch9
        ∗ (held c (agS (prv c) 0 false) ∗ held c (agS (prv c) 1 false) ∗ held c (agS (prv c) 2 false)
            ∗ held c (agS (nxt c) 0 true) ∗ held c (agS (nxt c) 1 true) ∗ held c (agS (nxt c) 2 true) ∗ held c (agS c 0 false) ∗ held c (agS c 0 true)))
      ⊢ scratch (F := F) c :=
  (BI.sep_mono (locO_join c) (sep_mono_left (locL_join c))).trans (scratch_intro c)

/-- The same with every slice a factor of its own: twenty-eight factors, the buffers' order, no grouping. -/
theorem scratch_intro_flat (c : Dev nD) :
    iprop(wholeEx c cc0_scratch0 ∗ wholeEx c cc0_scratch1
        ∗ held c (dstO 0 false) ∗ held c (dstO 0 true) ∗ held c (dstO 1 false) ∗ held c (dstO 1 true) ∗ held c (dstO 2 false) ∗ held c (dstO 2 true)
        ∗ held c (dstL 0 false) ∗ held c (dstL 0 true) ∗ held c (dstL 1 false) ∗ held c (dstL 1 true) ∗ held c (dstL 2 false) ∗ held c (dstL 2 true)
        ∗ wholeEx c cc0_scratch4 ∗ wholeEx c cc0_scratch5 ∗ wholeEx c cc0_scratch6 ∗ wholeEx c cc0_scratch7 ∗ wholeEx c cc0_scratch8 ∗ wholeEx c cc0_scratch9
        ∗ held c (agS (prv c) 0 false) ∗ held c (agS (prv c) 1 false) ∗ held c (agS (prv c) 2 false)
        ∗ held c (agS (nxt c) 0 true) ∗ held c (agS (nxt c) 1 true) ∗ held c (agS (nxt c) 2 true) ∗ held c (agS c 0 false) ∗ held c (agS c 0 true))
      ⊢ scratch (F := F) c := by
  iintro ⟨A0, A1, O1, O2, O3, O4, O5, O6, L1, L2, L3, L4, L5, L6, A4, A5, A6, A7, A8, A9, G1, G2, G3, G4, G5, G6, G7, G8⟩
  iapply (scratch_intro c)
  isplitl [A0]; · iexact A0
  isplitl [A1]; · iexact A1
  isplitl [O1 O2 O3 O4 O5 O6]
  · isplitl [O1]; · iexact O1
    isplitl [O2]; · iexact O2
    isplitl [O3]; · iexact O3
    isplitl [O4]; · iexact O4
    isplitl [O5]; · iexact O5
    iexact O6
  isplitl [L1 L2 L3 L4 L5 L6]
  · isplitl [L1]; · iexact L1
    isplitl [L2]; · iexact L2
    isplitl [L3]; · iexact L3
    isplitl [L4]; · iexact L4
    isplitl [L5]; · iexact L5
    iexact L6
  isplitl [A4]; · iexact A4
  isplitl [A5]; · iexact A5
  isplitl [A6]; · iexact A6
  isplitl [A7]; · iexact A7
  isplitl [A8]; · iexact A8
  isplitl [A9]; · iexact A9
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

/-! ## What the body hands back -/

variable (m : (ℓ : Loc nD τ sig) → Buf (Elt F) ℓ)

theorem phi1_intro (c : Dev nD) :
    iprop(scratch c ∗ copySems0 c ∗ hbm m c
        ∗ bigSep Finset.univ fun x : Xfer => iprop(semVal (sendCell c x.1 x.2.1 x.2.2) 0 ∗ semVal (recvCell c x.1 x.2.1 x.2.2) 0))
      ⊢ Φ₁ m c := by
  unfold Φ₁; exact .rfl

/-- The same with the eighteen transfers' semaphores written out, in the order the body enqueues the transfers. -/
theorem phi1_intro_list (c : Dev nD) :
    iprop(scratch c ∗ copySems0 c ∗ hbm m c
        ∗ ((semVal (sendCell c .o false 0) 0 ∗ semVal (recvCell c .o false 0) 0) ∗ (semVal (sendCell c .l false 0) 0 ∗ semVal (recvCell c .l false 0) 0)
          ∗ (semVal (sendCell c .o true 0) 0 ∗ semVal (recvCell c .o true 0) 0) ∗ (semVal (sendCell c .l true 0) 0 ∗ semVal (recvCell c .l true 0) 0)
          ∗ (semVal (sendCell c .o false 1) 0 ∗ semVal (recvCell c .o false 1) 0) ∗ (semVal (sendCell c .o true 1) 0 ∗ semVal (recvCell c .o true 1) 0)
          ∗ (semVal (sendCell c .l false 1) 0 ∗ semVal (recvCell c .l false 1) 0) ∗ (semVal (sendCell c .l true 1) 0 ∗ semVal (recvCell c .l true 1) 0)
          ∗ (semVal (sendCell c .o false 2) 0 ∗ semVal (recvCell c .o false 2) 0) ∗ (semVal (sendCell c .o true 2) 0 ∗ semVal (recvCell c .o true 2) 0)
          ∗ (semVal (sendCell c .l false 2) 0 ∗ semVal (recvCell c .l false 2) 0) ∗ (semVal (sendCell c .l true 2) 0 ∗ semVal (recvCell c .l true 2) 0)
          ∗ (semVal (sendCell c .g false 0) 0 ∗ semVal (recvCell c .g false 0) 0) ∗ (semVal (sendCell c .g true 0) 0 ∗ semVal (recvCell c .g true 0) 0)
          ∗ (semVal (sendCell c .g false 1) 0 ∗ semVal (recvCell c .g false 1) 0) ∗ (semVal (sendCell c .g true 1) 0 ∗ semVal (recvCell c .g true 1) 0)
          ∗ (semVal (sendCell c .g false 2) 0 ∗ semVal (recvCell c .g false 2) 0) ∗ (semVal (sendCell c .g true 2) 0 ∗ semVal (recvCell c .g true 2) 0)))
      ⊢ Φ₁ m c := by
  unfold Φ₁
  rw [bigSep_xfer]

end Cert.Kernel.Proto

end
-- ==== Proof.KB.KvSplit.lean ====
/-
  The key and value planes: the buffer the sixteen local copies fill, cut into the sixteen planes they write, one per
  copy, in the order the copies are issued.
-/
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.KB.Split

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The buffer of key planes (first axis 0) and value planes (first axis 1), eight of each: two per batch. -/
abbrev kvB : Memref sig .tc .vmem S2x8x1024x128 .f32 := Memref.whole cc0_scratch5

/-- Plane `r` of the keys (`a = 0`) or of the values (`a = 1`), as a local copy names its destination. -/
def kvS : Fin 2 → Fin 8 → Memref sig .tc .vmem S1024x128 .f32
  | 0, 0 => (kvB.slice (Rect.unit (s := S2x8x1024x128) ![0, 0, 0, 0] S1x1x1024x128.size inb_S2x8x1024x128_S1x1x1024x128_0_0_0_0) (fun _ => rfl)).squeeze S1024x128 squeezes_S1x1x1024x128_S1024x128
  | 1, 0 => (kvB.slice (Rect.unit (s := S2x8x1024x128) ![1, 0, 0, 0] S1x1x1024x128.size inb_S2x8x1024x128_S1x1x1024x128_1_0_0_0) (fun _ => rfl)).squeeze S1024x128 squeezes_S1x1x1024x128_S1024x128
  | 0, 1 => (kvB.slice (Rect.unit (s := S2x8x1024x128) ![0, 1, 0, 0] S1x1x1024x128.size inb_S2x8x1024x128_S1x1x1024x128_0_1_0_0) (fun _ => rfl)).squeeze S1024x128 squeezes_S1x1x1024x128_S1024x128
  | 1, 1 => (kvB.slice (Rect.unit (s := S2x8x1024x128) ![1, 1, 0, 0] S1x1x1024x128.size inb_S2x8x1024x128_S1x1x1024x128_1_1_0_0) (fun _ => rfl)).squeeze S1024x128 squeezes_S1x1x1024x128_S1024x128
  | 0, 2 => (kvB.slice (Rect.unit (s := S2x8x1024x128) ![0, 2, 0, 0] S1x1x1024x128.size inb_S2x8x1024x128_S1x1x1024x128_0_2_0_0) (fun _ => rfl)).squeeze S1024x128 squeezes_S1x1x1024x128_S1024x128
  | 1, 2 => (kvB.slice (Rect.unit (s := S2x8x1024x128) ![1, 2, 0, 0] S1x1x1024x128.size inb_S2x8x1024x128_S1x1x1024x128_1_2_0_0) (fun _ => rfl)).squeeze S1024x128 squeezes_S1x1x1024x128_S1024x128
  | 0, 3 => (kvB.slice (Rect.unit (s := S2x8x1024x128) ![0, 3, 0, 0] S1x1x1024x128.size inb_S2x8x1024x128_S1x1x1024x128_0_3_0_0) (fun _ => rfl)).squeeze S1024x128 squeezes_S1x1x1024x128_S1024x128
  | 1, 3 => (kvB.slice (Rect.unit (s := S2x8x1024x128) ![1, 3, 0, 0] S1x1x1024x128.size inb_S2x8x1024x128_S1x1x1024x128_1_3_0_0) (fun _ => rfl)).squeeze S1024x128 squeezes_S1x1x1024x128_S1024x128
  | 0, 4 => (kvB.slice (Rect.unit (s := S2x8x1024x128) ![0, 4, 0, 0] S1x1x1024x128.size inb_S2x8x1024x128_S1x1x1024x128_0_4_0_0) (fun _ => rfl)).squeeze S1024x128 squeezes_S1x1x1024x128_S1024x128
  | 1, 4 => (kvB.slice (Rect.unit (s := S2x8x1024x128) ![1, 4, 0, 0] S1x1x1024x128.size inb_S2x8x1024x128_S1x1x1024x128_1_4_0_0) (fun _ => rfl)).squeeze S1024x128 squeezes_S1x1x1024x128_S1024x128
  | 0, 5 => (kvB.slice (Rect.unit (s := S2x8x1024x128) ![0, 5, 0, 0] S1x1x1024x128.size inb_S2x8x1024x128_S1x1x1024x128_0_5_0_0) (fun _ => rfl)).squeeze S1024x128 squeezes_S1x1x1024x128_S1024x128
  | 1, 5 => (kvB.slice (Rect.unit (s := S2x8x1024x128) ![1, 5, 0, 0] S1x1x1024x128.size inb_S2x8x1024x128_S1x1x1024x128_1_5_0_0) (fun _ => rfl)).squeeze S1024x128 squeezes_S1x1x1024x128_S1024x128
  | 0, 6 => (kvB.slice (Rect.unit (s := S2x8x1024x128) ![0, 6, 0, 0] S1x1x1024x128.size inb_S2x8x1024x128_S1x1x1024x128_0_6_0_0) (fun _ => rfl)).squeeze S1024x128 squeezes_S1x1x1024x128_S1024x128
  | 1, 6 => (kvB.slice (Rect.unit (s := S2x8x1024x128) ![1, 6, 0, 0] S1x1x1024x128.size inb_S2x8x1024x128_S1x1x1024x128_1_6_0_0) (fun _ => rfl)).squeeze S1024x128 squeezes_S1x1x1024x128_S1024x128
  | 0, 7 => (kvB.slice (Rect.unit (s := S2x8x1024x128) ![0, 7, 0, 0] S1x1x1024x128.size inb_S2x8x1024x128_S1x1x1024x128_0_7_0_0) (fun _ => rfl)).squeeze S1024x128 squeezes_S1x1x1024x128_S1024x128
  | 1, 7 => (kvB.slice (Rect.unit (s := S2x8x1024x128) ![1, 7, 0, 0] S1x1x1024x128.size inb_S2x8x1024x128_S1x1x1024x128_1_7_0_0) (fun _ => rfl)).squeeze S1024x128 squeezes_S1x1x1024x128_S1024x128

/-! ## The planes as rectangles -/

theorem kv_inb (a r : ℕ) (h : a < 2 ∧ r < 8) : ∀ x, (![a, r, 0, 0] : Fin 4 → ℕ) x + S1x1x1024x128.size x ≤ S2x8x1024x128.size x := by
  intro x
  fin_cases x
  · change a + 1 ≤ 2; omega
  · change r + 1 ≤ 8; omega
  · change 0 + 1024 ≤ 1024; omega
  · change 0 + 128 ≤ 128; omega

/-- Plane `(a, r)` as a rectangle of the buffer. -/
abbrev kvR (a r : ℕ) (h : a < 2 ∧ r < 8 := by decide) : Rect S2x8x1024x128 := Rect.unit (s := S2x8x1024x128) ![a, r, 0, 0] S1x1x1024x128.size (kv_inb a r h)

theorem mem_kvR (a r : ℕ) (h : a < 2 ∧ r < 8) (i : S2x8x1024x128.Idx) : i ∈ (kvR a r h).set ↔ (i 0 : ℕ) = a ∧ (i 1 : ℕ) = r := by
  rw [Rect.mem_set_unit]
  have h2 : (i 2 : ℕ) < 1024 := (i 2).isLt
  have h3 : (i 3 : ℕ) < 128 := (i 3).isLt
  constructor
  · intro hh
    have e0 := hh 0
    have e1 := hh 1
    change (a ≤ (i 0 : ℕ) ∧ (i 0 : ℕ) < a + 1) at e0
    change (r ≤ (i 1 : ℕ) ∧ (i 1 : ℕ) < r + 1) at e1
    omega
  · rintro ⟨e0, e1⟩ x
    fin_cases x
    · change (a ≤ (i 0 : ℕ) ∧ (i 0 : ℕ) < a + 1); omega
    · change (r ≤ (i 1 : ℕ) ∧ (i 1 : ℕ) < r + 1); omega
    · change (0 ≤ (i 2 : ℕ) ∧ (i 2 : ℕ) < 0 + 1024); omega
    · change (0 ≤ (i 3 : ℕ) ∧ (i 3 : ℕ) < 0 + 128); omega

theorem kvS_set_0_0 : (kvS 0 0).view.set = (kvR 0 0).set := by
  unfold kvS; simp only [Memref.view_squeeze, Memref.view_slice, Memref.view_whole, View.set_reshape, View.set_slice_whole]
theorem kvS_set_1_0 : (kvS 1 0).view.set = (kvR 1 0).set := by
  unfold kvS; simp only [Memref.view_squeeze, Memref.view_slice, Memref.view_whole, View.set_reshape, View.set_slice_whole]
theorem kvS_set_0_1 : (kvS 0 1).view.set = (kvR 0 1).set := by
  unfold kvS; simp only [Memref.view_squeeze, Memref.view_slice, Memref.view_whole, View.set_reshape, View.set_slice_whole]
theorem kvS_set_1_1 : (kvS 1 1).view.set = (kvR 1 1).set := by
  unfold kvS; simp only [Memref.view_squeeze, Memref.view_slice, Memref.view_whole, View.set_reshape, View.set_slice_whole]
theorem kvS_set_0_2 : (kvS 0 2).view.set = (kvR 0 2).set := by
  unfold kvS; simp only [Memref.view_squeeze, Memref.view_slice, Memref.view_whole, View.set_reshape, View.set_slice_whole]
theorem kvS_set_1_2 : (kvS 1 2).view.set = (kvR 1 2).set := by
  unfold kvS; simp only [Memref.view_squeeze, Memref.view_slice, Memref.view_whole, View.set_reshape, View.set_slice_whole]
theorem kvS_set_0_3 : (kvS 0 3).view.set = (kvR 0 3).set := by
  unfold kvS; simp only [Memref.view_squeeze, Memref.view_slice, Memref.view_whole, View.set_reshape, View.set_slice_whole]
theorem kvS_set_1_3 : (kvS 1 3).view.set = (kvR 1 3).set := by
  unfold kvS; simp only [Memref.view_squeeze, Memref.view_slice, Memref.view_whole, View.set_reshape, View.set_slice_whole]
theorem kvS_set_0_4 : (kvS 0 4).view.set = (kvR 0 4).set := by
  unfold kvS; simp only [Memref.view_squeeze, Memref.view_slice, Memref.view_whole, View.set_reshape, View.set_slice_whole]
theorem kvS_set_1_4 : (kvS 1 4).view.set = (kvR 1 4).set := by
  unfold kvS; simp only [Memref.view_squeeze, Memref.view_slice, Memref.view_whole, View.set_reshape, View.set_slice_whole]
theorem kvS_set_0_5 : (kvS 0 5).view.set = (kvR 0 5).set := by
  unfold kvS; simp only [Memref.view_squeeze, Memref.view_slice, Memref.view_whole, View.set_reshape, View.set_slice_whole]
theorem kvS_set_1_5 : (kvS 1 5).view.set = (kvR 1 5).set := by
  unfold kvS; simp only [Memref.view_squeeze, Memref.view_slice, Memref.view_whole, View.set_reshape, View.set_slice_whole]
theorem kvS_set_0_6 : (kvS 0 6).view.set = (kvR 0 6).set := by
  unfold kvS; simp only [Memref.view_squeeze, Memref.view_slice, Memref.view_whole, View.set_reshape, View.set_slice_whole]
theorem kvS_set_1_6 : (kvS 1 6).view.set = (kvR 1 6).set := by
  unfold kvS; simp only [Memref.view_squeeze, Memref.view_slice, Memref.view_whole, View.set_reshape, View.set_slice_whole]
theorem kvS_set_0_7 : (kvS 0 7).view.set = (kvR 0 7).set := by
  unfold kvS; simp only [Memref.view_squeeze, Memref.view_slice, Memref.view_whole, View.set_reshape, View.set_slice_whole]
theorem kvS_set_1_7 : (kvS 1 7).view.set = (kvR 1 7).set := by
  unfold kvS; simp only [Memref.view_squeeze, Memref.view_slice, Memref.view_whole, View.set_reshape, View.set_slice_whole]

/-! ## The sixteen planes cover the buffer, in the order the copies are issued: plane by plane, keys then values -/

abbrev kvT16 : Finset S2x8x1024x128.Idx := (kvR 1 7).set
abbrev kvT15 : Finset S2x8x1024x128.Idx := (kvR 0 7).set ∪ kvT16
abbrev kvT14 : Finset S2x8x1024x128.Idx := (kvR 1 6).set ∪ kvT15
abbrev kvT13 : Finset S2x8x1024x128.Idx := (kvR 0 6).set ∪ kvT14
abbrev kvT12 : Finset S2x8x1024x128.Idx := (kvR 1 5).set ∪ kvT13
abbrev kvT11 : Finset S2x8x1024x128.Idx := (kvR 0 5).set ∪ kvT12
abbrev kvT10 : Finset S2x8x1024x128.Idx := (kvR 1 4).set ∪ kvT11
abbrev kvT9 : Finset S2x8x1024x128.Idx := (kvR 0 4).set ∪ kvT10
abbrev kvT8 : Finset S2x8x1024x128.Idx := (kvR 1 3).set ∪ kvT9
abbrev kvT7 : Finset S2x8x1024x128.Idx := (kvR 0 3).set ∪ kvT8
abbrev kvT6 : Finset S2x8x1024x128.Idx := (kvR 1 2).set ∪ kvT7
abbrev kvT5 : Finset S2x8x1024x128.Idx := (kvR 0 2).set ∪ kvT6
abbrev kvT4 : Finset S2x8x1024x128.Idx := (kvR 1 1).set ∪ kvT5
abbrev kvT3 : Finset S2x8x1024x128.Idx := (kvR 0 1).set ∪ kvT4
abbrev kvT2 : Finset S2x8x1024x128.Idx := (kvR 1 0).set ∪ kvT3
abbrev kvT1 : Finset S2x8x1024x128.Idx := (kvR 0 0).set ∪ kvT2

theorem kv_cover : (Finset.univ : Finset S2x8x1024x128.Idx) = kvT1 := by
  ext i
  have h0 : (i 0 : ℕ) < 2 := (i 0).isLt
  have h1 : (i 1 : ℕ) < 8 := (i 1).isLt
  simp only [Finset.mem_univ, true_iff, Finset.mem_union, mem_kvR]
  omega

theorem kv_disj1 : Disjoint (kvR 0 0).set kvT2 := Finset.disjoint_left.mpr fun i hi hj => by simp only [Finset.mem_union, mem_kvR] at hi hj; omega
theorem kv_disj2 : Disjoint (kvR 1 0).set kvT3 := Finset.disjoint_left.mpr fun i hi hj => by simp only [Finset.mem_union, mem_kvR] at hi hj; omega
theorem kv_disj3 : Disjoint (kvR 0 1).set kvT4 := Finset.disjoint_left.mpr fun i hi hj => by simp only [Finset.mem_union, mem_kvR] at hi hj; omega
theorem kv_disj4 : Disjoint (kvR 1 1).set kvT5 := Finset.disjoint_left.mpr fun i hi hj => by simp only [Finset.mem_union, mem_kvR] at hi hj; omega
theorem kv_disj5 : Disjoint (kvR 0 2).set kvT6 := Finset.disjoint_left.mpr fun i hi hj => by simp only [Finset.mem_union, mem_kvR] at hi hj; omega
theorem kv_disj6 : Disjoint (kvR 1 2).set kvT7 := Finset.disjoint_left.mpr fun i hi hj => by simp only [Finset.mem_union, mem_kvR] at hi hj; omega
theorem kv_disj7 : Disjoint (kvR 0 3).set kvT8 := Finset.disjoint_left.mpr fun i hi hj => by simp only [Finset.mem_union, mem_kvR] at hi hj; omega
theorem kv_disj8 : Disjoint (kvR 1 3).set kvT9 := Finset.disjoint_left.mpr fun i hi hj => by simp only [Finset.mem_union, mem_kvR] at hi hj; omega
theorem kv_disj9 : Disjoint (kvR 0 4).set kvT10 := Finset.disjoint_left.mpr fun i hi hj => by simp only [Finset.mem_union, mem_kvR] at hi hj; omega
theorem kv_disj10 : Disjoint (kvR 1 4).set kvT11 := Finset.disjoint_left.mpr fun i hi hj => by simp only [Finset.mem_union, mem_kvR] at hi hj; omega
theorem kv_disj11 : Disjoint (kvR 0 5).set kvT12 := Finset.disjoint_left.mpr fun i hi hj => by simp only [Finset.mem_union, mem_kvR] at hi hj; omega
theorem kv_disj12 : Disjoint (kvR 1 5).set kvT13 := Finset.disjoint_left.mpr fun i hi hj => by simp only [Finset.mem_union, mem_kvR] at hi hj; omega
theorem kv_disj13 : Disjoint (kvR 0 6).set kvT14 := Finset.disjoint_left.mpr fun i hi hj => by simp only [Finset.mem_union, mem_kvR] at hi hj; omega
theorem kv_disj14 : Disjoint (kvR 1 6).set kvT15 := Finset.disjoint_left.mpr fun i hi hj => by simp only [Finset.mem_union, mem_kvR] at hi hj; omega
theorem kv_disj15 : Disjoint (kvR 0 7).set kvT16 := Finset.disjoint_left.mpr fun i hi hj => by simp only [mem_kvR] at hi hj; omega

/-! ## The split and the join -/

/-- The key and value buffer of device `c`, whole, is its sixteen planes, each at the same contents. -/
theorem kv_split_eq (c : Dev nD) (f : Buf (Elt F) ((c : Thread nD τ).loc cc0_scratch5)) :
    ((c : Thread nD τ).loc cc0_scratch5 ↦{fullShare} f : sProp 𝕄) =
      iprop(((kvS 0 0).view.loc (c : Thread nD τ) ↦[(kvS 0 0).view.set]{fullShare} f) ∗ ((kvS 1 0).view.loc (c : Thread nD τ) ↦[(kvS 1 0).view.set]{fullShare} f)
        ∗ ((kvS 0 1).view.loc (c : Thread nD τ) ↦[(kvS 0 1).view.set]{fullShare} f) ∗ ((kvS 1 1).view.loc (c : Thread nD τ) ↦[(kvS 1 1).view.set]{fullShare} f)
        ∗ ((kvS 0 2).view.loc (c : Thread nD τ) ↦[(kvS 0 2).view.set]{fullShare} f) ∗ ((kvS 1 2).view.loc (c : Thread nD τ) ↦[(kvS 1 2).view.set]{fullShare} f)
        ∗ ((kvS 0 3).view.loc (c : Thread nD τ) ↦[(kvS 0 3).view.set]{fullShare} f) ∗ ((kvS 1 3).view.loc (c : Thread nD τ) ↦[(kvS 1 3).view.set]{fullShare} f)
        ∗ ((kvS 0 4).view.loc (c : Thread nD τ) ↦[(kvS 0 4).view.set]{fullShare} f) ∗ ((kvS 1 4).view.loc (c : Thread nD τ) ↦[(kvS 1 4).view.set]{fullShare} f)
        ∗ ((kvS 0 5).view.loc (c : Thread nD τ) ↦[(kvS 0 5).view.set]{fullShare} f) ∗ ((kvS 1 5).view.loc (c : Thread nD τ) ↦[(kvS 1 5).view.set]{fullShare} f)
        ∗ ((kvS 0 6).view.loc (c : Thread nD τ) ↦[(kvS 0 6).view.set]{fullShare} f) ∗ ((kvS 1 6).view.loc (c : Thread nD τ) ↦[(kvS 1 6).view.set]{fullShare} f)
        ∗ ((kvS 0 7).view.loc (c : Thread nD τ) ↦[(kvS 0 7).view.set]{fullShare} f) ∗ ((kvS 1 7).view.loc (c : Thread nD τ) ↦[(kvS 1 7).view.set]{fullShare} f)) := by
  show ((c : Thread nD τ).loc cc0_scratch5 ↦[Finset.univ]{fullShare} f : sProp 𝕄) =
      iprop(((c : Thread nD τ).loc cc0_scratch5 ↦[(kvS 0 0).view.set]{fullShare} f) ∗ ((c : Thread nD τ).loc cc0_scratch5 ↦[(kvS 1 0).view.set]{fullShare} f)
        ∗ ((c : Thread nD τ).loc cc0_scratch5 ↦[(kvS 0 1).view.set]{fullShare} f) ∗ ((c : Thread nD τ).loc cc0_scratch5 ↦[(kvS 1 1).view.set]{fullShare} f)
        ∗ ((c : Thread nD τ).loc cc0_scratch5 ↦[(kvS 0 2).view.set]{fullShare} f) ∗ ((c : Thread nD τ).loc cc0_scratch5 ↦[(kvS 1 2).view.set]{fullShare} f)
        ∗ ((c : Thread nD τ).loc cc0_scratch5 ↦[(kvS 0 3).view.set]{fullShare} f) ∗ ((c : Thread nD τ).loc cc0_scratch5 ↦[(kvS 1 3).view.set]{fullShare} f)
        ∗ ((c : Thread nD τ).loc cc0_scratch5 ↦[(kvS 0 4).view.set]{fullShare} f) ∗ ((c : Thread nD τ).loc cc0_scratch5 ↦[(kvS 1 4).view.set]{fullShare} f)
        ∗ ((c : Thread nD τ).loc cc0_scratch5 ↦[(kvS 0 5).view.set]{fullShare} f) ∗ ((c : Thread nD τ).loc cc0_scratch5 ↦[(kvS 1 5).view.set]{fullShare} f)
        ∗ ((c : Thread nD τ).loc cc0_scratch5 ↦[(kvS 0 6).view.set]{fullShare} f) ∗ ((c : Thread nD τ).loc cc0_scratch5 ↦[(kvS 1 6).view.set]{fullShare} f)
        ∗ ((c : Thread nD τ).loc cc0_scratch5 ↦[(kvS 0 7).view.set]{fullShare} f) ∗ ((c : Thread nD τ).loc cc0_scratch5 ↦[(kvS 1 7).view.set]{fullShare} f))
  have hc : (Finset.univ : Finset (Idx ((c : Thread nD τ).loc cc0_scratch5))) = kvT1 := kv_cover
  rw [kvS_set_0_0, kvS_set_1_0, kvS_set_0_1, kvS_set_1_1, kvS_set_0_2, kvS_set_1_2, kvS_set_0_3, kvS_set_1_3, kvS_set_0_4, kvS_set_1_4, kvS_set_0_5, kvS_set_1_5,
    kvS_set_0_6, kvS_set_1_6, kvS_set_0_7, kvS_set_1_7, hc,
    pts_union kv_disj1, pts_union kv_disj2, pts_union kv_disj3, pts_union kv_disj4, pts_union kv_disj5, pts_union kv_disj6, pts_union kv_disj7, pts_union kv_disj8,
    pts_union kv_disj9, pts_union kv_disj10, pts_union kv_disj11, pts_union kv_disj12, pts_union kv_disj13, pts_union kv_disj14, pts_union kv_disj15]

theorem kv_split (c : Dev nD) (f : Buf (Elt F) ((c : Thread nD τ).loc cc0_scratch5)) :
    ((c : Thread nD τ).loc cc0_scratch5 ↦{fullShare} f : sProp 𝕄) ⊣⊢
      iprop(((kvS 0 0).view.loc (c : Thread nD τ) ↦[(kvS 0 0).view.set]{fullShare} f) ∗ ((kvS 1 0).view.loc (c : Thread nD τ) ↦[(kvS 1 0).view.set]{fullShare} f)
        ∗ ((kvS 0 1).view.loc (c : Thread nD τ) ↦[(kvS 0 1).view.set]{fullShare} f) ∗ ((kvS 1 1).view.loc (c : Thread nD τ) ↦[(kvS 1 1).view.set]{fullShare} f)
        ∗ ((kvS 0 2).view.loc (c : Thread nD τ) ↦[(kvS 0 2).view.set]{fullShare} f) ∗ ((kvS 1 2).view.loc (c : Thread nD τ) ↦[(kvS 1 2).view.set]{fullShare} f)
        ∗ ((kvS 0 3).view.loc (c : Thread nD τ) ↦[(kvS 0 3).view.set]{fullShare} f) ∗ ((kvS 1 3).view.loc (c : Thread nD τ) ↦[(kvS 1 3).view.set]{fullShare} f)
        ∗ ((kvS 0 4).view.loc (c : Thread nD τ) ↦[(kvS 0 4).view.set]{fullShare} f) ∗ ((kvS 1 4).view.loc (c : Thread nD τ) ↦[(kvS 1 4).view.set]{fullShare} f)
        ∗ ((kvS 0 5).view.loc (c : Thread nD τ) ↦[(kvS 0 5).view.set]{fullShare} f) ∗ ((kvS 1 5).view.loc (c : Thread nD τ) ↦[(kvS 1 5).view.set]{fullShare} f)
        ∗ ((kvS 0 6).view.loc (c : Thread nD τ) ↦[(kvS 0 6).view.set]{fullShare} f) ∗ ((kvS 1 6).view.loc (c : Thread nD τ) ↦[(kvS 1 6).view.set]{fullShare} f)
        ∗ ((kvS 0 7).view.loc (c : Thread nD τ) ↦[(kvS 0 7).view.set]{fullShare} f) ∗ ((kvS 1 7).view.loc (c : Thread nD τ) ↦[(kvS 1 7).view.set]{fullShare} f)) :=
  BiEntails.of_eq (kv_split_eq c f)

/-- A plane held at some contents, over the buffer's own location and the plane's rectangle. -/
theorem held_kvS_0_0 (c : Dev nD) : held (F := F) c (kvS 0 0) = iprop(∃ f : Buf (Elt F) ((c : Thread nD τ).loc cc0_scratch5), (c : Thread nD τ).loc cc0_scratch5 ↦[(kvR 0 0).set]{fullShare} f) := by
  show iprop(∃ f : Buf (Elt F) ((c : Thread nD τ).loc cc0_scratch5), (c : Thread nD τ).loc cc0_scratch5 ↦[(kvS 0 0).view.set]{fullShare} f) = _
  rw [kvS_set_0_0]
theorem held_kvS_1_0 (c : Dev nD) : held (F := F) c (kvS 1 0) = iprop(∃ f : Buf (Elt F) ((c : Thread nD τ).loc cc0_scratch5), (c : Thread nD τ).loc cc0_scratch5 ↦[(kvR 1 0).set]{fullShare} f) := by
  show iprop(∃ f : Buf (Elt F) ((c : Thread nD τ).loc cc0_scratch5), (c : Thread nD τ).loc cc0_scratch5 ↦[(kvS 1 0).view.set]{fullShare} f) = _
  rw [kvS_set_1_0]
theorem held_kvS_0_1 (c : Dev nD) : held (F := F) c (kvS 0 1) = iprop(∃ f : Buf (Elt F) ((c : Thread nD τ).loc cc0_scratch5), (c : Thread nD τ).loc cc0_scratch5 ↦[(kvR 0 1).set]{fullShare} f) := by
  show iprop(∃ f : Buf (Elt F) ((c : Thread nD τ).loc cc0_scratch5), (c : Thread nD τ).loc cc0_scratch5 ↦[(kvS 0 1).view.set]{fullShare} f) = _
  rw [kvS_set_0_1]
theorem held_kvS_1_1 (c : Dev nD) : held (F := F) c (kvS 1 1) = iprop(∃ f : Buf (Elt F) ((c : Thread nD τ).loc cc0_scratch5), (c : Thread nD τ).loc cc0_scratch5 ↦[(kvR 1 1).set]{fullShare} f) := by
  show iprop(∃ f : Buf (Elt F) ((c : Thread nD τ).loc cc0_scratch5), (c : Thread nD τ).loc cc0_scratch5 ↦[(kvS 1 1).view.set]{fullShare} f) = _
  rw [kvS_set_1_1]
theorem held_kvS_0_2 (c : Dev nD) : held (F := F) c (kvS 0 2) = iprop(∃ f : Buf (Elt F) ((c : Thread nD τ).loc cc0_scratch5), (c : Thread nD τ).loc cc0_scratch5 ↦[(kvR 0 2).set]{fullShare} f) := by
  show iprop(∃ f : Buf (Elt F) ((c : Thread nD τ).loc cc0_scratch5), (c : Thread nD τ).loc cc0_scratch5 ↦[(kvS 0 2).view.set]{fullShare} f) = _
  rw [kvS_set_0_2]
theorem held_kvS_1_2 (c : Dev nD) : held (F := F) c (kvS 1 2) = iprop(∃ f : Buf (Elt F) ((c : Thread nD τ).loc cc0_scratch5), (c : Thread nD τ).loc cc0_scratch5 ↦[(kvR 1 2).set]{fullShare} f) := by
  show iprop(∃ f : Buf (Elt F) ((c : Thread nD τ).loc cc0_scratch5), (c : Thread nD τ).loc cc0_scratch5 ↦[(kvS 1 2).view.set]{fullShare} f) = _
  rw [kvS_set_1_2]
theorem held_kvS_0_3 (c : Dev nD) : held (F := F) c (kvS 0 3) = iprop(∃ f : Buf (Elt F) ((c : Thread nD τ).loc cc0_scratch5), (c : Thread nD τ).loc cc0_scratch5 ↦[(kvR 0 3).set]{fullShare} f) := by
  show iprop(∃ f : Buf (Elt F) ((c : Thread nD τ).loc cc0_scratch5), (c : Thread nD τ).loc cc0_scratch5 ↦[(kvS 0 3).view.set]{fullShare} f) = _
  rw [kvS_set_0_3]
theorem held_kvS_1_3 (c : Dev nD) : held (F := F) c (kvS 1 3) = iprop(∃ f : Buf (Elt F) ((c : Thread nD τ).loc cc0_scratch5), (c : Thread nD τ).loc cc0_scratch5 ↦[(kvR 1 3).set]{fullShare} f) := by
  show iprop(∃ f : Buf (Elt F) ((c : Thread nD τ).loc cc0_scratch5), (c : Thread nD τ).loc cc0_scratch5 ↦[(kvS 1 3).view.set]{fullShare} f) = _
  rw [kvS_set_1_3]
theorem held_kvS_0_4 (c : Dev nD) : held (F := F) c (kvS 0 4) = iprop(∃ f : Buf (Elt F) ((c : Thread nD τ).loc cc0_scratch5), (c : Thread nD τ).loc cc0_scratch5 ↦[(kvR 0 4).set]{fullShare} f) := by
  show iprop(∃ f : Buf (Elt F) ((c : Thread nD τ).loc cc0_scratch5), (c : Thread nD τ).loc cc0_scratch5 ↦[(kvS 0 4).view.set]{fullShare} f) = _
  rw [kvS_set_0_4]
theorem held_kvS_1_4 (c : Dev nD) : held (F := F) c (kvS 1 4) = iprop(∃ f : Buf (Elt F) ((c : Thread nD τ).loc cc0_scratch5), (c : Thread nD τ).loc cc0_scratch5 ↦[(kvR 1 4).set]{fullShare} f) := by
  show iprop(∃ f : Buf (Elt F) ((c : Thread nD τ).loc cc0_scratch5), (c : Thread nD τ).loc cc0_scratch5 ↦[(kvS 1 4).view.set]{fullShare} f) = _
  rw [kvS_set_1_4]
theorem held_kvS_0_5 (c : Dev nD) : held (F := F) c (kvS 0 5) = iprop(∃ f : Buf (Elt F) ((c : Thread nD τ).loc cc0_scratch5), (c : Thread nD τ).loc cc0_scratch5 ↦[(kvR 0 5).set]{fullShare} f) := by
  show iprop(∃ f : Buf (Elt F) ((c : Thread nD τ).loc cc0_scratch5), (c : Thread nD τ).loc cc0_scratch5 ↦[(kvS 0 5).view.set]{fullShare} f) = _
  rw [kvS_set_0_5]
theorem held_kvS_1_5 (c : Dev nD) : held (F := F) c (kvS 1 5) = iprop(∃ f : Buf (Elt F) ((c : Thread nD τ).loc cc0_scratch5), (c : Thread nD τ).loc cc0_scratch5 ↦[(kvR 1 5).set]{fullShare} f) := by
  show iprop(∃ f : Buf (Elt F) ((c : Thread nD τ).loc cc0_scratch5), (c : Thread nD τ).loc cc0_scratch5 ↦[(kvS 1 5).view.set]{fullShare} f) = _
  rw [kvS_set_1_5]
theorem held_kvS_0_6 (c : Dev nD) : held (F := F) c (kvS 0 6) = iprop(∃ f : Buf (Elt F) ((c : Thread nD τ).loc cc0_scratch5), (c : Thread nD τ).loc cc0_scratch5 ↦[(kvR 0 6).set]{fullShare} f) := by
  show iprop(∃ f : Buf (Elt F) ((c : Thread nD τ).loc cc0_scratch5), (c : Thread nD τ).loc cc0_scratch5 ↦[(kvS 0 6).view.set]{fullShare} f) = _
  rw [kvS_set_0_6]
theorem held_kvS_1_6 (c : Dev nD) : held (F := F) c (kvS 1 6) = iprop(∃ f : Buf (Elt F) ((c : Thread nD τ).loc cc0_scratch5), (c : Thread nD τ).loc cc0_scratch5 ↦[(kvR 1 6).set]{fullShare} f) := by
  show iprop(∃ f : Buf (Elt F) ((c : Thread nD τ).loc cc0_scratch5), (c : Thread nD τ).loc cc0_scratch5 ↦[(kvS 1 6).view.set]{fullShare} f) = _
  rw [kvS_set_1_6]
theorem held_kvS_0_7 (c : Dev nD) : held (F := F) c (kvS 0 7) = iprop(∃ f : Buf (Elt F) ((c : Thread nD τ).loc cc0_scratch5), (c : Thread nD τ).loc cc0_scratch5 ↦[(kvR 0 7).set]{fullShare} f) := by
  show iprop(∃ f : Buf (Elt F) ((c : Thread nD τ).loc cc0_scratch5), (c : Thread nD τ).loc cc0_scratch5 ↦[(kvS 0 7).view.set]{fullShare} f) = _
  rw [kvS_set_0_7]
theorem held_kvS_1_7 (c : Dev nD) : held (F := F) c (kvS 1 7) = iprop(∃ f : Buf (Elt F) ((c : Thread nD τ).loc cc0_scratch5), (c : Thread nD τ).loc cc0_scratch5 ↦[(kvR 1 7).set]{fullShare} f) := by
  show iprop(∃ f : Buf (Elt F) ((c : Thread nD τ).loc cc0_scratch5), (c : Thread nD τ).loc cc0_scratch5 ↦[(kvS 1 7).view.set]{fullShare} f) = _
  rw [kvS_set_1_7]

/-- The sixteen planes, each at contents of its own, are the buffer whole at some contents. -/
theorem kv_join (c : Dev nD) :
    iprop(held c (kvS 0 0) ∗ held c (kvS 1 0) ∗ held c (kvS 0 1) ∗ held c (kvS 1 1) ∗ held c (kvS 0 2) ∗ held c (kvS 1 2) ∗ held c (kvS 0 3) ∗ held c (kvS 1 3)
        ∗ held c (kvS 0 4) ∗ held c (kvS 1 4) ∗ held c (kvS 0 5) ∗ held c (kvS 1 5) ∗ held c (kvS 0 6) ∗ held c (kvS 1 6) ∗ held c (kvS 0 7) ∗ held c (kvS 1 7))
      ⊢ (iprop(∃ f : Buf (Elt F) ((c : Thread nD τ).loc cc0_scratch5), (c : Thread nD τ).loc cc0_scratch5 ↦{fullShare} f) : sProp 𝕄) := by
  rw [held_kvS_0_0, held_kvS_1_0, held_kvS_0_1, held_kvS_1_1, held_kvS_0_2, held_kvS_1_2, held_kvS_0_3, held_kvS_1_3, held_kvS_0_4, held_kvS_1_4, held_kvS_0_5, held_kvS_1_5,
    held_kvS_0_6, held_kvS_1_6, held_kvS_0_7, held_kvS_1_7]
  have hc : (Finset.univ : Finset (Idx ((c : Thread nD τ).loc cc0_scratch5))) = kvT1 := kv_cover
  show _ ⊢ (iprop(∃ f : Buf (Elt F) ((c : Thread nD τ).loc cc0_scratch5), (c : Thread nD τ).loc cc0_scratch5 ↦[Finset.univ]{fullShare} f) : sProp 𝕄)
  rw [hc]
  have s15 := pts_join_ex (F := F) (ℓ := (c : Thread nD τ).loc cc0_scratch5) (q := fullShare) kv_disj15
  have s14 := (sep_mono_right s15).trans (pts_join_ex (F := F) (ℓ := (c : Thread nD τ).loc cc0_scratch5) (q := fullShare) kv_disj14)
  have s13 := (sep_mono_right s14).trans (pts_join_ex (F := F) (ℓ := (c : Thread nD τ).loc cc0_scratch5) (q := fullShare) kv_disj13)
  have s12 := (sep_mono_right s13).trans (pts_join_ex (F := F) (ℓ := (c : Thread nD τ).loc cc0_scratch5) (q := fullShare) kv_disj12)
  have s11 := (sep_mono_right s12).trans (pts_join_ex (F := F) (ℓ := (c : Thread nD τ).loc cc0_scratch5) (q := fullShare) kv_disj11)
  have s10 := (sep_mono_right s11).trans (pts_join_ex (F := F) (ℓ := (c : Thread nD τ).loc cc0_scratch5) (q := fullShare) kv_disj10)
  have s9 := (sep_mono_right s10).trans (pts_join_ex (F := F) (ℓ := (c : Thread nD τ).loc cc0_scratch5) (q := fullShare) kv_disj9)
  have s8 := (sep_mono_right s9).trans (pts_join_ex (F := F) (ℓ := (c : Thread nD τ).loc cc0_scratch5) (q := fullShare) kv_disj8)
  have s7 := (sep_mono_right s8).trans (pts_join_ex (F := F) (ℓ := (c : Thread nD τ).loc cc0_scratch5) (q := fullShare) kv_disj7)
  have s6 := (sep_mono_right s7).trans (pts_join_ex (F := F) (ℓ := (c : Thread nD τ).loc cc0_scratch5) (q := fullShare) kv_disj6)
  have s5 := (sep_mono_right s6).trans (pts_join_ex (F := F) (ℓ := (c : Thread nD τ).loc cc0_scratch5) (q := fullShare) kv_disj5)
  have s4 := (sep_mono_right s5).trans (pts_join_ex (F := F) (ℓ := (c : Thread nD τ).loc cc0_scratch5) (q := fullShare) kv_disj4)
  have s3 := (sep_mono_right s4).trans (pts_join_ex (F := F) (ℓ := (c : Thread nD τ).loc cc0_scratch5) (q := fullShare) kv_disj3)
  have s2 := (sep_mono_right s3).trans (pts_join_ex (F := F) (ℓ := (c : Thread nD τ).loc cc0_scratch5) (q := fullShare) kv_disj2)
  exact (sep_mono_right s2).trans (pts_join_ex (F := F) (ℓ := (c : Thread nD τ).loc cc0_scratch5) (q := fullShare) kv_disj1)

end Cert.Kernel.Proto

end
-- ==== Proof.KB.HbmSplit.lean ====
/-
  The unstaged key and value rows, each cut into the eight planes the local copies read: one plane per batch and head,
  in the order the copies are issued.
-/
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.KB.Split

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! The unstaged key rows, cut into the eight planes the local copies read: batch `b`, head `g`. -/

abbrev hbK : Memref sig .tc .hbm S4x1024x2x128 .f32 := Memref.whole main_arg3

def hbKS : Fin 4 → Fin 2 → Memref sig .tc .hbm S1024x128 .f32
  | 0, 0 => (hbK.slice (Rect.unit (s := S4x1024x2x128) ![0, 0, 0, 0] S1x1024x1x128.size inb_S4x1024x2x128_S1x1024x1x128_0_0_0_0) (fun _ => rfl)).squeeze S1024x128 squeezes_S1x1024x1x128_S1024x128
  | 0, 1 => (hbK.slice (Rect.unit (s := S4x1024x2x128) ![0, 0, 1, 0] S1x1024x1x128.size inb_S4x1024x2x128_S1x1024x1x128_0_0_1_0) (fun _ => rfl)).squeeze S1024x128 squeezes_S1x1024x1x128_S1024x128
  | 1, 0 => (hbK.slice (Rect.unit (s := S4x1024x2x128) ![1, 0, 0, 0] S1x1024x1x128.size inb_S4x1024x2x128_S1x1024x1x128_1_0_0_0) (fun _ => rfl)).squeeze S1024x128 squeezes_S1x1024x1x128_S1024x128
  | 1, 1 => (hbK.slice (Rect.unit (s := S4x1024x2x128) ![1, 0, 1, 0] S1x1024x1x128.size inb_S4x1024x2x128_S1x1024x1x128_1_0_1_0) (fun _ => rfl)).squeeze S1024x128 squeezes_S1x1024x1x128_S1024x128
  | 2, 0 => (hbK.slice (Rect.unit (s := S4x1024x2x128) ![2, 0, 0, 0] S1x1024x1x128.size inb_S4x1024x2x128_S1x1024x1x128_2_0_0_0) (fun _ => rfl)).squeeze S1024x128 squeezes_S1x1024x1x128_S1024x128
  | 2, 1 => (hbK.slice (Rect.unit (s := S4x1024x2x128) ![2, 0, 1, 0] S1x1024x1x128.size inb_S4x1024x2x128_S1x1024x1x128_2_0_1_0) (fun _ => rfl)).squeeze S1024x128 squeezes_S1x1024x1x128_S1024x128
  | 3, 0 => (hbK.slice (Rect.unit (s := S4x1024x2x128) ![3, 0, 0, 0] S1x1024x1x128.size inb_S4x1024x2x128_S1x1024x1x128_3_0_0_0) (fun _ => rfl)).squeeze S1024x128 squeezes_S1x1024x1x128_S1024x128
  | 3, 1 => (hbK.slice (Rect.unit (s := S4x1024x2x128) ![3, 0, 1, 0] S1x1024x1x128.size inb_S4x1024x2x128_S1x1024x1x128_3_0_1_0) (fun _ => rfl)).squeeze S1024x128 squeezes_S1x1024x1x128_S1024x128

theorem hb_inb (b g : ℕ) (h : b < 4 ∧ g < 2) : ∀ x, (![b, 0, g, 0] : Fin 4 → ℕ) x + S1x1024x1x128.size x ≤ S4x1024x2x128.size x := by
  intro x
  fin_cases x
  · change b + 1 ≤ 4; omega
  · change 0 + 1024 ≤ 1024; omega
  · change g + 1 ≤ 2; omega
  · change 0 + 128 ≤ 128; omega

abbrev hbR (b g : ℕ) (h : b < 4 ∧ g < 2 := by decide) : Rect S4x1024x2x128 := Rect.unit (s := S4x1024x2x128) ![b, 0, g, 0] S1x1024x1x128.size (hb_inb b g h)

theorem mem_hbR (b g : ℕ) (h : b < 4 ∧ g < 2) (i : S4x1024x2x128.Idx) : i ∈ (hbR b g h).set ↔ (i 0 : ℕ) = b ∧ (i 2 : ℕ) = g := by
  rw [Rect.mem_set_unit]
  have h1 : (i 1 : ℕ) < 1024 := (i 1).isLt
  have h3 : (i 3 : ℕ) < 128 := (i 3).isLt
  constructor
  · intro hh
    have e0 := hh 0
    have e2 := hh 2
    change (b ≤ (i 0 : ℕ) ∧ (i 0 : ℕ) < b + 1) at e0
    change (g ≤ (i 2 : ℕ) ∧ (i 2 : ℕ) < g + 1) at e2
    omega
  · rintro ⟨e0, e2⟩ x
    fin_cases x
    · change (b ≤ (i 0 : ℕ) ∧ (i 0 : ℕ) < b + 1); omega
    · change (0 ≤ (i 1 : ℕ) ∧ (i 1 : ℕ) < 0 + 1024); omega
    · change (g ≤ (i 2 : ℕ) ∧ (i 2 : ℕ) < g + 1); omega
    · change (0 ≤ (i 3 : ℕ) ∧ (i 3 : ℕ) < 0 + 128); omega

theorem hbKS_set_0_0 : (hbKS 0 0).view.set = (hbR 0 0).set := by
  unfold hbKS; simp only [Memref.view_squeeze, Memref.view_slice, Memref.view_whole, View.set_reshape, View.set_slice_whole]
theorem hbKS_set_0_1 : (hbKS 0 1).view.set = (hbR 0 1).set := by
  unfold hbKS; simp only [Memref.view_squeeze, Memref.view_slice, Memref.view_whole, View.set_reshape, View.set_slice_whole]
theorem hbKS_set_1_0 : (hbKS 1 0).view.set = (hbR 1 0).set := by
  unfold hbKS; simp only [Memref.view_squeeze, Memref.view_slice, Memref.view_whole, View.set_reshape, View.set_slice_whole]
theorem hbKS_set_1_1 : (hbKS 1 1).view.set = (hbR 1 1).set := by
  unfold hbKS; simp only [Memref.view_squeeze, Memref.view_slice, Memref.view_whole, View.set_reshape, View.set_slice_whole]
theorem hbKS_set_2_0 : (hbKS 2 0).view.set = (hbR 2 0).set := by
  unfold hbKS; simp only [Memref.view_squeeze, Memref.view_slice, Memref.view_whole, View.set_reshape, View.set_slice_whole]
theorem hbKS_set_2_1 : (hbKS 2 1).view.set = (hbR 2 1).set := by
  unfold hbKS; simp only [Memref.view_squeeze, Memref.view_slice, Memref.view_whole, View.set_reshape, View.set_slice_whole]
theorem hbKS_set_3_0 : (hbKS 3 0).view.set = (hbR 3 0).set := by
  unfold hbKS; simp only [Memref.view_squeeze, Memref.view_slice, Memref.view_whole, View.set_reshape, View.set_slice_whole]
theorem hbKS_set_3_1 : (hbKS 3 1).view.set = (hbR 3 1).set := by
  unfold hbKS; simp only [Memref.view_squeeze, Memref.view_slice, Memref.view_whole, View.set_reshape, View.set_slice_whole]

abbrev hbT8 : Finset S4x1024x2x128.Idx := (hbR 3 1).set
abbrev hbT7 : Finset S4x1024x2x128.Idx := (hbR 3 0).set ∪ hbT8
abbrev hbT6 : Finset S4x1024x2x128.Idx := (hbR 2 1).set ∪ hbT7
abbrev hbT5 : Finset S4x1024x2x128.Idx := (hbR 2 0).set ∪ hbT6
abbrev hbT4 : Finset S4x1024x2x128.Idx := (hbR 1 1).set ∪ hbT5
abbrev hbT3 : Finset S4x1024x2x128.Idx := (hbR 1 0).set ∪ hbT4
abbrev hbT2 : Finset S4x1024x2x128.Idx := (hbR 0 1).set ∪ hbT3
abbrev hbT1 : Finset S4x1024x2x128.Idx := (hbR 0 0).set ∪ hbT2

theorem hb_cover : (Finset.univ : Finset S4x1024x2x128.Idx) = hbT1 := by
  ext i
  have h0 : (i 0 : ℕ) < 4 := (i 0).isLt
  have h2 : (i 2 : ℕ) < 2 := (i 2).isLt
  simp only [Finset.mem_univ, true_iff, Finset.mem_union, mem_hbR]
  omega
theorem hb_disj1 : Disjoint (hbR 0 0).set hbT2 := Finset.disjoint_left.mpr fun i hi hj => by simp only [Finset.mem_union, mem_hbR] at hi hj; omega
theorem hb_disj2 : Disjoint (hbR 0 1).set hbT3 := Finset.disjoint_left.mpr fun i hi hj => by simp only [Finset.mem_union, mem_hbR] at hi hj; omega
theorem hb_disj3 : Disjoint (hbR 1 0).set hbT4 := Finset.disjoint_left.mpr fun i hi hj => by simp only [Finset.mem_union, mem_hbR] at hi hj; omega
theorem hb_disj4 : Disjoint (hbR 1 1).set hbT5 := Finset.disjoint_left.mpr fun i hi hj => by simp only [Finset.mem_union, mem_hbR] at hi hj; omega
theorem hb_disj5 : Disjoint (hbR 2 0).set hbT6 := Finset.disjoint_left.mpr fun i hi hj => by simp only [Finset.mem_union, mem_hbR] at hi hj; omega
theorem hb_disj6 : Disjoint (hbR 2 1).set hbT7 := Finset.disjoint_left.mpr fun i hi hj => by simp only [Finset.mem_union, mem_hbR] at hi hj; omega
theorem hb_disj7 : Disjoint (hbR 3 0).set hbT8 := Finset.disjoint_left.mpr fun i hi hj => by simp only [mem_hbR] at hi hj; omega

/-- The key rows of device `c`, whole, are the eight planes, each at the same contents. -/
theorem hbK_split_eq (c : Dev nD) (f : Buf (Elt F) ((c : Thread nD τ).loc main_arg3)) :
    ((c : Thread nD τ).loc main_arg3 ↦{fullShare} f : sProp 𝕄) =
      iprop(((hbKS 0 0).view.loc (c : Thread nD τ) ↦[(hbKS 0 0).view.set]{fullShare} f) ∗ ((hbKS 0 1).view.loc (c : Thread nD τ) ↦[(hbKS 0 1).view.set]{fullShare} f)
        ∗ ((hbKS 1 0).view.loc (c : Thread nD τ) ↦[(hbKS 1 0).view.set]{fullShare} f) ∗ ((hbKS 1 1).view.loc (c : Thread nD τ) ↦[(hbKS 1 1).view.set]{fullShare} f)
        ∗ ((hbKS 2 0).view.loc (c : Thread nD τ) ↦[(hbKS 2 0).view.set]{fullShare} f) ∗ ((hbKS 2 1).view.loc (c : Thread nD τ) ↦[(hbKS 2 1).view.set]{fullShare} f)
        ∗ ((hbKS 3 0).view.loc (c : Thread nD τ) ↦[(hbKS 3 0).view.set]{fullShare} f) ∗ ((hbKS 3 1).view.loc (c : Thread nD τ) ↦[(hbKS 3 1).view.set]{fullShare} f)) := by
  show ((c : Thread nD τ).loc main_arg3 ↦[Finset.univ]{fullShare} f : sProp 𝕄) =
      iprop(((c : Thread nD τ).loc main_arg3 ↦[(hbKS 0 0).view.set]{fullShare} f) ∗ ((c : Thread nD τ).loc main_arg3 ↦[(hbKS 0 1).view.set]{fullShare} f)
        ∗ ((c : Thread nD τ).loc main_arg3 ↦[(hbKS 1 0).view.set]{fullShare} f) ∗ ((c : Thread nD τ).loc main_arg3 ↦[(hbKS 1 1).view.set]{fullShare} f)
        ∗ ((c : Thread nD τ).loc main_arg3 ↦[(hbKS 2 0).view.set]{fullShare} f) ∗ ((c : Thread nD τ).loc main_arg3 ↦[(hbKS 2 1).view.set]{fullShare} f)
        ∗ ((c : Thread nD τ).loc main_arg3 ↦[(hbKS 3 0).view.set]{fullShare} f) ∗ ((c : Thread nD τ).loc main_arg3 ↦[(hbKS 3 1).view.set]{fullShare} f))
  have hc : (Finset.univ : Finset (Idx ((c : Thread nD τ).loc main_arg3))) = hbT1 := hb_cover
  rw [hbKS_set_0_0, hbKS_set_0_1, hbKS_set_1_0, hbKS_set_1_1, hbKS_set_2_0, hbKS_set_2_1, hbKS_set_3_0, hbKS_set_3_1, hc,
    pts_union hb_disj1, pts_union hb_disj2, pts_union hb_disj3, pts_union hb_disj4, pts_union hb_disj5, pts_union hb_disj6, pts_union hb_disj7]

/-! The unstaged value rows, cut into the eight planes the local copies read: batch `b`, head `g`. -/

abbrev hbV : Memref sig .tc .hbm S4x1024x2x128 .f32 := Memref.whole main_arg4

def hbVS : Fin 4 → Fin 2 → Memref sig .tc .hbm S1024x128 .f32
  | 0, 0 => (hbV.slice (Rect.unit (s := S4x1024x2x128) ![0, 0, 0, 0] S1x1024x1x128.size inb_S4x1024x2x128_S1x1024x1x128_0_0_0_0) (fun _ => rfl)).squeeze S1024x128 squeezes_S1x1024x1x128_S1024x128
  | 0, 1 => (hbV.slice (Rect.unit (s := S4x1024x2x128) ![0, 0, 1, 0] S1x1024x1x128.size inb_S4x1024x2x128_S1x1024x1x128_0_0_1_0) (fun _ => rfl)).squeeze S1024x128 squeezes_S1x1024x1x128_S1024x128
  | 1, 0 => (hbV.slice (Rect.unit (s := S4x1024x2x128) ![1, 0, 0, 0] S1x1024x1x128.size inb_S4x1024x2x128_S1x1024x1x128_1_0_0_0) (fun _ => rfl)).squeeze S1024x128 squeezes_S1x1024x1x128_S1024x128
  | 1, 1 => (hbV.slice (Rect.unit (s := S4x1024x2x128) ![1, 0, 1, 0] S1x1024x1x128.size inb_S4x1024x2x128_S1x1024x1x128_1_0_1_0) (fun _ => rfl)).squeeze S1024x128 squeezes_S1x1024x1x128_S1024x128
  | 2, 0 => (hbV.slice (Rect.unit (s := S4x1024x2x128) ![2, 0, 0, 0] S1x1024x1x128.size inb_S4x1024x2x128_S1x1024x1x128_2_0_0_0) (fun _ => rfl)).squeeze S1024x128 squeezes_S1x1024x1x128_S1024x128
  | 2, 1 => (hbV.slice (Rect.unit (s := S4x1024x2x128) ![2, 0, 1, 0] S1x1024x1x128.size inb_S4x1024x2x128_S1x1024x1x128_2_0_1_0) (fun _ => rfl)).squeeze S1024x128 squeezes_S1x1024x1x128_S1024x128
  | 3, 0 => (hbV.slice (Rect.unit (s := S4x1024x2x128) ![3, 0, 0, 0] S1x1024x1x128.size inb_S4x1024x2x128_S1x1024x1x128_3_0_0_0) (fun _ => rfl)).squeeze S1024x128 squeezes_S1x1024x1x128_S1024x128
  | 3, 1 => (hbV.slice (Rect.unit (s := S4x1024x2x128) ![3, 0, 1, 0] S1x1024x1x128.size inb_S4x1024x2x128_S1x1024x1x128_3_0_1_0) (fun _ => rfl)).squeeze S1024x128 squeezes_S1x1024x1x128_S1024x128

theorem hbVS_set_0_0 : (hbVS 0 0).view.set = (hbR 0 0).set := by
  unfold hbVS; simp only [Memref.view_squeeze, Memref.view_slice, Memref.view_whole, View.set_reshape, View.set_slice_whole]
theorem hbVS_set_0_1 : (hbVS 0 1).view.set = (hbR 0 1).set := by
  unfold hbVS; simp only [Memref.view_squeeze, Memref.view_slice, Memref.view_whole, View.set_reshape, View.set_slice_whole]
theorem hbVS_set_1_0 : (hbVS 1 0).view.set = (hbR 1 0).set := by
  unfold hbVS; simp only [Memref.view_squeeze, Memref.view_slice, Memref.view_whole, View.set_reshape, View.set_slice_whole]
theorem hbVS_set_1_1 : (hbVS 1 1).view.set = (hbR 1 1).set := by
  unfold hbVS; simp only [Memref.view_squeeze, Memref.view_slice, Memref.view_whole, View.set_reshape, View.set_slice_whole]
theorem hbVS_set_2_0 : (hbVS 2 0).view.set = (hbR 2 0).set := by
  unfold hbVS; simp only [Memref.view_squeeze, Memref.view_slice, Memref.view_whole, View.set_reshape, View.set_slice_whole]
theorem hbVS_set_2_1 : (hbVS 2 1).view.set = (hbR 2 1).set := by
  unfold hbVS; simp only [Memref.view_squeeze, Memref.view_slice, Memref.view_whole, View.set_reshape, View.set_slice_whole]
theorem hbVS_set_3_0 : (hbVS 3 0).view.set = (hbR 3 0).set := by
  unfold hbVS; simp only [Memref.view_squeeze, Memref.view_slice, Memref.view_whole, View.set_reshape, View.set_slice_whole]
theorem hbVS_set_3_1 : (hbVS 3 1).view.set = (hbR 3 1).set := by
  unfold hbVS; simp only [Memref.view_squeeze, Memref.view_slice, Memref.view_whole, View.set_reshape, View.set_slice_whole]

/-- The value rows of device `c`, whole, are the eight planes, each at the same contents. -/
theorem hbV_split_eq (c : Dev nD) (f : Buf (Elt F) ((c : Thread nD τ).loc main_arg4)) :
    ((c : Thread nD τ).loc main_arg4 ↦{fullShare} f : sProp 𝕄) =
      iprop(((hbVS 0 0).view.loc (c : Thread nD τ) ↦[(hbVS 0 0).view.set]{fullShare} f) ∗ ((hbVS 0 1).view.loc (c : Thread nD τ) ↦[(hbVS 0 1).view.set]{fullShare} f)
        ∗ ((hbVS 1 0).view.loc (c : Thread nD τ) ↦[(hbVS 1 0).view.set]{fullShare} f) ∗ ((hbVS 1 1).view.loc (c : Thread nD τ) ↦[(hbVS 1 1).view.set]{fullShare} f)
        ∗ ((hbVS 2 0).view.loc (c : Thread nD τ) ↦[(hbVS 2 0).view.set]{fullShare} f) ∗ ((hbVS 2 1).view.loc (c : Thread nD τ) ↦[(hbVS 2 1).view.set]{fullShare} f)
        ∗ ((hbVS 3 0).view.loc (c : Thread nD τ) ↦[(hbVS 3 0).view.set]{fullShare} f) ∗ ((hbVS 3 1).view.loc (c : Thread nD τ) ↦[(hbVS 3 1).view.set]{fullShare} f)) := by
  show ((c : Thread nD τ).loc main_arg4 ↦[Finset.univ]{fullShare} f : sProp 𝕄) =
      iprop(((c : Thread nD τ).loc main_arg4 ↦[(hbVS 0 0).view.set]{fullShare} f) ∗ ((c : Thread nD τ).loc main_arg4 ↦[(hbVS 0 1).view.set]{fullShare} f)
        ∗ ((c : Thread nD τ).loc main_arg4 ↦[(hbVS 1 0).view.set]{fullShare} f) ∗ ((c : Thread nD τ).loc main_arg4 ↦[(hbVS 1 1).view.set]{fullShare} f)
        ∗ ((c : Thread nD τ).loc main_arg4 ↦[(hbVS 2 0).view.set]{fullShare} f) ∗ ((c : Thread nD τ).loc main_arg4 ↦[(hbVS 2 1).view.set]{fullShare} f)
        ∗ ((c : Thread nD τ).loc main_arg4 ↦[(hbVS 3 0).view.set]{fullShare} f) ∗ ((c : Thread nD τ).loc main_arg4 ↦[(hbVS 3 1).view.set]{fullShare} f))
  have hc : (Finset.univ : Finset (Idx ((c : Thread nD τ).loc main_arg4))) = hbT1 := hb_cover
  rw [hbVS_set_0_0, hbVS_set_0_1, hbVS_set_1_0, hbVS_set_1_1, hbVS_set_2_0, hbVS_set_2_1, hbVS_set_3_0, hbVS_set_3_1, hc,
    pts_union hb_disj1, pts_union hb_disj2, pts_union hb_disj3, pts_union hb_disj4, pts_union hb_disj5, pts_union hb_disj6, pts_union hb_disj7]

end Cert.Kernel.Proto

end
-- ==== Proof.KB.KvRel.lean ====
/-
  The local copies, named from the device's side. A device issues its sixteen copies by batch number, but waits for
  them and reads the planes by its own numbering: its `j`-th flash batch is batch `(c + j) mod 4`. Here are the copy
  semaphores, the key and value planes and the source planes in that numbering, spelt as the waits spell them, and their
  equations to the issue's spelling.
-/
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.KB.Ring
import proofs.«900754_g7700000000000755_dist_attn_cross_gqa_kvseq_b4_sq256_skv1024_d1024_hq8_dh128_v7x_i4_f32_1_alg».proof.Proof.KB.Split
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.KvSplit
import proofs.«900754_g7700000000000755_dist_attn_cross_gqa_kvseq_b4_sq256_skv1024_d1024_hq8_dh128_v7x_i4_f32_1_alg».proof.Proof.KB.HbmSplit
import proofs.«900754_g7700000000000755_dist_attn_cross_gqa_kvseq_b4_sq256_skv1024_d1024_hq8_dh128_v7x_i4_f32_1_alg».proof.Proof.KB.Data

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The device's own numbering -/

/-- The copy semaphore of the device's `j`-th flash batch. -/
def csemD (c : Dev nD) : Fin 4 → DmaSem sig
  | 0 => ((cc0_scratch22.slice (Rect.unit (s := S4) (k0_off1 c) S1.size (k0_off1_inb c))).squeeze S_ squeezes_S1_S_).sem
  | 1 => ((cc0_scratch22.slice (Rect.unit (s := S4) (k0_off17 c 1#32) S1.size (k0_off17_inb c 0))).squeeze S_ squeezes_S1_S_).sem
  | 2 => ((cc0_scratch22.slice (Rect.unit (s := S4) (k0_off17 c 2#32) S1.size (k0_off17_inb c 1))).squeeze S_ squeezes_S1_S_).sem
  | 3 => ((cc0_scratch22.slice (Rect.unit (s := S4) (k0_off17 c 3#32) S1.size (k0_off17_inb c 2))).squeeze S_ squeezes_S1_S_).sem

/-- The key (`a = 0`) or value (`a = 1`) plane of head `g` of the device's `j`-th flash batch. -/
def kvD (c : Dev nD) : Fin 4 → Fin 2 → Fin 2 → Memref sig .tc .vmem S1024x128 .f32
  | 0, 0, 0 => (kvB.slice (Rect.unit (s := S2x8x1024x128) (k0_off2 c 0#32) S1x1x1024x128.size (k0_off2_inb c 0)) (fun _ => rfl)).squeeze S1024x128 squeezes_S1x1x1024x128_S1024x128
  | 0, 0, 1 => (kvB.slice (Rect.unit (s := S2x8x1024x128) (k0_off2 c 1#32) S1x1x1024x128.size (k0_off2_inb c 1)) (fun _ => rfl)).squeeze S1024x128 squeezes_S1x1x1024x128_S1024x128
  | 0, 1, 0 => (kvB.slice (Rect.unit (s := S2x8x1024x128) (k0_off4 c 0#32) S1x1x1024x128.size (k0_off4_inb c 0)) (fun _ => rfl)).squeeze S1024x128 squeezes_S1x1x1024x128_S1024x128
  | 0, 1, 1 => (kvB.slice (Rect.unit (s := S2x8x1024x128) (k0_off4 c 1#32) S1x1x1024x128.size (k0_off4_inb c 1)) (fun _ => rfl)).squeeze S1024x128 squeezes_S1x1x1024x128_S1024x128
  | 1, 0, 0 => (kvB.slice (Rect.unit (s := S2x8x1024x128) (k0_off18 c 1#32 0#32) S1x1x1024x128.size (k0_off18_inb c 0 0)) (fun _ => rfl)).squeeze S1024x128 squeezes_S1x1x1024x128_S1024x128
  | 1, 0, 1 => (kvB.slice (Rect.unit (s := S2x8x1024x128) (k0_off18 c 1#32 1#32) S1x1x1024x128.size (k0_off18_inb c 0 1)) (fun _ => rfl)).squeeze S1024x128 squeezes_S1x1x1024x128_S1024x128
  | 1, 1, 0 => (kvB.slice (Rect.unit (s := S2x8x1024x128) (k0_off20 c 1#32 0#32) S1x1x1024x128.size (k0_off20_inb c 0 0)) (fun _ => rfl)).squeeze S1024x128 squeezes_S1x1x1024x128_S1024x128
  | 1, 1, 1 => (kvB.slice (Rect.unit (s := S2x8x1024x128) (k0_off20 c 1#32 1#32) S1x1x1024x128.size (k0_off20_inb c 0 1)) (fun _ => rfl)).squeeze S1024x128 squeezes_S1x1x1024x128_S1024x128
  | 2, 0, 0 => (kvB.slice (Rect.unit (s := S2x8x1024x128) (k0_off18 c 2#32 0#32) S1x1x1024x128.size (k0_off18_inb c 1 0)) (fun _ => rfl)).squeeze S1024x128 squeezes_S1x1x1024x128_S1024x128
  | 2, 0, 1 => (kvB.slice (Rect.unit (s := S2x8x1024x128) (k0_off18 c 2#32 1#32) S1x1x1024x128.size (k0_off18_inb c 1 1)) (fun _ => rfl)).squeeze S1024x128 squeezes_S1x1x1024x128_S1024x128
  | 2, 1, 0 => (kvB.slice (Rect.unit (s := S2x8x1024x128) (k0_off20 c 2#32 0#32) S1x1x1024x128.size (k0_off20_inb c 1 0)) (fun _ => rfl)).squeeze S1024x128 squeezes_S1x1x1024x128_S1024x128
  | 2, 1, 1 => (kvB.slice (Rect.unit (s := S2x8x1024x128) (k0_off20 c 2#32 1#32) S1x1x1024x128.size (k0_off20_inb c 1 1)) (fun _ => rfl)).squeeze S1024x128 squeezes_S1x1x1024x128_S1024x128
  | 3, 0, 0 => (kvB.slice (Rect.unit (s := S2x8x1024x128) (k0_off18 c 3#32 0#32) S1x1x1024x128.size (k0_off18_inb c 2 0)) (fun _ => rfl)).squeeze S1024x128 squeezes_S1x1x1024x128_S1024x128
  | 3, 0, 1 => (kvB.slice (Rect.unit (s := S2x8x1024x128) (k0_off18 c 3#32 1#32) S1x1x1024x128.size (k0_off18_inb c 2 1)) (fun _ => rfl)).squeeze S1024x128 squeezes_S1x1x1024x128_S1024x128
  | 3, 1, 0 => (kvB.slice (Rect.unit (s := S2x8x1024x128) (k0_off20 c 3#32 0#32) S1x1x1024x128.size (k0_off20_inb c 2 0)) (fun _ => rfl)).squeeze S1024x128 squeezes_S1x1x1024x128_S1024x128
  | 3, 1, 1 => (kvB.slice (Rect.unit (s := S2x8x1024x128) (k0_off20 c 3#32 1#32) S1x1x1024x128.size (k0_off20_inb c 2 1)) (fun _ => rfl)).squeeze S1024x128 squeezes_S1x1x1024x128_S1024x128

/-- The key rows' source plane of head `g` of the device's `j`-th flash batch, and the value rows'. -/
def hbKD (c : Dev nD) : Fin 4 → Fin 2 → Memref sig .tc .hbm S1024x128 .f32
  | 0, 0 => (hbK.slice (Rect.unit (s := S4x1024x2x128) (k0_off3 c) S1x1024x1x128.size (k0_off3_inb c)) (fun _ => rfl)).squeeze S1024x128 squeezes_S1x1024x1x128_S1024x128
  | 0, 1 => (hbK.slice (Rect.unit (s := S4x1024x2x128) (k0_off5 c) S1x1024x1x128.size (k0_off5_inb c)) (fun _ => rfl)).squeeze S1024x128 squeezes_S1x1024x1x128_S1024x128
  | 1, 0 => (hbK.slice (Rect.unit (s := S4x1024x2x128) (k0_off19 c 1#32) S1x1024x1x128.size (k0_off19_inb c 0)) (fun _ => rfl)).squeeze S1024x128 squeezes_S1x1024x1x128_S1024x128
  | 1, 1 => (hbK.slice (Rect.unit (s := S4x1024x2x128) (k0_off21 c 1#32) S1x1024x1x128.size (k0_off21_inb c 0)) (fun _ => rfl)).squeeze S1024x128 squeezes_S1x1024x1x128_S1024x128
  | 2, 0 => (hbK.slice (Rect.unit (s := S4x1024x2x128) (k0_off19 c 2#32) S1x1024x1x128.size (k0_off19_inb c 1)) (fun _ => rfl)).squeeze S1024x128 squeezes_S1x1024x1x128_S1024x128
  | 2, 1 => (hbK.slice (Rect.unit (s := S4x1024x2x128) (k0_off21 c 2#32) S1x1024x1x128.size (k0_off21_inb c 1)) (fun _ => rfl)).squeeze S1024x128 squeezes_S1x1024x1x128_S1024x128
  | 3, 0 => (hbK.slice (Rect.unit (s := S4x1024x2x128) (k0_off19 c 3#32) S1x1024x1x128.size (k0_off19_inb c 2)) (fun _ => rfl)).squeeze S1024x128 squeezes_S1x1024x1x128_S1024x128
  | 3, 1 => (hbK.slice (Rect.unit (s := S4x1024x2x128) (k0_off21 c 3#32) S1x1024x1x128.size (k0_off21_inb c 2)) (fun _ => rfl)).squeeze S1024x128 squeezes_S1x1024x1x128_S1024x128
def hbVD (c : Dev nD) : Fin 4 → Fin 2 → Memref sig .tc .hbm S1024x128 .f32
  | 0, 0 => (hbV.slice (Rect.unit (s := S4x1024x2x128) (k0_off3 c) S1x1024x1x128.size (k0_off3_inb c)) (fun _ => rfl)).squeeze S1024x128 squeezes_S1x1024x1x128_S1024x128
  | 0, 1 => (hbV.slice (Rect.unit (s := S4x1024x2x128) (k0_off5 c) S1x1024x1x128.size (k0_off5_inb c)) (fun _ => rfl)).squeeze S1024x128 squeezes_S1x1024x1x128_S1024x128
  | 1, 0 => (hbV.slice (Rect.unit (s := S4x1024x2x128) (k0_off19 c 1#32) S1x1024x1x128.size (k0_off19_inb c 0)) (fun _ => rfl)).squeeze S1024x128 squeezes_S1x1024x1x128_S1024x128
  | 1, 1 => (hbV.slice (Rect.unit (s := S4x1024x2x128) (k0_off21 c 1#32) S1x1024x1x128.size (k0_off21_inb c 0)) (fun _ => rfl)).squeeze S1024x128 squeezes_S1x1024x1x128_S1024x128
  | 2, 0 => (hbV.slice (Rect.unit (s := S4x1024x2x128) (k0_off19 c 2#32) S1x1024x1x128.size (k0_off19_inb c 1)) (fun _ => rfl)).squeeze S1024x128 squeezes_S1x1024x1x128_S1024x128
  | 2, 1 => (hbV.slice (Rect.unit (s := S4x1024x2x128) (k0_off21 c 2#32) S1x1024x1x128.size (k0_off21_inb c 1)) (fun _ => rfl)).squeeze S1024x128 squeezes_S1x1024x1x128_S1024x128
  | 3, 0 => (hbV.slice (Rect.unit (s := S4x1024x2x128) (k0_off19 c 3#32) S1x1024x1x128.size (k0_off19_inb c 2)) (fun _ => rfl)).squeeze S1024x128 squeezes_S1x1024x1x128_S1024x128
  | 3, 1 => (hbV.slice (Rect.unit (s := S4x1024x2x128) (k0_off21 c 3#32) S1x1024x1x128.size (k0_off21_inb c 2)) (fun _ => rfl)).squeeze S1024x128 squeezes_S1x1024x1x128_S1024x128

/-! ## The semaphores are the issue's, permuted -/

/-- The `j`-th batch's semaphore is copy semaphore `(c + j) mod 4`, the 41st DMA semaphore onwards. -/
theorem csemD_val : ∀ (c : Dev nD) (j : Fin 4), (csemD c j).val = 40 + (c.val + j.val) % 4 := by decide +kernel
theorem copySem_val : ∀ b : Fin 4, (copySem b).val = 40 + b.val := by decide +kernel
theorem csemD_eq (c : Dev nD) (j : Fin 4) (b : Fin 4) (hb : b.val = (c.val + j.val) % 4) : csemD c j = copySem b :=
  Fin.ext (by rw [csemD_val, copySem_val, hb])

/-! ## The planes are the issue's, permuted -/

/-- The batch the device's `j`-th flash batch is, and the plane its head `g` has in the buffer. -/
def bIdx (c : Dev nD) (j : Fin 4) : Fin 4 := ⟨(c.val + j.val) % 4, Nat.mod_lt _ (by decide)⟩
def rIdx (c : Dev nD) (j : Fin 4) (g : Fin 2) : Fin 8 := ⟨2 * ((c.val + j.val) % 4) + g.val, by have := Nat.mod_lt (c.val + j.val) (by decide : 0 < 4); have := g.isLt; omega⟩

theorem csemD_eq_copySem (c : Dev nD) (j : Fin 4) : csemD c j = copySem (bIdx c j) := csemD_eq c j _ rfl

/-- Device by device, batch by batch: the offsets the waits compute are the literal offsets of the issue. -/
theorem kvD_eq (c : Dev nD) (j : Fin 4) (a g : Fin 2) : kvD c j a g = kvS a (rIdx c j g) := by
  fin_cases c <;> fin_cases j <;> fin_cases a <;> fin_cases g <;>
    exact congrArg (fun m => Memref.squeeze m S1024x128 squeezes_S1x1x1024x128_S1024x128) (slice_unit_congr kvB _ _ (by decide +kernel))
theorem hbKD_eq (c : Dev nD) (j : Fin 4) (g : Fin 2) : hbKD c j g = hbKS (bIdx c j) g := by
  fin_cases c <;> fin_cases j <;> fin_cases g <;>
    exact congrArg (fun m => Memref.squeeze m S1024x128 squeezes_S1x1024x1x128_S1024x128) (slice_unit_congr hbK _ _ (by decide +kernel))
theorem hbVD_eq (c : Dev nD) (j : Fin 4) (g : Fin 2) : hbVD c j g = hbVS (bIdx c j) g := by
  fin_cases c <;> fin_cases j <;> fin_cases g <;>
    exact congrArg (fun m => Memref.squeeze m S1024x128 squeezes_S1x1024x1x128_S1024x128) (slice_unit_congr hbV _ _ (by decide +kernel))

/-! ## The four batches, re-numbered -/

/-- A plane of the key and value buffer at given offsets. -/
def kvPl (off : Fin 4 → ℕ) (inb : ∀ x, off x + S1x1x1024x128.size x ≤ S2x8x1024x128.size x) : Memref sig .tc .vmem S1024x128 .f32 :=
  (kvB.slice (Rect.unit (s := S2x8x1024x128) off S1x1x1024x128.size inb) (fun _ => rfl)).squeeze S1024x128 squeezes_S1x1x1024x128_S1024x128

/-- The rows a local copy carries. -/
abbrev CpVal (F : FTy → Type) [FloatOps F] : Type := (Rect.whole S1024x128).shape.Idx → Elt F .f32

variable (c : Dev nD) (f5 : Buf (Elt F) ((c : Thread nD τ).loc cc0_scratch5)) (m : (ℓ : Loc nD τ sig) → Buf (Elt F) ℓ)

/-- What a finished local copy delivers: its plane at the rows written over the old contents, and the share `q` of the source it read with. -/
def cpDeliv (q : PosShare TreeShare) (off : Fin 4 → ℕ) (inb : ∀ x, off x + S1x1x1024x128.size x ≤ S2x8x1024x128.size x) (src : Memref sig .tc .hbm S1024x128 .f32) (v : CpVal F) : sProp 𝕄 :=
  iprop(((kvPl off inb).view.loc (c : Thread nD τ) ↦[(kvPl off inb).view.set]{fullShare} (kvPl off inb).view.writes (Elt F) f5 [⟨Rect.whole S1024x128, v⟩])
    ∗ (src.view.loc (c : Thread nD τ) ↦[src.view.set]{q} m (src.view.loc (c : Thread nD τ))))

theorem cpDeliv_congr {q : PosShare TreeShare} {off off' : Fin 4 → ℕ} {inb inb'} {src src' : Memref sig .tc .hbm S1024x128 .f32} {v v' : CpVal F}
    (h : off = off') (hs : src = src') (hv : v = v') : cpDeliv c f5 m q off inb src v = cpDeliv c f5 m q off' inb' src' v' := by
  subst h; subst hs; subst hv; rfl

/-- A batch of four copies on one semaphore, all issued, none waited for. The first three read their source with half
    the share (the other half stays with the device); the fourth, the last of its source array's use in the batch, with all of it. -/
def cpBatch (sem : DmaSem sig) (D0 D1 D2 D3 : sProp 𝕄) : sProp 𝕄 :=
  Transfers.Batched countersEmb (c : Thread nD τ) (SemLoc.dma sem) default 16384 4 [D0, D1, D2, D3] 0

theorem cpBatch_congr {sem sem' : DmaSem sig} {D0 D1 D2 D3 D0' D1' D2' D3' : sProp 𝕄} (hs : sem = sem') (h0 : D0 = D0') (h1 : D1 = D1') (h2 : D2 = D2') (h3 : D3 = D3') :
    cpBatch (F := F) c sem D0 D1 D2 D3 = cpBatch c sem' D0' D1' D2' D3' := by
  subst hs; subst h0; subst h1; subst h2; subst h3; rfl

variable (vals : Fin 16 → CpVal F)

/-- Batch `b` as issued: semaphore `b`, the key and value planes `2b`, `2b + 1`, from batch `b`'s source planes, the values in issue order. -/
def batL : Fin 4 → sProp 𝕄
  | 0 => cpBatch c (copySem 0)
      (cpDeliv c f5 m fullShare.right ![0, 0, 0, 0] inb_S2x8x1024x128_S1x1x1024x128_0_0_0_0 (hbKS 0 0) (vals 0)) (cpDeliv c f5 m fullShare.right ![1, 0, 0, 0] inb_S2x8x1024x128_S1x1x1024x128_1_0_0_0 (hbVS 0 0) (vals 1))
      (cpDeliv c f5 m fullShare.right ![0, 1, 0, 0] inb_S2x8x1024x128_S1x1x1024x128_0_1_0_0 (hbKS 0 1) (vals 2)) (cpDeliv c f5 m fullShare ![1, 1, 0, 0] inb_S2x8x1024x128_S1x1x1024x128_1_1_0_0 (hbVS 0 1) (vals 3))
  | 1 => cpBatch c (copySem 1)
      (cpDeliv c f5 m fullShare.right ![0, 2, 0, 0] inb_S2x8x1024x128_S1x1x1024x128_0_2_0_0 (hbKS 1 0) (vals 4)) (cpDeliv c f5 m fullShare.right ![1, 2, 0, 0] inb_S2x8x1024x128_S1x1x1024x128_1_2_0_0 (hbVS 1 0) (vals 5))
      (cpDeliv c f5 m fullShare.right ![0, 3, 0, 0] inb_S2x8x1024x128_S1x1x1024x128_0_3_0_0 (hbKS 1 1) (vals 6)) (cpDeliv c f5 m fullShare ![1, 3, 0, 0] inb_S2x8x1024x128_S1x1x1024x128_1_3_0_0 (hbVS 1 1) (vals 7))
  | 2 => cpBatch c (copySem 2)
      (cpDeliv c f5 m fullShare.right ![0, 4, 0, 0] inb_S2x8x1024x128_S1x1x1024x128_0_4_0_0 (hbKS 2 0) (vals 8)) (cpDeliv c f5 m fullShare.right ![1, 4, 0, 0] inb_S2x8x1024x128_S1x1x1024x128_1_4_0_0 (hbVS 2 0) (vals 9))
      (cpDeliv c f5 m fullShare.right ![0, 5, 0, 0] inb_S2x8x1024x128_S1x1x1024x128_0_5_0_0 (hbKS 2 1) (vals 10)) (cpDeliv c f5 m fullShare ![1, 5, 0, 0] inb_S2x8x1024x128_S1x1x1024x128_1_5_0_0 (hbVS 2 1) (vals 11))
  | 3 => cpBatch c (copySem 3)
      (cpDeliv c f5 m fullShare.right ![0, 6, 0, 0] inb_S2x8x1024x128_S1x1x1024x128_0_6_0_0 (hbKS 3 0) (vals 12)) (cpDeliv c f5 m fullShare.right ![1, 6, 0, 0] inb_S2x8x1024x128_S1x1x1024x128_1_6_0_0 (hbVS 3 0) (vals 13))
      (cpDeliv c f5 m fullShare.right ![0, 7, 0, 0] inb_S2x8x1024x128_S1x1x1024x128_0_7_0_0 (hbKS 3 1) (vals 14)) (cpDeliv c f5 m fullShare ![1, 7, 0, 0] inb_S2x8x1024x128_S1x1x1024x128_1_7_0_0 (hbVS 3 1) (vals 15))

/-- Which issued copy the `i`-th copy of the device's `j`-th batch is. -/
def vIdx (j : Fin 4) (i : Fin 4) : Fin 16 := ⟨4 * ((c.val + j.val) % 4) + i.val, by have := Nat.mod_lt (c.val + j.val) (by decide : 0 < 4); have := i.isLt; omega⟩

/-- The device's `j`-th batch, as its waits name it. -/
def batD : Fin 4 → sProp 𝕄
  | 0 => cpBatch c (csemD c 0)
      (cpDeliv c f5 m fullShare.right (k0_off2 c 0#32) (k0_off2_inb c 0) (hbKD c 0 0) (vals (vIdx c 0 0))) (cpDeliv c f5 m fullShare.right (k0_off4 c 0#32) (k0_off4_inb c 0) (hbVD c 0 0) (vals (vIdx c 0 1)))
      (cpDeliv c f5 m fullShare.right (k0_off2 c 1#32) (k0_off2_inb c 1) (hbKD c 0 1) (vals (vIdx c 0 2))) (cpDeliv c f5 m fullShare (k0_off4 c 1#32) (k0_off4_inb c 1) (hbVD c 0 1) (vals (vIdx c 0 3)))
  | 1 => cpBatch c (csemD c 1)
      (cpDeliv c f5 m fullShare.right (k0_off18 c 1#32 0#32) (k0_off18_inb c 0 0) (hbKD c 1 0) (vals (vIdx c 1 0))) (cpDeliv c f5 m fullShare.right (k0_off20 c 1#32 0#32) (k0_off20_inb c 0 0) (hbVD c 1 0) (vals (vIdx c 1 1)))
      (cpDeliv c f5 m fullShare.right (k0_off18 c 1#32 1#32) (k0_off18_inb c 0 1) (hbKD c 1 1) (vals (vIdx c 1 2))) (cpDeliv c f5 m fullShare (k0_off20 c 1#32 1#32) (k0_off20_inb c 0 1) (hbVD c 1 1) (vals (vIdx c 1 3)))
  | 2 => cpBatch c (csemD c 2)
      (cpDeliv c f5 m fullShare.right (k0_off18 c 2#32 0#32) (k0_off18_inb c 1 0) (hbKD c 2 0) (vals (vIdx c 2 0))) (cpDeliv c f5 m fullShare.right (k0_off20 c 2#32 0#32) (k0_off20_inb c 1 0) (hbVD c 2 0) (vals (vIdx c 2 1)))
      (cpDeliv c f5 m fullShare.right (k0_off18 c 2#32 1#32) (k0_off18_inb c 1 1) (hbKD c 2 1) (vals (vIdx c 2 2))) (cpDeliv c f5 m fullShare (k0_off20 c 2#32 1#32) (k0_off20_inb c 1 1) (hbVD c 2 1) (vals (vIdx c 2 3)))
  | 3 => cpBatch c (csemD c 3)
      (cpDeliv c f5 m fullShare.right (k0_off18 c 3#32 0#32) (k0_off18_inb c 2 0) (hbKD c 3 0) (vals (vIdx c 3 0))) (cpDeliv c f5 m fullShare.right (k0_off20 c 3#32 0#32) (k0_off20_inb c 2 0) (hbVD c 3 0) (vals (vIdx c 3 1)))
      (cpDeliv c f5 m fullShare.right (k0_off18 c 3#32 1#32) (k0_off18_inb c 2 1) (hbKD c 3 1) (vals (vIdx c 3 2))) (cpDeliv c f5 m fullShare (k0_off20 c 3#32 1#32) (k0_off20_inb c 2 1) (hbVD c 3 1) (vals (vIdx c 3 3)))

/-- The device's `j`-th batch is issued batch `(c + j) mod 4`. -/
theorem batD_eq (j : Fin 4) : batD c f5 m vals j = batL c f5 m vals (bIdx c j) := by
  fin_cases c <;> fin_cases j <;>
    exact cpBatch_congr _ (csemD_eq_copySem _ _)
      (cpDeliv_congr _ _ _ (by decide +kernel) (hbKD_eq _ _ _) rfl) (cpDeliv_congr _ _ _ (by decide +kernel) (hbVD_eq _ _ _) rfl)
      (cpDeliv_congr _ _ _ (by decide +kernel) (hbKD_eq _ _ _) rfl) (cpDeliv_congr _ _ _ (by decide +kernel) (hbVD_eq _ _ _) rfl)

/-- The four batches as issued are the four batches as the device numbers them: a rotation by the device's number. -/
theorem batches_rel :
    iprop(batL c f5 m vals 0 ∗ batL c f5 m vals 1 ∗ batL c f5 m vals 2 ∗ batL c f5 m vals 3)
      ⊢ iprop(batD c f5 m vals 0 ∗ batD c f5 m vals 1 ∗ batD c f5 m vals 2 ∗ batD c f5 m vals 3) := by
  rw [batD_eq, batD_eq, batD_eq, batD_eq]
  iintro ⟨H0, H1, H2, H3⟩
  fin_cases c
  · isplitl [H0]; · iexact H0
    isplitl [H1]; · iexact H1
    isplitl [H2]; · iexact H2
    iexact H3
  · isplitl [H1]; · iexact H1
    isplitl [H2]; · iexact H2
    isplitl [H3]; · iexact H3
    iexact H0
  · isplitl [H2]; · iexact H2
    isplitl [H3]; · iexact H3
    isplitl [H0]; · iexact H0
    iexact H1
  · isplitl [H3]; · iexact H3
    isplitl [H0]; · iexact H0
    isplitl [H1]; · iexact H1
    iexact H2

end Cert.Kernel.Proto

end
-- ==== Proof.KB.TailSpec.lean ====
/-
  The cut between the body's merge steps and its tail, and what the body owes at its end.

  At the cut device `c` has made every payment but the gathering's six transfers; the twelve transfers of the reduction
  are closed. It holds: the staged arguments as it found them; the result block's buffer with block `q = c + 1` at the first
  output term; the projected `Wo`; the last hop's landing slices of the numerators and denominators at what its
  neighbours sent; the two halves of its own block of the gathered result; and, for each of the six transfers to come,
  its two positions, the two duty tokens it pays with, the credit of its own receive cell, and the neighbour's landing
  slice. At the end it hands back the scratch buffers, every semaphore of its own at zero, the two unstaged arrays as
  they were, the staged arguments as it found them and the result block.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.Within
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.Gen.Kernel.Frame
import proofs.«900754_g7700000000000755_dist_attn_cross_gqa_kvseq_b4_sq256_skv1024_d1024_hq8_dh128_v7x_i4_f32_1_alg».proof.Proof.Gen.Kernel.Points

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A whole buffer at contents `f`, spelt through the whole buffer's memref. -/
abbrev wholeAt (c : Dev nD) (b : Ref sig .tc) (f : Buf (Elt F) ((c : Thread nD τ).loc b)) : sProp 𝕄 :=
  (Memref.whole b).view.loc (c : Thread nD τ) ↦[(Memref.whole b).view.set]{fullShare} f

/-- The gathering's six payments, in the program's order. -/
def gProg : List Pay := [.xfer .g false 0, .xfer .g true 0, .xfer .g false 1, .xfer .g true 1, .xfer .g false 2, .xfer .g true 2]

/-- What device `c` holds of the gathering's transfer in direction `l` at hop `h` before it enqueues it: its positions at the
    transfer's two cells, the tokens of the two duties it pays, the credit of its own receive cell, the neighbour's landing
    slice at some contents, and that round 0 of the two cells it pays is reached. -/
def gXfer (c : Dev nD) (l : Bool) (h : Fin 3) : sProp 𝕄 :=
  iprop(atPos ER (sendCell c .g l h) 0 ∅ 0 ∗ atPos ER (recvCell c .g l h) 0 ∅ 0
    ∗ dutyTok ER (sendCell c .g l h) 0 false ∗ dutyTok ER (recvCell (toDev c l) .g l h) 0 false
    ∗ cred (tallyAt (recvCell c .g l h) () (amt .g))
    ∗ held (toDev c l) (agS c h l)
    ∗ reached ER (sendCell c .g l h) 0 ∗ reached ER (recvCell (toDev c l) .g l h) 0)

/-- The two cells of a closed transfer, their counters at zero. -/
def closedX (c : Dev nD) (k : Kind) (l : Bool) (h : Fin 3) : sProp 𝕄 :=
  iprop(semVal (sendCell c k l h) 0 ∗ semVal (recvCell c k l h) 0)

variable (m : (ℓ : Loc nD τ sig) → Buf (Elt F) ℓ)

/-- What device `c` holds at the cut, at the names `K` and with the waits `W` recorded. -/
def AtTail (c : Dev nD) (K : Names) (W : Waits sig Unit) : sProp 𝕄 :=
  iprop(invs (KFun.V m) K c ∗ levAts L lv
    ∗ owes (c : Thread nD τ) (owedOf c gProg) W
    ∗ (gXfer c false 0 ∗ gXfer c true 0 ∗ gXfer c false 1 ∗ gXfer c true 1 ∗ gXfer c false 2 ∗ gXfer c true 2)
    ∗ (closedX c .o false 0 ∗ closedX c .l false 0 ∗ closedX c .o true 0 ∗ closedX c .l true 0
      ∗ closedX c .o false 1 ∗ closedX c .o true 1 ∗ closedX c .l false 1 ∗ closedX c .l true 1
      ∗ closedX c .o false 2 ∗ closedX c .o true 2 ∗ closedX c .l false 2 ∗ closedX c .l true 2)
    ∗ copySems0 c ∗ hbm m c
    -- the staged arguments, as the body found them
    ∗ wholeAt c cc0_stg0_0 ((dats (KFun.V m) m KFun.Kout 0 c).after 0 t0_0)
    ∗ wholeAt c cc0_stg1_0 ((dats (KFun.V m) m KFun.Kout 0 c).after 1 t0_0)
    ∗ wholeAt c cc0_stg2_0 ((dats (KFun.V m) m KFun.Kout 0 c).after 2 t0_0)
    -- the result block's buffer: block q = c + 1 at the first output term
    ∗ (∃ g3 : Buf (Elt F) ((c : Thread nD τ).loc cc0_stg3_0), wholeAt c cc0_stg3_0 g3
        ∗ ⌜((Memref.whole cc0_stg3_0 : Memref sig .tc .vmem S4x256x1024 .f32).access (rOwn c)).read (Elt F) g3 = KFun.acc0 m c⌝)
    -- the other scratch buffers that are held whole
    ∗ wholeEx c cc0_scratch4 ∗ wholeEx c cc0_scratch5 ∗ wholeEx c cc0_scratch6 ∗ wholeEx c cc0_scratch7
    ∗ wholeAt c cc0_scratch8 (KFun.wob m c) ∗ wholeEx c cc0_scratch9
    -- the partial sums, by half blocks
    ∗ (held c (locHalfO c 0 false) ∗ held c (locHalfO c 0 true) ∗ held c (locHalfO c 1 false) ∗ held c (locHalfO c 1 true)
      ∗ held c (locHalfO c 2 false) ∗ held c (locHalfO c 2 true) ∗ held c (locHalfO c 3 false) ∗ held c (locHalfO c 3 true))
    ∗ (held c (locHalfL c 0 false) ∗ held c (locHalfL c 0 true) ∗ held c (locHalfL c 1 false) ∗ held c (locHalfL c 1 true)
      ∗ held c (locHalfL c 2 false) ∗ held c (locHalfL c 2 true) ∗ held c (locHalfL c 3 false) ∗ held c (locHalfL c 3 true))
    -- the ring's landing slices: the last hop's at what the neighbours sent, the earlier hops' at some contents
    ∗ heldAs c (dstO 2 false) (fun t => KFun.voC m 3 c false (⟨(t 0).val, (t 0).isLt⟩ : Fin 4) (⟨(t 1).val, (t 1).isLt⟩ : Fin 128) (⟨(t 2).val, (t 2).isLt⟩ : Fin 256))
    ∗ heldAs c (dstO 2 true) (fun t => KFun.voC m 3 c true (⟨(t 0).val, (t 0).isLt⟩ : Fin 4) (⟨(t 1).val, (t 1).isLt⟩ : Fin 128) (⟨(t 2).val, (t 2).isLt⟩ : Fin 256))
    ∗ held c (dstO 0 false) ∗ held c (dstO 0 true) ∗ held c (dstO 1 false) ∗ held c (dstO 1 true)
    ∗ heldAs c (dstL 2 false) (fun t => KFun.vlC m 3 c false (⟨(t 0).val, (t 0).isLt⟩ : Fin 4) (⟨(t 2).val, (t 2).isLt⟩ : Fin 256))
    ∗ heldAs c (dstL 2 true) (fun t => KFun.vlC m 3 c true (⟨(t 0).val, (t 0).isLt⟩ : Fin 4) (⟨(t 2).val, (t 2).isLt⟩ : Fin 256))
    ∗ held c (dstL 0 false) ∗ held c (dstL 0 true) ∗ held c (dstL 1 false) ∗ held c (dstL 1 true)
    -- the two halves of the own block of the gathered result, at one contents
    ∗ (∃ f : Buf (Elt F) ((c : Thread nD τ).loc cc0_scratch23),
        ((agS c 0 false).view.loc (c : Thread nD τ) ↦[(agS c 0 false).view.set]{fullShare} f)
        ∗ ((agS c 0 true).view.loc (c : Thread nD τ) ↦[(agS c 0 true).view.set]{fullShare} f)))

/-- What the body hands back at its end. -/
def bodyPost (c : Dev nD) : sProp 𝕄 :=
  iprop(Φ₁ m c ∗ (dats (KFun.V m) m KFun.Kout 0 c).owesAt () t0_0.succ
    ∗ (∃ f, ⌜f = (dats (KFun.V m) m KFun.Kout 0 c).after 0 t0_0⌝ ∗ (c : Thread nD τ).loc cc0_stg0_0 ↦{fullShare} f)
    ∗ (∃ f, ⌜f = (dats (KFun.V m) m KFun.Kout 0 c).after 1 t0_0⌝ ∗ (c : Thread nD τ).loc cc0_stg1_0 ↦{fullShare} f)
    ∗ (∃ f, ⌜f = (dats (KFun.V m) m KFun.Kout 0 c).after 2 t0_0⌝ ∗ (c : Thread nD τ).loc cc0_stg2_0 ↦{fullShare} f)
    ∗ ∃ f, ⌜f = (dats (KFun.V m) m KFun.Kout 0 c).after 3 t0_0⌝ ∗ (c : Thread nD τ).loc cc0_stg3_0 ↦{fullShare} f)

end Cert.Kernel.Proto

end
-- ==== Proof.KB.Cut15.lean ====
/-
  The cut before the body's first flash loop.

  At the cut device `c` has paid its two barrier units (handing its neighbours its landing slices of the ring's stage
  buffers and six half blocks of the gathered result) and nothing else; all eighteen transfers are untouched. It holds: the
  barrier cell's credit and position; the staged arguments as it found them; the projected weights; the projected queries
  of batch `c`, heads 0–6, stored (head 7 is the cut's first statement); the key and value planes of batch `c`
  copied and cast; the sixteen local copies issued, batch `c`'s waited for, the other three in flight; the per-device
  partial sums' buffers as four blocks each, at any contents; the two halves of its own block of the gathered result.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.Within
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.KB.KvRel
import proofs.«900754_g7700000000000755_dist_attn_cross_gqa_kvseq_b4_sq256_skv1024_d1024_hq8_dh128_v7x_i4_f32_1_alg».proof.Proof.KB.TailSpec
import proofs.«900754_g7700000000000755_dist_attn_cross_gqa_kvseq_b4_sq256_skv1024_d1024_hq8_dh128_v7x_i4_f32_1_alg».proof.Proof.Gen.Kernel.Frame
import proofs.«900754_g7700000000000755_dist_attn_cross_gqa_kvseq_b4_sq256_skv1024_d1024_hq8_dh128_v7x_i4_f32_1_alg».proof.Proof.Gen.Kernel.Points

noncomputable section

namespace Cert.Kernel.Proto

open Cert.Kernel Cert.Kernel.Gen Cert.Kernel.Ring

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What device `c` holds of a transfer it has not enqueued and whose landing slice at the neighbour it has not been
    handed yet: its positions at the transfer's two cells, the tokens of the two duties it pays, the credit of its own
    receive cell, and that round 0 of its own two cells is reached. -/
def freshX (c : Dev nD) (k : Kind) (l : Bool) (h : Fin 3) : sProp 𝕄 :=
  iprop(atPos ER (sendCell c k l h) 0 ∅ 0 ∗ atPos ER (recvCell c k l h) 0 ∅ 0
    ∗ dutyTok ER (sendCell c k l h) 0 false ∗ dutyTok ER (recvCell (toDev c l) k l h) 0 false
    ∗ cred (tallyAt (recvCell c k l h) () (amt k))
    ∗ reached ER (sendCell c k l h) 0 ∗ reached ER (recvCell c k l h) 0)

variable (m : (ℓ : Loc nD τ sig) → Buf (Elt F) ℓ)

/-- The index words the earlier parts hand on: the barrier semaphore and the projected queries of batch `c`. (The three
    position words enter the later parts only through the generated offset chains, which are functions of the device.) -/
def words15 (c : Dev nD) (v26 : Sems sig S_) (v226 : FVec F S256x1024 .f32) : Prop :=
  v26 = SemArray.scalar (sig.barrier 0 rfl) ∧ v226 = KFun.qb m c c

/-- The device's batches 3 and 1 in flight, under names of their own: they are waited for after batch 2. -/
def later3 (c : Dev nD) (f5 : Buf (Elt F) ((c : Thread nD τ).loc cc0_scratch5)) (vals : Fin 16 → CpVal F) : sProp 𝕄 := batD c f5 m vals 3
def later1 (c : Dev nD) (f5 : Buf (Elt F) ((c : Thread nD τ).loc cc0_scratch5)) (vals : Fin 16 → CpVal F) : sProp 𝕄 := batD c f5 m vals 1

/-- The local copies at the cut: batch `c` (the device's batch 0) waited for — its four planes at any contents
    (their rows are cast already), the parts of its source planes its copies took, its semaphore at zero —; the device's batches 1, 2, 3 in flight. The
    sources' shares are the run's: a copy reads with the right half (the last of a batch with the whole), the left half stays. -/
def kvCut15 (c : Dev nD) : sProp 𝕄 :=
  iprop(∃ (f5 : Buf (Elt F) ((c : Thread nD τ).loc cc0_scratch5)) (vals : Fin 16 → CpVal F),
    ⌜∀ (j : Fin 4) (g : Fin 2), vals (vIdx c j ⟨2 * g.val, by omega⟩) = (hbKD c j g).view.read (Elt F) (m ((hbKD c j g).view.loc (c : Thread nD τ)))
        ∧ vals (vIdx c j ⟨2 * g.val + 1, by omega⟩) = (hbVD c j g).view.read (Elt F) (m ((hbVD c j g).view.loc (c : Thread nD τ)))⌝
    ∗ (batD c f5 m vals 2 ∗ later3 m c f5 vals ∗ later1 m c f5 vals)
    -- the device's batch 0, waited for: its four planes (the casts have read them; nothing reads them again) and what its
    -- copies took of their source planes
    ∗ (held c (kvD c 0 0 0) ∗ held c (kvD c 0 1 0) ∗ held c (kvD c 0 0 1) ∗ held c (kvD c 0 1 1))
    ∗ (((hbKD c 0 0).view.loc (c : Thread nD τ) ↦[(hbKD c 0 0).view.set]{fullShare.right} m ((hbKD c 0 0).view.loc (c : Thread nD τ)))
      ∗ ((hbVD c 0 0).view.loc (c : Thread nD τ) ↦[(hbVD c 0 0).view.set]{fullShare.right} m ((hbVD c 0 0).view.loc (c : Thread nD τ)))
      ∗ ((hbKD c 0 1).view.loc (c : Thread nD τ) ↦[(hbKD c 0 1).view.set]{fullShare.right} m ((hbKD c 0 1).view.loc (c : Thread nD τ)))
      ∗ ((hbVD c 0 1).view.loc (c : Thread nD τ) ↦[(hbVD c 0 1).view.set]{fullShare} m ((hbVD c 0 1).view.loc (c : Thread nD τ))))
    ∗ semVal (((c : Thread nD τ), .dma (csemD c 0)) : GSem nD τ sig) 0
    -- the halves of the source planes the copies did not take
    ∗ (bigSep Finset.univ fun j : Fin 4 =>
        iprop(((hbKD c j 0).view.loc (c : Thread nD τ) ↦[(hbKD c j 0).view.set]{fullShare.left} m ((hbKD c j 0).view.loc (c : Thread nD τ)))
          ∗ ((hbVD c j 0).view.loc (c : Thread nD τ) ↦[(hbVD c j 0).view.set]{fullShare.left} m ((hbVD c j 0).view.loc (c : Thread nD τ)))
          ∗ ((hbKD c j 1).view.loc (c : Thread nD τ) ↦[(hbKD c j 1).view.set]{fullShare.left} m ((hbKD c j 1).view.loc (c : Thread nD τ))))))

/-- What device `c` holds at the cut, at the names `K` and with the waits `W` recorded. -/
def At15 (c : Dev nD) (K : Names) (W : Waits sig Unit) (v26 : Sems sig S_) (v226 : FVec F S256x1024 .f32) : sProp 𝕄 :=
  iprop(invs (KFun.V m) K c ∗ levAts L lv
    ∗ ⌜words15 m c v26 v226⌝
    ∗ owes (c : Thread nD τ) (owedOf c (prog.drop 2)) W
    -- the barrier cell: both neighbours' units are owed to it
    ∗ cred (tallyAt (barCell c) () 2) ∗ atPos ER (barCell c) 0 ∅ 0
    -- the eighteen transfers, none enqueued
    ∗ (bigSep Finset.univ fun x : Xfer => freshX c x.1 x.2.1 x.2.2)
    -- the staged arguments, as the body found them, and the result block's buffer
    ∗ wholeAt c cc0_stg0_0 ((dats (KFun.V m) m KFun.Kout 0 c).after 0 t0_0)
    ∗ wholeAt c cc0_stg1_0 ((dats (KFun.V m) m KFun.Kout 0 c).after 1 t0_0)
    ∗ wholeAt c cc0_stg2_0 ((dats (KFun.V m) m KFun.Kout 0 c).after 2 t0_0)
    ∗ wholeEx c cc0_stg3_0
    -- the projected queries: batch c's heads 0–6 stored
    ∗ (∃ f4 : Buf (Elt F) ((c : Thread nD τ).loc cc0_scratch4), wholeAt c cc0_scratch4 f4
        ∗ ⌜∀ (h : Fin 8), h.val < 7 → ∀ (i : Fin 256) (d : Fin 128),
            f4 (ix3 (⟨8 * c.val + h.val, by have := c.isLt; have : c.val < 4 := c.isLt; omega⟩ : Fin 32) i d) = KFun.q2 m c c h (ix3 0 i d)⌝)
    ∗ wholeEx c cc0_scratch6
    ∗ wholeAt c cc0_scratch7 (KFun.wqb m c) ∗ wholeAt c cc0_scratch8 (KFun.wob m c)
    -- the narrowed key and value planes: batch c's four cast
    ∗ (∃ f9 : Buf (Elt F) ((c : Thread nD τ).loc cc0_scratch9), wholeAt c cc0_scratch9 f9
        ∗ ⌜∀ (g : Fin 2) (j : Fin 1024) (d : Fin 128),
            f9 (ix4 (0 : Fin 2) (⟨2 * c.val + g.val, by have : c.val < 4 := c.isLt; omega⟩ : Fin 8) j d) = KFun.kh m c c g (ix4 0 0 j d)
            ∧ f9 (ix4 (1 : Fin 2) (⟨2 * c.val + g.val, by have : c.val < 4 := c.isLt; omega⟩ : Fin 8) j d) = KFun.vh m c c g (ix4 0 0 j d)⌝)
    -- the local copies
    ∗ kvCut15 m c
    -- the partial sums' buffers, by blocks
    ∗ (bigSep Finset.univ fun j : Fin 4 => held c (locBlkO c j))
    ∗ (bigSep Finset.univ fun j : Fin 4 => held c (locBlkL c j))
    -- the two halves of the own block of the gathered result, at one contents
    ∗ (∃ f : Buf (Elt F) ((c : Thread nD τ).loc cc0_scratch23),
        ((agS c 0 false).view.loc (c : Thread nD τ) ↦[(agS c 0 false).view.set]{fullShare} f)
        ∗ ((agS c 0 true).view.loc (c : Thread nD τ) ↦[(agS c 0 true).view.set]{fullShare} f)))

end Cert.Kernel.Proto

end
-- ==== Proof.KB.Cut27.lean ====
/-
  The cut before the first merge.

  Device c has paid both barrier units and enqueued the four copies of hop 0 (numerators and denominators, to the right
  and to the left); it has waited for its barrier. It holds: both positions and both credits of each of those four
  copies, none waited for yet; for each of the four copies of hop 1, its two positions, the two duty tokens it pays with,
  the credit of its own receive cell and the neighbour's landing slice; the two halves of block 3 (batch c − 1) of its
  partial numerators and of its partial denominators, at the rows the flash step of that batch computed; and whatever
  else it holds, which the steps up to the next cut do not touch (R).
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.LocSplit

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

namespace C27

/-- A copy under way, not yet waited for: the device's positions at its two cells and the credit of both. -/
def sentX (c : Dev nD) (k : Kind) (l : Bool) (h : Fin 3) : sProp 𝕄 :=
  iprop(atPos ER (sendCell c k l h) 0 ∅ 0 ∗ atPos ER (recvCell c k l h) 0 ∅ 0
    ∗ cred (tallyAt (sendCell c k l h) () (amt k)) ∗ cred (tallyAt (recvCell c k l h) () (amt k)))

/-- What device c holds of the numerators' copy in direction l at hop h before it enqueues it: its positions at the copy's
    two cells, the tokens of the two duties it pays, the credit of its own receive cell, the neighbour's landing slice at
    some contents, and that round 0 of the two cells it pays is reached. -/
def freshO (c : Dev nD) (l : Bool) (h : Fin 3) : sProp 𝕄 :=
  iprop(atPos ER (sendCell c .o l h) 0 ∅ 0 ∗ atPos ER (recvCell c .o l h) 0 ∅ 0
    ∗ dutyTok ER (sendCell c .o l h) 0 false ∗ dutyTok ER (recvCell (toDev c l) .o l h) 0 false
    ∗ cred (tallyAt (recvCell c .o l h) () (amt .o))
    ∗ held (toDev c l) (dstO h l)
    ∗ reached ER (sendCell c .o l h) 0 ∗ reached ER (recvCell (toDev c l) .o l h) 0)
/-- The same for the denominators' copy. -/
def freshL (c : Dev nD) (l : Bool) (h : Fin 3) : sProp 𝕄 :=
  iprop(atPos ER (sendCell c .l l h) 0 ∅ 0 ∗ atPos ER (recvCell c .l l h) 0 ∅ 0
    ∗ dutyTok ER (sendCell c .l l h) 0 false ∗ dutyTok ER (recvCell (toDev c l) .l l h) 0 false
    ∗ cred (tallyAt (recvCell c .l l h) () (amt .l))
    ∗ held (toDev c l) (dstL h l)
    ∗ reached ER (sendCell c .l l h) 0 ∗ reached ER (recvCell (toDev c l) .l l h) 0)

/-- Block 3 of the partial numerators (batch c − 1) as its two halves, at one contents whose eight rows are that batch's
    flash outputs, head by head. -/
def blk3O (c : Dev nD) : sProp 𝕄 :=
  iprop(∃ f : Buf (Elt F) ((c : Thread nD τ).loc cc0_scratch0),
    ((locHalfO c 3 false).view.loc (c : Thread nD τ) ↦[(locHalfO c 3 false).view.set]{fullShare} f)
    ∗ ((locHalfO c 3 true).view.loc (c : Thread nD τ) ↦[(locHalfO c 3 true).view.set]{fullShare} f)
    ∗ ⌜∀ (k : Fin 8) (d : Fin 128) (i : Fin 256),
        f (ix3 (⟨8 * ((c.val + 3) % 4) + k.val, by omega⟩ : Fin 32) d i) = KFun.ot m c (prv c) k (ix3 0 d i)⌝)
/-- and of the partial denominators. -/
def blk3L (c : Dev nD) : sProp 𝕄 :=
  iprop(∃ f : Buf (Elt F) ((c : Thread nD τ).loc cc0_scratch1),
    ((locHalfL c 3 false).view.loc (c : Thread nD τ) ↦[(locHalfL c 3 false).view.set]{fullShare} f)
    ∗ ((locHalfL c 3 true).view.loc (c : Thread nD τ) ↦[(locHalfL c 3 true).view.set]{fullShare} f)
    ∗ ⌜∀ (k : Fin 8) (i : Fin 256),
        f (ix3 (⟨8 * ((c.val + 3) % 4) + k.val, by omega⟩ : Fin 32) (0 : Fin 1) i) = KFun.lrow m c (prv c) k (ix3 0 0 i)⌝)

/-- The two cells of a closed copy, their counters at zero. -/
def closedX (c : Dev nD) (k : Kind) (l : Bool) (h : Fin 3) : sProp 𝕄 :=
  iprop(semVal (sendCell c k l h) 0 ∗ semVal (recvCell c k l h) 0)

end C27

open C27 in
/-- What device c holds at the cut, at the names K and with the waits W recorded; R is what it holds besides and the steps
    to the next cut leave alone; d0, v2, v14, v25 are the index words the earlier steps hand on (d0 is the device). -/
def At27 (c : Dev nD) (K : Names) (W : Waits sig Unit) (R : sProp 𝕄) (d0 : Dev nD) (v2 v14 v25 : BitVec 32) : sProp 𝕄 :=
  iprop(⌜d0 = c⌝ ∗ invs (KFun.V m) K c ∗ levAts L lv
    ∗ owes (c : Thread nD τ) (owedOf c (prog.drop 6)) W
    ∗ (sentX c .o false 0 ∗ sentX c .l false 0 ∗ sentX c .o true 0 ∗ sentX c .l true 0)
    ∗ (freshO c false 1 ∗ freshO c true 1 ∗ freshL c false 1 ∗ freshL c true 1)
    ∗ blk3O m c ∗ blk3L m c
    ∗ R)

open C27 in
/-- What the steps from that cut to the next leave, at the waits W' and with the same R: the four copies of hop 0 closed, their
    four source half blocks back as they were sent; the landing slices of hop 0 merged with block 3's rows and sent on,
    so the four copies of hop 1 are under way; block 3's halves as they were. The two words r are what the steps hand on. -/
def Post32 (c : Dev nD) (K : Names) (W' : Waits sig Unit) (R : sProp 𝕄) (r : Σ' (_ : BitVec 32), BitVec 32) : sProp 𝕄 :=
  iprop(invs (KFun.V m) K c ∗ levAts L lv
    ∗ owes (c : Thread nD τ) (owedOf c (prog.drop 10)) W'
    ∗ (closedX c .o false 0 ∗ closedX c .l false 0 ∗ closedX c .o true 0 ∗ closedX c .l true 0)
    ∗ (sentX c .o false 1 ∗ sentX c .o true 1 ∗ sentX c .l false 1 ∗ sentX c .l true 1)
    ∗ (sendPay (KFun.V m) c .o false 0 ∗ sendPay (KFun.V m) c .l false 0 ∗ sendPay (KFun.V m) c .o true 0 ∗ sendPay (KFun.V m) c .l true 0)
    ∗ blk3O m c ∗ blk3L m c
    ∗ R)

end Cert.Kernel.Proto

end
-- ==== Proof.KB.Rest27.lean ====
/-
  What device `c` holds at the cut after its third flash loop besides what the next steps touch.

  The barrier is waited for; the neighbours' landing slices of the last hop and of the gathering are in hand; the
  transfers of hop 2 and of the gathering are untouched; the staged arguments, the projected weights and the work buffers
  are whole; of the sixteen local copies the device's batches 0, 2, 3 are waited for and batch 1 is in flight; of the
  partial sums, the halves lent to the hop-0 copies are away, the other half of block 0 (batch `c`, heads 4–7) and of
  block 2 (batch `c + 2`, heads 0–3) hold their flash outputs, block 1 is untouched.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.Within
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.KB.KvRel
import proofs.«900754_g7700000000000755_dist_attn_cross_gqa_kvseq_b4_sq256_skv1024_d1024_hq8_dh128_v7x_i4_f32_1_alg».proof.Proof.KB.TailSpec
import proofs.«900754_g7700000000000755_dist_attn_cross_gqa_kvseq_b4_sq256_skv1024_d1024_hq8_dh128_v7x_i4_f32_1_alg».proof.Proof.KB.Cut15
import proofs.«900754_g7700000000000755_dist_attn_cross_gqa_kvseq_b4_sq256_skv1024_d1024_hq8_dh128_v7x_i4_f32_1_alg».proof.Proof.KB.Cut27
import proofs.«900754_g7700000000000755_dist_attn_cross_gqa_kvseq_b4_sq256_skv1024_d1024_hq8_dh128_v7x_i4_f32_1_alg».proof.Proof.Gen.Kernel.Frame
import proofs.«900754_g7700000000000755_dist_attn_cross_gqa_kvseq_b4_sq256_skv1024_d1024_hq8_dh128_v7x_i4_f32_1_alg».proof.Proof.Gen.Kernel.Points

noncomputable section

namespace Cert.Kernel.Proto

open Cert.Kernel Cert.Kernel.Gen Cert.Kernel.Ring

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device's batch `j` of local copies waited for: its four planes at any contents (their rows are cast), what its
    copies took of their source planes, its semaphore at zero. -/
def drained (c : Dev nD) (j : Fin 4) : sProp 𝕄 :=
  iprop((held c (kvD c j 0 0) ∗ held c (kvD c j 1 0) ∗ held c (kvD c j 0 1) ∗ held c (kvD c j 1 1))
    ∗ (((hbKD c j 0).view.loc (c : Thread nD τ) ↦[(hbKD c j 0).view.set]{fullShare.right} m ((hbKD c j 0).view.loc (c : Thread nD τ)))
      ∗ ((hbVD c j 0).view.loc (c : Thread nD τ) ↦[(hbVD c j 0).view.set]{fullShare.right} m ((hbVD c j 0).view.loc (c : Thread nD τ)))
      ∗ ((hbKD c j 1).view.loc (c : Thread nD τ) ↦[(hbKD c j 1).view.set]{fullShare.right} m ((hbKD c j 1).view.loc (c : Thread nD τ)))
      ∗ ((hbVD c j 1).view.loc (c : Thread nD τ) ↦[(hbVD c j 1).view.set]{fullShare} m ((hbVD c j 1).view.loc (c : Thread nD τ))))
    ∗ semVal (((c : Thread nD τ), .dma (csemD c j)) : GSem nD τ sig) 0)

/-- The neighbours' landing slices still in hand: the last hop's and the gathering's, with round 0 of their receive cells reached. -/
def nbrSlices (c : Dev nD) : sProp 𝕄 :=
  iprop(held (nxt c) (dstO 2 false) ∗ held (nxt c) (dstL 2 false) ∗ held (prv c) (dstO 2 true) ∗ held (prv c) (dstL 2 true)
    ∗ held (nxt c) (agS c 0 false) ∗ held (nxt c) (agS c 1 false) ∗ held (nxt c) (agS c 2 false)
    ∗ held (prv c) (agS c 0 true) ∗ held (prv c) (agS c 1 true) ∗ held (prv c) (agS c 2 true)
    ∗ reached ER (recvCell (nxt c) .o false 2) 0 ∗ reached ER (recvCell (nxt c) .l false 2) 0
    ∗ reached ER (recvCell (prv c) .o true 2) 0 ∗ reached ER (recvCell (prv c) .l true 2) 0
    ∗ reached ER (recvCell (nxt c) .g false 0) 0 ∗ reached ER (recvCell (nxt c) .g false 1) 0 ∗ reached ER (recvCell (nxt c) .g false 2) 0
    ∗ reached ER (recvCell (prv c) .g true 0) 0 ∗ reached ER (recvCell (prv c) .g true 1) 0 ∗ reached ER (recvCell (prv c) .g true 2) 0)

/-- Half `hb` of block `j` of the partial numerators at contents whose four rows are the flash outputs of batch `b`, heads
    `hb·4 … hb·4 + 3`; and of the partial denominators. -/
def halfRowsO (c : Dev nD) (j : Fin 4) (hb : Bool) (b : Fin 4) : sProp 𝕄 :=
  iprop(∃ f : Buf (Elt F) ((c : Thread nD τ).loc cc0_scratch0),
    ((locHalfO c j hb).view.loc (c : Thread nD τ) ↦[(locHalfO c j hb).view.set]{fullShare} f)
    ∗ ⌜∀ (k : Fin 4) (d : Fin 128) (i : Fin 256),
        f (ix3 (⟨halfRow c j hb + k.val, by have := halfRow_le c j hb; omega⟩ : Fin 32) d i) = KFun.ot m c b (KFun.headAt hb k) (ix3 0 d i)⌝)
def halfRowsL (c : Dev nD) (j : Fin 4) (hb : Bool) (b : Fin 4) : sProp 𝕄 :=
  iprop(∃ f : Buf (Elt F) ((c : Thread nD τ).loc cc0_scratch1),
    ((locHalfL c j hb).view.loc (c : Thread nD τ) ↦[(locHalfL c j hb).view.set]{fullShare} f)
    ∗ ⌜∀ (k : Fin 4) (i : Fin 256),
        f (ix3 (⟨halfRow c j hb + k.val, by have := halfRow_le c j hb; omega⟩ : Fin 32) (0 : Fin 1) i) = KFun.lrow m c b (KFun.headAt hb k) (ix3 0 0 i)⌝)

/-- The rest of the state at the cut. -/
def Rest27 (c : Dev nD) : sProp 𝕄 :=
  iprop(atPos ER (barCell c) 1 ∅ 0
    -- hop 2 and the gathering: untouched
    ∗ (freshX c .o false 2 ∗ freshX c .o true 2 ∗ freshX c .l false 2 ∗ freshX c .l true 2)
    ∗ (freshX c .g false 0 ∗ freshX c .g true 0 ∗ freshX c .g false 1 ∗ freshX c .g true 1 ∗ freshX c .g false 2 ∗ freshX c .g true 2)
    ∗ nbrSlices c
    -- the staged arguments, the result block's buffer, the projected weights, the work buffers
    ∗ wholeAt c cc0_stg0_0 ((dats (KFun.V m) m KFun.Kout 0 c).after 0 t0_0)
    ∗ wholeAt c cc0_stg1_0 ((dats (KFun.V m) m KFun.Kout 0 c).after 1 t0_0)
    ∗ wholeAt c cc0_stg2_0 ((dats (KFun.V m) m KFun.Kout 0 c).after 2 t0_0)
    ∗ wholeEx c cc0_stg3_0
    ∗ wholeAt c cc0_scratch7 (KFun.wqb m c) ∗ wholeAt c cc0_scratch8 (KFun.wob m c)
    ∗ (∃ f : Buf (Elt F) ((c : Thread nD τ).loc cc0_scratch4), wholeAt c cc0_scratch4 f)
    ∗ (∃ f : Buf (Elt F) ((c : Thread nD τ).loc cc0_scratch6), wholeAt c cc0_scratch6 f)
    ∗ (∃ f : Buf (Elt F) ((c : Thread nD τ).loc cc0_scratch9), wholeAt c cc0_scratch9 f)
    -- the local copies: batch 1 in flight, the others waited for, and the halves of the source planes the copies did not take
    ∗ (∃ (f5 : Buf (Elt F) ((c : Thread nD τ).loc cc0_scratch5)) (vals : Fin 16 → CpVal F),
        ⌜∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))⌝
        ∗ later1 m c f5 vals)
    ∗ drained m c 0 ∗ drained m c 2 ∗ drained m c 3
    ∗ (bigSep Finset.univ fun j : Fin 4 =>
        iprop(((hbKD c j 0).view.loc (c : Thread nD τ) ↦[(hbKD c j 0).view.set]{fullShare.left} m ((hbKD c j 0).view.loc (c : Thread nD τ)))
          ∗ ((hbVD c j 0).view.loc (c : Thread nD τ) ↦[(hbVD c j 0).view.set]{fullShare.left} m ((hbVD c j 0).view.loc (c : Thread nD τ)))
          ∗ ((hbKD c j 1).view.loc (c : Thread nD τ) ↦[(hbKD c j 1).view.set]{fullShare.left} m ((hbKD c j 1).view.loc (c : Thread nD τ)))))
    -- the partial sums: the halves not lent, and block 1
    ∗ halfRowsO m c 0 true c ∗ halfRowsL m c 0 true c
    ∗ halfRowsO m c 2 false (nxt (nxt c)) ∗ halfRowsL m c 2 false (nxt (nxt c))
    ∗ held c (locBlkO c 1) ∗ held c (locBlkL c 1)
    -- the two halves of the own block of the gathered result, at one contents
    ∗ (∃ f : Buf (Elt F) ((c : Thread nD τ).loc cc0_scratch23),
        ((agS c 0 false).view.loc (c : Thread nD τ) ↦[(agS c 0 false).view.set]{fullShare} f)
        ∗ ((agS c 0 true).view.loc (c : Thread nD τ) ↦[(agS c 0 true).view.set]{fullShare} f)))

end Cert.Kernel.Proto

end
-- ==== Proof.KB.Cut40.lean ====
/-
  The cut before the last merge of the reduction's second hop.

  At the cut device `c` has made its two barrier payments and the eight transfers of hops 0 and 1, all closed; the four
  transfers of hop 2 and the gathering's six are still to come. The right-going half of hop 1 is merged (it is what hop 2
  sends to the right); the left-going half is received and not yet merged. The device's own landing slices of hop 2 are
  with its neighbours until their transfers land.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.Within
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.Gen.Kernel.Frame
import proofs.«900754_g7700000000000755_dist_attn_cross_gqa_kvseq_b4_sq256_skv1024_d1024_hq8_dh128_v7x_i4_f32_1_alg».proof.Proof.Gen.Kernel.Points
import proofs.«900754_g7700000000000755_dist_attn_cross_gqa_kvseq_b4_sq256_skv1024_d1024_hq8_dh128_v7x_i4_f32_1_alg».proof.Proof.KB.TailSpec

noncomputable section

namespace Cert.Kernel.Proto

open Cert.Kernel Cert.Kernel.Gen Cert.Kernel.Ring

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What device `c` holds of the numerators' transfer in direction `l` at hop `h` before it enqueues it: its positions
    at the transfer's two cells, the tokens of the two duties it pays, the credit of its own receive cell, the neighbour's
    landing slice at some contents, and that round 0 of the two cells it pays is reached. -/
def oXfer (c : Dev nD) (l : Bool) (h : Fin 3) : sProp 𝕄 :=
  iprop(atPos ER (sendCell c .o l h) 0 ∅ 0 ∗ atPos ER (recvCell c .o l h) 0 ∅ 0
    ∗ dutyTok ER (sendCell c .o l h) 0 false ∗ dutyTok ER (recvCell (toDev c l) .o l h) 0 false
    ∗ cred (tallyAt (recvCell c .o l h) () (amt .o))
    ∗ held (toDev c l) (dstO h l)
    ∗ reached ER (sendCell c .o l h) 0 ∗ reached ER (recvCell (toDev c l) .o l h) 0)
/-- The same of the denominators' transfer. -/
def lXfer (c : Dev nD) (l : Bool) (h : Fin 3) : sProp 𝕄 :=
  iprop(atPos ER (sendCell c .l l h) 0 ∅ 0 ∗ atPos ER (recvCell c .l l h) 0 ∅ 0
    ∗ dutyTok ER (sendCell c .l l h) 0 false ∗ dutyTok ER (recvCell (toDev c l) .l l h) 0 false
    ∗ cred (tallyAt (recvCell c .l l h) () (amt .l))
    ∗ held (toDev c l) (dstL h l)
    ∗ reached ER (sendCell c .l l h) 0 ∗ reached ER (recvCell (toDev c l) .l l h) 0)

variable (m : (ℓ : Loc nD τ sig) → Buf (Elt F) ℓ)

/-- The device's own partial numerators of batch `b`, heads 0–3 (`hb = false`) or 4–7, as a half block reads. -/
def halfOt (c b : Dev nD) (hb : Bool) : S4x128x256.Idx → Elt F .bf16 :=
  fun t => KFun.ot m c b (KFun.headAt hb (⟨(t 0).val, (t 0).isLt⟩ : Fin 4)) (ix3 0 (⟨(t 1).val, (t 1).isLt⟩ : Fin 128) (⟨(t 2).val, (t 2).isLt⟩ : Fin 256))
/-- and its partial denominators. -/
def halfLr (c b : Dev nD) (hb : Bool) : S4x1x256.Idx → Elt F .f32 :=
  fun t => KFun.lrow m c b (KFun.headAt hb (⟨(t 0).val, (t 0).isLt⟩ : Fin 4)) (ix3 0 0 (⟨(t 2).val, (t 2).isLt⟩ : Fin 256))

/-- What device `c` holds before the last merge of hop 1, at the names `K` and with the waits `W` recorded. -/
def At40 (c : Dev nD) (K : Names) (W : Waits sig Unit) : sProp 𝕄 :=
  iprop(invs (KFun.V m) K c ∗ levAts L lv
    ∗ owes (c : Thread nD τ) (owedOf c (prog.drop 10)) W
    ∗ (oXfer c false 2 ∗ oXfer c true 2 ∗ lXfer c false 2 ∗ lXfer c true 2)
    ∗ (gXfer c false 0 ∗ gXfer c true 0 ∗ gXfer c false 1 ∗ gXfer c true 1 ∗ gXfer c false 2 ∗ gXfer c true 2)
    ∗ (closedX c .o false 0 ∗ closedX c .l false 0 ∗ closedX c .o true 0 ∗ closedX c .l true 0
      ∗ closedX c .o false 1 ∗ closedX c .o true 1 ∗ closedX c .l false 1 ∗ closedX c .l true 1)
    ∗ copySems0 c ∗ hbm m c
    -- the staged arguments, as the body found them; the result block's buffer at some contents
    ∗ wholeAt c cc0_stg0_0 ((dats (KFun.V m) m KFun.Kout 0 c).after 0 t0_0)
    ∗ wholeAt c cc0_stg1_0 ((dats (KFun.V m) m KFun.Kout 0 c).after 1 t0_0)
    ∗ wholeAt c cc0_stg2_0 ((dats (KFun.V m) m KFun.Kout 0 c).after 2 t0_0)
    ∗ wholeEx c cc0_stg3_0
    -- the other scratch buffers that are held whole
    ∗ wholeEx c cc0_scratch4 ∗ wholeEx c cc0_scratch5 ∗ wholeEx c cc0_scratch6 ∗ wholeEx c cc0_scratch7
    ∗ wholeAt c cc0_scratch8 (KFun.wob m c) ∗ wholeEx c cc0_scratch9
    -- the partial sums, by half blocks: those the three merges to come read, at the device's own partial sums of
    -- batches c (heads 4–7) and c + 1 (all heads); the others at some contents
    ∗ (held c (locHalfO c 0 false) ∗ heldAs c (locHalfO c 0 true) (halfOt m c c true)
      ∗ heldAs c (locHalfO c 1 false) (halfOt m c (nxt c) false) ∗ heldAs c (locHalfO c 1 true) (halfOt m c (nxt c) true)
      ∗ held c (locHalfO c 2 false) ∗ held c (locHalfO c 2 true) ∗ held c (locHalfO c 3 false) ∗ held c (locHalfO c 3 true))
    ∗ (held c (locHalfL c 0 false) ∗ heldAs c (locHalfL c 0 true) (halfLr m c c true)
      ∗ heldAs c (locHalfL c 1 false) (halfLr m c (nxt c) false) ∗ heldAs c (locHalfL c 1 true) (halfLr m c (nxt c) true)
      ∗ held c (locHalfL c 2 false) ∗ held c (locHalfL c 2 true) ∗ held c (locHalfL c 3 false) ∗ held c (locHalfL c 3 true))
    -- the ring's landing slices: hop 0's back at some contents; hop 1's right-going half merged (what hop 2 sends),
    -- its left-going half as the right neighbour sent it
    ∗ held c (dstO 0 false) ∗ held c (dstO 0 true)
    ∗ heldAs c (dstO 1 false) ((KFun.V m).o c 2 false) ∗ heldAs c (dstO 1 true) ((KFun.V m).o (nxt c) 1 true)
    ∗ held c (dstL 0 false) ∗ held c (dstL 0 true)
    ∗ heldAs c (dstL 1 false) ((KFun.V m).l c 2 false) ∗ heldAs c (dstL 1 true) ((KFun.V m).l (nxt c) 1 true)
    -- the two halves of the own block of the gathered result, at one contents
    ∗ (∃ f : Buf (Elt F) ((c : Thread nD τ).loc cc0_scratch23),
        ((agS c 0 false).view.loc (c : Thread nD τ) ↦[(agS c 0 false).view.set]{fullShare} f)
        ∗ ((agS c 0 true).view.loc (c : Thread nD τ) ↦[(agS c 0 true).view.set]{fullShare} f)))

end Cert.Kernel.Proto
end
-- ==== Proof.KB.Cut32.lean ====
/-
  The cut before the flash step of the last batch.
  At the cut device `c` has made its two barrier payments, the four transfers of hop 0, all closed, and the four of hop 1,
  enqueued and not yet waited for: their sources, the landing slices of hop 0, are with the engine. The four transfers of
  hop 2 and the gathering's six are still to come. Three of the four batches of local copies are drained; the batch the
  coming flash step reads, `c + 1`, is in flight. The partial sums of batches `c`, `c + 2`, `c + 3` are computed, those of
  batch `c + 1` are not. The state is stated in two parts: what the steps to the next cut use, and the rest, which they
  leave alone and the next cut lists again.
-/
import proofs.«900754_g7700000000000755_dist_attn_cross_gqa_kvseq_b4_sq256_skv1024_d1024_hq8_dh128_v7x_i4_f32_1_alg».proof.Proof.KB.TailSpec
import proofs.«900754_g7700000000000755_dist_attn_cross_gqa_kvseq_b4_sq256_skv1024_d1024_hq8_dh128_v7x_i4_f32_1_alg».proof.Proof.KB.Cut40
import proofs.«900754_g7700000000000755_dist_attn_cross_gqa_kvseq_b4_sq256_skv1024_d1024_hq8_dh128_v7x_i4_f32_1_alg».proof.Proof.KB.KvRel
import proofs.«900754_g7700000000000755_dist_attn_cross_gqa_kvseq_b4_sq256_skv1024_d1024_hq8_dh128_v7x_i4_f32_1_alg».proof.Proof.KB.Rest27

noncomputable section

namespace Cert.Kernel.Proto

open Cert.Kernel Cert.Kernel.Gen Cert.Kernel.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

namespace C32

/-- A transfer under way, not yet waited for: the device's positions at its two cells and the credit of both. -/
def sentX (c : Dev nD) (k : Kind) (l : Bool) (h : Fin 3) : sProp 𝕄 :=
  iprop(atPos ER (sendCell c k l h) 0 ∅ 0 ∗ atPos ER (recvCell c k l h) 0 ∅ 0
    ∗ cred (tallyAt (sendCell c k l h) () (amt k)) ∗ cred (tallyAt (recvCell c k l h) () (amt k)))

variable (m : (ℓ : Loc nD τ sig) → Buf (Elt F) ℓ)

/-- The halves of the source planes the copies did not take. -/
def leftHalves (c : Dev nD) : sProp 𝕄 :=
  bigSep Finset.univ fun j : Fin 4 =>
    iprop(((hbKD c j 0).view.loc (c : Thread nD τ) ↦[(hbKD c j 0).view.set]{fullShare.left} m ((hbKD c j 0).view.loc (c : Thread nD τ)))
      ∗ ((hbVD c j 0).view.loc (c : Thread nD τ) ↦[(hbVD c j 0).view.set]{fullShare.left} m ((hbVD c j 0).view.loc (c : Thread nD τ)))
      ∗ ((hbKD c j 1).view.loc (c : Thread nD τ) ↦[(hbKD c j 1).view.set]{fullShare.left} m ((hbKD c j 1).view.loc (c : Thread nD τ))))

/-- The local copies at the cut: the device's batch 1 (batch `c + 1`) in flight, carrying the launch memory's key rows and
    value rows; its batches 0, 2 and 3 waited for; the halves of the source planes the copies did not take. -/
def kvCut32 (c : Dev nD) : sProp 𝕄 :=
  iprop((∃ (f5 : Buf (Elt F) ((c : Thread nD τ).loc cc0_scratch5)) (vals : Fin 16 → CpVal F),
        ⌜∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))⌝
        ∗ later1 m c f5 vals)
    ∗ drained m c 0 ∗ drained m c 2 ∗ drained m c 3
    ∗ leftHalves m c)

/-- The local copies once all four batches are waited for. -/
def kvDone (c : Dev nD) : sProp 𝕄 :=
  iprop(drained m c 0 ∗ drained m c 1 ∗ drained m c 2 ∗ drained m c 3 ∗ leftHalves m c)

end C32

open C32

variable (m : (ℓ : Loc nD τ sig) → Buf (Elt F) ℓ)

/-- What the steps from this cut to the next use, at the names `K` and with the waits `W` recorded: the four transfers of
    hop 1 under way; the local copies; the staged activations and the projected `Wq` the projection reads; the buffers of
    the projected queries, of the exponentials and of the narrowed planes, at some contents; the block of the partial sums
    the flash step writes, at some contents, and the half blocks the merge of hop 1 reads, at the device's own partial sums
    of batch `c + 2`, heads 0–3. -/
def Foot32 (c : Dev nD) (K : Names) (W : Waits sig Unit) : sProp 𝕄 :=
  iprop(invs (KFun.V m) K c ∗ levAts L lv
    ∗ owes (c : Thread nD τ) (owedOf c (prog.drop 10)) W
    ∗ (sentX c .o false 1 ∗ sentX c .o true 1 ∗ sentX c .l false 1 ∗ sentX c .l true 1)
    ∗ kvCut32 m c
    ∗ wholeAt c cc0_stg0_0 ((dats (KFun.V m) m KFun.Kout 0 c).after 0 t0_0)
    ∗ (∃ f : Buf (Elt F) ((c : Thread nD τ).loc cc0_scratch4), wholeAt c cc0_scratch4 f)
    ∗ (∃ f : Buf (Elt F) ((c : Thread nD τ).loc cc0_scratch6), wholeAt c cc0_scratch6 f)
    ∗ wholeAt c cc0_scratch7 (KFun.wqb m c)
    ∗ (∃ f : Buf (Elt F) ((c : Thread nD τ).loc cc0_scratch9), wholeAt c cc0_scratch9 f)
    ∗ held c (locBlkO c 1) ∗ held c (locBlkL c 1)
    ∗ halfRowsO m c 2 false (nxt (nxt c)) ∗ halfRowsL m c 2 false (nxt (nxt c)))

/-- What device `c` holds besides, untouched until the next cut: the transfers to come, the closed ones, the other staged
    arguments and the result block's buffer, the projected `Wo`, the other half blocks of the partial sums, and the two
    halves of its own block of the gathered result. -/
def Rest32 (c : Dev nD) : sProp 𝕄 :=
  iprop((oXfer c false 2 ∗ oXfer c true 2 ∗ lXfer c false 2 ∗ lXfer c true 2)
    ∗ (gXfer c false 0 ∗ gXfer c true 0 ∗ gXfer c false 1 ∗ gXfer c true 1 ∗ gXfer c false 2 ∗ gXfer c true 2)
    ∗ (closedX c .o false 0 ∗ closedX c .l false 0 ∗ closedX c .o true 0 ∗ closedX c .l true 0)
    ∗ wholeAt c cc0_stg1_0 ((dats (KFun.V m) m KFun.Kout 0 c).after 1 t0_0)
    ∗ wholeAt c cc0_stg2_0 ((dats (KFun.V m) m KFun.Kout 0 c).after 2 t0_0)
    ∗ wholeEx c cc0_stg3_0
    ∗ wholeAt c cc0_scratch8 (KFun.wob m c)
    ∗ (held c (locHalfO c 0 false) ∗ heldAs c (locHalfO c 0 true) (halfOt m c c true)
      ∗ held c (locHalfO c 2 true) ∗ held c (locHalfO c 3 false) ∗ held c (locHalfO c 3 true))
    ∗ (held c (locHalfL c 0 false) ∗ heldAs c (locHalfL c 0 true) (halfLr m c c true)
      ∗ held c (locHalfL c 2 true) ∗ held c (locHalfL c 3 false) ∗ held c (locHalfL c 3 true))
    ∗ (∃ f : Buf (Elt F) ((c : Thread nD τ).loc cc0_scratch23),
        ((agS c 0 false).view.loc (c : Thread nD τ) ↦[(agS c 0 false).view.set]{fullShare} f)
        ∗ ((agS c 0 true).view.loc (c : Thread nD τ) ↦[(agS c 0 true).view.set]{fullShare} f)))

/-- What device `c` holds at the cut; `R` is what it holds besides and the steps to the next cut leave alone (`Rest32`
    for the whole state); `d0` is the device, as the earlier steps hand it on. -/
def At32 (c : Dev nD) (K : Names) (W : Waits sig Unit) (R : sProp 𝕄) (d0 : Dev nD) : sProp 𝕄 :=
  iprop(⌜d0 = c⌝ ∗ Foot32 m c K W ∗ R)

end Cert.Kernel.Proto

end
-- ==== Proof.KB.OpSend.lean ====
/-
  The send rule at the ring's cells.

  A device's transfer of one kind, in one direction, at one hop: it hands in its source slice (whose contents read as the
  value the schedule names), the neighbour's landing slice at whatever it holds, the send duty's token on its own cell and
  the receive duty's on the neighbour's, with round 0 reached at both, and pays the receive credit off what it owes.  The
  send duty's payload is the source slice as it was; the receive duty's is the landing slice overwritten everywhere by what
  the source read as, which therefore reads as the same value, and the neighbour receives from the device it came from.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import Idealize.ShloMosaic.Lib.Rounds
import Idealize.ShloMosaic.Lib.Pipeline.Launch
import Idealize.ShloMosaic.Lib.Pipeline.Kit

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A transfer's receiver gets it from the device that sent it. -/
theorem fromDev_toDev (c : Dev nD) (l : Bool) : fromDev (toDev c l) l = c := by
  cases l
  · exact prv_nxt c
  · exact nxt_prv c

variable (V : Vals F)

/-- The send rule at the ring's cells, for a transfer of kind `kd` in direction `l` at hop `h`, whatever its source and
    landing slices are: given that the schedule's payloads of the two cells are the source slice held at `w` and the landing
    slice held at `w`, and that the source reads as `w`, the enqueue hands in the source, the landing slice at any contents,
    the two duties' tokens and rounds, and the receive credit off what the device owes; the send cell's credit comes back. -/
theorem wp_send_gen (kd : Kind) {s : Shape} {e : EltTy} (c : Dev nD) (l : Bool) (h : Fin 3)
    (src dst : Memref sig .tc .vmem s e) (w : s.Idx → Elt F e)
    (hN : dst.view.amount (.dma (recvSem kd l h)) = amt kd)
    (hps : sendPay V c kd l h = heldAs c src w)
    (hpr : recvPay V (toDev c l) kd l h = heldAs (toDev c l) dst w)
    {hsc : (dst : Memref sig (Dev.tc (toDev c l) : Thread nD τ).2.kind .vmem s e).view.ref.isScScratch = false}
    {hsrc : src.view.WordExact} {hdst : dst.view.WordExact}
    {hsem : DmaTarget.Typed .vmem (.dma (recvSem kd l h)) (.remote (Dev.tc (toDev c l) : Thread nD τ) dst (.dma (sendSem kd l h)) hsc)}
    {α : Type} {Q : α → sProp 𝕄} {k : PUnit → Prog (TpuEff nD τ sig (Elt F) Λ₀ .tc) α}
    (fs : Buf (Elt F) (src.view.loc (c : Thread nD τ))) (hfs : src.view.read (Elt F) fs = w)
    (ps : List Pay) (W : Waits sig Unit) (κ₁ κ₂ : ℕ) :
    iprop(cellInv ER (ringRd V) κ₁ (sendCell c kd l h) ∗ cellInv ER (ringRd V) κ₂ (recvCell (toDev c l) kd l h)
        ∗ (src.view.loc (c : Thread nD τ) ↦[src.view.set]{fullShare} fs) ∗ held (F := F) (toDev c l) dst
        ∗ owes (c : Thread nD τ) (owedOf c (.xfer kd l h :: ps)) W
        ∗ dutyTok ER (sendCell c kd l h) 0 false ∗ reached ER (sendCell c kd l h) 0
        ∗ dutyTok ER (recvCell (toDev c l) kd l h) 0 false ∗ reached ER (recvCell (toDev c l) kd l h) 0)
      ⊢ iprop(((cred (tallyAt (sendCell c kd l h) () (amt kd)) ∗ owes (c : Thread nD τ) (owedOf c ps) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (toDev c l) : Thread nD τ) dst (.dma (sendSem kd l h)) hsc) (.dma (recvSem kd l h)) hsrc hdst hsem) k) Q) := by
  unfold held
  iintro ⟨Hg₁, Hg₂, Hsrc, ⟨%fd, Hdst⟩, HL, Ht₁, Hr₁, Ht₂, Hr₂⟩
  iapply (Rounds.wp_send_pointsTo 𝒱₀ ER (ringRd V) (c : Thread nD τ) none
    (c' := (Dev.tc (toDev c l) : Thread nD τ)) (src := src) (dst := dst) (q := fullShare) (fs := fs) (fd := fd)
    (κ₁ := κ₁) (κ₂ := κ₂) (r₁ := 0) (r₂ := 0) (d₁ := false) (d₂ := false)
    (by rw [duties_send]; exact Finset.mem_singleton_self _) (by rw [duties_recv]; exact Finset.mem_singleton_self _)
    () () (amt kd) hN (amount_send V c kd l h false) (amount_recv V (toDev c l) kd l h false)
    (owedOf c ps) rfl (W := W)
    (by
      rw [payload_send, hps]
      unfold heldAs
      iintro H
      iexists fs
      isplitl [H]
      · iexact H
      · ipureintro; exact hfs)
    (by
      rw [payload_recv, hpr]
      unfold heldAs
      iintro H
      iexists _
      isplitl [H]
      · iexact H
      · ipureintro; rw [View.read_write_univ]; exact hfs))
  iframe
  iexact HL

/-- The numerator block's transfer. -/
theorem wp_send_o (c n : Dev nD) (l : Bool) (h : Fin 3) (hn : n = toDev c l)
    {hsc : ((dstO h l : Memref sig (Dev.tc n : Thread nD τ).2.kind .vmem S4x128x256 .bf16)).view.ref.isScScratch = false}
    {hsrc : (srcO c h l).view.WordExact} {hdst : (dstO h l).view.WordExact}
    {hsem : DmaTarget.Typed .vmem (.dma (recvSem .o l h)) (.remote (Dev.tc n : Thread nD τ) (dstO h l) (.dma (sendSem .o l h)) hsc)}
    {α : Type} {Q : α → sProp 𝕄} {k : PUnit → Prog (TpuEff nD τ sig (Elt F) Λ₀ .tc) α}
    (fs : Buf (Elt F) ((srcO c h l).view.loc (c : Thread nD τ))) (hfs : (srcO c h l).view.read (Elt F) fs = V.o c h l)
    (ps : List Pay) (W : Waits sig Unit) (κ₁ κ₂ : ℕ) :
    iprop(cellInv ER (ringRd V) κ₁ (sendCell c .o l h) ∗ cellInv ER (ringRd V) κ₂ (recvCell (toDev c l) .o l h)
        ∗ ((srcO c h l).view.loc (c : Thread nD τ) ↦[(srcO c h l).view.set]{fullShare} fs) ∗ held (F := F) (toDev c l) (dstO h l)
        ∗ owes (c : Thread nD τ) (owedOf c (.xfer .o l h :: ps)) W
        ∗ dutyTok ER (sendCell c .o l h) 0 false ∗ reached ER (sendCell c .o l h) 0
        ∗ dutyTok ER (recvCell (toDev c l) .o l h) 0 false ∗ reached ER (recvCell (toDev c l) .o l h) 0)
      ⊢ iprop(((cred (tallyAt (sendCell c .o l h) () (amt .o)) ∗ owes (c : Thread nD τ) (owedOf c ps) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcO c h l) (.remote (Dev.tc n : Thread nD τ) (dstO h l) (.dma (sendSem .o l h)) hsc) (.dma (recvSem .o l h)) hsrc hdst hsem) k) Q) := by
  subst hn
  exact wp_send_gen V .o c l h (srcO c h l) (dstO h l) (V.o c h l) (amt_dstO h l _) rfl
    (by show heldAs _ _ (V.o (fromDev (toDev c l) l) h l) = _; rw [fromDev_toDev]) fs hfs ps W κ₁ κ₂

/-- The denominator rows' transfer. -/
theorem wp_send_l (c n : Dev nD) (l : Bool) (h : Fin 3) (hn : n = toDev c l)
    {hsc : ((dstL h l : Memref sig (Dev.tc n : Thread nD τ).2.kind .vmem S4x1x256 .f32)).view.ref.isScScratch = false}
    {hsrc : (srcL c h l).view.WordExact} {hdst : (dstL h l).view.WordExact}
    {hsem : DmaTarget.Typed .vmem (.dma (recvSem .l l h)) (.remote (Dev.tc n : Thread nD τ) (dstL h l) (.dma (sendSem .l l h)) hsc)}
    {α : Type} {Q : α → sProp 𝕄} {k : PUnit → Prog (TpuEff nD τ sig (Elt F) Λ₀ .tc) α}
    (fs : Buf (Elt F) ((srcL c h l).view.loc (c : Thread nD τ))) (hfs : (srcL c h l).view.read (Elt F) fs = V.l c h l)
    (ps : List Pay) (W : Waits sig Unit) (κ₁ κ₂ : ℕ) :
    iprop(cellInv ER (ringRd V) κ₁ (sendCell c .l l h) ∗ cellInv ER (ringRd V) κ₂ (recvCell (toDev c l) .l l h)
        ∗ ((srcL c h l).view.loc (c : Thread nD τ) ↦[(srcL c h l).view.set]{fullShare} fs) ∗ held (F := F) (toDev c l) (dstL h l)
        ∗ owes (c : Thread nD τ) (owedOf c (.xfer .l l h :: ps)) W
        ∗ dutyTok ER (sendCell c .l l h) 0 false ∗ reached ER (sendCell c .l l h) 0
        ∗ dutyTok ER (recvCell (toDev c l) .l l h) 0 false ∗ reached ER (recvCell (toDev c l) .l l h) 0)
      ⊢ iprop(((cred (tallyAt (sendCell c .l l h) () (amt .l)) ∗ owes (c : Thread nD τ) (owedOf c ps) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcL c h l) (.remote (Dev.tc n : Thread nD τ) (dstL h l) (.dma (sendSem .l l h)) hsc) (.dma (recvSem .l l h)) hsrc hdst hsem) k) Q) := by
  subst hn
  exact wp_send_gen V .l c l h (srcL c h l) (dstL h l) (V.l c h l) (amt_dstL h l _) rfl
    (by show heldAs _ _ (V.l (fromDev (toDev c l) l) h l) = _; rw [fromDev_toDev]) fs hfs ps W κ₁ κ₂

/-- The result rows' transfer: the landing slice on the neighbour is named by the same expression as the source. -/
theorem wp_send_g (c n : Dev nD) (l : Bool) (h : Fin 3) (hn : n = toDev c l)
    {hsc : ((agS c h l : Memref sig (Dev.tc n : Thread nD τ).2.kind .vmem S128x1024 .bf16)).view.ref.isScScratch = false}
    {hsrc : (agS c h l).view.WordExact} {hdst : (agS c h l).view.WordExact}
    {hsem : DmaTarget.Typed .vmem (.dma (recvSem .g l h)) (.remote (Dev.tc n : Thread nD τ) (agS c h l) (.dma (sendSem .g l h)) hsc)}
    {α : Type} {Q : α → sProp 𝕄} {k : PUnit → Prog (TpuEff nD τ sig (Elt F) Λ₀ .tc) α}
    (fs : Buf (Elt F) ((agS c h l).view.loc (c : Thread nD τ))) (hfs : (agS c h l).view.read (Elt F) fs = V.g c h l)
    (ps : List Pay) (W : Waits sig Unit) (κ₁ κ₂ : ℕ) :
    iprop(cellInv ER (ringRd V) κ₁ (sendCell c .g l h) ∗ cellInv ER (ringRd V) κ₂ (recvCell (toDev c l) .g l h)
        ∗ ((agS c h l).view.loc (c : Thread nD τ) ↦[(agS c h l).view.set]{fullShare} fs) ∗ held (F := F) (toDev c l) (agS c h l)
        ∗ owes (c : Thread nD τ) (owedOf c (.xfer .g l h :: ps)) W
        ∗ dutyTok ER (sendCell c .g l h) 0 false ∗ reached ER (sendCell c .g l h) 0
        ∗ dutyTok ER (recvCell (toDev c l) .g l h) 0 false ∗ reached ER (recvCell (toDev c l) .g l h) 0)
      ⊢ iprop(((cred (tallyAt (sendCell c .g l h) () (amt .g)) ∗ owes (c : Thread nD τ) (owedOf c ps) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (agS c h l) (.remote (Dev.tc n : Thread nD τ) (agS c h l) (.dma (sendSem .g l h)) hsc) (.dma (recvSem .g l h)) hsrc hdst hsem) k) Q) := by
  subst hn
  exact wp_send_gen V .g c l h (agS c h l) (agS c h l) (V.g c h l) (amt_agS c h l _) rfl
    (by show heldAs _ (agS (fromDev (toDev c l) l) h l) (V.g (fromDev (toDev c l) l) h l) = _; rw [fromDev_toDev]) fs hfs ps W κ₁ κ₂

/-- info: 'Cert.Kernel.Proto.wp_send_o' depends on axioms: [propext, Classical.choice, Quot.sound] -/
#guard_msgs in #print axioms wp_send_o
/-- info: 'Cert.Kernel.Proto.wp_send_l' depends on axioms: [propext, Classical.choice, Quot.sound] -/
#guard_msgs in #print axioms wp_send_l
/-- info: 'Cert.Kernel.Proto.wp_send_g' depends on axioms: [propext, Classical.choice, Quot.sound] -/
#guard_msgs in #print axioms wp_send_g

end Cert.Kernel.Proto

end
-- ==== Proof.KB.OpWait.lean ====
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import Idealize.ShloMosaic.Lib.Pipeline.Launch
import Idealize.ShloMosaic.Lib.Pipeline.Kit
import Idealize.ShloMosaic.Lib.Tactic

/-
  The ring protocol's steps on the barrier cell and on the transfer cells' waits, each as one rule at our cells.

  A device signals one unit to each neighbour's barrier cell and waits for two on its own: seen from the neighbour in
  direction l, the signaller is the neighbour in direction !l, so its unit pays that cell's duty !l, and the hand-over is
  what the neighbour's transfers towards the signaller will write. A wait on a transfer cell takes the whole of the
  cell's one round — the transfer's amount — and returns the slice the duty hands back; the cell has no later round, so
  it closes there with its counter at zero.
-/

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The barrier signals, the barrier wait and the transfer waits, each as one rule at our cells -/

/-- Going to a neighbour and coming back the other way is staying. -/
theorem toDev_toDev_not (c : Dev nD) (l : Bool) : toDev (toDev c l) (!l) = c := by
  cases l
  · exact prv_nxt c
  · exact nxt_prv c

/-- What a device owes before a payment is what it owes after it and the payment. -/
theorem owedOf_cons (c : Dev nD) (p : Pay) (ps : List Pay) :
    owedOf c (p :: ps) = owedOf c ps + tallyAt (payCell c p) () (payAmt p) := rfl

/-- A program's barrier signal of one unit and its barrier wait for two are the operations the rules below are stated for. -/
theorem semSignalWord_one_eq {Λ : Labels} {p : Proc τ} (n : Dev nD) (s : Sem sig) (h : (1#32 : BitVec 32).msb = false) :
    (semSignalWord (nD := nD) (τ := τ) (Val := Elt F) (Λ := Λ) (p := p) n s 1#32 h) = .op (.semSignal (n, p) s 1) .ret := rfl
theorem semWaitWord_two_eq {Λ : Labels} {p : Proc τ} (s : Sem sig) (h : (2#32 : BitVec 32).msb = false) :
    (semWaitWord (nD := nD) (τ := τ) (Val := Elt F) (Λ := Λ) (p := p) s 2#32 h) = .op (.semWait s 2) .ret := rfl

/-- The hand-over of the unit device c pays on its neighbour's barrier cell, spelt at c: for each hop, c's three landing
    slices for the transfers coming from that neighbour, and c at round 0 of the three receive cells they credit. -/
theorem barPay_back (c : Dev nD) (l : Bool) :
    barPay (F := F) (toDev c l) (!l)
      = iprop(landing (F := F) (toDev c l) c (!l) 0 ∗ landing (F := F) (toDev c l) c (!l) 1 ∗ landing (F := F) (toDev c l) c (!l) 2) := by
  unfold barPay
  rw [toDev_toDev_not]

section Rules

variable (V : Vals F)

/-- Device c's unit on the barrier cell of its neighbour n in direction l. Seen from n, c is the neighbour in the
    opposite direction, so the unit pays n's duty !l, and hands n what n's transfers towards c will need of c. -/
theorem wp_sig (c n : Dev nD) (l : Bool) (hn : n = toDev c l) (ps : List Pay) (W : Waits sig Unit) (κ : ℕ) {a : ℕ} (ha : a = 1)
    {α : Type} {Q : α → sProp 𝕄} {k : PUnit → Prog (TpuEff nD τ sig (Elt F) Λ₀ .tc) α} :
    iprop(cellInv ER (ringRd V) κ (barCell n) ∗ owes (c : Thread nD τ) (owedOf c (.bar l :: ps)) W
        ∗ dutyTok ER (barCell n) 0 (!l) ∗ barPay (F := F) n (!l) ∗ reached ER (barCell n) 0)
      ⊢ iprop((owes (c : Thread nD τ) (owedOf c ps) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  iintro ⟨HI, HO, Ht, Hp, Hr⟩
  iapply (Rounds.wp_signal 𝒱₀ ER (ringRd V) (c : Thread nD τ) none (dst := (toDev c l : Thread nD τ)) (κ := κ)
      (d := !l) (by rw [duties_bar]; exact Finset.mem_univ _) (amount_bar V (toDev c l) (!l)) () (owedOf c ps) (owedOf_cons c (.bar l) ps))
  isplitl [HI]; · iexact HI
  isplitl [HO]; · iexact HO
  isplitl [Ht]; · iexact Ht
  isplitl [Hp]; · rw [payload_bar]; iexact Hp
  iexact Hr

/-- The wait for both neighbours' units on the own barrier cell: it is the whole of the cell's one round, and both
    neighbours' hand-overs come back with it. -/
theorem wp_bar_wait (c : Dev nD) (ps : List Pay) (W : Waits sig Unit) (κ : ℕ) {a : ℕ} (ha : a = 2)
    {α : Type} {Q : α → sProp 𝕄} {k : PUnit → Prog (TpuEff nD τ sig (Elt F) Λ₀ .tc) α} :
    iprop(cellInv ER (ringRd V) κ (barCell c) ∗ cred (tallyAt (barCell c) () 2) ∗ owes (c : Thread nD τ) (owedOf c ps) W
        ∗ MayWait (c : Thread nD τ) (.reg barS) () (owedOf c ps) ∗ atPos ER (barCell c) 0 ∅ 0)
      ⊢ iprop(((owes (c : Thread nD τ) (owedOf c ps) (insert (SemLoc.reg barS, ()) W) ∗ atPos ER (barCell c) (0 + 1) ∅ 0
              ∗ barPay (F := F) c false ∗ barPay (F := F) c true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨HI, Hc, HO, Hm, Hat⟩ Hk
  iapply (Rounds.wp_wait_rest_token 𝒱₀ ER (ringRd V) (c : Thread nD τ) none (κ := κ)
      (wpE_semWait_eq 𝒱₀ (c : Thread nD τ) none Set.univ) (Set.mem_univ _) () (O := owedOf c ps) (W := W) (R := 0) (m := 0) (T := ∅)
      (show 0 + 2 = _ from (expect_bar V c).symm)) $$ [HI Hc HO Hm Hat]
  · isplitl [HI]; · iexact HI
    isplitl [Hc]; · iexact Hc
    isplitl [HO]; · iexact HO
    isplitl [Hm]; · iexact Hm
    iexact Hat
  iintro ⟨HO, Hat, -, Hpay⟩
  ihave Hp := (Entails.of_eq (rest_bar V c)) $$ Hpay
  icases Hp with ⟨Hp0, Hp1⟩
  iapply Hk
  isplitl [HO]; · iexact HO
  isplitl [Hat]; · iexact Hat
  isplitl [Hp0]; · iexact Hp0
  iexact Hp1

/-- The wait on a send cell: the transfer's read-out is the whole of the cell's one round; the source slice comes back
    as it was, and the cell, which has no later round, closes with its counter at zero. The wait names some source and
    destination views; only the destination's credit counts, and it is the kind's amount. -/
theorem wp_wait_send (c : Dev nD) (k : Kind) (l : Bool) (h : Fin 3) (O : CellTallies nD τ sig Unit) (W : Waits sig Unit) (κ : ℕ)
    {sp sp' : Space} {s s' : Shape} {e e' : EltTy} {src : Memref sig .tc sp' s' e'} {κ' : Idealize.ShloMosaic.Kind} {dst : Memref sig κ' sp s e}
    {hsrc : src.view.WordExact} {hdst : dst.view.WordExact} (hamt : dst.view.dmaCredit = amt k) {sem : DmaSem sig} (hs : sem = sendSem k l h)
    {α : Type} {Q : α → sProp 𝕄} {kk : PUnit → Prog (TpuEff nD τ sig (Elt F) Λ₀ .tc) α} :
    iprop(cellInv ER (ringRd V) κ (sendCell c k l h) ∗ cred (tallyAt (sendCell c k l h) () (amt k)) ∗ owes (c : Thread nD τ) O W
        ∗ MayWait (c : Thread nD τ) (.dma (sendSem k l h)) () O ∗ atPos ER (sendCell c k l h) 0 ∅ 0)
      ⊢ iprop(((owes (c : Thread nD τ) O (insert (SemLoc.dma (sendSem k l h), ()) W) ∗ sendPay V c k l h ∗ semVal (sendCell c k l h) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  subst hs
  iintro ⟨#HI, Hc, HO, Hm, Hat⟩ Hk
  iapply (Rounds.wp_wait_rest_token 𝒱₀ ER (ringRd V) (c : Thread nD τ) none (κ := κ)
      (wpE_waitDma2_eq 𝒱₀ (c : Thread nD τ) none Set.univ) (Set.mem_univ _) () (O := O) (W := W) (R := 0) (m := 0) (T := ∅)
      (by rw [Nat.zero_add, expect_send, hamt])) $$ [Hc HO Hm Hat]
  · isplitr; · iexact HI
    isplitl [Hc]; · rw [hamt]; iexact Hc
    isplitl [HO]; · iexact HO
    isplitl [Hm]; · iexact Hm
    iexact Hat
  iintro ⟨HO, Hat, -, Hpay⟩
  ihave Hp := (Entails.of_eq (rest_send V c k l h)) $$ Hpay
  imod (Rounds.cell_close ER (ringRd V) (Set.mem_univ κ) (fun hu => hu) (R := 0 + 1) (duties_later V (sendCell c k l h))) $$ [Hat] with Hz
  · isplitr; · iexact HI
    iexact Hat
  iapply Hk
  isplitl [HO]; · iexact HO
  isplitl [Hp]; · iexact Hp
  iexact Hz

/-- The wait on a receive cell: the neighbour's transfer has landed, the landing slice comes back at what the neighbour
    sent, and the cell closes with its counter at zero. -/
theorem wp_wait_recv (c : Dev nD) (k : Kind) (l : Bool) (h : Fin 3) (O : CellTallies nD τ sig Unit) (W : Waits sig Unit) (κ : ℕ)
    {sp sp' : Space} {s s' : Shape} {e e' : EltTy} {src : Memref sig .tc sp' s' e'} {κ' : Idealize.ShloMosaic.Kind} {dst : Memref sig κ' sp s e}
    {hsrc : src.view.WordExact} {hdst : dst.view.WordExact} (hamt : dst.view.dmaCredit = amt k) {sem : DmaSem sig} (hs : sem = recvSem k l h)
    {α : Type} {Q : α → sProp 𝕄} {kk : PUnit → Prog (TpuEff nD τ sig (Elt F) Λ₀ .tc) α} :
    iprop(cellInv ER (ringRd V) κ (recvCell c k l h) ∗ cred (tallyAt (recvCell c k l h) () (amt k)) ∗ owes (c : Thread nD τ) O W
        ∗ MayWait (c : Thread nD τ) (.dma (recvSem k l h)) () O ∗ atPos ER (recvCell c k l h) 0 ∅ 0)
      ⊢ iprop(((owes (c : Thread nD τ) O (insert (SemLoc.dma (recvSem k l h), ()) W) ∗ recvPay V c k l h ∗ semVal (recvCell c k l h) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  subst hs
  iintro ⟨#HI, Hc, HO, Hm, Hat⟩ Hk
  iapply (Rounds.wp_wait_rest_token 𝒱₀ ER (ringRd V) (c : Thread nD τ) none (κ := κ)
      (wpE_waitDma2_eq 𝒱₀ (c : Thread nD τ) none Set.univ) (Set.mem_univ _) () (O := O) (W := W) (R := 0) (m := 0) (T := ∅)
      (by rw [Nat.zero_add, expect_recv, hamt])) $$ [Hc HO Hm Hat]
  · isplitr; · iexact HI
    isplitl [Hc]; · rw [hamt]; iexact Hc
    isplitl [HO]; · iexact HO
    isplitl [Hm]; · iexact Hm
    iexact Hat
  iintro ⟨HO, Hat, -, Hpay⟩
  ihave Hp := (Entails.of_eq (rest_recv V c k l h)) $$ Hpay
  imod (Rounds.cell_close ER (ringRd V) (Set.mem_univ κ) (fun hu => hu) (R := 0 + 1) (duties_later V (recvCell c k l h))) $$ [Hat] with Hz
  · isplitr; · iexact HI
    iexact Hat
  iapply Hk
  isplitl [HO]; · iexact HO
  isplitl [Hp]; · iexact Hp
  iexact Hz

end Rules

end Cert.Kernel.Proto

end

/-- info: 'Cert.Kernel.Proto.wp_sig' depends on axioms: [propext, Classical.choice, Quot.sound] -/
#guard_msgs in #print axioms Cert.Kernel.Proto.wp_sig
/-- info: 'Cert.Kernel.Proto.wp_bar_wait' depends on axioms: [propext, Classical.choice, Quot.sound] -/
#guard_msgs in #print axioms Cert.Kernel.Proto.wp_bar_wait
/-- info: 'Cert.Kernel.Proto.wp_wait_send' depends on axioms: [propext, Classical.choice, Quot.sound] -/
#guard_msgs in #print axioms Cert.Kernel.Proto.wp_wait_send
/-- info: 'Cert.Kernel.Proto.wp_wait_recv' depends on axioms: [propext, Classical.choice, Quot.sound] -/
#guard_msgs in #print axioms Cert.Kernel.Proto.wp_wait_recv
-- ==== Proof.KB.LoopsV.lean ====
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.Gen.Kernel.Skeleton
import Idealize.ShloMosaic.Lib.Exec
import Idealize.ShloMosaic.Lib.Tactic
import Idealize.ShloMosaic.Lib.Pipeline.Kit
import proofs.«900754_g7700000000000755_dist_attn_cross_gqa_kvseq_b4_sq256_skv1024_d1024_hq8_dh128_v7x_i4_f32_1_alg».proof.Proof.KB.LocSplit

set_option maxRecDepth 8192
set_option maxHeartbeats 4000000

noncomputable section

namespace Cert.Kernel.LoopsV
open Cert.Kernel Cert.Kernel.Gen Cert.Kernel.Proto

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ Cert.Kernel.Proto.UU ℕ

/-- The class of invariants of `k0_part15`'s counted loop `k0_t1_loop` (`scf.for %arg30 =
   %c0_i32_273 to %291 step %c1_i32_275 : i32 {`), trip `k0_t1`, carrying `Unit`, region
   `Gen.k0_t1_body`. Classifier: LISTED — every store at a `Rect.unit` through a memref parameter of
   the region, nothing carried, no transfer or conditional inside: the invariant is the pieces of
   the trips before `k`; not affine (the closed form of `k0_off13` is not over the trip alone), so a
   frame cannot place those pieces and must find the memref written covered by a whole-block store
   of the same case. The region loads back what it stores into `arg12` (an accumulation): each
   trip's pieces are stated as functions of the contents it finds there. One trip calls the parts
   `k0_part1`. Per trip it STORES through arg12 at ![0, 0]; arg6 at (k0_off13 d0 k0_t1); arg7 at
   (k0_off14 d0 k0_t1). It LOADS through arg10 at (k0_off10 d0 k0_t1); arg15 at (k0_off11 d0 k0_t1);
   arg15 at (k0_off12 d0 k0_t1); arg12 at ![0, 0]; arg6 at (k0_off13 d0 k0_t1); arg7 at (k0_off14 d0
   k0_t1). GENERATED below: `Gen.loopInv_k0_t1` (`@[sl_loop]`), at the frame kit's algebra — a run
   at that algebra (the generated frame's, or a hand proof's over `MT nD τ sig Unit (Elt F) ℕ (UR
   sig nD τ) ℕ`) goes through the loop with nothing more to state; a proof at another algebra
   instances the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226)

/-! ### `k0_t1_loop`: the generated invariant (classifier: listed) -/

/-- One trip's resources: what the region reads (arg10, arg15) at its contents, what it writes
   (locO, locL, arg12) at any. -/
abbrev TripS_k0_t1 (c : Dev nD) (arg10 : Memref sig .tc .vmem S32x256x128 .bf16) (arg15 : Memref sig .tc .vmem S2x8x1024x128 .bf16) (arg12 : Memref sig .tc .vmem S1024x256 .bf16) (X_arg10 : BufTy.Contents (Elt F) arg10.view.ty) (X_arg15 : BufTy.Contents (Elt F) arg15.view.ty) (f_arg6 : BufTy.Contents (Elt F) locO.view.ty) (f_arg7 : BufTy.Contents (Elt F) locL.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ ((locBlkO c 0).view.loc (c : Thread nD τ) ↦[(locBlkO c 0).view.set]{fullShare} f_arg6) ∗ ((locBlkL c 0).view.loc (c : Thread nD τ) ↦[(locBlkL c 0).view.set]{fullShare} f_arg7) ∗ (arg12.view.loc (c : Thread nD τ) ↦[arg12.view.set]{fullShare} f_arg12))

/-- ONE TRIP of `k0_t1_loop` at a symbolic `k`, run by `sl_exec` (its rectangles where the program's
   in-range evidence puts them, their places unread): the pieces it writes into locO, locL, arg12
   are the run's own finds — the witnesses `sl_close` assigns handing the buffers to the
   continuation, as functions of the contents the trip finds in the memrefs it writes (the region
   loads some of them back). `@[irreducible]`: cited, never unfolded. -/
@[irreducible] def tripS_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (k : Fin k0_t1_loop.trips) :
    Σ' (L_arg6 : (BufTy.Contents (Elt F) locO.view.ty → BufTy.Contents (Elt F) locL.view.ty → BufTy.Contents (Elt F) arg12.view.ty → List (View.Piece (Elt F) S32x128x256 .bf16))) (L_arg7 : (BufTy.Contents (Elt F) locO.view.ty → BufTy.Contents (Elt F) locL.view.ty → BufTy.Contents (Elt F) arg12.view.ty → List (View.Piece (Elt F) S32x1x256 .f32))) , { L_arg12 : (BufTy.Contents (Elt F) locO.view.ty → BufTy.Contents (Elt F) locL.view.ty → BufTy.Contents (Elt F) arg12.view.ty → List (View.Piece (Elt F) S1024x256 .bf16)) // ∀ (E : Set ℕ) (f_arg6 : BufTy.Contents (Elt F) locO.view.ty) (f_arg7 : BufTy.Contents (Elt F) locL.view.ty) (f_arg12 : BufTy.Contents (Elt F) arg12.view.ty),
      TripS_k0_t1 (F := F) c arg10 arg15 arg12 X_arg10 X_arg15 f_arg6 f_arg7 f_arg12
      ⊢ wp frame (wpE (defs₀ (F := F)) 𝒱 (c : Thread nD τ) bd) E (k0_t1_body (F := F) arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 k PUnit.unit)
          (fun _ => TripS_k0_t1 (F := F) c arg10 arg15 arg12 X_arg10 X_arg15 (locO.view.writes (Elt F) f_arg6 (L_arg6 f_arg6 f_arg7 f_arg12)) (locL.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t1_abs.2.1
  have hS_arg6_k := hS_arg6 k
  have hS_arg7_k := hS_arg7 k
  refine ⟨fun f_arg6 f_arg7 f_arg12 => [⟨Rect.unit (s := S32x128x256) (k0_off13 d0 k) S1x128x256.size (k0_off13_inb d0 k), (k0_pay38 (k0_pay5 (View.readAt (Elt F) arg15.view (Rect.unit (s := S2x8x1024x128) (k0_off12 d0 k) S1x1x1024x128.size (k0_off12_inb d0 k)).toLoadRect X_arg15)) (arg12.view.readCov [⟨Rect.unit (s := S1024x256) ![0, 0] S1024x256.size inb_S1024x256_S1024x256_0_0, (k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15))⟩] (Rect.unit (s := S1024x256) ![0, 0] S1024x256.size inb_S1024x256_S1024x256_0_0).toLoadRect))⟩], fun f_arg6 f_arg7 f_arg12 => [⟨Rect.unit (s := S32x1x256) (k0_off14 d0 k) S1x1x256.size (k0_off14_inb d0 k), (k0_pay39 (k0_pay7 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))⟩], fun f_arg6 f_arg7 f_arg12 => [⟨Rect.unit (s := S1024x256) ![0, 0] S1024x256.size inb_S1024x256_S1024x256_0_0, (k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15))⟩], fun E f_arg6 f_arg7 f_arg12 => ?run⟩
  case run =>
    unfold k0_t1_body
    iintro ⟨HR_arg10, HR_arg15, HW_arg6, HW_arg7, HW_arg12⟩
    sl_exec
    iapply (wp_store 𝒱 (c : Thread nD τ) bd E (m := locO) (r := Rect.unit (s := S32x128x256) (k0_off13 d0 k) S1x128x256.size (k0_off13_inb d0 k)) (Mk := Finset.univ) hS_arg6_k) $$ [HW_arg6]
    · iexact HW_arg6
    iintro HW_arg6
    sl_exec
    iapply (wp_store 𝒱 (c : Thread nD τ) bd E (m := locL) (r := Rect.unit (s := S32x1x256) (k0_off14 d0 k) S1x1x256.size (k0_off14_inb d0 k)) (Mk := Finset.univ) hS_arg7_k) $$ [HW_arg7]
    · iexact HW_arg7
    iintro HW_arg7
    simp only [Prog.pure_eq_ret]
    rw [wp_ret]; imodintro
    isplitl [HR_arg10]; · iexact HR_arg10
    isplitl [HR_arg15]; · iexact HR_arg15
    isplitl [HW_arg6]; · iexact HW_arg6
    isplitl [HW_arg7]; · iexact HW_arg7
    iexact HW_arg12

/-- The trip's piece lists (plain projections of `trip_…`, for the recursion below to cite without
   its proof), at the contents the trip finds in the written memrefs. -/
abbrev tripLS_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (k : Fin k0_t1_loop.trips) (f_arg6 : BufTy.Contents (Elt F) locO.view.ty) (f_arg7 : BufTy.Contents (Elt F) locL.view.ty) (f_arg12 : BufTy.Contents (Elt F) arg12.view.ty) : List (View.Piece (Elt F) S32x128x256 .bf16) × List (View.Piece (Elt F) S32x1x256 .f32) × List (View.Piece (Elt F) S1024x256 .bf16) :=
  ((tripS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k).1 f_arg6 f_arg7 f_arg12, (tripS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k).2.1 f_arg6 f_arg7 f_arg12, (tripS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k).2.2.1 f_arg6 f_arg7 f_arg12)

/-- Trip k's pieces, spelt: per written memref the rectangle of its one store and what is stored, a loaded value read off what the memref holds then. -/
theorem tripLS_k0_t1_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (k : Fin k0_t1_loop.trips) (f_arg6 : BufTy.Contents (Elt F) locO.view.ty) (f_arg7 : BufTy.Contents (Elt F) locL.view.ty) (f_arg12 : BufTy.Contents (Elt F) arg12.view.ty) :
    tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k f_arg6 f_arg7 f_arg12 = ([⟨Rect.unit (s := S32x128x256) (k0_off13 d0 k) S1x128x256.size (k0_off13_inb d0 k), (k0_pay38 (k0_pay5 (View.readAt (Elt F) arg15.view (Rect.unit (s := S2x8x1024x128) (k0_off12 d0 k) S1x1x1024x128.size (k0_off12_inb d0 k)).toLoadRect X_arg15)) (arg12.view.readCov [⟨Rect.unit (s := S1024x256) ![0, 0] S1024x256.size inb_S1024x256_S1024x256_0_0, (k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15))⟩] (Rect.unit (s := S1024x256) ![0, 0] S1024x256.size inb_S1024x256_S1024x256_0_0).toLoadRect))⟩], [⟨Rect.unit (s := S32x1x256) (k0_off14 d0 k) S1x1x256.size (k0_off14_inb d0 k), (k0_pay39 (k0_pay7 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))⟩], [⟨Rect.unit (s := S1024x256) ![0, 0] S1024x256.size inb_S1024x256_S1024x256_0_0, (k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15))⟩]) := by
  unfold tripLS_k0_t1 tripS_k0_t1
  rfl

/-- Trip `k`'s contribution to the state the recursion `pbS_k0_t1` below carries (`prev`): its pieces
   in front, per written memref; past the last trip, `prev` itself. -/
@[irreducible] def pbS_k0_t1Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t1_loop.trips then
    ((tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 ⟨k, h⟩ (locO.view.writes (Elt F) G_arg6 prev.1) (locL.view.writes (Elt F) G_arg7 prev.2.1) (arg12.view.writes (Elt F) G_arg12 prev.2.2)).1 ++ prev.1, (tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 ⟨k, h⟩ (locO.view.writes (Elt F) G_arg6 prev.1) (locL.view.writes (Elt F) G_arg7 prev.2.1) (arg12.view.writes (Elt F) G_arg12 prev.2.2)).2.1 ++ prev.2.1, (tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 ⟨k, h⟩ (locO.view.writes (Elt F) G_arg6 prev.1) (locL.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pbS_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pbS_k0_t1Step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k (pbS_k0_t1 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k)

theorem pbS_k0_t1_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t1_loop.trips) :
    pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 (k.val + 1)
      = ((tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k (locO.view.writes (Elt F) G_arg6 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).1) (locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.1) (arg12.view.writes (Elt F) G_arg12 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.2)).1 ++ (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).1, (tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k (locO.view.writes (Elt F) G_arg6 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).1) (locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.1) (arg12.view.writes (Elt F) G_arg12 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.2)).2.1 ++ (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.1, (tripLS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k (locO.view.writes (Elt F) G_arg6 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).1) (locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.1) (arg12.view.writes (Elt F) G_arg12 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.2)).2.2 ++ (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.2) := by
  rw [pbS_k0_t1.eq_2]; unfold pbS_k0_t1Step; exact dif_pos k.isLt

/-- THE INVARIANT before trip `k`: arg10, arg15 read at `X_·`; locO, locL, arg12 holding the pieces
   of the trips before `k` written over the contents at loop entry `G_·` (stated `∃ f, … ∗ ⌜f = …⌝`,
   so that a hypothesis of any contents matches and the equation is what is proved). -/
abbrev invS_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, ((locBlkO c 0).view.loc (c : Thread nD τ) ↦[(locBlkO c 0).view.set]{fullShare} f) ∗ ⌜f = locO.view.writes (Elt F) G_arg6 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k).1⌝) ∗ (∃ f, ((locBlkL c 0).view.loc (c : Thread nD τ) ↦[(locBlkL c 0).view.set]{fullShare} f) ∗ ⌜f = locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k).2.1⌝) ∗ (∃ f, (arg12.view.loc (c : Thread nD τ) ↦[arg12.view.set]{fullShare} f) ∗ ⌜f = arg12.view.writes (Elt F) G_arg12 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k).2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInvS_k0_t1 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) :
    LoopInvTy_k0_t1 (F := F) Unit ℕ Cert.Kernel.Proto.UU ℕ 𝒱 c bd E arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 where
  inv := invS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((tripS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pbS_k0_t1_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part21`'s counted loop `k0_t2_loop` (`scf.for %arg30 =
   %c0_i32_417 to %475 step %c1_i32_419 : i32 {`), trip `k0_t2`, carrying `Unit`, region
   `Gen.k0_t2_body`. Classifier: LISTED — every store at a `Rect.unit` through a memref parameter of
   the region, nothing carried, no transfer or conditional inside: the invariant is the pieces of
   the trips before `k`; not affine (a store whose offsets chain `k0_off29` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part2`. Per trip it STORES
   through arg12 at ![0, 0]; arg6 at (k0_off29 d0 k0_t2) (NO closed form stated); arg7 at (k0_off30
   d0 k0_t2) (NO closed form stated). It LOADS through arg10 at (k0_off26 d0 k0_t2); arg15 at
   (k0_off27 d0 k0_t2); arg15 at (k0_off28 d0 k0_t2); arg12 at ![0, 0]; arg6 at (k0_off29 d0 k0_t2);
   arg7 at (k0_off30 d0 k0_t2). GENERATED below: `Gen.loopInv_k0_t2` (`@[sl_loop]`), at the frame
   kit's algebra — a run at that algebra (the generated frame's, or a hand proof's over `MT nD τ sig
   Unit (Elt F) ℕ Cert.Kernel.Proto.UU ℕ`) goes through the loop with nothing more to state; a proof at
   another algebra instances the class itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468)

/-! ### `k0_t2_loop`: the generated invariant (classifier: listed) -/

/-- One trip's resources: what the region reads (arg10, arg15) at its contents, what it writes
   (locO, locL, arg12) at any. -/
abbrev TripS_k0_t2 (c : Dev nD) (arg10 : Memref sig .tc .vmem S32x256x128 .bf16) (arg15 : Memref sig .tc .vmem S2x8x1024x128 .bf16) (arg12 : Memref sig .tc .vmem S1024x256 .bf16) (X_arg10 : BufTy.Contents (Elt F) arg10.view.ty) (X_arg15 : BufTy.Contents (Elt F) arg15.view.ty) (f_arg6 : BufTy.Contents (Elt F) locO.view.ty) (f_arg7 : BufTy.Contents (Elt F) locL.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ ((locBlkO c 2).view.loc (c : Thread nD τ) ↦[(locBlkO c 2).view.set]{fullShare} f_arg6) ∗ ((locBlkL c 2).view.loc (c : Thread nD τ) ↦[(locBlkL c 2).view.set]{fullShare} f_arg7) ∗ (arg12.view.loc (c : Thread nD τ) ↦[arg12.view.set]{fullShare} f_arg12))

/-- ONE TRIP of `k0_t2_loop` at a symbolic `k`, run by `sl_exec` (its rectangles where the program's
   in-range evidence puts them, their places unread): the pieces it writes into locO, locL, arg12
   are the run's own finds — the witnesses `sl_close` assigns handing the buffers to the
   continuation, as functions of the contents the trip finds in the memrefs it writes (the region
   loads some of them back). `@[irreducible]`: cited, never unfolded. -/
@[irreducible] def tripS_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (k : Fin k0_t2_loop.trips) :
    Σ' (L_arg6 : (BufTy.Contents (Elt F) locO.view.ty → BufTy.Contents (Elt F) locL.view.ty → BufTy.Contents (Elt F) arg12.view.ty → List (View.Piece (Elt F) S32x128x256 .bf16))) (L_arg7 : (BufTy.Contents (Elt F) locO.view.ty → BufTy.Contents (Elt F) locL.view.ty → BufTy.Contents (Elt F) arg12.view.ty → List (View.Piece (Elt F) S32x1x256 .f32))) , { L_arg12 : (BufTy.Contents (Elt F) locO.view.ty → BufTy.Contents (Elt F) locL.view.ty → BufTy.Contents (Elt F) arg12.view.ty → List (View.Piece (Elt F) S1024x256 .bf16)) // ∀ (E : Set ℕ) (f_arg6 : BufTy.Contents (Elt F) locO.view.ty) (f_arg7 : BufTy.Contents (Elt F) locL.view.ty) (f_arg12 : BufTy.Contents (Elt F) arg12.view.ty),
      TripS_k0_t2 (F := F) c arg10 arg15 arg12 X_arg10 X_arg15 f_arg6 f_arg7 f_arg12
      ⊢ wp frame (wpE (defs₀ (F := F)) 𝒱 (c : Thread nD τ) bd) E (k0_t2_body (F := F) arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 k PUnit.unit)
          (fun _ => TripS_k0_t2 (F := F) c arg10 arg15 arg12 X_arg10 X_arg15 (locO.view.writes (Elt F) f_arg6 (L_arg6 f_arg6 f_arg7 f_arg12)) (locL.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t2_abs.2.1
  have hS_arg6_k := hS_arg6 k
  have hS_arg7_k := hS_arg7 k
  refine ⟨fun f_arg6 f_arg7 f_arg12 => [⟨Rect.unit (s := S32x128x256) (k0_off29 d0 k) S1x128x256.size (k0_off29_inb d0 k), (k0_pay56 (k0_pay9 (View.readAt (Elt F) arg15.view (Rect.unit (s := S2x8x1024x128) (k0_off28 d0 k) S1x1x1024x128.size (k0_off28_inb d0 k)).toLoadRect X_arg15)) (arg12.view.readCov [⟨Rect.unit (s := S1024x256) ![0, 0] S1024x256.size inb_S1024x256_S1024x256_0_0, (k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15))⟩] (Rect.unit (s := S1024x256) ![0, 0] S1024x256.size inb_S1024x256_S1024x256_0_0).toLoadRect))⟩], fun f_arg6 f_arg7 f_arg12 => [⟨Rect.unit (s := S32x1x256) (k0_off30 d0 k) S1x1x256.size (k0_off30_inb d0 k), (k0_pay57 (k0_pay11 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))⟩], fun f_arg6 f_arg7 f_arg12 => [⟨Rect.unit (s := S1024x256) ![0, 0] S1024x256.size inb_S1024x256_S1024x256_0_0, (k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15))⟩], fun E f_arg6 f_arg7 f_arg12 => ?run⟩
  case run =>
    unfold k0_t2_body
    iintro ⟨HR_arg10, HR_arg15, HW_arg6, HW_arg7, HW_arg12⟩
    sl_exec
    iapply (wp_store 𝒱 (c : Thread nD τ) bd E (m := locO) (r := Rect.unit (s := S32x128x256) (k0_off29 d0 k) S1x128x256.size (k0_off29_inb d0 k)) (Mk := Finset.univ) hS_arg6_k) $$ [HW_arg6]
    · iexact HW_arg6
    iintro HW_arg6
    sl_exec
    iapply (wp_store 𝒱 (c : Thread nD τ) bd E (m := locL) (r := Rect.unit (s := S32x1x256) (k0_off30 d0 k) S1x1x256.size (k0_off30_inb d0 k)) (Mk := Finset.univ) hS_arg7_k) $$ [HW_arg7]
    · iexact HW_arg7
    iintro HW_arg7
    simp only [Prog.pure_eq_ret]
    rw [wp_ret]; imodintro
    isplitl [HR_arg10]; · iexact HR_arg10
    isplitl [HR_arg15]; · iexact HR_arg15
    isplitl [HW_arg6]; · iexact HW_arg6
    isplitl [HW_arg7]; · iexact HW_arg7
    iexact HW_arg12

/-- The trip's piece lists (plain projections of `trip_…`, for the recursion below to cite without
   its proof), at the contents the trip finds in the written memrefs. -/
abbrev tripLS_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (k : Fin k0_t2_loop.trips) (f_arg6 : BufTy.Contents (Elt F) locO.view.ty) (f_arg7 : BufTy.Contents (Elt F) locL.view.ty) (f_arg12 : BufTy.Contents (Elt F) arg12.view.ty) : List (View.Piece (Elt F) S32x128x256 .bf16) × List (View.Piece (Elt F) S32x1x256 .f32) × List (View.Piece (Elt F) S1024x256 .bf16) :=
  ((tripS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k).1 f_arg6 f_arg7 f_arg12, (tripS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k).2.1 f_arg6 f_arg7 f_arg12, (tripS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k).2.2.1 f_arg6 f_arg7 f_arg12)

/-- Trip k's pieces, spelt: per written memref the rectangle of its one store and what is stored, a loaded value read off what the memref holds then. -/
theorem tripLS_k0_t2_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (k : Fin k0_t2_loop.trips) (f_arg6 : BufTy.Contents (Elt F) locO.view.ty) (f_arg7 : BufTy.Contents (Elt F) locL.view.ty) (f_arg12 : BufTy.Contents (Elt F) arg12.view.ty) :
    tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k f_arg6 f_arg7 f_arg12 = ([⟨Rect.unit (s := S32x128x256) (k0_off29 d0 k) S1x128x256.size (k0_off29_inb d0 k), (k0_pay56 (k0_pay9 (View.readAt (Elt F) arg15.view (Rect.unit (s := S2x8x1024x128) (k0_off28 d0 k) S1x1x1024x128.size (k0_off28_inb d0 k)).toLoadRect X_arg15)) (arg12.view.readCov [⟨Rect.unit (s := S1024x256) ![0, 0] S1024x256.size inb_S1024x256_S1024x256_0_0, (k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15))⟩] (Rect.unit (s := S1024x256) ![0, 0] S1024x256.size inb_S1024x256_S1024x256_0_0).toLoadRect))⟩], [⟨Rect.unit (s := S32x1x256) (k0_off30 d0 k) S1x1x256.size (k0_off30_inb d0 k), (k0_pay57 (k0_pay11 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))⟩], [⟨Rect.unit (s := S1024x256) ![0, 0] S1024x256.size inb_S1024x256_S1024x256_0_0, (k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15))⟩]) := by
  unfold tripLS_k0_t2 tripS_k0_t2
  rfl

/-- Trip `k`'s contribution to the state the recursion `pbS_k0_t2` below carries (`prev`): its pieces
   in front, per written memref; past the last trip, `prev` itself. -/
@[irreducible] def pbS_k0_t2Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t2_loop.trips then
    ((tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 ⟨k, h⟩ (locO.view.writes (Elt F) G_arg6 prev.1) (locL.view.writes (Elt F) G_arg7 prev.2.1) (arg12.view.writes (Elt F) G_arg12 prev.2.2)).1 ++ prev.1, (tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 ⟨k, h⟩ (locO.view.writes (Elt F) G_arg6 prev.1) (locL.view.writes (Elt F) G_arg7 prev.2.1) (arg12.view.writes (Elt F) G_arg12 prev.2.2)).2.1 ++ prev.2.1, (tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 ⟨k, h⟩ (locO.view.writes (Elt F) G_arg6 prev.1) (locL.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pbS_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pbS_k0_t2Step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k (pbS_k0_t2 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k)

theorem pbS_k0_t2_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t2_loop.trips) :
    pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 (k.val + 1)
      = ((tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k (locO.view.writes (Elt F) G_arg6 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).1) (locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.1) (arg12.view.writes (Elt F) G_arg12 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.2)).1 ++ (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).1, (tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k (locO.view.writes (Elt F) G_arg6 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).1) (locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.1) (arg12.view.writes (Elt F) G_arg12 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.2)).2.1 ++ (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.1, (tripLS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k (locO.view.writes (Elt F) G_arg6 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).1) (locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.1) (arg12.view.writes (Elt F) G_arg12 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.2)).2.2 ++ (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.2) := by
  rw [pbS_k0_t2.eq_2]; unfold pbS_k0_t2Step; exact dif_pos k.isLt

/-- THE INVARIANT before trip `k`: arg10, arg15 read at `X_·`; locO, locL, arg12 holding the pieces
   of the trips before `k` written over the contents at loop entry `G_·` (stated `∃ f, … ∗ ⌜f = …⌝`,
   so that a hypothesis of any contents matches and the equation is what is proved). -/
abbrev invS_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, ((locBlkO c 2).view.loc (c : Thread nD τ) ↦[(locBlkO c 2).view.set]{fullShare} f) ∗ ⌜f = locO.view.writes (Elt F) G_arg6 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k).1⌝) ∗ (∃ f, ((locBlkL c 2).view.loc (c : Thread nD τ) ↦[(locBlkL c 2).view.set]{fullShare} f) ∗ ⌜f = locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k).2.1⌝) ∗ (∃ f, (arg12.view.loc (c : Thread nD τ) ↦[arg12.view.set]{fullShare} f) ∗ ⌜f = arg12.view.writes (Elt F) G_arg12 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k).2.2⌝))

set_option warn.classDefReducibility false in
/-- THE LOOP BY ITS INVARIANT — generated (`@[sl_loop]`: `sl_exec` finds it meeting `k0_t2_loop`,
   fixing `X_· G_·` against the context; after the loop each written memref holds `writes G (pb …
   trips)`). -/
@[sl_loop] def loopInvS_k0_t2 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) :
    LoopInvTy_k0_t2 (F := F) Unit ℕ Cert.Kernel.Proto.UU ℕ 𝒱 c bd E arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 where
  inv := invS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((tripS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pbS_k0_t2_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part26`'s counted loop `k0_t3_loop` (`scf.for %arg30 =
   %c0_i32_562 to %661 step %c1_i32_564 : i32 {`), trip `k0_t3`, carrying `Unit`, region
   `Gen.k0_t3_body`. Classifier: LISTED — every store at a `Rect.unit` through a memref parameter of
   the region, nothing carried, no transfer or conditional inside: the invariant is the pieces of
   the trips before `k`; not affine (a store whose offsets chain `k0_off36` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part3`. Per trip it STORES
   through arg12 at ![0, 0]; arg6 at (k0_off36 d0 k0_t3) (NO closed form stated); arg7 at (k0_off37
   d0 k0_t3) (NO closed form stated). It LOADS through arg10 at (k0_off33 d0 k0_t3); arg15 at
   (k0_off34 d0 k0_t3); arg15 at (k0_off35 d0 k0_t3); arg12 at ![0, 0]; arg6 at (k0_off36 d0 k0_t3);
   arg7 at (k0_off37 d0 k0_t3). GENERATED below: `Gen.loopInv_k0_t3` (`@[sl_loop]`), at the frame
   kit's algebra — a run at that algebra (the generated frame's, or a hand proof's over `MT nD τ sig
   Unit (Elt F) ℕ Cert.Kernel.Proto.UU ℕ`) goes through the loop with nothing more to state; a proof at
   another algebra instances the class itself, after this one. -/
abbrev LoopInvTy_k0_t3 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) :=
  Idealize.ShloMosaic.LoopInv (M := MT nD τ sig Ix (Elt F) Name U Lvl) Idealize.ShloMosaic.frame (wpE defs₀ 𝒱 (c : Thread nD τ) bd) E
    k0_t3_loop.lb k0_t3_loop.ub k0_t3_loop.st k0_t3_ok () (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596)

/-! ### `k0_t3_loop`: the generated invariant (classifier: listed) -/

/-- One trip's resources: what the region reads (arg10, arg15) at its contents, what it writes
   (locO, locL, arg12) at any. -/
abbrev TripS_k0_t3 (c : Dev nD) (arg10 : Memref sig .tc .vmem S32x256x128 .bf16) (arg15 : Memref sig .tc .vmem S2x8x1024x128 .bf16) (arg12 : Memref sig .tc .vmem S1024x256 .bf16) (X_arg10 : BufTy.Contents (Elt F) arg10.view.ty) (X_arg15 : BufTy.Contents (Elt F) arg15.view.ty) (f_arg6 : BufTy.Contents (Elt F) locO.view.ty) (f_arg7 : BufTy.Contents (Elt F) locL.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ ((locBlkO c 3).view.loc (c : Thread nD τ) ↦[(locBlkO c 3).view.set]{fullShare} f_arg6) ∗ ((locBlkL c 3).view.loc (c : Thread nD τ) ↦[(locBlkL c 3).view.set]{fullShare} f_arg7) ∗ (arg12.view.loc (c : Thread nD τ) ↦[arg12.view.set]{fullShare} f_arg12))

/-- ONE TRIP of `k0_t3_loop` at a symbolic `k`, run by `sl_exec` (its rectangles where the program's
   in-range evidence puts them, their places unread): the pieces it writes into locO, locL, arg12
   are the run's own finds — the witnesses `sl_close` assigns handing the buffers to the
   continuation, as functions of the contents the trip finds in the memrefs it writes (the region
   loads some of them back). `@[irreducible]`: cited, never unfolded. -/
@[irreducible] def tripS_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (k : Fin k0_t3_loop.trips) :
    Σ' (L_arg6 : (BufTy.Contents (Elt F) locO.view.ty → BufTy.Contents (Elt F) locL.view.ty → BufTy.Contents (Elt F) arg12.view.ty → List (View.Piece (Elt F) S32x128x256 .bf16))) (L_arg7 : (BufTy.Contents (Elt F) locO.view.ty → BufTy.Contents (Elt F) locL.view.ty → BufTy.Contents (Elt F) arg12.view.ty → List (View.Piece (Elt F) S32x1x256 .f32))) , { L_arg12 : (BufTy.Contents (Elt F) locO.view.ty → BufTy.Contents (Elt F) locL.view.ty → BufTy.Contents (Elt F) arg12.view.ty → List (View.Piece (Elt F) S1024x256 .bf16)) // ∀ (E : Set ℕ) (f_arg6 : BufTy.Contents (Elt F) locO.view.ty) (f_arg7 : BufTy.Contents (Elt F) locL.view.ty) (f_arg12 : BufTy.Contents (Elt F) arg12.view.ty),
      TripS_k0_t3 (F := F) c arg10 arg15 arg12 X_arg10 X_arg15 f_arg6 f_arg7 f_arg12
      ⊢ wp frame (wpE (defs₀ (F := F)) 𝒱 (c : Thread nD τ) bd) E (k0_t3_body (F := F) arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 k PUnit.unit)
          (fun _ => TripS_k0_t3 (F := F) c arg10 arg15 arg12 X_arg10 X_arg15 (locO.view.writes (Elt F) f_arg6 (L_arg6 f_arg6 f_arg7 f_arg12)) (locL.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t3_abs.2.1
  have hS_arg6_k := hS_arg6 k
  have hS_arg7_k := hS_arg7 k
  refine ⟨fun f_arg6 f_arg7 f_arg12 => [⟨Rect.unit (s := S32x128x256) (k0_off36 d0 k) S1x128x256.size (k0_off36_inb d0 k), (k0_pay73 (k0_pay13 (View.readAt (Elt F) arg15.view (Rect.unit (s := S2x8x1024x128) (k0_off35 d0 k) S1x1x1024x128.size (k0_off35_inb d0 k)).toLoadRect X_arg15)) (arg12.view.readCov [⟨Rect.unit (s := S1024x256) ![0, 0] S1024x256.size inb_S1024x256_S1024x256_0_0, (k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15))⟩] (Rect.unit (s := S1024x256) ![0, 0] S1024x256.size inb_S1024x256_S1024x256_0_0).toLoadRect))⟩], fun f_arg6 f_arg7 f_arg12 => [⟨Rect.unit (s := S32x1x256) (k0_off37 d0 k) S1x1x256.size (k0_off37_inb d0 k), (k0_pay74 (k0_pay15 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))⟩], fun f_arg6 f_arg7 f_arg12 => [⟨Rect.unit (s := S1024x256) ![0, 0] S1024x256.size inb_S1024x256_S1024x256_0_0, (k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15))⟩], fun E f_arg6 f_arg7 f_arg12 => ?run⟩
  case run =>
    unfold k0_t3_body
    iintro ⟨HR_arg10, HR_arg15, HW_arg6, HW_arg7, HW_arg12⟩
    sl_exec
    iapply (wp_store 𝒱 (c : Thread nD τ) bd E (m := locO) (r := Rect.unit (s := S32x128x256) (k0_off36 d0 k) S1x128x256.size (k0_off36_inb d0 k)) (Mk := Finset.univ) hS_arg6_k) $$ [HW_arg6]
    · iexact HW_arg6
    iintro HW_arg6
    sl_exec
    iapply (wp_store 𝒱 (c : Thread nD τ) bd E (m := locL) (r := Rect.unit (s := S32x1x256) (k0_off37 d0 k) S1x1x256.size (k0_off37_inb d0 k)) (Mk := Finset.univ) hS_arg7_k) $$ [HW_arg7]
    · iexact HW_arg7
    iintro HW_arg7
    simp only [Prog.pure_eq_ret]
    rw [wp_ret]; imodintro
    isplitl [HR_arg10]; · iexact HR_arg10
    isplitl [HR_arg15]; · iexact HR_arg15
    isplitl [HW_arg6]; · iexact HW_arg6
    isplitl [HW_arg7]; · iexact HW_arg7
    iexact HW_arg12

/-- The trip's piece lists (plain projections of `trip_…`, for the recursion below to cite without
   its proof), at the contents the trip finds in the written memrefs. -/
abbrev tripLS_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (k : Fin k0_t3_loop.trips) (f_arg6 : BufTy.Contents (Elt F) locO.view.ty) (f_arg7 : BufTy.Contents (Elt F) locL.view.ty) (f_arg12 : BufTy.Contents (Elt F) arg12.view.ty) : List (View.Piece (Elt F) S32x128x256 .bf16) × List (View.Piece (Elt F) S32x1x256 .f32) × List (View.Piece (Elt F) S1024x256 .bf16) :=
  ((tripS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k).1 f_arg6 f_arg7 f_arg12, (tripS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k).2.1 f_arg6 f_arg7 f_arg12, (tripS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k).2.2.1 f_arg6 f_arg7 f_arg12)

/-- Trip k's pieces, spelt: per written memref the rectangle of its one store and what is stored, a loaded value read off what the memref holds then. -/
theorem tripLS_k0_t3_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (k : Fin k0_t3_loop.trips) (f_arg6 : BufTy.Contents (Elt F) locO.view.ty) (f_arg7 : BufTy.Contents (Elt F) locL.view.ty) (f_arg12 : BufTy.Contents (Elt F) arg12.view.ty) :
    tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k f_arg6 f_arg7 f_arg12 = ([⟨Rect.unit (s := S32x128x256) (k0_off36 d0 k) S1x128x256.size (k0_off36_inb d0 k), (k0_pay73 (k0_pay13 (View.readAt (Elt F) arg15.view (Rect.unit (s := S2x8x1024x128) (k0_off35 d0 k) S1x1x1024x128.size (k0_off35_inb d0 k)).toLoadRect X_arg15)) (arg12.view.readCov [⟨Rect.unit (s := S1024x256) ![0, 0] S1024x256.size inb_S1024x256_S1024x256_0_0, (k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15))⟩] (Rect.unit (s := S1024x256) ![0, 0] S1024x256.size inb_S1024x256_S1024x256_0_0).toLoadRect))⟩], [⟨Rect.unit (s := S32x1x256) (k0_off37 d0 k) S1x1x256.size (k0_off37_inb d0 k), (k0_pay74 (k0_pay15 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))⟩], [⟨Rect.unit (s := S1024x256) ![0, 0] S1024x256.size inb_S1024x256_S1024x256_0_0, (k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15))⟩]) := by
  unfold tripLS_k0_t3 tripS_k0_t3
  rfl

/-- Trip `k`'s contribution to the state the recursion `pbS_k0_t3` below carries (`prev`): its pieces
   in front, per written memref; past the last trip, `prev` itself. -/
@[irreducible] def pbS_k0_t3Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t3_loop.trips then
    ((tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 ⟨k, h⟩ (locO.view.writes (Elt F) G_arg6 prev.1) (locL.view.writes (Elt F) G_arg7 prev.2.1) (arg12.view.writes (Elt F) G_arg12 prev.2.2)).1 ++ prev.1, (tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 ⟨k, h⟩ (locO.view.writes (Elt F) G_arg6 prev.1) (locL.view.writes (Elt F) G_arg7 prev.2.1) (arg12.view.writes (Elt F) G_arg12 prev.2.2)).2.1 ++ prev.2.1, (tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 ⟨k, h⟩ (locO.view.writes (Elt F) G_arg6 prev.1) (locL.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pbS_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pbS_k0_t3Step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k (pbS_k0_t3 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k)

theorem pbS_k0_t3_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t3_loop.trips) :
    pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 (k.val + 1)
      = ((tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k (locO.view.writes (Elt F) G_arg6 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).1) (locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.1) (arg12.view.writes (Elt F) G_arg12 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.2)).1 ++ (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).1, (tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k (locO.view.writes (Elt F) G_arg6 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).1) (locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.1) (arg12.view.writes (Elt F) G_arg12 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.2)).2.1 ++ (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.1, (tripLS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k (locO.view.writes (Elt F) G_arg6 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).1) (locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.1) (arg12.view.writes (Elt F) G_arg12 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.2)).2.2 ++ (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.2) := by
  rw [pbS_k0_t3.eq_2]; unfold pbS_k0_t3Step; exact dif_pos k.isLt

/-- THE INVARIANT before trip `k`: arg10, arg15 read at `X_·`; locO, locL, arg12 holding the pieces
   of the trips before `k` written over the contents at loop entry `G_·` (stated `∃ f, … ∗ ⌜f = …⌝`,
   so that a hypothesis of any contents matches and the equation is what is proved). -/
abbrev invS_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, ((locBlkO c 3).view.loc (c : Thread nD τ) ↦[(locBlkO c 3).view.set]{fullShare} f) ∗ ⌜f = locO.view.writes (Elt F) G_arg6 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k).1⌝) ∗ (∃ f, ((locBlkL c 3).view.loc (c : Thread nD τ) ↦[(locBlkL c 3).view.set]{fullShare} f) ∗ ⌜f = locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k).2.1⌝) ∗ (∃ f, (arg12.view.loc (c : Thread nD τ) ↦[arg12.view.set]{fullShare} f) ∗ ⌜f = arg12.view.writes (Elt F) G_arg12 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k).2.2⌝))

set_option warn.classDefReducibility false in
/-- THE LOOP BY ITS INVARIANT — generated (`@[sl_loop]`: `sl_exec` finds it meeting `k0_t3_loop`,
   fixing `X_· G_·` against the context; after the loop each written memref holds `writes G (pb …
   trips)`). -/
@[sl_loop] def loopInvS_k0_t3 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) :
    LoopInvTy_k0_t3 (F := F) Unit ℕ Cert.Kernel.Proto.UU ℕ 𝒱 c bd E arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 where
  inv := invS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((tripS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pbS_k0_t3_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part36`'s counted loop `k0_t6_loop` (`scf.for %arg30 =
   %c0_i32_832 to %940 step %c1_i32_834 : i32 {`), trip `k0_t6`, carrying `Unit`, region
   `Gen.k0_t6_body`. Classifier: LISTED — every store at a `Rect.unit` through a memref parameter of
   the region, nothing carried, no transfer or conditional inside: the invariant is the pieces of
   the trips before `k`; not affine (a store whose offsets chain `k0_off49` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part4`. Per trip it STORES
   through arg12 at ![0, 0]; arg6 at (k0_off49 d0 k0_t6) (NO closed form stated); arg7 at (k0_off50
   d0 k0_t6) (NO closed form stated). It LOADS through arg10 at (k0_off46 d0 k0_t6); arg15 at
   (k0_off47 d0 k0_t6); arg15 at (k0_off48 d0 k0_t6); arg12 at ![0, 0]; arg6 at (k0_off49 d0 k0_t6);
   arg7 at (k0_off50 d0 k0_t6). GENERATED below: `Gen.loopInv_k0_t6` (`@[sl_loop]`), at the frame
   kit's algebra — a run at that algebra (the generated frame's, or a hand proof's over `MT nD τ sig
   Unit (Elt F) ℕ Cert.Kernel.Proto.UU ℕ`) goes through the loop with nothing more to state; a proof at
   another algebra instances the class itself, after this one. -/
abbrev LoopInvTy_k0_t6 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) :=
  Idealize.ShloMosaic.LoopInv (M := MT nD τ sig Ix (Elt F) Name U Lvl) Idealize.ShloMosaic.frame (wpE defs₀ 𝒱 (c : Thread nD τ) bd) E
    k0_t6_loop.lb k0_t6_loop.ub k0_t6_loop.st k0_t6_ok () (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917)

/-! ### `k0_t6_loop`: the generated invariant (classifier: listed) -/

/-- One trip's resources: what the region reads (arg10, arg15) at its contents, what it writes
   (locO, locL, arg12) at any. -/
abbrev TripS_k0_t6 (c : Dev nD) (arg10 : Memref sig .tc .vmem S32x256x128 .bf16) (arg15 : Memref sig .tc .vmem S2x8x1024x128 .bf16) (arg12 : Memref sig .tc .vmem S1024x256 .bf16) (X_arg10 : BufTy.Contents (Elt F) arg10.view.ty) (X_arg15 : BufTy.Contents (Elt F) arg15.view.ty) (f_arg6 : BufTy.Contents (Elt F) locO.view.ty) (f_arg7 : BufTy.Contents (Elt F) locL.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ ((locBlkO c 1).view.loc (c : Thread nD τ) ↦[(locBlkO c 1).view.set]{fullShare} f_arg6) ∗ ((locBlkL c 1).view.loc (c : Thread nD τ) ↦[(locBlkL c 1).view.set]{fullShare} f_arg7) ∗ (arg12.view.loc (c : Thread nD τ) ↦[arg12.view.set]{fullShare} f_arg12))

/-- ONE TRIP of `k0_t6_loop` at a symbolic `k`, run by `sl_exec` (its rectangles where the program's
   in-range evidence puts them, their places unread): the pieces it writes into locO, locL, arg12
   are the run's own finds — the witnesses `sl_close` assigns handing the buffers to the
   continuation, as functions of the contents the trip finds in the memrefs it writes (the region
   loads some of them back). `@[irreducible]`: cited, never unfolded. -/
@[irreducible] def tripS_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (k : Fin k0_t6_loop.trips) :
    Σ' (L_arg6 : (BufTy.Contents (Elt F) locO.view.ty → BufTy.Contents (Elt F) locL.view.ty → BufTy.Contents (Elt F) arg12.view.ty → List (View.Piece (Elt F) S32x128x256 .bf16))) (L_arg7 : (BufTy.Contents (Elt F) locO.view.ty → BufTy.Contents (Elt F) locL.view.ty → BufTy.Contents (Elt F) arg12.view.ty → List (View.Piece (Elt F) S32x1x256 .f32))) , { L_arg12 : (BufTy.Contents (Elt F) locO.view.ty → BufTy.Contents (Elt F) locL.view.ty → BufTy.Contents (Elt F) arg12.view.ty → List (View.Piece (Elt F) S1024x256 .bf16)) // ∀ (E : Set ℕ) (f_arg6 : BufTy.Contents (Elt F) locO.view.ty) (f_arg7 : BufTy.Contents (Elt F) locL.view.ty) (f_arg12 : BufTy.Contents (Elt F) arg12.view.ty),
      TripS_k0_t6 (F := F) c arg10 arg15 arg12 X_arg10 X_arg15 f_arg6 f_arg7 f_arg12
      ⊢ wp frame (wpE (defs₀ (F := F)) 𝒱 (c : Thread nD τ) bd) E (k0_t6_body (F := F) arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 k PUnit.unit)
          (fun _ => TripS_k0_t6 (F := F) c arg10 arg15 arg12 X_arg10 X_arg15 (locO.view.writes (Elt F) f_arg6 (L_arg6 f_arg6 f_arg7 f_arg12)) (locL.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t6_abs.2.1
  have hS_arg6_k := hS_arg6 k
  have hS_arg7_k := hS_arg7 k
  refine ⟨fun f_arg6 f_arg7 f_arg12 => [⟨Rect.unit (s := S32x128x256) (k0_off49 d0 k) S1x128x256.size (k0_off49_inb d0 k), (k0_pay94 (k0_pay17 (View.readAt (Elt F) arg15.view (Rect.unit (s := S2x8x1024x128) (k0_off48 d0 k) S1x1x1024x128.size (k0_off48_inb d0 k)).toLoadRect X_arg15)) (arg12.view.readCov [⟨Rect.unit (s := S1024x256) ![0, 0] S1024x256.size inb_S1024x256_S1024x256_0_0, (k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15))⟩] (Rect.unit (s := S1024x256) ![0, 0] S1024x256.size inb_S1024x256_S1024x256_0_0).toLoadRect))⟩], fun f_arg6 f_arg7 f_arg12 => [⟨Rect.unit (s := S32x1x256) (k0_off50 d0 k) S1x1x256.size (k0_off50_inb d0 k), (k0_pay95 (k0_pay19 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))⟩], fun f_arg6 f_arg7 f_arg12 => [⟨Rect.unit (s := S1024x256) ![0, 0] S1024x256.size inb_S1024x256_S1024x256_0_0, (k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15))⟩], fun E f_arg6 f_arg7 f_arg12 => ?run⟩
  case run =>
    unfold k0_t6_body
    iintro ⟨HR_arg10, HR_arg15, HW_arg6, HW_arg7, HW_arg12⟩
    sl_exec
    iapply (wp_store 𝒱 (c : Thread nD τ) bd E (m := locO) (r := Rect.unit (s := S32x128x256) (k0_off49 d0 k) S1x128x256.size (k0_off49_inb d0 k)) (Mk := Finset.univ) hS_arg6_k) $$ [HW_arg6]
    · iexact HW_arg6
    iintro HW_arg6
    sl_exec
    iapply (wp_store 𝒱 (c : Thread nD τ) bd E (m := locL) (r := Rect.unit (s := S32x1x256) (k0_off50 d0 k) S1x1x256.size (k0_off50_inb d0 k)) (Mk := Finset.univ) hS_arg7_k) $$ [HW_arg7]
    · iexact HW_arg7
    iintro HW_arg7
    simp only [Prog.pure_eq_ret]
    rw [wp_ret]; imodintro
    isplitl [HR_arg10]; · iexact HR_arg10
    isplitl [HR_arg15]; · iexact HR_arg15
    isplitl [HW_arg6]; · iexact HW_arg6
    isplitl [HW_arg7]; · iexact HW_arg7
    iexact HW_arg12

/-- The trip's piece lists (plain projections of `trip_…`, for the recursion below to cite without
   its proof), at the contents the trip finds in the written memrefs. -/
abbrev tripLS_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (k : Fin k0_t6_loop.trips) (f_arg6 : BufTy.Contents (Elt F) locO.view.ty) (f_arg7 : BufTy.Contents (Elt F) locL.view.ty) (f_arg12 : BufTy.Contents (Elt F) arg12.view.ty) : List (View.Piece (Elt F) S32x128x256 .bf16) × List (View.Piece (Elt F) S32x1x256 .f32) × List (View.Piece (Elt F) S1024x256 .bf16) :=
  ((tripS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k).1 f_arg6 f_arg7 f_arg12, (tripS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k).2.1 f_arg6 f_arg7 f_arg12, (tripS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k).2.2.1 f_arg6 f_arg7 f_arg12)

/-- Trip k's pieces, spelt: per written memref the rectangle of its one store and what is stored, a loaded value read off what the memref holds then. -/
theorem tripLS_k0_t6_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (k : Fin k0_t6_loop.trips) (f_arg6 : BufTy.Contents (Elt F) locO.view.ty) (f_arg7 : BufTy.Contents (Elt F) locL.view.ty) (f_arg12 : BufTy.Contents (Elt F) arg12.view.ty) :
    tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k f_arg6 f_arg7 f_arg12 = ([⟨Rect.unit (s := S32x128x256) (k0_off49 d0 k) S1x128x256.size (k0_off49_inb d0 k), (k0_pay94 (k0_pay17 (View.readAt (Elt F) arg15.view (Rect.unit (s := S2x8x1024x128) (k0_off48 d0 k) S1x1x1024x128.size (k0_off48_inb d0 k)).toLoadRect X_arg15)) (arg12.view.readCov [⟨Rect.unit (s := S1024x256) ![0, 0] S1024x256.size inb_S1024x256_S1024x256_0_0, (k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15))⟩] (Rect.unit (s := S1024x256) ![0, 0] S1024x256.size inb_S1024x256_S1024x256_0_0).toLoadRect))⟩], [⟨Rect.unit (s := S32x1x256) (k0_off50 d0 k) S1x1x256.size (k0_off50_inb d0 k), (k0_pay95 (k0_pay19 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))⟩], [⟨Rect.unit (s := S1024x256) ![0, 0] S1024x256.size inb_S1024x256_S1024x256_0_0, (k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15))⟩]) := by
  unfold tripLS_k0_t6 tripS_k0_t6
  rfl

/-- Trip `k`'s contribution to the state the recursion `pbS_k0_t6` below carries (`prev`): its pieces
   in front, per written memref; past the last trip, `prev` itself. -/
@[irreducible] def pbS_k0_t6Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t6_loop.trips then
    ((tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 ⟨k, h⟩ (locO.view.writes (Elt F) G_arg6 prev.1) (locL.view.writes (Elt F) G_arg7 prev.2.1) (arg12.view.writes (Elt F) G_arg12 prev.2.2)).1 ++ prev.1, (tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 ⟨k, h⟩ (locO.view.writes (Elt F) G_arg6 prev.1) (locL.view.writes (Elt F) G_arg7 prev.2.1) (arg12.view.writes (Elt F) G_arg12 prev.2.2)).2.1 ++ prev.2.1, (tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 ⟨k, h⟩ (locO.view.writes (Elt F) G_arg6 prev.1) (locL.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pbS_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pbS_k0_t6Step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k (pbS_k0_t6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k)

theorem pbS_k0_t6_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t6_loop.trips) :
    pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 (k.val + 1)
      = ((tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k (locO.view.writes (Elt F) G_arg6 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).1) (locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.1) (arg12.view.writes (Elt F) G_arg12 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.2)).1 ++ (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).1, (tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k (locO.view.writes (Elt F) G_arg6 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).1) (locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.1) (arg12.view.writes (Elt F) G_arg12 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.2)).2.1 ++ (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.1, (tripLS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k (locO.view.writes (Elt F) G_arg6 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).1) (locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.1) (arg12.view.writes (Elt F) G_arg12 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.2)).2.2 ++ (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.2) := by
  rw [pbS_k0_t6.eq_2]; unfold pbS_k0_t6Step; exact dif_pos k.isLt

/-- THE INVARIANT before trip `k`: arg10, arg15 read at `X_·`; locO, locL, arg12 holding the pieces
   of the trips before `k` written over the contents at loop entry `G_·` (stated `∃ f, … ∗ ⌜f = …⌝`,
   so that a hypothesis of any contents matches and the equation is what is proved). -/
abbrev invS_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, ((locBlkO c 1).view.loc (c : Thread nD τ) ↦[(locBlkO c 1).view.set]{fullShare} f) ∗ ⌜f = locO.view.writes (Elt F) G_arg6 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k).1⌝) ∗ (∃ f, ((locBlkL c 1).view.loc (c : Thread nD τ) ↦[(locBlkL c 1).view.set]{fullShare} f) ∗ ⌜f = locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k).2.1⌝) ∗ (∃ f, (arg12.view.loc (c : Thread nD τ) ↦[arg12.view.set]{fullShare} f) ∗ ⌜f = arg12.view.writes (Elt F) G_arg12 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k).2.2⌝))

set_option warn.classDefReducibility false in
/-- THE LOOP BY ITS INVARIANT — generated (`@[sl_loop]`: `sl_exec` finds it meeting `k0_t6_loop`,
   fixing `X_· G_·` against the context; after the loop each written memref holds `writes G (pb …
   trips)`). -/
@[sl_loop] def loopInvS_k0_t6 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) :
    LoopInvTy_k0_t6 (F := F) Unit ℕ Cert.Kernel.Proto.UU ℕ 𝒱 c bd E arg0 harg0 arg1 harg1 arg2 harg2 arg3 harg3 arg4 harg4 arg5 harg5 locO harg6 locL harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 where
  inv := invS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((tripS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pbS_k0_t6_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part28`'s counted loop `k0_t4_loop` (`scf.for %arg30 =
   %c0_i32_613 to %699 step %c1_i32_615 : i32 {`), trip `k0_t4`, carrying `Unit`, region
   `Gen.k0_t4_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off38 k0_t4); arg8 at
   (k0_off40 k0_t4). It LOADS through arg9 at (k0_off38 k0_t4); arg7 at (k0_off39 d0 k0_t4); arg8 at
   (k0_off40 k0_t4); arg6 at (k0_off41 d0 k0_t4). GENERATED below: `Gen.loopInv_k0_t4`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t4 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) :=
  Idealize.ShloMosaic.LoopInv (M := MT nD τ sig Ix (Elt F) Name U Lvl) Idealize.ShloMosaic.frame (wpE defs₀ 𝒱 (c : Thread nD τ) bd) E
    k0_t4_loop.lb k0_t4_loop.ub k0_t4_loop.st k0_t4_ok () (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14)

/-! ### `k0_t4_loop`: the generated invariant (classifier: affine) -/

/-- One trip's resources: what the region reads (locO, locL) at its contents, what it writes (rsO,
   rsL) at any. -/
abbrev TripS_k0_t4 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 3 false).view.loc (c : Thread nD τ) ↦[(locHalfO c 3 false).view.set]{fullShare} X_arg6) ∗ ((locHalfL c 3 false).view.loc (c : Thread nD τ) ↦[(locHalfL c 3 false).view.set]{fullShare} X_arg7) ∗ ((dstO 0 false).view.loc (c : Thread nD τ) ↦[(dstO 0 false).view.set]{fullShare} f_arg8) ∗ ((dstL 0 false).view.loc (c : Thread nD τ) ↦[(dstL 0 false).view.set]{fullShare} f_arg9))

/-- ONE TRIP of `k0_t4_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (k : Fin k0_t4_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t4 (F := F) c X_arg6 X_arg7 f_arg8 f_arg9
      ⊢ wp frame (wpE (defs₀ (F := F)) 𝒱 (c : Thread nD τ) bd) E (k0_t4_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v2 v14 k PUnit.unit)
          (fun _ => TripS_k0_t4 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t4_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off40 k) S1x1x128x256.size (k0_off40_inb k), (k0_pay76 (View.readAt (Elt F) rsO.view (Rect.unit (s := S3x8x128x256) (k0_off40 k) S1x1x128x256.size (k0_off40_inb k)).toLoadRect f_arg8) (View.readAt (Elt F) locO.view (Rect.unit (s := S32x128x256) (k0_off41 d0 k) S1x128x256.size (k0_off41_inb d0 k)).toLoadRect X_arg6))⟩], fun f_arg8 f_arg9 => [⟨Rect.unit (s := S3x8x1x256) (k0_off38 k) S1x1x1x256.size (k0_off38_inb k), (k0_pay75 (View.readAt (Elt F) rsL.view (Rect.unit (s := S3x8x1x256) (k0_off38 k) S1x1x1x256.size (k0_off38_inb k)).toLoadRect f_arg9) (View.readAt (Elt F) locL.view (Rect.unit (s := S32x1x256) (k0_off39 d0 k) S1x1x256.size (k0_off39_inb d0 k)).toLoadRect X_arg7))⟩], fun E f_arg8 f_arg9 => ?run⟩
  case run =>
    unfold k0_t4_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (k : Fin k0_t4_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k).1 f_arg8 f_arg9, (tripS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t4_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (k : Fin k0_t4_loop.trips) (f_arg8 : BufTy.Contents (Elt F) rsO.view.ty) (f_arg9 : BufTy.Contents (Elt F) rsL.view.ty) :
    tripLS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k f_arg8 f_arg9 = ([⟨Rect.unit (s := S3x8x128x256) (k0_off40 k) S1x1x128x256.size (k0_off40_inb k), (k0_pay76 (View.readAt (Elt F) rsO.view (Rect.unit (s := S3x8x128x256) (k0_off40 k) S1x1x128x256.size (k0_off40_inb k)).toLoadRect f_arg8) (View.readAt (Elt F) locO.view (Rect.unit (s := S32x128x256) (k0_off41 d0 k) S1x128x256.size (k0_off41_inb d0 k)).toLoadRect X_arg6))⟩], [⟨Rect.unit (s := S3x8x1x256) (k0_off38 k) S1x1x1x256.size (k0_off38_inb k), (k0_pay75 (View.readAt (Elt F) rsL.view (Rect.unit (s := S3x8x1x256) (k0_off38 k) S1x1x1x256.size (k0_off38_inb k)).toLoadRect f_arg9) (View.readAt (Elt F) locL.view (Rect.unit (s := S32x1x256) (k0_off39 d0 k) S1x1x256.size (k0_off39_inb d0 k)).toLoadRect X_arg7))⟩]) := by
  unfold tripLS_k0_t4 tripS_k0_t4
  rfl

/-- Trip `k`'s contribution to the state the recursion `pbS_k0_t4` below carries (`prev`): its pieces
   in front, per written memref; past the last trip, `prev` itself. -/
@[irreducible] def pbS_k0_t4Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t4_loop.trips then
    ((tripLS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t4Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k (pbS_k0_t4 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k)

theorem pbS_k0_t4_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t4_loop.trips) :
    pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 (k.val + 1)
      = ((tripLS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1) (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2)).1 ++ (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1, (tripLS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1) (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2)).2 ++ (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2) := by
  rw [pbS_k0_t4.eq_2]; unfold pbS_k0_t4Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 3 false).view.loc (c : Thread nD τ) ↦[(locHalfO c 3 false).view.set]{fullShare} X_arg6) ∗ ((locHalfL c 3 false).view.loc (c : Thread nD τ) ↦[(locHalfL c 3 false).view.set]{fullShare} X_arg7) ∗ (∃ f, ((dstO 0 false).view.loc (c : Thread nD τ) ↦[(dstO 0 false).view.set]{fullShare} f) ∗ ⌜f = rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k).1⌝) ∗ (∃ f, ((dstL 0 false).view.loc (c : Thread nD τ) ↦[(dstL 0 false).view.set]{fullShare} f) ∗ ⌜f = rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t4_loop`,
   fixing `X_· G_·` against the context; after the loop each written memref holds `writes G (pb …
   trips)`). -/
@[sl_loop] def loopInvS_k0_t4 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t4 (F := F) Unit ℕ Cert.Kernel.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v2 v14 where
  inv := invS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t4_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part30`'s counted loop `k0_t5_loop` (`scf.for %arg30 =
   %c0_i32_663 to %736 step %c1_i32_665 : i32 {`), trip `k0_t5`, carrying `Unit`, region
   `Gen.k0_t5_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off42 k0_t5); arg8 at
   (k0_off44 k0_t5). It LOADS through arg9 at (k0_off42 k0_t5); arg7 at (k0_off43 d0 k0_t5); arg8 at
   (k0_off44 k0_t5); arg6 at (k0_off45 d0 k0_t5). GENERATED below: `Gen.loopInv_k0_t5`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t5 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) :=
  Idealize.ShloMosaic.LoopInv (M := MT nD τ sig Ix (Elt F) Name U Lvl) Idealize.ShloMosaic.frame (wpE defs₀ 𝒱 (c : Thread nD τ) bd) E
    k0_t5_loop.lb k0_t5_loop.ub k0_t5_loop.st k0_t5_ok () (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664)

/-! ### `k0_t5_loop`: the generated invariant (classifier: affine) -/

/-- One trip's resources: what the region reads (locO, locL) at its contents, what it writes (rsO,
   rsL) at any. -/
abbrev TripS_k0_t5 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 3 true).view.loc (c : Thread nD τ) ↦[(locHalfO c 3 true).view.set]{fullShare} X_arg6) ∗ ((locHalfL c 3 true).view.loc (c : Thread nD τ) ↦[(locHalfL c 3 true).view.set]{fullShare} X_arg7) ∗ ((dstO 0 true).view.loc (c : Thread nD τ) ↦[(dstO 0 true).view.set]{fullShare} f_arg8) ∗ ((dstL 0 true).view.loc (c : Thread nD τ) ↦[(dstL 0 true).view.set]{fullShare} f_arg9))

/-- ONE TRIP of `k0_t5_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (k : Fin k0_t5_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t5 (F := F) c X_arg6 X_arg7 f_arg8 f_arg9
      ⊢ wp frame (wpE (defs₀ (F := F)) 𝒱 (c : Thread nD τ) bd) E (k0_t5_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 k PUnit.unit)
          (fun _ => TripS_k0_t5 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t5_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off44 k) S1x1x128x256.size (k0_off44_inb k), (k0_pay78 (View.readAt (Elt F) rsO.view (Rect.unit (s := S3x8x128x256) (k0_off44 k) S1x1x128x256.size (k0_off44_inb k)).toLoadRect f_arg8) (View.readAt (Elt F) locO.view (Rect.unit (s := S32x128x256) (k0_off45 d0 k) S1x128x256.size (k0_off45_inb d0 k)).toLoadRect X_arg6))⟩], fun f_arg8 f_arg9 => [⟨Rect.unit (s := S3x8x1x256) (k0_off42 k) S1x1x1x256.size (k0_off42_inb k), (k0_pay77 (View.readAt (Elt F) rsL.view (Rect.unit (s := S3x8x1x256) (k0_off42 k) S1x1x1x256.size (k0_off42_inb k)).toLoadRect f_arg9) (View.readAt (Elt F) locL.view (Rect.unit (s := S32x1x256) (k0_off43 d0 k) S1x1x256.size (k0_off43_inb d0 k)).toLoadRect X_arg7))⟩], fun E f_arg8 f_arg9 => ?run⟩
  case run =>
    unfold k0_t5_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (k : Fin k0_t5_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k).1 f_arg8 f_arg9, (tripS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t5_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (k : Fin k0_t5_loop.trips) (f_arg8 : BufTy.Contents (Elt F) rsO.view.ty) (f_arg9 : BufTy.Contents (Elt F) rsL.view.ty) :
    tripLS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k f_arg8 f_arg9 = ([⟨Rect.unit (s := S3x8x128x256) (k0_off44 k) S1x1x128x256.size (k0_off44_inb k), (k0_pay78 (View.readAt (Elt F) rsO.view (Rect.unit (s := S3x8x128x256) (k0_off44 k) S1x1x128x256.size (k0_off44_inb k)).toLoadRect f_arg8) (View.readAt (Elt F) locO.view (Rect.unit (s := S32x128x256) (k0_off45 d0 k) S1x128x256.size (k0_off45_inb d0 k)).toLoadRect X_arg6))⟩], [⟨Rect.unit (s := S3x8x1x256) (k0_off42 k) S1x1x1x256.size (k0_off42_inb k), (k0_pay77 (View.readAt (Elt F) rsL.view (Rect.unit (s := S3x8x1x256) (k0_off42 k) S1x1x1x256.size (k0_off42_inb k)).toLoadRect f_arg9) (View.readAt (Elt F) locL.view (Rect.unit (s := S32x1x256) (k0_off43 d0 k) S1x1x256.size (k0_off43_inb d0 k)).toLoadRect X_arg7))⟩]) := by
  unfold tripLS_k0_t5 tripS_k0_t5
  rfl

/-- Trip `k`'s contribution to the state the recursion `pbS_k0_t5` below carries (`prev`): its pieces
   in front, per written memref; past the last trip, `prev` itself. -/
@[irreducible] def pbS_k0_t5Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t5_loop.trips then
    ((tripLS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t5Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k (pbS_k0_t5 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k)

theorem pbS_k0_t5_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t5_loop.trips) :
    pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 (k.val + 1)
      = ((tripLS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1) (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2)).1 ++ (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1, (tripLS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1) (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2)).2 ++ (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2) := by
  rw [pbS_k0_t5.eq_2]; unfold pbS_k0_t5Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 3 true).view.loc (c : Thread nD τ) ↦[(locHalfO c 3 true).view.set]{fullShare} X_arg6) ∗ ((locHalfL c 3 true).view.loc (c : Thread nD τ) ↦[(locHalfL c 3 true).view.set]{fullShare} X_arg7) ∗ (∃ f, ((dstO 0 true).view.loc (c : Thread nD τ) ↦[(dstO 0 true).view.set]{fullShare} f) ∗ ⌜f = rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k).1⌝) ∗ (∃ f, ((dstL 0 true).view.loc (c : Thread nD τ) ↦[(dstL 0 true).view.set]{fullShare} f) ∗ ⌜f = rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t5_loop`,
   fixing `X_· G_·` against the context; after the loop each written memref holds `writes G (pb …
   trips)`). -/
@[sl_loop] def loopInvS_k0_t5 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t5 (F := F) Unit ℕ Cert.Kernel.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 where
  inv := invS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t5_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part38`'s counted loop `k0_t7_loop` (`scf.for %arg30 =
   %c0_i32_891 to %982 step %c1_i32_893 : i32 {`), trip `k0_t7`, carrying `Unit`, region
   `Gen.k0_t7_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off51 k0_t7); arg8 at
   (k0_off53 k0_t7). It LOADS through arg9 at (k0_off51 k0_t7); arg7 at (k0_off52 d0 k0_t7); arg8 at
   (k0_off53 k0_t7); arg6 at (k0_off54 d0 k0_t7). GENERATED below: `Gen.loopInv_k0_t7`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t7 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) :=
  Idealize.ShloMosaic.LoopInv (M := MT nD τ sig Ix (Elt F) Name U Lvl) Idealize.ShloMosaic.frame (wpE defs₀ 𝒱 (c : Thread nD τ) bd) E
    k0_t7_loop.lb k0_t7_loop.ub k0_t7_loop.st k0_t7_ok () (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970)

/-! ### `k0_t7_loop`: the generated invariant (classifier: affine) -/

/-- One trip's resources: what the region reads (locO, locL) at its contents, what it writes (rsO,
   rsL) at any. -/
abbrev TripS_k0_t7 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 2 false).view.loc (c : Thread nD τ) ↦[(locHalfO c 2 false).view.set]{fullShare} X_arg6) ∗ ((locHalfL c 2 false).view.loc (c : Thread nD τ) ↦[(locHalfL c 2 false).view.set]{fullShare} X_arg7) ∗ ((dstO 1 false).view.loc (c : Thread nD τ) ↦[(dstO 1 false).view.set]{fullShare} f_arg8) ∗ ((dstL 1 false).view.loc (c : Thread nD τ) ↦[(dstL 1 false).view.set]{fullShare} f_arg9))

/-- ONE TRIP of `k0_t7_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (k : Fin k0_t7_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t7 (F := F) c X_arg6 X_arg7 f_arg8 f_arg9
      ⊢ wp frame (wpE (defs₀ (F := F)) 𝒱 (c : Thread nD τ) bd) E (k0_t7_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v970 k PUnit.unit)
          (fun _ => TripS_k0_t7 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t7_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off53 k) S1x1x128x256.size (k0_off53_inb k), (k0_pay97 (View.readAt (Elt F) rsO.view (Rect.unit (s := S3x8x128x256) (k0_off53 k) S1x1x128x256.size (k0_off53_inb k)).toLoadRect f_arg8) (View.readAt (Elt F) locO.view (Rect.unit (s := S32x128x256) (k0_off54 d0 k) S1x128x256.size (k0_off54_inb d0 k)).toLoadRect X_arg6))⟩], fun f_arg8 f_arg9 => [⟨Rect.unit (s := S3x8x1x256) (k0_off51 k) S1x1x1x256.size (k0_off51_inb k), (k0_pay96 (View.readAt (Elt F) rsL.view (Rect.unit (s := S3x8x1x256) (k0_off51 k) S1x1x1x256.size (k0_off51_inb k)).toLoadRect f_arg9) (View.readAt (Elt F) locL.view (Rect.unit (s := S32x1x256) (k0_off52 d0 k) S1x1x256.size (k0_off52_inb d0 k)).toLoadRect X_arg7))⟩], fun E f_arg8 f_arg9 => ?run⟩
  case run =>
    unfold k0_t7_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (k : Fin k0_t7_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k).1 f_arg8 f_arg9, (tripS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t7_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (k : Fin k0_t7_loop.trips) (f_arg8 : BufTy.Contents (Elt F) rsO.view.ty) (f_arg9 : BufTy.Contents (Elt F) rsL.view.ty) :
    tripLS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k f_arg8 f_arg9 = ([⟨Rect.unit (s := S3x8x128x256) (k0_off53 k) S1x1x128x256.size (k0_off53_inb k), (k0_pay97 (View.readAt (Elt F) rsO.view (Rect.unit (s := S3x8x128x256) (k0_off53 k) S1x1x128x256.size (k0_off53_inb k)).toLoadRect f_arg8) (View.readAt (Elt F) locO.view (Rect.unit (s := S32x128x256) (k0_off54 d0 k) S1x128x256.size (k0_off54_inb d0 k)).toLoadRect X_arg6))⟩], [⟨Rect.unit (s := S3x8x1x256) (k0_off51 k) S1x1x1x256.size (k0_off51_inb k), (k0_pay96 (View.readAt (Elt F) rsL.view (Rect.unit (s := S3x8x1x256) (k0_off51 k) S1x1x1x256.size (k0_off51_inb k)).toLoadRect f_arg9) (View.readAt (Elt F) locL.view (Rect.unit (s := S32x1x256) (k0_off52 d0 k) S1x1x256.size (k0_off52_inb d0 k)).toLoadRect X_arg7))⟩]) := by
  unfold tripLS_k0_t7 tripS_k0_t7
  rfl

/-- Trip `k`'s contribution to the state the recursion `pbS_k0_t7` below carries (`prev`): its pieces
   in front, per written memref; past the last trip, `prev` itself. -/
@[irreducible] def pbS_k0_t7Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t7_loop.trips then
    ((tripLS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t7Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k (pbS_k0_t7 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k)

theorem pbS_k0_t7_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t7_loop.trips) :
    pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 (k.val + 1)
      = ((tripLS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1) (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2)).1 ++ (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1, (tripLS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1) (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2)).2 ++ (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2) := by
  rw [pbS_k0_t7.eq_2]; unfold pbS_k0_t7Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 2 false).view.loc (c : Thread nD τ) ↦[(locHalfO c 2 false).view.set]{fullShare} X_arg6) ∗ ((locHalfL c 2 false).view.loc (c : Thread nD τ) ↦[(locHalfL c 2 false).view.set]{fullShare} X_arg7) ∗ (∃ f, ((dstO 1 false).view.loc (c : Thread nD τ) ↦[(dstO 1 false).view.set]{fullShare} f) ∗ ⌜f = rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k).1⌝) ∗ (∃ f, ((dstL 1 false).view.loc (c : Thread nD τ) ↦[(dstL 1 false).view.set]{fullShare} f) ∗ ⌜f = rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t7_loop`,
   fixing `X_· G_·` against the context; after the loop each written memref holds `writes G (pb …
   trips)`). -/
@[sl_loop] def loopInvS_k0_t7 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t7 (F := F) Unit ℕ Cert.Kernel.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v970 where
  inv := invS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t7_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part40`'s counted loop `k0_t8_loop` (`scf.for %arg30 =
   %c0_i32_949 to %1023 step %c1_i32_951 : i32 {`), trip `k0_t8`, carrying `Unit`, region
   `Gen.k0_t8_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off55 k0_t8); arg8 at
   (k0_off57 k0_t8). It LOADS through arg9 at (k0_off55 k0_t8); arg7 at (k0_off56 d0 k0_t8); arg8 at
   (k0_off57 k0_t8); arg6 at (k0_off58 d0 k0_t8). GENERATED below: `Gen.loopInv_k0_t8`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t8 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) :=
  Idealize.ShloMosaic.LoopInv (M := MT nD τ sig Ix (Elt F) Name U Lvl) Idealize.ShloMosaic.frame (wpE defs₀ 𝒱 (c : Thread nD τ) bd) E
    k0_t8_loop.lb k0_t8_loop.ub k0_t8_loop.st k0_t8_ok () (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020)

/-! ### `k0_t8_loop`: the generated invariant (classifier: affine) -/

/-- One trip's resources: what the region reads (locO, locL) at its contents, what it writes (rsO,
   rsL) at any. -/
abbrev TripS_k0_t8 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 0 true).view.loc (c : Thread nD τ) ↦[(locHalfO c 0 true).view.set]{fullShare} X_arg6) ∗ ((locHalfL c 0 true).view.loc (c : Thread nD τ) ↦[(locHalfL c 0 true).view.set]{fullShare} X_arg7) ∗ ((dstO 1 true).view.loc (c : Thread nD τ) ↦[(dstO 1 true).view.set]{fullShare} f_arg8) ∗ ((dstL 1 true).view.loc (c : Thread nD τ) ↦[(dstL 1 true).view.set]{fullShare} f_arg9))

/-- ONE TRIP of `k0_t8_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (k : Fin k0_t8_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t8 (F := F) c X_arg6 X_arg7 f_arg8 f_arg9
      ⊢ wp frame (wpE (defs₀ (F := F)) 𝒱 (c : Thread nD τ) bd) E (k0_t8_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 k PUnit.unit)
          (fun _ => TripS_k0_t8 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t8_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off57 k) S1x1x128x256.size (k0_off57_inb k), (k0_pay99 (View.readAt (Elt F) rsO.view (Rect.unit (s := S3x8x128x256) (k0_off57 k) S1x1x128x256.size (k0_off57_inb k)).toLoadRect f_arg8) (View.readAt (Elt F) locO.view (Rect.unit (s := S32x128x256) (k0_off58 d0 k) S1x128x256.size (k0_off58_inb d0 k)).toLoadRect X_arg6))⟩], fun f_arg8 f_arg9 => [⟨Rect.unit (s := S3x8x1x256) (k0_off55 k) S1x1x1x256.size (k0_off55_inb k), (k0_pay98 (View.readAt (Elt F) rsL.view (Rect.unit (s := S3x8x1x256) (k0_off55 k) S1x1x1x256.size (k0_off55_inb k)).toLoadRect f_arg9) (View.readAt (Elt F) locL.view (Rect.unit (s := S32x1x256) (k0_off56 d0 k) S1x1x256.size (k0_off56_inb d0 k)).toLoadRect X_arg7))⟩], fun E f_arg8 f_arg9 => ?run⟩
  case run =>
    unfold k0_t8_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (k : Fin k0_t8_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k).1 f_arg8 f_arg9, (tripS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t8_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (k : Fin k0_t8_loop.trips) (f_arg8 : BufTy.Contents (Elt F) rsO.view.ty) (f_arg9 : BufTy.Contents (Elt F) rsL.view.ty) :
    tripLS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k f_arg8 f_arg9 = ([⟨Rect.unit (s := S3x8x128x256) (k0_off57 k) S1x1x128x256.size (k0_off57_inb k), (k0_pay99 (View.readAt (Elt F) rsO.view (Rect.unit (s := S3x8x128x256) (k0_off57 k) S1x1x128x256.size (k0_off57_inb k)).toLoadRect f_arg8) (View.readAt (Elt F) locO.view (Rect.unit (s := S32x128x256) (k0_off58 d0 k) S1x128x256.size (k0_off58_inb d0 k)).toLoadRect X_arg6))⟩], [⟨Rect.unit (s := S3x8x1x256) (k0_off55 k) S1x1x1x256.size (k0_off55_inb k), (k0_pay98 (View.readAt (Elt F) rsL.view (Rect.unit (s := S3x8x1x256) (k0_off55 k) S1x1x1x256.size (k0_off55_inb k)).toLoadRect f_arg9) (View.readAt (Elt F) locL.view (Rect.unit (s := S32x1x256) (k0_off56 d0 k) S1x1x256.size (k0_off56_inb d0 k)).toLoadRect X_arg7))⟩]) := by
  unfold tripLS_k0_t8 tripS_k0_t8
  rfl

/-- Trip `k`'s contribution to the state the recursion `pbS_k0_t8` below carries (`prev`): its pieces
   in front, per written memref; past the last trip, `prev` itself. -/
@[irreducible] def pbS_k0_t8Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t8_loop.trips then
    ((tripLS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t8Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k (pbS_k0_t8 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k)

theorem pbS_k0_t8_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t8_loop.trips) :
    pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 (k.val + 1)
      = ((tripLS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1) (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2)).1 ++ (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1, (tripLS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1) (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2)).2 ++ (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2) := by
  rw [pbS_k0_t8.eq_2]; unfold pbS_k0_t8Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 0 true).view.loc (c : Thread nD τ) ↦[(locHalfO c 0 true).view.set]{fullShare} X_arg6) ∗ ((locHalfL c 0 true).view.loc (c : Thread nD τ) ↦[(locHalfL c 0 true).view.set]{fullShare} X_arg7) ∗ (∃ f, ((dstO 1 true).view.loc (c : Thread nD τ) ↦[(dstO 1 true).view.set]{fullShare} f) ∗ ⌜f = rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k).1⌝) ∗ (∃ f, ((dstL 1 true).view.loc (c : Thread nD τ) ↦[(dstL 1 true).view.set]{fullShare} f) ∗ ⌜f = rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t8_loop`,
   fixing `X_· G_·` against the context; after the loop each written memref holds `writes G (pb …
   trips)`). -/
@[sl_loop] def loopInvS_k0_t8 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t8 (F := F) Unit ℕ Cert.Kernel.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 where
  inv := invS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t8_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part43`'s counted loop `k0_t9_loop` (`scf.for %arg30 =
   %c0_i32_1056 to %1105 step %c1_i32_1058 : i32 {`), trip `k0_t9`, carrying `Unit`, region
   `Gen.k0_t9_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off59 k0_t9); arg8 at
   (k0_off61 k0_t9). It LOADS through arg9 at (k0_off59 k0_t9); arg7 at (k0_off60 d0 k0_t9); arg8 at
   (k0_off61 k0_t9); arg6 at (k0_off62 d0 k0_t9). GENERATED below: `Gen.loopInv_k0_t9`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t9 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) :=
  Idealize.ShloMosaic.LoopInv (M := MT nD τ sig Ix (Elt F) Name U Lvl) Idealize.ShloMosaic.frame (wpE defs₀ 𝒱 (c : Thread nD τ) bd) E
    k0_t9_loop.lb k0_t9_loop.ub k0_t9_loop.st k0_t9_ok () (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092)

/-! ### `k0_t9_loop`: the generated invariant (classifier: affine) -/

/-- One trip's resources: what the region reads (locO, locL) at its contents, what it writes (rsO,
   rsL) at any. -/
abbrev TripS_k0_t9 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 1 false).view.loc (c : Thread nD τ) ↦[(locHalfO c 1 false).view.set]{fullShare} X_arg6) ∗ ((locHalfL c 1 false).view.loc (c : Thread nD τ) ↦[(locHalfL c 1 false).view.set]{fullShare} X_arg7) ∗ ((dstO 2 false).view.loc (c : Thread nD τ) ↦[(dstO 2 false).view.set]{fullShare} f_arg8) ∗ ((dstL 2 false).view.loc (c : Thread nD τ) ↦[(dstL 2 false).view.set]{fullShare} f_arg9))

/-- ONE TRIP of `k0_t9_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (k : Fin k0_t9_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t9 (F := F) c X_arg6 X_arg7 f_arg8 f_arg9
      ⊢ wp frame (wpE (defs₀ (F := F)) 𝒱 (c : Thread nD τ) bd) E (k0_t9_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v1092 k PUnit.unit)
          (fun _ => TripS_k0_t9 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t9_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off61 k) S1x1x128x256.size (k0_off61_inb k), (k0_pay101 (View.readAt (Elt F) rsO.view (Rect.unit (s := S3x8x128x256) (k0_off61 k) S1x1x128x256.size (k0_off61_inb k)).toLoadRect f_arg8) (View.readAt (Elt F) locO.view (Rect.unit (s := S32x128x256) (k0_off62 d0 k) S1x128x256.size (k0_off62_inb d0 k)).toLoadRect X_arg6))⟩], fun f_arg8 f_arg9 => [⟨Rect.unit (s := S3x8x1x256) (k0_off59 k) S1x1x1x256.size (k0_off59_inb k), (k0_pay100 (View.readAt (Elt F) rsL.view (Rect.unit (s := S3x8x1x256) (k0_off59 k) S1x1x1x256.size (k0_off59_inb k)).toLoadRect f_arg9) (View.readAt (Elt F) locL.view (Rect.unit (s := S32x1x256) (k0_off60 d0 k) S1x1x256.size (k0_off60_inb d0 k)).toLoadRect X_arg7))⟩], fun E f_arg8 f_arg9 => ?run⟩
  case run =>
    unfold k0_t9_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (k : Fin k0_t9_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k).1 f_arg8 f_arg9, (tripS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t9_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (k : Fin k0_t9_loop.trips) (f_arg8 : BufTy.Contents (Elt F) rsO.view.ty) (f_arg9 : BufTy.Contents (Elt F) rsL.view.ty) :
    tripLS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k f_arg8 f_arg9 = ([⟨Rect.unit (s := S3x8x128x256) (k0_off61 k) S1x1x128x256.size (k0_off61_inb k), (k0_pay101 (View.readAt (Elt F) rsO.view (Rect.unit (s := S3x8x128x256) (k0_off61 k) S1x1x128x256.size (k0_off61_inb k)).toLoadRect f_arg8) (View.readAt (Elt F) locO.view (Rect.unit (s := S32x128x256) (k0_off62 d0 k) S1x128x256.size (k0_off62_inb d0 k)).toLoadRect X_arg6))⟩], [⟨Rect.unit (s := S3x8x1x256) (k0_off59 k) S1x1x1x256.size (k0_off59_inb k), (k0_pay100 (View.readAt (Elt F) rsL.view (Rect.unit (s := S3x8x1x256) (k0_off59 k) S1x1x1x256.size (k0_off59_inb k)).toLoadRect f_arg9) (View.readAt (Elt F) locL.view (Rect.unit (s := S32x1x256) (k0_off60 d0 k) S1x1x256.size (k0_off60_inb d0 k)).toLoadRect X_arg7))⟩]) := by
  unfold tripLS_k0_t9 tripS_k0_t9
  rfl

/-- Trip `k`'s contribution to the state the recursion `pbS_k0_t9` below carries (`prev`): its pieces
   in front, per written memref; past the last trip, `prev` itself. -/
@[irreducible] def pbS_k0_t9Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t9_loop.trips then
    ((tripLS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t9Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k (pbS_k0_t9 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k)

theorem pbS_k0_t9_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t9_loop.trips) :
    pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 (k.val + 1)
      = ((tripLS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1) (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2)).1 ++ (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1, (tripLS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1) (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2)).2 ++ (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2) := by
  rw [pbS_k0_t9.eq_2]; unfold pbS_k0_t9Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 1 false).view.loc (c : Thread nD τ) ↦[(locHalfO c 1 false).view.set]{fullShare} X_arg6) ∗ ((locHalfL c 1 false).view.loc (c : Thread nD τ) ↦[(locHalfL c 1 false).view.set]{fullShare} X_arg7) ∗ (∃ f, ((dstO 2 false).view.loc (c : Thread nD τ) ↦[(dstO 2 false).view.set]{fullShare} f) ∗ ⌜f = rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k).1⌝) ∗ (∃ f, ((dstL 2 false).view.loc (c : Thread nD τ) ↦[(dstL 2 false).view.set]{fullShare} f) ∗ ⌜f = rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t9_loop`,
   fixing `X_· G_·` against the context; after the loop each written memref holds `writes G (pb …
   trips)`). -/
@[sl_loop] def loopInvS_k0_t9 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t9 (F := F) Unit ℕ Cert.Kernel.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v14 v1092 where
  inv := invS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t9_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part45`'s counted loop `k0_t10_loop` (`scf.for %arg30 =
   %c0_i32_1114 to %1146 step %c1_i32_1116 : i32 {`), trip `k0_t10`, carrying `Unit`, region
   `Gen.k0_t10_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off63 k0_t10); arg8 at
   (k0_off65 k0_t10). It LOADS through arg9 at (k0_off63 k0_t10); arg7 at (k0_off64 d0 k0_t10); arg8
   at (k0_off65 k0_t10); arg6 at (k0_off66 d0 k0_t10). GENERATED below: `Gen.loopInv_k0_t10`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t10 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) :=
  Idealize.ShloMosaic.LoopInv (M := MT nD τ sig Ix (Elt F) Name U Lvl) Idealize.ShloMosaic.frame (wpE defs₀ 𝒱 (c : Thread nD τ) bd) E
    k0_t10_loop.lb k0_t10_loop.ub k0_t10_loop.st k0_t10_ok () (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141)

/-! ### `k0_t10_loop`: the generated invariant (classifier: affine) -/

/-- One trip's resources: what the region reads (locO, locL) at its contents, what it writes (rsO,
   rsL) at any. -/
abbrev TripS_k0_t10 (c : Dev nD) (X_arg6 : BufTy.Contents (Elt F) locO.view.ty) (X_arg7 : BufTy.Contents (Elt F) locL.view.ty) (f_arg8 : BufTy.Contents (Elt F) rsO.view.ty) (f_arg9 : BufTy.Contents (Elt F) rsL.view.ty) : sProp 𝕄G :=
  iprop(((locHalfO c 1 true).view.loc (c : Thread nD τ) ↦[(locHalfO c 1 true).view.set]{fullShare} X_arg6) ∗ ((locHalfL c 1 true).view.loc (c : Thread nD τ) ↦[(locHalfL c 1 true).view.set]{fullShare} X_arg7) ∗ ((dstO 2 true).view.loc (c : Thread nD τ) ↦[(dstO 2 true).view.set]{fullShare} f_arg8) ∗ ((dstL 2 true).view.loc (c : Thread nD τ) ↦[(dstL 2 true).view.set]{fullShare} f_arg9))

/-- ONE TRIP of `k0_t10_loop` at a symbolic `k`, run by `sl_exec` (its rectangles' offsets closed
   forms of `k`, their geometry linear arithmetic): the pieces it writes into rsO, rsL are the
   run's own finds — the witnesses `sl_close` assigns handing the buffers to the continuation, as
   functions of the contents the trip finds in the memrefs it writes (the region loads some of them
   back). `@[irreducible]`: cited, never unfolded. -/
@[irreducible] def tripS_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (k : Fin k0_t10_loop.trips) :
    Σ' (L_arg8 : (BufTy.Contents (Elt F) rsO.view.ty → BufTy.Contents (Elt F) rsL.view.ty → List (View.Piece (Elt F) S3x8x128x256 .bf16))) , { L_arg9 : (BufTy.Contents (Elt F) rsO.view.ty → BufTy.Contents (Elt F) rsL.view.ty → List (View.Piece (Elt F) S3x8x1x256 .f32)) // ∀ (E : Set ℕ) (f_arg8 : BufTy.Contents (Elt F) rsO.view.ty) (f_arg9 : BufTy.Contents (Elt F) rsL.view.ty),
      TripS_k0_t10 (F := F) c X_arg6 X_arg7 f_arg8 f_arg9
      ⊢ wp frame (wpE (defs₀ (F := F)) 𝒱 (c : Thread nD τ) bd) E (k0_t10_body (F := F) arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 k PUnit.unit)
          (fun _ => TripS_k0_t10 (F := F) c X_arg6 X_arg7 (rsO.view.writes (Elt F) f_arg8 (L_arg8 f_arg8 f_arg9)) (rsL.view.writes (Elt F) f_arg9 (L_arg9 f_arg8 f_arg9))) } := by
  have hk : k.val < 4 := Nat.lt_of_lt_of_le k.isLt k0_t10_abs.2.1
  have hS_arg6_k := hS_arg6 k
  have hS_arg7_k := hS_arg7 k
  have hS_arg8_k := hS_arg8 k
  have hS_arg9_k := hS_arg9 k
  refine ⟨fun f_arg8 f_arg9 => [⟨Rect.unit (s := S3x8x128x256) (k0_off65 k) S1x1x128x256.size (k0_off65_inb k), (k0_pay103 (View.readAt (Elt F) rsO.view (Rect.unit (s := S3x8x128x256) (k0_off65 k) S1x1x128x256.size (k0_off65_inb k)).toLoadRect f_arg8) (View.readAt (Elt F) locO.view (Rect.unit (s := S32x128x256) (k0_off66 d0 k) S1x128x256.size (k0_off66_inb d0 k)).toLoadRect X_arg6))⟩], fun f_arg8 f_arg9 => [⟨Rect.unit (s := S3x8x1x256) (k0_off63 k) S1x1x1x256.size (k0_off63_inb k), (k0_pay102 (View.readAt (Elt F) rsL.view (Rect.unit (s := S3x8x1x256) (k0_off63 k) S1x1x1x256.size (k0_off63_inb k)).toLoadRect f_arg9) (View.readAt (Elt F) locL.view (Rect.unit (s := S32x1x256) (k0_off64 d0 k) S1x1x256.size (k0_off64_inb d0 k)).toLoadRect X_arg7))⟩], fun E f_arg8 f_arg9 => ?run⟩
  case run =>
    unfold k0_t10_body
    iintro ⟨HR_arg6, HR_arg7, HW_arg8, HW_arg9⟩
    sl_exec
    sl_step
    isplitl [HR_arg6]; · iexact HR_arg6
    isplitl [HR_arg7]; · iexact HR_arg7
    isplitl [HW_arg8]; · iexact HW_arg8
    iexact HW_arg9

/-- The trip's piece lists (plain projections of `trip_…`, for the recursion below to cite without
   its proof), at the contents the trip finds in the written memrefs. -/
abbrev tripLS_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (k : Fin k0_t10_loop.trips) (f_arg8 : BufTy.Contents (Elt F) rsO.view.ty) (f_arg9 : BufTy.Contents (Elt F) rsL.view.ty) : List (View.Piece (Elt F) S3x8x128x256 .bf16) × List (View.Piece (Elt F) S3x8x1x256 .f32) :=
  ((tripS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k).1 f_arg8 f_arg9, (tripS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k).2.1 f_arg8 f_arg9)

/-- Trip k's pieces, spelt: per written memref the rectangle of its one store and what is stored, a loaded value read off what the memref holds then. -/
theorem tripLS_k0_t10_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (k : Fin k0_t10_loop.trips) (f_arg8 : BufTy.Contents (Elt F) rsO.view.ty) (f_arg9 : BufTy.Contents (Elt F) rsL.view.ty) :
    tripLS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k f_arg8 f_arg9 = ([⟨Rect.unit (s := S3x8x128x256) (k0_off65 k) S1x1x128x256.size (k0_off65_inb k), (k0_pay103 (View.readAt (Elt F) rsO.view (Rect.unit (s := S3x8x128x256) (k0_off65 k) S1x1x128x256.size (k0_off65_inb k)).toLoadRect f_arg8) (View.readAt (Elt F) locO.view (Rect.unit (s := S32x128x256) (k0_off66 d0 k) S1x128x256.size (k0_off66_inb d0 k)).toLoadRect X_arg6))⟩], [⟨Rect.unit (s := S3x8x1x256) (k0_off63 k) S1x1x1x256.size (k0_off63_inb k), (k0_pay102 (View.readAt (Elt F) rsL.view (Rect.unit (s := S3x8x1x256) (k0_off63 k) S1x1x1x256.size (k0_off63_inb k)).toLoadRect f_arg9) (View.readAt (Elt F) locL.view (Rect.unit (s := S32x1x256) (k0_off64 d0 k) S1x1x256.size (k0_off64_inb d0 k)).toLoadRect X_arg7))⟩]) := by
  unfold tripLS_k0_t10 tripS_k0_t10
  rfl

/-- Trip `k`'s contribution to the state the recursion `pbS_k0_t10` below carries (`prev`): its
   pieces in front, per written memref; past the last trip, `prev` itself. -/
@[irreducible] def pbS_k0_t10Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t10_loop.trips then
    ((tripLS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 ⟨k, h⟩ (rsO.view.writes (Elt F) G_arg8 prev.1) (rsL.view.writes (Elt F) G_arg9 prev.2)).1 ++ prev.1, (tripLS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 ⟨k, h⟩ (rsO.view.writes (Elt F) G_arg8 prev.1) (rsL.view.writes (Elt F) G_arg9 prev.2)).2 ++ prev.2)
  else prev

/-- The pieces of the trips before `k` (last first), per written memref, starting from the contents
   `G_·` at loop entry; each trip's pieces taken at the contents the earlier trips left. -/
def pbS_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : ℕ → List (View.Piece (Elt F) S3x8x128x256 .bf16) × List (View.Piece (Elt F) S3x8x1x256 .f32)
  | 0 => ([], [])
  | k + 1 => pbS_k0_t10Step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k (pbS_k0_t10 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k)

theorem pbS_k0_t10_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t10_loop.trips) :
    pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 (k.val + 1)
      = ((tripLS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1) (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2)).1 ++ (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1, (tripLS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1) (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2)).2 ++ (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2) := by
  rw [pbS_k0_t10.eq_2]; unfold pbS_k0_t10Step; exact dif_pos k.isLt

/-- THE INVARIANT before trip `k`: locO, locL read at `X_·`; rsO, rsL holding the pieces of the
   trips before `k` written over the contents at loop entry `G_·` (stated `∃ f, … ∗ ⌜f = …⌝`, so
   that a hypothesis of any contents matches and the equation is what is proved). -/
abbrev invS_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : ℕ) (_u : PUnit) : sProp 𝕄G :=
  iprop(((locHalfO c 1 true).view.loc (c : Thread nD τ) ↦[(locHalfO c 1 true).view.set]{fullShare} X_arg6) ∗ ((locHalfL c 1 true).view.loc (c : Thread nD τ) ↦[(locHalfL c 1 true).view.set]{fullShare} X_arg7) ∗ (∃ f, ((dstO 2 true).view.loc (c : Thread nD τ) ↦[(dstO 2 true).view.set]{fullShare} f) ∗ ⌜f = rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k).1⌝) ∗ (∃ f, ((dstL 2 true).view.loc (c : Thread nD τ) ↦[(dstL 2 true).view.set]{fullShare} f) ∗ ⌜f = rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k).2⌝))

set_option warn.classDefReducibility false in
/-- THE LOOP BY ITS INVARIANT — generated (`@[sl_loop]`: `sl_exec` finds it meeting `k0_t10_loop`,
   fixing `X_· G_·` against the context; after the loop each written memref holds `writes G (pb …
   trips)`). -/
@[sl_loop] def loopInvS_k0_t10 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) :
    LoopInvTy_k0_t10 (F := F) Unit ℕ Cert.Kernel.Proto.UU ℕ 𝒱 c bd E arg0 harg0 arg1 harg1 arg2 harg2 arg3 harg3 arg4 harg4 arg5 harg5 locO harg6 locL harg7 rsO harg8 rsL harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 where
  inv := invS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((tripS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pbS_k0_t10_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

end Cert.Kernel.LoopsV

end
-- ==== Proof.KB.LoopsVFacts.lean ====
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.KB.Split
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.Ring

/-
  Where each loop's rows lie.

  A flash loop of batch b writes, at trip k, row 8 b + k of the partial numerators and of the partial denominators: a row
  of block b. A merge loop of hop h and direction l reads, at trip k, one row of a half block of them, and reads and writes
  row k (or k + 4) of stage h of the landing slices. Each fact below says that the rectangle a trip goes through lies in
  the slice the device holds then.
-/

noncomputable section

namespace Cert.Kernel.LoopsV
open Cert.Kernel Cert.Kernel.Gen Cert.Kernel.Ring Cert.Kernel.Proto

open Idealize.ShloMosaic Idealize.ShloMosaic.TcCoe
open Idealize.SL.Sem

/-! ## One row within a set of rows -/

/-- A one-row rectangle of the partial numerators lies in any set holding that whole row. -/
theorem rowO_within {S : Finset S32x128x256.Idx} (off : Fin 3 → ℕ) (inb : ∀ a, off a + S1x128x256.size a ≤ S32x128x256.size a)
    (row : ℕ) (hoff : off = ![row, 0, 0]) (hS : ∀ i : S32x128x256.Idx, (i 0 : ℕ) = row → i ∈ S) :
    (locO.access (Rect.unit (s := S32x128x256) off S1x128x256.size inb)).set ⊆ S := by
  show ((View.whole cc0_scratch0).slice _).set ⊆ _
  rw [View.set_slice_whole]
  intro i hi
  have e0 := (Rect.mem_set_unit.mp hi) 0
  subst hoff
  change (row ≤ (i 0 : ℕ) ∧ (i 0 : ℕ) < row + 1) at e0
  exact hS i (by omega)

/-- The same for the partial denominators. -/
theorem rowL_within {S : Finset S32x1x256.Idx} (off : Fin 3 → ℕ) (inb : ∀ a, off a + S1x1x256.size a ≤ S32x1x256.size a)
    (row : ℕ) (hoff : off = ![row, 0, 0]) (hS : ∀ i : S32x1x256.Idx, (i 0 : ℕ) = row → i ∈ S) :
    (locL.access (Rect.unit (s := S32x1x256) off S1x1x256.size inb)).set ⊆ S := by
  show ((View.whole cc0_scratch1).slice _).set ⊆ _
  rw [View.set_slice_whole]
  intro i hi
  have e0 := (Rect.mem_set_unit.mp hi) 0
  subst hoff
  change (row ≤ (i 0 : ℕ) ∧ (i 0 : ℕ) < row + 1) at e0
  exact hS i (by omega)

/-- One head of one stage of the numerators' landing slices lies in any set holding that head of that stage. -/
theorem rowRO_within {S : Finset S3x8x128x256.Idx} (off : Fin 4 → ℕ) (inb : ∀ a, off a + S1x1x128x256.size a ≤ S3x8x128x256.size a)
    (a b : ℕ) (hoff : off = ![a, b, 0, 0]) (hS : ∀ i : S3x8x128x256.Idx, (i 0 : ℕ) = a → (i 1 : ℕ) = b → i ∈ S) :
    (rsO.access (Rect.unit (s := S3x8x128x256) off S1x1x128x256.size inb)).set ⊆ S := by
  show ((View.whole cc0_scratch2).slice _).set ⊆ _
  rw [View.set_slice_whole]
  intro i hi
  have e0 := (Rect.mem_set_unit.mp hi) 0
  have e1 := (Rect.mem_set_unit.mp hi) 1
  subst hoff
  change (a ≤ (i 0 : ℕ) ∧ (i 0 : ℕ) < a + 1) at e0
  change (b ≤ (i 1 : ℕ) ∧ (i 1 : ℕ) < b + 1) at e1
  exact hS i (by omega) (by omega)

/-- The same for the denominators' landing slices. -/
theorem rowRL_within {S : Finset S3x8x1x256.Idx} (off : Fin 4 → ℕ) (inb : ∀ a, off a + S1x1x1x256.size a ≤ S3x8x1x256.size a)
    (a b : ℕ) (hoff : off = ![a, b, 0, 0]) (hS : ∀ i : S3x8x1x256.Idx, (i 0 : ℕ) = a → (i 1 : ℕ) = b → i ∈ S) :
    (rsL.access (Rect.unit (s := S3x8x1x256) off S1x1x1x256.size inb)).set ⊆ S := by
  show ((View.whole cc0_scratch3).slice _).set ⊆ _
  rw [View.set_slice_whole]
  intro i hi
  have e0 := (Rect.mem_set_unit.mp hi) 0
  have e1 := (Rect.mem_set_unit.mp hi) 1
  subst hoff
  change (a ≤ (i 0 : ℕ) ∧ (i 0 : ℕ) < a + 1) at e0
  change (b ≤ (i 1 : ℕ) ∧ (i 1 : ℕ) < b + 1) at e1
  exact hS i (by omega) (by omega)

/-! ## The flash loops: trip k's row of batch b lies in block b -/

theorem t1_arg6_within (c : Dev nD) : ∀ k : Fin k0_t1_loop.trips, (locO.access (Rect.unit (s := S32x128x256) (k0_off13 c k) S1x128x256.size (k0_off13_inb c k))).set ⊆ (locBlkO c 0).view.set := fun k => by
  have hk : k.val < 8 := Nat.lt_of_lt_of_le k.isLt k0_t1_abs.2.1
  rw [locBlkO_set]
  refine rowO_within _ _ _ (k0_off13_eq c k) fun i hi => (mem_blkO _ _ i).mpr ?_
  have hb : blkRow c 0 = 8 * ((c.val + 0) % 4) := rfl
  have hc : c.val < 4 := c.isLt
  omega
theorem t1_arg7_within (c : Dev nD) : ∀ k : Fin k0_t1_loop.trips, (locL.access (Rect.unit (s := S32x1x256) (k0_off14 c k) S1x1x256.size (k0_off14_inb c k))).set ⊆ (locBlkL c 0).view.set := fun k => by
  have hk : k.val < 8 := Nat.lt_of_lt_of_le k.isLt k0_t1_abs.2.1
  rw [locBlkL_set]
  refine rowL_within _ _ _ (k0_off14_eq c k) fun i hi => (mem_blkL _ _ i).mpr ?_
  have hb : blkRow c 0 = 8 * ((c.val + 0) % 4) := rfl
  have hc : c.val < 4 := c.isLt
  omega

theorem t2_arg6_within (c : Dev nD) : ∀ k : Fin k0_t2_loop.trips, (locO.access (Rect.unit (s := S32x128x256) (k0_off29 c k) S1x128x256.size (k0_off29_inb c k))).set ⊆ (locBlkO c 2).view.set := fun k => by
  have hk : k.val < 8 := Nat.lt_of_lt_of_le k.isLt k0_t2_abs.2.1
  rw [locBlkO_set]
  refine rowO_within _ _ _ (off29_eq c k) fun i hi => (mem_blkO _ _ i).mpr ?_
  have hb : blkRow c 2 = 8 * ((c.val + 2) % 4) := rfl
  have hc : c.val < 4 := c.isLt
  omega
theorem t2_arg7_within (c : Dev nD) : ∀ k : Fin k0_t2_loop.trips, (locL.access (Rect.unit (s := S32x1x256) (k0_off30 c k) S1x1x256.size (k0_off30_inb c k))).set ⊆ (locBlkL c 2).view.set := fun k => by
  have hk : k.val < 8 := Nat.lt_of_lt_of_le k.isLt k0_t2_abs.2.1
  rw [locBlkL_set]
  refine rowL_within _ _ _ (off30_eq c k) fun i hi => (mem_blkL _ _ i).mpr ?_
  have hb : blkRow c 2 = 8 * ((c.val + 2) % 4) := rfl
  have hc : c.val < 4 := c.isLt
  omega

theorem t3_arg6_within (c : Dev nD) : ∀ k : Fin k0_t3_loop.trips, (locO.access (Rect.unit (s := S32x128x256) (k0_off36 c k) S1x128x256.size (k0_off36_inb c k))).set ⊆ (locBlkO c 3).view.set := fun k => by
  have hk : k.val < 8 := Nat.lt_of_lt_of_le k.isLt k0_t3_abs.2.1
  rw [locBlkO_set]
  refine rowO_within _ _ _ (off36_eq c k) fun i hi => (mem_blkO _ _ i).mpr ?_
  have hb : blkRow c 3 = 8 * ((c.val + 3) % 4) := rfl
  have hc : c.val < 4 := c.isLt
  omega
theorem t3_arg7_within (c : Dev nD) : ∀ k : Fin k0_t3_loop.trips, (locL.access (Rect.unit (s := S32x1x256) (k0_off37 c k) S1x1x256.size (k0_off37_inb c k))).set ⊆ (locBlkL c 3).view.set := fun k => by
  have hk : k.val < 8 := Nat.lt_of_lt_of_le k.isLt k0_t3_abs.2.1
  rw [locBlkL_set]
  refine rowL_within _ _ _ (off37_eq c k) fun i hi => (mem_blkL _ _ i).mpr ?_
  have hb : blkRow c 3 = 8 * ((c.val + 3) % 4) := rfl
  have hc : c.val < 4 := c.isLt
  omega

theorem t6_arg6_within (c : Dev nD) : ∀ k : Fin k0_t6_loop.trips, (locO.access (Rect.unit (s := S32x128x256) (k0_off49 c k) S1x128x256.size (k0_off49_inb c k))).set ⊆ (locBlkO c 1).view.set := fun k => by
  have hk : k.val < 8 := Nat.lt_of_lt_of_le k.isLt k0_t6_abs.2.1
  rw [locBlkO_set]
  refine rowO_within _ _ _ (off49_eq c k) fun i hi => (mem_blkO _ _ i).mpr ?_
  have hb : blkRow c 1 = 8 * ((c.val + 1) % 4) := rfl
  have hc : c.val < 4 := c.isLt
  omega
theorem t6_arg7_within (c : Dev nD) : ∀ k : Fin k0_t6_loop.trips, (locL.access (Rect.unit (s := S32x1x256) (k0_off50 c k) S1x1x256.size (k0_off50_inb c k))).set ⊆ (locBlkL c 1).view.set := fun k => by
  have hk : k.val < 8 := Nat.lt_of_lt_of_le k.isLt k0_t6_abs.2.1
  rw [locBlkL_set]
  refine rowL_within _ _ _ (off50_eq c k) fun i hi => (mem_blkL _ _ i).mpr ?_
  have hb : blkRow c 1 = 8 * ((c.val + 1) % 4) := rfl
  have hc : c.val < 4 := c.isLt
  omega

/-! ## The merge loops: trip k's row of the half block it reads, and its head of the landing slice it merges into -/

theorem t4_arg6_within (c : Dev nD) : ∀ k : Fin k0_t4_loop.trips, (locO.access (Rect.unit (s := S32x128x256) (k0_off41 c k) S1x128x256.size (k0_off41_inb c k))).set ⊆ (locHalfO c 3 false).view.set := fun k => by
  have hk : k.val < 4 := Nat.lt_of_lt_of_le k.isLt k0_t4_abs.2.1
  rw [locHalfO_set]
  refine rowO_within _ _ _ (off41_eq c k) fun i hi => (mem_halfO _ _ i).mpr ?_
  have hb : halfRow c 3 false = 8 * ((c.val + 3) % 4) + 0 := rfl
  have hc : c.val < 4 := c.isLt
  omega
theorem t4_arg7_within (c : Dev nD) : ∀ k : Fin k0_t4_loop.trips, (locL.access (Rect.unit (s := S32x1x256) (k0_off39 c k) S1x1x256.size (k0_off39_inb c k))).set ⊆ (locHalfL c 3 false).view.set := fun k => by
  have hk : k.val < 4 := Nat.lt_of_lt_of_le k.isLt k0_t4_abs.2.1
  rw [locHalfL_set]
  refine rowL_within _ _ _ (off39_eq c k) fun i hi => (mem_halfL _ _ i).mpr ?_
  have hb : halfRow c 3 false = 8 * ((c.val + 3) % 4) + 0 := rfl
  have hc : c.val < 4 := c.isLt
  omega
theorem t4_arg8_within : ∀ k : Fin k0_t4_loop.trips, (rsO.access (Rect.unit (s := S3x8x128x256) (k0_off40 k) S1x1x128x256.size (k0_off40_inb k))).set ⊆ (dstO 0 false).view.set := fun k => by
  have hk : k.val < 4 := Nat.lt_of_lt_of_le k.isLt k0_t4_abs.2.1
  rw [dstO_set_0f]
  refine rowRO_within _ _ _ _ (k0_off40_eq k) fun i h0 h1 => (mem_rO _ _ _ i).mpr ?_
  omega
theorem t4_arg9_within : ∀ k : Fin k0_t4_loop.trips, (rsL.access (Rect.unit (s := S3x8x1x256) (k0_off38 k) S1x1x1x256.size (k0_off38_inb k))).set ⊆ (dstL 0 false).view.set := fun k => by
  have hk : k.val < 4 := Nat.lt_of_lt_of_le k.isLt k0_t4_abs.2.1
  rw [dstL_set_0f]
  refine rowRL_within _ _ _ _ (k0_off38_eq k) fun i h0 h1 => (mem_rL _ _ _ i).mpr ?_
  omega

theorem t5_arg6_within (c : Dev nD) : ∀ k : Fin k0_t5_loop.trips, (locO.access (Rect.unit (s := S32x128x256) (k0_off45 c k) S1x128x256.size (k0_off45_inb c k))).set ⊆ (locHalfO c 3 true).view.set := fun k => by
  have hk : k.val < 4 := Nat.lt_of_lt_of_le k.isLt k0_t5_abs.2.1
  rw [locHalfO_set]
  refine rowO_within _ _ _ (off45_eq c k) fun i hi => (mem_halfO _ _ i).mpr ?_
  have hb : halfRow c 3 true = 8 * ((c.val + 3) % 4) + 4 := rfl
  have hc : c.val < 4 := c.isLt
  omega
theorem t5_arg7_within (c : Dev nD) : ∀ k : Fin k0_t5_loop.trips, (locL.access (Rect.unit (s := S32x1x256) (k0_off43 c k) S1x1x256.size (k0_off43_inb c k))).set ⊆ (locHalfL c 3 true).view.set := fun k => by
  have hk : k.val < 4 := Nat.lt_of_lt_of_le k.isLt k0_t5_abs.2.1
  rw [locHalfL_set]
  refine rowL_within _ _ _ (off43_eq c k) fun i hi => (mem_halfL _ _ i).mpr ?_
  have hb : halfRow c 3 true = 8 * ((c.val + 3) % 4) + 4 := rfl
  have hc : c.val < 4 := c.isLt
  omega
theorem t5_arg8_within : ∀ k : Fin k0_t5_loop.trips, (rsO.access (Rect.unit (s := S3x8x128x256) (k0_off44 k) S1x1x128x256.size (k0_off44_inb k))).set ⊆ (dstO 0 true).view.set := fun k => by
  have hk : k.val < 4 := Nat.lt_of_lt_of_le k.isLt k0_t5_abs.2.1
  rw [dstO_set_0t]
  refine rowRO_within _ _ _ _ (k0_off44_eq k) fun i h0 h1 => (mem_rO _ _ _ i).mpr ?_
  omega
theorem t5_arg9_within : ∀ k : Fin k0_t5_loop.trips, (rsL.access (Rect.unit (s := S3x8x1x256) (k0_off42 k) S1x1x1x256.size (k0_off42_inb k))).set ⊆ (dstL 0 true).view.set := fun k => by
  have hk : k.val < 4 := Nat.lt_of_lt_of_le k.isLt k0_t5_abs.2.1
  rw [dstL_set_0t]
  refine rowRL_within _ _ _ _ (k0_off42_eq k) fun i h0 h1 => (mem_rL _ _ _ i).mpr ?_
  omega

theorem t7_arg6_within (c : Dev nD) : ∀ k : Fin k0_t7_loop.trips, (locO.access (Rect.unit (s := S32x128x256) (k0_off54 c k) S1x128x256.size (k0_off54_inb c k))).set ⊆ (locHalfO c 2 false).view.set := fun k => by
  have hk : k.val < 4 := Nat.lt_of_lt_of_le k.isLt k0_t7_abs.2.1
  rw [locHalfO_set]
  refine rowO_within _ _ _ (off54_eq c k) fun i hi => (mem_halfO _ _ i).mpr ?_
  have hb : halfRow c 2 false = 8 * ((c.val + 2) % 4) + 0 := rfl
  have hc : c.val < 4 := c.isLt
  omega
theorem t7_arg7_within (c : Dev nD) : ∀ k : Fin k0_t7_loop.trips, (locL.access (Rect.unit (s := S32x1x256) (k0_off52 c k) S1x1x256.size (k0_off52_inb c k))).set ⊆ (locHalfL c 2 false).view.set := fun k => by
  have hk : k.val < 4 := Nat.lt_of_lt_of_le k.isLt k0_t7_abs.2.1
  rw [locHalfL_set]
  refine rowL_within _ _ _ (off52_eq c k) fun i hi => (mem_halfL _ _ i).mpr ?_
  have hb : halfRow c 2 false = 8 * ((c.val + 2) % 4) + 0 := rfl
  have hc : c.val < 4 := c.isLt
  omega
theorem t7_arg8_within : ∀ k : Fin k0_t7_loop.trips, (rsO.access (Rect.unit (s := S3x8x128x256) (k0_off53 k) S1x1x128x256.size (k0_off53_inb k))).set ⊆ (dstO 1 false).view.set := fun k => by
  have hk : k.val < 4 := Nat.lt_of_lt_of_le k.isLt k0_t7_abs.2.1
  rw [dstO_set_1f]
  refine rowRO_within _ _ _ _ (k0_off53_eq k) fun i h0 h1 => (mem_rO _ _ _ i).mpr ?_
  omega
theorem t7_arg9_within : ∀ k : Fin k0_t7_loop.trips, (rsL.access (Rect.unit (s := S3x8x1x256) (k0_off51 k) S1x1x1x256.size (k0_off51_inb k))).set ⊆ (dstL 1 false).view.set := fun k => by
  have hk : k.val < 4 := Nat.lt_of_lt_of_le k.isLt k0_t7_abs.2.1
  rw [dstL_set_1f]
  refine rowRL_within _ _ _ _ (k0_off51_eq k) fun i h0 h1 => (mem_rL _ _ _ i).mpr ?_
  omega

theorem t8_arg6_within (c : Dev nD) : ∀ k : Fin k0_t8_loop.trips, (locO.access (Rect.unit (s := S32x128x256) (k0_off58 c k) S1x128x256.size (k0_off58_inb c k))).set ⊆ (locHalfO c 0 true).view.set := fun k => by
  have hk : k.val < 4 := Nat.lt_of_lt_of_le k.isLt k0_t8_abs.2.1
  rw [locHalfO_set]
  refine rowO_within _ _ _ (off58_eq c k) fun i hi => (mem_halfO _ _ i).mpr ?_
  have hb : halfRow c 0 true = 8 * ((c.val + 0) % 4) + 4 := rfl
  have hc : c.val < 4 := c.isLt
  omega
theorem t8_arg7_within (c : Dev nD) : ∀ k : Fin k0_t8_loop.trips, (locL.access (Rect.unit (s := S32x1x256) (k0_off56 c k) S1x1x256.size (k0_off56_inb c k))).set ⊆ (locHalfL c 0 true).view.set := fun k => by
  have hk : k.val < 4 := Nat.lt_of_lt_of_le k.isLt k0_t8_abs.2.1
  rw [locHalfL_set]
  refine rowL_within _ _ _ (off56_eq c k) fun i hi => (mem_halfL _ _ i).mpr ?_
  have hb : halfRow c 0 true = 8 * ((c.val + 0) % 4) + 4 := rfl
  have hc : c.val < 4 := c.isLt
  omega
theorem t8_arg8_within : ∀ k : Fin k0_t8_loop.trips, (rsO.access (Rect.unit (s := S3x8x128x256) (k0_off57 k) S1x1x128x256.size (k0_off57_inb k))).set ⊆ (dstO 1 true).view.set := fun k => by
  have hk : k.val < 4 := Nat.lt_of_lt_of_le k.isLt k0_t8_abs.2.1
  rw [dstO_set_1t]
  refine rowRO_within _ _ _ _ (k0_off57_eq k) fun i h0 h1 => (mem_rO _ _ _ i).mpr ?_
  omega
theorem t8_arg9_within : ∀ k : Fin k0_t8_loop.trips, (rsL.access (Rect.unit (s := S3x8x1x256) (k0_off55 k) S1x1x1x256.size (k0_off55_inb k))).set ⊆ (dstL 1 true).view.set := fun k => by
  have hk : k.val < 4 := Nat.lt_of_lt_of_le k.isLt k0_t8_abs.2.1
  rw [dstL_set_1t]
  refine rowRL_within _ _ _ _ (k0_off55_eq k) fun i h0 h1 => (mem_rL _ _ _ i).mpr ?_
  omega

theorem t9_arg6_within (c : Dev nD) : ∀ k : Fin k0_t9_loop.trips, (locO.access (Rect.unit (s := S32x128x256) (k0_off62 c k) S1x128x256.size (k0_off62_inb c k))).set ⊆ (locHalfO c 1 false).view.set := fun k => by
  have hk : k.val < 4 := Nat.lt_of_lt_of_le k.isLt k0_t9_abs.2.1
  rw [locHalfO_set]
  refine rowO_within _ _ _ (off62_eq c k) fun i hi => (mem_halfO _ _ i).mpr ?_
  have hb : halfRow c 1 false = 8 * ((c.val + 1) % 4) + 0 := rfl
  have hc : c.val < 4 := c.isLt
  omega
theorem t9_arg7_within (c : Dev nD) : ∀ k : Fin k0_t9_loop.trips, (locL.access (Rect.unit (s := S32x1x256) (k0_off60 c k) S1x1x256.size (k0_off60_inb c k))).set ⊆ (locHalfL c 1 false).view.set := fun k => by
  have hk : k.val < 4 := Nat.lt_of_lt_of_le k.isLt k0_t9_abs.2.1
  rw [locHalfL_set]
  refine rowL_within _ _ _ (off60_eq c k) fun i hi => (mem_halfL _ _ i).mpr ?_
  have hb : halfRow c 1 false = 8 * ((c.val + 1) % 4) + 0 := rfl
  have hc : c.val < 4 := c.isLt
  omega
theorem t9_arg8_within : ∀ k : Fin k0_t9_loop.trips, (rsO.access (Rect.unit (s := S3x8x128x256) (k0_off61 k) S1x1x128x256.size (k0_off61_inb k))).set ⊆ (dstO 2 false).view.set := fun k => by
  have hk : k.val < 4 := Nat.lt_of_lt_of_le k.isLt k0_t9_abs.2.1
  rw [dstO_set_2f]
  refine rowRO_within _ _ _ _ (k0_off61_eq k) fun i h0 h1 => (mem_rO _ _ _ i).mpr ?_
  omega
theorem t9_arg9_within : ∀ k : Fin k0_t9_loop.trips, (rsL.access (Rect.unit (s := S3x8x1x256) (k0_off59 k) S1x1x1x256.size (k0_off59_inb k))).set ⊆ (dstL 2 false).view.set := fun k => by
  have hk : k.val < 4 := Nat.lt_of_lt_of_le k.isLt k0_t9_abs.2.1
  rw [dstL_set_2f]
  refine rowRL_within _ _ _ _ (k0_off59_eq k) fun i h0 h1 => (mem_rL _ _ _ i).mpr ?_
  omega

theorem t10_arg6_within (c : Dev nD) : ∀ k : Fin k0_t10_loop.trips, (locO.access (Rect.unit (s := S32x128x256) (k0_off66 c k) S1x128x256.size (k0_off66_inb c k))).set ⊆ (locHalfO c 1 true).view.set := fun k => by
  have hk : k.val < 4 := Nat.lt_of_lt_of_le k.isLt k0_t10_abs.2.1
  rw [locHalfO_set]
  refine rowO_within _ _ _ (off66_eq c k) fun i hi => (mem_halfO _ _ i).mpr ?_
  have hb : halfRow c 1 true = 8 * ((c.val + 1) % 4) + 4 := rfl
  have hc : c.val < 4 := c.isLt
  omega
theorem t10_arg7_within (c : Dev nD) : ∀ k : Fin k0_t10_loop.trips, (locL.access (Rect.unit (s := S32x1x256) (k0_off64 c k) S1x1x256.size (k0_off64_inb c k))).set ⊆ (locHalfL c 1 true).view.set := fun k => by
  have hk : k.val < 4 := Nat.lt_of_lt_of_le k.isLt k0_t10_abs.2.1
  rw [locHalfL_set]
  refine rowL_within _ _ _ (off64_eq c k) fun i hi => (mem_halfL _ _ i).mpr ?_
  have hb : halfRow c 1 true = 8 * ((c.val + 1) % 4) + 4 := rfl
  have hc : c.val < 4 := c.isLt
  omega
theorem t10_arg8_within : ∀ k : Fin k0_t10_loop.trips, (rsO.access (Rect.unit (s := S3x8x128x256) (k0_off65 k) S1x1x128x256.size (k0_off65_inb k))).set ⊆ (dstO 2 true).view.set := fun k => by
  have hk : k.val < 4 := Nat.lt_of_lt_of_le k.isLt k0_t10_abs.2.1
  rw [dstO_set_2t]
  refine rowRO_within _ _ _ _ (k0_off65_eq k) fun i h0 h1 => (mem_rO _ _ _ i).mpr ?_
  omega
theorem t10_arg9_within : ∀ k : Fin k0_t10_loop.trips, (rsL.access (Rect.unit (s := S3x8x1x256) (k0_off63 k) S1x1x1x256.size (k0_off63_inb k))).set ⊆ (dstL 2 true).view.set := fun k => by
  have hk : k.val < 4 := Nat.lt_of_lt_of_le k.isLt k0_t10_abs.2.1
  rw [dstL_set_2t]
  refine rowRL_within _ _ _ _ (k0_off63_eq k) fun i h0 h1 => (mem_rL _ _ _ i).mpr ?_
  omega

end Cert.Kernel.LoopsV

end
-- ==== Proof.KB.Bridge.lean ====
/-
  From what a buffer holds, row by row, to the values the schedule names.

  The ring's slices are rectangles of whole buffers with unit axes dropped, so a slice read at an index is the buffer
  read at the index shifted by the rectangle's offsets.  The values `V` are defined slot by slot: at hop 0 a slot is
  a row of the device's own partial sums; afterwards it is the received slot merged with the local row; a forwarded half
  block is what was received.  Hence: if the rows of a buffer read as those terms, the slice reads as `V`.
-/
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.KB.Ring
import proofs.«900754_g7700000000000755_dist_attn_cross_gqa_kvseq_b4_sq256_skv1024_d1024_hq8_dh128_v7x_i4_f32_1_alg».proof.Proof.KB.Split
import Idealize.ShloMosaic.Lib.ValueIdx
import Idealize.ShloMosaic.Lib.ValueLayout
import Idealize.ShloMosaic.Lib.Pipeline.Value

noncomputable section

namespace Cert.Kernel.KFun

open Cert.Kernel Cert.Kernel.Gen Cert.Kernel.Ring Cert.Kernel.Proto
open Idealize.ShloMosaic Idealize.ShloMosaic.TcCoe Idealize.ShloMosaic.ValueIdx Idealize.SL.Sem

variable {F : FTy → Type} [FloatOps F]

/-! ## A slice read at an index -/

/-- Four heads of one hop of the numerators' stage buffer: slot `k`, coordinate `d`, query row `i` of the slice is
    the buffer at hop `a`, head `b + k`. -/
theorem rsO_slice_read (a b : ℕ) (inb : ∀ x, (![a, b, 0, 0] : Fin 4 → ℕ) x + S1x4x128x256.size x ≤ S3x8x128x256.size x)
    (hq : S1x4x128x256.Squeezes S4x128x256) (c : Dev nD) (f : Buf (Elt F) ((c : Thread nD τ).loc cc0_scratch2))
    (k : Fin 4) (d : Fin 128) (i : Fin 256) :
    ((Proto.rsO.slice (Rect.unit (s := S3x8x128x256) ![a, b, 0, 0] S1x4x128x256.size inb) (fun _ => rfl)).squeeze S4x128x256 hq).view.read (Elt F) f (ix3 k d i)
      = f (ix4 (⟨a, by have := inb 0; simp at this; omega⟩ : Fin 3) (⟨b + k.val, by have := inb 1; simp at this; omega⟩ : Fin 8) d i) := by
  rw [Memref.read_squeeze_slice (hc := (by decide : S1x4x128x256.ShapeCasts S4x128x256)), shapeCast_1abc_abc_apply, View.readAt_apply, View.read_apply]
  show f _ = f _
  refine congrArg f (funext fun x => Fin.ext ?_)
  match x with
  | ⟨0, _⟩ => show a + 1 * 0 = a; omega
  | ⟨1, _⟩ => show b + 1 * k.val = b + k.val; omega
  | ⟨2, _⟩ => show 0 + 1 * d.val = d.val; omega
  | ⟨3, _⟩ => show 0 + 1 * i.val = i.val; omega

/-- The same for the denominators' stage buffer. -/
theorem rsL_slice_read (a b : ℕ) (inb : ∀ x, (![a, b, 0, 0] : Fin 4 → ℕ) x + S1x4x1x256.size x ≤ S3x8x1x256.size x)
    (hq : S1x4x1x256.Squeezes S4x1x256) (c : Dev nD) (f : Buf (Elt F) ((c : Thread nD τ).loc cc0_scratch3))
    (k : Fin 4) (u : Fin 1) (i : Fin 256) :
    ((Proto.rsL.slice (Rect.unit (s := S3x8x1x256) ![a, b, 0, 0] S1x4x1x256.size inb) (fun _ => rfl)).squeeze S4x1x256 hq).view.read (Elt F) f (ix3 k u i)
      = f (ix4 (⟨a, by have := inb 0; simp at this; omega⟩ : Fin 3) (⟨b + k.val, by have := inb 1; simp at this; omega⟩ : Fin 8) u i) := by
  rw [Memref.read_squeeze_slice (hc := (by decide : S1x4x1x256.ShapeCasts S4x1x256)), shapeCast_1abc_abc_apply, View.readAt_apply, View.read_apply]
  show f _ = f _
  refine congrArg f (funext fun x => Fin.ext ?_)
  match x with
  | ⟨0, _⟩ => show a + 1 * 0 = a; omega
  | ⟨1, _⟩ => show b + 1 * k.val = b + k.val; omega
  | ⟨2, _⟩ => show 0 + 1 * u.val = u.val; omega
  | ⟨3, _⟩ => show 0 + 1 * i.val = i.val; omega

/-- Four rows of the device's own numerators from row `a`. -/
theorem locO_slice_read (off : Fin 3 → ℕ) (a : ℕ) (hoff : off = ![a, 0, 0]) (inb : ∀ x, off x + S4x128x256.size x ≤ S32x128x256.size x)
    (c : Dev nD) (f : Buf (Elt F) ((c : Thread nD τ).loc cc0_scratch0)) (k : Fin 4) (d : Fin 128) (i : Fin 256) :
    (locO.slice (Rect.unit (s := S32x128x256) off S4x128x256.size inb) (fun _ => rfl)).view.read (Elt F) f (ix3 k d i)
      = f (ix3 (⟨a + k.val, by subst hoff; have := inb 0; simp at this; omega⟩ : Fin 32) d i) := by
  subst hoff
  rw [View.read_apply]
  show f _ = f _
  refine congrArg f (funext fun x => Fin.ext ?_)
  match x with
  | ⟨0, _⟩ => show a + 1 * k.val = a + k.val; omega
  | ⟨1, _⟩ => show 0 + 1 * d.val = d.val; omega
  | ⟨2, _⟩ => show 0 + 1 * i.val = i.val; omega

/-- and of its denominators. -/
theorem locL_slice_read (off : Fin 3 → ℕ) (a : ℕ) (hoff : off = ![a, 0, 0]) (inb : ∀ x, off x + S4x1x256.size x ≤ S32x1x256.size x)
    (c : Dev nD) (f : Buf (Elt F) ((c : Thread nD τ).loc cc0_scratch1)) (k : Fin 4) (u : Fin 1) (i : Fin 256) :
    (locL.slice (Rect.unit (s := S32x1x256) off S4x1x256.size inb) (fun _ => rfl)).view.read (Elt F) f (ix3 k u i)
      = f (ix3 (⟨a + k.val, by subst hoff; have := inb 0; simp at this; omega⟩ : Fin 32) u i) := by
  subst hoff
  rw [View.read_apply]
  show f _ = f _
  refine congrArg f (funext fun x => Fin.ext ?_)
  match x with
  | ⟨0, _⟩ => show a + 1 * k.val = a + k.val; omega
  | ⟨1, _⟩ => show 0 + 1 * u.val = u.val; omega
  | ⟨2, _⟩ => show 0 + 1 * i.val = i.val; omega

/-- A half block of the gathered result: row `r`, column `n` of the slice is block `a`, row `b + r`. -/
theorem agB_slice_read (off : Fin 3 → ℕ) (a b : ℕ) (hoff : off = ![a, b, 0]) (inb : ∀ x, off x + S1x128x1024.size x ≤ S4x256x1024.size x)
    (hq : S1x128x1024.Squeezes S128x1024) (c : Dev nD) (f : Buf (Elt F) ((c : Thread nD τ).loc cc0_scratch23))
    (r : Fin 128) (n : Fin 1024) :
    ((agB.slice (Rect.unit (s := S4x256x1024) off S1x128x1024.size inb) (fun _ => rfl)).squeeze S128x1024 hq).view.read (Elt F) f (ix2 r n)
      = f (ix3 (⟨a, by subst hoff; have := inb 0; simp at this; omega⟩ : Fin 4) (⟨b + r.val, by subst hoff; have := inb 1; simp at this; omega⟩ : Fin 256) n) := by
  subst hoff
  rw [Memref.read_squeeze_slice (hc := (by decide : S1x128x1024.ShapeCasts S128x1024)), shapeCast_1ab_ab_apply, View.readAt_apply, View.read_apply]
  show f _ = f _
  refine congrArg f (funext fun x => Fin.ext ?_)
  match x with
  | ⟨0, _⟩ => show a + 1 * 0 = a; omega
  | ⟨1, _⟩ => show b + 1 * r.val = b + r.val; omega
  | ⟨2, _⟩ => show 0 + 1 * n.val = n.val; omega

/-! ### The ring's slices, one by one -/

section Instances
variable (c : Dev nD)

theorem dstO_read_0f (f : Buf (Elt F) ((c : Thread nD τ).loc cc0_scratch2)) (k : Fin 4) (d : Fin 128) (i : Fin 256) :
    (dstO 0 false).view.read (Elt F) f (ix3 k d i) = f (ix4 (0 : Fin 3) (headAt false k) d i) :=
  (rsO_slice_read 0 0 inb_S3x8x128x256_S1x4x128x256_0_0_0_0 squeezes_S1x4x128x256_S4x128x256 c f k d i).trans (congrArg f (funext fun x => Fin.ext (by
    match x with | ⟨0, _⟩ => rfl | ⟨1, _⟩ => exact Nat.zero_add _ | ⟨2, _⟩ => rfl | ⟨3, _⟩ => rfl)))
theorem dstO_read_0t (f : Buf (Elt F) ((c : Thread nD τ).loc cc0_scratch2)) (k : Fin 4) (d : Fin 128) (i : Fin 256) :
    (dstO 0 true).view.read (Elt F) f (ix3 k d i) = f (ix4 (0 : Fin 3) (headAt true k) d i) :=
  (rsO_slice_read 0 4 inb_S3x8x128x256_S1x4x128x256_0_4_0_0 squeezes_S1x4x128x256_S4x128x256 c f k d i).trans (congrArg f (funext fun x => Fin.ext (by
    match x with | ⟨0, _⟩ => rfl | ⟨1, _⟩ => exact Nat.add_comm _ _ | ⟨2, _⟩ => rfl | ⟨3, _⟩ => rfl)))
theorem dstO_read_1f (f : Buf (Elt F) ((c : Thread nD τ).loc cc0_scratch2)) (k : Fin 4) (d : Fin 128) (i : Fin 256) :
    (dstO 1 false).view.read (Elt F) f (ix3 k d i) = f (ix4 (1 : Fin 3) (headAt false k) d i) :=
  (rsO_slice_read 1 0 inb_S3x8x128x256_S1x4x128x256_1_0_0_0 squeezes_S1x4x128x256_S4x128x256 c f k d i).trans (congrArg f (funext fun x => Fin.ext (by
    match x with | ⟨0, _⟩ => rfl | ⟨1, _⟩ => exact Nat.zero_add _ | ⟨2, _⟩ => rfl | ⟨3, _⟩ => rfl)))
theorem dstO_read_1t (f : Buf (Elt F) ((c : Thread nD τ).loc cc0_scratch2)) (k : Fin 4) (d : Fin 128) (i : Fin 256) :
    (dstO 1 true).view.read (Elt F) f (ix3 k d i) = f (ix4 (1 : Fin 3) (headAt true k) d i) :=
  (rsO_slice_read 1 4 inb_S3x8x128x256_S1x4x128x256_1_4_0_0 squeezes_S1x4x128x256_S4x128x256 c f k d i).trans (congrArg f (funext fun x => Fin.ext (by
    match x with | ⟨0, _⟩ => rfl | ⟨1, _⟩ => exact Nat.add_comm _ _ | ⟨2, _⟩ => rfl | ⟨3, _⟩ => rfl)))
theorem dstO_read_2f (f : Buf (Elt F) ((c : Thread nD τ).loc cc0_scratch2)) (k : Fin 4) (d : Fin 128) (i : Fin 256) :
    (dstO 2 false).view.read (Elt F) f (ix3 k d i) = f (ix4 (2 : Fin 3) (headAt false k) d i) :=
  (rsO_slice_read 2 0 inb_S3x8x128x256_S1x4x128x256_2_0_0_0 squeezes_S1x4x128x256_S4x128x256 c f k d i).trans (congrArg f (funext fun x => Fin.ext (by
    match x with | ⟨0, _⟩ => rfl | ⟨1, _⟩ => exact Nat.zero_add _ | ⟨2, _⟩ => rfl | ⟨3, _⟩ => rfl)))
theorem dstO_read_2t (f : Buf (Elt F) ((c : Thread nD τ).loc cc0_scratch2)) (k : Fin 4) (d : Fin 128) (i : Fin 256) :
    (dstO 2 true).view.read (Elt F) f (ix3 k d i) = f (ix4 (2 : Fin 3) (headAt true k) d i) :=
  (rsO_slice_read 2 4 inb_S3x8x128x256_S1x4x128x256_2_4_0_0 squeezes_S1x4x128x256_S4x128x256 c f k d i).trans (congrArg f (funext fun x => Fin.ext (by
    match x with | ⟨0, _⟩ => rfl | ⟨1, _⟩ => exact Nat.add_comm _ _ | ⟨2, _⟩ => rfl | ⟨3, _⟩ => rfl)))

theorem dstL_read_0f (f : Buf (Elt F) ((c : Thread nD τ).loc cc0_scratch3)) (k : Fin 4) (u : Fin 1) (i : Fin 256) :
    (dstL 0 false).view.read (Elt F) f (ix3 k u i) = f (ix4 (0 : Fin 3) (headAt false k) u i) :=
  (rsL_slice_read 0 0 inb_S3x8x1x256_S1x4x1x256_0_0_0_0 squeezes_S1x4x1x256_S4x1x256 c f k u i).trans (congrArg f (funext fun x => Fin.ext (by
    match x with | ⟨0, _⟩ => rfl | ⟨1, _⟩ => exact Nat.zero_add _ | ⟨2, _⟩ => rfl | ⟨3, _⟩ => rfl)))
theorem dstL_read_0t (f : Buf (Elt F) ((c : Thread nD τ).loc cc0_scratch3)) (k : Fin 4) (u : Fin 1) (i : Fin 256) :
    (dstL 0 true).view.read (Elt F) f (ix3 k u i) = f (ix4 (0 : Fin 3) (headAt true k) u i) :=
  (rsL_slice_read 0 4 inb_S3x8x1x256_S1x4x1x256_0_4_0_0 squeezes_S1x4x1x256_S4x1x256 c f k u i).trans (congrArg f (funext fun x => Fin.ext (by
    match x with | ⟨0, _⟩ => rfl | ⟨1, _⟩ => exact Nat.add_comm _ _ | ⟨2, _⟩ => rfl | ⟨3, _⟩ => rfl)))
theorem dstL_read_1f (f : Buf (Elt F) ((c : Thread nD τ).loc cc0_scratch3)) (k : Fin 4) (u : Fin 1) (i : Fin 256) :
    (dstL 1 false).view.read (Elt F) f (ix3 k u i) = f (ix4 (1 : Fin 3) (headAt false k) u i) :=
  (rsL_slice_read 1 0 inb_S3x8x1x256_S1x4x1x256_1_0_0_0 squeezes_S1x4x1x256_S4x1x256 c f k u i).trans (congrArg f (funext fun x => Fin.ext (by
    match x with | ⟨0, _⟩ => rfl | ⟨1, _⟩ => exact Nat.zero_add _ | ⟨2, _⟩ => rfl | ⟨3, _⟩ => rfl)))
theorem dstL_read_1t (f : Buf (Elt F) ((c : Thread nD τ).loc cc0_scratch3)) (k : Fin 4) (u : Fin 1) (i : Fin 256) :
    (dstL 1 true).view.read (Elt F) f (ix3 k u i) = f (ix4 (1 : Fin 3) (headAt true k) u i) :=
  (rsL_slice_read 1 4 inb_S3x8x1x256_S1x4x1x256_1_4_0_0 squeezes_S1x4x1x256_S4x1x256 c f k u i).trans (congrArg f (funext fun x => Fin.ext (by
    match x with | ⟨0, _⟩ => rfl | ⟨1, _⟩ => exact Nat.add_comm _ _ | ⟨2, _⟩ => rfl | ⟨3, _⟩ => rfl)))
theorem dstL_read_2f (f : Buf (Elt F) ((c : Thread nD τ).loc cc0_scratch3)) (k : Fin 4) (u : Fin 1) (i : Fin 256) :
    (dstL 2 false).view.read (Elt F) f (ix3 k u i) = f (ix4 (2 : Fin 3) (headAt false k) u i) :=
  (rsL_slice_read 2 0 inb_S3x8x1x256_S1x4x1x256_2_0_0_0 squeezes_S1x4x1x256_S4x1x256 c f k u i).trans (congrArg f (funext fun x => Fin.ext (by
    match x with | ⟨0, _⟩ => rfl | ⟨1, _⟩ => exact Nat.zero_add _ | ⟨2, _⟩ => rfl | ⟨3, _⟩ => rfl)))
theorem dstL_read_2t (f : Buf (Elt F) ((c : Thread nD τ).loc cc0_scratch3)) (k : Fin 4) (u : Fin 1) (i : Fin 256) :
    (dstL 2 true).view.read (Elt F) f (ix3 k u i) = f (ix4 (2 : Fin 3) (headAt true k) u i) :=
  (rsL_slice_read 2 4 inb_S3x8x1x256_S1x4x1x256_2_4_0_0 squeezes_S1x4x1x256_S4x1x256 c f k u i).trans (congrArg f (funext fun x => Fin.ext (by
    match x with | ⟨0, _⟩ => rfl | ⟨1, _⟩ => exact Nat.add_comm _ _ | ⟨2, _⟩ => rfl | ⟨3, _⟩ => rfl)))

/-- The rows of its own partial sums a device sends first: batch `c`, heads 0–3, and batch `c + 2`, heads 4–7. -/
theorem srcO_read_0f (f : Buf (Elt F) ((c : Thread nD τ).loc cc0_scratch0)) (k : Fin 4) (d : Fin 128) (i : Fin 256) :
    (srcO c 0 false).view.read (Elt F) f (ix3 k d i)
      = f (ix3 (⟨8 * c.val + k.val, by have h : c.val < 4 := c.isLt; omega⟩ : Fin 32) d i) :=
  locO_slice_read (k0_off15 c) (8 * c.val) (k0_off15_eq c) (k0_off15_inb c) c f k d i
theorem srcO_read_0t (f : Buf (Elt F) ((c : Thread nD τ).loc cc0_scratch0)) (k : Fin 4) (d : Fin 128) (i : Fin 256) :
    (srcO c 0 true).view.read (Elt F) f (ix3 k d i)
      = f (ix3 (⟨8 * ((c.val + 2) % 4) + 4 + k.val, by omega⟩ : Fin 32) d i) :=
  locO_slice_read (k0_off31 c) (8 * ((c.val + 2) % 4) + 4) (off31_eq c) (k0_off31_inb c) c f k d i
theorem srcL_read_0f (f : Buf (Elt F) ((c : Thread nD τ).loc cc0_scratch1)) (k : Fin 4) (u : Fin 1) (i : Fin 256) :
    (srcL c 0 false).view.read (Elt F) f (ix3 k u i)
      = f (ix3 (⟨8 * c.val + k.val, by have h : c.val < 4 := c.isLt; omega⟩ : Fin 32) u i) :=
  locL_slice_read (k0_off16 c) (8 * c.val) (k0_off16_eq c) (k0_off16_inb c) c f k u i
theorem srcL_read_0t (f : Buf (Elt F) ((c : Thread nD τ).loc cc0_scratch1)) (k : Fin 4) (u : Fin 1) (i : Fin 256) :
    (srcL c 0 true).view.read (Elt F) f (ix3 k u i)
      = f (ix3 (⟨8 * ((c.val + 2) % 4) + 4 + k.val, by omega⟩ : Fin 32) u i) :=
  locL_slice_read (k0_off32 c) (8 * ((c.val + 2) % 4) + 4) (off32_eq c) (k0_off32_inb c) c f k u i

/-- The half blocks of the gathering, named on the sender `c'`: to the right, rows 0–127 of block `c' + 1 − h`; to the
    left, rows 128–255 of block `c' + 1 + h`. -/
theorem agS_read_0f (c' : Dev nD) (f : Buf (Elt F) ((c : Thread nD τ).loc cc0_scratch23)) (r : Fin 128) (n : Fin 1024) :
    (agS c' 0 false).view.read (Elt F) f (ix2 r n) = f (ix3 (⟨(c'.val + 1) % 4, by omega⟩ : Fin 4) (⟨0 + r.val, by omega⟩ : Fin 256) n) :=
  agB_slice_read (k0_off67 c' 0#32) ((c'.val + 1) % 4) 0 (off67_at0 c') (k0_off67_inb c' 0) squeezes_S1x128x1024_S128x1024 c f r n
theorem agS_read_1f (c' : Dev nD) (f : Buf (Elt F) ((c : Thread nD τ).loc cc0_scratch23)) (r : Fin 128) (n : Fin 1024) :
    (agS c' 1 false).view.read (Elt F) f (ix2 r n) = f (ix3 (⟨c'.val, c'.isLt⟩ : Fin 4) (⟨0 + r.val, by omega⟩ : Fin 256) n) :=
  agB_slice_read (k0_off67 c' 1#32) c'.val 0 (off67_at1 c') (k0_off67_inb c' 1) squeezes_S1x128x1024_S128x1024 c f r n
theorem agS_read_2f (c' : Dev nD) (f : Buf (Elt F) ((c : Thread nD τ).loc cc0_scratch23)) (r : Fin 128) (n : Fin 1024) :
    (agS c' 2 false).view.read (Elt F) f (ix2 r n) = f (ix3 (⟨(c'.val + 3) % 4, by omega⟩ : Fin 4) (⟨0 + r.val, by omega⟩ : Fin 256) n) :=
  agB_slice_read (k0_off67 c' 2#32) ((c'.val + 3) % 4) 0 (off67_at2 c') (k0_off67_inb c' 2) squeezes_S1x128x1024_S128x1024 c f r n
theorem agS_read_0t (c' : Dev nD) (f : Buf (Elt F) ((c : Thread nD τ).loc cc0_scratch23)) (r : Fin 128) (n : Fin 1024) :
    (agS c' 0 true).view.read (Elt F) f (ix2 r n) = f (ix3 (⟨(c'.val + 1) % 4, by omega⟩ : Fin 4) (⟨128 + r.val, by omega⟩ : Fin 256) n) :=
  agB_slice_read (k0_off68 c' 0#32) ((c'.val + 1) % 4) 128 (off68_at0 c') (k0_off68_inb c' 0) squeezes_S1x128x1024_S128x1024 c f r n
theorem agS_read_1t (c' : Dev nD) (f : Buf (Elt F) ((c : Thread nD τ).loc cc0_scratch23)) (r : Fin 128) (n : Fin 1024) :
    (agS c' 1 true).view.read (Elt F) f (ix2 r n) = f (ix3 (⟨(c'.val + 2) % 4, by omega⟩ : Fin 4) (⟨128 + r.val, by omega⟩ : Fin 256) n) :=
  agB_slice_read (k0_off68 c' 1#32) ((c'.val + 2) % 4) 128 (off68_at1 c') (k0_off68_inb c' 1) squeezes_S1x128x1024_S128x1024 c f r n
theorem agS_read_2t (c' : Dev nD) (f : Buf (Elt F) ((c : Thread nD τ).loc cc0_scratch23)) (r : Fin 128) (n : Fin 1024) :
    (agS c' 2 true).view.read (Elt F) f (ix2 r n) = f (ix3 (⟨(c'.val + 3) % 4, by omega⟩ : Fin 4) (⟨128 + r.val, by omega⟩ : Fin 256) n) :=
  agB_slice_read (k0_off68 c' 2#32) ((c'.val + 3) % 4) 128 (off68_at2 c') (k0_off68_inb c' 2) squeezes_S1x128x1024_S128x1024 c f r n

end Instances

/-! ## The schedule's values, slot by slot -/

section Slots
variable (m : (ℓ : Loc nD τ sig) → Buf (Elt F) ℓ) (c : Dev nD)

/-- Hop 0 sends rows of the device's own partial sums. -/
theorem Vo_zero_false (k : Fin 4) (d : Fin 128) (i : Fin 256) :
    (V m).o c 0 false (ix3 k d i) = ot m c c (headAt false k) (ix3 0 d i) := rfl
theorem Vo_zero_true (k : Fin 4) (d : Fin 128) (i : Fin 256) :
    (V m).o c 0 true (ix3 k d i) = ot m c (nxt (nxt c)) (headAt true k) (ix3 0 d i) := rfl
theorem Vl_zero_false (k : Fin 4) (u : Fin 1) (i : Fin 256) :
    (V m).l c 0 false (ix3 k u i) = lrow m c c (headAt false k) (ix3 0 0 i) := rfl
theorem Vl_zero_true (k : Fin 4) (u : Fin 1) (i : Fin 256) :
    (V m).l c 0 true (ix3 k u i) = lrow m c (nxt (nxt c)) (headAt true k) (ix3 0 0 i) := rfl

/-- A later hop sends the received slot merged with the local row. -/
theorem Vo_succ (h : Fin 2) (l : Bool) (k : Fin 4) (d : Fin 128) (i : Fin 256) :
    (V m).o c h.succ l (ix3 k d i)
      = k0_pay76 (fun s : S1x1x128x256.Idx => (V m).o (fromDev c l) h.castSucc l (ix3 k (⟨(s 2).val, (s 2).isLt⟩ : Fin 128) (⟨(s 3).val, (s 3).isLt⟩ : Fin 256)))
          (ot m c (mergeBatch h.val l c) (headAt l k)) (ix4 0 0 d i) := by
  match h with
  | 0 => rfl
  | 1 => rfl
theorem Vl_succ (h : Fin 2) (l : Bool) (k : Fin 4) (u : Fin 1) (i : Fin 256) :
    (V m).l c h.succ l (ix3 k u i)
      = k0_pay75 (fun s : S1x1x1x256.Idx => (V m).l (fromDev c l) h.castSucc l (ix3 k (0 : Fin 1) (⟨(s 3).val, (s 3).isLt⟩ : Fin 256)))
          (lrow m c (mergeBatch h.val l c) (headAt l k)) (ix4 0 0 0 i) := by
  match h with
  | 0 => rfl
  | 1 => rfl

/-- The gathering: a device's own half blocks first, then what it received. -/
theorem Vg_zero_false (r : Fin 128) (n : Fin 1024) :
    (V m).g c 0 false (ix2 r n) = agbOwn m c (ix3 0 (⟨r.val, by omega⟩ : Fin 256) n) := rfl
theorem Vg_zero_true (r : Fin 128) (n : Fin 1024) :
    (V m).g c 0 true (ix2 r n) = agbOwn m c (ix3 0 (⟨128 + r.val, by omega⟩ : Fin 256) n) := rfl
theorem Vg_succ (h : Fin 2) (l : Bool) : (V m).g c h.succ l = (V m).g (fromDev c l) h.castSucc l := by
  match h with
  | 0 => rfl
  | 1 => rfl

/-! ## From rows to slices -/

/-- Hop 0, to the right: the rows of batch `c`, heads 0–3. -/
theorem vo0_false_of_rows (f : Buf (Elt F) ((c : Thread nD τ).loc cc0_scratch0))
    (hrows : ∀ (k : Fin 4) (d : Fin 128) (i : Fin 256),
      f (ix3 (⟨8 * c.val + k.val, by have h : c.val < 4 := c.isLt; omega⟩ : Fin 32) d i) = ot m c c (headAt false k) (ix3 0 d i)) :
    (srcO c 0 false).view.read (Elt F) f = (V m).o c 0 false := by
  funext t
  obtain ⟨k, d, i, rfl⟩ : ∃ (k : Fin 4) (d : Fin 128) (i : Fin 256), t = ix3 k d i := ⟨t 0, t 1, t 2, eq_ix3 t⟩
  rw [srcO_read_0f, hrows, Vo_zero_false]
/-- Hop 0, to the left: the rows of batch `c + 2`, heads 4–7. -/
theorem vo0_true_of_rows (f : Buf (Elt F) ((c : Thread nD τ).loc cc0_scratch0))
    (hrows : ∀ (k : Fin 4) (d : Fin 128) (i : Fin 256),
      f (ix3 (⟨8 * ((c.val + 2) % 4) + 4 + k.val, by omega⟩ : Fin 32) d i) = ot m c (nxt (nxt c)) (headAt true k) (ix3 0 d i)) :
    (srcO c 0 true).view.read (Elt F) f = (V m).o c 0 true := by
  funext t
  obtain ⟨k, d, i, rfl⟩ : ∃ (k : Fin 4) (d : Fin 128) (i : Fin 256), t = ix3 k d i := ⟨t 0, t 1, t 2, eq_ix3 t⟩
  rw [srcO_read_0t, hrows, Vo_zero_true]
theorem vl0_false_of_rows (f : Buf (Elt F) ((c : Thread nD τ).loc cc0_scratch1))
    (hrows : ∀ (k : Fin 4) (i : Fin 256),
      f (ix3 (⟨8 * c.val + k.val, by have h : c.val < 4 := c.isLt; omega⟩ : Fin 32) (0 : Fin 1) i) = lrow m c c (headAt false k) (ix3 0 0 i)) :
    (srcL c 0 false).view.read (Elt F) f = (V m).l c 0 false := by
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  rw [srcL_read_0f, hrows, Vl_zero_false]
theorem vl0_true_of_rows (f : Buf (Elt F) ((c : Thread nD τ).loc cc0_scratch1))
    (hrows : ∀ (k : Fin 4) (i : Fin 256),
      f (ix3 (⟨8 * ((c.val + 2) % 4) + 4 + k.val, by omega⟩ : Fin 32) (0 : Fin 1) i) = lrow m c (nxt (nxt c)) (headAt true k) (ix3 0 0 i)) :
    (srcL c 0 true).view.read (Elt F) f = (V m).l c 0 true := by
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  rw [srcL_read_0t, hrows, Vl_zero_true]

/-- Hops 1 and 2: the source is the previous hop's landing slice after the merge; if each of its slots reads as the
    received slot merged with the local row, it reads as the value sent. -/
theorem vo_succ_of_slots (h : Fin 2) (l : Bool) (f : Buf (Elt F) ((srcO c h.succ l).view.loc (c : Thread nD τ)))
    (hs : ∀ (k : Fin 4) (d : Fin 128) (i : Fin 256), (srcO c h.succ l).view.read (Elt F) f (ix3 k d i)
      = k0_pay76 (fun s : S1x1x128x256.Idx => (V m).o (fromDev c l) h.castSucc l (ix3 k (⟨(s 2).val, (s 2).isLt⟩ : Fin 128) (⟨(s 3).val, (s 3).isLt⟩ : Fin 256)))
          (ot m c (mergeBatch h.val l c) (headAt l k)) (ix4 0 0 d i)) :
    (srcO c h.succ l).view.read (Elt F) f = (V m).o c h.succ l := by
  funext t
  obtain ⟨k, d, i, rfl⟩ : ∃ (k : Fin 4) (d : Fin 128) (i : Fin 256), t = ix3 k d i := ⟨t 0, t 1, t 2, eq_ix3 t⟩
  rw [hs, Vo_succ]
theorem vl_succ_of_slots (h : Fin 2) (l : Bool) (f : Buf (Elt F) ((srcL c h.succ l).view.loc (c : Thread nD τ)))
    (hs : ∀ (k : Fin 4) (i : Fin 256), (srcL c h.succ l).view.read (Elt F) f (ix3 k (0 : Fin 1) i)
      = k0_pay75 (fun s : S1x1x1x256.Idx => (V m).l (fromDev c l) h.castSucc l (ix3 k (0 : Fin 1) (⟨(s 3).val, (s 3).isLt⟩ : Fin 256)))
          (lrow m c (mergeBatch h.val l c) (headAt l k)) (ix4 0 0 0 i)) :
    (srcL c h.succ l).view.read (Elt F) f = (V m).l c h.succ l := by
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  rw [hs, Vl_succ]

/-- The gathering's first hop: the halves of the device's own finished block. -/
theorem vg0_false_of_rows (f : Buf (Elt F) ((c : Thread nD τ).loc cc0_scratch23))
    (hrows : ∀ (r : Fin 128) (n : Fin 1024),
      f (ix3 (⟨(c.val + 1) % 4, by omega⟩ : Fin 4) (⟨0 + r.val, by omega⟩ : Fin 256) n) = agbOwn m c (ix3 0 (⟨r.val, by omega⟩ : Fin 256) n)) :
    (agS c 0 false).view.read (Elt F) f = (V m).g c 0 false := by
  funext t
  obtain ⟨r, n, rfl⟩ : ∃ (r : Fin 128) (n : Fin 1024), t = ix2 r n := ⟨t 0, t 1, eq_ix2 t⟩
  rw [agS_read_0f, hrows, Vg_zero_false]
theorem vg0_true_of_rows (f : Buf (Elt F) ((c : Thread nD τ).loc cc0_scratch23))
    (hrows : ∀ (r : Fin 128) (n : Fin 1024),
      f (ix3 (⟨(c.val + 1) % 4, by omega⟩ : Fin 4) (⟨128 + r.val, by omega⟩ : Fin 256) n) = agbOwn m c (ix3 0 (⟨128 + r.val, by omega⟩ : Fin 256) n)) :
    (agS c 0 true).view.read (Elt F) f = (V m).g c 0 true := by
  funext t
  obtain ⟨r, n, rfl⟩ : ∃ (r : Fin 128) (n : Fin 1024), t = ix2 r n := ⟨t 0, t 1, eq_ix2 t⟩
  rw [agS_read_0t, hrows, Vg_zero_true]

end Slots

/-! ## A merge, from its three facts -/

section Merge
variable (m : (ℓ : Loc nD τ sig) → Buf (Elt F) ℓ) (c : Dev nD)

/-- The landing slice before the merge reads as what the neighbour sent; the local rows are the device's own partial sums;
    after the merge each slot reads as the one merged with the other: then the slice reads as the value sent next. -/
theorem vo_succ_of_merge (h : Fin 2) (l : Bool) (f₀ f : Buf (Elt F) ((srcO c h.succ l).view.loc (c : Thread nD τ)))
    (loc : Fin 4 → Vec F S1x128x256 .bf16)
    (hrecv : (srcO c h.succ l).view.read (Elt F) f₀ = (V m).o (fromDev c l) h.castSucc l)
    (hloc : ∀ k : Fin 4, loc k = ot m c (mergeBatch h.val l c) (headAt l k))
    (hmerge : ∀ (k : Fin 4) (d : Fin 128) (i : Fin 256), (srcO c h.succ l).view.read (Elt F) f (ix3 k d i)
      = k0_pay76 (fun s : S1x1x128x256.Idx => (srcO c h.succ l).view.read (Elt F) f₀ (ix3 k (⟨(s 2).val, (s 2).isLt⟩ : Fin 128) (⟨(s 3).val, (s 3).isLt⟩ : Fin 256)))
          (loc k) (ix4 0 0 d i)) :
    (srcO c h.succ l).view.read (Elt F) f = (V m).o c h.succ l :=
  vo_succ_of_slots m c h l f fun k d i => by rw [hmerge, hrecv, hloc]
theorem vl_succ_of_merge (h : Fin 2) (l : Bool) (f₀ f : Buf (Elt F) ((srcL c h.succ l).view.loc (c : Thread nD τ)))
    (loc : Fin 4 → Vec F S1x1x256 .f32)
    (hrecv : (srcL c h.succ l).view.read (Elt F) f₀ = (V m).l (fromDev c l) h.castSucc l)
    (hloc : ∀ k : Fin 4, loc k = lrow m c (mergeBatch h.val l c) (headAt l k))
    (hmerge : ∀ (k : Fin 4) (i : Fin 256), (srcL c h.succ l).view.read (Elt F) f (ix3 k (0 : Fin 1) i)
      = k0_pay75 (fun s : S1x1x1x256.Idx => (srcL c h.succ l).view.read (Elt F) f₀ (ix3 k (0 : Fin 1) (⟨(s 3).val, (s 3).isLt⟩ : Fin 256)))
          (loc k) (ix4 0 0 0 i)) :
    (srcL c h.succ l).view.read (Elt F) f = (V m).l c h.succ l :=
  vl_succ_of_slots m c h l f fun k i => by rw [hmerge, hrecv, hloc]

end Merge

/-! ## Forwarded half blocks, and the gathered result -/

section Gather
variable (m : (ℓ : Loc nD τ sig) → Buf (Elt F) ℓ) (c : Dev nD)

/-- The block a half block received from the left at hop `h` belongs to (`c − h`), and from the right (`c + 2 + h`). -/
def blockR (h : Fin 3) : Fin 4 := ⟨(c.val + 4 - h.val) % 4, Nat.mod_lt _ (by decide)⟩
def blockL (h : Fin 3) : Fin 4 := ⟨(c.val + 2 + h.val) % 4, Nat.mod_lt _ (by decide)⟩

/-- A buffer read at two spellings of one index. -/
theorem ix3_congr {α : Type} (g : (⟨3, ![4, 256, 1024]⟩ : Shape).Idx → α) {a a' : Fin 4} {b b' : Fin 256} (n : Fin 1024)
    (ha : a.val = a'.val) (hb : b.val = b'.val) : g (ix3 a b n) = g (ix3 a' b' n) := by
  obtain rfl := Fin.ext ha
  obtain rfl := Fin.ext hb
  rfl

section
variable (f : Buf (Elt F) ((c : Thread nD τ).loc cc0_scratch23)) (r : Fin 128) (n : Fin 1024)

/-- What the left neighbour sent at hop `h` lies in the upper half of block `c − h` of device `c`'s buffer. -/
theorem recvR_read_0 : (agS (prv c) 0 false).view.read (Elt F) f (ix2 r n) = f (ix3 (blockR c 0) (⟨r.val, by omega⟩ : Fin 256) n) := by
  have hc : c.val < 4 := c.isLt
  exact (agS_read_0f c (prv c) f r n).trans (ix3_congr f n (by show ((c.val + 3) % 4 + 1) % 4 = (c.val + 4 - 0) % 4; omega) (Nat.zero_add _))
theorem recvR_read_1 : (agS (prv c) 1 false).view.read (Elt F) f (ix2 r n) = f (ix3 (blockR c 1) (⟨r.val, by omega⟩ : Fin 256) n) := by
  have hc : c.val < 4 := c.isLt
  exact (agS_read_1f c (prv c) f r n).trans (ix3_congr f n (by show (c.val + 3) % 4 = (c.val + 4 - 1) % 4; omega) (Nat.zero_add _))
theorem recvR_read_2 : (agS (prv c) 2 false).view.read (Elt F) f (ix2 r n) = f (ix3 (blockR c 2) (⟨r.val, by omega⟩ : Fin 256) n) := by
  have hc : c.val < 4 := c.isLt
  exact (agS_read_2f c (prv c) f r n).trans (ix3_congr f n (by show ((c.val + 3) % 4 + 3) % 4 = (c.val + 4 - 2) % 4; omega) (Nat.zero_add _))
/-- What the right neighbour sent at hop `h` lies in the lower half of block `c + 2 + h`. -/
theorem recvL_read_0 : (agS (nxt c) 0 true).view.read (Elt F) f (ix2 r n) = f (ix3 (blockL c 0) (⟨128 + r.val, by omega⟩ : Fin 256) n) := by
  have hc : c.val < 4 := c.isLt
  exact (agS_read_0t c (nxt c) f r n).trans (ix3_congr f n (by show ((c.val + 1) % 4 + 1) % 4 = (c.val + 2 + 0) % 4; omega) rfl)
theorem recvL_read_1 : (agS (nxt c) 1 true).view.read (Elt F) f (ix2 r n) = f (ix3 (blockL c 1) (⟨128 + r.val, by omega⟩ : Fin 256) n) := by
  have hc : c.val < 4 := c.isLt
  exact (agS_read_1t c (nxt c) f r n).trans (ix3_congr f n (by show ((c.val + 1) % 4 + 2) % 4 = (c.val + 2 + 1) % 4; omega) rfl)
theorem recvL_read_2 : (agS (nxt c) 2 true).view.read (Elt F) f (ix2 r n) = f (ix3 (blockL c 2) (⟨128 + r.val, by omega⟩ : Fin 256) n) := by
  have hc : c.val < 4 := c.isLt
  exact (agS_read_2t c (nxt c) f r n).trans (ix3_congr f n (by show ((c.val + 1) % 4 + 3) % 4 = (c.val + 2 + 2) % 4; omega) rfl)

/-- What a device forwards at hops 1 and 2 is the half block it received the hop before: the same rows of its buffer. -/
theorem fwdR_read_1 : (agS c 1 false).view.read (Elt F) f (ix2 r n) = (agS (prv c) 0 false).view.read (Elt F) f (ix2 r n) := by
  have hc : c.val < 4 := c.isLt
  exact (agS_read_1f c c f r n).trans ((agS_read_0f c (prv c) f r n).trans
    (ix3_congr f n (by show ((c.val + 3) % 4 + 1) % 4 = c.val; omega) rfl)).symm
theorem fwdR_read_2 : (agS c 2 false).view.read (Elt F) f (ix2 r n) = (agS (prv c) 1 false).view.read (Elt F) f (ix2 r n) :=
  (agS_read_2f c c f r n).trans (agS_read_1f c (prv c) f r n).symm
theorem fwdL_read_1 : (agS c 1 true).view.read (Elt F) f (ix2 r n) = (agS (nxt c) 0 true).view.read (Elt F) f (ix2 r n) := by
  have hc : c.val < 4 := c.isLt
  exact (agS_read_1t c c f r n).trans ((agS_read_0t c (nxt c) f r n).trans
    (ix3_congr f n (by show ((c.val + 1) % 4 + 1) % 4 = (c.val + 2) % 4; omega) rfl)).symm
theorem fwdL_read_2 : (agS c 2 true).view.read (Elt F) f (ix2 r n) = (agS (nxt c) 1 true).view.read (Elt F) f (ix2 r n) := by
  have hc : c.val < 4 := c.isLt
  exact (agS_read_2t c c f r n).trans ((agS_read_1t c (nxt c) f r n).trans
    (ix3_congr f n (by show ((c.val + 1) % 4 + 2) % 4 = (c.val + 3) % 4; omega) rfl)).symm

end
/-- So the forwarded slice reads as the value sent, given that the slice it was received into reads as the sender's. -/
theorem vg1_false_of_read (f : Buf (Elt F) ((c : Thread nD τ).loc cc0_scratch23))
    (hr : (agS (prv c) 0 false).view.read (Elt F) f = (V m).g (prv c) 0 false) :
    (agS c 1 false).view.read (Elt F) f = (V m).g c 1 false := by
  funext t
  obtain ⟨r, n, rfl⟩ : ∃ (r : Fin 128) (n : Fin 1024), t = ix2 r n := ⟨t 0, t 1, eq_ix2 t⟩
  rw [fwdR_read_1, hr]; rfl
theorem vg2_false_of_read (f : Buf (Elt F) ((c : Thread nD τ).loc cc0_scratch23))
    (hr : (agS (prv c) 1 false).view.read (Elt F) f = (V m).g (prv c) 1 false) :
    (agS c 2 false).view.read (Elt F) f = (V m).g c 2 false := by
  funext t
  obtain ⟨r, n, rfl⟩ : ∃ (r : Fin 128) (n : Fin 1024), t = ix2 r n := ⟨t 0, t 1, eq_ix2 t⟩
  rw [fwdR_read_2, hr]; rfl
theorem vg1_true_of_read (f : Buf (Elt F) ((c : Thread nD τ).loc cc0_scratch23))
    (hr : (agS (nxt c) 0 true).view.read (Elt F) f = (V m).g (nxt c) 0 true) :
    (agS c 1 true).view.read (Elt F) f = (V m).g c 1 true := by
  funext t
  obtain ⟨r, n, rfl⟩ : ∃ (r : Fin 128) (n : Fin 1024), t = ix2 r n := ⟨t 0, t 1, eq_ix2 t⟩
  rw [fwdL_read_1, hr]; rfl
theorem vg2_true_of_read (f : Buf (Elt F) ((c : Thread nD τ).loc cc0_scratch23))
    (hr : (agS (nxt c) 1 true).view.read (Elt F) f = (V m).g (nxt c) 1 true) :
    (agS c 2 true).view.read (Elt F) f = (V m).g c 2 true := by
  funext t
  obtain ⟨r, n, rfl⟩ : ∃ (r : Fin 128) (n : Fin 1024), t = ix2 r n := ⟨t 0, t 1, eq_ix2 t⟩
  rw [fwdL_read_2, hr]; rfl

theorem hop_right : ∀ c b : Dev nD, b ≠ nxt c → ∃ h : Fin 3, h.val = (c.val + 4 - b.val) % 4 ∧ blockR c h = b := by decide
theorem hop_left : ∀ c b : Dev nD, b ≠ nxt c → ∃ h : Fin 3, h.val = (b.val + 6 - c.val) % 4 ∧ blockL c h = b := by decide

/-- The gathered buffer at the end, block by block: its own block, and the six half blocks as received. -/
theorem agbFin_of_buffer (f : Buf (Elt F) ((c : Thread nD τ).loc cc0_scratch23))
    (hown : ∀ (i : Fin 256) (n : Fin 1024), f (ix3 (nxt c) i n) = agbOwn m c (ix3 0 i n))
    (hr0 : (agS (prv c) 0 false).view.read (Elt F) f = (V m).g (prv c) 0 false)
    (hr1 : (agS (prv c) 1 false).view.read (Elt F) f = (V m).g (prv c) 1 false)
    (hr2 : (agS (prv c) 2 false).view.read (Elt F) f = (V m).g (prv c) 2 false)
    (hl0 : (agS (nxt c) 0 true).view.read (Elt F) f = (V m).g (nxt c) 0 true)
    (hl1 : (agS (nxt c) 1 true).view.read (Elt F) f = (V m).g (nxt c) 1 true)
    (hl2 : (agS (nxt c) 2 true).view.read (Elt F) f = (V m).g (nxt c) 2 true)
    (b : Fin 4) (u : Fin 1) (i : Fin 256) (n : Fin 1024) :
    f (ix3 b i n) = agbFin m c b (ix3 u i n) := by
  unfold agbFin
  by_cases hb : b = nxt c
  · rw [if_pos hb, hb]; exact hown i n
  · rw [if_neg hb]
    by_cases hi : i.val < 128
    · rw [dif_pos (show ((ix3 u i n) 1).val < 128 from hi)]
      obtain ⟨h, hh, rfl⟩ := hop_right c b hb
      rw [← hh]
      match h with
      | 0 => exact (recvR_read_0 c f ⟨i.val, hi⟩ n).symm.trans (congrFun hr0 (ix2 (⟨i.val, hi⟩ : Fin 128) n))
      | 1 => exact (recvR_read_1 c f ⟨i.val, hi⟩ n).symm.trans (congrFun hr1 (ix2 (⟨i.val, hi⟩ : Fin 128) n))
      | 2 => exact (recvR_read_2 c f ⟨i.val, hi⟩ n).symm.trans (congrFun hr2 (ix2 (⟨i.val, hi⟩ : Fin 128) n))
    · rw [dif_neg (show ¬((ix3 u i n) 1).val < 128 from hi)]
      obtain ⟨h, hh, rfl⟩ := hop_left c b hb
      rw [← hh]
      have hi' : i.val - 128 < 128 := by have := i.isLt; omega
      rw [ix3_congr f (a := blockL c h) (a' := blockL c h) (b := i) (b' := (⟨128 + (⟨i.val - 128, hi'⟩ : Fin 128).val, by omega⟩ : Fin 256)) n rfl
        (by show i.val = 128 + (i.val - 128); omega)]
      match h with
      | 0 => exact (recvL_read_0 c f ⟨i.val - 128, hi'⟩ n).symm.trans (congrFun hl0 (ix2 (⟨i.val - 128, hi'⟩ : Fin 128) n))
      | 1 => exact (recvL_read_1 c f ⟨i.val - 128, hi'⟩ n).symm.trans (congrFun hl1 (ix2 (⟨i.val - 128, hi'⟩ : Fin 128) n))
      | 2 => exact (recvL_read_2 c f ⟨i.val - 128, hi'⟩ n).symm.trans (congrFun hl2 (ix2 (⟨i.val - 128, hi'⟩ : Fin 128) n))

/-- The device's result block from its four stored blocks. -/
theorem kout_of_blocks (g : (cc0_stg3_0 : Ref sig .tc).ty.Contents (Elt F))
    (h0 : ∀ (i : Fin 256) (n : Fin 1024), g (ix3 (0 : Fin 4) i n) = k0_pay1 (k0_pay118 (agbFin m c 0)) (ix3 0 i n))
    (h1 : ∀ (i : Fin 256) (n : Fin 1024), g (ix3 (1 : Fin 4) i n) = k0_pay2 (agbFin m c 1) (ix3 0 i n))
    (h2 : ∀ (i : Fin 256) (n : Fin 1024), g (ix3 (2 : Fin 4) i n) = k0_pay3 (agbFin m c 2) (ix3 0 i n))
    (h3 : ∀ (i : Fin 256) (n : Fin 1024), g (ix3 (3 : Fin 4) i n) = k0_pay4 (agbFin m c 3) (ix3 0 i n)) :
    g = Kout m c := by
  funext t
  obtain ⟨b, i, n, rfl⟩ : ∃ (b : Fin 4) (i : Fin 256) (n : Fin 1024), t = ix3 b i n := ⟨t 0, t 1, t 2, eq_ix3 t⟩
  match b with
  | 0 => exact h0 i n
  | 1 => exact h1 i n
  | 2 => exact h2 i n
  | 3 => exact h3 i n

end Gather

/-- info: 'Cert.Kernel.KFun.agbFin_of_buffer' depends on axioms: [propext, Classical.choice, Quot.sound] -/
#guard_msgs in #print axioms agbFin_of_buffer
/-- info: 'Cert.Kernel.KFun.vo_succ_of_merge' depends on axioms: [propext, Classical.choice, Quot.sound] -/
#guard_msgs in #print axioms vo_succ_of_merge

end Cert.Kernel.KFun

end
-- ==== Proof.KB.BodyC.lean ====
/-
  The kernel body from the cut before the first merge to the cut before the third flash step.

  Device c waits for its four right-going copies of hop 0 (the source half blocks come back, the landing slices of the
  numerators and denominators arrive at what its left neighbour sent), adds block 3's heads 0 to 3 into them, waits for the
  four left-going ones and adds heads 4 to 7, and sends the four merged slices on as hop 1. Everything else it holds is a
  frame. What the merged slices read, as the next hop's sources, is taken as four hypotheses.
-/
import proofs.«900754_g7700000000000755_dist_attn_cross_gqa_kvseq_b4_sq256_skv1024_d1024_hq8_dh128_v7x_i4_f32_1_alg».proof.Proof.KB.Cut27
import proofs.«900754_g7700000000000755_dist_attn_cross_gqa_kvseq_b4_sq256_skv1024_d1024_hq8_dh128_v7x_i4_f32_1_alg».proof.Proof.KB.Segs
import proofs.«900754_g7700000000000755_dist_attn_cross_gqa_kvseq_b4_sq256_skv1024_d1024_hq8_dh128_v7x_i4_f32_1_alg».proof.Proof.KB.Unfold
import proofs.«900754_g7700000000000755_dist_attn_cross_gqa_kvseq_b4_sq256_skv1024_d1024_hq8_dh128_v7x_i4_f32_1_alg».proof.Proof.KB.OpSend
import proofs.«900754_g7700000000000755_dist_attn_cross_gqa_kvseq_b4_sq256_skv1024_d1024_hq8_dh128_v7x_i4_f32_1_alg».proof.Proof.KB.OpWait
import proofs.«900754_g7700000000000755_dist_attn_cross_gqa_kvseq_b4_sq256_skv1024_d1024_hq8_dh128_v7x_i4_f32_1_alg».proof.Proof.KB.KLaunch
import proofs.«900754_g7700000000000755_dist_attn_cross_gqa_kvseq_b4_sq256_skv1024_d1024_hq8_dh128_v7x_i4_f32_1_alg».proof.Proof.KB.LoopsV
import proofs.«900754_g7700000000000755_dist_attn_cross_gqa_kvseq_b4_sq256_skv1024_d1024_hq8_dh128_v7x_i4_f32_1_alg».proof.Proof.KB.LoopsVFacts
import proofs.«900754_g7700000000000755_dist_attn_cross_gqa_kvseq_b4_sq256_skv1024_d1024_hq8_dh128_v7x_i4_f32_1_alg».proof.Proof.KB.Bridge
import proofs.«900754_g7700000000000755_dist_attn_cross_gqa_kvseq_b4_sq256_skv1024_d1024_hq8_dh128_v7x_i4_f32_1_alg».proof.Proof.Gen.Kernel.Points
import Idealize.ShloMosaic.Lib.Tactic

set_option maxRecDepth 16384

noncomputable section

namespace Cert.Kernel.Proto

open Cert.Kernel Cert.Kernel.Gen Cert.Kernel.Ring
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
local notation "𝕄" => MT nD τ sig Unit (Elt F) ℕ UU ℕ

/-- The invariants a body opens are persistent. -/
instance invs_persistent (V : Vals F) (K : Names) (c : Dev nD) : BI.Persistent (invs V K c : sProp 𝕄) := by
  unfold invs; infer_instance

set_option maxHeartbeats 40000000 in
/-- From the cut before the first merge to the cut before the third flash step: the eight waits of hop 0, the two merges of
    block 3's rows into the landing slices, and the four copies of hop 1. The four hypotheses are the values of the merged
    slices: that each, read as the next hop's source, is what the schedule says the device sends then. -/
theorem segC_ok (m : (ℓ : Loc nD τ sig) → Buf (Elt F) ℓ) (c : Dev nD) (K : Names) (W : Waits sig Unit) (R : sProp 𝕄) (d0 : Dev nD) (v2 v14 v25 : BitVec 32)

    (hmO4 : ∀ (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3)), (∀ (k : Fin 8) (d : Fin 128) (i : Fin 256), fO3 (ix3 (⟨8 * ((c.val + 3) % 4) + k.val, by omega⟩ : Fin 32) d i) = KFun.ot m c (prv c) k (ix3 0 d i)) → (dstO 0 false).view.read (Elt F) f8 = (KFun.V m).o (fromDev c false) 0 false →
      (srcO c 1 false).view.read (Elt F) (rsO.view.writes (Elt F) f8 (LoopsV.pbS_k0_t4 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 k0_t4_loop.trips).1) = (KFun.V m).o c 1 false)
    (hmL4 : ∀ (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3)), (∀ (k : Fin 8) (i : Fin 256), fL3 (ix3 (⟨8 * ((c.val + 3) % 4) + k.val, by omega⟩ : Fin 32) (0 : Fin 1) i) = KFun.lrow m c (prv c) k (ix3 0 0 i)) → (dstL 0 false).view.read (Elt F) f9 = (KFun.V m).l (fromDev c false) 0 false →
      (srcL c 1 false).view.read (Elt F) (rsL.view.writes (Elt F) f9 (LoopsV.pbS_k0_t4 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 k0_t4_loop.trips).2) = (KFun.V m).l c 1 false)
    (hmO5 : ∀ (w : BitVec 32) (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3)), (∀ (k : Fin 8) (d : Fin 128) (i : Fin 256), fO3 (ix3 (⟨8 * ((c.val + 3) % 4) + k.val, by omega⟩ : Fin 32) d i) = KFun.ot m c (prv c) k (ix3 0 d i)) → (dstO 0 true).view.read (Elt F) f8 = (KFun.V m).o (fromDev c true) 0 true →
      (srcO c 1 true).view.read (Elt F) (rsO.view.writes (Elt F) f8 (LoopsV.pbS_k0_t5 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 k0_t5_loop.trips).1) = (KFun.V m).o c 1 true)
    (hmL5 : ∀ (w : BitVec 32) (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3)), (∀ (k : Fin 8) (i : Fin 256), fL3 (ix3 (⟨8 * ((c.val + 3) % 4) + k.val, by omega⟩ : Fin 32) (0 : Fin 1) i) = KFun.lrow m c (prv c) k (ix3 0 0 i)) → (dstL 0 true).view.read (Elt F) f9 = (KFun.V m).l (fromDev c true) 0 true →
      (srcL c 1 true).view.read (Elt F) (rsL.view.writes (Elt F) f9 (LoopsV.pbS_k0_t5 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 k0_t5_loop.trips).2) = (KFun.V m).l c 1 true) :
    At27 m c K W R d0 v2 v14 v25 ⊢ wp frame (wpE (defs₀ (F := F)) 𝒱₀ (c : Thread nD τ) none) Set.univ
      (segCProg (F := F) (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) d0 v2 v14 v25) (fun r => iprop(∃ W', Post32 m c K W' R r)) := by

  unfold At27 C27.sentX C27.freshO C27.freshL C27.blk3O C27.blk3L
  iintro ⟨%hd0, #Hinv, #Hlev, HO, ⟨⟨Has_o0R, Har_o0R, Hcs_o0R, Hcr_o0R⟩, ⟨Has_l0R, Har_l0R, Hcs_l0R, Hcr_l0R⟩, ⟨Has_o0L, Har_o0L, Hcs_o0L, Hcr_o0L⟩, ⟨Has_l0L, Har_l0L, Hcs_l0L, Hcr_l0L⟩⟩, ⟨⟨Has_o1R, Har_o1R, Hts_o1R, Htn_o1R, Hc_o1R, Hd_o1R, #Hrs_o1R, #Hrn_o1R⟩, ⟨Has_o1L, Har_o1L, Hts_o1L, Htn_o1L, Hc_o1L, Hd_o1L, #Hrs_o1L, #Hrn_o1L⟩, ⟨Has_l1R, Har_l1R, Hts_l1R, Htn_l1R, Hc_l1R, Hd_l1R, #Hrs_l1R, #Hrn_l1R⟩, ⟨Has_l1L, Har_l1L, Hts_l1L, Htn_l1L, Hc_l1L, Hd_l1L, #Hrs_l1L, #Hrn_l1L⟩⟩, ⟨%fO3, HhO3f, HhO3t, %hrowsO⟩, ⟨%fL3, HhL3f, HhL3t, %hrowsL⟩, HR⟩
  have hd0' := hd0.symm
  subst hd0'
  -- the invariants of the cells this stretch opens, one by one
  ihave Hparts := (show invs (KFun.V m) K c ⊢ _ from by unfold invs; simp only [bigSep_xfer]; exact BI.Entails.refl _) $$ Hinv
  icases Hparts with ⟨#HIb, ⟨⟨#HIs_o0R, #HIr_o0R, #HIn_o0R⟩, ⟨#HIs_l0R, #HIr_l0R, #HIn_l0R⟩, ⟨#HIs_o0L, #HIr_o0L, #HIn_o0L⟩, ⟨#HIs_l0L, #HIr_l0L, #HIn_l0L⟩, ⟨#HIs_o1R, #HIr_o1R, #HIn_o1R⟩, ⟨#HIs_o1L, #HIr_o1L, #HIn_o1L⟩, ⟨#HIs_l1R, #HIr_l1R, #HIn_l1R⟩, ⟨#HIs_l1L, #HIr_l1L, #HIn_l1L⟩, ⟨#HIs_o2R, #HIr_o2R, #HIn_o2R⟩, ⟨#HIs_o2L, #HIr_o2L, #HIn_o2L⟩, ⟨#HIs_l2R, #HIr_l2R, #HIn_l2R⟩, ⟨#HIs_l2L, #HIr_l2L, #HIn_l2L⟩, ⟨#HIs_g0R, #HIr_g0R, #HIn_g0R⟩, ⟨#HIs_g0L, #HIr_g0L, #HIn_g0L⟩, ⟨#HIs_g1R, #HIr_g1R, #HIn_g1R⟩, ⟨#HIs_g1L, #HIr_g1L, #HIn_g1L⟩, ⟨#HIs_g2R, #HIr_g2R, #HIn_g2R⟩, ⟨#HIs_g2L, #HIr_g2L, #HIn_g2L⟩⟩, #HIbn, #HIbp⟩
  unfold segCProg
  simp only [k0_part27_eq_skeleton, k0_part28_eq_skeleton, k0_part29_eq_skeleton, k0_part30_eq_skeleton, k0_part31_eq_skeleton]
  unfold k0_part27_skel k0_part28_skel k0_part29_skel k0_part30_skel k0_part31_skel
  simp only [Prog.lift, Prog.bind_op, Prog.bind_ret, Prog.pure_eq_ret, Prog.bind_assoc]

  -- the wait on the send cell of the numerators' copy, hop 0, to the right
  iapply (wp_wait_send (KFun.V m) c .o false 0 (owedOf c (prog.drop 6)) _ _ (by rfl) rfl) $$ [Hcs_o0R HO Has_o0R]
  · isplitr; · iexact HIs_o0R
    isplitl [Hcs_o0R]; · iexact Hcs_o0R
    isplitl [HO]; · iexact HO
    isplitr
    · iapply (mayWait_below c (.dma (sendSem .o false 0)) (prog.drop 6) (by rw [show lv ((c : Thread nD τ), .dma (sendSem .o false 0)) () = place .o false 0 from lv_send c .o false 0]; decide))
      iexact Hlev
    iexact Has_o0R
  iintro ⟨HO, Hsrc_o0R, Hzs_o0R⟩

  -- the wait on the receive cell of the numerators' copy, hop 0, to the right
  iapply (wp_wait_recv (KFun.V m) c .o false 0 (owedOf c (prog.drop 6)) _ _ (by rfl) rfl) $$ [Hcr_o0R HO Har_o0R]
  · isplitr; · iexact HIr_o0R
    isplitl [Hcr_o0R]; · iexact Hcr_o0R
    isplitl [HO]; · iexact HO
    isplitr
    · iapply (mayWait_below c (.dma (recvSem .o false 0)) (prog.drop 6) (by rw [show lv ((c : Thread nD τ), .dma (recvSem .o false 0)) () = place .o false 0 from lv_recv c .o false 0]; decide))
      iexact Hlev
    iexact Har_o0R
  iintro ⟨HO, Hrcv_o0R, Hzr_o0R⟩

  -- the wait on the send cell of the denominators' copy, hop 0, to the right
  iapply (wp_wait_send (KFun.V m) c .l false 0 (owedOf c (prog.drop 6)) _ _ (by rfl) rfl) $$ [Hcs_l0R HO Has_l0R]
  · isplitr; · iexact HIs_l0R
    isplitl [Hcs_l0R]; · iexact Hcs_l0R
    isplitl [HO]; · iexact HO
    isplitr
    · iapply (mayWait_below c (.dma (sendSem .l false 0)) (prog.drop 6) (by rw [show lv ((c : Thread nD τ), .dma (sendSem .l false 0)) () = place .l false 0 from lv_send c .l false 0]; decide))
      iexact Hlev
    iexact Has_l0R
  iintro ⟨HO, Hsrc_l0R, Hzs_l0R⟩

  -- the wait on the receive cell of the denominators' copy, hop 0, to the right
  iapply (wp_wait_recv (KFun.V m) c .l false 0 (owedOf c (prog.drop 6)) _ _ (by rfl) rfl) $$ [Hcr_l0R HO Har_l0R]
  · isplitr; · iexact HIr_l0R
    isplitl [Hcr_l0R]; · iexact Hcr_l0R
    isplitl [HO]; · iexact HO
    isplitr
    · iapply (mayWait_below c (.dma (recvSem .l false 0)) (prog.drop 6) (by rw [show lv ((c : Thread nD τ), .dma (recvSem .l false 0)) () = place .l false 0 from lv_recv c .l false 0]; decide))
      iexact Hlev
    iexact Har_l0R
  iintro ⟨HO, Hrcv_l0R, Hzr_l0R⟩

  -- the first merge: the landing slices of hop 0, from the left neighbour, take block 3's heads 0 to 3
  simp only [recvPay, heldAs]
  icases Hrcv_o0R with ⟨%f8, H8, %hf8⟩
  icases Hrcv_l0R with ⟨%f9, H9, %hf9⟩
  have h6 := LoopsV.t4_arg6_within c
  have h7 := LoopsV.t4_arg7_within c
  have h8 := LoopsV.t4_arg8_within
  have h9 := LoopsV.t4_arg9_within
  sl_exec

  -- the wait on the send cell of the numerators' copy, hop 0, to the left
  iapply (wp_wait_send (KFun.V m) c .o true 0 (owedOf c (prog.drop 6)) _ _ (by rfl) rfl) $$ [Hcs_o0L HO Has_o0L]
  · isplitr; · iexact HIs_o0L
    isplitl [Hcs_o0L]; · iexact Hcs_o0L
    isplitl [HO]; · iexact HO
    isplitr
    · iapply (mayWait_below c (.dma (sendSem .o true 0)) (prog.drop 6) (by rw [show lv ((c : Thread nD τ), .dma (sendSem .o true 0)) () = place .o true 0 from lv_send c .o true 0]; decide))
      iexact Hlev
    iexact Has_o0L
  iintro ⟨HO, Hsrc_o0L, Hzs_o0L⟩

  -- the wait on the receive cell of the numerators' copy, hop 0, to the left
  iapply (wp_wait_recv (KFun.V m) c .o true 0 (owedOf c (prog.drop 6)) _ _ (by rfl) rfl) $$ [Hcr_o0L HO Har_o0L]
  · isplitr; · iexact HIr_o0L
    isplitl [Hcr_o0L]; · iexact Hcr_o0L
    isplitl [HO]; · iexact HO
    isplitr
    · iapply (mayWait_below c (.dma (recvSem .o true 0)) (prog.drop 6) (by rw [show lv ((c : Thread nD τ), .dma (recvSem .o true 0)) () = place .o true 0 from lv_recv c .o true 0]; decide))
      iexact Hlev
    iexact Har_o0L
  iintro ⟨HO, Hrcv_o0L, Hzr_o0L⟩

  -- the wait on the send cell of the denominators' copy, hop 0, to the left
  iapply (wp_wait_send (KFun.V m) c .l true 0 (owedOf c (prog.drop 6)) _ _ (by rfl) rfl) $$ [Hcs_l0L HO Has_l0L]
  · isplitr; · iexact HIs_l0L
    isplitl [Hcs_l0L]; · iexact Hcs_l0L
    isplitl [HO]; · iexact HO
    isplitr
    · iapply (mayWait_below c (.dma (sendSem .l true 0)) (prog.drop 6) (by rw [show lv ((c : Thread nD τ), .dma (sendSem .l true 0)) () = place .l true 0 from lv_send c .l true 0]; decide))
      iexact Hlev
    iexact Has_l0L
  iintro ⟨HO, Hsrc_l0L, Hzs_l0L⟩

  -- the wait on the receive cell of the denominators' copy, hop 0, to the left
  iapply (wp_wait_recv (KFun.V m) c .l true 0 (owedOf c (prog.drop 6)) _ _ (by rfl) rfl) $$ [Hcr_l0L HO Har_l0L]
  · isplitr; · iexact HIr_l0L
    isplitl [Hcr_l0L]; · iexact Hcr_l0L
    isplitl [HO]; · iexact HO
    isplitr
    · iapply (mayWait_below c (.dma (recvSem .l true 0)) (prog.drop 6) (by rw [show lv ((c : Thread nD τ), .dma (recvSem .l true 0)) () = place .l true 0 from lv_recv c .l true 0]; decide))
      iexact Hlev
    iexact Har_l0L
  iintro ⟨HO, Hrcv_l0L, Hzr_l0L⟩

  -- the second merge: the landing slices of hop 0, from the right neighbour, take block 3's heads 4 to 7
  simp only [recvPay, heldAs]
  icases Hrcv_o0L with ⟨%f8', H8', %hf8'⟩
  icases Hrcv_l0L with ⟨%f9', H9', %hf9'⟩
  have h6' := LoopsV.t5_arg6_within c
  have h7' := LoopsV.t5_arg7_within c
  have h8' := LoopsV.t5_arg8_within
  have h9' := LoopsV.t5_arg9_within
  sl_exec

  have hfs_o1R := hmO4 fO3 fL3 f8 f9 hrowsO hf8
  have hfs_l1R := hmL4 fO3 fL3 f8 f9 hrowsL hf9
  have hfs_o1L := fun w => hmO5 w fO3 fL3 f8' f9' hrowsO hf8'
  have hfs_l1L := fun w => hmL5 w fO3 fL3 f8' f9' hrowsL hf9'

  -- the numerators' copy of hop 1, to the right: the merged landing slice of hop 0 goes on
  iapply (wp_send_o (KFun.V m) c (⟨k0_dev7 c, k0_dev7_lt c⟩ : Dev nD) false 1 (dev7_eq c) _ hfs_o1R (prog.drop 7) _ _ _) $$ [H8 Hd_o1R HO Hts_o1R Htn_o1R]
  · isplitr; · iexact HIs_o1R
    isplitr; · iexact HIn_o1R
    isplitl [H8]; · iexact H8
    isplitl [Hd_o1R]; · iexact Hd_o1R
    isplitl [HO]; · iexact HO
    isplitl [Hts_o1R]; · iexact Hts_o1R
    isplitr; · iexact Hrs_o1R
    isplitl [Htn_o1R]; · iexact Htn_o1R
    iexact Hrn_o1R
  iintro ⟨Hcs_o1R, HO⟩

  -- the numerators' copy of hop 1, to the left: the merged landing slice of hop 0 goes on
  iapply (wp_send_o (KFun.V m) c (⟨k0_dev8 c, k0_dev8_lt c⟩ : Dev nD) true 1 (dev8_eq c) _ (hfs_o1L _) (prog.drop 8) _ _ _) $$ [H8' Hd_o1L HO Hts_o1L Htn_o1L]
  · isplitr; · iexact HIs_o1L
    isplitr; · iexact HIn_o1L
    isplitl [H8']; · iexact H8'
    isplitl [Hd_o1L]; · iexact Hd_o1L
    isplitl [HO]; · iexact HO
    isplitl [Hts_o1L]; · iexact Hts_o1L
    isplitr; · iexact Hrs_o1L
    isplitl [Htn_o1L]; · iexact Htn_o1L
    iexact Hrn_o1L
  iintro ⟨Hcs_o1L, HO⟩

  -- the denominators' copy of hop 1, to the right: the merged landing slice of hop 0 goes on
  iapply (wp_send_l (KFun.V m) c (⟨k0_dev9 c, k0_dev9_lt c⟩ : Dev nD) false 1 (dev9_eq c) _ hfs_l1R (prog.drop 9) _ _ _) $$ [H9 Hd_l1R HO Hts_l1R Htn_l1R]
  · isplitr; · iexact HIs_l1R
    isplitr; · iexact HIn_l1R
    isplitl [H9]; · iexact H9
    isplitl [Hd_l1R]; · iexact Hd_l1R
    isplitl [HO]; · iexact HO
    isplitl [Hts_l1R]; · iexact Hts_l1R
    isplitr; · iexact Hrs_l1R
    isplitl [Htn_l1R]; · iexact Htn_l1R
    iexact Hrn_l1R
  iintro ⟨Hcs_l1R, HO⟩

  -- the denominators' copy of hop 1, to the left: the merged landing slice of hop 0 goes on
  iapply (wp_send_l (KFun.V m) c (⟨k0_dev10 c, k0_dev10_lt c⟩ : Dev nD) true 1 (dev10_eq c) _ (hfs_l1L _) (prog.drop 10) _ _ _) $$ [H9' Hd_l1L HO Hts_l1L Htn_l1L]
  · isplitr; · iexact HIs_l1L
    isplitr; · iexact HIn_l1L
    isplitl [H9']; · iexact H9'
    isplitl [Hd_l1L]; · iexact Hd_l1L
    isplitl [HO]; · iexact HO
    isplitl [Hts_l1L]; · iexact Hts_l1L
    isplitr; · iexact Hrs_l1L
    isplitl [Htn_l1L]; · iexact Htn_l1L
    iexact Hrn_l1L
  iintro ⟨Hcs_l1L, HO⟩

  -- the state at the next cut
  rw [wp_ret]; imodintro
  iexists _
  unfold Post32 C27.closedX C27.sentX C27.blk3O C27.blk3L
  isplitr; · iexact Hinv
  isplitr; · iexact Hlev
  isplitl [HO]; · iexact HO
  isplitl [Hzs_o0R Hzr_o0R Hzs_l0R Hzr_l0R Hzs_o0L Hzr_o0L Hzs_l0L Hzr_l0L]
  · isplitl [Hzs_o0R Hzr_o0R]
    · isplitl [Hzs_o0R]; · iexact Hzs_o0R
      iexact Hzr_o0R
    isplitl [Hzs_l0R Hzr_l0R]
    · isplitl [Hzs_l0R]; · iexact Hzs_l0R
      iexact Hzr_l0R
    isplitl [Hzs_o0L Hzr_o0L]
    · isplitl [Hzs_o0L]; · iexact Hzs_o0L
      iexact Hzr_o0L
    isplitl [Hzs_l0L]; · iexact Hzs_l0L
    iexact Hzr_l0L
  isplitl [Has_o1R Har_o1R Hcs_o1R Hc_o1R Has_o1L Har_o1L Hcs_o1L Hc_o1L Has_l1R Har_l1R Hcs_l1R Hc_l1R Has_l1L Har_l1L Hcs_l1L Hc_l1L]
  · isplitl [Has_o1R Har_o1R Hcs_o1R Hc_o1R]
    · isplitl [Has_o1R]; · iexact Has_o1R
      isplitl [Har_o1R]; · iexact Har_o1R
      isplitl [Hcs_o1R]; · iexact Hcs_o1R
      iexact Hc_o1R
    isplitl [Has_o1L Har_o1L Hcs_o1L Hc_o1L]
    · isplitl [Has_o1L]; · iexact Has_o1L
      isplitl [Har_o1L]; · iexact Har_o1L
      isplitl [Hcs_o1L]; · iexact Hcs_o1L
      iexact Hc_o1L
    isplitl [Has_l1R Har_l1R Hcs_l1R Hc_l1R]
    · isplitl [Has_l1R]; · iexact Has_l1R
      isplitl [Har_l1R]; · iexact Har_l1R
      isplitl [Hcs_l1R]; · iexact Hcs_l1R
      iexact Hc_l1R
    · isplitl [Has_l1L]; · iexact Has_l1L
      isplitl [Har_l1L]; · iexact Har_l1L
      isplitl [Hcs_l1L]; · iexact Hcs_l1L
      iexact Hc_l1L
  isplitl [Hsrc_o0R Hsrc_l0R Hsrc_o0L Hsrc_l0L]
  · isplitl [Hsrc_o0R]; · iexact Hsrc_o0R
    isplitl [Hsrc_l0R]; · iexact Hsrc_l0R
    isplitl [Hsrc_o0L]; · iexact Hsrc_o0L
    iexact Hsrc_l0L
  isplitl [HhO3f HhO3t]
  · iexists fO3
    isplitl [HhO3f]; · iexact HhO3f
    isplitl [HhO3t]; · iexact HhO3t
    ipureintro; exact hrowsO
  isplitl [HhL3f HhL3t]
  · iexists fL3
    isplitl [HhL3f]; · iexact HhL3f
    isplitl [HhL3t]; · iexact HhL3t
    ipureintro; exact hrowsL
  iexact HR

end Cert.Kernel.Proto
end
-- ==== Proof.KB.LoopsVRead.lean ====
import proofs.«900754_g7700000000000755_dist_attn_cross_gqa_kvseq_b4_sq256_skv1024_d1024_hq8_dh128_v7x_i4_f32_1_alg».proof.Proof.KB.LoopsV
import proofs.«900754_g7700000000000755_dist_attn_cross_gqa_kvseq_b4_sq256_skv1024_d1024_hq8_dh128_v7x_i4_f32_1_alg».proof.Proof.KB.Ring
import Idealize.ShloMosaic.Lib.Pipeline.Value

set_option maxRecDepth 8192
set_option maxHeartbeats 1000000

noncomputable section

namespace Cert.Kernel.LoopsV
open Cert.Kernel Cert.Kernel.Gen Cert.Kernel.Ring Cert.Kernel.Proto

open Idealize.ShloMosaic Idealize.ShloMosaic.TcCoe
open Idealize.SL.Sem

variable {F : FTy → Type} [FloatOps F]

/-- Which pieces the first m trips have laid down. -/
theorem family_mem {s : Shape} {e : EltTy} {Val : EltTy → Type} (n : ℕ) (piece : Fin n → View.Piece Val s e) (L : ℕ → List (View.Piece Val s e))
    (h0 : L 0 = []) (hs : ∀ k : Fin n, L (k.val + 1) = piece k :: L k.val) :
    ∀ m, m ≤ n → ∀ p, p ∈ L m → ∃ k : Fin n, k.val < m ∧ p = piece k := by
  intro m
  induction m with
  | zero =>
    intro _ p hp
    rw [h0] at hp
    exact absurd hp List.not_mem_nil
  | succ m ih =>
    intro hm p hp
    rw [hs ⟨m, hm⟩, List.mem_cons] at hp
    rcases hp with rfl | hp
    · exact ⟨⟨m, hm⟩, Nat.lt_succ_self m, rfl⟩
    · obtain ⟨k, hk, rfl⟩ := ih (Nat.le_of_succ_le hm) p hp
      exact ⟨k, Nat.lt_succ_of_lt hk, rfl⟩

/-- Pieces laid down one a trip, the last in front, their rectangles pairwise apart: through trip j's rectangle the
    written contents read trip j's payload, whatever was there before. -/
theorem read_writes_family {κ : Idealize.ShloMosaic.Kind} {sp : Space} {s : Shape} {e : EltTy} {Val : EltTy → Type}
    (v : View sig κ sp s e) (f : v.ty.Contents Val) (n : ℕ) (piece : Fin n → View.Piece Val s e) (L : ℕ → List (View.Piece Val s e))
    (h0 : L 0 = []) (hs : ∀ k : Fin n, L (k.val + 1) = piece k :: L k.val)
    (hsep : ∀ k k' : Fin n, k ≠ k' → Disjoint (piece k).1.set (piece k').1.set)
    (j : Fin n) (x : (piece j).1.shape.Idx) :
    v.read Val (v.writes Val f (L n)) ((piece j).1.emb x) = (piece j).2 x := by
  have hmem : ∀ m, m ≤ n → ∀ p, p ∈ L m ↔ ∃ k : Fin n, k.val < m ∧ p = piece k := by
    intro m
    induction m with
    | zero =>
      intro _ p
      rw [h0]
      exact ⟨fun h => absurd h List.not_mem_nil, fun ⟨k, hk, _⟩ => absurd hk (Nat.not_lt_zero _)⟩
    | succ m ih =>
      intro hm p
      rw [hs ⟨m, hm⟩, List.mem_cons, ih (Nat.le_of_succ_le hm)]
      constructor
      · rintro (rfl | ⟨k, hk, rfl⟩)
        · exact ⟨⟨m, hm⟩, Nat.lt_succ_self m, rfl⟩
        · exact ⟨k, Nat.lt_succ_of_lt hk, rfl⟩
      · rintro ⟨k, hk, rfl⟩
        rcases Nat.lt_succ_iff_lt_or_eq.mp hk with h | h
        · exact Or.inr ⟨k, h, rfl⟩
        · exact Or.inl (congrArg piece (Fin.ext h))
  refine View.read_writes_of_unique v f (piece j) x (L n) ((hmem n le_rfl _).mpr ⟨j, j.isLt, rfl⟩) fun q hq hx => ?_
  obtain ⟨k', _, rfl⟩ := (hmem n le_rfl q).mp hq
  by_contra hne
  have hk : j ≠ k' := fun h => hne (by rw [h])
  have hx0 : (piece j).1.emb x ∈ (piece j).1.set := by
    rw [← Rect.map_emb_univ]; exact Finset.mem_map_of_mem _ (Finset.mem_univ x)
  exact Finset.disjoint_left.mp (hsep j k' hk) hx0 hx

/-- What trip k stores into the partial numerators. -/
def payS_k0_t1_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t1_loop.trips) : (Rect.unit (s := S32x128x256) (k0_off13 d0 k) S1x128x256.size (k0_off13_inb d0 k)).shape.Idx → Elt F .bf16 :=
  (k0_pay38 (k0_pay5 (View.readAt (Elt F) arg15.view (Rect.unit (s := S2x8x1024x128) (k0_off12 d0 k) S1x1x1024x128.size (k0_off12_inb d0 k)).toLoadRect X_arg15)) (arg12.view.readCov [⟨Rect.unit (s := S1024x256) ![0, 0] S1024x256.size inb_S1024x256_S1024x256_0_0, (k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15))⟩] (Rect.unit (s := S1024x256) ![0, 0] S1024x256.size inb_S1024x256_S1024x256_0_0).toLoadRect))

theorem pbS_k0_t1_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 0 = ([], [], []) := rfl

/-- Trip k lays its piece in front of the earlier trips'. -/
theorem pbS_k0_t1_arg6_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t1_loop.trips) :
    (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 (k.val + 1)).1 = (⟨Rect.unit (s := S32x128x256) (k0_off13 d0 k) S1x128x256.size (k0_off13_inb d0 k), (payS_k0_t1_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k)⟩ : View.Piece (Elt F) S32x128x256 .bf16) :: (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).1 := by
  rw [pbS_k0_t1_succ, tripLS_k0_t1_eq]
  rfl

attribute [irreducible] payS_k0_t1_arg6

/-- The same, the exponentials read back being the ones just stored. -/
theorem payS_k0_t1_arg6_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t1_loop.trips) :
    payS_k0_t1_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k = (k0_pay38 (k0_pay5 (View.readAt (Elt F) arg15.view (Rect.unit (s := S2x8x1024x128) (k0_off12 d0 k) S1x1x1024x128.size (k0_off12_inb d0 k)).toLoadRect X_arg15)) ((k0_pay8 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))) := by
  unfold payS_k0_t1_arg6
  rw [View.readCov_cons_toLoadRect]

/-- Two trips' rectangles are apart. -/
theorem apart_k0_t1_arg6 (d0 : Dev nD) (k k' : Fin k0_t1_loop.trips) (hk : k ≠ k') : Disjoint (Rect.unit (s := S32x128x256) (k0_off13 d0 k) S1x128x256.size (k0_off13_inb d0 k)).set (Rect.unit (s := S32x128x256) (k0_off13 d0 k') S1x128x256.size (k0_off13_inb d0 k')).set := by
  refine Rect.unit_disjoint 0 ?_
  have hne : k.val ≠ k'.val := fun h => hk (Fin.ext h)
  have e := congrFun (k0_off13_eq d0 k) 0
  have e' := congrFun (k0_off13_eq d0 k') 0
  simp only [Matrix.cons_val_zero] at e e'
  have hs : S1x128x256.size 0 = 1 := rfl
  rw [e, e', hs]
  omega

/-- After the loop, through trip j's rectangle the memref reads what trip j stored there (no other trip touches it, and
    nothing of what it held before is read). -/
theorem readS_k0_t1_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t1_loop.trips) (x : (Rect.unit (s := S32x128x256) (k0_off13 d0 j) S1x128x256.size (k0_off13_inb d0 j)).shape.Idx) :
    locO.view.read (Elt F) (locO.view.writes (Elt F) G_arg6 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k0_t1_loop.trips).1) ((Rect.unit (s := S32x128x256) (k0_off13 d0 j) S1x128x256.size (k0_off13_inb d0 j)).emb x)
      = ((payS_k0_t1_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 j)) x :=
  read_writes_family locO.view G_arg6 k0_t1_loop.trips (fun k => (⟨Rect.unit (s := S32x128x256) (k0_off13 d0 k) S1x128x256.size (k0_off13_inb d0 k), (payS_k0_t1_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k)⟩ : View.Piece (Elt F) S32x128x256 .bf16)) (fun n => (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 n).1)
    (congrArg (fun t => t.1) (pbS_k0_t1_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12)) (pbS_k0_t1_arg6_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12) (fun k k' hk => apart_k0_t1_arg6 d0 k k' hk) j x

/-- Trip k lays its piece in front of the earlier trips'. -/
theorem pbS_k0_t1_arg7_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t1_loop.trips) :
    (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 (k.val + 1)).2.1 = (⟨Rect.unit (s := S32x1x256) (k0_off14 d0 k) S1x1x256.size (k0_off14_inb d0 k), (k0_pay39 (k0_pay7 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))⟩ : View.Piece (Elt F) S32x1x256 .f32) :: (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k.val).2.1 := by
  rw [pbS_k0_t1_succ, tripLS_k0_t1_eq]
  rfl

/-- Two trips' rectangles are apart. -/
theorem apart_k0_t1_arg7 (d0 : Dev nD) (k k' : Fin k0_t1_loop.trips) (hk : k ≠ k') : Disjoint (Rect.unit (s := S32x1x256) (k0_off14 d0 k) S1x1x256.size (k0_off14_inb d0 k)).set (Rect.unit (s := S32x1x256) (k0_off14 d0 k') S1x1x256.size (k0_off14_inb d0 k')).set := by
  refine Rect.unit_disjoint 0 ?_
  have hne : k.val ≠ k'.val := fun h => hk (Fin.ext h)
  have e := congrFun (k0_off14_eq d0 k) 0
  have e' := congrFun (k0_off14_eq d0 k') 0
  simp only [Matrix.cons_val_zero] at e e'
  have hs : S1x1x256.size 0 = 1 := rfl
  rw [e, e', hs]
  omega

/-- After the loop, through trip j's rectangle the memref reads what trip j stored there (no other trip touches it, and
    nothing of what it held before is read). -/
theorem readS_k0_t1_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t1_loop.trips) (x : (Rect.unit (s := S32x1x256) (k0_off14 d0 j) S1x1x256.size (k0_off14_inb d0 j)).shape.Idx) :
    locL.view.read (Elt F) (locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 k0_t1_loop.trips).2.1) ((Rect.unit (s := S32x1x256) (k0_off14 d0 j) S1x1x256.size (k0_off14_inb d0 j)).emb x)
      = ((k0_pay39 (k0_pay7 (View.readAt (Elt F) arg10.view (Rect.unit (s := S32x256x128) (k0_off10 d0 j) S1x256x128.size (k0_off10_inb d0 j)).toLoadRect X_arg10) (View.readAt (Elt F) arg15.view (Rect.unit (s := S2x8x1024x128) (k0_off11 d0 j) S1x1x1024x128.size (k0_off11_inb d0 j)).toLoadRect X_arg15)))) x :=
  read_writes_family locL.view G_arg7 k0_t1_loop.trips (fun k => (⟨Rect.unit (s := S32x1x256) (k0_off14 d0 k) S1x1x256.size (k0_off14_inb d0 k), (k0_pay39 (k0_pay7 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))⟩ : View.Piece (Elt F) S32x1x256 .f32)) (fun n => (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 n).2.1)
    (congrArg (fun t => t.2.1) (pbS_k0_t1_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12)) (pbS_k0_t1_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12) (fun k k' hk => apart_k0_t1_arg7 d0 k k' hk) j x

/-- Before trip j the earlier trips have not touched trip j's rectangle. -/
theorem before_k0_t1_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (hS_arg6 : ∀ k : Fin k0_t1_loop.trips, (locO.access (Rect.unit (s := S32x128x256) (k0_off13 d0 k) S1x128x256.size (k0_off13_inb d0 k))).set ⊆ (locBlkO c 0).view.set) (hS_arg7 : ∀ k : Fin k0_t1_loop.trips, (locL.access (Rect.unit (s := S32x1x256) (k0_off14 d0 k) S1x1x256.size (k0_off14_inb d0 k))).set ⊆ (locBlkL c 0).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t1_loop.trips) :
    View.readAt (Elt F) locL.view (Rect.unit (s := S32x1x256) (k0_off14 d0 j) S1x1x256.size (k0_off14_inb d0 j)).toLoadRect (locL.view.writes (Elt F) G_arg7 (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 j.val).2.1)
      = View.readAt (Elt F) locL.view (Rect.unit (s := S32x1x256) (k0_off14 d0 j) S1x1x256.size (k0_off14_inb d0 j)).toLoadRect G_arg7 :=
  View.readAt_writes_of_forall_not_mem locL.view G_arg7 _ _ fun y p hp hy => by
    obtain ⟨k, hkj, rfl⟩ := family_mem k0_t1_loop.trips (fun k => (⟨Rect.unit (s := S32x1x256) (k0_off14 d0 k) S1x1x256.size (k0_off14_inb d0 k), (k0_pay39 (k0_pay7 (View.readAt (Elt F) arg10.view (Rect.unit (s := S32x256x128) (k0_off10 d0 k) S1x256x128.size (k0_off10_inb d0 k)).toLoadRect X_arg10) (View.readAt (Elt F) arg15.view (Rect.unit (s := S2x8x1024x128) (k0_off11 d0 k) S1x1x1024x128.size (k0_off11_inb d0 k)).toLoadRect X_arg15)))⟩ : View.Piece (Elt F) S32x1x256 .f32)) (fun n => (pbS_k0_t1 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12 n).2.1)
      (congrArg (fun t => t.2.1) (pbS_k0_t1_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12)) (pbS_k0_t1_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 hS_arg6 hS_arg7 X_arg10 X_arg15 G_arg6 G_arg7 G_arg12) j.val (Nat.le_of_lt j.isLt) p hp
    have hne : k ≠ j := fun h => by subst h; exact Nat.lt_irrefl _ hkj
    exact Finset.disjoint_left.mp (apart_k0_t1_arg7 d0 k j hne) hy ((Rect.unit (s := S32x1x256) (k0_off14 d0 j) S1x1x256.size (k0_off14_inb d0 j)).toLoadRect.idx_mem y)

/-- What trip k stores into the partial numerators. -/
def payS_k0_t2_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t2_loop.trips) : (Rect.unit (s := S32x128x256) (k0_off29 d0 k) S1x128x256.size (k0_off29_inb d0 k)).shape.Idx → Elt F .bf16 :=
  (k0_pay56 (k0_pay9 (View.readAt (Elt F) arg15.view (Rect.unit (s := S2x8x1024x128) (k0_off28 d0 k) S1x1x1024x128.size (k0_off28_inb d0 k)).toLoadRect X_arg15)) (arg12.view.readCov [⟨Rect.unit (s := S1024x256) ![0, 0] S1024x256.size inb_S1024x256_S1024x256_0_0, (k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15))⟩] (Rect.unit (s := S1024x256) ![0, 0] S1024x256.size inb_S1024x256_S1024x256_0_0).toLoadRect))

theorem pbS_k0_t2_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 0 = ([], [], []) := rfl

/-- Trip k lays its piece in front of the earlier trips'. -/
theorem pbS_k0_t2_arg6_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t2_loop.trips) :
    (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 (k.val + 1)).1 = (⟨Rect.unit (s := S32x128x256) (k0_off29 d0 k) S1x128x256.size (k0_off29_inb d0 k), (payS_k0_t2_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k)⟩ : View.Piece (Elt F) S32x128x256 .bf16) :: (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).1 := by
  rw [pbS_k0_t2_succ, tripLS_k0_t2_eq]
  rfl

attribute [irreducible] payS_k0_t2_arg6

/-- The same, the exponentials read back being the ones just stored. -/
theorem payS_k0_t2_arg6_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t2_loop.trips) :
    payS_k0_t2_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k = (k0_pay56 (k0_pay9 (View.readAt (Elt F) arg15.view (Rect.unit (s := S2x8x1024x128) (k0_off28 d0 k) S1x1x1024x128.size (k0_off28_inb d0 k)).toLoadRect X_arg15)) ((k0_pay12 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))) := by
  unfold payS_k0_t2_arg6
  rw [View.readCov_cons_toLoadRect]

/-- Two trips' rectangles are apart. -/
theorem apart_k0_t2_arg6 (d0 : Dev nD) (k k' : Fin k0_t2_loop.trips) (hk : k ≠ k') : Disjoint (Rect.unit (s := S32x128x256) (k0_off29 d0 k) S1x128x256.size (k0_off29_inb d0 k)).set (Rect.unit (s := S32x128x256) (k0_off29 d0 k') S1x128x256.size (k0_off29_inb d0 k')).set := by
  refine Rect.unit_disjoint 0 ?_
  have hne : k.val ≠ k'.val := fun h => hk (Fin.ext h)
  have e := congrFun (off29_eq d0 k) 0
  have e' := congrFun (off29_eq d0 k') 0
  simp only [Matrix.cons_val_zero] at e e'
  have hs : S1x128x256.size 0 = 1 := rfl
  rw [e, e', hs]
  omega

/-- After the loop, through trip j's rectangle the memref reads what trip j stored there (no other trip touches it, and
    nothing of what it held before is read). -/
theorem readS_k0_t2_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t2_loop.trips) (x : (Rect.unit (s := S32x128x256) (k0_off29 d0 j) S1x128x256.size (k0_off29_inb d0 j)).shape.Idx) :
    locO.view.read (Elt F) (locO.view.writes (Elt F) G_arg6 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k0_t2_loop.trips).1) ((Rect.unit (s := S32x128x256) (k0_off29 d0 j) S1x128x256.size (k0_off29_inb d0 j)).emb x)
      = ((payS_k0_t2_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 j)) x :=
  read_writes_family locO.view G_arg6 k0_t2_loop.trips (fun k => (⟨Rect.unit (s := S32x128x256) (k0_off29 d0 k) S1x128x256.size (k0_off29_inb d0 k), (payS_k0_t2_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k)⟩ : View.Piece (Elt F) S32x128x256 .bf16)) (fun n => (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 n).1)
    (congrArg (fun t => t.1) (pbS_k0_t2_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12)) (pbS_k0_t2_arg6_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12) (fun k k' hk => apart_k0_t2_arg6 d0 k k' hk) j x

/-- Trip k lays its piece in front of the earlier trips'. -/
theorem pbS_k0_t2_arg7_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t2_loop.trips) :
    (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 (k.val + 1)).2.1 = (⟨Rect.unit (s := S32x1x256) (k0_off30 d0 k) S1x1x256.size (k0_off30_inb d0 k), (k0_pay57 (k0_pay11 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))⟩ : View.Piece (Elt F) S32x1x256 .f32) :: (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k.val).2.1 := by
  rw [pbS_k0_t2_succ, tripLS_k0_t2_eq]
  rfl

/-- Two trips' rectangles are apart. -/
theorem apart_k0_t2_arg7 (d0 : Dev nD) (k k' : Fin k0_t2_loop.trips) (hk : k ≠ k') : Disjoint (Rect.unit (s := S32x1x256) (k0_off30 d0 k) S1x1x256.size (k0_off30_inb d0 k)).set (Rect.unit (s := S32x1x256) (k0_off30 d0 k') S1x1x256.size (k0_off30_inb d0 k')).set := by
  refine Rect.unit_disjoint 0 ?_
  have hne : k.val ≠ k'.val := fun h => hk (Fin.ext h)
  have e := congrFun (off30_eq d0 k) 0
  have e' := congrFun (off30_eq d0 k') 0
  simp only [Matrix.cons_val_zero] at e e'
  have hs : S1x1x256.size 0 = 1 := rfl
  rw [e, e', hs]
  omega

/-- After the loop, through trip j's rectangle the memref reads what trip j stored there (no other trip touches it, and
    nothing of what it held before is read). -/
theorem readS_k0_t2_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t2_loop.trips) (x : (Rect.unit (s := S32x1x256) (k0_off30 d0 j) S1x1x256.size (k0_off30_inb d0 j)).shape.Idx) :
    locL.view.read (Elt F) (locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 k0_t2_loop.trips).2.1) ((Rect.unit (s := S32x1x256) (k0_off30 d0 j) S1x1x256.size (k0_off30_inb d0 j)).emb x)
      = ((k0_pay57 (k0_pay11 (View.readAt (Elt F) arg10.view (Rect.unit (s := S32x256x128) (k0_off26 d0 j) S1x256x128.size (k0_off26_inb d0 j)).toLoadRect X_arg10) (View.readAt (Elt F) arg15.view (Rect.unit (s := S2x8x1024x128) (k0_off27 d0 j) S1x1x1024x128.size (k0_off27_inb d0 j)).toLoadRect X_arg15)))) x :=
  read_writes_family locL.view G_arg7 k0_t2_loop.trips (fun k => (⟨Rect.unit (s := S32x1x256) (k0_off30 d0 k) S1x1x256.size (k0_off30_inb d0 k), (k0_pay57 (k0_pay11 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))⟩ : View.Piece (Elt F) S32x1x256 .f32)) (fun n => (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 n).2.1)
    (congrArg (fun t => t.2.1) (pbS_k0_t2_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12)) (pbS_k0_t2_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12) (fun k k' hk => apart_k0_t2_arg7 d0 k k' hk) j x

/-- Before trip j the earlier trips have not touched trip j's rectangle. -/
theorem before_k0_t2_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (hS_arg6 : ∀ k : Fin k0_t2_loop.trips, (locO.access (Rect.unit (s := S32x128x256) (k0_off29 d0 k) S1x128x256.size (k0_off29_inb d0 k))).set ⊆ (locBlkO c 2).view.set) (hS_arg7 : ∀ k : Fin k0_t2_loop.trips, (locL.access (Rect.unit (s := S32x1x256) (k0_off30 d0 k) S1x1x256.size (k0_off30_inb d0 k))).set ⊆ (locBlkL c 2).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t2_loop.trips) :
    View.readAt (Elt F) locL.view (Rect.unit (s := S32x1x256) (k0_off30 d0 j) S1x1x256.size (k0_off30_inb d0 j)).toLoadRect (locL.view.writes (Elt F) G_arg7 (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 j.val).2.1)
      = View.readAt (Elt F) locL.view (Rect.unit (s := S32x1x256) (k0_off30 d0 j) S1x1x256.size (k0_off30_inb d0 j)).toLoadRect G_arg7 :=
  View.readAt_writes_of_forall_not_mem locL.view G_arg7 _ _ fun y p hp hy => by
    obtain ⟨k, hkj, rfl⟩ := family_mem k0_t2_loop.trips (fun k => (⟨Rect.unit (s := S32x1x256) (k0_off30 d0 k) S1x1x256.size (k0_off30_inb d0 k), (k0_pay57 (k0_pay11 (View.readAt (Elt F) arg10.view (Rect.unit (s := S32x256x128) (k0_off26 d0 k) S1x256x128.size (k0_off26_inb d0 k)).toLoadRect X_arg10) (View.readAt (Elt F) arg15.view (Rect.unit (s := S2x8x1024x128) (k0_off27 d0 k) S1x1x1024x128.size (k0_off27_inb d0 k)).toLoadRect X_arg15)))⟩ : View.Piece (Elt F) S32x1x256 .f32)) (fun n => (pbS_k0_t2 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12 n).2.1)
      (congrArg (fun t => t.2.1) (pbS_k0_t2_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12)) (pbS_k0_t2_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 hS_arg6 hS_arg7 X_arg10 X_arg15 G_arg6 G_arg7 G_arg12) j.val (Nat.le_of_lt j.isLt) p hp
    have hne : k ≠ j := fun h => by subst h; exact Nat.lt_irrefl _ hkj
    exact Finset.disjoint_left.mp (apart_k0_t2_arg7 d0 k j hne) hy ((Rect.unit (s := S32x1x256) (k0_off30 d0 j) S1x1x256.size (k0_off30_inb d0 j)).toLoadRect.idx_mem y)

/-- What trip k stores into the partial numerators. -/
def payS_k0_t3_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t3_loop.trips) : (Rect.unit (s := S32x128x256) (k0_off36 d0 k) S1x128x256.size (k0_off36_inb d0 k)).shape.Idx → Elt F .bf16 :=
  (k0_pay73 (k0_pay13 (View.readAt (Elt F) arg15.view (Rect.unit (s := S2x8x1024x128) (k0_off35 d0 k) S1x1x1024x128.size (k0_off35_inb d0 k)).toLoadRect X_arg15)) (arg12.view.readCov [⟨Rect.unit (s := S1024x256) ![0, 0] S1024x256.size inb_S1024x256_S1024x256_0_0, (k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15))⟩] (Rect.unit (s := S1024x256) ![0, 0] S1024x256.size inb_S1024x256_S1024x256_0_0).toLoadRect))

theorem pbS_k0_t3_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 0 = ([], [], []) := rfl

/-- Trip k lays its piece in front of the earlier trips'. -/
theorem pbS_k0_t3_arg6_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t3_loop.trips) :
    (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 (k.val + 1)).1 = (⟨Rect.unit (s := S32x128x256) (k0_off36 d0 k) S1x128x256.size (k0_off36_inb d0 k), (payS_k0_t3_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k)⟩ : View.Piece (Elt F) S32x128x256 .bf16) :: (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).1 := by
  rw [pbS_k0_t3_succ, tripLS_k0_t3_eq]
  rfl

attribute [irreducible] payS_k0_t3_arg6

/-- The same, the exponentials read back being the ones just stored. -/
theorem payS_k0_t3_arg6_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t3_loop.trips) :
    payS_k0_t3_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k = (k0_pay73 (k0_pay13 (View.readAt (Elt F) arg15.view (Rect.unit (s := S2x8x1024x128) (k0_off35 d0 k) S1x1x1024x128.size (k0_off35_inb d0 k)).toLoadRect X_arg15)) ((k0_pay16 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))) := by
  unfold payS_k0_t3_arg6
  rw [View.readCov_cons_toLoadRect]

/-- Two trips' rectangles are apart. -/
theorem apart_k0_t3_arg6 (d0 : Dev nD) (k k' : Fin k0_t3_loop.trips) (hk : k ≠ k') : Disjoint (Rect.unit (s := S32x128x256) (k0_off36 d0 k) S1x128x256.size (k0_off36_inb d0 k)).set (Rect.unit (s := S32x128x256) (k0_off36 d0 k') S1x128x256.size (k0_off36_inb d0 k')).set := by
  refine Rect.unit_disjoint 0 ?_
  have hne : k.val ≠ k'.val := fun h => hk (Fin.ext h)
  have e := congrFun (off36_eq d0 k) 0
  have e' := congrFun (off36_eq d0 k') 0
  simp only [Matrix.cons_val_zero] at e e'
  have hs : S1x128x256.size 0 = 1 := rfl
  rw [e, e', hs]
  omega

/-- After the loop, through trip j's rectangle the memref reads what trip j stored there (no other trip touches it, and
    nothing of what it held before is read). -/
theorem readS_k0_t3_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t3_loop.trips) (x : (Rect.unit (s := S32x128x256) (k0_off36 d0 j) S1x128x256.size (k0_off36_inb d0 j)).shape.Idx) :
    locO.view.read (Elt F) (locO.view.writes (Elt F) G_arg6 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k0_t3_loop.trips).1) ((Rect.unit (s := S32x128x256) (k0_off36 d0 j) S1x128x256.size (k0_off36_inb d0 j)).emb x)
      = ((payS_k0_t3_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 j)) x :=
  read_writes_family locO.view G_arg6 k0_t3_loop.trips (fun k => (⟨Rect.unit (s := S32x128x256) (k0_off36 d0 k) S1x128x256.size (k0_off36_inb d0 k), (payS_k0_t3_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k)⟩ : View.Piece (Elt F) S32x128x256 .bf16)) (fun n => (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 n).1)
    (congrArg (fun t => t.1) (pbS_k0_t3_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12)) (pbS_k0_t3_arg6_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12) (fun k k' hk => apart_k0_t3_arg6 d0 k k' hk) j x

/-- Trip k lays its piece in front of the earlier trips'. -/
theorem pbS_k0_t3_arg7_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t3_loop.trips) :
    (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 (k.val + 1)).2.1 = (⟨Rect.unit (s := S32x1x256) (k0_off37 d0 k) S1x1x256.size (k0_off37_inb d0 k), (k0_pay74 (k0_pay15 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))⟩ : View.Piece (Elt F) S32x1x256 .f32) :: (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k.val).2.1 := by
  rw [pbS_k0_t3_succ, tripLS_k0_t3_eq]
  rfl

/-- Two trips' rectangles are apart. -/
theorem apart_k0_t3_arg7 (d0 : Dev nD) (k k' : Fin k0_t3_loop.trips) (hk : k ≠ k') : Disjoint (Rect.unit (s := S32x1x256) (k0_off37 d0 k) S1x1x256.size (k0_off37_inb d0 k)).set (Rect.unit (s := S32x1x256) (k0_off37 d0 k') S1x1x256.size (k0_off37_inb d0 k')).set := by
  refine Rect.unit_disjoint 0 ?_
  have hne : k.val ≠ k'.val := fun h => hk (Fin.ext h)
  have e := congrFun (off37_eq d0 k) 0
  have e' := congrFun (off37_eq d0 k') 0
  simp only [Matrix.cons_val_zero] at e e'
  have hs : S1x1x256.size 0 = 1 := rfl
  rw [e, e', hs]
  omega

/-- After the loop, through trip j's rectangle the memref reads what trip j stored there (no other trip touches it, and
    nothing of what it held before is read). -/
theorem readS_k0_t3_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t3_loop.trips) (x : (Rect.unit (s := S32x1x256) (k0_off37 d0 j) S1x1x256.size (k0_off37_inb d0 j)).shape.Idx) :
    locL.view.read (Elt F) (locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 k0_t3_loop.trips).2.1) ((Rect.unit (s := S32x1x256) (k0_off37 d0 j) S1x1x256.size (k0_off37_inb d0 j)).emb x)
      = ((k0_pay74 (k0_pay15 (View.readAt (Elt F) arg10.view (Rect.unit (s := S32x256x128) (k0_off33 d0 j) S1x256x128.size (k0_off33_inb d0 j)).toLoadRect X_arg10) (View.readAt (Elt F) arg15.view (Rect.unit (s := S2x8x1024x128) (k0_off34 d0 j) S1x1x1024x128.size (k0_off34_inb d0 j)).toLoadRect X_arg15)))) x :=
  read_writes_family locL.view G_arg7 k0_t3_loop.trips (fun k => (⟨Rect.unit (s := S32x1x256) (k0_off37 d0 k) S1x1x256.size (k0_off37_inb d0 k), (k0_pay74 (k0_pay15 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))⟩ : View.Piece (Elt F) S32x1x256 .f32)) (fun n => (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 n).2.1)
    (congrArg (fun t => t.2.1) (pbS_k0_t3_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12)) (pbS_k0_t3_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12) (fun k k' hk => apart_k0_t3_arg7 d0 k k' hk) j x

/-- Before trip j the earlier trips have not touched trip j's rectangle. -/
theorem before_k0_t3_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (hS_arg6 : ∀ k : Fin k0_t3_loop.trips, (locO.access (Rect.unit (s := S32x128x256) (k0_off36 d0 k) S1x128x256.size (k0_off36_inb d0 k))).set ⊆ (locBlkO c 3).view.set) (hS_arg7 : ∀ k : Fin k0_t3_loop.trips, (locL.access (Rect.unit (s := S32x1x256) (k0_off37 d0 k) S1x1x256.size (k0_off37_inb d0 k))).set ⊆ (locBlkL c 3).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t3_loop.trips) :
    View.readAt (Elt F) locL.view (Rect.unit (s := S32x1x256) (k0_off37 d0 j) S1x1x256.size (k0_off37_inb d0 j)).toLoadRect (locL.view.writes (Elt F) G_arg7 (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 j.val).2.1)
      = View.readAt (Elt F) locL.view (Rect.unit (s := S32x1x256) (k0_off37 d0 j) S1x1x256.size (k0_off37_inb d0 j)).toLoadRect G_arg7 :=
  View.readAt_writes_of_forall_not_mem locL.view G_arg7 _ _ fun y p hp hy => by
    obtain ⟨k, hkj, rfl⟩ := family_mem k0_t3_loop.trips (fun k => (⟨Rect.unit (s := S32x1x256) (k0_off37 d0 k) S1x1x256.size (k0_off37_inb d0 k), (k0_pay74 (k0_pay15 (View.readAt (Elt F) arg10.view (Rect.unit (s := S32x256x128) (k0_off33 d0 k) S1x256x128.size (k0_off33_inb d0 k)).toLoadRect X_arg10) (View.readAt (Elt F) arg15.view (Rect.unit (s := S2x8x1024x128) (k0_off34 d0 k) S1x1x1024x128.size (k0_off34_inb d0 k)).toLoadRect X_arg15)))⟩ : View.Piece (Elt F) S32x1x256 .f32)) (fun n => (pbS_k0_t3 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12 n).2.1)
      (congrArg (fun t => t.2.1) (pbS_k0_t3_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12)) (pbS_k0_t3_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 hS_arg6 hS_arg7 X_arg10 X_arg15 G_arg6 G_arg7 G_arg12) j.val (Nat.le_of_lt j.isLt) p hp
    have hne : k ≠ j := fun h => by subst h; exact Nat.lt_irrefl _ hkj
    exact Finset.disjoint_left.mp (apart_k0_t3_arg7 d0 k j hne) hy ((Rect.unit (s := S32x1x256) (k0_off37 d0 j) S1x1x256.size (k0_off37_inb d0 j)).toLoadRect.idx_mem y)

/-- What trip k stores into the partial numerators. -/
def payS_k0_t6_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t6_loop.trips) : (Rect.unit (s := S32x128x256) (k0_off49 d0 k) S1x128x256.size (k0_off49_inb d0 k)).shape.Idx → Elt F .bf16 :=
  (k0_pay94 (k0_pay17 (View.readAt (Elt F) arg15.view (Rect.unit (s := S2x8x1024x128) (k0_off48 d0 k) S1x1x1024x128.size (k0_off48_inb d0 k)).toLoadRect X_arg15)) (arg12.view.readCov [⟨Rect.unit (s := S1024x256) ![0, 0] S1024x256.size inb_S1024x256_S1024x256_0_0, (k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15))⟩] (Rect.unit (s := S1024x256) ![0, 0] S1024x256.size inb_S1024x256_S1024x256_0_0).toLoadRect))

theorem pbS_k0_t6_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) : pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 0 = ([], [], []) := rfl

/-- Trip k lays its piece in front of the earlier trips'. -/
theorem pbS_k0_t6_arg6_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t6_loop.trips) :
    (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 (k.val + 1)).1 = (⟨Rect.unit (s := S32x128x256) (k0_off49 d0 k) S1x128x256.size (k0_off49_inb d0 k), (payS_k0_t6_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k)⟩ : View.Piece (Elt F) S32x128x256 .bf16) :: (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).1 := by
  rw [pbS_k0_t6_succ, tripLS_k0_t6_eq]
  rfl

attribute [irreducible] payS_k0_t6_arg6

/-- The same, the exponentials read back being the ones just stored. -/
theorem payS_k0_t6_arg6_eq (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t6_loop.trips) :
    payS_k0_t6_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k = (k0_pay94 (k0_pay17 (View.readAt (Elt F) arg15.view (Rect.unit (s := S2x8x1024x128) (k0_off48 d0 k) S1x1x1024x128.size (k0_off48_inb d0 k)).toLoadRect X_arg15)) ((k0_pay20 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))) := by
  unfold payS_k0_t6_arg6
  rw [View.readCov_cons_toLoadRect]

/-- Two trips' rectangles are apart. -/
theorem apart_k0_t6_arg6 (d0 : Dev nD) (k k' : Fin k0_t6_loop.trips) (hk : k ≠ k') : Disjoint (Rect.unit (s := S32x128x256) (k0_off49 d0 k) S1x128x256.size (k0_off49_inb d0 k)).set (Rect.unit (s := S32x128x256) (k0_off49 d0 k') S1x128x256.size (k0_off49_inb d0 k')).set := by
  refine Rect.unit_disjoint 0 ?_
  have hne : k.val ≠ k'.val := fun h => hk (Fin.ext h)
  have e := congrFun (off49_eq d0 k) 0
  have e' := congrFun (off49_eq d0 k') 0
  simp only [Matrix.cons_val_zero] at e e'
  have hs : S1x128x256.size 0 = 1 := rfl
  rw [e, e', hs]
  omega

/-- After the loop, through trip j's rectangle the memref reads what trip j stored there (no other trip touches it, and
    nothing of what it held before is read). -/
theorem readS_k0_t6_arg6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t6_loop.trips) (x : (Rect.unit (s := S32x128x256) (k0_off49 d0 j) S1x128x256.size (k0_off49_inb d0 j)).shape.Idx) :
    locO.view.read (Elt F) (locO.view.writes (Elt F) G_arg6 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k0_t6_loop.trips).1) ((Rect.unit (s := S32x128x256) (k0_off49 d0 j) S1x128x256.size (k0_off49_inb d0 j)).emb x)
      = ((payS_k0_t6_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 j)) x :=
  read_writes_family locO.view G_arg6 k0_t6_loop.trips (fun k => (⟨Rect.unit (s := S32x128x256) (k0_off49 d0 k) S1x128x256.size (k0_off49_inb d0 k), (payS_k0_t6_arg6 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k)⟩ : View.Piece (Elt F) S32x128x256 .bf16)) (fun n => (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 n).1)
    (congrArg (fun t => t.1) (pbS_k0_t6_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12)) (pbS_k0_t6_arg6_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12) (fun k k' hk => apart_k0_t6_arg6 d0 k k' hk) j x

/-- Trip k lays its piece in front of the earlier trips'. -/
theorem pbS_k0_t6_arg7_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (k : Fin k0_t6_loop.trips) :
    (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 (k.val + 1)).2.1 = (⟨Rect.unit (s := S32x1x256) (k0_off50 d0 k) S1x1x256.size (k0_off50_inb d0 k), (k0_pay95 (k0_pay19 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))⟩ : View.Piece (Elt F) S32x1x256 .f32) :: (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k.val).2.1 := by
  rw [pbS_k0_t6_succ, tripLS_k0_t6_eq]
  rfl

/-- Two trips' rectangles are apart. -/
theorem apart_k0_t6_arg7 (d0 : Dev nD) (k k' : Fin k0_t6_loop.trips) (hk : k ≠ k') : Disjoint (Rect.unit (s := S32x1x256) (k0_off50 d0 k) S1x1x256.size (k0_off50_inb d0 k)).set (Rect.unit (s := S32x1x256) (k0_off50 d0 k') S1x1x256.size (k0_off50_inb d0 k')).set := by
  refine Rect.unit_disjoint 0 ?_
  have hne : k.val ≠ k'.val := fun h => hk (Fin.ext h)
  have e := congrFun (off50_eq d0 k) 0
  have e' := congrFun (off50_eq d0 k') 0
  simp only [Matrix.cons_val_zero] at e e'
  have hs : S1x1x256.size 0 = 1 := rfl
  rw [e, e', hs]
  omega

/-- After the loop, through trip j's rectangle the memref reads what trip j stored there (no other trip touches it, and
    nothing of what it held before is read). -/
theorem readS_k0_t6_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t6_loop.trips) (x : (Rect.unit (s := S32x1x256) (k0_off50 d0 j) S1x1x256.size (k0_off50_inb d0 j)).shape.Idx) :
    locL.view.read (Elt F) (locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 k0_t6_loop.trips).2.1) ((Rect.unit (s := S32x1x256) (k0_off50 d0 j) S1x1x256.size (k0_off50_inb d0 j)).emb x)
      = ((k0_pay95 (k0_pay19 (View.readAt (Elt F) arg10.view (Rect.unit (s := S32x256x128) (k0_off46 d0 j) S1x256x128.size (k0_off46_inb d0 j)).toLoadRect X_arg10) (View.readAt (Elt F) arg15.view (Rect.unit (s := S2x8x1024x128) (k0_off47 d0 j) S1x1x1024x128.size (k0_off47_inb d0 j)).toLoadRect X_arg15)))) x :=
  read_writes_family locL.view G_arg7 k0_t6_loop.trips (fun k => (⟨Rect.unit (s := S32x1x256) (k0_off50 d0 k) S1x1x256.size (k0_off50_inb d0 k), (k0_pay95 (k0_pay19 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))⟩ : View.Piece (Elt F) S32x1x256 .f32)) (fun n => (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 n).2.1)
    (congrArg (fun t => t.2.1) (pbS_k0_t6_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12)) (pbS_k0_t6_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12) (fun k k' hk => apart_k0_t6_arg7 d0 k k' hk) j x

/-- Before trip j the earlier trips have not touched trip j's rectangle. -/
theorem before_k0_t6_arg7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (hS_arg6 : ∀ k : Fin k0_t6_loop.trips, (locO.access (Rect.unit (s := S32x128x256) (k0_off49 d0 k) S1x128x256.size (k0_off49_inb d0 k))).set ⊆ (locBlkO c 1).view.set) (hS_arg7 : ∀ k : Fin k0_t6_loop.trips, (locL.access (Rect.unit (s := S32x1x256) (k0_off50 d0 k) S1x1x256.size (k0_off50_inb d0 k))).set ⊆ (locBlkL c 1).view.set) (X_arg10 : BufTy.Contents (Elt F) arg10.view.ty) (X_arg15 : BufTy.Contents (Elt F) arg15.view.ty) (G_arg6 : BufTy.Contents (Elt F) locO.view.ty) (G_arg7 : BufTy.Contents (Elt F) locL.view.ty) (G_arg12 : BufTy.Contents (Elt F) arg12.view.ty) (j : Fin k0_t6_loop.trips) :
    View.readAt (Elt F) locL.view (Rect.unit (s := S32x1x256) (k0_off50 d0 j) S1x1x256.size (k0_off50_inb d0 j)).toLoadRect (locL.view.writes (Elt F) G_arg7 (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 j.val).2.1)
      = View.readAt (Elt F) locL.view (Rect.unit (s := S32x1x256) (k0_off50 d0 j) S1x1x256.size (k0_off50_inb d0 j)).toLoadRect G_arg7 :=
  View.readAt_writes_of_forall_not_mem locL.view G_arg7 _ _ fun y p hp hy => by
    obtain ⟨k, hkj, rfl⟩ := family_mem k0_t6_loop.trips (fun k => (⟨Rect.unit (s := S32x1x256) (k0_off50 d0 k) S1x1x256.size (k0_off50_inb d0 k), (k0_pay95 (k0_pay19 (View.readAt (Elt F) arg10.view (Rect.unit (s := S32x256x128) (k0_off46 d0 k) S1x256x128.size (k0_off46_inb d0 k)).toLoadRect X_arg10) (View.readAt (Elt F) arg15.view (Rect.unit (s := S2x8x1024x128) (k0_off47 d0 k) S1x1x1024x128.size (k0_off47_inb d0 k)).toLoadRect X_arg15)))⟩ : View.Piece (Elt F) S32x1x256 .f32)) (fun n => (pbS_k0_t6 (F := F) 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12 n).2.1)
      (congrArg (fun t => t.2.1) (pbS_k0_t6_zero 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12)) (pbS_k0_t6_arg7_step 𝒱 c bd arg0 harg0 arg1 harg1 arg2 harg2 arg3 harg3 arg4 harg4 arg5 harg5 harg6 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 hS_arg6 hS_arg7 X_arg10 X_arg15 G_arg6 G_arg7 G_arg12) j.val (Nat.le_of_lt j.isLt) p hp
    have hne : k ≠ j := fun h => by subst h; exact Nat.lt_irrefl _ hkj
    exact Finset.disjoint_left.mp (apart_k0_t6_arg7 d0 k j hne) hy ((Rect.unit (s := S32x1x256) (k0_off50 d0 j) S1x1x256.size (k0_off50_inb d0 j)).toLoadRect.idx_mem y)

theorem pbS_k0_t4_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 0 = ([], []) := rfl

/-- Trip k lays its piece in front of the earlier trips'. -/
theorem pbS_k0_t4_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t4_loop.trips) :
    (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 (k.val + 1)).1 = (⟨Rect.unit (s := S3x8x128x256) (k0_off40 k) S1x1x128x256.size (k0_off40_inb k), (k0_pay76 (View.readAt (Elt F) rsO.view (Rect.unit (s := S3x8x128x256) (k0_off40 k) S1x1x128x256.size (k0_off40_inb k)).toLoadRect (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1)) (View.readAt (Elt F) locO.view (Rect.unit (s := S32x128x256) (k0_off41 d0 k) S1x128x256.size (k0_off41_inb d0 k)).toLoadRect X_arg6))⟩ : View.Piece (Elt F) S3x8x128x256 .bf16) :: (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1 := by
  rw [pbS_k0_t4_succ, tripLS_k0_t4_eq]
  rfl

/-- Two trips' rectangles are apart. -/
theorem apart_k0_t4_arg8 (k k' : Fin k0_t4_loop.trips) (hk : k ≠ k') : Disjoint (Rect.unit (s := S3x8x128x256) (k0_off40 k) S1x1x128x256.size (k0_off40_inb k)).set (Rect.unit (s := S3x8x128x256) (k0_off40 k') S1x1x128x256.size (k0_off40_inb k')).set := by
  refine Rect.unit_disjoint 1 ?_
  have hne : k.val ≠ k'.val := fun h => hk (Fin.ext h)
  have e := congrFun (k0_off40_eq k) 1
  have e' := congrFun (k0_off40_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t4_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t4_loop.trips) (x : (Rect.unit (s := S3x8x128x256) (k0_off40 j) S1x1x128x256.size (k0_off40_inb j)).shape.Idx) :
    rsO.view.read (Elt F) (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k0_t4_loop.trips).1) ((Rect.unit (s := S3x8x128x256) (k0_off40 j) S1x1x128x256.size (k0_off40_inb j)).emb x)
      = ((k0_pay76 (View.readAt (Elt F) rsO.view (Rect.unit (s := S3x8x128x256) (k0_off40 j) S1x1x128x256.size (k0_off40_inb j)).toLoadRect (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 j.val).1)) (View.readAt (Elt F) locO.view (Rect.unit (s := S32x128x256) (k0_off41 d0 j) S1x128x256.size (k0_off41_inb d0 j)).toLoadRect X_arg6))) x :=
  read_writes_family rsO.view G_arg8 k0_t4_loop.trips (fun k => (⟨Rect.unit (s := S3x8x128x256) (k0_off40 k) S1x1x128x256.size (k0_off40_inb k), (k0_pay76 (View.readAt (Elt F) rsO.view (Rect.unit (s := S3x8x128x256) (k0_off40 k) S1x1x128x256.size (k0_off40_inb k)).toLoadRect (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1)) (View.readAt (Elt F) locO.view (Rect.unit (s := S32x128x256) (k0_off41 d0 k) S1x128x256.size (k0_off41_inb d0 k)).toLoadRect X_arg6))⟩ : View.Piece (Elt F) S3x8x128x256 .bf16)) (fun n => (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 n).1)
    (congrArg (fun t => t.1) (pbS_k0_t4_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9)) (pbS_k0_t4_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9) (fun k k' hk => apart_k0_t4_arg8 k k' hk) j x

/-- Before trip j the earlier trips have not touched trip j's rectangle. -/
theorem before_k0_t4_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t4_loop.trips) :
    View.readAt (Elt F) rsO.view (Rect.unit (s := S3x8x128x256) (k0_off40 j) S1x1x128x256.size (k0_off40_inb j)).toLoadRect (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 j.val).1)
      = View.readAt (Elt F) rsO.view (Rect.unit (s := S3x8x128x256) (k0_off40 j) S1x1x128x256.size (k0_off40_inb j)).toLoadRect G_arg8 :=
  View.readAt_writes_of_forall_not_mem rsO.view G_arg8 _ _ fun y p hp hy => by
    obtain ⟨k, hkj, rfl⟩ := family_mem k0_t4_loop.trips (fun k => (⟨Rect.unit (s := S3x8x128x256) (k0_off40 k) S1x1x128x256.size (k0_off40_inb k), (k0_pay76 (View.readAt (Elt F) rsO.view (Rect.unit (s := S3x8x128x256) (k0_off40 k) S1x1x128x256.size (k0_off40_inb k)).toLoadRect (rsO.view.writes (Elt F) G_arg8 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).1)) (View.readAt (Elt F) locO.view (Rect.unit (s := S32x128x256) (k0_off41 d0 k) S1x128x256.size (k0_off41_inb d0 k)).toLoadRect X_arg6))⟩ : View.Piece (Elt F) S3x8x128x256 .bf16)) (fun n => (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 n).1)
      (congrArg (fun t => t.1) (pbS_k0_t4_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9)) (pbS_k0_t4_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t4_arg8 k j hne) hy ((Rect.unit (s := S3x8x128x256) (k0_off40 j) S1x1x128x256.size (k0_off40_inb j)).toLoadRect.idx_mem y)

/-- Trip k lays its piece in front of the earlier trips'. -/
theorem pbS_k0_t4_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t4_loop.trips) :
    (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 (k.val + 1)).2 = (⟨Rect.unit (s := S3x8x1x256) (k0_off38 k) S1x1x1x256.size (k0_off38_inb k), (k0_pay75 (View.readAt (Elt F) rsL.view (Rect.unit (s := S3x8x1x256) (k0_off38 k) S1x1x1x256.size (k0_off38_inb k)).toLoadRect (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2)) (View.readAt (Elt F) locL.view (Rect.unit (s := S32x1x256) (k0_off39 d0 k) S1x1x256.size (k0_off39_inb d0 k)).toLoadRect X_arg7))⟩ : View.Piece (Elt F) S3x8x1x256 .f32) :: (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2 := by
  rw [pbS_k0_t4_succ, tripLS_k0_t4_eq]
  rfl

/-- Two trips' rectangles are apart. -/
theorem apart_k0_t4_arg9 (k k' : Fin k0_t4_loop.trips) (hk : k ≠ k') : Disjoint (Rect.unit (s := S3x8x1x256) (k0_off38 k) S1x1x1x256.size (k0_off38_inb k)).set (Rect.unit (s := S3x8x1x256) (k0_off38 k') S1x1x1x256.size (k0_off38_inb k')).set := by
  refine Rect.unit_disjoint 1 ?_
  have hne : k.val ≠ k'.val := fun h => hk (Fin.ext h)
  have e := congrFun (k0_off38_eq k) 1
  have e' := congrFun (k0_off38_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t4_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t4_loop.trips) (x : (Rect.unit (s := S3x8x1x256) (k0_off38 j) S1x1x1x256.size (k0_off38_inb j)).shape.Idx) :
    rsL.view.read (Elt F) (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k0_t4_loop.trips).2) ((Rect.unit (s := S3x8x1x256) (k0_off38 j) S1x1x1x256.size (k0_off38_inb j)).emb x)
      = ((k0_pay75 (View.readAt (Elt F) rsL.view (Rect.unit (s := S3x8x1x256) (k0_off38 j) S1x1x1x256.size (k0_off38_inb j)).toLoadRect (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 j.val).2)) (View.readAt (Elt F) locL.view (Rect.unit (s := S32x1x256) (k0_off39 d0 j) S1x1x256.size (k0_off39_inb d0 j)).toLoadRect X_arg7))) x :=
  read_writes_family rsL.view G_arg9 k0_t4_loop.trips (fun k => (⟨Rect.unit (s := S3x8x1x256) (k0_off38 k) S1x1x1x256.size (k0_off38_inb k), (k0_pay75 (View.readAt (Elt F) rsL.view (Rect.unit (s := S3x8x1x256) (k0_off38 k) S1x1x1x256.size (k0_off38_inb k)).toLoadRect (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2)) (View.readAt (Elt F) locL.view (Rect.unit (s := S32x1x256) (k0_off39 d0 k) S1x1x256.size (k0_off39_inb d0 k)).toLoadRect X_arg7))⟩ : View.Piece (Elt F) S3x8x1x256 .f32)) (fun n => (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 n).2)
    (congrArg (fun t => t.2) (pbS_k0_t4_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9)) (pbS_k0_t4_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9) (fun k k' hk => apart_k0_t4_arg9 k k' hk) j x

/-- Before trip j the earlier trips have not touched trip j's rectangle. -/
theorem before_k0_t4_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (hS_arg6 : ∀ k : Fin k0_t4_loop.trips, (locO.access (Rect.unit (s := S32x128x256) (k0_off41 d0 k) S1x128x256.size (k0_off41_inb d0 k))).set ⊆ (locHalfO c 3 false).view.set) (hS_arg7 : ∀ k : Fin k0_t4_loop.trips, (locL.access (Rect.unit (s := S32x1x256) (k0_off39 d0 k) S1x1x256.size (k0_off39_inb d0 k))).set ⊆ (locHalfL c 3 false).view.set) (hS_arg8 : ∀ k : Fin k0_t4_loop.trips, (rsO.access (Rect.unit (s := S3x8x128x256) (k0_off40 k) S1x1x128x256.size (k0_off40_inb k))).set ⊆ (dstO 0 false).view.set) (hS_arg9 : ∀ k : Fin k0_t4_loop.trips, (rsL.access (Rect.unit (s := S3x8x1x256) (k0_off38 k) S1x1x1x256.size (k0_off38_inb k))).set ⊆ (dstL 0 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t4_loop.trips) :
    View.readAt (Elt F) rsL.view (Rect.unit (s := S3x8x1x256) (k0_off38 j) S1x1x1x256.size (k0_off38_inb j)).toLoadRect (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 j.val).2)
      = View.readAt (Elt F) rsL.view (Rect.unit (s := S3x8x1x256) (k0_off38 j) S1x1x1x256.size (k0_off38_inb j)).toLoadRect G_arg9 :=
  View.readAt_writes_of_forall_not_mem rsL.view G_arg9 _ _ fun y p hp hy => by
    obtain ⟨k, hkj, rfl⟩ := family_mem k0_t4_loop.trips (fun k => (⟨Rect.unit (s := S3x8x1x256) (k0_off38 k) S1x1x1x256.size (k0_off38_inb k), (k0_pay75 (View.readAt (Elt F) rsL.view (Rect.unit (s := S3x8x1x256) (k0_off38 k) S1x1x1x256.size (k0_off38_inb k)).toLoadRect (rsL.view.writes (Elt F) G_arg9 (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 k.val).2)) (View.readAt (Elt F) locL.view (Rect.unit (s := S32x1x256) (k0_off39 d0 k) S1x1x256.size (k0_off39_inb d0 k)).toLoadRect X_arg7))⟩ : View.Piece (Elt F) S3x8x1x256 .f32)) (fun n => (pbS_k0_t4 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9 n).2)
      (congrArg (fun t => t.2) (pbS_k0_t4_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9)) (pbS_k0_t4_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v14 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t4_arg9 k j hne) hy ((Rect.unit (s := S3x8x1x256) (k0_off38 j) S1x1x1x256.size (k0_off38_inb j)).toLoadRect.idx_mem y)

theorem pbS_k0_t5_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 0 = ([], []) := rfl

/-- Trip k lays its piece in front of the earlier trips'. -/
theorem pbS_k0_t5_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t5_loop.trips) :
    (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 (k.val + 1)).1 = (⟨Rect.unit (s := S3x8x128x256) (k0_off44 k) S1x1x128x256.size (k0_off44_inb k), (k0_pay78 (View.readAt (Elt F) rsO.view (Rect.unit (s := S3x8x128x256) (k0_off44 k) S1x1x128x256.size (k0_off44_inb k)).toLoadRect (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1)) (View.readAt (Elt F) locO.view (Rect.unit (s := S32x128x256) (k0_off45 d0 k) S1x128x256.size (k0_off45_inb d0 k)).toLoadRect X_arg6))⟩ : View.Piece (Elt F) S3x8x128x256 .bf16) :: (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1 := by
  rw [pbS_k0_t5_succ, tripLS_k0_t5_eq]
  rfl

/-- Two trips' rectangles are apart. -/
theorem apart_k0_t5_arg8 (k k' : Fin k0_t5_loop.trips) (hk : k ≠ k') : Disjoint (Rect.unit (s := S3x8x128x256) (k0_off44 k) S1x1x128x256.size (k0_off44_inb k)).set (Rect.unit (s := S3x8x128x256) (k0_off44 k') S1x1x128x256.size (k0_off44_inb k')).set := by
  refine Rect.unit_disjoint 1 ?_
  have hne : k.val ≠ k'.val := fun h => hk (Fin.ext h)
  have e := congrFun (k0_off44_eq k) 1
  have e' := congrFun (k0_off44_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t5_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t5_loop.trips) (x : (Rect.unit (s := S3x8x128x256) (k0_off44 j) S1x1x128x256.size (k0_off44_inb j)).shape.Idx) :
    rsO.view.read (Elt F) (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k0_t5_loop.trips).1) ((Rect.unit (s := S3x8x128x256) (k0_off44 j) S1x1x128x256.size (k0_off44_inb j)).emb x)
      = ((k0_pay78 (View.readAt (Elt F) rsO.view (Rect.unit (s := S3x8x128x256) (k0_off44 j) S1x1x128x256.size (k0_off44_inb j)).toLoadRect (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 j.val).1)) (View.readAt (Elt F) locO.view (Rect.unit (s := S32x128x256) (k0_off45 d0 j) S1x128x256.size (k0_off45_inb d0 j)).toLoadRect X_arg6))) x :=
  read_writes_family rsO.view G_arg8 k0_t5_loop.trips (fun k => (⟨Rect.unit (s := S3x8x128x256) (k0_off44 k) S1x1x128x256.size (k0_off44_inb k), (k0_pay78 (View.readAt (Elt F) rsO.view (Rect.unit (s := S3x8x128x256) (k0_off44 k) S1x1x128x256.size (k0_off44_inb k)).toLoadRect (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1)) (View.readAt (Elt F) locO.view (Rect.unit (s := S32x128x256) (k0_off45 d0 k) S1x128x256.size (k0_off45_inb d0 k)).toLoadRect X_arg6))⟩ : View.Piece (Elt F) S3x8x128x256 .bf16)) (fun n => (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 n).1)
    (congrArg (fun t => t.1) (pbS_k0_t5_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9)) (pbS_k0_t5_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9) (fun k k' hk => apart_k0_t5_arg8 k k' hk) j x

/-- Before trip j the earlier trips have not touched trip j's rectangle. -/
theorem before_k0_t5_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t5_loop.trips) :
    View.readAt (Elt F) rsO.view (Rect.unit (s := S3x8x128x256) (k0_off44 j) S1x1x128x256.size (k0_off44_inb j)).toLoadRect (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 j.val).1)
      = View.readAt (Elt F) rsO.view (Rect.unit (s := S3x8x128x256) (k0_off44 j) S1x1x128x256.size (k0_off44_inb j)).toLoadRect G_arg8 :=
  View.readAt_writes_of_forall_not_mem rsO.view G_arg8 _ _ fun y p hp hy => by
    obtain ⟨k, hkj, rfl⟩ := family_mem k0_t5_loop.trips (fun k => (⟨Rect.unit (s := S3x8x128x256) (k0_off44 k) S1x1x128x256.size (k0_off44_inb k), (k0_pay78 (View.readAt (Elt F) rsO.view (Rect.unit (s := S3x8x128x256) (k0_off44 k) S1x1x128x256.size (k0_off44_inb k)).toLoadRect (rsO.view.writes (Elt F) G_arg8 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).1)) (View.readAt (Elt F) locO.view (Rect.unit (s := S32x128x256) (k0_off45 d0 k) S1x128x256.size (k0_off45_inb d0 k)).toLoadRect X_arg6))⟩ : View.Piece (Elt F) S3x8x128x256 .bf16)) (fun n => (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 n).1)
      (congrArg (fun t => t.1) (pbS_k0_t5_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9)) (pbS_k0_t5_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t5_arg8 k j hne) hy ((Rect.unit (s := S3x8x128x256) (k0_off44 j) S1x1x128x256.size (k0_off44_inb j)).toLoadRect.idx_mem y)

/-- Trip k lays its piece in front of the earlier trips'. -/
theorem pbS_k0_t5_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t5_loop.trips) :
    (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 (k.val + 1)).2 = (⟨Rect.unit (s := S3x8x1x256) (k0_off42 k) S1x1x1x256.size (k0_off42_inb k), (k0_pay77 (View.readAt (Elt F) rsL.view (Rect.unit (s := S3x8x1x256) (k0_off42 k) S1x1x1x256.size (k0_off42_inb k)).toLoadRect (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2)) (View.readAt (Elt F) locL.view (Rect.unit (s := S32x1x256) (k0_off43 d0 k) S1x1x256.size (k0_off43_inb d0 k)).toLoadRect X_arg7))⟩ : View.Piece (Elt F) S3x8x1x256 .f32) :: (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2 := by
  rw [pbS_k0_t5_succ, tripLS_k0_t5_eq]
  rfl

/-- Two trips' rectangles are apart. -/
theorem apart_k0_t5_arg9 (k k' : Fin k0_t5_loop.trips) (hk : k ≠ k') : Disjoint (Rect.unit (s := S3x8x1x256) (k0_off42 k) S1x1x1x256.size (k0_off42_inb k)).set (Rect.unit (s := S3x8x1x256) (k0_off42 k') S1x1x1x256.size (k0_off42_inb k')).set := by
  refine Rect.unit_disjoint 1 ?_
  have hne : k.val ≠ k'.val := fun h => hk (Fin.ext h)
  have e := congrFun (k0_off42_eq k) 1
  have e' := congrFun (k0_off42_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t5_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t5_loop.trips) (x : (Rect.unit (s := S3x8x1x256) (k0_off42 j) S1x1x1x256.size (k0_off42_inb j)).shape.Idx) :
    rsL.view.read (Elt F) (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k0_t5_loop.trips).2) ((Rect.unit (s := S3x8x1x256) (k0_off42 j) S1x1x1x256.size (k0_off42_inb j)).emb x)
      = ((k0_pay77 (View.readAt (Elt F) rsL.view (Rect.unit (s := S3x8x1x256) (k0_off42 j) S1x1x1x256.size (k0_off42_inb j)).toLoadRect (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 j.val).2)) (View.readAt (Elt F) locL.view (Rect.unit (s := S32x1x256) (k0_off43 d0 j) S1x1x256.size (k0_off43_inb d0 j)).toLoadRect X_arg7))) x :=
  read_writes_family rsL.view G_arg9 k0_t5_loop.trips (fun k => (⟨Rect.unit (s := S3x8x1x256) (k0_off42 k) S1x1x1x256.size (k0_off42_inb k), (k0_pay77 (View.readAt (Elt F) rsL.view (Rect.unit (s := S3x8x1x256) (k0_off42 k) S1x1x1x256.size (k0_off42_inb k)).toLoadRect (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2)) (View.readAt (Elt F) locL.view (Rect.unit (s := S32x1x256) (k0_off43 d0 k) S1x1x256.size (k0_off43_inb d0 k)).toLoadRect X_arg7))⟩ : View.Piece (Elt F) S3x8x1x256 .f32)) (fun n => (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 n).2)
    (congrArg (fun t => t.2) (pbS_k0_t5_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9)) (pbS_k0_t5_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9) (fun k k' hk => apart_k0_t5_arg9 k k' hk) j x

/-- Before trip j the earlier trips have not touched trip j's rectangle. -/
theorem before_k0_t5_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (hS_arg6 : ∀ k : Fin k0_t5_loop.trips, (locO.access (Rect.unit (s := S32x128x256) (k0_off45 d0 k) S1x128x256.size (k0_off45_inb d0 k))).set ⊆ (locHalfO c 3 true).view.set) (hS_arg7 : ∀ k : Fin k0_t5_loop.trips, (locL.access (Rect.unit (s := S32x1x256) (k0_off43 d0 k) S1x1x256.size (k0_off43_inb d0 k))).set ⊆ (locHalfL c 3 true).view.set) (hS_arg8 : ∀ k : Fin k0_t5_loop.trips, (rsO.access (Rect.unit (s := S3x8x128x256) (k0_off44 k) S1x1x128x256.size (k0_off44_inb k))).set ⊆ (dstO 0 true).view.set) (hS_arg9 : ∀ k : Fin k0_t5_loop.trips, (rsL.access (Rect.unit (s := S3x8x1x256) (k0_off42 k) S1x1x1x256.size (k0_off42_inb k))).set ⊆ (dstL 0 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t5_loop.trips) :
    View.readAt (Elt F) rsL.view (Rect.unit (s := S3x8x1x256) (k0_off42 j) S1x1x1x256.size (k0_off42_inb j)).toLoadRect (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 j.val).2)
      = View.readAt (Elt F) rsL.view (Rect.unit (s := S3x8x1x256) (k0_off42 j) S1x1x1x256.size (k0_off42_inb j)).toLoadRect G_arg9 :=
  View.readAt_writes_of_forall_not_mem rsL.view G_arg9 _ _ fun y p hp hy => by
    obtain ⟨k, hkj, rfl⟩ := family_mem k0_t5_loop.trips (fun k => (⟨Rect.unit (s := S3x8x1x256) (k0_off42 k) S1x1x1x256.size (k0_off42_inb k), (k0_pay77 (View.readAt (Elt F) rsL.view (Rect.unit (s := S3x8x1x256) (k0_off42 k) S1x1x1x256.size (k0_off42_inb k)).toLoadRect (rsL.view.writes (Elt F) G_arg9 (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 k.val).2)) (View.readAt (Elt F) locL.view (Rect.unit (s := S32x1x256) (k0_off43 d0 k) S1x1x256.size (k0_off43_inb d0 k)).toLoadRect X_arg7))⟩ : View.Piece (Elt F) S3x8x1x256 .f32)) (fun n => (pbS_k0_t5 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9 n).2)
      (congrArg (fun t => t.2) (pbS_k0_t5_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9)) (pbS_k0_t5_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t5_arg9 k j hne) hy ((Rect.unit (s := S3x8x1x256) (k0_off42 j) S1x1x1x256.size (k0_off42_inb j)).toLoadRect.idx_mem y)

theorem pbS_k0_t7_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 0 = ([], []) := rfl

/-- Trip k lays its piece in front of the earlier trips'. -/
theorem pbS_k0_t7_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t7_loop.trips) :
    (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 (k.val + 1)).1 = (⟨Rect.unit (s := S3x8x128x256) (k0_off53 k) S1x1x128x256.size (k0_off53_inb k), (k0_pay97 (View.readAt (Elt F) rsO.view (Rect.unit (s := S3x8x128x256) (k0_off53 k) S1x1x128x256.size (k0_off53_inb k)).toLoadRect (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1)) (View.readAt (Elt F) locO.view (Rect.unit (s := S32x128x256) (k0_off54 d0 k) S1x128x256.size (k0_off54_inb d0 k)).toLoadRect X_arg6))⟩ : View.Piece (Elt F) S3x8x128x256 .bf16) :: (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1 := by
  rw [pbS_k0_t7_succ, tripLS_k0_t7_eq]
  rfl

/-- Two trips' rectangles are apart. -/
theorem apart_k0_t7_arg8 (k k' : Fin k0_t7_loop.trips) (hk : k ≠ k') : Disjoint (Rect.unit (s := S3x8x128x256) (k0_off53 k) S1x1x128x256.size (k0_off53_inb k)).set (Rect.unit (s := S3x8x128x256) (k0_off53 k') S1x1x128x256.size (k0_off53_inb k')).set := by
  refine Rect.unit_disjoint 1 ?_
  have hne : k.val ≠ k'.val := fun h => hk (Fin.ext h)
  have e := congrFun (k0_off53_eq k) 1
  have e' := congrFun (k0_off53_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t7_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t7_loop.trips) (x : (Rect.unit (s := S3x8x128x256) (k0_off53 j) S1x1x128x256.size (k0_off53_inb j)).shape.Idx) :
    rsO.view.read (Elt F) (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k0_t7_loop.trips).1) ((Rect.unit (s := S3x8x128x256) (k0_off53 j) S1x1x128x256.size (k0_off53_inb j)).emb x)
      = ((k0_pay97 (View.readAt (Elt F) rsO.view (Rect.unit (s := S3x8x128x256) (k0_off53 j) S1x1x128x256.size (k0_off53_inb j)).toLoadRect (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 j.val).1)) (View.readAt (Elt F) locO.view (Rect.unit (s := S32x128x256) (k0_off54 d0 j) S1x128x256.size (k0_off54_inb d0 j)).toLoadRect X_arg6))) x :=
  read_writes_family rsO.view G_arg8 k0_t7_loop.trips (fun k => (⟨Rect.unit (s := S3x8x128x256) (k0_off53 k) S1x1x128x256.size (k0_off53_inb k), (k0_pay97 (View.readAt (Elt F) rsO.view (Rect.unit (s := S3x8x128x256) (k0_off53 k) S1x1x128x256.size (k0_off53_inb k)).toLoadRect (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1)) (View.readAt (Elt F) locO.view (Rect.unit (s := S32x128x256) (k0_off54 d0 k) S1x128x256.size (k0_off54_inb d0 k)).toLoadRect X_arg6))⟩ : View.Piece (Elt F) S3x8x128x256 .bf16)) (fun n => (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 n).1)
    (congrArg (fun t => t.1) (pbS_k0_t7_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9)) (pbS_k0_t7_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9) (fun k k' hk => apart_k0_t7_arg8 k k' hk) j x

/-- Before trip j the earlier trips have not touched trip j's rectangle. -/
theorem before_k0_t7_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t7_loop.trips) :
    View.readAt (Elt F) rsO.view (Rect.unit (s := S3x8x128x256) (k0_off53 j) S1x1x128x256.size (k0_off53_inb j)).toLoadRect (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 j.val).1)
      = View.readAt (Elt F) rsO.view (Rect.unit (s := S3x8x128x256) (k0_off53 j) S1x1x128x256.size (k0_off53_inb j)).toLoadRect G_arg8 :=
  View.readAt_writes_of_forall_not_mem rsO.view G_arg8 _ _ fun y p hp hy => by
    obtain ⟨k, hkj, rfl⟩ := family_mem k0_t7_loop.trips (fun k => (⟨Rect.unit (s := S3x8x128x256) (k0_off53 k) S1x1x128x256.size (k0_off53_inb k), (k0_pay97 (View.readAt (Elt F) rsO.view (Rect.unit (s := S3x8x128x256) (k0_off53 k) S1x1x128x256.size (k0_off53_inb k)).toLoadRect (rsO.view.writes (Elt F) G_arg8 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).1)) (View.readAt (Elt F) locO.view (Rect.unit (s := S32x128x256) (k0_off54 d0 k) S1x128x256.size (k0_off54_inb d0 k)).toLoadRect X_arg6))⟩ : View.Piece (Elt F) S3x8x128x256 .bf16)) (fun n => (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 n).1)
      (congrArg (fun t => t.1) (pbS_k0_t7_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9)) (pbS_k0_t7_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t7_arg8 k j hne) hy ((Rect.unit (s := S3x8x128x256) (k0_off53 j) S1x1x128x256.size (k0_off53_inb j)).toLoadRect.idx_mem y)

/-- Trip k lays its piece in front of the earlier trips'. -/
theorem pbS_k0_t7_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t7_loop.trips) :
    (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 (k.val + 1)).2 = (⟨Rect.unit (s := S3x8x1x256) (k0_off51 k) S1x1x1x256.size (k0_off51_inb k), (k0_pay96 (View.readAt (Elt F) rsL.view (Rect.unit (s := S3x8x1x256) (k0_off51 k) S1x1x1x256.size (k0_off51_inb k)).toLoadRect (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2)) (View.readAt (Elt F) locL.view (Rect.unit (s := S32x1x256) (k0_off52 d0 k) S1x1x256.size (k0_off52_inb d0 k)).toLoadRect X_arg7))⟩ : View.Piece (Elt F) S3x8x1x256 .f32) :: (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2 := by
  rw [pbS_k0_t7_succ, tripLS_k0_t7_eq]
  rfl

/-- Two trips' rectangles are apart. -/
theorem apart_k0_t7_arg9 (k k' : Fin k0_t7_loop.trips) (hk : k ≠ k') : Disjoint (Rect.unit (s := S3x8x1x256) (k0_off51 k) S1x1x1x256.size (k0_off51_inb k)).set (Rect.unit (s := S3x8x1x256) (k0_off51 k') S1x1x1x256.size (k0_off51_inb k')).set := by
  refine Rect.unit_disjoint 1 ?_
  have hne : k.val ≠ k'.val := fun h => hk (Fin.ext h)
  have e := congrFun (k0_off51_eq k) 1
  have e' := congrFun (k0_off51_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t7_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t7_loop.trips) (x : (Rect.unit (s := S3x8x1x256) (k0_off51 j) S1x1x1x256.size (k0_off51_inb j)).shape.Idx) :
    rsL.view.read (Elt F) (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k0_t7_loop.trips).2) ((Rect.unit (s := S3x8x1x256) (k0_off51 j) S1x1x1x256.size (k0_off51_inb j)).emb x)
      = ((k0_pay96 (View.readAt (Elt F) rsL.view (Rect.unit (s := S3x8x1x256) (k0_off51 j) S1x1x1x256.size (k0_off51_inb j)).toLoadRect (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 j.val).2)) (View.readAt (Elt F) locL.view (Rect.unit (s := S32x1x256) (k0_off52 d0 j) S1x1x256.size (k0_off52_inb d0 j)).toLoadRect X_arg7))) x :=
  read_writes_family rsL.view G_arg9 k0_t7_loop.trips (fun k => (⟨Rect.unit (s := S3x8x1x256) (k0_off51 k) S1x1x1x256.size (k0_off51_inb k), (k0_pay96 (View.readAt (Elt F) rsL.view (Rect.unit (s := S3x8x1x256) (k0_off51 k) S1x1x1x256.size (k0_off51_inb k)).toLoadRect (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2)) (View.readAt (Elt F) locL.view (Rect.unit (s := S32x1x256) (k0_off52 d0 k) S1x1x256.size (k0_off52_inb d0 k)).toLoadRect X_arg7))⟩ : View.Piece (Elt F) S3x8x1x256 .f32)) (fun n => (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 n).2)
    (congrArg (fun t => t.2) (pbS_k0_t7_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9)) (pbS_k0_t7_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9) (fun k k' hk => apart_k0_t7_arg9 k k' hk) j x

/-- Before trip j the earlier trips have not touched trip j's rectangle. -/
theorem before_k0_t7_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (hS_arg6 : ∀ k : Fin k0_t7_loop.trips, (locO.access (Rect.unit (s := S32x128x256) (k0_off54 d0 k) S1x128x256.size (k0_off54_inb d0 k))).set ⊆ (locHalfO c 2 false).view.set) (hS_arg7 : ∀ k : Fin k0_t7_loop.trips, (locL.access (Rect.unit (s := S32x1x256) (k0_off52 d0 k) S1x1x256.size (k0_off52_inb d0 k))).set ⊆ (locHalfL c 2 false).view.set) (hS_arg8 : ∀ k : Fin k0_t7_loop.trips, (rsO.access (Rect.unit (s := S3x8x128x256) (k0_off53 k) S1x1x128x256.size (k0_off53_inb k))).set ⊆ (dstO 1 false).view.set) (hS_arg9 : ∀ k : Fin k0_t7_loop.trips, (rsL.access (Rect.unit (s := S3x8x1x256) (k0_off51 k) S1x1x1x256.size (k0_off51_inb k))).set ⊆ (dstL 1 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t7_loop.trips) :
    View.readAt (Elt F) rsL.view (Rect.unit (s := S3x8x1x256) (k0_off51 j) S1x1x1x256.size (k0_off51_inb j)).toLoadRect (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 j.val).2)
      = View.readAt (Elt F) rsL.view (Rect.unit (s := S3x8x1x256) (k0_off51 j) S1x1x1x256.size (k0_off51_inb j)).toLoadRect G_arg9 :=
  View.readAt_writes_of_forall_not_mem rsL.view G_arg9 _ _ fun y p hp hy => by
    obtain ⟨k, hkj, rfl⟩ := family_mem k0_t7_loop.trips (fun k => (⟨Rect.unit (s := S3x8x1x256) (k0_off51 k) S1x1x1x256.size (k0_off51_inb k), (k0_pay96 (View.readAt (Elt F) rsL.view (Rect.unit (s := S3x8x1x256) (k0_off51 k) S1x1x1x256.size (k0_off51_inb k)).toLoadRect (rsL.view.writes (Elt F) G_arg9 (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 k.val).2)) (View.readAt (Elt F) locL.view (Rect.unit (s := S32x1x256) (k0_off52 d0 k) S1x1x256.size (k0_off52_inb d0 k)).toLoadRect X_arg7))⟩ : View.Piece (Elt F) S3x8x1x256 .f32)) (fun n => (pbS_k0_t7 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9 n).2)
      (congrArg (fun t => t.2) (pbS_k0_t7_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9)) (pbS_k0_t7_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v970 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t7_arg9 k j hne) hy ((Rect.unit (s := S3x8x1x256) (k0_off51 j) S1x1x1x256.size (k0_off51_inb j)).toLoadRect.idx_mem y)

theorem pbS_k0_t8_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 0 = ([], []) := rfl

/-- Trip k lays its piece in front of the earlier trips'. -/
theorem pbS_k0_t8_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t8_loop.trips) :
    (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 (k.val + 1)).1 = (⟨Rect.unit (s := S3x8x128x256) (k0_off57 k) S1x1x128x256.size (k0_off57_inb k), (k0_pay99 (View.readAt (Elt F) rsO.view (Rect.unit (s := S3x8x128x256) (k0_off57 k) S1x1x128x256.size (k0_off57_inb k)).toLoadRect (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1)) (View.readAt (Elt F) locO.view (Rect.unit (s := S32x128x256) (k0_off58 d0 k) S1x128x256.size (k0_off58_inb d0 k)).toLoadRect X_arg6))⟩ : View.Piece (Elt F) S3x8x128x256 .bf16) :: (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1 := by
  rw [pbS_k0_t8_succ, tripLS_k0_t8_eq]
  rfl

/-- Two trips' rectangles are apart. -/
theorem apart_k0_t8_arg8 (k k' : Fin k0_t8_loop.trips) (hk : k ≠ k') : Disjoint (Rect.unit (s := S3x8x128x256) (k0_off57 k) S1x1x128x256.size (k0_off57_inb k)).set (Rect.unit (s := S3x8x128x256) (k0_off57 k') S1x1x128x256.size (k0_off57_inb k')).set := by
  refine Rect.unit_disjoint 1 ?_
  have hne : k.val ≠ k'.val := fun h => hk (Fin.ext h)
  have e := congrFun (k0_off57_eq k) 1
  have e' := congrFun (k0_off57_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t8_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t8_loop.trips) (x : (Rect.unit (s := S3x8x128x256) (k0_off57 j) S1x1x128x256.size (k0_off57_inb j)).shape.Idx) :
    rsO.view.read (Elt F) (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k0_t8_loop.trips).1) ((Rect.unit (s := S3x8x128x256) (k0_off57 j) S1x1x128x256.size (k0_off57_inb j)).emb x)
      = ((k0_pay99 (View.readAt (Elt F) rsO.view (Rect.unit (s := S3x8x128x256) (k0_off57 j) S1x1x128x256.size (k0_off57_inb j)).toLoadRect (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 j.val).1)) (View.readAt (Elt F) locO.view (Rect.unit (s := S32x128x256) (k0_off58 d0 j) S1x128x256.size (k0_off58_inb d0 j)).toLoadRect X_arg6))) x :=
  read_writes_family rsO.view G_arg8 k0_t8_loop.trips (fun k => (⟨Rect.unit (s := S3x8x128x256) (k0_off57 k) S1x1x128x256.size (k0_off57_inb k), (k0_pay99 (View.readAt (Elt F) rsO.view (Rect.unit (s := S3x8x128x256) (k0_off57 k) S1x1x128x256.size (k0_off57_inb k)).toLoadRect (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1)) (View.readAt (Elt F) locO.view (Rect.unit (s := S32x128x256) (k0_off58 d0 k) S1x128x256.size (k0_off58_inb d0 k)).toLoadRect X_arg6))⟩ : View.Piece (Elt F) S3x8x128x256 .bf16)) (fun n => (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).1)
    (congrArg (fun t => t.1) (pbS_k0_t8_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9)) (pbS_k0_t8_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9) (fun k k' hk => apart_k0_t8_arg8 k k' hk) j x

/-- Before trip j the earlier trips have not touched trip j's rectangle. -/
theorem before_k0_t8_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t8_loop.trips) :
    View.readAt (Elt F) rsO.view (Rect.unit (s := S3x8x128x256) (k0_off57 j) S1x1x128x256.size (k0_off57_inb j)).toLoadRect (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 j.val).1)
      = View.readAt (Elt F) rsO.view (Rect.unit (s := S3x8x128x256) (k0_off57 j) S1x1x128x256.size (k0_off57_inb j)).toLoadRect G_arg8 :=
  View.readAt_writes_of_forall_not_mem rsO.view G_arg8 _ _ fun y p hp hy => by
    obtain ⟨k, hkj, rfl⟩ := family_mem k0_t8_loop.trips (fun k => (⟨Rect.unit (s := S3x8x128x256) (k0_off57 k) S1x1x128x256.size (k0_off57_inb k), (k0_pay99 (View.readAt (Elt F) rsO.view (Rect.unit (s := S3x8x128x256) (k0_off57 k) S1x1x128x256.size (k0_off57_inb k)).toLoadRect (rsO.view.writes (Elt F) G_arg8 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).1)) (View.readAt (Elt F) locO.view (Rect.unit (s := S32x128x256) (k0_off58 d0 k) S1x128x256.size (k0_off58_inb d0 k)).toLoadRect X_arg6))⟩ : View.Piece (Elt F) S3x8x128x256 .bf16)) (fun n => (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).1)
      (congrArg (fun t => t.1) (pbS_k0_t8_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9)) (pbS_k0_t8_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t8_arg8 k j hne) hy ((Rect.unit (s := S3x8x128x256) (k0_off57 j) S1x1x128x256.size (k0_off57_inb j)).toLoadRect.idx_mem y)

/-- Trip k lays its piece in front of the earlier trips'. -/
theorem pbS_k0_t8_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t8_loop.trips) :
    (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 (k.val + 1)).2 = (⟨Rect.unit (s := S3x8x1x256) (k0_off55 k) S1x1x1x256.size (k0_off55_inb k), (k0_pay98 (View.readAt (Elt F) rsL.view (Rect.unit (s := S3x8x1x256) (k0_off55 k) S1x1x1x256.size (k0_off55_inb k)).toLoadRect (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2)) (View.readAt (Elt F) locL.view (Rect.unit (s := S32x1x256) (k0_off56 d0 k) S1x1x256.size (k0_off56_inb d0 k)).toLoadRect X_arg7))⟩ : View.Piece (Elt F) S3x8x1x256 .f32) :: (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2 := by
  rw [pbS_k0_t8_succ, tripLS_k0_t8_eq]
  rfl

/-- Two trips' rectangles are apart. -/
theorem apart_k0_t8_arg9 (k k' : Fin k0_t8_loop.trips) (hk : k ≠ k') : Disjoint (Rect.unit (s := S3x8x1x256) (k0_off55 k) S1x1x1x256.size (k0_off55_inb k)).set (Rect.unit (s := S3x8x1x256) (k0_off55 k') S1x1x1x256.size (k0_off55_inb k')).set := by
  refine Rect.unit_disjoint 1 ?_
  have hne : k.val ≠ k'.val := fun h => hk (Fin.ext h)
  have e := congrFun (k0_off55_eq k) 1
  have e' := congrFun (k0_off55_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t8_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t8_loop.trips) (x : (Rect.unit (s := S3x8x1x256) (k0_off55 j) S1x1x1x256.size (k0_off55_inb j)).shape.Idx) :
    rsL.view.read (Elt F) (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k0_t8_loop.trips).2) ((Rect.unit (s := S3x8x1x256) (k0_off55 j) S1x1x1x256.size (k0_off55_inb j)).emb x)
      = ((k0_pay98 (View.readAt (Elt F) rsL.view (Rect.unit (s := S3x8x1x256) (k0_off55 j) S1x1x1x256.size (k0_off55_inb j)).toLoadRect (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 j.val).2)) (View.readAt (Elt F) locL.view (Rect.unit (s := S32x1x256) (k0_off56 d0 j) S1x1x256.size (k0_off56_inb d0 j)).toLoadRect X_arg7))) x :=
  read_writes_family rsL.view G_arg9 k0_t8_loop.trips (fun k => (⟨Rect.unit (s := S3x8x1x256) (k0_off55 k) S1x1x1x256.size (k0_off55_inb k), (k0_pay98 (View.readAt (Elt F) rsL.view (Rect.unit (s := S3x8x1x256) (k0_off55 k) S1x1x1x256.size (k0_off55_inb k)).toLoadRect (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2)) (View.readAt (Elt F) locL.view (Rect.unit (s := S32x1x256) (k0_off56 d0 k) S1x1x256.size (k0_off56_inb d0 k)).toLoadRect X_arg7))⟩ : View.Piece (Elt F) S3x8x1x256 .f32)) (fun n => (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).2)
    (congrArg (fun t => t.2) (pbS_k0_t8_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9)) (pbS_k0_t8_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9) (fun k k' hk => apart_k0_t8_arg9 k k' hk) j x

/-- Before trip j the earlier trips have not touched trip j's rectangle. -/
theorem before_k0_t8_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t8_loop.trips) :
    View.readAt (Elt F) rsL.view (Rect.unit (s := S3x8x1x256) (k0_off55 j) S1x1x1x256.size (k0_off55_inb j)).toLoadRect (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 j.val).2)
      = View.readAt (Elt F) rsL.view (Rect.unit (s := S3x8x1x256) (k0_off55 j) S1x1x1x256.size (k0_off55_inb j)).toLoadRect G_arg9 :=
  View.readAt_writes_of_forall_not_mem rsL.view G_arg9 _ _ fun y p hp hy => by
    obtain ⟨k, hkj, rfl⟩ := family_mem k0_t8_loop.trips (fun k => (⟨Rect.unit (s := S3x8x1x256) (k0_off55 k) S1x1x1x256.size (k0_off55_inb k), (k0_pay98 (View.readAt (Elt F) rsL.view (Rect.unit (s := S3x8x1x256) (k0_off55 k) S1x1x1x256.size (k0_off55_inb k)).toLoadRect (rsL.view.writes (Elt F) G_arg9 (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k.val).2)) (View.readAt (Elt F) locL.view (Rect.unit (s := S32x1x256) (k0_off56 d0 k) S1x1x256.size (k0_off56_inb d0 k)).toLoadRect X_arg7))⟩ : View.Piece (Elt F) S3x8x1x256 .f32)) (fun n => (pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).2)
      (congrArg (fun t => t.2) (pbS_k0_t8_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9)) (pbS_k0_t8_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t8_arg9 k j hne) hy ((Rect.unit (s := S3x8x1x256) (k0_off55 j) S1x1x1x256.size (k0_off55_inb j)).toLoadRect.idx_mem y)

theorem pbS_k0_t9_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 0 = ([], []) := rfl

/-- Trip k lays its piece in front of the earlier trips'. -/
theorem pbS_k0_t9_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t9_loop.trips) :
    (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 (k.val + 1)).1 = (⟨Rect.unit (s := S3x8x128x256) (k0_off61 k) S1x1x128x256.size (k0_off61_inb k), (k0_pay101 (View.readAt (Elt F) rsO.view (Rect.unit (s := S3x8x128x256) (k0_off61 k) S1x1x128x256.size (k0_off61_inb k)).toLoadRect (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1)) (View.readAt (Elt F) locO.view (Rect.unit (s := S32x128x256) (k0_off62 d0 k) S1x128x256.size (k0_off62_inb d0 k)).toLoadRect X_arg6))⟩ : View.Piece (Elt F) S3x8x128x256 .bf16) :: (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1 := by
  rw [pbS_k0_t9_succ, tripLS_k0_t9_eq]
  rfl

/-- Two trips' rectangles are apart. -/
theorem apart_k0_t9_arg8 (k k' : Fin k0_t9_loop.trips) (hk : k ≠ k') : Disjoint (Rect.unit (s := S3x8x128x256) (k0_off61 k) S1x1x128x256.size (k0_off61_inb k)).set (Rect.unit (s := S3x8x128x256) (k0_off61 k') S1x1x128x256.size (k0_off61_inb k')).set := by
  refine Rect.unit_disjoint 1 ?_
  have hne : k.val ≠ k'.val := fun h => hk (Fin.ext h)
  have e := congrFun (k0_off61_eq k) 1
  have e' := congrFun (k0_off61_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t9_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t9_loop.trips) (x : (Rect.unit (s := S3x8x128x256) (k0_off61 j) S1x1x128x256.size (k0_off61_inb j)).shape.Idx) :
    rsO.view.read (Elt F) (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k0_t9_loop.trips).1) ((Rect.unit (s := S3x8x128x256) (k0_off61 j) S1x1x128x256.size (k0_off61_inb j)).emb x)
      = ((k0_pay101 (View.readAt (Elt F) rsO.view (Rect.unit (s := S3x8x128x256) (k0_off61 j) S1x1x128x256.size (k0_off61_inb j)).toLoadRect (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 j.val).1)) (View.readAt (Elt F) locO.view (Rect.unit (s := S32x128x256) (k0_off62 d0 j) S1x128x256.size (k0_off62_inb d0 j)).toLoadRect X_arg6))) x :=
  read_writes_family rsO.view G_arg8 k0_t9_loop.trips (fun k => (⟨Rect.unit (s := S3x8x128x256) (k0_off61 k) S1x1x128x256.size (k0_off61_inb k), (k0_pay101 (View.readAt (Elt F) rsO.view (Rect.unit (s := S3x8x128x256) (k0_off61 k) S1x1x128x256.size (k0_off61_inb k)).toLoadRect (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1)) (View.readAt (Elt F) locO.view (Rect.unit (s := S32x128x256) (k0_off62 d0 k) S1x128x256.size (k0_off62_inb d0 k)).toLoadRect X_arg6))⟩ : View.Piece (Elt F) S3x8x128x256 .bf16)) (fun n => (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).1)
    (congrArg (fun t => t.1) (pbS_k0_t9_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9)) (pbS_k0_t9_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9) (fun k k' hk => apart_k0_t9_arg8 k k' hk) j x

/-- Before trip j the earlier trips have not touched trip j's rectangle. -/
theorem before_k0_t9_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t9_loop.trips) :
    View.readAt (Elt F) rsO.view (Rect.unit (s := S3x8x128x256) (k0_off61 j) S1x1x128x256.size (k0_off61_inb j)).toLoadRect (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 j.val).1)
      = View.readAt (Elt F) rsO.view (Rect.unit (s := S3x8x128x256) (k0_off61 j) S1x1x128x256.size (k0_off61_inb j)).toLoadRect G_arg8 :=
  View.readAt_writes_of_forall_not_mem rsO.view G_arg8 _ _ fun y p hp hy => by
    obtain ⟨k, hkj, rfl⟩ := family_mem k0_t9_loop.trips (fun k => (⟨Rect.unit (s := S3x8x128x256) (k0_off61 k) S1x1x128x256.size (k0_off61_inb k), (k0_pay101 (View.readAt (Elt F) rsO.view (Rect.unit (s := S3x8x128x256) (k0_off61 k) S1x1x128x256.size (k0_off61_inb k)).toLoadRect (rsO.view.writes (Elt F) G_arg8 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).1)) (View.readAt (Elt F) locO.view (Rect.unit (s := S32x128x256) (k0_off62 d0 k) S1x128x256.size (k0_off62_inb d0 k)).toLoadRect X_arg6))⟩ : View.Piece (Elt F) S3x8x128x256 .bf16)) (fun n => (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).1)
      (congrArg (fun t => t.1) (pbS_k0_t9_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9)) (pbS_k0_t9_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t9_arg8 k j hne) hy ((Rect.unit (s := S3x8x128x256) (k0_off61 j) S1x1x128x256.size (k0_off61_inb j)).toLoadRect.idx_mem y)

/-- Trip k lays its piece in front of the earlier trips'. -/
theorem pbS_k0_t9_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t9_loop.trips) :
    (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 (k.val + 1)).2 = (⟨Rect.unit (s := S3x8x1x256) (k0_off59 k) S1x1x1x256.size (k0_off59_inb k), (k0_pay100 (View.readAt (Elt F) rsL.view (Rect.unit (s := S3x8x1x256) (k0_off59 k) S1x1x1x256.size (k0_off59_inb k)).toLoadRect (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2)) (View.readAt (Elt F) locL.view (Rect.unit (s := S32x1x256) (k0_off60 d0 k) S1x1x256.size (k0_off60_inb d0 k)).toLoadRect X_arg7))⟩ : View.Piece (Elt F) S3x8x1x256 .f32) :: (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2 := by
  rw [pbS_k0_t9_succ, tripLS_k0_t9_eq]
  rfl

/-- Two trips' rectangles are apart. -/
theorem apart_k0_t9_arg9 (k k' : Fin k0_t9_loop.trips) (hk : k ≠ k') : Disjoint (Rect.unit (s := S3x8x1x256) (k0_off59 k) S1x1x1x256.size (k0_off59_inb k)).set (Rect.unit (s := S3x8x1x256) (k0_off59 k') S1x1x1x256.size (k0_off59_inb k')).set := by
  refine Rect.unit_disjoint 1 ?_
  have hne : k.val ≠ k'.val := fun h => hk (Fin.ext h)
  have e := congrFun (k0_off59_eq k) 1
  have e' := congrFun (k0_off59_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t9_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t9_loop.trips) (x : (Rect.unit (s := S3x8x1x256) (k0_off59 j) S1x1x1x256.size (k0_off59_inb j)).shape.Idx) :
    rsL.view.read (Elt F) (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k0_t9_loop.trips).2) ((Rect.unit (s := S3x8x1x256) (k0_off59 j) S1x1x1x256.size (k0_off59_inb j)).emb x)
      = ((k0_pay100 (View.readAt (Elt F) rsL.view (Rect.unit (s := S3x8x1x256) (k0_off59 j) S1x1x1x256.size (k0_off59_inb j)).toLoadRect (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 j.val).2)) (View.readAt (Elt F) locL.view (Rect.unit (s := S32x1x256) (k0_off60 d0 j) S1x1x256.size (k0_off60_inb d0 j)).toLoadRect X_arg7))) x :=
  read_writes_family rsL.view G_arg9 k0_t9_loop.trips (fun k => (⟨Rect.unit (s := S3x8x1x256) (k0_off59 k) S1x1x1x256.size (k0_off59_inb k), (k0_pay100 (View.readAt (Elt F) rsL.view (Rect.unit (s := S3x8x1x256) (k0_off59 k) S1x1x1x256.size (k0_off59_inb k)).toLoadRect (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2)) (View.readAt (Elt F) locL.view (Rect.unit (s := S32x1x256) (k0_off60 d0 k) S1x1x256.size (k0_off60_inb d0 k)).toLoadRect X_arg7))⟩ : View.Piece (Elt F) S3x8x1x256 .f32)) (fun n => (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).2)
    (congrArg (fun t => t.2) (pbS_k0_t9_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9)) (pbS_k0_t9_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9) (fun k k' hk => apart_k0_t9_arg9 k k' hk) j x

/-- Before trip j the earlier trips have not touched trip j's rectangle. -/
theorem before_k0_t9_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t9_loop.trips) :
    View.readAt (Elt F) rsL.view (Rect.unit (s := S3x8x1x256) (k0_off59 j) S1x1x1x256.size (k0_off59_inb j)).toLoadRect (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 j.val).2)
      = View.readAt (Elt F) rsL.view (Rect.unit (s := S3x8x1x256) (k0_off59 j) S1x1x1x256.size (k0_off59_inb j)).toLoadRect G_arg9 :=
  View.readAt_writes_of_forall_not_mem rsL.view G_arg9 _ _ fun y p hp hy => by
    obtain ⟨k, hkj, rfl⟩ := family_mem k0_t9_loop.trips (fun k => (⟨Rect.unit (s := S3x8x1x256) (k0_off59 k) S1x1x1x256.size (k0_off59_inb k), (k0_pay100 (View.readAt (Elt F) rsL.view (Rect.unit (s := S3x8x1x256) (k0_off59 k) S1x1x1x256.size (k0_off59_inb k)).toLoadRect (rsL.view.writes (Elt F) G_arg9 (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k.val).2)) (View.readAt (Elt F) locL.view (Rect.unit (s := S32x1x256) (k0_off60 d0 k) S1x1x256.size (k0_off60_inb d0 k)).toLoadRect X_arg7))⟩ : View.Piece (Elt F) S3x8x1x256 .f32)) (fun n => (pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).2)
      (congrArg (fun t => t.2) (pbS_k0_t9_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9)) (pbS_k0_t9_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t9_arg9 k j hne) hy ((Rect.unit (s := S3x8x1x256) (k0_off59 j) S1x1x1x256.size (k0_off59_inb j)).toLoadRect.idx_mem y)

theorem pbS_k0_t10_zero (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) : pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 0 = ([], []) := rfl

/-- Trip k lays its piece in front of the earlier trips'. -/
theorem pbS_k0_t10_arg8_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t10_loop.trips) :
    (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 (k.val + 1)).1 = (⟨Rect.unit (s := S3x8x128x256) (k0_off65 k) S1x1x128x256.size (k0_off65_inb k), (k0_pay103 (View.readAt (Elt F) rsO.view (Rect.unit (s := S3x8x128x256) (k0_off65 k) S1x1x128x256.size (k0_off65_inb k)).toLoadRect (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1)) (View.readAt (Elt F) locO.view (Rect.unit (s := S32x128x256) (k0_off66 d0 k) S1x128x256.size (k0_off66_inb d0 k)).toLoadRect X_arg6))⟩ : View.Piece (Elt F) S3x8x128x256 .bf16) :: (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1 := by
  rw [pbS_k0_t10_succ, tripLS_k0_t10_eq]
  rfl

/-- Two trips' rectangles are apart. -/
theorem apart_k0_t10_arg8 (k k' : Fin k0_t10_loop.trips) (hk : k ≠ k') : Disjoint (Rect.unit (s := S3x8x128x256) (k0_off65 k) S1x1x128x256.size (k0_off65_inb k)).set (Rect.unit (s := S3x8x128x256) (k0_off65 k') S1x1x128x256.size (k0_off65_inb k')).set := by
  refine Rect.unit_disjoint 1 ?_
  have hne : k.val ≠ k'.val := fun h => hk (Fin.ext h)
  have e := congrFun (k0_off65_eq k) 1
  have e' := congrFun (k0_off65_eq k') 1
  simp only [Matrix.cons_val_one, Matrix.cons_val_zero] at e e'
  have hs : S1x1x128x256.size 1 = 1 := rfl
  rw [e, e', hs]
  omega

/-- After the loop, through trip j's rectangle the memref reads what trip j stored there (no other trip touches it, and
    nothing of what it held before is read). -/
theorem readS_k0_t10_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t10_loop.trips) (x : (Rect.unit (s := S3x8x128x256) (k0_off65 j) S1x1x128x256.size (k0_off65_inb j)).shape.Idx) :
    rsO.view.read (Elt F) (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k0_t10_loop.trips).1) ((Rect.unit (s := S3x8x128x256) (k0_off65 j) S1x1x128x256.size (k0_off65_inb j)).emb x)
      = ((k0_pay103 (View.readAt (Elt F) rsO.view (Rect.unit (s := S3x8x128x256) (k0_off65 j) S1x1x128x256.size (k0_off65_inb j)).toLoadRect (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 j.val).1)) (View.readAt (Elt F) locO.view (Rect.unit (s := S32x128x256) (k0_off66 d0 j) S1x128x256.size (k0_off66_inb d0 j)).toLoadRect X_arg6))) x :=
  read_writes_family rsO.view G_arg8 k0_t10_loop.trips (fun k => (⟨Rect.unit (s := S3x8x128x256) (k0_off65 k) S1x1x128x256.size (k0_off65_inb k), (k0_pay103 (View.readAt (Elt F) rsO.view (Rect.unit (s := S3x8x128x256) (k0_off65 k) S1x1x128x256.size (k0_off65_inb k)).toLoadRect (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1)) (View.readAt (Elt F) locO.view (Rect.unit (s := S32x128x256) (k0_off66 d0 k) S1x128x256.size (k0_off66_inb d0 k)).toLoadRect X_arg6))⟩ : View.Piece (Elt F) S3x8x128x256 .bf16)) (fun n => (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).1)
    (congrArg (fun t => t.1) (pbS_k0_t10_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9)) (pbS_k0_t10_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9) (fun k k' hk => apart_k0_t10_arg8 k k' hk) j x

/-- Before trip j the earlier trips have not touched trip j's rectangle. -/
theorem before_k0_t10_arg8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t10_loop.trips) :
    View.readAt (Elt F) rsO.view (Rect.unit (s := S3x8x128x256) (k0_off65 j) S1x1x128x256.size (k0_off65_inb j)).toLoadRect (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 j.val).1)
      = View.readAt (Elt F) rsO.view (Rect.unit (s := S3x8x128x256) (k0_off65 j) S1x1x128x256.size (k0_off65_inb j)).toLoadRect G_arg8 :=
  View.readAt_writes_of_forall_not_mem rsO.view G_arg8 _ _ fun y p hp hy => by
    obtain ⟨k, hkj, rfl⟩ := family_mem k0_t10_loop.trips (fun k => (⟨Rect.unit (s := S3x8x128x256) (k0_off65 k) S1x1x128x256.size (k0_off65_inb k), (k0_pay103 (View.readAt (Elt F) rsO.view (Rect.unit (s := S3x8x128x256) (k0_off65 k) S1x1x128x256.size (k0_off65_inb k)).toLoadRect (rsO.view.writes (Elt F) G_arg8 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).1)) (View.readAt (Elt F) locO.view (Rect.unit (s := S32x128x256) (k0_off66 d0 k) S1x128x256.size (k0_off66_inb d0 k)).toLoadRect X_arg6))⟩ : View.Piece (Elt F) S3x8x128x256 .bf16)) (fun n => (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).1)
      (congrArg (fun t => t.1) (pbS_k0_t10_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9)) (pbS_k0_t10_arg8_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t10_arg8 k j hne) hy ((Rect.unit (s := S3x8x128x256) (k0_off65 j) S1x1x128x256.size (k0_off65_inb j)).toLoadRect.idx_mem y)

/-- Trip k lays its piece in front of the earlier trips'. -/
theorem pbS_k0_t10_arg9_step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t10_loop.trips) :
    (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 (k.val + 1)).2 = (⟨Rect.unit (s := S3x8x1x256) (k0_off63 k) S1x1x1x256.size (k0_off63_inb k), (k0_pay102 (View.readAt (Elt F) rsL.view (Rect.unit (s := S3x8x1x256) (k0_off63 k) S1x1x1x256.size (k0_off63_inb k)).toLoadRect (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2)) (View.readAt (Elt F) locL.view (Rect.unit (s := S32x1x256) (k0_off64 d0 k) S1x1x256.size (k0_off64_inb d0 k)).toLoadRect X_arg7))⟩ : View.Piece (Elt F) S3x8x1x256 .f32) :: (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2 := by
  rw [pbS_k0_t10_succ, tripLS_k0_t10_eq]
  rfl

/-- Two trips' rectangles are apart. -/
theorem apart_k0_t10_arg9 (k k' : Fin k0_t10_loop.trips) (hk : k ≠ k') : Disjoint (Rect.unit (s := S3x8x1x256) (k0_off63 k) S1x1x1x256.size (k0_off63_inb k)).set (Rect.unit (s := S3x8x1x256) (k0_off63 k') S1x1x1x256.size (k0_off63_inb k')).set := by
  refine Rect.unit_disjoint 1 ?_
  have hne : k.val ≠ k'.val := fun h => hk (Fin.ext h)
  have e := congrFun (k0_off63_eq k) 1
  have e' := congrFun (k0_off63_eq k') 1
  simp only [Matrix.cons_val_one, Matrix.cons_val_zero] at e e'
  have hs : S1x1x1x256.size 1 = 1 := rfl
  rw [e, e', hs]
  omega

/-- After the loop, through trip j's rectangle the memref reads what trip j stored there (no other trip touches it, and
    nothing of what it held before is read). -/
theorem readS_k0_t10_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t10_loop.trips) (x : (Rect.unit (s := S3x8x1x256) (k0_off63 j) S1x1x1x256.size (k0_off63_inb j)).shape.Idx) :
    rsL.view.read (Elt F) (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k0_t10_loop.trips).2) ((Rect.unit (s := S3x8x1x256) (k0_off63 j) S1x1x1x256.size (k0_off63_inb j)).emb x)
      = ((k0_pay102 (View.readAt (Elt F) rsL.view (Rect.unit (s := S3x8x1x256) (k0_off63 j) S1x1x1x256.size (k0_off63_inb j)).toLoadRect (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 j.val).2)) (View.readAt (Elt F) locL.view (Rect.unit (s := S32x1x256) (k0_off64 d0 j) S1x1x256.size (k0_off64_inb d0 j)).toLoadRect X_arg7))) x :=
  read_writes_family rsL.view G_arg9 k0_t10_loop.trips (fun k => (⟨Rect.unit (s := S3x8x1x256) (k0_off63 k) S1x1x1x256.size (k0_off63_inb k), (k0_pay102 (View.readAt (Elt F) rsL.view (Rect.unit (s := S3x8x1x256) (k0_off63 k) S1x1x1x256.size (k0_off63_inb k)).toLoadRect (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2)) (View.readAt (Elt F) locL.view (Rect.unit (s := S32x1x256) (k0_off64 d0 k) S1x1x256.size (k0_off64_inb d0 k)).toLoadRect X_arg7))⟩ : View.Piece (Elt F) S3x8x1x256 .f32)) (fun n => (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).2)
    (congrArg (fun t => t.2) (pbS_k0_t10_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9)) (pbS_k0_t10_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9) (fun k k' hk => apart_k0_t10_arg9 k k' hk) j x

/-- Before trip j the earlier trips have not touched trip j's rectangle. -/
theorem before_k0_t10_arg9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (j : Fin k0_t10_loop.trips) :
    View.readAt (Elt F) rsL.view (Rect.unit (s := S3x8x1x256) (k0_off63 j) S1x1x1x256.size (k0_off63_inb j)).toLoadRect (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 j.val).2)
      = View.readAt (Elt F) rsL.view (Rect.unit (s := S3x8x1x256) (k0_off63 j) S1x1x1x256.size (k0_off63_inb j)).toLoadRect G_arg9 :=
  View.readAt_writes_of_forall_not_mem rsL.view G_arg9 _ _ fun y p hp hy => by
    obtain ⟨k, hkj, rfl⟩ := family_mem k0_t10_loop.trips (fun k => (⟨Rect.unit (s := S3x8x1x256) (k0_off63 k) S1x1x1x256.size (k0_off63_inb k), (k0_pay102 (View.readAt (Elt F) rsL.view (Rect.unit (s := S3x8x1x256) (k0_off63 k) S1x1x1x256.size (k0_off63_inb k)).toLoadRect (rsL.view.writes (Elt F) G_arg9 (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k.val).2)) (View.readAt (Elt F) locL.view (Rect.unit (s := S32x1x256) (k0_off64 d0 k) S1x1x256.size (k0_off64_inb d0 k)).toLoadRect X_arg7))⟩ : View.Piece (Elt F) S3x8x1x256 .f32)) (fun n => (pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).2)
      (congrArg (fun t => t.2) (pbS_k0_t10_zero 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9)) (pbS_k0_t10_arg9_step 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9) j.val (Nat.le_of_lt j.isLt) p hp
    have hne : k ≠ j := fun h => by subst h; exact Nat.lt_irrefl _ hkj
    exact Finset.disjoint_left.mp (apart_k0_t10_arg9 k j hne) hy ((Rect.unit (s := S3x8x1x256) (k0_off63 j) S1x1x1x256.size (k0_off63_inb j)).toLoadRect.idx_mem y)

end Cert.Kernel.LoopsV

end
-- ==== Proof.KB.MergeC.lean ====
/-
  What the two first merges leave, and their stretch of the body without side conditions.

  After the four trips of a merge loop, slot k of the landing slice reads the payload of trip k: the slot as it arrived,
  merged with row k of the device's own half block (no other trip touches the slot, and before trip k none had). Read as
  the next hop's source, and given what arrived and what the half block holds, that is the value the schedule sends at
  hop 1. With the four values in hand the segment's theorem has no hypothesis left.
-/
import proofs.«900754_g7700000000000755_dist_attn_cross_gqa_kvseq_b4_sq256_skv1024_d1024_hq8_dh128_v7x_i4_f32_1_alg».proof.Proof.KB.BodyC
import proofs.«900754_g7700000000000755_dist_attn_cross_gqa_kvseq_b4_sq256_skv1024_d1024_hq8_dh128_v7x_i4_f32_1_alg».proof.Proof.KB.LoopsVRead
import proofs.«900754_g7700000000000755_dist_attn_cross_gqa_kvseq_b4_sq256_skv1024_d1024_hq8_dh128_v7x_i4_f32_1_alg».proof.Proof.KB.LoopsVFacts
import proofs.«900754_g7700000000000755_dist_attn_cross_gqa_kvseq_b4_sq256_skv1024_d1024_hq8_dh128_v7x_i4_f32_1_alg».proof.Proof.KB.Bridge

set_option maxRecDepth 8192

noncomputable section

namespace Cert.Kernel.Proto
open Cert.Kernel Cert.Kernel.Gen Cert.Kernel.Ring Cert.Kernel.KFun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

theorem t4_trips : k0_t4_loop.trips = 4 := by decide
theorem t5_trips : k0_t5_loop.trips = 4 := by decide

/-- The first merge, numerators: the merged landing slice, read as hop 1's source, is what the schedule sends then. -/
theorem mergeO4_value (m : (ℓ : Loc nD τ sig) → Buf (Elt F) ℓ) (c : Dev nD) (v2 v14 : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 8) (d : Fin 128) (i : Fin 256), fO3 (ix3 (⟨8 * ((c.val + 3) % 4) + k.val, by omega⟩ : Fin 32) d i) = KFun.ot m c (prv c) k (ix3 0 d i))
    (hrecv : (dstO 0 false).view.read (Elt F) f8 = (KFun.V m).o (fromDev c false) 0 false) :
    (srcO c 1 false).view.read (Elt F) (rsO.view.writes (Elt F) f8 (LoopsV.pbS_k0_t4 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 k0_t4_loop.trips).1) = (KFun.V m).o c 1 false := by
  refine vo_succ_of_merge m c 0 false f8 _ (fun k t => fO3 (ix3 (⟨8 * ((c.val + 3) % 4) + (headAt false k).val, by have := (headAt false k).isLt; omega⟩ : Fin 32) (⟨(t 1).val, (t 1).isLt⟩ : Fin 128) (⟨(t 2).val, (t 2).isLt⟩ : Fin 256))) hrecv ?_ ?_
  · intro k
    funext t
    obtain ⟨u, d, i, rfl⟩ : ∃ (u : Fin 1) (d : Fin 128) (i : Fin 256), t = ix3 u d i := ⟨t 0, t 1, t 2, eq_ix3 t⟩
    obtain rfl : u = 0 := Subsingleton.elim _ _
    exact hrows (headAt false k) d i
  · intro k d i
    refine (dstO_read_0f c _ k d i).trans ?_
    have hj : k.val < k0_t4_loop.trips := by rw [t4_trips]; exact k.isLt
    have hidx : ∀ (d : Fin 128) (i : Fin 256), (Rect.unit (s := S3x8x128x256) (k0_off40 ⟨k.val, hj⟩) S1x1x128x256.size (k0_off40_inb ⟨k.val, hj⟩)).emb (ix4 (0 : Fin 1) (0 : Fin 1) d i) = ix4 (0 : Fin 3) (headAt false k) d i := by
      intro d i
      funext a
      refine Fin.ext ?_
      rw [Rect.emb_apply]
      simp only [Rect.off_unit, Rect.stride_unit, Nat.one_mul, k0_off40_eq]
      match a with
      | ⟨0, _⟩ => rfl
      | ⟨1, _⟩ => show k.val + 0 = (headAt false k).val; rfl
      | ⟨2, _⟩ => show 0 + d.val = d.val; omega
      | ⟨3, _⟩ => show 0 + i.val = i.val; omega
    have hidx6 : ∀ (d : Fin 128) (i : Fin 256), (Rect.unit (s := S32x128x256) (k0_off41 c ⟨k.val, hj⟩) S1x128x256.size (k0_off41_inb c ⟨k.val, hj⟩)).emb (ix3 (0 : Fin 1) d i) = ix3 (⟨8 * ((c.val + 3) % 4) + (headAt false k).val, by have := (headAt false k).isLt; omega⟩ : Fin 32) d i := by
      intro d i
      funext a
      refine Fin.ext ?_
      rw [Rect.emb_apply]
      simp only [Rect.off_unit, Rect.stride_unit, Nat.one_mul, off41_eq]
      match a with
      | ⟨0, _⟩ => show 8 * ((c.val + 3) % 4) + k.val + 0 = 8 * ((c.val + 3) % 4) + (headAt false k).val; rfl
      | ⟨1, _⟩ => show 0 + d.val = d.val; omega
      | ⟨2, _⟩ => show 0 + i.val = i.val; omega
    rw [← hidx]
    refine (LoopsV.readS_k0_t4_arg8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 ⟨k.val, hj⟩ (ix4 (0 : Fin 1) (0 : Fin 1) d i)).trans ?_
    rw [LoopsV.before_k0_t4_arg8]
    have hA : View.readAt (Elt F) rsO.view (Rect.unit (s := S3x8x128x256) (k0_off40 ⟨k.val, hj⟩) S1x1x128x256.size (k0_off40_inb ⟨k.val, hj⟩)).toLoadRect f8
        = fun s : S1x1x128x256.Idx => (srcO c (Fin.succ (0 : Fin 2)) false).view.read (Elt F) f8 (ix3 k (⟨(s 2).val, (s 2).isLt⟩ : Fin 128) (⟨(s 3).val, (s 3).isLt⟩ : Fin 256)) := by
      funext s
      obtain ⟨u, v, d', i', rfl⟩ : ∃ (u v : Fin 1) (d' : Fin 128) (i' : Fin 256), s = ix4 u v d' i' := ⟨s 0, s 1, s 2, s 3, eq_ix4 s⟩
      obtain rfl : u = 0 := Subsingleton.elim _ _
      obtain rfl : v = 0 := Subsingleton.elim _ _
      refine Eq.trans ?_ (dstO_read_0f c f8 k d' i').symm
      exact congrArg f8 (hidx d' i')
    have hB : View.readAt (Elt F) locO.view (Rect.unit (s := S32x128x256) (k0_off41 c ⟨k.val, hj⟩) S1x128x256.size (k0_off41_inb c ⟨k.val, hj⟩)).toLoadRect fO3
        = fun t : S1x128x256.Idx => fO3 (ix3 (⟨8 * ((c.val + 3) % 4) + (headAt false k).val, by have := (headAt false k).isLt; omega⟩ : Fin 32) (⟨(t 1).val, (t 1).isLt⟩ : Fin 128) (⟨(t 2).val, (t 2).isLt⟩ : Fin 256)) := by
      funext t
      obtain ⟨u, d', i', rfl⟩ : ∃ (u : Fin 1) (d' : Fin 128) (i' : Fin 256), t = ix3 u d' i' := ⟨t 0, t 1, t 2, eq_ix3 t⟩
      obtain rfl : u = 0 := Subsingleton.elim _ _
      exact congrArg fO3 (hidx6 d' i')
    rw [hA, hB]
    all_goals rfl

/-- The first merge, denominators. -/
theorem mergeL4_value (m : (ℓ : Loc nD τ sig) → Buf (Elt F) ℓ) (c : Dev nD) (v2 v14 : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 8) (i : Fin 256), fL3 (ix3 (⟨8 * ((c.val + 3) % 4) + k.val, by omega⟩ : Fin 32) (0 : Fin 1) i) = KFun.lrow m c (prv c) k (ix3 0 0 i))
    (hrecv : (dstL 0 false).view.read (Elt F) f9 = (KFun.V m).l (fromDev c false) 0 false) :
    (srcL c 1 false).view.read (Elt F) (rsL.view.writes (Elt F) f9 (LoopsV.pbS_k0_t4 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 k0_t4_loop.trips).2) = (KFun.V m).l c 1 false := by
  refine vl_succ_of_merge m c 0 false f9 _ (fun k t => fL3 (ix3 (⟨8 * ((c.val + 3) % 4) + (headAt false k).val, by have := (headAt false k).isLt; omega⟩ : Fin 32) (0 : Fin 1) (⟨(t 2).val, (t 2).isLt⟩ : Fin 256))) hrecv ?_ ?_
  · intro k
    funext t
    obtain ⟨u, v, i, rfl⟩ : ∃ (u v : Fin 1) (i : Fin 256), t = ix3 u v i := ⟨t 0, t 1, t 2, eq_ix3 t⟩
    obtain rfl : u = 0 := Subsingleton.elim _ _
    obtain rfl : v = 0 := Subsingleton.elim _ _
    exact hrows (headAt false k) i
  · intro k i
    refine (dstL_read_0f c _ k 0 i).trans ?_
    have hj : k.val < k0_t4_loop.trips := by rw [t4_trips]; exact k.isLt
    have hidx : ∀ (i : Fin 256), (Rect.unit (s := S3x8x1x256) (k0_off38 ⟨k.val, hj⟩) S1x1x1x256.size (k0_off38_inb ⟨k.val, hj⟩)).emb (ix4 (0 : Fin 1) (0 : Fin 1) (0 : Fin 1) i) = ix4 (0 : Fin 3) (headAt false k) (0 : Fin 1) i := by
      intro i
      funext a
      refine Fin.ext ?_
      rw [Rect.emb_apply]
      simp only [Rect.off_unit, Rect.stride_unit, Nat.one_mul, k0_off38_eq]
      match a with
      | ⟨0, _⟩ => rfl
      | ⟨1, _⟩ => show k.val + 0 = (headAt false k).val; rfl
      | ⟨2, _⟩ => rfl
      | ⟨3, _⟩ => show 0 + i.val = i.val; omega
    have hidx7 : ∀ (i : Fin 256), (Rect.unit (s := S32x1x256) (k0_off39 c ⟨k.val, hj⟩) S1x1x256.size (k0_off39_inb c ⟨k.val, hj⟩)).emb (ix3 (0 : Fin 1) (0 : Fin 1) i) = ix3 (⟨8 * ((c.val + 3) % 4) + (headAt false k).val, by have := (headAt false k).isLt; omega⟩ : Fin 32) (0 : Fin 1) i := by
      intro i
      funext a
      refine Fin.ext ?_
      rw [Rect.emb_apply]
      simp only [Rect.off_unit, Rect.stride_unit, Nat.one_mul, off39_eq]
      match a with
      | ⟨0, _⟩ => show 8 * ((c.val + 3) % 4) + k.val + 0 = 8 * ((c.val + 3) % 4) + (headAt false k).val; rfl
      | ⟨1, _⟩ => rfl
      | ⟨2, _⟩ => show 0 + i.val = i.val; omega
    rw [← hidx]
    refine (LoopsV.readS_k0_t4_arg9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 (LoopsV.t4_arg6_within c) (LoopsV.t4_arg7_within c) LoopsV.t4_arg8_within LoopsV.t4_arg9_within fO3 fL3 f8 f9 ⟨k.val, hj⟩ (ix4 (0 : Fin 1) (0 : Fin 1) (0 : Fin 1) i)).trans ?_
    rw [LoopsV.before_k0_t4_arg9]
    have hA : View.readAt (Elt F) rsL.view (Rect.unit (s := S3x8x1x256) (k0_off38 ⟨k.val, hj⟩) S1x1x1x256.size (k0_off38_inb ⟨k.val, hj⟩)).toLoadRect f9
        = fun s : S1x1x1x256.Idx => (srcL c (Fin.succ (0 : Fin 2)) false).view.read (Elt F) f9 (ix3 k (0 : Fin 1) (⟨(s 3).val, (s 3).isLt⟩ : Fin 256)) := by
      funext s
      obtain ⟨u, v, w, i', rfl⟩ : ∃ (u v w : Fin 1) (i' : Fin 256), s = ix4 u v w i' := ⟨s 0, s 1, s 2, s 3, eq_ix4 s⟩
      obtain rfl : u = 0 := Subsingleton.elim _ _
      obtain rfl : v = 0 := Subsingleton.elim _ _
      obtain rfl : w = 0 := Subsingleton.elim _ _
      refine Eq.trans ?_ (dstL_read_0f c f9 k 0 i').symm
      exact congrArg f9 (hidx i')
    have hB : View.readAt (Elt F) locL.view (Rect.unit (s := S32x1x256) (k0_off39 c ⟨k.val, hj⟩) S1x1x256.size (k0_off39_inb c ⟨k.val, hj⟩)).toLoadRect fL3
        = fun t : S1x1x256.Idx => fL3 (ix3 (⟨8 * ((c.val + 3) % 4) + (headAt false k).val, by have := (headAt false k).isLt; omega⟩ : Fin 32) (0 : Fin 1) (⟨(t 2).val, (t 2).isLt⟩ : Fin 256)) := by
      funext t
      obtain ⟨u, v, i', rfl⟩ : ∃ (u v : Fin 1) (i' : Fin 256), t = ix3 u v i' := ⟨t 0, t 1, t 2, eq_ix3 t⟩
      obtain rfl : u = 0 := Subsingleton.elim _ _
      obtain rfl : v = 0 := Subsingleton.elim _ _
      exact congrArg fL3 (hidx7 i')
    rw [hA, hB]
    all_goals rfl
/-- The second merge, numerators: the merged landing slice, read as hop 1's source, is what the schedule sends then. -/
theorem mergeO5_value (m : (ℓ : Loc nD τ sig) → Buf (Elt F) ℓ) (c : Dev nD) (v14 v25 w : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 8) (d : Fin 128) (i : Fin 256), fO3 (ix3 (⟨8 * ((c.val + 3) % 4) + k.val, by omega⟩ : Fin 32) d i) = KFun.ot m c (prv c) k (ix3 0 d i))
    (hrecv : (dstO 0 true).view.read (Elt F) f8 = (KFun.V m).o (fromDev c true) 0 true) :
    (srcO c 1 true).view.read (Elt F) (rsO.view.writes (Elt F) f8 (LoopsV.pbS_k0_t5 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 k0_t5_loop.trips).1) = (KFun.V m).o c 1 true := by
  refine vo_succ_of_merge m c 0 true f8 _ (fun k t => fO3 (ix3 (⟨8 * ((c.val + 3) % 4) + (headAt true k).val, by have := (headAt true k).isLt; omega⟩ : Fin 32) (⟨(t 1).val, (t 1).isLt⟩ : Fin 128) (⟨(t 2).val, (t 2).isLt⟩ : Fin 256))) hrecv ?_ ?_
  · intro k
    funext t
    obtain ⟨u, d, i, rfl⟩ : ∃ (u : Fin 1) (d : Fin 128) (i : Fin 256), t = ix3 u d i := ⟨t 0, t 1, t 2, eq_ix3 t⟩
    obtain rfl : u = 0 := Subsingleton.elim _ _
    exact hrows (headAt true k) d i
  · intro k d i
    refine (dstO_read_0t c _ k d i).trans ?_
    have hj : k.val < k0_t5_loop.trips := by rw [t5_trips]; exact k.isLt
    have hidx : ∀ (d : Fin 128) (i : Fin 256), (Rect.unit (s := S3x8x128x256) (k0_off44 ⟨k.val, hj⟩) S1x1x128x256.size (k0_off44_inb ⟨k.val, hj⟩)).emb (ix4 (0 : Fin 1) (0 : Fin 1) d i) = ix4 (0 : Fin 3) (headAt true k) d i := by
      intro d i
      funext a
      refine Fin.ext ?_
      rw [Rect.emb_apply]
      simp only [Rect.off_unit, Rect.stride_unit, Nat.one_mul, k0_off44_eq]
      match a with
      | ⟨0, _⟩ => rfl
      | ⟨1, _⟩ => show k.val + 4 + 0 = (headAt true k).val; rfl
      | ⟨2, _⟩ => show 0 + d.val = d.val; omega
      | ⟨3, _⟩ => show 0 + i.val = i.val; omega
    have hidx6 : ∀ (d : Fin 128) (i : Fin 256), (Rect.unit (s := S32x128x256) (k0_off45 c ⟨k.val, hj⟩) S1x128x256.size (k0_off45_inb c ⟨k.val, hj⟩)).emb (ix3 (0 : Fin 1) d i) = ix3 (⟨8 * ((c.val + 3) % 4) + (headAt true k).val, by have := (headAt true k).isLt; omega⟩ : Fin 32) d i := by
      intro d i
      funext a
      refine Fin.ext ?_
      rw [Rect.emb_apply]
      simp only [Rect.off_unit, Rect.stride_unit, Nat.one_mul, off45_eq]
      match a with
      | ⟨0, _⟩ => show 8 * ((c.val + 3) % 4) + (k.val + 4) + 0 = 8 * ((c.val + 3) % 4) + (headAt true k).val; rfl
      | ⟨1, _⟩ => show 0 + d.val = d.val; omega
      | ⟨2, _⟩ => show 0 + i.val = i.val; omega
    rw [← hidx]
    refine (LoopsV.readS_k0_t5_arg8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 ⟨k.val, hj⟩ (ix4 (0 : Fin 1) (0 : Fin 1) d i)).trans ?_
    rw [LoopsV.before_k0_t5_arg8]
    have hA : View.readAt (Elt F) rsO.view (Rect.unit (s := S3x8x128x256) (k0_off44 ⟨k.val, hj⟩) S1x1x128x256.size (k0_off44_inb ⟨k.val, hj⟩)).toLoadRect f8
        = fun s : S1x1x128x256.Idx => (srcO c (Fin.succ (0 : Fin 2)) true).view.read (Elt F) f8 (ix3 k (⟨(s 2).val, (s 2).isLt⟩ : Fin 128) (⟨(s 3).val, (s 3).isLt⟩ : Fin 256)) := by
      funext s
      obtain ⟨u, v, d', i', rfl⟩ : ∃ (u v : Fin 1) (d' : Fin 128) (i' : Fin 256), s = ix4 u v d' i' := ⟨s 0, s 1, s 2, s 3, eq_ix4 s⟩
      obtain rfl : u = 0 := Subsingleton.elim _ _
      obtain rfl : v = 0 := Subsingleton.elim _ _
      refine Eq.trans ?_ (dstO_read_0t c f8 k d' i').symm
      exact congrArg f8 (hidx d' i')
    have hB : View.readAt (Elt F) locO.view (Rect.unit (s := S32x128x256) (k0_off45 c ⟨k.val, hj⟩) S1x128x256.size (k0_off45_inb c ⟨k.val, hj⟩)).toLoadRect fO3
        = fun t : S1x128x256.Idx => fO3 (ix3 (⟨8 * ((c.val + 3) % 4) + (headAt true k).val, by have := (headAt true k).isLt; omega⟩ : Fin 32) (⟨(t 1).val, (t 1).isLt⟩ : Fin 128) (⟨(t 2).val, (t 2).isLt⟩ : Fin 256)) := by
      funext t
      obtain ⟨u, d', i', rfl⟩ : ∃ (u : Fin 1) (d' : Fin 128) (i' : Fin 256), t = ix3 u d' i' := ⟨t 0, t 1, t 2, eq_ix3 t⟩
      obtain rfl : u = 0 := Subsingleton.elim _ _
      exact congrArg fO3 (hidx6 d' i')
    rw [hA, hB]
    all_goals rfl

/-- The second merge, denominators. -/
theorem mergeL5_value (m : (ℓ : Loc nD τ sig) → Buf (Elt F) ℓ) (c : Dev nD) (v14 v25 w : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 8) (i : Fin 256), fL3 (ix3 (⟨8 * ((c.val + 3) % 4) + k.val, by omega⟩ : Fin 32) (0 : Fin 1) i) = KFun.lrow m c (prv c) k (ix3 0 0 i))
    (hrecv : (dstL 0 true).view.read (Elt F) f9 = (KFun.V m).l (fromDev c true) 0 true) :
    (srcL c 1 true).view.read (Elt F) (rsL.view.writes (Elt F) f9 (LoopsV.pbS_k0_t5 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 k0_t5_loop.trips).2) = (KFun.V m).l c 1 true := by
  refine vl_succ_of_merge m c 0 true f9 _ (fun k t => fL3 (ix3 (⟨8 * ((c.val + 3) % 4) + (headAt true k).val, by have := (headAt true k).isLt; omega⟩ : Fin 32) (0 : Fin 1) (⟨(t 2).val, (t 2).isLt⟩ : Fin 256))) hrecv ?_ ?_
  · intro k
    funext t
    obtain ⟨u, v, i, rfl⟩ : ∃ (u v : Fin 1) (i : Fin 256), t = ix3 u v i := ⟨t 0, t 1, t 2, eq_ix3 t⟩
    obtain rfl : u = 0 := Subsingleton.elim _ _
    obtain rfl : v = 0 := Subsingleton.elim _ _
    exact hrows (headAt true k) i
  · intro k i
    refine (dstL_read_0t c _ k 0 i).trans ?_
    have hj : k.val < k0_t5_loop.trips := by rw [t5_trips]; exact k.isLt
    have hidx : ∀ (i : Fin 256), (Rect.unit (s := S3x8x1x256) (k0_off42 ⟨k.val, hj⟩) S1x1x1x256.size (k0_off42_inb ⟨k.val, hj⟩)).emb (ix4 (0 : Fin 1) (0 : Fin 1) (0 : Fin 1) i) = ix4 (0 : Fin 3) (headAt true k) (0 : Fin 1) i := by
      intro i
      funext a
      refine Fin.ext ?_
      rw [Rect.emb_apply]
      simp only [Rect.off_unit, Rect.stride_unit, Nat.one_mul, k0_off42_eq]
      match a with
      | ⟨0, _⟩ => rfl
      | ⟨1, _⟩ => show k.val + 4 + 0 = (headAt true k).val; rfl
      | ⟨2, _⟩ => rfl
      | ⟨3, _⟩ => show 0 + i.val = i.val; omega
    have hidx7 : ∀ (i : Fin 256), (Rect.unit (s := S32x1x256) (k0_off43 c ⟨k.val, hj⟩) S1x1x256.size (k0_off43_inb c ⟨k.val, hj⟩)).emb (ix3 (0 : Fin 1) (0 : Fin 1) i) = ix3 (⟨8 * ((c.val + 3) % 4) + (headAt true k).val, by have := (headAt true k).isLt; omega⟩ : Fin 32) (0 : Fin 1) i := by
      intro i
      funext a
      refine Fin.ext ?_
      rw [Rect.emb_apply]
      simp only [Rect.off_unit, Rect.stride_unit, Nat.one_mul, off43_eq]
      match a with
      | ⟨0, _⟩ => show 8 * ((c.val + 3) % 4) + (k.val + 4) + 0 = 8 * ((c.val + 3) % 4) + (headAt true k).val; rfl
      | ⟨1, _⟩ => rfl
      | ⟨2, _⟩ => show 0 + i.val = i.val; omega
    rw [← hidx]
    refine (LoopsV.readS_k0_t5_arg9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 w 0#32 4#32 (LoopsV.t5_arg6_within c) (LoopsV.t5_arg7_within c) LoopsV.t5_arg8_within LoopsV.t5_arg9_within fO3 fL3 f8 f9 ⟨k.val, hj⟩ (ix4 (0 : Fin 1) (0 : Fin 1) (0 : Fin 1) i)).trans ?_
    rw [LoopsV.before_k0_t5_arg9]
    have hA : View.readAt (Elt F) rsL.view (Rect.unit (s := S3x8x1x256) (k0_off42 ⟨k.val, hj⟩) S1x1x1x256.size (k0_off42_inb ⟨k.val, hj⟩)).toLoadRect f9
        = fun s : S1x1x1x256.Idx => (srcL c (Fin.succ (0 : Fin 2)) true).view.read (Elt F) f9 (ix3 k (0 : Fin 1) (⟨(s 3).val, (s 3).isLt⟩ : Fin 256)) := by
      funext s
      obtain ⟨u, v, w, i', rfl⟩ : ∃ (u v w : Fin 1) (i' : Fin 256), s = ix4 u v w i' := ⟨s 0, s 1, s 2, s 3, eq_ix4 s⟩
      obtain rfl : u = 0 := Subsingleton.elim _ _
      obtain rfl : v = 0 := Subsingleton.elim _ _
      obtain rfl : w = 0 := Subsingleton.elim _ _
      refine Eq.trans ?_ (dstL_read_0t c f9 k 0 i').symm
      exact congrArg f9 (hidx i')
    have hB : View.readAt (Elt F) locL.view (Rect.unit (s := S32x1x256) (k0_off43 c ⟨k.val, hj⟩) S1x1x256.size (k0_off43_inb c ⟨k.val, hj⟩)).toLoadRect fL3
        = fun t : S1x1x256.Idx => fL3 (ix3 (⟨8 * ((c.val + 3) % 4) + (headAt true k).val, by have := (headAt true k).isLt; omega⟩ : Fin 32) (0 : Fin 1) (⟨(t 2).val, (t 2).isLt⟩ : Fin 256)) := by
      funext t
      obtain ⟨u, v, i', rfl⟩ : ∃ (u v : Fin 1) (i' : Fin 256), t = ix3 u v i' := ⟨t 0, t 1, t 2, eq_ix3 t⟩
      obtain rfl : u = 0 := Subsingleton.elim _ _
      obtain rfl : v = 0 := Subsingleton.elim _ _
      exact congrArg fL3 (hidx7 i')
    rw [hA, hB]
    all_goals rfl

/-- From the cut before the first merge to the cut before the third flash step, with the merged slices' values in hand. -/
theorem segC (m : (ℓ : Loc nD τ sig) → Buf (Elt F) ℓ) (c : Dev nD) (K : Names) (W : Waits sig Unit) (R : sProp (MT nD τ sig Unit (Elt F) ℕ UU ℕ)) (d0 : Dev nD) (v2 v14 v25 : BitVec 32) :
    At27 m c K W R d0 v2 v14 v25 ⊢ wp frame (wpE (defs₀ (F := F)) 𝒱₀ (c : Thread nD τ) none) Set.univ
      (segCProg (F := F) (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) d0 v2 v14 v25) (fun r => iprop(∃ W', Post32 m c K W' R r)) :=
  segC_ok m c K W R d0 v2 v14 v25
    (fun fO3 fL3 f8 f9 h1 h2 => mergeO4_value m c v2 v14 fO3 fL3 f8 f9 h1 h2)
    (fun fO3 fL3 f8 f9 h1 h2 => mergeL4_value m c v2 v14 fO3 fL3 f8 f9 h1 h2)
    (fun w fO3 fL3 f8 f9 h1 h2 => mergeO5_value m c v14 v25 w fO3 fL3 f8 f9 h1 h2)
    (fun w fO3 fL3 f8 f9 h1 h2 => mergeL5_value m c v14 v25 w fO3 fL3 f8 f9 h1 h2)

end Cert.Kernel.Proto

end
-- ==== Proof.KB.SchedAuto.lean ====
/-
  The ring schedule's tables spelt all the way down to points-to facts and reached rounds.

  A barrier payload is eighteen leaves: for each of the three hops the neighbour's three landing slices, each at some
  contents, and the fact that the neighbour stands at round 0 of the three receive cells the transfers credit. Written as
  one flat chain, with the device a landing slice lies on named outright: for the unit a device `c` pays on its left
  neighbour's cell the slices lie on `c` itself (`nxt (prv c) = c`), likewise for its right neighbour's. What a device owes
  is the sum of its remaining payments' tallies, each credited cell named outright. A slice held at contents that read
  as `w` is the slice held at the one buffer that is `w` on the slice: a points-to over the slice sees nothing else.
-/
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.Data

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem sep_assoc_eq (P Q R : sProp 𝕄) : iprop((P ∗ Q) ∗ R) = iprop(P ∗ Q ∗ R) :=
  BI.Entails.antisymm BI.sep_assoc BI.sep_assoc'

/-! ## The barrier payloads a device HANDS OVER, the landing slices on the device itself -/

/-- With its unit on its left neighbour's barrier cell device `c` hands over its own landing slices of the right-going
    transfers, each at some contents, and that it stands at round 0 of the receive cells they credit. -/
@[sl_rounds] theorem barPay_prv_false (c : Dev nD) : barPay (F := F) (prv c) false = iprop(
    (∃ f, (dstO 0 false).view.loc (c : Thread nD τ) ↦[(dstO 0 false).view.set]{fullShare} f)
      ∗ (∃ f, (dstL 0 false).view.loc (c : Thread nD τ) ↦[(dstL 0 false).view.set]{fullShare} f)
      ∗ (∃ f, (agS (prv c) 0 false).view.loc (c : Thread nD τ) ↦[(agS (prv c) 0 false).view.set]{fullShare} f)
      ∗ reached ER (recvCell c .o false 0) 0 ∗ reached ER (recvCell c .l false 0) 0 ∗ reached ER (recvCell c .g false 0) 0
      ∗ (∃ f, (dstO 1 false).view.loc (c : Thread nD τ) ↦[(dstO 1 false).view.set]{fullShare} f)
      ∗ (∃ f, (dstL 1 false).view.loc (c : Thread nD τ) ↦[(dstL 1 false).view.set]{fullShare} f)
      ∗ (∃ f, (agS (prv c) 1 false).view.loc (c : Thread nD τ) ↦[(agS (prv c) 1 false).view.set]{fullShare} f)
      ∗ reached ER (recvCell c .o false 1) 0 ∗ reached ER (recvCell c .l false 1) 0 ∗ reached ER (recvCell c .g false 1) 0
      ∗ (∃ f, (dstO 2 false).view.loc (c : Thread nD τ) ↦[(dstO 2 false).view.set]{fullShare} f)
      ∗ (∃ f, (dstL 2 false).view.loc (c : Thread nD τ) ↦[(dstL 2 false).view.set]{fullShare} f)
      ∗ (∃ f, (agS (prv c) 2 false).view.loc (c : Thread nD τ) ↦[(agS (prv c) 2 false).view.set]{fullShare} f)
      ∗ reached ER (recvCell c .o false 2) 0 ∗ reached ER (recvCell c .l false 2) 0 ∗ reached ER (recvCell c .g false 2) 0) := by
  unfold barPay landing held
  rw [show toDev (prv c) false = c from nxt_prv c]
  simp only [sep_assoc_eq]

/-- With its unit on its right neighbour's barrier cell: its landing slices of the left-going transfers. -/
@[sl_rounds] theorem barPay_nxt_true (c : Dev nD) : barPay (F := F) (nxt c) true = iprop(
    (∃ f, (dstO 0 true).view.loc (c : Thread nD τ) ↦[(dstO 0 true).view.set]{fullShare} f)
      ∗ (∃ f, (dstL 0 true).view.loc (c : Thread nD τ) ↦[(dstL 0 true).view.set]{fullShare} f)
      ∗ (∃ f, (agS (nxt c) 0 true).view.loc (c : Thread nD τ) ↦[(agS (nxt c) 0 true).view.set]{fullShare} f)
      ∗ reached ER (recvCell c .o true 0) 0 ∗ reached ER (recvCell c .l true 0) 0 ∗ reached ER (recvCell c .g true 0) 0
      ∗ (∃ f, (dstO 1 true).view.loc (c : Thread nD τ) ↦[(dstO 1 true).view.set]{fullShare} f)
      ∗ (∃ f, (dstL 1 true).view.loc (c : Thread nD τ) ↦[(dstL 1 true).view.set]{fullShare} f)
      ∗ (∃ f, (agS (nxt c) 1 true).view.loc (c : Thread nD τ) ↦[(agS (nxt c) 1 true).view.set]{fullShare} f)
      ∗ reached ER (recvCell c .o true 1) 0 ∗ reached ER (recvCell c .l true 1) 0 ∗ reached ER (recvCell c .g true 1) 0
      ∗ (∃ f, (dstO 2 true).view.loc (c : Thread nD τ) ↦[(dstO 2 true).view.set]{fullShare} f)
      ∗ (∃ f, (dstL 2 true).view.loc (c : Thread nD τ) ↦[(dstL 2 true).view.set]{fullShare} f)
      ∗ (∃ f, (agS (nxt c) 2 true).view.loc (c : Thread nD τ) ↦[(agS (nxt c) 2 true).view.set]{fullShare} f)
      ∗ reached ER (recvCell c .o true 2) 0 ∗ reached ER (recvCell c .l true 2) 0 ∗ reached ER (recvCell c .g true 2) 0) := by
  unfold barPay landing held
  rw [show toDev (nxt c) true = c from prv_nxt c]
  simp only [sep_assoc_eq]

/-! ## The barrier payloads a device RECEIVES with its barrier wait, the landing slices on its neighbours

These two are stated for any device and are kept apart from the two above: read at `prv c` or at `nxt c` they name the
device the slices lie on as `nxt (prv c)` or `prv (nxt c)`, not as `c`. -/

theorem barPay_false (c : Dev nD) : barPay (F := F) c false = iprop(
    (∃ f, (dstO 0 false).view.loc ((nxt c : Dev nD) : Thread nD τ) ↦[(dstO 0 false).view.set]{fullShare} f)
      ∗ (∃ f, (dstL 0 false).view.loc ((nxt c : Dev nD) : Thread nD τ) ↦[(dstL 0 false).view.set]{fullShare} f)
      ∗ (∃ f, (agS c 0 false).view.loc ((nxt c : Dev nD) : Thread nD τ) ↦[(agS c 0 false).view.set]{fullShare} f)
      ∗ reached ER (recvCell (nxt c) .o false 0) 0 ∗ reached ER (recvCell (nxt c) .l false 0) 0 ∗ reached ER (recvCell (nxt c) .g false 0) 0
      ∗ (∃ f, (dstO 1 false).view.loc ((nxt c : Dev nD) : Thread nD τ) ↦[(dstO 1 false).view.set]{fullShare} f)
      ∗ (∃ f, (dstL 1 false).view.loc ((nxt c : Dev nD) : Thread nD τ) ↦[(dstL 1 false).view.set]{fullShare} f)
      ∗ (∃ f, (agS c 1 false).view.loc ((nxt c : Dev nD) : Thread nD τ) ↦[(agS c 1 false).view.set]{fullShare} f)
      ∗ reached ER (recvCell (nxt c) .o false 1) 0 ∗ reached ER (recvCell (nxt c) .l false 1) 0 ∗ reached ER (recvCell (nxt c) .g false 1) 0
      ∗ (∃ f, (dstO 2 false).view.loc ((nxt c : Dev nD) : Thread nD τ) ↦[(dstO 2 false).view.set]{fullShare} f)
      ∗ (∃ f, (dstL 2 false).view.loc ((nxt c : Dev nD) : Thread nD τ) ↦[(dstL 2 false).view.set]{fullShare} f)
      ∗ (∃ f, (agS c 2 false).view.loc ((nxt c : Dev nD) : Thread nD τ) ↦[(agS c 2 false).view.set]{fullShare} f)
      ∗ reached ER (recvCell (nxt c) .o false 2) 0 ∗ reached ER (recvCell (nxt c) .l false 2) 0 ∗ reached ER (recvCell (nxt c) .g false 2) 0) := by
  unfold barPay landing held
  simp only [sep_assoc_eq]
  rfl

theorem barPay_true (c : Dev nD) : barPay (F := F) c true = iprop(
    (∃ f, (dstO 0 true).view.loc ((prv c : Dev nD) : Thread nD τ) ↦[(dstO 0 true).view.set]{fullShare} f)
      ∗ (∃ f, (dstL 0 true).view.loc ((prv c : Dev nD) : Thread nD τ) ↦[(dstL 0 true).view.set]{fullShare} f)
      ∗ (∃ f, (agS c 0 true).view.loc ((prv c : Dev nD) : Thread nD τ) ↦[(agS c 0 true).view.set]{fullShare} f)
      ∗ reached ER (recvCell (prv c) .o true 0) 0 ∗ reached ER (recvCell (prv c) .l true 0) 0 ∗ reached ER (recvCell (prv c) .g true 0) 0
      ∗ (∃ f, (dstO 1 true).view.loc ((prv c : Dev nD) : Thread nD τ) ↦[(dstO 1 true).view.set]{fullShare} f)
      ∗ (∃ f, (dstL 1 true).view.loc ((prv c : Dev nD) : Thread nD τ) ↦[(dstL 1 true).view.set]{fullShare} f)
      ∗ (∃ f, (agS c 1 true).view.loc ((prv c : Dev nD) : Thread nD τ) ↦[(agS c 1 true).view.set]{fullShare} f)
      ∗ reached ER (recvCell (prv c) .o true 1) 0 ∗ reached ER (recvCell (prv c) .l true 1) 0 ∗ reached ER (recvCell (prv c) .g true 1) 0
      ∗ (∃ f, (dstO 2 true).view.loc ((prv c : Dev nD) : Thread nD τ) ↦[(dstO 2 true).view.set]{fullShare} f)
      ∗ (∃ f, (dstL 2 true).view.loc ((prv c : Dev nD) : Thread nD τ) ↦[(dstL 2 true).view.set]{fullShare} f)
      ∗ (∃ f, (agS c 2 true).view.loc ((prv c : Dev nD) : Thread nD τ) ↦[(agS c 2 true).view.set]{fullShare} f)
      ∗ reached ER (recvCell (prv c) .o true 2) 0 ∗ reached ER (recvCell (prv c) .l true 2) 0 ∗ reached ER (recvCell (prv c) .g true 2) 0) := by
  unfold barPay landing held
  simp only [sep_assoc_eq]
  rfl

/-- The payloads of the barrier round, both duties. -/
theorem barPay_both (c : Dev nD) : (bigSep Finset.univ fun d : Bool => barPay (F := F) c d) = iprop(barPay c true ∗ barPay c false) :=
  bigSep_univ_eq_bigSepL [true, false] (by decide) (by decide) _

/-! ## What a device owes, as a sum of tallies -/

theorem owedOf_bar_true (c : Dev nD) (ps : List Pay) : owedOf c (.bar true :: ps) = owedOf c ps + tallyAt (barCell (prv c)) () 1 := rfl
theorem owedOf_bar_false (c : Dev nD) (ps : List Pay) : owedOf c (.bar false :: ps) = owedOf c ps + tallyAt (barCell (nxt c)) () 1 := rfl
theorem owedOf_xfer_false (c : Dev nD) (k : Kind) (h : Fin 3) (ps : List Pay) :
    owedOf c (.xfer k false h :: ps) = owedOf c ps + tallyAt (recvCell (nxt c) k false h) () (amt k) := rfl
theorem owedOf_xfer_true (c : Dev nD) (k : Kind) (h : Fin 3) (ps : List Pay) :
    owedOf c (.xfer k true h :: ps) = owedOf c ps + tallyAt (recvCell (prv c) k true h) () (amt k) := rfl

/-- What device `c` owes at launch, payment by payment (the first payment last), each credited cell named outright. -/
theorem owedOf_prog (c : Dev nD) : owedOf c prog = (0
      + tallyAt (recvCell (prv c) .g true 2) () (amt .g)
      + tallyAt (recvCell (nxt c) .g false 2) () (amt .g)
      + tallyAt (recvCell (prv c) .g true 1) () (amt .g)
      + tallyAt (recvCell (nxt c) .g false 1) () (amt .g)
      + tallyAt (recvCell (prv c) .g true 0) () (amt .g)
      + tallyAt (recvCell (nxt c) .g false 0) () (amt .g)
      + tallyAt (recvCell (prv c) .l true 2) () (amt .l)
      + tallyAt (recvCell (nxt c) .l false 2) () (amt .l)
      + tallyAt (recvCell (prv c) .o true 2) () (amt .o)
      + tallyAt (recvCell (nxt c) .o false 2) () (amt .o)
      + tallyAt (recvCell (prv c) .l true 1) () (amt .l)
      + tallyAt (recvCell (nxt c) .l false 1) () (amt .l)
      + tallyAt (recvCell (prv c) .o true 1) () (amt .o)
      + tallyAt (recvCell (nxt c) .o false 1) () (amt .o)
      + tallyAt (recvCell (prv c) .l true 0) () (amt .l)
      + tallyAt (recvCell (prv c) .o true 0) () (amt .o)
      + tallyAt (recvCell (nxt c) .l false 0) () (amt .l)
      + tallyAt (recvCell (nxt c) .o false 0) () (amt .o)
      + tallyAt (barCell (nxt c)) () 1
      + tallyAt (barCell (prv c)) () 1 : CellTallies nD τ sig Unit) := rfl

/-! ## A slice held at contents that read as `w` -/

/-- A filler for the part of a buffer a slice does not see. -/
def filler (T : BufTy) : T.Contents (Elt F) := fun _ => Classical.arbitrary _

/-- A slice held at contents that read as `w` is the slice held at the buffer that is `w` on the slice (and the filler
    elsewhere): a points-to over the slice's own elements sees nothing else. -/
theorem heldAs_eq {sp : Space} {s : Shape} {e : EltTy} (c : Dev nD) (mr : Memref sig .tc sp s e) (w : s.Idx → Elt F e) :
    heldAs c mr w = (mr.view.loc (c : Thread nD τ) ↦[mr.view.set]{fullShare} mr.view.write (Elt F) (filler mr.view.ty) w Finset.univ : sProp 𝕄) := by
  have h1 : heldAs c mr w ⊢ (mr.view.loc (c : Thread nD τ) ↦[mr.view.set]{fullShare} mr.view.write (Elt F) (filler mr.view.ty) w Finset.univ : sProp 𝕄) := by
    unfold heldAs
    iintro ⟨%f, H, %hf⟩
    rw [show (mr.view.loc (c : Thread nD τ) ↦[mr.view.set]{fullShare} mr.view.write (Elt F) (filler mr.view.ty) w Finset.univ : sProp 𝕄)
        = (mr.view.loc (c : Thread nD τ) ↦[mr.view.set]{fullShare} f) from pointsTo_congr fun i hi => by
      obtain ⟨x, -, rfl⟩ := Finset.mem_map.mp hi
      rw [View.write_emb_of_mem _ _ (Finset.mem_univ _), ← hf, View.read_apply, cast_cast, cast_eq]]
    iexact H
  have h2 : (mr.view.loc (c : Thread nD τ) ↦[mr.view.set]{fullShare} mr.view.write (Elt F) (filler mr.view.ty) w Finset.univ : sProp 𝕄) ⊢ heldAs c mr w := by
    unfold heldAs
    iintro H
    iexists _
    isplitl [H]; · iexact H
    ipureintro; exact View.read_write_univ _ _
  exact BI.Entails.antisymm h1 h2

end Cert.Kernel.Proto

end
-- ==== Proof.KB.BodyE.lean ====
/-
  The body's segment from the last merge of the reduction's second hop to its first output term.

  From the cut before that merge (`At40`) the device: adds its own partial sums of batch `c` (heads 4–7) to the left-going
  half it received at hop 1; sends both merged halves on at hop 2 — numerators and denominators, to the right and to the left —
  and waits for the four transfers at their send and receive cells; adds its partial sums of batch `c + 1` to the two halves
  received at hop 2, which then hold the full sums of batch `c + 1` over the four devices; and stores head 0's term of the
  projection into block `c + 1` of the result buffer. It ends in the state the tail starts from (`AtTail`).

  What the merges and the first term compute is taken as four equations between values (`Merge8`, `Merge9`, `Merge10`,
  `Acc0`), stated over the contents the three loops leave; the protocol and the ownership are proved here.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.SchedAuto
import proofs.«900754_g7700000000000755_dist_attn_cross_gqa_kvseq_b4_sq256_skv1024_d1024_hq8_dh128_v7x_i4_f32_1_alg».proof.Proof.KB.Unfold
import proofs.«900754_g7700000000000755_dist_attn_cross_gqa_kvseq_b4_sq256_skv1024_d1024_hq8_dh128_v7x_i4_f32_1_alg».proof.Proof.KB.Split
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.Within
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.KB.OpSend
import proofs.«900754_g7700000000000755_dist_attn_cross_gqa_kvseq_b4_sq256_skv1024_d1024_hq8_dh128_v7x_i4_f32_1_alg».proof.Proof.KB.OpWait
import proofs.«900754_g7700000000000755_dist_attn_cross_gqa_kvseq_b4_sq256_skv1024_d1024_hq8_dh128_v7x_i4_f32_1_alg».proof.Proof.KB.KLaunch
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.Bridge
import proofs.«900754_g7700000000000755_dist_attn_cross_gqa_kvseq_b4_sq256_skv1024_d1024_hq8_dh128_v7x_i4_f32_1_alg».proof.Proof.KB.LoopsV
import proofs.«900754_g7700000000000755_dist_attn_cross_gqa_kvseq_b4_sq256_skv1024_d1024_hq8_dh128_v7x_i4_f32_1_alg».proof.Proof.KB.LoopsVFacts
import proofs.«900754_g7700000000000755_dist_attn_cross_gqa_kvseq_b4_sq256_skv1024_d1024_hq8_dh128_v7x_i4_f32_1_alg».proof.Proof.Gen.Kernel.Skeleton
import proofs.«900754_g7700000000000755_dist_attn_cross_gqa_kvseq_b4_sq256_skv1024_d1024_hq8_dh128_v7x_i4_f32_1_alg».proof.Proof.Gen.Kernel.Loops
import proofs.«900754_g7700000000000755_dist_attn_cross_gqa_kvseq_b4_sq256_skv1024_d1024_hq8_dh128_v7x_i4_f32_1_alg».proof.Proof.Gen.Kernel.Points
import proofs.«900754_g7700000000000755_dist_attn_cross_gqa_kvseq_b4_sq256_skv1024_d1024_hq8_dh128_v7x_i4_f32_1_alg».proof.Proof.Gen.Kernel.Frame
import proofs.«900754_g7700000000000755_dist_attn_cross_gqa_kvseq_b4_sq256_skv1024_d1024_hq8_dh128_v7x_i4_f32_1_alg».proof.Proof.KB.Segs
import proofs.«900754_g7700000000000755_dist_attn_cross_gqa_kvseq_b4_sq256_skv1024_d1024_hq8_dh128_v7x_i4_f32_1_alg».proof.Proof.KB.TailSpec
import proofs.«900754_g7700000000000755_dist_attn_cross_gqa_kvseq_b4_sq256_skv1024_d1024_hq8_dh128_v7x_i4_f32_1_alg».proof.Proof.KB.Cut40
import Idealize.ShloMosaic.Lib.Tactic

set_option maxRecDepth 16384

noncomputable section

namespace Cert.Kernel.Proto

open Cert.Kernel Cert.Kernel.Gen Cert.Kernel.Ring
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- The merge of hop 1's left-going half, as values: with the half block of the device's own partial sums of batch `c`
    (heads 4–7) and the landing slice as the right neighbour sent it, the slice after the four trips reads as what hop 2
    sends to the left. -/
def Merge8 (m : (ℓ : Loc nD τ sig) → Buf (Elt F) ℓ) (c : Dev nD) (v14 v25 v1014 v1015 : BitVec 32) (v1020 : BitVec 1) : Prop :=
  ∀ (h6 : ∀ k : Fin k0_t8_loop.trips, (locO.access (Rect.unit (s := S32x128x256) (k0_off58 c k) S1x128x256.size (k0_off58_inb c k))).set ⊆ (locHalfO c 0 true).view.set) (h7 : ∀ k : Fin k0_t8_loop.trips, (locL.access (Rect.unit (s := S32x1x256) (k0_off56 c k) S1x1x256.size (k0_off56_inb c k))).set ⊆ (locHalfL c 0 true).view.set) (h8 : ∀ k : Fin k0_t8_loop.trips, (rsO.access (Rect.unit (s := S3x8x128x256) (k0_off57 k) S1x1x128x256.size (k0_off57_inb k))).set ⊆ (dstO 1 true).view.set) (h9 : ∀ k : Fin k0_t8_loop.trips, (rsL.access (Rect.unit (s := S3x8x1x256) (k0_off55 k) S1x1x1x256.size (k0_off55_inb k))).set ⊆ (dstL 1 true).view.set) (X6 : BufTy.Contents (Elt F) locO.view.ty) (X7 : BufTy.Contents (Elt F) locL.view.ty) (G8 : BufTy.Contents (Elt F) rsO.view.ty) (G9 : BufTy.Contents (Elt F) rsL.view.ty),
    (locHalfO c 0 true).view.read (Elt F) X6 = halfOt m c c true → (locHalfL c 0 true).view.read (Elt F) X7 = halfLr m c c true →
    (dstO 1 true).view.read (Elt F) G8 = (KFun.V m).o (nxt c) 1 true → (dstL 1 true).view.read (Elt F) G9 = (KFun.V m).l (nxt c) 1 true →
    (dstO 1 true).view.read (Elt F) (rsO.view.writes (Elt F) G8 (LoopsV.pbS_k0_t8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 k0_t8_loop.trips).1) = (KFun.V m).o c 2 true
    ∧ (dstL 1 true).view.read (Elt F) (rsL.view.writes (Elt F) G9 (LoopsV.pbS_k0_t8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 k0_t8_loop.trips).2) = (KFun.V m).l c 2 true

/-- The merge of hop 2's right-going half: the slice after the four trips reads as the full sums of batch `c + 1`, heads 0–3. -/
def Merge9 (m : (ℓ : Loc nD τ sig) → Buf (Elt F) ℓ) (c : Dev nD) (v14 : BitVec 32) : Prop :=
  ∀ (w : BitVec 32) (h6 : ∀ k : Fin k0_t9_loop.trips, (locO.access (Rect.unit (s := S32x128x256) (k0_off62 c k) S1x128x256.size (k0_off62_inb c k))).set ⊆ (locHalfO c 1 false).view.set) (h7 : ∀ k : Fin k0_t9_loop.trips, (locL.access (Rect.unit (s := S32x1x256) (k0_off60 c k) S1x1x256.size (k0_off60_inb c k))).set ⊆ (locHalfL c 1 false).view.set) (h8 : ∀ k : Fin k0_t9_loop.trips, (rsO.access (Rect.unit (s := S3x8x128x256) (k0_off61 k) S1x1x128x256.size (k0_off61_inb k))).set ⊆ (dstO 2 false).view.set) (h9 : ∀ k : Fin k0_t9_loop.trips, (rsL.access (Rect.unit (s := S3x8x1x256) (k0_off59 k) S1x1x1x256.size (k0_off59_inb k))).set ⊆ (dstL 2 false).view.set) (X6 : BufTy.Contents (Elt F) locO.view.ty) (X7 : BufTy.Contents (Elt F) locL.view.ty) (G8 : BufTy.Contents (Elt F) rsO.view.ty) (G9 : BufTy.Contents (Elt F) rsL.view.ty),
    (locHalfO c 1 false).view.read (Elt F) X6 = halfOt m c (nxt c) false → (locHalfL c 1 false).view.read (Elt F) X7 = halfLr m c (nxt c) false →
    (dstO 2 false).view.read (Elt F) G8 = (KFun.V m).o (prv c) 2 false → (dstL 2 false).view.read (Elt F) G9 = (KFun.V m).l (prv c) 2 false →
    (dstO 2 false).view.read (Elt F) (rsO.view.writes (Elt F) G8 (LoopsV.pbS_k0_t9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 k0_t9_loop.trips).1) = (fun t => KFun.voC m 3 c false (⟨(t 0).val, (t 0).isLt⟩ : Fin 4) (⟨(t 1).val, (t 1).isLt⟩ : Fin 128) (⟨(t 2).val, (t 2).isLt⟩ : Fin 256))
    ∧ (dstL 2 false).view.read (Elt F) (rsL.view.writes (Elt F) G9 (LoopsV.pbS_k0_t9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 k0_t9_loop.trips).2) = (fun t => KFun.vlC m 3 c false (⟨(t 0).val, (t 0).isLt⟩ : Fin 4) (⟨(t 2).val, (t 2).isLt⟩ : Fin 256))

/-- The merge of hop 2's left-going half: heads 4–7 of the same. -/
def Merge10 (m : (ℓ : Loc nD τ sig) → Buf (Elt F) ℓ) (c : Dev nD) (v2 : BitVec 32) : Prop :=
  ∀ (w1 w2 : BitVec 32) (b1 b2 b3 : BitVec 1) (h6 : ∀ k : Fin k0_t10_loop.trips, (locO.access (Rect.unit (s := S32x128x256) (k0_off66 c k) S1x128x256.size (k0_off66_inb c k))).set ⊆ (locHalfO c 1 true).view.set) (h7 : ∀ k : Fin k0_t10_loop.trips, (locL.access (Rect.unit (s := S32x1x256) (k0_off64 c k) S1x1x256.size (k0_off64_inb c k))).set ⊆ (locHalfL c 1 true).view.set) (h8 : ∀ k : Fin k0_t10_loop.trips, (rsO.access (Rect.unit (s := S3x8x128x256) (k0_off65 k) S1x1x128x256.size (k0_off65_inb k))).set ⊆ (dstO 2 true).view.set) (h9 : ∀ k : Fin k0_t10_loop.trips, (rsL.access (Rect.unit (s := S3x8x1x256) (k0_off63 k) S1x1x1x256.size (k0_off63_inb k))).set ⊆ (dstL 2 true).view.set) (X6 : BufTy.Contents (Elt F) locO.view.ty) (X7 : BufTy.Contents (Elt F) locL.view.ty) (G8 : BufTy.Contents (Elt F) rsO.view.ty) (G9 : BufTy.Contents (Elt F) rsL.view.ty),
    (locHalfO c 1 true).view.read (Elt F) X6 = halfOt m c (nxt c) true → (locHalfL c 1 true).view.read (Elt F) X7 = halfLr m c (nxt c) true →
    (dstO 2 true).view.read (Elt F) G8 = (KFun.V m).o (nxt c) 2 true → (dstL 2 true).view.read (Elt F) G9 = (KFun.V m).l (nxt c) 2 true →
    (dstO 2 true).view.read (Elt F) (rsO.view.writes (Elt F) G8 (LoopsV.pbS_k0_t10 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 k0_t10_loop.trips).1) = (fun t => KFun.voC m 3 c true (⟨(t 0).val, (t 0).isLt⟩ : Fin 4) (⟨(t 1).val, (t 1).isLt⟩ : Fin 128) (⟨(t 2).val, (t 2).isLt⟩ : Fin 256))
    ∧ (dstL 2 true).view.read (Elt F) (rsL.view.writes (Elt F) G9 (LoopsV.pbS_k0_t10 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 k0_t10_loop.trips).2) = (fun t => KFun.vlC m 3 c true (⟨(t 0).val, (t 0).isLt⟩ : Fin 4) (⟨(t 2).val, (t 2).isLt⟩ : Fin 256))

/-- The first output term, as a value: with the right-going half of the full sums in place, the result block `c + 1`
    after the store reads as head 0's term. -/
def Acc0 (m : (ℓ : Loc nD τ sig) → Buf (Elt F) ℓ) (c : Dev nD) : Prop :=
  ∀ (go : BufTy.Contents (Elt F) rsO.view.ty) (gl : BufTy.Contents (Elt F) rsL.view.ty) (g3 : Buf (Elt F) ((c : Thread nD τ).loc cc0_stg3_0)),
    (dstO 2 false).view.read (Elt F) go = (fun t => KFun.voC m 3 c false (⟨(t 0).val, (t 0).isLt⟩ : Fin 4) (⟨(t 1).val, (t 1).isLt⟩ : Fin 128) (⟨(t 2).val, (t 2).isLt⟩ : Fin 256)) → (dstL 2 false).view.read (Elt F) gl = (fun t => KFun.vlC m 3 c false (⟨(t 0).val, (t 0).isLt⟩ : Fin 4) (⟨(t 2).val, (t 2).isLt⟩ : Fin 256)) →
    ((Memref.whole cc0_stg3_0 : Memref sig .tc .vmem S4x256x1024 .f32).access (rOwn c)).read (Elt F) ((Memref.whole cc0_stg3_0 : Memref sig .tc .vmem S4x256x1024 .f32).view.writes (Elt F) g3 [⟨Rect.unit (s := S4x256x1024) (k0_off24 c 1#32) S1x256x1024.size (k0_off24_inb c 0), k0_pay104 (View.readAt (Elt F) (Memref.whole cc0_scratch2 : Memref sig .tc .vmem S3x8x128x256 .bf16).view (Rect.unit (s := S3x8x128x256) ![2, 0, 0, 0] S1x1x128x256.size inb_S3x8x128x256_S1x1x128x256_2_0_0_0).toLoadRect go) (View.readAt (Elt F) (Memref.whole cc0_scratch3 : Memref sig .tc .vmem S3x8x1x256 .f32).view (Rect.unit (s := S3x8x1x256) ![2, 0, 0, 0] S1x1x1x256.size inb_S3x8x1x256_S1x1x1x256_2_0_0_0).toLoadRect gl) (View.readAt (Elt F) (Memref.whole cc0_scratch8 : Memref sig .tc .vmem S1024x1024 .bf16).view (Rect.unit (s := S1024x1024) ![0, 0] S128x1024.size inb_S1024x1024_S128x1024_0_0).toLoadRect (KFun.wob m c))⟩]) = KFun.acc0 m c

set_option maxHeartbeats 40000000 in
/-- The segment, from the cut before the last merge of hop 1 to the cut before the second output term. -/
theorem segE_ok (m : (ℓ : Loc nD τ sig) → Buf (Elt F) ℓ) (c : Dev nD) (K : Names) (W : Waits sig Unit)
    (v2 v14 v25 v1014 v1015 : BitVec 32) (v1020 : BitVec 1)
    (hM8 : Merge8 m c v14 v25 v1014 v1015 v1020) (hM9 : Merge9 m c v14) (hM10 : Merge10 m c v2) (hAcc : Acc0 m c) :
    At40 m c K W ⊢ wp frame (wpE (defs₀ (F := F)) 𝒱₀ (c : Thread nD τ) none) Set.univ
      (segEProg (F := F) (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v1014 v1015 v1020)
      (fun _ => iprop(∃ W', AtTail m c K W')) := by
  unfold At40 oXfer lXfer invs held heldAs
  simp only [bigSep_xfer]
  iintro ⟨⟨#HIb, ⟨⟨#HIs_o0R, #HIr_o0R, #HIn_o0R⟩, ⟨#HIs_l0R, #HIr_l0R, #HIn_l0R⟩, ⟨#HIs_o0L, #HIr_o0L, #HIn_o0L⟩, ⟨#HIs_l0L, #HIr_l0L, #HIn_l0L⟩, ⟨#HIs_o1R, #HIr_o1R, #HIn_o1R⟩, ⟨#HIs_o1L, #HIr_o1L, #HIn_o1L⟩, ⟨#HIs_l1R, #HIr_l1R, #HIn_l1R⟩, ⟨#HIs_l1L, #HIr_l1L, #HIn_l1L⟩, ⟨#HIs_o2R, #HIr_o2R, #HIn_o2R⟩, ⟨#HIs_o2L, #HIr_o2L, #HIn_o2L⟩, ⟨#HIs_l2R, #HIr_l2R, #HIn_l2R⟩, ⟨#HIs_l2L, #HIr_l2L, #HIn_l2L⟩, ⟨#HIs_g0R, #HIr_g0R, #HIn_g0R⟩, ⟨#HIs_g0L, #HIr_g0L, #HIn_g0L⟩, ⟨#HIs_g1R, #HIr_g1R, #HIn_g1R⟩, ⟨#HIs_g1L, #HIr_g1L, #HIn_g1L⟩, ⟨#HIs_g2R, #HIr_g2R, #HIn_g2R⟩, ⟨#HIs_g2L, #HIr_g2L, #HIn_g2L⟩⟩, #HIbn, #HIbp⟩, #Hlev, HO, ⟨⟨Has_o2R, Har_o2R, Hts_o2R, Htn_o2R, Hc_o2R, Hn_o2R, #Hrs_o2R, #Hrn_o2R⟩, ⟨Has_o2L, Har_o2L, Hts_o2L, Htn_o2L, Hc_o2L, Hn_o2L, #Hrs_o2L, #Hrn_o2L⟩, ⟨Has_l2R, Har_l2R, Hts_l2R, Htn_l2R, Hc_l2R, Hn_l2R, #Hrs_l2R, #Hrn_l2R⟩, ⟨Has_l2L, Har_l2L, Hts_l2L, Htn_l2L, Hc_l2L, Hn_l2L, #Hrs_l2L, #Hrn_l2L⟩⟩, HG, HC, Hcs, Hhbm, Hx, Hwq, Hwo, ⟨%g3, Hout⟩, Hs4, Hs5, Hs6, Hs7, Hs8, Hs9, ⟨HhO0f, ⟨%X6a, HhO0t, %hX6a⟩, ⟨%X6b, HhO1f, %hX6b⟩, ⟨%X6c, HhO1t, %hX6c⟩, HhO2f, HhO2t, HhO3f, HhO3t⟩, ⟨HhL0f, ⟨%X7a, HhL0t, %hX7a⟩, ⟨%X7b, HhL1f, %hX7b⟩, ⟨%X7c, HhL1t, %hX7c⟩, HhL2f, HhL2t, HhL3f, HhL3t⟩, Hd_o0R, Hd_o0L, ⟨%fo1R, Hd_o1R, %ho1R⟩, ⟨%fo1L, Hd_o1L, %ho1L⟩, Hd_l0R, Hd_l0L, ⟨%fl1R, Hd_l1R, %hl1R⟩, ⟨%fl1L, Hd_l1L, %hl1L⟩, ⟨%f23, Hg_ownR, Hg_ownL⟩⟩
  ihave Hout := (Entails.of_eq (whole_pts (F := F) c cc0_stg3_0 g3)) $$ Hout
  have h8_6 := LoopsV.t8_arg6_within c
  have h8_7 := LoopsV.t8_arg7_within c
  have h8_8 := LoopsV.t8_arg8_within
  have h8_9 := LoopsV.t8_arg9_within
  have h9_6 := LoopsV.t9_arg6_within c
  have h9_7 := LoopsV.t9_arg7_within c
  have h9_8 := LoopsV.t9_arg8_within
  have h9_9 := LoopsV.t9_arg9_within
  have h10_6 := LoopsV.t10_arg6_within c
  have h10_7 := LoopsV.t10_arg7_within c
  have h10_8 := LoopsV.t10_arg8_within
  have h10_9 := LoopsV.t10_arg9_within
  rw [show prog.drop 10 = Pay.xfer .o false 2 :: .xfer .o true 2 :: .xfer .l false 2 :: .xfer .l true 2 :: gProg from rfl]
  unfold segEProg
  sl_exec
  iapply (wp_send_o (KFun.V m) c _ false 2 (dev11_eq c) fo1R ho1R (.xfer .o true 2 :: .xfer .l false 2 :: .xfer .l true 2 :: gProg) W (K (c, some (.o, false, 2, true))) (K (toDev c false, some (.o, false, 2, false)))) $$ [HO Hd_o1R Hn_o2R Hts_o2R Htn_o2R]
  · isplitr; · iexact HIs_o2R
    isplitr; · iexact HIn_o2R
    isplitl [Hd_o1R]; · iexact Hd_o1R
    isplitl [Hn_o2R]; · (unfold held; iexact Hn_o2R)
    isplitl [HO]; · iexact HO
    isplitl [Hts_o2R]; · iexact Hts_o2R
    isplitr; · iexact Hrs_o2R
    isplitl [Htn_o2R]; · iexact Htn_o2R
    iexact Hrn_o2R
  iintro ⟨Hcs_o2R, HO⟩
  sl_exec
  have hv8 := hM8 h8_6 h8_7 h8_8 h8_9 X6a X7a fo1L fl1L hX6a hX7a ho1L hl1L
  generalize hgo1L : rsO.view.writes (Elt F) fo1L _ = go1L
  generalize hgl1L : rsL.view.writes (Elt F) fl1L _ = gl1L
  have hv_o2L : (srcO c 2 true).view.read (Elt F) go1L = (KFun.V m).o c 2 true := by rw [← hgo1L]; exact hv8.1
  have hv_l2L : (srcL c 2 true).view.read (Elt F) gl1L = (KFun.V m).l c 2 true := by rw [← hgl1L]; exact hv8.2
  clear hgo1L hgl1L hv8
  iapply (wp_send_o (KFun.V m) c _ true 2 (dev12_eq c) go1L hv_o2L (.xfer .l false 2 :: .xfer .l true 2 :: gProg) W (K (c, some (.o, true, 2, true))) (K (toDev c true, some (.o, true, 2, false)))) $$ [HO Hd_o1L Hn_o2L Hts_o2L Htn_o2L]
  · isplitr; · iexact HIs_o2L
    isplitr; · iexact HIn_o2L
    isplitl [Hd_o1L]; · iexact Hd_o1L
    isplitl [Hn_o2L]; · (unfold held; iexact Hn_o2L)
    isplitl [HO]; · iexact HO
    isplitl [Hts_o2L]; · iexact Hts_o2L
    isplitr; · iexact Hrs_o2L
    isplitl [Htn_o2L]; · iexact Htn_o2L
    iexact Hrn_o2L
  iintro ⟨Hcs_o2L, HO⟩
  sl_exec
  iapply (wp_send_l (KFun.V m) c _ false 2 (dev13_eq c) fl1R hl1R (.xfer .l true 2 :: gProg) W (K (c, some (.l, false, 2, true))) (K (toDev c false, some (.l, false, 2, false)))) $$ [HO Hd_l1R Hn_l2R Hts_l2R Htn_l2R]
  · isplitr; · iexact HIs_l2R
    isplitr; · iexact HIn_l2R
    isplitl [Hd_l1R]; · iexact Hd_l1R
    isplitl [Hn_l2R]; · (unfold held; iexact Hn_l2R)
    isplitl [HO]; · iexact HO
    isplitl [Hts_l2R]; · iexact Hts_l2R
    isplitr; · iexact Hrs_l2R
    isplitl [Htn_l2R]; · iexact Htn_l2R
    iexact Hrn_l2R
  iintro ⟨Hcs_l2R, HO⟩
  sl_exec
  iapply (wp_send_l (KFun.V m) c _ true 2 (dev14_eq c) gl1L hv_l2L gProg W (K (c, some (.l, true, 2, true))) (K (toDev c true, some (.l, true, 2, false)))) $$ [HO Hd_l1L Hn_l2L Hts_l2L Htn_l2L]
  · isplitr; · iexact HIs_l2L
    isplitr; · iexact HIn_l2L
    isplitl [Hd_l1L]; · iexact Hd_l1L
    isplitl [Hn_l2L]; · (unfold held; iexact Hn_l2L)
    isplitl [HO]; · iexact HO
    isplitl [Hts_l2L]; · iexact Hts_l2L
    isplitr; · iexact Hrs_l2L
    isplitl [Htn_l2L]; · iexact Htn_l2L
    iexact Hrn_l2L
  iintro ⟨Hcs_l2L, HO⟩
  sl_exec
  iapply (wp_wait_send (KFun.V m) c .o false 2 (owedOf c gProg) _ (K (c, some (.o, false, 2, true))) (show (dstO 1 false).view.dmaCredit = amt .o from rfl) rfl) $$ [Hcs_o2R HO Has_o2R]
  · isplitr; · iexact HIs_o2R
    isplitl [Hcs_o2R]; · iexact Hcs_o2R
    isplitl [HO]; · iexact HO
    isplitr
    · iapply (mayWait_below c _ gProg (by rw [show lv ((c : Thread nD τ), .dma (sendSem .o false 2)) () = place .o false 2 from lv_send c .o false 2]; decide))
      iexact Hlev
    iexact Has_o2R
  iintro ⟨HO, Hp, Hzs_o2R⟩
  ihave Hp2 := (Entails.of_eq (show sendPay (KFun.V m) c .o false 2 = iprop(∃ f : Buf (Elt F) ((dstO 1 false).view.loc (c : Thread nD τ)), ((dstO 1 false).view.loc (c : Thread nD τ) ↦[(dstO 1 false).view.set]{fullShare} f) ∗ ⌜(dstO 1 false).view.read (Elt F) f = (KFun.V m).o c 2 false⌝) from rfl)) $$ Hp
  icases Hp2 with ⟨%fo1R', Hd_o1R, %ho1R'⟩
  sl_exec
  iapply (wp_wait_recv (KFun.V m) c .o false 2 (owedOf c gProg) _ (K (c, some (.o, false, 2, false))) (show (dstO 2 false).view.dmaCredit = amt .o from rfl) rfl) $$ [Hc_o2R HO Har_o2R]
  · isplitr; · iexact HIr_o2R
    isplitl [Hc_o2R]; · iexact Hc_o2R
    isplitl [HO]; · iexact HO
    isplitr
    · iapply (mayWait_below c _ gProg (by rw [show lv ((c : Thread nD τ), .dma (recvSem .o false 2)) () = place .o false 2 from lv_recv c .o false 2]; decide))
      iexact Hlev
    iexact Har_o2R
  iintro ⟨HO, Hp, Hzr_o2R⟩
  ihave Hp2 := (Entails.of_eq (show recvPay (KFun.V m) c .o false 2 = iprop(∃ f : Buf (Elt F) ((dstO 2 false).view.loc (c : Thread nD τ)), ((dstO 2 false).view.loc (c : Thread nD τ) ↦[(dstO 2 false).view.set]{fullShare} f) ∗ ⌜(dstO 2 false).view.read (Elt F) f = (KFun.V m).o (prv c) 2 false⌝) from rfl)) $$ Hp
  icases Hp2 with ⟨%fo2R, Hd_o2R, %ho2R⟩
  sl_exec
  iapply (wp_wait_send (KFun.V m) c .l false 2 (owedOf c gProg) _ (K (c, some (.l, false, 2, true))) (show (dstL 1 false).view.dmaCredit = amt .l from rfl) rfl) $$ [Hcs_l2R HO Has_l2R]
  · isplitr; · iexact HIs_l2R
    isplitl [Hcs_l2R]; · iexact Hcs_l2R
    isplitl [HO]; · iexact HO
    isplitr
    · iapply (mayWait_below c _ gProg (by rw [show lv ((c : Thread nD τ), .dma (sendSem .l false 2)) () = place .l false 2 from lv_send c .l false 2]; decide))
      iexact Hlev
    iexact Has_l2R
  iintro ⟨HO, Hp, Hzs_l2R⟩
  ihave Hp2 := (Entails.of_eq (show sendPay (KFun.V m) c .l false 2 = iprop(∃ f : Buf (Elt F) ((dstL 1 false).view.loc (c : Thread nD τ)), ((dstL 1 false).view.loc (c : Thread nD τ) ↦[(dstL 1 false).view.set]{fullShare} f) ∗ ⌜(dstL 1 false).view.read (Elt F) f = (KFun.V m).l c 2 false⌝) from rfl)) $$ Hp
  icases Hp2 with ⟨%fl1R', Hd_l1R, %hl1R'⟩
  sl_exec
  iapply (wp_wait_recv (KFun.V m) c .l false 2 (owedOf c gProg) _ (K (c, some (.l, false, 2, false))) (show (dstL 2 false).view.dmaCredit = amt .l from rfl) rfl) $$ [Hc_l2R HO Har_l2R]
  · isplitr; · iexact HIr_l2R
    isplitl [Hc_l2R]; · iexact Hc_l2R
    isplitl [HO]; · iexact HO
    isplitr
    · iapply (mayWait_below c _ gProg (by rw [show lv ((c : Thread nD τ), .dma (recvSem .l false 2)) () = place .l false 2 from lv_recv c .l false 2]; decide))
      iexact Hlev
    iexact Har_l2R
  iintro ⟨HO, Hp, Hzr_l2R⟩
  ihave Hp2 := (Entails.of_eq (show recvPay (KFun.V m) c .l false 2 = iprop(∃ f : Buf (Elt F) ((dstL 2 false).view.loc (c : Thread nD τ)), ((dstL 2 false).view.loc (c : Thread nD τ) ↦[(dstL 2 false).view.set]{fullShare} f) ∗ ⌜(dstL 2 false).view.read (Elt F) f = (KFun.V m).l (prv c) 2 false⌝) from rfl)) $$ Hp
  icases Hp2 with ⟨%fl2R, Hd_l2R, %hl2R⟩
  sl_exec
  generalize hgo2R : rsO.view.writes (Elt F) fo2R _ = go2R
  generalize hgl2R : rsL.view.writes (Elt F) fl2R _ = gl2R
  have hv_o3R : (dstO 2 false).view.read (Elt F) go2R = (fun t => KFun.voC m 3 c false (⟨(t 0).val, (t 0).isLt⟩ : Fin 4) (⟨(t 1).val, (t 1).isLt⟩ : Fin 128) (⟨(t 2).val, (t 2).isLt⟩ : Fin 256)) := by rw [← hgo2R]; exact (hM9 _ h9_6 h9_7 h9_8 h9_9 X6b X7b fo2R fl2R hX6b hX7b ho2R hl2R).1
  have hv_l3R : (dstL 2 false).view.read (Elt F) gl2R = (fun t => KFun.vlC m 3 c false (⟨(t 0).val, (t 0).isLt⟩ : Fin 4) (⟨(t 2).val, (t 2).isLt⟩ : Fin 256)) := by rw [← hgl2R]; exact (hM9 _ h9_6 h9_7 h9_8 h9_9 X6b X7b fo2R fl2R hX6b hX7b ho2R hl2R).2
  clear hgo2R hgl2R
  iapply (wp_wait_send (KFun.V m) c .o true 2 (owedOf c gProg) _ (K (c, some (.o, true, 2, true))) (show (dstO 1 true).view.dmaCredit = amt .o from rfl) rfl) $$ [Hcs_o2L HO Has_o2L]
  · isplitr; · iexact HIs_o2L
    isplitl [Hcs_o2L]; · iexact Hcs_o2L
    isplitl [HO]; · iexact HO
    isplitr
    · iapply (mayWait_below c _ gProg (by rw [show lv ((c : Thread nD τ), .dma (sendSem .o true 2)) () = place .o true 2 from lv_send c .o true 2]; decide))
      iexact Hlev
    iexact Has_o2L
  iintro ⟨HO, Hp, Hzs_o2L⟩
  ihave Hp2 := (Entails.of_eq (show sendPay (KFun.V m) c .o true 2 = iprop(∃ f : Buf (Elt F) ((dstO 1 true).view.loc (c : Thread nD τ)), ((dstO 1 true).view.loc (c : Thread nD τ) ↦[(dstO 1 true).view.set]{fullShare} f) ∗ ⌜(dstO 1 true).view.read (Elt F) f = (KFun.V m).o c 2 true⌝) from rfl)) $$ Hp
  icases Hp2 with ⟨%fo1L', Hd_o1L, %ho1L'⟩
  sl_exec
  iapply (wp_wait_recv (KFun.V m) c .o true 2 (owedOf c gProg) _ (K (c, some (.o, true, 2, false))) (show (dstO 2 true).view.dmaCredit = amt .o from rfl) rfl) $$ [Hc_o2L HO Har_o2L]
  · isplitr; · iexact HIr_o2L
    isplitl [Hc_o2L]; · iexact Hc_o2L
    isplitl [HO]; · iexact HO
    isplitr
    · iapply (mayWait_below c _ gProg (by rw [show lv ((c : Thread nD τ), .dma (recvSem .o true 2)) () = place .o true 2 from lv_recv c .o true 2]; decide))
      iexact Hlev
    iexact Har_o2L
  iintro ⟨HO, Hp, Hzr_o2L⟩
  ihave Hp2 := (Entails.of_eq (show recvPay (KFun.V m) c .o true 2 = iprop(∃ f : Buf (Elt F) ((dstO 2 true).view.loc (c : Thread nD τ)), ((dstO 2 true).view.loc (c : Thread nD τ) ↦[(dstO 2 true).view.set]{fullShare} f) ∗ ⌜(dstO 2 true).view.read (Elt F) f = (KFun.V m).o (nxt c) 2 true⌝) from rfl)) $$ Hp
  icases Hp2 with ⟨%fo2L, Hd_o2L, %ho2L⟩
  sl_exec
  iapply (wp_wait_send (KFun.V m) c .l true 2 (owedOf c gProg) _ (K (c, some (.l, true, 2, true))) (show (dstL 1 true).view.dmaCredit = amt .l from rfl) rfl) $$ [Hcs_l2L HO Has_l2L]
  · isplitr; · iexact HIs_l2L
    isplitl [Hcs_l2L]; · iexact Hcs_l2L
    isplitl [HO]; · iexact HO
    isplitr
    · iapply (mayWait_below c _ gProg (by rw [show lv ((c : Thread nD τ), .dma (sendSem .l true 2)) () = place .l true 2 from lv_send c .l true 2]; decide))
      iexact Hlev
    iexact Has_l2L
  iintro ⟨HO, Hp, Hzs_l2L⟩
  ihave Hp2 := (Entails.of_eq (show sendPay (KFun.V m) c .l true 2 = iprop(∃ f : Buf (Elt F) ((dstL 1 true).view.loc (c : Thread nD τ)), ((dstL 1 true).view.loc (c : Thread nD τ) ↦[(dstL 1 true).view.set]{fullShare} f) ∗ ⌜(dstL 1 true).view.read (Elt F) f = (KFun.V m).l c 2 true⌝) from rfl)) $$ Hp
  icases Hp2 with ⟨%fl1L', Hd_l1L, %hl1L'⟩
  sl_exec
  iapply (wp_wait_recv (KFun.V m) c .l true 2 (owedOf c gProg) _ (K (c, some (.l, true, 2, false))) (show (dstL 2 true).view.dmaCredit = amt .l from rfl) rfl) $$ [Hc_l2L HO Har_l2L]
  · isplitr; · iexact HIr_l2L
    isplitl [Hc_l2L]; · iexact Hc_l2L
    isplitl [HO]; · iexact HO
    isplitr
    · iapply (mayWait_below c _ gProg (by rw [show lv ((c : Thread nD τ), .dma (recvSem .l true 2)) () = place .l true 2 from lv_recv c .l true 2]; decide))
      iexact Hlev
    iexact Har_l2L
  iintro ⟨HO, Hp, Hzr_l2L⟩
  ihave Hp2 := (Entails.of_eq (show recvPay (KFun.V m) c .l true 2 = iprop(∃ f : Buf (Elt F) ((dstL 2 true).view.loc (c : Thread nD τ)), ((dstL 2 true).view.loc (c : Thread nD τ) ↦[(dstL 2 true).view.set]{fullShare} f) ∗ ⌜(dstL 2 true).view.read (Elt F) f = (KFun.V m).l (nxt c) 2 true⌝) from rfl)) $$ Hp
  icases Hp2 with ⟨%fl2L, Hd_l2L, %hl2L⟩
  sl_exec
  generalize hgo2L : rsO.view.writes (Elt F) fo2L _ = go2L
  generalize hgl2L : rsL.view.writes (Elt F) fl2L _ = gl2L
  have hv_o3L : (dstO 2 true).view.read (Elt F) go2L = (fun t => KFun.voC m 3 c true (⟨(t 0).val, (t 0).isLt⟩ : Fin 4) (⟨(t 1).val, (t 1).isLt⟩ : Fin 128) (⟨(t 2).val, (t 2).isLt⟩ : Fin 256)) := by rw [← hgo2L]; exact (hM10 _ _ _ _ _ h10_6 h10_7 h10_8 h10_9 X6c X7c fo2L fl2L hX6c hX7c ho2L hl2L).1
  have hv_l3L : (dstL 2 true).view.read (Elt F) gl2L = (fun t => KFun.vlC m 3 c true (⟨(t 0).val, (t 0).isLt⟩ : Fin 4) (⟨(t 2).val, (t 2).isLt⟩ : Fin 256)) := by rw [← hgl2L]; exact (hM10 _ _ _ _ _ h10_6 h10_7 h10_8 h10_9 X6c X7c fo2L fl2L hX6c hX7c ho2L hl2L).2
  clear hgo2L hgl2L
  have hv_acc := hAcc go2R gl2R g3 hv_o3R hv_l3R
  rw [wp_ret]
  imodintro
  iexists _
  unfold AtTail
  isplitr
  · unfold invs
    simp only [bigSep_xfer]
    isplitr
    · iexact HIb
    isplitr
    · isplitr
      · isplitr; · iexact HIs_o0R
        isplitr; · iexact HIr_o0R
        iexact HIn_o0R
      isplitr
      · isplitr; · iexact HIs_l0R
        isplitr; · iexact HIr_l0R
        iexact HIn_l0R
      isplitr
      · isplitr; · iexact HIs_o0L
        isplitr; · iexact HIr_o0L
        iexact HIn_o0L
      isplitr
      · isplitr; · iexact HIs_l0L
        isplitr; · iexact HIr_l0L
        iexact HIn_l0L
      isplitr
      · isplitr; · iexact HIs_o1R
        isplitr; · iexact HIr_o1R
        iexact HIn_o1R
      isplitr
      · isplitr; · iexact HIs_o1L
        isplitr; · iexact HIr_o1L
        iexact HIn_o1L
      isplitr
      · isplitr; · iexact HIs_l1R
        isplitr; · iexact HIr_l1R
        iexact HIn_l1R
      isplitr
      · isplitr; · iexact HIs_l1L
        isplitr; · iexact HIr_l1L
        iexact HIn_l1L
      isplitr
      · isplitr; · iexact HIs_o2R
        isplitr; · iexact HIr_o2R
        iexact HIn_o2R
      isplitr
      · isplitr; · iexact HIs_o2L
        isplitr; · iexact HIr_o2L
        iexact HIn_o2L
      isplitr
      · isplitr; · iexact HIs_l2R
        isplitr; · iexact HIr_l2R
        iexact HIn_l2R
      isplitr
      · isplitr; · iexact HIs_l2L
        isplitr; · iexact HIr_l2L
        iexact HIn_l2L
      isplitr
      · isplitr; · iexact HIs_g0R
        isplitr; · iexact HIr_g0R
        iexact HIn_g0R
      isplitr
      · isplitr; · iexact HIs_g0L
        isplitr; · iexact HIr_g0L
        iexact HIn_g0L
      isplitr
      · isplitr; · iexact HIs_g1R
        isplitr; · iexact HIr_g1R
        iexact HIn_g1R
      isplitr
      · isplitr; · iexact HIs_g1L
        isplitr; · iexact HIr_g1L
        iexact HIn_g1L
      isplitr
      · isplitr; · iexact HIs_g2R
        isplitr; · iexact HIr_g2R
        iexact HIn_g2R
      isplitr; · iexact HIs_g2L
      isplitr; · iexact HIr_g2L
      iexact HIn_g2L
    isplitr; · iexact HIbn
    iexact HIbp
  isplitr; · iexact Hlev
  isplitl [HO]; · iexact HO
  isplitl [HG]; · iexact HG
  isplitl [HC Hzs_o2R Hzr_o2R Hzs_o2L Hzr_o2L Hzs_l2R Hzr_l2R Hzs_l2L Hzr_l2L]
  · icases HC with ⟨C1, C2, C3, C4, C5, C6, C7, C8⟩
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    unfold closedX
    isplitl [Hzs_o2R Hzr_o2R]
    · isplitl [Hzs_o2R]; · iexact Hzs_o2R
      iexact Hzr_o2R
    isplitl [Hzs_o2L Hzr_o2L]
    · isplitl [Hzs_o2L]; · iexact Hzs_o2L
      iexact Hzr_o2L
    isplitl [Hzs_l2R Hzr_l2R]
    · isplitl [Hzs_l2R]; · iexact Hzs_l2R
      iexact Hzr_l2R
    isplitl [Hzs_l2L]; · iexact Hzs_l2L
    iexact Hzr_l2L
  isplitl [Hcs]; · iexact Hcs
  isplitl [Hhbm]; · iexact Hhbm
  isplitl [Hx]; · iexact Hx
  isplitl [Hwq]; · iexact Hwq
  isplitl [Hwo]; · iexact Hwo
  isplitl [Hout]
  · iexists _
    isplitl [Hout]; · iexact Hout
    ipureintro
    exact hv_acc
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  unfold held heldAs
  isplitl [HhO0f HhO0t HhO1f HhO1t HhO2f HhO2t HhO3f HhO3t]
  · isplitl [HhO0f]; · iexact HhO0f
    isplitl [HhO0t]; · (iexists _; iexact HhO0t)
    isplitl [HhO1f]; · (iexists _; iexact HhO1f)
    isplitl [HhO1t]; · (iexists _; iexact HhO1t)
    isplitl [HhO2f]; · iexact HhO2f
    isplitl [HhO2t]; · iexact HhO2t
    isplitl [HhO3f]; · iexact HhO3f
    iexact HhO3t
  isplitl [HhL0f HhL0t HhL1f HhL1t HhL2f HhL2t HhL3f HhL3t]
  · isplitl [HhL0f]; · iexact HhL0f
    isplitl [HhL0t]; · (iexists _; iexact HhL0t)
    isplitl [HhL1f]; · (iexists _; iexact HhL1f)
    isplitl [HhL1t]; · (iexists _; iexact HhL1t)
    isplitl [HhL2f]; · iexact HhL2f
    isplitl [HhL2t]; · iexact HhL2t
    isplitl [HhL3f]; · iexact HhL3f
    iexact HhL3t
  isplitl [Hd_o2R]
  · iexists _
    isplitl [Hd_o2R]; · iexact Hd_o2R
    ipureintro
    exact hv_o3R
  isplitl [Hd_o2L]
  · iexists _
    isplitl [Hd_o2L]; · iexact Hd_o2L
    ipureintro
    exact hv_o3L
  isplitl [Hd_o0R]; · iexact Hd_o0R
  isplitl [Hd_o0L]; · iexact Hd_o0L
  isplitl [Hd_o1R]; · (iexists _; iexact Hd_o1R)
  isplitl [Hd_o1L]; · (iexists _; iexact Hd_o1L)
  isplitl [Hd_l2R]
  · iexists _
    isplitl [Hd_l2R]; · iexact Hd_l2R
    ipureintro
    exact hv_l3R
  isplitl [Hd_l2L]
  · iexists _
    isplitl [Hd_l2L]; · iexact Hd_l2L
    ipureintro
    exact hv_l3L
  isplitl [Hd_l0R]; · iexact Hd_l0R
  isplitl [Hd_l0L]; · iexact Hd_l0L
  isplitl [Hd_l1R]; · (iexists _; iexact Hd_l1R)
  isplitl [Hd_l1L]; · (iexists _; iexact Hd_l1L)
  iexists f23
  isplitl [Hg_ownR]; · iexact Hg_ownR
  iexact Hg_ownL

end Cert.Kernel.Proto
end
-- ==== Proof.KB.BodyEVal.lean ====
/-
  The values of the body's segment from the last merge of the reduction's second hop to its first output term.

  A merge loop adds, slot by slot, the device's own partial sums to a landing slice: each trip reads its slot, adds the local
  rows, and stores the slot back. The slots are pairwise apart, so a trip reads what the loop found in its slot, and after
  the loop each slot holds that plus the local rows. Read through the landing slice this is the value the schedule names:
  what hop 2 sends (after the merge of hop 1) or the full sums over the four devices (after the merges of hop 2). The first
  output term is head 0's projection of those sums.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.SchedAuto
import proofs.«900754_g7700000000000755_dist_attn_cross_gqa_kvseq_b4_sq256_skv1024_d1024_hq8_dh128_v7x_i4_f32_1_alg».proof.Proof.KB.Unfold
import proofs.«900754_g7700000000000755_dist_attn_cross_gqa_kvseq_b4_sq256_skv1024_d1024_hq8_dh128_v7x_i4_f32_1_alg».proof.Proof.KB.Split
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.Within
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.KB.OpSend
import proofs.«900754_g7700000000000755_dist_attn_cross_gqa_kvseq_b4_sq256_skv1024_d1024_hq8_dh128_v7x_i4_f32_1_alg».proof.Proof.KB.OpWait
import proofs.«900754_g7700000000000755_dist_attn_cross_gqa_kvseq_b4_sq256_skv1024_d1024_hq8_dh128_v7x_i4_f32_1_alg».proof.Proof.KB.KLaunch
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.Bridge
import proofs.«900754_g7700000000000755_dist_attn_cross_gqa_kvseq_b4_sq256_skv1024_d1024_hq8_dh128_v7x_i4_f32_1_alg».proof.Proof.KB.LoopsV
import proofs.«900754_g7700000000000755_dist_attn_cross_gqa_kvseq_b4_sq256_skv1024_d1024_hq8_dh128_v7x_i4_f32_1_alg».proof.Proof.KB.LoopsVFacts
import proofs.«900754_g7700000000000755_dist_attn_cross_gqa_kvseq_b4_sq256_skv1024_d1024_hq8_dh128_v7x_i4_f32_1_alg».proof.Proof.Gen.Kernel.Skeleton
import proofs.«900754_g7700000000000755_dist_attn_cross_gqa_kvseq_b4_sq256_skv1024_d1024_hq8_dh128_v7x_i4_f32_1_alg».proof.Proof.Gen.Kernel.Loops
import proofs.«900754_g7700000000000755_dist_attn_cross_gqa_kvseq_b4_sq256_skv1024_d1024_hq8_dh128_v7x_i4_f32_1_alg».proof.Proof.Gen.Kernel.Points
import proofs.«900754_g7700000000000755_dist_attn_cross_gqa_kvseq_b4_sq256_skv1024_d1024_hq8_dh128_v7x_i4_f32_1_alg».proof.Proof.Gen.Kernel.Frame
import proofs.«900754_g7700000000000755_dist_attn_cross_gqa_kvseq_b4_sq256_skv1024_d1024_hq8_dh128_v7x_i4_f32_1_alg».proof.Proof.KB.Segs
import proofs.«900754_g7700000000000755_dist_attn_cross_gqa_kvseq_b4_sq256_skv1024_d1024_hq8_dh128_v7x_i4_f32_1_alg».proof.Proof.KB.TailSpec
import proofs.«900754_g7700000000000755_dist_attn_cross_gqa_kvseq_b4_sq256_skv1024_d1024_hq8_dh128_v7x_i4_f32_1_alg».proof.Proof.KB.Cut40
import proofs.«900754_g7700000000000755_dist_attn_cross_gqa_kvseq_b4_sq256_skv1024_d1024_hq8_dh128_v7x_i4_f32_1_alg».proof.Proof.KB.Ring
import proofs.«900754_g7700000000000755_dist_attn_cross_gqa_kvseq_b4_sq256_skv1024_d1024_hq8_dh128_v7x_i4_f32_1_alg».proof.Proof.KB.BodyE
import Idealize.ShloMosaic.Lib.Tactic

set_option maxRecDepth 16384

noncomputable section

namespace Cert.Kernel.Proto

open Cert.Kernel Cert.Kernel.Gen Cert.Kernel.Ring
open Idealize.ShloMosaic Idealize.ShloMosaic.TcCoe Idealize.ShloMosaic.Tactic Idealize.ShloMosaic.ValueIdx Cert.Kernel.KFun
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

namespace SegE

/-- Pieces laid down one a trip, the last in front, each trip's payload computed from what its own rectangle holds when the
    trip runs, the rectangles pairwise apart. No earlier trip has touched a trip's rectangle, so each payload is computed
    from the first contents; and through trip `j`'s rectangle the written contents read trip `j`'s payload. -/
theorem read_writes_rmw {κ : Idealize.ShloMosaic.Kind} {sp : Space} {s : Shape} {e : EltTy} {Val : EltTy → Type}
    (v : View sig κ sp s e) (G : v.ty.Contents Val) (n : ℕ)
    (pieceOf : Fin n → v.ty.Contents Val → View.Piece Val s e) (L : ℕ → List (View.Piece Val s e))
    (h0 : L 0 = []) (hs : ∀ k : Fin n, L (k.val + 1) = pieceOf k (v.writes Val G (L k.val)) :: L k.val)
    (hloc : ∀ (k : Fin n) (f : v.ty.Contents Val), (∀ y ∈ (pieceOf k G).1.set, v.read Val f y = v.read Val G y) → pieceOf k f = pieceOf k G)
    (hsep : ∀ k k' : Fin n, k ≠ k' → Disjoint (pieceOf k G).1.set (pieceOf k' G).1.set)
    (j : Fin n) (x : (pieceOf j G).1.shape.Idx) :
    v.read Val (v.writes Val G (L n)) ((pieceOf j G).1.emb x) = (pieceOf j G).2 x := by
  have hmem : ∀ m, m ≤ n → ∀ p, p ∈ L m ↔ ∃ k : Fin n, k.val < m ∧ p = pieceOf k G := by
    intro m
    induction m with
    | zero =>
      intro _ p
      rw [h0]
      exact ⟨fun h => absurd h List.not_mem_nil, fun ⟨k, hk, _⟩ => absurd hk (Nat.not_lt_zero _)⟩
    | succ m ih =>
      intro hm p
      have hm' : m ≤ n := Nat.le_of_succ_le hm
      have hhead : pieceOf ⟨m, hm⟩ (v.writes Val G (L m)) = pieceOf ⟨m, hm⟩ G := by
        refine hloc ⟨m, hm⟩ _ fun y hy => ?_
        refine View.read_writes_apply_of_forall_not_mem v G y (L m) fun q hq hyq => ?_
        obtain ⟨k, hk, rfl⟩ := (ih hm' q).mp hq
        have hne : (⟨m, hm⟩ : Fin n) ≠ k := fun h => by
          have : m = k.val := congrArg Fin.val h
          omega
        exact Finset.disjoint_left.mp (hsep ⟨m, hm⟩ k hne) hy hyq
      rw [hs ⟨m, hm⟩, hhead, List.mem_cons, ih hm']
      constructor
      · rintro (rfl | ⟨k, hk, rfl⟩)
        · exact ⟨⟨m, hm⟩, Nat.lt_succ_self m, rfl⟩
        · exact ⟨k, Nat.lt_succ_of_lt hk, rfl⟩
      · rintro ⟨k, hk, rfl⟩
        rcases Nat.lt_succ_iff_lt_or_eq.mp hk with h | h
        · exact Or.inr ⟨k, h, rfl⟩
        · exact Or.inl (congrArg (fun k => pieceOf k G) (Fin.ext h))
  refine View.read_writes_of_unique v G (pieceOf j G) x (L n) ((hmem n le_rfl _).mpr ⟨j, j.isLt, rfl⟩) fun q hq hx => ?_
  obtain ⟨k', _, rfl⟩ := (hmem n le_rfl q).mp hq
  by_contra hne
  have hk : j ≠ k' := fun h => hne (by rw [h])
  have hx0 : (pieceOf j G).1.emb x ∈ (pieceOf j G).1.set := by
    rw [← Rect.map_emb_univ]; exact Finset.mem_map_of_mem _ (Finset.mem_univ x)
  exact Finset.disjoint_left.mp (hsep j k' hk) hx0 hx

/-- After the loop, the numerators' slot of trip `k` reads as the slot the loop found there plus the local rows: the trips'
    slots are pairwise apart, so no other trip touches it. -/
theorem slotO_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t8_loop.trips) :
    View.readAt (Elt F) rsO.view (Rect.unit (s := S3x8x128x256) (k0_off57 k) S1x1x128x256.size (k0_off57_inb k)).toLoadRect (rsO.view.writes (Elt F) G_arg8 (LoopsV.pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k0_t8_loop.trips).1)
      = k0_pay99 (View.readAt (Elt F) rsO.view (Rect.unit (s := S3x8x128x256) (k0_off57 k) S1x1x128x256.size (k0_off57_inb k)).toLoadRect G_arg8) (View.readAt (Elt F) locO.view (Rect.unit (s := S32x128x256) (k0_off58 d0 k) S1x128x256.size (k0_off58_inb d0 k)).toLoadRect X_arg6) := by
  funext x
  exact read_writes_rmw rsO.view G_arg8 k0_t8_loop.trips
    (fun k f => ⟨(Rect.unit (s := S3x8x128x256) (k0_off57 k) S1x1x128x256.size (k0_off57_inb k)), k0_pay99 (View.readAt (Elt F) rsO.view (Rect.unit (s := S3x8x128x256) (k0_off57 k) S1x1x128x256.size (k0_off57_inb k)).toLoadRect f) (View.readAt (Elt F) locO.view (Rect.unit (s := S32x128x256) (k0_off58 d0 k) S1x128x256.size (k0_off58_inb d0 k)).toLoadRect X_arg6)⟩)
    (fun n => (LoopsV.pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).1) rfl
    (fun k => by rw [LoopsV.pbS_k0_t8_succ, LoopsV.tripLS_k0_t8_eq]; rfl)
    (fun k f h => by
      have e : View.readAt (Elt F) rsO.view (Rect.unit (s := S3x8x128x256) (k0_off57 k) S1x1x128x256.size (k0_off57_inb k)).toLoadRect f = View.readAt (Elt F) rsO.view (Rect.unit (s := S3x8x128x256) (k0_off57 k) S1x1x128x256.size (k0_off57_inb k)).toLoadRect G_arg8 :=
        funext fun x => h _ ((Rect.unit (s := S3x8x128x256) (k0_off57 k) S1x1x128x256.size (k0_off57_inb k)).toLoadRect.idx_mem x)
      beta_reduce
      rw [e])
    (fun k k' hk => Rect.unit_disjoint (inb := k0_off57_inb k) (inb' := k0_off57_inb k') 1 (by
      have hne : k.val ≠ k'.val := fun h => hk (Fin.ext h)
      have e := congrFun (k0_off57_eq k) 1
      have e' := congrFun (k0_off57_eq k') 1
      simp only [Matrix.cons_val_one, Matrix.cons_val_zero, Matrix.head_cons] at e e'
      have hs : S1x1x128x256.size 1 = 1 := rfl
      rw [e, e', hs]
      omega)) k x
/-- The same of the denominators' slot. -/
theorem slotL_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (hS_arg6 : ∀ k : Fin k0_t8_loop.trips, (locO.access (Rect.unit (s := S32x128x256) (k0_off58 d0 k) S1x128x256.size (k0_off58_inb d0 k))).set ⊆ (locHalfO c 0 true).view.set) (hS_arg7 : ∀ k : Fin k0_t8_loop.trips, (locL.access (Rect.unit (s := S32x1x256) (k0_off56 d0 k) S1x1x256.size (k0_off56_inb d0 k))).set ⊆ (locHalfL c 0 true).view.set) (hS_arg8 : ∀ k : Fin k0_t8_loop.trips, (rsO.access (Rect.unit (s := S3x8x128x256) (k0_off57 k) S1x1x128x256.size (k0_off57_inb k))).set ⊆ (dstO 1 true).view.set) (hS_arg9 : ∀ k : Fin k0_t8_loop.trips, (rsL.access (Rect.unit (s := S3x8x1x256) (k0_off55 k) S1x1x1x256.size (k0_off55_inb k))).set ⊆ (dstL 1 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t8_loop.trips) :
    View.readAt (Elt F) rsL.view (Rect.unit (s := S3x8x1x256) (k0_off55 k) S1x1x1x256.size (k0_off55_inb k)).toLoadRect (rsL.view.writes (Elt F) G_arg9 (LoopsV.pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 k0_t8_loop.trips).2)
      = k0_pay98 (View.readAt (Elt F) rsL.view (Rect.unit (s := S3x8x1x256) (k0_off55 k) S1x1x1x256.size (k0_off55_inb k)).toLoadRect G_arg9) (View.readAt (Elt F) locL.view (Rect.unit (s := S32x1x256) (k0_off56 d0 k) S1x1x256.size (k0_off56_inb d0 k)).toLoadRect X_arg7) := by
  funext x
  exact read_writes_rmw rsL.view G_arg9 k0_t8_loop.trips
    (fun k f => ⟨(Rect.unit (s := S3x8x1x256) (k0_off55 k) S1x1x1x256.size (k0_off55_inb k)), k0_pay98 (View.readAt (Elt F) rsL.view (Rect.unit (s := S3x8x1x256) (k0_off55 k) S1x1x1x256.size (k0_off55_inb k)).toLoadRect f) (View.readAt (Elt F) locL.view (Rect.unit (s := S32x1x256) (k0_off56 d0 k) S1x1x256.size (k0_off56_inb d0 k)).toLoadRect X_arg7)⟩)
    (fun n => (LoopsV.pbS_k0_t8 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 hS_arg6 hS_arg7 hS_arg8 hS_arg9 X_arg6 X_arg7 G_arg8 G_arg9 n).2) rfl
    (fun k => by rw [LoopsV.pbS_k0_t8_succ, LoopsV.tripLS_k0_t8_eq]; rfl)
    (fun k f h => by
      have e : View.readAt (Elt F) rsL.view (Rect.unit (s := S3x8x1x256) (k0_off55 k) S1x1x1x256.size (k0_off55_inb k)).toLoadRect f = View.readAt (Elt F) rsL.view (Rect.unit (s := S3x8x1x256) (k0_off55 k) S1x1x1x256.size (k0_off55_inb k)).toLoadRect G_arg9 :=
        funext fun x => h _ ((Rect.unit (s := S3x8x1x256) (k0_off55 k) S1x1x1x256.size (k0_off55_inb k)).toLoadRect.idx_mem x)
      beta_reduce
      rw [e])
    (fun k k' hk => Rect.unit_disjoint (inb := k0_off55_inb k) (inb' := k0_off55_inb k') 1 (by
      have hne : k.val ≠ k'.val := fun h => hk (Fin.ext h)
      have e := congrFun (k0_off55_eq k) 1
      have e' := congrFun (k0_off55_eq k') 1
      simp only [Matrix.cons_val_one, Matrix.cons_val_zero, Matrix.head_cons] at e e'
      have hs : S1x1x1x256.size 1 = 1 := rfl
      rw [e, e', hs]
      omega)) k x

/-- After the loop, the numerators' slot of trip `k` reads as the slot the loop found there plus the local rows: the trips'
    slots are pairwise apart, so no other trip touches it. -/
theorem slotO_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t9_loop.trips) :
    View.readAt (Elt F) rsO.view (Rect.unit (s := S3x8x128x256) (k0_off61 k) S1x1x128x256.size (k0_off61_inb k)).toLoadRect (rsO.view.writes (Elt F) G_arg8 (LoopsV.pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k0_t9_loop.trips).1)
      = k0_pay101 (View.readAt (Elt F) rsO.view (Rect.unit (s := S3x8x128x256) (k0_off61 k) S1x1x128x256.size (k0_off61_inb k)).toLoadRect G_arg8) (View.readAt (Elt F) locO.view (Rect.unit (s := S32x128x256) (k0_off62 d0 k) S1x128x256.size (k0_off62_inb d0 k)).toLoadRect X_arg6) := by
  funext x
  exact read_writes_rmw rsO.view G_arg8 k0_t9_loop.trips
    (fun k f => ⟨(Rect.unit (s := S3x8x128x256) (k0_off61 k) S1x1x128x256.size (k0_off61_inb k)), k0_pay101 (View.readAt (Elt F) rsO.view (Rect.unit (s := S3x8x128x256) (k0_off61 k) S1x1x128x256.size (k0_off61_inb k)).toLoadRect f) (View.readAt (Elt F) locO.view (Rect.unit (s := S32x128x256) (k0_off62 d0 k) S1x128x256.size (k0_off62_inb d0 k)).toLoadRect X_arg6)⟩)
    (fun n => (LoopsV.pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).1) rfl
    (fun k => by rw [LoopsV.pbS_k0_t9_succ, LoopsV.tripLS_k0_t9_eq]; rfl)
    (fun k f h => by
      have e : View.readAt (Elt F) rsO.view (Rect.unit (s := S3x8x128x256) (k0_off61 k) S1x1x128x256.size (k0_off61_inb k)).toLoadRect f = View.readAt (Elt F) rsO.view (Rect.unit (s := S3x8x128x256) (k0_off61 k) S1x1x128x256.size (k0_off61_inb k)).toLoadRect G_arg8 :=
        funext fun x => h _ ((Rect.unit (s := S3x8x128x256) (k0_off61 k) S1x1x128x256.size (k0_off61_inb k)).toLoadRect.idx_mem x)
      beta_reduce
      rw [e])
    (fun k k' hk => Rect.unit_disjoint (inb := k0_off61_inb k) (inb' := k0_off61_inb k') 1 (by
      have hne : k.val ≠ k'.val := fun h => hk (Fin.ext h)
      have e := congrFun (k0_off61_eq k) 1
      have e' := congrFun (k0_off61_eq k') 1
      simp only [Matrix.cons_val_one, Matrix.cons_val_zero, Matrix.head_cons] at e e'
      have hs : S1x1x128x256.size 1 = 1 := rfl
      rw [e, e', hs]
      omega)) k x
/-- The same of the denominators' slot. -/
theorem slotL_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (hS_arg6 : ∀ k : Fin k0_t9_loop.trips, (locO.access (Rect.unit (s := S32x128x256) (k0_off62 d0 k) S1x128x256.size (k0_off62_inb d0 k))).set ⊆ (locHalfO c 1 false).view.set) (hS_arg7 : ∀ k : Fin k0_t9_loop.trips, (locL.access (Rect.unit (s := S32x1x256) (k0_off60 d0 k) S1x1x256.size (k0_off60_inb d0 k))).set ⊆ (locHalfL c 1 false).view.set) (hS_arg8 : ∀ k : Fin k0_t9_loop.trips, (rsO.access (Rect.unit (s := S3x8x128x256) (k0_off61 k) S1x1x128x256.size (k0_off61_inb k))).set ⊆ (dstO 2 false).view.set) (hS_arg9 : ∀ k : Fin k0_t9_loop.trips, (rsL.access (Rect.unit (s := S3x8x1x256) (k0_off59 k) S1x1x1x256.size (k0_off59_inb k))).set ⊆ (dstL 2 false).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t9_loop.trips) :
    View.readAt (Elt F) rsL.view (Rect.unit (s := S3x8x1x256) (k0_off59 k) S1x1x1x256.size (k0_off59_inb k)).toLoadRect (rsL.view.writes (Elt F) G_arg9 (LoopsV.pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 k0_t9_loop.trips).2)
      = k0_pay100 (View.readAt (Elt F) rsL.view (Rect.unit (s := S3x8x1x256) (k0_off59 k) S1x1x1x256.size (k0_off59_inb k)).toLoadRect G_arg9) (View.readAt (Elt F) locL.view (Rect.unit (s := S32x1x256) (k0_off60 d0 k) S1x1x256.size (k0_off60_inb d0 k)).toLoadRect X_arg7) := by
  funext x
  exact read_writes_rmw rsL.view G_arg9 k0_t9_loop.trips
    (fun k f => ⟨(Rect.unit (s := S3x8x1x256) (k0_off59 k) S1x1x1x256.size (k0_off59_inb k)), k0_pay100 (View.readAt (Elt F) rsL.view (Rect.unit (s := S3x8x1x256) (k0_off59 k) S1x1x1x256.size (k0_off59_inb k)).toLoadRect f) (View.readAt (Elt F) locL.view (Rect.unit (s := S32x1x256) (k0_off60 d0 k) S1x1x256.size (k0_off60_inb d0 k)).toLoadRect X_arg7)⟩)
    (fun n => (LoopsV.pbS_k0_t9 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v14 v1092 hS_arg6 hS_arg7 hS_arg8 hS_arg9 X_arg6 X_arg7 G_arg8 G_arg9 n).2) rfl
    (fun k => by rw [LoopsV.pbS_k0_t9_succ, LoopsV.tripLS_k0_t9_eq]; rfl)
    (fun k f h => by
      have e : View.readAt (Elt F) rsL.view (Rect.unit (s := S3x8x1x256) (k0_off59 k) S1x1x1x256.size (k0_off59_inb k)).toLoadRect f = View.readAt (Elt F) rsL.view (Rect.unit (s := S3x8x1x256) (k0_off59 k) S1x1x1x256.size (k0_off59_inb k)).toLoadRect G_arg9 :=
        funext fun x => h _ ((Rect.unit (s := S3x8x1x256) (k0_off59 k) S1x1x1x256.size (k0_off59_inb k)).toLoadRect.idx_mem x)
      beta_reduce
      rw [e])
    (fun k k' hk => Rect.unit_disjoint (inb := k0_off59_inb k) (inb' := k0_off59_inb k') 1 (by
      have hne : k.val ≠ k'.val := fun h => hk (Fin.ext h)
      have e := congrFun (k0_off59_eq k) 1
      have e' := congrFun (k0_off59_eq k') 1
      simp only [Matrix.cons_val_one, Matrix.cons_val_zero, Matrix.head_cons] at e e'
      have hs : S1x1x1x256.size 1 = 1 := rfl
      rw [e, e', hs]
      omega)) k x

/-- After the loop, the numerators' slot of trip `k` reads as the slot the loop found there plus the local rows: the trips'
    slots are pairwise apart, so no other trip touches it. -/
theorem slotO_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t10_loop.trips) :
    View.readAt (Elt F) rsO.view (Rect.unit (s := S3x8x128x256) (k0_off65 k) S1x1x128x256.size (k0_off65_inb k)).toLoadRect (rsO.view.writes (Elt F) G_arg8 (LoopsV.pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k0_t10_loop.trips).1)
      = k0_pay103 (View.readAt (Elt F) rsO.view (Rect.unit (s := S3x8x128x256) (k0_off65 k) S1x1x128x256.size (k0_off65_inb k)).toLoadRect G_arg8) (View.readAt (Elt F) locO.view (Rect.unit (s := S32x128x256) (k0_off66 d0 k) S1x128x256.size (k0_off66_inb d0 k)).toLoadRect X_arg6) := by
  funext x
  exact read_writes_rmw rsO.view G_arg8 k0_t10_loop.trips
    (fun k f => ⟨(Rect.unit (s := S3x8x128x256) (k0_off65 k) S1x1x128x256.size (k0_off65_inb k)), k0_pay103 (View.readAt (Elt F) rsO.view (Rect.unit (s := S3x8x128x256) (k0_off65 k) S1x1x128x256.size (k0_off65_inb k)).toLoadRect f) (View.readAt (Elt F) locO.view (Rect.unit (s := S32x128x256) (k0_off66 d0 k) S1x128x256.size (k0_off66_inb d0 k)).toLoadRect X_arg6)⟩)
    (fun n => (LoopsV.pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).1) rfl
    (fun k => by rw [LoopsV.pbS_k0_t10_succ, LoopsV.tripLS_k0_t10_eq]; rfl)
    (fun k f h => by
      have e : View.readAt (Elt F) rsO.view (Rect.unit (s := S3x8x128x256) (k0_off65 k) S1x1x128x256.size (k0_off65_inb k)).toLoadRect f = View.readAt (Elt F) rsO.view (Rect.unit (s := S3x8x128x256) (k0_off65 k) S1x1x128x256.size (k0_off65_inb k)).toLoadRect G_arg8 :=
        funext fun x => h _ ((Rect.unit (s := S3x8x128x256) (k0_off65 k) S1x1x128x256.size (k0_off65_inb k)).toLoadRect.idx_mem x)
      beta_reduce
      rw [e])
    (fun k k' hk => Rect.unit_disjoint (inb := k0_off65_inb k) (inb' := k0_off65_inb k') 1 (by
      have hne : k.val ≠ k'.val := fun h => hk (Fin.ext h)
      have e := congrFun (k0_off65_eq k) 1
      have e' := congrFun (k0_off65_eq k') 1
      simp only [Matrix.cons_val_one, Matrix.cons_val_zero, Matrix.head_cons] at e e'
      have hs : S1x1x128x256.size 1 = 1 := rfl
      rw [e, e', hs]
      omega)) k x
/-- The same of the denominators' slot. -/
theorem slotL_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (harg8 : rsO.IsWhole) (harg9 : rsL.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (hS_arg6 : ∀ k : Fin k0_t10_loop.trips, (locO.access (Rect.unit (s := S32x128x256) (k0_off66 d0 k) S1x128x256.size (k0_off66_inb d0 k))).set ⊆ (locHalfO c 1 true).view.set) (hS_arg7 : ∀ k : Fin k0_t10_loop.trips, (locL.access (Rect.unit (s := S32x1x256) (k0_off64 d0 k) S1x1x256.size (k0_off64_inb d0 k))).set ⊆ (locHalfL c 1 true).view.set) (hS_arg8 : ∀ k : Fin k0_t10_loop.trips, (rsO.access (Rect.unit (s := S3x8x128x256) (k0_off65 k) S1x1x128x256.size (k0_off65_inb k))).set ⊆ (dstO 2 true).view.set) (hS_arg9 : ∀ k : Fin k0_t10_loop.trips, (rsL.access (Rect.unit (s := S3x8x1x256) (k0_off63 k) S1x1x1x256.size (k0_off63_inb k))).set ⊆ (dstL 2 true).view.set) (X_arg6 : BufTy.Contents (Elt F) locO.view.ty) (X_arg7 : BufTy.Contents (Elt F) locL.view.ty) (G_arg8 : BufTy.Contents (Elt F) rsO.view.ty) (G_arg9 : BufTy.Contents (Elt F) rsL.view.ty) (k : Fin k0_t10_loop.trips) :
    View.readAt (Elt F) rsL.view (Rect.unit (s := S3x8x1x256) (k0_off63 k) S1x1x1x256.size (k0_off63_inb k)).toLoadRect (rsL.view.writes (Elt F) G_arg9 (LoopsV.pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 k0_t10_loop.trips).2)
      = k0_pay102 (View.readAt (Elt F) rsL.view (Rect.unit (s := S3x8x1x256) (k0_off63 k) S1x1x1x256.size (k0_off63_inb k)).toLoadRect G_arg9) (View.readAt (Elt F) locL.view (Rect.unit (s := S32x1x256) (k0_off64 d0 k) S1x1x256.size (k0_off64_inb d0 k)).toLoadRect X_arg7) := by
  funext x
  exact read_writes_rmw rsL.view G_arg9 k0_t10_loop.trips
    (fun k f => ⟨(Rect.unit (s := S3x8x1x256) (k0_off63 k) S1x1x1x256.size (k0_off63_inb k)), k0_pay102 (View.readAt (Elt F) rsL.view (Rect.unit (s := S3x8x1x256) (k0_off63 k) S1x1x1x256.size (k0_off63_inb k)).toLoadRect f) (View.readAt (Elt F) locL.view (Rect.unit (s := S32x1x256) (k0_off64 d0 k) S1x1x256.size (k0_off64_inb d0 k)).toLoadRect X_arg7)⟩)
    (fun n => (LoopsV.pbS_k0_t10 (F := F) 𝒱 c bd arg0 harg0 arg1 harg1 arg2 harg2 arg3 harg3 arg4 harg4 arg5 harg5 harg6 harg7 harg8 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 hS_arg6 hS_arg7 hS_arg8 hS_arg9 X_arg6 X_arg7 G_arg8 G_arg9 n).2) rfl
    (fun k => by rw [LoopsV.pbS_k0_t10_succ, LoopsV.tripLS_k0_t10_eq]; rfl)
    (fun k f h => by
      have e : View.readAt (Elt F) rsL.view (Rect.unit (s := S3x8x1x256) (k0_off63 k) S1x1x1x256.size (k0_off63_inb k)).toLoadRect f = View.readAt (Elt F) rsL.view (Rect.unit (s := S3x8x1x256) (k0_off63 k) S1x1x1x256.size (k0_off63_inb k)).toLoadRect G_arg9 :=
        funext fun x => h _ ((Rect.unit (s := S3x8x1x256) (k0_off63 k) S1x1x1x256.size (k0_off63_inb k)).toLoadRect.idx_mem x)
      beta_reduce
      rw [e])
    (fun k k' hk => Rect.unit_disjoint (inb := k0_off63_inb k) (inb' := k0_off63_inb k') 1 (by
      have hne : k.val ≠ k'.val := fun h => hk (Fin.ext h)
      have e := congrFun (k0_off63_eq k) 1
      have e' := congrFun (k0_off63_eq k') 1
      simp only [Matrix.cons_val_one, Matrix.cons_val_zero, Matrix.head_cons] at e e'
      have hs : S1x1x1x256.size 1 = 1 := rfl
      rw [e, e', hs]
      omega)) k x

section Rows
variable (c : Dev nD)

/-- One head's tile of the ring's numerators, read at the whole buffer: stage `a`, slot `b`. -/
theorem rsO_row_read (off : Fin 4 → ℕ) (a b : ℕ) (hoff : off = ![a, b, 0, 0]) (inb : ∀ x, off x + S1x1x128x256.size x ≤ S3x8x128x256.size x)
    (f : Buf (Elt F) ((c : Thread nD τ).loc cc0_scratch2)) (s : S1x1x128x256.Idx) :
    View.readAt (Elt F) rsO.view (Rect.unit (s := S3x8x128x256) off S1x1x128x256.size inb).toLoadRect f s
      = f (ix4 (⟨a, by subst hoff; have := inb 0; simp at this; omega⟩ : Fin 3) (⟨b, by subst hoff; have := inb 1; simp at this; omega⟩ : Fin 8)
          (⟨(s 2).val, (s 2).isLt⟩ : Fin 128) (⟨(s 3).val, (s 3).isLt⟩ : Fin 256)) := by
  subst hoff
  rw [View.readAt_apply, View.read_apply]
  show f _ = f _
  refine congrArg f (funext fun x => Fin.ext ?_)
  have h0 : (s 0).val < 1 := (s 0).isLt
  have h1 : (s 1).val < 1 := (s 1).isLt
  match x with
  | ⟨0, _⟩ => show a + 1 * (s 0).val = a; omega
  | ⟨1, _⟩ => show b + 1 * (s 1).val = b; omega
  | ⟨2, _⟩ => show 0 + 1 * (s 2).val = (s 2).val; omega
  | ⟨3, _⟩ => show 0 + 1 * (s 3).val = (s 3).val; omega

/-- One head's row of the ring's denominators. -/
theorem rsL_row_read (off : Fin 4 → ℕ) (a b : ℕ) (hoff : off = ![a, b, 0, 0]) (inb : ∀ x, off x + S1x1x1x256.size x ≤ S3x8x1x256.size x)
    (f : Buf (Elt F) ((c : Thread nD τ).loc cc0_scratch3)) (s : S1x1x1x256.Idx) :
    View.readAt (Elt F) rsL.view (Rect.unit (s := S3x8x1x256) off S1x1x1x256.size inb).toLoadRect f s
      = f (ix4 (⟨a, by subst hoff; have := inb 0; simp at this; omega⟩ : Fin 3) (⟨b, by subst hoff; have := inb 1; simp at this; omega⟩ : Fin 8)
          (0 : Fin 1) (⟨(s 3).val, (s 3).isLt⟩ : Fin 256)) := by
  subst hoff
  rw [View.readAt_apply, View.read_apply]
  show f _ = f _
  refine congrArg f (funext fun x => Fin.ext ?_)
  have h0 : (s 0).val < 1 := (s 0).isLt
  have h1 : (s 1).val < 1 := (s 1).isLt
  have h2 : (s 2).val < 1 := (s 2).isLt
  match x with
  | ⟨0, _⟩ => show a + 1 * (s 0).val = a; omega
  | ⟨1, _⟩ => show b + 1 * (s 1).val = b; omega
  | ⟨2, _⟩ => show 0 + 1 * (s 2).val = 0; omega
  | ⟨3, _⟩ => show 0 + 1 * (s 3).val = (s 3).val; omega

/-- One head's tile of the device's own numerators, read at the whole buffer: row `a`. -/
theorem locO_row_read (off : Fin 3 → ℕ) (a : ℕ) (hoff : off = ![a, 0, 0]) (inb : ∀ x, off x + S1x128x256.size x ≤ S32x128x256.size x)
    (f : Buf (Elt F) ((c : Thread nD τ).loc cc0_scratch0)) (s : S1x128x256.Idx) :
    View.readAt (Elt F) locO.view (Rect.unit (s := S32x128x256) off S1x128x256.size inb).toLoadRect f s
      = f (ix3 (⟨a, by subst hoff; have := inb 0; simp at this; omega⟩ : Fin 32) (⟨(s 1).val, (s 1).isLt⟩ : Fin 128) (⟨(s 2).val, (s 2).isLt⟩ : Fin 256)) := by
  subst hoff
  rw [View.readAt_apply, View.read_apply]
  show f _ = f _
  refine congrArg f (funext fun x => Fin.ext ?_)
  have h0 : (s 0).val < 1 := (s 0).isLt
  match x with
  | ⟨0, _⟩ => show a + 1 * (s 0).val = a; omega
  | ⟨1, _⟩ => show 0 + 1 * (s 1).val = (s 1).val; omega
  | ⟨2, _⟩ => show 0 + 1 * (s 2).val = (s 2).val; omega

/-- and of its denominators. -/
theorem locL_row_read (off : Fin 3 → ℕ) (a : ℕ) (hoff : off = ![a, 0, 0]) (inb : ∀ x, off x + S1x1x256.size x ≤ S32x1x256.size x)
    (f : Buf (Elt F) ((c : Thread nD τ).loc cc0_scratch1)) (s : S1x1x256.Idx) :
    View.readAt (Elt F) locL.view (Rect.unit (s := S32x1x256) off S1x1x256.size inb).toLoadRect f s
      = f (ix3 (⟨a, by subst hoff; have := inb 0; simp at this; omega⟩ : Fin 32) (0 : Fin 1) (⟨(s 2).val, (s 2).isLt⟩ : Fin 256)) := by
  subst hoff
  rw [View.readAt_apply, View.read_apply]
  show f _ = f _
  refine congrArg f (funext fun x => Fin.ext ?_)
  have h0 : (s 0).val < 1 := (s 0).isLt
  have h1 : (s 1).val < 1 := (s 1).isLt
  match x with
  | ⟨0, _⟩ => show a + 1 * (s 0).val = a; omega
  | ⟨1, _⟩ => show 0 + 1 * (s 1).val = 0; omega
  | ⟨2, _⟩ => show 0 + 1 * (s 2).val = (s 2).val; omega

end Rows

section Halves
variable (c : Dev nD)
/-- A half block of the device's own numerators, read at the whole buffer. -/
theorem halfO_read (j : Fin 4) (hb : Bool) (f : Buf (Elt F) ((c : Thread nD τ).loc cc0_scratch0)) (k : Fin 4) (d : Fin 128) (i : Fin 256) :
    (locHalfO c j hb).view.read (Elt F) f (ix3 k d i)
      = f (ix3 (⟨halfRow c j hb + k.val, by have := halfRow_le c j hb; omega⟩ : Fin 32) d i) :=
  locO_slice_read ![halfRow c j hb, 0, 0] (halfRow c j hb) rfl (halfO_inb _ (halfRow_le c j hb)) c f k d i
/-- and of its denominators. -/
theorem halfL_read (j : Fin 4) (hb : Bool) (f : Buf (Elt F) ((c : Thread nD τ).loc cc0_scratch1)) (k : Fin 4) (u : Fin 1) (i : Fin 256) :
    (locHalfL c j hb).view.read (Elt F) f (ix3 k u i)
      = f (ix3 (⟨halfRow c j hb + k.val, by have := halfRow_le c j hb; omega⟩ : Fin 32) u i) :=
  locL_slice_read ![halfRow c j hb, 0, 0] (halfRow c j hb) rfl (halfL_inb _ (halfRow_le c j hb)) c f k u i
end Halves

theorem trips8 : k0_t8_loop.trips = 4 := by decide +kernel

section M8
variable (m : (ℓ : Loc nD τ sig) → Buf (Elt F) ℓ) (c : Dev nD)

theorem merge8_o (v14 v25 v1014 v1015 : BitVec 32) (v1020 : BitVec 1)
    (h6 : ∀ k : Fin k0_t8_loop.trips, (locO.access (Rect.unit (s := S32x128x256) (k0_off58 c k) S1x128x256.size (k0_off58_inb c k))).set ⊆ (locHalfO c 0 true).view.set) (h7 : ∀ k : Fin k0_t8_loop.trips, (locL.access (Rect.unit (s := S32x1x256) (k0_off56 c k) S1x1x256.size (k0_off56_inb c k))).set ⊆ (locHalfL c 0 true).view.set) (h8 : ∀ k : Fin k0_t8_loop.trips, (rsO.access (Rect.unit (s := S3x8x128x256) (k0_off57 k) S1x1x128x256.size (k0_off57_inb k))).set ⊆ (dstO 1 true).view.set) (h9 : ∀ k : Fin k0_t8_loop.trips, (rsL.access (Rect.unit (s := S3x8x1x256) (k0_off55 k) S1x1x1x256.size (k0_off55_inb k))).set ⊆ (dstL 1 true).view.set) (X6 : BufTy.Contents (Elt F) locO.view.ty) (X7 : BufTy.Contents (Elt F) locL.view.ty) (G8 : BufTy.Contents (Elt F) rsO.view.ty) (G9 : BufTy.Contents (Elt F) rsL.view.ty)
    (hX6 : (locHalfO c 0 true).view.read (Elt F) X6 = halfOt m c (c) true)
    (hG8 : (dstO 1 true).view.read (Elt F) G8 = (KFun.V m).o (nxt c) 1 true) :
    (dstO 1 true).view.read (Elt F) (rsO.view.writes (Elt F) G8 (LoopsV.pbS_k0_t8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 k0_t8_loop.trips).1) = (KFun.V m).o c 2 true := by
  refine vo_succ_of_slots m c 1 true _ fun k d i => ?_
  have hk : k.val < k0_t8_loop.trips := by rw [trips8]; exact k.isLt
  have hc : c.val < 4 := c.isLt
  have hslot := congrFun (slotO_t8 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 ⟨k.val, hk⟩) (ix4 0 0 d i)
  rw [rsO_row_read c _ 1 (k.val + 4) (k0_off57_eq ⟨k.val, hk⟩)] at hslot
  have ha : View.readAt (Elt F) rsO.view (Rect.unit (s := S3x8x128x256) (k0_off57 ⟨k.val, hk⟩) S1x1x128x256.size (k0_off57_inb ⟨k.val, hk⟩)).toLoadRect G8
      = fun s : S1x1x128x256.Idx => (KFun.V m).o (fromDev c true) (1 : Fin 2).castSucc true (ix3 k (⟨(s 2).val, (s 2).isLt⟩ : Fin 128) (⟨(s 3).val, (s 3).isLt⟩ : Fin 256)) := by
    funext s
    rw [rsO_row_read c _ 1 (k.val + 4) (k0_off57_eq ⟨k.val, hk⟩)]
    have := congrFun hG8 (ix3 k (⟨(s 2).val, (s 2).isLt⟩ : Fin 128) (⟨(s 3).val, (s 3).isLt⟩ : Fin 256))
    rw [dstO_read_1t c] at this
    exact this
  have hb : View.readAt (Elt F) locO.view (Rect.unit (s := S32x128x256) (k0_off58 c ⟨k.val, hk⟩) S1x128x256.size (k0_off58_inb c ⟨k.val, hk⟩)).toLoadRect X6
      = ot m c (mergeBatch 1 true c) (headAt true k) := by
    funext s
    rw [locO_row_read c _ (8 * c.val + (k.val + 4)) (off58_eq c ⟨k.val, hk⟩)]
    have := congrFun hX6 (ix3 k (⟨(s 1).val, (s 1).isLt⟩ : Fin 128) (⟨(s 2).val, (s 2).isLt⟩ : Fin 256))
    rw [halfO_read c] at this
    have e : halfRow c 0 true = 8 * ((c.val + 0) % 4) + 4 := rfl
    have e2 : (⟨halfRow c 0 true + k.val, by have := halfRow_le c 0 true; omega⟩ : Fin 32) = ⟨8 * c.val + (k.val + 4), by omega⟩ := Fin.ext (by show halfRow c 0 true + k.val = 8 * c.val + (k.val + 4); omega)
    rw [e2] at this
    refine this.trans ?_
    show ot m c (c) (headAt true k) _ = ot m c (c) (headAt true k) s
    refine congrArg _ (funext fun x => Fin.ext ?_)
    have h0 : (s 0).val < 1 := (s 0).isLt
    match x with
    | ⟨0, _⟩ => show 0 = (s 0).val; omega
    | ⟨1, _⟩ => rfl
    | ⟨2, _⟩ => rfl
  rw [ha, hb] at hslot
  show (dstO 1 true).view.read (Elt F) _ (ix3 k d i) = _
  rw [dstO_read_1t c]
  exact hslot

theorem merge8_l (v14 v25 v1014 v1015 : BitVec 32) (v1020 : BitVec 1)
    (h6 : ∀ k : Fin k0_t8_loop.trips, (locO.access (Rect.unit (s := S32x128x256) (k0_off58 c k) S1x128x256.size (k0_off58_inb c k))).set ⊆ (locHalfO c 0 true).view.set) (h7 : ∀ k : Fin k0_t8_loop.trips, (locL.access (Rect.unit (s := S32x1x256) (k0_off56 c k) S1x1x256.size (k0_off56_inb c k))).set ⊆ (locHalfL c 0 true).view.set) (h8 : ∀ k : Fin k0_t8_loop.trips, (rsO.access (Rect.unit (s := S3x8x128x256) (k0_off57 k) S1x1x128x256.size (k0_off57_inb k))).set ⊆ (dstO 1 true).view.set) (h9 : ∀ k : Fin k0_t8_loop.trips, (rsL.access (Rect.unit (s := S3x8x1x256) (k0_off55 k) S1x1x1x256.size (k0_off55_inb k))).set ⊆ (dstL 1 true).view.set) (X6 : BufTy.Contents (Elt F) locO.view.ty) (X7 : BufTy.Contents (Elt F) locL.view.ty) (G8 : BufTy.Contents (Elt F) rsO.view.ty) (G9 : BufTy.Contents (Elt F) rsL.view.ty)
    (hX7 : (locHalfL c 0 true).view.read (Elt F) X7 = halfLr m c (c) true)
    (hG9 : (dstL 1 true).view.read (Elt F) G9 = (KFun.V m).l (nxt c) 1 true) :
    (dstL 1 true).view.read (Elt F) (rsL.view.writes (Elt F) G9 (LoopsV.pbS_k0_t8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 k0_t8_loop.trips).2) = (KFun.V m).l c 2 true := by
  refine vl_succ_of_slots m c 1 true _ fun k i => ?_
  have hk : k.val < k0_t8_loop.trips := by rw [trips8]; exact k.isLt
  have hc : c.val < 4 := c.isLt
  have hslot := congrFun (slotL_t8 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1014 v1015 v1020 h6 h7 h8 h9 X6 X7 G8 G9 ⟨k.val, hk⟩) (ix4 0 0 0 i)
  rw [rsL_row_read c _ 1 (k.val + 4) (k0_off55_eq ⟨k.val, hk⟩)] at hslot
  have ha : View.readAt (Elt F) rsL.view (Rect.unit (s := S3x8x1x256) (k0_off55 ⟨k.val, hk⟩) S1x1x1x256.size (k0_off55_inb ⟨k.val, hk⟩)).toLoadRect G9
      = fun s : S1x1x1x256.Idx => (KFun.V m).l (fromDev c true) (1 : Fin 2).castSucc true (ix3 k (0 : Fin 1) (⟨(s 3).val, (s 3).isLt⟩ : Fin 256)) := by
    funext s
    rw [rsL_row_read c _ 1 (k.val + 4) (k0_off55_eq ⟨k.val, hk⟩)]
    have := congrFun hG9 (ix3 k (0 : Fin 1) (⟨(s 3).val, (s 3).isLt⟩ : Fin 256))
    rw [dstL_read_1t c] at this
    exact this
  have hb : View.readAt (Elt F) locL.view (Rect.unit (s := S32x1x256) (k0_off56 c ⟨k.val, hk⟩) S1x1x256.size (k0_off56_inb c ⟨k.val, hk⟩)).toLoadRect X7
      = lrow m c (mergeBatch 1 true c) (headAt true k) := by
    funext s
    rw [locL_row_read c _ (8 * c.val + (k.val + 4)) (off56_eq c ⟨k.val, hk⟩)]
    have := congrFun hX7 (ix3 k (0 : Fin 1) (⟨(s 2).val, (s 2).isLt⟩ : Fin 256))
    rw [halfL_read c] at this
    have e : halfRow c 0 true = 8 * ((c.val + 0) % 4) + 4 := rfl
    have e2 : (⟨halfRow c 0 true + k.val, by have := halfRow_le c 0 true; omega⟩ : Fin 32) = ⟨8 * c.val + (k.val + 4), by omega⟩ := Fin.ext (by show halfRow c 0 true + k.val = 8 * c.val + (k.val + 4); omega)
    rw [e2] at this
    refine this.trans ?_
    show lrow m c (c) (headAt true k) _ = lrow m c (c) (headAt true k) s
    refine congrArg _ (funext fun x => Fin.ext ?_)
    have h0 : (s 0).val < 1 := (s 0).isLt
    have h1 : (s 1).val < 1 := (s 1).isLt
    match x with
    | ⟨0, _⟩ => show 0 = (s 0).val; omega
    | ⟨1, _⟩ => show 0 = (s 1).val; omega
    | ⟨2, _⟩ => rfl
  rw [ha, hb] at hslot
  show (dstL 1 true).view.read (Elt F) _ (ix3 k (0 : Fin 1) i) = _
  rw [dstL_read_1t c]
  exact hslot

end M8

theorem trips9 : k0_t9_loop.trips = 4 := by decide +kernel

section M9
variable (m : (ℓ : Loc nD τ sig) → Buf (Elt F) ℓ) (c : Dev nD)

theorem merge9_o (v14 w : BitVec 32)
    (h6 : ∀ k : Fin k0_t9_loop.trips, (locO.access (Rect.unit (s := S32x128x256) (k0_off62 c k) S1x128x256.size (k0_off62_inb c k))).set ⊆ (locHalfO c 1 false).view.set) (h7 : ∀ k : Fin k0_t9_loop.trips, (locL.access (Rect.unit (s := S32x1x256) (k0_off60 c k) S1x1x256.size (k0_off60_inb c k))).set ⊆ (locHalfL c 1 false).view.set) (h8 : ∀ k : Fin k0_t9_loop.trips, (rsO.access (Rect.unit (s := S3x8x128x256) (k0_off61 k) S1x1x128x256.size (k0_off61_inb k))).set ⊆ (dstO 2 false).view.set) (h9 : ∀ k : Fin k0_t9_loop.trips, (rsL.access (Rect.unit (s := S3x8x1x256) (k0_off59 k) S1x1x1x256.size (k0_off59_inb k))).set ⊆ (dstL 2 false).view.set) (X6 : BufTy.Contents (Elt F) locO.view.ty) (X7 : BufTy.Contents (Elt F) locL.view.ty) (G8 : BufTy.Contents (Elt F) rsO.view.ty) (G9 : BufTy.Contents (Elt F) rsL.view.ty)
    (hX6 : (locHalfO c 1 false).view.read (Elt F) X6 = halfOt m c (nxt c) false)
    (hG8 : (dstO 2 false).view.read (Elt F) G8 = (KFun.V m).o (prv c) 2 false) :
    (dstO 2 false).view.read (Elt F) (rsO.view.writes (Elt F) G8 (LoopsV.pbS_k0_t9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 k0_t9_loop.trips).1) = (fun t => KFun.voC m 3 c false (⟨(t 0).val, (t 0).isLt⟩ : Fin 4) (⟨(t 1).val, (t 1).isLt⟩ : Fin 128) (⟨(t 2).val, (t 2).isLt⟩ : Fin 256)) := by
  funext t
  obtain ⟨k, d, i, rfl⟩ : ∃ (k : Fin 4) (d : Fin 128) (i : Fin 256), t = ix3 k d i := ⟨t 0, t 1, t 2, eq_ix3 t⟩
  show _ = k0_pay76 (fun s : S1x1x128x256.Idx => voC m 2 (fromDev c false) false k (⟨(s 2).val, (s 2).isLt⟩ : Fin 128) (⟨(s 3).val, (s 3).isLt⟩ : Fin 256)) (ot m c (mergeBatch 2 false c) (headAt false k)) (ix4 0 0 d i)
  have hk : k.val < k0_t9_loop.trips := by rw [trips9]; exact k.isLt
  have hc : c.val < 4 := c.isLt
  have hslot := congrFun (slotO_t9 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 ⟨k.val, hk⟩) (ix4 0 0 d i)
  rw [rsO_row_read c _ 2 (k.val) (k0_off61_eq ⟨k.val, hk⟩)] at hslot
  have ha : View.readAt (Elt F) rsO.view (Rect.unit (s := S3x8x128x256) (k0_off61 ⟨k.val, hk⟩) S1x1x128x256.size (k0_off61_inb ⟨k.val, hk⟩)).toLoadRect G8
      = fun s : S1x1x128x256.Idx => voC m 2 (fromDev c false) false k (⟨(s 2).val, (s 2).isLt⟩ : Fin 128) (⟨(s 3).val, (s 3).isLt⟩ : Fin 256) := by
    funext s
    rw [rsO_row_read c _ 2 (k.val) (k0_off61_eq ⟨k.val, hk⟩)]
    have := congrFun hG8 (ix3 k (⟨(s 2).val, (s 2).isLt⟩ : Fin 128) (⟨(s 3).val, (s 3).isLt⟩ : Fin 256))
    rw [dstO_read_2f c] at this
    exact this
  have hb : View.readAt (Elt F) locO.view (Rect.unit (s := S32x128x256) (k0_off62 c ⟨k.val, hk⟩) S1x128x256.size (k0_off62_inb c ⟨k.val, hk⟩)).toLoadRect X6
      = ot m c (mergeBatch 2 false c) (headAt false k) := by
    funext s
    rw [locO_row_read c _ (8 * ((c.val + 1) % 4) + k.val) (off62_eq c ⟨k.val, hk⟩)]
    have := congrFun hX6 (ix3 k (⟨(s 1).val, (s 1).isLt⟩ : Fin 128) (⟨(s 2).val, (s 2).isLt⟩ : Fin 256))
    rw [halfO_read c] at this
    have e : halfRow c 1 false = 8 * ((c.val + 1) % 4) + 0 := rfl
    have e2 : (⟨halfRow c 1 false + k.val, by have := halfRow_le c 1 false; omega⟩ : Fin 32) = ⟨8 * ((c.val + 1) % 4) + k.val, by omega⟩ := Fin.ext (by show halfRow c 1 false + k.val = 8 * ((c.val + 1) % 4) + k.val; omega)
    rw [e2] at this
    refine this.trans ?_
    show ot m c (nxt c) (headAt false k) _ = ot m c (nxt c) (headAt false k) s
    refine congrArg _ (funext fun x => Fin.ext ?_)
    have h0 : (s 0).val < 1 := (s 0).isLt
    match x with
    | ⟨0, _⟩ => show 0 = (s 0).val; omega
    | ⟨1, _⟩ => rfl
    | ⟨2, _⟩ => rfl
  rw [ha, hb] at hslot
  show (dstO 2 false).view.read (Elt F) _ (ix3 k d i) = _
  rw [dstO_read_2f c]
  exact hslot

theorem merge9_l (v14 w : BitVec 32)
    (h6 : ∀ k : Fin k0_t9_loop.trips, (locO.access (Rect.unit (s := S32x128x256) (k0_off62 c k) S1x128x256.size (k0_off62_inb c k))).set ⊆ (locHalfO c 1 false).view.set) (h7 : ∀ k : Fin k0_t9_loop.trips, (locL.access (Rect.unit (s := S32x1x256) (k0_off60 c k) S1x1x256.size (k0_off60_inb c k))).set ⊆ (locHalfL c 1 false).view.set) (h8 : ∀ k : Fin k0_t9_loop.trips, (rsO.access (Rect.unit (s := S3x8x128x256) (k0_off61 k) S1x1x128x256.size (k0_off61_inb k))).set ⊆ (dstO 2 false).view.set) (h9 : ∀ k : Fin k0_t9_loop.trips, (rsL.access (Rect.unit (s := S3x8x1x256) (k0_off59 k) S1x1x1x256.size (k0_off59_inb k))).set ⊆ (dstL 2 false).view.set) (X6 : BufTy.Contents (Elt F) locO.view.ty) (X7 : BufTy.Contents (Elt F) locL.view.ty) (G8 : BufTy.Contents (Elt F) rsO.view.ty) (G9 : BufTy.Contents (Elt F) rsL.view.ty)
    (hX7 : (locHalfL c 1 false).view.read (Elt F) X7 = halfLr m c (nxt c) false)
    (hG9 : (dstL 2 false).view.read (Elt F) G9 = (KFun.V m).l (prv c) 2 false) :
    (dstL 2 false).view.read (Elt F) (rsL.view.writes (Elt F) G9 (LoopsV.pbS_k0_t9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 k0_t9_loop.trips).2) = (fun t => KFun.vlC m 3 c false (⟨(t 0).val, (t 0).isLt⟩ : Fin 4) (⟨(t 2).val, (t 2).isLt⟩ : Fin 256)) := by
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  show _ = k0_pay75 (fun s : S1x1x1x256.Idx => vlC m 2 (fromDev c false) false k (⟨(s 3).val, (s 3).isLt⟩ : Fin 256)) (lrow m c (mergeBatch 2 false c) (headAt false k)) (ix4 0 0 0 i)
  have hk : k.val < k0_t9_loop.trips := by rw [trips9]; exact k.isLt
  have hc : c.val < 4 := c.isLt
  have hslot := congrFun (slotL_t9 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 w h6 h7 h8 h9 X6 X7 G8 G9 ⟨k.val, hk⟩) (ix4 0 0 0 i)
  rw [rsL_row_read c _ 2 (k.val) (k0_off59_eq ⟨k.val, hk⟩)] at hslot
  have ha : View.readAt (Elt F) rsL.view (Rect.unit (s := S3x8x1x256) (k0_off59 ⟨k.val, hk⟩) S1x1x1x256.size (k0_off59_inb ⟨k.val, hk⟩)).toLoadRect G9
      = fun s : S1x1x1x256.Idx => vlC m 2 (fromDev c false) false k (⟨(s 3).val, (s 3).isLt⟩ : Fin 256) := by
    funext s
    rw [rsL_row_read c _ 2 (k.val) (k0_off59_eq ⟨k.val, hk⟩)]
    have := congrFun hG9 (ix3 k (0 : Fin 1) (⟨(s 3).val, (s 3).isLt⟩ : Fin 256))
    rw [dstL_read_2f c] at this
    exact this
  have hb : View.readAt (Elt F) locL.view (Rect.unit (s := S32x1x256) (k0_off60 c ⟨k.val, hk⟩) S1x1x256.size (k0_off60_inb c ⟨k.val, hk⟩)).toLoadRect X7
      = lrow m c (mergeBatch 2 false c) (headAt false k) := by
    funext s
    rw [locL_row_read c _ (8 * ((c.val + 1) % 4) + k.val) (off60_eq c ⟨k.val, hk⟩)]
    have := congrFun hX7 (ix3 k (0 : Fin 1) (⟨(s 2).val, (s 2).isLt⟩ : Fin 256))
    rw [halfL_read c] at this
    have e : halfRow c 1 false = 8 * ((c.val + 1) % 4) + 0 := rfl
    have e2 : (⟨halfRow c 1 false + k.val, by have := halfRow_le c 1 false; omega⟩ : Fin 32) = ⟨8 * ((c.val + 1) % 4) + k.val, by omega⟩ := Fin.ext (by show halfRow c 1 false + k.val = 8 * ((c.val + 1) % 4) + k.val; omega)
    rw [e2] at this
    refine this.trans ?_
    show lrow m c (nxt c) (headAt false k) _ = lrow m c (nxt c) (headAt false k) s
    refine congrArg _ (funext fun x => Fin.ext ?_)
    have h0 : (s 0).val < 1 := (s 0).isLt
    have h1 : (s 1).val < 1 := (s 1).isLt
    match x with
    | ⟨0, _⟩ => show 0 = (s 0).val; omega
    | ⟨1, _⟩ => show 0 = (s 1).val; omega
    | ⟨2, _⟩ => rfl
  rw [ha, hb] at hslot
  show (dstL 2 false).view.read (Elt F) _ (ix3 k (0 : Fin 1) i) = _
  rw [dstL_read_2f c]
  exact hslot

end M9

theorem trips10 : k0_t10_loop.trips = 4 := by decide +kernel

section M10
variable (m : (ℓ : Loc nD τ sig) → Buf (Elt F) ℓ) (c : Dev nD)

theorem merge10_o (v2 w1 w2 : BitVec 32) (b1 b2 b3 : BitVec 1)
    (h6 : ∀ k : Fin k0_t10_loop.trips, (locO.access (Rect.unit (s := S32x128x256) (k0_off66 c k) S1x128x256.size (k0_off66_inb c k))).set ⊆ (locHalfO c 1 true).view.set) (h7 : ∀ k : Fin k0_t10_loop.trips, (locL.access (Rect.unit (s := S32x1x256) (k0_off64 c k) S1x1x256.size (k0_off64_inb c k))).set ⊆ (locHalfL c 1 true).view.set) (h8 : ∀ k : Fin k0_t10_loop.trips, (rsO.access (Rect.unit (s := S3x8x128x256) (k0_off65 k) S1x1x128x256.size (k0_off65_inb k))).set ⊆ (dstO 2 true).view.set) (h9 : ∀ k : Fin k0_t10_loop.trips, (rsL.access (Rect.unit (s := S3x8x1x256) (k0_off63 k) S1x1x1x256.size (k0_off63_inb k))).set ⊆ (dstL 2 true).view.set) (X6 : BufTy.Contents (Elt F) locO.view.ty) (X7 : BufTy.Contents (Elt F) locL.view.ty) (G8 : BufTy.Contents (Elt F) rsO.view.ty) (G9 : BufTy.Contents (Elt F) rsL.view.ty)
    (hX6 : (locHalfO c 1 true).view.read (Elt F) X6 = halfOt m c (nxt c) true)
    (hG8 : (dstO 2 true).view.read (Elt F) G8 = (KFun.V m).o (nxt c) 2 true) :
    (dstO 2 true).view.read (Elt F) (rsO.view.writes (Elt F) G8 (LoopsV.pbS_k0_t10 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 k0_t10_loop.trips).1) = (fun t => KFun.voC m 3 c true (⟨(t 0).val, (t 0).isLt⟩ : Fin 4) (⟨(t 1).val, (t 1).isLt⟩ : Fin 128) (⟨(t 2).val, (t 2).isLt⟩ : Fin 256)) := by
  funext t
  obtain ⟨k, d, i, rfl⟩ : ∃ (k : Fin 4) (d : Fin 128) (i : Fin 256), t = ix3 k d i := ⟨t 0, t 1, t 2, eq_ix3 t⟩
  show _ = k0_pay76 (fun s : S1x1x128x256.Idx => voC m 2 (fromDev c true) true k (⟨(s 2).val, (s 2).isLt⟩ : Fin 128) (⟨(s 3).val, (s 3).isLt⟩ : Fin 256)) (ot m c (mergeBatch 2 true c) (headAt true k)) (ix4 0 0 d i)
  have hk : k.val < k0_t10_loop.trips := by rw [trips10]; exact k.isLt
  have hc : c.val < 4 := c.isLt
  have hslot := congrFun (slotO_t10 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 ⟨k.val, hk⟩) (ix4 0 0 d i)
  rw [rsO_row_read c _ 2 (k.val + 4) (k0_off65_eq ⟨k.val, hk⟩)] at hslot
  have ha : View.readAt (Elt F) rsO.view (Rect.unit (s := S3x8x128x256) (k0_off65 ⟨k.val, hk⟩) S1x1x128x256.size (k0_off65_inb ⟨k.val, hk⟩)).toLoadRect G8
      = fun s : S1x1x128x256.Idx => voC m 2 (fromDev c true) true k (⟨(s 2).val, (s 2).isLt⟩ : Fin 128) (⟨(s 3).val, (s 3).isLt⟩ : Fin 256) := by
    funext s
    rw [rsO_row_read c _ 2 (k.val + 4) (k0_off65_eq ⟨k.val, hk⟩)]
    have := congrFun hG8 (ix3 k (⟨(s 2).val, (s 2).isLt⟩ : Fin 128) (⟨(s 3).val, (s 3).isLt⟩ : Fin 256))
    rw [dstO_read_2t c] at this
    exact this
  have hb : View.readAt (Elt F) locO.view (Rect.unit (s := S32x128x256) (k0_off66 c ⟨k.val, hk⟩) S1x128x256.size (k0_off66_inb c ⟨k.val, hk⟩)).toLoadRect X6
      = ot m c (mergeBatch 2 true c) (headAt true k) := by
    funext s
    rw [locO_row_read c _ (8 * ((c.val + 1) % 4) + (k.val + 4)) (off66_eq c ⟨k.val, hk⟩)]
    have := congrFun hX6 (ix3 k (⟨(s 1).val, (s 1).isLt⟩ : Fin 128) (⟨(s 2).val, (s 2).isLt⟩ : Fin 256))
    rw [halfO_read c] at this
    have e : halfRow c 1 true = 8 * ((c.val + 1) % 4) + 4 := rfl
    have e2 : (⟨halfRow c 1 true + k.val, by have := halfRow_le c 1 true; omega⟩ : Fin 32) = ⟨8 * ((c.val + 1) % 4) + (k.val + 4), by omega⟩ := Fin.ext (by show halfRow c 1 true + k.val = 8 * ((c.val + 1) % 4) + (k.val + 4); omega)
    rw [e2] at this
    refine this.trans ?_
    show ot m c (nxt c) (headAt true k) _ = ot m c (nxt c) (headAt true k) s
    refine congrArg _ (funext fun x => Fin.ext ?_)
    have h0 : (s 0).val < 1 := (s 0).isLt
    match x with
    | ⟨0, _⟩ => show 0 = (s 0).val; omega
    | ⟨1, _⟩ => rfl
    | ⟨2, _⟩ => rfl
  rw [ha, hb] at hslot
  show (dstO 2 true).view.read (Elt F) _ (ix3 k d i) = _
  rw [dstO_read_2t c]
  exact hslot

theorem merge10_l (v2 w1 w2 : BitVec 32) (b1 b2 b3 : BitVec 1)
    (h6 : ∀ k : Fin k0_t10_loop.trips, (locO.access (Rect.unit (s := S32x128x256) (k0_off66 c k) S1x128x256.size (k0_off66_inb c k))).set ⊆ (locHalfO c 1 true).view.set) (h7 : ∀ k : Fin k0_t10_loop.trips, (locL.access (Rect.unit (s := S32x1x256) (k0_off64 c k) S1x1x256.size (k0_off64_inb c k))).set ⊆ (locHalfL c 1 true).view.set) (h8 : ∀ k : Fin k0_t10_loop.trips, (rsO.access (Rect.unit (s := S3x8x128x256) (k0_off65 k) S1x1x128x256.size (k0_off65_inb k))).set ⊆ (dstO 2 true).view.set) (h9 : ∀ k : Fin k0_t10_loop.trips, (rsL.access (Rect.unit (s := S3x8x1x256) (k0_off63 k) S1x1x1x256.size (k0_off63_inb k))).set ⊆ (dstL 2 true).view.set) (X6 : BufTy.Contents (Elt F) locO.view.ty) (X7 : BufTy.Contents (Elt F) locL.view.ty) (G8 : BufTy.Contents (Elt F) rsO.view.ty) (G9 : BufTy.Contents (Elt F) rsL.view.ty)
    (hX7 : (locHalfL c 1 true).view.read (Elt F) X7 = halfLr m c (nxt c) true)
    (hG9 : (dstL 2 true).view.read (Elt F) G9 = (KFun.V m).l (nxt c) 2 true) :
    (dstL 2 true).view.read (Elt F) (rsL.view.writes (Elt F) G9 (LoopsV.pbS_k0_t10 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 k0_t10_loop.trips).2) = (fun t => KFun.vlC m 3 c true (⟨(t 0).val, (t 0).isLt⟩ : Fin 4) (⟨(t 2).val, (t 2).isLt⟩ : Fin 256)) := by
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  show _ = k0_pay75 (fun s : S1x1x1x256.Idx => vlC m 2 (fromDev c true) true k (⟨(s 3).val, (s 3).isLt⟩ : Fin 256)) (lrow m c (mergeBatch 2 true c) (headAt true k)) (ix4 0 0 0 i)
  have hk : k.val < k0_t10_loop.trips := by rw [trips10]; exact k.isLt
  have hc : c.val < 4 := c.isLt
  have hslot := congrFun (slotL_t10 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 w1 w2 b1 b2 b3 h6 h7 h8 h9 X6 X7 G8 G9 ⟨k.val, hk⟩) (ix4 0 0 0 i)
  rw [rsL_row_read c _ 2 (k.val + 4) (k0_off63_eq ⟨k.val, hk⟩)] at hslot
  have ha : View.readAt (Elt F) rsL.view (Rect.unit (s := S3x8x1x256) (k0_off63 ⟨k.val, hk⟩) S1x1x1x256.size (k0_off63_inb ⟨k.val, hk⟩)).toLoadRect G9
      = fun s : S1x1x1x256.Idx => vlC m 2 (fromDev c true) true k (⟨(s 3).val, (s 3).isLt⟩ : Fin 256) := by
    funext s
    rw [rsL_row_read c _ 2 (k.val + 4) (k0_off63_eq ⟨k.val, hk⟩)]
    have := congrFun hG9 (ix3 k (0 : Fin 1) (⟨(s 3).val, (s 3).isLt⟩ : Fin 256))
    rw [dstL_read_2t c] at this
    exact this
  have hb : View.readAt (Elt F) locL.view (Rect.unit (s := S32x1x256) (k0_off64 c ⟨k.val, hk⟩) S1x1x256.size (k0_off64_inb c ⟨k.val, hk⟩)).toLoadRect X7
      = lrow m c (mergeBatch 2 true c) (headAt true k) := by
    funext s
    rw [locL_row_read c _ (8 * ((c.val + 1) % 4) + (k.val + 4)) (off64_eq c ⟨k.val, hk⟩)]
    have := congrFun hX7 (ix3 k (0 : Fin 1) (⟨(s 2).val, (s 2).isLt⟩ : Fin 256))
    rw [halfL_read c] at this
    have e : halfRow c 1 true = 8 * ((c.val + 1) % 4) + 4 := rfl
    have e2 : (⟨halfRow c 1 true + k.val, by have := halfRow_le c 1 true; omega⟩ : Fin 32) = ⟨8 * ((c.val + 1) % 4) + (k.val + 4), by omega⟩ := Fin.ext (by show halfRow c 1 true + k.val = 8 * ((c.val + 1) % 4) + (k.val + 4); omega)
    rw [e2] at this
    refine this.trans ?_
    show lrow m c (nxt c) (headAt true k) _ = lrow m c (nxt c) (headAt true k) s
    refine congrArg _ (funext fun x => Fin.ext ?_)
    have h0 : (s 0).val < 1 := (s 0).isLt
    have h1 : (s 1).val < 1 := (s 1).isLt
    match x with
    | ⟨0, _⟩ => show 0 = (s 0).val; omega
    | ⟨1, _⟩ => show 0 = (s 1).val; omega
    | ⟨2, _⟩ => rfl
  rw [ha, hb] at hslot
  show (dstL 2 true).view.read (Elt F) _ (ix3 k (0 : Fin 1) i) = _
  rw [dstL_read_2t c]
  exact hslot

end M10

section Acc
variable (m : (ℓ : Loc nD τ sig) → Buf (Elt F) ℓ) (c : Dev nD)

theorem acc0_ok : Acc0 m c := by
  intro go gl g3 hO hL
  show ((Memref.whole cc0_stg3_0 : Memref sig .tc .vmem S4x256x1024 .f32).view.slice (rOwn c)).read (Elt F) _ = _
  rw [View.writes_singleton, View.read_write_univ]
  show k0_pay104 _ _ _ = k0_pay104 (KFun.rsO m c 0) (KFun.rsL m c 0) (KFun.woRows m c 0)
  have hA : View.readAt (Elt F) (Memref.whole cc0_scratch2 : Memref sig .tc .vmem S3x8x128x256 .bf16).view (Rect.unit (s := S3x8x128x256) ![2, 0, 0, 0] S1x1x128x256.size inb_S3x8x128x256_S1x1x128x256_2_0_0_0).toLoadRect go = KFun.rsO m c 0 := by
    funext s
    rw [rsO_row_read c _ 2 0 rfl]
    have := congrFun hO (ix3 (0 : Fin 4) (⟨(s 2).val, (s 2).isLt⟩ : Fin 128) (⟨(s 3).val, (s 3).isLt⟩ : Fin 256))
    rw [dstO_read_2f c] at this
    exact this
  have hB : View.readAt (Elt F) (Memref.whole cc0_scratch3 : Memref sig .tc .vmem S3x8x1x256 .f32).view (Rect.unit (s := S3x8x1x256) ![2, 0, 0, 0] S1x1x1x256.size inb_S3x8x1x256_S1x1x1x256_2_0_0_0).toLoadRect gl = KFun.rsL m c 0 := by
    funext s
    rw [rsL_row_read c _ 2 0 rfl]
    have := congrFun hL (ix3 (0 : Fin 4) (0 : Fin 1) (⟨(s 3).val, (s 3).isLt⟩ : Fin 256))
    rw [dstL_read_2f c] at this
    exact this
  have hC : View.readAt (Elt F) (Memref.whole cc0_scratch8 : Memref sig .tc .vmem S1024x1024 .bf16).view (Rect.unit (s := S1024x1024) ![0, 0] S128x1024.size inb_S1024x1024_S128x1024_0_0).toLoadRect (KFun.wob m c) = KFun.woRows m c 0 := by
    funext s
    rw [View.readAt_apply, View.read_apply]
    show (KFun.wob m c) _ = (KFun.wob m c) _
    refine congrArg _ (funext fun x => Fin.ext ?_)
    match x with
    | ⟨0, _⟩ => show 0 + 1 * (s 0).val = 0 * 128 + (s 0).val; omega
    | ⟨1, _⟩ => show 0 + 1 * (s 1).val = (s 1).val; omega
  rw [hA, hB, hC]

end Acc

end SegE

section Closed
variable (m : (ℓ : Loc nD τ sig) → Buf (Elt F) ℓ) (c : Dev nD)

theorem merge8_ok (v14 v25 v1014 v1015 : BitVec 32) (v1020 : BitVec 1) : Merge8 m c v14 v25 v1014 v1015 v1020 :=
  fun h6 h7 h8 h9 X6 X7 G8 G9 hX6 hX7 hG8 hG9 =>
    ⟨SegE.merge8_o m c v14 v25 v1014 v1015 v1020 h6 h7 h8 h9 X6 X7 G8 G9 hX6 hG8,
     SegE.merge8_l m c v14 v25 v1014 v1015 v1020 h6 h7 h8 h9 X6 X7 G8 G9 hX7 hG9⟩

theorem merge9_ok (v14 : BitVec 32) : Merge9 m c v14 :=
  fun w h6 h7 h8 h9 X6 X7 G8 G9 hX6 hX7 hG8 hG9 =>
    ⟨SegE.merge9_o m c v14 w h6 h7 h8 h9 X6 X7 G8 G9 hX6 hG8,
     SegE.merge9_l m c v14 w h6 h7 h8 h9 X6 X7 G8 G9 hX7 hG9⟩

theorem merge10_ok (v2 : BitVec 32) : Merge10 m c v2 :=
  fun w1 w2 b1 b2 b3 h6 h7 h8 h9 X6 X7 G8 G9 hX6 hX7 hG8 hG9 =>
    ⟨SegE.merge10_o m c v2 w1 w2 b1 b2 b3 h6 h7 h8 h9 X6 X7 G8 G9 hX6 hG8,
     SegE.merge10_l m c v2 w1 w2 b1 b2 b3 h6 h7 h8 h9 X6 X7 G8 G9 hX7 hG9⟩

/-- The segment with its values: from the cut before the last merge of hop 1 to the cut before the second output term. -/
theorem segE_closed (K : Names) (W : Waits sig Unit) (v2 v14 v25 v1014 v1015 : BitVec 32) (v1020 : BitVec 1) :
    At40 m c K W ⊢ wp frame (wpE (defs₀ (F := F)) 𝒱₀ (c : Thread nD τ) none) Set.univ
      (segEProg (F := F) (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v1014 v1015 v1020)
      (fun _ => iprop(∃ W', AtTail m c K W')) :=
  segE_ok m c K W v2 v14 v25 v1014 v1015 v1020 (merge8_ok m c v14 v25 v1014 v1015 v1020) (merge9_ok m c v14) (merge10_ok m c v2) (SegE.acc0_ok m c)

end Closed

end Cert.Kernel.Proto
end
-- ==== Proof.KB.BodyOf.lean ====
/-
  The body obligation of a device from the six segments of its body: each segment runs from the state at one cut to the
  state at the next; the body is their sequence (Segs.body_split), so the weakest preconditions nest.
-/
import proofs.«900754_g7700000000000755_dist_attn_cross_gqa_kvseq_b4_sq256_skv1024_d1024_hq8_dh128_v7x_i4_f32_1_alg».proof.Proof.KB.Segs
import proofs.«900754_g7700000000000755_dist_attn_cross_gqa_kvseq_b4_sq256_skv1024_d1024_hq8_dh128_v7x_i4_f32_1_alg».proof.Proof.KB.Cut15
import proofs.«900754_g7700000000000755_dist_attn_cross_gqa_kvseq_b4_sq256_skv1024_d1024_hq8_dh128_v7x_i4_f32_1_alg».proof.Proof.KB.Cut27
import proofs.«900754_g7700000000000755_dist_attn_cross_gqa_kvseq_b4_sq256_skv1024_d1024_hq8_dh128_v7x_i4_f32_1_alg».proof.Proof.KB.Rest27
import proofs.«900754_g7700000000000755_dist_attn_cross_gqa_kvseq_b4_sq256_skv1024_d1024_hq8_dh128_v7x_i4_f32_1_alg».proof.Proof.KB.Cut32
import proofs.«900754_g7700000000000755_dist_attn_cross_gqa_kvseq_b4_sq256_skv1024_d1024_hq8_dh128_v7x_i4_f32_1_alg».proof.Proof.KB.Cut40
import proofs.«900754_g7700000000000755_dist_attn_cross_gqa_kvseq_b4_sq256_skv1024_d1024_hq8_dh128_v7x_i4_f32_1_alg».proof.Proof.KB.TailSpec
import proofs.«900754_g7700000000000755_dist_attn_cross_gqa_kvseq_b4_sq256_skv1024_d1024_hq8_dh128_v7x_i4_f32_1_alg».proof.Proof.KB.MergeC
import proofs.«900754_g7700000000000755_dist_attn_cross_gqa_kvseq_b4_sq256_skv1024_d1024_hq8_dh128_v7x_i4_f32_1_alg».proof.Proof.KB.BodyEVal
import proofs.«900754_g7700000000000755_dist_attn_cross_gqa_kvseq_b4_sq256_skv1024_d1024_hq8_dh128_v7x_i4_f32_1_alg».proof.Proof.Gen.Kernel.Points
import proofs.«900754_g7700000000000755_dist_attn_cross_gqa_kvseq_b4_sq256_skv1024_d1024_hq8_dh128_v7x_i4_f32_1_alg».proof.Proof.Gen.Kernel.Launch
import Idealize.ShloMosaic.Lib.Tactic

set_option maxRecDepth 65536

noncomputable section

namespace Cert.Kernel.Proto

open Cert.Kernel Cert.Kernel.Gen Cert.Kernel.Ring
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

set_option maxHeartbeats 4000000 in
/-- The six segments in sequence. -/
theorem body_of_segments (m : (ℓ : Loc nD τ sig) → Buf (Elt F) ℓ) (c : Dev nD) (K : Names) (W : Waits sig Unit)
    (At0 : sProp 𝕄) (Post : PUnit → sProp 𝕄)
    (hA : At0 ⊢ wp frame (wpE (defs₀ (F := F)) 𝒱₀ (c : Thread nD τ) none) Set.univ (segAProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _)) (fun r => iprop(∃ W', At15 m c K W' r.2.2.2.2.1 r.2.2.2.2.2 ∗ ⌜r.1 = c⌝)))
    (hB : ∀ W v2 v14 v25 v26 v226, At15 m c K W v26 v226 ⊢ wp frame (wpE (defs₀ (F := F)) 𝒱₀ (c : Thread nD τ) none) Set.univ (segBProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v26 v226) (fun _ => iprop(∃ W', At27 m c K W' (Rest27 m c) c v2 v14 v25)))
    (h32 : ∀ W r, Post32 m c K W (Rest27 m c) r ⊢ At32 m c K W (Rest32 m c) c)
    (hD : ∀ W v2 v14 v25 v787 v790, At32 m c K W (Rest32 m c) c ⊢ wp frame (wpE (defs₀ (F := F)) 𝒱₀ (c : Thread nD τ) none) Set.univ (segDProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v787 v790) (fun _ => iprop(∃ W', At40 m c K W')))
    (hT : ∀ W v14 v25 v1157, AtTail m c K W ⊢ wp frame (wpE (defs₀ (F := F)) 𝒱₀ (c : Thread nD τ) none) Set.univ (tailProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1157) (Post)) :
    At0 ⊢ wp frame (wpE (defs₀ (F := F)) 𝒱₀ (c : Thread nD τ) none) Set.univ (cc0_body_skel (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _)) (Post) := by
  rw [body_split]
  simp only [wp_bind]
  refine hA.trans (wp_mono _ _ _ fun rA => ?_)
  iintro ⟨%W1, H, %hr⟩
  obtain ⟨d0, v2, v14, v25, v26, v226⟩ := rA
  subst hr
  iapply ((hB W1 v2 v14 v25 v26 v226).trans (wp_mono _ _ _ fun _ => ?_)) $$ H
  iintro ⟨%W2, H⟩
  iapply ((segC (F := F) m _ K W2 (Rest27 m _) _ v2 v14 v25).trans (wp_mono _ _ _ fun rC => ?_)) $$ H
  iintro ⟨%W3, H⟩
  iapply (((h32 W3 rC).trans (hD W3 v2 v14 v25 rC.1 rC.2)).trans (wp_mono _ _ _ fun rD => ?_)) $$ H
  iintro ⟨%W4, H⟩
  iapply ((segE_closed (F := F) m _ K W4 v2 v14 v25 rD.1 rD.2.1 rD.2.2).trans (wp_mono _ _ _ fun rE => ?_)) $$ H
  iintro ⟨%W5, H⟩
  iapply (hT W5 v14 v25 rE) $$ H

end Cert.Kernel.Proto

end
-- ==== Proof.KB.Regroup32.lean ====
/-
  From what the steps up to the third flash step leave to the state that step starts from.

  Nothing is computed here: the four copies of hop 1 under way, the local copies and the buffers the third flash step uses
  are picked out of what is held; everything else stays aside. A half block held at contents whose rows are known reads,
  through its own view, as those rows; a whole buffer held through its memref's view is the buffer held whole.
-/
import proofs.«900754_g7700000000000755_dist_attn_cross_gqa_kvseq_b4_sq256_skv1024_d1024_hq8_dh128_v7x_i4_f32_1_alg».proof.Proof.KB.Cut27
import proofs.«900754_g7700000000000755_dist_attn_cross_gqa_kvseq_b4_sq256_skv1024_d1024_hq8_dh128_v7x_i4_f32_1_alg».proof.Proof.KB.Cut32
import proofs.«900754_g7700000000000755_dist_attn_cross_gqa_kvseq_b4_sq256_skv1024_d1024_hq8_dh128_v7x_i4_f32_1_alg».proof.Proof.KB.Rest27
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.KB.Bridge

set_option maxRecDepth 8192

noncomputable section

namespace Cert.Kernel.Proto

open Cert.Kernel Cert.Kernel.Gen Cert.Kernel.Ring
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- A half block of the partial numerators held at contents whose four rows are known reads, through its own view, as those rows. -/
theorem halfRowsO_heldAs (c : Dev nD) (j : Fin 4) (hb : Bool) (b : Fin 4) :
    halfRowsO m c j hb b ⊢ heldAs (F := F) c (locHalfO c j hb) (halfOt m c b hb) := by
  unfold halfRowsO heldAs
  iintro ⟨%f, H, %hr⟩
  iexists f
  isplitl [H]; · iexact H
  ipureintro
  funext t
  obtain ⟨k, d, i, rfl⟩ : ∃ (k : Fin 4) (d : Fin 128) (i : Fin 256), t = ix3 k d i := ⟨t 0, t 1, t 2, eq_ix3 t⟩
  unfold locHalfO
  rw [KFun.locO_slice_read _ (halfRow c j hb) rfl]
  exact hr k d i

/-- and of the partial denominators. -/
theorem halfRowsL_heldAs (c : Dev nD) (j : Fin 4) (hb : Bool) (b : Fin 4) :
    halfRowsL m c j hb b ⊢ heldAs (F := F) c (locHalfL c j hb) (halfLr m c b hb) := by
  unfold halfRowsL heldAs
  iintro ⟨%f, H, %hr⟩
  iexists f
  isplitl [H]; · iexact H
  ipureintro
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  unfold locHalfL
  rw [KFun.locL_slice_read _ (halfRow c j hb) rfl]
  exact hr k i

/-- A copy not yet enqueued, with the neighbour's landing slice and that round 0 of the neighbour's receive cell is reached. -/
theorem oXfer_of (c : Dev nD) (l : Bool) (h : Fin 3) :
    iprop(freshX c .o l h ∗ held (F := F) (toDev c l) (dstO h l) ∗ reached ER (recvCell (toDev c l) .o l h) 0) ⊢ (oXfer c l h : sProp 𝕄) := by
  unfold freshX oXfer
  iintro ⟨⟨H1, H2, H3, H4, H5, #H6, #H7⟩, Hd, #Hr⟩
  isplitl [H1]; · iexact H1
  isplitl [H2]; · iexact H2
  isplitl [H3]; · iexact H3
  isplitl [H4]; · iexact H4
  isplitl [H5]; · iexact H5
  isplitl [Hd]; · iexact Hd
  isplitr; · iexact H6
  iexact Hr
theorem lXfer_of (c : Dev nD) (l : Bool) (h : Fin 3) :
    iprop(freshX c .l l h ∗ held (F := F) (toDev c l) (dstL h l) ∗ reached ER (recvCell (toDev c l) .l l h) 0) ⊢ (lXfer c l h : sProp 𝕄) := by
  unfold freshX lXfer
  iintro ⟨⟨H1, H2, H3, H4, H5, #H6, #H7⟩, Hd, #Hr⟩
  isplitl [H1]; · iexact H1
  isplitl [H2]; · iexact H2
  isplitl [H3]; · iexact H3
  isplitl [H4]; · iexact H4
  isplitl [H5]; · iexact H5
  isplitl [Hd]; · iexact Hd
  isplitr; · iexact H6
  iexact Hr
theorem gXfer_of (c : Dev nD) (l : Bool) (h : Fin 3) :
    iprop(freshX c .g l h ∗ held (F := F) (toDev c l) (agS c h l) ∗ reached ER (recvCell (toDev c l) .g l h) 0) ⊢ (gXfer c l h : sProp 𝕄) := by
  unfold freshX gXfer
  iintro ⟨⟨H1, H2, H3, H4, H5, #H6, #H7⟩, Hd, #Hr⟩
  isplitl [H1]; · iexact H1
  isplitl [H2]; · iexact H2
  isplitl [H3]; · iexact H3
  isplitl [H4]; · iexact H4
  isplitl [H5]; · iexact H5
  isplitl [Hd]; · iexact Hd
  isplitr; · iexact H6
  iexact Hr

/-- A source half block back from its copy, at whatever it holds. -/
theorem held_of_sendPayO (c : Dev nD) (l : Bool) : sendPay (KFun.V m) c .o l 0 ⊢ held (F := F) c (srcO c 0 l) := by
  simp only [sendPay, heldAs, held]
  iintro ⟨%f, H, %_⟩
  iexists f; iexact H
theorem held_of_sendPayL (c : Dev nD) (l : Bool) : sendPay (KFun.V m) c .l l 0 ⊢ held (F := F) c (srcL c 0 l) := by
  simp only [sendPay, heldAs, held]
  iintro ⟨%f, H, %_⟩
  iexists f; iexact H

set_option maxHeartbeats 4000000 in
/-- What the steps up to the third flash step leave, with the rest of the state at the cut before the first merge as its
    frame, is the state the third flash step starts from, with the rest of the state at that cut as its frame. Nothing is
    computed: the pieces are regrouped; of the barrier cell nothing is kept. -/
theorem post32_at32 (c : Dev nD) (K : Names) (W : Waits sig Unit) (r : Σ' (_ : BitVec 32), BitVec 32) :
    Post32 m c K W (Rest27 m c) r ⊢ At32 m c K W (Rest32 m c) c := by
  unfold Post32 Rest27 At32 Foot32 Rest32 C32.kvCut32 C32.leftHalves C27.sentX C32.sentX C27.closedX closedX C27.blk3O C27.blk3L nbrSlices
  iintro ⟨Hinv, Hlev, HO, ⟨Hz1, Hz2, Hz3, Hz4⟩, ⟨Hs1, Hs2, Hs3, Hs4⟩, ⟨Hsp1, Hsp2, Hsp3, Hsp4⟩, ⟨%fO3, HbOf, HbOt, %hrO3⟩, ⟨%fL3, HbLf, HbLt, %hrL3⟩, ⟨Hbar, ⟨Fo2R, Fo2L, Fl2R, Fl2L⟩, ⟨Fg0R, Fg0L, Fg1R, Fg1L, Fg2R, Fg2L⟩, ⟨HnO2R, HnL2R, HnO2L, HnL2L, HnG0R, HnG1R, HnG2R, HnG0L, HnG1L, HnG2L, #HqO2R, #HqL2R, #HqO2L, #HqL2L, #HqG0R, #HqG1R, #HqG2R, #HqG0L, #HqG1L, #HqG2L⟩, Hg0, Hg1, Hg2, Hg3, H7, H8, H4, H6, H9, Hkv1, Hd0, Hd2, Hd3, HLH, HrO0t, HrL0t, HrO2f, HrL2f, HB1O, HB1L, Hag⟩⟩
  iclear Hbar
  isplitr; · ipureintro; rfl
  isplitl [Hinv Hlev HO Hs1 Hs2 Hs3 Hs4 Hkv1 Hd0 Hd2 Hd3 HLH Hg0 H4 H6 H7 H9 HB1O HB1L HrO2f HrL2f]
  · isplitl [Hinv]; · iexact Hinv
    isplitl [Hlev]; · iexact Hlev
    isplitl [HO]; · iexact HO
    isplitl [Hs1 Hs2 Hs3 Hs4]
    · isplitl [Hs1]; · iexact Hs1
      isplitl [Hs2]; · iexact Hs2
      isplitl [Hs3]; · iexact Hs3
      iexact Hs4
    isplitl [Hkv1 Hd0 Hd2 Hd3 HLH]
    · isplitl [Hkv1]; · iexact Hkv1
      isplitl [Hd0]; · iexact Hd0
      isplitl [Hd2]; · iexact Hd2
      isplitl [Hd3]; · iexact Hd3
      iexact HLH
    isplitl [Hg0]; · iexact Hg0
    isplitl [H4]; · iexact H4
    isplitl [H6]; · iexact H6
    isplitl [H7]; · iexact H7
    isplitl [H9]; · iexact H9
    isplitl [HB1O]; · iexact HB1O
    isplitl [HB1L]; · iexact HB1L
    isplitl [HrO2f]; · iexact HrO2f
    iexact HrL2f
  · isplitl [Fo2R HnO2R Fo2L HnO2L Fl2R HnL2R Fl2L HnL2L]
    · isplitl [Fo2R HnO2R]
      · iapply (oXfer_of (F := F) c false 2) $$ [Fo2R HnO2R]
        · isplitl [Fo2R]; · iexact Fo2R
          isplitl [HnO2R]; · iexact HnO2R
          iexact HqO2R
      isplitl [Fo2L HnO2L]
      · iapply (oXfer_of (F := F) c true 2) $$ [Fo2L HnO2L]
        · isplitl [Fo2L]; · iexact Fo2L
          isplitl [HnO2L]; · iexact HnO2L
          iexact HqO2L
      isplitl [Fl2R HnL2R]
      · iapply (lXfer_of (F := F) c false 2) $$ [Fl2R HnL2R]
        · isplitl [Fl2R]; · iexact Fl2R
          isplitl [HnL2R]; · iexact HnL2R
          iexact HqL2R
      iapply (lXfer_of (F := F) c true 2) $$ [Fl2L HnL2L]
      · isplitl [Fl2L]; · iexact Fl2L
        isplitl [HnL2L]; · iexact HnL2L
        iexact HqL2L
    isplitl [Fg0R HnG0R Fg0L HnG0L Fg1R HnG1R Fg1L HnG1L Fg2R HnG2R Fg2L HnG2L]
    · isplitl [Fg0R HnG0R]
      · iapply (gXfer_of (F := F) c false 0) $$ [Fg0R HnG0R]
        · isplitl [Fg0R]; · iexact Fg0R
          isplitl [HnG0R]; · iexact HnG0R
          iexact HqG0R
      isplitl [Fg0L HnG0L]
      · iapply (gXfer_of (F := F) c true 0) $$ [Fg0L HnG0L]
        · isplitl [Fg0L]; · iexact Fg0L
          isplitl [HnG0L]; · iexact HnG0L
          iexact HqG0L
      isplitl [Fg1R HnG1R]
      · iapply (gXfer_of (F := F) c false 1) $$ [Fg1R HnG1R]
        · isplitl [Fg1R]; · iexact Fg1R
          isplitl [HnG1R]; · iexact HnG1R
          iexact HqG1R
      isplitl [Fg1L HnG1L]
      · iapply (gXfer_of (F := F) c true 1) $$ [Fg1L HnG1L]
        · isplitl [Fg1L]; · iexact Fg1L
          isplitl [HnG1L]; · iexact HnG1L
          iexact HqG1L
      isplitl [Fg2R HnG2R]
      · iapply (gXfer_of (F := F) c false 2) $$ [Fg2R HnG2R]
        · isplitl [Fg2R]; · iexact Fg2R
          isplitl [HnG2R]; · iexact HnG2R
          iexact HqG2R
      iapply (gXfer_of (F := F) c true 2) $$ [Fg2L HnG2L]
      · isplitl [Fg2L]; · iexact Fg2L
        isplitl [HnG2L]; · iexact HnG2L
        iexact HqG2L
    isplitl [Hz1 Hz2 Hz3 Hz4]
    · isplitl [Hz1]; · iexact Hz1
      isplitl [Hz2]; · iexact Hz2
      isplitl [Hz3]; · iexact Hz3
      iexact Hz4
    isplitl [Hg1]; · iexact Hg1
    isplitl [Hg2]; · iexact Hg2
    isplitl [Hg3]; · iexact Hg3
    isplitl [H8]; · iexact H8
    isplitl [Hsp1 HrO0t Hsp3 HbOf HbOt]
    · isplitl [Hsp1]
      · rw [locHalfO_0f]; iapply (held_of_sendPayO m c false) $$ Hsp1
      isplitl [HrO0t]; · iapply (halfRowsO_heldAs m c 0 true c) $$ HrO0t
      isplitl [Hsp3]
      · rw [locHalfO_2t]; iapply (held_of_sendPayO m c true) $$ Hsp3
      isplitl [HbOf]; · (unfold held; iexists fO3; iexact HbOf)
      unfold held; iexists fO3; iexact HbOt
    isplitl [Hsp2 HrL0t Hsp4 HbLf HbLt]
    · isplitl [Hsp2]
      · rw [locHalfL_0f]; iapply (held_of_sendPayL m c false) $$ Hsp2
      isplitl [HrL0t]; · iapply (halfRowsL_heldAs m c 0 true c) $$ HrL0t
      isplitl [Hsp4]
      · rw [locHalfL_2t]; iapply (held_of_sendPayL m c true) $$ Hsp4
      isplitl [HbLf]; · (unfold held; iexists fL3; iexact HbLf)
      unfold held; iexists fL3; iexact HbLt
    iexact Hag

end Cert.Kernel.Proto

end
-- ==== Proof.KB.BodyD.lean ====
/-
  The steps between the cut before the flash step of the last batch and the cut before the last merge of hop 1.
  Device `c` waits for the four local copies of batch `c + 1`, narrows its key and value planes, projects its queries and
  stores their eight heads, runs the flash loop over the heads, which writes block 1 of the partial sums; it then waits
  for hop 1's right-going transfers on their send and receive cells, merges what arrived with its own partial sums of
  batch `c + 2`, heads 0–3, and waits for hop 1's left-going transfers. The proof steps the program at a symbolic device
  from the state at the first cut; the eight waits on the transfers' cells are applied one by one, each closing its cell.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.Unfold
import proofs.«900754_g7700000000000755_dist_attn_cross_gqa_kvseq_b4_sq256_skv1024_d1024_hq8_dh128_v7x_i4_f32_1_alg».proof.Proof.KB.Split
import proofs.«900754_g7700000000000755_dist_attn_cross_gqa_kvseq_b4_sq256_skv1024_d1024_hq8_dh128_v7x_i4_f32_1_alg».proof.Proof.KB.OpWait
import proofs.«900754_g7700000000000755_dist_attn_cross_gqa_kvseq_b4_sq256_skv1024_d1024_hq8_dh128_v7x_i4_f32_1_alg».proof.Proof.KB.KLaunch
import proofs.«900754_g7700000000000755_dist_attn_cross_gqa_kvseq_b4_sq256_skv1024_d1024_hq8_dh128_v7x_i4_f32_1_alg».proof.Proof.KB.LoopsV
import proofs.«900754_g7700000000000755_dist_attn_cross_gqa_kvseq_b4_sq256_skv1024_d1024_hq8_dh128_v7x_i4_f32_1_alg».proof.Proof.KB.LoopsVFacts
import proofs.«900754_g7700000000000755_dist_attn_cross_gqa_kvseq_b4_sq256_skv1024_d1024_hq8_dh128_v7x_i4_f32_1_alg».proof.Proof.KB.KvRel
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.KvSplit
import proofs.«900754_g7700000000000755_dist_attn_cross_gqa_kvseq_b4_sq256_skv1024_d1024_hq8_dh128_v7x_i4_f32_1_alg».proof.Proof.KB.HbmSplit
import proofs.«900754_g7700000000000755_dist_attn_cross_gqa_kvseq_b4_sq256_skv1024_d1024_hq8_dh128_v7x_i4_f32_1_alg».proof.Proof.KB.Within
import proofs.«900754_g7700000000000755_dist_attn_cross_gqa_kvseq_b4_sq256_skv1024_d1024_hq8_dh128_v7x_i4_f32_1_alg».proof.Proof.KB.Ring
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.KB.Segs
import proofs.«900754_g7700000000000755_dist_attn_cross_gqa_kvseq_b4_sq256_skv1024_d1024_hq8_dh128_v7x_i4_f32_1_alg».proof.Proof.KB.TailSpec
import proofs.«900754_g7700000000000755_dist_attn_cross_gqa_kvseq_b4_sq256_skv1024_d1024_hq8_dh128_v7x_i4_f32_1_alg».proof.Proof.KB.Cut40
import proofs.«900754_g7700000000000755_dist_attn_cross_gqa_kvseq_b4_sq256_skv1024_d1024_hq8_dh128_v7x_i4_f32_1_alg».proof.Proof.KB.Cut32
import proofs.«900754_g7700000000000755_dist_attn_cross_gqa_kvseq_b4_sq256_skv1024_d1024_hq8_dh128_v7x_i4_f32_1_alg».proof.Proof.Gen.Kernel.Skeleton
import proofs.«900754_g7700000000000755_dist_attn_cross_gqa_kvseq_b4_sq256_skv1024_d1024_hq8_dh128_v7x_i4_f32_1_alg».proof.Proof.Gen.Kernel.Loops
import proofs.«900754_g7700000000000755_dist_attn_cross_gqa_kvseq_b4_sq256_skv1024_d1024_hq8_dh128_v7x_i4_f32_1_alg».proof.Proof.Gen.Kernel.Points
import Idealize.ShloMosaic.Lib.Tactic
import Idealize.ShloMosaic.Lib.Pipeline.Value

set_option maxRecDepth 16384

noncomputable section

namespace Cert.Kernel.Proto

open Cert.Kernel Cert.Kernel.Gen Cert.Kernel.Ring
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open C32

variable {F : FTy → Type} [FloatOps F]
local notation "𝕄" => MT nD τ sig Unit (Elt F) ℕ UU ℕ

omit [FloatOps F] in
instance invs_persistent (V : Vals F) (K : Names) (c : Dev nD) : BI.Persistent (invs V K c : sProp 𝕄) := by
  unfold invs; infer_instance

/-- The invariants of the eight cells of hop 1's transfers, out of the device's invariants. -/
theorem invs_hop1 (V : Vals F) (K : Names) (c : Dev nD) :
    (invs V K c : sProp 𝕄) ⊢ iprop(cellInv ER (ringRd V) (K (c, some (.o, false, 1, true))) (sendCell c .o false 1)
      ∗ cellInv ER (ringRd V) (K (c, some (.o, false, 1, false))) (recvCell c .o false 1)
      ∗ cellInv ER (ringRd V) (K (c, some (.o, true, 1, true))) (sendCell c .o true 1)
      ∗ cellInv ER (ringRd V) (K (c, some (.o, true, 1, false))) (recvCell c .o true 1)
      ∗ cellInv ER (ringRd V) (K (c, some (.l, false, 1, true))) (sendCell c .l false 1)
      ∗ cellInv ER (ringRd V) (K (c, some (.l, false, 1, false))) (recvCell c .l false 1)
      ∗ cellInv ER (ringRd V) (K (c, some (.l, true, 1, true))) (sendCell c .l true 1)
      ∗ cellInv ER (ringRd V) (K (c, some (.l, true, 1, false))) (recvCell c .l true 1)) := by
  unfold invs
  simp only [bigSep_xfer]
  iintro ⟨-, ⟨-, -, -, -, ⟨#A1, #A2, -⟩, ⟨#B1, #B2, -⟩, ⟨#C1, #C2, -⟩, ⟨#D1, #D2, -⟩, -⟩, -⟩
  isplitl []; · iexact A1
  isplitl []; · iexact A2
  isplitl []; · iexact B1
  isplitl []; · iexact B2
  isplitl []; · iexact C1
  isplitl []; · iexact C2
  isplitl []; · iexact D1
  iexact D2

/-! ## The contents the steps leave, as terms of what they read -/

section Mirror
variable (m : (ℓ : Loc nD τ sig) → Buf (Elt F) ℓ) (c : Dev nD)

/-- The projected and scaled queries of batch `c + 1`, all heads, and head 0's narrowed rows. -/
def xqD :=
  k0_pay84 (F := F) (View.readAt (Elt F) (Memref.whole cc0_stg0_0).view (Rect.unit (s := S4x256x1024) (k0_off24 c 1#32) S1x256x1024.size (k0_off24_inb c 0)).toLoadRect ((dats (KFun.V m) m KFun.Kout 0 c).after 0 t0_0))
    (View.readAt (Elt F) (Memref.whole cc0_scratch7).view (Rect.unit (s := S1024x1024) ![0, 0] S1024x1024.size inb_S1024x1024_S1024x1024_0_0).toLoadRect (KFun.wqb m c))
def xq0D :=
  k0_pay85 (F := F) (View.readAt (Elt F) (Memref.whole cc0_stg0_0).view (Rect.unit (s := S4x256x1024) (k0_off24 c 1#32) S1x256x1024.size (k0_off24_inb c 0)).toLoadRect ((dats (KFun.V m) m KFun.Kout 0 c).after 0 t0_0))
    (View.readAt (Elt F) (Memref.whole cc0_scratch7).view (Rect.unit (s := S1024x1024) ![0, 0] S1024x1024.size inb_S1024x1024_S1024x1024_0_0).toLoadRect (KFun.wqb m c))

/-- The buffer of the projected queries after the eight head stores of batch `c + 1`. -/
def q2D (f4 : Buf (Elt F) ((c : Thread nD τ).loc cc0_scratch4)) :=
  (Memref.whole cc0_scratch4).view.writes (Elt F) f4
    [⟨Rect.unit (s := S32x256x128) (k0_off25 c 1#32 7#32) S1x256x128.size (k0_off25_inb c 0 7), k0_pay93 (xqD m c)⟩,
     ⟨Rect.unit (s := S32x256x128) (k0_off25 c 1#32 6#32) S1x256x128.size (k0_off25_inb c 0 6), k0_pay92 (xqD m c)⟩,
     ⟨Rect.unit (s := S32x256x128) (k0_off25 c 1#32 5#32) S1x256x128.size (k0_off25_inb c 0 5), k0_pay91 (k0_pay90 (xqD m c))⟩,
     ⟨Rect.unit (s := S32x256x128) (k0_off25 c 1#32 4#32) S1x256x128.size (k0_off25_inb c 0 4), k0_pay89 (xqD m c)⟩,
     ⟨Rect.unit (s := S32x256x128) (k0_off25 c 1#32 3#32) S1x256x128.size (k0_off25_inb c 0 3), k0_pay88 (xqD m c)⟩,
     ⟨Rect.unit (s := S32x256x128) (k0_off25 c 1#32 2#32) S1x256x128.size (k0_off25_inb c 0 2), k0_pay87 (xqD m c)⟩,
     ⟨Rect.unit (s := S32x256x128) (k0_off25 c 1#32 1#32) S1x256x128.size (k0_off25_inb c 0 1), k0_pay86 (xqD m c)⟩,
     ⟨Rect.unit (s := S32x256x128) (k0_off25 c 1#32 0#32) S1x256x128.size (k0_off25_inb c 0 0), xq0D m c⟩]

/-- A plane of the key and value buffer as a load through the whole buffer reads it after the copy that filled it. -/
def kvReadD (ro : Fin 4 → ℕ) (rinb : ∀ x, ro x + S1x1x1024x128.size x ≤ S2x8x1024x128.size x)
    (po : Fin 4 → ℕ) (pinb : ∀ x, po x + S1x1x1024x128.size x ≤ S2x8x1024x128.size x) (v : CpVal F) :=
  View.readAt (Elt F) (Memref.whole cc0_scratch5).view (Rect.unit (s := S2x8x1024x128) ro S1x1x1024x128.size rinb).toLoadRect
    ((kvPl po pinb).view.writes (Elt F) (kvPl po pinb).view.junk [⟨Rect.whole S1024x128, v⟩])

/-- The buffer of the narrowed planes after the four casts of batch `c + 1`. -/
def kvbD (f9 : Buf (Elt F) ((c : Thread nD τ).loc cc0_scratch9)) (vals : Fin 16 → CpVal F) :=
  (Memref.whole cc0_scratch9).view.writes (Elt F) f9
    [⟨Rect.unit (s := S2x8x1024x128) (k0_off23 c 1#32 1#32) S1x1x1024x128.size (k0_off23_inb c 0 1), k0_pay83 (kvReadD (k0_off23 c 1#32 1#32) (k0_off23_inb c 0 1) (k0_off20 c 1#32 1#32) (k0_off20_inb c 0 1) (vals (vIdx c 1 3)))⟩,
     ⟨Rect.unit (s := S2x8x1024x128) (k0_off22 c 1#32 1#32) S1x1x1024x128.size (k0_off22_inb c 0 1), k0_pay82 (k0_pay81 (kvReadD (k0_off22 c 1#32 1#32) (k0_off22_inb c 0 1) (k0_off18 c 1#32 1#32) (k0_off18_inb c 0 1) (vals (vIdx c 1 2))))⟩,
     ⟨Rect.unit (s := S2x8x1024x128) (k0_off23 c 1#32 0#32) S1x1x1024x128.size (k0_off23_inb c 0 0), k0_pay80 (kvReadD (k0_off23 c 1#32 0#32) (k0_off23_inb c 0 0) (k0_off20 c 1#32 0#32) (k0_off20_inb c 0 0) (vals (vIdx c 1 1)))⟩,
     ⟨Rect.unit (s := S2x8x1024x128) (k0_off22 c 1#32 0#32) S1x1x1024x128.size (k0_off22_inb c 0 0), k0_pay79 (kvReadD (k0_off22 c 1#32 0#32) (k0_off22_inb c 0 0) (k0_off18 c 1#32 0#32) (k0_off18_inb c 0 0) (vals (vIdx c 1 0)))⟩]

/-- What the flash step of batch `c + 1` leaves in the partial sums' buffers. -/
def flashD (v787 : BitVec 32) (f4 : Buf (Elt F) ((c : Thread nD τ).loc cc0_scratch4)) (f9 : Buf (Elt F) ((c : Thread nD τ).loc cc0_scratch9))
    (f6 : Buf (Elt F) ((c : Thread nD τ).loc cc0_scratch6)) (fo1 : Buf (Elt F) ((c : Thread nD τ).loc cc0_scratch0)) (fl1 : Buf (Elt F) ((c : Thread nD τ).loc cc0_scratch1))
    (vals : Fin 16 → CpVal F) :=
  LoopsV.pbS_k0_t6 (F := F) 𝒱₀ c none (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.isWhole_whole _) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v787 (xqD m c) (k0_pay90 (xqD m c)) (LoopsV.t6_arg6_within c) (LoopsV.t6_arg7_within c)
    (q2D m c f4) (kvbD c f9 vals) fo1 fl1 f6 (Scf.trips k0_t6_loop.lb k0_t6_loop.ub k0_t6_loop.st)

/-- What the merge of hop 1's right-going half leaves in its landing slices. -/
def mergeD (v14 v970 : BitVec 32) (fo2 : Buf (Elt F) ((c : Thread nD τ).loc cc0_scratch0)) (fl2 : Buf (Elt F) ((c : Thread nD τ).loc cc0_scratch1))
    (fro : Buf (Elt F) ((c : Thread nD τ).loc cc0_scratch2)) (frl : Buf (Elt F) ((c : Thread nD τ).loc cc0_scratch3)) :=
  LoopsV.pbS_k0_t7 (F := F) 𝒱₀ c none (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v970 (LoopsV.t7_arg6_within c) (LoopsV.t7_arg7_within c) LoopsV.t7_arg8_within LoopsV.t7_arg9_within
    fo2 fl2 fro frl (Scf.trips k0_t7_loop.lb k0_t7_loop.ub k0_t7_loop.st)

/-- The value equations the steps' results satisfy: the flash step's rows are the device's partial sums of batch `c + 1`,
    and the merged landing slices are what the schedule sends at hop 2. -/
structure ValsD : Prop where
  flashO : ∀ (v787 : BitVec 32) (f4 : Buf (Elt F) ((c : Thread nD τ).loc cc0_scratch4)) (f9 : Buf (Elt F) ((c : Thread nD τ).loc cc0_scratch9))
      (f6 : Buf (Elt F) ((c : Thread nD τ).loc cc0_scratch6)) (fo1 : Buf (Elt F) ((c : Thread nD τ).loc cc0_scratch0)) (fl1 : Buf (Elt F) ((c : Thread nD τ).loc cc0_scratch1))
      (vals : Fin 16 → CpVal F),
      (∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))) →
      ∀ hb : Bool, (locHalfO c 1 hb).view.read (Elt F) (locO.view.writes (Elt F) fo1 (flashD m c v787 f4 f9 f6 fo1 fl1 vals).1) = halfOt m c (nxt c) hb
  flashL : ∀ (v787 : BitVec 32) (f4 : Buf (Elt F) ((c : Thread nD τ).loc cc0_scratch4)) (f9 : Buf (Elt F) ((c : Thread nD τ).loc cc0_scratch9))
      (f6 : Buf (Elt F) ((c : Thread nD τ).loc cc0_scratch6)) (fo1 : Buf (Elt F) ((c : Thread nD τ).loc cc0_scratch0)) (fl1 : Buf (Elt F) ((c : Thread nD τ).loc cc0_scratch1))
      (vals : Fin 16 → CpVal F),
      (∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))) →
      ∀ hb : Bool, (locHalfL c 1 hb).view.read (Elt F) (locL.view.writes (Elt F) fl1 (flashD m c v787 f4 f9 f6 fo1 fl1 vals).2.1) = halfLr m c (nxt c) hb
  mergeO : ∀ (v14 v970 : BitVec 32) (fo2 : Buf (Elt F) ((c : Thread nD τ).loc cc0_scratch0)) (fl2 : Buf (Elt F) ((c : Thread nD τ).loc cc0_scratch1))
      (fro : Buf (Elt F) ((c : Thread nD τ).loc cc0_scratch2)) (frl : Buf (Elt F) ((c : Thread nD τ).loc cc0_scratch3)),
      (dstO 1 false).view.read (Elt F) fro = (KFun.V m).o (fromDev c false) 1 false →
      (∀ (k : Fin 4) (d : Fin 128) (i : Fin 256),
        fo2 (ix3 (⟨halfRow c 2 false + k.val, by have := halfRow_le c 2 false; omega⟩ : Fin 32) d i) = KFun.ot m c (nxt (nxt c)) (KFun.headAt false k) (ix3 0 d i)) →
      (dstO 1 false).view.read (Elt F) (rsO.view.writes (Elt F) fro (mergeD c v14 v970 fo2 fl2 fro frl).1) = (KFun.V m).o c 2 false
  mergeL : ∀ (v14 v970 : BitVec 32) (fo2 : Buf (Elt F) ((c : Thread nD τ).loc cc0_scratch0)) (fl2 : Buf (Elt F) ((c : Thread nD τ).loc cc0_scratch1))
      (fro : Buf (Elt F) ((c : Thread nD τ).loc cc0_scratch2)) (frl : Buf (Elt F) ((c : Thread nD τ).loc cc0_scratch3)),
      (dstL 1 false).view.read (Elt F) frl = (KFun.V m).l (fromDev c false) 1 false →
      (∀ (k : Fin 4) (i : Fin 256),
        fl2 (ix3 (⟨halfRow c 2 false + k.val, by have := halfRow_le c 2 false; omega⟩ : Fin 32) (0 : Fin 1) i) = KFun.lrow m c (nxt (nxt c)) (KFun.headAt false k) (ix3 0 0 i)) →
      (dstL 1 false).view.read (Elt F) (rsL.view.writes (Elt F) frl (mergeD c v14 v970 fo2 fl2 fro frl).2) = (KFun.V m).l c 2 false

end Mirror

/-- What the steps from the cut before the last flash step leave of what they use, at the names `K` and with the waits `W`
    recorded: hop 1's four transfers closed, the local copies all waited for, the work buffers at some contents, block 1
    of the partial sums at the device's own partial sums of batch `c + 1`, hop 0's landing slices back, hop 1's
    right-going half merged and its left-going half as the right neighbour sent it. -/
def FootD40 (m : (ℓ : Loc nD τ sig) → Buf (Elt F) ℓ) (c : Dev nD) (K : Names) (W : Waits sig Unit) : sProp 𝕄 :=
  iprop(invs (KFun.V m) K c ∗ levAts L lv
    ∗ owes (c : Thread nD τ) (owedOf c (prog.drop 10)) W
    ∗ (closedX c .o false 1 ∗ closedX c .o true 1 ∗ closedX c .l false 1 ∗ closedX c .l true 1)
    ∗ kvDone m c
    ∗ wholeAt c cc0_stg0_0 ((dats (KFun.V m) m KFun.Kout 0 c).after 0 t0_0)
    ∗ wholeEx c cc0_scratch4 ∗ wholeEx c cc0_scratch6 ∗ wholeEx c cc0_scratch7 ∗ wholeEx c cc0_scratch9
    ∗ (heldAs c (locHalfO c 1 false) (halfOt m c (nxt c) false) ∗ heldAs c (locHalfO c 1 true) (halfOt m c (nxt c) true) ∗ held c (locHalfO c 2 false))
    ∗ (heldAs c (locHalfL c 1 false) (halfLr m c (nxt c) false) ∗ heldAs c (locHalfL c 1 true) (halfLr m c (nxt c) true) ∗ held c (locHalfL c 2 false))
    ∗ (held c (dstO 0 false) ∗ held c (dstO 0 true) ∗ heldAs c (dstO 1 false) ((KFun.V m).o c 2 false) ∗ heldAs c (dstO 1 true) ((KFun.V m).o (nxt c) 1 true))
    ∗ (held c (dstL 0 false) ∗ held c (dstL 0 true) ∗ heldAs c (dstL 1 false) ((KFun.V m).l c 2 false) ∗ heldAs c (dstL 1 true) ((KFun.V m).l (nxt c) 1 true)))

/-- The two parts of the state after the steps, and the joined plane buffers, are the state at the next cut. -/
theorem foot40_at40 (m : (ℓ : Loc nD τ sig) → Buf (Elt F) ℓ) (c : Dev nD) (K : Names) (W : Waits sig Unit)
    (hjoin : (kvDone m c : sProp 𝕄) ⊢ iprop(wholeEx c cc0_scratch5 ∗ copySems0 c ∗ hbm m c)) :
    iprop(FootD40 m c K W ∗ Rest32 m c) ⊢ At40 m c K W := by
  unfold FootD40 Rest32 At40
  iintro ⟨⟨HI, HL, HO, ⟨Hc_o1R, Hc_o1L, Hc_l1R, Hc_l1L⟩, Hkv, Hx, H4, H6, H7, H9, ⟨HO1f, HO1t, HO2f⟩, ⟨HL1f, HL1t, HL2f⟩, ⟨HdO0f, HdO0t, HdO1f, HdO1t⟩, ⟨HdL0f, HdL0t, HdL1f, HdL1t⟩⟩, ⟨Hhop2, Hg, ⟨Hc_o0R, Hc_l0R, Hc_o0L, Hc_l0L⟩, Hstg1, Hstg2, Hstg3, H8, ⟨HO0f, HO0t, HO2t, HO3f, HO3t⟩, ⟨HL0f, HL0t, HL2t, HL3f, HL3t⟩, Hag⟩⟩
  ihave Hj := hjoin $$ Hkv
  icases Hj with ⟨H5, Hcs, Hhbm⟩
  isplitl [HI]; · iexact HI
  isplitl [HL]; · iexact HL
  isplitl [HO]; · iexact HO
  isplitl [Hhop2]; · iexact Hhop2
  isplitl [Hg]; · iexact Hg
  isplitl [Hc_o0R Hc_l0R Hc_o0L Hc_l0L Hc_o1R Hc_o1L Hc_l1R Hc_l1L]
  · isplitl [Hc_o0R]; · iexact Hc_o0R
    isplitl [Hc_l0R]; · iexact Hc_l0R
    isplitl [Hc_o0L]; · iexact Hc_o0L
    isplitl [Hc_l0L]; · iexact Hc_l0L
    isplitl [Hc_o1R]; · iexact Hc_o1R
    isplitl [Hc_o1L]; · iexact Hc_o1L
    isplitl [Hc_l1R]; · iexact Hc_l1R
    iexact Hc_l1L
  isplitl [Hcs]; · iexact Hcs
  isplitl [Hhbm]; · iexact Hhbm
  isplitl [Hx]; · iexact Hx
  isplitl [Hstg1]; · iexact Hstg1
  isplitl [Hstg2]; · iexact Hstg2
  isplitl [Hstg3]; · iexact Hstg3
  isplitl [H4]; · iexact H4
  isplitl [H5]; · iexact H5
  isplitl [H6]; · iexact H6
  isplitl [H7]; · iexact H7
  isplitl [H8]; · iexact H8
  isplitl [H9]; · iexact H9
  isplitl [HO0f HO0t HO1f HO1t HO2f HO2t HO3f HO3t]
  · isplitl [HO0f]; · iexact HO0f
    isplitl [HO0t]; · iexact HO0t
    isplitl [HO1f]; · iexact HO1f
    isplitl [HO1t]; · iexact HO1t
    isplitl [HO2f]; · iexact HO2f
    isplitl [HO2t]; · iexact HO2t
    isplitl [HO3f]; · iexact HO3f
    iexact HO3t
  isplitl [HL0f HL0t HL1f HL1t HL2f HL2t HL3f HL3t]
  · isplitl [HL0f]; · iexact HL0f
    isplitl [HL0t]; · iexact HL0t
    isplitl [HL1f]; · iexact HL1f
    isplitl [HL1t]; · iexact HL1t
    isplitl [HL2f]; · iexact HL2f
    isplitl [HL2t]; · iexact HL2t
    isplitl [HL3f]; · iexact HL3f
    iexact HL3t
  isplitl [HdO0f]; · iexact HdO0f
  isplitl [HdO0t]; · iexact HdO0t
  isplitl [HdO1f]; · iexact HdO1f
  isplitl [HdO1t]; · iexact HdO1t
  isplitl [HdL0f]; · iexact HdL0f
  isplitl [HdL0t]; · iexact HdL0t
  isplitl [HdL1f]; · iexact HdL1f
  isplitl [HdL1t]; · iexact HdL1t
  iexact Hag

set_option maxHeartbeats 40000000 in
/-- The steps, from the first cut's state with any frame `R`, leave `FootD40` and the frame. -/
theorem segD_run (m : (ℓ : Loc nD τ sig) → Buf (Elt F) ℓ) (c : Dev nD) (K : Names) (W : Waits sig Unit) (R : sProp 𝕄)
    (d0 : Dev nD) (v2 v14 v25 v787 v790 : BitVec 32) (hv : ValsD m c) :
    At32 m c K W R d0
      ⊢ wp frame (wpE (defs₀ (F := F)) 𝒱₀ (c : Thread nD τ) none) Set.univ
          (segDProg (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) d0 v2 v14 v25 v787 v790)
          (fun _ => iprop(∃ W', FootD40 m c K W' ∗ R)) := by
  unfold At32 Foot32 C32.sentX C32.kvCut32 later1 held halfRowsO halfRowsL
  iintro ⟨%hd0, ⟨#HI, #HL, HO, ⟨⟨Has_o1R, Har_o1R, Hcs_o1R, Hcr_o1R⟩, ⟨Has_o1L, Har_o1L, Hcs_o1L, Hcr_o1L⟩, ⟨Has_l1R, Har_l1R, Hcs_l1R, Hcr_l1R⟩, ⟨Has_l1L, Har_l1L, Hcs_l1L, Hcr_l1L⟩⟩, ⟨⟨%f5, %vals, %hvals, Hbat⟩, Hd0, Hd2, Hd3, Hlh⟩, Hx, ⟨%f4, Hs4⟩, ⟨%f6, Hs6⟩, Hs7, ⟨%f9, Hs9⟩, ⟨%fo1, HbO1⟩, ⟨%fl1, HbL1⟩, ⟨%fo2, HhO2, %hfo2⟩, ⟨%fl2, HhL2, %hfl2⟩⟩, HR⟩
  subst d0
  ihave Hc := (invs_hop1 (KFun.V m) K c) $$ HI
  icases Hc with ⟨#HIs_o1R, #HIr_o1R, #HIs_o1L, #HIr_o1L, #HIs_l1R, #HIr_l1R, #HIs_l1L, #HIr_l1L⟩
  unfold batD cpBatch cpDeliv kvPl
  have hmw : (levAts L lv : sProp 𝕄) ⊢ MayWait (c : Thread nD τ) (.dma (csemD c 1)) () (owedOf c (prog.drop 10)) :=
    mayWait_low c (csemD c 1) (cellRole_ge _ (by rw [csemD_val]; omega)) _
  have h6 := LoopsV.t6_arg6_within c
  have h7 := LoopsV.t6_arg7_within c
  have h76 := LoopsV.t7_arg6_within c
  have h77 := LoopsV.t7_arg7_within c
  have h78 := LoopsV.t7_arg8_within
  have h79 := LoopsV.t7_arg9_within
  unfold segDProg
  sl_exec
  iapply (wp_wait_send (KFun.V m) c .o false 1 (owedOf c (prog.drop 10)) _ (K (c, some (.o, false, 1, true))) (hamt := by rfl) (hs := by rfl)) $$ [HO Hcs_o1R Has_o1R]
  · isplitr; · iexact HIs_o1R
    isplitl [Hcs_o1R]; · iexact Hcs_o1R
    isplitl [HO]; · iexact HO
    isplitr; · iapply (mayWait_below c (.dma (sendSem .o false 1)) (prog.drop 10) (by rw [show lv ((c : Thread nD τ), .dma (sendSem .o false 1)) () = place .o false 1 from lv_send c .o false 1]; decide)) $$ HL
    iexact Has_o1R
  iintro ⟨HO, Hps_o1R, Hzs_o1R⟩
  sl_exec
  iapply (wp_wait_recv (KFun.V m) c .o false 1 (owedOf c (prog.drop 10)) _ (K (c, some (.o, false, 1, false))) (hamt := by rfl) (hs := by rfl)) $$ [HO Hcr_o1R Har_o1R]
  · isplitr; · iexact HIr_o1R
    isplitl [Hcr_o1R]; · iexact Hcr_o1R
    isplitl [HO]; · iexact HO
    isplitr; · iapply (mayWait_below c (.dma (recvSem .o false 1)) (prog.drop 10) (by rw [show lv ((c : Thread nD τ), .dma (recvSem .o false 1)) () = place .o false 1 from lv_recv c .o false 1]; decide)) $$ HL
    iexact Har_o1R
  iintro ⟨HO, Hpr_o1R, Hzr_o1R⟩
  sl_exec
  iapply (wp_wait_send (KFun.V m) c .l false 1 (owedOf c (prog.drop 10)) _ (K (c, some (.l, false, 1, true))) (hamt := by rfl) (hs := by rfl)) $$ [HO Hcs_l1R Has_l1R]
  · isplitr; · iexact HIs_l1R
    isplitl [Hcs_l1R]; · iexact Hcs_l1R
    isplitl [HO]; · iexact HO
    isplitr; · iapply (mayWait_below c (.dma (sendSem .l false 1)) (prog.drop 10) (by rw [show lv ((c : Thread nD τ), .dma (sendSem .l false 1)) () = place .l false 1 from lv_send c .l false 1]; decide)) $$ HL
    iexact Has_l1R
  iintro ⟨HO, Hps_l1R, Hzs_l1R⟩
  sl_exec
  iapply (wp_wait_recv (KFun.V m) c .l false 1 (owedOf c (prog.drop 10)) _ (K (c, some (.l, false, 1, false))) (hamt := by rfl) (hs := by rfl)) $$ [HO Hcr_l1R Har_l1R]
  · isplitr; · iexact HIr_l1R
    isplitl [Hcr_l1R]; · iexact Hcr_l1R
    isplitl [HO]; · iexact HO
    isplitr; · iapply (mayWait_below c (.dma (recvSem .l false 1)) (prog.drop 10) (by rw [show lv ((c : Thread nD τ), .dma (recvSem .l false 1)) () = place .l false 1 from lv_recv c .l false 1]; decide)) $$ HL
    iexact Har_l1R
  iintro ⟨HO, Hpr_l1R, Hzr_l1R⟩
  ihave Hq_o1R := (Entails.of_eq (show recvPay (KFun.V m) c .o false 1 = iprop(∃ f : Buf (Elt F) ((dstO 1 false).view.loc (c : Thread nD τ)), ((dstO 1 false).view.loc (c : Thread nD τ) ↦[(dstO 1 false).view.set]{fullShare} f) ∗ ⌜(dstO 1 false).view.read (Elt F) f = (KFun.V m).o (fromDev c false) 1 false⌝) from rfl)) $$ Hpr_o1R
  icases Hq_o1R with ⟨%fr_o1R, Hd_o1R, %hfr_o1R⟩
  ihave Hq_l1R := (Entails.of_eq (show recvPay (KFun.V m) c .l false 1 = iprop(∃ f : Buf (Elt F) ((dstL 1 false).view.loc (c : Thread nD τ)), ((dstL 1 false).view.loc (c : Thread nD τ) ↦[(dstL 1 false).view.set]{fullShare} f) ∗ ⌜(dstL 1 false).view.read (Elt F) f = (KFun.V m).l (fromDev c false) 1 false⌝) from rfl)) $$ Hpr_l1R
  icases Hq_l1R with ⟨%fr_l1R, Hd_l1R, %hfr_l1R⟩
  sl_exec
  iapply (wp_wait_send (KFun.V m) c .o true 1 (owedOf c (prog.drop 10)) _ (K (c, some (.o, true, 1, true))) (hamt := by rfl) (hs := by rfl)) $$ [HO Hcs_o1L Has_o1L]
  · isplitr; · iexact HIs_o1L
    isplitl [Hcs_o1L]; · iexact Hcs_o1L
    isplitl [HO]; · iexact HO
    isplitr; · iapply (mayWait_below c (.dma (sendSem .o true 1)) (prog.drop 10) (by rw [show lv ((c : Thread nD τ), .dma (sendSem .o true 1)) () = place .o true 1 from lv_send c .o true 1]; decide)) $$ HL
    iexact Has_o1L
  iintro ⟨HO, Hps_o1L, Hzs_o1L⟩
  sl_exec
  iapply (wp_wait_recv (KFun.V m) c .o true 1 (owedOf c (prog.drop 10)) _ (K (c, some (.o, true, 1, false))) (hamt := by rfl) (hs := by rfl)) $$ [HO Hcr_o1L Har_o1L]
  · isplitr; · iexact HIr_o1L
    isplitl [Hcr_o1L]; · iexact Hcr_o1L
    isplitl [HO]; · iexact HO
    isplitr; · iapply (mayWait_below c (.dma (recvSem .o true 1)) (prog.drop 10) (by rw [show lv ((c : Thread nD τ), .dma (recvSem .o true 1)) () = place .o true 1 from lv_recv c .o true 1]; decide)) $$ HL
    iexact Har_o1L
  iintro ⟨HO, Hpr_o1L, Hzr_o1L⟩
  sl_exec
  iapply (wp_wait_send (KFun.V m) c .l true 1 (owedOf c (prog.drop 10)) _ (K (c, some (.l, true, 1, true))) (hamt := by rfl) (hs := by rfl)) $$ [HO Hcs_l1L Has_l1L]
  · isplitr; · iexact HIs_l1L
    isplitl [Hcs_l1L]; · iexact Hcs_l1L
    isplitl [HO]; · iexact HO
    isplitr; · iapply (mayWait_below c (.dma (sendSem .l true 1)) (prog.drop 10) (by rw [show lv ((c : Thread nD τ), .dma (sendSem .l true 1)) () = place .l true 1 from lv_send c .l true 1]; decide)) $$ HL
    iexact Has_l1L
  iintro ⟨HO, Hps_l1L, Hzs_l1L⟩
  sl_exec
  iapply (wp_wait_recv (KFun.V m) c .l true 1 (owedOf c (prog.drop 10)) _ (K (c, some (.l, true, 1, false))) (hamt := by rfl) (hs := by rfl)) $$ [HO Hcr_l1L Har_l1L]
  · isplitr; · iexact HIr_l1L
    isplitl [Hcr_l1L]; · iexact Hcr_l1L
    isplitl [HO]; · iexact HO
    isplitr; · iapply (mayWait_below c (.dma (recvSem .l true 1)) (prog.drop 10) (by rw [show lv ((c : Thread nD τ), .dma (recvSem .l true 1)) () = place .l true 1 from lv_recv c .l true 1]; decide)) $$ HL
    iexact Har_l1L
  iintro ⟨HO, Hpr_l1L, Hzr_l1L⟩
  sl_exec
  rw [wp_ret]; imodintro
  ihave Hqs_o1R := (Entails.of_eq (show sendPay (KFun.V m) c .o false 1 = iprop(∃ f : Buf (Elt F) ((dstO 0 false).view.loc (c : Thread nD τ)), ((dstO 0 false).view.loc (c : Thread nD τ) ↦[(dstO 0 false).view.set]{fullShare} f) ∗ ⌜(dstO 0 false).view.read (Elt F) f = (KFun.V m).o c 1 false⌝) from rfl)) $$ Hps_o1R
  icases Hqs_o1R with ⟨%fs_o1R, Hds_o1R, %hfs_o1R⟩
  ihave Hqs_o1L := (Entails.of_eq (show sendPay (KFun.V m) c .o true 1 = iprop(∃ f : Buf (Elt F) ((dstO 0 true).view.loc (c : Thread nD τ)), ((dstO 0 true).view.loc (c : Thread nD τ) ↦[(dstO 0 true).view.set]{fullShare} f) ∗ ⌜(dstO 0 true).view.read (Elt F) f = (KFun.V m).o c 1 true⌝) from rfl)) $$ Hps_o1L
  icases Hqs_o1L with ⟨%fs_o1L, Hds_o1L, %hfs_o1L⟩
  ihave Hqs_l1R := (Entails.of_eq (show sendPay (KFun.V m) c .l false 1 = iprop(∃ f : Buf (Elt F) ((dstL 0 false).view.loc (c : Thread nD τ)), ((dstL 0 false).view.loc (c : Thread nD τ) ↦[(dstL 0 false).view.set]{fullShare} f) ∗ ⌜(dstL 0 false).view.read (Elt F) f = (KFun.V m).l c 1 false⌝) from rfl)) $$ Hps_l1R
  icases Hqs_l1R with ⟨%fs_l1R, Hds_l1R, %hfs_l1R⟩
  ihave Hqs_l1L := (Entails.of_eq (show sendPay (KFun.V m) c .l true 1 = iprop(∃ f : Buf (Elt F) ((dstL 0 true).view.loc (c : Thread nD τ)), ((dstL 0 true).view.loc (c : Thread nD τ) ↦[(dstL 0 true).view.set]{fullShare} f) ∗ ⌜(dstL 0 true).view.read (Elt F) f = (KFun.V m).l c 1 true⌝) from rfl)) $$ Hps_l1L
  icases Hqs_l1L with ⟨%fs_l1L, Hds_l1L, %hfs_l1L⟩
  ihave Hq_o1L := (Entails.of_eq (show recvPay (KFun.V m) c .o true 1 = iprop(∃ f : Buf (Elt F) ((dstO 1 true).view.loc (c : Thread nD τ)), ((dstO 1 true).view.loc (c : Thread nD τ) ↦[(dstO 1 true).view.set]{fullShare} f) ∗ ⌜(dstO 1 true).view.read (Elt F) f = (KFun.V m).o (fromDev c true) 1 true⌝) from rfl)) $$ Hpr_o1L
  icases Hq_o1L with ⟨%fr_o1L, Hd_o1L, %hfr_o1L⟩
  ihave Hq_l1L := (Entails.of_eq (show recvPay (KFun.V m) c .l true 1 = iprop(∃ f : Buf (Elt F) ((dstL 1 true).view.loc (c : Thread nD τ)), ((dstL 1 true).view.loc (c : Thread nD τ) ↦[(dstL 1 true).view.set]{fullShare} f) ∗ ⌜(dstL 1 true).view.read (Elt F) f = (KFun.V m).l (fromDev c true) 1 true⌝) from rfl)) $$ Hpr_l1L
  icases Hq_l1L with ⟨%fr_l1L, Hd_l1L, %hfr_l1L⟩
  ihave Hs4 := (Entails.of_eq (whole_pts (F := F) c cc0_scratch4 _).symm) $$ Hs4
  ihave Hs6 := (Entails.of_eq (whole_pts (F := F) c cc0_scratch6 _).symm) $$ Hs6
  ihave Hs7 := (Entails.of_eq (whole_pts (F := F) c cc0_scratch7 _).symm) $$ Hs7
  ihave Hs9 := (Entails.of_eq (whole_pts (F := F) c cc0_scratch9 _).symm) $$ Hs9
  ihave HspO := (Entails.of_eq (locO_halves_eq (F := F) c 1 _)) $$ HbO1
  icases HspO with ⟨HhO1f, HhO1t⟩
  ihave HspL := (Entails.of_eq (locL_halves_eq (F := F) c 1 _)) $$ HbL1
  icases HspL with ⟨HhL1f, HhL1t⟩
  iexists _
  unfold FootD40 closedX C32.kvDone drained held heldAs
  isplitr [HR]
  · isplitr; · iexact HI
    isplitr; · iexact HL
    isplitl [HO]; · iexact HO
    isplitl [Hzs_o1R Hzr_o1R Hzs_o1L Hzr_o1L Hzs_l1R Hzr_l1R Hzs_l1L Hzr_l1L]
    · isplitl [Hzs_o1R Hzr_o1R]; · (isplitl [Hzs_o1R]; · iexact Hzs_o1R
                                    iexact Hzr_o1R)
      isplitl [Hzs_o1L Hzr_o1L]; · (isplitl [Hzs_o1L]; · iexact Hzs_o1L
                                    iexact Hzr_o1L)
      isplitl [Hzs_l1R Hzr_l1R]; · (isplitl [Hzs_l1R]; · iexact Hzs_l1R
                                    iexact Hzr_l1R)
      isplitl [Hzs_l1L]; · iexact Hzs_l1L
      iexact Hzr_l1L
    isplitl [Hd0 Hd2 Hd3 Hlh Hbat Hbat_dst0 Hbat_src0 Hbat_dst1 Hbat_src1 Hbat_dst2 Hbat_src2 Hbat_dst3 Hbat_src3]
    · isplitl [Hd0]; · iexact Hd0
      isplitl [Hbat Hbat_dst0 Hbat_src0 Hbat_dst1 Hbat_src1 Hbat_dst2 Hbat_src2 Hbat_dst3 Hbat_src3]
      · isplitl [Hbat_dst0 Hbat_dst1 Hbat_dst2 Hbat_dst3]
        · isplitl [Hbat_dst0]; · (iexists _; iexact Hbat_dst0)
          isplitl [Hbat_dst1]; · (iexists _; iexact Hbat_dst1)
          isplitl [Hbat_dst2]; · (iexists _; iexact Hbat_dst2)
          iexists _; iexact Hbat_dst3
        isplitl [Hbat_src0 Hbat_src1 Hbat_src2 Hbat_src3]
        · isplitl [Hbat_src0]; · iexact Hbat_src0
          isplitl [Hbat_src1]; · iexact Hbat_src1
          isplitl [Hbat_src2]; · iexact Hbat_src2
          iexact Hbat_src3
        iexact Hbat
      isplitl [Hd2]; · iexact Hd2
      isplitl [Hd3]; · iexact Hd3
      iexact Hlh
    isplitl [Hx]; · iexact Hx
    isplitl [Hs4]; · (iexists _; iexact Hs4)
    isplitl [Hs6]; · (iexists _; iexact Hs6)
    isplitl [Hs7]; · (iexists _; iexact Hs7)
    isplitl [Hs9]; · (iexists _; iexact Hs9)
    isplitl [HhO1f HhO1t HhO2]
    · isplitl [HhO1f]
      · iexists _
        isplitl [HhO1f]; · iexact HhO1f
        ipureintro; exact hv.flashO v787 f4 f9 f6 fo1 fl1 vals hvals false
      isplitl [HhO1t]
      · iexists _
        isplitl [HhO1t]; · iexact HhO1t
        ipureintro; exact hv.flashO v787 f4 f9 f6 fo1 fl1 vals hvals true
      iexists _; iexact HhO2
    isplitl [HhL1f HhL1t HhL2]
    · isplitl [HhL1f]
      · iexists _
        isplitl [HhL1f]; · iexact HhL1f
        ipureintro; exact hv.flashL v787 f4 f9 f6 fo1 fl1 vals hvals false
      isplitl [HhL1t]
      · iexists _
        isplitl [HhL1t]; · iexact HhL1t
        ipureintro; exact hv.flashL v787 f4 f9 f6 fo1 fl1 vals hvals true
      iexists _; iexact HhL2
    isplitl [Hds_o1R Hds_o1L Hd_o1R Hd_o1L]
    · isplitl [Hds_o1R]; · (iexists _; iexact Hds_o1R)
      isplitl [Hds_o1L]; · (iexists _; iexact Hds_o1L)
      isplitl [Hd_o1R]
      · iexists _
        isplitl [Hd_o1R]; · iexact Hd_o1R
        ipureintro; exact hv.mergeO v14 _ fo2 fl2 fr_o1R fr_l1R hfr_o1R hfo2
      iexists _
      isplitl [Hd_o1L]; · iexact Hd_o1L
      ipureintro; exact hfr_o1L
    · isplitl [Hds_l1R]; · (iexists _; iexact Hds_l1R)
      isplitl [Hds_l1L]; · (iexists _; iexact Hds_l1L)
      isplitl [Hd_l1R]
      · iexists _
        isplitl [Hd_l1R]; · iexact Hd_l1R
        ipureintro; exact hv.mergeL v14 _ fo2 fl2 fr_o1R fr_l1R hfr_l1R hfl2
      iexists _
      isplitl [Hd_l1L]; · iexact Hd_l1L
      ipureintro; exact hfr_l1L
  · iexact HR

/-- From the cut before the last flash step to the cut before the last merge of hop 1, given the value equations of the
    steps' results and that the drained local copies join into their buffers. -/
theorem segD_ok' (m : (ℓ : Loc nD τ sig) → Buf (Elt F) ℓ) (c : Dev nD) (K : Names) (hv : ValsD m c)
    (hjoin : (kvDone m c : sProp 𝕄) ⊢ iprop(wholeEx c cc0_scratch5 ∗ copySems0 c ∗ hbm m c))
    (W : Waits sig Unit) (v2 v14 v25 v787 v790 : BitVec 32) :
    At32 m c K W (Rest32 m c) c
      ⊢ wp frame (wpE (defs₀ (F := F)) 𝒱₀ (c : Thread nD τ) none) Set.univ
          (segDProg (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v787 v790)
          (fun _ => iprop(∃ W', At40 m c K W')) :=
  (segD_run m c K W (Rest32 m c) c v2 v14 v25 v787 v790 hv).trans (wp_mono _ _ _ fun _ => by
    iintro ⟨%W', H⟩
    iexists W'
    iapply (foot40_at40 m c K W' hjoin) $$ H)

end Cert.Kernel.Proto
end

/-- info: 'Cert.Kernel.Proto.segD_run' depends on axioms: [propext, Classical.choice, Quot.sound] -/
#guard_msgs in #print axioms Cert.Kernel.Proto.segD_run
/-- info: 'Cert.Kernel.Proto.segD_ok'' depends on axioms: [propext, Classical.choice, Quot.sound] -/
#guard_msgs in #print axioms Cert.Kernel.Proto.segD_ok'
-- ==== Proof.KB.KvJoin.lean ====
/-
  The local copies at the exit: the four drained batches and the kept halves of the source planes, in the device's
  numbering, give back the key and value buffer whole, the copy semaphores at zero and the unstaged arrays as launched.
-/
import proofs.«900754_g7700000000000755_dist_attn_cross_gqa_kvseq_b4_sq256_skv1024_d1024_hq8_dh128_v7x_i4_f32_1_alg».proof.Proof.KB.Cut32
import proofs.«900754_g7700000000000755_dist_attn_cross_gqa_kvseq_b4_sq256_skv1024_d1024_hq8_dh128_v7x_i4_f32_1_alg».proof.Proof.KB.Rest27
import proofs.«900754_g7700000000000755_dist_attn_cross_gqa_kvseq_b4_sq256_skv1024_d1024_hq8_dh128_v7x_i4_f32_1_alg».proof.Proof.KB.KvRel
import proofs.«900754_g7700000000000755_dist_attn_cross_gqa_kvseq_b4_sq256_skv1024_d1024_hq8_dh128_v7x_i4_f32_1_alg».proof.Proof.KB.KvSplit
import proofs.«900754_g7700000000000755_dist_attn_cross_gqa_kvseq_b4_sq256_skv1024_d1024_hq8_dh128_v7x_i4_f32_1_alg».proof.Proof.KB.HbmSplit
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.KB.Data

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open C32

variable {F : FTy → Type} [FloatOps F]

local notation "𝕄" => MT nD τ sig Unit (Elt F) ℕ UU ℕ

variable (c : Dev nD) (m : (ℓ : Loc nD τ sig) → Buf (Elt F) ℓ)

/-! ## The kept halves of the source planes, in both numberings -/

/-- A source plane held with share `q` at the launch contents. -/
def srcPt (q : PosShare TreeShare) (src : Memref sig .tc .hbm S1024x128 .f32) : sProp 𝕄 :=
  src.view.loc (c : Thread nD τ) ↦[src.view.set]{q} m (src.view.loc (c : Thread nD τ))

/-- The kept halves of batch `b`'s source planes, as issued; and of the device's `j`-th batch. -/
def keptL (b : Fin 4) : sProp 𝕄 := iprop(srcPt c m fullShare.left (hbKS b 0) ∗ srcPt c m fullShare.left (hbVS b 0) ∗ srcPt c m fullShare.left (hbKS b 1))
def keptD (j : Fin 4) : sProp 𝕄 := iprop(srcPt c m fullShare.left (hbKD c j 0) ∗ srcPt c m fullShare.left (hbVD c j 0) ∗ srcPt c m fullShare.left (hbKD c j 1))

theorem keptD_eq (j : Fin 4) : keptD c m j = keptL c m (bIdx c j) := by
  unfold keptD keptL; rw [hbKD_eq, hbVD_eq, hbKD_eq]

theorem leftHalves_eq : leftHalves m c = iprop(keptD c m 0 ∗ keptD c m 1 ∗ keptD c m 2 ∗ keptD c m 3) := by
  unfold leftHalves
  rw [bigSep_fin4]
  rfl

theorem kept_rot : iprop(keptD c m 0 ∗ keptD c m 1 ∗ keptD c m 2 ∗ keptD c m 3) ⊢ iprop(keptL c m 0 ∗ keptL c m 1 ∗ keptL c m 2 ∗ keptL c m 3) := by
  rw [keptD_eq, keptD_eq, keptD_eq, keptD_eq]
  iintro ⟨H0, H1, H2, H3⟩
  fin_cases c
  · isplitl [H0]; · iexact H0
    isplitl [H1]; · iexact H1
    isplitl [H2]; · iexact H2
    iexact H3
  · isplitl [H3]; · iexact H3
    isplitl [H0]; · iexact H0
    isplitl [H1]; · iexact H1
    iexact H2
  · isplitl [H2]; · iexact H2
    isplitl [H3]; · iexact H3
    isplitl [H0]; · iexact H0
    iexact H1
  · isplitl [H1]; · iexact H1
    isplitl [H2]; · iexact H2
    isplitl [H3]; · iexact H3
    iexact H0

/-- And the other way: the kept halves as issued are the kept halves in the device's numbering. -/
theorem kept_unrot : iprop(keptL c m 0 ∗ keptL c m 1 ∗ keptL c m 2 ∗ keptL c m 3) ⊢ iprop(keptD c m 0 ∗ keptD c m 1 ∗ keptD c m 2 ∗ keptD c m 3) := by
  rw [keptD_eq, keptD_eq, keptD_eq, keptD_eq]
  iintro ⟨H0, H1, H2, H3⟩
  fin_cases c
  · isplitl [H0]; · iexact H0
    isplitl [H1]; · iexact H1
    isplitl [H2]; · iexact H2
    iexact H3
  · isplitl [H1]; · iexact H1
    isplitl [H2]; · iexact H2
    isplitl [H3]; · iexact H3
    iexact H0
  · isplitl [H2]; · iexact H2
    isplitl [H3]; · iexact H3
    isplitl [H0]; · iexact H0
    iexact H1
  · isplitl [H3]; · iexact H3
    isplitl [H0]; · iexact H0
    isplitl [H1]; · iexact H1
    iexact H2

/-- The two halves of a share make it. -/
theorem srcPt_halves (src : Memref sig .tc .hbm S1024x128 .f32) :
    iprop(srcPt c m fullShare.left src ∗ srcPt c m fullShare.right src) ⊢ srcPt (F := F) c m fullShare src :=
  (pointsTo_share (PosShare.mem_left_op_right fullShare)).2

/-! ## A drained batch, in both numberings -/

/-- Batch `b` of the local copies waited for, as issued: its four planes at any contents, what its copies took of their
    source planes, its semaphore at zero. -/
def drainedL (b : Fin 4) : sProp 𝕄 :=
  iprop((held c (kvS 0 ⟨2 * b.val + 0, by omega⟩) ∗ held c (kvS 1 ⟨2 * b.val + 0, by omega⟩) ∗ held c (kvS 0 ⟨2 * b.val + 1, by omega⟩) ∗ held c (kvS 1 ⟨2 * b.val + 1, by omega⟩))
    ∗ (srcPt c m fullShare.right (hbKS b 0) ∗ srcPt c m fullShare.right (hbVS b 0) ∗ srcPt c m fullShare.right (hbKS b 1) ∗ srcPt c m fullShare (hbVS b 1))
    ∗ semVal (((c : Thread nD τ), .dma (copySem b)) : GSem nD τ sig) 0)

theorem drained_eq (j : Fin 4) : drained m c j = drainedL c m (bIdx c j) := by
  unfold drained drainedL srcPt
  rw [kvD_eq, kvD_eq, kvD_eq, kvD_eq, hbKD_eq, hbVD_eq, hbKD_eq, hbVD_eq, csemD_eq_copySem]
  rfl

/-- The four drained batches in the device's numbering are the four as issued, rotated. -/
theorem drained_rot :
    iprop(drained m c 0 ∗ drained m c 1 ∗ drained m c 2 ∗ drained m c 3) ⊢ iprop(drainedL c m 0 ∗ drainedL c m 1 ∗ drainedL c m 2 ∗ drainedL c m 3) := by
  rw [drained_eq, drained_eq, drained_eq, drained_eq]
  iintro ⟨H0, H1, H2, H3⟩
  fin_cases c
  · isplitl [H0]; · iexact H0
    isplitl [H1]; · iexact H1
    isplitl [H2]; · iexact H2
    iexact H3
  · isplitl [H3]; · iexact H3
    isplitl [H0]; · iexact H0
    isplitl [H1]; · iexact H1
    iexact H2
  · isplitl [H2]; · iexact H2
    isplitl [H3]; · iexact H3
    isplitl [H0]; · iexact H0
    iexact H1
  · isplitl [H1]; · iexact H1
    isplitl [H2]; · iexact H2
    isplitl [H3]; · iexact H3
    iexact H0

/-- A drained batch with its kept halves: its four planes held, its four source planes whole again, its semaphore at zero. -/
theorem drainedL_open (b : Fin 4) :
    iprop(drainedL c m b ∗ keptL c m b)
      ⊢ iprop((held c (kvS 0 ⟨2 * b.val + 0, by omega⟩) ∗ held c (kvS 1 ⟨2 * b.val + 0, by omega⟩) ∗ held c (kvS 0 ⟨2 * b.val + 1, by omega⟩) ∗ held c (kvS 1 ⟨2 * b.val + 1, by omega⟩))
          ∗ (srcPt c m fullShare (hbKS b 0) ∗ srcPt c m fullShare (hbKS b 1)) ∗ (srcPt c m fullShare (hbVS b 0) ∗ srcPt c m fullShare (hbVS b 1))
          ∗ semVal (((c : Thread nD τ), .dma (copySem b)) : GSem nD τ sig) 0) := by
  unfold drainedL keptL
  iintro ⟨⟨P, ⟨K0r, V0r, K1r, V1f⟩, Hsem⟩, K0l, V0l, K1l⟩
  isplitl [P]; · iexact P
  isplitl [K0l K0r K1l K1r]
  · isplitl [K0l K0r]
    · iapply (srcPt_halves c m _); isplitl [K0l]; · iexact K0l
      iexact K0r
    · iapply (srcPt_halves c m _); isplitl [K1l]; · iexact K1l
      iexact K1r
  isplitl [V0l V0r V1f]
  · isplitl [V0l V0r]
    · iapply (srcPt_halves c m _); isplitl [V0l]; · iexact V0l
      iexact V0r
    · iexact V1f
  iexact Hsem

/-! ## The join -/

theorem lit_join :
    iprop(drainedL c m 0 ∗ drainedL c m 1 ∗ drainedL c m 2 ∗ drainedL c m 3 ∗ keptL c m 0 ∗ keptL c m 1 ∗ keptL c m 2 ∗ keptL c m 3)
      ⊢ iprop(wholeEx c cc0_scratch5 ∗ copySems0 c ∗ hbm m c) := by
  iintro ⟨B0, B1, B2, B3, Kp0, Kp1, Kp2, Kp3⟩
  ihave R0 := (drainedL_open c m 0) $$ [B0 Kp0]
  · isplitl [B0]; · iexact B0
    iexact Kp0
  icases R0 with ⟨⟨P00, P10, P01, P11⟩, ⟨K00, K01⟩, ⟨V00, V01⟩, S0⟩
  ihave R1 := (drainedL_open c m 1) $$ [B1 Kp1]
  · isplitl [B1]; · iexact B1
    iexact Kp1
  icases R1 with ⟨⟨P02, P12, P03, P13⟩, ⟨K10, K11⟩, ⟨V10, V11⟩, S1⟩
  ihave R2 := (drainedL_open c m 2) $$ [B2 Kp2]
  · isplitl [B2]; · iexact B2
    iexact Kp2
  icases R2 with ⟨⟨P04, P14, P05, P15⟩, ⟨K20, K21⟩, ⟨V20, V21⟩, S2⟩
  ihave R3 := (drainedL_open c m 3) $$ [B3 Kp3]
  · isplitl [B3]; · iexact B3
    iexact Kp3
  icases R3 with ⟨⟨P06, P16, P07, P17⟩, ⟨K30, K31⟩, ⟨V30, V31⟩, S3⟩
  isplitl [P00 P10 P01 P11 P02 P12 P03 P13 P04 P14 P05 P15 P06 P16 P07 P17]
  · iapply (kv_join c)
    isplitl [P00]; · iexact P00
    isplitl [P10]; · iexact P10
    isplitl [P01]; · iexact P01
    isplitl [P11]; · iexact P11
    isplitl [P02]; · iexact P02
    isplitl [P12]; · iexact P12
    isplitl [P03]; · iexact P03
    isplitl [P13]; · iexact P13
    isplitl [P04]; · iexact P04
    isplitl [P14]; · iexact P14
    isplitl [P05]; · iexact P05
    isplitl [P15]; · iexact P15
    isplitl [P06]; · iexact P06
    isplitl [P16]; · iexact P16
    isplitl [P07]; · iexact P07
    iexact P17
  isplitl [S0 S1 S2 S3]
  · unfold copySems0
    rw [bigSep_fin4]
    isplitl [S0]; · iexact S0
    isplitl [S1]; · iexact S1
    isplitl [S2]; · iexact S2
    iexact S3
  unfold hbm
  isplitl [K00 K01 K10 K11 K20 K21 K30 K31]
  · rw [hbK_split_eq c (m ((c : Thread nD τ).loc main_arg3))]
    unfold srcPt
    isplitl [K00]; · iexact K00
    isplitl [K01]; · iexact K01
    isplitl [K10]; · iexact K10
    isplitl [K11]; · iexact K11
    isplitl [K20]; · iexact K20
    isplitl [K21]; · iexact K21
    isplitl [K30]; · iexact K30
    iexact K31
  · rw [hbV_split_eq c (m ((c : Thread nD τ).loc main_arg4))]
    unfold srcPt
    isplitl [V00]; · iexact V00
    isplitl [V01]; · iexact V01
    isplitl [V10]; · iexact V10
    isplitl [V11]; · iexact V11
    isplitl [V20]; · iexact V20
    isplitl [V21]; · iexact V21
    isplitl [V30]; · iexact V30
    iexact V31

/-- All four batches drained: the key and value buffer, the copy semaphores and the unstaged arrays are back. -/
theorem kvDone_join : kvDone m c ⊢ iprop(wholeEx c cc0_scratch5 ∗ copySems0 c ∗ hbm m c) := by
  unfold kvDone
  iintro ⟨D0, D1, D2, D3, LH⟩
  ihave DL := (drained_rot c m) $$ [D0 D1 D2 D3]
  · isplitl [D0]; · iexact D0
    isplitl [D1]; · iexact D1
    isplitl [D2]; · iexact D2
    iexact D3
  icases DL with ⟨B0, B1, B2, B3⟩
  ihave KL := ((Entails.of_eq (leftHalves_eq c m)).trans (kept_rot c m)) $$ LH
  icases KL with ⟨Kp0, Kp1, Kp2, Kp3⟩
  iapply (lit_join c m)
  isplitl [B0]; · iexact B0
  isplitl [B1]; · iexact B1
  isplitl [B2]; · iexact B2
  isplitl [B3]; · iexact B3
  isplitl [Kp0]; · iexact Kp0
  isplitl [Kp1]; · iexact Kp1
  isplitl [Kp2]; · iexact Kp2
  iexact Kp3

end Cert.Kernel.Proto

end
-- ==== Proof.KB.ValsDProof.lean ====
/-
  What the merge of hop 1's right-going half leaves, and the two merge equations of the steps' results.

  After the four trips of the merge loop, slot k of the landing slice reads the payload of trip k: the slot as it arrived,
  merged with row k of the device's own half block of batch `c + 2` (no other trip touches the slot, and before trip k
  none had). Read as hop 2's source, and given what arrived and what the half block holds, that is the value the
  schedule sends at hop 2.
-/
import proofs.«900754_g7700000000000755_dist_attn_cross_gqa_kvseq_b4_sq256_skv1024_d1024_hq8_dh128_v7x_i4_f32_1_alg».proof.Proof.KB.LoopsVRead
import proofs.«900754_g7700000000000755_dist_attn_cross_gqa_kvseq_b4_sq256_skv1024_d1024_hq8_dh128_v7x_i4_f32_1_alg».proof.Proof.KB.LoopsVFacts
import proofs.«900754_g7700000000000755_dist_attn_cross_gqa_kvseq_b4_sq256_skv1024_d1024_hq8_dh128_v7x_i4_f32_1_alg».proof.Proof.KB.Bridge
import proofs.«900754_g7700000000000755_dist_attn_cross_gqa_kvseq_b4_sq256_skv1024_d1024_hq8_dh128_v7x_i4_f32_1_alg».proof.Proof.KB.BodyD
import proofs.«900754_g7700000000000755_dist_attn_cross_gqa_kvseq_b4_sq256_skv1024_d1024_hq8_dh128_v7x_i4_f32_1_alg».proof.Proof.KB.KvJoin

set_option maxRecDepth 8192

noncomputable section

namespace Cert.Kernel.Proto

open Cert.Kernel Cert.Kernel.Gen Cert.Kernel.Ring Cert.Kernel.KFun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem t7_trips : k0_t7_loop.trips = 4 := by decide

/-- The merge of hop 1's right-going half, numerators: the merged landing slice, read as hop 2's source, is what the schedule sends then. -/
theorem mergeO7_value (m : (ℓ : Loc nD τ sig) → Buf (Elt F) ℓ) (c : Dev nD) (v14 v970 : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 4) (d : Fin 128) (i : Fin 256), fO3 (ix3 (⟨8 * ((c.val + 2) % 4) + (headAt false k).val, by have := (headAt false k).isLt; omega⟩ : Fin 32) d i) = KFun.ot m c (nxt (nxt c)) (headAt false k) (ix3 0 d i))
    (hrecv : (dstO 1 false).view.read (Elt F) f8 = (KFun.V m).o (fromDev c false) 1 false) :
    (srcO c 2 false).view.read (Elt F) (rsO.view.writes (Elt F) f8 (LoopsV.pbS_k0_t7 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v970 (LoopsV.t7_arg6_within c) (LoopsV.t7_arg7_within c) LoopsV.t7_arg8_within LoopsV.t7_arg9_within fO3 fL3 f8 f9 k0_t7_loop.trips).1) = (KFun.V m).o c 2 false := by
  refine vo_succ_of_merge m c 1 false f8 _ (fun k t => fO3 (ix3 (⟨8 * ((c.val + 2) % 4) + (headAt false k).val, by have := (headAt false k).isLt; omega⟩ : Fin 32) (⟨(t 1).val, (t 1).isLt⟩ : Fin 128) (⟨(t 2).val, (t 2).isLt⟩ : Fin 256))) hrecv ?_ ?_
  · intro k
    funext t
    obtain ⟨u, d, i, rfl⟩ : ∃ (u : Fin 1) (d : Fin 128) (i : Fin 256), t = ix3 u d i := ⟨t 0, t 1, t 2, eq_ix3 t⟩
    obtain rfl : u = 0 := Subsingleton.elim _ _
    exact hrows k d i
  · intro k d i
    refine (dstO_read_1f c _ k d i).trans ?_
    have hj : k.val < k0_t7_loop.trips := by rw [t7_trips]; exact k.isLt
    have hidx : ∀ (d : Fin 128) (i : Fin 256), (Rect.unit (s := S3x8x128x256) (k0_off53 ⟨k.val, hj⟩) S1x1x128x256.size (k0_off53_inb ⟨k.val, hj⟩)).emb (ix4 (0 : Fin 1) (0 : Fin 1) d i) = ix4 (1 : Fin 3) (headAt false k) d i := by
      intro d i
      funext a
      refine Fin.ext ?_
      rw [Rect.emb_apply]
      simp only [Rect.off_unit, Rect.stride_unit, Nat.one_mul, k0_off53_eq]
      match a with
      | ⟨0, _⟩ => rfl
      | ⟨1, _⟩ => show k.val + 0 = (headAt false k).val; rfl
      | ⟨2, _⟩ => show 0 + d.val = d.val; omega
      | ⟨3, _⟩ => show 0 + i.val = i.val; omega
    have hidx6 : ∀ (d : Fin 128) (i : Fin 256), (Rect.unit (s := S32x128x256) (k0_off54 c ⟨k.val, hj⟩) S1x128x256.size (k0_off54_inb c ⟨k.val, hj⟩)).emb (ix3 (0 : Fin 1) d i) = ix3 (⟨8 * ((c.val + 2) % 4) + (headAt false k).val, by have := (headAt false k).isLt; omega⟩ : Fin 32) d i := by
      intro d i
      funext a
      refine Fin.ext ?_
      rw [Rect.emb_apply]
      simp only [Rect.off_unit, Rect.stride_unit, Nat.one_mul, off54_eq]
      match a with
      | ⟨0, _⟩ => show 8 * ((c.val + 2) % 4) + k.val + 0 = 8 * ((c.val + 2) % 4) + (headAt false k).val; rfl
      | ⟨1, _⟩ => show 0 + d.val = d.val; omega
      | ⟨2, _⟩ => show 0 + i.val = i.val; omega
    rw [← hidx]
    refine (LoopsV.readS_k0_t7_arg8 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v970 (LoopsV.t7_arg6_within c) (LoopsV.t7_arg7_within c) LoopsV.t7_arg8_within LoopsV.t7_arg9_within fO3 fL3 f8 f9 ⟨k.val, hj⟩ (ix4 (0 : Fin 1) (0 : Fin 1) d i)).trans ?_
    rw [LoopsV.before_k0_t7_arg8]
    have hA : View.readAt (Elt F) rsO.view (Rect.unit (s := S3x8x128x256) (k0_off53 ⟨k.val, hj⟩) S1x1x128x256.size (k0_off53_inb ⟨k.val, hj⟩)).toLoadRect f8
        = fun s : S1x1x128x256.Idx => (srcO c (Fin.succ (1 : Fin 2)) false).view.read (Elt F) f8 (ix3 k (⟨(s 2).val, (s 2).isLt⟩ : Fin 128) (⟨(s 3).val, (s 3).isLt⟩ : Fin 256)) := by
      funext s
      obtain ⟨u, v, d', i', rfl⟩ : ∃ (u v : Fin 1) (d' : Fin 128) (i' : Fin 256), s = ix4 u v d' i' := ⟨s 0, s 1, s 2, s 3, eq_ix4 s⟩
      obtain rfl : u = 0 := Subsingleton.elim _ _
      obtain rfl : v = 0 := Subsingleton.elim _ _
      refine Eq.trans ?_ (dstO_read_1f c f8 k d' i').symm
      exact congrArg f8 (hidx d' i')
    have hB : View.readAt (Elt F) locO.view (Rect.unit (s := S32x128x256) (k0_off54 c ⟨k.val, hj⟩) S1x128x256.size (k0_off54_inb c ⟨k.val, hj⟩)).toLoadRect fO3
        = fun t : S1x128x256.Idx => fO3 (ix3 (⟨8 * ((c.val + 2) % 4) + (headAt false k).val, by have := (headAt false k).isLt; omega⟩ : Fin 32) (⟨(t 1).val, (t 1).isLt⟩ : Fin 128) (⟨(t 2).val, (t 2).isLt⟩ : Fin 256)) := by
      funext t
      obtain ⟨u, d', i', rfl⟩ : ∃ (u : Fin 1) (d' : Fin 128) (i' : Fin 256), t = ix3 u d' i' := ⟨t 0, t 1, t 2, eq_ix3 t⟩
      obtain rfl : u = 0 := Subsingleton.elim _ _
      exact congrArg fO3 (hidx6 d' i')
    rw [hA, hB]
    all_goals rfl

/-- The merge of hop 1's right-going half, denominators. -/
theorem mergeL7_value (m : (ℓ : Loc nD τ sig) → Buf (Elt F) ℓ) (c : Dev nD) (v14 v970 : BitVec 32)
    (fO3 : Buf (Elt F) ((c : Thread nD τ).loc cc0_scratch0)) (fL3 : Buf (Elt F) ((c : Thread nD τ).loc cc0_scratch1)) (f8 : Buf (Elt F) ((c : Thread nD τ).loc cc0_scratch2)) (f9 : Buf (Elt F) ((c : Thread nD τ).loc cc0_scratch3))
    (hrows : ∀ (k : Fin 4) (i : Fin 256), fL3 (ix3 (⟨8 * ((c.val + 2) % 4) + (headAt false k).val, by have := (headAt false k).isLt; omega⟩ : Fin 32) (0 : Fin 1) i) = KFun.lrow m c (nxt (nxt c)) (headAt false k) (ix3 0 0 i))
    (hrecv : (dstL 1 false).view.read (Elt F) f9 = (KFun.V m).l (fromDev c false) 1 false) :
    (srcL c 2 false).view.read (Elt F) (rsL.view.writes (Elt F) f9 (LoopsV.pbS_k0_t7 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v970 (LoopsV.t7_arg6_within c) (LoopsV.t7_arg7_within c) LoopsV.t7_arg8_within LoopsV.t7_arg9_within fO3 fL3 f8 f9 k0_t7_loop.trips).2) = (KFun.V m).l c 2 false := by
  refine vl_succ_of_merge m c 1 false f9 _ (fun k t => fL3 (ix3 (⟨8 * ((c.val + 2) % 4) + (headAt false k).val, by have := (headAt false k).isLt; omega⟩ : Fin 32) (0 : Fin 1) (⟨(t 2).val, (t 2).isLt⟩ : Fin 256))) hrecv ?_ ?_
  · intro k
    funext t
    obtain ⟨u, v, i, rfl⟩ : ∃ (u v : Fin 1) (i : Fin 256), t = ix3 u v i := ⟨t 0, t 1, t 2, eq_ix3 t⟩
    obtain rfl : u = 0 := Subsingleton.elim _ _
    obtain rfl : v = 0 := Subsingleton.elim _ _
    exact hrows k i
  · intro k i
    refine (dstL_read_1f c _ k 0 i).trans ?_
    have hj : k.val < k0_t7_loop.trips := by rw [t7_trips]; exact k.isLt
    have hidx : ∀ (i : Fin 256), (Rect.unit (s := S3x8x1x256) (k0_off51 ⟨k.val, hj⟩) S1x1x1x256.size (k0_off51_inb ⟨k.val, hj⟩)).emb (ix4 (0 : Fin 1) (0 : Fin 1) (0 : Fin 1) i) = ix4 (1 : Fin 3) (headAt false k) (0 : Fin 1) i := by
      intro i
      funext a
      refine Fin.ext ?_
      rw [Rect.emb_apply]
      simp only [Rect.off_unit, Rect.stride_unit, Nat.one_mul, k0_off51_eq]
      match a with
      | ⟨0, _⟩ => rfl
      | ⟨1, _⟩ => show k.val + 0 = (headAt false k).val; rfl
      | ⟨2, _⟩ => rfl
      | ⟨3, _⟩ => show 0 + i.val = i.val; omega
    have hidx7 : ∀ (i : Fin 256), (Rect.unit (s := S32x1x256) (k0_off52 c ⟨k.val, hj⟩) S1x1x256.size (k0_off52_inb c ⟨k.val, hj⟩)).emb (ix3 (0 : Fin 1) (0 : Fin 1) i) = ix3 (⟨8 * ((c.val + 2) % 4) + (headAt false k).val, by have := (headAt false k).isLt; omega⟩ : Fin 32) (0 : Fin 1) i := by
      intro i
      funext a
      refine Fin.ext ?_
      rw [Rect.emb_apply]
      simp only [Rect.off_unit, Rect.stride_unit, Nat.one_mul, off52_eq]
      match a with
      | ⟨0, _⟩ => show 8 * ((c.val + 2) % 4) + k.val + 0 = 8 * ((c.val + 2) % 4) + (headAt false k).val; rfl
      | ⟨1, _⟩ => rfl
      | ⟨2, _⟩ => show 0 + i.val = i.val; omega
    rw [← hidx]
    refine (LoopsV.readS_k0_t7_arg9 (F := F) 𝒱₀ c none (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.isWhole_whole _) (Memref.isWhole_whole _) (Memref.isWhole_whole _) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v970 (LoopsV.t7_arg6_within c) (LoopsV.t7_arg7_within c) LoopsV.t7_arg8_within LoopsV.t7_arg9_within fO3 fL3 f8 f9 ⟨k.val, hj⟩ (ix4 (0 : Fin 1) (0 : Fin 1) (0 : Fin 1) i)).trans ?_
    rw [LoopsV.before_k0_t7_arg9]
    have hA : View.readAt (Elt F) rsL.view (Rect.unit (s := S3x8x1x256) (k0_off51 ⟨k.val, hj⟩) S1x1x1x256.size (k0_off51_inb ⟨k.val, hj⟩)).toLoadRect f9
        = fun s : S1x1x1x256.Idx => (srcL c (Fin.succ (1 : Fin 2)) false).view.read (Elt F) f9 (ix3 k (0 : Fin 1) (⟨(s 3).val, (s 3).isLt⟩ : Fin 256)) := by
      funext s
      obtain ⟨u, v, w, i', rfl⟩ : ∃ (u v w : Fin 1) (i' : Fin 256), s = ix4 u v w i' := ⟨s 0, s 1, s 2, s 3, eq_ix4 s⟩
      obtain rfl : u = 0 := Subsingleton.elim _ _
      obtain rfl : v = 0 := Subsingleton.elim _ _
      obtain rfl : w = 0 := Subsingleton.elim _ _
      refine Eq.trans ?_ (dstL_read_1f c f9 k 0 i').symm
      exact congrArg f9 (hidx i')
    have hB : View.readAt (Elt F) locL.view (Rect.unit (s := S32x1x256) (k0_off52 c ⟨k.val, hj⟩) S1x1x256.size (k0_off52_inb c ⟨k.val, hj⟩)).toLoadRect fL3
        = fun t : S1x1x256.Idx => fL3 (ix3 (⟨8 * ((c.val + 2) % 4) + (headAt false k).val, by have := (headAt false k).isLt; omega⟩ : Fin 32) (0 : Fin 1) (⟨(t 2).val, (t 2).isLt⟩ : Fin 256)) := by
      funext t
      obtain ⟨u, v, i', rfl⟩ : ∃ (u v : Fin 1) (i' : Fin 256), t = ix3 u v i' := ⟨t 0, t 1, t 2, eq_ix3 t⟩
      obtain rfl : u = 0 := Subsingleton.elim _ _
      obtain rfl : v = 0 := Subsingleton.elim _ _
      exact congrArg fL3 (hidx7 i')
    rw [hA, hB]
    all_goals rfl

/-- The merged numerators' slice is what the schedule sends at hop 2, as the steps' result states it. -/
theorem valsD_mergeO (m : (ℓ : Loc nD τ sig) → Buf (Elt F) ℓ) (c : Dev nD) :
    ∀ (v14 v970 : BitVec 32) (fo2 : Buf (Elt F) ((c : Thread nD τ).loc cc0_scratch0)) (fl2 : Buf (Elt F) ((c : Thread nD τ).loc cc0_scratch1))
      (fro : Buf (Elt F) ((c : Thread nD τ).loc cc0_scratch2)) (frl : Buf (Elt F) ((c : Thread nD τ).loc cc0_scratch3)),
      (dstO 1 false).view.read (Elt F) fro = (KFun.V m).o (fromDev c false) 1 false →
      (∀ (k : Fin 4) (d : Fin 128) (i : Fin 256),
        fo2 (ix3 (⟨halfRow c 2 false + k.val, by have := halfRow_le c 2 false; omega⟩ : Fin 32) d i) = KFun.ot m c (nxt (nxt c)) (KFun.headAt false k) (ix3 0 d i)) →
      (dstO 1 false).view.read (Elt F) (rsO.view.writes (Elt F) fro (mergeD c v14 v970 fo2 fl2 fro frl).1) = (KFun.V m).o c 2 false := by
  intro v14 v970 fo2 fl2 fro frl hrecv hrows
  have e : ∀ k : Fin 4, (⟨halfRow c 2 false + k.val, by have := halfRow_le c 2 false; omega⟩ : Fin 32)
      = ⟨8 * ((c.val + 2) % 4) + (headAt false k).val, by have := (headAt false k).isLt; omega⟩ := fun k =>
    Fin.ext (by show 8 * ((c.val + 2) % 4) + 0 + k.val = 8 * ((c.val + 2) % 4) + k.val; omega)
  exact mergeO7_value m c v14 v970 fo2 fl2 fro frl
    (fun k d i => (congrArg (fun r => fo2 (ix3 r d i)) (e k)).symm.trans (hrows k d i)) hrecv

/-- The merged denominators' slice likewise. -/
theorem valsD_mergeL (m : (ℓ : Loc nD τ sig) → Buf (Elt F) ℓ) (c : Dev nD) :
    ∀ (v14 v970 : BitVec 32) (fo2 : Buf (Elt F) ((c : Thread nD τ).loc cc0_scratch0)) (fl2 : Buf (Elt F) ((c : Thread nD τ).loc cc0_scratch1))
      (fro : Buf (Elt F) ((c : Thread nD τ).loc cc0_scratch2)) (frl : Buf (Elt F) ((c : Thread nD τ).loc cc0_scratch3)),
      (dstL 1 false).view.read (Elt F) frl = (KFun.V m).l (fromDev c false) 1 false →
      (∀ (k : Fin 4) (i : Fin 256),
        fl2 (ix3 (⟨halfRow c 2 false + k.val, by have := halfRow_le c 2 false; omega⟩ : Fin 32) (0 : Fin 1) i) = KFun.lrow m c (nxt (nxt c)) (KFun.headAt false k) (ix3 0 0 i)) →
      (dstL 1 false).view.read (Elt F) (rsL.view.writes (Elt F) frl (mergeD c v14 v970 fo2 fl2 fro frl).2) = (KFun.V m).l c 2 false := by
  intro v14 v970 fo2 fl2 fro frl hrecv hrows
  have e : ∀ k : Fin 4, (⟨halfRow c 2 false + k.val, by have := halfRow_le c 2 false; omega⟩ : Fin 32)
      = ⟨8 * ((c.val + 2) % 4) + (headAt false k).val, by have := (headAt false k).isLt; omega⟩ := fun k =>
    Fin.ext (by show 8 * ((c.val + 2) % 4) + 0 + k.val = 8 * ((c.val + 2) % 4) + k.val; omega)
  exact mergeL7_value m c v14 v970 fo2 fl2 fro frl
    (fun k i => (congrArg (fun r => fl2 (ix3 r (0 : Fin 1) i)) (e k)).symm.trans (hrows k i)) hrecv

/-- The steps between the cut before the last flash step and the cut before the last merge of hop 1, given the value
    equations of their results: the drained local copies join into their buffers. -/
theorem segD_ok (m : (ℓ : Loc nD τ sig) → Buf (Elt F) ℓ) (c : Dev nD) (K : Names) (hv : ValsD m c) :
    ∀ (W : Waits sig Unit) (v2 v14 v25 v787 v790 : BitVec 32),
      At32 m c K W (Rest32 m c) c
        ⊢ wp frame (wpE (defs₀ (F := F)) 𝒱₀ (c : Thread nD τ) none) Set.univ
            (segDProg (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v787 v790)
            (fun _ => iprop(∃ W', At40 m c K W')) :=
  fun W v2 v14 v25 v787 v790 => segD_ok' m c K hv (kvDone_join c m) W v2 v14 v25 v787 v790

end Cert.Kernel.Proto

end

/-- info: 'Cert.Kernel.Proto.valsD_mergeO' depends on axioms: [propext, Classical.choice, Quot.sound] -/
#guard_msgs in #print axioms Cert.Kernel.Proto.valsD_mergeO
/-- info: 'Cert.Kernel.Proto.valsD_mergeL' depends on axioms: [propext, Classical.choice, Quot.sound] -/
#guard_msgs in #print axioms Cert.Kernel.Proto.valsD_mergeL

/-- info: 'Cert.Kernel.Proto.segD_ok' depends on axioms: [propext, Classical.choice, Quot.sound] -/
#guard_msgs in #print axioms Cert.Kernel.Proto.segD_ok
-- ==== Proof.KB.LoopsUU.lean ====
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.Gen.Kernel.Skeleton
import Idealize.ShloMosaic.Lib.Exec
import Idealize.ShloMosaic.Lib.Tactic
import Idealize.ShloMosaic.Lib.Pipeline.Kit

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel.LoopsUU
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ Cert.Kernel.Proto.UU ℕ
/-! ## `cc0_body` -/

/-- The class of invariants of `k0_part15`'s counted loop `k0_t1_loop` (`scf.for %arg30 =
   %c0_i32_273 to %291 step %c1_i32_275 : i32 {`), trip `k0_t1`, carrying `Unit`, region
   `Gen.k0_t1_body`. Classifier: LISTED — every store at a `Rect.unit` through a memref parameter of
   the region, nothing carried, no transfer or conditional inside: the invariant is the pieces of
   the trips before `k`; not affine (the closed form of `k0_off13` is not over the trip alone), so a
   frame cannot place those pieces and must find the memref written covered by a whole-block store
   of the same case. The region loads back what it stores into `arg12` (an accumulation): each
   trip's pieces are stated as functions of the contents it finds there. One trip calls the parts
   `k0_part1`. Per trip it STORES through arg12 at ![0, 0]; arg6 at (k0_off13 d0 k0_t1); arg7 at
   (k0_off14 d0 k0_t1). It LOADS through arg10 at (k0_off10 d0 k0_t1); arg15 at (k0_off11 d0 k0_t1);
   arg15 at (k0_off12 d0 k0_t1); arg12 at ![0, 0]; arg6 at (k0_off13 d0 k0_t1); arg7 at (k0_off14 d0
   k0_t1). GENERATED below: `Gen.loopInv_k0_t1` (`@[sl_loop]`), at the frame kit's algebra — a run
   at that algebra (the generated frame's, or a hand proof's over `MT nD τ sig Unit (Elt F) ℕ (UR
   sig nD τ) ℕ`) goes through the loop with nothing more to state; a proof at another algebra
   instances the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226)

/-! ### `k0_t1_loop`: the generated invariant (classifier: listed) -/

/-- One trip's resources: what the region reads (arg10, arg15) at its contents, what it writes
   (arg6, arg7, arg12) at any. -/
abbrev Trip_k0_t1 (c : Dev nD) (arg10 : Memref sig .tc .vmem S32x256x128 .bf16) (arg15 : Memref sig .tc .vmem S2x8x1024x128 .bf16) (arg6 : Memref sig .tc .vmem S32x128x256 .bf16) (arg7 : Memref sig .tc .vmem S32x1x256 .f32) (arg12 : Memref sig .tc .vmem S1024x256 .bf16) (X_arg10 : BufTy.Contents (Elt F) arg10.view.ty) (X_arg15 : BufTy.Contents (Elt F) arg15.view.ty) (f_arg6 : BufTy.Contents (Elt F) arg6.view.ty) (f_arg7 : BufTy.Contents (Elt F) arg7.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ (arg6.view.loc (c : Thread nD τ) ↦[arg6.view.set]{fullShare} f_arg6) ∗ (arg7.view.loc (c : Thread nD τ) ↦[arg7.view.set]{fullShare} f_arg7) ∗ (arg12.view.loc (c : Thread nD τ) ↦[arg12.view.set]{fullShare} f_arg12))

/-- ONE TRIP of `k0_t1_loop` at a symbolic `k`, run by `sl_exec` (its rectangles where the program's
   in-range evidence puts them, their places unread): the pieces it writes into arg6, arg7, arg12
   are the run's own finds — the witnesses `sl_close` assigns handing the buffers to the
   continuation, as functions of the contents the trip finds in the memrefs it writes (the region
   loads some of them back). `@[irreducible]`: cited, never unfolded. -/
@[irreducible] def trip_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (k : Fin k0_t1_loop.trips) :
    Σ' (L_arg6 : (BufTy.Contents (Elt F) arg6.view.ty → BufTy.Contents (Elt F) arg7.view.ty → BufTy.Contents (Elt F) arg12.view.ty → List (View.Piece (Elt F) S32x128x256 .bf16))) (L_arg7 : (BufTy.Contents (Elt F) arg6.view.ty → BufTy.Contents (Elt F) arg7.view.ty → BufTy.Contents (Elt F) arg12.view.ty → List (View.Piece (Elt F) S32x1x256 .f32))) , { L_arg12 : (BufTy.Contents (Elt F) arg6.view.ty → BufTy.Contents (Elt F) arg7.view.ty → BufTy.Contents (Elt F) arg12.view.ty → List (View.Piece (Elt F) S1024x256 .bf16)) // ∀ (E : Set ℕ) (f_arg6 : BufTy.Contents (Elt F) arg6.view.ty) (f_arg7 : BufTy.Contents (Elt F) arg7.view.ty) (f_arg12 : BufTy.Contents (Elt F) arg12.view.ty),
      Trip_k0_t1 (F := F) c arg10 arg15 arg6 arg7 arg12 X_arg10 X_arg15 f_arg6 f_arg7 f_arg12
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 k PUnit.unit)
          (fun _ => Trip_k0_t1 (F := F) c arg10 arg15 arg6 arg7 arg12 X_arg10 X_arg15 (arg6.view.writes (Elt F) f_arg6 (L_arg6 f_arg6 f_arg7 f_arg12)) (arg7.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t1_abs.2.1
  refine ⟨?_, ?_, ?_, fun E f_arg6 f_arg7 f_arg12 => ?run⟩
  case run =>
    unfold k0_t1_body
    iintro ⟨HR_arg10, HR_arg15, HW_arg6, HW_arg7, HW_arg12⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (k : Fin k0_t1_loop.trips) (f_arg6 : BufTy.Contents (Elt F) arg6.view.ty) (f_arg7 : BufTy.Contents (Elt F) arg7.view.ty) (f_arg12 : BufTy.Contents (Elt F) arg12.view.ty) : List (View.Piece (Elt F) S32x128x256 .bf16) × List (View.Piece (Elt F) S32x1x256 .f32) × List (View.Piece (Elt F) S1024x256 .bf16) :=
  ((trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k).1 f_arg6 f_arg7 f_arg12, (trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k).2.1 f_arg6 f_arg7 f_arg12, (trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k).2.2.1 f_arg6 f_arg7 f_arg12)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t1_loop.trips then
    ((tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 ⟨k, h⟩ (arg6.view.writes (Elt F) G_arg6 prev.1) (arg7.view.writes (Elt F) G_arg7 prev.2.1) (arg12.view.writes (Elt F) G_arg12 prev.2.2)).1 ++ prev.1, (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 ⟨k, h⟩ (arg6.view.writes (Elt F) G_arg6 prev.1) (arg7.view.writes (Elt F) G_arg7 prev.2.1) (arg12.view.writes (Elt F) G_arg12 prev.2.2)).2.1 ++ prev.2.1, (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 ⟨k, h⟩ (arg6.view.writes (Elt F) G_arg6 prev.1) (arg7.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pb_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pb_k0_t1Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k (pb_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k)

theorem pb_k0_t1_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : Fin k0_t1_loop.trips) :
    pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 (k.val + 1)
      = ((tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k (arg6.view.writes (Elt F) G_arg6 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).1) (arg7.view.writes (Elt F) G_arg7 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.1) (arg12.view.writes (Elt F) G_arg12 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.2)).1 ++ (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).1, (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k (arg6.view.writes (Elt F) G_arg6 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).1) (arg7.view.writes (Elt F) G_arg7 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.1) (arg12.view.writes (Elt F) G_arg12 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.2)).2.1 ++ (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.1, (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k (arg6.view.writes (Elt F) G_arg6 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).1) (arg7.view.writes (Elt F) G_arg7 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.1) (arg12.view.writes (Elt F) G_arg12 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.2)).2.2 ++ (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k.val).2.2) := by
  rw [pb_k0_t1.eq_2]; unfold pb_k0_t1Step; exact dif_pos k.isLt

/-- THE INVARIANT before trip `k`: arg10, arg15 read at `X_·`; arg6, arg7, arg12 holding the pieces
   of the trips before `k` written over the contents at loop entry `G_·` (stated `∃ f, … ∗ ⌜f = …⌝`,
   so that a hypothesis of any contents matches and the equation is what is proved). -/
abbrev inv_k0_t1 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, (arg6.view.loc (c : Thread nD τ) ↦[arg6.view.set]{fullShare} f) ∗ ⌜f = arg6.view.writes (Elt F) G_arg6 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k).1⌝) ∗ (∃ f, (arg7.view.loc (c : Thread nD τ) ↦[arg7.view.set]{fullShare} f) ∗ ⌜f = arg7.view.writes (Elt F) G_arg7 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k).2.1⌝) ∗ (∃ f, (arg12.view.loc (c : Thread nD τ) ↦[arg12.view.set]{fullShare} f) ∗ ⌜f = arg12.view.writes (Elt F) G_arg12 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12 k).2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v25 : BitVec 32) (v26 : Sems sig S_) (v226 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) :
    LoopInvTy_k0_t1 (F := F) Unit ℕ Cert.Kernel.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 where
  inv := inv_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v25 v26 v226 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pb_k0_t1_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part21`'s counted loop `k0_t2_loop` (`scf.for %arg30 =
   %c0_i32_417 to %475 step %c1_i32_419 : i32 {`), trip `k0_t2`, carrying `Unit`, region
   `Gen.k0_t2_body`. Classifier: LISTED — every store at a `Rect.unit` through a memref parameter of
   the region, nothing carried, no transfer or conditional inside: the invariant is the pieces of
   the trips before `k`; not affine (a store whose offsets chain `k0_off29` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part2`. Per trip it STORES
   through arg12 at ![0, 0]; arg6 at (k0_off29 d0 k0_t2) (NO closed form stated); arg7 at (k0_off30
   d0 k0_t2) (NO closed form stated). It LOADS through arg10 at (k0_off26 d0 k0_t2); arg15 at
   (k0_off27 d0 k0_t2); arg15 at (k0_off28 d0 k0_t2); arg12 at ![0, 0]; arg6 at (k0_off29 d0 k0_t2);
   arg7 at (k0_off30 d0 k0_t2). GENERATED below: `Gen.loopInv_k0_t2` (`@[sl_loop]`), at the frame
   kit's algebra — a run at that algebra (the generated frame's, or a hand proof's over `MT nD τ sig
   Unit (Elt F) ℕ Cert.Kernel.Proto.UU ℕ`) goes through the loop with nothing more to state; a proof at
   another algebra instances the class itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468)

/-! ### `k0_t2_loop`: the generated invariant (classifier: listed) -/

/-- One trip's resources: what the region reads (arg10, arg15) at its contents, what it writes
   (arg6, arg7, arg12) at any. -/
abbrev Trip_k0_t2 (c : Dev nD) (arg10 : Memref sig .tc .vmem S32x256x128 .bf16) (arg15 : Memref sig .tc .vmem S2x8x1024x128 .bf16) (arg6 : Memref sig .tc .vmem S32x128x256 .bf16) (arg7 : Memref sig .tc .vmem S32x1x256 .f32) (arg12 : Memref sig .tc .vmem S1024x256 .bf16) (X_arg10 : BufTy.Contents (Elt F) arg10.view.ty) (X_arg15 : BufTy.Contents (Elt F) arg15.view.ty) (f_arg6 : BufTy.Contents (Elt F) arg6.view.ty) (f_arg7 : BufTy.Contents (Elt F) arg7.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ (arg6.view.loc (c : Thread nD τ) ↦[arg6.view.set]{fullShare} f_arg6) ∗ (arg7.view.loc (c : Thread nD τ) ↦[arg7.view.set]{fullShare} f_arg7) ∗ (arg12.view.loc (c : Thread nD τ) ↦[arg12.view.set]{fullShare} f_arg12))

/-- ONE TRIP of `k0_t2_loop` at a symbolic `k`, run by `sl_exec` (its rectangles where the program's
   in-range evidence puts them, their places unread): the pieces it writes into arg6, arg7, arg12
   are the run's own finds — the witnesses `sl_close` assigns handing the buffers to the
   continuation, as functions of the contents the trip finds in the memrefs it writes (the region
   loads some of them back). `@[irreducible]`: cited, never unfolded. -/
@[irreducible] def trip_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (k : Fin k0_t2_loop.trips) :
    Σ' (L_arg6 : (BufTy.Contents (Elt F) arg6.view.ty → BufTy.Contents (Elt F) arg7.view.ty → BufTy.Contents (Elt F) arg12.view.ty → List (View.Piece (Elt F) S32x128x256 .bf16))) (L_arg7 : (BufTy.Contents (Elt F) arg6.view.ty → BufTy.Contents (Elt F) arg7.view.ty → BufTy.Contents (Elt F) arg12.view.ty → List (View.Piece (Elt F) S32x1x256 .f32))) , { L_arg12 : (BufTy.Contents (Elt F) arg6.view.ty → BufTy.Contents (Elt F) arg7.view.ty → BufTy.Contents (Elt F) arg12.view.ty → List (View.Piece (Elt F) S1024x256 .bf16)) // ∀ (E : Set ℕ) (f_arg6 : BufTy.Contents (Elt F) arg6.view.ty) (f_arg7 : BufTy.Contents (Elt F) arg7.view.ty) (f_arg12 : BufTy.Contents (Elt F) arg12.view.ty),
      Trip_k0_t2 (F := F) c arg10 arg15 arg6 arg7 arg12 X_arg10 X_arg15 f_arg6 f_arg7 f_arg12
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 k PUnit.unit)
          (fun _ => Trip_k0_t2 (F := F) c arg10 arg15 arg6 arg7 arg12 X_arg10 X_arg15 (arg6.view.writes (Elt F) f_arg6 (L_arg6 f_arg6 f_arg7 f_arg12)) (arg7.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t2_abs.2.1
  refine ⟨?_, ?_, ?_, fun E f_arg6 f_arg7 f_arg12 => ?run⟩
  case run =>
    unfold k0_t2_body
    iintro ⟨HR_arg10, HR_arg15, HW_arg6, HW_arg7, HW_arg12⟩
    sl_exec
    sl_step
    sl_close

/-- The trip's piece lists (plain projections of `trip_…`, for the recursion below to cite without
   its proof), at the contents the trip finds in the written memrefs. -/
abbrev tripL_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (k : Fin k0_t2_loop.trips) (f_arg6 : BufTy.Contents (Elt F) arg6.view.ty) (f_arg7 : BufTy.Contents (Elt F) arg7.view.ty) (f_arg12 : BufTy.Contents (Elt F) arg12.view.ty) : List (View.Piece (Elt F) S32x128x256 .bf16) × List (View.Piece (Elt F) S32x1x256 .f32) × List (View.Piece (Elt F) S1024x256 .bf16) :=
  ((trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k).1 f_arg6 f_arg7 f_arg12, (trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k).2.1 f_arg6 f_arg7 f_arg12, (trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k).2.2.1 f_arg6 f_arg7 f_arg12)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t2_loop.trips then
    ((tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 ⟨k, h⟩ (arg6.view.writes (Elt F) G_arg6 prev.1) (arg7.view.writes (Elt F) G_arg7 prev.2.1) (arg12.view.writes (Elt F) G_arg12 prev.2.2)).1 ++ prev.1, (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 ⟨k, h⟩ (arg6.view.writes (Elt F) G_arg6 prev.1) (arg7.view.writes (Elt F) G_arg7 prev.2.1) (arg12.view.writes (Elt F) G_arg12 prev.2.2)).2.1 ++ prev.2.1, (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 ⟨k, h⟩ (arg6.view.writes (Elt F) G_arg6 prev.1) (arg7.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pb_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pb_k0_t2Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k (pb_k0_t2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k)

theorem pb_k0_t2_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : Fin k0_t2_loop.trips) :
    pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 (k.val + 1)
      = ((tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k (arg6.view.writes (Elt F) G_arg6 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).1) (arg7.view.writes (Elt F) G_arg7 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.1) (arg12.view.writes (Elt F) G_arg12 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.2)).1 ++ (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).1, (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k (arg6.view.writes (Elt F) G_arg6 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).1) (arg7.view.writes (Elt F) G_arg7 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.1) (arg12.view.writes (Elt F) G_arg12 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.2)).2.1 ++ (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.1, (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k (arg6.view.writes (Elt F) G_arg6 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).1) (arg7.view.writes (Elt F) G_arg7 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.1) (arg12.view.writes (Elt F) G_arg12 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.2)).2.2 ++ (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k.val).2.2) := by
  rw [pb_k0_t2.eq_2]; unfold pb_k0_t2Step; exact dif_pos k.isLt

/-- THE INVARIANT before trip `k`: arg10, arg15 read at `X_·`; arg6, arg7, arg12 holding the pieces
   of the trips before `k` written over the contents at loop entry `G_·` (stated `∃ f, … ∗ ⌜f = …⌝`,
   so that a hypothesis of any contents matches and the equation is what is proved). -/
abbrev inv_k0_t2 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, (arg6.view.loc (c : Thread nD τ) ↦[arg6.view.set]{fullShare} f) ∗ ⌜f = arg6.view.writes (Elt F) G_arg6 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k).1⌝) ∗ (∃ f, (arg7.view.loc (c : Thread nD τ) ↦[arg7.view.set]{fullShare} f) ∗ ⌜f = arg7.view.writes (Elt F) G_arg7 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k).2.1⌝) ∗ (∃ f, (arg12.view.loc (c : Thread nD τ) ↦[arg12.view.set]{fullShare} f) ∗ ⌜f = arg12.view.writes (Elt F) G_arg12 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12 k).2.2⌝))

set_option warn.classDefReducibility false in
/-- THE LOOP BY ITS INVARIANT — generated (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (v322 : BitVec 32) (v468 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) :
    LoopInvTy_k0_t2 (F := F) Unit ℕ Cert.Kernel.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 where
  inv := inv_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 v322 v468 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pb_k0_t2_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part26`'s counted loop `k0_t3_loop` (`scf.for %arg30 =
   %c0_i32_562 to %661 step %c1_i32_564 : i32 {`), trip `k0_t3`, carrying `Unit`, region
   `Gen.k0_t3_body`. Classifier: LISTED — every store at a `Rect.unit` through a memref parameter of
   the region, nothing carried, no transfer or conditional inside: the invariant is the pieces of
   the trips before `k`; not affine (a store whose offsets chain `k0_off36` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part3`. Per trip it STORES
   through arg12 at ![0, 0]; arg6 at (k0_off36 d0 k0_t3) (NO closed form stated); arg7 at (k0_off37
   d0 k0_t3) (NO closed form stated). It LOADS through arg10 at (k0_off33 d0 k0_t3); arg15 at
   (k0_off34 d0 k0_t3); arg15 at (k0_off35 d0 k0_t3); arg12 at ![0, 0]; arg6 at (k0_off36 d0 k0_t3);
   arg7 at (k0_off37 d0 k0_t3). GENERATED below: `Gen.loopInv_k0_t3` (`@[sl_loop]`), at the frame
   kit's algebra — a run at that algebra (the generated frame's, or a hand proof's over `MT nD τ sig
   Unit (Elt F) ℕ Cert.Kernel.Proto.UU ℕ`) goes through the loop with nothing more to state; a proof at
   another algebra instances the class itself, after this one. -/
abbrev LoopInvTy_k0_t3 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) :=
  Idealize.ShloMosaic.LoopInv (M := MT nD τ sig Ix (Elt F) Name U Lvl) Idealize.ShloMosaic.frame (wpE defs₀ 𝒱 (c : Thread nD τ) bd) E
    k0_t3_loop.lb k0_t3_loop.ub k0_t3_loop.st k0_t3_ok () (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596)

/-! ### `k0_t3_loop`: the generated invariant (classifier: listed) -/

/-- One trip's resources: what the region reads (arg10, arg15) at its contents, what it writes
   (arg6, arg7, arg12) at any. -/
abbrev Trip_k0_t3 (c : Dev nD) (arg10 : Memref sig .tc .vmem S32x256x128 .bf16) (arg15 : Memref sig .tc .vmem S2x8x1024x128 .bf16) (arg6 : Memref sig .tc .vmem S32x128x256 .bf16) (arg7 : Memref sig .tc .vmem S32x1x256 .f32) (arg12 : Memref sig .tc .vmem S1024x256 .bf16) (X_arg10 : BufTy.Contents (Elt F) arg10.view.ty) (X_arg15 : BufTy.Contents (Elt F) arg15.view.ty) (f_arg6 : BufTy.Contents (Elt F) arg6.view.ty) (f_arg7 : BufTy.Contents (Elt F) arg7.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ (arg6.view.loc (c : Thread nD τ) ↦[arg6.view.set]{fullShare} f_arg6) ∗ (arg7.view.loc (c : Thread nD τ) ↦[arg7.view.set]{fullShare} f_arg7) ∗ (arg12.view.loc (c : Thread nD τ) ↦[arg12.view.set]{fullShare} f_arg12))

/-- ONE TRIP of `k0_t3_loop` at a symbolic `k`, run by `sl_exec` (its rectangles where the program's
   in-range evidence puts them, their places unread): the pieces it writes into arg6, arg7, arg12
   are the run's own finds — the witnesses `sl_close` assigns handing the buffers to the
   continuation, as functions of the contents the trip finds in the memrefs it writes (the region
   loads some of them back). `@[irreducible]`: cited, never unfolded. -/
@[irreducible] def trip_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (k : Fin k0_t3_loop.trips) :
    Σ' (L_arg6 : (BufTy.Contents (Elt F) arg6.view.ty → BufTy.Contents (Elt F) arg7.view.ty → BufTy.Contents (Elt F) arg12.view.ty → List (View.Piece (Elt F) S32x128x256 .bf16))) (L_arg7 : (BufTy.Contents (Elt F) arg6.view.ty → BufTy.Contents (Elt F) arg7.view.ty → BufTy.Contents (Elt F) arg12.view.ty → List (View.Piece (Elt F) S32x1x256 .f32))) , { L_arg12 : (BufTy.Contents (Elt F) arg6.view.ty → BufTy.Contents (Elt F) arg7.view.ty → BufTy.Contents (Elt F) arg12.view.ty → List (View.Piece (Elt F) S1024x256 .bf16)) // ∀ (E : Set ℕ) (f_arg6 : BufTy.Contents (Elt F) arg6.view.ty) (f_arg7 : BufTy.Contents (Elt F) arg7.view.ty) (f_arg12 : BufTy.Contents (Elt F) arg12.view.ty),
      Trip_k0_t3 (F := F) c arg10 arg15 arg6 arg7 arg12 X_arg10 X_arg15 f_arg6 f_arg7 f_arg12
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 k PUnit.unit)
          (fun _ => Trip_k0_t3 (F := F) c arg10 arg15 arg6 arg7 arg12 X_arg10 X_arg15 (arg6.view.writes (Elt F) f_arg6 (L_arg6 f_arg6 f_arg7 f_arg12)) (arg7.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t3_abs.2.1
  refine ⟨?_, ?_, ?_, fun E f_arg6 f_arg7 f_arg12 => ?run⟩
  case run =>
    unfold k0_t3_body
    iintro ⟨HR_arg10, HR_arg15, HW_arg6, HW_arg7, HW_arg12⟩
    sl_exec
    sl_step
    sl_close

/-- The trip's piece lists (plain projections of `trip_…`, for the recursion below to cite without
   its proof), at the contents the trip finds in the written memrefs. -/
abbrev tripL_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (k : Fin k0_t3_loop.trips) (f_arg6 : BufTy.Contents (Elt F) arg6.view.ty) (f_arg7 : BufTy.Contents (Elt F) arg7.view.ty) (f_arg12 : BufTy.Contents (Elt F) arg12.view.ty) : List (View.Piece (Elt F) S32x128x256 .bf16) × List (View.Piece (Elt F) S32x1x256 .f32) × List (View.Piece (Elt F) S1024x256 .bf16) :=
  ((trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k).1 f_arg6 f_arg7 f_arg12, (trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k).2.1 f_arg6 f_arg7 f_arg12, (trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k).2.2.1 f_arg6 f_arg7 f_arg12)

/-- Trip `k`'s contribution to the state the recursion `pb_k0_t3` below carries (`prev`): its pieces
   in front, per written memref; past the last trip, `prev` itself. -/
@[irreducible] def pb_k0_t3Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t3_loop.trips then
    ((tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 ⟨k, h⟩ (arg6.view.writes (Elt F) G_arg6 prev.1) (arg7.view.writes (Elt F) G_arg7 prev.2.1) (arg12.view.writes (Elt F) G_arg12 prev.2.2)).1 ++ prev.1, (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 ⟨k, h⟩ (arg6.view.writes (Elt F) G_arg6 prev.1) (arg7.view.writes (Elt F) G_arg7 prev.2.1) (arg12.view.writes (Elt F) G_arg12 prev.2.2)).2.1 ++ prev.2.1, (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 ⟨k, h⟩ (arg6.view.writes (Elt F) G_arg6 prev.1) (arg7.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pb_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pb_k0_t3Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k (pb_k0_t3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k)

theorem pb_k0_t3_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : Fin k0_t3_loop.trips) :
    pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 (k.val + 1)
      = ((tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k (arg6.view.writes (Elt F) G_arg6 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).1) (arg7.view.writes (Elt F) G_arg7 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.1) (arg12.view.writes (Elt F) G_arg12 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.2)).1 ++ (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).1, (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k (arg6.view.writes (Elt F) G_arg6 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).1) (arg7.view.writes (Elt F) G_arg7 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.1) (arg12.view.writes (Elt F) G_arg12 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.2)).2.1 ++ (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.1, (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k (arg6.view.writes (Elt F) G_arg6 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).1) (arg7.view.writes (Elt F) G_arg7 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.1) (arg12.view.writes (Elt F) G_arg12 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.2)).2.2 ++ (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k.val).2.2) := by
  rw [pb_k0_t3.eq_2]; unfold pb_k0_t3Step; exact dif_pos k.isLt

/-- THE INVARIANT before trip `k`: arg10, arg15 read at `X_·`; arg6, arg7, arg12 holding the pieces
   of the trips before `k` written over the contents at loop entry `G_·` (stated `∃ f, … ∗ ⌜f = …⌝`,
   so that a hypothesis of any contents matches and the equation is what is proved). -/
abbrev inv_k0_t3 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, (arg6.view.loc (c : Thread nD τ) ↦[arg6.view.set]{fullShare} f) ∗ ⌜f = arg6.view.writes (Elt F) G_arg6 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k).1⌝) ∗ (∃ f, (arg7.view.loc (c : Thread nD τ) ↦[arg7.view.set]{fullShare} f) ∗ ⌜f = arg7.view.writes (Elt F) G_arg7 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k).2.1⌝) ∗ (∃ f, (arg12.view.loc (c : Thread nD τ) ↦[arg12.view.set]{fullShare} f) ∗ ⌜f = arg12.view.writes (Elt F) G_arg12 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12 k).2.2⌝))

set_option warn.classDefReducibility false in
/-- THE LOOP BY ITS INVARIANT — generated (`@[sl_loop]`: `sl_exec` finds it meeting `k0_t3_loop`,
   fixing `X_· G_·` against the context; after the loop each written memref holds `writes G (pb …
   trips)`). -/
@[sl_loop] def loopInv_k0_t3 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v508 : BitVec 32) (v596 : FVec F S256x1024 .f32) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) :
    LoopInvTy_k0_t3 (F := F) Unit ℕ Cert.Kernel.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 where
  inv := inv_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v508 v596 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pb_k0_t3_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part28`'s counted loop `k0_t4_loop` (`scf.for %arg30 =
   %c0_i32_613 to %699 step %c1_i32_615 : i32 {`), trip `k0_t4`, carrying `Unit`, region
   `Gen.k0_t4_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off38 k0_t4); arg8 at
   (k0_off40 k0_t4). It LOADS through arg9 at (k0_off38 k0_t4); arg7 at (k0_off39 d0 k0_t4); arg8 at
   (k0_off40 k0_t4); arg6 at (k0_off41 d0 k0_t4). GENERATED below: `Gen.loopInv_k0_t4`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t4 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) :=
  Idealize.ShloMosaic.LoopInv (M := MT nD τ sig Ix (Elt F) Name U Lvl) Idealize.ShloMosaic.frame (wpE defs₀ 𝒱 (c : Thread nD τ) bd) E
    k0_t4_loop.lb k0_t4_loop.ub k0_t4_loop.st k0_t4_ok () (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14)

/-! ### `k0_t4_loop`: the generated invariant (classifier: affine) -/

/-- One trip's resources: what the region reads (arg6, arg7) at its contents, what it writes (arg8,
   arg9) at any. -/
abbrev Trip_k0_t4 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t4_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (k : Fin k0_t4_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t4 (F := F) c arg6 arg7 arg8 arg9 X_arg6 X_arg7 f_arg8 f_arg9
      ⊢ wp frame (wpE (defs₀ (F := F)) 𝒱 (c : Thread nD τ) bd) E (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 k PUnit.unit)
          (fun _ => Trip_k0_t4 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t4_abs.2.1
  refine ⟨?_, ?_, fun E f_arg8 f_arg9 => ?run⟩
  case run =>
    unfold k0_t4_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (k : Fin k0_t4_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 k).1 f_arg8 f_arg9, (trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 k).2.1 f_arg8 f_arg9)

/-- Trip `k`'s contribution to the state the recursion `pb_k0_t4` below carries (`prev`): its pieces
   in front, per written memref; past the last trip, `prev` itself. -/
@[irreducible] def pb_k0_t4Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t4_loop.trips then
    ((tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 ⟨k, h⟩ (arg8.view.writes (Elt F) G_arg8 prev.1) (arg9.view.writes (Elt F) G_arg9 prev.2)).1 ++ prev.1, (tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t4Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k (pb_k0_t4 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k)

theorem pb_k0_t4_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t4_loop.trips) :
    pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 (k.val + 1)
      = ((tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 k (arg8.view.writes (Elt F) G_arg8 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).1) (arg9.view.writes (Elt F) G_arg9 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).2)).1 ++ (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).1, (tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 k (arg8.view.writes (Elt F) G_arg8 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).1) (arg9.view.writes (Elt F) G_arg9 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).2)).2 ++ (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k.val).2) := by
  rw [pb_k0_t4.eq_2]; unfold pb_k0_t4Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t4 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k).1⌝) ∗ (∃ f, (arg9.view.loc (c : Thread nD τ) ↦[arg9.view.set]{fullShare} f) ∗ ⌜f = arg9.view.writes (Elt F) G_arg9 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9 k).2⌝))

set_option warn.classDefReducibility false in
/-- THE LOOP BY ITS INVARIANT — generated (`@[sl_loop]`: `sl_exec` finds it meeting `k0_t4_loop`,
   fixing `X_· G_·` against the context; after the loop each written memref holds `writes G (pb …
   trips)`). -/
@[sl_loop] def loopInv_k0_t4 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v14 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t4 (F := F) Unit ℕ Cert.Kernel.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 where
  inv := inv_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v14 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t4_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part30`'s counted loop `k0_t5_loop` (`scf.for %arg30 =
   %c0_i32_663 to %736 step %c1_i32_665 : i32 {`), trip `k0_t5`, carrying `Unit`, region
   `Gen.k0_t5_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off42 k0_t5); arg8 at
   (k0_off44 k0_t5). It LOADS through arg9 at (k0_off42 k0_t5); arg7 at (k0_off43 d0 k0_t5); arg8 at
   (k0_off44 k0_t5); arg6 at (k0_off45 d0 k0_t5). GENERATED below: `Gen.loopInv_k0_t5`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t5 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) :=
  Idealize.ShloMosaic.LoopInv (M := MT nD τ sig Ix (Elt F) Name U Lvl) Idealize.ShloMosaic.frame (wpE defs₀ 𝒱 (c : Thread nD τ) bd) E
    k0_t5_loop.lb k0_t5_loop.ub k0_t5_loop.st k0_t5_ok () (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664)

/-! ### `k0_t5_loop`: the generated invariant (classifier: affine) -/

/-- One trip's resources: what the region reads (arg6, arg7) at its contents, what it writes (arg8,
   arg9) at any. -/
abbrev Trip_k0_t5 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t5_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (k : Fin k0_t5_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t5 (F := F) c arg6 arg7 arg8 arg9 X_arg6 X_arg7 f_arg8 f_arg9
      ⊢ wp frame (wpE (defs₀ (F := F)) 𝒱 (c : Thread nD τ) bd) E (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 k PUnit.unit)
          (fun _ => Trip_k0_t5 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t5_abs.2.1
  refine ⟨?_, ?_, fun E f_arg8 f_arg9 => ?run⟩
  case run =>
    unfold k0_t5_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (k : Fin k0_t5_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 k).1 f_arg8 f_arg9, (trip_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 k).2.1 f_arg8 f_arg9)

/-- Trip `k`'s contribution to the state the recursion `pb_k0_t5` below carries (`prev`): its pieces
   in front, per written memref; past the last trip, `prev` itself. -/
@[irreducible] def pb_k0_t5Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t5_loop.trips then
    ((tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 ⟨k, h⟩ (arg8.view.writes (Elt F) G_arg8 prev.1) (arg9.view.writes (Elt F) G_arg9 prev.2)).1 ++ prev.1, (tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t5Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k (pb_k0_t5 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k)

theorem pb_k0_t5_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t5_loop.trips) :
    pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 (k.val + 1)
      = ((tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 k (arg8.view.writes (Elt F) G_arg8 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).1) (arg9.view.writes (Elt F) G_arg9 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).2)).1 ++ (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).1, (tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 k (arg8.view.writes (Elt F) G_arg8 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).1) (arg9.view.writes (Elt F) G_arg9 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).2)).2 ++ (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k.val).2) := by
  rw [pb_k0_t5.eq_2]; unfold pb_k0_t5Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t5 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k).1⌝) ∗ (∃ f, (arg9.view.loc (c : Thread nD τ) ↦[arg9.view.set]{fullShare} f) ∗ ⌜f = arg9.view.writes (Elt F) G_arg9 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9 k).2⌝))

set_option warn.classDefReducibility false in
/-- THE LOOP BY ITS INVARIANT — generated (`@[sl_loop]`: `sl_exec` finds it meeting `k0_t5_loop`,
   fixing `X_· G_·` against the context; after the loop each written memref holds `writes G (pb …
   trips)`). -/
@[sl_loop] def loopInv_k0_t5 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v735 : BitVec 32) (c0_i32_663 : BitVec 32) (c4_i32_664 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t5 (F := F) Unit ℕ Cert.Kernel.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 where
  inv := inv_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v735 c0_i32_663 c4_i32_664 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t5_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part36`'s counted loop `k0_t6_loop` (`scf.for %arg30 =
   %c0_i32_832 to %940 step %c1_i32_834 : i32 {`), trip `k0_t6`, carrying `Unit`, region
   `Gen.k0_t6_body`. Classifier: LISTED — every store at a `Rect.unit` through a memref parameter of
   the region, nothing carried, no transfer or conditional inside: the invariant is the pieces of
   the trips before `k`; not affine (a store whose offsets chain `k0_off49` has no stated closed
   form (the chain reads a word from memory, or the trip count does)), so a frame cannot place those
   pieces and must find the memref written covered by a whole-block store of the same case. The
   region loads back what it stores into `arg12` (an accumulation): each trip's pieces are stated as
   functions of the contents it finds there. One trip calls the parts `k0_part4`. Per trip it STORES
   through arg12 at ![0, 0]; arg6 at (k0_off49 d0 k0_t6) (NO closed form stated); arg7 at (k0_off50
   d0 k0_t6) (NO closed form stated). It LOADS through arg10 at (k0_off46 d0 k0_t6); arg15 at
   (k0_off47 d0 k0_t6); arg15 at (k0_off48 d0 k0_t6); arg12 at ![0, 0]; arg6 at (k0_off49 d0 k0_t6);
   arg7 at (k0_off50 d0 k0_t6). GENERATED below: `Gen.loopInv_k0_t6` (`@[sl_loop]`), at the frame
   kit's algebra — a run at that algebra (the generated frame's, or a hand proof's over `MT nD τ sig
   Unit (Elt F) ℕ Cert.Kernel.Proto.UU ℕ`) goes through the loop with nothing more to state; a proof at
   another algebra instances the class itself, after this one. -/
abbrev LoopInvTy_k0_t6 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) :=
  Idealize.ShloMosaic.LoopInv (M := MT nD τ sig Ix (Elt F) Name U Lvl) Idealize.ShloMosaic.frame (wpE defs₀ 𝒱 (c : Thread nD τ) bd) E
    k0_t6_loop.lb k0_t6_loop.ub k0_t6_loop.st k0_t6_ok () (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917)

/-! ### `k0_t6_loop`: the generated invariant (classifier: listed) -/

/-- One trip's resources: what the region reads (arg10, arg15) at its contents, what it writes
   (arg6, arg7, arg12) at any. -/
abbrev Trip_k0_t6 (c : Dev nD) (arg10 : Memref sig .tc .vmem S32x256x128 .bf16) (arg15 : Memref sig .tc .vmem S2x8x1024x128 .bf16) (arg6 : Memref sig .tc .vmem S32x128x256 .bf16) (arg7 : Memref sig .tc .vmem S32x1x256 .f32) (arg12 : Memref sig .tc .vmem S1024x256 .bf16) (X_arg10 : BufTy.Contents (Elt F) arg10.view.ty) (X_arg15 : BufTy.Contents (Elt F) arg15.view.ty) (f_arg6 : BufTy.Contents (Elt F) arg6.view.ty) (f_arg7 : BufTy.Contents (Elt F) arg7.view.ty) (f_arg12 : BufTy.Contents (Elt F) arg12.view.ty) : sProp 𝕄G :=
  iprop((arg10.view.loc (c : Thread nD τ) ↦[arg10.view.set]{fullShare} X_arg10) ∗ (arg15.view.loc (c : Thread nD τ) ↦[arg15.view.set]{fullShare} X_arg15) ∗ (arg6.view.loc (c : Thread nD τ) ↦[arg6.view.set]{fullShare} f_arg6) ∗ (arg7.view.loc (c : Thread nD τ) ↦[arg7.view.set]{fullShare} f_arg7) ∗ (arg12.view.loc (c : Thread nD τ) ↦[arg12.view.set]{fullShare} f_arg12))

/-- ONE TRIP of `k0_t6_loop` at a symbolic `k`, run by `sl_exec` (its rectangles where the program's
   in-range evidence puts them, their places unread): the pieces it writes into arg6, arg7, arg12
   are the run's own finds — the witnesses `sl_close` assigns handing the buffers to the
   continuation, as functions of the contents the trip finds in the memrefs it writes (the region
   loads some of them back). `@[irreducible]`: cited, never unfolded. -/
@[irreducible] def trip_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (k : Fin k0_t6_loop.trips) :
    Σ' (L_arg6 : (BufTy.Contents (Elt F) arg6.view.ty → BufTy.Contents (Elt F) arg7.view.ty → BufTy.Contents (Elt F) arg12.view.ty → List (View.Piece (Elt F) S32x128x256 .bf16))) (L_arg7 : (BufTy.Contents (Elt F) arg6.view.ty → BufTy.Contents (Elt F) arg7.view.ty → BufTy.Contents (Elt F) arg12.view.ty → List (View.Piece (Elt F) S32x1x256 .f32))) , { L_arg12 : (BufTy.Contents (Elt F) arg6.view.ty → BufTy.Contents (Elt F) arg7.view.ty → BufTy.Contents (Elt F) arg12.view.ty → List (View.Piece (Elt F) S1024x256 .bf16)) // ∀ (E : Set ℕ) (f_arg6 : BufTy.Contents (Elt F) arg6.view.ty) (f_arg7 : BufTy.Contents (Elt F) arg7.view.ty) (f_arg12 : BufTy.Contents (Elt F) arg12.view.ty),
      Trip_k0_t6 (F := F) c arg10 arg15 arg6 arg7 arg12 X_arg10 X_arg15 f_arg6 f_arg7 f_arg12
      ⊢ wp frame (wpE (defs₀ (F := F)) 𝒱 (c : Thread nD τ) bd) E (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 k PUnit.unit)
          (fun _ => Trip_k0_t6 (F := F) c arg10 arg15 arg6 arg7 arg12 X_arg10 X_arg15 (arg6.view.writes (Elt F) f_arg6 (L_arg6 f_arg6 f_arg7 f_arg12)) (arg7.view.writes (Elt F) f_arg7 (L_arg7 f_arg6 f_arg7 f_arg12)) (arg12.view.writes (Elt F) f_arg12 (L_arg12 f_arg6 f_arg7 f_arg12))) } := by
  have hk : k.val < 8 := Nat.lt_of_lt_of_le k.isLt k0_t6_abs.2.1
  refine ⟨?_, ?_, ?_, fun E f_arg6 f_arg7 f_arg12 => ?run⟩
  case run =>
    unfold k0_t6_body
    iintro ⟨HR_arg10, HR_arg15, HW_arg6, HW_arg7, HW_arg12⟩
    sl_exec
    sl_step
    sl_close

/-- The trip's piece lists (plain projections of `trip_…`, for the recursion below to cite without
   its proof), at the contents the trip finds in the written memrefs. -/
abbrev tripL_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (k : Fin k0_t6_loop.trips) (f_arg6 : BufTy.Contents (Elt F) arg6.view.ty) (f_arg7 : BufTy.Contents (Elt F) arg7.view.ty) (f_arg12 : BufTy.Contents (Elt F) arg12.view.ty) : List (View.Piece (Elt F) S32x128x256 .bf16) × List (View.Piece (Elt F) S32x1x256 .f32) × List (View.Piece (Elt F) S1024x256 .bf16) :=
  ((trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k).1 f_arg6 f_arg7 f_arg12, (trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k).2.1 f_arg6 f_arg7 f_arg12, (trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k).2.2.1 f_arg6 f_arg7 f_arg12)

/-- Trip `k`'s contribution to the state the recursion `pb_k0_t6` below carries (`prev`): its pieces
   in front, per written memref; past the last trip, `prev` itself. -/
@[irreducible] def pb_k0_t6Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (prev : List (View.Piece (Elt F) S32x128x256 .bf16) × List (View.Piece (Elt F) S32x1x256 .f32) × List (View.Piece (Elt F) S1024x256 .bf16)) : List (View.Piece (Elt F) S32x128x256 .bf16) × List (View.Piece (Elt F) S32x1x256 .f32) × List (View.Piece (Elt F) S1024x256 .bf16) :=
  if h : k < k0_t6_loop.trips then
    ((tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 ⟨k, h⟩ (arg6.view.writes (Elt F) G_arg6 prev.1) (arg7.view.writes (Elt F) G_arg7 prev.2.1) (arg12.view.writes (Elt F) G_arg12 prev.2.2)).1 ++ prev.1, (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 ⟨k, h⟩ (arg6.view.writes (Elt F) G_arg6 prev.1) (arg7.view.writes (Elt F) G_arg7 prev.2.1) (arg12.view.writes (Elt F) G_arg12 prev.2.2)).2.1 ++ prev.2.1, (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 ⟨k, h⟩ (arg6.view.writes (Elt F) G_arg6 prev.1) (arg7.view.writes (Elt F) G_arg7 prev.2.1) (arg12.view.writes (Elt F) G_arg12 prev.2.2)).2.2 ++ prev.2.2)
  else prev

/-- The pieces of the trips before `k` (last first), per written memref, starting from the contents
   `G_·` at loop entry; each trip's pieces taken at the contents the earlier trips left. -/
def pb_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) : ℕ → List (View.Piece (Elt F) S32x128x256 .bf16) × List (View.Piece (Elt F) S32x1x256 .f32) × List (View.Piece (Elt F) S1024x256 .bf16)
  | 0 => ([], [], [])
  | k + 1 => pb_k0_t6Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k (pb_k0_t6 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k)

theorem pb_k0_t6_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : Fin k0_t6_loop.trips) :
    pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 (k.val + 1)
      = ((tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k (arg6.view.writes (Elt F) G_arg6 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).1) (arg7.view.writes (Elt F) G_arg7 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.1) (arg12.view.writes (Elt F) G_arg12 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.2)).1 ++ (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).1, (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k (arg6.view.writes (Elt F) G_arg6 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).1) (arg7.view.writes (Elt F) G_arg7 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.1) (arg12.view.writes (Elt F) G_arg12 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.2)).2.1 ++ (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.1, (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k (arg6.view.writes (Elt F) G_arg6 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).1) (arg7.view.writes (Elt F) G_arg7 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.1) (arg12.view.writes (Elt F) G_arg12 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.2)).2.2 ++ (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k.val).2.2) := by
  rw [pb_k0_t6.eq_2]; unfold pb_k0_t6Step; exact dif_pos k.isLt

/-- THE INVARIANT before trip `k`: arg10, arg15 read at `X_·`; arg6, arg7, arg12 holding the pieces
   of the trips before `k` written over the contents at loop entry `G_·` (stated `∃ f, … ∗ ⌜f = …⌝`,
   so that a hypothesis of any contents matches and the equation is what is proved). -/
abbrev inv_k0_t6 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) (k : ℕ) (_u : PUnit) : sProp 𝕄G :=
  iprop((arg10.view.loc (c : Thread nD τ) ↦[arg10.view.set]{fullShare} X_arg10) ∗ (arg15.view.loc (c : Thread nD τ) ↦[arg15.view.set]{fullShare} X_arg15) ∗ (∃ f, (arg6.view.loc (c : Thread nD τ) ↦[arg6.view.set]{fullShare} f) ∗ ⌜f = arg6.view.writes (Elt F) G_arg6 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k).1⌝) ∗ (∃ f, (arg7.view.loc (c : Thread nD τ) ↦[arg7.view.set]{fullShare} f) ∗ ⌜f = arg7.view.writes (Elt F) G_arg7 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k).2.1⌝) ∗ (∃ f, (arg12.view.loc (c : Thread nD τ) ↦[arg12.view.set]{fullShare} f) ∗ ⌜f = arg12.view.writes (Elt F) G_arg12 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12 k).2.2⌝))

set_option warn.classDefReducibility false in
/-- THE LOOP BY ITS INVARIANT — generated (`@[sl_loop]`: `sl_exec` finds it meeting `k0_t6_loop`,
   fixing `X_· G_·` against the context; after the loop each written memref holds `writes G (pb …
   trips)`). -/
@[sl_loop] def loopInv_k0_t6 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v787 : BitVec 32) (v875 : FVec F S256x1024 .f32) (v917 : FVec F S256x128 .bf16) (X_arg10 : BufTy.Contents (Elt F) arg10.view.ty) (X_arg15 : BufTy.Contents (Elt F) arg15.view.ty) (G_arg6 : BufTy.Contents (Elt F) arg6.view.ty) (G_arg7 : BufTy.Contents (Elt F) arg7.view.ty) (G_arg12 : BufTy.Contents (Elt F) arg12.view.ty) :
    LoopInvTy_k0_t6 (F := F) Unit ℕ Cert.Kernel.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 where
  inv := inv_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 G_arg6 G_arg7 G_arg12
  step k acc := by
    iintro ⟨HR_arg10, HR_arg15, ⟨%f_arg6, HW_arg6, %h_arg6⟩, ⟨%f_arg7, HW_arg7, %h_arg7⟩, ⟨%f_arg12, HW_arg12, %h_arg12⟩⟩
    iapply (wp_wand_r Idealize.ShloMosaic.frame (wpE (defs₀ (F := F)) 𝒱 (c : Thread nD τ) bd) E)
    isplitl [HR_arg10 HR_arg15 HW_arg6 HW_arg7 HW_arg12]
    · iapply ((trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v787 v875 v917 X_arg10 X_arg15 k).2.2.2 E f_arg6 f_arg7 f_arg12)
      isplitl [HR_arg10]; · iexact HR_arg10
      isplitl [HR_arg15]; · iexact HR_arg15
      isplitl [HW_arg6]; · iexact HW_arg6
      isplitl [HW_arg7]; · iexact HW_arg7
      iexact HW_arg12
    · iintro %_ ⟨HR_arg10, HR_arg15, HW_arg6, HW_arg7, HW_arg12⟩
      isplitl [HR_arg10]; · iexact HR_arg10
      isplitl [HR_arg15]; · iexact HR_arg15
      rw [pb_k0_t6_succ]
      isplitl [HW_arg6]
      · iexists _; isplitl [HW_arg6]; · iexact HW_arg6
        ipureintro; rw [h_arg6, h_arg7, h_arg12, ← View.writes_append]
      isplitl [HW_arg7]
      · iexists _; isplitl [HW_arg7]; · iexact HW_arg7
        ipureintro; rw [h_arg6, h_arg7, h_arg12, ← View.writes_append]
      iexists _; isplitl [HW_arg12]; · iexact HW_arg12
      ipureintro; rw [h_arg6, h_arg7, h_arg12, ← View.writes_append]

/-- The class of invariants of `k0_part38`'s counted loop `k0_t7_loop` (`scf.for %arg30 =
   %c0_i32_891 to %982 step %c1_i32_893 : i32 {`), trip `k0_t7`, carrying `Unit`, region
   `Gen.k0_t7_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off51 k0_t7); arg8 at
   (k0_off53 k0_t7). It LOADS through arg9 at (k0_off51 k0_t7); arg7 at (k0_off52 d0 k0_t7); arg8 at
   (k0_off53 k0_t7); arg6 at (k0_off54 d0 k0_t7). GENERATED below: `Gen.loopInv_k0_t7`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t7 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) :=
  Idealize.ShloMosaic.LoopInv (M := MT nD τ sig Ix (Elt F) Name U Lvl) Idealize.ShloMosaic.frame (wpE defs₀ 𝒱 (c : Thread nD τ) bd) E
    k0_t7_loop.lb k0_t7_loop.ub k0_t7_loop.st k0_t7_ok () (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970)

/-! ### `k0_t7_loop`: the generated invariant (classifier: affine) -/

/-- One trip's resources: what the region reads (arg6, arg7) at its contents, what it writes (arg8,
   arg9) at any. -/
abbrev Trip_k0_t7 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t7_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (k : Fin k0_t7_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t7 (F := F) c arg6 arg7 arg8 arg9 X_arg6 X_arg7 f_arg8 f_arg9
      ⊢ wp frame (wpE (defs₀ (F := F)) 𝒱 (c : Thread nD τ) bd) E (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 k PUnit.unit)
          (fun _ => Trip_k0_t7 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t7_abs.2.1
  refine ⟨?_, ?_, fun E f_arg8 f_arg9 => ?run⟩
  case run =>
    unfold k0_t7_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (k : Fin k0_t7_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 k).1 f_arg8 f_arg9, (trip_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 k).2.1 f_arg8 f_arg9)

/-- Trip `k`'s contribution to the state the recursion `pb_k0_t7` below carries (`prev`): its pieces
   in front, per written memref; past the last trip, `prev` itself. -/
@[irreducible] def pb_k0_t7Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t7_loop.trips then
    ((tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 ⟨k, h⟩ (arg8.view.writes (Elt F) G_arg8 prev.1) (arg9.view.writes (Elt F) G_arg9 prev.2)).1 ++ prev.1, (tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t7Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k (pb_k0_t7 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k)

theorem pb_k0_t7_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t7_loop.trips) :
    pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 (k.val + 1)
      = ((tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 k (arg8.view.writes (Elt F) G_arg8 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).1) (arg9.view.writes (Elt F) G_arg9 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).2)).1 ++ (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).1, (tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 k (arg8.view.writes (Elt F) G_arg8 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).1) (arg9.view.writes (Elt F) G_arg9 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).2)).2 ++ (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k.val).2) := by
  rw [pb_k0_t7.eq_2]; unfold pb_k0_t7Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t7 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k).1⌝) ∗ (∃ f, (arg9.view.loc (c : Thread nD τ) ↦[arg9.view.set]{fullShare} f) ∗ ⌜f = arg9.view.writes (Elt F) G_arg9 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9 k).2⌝))

set_option warn.classDefReducibility false in
/-- THE LOOP BY ITS INVARIANT — generated (`@[sl_loop]`: `sl_exec` finds it meeting `k0_t7_loop`,
   fixing `X_· G_·` against the context; after the loop each written memref holds `writes G (pb …
   trips)`). -/
@[sl_loop] def loopInv_k0_t7 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v970 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t7 (F := F) Unit ℕ Cert.Kernel.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 where
  inv := inv_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v970 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t7_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part40`'s counted loop `k0_t8_loop` (`scf.for %arg30 =
   %c0_i32_949 to %1023 step %c1_i32_951 : i32 {`), trip `k0_t8`, carrying `Unit`, region
   `Gen.k0_t8_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off55 k0_t8); arg8 at
   (k0_off57 k0_t8). It LOADS through arg9 at (k0_off55 k0_t8); arg7 at (k0_off56 d0 k0_t8); arg8 at
   (k0_off57 k0_t8); arg6 at (k0_off58 d0 k0_t8). GENERATED below: `Gen.loopInv_k0_t8`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t8 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) :=
  Idealize.ShloMosaic.LoopInv (M := MT nD τ sig Ix (Elt F) Name U Lvl) Idealize.ShloMosaic.frame (wpE defs₀ 𝒱 (c : Thread nD τ) bd) E
    k0_t8_loop.lb k0_t8_loop.ub k0_t8_loop.st k0_t8_ok () (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020)

/-! ### `k0_t8_loop`: the generated invariant (classifier: affine) -/

/-- One trip's resources: what the region reads (arg6, arg7) at its contents, what it writes (arg8,
   arg9) at any. -/
abbrev Trip_k0_t8 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t8_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (k : Fin k0_t8_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t8 (F := F) c arg6 arg7 arg8 arg9 X_arg6 X_arg7 f_arg8 f_arg9
      ⊢ wp frame (wpE (defs₀ (F := F)) 𝒱 (c : Thread nD τ) bd) E (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 k PUnit.unit)
          (fun _ => Trip_k0_t8 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t8_abs.2.1
  refine ⟨?_, ?_, fun E f_arg8 f_arg9 => ?run⟩
  case run =>
    unfold k0_t8_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (k : Fin k0_t8_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 k).1 f_arg8 f_arg9, (trip_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 k).2.1 f_arg8 f_arg9)

/-- Trip `k`'s contribution to the state the recursion `pb_k0_t8` below carries (`prev`): its pieces
   in front, per written memref; past the last trip, `prev` itself. -/
@[irreducible] def pb_k0_t8Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t8_loop.trips then
    ((tripL_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 ⟨k, h⟩ (arg8.view.writes (Elt F) G_arg8 prev.1) (arg9.view.writes (Elt F) G_arg9 prev.2)).1 ++ prev.1, (tripL_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t8Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k (pb_k0_t8 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k)

theorem pb_k0_t8_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t8_loop.trips) :
    pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 (k.val + 1)
      = ((tripL_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 k (arg8.view.writes (Elt F) G_arg8 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).1) (arg9.view.writes (Elt F) G_arg9 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).2)).1 ++ (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).1, (tripL_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 k (arg8.view.writes (Elt F) G_arg8 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).1) (arg9.view.writes (Elt F) G_arg9 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).2)).2 ++ (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k.val).2) := by
  rw [pb_k0_t8.eq_2]; unfold pb_k0_t8Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t8 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k).1⌝) ∗ (∃ f, (arg9.view.loc (c : Thread nD τ) ↦[arg9.view.set]{fullShare} f) ∗ ⌜f = arg9.view.writes (Elt F) G_arg9 (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9 k).2⌝))

set_option warn.classDefReducibility false in
/-- THE LOOP BY ITS INVARIANT — generated (`@[sl_loop]`: `sl_exec` finds it meeting `k0_t8_loop`,
   fixing `X_· G_·` against the context; after the loop each written memref holds `writes G (pb …
   trips)`). -/
@[sl_loop] def loopInv_k0_t8 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v25 : BitVec 32) (v1014 : BitVec 32) (v1015 : BitVec 32) (v1020 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t8 (F := F) Unit ℕ Cert.Kernel.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 where
  inv := inv_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v25 v1014 v1015 v1020 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t8_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part43`'s counted loop `k0_t9_loop` (`scf.for %arg30 =
   %c0_i32_1056 to %1105 step %c1_i32_1058 : i32 {`), trip `k0_t9`, carrying `Unit`, region
   `Gen.k0_t9_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off59 k0_t9); arg8 at
   (k0_off61 k0_t9). It LOADS through arg9 at (k0_off59 k0_t9); arg7 at (k0_off60 d0 k0_t9); arg8 at
   (k0_off61 k0_t9); arg6 at (k0_off62 d0 k0_t9). GENERATED below: `Gen.loopInv_k0_t9`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t9 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) :=
  Idealize.ShloMosaic.LoopInv (M := MT nD τ sig Ix (Elt F) Name U Lvl) Idealize.ShloMosaic.frame (wpE defs₀ 𝒱 (c : Thread nD τ) bd) E
    k0_t9_loop.lb k0_t9_loop.ub k0_t9_loop.st k0_t9_ok () (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092)

/-! ### `k0_t9_loop`: the generated invariant (classifier: affine) -/

/-- One trip's resources: what the region reads (arg6, arg7) at its contents, what it writes (arg8,
   arg9) at any. -/
abbrev Trip_k0_t9 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t9_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (k : Fin k0_t9_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t9 (F := F) c arg6 arg7 arg8 arg9 X_arg6 X_arg7 f_arg8 f_arg9
      ⊢ wp frame (wpE (defs₀ (F := F)) 𝒱 (c : Thread nD τ) bd) E (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 k PUnit.unit)
          (fun _ => Trip_k0_t9 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t9_abs.2.1
  refine ⟨?_, ?_, fun E f_arg8 f_arg9 => ?run⟩
  case run =>
    unfold k0_t9_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (k : Fin k0_t9_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 k).1 f_arg8 f_arg9, (trip_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 k).2.1 f_arg8 f_arg9)

/-- Trip `k`'s contribution to the state the recursion `pb_k0_t9` below carries (`prev`): its pieces
   in front, per written memref; past the last trip, `prev` itself. -/
@[irreducible] def pb_k0_t9Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t9_loop.trips then
    ((tripL_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 ⟨k, h⟩ (arg8.view.writes (Elt F) G_arg8 prev.1) (arg9.view.writes (Elt F) G_arg9 prev.2)).1 ++ prev.1, (tripL_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t9Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k (pb_k0_t9 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k)

theorem pb_k0_t9_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t9_loop.trips) :
    pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 (k.val + 1)
      = ((tripL_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 k (arg8.view.writes (Elt F) G_arg8 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).1) (arg9.view.writes (Elt F) G_arg9 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).2)).1 ++ (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).1, (tripL_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 k (arg8.view.writes (Elt F) G_arg8 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).1) (arg9.view.writes (Elt F) G_arg9 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).2)).2 ++ (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k.val).2) := by
  rw [pb_k0_t9.eq_2]; unfold pb_k0_t9Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t9 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k).1⌝) ∗ (∃ f, (arg9.view.loc (c : Thread nD τ) ↦[arg9.view.set]{fullShare} f) ∗ ⌜f = arg9.view.writes (Elt F) G_arg9 (pb_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9 k).2⌝))

set_option warn.classDefReducibility false in
/-- THE LOOP BY ITS INVARIANT — generated (`@[sl_loop]`: `sl_exec` finds it meeting `k0_t9_loop`,
   fixing `X_· G_·` against the context; after the loop each written memref holds `writes G (pb …
   trips)`). -/
@[sl_loop] def loopInv_k0_t9 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v14 : BitVec 32) (v1092 : BitVec 32) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t9 (F := F) Unit ℕ Cert.Kernel.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 where
  inv := inv_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v14 v1092 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t9_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

/-- The class of invariants of `k0_part45`'s counted loop `k0_t10_loop` (`scf.for %arg30 =
   %c0_i32_1114 to %1146 step %c1_i32_1116 : i32 {`), trip `k0_t10`, carrying `Unit`, region
   `Gen.k0_t10_body`. Classifier: AFFINE — every store at a `Rect.unit` whose offsets are a stated
   closed form of the trips, nothing carried, no transfer or conditional inside: the invariant is
   the pieces of the trips before `k` (tests/proofs/README.md "Loops"). The region loads back what
   it stores into `arg8`, `arg9` (an accumulation): each trip's pieces are stated as functions of
   the contents it finds there. Per trip it STORES through arg9 at (k0_off63 k0_t10); arg8 at
   (k0_off65 k0_t10). It LOADS through arg9 at (k0_off63 k0_t10); arg7 at (k0_off64 d0 k0_t10); arg8
   at (k0_off65 k0_t10); arg6 at (k0_off66 d0 k0_t10). GENERATED below: `Gen.loopInv_k0_t10`
   (`@[sl_loop]`), at the frame kit's algebra — a run at that algebra (the generated frame's, or a
   hand proof's over `MT nD τ sig Unit (Elt F) ℕ Cert.Kernel.Proto.UU ℕ`) goes through the loop with
   nothing more to state; a proof at another algebra instances the class itself, after this one. -/
abbrev LoopInvTy_k0_t10 (Ix Name U Lvl : Type) [DecidableEq Ix] [DecidableEq Name] [RA.URA U] [Preorder Lvl]
    (𝒱 : Variants) (c : Dev nD) (bd : Option 𝒱.V) (E : Set Name) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) :=
  Idealize.ShloMosaic.LoopInv (M := MT nD τ sig Ix (Elt F) Name U Lvl) Idealize.ShloMosaic.frame (wpE defs₀ 𝒱 (c : Thread nD τ) bd) E
    k0_t10_loop.lb k0_t10_loop.ub k0_t10_loop.st k0_t10_ok () (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141)

/-! ### `k0_t10_loop`: the generated invariant (classifier: affine) -/

/-- One trip's resources: what the region reads (arg6, arg7) at its contents, what it writes (arg8,
   arg9) at any. -/
abbrev Trip_k0_t10 (c : Dev nD) (arg6 : Memref sig .tc .vmem S32x128x256 .bf16) (arg7 : Memref sig .tc .vmem S32x1x256 .f32) (arg8 : Memref sig .tc .vmem S3x8x128x256 .bf16) (arg9 : Memref sig .tc .vmem S3x8x1x256 .f32) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9))

/-- ONE TRIP of `k0_t10_loop` at a symbolic `k`, run by `sl_exec` (its rectangles' offsets closed
   forms of `k`, their geometry linear arithmetic): the pieces it writes into arg8, arg9 are the
   run's own finds — the witnesses `sl_close` assigns handing the buffers to the continuation, as
   functions of the contents the trip finds in the memrefs it writes (the region loads some of them
   back). `@[irreducible]`: cited, never unfolded. -/
@[irreducible] def trip_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (k : Fin k0_t10_loop.trips) :
    Σ' (L_arg8 : (BufTy.Contents (Elt F) arg8.view.ty → BufTy.Contents (Elt F) arg9.view.ty → List (View.Piece (Elt F) S3x8x128x256 .bf16))) , { L_arg9 : (BufTy.Contents (Elt F) arg8.view.ty → BufTy.Contents (Elt F) arg9.view.ty → List (View.Piece (Elt F) S3x8x1x256 .f32)) // ∀ (E : Set ℕ) (f_arg8 : BufTy.Contents (Elt F) arg8.view.ty) (f_arg9 : BufTy.Contents (Elt F) arg9.view.ty),
      Trip_k0_t10 (F := F) c arg6 arg7 arg8 arg9 X_arg6 X_arg7 f_arg8 f_arg9
      ⊢ wp frame (wpE (defs₀ (F := F)) 𝒱 (c : Thread nD τ) bd) E (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 k PUnit.unit)
          (fun _ => Trip_k0_t10 (F := F) c arg6 arg7 arg8 arg9 X_arg6 X_arg7 (arg8.view.writes (Elt F) f_arg8 (L_arg8 f_arg8 f_arg9)) (arg9.view.writes (Elt F) f_arg9 (L_arg9 f_arg8 f_arg9))) } := by
  have hk : k.val < 4 := Nat.lt_of_lt_of_le k.isLt k0_t10_abs.2.1
  refine ⟨?_, ?_, fun E f_arg8 f_arg9 => ?run⟩
  case run =>
    unfold k0_t10_body
    iintro ⟨HR_arg6, HR_arg7, HW_arg8, HW_arg9⟩
    sl_exec
    sl_step
    sl_close

/-- The trip's piece lists (plain projections of `trip_…`, for the recursion below to cite without
   its proof), at the contents the trip finds in the written memrefs. -/
abbrev tripL_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (k : Fin k0_t10_loop.trips) (f_arg8 : BufTy.Contents (Elt F) arg8.view.ty) (f_arg9 : BufTy.Contents (Elt F) arg9.view.ty) : List (View.Piece (Elt F) S3x8x128x256 .bf16) × List (View.Piece (Elt F) S3x8x1x256 .f32) :=
  ((trip_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 k).1 f_arg8 f_arg9, (trip_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 k).2.1 f_arg8 f_arg9)

/-- Trip `k`'s contribution to the state the recursion `pb_k0_t10` below carries (`prev`): its
   pieces in front, per written memref; past the last trip, `prev` itself. -/
@[irreducible] def pb_k0_t10Step (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (prev : List (View.Piece (Elt F) S3x8x128x256 .bf16) × List (View.Piece (Elt F) S3x8x1x256 .f32)) : List (View.Piece (Elt F) S3x8x128x256 .bf16) × List (View.Piece (Elt F) S3x8x1x256 .f32) :=
  if h : k < k0_t10_loop.trips then
    ((tripL_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 ⟨k, h⟩ (arg8.view.writes (Elt F) G_arg8 prev.1) (arg9.view.writes (Elt F) G_arg9 prev.2)).1 ++ prev.1, (tripL_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 ⟨k, h⟩ (arg8.view.writes (Elt F) G_arg8 prev.1) (arg9.view.writes (Elt F) G_arg9 prev.2)).2 ++ prev.2)
  else prev

/-- The pieces of the trips before `k` (last first), per written memref, starting from the contents
   `G_·` at loop entry; each trip's pieces taken at the contents the earlier trips left. -/
def pb_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) : ℕ → List (View.Piece (Elt F) S3x8x128x256 .bf16) × List (View.Piece (Elt F) S3x8x1x256 .f32)
  | 0 => ([], [])
  | k + 1 => pb_k0_t10Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k (pb_k0_t10 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k)

theorem pb_k0_t10_succ (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : Fin k0_t10_loop.trips) :
    pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 (k.val + 1)
      = ((tripL_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 k (arg8.view.writes (Elt F) G_arg8 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).1) (arg9.view.writes (Elt F) G_arg9 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).2)).1 ++ (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).1, (tripL_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 k (arg8.view.writes (Elt F) G_arg8 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).1) (arg9.view.writes (Elt F) G_arg9 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).2)).2 ++ (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k.val).2) := by
  rw [pb_k0_t10.eq_2]; unfold pb_k0_t10Step; exact dif_pos k.isLt

/-- THE INVARIANT before trip `k`: arg6, arg7 read at `X_·`; arg8, arg9 holding the pieces of the
   trips before `k` written over the contents at loop entry `G_·` (stated `∃ f, … ∗ ⌜f = …⌝`, so
   that a hypothesis of any contents matches and the equation is what is proved). -/
abbrev inv_k0_t10 (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (k : ℕ) (_u : PUnit) : sProp 𝕄G :=
  iprop((arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k).1⌝) ∗ (∃ f, (arg9.view.loc (c : Thread nD τ) ↦[arg9.view.set]{fullShare} f) ∗ ⌜f = arg9.view.writes (Elt F) G_arg9 (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9 k).2⌝))

set_option warn.classDefReducibility false in
/-- THE LOOP BY ITS INVARIANT — generated (`@[sl_loop]`: `sl_exec` finds it meeting `k0_t10_loop`,
   fixing `X_· G_·` against the context; after the loop each written memref holds `writes G (pb …
   trips)`). -/
@[sl_loop] def loopInv_k0_t10 (𝒱 : Variants) (c : Dev nD) (bd : Option 𝒱.V) (E : Set ℕ) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (arg6 : Memref sig .tc .vmem S32x128x256 .bf16) (harg6 : arg6.IsWhole) (arg7 : Memref sig .tc .vmem S32x1x256 .f32) (harg7 : arg7.IsWhole) (arg8 : Memref sig .tc .vmem S3x8x128x256 .bf16) (harg8 : arg8.IsWhole) (arg9 : Memref sig .tc .vmem S3x8x1x256 .f32) (harg9 : arg9.IsWhole) (arg10 : Memref sig .tc .vmem S32x256x128 .bf16) (harg10 : arg10.IsWhole) (arg11 : Memref sig .tc .vmem S2x8x1024x128 .f32) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S2x8x1024x128 .bf16) (harg15 : arg15.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (d0 : Dev nD) (v2 : BitVec 32) (v1137 : BitVec 32) (v1138 : BitVec 32) (v1139 : BitVec 1) (v1140 : BitVec 1) (v1141 : BitVec 1) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) :
    LoopInvTy_k0_t10 (F := F) Unit ℕ Cert.Kernel.Proto.UU ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 where
  inv := inv_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 G_arg8 G_arg9
  step k acc := by
    iintro ⟨HR_arg6, HR_arg7, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg6 HR_arg7 HW_arg8 HW_arg9]
    · iapply ((trip_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 harg29 d0 v2 v1137 v1138 v1139 v1140 v1141 X_arg6 X_arg7 k).2.2 E f_arg8 f_arg9)
      isplitl [HR_arg6]; · iexact HR_arg6
      isplitl [HR_arg7]; · iexact HR_arg7
      isplitl [HW_arg8]; · iexact HW_arg8
      iexact HW_arg9
    · iintro %_ ⟨HR_arg6, HR_arg7, HW_arg8, HW_arg9⟩
      isplitl [HR_arg6]; · iexact HR_arg6
      isplitl [HR_arg7]; · iexact HR_arg7
      rw [pb_k0_t10_succ]
      isplitl [HW_arg8]
      · iexists _; isplitl [HW_arg8]; · iexact HW_arg8
        ipureintro; rw [h_arg8, h_arg9, ← View.writes_append]
      iexists _; isplitl [HW_arg9]; · iexact HW_arg9
      ipureintro; rw [h_arg8, h_arg9, ← View.writes_append]

end Cert.Kernel.LoopsUU

end
-- ==== Proof.KB.ProjRows.lean ====
/-
  The projected queries and the narrowed key and value planes of a batch, read back from the buffers they are stored into.

  Before a batch's flash steps the body stores the eight head slices of the batch's projected, scaled and narrowed queries
  into eight consecutive rows of the query buffer, and the narrowed copies of the batch's two key planes and two value
  planes into four planes of the narrowed key/value buffer. The rows, and the planes, are pairwise apart, so each reads
  what was stored into it, whatever the buffers held before. The stored tiles are the same functions of the batch's tile
  of `x` and of the narrowed weights in each of the four batches, under names that differ from batch to batch.
-/
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.Bridge
import proofs.«900754_g7700000000000755_dist_attn_cross_gqa_kvseq_b4_sq256_skv1024_d1024_hq8_dh128_v7x_i4_f32_1_alg».proof.Proof.KB.Ring
import Idealize.ShloMosaic.Lib.WritesUnit

set_option maxRecDepth 16384

noncomputable section

namespace Cert.Kernel.Proto.Rows

open Cert.Kernel Cert.Kernel.Gen Cert.Kernel.Ring Cert.Kernel.Proto
open Idealize.ShloMosaic Idealize.ShloMosaic.TcCoe Idealize.ShloMosaic.ValueIdx
open Idealize.SL.Sem

variable {F : FTy → Type} [FloatOps F]

section Q2
variable (c : Dev nD)

set_option maxHeartbeats 4000000 in
/-- Eight one-row tiles written at rows `r … r + 7` of the query buffer, the last written in front: row `r + h` of the
    written contents reads tile `h`, whatever the buffer held before. -/
theorem q2_rows_read (r : ℕ) (hr : r + 8 ≤ 32)
    (o0 o1 o2 o3 o4 o5 o6 o7 : Fin 3 → ℕ)
    (i0 : ∀ a, o0 a + S1x256x128.size a ≤ S32x256x128.size a) (i1 : ∀ a, o1 a + S1x256x128.size a ≤ S32x256x128.size a) (i2 : ∀ a, o2 a + S1x256x128.size a ≤ S32x256x128.size a) (i3 : ∀ a, o3 a + S1x256x128.size a ≤ S32x256x128.size a) (i4 : ∀ a, o4 a + S1x256x128.size a ≤ S32x256x128.size a) (i5 : ∀ a, o5 a + S1x256x128.size a ≤ S32x256x128.size a) (i6 : ∀ a, o6 a + S1x256x128.size a ≤ S32x256x128.size a) (i7 : ∀ a, o7 a + S1x256x128.size a ≤ S32x256x128.size a)
    (e0 : o0 = ![r + 0, 0, 0]) (e1 : o1 = ![r + 1, 0, 0]) (e2 : o2 = ![r + 2, 0, 0]) (e3 : o3 = ![r + 3, 0, 0]) (e4 : o4 = ![r + 4, 0, 0]) (e5 : o5 = ![r + 5, 0, 0]) (e6 : o6 = ![r + 6, 0, 0]) (e7 : o7 = ![r + 7, 0, 0])
    (f4 : Buf (Elt F) ((c : Thread nD τ).loc cc0_scratch4))
    (P0 P1 P2 P3 P4 P5 P6 P7 : S1x256x128.Idx → Elt F .bf16) (i : Fin 256) (d : Fin 128) :
    ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 0, by omega⟩ : Fin 32) i d) = P0 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 1, by omega⟩ : Fin 32) i d) = P1 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 2, by omega⟩ : Fin 32) i d) = P2 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 3, by omega⟩ : Fin 32) i d) = P3 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 4, by omega⟩ : Fin 32) i d) = P4 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 5, by omega⟩ : Fin 32) i d) = P5 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 6, by omega⟩ : Fin 32) i d) = P6 (ix3 0 i d)
    ∧ ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + 7, by omega⟩ : Fin 32) i d) = P7 (ix3 0 i d) := by
  refine ⟨?_, ?_, ?_, ?_, ?_, ?_, ?_, ?_⟩
  · refine Eq.trans (congrFun (View.read_whole (Val := Elt F) cc0_scratch4 _).symm (ix3 (⟨r + 0, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 0 < r + 7; omega))]
    rw [View.read_writes_cons_unit_of_not_mem _ _ i6 _ _ _ e6 0 (Or.inl (by show r + 0 < r + 6; omega))]
    rw [View.read_writes_cons_unit_of_not_mem _ _ i5 _ _ _ e5 0 (Or.inl (by show r + 0 < r + 5; omega))]
    rw [View.read_writes_cons_unit_of_not_mem _ _ i4 _ _ _ e4 0 (Or.inl (by show r + 0 < r + 4; omega))]
    rw [View.read_writes_cons_unit_of_not_mem _ _ i3 _ _ _ e3 0 (Or.inl (by show r + 0 < r + 3; omega))]
    rw [View.read_writes_cons_unit_of_not_mem _ _ i2 _ _ _ e2 0 (Or.inl (by show r + 0 < r + 2; omega))]
    rw [View.read_writes_cons_unit_of_not_mem _ _ i1 _ _ _ e1 0 (Or.inl (by show r + 0 < r + 1; omega))]
    exact View.read_writes_cons_unit_of_mem (s := S32x256x128) (Memref.whole cc0_scratch4 : Memref sig .tc .vmem S32x256x128 .bf16).view f4 i0 P0 _ (ix3 (⟨r + 0, by omega⟩ : Fin 32) i d) (ix3 0 i d) e0 (fun a => by
      match a with
      | ⟨0, _⟩ => show r + 0 = r + 0 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 1, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 1 < r + 7; omega))]
    rw [View.read_writes_cons_unit_of_not_mem _ _ i6 _ _ _ e6 0 (Or.inl (by show r + 1 < r + 6; omega))]
    rw [View.read_writes_cons_unit_of_not_mem _ _ i5 _ _ _ e5 0 (Or.inl (by show r + 1 < r + 5; omega))]
    rw [View.read_writes_cons_unit_of_not_mem _ _ i4 _ _ _ e4 0 (Or.inl (by show r + 1 < r + 4; omega))]
    rw [View.read_writes_cons_unit_of_not_mem _ _ i3 _ _ _ e3 0 (Or.inl (by show r + 1 < r + 3; omega))]
    rw [View.read_writes_cons_unit_of_not_mem _ _ i2 _ _ _ e2 0 (Or.inl (by show r + 1 < r + 2; omega))]
    exact View.read_writes_cons_unit_of_mem (s := S32x256x128) (Memref.whole cc0_scratch4 : Memref sig .tc .vmem S32x256x128 .bf16).view f4 i1 P1 _ (ix3 (⟨r + 1, by omega⟩ : Fin 32) i d) (ix3 0 i d) e1 (fun a => by
      match a with
      | ⟨0, _⟩ => show r + 1 = r + 1 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 2, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 2 < r + 7; omega))]
    rw [View.read_writes_cons_unit_of_not_mem _ _ i6 _ _ _ e6 0 (Or.inl (by show r + 2 < r + 6; omega))]
    rw [View.read_writes_cons_unit_of_not_mem _ _ i5 _ _ _ e5 0 (Or.inl (by show r + 2 < r + 5; omega))]
    rw [View.read_writes_cons_unit_of_not_mem _ _ i4 _ _ _ e4 0 (Or.inl (by show r + 2 < r + 4; omega))]
    rw [View.read_writes_cons_unit_of_not_mem _ _ i3 _ _ _ e3 0 (Or.inl (by show r + 2 < r + 3; omega))]
    exact View.read_writes_cons_unit_of_mem (s := S32x256x128) (Memref.whole cc0_scratch4 : Memref sig .tc .vmem S32x256x128 .bf16).view f4 i2 P2 _ (ix3 (⟨r + 2, by omega⟩ : Fin 32) i d) (ix3 0 i d) e2 (fun a => by
      match a with
      | ⟨0, _⟩ => show r + 2 = r + 2 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 3, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 3 < r + 7; omega))]
    rw [View.read_writes_cons_unit_of_not_mem _ _ i6 _ _ _ e6 0 (Or.inl (by show r + 3 < r + 6; omega))]
    rw [View.read_writes_cons_unit_of_not_mem _ _ i5 _ _ _ e5 0 (Or.inl (by show r + 3 < r + 5; omega))]
    rw [View.read_writes_cons_unit_of_not_mem _ _ i4 _ _ _ e4 0 (Or.inl (by show r + 3 < r + 4; omega))]
    exact View.read_writes_cons_unit_of_mem (s := S32x256x128) (Memref.whole cc0_scratch4 : Memref sig .tc .vmem S32x256x128 .bf16).view f4 i3 P3 _ (ix3 (⟨r + 3, by omega⟩ : Fin 32) i d) (ix3 0 i d) e3 (fun a => by
      match a with
      | ⟨0, _⟩ => show r + 3 = r + 3 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 4, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 4 < r + 7; omega))]
    rw [View.read_writes_cons_unit_of_not_mem _ _ i6 _ _ _ e6 0 (Or.inl (by show r + 4 < r + 6; omega))]
    rw [View.read_writes_cons_unit_of_not_mem _ _ i5 _ _ _ e5 0 (Or.inl (by show r + 4 < r + 5; omega))]
    exact View.read_writes_cons_unit_of_mem (s := S32x256x128) (Memref.whole cc0_scratch4 : Memref sig .tc .vmem S32x256x128 .bf16).view f4 i4 P4 _ (ix3 (⟨r + 4, by omega⟩ : Fin 32) i d) (ix3 0 i d) e4 (fun a => by
      match a with
      | ⟨0, _⟩ => show r + 4 = r + 4 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 5, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 5 < r + 7; omega))]
    rw [View.read_writes_cons_unit_of_not_mem _ _ i6 _ _ _ e6 0 (Or.inl (by show r + 5 < r + 6; omega))]
    exact View.read_writes_cons_unit_of_mem (s := S32x256x128) (Memref.whole cc0_scratch4 : Memref sig .tc .vmem S32x256x128 .bf16).view f4 i5 P5 _ (ix3 (⟨r + 5, by omega⟩ : Fin 32) i d) (ix3 0 i d) e5 (fun a => by
      match a with
      | ⟨0, _⟩ => show r + 5 = r + 5 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 6, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 6 < r + 7; omega))]
    exact View.read_writes_cons_unit_of_mem (s := S32x256x128) (Memref.whole cc0_scratch4 : Memref sig .tc .vmem S32x256x128 .bf16).view f4 i6 P6 _ (ix3 (⟨r + 6, by omega⟩ : Fin 32) i d) (ix3 0 i d) e6 (fun a => by
      match a with
      | ⟨0, _⟩ => show r + 6 = r + 6 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 7, by omega⟩ : Fin 32) i d)) ?_
    show (Memref.whole cc0_scratch4 : Memref sig .tc .vmem S32x256x128 .bf16).view.read (Elt F) _ _ = _

    exact View.read_writes_cons_unit_of_mem (s := S32x256x128) (Memref.whole cc0_scratch4 : Memref sig .tc .vmem S32x256x128 .bf16).view f4 i7 P7 _ (ix3 (⟨r + 7, by omega⟩ : Fin 32) i d) (ix3 0 i d) e7 (fun a => by
      match a with
      | ⟨0, _⟩ => show r + 7 = r + 7 + 0; omega
      | ⟨1, _⟩ => show i.val = 0 + i.val; omega
      | ⟨2, _⟩ => show d.val = 0 + d.val; omega)

end Q2

section KVB
variable (c : Dev nD)

set_option maxHeartbeats 4000000 in
/-- Four one-plane tiles written into the narrowed key/value buffer — the keys' and the values' planes `p` and `p + 1`, the
    last written in front: each plane of the written contents reads its tile, whatever the buffer held before. -/
theorem kvb_planes_read (p : ℕ) (hp : p + 2 ≤ 8)
    (oV1 oK1 oV0 oK0 : Fin 4 → ℕ)
    (iV1 : ∀ a, oV1 a + S1x1x1024x128.size a ≤ S2x8x1024x128.size a) (iK1 : ∀ a, oK1 a + S1x1x1024x128.size a ≤ S2x8x1024x128.size a)
    (iV0 : ∀ a, oV0 a + S1x1x1024x128.size a ≤ S2x8x1024x128.size a) (iK0 : ∀ a, oK0 a + S1x1x1024x128.size a ≤ S2x8x1024x128.size a)
    (eV1 : oV1 = ![1, p + 1, 0, 0]) (eK1 : oK1 = ![0, p + 1, 0, 0]) (eV0 : oV0 = ![1, p + 0, 0, 0]) (eK0 : oK0 = ![0, p + 0, 0, 0])
    (f9 : Buf (Elt F) ((c : Thread nD τ).loc cc0_scratch9))
    (PV1 PK1 PV0 PK0 : S1x1x1024x128.Idx → Elt F .bf16) (j : Fin 1024) (d : Fin 128) :
    ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (0 : Fin 2) (⟨p + 0, by omega⟩ : Fin 8) j d) = PK0 (ix4 0 0 j d)
    ∧ ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (1 : Fin 2) (⟨p + 0, by omega⟩ : Fin 8) j d) = PV0 (ix4 0 0 j d)
    ∧ ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (0 : Fin 2) (⟨p + 1, by omega⟩ : Fin 8) j d) = PK1 (ix4 0 0 j d)
    ∧ ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (1 : Fin 2) (⟨p + 1, by omega⟩ : Fin 8) j d) = PV1 (ix4 0 0 j d) := by
  have hit : ∀ (a g : ℕ) (ha : a < 2) (hg : p + g < 8), ∀ x : Fin 4, ((ix4 (⟨a, ha⟩ : Fin 2) (⟨p + g, hg⟩ : Fin 8) j d) x).val = (![a, p + g, 0, 0] : Fin 4 → ℕ) x + ((ix4 (0 : Fin 1) (0 : Fin 1) j d) x).val := fun a g ha hg x => by
    match x with
    | ⟨0, _⟩ => show a = a + 0; omega
    | ⟨1, _⟩ => show p + g = p + g + 0; omega
    | ⟨2, _⟩ => show j.val = 0 + j.val; omega
    | ⟨3, _⟩ => show d.val = 0 + d.val; omega
  refine ⟨?_, ?_, ?_, ?_⟩
  · refine Eq.trans (congrFun (View.read_whole (Val := Elt F) cc0_scratch9 _).symm (ix4 (0 : Fin 2) (⟨p + 0, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 0 (Or.inl (by show 0 < 1; omega))]
    rw [View.read_writes_cons_unit_of_not_mem _ _ iK1 _ _ _ eK1 1 (Or.inl (by show p + 0 < p + 1; omega))]
    rw [View.read_writes_cons_unit_of_not_mem _ _ iV0 _ _ _ eV0 0 (Or.inl (by show 0 < 1; omega))]
    exact View.read_writes_cons_unit_of_mem (s := S2x8x1024x128) (Memref.whole cc0_scratch9 : Memref sig .tc .vmem S2x8x1024x128 .bf16).view f9 iK0 PK0 _ (ix4 (0 : Fin 2) (⟨p + 0, by omega⟩ : Fin 8) j d) (ix4 0 0 j d) eK0 (hit 0 0 (by omega) (by omega))
  · refine Eq.trans (congrFun (View.read_whole (Val := Elt F) cc0_scratch9 _).symm (ix4 (1 : Fin 2) (⟨p + 0, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 1 (Or.inl (by show p + 0 < p + 1; omega))]
    rw [View.read_writes_cons_unit_of_not_mem _ _ iK1 _ _ _ eK1 1 (Or.inl (by show p + 0 < p + 1; omega))]
    exact View.read_writes_cons_unit_of_mem (s := S2x8x1024x128) (Memref.whole cc0_scratch9 : Memref sig .tc .vmem S2x8x1024x128 .bf16).view f9 iV0 PV0 _ (ix4 (1 : Fin 2) (⟨p + 0, by omega⟩ : Fin 8) j d) (ix4 0 0 j d) eV0 (hit 1 0 (by omega) (by omega))
  · refine Eq.trans (congrFun (View.read_whole (Val := Elt F) cc0_scratch9 _).symm (ix4 (0 : Fin 2) (⟨p + 1, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 0 (Or.inl (by show 0 < 1; omega))]
    exact View.read_writes_cons_unit_of_mem (s := S2x8x1024x128) (Memref.whole cc0_scratch9 : Memref sig .tc .vmem S2x8x1024x128 .bf16).view f9 iK1 PK1 _ (ix4 (0 : Fin 2) (⟨p + 1, by omega⟩ : Fin 8) j d) (ix4 0 0 j d) eK1 (hit 0 1 (by omega) (by omega))
  · refine Eq.trans (congrFun (View.read_whole (Val := Elt F) cc0_scratch9 _).symm (ix4 (1 : Fin 2) (⟨p + 1, by omega⟩ : Fin 8) j d)) ?_
    show (Memref.whole cc0_scratch9 : Memref sig .tc .vmem S2x8x1024x128 .bf16).view.read (Elt F) _ _ = _
    exact View.read_writes_cons_unit_of_mem (s := S2x8x1024x128) (Memref.whole cc0_scratch9 : Memref sig .tc .vmem S2x8x1024x128 .bf16).view f9 iV1 PV1 _ (ix4 (1 : Fin 2) (⟨p + 1, by omega⟩ : Fin 8) j d) (ix4 0 0 j d) eV1 (hit 1 1 (by omega) (by omega))

end KVB

section Pay
variable (x : Vec F S1x256x1024 .f32) (w : Vec F S1024x1024 .bf16) (v : Vec F S1x1x1024x128 .f32)

/-! The narrowing of a key or value plane is written once per store; the copies are one function. -/
theorem kv_pay24 : k0_pay24 (k0_pay23 v) = k0_pay25 v := rfl
theorem kv_pay26 : k0_pay26 v = k0_pay25 v := rfl
theorem kv_pay27 : k0_pay27 v = k0_pay25 v := rfl
theorem kv_pay40 : k0_pay40 v = k0_pay25 v := rfl
theorem kv_pay41 : k0_pay41 v = k0_pay25 v := rfl
theorem kv_pay42 : k0_pay42 v = k0_pay25 v := rfl
theorem kv_pay44 : k0_pay44 (k0_pay43 v) = k0_pay25 v := rfl
theorem kv_pay58 : k0_pay58 v = k0_pay25 v := rfl
theorem kv_pay60 : k0_pay60 (k0_pay59 v) = k0_pay25 v := rfl
theorem kv_pay61 : k0_pay61 v = k0_pay25 v := rfl
theorem kv_pay62 : k0_pay62 v = k0_pay25 v := rfl
theorem kv_pay79 : k0_pay79 v = k0_pay25 v := rfl
theorem kv_pay80 : k0_pay80 v = k0_pay25 v := rfl
theorem kv_pay82 : k0_pay82 (k0_pay81 v) = k0_pay25 v := rfl
theorem kv_pay83 : k0_pay83 v = k0_pay25 v := rfl

/-! The eight head slices of the projected queries, batch by batch: the copies are the first batch's functions. -/
theorem q_pay45 : k0_pay45 x w = k0_pay28 x w := rfl
theorem q_pay46 : k0_pay46 x w = k0_pay29 x w := rfl
theorem q_pay47 : k0_pay47 x w = k0_pay30 x w := rfl
theorem q_pay48 : k0_pay48 x w = k0_pay32 (k0_pay31 x w) := rfl
theorem q_pay50 : k0_pay50 (k0_pay49 x w) = k0_pay33 (k0_pay28 x w) := rfl
theorem q_pay51 : k0_pay51 (k0_pay45 x w) = k0_pay34 (k0_pay28 x w) := rfl
theorem q_pay52 : k0_pay52 (k0_pay45 x w) = k0_pay35 (k0_pay28 x w) := rfl
theorem q_pay53 : k0_pay53 (k0_pay45 x w) = k0_pay36 (k0_pay28 x w) := rfl
theorem q_pay55 : k0_pay55 (k0_pay54 (k0_pay45 x w)) = k0_pay37 (k0_pay28 x w) := rfl
theorem q_pay64 : k0_pay64 (k0_pay63 x) w = k0_pay28 x w := rfl
theorem q_pay65 : k0_pay65 (k0_pay63 x) w = k0_pay29 x w := rfl
theorem q_pay66 : k0_pay66 (k0_pay63 x) w = k0_pay30 x w := rfl
theorem q_pay67 : k0_pay67 (k0_pay63 x) w = k0_pay32 (k0_pay31 x w) := rfl
theorem q_pay68 : k0_pay68 (k0_pay63 x) w = k0_pay33 (k0_pay28 x w) := rfl
theorem q_pay69 : k0_pay69 (k0_pay64 (k0_pay63 x) w) = k0_pay34 (k0_pay28 x w) := rfl
theorem q_pay70 : k0_pay70 (k0_pay64 (k0_pay63 x) w) = k0_pay35 (k0_pay28 x w) := rfl
theorem q_pay71 : k0_pay71 (k0_pay64 (k0_pay63 x) w) = k0_pay36 (k0_pay28 x w) := rfl
theorem q_pay72 : k0_pay72 (k0_pay64 (k0_pay63 x) w) = k0_pay37 (k0_pay28 x w) := rfl
theorem q_pay84 : k0_pay84 x w = k0_pay28 x w := rfl
theorem q_pay85 : k0_pay85 x w = k0_pay29 x w := rfl
theorem q_pay86 : k0_pay86 (k0_pay84 x w) = k0_pay30 x w := rfl
theorem q_pay87 : k0_pay87 (k0_pay84 x w) = k0_pay32 (k0_pay31 x w) := rfl
theorem q_pay88 : k0_pay88 (k0_pay84 x w) = k0_pay33 (k0_pay28 x w) := rfl
theorem q_pay89 : k0_pay89 (k0_pay84 x w) = k0_pay34 (k0_pay28 x w) := rfl
theorem q_pay91 : k0_pay91 (k0_pay90 (k0_pay84 x w)) = k0_pay35 (k0_pay28 x w) := rfl
theorem q_pay92 : k0_pay92 (k0_pay84 x w) = k0_pay36 (k0_pay28 x w) := rfl
theorem q_pay93 : k0_pay93 (k0_pay84 x w) = k0_pay37 (k0_pay28 x w) := rfl

end Pay

section At
variable (m : (ℓ : Loc nD τ sig) → Buf (Elt F) ℓ) (c : Dev nD)

/-- The query rows of a batch, from the eight stored tiles: with tile `h` the batch's projected, scaled and narrowed
    queries of head `h`, row `r + h` of the query buffer reads them. -/
theorem q2rows_at (B : Fin 4) (r : ℕ) (hr : r + 8 ≤ 32)
    (o0 o1 o2 o3 o4 o5 o6 o7 : Fin 3 → ℕ)
    (i0 : ∀ a, o0 a + S1x256x128.size a ≤ S32x256x128.size a) (i1 : ∀ a, o1 a + S1x256x128.size a ≤ S32x256x128.size a) (i2 : ∀ a, o2 a + S1x256x128.size a ≤ S32x256x128.size a) (i3 : ∀ a, o3 a + S1x256x128.size a ≤ S32x256x128.size a) (i4 : ∀ a, o4 a + S1x256x128.size a ≤ S32x256x128.size a) (i5 : ∀ a, o5 a + S1x256x128.size a ≤ S32x256x128.size a) (i6 : ∀ a, o6 a + S1x256x128.size a ≤ S32x256x128.size a) (i7 : ∀ a, o7 a + S1x256x128.size a ≤ S32x256x128.size a)
    (e0 : o0 = ![r + 0, 0, 0]) (e1 : o1 = ![r + 1, 0, 0]) (e2 : o2 = ![r + 2, 0, 0]) (e3 : o3 = ![r + 3, 0, 0]) (e4 : o4 = ![r + 4, 0, 0]) (e5 : o5 = ![r + 5, 0, 0]) (e6 : o6 = ![r + 6, 0, 0]) (e7 : o7 = ![r + 7, 0, 0])
    (f4 : Buf (Elt F) ((c : Thread nD τ).loc cc0_scratch4))
    (P0 P1 P2 P3 P4 P5 P6 P7 : S1x256x128.Idx → Elt F .bf16)
    (hP0 : P0 = KFun.q2 m c B 0) (hP1 : P1 = KFun.q2 m c B 1) (hP2 : P2 = KFun.q2 m c B 2) (hP3 : P3 = KFun.q2 m c B 3) (hP4 : P4 = KFun.q2 m c B 4) (hP5 : P5 = KFun.q2 m c B 5) (hP6 : P6 = KFun.q2 m c B 6) (hP7 : P7 = KFun.q2 m c B 7)
    (h : Fin 8) (i : Fin 256) (d : Fin 128) :
    ((Memref.whole cc0_scratch4 : Memref sig .tc .vmem S32x256x128 .bf16).view.writes (Elt F) f4 [⟨Rect.unit (s := S32x256x128) o7 S1x256x128.size i7, P7⟩, ⟨Rect.unit (s := S32x256x128) o6 S1x256x128.size i6, P6⟩, ⟨Rect.unit (s := S32x256x128) o5 S1x256x128.size i5, P5⟩, ⟨Rect.unit (s := S32x256x128) o4 S1x256x128.size i4, P4⟩, ⟨Rect.unit (s := S32x256x128) o3 S1x256x128.size i3, P3⟩, ⟨Rect.unit (s := S32x256x128) o2 S1x256x128.size i2, P2⟩, ⟨Rect.unit (s := S32x256x128) o1 S1x256x128.size i1, P1⟩, ⟨Rect.unit (s := S32x256x128) o0 S1x256x128.size i0, P0⟩]) (ix3 (⟨r + h.val, by have := h.isLt; omega⟩ : Fin 32) i d)
      = KFun.q2 m c B h (ix3 0 i d) := by
  obtain ⟨a0, a1, a2, a3, a4, a5, a6, a7⟩ := q2_rows_read c r hr o0 o1 o2 o3 o4 o5 o6 o7 i0 i1 i2 i3 i4 i5 i6 i7 e0 e1 e2 e3 e4 e5 e6 e7 f4 P0 P1 P2 P3 P4 P5 P6 P7 i d
  match h with
  | ⟨0, _⟩ => exact a0.trans (congrFun hP0 _)
  | ⟨1, _⟩ => exact a1.trans (congrFun hP1 _)
  | ⟨2, _⟩ => exact a2.trans (congrFun hP2 _)
  | ⟨3, _⟩ => exact a3.trans (congrFun hP3 _)
  | ⟨4, _⟩ => exact a4.trans (congrFun hP4 _)
  | ⟨5, _⟩ => exact a5.trans (congrFun hP5 _)
  | ⟨6, _⟩ => exact a6.trans (congrFun hP6 _)
  | ⟨7, _⟩ => exact a7.trans (congrFun hP7 _)

/-- The narrowed key and value planes of a batch, from the four stored tiles. -/
theorem kvrows_at (B : Fin 4) (p : ℕ) (hp : p + 2 ≤ 8)
    (oV1 oK1 oV0 oK0 : Fin 4 → ℕ)
    (iV1 : ∀ a, oV1 a + S1x1x1024x128.size a ≤ S2x8x1024x128.size a) (iK1 : ∀ a, oK1 a + S1x1x1024x128.size a ≤ S2x8x1024x128.size a)
    (iV0 : ∀ a, oV0 a + S1x1x1024x128.size a ≤ S2x8x1024x128.size a) (iK0 : ∀ a, oK0 a + S1x1x1024x128.size a ≤ S2x8x1024x128.size a)
    (eV1 : oV1 = ![1, p + 1, 0, 0]) (eK1 : oK1 = ![0, p + 1, 0, 0]) (eV0 : oV0 = ![1, p + 0, 0, 0]) (eK0 : oK0 = ![0, p + 0, 0, 0])
    (f9 : Buf (Elt F) ((c : Thread nD τ).loc cc0_scratch9))
    (PV1 PK1 PV0 PK0 : S1x1x1024x128.Idx → Elt F .bf16)
    (hK0 : PK0 = KFun.kh m c B 0) (hV0 : PV0 = KFun.vh m c B 0) (hK1 : PK1 = KFun.kh m c B 1) (hV1 : PV1 = KFun.vh m c B 1)
    (g : Fin 2) (j : Fin 1024) (d : Fin 128) :
    ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (0 : Fin 2) (⟨p + g.val, by have := g.isLt; omega⟩ : Fin 8) j d) = KFun.kh m c B g (ix4 0 0 j d)
    ∧ ((Memref.whole cc0_scratch9 : Memref sig .tc .vmem S2x8x1024x128 .bf16).view.writes (Elt F) f9 [⟨Rect.unit (s := S2x8x1024x128) oV1 S1x1x1024x128.size iV1, PV1⟩, ⟨Rect.unit (s := S2x8x1024x128) oK1 S1x1x1024x128.size iK1, PK1⟩, ⟨Rect.unit (s := S2x8x1024x128) oV0 S1x1x1024x128.size iV0, PV0⟩, ⟨Rect.unit (s := S2x8x1024x128) oK0 S1x1x1024x128.size iK0, PK0⟩]) (ix4 (1 : Fin 2) (⟨p + g.val, by have := g.isLt; omega⟩ : Fin 8) j d) = KFun.vh m c B g (ix4 0 0 j d) := by
  obtain ⟨aK0, aV0, aK1, aV1⟩ := kvb_planes_read c p hp oV1 oK1 oV0 oK0 iV1 iK1 iV0 iK0 eV1 eK1 eV0 eK0 f9 PV1 PK1 PV0 PK0 j d
  match g with
  | ⟨0, _⟩ => exact ⟨aK0.trans (congrFun hK0 _), aV0.trans (congrFun hV0 _)⟩
  | ⟨1, _⟩ => exact ⟨aK1.trans (congrFun hK1 _), aV1.trans (congrFun hV1 _)⟩

/-- The batch's tile of `x` as the projection loads it from the staged array: block `b`, all rows and columns. -/
theorem xblk_of_load (b : Fin 4) (off : Fin 3 → ℕ) (hoff : off = ![b.val, 0, 0]) (inb : ∀ a, off a + S1x256x1024.size a ≤ S4x256x1024.size a)
    (g0 : Buf (Elt F) ((c : Thread nD τ).loc cc0_stg0_0))
    (hg0 : ∀ (b' : Fin 4) (i : Fin 256) (n : Fin 1024), g0 (ix3 b' i n) = KFun.X m c (ix3 b' i n)) :
    View.readAt (Elt F) (Memref.whole cc0_stg0_0 : Memref sig .tc .vmem S4x256x1024 .f32).view (Rect.unit (s := S4x256x1024) off S1x256x1024.size inb).toLoadRect g0
      = KFun.xblk m c b := by
  subst hoff
  funext s
  rw [View.readAt_apply, View.read_apply]
  show g0 _ = KFun.X m c _
  refine (congrArg g0 (funext fun x => Fin.ext ?_)).trans (hg0 b (⟨(s 1).val, (s 1).isLt⟩ : Fin 256) (⟨(s 2).val, (s 2).isLt⟩ : Fin 1024))
  have h0 : (s 0).val < 1 := (s 0).isLt
  match x with
  | ⟨0, _⟩ => show b.val + 1 * (s 0).val = b.val; omega
  | ⟨1, _⟩ => show 0 + 1 * (s 1).val = (s 1).val; omega
  | ⟨2, _⟩ => show 0 + 1 * (s 2).val = (s 2).val; omega

/-- A key plane, and a value plane, as the narrowing loads it from the copied rows: batch `b`, key/value head `g`. -/
theorem kslice_of_load (b : Fin 4) (g : Fin 2) (off : Fin 4 → ℕ) (hoff : off = ![0, 2 * b.val + g.val, 0, 0]) (inb : ∀ a, off a + S1x1x1024x128.size a ≤ S2x8x1024x128.size a)
    (f5 : Buf (Elt F) ((c : Thread nD τ).loc cc0_scratch5))
    (hf5 : ∀ (j : Fin 1024) (d : Fin 128), f5 (ix4 (0 : Fin 2) (⟨2 * b.val + g.val, by have := b.isLt; have := g.isLt; omega⟩ : Fin 8) j d) = KFun.KQ m c (ix4 b j g d)) :
    View.readAt (Elt F) (Memref.whole cc0_scratch5 : Memref sig .tc .vmem S2x8x1024x128 .f32).view (Rect.unit (s := S2x8x1024x128) off S1x1x1024x128.size inb).toLoadRect f5
      = KFun.kslice m c b g := by
  subst hoff
  funext s
  rw [View.readAt_apply, View.read_apply]
  show f5 _ = KFun.KQ m c _
  refine (congrArg f5 (funext fun x => Fin.ext ?_)).trans (hf5 (⟨(s 2).val, (s 2).isLt⟩ : Fin 1024) (⟨(s 3).val, (s 3).isLt⟩ : Fin 128))
  have h0 : (s 0).val < 1 := (s 0).isLt
  have h1 : (s 1).val < 1 := (s 1).isLt
  match x with
  | ⟨0, _⟩ => show 0 + 1 * (s 0).val = 0; omega
  | ⟨1, _⟩ => show 2 * b.val + g.val + 1 * (s 1).val = 2 * b.val + g.val; omega
  | ⟨2, _⟩ => show 0 + 1 * (s 2).val = (s 2).val; omega
  | ⟨3, _⟩ => show 0 + 1 * (s 3).val = (s 3).val; omega
theorem vslice_of_load (b : Fin 4) (g : Fin 2) (off : Fin 4 → ℕ) (hoff : off = ![1, 2 * b.val + g.val, 0, 0]) (inb : ∀ a, off a + S1x1x1024x128.size a ≤ S2x8x1024x128.size a)
    (f5 : Buf (Elt F) ((c : Thread nD τ).loc cc0_scratch5))
    (hf5 : ∀ (j : Fin 1024) (d : Fin 128), f5 (ix4 (1 : Fin 2) (⟨2 * b.val + g.val, by have := b.isLt; have := g.isLt; omega⟩ : Fin 8) j d) = KFun.VQ m c (ix4 b j g d)) :
    View.readAt (Elt F) (Memref.whole cc0_scratch5 : Memref sig .tc .vmem S2x8x1024x128 .f32).view (Rect.unit (s := S2x8x1024x128) off S1x1x1024x128.size inb).toLoadRect f5
      = KFun.vslice m c b g := by
  subst hoff
  funext s
  rw [View.readAt_apply, View.read_apply]
  show f5 _ = KFun.VQ m c _
  refine (congrArg f5 (funext fun x => Fin.ext ?_)).trans (hf5 (⟨(s 2).val, (s 2).isLt⟩ : Fin 1024) (⟨(s 3).val, (s 3).isLt⟩ : Fin 128))
  have h0 : (s 0).val < 1 := (s 0).isLt
  have h1 : (s 1).val < 1 := (s 1).isLt
  match x with
  | ⟨0, _⟩ => show 1 + 1 * (s 0).val = 1; omega
  | ⟨1, _⟩ => show 2 * b.val + g.val + 1 * (s 1).val = 2 * b.val + g.val; omega
  | ⟨2, _⟩ => show 0 + 1 * (s 2).val = (s 2).val; omega
  | ⟨3, _⟩ => show 0 + 1 * (s 3).val = (s 3).val; omega

end At

end Cert.Kernel.Proto.Rows
end
-- ==== Proof.KB.BodyA.lean ====
/-
  The first stretch of a device's body, from its start to the first flash loop: the two barrier units, the sixteen local
  copies issued, the weights projected, the device's own batch of key and value planes waited for and narrowed, its
  queries projected and seven heads of them stored.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.Unfold
import proofs.«900754_g7700000000000755_dist_attn_cross_gqa_kvseq_b4_sq256_skv1024_d1024_hq8_dh128_v7x_i4_f32_1_alg».proof.Proof.KB.Split
import proofs.«900754_g7700000000000755_dist_attn_cross_gqa_kvseq_b4_sq256_skv1024_d1024_hq8_dh128_v7x_i4_f32_1_alg».proof.Proof.KB.OpSend
import proofs.«900754_g7700000000000755_dist_attn_cross_gqa_kvseq_b4_sq256_skv1024_d1024_hq8_dh128_v7x_i4_f32_1_alg».proof.Proof.KB.OpWait
import proofs.«900754_g7700000000000755_dist_attn_cross_gqa_kvseq_b4_sq256_skv1024_d1024_hq8_dh128_v7x_i4_f32_1_alg».proof.Proof.KB.LoopsUU
import proofs.«900754_g7700000000000755_dist_attn_cross_gqa_kvseq_b4_sq256_skv1024_d1024_hq8_dh128_v7x_i4_f32_1_alg».proof.Proof.KB.KvSplit
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.HbmSplit
import proofs.«900754_g7700000000000755_dist_attn_cross_gqa_kvseq_b4_sq256_skv1024_d1024_hq8_dh128_v7x_i4_f32_1_alg».proof.Proof.KB.KvRel
import proofs.«900754_g7700000000000755_dist_attn_cross_gqa_kvseq_b4_sq256_skv1024_d1024_hq8_dh128_v7x_i4_f32_1_alg».proof.Proof.KB.KvJoin
import proofs.«900754_g7700000000000755_dist_attn_cross_gqa_kvseq_b4_sq256_skv1024_d1024_hq8_dh128_v7x_i4_f32_1_alg».proof.Proof.KB.KLaunch
import proofs.«900754_g7700000000000755_dist_attn_cross_gqa_kvseq_b4_sq256_skv1024_d1024_hq8_dh128_v7x_i4_f32_1_alg».proof.Proof.KB.Segs
import proofs.«900754_g7700000000000755_dist_attn_cross_gqa_kvseq_b4_sq256_skv1024_d1024_hq8_dh128_v7x_i4_f32_1_alg».proof.Proof.KB.Cut15
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.ProjRows
import proofs.«900754_g7700000000000755_dist_attn_cross_gqa_kvseq_b4_sq256_skv1024_d1024_hq8_dh128_v7x_i4_f32_1_alg».proof.Proof.Gen.Kernel.Skeleton
import proofs.«900754_g7700000000000755_dist_attn_cross_gqa_kvseq_b4_sq256_skv1024_d1024_hq8_dh128_v7x_i4_f32_1_alg».proof.Proof.Gen.Kernel.Loops
import proofs.«900754_g7700000000000755_dist_attn_cross_gqa_kvseq_b4_sq256_skv1024_d1024_hq8_dh128_v7x_i4_f32_1_alg».proof.Proof.Gen.Kernel.Points
import proofs.«900754_g7700000000000755_dist_attn_cross_gqa_kvseq_b4_sq256_skv1024_d1024_hq8_dh128_v7x_i4_f32_1_alg».proof.Proof.Gen.Kernel.Frame
import Idealize.ShloMosaic.Lib.WritesUnit
import Idealize.ShloMosaic.Lib.Pipeline.Value
import Idealize.ShloMosaic.Lib.Tactic

set_option maxRecDepth 16384

noncomputable section

namespace Cert.Kernel.Proto

open Cert.Kernel Cert.Kernel.Gen Cert.Kernel.Ring
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open C32

variable {F : FTy → Type} [FloatOps F]
local notation "𝕄" => MT nD τ sig Unit (Elt F) ℕ UU ℕ

/-- What device `c` hands its left neighbour with its barrier unit: its right-going landing slices and its standing at their receive cells. -/
@[sl_rounds] theorem payload_barP (V : Vals F) (c : Dev nD) : (ringRd V).payload (barCell (prv c)) 0 false = (iprop(((∃ f : Buf (Elt F) ((dstO 0 false).view.loc (c : Thread nD τ)), (dstO 0 false).view.loc (c : Thread nD τ) ↦[(dstO 0 false).view.set]{fullShare} f) ∗ (∃ f : Buf (Elt F) ((dstL 0 false).view.loc (c : Thread nD τ)), (dstL 0 false).view.loc (c : Thread nD τ) ↦[(dstL 0 false).view.set]{fullShare} f) ∗ (∃ f : Buf (Elt F) ((agS (prv c) 0 false).view.loc (c : Thread nD τ)), (agS (prv c) 0 false).view.loc (c : Thread nD τ) ↦[(agS (prv c) 0 false).view.set]{fullShare} f) ∗ reached ER (recvCell (c) .o false 0) 0 ∗ reached ER (recvCell (c) .l false 0) 0 ∗ reached ER (recvCell (c) .g false 0) 0) ∗ ((∃ f : Buf (Elt F) ((dstO 1 false).view.loc (c : Thread nD τ)), (dstO 1 false).view.loc (c : Thread nD τ) ↦[(dstO 1 false).view.set]{fullShare} f) ∗ (∃ f : Buf (Elt F) ((dstL 1 false).view.loc (c : Thread nD τ)), (dstL 1 false).view.loc (c : Thread nD τ) ↦[(dstL 1 false).view.set]{fullShare} f) ∗ (∃ f : Buf (Elt F) ((agS (prv c) 1 false).view.loc (c : Thread nD τ)), (agS (prv c) 1 false).view.loc (c : Thread nD τ) ↦[(agS (prv c) 1 false).view.set]{fullShare} f) ∗ reached ER (recvCell (c) .o false 1) 0 ∗ reached ER (recvCell (c) .l false 1) 0 ∗ reached ER (recvCell (c) .g false 1) 0) ∗ ((∃ f : Buf (Elt F) ((dstO 2 false).view.loc (c : Thread nD τ)), (dstO 2 false).view.loc (c : Thread nD τ) ↦[(dstO 2 false).view.set]{fullShare} f) ∗ (∃ f : Buf (Elt F) ((dstL 2 false).view.loc (c : Thread nD τ)), (dstL 2 false).view.loc (c : Thread nD τ) ↦[(dstL 2 false).view.set]{fullShare} f) ∗ (∃ f : Buf (Elt F) ((agS (prv c) 2 false).view.loc (c : Thread nD τ)), (agS (prv c) 2 false).view.loc (c : Thread nD τ) ↦[(agS (prv c) 2 false).view.set]{fullShare} f) ∗ reached ER (recvCell (c) .o false 2) 0 ∗ reached ER (recvCell (c) .l false 2) 0 ∗ reached ER (recvCell (c) .g false 2) 0)) : sProp 𝕄) := by
  rw [payload_bar]; unfold barPay landing held; simp only [toDev]; rw [nxt_prv]
@[sl_rounds] theorem payload_barN (V : Vals F) (c : Dev nD) : (ringRd V).payload (barCell (nxt c)) 0 true = (iprop(((∃ f : Buf (Elt F) ((dstO 0 true).view.loc (c : Thread nD τ)), (dstO 0 true).view.loc (c : Thread nD τ) ↦[(dstO 0 true).view.set]{fullShare} f) ∗ (∃ f : Buf (Elt F) ((dstL 0 true).view.loc (c : Thread nD τ)), (dstL 0 true).view.loc (c : Thread nD τ) ↦[(dstL 0 true).view.set]{fullShare} f) ∗ (∃ f : Buf (Elt F) ((agS (nxt c) 0 true).view.loc (c : Thread nD τ)), (agS (nxt c) 0 true).view.loc (c : Thread nD τ) ↦[(agS (nxt c) 0 true).view.set]{fullShare} f) ∗ reached ER (recvCell (c) .o true 0) 0 ∗ reached ER (recvCell (c) .l true 0) 0 ∗ reached ER (recvCell (c) .g true 0) 0) ∗ ((∃ f : Buf (Elt F) ((dstO 1 true).view.loc (c : Thread nD τ)), (dstO 1 true).view.loc (c : Thread nD τ) ↦[(dstO 1 true).view.set]{fullShare} f) ∗ (∃ f : Buf (Elt F) ((dstL 1 true).view.loc (c : Thread nD τ)), (dstL 1 true).view.loc (c : Thread nD τ) ↦[(dstL 1 true).view.set]{fullShare} f) ∗ (∃ f : Buf (Elt F) ((agS (nxt c) 1 true).view.loc (c : Thread nD τ)), (agS (nxt c) 1 true).view.loc (c : Thread nD τ) ↦[(agS (nxt c) 1 true).view.set]{fullShare} f) ∗ reached ER (recvCell (c) .o true 1) 0 ∗ reached ER (recvCell (c) .l true 1) 0 ∗ reached ER (recvCell (c) .g true 1) 0) ∗ ((∃ f : Buf (Elt F) ((dstO 2 true).view.loc (c : Thread nD τ)), (dstO 2 true).view.loc (c : Thread nD τ) ↦[(dstO 2 true).view.set]{fullShare} f) ∗ (∃ f : Buf (Elt F) ((dstL 2 true).view.loc (c : Thread nD τ)), (dstL 2 true).view.loc (c : Thread nD τ) ↦[(dstL 2 true).view.set]{fullShare} f) ∗ (∃ f : Buf (Elt F) ((agS (nxt c) 2 true).view.loc (c : Thread nD τ)), (agS (nxt c) 2 true).view.loc (c : Thread nD τ) ↦[(agS (nxt c) 2 true).view.set]{fullShare} f) ∗ reached ER (recvCell (c) .o true 2) 0 ∗ reached ER (recvCell (c) .l true 2) 0 ∗ reached ER (recvCell (c) .g true 2) 0)) : sProp 𝕄) := by
  rw [payload_bar]; unfold barPay landing held; simp only [toDev]; rw [prv_nxt]

/-! ## Value facts: what the program's reads and stores are, in the kernel function's terms -/

section Values
variable (V : Vals F) (m : (ℓ : Loc nD τ sig) → Buf (Elt F) ℓ) (Kout : OutFn F)

/-- A staged input window holds its block of the launch memory before the body as after it. -/
theorem dats_before0 (c : Dev nD) (t : Fin cfg0.N) (d) : (dats (F := F) V m Kout 0 c).before 0 t d = (dats V m Kout 0 c).after 0 t :=
  ((dats V m Kout 0 c).before_in_eq_fetched 0 rfl (fun _ => rfl) (fun _ _ _ => rfl) (fun t => by unfold Dat.blockOf; rfl) t d).trans
    (by unfold Dat.fetched Dat.blockOf; rfl)
theorem dats_before1 (c : Dev nD) (t : Fin cfg0.N) (d) : (dats (F := F) V m Kout 0 c).before 1 t d = (dats V m Kout 0 c).after 1 t :=
  ((dats V m Kout 0 c).before_in_eq_fetched 1 rfl (fun _ => rfl) (fun _ _ _ => rfl) (fun t => by unfold Dat.blockOf; rfl) t d).trans
    (by unfold Dat.fetched Dat.blockOf; rfl)
theorem dats_before2 (c : Dev nD) (t : Fin cfg0.N) (d) : (dats (F := F) V m Kout 0 c).before 2 t d = (dats V m Kout 0 c).after 2 t :=
  ((dats V m Kout 0 c).before_in_eq_fetched 2 rfl (fun _ => rfl) (fun _ _ _ => rfl) (fun t => by unfold Dat.blockOf; rfl) t d).trans
    (by unfold Dat.fetched Dat.blockOf; rfl)

/-! ## The staged blocks are the launch arrays -/

theorem iblk0_eq (c : Dev nD) : iblk (F := F) m c 0 t0_0 = KFun.X m c := by
  funext x
  unfold iblk KFun.X
  rw [View.read_apply]
  have he : ((cfg0.win 0).blk t0_0).view.emb x = x := by
    funext a
    apply Fin.ext
    fin_cases a
    · first | rfl | (show 0 + 1 * (x 0).val = (x 0).val; omega) | (simp; done)
    · first | rfl | (show 0 + 1 * (x 1).val = (x 1).val; omega) | (simp; done)
    · first | rfl | (show 0 + 1 * (x 2).val = (x 2).val; omega) | (simp; done)
  rw [he]
  rfl
theorem iblk1_eq (c : Dev nD) : iblk (F := F) m c 1 t0_0 = KFun.WQ m c := by
  funext x
  unfold iblk KFun.WQ
  rw [View.read_apply]
  have he : ((cfg0.win 1).blk t0_0).view.emb x = x := by
    funext a
    apply Fin.ext
    fin_cases a
    · first | rfl | (show 0 + 1 * (x 0).val = (x 0).val; omega) | (simp; done)
    · first | rfl | (show 0 + 1 * (x 1).val = (x 1).val; omega) | (simp; done)
  rw [he]
  rfl
theorem iblk2_eq (c : Dev nD) : iblk (F := F) m c 2 t0_0 = KFun.WO m c := by
  funext x
  unfold iblk KFun.WO
  rw [View.read_apply]
  have he : ((cfg0.win 2).blk t0_0).view.emb x = x := by
    funext a
    apply Fin.ext
    fin_cases a
    · first | rfl | (show 0 + 1 * (x 0).val = (x 0).val; omega) | (simp; done)
    · first | rfl | (show 0 + 1 * (x 1).val = (x 1).val; omega) | (simp; done)
  rw [he]
  rfl

theorem hz2 : (![0, 0] : Fin 2 → ℕ) = fun _ => 0 := funext fun a => by fin_cases a <;> rfl

/-! ## What the projection reads -/

/-- The projected `Wq` read back whole. -/
theorem run_wq (c : Dev nD) :
    ((Memref.whole cc0_scratch7 : Memref sig .tc .vmem S1024x1024 .bf16).view.readCov (Val := Elt F)
        [⟨Rect.unit (s := S1024x1024) ![0, 0] S1024x1024.size inb_S1024x1024_S1024x1024_0_0,
          k0_pay21 (View.readAt (Elt F) (Memref.whole cc0_stg1_0 : Memref sig .tc .vmem S1024x1024 .f32).view (Rect.unit (s := S1024x1024) ![0, 0] S1024x1024.size inb_S1024x1024_S1024x1024_0_0).toLoadRect
            ((dats (F := F) V m Kout 0 c).after 1 t0_0))⟩]
        (Rect.unit (s := S1024x1024) ![0, 0] S1024x1024.size inb_S1024x1024_S1024x1024_0_0).toLoadRect : FVec F S1024x1024 .bf16)
      = KFun.wqb m c := by
  refine (View.readCov_unit_zero (Val := Elt F) (Memref.whole cc0_scratch7 : Memref sig .tc .vmem S1024x1024 .bf16).view hz2 inb_S1024x1024_S1024x1024_0_0 _).trans ?_
  unfold KFun.wqb
  congr 1
  have e : (dats (F := F) V m Kout 0 c).after 1 t0_0 = iblk m c 1 t0_0 := rfl
  rw [e, iblk1_eq]
  exact Memref.readAt_unit_zero (Elt F) cc0_stg1_0 hz2 _ _

/-- The activations of batch `c`. -/
theorem run_x (c : Dev nD) :
    View.readAt (Elt F) (Memref.whole cc0_stg0_0 : Memref sig .tc .vmem S4x256x1024 .f32).view (Rect.unit (s := S4x256x1024) (k0_off8 c) S1x256x1024.size (k0_off8_inb c)).toLoadRect
        ((dats (F := F) V m Kout 0 c).after 0 t0_0) = KFun.xblk m c c := by
  have e : (dats (F := F) V m Kout 0 c).after 0 t0_0 = iblk m c 0 t0_0 := rfl
  rw [e, iblk0_eq]
  funext t
  rw [View.readAt_rect, View.read_apply]
  unfold KFun.xblk
  have he : ((Memref.whole cc0_stg0_0 : Memref sig .tc .vmem S4x256x1024 .f32).view.slice (Rect.unit (s := S4x256x1024) (k0_off8 c) S1x256x1024.size (k0_off8_inb c))).emb t
      = ix3 c (⟨(t 1).val, (t 1).isLt⟩ : Fin 256) (⟨(t 2).val, (t 2).isLt⟩ : Fin 1024) := by
    funext a
    apply Fin.ext
    have h0 : (t 0).val < 1 := (t 0).isLt
    fin_cases a
    · have h8 : k0_off8 c 0 = c.val := congrFun (k0_off8_eq c) 0
      show (k0_off8 c) 0 + 1 * (t 0).val = c.val
      omega
    · have h8 : k0_off8 c 1 = 0 := congrFun (k0_off8_eq c) 1
      show (k0_off8 c) 1 + 1 * (t 1).val = (t 1).val
      omega
    · have h8 : k0_off8 c 2 = 0 := congrFun (k0_off8_eq c) 2
      show (k0_off8 c) 2 + 1 * (t 2).val = (t 2).val
      omega
  rw [he]
  rfl

/-! ## The projected weights -/

theorem read_wq (c : Dev nD) :
    View.readAt (Elt F) (Memref.whole cc0_stg1_0 : Memref sig .tc .vmem S1024x1024 .f32).view (Rect.unit (s := S1024x1024) ![0, 0] S1024x1024.size inb_S1024x1024_S1024x1024_0_0).toLoadRect
        ((dats (F := F) V m Kout 0 c).after 1 t0_0) = KFun.WQ m c := by
  have e : (dats (F := F) V m Kout 0 c).after 1 t0_0 = iblk m c 1 t0_0 := rfl
  rw [e, iblk1_eq]
  exact Memref.readAt_unit_zero (Elt F) cc0_stg1_0 hz2 _ _
theorem read_wo (c : Dev nD) :
    View.readAt (Elt F) (Memref.whole cc0_stg2_0 : Memref sig .tc .vmem S1024x1024 .f32).view (Rect.unit (s := S1024x1024) ![0, 0] S1024x1024.size inb_S1024x1024_S1024x1024_0_0).toLoadRect
        ((dats (F := F) V m Kout 0 c).after 2 t0_0) = KFun.WO m c := by
  have e : (dats (F := F) V m Kout 0 c).after 2 t0_0 = iblk m c 2 t0_0 := rfl
  rw [e, iblk2_eq]
  exact Memref.readAt_unit_zero (Elt F) cc0_stg2_0 hz2 _ _

/-- One store through the whole buffer leaves its payload, whatever was there. -/
theorem run_s7 (c : Dev nD) (f7 : Buf (Elt F) ((c : Thread nD τ).loc cc0_scratch7)) :
    (Memref.whole cc0_scratch7 : Memref sig .tc .vmem S1024x1024 .bf16).view.writes (Elt F) f7
        [⟨Rect.unit (s := S1024x1024) ![0, 0] S1024x1024.size inb_S1024x1024_S1024x1024_0_0,
          k0_pay21 (View.readAt (Elt F) (Memref.whole cc0_stg1_0 : Memref sig .tc .vmem S1024x1024 .f32).view (Rect.unit (s := S1024x1024) ![0, 0] S1024x1024.size inb_S1024x1024_S1024x1024_0_0).toLoadRect
            ((dats (F := F) V m Kout 0 c).after 1 t0_0))⟩]
      = KFun.wqb m c := by
  rw [View.writes_singleton, read_wq]
  exact Memref.write_access_unit_zero_univ (Elt F) cc0_scratch7 hz2 _ f7 _
theorem run_s8 (c : Dev nD) (f8 : Buf (Elt F) ((c : Thread nD τ).loc cc0_scratch8)) :
    (Memref.whole cc0_scratch8 : Memref sig .tc .vmem S1024x1024 .bf16).view.writes (Elt F) f8
        [⟨Rect.unit (s := S1024x1024) ![0, 0] S1024x1024.size inb_S1024x1024_S1024x1024_0_0,
          k0_pay22 (View.readAt (Elt F) (Memref.whole cc0_stg2_0 : Memref sig .tc .vmem S1024x1024 .f32).view (Rect.unit (s := S1024x1024) ![0, 0] S1024x1024.size inb_S1024x1024_S1024x1024_0_0).toLoadRect
            ((dats (F := F) V m Kout 0 c).after 2 t0_0))⟩]
      = KFun.wob m c := by
  rw [View.writes_singleton, read_wo]
  exact Memref.write_access_unit_zero_univ (Elt F) cc0_scratch8 hz2 _ f8 _

section Q2
variable (c : Dev nD) (f4 : Buf (Elt F) ((c : Thread nD τ).loc cc0_scratch4)) (xr : Vec F S1x256x1024 .f32) (wq : FVec F S1024x1024 .bf16)

/-- The seven stores of the projected queries, newest first. -/
def q2Pieces : List (View.Piece (Elt F) S32x256x128 .bf16) :=
  [⟨Rect.unit (s := S32x256x128) (k0_off9 c 6#32) S1x256x128.size (k0_off9_inb c 6), k0_pay36 (k0_pay28 xr wq)⟩,
   ⟨Rect.unit (s := S32x256x128) (k0_off9 c 5#32) S1x256x128.size (k0_off9_inb c 5), k0_pay35 (k0_pay28 xr wq)⟩,
   ⟨Rect.unit (s := S32x256x128) (k0_off9 c 4#32) S1x256x128.size (k0_off9_inb c 4), k0_pay34 (k0_pay28 xr wq)⟩,
   ⟨Rect.unit (s := S32x256x128) (k0_off9 c 3#32) S1x256x128.size (k0_off9_inb c 3), k0_pay33 (k0_pay28 xr wq)⟩,
   ⟨Rect.unit (s := S32x256x128) (k0_off9 c 2#32) S1x256x128.size (k0_off9_inb c 2), k0_pay32 (k0_pay31 xr wq)⟩,
   ⟨Rect.unit (s := S32x256x128) (k0_off9 c 1#32) S1x256x128.size (k0_off9_inb c 1), k0_pay30 xr wq⟩,
   ⟨Rect.unit (s := S32x256x128) (k0_off9 c 0#32) S1x256x128.size (k0_off9_inb c 0), k0_pay29 xr wq⟩]

set_option maxHeartbeats 4000000 in
/-- A store of a later head leaves an earlier head's rows alone; a head's own store leaves its payload there. -/
theorem q2_skip (j : Fin 8) (w : (Rect.unit (s := S32x256x128) (k0_off9 c (BitVec.ofNat 32 j.val)) S1x256x128.size (k0_off9_inb c j)).shape.Idx → Elt F .bf16)
    (L : List (View.Piece (Elt F) S32x256x128 .bf16)) (k : ℕ) (hk : k < j.val) (hk32 : 8 * c.val + k < 32) (i : Fin 256) (d : Fin 128) :
    ((Memref.whole cc0_scratch4 : Memref sig .tc .vmem S32x256x128 .bf16).view.writes (Elt F) f4
        ((⟨Rect.unit (s := S32x256x128) (k0_off9 c (BitVec.ofNat 32 j.val)) S1x256x128.size (k0_off9_inb c j), w⟩ : View.Piece (Elt F) S32x256x128 .bf16) :: L))
        (ix3 (⟨8 * c.val + k, hk32⟩ : Fin 32) i d)
      = ((Memref.whole cc0_scratch4 : Memref sig .tc .vmem S32x256x128 .bf16).view.writes (Elt F) f4 L) (ix3 (⟨8 * c.val + k, hk32⟩ : Fin 32) i d) :=
  View.read_writes_cons_unit_of_not_mem (Memref.whole cc0_scratch4 : Memref sig .tc .vmem S32x256x128 .bf16).view f4 _ w L
    (ix3 (⟨8 * c.val + k, hk32⟩ : Fin 32) i d) (k0_off9_eq c j) 0 (Or.inl (by show 8 * c.val + k < 8 * c.val + j.val; omega))

set_option maxHeartbeats 4000000 in
theorem q2_hit (j : Fin 8) (w : (Rect.unit (s := S32x256x128) (k0_off9 c (BitVec.ofNat 32 j.val)) S1x256x128.size (k0_off9_inb c j)).shape.Idx → Elt F .bf16)
    (L : List (View.Piece (Elt F) S32x256x128 .bf16)) (hk32 : 8 * c.val + j.val < 32) (i : Fin 256) (d : Fin 128) :
    ((Memref.whole cc0_scratch4 : Memref sig .tc .vmem S32x256x128 .bf16).view.writes (Elt F) f4
        ((⟨Rect.unit (s := S32x256x128) (k0_off9 c (BitVec.ofNat 32 j.val)) S1x256x128.size (k0_off9_inb c j), w⟩ : View.Piece (Elt F) S32x256x128 .bf16) :: L))
        (ix3 (⟨8 * c.val + j.val, hk32⟩ : Fin 32) i d)
      = w (ix3 0 i d) :=
  View.read_writes_cons_unit_of_mem (Memref.whole cc0_scratch4 : Memref sig .tc .vmem S32x256x128 .bf16).view f4 _ w L
    (ix3 (⟨8 * c.val + j.val, hk32⟩ : Fin 32) i d) (ix3 0 i d) (k0_off9_eq c j) (fun a => by
      fin_cases a
      · show 8 * c.val + j.val = 8 * c.val + j.val + 0; omega
      · show i.val = 0 + i.val; omega
      · show d.val = 0 + d.val; omega)

end Q2

section Q2rows
variable (c : Dev nD) (f4 : Buf (Elt F) ((c : Thread nD τ).loc cc0_scratch4)) (xr : Vec F S1x256x1024 .f32) (wq : FVec F S1024x1024 .bf16)

set_option maxHeartbeats 16000000 in
/-- After the seven stores, head `h`'s rows of batch `c` hold the projected queries of that head. -/
theorem q2_rows (hx : xr = KFun.xblk m c c) (hw : wq = KFun.wqb m c) (h : Fin 8) (hh : h.val < 7) (i : Fin 256) (d : Fin 128) :
    ((Memref.whole cc0_scratch4 : Memref sig .tc .vmem S32x256x128 .bf16).view.writes (Elt F) f4 (q2Pieces c xr wq))
      (ix3 (⟨8 * c.val + h.val, by have : c.val < 4 := c.isLt; omega⟩ : Fin 32) i d) = KFun.q2 m c c h (ix3 0 i d) := by
  subst hx; subst hw
  have hc : c.val < 4 := c.isLt
  unfold q2Pieces
  fin_cases h
  · exact (q2_skip c f4 6 _ _ 0 (by decide) (by omega) i d).trans ((q2_skip c f4 5 _ _ 0 (by decide) (by omega) i d).trans ((q2_skip c f4 4 _ _ 0 (by decide) (by omega) i d).trans
      ((q2_skip c f4 3 _ _ 0 (by decide) (by omega) i d).trans ((q2_skip c f4 2 _ _ 0 (by decide) (by omega) i d).trans ((q2_skip c f4 1 _ _ 0 (by decide) (by omega) i d).trans
        (q2_hit c f4 0 _ _ (by omega) i d))))))
  · exact (q2_skip c f4 6 _ _ 1 (by decide) (by omega) i d).trans ((q2_skip c f4 5 _ _ 1 (by decide) (by omega) i d).trans ((q2_skip c f4 4 _ _ 1 (by decide) (by omega) i d).trans
      ((q2_skip c f4 3 _ _ 1 (by decide) (by omega) i d).trans ((q2_skip c f4 2 _ _ 1 (by decide) (by omega) i d).trans
        (q2_hit c f4 1 _ _ (by omega) i d)))))
  · exact (q2_skip c f4 6 _ _ 2 (by decide) (by omega) i d).trans ((q2_skip c f4 5 _ _ 2 (by decide) (by omega) i d).trans ((q2_skip c f4 4 _ _ 2 (by decide) (by omega) i d).trans
      ((q2_skip c f4 3 _ _ 2 (by decide) (by omega) i d).trans
        (q2_hit c f4 2 _ _ (by omega) i d))))
  · exact (q2_skip c f4 6 _ _ 3 (by decide) (by omega) i d).trans ((q2_skip c f4 5 _ _ 3 (by decide) (by omega) i d).trans ((q2_skip c f4 4 _ _ 3 (by decide) (by omega) i d).trans
        (q2_hit c f4 3 _ _ (by omega) i d)))
  · exact (q2_skip c f4 6 _ _ 4 (by decide) (by omega) i d).trans ((q2_skip c f4 5 _ _ 4 (by decide) (by omega) i d).trans
        (q2_hit c f4 4 _ _ (by omega) i d))
  · exact (q2_skip c f4 6 _ _ 5 (by decide) (by omega) i d).trans
        (q2_hit c f4 5 _ _ (by omega) i d)
  · exact q2_hit c f4 6 _ _ (by omega) i d
  · exact absurd hh (by decide)

end Q2rows

/-! ## The rows the sixteen copies carry -/

/-- The rows of the sixteen copies, in issue order: the launch memory read through the source planes. -/
def cpVals (c : Dev nD) : Fin 16 → CpVal F :=
  ![ReadAs.same.apply (View.read (Elt F) (hbKS 0 0).view (m ((c : Thread nD τ).loc main_arg3))), ReadAs.same.apply (View.read (Elt F) (hbVS 0 0).view (m ((c : Thread nD τ).loc main_arg4))),
    ReadAs.same.apply (View.read (Elt F) (hbKS 0 1).view (m ((c : Thread nD τ).loc main_arg3))), ReadAs.same.apply (View.read (Elt F) (hbVS 0 1).view (m ((c : Thread nD τ).loc main_arg4))),
    ReadAs.same.apply (View.read (Elt F) (hbKS 1 0).view (m ((c : Thread nD τ).loc main_arg3))), ReadAs.same.apply (View.read (Elt F) (hbVS 1 0).view (m ((c : Thread nD τ).loc main_arg4))),
    ReadAs.same.apply (View.read (Elt F) (hbKS 1 1).view (m ((c : Thread nD τ).loc main_arg3))), ReadAs.same.apply (View.read (Elt F) (hbVS 1 1).view (m ((c : Thread nD τ).loc main_arg4))),
    ReadAs.same.apply (View.read (Elt F) (hbKS 2 0).view (m ((c : Thread nD τ).loc main_arg3))), ReadAs.same.apply (View.read (Elt F) (hbVS 2 0).view (m ((c : Thread nD τ).loc main_arg4))),
    ReadAs.same.apply (View.read (Elt F) (hbKS 2 1).view (m ((c : Thread nD τ).loc main_arg3))), ReadAs.same.apply (View.read (Elt F) (hbVS 2 1).view (m ((c : Thread nD τ).loc main_arg4))),
    ReadAs.same.apply (View.read (Elt F) (hbKS 3 0).view (m ((c : Thread nD τ).loc main_arg3))), ReadAs.same.apply (View.read (Elt F) (hbVS 3 0).view (m ((c : Thread nD τ).loc main_arg4))),
    ReadAs.same.apply (View.read (Elt F) (hbKS 3 1).view (m ((c : Thread nD τ).loc main_arg3))), ReadAs.same.apply (View.read (Elt F) (hbVS 3 1).view (m ((c : Thread nD τ).loc main_arg4)))]

theorem cpVals_ok (c : Dev nD) (j : Fin 4) (g : Fin 2) :
    cpVals (F := F) m c (vIdx c j ⟨2 * g.val, by omega⟩) = (hbKD c j g).view.read (Elt F) (m ((hbKD c j g).view.loc (c : Thread nD τ)))
      ∧ cpVals (F := F) m c (vIdx c j ⟨2 * g.val + 1, by omega⟩) = (hbVD c j g).view.read (Elt F) (m ((hbVD c j g).view.loc (c : Thread nD τ))) := by
  have hK := congrArg (fun M : Memref sig .tc .hbm S1024x128 .f32 => M.view.read (Elt F) (m (M.view.loc (c : Thread nD τ)))) (hbKD_eq c j g)
  have hV := congrArg (fun M : Memref sig .tc .hbm S1024x128 .f32 => M.view.read (Elt F) (m (M.view.loc (c : Thread nD τ)))) (hbVD_eq c j g)
  refine ⟨Eq.trans ?_ hK.symm, Eq.trans ?_ hV.symm⟩
  · fin_cases c <;> fin_cases j <;> fin_cases g <;> rfl
  · fin_cases c <;> fin_cases j <;> fin_cases g <;> rfl

/-- A plane of the key and value buffer read through the whole buffer, from what a local copy left in it. -/
def kvRead (offR : Fin 4 → ℕ) (inbR : ∀ x, offR x + S1x1x1024x128.size x ≤ S2x8x1024x128.size x)
    (offP : Fin 4 → ℕ) (inbP : ∀ x, offP x + S1x1x1024x128.size x ≤ S2x8x1024x128.size x) (v : CpVal F) : Vec F S1x1x1024x128 .f32 :=
  View.readAt (Elt F) (Memref.whole cc0_scratch5 : Memref sig .tc .vmem S2x8x1024x128 .f32).view (Rect.unit (s := S2x8x1024x128) offR S1x1x1024x128.size inbR).toLoadRect
    ((kvPl offP inbP).view.writes (Elt F) (kvPl offP inbP).view.junk [⟨Rect.whole S1024x128, v⟩])

/-- The four stores that narrow the planes of batch `c`, newest first. -/
def kvbPieces (c : Dev nD) (vals : Fin 16 → CpVal F) : List (View.Piece (Elt F) S2x8x1024x128 .bf16) :=
  [⟨Rect.unit (s := S2x8x1024x128) (k0_off7 c 1#32) S1x1x1024x128.size (k0_off7_inb c 1), k0_pay27 (kvRead (k0_off7 c 1#32) (k0_off7_inb c 1) (k0_off4 c 1#32) (k0_off4_inb c 1) (vals (vIdx c 0 3)))⟩,
   ⟨Rect.unit (s := S2x8x1024x128) (k0_off6 c 1#32) S1x1x1024x128.size (k0_off6_inb c 1), k0_pay26 (kvRead (k0_off6 c 1#32) (k0_off6_inb c 1) (k0_off2 c 1#32) (k0_off2_inb c 1) (vals (vIdx c 0 2)))⟩,
   ⟨Rect.unit (s := S2x8x1024x128) (k0_off7 c 0#32) S1x1x1024x128.size (k0_off7_inb c 0), k0_pay25 (kvRead (k0_off7 c 0#32) (k0_off7_inb c 0) (k0_off4 c 0#32) (k0_off4_inb c 0) (vals (vIdx c 0 1)))⟩,
   ⟨Rect.unit (s := S2x8x1024x128) (k0_off6 c 0#32) S1x1x1024x128.size (k0_off6_inb c 0), k0_pay24 (k0_pay23 (kvRead (k0_off6 c 0#32) (k0_off6_inb c 0) (k0_off2 c 0#32) (k0_off2_inb c 0) (vals (vIdx c 0 0))))⟩]

/-- A plane read through the whole buffer, from what a copy of rows `v` left in it, reshaped to the plane: the rows. -/
theorem planeA_read (off : Fin 4 → ℕ) (inb inb' : ∀ x, off x + S1x1x1024x128.size x ≤ S2x8x1024x128.size x) (v : CpVal F) :
    shapeCast S1024x128
        (View.readAt (Elt F) (Memref.whole cc0_scratch5 : Memref sig .tc .vmem S2x8x1024x128 .f32).view (Rect.unit (s := S2x8x1024x128) off S1x1x1024x128.size inb).toLoadRect
          ((kvPl off inb').view.writes (Elt F) (kvPl off inb').view.junk [⟨Rect.whole S1024x128, v⟩]))
        shapeCasts_S1x1x1024x128_S1024x128 = v := by
  have h1 := View.read_writes_whole (Val := Elt F) (kvPl off inb').view (kvPl off inb').view.junk v
  exact (Memref.read_squeeze_slice (Val := Elt F) kvB (Rect.unit (s := S2x8x1024x128) off S1x1x1024x128.size inb) (fun _ => rfl) squeezes_S1x1x1024x128_S1024x128 shapeCasts_S1x1x1024x128_S1024x128 _).symm.trans h1

/-- The key rows of batch `c`, head 0, as the copy read them from the launch memory, are the kernel function's key slice reshaped. -/
theorem ksrc0 (c : Dev nD) :
    shapeCast S1024x128 (KFun.kslice m c c 0) shapeCasts_S1x1x1024x128_S1024x128
      = (hbKD c 0 0).view.read (Elt F) (m ((hbKD c 0 0).view.loc (c : Thread nD τ))) := by
  have e := Memref.read_squeeze_slice (Val := Elt F) hbK (Rect.unit (s := S4x1024x2x128) (k0_off3 c) S1x1024x1x128.size (k0_off3_inb c)) (fun _ => rfl)
    squeezes_S1x1024x1x128_S1024x128 (show S1x1024x1x128.ShapeCasts S1024x128 from by decide) (m ((c : Thread nD τ).loc main_arg3))
  refine Eq.trans ?_ e.symm
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.kslice KFun.KQ
  rw [View.readAt_rect, View.read_apply]
  have he : (hbK.view.slice (Rect.unit (s := S4x1024x2x128) (k0_off3 c) S1x1024x1x128.size (k0_off3_inb c))).emb
        (ix4 (0 : Fin 1) (⟨(y 0).val, hy0⟩ : Fin 1024) (0 : Fin 1) (⟨(y 1).val, hy1⟩ : Fin 128))
      = ix4 c (⟨(y 0).val, hy0⟩ : Fin 1024) (0 : Fin 2) (⟨(y 1).val, hy1⟩ : Fin 128) := by
    funext a
    apply Fin.ext
    fin_cases a
    · have h3 : k0_off3 c 0 = c.val := congrFun (k0_off3_eq c) 0
      show k0_off3 c 0 + 1 * 0 = c.val
      omega
    · have h3 : k0_off3 c 1 = 0 := congrFun (k0_off3_eq c) 1
      show k0_off3 c 1 + 1 * (y 0).val = (y 0).val
      omega
    · have h3 : k0_off3 c 2 = 0 := congrFun (k0_off3_eq c) 2
      show k0_off3 c 2 + 1 * 0 = 0
      omega
    · have h3 : k0_off3 c 3 = 0 := congrFun (k0_off3_eq c) 3
      show k0_off3 c 3 + 1 * (y 1).val = (y 1).val
      omega
  rw [he]
  rfl

theorem ksrc1 (c : Dev nD) :
    shapeCast S1024x128 (KFun.kslice m c c 1) shapeCasts_S1x1x1024x128_S1024x128
      = (hbKD c 0 1).view.read (Elt F) (m ((hbKD c 0 1).view.loc (c : Thread nD τ))) := by
  have e := Memref.read_squeeze_slice (Val := Elt F) hbK (Rect.unit (s := S4x1024x2x128) (k0_off5 c) S1x1024x1x128.size (k0_off5_inb c)) (fun _ => rfl)
    squeezes_S1x1024x1x128_S1024x128 (show S1x1024x1x128.ShapeCasts S1024x128 from by decide) (m ((c : Thread nD τ).loc main_arg3))
  refine Eq.trans ?_ e.symm
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.kslice KFun.KQ
  rw [View.readAt_rect, View.read_apply]
  have he : (hbK.view.slice (Rect.unit (s := S4x1024x2x128) (k0_off5 c) S1x1024x1x128.size (k0_off5_inb c))).emb
        (ix4 (0 : Fin 1) (⟨(y 0).val, hy0⟩ : Fin 1024) (0 : Fin 1) (⟨(y 1).val, hy1⟩ : Fin 128))
      = ix4 c (⟨(y 0).val, hy0⟩ : Fin 1024) (1 : Fin 2) (⟨(y 1).val, hy1⟩ : Fin 128) := by
    funext a
    apply Fin.ext
    fin_cases a
    · have h3 : k0_off5 c 0 = c.val := congrFun (k0_off5_eq c) 0
      show k0_off5 c 0 + 1 * 0 = c.val
      omega
    · have h3 : k0_off5 c 1 = 0 := congrFun (k0_off5_eq c) 1
      show k0_off5 c 1 + 1 * (y 0).val = (y 0).val
      omega
    · have h3 : k0_off5 c 2 = 1 := congrFun (k0_off5_eq c) 2
      show k0_off5 c 2 + 1 * 0 = 1
      omega
    · have h3 : k0_off5 c 3 = 0 := congrFun (k0_off5_eq c) 3
      show k0_off5 c 3 + 1 * (y 1).val = (y 1).val
      omega
  rw [he]
  rfl

/-- The same for the value rows. -/
theorem vsrc0 (c : Dev nD) :
    shapeCast S1024x128 (KFun.vslice m c c 0) shapeCasts_S1x1x1024x128_S1024x128
      = (hbVD c 0 0).view.read (Elt F) (m ((hbVD c 0 0).view.loc (c : Thread nD τ))) := by
  have e := Memref.read_squeeze_slice (Val := Elt F) hbV (Rect.unit (s := S4x1024x2x128) (k0_off3 c) S1x1024x1x128.size (k0_off3_inb c)) (fun _ => rfl)
    squeezes_S1x1024x1x128_S1024x128 (show S1x1024x1x128.ShapeCasts S1024x128 from by decide) (m ((c : Thread nD τ).loc main_arg4))
  refine Eq.trans ?_ e.symm
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.vslice KFun.VQ
  rw [View.readAt_rect, View.read_apply]
  have he : (hbV.view.slice (Rect.unit (s := S4x1024x2x128) (k0_off3 c) S1x1024x1x128.size (k0_off3_inb c))).emb
        (ix4 (0 : Fin 1) (⟨(y 0).val, hy0⟩ : Fin 1024) (0 : Fin 1) (⟨(y 1).val, hy1⟩ : Fin 128))
      = ix4 c (⟨(y 0).val, hy0⟩ : Fin 1024) (0 : Fin 2) (⟨(y 1).val, hy1⟩ : Fin 128) := by
    funext a
    apply Fin.ext
    fin_cases a
    · have h3 : k0_off3 c 0 = c.val := congrFun (k0_off3_eq c) 0
      show k0_off3 c 0 + 1 * 0 = c.val
      omega
    · have h3 : k0_off3 c 1 = 0 := congrFun (k0_off3_eq c) 1
      show k0_off3 c 1 + 1 * (y 0).val = (y 0).val
      omega
    · have h3 : k0_off3 c 2 = 0 := congrFun (k0_off3_eq c) 2
      show k0_off3 c 2 + 1 * 0 = 0
      omega
    · have h3 : k0_off3 c 3 = 0 := congrFun (k0_off3_eq c) 3
      show k0_off3 c 3 + 1 * (y 1).val = (y 1).val
      omega
  rw [he]
  rfl

theorem vsrc1 (c : Dev nD) :
    shapeCast S1024x128 (KFun.vslice m c c 1) shapeCasts_S1x1x1024x128_S1024x128
      = (hbVD c 0 1).view.read (Elt F) (m ((hbVD c 0 1).view.loc (c : Thread nD τ))) := by
  have e := Memref.read_squeeze_slice (Val := Elt F) hbV (Rect.unit (s := S4x1024x2x128) (k0_off5 c) S1x1024x1x128.size (k0_off5_inb c)) (fun _ => rfl)
    squeezes_S1x1024x1x128_S1024x128 (show S1x1024x1x128.ShapeCasts S1024x128 from by decide) (m ((c : Thread nD τ).loc main_arg4))
  refine Eq.trans ?_ e.symm
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.vslice KFun.VQ
  rw [View.readAt_rect, View.read_apply]
  have he : (hbV.view.slice (Rect.unit (s := S4x1024x2x128) (k0_off5 c) S1x1024x1x128.size (k0_off5_inb c))).emb
        (ix4 (0 : Fin 1) (⟨(y 0).val, hy0⟩ : Fin 1024) (0 : Fin 1) (⟨(y 1).val, hy1⟩ : Fin 128))
      = ix4 c (⟨(y 0).val, hy0⟩ : Fin 1024) (1 : Fin 2) (⟨(y 1).val, hy1⟩ : Fin 128) := by
    funext a
    apply Fin.ext
    fin_cases a
    · have h3 : k0_off5 c 0 = c.val := congrFun (k0_off5_eq c) 0
      show k0_off5 c 0 + 1 * 0 = c.val
      omega
    · have h3 : k0_off5 c 1 = 0 := congrFun (k0_off5_eq c) 1
      show k0_off5 c 1 + 1 * (y 0).val = (y 0).val
      omega
    · have h3 : k0_off5 c 2 = 1 := congrFun (k0_off5_eq c) 2
      show k0_off5 c 2 + 1 * 0 = 1
      omega
    · have h3 : k0_off5 c 3 = 0 := congrFun (k0_off5_eq c) 3
      show k0_off5 c 3 + 1 * (y 1).val = (y 1).val
      omega
  rw [he]
  rfl

/-- The narrowing of a plane's rows depends on them only through their reshaping to the plane. -/
theorem payA25_congr (x y : Vec F S1x1x1024x128 .f32)
    (h : shapeCast S1024x128 x shapeCasts_S1x1x1024x128_S1024x128 = shapeCast S1024x128 y shapeCasts_S1x1x1024x128_S1024x128) : k0_pay25 x = k0_pay25 y := by
  unfold k0_pay25
  rw [h]

/-- What the narrowing stores of batch `c` write: the kernel function's narrowed key and value planes. -/
theorem kh_run (c : Dev nD) (g : Fin 2) (offR offP : Fin 4 → ℕ) (inbR : ∀ x, offR x + S1x1x1024x128.size x ≤ S2x8x1024x128.size x)
    (inbP : ∀ x, offP x + S1x1x1024x128.size x ≤ S2x8x1024x128.size x) (hRP : offR = offP) :
    k0_pay25 (kvRead offR inbR offP inbP (cpVals (F := F) m c (vIdx c 0 ⟨2 * g.val, by omega⟩))) = KFun.kh m c c g := by
  subst hRP
  unfold KFun.kh
  apply payA25_congr
  unfold kvRead
  rw [planeA_read]
  rw [(cpVals_ok m c 0 g).1]
  fin_cases g
  · exact (ksrc0 m c).symm
  · exact (ksrc1 m c).symm
theorem vh_run (c : Dev nD) (g : Fin 2) (offR offP : Fin 4 → ℕ) (inbR : ∀ x, offR x + S1x1x1024x128.size x ≤ S2x8x1024x128.size x)
    (inbP : ∀ x, offP x + S1x1x1024x128.size x ≤ S2x8x1024x128.size x) (hRP : offR = offP) :
    k0_pay25 (kvRead offR inbR offP inbP (cpVals (F := F) m c (vIdx c 0 ⟨2 * g.val + 1, by omega⟩))) = KFun.vh m c c g := by
  subst hRP
  unfold KFun.vh
  apply payA25_congr
  unfold kvRead
  rw [planeA_read]
  rw [(cpVals_ok m c 0 g).2]
  fin_cases g
  · exact (vsrc0 m c).symm
  · exact (vsrc1 m c).symm

/-- After the four narrowing stores the planes of batch `c` in the narrowed buffer are the kernel function's. -/
theorem kvb_rows (c : Dev nD) (f9 : Buf (Elt F) ((c : Thread nD τ).loc cc0_scratch9)) (g : Fin 2) (j : Fin 1024) (d : Fin 128) :
    ((Memref.whole cc0_scratch9 : Memref sig .tc .vmem S2x8x1024x128 .bf16).view.writes (Elt F) f9 (kvbPieces c (cpVals (F := F) m c)))
        (ix4 (0 : Fin 2) (⟨2 * c.val + g.val, by have : c.val < 4 := c.isLt; omega⟩ : Fin 8) j d) = KFun.kh m c c g (ix4 0 0 j d)
      ∧ ((Memref.whole cc0_scratch9 : Memref sig .tc .vmem S2x8x1024x128 .bf16).view.writes (Elt F) f9 (kvbPieces c (cpVals (F := F) m c)))
        (ix4 (1 : Fin 2) (⟨2 * c.val + g.val, by have : c.val < 4 := c.isLt; omega⟩ : Fin 8) j d) = KFun.vh m c c g (ix4 0 0 j d) := by
  have hc : c.val < 4 := c.isLt
  exact Rows.kvrows_at m c c (2 * c.val) (by omega) (k0_off7 c 1#32) (k0_off6 c 1#32) (k0_off7 c 0#32) (k0_off6 c 0#32)
    (k0_off7_inb c 1) (k0_off6_inb c 1) (k0_off7_inb c 0) (k0_off6_inb c 0)
    (k0_off7_eq c 1) (k0_off6_eq c 1) (k0_off7_eq c 0) (k0_off6_eq c 0) f9 _ _ _ _
    (kh_run m c 0 _ _ _ _ ((k0_off6_eq c 0).trans (k0_off2_eq c 0).symm))
    (vh_run m c 0 _ _ _ _ ((k0_off7_eq c 0).trans (k0_off4_eq c 0).symm))
    (kh_run m c 1 _ _ _ _ ((k0_off6_eq c 1).trans (k0_off2_eq c 1).symm))
    (vh_run m c 1 _ _ _ _ ((k0_off7_eq c 1).trans (k0_off4_eq c 1).symm)) g j d

end Values

/-! ## The stretch -/

section Main
variable (m : (ℓ : Loc nD τ sig) → Buf (Elt F) ℓ)

/-- What device `c`'s body starts from, at the names `K` and with the waits `W` recorded: the ring's ghost state, the credit
    dealt at launch, the level facts, the local-copy semaphores at zero, the unstaged arrays, the scratch buffers, what it
    owes, and the four staged windows. -/
def At0 (c : Dev nD) (K : Names) (W : Waits sig Unit) : sProp 𝕄 :=
  iprop(((ghost (KFun.V m) K c ∗ cred (tallyAt (barCell c) () 2)
        ∗ (bigSep Finset.univ fun x : Xfer => cred (tallyAt (recvCell c x.1 x.2.1 x.2.2) () (amt x.1)))
        ∗ levAts L lv ∗ copySems0 c ∗ hbm m c) ∗ scratch c)
    ∗ owes (c : Thread nD τ) (O₀ c) W
    ∗ (∃ d f, ⌜f = (dats (KFun.V m) m KFun.Kout 0 c).before 0 t0_0 d⌝ ∗ (c : Thread nD τ).loc cc0_stg0_0 ↦{fullShare} f)
    ∗ (∃ d f, ⌜f = (dats (KFun.V m) m KFun.Kout 0 c).before 1 t0_0 d⌝ ∗ (c : Thread nD τ).loc cc0_stg1_0 ↦{fullShare} f)
    ∗ (∃ d f, ⌜f = (dats (KFun.V m) m KFun.Kout 0 c).before 2 t0_0 d⌝ ∗ (c : Thread nD τ).loc cc0_stg2_0 ↦{fullShare} f)
    ∗ (∃ d f, ⌜f = (dats (KFun.V m) m KFun.Kout 0 c).before 3 t0_0 d⌝ ∗ (c : Thread nD τ).loc cc0_stg3_0 ↦{fullShare} f))

set_option maxHeartbeats 40000000 in
/-- From the body's start to the first flash loop. -/
theorem segA_ok (c : Dev nD) (K : Names) (W : Waits sig Unit) :
    At0 m c K W ⊢ wp frame (wpE (defs₀ (F := F)) 𝒱₀ (c : Thread nD τ) none) Set.univ
      (segAProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _))
      (fun r => iprop(∃ W', At15 m c K W' r.2.2.2.2.1 r.2.2.2.2.2 ∗ ⌜r.1 = c⌝)) := by
  unfold At0 scratch ghost invs copySems0 hbm
  rw [Gen.scopedRest0_eq]
  simp only [bigSep_xfer, bigSep_fin4]
  rw [show copySem 0 = ((cc0_scratch22.slice (Rect.unit (s := S4) ![0] S1.size inb_S4_S1_0)).squeeze S_ squeezes_S1_S_).sem from rfl]
  rw [show copySem 1 = ((cc0_scratch22.slice (Rect.unit (s := S4) ![1] S1.size inb_S4_S1_1)).squeeze S_ squeezes_S1_S_).sem from rfl]
  rw [show copySem 2 = ((cc0_scratch22.slice (Rect.unit (s := S4) ![2] S1.size inb_S4_S1_2)).squeeze S_ squeezes_S1_S_).sem from rfl]
  rw [show copySem 3 = ((cc0_scratch22.slice (Rect.unit (s := S4) ![3] S1.size inb_S4_S1_3)).squeeze S_ squeezes_S1_S_).sem from rfl]
  unfold O₀ prog
  iintro ⟨⟨⟨⟨⟨#HIb, ⟨⟨#HIs_o0R, #HIr_o0R, #HIn_o0R⟩, ⟨#HIs_l0R, #HIr_l0R, #HIn_l0R⟩, ⟨#HIs_o0L, #HIr_o0L, #HIn_o0L⟩, ⟨#HIs_l0L, #HIr_l0L, #HIn_l0L⟩, ⟨#HIs_o1R, #HIr_o1R, #HIn_o1R⟩, ⟨#HIs_o1L, #HIr_o1L, #HIn_o1L⟩, ⟨#HIs_l1R, #HIr_l1R, #HIn_l1R⟩, ⟨#HIs_l1L, #HIr_l1L, #HIn_l1L⟩, ⟨#HIs_o2R, #HIr_o2R, #HIn_o2R⟩, ⟨#HIs_o2L, #HIr_o2L, #HIn_o2L⟩, ⟨#HIs_l2R, #HIr_l2R, #HIn_l2R⟩, ⟨#HIs_l2L, #HIr_l2L, #HIn_l2L⟩, ⟨#HIs_g0R, #HIr_g0R, #HIn_g0R⟩, ⟨#HIs_g0L, #HIr_g0L, #HIn_g0L⟩, ⟨#HIs_g1R, #HIr_g1R, #HIn_g1R⟩, ⟨#HIs_g1L, #HIr_g1L, #HIn_g1L⟩, ⟨#HIs_g2R, #HIr_g2R, #HIn_g2R⟩, ⟨#HIs_g2L, #HIr_g2L, #HIn_g2L⟩⟩, #HIbn, #HIbp⟩, HaB, ⟨⟨Has_o0R, Har_o0R⟩, ⟨Has_l0R, Har_l0R⟩, ⟨Has_o0L, Har_o0L⟩, ⟨Has_l0L, Har_l0L⟩, ⟨Has_o1R, Har_o1R⟩, ⟨Has_o1L, Har_o1L⟩, ⟨Has_l1R, Har_l1R⟩, ⟨Has_l1L, Har_l1L⟩, ⟨Has_o2R, Har_o2R⟩, ⟨Has_o2L, Har_o2L⟩, ⟨Has_l2R, Har_l2R⟩, ⟨Has_l2L, Har_l2L⟩, ⟨Has_g0R, Har_g0R⟩, ⟨Has_g0L, Har_g0L⟩, ⟨Has_g1R, Har_g1R⟩, ⟨Has_g1L, Har_g1L⟩, ⟨Has_g2R, Har_g2R⟩, ⟨Has_g2L, Har_g2L⟩⟩, ⟨⟨#Hrs_o0R, #Hrr_o0R⟩, ⟨#Hrs_l0R, #Hrr_l0R⟩, ⟨#Hrs_o0L, #Hrr_o0L⟩, ⟨#Hrs_l0L, #Hrr_l0L⟩, ⟨#Hrs_o1R, #Hrr_o1R⟩, ⟨#Hrs_o1L, #Hrr_o1L⟩, ⟨#Hrs_l1R, #Hrr_l1R⟩, ⟨#Hrs_l1L, #Hrr_l1L⟩, ⟨#Hrs_o2R, #Hrr_o2R⟩, ⟨#Hrs_o2L, #Hrr_o2L⟩, ⟨#Hrs_l2R, #Hrr_l2R⟩, ⟨#Hrs_l2L, #Hrr_l2L⟩, ⟨#Hrs_g0R, #Hrr_g0R⟩, ⟨#Hrs_g0L, #Hrr_g0L⟩, ⟨#Hrs_g1R, #Hrr_g1R⟩, ⟨#Hrs_g1L, #Hrr_g1L⟩, ⟨#Hrs_g2R, #Hrr_g2R⟩, ⟨#Hrs_g2L, #Hrr_g2L⟩⟩, #HrBn, #HrBp, HtBp, HtBn, ⟨⟨Hts_o0R, Htn_o0R⟩, ⟨Hts_l0R, Htn_l0R⟩, ⟨Hts_o0L, Htn_o0L⟩, ⟨Hts_l0L, Htn_l0L⟩, ⟨Hts_o1R, Htn_o1R⟩, ⟨Hts_o1L, Htn_o1L⟩, ⟨Hts_l1R, Htn_l1R⟩, ⟨Hts_l1L, Htn_l1L⟩, ⟨Hts_o2R, Htn_o2R⟩, ⟨Hts_o2L, Htn_o2L⟩, ⟨Hts_l2R, Htn_l2R⟩, ⟨Hts_l2L, Htn_l2L⟩, ⟨Hts_g0R, Htn_g0R⟩, ⟨Hts_g0L, Htn_g0L⟩, ⟨Hts_g1R, Htn_g1R⟩, ⟨Hts_g1L, Htn_g1L⟩, ⟨Hts_g2R, Htn_g2R⟩, ⟨Hts_g2L, Htn_g2L⟩⟩⟩, HcB, ⟨Hc_o0R, Hc_l0R, Hc_o0L, Hc_l0L, Hc_o1R, Hc_o1L, Hc_l1R, Hc_l1L, Hc_o2R, Hc_o2L, Hc_l2R, Hc_l2L, Hc_g0R, Hc_g0L, Hc_g1R, Hc_g1L, Hc_g2R, Hc_g2L⟩, #Hlev, ⟨Hcs0, Hcs1, Hcs2, Hcs3⟩, ⟨Hk3, Hk4⟩⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f23, Hs23⟩⟩, HO, ⟨%d0, %g0, %hg0, Hx⟩, ⟨%d1, %g1, %hg1, Hwq⟩, ⟨%d2, %g2, %hg2, Hwo⟩, ⟨%d3, %g3, %hg3, Hout⟩⟩
  rw [dats_before0 (KFun.V m) m KFun.Kout c t0_0 d0] at hg0
  rw [dats_before1 (KFun.V m) m KFun.Kout c t0_0 d1] at hg1
  rw [dats_before2 (KFun.V m) m KFun.Kout c t0_0 d2] at hg2
  subst hg0; subst hg1; subst hg2
  have _plan0 : Transfers.BatchOf (c : Thread nD τ) (SemLoc.dma (sig := sig) ((cc0_scratch22.slice (Rect.unit (s := S4) ![0] S1.size inb_S4_S1_0)).squeeze S_ squeezes_S1_S_).sem) 4 (windows := true) := trivial
  have _plan1 : Transfers.BatchOf (c : Thread nD τ) (SemLoc.dma (sig := sig) ((cc0_scratch22.slice (Rect.unit (s := S4) ![1] S1.size inb_S4_S1_1)).squeeze S_ squeezes_S1_S_).sem) 4 (windows := true) := trivial
  have _plan2 : Transfers.BatchOf (c : Thread nD τ) (SemLoc.dma (sig := sig) ((cc0_scratch22.slice (Rect.unit (s := S4) ![2] S1.size inb_S4_S1_2)).squeeze S_ squeezes_S1_S_).sem) 4 (windows := true) := trivial
  have _plan3 : Transfers.BatchOf (c : Thread nD τ) (SemLoc.dma (sig := sig) ((cc0_scratch22.slice (Rect.unit (s := S4) ![3] S1.size inb_S4_S1_3)).squeeze S_ squeezes_S1_S_).sem) 4 (windows := true) := trivial
  ihave Hsp0 := (Entails.of_eq (locO_blocks_eq (F := F) c f0)) $$ Hs0
  icases Hsp0 with ⟨HbO0, HbO1, HbO2, HbO3⟩
  ihave Hsp1 := (Entails.of_eq (locL_blocks_eq (F := F) c f1)) $$ Hs1
  icases Hsp1 with ⟨HbL0, HbL1, HbL2, HbL3⟩
  ihave Hs4 := (Entails.of_eq (whole_pts (F := F) c cc0_scratch4 f4)) $$ Hs4
  ihave Hsp5 := (Entails.of_eq (kv_split_eq (F := F) c f5)) $$ Hs5
  icases Hsp5 with ⟨Hkv_0_0, Hkv_1_0, Hkv_0_1, Hkv_1_1, Hkv_0_2, Hkv_1_2, Hkv_0_3, Hkv_1_3, Hkv_0_4, Hkv_1_4, Hkv_0_5, Hkv_1_5, Hkv_0_6, Hkv_1_6, Hkv_0_7, Hkv_1_7⟩
  ihave Hs6 := (Entails.of_eq (whole_pts (F := F) c cc0_scratch6 f6)) $$ Hs6
  ihave Hs7 := (Entails.of_eq (whole_pts (F := F) c cc0_scratch7 f7)) $$ Hs7
  ihave Hs8 := (Entails.of_eq (whole_pts (F := F) c cc0_scratch8 f8)) $$ Hs8
  ihave Hs9 := (Entails.of_eq (whole_pts (F := F) c cc0_scratch9 f9)) $$ Hs9
  ihave Hx := (Entails.of_eq (whole_pts (F := F) c cc0_stg0_0 _)) $$ Hx
  ihave Hwq := (Entails.of_eq (whole_pts (F := F) c cc0_stg1_0 _)) $$ Hwq
  ihave Hwo := (Entails.of_eq (whole_pts (F := F) c cc0_stg2_0 _)) $$ Hwo
  ihave Hout := (Entails.of_eq (whole_pts (F := F) c cc0_stg3_0 g3)) $$ Hout
  ihave HspK := (Entails.of_eq (hbK_split_eq (F := F) c _)) $$ Hk3
  icases HspK with ⟨HK00, HK01, HK10, HK11, HK20, HK21, HK30, HK31⟩
  ihave HspV := (Entails.of_eq (hbV_split_eq (F := F) c _)) $$ Hk4
  icases HspV with ⟨HV00, HV01, HV10, HV11, HV20, HV21, HV30, HV31⟩
  ihave Hsp2 := (Entails.of_eq (rsO_split_eq (F := F) c f2)) $$ Hs2
  icases Hsp2 with ⟨Hd_o0R, Hd_o0L, Hd_o1R, Hd_o1L, Hd_o2R, Hd_o2L⟩
  ihave Hsp3 := (Entails.of_eq (rsL_split_eq (F := F) c f3)) $$ Hs3
  icases Hsp3 with ⟨Hd_l0R, Hd_l0L, Hd_l1R, Hd_l1L, Hd_l2R, Hd_l2L⟩
  ihave Hsp23 := (Entails.of_eq (agB_split_eq (F := F) c f23)) $$ Hs23
  icases Hsp23 with ⟨Hd_g0R, Hd_g1R, Hd_g2R, Hd_g0L, Hd_g1L, Hd_g2L, Hg_ownR, Hg_ownL⟩
  unfold segAProg
  sl_exec
  iapply (wp_sig (KFun.V m) c (prv c) true rfl _ W (K (prv c, none)) (a := (1#32).toNat) (by decide)) $$ [HO HtBp Hd_o0R Hd_l0R Hd_g0R Hd_o1R Hd_l1R Hd_g1R Hd_o2R Hd_l2R Hd_g2R]
  · isplitr; · iexact HIbp
    isplitl [HO]; · iexact HO
    isplitl [HtBp]; · iexact HtBp
    isplitr [] -- the hand-over, then the neighbour's round
    · rw [show barPay (F := F) (prv c) (!true) = _ from barPay_back c true]
      unfold landing held
      simp only [toDev, Bool.not_true, Bool.not_false]
      isplitl [Hd_o0R Hd_l0R Hd_g0R]
      · isplitl [Hd_o0R]; · (iexists _; iexact Hd_o0R)
        isplitl [Hd_l0R]; · (iexists _; iexact Hd_l0R)
        isplitl [Hd_g0R]; · (iexists _; iexact Hd_g0R)
        isplitr; · iexact Hrr_o0R
        isplitr; · iexact Hrr_l0R
        iexact Hrr_g0R
      isplitl [Hd_o1R Hd_l1R Hd_g1R]
      · isplitl [Hd_o1R]; · (iexists _; iexact Hd_o1R)
        isplitl [Hd_l1R]; · (iexists _; iexact Hd_l1R)
        isplitl [Hd_g1R]; · (iexists _; iexact Hd_g1R)
        isplitr; · iexact Hrr_o1R
        isplitr; · iexact Hrr_l1R
        iexact Hrr_g1R
      · isplitl [Hd_o2R]; · (iexists _; iexact Hd_o2R)
        isplitl [Hd_l2R]; · (iexists _; iexact Hd_l2R)
        isplitl [Hd_g2R]; · (iexists _; iexact Hd_g2R)
        isplitr; · iexact Hrr_o2R
        isplitr; · iexact Hrr_l2R
        iexact Hrr_g2R
    · iexact HrBp
  iintro HO
  sl_exec
  iapply (wp_sig (KFun.V m) c (nxt c) false rfl _ W (K (nxt c, none)) (a := (1#32).toNat) (by decide)) $$ [HO HtBn Hd_o0L Hd_l0L Hd_g0L Hd_o1L Hd_l1L Hd_g1L Hd_o2L Hd_l2L Hd_g2L]
  · isplitr; · iexact HIbn
    isplitl [HO]; · iexact HO
    isplitl [HtBn]; · iexact HtBn
    isplitr [] -- the hand-over, then the neighbour's round
    · rw [show barPay (F := F) (nxt c) (!false) = _ from barPay_back c false]
      unfold landing held
      simp only [toDev, Bool.not_true, Bool.not_false]
      isplitl [Hd_o0L Hd_l0L Hd_g0L]
      · isplitl [Hd_o0L]; · (iexists _; iexact Hd_o0L)
        isplitl [Hd_l0L]; · (iexists _; iexact Hd_l0L)
        isplitl [Hd_g0L]; · (iexists _; iexact Hd_g0L)
        isplitr; · iexact Hrr_o0L
        isplitr; · iexact Hrr_l0L
        iexact Hrr_g0L
      isplitl [Hd_o1L Hd_l1L Hd_g1L]
      · isplitl [Hd_o1L]; · (iexists _; iexact Hd_o1L)
        isplitl [Hd_l1L]; · (iexists _; iexact Hd_l1L)
        isplitl [Hd_g1L]; · (iexists _; iexact Hd_g1L)
        isplitr; · iexact Hrr_o1L
        isplitr; · iexact Hrr_l1L
        iexact Hrr_g1L
      · isplitl [Hd_o2L]; · (iexists _; iexact Hd_o2L)
        isplitl [Hd_l2L]; · (iexists _; iexact Hd_l2L)
        isplitl [Hd_g2L]; · (iexists _; iexact Hd_g2L)
        isplitr; · iexact Hrr_o2L
        isplitr; · iexact Hrr_l2L
        iexact Hrr_g2L
    · iexact HrBn
  iintro HO
  sl_exec
  ihave HD := (batches_rel (F := F) c f5 m ![segA_ok.sl.dma0 m c, segA_ok.sl.dma1 m c, segA_ok.sl.dma2 m c, segA_ok.sl.dma3 m c, segA_ok.sl.dma4 m c, segA_ok.sl.dma5 m c, segA_ok.sl.dma6 m c, segA_ok.sl.dma7 m c,
      segA_ok.sl.dma8 m c, segA_ok.sl.dma9 m c, segA_ok.sl.dma10 m c, segA_ok.sl.dma11 m c, segA_ok.sl.dma12 m c, segA_ok.sl.dma13 m c, segA_ok.sl.dma14 m c, segA_ok.sl.dma15 m c]) $$ [Hcs0 Hcs1 Hcs2 Hcs3]
  · simp only [batL, cpBatch, cpDeliv, kvPl]
    isplitl [Hcs0]; · iexact Hcs0
    isplitl [Hcs1]; · iexact Hcs1
    isplitl [Hcs2]; · iexact Hcs2
    iexact Hcs3
  icases HD with ⟨HcsD0, HcsD1, HcsD2, HcsD3⟩
  unfold batD cpBatch cpDeliv kvPl
  have hq0 : cellRole (.dma (csemD c 0)) = none := cellRole_ge _ (by rw [csemD_val]; omega)
  have hmw0 : (levAts L lv : sProp 𝕄) ⊢ MayWait (c : Thread nD τ) (.dma (csemD c 0)) () (owedOf c (prog.drop 2)) :=
    mayWait_low (F := F) c (csemD c 0) hq0 _
  sl_exec
  sl_step
  iexists (insert (SemLoc.dma (csemD c 0), default) (insert (SemLoc.dma (csemD c 0), default)
    (insert (SemLoc.dma (csemD c 0), default) (insert (SemLoc.dma (csemD c 0), default) W))))
  isplitr []
  swap
  · ipureintro; rfl
  unfold At15
  -- the invariants
  isplitr [HO HcB HaB Has_o0R Har_o0R Has_l0R Har_l0R Has_o0L Har_o0L Has_l0L Har_l0L Has_o1R Har_o1R Has_o1L Har_o1L Has_l1R Har_l1R Has_l1L Har_l1L Has_o2R Har_o2R Has_o2L Har_o2L Has_l2R Har_l2R Has_l2L Har_l2L Has_g0R Har_g0R Has_g0L Har_g0L Has_g1R Har_g1R Has_g1L Har_g1L Has_g2R Har_g2R Has_g2L Har_g2L Hts_o0R Htn_o0R Hts_l0R Htn_l0R Hts_o0L Htn_o0L Hts_l0L Htn_l0L Hts_o1R Htn_o1R Hts_o1L Htn_o1L Hts_l1R Htn_l1R Hts_l1L Htn_l1L Hts_o2R Htn_o2R Hts_o2L Htn_o2L Hts_l2R Htn_l2R Hts_l2L Htn_l2L Hts_g0R Htn_g0R Hts_g0L Htn_g0L Hts_g1R Htn_g1R Hts_g1L Htn_g1L Hts_g2R Htn_g2R Hts_g2L Htn_g2L Hc_o0R Hc_l0R Hc_o0L Hc_l0L Hc_o1R Hc_o1L Hc_l1R Hc_l1L Hc_o2R Hc_o2L Hc_l2R Hc_l2L Hc_g0R Hc_g0L Hc_g1R Hc_g1L Hc_g2R Hc_g2L HbO0 HbO1 HbO2 HbO3 HbL0 HbL1 HbL2 HbL3 Hs4 Hs6 Hs7 Hs8 Hs9 Hx Hwq Hwo Hout Hg_ownR Hg_ownL HK00 HV00 HK01 HK10 HV10 HK11 HK20 HV20 HK21 HK30 HV30 HK31 HcsD1 HcsD2 HcsD3 HcsD0_dst0 HcsD0_src0 HcsD0_dst1 HcsD0_src1 HcsD0_dst2 HcsD0_src2 HcsD0_dst3 HcsD0_src3 HcsD0]
  · unfold invs
    simp only [bigSep_xfer]
    repeat' (first | iassumption | isplitl [])
  -- the level facts
  isplitr [HO HcB HaB Has_o0R Har_o0R Has_l0R Har_l0R Has_o0L Har_o0L Has_l0L Har_l0L Has_o1R Har_o1R Has_o1L Har_o1L Has_l1R Har_l1R Has_l1L Har_l1L Has_o2R Har_o2R Has_o2L Har_o2L Has_l2R Har_l2R Has_l2L Har_l2L Has_g0R Har_g0R Has_g0L Har_g0L Has_g1R Har_g1R Has_g1L Har_g1L Has_g2R Har_g2R Has_g2L Har_g2L Hts_o0R Htn_o0R Hts_l0R Htn_l0R Hts_o0L Htn_o0L Hts_l0L Htn_l0L Hts_o1R Htn_o1R Hts_o1L Htn_o1L Hts_l1R Htn_l1R Hts_l1L Htn_l1L Hts_o2R Htn_o2R Hts_o2L Htn_o2L Hts_l2R Htn_l2R Hts_l2L Htn_l2L Hts_g0R Htn_g0R Hts_g0L Htn_g0L Hts_g1R Htn_g1R Hts_g1L Htn_g1L Hts_g2R Htn_g2R Hts_g2L Htn_g2L Hc_o0R Hc_l0R Hc_o0L Hc_l0L Hc_o1R Hc_o1L Hc_l1R Hc_l1L Hc_o2R Hc_o2L Hc_l2R Hc_l2L Hc_g0R Hc_g0L Hc_g1R Hc_g1L Hc_g2R Hc_g2L HbO0 HbO1 HbO2 HbO3 HbL0 HbL1 HbL2 HbL3 Hs4 Hs6 Hs7 Hs8 Hs9 Hx Hwq Hwo Hout Hg_ownR Hg_ownL HK00 HV00 HK01 HK10 HV10 HK11 HK20 HV20 HK21 HK30 HV30 HK31 HcsD1 HcsD2 HcsD3 HcsD0_dst0 HcsD0_src0 HcsD0_dst1 HcsD0_src1 HcsD0_dst2 HcsD0_src2 HcsD0_dst3 HcsD0_src3 HcsD0]
  · iassumption
  -- the words
  isplitr [HO HcB HaB Has_o0R Har_o0R Has_l0R Har_l0R Has_o0L Har_o0L Has_l0L Har_l0L Has_o1R Har_o1R Has_o1L Har_o1L Has_l1R Har_l1R Has_l1L Har_l1L Has_o2R Har_o2R Has_o2L Har_o2L Has_l2R Har_l2R Has_l2L Har_l2L Has_g0R Har_g0R Has_g0L Har_g0L Has_g1R Har_g1R Has_g1L Har_g1L Has_g2R Har_g2R Has_g2L Har_g2L Hts_o0R Htn_o0R Hts_l0R Htn_l0R Hts_o0L Htn_o0L Hts_l0L Htn_l0L Hts_o1R Htn_o1R Hts_o1L Htn_o1L Hts_l1R Htn_l1R Hts_l1L Htn_l1L Hts_o2R Htn_o2R Hts_o2L Htn_o2L Hts_l2R Htn_l2R Hts_l2L Htn_l2L Hts_g0R Htn_g0R Hts_g0L Htn_g0L Hts_g1R Htn_g1R Hts_g1L Htn_g1L Hts_g2R Htn_g2R Hts_g2L Htn_g2L Hc_o0R Hc_l0R Hc_o0L Hc_l0L Hc_o1R Hc_o1L Hc_l1R Hc_l1L Hc_o2R Hc_o2L Hc_l2R Hc_l2L Hc_g0R Hc_g0L Hc_g1R Hc_g1L Hc_g2R Hc_g2L HbO0 HbO1 HbO2 HbO3 HbL0 HbL1 HbL2 HbL3 Hs4 Hs6 Hs7 Hs8 Hs9 Hx Hwq Hwo Hout Hg_ownR Hg_ownL HK00 HV00 HK01 HK10 HV10 HK11 HK20 HV20 HK21 HK30 HV30 HK31 HcsD1 HcsD2 HcsD3 HcsD0_dst0 HcsD0_src0 HcsD0_dst1 HcsD0_src1 HcsD0_dst2 HcsD0_src2 HcsD0_dst3 HcsD0_src3 HcsD0]
  · ipureintro
    exact ⟨rfl, congrArg₂ k0_pay28 (run_x (KFun.V m) m KFun.Kout c) (run_wq (KFun.V m) m KFun.Kout c)⟩
  -- what it owes, the barrier cell
  isplitl [HO]
  · iexact HO
  isplitl [HcB]
  · iexact HcB
  isplitl [HaB]
  · iexact HaB
  -- the eighteen transfers
  isplitl [Has_o0R Har_o0R Has_l0R Har_l0R Has_o0L Har_o0L Has_l0L Har_l0L Has_o1R Har_o1R Has_o1L Har_o1L Has_l1R Har_l1R Has_l1L Har_l1L Has_o2R Har_o2R Has_o2L Har_o2L Has_l2R Har_l2R Has_l2L Har_l2L Has_g0R Har_g0R Has_g0L Har_g0L Has_g1R Har_g1R Has_g1L Har_g1L Has_g2R Har_g2R Has_g2L Har_g2L Hts_o0R Htn_o0R Hts_l0R Htn_l0R Hts_o0L Htn_o0L Hts_l0L Htn_l0L Hts_o1R Htn_o1R Hts_o1L Htn_o1L Hts_l1R Htn_l1R Hts_l1L Htn_l1L Hts_o2R Htn_o2R Hts_o2L Htn_o2L Hts_l2R Htn_l2R Hts_l2L Htn_l2L Hts_g0R Htn_g0R Hts_g0L Htn_g0L Hts_g1R Htn_g1R Hts_g1L Htn_g1L Hts_g2R Htn_g2R Hts_g2L Htn_g2L Hc_o0R Hc_l0R Hc_o0L Hc_l0L Hc_o1R Hc_o1L Hc_l1R Hc_l1L Hc_o2R Hc_o2L Hc_l2R Hc_l2L Hc_g0R Hc_g0L Hc_g1R Hc_g1L Hc_g2R Hc_g2L]
  · simp only [bigSep_xfer, freshX]
    iframe ∗
    repeat' (first | iassumption | isplitl [])
  -- the staged arguments
  isplitl [Hx]
  · iexact Hx
  isplitl [Hwq]
  · iexact Hwq
  isplitl [Hwo]
  · iexact Hwo
  isplitl [Hout]
  · unfold wholeEx; rw [← whole_ex c cc0_stg3_0]; iexists _; iexact Hout
  -- the projected queries
  isplitl [Hs4]
  · iexists _
    isplitl [Hs4]
    · iexact Hs4
    · ipureintro
      intro h hh i d
      exact q2_rows m c f4 _ _ (run_x (KFun.V m) m KFun.Kout c) (run_wq (KFun.V m) m KFun.Kout c) h hh i d
  isplitl [Hs6]
  · unfold wholeEx; rw [← whole_ex c cc0_scratch6]; iexists _; iexact Hs6
  isplitl [Hs7]
  · rw [← run_s7 (KFun.V m) m KFun.Kout c f7]; iexact Hs7
  isplitl [Hs8]
  · rw [← run_s8 (KFun.V m) m KFun.Kout c f8]; iexact Hs8
  isplitl [Hs9]
  · iexists _
    isplitl [Hs9]
    · iexact Hs9
    · ipureintro
      intro g j d
      exact kvb_rows m c f9 g j d
  -- the local copies
  isplitl [HcsD1 HcsD2 HcsD3 HcsD0_dst0 HcsD0_src0 HcsD0_dst1 HcsD0_src1 HcsD0_dst2 HcsD0_src2 HcsD0_dst3 HcsD0_src3 HcsD0 HK00 HV00 HK01 HK10 HV10 HK11 HK20 HV20 HK21 HK30 HV30 HK31]
  · unfold kvCut15 later3 later1
    iexists f5
    iexists ![segA_ok.sl.dma0 m c, segA_ok.sl.dma1 m c, segA_ok.sl.dma2 m c, segA_ok.sl.dma3 m c, segA_ok.sl.dma4 m c, segA_ok.sl.dma5 m c, segA_ok.sl.dma6 m c, segA_ok.sl.dma7 m c,
      segA_ok.sl.dma8 m c, segA_ok.sl.dma9 m c, segA_ok.sl.dma10 m c, segA_ok.sl.dma11 m c, segA_ok.sl.dma12 m c, segA_ok.sl.dma13 m c, segA_ok.sl.dma14 m c, segA_ok.sl.dma15 m c]
    isplitr [HcsD1 HcsD2 HcsD3 HcsD0_dst0 HcsD0_src0 HcsD0_dst1 HcsD0_src1 HcsD0_dst2 HcsD0_src2 HcsD0_dst3 HcsD0_src3 HcsD0 HK00 HV00 HK01 HK10 HV10 HK11 HK20 HV20 HK21 HK30 HV30 HK31]
    · ipureintro
      intro j g
      exact cpVals_ok m c j g
    isplitl [HcsD1 HcsD2 HcsD3]
    · unfold batD cpBatch cpDeliv kvPl
      isplitl [HcsD2]; · iexact HcsD2
      isplitl [HcsD3]; · iexact HcsD3
      iexact HcsD1
    isplitl [HcsD0_dst0 HcsD0_dst1 HcsD0_dst2 HcsD0_dst3]
    · unfold held kvD
      isplitl [HcsD0_dst0]; · (iexists _; iexact HcsD0_dst0)
      isplitl [HcsD0_dst1]; · (iexists _; iexact HcsD0_dst1)
      isplitl [HcsD0_dst2]; · (iexists _; iexact HcsD0_dst2)
      iexists _; iexact HcsD0_dst3
    isplitl [HcsD0_src0 HcsD0_src1 HcsD0_src2 HcsD0_src3]
    · isplitl [HcsD0_src0]; · iexact HcsD0_src0
      isplitl [HcsD0_src1]; · iexact HcsD0_src1
      isplitl [HcsD0_src2]; · iexact HcsD0_src2
      iexact HcsD0_src3
    isplitl [HcsD0]
    · iexact HcsD0
    ihave KD := (kept_unrot c m) $$ [HK00 HV00 HK01 HK10 HV10 HK11 HK20 HV20 HK21 HK30 HV30 HK31]
    · unfold keptL srcPt hbKS hbVS hbK hbV
      isplitl [HK00 HV00 HK01]
      · isplitl [HK00]; · iexact HK00
        isplitl [HV00]; · iexact HV00
        iexact HK01
      isplitl [HK10 HV10 HK11]
      · isplitl [HK10]; · iexact HK10
        isplitl [HV10]; · iexact HV10
        iexact HK11
      isplitl [HK20 HV20 HK21]
      · isplitl [HK20]; · iexact HK20
        isplitl [HV20]; · iexact HV20
        iexact HK21
      isplitl [HK30]; · iexact HK30
      isplitl [HV30]; · iexact HV30
      iexact HK31
    unfold keptD srcPt
    rw [bigSep_fin4]
    iexact KD
  -- the partial sums' buffers, by blocks
  isplitl [HbO0 HbO1 HbO2 HbO3]
  · rw [bigSep_fin4]; unfold held
    isplitl [HbO0]; · (iexists _; iexact HbO0)
    isplitl [HbO1]; · (iexists _; iexact HbO1)
    isplitl [HbO2]; · (iexists _; iexact HbO2)
    iexists _; iexact HbO3
  isplitl [HbL0 HbL1 HbL2 HbL3]
  · rw [bigSep_fin4]; unfold held
    isplitl [HbL0]; · (iexists _; iexact HbL0)
    isplitl [HbL1]; · (iexists _; iexact HbL1)
    isplitl [HbL2]; · (iexists _; iexact HbL2)
    iexists _; iexact HbL3
  -- the own halves
  iexists f23
  isplitl [Hg_ownR]; · iexact Hg_ownR
  iexact Hg_ownL

end Main

end Cert.Kernel.Proto
end
-- ==== Proof.KB.OpCopy.lean ====
/-
  The sixteen local copies of the key and value planes, as four batches of four on the four copy semaphores.

  Batch `b` copies, for the two key/value heads `g`, the device's key rows and value rows of batch `b` into planes
  `2b + g` of the key half and of the value half of the plane buffer: four transfers of one plane's credit on semaphore
  `b`, all started before any is waited for.  The machine credits a transfer in instalments, so only the wait that brings
  the units consumed to four planes' worth knows every transfer has landed: the first three waits of a batch return
  nothing, the fourth returns the four planes at the copied contents, the four source planes, and the semaphore at zero.
  The batches are held as a family over the batch index, so that a wait at an index computed from the device's position
  takes its batch out and leaves the rest.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.KvSplit
import proofs.«900754_g7700000000000755_dist_attn_cross_gqa_kvseq_b4_sq256_skv1024_d1024_hq8_dh128_v7x_i4_f32_1_alg».proof.Proof.KB.Ring
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.KLaunch
import Idealize.ShloMosaic.Lib.Batch

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores, the sources and the destinations, uniformly in the batch -/

theorem copy_inb (b : Fin 4) : ∀ a, (![b.val] : Fin 1 → ℕ) a + S1.size a ≤ S4.size a := by
  intro a; fin_cases a; show b.val + 1 ≤ 4; omega

/-- Copy semaphore `b`, as the program slices the array of four. -/
def copySemAt (b : Fin 4) : DmaSem sig :=
  ((cc0_scratch22.slice (Rect.unit (s := S4) ![b.val] S1.size (copy_inb b))).squeeze S_ squeezes_S1_S_).sem

theorem copySemAt_lit (b : Fin 4) : copySemAt b = copySem b := by
  fin_cases b <;> rfl

/-- The slice at any offsets that are the literal `b`. -/
theorem copySemAt_of_off (off : Fin 1 → ℕ) (inb : ∀ a, off a + S1.size a ≤ S4.size a) (b : Fin 4) (h : off = ![b.val]) :
    ((cc0_scratch22.slice (Rect.unit (s := S4) off S1.size inb)).squeeze S_ squeezes_S1_S_).sem = copySemAt b := by
  subst h; rfl

/-- The first flash step waits on the semaphore of the device's own number. -/
theorem copySemAt_dev (c : Dev nD) :
    ((cc0_scratch22.slice (Rect.unit (s := S4) (k0_off1 c) S1.size (k0_off1_inb c))).squeeze S_ squeezes_S1_S_).sem = copySemAt c :=
  copySemAt_of_off _ _ c (k0_off1_eq c)
/-- The later ones on that of the batch `c + 1 + r`. -/
theorem copySemAt_dev' (c : Dev nD) (r : Fin 3) :
    ((cc0_scratch22.slice (Rect.unit (s := S4) (k0_off17 c (BitVec.ofNat 32 (1 + r.val))) S1.size (k0_off17_inb c r))).squeeze S_ squeezes_S1_S_).sem
      = copySemAt ⟨(c.val + (1 + r.val)) % 4, Nat.mod_lt _ (by decide)⟩ :=
  copySemAt_of_off _ _ _ (off17_eq c r)

theorem cellRole_copy (b : Fin 4) : cellRole (.dma (copySemAt b)) = none := by
  fin_cases b <;> exact cellRole_ge _ (by decide)

theorem src_inb (b : Fin 4) (g : Fin 2) : ∀ x, (![b.val, 0, g.val, 0] : Fin 4 → ℕ) x + S1x1024x1x128.size x ≤ S4x1024x2x128.size x := by
  intro x
  fin_cases x
  · show b.val + 1 ≤ 4; omega
  · show 0 + 1024 ≤ 1024; omega
  · show g.val + 1 ≤ 2; omega
  · show 0 + 128 ≤ 128; omega

/-- The device's key rows, and value rows, of batch `b` and key/value head `g`: the source of a copy. -/
def kSrc (b : Fin 4) (g : Fin 2) : Memref sig .tc .hbm S1024x128 .f32 :=
  ((Memref.whole main_arg3).slice (Rect.unit (s := S4x1024x2x128) ![b.val, 0, g.val, 0] S1x1024x1x128.size (src_inb b g)) (fun _ => rfl)).squeeze S1024x128 squeezes_S1x1024x1x128_S1024x128
def vSrc (b : Fin 4) (g : Fin 2) : Memref sig .tc .hbm S1024x128 .f32 :=
  ((Memref.whole main_arg4).slice (Rect.unit (s := S4x1024x2x128) ![b.val, 0, g.val, 0] S1x1024x1x128.size (src_inb b g)) (fun _ => rfl)).squeeze S1024x128 squeezes_S1x1024x1x128_S1024x128

/-- Plane `2b + g` of the keys (`a = 0`) or of the values (`a = 1`): the destination of a copy. -/
def kvAt (a : Fin 2) (b : Fin 4) (g : Fin 2) : Memref sig .tc .vmem S1024x128 .f32 :=
  (kvB.slice (kvR a.val (2 * b.val + g.val) ⟨a.isLt, by omega⟩) (fun _ => rfl)).squeeze S1024x128 squeezes_S1x1x1024x128_S1024x128

theorem kvAt_lit (a : Fin 2) (b : Fin 4) (g : Fin 2) : kvAt a b g = kvS a ⟨2 * b.val + g.val, by omega⟩ := by
  fin_cases a <;> fin_cases b <;> fin_cases g <;> rfl

/-- The four transfers of batch `b` in the order they are issued: keys then values of head 0, keys then values of head 1. -/
def cpSrc (b : Fin 4) : Fin 4 → Memref sig .tc .hbm S1024x128 .f32
  | 0 => kSrc b 0 | 1 => vSrc b 0 | 2 => kSrc b 1 | 3 => vSrc b 1
def cpDst (b : Fin 4) : Fin 4 → Memref sig .tc .vmem S1024x128 .f32
  | 0 => kvAt 0 b 0 | 1 => kvAt 1 b 0 | 2 => kvAt 0 b 1 | 3 => kvAt 1 b 1

/-- One plane's credit. -/
def amtKV : ℕ := (kvS 0 0).view.dmaCredit

theorem amt_cpDst (b j : Fin 4) (q : DmaSem sig) : (cpDst b j).view.amount (.dma q) = amtKV := by
  fin_cases b <;> fin_cases j <;> rfl
theorem amtKV_pos : 0 < amtKV := View.dmaCredit_pos (kvS 0 0).view (by decide)

/-- A plane's credit does not depend on where the plane lies. -/
theorem amt_kv_any (off : Fin 4 → ℕ) (inb : ∀ x, off x + S1x1x1024x128.size x ≤ S2x8x1024x128.size x) :
    ((kvB.slice (Rect.unit (s := S2x8x1024x128) off S1x1x1024x128.size inb) (fun _ => rfl)).squeeze S1024x128 squeezes_S1x1x1024x128_S1024x128).view.dmaCredit = amtKV := rfl

/-! ## A batch as a resource -/

section Batch
variable (m : (ℓ : Loc nD τ sig) → Buf (Elt F) ℓ) (c : Dev nD)

/-- The counters' copy in the algebra. -/
abbrev ECn : UEmb Counters (MT nD τ sig Unit (Elt F) ℕ UU ℕ) := countersEmb

/-- What transfer `j` of batch `b` delivers: its destination plane at contents that read as the source plane of the launch
    memory, and the source plane back. -/
def copyDeliv (b j : Fin 4) : sProp 𝕄 :=
  iprop((∃ fd : Buf (Elt F) ((cpDst b j).view.loc (c : Thread nD τ)),
      ((cpDst b j).view.loc (c : Thread nD τ) ↦[(cpDst b j).view.set]{fullShare} fd)
        ∗ ⌜(cpDst b j).view.read (Elt F) fd = (cpSrc b j).view.read (Elt F) (m ((cpSrc b j).view.loc (c : Thread nD τ)))⌝)
    ∗ ((cpSrc b j).view.loc (c : Thread nD τ) ↦[(cpSrc b j).view.set]{fullShare} m ((cpSrc b j).view.loc (c : Thread nD τ))))

instance copyDeliv_storable (b j : Fin 4) : Storable (upEmb : UEmb _ 𝕄) (copyDeliv m c b j) := by
  unfold copyDeliv; infer_instance

/-- Batch `b` with its first `k` transfers issued and `u` units consumed by waits. -/
def batchAt (b : Fin 4) (k u : ℕ) : sProp 𝕄 :=
  Transfers.Batch (ECn (F := F)) (c : Thread nD τ) (.dma (copySemAt b)) () amtKV (copyDeliv m c b) k u

/-- Batch `b` between its four issues and its four waits. -/
def batchRes (b : Fin 4) : sProp 𝕄 := batchAt m c b 4 0

/-- The batch allocated from its semaphore at zero, nothing issued. -/
theorem batch_open (b : Fin 4) {E : Set ℕ} :
    (semVal (((c : Thread nD τ), .dma (copySemAt b)) : GSem nD τ sig) 0 : sProp 𝕄) ⊢ |={E}=> batchAt m c b 0 0 :=
  Transfers.batch_alloc' (Lvl := ℕ) (ECn (F := F)) (c : Thread nD τ) () amtKV (copyDeliv m c b) (sm := .dma (copySemAt b)) (E := E)

/-- Issue `j` of batch `b`: the source plane as launched and the destination plane at any contents go in. -/
theorem wp_copy_issue (b j : Fin 4)
    {hsrc : (cpSrc b j).view.WordExact} {hdst : (cpDst b j).view.WordExact}
    {hsem : DmaTarget.Typed (nD := nD) (τ := τ) (p := .tc) .hbm (.dma (copySemAt b)) (.here (cpDst b j))}
    {α : Type} {Q : α → sProp 𝕄} {k : PUnit → Prog (TpuEff nD τ sig (Elt F) Λ₀ .tc) α}
    (fd : Buf (Elt F) ((cpDst b j).view.loc (c : Thread nD τ))) (u : ℕ) (hu : u ≤ j.val * amtKV) :
    iprop(((cpSrc b j).view.loc (c : Thread nD τ) ↦[(cpSrc b j).view.set]{fullShare} m ((cpSrc b j).view.loc (c : Thread nD τ)))
        ∗ ((cpDst b j).view.loc (c : Thread nD τ) ↦[(cpDst b j).view.set]{fullShare} fd) ∗ batchAt m c b j.val u)
      ⊢ iprop((batchAt m c b (j.val + 1) u -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cpSrc b j) (.here (cpDst b j)) (.dma (copySemAt b)) hsrc hdst hsem) k) Q) :=
  Transfers.wp_dmaBatch (ECn (F := F)) 𝒱₀ (c : Thread nD τ) none (src := cpSrc b j) (dst := cpDst b j) () amtKV
    (amt_cpDst b j _) subset_rfl (D := copyDeliv m c b) (j := j.val) (u := u) j.isLt hu (by
      unfold copyDeliv
      iintro ⟨Hd, Hs⟩
      isplitl [Hd]
      · iexists _
        isplitl [Hd]
        · iexact Hd
        · ipureintro; rw [View.read_write_univ]
      · iexact Hs)

/-- A wait of batch `b` that is not its last: nothing comes back. The semaphore may be spelt at any offsets that are `b`. -/
theorem wp_copy_wait (b : Fin 4) {sem : DmaSem sig} (hs : sem = copySemAt b)
    {sp sp' : Space} {s s' : Shape} {e e' : EltTy} {srcw : Memref sig .tc sp' s' e'} {κ' : Idealize.ShloMosaic.Kind} {dstw : Memref sig κ' sp s e}
    {hsrc : srcw.view.WordExact} {hdst : dstw.view.WordExact} (hamt : dstw.view.dmaCredit = amtKV)
    (u : ℕ) (hu : u + amtKV < amtKV * 4) (O : CellTallies nD τ sig Unit) (W : Waits sig Unit)
    {α : Type} {Q : α → sProp 𝕄} {k : PUnit → Prog (TpuEff nD τ sig (Elt F) Λ₀ .tc) α} :
    iprop(batchAt m c b 4 u ∗ owes (c : Thread nD τ) O W ∗ MayWait (c : Thread nD τ) (.dma (copySemAt b)) () O)
      ⊢ iprop(((batchAt m c b 4 (u + amtKV) ∗ owes (c : Thread nD τ) O (insert (SemLoc.dma (copySemAt b), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hs
  exact Transfers.wp_waitBatchO (ECn (F := F)) 𝒱₀ (c : Thread nD τ) none () hamt (D := copyDeliv m c b) (u := u) hu (O := O) (W := W)

/-- The last wait of batch `b`: the four deliveries, the semaphore at zero. -/
theorem wp_copy_wait_last (b : Fin 4) {sem : DmaSem sig} (hs : sem = copySemAt b)
    {sp sp' : Space} {s s' : Shape} {e e' : EltTy} {srcw : Memref sig .tc sp' s' e'} {κ' : Idealize.ShloMosaic.Kind} {dstw : Memref sig κ' sp s e}
    {hsrc : srcw.view.WordExact} {hdst : dstw.view.WordExact} (hamt : dstw.view.dmaCredit = amtKV)
    (u : ℕ) (hu : u + amtKV = amtKV * 4) (O : CellTallies nD τ sig Unit) (W : Waits sig Unit)
    {α : Type} {Q : α → sProp 𝕄} {k : PUnit → Prog (TpuEff nD τ sig (Elt F) Λ₀ .tc) α} :
    iprop(batchAt m c b 4 u ∗ owes (c : Thread nD τ) O W ∗ MayWait (c : Thread nD τ) (.dma (copySemAt b)) () O)
      ⊢ iprop(((bigSep Finset.univ (copyDeliv m c b) ∗ semVal (((c : Thread nD τ), .dma (copySemAt b)) : GSem nD τ sig) 0
              ∗ owes (c : Thread nD τ) O (insert (SemLoc.dma (copySemAt b), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hs
  exact Transfers.wp_waitBatchLastO (ECn (F := F)) 𝒱₀ (c : Thread nD τ) none () hamt amtKV_pos (D := copyDeliv m c b) (u := u) hu (O := O) (W := W)

/-- A copy semaphore is below every payment: a device may wait on it whatever it still owes. -/
theorem mayWait_copy (b : Fin 4) (ps : List Pay) :
    (levAts L lv : sProp 𝕄) ⊢ MayWait (c : Thread nD τ) (.dma (copySemAt b)) () (owedOf c ps) :=
  mayWait_low c (copySemAt b) (cellRole_copy b) ps

/-- The last wait's four deliveries, one by one. -/
theorem copyDeliv_four (b : Fin 4) :
    bigSep Finset.univ (copyDeliv m c b)
      ⊢ iprop(copyDeliv m c b 0 ∗ copyDeliv m c b 1 ∗ copyDeliv m c b 2 ∗ copyDeliv m c b 3) := by
  rw [Idealize.SL.BI.bigSep_univ_eq_bigSepL [0, 1, 2, 3] (by decide) (by decide) _]
  exact .rfl

end Batch

/-! ## The four batches as a family -/

section Family
variable (m : (ℓ : Loc nD τ sig) → Buf (Elt F) ℓ) (c : Dev nD)

/-- After the sixteen issues: the four batches, issued at the literal indices, as one family over the batch index. -/
theorem batches_join :
    iprop(batchRes m c 0 ∗ batchRes m c 1 ∗ batchRes m c 2 ∗ batchRes m c 3) ⊢ bigSep Finset.univ (batchRes m c) := by
  rw [Idealize.SL.BI.bigSep_univ_eq_bigSepL [0, 1, 2, 3] (by decide) (by decide) _]
  exact .rfl

/-- One batch out of the family at any index, the rest kept. -/
theorem batches_take (S : Finset (Fin 4)) (b : Fin 4) (hb : b ∈ S) :
    bigSep S (batchRes m c) = iprop(batchRes m c b ∗ bigSep (S.erase b) (batchRes m c)) :=
  BI.bigSep_erase (Φ := batchRes m c) hb

/-- The batches in the order device `c` waits for them: `c`, `c + 2`, `c + 3`, `c + 1` are the four indices. -/
theorem univ_flash : ∀ c : Dev nD, (Finset.univ : Finset (Fin 4)) = insert c (insert (nxt (nxt c)) (insert (prv c) {nxt c})) := by decide
theorem flash_distinct : ∀ c : Dev nD,
    c ∉ insert (nxt (nxt c)) (insert (prv c) ({nxt c} : Finset (Fin 4))) ∧ nxt (nxt c) ∉ insert (prv c) ({nxt c} : Finset (Fin 4))
      ∧ prv c ∉ ({nxt c} : Finset (Fin 4)) := by decide

/-- The family split at the four positions of device `c`. -/
theorem batches_flash :
    bigSep Finset.univ (batchRes m c)
      = iprop(batchRes m c c ∗ batchRes m c (nxt (nxt c)) ∗ batchRes m c (prv c) ∗ batchRes m c (nxt c)) := by
  obtain ⟨h1, h2, h3⟩ := flash_distinct c
  rw [univ_flash c, bigSep_insert h1, bigSep_insert h2, bigSep_insert h3, bigSep_singleton]
  rfl

/-- The positions as the program computes them for the later flash steps: `c + 1 + r`. -/
theorem flash_pos : ∀ c : Dev nD,
    (⟨(c.val + (1 + 1)) % 4, Nat.mod_lt _ (by decide)⟩ : Fin 4) = nxt (nxt c)
      ∧ (⟨(c.val + (1 + 2)) % 4, Nat.mod_lt _ (by decide)⟩ : Fin 4) = prv c
      ∧ (⟨(c.val + (1 + 0)) % 4, Nat.mod_lt _ (by decide)⟩ : Fin 4) = nxt c := by decide

end Family

/-- info: 'Cert.Kernel.Proto.wp_copy_wait_last' depends on axioms: [propext, Classical.choice, Quot.sound] -/
#guard_msgs in #print axioms wp_copy_wait_last
/-- info: 'Cert.Kernel.Proto.wp_copy_issue' depends on axioms: [propext, Classical.choice, Quot.sound] -/
#guard_msgs in #print axioms wp_copy_issue

end Cert.Kernel.Proto

end
-- ==== Proof.KB.BodyBLemmas.lean ====
/-
  The half blocks the hop-0 copies send, spelt as the copies' sources: the lower half of a device's own block and the upper
  half of the block two further on are, as sets of elements of the partial-sum buffers, the source slices of the copies to
  the right and to the left.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.Sched
import proofs.«900754_g7700000000000755_dist_attn_cross_gqa_kvseq_b4_sq256_skv1024_d1024_hq8_dh128_v7x_i4_f32_1_alg».proof.Proof.KB.LocSplit

noncomputable section

namespace Cert.Kernel.Proto

open Cert.Kernel Cert.Kernel.Gen Cert.Kernel.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

omit [FloatOps F] in
theorem set_heq_of_eq {sp : Space} {S : Shape} {e : EltTy} {mr mr' : Memref sig .tc sp S e} (h : mr = mr') : HEq mr.view.set mr'.view.set := by
  subst h; rfl

omit [FloatOps F] in
/-- The half blocks hop 0 sends, spelt as the copies' sources. -/
theorem halfO_0f_pts (c : Dev nD) (f : Buf (Elt F) ((c : Thread nD τ).loc cc0_scratch0)) :
    (((locHalfO c 0 false).view.loc (c : Thread nD τ) ↦[(locHalfO c 0 false).view.set]{fullShare} f : sProp 𝕄))
      = ((srcO c 0 false).view.loc (c : Thread nD τ) ↦[(srcO c 0 false).view.set]{fullShare} f) := by
  show (((c : Thread nD τ).loc cc0_scratch0 ↦[(locHalfO c 0 false).view.set]{fullShare} f : sProp 𝕄))
      = ((c : Thread nD τ).loc cc0_scratch0 ↦[(srcO c 0 false).view.set]{fullShare} f)
  have hs : ((locHalfO c 0 false).view.set : Finset (Idx ((c : Thread nD τ).loc cc0_scratch0))) = (srcO c 0 false).view.set :=
    eq_of_heq (set_heq_of_eq (locHalfO_0f c))
  rw [hs]
omit [FloatOps F] in
theorem halfO_2t_pts (c : Dev nD) (f : Buf (Elt F) ((c : Thread nD τ).loc cc0_scratch0)) :
    (((locHalfO c 2 true).view.loc (c : Thread nD τ) ↦[(locHalfO c 2 true).view.set]{fullShare} f : sProp 𝕄))
      = ((srcO c 0 true).view.loc (c : Thread nD τ) ↦[(srcO c 0 true).view.set]{fullShare} f) := by
  show (((c : Thread nD τ).loc cc0_scratch0 ↦[(locHalfO c 2 true).view.set]{fullShare} f : sProp 𝕄))
      = ((c : Thread nD τ).loc cc0_scratch0 ↦[(srcO c 0 true).view.set]{fullShare} f)
  have hs : ((locHalfO c 2 true).view.set : Finset (Idx ((c : Thread nD τ).loc cc0_scratch0))) = (srcO c 0 true).view.set :=
    eq_of_heq (set_heq_of_eq (locHalfO_2t c))
  rw [hs]
omit [FloatOps F] in
theorem halfL_0f_pts (c : Dev nD) (f : Buf (Elt F) ((c : Thread nD τ).loc cc0_scratch1)) :
    (((locHalfL c 0 false).view.loc (c : Thread nD τ) ↦[(locHalfL c 0 false).view.set]{fullShare} f : sProp 𝕄))
      = ((srcL c 0 false).view.loc (c : Thread nD τ) ↦[(srcL c 0 false).view.set]{fullShare} f) := by
  show (((c : Thread nD τ).loc cc0_scratch1 ↦[(locHalfL c 0 false).view.set]{fullShare} f : sProp 𝕄))
      = ((c : Thread nD τ).loc cc0_scratch1 ↦[(srcL c 0 false).view.set]{fullShare} f)
  have hs : ((locHalfL c 0 false).view.set : Finset (Idx ((c : Thread nD τ).loc cc0_scratch1))) = (srcL c 0 false).view.set :=
    eq_of_heq (set_heq_of_eq (locHalfL_0f c))
  rw [hs]
omit [FloatOps F] in
theorem halfL_2t_pts (c : Dev nD) (f : Buf (Elt F) ((c : Thread nD τ).loc cc0_scratch1)) :
    (((locHalfL c 2 true).view.loc (c : Thread nD τ) ↦[(locHalfL c 2 true).view.set]{fullShare} f : sProp 𝕄))
      = ((srcL c 0 true).view.loc (c : Thread nD τ) ↦[(srcL c 0 true).view.set]{fullShare} f) := by
  show (((c : Thread nD τ).loc cc0_scratch1 ↦[(locHalfL c 2 true).view.set]{fullShare} f : sProp 𝕄))
      = ((c : Thread nD τ).loc cc0_scratch1 ↦[(srcL c 0 true).view.set]{fullShare} f)
  have hs : ((locHalfL c 2 true).view.set : Finset (Idx ((c : Thread nD τ).loc cc0_scratch1))) = (srcL c 0 true).view.set :=
    eq_of_heq (set_heq_of_eq (locHalfL_2t c))
  rw [hs]

end Cert.Kernel.Proto

end
-- ==== Proof.KB.ProjRowsB.lean ====
/-
  The read-backs of ProjRows with older pieces under a batch's own: the query buffer and the narrowed key/value buffer keep the
  earlier batches' tiles in the list of writes, and a batch's rows, and planes, read the batch's own tiles all the same. Then,
  batch by batch, the query rows from the tiles the body stores, and what the projection loads.
-/
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.Bridge
import proofs.«900754_g7700000000000755_dist_attn_cross_gqa_kvseq_b4_sq256_skv1024_d1024_hq8_dh128_v7x_i4_f32_1_alg».proof.Proof.KB.Ring
import proofs.«900754_g7700000000000755_dist_attn_cross_gqa_kvseq_b4_sq256_skv1024_d1024_hq8_dh128_v7x_i4_f32_1_alg».proof.Proof.KB.ProjRows
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.KvRel
import proofs.«900754_g7700000000000755_dist_attn_cross_gqa_kvseq_b4_sq256_skv1024_d1024_hq8_dh128_v7x_i4_f32_1_alg».proof.Proof.Gen.Kernel.Frame
import proofs.«900754_g7700000000000755_dist_attn_cross_gqa_kvseq_b4_sq256_skv1024_d1024_hq8_dh128_v7x_i4_f32_1_alg».proof.Proof.Gen.Kernel.Points
import Idealize.ShloMosaic.Lib.WritesUnit

set_option maxRecDepth 16384

noncomputable section

namespace Cert.Kernel.Proto.Rows

open Cert.Kernel Cert.Kernel.Gen Cert.Kernel.Ring Cert.Kernel.Proto
open Idealize.ShloMosaic Idealize.ShloMosaic.TcCoe Idealize.ShloMosaic.ValueIdx
open Idealize.SL.Sem

variable {F : FTy → Type} [FloatOps F]

section Q2
variable (c : Dev nD)

set_option maxHeartbeats 4000000 in
/-- Eight one-row tiles written at rows `r … r + 7` of the query buffer, the last written in front: row `r + h` of the
    written contents reads tile `h`, whatever the buffer held before. -/
theorem q2_rows_read_rest (r : ℕ) (hr : r + 8 ≤ 32)
    (o0 o1 o2 o3 o4 o5 o6 o7 : Fin 3 → ℕ)
    (i0 : ∀ a, o0 a + S1x256x128.size a ≤ S32x256x128.size a) (i1 : ∀ a, o1 a + S1x256x128.size a ≤ S32x256x128.size a) (i2 : ∀ a, o2 a + S1x256x128.size a ≤ S32x256x128.size a) (i3 : ∀ a, o3 a + S1x256x128.size a ≤ S32x256x128.size a) (i4 : ∀ a, o4 a + S1x256x128.size a ≤ S32x256x128.size a) (i5 : ∀ a, o5 a + S1x256x128.size a ≤ S32x256x128.size a) (i6 : ∀ a, o6 a + S1x256x128.size a ≤ S32x256x128.size a) (i7 : ∀ a, o7 a + S1x256x128.size a ≤ S32x256x128.size a)
    (e0 : o0 = ![r + 0, 0, 0]) (e1 : o1 = ![r + 1, 0, 0]) (e2 : o2 = ![r + 2, 0, 0]) (e3 : o3 = ![r + 3, 0, 0]) (e4 : o4 = ![r + 4, 0, 0]) (e5 : o5 = ![r + 5, 0, 0]) (e6 : o6 = ![r + 6, 0, 0]) (e7 : o7 = ![r + 7, 0, 0])
    (f4 : Buf (Elt F) ((c : Thread nD τ).loc cc0_scratch4)) (rest : List (View.Piece (Elt F) S32x256x128 .bf16))
    (P0 P1 P2 P3 P4 P5 P6 P7 : S1x256x128.Idx → Elt F .bf16) (i : Fin 256) (d : Fin 128) :
    ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 0, by omega⟩ : Fin 32) i d) = P0 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 1, by omega⟩ : Fin 32) i d) = P1 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 2, by omega⟩ : Fin 32) i d) = P2 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 3, by omega⟩ : Fin 32) i d) = P3 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 4, by omega⟩ : Fin 32) i d) = P4 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 5, by omega⟩ : Fin 32) i d) = P5 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 6, by omega⟩ : Fin 32) i d) = P6 (ix3 0 i d)
    ∧ ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + 7, by omega⟩ : Fin 32) i d) = P7 (ix3 0 i d) := by
  refine ⟨?_, ?_, ?_, ?_, ?_, ?_, ?_, ?_⟩
  · refine Eq.trans (congrFun (View.read_whole (Val := Elt F) cc0_scratch4 _).symm (ix3 (⟨r + 0, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 0 < r + 7; omega))]
    rw [View.read_writes_cons_unit_of_not_mem _ _ i6 _ _ _ e6 0 (Or.inl (by show r + 0 < r + 6; omega))]
    rw [View.read_writes_cons_unit_of_not_mem _ _ i5 _ _ _ e5 0 (Or.inl (by show r + 0 < r + 5; omega))]
    rw [View.read_writes_cons_unit_of_not_mem _ _ i4 _ _ _ e4 0 (Or.inl (by show r + 0 < r + 4; omega))]
    rw [View.read_writes_cons_unit_of_not_mem _ _ i3 _ _ _ e3 0 (Or.inl (by show r + 0 < r + 3; omega))]
    rw [View.read_writes_cons_unit_of_not_mem _ _ i2 _ _ _ e2 0 (Or.inl (by show r + 0 < r + 2; omega))]
    rw [View.read_writes_cons_unit_of_not_mem _ _ i1 _ _ _ e1 0 (Or.inl (by show r + 0 < r + 1; omega))]
    exact View.read_writes_cons_unit_of_mem (s := S32x256x128) (Memref.whole cc0_scratch4 : Memref sig .tc .vmem S32x256x128 .bf16).view f4 i0 P0 _ (ix3 (⟨r + 0, by omega⟩ : Fin 32) i d) (ix3 0 i d) e0 (fun a => by
      match a with
      | ⟨0, _⟩ => show r + 0 = r + 0 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 1, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 1 < r + 7; omega))]
    rw [View.read_writes_cons_unit_of_not_mem _ _ i6 _ _ _ e6 0 (Or.inl (by show r + 1 < r + 6; omega))]
    rw [View.read_writes_cons_unit_of_not_mem _ _ i5 _ _ _ e5 0 (Or.inl (by show r + 1 < r + 5; omega))]
    rw [View.read_writes_cons_unit_of_not_mem _ _ i4 _ _ _ e4 0 (Or.inl (by show r + 1 < r + 4; omega))]
    rw [View.read_writes_cons_unit_of_not_mem _ _ i3 _ _ _ e3 0 (Or.inl (by show r + 1 < r + 3; omega))]
    rw [View.read_writes_cons_unit_of_not_mem _ _ i2 _ _ _ e2 0 (Or.inl (by show r + 1 < r + 2; omega))]
    exact View.read_writes_cons_unit_of_mem (s := S32x256x128) (Memref.whole cc0_scratch4 : Memref sig .tc .vmem S32x256x128 .bf16).view f4 i1 P1 _ (ix3 (⟨r + 1, by omega⟩ : Fin 32) i d) (ix3 0 i d) e1 (fun a => by
      match a with
      | ⟨0, _⟩ => show r + 1 = r + 1 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 2, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 2 < r + 7; omega))]
    rw [View.read_writes_cons_unit_of_not_mem _ _ i6 _ _ _ e6 0 (Or.inl (by show r + 2 < r + 6; omega))]
    rw [View.read_writes_cons_unit_of_not_mem _ _ i5 _ _ _ e5 0 (Or.inl (by show r + 2 < r + 5; omega))]
    rw [View.read_writes_cons_unit_of_not_mem _ _ i4 _ _ _ e4 0 (Or.inl (by show r + 2 < r + 4; omega))]
    rw [View.read_writes_cons_unit_of_not_mem _ _ i3 _ _ _ e3 0 (Or.inl (by show r + 2 < r + 3; omega))]
    exact View.read_writes_cons_unit_of_mem (s := S32x256x128) (Memref.whole cc0_scratch4 : Memref sig .tc .vmem S32x256x128 .bf16).view f4 i2 P2 _ (ix3 (⟨r + 2, by omega⟩ : Fin 32) i d) (ix3 0 i d) e2 (fun a => by
      match a with
      | ⟨0, _⟩ => show r + 2 = r + 2 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 3, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 3 < r + 7; omega))]
    rw [View.read_writes_cons_unit_of_not_mem _ _ i6 _ _ _ e6 0 (Or.inl (by show r + 3 < r + 6; omega))]
    rw [View.read_writes_cons_unit_of_not_mem _ _ i5 _ _ _ e5 0 (Or.inl (by show r + 3 < r + 5; omega))]
    rw [View.read_writes_cons_unit_of_not_mem _ _ i4 _ _ _ e4 0 (Or.inl (by show r + 3 < r + 4; omega))]
    exact View.read_writes_cons_unit_of_mem (s := S32x256x128) (Memref.whole cc0_scratch4 : Memref sig .tc .vmem S32x256x128 .bf16).view f4 i3 P3 _ (ix3 (⟨r + 3, by omega⟩ : Fin 32) i d) (ix3 0 i d) e3 (fun a => by
      match a with
      | ⟨0, _⟩ => show r + 3 = r + 3 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 4, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 4 < r + 7; omega))]
    rw [View.read_writes_cons_unit_of_not_mem _ _ i6 _ _ _ e6 0 (Or.inl (by show r + 4 < r + 6; omega))]
    rw [View.read_writes_cons_unit_of_not_mem _ _ i5 _ _ _ e5 0 (Or.inl (by show r + 4 < r + 5; omega))]
    exact View.read_writes_cons_unit_of_mem (s := S32x256x128) (Memref.whole cc0_scratch4 : Memref sig .tc .vmem S32x256x128 .bf16).view f4 i4 P4 _ (ix3 (⟨r + 4, by omega⟩ : Fin 32) i d) (ix3 0 i d) e4 (fun a => by
      match a with
      | ⟨0, _⟩ => show r + 4 = r + 4 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 5, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 5 < r + 7; omega))]
    rw [View.read_writes_cons_unit_of_not_mem _ _ i6 _ _ _ e6 0 (Or.inl (by show r + 5 < r + 6; omega))]
    exact View.read_writes_cons_unit_of_mem (s := S32x256x128) (Memref.whole cc0_scratch4 : Memref sig .tc .vmem S32x256x128 .bf16).view f4 i5 P5 _ (ix3 (⟨r + 5, by omega⟩ : Fin 32) i d) (ix3 0 i d) e5 (fun a => by
      match a with
      | ⟨0, _⟩ => show r + 5 = r + 5 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 6, by omega⟩ : Fin 32) i d)) ?_
    show (Memref.whole cc0_scratch4 : Memref sig .tc .vmem S32x256x128 .bf16).view.read (Elt F) _ _ = _
    rw [View.read_writes_cons_unit_of_not_mem _ _ i7 _ _ _ e7 0 (Or.inl (by show r + 6 < r + 7; omega))]
    exact View.read_writes_cons_unit_of_mem (s := S32x256x128) (Memref.whole cc0_scratch4 : Memref sig .tc .vmem S32x256x128 .bf16).view f4 i6 P6 _ (ix3 (⟨r + 6, by omega⟩ : Fin 32) i d) (ix3 0 i d) e6 (fun a => by
      match a with
      | ⟨0, _⟩ => show r + 6 = r + 6 + 0; omega
      | ⟨1, _⟩ => show i.val = 0 + i.val; omega
      | ⟨2, _⟩ => show d.val = 0 + d.val; omega)
  · refine Eq.trans (congrFun (View.read_whole (Val := Elt F) cc0_scratch4 _).symm (ix3 (⟨r + 7, by omega⟩ : Fin 32) i d)) ?_
    show (Memref.whole cc0_scratch4 : Memref sig .tc .vmem S32x256x128 .bf16).view.read (Elt F) _ _ = _

    exact View.read_writes_cons_unit_of_mem (s := S32x256x128) (Memref.whole cc0_scratch4 : Memref sig .tc .vmem S32x256x128 .bf16).view f4 i7 P7 _ (ix3 (⟨r + 7, by omega⟩ : Fin 32) i d) (ix3 0 i d) e7 (fun a => by
      match a with
      | ⟨0, _⟩ => show r + 7 = r + 7 + 0; omega
      | ⟨1, _⟩ => show i.val = 0 + i.val; omega
      | ⟨2, _⟩ => show d.val = 0 + d.val; omega)

end Q2

section KVB
variable (c : Dev nD)

set_option maxHeartbeats 4000000 in
/-- Four one-plane tiles written into the narrowed key/value buffer — the keys' and the values' planes `p` and `p + 1`, the
    last written in front: each plane of the written contents reads its tile, whatever the buffer held before. -/
theorem kvb_planes_read_rest (p : ℕ) (hp : p + 2 ≤ 8)
    (oV1 oK1 oV0 oK0 : Fin 4 → ℕ)
    (iV1 : ∀ a, oV1 a + S1x1x1024x128.size a ≤ S2x8x1024x128.size a) (iK1 : ∀ a, oK1 a + S1x1x1024x128.size a ≤ S2x8x1024x128.size a)
    (iV0 : ∀ a, oV0 a + S1x1x1024x128.size a ≤ S2x8x1024x128.size a) (iK0 : ∀ a, oK0 a + S1x1x1024x128.size a ≤ S2x8x1024x128.size a)
    (eV1 : oV1 = ![1, p + 1, 0, 0]) (eK1 : oK1 = ![0, p + 1, 0, 0]) (eV0 : oV0 = ![1, p + 0, 0, 0]) (eK0 : oK0 = ![0, p + 0, 0, 0])
    (f9 : Buf (Elt F) ((c : Thread nD τ).loc cc0_scratch9)) (rest : List (View.Piece (Elt F) S2x8x1024x128 .bf16))
    (PV1 PK1 PV0 PK0 : S1x1x1024x128.Idx → Elt F .bf16) (j : Fin 1024) (d : Fin 128) :
    ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (0 : Fin 2) (⟨p + 0, by omega⟩ : Fin 8) j d) = PK0 (ix4 0 0 j d)
    ∧ ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (1 : Fin 2) (⟨p + 0, by omega⟩ : Fin 8) j d) = PV0 (ix4 0 0 j d)
    ∧ ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (0 : Fin 2) (⟨p + 1, by omega⟩ : Fin 8) j d) = PK1 (ix4 0 0 j d)
    ∧ ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (1 : Fin 2) (⟨p + 1, by omega⟩ : Fin 8) j d) = PV1 (ix4 0 0 j d) := by
  have hit : ∀ (a g : ℕ) (ha : a < 2) (hg : p + g < 8), ∀ x : Fin 4, ((ix4 (⟨a, ha⟩ : Fin 2) (⟨p + g, hg⟩ : Fin 8) j d) x).val = (![a, p + g, 0, 0] : Fin 4 → ℕ) x + ((ix4 (0 : Fin 1) (0 : Fin 1) j d) x).val := fun a g ha hg x => by
    match x with
    | ⟨0, _⟩ => show a = a + 0; omega
    | ⟨1, _⟩ => show p + g = p + g + 0; omega
    | ⟨2, _⟩ => show j.val = 0 + j.val; omega
    | ⟨3, _⟩ => show d.val = 0 + d.val; omega
  refine ⟨?_, ?_, ?_, ?_⟩
  · refine Eq.trans (congrFun (View.read_whole (Val := Elt F) cc0_scratch9 _).symm (ix4 (0 : Fin 2) (⟨p + 0, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 0 (Or.inl (by show 0 < 1; omega))]
    rw [View.read_writes_cons_unit_of_not_mem _ _ iK1 _ _ _ eK1 1 (Or.inl (by show p + 0 < p + 1; omega))]
    rw [View.read_writes_cons_unit_of_not_mem _ _ iV0 _ _ _ eV0 0 (Or.inl (by show 0 < 1; omega))]
    exact View.read_writes_cons_unit_of_mem (s := S2x8x1024x128) (Memref.whole cc0_scratch9 : Memref sig .tc .vmem S2x8x1024x128 .bf16).view f9 iK0 PK0 _ (ix4 (0 : Fin 2) (⟨p + 0, by omega⟩ : Fin 8) j d) (ix4 0 0 j d) eK0 (hit 0 0 (by omega) (by omega))
  · refine Eq.trans (congrFun (View.read_whole (Val := Elt F) cc0_scratch9 _).symm (ix4 (1 : Fin 2) (⟨p + 0, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 1 (Or.inl (by show p + 0 < p + 1; omega))]
    rw [View.read_writes_cons_unit_of_not_mem _ _ iK1 _ _ _ eK1 1 (Or.inl (by show p + 0 < p + 1; omega))]
    exact View.read_writes_cons_unit_of_mem (s := S2x8x1024x128) (Memref.whole cc0_scratch9 : Memref sig .tc .vmem S2x8x1024x128 .bf16).view f9 iV0 PV0 _ (ix4 (1 : Fin 2) (⟨p + 0, by omega⟩ : Fin 8) j d) (ix4 0 0 j d) eV0 (hit 1 0 (by omega) (by omega))
  · refine Eq.trans (congrFun (View.read_whole (Val := Elt F) cc0_scratch9 _).symm (ix4 (0 : Fin 2) (⟨p + 1, by omega⟩ : Fin 8) j d)) ?_
    show (Memref.whole cc0_scratch9 : Memref sig .tc .vmem S2x8x1024x128 .bf16).view.read (Elt F) _ _ = _
    rw [View.read_writes_cons_unit_of_not_mem _ _ iV1 _ _ _ eV1 0 (Or.inl (by show 0 < 1; omega))]
    exact View.read_writes_cons_unit_of_mem (s := S2x8x1024x128) (Memref.whole cc0_scratch9 : Memref sig .tc .vmem S2x8x1024x128 .bf16).view f9 iK1 PK1 _ (ix4 (0 : Fin 2) (⟨p + 1, by omega⟩ : Fin 8) j d) (ix4 0 0 j d) eK1 (hit 0 1 (by omega) (by omega))
  · refine Eq.trans (congrFun (View.read_whole (Val := Elt F) cc0_scratch9 _).symm (ix4 (1 : Fin 2) (⟨p + 1, by omega⟩ : Fin 8) j d)) ?_
    show (Memref.whole cc0_scratch9 : Memref sig .tc .vmem S2x8x1024x128 .bf16).view.read (Elt F) _ _ = _
    exact View.read_writes_cons_unit_of_mem (s := S2x8x1024x128) (Memref.whole cc0_scratch9 : Memref sig .tc .vmem S2x8x1024x128 .bf16).view f9 iV1 PV1 _ (ix4 (1 : Fin 2) (⟨p + 1, by omega⟩ : Fin 8) j d) (ix4 0 0 j d) eV1 (hit 1 1 (by omega) (by omega))

end KVB

section At
variable (m : (ℓ : Loc nD τ sig) → Buf (Elt F) ℓ) (c : Dev nD)

/-- The query rows of a batch, from the eight stored tiles: with tile `h` the batch's projected, scaled and narrowed
    queries of head `h`, row `r + h` of the query buffer reads them. -/
theorem q2rows_rest (B : Fin 4) (r : ℕ) (hr : r + 8 ≤ 32)
    (o0 o1 o2 o3 o4 o5 o6 o7 : Fin 3 → ℕ)
    (i0 : ∀ a, o0 a + S1x256x128.size a ≤ S32x256x128.size a) (i1 : ∀ a, o1 a + S1x256x128.size a ≤ S32x256x128.size a) (i2 : ∀ a, o2 a + S1x256x128.size a ≤ S32x256x128.size a) (i3 : ∀ a, o3 a + S1x256x128.size a ≤ S32x256x128.size a) (i4 : ∀ a, o4 a + S1x256x128.size a ≤ S32x256x128.size a) (i5 : ∀ a, o5 a + S1x256x128.size a ≤ S32x256x128.size a) (i6 : ∀ a, o6 a + S1x256x128.size a ≤ S32x256x128.size a) (i7 : ∀ a, o7 a + S1x256x128.size a ≤ S32x256x128.size a)
    (e0 : o0 = ![r + 0, 0, 0]) (e1 : o1 = ![r + 1, 0, 0]) (e2 : o2 = ![r + 2, 0, 0]) (e3 : o3 = ![r + 3, 0, 0]) (e4 : o4 = ![r + 4, 0, 0]) (e5 : o5 = ![r + 5, 0, 0]) (e6 : o6 = ![r + 6, 0, 0]) (e7 : o7 = ![r + 7, 0, 0])
    (f4 : Buf (Elt F) ((c : Thread nD τ).loc cc0_scratch4)) (rest : List (View.Piece (Elt F) S32x256x128 .bf16))
    (P0 P1 P2 P3 P4 P5 P6 P7 : S1x256x128.Idx → Elt F .bf16)
    (hP0 : P0 = KFun.q2 m c B 0) (hP1 : P1 = KFun.q2 m c B 1) (hP2 : P2 = KFun.q2 m c B 2) (hP3 : P3 = KFun.q2 m c B 3) (hP4 : P4 = KFun.q2 m c B 4) (hP5 : P5 = KFun.q2 m c B 5) (hP6 : P6 = KFun.q2 m c B 6) (hP7 : P7 = KFun.q2 m c B 7)
    (h : Fin 8) (i : Fin 256) (d : Fin 128) :
    ((Memref.whole cc0_scratch4 : Memref sig .tc .vmem S32x256x128 .bf16).view.writes (Elt F) f4 (⟨Rect.unit (s := S32x256x128) o7 S1x256x128.size i7, P7⟩ :: ⟨Rect.unit (s := S32x256x128) o6 S1x256x128.size i6, P6⟩ :: ⟨Rect.unit (s := S32x256x128) o5 S1x256x128.size i5, P5⟩ :: ⟨Rect.unit (s := S32x256x128) o4 S1x256x128.size i4, P4⟩ :: ⟨Rect.unit (s := S32x256x128) o3 S1x256x128.size i3, P3⟩ :: ⟨Rect.unit (s := S32x256x128) o2 S1x256x128.size i2, P2⟩ :: ⟨Rect.unit (s := S32x256x128) o1 S1x256x128.size i1, P1⟩ :: ⟨Rect.unit (s := S32x256x128) o0 S1x256x128.size i0, P0⟩ :: rest)) (ix3 (⟨r + h.val, by have := h.isLt; omega⟩ : Fin 32) i d)
      = KFun.q2 m c B h (ix3 0 i d) := by
  obtain ⟨a0, a1, a2, a3, a4, a5, a6, a7⟩ := q2_rows_read_rest c r hr o0 o1 o2 o3 o4 o5 o6 o7 i0 i1 i2 i3 i4 i5 i6 i7 e0 e1 e2 e3 e4 e5 e6 e7 f4 rest P0 P1 P2 P3 P4 P5 P6 P7 i d
  match h with
  | ⟨0, _⟩ => exact a0.trans (congrFun hP0 _)
  | ⟨1, _⟩ => exact a1.trans (congrFun hP1 _)
  | ⟨2, _⟩ => exact a2.trans (congrFun hP2 _)
  | ⟨3, _⟩ => exact a3.trans (congrFun hP3 _)
  | ⟨4, _⟩ => exact a4.trans (congrFun hP4 _)
  | ⟨5, _⟩ => exact a5.trans (congrFun hP5 _)
  | ⟨6, _⟩ => exact a6.trans (congrFun hP6 _)
  | ⟨7, _⟩ => exact a7.trans (congrFun hP7 _)

/-- The narrowed key and value planes of a batch, from the four stored tiles. -/
theorem kvrows_rest (B : Fin 4) (p : ℕ) (hp : p + 2 ≤ 8)
    (oV1 oK1 oV0 oK0 : Fin 4 → ℕ)
    (iV1 : ∀ a, oV1 a + S1x1x1024x128.size a ≤ S2x8x1024x128.size a) (iK1 : ∀ a, oK1 a + S1x1x1024x128.size a ≤ S2x8x1024x128.size a)
    (iV0 : ∀ a, oV0 a + S1x1x1024x128.size a ≤ S2x8x1024x128.size a) (iK0 : ∀ a, oK0 a + S1x1x1024x128.size a ≤ S2x8x1024x128.size a)
    (eV1 : oV1 = ![1, p + 1, 0, 0]) (eK1 : oK1 = ![0, p + 1, 0, 0]) (eV0 : oV0 = ![1, p + 0, 0, 0]) (eK0 : oK0 = ![0, p + 0, 0, 0])
    (f9 : Buf (Elt F) ((c : Thread nD τ).loc cc0_scratch9)) (rest : List (View.Piece (Elt F) S2x8x1024x128 .bf16))
    (PV1 PK1 PV0 PK0 : S1x1x1024x128.Idx → Elt F .bf16)
    (hK0 : PK0 = KFun.kh m c B 0) (hV0 : PV0 = KFun.vh m c B 0) (hK1 : PK1 = KFun.kh m c B 1) (hV1 : PV1 = KFun.vh m c B 1)
    (g : Fin 2) (j : Fin 1024) (d : Fin 128) :
    ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (0 : Fin 2) (⟨p + g.val, by have := g.isLt; omega⟩ : Fin 8) j d) = KFun.kh m c B g (ix4 0 0 j d)
    ∧ ((Memref.whole cc0_scratch9 : Memref sig .tc .vmem S2x8x1024x128 .bf16).view.writes (Elt F) f9 (⟨Rect.unit (s := S2x8x1024x128) oV1 S1x1x1024x128.size iV1, PV1⟩ :: ⟨Rect.unit (s := S2x8x1024x128) oK1 S1x1x1024x128.size iK1, PK1⟩ :: ⟨Rect.unit (s := S2x8x1024x128) oV0 S1x1x1024x128.size iV0, PV0⟩ :: ⟨Rect.unit (s := S2x8x1024x128) oK0 S1x1x1024x128.size iK0, PK0⟩ :: rest)) (ix4 (1 : Fin 2) (⟨p + g.val, by have := g.isLt; omega⟩ : Fin 8) j d) = KFun.vh m c B g (ix4 0 0 j d) := by
  obtain ⟨aK0, aV0, aK1, aV1⟩ := kvb_planes_read_rest c p hp oV1 oK1 oV0 oK0 iV1 iK1 iV0 iK0 eV1 eK1 eV0 eK0 f9 rest PV1 PK1 PV0 PK0 j d
  match g with
  | ⟨0, _⟩ => exact ⟨aK0.trans (congrFun hK0 _), aV0.trans (congrFun hV0 _)⟩
  | ⟨1, _⟩ => exact ⟨aK1.trans (congrFun hK1 _), aV1.trans (congrFun hV1 _)⟩

end At

section Last
variable (m : (ℓ : Loc nD τ sig) → Buf (Elt F) ℓ) (c : Dev nD)

/-- The query rows of a batch when only head 7's tile is written over contents whose rows `r … r + 6` already hold heads
    0–6. -/
theorem q2rows_last (B : Fin 4) (r : ℕ) (hr : r + 8 ≤ 32)
    (o7 : Fin 3 → ℕ) (i7 : ∀ a, o7 a + S1x256x128.size a ≤ S32x256x128.size a) (e7 : o7 = ![r + 7, 0, 0])
    (f4 : Buf (Elt F) ((c : Thread nD τ).loc cc0_scratch4)) (rest : List (View.Piece (Elt F) S32x256x128 .bf16)) (hrest : rest = [])
    (P7 : S1x256x128.Idx → Elt F .bf16) (hP7 : P7 = KFun.q2 m c B 7)
    (hq2 : ∀ (h : Fin 8), h.val < 7 → ∀ (i : Fin 256) (d : Fin 128),
      f4 (ix3 (⟨r + h.val, by omega⟩ : Fin 32) i d) = KFun.q2 m c B h (ix3 0 i d))
    (h : Fin 8) (i : Fin 256) (d : Fin 128) :
    ((Memref.whole cc0_scratch4 : Memref sig .tc .vmem S32x256x128 .bf16).view.writes (Elt F) f4 (⟨Rect.unit (s := S32x256x128) o7 S1x256x128.size i7, P7⟩ :: rest)) (ix3 (⟨r + h.val, by have := h.isLt; omega⟩ : Fin 32) i d)
      = KFun.q2 m c B h (ix3 0 i d) := by
  subst hrest
  refine Eq.trans (congrFun (View.read_whole (Val := Elt F) cc0_scratch4 _).symm (ix3 (⟨r + h.val, by have := h.isLt; omega⟩ : Fin 32) i d)) ?_
  show (Memref.whole cc0_scratch4 : Memref sig .tc .vmem S32x256x128 .bf16).view.read (Elt F) _ _ = _
  by_cases h7 : h.val < 7
  · rw [View.read_writes_cons_unit_of_not_mem _ _ i7 _ _ _ e7 0 (Or.inl (by show r + h.val < r + 7; omega))]
    exact hq2 h h7 i d
  · have e : h = 7 := Fin.ext (by have := h.isLt; show h.val = 7; omega)
    subst e
    exact (View.read_writes_cons_unit_of_mem (s := S32x256x128) (Memref.whole cc0_scratch4 : Memref sig .tc .vmem S32x256x128 .bf16).view f4 i7 P7 [] (ix3 (⟨r + 7, by omega⟩ : Fin 32) i d) (ix3 0 i d) e7 (fun a => by
      match a with
      | ⟨0, _⟩ => show r + 7 = r + 7 + 0; omega
      | ⟨1, _⟩ => show i.val = 0 + i.val; omega
      | ⟨2, _⟩ => show d.val = 0 + d.val; omega)).trans (congrFun hP7 _)

end Last

section Batches
variable (m : (ℓ : Loc nD τ sig) → Buf (Elt F) ℓ) (c : Dev nD)

set_option maxHeartbeats 4000000 in
/-- The query rows of batch `c + 2` from its eight stored tiles, whatever lies under them. -/
theorem q2rows_w2 (f4 : Buf (Elt F) ((c : Thread nD τ).loc cc0_scratch4)) (rest : List (View.Piece (Elt F) S32x256x128 .bf16))
    (X : Vec F S1x256x1024 .f32) (Wq : Vec F S1024x1024 .bf16) (r1 : FVec F S256x1024 .f32) (r2 : FVec F S256x128 .bf16) (r3 : FVec F S256x128 .bf16)
    (hX : X = KFun.xblk m c (nxt (nxt c))) (hW : Wq = KFun.wqb m c) (hr1 : r1 = k0_pay45 X Wq) (hr2 : r2 = k0_pay49 X Wq) (hr3 : r3 = k0_pay54 r1)
    (h : Fin 8) (i : Fin 256) (d : Fin 128) :
    ((Memref.whole cc0_scratch4 : Memref sig .tc .vmem S32x256x128 .bf16).view.writes (Elt F) f4 (⟨Rect.unit (s := S32x256x128) (k0_off25 c 2#32 7#32) S1x256x128.size (k0_off25_inb c 1 7), k0_pay55 r3⟩ :: ⟨Rect.unit (s := S32x256x128) (k0_off25 c 2#32 6#32) S1x256x128.size (k0_off25_inb c 1 6), k0_pay53 r1⟩ :: ⟨Rect.unit (s := S32x256x128) (k0_off25 c 2#32 5#32) S1x256x128.size (k0_off25_inb c 1 5), k0_pay52 r1⟩ :: ⟨Rect.unit (s := S32x256x128) (k0_off25 c 2#32 4#32) S1x256x128.size (k0_off25_inb c 1 4), k0_pay51 r1⟩ :: ⟨Rect.unit (s := S32x256x128) (k0_off25 c 2#32 3#32) S1x256x128.size (k0_off25_inb c 1 3), k0_pay50 r2⟩ :: ⟨Rect.unit (s := S32x256x128) (k0_off25 c 2#32 2#32) S1x256x128.size (k0_off25_inb c 1 2), k0_pay48 X Wq⟩ :: ⟨Rect.unit (s := S32x256x128) (k0_off25 c 2#32 1#32) S1x256x128.size (k0_off25_inb c 1 1), k0_pay47 X Wq⟩ :: ⟨Rect.unit (s := S32x256x128) (k0_off25 c 2#32 0#32) S1x256x128.size (k0_off25_inb c 1 0), k0_pay46 X Wq⟩ :: rest))
        (ix3 (⟨8 * ((c.val + 2) % 4) + h.val, by have := h.isLt; omega⟩ : Fin 32) i d)
      = KFun.q2 m c (nxt (nxt c)) h (ix3 0 i d) := by
  subst_vars
  exact q2rows_rest m c (nxt (nxt c)) (8 * ((c.val + 2) % 4)) (by omega) _ _ _ _ _ _ _ _ _ _ _ _ _ _ _ _
    (off25_eq c 1 0) (off25_eq c 1 1) (off25_eq c 1 2) (off25_eq c 1 3) (off25_eq c 1 4) (off25_eq c 1 5) (off25_eq c 1 6) (off25_eq c 1 7) f4 rest _ _ _ _ _ _ _ _
    rfl rfl rfl rfl rfl rfl rfl rfl h i d

set_option maxHeartbeats 4000000 in
/-- The query rows of batch `c + 3`. -/
theorem q2rows_w3 (f4 : Buf (Elt F) ((c : Thread nD τ).loc cc0_scratch4)) (rest : List (View.Piece (Elt F) S32x256x128 .bf16))
    (X : Vec F S1x256x1024 .f32) (Wq : Vec F S1024x1024 .bf16) (r5 : FVec F S256x1024 .bf16) (r6 : FVec F S256x1024 .f32)
    (hX : X = KFun.xblk m c (prv c)) (hW : Wq = KFun.wqb m c) (hr5 : r5 = k0_pay63 X) (hr6 : r6 = k0_pay64 r5 Wq)
    (h : Fin 8) (i : Fin 256) (d : Fin 128) :
    ((Memref.whole cc0_scratch4 : Memref sig .tc .vmem S32x256x128 .bf16).view.writes (Elt F) f4 (⟨Rect.unit (s := S32x256x128) (k0_off25 c 3#32 7#32) S1x256x128.size (k0_off25_inb c 2 7), k0_pay72 r6⟩ :: ⟨Rect.unit (s := S32x256x128) (k0_off25 c 3#32 6#32) S1x256x128.size (k0_off25_inb c 2 6), k0_pay71 r6⟩ :: ⟨Rect.unit (s := S32x256x128) (k0_off25 c 3#32 5#32) S1x256x128.size (k0_off25_inb c 2 5), k0_pay70 r6⟩ :: ⟨Rect.unit (s := S32x256x128) (k0_off25 c 3#32 4#32) S1x256x128.size (k0_off25_inb c 2 4), k0_pay69 r6⟩ :: ⟨Rect.unit (s := S32x256x128) (k0_off25 c 3#32 3#32) S1x256x128.size (k0_off25_inb c 2 3), k0_pay68 r5 Wq⟩ :: ⟨Rect.unit (s := S32x256x128) (k0_off25 c 3#32 2#32) S1x256x128.size (k0_off25_inb c 2 2), k0_pay67 r5 Wq⟩ :: ⟨Rect.unit (s := S32x256x128) (k0_off25 c 3#32 1#32) S1x256x128.size (k0_off25_inb c 2 1), k0_pay66 r5 Wq⟩ :: ⟨Rect.unit (s := S32x256x128) (k0_off25 c 3#32 0#32) S1x256x128.size (k0_off25_inb c 2 0), k0_pay65 r5 Wq⟩ :: rest))
        (ix3 (⟨8 * ((c.val + 3) % 4) + h.val, by have := h.isLt; omega⟩ : Fin 32) i d)
      = KFun.q2 m c (prv c) h (ix3 0 i d) := by
  subst_vars
  exact q2rows_rest m c (prv c) (8 * ((c.val + 3) % 4)) (by omega) _ _ _ _ _ _ _ _ _ _ _ _ _ _ _ _
    (off25_eq c 2 0) (off25_eq c 2 1) (off25_eq c 2 2) (off25_eq c 2 3) (off25_eq c 2 4) (off25_eq c 2 5) (off25_eq c 2 6) (off25_eq c 2 7) f4 rest _ _ _ _ _ _ _ _
    rfl rfl rfl rfl rfl rfl rfl rfl h i d

set_option maxHeartbeats 4000000 in
/-- The query rows of batch `c + 1`. -/
theorem q2rows_w1 (f4 : Buf (Elt F) ((c : Thread nD τ).loc cc0_scratch4)) (rest : List (View.Piece (Elt F) S32x256x128 .bf16))
    (X : Vec F S1x256x1024 .f32) (Wq : Vec F S1024x1024 .bf16) (r1 : FVec F S256x1024 .f32) (r2 : FVec F S256x128 .bf16) (P0 : FVec F S1x256x128 .bf16)
    (hX : X = KFun.xblk m c (nxt c)) (hW : Wq = KFun.wqb m c) (hr1 : r1 = k0_pay84 X Wq) (hr2 : r2 = k0_pay90 r1) (hP0 : P0 = k0_pay85 X Wq)
    (h : Fin 8) (i : Fin 256) (d : Fin 128) :
    ((Memref.whole cc0_scratch4 : Memref sig .tc .vmem S32x256x128 .bf16).view.writes (Elt F) f4 (⟨Rect.unit (s := S32x256x128) (k0_off25 c 1#32 7#32) S1x256x128.size (k0_off25_inb c 0 7), k0_pay93 r1⟩ :: ⟨Rect.unit (s := S32x256x128) (k0_off25 c 1#32 6#32) S1x256x128.size (k0_off25_inb c 0 6), k0_pay92 r1⟩ :: ⟨Rect.unit (s := S32x256x128) (k0_off25 c 1#32 5#32) S1x256x128.size (k0_off25_inb c 0 5), k0_pay91 r2⟩ :: ⟨Rect.unit (s := S32x256x128) (k0_off25 c 1#32 4#32) S1x256x128.size (k0_off25_inb c 0 4), k0_pay89 r1⟩ :: ⟨Rect.unit (s := S32x256x128) (k0_off25 c 1#32 3#32) S1x256x128.size (k0_off25_inb c 0 3), k0_pay88 r1⟩ :: ⟨Rect.unit (s := S32x256x128) (k0_off25 c 1#32 2#32) S1x256x128.size (k0_off25_inb c 0 2), k0_pay87 r1⟩ :: ⟨Rect.unit (s := S32x256x128) (k0_off25 c 1#32 1#32) S1x256x128.size (k0_off25_inb c 0 1), k0_pay86 r1⟩ :: ⟨Rect.unit (s := S32x256x128) (k0_off25 c 1#32 0#32) S1x256x128.size (k0_off25_inb c 0 0), P0⟩ :: rest))
        (ix3 (⟨8 * ((c.val + 1) % 4) + h.val, by have := h.isLt; omega⟩ : Fin 32) i d)
      = KFun.q2 m c (nxt c) h (ix3 0 i d) := by
  subst_vars
  exact q2rows_rest m c (nxt c) (8 * ((c.val + 1) % 4)) (by omega) _ _ _ _ _ _ _ _ _ _ _ _ _ _ _ _
    (off25_eq c 0 0) (off25_eq c 0 1) (off25_eq c 0 2) (off25_eq c 0 3) (off25_eq c 0 4) (off25_eq c 0 5) (off25_eq c 0 6) (off25_eq c 0 7) f4 rest _ _ _ _ _ _ _ _
    rfl rfl rfl rfl rfl rfl rfl rfl h i d

end Batches

section Loads
variable (m : (ℓ : Loc nD τ sig) → Buf (Elt F) ℓ) (c : Dev nD)

theorem nxt_val : ∀ c : Dev nD, (nxt c).val = (c.val + 1) % 4 := by decide
theorem nxt2_val : ∀ c : Dev nD, (nxt (nxt c)).val = (c.val + 2) % 4 := by decide
theorem prv_val : ∀ c : Dev nD, (prv c).val = (c.val + 3) % 4 := by decide

/-- The offsets of the three later batches' tiles of `x`, by the batch. -/
theorem off24_w1 : k0_off24 c 1#32 = ![(nxt c).val, 0, 0] := (off24_eq c 0).trans (by rw [nxt_val]; rfl)
theorem off24_w2 : k0_off24 c 2#32 = ![(nxt (nxt c)).val, 0, 0] := (off24_eq c 1).trans (by rw [nxt2_val]; rfl)
theorem off24_w3 : k0_off24 c 3#32 = ![(prv c).val, 0, 0] := (off24_eq c 2).trans (by rw [prv_val]; rfl)

/-- The narrowed query weights as the projection loads them: the whole buffer. -/
theorem wqb_load (w : Buf (Elt F) ((c : Thread nD τ).loc cc0_scratch7)) :
    View.readAt (Elt F) (Memref.whole cc0_scratch7 : Memref sig .tc .vmem S1024x1024 .bf16).view (Rect.unit (s := S1024x1024) ![0, 0] S1024x1024.size inb_S1024x1024_S1024x1024_0_0).toLoadRect w = w := by
  funext s
  rw [View.readAt_apply, View.read_apply]
  show w _ = w _
  refine congrArg w (funext fun x => Fin.ext ?_)
  match x with
  | ⟨0, _⟩ => show 0 + 1 * (s 0).val = (s 0).val; omega
  | ⟨1, _⟩ => show 0 + 1 * (s 1).val = (s 1).val; omega

/-- The staged `x` is the launch memory's. -/
theorem stage0_eq (b' : Fin 4) (i : Fin 256) (n : Fin 1024) :
    ((dats (KFun.V m) m KFun.Kout 0 c).after 0 t0_0) (ix3 b' i n) = KFun.X m c (ix3 b' i n) := by
  show ((cfg0.win 0).blk t0_0).view.read (Elt F) (m ((c : Thread nD τ).loc main_arg0)) (ix3 b' i n) = m ((c : Thread nD τ).loc main_arg0) (ix3 b' i n)
  rw [View.read_apply]
  show (m ((c : Thread nD τ).loc main_arg0)) _ = (m ((c : Thread nD τ).loc main_arg0)) _
  refine congrArg _ (funext fun a => Fin.ext ?_)
  match a with
  | ⟨0, _⟩ => show 0 + 1 * b'.val = b'.val; omega
  | ⟨1, _⟩ => show 0 + 1 * i.val = i.val; omega
  | ⟨2, _⟩ => show 0 + 1 * n.val = n.val; omega

end Loads

section KVBatches
variable (m : (ℓ : Loc nD τ sig) → Buf (Elt F) ℓ) (c : Dev nD)

set_option maxHeartbeats 4000000 in
/-- The narrowed key and value planes of batch `c + 2` from its four stored tiles, whatever lies under them. -/
theorem kvrows_w2 (f9 : Buf (Elt F) ((c : Thread nD τ).loc cc0_scratch9)) (rest : List (View.Piece (Elt F) S2x8x1024x128 .bf16))
    (vK0 vV0 vK1 vV1 : Vec F S1x1x1024x128 .f32) (rV1 : FVec F S1024x128 .bf16)
    (hK0 : vK0 = KFun.kslice m c (nxt (nxt c)) 0) (hV0 : vV0 = KFun.vslice m c (nxt (nxt c)) 0)
    (hK1 : vK1 = KFun.kslice m c (nxt (nxt c)) 1) (hV1 : vV1 = KFun.vslice m c (nxt (nxt c)) 1) (hrV1 : rV1 = k0_pay43 vV1)
    (g : Fin 2) (j : Fin 1024) (d : Fin 128) :
    ((Memref.whole cc0_scratch9 : Memref sig .tc .vmem S2x8x1024x128 .bf16).view.writes (Elt F) f9 (⟨Rect.unit (s := S2x8x1024x128) (k0_off23 c 2#32 1#32) S1x1x1024x128.size (k0_off23_inb c 1 1), k0_pay44 rV1⟩ :: ⟨Rect.unit (s := S2x8x1024x128) (k0_off22 c 2#32 1#32) S1x1x1024x128.size (k0_off22_inb c 1 1), k0_pay42 vK1⟩ :: ⟨Rect.unit (s := S2x8x1024x128) (k0_off23 c 2#32 0#32) S1x1x1024x128.size (k0_off23_inb c 1 0), k0_pay41 vV0⟩ :: ⟨Rect.unit (s := S2x8x1024x128) (k0_off22 c 2#32 0#32) S1x1x1024x128.size (k0_off22_inb c 1 0), k0_pay40 vK0⟩ :: rest))
        (ix4 (0 : Fin 2) (⟨2 * ((c.val + 2) % 4) + g.val, by have := g.isLt; omega⟩ : Fin 8) j d) = KFun.kh m c (nxt (nxt c)) g (ix4 0 0 j d)
    ∧ ((Memref.whole cc0_scratch9 : Memref sig .tc .vmem S2x8x1024x128 .bf16).view.writes (Elt F) f9 (⟨Rect.unit (s := S2x8x1024x128) (k0_off23 c 2#32 1#32) S1x1x1024x128.size (k0_off23_inb c 1 1), k0_pay44 rV1⟩ :: ⟨Rect.unit (s := S2x8x1024x128) (k0_off22 c 2#32 1#32) S1x1x1024x128.size (k0_off22_inb c 1 1), k0_pay42 vK1⟩ :: ⟨Rect.unit (s := S2x8x1024x128) (k0_off23 c 2#32 0#32) S1x1x1024x128.size (k0_off23_inb c 1 0), k0_pay41 vV0⟩ :: ⟨Rect.unit (s := S2x8x1024x128) (k0_off22 c 2#32 0#32) S1x1x1024x128.size (k0_off22_inb c 1 0), k0_pay40 vK0⟩ :: rest))
        (ix4 (1 : Fin 2) (⟨2 * ((c.val + 2) % 4) + g.val, by have := g.isLt; omega⟩ : Fin 8) j d) = KFun.vh m c (nxt (nxt c)) g (ix4 0 0 j d) := by
  subst_vars
  exact kvrows_rest m c (nxt (nxt c)) (2 * ((c.val + 2) % 4)) (by omega) _ _ _ _ _ _ _ _
    (off23_eq c 1 1) (off22_eq c 1 1) (off23_eq c 1 0) (off22_eq c 1 0) f9 rest _ _ _ _ rfl rfl rfl rfl g j d

set_option maxHeartbeats 4000000 in
/-- The narrowed key and value planes of batch `c + 3`. -/
theorem kvrows_w3 (f9 : Buf (Elt F) ((c : Thread nD τ).loc cc0_scratch9)) (rest : List (View.Piece (Elt F) S2x8x1024x128 .bf16))
    (vK0 vV0 vK1 vV1 : Vec F S1x1x1024x128 .f32) (rV0 : FVec F S1024x128 .bf16)
    (hK0 : vK0 = KFun.kslice m c (prv c) 0) (hV0 : vV0 = KFun.vslice m c (prv c) 0)
    (hK1 : vK1 = KFun.kslice m c (prv c) 1) (hV1 : vV1 = KFun.vslice m c (prv c) 1) (hrV0 : rV0 = k0_pay59 vV0)
    (g : Fin 2) (j : Fin 1024) (d : Fin 128) :
    ((Memref.whole cc0_scratch9 : Memref sig .tc .vmem S2x8x1024x128 .bf16).view.writes (Elt F) f9 (⟨Rect.unit (s := S2x8x1024x128) (k0_off23 c 3#32 1#32) S1x1x1024x128.size (k0_off23_inb c 2 1), k0_pay62 vV1⟩ :: ⟨Rect.unit (s := S2x8x1024x128) (k0_off22 c 3#32 1#32) S1x1x1024x128.size (k0_off22_inb c 2 1), k0_pay61 vK1⟩ :: ⟨Rect.unit (s := S2x8x1024x128) (k0_off23 c 3#32 0#32) S1x1x1024x128.size (k0_off23_inb c 2 0), k0_pay60 rV0⟩ :: ⟨Rect.unit (s := S2x8x1024x128) (k0_off22 c 3#32 0#32) S1x1x1024x128.size (k0_off22_inb c 2 0), k0_pay58 vK0⟩ :: rest))
        (ix4 (0 : Fin 2) (⟨2 * ((c.val + 3) % 4) + g.val, by have := g.isLt; omega⟩ : Fin 8) j d) = KFun.kh m c (prv c) g (ix4 0 0 j d)
    ∧ ((Memref.whole cc0_scratch9 : Memref sig .tc .vmem S2x8x1024x128 .bf16).view.writes (Elt F) f9 (⟨Rect.unit (s := S2x8x1024x128) (k0_off23 c 3#32 1#32) S1x1x1024x128.size (k0_off23_inb c 2 1), k0_pay62 vV1⟩ :: ⟨Rect.unit (s := S2x8x1024x128) (k0_off22 c 3#32 1#32) S1x1x1024x128.size (k0_off22_inb c 2 1), k0_pay61 vK1⟩ :: ⟨Rect.unit (s := S2x8x1024x128) (k0_off23 c 3#32 0#32) S1x1x1024x128.size (k0_off23_inb c 2 0), k0_pay60 rV0⟩ :: ⟨Rect.unit (s := S2x8x1024x128) (k0_off22 c 3#32 0#32) S1x1x1024x128.size (k0_off22_inb c 2 0), k0_pay58 vK0⟩ :: rest))
        (ix4 (1 : Fin 2) (⟨2 * ((c.val + 3) % 4) + g.val, by have := g.isLt; omega⟩ : Fin 8) j d) = KFun.vh m c (prv c) g (ix4 0 0 j d) := by
  subst_vars
  exact kvrows_rest m c (prv c) (2 * ((c.val + 3) % 4)) (by omega) _ _ _ _ _ _ _ _
    (off23_eq c 2 1) (off22_eq c 2 1) (off23_eq c 2 0) (off22_eq c 2 0) f9 rest _ _ _ _ rfl rfl rfl rfl g j d

set_option maxHeartbeats 4000000 in
/-- The narrowed key and value planes of batch `c + 1`. -/
theorem kvrows_w1 (f9 : Buf (Elt F) ((c : Thread nD τ).loc cc0_scratch9)) (rest : List (View.Piece (Elt F) S2x8x1024x128 .bf16))
    (vK0 vV0 vK1 vV1 : Vec F S1x1x1024x128 .f32) (rK1 : FVec F S1024x128 .bf16)
    (hK0 : vK0 = KFun.kslice m c (nxt c) 0) (hV0 : vV0 = KFun.vslice m c (nxt c) 0)
    (hK1 : vK1 = KFun.kslice m c (nxt c) 1) (hV1 : vV1 = KFun.vslice m c (nxt c) 1) (hrK1 : rK1 = k0_pay81 vK1)
    (g : Fin 2) (j : Fin 1024) (d : Fin 128) :
    ((Memref.whole cc0_scratch9 : Memref sig .tc .vmem S2x8x1024x128 .bf16).view.writes (Elt F) f9 (⟨Rect.unit (s := S2x8x1024x128) (k0_off23 c 1#32 1#32) S1x1x1024x128.size (k0_off23_inb c 0 1), k0_pay83 vV1⟩ :: ⟨Rect.unit (s := S2x8x1024x128) (k0_off22 c 1#32 1#32) S1x1x1024x128.size (k0_off22_inb c 0 1), k0_pay82 rK1⟩ :: ⟨Rect.unit (s := S2x8x1024x128) (k0_off23 c 1#32 0#32) S1x1x1024x128.size (k0_off23_inb c 0 0), k0_pay80 vV0⟩ :: ⟨Rect.unit (s := S2x8x1024x128) (k0_off22 c 1#32 0#32) S1x1x1024x128.size (k0_off22_inb c 0 0), k0_pay79 vK0⟩ :: rest))
        (ix4 (0 : Fin 2) (⟨2 * ((c.val + 1) % 4) + g.val, by have := g.isLt; omega⟩ : Fin 8) j d) = KFun.kh m c (nxt c) g (ix4 0 0 j d)
    ∧ ((Memref.whole cc0_scratch9 : Memref sig .tc .vmem S2x8x1024x128 .bf16).view.writes (Elt F) f9 (⟨Rect.unit (s := S2x8x1024x128) (k0_off23 c 1#32 1#32) S1x1x1024x128.size (k0_off23_inb c 0 1), k0_pay83 vV1⟩ :: ⟨Rect.unit (s := S2x8x1024x128) (k0_off22 c 1#32 1#32) S1x1x1024x128.size (k0_off22_inb c 0 1), k0_pay82 rK1⟩ :: ⟨Rect.unit (s := S2x8x1024x128) (k0_off23 c 1#32 0#32) S1x1x1024x128.size (k0_off23_inb c 0 0), k0_pay80 vV0⟩ :: ⟨Rect.unit (s := S2x8x1024x128) (k0_off22 c 1#32 0#32) S1x1x1024x128.size (k0_off22_inb c 0 0), k0_pay79 vK0⟩ :: rest))
        (ix4 (1 : Fin 2) (⟨2 * ((c.val + 1) % 4) + g.val, by have := g.isLt; omega⟩ : Fin 8) j d) = KFun.vh m c (nxt c) g (ix4 0 0 j d) := by
  subst_vars
  exact kvrows_rest m c (nxt c) (2 * ((c.val + 1) % 4)) (by omega) _ _ _ _ _ _ _ _
    (off23_eq c 0 1) (off22_eq c 0 1) (off23_eq c 0 0) (off22_eq c 0 0) f9 rest _ _ _ _ rfl rfl rfl rfl g j d

end KVBatches

section KVBatchesP
variable (m : (ℓ : Loc nD τ sig) → Buf (Elt F) ℓ) (c : Dev nD)

/-- The batches by their distance from the device's own. -/
theorem bIdx_one : ∀ c : Dev nD, bIdx c 1 = nxt c := by decide
theorem bIdx_two : ∀ c : Dev nD, bIdx c 2 = nxt (nxt c) := by decide
theorem bIdx_three : ∀ c : Dev nD, bIdx c 3 = prv c := by decide
theorem bIdx_zero : ∀ c : Dev nD, bIdx c 0 = c := by decide

set_option maxHeartbeats 4000000 in
/-- The same of batch `c + 2` from the narrowed planes' values. -/
theorem kvrows_w2p (f9 : Buf (Elt F) ((c : Thread nD τ).loc cc0_scratch9)) (rest : List (View.Piece (Elt F) S2x8x1024x128 .bf16))
    (vK0 vV0 vK1 vV1 : Vec F S1x1x1024x128 .f32) (rV1 : FVec F S1024x128 .bf16)
    (hK0 : k0_pay25 vK0 = KFun.kh m c (nxt (nxt c)) 0) (hV0 : k0_pay25 vV0 = KFun.vh m c (nxt (nxt c)) 0)
    (hK1 : k0_pay25 vK1 = KFun.kh m c (nxt (nxt c)) 1) (hV1 : k0_pay25 vV1 = KFun.vh m c (nxt (nxt c)) 1) (hrV1 : rV1 = k0_pay43 vV1)
    (g : Fin 2) (j : Fin 1024) (d : Fin 128) :
    ((Memref.whole cc0_scratch9 : Memref sig .tc .vmem S2x8x1024x128 .bf16).view.writes (Elt F) f9 (⟨Rect.unit (s := S2x8x1024x128) (k0_off23 c 2#32 1#32) S1x1x1024x128.size (k0_off23_inb c 1 1), k0_pay44 rV1⟩ :: ⟨Rect.unit (s := S2x8x1024x128) (k0_off22 c 2#32 1#32) S1x1x1024x128.size (k0_off22_inb c 1 1), k0_pay42 vK1⟩ :: ⟨Rect.unit (s := S2x8x1024x128) (k0_off23 c 2#32 0#32) S1x1x1024x128.size (k0_off23_inb c 1 0), k0_pay41 vV0⟩ :: ⟨Rect.unit (s := S2x8x1024x128) (k0_off22 c 2#32 0#32) S1x1x1024x128.size (k0_off22_inb c 1 0), k0_pay40 vK0⟩ :: rest))
        (ix4 (0 : Fin 2) (⟨2 * ((c.val + 2) % 4) + g.val, by have := g.isLt; omega⟩ : Fin 8) j d) = KFun.kh m c (nxt (nxt c)) g (ix4 0 0 j d)
    ∧ ((Memref.whole cc0_scratch9 : Memref sig .tc .vmem S2x8x1024x128 .bf16).view.writes (Elt F) f9 (⟨Rect.unit (s := S2x8x1024x128) (k0_off23 c 2#32 1#32) S1x1x1024x128.size (k0_off23_inb c 1 1), k0_pay44 rV1⟩ :: ⟨Rect.unit (s := S2x8x1024x128) (k0_off22 c 2#32 1#32) S1x1x1024x128.size (k0_off22_inb c 1 1), k0_pay42 vK1⟩ :: ⟨Rect.unit (s := S2x8x1024x128) (k0_off23 c 2#32 0#32) S1x1x1024x128.size (k0_off23_inb c 1 0), k0_pay41 vV0⟩ :: ⟨Rect.unit (s := S2x8x1024x128) (k0_off22 c 2#32 0#32) S1x1x1024x128.size (k0_off22_inb c 1 0), k0_pay40 vK0⟩ :: rest))
        (ix4 (1 : Fin 2) (⟨2 * ((c.val + 2) % 4) + g.val, by have := g.isLt; omega⟩ : Fin 8) j d) = KFun.vh m c (nxt (nxt c)) g (ix4 0 0 j d) := by
  subst hrV1
  exact kvrows_rest m c (nxt (nxt c)) (2 * ((c.val + 2) % 4)) (by omega) _ _ _ _ _ _ _ _
    (off23_eq c 1 1) (off22_eq c 1 1) (off23_eq c 1 0) (off22_eq c 1 0) f9 rest _ _ _ _
    ((kv_pay40 vK0).trans hK0) ((kv_pay41 vV0).trans hV0) ((kv_pay42 vK1).trans hK1) ((kv_pay44 vV1).trans hV1) g j d

set_option maxHeartbeats 4000000 in
/-- The same of batch `c + 3`. -/
theorem kvrows_w3p (f9 : Buf (Elt F) ((c : Thread nD τ).loc cc0_scratch9)) (rest : List (View.Piece (Elt F) S2x8x1024x128 .bf16))
    (vK0 vV0 vK1 vV1 : Vec F S1x1x1024x128 .f32) (rV0 : FVec F S1024x128 .bf16)
    (hK0 : k0_pay25 vK0 = KFun.kh m c (prv c) 0) (hV0 : k0_pay25 vV0 = KFun.vh m c (prv c) 0)
    (hK1 : k0_pay25 vK1 = KFun.kh m c (prv c) 1) (hV1 : k0_pay25 vV1 = KFun.vh m c (prv c) 1) (hrV0 : rV0 = k0_pay59 vV0)
    (g : Fin 2) (j : Fin 1024) (d : Fin 128) :
    ((Memref.whole cc0_scratch9 : Memref sig .tc .vmem S2x8x1024x128 .bf16).view.writes (Elt F) f9 (⟨Rect.unit (s := S2x8x1024x128) (k0_off23 c 3#32 1#32) S1x1x1024x128.size (k0_off23_inb c 2 1), k0_pay62 vV1⟩ :: ⟨Rect.unit (s := S2x8x1024x128) (k0_off22 c 3#32 1#32) S1x1x1024x128.size (k0_off22_inb c 2 1), k0_pay61 vK1⟩ :: ⟨Rect.unit (s := S2x8x1024x128) (k0_off23 c 3#32 0#32) S1x1x1024x128.size (k0_off23_inb c 2 0), k0_pay60 rV0⟩ :: ⟨Rect.unit (s := S2x8x1024x128) (k0_off22 c 3#32 0#32) S1x1x1024x128.size (k0_off22_inb c 2 0), k0_pay58 vK0⟩ :: rest))
        (ix4 (0 : Fin 2) (⟨2 * ((c.val + 3) % 4) + g.val, by have := g.isLt; omega⟩ : Fin 8) j d) = KFun.kh m c (prv c) g (ix4 0 0 j d)
    ∧ ((Memref.whole cc0_scratch9 : Memref sig .tc .vmem S2x8x1024x128 .bf16).view.writes (Elt F) f9 (⟨Rect.unit (s := S2x8x1024x128) (k0_off23 c 3#32 1#32) S1x1x1024x128.size (k0_off23_inb c 2 1), k0_pay62 vV1⟩ :: ⟨Rect.unit (s := S2x8x1024x128) (k0_off22 c 3#32 1#32) S1x1x1024x128.size (k0_off22_inb c 2 1), k0_pay61 vK1⟩ :: ⟨Rect.unit (s := S2x8x1024x128) (k0_off23 c 3#32 0#32) S1x1x1024x128.size (k0_off23_inb c 2 0), k0_pay60 rV0⟩ :: ⟨Rect.unit (s := S2x8x1024x128) (k0_off22 c 3#32 0#32) S1x1x1024x128.size (k0_off22_inb c 2 0), k0_pay58 vK0⟩ :: rest))
        (ix4 (1 : Fin 2) (⟨2 * ((c.val + 3) % 4) + g.val, by have := g.isLt; omega⟩ : Fin 8) j d) = KFun.vh m c (prv c) g (ix4 0 0 j d) := by
  subst hrV0
  exact kvrows_rest m c (prv c) (2 * ((c.val + 3) % 4)) (by omega) _ _ _ _ _ _ _ _
    (off23_eq c 2 1) (off22_eq c 2 1) (off23_eq c 2 0) (off22_eq c 2 0) f9 rest _ _ _ _
    ((kv_pay58 vK0).trans hK0) ((kv_pay60 vV0).trans hV0) ((kv_pay61 vK1).trans hK1) ((kv_pay62 vV1).trans hV1) g j d

set_option maxHeartbeats 4000000 in
/-- The same of batch `c + 1`. -/
theorem kvrows_w1p (f9 : Buf (Elt F) ((c : Thread nD τ).loc cc0_scratch9)) (rest : List (View.Piece (Elt F) S2x8x1024x128 .bf16))
    (vK0 vV0 vK1 vV1 : Vec F S1x1x1024x128 .f32) (rK1 : FVec F S1024x128 .bf16)
    (hK0 : k0_pay25 vK0 = KFun.kh m c (nxt c) 0) (hV0 : k0_pay25 vV0 = KFun.vh m c (nxt c) 0)
    (hK1 : k0_pay25 vK1 = KFun.kh m c (nxt c) 1) (hV1 : k0_pay25 vV1 = KFun.vh m c (nxt c) 1) (hrK1 : rK1 = k0_pay81 vK1)
    (g : Fin 2) (j : Fin 1024) (d : Fin 128) :
    ((Memref.whole cc0_scratch9 : Memref sig .tc .vmem S2x8x1024x128 .bf16).view.writes (Elt F) f9 (⟨Rect.unit (s := S2x8x1024x128) (k0_off23 c 1#32 1#32) S1x1x1024x128.size (k0_off23_inb c 0 1), k0_pay83 vV1⟩ :: ⟨Rect.unit (s := S2x8x1024x128) (k0_off22 c 1#32 1#32) S1x1x1024x128.size (k0_off22_inb c 0 1), k0_pay82 rK1⟩ :: ⟨Rect.unit (s := S2x8x1024x128) (k0_off23 c 1#32 0#32) S1x1x1024x128.size (k0_off23_inb c 0 0), k0_pay80 vV0⟩ :: ⟨Rect.unit (s := S2x8x1024x128) (k0_off22 c 1#32 0#32) S1x1x1024x128.size (k0_off22_inb c 0 0), k0_pay79 vK0⟩ :: rest))
        (ix4 (0 : Fin 2) (⟨2 * ((c.val + 1) % 4) + g.val, by have := g.isLt; omega⟩ : Fin 8) j d) = KFun.kh m c (nxt c) g (ix4 0 0 j d)
    ∧ ((Memref.whole cc0_scratch9 : Memref sig .tc .vmem S2x8x1024x128 .bf16).view.writes (Elt F) f9 (⟨Rect.unit (s := S2x8x1024x128) (k0_off23 c 1#32 1#32) S1x1x1024x128.size (k0_off23_inb c 0 1), k0_pay83 vV1⟩ :: ⟨Rect.unit (s := S2x8x1024x128) (k0_off22 c 1#32 1#32) S1x1x1024x128.size (k0_off22_inb c 0 1), k0_pay82 rK1⟩ :: ⟨Rect.unit (s := S2x8x1024x128) (k0_off23 c 1#32 0#32) S1x1x1024x128.size (k0_off23_inb c 0 0), k0_pay80 vV0⟩ :: ⟨Rect.unit (s := S2x8x1024x128) (k0_off22 c 1#32 0#32) S1x1x1024x128.size (k0_off22_inb c 0 0), k0_pay79 vK0⟩ :: rest))
        (ix4 (1 : Fin 2) (⟨2 * ((c.val + 1) % 4) + g.val, by have := g.isLt; omega⟩ : Fin 8) j d) = KFun.vh m c (nxt c) g (ix4 0 0 j d) := by
  subst hrK1
  exact kvrows_rest m c (nxt c) (2 * ((c.val + 1) % 4)) (by omega) _ _ _ _ _ _ _ _
    (off23_eq c 0 1) (off22_eq c 0 1) (off23_eq c 0 0) (off22_eq c 0 0) f9 rest _ _ _ _
    ((kv_pay79 vK0).trans hK0) ((kv_pay80 vV0).trans hV0) ((kv_pay82 vK1).trans hK1) ((kv_pay83 vV1).trans hV1) g j d

end KVBatchesP

end Cert.Kernel.Proto.Rows
end
-- ==== Proof.KB.KvRead.lean ====
/-
  What the narrowing of a batch's key and value planes reads: a plane read through the whole buffer after a local copy
  wrote it is the rows the copy carried, and those rows are the launch memory's key rows, or value rows, of the batch.
-/
import proofs.«900754_g7700000000000755_dist_attn_cross_gqa_kvseq_b4_sq256_skv1024_d1024_hq8_dh128_v7x_i4_f32_1_alg».proof.Proof.KB.KvRel
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.ProjRows
import Idealize.ShloMosaic.Lib.Pipeline.Value

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A plane read through the whole buffer, from what a copy of rows `v` left in it, reshaped to the plane: the rows. -/
theorem plane_read (off : Fin 4 → ℕ) (inb inb' : ∀ x, off x + S1x1x1024x128.size x ≤ S2x8x1024x128.size x) (v : CpVal F) :
    shapeCast S1024x128
        (View.readAt (Elt F) (Memref.whole cc0_scratch5 : Memref sig .tc .vmem S2x8x1024x128 .f32).view (Rect.unit (s := S2x8x1024x128) off S1x1x1024x128.size inb).toLoadRect
          ((kvPl off inb').view.writes (Elt F) (kvPl off inb').view.junk [⟨Rect.whole S1024x128, v⟩]))
        shapeCasts_S1x1x1024x128_S1024x128 = v := by
  have h1 := View.read_writes_whole (Val := Elt F) (kvPl off inb').view (kvPl off inb').view.junk v
  exact (Memref.read_squeeze_slice (Val := Elt F) kvB (Rect.unit (s := S2x8x1024x128) off S1x1x1024x128.size inb) (fun _ => rfl) squeezes_S1x1x1024x128_S1024x128 shapeCasts_S1x1x1024x128_S1024x128 _).symm.trans h1

/-- The key rows of batch `b`, head `g`, read from the launch memory through the source plane's rectangle and reshaped
    to the plane, are the kernel function's key slice reshaped. -/
theorem ksrc_rect (c : Dev nD) (b : Fin 4) (g : Fin 2) :
    shapeCast S1024x128 (KFun.kslice m c b g) shapeCasts_S1x1x1024x128_S1024x128
      = shapeCast S1024x128
          (View.readAt (Elt F) hbK.view (Rect.unit (s := S4x1024x2x128) ![b.val, 0, g.val, 0] S1x1024x1x128.size (hb_inb b.val g.val ⟨b.isLt, g.isLt⟩)).toLoadRect (m ((c : Thread nD τ).loc main_arg3)))
          (show S1x1024x1x128.ShapeCasts S1024x128 from by decide) := by
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.kslice KFun.KQ
  rw [View.readAt_rect, View.read_apply]
  have he : (hbK.view.slice (Rect.unit (s := S4x1024x2x128) ![b.val, 0, g.val, 0] S1x1024x1x128.size (hb_inb b.val g.val ⟨b.isLt, g.isLt⟩))).emb
        (ix4 (0 : Fin 1) (⟨(y 0).val, hy0⟩ : Fin 1024) (0 : Fin 1) (⟨(y 1).val, hy1⟩ : Fin 128))
      = ix4 b (⟨(y 0).val, hy0⟩ : Fin 1024) g (⟨(y 1).val, hy1⟩ : Fin 128) := by
    funext a
    apply Fin.ext
    fin_cases a
    · show b.val + 1 * 0 = b.val
      omega
    · show 0 + 1 * (y 0).val = (y 0).val
      omega
    · show g.val + 1 * 0 = g.val
      omega
    · show 0 + 1 * (y 1).val = (y 1).val
      omega
  rw [he]
  rfl
/-- The same for the value rows. -/
theorem vsrc_rect (c : Dev nD) (b : Fin 4) (g : Fin 2) :
    shapeCast S1024x128 (KFun.vslice m c b g) shapeCasts_S1x1x1024x128_S1024x128
      = shapeCast S1024x128
          (View.readAt (Elt F) hbV.view (Rect.unit (s := S4x1024x2x128) ![b.val, 0, g.val, 0] S1x1024x1x128.size (hb_inb b.val g.val ⟨b.isLt, g.isLt⟩)).toLoadRect (m ((c : Thread nD τ).loc main_arg4)))
          (show S1x1024x1x128.ShapeCasts S1024x128 from by decide) := by
  funext y
  have hy0 : (y 0).val < 1024 := (y 0).isLt
  have hy1 : (y 1).val < 128 := (y 1).isLt
  rw [shapeCast_apply _ _ y (ix4 (0 : Fin 1) (0 : Fin 1) (⟨(y 0).val, hy0⟩ : Fin 1024) (⟨(y 1).val, hy1⟩ : Fin 128)) (by
        rw [Shape.rowMajor_val_four, Shape.rowMajor_val_two]; show (((0 * 1 + 0) * 1024 + (y 0).val) * 128 + (y 1).val) = (y 0).val * 128 + (y 1).val; omega),
      shapeCast_apply _ _ y (ix4 (0 : Fin 1) (⟨(y 0).val, hy0⟩ : Fin 1024) (0 : Fin 1) (⟨(y 1).val, hy1⟩ : Fin 128)) (by
        rw [Shape.rowMajor_val_four, Shape.rowMajor_val_two]; show (((0 * 1024 + (y 0).val) * 1 + 0) * 128 + (y 1).val) = (y 0).val * 128 + (y 1).val; omega)]
  unfold KFun.vslice KFun.VQ
  rw [View.readAt_rect, View.read_apply]
  have he : (hbV.view.slice (Rect.unit (s := S4x1024x2x128) ![b.val, 0, g.val, 0] S1x1024x1x128.size (hb_inb b.val g.val ⟨b.isLt, g.isLt⟩))).emb
        (ix4 (0 : Fin 1) (⟨(y 0).val, hy0⟩ : Fin 1024) (0 : Fin 1) (⟨(y 1).val, hy1⟩ : Fin 128))
      = ix4 b (⟨(y 0).val, hy0⟩ : Fin 1024) g (⟨(y 1).val, hy1⟩ : Fin 128) := by
    funext a
    apply Fin.ext
    fin_cases a
    · show b.val + 1 * 0 = b.val
      omega
    · show 0 + 1 * (y 0).val = (y 0).val
      omega
    · show g.val + 1 * 0 = g.val
      omega
    · show 0 + 1 * (y 1).val = (y 1).val
      omega
  rw [he]
  rfl

/-- A source plane as issued reads the launch memory through its rectangle, reshaped. -/
theorem hbKS_read (c : Dev nD) (b : Fin 4) (g : Fin 2) :
    (hbKS b g).view.read (Elt F) (m ((hbKS b g).view.loc (c : Thread nD τ)))
      = shapeCast S1024x128
          (View.readAt (Elt F) hbK.view (Rect.unit (s := S4x1024x2x128) ![b.val, 0, g.val, 0] S1x1024x1x128.size (hb_inb b.val g.val ⟨b.isLt, g.isLt⟩)).toLoadRect (m ((c : Thread nD τ).loc main_arg3)))
          (show S1x1024x1x128.ShapeCasts S1024x128 from by decide) := by
  fin_cases b <;> fin_cases g <;> rfl
theorem hbVS_read (c : Dev nD) (b : Fin 4) (g : Fin 2) :
    (hbVS b g).view.read (Elt F) (m ((hbVS b g).view.loc (c : Thread nD τ)))
      = shapeCast S1024x128
          (View.readAt (Elt F) hbV.view (Rect.unit (s := S4x1024x2x128) ![b.val, 0, g.val, 0] S1x1024x1x128.size (hb_inb b.val g.val ⟨b.isLt, g.isLt⟩)).toLoadRect (m ((c : Thread nD τ).loc main_arg4)))
          (show S1x1024x1x128.ShapeCasts S1024x128 from by decide) := by
  fin_cases b <;> fin_cases g <;> rfl

/-- The launch memory read through the source plane of the device's `j`-th batch, head `g`, is the kernel function's key
    slice of batch `(c + j) mod 4`, reshaped to the plane; and the value slice. -/
theorem ksrc (c : Dev nD) (j : Fin 4) (g : Fin 2) :
    (hbKD c j g).view.read (Elt F) (m ((hbKD c j g).view.loc (c : Thread nD τ)))
      = shapeCast S1024x128 (KFun.kslice m c (bIdx c j) g) shapeCasts_S1x1x1024x128_S1024x128 := by
  have h := congrArg (fun M : Memref sig .tc .hbm S1024x128 .f32 => M.view.read (Elt F) (m (M.view.loc (c : Thread nD τ)))) (hbKD_eq c j g)
  exact h.trans ((hbKS_read m c (bIdx c j) g).trans (ksrc_rect m c (bIdx c j) g).symm)
theorem vsrc (c : Dev nD) (j : Fin 4) (g : Fin 2) :
    (hbVD c j g).view.read (Elt F) (m ((hbVD c j g).view.loc (c : Thread nD τ)))
      = shapeCast S1024x128 (KFun.vslice m c (bIdx c j) g) shapeCasts_S1x1x1024x128_S1024x128 := by
  have h := congrArg (fun M : Memref sig .tc .hbm S1024x128 .f32 => M.view.read (Elt F) (m (M.view.loc (c : Thread nD τ)))) (hbVD_eq c j g)
  exact h.trans ((hbVS_read m c (bIdx c j) g).trans (vsrc_rect m c (bIdx c j) g).symm)

/-- The narrowing of a plane's rows depends on them only through their reshaping to the plane. -/
theorem pay25_congr (x y : Vec F S1x1x1024x128 .f32)
    (h : shapeCast S1024x128 x shapeCasts_S1x1x1024x128_S1024x128 = shapeCast S1024x128 y shapeCasts_S1x1x1024x128_S1024x128) : k0_pay25 x = k0_pay25 y := by
  unfold k0_pay25
  rw [h]

/-- So: narrowing a plane read through the whole buffer, after a copy that carried the launch rows of the device's `j`-th
    batch, gives the kernel function's narrowed plane of batch `(c + j) mod 4`. -/
theorem kh_of_copy (c : Dev nD) (j : Fin 4) (g : Fin 2) (offR offP : Fin 4 → ℕ) (inbR : ∀ x, offR x + S1x1x1024x128.size x ≤ S2x8x1024x128.size x)
    (inbP : ∀ x, offP x + S1x1x1024x128.size x ≤ S2x8x1024x128.size x) (hRP : offR = offP) (v : CpVal F)
    (hv : v = (hbKD c j g).view.read (Elt F) (m ((hbKD c j g).view.loc (c : Thread nD τ)))) :
    k0_pay25 (View.readAt (Elt F) (Memref.whole cc0_scratch5 : Memref sig .tc .vmem S2x8x1024x128 .f32).view (Rect.unit (s := S2x8x1024x128) offR S1x1x1024x128.size inbR).toLoadRect
        ((kvPl offP inbP).view.writes (Elt F) (kvPl offP inbP).view.junk [⟨Rect.whole S1024x128, v⟩]))
      = KFun.kh m c (bIdx c j) g := by
  subst hRP
  unfold KFun.kh
  apply pay25_congr
  rw [plane_read, hv, ksrc]
theorem vh_of_copy (c : Dev nD) (j : Fin 4) (g : Fin 2) (offR offP : Fin 4 → ℕ) (inbR : ∀ x, offR x + S1x1x1024x128.size x ≤ S2x8x1024x128.size x)
    (inbP : ∀ x, offP x + S1x1x1024x128.size x ≤ S2x8x1024x128.size x) (hRP : offR = offP) (v : CpVal F)
    (hv : v = (hbVD c j g).view.read (Elt F) (m ((hbVD c j g).view.loc (c : Thread nD τ)))) :
    k0_pay25 (View.readAt (Elt F) (Memref.whole cc0_scratch5 : Memref sig .tc .vmem S2x8x1024x128 .f32).view (Rect.unit (s := S2x8x1024x128) offR S1x1x1024x128.size inbR).toLoadRect
        ((kvPl offP inbP).view.writes (Elt F) (kvPl offP inbP).view.junk [⟨Rect.whole S1024x128, v⟩]))
      = KFun.vh m c (bIdx c j) g := by
  subst hRP
  unfold KFun.vh
  apply pay25_congr
  rw [plane_read, hv, vsrc]

end Cert.Kernel.Proto

end
-- ==== Proof.KB.FlashRows.lean ====
/-
  The rows of a block of the partial sums after its flash step.

  A flash step of batch b runs eight trips, one a head; trip k reads head k's rows of the projected queries and the narrowed
  key and value planes of the head's group, and stores one row of the block of the partial numerators and one of the
  partial denominators. After the step, whatever the block held before, its row k is that head's output: the trips'
  rows are apart, and the exponentials a trip reads back are the ones it has just stored.
-/
import proofs.«900754_g7700000000000755_dist_attn_cross_gqa_kvseq_b4_sq256_skv1024_d1024_hq8_dh128_v7x_i4_f32_1_alg».proof.Proof.KB.LoopsVRead
import proofs.«900754_g7700000000000755_dist_attn_cross_gqa_kvseq_b4_sq256_skv1024_d1024_hq8_dh128_v7x_i4_f32_1_alg».proof.Proof.KB.LoopsVFacts
import proofs.«900754_g7700000000000755_dist_attn_cross_gqa_kvseq_b4_sq256_skv1024_d1024_hq8_dh128_v7x_i4_f32_1_alg».proof.Proof.KB.Bridge

set_option maxRecDepth 8192

noncomputable section

namespace Cert.Kernel.Proto
open Cert.Kernel Cert.Kernel.Gen Cert.Kernel.Ring Cert.Kernel.KFun
open Idealize.ShloMosaic Idealize.ShloMosaic.TcCoe
open Idealize.SL.Sem
open Idealize.ShloMosaic.ValueIdx
variable {F : FTy → Type} [FloatOps F]

/-- The kernel's buffers of the projected queries, of the exponentials, and of the narrowed key and value planes. -/
abbrev q2M : Memref sig .tc .vmem S32x256x128 .bf16 := Memref.whole cc0_scratch4
abbrev ptM : Memref sig .tc .vmem S1024x256 .bf16 := Memref.whole cc0_scratch6
abbrev kvbM : Memref sig .tc .vmem S2x8x1024x128 .bf16 := Memref.whole cc0_scratch9

theorem t1_trips : k0_t1_loop.trips = 8 := by decide

/-- After the flash step of batch c (the device's own), the rows of its block of the partial numerators are that batch's outputs, head by head,
    given that the projected queries' rows and the narrowed key and value planes it reads are that batch's. -/
theorem flashO1_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v2 : BitVec 32) (v25 : BitVec 32) (v26 : Sems sig S_) (v226 : FVec F S256x1024 .f32) (hS_arg6 : ∀ k : Fin k0_t1_loop.trips, (locO.access (Rect.unit (s := S32x128x256) (k0_off13 c k) S1x128x256.size (k0_off13_inb c k))).set ⊆ (locBlkO c 0).view.set) (hS_arg7 : ∀ k : Fin k0_t1_loop.trips, (locL.access (Rect.unit (s := S32x1x256) (k0_off14 c k) S1x1x256.size (k0_off14_inb c k))).set ⊆ (locBlkL c 0).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * c.val + h.val, by have hc : c.val < 4 := c.isLt; omega⟩ : Fin 32) i d) = KFun.q2 m c c h (ix3 0 i d)) (hkv : ∀ (g : Fin 2) (j : Fin 1024) (d : Fin 128), X_arg15 (ix4 (0 : Fin 2) (⟨2 * c.val + g.val, by have hc : c.val < 4 := c.isLt; omega⟩ : Fin 8) j d) = KFun.kh m c c g (ix4 0 0 j d) ∧ X_arg15 (ix4 (1 : Fin 2) (⟨2 * c.val + g.val, by have hc : c.val < 4 := c.isLt; omega⟩ : Fin 8) j d) = KFun.vh m c c g (ix4 0 0 j d))
    (k : Fin 8) (d : Fin 128) (i : Fin 256) :
    (locO.view.writes (Elt F) G_arg6 (LoopsV.pbS_k0_t1 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v25 v26 v226 hS_arg6 hS_arg7 X_arg10 X_arg15 G_arg6 G_arg7 G_arg12 k0_t1_loop.trips).1) (ix3 (⟨8 * c.val + k.val, by have hc : c.val < 4 := c.isLt; omega⟩ : Fin 32) d i)
      = KFun.ot m c c k (ix3 0 d i) := by
  have hj : k.val < k0_t1_loop.trips := by rw [t1_trips]; exact k.isLt

  have hidx : ∀ (d : Fin 128) (i : Fin 256), (Rect.unit (s := S32x128x256) (k0_off13 c ⟨k.val, hj⟩) S1x128x256.size (k0_off13_inb c ⟨k.val, hj⟩)).emb (ix3 (0 : Fin 1) d i) = ix3 (⟨8 * c.val + k.val, by have hc : c.val < 4 := c.isLt; omega⟩ : Fin 32) d i := by
    intro d i
    funext a
    refine Fin.ext ?_
    rw [Rect.emb_apply]
    simp only [Rect.off_unit, Rect.stride_unit, Nat.one_mul, k0_off13_eq]
    match a with
    | ⟨0, _⟩ => show 8 * c.val + k.val + 0 = 8 * c.val + k.val; rfl
    | ⟨1, _⟩ => show 0 + d.val = d.val; omega
    | ⟨2, _⟩ => show 0 + i.val = i.val; omega
  rw [← hidx d i]
  refine (LoopsV.readS_k0_t1_arg6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v25 v26 v226 hS_arg6 hS_arg7 X_arg10 X_arg15 G_arg6 G_arg7 G_arg12 ⟨k.val, hj⟩ (ix3 (0 : Fin 1) d i)).trans ?_
  rw [LoopsV.payS_k0_t1_arg6_eq]

  have hi10 : ∀ (i : Fin 256) (d : Fin 128), (Rect.unit (s := S32x256x128) (k0_off10 c ⟨k.val, hj⟩) S1x256x128.size (k0_off10_inb c ⟨k.val, hj⟩)).emb (ix3 (0 : Fin 1) i d) = ix3 (⟨8 * c.val + k.val, by have hc : c.val < 4 := c.isLt; omega⟩ : Fin 32) i d := by
    intro i d
    funext a
    refine Fin.ext ?_
    rw [Rect.emb_apply]
    simp only [Rect.off_unit, Rect.stride_unit, Nat.one_mul, k0_off10_eq]
    match a with
    | ⟨0, _⟩ => show 8 * c.val + k.val + 0 = 8 * c.val + k.val; rfl
    | ⟨1, _⟩ => show 0 + i.val = i.val; omega
    | ⟨2, _⟩ => show 0 + d.val = d.val; omega
  have hi11 : ∀ (j : Fin 1024) (d : Fin 128), (Rect.unit (s := S2x8x1024x128) (k0_off11 c ⟨k.val, hj⟩) S1x1x1024x128.size (k0_off11_inb c ⟨k.val, hj⟩)).emb (ix4 (0 : Fin 1) (0 : Fin 1) j d) = ix4 (0 : Fin 2) (⟨2 * c.val + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off11_eq]
    match a with
    | ⟨0, _⟩ => rfl
    | ⟨1, _⟩ => show 2 * c.val + k.val / 4 + 0 = 2 * c.val + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off10 c ⟨k.val, hj⟩) S1x256x128.size (k0_off10_inb c ⟨k.val, hj⟩)).toLoadRect X_arg10 = KFun.q2 m c c k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off11 c ⟨k.val, hj⟩) S1x1x1024x128.size (k0_off11_inb c ⟨k.val, hj⟩)).toLoadRect X_arg15 = KFun.kh m c c (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1

  have hi12 : ∀ (j : Fin 1024) (d : Fin 128), (Rect.unit (s := S2x8x1024x128) (k0_off12 c ⟨k.val, hj⟩) S1x1x1024x128.size (k0_off12_inb c ⟨k.val, hj⟩)).emb (ix4 (0 : Fin 1) (0 : Fin 1) j d) = ix4 (1 : Fin 2) (⟨2 * c.val + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off12_eq]
    match a with
    | ⟨0, _⟩ => rfl
    | ⟨1, _⟩ => show 2 * c.val + k.val / 4 + 0 = 2 * c.val + (Cert.Attn.kvh k).val; rfl
    | ⟨2, _⟩ => show 0 + j.val = j.val; omega
    | ⟨3, _⟩ => show 0 + d.val = d.val; omega
  have hV : View.readAt (Elt F) kvbM.view (Rect.unit (s := S2x8x1024x128) (k0_off12 c ⟨k.val, hj⟩) S1x1x1024x128.size (k0_off12_inb c ⟨k.val, hj⟩)).toLoadRect X_arg15 = KFun.vh m c c (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi12 j' d')).trans (hkv (Cert.Attn.kvh k) j' d').2
  rw [hQ, hK, hV]
  rfl

/-- and the rows of its block of the partial denominators are that batch's row sums. -/
theorem flashL1_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v2 : BitVec 32) (v25 : BitVec 32) (v26 : Sems sig S_) (v226 : FVec F S256x1024 .f32) (hS_arg6 : ∀ k : Fin k0_t1_loop.trips, (locO.access (Rect.unit (s := S32x128x256) (k0_off13 c k) S1x128x256.size (k0_off13_inb c k))).set ⊆ (locBlkO c 0).view.set) (hS_arg7 : ∀ k : Fin k0_t1_loop.trips, (locL.access (Rect.unit (s := S32x1x256) (k0_off14 c k) S1x1x256.size (k0_off14_inb c k))).set ⊆ (locBlkL c 0).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * c.val + h.val, by have hc : c.val < 4 := c.isLt; omega⟩ : Fin 32) i d) = KFun.q2 m c c h (ix3 0 i d)) (hkv : ∀ (g : Fin 2) (j : Fin 1024) (d : Fin 128), X_arg15 (ix4 (0 : Fin 2) (⟨2 * c.val + g.val, by have hc : c.val < 4 := c.isLt; omega⟩ : Fin 8) j d) = KFun.kh m c c g (ix4 0 0 j d) ∧ X_arg15 (ix4 (1 : Fin 2) (⟨2 * c.val + g.val, by have hc : c.val < 4 := c.isLt; omega⟩ : Fin 8) j d) = KFun.vh m c c g (ix4 0 0 j d))
    (k : Fin 8) (i : Fin 256) :
    (locL.view.writes (Elt F) G_arg7 (LoopsV.pbS_k0_t1 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v25 v26 v226 hS_arg6 hS_arg7 X_arg10 X_arg15 G_arg6 G_arg7 G_arg12 k0_t1_loop.trips).2.1) (ix3 (⟨8 * c.val + k.val, by have hc : c.val < 4 := c.isLt; omega⟩ : Fin 32) (0 : Fin 1) i)
      = KFun.lrow m c c k (ix3 0 0 i) := by
  have hj : k.val < k0_t1_loop.trips := by rw [t1_trips]; exact k.isLt
  have hidx : (Rect.unit (s := S32x1x256) (k0_off14 c ⟨k.val, hj⟩) S1x1x256.size (k0_off14_inb c ⟨k.val, hj⟩)).emb (ix3 (0 : Fin 1) (0 : Fin 1) i) = ix3 (⟨8 * c.val + k.val, by have hc : c.val < 4 := c.isLt; omega⟩ : Fin 32) (0 : Fin 1) i := by
    funext a
    refine Fin.ext ?_
    rw [Rect.emb_apply]
    simp only [Rect.off_unit, Rect.stride_unit, Nat.one_mul, k0_off14_eq]
    match a with
    | ⟨0, _⟩ => show 8 * c.val + k.val + 0 = 8 * c.val + k.val; rfl
    | ⟨1, _⟩ => rfl
    | ⟨2, _⟩ => show 0 + i.val = i.val; omega
  rw [← hidx]
  refine (LoopsV.readS_k0_t1_arg7 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v25 v26 v226 hS_arg6 hS_arg7 X_arg10 X_arg15 G_arg6 G_arg7 G_arg12 ⟨k.val, hj⟩ (ix3 (0 : Fin 1) (0 : Fin 1) i)).trans ?_

  have hi10 : ∀ (i : Fin 256) (d : Fin 128), (Rect.unit (s := S32x256x128) (k0_off10 c ⟨k.val, hj⟩) S1x256x128.size (k0_off10_inb c ⟨k.val, hj⟩)).emb (ix3 (0 : Fin 1) i d) = ix3 (⟨8 * c.val + k.val, by have hc : c.val < 4 := c.isLt; omega⟩ : Fin 32) i d := by
    intro i d
    funext a
    refine Fin.ext ?_
    rw [Rect.emb_apply]
    simp only [Rect.off_unit, Rect.stride_unit, Nat.one_mul, k0_off10_eq]
    match a with
    | ⟨0, _⟩ => show 8 * c.val + k.val + 0 = 8 * c.val + k.val; rfl
    | ⟨1, _⟩ => show 0 + i.val = i.val; omega
    | ⟨2, _⟩ => show 0 + d.val = d.val; omega
  have hi11 : ∀ (j : Fin 1024) (d : Fin 128), (Rect.unit (s := S2x8x1024x128) (k0_off11 c ⟨k.val, hj⟩) S1x1x1024x128.size (k0_off11_inb c ⟨k.val, hj⟩)).emb (ix4 (0 : Fin 1) (0 : Fin 1) j d) = ix4 (0 : Fin 2) (⟨2 * c.val + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off11_eq]
    match a with
    | ⟨0, _⟩ => rfl
    | ⟨1, _⟩ => show 2 * c.val + k.val / 4 + 0 = 2 * c.val + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off10 c ⟨k.val, hj⟩) S1x256x128.size (k0_off10_inb c ⟨k.val, hj⟩)).toLoadRect X_arg10 = KFun.q2 m c c k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off11 c ⟨k.val, hj⟩) S1x1x1024x128.size (k0_off11_inb c ⟨k.val, hj⟩)).toLoadRect X_arg15 = KFun.kh m c c (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1
  rw [hQ, hK]
  rfl

theorem t2_trips : k0_t2_loop.trips = 8 := by decide

/-- After the flash step of batch c + 2, the rows of its block of the partial numerators are that batch's outputs, head by head,
    given that the projected queries' rows and the narrowed key and value planes it reads are that batch's. -/
theorem flashO2_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v2 : BitVec 32) (v14 : BitVec 32) (v322 : BitVec 32) (v468 : FVec F S256x128 .bf16) (hS_arg6 : ∀ k : Fin k0_t2_loop.trips, (locO.access (Rect.unit (s := S32x128x256) (k0_off29 c k) S1x128x256.size (k0_off29_inb c k))).set ⊆ (locBlkO c 2).view.set) (hS_arg7 : ∀ k : Fin k0_t2_loop.trips, (locL.access (Rect.unit (s := S32x1x256) (k0_off30 c k) S1x1x256.size (k0_off30_inb c k))).set ⊆ (locBlkL c 2).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 2) % 4) + h.val, by have hc : c.val < 4 := c.isLt; omega⟩ : Fin 32) i d) = KFun.q2 m c (nxt (nxt c)) h (ix3 0 i d)) (hkv : ∀ (g : Fin 2) (j : Fin 1024) (d : Fin 128), X_arg15 (ix4 (0 : Fin 2) (⟨2 * ((c.val + 2) % 4) + g.val, by have hc : c.val < 4 := c.isLt; omega⟩ : Fin 8) j d) = KFun.kh m c (nxt (nxt c)) g (ix4 0 0 j d) ∧ X_arg15 (ix4 (1 : Fin 2) (⟨2 * ((c.val + 2) % 4) + g.val, by have hc : c.val < 4 := c.isLt; omega⟩ : Fin 8) j d) = KFun.vh m c (nxt (nxt c)) g (ix4 0 0 j d))
    (k : Fin 8) (d : Fin 128) (i : Fin 256) :
    (locO.view.writes (Elt F) G_arg6 (LoopsV.pbS_k0_t2 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v14 v322 v468 hS_arg6 hS_arg7 X_arg10 X_arg15 G_arg6 G_arg7 G_arg12 k0_t2_loop.trips).1) (ix3 (⟨8 * ((c.val + 2) % 4) + k.val, by have hc : c.val < 4 := c.isLt; omega⟩ : Fin 32) d i)
      = KFun.ot m c (nxt (nxt c)) k (ix3 0 d i) := by
  have hj : k.val < k0_t2_loop.trips := by rw [t2_trips]; exact k.isLt

  have hidx : ∀ (d : Fin 128) (i : Fin 256), (Rect.unit (s := S32x128x256) (k0_off29 c ⟨k.val, hj⟩) S1x128x256.size (k0_off29_inb c ⟨k.val, hj⟩)).emb (ix3 (0 : Fin 1) d i) = ix3 (⟨8 * ((c.val + 2) % 4) + k.val, by have hc : c.val < 4 := c.isLt; omega⟩ : Fin 32) d i := by
    intro d i
    funext a
    refine Fin.ext ?_
    rw [Rect.emb_apply]
    simp only [Rect.off_unit, Rect.stride_unit, Nat.one_mul, off29_eq]
    match a with
    | ⟨0, _⟩ => show 8 * ((c.val + 2) % 4) + k.val + 0 = 8 * ((c.val + 2) % 4) + k.val; rfl
    | ⟨1, _⟩ => show 0 + d.val = d.val; omega
    | ⟨2, _⟩ => show 0 + i.val = i.val; omega
  rw [← hidx d i]
  refine (LoopsV.readS_k0_t2_arg6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v14 v322 v468 hS_arg6 hS_arg7 X_arg10 X_arg15 G_arg6 G_arg7 G_arg12 ⟨k.val, hj⟩ (ix3 (0 : Fin 1) d i)).trans ?_
  rw [LoopsV.payS_k0_t2_arg6_eq]

  have hi10 : ∀ (i : Fin 256) (d : Fin 128), (Rect.unit (s := S32x256x128) (k0_off26 c ⟨k.val, hj⟩) S1x256x128.size (k0_off26_inb c ⟨k.val, hj⟩)).emb (ix3 (0 : Fin 1) i d) = ix3 (⟨8 * ((c.val + 2) % 4) + k.val, by have hc : c.val < 4 := c.isLt; omega⟩ : Fin 32) i d := by
    intro i d
    funext a
    refine Fin.ext ?_
    rw [Rect.emb_apply]
    simp only [Rect.off_unit, Rect.stride_unit, Nat.one_mul, off26_eq]
    match a with
    | ⟨0, _⟩ => show 8 * ((c.val + 2) % 4) + k.val + 0 = 8 * ((c.val + 2) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off27 c ⟨k.val, hj⟩) S1x1x1024x128.size (k0_off27_inb c ⟨k.val, hj⟩)).emb (ix4 (0 : Fin 1) (0 : Fin 1) j d) = ix4 (0 : Fin 2) (⟨2 * ((c.val + 2) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off27_eq]
    match a with
    | ⟨0, _⟩ => rfl
    | ⟨1, _⟩ => show 2 * ((c.val + 2) % 4) + k.val / 4 + 0 = 2 * ((c.val + 2) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off26 c ⟨k.val, hj⟩) S1x256x128.size (k0_off26_inb c ⟨k.val, hj⟩)).toLoadRect X_arg10 = KFun.q2 m c (nxt (nxt c)) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off27 c ⟨k.val, hj⟩) S1x1x1024x128.size (k0_off27_inb c ⟨k.val, hj⟩)).toLoadRect X_arg15 = KFun.kh m c (nxt (nxt c)) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1

  have hi12 : ∀ (j : Fin 1024) (d : Fin 128), (Rect.unit (s := S2x8x1024x128) (k0_off28 c ⟨k.val, hj⟩) S1x1x1024x128.size (k0_off28_inb c ⟨k.val, hj⟩)).emb (ix4 (0 : Fin 1) (0 : Fin 1) j d) = ix4 (1 : Fin 2) (⟨2 * ((c.val + 2) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off28_eq]
    match a with
    | ⟨0, _⟩ => rfl
    | ⟨1, _⟩ => show 2 * ((c.val + 2) % 4) + k.val / 4 + 0 = 2 * ((c.val + 2) % 4) + (Cert.Attn.kvh k).val; rfl
    | ⟨2, _⟩ => show 0 + j.val = j.val; omega
    | ⟨3, _⟩ => show 0 + d.val = d.val; omega
  have hV : View.readAt (Elt F) kvbM.view (Rect.unit (s := S2x8x1024x128) (k0_off28 c ⟨k.val, hj⟩) S1x1x1024x128.size (k0_off28_inb c ⟨k.val, hj⟩)).toLoadRect X_arg15 = KFun.vh m c (nxt (nxt c)) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi12 j' d')).trans (hkv (Cert.Attn.kvh k) j' d').2
  rw [hQ, hK, hV]
  rfl

/-- and the rows of its block of the partial denominators are that batch's row sums. -/
theorem flashL2_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v2 : BitVec 32) (v14 : BitVec 32) (v322 : BitVec 32) (v468 : FVec F S256x128 .bf16) (hS_arg6 : ∀ k : Fin k0_t2_loop.trips, (locO.access (Rect.unit (s := S32x128x256) (k0_off29 c k) S1x128x256.size (k0_off29_inb c k))).set ⊆ (locBlkO c 2).view.set) (hS_arg7 : ∀ k : Fin k0_t2_loop.trips, (locL.access (Rect.unit (s := S32x1x256) (k0_off30 c k) S1x1x256.size (k0_off30_inb c k))).set ⊆ (locBlkL c 2).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 2) % 4) + h.val, by have hc : c.val < 4 := c.isLt; omega⟩ : Fin 32) i d) = KFun.q2 m c (nxt (nxt c)) h (ix3 0 i d)) (hkv : ∀ (g : Fin 2) (j : Fin 1024) (d : Fin 128), X_arg15 (ix4 (0 : Fin 2) (⟨2 * ((c.val + 2) % 4) + g.val, by have hc : c.val < 4 := c.isLt; omega⟩ : Fin 8) j d) = KFun.kh m c (nxt (nxt c)) g (ix4 0 0 j d) ∧ X_arg15 (ix4 (1 : Fin 2) (⟨2 * ((c.val + 2) % 4) + g.val, by have hc : c.val < 4 := c.isLt; omega⟩ : Fin 8) j d) = KFun.vh m c (nxt (nxt c)) g (ix4 0 0 j d))
    (k : Fin 8) (i : Fin 256) :
    (locL.view.writes (Elt F) G_arg7 (LoopsV.pbS_k0_t2 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v14 v322 v468 hS_arg6 hS_arg7 X_arg10 X_arg15 G_arg6 G_arg7 G_arg12 k0_t2_loop.trips).2.1) (ix3 (⟨8 * ((c.val + 2) % 4) + k.val, by have hc : c.val < 4 := c.isLt; omega⟩ : Fin 32) (0 : Fin 1) i)
      = KFun.lrow m c (nxt (nxt c)) k (ix3 0 0 i) := by
  have hj : k.val < k0_t2_loop.trips := by rw [t2_trips]; exact k.isLt
  have hidx : (Rect.unit (s := S32x1x256) (k0_off30 c ⟨k.val, hj⟩) S1x1x256.size (k0_off30_inb c ⟨k.val, hj⟩)).emb (ix3 (0 : Fin 1) (0 : Fin 1) i) = ix3 (⟨8 * ((c.val + 2) % 4) + k.val, by have hc : c.val < 4 := c.isLt; omega⟩ : Fin 32) (0 : Fin 1) i := by
    funext a
    refine Fin.ext ?_
    rw [Rect.emb_apply]
    simp only [Rect.off_unit, Rect.stride_unit, Nat.one_mul, off30_eq]
    match a with
    | ⟨0, _⟩ => show 8 * ((c.val + 2) % 4) + k.val + 0 = 8 * ((c.val + 2) % 4) + k.val; rfl
    | ⟨1, _⟩ => rfl
    | ⟨2, _⟩ => show 0 + i.val = i.val; omega
  rw [← hidx]
  refine (LoopsV.readS_k0_t2_arg7 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v2 v14 v322 v468 hS_arg6 hS_arg7 X_arg10 X_arg15 G_arg6 G_arg7 G_arg12 ⟨k.val, hj⟩ (ix3 (0 : Fin 1) (0 : Fin 1) i)).trans ?_

  have hi10 : ∀ (i : Fin 256) (d : Fin 128), (Rect.unit (s := S32x256x128) (k0_off26 c ⟨k.val, hj⟩) S1x256x128.size (k0_off26_inb c ⟨k.val, hj⟩)).emb (ix3 (0 : Fin 1) i d) = ix3 (⟨8 * ((c.val + 2) % 4) + k.val, by have hc : c.val < 4 := c.isLt; omega⟩ : Fin 32) i d := by
    intro i d
    funext a
    refine Fin.ext ?_
    rw [Rect.emb_apply]
    simp only [Rect.off_unit, Rect.stride_unit, Nat.one_mul, off26_eq]
    match a with
    | ⟨0, _⟩ => show 8 * ((c.val + 2) % 4) + k.val + 0 = 8 * ((c.val + 2) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off27 c ⟨k.val, hj⟩) S1x1x1024x128.size (k0_off27_inb c ⟨k.val, hj⟩)).emb (ix4 (0 : Fin 1) (0 : Fin 1) j d) = ix4 (0 : Fin 2) (⟨2 * ((c.val + 2) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off27_eq]
    match a with
    | ⟨0, _⟩ => rfl
    | ⟨1, _⟩ => show 2 * ((c.val + 2) % 4) + k.val / 4 + 0 = 2 * ((c.val + 2) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off26 c ⟨k.val, hj⟩) S1x256x128.size (k0_off26_inb c ⟨k.val, hj⟩)).toLoadRect X_arg10 = KFun.q2 m c (nxt (nxt c)) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off27 c ⟨k.val, hj⟩) S1x1x1024x128.size (k0_off27_inb c ⟨k.val, hj⟩)).toLoadRect X_arg15 = KFun.kh m c (nxt (nxt c)) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1
  rw [hQ, hK]
  rfl

theorem t3_trips : k0_t3_loop.trips = 8 := by decide

/-- After the flash step of batch c + 3, the rows of its block of the partial numerators are that batch's outputs, head by head,
    given that the projected queries' rows and the narrowed key and value planes it reads are that batch's. -/
theorem flashO3_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v508 : BitVec 32) (v596 : FVec F S256x1024 .f32) (hS_arg6 : ∀ k : Fin k0_t3_loop.trips, (locO.access (Rect.unit (s := S32x128x256) (k0_off36 c k) S1x128x256.size (k0_off36_inb c k))).set ⊆ (locBlkO c 3).view.set) (hS_arg7 : ∀ k : Fin k0_t3_loop.trips, (locL.access (Rect.unit (s := S32x1x256) (k0_off37 c k) S1x1x256.size (k0_off37_inb c k))).set ⊆ (locBlkL c 3).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 3) % 4) + h.val, by have hc : c.val < 4 := c.isLt; omega⟩ : Fin 32) i d) = KFun.q2 m c (prv c) h (ix3 0 i d)) (hkv : ∀ (g : Fin 2) (j : Fin 1024) (d : Fin 128), X_arg15 (ix4 (0 : Fin 2) (⟨2 * ((c.val + 3) % 4) + g.val, by have hc : c.val < 4 := c.isLt; omega⟩ : Fin 8) j d) = KFun.kh m c (prv c) g (ix4 0 0 j d) ∧ X_arg15 (ix4 (1 : Fin 2) (⟨2 * ((c.val + 3) % 4) + g.val, by have hc : c.val < 4 := c.isLt; omega⟩ : Fin 8) j d) = KFun.vh m c (prv c) g (ix4 0 0 j d))
    (k : Fin 8) (d : Fin 128) (i : Fin 256) :
    (locO.view.writes (Elt F) G_arg6 (LoopsV.pbS_k0_t3 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v508 v596 hS_arg6 hS_arg7 X_arg10 X_arg15 G_arg6 G_arg7 G_arg12 k0_t3_loop.trips).1) (ix3 (⟨8 * ((c.val + 3) % 4) + k.val, by have hc : c.val < 4 := c.isLt; omega⟩ : Fin 32) d i)
      = KFun.ot m c (prv c) k (ix3 0 d i) := by
  have hj : k.val < k0_t3_loop.trips := by rw [t3_trips]; exact k.isLt

  have hidx : ∀ (d : Fin 128) (i : Fin 256), (Rect.unit (s := S32x128x256) (k0_off36 c ⟨k.val, hj⟩) S1x128x256.size (k0_off36_inb c ⟨k.val, hj⟩)).emb (ix3 (0 : Fin 1) d i) = ix3 (⟨8 * ((c.val + 3) % 4) + k.val, by have hc : c.val < 4 := c.isLt; omega⟩ : Fin 32) d i := by
    intro d i
    funext a
    refine Fin.ext ?_
    rw [Rect.emb_apply]
    simp only [Rect.off_unit, Rect.stride_unit, Nat.one_mul, off36_eq]
    match a with
    | ⟨0, _⟩ => show 8 * ((c.val + 3) % 4) + k.val + 0 = 8 * ((c.val + 3) % 4) + k.val; rfl
    | ⟨1, _⟩ => show 0 + d.val = d.val; omega
    | ⟨2, _⟩ => show 0 + i.val = i.val; omega
  rw [← hidx d i]
  refine (LoopsV.readS_k0_t3_arg6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v508 v596 hS_arg6 hS_arg7 X_arg10 X_arg15 G_arg6 G_arg7 G_arg12 ⟨k.val, hj⟩ (ix3 (0 : Fin 1) d i)).trans ?_
  rw [LoopsV.payS_k0_t3_arg6_eq]

  have hi10 : ∀ (i : Fin 256) (d : Fin 128), (Rect.unit (s := S32x256x128) (k0_off33 c ⟨k.val, hj⟩) S1x256x128.size (k0_off33_inb c ⟨k.val, hj⟩)).emb (ix3 (0 : Fin 1) i d) = ix3 (⟨8 * ((c.val + 3) % 4) + k.val, by have hc : c.val < 4 := c.isLt; omega⟩ : Fin 32) i d := by
    intro i d
    funext a
    refine Fin.ext ?_
    rw [Rect.emb_apply]
    simp only [Rect.off_unit, Rect.stride_unit, Nat.one_mul, off33_eq]
    match a with
    | ⟨0, _⟩ => show 8 * ((c.val + 3) % 4) + k.val + 0 = 8 * ((c.val + 3) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off34 c ⟨k.val, hj⟩) S1x1x1024x128.size (k0_off34_inb c ⟨k.val, hj⟩)).emb (ix4 (0 : Fin 1) (0 : Fin 1) j d) = ix4 (0 : Fin 2) (⟨2 * ((c.val + 3) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off34_eq]
    match a with
    | ⟨0, _⟩ => rfl
    | ⟨1, _⟩ => show 2 * ((c.val + 3) % 4) + k.val / 4 + 0 = 2 * ((c.val + 3) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off33 c ⟨k.val, hj⟩) S1x256x128.size (k0_off33_inb c ⟨k.val, hj⟩)).toLoadRect X_arg10 = KFun.q2 m c (prv c) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off34 c ⟨k.val, hj⟩) S1x1x1024x128.size (k0_off34_inb c ⟨k.val, hj⟩)).toLoadRect X_arg15 = KFun.kh m c (prv c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1

  have hi12 : ∀ (j : Fin 1024) (d : Fin 128), (Rect.unit (s := S2x8x1024x128) (k0_off35 c ⟨k.val, hj⟩) S1x1x1024x128.size (k0_off35_inb c ⟨k.val, hj⟩)).emb (ix4 (0 : Fin 1) (0 : Fin 1) j d) = ix4 (1 : Fin 2) (⟨2 * ((c.val + 3) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off35_eq]
    match a with
    | ⟨0, _⟩ => rfl
    | ⟨1, _⟩ => show 2 * ((c.val + 3) % 4) + k.val / 4 + 0 = 2 * ((c.val + 3) % 4) + (Cert.Attn.kvh k).val; rfl
    | ⟨2, _⟩ => show 0 + j.val = j.val; omega
    | ⟨3, _⟩ => show 0 + d.val = d.val; omega
  have hV : View.readAt (Elt F) kvbM.view (Rect.unit (s := S2x8x1024x128) (k0_off35 c ⟨k.val, hj⟩) S1x1x1024x128.size (k0_off35_inb c ⟨k.val, hj⟩)).toLoadRect X_arg15 = KFun.vh m c (prv c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi12 j' d')).trans (hkv (Cert.Attn.kvh k) j' d').2
  rw [hQ, hK, hV]
  rfl

/-- and the rows of its block of the partial denominators are that batch's row sums. -/
theorem flashL3_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v508 : BitVec 32) (v596 : FVec F S256x1024 .f32) (hS_arg6 : ∀ k : Fin k0_t3_loop.trips, (locO.access (Rect.unit (s := S32x128x256) (k0_off36 c k) S1x128x256.size (k0_off36_inb c k))).set ⊆ (locBlkO c 3).view.set) (hS_arg7 : ∀ k : Fin k0_t3_loop.trips, (locL.access (Rect.unit (s := S32x1x256) (k0_off37 c k) S1x1x256.size (k0_off37_inb c k))).set ⊆ (locBlkL c 3).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 3) % 4) + h.val, by have hc : c.val < 4 := c.isLt; omega⟩ : Fin 32) i d) = KFun.q2 m c (prv c) h (ix3 0 i d)) (hkv : ∀ (g : Fin 2) (j : Fin 1024) (d : Fin 128), X_arg15 (ix4 (0 : Fin 2) (⟨2 * ((c.val + 3) % 4) + g.val, by have hc : c.val < 4 := c.isLt; omega⟩ : Fin 8) j d) = KFun.kh m c (prv c) g (ix4 0 0 j d) ∧ X_arg15 (ix4 (1 : Fin 2) (⟨2 * ((c.val + 3) % 4) + g.val, by have hc : c.val < 4 := c.isLt; omega⟩ : Fin 8) j d) = KFun.vh m c (prv c) g (ix4 0 0 j d))
    (k : Fin 8) (i : Fin 256) :
    (locL.view.writes (Elt F) G_arg7 (LoopsV.pbS_k0_t3 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v508 v596 hS_arg6 hS_arg7 X_arg10 X_arg15 G_arg6 G_arg7 G_arg12 k0_t3_loop.trips).2.1) (ix3 (⟨8 * ((c.val + 3) % 4) + k.val, by have hc : c.val < 4 := c.isLt; omega⟩ : Fin 32) (0 : Fin 1) i)
      = KFun.lrow m c (prv c) k (ix3 0 0 i) := by
  have hj : k.val < k0_t3_loop.trips := by rw [t3_trips]; exact k.isLt
  have hidx : (Rect.unit (s := S32x1x256) (k0_off37 c ⟨k.val, hj⟩) S1x1x256.size (k0_off37_inb c ⟨k.val, hj⟩)).emb (ix3 (0 : Fin 1) (0 : Fin 1) i) = ix3 (⟨8 * ((c.val + 3) % 4) + k.val, by have hc : c.val < 4 := c.isLt; omega⟩ : Fin 32) (0 : Fin 1) i := by
    funext a
    refine Fin.ext ?_
    rw [Rect.emb_apply]
    simp only [Rect.off_unit, Rect.stride_unit, Nat.one_mul, off37_eq]
    match a with
    | ⟨0, _⟩ => show 8 * ((c.val + 3) % 4) + k.val + 0 = 8 * ((c.val + 3) % 4) + k.val; rfl
    | ⟨1, _⟩ => rfl
    | ⟨2, _⟩ => show 0 + i.val = i.val; omega
  rw [← hidx]
  refine (LoopsV.readS_k0_t3_arg7 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v508 v596 hS_arg6 hS_arg7 X_arg10 X_arg15 G_arg6 G_arg7 G_arg12 ⟨k.val, hj⟩ (ix3 (0 : Fin 1) (0 : Fin 1) i)).trans ?_

  have hi10 : ∀ (i : Fin 256) (d : Fin 128), (Rect.unit (s := S32x256x128) (k0_off33 c ⟨k.val, hj⟩) S1x256x128.size (k0_off33_inb c ⟨k.val, hj⟩)).emb (ix3 (0 : Fin 1) i d) = ix3 (⟨8 * ((c.val + 3) % 4) + k.val, by have hc : c.val < 4 := c.isLt; omega⟩ : Fin 32) i d := by
    intro i d
    funext a
    refine Fin.ext ?_
    rw [Rect.emb_apply]
    simp only [Rect.off_unit, Rect.stride_unit, Nat.one_mul, off33_eq]
    match a with
    | ⟨0, _⟩ => show 8 * ((c.val + 3) % 4) + k.val + 0 = 8 * ((c.val + 3) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off34 c ⟨k.val, hj⟩) S1x1x1024x128.size (k0_off34_inb c ⟨k.val, hj⟩)).emb (ix4 (0 : Fin 1) (0 : Fin 1) j d) = ix4 (0 : Fin 2) (⟨2 * ((c.val + 3) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off34_eq]
    match a with
    | ⟨0, _⟩ => rfl
    | ⟨1, _⟩ => show 2 * ((c.val + 3) % 4) + k.val / 4 + 0 = 2 * ((c.val + 3) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off33 c ⟨k.val, hj⟩) S1x256x128.size (k0_off33_inb c ⟨k.val, hj⟩)).toLoadRect X_arg10 = KFun.q2 m c (prv c) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off34 c ⟨k.val, hj⟩) S1x1x1024x128.size (k0_off34_inb c ⟨k.val, hj⟩)).toLoadRect X_arg15 = KFun.kh m c (prv c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1
  rw [hQ, hK]
  rfl

theorem t6_trips : k0_t6_loop.trips = 8 := by decide

/-- After the flash step of batch c + 1, the rows of its block of the partial numerators are that batch's outputs, head by head,
    given that the projected queries' rows and the narrowed key and value planes it reads are that batch's. -/
theorem flashO6_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v787 : BitVec 32) (v875 : FVec F S256x1024 .f32) (v917 : FVec F S256x128 .bf16) (hS_arg6 : ∀ k : Fin k0_t6_loop.trips, (locO.access (Rect.unit (s := S32x128x256) (k0_off49 c k) S1x128x256.size (k0_off49_inb c k))).set ⊆ (locBlkO c 1).view.set) (hS_arg7 : ∀ k : Fin k0_t6_loop.trips, (locL.access (Rect.unit (s := S32x1x256) (k0_off50 c k) S1x1x256.size (k0_off50_inb c k))).set ⊆ (locBlkL c 1).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 1) % 4) + h.val, by have hc : c.val < 4 := c.isLt; omega⟩ : Fin 32) i d) = KFun.q2 m c (nxt c) h (ix3 0 i d)) (hkv : ∀ (g : Fin 2) (j : Fin 1024) (d : Fin 128), X_arg15 (ix4 (0 : Fin 2) (⟨2 * ((c.val + 1) % 4) + g.val, by have hc : c.val < 4 := c.isLt; omega⟩ : Fin 8) j d) = KFun.kh m c (nxt c) g (ix4 0 0 j d) ∧ X_arg15 (ix4 (1 : Fin 2) (⟨2 * ((c.val + 1) % 4) + g.val, by have hc : c.val < 4 := c.isLt; omega⟩ : Fin 8) j d) = KFun.vh m c (nxt c) g (ix4 0 0 j d))
    (k : Fin 8) (d : Fin 128) (i : Fin 256) :
    (locO.view.writes (Elt F) G_arg6 (LoopsV.pbS_k0_t6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v787 v875 v917 hS_arg6 hS_arg7 X_arg10 X_arg15 G_arg6 G_arg7 G_arg12 k0_t6_loop.trips).1) (ix3 (⟨8 * ((c.val + 1) % 4) + k.val, by have hc : c.val < 4 := c.isLt; omega⟩ : Fin 32) d i)
      = KFun.ot m c (nxt c) k (ix3 0 d i) := by
  have hj : k.val < k0_t6_loop.trips := by rw [t6_trips]; exact k.isLt

  have hidx : ∀ (d : Fin 128) (i : Fin 256), (Rect.unit (s := S32x128x256) (k0_off49 c ⟨k.val, hj⟩) S1x128x256.size (k0_off49_inb c ⟨k.val, hj⟩)).emb (ix3 (0 : Fin 1) d i) = ix3 (⟨8 * ((c.val + 1) % 4) + k.val, by have hc : c.val < 4 := c.isLt; omega⟩ : Fin 32) d i := by
    intro d i
    funext a
    refine Fin.ext ?_
    rw [Rect.emb_apply]
    simp only [Rect.off_unit, Rect.stride_unit, Nat.one_mul, off49_eq]
    match a with
    | ⟨0, _⟩ => show 8 * ((c.val + 1) % 4) + k.val + 0 = 8 * ((c.val + 1) % 4) + k.val; rfl
    | ⟨1, _⟩ => show 0 + d.val = d.val; omega
    | ⟨2, _⟩ => show 0 + i.val = i.val; omega
  rw [← hidx d i]
  refine (LoopsV.readS_k0_t6_arg6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v787 v875 v917 hS_arg6 hS_arg7 X_arg10 X_arg15 G_arg6 G_arg7 G_arg12 ⟨k.val, hj⟩ (ix3 (0 : Fin 1) d i)).trans ?_
  rw [LoopsV.payS_k0_t6_arg6_eq]

  have hi10 : ∀ (i : Fin 256) (d : Fin 128), (Rect.unit (s := S32x256x128) (k0_off46 c ⟨k.val, hj⟩) S1x256x128.size (k0_off46_inb c ⟨k.val, hj⟩)).emb (ix3 (0 : Fin 1) i d) = ix3 (⟨8 * ((c.val + 1) % 4) + k.val, by have hc : c.val < 4 := c.isLt; omega⟩ : Fin 32) i d := by
    intro i d
    funext a
    refine Fin.ext ?_
    rw [Rect.emb_apply]
    simp only [Rect.off_unit, Rect.stride_unit, Nat.one_mul, off46_eq]
    match a with
    | ⟨0, _⟩ => show 8 * ((c.val + 1) % 4) + k.val + 0 = 8 * ((c.val + 1) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off47 c ⟨k.val, hj⟩) S1x1x1024x128.size (k0_off47_inb c ⟨k.val, hj⟩)).emb (ix4 (0 : Fin 1) (0 : Fin 1) j d) = ix4 (0 : Fin 2) (⟨2 * ((c.val + 1) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off47_eq]
    match a with
    | ⟨0, _⟩ => rfl
    | ⟨1, _⟩ => show 2 * ((c.val + 1) % 4) + k.val / 4 + 0 = 2 * ((c.val + 1) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off46 c ⟨k.val, hj⟩) S1x256x128.size (k0_off46_inb c ⟨k.val, hj⟩)).toLoadRect X_arg10 = KFun.q2 m c (nxt c) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off47 c ⟨k.val, hj⟩) S1x1x1024x128.size (k0_off47_inb c ⟨k.val, hj⟩)).toLoadRect X_arg15 = KFun.kh m c (nxt c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1

  have hi12 : ∀ (j : Fin 1024) (d : Fin 128), (Rect.unit (s := S2x8x1024x128) (k0_off48 c ⟨k.val, hj⟩) S1x1x1024x128.size (k0_off48_inb c ⟨k.val, hj⟩)).emb (ix4 (0 : Fin 1) (0 : Fin 1) j d) = ix4 (1 : Fin 2) (⟨2 * ((c.val + 1) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off48_eq]
    match a with
    | ⟨0, _⟩ => rfl
    | ⟨1, _⟩ => show 2 * ((c.val + 1) % 4) + k.val / 4 + 0 = 2 * ((c.val + 1) % 4) + (Cert.Attn.kvh k).val; rfl
    | ⟨2, _⟩ => show 0 + j.val = j.val; omega
    | ⟨3, _⟩ => show 0 + d.val = d.val; omega
  have hV : View.readAt (Elt F) kvbM.view (Rect.unit (s := S2x8x1024x128) (k0_off48 c ⟨k.val, hj⟩) S1x1x1024x128.size (k0_off48_inb c ⟨k.val, hj⟩)).toLoadRect X_arg15 = KFun.vh m c (nxt c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi12 j' d')).trans (hkv (Cert.Attn.kvh k) j' d').2
  rw [hQ, hK, hV]
  rfl

/-- and the rows of its block of the partial denominators are that batch's row sums. -/
theorem flashL6_rows (m : (ℓ : Loc nD τ sig) → Buf (Elt F) ℓ) (𝒱 : Variants) (c : Dev nD) (bd : Option 𝒱.V) (arg0 : Memref sig .tc .vmem S4x256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .hbm S4x1024x2x128 .f32) (harg3 : arg3.IsWhole) (arg4 : Memref sig .tc .hbm S4x1024x2x128 .f32) (harg4 : arg4.IsWhole) (arg5 : Memref sig .tc .vmem S4x256x1024 .f32) (harg5 : arg5.IsWhole) (harg6 : locO.IsWhole) (harg7 : locL.IsWhole) (arg8 : Memref sig .tc .vmem S3x8x128x256 .bf16) (harg8 : arg8.IsWhole) (arg9 : Memref sig .tc .vmem S3x8x1x256 .f32) (harg9 : arg9.IsWhole) (harg10 : q2M.IsWhole) (arg11 : Memref sig .tc .vmem S2x8x1024x128 .f32) (harg11 : arg11.IsWhole) (harg12 : ptM.IsWhole) (arg13 : Memref sig .tc .vmem S1024x1024 .bf16) (harg13 : arg13.IsWhole) (arg14 : Memref sig .tc .vmem S1024x1024 .bf16) (harg14 : arg14.IsWhole) (harg15 : kvbM.IsWhole) (arg16 : DmaSems sig S3) (arg17 : DmaSems sig S3) (arg18 : DmaSems sig S3) (arg19 : DmaSems sig S3) (arg20 : DmaSems sig S3) (arg21 : DmaSems sig S3) (arg22 : DmaSems sig S3) (arg23 : DmaSems sig S3) (arg24 : DmaSems sig S3) (arg25 : DmaSems sig S3) (arg26 : DmaSems sig S3) (arg27 : DmaSems sig S3) (arg28 : DmaSems sig S4) (arg29 : Memref sig .tc .vmem S4x256x1024 .bf16) (harg29 : arg29.IsWhole) (v787 : BitVec 32) (v875 : FVec F S256x1024 .f32) (v917 : FVec F S256x128 .bf16) (hS_arg6 : ∀ k : Fin k0_t6_loop.trips, (locO.access (Rect.unit (s := S32x128x256) (k0_off49 c k) S1x128x256.size (k0_off49_inb c k))).set ⊆ (locBlkO c 1).view.set) (hS_arg7 : ∀ k : Fin k0_t6_loop.trips, (locL.access (Rect.unit (s := S32x1x256) (k0_off50 c k) S1x1x256.size (k0_off50_inb c k))).set ⊆ (locBlkL c 1).view.set) (X_arg10 : BufTy.Contents (Elt F) q2M.view.ty) (X_arg15 : BufTy.Contents (Elt F) kvbM.view.ty) (G_arg6 : BufTy.Contents (Elt F) locO.view.ty) (G_arg7 : BufTy.Contents (Elt F) locL.view.ty) (G_arg12 : BufTy.Contents (Elt F) ptM.view.ty)
    (hq : ∀ (h : Fin 8) (i : Fin 256) (d : Fin 128), X_arg10 (ix3 (⟨8 * ((c.val + 1) % 4) + h.val, by have hc : c.val < 4 := c.isLt; omega⟩ : Fin 32) i d) = KFun.q2 m c (nxt c) h (ix3 0 i d)) (hkv : ∀ (g : Fin 2) (j : Fin 1024) (d : Fin 128), X_arg15 (ix4 (0 : Fin 2) (⟨2 * ((c.val + 1) % 4) + g.val, by have hc : c.val < 4 := c.isLt; omega⟩ : Fin 8) j d) = KFun.kh m c (nxt c) g (ix4 0 0 j d) ∧ X_arg15 (ix4 (1 : Fin 2) (⟨2 * ((c.val + 1) % 4) + g.val, by have hc : c.val < 4 := c.isLt; omega⟩ : Fin 8) j d) = KFun.vh m c (nxt c) g (ix4 0 0 j d))
    (k : Fin 8) (i : Fin 256) :
    (locL.view.writes (Elt F) G_arg7 (LoopsV.pbS_k0_t6 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v787 v875 v917 hS_arg6 hS_arg7 X_arg10 X_arg15 G_arg6 G_arg7 G_arg12 k0_t6_loop.trips).2.1) (ix3 (⟨8 * ((c.val + 1) % 4) + k.val, by have hc : c.val < 4 := c.isLt; omega⟩ : Fin 32) (0 : Fin 1) i)
      = KFun.lrow m c (nxt c) k (ix3 0 0 i) := by
  have hj : k.val < k0_t6_loop.trips := by rw [t6_trips]; exact k.isLt
  have hidx : (Rect.unit (s := S32x1x256) (k0_off50 c ⟨k.val, hj⟩) S1x1x256.size (k0_off50_inb c ⟨k.val, hj⟩)).emb (ix3 (0 : Fin 1) (0 : Fin 1) i) = ix3 (⟨8 * ((c.val + 1) % 4) + k.val, by have hc : c.val < 4 := c.isLt; omega⟩ : Fin 32) (0 : Fin 1) i := by
    funext a
    refine Fin.ext ?_
    rw [Rect.emb_apply]
    simp only [Rect.off_unit, Rect.stride_unit, Nat.one_mul, off50_eq]
    match a with
    | ⟨0, _⟩ => show 8 * ((c.val + 1) % 4) + k.val + 0 = 8 * ((c.val + 1) % 4) + k.val; rfl
    | ⟨1, _⟩ => rfl
    | ⟨2, _⟩ => show 0 + i.val = i.val; omega
  rw [← hidx]
  refine (LoopsV.readS_k0_t6_arg7 (F := F) 𝒱 c bd arg0 harg0 arg1 harg1 arg2 harg2 arg3 harg3 arg4 harg4 arg5 harg5 harg6 harg7 arg8 harg8 arg9 harg9 q2M harg10 arg11 harg11 ptM harg12 arg13 harg13 arg14 harg14 kvbM harg15 arg16 arg17 arg18 arg19 arg20 arg21 arg22 arg23 arg24 arg25 arg26 arg27 arg28 arg29 harg29 c v787 v875 v917 hS_arg6 hS_arg7 X_arg10 X_arg15 G_arg6 G_arg7 G_arg12 ⟨k.val, hj⟩ (ix3 (0 : Fin 1) (0 : Fin 1) i)).trans ?_

  have hi10 : ∀ (i : Fin 256) (d : Fin 128), (Rect.unit (s := S32x256x128) (k0_off46 c ⟨k.val, hj⟩) S1x256x128.size (k0_off46_inb c ⟨k.val, hj⟩)).emb (ix3 (0 : Fin 1) i d) = ix3 (⟨8 * ((c.val + 1) % 4) + k.val, by have hc : c.val < 4 := c.isLt; omega⟩ : Fin 32) i d := by
    intro i d
    funext a
    refine Fin.ext ?_
    rw [Rect.emb_apply]
    simp only [Rect.off_unit, Rect.stride_unit, Nat.one_mul, off46_eq]
    match a with
    | ⟨0, _⟩ => show 8 * ((c.val + 1) % 4) + k.val + 0 = 8 * ((c.val + 1) % 4) + k.val; rfl
    | ⟨1, _⟩ => show 0 + i.val = i.val; omega
    | ⟨2, _⟩ => show 0 + d.val = d.val; omega
  have hi11 : ∀ (j : Fin 1024) (d : Fin 128), (Rect.unit (s := S2x8x1024x128) (k0_off47 c ⟨k.val, hj⟩) S1x1x1024x128.size (k0_off47_inb c ⟨k.val, hj⟩)).emb (ix4 (0 : Fin 1) (0 : Fin 1) j d) = ix4 (0 : Fin 2) (⟨2 * ((c.val + 1) % 4) + (Cert.Attn.kvh k).val, by have hc : c.val < 4 := c.isLt; have := (Cert.Attn.kvh k).isLt; omega⟩ : Fin 8) j d := by
    intro j d
    funext a
    refine Fin.ext ?_
    rw [Rect.emb_apply]
    simp only [Rect.off_unit, Rect.stride_unit, Nat.one_mul, off47_eq]
    match a with
    | ⟨0, _⟩ => rfl
    | ⟨1, _⟩ => show 2 * ((c.val + 1) % 4) + k.val / 4 + 0 = 2 * ((c.val + 1) % 4) + (Cert.Attn.kvh k).val; rfl
    | ⟨2, _⟩ => show 0 + j.val = j.val; omega
    | ⟨3, _⟩ => show 0 + d.val = d.val; omega
  have hQ : View.readAt (Elt F) q2M.view (Rect.unit (s := S32x256x128) (k0_off46 c ⟨k.val, hj⟩) S1x256x128.size (k0_off46_inb c ⟨k.val, hj⟩)).toLoadRect X_arg10 = KFun.q2 m c (nxt c) k := by
    funext t
    obtain ⟨u, i', d', rfl⟩ : ∃ (u : Fin 1) (i' : Fin 256) (d' : Fin 128), t = ix3 u i' d' := ⟨t 0, t 1, t 2, eq_ix3 t⟩
    obtain rfl : u = 0 := Subsingleton.elim _ _
    exact (congrArg X_arg10 (hi10 i' d')).trans (hq k i' d')
  have hK : View.readAt (Elt F) kvbM.view (Rect.unit (s := S2x8x1024x128) (k0_off47 c ⟨k.val, hj⟩) S1x1x1024x128.size (k0_off47_inb c ⟨k.val, hj⟩)).toLoadRect X_arg15 = KFun.kh m c (nxt c) (Cert.Attn.kvh k) := by
    funext t
    obtain ⟨u, v, j', d', rfl⟩ : ∃ (u v : Fin 1) (j' : Fin 1024) (d' : Fin 128), t = ix4 u v j' d' := ⟨t 0, t 1, t 2, t 3, eq_ix4 t⟩
    obtain rfl : u = 0 := Subsingleton.elim _ _
    obtain rfl : v = 0 := Subsingleton.elim _ _
    exact (congrArg X_arg15 (hi11 j' d')).trans (hkv (Cert.Attn.kvh k) j' d').1
  rw [hQ, hK]
  rfl

end Cert.Kernel.Proto

end
-- ==== Proof.KB.BodyB.lean ====
/-
  The body from its first flash loop to its third, on device `c`.

  The device stores the last head of batch `c`'s projected queries and runs the flash step of batch `c`; waits for the
  barrier, which hands it its neighbours' landing slices; sends the lower half of block 0 of its partial sums (batch `c`,
  heads 0–3) to the right; waits for the local copies of batch `c + 2`, narrows its key and value planes, projects its
  queries and runs its flash step; sends the upper half of block 2 (batch `c + 2`, heads 4–7) to the left; and does the
  same for batch `c + 3` (block 3).  The rows a flash step leaves in a block are that batch's flash outputs head by head
  — from what the projection and the narrowing stored —, so the halves sent read as the values the schedule names for
  hop 0, and the halves kept carry their rows to the later merges.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.SchedAuto
import proofs.«900754_g7700000000000755_dist_attn_cross_gqa_kvseq_b4_sq256_skv1024_d1024_hq8_dh128_v7x_i4_f32_1_alg».proof.Proof.KB.Unfold
import proofs.«900754_g7700000000000755_dist_attn_cross_gqa_kvseq_b4_sq256_skv1024_d1024_hq8_dh128_v7x_i4_f32_1_alg».proof.Proof.KB.Split
import proofs.«900754_g7700000000000755_dist_attn_cross_gqa_kvseq_b4_sq256_skv1024_d1024_hq8_dh128_v7x_i4_f32_1_alg».proof.Proof.KB.OpSend
import proofs.«900754_g7700000000000755_dist_attn_cross_gqa_kvseq_b4_sq256_skv1024_d1024_hq8_dh128_v7x_i4_f32_1_alg».proof.Proof.KB.OpWait
import proofs.«900754_g7700000000000755_dist_attn_cross_gqa_kvseq_b4_sq256_skv1024_d1024_hq8_dh128_v7x_i4_f32_1_alg».proof.Proof.KB.OpCopy
import proofs.«900754_g7700000000000755_dist_attn_cross_gqa_kvseq_b4_sq256_skv1024_d1024_hq8_dh128_v7x_i4_f32_1_alg».proof.Proof.KB.LoopsUU
import proofs.«900754_g7700000000000755_dist_attn_cross_gqa_kvseq_b4_sq256_skv1024_d1024_hq8_dh128_v7x_i4_f32_1_alg».proof.Proof.KB.LoopsV
import proofs.«900754_g7700000000000755_dist_attn_cross_gqa_kvseq_b4_sq256_skv1024_d1024_hq8_dh128_v7x_i4_f32_1_alg».proof.Proof.KB.LoopsVFacts
import proofs.«900754_g7700000000000755_dist_attn_cross_gqa_kvseq_b4_sq256_skv1024_d1024_hq8_dh128_v7x_i4_f32_1_alg».proof.Proof.KB.KvSplit
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.HbmSplit
import proofs.«900754_g7700000000000755_dist_attn_cross_gqa_kvseq_b4_sq256_skv1024_d1024_hq8_dh128_v7x_i4_f32_1_alg».proof.Proof.KB.Within
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.Bridge
import proofs.«900754_g7700000000000755_dist_attn_cross_gqa_kvseq_b4_sq256_skv1024_d1024_hq8_dh128_v7x_i4_f32_1_alg».proof.Proof.KB.Segs
import proofs.«900754_g7700000000000755_dist_attn_cross_gqa_kvseq_b4_sq256_skv1024_d1024_hq8_dh128_v7x_i4_f32_1_alg».proof.Proof.KB.KvRel
import proofs.«900754_g7700000000000755_dist_attn_cross_gqa_kvseq_b4_sq256_skv1024_d1024_hq8_dh128_v7x_i4_f32_1_alg».proof.Proof.KB.TailSpec
import proofs.«900754_g7700000000000755_dist_attn_cross_gqa_kvseq_b4_sq256_skv1024_d1024_hq8_dh128_v7x_i4_f32_1_alg».proof.Proof.KB.Cut15
import proofs.«900754_g7700000000000755_dist_attn_cross_gqa_kvseq_b4_sq256_skv1024_d1024_hq8_dh128_v7x_i4_f32_1_alg».proof.Proof.KB.Cut27
import proofs.«900754_g7700000000000755_dist_attn_cross_gqa_kvseq_b4_sq256_skv1024_d1024_hq8_dh128_v7x_i4_f32_1_alg».proof.Proof.KB.Rest27
import proofs.«900754_g7700000000000755_dist_attn_cross_gqa_kvseq_b4_sq256_skv1024_d1024_hq8_dh128_v7x_i4_f32_1_alg».proof.Proof.KB.BodyBLemmas
import proofs.«900754_g7700000000000755_dist_attn_cross_gqa_kvseq_b4_sq256_skv1024_d1024_hq8_dh128_v7x_i4_f32_1_alg».proof.Proof.KB.ProjRows
import proofs.«900754_g7700000000000755_dist_attn_cross_gqa_kvseq_b4_sq256_skv1024_d1024_hq8_dh128_v7x_i4_f32_1_alg».proof.Proof.KB.ProjRowsB
import proofs.«900754_g7700000000000755_dist_attn_cross_gqa_kvseq_b4_sq256_skv1024_d1024_hq8_dh128_v7x_i4_f32_1_alg».proof.Proof.KB.KvRead
import Idealize.ShloMosaic.Lib.WritesUnit
import proofs.«900754_g7700000000000755_dist_attn_cross_gqa_kvseq_b4_sq256_skv1024_d1024_hq8_dh128_v7x_i4_f32_1_alg».proof.Proof.KB.FlashRows
import proofs.«900754_g7700000000000755_dist_attn_cross_gqa_kvseq_b4_sq256_skv1024_d1024_hq8_dh128_v7x_i4_f32_1_alg».proof.Proof.Gen.Kernel.Skeleton
import proofs.«900754_g7700000000000755_dist_attn_cross_gqa_kvseq_b4_sq256_skv1024_d1024_hq8_dh128_v7x_i4_f32_1_alg».proof.Proof.Gen.Kernel.Loops
import proofs.«900754_g7700000000000755_dist_attn_cross_gqa_kvseq_b4_sq256_skv1024_d1024_hq8_dh128_v7x_i4_f32_1_alg».proof.Proof.Gen.Kernel.Points
import Idealize.ShloMosaic.Lib.Tactic

set_option maxRecDepth 16384

noncomputable section

namespace Cert.Kernel.Proto

open Cert.Kernel Cert.Kernel.Gen Cert.Kernel.Ring
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

omit [FloatOps F] in
/-- A fact about a block's contents travels with the block. -/
theorem blkO_fact (c : Dev nD) (j : Fin 4) (f : Buf (Elt F) ((c : Thread nD τ).loc cc0_scratch0))
    (P : Buf (Elt F) ((c : Thread nD τ).loc cc0_scratch0) → Prop) (h : P f) :
    ((locBlkO c j).view.loc (c : Thread nD τ) ↦[(locBlkO c j).view.set]{fullShare} f : sProp 𝕄)
      ⊢ iprop(∃ T : Buf (Elt F) ((c : Thread nD τ).loc cc0_scratch0), ((locBlkO c j).view.loc (c : Thread nD τ) ↦[(locBlkO c j).view.set]{fullShare} T) ∗ ⌜P T⌝) := by
  iintro H
  iexists f
  isplitl [H]
  · iexact H
  · ipureintro; exact h
omit [FloatOps F] in
theorem blkL_fact (c : Dev nD) (j : Fin 4) (f : Buf (Elt F) ((c : Thread nD τ).loc cc0_scratch1))
    (P : Buf (Elt F) ((c : Thread nD τ).loc cc0_scratch1) → Prop) (h : P f) :
    ((locBlkL c j).view.loc (c : Thread nD τ) ↦[(locBlkL c j).view.set]{fullShare} f : sProp 𝕄)
      ⊢ iprop(∃ T : Buf (Elt F) ((c : Thread nD τ).loc cc0_scratch1), ((locBlkL c j).view.loc (c : Thread nD τ) ↦[(locBlkL c j).view.set]{fullShare} T) ∗ ⌜P T⌝) := by
  iintro H
  iexists f
  isplitl [H]
  · iexact H
  · ipureintro; exact h

/-- Batch `c`'s query rows once head 7 is stored: heads 0–6 as they were, head 7 from the projected queries. -/
theorem q2rows_c (m : (ℓ : Loc nD τ sig) → Buf (Elt F) ℓ) (c : Dev nD) (f4 : Buf (Elt F) ((c : Thread nD τ).loc cc0_scratch4))
    (v226 : FVec F S256x1024 .f32) (hv226 : v226 = KFun.qb m c c)
    (hq2 : ∀ (h : Fin 8), h.val < 7 → ∀ (i : Fin 256) (d : Fin 128),
        f4 (ix3 (⟨8 * c.val + h.val, by have : c.val < 4 := c.isLt; omega⟩ : Fin 32) i d) = KFun.q2 m c c h (ix3 0 i d))
    (h : Fin 8) (i : Fin 256) (d : Fin 128) :
    ((Memref.whole cc0_scratch4 : Memref sig .tc .vmem S32x256x128 .bf16).view.writes (Elt F) f4
        [⟨Rect.unit (s := S32x256x128) (k0_off9 c 7#32) S1x256x128.size (k0_off9_inb c 7), k0_pay37 v226⟩])
      (ix3 (⟨8 * c.val + h.val, by have hc : c.val < 4 := c.isLt; omega⟩ : Fin 32) i d) = KFun.q2 m c c h (ix3 0 i d) := by
  have hc : c.val < 4 := c.isLt
  refine Eq.trans (congrFun (View.read_whole (Val := Elt F) cc0_scratch4 _).symm (ix3 (⟨8 * c.val + h.val, by omega⟩ : Fin 32) i d)) ?_
  show (Memref.whole cc0_scratch4 : Memref sig .tc .vmem S32x256x128 .bf16).view.read (Elt F) _ _ = _
  by_cases h7 : h.val = 7
  · have hh : h = 7 := Fin.ext h7
    subst hh
    refine Eq.trans (View.read_writes_cons_unit_of_mem (s := S32x256x128) (off := k0_off9 c 7#32) (off' := ![8 * c.val + (7 : Fin 8).val, 0, 0])
      (Memref.whole cc0_scratch4 : Memref sig .tc .vmem S32x256x128 .bf16).view f4 (k0_off9_inb c 7) (k0_pay37 v226) []
      (ix3 (⟨8 * c.val + (7 : Fin 8).val, by omega⟩ : Fin 32) i d) (ix3 0 i d) (k0_off9_eq c 7) (fun a => by
        match a with
        | ⟨0, _⟩ => show 8 * c.val + 7 = 8 * c.val + 7 + 0; rfl
        | ⟨1, _⟩ => show i.val = 0 + i.val; omega
        | ⟨2, _⟩ => show d.val = 0 + d.val; omega)) ?_
    rw [hv226]
    rfl
  · refine Eq.trans (View.read_writes_cons_unit_of_not_mem (s := S32x256x128) (off := k0_off9 c 7#32) (off' := ![8 * c.val + (7 : Fin 8).val, 0, 0])
      (Memref.whole cc0_scratch4 : Memref sig .tc .vmem S32x256x128 .bf16).view f4 (k0_off9_inb c 7) (k0_pay37 v226) []
      (ix3 (⟨8 * c.val + h.val, by omega⟩ : Fin 32) i d) (k0_off9_eq c 7) 0 (Or.inl (by show 8 * c.val + h.val < 8 * c.val + 7; have := h.isLt; omega))) ?_
    rw [View.writes_nil, View.read_whole]
    exact hq2 h (by have := h.isLt; omega) i d

set_option maxHeartbeats 400000000 in
theorem segB_run (m : (ℓ : Loc nD τ sig) → Buf (Elt F) ℓ) (c : Dev nD) (K : Names) (W : Waits sig Unit) (v2 v14 v25 : BitVec 32) (v26 : Sems sig S_)
    (v226 : FVec F S256x1024 .f32) :
    At15 m c K W v26 v226
      ⊢ wp frame (wpE (defs₀ (F := F)) 𝒱₀ (c : Thread nD τ) none) Set.univ
          (segBProg (F := F) (win0_0.stage (cfg0.slots t0_0 0)) (hstage0_0 0) (win0_1.stage (cfg0.slots t0_0 1)) (hstage0_1 0) (win0_2.stage (cfg0.slots t0_0 2)) (hstage0_2 0) (Memref.whole main_arg3) (Memref.isWhole_whole _) (Memref.whole main_arg4) (Memref.isWhole_whole _) (win0_3.stage (cfg0.slots t0_0 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v26 v226)
          (fun _ => iprop(∃ W', At27 m c K W' (Rest27 m c) c v2 v14 v25)) := by
  unfold At15 kvCut15 invs freshX words15
  simp only [bigSep_xfer, bigSep_fin4]
  iintro ⟨⟨#HIb, ⟨⟨#HIs_o0R, #HIr_o0R, #HIn_o0R⟩, ⟨#HIs_l0R, #HIr_l0R, #HIn_l0R⟩, ⟨#HIs_o0L, #HIr_o0L, #HIn_o0L⟩, ⟨#HIs_l0L, #HIr_l0L, #HIn_l0L⟩, ⟨#HIs_o1R, #HIr_o1R, #HIn_o1R⟩, ⟨#HIs_o1L, #HIr_o1L, #HIn_o1L⟩, ⟨#HIs_l1R, #HIr_l1R, #HIn_l1R⟩, ⟨#HIs_l1L, #HIr_l1L, #HIn_l1L⟩, ⟨#HIs_o2R, #HIr_o2R, #HIn_o2R⟩, ⟨#HIs_o2L, #HIr_o2L, #HIn_o2L⟩, ⟨#HIs_l2R, #HIr_l2R, #HIn_l2R⟩, ⟨#HIs_l2L, #HIr_l2L, #HIn_l2L⟩, ⟨#HIs_g0R, #HIr_g0R, #HIn_g0R⟩, ⟨#HIs_g0L, #HIr_g0L, #HIn_g0L⟩, ⟨#HIs_g1R, #HIr_g1R, #HIn_g1R⟩, ⟨#HIs_g1L, #HIr_g1L, #HIn_g1L⟩, ⟨#HIs_g2R, #HIr_g2R, #HIn_g2R⟩, ⟨#HIs_g2L, #HIr_g2L, #HIn_g2L⟩⟩, #HIbn, #HIbp⟩, #Hlev, ⟨%hv26, %hv226⟩, HO, Hcb, Hatb, ⟨⟨Has_o0R, Har_o0R, Hts_o0R, Htn_o0R, Hc_o0R, #Hrs_o0R, #Hrr_o0R⟩, ⟨Has_l0R, Har_l0R, Hts_l0R, Htn_l0R, Hc_l0R, #Hrs_l0R, #Hrr_l0R⟩, ⟨Has_o0L, Har_o0L, Hts_o0L, Htn_o0L, Hc_o0L, #Hrs_o0L, #Hrr_o0L⟩, ⟨Has_l0L, Har_l0L, Hts_l0L, Htn_l0L, Hc_l0L, #Hrs_l0L, #Hrr_l0L⟩, ⟨Has_o1R, Har_o1R, Hts_o1R, Htn_o1R, Hc_o1R, #Hrs_o1R, #Hrr_o1R⟩, ⟨Has_o1L, Har_o1L, Hts_o1L, Htn_o1L, Hc_o1L, #Hrs_o1L, #Hrr_o1L⟩, ⟨Has_l1R, Har_l1R, Hts_l1R, Htn_l1R, Hc_l1R, #Hrs_l1R, #Hrr_l1R⟩, ⟨Has_l1L, Har_l1L, Hts_l1L, Htn_l1L, Hc_l1L, #Hrs_l1L, #Hrr_l1L⟩, ⟨Has_o2R, Har_o2R, Hts_o2R, Htn_o2R, Hc_o2R, #Hrs_o2R, #Hrr_o2R⟩, ⟨Has_o2L, Har_o2L, Hts_o2L, Htn_o2L, Hc_o2L, #Hrs_o2L, #Hrr_o2L⟩, ⟨Has_l2R, Har_l2R, Hts_l2R, Htn_l2R, Hc_l2R, #Hrs_l2R, #Hrr_l2R⟩, ⟨Has_l2L, Har_l2L, Hts_l2L, Htn_l2L, Hc_l2L, #Hrs_l2L, #Hrr_l2L⟩, ⟨Has_g0R, Har_g0R, Hts_g0R, Htn_g0R, Hc_g0R, #Hrs_g0R, #Hrr_g0R⟩, ⟨Has_g0L, Har_g0L, Hts_g0L, Htn_g0L, Hc_g0L, #Hrs_g0L, #Hrr_g0L⟩, ⟨Has_g1R, Har_g1R, Hts_g1R, Htn_g1R, Hc_g1R, #Hrs_g1R, #Hrr_g1R⟩, ⟨Has_g1L, Har_g1L, Hts_g1L, Htn_g1L, Hc_g1L, #Hrs_g1L, #Hrr_g1L⟩, ⟨Has_g2R, Har_g2R, Hts_g2R, Htn_g2R, Hc_g2R, #Hrs_g2R, #Hrr_g2R⟩, ⟨Has_g2L, Har_g2L, Hts_g2L, Htn_g2L, Hc_g2L, #Hrs_g2L, #Hrr_g2L⟩⟩, Hx, Hwq, Hwo, ⟨%g3, Hout⟩, ⟨%f4, Hq2, %hq2⟩, ⟨%f6, Hpt⟩, Hwqb, Hwob, ⟨%f9, Hkvb, %hkvb⟩, ⟨%f5, %vals, %hvals, ⟨Hbat2, Hbat3, Hbat1⟩, ⟨Hkv00, Hkv10, Hkv01, Hkv11⟩, ⟨HsK00, HsV00, HsK01, HsV01⟩, Hcs0, Hkept⟩, ⟨HbO0, HbO1, HbO2, HbO3⟩, ⟨HbL0, HbL1, HbL2, HbL3⟩, ⟨%f23, Hg_ownR, Hg_ownL⟩⟩
  subst hv26
  unfold held
  icases HbO0 with ⟨%fO0, HbO0⟩
  icases HbL0 with ⟨%fL0, HbL0⟩
  icases HbO2 with ⟨%fO2, HbO2⟩
  icases HbL2 with ⟨%fL2, HbL2⟩
  icases HbO3 with ⟨%fO3, HbO3⟩
  icases HbL3 with ⟨%fL3, HbL3⟩
  ihave Hpt := (Entails.of_eq (whole_pts (F := F) c cc0_scratch6 f6)) $$ Hpt
  have h6 := LoopsV.t1_arg6_within c
  have h7 := LoopsV.t1_arg7_within c
  unfold segBProg
  sl_exec
  ihave HbO0' := (blkO_fact (F := F) c 0 _ (fun T => ∀ (k : Fin 8) (d : Fin 128) (i : Fin 256), T (ix3 (⟨8 * c.val + k.val, by have hc : c.val < 4 := c.isLt; omega⟩ : Fin 32) d i) = KFun.ot m c c k (ix3 0 d i))
    (by
      intro k d i
      apply flashO1_rows
      · exact fun h i d => q2rows_c m c f4 v226 hv226 hq2 h i d
      · exact hkvb)) $$ HbO0
  icases HbO0' with ⟨%TO0, HbO0, %hTO0⟩
  ihave HbL0' := (blkL_fact (F := F) c 0 _ (fun T => ∀ (k : Fin 8) (i : Fin 256), T (ix3 (⟨8 * c.val + k.val, by have hc : c.val < 4 := c.isLt; omega⟩ : Fin 32) (0 : Fin 1) i) = KFun.lrow m c c k (ix3 0 0 i))
    (by
      intro k i
      apply flashL1_rows
      · exact fun h i d => q2rows_c m c f4 v226 hv226 hq2 h i d
      · exact hkvb)) $$ HbL0
  icases HbL0' with ⟨%TL0, HbL0, %hTL0⟩
  iapply (wp_bar_wait (KFun.V m) c (prog.drop 2) W (K (c, none)) (a := (2#32).toNat) (by decide)) $$ [Hcb HO Hatb]
  · isplitr; · iexact HIb
    isplitl [Hcb]; · iexact Hcb
    isplitl [HO]; · iexact HO
    isplitr
    · iapply (mayWait_bar c); iexact Hlev
    · iexact Hatb
  iintro ⟨HO, Hatb, HpF, HpT⟩
  ihave HqF := (Entails.of_eq (barPay_false (F := F) c)) $$ HpF
  ihave HqT := (Entails.of_eq (barPay_true (F := F) c)) $$ HpT
  icases HqF with ⟨HnO0, HnL0, HnG0, #HnrO0, #HnrL0, #HnrG0, HnO1, HnL1, HnG1, #HnrO1, #HnrL1, #HnrG1, HnO2, HnL2, HnG2, #HnrO2, #HnrL2, #HnrG2⟩
  icases HqT with ⟨HpO0, HpL0, HpG0, #HprO0, #HprL0, #HprG0, HpO1, HpL1, HpG1, #HprO1, #HprL1, #HprG1, HpO2, HpL2, HpG2, #HprO2, #HprL2, #HprG2⟩
  sl_exec
  -- the numerators' first copy to the right: cut block 0 into its halves, lend the first
  ihave Hh := (Entails.of_eq (locO_halves_eq (F := F) c 0 _)) $$ HbO0
  icases Hh with ⟨HhO0f, HhO0t⟩
  ihave HsO := (Entails.of_eq (halfO_0f_pts (F := F) c _)) $$ HhO0f
  iapply (wp_send_o (KFun.V m) c _ false 0 (dev3_eq c) _ (KFun.vo0_false_of_rows m c TO0 (fun k d i => hTO0 ⟨k.val, by omega⟩ d i)) (prog.drop 3) _ (K (c, some (.o, false, 0, true))) (K (toDev c false, some (.o, false, 0, false)))) $$ [HsO HnO0 HO Hts_o0R Htn_o0R]
  · isplitr; · iexact HIs_o0R
    isplitr; · iexact HIn_o0R
    isplitl [HsO]; · iexact HsO
    isplitl [HnO0]; · (unfold held; iexact HnO0)
    isplitl [HO]; · iexact HO
    isplitl [Hts_o0R]; · iexact Hts_o0R
    isplitr; · iexact Hrs_o0R
    isplitl [Htn_o0R]; · iexact Htn_o0R
    iexact HnrO0
  iintro ⟨Hcs_o0R, HO⟩
  sl_exec
  -- the denominators' likewise
  ihave Hh := (Entails.of_eq (locL_halves_eq (F := F) c 0 _)) $$ HbL0
  icases Hh with ⟨HhL0f, HhL0t⟩
  ihave HsL := (Entails.of_eq (halfL_0f_pts (F := F) c _)) $$ HhL0f
  iapply (wp_send_l (KFun.V m) c _ false 0 (dev4_eq c) _ (KFun.vl0_false_of_rows m c TL0 (fun k i => hTL0 ⟨k.val, by omega⟩ i)) (prog.drop 4) _ (K (c, some (.l, false, 0, true))) (K (toDev c false, some (.l, false, 0, false)))) $$ [HsL HnL0 HO Hts_l0R Htn_l0R]
  · isplitr; · iexact HIs_l0R
    isplitr; · iexact HIn_l0R
    isplitl [HsL]; · iexact HsL
    isplitl [HnL0]; · (unfold held; iexact HnL0)
    isplitl [HO]; · iexact HO
    isplitl [Hts_l0R]; · iexact Hts_l0R
    isplitr; · iexact Hrs_l0R
    isplitl [Htn_l0R]; · iexact Htn_l0R
    iexact HnrL0
  iintro ⟨Hcs_l0R, HO⟩
  -- batch c + 2: its four waits, its casts, its projection, its flash loop
  unfold batD cpBatch cpDeliv kvPl
  have hmw2 := mayWait_low (F := F) c (csemD c 2) (cellRole_ge _ (by rw [csemD_val]; omega)) (prog.drop 4)
  unfold csemD at hmw2 ⊢
  have h6b := LoopsV.t2_arg6_within c
  have h7b := LoopsV.t2_arg7_within c
  sl_exec
  ihave HbO2' := (blkO_fact (F := F) c 2 _ (fun T => ∀ (k : Fin 8) (d : Fin 128) (i : Fin 256), T (ix3 (⟨8 * ((c.val + 2) % 4) + k.val, by have hc : c.val < 4 := c.isLt; omega⟩ : Fin 32) d i) = KFun.ot m c (nxt (nxt c)) k (ix3 0 d i))
    (by
      intro k d i
      apply flashO2_rows
      · intro h i d
        exact Rows.q2rows_w2 m c f4 _ _ _ _ _ _ (Rows.xblk_of_load m c (nxt (nxt c)) _ (Rows.off24_w2 c) _ _ (Rows.stage0_eq m c)) (Rows.wqb_load c _) rfl rfl rfl h i d
      · intro g j d
        refine Rows.kvrows_w2p m c f9 _ _ _ _ _ _ ?_ ?_ ?_ ?_ rfl g j d
        · rw [← Rows.bIdx_two c]; exact kh_of_copy m c 2 0 _ _ _ _ ((off22_eq c 1 0).trans (off18_eq c 1 0).symm) _ (hvals 2 0).1
        · rw [← Rows.bIdx_two c]; exact vh_of_copy m c 2 0 _ _ _ _ ((off23_eq c 1 0).trans (off20_eq c 1 0).symm) _ (hvals 2 0).2
        · rw [← Rows.bIdx_two c]; exact kh_of_copy m c 2 1 _ _ _ _ ((off22_eq c 1 1).trans (off18_eq c 1 1).symm) _ (hvals 2 1).1
        · rw [← Rows.bIdx_two c]; exact vh_of_copy m c 2 1 _ _ _ _ ((off23_eq c 1 1).trans (off20_eq c 1 1).symm) _ (hvals 2 1).2)) $$ HbO2
  icases HbO2' with ⟨%TO2, HbO2, %hTO2⟩
  ihave HbL2' := (blkL_fact (F := F) c 2 _ (fun T => ∀ (k : Fin 8) (i : Fin 256), T (ix3 (⟨8 * ((c.val + 2) % 4) + k.val, by have hc : c.val < 4 := c.isLt; omega⟩ : Fin 32) (0 : Fin 1) i) = KFun.lrow m c (nxt (nxt c)) k (ix3 0 0 i))
    (by
      intro k i
      apply flashL2_rows
      · intro h i d
        exact Rows.q2rows_w2 m c f4 _ _ _ _ _ _ (Rows.xblk_of_load m c (nxt (nxt c)) _ (Rows.off24_w2 c) _ _ (Rows.stage0_eq m c)) (Rows.wqb_load c _) rfl rfl rfl h i d
      · intro g j d
        refine Rows.kvrows_w2p m c f9 _ _ _ _ _ _ ?_ ?_ ?_ ?_ rfl g j d
        · rw [← Rows.bIdx_two c]; exact kh_of_copy m c 2 0 _ _ _ _ ((off22_eq c 1 0).trans (off18_eq c 1 0).symm) _ (hvals 2 0).1
        · rw [← Rows.bIdx_two c]; exact vh_of_copy m c 2 0 _ _ _ _ ((off23_eq c 1 0).trans (off20_eq c 1 0).symm) _ (hvals 2 0).2
        · rw [← Rows.bIdx_two c]; exact kh_of_copy m c 2 1 _ _ _ _ ((off22_eq c 1 1).trans (off18_eq c 1 1).symm) _ (hvals 2 1).1
        · rw [← Rows.bIdx_two c]; exact vh_of_copy m c 2 1 _ _ _ _ ((off23_eq c 1 1).trans (off20_eq c 1 1).symm) _ (hvals 2 1).2)) $$ HbL2
  icases HbL2' with ⟨%TL2, HbL2, %hTL2⟩
  -- the numerators' first copy to the left: cut block 2 into its halves, lend the second
  ihave Hh := (Entails.of_eq (locO_halves_eq (F := F) c 2 _)) $$ HbO2
  icases Hh with ⟨HhO2f, HhO2t⟩
  ihave HsO := (Entails.of_eq (halfO_2t_pts (F := F) c _)) $$ HhO2t
  iapply (wp_send_o (KFun.V m) c _ true 0 (dev5_eq c) _ (KFun.vo0_true_of_rows m c TO2 (fun k d i => (congrArg (fun r => TO2 (ix3 r d i)) (Fin.ext (by show 8 * ((c.val + 2) % 4) + 4 + k.val = 8 * ((c.val + 2) % 4) + (k.val + 4); omega))).trans (hTO2 ⟨k.val + 4, by omega⟩ d i))) (prog.drop 5) _ (K (c, some (.o, true, 0, true))) (K (toDev c true, some (.o, true, 0, false)))) $$ [HsO HpO0 HO Hts_o0L Htn_o0L]
  · isplitr; · iexact HIs_o0L
    isplitr; · iexact HIn_o0L
    isplitl [HsO]; · iexact HsO
    isplitl [HpO0]; · (unfold held; iexact HpO0)
    isplitl [HO]; · iexact HO
    isplitl [Hts_o0L]; · iexact Hts_o0L
    isplitr; · iexact Hrs_o0L
    isplitl [Htn_o0L]; · iexact Htn_o0L
    iexact HprO0
  iintro ⟨Hcs_o0L, HO⟩
  sl_exec
  ihave Hh := (Entails.of_eq (locL_halves_eq (F := F) c 2 _)) $$ HbL2
  icases Hh with ⟨HhL2f, HhL2t⟩
  ihave HsL := (Entails.of_eq (halfL_2t_pts (F := F) c _)) $$ HhL2t
  iapply (wp_send_l (KFun.V m) c _ true 0 (dev6_eq c) _ (KFun.vl0_true_of_rows m c TL2 (fun k i => (congrArg (fun r => TL2 (ix3 r (0 : Fin 1) i)) (Fin.ext (by show 8 * ((c.val + 2) % 4) + 4 + k.val = 8 * ((c.val + 2) % 4) + (k.val + 4); omega))).trans (hTL2 ⟨k.val + 4, by omega⟩ i))) (prog.drop 6) _ (K (c, some (.l, true, 0, true))) (K (toDev c true, some (.l, true, 0, false)))) $$ [HsL HpL0 HO Hts_l0L Htn_l0L]
  · isplitr; · iexact HIs_l0L
    isplitr; · iexact HIn_l0L
    isplitl [HsL]; · iexact HsL
    isplitl [HpL0]; · (unfold held; iexact HpL0)
    isplitl [HO]; · iexact HO
    isplitl [Hts_l0L]; · iexact Hts_l0L
    isplitr; · iexact Hrs_l0L
    isplitl [Htn_l0L]; · iexact Htn_l0L
    iexact HprL0
  iintro ⟨Hcs_l0L, HO⟩
  -- batch c + 3: its four waits, its casts, its projection, its flash loop
  unfold later3 batD cpBatch cpDeliv kvPl
  have hmw3 := mayWait_low (F := F) c (csemD c 3) (cellRole_ge _ (by rw [csemD_val]; omega)) (prog.drop 6)
  unfold csemD at hmw3 ⊢
  have h6c := LoopsV.t3_arg6_within c
  have h7c := LoopsV.t3_arg7_within c
  sl_exec
  ihave HbO3' := (blkO_fact (F := F) c 3 _ (fun T => ∀ (k : Fin 8) (d : Fin 128) (i : Fin 256), T (ix3 (⟨8 * ((c.val + 3) % 4) + k.val, by have hc : c.val < 4 := c.isLt; omega⟩ : Fin 32) d i) = KFun.ot m c (prv c) k (ix3 0 d i))
    (by
      intro k d i
      apply flashO3_rows
      · intro h i d
        exact Rows.q2rows_w3 m c f4 _ _ _ _ _ (Rows.xblk_of_load m c (prv c) _ (Rows.off24_w3 c) _ _ (Rows.stage0_eq m c)) (Rows.wqb_load c _) rfl rfl h i d
      · intro g j d
        refine Rows.kvrows_w3p m c f9 _ _ _ _ _ _ ?_ ?_ ?_ ?_ rfl g j d
        · rw [← Rows.bIdx_three c]; exact kh_of_copy m c 3 0 _ _ _ _ ((off22_eq c 2 0).trans (off18_eq c 2 0).symm) _ (hvals 3 0).1
        · rw [← Rows.bIdx_three c]; exact vh_of_copy m c 3 0 _ _ _ _ ((off23_eq c 2 0).trans (off20_eq c 2 0).symm) _ (hvals 3 0).2
        · rw [← Rows.bIdx_three c]; exact kh_of_copy m c 3 1 _ _ _ _ ((off22_eq c 2 1).trans (off18_eq c 2 1).symm) _ (hvals 3 1).1
        · rw [← Rows.bIdx_three c]; exact vh_of_copy m c 3 1 _ _ _ _ ((off23_eq c 2 1).trans (off20_eq c 2 1).symm) _ (hvals 3 1).2)) $$ HbO3
  icases HbO3' with ⟨%TO3, HbO3, %hTO3⟩
  ihave HbL3' := (blkL_fact (F := F) c 3 _ (fun T => ∀ (k : Fin 8) (i : Fin 256), T (ix3 (⟨8 * ((c.val + 3) % 4) + k.val, by have hc : c.val < 4 := c.isLt; omega⟩ : Fin 32) (0 : Fin 1) i) = KFun.lrow m c (prv c) k (ix3 0 0 i))
    (by
      intro k i
      apply flashL3_rows
      · intro h i d
        exact Rows.q2rows_w3 m c f4 _ _ _ _ _ (Rows.xblk_of_load m c (prv c) _ (Rows.off24_w3 c) _ _ (Rows.stage0_eq m c)) (Rows.wqb_load c _) rfl rfl h i d
      · intro g j d
        refine Rows.kvrows_w3p m c f9 _ _ _ _ _ _ ?_ ?_ ?_ ?_ rfl g j d
        · rw [← Rows.bIdx_three c]; exact kh_of_copy m c 3 0 _ _ _ _ ((off22_eq c 2 0).trans (off18_eq c 2 0).symm) _ (hvals 3 0).1
        · rw [← Rows.bIdx_three c]; exact vh_of_copy m c 3 0 _ _ _ _ ((off23_eq c 2 0).trans (off20_eq c 2 0).symm) _ (hvals 3 0).2
        · rw [← Rows.bIdx_three c]; exact kh_of_copy m c 3 1 _ _ _ _ ((off22_eq c 2 1).trans (off18_eq c 2 1).symm) _ (hvals 3 1).1
        · rw [← Rows.bIdx_three c]; exact vh_of_copy m c 3 1 _ _ _ _ ((off23_eq c 2 1).trans (off20_eq c 2 1).symm) _ (hvals 3 1).2)) $$ HbL3
  icases HbL3' with ⟨%TL3, HbL3, %hTL3⟩
  sl_step
  ihave Hh3 := (Entails.of_eq (locO_halves_eq (F := F) c 3 _)) $$ HbO3
  icases Hh3 with ⟨HhO3f, HhO3t⟩
  ihave Hh3 := (Entails.of_eq (locL_halves_eq (F := F) c 3 _)) $$ HbL3
  icases Hh3 with ⟨HhL3f, HhL3t⟩
  iexists _
  unfold At27 C27.sentX C27.freshO C27.freshL C27.blk3O C27.blk3L Rest27 drained nbrSlices halfRowsO halfRowsL freshX held csemD invs
  simp only [bigSep_fin4, bigSep_xfer]
  isplitr
  · ipureintro; trivial
  isplitr
  · isplitr
    · iexact HIb
    isplitr
    · isplitr
      · isplitr
        · iexact HIs_o0R
        isplitr
        · iexact HIr_o0R
        iexact HIn_o0R
      isplitr
      · isplitr
        · iexact HIs_l0R
        isplitr
        · iexact HIr_l0R
        iexact HIn_l0R
      isplitr
      · isplitr
        · iexact HIs_o0L
        isplitr
        · iexact HIr_o0L
        iexact HIn_o0L
      isplitr
      · isplitr
        · iexact HIs_l0L
        isplitr
        · iexact HIr_l0L
        iexact HIn_l0L
      isplitr
      · isplitr
        · iexact HIs_o1R
        isplitr
        · iexact HIr_o1R
        iexact HIn_o1R
      isplitr
      · isplitr
        · iexact HIs_o1L
        isplitr
        · iexact HIr_o1L
        iexact HIn_o1L
      isplitr
      · isplitr
        · iexact HIs_l1R
        isplitr
        · iexact HIr_l1R
        iexact HIn_l1R
      isplitr
      · isplitr
        · iexact HIs_l1L
        isplitr
        · iexact HIr_l1L
        iexact HIn_l1L
      isplitr
      · isplitr
        · iexact HIs_o2R
        isplitr
        · iexact HIr_o2R
        iexact HIn_o2R
      isplitr
      · isplitr
        · iexact HIs_o2L
        isplitr
        · iexact HIr_o2L
        iexact HIn_o2L
      isplitr
      · isplitr
        · iexact HIs_l2R
        isplitr
        · iexact HIr_l2R
        iexact HIn_l2R
      isplitr
      · isplitr
        · iexact HIs_l2L
        isplitr
        · iexact HIr_l2L
        iexact HIn_l2L
      isplitr
      · isplitr
        · iexact HIs_g0R
        isplitr
        · iexact HIr_g0R
        iexact HIn_g0R
      isplitr
      · isplitr
        · iexact HIs_g0L
        isplitr
        · iexact HIr_g0L
        iexact HIn_g0L
      isplitr
      · isplitr
        · iexact HIs_g1R
        isplitr
        · iexact HIr_g1R
        iexact HIn_g1R
      isplitr
      · isplitr
        · iexact HIs_g1L
        isplitr
        · iexact HIr_g1L
        iexact HIn_g1L
      isplitr
      · isplitr
        · iexact HIs_g2R
        isplitr
        · iexact HIr_g2R
        iexact HIn_g2R
      isplitr
      · iexact HIs_g2L
      isplitr
      · iexact HIr_g2L
      iexact HIn_g2L
    isplitr
    · iexact HIbn
    iexact HIbp
  isplitr
  · iexact Hlev
  isplitl [HO]
  · iexact HO
  isplitl [Has_o0R Har_o0R Hcs_o0R Hc_o0R Has_l0R Har_l0R Hcs_l0R Hc_l0R Has_o0L Har_o0L Hcs_o0L Hc_o0L Has_l0L Har_l0L Hcs_l0L Hc_l0L]
  · isplitl [Has_o0R Har_o0R Hcs_o0R Hc_o0R]
    · isplitl [Has_o0R]
      · iexact Has_o0R
      isplitl [Har_o0R]
      · iexact Har_o0R
      isplitl [Hcs_o0R]
      · iexact Hcs_o0R
      iexact Hc_o0R
    isplitl [Has_l0R Har_l0R Hcs_l0R Hc_l0R]
    · isplitl [Has_l0R]
      · iexact Has_l0R
      isplitl [Har_l0R]
      · iexact Har_l0R
      isplitl [Hcs_l0R]
      · iexact Hcs_l0R
      iexact Hc_l0R
    isplitl [Has_o0L Har_o0L Hcs_o0L Hc_o0L]
    · isplitl [Has_o0L]
      · iexact Has_o0L
      isplitl [Har_o0L]
      · iexact Har_o0L
      isplitl [Hcs_o0L]
      · iexact Hcs_o0L
      iexact Hc_o0L
    isplitl [Has_l0L]
    · iexact Has_l0L
    isplitl [Har_l0L]
    · iexact Har_l0L
    isplitl [Hcs_l0L]
    · iexact Hcs_l0L
    iexact Hc_l0L
  isplitl [Has_o1R Har_o1R Hts_o1R Htn_o1R Hc_o1R HnO1 Has_o1L Har_o1L Hts_o1L Htn_o1L Hc_o1L HpO1 Has_l1R Har_l1R Hts_l1R Htn_l1R Hc_l1R HnL1 Has_l1L Har_l1L Hts_l1L Htn_l1L Hc_l1L HpL1]
  · isplitl [Has_o1R Har_o1R Hts_o1R Htn_o1R Hc_o1R HnO1]
    · isplitl [Has_o1R]
      · iexact Has_o1R
      isplitl [Har_o1R]
      · iexact Har_o1R
      isplitl [Hts_o1R]
      · iexact Hts_o1R
      isplitl [Htn_o1R]
      · iexact Htn_o1R
      isplitl [Hc_o1R]
      · iexact Hc_o1R
      isplitl [HnO1]
      · iexact HnO1
      isplitr
      · iexact Hrs_o1R
      iexact HnrO1
    isplitl [Has_o1L Har_o1L Hts_o1L Htn_o1L Hc_o1L HpO1]
    · isplitl [Has_o1L]
      · iexact Has_o1L
      isplitl [Har_o1L]
      · iexact Har_o1L
      isplitl [Hts_o1L]
      · iexact Hts_o1L
      isplitl [Htn_o1L]
      · iexact Htn_o1L
      isplitl [Hc_o1L]
      · iexact Hc_o1L
      isplitl [HpO1]
      · iexact HpO1
      isplitr
      · iexact Hrs_o1L
      iexact HprO1
    isplitl [Has_l1R Har_l1R Hts_l1R Htn_l1R Hc_l1R HnL1]
    · isplitl [Has_l1R]
      · iexact Has_l1R
      isplitl [Har_l1R]
      · iexact Har_l1R
      isplitl [Hts_l1R]
      · iexact Hts_l1R
      isplitl [Htn_l1R]
      · iexact Htn_l1R
      isplitl [Hc_l1R]
      · iexact Hc_l1R
      isplitl [HnL1]
      · iexact HnL1
      isplitr
      · iexact Hrs_l1R
      iexact HnrL1
    isplitl [Has_l1L]
    · iexact Has_l1L
    isplitl [Har_l1L]
    · iexact Har_l1L
    isplitl [Hts_l1L]
    · iexact Hts_l1L
    isplitl [Htn_l1L]
    · iexact Htn_l1L
    isplitl [Hc_l1L]
    · iexact Hc_l1L
    isplitl [HpL1]
    · iexact HpL1
    isplitr
    · iexact Hrs_l1L
    iexact HprL1
  isplitl [HhO3f HhO3t]
  · iexists _
    isplitl [HhO3f]
    · iexact HhO3f
    isplitl [HhO3t]
    · iexact HhO3t
    · ipureintro; exact hTO3
  isplitl [HhL3f HhL3t]
  · iexists _
    isplitl [HhL3f]
    · iexact HhL3f
    isplitl [HhL3t]
    · iexact HhL3t
    · ipureintro; exact hTL3
  isplitl [Hatb]
  · iexact Hatb
  isplitl [Has_o2R Har_o2R Hts_o2R Htn_o2R Hc_o2R Has_o2L Har_o2L Hts_o2L Htn_o2L Hc_o2L Has_l2R Har_l2R Hts_l2R Htn_l2R Hc_l2R Has_l2L Har_l2L Hts_l2L Htn_l2L Hc_l2L]
  · isplitl [Has_o2R Har_o2R Hts_o2R Htn_o2R Hc_o2R]
    · isplitl [Has_o2R]
      · iexact Has_o2R
      isplitl [Har_o2R]
      · iexact Har_o2R
      isplitl [Hts_o2R]
      · iexact Hts_o2R
      isplitl [Htn_o2R]
      · iexact Htn_o2R
      isplitl [Hc_o2R]
      · iexact Hc_o2R
      isplitr
      · iexact Hrs_o2R
      iexact Hrr_o2R
    isplitl [Has_o2L Har_o2L Hts_o2L Htn_o2L Hc_o2L]
    · isplitl [Has_o2L]
      · iexact Has_o2L
      isplitl [Har_o2L]
      · iexact Har_o2L
      isplitl [Hts_o2L]
      · iexact Hts_o2L
      isplitl [Htn_o2L]
      · iexact Htn_o2L
      isplitl [Hc_o2L]
      · iexact Hc_o2L
      isplitr
      · iexact Hrs_o2L
      iexact Hrr_o2L
    isplitl [Has_l2R Har_l2R Hts_l2R Htn_l2R Hc_l2R]
    · isplitl [Has_l2R]
      · iexact Has_l2R
      isplitl [Har_l2R]
      · iexact Har_l2R
      isplitl [Hts_l2R]
      · iexact Hts_l2R
      isplitl [Htn_l2R]
      · iexact Htn_l2R
      isplitl [Hc_l2R]
      · iexact Hc_l2R
      isplitr
      · iexact Hrs_l2R
      iexact Hrr_l2R
    isplitl [Has_l2L]
    · iexact Has_l2L
    isplitl [Har_l2L]
    · iexact Har_l2L
    isplitl [Hts_l2L]
    · iexact Hts_l2L
    isplitl [Htn_l2L]
    · iexact Htn_l2L
    isplitl [Hc_l2L]
    · iexact Hc_l2L
    isplitr
    · iexact Hrs_l2L
    iexact Hrr_l2L
  isplitl [Has_g0R Har_g0R Hts_g0R Htn_g0R Hc_g0R Has_g0L Har_g0L Hts_g0L Htn_g0L Hc_g0L Has_g1R Har_g1R Hts_g1R Htn_g1R Hc_g1R Has_g1L Har_g1L Hts_g1L Htn_g1L Hc_g1L Has_g2R Har_g2R Hts_g2R Htn_g2R Hc_g2R Has_g2L Har_g2L Hts_g2L Htn_g2L Hc_g2L]
  · isplitl [Has_g0R Har_g0R Hts_g0R Htn_g0R Hc_g0R]
    · isplitl [Has_g0R]
      · iexact Has_g0R
      isplitl [Har_g0R]
      · iexact Har_g0R
      isplitl [Hts_g0R]
      · iexact Hts_g0R
      isplitl [Htn_g0R]
      · iexact Htn_g0R
      isplitl [Hc_g0R]
      · iexact Hc_g0R
      isplitr
      · iexact Hrs_g0R
      iexact Hrr_g0R
    isplitl [Has_g0L Har_g0L Hts_g0L Htn_g0L Hc_g0L]
    · isplitl [Has_g0L]
      · iexact Has_g0L
      isplitl [Har_g0L]
      · iexact Har_g0L
      isplitl [Hts_g0L]
      · iexact Hts_g0L
      isplitl [Htn_g0L]
      · iexact Htn_g0L
      isplitl [Hc_g0L]
      · iexact Hc_g0L
      isplitr
      · iexact Hrs_g0L
      iexact Hrr_g0L
    isplitl [Has_g1R Har_g1R Hts_g1R Htn_g1R Hc_g1R]
    · isplitl [Has_g1R]
      · iexact Has_g1R
      isplitl [Har_g1R]
      · iexact Har_g1R
      isplitl [Hts_g1R]
      · iexact Hts_g1R
      isplitl [Htn_g1R]
      · iexact Htn_g1R
      isplitl [Hc_g1R]
      · iexact Hc_g1R
      isplitr
      · iexact Hrs_g1R
      iexact Hrr_g1R
    isplitl [Has_g1L Har_g1L Hts_g1L Htn_g1L Hc_g1L]
    · isplitl [Has_g1L]
      · iexact Has_g1L
      isplitl [Har_g1L]
      · iexact Har_g1L
      isplitl [Hts_g1L]
      · iexact Hts_g1L
      isplitl [Htn_g1L]
      · iexact Htn_g1L
      isplitl [Hc_g1L]
      · iexact Hc_g1L
      isplitr
      · iexact Hrs_g1L
      iexact Hrr_g1L
    isplitl [Has_g2R Har_g2R Hts_g2R Htn_g2R Hc_g2R]
    · isplitl [Has_g2R]
      · iexact Has_g2R
      isplitl [Har_g2R]
      · iexact Har_g2R
      isplitl [Hts_g2R]
      · iexact Hts_g2R
      isplitl [Htn_g2R]
      · iexact Htn_g2R
      isplitl [Hc_g2R]
      · iexact Hc_g2R
      isplitr
      · iexact Hrs_g2R
      iexact Hrr_g2R
    isplitl [Has_g2L]
    · iexact Has_g2L
    isplitl [Har_g2L]
    · iexact Har_g2L
    isplitl [Hts_g2L]
    · iexact Hts_g2L
    isplitl [Htn_g2L]
    · iexact Htn_g2L
    isplitl [Hc_g2L]
    · iexact Hc_g2L
    isplitr
    · iexact Hrs_g2L
    iexact Hrr_g2L
  isplitl [HnO2 HnL2 HpO2 HpL2 HnG0 HnG1 HnG2 HpG0 HpG1 HpG2]
  · isplitl [HnO2]
    · iexact HnO2
    isplitl [HnL2]
    · iexact HnL2
    isplitl [HpO2]
    · iexact HpO2
    isplitl [HpL2]
    · iexact HpL2
    isplitl [HnG0]
    · iexact HnG0
    isplitl [HnG1]
    · iexact HnG1
    isplitl [HnG2]
    · iexact HnG2
    isplitl [HpG0]
    · iexact HpG0
    isplitl [HpG1]
    · iexact HpG1
    isplitl [HpG2]
    · iexact HpG2
    isplitr
    · iexact HnrO2
    isplitr
    · iexact HnrL2
    isplitr
    · iexact HprO2
    isplitr
    · iexact HprL2
    isplitr
    · iexact HnrG0
    isplitr
    · iexact HnrG1
    isplitr
    · iexact HnrG2
    isplitr
    · iexact HprG0
    isplitr
    · iexact HprG1
    iexact HprG2
  isplitl [Hx]
  · iexact Hx
  isplitl [Hwq]
  · iexact Hwq
  isplitl [Hwo]
  · iexact Hwo
  isplitl [Hout]
  · iexists _; iexact Hout
  isplitl [Hwqb]
  · iexact Hwqb
  isplitl [Hwob]
  · iexact Hwob
  isplitl [Hq2]
  · iexists _; iexact Hq2
  isplitl [Hpt]
  · iexists _; iexact Hpt
  isplitl [Hkvb]
  · iexists _; iexact Hkvb
  isplitl [Hbat1]
  · iexists f5, vals
    isplitr
    · ipureintro; exact hvals
    iexact Hbat1
  isplitl [Hkv00 Hkv10 Hkv01 Hkv11 HsK00 HsV00 HsK01 HsV01 Hcs0]
  · isplitl [Hkv00 Hkv10 Hkv01 Hkv11]
    · isplitl [Hkv00]
      · iexact Hkv00
      isplitl [Hkv10]
      · iexact Hkv10
      isplitl [Hkv01]
      · iexact Hkv01
      iexact Hkv11
    isplitl [HsK00 HsV00 HsK01 HsV01]
    · isplitl [HsK00]
      · iexact HsK00
      isplitl [HsV00]
      · iexact HsV00
      isplitl [HsK01]
      · iexact HsK01
      iexact HsV01
    iexact Hcs0
  isplitl [Hbat2_dst0 Hbat2_dst1 Hbat2_dst2 Hbat2_dst3 Hbat2_src0 Hbat2_src1 Hbat2_src2 Hbat2_src3 Hbat2]
  · isplitl [Hbat2_dst0 Hbat2_dst1 Hbat2_dst2 Hbat2_dst3]
    · isplitl [Hbat2_dst0]
      · iexists _; iexact Hbat2_dst0
      isplitl [Hbat2_dst1]
      · iexists _; iexact Hbat2_dst1
      isplitl [Hbat2_dst2]
      · iexists _; iexact Hbat2_dst2
      iexists _; iexact Hbat2_dst3
    isplitl [Hbat2_src0 Hbat2_src1 Hbat2_src2 Hbat2_src3]
    · isplitl [Hbat2_src0]
      · iexact Hbat2_src0
      isplitl [Hbat2_src1]
      · iexact Hbat2_src1
      isplitl [Hbat2_src2]
      · iexact Hbat2_src2
      iexact Hbat2_src3
    iexact Hbat2
  isplitl [Hbat3_dst0 Hbat3_dst1 Hbat3_dst2 Hbat3_dst3 Hbat3_src0 Hbat3_src1 Hbat3_src2 Hbat3_src3 Hbat3]
  · isplitl [Hbat3_dst0 Hbat3_dst1 Hbat3_dst2 Hbat3_dst3]
    · isplitl [Hbat3_dst0]
      · iexists _; iexact Hbat3_dst0
      isplitl [Hbat3_dst1]
      · iexists _; iexact Hbat3_dst1
      isplitl [Hbat3_dst2]
      · iexists _; iexact Hbat3_dst2
      iexists _; iexact Hbat3_dst3
    isplitl [Hbat3_src0 Hbat3_src1 Hbat3_src2 Hbat3_src3]
    · isplitl [Hbat3_src0]
      · iexact Hbat3_src0
      isplitl [Hbat3_src1]
      · iexact Hbat3_src1
      isplitl [Hbat3_src2]
      · iexact Hbat3_src2
      iexact Hbat3_src3
    iexact Hbat3
  isplitl [Hkept]
  · iexact Hkept
  isplitl [HhO0t]
  · iexists _
    isplitl [HhO0t]
    · iexact HhO0t
    · ipureintro; exact fun k d i => (congrArg (fun r => TO0 (ix3 r d i)) (Fin.ext (by show halfRow c 0 true + k.val = 8 * c.val + (k.val + 4); rw [halfRow_true, blkRow_0]; omega))).trans (hTO0 ⟨k.val + 4, by omega⟩ d i)
  isplitl [HhL0t]
  · iexists _
    isplitl [HhL0t]
    · iexact HhL0t
    · ipureintro; exact fun k i => (congrArg (fun r => TL0 (ix3 r (0 : Fin 1) i)) (Fin.ext (by show halfRow c 0 true + k.val = 8 * c.val + (k.val + 4); rw [halfRow_true, blkRow_0]; omega))).trans (hTL0 ⟨k.val + 4, by omega⟩ i)
  isplitl [HhO2f]
  · iexists _
    isplitl [HhO2f]
    · iexact HhO2f
    · ipureintro; exact fun k d i => (congrArg (fun r => TO2 (ix3 r d i)) (Fin.ext (by show halfRow c 2 false + k.val = 8 * ((c.val + 2) % 4) + k.val; rw [halfRow_false, blkRow_2]))).trans (hTO2 ⟨k.val, by omega⟩ d i)
  isplitl [HhL2f]
  · iexists _
    isplitl [HhL2f]
    · iexact HhL2f
    · ipureintro; exact fun k i => (congrArg (fun r => TL2 (ix3 r (0 : Fin 1) i)) (Fin.ext (by show halfRow c 2 false + k.val = 8 * ((c.val + 2) % 4) + k.val; rw [halfRow_false, blkRow_2]))).trans (hTL2 ⟨k.val, by omega⟩ i)
  isplitl [HbO1]
  · iexact HbO1
  isplitl [HbL1]
  · iexact HbL1
  iexists f23
  isplitl [Hg_ownR]
  · iexact Hg_ownR
  · iexact Hg_ownL

/-- Segment B of the body: from the cut before the first flash loop to the cut after the third. -/
theorem segB_ok (m : (ℓ : Loc nD τ sig) → Buf (Elt F) ℓ) (c : Dev nD) (K : Names) :
    ∀ (W : Waits sig Unit) (v2 v14 v25 : BitVec 32) (v26 : Sems sig S_) (v226 : FVec F S256x1024 .f32),
      At15 m c K W v26 v226 ⊢ wp frame (wpE (defs₀ (F := F)) 𝒱₀ (c : Thread nD τ) none) Set.univ
        (segBProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v26 v226)
        (fun _ => iprop(∃ W', At27 m c K W' (Rest27 m c) c v2 v14 v25)) :=
  fun W v2 v14 v25 v26 v226 => segB_run m c K W v2 v14 v25 v26 v226

/-- info: 'Cert.Kernel.Proto.segB_ok' depends on axioms: [propext, Classical.choice, Quot.sound] -/
#guard_msgs in #print axioms segB_ok

end Cert.Kernel.Proto
end
-- ==== Proof.KB.TailVal.lean ====
/-
  Values the body's tail reads: a head's rows of the narrowed output weights, a head's tile of the full sums, and the
  device's own block of the gathered result after it is written.
-/
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.Bridge
import proofs.«900754_g7700000000000755_dist_attn_cross_gqa_kvseq_b4_sq256_skv1024_d1024_hq8_dh128_v7x_i4_f32_1_alg».proof.Proof.KB.Within
import Idealize.ShloMosaic.Lib.WritesUnit

set_option maxRecDepth 16384

noncomputable section

namespace Cert.Kernel.KFun

open Cert.Kernel Cert.Kernel.Gen Cert.Kernel.Ring Cert.Kernel.Proto
open Idealize.ShloMosaic Idealize.ShloMosaic.TcCoe Idealize.ShloMosaic.ValueIdx Idealize.SL.Sem

variable {F : FTy → Type} [FloatOps F]

section Rows
variable (c : Dev nD)

/-- One head's tile of the ring's numerators, read at the whole buffer: stage `a`, slot `b`. -/
theorem rsO_tile_read (off : Fin 4 → ℕ) (a b : ℕ) (hoff : off = ![a, b, 0, 0]) (inb : ∀ x, off x + S1x1x128x256.size x ≤ S3x8x128x256.size x)
    (f : Buf (Elt F) ((c : Thread nD τ).loc cc0_scratch2)) (s : S1x1x128x256.Idx) :
    View.readAt (Elt F) (Memref.whole cc0_scratch2 : Memref sig .tc .vmem S3x8x128x256 .bf16).view (Rect.unit (s := S3x8x128x256) off S1x1x128x256.size inb).toLoadRect f s
      = f (ix4 (⟨a, by subst hoff; have := inb 0; simp at this; omega⟩ : Fin 3) (⟨b, by subst hoff; have := inb 1; simp at this; omega⟩ : Fin 8)
          (⟨(s 2).val, (s 2).isLt⟩ : Fin 128) (⟨(s 3).val, (s 3).isLt⟩ : Fin 256)) := by
  subst hoff
  rw [View.readAt_apply, View.read_apply]
  show f _ = f _
  refine congrArg f (funext fun x => Fin.ext ?_)
  have h0 : (s 0).val < 1 := (s 0).isLt
  have h1 : (s 1).val < 1 := (s 1).isLt
  match x with
  | ⟨0, _⟩ => show a + 1 * (s 0).val = a; omega
  | ⟨1, _⟩ => show b + 1 * (s 1).val = b; omega
  | ⟨2, _⟩ => show 0 + 1 * (s 2).val = (s 2).val; omega
  | ⟨3, _⟩ => show 0 + 1 * (s 3).val = (s 3).val; omega

/-- One head's row of the ring's denominators. -/
theorem rsL_tile_read (off : Fin 4 → ℕ) (a b : ℕ) (hoff : off = ![a, b, 0, 0]) (inb : ∀ x, off x + S1x1x1x256.size x ≤ S3x8x1x256.size x)
    (f : Buf (Elt F) ((c : Thread nD τ).loc cc0_scratch3)) (s : S1x1x1x256.Idx) :
    View.readAt (Elt F) (Memref.whole cc0_scratch3 : Memref sig .tc .vmem S3x8x1x256 .f32).view (Rect.unit (s := S3x8x1x256) off S1x1x1x256.size inb).toLoadRect f s
      = f (ix4 (⟨a, by subst hoff; have := inb 0; simp at this; omega⟩ : Fin 3) (⟨b, by subst hoff; have := inb 1; simp at this; omega⟩ : Fin 8)
          (0 : Fin 1) (⟨(s 3).val, (s 3).isLt⟩ : Fin 256)) := by
  subst hoff
  rw [View.readAt_apply, View.read_apply]
  show f _ = f _
  refine congrArg f (funext fun x => Fin.ext ?_)
  have h0 : (s 0).val < 1 := (s 0).isLt
  have h1 : (s 1).val < 1 := (s 1).isLt
  have h2 : (s 2).val < 1 := (s 2).isLt
  match x with
  | ⟨0, _⟩ => show a + 1 * (s 0).val = a; omega
  | ⟨1, _⟩ => show b + 1 * (s 1).val = b; omega
  | ⟨2, _⟩ => show 0 + 1 * (s 2).val = 0; omega
  | ⟨3, _⟩ => show 0 + 1 * (s 3).val = (s 3).val; omega

end Rows

section Tail
variable (m : (ℓ : Loc nD τ sig) → Buf (Elt F) ℓ) (c : Dev nD)

/-! ### A head's 128 rows of the narrowed output weights -/

theorem woRows_load_1 :
    View.read (Elt F) ((Memref.whole cc0_scratch8 : Memref sig .tc .vmem S1024x1024 .bf16).access (Rect.unit (s := S1024x1024) ![128, 0] S128x1024.size inb_S1024x1024_S128x1024_128_0)) (wob m c)
      = woRows m c 1 := by
  funext s
  rw [View.read_apply]
  show (wob m c) _ = (wob m c) _
  refine congrArg _ (funext fun x => Fin.ext ?_)
  match x with
  | ⟨0, _⟩ => show 128 + 1 * (s 0).val = 1 * 128 + (s 0).val; omega
  | ⟨1, _⟩ => show 0 + 1 * (s 1).val = (s 1).val; omega

theorem woRows_load_2 :
    View.read (Elt F) ((Memref.whole cc0_scratch8 : Memref sig .tc .vmem S1024x1024 .bf16).access (Rect.unit (s := S1024x1024) ![256, 0] S128x1024.size inb_S1024x1024_S128x1024_256_0)) (wob m c)
      = woRows m c 2 := by
  funext s
  rw [View.read_apply]
  show (wob m c) _ = (wob m c) _
  refine congrArg _ (funext fun x => Fin.ext ?_)
  match x with
  | ⟨0, _⟩ => show 256 + 1 * (s 0).val = 2 * 128 + (s 0).val; omega
  | ⟨1, _⟩ => show 0 + 1 * (s 1).val = (s 1).val; omega

theorem woRows_load_3 :
    View.read (Elt F) ((Memref.whole cc0_scratch8 : Memref sig .tc .vmem S1024x1024 .bf16).access (Rect.unit (s := S1024x1024) ![384, 0] S128x1024.size inb_S1024x1024_S128x1024_384_0)) (wob m c)
      = woRows m c 3 := by
  funext s
  rw [View.read_apply]
  show (wob m c) _ = (wob m c) _
  refine congrArg _ (funext fun x => Fin.ext ?_)
  match x with
  | ⟨0, _⟩ => show 384 + 1 * (s 0).val = 3 * 128 + (s 0).val; omega
  | ⟨1, _⟩ => show 0 + 1 * (s 1).val = (s 1).val; omega

theorem woRows_load_4 :
    View.read (Elt F) ((Memref.whole cc0_scratch8 : Memref sig .tc .vmem S1024x1024 .bf16).access (Rect.unit (s := S1024x1024) ![512, 0] S128x1024.size inb_S1024x1024_S128x1024_512_0)) (wob m c)
      = woRows m c 4 := by
  funext s
  rw [View.read_apply]
  show (wob m c) _ = (wob m c) _
  refine congrArg _ (funext fun x => Fin.ext ?_)
  match x with
  | ⟨0, _⟩ => show 512 + 1 * (s 0).val = 4 * 128 + (s 0).val; omega
  | ⟨1, _⟩ => show 0 + 1 * (s 1).val = (s 1).val; omega

theorem woRows_load_5 :
    View.read (Elt F) ((Memref.whole cc0_scratch8 : Memref sig .tc .vmem S1024x1024 .bf16).access (Rect.unit (s := S1024x1024) ![640, 0] S128x1024.size inb_S1024x1024_S128x1024_640_0)) (wob m c)
      = woRows m c 5 := by
  funext s
  rw [View.read_apply]
  show (wob m c) _ = (wob m c) _
  refine congrArg _ (funext fun x => Fin.ext ?_)
  match x with
  | ⟨0, _⟩ => show 640 + 1 * (s 0).val = 5 * 128 + (s 0).val; omega
  | ⟨1, _⟩ => show 0 + 1 * (s 1).val = (s 1).val; omega

theorem woRows_load_6 :
    View.read (Elt F) ((Memref.whole cc0_scratch8 : Memref sig .tc .vmem S1024x1024 .bf16).access (Rect.unit (s := S1024x1024) ![768, 0] S128x1024.size inb_S1024x1024_S128x1024_768_0)) (wob m c)
      = woRows m c 6 := by
  funext s
  rw [View.read_apply]
  show (wob m c) _ = (wob m c) _
  refine congrArg _ (funext fun x => Fin.ext ?_)
  match x with
  | ⟨0, _⟩ => show 768 + 1 * (s 0).val = 6 * 128 + (s 0).val; omega
  | ⟨1, _⟩ => show 0 + 1 * (s 1).val = (s 1).val; omega

theorem woRows_load_7 :
    View.read (Elt F) ((Memref.whole cc0_scratch8 : Memref sig .tc .vmem S1024x1024 .bf16).access (Rect.unit (s := S1024x1024) ![896, 0] S128x1024.size inb_S1024x1024_S128x1024_896_0)) (wob m c)
      = woRows m c 7 := by
  funext s
  rw [View.read_apply]
  show (wob m c) _ = (wob m c) _
  refine congrArg _ (funext fun x => Fin.ext ?_)
  match x with
  | ⟨0, _⟩ => show 896 + 1 * (s 0).val = 7 * 128 + (s 0).val; omega
  | ⟨1, _⟩ => show 0 + 1 * (s 1).val = (s 1).val; omega

/-! ### A head's tile of the full sums -/

theorem rsO_load_1 (f : Buf (Elt F) ((c : Thread nD τ).loc cc0_scratch2))
    (hf : (dstO 2 false).view.read (Elt F) f = fun t => voC m 3 c false (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 1, 0, 0] S1x1x128x256.size inb_S3x8x128x256_S1x1x128x256_2_1_0_0).toLoadRect f
      = rsO m c 1 := by
  funext s
  rw [rsO_tile_read c _ 2 1 rfl]
  have := congrFun hf (ix3 (1 : Fin 4) (⟨(s 2).val, (s 2).isLt⟩ : Fin 128) (⟨(s 3).val, (s 3).isLt⟩ : Fin 256))
  rw [dstO_read_2f c] at this
  exact this
theorem rsL_load_1 (f : Buf (Elt F) ((c : Thread nD τ).loc cc0_scratch3))
    (hf : (dstL 2 false).view.read (Elt F) f = fun t => vlC m 3 c false (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 1, 0, 0] S1x1x1x256.size inb_S3x8x1x256_S1x1x1x256_2_1_0_0).toLoadRect f
      = rsL m c 1 := by
  funext s
  rw [rsL_tile_read c _ 2 1 rfl]
  have := congrFun hf (ix3 (1 : Fin 4) (0 : Fin 1) (⟨(s 3).val, (s 3).isLt⟩ : Fin 256))
  rw [dstL_read_2f c] at this
  exact this

theorem rsO_load_2 (f : Buf (Elt F) ((c : Thread nD τ).loc cc0_scratch2))
    (hf : (dstO 2 false).view.read (Elt F) f = fun t => voC m 3 c false (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 2, 0, 0] S1x1x128x256.size inb_S3x8x128x256_S1x1x128x256_2_2_0_0).toLoadRect f
      = rsO m c 2 := by
  funext s
  rw [rsO_tile_read c _ 2 2 rfl]
  have := congrFun hf (ix3 (2 : Fin 4) (⟨(s 2).val, (s 2).isLt⟩ : Fin 128) (⟨(s 3).val, (s 3).isLt⟩ : Fin 256))
  rw [dstO_read_2f c] at this
  exact this
theorem rsL_load_2 (f : Buf (Elt F) ((c : Thread nD τ).loc cc0_scratch3))
    (hf : (dstL 2 false).view.read (Elt F) f = fun t => vlC m 3 c false (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 2, 0, 0] S1x1x1x256.size inb_S3x8x1x256_S1x1x1x256_2_2_0_0).toLoadRect f
      = rsL m c 2 := by
  funext s
  rw [rsL_tile_read c _ 2 2 rfl]
  have := congrFun hf (ix3 (2 : Fin 4) (0 : Fin 1) (⟨(s 3).val, (s 3).isLt⟩ : Fin 256))
  rw [dstL_read_2f c] at this
  exact this

theorem rsO_load_3 (f : Buf (Elt F) ((c : Thread nD τ).loc cc0_scratch2))
    (hf : (dstO 2 false).view.read (Elt F) f = fun t => voC m 3 c false (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 3, 0, 0] S1x1x128x256.size inb_S3x8x128x256_S1x1x128x256_2_3_0_0).toLoadRect f
      = rsO m c 3 := by
  funext s
  rw [rsO_tile_read c _ 2 3 rfl]
  have := congrFun hf (ix3 (3 : Fin 4) (⟨(s 2).val, (s 2).isLt⟩ : Fin 128) (⟨(s 3).val, (s 3).isLt⟩ : Fin 256))
  rw [dstO_read_2f c] at this
  exact this
theorem rsL_load_3 (f : Buf (Elt F) ((c : Thread nD τ).loc cc0_scratch3))
    (hf : (dstL 2 false).view.read (Elt F) f = fun t => vlC m 3 c false (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 3, 0, 0] S1x1x1x256.size inb_S3x8x1x256_S1x1x1x256_2_3_0_0).toLoadRect f
      = rsL m c 3 := by
  funext s
  rw [rsL_tile_read c _ 2 3 rfl]
  have := congrFun hf (ix3 (3 : Fin 4) (0 : Fin 1) (⟨(s 3).val, (s 3).isLt⟩ : Fin 256))
  rw [dstL_read_2f c] at this
  exact this

theorem rsO_load_4 (f : Buf (Elt F) ((c : Thread nD τ).loc cc0_scratch2))
    (hf : (dstO 2 true).view.read (Elt F) f = fun t => voC m 3 c true (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 4, 0, 0] S1x1x128x256.size inb_S3x8x128x256_S1x1x128x256_2_4_0_0).toLoadRect f
      = rsO m c 4 := by
  funext s
  rw [rsO_tile_read c _ 2 4 rfl]
  have := congrFun hf (ix3 (0 : Fin 4) (⟨(s 2).val, (s 2).isLt⟩ : Fin 128) (⟨(s 3).val, (s 3).isLt⟩ : Fin 256))
  rw [dstO_read_2t c] at this
  exact this
theorem rsL_load_4 (f : Buf (Elt F) ((c : Thread nD τ).loc cc0_scratch3))
    (hf : (dstL 2 true).view.read (Elt F) f = fun t => vlC m 3 c true (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 4, 0, 0] S1x1x1x256.size inb_S3x8x1x256_S1x1x1x256_2_4_0_0).toLoadRect f
      = rsL m c 4 := by
  funext s
  rw [rsL_tile_read c _ 2 4 rfl]
  have := congrFun hf (ix3 (0 : Fin 4) (0 : Fin 1) (⟨(s 3).val, (s 3).isLt⟩ : Fin 256))
  rw [dstL_read_2t c] at this
  exact this

theorem rsO_load_5 (f : Buf (Elt F) ((c : Thread nD τ).loc cc0_scratch2))
    (hf : (dstO 2 true).view.read (Elt F) f = fun t => voC m 3 c true (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 5, 0, 0] S1x1x128x256.size inb_S3x8x128x256_S1x1x128x256_2_5_0_0).toLoadRect f
      = rsO m c 5 := by
  funext s
  rw [rsO_tile_read c _ 2 5 rfl]
  have := congrFun hf (ix3 (1 : Fin 4) (⟨(s 2).val, (s 2).isLt⟩ : Fin 128) (⟨(s 3).val, (s 3).isLt⟩ : Fin 256))
  rw [dstO_read_2t c] at this
  exact this
theorem rsL_load_5 (f : Buf (Elt F) ((c : Thread nD τ).loc cc0_scratch3))
    (hf : (dstL 2 true).view.read (Elt F) f = fun t => vlC m 3 c true (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 5, 0, 0] S1x1x1x256.size inb_S3x8x1x256_S1x1x1x256_2_5_0_0).toLoadRect f
      = rsL m c 5 := by
  funext s
  rw [rsL_tile_read c _ 2 5 rfl]
  have := congrFun hf (ix3 (1 : Fin 4) (0 : Fin 1) (⟨(s 3).val, (s 3).isLt⟩ : Fin 256))
  rw [dstL_read_2t c] at this
  exact this

theorem rsO_load_6 (f : Buf (Elt F) ((c : Thread nD τ).loc cc0_scratch2))
    (hf : (dstO 2 true).view.read (Elt F) f = fun t => voC m 3 c true (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 6, 0, 0] S1x1x128x256.size inb_S3x8x128x256_S1x1x128x256_2_6_0_0).toLoadRect f
      = rsO m c 6 := by
  funext s
  rw [rsO_tile_read c _ 2 6 rfl]
  have := congrFun hf (ix3 (2 : Fin 4) (⟨(s 2).val, (s 2).isLt⟩ : Fin 128) (⟨(s 3).val, (s 3).isLt⟩ : Fin 256))
  rw [dstO_read_2t c] at this
  exact this
theorem rsL_load_6 (f : Buf (Elt F) ((c : Thread nD τ).loc cc0_scratch3))
    (hf : (dstL 2 true).view.read (Elt F) f = fun t => vlC m 3 c true (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 6, 0, 0] S1x1x1x256.size inb_S3x8x1x256_S1x1x1x256_2_6_0_0).toLoadRect f
      = rsL m c 6 := by
  funext s
  rw [rsL_tile_read c _ 2 6 rfl]
  have := congrFun hf (ix3 (2 : Fin 4) (0 : Fin 1) (⟨(s 3).val, (s 3).isLt⟩ : Fin 256))
  rw [dstL_read_2t c] at this
  exact this

theorem rsO_load_7 (f : Buf (Elt F) ((c : Thread nD τ).loc cc0_scratch2))
    (hf : (dstO 2 true).view.read (Elt F) f = fun t => voC m 3 c true (⟨(t 0).val, (t 0).isLt⟩ : Fin 4) (⟨(t 1).val, (t 1).isLt⟩ : Fin 128) (⟨(t 2).val, (t 2).isLt⟩ : Fin 256)) :
    View.readAt (Elt F) (Memref.whole cc0_scratch2 : Memref sig .tc .vmem S3x8x128x256 .bf16).view (Rect.unit (s := S3x8x128x256) ![2, 7, 0, 0] S1x1x128x256.size inb_S3x8x128x256_S1x1x128x256_2_7_0_0).toLoadRect f
      = rsO m c 7 := by
  funext s
  rw [rsO_tile_read c _ 2 7 rfl]
  have := congrFun hf (ix3 (3 : Fin 4) (⟨(s 2).val, (s 2).isLt⟩ : Fin 128) (⟨(s 3).val, (s 3).isLt⟩ : Fin 256))
  rw [dstO_read_2t c] at this
  exact this
theorem rsL_load_7 (f : Buf (Elt F) ((c : Thread nD τ).loc cc0_scratch3))
    (hf : (dstL 2 true).view.read (Elt F) f = fun t => vlC m 3 c true (⟨(t 0).val, (t 0).isLt⟩ : Fin 4) (⟨(t 2).val, (t 2).isLt⟩ : Fin 256)) :
    View.readAt (Elt F) (Memref.whole cc0_scratch3 : Memref sig .tc .vmem S3x8x1x256 .f32).view (Rect.unit (s := S3x8x1x256) ![2, 7, 0, 0] S1x1x1x256.size inb_S3x8x1x256_S1x1x1x256_2_7_0_0).toLoadRect f
      = rsL m c 7 := by
  funext s
  rw [rsL_tile_read c _ 2 7 rfl]
  have := congrFun hf (ix3 (3 : Fin 4) (0 : Fin 1) (⟨(s 3).val, (s 3).isLt⟩ : Fin 256))
  rw [dstL_read_2t c] at this
  exact this

/-! ### The device's own block of the gathered result, once written -/

theorem own_rows (fg : Buf (Elt F) ((c : Thread nD τ).loc cc0_scratch23)) (P : Vec F S1x256x1024 .bf16) (i : Fin 256) (n : Fin 1024) :
    ((agB.slice (rOwn c) (fun _ => rfl) : Memref sig .tc .vmem S1x256x1024 .bf16).view.write (Elt F) fg P Finset.univ)
        (ix3 (⟨(c.val + 1) % 4, Nat.mod_lt _ (by decide)⟩ : Fin 4) i n)
      = P (ix3 0 i n) := by
  refine Eq.trans (congrFun (View.read_whole (Val := Elt F) cc0_scratch23 _).symm (ix3 (⟨(c.val + 1) % 4, Nat.mod_lt _ (by decide)⟩ : Fin 4) i n)) ?_
  show agB.view.read (Elt F) (agB.view.writes (Elt F) fg [⟨rOwn c, P⟩]) _ = _
  exact View.read_writes_cons_unit_of_mem (s := S4x256x1024) agB.view fg (k0_off24_inb c 0) P [] (ix3 (⟨(c.val + 1) % 4, Nat.mod_lt _ (by decide)⟩ : Fin 4) i n) (ix3 0 i n) (off24_eq c 0) (fun a => by
    match a with
    | ⟨0, _⟩ => show (c.val + 1) % 4 = (c.val + (1 + 0)) % 4 + 0; omega
    | ⟨1, _⟩ => show i.val = 0 + i.val; omega
    | ⟨2, _⟩ => show n.val = 0 + n.val; omega)

end Tail

/-! ### The result block at the end -/

section Kout
variable (m : (ℓ : Loc nD τ sig) → Buf (Elt F) ℓ) (c : Dev nD)

/-- A block of the gathered result as the final copies load it. -/
theorem agb_block_load (G : Buf (Elt F) ((c : Thread nD τ).loc cc0_scratch23))
    (hG : ∀ (b : Fin 4) (u : Fin 1) (i : Fin 256) (n : Fin 1024), G (ix3 b i n) = agbFin m c b (ix3 u i n))
    (b : Fin 4) (off : Fin 3 → ℕ) (hoff : off = ![b.val, 0, 0]) (inb : ∀ a, off a + S1x256x1024.size a ≤ S4x256x1024.size a) :
    View.readAt (Elt F) (Memref.whole cc0_scratch23 : Memref sig .tc .vmem S4x256x1024 .bf16).view (Rect.unit (s := S4x256x1024) off S1x256x1024.size inb).toLoadRect G
      = agbFin m c b := by
  subst hoff
  funext s
  rw [View.readAt_apply, View.read_apply]
  show G _ = _
  have h0 : (s 0).val < 1 := (s 0).isLt
  refine (congrArg G (funext fun x => Fin.ext ?_)).trans ((hG b (s 0) (⟨(s 1).val, (s 1).isLt⟩ : Fin 256) (⟨(s 2).val, (s 2).isLt⟩ : Fin 1024)).trans (congrArg _ (eq_ix3 s).symm))
  match x with
  | ⟨0, _⟩ => show b.val + 1 * (s 0).val = b.val; omega
  | ⟨1, _⟩ => show 0 + 1 * (s 1).val = (s 1).val; omega
  | ⟨2, _⟩ => show 0 + 1 * (s 2).val = (s 2).val; omega

set_option maxHeartbeats 4000000 in
/-- The four final copies cover the result buffer block by block, so after them it is the device's result block, whatever
    it held before. -/
theorem kout_final (g3 : Buf (Elt F) ((c : Thread nD τ).loc cc0_stg3_0)) (G : Buf (Elt F) ((c : Thread nD τ).loc cc0_scratch23))
    (rest : List (View.Piece (Elt F) S4x256x1024 .f32))
    (hG : ∀ (b : Fin 4) (u : Fin 1) (i : Fin 256) (n : Fin 1024), G (ix3 b i n) = agbFin m c b (ix3 u i n)) :
    (Memref.whole cc0_stg3_0 : Memref sig .tc .vmem S4x256x1024 .f32).view.writes (Elt F) g3
        (⟨(Rect.unit (s := S4x256x1024) ![3, 0, 0] S1x256x1024.size inb_S4x256x1024_S1x256x1024_3_0_0), k0_pay4 (View.readAt (Elt F) (Memref.whole cc0_scratch23 : Memref sig .tc .vmem S4x256x1024 .bf16).view (Rect.unit (s := S4x256x1024) ![3, 0, 0] S1x256x1024.size inb_S4x256x1024_S1x256x1024_3_0_0).toLoadRect G)⟩ :: ⟨(Rect.unit (s := S4x256x1024) ![2, 0, 0] S1x256x1024.size inb_S4x256x1024_S1x256x1024_2_0_0), k0_pay3 (View.readAt (Elt F) (Memref.whole cc0_scratch23 : Memref sig .tc .vmem S4x256x1024 .bf16).view (Rect.unit (s := S4x256x1024) ![2, 0, 0] S1x256x1024.size inb_S4x256x1024_S1x256x1024_2_0_0).toLoadRect G)⟩ :: ⟨(Rect.unit (s := S4x256x1024) ![1, 0, 0] S1x256x1024.size inb_S4x256x1024_S1x256x1024_1_0_0), k0_pay2 (View.readAt (Elt F) (Memref.whole cc0_scratch23 : Memref sig .tc .vmem S4x256x1024 .bf16).view (Rect.unit (s := S4x256x1024) ![1, 0, 0] S1x256x1024.size inb_S4x256x1024_S1x256x1024_1_0_0).toLoadRect G)⟩ :: ⟨(Rect.unit (s := S4x256x1024) ![0, 0, 0] S1x256x1024.size inb_S4x256x1024_S1x256x1024_0_0_0), k0_pay1 (k0_pay118 (View.readAt (Elt F) (Memref.whole cc0_scratch23 : Memref sig .tc .vmem S4x256x1024 .bf16).view (Rect.unit (s := S4x256x1024) ![0, 0, 0] S1x256x1024.size inb_S4x256x1024_S1x256x1024_0_0_0).toLoadRect G))⟩ :: rest)
      = Kout m c := by
  have hx : ∀ (b : Fin 4) (i : Fin 256) (n : Fin 1024), ∀ a : Fin 3, ((ix3 b i n) a).val = (![b.val, 0, 0] : Fin 3 → ℕ) a + ((ix3 (0 : Fin 1) i n) a).val := fun b i n a => by
    match a with
    | ⟨0, _⟩ => show b.val = b.val + 0; omega
    | ⟨1, _⟩ => show i.val = 0 + i.val; omega
    | ⟨2, _⟩ => show n.val = 0 + n.val; omega
  refine kout_of_blocks m c _ ?_ ?_ ?_ ?_
  · intro i n
    refine Eq.trans (congrFun (View.read_whole (Val := Elt F) cc0_stg3_0 _).symm (ix3 (0 : Fin 4) i n)) ?_
    show (Memref.whole cc0_stg3_0 : Memref sig .tc .vmem S4x256x1024 .f32).view.read (Elt F) _ _ = _
    rw [View.read_writes_cons_unit_of_not_mem _ _ inb_S4x256x1024_S1x256x1024_3_0_0 _ _ _ rfl 0 (Or.inl (by show 0 < 3; omega))]
    rw [View.read_writes_cons_unit_of_not_mem _ _ inb_S4x256x1024_S1x256x1024_2_0_0 _ _ _ rfl 0 (Or.inl (by show 0 < 2; omega))]
    rw [View.read_writes_cons_unit_of_not_mem _ _ inb_S4x256x1024_S1x256x1024_1_0_0 _ _ _ rfl 0 (Or.inl (by show 0 < 1; omega))]
    refine (View.read_writes_cons_unit_of_mem (s := S4x256x1024) (Memref.whole cc0_stg3_0 : Memref sig .tc .vmem S4x256x1024 .f32).view g3 inb_S4x256x1024_S1x256x1024_0_0_0 (k0_pay1 (k0_pay118 (View.readAt (Elt F) (Memref.whole cc0_scratch23 : Memref sig .tc .vmem S4x256x1024 .bf16).view (Rect.unit (s := S4x256x1024) ![0, 0, 0] S1x256x1024.size inb_S4x256x1024_S1x256x1024_0_0_0).toLoadRect G))) _ (ix3 (0 : Fin 4) i n) (ix3 0 i n) rfl (hx 0 i n)).trans ?_
    rw [agb_block_load m c G hG 0 ![0, 0, 0] rfl inb_S4x256x1024_S1x256x1024_0_0_0]
  · intro i n
    refine Eq.trans (congrFun (View.read_whole (Val := Elt F) cc0_stg3_0 _).symm (ix3 (1 : Fin 4) i n)) ?_
    show (Memref.whole cc0_stg3_0 : Memref sig .tc .vmem S4x256x1024 .f32).view.read (Elt F) _ _ = _
    rw [View.read_writes_cons_unit_of_not_mem _ _ inb_S4x256x1024_S1x256x1024_3_0_0 _ _ _ rfl 0 (Or.inl (by show 1 < 3; omega))]
    rw [View.read_writes_cons_unit_of_not_mem _ _ inb_S4x256x1024_S1x256x1024_2_0_0 _ _ _ rfl 0 (Or.inl (by show 1 < 2; omega))]
    refine (View.read_writes_cons_unit_of_mem (s := S4x256x1024) (Memref.whole cc0_stg3_0 : Memref sig .tc .vmem S4x256x1024 .f32).view g3 inb_S4x256x1024_S1x256x1024_1_0_0 (k0_pay2 (View.readAt (Elt F) (Memref.whole cc0_scratch23 : Memref sig .tc .vmem S4x256x1024 .bf16).view (Rect.unit (s := S4x256x1024) ![1, 0, 0] S1x256x1024.size inb_S4x256x1024_S1x256x1024_1_0_0).toLoadRect G)) _ (ix3 (1 : Fin 4) i n) (ix3 0 i n) rfl (hx 1 i n)).trans ?_
    rw [agb_block_load m c G hG 1 ![1, 0, 0] rfl inb_S4x256x1024_S1x256x1024_1_0_0]
  · intro i n
    refine Eq.trans (congrFun (View.read_whole (Val := Elt F) cc0_stg3_0 _).symm (ix3 (2 : Fin 4) i n)) ?_
    show (Memref.whole cc0_stg3_0 : Memref sig .tc .vmem S4x256x1024 .f32).view.read (Elt F) _ _ = _
    rw [View.read_writes_cons_unit_of_not_mem _ _ inb_S4x256x1024_S1x256x1024_3_0_0 _ _ _ rfl 0 (Or.inl (by show 2 < 3; omega))]
    refine (View.read_writes_cons_unit_of_mem (s := S4x256x1024) (Memref.whole cc0_stg3_0 : Memref sig .tc .vmem S4x256x1024 .f32).view g3 inb_S4x256x1024_S1x256x1024_2_0_0 (k0_pay3 (View.readAt (Elt F) (Memref.whole cc0_scratch23 : Memref sig .tc .vmem S4x256x1024 .bf16).view (Rect.unit (s := S4x256x1024) ![2, 0, 0] S1x256x1024.size inb_S4x256x1024_S1x256x1024_2_0_0).toLoadRect G)) _ (ix3 (2 : Fin 4) i n) (ix3 0 i n) rfl (hx 2 i n)).trans ?_
    rw [agb_block_load m c G hG 2 ![2, 0, 0] rfl inb_S4x256x1024_S1x256x1024_2_0_0]
  · intro i n
    refine Eq.trans (congrFun (View.read_whole (Val := Elt F) cc0_stg3_0 _).symm (ix3 (3 : Fin 4) i n)) ?_
    show (Memref.whole cc0_stg3_0 : Memref sig .tc .vmem S4x256x1024 .f32).view.read (Elt F) _ _ = _

    refine (View.read_writes_cons_unit_of_mem (s := S4x256x1024) (Memref.whole cc0_stg3_0 : Memref sig .tc .vmem S4x256x1024 .f32).view g3 inb_S4x256x1024_S1x256x1024_3_0_0 (k0_pay4 (View.readAt (Elt F) (Memref.whole cc0_scratch23 : Memref sig .tc .vmem S4x256x1024 .bf16).view (Rect.unit (s := S4x256x1024) ![3, 0, 0] S1x256x1024.size inb_S4x256x1024_S1x256x1024_3_0_0).toLoadRect G)) _ (ix3 (3 : Fin 4) i n) (ix3 0 i n) rfl (hx 3 i n)).trans ?_
    rw [agb_block_load m c G hG 3 ![3, 0, 0] rfl inb_S4x256x1024_S1x256x1024_3_0_0]

end Kout

end Cert.Kernel.KFun
end
-- ==== Proof.KB.BodyTail.lean ====
/-
  The body's tail: from the end of the last merge step to the return.

  From the cut (`AtTail`) device `c` adds the seven remaining heads' terms to block `c + 1` of the result buffer — each term
  reads a head's tile of the full sums out of the last hop's landing slices, which it holds as slices, and 128 rows of the
  narrowed `Wo` —, narrows the finished block into its own block of the gathered result (held as two halves: joined for the
  store, split again for the sends), and gathers: at each of three hops it sends its right neighbour the upper half it
  holds and its left neighbour the lower half — its own at hop 0, afterwards what it received the hop before, which is
  the same slice read on its own position — and waits for the two read-outs and the two arrivals; what it waits on sits
  below everything it still owes. The eight half blocks then make the gathered result whole, the four final copies widen
  it block by block into the result buffer, and the device hands back what the body owes: the scratch buffers, every
  semaphore of its own at zero, nothing owed, the staged arguments as it found them and its result block.
-/
import proofs.«900754_g7700000000000755_dist_attn_cross_gqa_kvseq_b4_sq256_skv1024_d1024_hq8_dh128_v7x_i4_f32_1_alg».proof.Proof.KB.TailProg
import proofs.«900754_g7700000000000755_dist_attn_cross_gqa_kvseq_b4_sq256_skv1024_d1024_hq8_dh128_v7x_i4_f32_1_alg».proof.Proof.KB.TailSpec
import proofs.«900754_g7700000000000755_dist_attn_cross_gqa_kvseq_b4_sq256_skv1024_d1024_hq8_dh128_v7x_i4_f32_1_alg».proof.Proof.KB.TailVal
import proofs.«900754_g7700000000000755_dist_attn_cross_gqa_kvseq_b4_sq256_skv1024_d1024_hq8_dh128_v7x_i4_f32_1_alg».proof.Proof.KB.KLaunch
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.OpSend
import proofs.«900754_g7700000000000755_dist_attn_cross_gqa_kvseq_b4_sq256_skv1024_d1024_hq8_dh128_v7x_i4_f32_1_alg».proof.Proof.KB.OpWait
import proofs.«900754_g7700000000000755_dist_attn_cross_gqa_kvseq_b4_sq256_skv1024_d1024_hq8_dh128_v7x_i4_f32_1_alg».proof.Proof.KB.Within
import proofs.«900754_g7700000000000755_dist_attn_cross_gqa_kvseq_b4_sq256_skv1024_d1024_hq8_dh128_v7x_i4_f32_1_alg».proof.Proof.KB.Exit
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.Bridge
import proofs.«900754_g7700000000000755_dist_attn_cross_gqa_kvseq_b4_sq256_skv1024_d1024_hq8_dh128_v7x_i4_f32_1_alg».proof.Proof.KB.LocSplit
import proofs.«900754_g7700000000000755_dist_attn_cross_gqa_kvseq_b4_sq256_skv1024_d1024_hq8_dh128_v7x_i4_f32_1_alg».proof.Proof.KB.Split
import proofs.«900754_g7700000000000755_dist_attn_cross_gqa_kvseq_b4_sq256_skv1024_d1024_hq8_dh128_v7x_i4_f32_1_alg».proof.Proof.Gen.Kernel.Skeleton
import proofs.«900754_g7700000000000755_dist_attn_cross_gqa_kvseq_b4_sq256_skv1024_d1024_hq8_dh128_v7x_i4_f32_1_alg».proof.Proof.Gen.Kernel.Points
import proofs.«900754_g7700000000000755_dist_attn_cross_gqa_kvseq_b4_sq256_skv1024_d1024_hq8_dh128_v7x_i4_f32_1_alg».proof.Proof.Gen.Kernel.Frame
import Idealize.ShloMosaic.Lib.Tactic

set_option maxRecDepth 16384

noncomputable section

namespace Cert.Kernel.Proto

open Cert.Kernel Cert.Kernel.Gen Cert.Kernel.Ring

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells' invariants, the own block, the forwarded slices -/

instance invs_persistent (V : Vals F) (K : Names) (c : Dev nD) : BI.Persistent (invs (F := F) V K c) := by unfold invs; infer_instance

theorem invs_cells (V : Vals F) (K : Names) (c : Dev nD) (k : Kind) (l : Bool) (h : Fin 3) :
    invs V K c ⊢ iprop(cellInv ER (ringRd V) (K (c, some (k, l, h, true))) (sendCell c k l h)
      ∗ cellInv ER (ringRd V) (K (c, some (k, l, h, false))) (recvCell c k l h)
      ∗ cellInv ER (ringRd V) (K (toDev c l, some (k, l, h, false))) (recvCell (toDev c l) k l h)) :=
  (show invs V K c ⊢ (bigSep Finset.univ fun x : Xfer => iprop(cellInv ER (ringRd V) (K (c, some (x.1, x.2.1, x.2.2, true))) (sendCell c x.1 x.2.1 x.2.2)
        ∗ cellInv ER (ringRd V) (K (c, some (x.1, x.2.1, x.2.2, false))) (recvCell c x.1 x.2.1 x.2.2)
        ∗ cellInv ER (ringRd V) (K (toDev c x.2.1, some (x.1, x.2.1, x.2.2, false))) (recvCell (toDev c x.2.1) x.1 x.2.1 x.2.2)) : sProp 𝕄) from by
    unfold invs; iintro ⟨-, H, -⟩; iexact H).trans (bigSep_elim (Finset.mem_univ ((k, l, h) : Xfer)))

/-- The own block through the memref of its rectangle: the same elements. -/
theorem own_spell (c : Dev nD) (X : Buf (Elt F) ((c : Thread nD τ).loc cc0_scratch23)) :
    ((c : Thread nD τ).loc cc0_scratch23 ↦[(rOwn c).set]{fullShare} X : sProp 𝕄)
      = ((agB.slice (rOwn c) (fun _ => rfl) : Memref sig .tc .vmem S1x256x1024 .bf16).view.loc (c : Thread nD τ)
          ↦[(agB.slice (rOwn c) (fun _ => rfl) : Memref sig .tc .vmem S1x256x1024 .bf16).view.set]{fullShare} X) := by
  have hset : ((agB.slice (rOwn c) (fun _ => rfl) : Memref sig .tc .vmem S1x256x1024 .bf16)).view.set = (rOwn c).set := View.set_slice_whole _ _
  rw [hset]

/-! The slice a device receives at one hop is the slice it sends at the next, spelt on its neighbour's position. -/
theorem agS_fwd_R0 (c : Dev nD) : agS (prv c) 0 false = agS c 1 false := by
  have h : k0_off67 (prv c) 0#32 = k0_off67 c 1#32 := by revert c; decide +kernel
  show (agB.slice (Rect.unit (s := S4x256x1024) (k0_off67 (prv c) 0#32) S1x128x1024.size (k0_off67_inb (prv c) 0)) (fun _ => rfl)).squeeze S128x1024 squeezes_S1x128x1024_S128x1024
    = (agB.slice (Rect.unit (s := S4x256x1024) (k0_off67 c 1#32) S1x128x1024.size (k0_off67_inb c 1)) (fun _ => rfl)).squeeze S128x1024 squeezes_S1x128x1024_S128x1024
  rw [slice_unit_congr agB _ _ h]
theorem agS_fwd_R1 (c : Dev nD) : agS (prv c) 1 false = agS c 2 false := by
  have h : k0_off67 (prv c) 1#32 = k0_off67 c 2#32 := by revert c; decide +kernel
  show (agB.slice (Rect.unit (s := S4x256x1024) (k0_off67 (prv c) 1#32) S1x128x1024.size (k0_off67_inb (prv c) 1)) (fun _ => rfl)).squeeze S128x1024 squeezes_S1x128x1024_S128x1024
    = (agB.slice (Rect.unit (s := S4x256x1024) (k0_off67 c 2#32) S1x128x1024.size (k0_off67_inb c 2)) (fun _ => rfl)).squeeze S128x1024 squeezes_S1x128x1024_S128x1024
  rw [slice_unit_congr agB _ _ h]
theorem agS_fwd_L0 (c : Dev nD) : agS (nxt c) 0 true = agS c 1 true := by
  have h : k0_off68 (nxt c) 0#32 = k0_off68 c 1#32 := by revert c; decide +kernel
  show (agB.slice (Rect.unit (s := S4x256x1024) (k0_off68 (nxt c) 0#32) S1x128x1024.size (k0_off68_inb (nxt c) 0)) (fun _ => rfl)).squeeze S128x1024 squeezes_S1x128x1024_S128x1024
    = (agB.slice (Rect.unit (s := S4x256x1024) (k0_off68 c 1#32) S1x128x1024.size (k0_off68_inb c 1)) (fun _ => rfl)).squeeze S128x1024 squeezes_S1x128x1024_S128x1024
  rw [slice_unit_congr agB _ _ h]
theorem agS_fwd_L1 (c : Dev nD) : agS (nxt c) 1 true = agS c 2 true := by
  have h : k0_off68 (nxt c) 1#32 = k0_off68 c 2#32 := by revert c; decide +kernel
  show (agB.slice (Rect.unit (s := S4x256x1024) (k0_off68 (nxt c) 1#32) S1x128x1024.size (k0_off68_inb (nxt c) 1)) (fun _ => rfl)).squeeze S128x1024 squeezes_S1x128x1024_S128x1024
    = (agB.slice (Rect.unit (s := S4x256x1024) (k0_off68 c 2#32) S1x128x1024.size (k0_off68_inb c 2)) (fun _ => rfl)).squeeze S128x1024 squeezes_S1x128x1024_S128x1024
  rw [slice_unit_congr agB _ _ h]

/-! ## One step of the gathering: a send, the wait for its read-out, the wait for the neighbour's arrival -/

/-- What the two waits of an enqueued gathering transfer need: the two positions and the two credits. -/
def gSent (c : Dev nD) (l : Bool) (h : Fin 3) : sProp 𝕄 :=
  iprop(atPos ER (sendCell c .g l h) 0 ∅ 0 ∗ cred (tallyAt (sendCell c .g l h) () (amt .g))
    ∗ atPos ER (recvCell c .g l h) 0 ∅ 0 ∗ cred (tallyAt (recvCell c .g l h) () (amt .g)))

/-- A gathering transfer enqueued: the source slice and the neighbour's landing slice go, the send cell's credit comes. -/
theorem tail_send (V : Vals F) (K : Names) (c n : Dev nD) (l : Bool) (h : Fin 3) (hn : n = toDev c l)
    {hsc : ((agS c h l : Memref sig (Dev.tc n : Thread nD τ).2.kind .vmem S128x1024 .bf16)).view.ref.isScScratch = false}
    {hsrc : (agS c h l).view.WordExact} {hdst : (agS c h l).view.WordExact}
    {hsem : DmaTarget.Typed .vmem (.dma (recvSem .g l h)) (.remote (Dev.tc n : Thread nD τ) (agS c h l) (.dma (sendSem .g l h)) hsc)}
    {α : Type} {Q : α → sProp 𝕄} {k : PUnit → Prog (TpuEff nD τ sig (Elt F) Λ₀ .tc) α}
    (fs : Buf (Elt F) ((agS c h l).view.loc (c : Thread nD τ))) (hfs : (agS c h l).view.read (Elt F) fs = V.g c h l)
    (ps : List Pay) (W : Waits sig Unit) :
    iprop(invs V K c ∗ ((agS c h l).view.loc (c : Thread nD τ) ↦[(agS c h l).view.set]{fullShare} fs)
        ∗ owes (c : Thread nD τ) (owedOf c (.xfer .g l h :: ps)) W ∗ gXfer c l h)
      ⊢ iprop(((gSent c l h ∗ owes (c : Thread nD τ) (owedOf c ps) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (agS c h l) (.remote (Dev.tc n : Thread nD τ) (agS c h l) (.dma (sendSem .g l h)) hsc) (.dma (recvSem .g l h)) hsrc hdst hsem) k) Q) := by
  unfold gXfer gSent
  iintro ⟨#HI, Hsrc, HO, Ats, Atr, Ts, Tn, Cr, Ld, #Rs, #Rn⟩ Hk
  ihave Hc := (invs_cells V K c .g l h) $$ HI
  icases Hc with ⟨#Is, #Ir, #In⟩
  iapply (wp_send_g V c n l h hn fs hfs ps W _ _) $$ [HO Ts Tn Ld Hsrc]
  · isplitr; · iexact Is
    isplitr; · iexact In
    isplitl [Hsrc]; · iexact Hsrc
    isplitl [Ld]; · iexact Ld
    isplitl [HO]; · iexact HO
    isplitl [Ts]; · iexact Ts
    isplitr; · iexact Rs
    isplitl [Tn]; · iexact Tn
    iexact Rn
  iintro ⟨Cs, HO⟩
  iapply Hk
  isplitl [Ats Cs Atr Cr]
  · isplitl [Ats]; · iexact Ats
    isplitl [Cs]; · iexact Cs
    isplitl [Atr]; · iexact Atr
    iexact Cr
  iexact HO

/-- The wait for the transfer's read-out: the source slice comes back as it was, the send cell closes. -/
theorem tail_wait_send (V : Vals F) (K : Names) (c : Dev nD) (l : Bool) (h : Fin 3) (ps : List Pay)
    (hlow : ∀ p ∈ ps, place .g l h < payLv p) (W : Waits sig Unit)
    {sp sp' : Space} {s s' : Shape} {e e' : EltTy} {src : Memref sig .tc sp' s' e'} {κ' : Idealize.ShloMosaic.Kind} {dst : Memref sig κ' sp s e}
    {hsrc : src.view.WordExact} {hdst : dst.view.WordExact} (hamt : dst.view.dmaCredit = amt .g) {sem : DmaSem sig} (hs : sem = sendSem .g l h)
    {α : Type} {Q : α → sProp 𝕄} {kk : PUnit → Prog (TpuEff nD τ sig (Elt F) Λ₀ .tc) α} :
    iprop(invs V K c ∗ levAts L lv ∗ owes (c : Thread nD τ) (owedOf c ps) W
        ∗ atPos ER (sendCell c .g l h) 0 ∅ 0 ∗ cred (tallyAt (sendCell c .g l h) () (amt .g)))
      ⊢ iprop(((owes (c : Thread nD τ) (owedOf c ps) (insert (SemLoc.dma (sendSem .g l h), ()) W) ∗ sendPay V c .g l h ∗ semVal (sendCell c .g l h) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  iintro ⟨#HI, #Hlev, HO, Ats, Cs⟩ Hk
  ihave Hc := (invs_cells V K c .g l h) $$ HI
  icases Hc with ⟨#Is, #Ir, #In⟩
  ihave Hm := (mayWait_below c (.dma (sendSem .g l h)) ps (by intro p hp; rw [lv_send]; exact hlow p hp)) $$ Hlev
  iapply (wp_wait_send V c .g l h _ _ _ hamt hs) $$ [Cs HO Hm Ats]
  · isplitr; · iexact Is
    isplitl [Cs]; · iexact Cs
    isplitl [HO]; · iexact HO
    isplitl [Hm]; · iexact Hm
    iexact Ats
  iexact Hk

/-- The wait for the neighbour's transfer: the landing slice comes back at what the neighbour sent, the receive cell closes. -/
theorem tail_wait_recv (V : Vals F) (K : Names) (c : Dev nD) (l : Bool) (h : Fin 3) (ps : List Pay)
    (hlow : ∀ p ∈ ps, place .g l h < payLv p) (W : Waits sig Unit)
    {sp sp' : Space} {s s' : Shape} {e e' : EltTy} {src : Memref sig .tc sp' s' e'} {κ' : Idealize.ShloMosaic.Kind} {dst : Memref sig κ' sp s e}
    {hsrc : src.view.WordExact} {hdst : dst.view.WordExact} (hamt : dst.view.dmaCredit = amt .g) {sem : DmaSem sig} (hs : sem = recvSem .g l h)
    {α : Type} {Q : α → sProp 𝕄} {kk : PUnit → Prog (TpuEff nD τ sig (Elt F) Λ₀ .tc) α} :
    iprop(invs V K c ∗ levAts L lv ∗ owes (c : Thread nD τ) (owedOf c ps) W
        ∗ atPos ER (recvCell c .g l h) 0 ∅ 0 ∗ cred (tallyAt (recvCell c .g l h) () (amt .g)))
      ⊢ iprop(((owes (c : Thread nD τ) (owedOf c ps) (insert (SemLoc.dma (recvSem .g l h), ()) W) ∗ recvPay V c .g l h ∗ semVal (recvCell c .g l h) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  iintro ⟨#HI, #Hlev, HO, Atr, Cr⟩ Hk
  ihave Hc := (invs_cells V K c .g l h) $$ HI
  icases Hc with ⟨#Is, #Ir, #In⟩
  ihave Hm := (mayWait_below c (.dma (recvSem .g l h)) ps (by intro p hp; rw [lv_recv]; exact hlow p hp)) $$ Hlev
  iapply (wp_wait_recv V c .g l h _ _ _ hamt hs) $$ [Cr HO Hm Atr]
  · isplitr; · iexact Ir
    isplitl [Cr]; · iexact Cr
    isplitl [HO]; · iexact HO
    isplitl [Hm]; · iexact Hm
    iexact Atr
  iexact Hk

/-! ## What comes in at one hop goes out at the next; what the waits hand back -/

/-- What a device receives at one hop is, read on its own position, what it sends at the next. -/
theorem fwdR0 (m : (ℓ : Loc nD τ sig) → Buf (Elt F) ℓ) (c : Dev nD) :
    recvPay (KFun.V m) c .g false 0 = heldAs c (agS c 1 false) ((KFun.V m).g c 1 false) := by
  show heldAs c (agS (prv c) 0 false) ((KFun.V m).g (prv c) 0 false) = _
  rw [agS_fwd_R0]; exact congrArg (heldAs c (agS c 1 false)) (KFun.Vg_succ m c 0 false).symm
theorem fwdR1 (m : (ℓ : Loc nD τ sig) → Buf (Elt F) ℓ) (c : Dev nD) :
    recvPay (KFun.V m) c .g false 1 = heldAs c (agS c 2 false) ((KFun.V m).g c 2 false) := by
  show heldAs c (agS (prv c) 1 false) ((KFun.V m).g (prv c) 1 false) = _
  rw [agS_fwd_R1]; exact congrArg (heldAs c (agS c 2 false)) (KFun.Vg_succ m c 1 false).symm
theorem fwdL0 (m : (ℓ : Loc nD τ sig) → Buf (Elt F) ℓ) (c : Dev nD) :
    recvPay (KFun.V m) c .g true 0 = heldAs c (agS c 1 true) ((KFun.V m).g c 1 true) := by
  show heldAs c (agS (nxt c) 0 true) ((KFun.V m).g (nxt c) 0 true) = _
  rw [agS_fwd_L0]; exact congrArg (heldAs c (agS c 1 true)) (KFun.Vg_succ m c 0 true).symm
theorem fwdL1 (m : (ℓ : Loc nD τ sig) → Buf (Elt F) ℓ) (c : Dev nD) :
    recvPay (KFun.V m) c .g true 1 = heldAs c (agS c 2 true) ((KFun.V m).g c 2 true) := by
  show heldAs c (agS (nxt c) 1 true) ((KFun.V m).g (nxt c) 1 true) = _
  rw [agS_fwd_L1]; exact congrArg (heldAs c (agS c 2 true)) (KFun.Vg_succ m c 1 true).symm

/-- A forwarded slice, handed back by its send's wait, is the slice the device received the hop before. -/
theorem back_R0 (V : Vals F) (c : Dev nD) : sendPay V c .g false 1 = heldAs c (agS (prv c) 0 false) (V.g c 1 false) := by rw [agS_fwd_R0]; rfl
theorem back_R1 (V : Vals F) (c : Dev nD) : sendPay V c .g false 2 = heldAs c (agS (prv c) 1 false) (V.g c 2 false) := by rw [agS_fwd_R1]; rfl
theorem back_L0 (V : Vals F) (c : Dev nD) : sendPay V c .g true 1 = heldAs c (agS (nxt c) 0 true) (V.g c 1 true) := by rw [agS_fwd_L0]; rfl
theorem back_L1 (V : Vals F) (c : Dev nD) : sendPay V c .g true 2 = heldAs c (agS (nxt c) 1 true) (V.g c 2 true) := by rw [agS_fwd_L1]; rfl
theorem own_f (V : Vals F) (c : Dev nD) : sendPay V c .g false 0 = heldAs c (agS c 0 false) (V.g c 0 false) := rfl
theorem own_t (V : Vals F) (c : Dev nD) : sendPay V c .g true 0 = heldAs c (agS c 0 true) (V.g c 0 true) := rfl
theorem last_R (V : Vals F) (c : Dev nD) : recvPay V c .g false 2 = heldAs c (agS (prv c) 2 false) (V.g (prv c) 2 false) := rfl
theorem last_L (V : Vals F) (c : Dev nD) : recvPay V c .g true 2 = heldAs c (agS (nxt c) 2 true) (V.g (nxt c) 2 true) := rfl

/-! ## The end: slices at contents in hand, the owes, the result window -/

/-- A slice at contents in hand is held at some contents; a whole buffer likewise. -/
theorem held_intro {sp : Space} {s : Shape} {e : EltTy} (c : Dev nD) (mr : Memref sig .tc sp s e) (f : Buf (Elt F) (mr.view.loc (c : Thread nD τ))) :
    (mr.view.loc (c : Thread nD τ) ↦[mr.view.set]{fullShare} f : sProp 𝕄) ⊢ held c mr := by
  unfold held; iintro H; iexists f; iexact H
theorem wholeEx_intro (c : Dev nD) (b : Ref sig .tc) (f : Buf (Elt F) ((c : Thread nD τ).loc b)) :
    wholeAt c b f ⊢ wholeEx (F := F) c b := by
  iintro H; iexists f; iapply (Entails.of_eq (whole_pts (F := F) c b f).symm); iexact H

/-- The owes the body hands back: nothing owed, whatever waits are recorded. -/
theorem finish_owes (m : (ℓ : Loc nD τ sig) → Buf (Elt F) ℓ) (c : Dev nD) (W' : Waits sig Unit) :
    owes (c : Thread nD τ) (owedOf c []) W' ⊢ (dats (KFun.V m) m KFun.Kout 0 c).owesAt () t0_0.succ := by
  iintro H
  iexists W'
  isplitr; · ipureintro; exact fun _ _ => Or.inl (Set.mem_univ _)
  iexact H

/-- The result window from the result block's buffer, given that it holds the device's result. -/
theorem finish_out (m : (ℓ : Loc nD τ sig) → Buf (Elt F) ℓ) (c : Dev nD) (X : Buf (Elt F) ((c : Thread nD τ).loc cc0_stg3_0))
    (hX : X = KFun.Kout m c) :
    wholeAt c cc0_stg3_0 X ⊢ (iprop(∃ f, ⌜f = (dats (KFun.V m) m KFun.Kout 0 c).after 3 t0_0⌝ ∗ (c : Thread nD τ).loc cc0_stg3_0 ↦{fullShare} f) : sProp 𝕄) := by
  subst hX
  iintro H
  iexists _
  isplitr; · ipureintro; rfl
  iapply (Entails.of_eq (whole_pts (F := F) c cc0_stg3_0 _).symm); iexact H

/-- A half of the own block at contents that read as `w` is held as `w`. -/
theorem heldAs_intro_0f (c : Dev nD) (f : Buf (Elt F) ((c : Thread nD τ).loc cc0_scratch23))
    (w : S128x1024.Idx → Elt F .bf16) (hw : (agS c 0 false).view.read (Elt F) f = w) :
    ((agS c 0 false).view.loc (c : Thread nD τ) ↦[(agS c 0 false).view.set]{fullShare} f : sProp 𝕄) ⊢ heldAs c (agS c 0 false) w := by
  unfold heldAs; iintro H; iexists f; isplitl [H]; · iexact H
  ipureintro; exact hw
theorem heldAs_intro_0t (c : Dev nD) (f : Buf (Elt F) ((c : Thread nD τ).loc cc0_scratch23))
    (w : S128x1024.Idx → Elt F .bf16) (hw : (agS c 0 true).view.read (Elt F) f = w) :
    ((agS c 0 true).view.loc (c : Thread nD τ) ↦[(agS c 0 true).view.set]{fullShare} f : sProp 𝕄) ⊢ heldAs c (agS c 0 true) w := by
  unfold heldAs; iintro H; iexists f; isplitl [H]; · iexact H
  ipureintro; exact hw

/-- The own block's rows from what its two halves read as. -/
theorem own_of_halves (m : (ℓ : Loc nD τ sig) → Buf (Elt F) ℓ) (c : Dev nD) (G : Buf (Elt F) ((c : Thread nD τ).loc cc0_scratch23))
    (h7 : (agS c 0 false).view.read (Elt F) G = (KFun.V m).g c 0 false) (h8 : (agS c 0 true).view.read (Elt F) G = (KFun.V m).g c 0 true)
    (i : Fin 256) (n : Fin 1024) : G (ix3 (nxt c) i n) = KFun.agbOwn m c (ix3 0 i n) := by
  by_cases hi : i.val < 128
  · have e := congrFun h7 (ix2 (⟨i.val, hi⟩ : Fin 128) n)
    rw [KFun.agS_read_0f c c G ⟨i.val, hi⟩ n, KFun.Vg_zero_false m c ⟨i.val, hi⟩ n] at e
    exact (KFun.ix3_congr G n (show (nxt c).val = (c.val + 1) % 4 from rfl) (show i.val = 0 + i.val by omega)).trans e
  · have hi' : i.val - 128 < 128 := by have := i.isLt; omega
    have e := congrFun h8 (ix2 (⟨i.val - 128, hi'⟩ : Fin 128) n)
    rw [KFun.agS_read_0t c c G ⟨i.val - 128, hi'⟩ n, KFun.Vg_zero_true m c ⟨i.val - 128, hi'⟩ n] at e
    refine (KFun.ix3_congr G n (show (nxt c).val = (c.val + 1) % 4 from rfl) (show i.val = 128 + (i.val - 128) by omega)).trans (e.trans ?_)
    exact congrArg (fun j : Fin 256 => KFun.agbOwn m c (ix3 0 j n)) (Fin.ext (show 128 + (i.val - 128) = i.val by omega))

/-! ## The three steps as tactics over the names in the proof below -/

set_option hygiene false in
/-- Enqueue the gathering transfer in direction `l` at hop `h` from the source `src` at contents `fs`, then run on to the next remote step. -/
local macro "gsend " l:term:max h:term:max dev:term:max fs:term:max hfs:term:max G:ident src:ident S:ident : tactic =>
  `(tactic| (
    iapply (tail_send (KFun.V m) K c _ $l $h ($dev c) $fs $hfs _ _) $$ [HO $G:ident $src:ident]
    · isplitr; · iexact HI
      isplitl [$src]; · iexact $src
      isplitl [HO]; · iexact HO
      iexact $G
    iintro ⟨$S:ident, HO⟩
    sl_exec))

set_option hygiene false in
/-- The wait for the read-out of the transfer in direction `l` at hop `h`, owing the payments `ps`. -/
local macro "gwaits " l:term:max h:term:max ps:term:max A:ident C:ident P:ident Z:ident : tactic =>
  `(tactic| (
    iapply (tail_wait_send (KFun.V m) K c $l $h $ps (by decide) _ (by rfl) (by rfl)) $$ [HO $A:ident $C:ident]
    · isplitr; · iexact HI
      isplitr; · iexact Hlev
      isplitl [HO]; · iexact HO
      isplitl [$A]; · iexact $A
      iexact $C
    iintro ⟨HO, $P:ident, $Z:ident⟩
    sl_exec))

set_option hygiene false in
/-- The wait for the neighbour's transfer in direction `l` at hop `h`. -/
local macro "gwaitr " l:term:max h:term:max ps:term:max A:ident C:ident P:ident Z:ident : tactic =>
  `(tactic| (
    iapply (tail_wait_recv (KFun.V m) K c $l $h $ps (by decide) _ (by rfl) (by rfl)) $$ [HO $A:ident $C:ident]
    · isplitr; · iexact HI
      isplitr; · iexact Hlev
      isplitl [HO]; · iexact HO
      isplitl [$A]; · iexact $A
      iexact $C
    iintro ⟨HO, $P:ident, $Z:ident⟩
    sl_exec))

/-! ## The tail -/

set_option maxRecDepth 65536 in
set_option maxHeartbeats 40000000 in
/-- From the cut to the return: device `c` finishes its block, gathers the four blocks around the ring and widens them into
    the result buffer, and hands back what the body owes. -/
theorem tail_ok (m : (ℓ : Loc nD τ sig) → Buf (Elt F) ℓ) (c : Dev nD) (K : Names) :
    ∀ (W : Waits sig Unit) (v14 v25 v1157 : BitVec 32),
      AtTail m c K W ⊢ wp frame (wpE (defs₀ (F := F)) 𝒱₀ (c : Thread nD τ) none) Set.univ
        (tailProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1157) (fun _ => bodyPost m c) := by
  intro W v14 v25 v1157
  unfold AtTail closedX heldAs gProg
  iintro ⟨#HI, #Hlev, HO, ⟨G0f, G0t, G1f, G1t, G2f, G2t⟩, Hclosed, Hcs, Hkv, Hx, Hwq, Hwo, ⟨%g3, Hout, %hg3⟩, Hs4, Hs5, Hs6, Hs7, Hs8, Hs9, HlocO, HlocL,
    ⟨%fo2f, Ho2f, %ho2f⟩, ⟨%fo2t, Ho2t, %ho2t⟩, Ho0f, Ho0t, Ho1f, Ho1t, ⟨%fl2f, Hl2f, %hl2f⟩, ⟨%fl2t, Hl2t, %hl2t⟩, Hl0f, Hl0t, Hl1f, Hl1t, ⟨%fg, Hg0f, Hg0t⟩⟩
  -- a head's tile lies inside the landing slice that holds it
  have wo0 := rsO2_within_0
  have wl0 := rsL2_within_0
  have wo0' := rsO2_withinOn_0
  have wl0' := rsL2_withinOn_0
  have wo1 := rsO2_within_1
  have wl1 := rsL2_within_1
  have wo1' := rsO2_withinOn_1
  have wl1' := rsL2_withinOn_1
  have wo2 := rsO2_within_2
  have wl2 := rsL2_within_2
  have wo2' := rsO2_withinOn_2
  have wl2' := rsL2_withinOn_2
  have wo3 := rsO2_within_3
  have wl3 := rsL2_within_3
  have wo3' := rsO2_withinOn_3
  have wl3' := rsL2_withinOn_3
  have wo4 := rsO2_within_4
  have wl4 := rsL2_within_4
  have wo4' := rsO2_withinOn_4
  have wl4' := rsL2_withinOn_4
  have wo5 := rsO2_within_5
  have wl5 := rsL2_within_5
  have wo5' := rsO2_withinOn_5
  have wl5' := rsL2_withinOn_5
  have wo6 := rsO2_within_6
  have wl6 := rsL2_within_6
  have wo6' := rsO2_withinOn_6
  have wl6' := rsL2_withinOn_6
  have wo7 := rsO2_within_7
  have wl7 := rsL2_within_7
  have wo7' := rsO2_withinOn_7
  have wl7' := rsL2_withinOn_7
  have wown := own_within c
  have wown' := own_withinOn c
  -- the own block of the gathered result: its two halves joined, read through the block's memref
  ihave Hown := (Entails.of_eq (own_block_eq (F := F) c fg)) $$ [Hg0f Hg0t]
  · isplitl [Hg0f] <;> iassumption
  ihave Hown := (Entails.of_eq (own_spell (F := F) c fg)) $$ Hown
  -- a head's 128 rows of the narrowed output weights, as the terms load them
  have hW1 := KFun.woRows_load_1 (F := F) m c
  have hW2 := KFun.woRows_load_2 (F := F) m c
  have hW3 := KFun.woRows_load_3 (F := F) m c
  have hW4 := KFun.woRows_load_4 (F := F) m c
  have hW5 := KFun.woRows_load_5 (F := F) m c
  have hW6 := KFun.woRows_load_6 (F := F) m c
  have hW7 := KFun.woRows_load_7 (F := F) m c
  unfold tailProg
  sl_exec
  -- the own block, stored, back to its two halves
  ihave Hown := (Entails.of_eq (own_spell (F := F) c _).symm) $$ Hown
  ihave Hh := (Entails.of_eq (own_block_eq (F := F) c _).symm) $$ Hown
  icases Hh with ⟨Hg0f, Hg0t⟩
  -- hop 0: the two halves of the own block
  ihave P0f := (heldAs_intro_0f c _ ((KFun.V m).g c 0 false) ?hfs0f) $$ Hg0f
  case hfs0f =>
    refine KFun.vg0_false_of_rows m c _ (fun r n => ?_)
    sl_unfold_run_names
    refine (KFun.own_rows c fg _ (⟨0 + r.val, by omega⟩ : Fin 256) n).trans ?_
    simp only [View.readCov_cons_toLoadRect,
      KFun.rsO_load_1 m c fo2f ho2f, KFun.rsO_load_2 m c fo2f ho2f, KFun.rsO_load_3 m c fo2f ho2f,
      KFun.rsO_load_4 m c fo2t ho2t, KFun.rsO_load_5 m c fo2t ho2t, KFun.rsO_load_6 m c fo2t ho2t, KFun.rsO_load_7 m c fo2t ho2t,
      KFun.rsL_load_1 m c fl2f hl2f, KFun.rsL_load_2 m c fl2f hl2f, KFun.rsL_load_3 m c fl2f hl2f,
      KFun.rsL_load_4 m c fl2t hl2t, KFun.rsL_load_5 m c fl2t hl2t, KFun.rsL_load_6 m c fl2t hl2t, KFun.rsL_load_7 m c fl2t hl2t]
    have hidx : (⟨0 + r.val, by omega⟩ : Fin 256) = ⟨r.val, by omega⟩ := Fin.ext (Nat.zero_add _)
    rw [hidx]
    rfl
  ihave P0t := (heldAs_intro_0t c _ ((KFun.V m).g c 0 true) ?hfs0t) $$ Hg0t
  case hfs0t =>
    refine KFun.vg0_true_of_rows m c _ (fun r n => ?_)
    sl_unfold_run_names
    refine (KFun.own_rows c fg _ (⟨128 + r.val, by omega⟩ : Fin 256) n).trans ?_
    simp only [View.readCov_cons_toLoadRect,
      KFun.rsO_load_1 m c fo2f ho2f, KFun.rsO_load_2 m c fo2f ho2f, KFun.rsO_load_3 m c fo2f ho2f,
      KFun.rsO_load_4 m c fo2t ho2t, KFun.rsO_load_5 m c fo2t ho2t, KFun.rsO_load_6 m c fo2t ho2t, KFun.rsO_load_7 m c fo2t ho2t,
      KFun.rsL_load_1 m c fl2f hl2f, KFun.rsL_load_2 m c fl2f hl2f, KFun.rsL_load_3 m c fl2f hl2f,
      KFun.rsL_load_4 m c fl2t hl2t, KFun.rsL_load_5 m c fl2t hl2t, KFun.rsL_load_6 m c fl2t hl2t, KFun.rsL_load_7 m c fl2t hl2t]
    rfl
  unfold heldAs
  icases P0f with ⟨%s0f, Hs0f, %hs0f⟩
  icases P0t with ⟨%s0t, Hs0t, %hs0t⟩
  gsend false 0 dev15_eq s0f hs0f G0f Hs0f S0f
  gsend true 0 dev16_eq s0t hs0t G0t Hs0t S0t
  unfold gSent
  icases S0f with ⟨As0f, Cs0f, Ar0f, Cr0f⟩
  icases S0t with ⟨As0t, Cs0t, Ar0t, Cr0t⟩
  gwaits false 0 [.xfer .g false 1, .xfer .g true 1, .xfer .g false 2, .xfer .g true 2] As0f Cs0f Ps0f Zs0f
  gwaitr false 0 [.xfer .g false 1, .xfer .g true 1, .xfer .g false 2, .xfer .g true 2] Ar0f Cr0f Pr0f Zr0f
  gwaits true 0 [.xfer .g false 1, .xfer .g true 1, .xfer .g false 2, .xfer .g true 2] As0t Cs0t Ps0t Zs0t
  gwaitr true 0 [.xfer .g false 1, .xfer .g true 1, .xfer .g false 2, .xfer .g true 2] Ar0t Cr0t Pr0t Zr0t
  -- hop 1: what came in at hop 0 goes on
  ihave Pf := (Entails.of_eq (fwdR0 m c)) $$ Pr0f
  ihave Pt := (Entails.of_eq (fwdL0 m c)) $$ Pr0t
  unfold heldAs
  icases Pf with ⟨%s1f, Hs1f, %hs1f⟩
  icases Pt with ⟨%s1t, Hs1t, %hs1t⟩
  gsend false 1 dev17_eq s1f hs1f G1f Hs1f S1f
  gsend true 1 dev18_eq s1t hs1t G1t Hs1t S1t
  unfold gSent
  icases S1f with ⟨As1f, Cs1f, Ar1f, Cr1f⟩
  icases S1t with ⟨As1t, Cs1t, Ar1t, Cr1t⟩
  gwaits false 1 [.xfer .g false 2, .xfer .g true 2] As1f Cs1f Ps1f Zs1f
  gwaitr false 1 [.xfer .g false 2, .xfer .g true 2] Ar1f Cr1f Pr1f Zr1f
  gwaits true 1 [.xfer .g false 2, .xfer .g true 2] As1t Cs1t Ps1t Zs1t
  gwaitr true 1 [.xfer .g false 2, .xfer .g true 2] Ar1t Cr1t Pr1t Zr1t
  -- hop 2
  ihave Pf := (Entails.of_eq (fwdR1 m c)) $$ Pr1f
  ihave Pt := (Entails.of_eq (fwdL1 m c)) $$ Pr1t
  unfold heldAs
  icases Pf with ⟨%s2f, Hs2f, %hs2f⟩
  icases Pt with ⟨%s2t, Hs2t, %hs2t⟩
  gsend false 2 dev19_eq s2f hs2f G2f Hs2f S2f
  gsend true 2 dev20_eq s2t hs2t G2t Hs2t S2t
  unfold gSent
  icases S2f with ⟨As2f, Cs2f, Ar2f, Cr2f⟩
  icases S2t with ⟨As2t, Cs2t, Ar2t, Cr2t⟩
  gwaits false 2 [] As2f Cs2f Ps2f Zs2f
  gwaitr false 2 [] Ar2f Cr2f Pr2f Zr2f
  gwaits true 2 [] As2t Cs2t Ps2t Zs2t
  iapply (tail_wait_recv (KFun.V m) K c true 2 [] (by decide) _ (by rfl) (by rfl)) $$ [HO Ar2t Cr2t]
  · isplitr; · iexact HI
    isplitr; · iexact Hlev
    isplitl [HO]; · iexact HO
    isplitl [Ar2t]; · iexact Ar2t
    iexact Cr2t
  iintro ⟨HO, Pr2t, Zr2t⟩
  -- the eight half blocks of the gathered result, glued
  ihave P1 := (Entails.of_eq (back_R0 (KFun.V m) c)) $$ Ps1f
  ihave P2 := (Entails.of_eq (back_R1 (KFun.V m) c)) $$ Ps2f
  ihave P3 := (Entails.of_eq (last_R (KFun.V m) c)) $$ Pr2f
  ihave P4 := (Entails.of_eq (back_L0 (KFun.V m) c)) $$ Ps1t
  ihave P5 := (Entails.of_eq (back_L1 (KFun.V m) c)) $$ Ps2t
  ihave P6 := (Entails.of_eq (last_L (KFun.V m) c)) $$ Pr2t
  ihave P7 := (Entails.of_eq (own_f (KFun.V m) c)) $$ Ps0f
  ihave P8 := (Entails.of_eq (own_t (KFun.V m) c)) $$ Ps0t
  unfold heldAs
  icases P1 with ⟨%f1, H1, %h1⟩
  icases P2 with ⟨%f2, H2, %h2⟩
  icases P3 with ⟨%f3, H3, %h3⟩
  icases P4 with ⟨%f4, H4, %h4⟩
  icases P5 with ⟨%f5, H5, %h5⟩
  icases P6 with ⟨%f6, H6, %h6⟩
  icases P7 with ⟨%f7, H7, %h7⟩
  icases P8 with ⟨%f8, H8, %h8⟩
  ihave Hag := (agB_glue (F := F) c f1 f2 f3 f4 f5 f6 f7 f8) $$ [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ihave Hag := (Entails.of_eq (whole_pts (F := F) c cc0_scratch23 _)) $$ Hag
  sl_exec
  sl_step
  unfold bodyPost
  -- the gathered result back to its eight slices; the partial sums' halves joined
  ihave Hag := (Entails.of_eq (whole_pts (F := F) c cc0_scratch23 _).symm) $$ Hag
  ihave Hag := (Entails.of_eq (agB_split_eq (F := F) c _)) $$ Hag
  icases Hag with ⟨B1, B2, B3, B4, B5, B6, B7, B8⟩
  ihave HsO := (halvesO_join (F := F) c) $$ HlocO
  ihave HsL := (halvesL_join (F := F) c) $$ HlocL
  icases Hclosed with ⟨X1, X2, X3, X4, X5, X6, X7, X8, X9, X10, X11, X12⟩
  isplitr [HO Hx Hwq Hwo Hout]
  · iapply (phi1_intro_list m c)
    isplitl [HsO HsL Ho0f Ho0t Ho1f Ho1t Ho2f Ho2t Hl0f Hl0t Hl1f Hl1t Hl2f Hl2t Hs4 Hs5 Hs6 Hs7 Hs8 Hs9 B1 B2 B3 B4 B5 B6 B7 B8]
    · iapply (scratch_intro_flat c)
      isplitl [HsO]; · iexact HsO
      isplitl [HsL]; · iexact HsL
      isplitl [Ho0f]; · iexact Ho0f
      isplitl [Ho0t]; · iexact Ho0t
      isplitl [Ho1f]; · iexact Ho1f
      isplitl [Ho1t]; · iexact Ho1t
      isplitl [Ho2f]; · (iapply (held_intro c _ _); iexact Ho2f)
      isplitl [Ho2t]; · (iapply (held_intro c _ _); iexact Ho2t)
      isplitl [Hl0f]; · iexact Hl0f
      isplitl [Hl0t]; · iexact Hl0t
      isplitl [Hl1f]; · iexact Hl1f
      isplitl [Hl1t]; · iexact Hl1t
      isplitl [Hl2f]; · (iapply (held_intro c _ _); iexact Hl2f)
      isplitl [Hl2t]; · (iapply (held_intro c _ _); iexact Hl2t)
      isplitl [Hs4]; · iexact Hs4
      isplitl [Hs5]; · iexact Hs5
      isplitl [Hs6]; · iexact Hs6
      isplitl [Hs7]; · iexact Hs7
      isplitl [Hs8]; · (iapply (wholeEx_intro c _ _); iexact Hs8)
      isplitl [Hs9]; · iexact Hs9
      isplitl [B1]; · (iapply (held_intro c _ _); iexact B1)
      isplitl [B2]; · (iapply (held_intro c _ _); iexact B2)
      isplitl [B3]; · (iapply (held_intro c _ _); iexact B3)
      isplitl [B4]; · (iapply (held_intro c _ _); iexact B4)
      isplitl [B5]; · (iapply (held_intro c _ _); iexact B5)
      isplitl [B6]; · (iapply (held_intro c _ _); iexact B6)
      isplitl [B7]; · (iapply (held_intro c _ _); iexact B7)
      iapply (held_intro c _ _); iexact B8
    isplitl [Hcs]; · iexact Hcs
    isplitl [Hkv]; · iexact Hkv
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [Zs0f Zr0f]; · (isplitl [Zs0f] <;> iassumption)
    isplitl [Zs0t Zr0t]; · (isplitl [Zs0t] <;> iassumption)
    isplitl [Zs1f Zr1f]; · (isplitl [Zs1f] <;> iassumption)
    isplitl [Zs1t Zr1t]; · (isplitl [Zs1t] <;> iassumption)
    isplitl [Zs2f Zr2f]; · (isplitl [Zs2f] <;> iassumption)
    isplitl [Zs2t] <;> iassumption
  isplitl [HO]
  · iapply (finish_owes m c _); iexact HO
  isplitl [Hx]
  · iexists _
    isplitr; · ipureintro; rfl
    iapply (Entails.of_eq (whole_pts (F := F) c cc0_stg0_0 _).symm); iexact Hx
  isplitl [Hwq]
  · iexists _
    isplitr; · ipureintro; rfl
    iapply (Entails.of_eq (whole_pts (F := F) c cc0_stg1_0 _).symm); iexact Hwq
  isplitl [Hwo]
  · iexists _
    isplitr; · ipureintro; rfl
    iapply (Entails.of_eq (whole_pts (F := F) c cc0_stg2_0 _).symm); iexact Hwo
  iapply (finish_out m c _ ?kout)
  swap
  · iexact Hout
  · sl_unfold_run_names
    exact KFun.kout_final m c g3 (agGlue c f1 f2 f3 f4 f5 f6 f7 f8) _
      (KFun.agbFin_of_buffer m c (agGlue c f1 f2 f3 f4 f5 f6 f7 f8)
        (own_of_halves m c _ ((agGlue_read_7 c f1 f2 f3 f4 f5 f6 f7 f8).trans h7) ((agGlue_read_8 c f1 f2 f3 f4 f5 f6 f7 f8).trans h8))
        ((agGlue_read_1 c f1 f2 f3 f4 f5 f6 f7 f8).trans (h1.trans (KFun.Vg_succ m c 0 false)))
        ((agGlue_read_2 c f1 f2 f3 f4 f5 f6 f7 f8).trans (h2.trans (KFun.Vg_succ m c 1 false)))
        ((agGlue_read_3 c f1 f2 f3 f4 f5 f6 f7 f8).trans h3)
        ((agGlue_read_4 c f1 f2 f3 f4 f5 f6 f7 f8).trans (h4.trans (KFun.Vg_succ m c 0 true)))
        ((agGlue_read_5 c f1 f2 f3 f4 f5 f6 f7 f8).trans (h5.trans (KFun.Vg_succ m c 1 true)))
        ((agGlue_read_6 c f1 f2 f3 f4 f5 f6 f7 f8).trans h6))

end Cert.Kernel.Proto

end
-- ==== Proof.KB.ValsDFlash.lean ====
/-
  The rows of block 1 of the partial sums after the flash step of batch c + 1, as the cut after it states them.

  Given that the projected queries' rows and the narrowed planes the step reads are that batch's, each half of the block
  reads, through its own view, as the device's own partial sums of the batch: the rows are the flash outputs, head by
  head, and a half block is four consecutive rows.
-/
import proofs.«900754_g7700000000000755_dist_attn_cross_gqa_kvseq_b4_sq256_skv1024_d1024_hq8_dh128_v7x_i4_f32_1_alg».proof.Proof.KB.BodyD
import proofs.«900754_g7700000000000755_dist_attn_cross_gqa_kvseq_b4_sq256_skv1024_d1024_hq8_dh128_v7x_i4_f32_1_alg».proof.Proof.KB.FlashRows
import proofs.«900754_g7700000000000755_dist_attn_cross_gqa_kvseq_b4_sq256_skv1024_d1024_hq8_dh128_v7x_i4_f32_1_alg».proof.Proof.KB.ProjRows
import proofs.«900754_g7700000000000755_dist_attn_cross_gqa_kvseq_b4_sq256_skv1024_d1024_hq8_dh128_v7x_i4_f32_1_alg».proof.Proof.KB.KvRead

set_option maxRecDepth 8192

noncomputable section

namespace Cert.Kernel.Proto
open Cert.Kernel Cert.Kernel.Gen Cert.Kernel.Ring Cert.Kernel.KFun
open Idealize.ShloMosaic Idealize.ShloMosaic.TcCoe
open Idealize.SL.Sem
open Idealize.ShloMosaic.ValueIdx
variable {F : FTy → Type} [FloatOps F]
variable (m : (ℓ : Loc nD τ sig) → Buf (Elt F) ℓ) (c : Dev nD)

/-- The staged activations are the launch memory's. -/
theorem stg0_is_X (b' : Fin 4) (i : Fin 256) (n : Fin 1024) :
    (dats (KFun.V m) m KFun.Kout 0 c).after 0 t0_0 (ix3 b' i n) = KFun.X m c (ix3 b' i n) := by
  show iblk m c 0 t0_0 (ix3 b' i n) = _
  unfold iblk KFun.X
  rw [View.read_apply]
  show m ((c : Thread nD τ).loc main_arg0) _ = m _ _
  refine congrArg (m ((c : Thread nD τ).loc main_arg0)) (funext fun a => Fin.ext ?_)
  match a with
  | ⟨0, _⟩ => first | rfl | (show 0 + 1 * b'.val = b'.val; omega) | (show 0 * 4 + 1 * b'.val = b'.val; omega)
  | ⟨1, _⟩ => first | rfl | (show 0 + 1 * i.val = i.val; omega) | (show 0 * 256 + 1 * i.val = i.val; omega)
  | ⟨2, _⟩ => first | rfl | (show 0 + 1 * n.val = n.val; omega) | (show 0 * 1024 + 1 * n.val = n.val; omega)

/-- The projected and narrowed Wq, loaded whole, is itself. -/
theorem wqb_load :
    View.readAt (Elt F) (Memref.whole cc0_scratch7 : Memref sig .tc .vmem S1024x1024 .bf16).view (Rect.unit (s := S1024x1024) ![0, 0] S1024x1024.size inb_S1024x1024_S1024x1024_0_0).toLoadRect (KFun.wqb m c)
      = KFun.wqb m c := by
  funext t
  rw [View.readAt_apply, View.read_apply]
  show KFun.wqb m c _ = KFun.wqb m c t
  refine congrArg (KFun.wqb m c) (funext fun a => Fin.ext ?_)
  match a with
  | ⟨0, _⟩ => show 0 + 1 * (t 0).val = (t 0).val; omega
  | ⟨1, _⟩ => show 0 + 1 * (t 1).val = (t 1).val; omega

/-- The tile of the activations the projection of batch c + 1 loads. -/
theorem xblk_load1 :
    View.readAt (Elt F) (Memref.whole cc0_stg0_0 : Memref sig .tc .vmem S4x256x1024 .f32).view (Rect.unit (s := S4x256x1024) (k0_off24 c 1#32) S1x256x1024.size (k0_off24_inb c 0)).toLoadRect ((dats (KFun.V m) m KFun.Kout 0 c).after 0 t0_0)
      = KFun.xblk m c (nxt c) :=
  Rows.xblk_of_load m c (nxt c) _ (off24_eq c 0) _ _ (stg0_is_X m c)

/-- The rows of the projected queries after the eight head stores of batch c + 1. -/
theorem q2D_rows (f4 : Buf (Elt F) ((c : Thread nD τ).loc cc0_scratch4)) (h : Fin 8) (i : Fin 256) (d : Fin 128) :
    q2D m c f4 (ix3 (⟨8 * ((c.val + 1) % 4) + h.val, by have hc : c.val < 4 := c.isLt; omega⟩ : Fin 32) i d) = KFun.q2 m c (nxt c) h (ix3 0 i d) := by
  have hxq : xqD m c = k0_pay84 (KFun.xblk m c (nxt c)) (KFun.wqb m c) := by unfold xqD; rw [xblk_load1, wqb_load]
  have hxq0 : xq0D m c = k0_pay85 (KFun.xblk m c (nxt c)) (KFun.wqb m c) := by unfold xq0D; rw [xblk_load1, wqb_load]
  unfold q2D
  exact Rows.q2rows_at m c (nxt c) (8 * ((c.val + 1) % 4)) (by have hc : c.val < 4 := c.isLt; omega) _ _ _ _ _ _ _ _ _ _ _ _ _ _ _ _
    (off25_eq c 0 0) (off25_eq c 0 1) (off25_eq c 0 2) (off25_eq c 0 3) (off25_eq c 0 4) (off25_eq c 0 5) (off25_eq c 0 6) (off25_eq c 0 7) f4
    (xq0D m c) (k0_pay86 (xqD m c)) (k0_pay87 (xqD m c)) (k0_pay88 (xqD m c)) (k0_pay89 (xqD m c)) (k0_pay91 (k0_pay90 (xqD m c))) (k0_pay92 (xqD m c)) (k0_pay93 (xqD m c))
    (by rw [hxq0]; rfl) (by rw [hxq]; rfl) (by rw [hxq]; rfl) (by rw [hxq]; rfl) (by rw [hxq]; rfl) (by rw [hxq]; rfl) (by rw [hxq]; rfl) (by rw [hxq]; rfl) h i d

/-- The narrowed planes of batch c + 1 after the four casts: each cast reads the plane a local copy has just filled with the
    launch memory's rows of the batch. -/
theorem kvbD_planes (f9 : Buf (Elt F) ((c : Thread nD τ).loc cc0_scratch9)) (vals : Fin 16 → CpVal F)
    (hv : (∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))))
    (g : Fin 2) (j : Fin 1024) (d : Fin 128) :
    kvbD c f9 vals (ix4 (0 : Fin 2) (⟨2 * ((c.val + 1) % 4) + g.val, by have hc : c.val < 4 := c.isLt; omega⟩ : Fin 8) j d) = KFun.kh m c (nxt c) g (ix4 0 0 j d)
    ∧ kvbD c f9 vals (ix4 (1 : Fin 2) (⟨2 * ((c.val + 1) % 4) + g.val, by have hc : c.val < 4 := c.isLt; omega⟩ : Fin 8) j d) = KFun.vh m c (nxt c) g (ix4 0 0 j d) := by
  unfold kvbD
  exact Rows.kvrows_at m c (nxt c) (2 * ((c.val + 1) % 4)) (by have hc : c.val < 4 := c.isLt; omega) _ _ _ _ _ _ _ _
    (off23_eq c 0 1) (off22_eq c 0 1) (off23_eq c 0 0) (off22_eq c 0 0) f9 _ _ _ _
    (kh_of_copy m c 1 0 _ _ _ _ ((off22_eq c 0 0).trans (off18_eq c 0 0).symm) _ (hv 1 0).1)
    (vh_of_copy m c 1 0 _ _ _ _ ((off23_eq c 0 0).trans (off20_eq c 0 0).symm) _ (hv 1 0).2)
    (kh_of_copy m c 1 1 _ _ _ _ ((off22_eq c 0 1).trans (off18_eq c 0 1).symm) _ (hv 1 1).1)
    (vh_of_copy m c 1 1 _ _ _ _ ((off23_eq c 0 1).trans (off20_eq c 0 1).symm) _ (hv 1 1).2) g j d

/-- Row k of half hb of block 1 is row 4 hb + k of batch c + 1's rows. -/
theorem halfRow1_eq (hb : Bool) (k : Fin 4) : halfRow c 1 hb + k.val = 8 * ((c.val + 1) % 4) + (headAt hb k).val := by
  cases hb <;> simp only [halfRow, blkRow, headAt] <;> simp <;> omega

/-- The numerators' half blocks after the flash step of batch c + 1, given the rows it reads. -/
theorem valsD_flashO :
    ∀ (v787 : BitVec 32) (f4 : Buf (Elt F) ((c : Thread nD τ).loc cc0_scratch4)) (f9 : Buf (Elt F) ((c : Thread nD τ).loc cc0_scratch9))
      (f6 : Buf (Elt F) ((c : Thread nD τ).loc cc0_scratch6)) (fo1 : Buf (Elt F) ((c : Thread nD τ).loc cc0_scratch0)) (fl1 : Buf (Elt F) ((c : Thread nD τ).loc cc0_scratch1))
      (vals : Fin 16 → CpVal F),
      (∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))) →
      ∀ hb : Bool, (locHalfO c 1 hb).view.read (Elt F) (locO.view.writes (Elt F) fo1 (flashD m c v787 f4 f9 f6 fo1 fl1 vals).1) = halfOt m c (nxt c) hb := by
  intro v787 f4 f9 f6 fo1 fl1 vals hv hb
  funext t
  obtain ⟨k, d, i, rfl⟩ : ∃ (k : Fin 4) (d : Fin 128) (i : Fin 256), t = ix3 k d i := ⟨t 0, t 1, t 2, eq_ix3 t⟩
  unfold locHalfO
  rw [KFun.locO_slice_read _ (halfRow c 1 hb) rfl _ c]
  have e : (⟨halfRow c 1 hb + k.val, by have := halfRow_le c 1 hb; omega⟩ : Fin 32)
      = (⟨8 * ((c.val + 1) % 4) + (headAt hb k).val, by have hc : c.val < 4 := c.isLt; have := (headAt hb k).isLt; omega⟩ : Fin 32) := Fin.ext (halfRow1_eq c hb k)
  rw [e]
  unfold flashD
  exact flashO6_rows (F := F) m _ c _ _ _ _ _ _ _ _ _ _ _ _ _ _ _ _ _ _ _ _ _ _ _ _ _ _ _ _ _ _ _ _ _ _ _ _ _ _ _ _ _ _ _ _ _ _ _ _ _ _ _ _ _ (q2D_rows m c f4) (kvbD_planes m c f9 vals hv) (headAt hb k) d i

/-- and the denominators'. -/
theorem valsD_flashL :
    ∀ (v787 : BitVec 32) (f4 : Buf (Elt F) ((c : Thread nD τ).loc cc0_scratch4)) (f9 : Buf (Elt F) ((c : Thread nD τ).loc cc0_scratch9))
      (f6 : Buf (Elt F) ((c : Thread nD τ).loc cc0_scratch6)) (fo1 : Buf (Elt F) ((c : Thread nD τ).loc cc0_scratch0)) (fl1 : Buf (Elt F) ((c : Thread nD τ).loc cc0_scratch1))
      (vals : Fin 16 → CpVal F),
      (∀ (j : Fin 4) (g : Fin 2), vals (vIdx c j ⟨2 * g.val, by omega⟩) = (hbKD c j g).view.read (Elt F) (m ((hbKD c j g).view.loc (c : Thread nD τ)))
            ∧ vals (vIdx c j ⟨2 * g.val + 1, by omega⟩) = (hbVD c j g).view.read (Elt F) (m ((hbVD c j g).view.loc (c : Thread nD τ)))) →
      ∀ hb : Bool, (locHalfL c 1 hb).view.read (Elt F) (locL.view.writes (Elt F) fl1 (flashD m c v787 f4 f9 f6 fo1 fl1 vals).2.1) = halfLr m c (nxt c) hb := by
  intro v787 f4 f9 f6 fo1 fl1 vals hv hb
  funext t
  obtain ⟨k, u, i, rfl⟩ : ∃ (k : Fin 4) (u : Fin 1) (i : Fin 256), t = ix3 k u i := ⟨t 0, t 1, t 2, eq_ix3 t⟩
  obtain rfl : u = 0 := Subsingleton.elim _ _
  unfold locHalfL
  rw [KFun.locL_slice_read _ (halfRow c 1 hb) rfl _ c]
  have e : (⟨halfRow c 1 hb + k.val, by have := halfRow_le c 1 hb; omega⟩ : Fin 32)
      = (⟨8 * ((c.val + 1) % 4) + (headAt hb k).val, by have hc : c.val < 4 := c.isLt; have := (headAt hb k).isLt; omega⟩ : Fin 32) := Fin.ext (halfRow1_eq c hb k)
  rw [e]
  unfold flashD
  exact flashL6_rows (F := F) m _ c _ _ _ _ _ _ _ _ _ _ _ _ _ _ _ _ _ _ _ _ _ _ _ _ _ _ _ _ _ _ _ _ _ _ _ _ _ _ _ _ _ _ _ _ _ _ _ _ _ _ _ _ _ (q2D_rows m c f4) (kvbD_planes m c f9 vals hv) (headAt hb k) i

end Cert.Kernel.Proto

end
-- ==== Proof.KB.Body.lean ====
/-
  The body obligation of every device.
  A device's body starts from the ring's ghost state at names it is handed, the credit dealt at launch, its scratch buffers
  and the four staged windows, owing every payment of the protocol. Opening the names and the recorded waits gives the
  first cut's state; the body is the sequence of its segments, each from one cut's state to the next, and the last leaves
  what the pipeline asks of a body.
-/
import proofs.«900754_g7700000000000755_dist_attn_cross_gqa_kvseq_b4_sq256_skv1024_d1024_hq8_dh128_v7x_i4_f32_1_alg».proof.Proof.KB.Data
import proofs.«900754_g7700000000000755_dist_attn_cross_gqa_kvseq_b4_sq256_skv1024_d1024_hq8_dh128_v7x_i4_f32_1_alg».proof.Proof.KB.SchedTab
import proofs.«900754_g7700000000000755_dist_attn_cross_gqa_kvseq_b4_sq256_skv1024_d1024_hq8_dh128_v7x_i4_f32_1_alg».proof.Proof.KB.Unfold
import proofs.«900754_g7700000000000755_dist_attn_cross_gqa_kvseq_b4_sq256_skv1024_d1024_hq8_dh128_v7x_i4_f32_1_alg».proof.Proof.KB.BodyOf
import proofs.«900754_g7700000000000755_dist_attn_cross_gqa_kvseq_b4_sq256_skv1024_d1024_hq8_dh128_v7x_i4_f32_1_alg».proof.Proof.KB.Regroup32
import proofs.«900754_g7700000000000755_dist_attn_cross_gqa_kvseq_b4_sq256_skv1024_d1024_hq8_dh128_v7x_i4_f32_1_alg».proof.Proof.KB.ValsDProof
import proofs.«900754_g7700000000000755_dist_attn_cross_gqa_kvseq_b4_sq256_skv1024_d1024_hq8_dh128_v7x_i4_f32_1_alg».proof.Proof.KB.TailSpec
import proofs.«900754_g7700000000000755_dist_attn_cross_gqa_kvseq_b4_sq256_skv1024_d1024_hq8_dh128_v7x_i4_f32_1_alg».proof.Proof.KB.BodyA
import proofs.«900754_g7700000000000755_dist_attn_cross_gqa_kvseq_b4_sq256_skv1024_d1024_hq8_dh128_v7x_i4_f32_1_alg».proof.Proof.KB.BodyB
import proofs.«900754_g7700000000000755_dist_attn_cross_gqa_kvseq_b4_sq256_skv1024_d1024_hq8_dh128_v7x_i4_f32_1_alg».proof.Proof.KB.BodyTail
import proofs.«900754_g7700000000000755_dist_attn_cross_gqa_kvseq_b4_sq256_skv1024_d1024_hq8_dh128_v7x_i4_f32_1_alg».proof.Proof.KB.ValsDFlash
import proofs.«900754_g7700000000000755_dist_attn_cross_gqa_kvseq_b4_sq256_skv1024_d1024_hq8_dh128_v7x_i4_f32_1_alg».proof.Proof.Gen.Kernel.Skeleton
import proofs.«900754_g7700000000000755_dist_attn_cross_gqa_kvseq_b4_sq256_skv1024_d1024_hq8_dh128_v7x_i4_f32_1_alg».proof.Proof.Gen.Kernel.Points
import proofs.«900754_g7700000000000755_dist_attn_cross_gqa_kvseq_b4_sq256_skv1024_d1024_hq8_dh128_v7x_i4_f32_1_alg».proof.Proof.Gen.Kernel.Launch
import Idealize.ShloMosaic.Lib.Tactic

set_option maxRecDepth 16384

noncomputable section

namespace Cert.Kernel.Proto

open Cert.Kernel Cert.Kernel.Gen Cert.Kernel.Ring
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

omit [FloatOps F] in
/-- A whole staging buffer at given contents, as a points-to of its location. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What device `c`'s body starts from, at the names `K` and with the waits `W` recorded: the ring's ghost state, the credit
    dealt at launch, the level facts, the local-copy semaphores at zero, the unstaged arrays, the scratch buffers, what it
    owes, and the four staged windows. -/
def BodyStart (m : (ℓ : Loc nD τ sig) → Buf (Elt F) ℓ) (c : Dev nD) (K : Names) (W : Waits sig Unit) : sProp 𝕄 :=
  iprop(((ghost (KFun.V m) K c ∗ cred (tallyAt (barCell c) () 2)
        ∗ (bigSep Finset.univ fun x : Xfer => cred (tallyAt (recvCell c x.1 x.2.1 x.2.2) () (amt x.1)))
        ∗ levAts L lv ∗ copySems0 c ∗ hbm m c) ∗ scratch c)
    ∗ owes (c : Thread nD τ) (O₀ c) W
    ∗ (∃ d f, ⌜f = (dats (KFun.V m) m KFun.Kout 0 c).before 0 t0_0 d⌝ ∗ (c : Thread nD τ).loc cc0_stg0_0 ↦{fullShare} f)
    ∗ (∃ d f, ⌜f = (dats (KFun.V m) m KFun.Kout 0 c).before 1 t0_0 d⌝ ∗ (c : Thread nD τ).loc cc0_stg1_0 ↦{fullShare} f)
    ∗ (∃ d f, ⌜f = (dats (KFun.V m) m KFun.Kout 0 c).before 2 t0_0 d⌝ ∗ (c : Thread nD τ).loc cc0_stg2_0 ↦{fullShare} f)
    ∗ (∃ d f, ⌜f = (dats (KFun.V m) m KFun.Kout 0 c).before 3 t0_0 d⌝ ∗ (c : Thread nD τ).loc cc0_stg3_0 ↦{fullShare} f))

set_option maxHeartbeats 4000000 in
/-- The body obligation of every device from the segments of its body. -/
theorem bodyOK_of (m : (ℓ : Loc nD τ sig) → Buf (Elt F) ℓ)
    (hA : ∀ (c : Dev nD) (K : Names) (W : Waits sig Unit), BodyStart m c K W ⊢ wp frame (wpE (defs₀ (F := F)) 𝒱₀ (c : Thread nD τ) none) Set.univ (segAProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _)) (fun r => iprop(∃ W', At15 m c K W' r.2.2.2.2.1 r.2.2.2.2.2 ∗ ⌜r.1 = c⌝)))
    (hB : ∀ (c : Dev nD) (K : Names) (W : Waits sig Unit) (v2 v14 v25 : BitVec 32) (v26 : Sems sig S_) (v226 : FVec F S256x1024 .f32), At15 m c K W v26 v226 ⊢ wp frame (wpE (defs₀ (F := F)) 𝒱₀ (c : Thread nD τ) none) Set.univ (segBProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v26 v226) (fun _ => iprop(∃ W', At27 m c K W' (Rest27 m c) c v2 v14 v25)))
    (hv : ∀ c : Dev nD, ValsD m c)
    (hT : ∀ (c : Dev nD) (K : Names) (W : Waits sig Unit) (v14 v25 v1157 : BitVec 32), AtTail m c K W ⊢ wp frame (wpE (defs₀ (F := F)) 𝒱₀ (c : Thread nD τ) none) Set.univ (tailProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v14 v25 v1157) (fun _ => bodyPost m c)) :
    BodyOK (KFun.V m) m KFun.Kout := fun c t => by
  rw [Gen.fin_N0 t]
  rw [Gen.bigSep_W0, Gen.bigSep_W0]
  simp only [owns_whole_eq]
  show iprop(Φ₀ (KFun.V m) m c ∗ _ ∗ _) ⊢ wp frame (wpE (defs₀ (F := F)) 𝒱₀ c none) Set.univ (bodyAt0 t0_0) _
  unfold bodyAt0
  simp only [cc0_body_eq_skeleton]
  unfold Φ₀ start Dat.owesAt Pipeline.owesWithin
  rw [show (dats (KFun.V m) m KFun.Kout 0 c).owed t0_0.castSucc = O₀ c from rfl]
  iintro ⟨⟨⟨⟨%K, Hg⟩, Hcb, Hcx, Hlev, Hcs, Hhbm⟩, Hscr⟩, ⟨%W, %hW, HO⟩, Hw0, Hw1, Hw2, Hw3⟩
  iapply (body_of_segments m c K W (BodyStart m c K W) (fun _ => bodyPost m c) (hA c K W) (hB c K) (post32_at32 m c K) (segD_ok m c K (hv c)) (hT c K)) $$ [Hg Hcb Hcx Hlev Hcs Hhbm Hscr HO Hw0 Hw1 Hw2 Hw3]
  unfold BodyStart
  isplitl [Hg Hcb Hcx Hlev Hcs Hhbm Hscr]
  · isplitl [Hg Hcb Hcx Hlev Hcs Hhbm]
    · isplitl [Hg]; · iexact Hg
      isplitl [Hcb]; · iexact Hcb
      isplitl [Hcx]; · iexact Hcx
      isplitl [Hlev]; · iexact Hlev
      isplitl [Hcs]; · iexact Hcs
      iexact Hhbm
    iexact Hscr
  isplitl [HO]; · iexact HO
  isplitl [Hw0]; · iexact Hw0
  isplitl [Hw1]; · iexact Hw1
  isplitl [Hw2]; · iexact Hw2
  iexact Hw3

/-- The body obligation of every device, given the second segment. -/
theorem bodyOK_of_B (m : (ℓ : Loc nD τ sig) → Buf (Elt F) ℓ)
    (hB : ∀ (c : Dev nD) (K : Names), ∀ (W : Waits sig Unit) (v2 v14 v25 : BitVec 32) (v26 : Sems sig S_) (v226 : FVec F S256x1024 .f32), At15 m c K W v26 v226 ⊢ wp frame (wpE (defs₀ (F := F)) 𝒱₀ (c : Thread nD τ) none) Set.univ (segBProg (F := F) (stage0_0 0) (hstage0_0 0) (stage0_1 0) (hstage0_1 0) (stage0_2 0) (hstage0_2 0) (Memref.whole main_arg3) (Memref.isWhole_whole _) (Memref.whole main_arg4) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 (Memref.whole cc0_scratch23) (Memref.isWhole_whole _) c v2 v14 v25 v26 v226) (fun _ => iprop(∃ W', At27 m c K W' (Rest27 m c) c v2 v14 v25))) :
    BodyOK (KFun.V m) m KFun.Kout :=
  bodyOK_of m (fun c K W => segA_ok m c K W) (fun c K W v2 v14 v25 v26 v226 => hB c K W v2 v14 v25 v26 v226)
    (fun c => { flashO := valsD_flashO m c, flashL := valsD_flashL m c, mergeO := valsD_mergeO m c, mergeL := valsD_mergeL m c })
    (fun c K W v14 v25 v1157 => tail_ok m c K W v14 v25 v1157)

/-- The body obligation of every device. -/
theorem bodyOK (m : (ℓ : Loc nD τ sig) → Buf (Elt F) ℓ) : BodyOK (KFun.V m) m KFun.Kout :=
  bodyOK_of_B m (fun c K W v2 v14 v25 v26 v226 => segB_ok m c K W v2 v14 v25 v26 v226)

end Cert.Kernel.Proto
end

/-- info: 'Cert.Kernel.Proto.bodyOK_of' depends on axioms: [propext, Classical.choice, Quot.sound] -/
#guard_msgs in #print axioms Cert.Kernel.Proto.bodyOK_of
/-- info: 'Cert.Kernel.Proto.bodyOK_of_B' depends on axioms: [propext, Classical.choice, Quot.sound] -/
#guard_msgs in #print axioms Cert.Kernel.Proto.bodyOK_of_B
/-- info: 'Cert.Kernel.Proto.bodyOK' depends on axioms: [propext, Classical.choice, Quot.sound] -/
#guard_msgs in #print axioms Cert.Kernel.Proto.bodyOK
-- ==== Proof.lean ====
/-
  The certificate of the four-device cross-attention kernel.

  Both programs compute one function of the whole arrays: for a batch, a query row and a head, the softmax-weighted
  mean of the value rows under the scores `(x · Wq) · Kᵀ · scale`, heads laid side by side, times `Wo` (the
  specification).  The reference program computes it by a streaming recurrence with a running shift, which cancels in the
  quotient.  The kernel computes, on every device, unshifted partial numerators and denominators over the device's quarter
  of the key rows; sums them round a ring, heads 0–3 one way and heads 4–7 the other; normalises on the device a batch
  ends on; and gathers the four batches to every device.  Sums over the extended reals may be regrouped freely, so the
  ring's result is the whole sum.

  The pieces: the reference's frame and its run with the result named by the specification; the kernel's run from the
  launch theorem and each device's body, its result named by a pure function of the launch memory; that function's value,
  the specification, when the devices hold consistent copies and their quarters; the precondition making every
  argument real-valued; and a device's block being its quarter.  The word-level kernel's frame is its run with the
  values dropped.
-/
import proofs.«900754_g7700000000000755_dist_attn_cross_gqa_kvseq_b4_sq256_skv1024_d1024_hq8_dh128_v7x_i4_f32_1_alg».proof.Defs
import proofs.«900754_g7700000000000755_dist_attn_cross_gqa_kvseq_b4_sq256_skv1024_d1024_hq8_dh128_v7x_i4_f32_1_alg».proof.Proof.Gen.Kernel
import proofs.«900754_g7700000000000755_dist_attn_cross_gqa_kvseq_b4_sq256_skv1024_d1024_hq8_dh128_v7x_i4_f32_1_alg».proof.Proof.Gen.Kernel.Skeleton
import proofs.«900754_g7700000000000755_dist_attn_cross_gqa_kvseq_b4_sq256_skv1024_d1024_hq8_dh128_v7x_i4_f32_1_alg».proof.Proof.Gen.Kernel.Loops
import proofs.«900754_g7700000000000755_dist_attn_cross_gqa_kvseq_b4_sq256_skv1024_d1024_hq8_dh128_v7x_i4_f32_1_alg».proof.Proof.Gen.Kernel.Launch
import proofs.«900754_g7700000000000755_dist_attn_cross_gqa_kvseq_b4_sq256_skv1024_d1024_hq8_dh128_v7x_i4_f32_1_alg».proof.Proof.Gen.Kernel.Points
import proofs.«900754_g7700000000000755_dist_attn_cross_gqa_kvseq_b4_sq256_skv1024_d1024_hq8_dh128_v7x_i4_f32_1_alg».proof.Proof.Gen.Kernel.Frame
import proofs.«900754_g7700000000000755_dist_attn_cross_gqa_kvseq_b4_sq256_skv1024_d1024_hq8_dh128_v7x_i4_f32_1_alg».proof.Proof.Gen.KernelIdeal
import proofs.«900754_g7700000000000755_dist_attn_cross_gqa_kvseq_b4_sq256_skv1024_d1024_hq8_dh128_v7x_i4_f32_1_alg».proof.Proof.Gen.KernelIdeal.Skeleton
import proofs.«900754_g7700000000000755_dist_attn_cross_gqa_kvseq_b4_sq256_skv1024_d1024_hq8_dh128_v7x_i4_f32_1_alg».proof.Proof.Gen.KernelIdeal.Loops
import proofs.«900754_g7700000000000755_dist_attn_cross_gqa_kvseq_b4_sq256_skv1024_d1024_hq8_dh128_v7x_i4_f32_1_alg».proof.Proof.Gen.KernelIdeal.Launch
import proofs.«900754_g7700000000000755_dist_attn_cross_gqa_kvseq_b4_sq256_skv1024_d1024_hq8_dh128_v7x_i4_f32_1_alg».proof.Proof.Gen.KernelIdeal.Points
import proofs.«900754_g7700000000000755_dist_attn_cross_gqa_kvseq_b4_sq256_skv1024_d1024_hq8_dh128_v7x_i4_f32_1_alg».proof.Proof.Gen.KernelIdeal.Frame
import proofs.«900754_g7700000000000755_dist_attn_cross_gqa_kvseq_b4_sq256_skv1024_d1024_hq8_dh128_v7x_i4_f32_1_alg».proof.Proof.Gen.ReferenceIdeal
import proofs.«900754_g7700000000000755_dist_attn_cross_gqa_kvseq_b4_sq256_skv1024_d1024_hq8_dh128_v7x_i4_f32_1_alg».proof.Proof.Gen.Pre_finite_inputs_Kernel
import proofs.«900754_g7700000000000755_dist_attn_cross_gqa_kvseq_b4_sq256_skv1024_d1024_hq8_dh128_v7x_i4_f32_1_alg».proof.Proof.Gen.Pre_finite_inputs_ReferenceIdeal
import proofs.«900754_g7700000000000755_dist_attn_cross_gqa_kvseq_b4_sq256_skv1024_d1024_hq8_dh128_v7x_i4_f32_1_alg».proof.Proof.Assembly
import proofs.«900754_g7700000000000755_dist_attn_cross_gqa_kvseq_b4_sq256_skv1024_d1024_hq8_dh128_v7x_i4_f32_1_alg».proof.Proof.RefValue
import proofs.«900754_g7700000000000755_dist_attn_cross_gqa_kvseq_b4_sq256_skv1024_d1024_hq8_dh128_v7x_i4_f32_1_alg».proof.Proof.Finite
import proofs.«900754_g7700000000000755_dist_attn_cross_gqa_kvseq_b4_sq256_skv1024_d1024_hq8_dh128_v7x_i4_f32_1_alg».proof.Proof.KFun
import proofs.«900754_g7700000000000755_dist_attn_cross_gqa_kvseq_b4_sq256_skv1024_d1024_hq8_dh128_v7x_i4_f32_1_alg».proof.Proof.KFunValue
import proofs.«900754_g7700000000000755_dist_attn_cross_gqa_kvseq_b4_sq256_skv1024_d1024_hq8_dh128_v7x_i4_f32_1_alg».proof.Proof.KLaunch
import proofs.«900754_g7700000000000755_dist_attn_cross_gqa_kvseq_b4_sq256_skv1024_d1024_hq8_dh128_v7x_i4_f32_1_alg».proof.Proof.Body
import proofs.«900754_g7700000000000755_dist_attn_cross_gqa_kvseq_b4_sq256_skv1024_d1024_hq8_dh128_v7x_i4_f32_1_alg».proof.Proof.KB.KFun
import proofs.«900754_g7700000000000755_dist_attn_cross_gqa_kvseq_b4_sq256_skv1024_d1024_hq8_dh128_v7x_i4_f32_1_alg».proof.Proof.KB.KLaunch
import proofs.«900754_g7700000000000755_dist_attn_cross_gqa_kvseq_b4_sq256_skv1024_d1024_hq8_dh128_v7x_i4_f32_1_alg».proof.Proof.KB.Body
import Idealize.ShloMosaic.Adequacy
import Idealize.ShloMosaic.Init

noncomputable section

namespace Cert.Proof

open Idealize.ShloMosaic Idealize.SL.Sem

/-- The idealized kernel's run with its result named: the launch theorem's run of the four devices, the result array
    read as the block the body left. -/
theorem kernelRun : Cert.Proof.Assembly.KernelRun (Cert.KernelIdeal.KFun.Kout (F := Ideal)) := fun m g =>
  (θ_run _ _ _).mono
    (fun _ h c => ⟨(h c).1.trans (Cert.KernelIdeal.Proto.arrAt_result (Cert.KernelIdeal.KFun.V m) m Cert.KernelIdeal.KFun.Kout c), (h c).2⟩)
    (Cert.KernelIdeal.Proto.run_main (Cert.KernelIdeal.KFun.V m) m g Cert.KernelIdeal.KFun.Kout (Cert.KernelIdeal.Proto.bodyOK m))

/-- The word-level kernel's frame: its run with the values dropped. -/
theorem frameKernel : Cert.frame_Kernel := fun m g _ =>
  (θ_run _ _ _).mono (fun _ h c => (h c).2)
    (Cert.Kernel.Proto.run_main (Cert.Kernel.KFun.V m) m g Cert.Kernel.KFun.Kout (Cert.Kernel.Proto.bodyOK m))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.Assembly.claim_parts frameKernel (Cert.KernelIdeal.KFun.Kout (F := Ideal)) kernelRun Cert.KernelIdeal.KFun.kernelValue
    Cert.Proof.Ref.frame Cert.Proof.Ref.run Cert.Proof.Fin.kernel_args_real Cert.Proof.Fin.block_eq_quarter
    Cert.Proof.Fin.allReal_of_quarters⟩

end Cert.Proof

end
